-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S50000x16 : Shape := ⟨2, ![50000, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000x16 : S_.BroadcastsInDim S50000x16 (![] : Fin 0 → Fin S50000x16.rank)
  reducesTo_S50000x16_S_d0_1 : S50000x16.ReducesTo [0, 1] S_

variable [Facts]

def fn_part1 {F : FTy → Type} [FloatOps F] (main_arg4 : IVec S50000x16 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S50000x16 32 := broadcastInDim S50000x16 ![] bcast_S_S50000x16 main_c_6
  let main_v20 : IVec S50000x16 1 := cmpi .sge main_arg4 main_v19
  let main_c_7 : IVec S_ 32 := constantI S_ 32 100000#32
  let main_v21 : IVec S50000x16 32 := broadcastInDim S50000x16 ![] bcast_S_S50000x16 main_c_7
  let main_v22 : IVec S50000x16 1 := cmpi .slt main_arg4 main_v21
  let main_v23 : IVec S50000x16 1 := andi main_v20 main_v22
  let main_c_8 : IVec S_ 1 := constantI S_ 1 1#1
  let main_v24 : IVec S_ 1 := (fun x v => Host.reduce IntOp.andi x v reducesTo_S50000x16_S_d0_1 h_S_) main_v23 main_c_8
  let main_v25 : IVec S_ 1 := andi main_v18 main_v24
  main_v25

def fn {F : FTy → Type} [FloatOps F] (main_arg0 : FVec F S100000x128 .f32) (main_arg1 : FVec F S128x128 .f32) (main_arg2 : FVec F S128 .f32) (main_arg3 : FVec F S128 .f32) (main_arg4 : IVec S50000x16 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S50000x16 : Shape := ⟨2, ![50000, 16]⟩
abbrev S16x50000 : Shape := ⟨2, ![16, 50000]⟩
abbrev S16x2000 : Shape := ⟨2, ![16, 2000]⟩
abbrev S2000x128 : Shape := ⟨2, ![2000, 128]⟩
abbrev S1000x128 : Shape := ⟨2, ![1000, 128]⟩
abbrev S16x128 : Shape := ⟨2, ![16, 128]⟩
abbrev S16 : Shape := ⟨1, ![16]⟩
abbrev S1x1 : Shape := ⟨2, ![1, 1]⟩
abbrev S1 : Shape := ⟨1, ![1]⟩
abbrev S_ : Shape := ⟨0, ![]⟩
abbrev S1x128 : Shape := ⟨2, ![1, 128]⟩
abbrev S32000x128 : Shape := ⟨2, ![32000, 128]⟩
abbrev S18000x128 : Shape := ⟨2, ![18000, 128]⟩
abbrev S50000x128 : Shape := ⟨2, ![50000, 128]⟩
abbrev S2x128 : Shape := ⟨2, ![2, 128]⟩
abbrev S5000x128 : Shape := ⟨2, ![5000, 128]⟩

abbrev nBuf : Space → Nat
  | .hbm => 57
  | .vmem => 134
  | .smem => 25
  | _ => 0

abbrev vmemTy0_0 (i : Nat) : BufTy := match i % 128 with
  | 0 => ⟨S128x128, .f32⟩
  | 1 => ⟨S1000x128, .f32⟩
  | 2 => ⟨S1000x128, .f32⟩
  | 3 => ⟨S1000x128, .f32⟩
  | 4 => ⟨S16x128, .f32⟩
  | 5 => ⟨S128x128, .f32⟩
  | 6 => ⟨S1000x128, .f32⟩
  | 7 => ⟨S1000x128, .f32⟩
  | 8 => ⟨S1000x128, .f32⟩
  | 9 => ⟨S16x128, .f32⟩
  | 10 => ⟨S128x128, .f32⟩
  | 11 => ⟨S1000x128, .f32⟩
  | 12 => ⟨S1000x128, .f32⟩
  | 13 => ⟨S1000x128, .f32⟩
  | 14 => ⟨S16x128, .f32⟩
  | 15 => ⟨S128x128, .f32⟩
  | 16 => ⟨S1000x128, .f32⟩
  | 17 => ⟨S1000x128, .f32⟩
  | 18 => ⟨S1000x128, .f32⟩
  | 19 => ⟨S16x128, .f32⟩
  | 20 => ⟨S128x128, .f32⟩
  | 21 => ⟨S1000x128, .f32⟩
  | 22 => ⟨S1000x128, .f32⟩
  | 23 => ⟨S1000x128, .f32⟩
  | 24 => ⟨S16x128, .f32⟩
  | 25 => ⟨S128x128, .f32⟩
  | 26 => ⟨S1000x128, .f32⟩
  | 27 => ⟨S1000x128, .f32⟩
  | 28 => ⟨S1000x128, .f32⟩
  | 29 => ⟨S16x128, .f32⟩
  | 30 => ⟨S128x128, .f32⟩
  | 31 => ⟨S1000x128, .f32⟩
  | 32 => ⟨S1000x128, .f32⟩
  | 33 => ⟨S1000x128, .f32⟩
  | 34 => ⟨S16x128, .f32⟩
  | 35 => ⟨S128x128, .f32⟩
  | 36 => ⟨S1000x128, .f32⟩
  | 37 => ⟨S1000x128, .f32⟩
  | 38 => ⟨S1000x128, .f32⟩
  | 39 => ⟨S16x128, .f32⟩
  | 40 => ⟨S128x128, .f32⟩
  | 41 => ⟨S1000x128, .f32⟩
  | 42 => ⟨S1000x128, .f32⟩
  | 43 => ⟨S1000x128, .f32⟩
  | 44 => ⟨S16x128, .f32⟩
  | 45 => ⟨S128x128, .f32⟩
  | 46 => ⟨S1000x128, .f32⟩
  | 47 => ⟨S1000x128, .f32⟩
  | 48 => ⟨S1000x128, .f32⟩
  | 49 => ⟨S16x128, .f32⟩
  | 50 => ⟨S128x128, .f32⟩
  | 51 => ⟨S1000x128, .f32⟩
  | 52 => ⟨S1000x128, .f32⟩
  | 53 => ⟨S1000x128, .f32⟩
  | 54 => ⟨S16x128, .f32⟩
  | 55 => ⟨S128x128, .f32⟩
  | 56 => ⟨S1000x128, .f32⟩
  | 57 => ⟨S1000x128, .f32⟩
  | 58 => ⟨S1000x128, .f32⟩
  | 59 => ⟨S16x128, .f32⟩
  | 60 => ⟨S128x128, .f32⟩
  | 61 => ⟨S1000x128, .f32⟩
  | 62 => ⟨S1000x128, .f32⟩
  | 63 => ⟨S1000x128, .f32⟩
  | 64 => ⟨S16x128, .f32⟩
  | 65 => ⟨S128x128, .f32⟩
  | 66 => ⟨S1000x128, .f32⟩
  | 67 => ⟨S1000x128, .f32⟩
  | 68 => ⟨S1000x128, .f32⟩
  | 69 => ⟨S16x128, .f32⟩
  | 70 => ⟨S128x128, .f32⟩
  | 71 => ⟨S1000x128, .f32⟩
  | 72 => ⟨S1000x128, .f32⟩
  | 73 => ⟨S1000x128, .f32⟩
  | 74 => ⟨S16x128, .f32⟩
  | 75 => ⟨S128x128, .f32⟩
  | 76 => ⟨S1000x128, .f32⟩
  | 77 => ⟨S1000x128, .f32⟩
  | 78 => ⟨S1000x128, .f32⟩
  | 79 => ⟨S16x128, .f32⟩
  | 80 => ⟨S128x128, .f32⟩
  | 81 => ⟨S1000x128, .f32⟩
  | 82 => ⟨S1000x128, .f32⟩
  | 83 => ⟨S1000x128, .f32⟩
  | 84 => ⟨S16x128, .f32⟩
  | 85 => ⟨S128x128, .f32⟩
  | 86 => ⟨S1000x128, .f32⟩
  | 87 => ⟨S1000x128, .f32⟩
  | 88 => ⟨S1000x128, .f32⟩
  | 89 => ⟨S16x128, .f32⟩
  | 90 => ⟨S128x128, .f32⟩
  | 91 => ⟨S1000x128, .f32⟩
  | 92 => ⟨S1000x128, .f32⟩
  | 93 => ⟨S1000x128, .f32⟩
  | 94 => ⟨S16x128, .f32⟩
  | 95 => ⟨S128x128, .f32⟩
  | 96 => ⟨S1000x128, .f32⟩
  | 97 => ⟨S1000x128, .f32⟩
  | 98 => ⟨S1000x128, .f32⟩
  | 99 => ⟨S16x128, .f32⟩
  | 100 => ⟨S128x128, .f32⟩
  | 101 => ⟨S1000x128, .f32⟩
  | 102 => ⟨S1000x128, .f32⟩
  | 103 => ⟨S1000x128, .f32⟩
  | 104 => ⟨S16x128, .f32⟩
  | 105 => ⟨S128x128, .f32⟩
  | 106 => ⟨S1000x128, .f32⟩
  | 107 => ⟨S1000x128, .f32⟩
  | 108 => ⟨S1000x128, .f32⟩
  | 109 => ⟨S16x128, .f32⟩
  | 110 => ⟨S128x128, .f32⟩
  | 111 => ⟨S1000x128, .f32⟩
  | 112 => ⟨S1000x128, .f32⟩
  | 113 => ⟨S1000x128, .f32⟩
  | 114 => ⟨S16x128, .f32⟩
  | 115 => ⟨S128x128, .f32⟩
  | 116 => ⟨S1000x128, .f32⟩
  | 117 => ⟨S1000x128, .f32⟩
  | 118 => ⟨S1000x128, .f32⟩
  | 119 => ⟨S16x128, .f32⟩
  | 120 => ⟨S128x128, .f32⟩
  | 121 => ⟨S1000x128, .f32⟩
  | 122 => ⟨S1000x128, .f32⟩
  | 123 => ⟨S1000x128, .f32⟩
  | 124 => ⟨S16x128, .f32⟩
  | 125 => ⟨S5000x128, .f32⟩
  | 126 => ⟨S5000x128, .f32⟩
  | 127 => ⟨S2x128, .f32⟩
  | _ => ⟨S100000x128, .f32⟩

abbrev vmemTy0_1 (i : Nat) : BufTy := match i % 128 with
  | 0 => ⟨S5000x128, .f32⟩
  | 1 => ⟨S5000x128, .f32⟩
  | 2 => ⟨S1x128, .f32⟩
  | 3 => ⟨S1x128, .f32⟩
  | 4 => ⟨S5000x128, .f32⟩
  | 5 => ⟨S5000x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S50000x16, .i32⟩
  | .hbm, ⟨5, _⟩ => ⟨S16x50000, .i32⟩
  | .hbm, ⟨6, _⟩ => ⟨S2000x128, .f32⟩
  | .hbm, ⟨7, _⟩ => ⟨S2000x128, .f32⟩
  | .hbm, ⟨8, _⟩ => ⟨S2000x128, .f32⟩
  | .hbm, ⟨9, _⟩ => ⟨S2000x128, .f32⟩
  | .hbm, ⟨10, _⟩ => ⟨S2000x128, .f32⟩
  | .hbm, ⟨11, _⟩ => ⟨S2000x128, .f32⟩
  | .hbm, ⟨12, _⟩ => ⟨S2000x128, .f32⟩
  | .hbm, ⟨13, _⟩ => ⟨S2000x128, .f32⟩
  | .hbm, ⟨14, _⟩ => ⟨S2000x128, .f32⟩
  | .hbm, ⟨15, _⟩ => ⟨S2000x128, .f32⟩
  | .hbm, ⟨16, _⟩ => ⟨S2000x128, .f32⟩
  | .hbm, ⟨17, _⟩ => ⟨S2000x128, .f32⟩
  | .hbm, ⟨18, _⟩ => ⟨S2000x128, .f32⟩
  | .hbm, ⟨19, _⟩ => ⟨S2000x128, .f32⟩
  | .hbm, ⟨20, _⟩ => ⟨S2000x128, .f32⟩
  | .hbm, ⟨21, _⟩ => ⟨S2000x128, .f32⟩
  | .hbm, ⟨22, _⟩ => ⟨S2000x128, .f32⟩
  | .hbm, ⟨23, _⟩ => ⟨S2000x128, .f32⟩
  | .hbm, ⟨24, _⟩ => ⟨S2000x128, .f32⟩
  | .hbm, ⟨25, _⟩ => ⟨S2000x128, .f32⟩
  | .hbm, ⟨26, _⟩ => ⟨S2000x128, .f32⟩
  | .hbm, ⟨27, _⟩ => ⟨S2000x128, .f32⟩
  | .hbm, ⟨28, _⟩ => ⟨S2000x128, .f32⟩
  | .hbm, ⟨29, _⟩ => ⟨S2000x128, .f32⟩
  | .hbm, ⟨30, _⟩ => ⟨S2000x128, .f32⟩
  | .hbm, ⟨31, _⟩ => ⟨S32000x128, .f32⟩
  | .hbm, ⟨32, _⟩ => ⟨S18000x128, .f32⟩
  | .hbm, ⟨33, _⟩ => ⟨S50000x128, .f32⟩
  | .hbm, ⟨34, _⟩ => ⟨S2x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S1x128, .f32⟩
  | .hbm, ⟨56, _⟩ => ⟨S50000x128, .f32⟩
  | .local _ .vmem, ⟨i, _⟩ => vmemTy i
  | .local _ .smem, ⟨0, _⟩ => ⟨S16x2000, .i32⟩
  | .local _ .smem, ⟨1, _⟩ => ⟨S16x2000, .i32⟩
  | .local _ .smem, ⟨2, _⟩ => ⟨S16x2000, .i32⟩
  | .local _ .smem, ⟨3, _⟩ => ⟨S16x2000, .i32⟩
  | .local _ .smem, ⟨4, _⟩ => ⟨S16x2000, .i32⟩
  | .local _ .smem, ⟨5, _⟩ => ⟨S16x2000, .i32⟩
  | .local _ .smem, ⟨6, _⟩ => ⟨S16x2000, .i32⟩
  | .local _ .smem, ⟨7, _⟩ => ⟨S16x2000, .i32⟩
  | .local _ .smem, ⟨8, _⟩ => ⟨S16x2000, .i32⟩
  | .local _ .smem, ⟨9, _⟩ => ⟨S16x2000, .i32⟩
  | .local _ .smem, ⟨10, _⟩ => ⟨S16x2000, .i32⟩
  | .local _ .smem, ⟨11, _⟩ => ⟨S16x2000, .i32⟩
  | .local _ .smem, ⟨12, _⟩ => ⟨S16x2000, .i32⟩
  | .local _ .smem, ⟨13, _⟩ => ⟨S16x2000, .i32⟩
  | .local _ .smem, ⟨14, _⟩ => ⟨S16x2000, .i32⟩
  | .local _ .smem, ⟨15, _⟩ => ⟨S16x2000, .i32⟩
  | .local _ .smem, ⟨16, _⟩ => ⟨S16x2000, .i32⟩
  | .local _ .smem, ⟨17, _⟩ => ⟨S16x2000, .i32⟩
  | .local _ .smem, ⟨18, _⟩ => ⟨S16x2000, .i32⟩
  | .local _ .smem, ⟨19, _⟩ => ⟨S16x2000, .i32⟩
  | .local _ .smem, ⟨20, _⟩ => ⟨S16x2000, .i32⟩
  | .local _ .smem, ⟨21, _⟩ => ⟨S16x2000, .i32⟩
  | .local _ .smem, ⟨22, _⟩ => ⟨S16x2000, .i32⟩
  | .local _ .smem, ⟨23, _⟩ => ⟨S16x2000, .i32⟩
  | .local _ .smem, ⟨24, _⟩ => ⟨S16x2000, .i32⟩
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 484 → Bool
  | ⟨i, _⟩ => dmaSemScopedAt i

abbrev sig : RefSig :=
  ofTc nBuf bufTy 0 484 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v2 : Ref sig .tc := ⟨.hbm, 6, rfl⟩
abbrev main_v4 : Ref sig .tc := ⟨.hbm, 7, rfl⟩
abbrev main_v6 : Ref sig .tc := ⟨.hbm, 8, rfl⟩
abbrev main_v8 : Ref sig .tc := ⟨.hbm, 9, rfl⟩
abbrev main_v10 : Ref sig .tc := ⟨.hbm, 10, rfl⟩
abbrev main_v12 : Ref sig .tc := ⟨.hbm, 11, rfl⟩
abbrev main_v14 : Ref sig .tc := ⟨.hbm, 12, rfl⟩
abbrev main_v16 : Ref sig .tc := ⟨.hbm, 13, rfl⟩
abbrev main_v18 : Ref sig .tc := ⟨.hbm, 14, rfl⟩
abbrev main_v20 : Ref sig .tc := ⟨.hbm, 15, rfl⟩
abbrev main_v22 : Ref sig .tc := ⟨.hbm, 16, rfl⟩
abbrev main_v24 : Ref sig .tc := ⟨.hbm, 17, rfl⟩
abbrev main_v26 : Ref sig .tc := ⟨.hbm, 18, rfl⟩
abbrev main_v28 : Ref sig .tc := ⟨.hbm, 19, rfl⟩
abbrev main_v30 : Ref sig .tc := ⟨.hbm, 20, rfl⟩
abbrev main_v32 : Ref sig .tc := ⟨.hbm, 21, rfl⟩
abbrev main_v34 : Ref sig .tc := ⟨.hbm, 22, rfl⟩
abbrev main_v36 : Ref sig .tc := ⟨.hbm, 23, rfl⟩
abbrev main_v38 : Ref sig .tc := ⟨.hbm, 24, rfl⟩
abbrev main_v40 : Ref sig .tc := ⟨.hbm, 25, rfl⟩
abbrev main_v42 : Ref sig .tc := ⟨.hbm, 26, rfl⟩
abbrev main_v44 : Ref sig .tc := ⟨.hbm, 27, rfl⟩
abbrev main_v46 : Ref sig .tc := ⟨.hbm, 28, rfl⟩
abbrev main_v48 : Ref sig .tc := ⟨.hbm, 29, rfl⟩
abbrev main_v50 : Ref sig .tc := ⟨.hbm, 30, rfl⟩
abbrev main_v51 : Ref sig .tc := ⟨.hbm, 31, rfl⟩
abbrev main_v52 : Ref sig .tc := ⟨.hbm, 32, rfl⟩
abbrev main_v53 : Ref sig .tc := ⟨.hbm, 33, rfl⟩
abbrev main_v54 : Ref sig .tc := ⟨.hbm, 34, rfl⟩
abbrev main_v55 : Ref sig .tc := ⟨.hbm, 35, rfl⟩
abbrev main_v56 : Ref sig .tc := ⟨.hbm, 36, rfl⟩
abbrev main_v57 : Ref sig .tc := ⟨.hbm, 37, rfl⟩
abbrev main_v58 : Ref sig .tc := ⟨.hbm, 38, rfl⟩
abbrev main_cst : Ref sig .tc := ⟨.hbm, 39, rfl⟩
abbrev main_v59 : Ref sig .tc := ⟨.hbm, 40, rfl⟩
abbrev main_v60 : Ref sig .tc := ⟨.hbm, 41, rfl⟩
abbrev main_cst_0 : Ref sig .tc := ⟨.hbm, 42, rfl⟩
abbrev main_v61 : Ref sig .tc := ⟨.hbm, 43, rfl⟩
abbrev main_v62 : Ref sig .tc := ⟨.hbm, 44, rfl⟩
abbrev main_v63 : Ref sig .tc := ⟨.hbm, 45, rfl⟩
abbrev main_v64 : Ref sig .tc := ⟨.hbm, 46, rfl⟩
abbrev main_cst_1 : Ref sig .tc := ⟨.hbm, 47, rfl⟩
abbrev main_v65 : Ref sig .tc := ⟨.hbm, 48, rfl⟩
abbrev main_v66 : Ref sig .tc := ⟨.hbm, 49, rfl⟩
abbrev main_v67 : Ref sig .tc := ⟨.hbm, 50, rfl⟩
abbrev main_v68 : Ref sig .tc := ⟨.hbm, 51, rfl⟩
abbrev main_v69 : Ref sig .tc := ⟨.hbm, 52, rfl⟩
abbrev main_v70 : Ref sig .tc := ⟨.hbm, 53, rfl⟩
abbrev main_v71 : Ref sig .tc := ⟨.hbm, 54, rfl⟩
abbrev main_v72 : Ref sig .tc := ⟨.hbm, 55, rfl⟩
abbrev main_v73 : Ref sig .tc := ⟨.hbm, 56, rfl⟩
abbrev main_v1 : Ref sig .tc := ⟨.smem, 0, rfl⟩
abbrev main_v3 : Ref sig .tc := ⟨.smem, 1, rfl⟩
abbrev main_v5 : Ref sig .tc := ⟨.smem, 2, rfl⟩
abbrev main_v7 : Ref sig .tc := ⟨.smem, 3, rfl⟩
abbrev main_v9 : Ref sig .tc := ⟨.smem, 4, rfl⟩
abbrev main_v11 : Ref sig .tc := ⟨.smem, 5, rfl⟩
abbrev main_v13 : Ref sig .tc := ⟨.smem, 6, rfl⟩
abbrev main_v15 : Ref sig .tc := ⟨.smem, 7, rfl⟩
abbrev main_v17 : Ref sig .tc := ⟨.smem, 8, rfl⟩
abbrev main_v19 : Ref sig .tc := ⟨.smem, 9, rfl⟩
abbrev main_v21 : Ref sig .tc := ⟨.smem, 10, rfl⟩
abbrev main_v23 : Ref sig .tc := ⟨.smem, 11, rfl⟩
abbrev main_v25 : Ref sig .tc := ⟨.smem, 12, rfl⟩
abbrev main_v27 : Ref sig .tc := ⟨.smem, 13, rfl⟩
abbrev main_v29 : Ref sig .tc := ⟨.smem, 14, rfl⟩
abbrev main_v31 : Ref sig .tc := ⟨.smem, 15, rfl⟩
abbrev main_v33 : Ref sig .tc := ⟨.smem, 16, rfl⟩
abbrev main_v35 : Ref sig .tc := ⟨.smem, 17, rfl⟩
abbrev main_v37 : Ref sig .tc := ⟨.smem, 18, rfl⟩
abbrev main_v39 : Ref sig .tc := ⟨.smem, 19, rfl⟩
abbrev main_v41 : Ref sig .tc := ⟨.smem, 20, rfl⟩
abbrev main_v43 : Ref sig .tc := ⟨.smem, 21, rfl⟩
abbrev main_v45 : Ref sig .tc := ⟨.smem, 22, rfl⟩
abbrev main_v47 : Ref sig .tc := ⟨.smem, 23, rfl⟩
abbrev main_v49 : Ref sig .tc := ⟨.smem, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_scratch0 : Ref sig .tc := ⟨.vmem, 8, rfl⟩
abbrev cc1_scratch1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_scratch0 : Ref sig .tc := ⟨.vmem, 13, rfl⟩
abbrev cc2_scratch1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_scratch0 : Ref sig .tc := ⟨.vmem, 18, rfl⟩
abbrev cc3_scratch1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_scratch0 : Ref sig .tc := ⟨.vmem, 23, rfl⟩
abbrev cc4_scratch1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_scratch0 : Ref sig .tc := ⟨.vmem, 28, rfl⟩
abbrev cc5_scratch1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg1_1 : Ref sig .tc := ⟨.vmem, 32, rfl⟩
abbrev cc6_scratch0 : Ref sig .tc := ⟨.vmem, 33, rfl⟩
abbrev cc6_scratch1 : Ref sig .tc := ⟨.vmem, 34, rfl⟩
abbrev cc7_stg0_0 : Ref sig .tc := ⟨.vmem, 35, rfl⟩
abbrev cc7_stg1_0 : Ref sig .tc := ⟨.vmem, 36, rfl⟩
abbrev cc7_stg1_1 : Ref sig .tc := ⟨.vmem, 37, rfl⟩
abbrev cc7_scratch0 : Ref sig .tc := ⟨.vmem, 38, rfl⟩
abbrev cc7_scratch1 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg1_1 : Ref sig .tc := ⟨.vmem, 42, rfl⟩
abbrev cc8_scratch0 : Ref sig .tc := ⟨.vmem, 43, rfl⟩
abbrev cc8_scratch1 : Ref sig .tc := ⟨.vmem, 44, rfl⟩
abbrev cc9_stg0_0 : Ref sig .tc := ⟨.vmem, 45, rfl⟩
abbrev cc9_stg1_0 : Ref sig .tc := ⟨.vmem, 46, rfl⟩
abbrev cc9_stg1_1 : Ref sig .tc := ⟨.vmem, 47, rfl⟩
abbrev cc9_scratch0 : Ref sig .tc := ⟨.vmem, 48, rfl⟩
abbrev cc9_scratch1 : Ref sig .tc := ⟨.vmem, 49, rfl⟩
abbrev cc10_stg0_0 : Ref sig .tc := ⟨.vmem, 50, rfl⟩
abbrev cc10_stg1_0 : Ref sig .tc := ⟨.vmem, 51, rfl⟩
abbrev cc10_stg1_1 : Ref sig .tc := ⟨.vmem, 52, rfl⟩
abbrev cc10_scratch0 : Ref sig .tc := ⟨.vmem, 53, rfl⟩
abbrev cc10_scratch1 : Ref sig .tc := ⟨.vmem, 54, rfl⟩
abbrev cc11_stg0_0 : Ref sig .tc := ⟨.vmem, 55, rfl⟩
abbrev cc11_stg1_0 : Ref sig .tc := ⟨.vmem, 56, rfl⟩
abbrev cc11_stg1_1 : Ref sig .tc := ⟨.vmem, 57, rfl⟩
abbrev cc11_scratch0 : Ref sig .tc := ⟨.vmem, 58, rfl⟩
abbrev cc11_scratch1 : Ref sig .tc := ⟨.vmem, 59, rfl⟩
abbrev cc12_stg0_0 : Ref sig .tc := ⟨.vmem, 60, rfl⟩
abbrev cc12_stg1_0 : Ref sig .tc := ⟨.vmem, 61, rfl⟩
abbrev cc12_stg1_1 : Ref sig .tc := ⟨.vmem, 62, rfl⟩
abbrev cc12_scratch0 : Ref sig .tc := ⟨.vmem, 63, rfl⟩
abbrev cc12_scratch1 : Ref sig .tc := ⟨.vmem, 64, rfl⟩
abbrev cc13_stg0_0 : Ref sig .tc := ⟨.vmem, 65, rfl⟩
abbrev cc13_stg1_0 : Ref sig .tc := ⟨.vmem, 66, rfl⟩
abbrev cc13_stg1_1 : Ref sig .tc := ⟨.vmem, 67, rfl⟩
abbrev cc13_scratch0 : Ref sig .tc := ⟨.vmem, 68, rfl⟩
abbrev cc13_scratch1 : Ref sig .tc := ⟨.vmem, 69, rfl⟩
abbrev cc14_stg0_0 : Ref sig .tc := ⟨.vmem, 70, rfl⟩
abbrev cc14_stg1_0 : Ref sig .tc := ⟨.vmem, 71, rfl⟩
abbrev cc14_stg1_1 : Ref sig .tc := ⟨.vmem, 72, rfl⟩
abbrev cc14_scratch0 : Ref sig .tc := ⟨.vmem, 73, rfl⟩
abbrev cc14_scratch1 : Ref sig .tc := ⟨.vmem, 74, rfl⟩
abbrev cc15_stg0_0 : Ref sig .tc := ⟨.vmem, 75, rfl⟩
abbrev cc15_stg1_0 : Ref sig .tc := ⟨.vmem, 76, rfl⟩
abbrev cc15_stg1_1 : Ref sig .tc := ⟨.vmem, 77, rfl⟩
abbrev cc15_scratch0 : Ref sig .tc := ⟨.vmem, 78, rfl⟩
abbrev cc15_scratch1 : Ref sig .tc := ⟨.vmem, 79, rfl⟩
abbrev cc16_stg0_0 : Ref sig .tc := ⟨.vmem, 80, rfl⟩
abbrev cc16_stg1_0 : Ref sig .tc := ⟨.vmem, 81, rfl⟩
abbrev cc16_stg1_1 : Ref sig .tc := ⟨.vmem, 82, rfl⟩
abbrev cc16_scratch0 : Ref sig .tc := ⟨.vmem, 83, rfl⟩
abbrev cc16_scratch1 : Ref sig .tc := ⟨.vmem, 84, rfl⟩
abbrev cc17_stg0_0 : Ref sig .tc := ⟨.vmem, 85, rfl⟩
abbrev cc17_stg1_0 : Ref sig .tc := ⟨.vmem, 86, rfl⟩
abbrev cc17_stg1_1 : Ref sig .tc := ⟨.vmem, 87, rfl⟩
abbrev cc17_scratch0 : Ref sig .tc := ⟨.vmem, 88, rfl⟩
abbrev cc17_scratch1 : Ref sig .tc := ⟨.vmem, 89, rfl⟩
abbrev cc18_stg0_0 : Ref sig .tc := ⟨.vmem, 90, rfl⟩
abbrev cc18_stg1_0 : Ref sig .tc := ⟨.vmem, 91, rfl⟩
abbrev cc18_stg1_1 : Ref sig .tc := ⟨.vmem, 92, rfl⟩
abbrev cc18_scratch0 : Ref sig .tc := ⟨.vmem, 93, rfl⟩
abbrev cc18_scratch1 : Ref sig .tc := ⟨.vmem, 94, rfl⟩
abbrev cc19_stg0_0 : Ref sig .tc := ⟨.vmem, 95, rfl⟩
abbrev cc19_stg1_0 : Ref sig .tc := ⟨.vmem, 96, rfl⟩
abbrev cc19_stg1_1 : Ref sig .tc := ⟨.vmem, 97, rfl⟩
abbrev cc19_scratch0 : Ref sig .tc := ⟨.vmem, 98, rfl⟩
abbrev cc19_scratch1 : Ref sig .tc := ⟨.vmem, 99, rfl⟩
abbrev cc20_stg0_0 : Ref sig .tc := ⟨.vmem, 100, rfl⟩
abbrev cc20_stg1_0 : Ref sig .tc := ⟨.vmem, 101, rfl⟩
abbrev cc20_stg1_1 : Ref sig .tc := ⟨.vmem, 102, rfl⟩
abbrev cc20_scratch0 : Ref sig .tc := ⟨.vmem, 103, rfl⟩
abbrev cc20_scratch1 : Ref sig .tc := ⟨.vmem, 104, rfl⟩
abbrev cc21_stg0_0 : Ref sig .tc := ⟨.vmem, 105, rfl⟩
abbrev cc21_stg1_0 : Ref sig .tc := ⟨.vmem, 106, rfl⟩
abbrev cc21_stg1_1 : Ref sig .tc := ⟨.vmem, 107, rfl⟩
abbrev cc21_scratch0 : Ref sig .tc := ⟨.vmem, 108, rfl⟩
abbrev cc21_scratch1 : Ref sig .tc := ⟨.vmem, 109, rfl⟩
abbrev cc22_stg0_0 : Ref sig .tc := ⟨.vmem, 110, rfl⟩
abbrev cc22_stg1_0 : Ref sig .tc := ⟨.vmem, 111, rfl⟩
abbrev cc22_stg1_1 : Ref sig .tc := ⟨.vmem, 112, rfl⟩
abbrev cc22_scratch0 : Ref sig .tc := ⟨.vmem, 113, rfl⟩
abbrev cc22_scratch1 : Ref sig .tc := ⟨.vmem, 114, rfl⟩
abbrev cc23_stg0_0 : Ref sig .tc := ⟨.vmem, 115, rfl⟩
abbrev cc23_stg1_0 : Ref sig .tc := ⟨.vmem, 116, rfl⟩
abbrev cc23_stg1_1 : Ref sig .tc := ⟨.vmem, 117, rfl⟩
abbrev cc23_scratch0 : Ref sig .tc := ⟨.vmem, 118, rfl⟩
abbrev cc23_scratch1 : Ref sig .tc := ⟨.vmem, 119, rfl⟩
abbrev cc24_stg0_0 : Ref sig .tc := ⟨.vmem, 120, rfl⟩
abbrev cc24_stg1_0 : Ref sig .tc := ⟨.vmem, 121, rfl⟩
abbrev cc24_stg1_1 : Ref sig .tc := ⟨.vmem, 122, rfl⟩
abbrev cc24_scratch0 : Ref sig .tc := ⟨.vmem, 123, rfl⟩
abbrev cc24_scratch1 : Ref sig .tc := ⟨.vmem, 124, rfl⟩
abbrev cc25_stg0_0 : Ref sig .tc := ⟨.vmem, 125, rfl⟩
abbrev cc25_stg0_1 : Ref sig .tc := ⟨.vmem, 126, rfl⟩
abbrev cc25_stg1_0 : Ref sig .tc := ⟨.vmem, 127, rfl⟩
abbrev cc26_stg0_0 : Ref sig .tc := ⟨.vmem, 128, rfl⟩
abbrev cc26_stg0_1 : Ref sig .tc := ⟨.vmem, 129, rfl⟩
abbrev cc26_stg1_0 : Ref sig .tc := ⟨.vmem, 130, rfl⟩
abbrev cc26_stg2_0 : Ref sig .tc := ⟨.vmem, 131, rfl⟩
abbrev cc26_stg3_0 : Ref sig .tc := ⟨.vmem, 132, rfl⟩
abbrev cc26_stg3_1 : Ref sig .tc := ⟨.vmem, 133, rfl⟩
abbrev cc0_sem0_0 : DmaSem sig := 0
abbrev cc0_sem1_0 : DmaSem sig := 1
abbrev cc0_sem1_1 : DmaSem sig := 2
abbrev cc1_sem0_0 : DmaSem sig := 19
abbrev cc1_sem1_0 : DmaSem sig := 20
abbrev cc1_sem1_1 : DmaSem sig := 21
abbrev cc2_sem0_0 : DmaSem sig := 38
abbrev cc2_sem1_0 : DmaSem sig := 39
abbrev cc2_sem1_1 : DmaSem sig := 40
abbrev cc3_sem0_0 : DmaSem sig := 57
abbrev cc3_sem1_0 : DmaSem sig := 58
abbrev cc3_sem1_1 : DmaSem sig := 59
abbrev cc4_sem0_0 : DmaSem sig := 76
abbrev cc4_sem1_0 : DmaSem sig := 77
abbrev cc4_sem1_1 : DmaSem sig := 78
abbrev cc5_sem0_0 : DmaSem sig := 95
abbrev cc5_sem1_0 : DmaSem sig := 96
abbrev cc5_sem1_1 : DmaSem sig := 97
abbrev cc6_sem0_0 : DmaSem sig := 114
abbrev cc6_sem1_0 : DmaSem sig := 115
abbrev cc6_sem1_1 : DmaSem sig := 116
abbrev cc7_sem0_0 : DmaSem sig := 133
abbrev cc7_sem1_0 : DmaSem sig := 134
abbrev cc7_sem1_1 : DmaSem sig := 135
abbrev cc8_sem0_0 : DmaSem sig := 152
abbrev cc8_sem1_0 : DmaSem sig := 153
abbrev cc8_sem1_1 : DmaSem sig := 154
abbrev cc9_sem0_0 : DmaSem sig := 171
abbrev cc9_sem1_0 : DmaSem sig := 172
abbrev cc9_sem1_1 : DmaSem sig := 173
abbrev cc10_sem0_0 : DmaSem sig := 190
abbrev cc10_sem1_0 : DmaSem sig := 191
abbrev cc10_sem1_1 : DmaSem sig := 192
abbrev cc11_sem0_0 : DmaSem sig := 209
abbrev cc11_sem1_0 : DmaSem sig := 210
abbrev cc11_sem1_1 : DmaSem sig := 211
abbrev cc12_sem0_0 : DmaSem sig := 228
abbrev cc12_sem1_0 : DmaSem sig := 229
abbrev cc12_sem1_1 : DmaSem sig := 230
abbrev cc13_sem0_0 : DmaSem sig := 247
abbrev cc13_sem1_0 : DmaSem sig := 248
abbrev cc13_sem1_1 : DmaSem sig := 249
abbrev cc14_sem0_0 : DmaSem sig := 266
abbrev cc14_sem1_0 : DmaSem sig := 267
abbrev cc14_sem1_1 : DmaSem sig := 268
abbrev cc15_sem0_0 : DmaSem sig := 285
abbrev cc15_sem1_0 : DmaSem sig := 286
abbrev cc15_sem1_1 : DmaSem sig := 287
abbrev cc16_sem0_0 : DmaSem sig := 304
abbrev cc16_sem1_0 : DmaSem sig := 305
abbrev cc16_sem1_1 : DmaSem sig := 306
abbrev cc17_sem0_0 : DmaSem sig := 323
abbrev cc17_sem1_0 : DmaSem sig := 324
abbrev cc17_sem1_1 : DmaSem sig := 325
abbrev cc18_sem0_0 : DmaSem sig := 342
abbrev cc18_sem1_0 : DmaSem sig := 343
abbrev cc18_sem1_1 : DmaSem sig := 344
abbrev cc19_sem0_0 : DmaSem sig := 361
abbrev cc19_sem1_0 : DmaSem sig := 362
abbrev cc19_sem1_1 : DmaSem sig := 363
abbrev cc20_sem0_0 : DmaSem sig := 380
abbrev cc20_sem1_0 : DmaSem sig := 381
abbrev cc20_sem1_1 : DmaSem sig := 382
abbrev cc21_sem0_0 : DmaSem sig := 399
abbrev cc21_sem1_0 : DmaSem sig := 400
abbrev cc21_sem1_1 : DmaSem sig := 401
abbrev cc22_sem0_0 : DmaSem sig := 418
abbrev cc22_sem1_0 : DmaSem sig := 419
abbrev cc22_sem1_1 : DmaSem sig := 420
abbrev cc23_sem0_0 : DmaSem sig := 437
abbrev cc23_sem1_0 : DmaSem sig := 438
abbrev cc23_sem1_1 : DmaSem sig := 439
abbrev cc24_sem0_0 : DmaSem sig := 456
abbrev cc24_sem1_0 : DmaSem sig := 457
abbrev cc24_sem1_1 : DmaSem sig := 458
abbrev cc25_sem0_0 : DmaSem sig := 475
abbrev cc25_sem0_1 : DmaSem sig := 476
abbrev cc25_sem1_0 : DmaSem sig := 477
abbrev cc26_sem0_0 : DmaSem sig := 478
abbrev cc26_sem0_1 : DmaSem sig := 479
abbrev cc26_sem1_0 : DmaSem sig := 480
abbrev cc26_sem2_0 : DmaSem sig := 481
abbrev cc26_sem3_0 : DmaSem sig := 482
abbrev cc26_sem3_1 : DmaSem sig := 483

abbrev nD : Nat := 1
abbrev τ : Topo := Topo.v7x

variable {F : FTy → Type} [FloatOps F]

abbrev grid0 : Pipeline.Grid := ⟨2, ![2, 1000], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k0_off2 (v3 : BitVec 32) : Fin 2 → Nat :=
  let c0_i32_2 : BitVec 32 := 0#32
  ![v3.toNat, 0]

def k0_off3 (i : grid0.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k0_off4 (v11 : BitVec 32) : Fin 2 → Nat :=
  let c0_i32_5 : BitVec 32 := 0#32
  ![v11.toNat, 0]

def k0_off5 (i : grid0.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k0_off6 (v19 : BitVec 32) : Fin 2 → Nat :=
  let c0_i32_8 : BitVec 32 := 0#32
  ![v19.toNat, 0]

def k0_off7 (i : grid0.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k0_off8 (v27 : BitVec 32) : Fin 2 → Nat :=
  let c0_i32_11 : BitVec 32 := 0#32
  ![v27.toNat, 0]

def k0_off9 (i : grid0.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k0_off10 (v35 : BitVec 32) : Fin 2 → Nat :=
  let c0_i32_14 : BitVec 32 := 0#32
  ![v35.toNat, 0]

def k0_off11 (i : grid0.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k0_off12 (v43 : BitVec 32) : Fin 2 → Nat :=
  let c0_i32_17 : BitVec 32 := 0#32
  ![v43.toNat, 0]

def k0_off13 (i : grid0.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k0_off14 (v51 : BitVec 32) : Fin 2 → Nat :=
  let c0_i32_20 : BitVec 32 := 0#32
  ![v51.toNat, 0]

def k0_off15 (i : grid0.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k0_off16 (v59 : BitVec 32) : Fin 2 → Nat :=
  let c0_i32_23 : BitVec 32 := 0#32
  ![v59.toNat, 0]

def k0_off17 (i : grid0.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k0_off18 (v67 : BitVec 32) : Fin 2 → Nat :=
  let c0_i32_26 : BitVec 32 := 0#32
  ![v67.toNat, 0]

def k0_off19 (i : grid0.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k0_off20 (v75 : BitVec 32) : Fin 2 → Nat :=
  let c0_i32_29 : BitVec 32 := 0#32
  ![v75.toNat, 0]

def k0_off21 (i : grid0.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k0_off22 (v83 : BitVec 32) : Fin 2 → Nat :=
  let c0_i32_32 : BitVec 32 := 0#32
  ![v83.toNat, 0]

def k0_off23 (i : grid0.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k0_off24 (v91 : BitVec 32) : Fin 2 → Nat :=
  let c0_i32_35 : BitVec 32 := 0#32
  ![v91.toNat, 0]

def k0_off25 (i : grid0.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k0_off26 (v99 : BitVec 32) : Fin 2 → Nat :=
  let c0_i32_38 : BitVec 32 := 0#32
  ![v99.toNat, 0]

def k0_off27 (i : grid0.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k0_off28 (v107 : BitVec 32) : Fin 2 → Nat :=
  let c0_i32_41 : BitVec 32 := 0#32
  ![v107.toNat, 0]

def k0_off29 (i : grid0.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k0_off30 (v115 : BitVec 32) : Fin 2 → Nat :=
  let c0_i32_44 : BitVec 32 := 0#32
  ![v115.toNat, 0]

def k0_off31 (i : grid0.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k0_off32 (v123 : BitVec 32) : Fin 2 → Nat :=
  let c0_i32_47 : BitVec 32 := 0#32
  ![v123.toNat, 0]

def k0_chk16 (v123 : BitVec 32) : Prop :=
  (∀ a, (k0_off32 v123) a + S1x128.size a ≤ S100000x128.size a)
instance k0_chk16.dec : ∀ (v123 : BitVec 32), Decidable (k0_chk16 v123) := fun v123 => decidable_of_iff' _ (Iff.of_eq (k0_chk16.eq_1 v123))
theorem k0_off32_inb : ∀ (v123 : BitVec 32) (k0_hw16 : k0_chk16 v123), ∀ a, (k0_off32 v123) a + S1x128.size a ≤ S100000x128.size a := fun v123 k0_hw16 => k0_hw16

def k0_off33 (v3 : BitVec 32) : Fin 2 → Nat :=
  let c0_i32_51 : BitVec 32 := 0#32
  ![v3.toNat, 0]

def k0_chk1 (v3 : BitVec 32) : Prop :=
  (∀ a, (k0_off2 v3) a + S1x128.size a ≤ S100000x128.size a) ∧
  (∀ a, (k0_off33 v3) a + S1x128.size a ≤ S100000x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x128.size a ≤ S100000x128.size a := fun v3 k0_hw1 => k0_hw1.1
theorem k0_off33_inb : ∀ (v3 : BitVec 32) (k0_hw1 : k0_chk1 v3), ∀ a, (k0_off33 v3) a + S1x128.size a ≤ S100000x128.size a := fun v3 k0_hw1 => k0_hw1.2

def k0_off34 (v11 : BitVec 32) : Fin 2 → Nat :=
  let c0_i32_55 : BitVec 32 := 0#32
  ![v11.toNat, 0]

def k0_chk2 (v11 : BitVec 32) : Prop :=
  (∀ a, (k0_off4 v11) a + S1x128.size a ≤ S100000x128.size a) ∧
  (∀ a, (k0_off34 v11) a + S1x128.size a ≤ S100000x128.size a)
instance k0_chk2.dec : ∀ (v11 : BitVec 32), Decidable (k0_chk2 v11) := fun v11 => decidable_of_iff' _ (Iff.of_eq (k0_chk2.eq_1 v11))
theorem k0_off4_inb : ∀ (v11 : BitVec 32) (k0_hw2 : k0_chk2 v11), ∀ a, (k0_off4 v11) a + S1x128.size a ≤ S100000x128.size a := fun v11 k0_hw2 => k0_hw2.1
theorem k0_off34_inb : ∀ (v11 : BitVec 32) (k0_hw2 : k0_chk2 v11), ∀ a, (k0_off34 v11) a + S1x128.size a ≤ S100000x128.size a := fun v11 k0_hw2 => k0_hw2.2

def k0_off35 (v19 : BitVec 32) : Fin 2 → Nat :=
  let c0_i32_59 : BitVec 32 := 0#32
  ![v19.toNat, 0]

def k0_chk3 (v19 : BitVec 32) : Prop :=
  (∀ a, (k0_off6 v19) a + S1x128.size a ≤ S100000x128.size a) ∧
  (∀ a, (k0_off35 v19) a + S1x128.size a ≤ S100000x128.size a)
instance k0_chk3.dec : ∀ (v19 : BitVec 32), Decidable (k0_chk3 v19) := fun v19 => decidable_of_iff' _ (Iff.of_eq (k0_chk3.eq_1 v19))
theorem k0_off6_inb : ∀ (v19 : BitVec 32) (k0_hw3 : k0_chk3 v19), ∀ a, (k0_off6 v19) a + S1x128.size a ≤ S100000x128.size a := fun v19 k0_hw3 => k0_hw3.1
theorem k0_off35_inb : ∀ (v19 : BitVec 32) (k0_hw3 : k0_chk3 v19), ∀ a, (k0_off35 v19) a + S1x128.size a ≤ S100000x128.size a := fun v19 k0_hw3 => k0_hw3.2

def k0_off36 (v27 : BitVec 32) : Fin 2 → Nat :=
  let c0_i32_63 : BitVec 32 := 0#32
  ![v27.toNat, 0]

def k0_chk4 (v27 : BitVec 32) : Prop :=
  (∀ a, (k0_off8 v27) a + S1x128.size a ≤ S100000x128.size a) ∧
  (∀ a, (k0_off36 v27) a + S1x128.size a ≤ S100000x128.size a)
instance k0_chk4.dec : ∀ (v27 : BitVec 32), Decidable (k0_chk4 v27) := fun v27 => decidable_of_iff' _ (Iff.of_eq (k0_chk4.eq_1 v27))
theorem k0_off8_inb : ∀ (v27 : BitVec 32) (k0_hw4 : k0_chk4 v27), ∀ a, (k0_off8 v27) a + S1x128.size a ≤ S100000x128.size a := fun v27 k0_hw4 => k0_hw4.1
theorem k0_off36_inb : ∀ (v27 : BitVec 32) (k0_hw4 : k0_chk4 v27), ∀ a, (k0_off36 v27) a + S1x128.size a ≤ S100000x128.size a := fun v27 k0_hw4 => k0_hw4.2

def k0_off37 (v35 : BitVec 32) : Fin 2 → Nat :=
  let c0_i32_67 : BitVec 32 := 0#32
  ![v35.toNat, 0]

def k0_chk5 (v35 : BitVec 32) : Prop :=
  (∀ a, (k0_off10 v35) a + S1x128.size a ≤ S100000x128.size a) ∧
  (∀ a, (k0_off37 v35) a + S1x128.size a ≤ S100000x128.size a)
instance k0_chk5.dec : ∀ (v35 : BitVec 32), Decidable (k0_chk5 v35) := fun v35 => decidable_of_iff' _ (Iff.of_eq (k0_chk5.eq_1 v35))
theorem k0_off10_inb : ∀ (v35 : BitVec 32) (k0_hw5 : k0_chk5 v35), ∀ a, (k0_off10 v35) a + S1x128.size a ≤ S100000x128.size a := fun v35 k0_hw5 => k0_hw5.1
theorem k0_off37_inb : ∀ (v35 : BitVec 32) (k0_hw5 : k0_chk5 v35), ∀ a, (k0_off37 v35) a + S1x128.size a ≤ S100000x128.size a := fun v35 k0_hw5 => k0_hw5.2

def k0_off38 (v43 : BitVec 32) : Fin 2 → Nat :=
  let c0_i32_71 : BitVec 32 := 0#32
  ![v43.toNat, 0]

def k0_chk6 (v43 : BitVec 32) : Prop :=
  (∀ a, (k0_off12 v43) a + S1x128.size a ≤ S100000x128.size a) ∧
  (∀ a, (k0_off38 v43) a + S1x128.size a ≤ S100000x128.size a)
instance k0_chk6.dec : ∀ (v43 : BitVec 32), Decidable (k0_chk6 v43) := fun v43 => decidable_of_iff' _ (Iff.of_eq (k0_chk6.eq_1 v43))
theorem k0_off12_inb : ∀ (v43 : BitVec 32) (k0_hw6 : k0_chk6 v43), ∀ a, (k0_off12 v43) a + S1x128.size a ≤ S100000x128.size a := fun v43 k0_hw6 => k0_hw6.1
theorem k0_off38_inb : ∀ (v43 : BitVec 32) (k0_hw6 : k0_chk6 v43), ∀ a, (k0_off38 v43) a + S1x128.size a ≤ S100000x128.size a := fun v43 k0_hw6 => k0_hw6.2

def k0_off39 (v51 : BitVec 32) : Fin 2 → Nat :=
  let c0_i32_75 : BitVec 32 := 0#32
  ![v51.toNat, 0]

def k0_chk7 (v51 : BitVec 32) : Prop :=
  (∀ a, (k0_off14 v51) a + S1x128.size a ≤ S100000x128.size a) ∧
  (∀ a, (k0_off39 v51) a + S1x128.size a ≤ S100000x128.size a)
instance k0_chk7.dec : ∀ (v51 : BitVec 32), Decidable (k0_chk7 v51) := fun v51 => decidable_of_iff' _ (Iff.of_eq (k0_chk7.eq_1 v51))
theorem k0_off14_inb : ∀ (v51 : BitVec 32) (k0_hw7 : k0_chk7 v51), ∀ a, (k0_off14 v51) a + S1x128.size a ≤ S100000x128.size a := fun v51 k0_hw7 => k0_hw7.1
theorem k0_off39_inb : ∀ (v51 : BitVec 32) (k0_hw7 : k0_chk7 v51), ∀ a, (k0_off39 v51) a + S1x128.size a ≤ S100000x128.size a := fun v51 k0_hw7 => k0_hw7.2

def k0_off40 (v59 : BitVec 32) : Fin 2 → Nat :=
  let c0_i32_79 : BitVec 32 := 0#32
  ![v59.toNat, 0]

def k0_chk8 (v59 : BitVec 32) : Prop :=
  (∀ a, (k0_off16 v59) a + S1x128.size a ≤ S100000x128.size a) ∧
  (∀ a, (k0_off40 v59) a + S1x128.size a ≤ S100000x128.size a)
instance k0_chk8.dec : ∀ (v59 : BitVec 32), Decidable (k0_chk8 v59) := fun v59 => decidable_of_iff' _ (Iff.of_eq (k0_chk8.eq_1 v59))
theorem k0_off16_inb : ∀ (v59 : BitVec 32) (k0_hw8 : k0_chk8 v59), ∀ a, (k0_off16 v59) a + S1x128.size a ≤ S100000x128.size a := fun v59 k0_hw8 => k0_hw8.1
theorem k0_off40_inb : ∀ (v59 : BitVec 32) (k0_hw8 : k0_chk8 v59), ∀ a, (k0_off40 v59) a + S1x128.size a ≤ S100000x128.size a := fun v59 k0_hw8 => k0_hw8.2

def k0_off41 (v67 : BitVec 32) : Fin 2 → Nat :=
  let c0_i32_83 : BitVec 32 := 0#32
  ![v67.toNat, 0]

def k0_chk9 (v67 : BitVec 32) : Prop :=
  (∀ a, (k0_off18 v67) a + S1x128.size a ≤ S100000x128.size a) ∧
  (∀ a, (k0_off41 v67) a + S1x128.size a ≤ S100000x128.size a)
instance k0_chk9.dec : ∀ (v67 : BitVec 32), Decidable (k0_chk9 v67) := fun v67 => decidable_of_iff' _ (Iff.of_eq (k0_chk9.eq_1 v67))
theorem k0_off18_inb : ∀ (v67 : BitVec 32) (k0_hw9 : k0_chk9 v67), ∀ a, (k0_off18 v67) a + S1x128.size a ≤ S100000x128.size a := fun v67 k0_hw9 => k0_hw9.1
theorem k0_off41_inb : ∀ (v67 : BitVec 32) (k0_hw9 : k0_chk9 v67), ∀ a, (k0_off41 v67) a + S1x128.size a ≤ S100000x128.size a := fun v67 k0_hw9 => k0_hw9.2

def k0_off42 (v75 : BitVec 32) : Fin 2 → Nat :=
  let c0_i32_87 : BitVec 32 := 0#32
  ![v75.toNat, 0]

def k0_chk10 (v75 : BitVec 32) : Prop :=
  (∀ a, (k0_off20 v75) a + S1x128.size a ≤ S100000x128.size a) ∧
  (∀ a, (k0_off42 v75) a + S1x128.size a ≤ S100000x128.size a)
instance k0_chk10.dec : ∀ (v75 : BitVec 32), Decidable (k0_chk10 v75) := fun v75 => decidable_of_iff' _ (Iff.of_eq (k0_chk10.eq_1 v75))
theorem k0_off20_inb : ∀ (v75 : BitVec 32) (k0_hw10 : k0_chk10 v75), ∀ a, (k0_off20 v75) a + S1x128.size a ≤ S100000x128.size a := fun v75 k0_hw10 => k0_hw10.1
theorem k0_off42_inb : ∀ (v75 : BitVec 32) (k0_hw10 : k0_chk10 v75), ∀ a, (k0_off42 v75) a + S1x128.size a ≤ S100000x128.size a := fun v75 k0_hw10 => k0_hw10.2

def k0_off43 (v83 : BitVec 32) : Fin 2 → Nat :=
  let c0_i32_91 : BitVec 32 := 0#32
  ![v83.toNat, 0]

def k0_chk11 (v83 : BitVec 32) : Prop :=
  (∀ a, (k0_off22 v83) a + S1x128.size a ≤ S100000x128.size a) ∧
  (∀ a, (k0_off43 v83) a + S1x128.size a ≤ S100000x128.size a)
instance k0_chk11.dec : ∀ (v83 : BitVec 32), Decidable (k0_chk11 v83) := fun v83 => decidable_of_iff' _ (Iff.of_eq (k0_chk11.eq_1 v83))
theorem k0_off22_inb : ∀ (v83 : BitVec 32) (k0_hw11 : k0_chk11 v83), ∀ a, (k0_off22 v83) a + S1x128.size a ≤ S100000x128.size a := fun v83 k0_hw11 => k0_hw11.1
theorem k0_off43_inb : ∀ (v83 : BitVec 32) (k0_hw11 : k0_chk11 v83), ∀ a, (k0_off43 v83) a + S1x128.size a ≤ S100000x128.size a := fun v83 k0_hw11 => k0_hw11.2

def k0_off44 (v91 : BitVec 32) : Fin 2 → Nat :=
  let c0_i32_95 : BitVec 32 := 0#32
  ![v91.toNat, 0]

def k0_chk12 (v91 : BitVec 32) : Prop :=
  (∀ a, (k0_off24 v91) a + S1x128.size a ≤ S100000x128.size a) ∧
  (∀ a, (k0_off44 v91) a + S1x128.size a ≤ S100000x128.size a)
instance k0_chk12.dec : ∀ (v91 : BitVec 32), Decidable (k0_chk12 v91) := fun v91 => decidable_of_iff' _ (Iff.of_eq (k0_chk12.eq_1 v91))
theorem k0_off24_inb : ∀ (v91 : BitVec 32) (k0_hw12 : k0_chk12 v91), ∀ a, (k0_off24 v91) a + S1x128.size a ≤ S100000x128.size a := fun v91 k0_hw12 => k0_hw12.1
theorem k0_off44_inb : ∀ (v91 : BitVec 32) (k0_hw12 : k0_chk12 v91), ∀ a, (k0_off44 v91) a + S1x128.size a ≤ S100000x128.size a := fun v91 k0_hw12 => k0_hw12.2

def k0_off45 (v99 : BitVec 32) : Fin 2 → Nat :=
  let c0_i32_99 : BitVec 32 := 0#32
  ![v99.toNat, 0]

def k0_chk13 (v99 : BitVec 32) : Prop :=
  (∀ a, (k0_off26 v99) a + S1x128.size a ≤ S100000x128.size a) ∧
  (∀ a, (k0_off45 v99) a + S1x128.size a ≤ S100000x128.size a)
instance k0_chk13.dec : ∀ (v99 : BitVec 32), Decidable (k0_chk13 v99) := fun v99 => decidable_of_iff' _ (Iff.of_eq (k0_chk13.eq_1 v99))
theorem k0_off26_inb : ∀ (v99 : BitVec 32) (k0_hw13 : k0_chk13 v99), ∀ a, (k0_off26 v99) a + S1x128.size a ≤ S100000x128.size a := fun v99 k0_hw13 => k0_hw13.1
theorem k0_off45_inb : ∀ (v99 : BitVec 32) (k0_hw13 : k0_chk13 v99), ∀ a, (k0_off45 v99) a + S1x128.size a ≤ S100000x128.size a := fun v99 k0_hw13 => k0_hw13.2

def k0_off46 (v107 : BitVec 32) : Fin 2 → Nat :=
  let c0_i32_103 : BitVec 32 := 0#32
  ![v107.toNat, 0]

def k0_chk14 (v107 : BitVec 32) : Prop :=
  (∀ a, (k0_off28 v107) a + S1x128.size a ≤ S100000x128.size a) ∧
  (∀ a, (k0_off46 v107) a + S1x128.size a ≤ S100000x128.size a)
instance k0_chk14.dec : ∀ (v107 : BitVec 32), Decidable (k0_chk14 v107) := fun v107 => decidable_of_iff' _ (Iff.of_eq (k0_chk14.eq_1 v107))
theorem k0_off28_inb : ∀ (v107 : BitVec 32) (k0_hw14 : k0_chk14 v107), ∀ a, (k0_off28 v107) a + S1x128.size a ≤ S100000x128.size a := fun v107 k0_hw14 => k0_hw14.1
theorem k0_off46_inb : ∀ (v107 : BitVec 32) (k0_hw14 : k0_chk14 v107), ∀ a, (k0_off46 v107) a + S1x128.size a ≤ S100000x128.size a := fun v107 k0_hw14 => k0_hw14.2

def k0_off47 (v115 : BitVec 32) : Fin 2 → Nat :=
  let c0_i32_107 : BitVec 32 := 0#32
  ![v115.toNat, 0]

def k0_chk15 (v115 : BitVec 32) : Prop :=
  (∀ a, (k0_off30 v115) a + S1x128.size a ≤ S100000x128.size a) ∧
  (∀ a, (k0_off47 v115) a + S1x128.size a ≤ S100000x128.size a)
instance k0_chk15.dec : ∀ (v115 : BitVec 32), Decidable (k0_chk15 v115) := fun v115 => decidable_of_iff' _ (Iff.of_eq (k0_chk15.eq_1 v115))
theorem k0_off30_inb : ∀ (v115 : BitVec 32) (k0_hw15 : k0_chk15 v115), ∀ a, (k0_off30 v115) a + S1x128.size a ≤ S100000x128.size a := fun v115 k0_hw15 => k0_hw15.1
theorem k0_off47_inb : ∀ (v115 : BitVec 32) (k0_hw15 : k0_chk15 v115), ∀ a, (k0_off47 v115) a + S1x128.size a ≤ S100000x128.size a := fun v115 k0_hw15 => k0_hw15.2

def k0_off48 (i : grid0.Coords) : Fin 2 → Nat :=
  let arg1 : BitVec 32 := BitVec.ofNat 32 (i 1).val
  let v230 : Index := Scalar.indexCast arg1
  let c0_115 : Index := 0#32
  ![v230.toNat, 0]
def k0_cond1 (i : grid0.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 1000], ![false, false]⟩

abbrev pre1 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k1_off2 (v3 : BitVec 32) : Fin 2 → Nat :=
  let c0_i32_2 : BitVec 32 := 0#32
  ![v3.toNat, 0]

def k1_off3 (i : grid1.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k1_off4 (v11 : BitVec 32) : Fin 2 → Nat :=
  let c0_i32_5 : BitVec 32 := 0#32
  ![v11.toNat, 0]

def k1_off5 (i : grid1.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k1_off6 (v19 : BitVec 32) : Fin 2 → Nat :=
  let c0_i32_8 : BitVec 32 := 0#32
  ![v19.toNat, 0]

def k1_off7 (i : grid1.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k1_off8 (v27 : BitVec 32) : Fin 2 → Nat :=
  let c0_i32_11 : BitVec 32 := 0#32
  ![v27.toNat, 0]

def k1_off9 (i : grid1.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k1_off10 (v35 : BitVec 32) : Fin 2 → Nat :=
  let c0_i32_14 : BitVec 32 := 0#32
  ![v35.toNat, 0]

def k1_off11 (i : grid1.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k1_off12 (v43 : BitVec 32) : Fin 2 → Nat :=
  let c0_i32_17 : BitVec 32 := 0#32
  ![v43.toNat, 0]

def k1_off13 (i : grid1.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k1_off14 (v51 : BitVec 32) : Fin 2 → Nat :=
  let c0_i32_20 : BitVec 32 := 0#32
  ![v51.toNat, 0]

def k1_off15 (i : grid1.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k1_off16 (v59 : BitVec 32) : Fin 2 → Nat :=
  let c0_i32_23 : BitVec 32 := 0#32
  ![v59.toNat, 0]

def k1_off17 (i : grid1.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k1_off18 (v67 : BitVec 32) : Fin 2 → Nat :=
  let c0_i32_26 : BitVec 32 := 0#32
  ![v67.toNat, 0]

def k1_off19 (i : grid1.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k1_off20 (v75 : BitVec 32) : Fin 2 → Nat :=
  let c0_i32_29 : BitVec 32 := 0#32
  ![v75.toNat, 0]

def k1_off21 (i : grid1.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k1_off22 (v83 : BitVec 32) : Fin 2 → Nat :=
  let c0_i32_32 : BitVec 32 := 0#32
  ![v83.toNat, 0]

def k1_off23 (i : grid1.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k1_off24 (v91 : BitVec 32) : Fin 2 → Nat :=
  let c0_i32_35 : BitVec 32 := 0#32
  ![v91.toNat, 0]

def k1_off25 (i : grid1.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k1_off26 (v99 : BitVec 32) : Fin 2 → Nat :=
  let c0_i32_38 : BitVec 32 := 0#32
  ![v99.toNat, 0]

def k1_off27 (i : grid1.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k1_off28 (v107 : BitVec 32) : Fin 2 → Nat :=
  let c0_i32_41 : BitVec 32 := 0#32
  ![v107.toNat, 0]

def k1_off29 (i : grid1.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k1_off30 (v115 : BitVec 32) : Fin 2 → Nat :=
  let c0_i32_44 : BitVec 32 := 0#32
  ![v115.toNat, 0]

def k1_off31 (i : grid1.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k1_off32 (v123 : BitVec 32) : Fin 2 → Nat :=
  let c0_i32_47 : BitVec 32 := 0#32
  ![v123.toNat, 0]

def k1_chk16 (v123 : BitVec 32) : Prop :=
  (∀ a, (k1_off32 v123) a + S1x128.size a ≤ S100000x128.size a)
instance k1_chk16.dec : ∀ (v123 : BitVec 32), Decidable (k1_chk16 v123) := fun v123 => decidable_of_iff' _ (Iff.of_eq (k1_chk16.eq_1 v123))
theorem k1_off32_inb : ∀ (v123 : BitVec 32) (k1_hw16 : k1_chk16 v123), ∀ a, (k1_off32 v123) a + S1x128.size a ≤ S100000x128.size a := fun v123 k1_hw16 => k1_hw16

def k1_off33 (v3 : BitVec 32) : Fin 2 → Nat :=
  let c0_i32_51 : BitVec 32 := 0#32
  ![v3.toNat, 0]

def k1_chk1 (v3 : BitVec 32) : Prop :=
  (∀ a, (k1_off2 v3) a + S1x128.size a ≤ S100000x128.size a) ∧
  (∀ a, (k1_off33 v3) a + S1x128.size a ≤ S100000x128.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x128.size a ≤ S100000x128.size a := fun v3 k1_hw1 => k1_hw1.1
theorem k1_off33_inb : ∀ (v3 : BitVec 32) (k1_hw1 : k1_chk1 v3), ∀ a, (k1_off33 v3) a + S1x128.size a ≤ S100000x128.size a := fun v3 k1_hw1 => k1_hw1.2

def k1_off34 (v11 : BitVec 32) : Fin 2 → Nat :=
  let c0_i32_55 : BitVec 32 := 0#32
  ![v11.toNat, 0]

def k1_chk2 (v11 : BitVec 32) : Prop :=
  (∀ a, (k1_off4 v11) a + S1x128.size a ≤ S100000x128.size a) ∧
  (∀ a, (k1_off34 v11) a + S1x128.size a ≤ S100000x128.size a)
instance k1_chk2.dec : ∀ (v11 : BitVec 32), Decidable (k1_chk2 v11) := fun v11 => decidable_of_iff' _ (Iff.of_eq (k1_chk2.eq_1 v11))
theorem k1_off4_inb : ∀ (v11 : BitVec 32) (k1_hw2 : k1_chk2 v11), ∀ a, (k1_off4 v11) a + S1x128.size a ≤ S100000x128.size a := fun v11 k1_hw2 => k1_hw2.1
theorem k1_off34_inb : ∀ (v11 : BitVec 32) (k1_hw2 : k1_chk2 v11), ∀ a, (k1_off34 v11) a + S1x128.size a ≤ S100000x128.size a := fun v11 k1_hw2 => k1_hw2.2

def k1_off35 (v19 : BitVec 32) : Fin 2 → Nat :=
  let c0_i32_59 : BitVec 32 := 0#32
  ![v19.toNat, 0]

def k1_chk3 (v19 : BitVec 32) : Prop :=
  (∀ a, (k1_off6 v19) a + S1x128.size a ≤ S100000x128.size a) ∧
  (∀ a, (k1_off35 v19) a + S1x128.size a ≤ S100000x128.size a)
instance k1_chk3.dec : ∀ (v19 : BitVec 32), Decidable (k1_chk3 v19) := fun v19 => decidable_of_iff' _ (Iff.of_eq (k1_chk3.eq_1 v19))
theorem k1_off6_inb : ∀ (v19 : BitVec 32) (k1_hw3 : k1_chk3 v19), ∀ a, (k1_off6 v19) a + S1x128.size a ≤ S100000x128.size a := fun v19 k1_hw3 => k1_hw3.1
theorem k1_off35_inb : ∀ (v19 : BitVec 32) (k1_hw3 : k1_chk3 v19), ∀ a, (k1_off35 v19) a + S1x128.size a ≤ S100000x128.size a := fun v19 k1_hw3 => k1_hw3.2

def k1_off36 (v27 : BitVec 32) : Fin 2 → Nat :=
  let c0_i32_63 : BitVec 32 := 0#32
  ![v27.toNat, 0]

def k1_chk4 (v27 : BitVec 32) : Prop :=
  (∀ a, (k1_off8 v27) a + S1x128.size a ≤ S100000x128.size a) ∧
  (∀ a, (k1_off36 v27) a + S1x128.size a ≤ S100000x128.size a)
instance k1_chk4.dec : ∀ (v27 : BitVec 32), Decidable (k1_chk4 v27) := fun v27 => decidable_of_iff' _ (Iff.of_eq (k1_chk4.eq_1 v27))
theorem k1_off8_inb : ∀ (v27 : BitVec 32) (k1_hw4 : k1_chk4 v27), ∀ a, (k1_off8 v27) a + S1x128.size a ≤ S100000x128.size a := fun v27 k1_hw4 => k1_hw4.1
theorem k1_off36_inb : ∀ (v27 : BitVec 32) (k1_hw4 : k1_chk4 v27), ∀ a, (k1_off36 v27) a + S1x128.size a ≤ S100000x128.size a := fun v27 k1_hw4 => k1_hw4.2

def k1_off37 (v35 : BitVec 32) : Fin 2 → Nat :=
  let c0_i32_67 : BitVec 32 := 0#32
  ![v35.toNat, 0]

def k1_chk5 (v35 : BitVec 32) : Prop :=
  (∀ a, (k1_off10 v35) a + S1x128.size a ≤ S100000x128.size a) ∧
  (∀ a, (k1_off37 v35) a + S1x128.size a ≤ S100000x128.size a)
instance k1_chk5.dec : ∀ (v35 : BitVec 32), Decidable (k1_chk5 v35) := fun v35 => decidable_of_iff' _ (Iff.of_eq (k1_chk5.eq_1 v35))
theorem k1_off10_inb : ∀ (v35 : BitVec 32) (k1_hw5 : k1_chk5 v35), ∀ a, (k1_off10 v35) a + S1x128.size a ≤ S100000x128.size a := fun v35 k1_hw5 => k1_hw5.1
theorem k1_off37_inb : ∀ (v35 : BitVec 32) (k1_hw5 : k1_chk5 v35), ∀ a, (k1_off37 v35) a + S1x128.size a ≤ S100000x128.size a := fun v35 k1_hw5 => k1_hw5.2

def k1_off38 (v43 : BitVec 32) : Fin 2 → Nat :=
  let c0_i32_71 : BitVec 32 := 0#32
  ![v43.toNat, 0]

def k1_chk6 (v43 : BitVec 32) : Prop :=
  (∀ a, (k1_off12 v43) a + S1x128.size a ≤ S100000x128.size a) ∧
  (∀ a, (k1_off38 v43) a + S1x128.size a ≤ S100000x128.size a)
instance k1_chk6.dec : ∀ (v43 : BitVec 32), Decidable (k1_chk6 v43) := fun v43 => decidable_of_iff' _ (Iff.of_eq (k1_chk6.eq_1 v43))
theorem k1_off12_inb : ∀ (v43 : BitVec 32) (k1_hw6 : k1_chk6 v43), ∀ a, (k1_off12 v43) a + S1x128.size a ≤ S100000x128.size a := fun v43 k1_hw6 => k1_hw6.1
theorem k1_off38_inb : ∀ (v43 : BitVec 32) (k1_hw6 : k1_chk6 v43), ∀ a, (k1_off38 v43) a + S1x128.size a ≤ S100000x128.size a := fun v43 k1_hw6 => k1_hw6.2

def k1_off39 (v51 : BitVec 32) : Fin 2 → Nat :=
  let c0_i32_75 : BitVec 32 := 0#32
  ![v51.toNat, 0]

def k1_chk7 (v51 : BitVec 32) : Prop :=
  (∀ a, (k1_off14 v51) a + S1x128.size a ≤ S100000x128.size a) ∧
  (∀ a, (k1_off39 v51) a + S1x128.size a ≤ S100000x128.size a)
instance k1_chk7.dec : ∀ (v51 : BitVec 32), Decidable (k1_chk7 v51) := fun v51 => decidable_of_iff' _ (Iff.of_eq (k1_chk7.eq_1 v51))
theorem k1_off14_inb : ∀ (v51 : BitVec 32) (k1_hw7 : k1_chk7 v51), ∀ a, (k1_off14 v51) a + S1x128.size a ≤ S100000x128.size a := fun v51 k1_hw7 => k1_hw7.1
theorem k1_off39_inb : ∀ (v51 : BitVec 32) (k1_hw7 : k1_chk7 v51), ∀ a, (k1_off39 v51) a + S1x128.size a ≤ S100000x128.size a := fun v51 k1_hw7 => k1_hw7.2

def k1_off40 (v59 : BitVec 32) : Fin 2 → Nat :=
  let c0_i32_79 : BitVec 32 := 0#32
  ![v59.toNat, 0]

def k1_chk8 (v59 : BitVec 32) : Prop :=
  (∀ a, (k1_off16 v59) a + S1x128.size a ≤ S100000x128.size a) ∧
  (∀ a, (k1_off40 v59) a + S1x128.size a ≤ S100000x128.size a)
instance k1_chk8.dec : ∀ (v59 : BitVec 32), Decidable (k1_chk8 v59) := fun v59 => decidable_of_iff' _ (Iff.of_eq (k1_chk8.eq_1 v59))
theorem k1_off16_inb : ∀ (v59 : BitVec 32) (k1_hw8 : k1_chk8 v59), ∀ a, (k1_off16 v59) a + S1x128.size a ≤ S100000x128.size a := fun v59 k1_hw8 => k1_hw8.1
theorem k1_off40_inb : ∀ (v59 : BitVec 32) (k1_hw8 : k1_chk8 v59), ∀ a, (k1_off40 v59) a + S1x128.size a ≤ S100000x128.size a := fun v59 k1_hw8 => k1_hw8.2

def k1_off41 (v67 : BitVec 32) : Fin 2 → Nat :=
  let c0_i32_83 : BitVec 32 := 0#32
  ![v67.toNat, 0]

def k1_chk9 (v67 : BitVec 32) : Prop :=
  (∀ a, (k1_off18 v67) a + S1x128.size a ≤ S100000x128.size a) ∧
  (∀ a, (k1_off41 v67) a + S1x128.size a ≤ S100000x128.size a)
instance k1_chk9.dec : ∀ (v67 : BitVec 32), Decidable (k1_chk9 v67) := fun v67 => decidable_of_iff' _ (Iff.of_eq (k1_chk9.eq_1 v67))
theorem k1_off18_inb : ∀ (v67 : BitVec 32) (k1_hw9 : k1_chk9 v67), ∀ a, (k1_off18 v67) a + S1x128.size a ≤ S100000x128.size a := fun v67 k1_hw9 => k1_hw9.1
theorem k1_off41_inb : ∀ (v67 : BitVec 32) (k1_hw9 : k1_chk9 v67), ∀ a, (k1_off41 v67) a + S1x128.size a ≤ S100000x128.size a := fun v67 k1_hw9 => k1_hw9.2

def k1_off42 (v75 : BitVec 32) : Fin 2 → Nat :=
  let c0_i32_87 : BitVec 32 := 0#32
  ![v75.toNat, 0]

def k1_chk10 (v75 : BitVec 32) : Prop :=
  (∀ a, (k1_off20 v75) a + S1x128.size a ≤ S100000x128.size a) ∧
  (∀ a, (k1_off42 v75) a + S1x128.size a ≤ S100000x128.size a)
instance k1_chk10.dec : ∀ (v75 : BitVec 32), Decidable (k1_chk10 v75) := fun v75 => decidable_of_iff' _ (Iff.of_eq (k1_chk10.eq_1 v75))
theorem k1_off20_inb : ∀ (v75 : BitVec 32) (k1_hw10 : k1_chk10 v75), ∀ a, (k1_off20 v75) a + S1x128.size a ≤ S100000x128.size a := fun v75 k1_hw10 => k1_hw10.1
theorem k1_off42_inb : ∀ (v75 : BitVec 32) (k1_hw10 : k1_chk10 v75), ∀ a, (k1_off42 v75) a + S1x128.size a ≤ S100000x128.size a := fun v75 k1_hw10 => k1_hw10.2

def k1_off43 (v83 : BitVec 32) : Fin 2 → Nat :=
  let c0_i32_91 : BitVec 32 := 0#32
  ![v83.toNat, 0]

def k1_chk11 (v83 : BitVec 32) : Prop :=
  (∀ a, (k1_off22 v83) a + S1x128.size a ≤ S100000x128.size a) ∧
  (∀ a, (k1_off43 v83) a + S1x128.size a ≤ S100000x128.size a)
instance k1_chk11.dec : ∀ (v83 : BitVec 32), Decidable (k1_chk11 v83) := fun v83 => decidable_of_iff' _ (Iff.of_eq (k1_chk11.eq_1 v83))
theorem k1_off22_inb : ∀ (v83 : BitVec 32) (k1_hw11 : k1_chk11 v83), ∀ a, (k1_off22 v83) a + S1x128.size a ≤ S100000x128.size a := fun v83 k1_hw11 => k1_hw11.1
theorem k1_off43_inb : ∀ (v83 : BitVec 32) (k1_hw11 : k1_chk11 v83), ∀ a, (k1_off43 v83) a + S1x128.size a ≤ S100000x128.size a := fun v83 k1_hw11 => k1_hw11.2

def k1_off44 (v91 : BitVec 32) : Fin 2 → Nat :=
  let c0_i32_95 : BitVec 32 := 0#32
  ![v91.toNat, 0]

def k1_chk12 (v91 : BitVec 32) : Prop :=
  (∀ a, (k1_off24 v91) a + S1x128.size a ≤ S100000x128.size a) ∧
  (∀ a, (k1_off44 v91) a + S1x128.size a ≤ S100000x128.size a)
instance k1_chk12.dec : ∀ (v91 : BitVec 32), Decidable (k1_chk12 v91) := fun v91 => decidable_of_iff' _ (Iff.of_eq (k1_chk12.eq_1 v91))
theorem k1_off24_inb : ∀ (v91 : BitVec 32) (k1_hw12 : k1_chk12 v91), ∀ a, (k1_off24 v91) a + S1x128.size a ≤ S100000x128.size a := fun v91 k1_hw12 => k1_hw12.1
theorem k1_off44_inb : ∀ (v91 : BitVec 32) (k1_hw12 : k1_chk12 v91), ∀ a, (k1_off44 v91) a + S1x128.size a ≤ S100000x128.size a := fun v91 k1_hw12 => k1_hw12.2

def k1_off45 (v99 : BitVec 32) : Fin 2 → Nat :=
  let c0_i32_99 : BitVec 32 := 0#32
  ![v99.toNat, 0]

def k1_chk13 (v99 : BitVec 32) : Prop :=
  (∀ a, (k1_off26 v99) a + S1x128.size a ≤ S100000x128.size a) ∧
  (∀ a, (k1_off45 v99) a + S1x128.size a ≤ S100000x128.size a)
instance k1_chk13.dec : ∀ (v99 : BitVec 32), Decidable (k1_chk13 v99) := fun v99 => decidable_of_iff' _ (Iff.of_eq (k1_chk13.eq_1 v99))
theorem k1_off26_inb : ∀ (v99 : BitVec 32) (k1_hw13 : k1_chk13 v99), ∀ a, (k1_off26 v99) a + S1x128.size a ≤ S100000x128.size a := fun v99 k1_hw13 => k1_hw13.1
theorem k1_off45_inb : ∀ (v99 : BitVec 32) (k1_hw13 : k1_chk13 v99), ∀ a, (k1_off45 v99) a + S1x128.size a ≤ S100000x128.size a := fun v99 k1_hw13 => k1_hw13.2

def k1_off46 (v107 : BitVec 32) : Fin 2 → Nat :=
  let c0_i32_103 : BitVec 32 := 0#32
  ![v107.toNat, 0]

def k1_chk14 (v107 : BitVec 32) : Prop :=
  (∀ a, (k1_off28 v107) a + S1x128.size a ≤ S100000x128.size a) ∧
  (∀ a, (k1_off46 v107) a + S1x128.size a ≤ S100000x128.size a)
instance k1_chk14.dec : ∀ (v107 : BitVec 32), Decidable (k1_chk14 v107) := fun v107 => decidable_of_iff' _ (Iff.of_eq (k1_chk14.eq_1 v107))
theorem k1_off28_inb : ∀ (v107 : BitVec 32) (k1_hw14 : k1_chk14 v107), ∀ a, (k1_off28 v107) a + S1x128.size a ≤ S100000x128.size a := fun v107 k1_hw14 => k1_hw14.1
theorem k1_off46_inb : ∀ (v107 : BitVec 32) (k1_hw14 : k1_chk14 v107), ∀ a, (k1_off46 v107) a + S1x128.size a ≤ S100000x128.size a := fun v107 k1_hw14 => k1_hw14.2

def k1_off47 (v115 : BitVec 32) : Fin 2 → Nat :=
  let c0_i32_107 : BitVec 32 := 0#32
  ![v115.toNat, 0]

def k1_chk15 (v115 : BitVec 32) : Prop :=
  (∀ a, (k1_off30 v115) a + S1x128.size a ≤ S100000x128.size a) ∧
  (∀ a, (k1_off47 v115) a + S1x128.size a ≤ S100000x128.size a)
instance k1_chk15.dec : ∀ (v115 : BitVec 32), Decidable (k1_chk15 v115) := fun v115 => decidable_of_iff' _ (Iff.of_eq (k1_chk15.eq_1 v115))
theorem k1_off30_inb : ∀ (v115 : BitVec 32) (k1_hw15 : k1_chk15 v115), ∀ a, (k1_off30 v115) a + S1x128.size a ≤ S100000x128.size a := fun v115 k1_hw15 => k1_hw15.1
theorem k1_off47_inb : ∀ (v115 : BitVec 32) (k1_hw15 : k1_chk15 v115), ∀ a, (k1_off47 v115) a + S1x128.size a ≤ S100000x128.size a := fun v115 k1_hw15 => k1_hw15.2

def k1_off48 (i : grid1.Coords) : Fin 2 → Nat :=
  let arg1 : BitVec 32 := BitVec.ofNat 32 (i 1).val
  let v230 : Index := Scalar.indexCast arg1
  let c0_115 : Index := 0#32
  ![v230.toNat, 0]
def k1_cond1 (i : grid1.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![2, 1000], ![false, false]⟩

abbrev pre2 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k2_off2 (v3 : BitVec 32) : Fin 2 → Nat :=
  let c0_i32_2 : BitVec 32 := 0#32
  ![v3.toNat, 0]

def k2_off3 (i : grid2.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k2_off4 (v11 : BitVec 32) : Fin 2 → Nat :=
  let c0_i32_5 : BitVec 32 := 0#32
  ![v11.toNat, 0]

def k2_off5 (i : grid2.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k2_off6 (v19 : BitVec 32) : Fin 2 → Nat :=
  let c0_i32_8 : BitVec 32 := 0#32
  ![v19.toNat, 0]

def k2_off7 (i : grid2.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k2_off8 (v27 : BitVec 32) : Fin 2 → Nat :=
  let c0_i32_11 : BitVec 32 := 0#32
  ![v27.toNat, 0]

def k2_off9 (i : grid2.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k2_off10 (v35 : BitVec 32) : Fin 2 → Nat :=
  let c0_i32_14 : BitVec 32 := 0#32
  ![v35.toNat, 0]

def k2_off11 (i : grid2.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k2_off12 (v43 : BitVec 32) : Fin 2 → Nat :=
  let c0_i32_17 : BitVec 32 := 0#32
  ![v43.toNat, 0]

def k2_off13 (i : grid2.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k2_off14 (v51 : BitVec 32) : Fin 2 → Nat :=
  let c0_i32_20 : BitVec 32 := 0#32
  ![v51.toNat, 0]

def k2_off15 (i : grid2.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k2_off16 (v59 : BitVec 32) : Fin 2 → Nat :=
  let c0_i32_23 : BitVec 32 := 0#32
  ![v59.toNat, 0]

def k2_off17 (i : grid2.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k2_off18 (v67 : BitVec 32) : Fin 2 → Nat :=
  let c0_i32_26 : BitVec 32 := 0#32
  ![v67.toNat, 0]

def k2_off19 (i : grid2.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k2_off20 (v75 : BitVec 32) : Fin 2 → Nat :=
  let c0_i32_29 : BitVec 32 := 0#32
  ![v75.toNat, 0]

def k2_off21 (i : grid2.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k2_off22 (v83 : BitVec 32) : Fin 2 → Nat :=
  let c0_i32_32 : BitVec 32 := 0#32
  ![v83.toNat, 0]

def k2_off23 (i : grid2.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k2_off24 (v91 : BitVec 32) : Fin 2 → Nat :=
  let c0_i32_35 : BitVec 32 := 0#32
  ![v91.toNat, 0]

def k2_off25 (i : grid2.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k2_off26 (v99 : BitVec 32) : Fin 2 → Nat :=
  let c0_i32_38 : BitVec 32 := 0#32
  ![v99.toNat, 0]

def k2_off27 (i : grid2.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k2_off28 (v107 : BitVec 32) : Fin 2 → Nat :=
  let c0_i32_41 : BitVec 32 := 0#32
  ![v107.toNat, 0]

def k2_off29 (i : grid2.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k2_off30 (v115 : BitVec 32) : Fin 2 → Nat :=
  let c0_i32_44 : BitVec 32 := 0#32
  ![v115.toNat, 0]

def k2_off31 (i : grid2.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k2_off32 (v123 : BitVec 32) : Fin 2 → Nat :=
  let c0_i32_47 : BitVec 32 := 0#32
  ![v123.toNat, 0]

def k2_chk16 (v123 : BitVec 32) : Prop :=
  (∀ a, (k2_off32 v123) a + S1x128.size a ≤ S100000x128.size a)
instance k2_chk16.dec : ∀ (v123 : BitVec 32), Decidable (k2_chk16 v123) := fun v123 => decidable_of_iff' _ (Iff.of_eq (k2_chk16.eq_1 v123))
theorem k2_off32_inb : ∀ (v123 : BitVec 32) (k2_hw16 : k2_chk16 v123), ∀ a, (k2_off32 v123) a + S1x128.size a ≤ S100000x128.size a := fun v123 k2_hw16 => k2_hw16

def k2_off33 (v3 : BitVec 32) : Fin 2 → Nat :=
  let c0_i32_51 : BitVec 32 := 0#32
  ![v3.toNat, 0]

def k2_chk1 (v3 : BitVec 32) : Prop :=
  (∀ a, (k2_off2 v3) a + S1x128.size a ≤ S100000x128.size a) ∧
  (∀ a, (k2_off33 v3) a + S1x128.size a ≤ S100000x128.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x128.size a ≤ S100000x128.size a := fun v3 k2_hw1 => k2_hw1.1
theorem k2_off33_inb : ∀ (v3 : BitVec 32) (k2_hw1 : k2_chk1 v3), ∀ a, (k2_off33 v3) a + S1x128.size a ≤ S100000x128.size a := fun v3 k2_hw1 => k2_hw1.2

def k2_off34 (v11 : BitVec 32) : Fin 2 → Nat :=
  let c0_i32_55 : BitVec 32 := 0#32
  ![v11.toNat, 0]

def k2_chk2 (v11 : BitVec 32) : Prop :=
  (∀ a, (k2_off4 v11) a + S1x128.size a ≤ S100000x128.size a) ∧
  (∀ a, (k2_off34 v11) a + S1x128.size a ≤ S100000x128.size a)
instance k2_chk2.dec : ∀ (v11 : BitVec 32), Decidable (k2_chk2 v11) := fun v11 => decidable_of_iff' _ (Iff.of_eq (k2_chk2.eq_1 v11))
theorem k2_off4_inb : ∀ (v11 : BitVec 32) (k2_hw2 : k2_chk2 v11), ∀ a, (k2_off4 v11) a + S1x128.size a ≤ S100000x128.size a := fun v11 k2_hw2 => k2_hw2.1
theorem k2_off34_inb : ∀ (v11 : BitVec 32) (k2_hw2 : k2_chk2 v11), ∀ a, (k2_off34 v11) a + S1x128.size a ≤ S100000x128.size a := fun v11 k2_hw2 => k2_hw2.2

def k2_off35 (v19 : BitVec 32) : Fin 2 → Nat :=
  let c0_i32_59 : BitVec 32 := 0#32
  ![v19.toNat, 0]

def k2_chk3 (v19 : BitVec 32) : Prop :=
  (∀ a, (k2_off6 v19) a + S1x128.size a ≤ S100000x128.size a) ∧
  (∀ a, (k2_off35 v19) a + S1x128.size a ≤ S100000x128.size a)
instance k2_chk3.dec : ∀ (v19 : BitVec 32), Decidable (k2_chk3 v19) := fun v19 => decidable_of_iff' _ (Iff.of_eq (k2_chk3.eq_1 v19))
theorem k2_off6_inb : ∀ (v19 : BitVec 32) (k2_hw3 : k2_chk3 v19), ∀ a, (k2_off6 v19) a + S1x128.size a ≤ S100000x128.size a := fun v19 k2_hw3 => k2_hw3.1
theorem k2_off35_inb : ∀ (v19 : BitVec 32) (k2_hw3 : k2_chk3 v19), ∀ a, (k2_off35 v19) a + S1x128.size a ≤ S100000x128.size a := fun v19 k2_hw3 => k2_hw3.2

def k2_off36 (v27 : BitVec 32) : Fin 2 → Nat :=
  let c0_i32_63 : BitVec 32 := 0#32
  ![v27.toNat, 0]

def k2_chk4 (v27 : BitVec 32) : Prop :=
  (∀ a, (k2_off8 v27) a + S1x128.size a ≤ S100000x128.size a) ∧
  (∀ a, (k2_off36 v27) a + S1x128.size a ≤ S100000x128.size a)
instance k2_chk4.dec : ∀ (v27 : BitVec 32), Decidable (k2_chk4 v27) := fun v27 => decidable_of_iff' _ (Iff.of_eq (k2_chk4.eq_1 v27))
theorem k2_off8_inb : ∀ (v27 : BitVec 32) (k2_hw4 : k2_chk4 v27), ∀ a, (k2_off8 v27) a + S1x128.size a ≤ S100000x128.size a := fun v27 k2_hw4 => k2_hw4.1
theorem k2_off36_inb : ∀ (v27 : BitVec 32) (k2_hw4 : k2_chk4 v27), ∀ a, (k2_off36 v27) a + S1x128.size a ≤ S100000x128.size a := fun v27 k2_hw4 => k2_hw4.2

def k2_off37 (v35 : BitVec 32) : Fin 2 → Nat :=
  let c0_i32_67 : BitVec 32 := 0#32
  ![v35.toNat, 0]

def k2_chk5 (v35 : BitVec 32) : Prop :=
  (∀ a, (k2_off10 v35) a + S1x128.size a ≤ S100000x128.size a) ∧
  (∀ a, (k2_off37 v35) a + S1x128.size a ≤ S100000x128.size a)
instance k2_chk5.dec : ∀ (v35 : BitVec 32), Decidable (k2_chk5 v35) := fun v35 => decidable_of_iff' _ (Iff.of_eq (k2_chk5.eq_1 v35))
theorem k2_off10_inb : ∀ (v35 : BitVec 32) (k2_hw5 : k2_chk5 v35), ∀ a, (k2_off10 v35) a + S1x128.size a ≤ S100000x128.size a := fun v35 k2_hw5 => k2_hw5.1
theorem k2_off37_inb : ∀ (v35 : BitVec 32) (k2_hw5 : k2_chk5 v35), ∀ a, (k2_off37 v35) a + S1x128.size a ≤ S100000x128.size a := fun v35 k2_hw5 => k2_hw5.2

def k2_off38 (v43 : BitVec 32) : Fin 2 → Nat :=
  let c0_i32_71 : BitVec 32 := 0#32
  ![v43.toNat, 0]

def k2_chk6 (v43 : BitVec 32) : Prop :=
  (∀ a, (k2_off12 v43) a + S1x128.size a ≤ S100000x128.size a) ∧
  (∀ a, (k2_off38 v43) a + S1x128.size a ≤ S100000x128.size a)
instance k2_chk6.dec : ∀ (v43 : BitVec 32), Decidable (k2_chk6 v43) := fun v43 => decidable_of_iff' _ (Iff.of_eq (k2_chk6.eq_1 v43))
theorem k2_off12_inb : ∀ (v43 : BitVec 32) (k2_hw6 : k2_chk6 v43), ∀ a, (k2_off12 v43) a + S1x128.size a ≤ S100000x128.size a := fun v43 k2_hw6 => k2_hw6.1
theorem k2_off38_inb : ∀ (v43 : BitVec 32) (k2_hw6 : k2_chk6 v43), ∀ a, (k2_off38 v43) a + S1x128.size a ≤ S100000x128.size a := fun v43 k2_hw6 => k2_hw6.2

def k2_off39 (v51 : BitVec 32) : Fin 2 → Nat :=
  let c0_i32_75 : BitVec 32 := 0#32
  ![v51.toNat, 0]

def k2_chk7 (v51 : BitVec 32) : Prop :=
  (∀ a, (k2_off14 v51) a + S1x128.size a ≤ S100000x128.size a) ∧
  (∀ a, (k2_off39 v51) a + S1x128.size a ≤ S100000x128.size a)
instance k2_chk7.dec : ∀ (v51 : BitVec 32), Decidable (k2_chk7 v51) := fun v51 => decidable_of_iff' _ (Iff.of_eq (k2_chk7.eq_1 v51))
theorem k2_off14_inb : ∀ (v51 : BitVec 32) (k2_hw7 : k2_chk7 v51), ∀ a, (k2_off14 v51) a + S1x128.size a ≤ S100000x128.size a := fun v51 k2_hw7 => k2_hw7.1
theorem k2_off39_inb : ∀ (v51 : BitVec 32) (k2_hw7 : k2_chk7 v51), ∀ a, (k2_off39 v51) a + S1x128.size a ≤ S100000x128.size a := fun v51 k2_hw7 => k2_hw7.2

def k2_off40 (v59 : BitVec 32) : Fin 2 → Nat :=
  let c0_i32_79 : BitVec 32 := 0#32
  ![v59.toNat, 0]

def k2_chk8 (v59 : BitVec 32) : Prop :=
  (∀ a, (k2_off16 v59) a + S1x128.size a ≤ S100000x128.size a) ∧
  (∀ a, (k2_off40 v59) a + S1x128.size a ≤ S100000x128.size a)
instance k2_chk8.dec : ∀ (v59 : BitVec 32), Decidable (k2_chk8 v59) := fun v59 => decidable_of_iff' _ (Iff.of_eq (k2_chk8.eq_1 v59))
theorem k2_off16_inb : ∀ (v59 : BitVec 32) (k2_hw8 : k2_chk8 v59), ∀ a, (k2_off16 v59) a + S1x128.size a ≤ S100000x128.size a := fun v59 k2_hw8 => k2_hw8.1
theorem k2_off40_inb : ∀ (v59 : BitVec 32) (k2_hw8 : k2_chk8 v59), ∀ a, (k2_off40 v59) a + S1x128.size a ≤ S100000x128.size a := fun v59 k2_hw8 => k2_hw8.2

def k2_off41 (v67 : BitVec 32) : Fin 2 → Nat :=
  let c0_i32_83 : BitVec 32 := 0#32
  ![v67.toNat, 0]

def k2_chk9 (v67 : BitVec 32) : Prop :=
  (∀ a, (k2_off18 v67) a + S1x128.size a ≤ S100000x128.size a) ∧
  (∀ a, (k2_off41 v67) a + S1x128.size a ≤ S100000x128.size a)
instance k2_chk9.dec : ∀ (v67 : BitVec 32), Decidable (k2_chk9 v67) := fun v67 => decidable_of_iff' _ (Iff.of_eq (k2_chk9.eq_1 v67))
theorem k2_off18_inb : ∀ (v67 : BitVec 32) (k2_hw9 : k2_chk9 v67), ∀ a, (k2_off18 v67) a + S1x128.size a ≤ S100000x128.size a := fun v67 k2_hw9 => k2_hw9.1
theorem k2_off41_inb : ∀ (v67 : BitVec 32) (k2_hw9 : k2_chk9 v67), ∀ a, (k2_off41 v67) a + S1x128.size a ≤ S100000x128.size a := fun v67 k2_hw9 => k2_hw9.2

def k2_off42 (v75 : BitVec 32) : Fin 2 → Nat :=
  let c0_i32_87 : BitVec 32 := 0#32
  ![v75.toNat, 0]

def k2_chk10 (v75 : BitVec 32) : Prop :=
  (∀ a, (k2_off20 v75) a + S1x128.size a ≤ S100000x128.size a) ∧
  (∀ a, (k2_off42 v75) a + S1x128.size a ≤ S100000x128.size a)
instance k2_chk10.dec : ∀ (v75 : BitVec 32), Decidable (k2_chk10 v75) := fun v75 => decidable_of_iff' _ (Iff.of_eq (k2_chk10.eq_1 v75))
theorem k2_off20_inb : ∀ (v75 : BitVec 32) (k2_hw10 : k2_chk10 v75), ∀ a, (k2_off20 v75) a + S1x128.size a ≤ S100000x128.size a := fun v75 k2_hw10 => k2_hw10.1
theorem k2_off42_inb : ∀ (v75 : BitVec 32) (k2_hw10 : k2_chk10 v75), ∀ a, (k2_off42 v75) a + S1x128.size a ≤ S100000x128.size a := fun v75 k2_hw10 => k2_hw10.2

def k2_off43 (v83 : BitVec 32) : Fin 2 → Nat :=
  let c0_i32_91 : BitVec 32 := 0#32
  ![v83.toNat, 0]

def k2_chk11 (v83 : BitVec 32) : Prop :=
  (∀ a, (k2_off22 v83) a + S1x128.size a ≤ S100000x128.size a) ∧
  (∀ a, (k2_off43 v83) a + S1x128.size a ≤ S100000x128.size a)
instance k2_chk11.dec : ∀ (v83 : BitVec 32), Decidable (k2_chk11 v83) := fun v83 => decidable_of_iff' _ (Iff.of_eq (k2_chk11.eq_1 v83))
theorem k2_off22_inb : ∀ (v83 : BitVec 32) (k2_hw11 : k2_chk11 v83), ∀ a, (k2_off22 v83) a + S1x128.size a ≤ S100000x128.size a := fun v83 k2_hw11 => k2_hw11.1
theorem k2_off43_inb : ∀ (v83 : BitVec 32) (k2_hw11 : k2_chk11 v83), ∀ a, (k2_off43 v83) a + S1x128.size a ≤ S100000x128.size a := fun v83 k2_hw11 => k2_hw11.2

def k2_off44 (v91 : BitVec 32) : Fin 2 → Nat :=
  let c0_i32_95 : BitVec 32 := 0#32
  ![v91.toNat, 0]

def k2_chk12 (v91 : BitVec 32) : Prop :=
  (∀ a, (k2_off24 v91) a + S1x128.size a ≤ S100000x128.size a) ∧
  (∀ a, (k2_off44 v91) a + S1x128.size a ≤ S100000x128.size a)
instance k2_chk12.dec : ∀ (v91 : BitVec 32), Decidable (k2_chk12 v91) := fun v91 => decidable_of_iff' _ (Iff.of_eq (k2_chk12.eq_1 v91))
theorem k2_off24_inb : ∀ (v91 : BitVec 32) (k2_hw12 : k2_chk12 v91), ∀ a, (k2_off24 v91) a + S1x128.size a ≤ S100000x128.size a := fun v91 k2_hw12 => k2_hw12.1
theorem k2_off44_inb : ∀ (v91 : BitVec 32) (k2_hw12 : k2_chk12 v91), ∀ a, (k2_off44 v91) a + S1x128.size a ≤ S100000x128.size a := fun v91 k2_hw12 => k2_hw12.2

def k2_off45 (v99 : BitVec 32) : Fin 2 → Nat :=
  let c0_i32_99 : BitVec 32 := 0#32
  ![v99.toNat, 0]

def k2_chk13 (v99 : BitVec 32) : Prop :=
  (∀ a, (k2_off26 v99) a + S1x128.size a ≤ S100000x128.size a) ∧
  (∀ a, (k2_off45 v99) a + S1x128.size a ≤ S100000x128.size a)
instance k2_chk13.dec : ∀ (v99 : BitVec 32), Decidable (k2_chk13 v99) := fun v99 => decidable_of_iff' _ (Iff.of_eq (k2_chk13.eq_1 v99))
theorem k2_off26_inb : ∀ (v99 : BitVec 32) (k2_hw13 : k2_chk13 v99), ∀ a, (k2_off26 v99) a + S1x128.size a ≤ S100000x128.size a := fun v99 k2_hw13 => k2_hw13.1
theorem k2_off45_inb : ∀ (v99 : BitVec 32) (k2_hw13 : k2_chk13 v99), ∀ a, (k2_off45 v99) a + S1x128.size a ≤ S100000x128.size a := fun v99 k2_hw13 => k2_hw13.2

def k2_off46 (v107 : BitVec 32) : Fin 2 → Nat :=
  let c0_i32_103 : BitVec 32 := 0#32
  ![v107.toNat, 0]

def k2_chk14 (v107 : BitVec 32) : Prop :=
  (∀ a, (k2_off28 v107) a + S1x128.size a ≤ S100000x128.size a) ∧
  (∀ a, (k2_off46 v107) a + S1x128.size a ≤ S100000x128.size a)
instance k2_chk14.dec : ∀ (v107 : BitVec 32), Decidable (k2_chk14 v107) := fun v107 => decidable_of_iff' _ (Iff.of_eq (k2_chk14.eq_1 v107))
theorem k2_off28_inb : ∀ (v107 : BitVec 32) (k2_hw14 : k2_chk14 v107), ∀ a, (k2_off28 v107) a + S1x128.size a ≤ S100000x128.size a := fun v107 k2_hw14 => k2_hw14.1
theorem k2_off46_inb : ∀ (v107 : BitVec 32) (k2_hw14 : k2_chk14 v107), ∀ a, (k2_off46 v107) a + S1x128.size a ≤ S100000x128.size a := fun v107 k2_hw14 => k2_hw14.2

def k2_off47 (v115 : BitVec 32) : Fin 2 → Nat :=
  let c0_i32_107 : BitVec 32 := 0#32
  ![v115.toNat, 0]

def k2_chk15 (v115 : BitVec 32) : Prop :=
  (∀ a, (k2_off30 v115) a + S1x128.size a ≤ S100000x128.size a) ∧
  (∀ a, (k2_off47 v115) a + S1x128.size a ≤ S100000x128.size a)
instance k2_chk15.dec : ∀ (v115 : BitVec 32), Decidable (k2_chk15 v115) := fun v115 => decidable_of_iff' _ (Iff.of_eq (k2_chk15.eq_1 v115))
theorem k2_off30_inb : ∀ (v115 : BitVec 32) (k2_hw15 : k2_chk15 v115), ∀ a, (k2_off30 v115) a + S1x128.size a ≤ S100000x128.size a := fun v115 k2_hw15 => k2_hw15.1
theorem k2_off47_inb : ∀ (v115 : BitVec 32) (k2_hw15 : k2_chk15 v115), ∀ a, (k2_off47 v115) a + S1x128.size a ≤ S100000x128.size a := fun v115 k2_hw15 => k2_hw15.2

def k2_off48 (i : grid2.Coords) : Fin 2 → Nat :=
  let arg1 : BitVec 32 := BitVec.ofNat 32 (i 1).val
  let v230 : Index := Scalar.indexCast arg1
  let c0_115 : Index := 0#32
  ![v230.toNat, 0]
def k2_cond1 (i : grid2.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![2, 1000], ![false, false]⟩

abbrev pre3 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k3_off2 (v3 : BitVec 32) : Fin 2 → Nat :=
  let c0_i32_2 : BitVec 32 := 0#32
  ![v3.toNat, 0]

def k3_off3 (i : grid3.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k3_off4 (v11 : BitVec 32) : Fin 2 → Nat :=
  let c0_i32_5 : BitVec 32 := 0#32
  ![v11.toNat, 0]

def k3_off5 (i : grid3.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k3_off6 (v19 : BitVec 32) : Fin 2 → Nat :=
  let c0_i32_8 : BitVec 32 := 0#32
  ![v19.toNat, 0]

def k3_off7 (i : grid3.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k3_off8 (v27 : BitVec 32) : Fin 2 → Nat :=
  let c0_i32_11 : BitVec 32 := 0#32
  ![v27.toNat, 0]

def k3_off9 (i : grid3.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k3_off10 (v35 : BitVec 32) : Fin 2 → Nat :=
  let c0_i32_14 : BitVec 32 := 0#32
  ![v35.toNat, 0]

def k3_off11 (i : grid3.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k3_off12 (v43 : BitVec 32) : Fin 2 → Nat :=
  let c0_i32_17 : BitVec 32 := 0#32
  ![v43.toNat, 0]

def k3_off13 (i : grid3.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k3_off14 (v51 : BitVec 32) : Fin 2 → Nat :=
  let c0_i32_20 : BitVec 32 := 0#32
  ![v51.toNat, 0]

def k3_off15 (i : grid3.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k3_off16 (v59 : BitVec 32) : Fin 2 → Nat :=
  let c0_i32_23 : BitVec 32 := 0#32
  ![v59.toNat, 0]

def k3_off17 (i : grid3.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k3_off18 (v67 : BitVec 32) : Fin 2 → Nat :=
  let c0_i32_26 : BitVec 32 := 0#32
  ![v67.toNat, 0]

def k3_off19 (i : grid3.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k3_off20 (v75 : BitVec 32) : Fin 2 → Nat :=
  let c0_i32_29 : BitVec 32 := 0#32
  ![v75.toNat, 0]

def k3_off21 (i : grid3.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k3_off22 (v83 : BitVec 32) : Fin 2 → Nat :=
  let c0_i32_32 : BitVec 32 := 0#32
  ![v83.toNat, 0]

def k3_off23 (i : grid3.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k3_off24 (v91 : BitVec 32) : Fin 2 → Nat :=
  let c0_i32_35 : BitVec 32 := 0#32
  ![v91.toNat, 0]

def k3_off25 (i : grid3.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k3_off26 (v99 : BitVec 32) : Fin 2 → Nat :=
  let c0_i32_38 : BitVec 32 := 0#32
  ![v99.toNat, 0]

def k3_off27 (i : grid3.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k3_off28 (v107 : BitVec 32) : Fin 2 → Nat :=
  let c0_i32_41 : BitVec 32 := 0#32
  ![v107.toNat, 0]

def k3_off29 (i : grid3.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k3_off30 (v115 : BitVec 32) : Fin 2 → Nat :=
  let c0_i32_44 : BitVec 32 := 0#32
  ![v115.toNat, 0]

def k3_off31 (i : grid3.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k3_off32 (v123 : BitVec 32) : Fin 2 → Nat :=
  let c0_i32_47 : BitVec 32 := 0#32
  ![v123.toNat, 0]

def k3_chk16 (v123 : BitVec 32) : Prop :=
  (∀ a, (k3_off32 v123) a + S1x128.size a ≤ S100000x128.size a)
instance k3_chk16.dec : ∀ (v123 : BitVec 32), Decidable (k3_chk16 v123) := fun v123 => decidable_of_iff' _ (Iff.of_eq (k3_chk16.eq_1 v123))
theorem k3_off32_inb : ∀ (v123 : BitVec 32) (k3_hw16 : k3_chk16 v123), ∀ a, (k3_off32 v123) a + S1x128.size a ≤ S100000x128.size a := fun v123 k3_hw16 => k3_hw16

def k3_off33 (v3 : BitVec 32) : Fin 2 → Nat :=
  let c0_i32_51 : BitVec 32 := 0#32
  ![v3.toNat, 0]

def k3_chk1 (v3 : BitVec 32) : Prop :=
  (∀ a, (k3_off2 v3) a + S1x128.size a ≤ S100000x128.size a) ∧
  (∀ a, (k3_off33 v3) a + S1x128.size a ≤ S100000x128.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x128.size a ≤ S100000x128.size a := fun v3 k3_hw1 => k3_hw1.1
theorem k3_off33_inb : ∀ (v3 : BitVec 32) (k3_hw1 : k3_chk1 v3), ∀ a, (k3_off33 v3) a + S1x128.size a ≤ S100000x128.size a := fun v3 k3_hw1 => k3_hw1.2

def k3_off34 (v11 : BitVec 32) : Fin 2 → Nat :=
  let c0_i32_55 : BitVec 32 := 0#32
  ![v11.toNat, 0]

def k3_chk2 (v11 : BitVec 32) : Prop :=
  (∀ a, (k3_off4 v11) a + S1x128.size a ≤ S100000x128.size a) ∧
  (∀ a, (k3_off34 v11) a + S1x128.size a ≤ S100000x128.size a)
instance k3_chk2.dec : ∀ (v11 : BitVec 32), Decidable (k3_chk2 v11) := fun v11 => decidable_of_iff' _ (Iff.of_eq (k3_chk2.eq_1 v11))
theorem k3_off4_inb : ∀ (v11 : BitVec 32) (k3_hw2 : k3_chk2 v11), ∀ a, (k3_off4 v11) a + S1x128.size a ≤ S100000x128.size a := fun v11 k3_hw2 => k3_hw2.1
theorem k3_off34_inb : ∀ (v11 : BitVec 32) (k3_hw2 : k3_chk2 v11), ∀ a, (k3_off34 v11) a + S1x128.size a ≤ S100000x128.size a := fun v11 k3_hw2 => k3_hw2.2

def k3_off35 (v19 : BitVec 32) : Fin 2 → Nat :=
  let c0_i32_59 : BitVec 32 := 0#32
  ![v19.toNat, 0]

def k3_chk3 (v19 : BitVec 32) : Prop :=
  (∀ a, (k3_off6 v19) a + S1x128.size a ≤ S100000x128.size a) ∧
  (∀ a, (k3_off35 v19) a + S1x128.size a ≤ S100000x128.size a)
instance k3_chk3.dec : ∀ (v19 : BitVec 32), Decidable (k3_chk3 v19) := fun v19 => decidable_of_iff' _ (Iff.of_eq (k3_chk3.eq_1 v19))
theorem k3_off6_inb : ∀ (v19 : BitVec 32) (k3_hw3 : k3_chk3 v19), ∀ a, (k3_off6 v19) a + S1x128.size a ≤ S100000x128.size a := fun v19 k3_hw3 => k3_hw3.1
theorem k3_off35_inb : ∀ (v19 : BitVec 32) (k3_hw3 : k3_chk3 v19), ∀ a, (k3_off35 v19) a + S1x128.size a ≤ S100000x128.size a := fun v19 k3_hw3 => k3_hw3.2

def k3_off36 (v27 : BitVec 32) : Fin 2 → Nat :=
  let c0_i32_63 : BitVec 32 := 0#32
  ![v27.toNat, 0]

def k3_chk4 (v27 : BitVec 32) : Prop :=
  (∀ a, (k3_off8 v27) a + S1x128.size a ≤ S100000x128.size a) ∧
  (∀ a, (k3_off36 v27) a + S1x128.size a ≤ S100000x128.size a)
instance k3_chk4.dec : ∀ (v27 : BitVec 32), Decidable (k3_chk4 v27) := fun v27 => decidable_of_iff' _ (Iff.of_eq (k3_chk4.eq_1 v27))
theorem k3_off8_inb : ∀ (v27 : BitVec 32) (k3_hw4 : k3_chk4 v27), ∀ a, (k3_off8 v27) a + S1x128.size a ≤ S100000x128.size a := fun v27 k3_hw4 => k3_hw4.1
theorem k3_off36_inb : ∀ (v27 : BitVec 32) (k3_hw4 : k3_chk4 v27), ∀ a, (k3_off36 v27) a + S1x128.size a ≤ S100000x128.size a := fun v27 k3_hw4 => k3_hw4.2

def k3_off37 (v35 : BitVec 32) : Fin 2 → Nat :=
  let c0_i32_67 : BitVec 32 := 0#32
  ![v35.toNat, 0]

def k3_chk5 (v35 : BitVec 32) : Prop :=
  (∀ a, (k3_off10 v35) a + S1x128.size a ≤ S100000x128.size a) ∧
  (∀ a, (k3_off37 v35) a + S1x128.size a ≤ S100000x128.size a)
instance k3_chk5.dec : ∀ (v35 : BitVec 32), Decidable (k3_chk5 v35) := fun v35 => decidable_of_iff' _ (Iff.of_eq (k3_chk5.eq_1 v35))
theorem k3_off10_inb : ∀ (v35 : BitVec 32) (k3_hw5 : k3_chk5 v35), ∀ a, (k3_off10 v35) a + S1x128.size a ≤ S100000x128.size a := fun v35 k3_hw5 => k3_hw5.1
theorem k3_off37_inb : ∀ (v35 : BitVec 32) (k3_hw5 : k3_chk5 v35), ∀ a, (k3_off37 v35) a + S1x128.size a ≤ S100000x128.size a := fun v35 k3_hw5 => k3_hw5.2

def k3_off38 (v43 : BitVec 32) : Fin 2 → Nat :=
  let c0_i32_71 : BitVec 32 := 0#32
  ![v43.toNat, 0]

def k3_chk6 (v43 : BitVec 32) : Prop :=
  (∀ a, (k3_off12 v43) a + S1x128.size a ≤ S100000x128.size a) ∧
  (∀ a, (k3_off38 v43) a + S1x128.size a ≤ S100000x128.size a)
instance k3_chk6.dec : ∀ (v43 : BitVec 32), Decidable (k3_chk6 v43) := fun v43 => decidable_of_iff' _ (Iff.of_eq (k3_chk6.eq_1 v43))
theorem k3_off12_inb : ∀ (v43 : BitVec 32) (k3_hw6 : k3_chk6 v43), ∀ a, (k3_off12 v43) a + S1x128.size a ≤ S100000x128.size a := fun v43 k3_hw6 => k3_hw6.1
theorem k3_off38_inb : ∀ (v43 : BitVec 32) (k3_hw6 : k3_chk6 v43), ∀ a, (k3_off38 v43) a + S1x128.size a ≤ S100000x128.size a := fun v43 k3_hw6 => k3_hw6.2

def k3_off39 (v51 : BitVec 32) : Fin 2 → Nat :=
  let c0_i32_75 : BitVec 32 := 0#32
  ![v51.toNat, 0]

def k3_chk7 (v51 : BitVec 32) : Prop :=
  (∀ a, (k3_off14 v51) a + S1x128.size a ≤ S100000x128.size a) ∧
  (∀ a, (k3_off39 v51) a + S1x128.size a ≤ S100000x128.size a)
instance k3_chk7.dec : ∀ (v51 : BitVec 32), Decidable (k3_chk7 v51) := fun v51 => decidable_of_iff' _ (Iff.of_eq (k3_chk7.eq_1 v51))
theorem k3_off14_inb : ∀ (v51 : BitVec 32) (k3_hw7 : k3_chk7 v51), ∀ a, (k3_off14 v51) a + S1x128.size a ≤ S100000x128.size a := fun v51 k3_hw7 => k3_hw7.1
theorem k3_off39_inb : ∀ (v51 : BitVec 32) (k3_hw7 : k3_chk7 v51), ∀ a, (k3_off39 v51) a + S1x128.size a ≤ S100000x128.size a := fun v51 k3_hw7 => k3_hw7.2

def k3_off40 (v59 : BitVec 32) : Fin 2 → Nat :=
  let c0_i32_79 : BitVec 32 := 0#32
  ![v59.toNat, 0]

def k3_chk8 (v59 : BitVec 32) : Prop :=
  (∀ a, (k3_off16 v59) a + S1x128.size a ≤ S100000x128.size a) ∧
  (∀ a, (k3_off40 v59) a + S1x128.size a ≤ S100000x128.size a)
instance k3_chk8.dec : ∀ (v59 : BitVec 32), Decidable (k3_chk8 v59) := fun v59 => decidable_of_iff' _ (Iff.of_eq (k3_chk8.eq_1 v59))
theorem k3_off16_inb : ∀ (v59 : BitVec 32) (k3_hw8 : k3_chk8 v59), ∀ a, (k3_off16 v59) a + S1x128.size a ≤ S100000x128.size a := fun v59 k3_hw8 => k3_hw8.1
theorem k3_off40_inb : ∀ (v59 : BitVec 32) (k3_hw8 : k3_chk8 v59), ∀ a, (k3_off40 v59) a + S1x128.size a ≤ S100000x128.size a := fun v59 k3_hw8 => k3_hw8.2

def k3_off41 (v67 : BitVec 32) : Fin 2 → Nat :=
  let c0_i32_83 : BitVec 32 := 0#32
  ![v67.toNat, 0]

def k3_chk9 (v67 : BitVec 32) : Prop :=
  (∀ a, (k3_off18 v67) a + S1x128.size a ≤ S100000x128.size a) ∧
  (∀ a, (k3_off41 v67) a + S1x128.size a ≤ S100000x128.size a)
instance k3_chk9.dec : ∀ (v67 : BitVec 32), Decidable (k3_chk9 v67) := fun v67 => decidable_of_iff' _ (Iff.of_eq (k3_chk9.eq_1 v67))
theorem k3_off18_inb : ∀ (v67 : BitVec 32) (k3_hw9 : k3_chk9 v67), ∀ a, (k3_off18 v67) a + S1x128.size a ≤ S100000x128.size a := fun v67 k3_hw9 => k3_hw9.1
theorem k3_off41_inb : ∀ (v67 : BitVec 32) (k3_hw9 : k3_chk9 v67), ∀ a, (k3_off41 v67) a + S1x128.size a ≤ S100000x128.size a := fun v67 k3_hw9 => k3_hw9.2

def k3_off42 (v75 : BitVec 32) : Fin 2 → Nat :=
  let c0_i32_87 : BitVec 32 := 0#32
  ![v75.toNat, 0]

def k3_chk10 (v75 : BitVec 32) : Prop :=
  (∀ a, (k3_off20 v75) a + S1x128.size a ≤ S100000x128.size a) ∧
  (∀ a, (k3_off42 v75) a + S1x128.size a ≤ S100000x128.size a)
instance k3_chk10.dec : ∀ (v75 : BitVec 32), Decidable (k3_chk10 v75) := fun v75 => decidable_of_iff' _ (Iff.of_eq (k3_chk10.eq_1 v75))
theorem k3_off20_inb : ∀ (v75 : BitVec 32) (k3_hw10 : k3_chk10 v75), ∀ a, (k3_off20 v75) a + S1x128.size a ≤ S100000x128.size a := fun v75 k3_hw10 => k3_hw10.1
theorem k3_off42_inb : ∀ (v75 : BitVec 32) (k3_hw10 : k3_chk10 v75), ∀ a, (k3_off42 v75) a + S1x128.size a ≤ S100000x128.size a := fun v75 k3_hw10 => k3_hw10.2

def k3_off43 (v83 : BitVec 32) : Fin 2 → Nat :=
  let c0_i32_91 : BitVec 32 := 0#32
  ![v83.toNat, 0]

def k3_chk11 (v83 : BitVec 32) : Prop :=
  (∀ a, (k3_off22 v83) a + S1x128.size a ≤ S100000x128.size a) ∧
  (∀ a, (k3_off43 v83) a + S1x128.size a ≤ S100000x128.size a)
instance k3_chk11.dec : ∀ (v83 : BitVec 32), Decidable (k3_chk11 v83) := fun v83 => decidable_of_iff' _ (Iff.of_eq (k3_chk11.eq_1 v83))
theorem k3_off22_inb : ∀ (v83 : BitVec 32) (k3_hw11 : k3_chk11 v83), ∀ a, (k3_off22 v83) a + S1x128.size a ≤ S100000x128.size a := fun v83 k3_hw11 => k3_hw11.1
theorem k3_off43_inb : ∀ (v83 : BitVec 32) (k3_hw11 : k3_chk11 v83), ∀ a, (k3_off43 v83) a + S1x128.size a ≤ S100000x128.size a := fun v83 k3_hw11 => k3_hw11.2

def k3_off44 (v91 : BitVec 32) : Fin 2 → Nat :=
  let c0_i32_95 : BitVec 32 := 0#32
  ![v91.toNat, 0]

def k3_chk12 (v91 : BitVec 32) : Prop :=
  (∀ a, (k3_off24 v91) a + S1x128.size a ≤ S100000x128.size a) ∧
  (∀ a, (k3_off44 v91) a + S1x128.size a ≤ S100000x128.size a)
instance k3_chk12.dec : ∀ (v91 : BitVec 32), Decidable (k3_chk12 v91) := fun v91 => decidable_of_iff' _ (Iff.of_eq (k3_chk12.eq_1 v91))
theorem k3_off24_inb : ∀ (v91 : BitVec 32) (k3_hw12 : k3_chk12 v91), ∀ a, (k3_off24 v91) a + S1x128.size a ≤ S100000x128.size a := fun v91 k3_hw12 => k3_hw12.1
theorem k3_off44_inb : ∀ (v91 : BitVec 32) (k3_hw12 : k3_chk12 v91), ∀ a, (k3_off44 v91) a + S1x128.size a ≤ S100000x128.size a := fun v91 k3_hw12 => k3_hw12.2

def k3_off45 (v99 : BitVec 32) : Fin 2 → Nat :=
  let c0_i32_99 : BitVec 32 := 0#32
  ![v99.toNat, 0]

def k3_chk13 (v99 : BitVec 32) : Prop :=
  (∀ a, (k3_off26 v99) a + S1x128.size a ≤ S100000x128.size a) ∧
  (∀ a, (k3_off45 v99) a + S1x128.size a ≤ S100000x128.size a)
instance k3_chk13.dec : ∀ (v99 : BitVec 32), Decidable (k3_chk13 v99) := fun v99 => decidable_of_iff' _ (Iff.of_eq (k3_chk13.eq_1 v99))
theorem k3_off26_inb : ∀ (v99 : BitVec 32) (k3_hw13 : k3_chk13 v99), ∀ a, (k3_off26 v99) a + S1x128.size a ≤ S100000x128.size a := fun v99 k3_hw13 => k3_hw13.1
theorem k3_off45_inb : ∀ (v99 : BitVec 32) (k3_hw13 : k3_chk13 v99), ∀ a, (k3_off45 v99) a + S1x128.size a ≤ S100000x128.size a := fun v99 k3_hw13 => k3_hw13.2

def k3_off46 (v107 : BitVec 32) : Fin 2 → Nat :=
  let c0_i32_103 : BitVec 32 := 0#32
  ![v107.toNat, 0]

def k3_chk14 (v107 : BitVec 32) : Prop :=
  (∀ a, (k3_off28 v107) a + S1x128.size a ≤ S100000x128.size a) ∧
  (∀ a, (k3_off46 v107) a + S1x128.size a ≤ S100000x128.size a)
instance k3_chk14.dec : ∀ (v107 : BitVec 32), Decidable (k3_chk14 v107) := fun v107 => decidable_of_iff' _ (Iff.of_eq (k3_chk14.eq_1 v107))
theorem k3_off28_inb : ∀ (v107 : BitVec 32) (k3_hw14 : k3_chk14 v107), ∀ a, (k3_off28 v107) a + S1x128.size a ≤ S100000x128.size a := fun v107 k3_hw14 => k3_hw14.1
theorem k3_off46_inb : ∀ (v107 : BitVec 32) (k3_hw14 : k3_chk14 v107), ∀ a, (k3_off46 v107) a + S1x128.size a ≤ S100000x128.size a := fun v107 k3_hw14 => k3_hw14.2

def k3_off47 (v115 : BitVec 32) : Fin 2 → Nat :=
  let c0_i32_107 : BitVec 32 := 0#32
  ![v115.toNat, 0]

def k3_chk15 (v115 : BitVec 32) : Prop :=
  (∀ a, (k3_off30 v115) a + S1x128.size a ≤ S100000x128.size a) ∧
  (∀ a, (k3_off47 v115) a + S1x128.size a ≤ S100000x128.size a)
instance k3_chk15.dec : ∀ (v115 : BitVec 32), Decidable (k3_chk15 v115) := fun v115 => decidable_of_iff' _ (Iff.of_eq (k3_chk15.eq_1 v115))
theorem k3_off30_inb : ∀ (v115 : BitVec 32) (k3_hw15 : k3_chk15 v115), ∀ a, (k3_off30 v115) a + S1x128.size a ≤ S100000x128.size a := fun v115 k3_hw15 => k3_hw15.1
theorem k3_off47_inb : ∀ (v115 : BitVec 32) (k3_hw15 : k3_chk15 v115), ∀ a, (k3_off47 v115) a + S1x128.size a ≤ S100000x128.size a := fun v115 k3_hw15 => k3_hw15.2

def k3_off48 (i : grid3.Coords) : Fin 2 → Nat :=
  let arg1 : BitVec 32 := BitVec.ofNat 32 (i 1).val
  let v230 : Index := Scalar.indexCast arg1
  let c0_115 : Index := 0#32
  ![v230.toNat, 0]
def k3_cond1 (i : grid3.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S128x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev grid4 : Pipeline.Grid := ⟨2, ![2, 1000], ![false, false]⟩

abbrev pre4 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k4_off2 (v3 : BitVec 32) : Fin 2 → Nat :=
  let c0_i32_2 : BitVec 32 := 0#32
  ![v3.toNat, 0]

def k4_off3 (i : grid4.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k4_off4 (v11 : BitVec 32) : Fin 2 → Nat :=
  let c0_i32_5 : BitVec 32 := 0#32
  ![v11.toNat, 0]

def k4_off5 (i : grid4.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k4_off6 (v19 : BitVec 32) : Fin 2 → Nat :=
  let c0_i32_8 : BitVec 32 := 0#32
  ![v19.toNat, 0]

def k4_off7 (i : grid4.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k4_off8 (v27 : BitVec 32) : Fin 2 → Nat :=
  let c0_i32_11 : BitVec 32 := 0#32
  ![v27.toNat, 0]

def k4_off9 (i : grid4.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k4_off10 (v35 : BitVec 32) : Fin 2 → Nat :=
  let c0_i32_14 : BitVec 32 := 0#32
  ![v35.toNat, 0]

def k4_off11 (i : grid4.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k4_off12 (v43 : BitVec 32) : Fin 2 → Nat :=
  let c0_i32_17 : BitVec 32 := 0#32
  ![v43.toNat, 0]

def k4_off13 (i : grid4.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k4_off14 (v51 : BitVec 32) : Fin 2 → Nat :=
  let c0_i32_20 : BitVec 32 := 0#32
  ![v51.toNat, 0]

def k4_off15 (i : grid4.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k4_off16 (v59 : BitVec 32) : Fin 2 → Nat :=
  let c0_i32_23 : BitVec 32 := 0#32
  ![v59.toNat, 0]

def k4_off17 (i : grid4.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k4_off18 (v67 : BitVec 32) : Fin 2 → Nat :=
  let c0_i32_26 : BitVec 32 := 0#32
  ![v67.toNat, 0]

def k4_off19 (i : grid4.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k4_off20 (v75 : BitVec 32) : Fin 2 → Nat :=
  let c0_i32_29 : BitVec 32 := 0#32
  ![v75.toNat, 0]

def k4_off21 (i : grid4.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k4_off22 (v83 : BitVec 32) : Fin 2 → Nat :=
  let c0_i32_32 : BitVec 32 := 0#32
  ![v83.toNat, 0]

def k4_off23 (i : grid4.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k4_off24 (v91 : BitVec 32) : Fin 2 → Nat :=
  let c0_i32_35 : BitVec 32 := 0#32
  ![v91.toNat, 0]

def k4_off25 (i : grid4.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k4_off26 (v99 : BitVec 32) : Fin 2 → Nat :=
  let c0_i32_38 : BitVec 32 := 0#32
  ![v99.toNat, 0]

def k4_off27 (i : grid4.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k4_off28 (v107 : BitVec 32) : Fin 2 → Nat :=
  let c0_i32_41 : BitVec 32 := 0#32
  ![v107.toNat, 0]

def k4_off29 (i : grid4.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k4_off30 (v115 : BitVec 32) : Fin 2 → Nat :=
  let c0_i32_44 : BitVec 32 := 0#32
  ![v115.toNat, 0]

def k4_off31 (i : grid4.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k4_off32 (v123 : BitVec 32) : Fin 2 → Nat :=
  let c0_i32_47 : BitVec 32 := 0#32
  ![v123.toNat, 0]

def k4_chk16 (v123 : BitVec 32) : Prop :=
  (∀ a, (k4_off32 v123) a + S1x128.size a ≤ S100000x128.size a)
instance k4_chk16.dec : ∀ (v123 : BitVec 32), Decidable (k4_chk16 v123) := fun v123 => decidable_of_iff' _ (Iff.of_eq (k4_chk16.eq_1 v123))
theorem k4_off32_inb : ∀ (v123 : BitVec 32) (k4_hw16 : k4_chk16 v123), ∀ a, (k4_off32 v123) a + S1x128.size a ≤ S100000x128.size a := fun v123 k4_hw16 => k4_hw16

def k4_off33 (v3 : BitVec 32) : Fin 2 → Nat :=
  let c0_i32_51 : BitVec 32 := 0#32
  ![v3.toNat, 0]

def k4_chk1 (v3 : BitVec 32) : Prop :=
  (∀ a, (k4_off2 v3) a + S1x128.size a ≤ S100000x128.size a) ∧
  (∀ a, (k4_off33 v3) a + S1x128.size a ≤ S100000x128.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x128.size a ≤ S100000x128.size a := fun v3 k4_hw1 => k4_hw1.1
theorem k4_off33_inb : ∀ (v3 : BitVec 32) (k4_hw1 : k4_chk1 v3), ∀ a, (k4_off33 v3) a + S1x128.size a ≤ S100000x128.size a := fun v3 k4_hw1 => k4_hw1.2

def k4_off34 (v11 : BitVec 32) : Fin 2 → Nat :=
  let c0_i32_55 : BitVec 32 := 0#32
  ![v11.toNat, 0]

def k4_chk2 (v11 : BitVec 32) : Prop :=
  (∀ a, (k4_off4 v11) a + S1x128.size a ≤ S100000x128.size a) ∧
  (∀ a, (k4_off34 v11) a + S1x128.size a ≤ S100000x128.size a)
instance k4_chk2.dec : ∀ (v11 : BitVec 32), Decidable (k4_chk2 v11) := fun v11 => decidable_of_iff' _ (Iff.of_eq (k4_chk2.eq_1 v11))
theorem k4_off4_inb : ∀ (v11 : BitVec 32) (k4_hw2 : k4_chk2 v11), ∀ a, (k4_off4 v11) a + S1x128.size a ≤ S100000x128.size a := fun v11 k4_hw2 => k4_hw2.1
theorem k4_off34_inb : ∀ (v11 : BitVec 32) (k4_hw2 : k4_chk2 v11), ∀ a, (k4_off34 v11) a + S1x128.size a ≤ S100000x128.size a := fun v11 k4_hw2 => k4_hw2.2

def k4_off35 (v19 : BitVec 32) : Fin 2 → Nat :=
  let c0_i32_59 : BitVec 32 := 0#32
  ![v19.toNat, 0]

def k4_chk3 (v19 : BitVec 32) : Prop :=
  (∀ a, (k4_off6 v19) a + S1x128.size a ≤ S100000x128.size a) ∧
  (∀ a, (k4_off35 v19) a + S1x128.size a ≤ S100000x128.size a)
instance k4_chk3.dec : ∀ (v19 : BitVec 32), Decidable (k4_chk3 v19) := fun v19 => decidable_of_iff' _ (Iff.of_eq (k4_chk3.eq_1 v19))
theorem k4_off6_inb : ∀ (v19 : BitVec 32) (k4_hw3 : k4_chk3 v19), ∀ a, (k4_off6 v19) a + S1x128.size a ≤ S100000x128.size a := fun v19 k4_hw3 => k4_hw3.1
theorem k4_off35_inb : ∀ (v19 : BitVec 32) (k4_hw3 : k4_chk3 v19), ∀ a, (k4_off35 v19) a + S1x128.size a ≤ S100000x128.size a := fun v19 k4_hw3 => k4_hw3.2

def k4_off36 (v27 : BitVec 32) : Fin 2 → Nat :=
  let c0_i32_63 : BitVec 32 := 0#32
  ![v27.toNat, 0]

def k4_chk4 (v27 : BitVec 32) : Prop :=
  (∀ a, (k4_off8 v27) a + S1x128.size a ≤ S100000x128.size a) ∧
  (∀ a, (k4_off36 v27) a + S1x128.size a ≤ S100000x128.size a)
instance k4_chk4.dec : ∀ (v27 : BitVec 32), Decidable (k4_chk4 v27) := fun v27 => decidable_of_iff' _ (Iff.of_eq (k4_chk4.eq_1 v27))
theorem k4_off8_inb : ∀ (v27 : BitVec 32) (k4_hw4 : k4_chk4 v27), ∀ a, (k4_off8 v27) a + S1x128.size a ≤ S100000x128.size a := fun v27 k4_hw4 => k4_hw4.1
theorem k4_off36_inb : ∀ (v27 : BitVec 32) (k4_hw4 : k4_chk4 v27), ∀ a, (k4_off36 v27) a + S1x128.size a ≤ S100000x128.size a := fun v27 k4_hw4 => k4_hw4.2

def k4_off37 (v35 : BitVec 32) : Fin 2 → Nat :=
  let c0_i32_67 : BitVec 32 := 0#32
  ![v35.toNat, 0]

def k4_chk5 (v35 : BitVec 32) : Prop :=
  (∀ a, (k4_off10 v35) a + S1x128.size a ≤ S100000x128.size a) ∧
  (∀ a, (k4_off37 v35) a + S1x128.size a ≤ S100000x128.size a)
instance k4_chk5.dec : ∀ (v35 : BitVec 32), Decidable (k4_chk5 v35) := fun v35 => decidable_of_iff' _ (Iff.of_eq (k4_chk5.eq_1 v35))
theorem k4_off10_inb : ∀ (v35 : BitVec 32) (k4_hw5 : k4_chk5 v35), ∀ a, (k4_off10 v35) a + S1x128.size a ≤ S100000x128.size a := fun v35 k4_hw5 => k4_hw5.1
theorem k4_off37_inb : ∀ (v35 : BitVec 32) (k4_hw5 : k4_chk5 v35), ∀ a, (k4_off37 v35) a + S1x128.size a ≤ S100000x128.size a := fun v35 k4_hw5 => k4_hw5.2

def k4_off38 (v43 : BitVec 32) : Fin 2 → Nat :=
  let c0_i32_71 : BitVec 32 := 0#32
  ![v43.toNat, 0]

def k4_chk6 (v43 : BitVec 32) : Prop :=
  (∀ a, (k4_off12 v43) a + S1x128.size a ≤ S100000x128.size a) ∧
  (∀ a, (k4_off38 v43) a + S1x128.size a ≤ S100000x128.size a)
instance k4_chk6.dec : ∀ (v43 : BitVec 32), Decidable (k4_chk6 v43) := fun v43 => decidable_of_iff' _ (Iff.of_eq (k4_chk6.eq_1 v43))
theorem k4_off12_inb : ∀ (v43 : BitVec 32) (k4_hw6 : k4_chk6 v43), ∀ a, (k4_off12 v43) a + S1x128.size a ≤ S100000x128.size a := fun v43 k4_hw6 => k4_hw6.1
theorem k4_off38_inb : ∀ (v43 : BitVec 32) (k4_hw6 : k4_chk6 v43), ∀ a, (k4_off38 v43) a + S1x128.size a ≤ S100000x128.size a := fun v43 k4_hw6 => k4_hw6.2

def k4_off39 (v51 : BitVec 32) : Fin 2 → Nat :=
  let c0_i32_75 : BitVec 32 := 0#32
  ![v51.toNat, 0]

def k4_chk7 (v51 : BitVec 32) : Prop :=
  (∀ a, (k4_off14 v51) a + S1x128.size a ≤ S100000x128.size a) ∧
  (∀ a, (k4_off39 v51) a + S1x128.size a ≤ S100000x128.size a)
instance k4_chk7.dec : ∀ (v51 : BitVec 32), Decidable (k4_chk7 v51) := fun v51 => decidable_of_iff' _ (Iff.of_eq (k4_chk7.eq_1 v51))
theorem k4_off14_inb : ∀ (v51 : BitVec 32) (k4_hw7 : k4_chk7 v51), ∀ a, (k4_off14 v51) a + S1x128.size a ≤ S100000x128.size a := fun v51 k4_hw7 => k4_hw7.1
theorem k4_off39_inb : ∀ (v51 : BitVec 32) (k4_hw7 : k4_chk7 v51), ∀ a, (k4_off39 v51) a + S1x128.size a ≤ S100000x128.size a := fun v51 k4_hw7 => k4_hw7.2

def k4_off40 (v59 : BitVec 32) : Fin 2 → Nat :=
  let c0_i32_79 : BitVec 32 := 0#32
  ![v59.toNat, 0]

def k4_chk8 (v59 : BitVec 32) : Prop :=
  (∀ a, (k4_off16 v59) a + S1x128.size a ≤ S100000x128.size a) ∧
  (∀ a, (k4_off40 v59) a + S1x128.size a ≤ S100000x128.size a)
instance k4_chk8.dec : ∀ (v59 : BitVec 32), Decidable (k4_chk8 v59) := fun v59 => decidable_of_iff' _ (Iff.of_eq (k4_chk8.eq_1 v59))
theorem k4_off16_inb : ∀ (v59 : BitVec 32) (k4_hw8 : k4_chk8 v59), ∀ a, (k4_off16 v59) a + S1x128.size a ≤ S100000x128.size a := fun v59 k4_hw8 => k4_hw8.1
theorem k4_off40_inb : ∀ (v59 : BitVec 32) (k4_hw8 : k4_chk8 v59), ∀ a, (k4_off40 v59) a + S1x128.size a ≤ S100000x128.size a := fun v59 k4_hw8 => k4_hw8.2

def k4_off41 (v67 : BitVec 32) : Fin 2 → Nat :=
  let c0_i32_83 : BitVec 32 := 0#32
  ![v67.toNat, 0]

def k4_chk9 (v67 : BitVec 32) : Prop :=
  (∀ a, (k4_off18 v67) a + S1x128.size a ≤ S100000x128.size a) ∧
  (∀ a, (k4_off41 v67) a + S1x128.size a ≤ S100000x128.size a)
instance k4_chk9.dec : ∀ (v67 : BitVec 32), Decidable (k4_chk9 v67) := fun v67 => decidable_of_iff' _ (Iff.of_eq (k4_chk9.eq_1 v67))
theorem k4_off18_inb : ∀ (v67 : BitVec 32) (k4_hw9 : k4_chk9 v67), ∀ a, (k4_off18 v67) a + S1x128.size a ≤ S100000x128.size a := fun v67 k4_hw9 => k4_hw9.1
theorem k4_off41_inb : ∀ (v67 : BitVec 32) (k4_hw9 : k4_chk9 v67), ∀ a, (k4_off41 v67) a + S1x128.size a ≤ S100000x128.size a := fun v67 k4_hw9 => k4_hw9.2

def k4_off42 (v75 : BitVec 32) : Fin 2 → Nat :=
  let c0_i32_87 : BitVec 32 := 0#32
  ![v75.toNat, 0]

def k4_chk10 (v75 : BitVec 32) : Prop :=
  (∀ a, (k4_off20 v75) a + S1x128.size a ≤ S100000x128.size a) ∧
  (∀ a, (k4_off42 v75) a + S1x128.size a ≤ S100000x128.size a)
instance k4_chk10.dec : ∀ (v75 : BitVec 32), Decidable (k4_chk10 v75) := fun v75 => decidable_of_iff' _ (Iff.of_eq (k4_chk10.eq_1 v75))
theorem k4_off20_inb : ∀ (v75 : BitVec 32) (k4_hw10 : k4_chk10 v75), ∀ a, (k4_off20 v75) a + S1x128.size a ≤ S100000x128.size a := fun v75 k4_hw10 => k4_hw10.1
theorem k4_off42_inb : ∀ (v75 : BitVec 32) (k4_hw10 : k4_chk10 v75), ∀ a, (k4_off42 v75) a + S1x128.size a ≤ S100000x128.size a := fun v75 k4_hw10 => k4_hw10.2

def k4_off43 (v83 : BitVec 32) : Fin 2 → Nat :=
  let c0_i32_91 : BitVec 32 := 0#32
  ![v83.toNat, 0]

def k4_chk11 (v83 : BitVec 32) : Prop :=
  (∀ a, (k4_off22 v83) a + S1x128.size a ≤ S100000x128.size a) ∧
  (∀ a, (k4_off43 v83) a + S1x128.size a ≤ S100000x128.size a)
instance k4_chk11.dec : ∀ (v83 : BitVec 32), Decidable (k4_chk11 v83) := fun v83 => decidable_of_iff' _ (Iff.of_eq (k4_chk11.eq_1 v83))
theorem k4_off22_inb : ∀ (v83 : BitVec 32) (k4_hw11 : k4_chk11 v83), ∀ a, (k4_off22 v83) a + S1x128.size a ≤ S100000x128.size a := fun v83 k4_hw11 => k4_hw11.1
theorem k4_off43_inb : ∀ (v83 : BitVec 32) (k4_hw11 : k4_chk11 v83), ∀ a, (k4_off43 v83) a + S1x128.size a ≤ S100000x128.size a := fun v83 k4_hw11 => k4_hw11.2

def k4_off44 (v91 : BitVec 32) : Fin 2 → Nat :=
  let c0_i32_95 : BitVec 32 := 0#32
  ![v91.toNat, 0]

def k4_chk12 (v91 : BitVec 32) : Prop :=
  (∀ a, (k4_off24 v91) a + S1x128.size a ≤ S100000x128.size a) ∧
  (∀ a, (k4_off44 v91) a + S1x128.size a ≤ S100000x128.size a)
instance k4_chk12.dec : ∀ (v91 : BitVec 32), Decidable (k4_chk12 v91) := fun v91 => decidable_of_iff' _ (Iff.of_eq (k4_chk12.eq_1 v91))
theorem k4_off24_inb : ∀ (v91 : BitVec 32) (k4_hw12 : k4_chk12 v91), ∀ a, (k4_off24 v91) a + S1x128.size a ≤ S100000x128.size a := fun v91 k4_hw12 => k4_hw12.1
theorem k4_off44_inb : ∀ (v91 : BitVec 32) (k4_hw12 : k4_chk12 v91), ∀ a, (k4_off44 v91) a + S1x128.size a ≤ S100000x128.size a := fun v91 k4_hw12 => k4_hw12.2

def k4_off45 (v99 : BitVec 32) : Fin 2 → Nat :=
  let c0_i32_99 : BitVec 32 := 0#32
  ![v99.toNat, 0]

def k4_chk13 (v99 : BitVec 32) : Prop :=
  (∀ a, (k4_off26 v99) a + S1x128.size a ≤ S100000x128.size a) ∧
  (∀ a, (k4_off45 v99) a + S1x128.size a ≤ S100000x128.size a)
instance k4_chk13.dec : ∀ (v99 : BitVec 32), Decidable (k4_chk13 v99) := fun v99 => decidable_of_iff' _ (Iff.of_eq (k4_chk13.eq_1 v99))
theorem k4_off26_inb : ∀ (v99 : BitVec 32) (k4_hw13 : k4_chk13 v99), ∀ a, (k4_off26 v99) a + S1x128.size a ≤ S100000x128.size a := fun v99 k4_hw13 => k4_hw13.1
theorem k4_off45_inb : ∀ (v99 : BitVec 32) (k4_hw13 : k4_chk13 v99), ∀ a, (k4_off45 v99) a + S1x128.size a ≤ S100000x128.size a := fun v99 k4_hw13 => k4_hw13.2

def k4_off46 (v107 : BitVec 32) : Fin 2 → Nat :=
  let c0_i32_103 : BitVec 32 := 0#32
  ![v107.toNat, 0]

def k4_chk14 (v107 : BitVec 32) : Prop :=
  (∀ a, (k4_off28 v107) a + S1x128.size a ≤ S100000x128.size a) ∧
  (∀ a, (k4_off46 v107) a + S1x128.size a ≤ S100000x128.size a)
instance k4_chk14.dec : ∀ (v107 : BitVec 32), Decidable (k4_chk14 v107) := fun v107 => decidable_of_iff' _ (Iff.of_eq (k4_chk14.eq_1 v107))
theorem k4_off28_inb : ∀ (v107 : BitVec 32) (k4_hw14 : k4_chk14 v107), ∀ a, (k4_off28 v107) a + S1x128.size a ≤ S100000x128.size a := fun v107 k4_hw14 => k4_hw14.1
theorem k4_off46_inb : ∀ (v107 : BitVec 32) (k4_hw14 : k4_chk14 v107), ∀ a, (k4_off46 v107) a + S1x128.size a ≤ S100000x128.size a := fun v107 k4_hw14 => k4_hw14.2

def k4_off47 (v115 : BitVec 32) : Fin 2 → Nat :=
  let c0_i32_107 : BitVec 32 := 0#32
  ![v115.toNat, 0]

def k4_chk15 (v115 : BitVec 32) : Prop :=
  (∀ a, (k4_off30 v115) a + S1x128.size a ≤ S100000x128.size a) ∧
  (∀ a, (k4_off47 v115) a + S1x128.size a ≤ S100000x128.size a)
instance k4_chk15.dec : ∀ (v115 : BitVec 32), Decidable (k4_chk15 v115) := fun v115 => decidable_of_iff' _ (Iff.of_eq (k4_chk15.eq_1 v115))
theorem k4_off30_inb : ∀ (v115 : BitVec 32) (k4_hw15 : k4_chk15 v115), ∀ a, (k4_off30 v115) a + S1x128.size a ≤ S100000x128.size a := fun v115 k4_hw15 => k4_hw15.1
theorem k4_off47_inb : ∀ (v115 : BitVec 32) (k4_hw15 : k4_chk15 v115), ∀ a, (k4_off47 v115) a + S1x128.size a ≤ S100000x128.size a := fun v115 k4_hw15 => k4_hw15.2

def k4_off48 (i : grid4.Coords) : Fin 2 → Nat :=
  let arg1 : BitVec 32 := BitVec.ofNat 32 (i 1).val
  let v230 : Index := Scalar.indexCast arg1
  let c0_115 : Index := 0#32
  ![v230.toNat, 0]
def k4_cond1 (i : grid4.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 1 → Memref sig .tc .vmem S128x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev grid5 : Pipeline.Grid := ⟨2, ![2, 1000], ![false, false]⟩

abbrev pre5 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k5_off2 (v3 : BitVec 32) : Fin 2 → Nat :=
  let c0_i32_2 : BitVec 32 := 0#32
  ![v3.toNat, 0]

def k5_off3 (i : grid5.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k5_off4 (v11 : BitVec 32) : Fin 2 → Nat :=
  let c0_i32_5 : BitVec 32 := 0#32
  ![v11.toNat, 0]

def k5_off5 (i : grid5.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k5_off6 (v19 : BitVec 32) : Fin 2 → Nat :=
  let c0_i32_8 : BitVec 32 := 0#32
  ![v19.toNat, 0]

def k5_off7 (i : grid5.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k5_off8 (v27 : BitVec 32) : Fin 2 → Nat :=
  let c0_i32_11 : BitVec 32 := 0#32
  ![v27.toNat, 0]

def k5_off9 (i : grid5.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k5_off10 (v35 : BitVec 32) : Fin 2 → Nat :=
  let c0_i32_14 : BitVec 32 := 0#32
  ![v35.toNat, 0]

def k5_off11 (i : grid5.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k5_off12 (v43 : BitVec 32) : Fin 2 → Nat :=
  let c0_i32_17 : BitVec 32 := 0#32
  ![v43.toNat, 0]

def k5_off13 (i : grid5.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k5_off14 (v51 : BitVec 32) : Fin 2 → Nat :=
  let c0_i32_20 : BitVec 32 := 0#32
  ![v51.toNat, 0]

def k5_off15 (i : grid5.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k5_off16 (v59 : BitVec 32) : Fin 2 → Nat :=
  let c0_i32_23 : BitVec 32 := 0#32
  ![v59.toNat, 0]

def k5_off17 (i : grid5.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k5_off18 (v67 : BitVec 32) : Fin 2 → Nat :=
  let c0_i32_26 : BitVec 32 := 0#32
  ![v67.toNat, 0]

def k5_off19 (i : grid5.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k5_off20 (v75 : BitVec 32) : Fin 2 → Nat :=
  let c0_i32_29 : BitVec 32 := 0#32
  ![v75.toNat, 0]

def k5_off21 (i : grid5.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k5_off22 (v83 : BitVec 32) : Fin 2 → Nat :=
  let c0_i32_32 : BitVec 32 := 0#32
  ![v83.toNat, 0]

def k5_off23 (i : grid5.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k5_off24 (v91 : BitVec 32) : Fin 2 → Nat :=
  let c0_i32_35 : BitVec 32 := 0#32
  ![v91.toNat, 0]

def k5_off25 (i : grid5.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k5_off26 (v99 : BitVec 32) : Fin 2 → Nat :=
  let c0_i32_38 : BitVec 32 := 0#32
  ![v99.toNat, 0]

def k5_off27 (i : grid5.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k5_off28 (v107 : BitVec 32) : Fin 2 → Nat :=
  let c0_i32_41 : BitVec 32 := 0#32
  ![v107.toNat, 0]

def k5_off29 (i : grid5.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k5_off30 (v115 : BitVec 32) : Fin 2 → Nat :=
  let c0_i32_44 : BitVec 32 := 0#32
  ![v115.toNat, 0]

def k5_off31 (i : grid5.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k5_off32 (v123 : BitVec 32) : Fin 2 → Nat :=
  let c0_i32_47 : BitVec 32 := 0#32
  ![v123.toNat, 0]

def k5_chk16 (v123 : BitVec 32) : Prop :=
  (∀ a, (k5_off32 v123) a + S1x128.size a ≤ S100000x128.size a)
instance k5_chk16.dec : ∀ (v123 : BitVec 32), Decidable (k5_chk16 v123) := fun v123 => decidable_of_iff' _ (Iff.of_eq (k5_chk16.eq_1 v123))
theorem k5_off32_inb : ∀ (v123 : BitVec 32) (k5_hw16 : k5_chk16 v123), ∀ a, (k5_off32 v123) a + S1x128.size a ≤ S100000x128.size a := fun v123 k5_hw16 => k5_hw16

def k5_off33 (v3 : BitVec 32) : Fin 2 → Nat :=
  let c0_i32_51 : BitVec 32 := 0#32
  ![v3.toNat, 0]

def k5_chk1 (v3 : BitVec 32) : Prop :=
  (∀ a, (k5_off2 v3) a + S1x128.size a ≤ S100000x128.size a) ∧
  (∀ a, (k5_off33 v3) a + S1x128.size a ≤ S100000x128.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x128.size a ≤ S100000x128.size a := fun v3 k5_hw1 => k5_hw1.1
theorem k5_off33_inb : ∀ (v3 : BitVec 32) (k5_hw1 : k5_chk1 v3), ∀ a, (k5_off33 v3) a + S1x128.size a ≤ S100000x128.size a := fun v3 k5_hw1 => k5_hw1.2

def k5_off34 (v11 : BitVec 32) : Fin 2 → Nat :=
  let c0_i32_55 : BitVec 32 := 0#32
  ![v11.toNat, 0]

def k5_chk2 (v11 : BitVec 32) : Prop :=
  (∀ a, (k5_off4 v11) a + S1x128.size a ≤ S100000x128.size a) ∧
  (∀ a, (k5_off34 v11) a + S1x128.size a ≤ S100000x128.size a)
instance k5_chk2.dec : ∀ (v11 : BitVec 32), Decidable (k5_chk2 v11) := fun v11 => decidable_of_iff' _ (Iff.of_eq (k5_chk2.eq_1 v11))
theorem k5_off4_inb : ∀ (v11 : BitVec 32) (k5_hw2 : k5_chk2 v11), ∀ a, (k5_off4 v11) a + S1x128.size a ≤ S100000x128.size a := fun v11 k5_hw2 => k5_hw2.1
theorem k5_off34_inb : ∀ (v11 : BitVec 32) (k5_hw2 : k5_chk2 v11), ∀ a, (k5_off34 v11) a + S1x128.size a ≤ S100000x128.size a := fun v11 k5_hw2 => k5_hw2.2

def k5_off35 (v19 : BitVec 32) : Fin 2 → Nat :=
  let c0_i32_59 : BitVec 32 := 0#32
  ![v19.toNat, 0]

def k5_chk3 (v19 : BitVec 32) : Prop :=
  (∀ a, (k5_off6 v19) a + S1x128.size a ≤ S100000x128.size a) ∧
  (∀ a, (k5_off35 v19) a + S1x128.size a ≤ S100000x128.size a)
instance k5_chk3.dec : ∀ (v19 : BitVec 32), Decidable (k5_chk3 v19) := fun v19 => decidable_of_iff' _ (Iff.of_eq (k5_chk3.eq_1 v19))
theorem k5_off6_inb : ∀ (v19 : BitVec 32) (k5_hw3 : k5_chk3 v19), ∀ a, (k5_off6 v19) a + S1x128.size a ≤ S100000x128.size a := fun v19 k5_hw3 => k5_hw3.1
theorem k5_off35_inb : ∀ (v19 : BitVec 32) (k5_hw3 : k5_chk3 v19), ∀ a, (k5_off35 v19) a + S1x128.size a ≤ S100000x128.size a := fun v19 k5_hw3 => k5_hw3.2

def k5_off36 (v27 : BitVec 32) : Fin 2 → Nat :=
  let c0_i32_63 : BitVec 32 := 0#32
  ![v27.toNat, 0]

def k5_chk4 (v27 : BitVec 32) : Prop :=
  (∀ a, (k5_off8 v27) a + S1x128.size a ≤ S100000x128.size a) ∧
  (∀ a, (k5_off36 v27) a + S1x128.size a ≤ S100000x128.size a)
instance k5_chk4.dec : ∀ (v27 : BitVec 32), Decidable (k5_chk4 v27) := fun v27 => decidable_of_iff' _ (Iff.of_eq (k5_chk4.eq_1 v27))
theorem k5_off8_inb : ∀ (v27 : BitVec 32) (k5_hw4 : k5_chk4 v27), ∀ a, (k5_off8 v27) a + S1x128.size a ≤ S100000x128.size a := fun v27 k5_hw4 => k5_hw4.1
theorem k5_off36_inb : ∀ (v27 : BitVec 32) (k5_hw4 : k5_chk4 v27), ∀ a, (k5_off36 v27) a + S1x128.size a ≤ S100000x128.size a := fun v27 k5_hw4 => k5_hw4.2

def k5_off37 (v35 : BitVec 32) : Fin 2 → Nat :=
  let c0_i32_67 : BitVec 32 := 0#32
  ![v35.toNat, 0]

def k5_chk5 (v35 : BitVec 32) : Prop :=
  (∀ a, (k5_off10 v35) a + S1x128.size a ≤ S100000x128.size a) ∧
  (∀ a, (k5_off37 v35) a + S1x128.size a ≤ S100000x128.size a)
instance k5_chk5.dec : ∀ (v35 : BitVec 32), Decidable (k5_chk5 v35) := fun v35 => decidable_of_iff' _ (Iff.of_eq (k5_chk5.eq_1 v35))
theorem k5_off10_inb : ∀ (v35 : BitVec 32) (k5_hw5 : k5_chk5 v35), ∀ a, (k5_off10 v35) a + S1x128.size a ≤ S100000x128.size a := fun v35 k5_hw5 => k5_hw5.1
theorem k5_off37_inb : ∀ (v35 : BitVec 32) (k5_hw5 : k5_chk5 v35), ∀ a, (k5_off37 v35) a + S1x128.size a ≤ S100000x128.size a := fun v35 k5_hw5 => k5_hw5.2

def k5_off38 (v43 : BitVec 32) : Fin 2 → Nat :=
  let c0_i32_71 : BitVec 32 := 0#32
  ![v43.toNat, 0]

def k5_chk6 (v43 : BitVec 32) : Prop :=
  (∀ a, (k5_off12 v43) a + S1x128.size a ≤ S100000x128.size a) ∧
  (∀ a, (k5_off38 v43) a + S1x128.size a ≤ S100000x128.size a)
instance k5_chk6.dec : ∀ (v43 : BitVec 32), Decidable (k5_chk6 v43) := fun v43 => decidable_of_iff' _ (Iff.of_eq (k5_chk6.eq_1 v43))
theorem k5_off12_inb : ∀ (v43 : BitVec 32) (k5_hw6 : k5_chk6 v43), ∀ a, (k5_off12 v43) a + S1x128.size a ≤ S100000x128.size a := fun v43 k5_hw6 => k5_hw6.1
theorem k5_off38_inb : ∀ (v43 : BitVec 32) (k5_hw6 : k5_chk6 v43), ∀ a, (k5_off38 v43) a + S1x128.size a ≤ S100000x128.size a := fun v43 k5_hw6 => k5_hw6.2

def k5_off39 (v51 : BitVec 32) : Fin 2 → Nat :=
  let c0_i32_75 : BitVec 32 := 0#32
  ![v51.toNat, 0]

def k5_chk7 (v51 : BitVec 32) : Prop :=
  (∀ a, (k5_off14 v51) a + S1x128.size a ≤ S100000x128.size a) ∧
  (∀ a, (k5_off39 v51) a + S1x128.size a ≤ S100000x128.size a)
instance k5_chk7.dec : ∀ (v51 : BitVec 32), Decidable (k5_chk7 v51) := fun v51 => decidable_of_iff' _ (Iff.of_eq (k5_chk7.eq_1 v51))
theorem k5_off14_inb : ∀ (v51 : BitVec 32) (k5_hw7 : k5_chk7 v51), ∀ a, (k5_off14 v51) a + S1x128.size a ≤ S100000x128.size a := fun v51 k5_hw7 => k5_hw7.1
theorem k5_off39_inb : ∀ (v51 : BitVec 32) (k5_hw7 : k5_chk7 v51), ∀ a, (k5_off39 v51) a + S1x128.size a ≤ S100000x128.size a := fun v51 k5_hw7 => k5_hw7.2

def k5_off40 (v59 : BitVec 32) : Fin 2 → Nat :=
  let c0_i32_79 : BitVec 32 := 0#32
  ![v59.toNat, 0]

def k5_chk8 (v59 : BitVec 32) : Prop :=
  (∀ a, (k5_off16 v59) a + S1x128.size a ≤ S100000x128.size a) ∧
  (∀ a, (k5_off40 v59) a + S1x128.size a ≤ S100000x128.size a)
instance k5_chk8.dec : ∀ (v59 : BitVec 32), Decidable (k5_chk8 v59) := fun v59 => decidable_of_iff' _ (Iff.of_eq (k5_chk8.eq_1 v59))
theorem k5_off16_inb : ∀ (v59 : BitVec 32) (k5_hw8 : k5_chk8 v59), ∀ a, (k5_off16 v59) a + S1x128.size a ≤ S100000x128.size a := fun v59 k5_hw8 => k5_hw8.1
theorem k5_off40_inb : ∀ (v59 : BitVec 32) (k5_hw8 : k5_chk8 v59), ∀ a, (k5_off40 v59) a + S1x128.size a ≤ S100000x128.size a := fun v59 k5_hw8 => k5_hw8.2

def k5_off41 (v67 : BitVec 32) : Fin 2 → Nat :=
  let c0_i32_83 : BitVec 32 := 0#32
  ![v67.toNat, 0]

def k5_chk9 (v67 : BitVec 32) : Prop :=
  (∀ a, (k5_off18 v67) a + S1x128.size a ≤ S100000x128.size a) ∧
  (∀ a, (k5_off41 v67) a + S1x128.size a ≤ S100000x128.size a)
instance k5_chk9.dec : ∀ (v67 : BitVec 32), Decidable (k5_chk9 v67) := fun v67 => decidable_of_iff' _ (Iff.of_eq (k5_chk9.eq_1 v67))
theorem k5_off18_inb : ∀ (v67 : BitVec 32) (k5_hw9 : k5_chk9 v67), ∀ a, (k5_off18 v67) a + S1x128.size a ≤ S100000x128.size a := fun v67 k5_hw9 => k5_hw9.1
theorem k5_off41_inb : ∀ (v67 : BitVec 32) (k5_hw9 : k5_chk9 v67), ∀ a, (k5_off41 v67) a + S1x128.size a ≤ S100000x128.size a := fun v67 k5_hw9 => k5_hw9.2

def k5_off42 (v75 : BitVec 32) : Fin 2 → Nat :=
  let c0_i32_87 : BitVec 32 := 0#32
  ![v75.toNat, 0]

def k5_chk10 (v75 : BitVec 32) : Prop :=
  (∀ a, (k5_off20 v75) a + S1x128.size a ≤ S100000x128.size a) ∧
  (∀ a, (k5_off42 v75) a + S1x128.size a ≤ S100000x128.size a)
instance k5_chk10.dec : ∀ (v75 : BitVec 32), Decidable (k5_chk10 v75) := fun v75 => decidable_of_iff' _ (Iff.of_eq (k5_chk10.eq_1 v75))
theorem k5_off20_inb : ∀ (v75 : BitVec 32) (k5_hw10 : k5_chk10 v75), ∀ a, (k5_off20 v75) a + S1x128.size a ≤ S100000x128.size a := fun v75 k5_hw10 => k5_hw10.1
theorem k5_off42_inb : ∀ (v75 : BitVec 32) (k5_hw10 : k5_chk10 v75), ∀ a, (k5_off42 v75) a + S1x128.size a ≤ S100000x128.size a := fun v75 k5_hw10 => k5_hw10.2

def k5_off43 (v83 : BitVec 32) : Fin 2 → Nat :=
  let c0_i32_91 : BitVec 32 := 0#32
  ![v83.toNat, 0]

def k5_chk11 (v83 : BitVec 32) : Prop :=
  (∀ a, (k5_off22 v83) a + S1x128.size a ≤ S100000x128.size a) ∧
  (∀ a, (k5_off43 v83) a + S1x128.size a ≤ S100000x128.size a)
instance k5_chk11.dec : ∀ (v83 : BitVec 32), Decidable (k5_chk11 v83) := fun v83 => decidable_of_iff' _ (Iff.of_eq (k5_chk11.eq_1 v83))
theorem k5_off22_inb : ∀ (v83 : BitVec 32) (k5_hw11 : k5_chk11 v83), ∀ a, (k5_off22 v83) a + S1x128.size a ≤ S100000x128.size a := fun v83 k5_hw11 => k5_hw11.1
theorem k5_off43_inb : ∀ (v83 : BitVec 32) (k5_hw11 : k5_chk11 v83), ∀ a, (k5_off43 v83) a + S1x128.size a ≤ S100000x128.size a := fun v83 k5_hw11 => k5_hw11.2

def k5_off44 (v91 : BitVec 32) : Fin 2 → Nat :=
  let c0_i32_95 : BitVec 32 := 0#32
  ![v91.toNat, 0]

def k5_chk12 (v91 : BitVec 32) : Prop :=
  (∀ a, (k5_off24 v91) a + S1x128.size a ≤ S100000x128.size a) ∧
  (∀ a, (k5_off44 v91) a + S1x128.size a ≤ S100000x128.size a)
instance k5_chk12.dec : ∀ (v91 : BitVec 32), Decidable (k5_chk12 v91) := fun v91 => decidable_of_iff' _ (Iff.of_eq (k5_chk12.eq_1 v91))
theorem k5_off24_inb : ∀ (v91 : BitVec 32) (k5_hw12 : k5_chk12 v91), ∀ a, (k5_off24 v91) a + S1x128.size a ≤ S100000x128.size a := fun v91 k5_hw12 => k5_hw12.1
theorem k5_off44_inb : ∀ (v91 : BitVec 32) (k5_hw12 : k5_chk12 v91), ∀ a, (k5_off44 v91) a + S1x128.size a ≤ S100000x128.size a := fun v91 k5_hw12 => k5_hw12.2

def k5_off45 (v99 : BitVec 32) : Fin 2 → Nat :=
  let c0_i32_99 : BitVec 32 := 0#32
  ![v99.toNat, 0]

def k5_chk13 (v99 : BitVec 32) : Prop :=
  (∀ a, (k5_off26 v99) a + S1x128.size a ≤ S100000x128.size a) ∧
  (∀ a, (k5_off45 v99) a + S1x128.size a ≤ S100000x128.size a)
instance k5_chk13.dec : ∀ (v99 : BitVec 32), Decidable (k5_chk13 v99) := fun v99 => decidable_of_iff' _ (Iff.of_eq (k5_chk13.eq_1 v99))
theorem k5_off26_inb : ∀ (v99 : BitVec 32) (k5_hw13 : k5_chk13 v99), ∀ a, (k5_off26 v99) a + S1x128.size a ≤ S100000x128.size a := fun v99 k5_hw13 => k5_hw13.1
theorem k5_off45_inb : ∀ (v99 : BitVec 32) (k5_hw13 : k5_chk13 v99), ∀ a, (k5_off45 v99) a + S1x128.size a ≤ S100000x128.size a := fun v99 k5_hw13 => k5_hw13.2

def k5_off46 (v107 : BitVec 32) : Fin 2 → Nat :=
  let c0_i32_103 : BitVec 32 := 0#32
  ![v107.toNat, 0]

def k5_chk14 (v107 : BitVec 32) : Prop :=
  (∀ a, (k5_off28 v107) a + S1x128.size a ≤ S100000x128.size a) ∧
  (∀ a, (k5_off46 v107) a + S1x128.size a ≤ S100000x128.size a)
instance k5_chk14.dec : ∀ (v107 : BitVec 32), Decidable (k5_chk14 v107) := fun v107 => decidable_of_iff' _ (Iff.of_eq (k5_chk14.eq_1 v107))
theorem k5_off28_inb : ∀ (v107 : BitVec 32) (k5_hw14 : k5_chk14 v107), ∀ a, (k5_off28 v107) a + S1x128.size a ≤ S100000x128.size a := fun v107 k5_hw14 => k5_hw14.1
theorem k5_off46_inb : ∀ (v107 : BitVec 32) (k5_hw14 : k5_chk14 v107), ∀ a, (k5_off46 v107) a + S1x128.size a ≤ S100000x128.size a := fun v107 k5_hw14 => k5_hw14.2

def k5_off47 (v115 : BitVec 32) : Fin 2 → Nat :=
  let c0_i32_107 : BitVec 32 := 0#32
  ![v115.toNat, 0]

def k5_chk15 (v115 : BitVec 32) : Prop :=
  (∀ a, (k5_off30 v115) a + S1x128.size a ≤ S100000x128.size a) ∧
  (∀ a, (k5_off47 v115) a + S1x128.size a ≤ S100000x128.size a)
instance k5_chk15.dec : ∀ (v115 : BitVec 32), Decidable (k5_chk15 v115) := fun v115 => decidable_of_iff' _ (Iff.of_eq (k5_chk15.eq_1 v115))
theorem k5_off30_inb : ∀ (v115 : BitVec 32) (k5_hw15 : k5_chk15 v115), ∀ a, (k5_off30 v115) a + S1x128.size a ≤ S100000x128.size a := fun v115 k5_hw15 => k5_hw15.1
theorem k5_off47_inb : ∀ (v115 : BitVec 32) (k5_hw15 : k5_chk15 v115), ∀ a, (k5_off47 v115) a + S1x128.size a ≤ S100000x128.size a := fun v115 k5_hw15 => k5_hw15.2

def k5_off48 (i : grid5.Coords) : Fin 2 → Nat :=
  let arg1 : BitVec 32 := BitVec.ofNat 32 (i 1).val
  let v230 : Index := Scalar.indexCast arg1
  let c0_115 : Index := 0#32
  ![v230.toNat, 0]
def k5_cond1 (i : grid5.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 1 → Memref sig .tc .vmem S128x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev grid6 : Pipeline.Grid := ⟨2, ![2, 1000], ![false, false]⟩

abbrev pre6 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k6_off2 (v3 : BitVec 32) : Fin 2 → Nat :=
  let c0_i32_2 : BitVec 32 := 0#32
  ![v3.toNat, 0]

def k6_off3 (i : grid6.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k6_off4 (v11 : BitVec 32) : Fin 2 → Nat :=
  let c0_i32_5 : BitVec 32 := 0#32
  ![v11.toNat, 0]

def k6_off5 (i : grid6.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k6_off6 (v19 : BitVec 32) : Fin 2 → Nat :=
  let c0_i32_8 : BitVec 32 := 0#32
  ![v19.toNat, 0]

def k6_off7 (i : grid6.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k6_off8 (v27 : BitVec 32) : Fin 2 → Nat :=
  let c0_i32_11 : BitVec 32 := 0#32
  ![v27.toNat, 0]

def k6_off9 (i : grid6.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k6_off10 (v35 : BitVec 32) : Fin 2 → Nat :=
  let c0_i32_14 : BitVec 32 := 0#32
  ![v35.toNat, 0]

def k6_off11 (i : grid6.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k6_off12 (v43 : BitVec 32) : Fin 2 → Nat :=
  let c0_i32_17 : BitVec 32 := 0#32
  ![v43.toNat, 0]

def k6_off13 (i : grid6.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k6_off14 (v51 : BitVec 32) : Fin 2 → Nat :=
  let c0_i32_20 : BitVec 32 := 0#32
  ![v51.toNat, 0]

def k6_off15 (i : grid6.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k6_off16 (v59 : BitVec 32) : Fin 2 → Nat :=
  let c0_i32_23 : BitVec 32 := 0#32
  ![v59.toNat, 0]

def k6_off17 (i : grid6.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k6_off18 (v67 : BitVec 32) : Fin 2 → Nat :=
  let c0_i32_26 : BitVec 32 := 0#32
  ![v67.toNat, 0]

def k6_off19 (i : grid6.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k6_off20 (v75 : BitVec 32) : Fin 2 → Nat :=
  let c0_i32_29 : BitVec 32 := 0#32
  ![v75.toNat, 0]

def k6_off21 (i : grid6.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k6_off22 (v83 : BitVec 32) : Fin 2 → Nat :=
  let c0_i32_32 : BitVec 32 := 0#32
  ![v83.toNat, 0]

def k6_off23 (i : grid6.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k6_off24 (v91 : BitVec 32) : Fin 2 → Nat :=
  let c0_i32_35 : BitVec 32 := 0#32
  ![v91.toNat, 0]

def k6_off25 (i : grid6.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k6_off26 (v99 : BitVec 32) : Fin 2 → Nat :=
  let c0_i32_38 : BitVec 32 := 0#32
  ![v99.toNat, 0]

def k6_off27 (i : grid6.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k6_off28 (v107 : BitVec 32) : Fin 2 → Nat :=
  let c0_i32_41 : BitVec 32 := 0#32
  ![v107.toNat, 0]

def k6_off29 (i : grid6.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k6_off30 (v115 : BitVec 32) : Fin 2 → Nat :=
  let c0_i32_44 : BitVec 32 := 0#32
  ![v115.toNat, 0]

def k6_off31 (i : grid6.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k6_off32 (v123 : BitVec 32) : Fin 2 → Nat :=
  let c0_i32_47 : BitVec 32 := 0#32
  ![v123.toNat, 0]

def k6_chk16 (v123 : BitVec 32) : Prop :=
  (∀ a, (k6_off32 v123) a + S1x128.size a ≤ S100000x128.size a)
instance k6_chk16.dec : ∀ (v123 : BitVec 32), Decidable (k6_chk16 v123) := fun v123 => decidable_of_iff' _ (Iff.of_eq (k6_chk16.eq_1 v123))
theorem k6_off32_inb : ∀ (v123 : BitVec 32) (k6_hw16 : k6_chk16 v123), ∀ a, (k6_off32 v123) a + S1x128.size a ≤ S100000x128.size a := fun v123 k6_hw16 => k6_hw16

def k6_off33 (v3 : BitVec 32) : Fin 2 → Nat :=
  let c0_i32_51 : BitVec 32 := 0#32
  ![v3.toNat, 0]

def k6_chk1 (v3 : BitVec 32) : Prop :=
  (∀ a, (k6_off2 v3) a + S1x128.size a ≤ S100000x128.size a) ∧
  (∀ a, (k6_off33 v3) a + S1x128.size a ≤ S100000x128.size a)
instance k6_chk1.dec : ∀ (v3 : BitVec 32), Decidable (k6_chk1 v3) := fun v3 => decidable_of_iff' _ (Iff.of_eq (k6_chk1.eq_1 v3))
theorem k6_off2_inb : ∀ (v3 : BitVec 32) (k6_hw1 : k6_chk1 v3), ∀ a, (k6_off2 v3) a + S1x128.size a ≤ S100000x128.size a := fun v3 k6_hw1 => k6_hw1.1
theorem k6_off33_inb : ∀ (v3 : BitVec 32) (k6_hw1 : k6_chk1 v3), ∀ a, (k6_off33 v3) a + S1x128.size a ≤ S100000x128.size a := fun v3 k6_hw1 => k6_hw1.2

def k6_off34 (v11 : BitVec 32) : Fin 2 → Nat :=
  let c0_i32_55 : BitVec 32 := 0#32
  ![v11.toNat, 0]

def k6_chk2 (v11 : BitVec 32) : Prop :=
  (∀ a, (k6_off4 v11) a + S1x128.size a ≤ S100000x128.size a) ∧
  (∀ a, (k6_off34 v11) a + S1x128.size a ≤ S100000x128.size a)
instance k6_chk2.dec : ∀ (v11 : BitVec 32), Decidable (k6_chk2 v11) := fun v11 => decidable_of_iff' _ (Iff.of_eq (k6_chk2.eq_1 v11))
theorem k6_off4_inb : ∀ (v11 : BitVec 32) (k6_hw2 : k6_chk2 v11), ∀ a, (k6_off4 v11) a + S1x128.size a ≤ S100000x128.size a := fun v11 k6_hw2 => k6_hw2.1
theorem k6_off34_inb : ∀ (v11 : BitVec 32) (k6_hw2 : k6_chk2 v11), ∀ a, (k6_off34 v11) a + S1x128.size a ≤ S100000x128.size a := fun v11 k6_hw2 => k6_hw2.2

def k6_off35 (v19 : BitVec 32) : Fin 2 → Nat :=
  let c0_i32_59 : BitVec 32 := 0#32
  ![v19.toNat, 0]

def k6_chk3 (v19 : BitVec 32) : Prop :=
  (∀ a, (k6_off6 v19) a + S1x128.size a ≤ S100000x128.size a) ∧
  (∀ a, (k6_off35 v19) a + S1x128.size a ≤ S100000x128.size a)
instance k6_chk3.dec : ∀ (v19 : BitVec 32), Decidable (k6_chk3 v19) := fun v19 => decidable_of_iff' _ (Iff.of_eq (k6_chk3.eq_1 v19))
theorem k6_off6_inb : ∀ (v19 : BitVec 32) (k6_hw3 : k6_chk3 v19), ∀ a, (k6_off6 v19) a + S1x128.size a ≤ S100000x128.size a := fun v19 k6_hw3 => k6_hw3.1
theorem k6_off35_inb : ∀ (v19 : BitVec 32) (k6_hw3 : k6_chk3 v19), ∀ a, (k6_off35 v19) a + S1x128.size a ≤ S100000x128.size a := fun v19 k6_hw3 => k6_hw3.2

def k6_off36 (v27 : BitVec 32) : Fin 2 → Nat :=
  let c0_i32_63 : BitVec 32 := 0#32
  ![v27.toNat, 0]

def k6_chk4 (v27 : BitVec 32) : Prop :=
  (∀ a, (k6_off8 v27) a + S1x128.size a ≤ S100000x128.size a) ∧
  (∀ a, (k6_off36 v27) a + S1x128.size a ≤ S100000x128.size a)
instance k6_chk4.dec : ∀ (v27 : BitVec 32), Decidable (k6_chk4 v27) := fun v27 => decidable_of_iff' _ (Iff.of_eq (k6_chk4.eq_1 v27))
theorem k6_off8_inb : ∀ (v27 : BitVec 32) (k6_hw4 : k6_chk4 v27), ∀ a, (k6_off8 v27) a + S1x128.size a ≤ S100000x128.size a := fun v27 k6_hw4 => k6_hw4.1
theorem k6_off36_inb : ∀ (v27 : BitVec 32) (k6_hw4 : k6_chk4 v27), ∀ a, (k6_off36 v27) a + S1x128.size a ≤ S100000x128.size a := fun v27 k6_hw4 => k6_hw4.2

def k6_off37 (v35 : BitVec 32) : Fin 2 → Nat :=
  let c0_i32_67 : BitVec 32 := 0#32
  ![v35.toNat, 0]

def k6_chk5 (v35 : BitVec 32) : Prop :=
  (∀ a, (k6_off10 v35) a + S1x128.size a ≤ S100000x128.size a) ∧
  (∀ a, (k6_off37 v35) a + S1x128.size a ≤ S100000x128.size a)
instance k6_chk5.dec : ∀ (v35 : BitVec 32), Decidable (k6_chk5 v35) := fun v35 => decidable_of_iff' _ (Iff.of_eq (k6_chk5.eq_1 v35))
theorem k6_off10_inb : ∀ (v35 : BitVec 32) (k6_hw5 : k6_chk5 v35), ∀ a, (k6_off10 v35) a + S1x128.size a ≤ S100000x128.size a := fun v35 k6_hw5 => k6_hw5.1
theorem k6_off37_inb : ∀ (v35 : BitVec 32) (k6_hw5 : k6_chk5 v35), ∀ a, (k6_off37 v35) a + S1x128.size a ≤ S100000x128.size a := fun v35 k6_hw5 => k6_hw5.2

def k6_off38 (v43 : BitVec 32) : Fin 2 → Nat :=
  let c0_i32_71 : BitVec 32 := 0#32
  ![v43.toNat, 0]

def k6_chk6 (v43 : BitVec 32) : Prop :=
  (∀ a, (k6_off12 v43) a + S1x128.size a ≤ S100000x128.size a) ∧
  (∀ a, (k6_off38 v43) a + S1x128.size a ≤ S100000x128.size a)
instance k6_chk6.dec : ∀ (v43 : BitVec 32), Decidable (k6_chk6 v43) := fun v43 => decidable_of_iff' _ (Iff.of_eq (k6_chk6.eq_1 v43))
theorem k6_off12_inb : ∀ (v43 : BitVec 32) (k6_hw6 : k6_chk6 v43), ∀ a, (k6_off12 v43) a + S1x128.size a ≤ S100000x128.size a := fun v43 k6_hw6 => k6_hw6.1
theorem k6_off38_inb : ∀ (v43 : BitVec 32) (k6_hw6 : k6_chk6 v43), ∀ a, (k6_off38 v43) a + S1x128.size a ≤ S100000x128.size a := fun v43 k6_hw6 => k6_hw6.2

def k6_off39 (v51 : BitVec 32) : Fin 2 → Nat :=
  let c0_i32_75 : BitVec 32 := 0#32
  ![v51.toNat, 0]

def k6_chk7 (v51 : BitVec 32) : Prop :=
  (∀ a, (k6_off14 v51) a + S1x128.size a ≤ S100000x128.size a) ∧
  (∀ a, (k6_off39 v51) a + S1x128.size a ≤ S100000x128.size a)
instance k6_chk7.dec : ∀ (v51 : BitVec 32), Decidable (k6_chk7 v51) := fun v51 => decidable_of_iff' _ (Iff.of_eq (k6_chk7.eq_1 v51))
theorem k6_off14_inb : ∀ (v51 : BitVec 32) (k6_hw7 : k6_chk7 v51), ∀ a, (k6_off14 v51) a + S1x128.size a ≤ S100000x128.size a := fun v51 k6_hw7 => k6_hw7.1
theorem k6_off39_inb : ∀ (v51 : BitVec 32) (k6_hw7 : k6_chk7 v51), ∀ a, (k6_off39 v51) a + S1x128.size a ≤ S100000x128.size a := fun v51 k6_hw7 => k6_hw7.2

def k6_off40 (v59 : BitVec 32) : Fin 2 → Nat :=
  let c0_i32_79 : BitVec 32 := 0#32
  ![v59.toNat, 0]

def k6_chk8 (v59 : BitVec 32) : Prop :=
  (∀ a, (k6_off16 v59) a + S1x128.size a ≤ S100000x128.size a) ∧
  (∀ a, (k6_off40 v59) a + S1x128.size a ≤ S100000x128.size a)
instance k6_chk8.dec : ∀ (v59 : BitVec 32), Decidable (k6_chk8 v59) := fun v59 => decidable_of_iff' _ (Iff.of_eq (k6_chk8.eq_1 v59))
theorem k6_off16_inb : ∀ (v59 : BitVec 32) (k6_hw8 : k6_chk8 v59), ∀ a, (k6_off16 v59) a + S1x128.size a ≤ S100000x128.size a := fun v59 k6_hw8 => k6_hw8.1
theorem k6_off40_inb : ∀ (v59 : BitVec 32) (k6_hw8 : k6_chk8 v59), ∀ a, (k6_off40 v59) a + S1x128.size a ≤ S100000x128.size a := fun v59 k6_hw8 => k6_hw8.2

def k6_off41 (v67 : BitVec 32) : Fin 2 → Nat :=
  let c0_i32_83 : BitVec 32 := 0#32
  ![v67.toNat, 0]

def k6_chk9 (v67 : BitVec 32) : Prop :=
  (∀ a, (k6_off18 v67) a + S1x128.size a ≤ S100000x128.size a) ∧
  (∀ a, (k6_off41 v67) a + S1x128.size a ≤ S100000x128.size a)
instance k6_chk9.dec : ∀ (v67 : BitVec 32), Decidable (k6_chk9 v67) := fun v67 => decidable_of_iff' _ (Iff.of_eq (k6_chk9.eq_1 v67))
theorem k6_off18_inb : ∀ (v67 : BitVec 32) (k6_hw9 : k6_chk9 v67), ∀ a, (k6_off18 v67) a + S1x128.size a ≤ S100000x128.size a := fun v67 k6_hw9 => k6_hw9.1
theorem k6_off41_inb : ∀ (v67 : BitVec 32) (k6_hw9 : k6_chk9 v67), ∀ a, (k6_off41 v67) a + S1x128.size a ≤ S100000x128.size a := fun v67 k6_hw9 => k6_hw9.2

def k6_off42 (v75 : BitVec 32) : Fin 2 → Nat :=
  let c0_i32_87 : BitVec 32 := 0#32
  ![v75.toNat, 0]

def k6_chk10 (v75 : BitVec 32) : Prop :=
  (∀ a, (k6_off20 v75) a + S1x128.size a ≤ S100000x128.size a) ∧
  (∀ a, (k6_off42 v75) a + S1x128.size a ≤ S100000x128.size a)
instance k6_chk10.dec : ∀ (v75 : BitVec 32), Decidable (k6_chk10 v75) := fun v75 => decidable_of_iff' _ (Iff.of_eq (k6_chk10.eq_1 v75))
theorem k6_off20_inb : ∀ (v75 : BitVec 32) (k6_hw10 : k6_chk10 v75), ∀ a, (k6_off20 v75) a + S1x128.size a ≤ S100000x128.size a := fun v75 k6_hw10 => k6_hw10.1
theorem k6_off42_inb : ∀ (v75 : BitVec 32) (k6_hw10 : k6_chk10 v75), ∀ a, (k6_off42 v75) a + S1x128.size a ≤ S100000x128.size a := fun v75 k6_hw10 => k6_hw10.2

def k6_off43 (v83 : BitVec 32) : Fin 2 → Nat :=
  let c0_i32_91 : BitVec 32 := 0#32
  ![v83.toNat, 0]

def k6_chk11 (v83 : BitVec 32) : Prop :=
  (∀ a, (k6_off22 v83) a + S1x128.size a ≤ S100000x128.size a) ∧
  (∀ a, (k6_off43 v83) a + S1x128.size a ≤ S100000x128.size a)
instance k6_chk11.dec : ∀ (v83 : BitVec 32), Decidable (k6_chk11 v83) := fun v83 => decidable_of_iff' _ (Iff.of_eq (k6_chk11.eq_1 v83))
theorem k6_off22_inb : ∀ (v83 : BitVec 32) (k6_hw11 : k6_chk11 v83), ∀ a, (k6_off22 v83) a + S1x128.size a ≤ S100000x128.size a := fun v83 k6_hw11 => k6_hw11.1
theorem k6_off43_inb : ∀ (v83 : BitVec 32) (k6_hw11 : k6_chk11 v83), ∀ a, (k6_off43 v83) a + S1x128.size a ≤ S100000x128.size a := fun v83 k6_hw11 => k6_hw11.2

def k6_off44 (v91 : BitVec 32) : Fin 2 → Nat :=
  let c0_i32_95 : BitVec 32 := 0#32
  ![v91.toNat, 0]

def k6_chk12 (v91 : BitVec 32) : Prop :=
  (∀ a, (k6_off24 v91) a + S1x128.size a ≤ S100000x128.size a) ∧
  (∀ a, (k6_off44 v91) a + S1x128.size a ≤ S100000x128.size a)
instance k6_chk12.dec : ∀ (v91 : BitVec 32), Decidable (k6_chk12 v91) := fun v91 => decidable_of_iff' _ (Iff.of_eq (k6_chk12.eq_1 v91))
theorem k6_off24_inb : ∀ (v91 : BitVec 32) (k6_hw12 : k6_chk12 v91), ∀ a, (k6_off24 v91) a + S1x128.size a ≤ S100000x128.size a := fun v91 k6_hw12 => k6_hw12.1
theorem k6_off44_inb : ∀ (v91 : BitVec 32) (k6_hw12 : k6_chk12 v91), ∀ a, (k6_off44 v91) a + S1x128.size a ≤ S100000x128.size a := fun v91 k6_hw12 => k6_hw12.2

def k6_off45 (v99 : BitVec 32) : Fin 2 → Nat :=
  let c0_i32_99 : BitVec 32 := 0#32
  ![v99.toNat, 0]

def k6_chk13 (v99 : BitVec 32) : Prop :=
  (∀ a, (k6_off26 v99) a + S1x128.size a ≤ S100000x128.size a) ∧
  (∀ a, (k6_off45 v99) a + S1x128.size a ≤ S100000x128.size a)
instance k6_chk13.dec : ∀ (v99 : BitVec 32), Decidable (k6_chk13 v99) := fun v99 => decidable_of_iff' _ (Iff.of_eq (k6_chk13.eq_1 v99))
theorem k6_off26_inb : ∀ (v99 : BitVec 32) (k6_hw13 : k6_chk13 v99), ∀ a, (k6_off26 v99) a + S1x128.size a ≤ S100000x128.size a := fun v99 k6_hw13 => k6_hw13.1
theorem k6_off45_inb : ∀ (v99 : BitVec 32) (k6_hw13 : k6_chk13 v99), ∀ a, (k6_off45 v99) a + S1x128.size a ≤ S100000x128.size a := fun v99 k6_hw13 => k6_hw13.2

def k6_off46 (v107 : BitVec 32) : Fin 2 → Nat :=
  let c0_i32_103 : BitVec 32 := 0#32
  ![v107.toNat, 0]

def k6_chk14 (v107 : BitVec 32) : Prop :=
  (∀ a, (k6_off28 v107) a + S1x128.size a ≤ S100000x128.size a) ∧
  (∀ a, (k6_off46 v107) a + S1x128.size a ≤ S100000x128.size a)
instance k6_chk14.dec : ∀ (v107 : BitVec 32), Decidable (k6_chk14 v107) := fun v107 => decidable_of_iff' _ (Iff.of_eq (k6_chk14.eq_1 v107))
theorem k6_off28_inb : ∀ (v107 : BitVec 32) (k6_hw14 : k6_chk14 v107), ∀ a, (k6_off28 v107) a + S1x128.size a ≤ S100000x128.size a := fun v107 k6_hw14 => k6_hw14.1
theorem k6_off46_inb : ∀ (v107 : BitVec 32) (k6_hw14 : k6_chk14 v107), ∀ a, (k6_off46 v107) a + S1x128.size a ≤ S100000x128.size a := fun v107 k6_hw14 => k6_hw14.2

def k6_off47 (v115 : BitVec 32) : Fin 2 → Nat :=
  let c0_i32_107 : BitVec 32 := 0#32
  ![v115.toNat, 0]

def k6_chk15 (v115 : BitVec 32) : Prop :=
  (∀ a, (k6_off30 v115) a + S1x128.size a ≤ S100000x128.size a) ∧
  (∀ a, (k6_off47 v115) a + S1x128.size a ≤ S100000x128.size a)
instance k6_chk15.dec : ∀ (v115 : BitVec 32), Decidable (k6_chk15 v115) := fun v115 => decidable_of_iff' _ (Iff.of_eq (k6_chk15.eq_1 v115))
theorem k6_off30_inb : ∀ (v115 : BitVec 32) (k6_hw15 : k6_chk15 v115), ∀ a, (k6_off30 v115) a + S1x128.size a ≤ S100000x128.size a := fun v115 k6_hw15 => k6_hw15.1
theorem k6_off47_inb : ∀ (v115 : BitVec 32) (k6_hw15 : k6_chk15 v115), ∀ a, (k6_off47 v115) a + S1x128.size a ≤ S100000x128.size a := fun v115 k6_hw15 => k6_hw15.2

def k6_off48 (i : grid6.Coords) : Fin 2 → Nat :=
  let arg1 : BitVec 32 := BitVec.ofNat 32 (i 1).val
  let v230 : Index := Scalar.indexCast arg1
  let c0_115 : Index := 0#32
  ![v230.toNat, 0]
def k6_cond1 (i : grid6.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 1 → Memref sig .tc .vmem S128x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, false]

abbrev stage6_1 : Fin 2 → Memref sig .tc .vmem S1000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev grid7 : Pipeline.Grid := ⟨2, ![2, 1000], ![false, false]⟩

abbrev pre7 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k7_off2 (v3 : BitVec 32) : Fin 2 → Nat :=
  let c0_i32_2 : BitVec 32 := 0#32
  ![v3.toNat, 0]

def k7_off3 (i : grid7.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k7_off4 (v11 : BitVec 32) : Fin 2 → Nat :=
  let c0_i32_5 : BitVec 32 := 0#32
  ![v11.toNat, 0]

def k7_off5 (i : grid7.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k7_off6 (v19 : BitVec 32) : Fin 2 → Nat :=
  let c0_i32_8 : BitVec 32 := 0#32
  ![v19.toNat, 0]

def k7_off7 (i : grid7.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k7_off8 (v27 : BitVec 32) : Fin 2 → Nat :=
  let c0_i32_11 : BitVec 32 := 0#32
  ![v27.toNat, 0]

def k7_off9 (i : grid7.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k7_off10 (v35 : BitVec 32) : Fin 2 → Nat :=
  let c0_i32_14 : BitVec 32 := 0#32
  ![v35.toNat, 0]

def k7_off11 (i : grid7.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k7_off12 (v43 : BitVec 32) : Fin 2 → Nat :=
  let c0_i32_17 : BitVec 32 := 0#32
  ![v43.toNat, 0]

def k7_off13 (i : grid7.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k7_off14 (v51 : BitVec 32) : Fin 2 → Nat :=
  let c0_i32_20 : BitVec 32 := 0#32
  ![v51.toNat, 0]

def k7_off15 (i : grid7.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k7_off16 (v59 : BitVec 32) : Fin 2 → Nat :=
  let c0_i32_23 : BitVec 32 := 0#32
  ![v59.toNat, 0]

def k7_off17 (i : grid7.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k7_off18 (v67 : BitVec 32) : Fin 2 → Nat :=
  let c0_i32_26 : BitVec 32 := 0#32
  ![v67.toNat, 0]

def k7_off19 (i : grid7.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k7_off20 (v75 : BitVec 32) : Fin 2 → Nat :=
  let c0_i32_29 : BitVec 32 := 0#32
  ![v75.toNat, 0]

def k7_off21 (i : grid7.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k7_off22 (v83 : BitVec 32) : Fin 2 → Nat :=
  let c0_i32_32 : BitVec 32 := 0#32
  ![v83.toNat, 0]

def k7_off23 (i : grid7.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k7_off24 (v91 : BitVec 32) : Fin 2 → Nat :=
  let c0_i32_35 : BitVec 32 := 0#32
  ![v91.toNat, 0]

def k7_off25 (i : grid7.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k7_off26 (v99 : BitVec 32) : Fin 2 → Nat :=
  let c0_i32_38 : BitVec 32 := 0#32
  ![v99.toNat, 0]

def k7_off27 (i : grid7.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k7_off28 (v107 : BitVec 32) : Fin 2 → Nat :=
  let c0_i32_41 : BitVec 32 := 0#32
  ![v107.toNat, 0]

def k7_off29 (i : grid7.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k7_off30 (v115 : BitVec 32) : Fin 2 → Nat :=
  let c0_i32_44 : BitVec 32 := 0#32
  ![v115.toNat, 0]

def k7_off31 (i : grid7.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k7_off32 (v123 : BitVec 32) : Fin 2 → Nat :=
  let c0_i32_47 : BitVec 32 := 0#32
  ![v123.toNat, 0]

def k7_chk16 (v123 : BitVec 32) : Prop :=
  (∀ a, (k7_off32 v123) a + S1x128.size a ≤ S100000x128.size a)
instance k7_chk16.dec : ∀ (v123 : BitVec 32), Decidable (k7_chk16 v123) := fun v123 => decidable_of_iff' _ (Iff.of_eq (k7_chk16.eq_1 v123))
theorem k7_off32_inb : ∀ (v123 : BitVec 32) (k7_hw16 : k7_chk16 v123), ∀ a, (k7_off32 v123) a + S1x128.size a ≤ S100000x128.size a := fun v123 k7_hw16 => k7_hw16

def k7_off33 (v3 : BitVec 32) : Fin 2 → Nat :=
  let c0_i32_51 : BitVec 32 := 0#32
  ![v3.toNat, 0]

def k7_chk1 (v3 : BitVec 32) : Prop :=
  (∀ a, (k7_off2 v3) a + S1x128.size a ≤ S100000x128.size a) ∧
  (∀ a, (k7_off33 v3) a + S1x128.size a ≤ S100000x128.size a)
instance k7_chk1.dec : ∀ (v3 : BitVec 32), Decidable (k7_chk1 v3) := fun v3 => decidable_of_iff' _ (Iff.of_eq (k7_chk1.eq_1 v3))
theorem k7_off2_inb : ∀ (v3 : BitVec 32) (k7_hw1 : k7_chk1 v3), ∀ a, (k7_off2 v3) a + S1x128.size a ≤ S100000x128.size a := fun v3 k7_hw1 => k7_hw1.1
theorem k7_off33_inb : ∀ (v3 : BitVec 32) (k7_hw1 : k7_chk1 v3), ∀ a, (k7_off33 v3) a + S1x128.size a ≤ S100000x128.size a := fun v3 k7_hw1 => k7_hw1.2

def k7_off34 (v11 : BitVec 32) : Fin 2 → Nat :=
  let c0_i32_55 : BitVec 32 := 0#32
  ![v11.toNat, 0]

def k7_chk2 (v11 : BitVec 32) : Prop :=
  (∀ a, (k7_off4 v11) a + S1x128.size a ≤ S100000x128.size a) ∧
  (∀ a, (k7_off34 v11) a + S1x128.size a ≤ S100000x128.size a)
instance k7_chk2.dec : ∀ (v11 : BitVec 32), Decidable (k7_chk2 v11) := fun v11 => decidable_of_iff' _ (Iff.of_eq (k7_chk2.eq_1 v11))
theorem k7_off4_inb : ∀ (v11 : BitVec 32) (k7_hw2 : k7_chk2 v11), ∀ a, (k7_off4 v11) a + S1x128.size a ≤ S100000x128.size a := fun v11 k7_hw2 => k7_hw2.1
theorem k7_off34_inb : ∀ (v11 : BitVec 32) (k7_hw2 : k7_chk2 v11), ∀ a, (k7_off34 v11) a + S1x128.size a ≤ S100000x128.size a := fun v11 k7_hw2 => k7_hw2.2

def k7_off35 (v19 : BitVec 32) : Fin 2 → Nat :=
  let c0_i32_59 : BitVec 32 := 0#32
  ![v19.toNat, 0]

def k7_chk3 (v19 : BitVec 32) : Prop :=
  (∀ a, (k7_off6 v19) a + S1x128.size a ≤ S100000x128.size a) ∧
  (∀ a, (k7_off35 v19) a + S1x128.size a ≤ S100000x128.size a)
instance k7_chk3.dec : ∀ (v19 : BitVec 32), Decidable (k7_chk3 v19) := fun v19 => decidable_of_iff' _ (Iff.of_eq (k7_chk3.eq_1 v19))
theorem k7_off6_inb : ∀ (v19 : BitVec 32) (k7_hw3 : k7_chk3 v19), ∀ a, (k7_off6 v19) a + S1x128.size a ≤ S100000x128.size a := fun v19 k7_hw3 => k7_hw3.1
theorem k7_off35_inb : ∀ (v19 : BitVec 32) (k7_hw3 : k7_chk3 v19), ∀ a, (k7_off35 v19) a + S1x128.size a ≤ S100000x128.size a := fun v19 k7_hw3 => k7_hw3.2

def k7_off36 (v27 : BitVec 32) : Fin 2 → Nat :=
  let c0_i32_63 : BitVec 32 := 0#32
  ![v27.toNat, 0]

def k7_chk4 (v27 : BitVec 32) : Prop :=
  (∀ a, (k7_off8 v27) a + S1x128.size a ≤ S100000x128.size a) ∧
  (∀ a, (k7_off36 v27) a + S1x128.size a ≤ S100000x128.size a)
instance k7_chk4.dec : ∀ (v27 : BitVec 32), Decidable (k7_chk4 v27) := fun v27 => decidable_of_iff' _ (Iff.of_eq (k7_chk4.eq_1 v27))
theorem k7_off8_inb : ∀ (v27 : BitVec 32) (k7_hw4 : k7_chk4 v27), ∀ a, (k7_off8 v27) a + S1x128.size a ≤ S100000x128.size a := fun v27 k7_hw4 => k7_hw4.1
theorem k7_off36_inb : ∀ (v27 : BitVec 32) (k7_hw4 : k7_chk4 v27), ∀ a, (k7_off36 v27) a + S1x128.size a ≤ S100000x128.size a := fun v27 k7_hw4 => k7_hw4.2

def k7_off37 (v35 : BitVec 32) : Fin 2 → Nat :=
  let c0_i32_67 : BitVec 32 := 0#32
  ![v35.toNat, 0]

def k7_chk5 (v35 : BitVec 32) : Prop :=
  (∀ a, (k7_off10 v35) a + S1x128.size a ≤ S100000x128.size a) ∧
  (∀ a, (k7_off37 v35) a + S1x128.size a ≤ S100000x128.size a)
instance k7_chk5.dec : ∀ (v35 : BitVec 32), Decidable (k7_chk5 v35) := fun v35 => decidable_of_iff' _ (Iff.of_eq (k7_chk5.eq_1 v35))
theorem k7_off10_inb : ∀ (v35 : BitVec 32) (k7_hw5 : k7_chk5 v35), ∀ a, (k7_off10 v35) a + S1x128.size a ≤ S100000x128.size a := fun v35 k7_hw5 => k7_hw5.1
theorem k7_off37_inb : ∀ (v35 : BitVec 32) (k7_hw5 : k7_chk5 v35), ∀ a, (k7_off37 v35) a + S1x128.size a ≤ S100000x128.size a := fun v35 k7_hw5 => k7_hw5.2

def k7_off38 (v43 : BitVec 32) : Fin 2 → Nat :=
  let c0_i32_71 : BitVec 32 := 0#32
  ![v43.toNat, 0]

def k7_chk6 (v43 : BitVec 32) : Prop :=
  (∀ a, (k7_off12 v43) a + S1x128.size a ≤ S100000x128.size a) ∧
  (∀ a, (k7_off38 v43) a + S1x128.size a ≤ S100000x128.size a)
instance k7_chk6.dec : ∀ (v43 : BitVec 32), Decidable (k7_chk6 v43) := fun v43 => decidable_of_iff' _ (Iff.of_eq (k7_chk6.eq_1 v43))
theorem k7_off12_inb : ∀ (v43 : BitVec 32) (k7_hw6 : k7_chk6 v43), ∀ a, (k7_off12 v43) a + S1x128.size a ≤ S100000x128.size a := fun v43 k7_hw6 => k7_hw6.1
theorem k7_off38_inb : ∀ (v43 : BitVec 32) (k7_hw6 : k7_chk6 v43), ∀ a, (k7_off38 v43) a + S1x128.size a ≤ S100000x128.size a := fun v43 k7_hw6 => k7_hw6.2

def k7_off39 (v51 : BitVec 32) : Fin 2 → Nat :=
  let c0_i32_75 : BitVec 32 := 0#32
  ![v51.toNat, 0]

def k7_chk7 (v51 : BitVec 32) : Prop :=
  (∀ a, (k7_off14 v51) a + S1x128.size a ≤ S100000x128.size a) ∧
  (∀ a, (k7_off39 v51) a + S1x128.size a ≤ S100000x128.size a)
instance k7_chk7.dec : ∀ (v51 : BitVec 32), Decidable (k7_chk7 v51) := fun v51 => decidable_of_iff' _ (Iff.of_eq (k7_chk7.eq_1 v51))
theorem k7_off14_inb : ∀ (v51 : BitVec 32) (k7_hw7 : k7_chk7 v51), ∀ a, (k7_off14 v51) a + S1x128.size a ≤ S100000x128.size a := fun v51 k7_hw7 => k7_hw7.1
theorem k7_off39_inb : ∀ (v51 : BitVec 32) (k7_hw7 : k7_chk7 v51), ∀ a, (k7_off39 v51) a + S1x128.size a ≤ S100000x128.size a := fun v51 k7_hw7 => k7_hw7.2

def k7_off40 (v59 : BitVec 32) : Fin 2 → Nat :=
  let c0_i32_79 : BitVec 32 := 0#32
  ![v59.toNat, 0]

def k7_chk8 (v59 : BitVec 32) : Prop :=
  (∀ a, (k7_off16 v59) a + S1x128.size a ≤ S100000x128.size a) ∧
  (∀ a, (k7_off40 v59) a + S1x128.size a ≤ S100000x128.size a)
instance k7_chk8.dec : ∀ (v59 : BitVec 32), Decidable (k7_chk8 v59) := fun v59 => decidable_of_iff' _ (Iff.of_eq (k7_chk8.eq_1 v59))
theorem k7_off16_inb : ∀ (v59 : BitVec 32) (k7_hw8 : k7_chk8 v59), ∀ a, (k7_off16 v59) a + S1x128.size a ≤ S100000x128.size a := fun v59 k7_hw8 => k7_hw8.1
theorem k7_off40_inb : ∀ (v59 : BitVec 32) (k7_hw8 : k7_chk8 v59), ∀ a, (k7_off40 v59) a + S1x128.size a ≤ S100000x128.size a := fun v59 k7_hw8 => k7_hw8.2

def k7_off41 (v67 : BitVec 32) : Fin 2 → Nat :=
  let c0_i32_83 : BitVec 32 := 0#32
  ![v67.toNat, 0]

def k7_chk9 (v67 : BitVec 32) : Prop :=
  (∀ a, (k7_off18 v67) a + S1x128.size a ≤ S100000x128.size a) ∧
  (∀ a, (k7_off41 v67) a + S1x128.size a ≤ S100000x128.size a)
instance k7_chk9.dec : ∀ (v67 : BitVec 32), Decidable (k7_chk9 v67) := fun v67 => decidable_of_iff' _ (Iff.of_eq (k7_chk9.eq_1 v67))
theorem k7_off18_inb : ∀ (v67 : BitVec 32) (k7_hw9 : k7_chk9 v67), ∀ a, (k7_off18 v67) a + S1x128.size a ≤ S100000x128.size a := fun v67 k7_hw9 => k7_hw9.1
theorem k7_off41_inb : ∀ (v67 : BitVec 32) (k7_hw9 : k7_chk9 v67), ∀ a, (k7_off41 v67) a + S1x128.size a ≤ S100000x128.size a := fun v67 k7_hw9 => k7_hw9.2

def k7_off42 (v75 : BitVec 32) : Fin 2 → Nat :=
  let c0_i32_87 : BitVec 32 := 0#32
  ![v75.toNat, 0]

def k7_chk10 (v75 : BitVec 32) : Prop :=
  (∀ a, (k7_off20 v75) a + S1x128.size a ≤ S100000x128.size a) ∧
  (∀ a, (k7_off42 v75) a + S1x128.size a ≤ S100000x128.size a)
instance k7_chk10.dec : ∀ (v75 : BitVec 32), Decidable (k7_chk10 v75) := fun v75 => decidable_of_iff' _ (Iff.of_eq (k7_chk10.eq_1 v75))
theorem k7_off20_inb : ∀ (v75 : BitVec 32) (k7_hw10 : k7_chk10 v75), ∀ a, (k7_off20 v75) a + S1x128.size a ≤ S100000x128.size a := fun v75 k7_hw10 => k7_hw10.1
theorem k7_off42_inb : ∀ (v75 : BitVec 32) (k7_hw10 : k7_chk10 v75), ∀ a, (k7_off42 v75) a + S1x128.size a ≤ S100000x128.size a := fun v75 k7_hw10 => k7_hw10.2

def k7_off43 (v83 : BitVec 32) : Fin 2 → Nat :=
  let c0_i32_91 : BitVec 32 := 0#32
  ![v83.toNat, 0]

def k7_chk11 (v83 : BitVec 32) : Prop :=
  (∀ a, (k7_off22 v83) a + S1x128.size a ≤ S100000x128.size a) ∧
  (∀ a, (k7_off43 v83) a + S1x128.size a ≤ S100000x128.size a)
instance k7_chk11.dec : ∀ (v83 : BitVec 32), Decidable (k7_chk11 v83) := fun v83 => decidable_of_iff' _ (Iff.of_eq (k7_chk11.eq_1 v83))
theorem k7_off22_inb : ∀ (v83 : BitVec 32) (k7_hw11 : k7_chk11 v83), ∀ a, (k7_off22 v83) a + S1x128.size a ≤ S100000x128.size a := fun v83 k7_hw11 => k7_hw11.1
theorem k7_off43_inb : ∀ (v83 : BitVec 32) (k7_hw11 : k7_chk11 v83), ∀ a, (k7_off43 v83) a + S1x128.size a ≤ S100000x128.size a := fun v83 k7_hw11 => k7_hw11.2

def k7_off44 (v91 : BitVec 32) : Fin 2 → Nat :=
  let c0_i32_95 : BitVec 32 := 0#32
  ![v91.toNat, 0]

def k7_chk12 (v91 : BitVec 32) : Prop :=
  (∀ a, (k7_off24 v91) a + S1x128.size a ≤ S100000x128.size a) ∧
  (∀ a, (k7_off44 v91) a + S1x128.size a ≤ S100000x128.size a)
instance k7_chk12.dec : ∀ (v91 : BitVec 32), Decidable (k7_chk12 v91) := fun v91 => decidable_of_iff' _ (Iff.of_eq (k7_chk12.eq_1 v91))
theorem k7_off24_inb : ∀ (v91 : BitVec 32) (k7_hw12 : k7_chk12 v91), ∀ a, (k7_off24 v91) a + S1x128.size a ≤ S100000x128.size a := fun v91 k7_hw12 => k7_hw12.1
theorem k7_off44_inb : ∀ (v91 : BitVec 32) (k7_hw12 : k7_chk12 v91), ∀ a, (k7_off44 v91) a + S1x128.size a ≤ S100000x128.size a := fun v91 k7_hw12 => k7_hw12.2

def k7_off45 (v99 : BitVec 32) : Fin 2 → Nat :=
  let c0_i32_99 : BitVec 32 := 0#32
  ![v99.toNat, 0]

def k7_chk13 (v99 : BitVec 32) : Prop :=
  (∀ a, (k7_off26 v99) a + S1x128.size a ≤ S100000x128.size a) ∧
  (∀ a, (k7_off45 v99) a + S1x128.size a ≤ S100000x128.size a)
instance k7_chk13.dec : ∀ (v99 : BitVec 32), Decidable (k7_chk13 v99) := fun v99 => decidable_of_iff' _ (Iff.of_eq (k7_chk13.eq_1 v99))
theorem k7_off26_inb : ∀ (v99 : BitVec 32) (k7_hw13 : k7_chk13 v99), ∀ a, (k7_off26 v99) a + S1x128.size a ≤ S100000x128.size a := fun v99 k7_hw13 => k7_hw13.1
theorem k7_off45_inb : ∀ (v99 : BitVec 32) (k7_hw13 : k7_chk13 v99), ∀ a, (k7_off45 v99) a + S1x128.size a ≤ S100000x128.size a := fun v99 k7_hw13 => k7_hw13.2

def k7_off46 (v107 : BitVec 32) : Fin 2 → Nat :=
  let c0_i32_103 : BitVec 32 := 0#32
  ![v107.toNat, 0]

def k7_chk14 (v107 : BitVec 32) : Prop :=
  (∀ a, (k7_off28 v107) a + S1x128.size a ≤ S100000x128.size a) ∧
  (∀ a, (k7_off46 v107) a + S1x128.size a ≤ S100000x128.size a)
instance k7_chk14.dec : ∀ (v107 : BitVec 32), Decidable (k7_chk14 v107) := fun v107 => decidable_of_iff' _ (Iff.of_eq (k7_chk14.eq_1 v107))
theorem k7_off28_inb : ∀ (v107 : BitVec 32) (k7_hw14 : k7_chk14 v107), ∀ a, (k7_off28 v107) a + S1x128.size a ≤ S100000x128.size a := fun v107 k7_hw14 => k7_hw14.1
theorem k7_off46_inb : ∀ (v107 : BitVec 32) (k7_hw14 : k7_chk14 v107), ∀ a, (k7_off46 v107) a + S1x128.size a ≤ S100000x128.size a := fun v107 k7_hw14 => k7_hw14.2

def k7_off47 (v115 : BitVec 32) : Fin 2 → Nat :=
  let c0_i32_107 : BitVec 32 := 0#32
  ![v115.toNat, 0]

def k7_chk15 (v115 : BitVec 32) : Prop :=
  (∀ a, (k7_off30 v115) a + S1x128.size a ≤ S100000x128.size a) ∧
  (∀ a, (k7_off47 v115) a + S1x128.size a ≤ S100000x128.size a)
instance k7_chk15.dec : ∀ (v115 : BitVec 32), Decidable (k7_chk15 v115) := fun v115 => decidable_of_iff' _ (Iff.of_eq (k7_chk15.eq_1 v115))
theorem k7_off30_inb : ∀ (v115 : BitVec 32) (k7_hw15 : k7_chk15 v115), ∀ a, (k7_off30 v115) a + S1x128.size a ≤ S100000x128.size a := fun v115 k7_hw15 => k7_hw15.1
theorem k7_off47_inb : ∀ (v115 : BitVec 32) (k7_hw15 : k7_chk15 v115), ∀ a, (k7_off47 v115) a + S1x128.size a ≤ S100000x128.size a := fun v115 k7_hw15 => k7_hw15.2

def k7_off48 (i : grid7.Coords) : Fin 2 → Nat :=
  let arg1 : BitVec 32 := BitVec.ofNat 32 (i 1).val
  let v230 : Index := Scalar.indexCast arg1
  let c0_115 : Index := 0#32
  ![v230.toNat, 0]
def k7_cond1 (i : grid7.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 1 → Memref sig .tc .vmem S128x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, false]

abbrev stage7_1 : Fin 2 → Memref sig .tc .vmem S1000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev grid8 : Pipeline.Grid := ⟨2, ![2, 1000], ![false, false]⟩

abbrev pre8 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k8_off2 (v3 : BitVec 32) : Fin 2 → Nat :=
  let c0_i32_2 : BitVec 32 := 0#32
  ![v3.toNat, 0]

def k8_off3 (i : grid8.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k8_off4 (v11 : BitVec 32) : Fin 2 → Nat :=
  let c0_i32_5 : BitVec 32 := 0#32
  ![v11.toNat, 0]

def k8_off5 (i : grid8.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k8_off6 (v19 : BitVec 32) : Fin 2 → Nat :=
  let c0_i32_8 : BitVec 32 := 0#32
  ![v19.toNat, 0]

def k8_off7 (i : grid8.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k8_off8 (v27 : BitVec 32) : Fin 2 → Nat :=
  let c0_i32_11 : BitVec 32 := 0#32
  ![v27.toNat, 0]

def k8_off9 (i : grid8.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k8_off10 (v35 : BitVec 32) : Fin 2 → Nat :=
  let c0_i32_14 : BitVec 32 := 0#32
  ![v35.toNat, 0]

def k8_off11 (i : grid8.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k8_off12 (v43 : BitVec 32) : Fin 2 → Nat :=
  let c0_i32_17 : BitVec 32 := 0#32
  ![v43.toNat, 0]

def k8_off13 (i : grid8.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k8_off14 (v51 : BitVec 32) : Fin 2 → Nat :=
  let c0_i32_20 : BitVec 32 := 0#32
  ![v51.toNat, 0]

def k8_off15 (i : grid8.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k8_off16 (v59 : BitVec 32) : Fin 2 → Nat :=
  let c0_i32_23 : BitVec 32 := 0#32
  ![v59.toNat, 0]

def k8_off17 (i : grid8.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k8_off18 (v67 : BitVec 32) : Fin 2 → Nat :=
  let c0_i32_26 : BitVec 32 := 0#32
  ![v67.toNat, 0]

def k8_off19 (i : grid8.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k8_off20 (v75 : BitVec 32) : Fin 2 → Nat :=
  let c0_i32_29 : BitVec 32 := 0#32
  ![v75.toNat, 0]

def k8_off21 (i : grid8.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k8_off22 (v83 : BitVec 32) : Fin 2 → Nat :=
  let c0_i32_32 : BitVec 32 := 0#32
  ![v83.toNat, 0]

def k8_off23 (i : grid8.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k8_off24 (v91 : BitVec 32) : Fin 2 → Nat :=
  let c0_i32_35 : BitVec 32 := 0#32
  ![v91.toNat, 0]

def k8_off25 (i : grid8.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k8_off26 (v99 : BitVec 32) : Fin 2 → Nat :=
  let c0_i32_38 : BitVec 32 := 0#32
  ![v99.toNat, 0]

def k8_off27 (i : grid8.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k8_off28 (v107 : BitVec 32) : Fin 2 → Nat :=
  let c0_i32_41 : BitVec 32 := 0#32
  ![v107.toNat, 0]

def k8_off29 (i : grid8.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k8_off30 (v115 : BitVec 32) : Fin 2 → Nat :=
  let c0_i32_44 : BitVec 32 := 0#32
  ![v115.toNat, 0]

def k8_off31 (i : grid8.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k8_off32 (v123 : BitVec 32) : Fin 2 → Nat :=
  let c0_i32_47 : BitVec 32 := 0#32
  ![v123.toNat, 0]

def k8_chk16 (v123 : BitVec 32) : Prop :=
  (∀ a, (k8_off32 v123) a + S1x128.size a ≤ S100000x128.size a)
instance k8_chk16.dec : ∀ (v123 : BitVec 32), Decidable (k8_chk16 v123) := fun v123 => decidable_of_iff' _ (Iff.of_eq (k8_chk16.eq_1 v123))
theorem k8_off32_inb : ∀ (v123 : BitVec 32) (k8_hw16 : k8_chk16 v123), ∀ a, (k8_off32 v123) a + S1x128.size a ≤ S100000x128.size a := fun v123 k8_hw16 => k8_hw16

def k8_off33 (v3 : BitVec 32) : Fin 2 → Nat :=
  let c0_i32_51 : BitVec 32 := 0#32
  ![v3.toNat, 0]

def k8_chk1 (v3 : BitVec 32) : Prop :=
  (∀ a, (k8_off2 v3) a + S1x128.size a ≤ S100000x128.size a) ∧
  (∀ a, (k8_off33 v3) a + S1x128.size a ≤ S100000x128.size a)
instance k8_chk1.dec : ∀ (v3 : BitVec 32), Decidable (k8_chk1 v3) := fun v3 => decidable_of_iff' _ (Iff.of_eq (k8_chk1.eq_1 v3))
theorem k8_off2_inb : ∀ (v3 : BitVec 32) (k8_hw1 : k8_chk1 v3), ∀ a, (k8_off2 v3) a + S1x128.size a ≤ S100000x128.size a := fun v3 k8_hw1 => k8_hw1.1
theorem k8_off33_inb : ∀ (v3 : BitVec 32) (k8_hw1 : k8_chk1 v3), ∀ a, (k8_off33 v3) a + S1x128.size a ≤ S100000x128.size a := fun v3 k8_hw1 => k8_hw1.2

def k8_off34 (v11 : BitVec 32) : Fin 2 → Nat :=
  let c0_i32_55 : BitVec 32 := 0#32
  ![v11.toNat, 0]

def k8_chk2 (v11 : BitVec 32) : Prop :=
  (∀ a, (k8_off4 v11) a + S1x128.size a ≤ S100000x128.size a) ∧
  (∀ a, (k8_off34 v11) a + S1x128.size a ≤ S100000x128.size a)
instance k8_chk2.dec : ∀ (v11 : BitVec 32), Decidable (k8_chk2 v11) := fun v11 => decidable_of_iff' _ (Iff.of_eq (k8_chk2.eq_1 v11))
theorem k8_off4_inb : ∀ (v11 : BitVec 32) (k8_hw2 : k8_chk2 v11), ∀ a, (k8_off4 v11) a + S1x128.size a ≤ S100000x128.size a := fun v11 k8_hw2 => k8_hw2.1
theorem k8_off34_inb : ∀ (v11 : BitVec 32) (k8_hw2 : k8_chk2 v11), ∀ a, (k8_off34 v11) a + S1x128.size a ≤ S100000x128.size a := fun v11 k8_hw2 => k8_hw2.2

def k8_off35 (v19 : BitVec 32) : Fin 2 → Nat :=
  let c0_i32_59 : BitVec 32 := 0#32
  ![v19.toNat, 0]

def k8_chk3 (v19 : BitVec 32) : Prop :=
  (∀ a, (k8_off6 v19) a + S1x128.size a ≤ S100000x128.size a) ∧
  (∀ a, (k8_off35 v19) a + S1x128.size a ≤ S100000x128.size a)
instance k8_chk3.dec : ∀ (v19 : BitVec 32), Decidable (k8_chk3 v19) := fun v19 => decidable_of_iff' _ (Iff.of_eq (k8_chk3.eq_1 v19))
theorem k8_off6_inb : ∀ (v19 : BitVec 32) (k8_hw3 : k8_chk3 v19), ∀ a, (k8_off6 v19) a + S1x128.size a ≤ S100000x128.size a := fun v19 k8_hw3 => k8_hw3.1
theorem k8_off35_inb : ∀ (v19 : BitVec 32) (k8_hw3 : k8_chk3 v19), ∀ a, (k8_off35 v19) a + S1x128.size a ≤ S100000x128.size a := fun v19 k8_hw3 => k8_hw3.2

def k8_off36 (v27 : BitVec 32) : Fin 2 → Nat :=
  let c0_i32_63 : BitVec 32 := 0#32
  ![v27.toNat, 0]

def k8_chk4 (v27 : BitVec 32) : Prop :=
  (∀ a, (k8_off8 v27) a + S1x128.size a ≤ S100000x128.size a) ∧
  (∀ a, (k8_off36 v27) a + S1x128.size a ≤ S100000x128.size a)
instance k8_chk4.dec : ∀ (v27 : BitVec 32), Decidable (k8_chk4 v27) := fun v27 => decidable_of_iff' _ (Iff.of_eq (k8_chk4.eq_1 v27))
theorem k8_off8_inb : ∀ (v27 : BitVec 32) (k8_hw4 : k8_chk4 v27), ∀ a, (k8_off8 v27) a + S1x128.size a ≤ S100000x128.size a := fun v27 k8_hw4 => k8_hw4.1
theorem k8_off36_inb : ∀ (v27 : BitVec 32) (k8_hw4 : k8_chk4 v27), ∀ a, (k8_off36 v27) a + S1x128.size a ≤ S100000x128.size a := fun v27 k8_hw4 => k8_hw4.2

def k8_off37 (v35 : BitVec 32) : Fin 2 → Nat :=
  let c0_i32_67 : BitVec 32 := 0#32
  ![v35.toNat, 0]

def k8_chk5 (v35 : BitVec 32) : Prop :=
  (∀ a, (k8_off10 v35) a + S1x128.size a ≤ S100000x128.size a) ∧
  (∀ a, (k8_off37 v35) a + S1x128.size a ≤ S100000x128.size a)
instance k8_chk5.dec : ∀ (v35 : BitVec 32), Decidable (k8_chk5 v35) := fun v35 => decidable_of_iff' _ (Iff.of_eq (k8_chk5.eq_1 v35))
theorem k8_off10_inb : ∀ (v35 : BitVec 32) (k8_hw5 : k8_chk5 v35), ∀ a, (k8_off10 v35) a + S1x128.size a ≤ S100000x128.size a := fun v35 k8_hw5 => k8_hw5.1
theorem k8_off37_inb : ∀ (v35 : BitVec 32) (k8_hw5 : k8_chk5 v35), ∀ a, (k8_off37 v35) a + S1x128.size a ≤ S100000x128.size a := fun v35 k8_hw5 => k8_hw5.2

def k8_off38 (v43 : BitVec 32) : Fin 2 → Nat :=
  let c0_i32_71 : BitVec 32 := 0#32
  ![v43.toNat, 0]

def k8_chk6 (v43 : BitVec 32) : Prop :=
  (∀ a, (k8_off12 v43) a + S1x128.size a ≤ S100000x128.size a) ∧
  (∀ a, (k8_off38 v43) a + S1x128.size a ≤ S100000x128.size a)
instance k8_chk6.dec : ∀ (v43 : BitVec 32), Decidable (k8_chk6 v43) := fun v43 => decidable_of_iff' _ (Iff.of_eq (k8_chk6.eq_1 v43))
theorem k8_off12_inb : ∀ (v43 : BitVec 32) (k8_hw6 : k8_chk6 v43), ∀ a, (k8_off12 v43) a + S1x128.size a ≤ S100000x128.size a := fun v43 k8_hw6 => k8_hw6.1
theorem k8_off38_inb : ∀ (v43 : BitVec 32) (k8_hw6 : k8_chk6 v43), ∀ a, (k8_off38 v43) a + S1x128.size a ≤ S100000x128.size a := fun v43 k8_hw6 => k8_hw6.2

def k8_off39 (v51 : BitVec 32) : Fin 2 → Nat :=
  let c0_i32_75 : BitVec 32 := 0#32
  ![v51.toNat, 0]

def k8_chk7 (v51 : BitVec 32) : Prop :=
  (∀ a, (k8_off14 v51) a + S1x128.size a ≤ S100000x128.size a) ∧
  (∀ a, (k8_off39 v51) a + S1x128.size a ≤ S100000x128.size a)
instance k8_chk7.dec : ∀ (v51 : BitVec 32), Decidable (k8_chk7 v51) := fun v51 => decidable_of_iff' _ (Iff.of_eq (k8_chk7.eq_1 v51))
theorem k8_off14_inb : ∀ (v51 : BitVec 32) (k8_hw7 : k8_chk7 v51), ∀ a, (k8_off14 v51) a + S1x128.size a ≤ S100000x128.size a := fun v51 k8_hw7 => k8_hw7.1
theorem k8_off39_inb : ∀ (v51 : BitVec 32) (k8_hw7 : k8_chk7 v51), ∀ a, (k8_off39 v51) a + S1x128.size a ≤ S100000x128.size a := fun v51 k8_hw7 => k8_hw7.2

def k8_off40 (v59 : BitVec 32) : Fin 2 → Nat :=
  let c0_i32_79 : BitVec 32 := 0#32
  ![v59.toNat, 0]

def k8_chk8 (v59 : BitVec 32) : Prop :=
  (∀ a, (k8_off16 v59) a + S1x128.size a ≤ S100000x128.size a) ∧
  (∀ a, (k8_off40 v59) a + S1x128.size a ≤ S100000x128.size a)
instance k8_chk8.dec : ∀ (v59 : BitVec 32), Decidable (k8_chk8 v59) := fun v59 => decidable_of_iff' _ (Iff.of_eq (k8_chk8.eq_1 v59))
theorem k8_off16_inb : ∀ (v59 : BitVec 32) (k8_hw8 : k8_chk8 v59), ∀ a, (k8_off16 v59) a + S1x128.size a ≤ S100000x128.size a := fun v59 k8_hw8 => k8_hw8.1
theorem k8_off40_inb : ∀ (v59 : BitVec 32) (k8_hw8 : k8_chk8 v59), ∀ a, (k8_off40 v59) a + S1x128.size a ≤ S100000x128.size a := fun v59 k8_hw8 => k8_hw8.2

def k8_off41 (v67 : BitVec 32) : Fin 2 → Nat :=
  let c0_i32_83 : BitVec 32 := 0#32
  ![v67.toNat, 0]

def k8_chk9 (v67 : BitVec 32) : Prop :=
  (∀ a, (k8_off18 v67) a + S1x128.size a ≤ S100000x128.size a) ∧
  (∀ a, (k8_off41 v67) a + S1x128.size a ≤ S100000x128.size a)
instance k8_chk9.dec : ∀ (v67 : BitVec 32), Decidable (k8_chk9 v67) := fun v67 => decidable_of_iff' _ (Iff.of_eq (k8_chk9.eq_1 v67))
theorem k8_off18_inb : ∀ (v67 : BitVec 32) (k8_hw9 : k8_chk9 v67), ∀ a, (k8_off18 v67) a + S1x128.size a ≤ S100000x128.size a := fun v67 k8_hw9 => k8_hw9.1
theorem k8_off41_inb : ∀ (v67 : BitVec 32) (k8_hw9 : k8_chk9 v67), ∀ a, (k8_off41 v67) a + S1x128.size a ≤ S100000x128.size a := fun v67 k8_hw9 => k8_hw9.2

def k8_off42 (v75 : BitVec 32) : Fin 2 → Nat :=
  let c0_i32_87 : BitVec 32 := 0#32
  ![v75.toNat, 0]

def k8_chk10 (v75 : BitVec 32) : Prop :=
  (∀ a, (k8_off20 v75) a + S1x128.size a ≤ S100000x128.size a) ∧
  (∀ a, (k8_off42 v75) a + S1x128.size a ≤ S100000x128.size a)
instance k8_chk10.dec : ∀ (v75 : BitVec 32), Decidable (k8_chk10 v75) := fun v75 => decidable_of_iff' _ (Iff.of_eq (k8_chk10.eq_1 v75))
theorem k8_off20_inb : ∀ (v75 : BitVec 32) (k8_hw10 : k8_chk10 v75), ∀ a, (k8_off20 v75) a + S1x128.size a ≤ S100000x128.size a := fun v75 k8_hw10 => k8_hw10.1
theorem k8_off42_inb : ∀ (v75 : BitVec 32) (k8_hw10 : k8_chk10 v75), ∀ a, (k8_off42 v75) a + S1x128.size a ≤ S100000x128.size a := fun v75 k8_hw10 => k8_hw10.2

def k8_off43 (v83 : BitVec 32) : Fin 2 → Nat :=
  let c0_i32_91 : BitVec 32 := 0#32
  ![v83.toNat, 0]

def k8_chk11 (v83 : BitVec 32) : Prop :=
  (∀ a, (k8_off22 v83) a + S1x128.size a ≤ S100000x128.size a) ∧
  (∀ a, (k8_off43 v83) a + S1x128.size a ≤ S100000x128.size a)
instance k8_chk11.dec : ∀ (v83 : BitVec 32), Decidable (k8_chk11 v83) := fun v83 => decidable_of_iff' _ (Iff.of_eq (k8_chk11.eq_1 v83))
theorem k8_off22_inb : ∀ (v83 : BitVec 32) (k8_hw11 : k8_chk11 v83), ∀ a, (k8_off22 v83) a + S1x128.size a ≤ S100000x128.size a := fun v83 k8_hw11 => k8_hw11.1
theorem k8_off43_inb : ∀ (v83 : BitVec 32) (k8_hw11 : k8_chk11 v83), ∀ a, (k8_off43 v83) a + S1x128.size a ≤ S100000x128.size a := fun v83 k8_hw11 => k8_hw11.2

def k8_off44 (v91 : BitVec 32) : Fin 2 → Nat :=
  let c0_i32_95 : BitVec 32 := 0#32
  ![v91.toNat, 0]

def k8_chk12 (v91 : BitVec 32) : Prop :=
  (∀ a, (k8_off24 v91) a + S1x128.size a ≤ S100000x128.size a) ∧
  (∀ a, (k8_off44 v91) a + S1x128.size a ≤ S100000x128.size a)
instance k8_chk12.dec : ∀ (v91 : BitVec 32), Decidable (k8_chk12 v91) := fun v91 => decidable_of_iff' _ (Iff.of_eq (k8_chk12.eq_1 v91))
theorem k8_off24_inb : ∀ (v91 : BitVec 32) (k8_hw12 : k8_chk12 v91), ∀ a, (k8_off24 v91) a + S1x128.size a ≤ S100000x128.size a := fun v91 k8_hw12 => k8_hw12.1
theorem k8_off44_inb : ∀ (v91 : BitVec 32) (k8_hw12 : k8_chk12 v91), ∀ a, (k8_off44 v91) a + S1x128.size a ≤ S100000x128.size a := fun v91 k8_hw12 => k8_hw12.2

def k8_off45 (v99 : BitVec 32) : Fin 2 → Nat :=
  let c0_i32_99 : BitVec 32 := 0#32
  ![v99.toNat, 0]

def k8_chk13 (v99 : BitVec 32) : Prop :=
  (∀ a, (k8_off26 v99) a + S1x128.size a ≤ S100000x128.size a) ∧
  (∀ a, (k8_off45 v99) a + S1x128.size a ≤ S100000x128.size a)
instance k8_chk13.dec : ∀ (v99 : BitVec 32), Decidable (k8_chk13 v99) := fun v99 => decidable_of_iff' _ (Iff.of_eq (k8_chk13.eq_1 v99))
theorem k8_off26_inb : ∀ (v99 : BitVec 32) (k8_hw13 : k8_chk13 v99), ∀ a, (k8_off26 v99) a + S1x128.size a ≤ S100000x128.size a := fun v99 k8_hw13 => k8_hw13.1
theorem k8_off45_inb : ∀ (v99 : BitVec 32) (k8_hw13 : k8_chk13 v99), ∀ a, (k8_off45 v99) a + S1x128.size a ≤ S100000x128.size a := fun v99 k8_hw13 => k8_hw13.2

def k8_off46 (v107 : BitVec 32) : Fin 2 → Nat :=
  let c0_i32_103 : BitVec 32 := 0#32
  ![v107.toNat, 0]

def k8_chk14 (v107 : BitVec 32) : Prop :=
  (∀ a, (k8_off28 v107) a + S1x128.size a ≤ S100000x128.size a) ∧
  (∀ a, (k8_off46 v107) a + S1x128.size a ≤ S100000x128.size a)
instance k8_chk14.dec : ∀ (v107 : BitVec 32), Decidable (k8_chk14 v107) := fun v107 => decidable_of_iff' _ (Iff.of_eq (k8_chk14.eq_1 v107))
theorem k8_off28_inb : ∀ (v107 : BitVec 32) (k8_hw14 : k8_chk14 v107), ∀ a, (k8_off28 v107) a + S1x128.size a ≤ S100000x128.size a := fun v107 k8_hw14 => k8_hw14.1
theorem k8_off46_inb : ∀ (v107 : BitVec 32) (k8_hw14 : k8_chk14 v107), ∀ a, (k8_off46 v107) a + S1x128.size a ≤ S100000x128.size a := fun v107 k8_hw14 => k8_hw14.2

def k8_off47 (v115 : BitVec 32) : Fin 2 → Nat :=
  let c0_i32_107 : BitVec 32 := 0#32
  ![v115.toNat, 0]

def k8_chk15 (v115 : BitVec 32) : Prop :=
  (∀ a, (k8_off30 v115) a + S1x128.size a ≤ S100000x128.size a) ∧
  (∀ a, (k8_off47 v115) a + S1x128.size a ≤ S100000x128.size a)
instance k8_chk15.dec : ∀ (v115 : BitVec 32), Decidable (k8_chk15 v115) := fun v115 => decidable_of_iff' _ (Iff.of_eq (k8_chk15.eq_1 v115))
theorem k8_off30_inb : ∀ (v115 : BitVec 32) (k8_hw15 : k8_chk15 v115), ∀ a, (k8_off30 v115) a + S1x128.size a ≤ S100000x128.size a := fun v115 k8_hw15 => k8_hw15.1
theorem k8_off47_inb : ∀ (v115 : BitVec 32) (k8_hw15 : k8_chk15 v115), ∀ a, (k8_off47 v115) a + S1x128.size a ≤ S100000x128.size a := fun v115 k8_hw15 => k8_hw15.2

def k8_off48 (i : grid8.Coords) : Fin 2 → Nat :=
  let arg1 : BitVec 32 := BitVec.ofNat 32 (i 1).val
  let v230 : Index := Scalar.indexCast arg1
  let c0_115 : Index := 0#32
  ![v230.toNat, 0]
def k8_cond1 (i : grid8.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 1 → Memref sig .tc .vmem S128x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, false]

abbrev stage8_1 : Fin 2 → Memref sig .tc .vmem S1000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev grid9 : Pipeline.Grid := ⟨2, ![2, 1000], ![false, false]⟩

abbrev pre9 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k9_off2 (v3 : BitVec 32) : Fin 2 → Nat :=
  let c0_i32_2 : BitVec 32 := 0#32
  ![v3.toNat, 0]

def k9_off3 (i : grid9.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k9_off4 (v11 : BitVec 32) : Fin 2 → Nat :=
  let c0_i32_5 : BitVec 32 := 0#32
  ![v11.toNat, 0]

def k9_off5 (i : grid9.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k9_off6 (v19 : BitVec 32) : Fin 2 → Nat :=
  let c0_i32_8 : BitVec 32 := 0#32
  ![v19.toNat, 0]

def k9_off7 (i : grid9.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k9_off8 (v27 : BitVec 32) : Fin 2 → Nat :=
  let c0_i32_11 : BitVec 32 := 0#32
  ![v27.toNat, 0]

def k9_off9 (i : grid9.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k9_off10 (v35 : BitVec 32) : Fin 2 → Nat :=
  let c0_i32_14 : BitVec 32 := 0#32
  ![v35.toNat, 0]

def k9_off11 (i : grid9.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k9_off12 (v43 : BitVec 32) : Fin 2 → Nat :=
  let c0_i32_17 : BitVec 32 := 0#32
  ![v43.toNat, 0]

def k9_off13 (i : grid9.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k9_off14 (v51 : BitVec 32) : Fin 2 → Nat :=
  let c0_i32_20 : BitVec 32 := 0#32
  ![v51.toNat, 0]

def k9_off15 (i : grid9.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k9_off16 (v59 : BitVec 32) : Fin 2 → Nat :=
  let c0_i32_23 : BitVec 32 := 0#32
  ![v59.toNat, 0]

def k9_off17 (i : grid9.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k9_off18 (v67 : BitVec 32) : Fin 2 → Nat :=
  let c0_i32_26 : BitVec 32 := 0#32
  ![v67.toNat, 0]

def k9_off19 (i : grid9.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k9_off20 (v75 : BitVec 32) : Fin 2 → Nat :=
  let c0_i32_29 : BitVec 32 := 0#32
  ![v75.toNat, 0]

def k9_off21 (i : grid9.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k9_off22 (v83 : BitVec 32) : Fin 2 → Nat :=
  let c0_i32_32 : BitVec 32 := 0#32
  ![v83.toNat, 0]

def k9_off23 (i : grid9.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k9_off24 (v91 : BitVec 32) : Fin 2 → Nat :=
  let c0_i32_35 : BitVec 32 := 0#32
  ![v91.toNat, 0]

def k9_off25 (i : grid9.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k9_off26 (v99 : BitVec 32) : Fin 2 → Nat :=
  let c0_i32_38 : BitVec 32 := 0#32
  ![v99.toNat, 0]

def k9_off27 (i : grid9.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k9_off28 (v107 : BitVec 32) : Fin 2 → Nat :=
  let c0_i32_41 : BitVec 32 := 0#32
  ![v107.toNat, 0]

def k9_off29 (i : grid9.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k9_off30 (v115 : BitVec 32) : Fin 2 → Nat :=
  let c0_i32_44 : BitVec 32 := 0#32
  ![v115.toNat, 0]

def k9_off31 (i : grid9.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k9_off32 (v123 : BitVec 32) : Fin 2 → Nat :=
  let c0_i32_47 : BitVec 32 := 0#32
  ![v123.toNat, 0]

def k9_chk16 (v123 : BitVec 32) : Prop :=
  (∀ a, (k9_off32 v123) a + S1x128.size a ≤ S100000x128.size a)
instance k9_chk16.dec : ∀ (v123 : BitVec 32), Decidable (k9_chk16 v123) := fun v123 => decidable_of_iff' _ (Iff.of_eq (k9_chk16.eq_1 v123))
theorem k9_off32_inb : ∀ (v123 : BitVec 32) (k9_hw16 : k9_chk16 v123), ∀ a, (k9_off32 v123) a + S1x128.size a ≤ S100000x128.size a := fun v123 k9_hw16 => k9_hw16

def k9_off33 (v3 : BitVec 32) : Fin 2 → Nat :=
  let c0_i32_51 : BitVec 32 := 0#32
  ![v3.toNat, 0]

def k9_chk1 (v3 : BitVec 32) : Prop :=
  (∀ a, (k9_off2 v3) a + S1x128.size a ≤ S100000x128.size a) ∧
  (∀ a, (k9_off33 v3) a + S1x128.size a ≤ S100000x128.size a)
instance k9_chk1.dec : ∀ (v3 : BitVec 32), Decidable (k9_chk1 v3) := fun v3 => decidable_of_iff' _ (Iff.of_eq (k9_chk1.eq_1 v3))
theorem k9_off2_inb : ∀ (v3 : BitVec 32) (k9_hw1 : k9_chk1 v3), ∀ a, (k9_off2 v3) a + S1x128.size a ≤ S100000x128.size a := fun v3 k9_hw1 => k9_hw1.1
theorem k9_off33_inb : ∀ (v3 : BitVec 32) (k9_hw1 : k9_chk1 v3), ∀ a, (k9_off33 v3) a + S1x128.size a ≤ S100000x128.size a := fun v3 k9_hw1 => k9_hw1.2

def k9_off34 (v11 : BitVec 32) : Fin 2 → Nat :=
  let c0_i32_55 : BitVec 32 := 0#32
  ![v11.toNat, 0]

def k9_chk2 (v11 : BitVec 32) : Prop :=
  (∀ a, (k9_off4 v11) a + S1x128.size a ≤ S100000x128.size a) ∧
  (∀ a, (k9_off34 v11) a + S1x128.size a ≤ S100000x128.size a)
instance k9_chk2.dec : ∀ (v11 : BitVec 32), Decidable (k9_chk2 v11) := fun v11 => decidable_of_iff' _ (Iff.of_eq (k9_chk2.eq_1 v11))
theorem k9_off4_inb : ∀ (v11 : BitVec 32) (k9_hw2 : k9_chk2 v11), ∀ a, (k9_off4 v11) a + S1x128.size a ≤ S100000x128.size a := fun v11 k9_hw2 => k9_hw2.1
theorem k9_off34_inb : ∀ (v11 : BitVec 32) (k9_hw2 : k9_chk2 v11), ∀ a, (k9_off34 v11) a + S1x128.size a ≤ S100000x128.size a := fun v11 k9_hw2 => k9_hw2.2

def k9_off35 (v19 : BitVec 32) : Fin 2 → Nat :=
  let c0_i32_59 : BitVec 32 := 0#32
  ![v19.toNat, 0]

def k9_chk3 (v19 : BitVec 32) : Prop :=
  (∀ a, (k9_off6 v19) a + S1x128.size a ≤ S100000x128.size a) ∧
  (∀ a, (k9_off35 v19) a + S1x128.size a ≤ S100000x128.size a)
instance k9_chk3.dec : ∀ (v19 : BitVec 32), Decidable (k9_chk3 v19) := fun v19 => decidable_of_iff' _ (Iff.of_eq (k9_chk3.eq_1 v19))
theorem k9_off6_inb : ∀ (v19 : BitVec 32) (k9_hw3 : k9_chk3 v19), ∀ a, (k9_off6 v19) a + S1x128.size a ≤ S100000x128.size a := fun v19 k9_hw3 => k9_hw3.1
theorem k9_off35_inb : ∀ (v19 : BitVec 32) (k9_hw3 : k9_chk3 v19), ∀ a, (k9_off35 v19) a + S1x128.size a ≤ S100000x128.size a := fun v19 k9_hw3 => k9_hw3.2

def k9_off36 (v27 : BitVec 32) : Fin 2 → Nat :=
  let c0_i32_63 : BitVec 32 := 0#32
  ![v27.toNat, 0]

def k9_chk4 (v27 : BitVec 32) : Prop :=
  (∀ a, (k9_off8 v27) a + S1x128.size a ≤ S100000x128.size a) ∧
  (∀ a, (k9_off36 v27) a + S1x128.size a ≤ S100000x128.size a)
instance k9_chk4.dec : ∀ (v27 : BitVec 32), Decidable (k9_chk4 v27) := fun v27 => decidable_of_iff' _ (Iff.of_eq (k9_chk4.eq_1 v27))
theorem k9_off8_inb : ∀ (v27 : BitVec 32) (k9_hw4 : k9_chk4 v27), ∀ a, (k9_off8 v27) a + S1x128.size a ≤ S100000x128.size a := fun v27 k9_hw4 => k9_hw4.1
theorem k9_off36_inb : ∀ (v27 : BitVec 32) (k9_hw4 : k9_chk4 v27), ∀ a, (k9_off36 v27) a + S1x128.size a ≤ S100000x128.size a := fun v27 k9_hw4 => k9_hw4.2

def k9_off37 (v35 : BitVec 32) : Fin 2 → Nat :=
  let c0_i32_67 : BitVec 32 := 0#32
  ![v35.toNat, 0]

def k9_chk5 (v35 : BitVec 32) : Prop :=
  (∀ a, (k9_off10 v35) a + S1x128.size a ≤ S100000x128.size a) ∧
  (∀ a, (k9_off37 v35) a + S1x128.size a ≤ S100000x128.size a)
instance k9_chk5.dec : ∀ (v35 : BitVec 32), Decidable (k9_chk5 v35) := fun v35 => decidable_of_iff' _ (Iff.of_eq (k9_chk5.eq_1 v35))
theorem k9_off10_inb : ∀ (v35 : BitVec 32) (k9_hw5 : k9_chk5 v35), ∀ a, (k9_off10 v35) a + S1x128.size a ≤ S100000x128.size a := fun v35 k9_hw5 => k9_hw5.1
theorem k9_off37_inb : ∀ (v35 : BitVec 32) (k9_hw5 : k9_chk5 v35), ∀ a, (k9_off37 v35) a + S1x128.size a ≤ S100000x128.size a := fun v35 k9_hw5 => k9_hw5.2

def k9_off38 (v43 : BitVec 32) : Fin 2 → Nat :=
  let c0_i32_71 : BitVec 32 := 0#32
  ![v43.toNat, 0]

def k9_chk6 (v43 : BitVec 32) : Prop :=
  (∀ a, (k9_off12 v43) a + S1x128.size a ≤ S100000x128.size a) ∧
  (∀ a, (k9_off38 v43) a + S1x128.size a ≤ S100000x128.size a)
instance k9_chk6.dec : ∀ (v43 : BitVec 32), Decidable (k9_chk6 v43) := fun v43 => decidable_of_iff' _ (Iff.of_eq (k9_chk6.eq_1 v43))
theorem k9_off12_inb : ∀ (v43 : BitVec 32) (k9_hw6 : k9_chk6 v43), ∀ a, (k9_off12 v43) a + S1x128.size a ≤ S100000x128.size a := fun v43 k9_hw6 => k9_hw6.1
theorem k9_off38_inb : ∀ (v43 : BitVec 32) (k9_hw6 : k9_chk6 v43), ∀ a, (k9_off38 v43) a + S1x128.size a ≤ S100000x128.size a := fun v43 k9_hw6 => k9_hw6.2

def k9_off39 (v51 : BitVec 32) : Fin 2 → Nat :=
  let c0_i32_75 : BitVec 32 := 0#32
  ![v51.toNat, 0]

def k9_chk7 (v51 : BitVec 32) : Prop :=
  (∀ a, (k9_off14 v51) a + S1x128.size a ≤ S100000x128.size a) ∧
  (∀ a, (k9_off39 v51) a + S1x128.size a ≤ S100000x128.size a)
instance k9_chk7.dec : ∀ (v51 : BitVec 32), Decidable (k9_chk7 v51) := fun v51 => decidable_of_iff' _ (Iff.of_eq (k9_chk7.eq_1 v51))
theorem k9_off14_inb : ∀ (v51 : BitVec 32) (k9_hw7 : k9_chk7 v51), ∀ a, (k9_off14 v51) a + S1x128.size a ≤ S100000x128.size a := fun v51 k9_hw7 => k9_hw7.1
theorem k9_off39_inb : ∀ (v51 : BitVec 32) (k9_hw7 : k9_chk7 v51), ∀ a, (k9_off39 v51) a + S1x128.size a ≤ S100000x128.size a := fun v51 k9_hw7 => k9_hw7.2

def k9_off40 (v59 : BitVec 32) : Fin 2 → Nat :=
  let c0_i32_79 : BitVec 32 := 0#32
  ![v59.toNat, 0]

def k9_chk8 (v59 : BitVec 32) : Prop :=
  (∀ a, (k9_off16 v59) a + S1x128.size a ≤ S100000x128.size a) ∧
  (∀ a, (k9_off40 v59) a + S1x128.size a ≤ S100000x128.size a)
instance k9_chk8.dec : ∀ (v59 : BitVec 32), Decidable (k9_chk8 v59) := fun v59 => decidable_of_iff' _ (Iff.of_eq (k9_chk8.eq_1 v59))
theorem k9_off16_inb : ∀ (v59 : BitVec 32) (k9_hw8 : k9_chk8 v59), ∀ a, (k9_off16 v59) a + S1x128.size a ≤ S100000x128.size a := fun v59 k9_hw8 => k9_hw8.1
theorem k9_off40_inb : ∀ (v59 : BitVec 32) (k9_hw8 : k9_chk8 v59), ∀ a, (k9_off40 v59) a + S1x128.size a ≤ S100000x128.size a := fun v59 k9_hw8 => k9_hw8.2

def k9_off41 (v67 : BitVec 32) : Fin 2 → Nat :=
  let c0_i32_83 : BitVec 32 := 0#32
  ![v67.toNat, 0]

def k9_chk9 (v67 : BitVec 32) : Prop :=
  (∀ a, (k9_off18 v67) a + S1x128.size a ≤ S100000x128.size a) ∧
  (∀ a, (k9_off41 v67) a + S1x128.size a ≤ S100000x128.size a)
instance k9_chk9.dec : ∀ (v67 : BitVec 32), Decidable (k9_chk9 v67) := fun v67 => decidable_of_iff' _ (Iff.of_eq (k9_chk9.eq_1 v67))
theorem k9_off18_inb : ∀ (v67 : BitVec 32) (k9_hw9 : k9_chk9 v67), ∀ a, (k9_off18 v67) a + S1x128.size a ≤ S100000x128.size a := fun v67 k9_hw9 => k9_hw9.1
theorem k9_off41_inb : ∀ (v67 : BitVec 32) (k9_hw9 : k9_chk9 v67), ∀ a, (k9_off41 v67) a + S1x128.size a ≤ S100000x128.size a := fun v67 k9_hw9 => k9_hw9.2

def k9_off42 (v75 : BitVec 32) : Fin 2 → Nat :=
  let c0_i32_87 : BitVec 32 := 0#32
  ![v75.toNat, 0]

def k9_chk10 (v75 : BitVec 32) : Prop :=
  (∀ a, (k9_off20 v75) a + S1x128.size a ≤ S100000x128.size a) ∧
  (∀ a, (k9_off42 v75) a + S1x128.size a ≤ S100000x128.size a)
instance k9_chk10.dec : ∀ (v75 : BitVec 32), Decidable (k9_chk10 v75) := fun v75 => decidable_of_iff' _ (Iff.of_eq (k9_chk10.eq_1 v75))
theorem k9_off20_inb : ∀ (v75 : BitVec 32) (k9_hw10 : k9_chk10 v75), ∀ a, (k9_off20 v75) a + S1x128.size a ≤ S100000x128.size a := fun v75 k9_hw10 => k9_hw10.1
theorem k9_off42_inb : ∀ (v75 : BitVec 32) (k9_hw10 : k9_chk10 v75), ∀ a, (k9_off42 v75) a + S1x128.size a ≤ S100000x128.size a := fun v75 k9_hw10 => k9_hw10.2

def k9_off43 (v83 : BitVec 32) : Fin 2 → Nat :=
  let c0_i32_91 : BitVec 32 := 0#32
  ![v83.toNat, 0]

def k9_chk11 (v83 : BitVec 32) : Prop :=
  (∀ a, (k9_off22 v83) a + S1x128.size a ≤ S100000x128.size a) ∧
  (∀ a, (k9_off43 v83) a + S1x128.size a ≤ S100000x128.size a)
instance k9_chk11.dec : ∀ (v83 : BitVec 32), Decidable (k9_chk11 v83) := fun v83 => decidable_of_iff' _ (Iff.of_eq (k9_chk11.eq_1 v83))
theorem k9_off22_inb : ∀ (v83 : BitVec 32) (k9_hw11 : k9_chk11 v83), ∀ a, (k9_off22 v83) a + S1x128.size a ≤ S100000x128.size a := fun v83 k9_hw11 => k9_hw11.1
theorem k9_off43_inb : ∀ (v83 : BitVec 32) (k9_hw11 : k9_chk11 v83), ∀ a, (k9_off43 v83) a + S1x128.size a ≤ S100000x128.size a := fun v83 k9_hw11 => k9_hw11.2

def k9_off44 (v91 : BitVec 32) : Fin 2 → Nat :=
  let c0_i32_95 : BitVec 32 := 0#32
  ![v91.toNat, 0]

def k9_chk12 (v91 : BitVec 32) : Prop :=
  (∀ a, (k9_off24 v91) a + S1x128.size a ≤ S100000x128.size a) ∧
  (∀ a, (k9_off44 v91) a + S1x128.size a ≤ S100000x128.size a)
instance k9_chk12.dec : ∀ (v91 : BitVec 32), Decidable (k9_chk12 v91) := fun v91 => decidable_of_iff' _ (Iff.of_eq (k9_chk12.eq_1 v91))
theorem k9_off24_inb : ∀ (v91 : BitVec 32) (k9_hw12 : k9_chk12 v91), ∀ a, (k9_off24 v91) a + S1x128.size a ≤ S100000x128.size a := fun v91 k9_hw12 => k9_hw12.1
theorem k9_off44_inb : ∀ (v91 : BitVec 32) (k9_hw12 : k9_chk12 v91), ∀ a, (k9_off44 v91) a + S1x128.size a ≤ S100000x128.size a := fun v91 k9_hw12 => k9_hw12.2

def k9_off45 (v99 : BitVec 32) : Fin 2 → Nat :=
  let c0_i32_99 : BitVec 32 := 0#32
  ![v99.toNat, 0]

def k9_chk13 (v99 : BitVec 32) : Prop :=
  (∀ a, (k9_off26 v99) a + S1x128.size a ≤ S100000x128.size a) ∧
  (∀ a, (k9_off45 v99) a + S1x128.size a ≤ S100000x128.size a)
instance k9_chk13.dec : ∀ (v99 : BitVec 32), Decidable (k9_chk13 v99) := fun v99 => decidable_of_iff' _ (Iff.of_eq (k9_chk13.eq_1 v99))
theorem k9_off26_inb : ∀ (v99 : BitVec 32) (k9_hw13 : k9_chk13 v99), ∀ a, (k9_off26 v99) a + S1x128.size a ≤ S100000x128.size a := fun v99 k9_hw13 => k9_hw13.1
theorem k9_off45_inb : ∀ (v99 : BitVec 32) (k9_hw13 : k9_chk13 v99), ∀ a, (k9_off45 v99) a + S1x128.size a ≤ S100000x128.size a := fun v99 k9_hw13 => k9_hw13.2

def k9_off46 (v107 : BitVec 32) : Fin 2 → Nat :=
  let c0_i32_103 : BitVec 32 := 0#32
  ![v107.toNat, 0]

def k9_chk14 (v107 : BitVec 32) : Prop :=
  (∀ a, (k9_off28 v107) a + S1x128.size a ≤ S100000x128.size a) ∧
  (∀ a, (k9_off46 v107) a + S1x128.size a ≤ S100000x128.size a)
instance k9_chk14.dec : ∀ (v107 : BitVec 32), Decidable (k9_chk14 v107) := fun v107 => decidable_of_iff' _ (Iff.of_eq (k9_chk14.eq_1 v107))
theorem k9_off28_inb : ∀ (v107 : BitVec 32) (k9_hw14 : k9_chk14 v107), ∀ a, (k9_off28 v107) a + S1x128.size a ≤ S100000x128.size a := fun v107 k9_hw14 => k9_hw14.1
theorem k9_off46_inb : ∀ (v107 : BitVec 32) (k9_hw14 : k9_chk14 v107), ∀ a, (k9_off46 v107) a + S1x128.size a ≤ S100000x128.size a := fun v107 k9_hw14 => k9_hw14.2

def k9_off47 (v115 : BitVec 32) : Fin 2 → Nat :=
  let c0_i32_107 : BitVec 32 := 0#32
  ![v115.toNat, 0]

def k9_chk15 (v115 : BitVec 32) : Prop :=
  (∀ a, (k9_off30 v115) a + S1x128.size a ≤ S100000x128.size a) ∧
  (∀ a, (k9_off47 v115) a + S1x128.size a ≤ S100000x128.size a)
instance k9_chk15.dec : ∀ (v115 : BitVec 32), Decidable (k9_chk15 v115) := fun v115 => decidable_of_iff' _ (Iff.of_eq (k9_chk15.eq_1 v115))
theorem k9_off30_inb : ∀ (v115 : BitVec 32) (k9_hw15 : k9_chk15 v115), ∀ a, (k9_off30 v115) a + S1x128.size a ≤ S100000x128.size a := fun v115 k9_hw15 => k9_hw15.1
theorem k9_off47_inb : ∀ (v115 : BitVec 32) (k9_hw15 : k9_chk15 v115), ∀ a, (k9_off47 v115) a + S1x128.size a ≤ S100000x128.size a := fun v115 k9_hw15 => k9_hw15.2

def k9_off48 (i : grid9.Coords) : Fin 2 → Nat :=
  let arg1 : BitVec 32 := BitVec.ofNat 32 (i 1).val
  let v230 : Index := Scalar.indexCast arg1
  let c0_115 : Index := 0#32
  ![v230.toNat, 0]
def k9_cond1 (i : grid9.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 1 → Memref sig .tc .vmem S128x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, false]

abbrev stage9_1 : Fin 2 → Memref sig .tc .vmem S1000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev grid10 : Pipeline.Grid := ⟨2, ![2, 1000], ![false, false]⟩

abbrev pre10 : Pipeline.Prefetch sig := ⟨1, ![main_v21.idx], fun | 0 => main_v21.names | ⟨_ + 1, h⟩ => absurd h (Nat.not_lt.2 (Nat.le_add_left _ _)), fun | 0 => rfl | ⟨_ + 1, h⟩ => absurd h (Nat.not_lt.2 (Nat.le_add_left _ _))⟩

def k10_off1 (i : grid10.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k10_off2 (v3 : BitVec 32) : Fin 2 → Nat :=
  let c0_i32_2 : BitVec 32 := 0#32
  ![v3.toNat, 0]

def k10_off3 (i : grid10.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k10_off4 (v11 : BitVec 32) : Fin 2 → Nat :=
  let c0_i32_5 : BitVec 32 := 0#32
  ![v11.toNat, 0]

def k10_off5 (i : grid10.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k10_off6 (v19 : BitVec 32) : Fin 2 → Nat :=
  let c0_i32_8 : BitVec 32 := 0#32
  ![v19.toNat, 0]

def k10_off7 (i : grid10.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k10_off8 (v27 : BitVec 32) : Fin 2 → Nat :=
  let c0_i32_11 : BitVec 32 := 0#32
  ![v27.toNat, 0]

def k10_off9 (i : grid10.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k10_off10 (v35 : BitVec 32) : Fin 2 → Nat :=
  let c0_i32_14 : BitVec 32 := 0#32
  ![v35.toNat, 0]

def k10_off11 (i : grid10.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k10_off12 (v43 : BitVec 32) : Fin 2 → Nat :=
  let c0_i32_17 : BitVec 32 := 0#32
  ![v43.toNat, 0]

def k10_off13 (i : grid10.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k10_off14 (v51 : BitVec 32) : Fin 2 → Nat :=
  let c0_i32_20 : BitVec 32 := 0#32
  ![v51.toNat, 0]

def k10_off15 (i : grid10.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k10_off16 (v59 : BitVec 32) : Fin 2 → Nat :=
  let c0_i32_23 : BitVec 32 := 0#32
  ![v59.toNat, 0]

def k10_off17 (i : grid10.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k10_off18 (v67 : BitVec 32) : Fin 2 → Nat :=
  let c0_i32_26 : BitVec 32 := 0#32
  ![v67.toNat, 0]

def k10_off19 (i : grid10.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k10_off20 (v75 : BitVec 32) : Fin 2 → Nat :=
  let c0_i32_29 : BitVec 32 := 0#32
  ![v75.toNat, 0]

def k10_off21 (i : grid10.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k10_off22 (v83 : BitVec 32) : Fin 2 → Nat :=
  let c0_i32_32 : BitVec 32 := 0#32
  ![v83.toNat, 0]

def k10_off23 (i : grid10.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k10_off24 (v91 : BitVec 32) : Fin 2 → Nat :=
  let c0_i32_35 : BitVec 32 := 0#32
  ![v91.toNat, 0]

def k10_off25 (i : grid10.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k10_off26 (v99 : BitVec 32) : Fin 2 → Nat :=
  let c0_i32_38 : BitVec 32 := 0#32
  ![v99.toNat, 0]

def k10_off27 (i : grid10.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k10_off28 (v107 : BitVec 32) : Fin 2 → Nat :=
  let c0_i32_41 : BitVec 32 := 0#32
  ![v107.toNat, 0]

def k10_off29 (i : grid10.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k10_off30 (v115 : BitVec 32) : Fin 2 → Nat :=
  let c0_i32_44 : BitVec 32 := 0#32
  ![v115.toNat, 0]

def k10_off31 (i : grid10.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k10_off32 (v123 : BitVec 32) : Fin 2 → Nat :=
  let c0_i32_47 : BitVec 32 := 0#32
  ![v123.toNat, 0]

def k10_chk16 (v123 : BitVec 32) : Prop :=
  (∀ a, (k10_off32 v123) a + S1x128.size a ≤ S100000x128.size a)
instance k10_chk16.dec : ∀ (v123 : BitVec 32), Decidable (k10_chk16 v123) := fun v123 => decidable_of_iff' _ (Iff.of_eq (k10_chk16.eq_1 v123))
theorem k10_off32_inb : ∀ (v123 : BitVec 32) (k10_hw16 : k10_chk16 v123), ∀ a, (k10_off32 v123) a + S1x128.size a ≤ S100000x128.size a := fun v123 k10_hw16 => k10_hw16

def k10_off33 (v3 : BitVec 32) : Fin 2 → Nat :=
  let c0_i32_51 : BitVec 32 := 0#32
  ![v3.toNat, 0]

def k10_chk1 (v3 : BitVec 32) : Prop :=
  (∀ a, (k10_off2 v3) a + S1x128.size a ≤ S100000x128.size a) ∧
  (∀ a, (k10_off33 v3) a + S1x128.size a ≤ S100000x128.size a)
instance k10_chk1.dec : ∀ (v3 : BitVec 32), Decidable (k10_chk1 v3) := fun v3 => decidable_of_iff' _ (Iff.of_eq (k10_chk1.eq_1 v3))
theorem k10_off2_inb : ∀ (v3 : BitVec 32) (k10_hw1 : k10_chk1 v3), ∀ a, (k10_off2 v3) a + S1x128.size a ≤ S100000x128.size a := fun v3 k10_hw1 => k10_hw1.1
theorem k10_off33_inb : ∀ (v3 : BitVec 32) (k10_hw1 : k10_chk1 v3), ∀ a, (k10_off33 v3) a + S1x128.size a ≤ S100000x128.size a := fun v3 k10_hw1 => k10_hw1.2

def k10_off34 (v11 : BitVec 32) : Fin 2 → Nat :=
  let c0_i32_55 : BitVec 32 := 0#32
  ![v11.toNat, 0]

def k10_chk2 (v11 : BitVec 32) : Prop :=
  (∀ a, (k10_off4 v11) a + S1x128.size a ≤ S100000x128.size a) ∧
  (∀ a, (k10_off34 v11) a + S1x128.size a ≤ S100000x128.size a)
instance k10_chk2.dec : ∀ (v11 : BitVec 32), Decidable (k10_chk2 v11) := fun v11 => decidable_of_iff' _ (Iff.of_eq (k10_chk2.eq_1 v11))
theorem k10_off4_inb : ∀ (v11 : BitVec 32) (k10_hw2 : k10_chk2 v11), ∀ a, (k10_off4 v11) a + S1x128.size a ≤ S100000x128.size a := fun v11 k10_hw2 => k10_hw2.1
theorem k10_off34_inb : ∀ (v11 : BitVec 32) (k10_hw2 : k10_chk2 v11), ∀ a, (k10_off34 v11) a + S1x128.size a ≤ S100000x128.size a := fun v11 k10_hw2 => k10_hw2.2

def k10_off35 (v19 : BitVec 32) : Fin 2 → Nat :=
  let c0_i32_59 : BitVec 32 := 0#32
  ![v19.toNat, 0]

def k10_chk3 (v19 : BitVec 32) : Prop :=
  (∀ a, (k10_off6 v19) a + S1x128.size a ≤ S100000x128.size a) ∧
  (∀ a, (k10_off35 v19) a + S1x128.size a ≤ S100000x128.size a)
instance k10_chk3.dec : ∀ (v19 : BitVec 32), Decidable (k10_chk3 v19) := fun v19 => decidable_of_iff' _ (Iff.of_eq (k10_chk3.eq_1 v19))
theorem k10_off6_inb : ∀ (v19 : BitVec 32) (k10_hw3 : k10_chk3 v19), ∀ a, (k10_off6 v19) a + S1x128.size a ≤ S100000x128.size a := fun v19 k10_hw3 => k10_hw3.1
theorem k10_off35_inb : ∀ (v19 : BitVec 32) (k10_hw3 : k10_chk3 v19), ∀ a, (k10_off35 v19) a + S1x128.size a ≤ S100000x128.size a := fun v19 k10_hw3 => k10_hw3.2

def k10_off36 (v27 : BitVec 32) : Fin 2 → Nat :=
  let c0_i32_63 : BitVec 32 := 0#32
  ![v27.toNat, 0]

def k10_chk4 (v27 : BitVec 32) : Prop :=
  (∀ a, (k10_off8 v27) a + S1x128.size a ≤ S100000x128.size a) ∧
  (∀ a, (k10_off36 v27) a + S1x128.size a ≤ S100000x128.size a)
instance k10_chk4.dec : ∀ (v27 : BitVec 32), Decidable (k10_chk4 v27) := fun v27 => decidable_of_iff' _ (Iff.of_eq (k10_chk4.eq_1 v27))
theorem k10_off8_inb : ∀ (v27 : BitVec 32) (k10_hw4 : k10_chk4 v27), ∀ a, (k10_off8 v27) a + S1x128.size a ≤ S100000x128.size a := fun v27 k10_hw4 => k10_hw4.1
theorem k10_off36_inb : ∀ (v27 : BitVec 32) (k10_hw4 : k10_chk4 v27), ∀ a, (k10_off36 v27) a + S1x128.size a ≤ S100000x128.size a := fun v27 k10_hw4 => k10_hw4.2

def k10_off37 (v35 : BitVec 32) : Fin 2 → Nat :=
  let c0_i32_67 : BitVec 32 := 0#32
  ![v35.toNat, 0]

def k10_chk5 (v35 : BitVec 32) : Prop :=
  (∀ a, (k10_off10 v35) a + S1x128.size a ≤ S100000x128.size a) ∧
  (∀ a, (k10_off37 v35) a + S1x128.size a ≤ S100000x128.size a)
instance k10_chk5.dec : ∀ (v35 : BitVec 32), Decidable (k10_chk5 v35) := fun v35 => decidable_of_iff' _ (Iff.of_eq (k10_chk5.eq_1 v35))
theorem k10_off10_inb : ∀ (v35 : BitVec 32) (k10_hw5 : k10_chk5 v35), ∀ a, (k10_off10 v35) a + S1x128.size a ≤ S100000x128.size a := fun v35 k10_hw5 => k10_hw5.1
theorem k10_off37_inb : ∀ (v35 : BitVec 32) (k10_hw5 : k10_chk5 v35), ∀ a, (k10_off37 v35) a + S1x128.size a ≤ S100000x128.size a := fun v35 k10_hw5 => k10_hw5.2

def k10_off38 (v43 : BitVec 32) : Fin 2 → Nat :=
  let c0_i32_71 : BitVec 32 := 0#32
  ![v43.toNat, 0]

def k10_chk6 (v43 : BitVec 32) : Prop :=
  (∀ a, (k10_off12 v43) a + S1x128.size a ≤ S100000x128.size a) ∧
  (∀ a, (k10_off38 v43) a + S1x128.size a ≤ S100000x128.size a)
instance k10_chk6.dec : ∀ (v43 : BitVec 32), Decidable (k10_chk6 v43) := fun v43 => decidable_of_iff' _ (Iff.of_eq (k10_chk6.eq_1 v43))
theorem k10_off12_inb : ∀ (v43 : BitVec 32) (k10_hw6 : k10_chk6 v43), ∀ a, (k10_off12 v43) a + S1x128.size a ≤ S100000x128.size a := fun v43 k10_hw6 => k10_hw6.1
theorem k10_off38_inb : ∀ (v43 : BitVec 32) (k10_hw6 : k10_chk6 v43), ∀ a, (k10_off38 v43) a + S1x128.size a ≤ S100000x128.size a := fun v43 k10_hw6 => k10_hw6.2

def k10_off39 (v51 : BitVec 32) : Fin 2 → Nat :=
  let c0_i32_75 : BitVec 32 := 0#32
  ![v51.toNat, 0]

def k10_chk7 (v51 : BitVec 32) : Prop :=
  (∀ a, (k10_off14 v51) a + S1x128.size a ≤ S100000x128.size a) ∧
  (∀ a, (k10_off39 v51) a + S1x128.size a ≤ S100000x128.size a)
instance k10_chk7.dec : ∀ (v51 : BitVec 32), Decidable (k10_chk7 v51) := fun v51 => decidable_of_iff' _ (Iff.of_eq (k10_chk7.eq_1 v51))
theorem k10_off14_inb : ∀ (v51 : BitVec 32) (k10_hw7 : k10_chk7 v51), ∀ a, (k10_off14 v51) a + S1x128.size a ≤ S100000x128.size a := fun v51 k10_hw7 => k10_hw7.1
theorem k10_off39_inb : ∀ (v51 : BitVec 32) (k10_hw7 : k10_chk7 v51), ∀ a, (k10_off39 v51) a + S1x128.size a ≤ S100000x128.size a := fun v51 k10_hw7 => k10_hw7.2

def k10_off40 (v59 : BitVec 32) : Fin 2 → Nat :=
  let c0_i32_79 : BitVec 32 := 0#32
  ![v59.toNat, 0]

def k10_chk8 (v59 : BitVec 32) : Prop :=
  (∀ a, (k10_off16 v59) a + S1x128.size a ≤ S100000x128.size a) ∧
  (∀ a, (k10_off40 v59) a + S1x128.size a ≤ S100000x128.size a)
instance k10_chk8.dec : ∀ (v59 : BitVec 32), Decidable (k10_chk8 v59) := fun v59 => decidable_of_iff' _ (Iff.of_eq (k10_chk8.eq_1 v59))
theorem k10_off16_inb : ∀ (v59 : BitVec 32) (k10_hw8 : k10_chk8 v59), ∀ a, (k10_off16 v59) a + S1x128.size a ≤ S100000x128.size a := fun v59 k10_hw8 => k10_hw8.1
theorem k10_off40_inb : ∀ (v59 : BitVec 32) (k10_hw8 : k10_chk8 v59), ∀ a, (k10_off40 v59) a + S1x128.size a ≤ S100000x128.size a := fun v59 k10_hw8 => k10_hw8.2

def k10_off41 (v67 : BitVec 32) : Fin 2 → Nat :=
  let c0_i32_83 : BitVec 32 := 0#32
  ![v67.toNat, 0]

def k10_chk9 (v67 : BitVec 32) : Prop :=
  (∀ a, (k10_off18 v67) a + S1x128.size a ≤ S100000x128.size a) ∧
  (∀ a, (k10_off41 v67) a + S1x128.size a ≤ S100000x128.size a)
instance k10_chk9.dec : ∀ (v67 : BitVec 32), Decidable (k10_chk9 v67) := fun v67 => decidable_of_iff' _ (Iff.of_eq (k10_chk9.eq_1 v67))
theorem k10_off18_inb : ∀ (v67 : BitVec 32) (k10_hw9 : k10_chk9 v67), ∀ a, (k10_off18 v67) a + S1x128.size a ≤ S100000x128.size a := fun v67 k10_hw9 => k10_hw9.1
theorem k10_off41_inb : ∀ (v67 : BitVec 32) (k10_hw9 : k10_chk9 v67), ∀ a, (k10_off41 v67) a + S1x128.size a ≤ S100000x128.size a := fun v67 k10_hw9 => k10_hw9.2

def k10_off42 (v75 : BitVec 32) : Fin 2 → Nat :=
  let c0_i32_87 : BitVec 32 := 0#32
  ![v75.toNat, 0]

def k10_chk10 (v75 : BitVec 32) : Prop :=
  (∀ a, (k10_off20 v75) a + S1x128.size a ≤ S100000x128.size a) ∧
  (∀ a, (k10_off42 v75) a + S1x128.size a ≤ S100000x128.size a)
instance k10_chk10.dec : ∀ (v75 : BitVec 32), Decidable (k10_chk10 v75) := fun v75 => decidable_of_iff' _ (Iff.of_eq (k10_chk10.eq_1 v75))
theorem k10_off20_inb : ∀ (v75 : BitVec 32) (k10_hw10 : k10_chk10 v75), ∀ a, (k10_off20 v75) a + S1x128.size a ≤ S100000x128.size a := fun v75 k10_hw10 => k10_hw10.1
theorem k10_off42_inb : ∀ (v75 : BitVec 32) (k10_hw10 : k10_chk10 v75), ∀ a, (k10_off42 v75) a + S1x128.size a ≤ S100000x128.size a := fun v75 k10_hw10 => k10_hw10.2

def k10_off43 (v83 : BitVec 32) : Fin 2 → Nat :=
  let c0_i32_91 : BitVec 32 := 0#32
  ![v83.toNat, 0]

def k10_chk11 (v83 : BitVec 32) : Prop :=
  (∀ a, (k10_off22 v83) a + S1x128.size a ≤ S100000x128.size a) ∧
  (∀ a, (k10_off43 v83) a + S1x128.size a ≤ S100000x128.size a)
instance k10_chk11.dec : ∀ (v83 : BitVec 32), Decidable (k10_chk11 v83) := fun v83 => decidable_of_iff' _ (Iff.of_eq (k10_chk11.eq_1 v83))
theorem k10_off22_inb : ∀ (v83 : BitVec 32) (k10_hw11 : k10_chk11 v83), ∀ a, (k10_off22 v83) a + S1x128.size a ≤ S100000x128.size a := fun v83 k10_hw11 => k10_hw11.1
theorem k10_off43_inb : ∀ (v83 : BitVec 32) (k10_hw11 : k10_chk11 v83), ∀ a, (k10_off43 v83) a + S1x128.size a ≤ S100000x128.size a := fun v83 k10_hw11 => k10_hw11.2

def k10_off44 (v91 : BitVec 32) : Fin 2 → Nat :=
  let c0_i32_95 : BitVec 32 := 0#32
  ![v91.toNat, 0]

def k10_chk12 (v91 : BitVec 32) : Prop :=
  (∀ a, (k10_off24 v91) a + S1x128.size a ≤ S100000x128.size a) ∧
  (∀ a, (k10_off44 v91) a + S1x128.size a ≤ S100000x128.size a)
instance k10_chk12.dec : ∀ (v91 : BitVec 32), Decidable (k10_chk12 v91) := fun v91 => decidable_of_iff' _ (Iff.of_eq (k10_chk12.eq_1 v91))
theorem k10_off24_inb : ∀ (v91 : BitVec 32) (k10_hw12 : k10_chk12 v91), ∀ a, (k10_off24 v91) a + S1x128.size a ≤ S100000x128.size a := fun v91 k10_hw12 => k10_hw12.1
theorem k10_off44_inb : ∀ (v91 : BitVec 32) (k10_hw12 : k10_chk12 v91), ∀ a, (k10_off44 v91) a + S1x128.size a ≤ S100000x128.size a := fun v91 k10_hw12 => k10_hw12.2

def k10_off45 (v99 : BitVec 32) : Fin 2 → Nat :=
  let c0_i32_99 : BitVec 32 := 0#32
  ![v99.toNat, 0]

def k10_chk13 (v99 : BitVec 32) : Prop :=
  (∀ a, (k10_off26 v99) a + S1x128.size a ≤ S100000x128.size a) ∧
  (∀ a, (k10_off45 v99) a + S1x128.size a ≤ S100000x128.size a)
instance k10_chk13.dec : ∀ (v99 : BitVec 32), Decidable (k10_chk13 v99) := fun v99 => decidable_of_iff' _ (Iff.of_eq (k10_chk13.eq_1 v99))
theorem k10_off26_inb : ∀ (v99 : BitVec 32) (k10_hw13 : k10_chk13 v99), ∀ a, (k10_off26 v99) a + S1x128.size a ≤ S100000x128.size a := fun v99 k10_hw13 => k10_hw13.1
theorem k10_off45_inb : ∀ (v99 : BitVec 32) (k10_hw13 : k10_chk13 v99), ∀ a, (k10_off45 v99) a + S1x128.size a ≤ S100000x128.size a := fun v99 k10_hw13 => k10_hw13.2

def k10_off46 (v107 : BitVec 32) : Fin 2 → Nat :=
  let c0_i32_103 : BitVec 32 := 0#32
  ![v107.toNat, 0]

def k10_chk14 (v107 : BitVec 32) : Prop :=
  (∀ a, (k10_off28 v107) a + S1x128.size a ≤ S100000x128.size a) ∧
  (∀ a, (k10_off46 v107) a + S1x128.size a ≤ S100000x128.size a)
instance k10_chk14.dec : ∀ (v107 : BitVec 32), Decidable (k10_chk14 v107) := fun v107 => decidable_of_iff' _ (Iff.of_eq (k10_chk14.eq_1 v107))
theorem k10_off28_inb : ∀ (v107 : BitVec 32) (k10_hw14 : k10_chk14 v107), ∀ a, (k10_off28 v107) a + S1x128.size a ≤ S100000x128.size a := fun v107 k10_hw14 => k10_hw14.1
theorem k10_off46_inb : ∀ (v107 : BitVec 32) (k10_hw14 : k10_chk14 v107), ∀ a, (k10_off46 v107) a + S1x128.size a ≤ S100000x128.size a := fun v107 k10_hw14 => k10_hw14.2

def k10_off47 (v115 : BitVec 32) : Fin 2 → Nat :=
  let c0_i32_107 : BitVec 32 := 0#32
  ![v115.toNat, 0]

def k10_chk15 (v115 : BitVec 32) : Prop :=
  (∀ a, (k10_off30 v115) a + S1x128.size a ≤ S100000x128.size a) ∧
  (∀ a, (k10_off47 v115) a + S1x128.size a ≤ S100000x128.size a)
instance k10_chk15.dec : ∀ (v115 : BitVec 32), Decidable (k10_chk15 v115) := fun v115 => decidable_of_iff' _ (Iff.of_eq (k10_chk15.eq_1 v115))
theorem k10_off30_inb : ∀ (v115 : BitVec 32) (k10_hw15 : k10_chk15 v115), ∀ a, (k10_off30 v115) a + S1x128.size a ≤ S100000x128.size a := fun v115 k10_hw15 => k10_hw15.1
theorem k10_off47_inb : ∀ (v115 : BitVec 32) (k10_hw15 : k10_chk15 v115), ∀ a, (k10_off47 v115) a + S1x128.size a ≤ S100000x128.size a := fun v115 k10_hw15 => k10_hw15.2

def k10_off48 (i : grid10.Coords) : Fin 2 → Nat :=
  let arg1 : BitVec 32 := BitVec.ofNat 32 (i 1).val
  let v230 : Index := Scalar.indexCast arg1
  let c0_115 : Index := 0#32
  ![v230.toNat, 0]
def k10_cond1 (i : grid10.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 1 → Memref sig .tc .vmem S128x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false, false]

abbrev stage10_1 : Fin 2 → Memref sig .tc .vmem S1000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev grid11 : Pipeline.Grid := ⟨2, ![2, 1000], ![false, false]⟩

abbrev pre11 : Pipeline.Prefetch sig := ⟨1, ![main_v23.idx], fun | 0 => main_v23.names | ⟨_ + 1, h⟩ => absurd h (Nat.not_lt.2 (Nat.le_add_left _ _)), fun | 0 => rfl | ⟨_ + 1, h⟩ => absurd h (Nat.not_lt.2 (Nat.le_add_left _ _))⟩

def k11_off1 (i : grid11.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k11_off2 (v3 : BitVec 32) : Fin 2 → Nat :=
  let c0_i32_2 : BitVec 32 := 0#32
  ![v3.toNat, 0]

def k11_off3 (i : grid11.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k11_off4 (v11 : BitVec 32) : Fin 2 → Nat :=
  let c0_i32_5 : BitVec 32 := 0#32
  ![v11.toNat, 0]

def k11_off5 (i : grid11.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k11_off6 (v19 : BitVec 32) : Fin 2 → Nat :=
  let c0_i32_8 : BitVec 32 := 0#32
  ![v19.toNat, 0]

def k11_off7 (i : grid11.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k11_off8 (v27 : BitVec 32) : Fin 2 → Nat :=
  let c0_i32_11 : BitVec 32 := 0#32
  ![v27.toNat, 0]

def k11_off9 (i : grid11.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k11_off10 (v35 : BitVec 32) : Fin 2 → Nat :=
  let c0_i32_14 : BitVec 32 := 0#32
  ![v35.toNat, 0]

def k11_off11 (i : grid11.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k11_off12 (v43 : BitVec 32) : Fin 2 → Nat :=
  let c0_i32_17 : BitVec 32 := 0#32
  ![v43.toNat, 0]

def k11_off13 (i : grid11.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k11_off14 (v51 : BitVec 32) : Fin 2 → Nat :=
  let c0_i32_20 : BitVec 32 := 0#32
  ![v51.toNat, 0]

def k11_off15 (i : grid11.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k11_off16 (v59 : BitVec 32) : Fin 2 → Nat :=
  let c0_i32_23 : BitVec 32 := 0#32
  ![v59.toNat, 0]

def k11_off17 (i : grid11.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k11_off18 (v67 : BitVec 32) : Fin 2 → Nat :=
  let c0_i32_26 : BitVec 32 := 0#32
  ![v67.toNat, 0]

def k11_off19 (i : grid11.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k11_off20 (v75 : BitVec 32) : Fin 2 → Nat :=
  let c0_i32_29 : BitVec 32 := 0#32
  ![v75.toNat, 0]

def k11_off21 (i : grid11.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k11_off22 (v83 : BitVec 32) : Fin 2 → Nat :=
  let c0_i32_32 : BitVec 32 := 0#32
  ![v83.toNat, 0]

def k11_off23 (i : grid11.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k11_off24 (v91 : BitVec 32) : Fin 2 → Nat :=
  let c0_i32_35 : BitVec 32 := 0#32
  ![v91.toNat, 0]

def k11_off25 (i : grid11.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k11_off26 (v99 : BitVec 32) : Fin 2 → Nat :=
  let c0_i32_38 : BitVec 32 := 0#32
  ![v99.toNat, 0]

def k11_off27 (i : grid11.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k11_off28 (v107 : BitVec 32) : Fin 2 → Nat :=
  let c0_i32_41 : BitVec 32 := 0#32
  ![v107.toNat, 0]

def k11_off29 (i : grid11.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k11_off30 (v115 : BitVec 32) : Fin 2 → Nat :=
  let c0_i32_44 : BitVec 32 := 0#32
  ![v115.toNat, 0]

def k11_off31 (i : grid11.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k11_off32 (v123 : BitVec 32) : Fin 2 → Nat :=
  let c0_i32_47 : BitVec 32 := 0#32
  ![v123.toNat, 0]

def k11_chk16 (v123 : BitVec 32) : Prop :=
  (∀ a, (k11_off32 v123) a + S1x128.size a ≤ S100000x128.size a)
instance k11_chk16.dec : ∀ (v123 : BitVec 32), Decidable (k11_chk16 v123) := fun v123 => decidable_of_iff' _ (Iff.of_eq (k11_chk16.eq_1 v123))
theorem k11_off32_inb : ∀ (v123 : BitVec 32) (k11_hw16 : k11_chk16 v123), ∀ a, (k11_off32 v123) a + S1x128.size a ≤ S100000x128.size a := fun v123 k11_hw16 => k11_hw16

def k11_off33 (v3 : BitVec 32) : Fin 2 → Nat :=
  let c0_i32_51 : BitVec 32 := 0#32
  ![v3.toNat, 0]

def k11_chk1 (v3 : BitVec 32) : Prop :=
  (∀ a, (k11_off2 v3) a + S1x128.size a ≤ S100000x128.size a) ∧
  (∀ a, (k11_off33 v3) a + S1x128.size a ≤ S100000x128.size a)
instance k11_chk1.dec : ∀ (v3 : BitVec 32), Decidable (k11_chk1 v3) := fun v3 => decidable_of_iff' _ (Iff.of_eq (k11_chk1.eq_1 v3))
theorem k11_off2_inb : ∀ (v3 : BitVec 32) (k11_hw1 : k11_chk1 v3), ∀ a, (k11_off2 v3) a + S1x128.size a ≤ S100000x128.size a := fun v3 k11_hw1 => k11_hw1.1
theorem k11_off33_inb : ∀ (v3 : BitVec 32) (k11_hw1 : k11_chk1 v3), ∀ a, (k11_off33 v3) a + S1x128.size a ≤ S100000x128.size a := fun v3 k11_hw1 => k11_hw1.2

def k11_off34 (v11 : BitVec 32) : Fin 2 → Nat :=
  let c0_i32_55 : BitVec 32 := 0#32
  ![v11.toNat, 0]

def k11_chk2 (v11 : BitVec 32) : Prop :=
  (∀ a, (k11_off4 v11) a + S1x128.size a ≤ S100000x128.size a) ∧
  (∀ a, (k11_off34 v11) a + S1x128.size a ≤ S100000x128.size a)
instance k11_chk2.dec : ∀ (v11 : BitVec 32), Decidable (k11_chk2 v11) := fun v11 => decidable_of_iff' _ (Iff.of_eq (k11_chk2.eq_1 v11))
theorem k11_off4_inb : ∀ (v11 : BitVec 32) (k11_hw2 : k11_chk2 v11), ∀ a, (k11_off4 v11) a + S1x128.size a ≤ S100000x128.size a := fun v11 k11_hw2 => k11_hw2.1
theorem k11_off34_inb : ∀ (v11 : BitVec 32) (k11_hw2 : k11_chk2 v11), ∀ a, (k11_off34 v11) a + S1x128.size a ≤ S100000x128.size a := fun v11 k11_hw2 => k11_hw2.2

def k11_off35 (v19 : BitVec 32) : Fin 2 → Nat :=
  let c0_i32_59 : BitVec 32 := 0#32
  ![v19.toNat, 0]

def k11_chk3 (v19 : BitVec 32) : Prop :=
  (∀ a, (k11_off6 v19) a + S1x128.size a ≤ S100000x128.size a) ∧
  (∀ a, (k11_off35 v19) a + S1x128.size a ≤ S100000x128.size a)
instance k11_chk3.dec : ∀ (v19 : BitVec 32), Decidable (k11_chk3 v19) := fun v19 => decidable_of_iff' _ (Iff.of_eq (k11_chk3.eq_1 v19))
theorem k11_off6_inb : ∀ (v19 : BitVec 32) (k11_hw3 : k11_chk3 v19), ∀ a, (k11_off6 v19) a + S1x128.size a ≤ S100000x128.size a := fun v19 k11_hw3 => k11_hw3.1
theorem k11_off35_inb : ∀ (v19 : BitVec 32) (k11_hw3 : k11_chk3 v19), ∀ a, (k11_off35 v19) a + S1x128.size a ≤ S100000x128.size a := fun v19 k11_hw3 => k11_hw3.2

def k11_off36 (v27 : BitVec 32) : Fin 2 → Nat :=
  let c0_i32_63 : BitVec 32 := 0#32
  ![v27.toNat, 0]

def k11_chk4 (v27 : BitVec 32) : Prop :=
  (∀ a, (k11_off8 v27) a + S1x128.size a ≤ S100000x128.size a) ∧
  (∀ a, (k11_off36 v27) a + S1x128.size a ≤ S100000x128.size a)
instance k11_chk4.dec : ∀ (v27 : BitVec 32), Decidable (k11_chk4 v27) := fun v27 => decidable_of_iff' _ (Iff.of_eq (k11_chk4.eq_1 v27))
theorem k11_off8_inb : ∀ (v27 : BitVec 32) (k11_hw4 : k11_chk4 v27), ∀ a, (k11_off8 v27) a + S1x128.size a ≤ S100000x128.size a := fun v27 k11_hw4 => k11_hw4.1
theorem k11_off36_inb : ∀ (v27 : BitVec 32) (k11_hw4 : k11_chk4 v27), ∀ a, (k11_off36 v27) a + S1x128.size a ≤ S100000x128.size a := fun v27 k11_hw4 => k11_hw4.2

def k11_off37 (v35 : BitVec 32) : Fin 2 → Nat :=
  let c0_i32_67 : BitVec 32 := 0#32
  ![v35.toNat, 0]

def k11_chk5 (v35 : BitVec 32) : Prop :=
  (∀ a, (k11_off10 v35) a + S1x128.size a ≤ S100000x128.size a) ∧
  (∀ a, (k11_off37 v35) a + S1x128.size a ≤ S100000x128.size a)
instance k11_chk5.dec : ∀ (v35 : BitVec 32), Decidable (k11_chk5 v35) := fun v35 => decidable_of_iff' _ (Iff.of_eq (k11_chk5.eq_1 v35))
theorem k11_off10_inb : ∀ (v35 : BitVec 32) (k11_hw5 : k11_chk5 v35), ∀ a, (k11_off10 v35) a + S1x128.size a ≤ S100000x128.size a := fun v35 k11_hw5 => k11_hw5.1
theorem k11_off37_inb : ∀ (v35 : BitVec 32) (k11_hw5 : k11_chk5 v35), ∀ a, (k11_off37 v35) a + S1x128.size a ≤ S100000x128.size a := fun v35 k11_hw5 => k11_hw5.2

def k11_off38 (v43 : BitVec 32) : Fin 2 → Nat :=
  let c0_i32_71 : BitVec 32 := 0#32
  ![v43.toNat, 0]

def k11_chk6 (v43 : BitVec 32) : Prop :=
  (∀ a, (k11_off12 v43) a + S1x128.size a ≤ S100000x128.size a) ∧
  (∀ a, (k11_off38 v43) a + S1x128.size a ≤ S100000x128.size a)
instance k11_chk6.dec : ∀ (v43 : BitVec 32), Decidable (k11_chk6 v43) := fun v43 => decidable_of_iff' _ (Iff.of_eq (k11_chk6.eq_1 v43))
theorem k11_off12_inb : ∀ (v43 : BitVec 32) (k11_hw6 : k11_chk6 v43), ∀ a, (k11_off12 v43) a + S1x128.size a ≤ S100000x128.size a := fun v43 k11_hw6 => k11_hw6.1
theorem k11_off38_inb : ∀ (v43 : BitVec 32) (k11_hw6 : k11_chk6 v43), ∀ a, (k11_off38 v43) a + S1x128.size a ≤ S100000x128.size a := fun v43 k11_hw6 => k11_hw6.2

def k11_off39 (v51 : BitVec 32) : Fin 2 → Nat :=
  let c0_i32_75 : BitVec 32 := 0#32
  ![v51.toNat, 0]

def k11_chk7 (v51 : BitVec 32) : Prop :=
  (∀ a, (k11_off14 v51) a + S1x128.size a ≤ S100000x128.size a) ∧
  (∀ a, (k11_off39 v51) a + S1x128.size a ≤ S100000x128.size a)
instance k11_chk7.dec : ∀ (v51 : BitVec 32), Decidable (k11_chk7 v51) := fun v51 => decidable_of_iff' _ (Iff.of_eq (k11_chk7.eq_1 v51))
theorem k11_off14_inb : ∀ (v51 : BitVec 32) (k11_hw7 : k11_chk7 v51), ∀ a, (k11_off14 v51) a + S1x128.size a ≤ S100000x128.size a := fun v51 k11_hw7 => k11_hw7.1
theorem k11_off39_inb : ∀ (v51 : BitVec 32) (k11_hw7 : k11_chk7 v51), ∀ a, (k11_off39 v51) a + S1x128.size a ≤ S100000x128.size a := fun v51 k11_hw7 => k11_hw7.2

def k11_off40 (v59 : BitVec 32) : Fin 2 → Nat :=
  let c0_i32_79 : BitVec 32 := 0#32
  ![v59.toNat, 0]

def k11_chk8 (v59 : BitVec 32) : Prop :=
  (∀ a, (k11_off16 v59) a + S1x128.size a ≤ S100000x128.size a) ∧
  (∀ a, (k11_off40 v59) a + S1x128.size a ≤ S100000x128.size a)
instance k11_chk8.dec : ∀ (v59 : BitVec 32), Decidable (k11_chk8 v59) := fun v59 => decidable_of_iff' _ (Iff.of_eq (k11_chk8.eq_1 v59))
theorem k11_off16_inb : ∀ (v59 : BitVec 32) (k11_hw8 : k11_chk8 v59), ∀ a, (k11_off16 v59) a + S1x128.size a ≤ S100000x128.size a := fun v59 k11_hw8 => k11_hw8.1
theorem k11_off40_inb : ∀ (v59 : BitVec 32) (k11_hw8 : k11_chk8 v59), ∀ a, (k11_off40 v59) a + S1x128.size a ≤ S100000x128.size a := fun v59 k11_hw8 => k11_hw8.2

def k11_off41 (v67 : BitVec 32) : Fin 2 → Nat :=
  let c0_i32_83 : BitVec 32 := 0#32
  ![v67.toNat, 0]

def k11_chk9 (v67 : BitVec 32) : Prop :=
  (∀ a, (k11_off18 v67) a + S1x128.size a ≤ S100000x128.size a) ∧
  (∀ a, (k11_off41 v67) a + S1x128.size a ≤ S100000x128.size a)
instance k11_chk9.dec : ∀ (v67 : BitVec 32), Decidable (k11_chk9 v67) := fun v67 => decidable_of_iff' _ (Iff.of_eq (k11_chk9.eq_1 v67))
theorem k11_off18_inb : ∀ (v67 : BitVec 32) (k11_hw9 : k11_chk9 v67), ∀ a, (k11_off18 v67) a + S1x128.size a ≤ S100000x128.size a := fun v67 k11_hw9 => k11_hw9.1
theorem k11_off41_inb : ∀ (v67 : BitVec 32) (k11_hw9 : k11_chk9 v67), ∀ a, (k11_off41 v67) a + S1x128.size a ≤ S100000x128.size a := fun v67 k11_hw9 => k11_hw9.2

def k11_off42 (v75 : BitVec 32) : Fin 2 → Nat :=
  let c0_i32_87 : BitVec 32 := 0#32
  ![v75.toNat, 0]

def k11_chk10 (v75 : BitVec 32) : Prop :=
  (∀ a, (k11_off20 v75) a + S1x128.size a ≤ S100000x128.size a) ∧
  (∀ a, (k11_off42 v75) a + S1x128.size a ≤ S100000x128.size a)
instance k11_chk10.dec : ∀ (v75 : BitVec 32), Decidable (k11_chk10 v75) := fun v75 => decidable_of_iff' _ (Iff.of_eq (k11_chk10.eq_1 v75))
theorem k11_off20_inb : ∀ (v75 : BitVec 32) (k11_hw10 : k11_chk10 v75), ∀ a, (k11_off20 v75) a + S1x128.size a ≤ S100000x128.size a := fun v75 k11_hw10 => k11_hw10.1
theorem k11_off42_inb : ∀ (v75 : BitVec 32) (k11_hw10 : k11_chk10 v75), ∀ a, (k11_off42 v75) a + S1x128.size a ≤ S100000x128.size a := fun v75 k11_hw10 => k11_hw10.2

def k11_off43 (v83 : BitVec 32) : Fin 2 → Nat :=
  let c0_i32_91 : BitVec 32 := 0#32
  ![v83.toNat, 0]

def k11_chk11 (v83 : BitVec 32) : Prop :=
  (∀ a, (k11_off22 v83) a + S1x128.size a ≤ S100000x128.size a) ∧
  (∀ a, (k11_off43 v83) a + S1x128.size a ≤ S100000x128.size a)
instance k11_chk11.dec : ∀ (v83 : BitVec 32), Decidable (k11_chk11 v83) := fun v83 => decidable_of_iff' _ (Iff.of_eq (k11_chk11.eq_1 v83))
theorem k11_off22_inb : ∀ (v83 : BitVec 32) (k11_hw11 : k11_chk11 v83), ∀ a, (k11_off22 v83) a + S1x128.size a ≤ S100000x128.size a := fun v83 k11_hw11 => k11_hw11.1
theorem k11_off43_inb : ∀ (v83 : BitVec 32) (k11_hw11 : k11_chk11 v83), ∀ a, (k11_off43 v83) a + S1x128.size a ≤ S100000x128.size a := fun v83 k11_hw11 => k11_hw11.2

def k11_off44 (v91 : BitVec 32) : Fin 2 → Nat :=
  let c0_i32_95 : BitVec 32 := 0#32
  ![v91.toNat, 0]

def k11_chk12 (v91 : BitVec 32) : Prop :=
  (∀ a, (k11_off24 v91) a + S1x128.size a ≤ S100000x128.size a) ∧
  (∀ a, (k11_off44 v91) a + S1x128.size a ≤ S100000x128.size a)
instance k11_chk12.dec : ∀ (v91 : BitVec 32), Decidable (k11_chk12 v91) := fun v91 => decidable_of_iff' _ (Iff.of_eq (k11_chk12.eq_1 v91))
theorem k11_off24_inb : ∀ (v91 : BitVec 32) (k11_hw12 : k11_chk12 v91), ∀ a, (k11_off24 v91) a + S1x128.size a ≤ S100000x128.size a := fun v91 k11_hw12 => k11_hw12.1
theorem k11_off44_inb : ∀ (v91 : BitVec 32) (k11_hw12 : k11_chk12 v91), ∀ a, (k11_off44 v91) a + S1x128.size a ≤ S100000x128.size a := fun v91 k11_hw12 => k11_hw12.2

def k11_off45 (v99 : BitVec 32) : Fin 2 → Nat :=
  let c0_i32_99 : BitVec 32 := 0#32
  ![v99.toNat, 0]

def k11_chk13 (v99 : BitVec 32) : Prop :=
  (∀ a, (k11_off26 v99) a + S1x128.size a ≤ S100000x128.size a) ∧
  (∀ a, (k11_off45 v99) a + S1x128.size a ≤ S100000x128.size a)
instance k11_chk13.dec : ∀ (v99 : BitVec 32), Decidable (k11_chk13 v99) := fun v99 => decidable_of_iff' _ (Iff.of_eq (k11_chk13.eq_1 v99))
theorem k11_off26_inb : ∀ (v99 : BitVec 32) (k11_hw13 : k11_chk13 v99), ∀ a, (k11_off26 v99) a + S1x128.size a ≤ S100000x128.size a := fun v99 k11_hw13 => k11_hw13.1
theorem k11_off45_inb : ∀ (v99 : BitVec 32) (k11_hw13 : k11_chk13 v99), ∀ a, (k11_off45 v99) a + S1x128.size a ≤ S100000x128.size a := fun v99 k11_hw13 => k11_hw13.2

def k11_off46 (v107 : BitVec 32) : Fin 2 → Nat :=
  let c0_i32_103 : BitVec 32 := 0#32
  ![v107.toNat, 0]

def k11_chk14 (v107 : BitVec 32) : Prop :=
  (∀ a, (k11_off28 v107) a + S1x128.size a ≤ S100000x128.size a) ∧
  (∀ a, (k11_off46 v107) a + S1x128.size a ≤ S100000x128.size a)
instance k11_chk14.dec : ∀ (v107 : BitVec 32), Decidable (k11_chk14 v107) := fun v107 => decidable_of_iff' _ (Iff.of_eq (k11_chk14.eq_1 v107))
theorem k11_off28_inb : ∀ (v107 : BitVec 32) (k11_hw14 : k11_chk14 v107), ∀ a, (k11_off28 v107) a + S1x128.size a ≤ S100000x128.size a := fun v107 k11_hw14 => k11_hw14.1
theorem k11_off46_inb : ∀ (v107 : BitVec 32) (k11_hw14 : k11_chk14 v107), ∀ a, (k11_off46 v107) a + S1x128.size a ≤ S100000x128.size a := fun v107 k11_hw14 => k11_hw14.2

def k11_off47 (v115 : BitVec 32) : Fin 2 → Nat :=
  let c0_i32_107 : BitVec 32 := 0#32
  ![v115.toNat, 0]

def k11_chk15 (v115 : BitVec 32) : Prop :=
  (∀ a, (k11_off30 v115) a + S1x128.size a ≤ S100000x128.size a) ∧
  (∀ a, (k11_off47 v115) a + S1x128.size a ≤ S100000x128.size a)
instance k11_chk15.dec : ∀ (v115 : BitVec 32), Decidable (k11_chk15 v115) := fun v115 => decidable_of_iff' _ (Iff.of_eq (k11_chk15.eq_1 v115))
theorem k11_off30_inb : ∀ (v115 : BitVec 32) (k11_hw15 : k11_chk15 v115), ∀ a, (k11_off30 v115) a + S1x128.size a ≤ S100000x128.size a := fun v115 k11_hw15 => k11_hw15.1
theorem k11_off47_inb : ∀ (v115 : BitVec 32) (k11_hw15 : k11_chk15 v115), ∀ a, (k11_off47 v115) a + S1x128.size a ≤ S100000x128.size a := fun v115 k11_hw15 => k11_hw15.2

def k11_off48 (i : grid11.Coords) : Fin 2 → Nat :=
  let arg1 : BitVec 32 := BitVec.ofNat 32 (i 1).val
  let v230 : Index := Scalar.indexCast arg1
  let c0_115 : Index := 0#32
  ![v230.toNat, 0]
def k11_cond1 (i : grid11.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 1 → Memref sig .tc .vmem S128x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false, false]

abbrev stage11_1 : Fin 2 → Memref sig .tc .vmem S1000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev grid12 : Pipeline.Grid := ⟨2, ![2, 1000], ![false, false]⟩

abbrev pre12 : Pipeline.Prefetch sig := ⟨1, ![main_v25.idx], fun | 0 => main_v25.names | ⟨_ + 1, h⟩ => absurd h (Nat.not_lt.2 (Nat.le_add_left _ _)), fun | 0 => rfl | ⟨_ + 1, h⟩ => absurd h (Nat.not_lt.2 (Nat.le_add_left _ _))⟩

def k12_off1 (i : grid12.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k12_off2 (v3 : BitVec 32) : Fin 2 → Nat :=
  let c0_i32_2 : BitVec 32 := 0#32
  ![v3.toNat, 0]

def k12_off3 (i : grid12.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k12_off4 (v11 : BitVec 32) : Fin 2 → Nat :=
  let c0_i32_5 : BitVec 32 := 0#32
  ![v11.toNat, 0]

def k12_off5 (i : grid12.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k12_off6 (v19 : BitVec 32) : Fin 2 → Nat :=
  let c0_i32_8 : BitVec 32 := 0#32
  ![v19.toNat, 0]

def k12_off7 (i : grid12.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k12_off8 (v27 : BitVec 32) : Fin 2 → Nat :=
  let c0_i32_11 : BitVec 32 := 0#32
  ![v27.toNat, 0]

def k12_off9 (i : grid12.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k12_off10 (v35 : BitVec 32) : Fin 2 → Nat :=
  let c0_i32_14 : BitVec 32 := 0#32
  ![v35.toNat, 0]

def k12_off11 (i : grid12.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k12_off12 (v43 : BitVec 32) : Fin 2 → Nat :=
  let c0_i32_17 : BitVec 32 := 0#32
  ![v43.toNat, 0]

def k12_off13 (i : grid12.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k12_off14 (v51 : BitVec 32) : Fin 2 → Nat :=
  let c0_i32_20 : BitVec 32 := 0#32
  ![v51.toNat, 0]

def k12_off15 (i : grid12.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k12_off16 (v59 : BitVec 32) : Fin 2 → Nat :=
  let c0_i32_23 : BitVec 32 := 0#32
  ![v59.toNat, 0]

def k12_off17 (i : grid12.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k12_off18 (v67 : BitVec 32) : Fin 2 → Nat :=
  let c0_i32_26 : BitVec 32 := 0#32
  ![v67.toNat, 0]

def k12_off19 (i : grid12.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k12_off20 (v75 : BitVec 32) : Fin 2 → Nat :=
  let c0_i32_29 : BitVec 32 := 0#32
  ![v75.toNat, 0]

def k12_off21 (i : grid12.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k12_off22 (v83 : BitVec 32) : Fin 2 → Nat :=
  let c0_i32_32 : BitVec 32 := 0#32
  ![v83.toNat, 0]

def k12_off23 (i : grid12.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k12_off24 (v91 : BitVec 32) : Fin 2 → Nat :=
  let c0_i32_35 : BitVec 32 := 0#32
  ![v91.toNat, 0]

def k12_off25 (i : grid12.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k12_off26 (v99 : BitVec 32) : Fin 2 → Nat :=
  let c0_i32_38 : BitVec 32 := 0#32
  ![v99.toNat, 0]

def k12_off27 (i : grid12.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k12_off28 (v107 : BitVec 32) : Fin 2 → Nat :=
  let c0_i32_41 : BitVec 32 := 0#32
  ![v107.toNat, 0]

def k12_off29 (i : grid12.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k12_off30 (v115 : BitVec 32) : Fin 2 → Nat :=
  let c0_i32_44 : BitVec 32 := 0#32
  ![v115.toNat, 0]

def k12_off31 (i : grid12.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k12_off32 (v123 : BitVec 32) : Fin 2 → Nat :=
  let c0_i32_47 : BitVec 32 := 0#32
  ![v123.toNat, 0]

def k12_chk16 (v123 : BitVec 32) : Prop :=
  (∀ a, (k12_off32 v123) a + S1x128.size a ≤ S100000x128.size a)
instance k12_chk16.dec : ∀ (v123 : BitVec 32), Decidable (k12_chk16 v123) := fun v123 => decidable_of_iff' _ (Iff.of_eq (k12_chk16.eq_1 v123))
theorem k12_off32_inb : ∀ (v123 : BitVec 32) (k12_hw16 : k12_chk16 v123), ∀ a, (k12_off32 v123) a + S1x128.size a ≤ S100000x128.size a := fun v123 k12_hw16 => k12_hw16

def k12_off33 (v3 : BitVec 32) : Fin 2 → Nat :=
  let c0_i32_51 : BitVec 32 := 0#32
  ![v3.toNat, 0]

def k12_chk1 (v3 : BitVec 32) : Prop :=
  (∀ a, (k12_off2 v3) a + S1x128.size a ≤ S100000x128.size a) ∧
  (∀ a, (k12_off33 v3) a + S1x128.size a ≤ S100000x128.size a)
instance k12_chk1.dec : ∀ (v3 : BitVec 32), Decidable (k12_chk1 v3) := fun v3 => decidable_of_iff' _ (Iff.of_eq (k12_chk1.eq_1 v3))
theorem k12_off2_inb : ∀ (v3 : BitVec 32) (k12_hw1 : k12_chk1 v3), ∀ a, (k12_off2 v3) a + S1x128.size a ≤ S100000x128.size a := fun v3 k12_hw1 => k12_hw1.1
theorem k12_off33_inb : ∀ (v3 : BitVec 32) (k12_hw1 : k12_chk1 v3), ∀ a, (k12_off33 v3) a + S1x128.size a ≤ S100000x128.size a := fun v3 k12_hw1 => k12_hw1.2

def k12_off34 (v11 : BitVec 32) : Fin 2 → Nat :=
  let c0_i32_55 : BitVec 32 := 0#32
  ![v11.toNat, 0]

def k12_chk2 (v11 : BitVec 32) : Prop :=
  (∀ a, (k12_off4 v11) a + S1x128.size a ≤ S100000x128.size a) ∧
  (∀ a, (k12_off34 v11) a + S1x128.size a ≤ S100000x128.size a)
instance k12_chk2.dec : ∀ (v11 : BitVec 32), Decidable (k12_chk2 v11) := fun v11 => decidable_of_iff' _ (Iff.of_eq (k12_chk2.eq_1 v11))
theorem k12_off4_inb : ∀ (v11 : BitVec 32) (k12_hw2 : k12_chk2 v11), ∀ a, (k12_off4 v11) a + S1x128.size a ≤ S100000x128.size a := fun v11 k12_hw2 => k12_hw2.1
theorem k12_off34_inb : ∀ (v11 : BitVec 32) (k12_hw2 : k12_chk2 v11), ∀ a, (k12_off34 v11) a + S1x128.size a ≤ S100000x128.size a := fun v11 k12_hw2 => k12_hw2.2

def k12_off35 (v19 : BitVec 32) : Fin 2 → Nat :=
  let c0_i32_59 : BitVec 32 := 0#32
  ![v19.toNat, 0]

def k12_chk3 (v19 : BitVec 32) : Prop :=
  (∀ a, (k12_off6 v19) a + S1x128.size a ≤ S100000x128.size a) ∧
  (∀ a, (k12_off35 v19) a + S1x128.size a ≤ S100000x128.size a)
instance k12_chk3.dec : ∀ (v19 : BitVec 32), Decidable (k12_chk3 v19) := fun v19 => decidable_of_iff' _ (Iff.of_eq (k12_chk3.eq_1 v19))
theorem k12_off6_inb : ∀ (v19 : BitVec 32) (k12_hw3 : k12_chk3 v19), ∀ a, (k12_off6 v19) a + S1x128.size a ≤ S100000x128.size a := fun v19 k12_hw3 => k12_hw3.1
theorem k12_off35_inb : ∀ (v19 : BitVec 32) (k12_hw3 : k12_chk3 v19), ∀ a, (k12_off35 v19) a + S1x128.size a ≤ S100000x128.size a := fun v19 k12_hw3 => k12_hw3.2

def k12_off36 (v27 : BitVec 32) : Fin 2 → Nat :=
  let c0_i32_63 : BitVec 32 := 0#32
  ![v27.toNat, 0]

def k12_chk4 (v27 : BitVec 32) : Prop :=
  (∀ a, (k12_off8 v27) a + S1x128.size a ≤ S100000x128.size a) ∧
  (∀ a, (k12_off36 v27) a + S1x128.size a ≤ S100000x128.size a)
instance k12_chk4.dec : ∀ (v27 : BitVec 32), Decidable (k12_chk4 v27) := fun v27 => decidable_of_iff' _ (Iff.of_eq (k12_chk4.eq_1 v27))
theorem k12_off8_inb : ∀ (v27 : BitVec 32) (k12_hw4 : k12_chk4 v27), ∀ a, (k12_off8 v27) a + S1x128.size a ≤ S100000x128.size a := fun v27 k12_hw4 => k12_hw4.1
theorem k12_off36_inb : ∀ (v27 : BitVec 32) (k12_hw4 : k12_chk4 v27), ∀ a, (k12_off36 v27) a + S1x128.size a ≤ S100000x128.size a := fun v27 k12_hw4 => k12_hw4.2

def k12_off37 (v35 : BitVec 32) : Fin 2 → Nat :=
  let c0_i32_67 : BitVec 32 := 0#32
  ![v35.toNat, 0]

def k12_chk5 (v35 : BitVec 32) : Prop :=
  (∀ a, (k12_off10 v35) a + S1x128.size a ≤ S100000x128.size a) ∧
  (∀ a, (k12_off37 v35) a + S1x128.size a ≤ S100000x128.size a)
instance k12_chk5.dec : ∀ (v35 : BitVec 32), Decidable (k12_chk5 v35) := fun v35 => decidable_of_iff' _ (Iff.of_eq (k12_chk5.eq_1 v35))
theorem k12_off10_inb : ∀ (v35 : BitVec 32) (k12_hw5 : k12_chk5 v35), ∀ a, (k12_off10 v35) a + S1x128.size a ≤ S100000x128.size a := fun v35 k12_hw5 => k12_hw5.1
theorem k12_off37_inb : ∀ (v35 : BitVec 32) (k12_hw5 : k12_chk5 v35), ∀ a, (k12_off37 v35) a + S1x128.size a ≤ S100000x128.size a := fun v35 k12_hw5 => k12_hw5.2

def k12_off38 (v43 : BitVec 32) : Fin 2 → Nat :=
  let c0_i32_71 : BitVec 32 := 0#32
  ![v43.toNat, 0]

def k12_chk6 (v43 : BitVec 32) : Prop :=
  (∀ a, (k12_off12 v43) a + S1x128.size a ≤ S100000x128.size a) ∧
  (∀ a, (k12_off38 v43) a + S1x128.size a ≤ S100000x128.size a)
instance k12_chk6.dec : ∀ (v43 : BitVec 32), Decidable (k12_chk6 v43) := fun v43 => decidable_of_iff' _ (Iff.of_eq (k12_chk6.eq_1 v43))
theorem k12_off12_inb : ∀ (v43 : BitVec 32) (k12_hw6 : k12_chk6 v43), ∀ a, (k12_off12 v43) a + S1x128.size a ≤ S100000x128.size a := fun v43 k12_hw6 => k12_hw6.1
theorem k12_off38_inb : ∀ (v43 : BitVec 32) (k12_hw6 : k12_chk6 v43), ∀ a, (k12_off38 v43) a + S1x128.size a ≤ S100000x128.size a := fun v43 k12_hw6 => k12_hw6.2

def k12_off39 (v51 : BitVec 32) : Fin 2 → Nat :=
  let c0_i32_75 : BitVec 32 := 0#32
  ![v51.toNat, 0]

def k12_chk7 (v51 : BitVec 32) : Prop :=
  (∀ a, (k12_off14 v51) a + S1x128.size a ≤ S100000x128.size a) ∧
  (∀ a, (k12_off39 v51) a + S1x128.size a ≤ S100000x128.size a)
instance k12_chk7.dec : ∀ (v51 : BitVec 32), Decidable (k12_chk7 v51) := fun v51 => decidable_of_iff' _ (Iff.of_eq (k12_chk7.eq_1 v51))
theorem k12_off14_inb : ∀ (v51 : BitVec 32) (k12_hw7 : k12_chk7 v51), ∀ a, (k12_off14 v51) a + S1x128.size a ≤ S100000x128.size a := fun v51 k12_hw7 => k12_hw7.1
theorem k12_off39_inb : ∀ (v51 : BitVec 32) (k12_hw7 : k12_chk7 v51), ∀ a, (k12_off39 v51) a + S1x128.size a ≤ S100000x128.size a := fun v51 k12_hw7 => k12_hw7.2

def k12_off40 (v59 : BitVec 32) : Fin 2 → Nat :=
  let c0_i32_79 : BitVec 32 := 0#32
  ![v59.toNat, 0]

def k12_chk8 (v59 : BitVec 32) : Prop :=
  (∀ a, (k12_off16 v59) a + S1x128.size a ≤ S100000x128.size a) ∧
  (∀ a, (k12_off40 v59) a + S1x128.size a ≤ S100000x128.size a)
instance k12_chk8.dec : ∀ (v59 : BitVec 32), Decidable (k12_chk8 v59) := fun v59 => decidable_of_iff' _ (Iff.of_eq (k12_chk8.eq_1 v59))
theorem k12_off16_inb : ∀ (v59 : BitVec 32) (k12_hw8 : k12_chk8 v59), ∀ a, (k12_off16 v59) a + S1x128.size a ≤ S100000x128.size a := fun v59 k12_hw8 => k12_hw8.1
theorem k12_off40_inb : ∀ (v59 : BitVec 32) (k12_hw8 : k12_chk8 v59), ∀ a, (k12_off40 v59) a + S1x128.size a ≤ S100000x128.size a := fun v59 k12_hw8 => k12_hw8.2

def k12_off41 (v67 : BitVec 32) : Fin 2 → Nat :=
  let c0_i32_83 : BitVec 32 := 0#32
  ![v67.toNat, 0]

def k12_chk9 (v67 : BitVec 32) : Prop :=
  (∀ a, (k12_off18 v67) a + S1x128.size a ≤ S100000x128.size a) ∧
  (∀ a, (k12_off41 v67) a + S1x128.size a ≤ S100000x128.size a)
instance k12_chk9.dec : ∀ (v67 : BitVec 32), Decidable (k12_chk9 v67) := fun v67 => decidable_of_iff' _ (Iff.of_eq (k12_chk9.eq_1 v67))
theorem k12_off18_inb : ∀ (v67 : BitVec 32) (k12_hw9 : k12_chk9 v67), ∀ a, (k12_off18 v67) a + S1x128.size a ≤ S100000x128.size a := fun v67 k12_hw9 => k12_hw9.1
theorem k12_off41_inb : ∀ (v67 : BitVec 32) (k12_hw9 : k12_chk9 v67), ∀ a, (k12_off41 v67) a + S1x128.size a ≤ S100000x128.size a := fun v67 k12_hw9 => k12_hw9.2

def k12_off42 (v75 : BitVec 32) : Fin 2 → Nat :=
  let c0_i32_87 : BitVec 32 := 0#32
  ![v75.toNat, 0]

def k12_chk10 (v75 : BitVec 32) : Prop :=
  (∀ a, (k12_off20 v75) a + S1x128.size a ≤ S100000x128.size a) ∧
  (∀ a, (k12_off42 v75) a + S1x128.size a ≤ S100000x128.size a)
instance k12_chk10.dec : ∀ (v75 : BitVec 32), Decidable (k12_chk10 v75) := fun v75 => decidable_of_iff' _ (Iff.of_eq (k12_chk10.eq_1 v75))
theorem k12_off20_inb : ∀ (v75 : BitVec 32) (k12_hw10 : k12_chk10 v75), ∀ a, (k12_off20 v75) a + S1x128.size a ≤ S100000x128.size a := fun v75 k12_hw10 => k12_hw10.1
theorem k12_off42_inb : ∀ (v75 : BitVec 32) (k12_hw10 : k12_chk10 v75), ∀ a, (k12_off42 v75) a + S1x128.size a ≤ S100000x128.size a := fun v75 k12_hw10 => k12_hw10.2

def k12_off43 (v83 : BitVec 32) : Fin 2 → Nat :=
  let c0_i32_91 : BitVec 32 := 0#32
  ![v83.toNat, 0]

def k12_chk11 (v83 : BitVec 32) : Prop :=
  (∀ a, (k12_off22 v83) a + S1x128.size a ≤ S100000x128.size a) ∧
  (∀ a, (k12_off43 v83) a + S1x128.size a ≤ S100000x128.size a)
instance k12_chk11.dec : ∀ (v83 : BitVec 32), Decidable (k12_chk11 v83) := fun v83 => decidable_of_iff' _ (Iff.of_eq (k12_chk11.eq_1 v83))
theorem k12_off22_inb : ∀ (v83 : BitVec 32) (k12_hw11 : k12_chk11 v83), ∀ a, (k12_off22 v83) a + S1x128.size a ≤ S100000x128.size a := fun v83 k12_hw11 => k12_hw11.1
theorem k12_off43_inb : ∀ (v83 : BitVec 32) (k12_hw11 : k12_chk11 v83), ∀ a, (k12_off43 v83) a + S1x128.size a ≤ S100000x128.size a := fun v83 k12_hw11 => k12_hw11.2

def k12_off44 (v91 : BitVec 32) : Fin 2 → Nat :=
  let c0_i32_95 : BitVec 32 := 0#32
  ![v91.toNat, 0]

def k12_chk12 (v91 : BitVec 32) : Prop :=
  (∀ a, (k12_off24 v91) a + S1x128.size a ≤ S100000x128.size a) ∧
  (∀ a, (k12_off44 v91) a + S1x128.size a ≤ S100000x128.size a)
instance k12_chk12.dec : ∀ (v91 : BitVec 32), Decidable (k12_chk12 v91) := fun v91 => decidable_of_iff' _ (Iff.of_eq (k12_chk12.eq_1 v91))
theorem k12_off24_inb : ∀ (v91 : BitVec 32) (k12_hw12 : k12_chk12 v91), ∀ a, (k12_off24 v91) a + S1x128.size a ≤ S100000x128.size a := fun v91 k12_hw12 => k12_hw12.1
theorem k12_off44_inb : ∀ (v91 : BitVec 32) (k12_hw12 : k12_chk12 v91), ∀ a, (k12_off44 v91) a + S1x128.size a ≤ S100000x128.size a := fun v91 k12_hw12 => k12_hw12.2

def k12_off45 (v99 : BitVec 32) : Fin 2 → Nat :=
  let c0_i32_99 : BitVec 32 := 0#32
  ![v99.toNat, 0]

def k12_chk13 (v99 : BitVec 32) : Prop :=
  (∀ a, (k12_off26 v99) a + S1x128.size a ≤ S100000x128.size a) ∧
  (∀ a, (k12_off45 v99) a + S1x128.size a ≤ S100000x128.size a)
instance k12_chk13.dec : ∀ (v99 : BitVec 32), Decidable (k12_chk13 v99) := fun v99 => decidable_of_iff' _ (Iff.of_eq (k12_chk13.eq_1 v99))
theorem k12_off26_inb : ∀ (v99 : BitVec 32) (k12_hw13 : k12_chk13 v99), ∀ a, (k12_off26 v99) a + S1x128.size a ≤ S100000x128.size a := fun v99 k12_hw13 => k12_hw13.1
theorem k12_off45_inb : ∀ (v99 : BitVec 32) (k12_hw13 : k12_chk13 v99), ∀ a, (k12_off45 v99) a + S1x128.size a ≤ S100000x128.size a := fun v99 k12_hw13 => k12_hw13.2

def k12_off46 (v107 : BitVec 32) : Fin 2 → Nat :=
  let c0_i32_103 : BitVec 32 := 0#32
  ![v107.toNat, 0]

def k12_chk14 (v107 : BitVec 32) : Prop :=
  (∀ a, (k12_off28 v107) a + S1x128.size a ≤ S100000x128.size a) ∧
  (∀ a, (k12_off46 v107) a + S1x128.size a ≤ S100000x128.size a)
instance k12_chk14.dec : ∀ (v107 : BitVec 32), Decidable (k12_chk14 v107) := fun v107 => decidable_of_iff' _ (Iff.of_eq (k12_chk14.eq_1 v107))
theorem k12_off28_inb : ∀ (v107 : BitVec 32) (k12_hw14 : k12_chk14 v107), ∀ a, (k12_off28 v107) a + S1x128.size a ≤ S100000x128.size a := fun v107 k12_hw14 => k12_hw14.1
theorem k12_off46_inb : ∀ (v107 : BitVec 32) (k12_hw14 : k12_chk14 v107), ∀ a, (k12_off46 v107) a + S1x128.size a ≤ S100000x128.size a := fun v107 k12_hw14 => k12_hw14.2

def k12_off47 (v115 : BitVec 32) : Fin 2 → Nat :=
  let c0_i32_107 : BitVec 32 := 0#32
  ![v115.toNat, 0]

def k12_chk15 (v115 : BitVec 32) : Prop :=
  (∀ a, (k12_off30 v115) a + S1x128.size a ≤ S100000x128.size a) ∧
  (∀ a, (k12_off47 v115) a + S1x128.size a ≤ S100000x128.size a)
instance k12_chk15.dec : ∀ (v115 : BitVec 32), Decidable (k12_chk15 v115) := fun v115 => decidable_of_iff' _ (Iff.of_eq (k12_chk15.eq_1 v115))
theorem k12_off30_inb : ∀ (v115 : BitVec 32) (k12_hw15 : k12_chk15 v115), ∀ a, (k12_off30 v115) a + S1x128.size a ≤ S100000x128.size a := fun v115 k12_hw15 => k12_hw15.1
theorem k12_off47_inb : ∀ (v115 : BitVec 32) (k12_hw15 : k12_chk15 v115), ∀ a, (k12_off47 v115) a + S1x128.size a ≤ S100000x128.size a := fun v115 k12_hw15 => k12_hw15.2

def k12_off48 (i : grid12.Coords) : Fin 2 → Nat :=
  let arg1 : BitVec 32 := BitVec.ofNat 32 (i 1).val
  let v230 : Index := Scalar.indexCast arg1
  let c0_115 : Index := 0#32
  ![v230.toNat, 0]
def k12_cond1 (i : grid12.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 1 → Memref sig .tc .vmem S128x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false, false]

abbrev stage12_1 : Fin 2 → Memref sig .tc .vmem S1000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, false]

abbrev grid13 : Pipeline.Grid := ⟨2, ![2, 1000], ![false, false]⟩

abbrev pre13 : Pipeline.Prefetch sig := ⟨1, ![main_v27.idx], fun | 0 => main_v27.names | ⟨_ + 1, h⟩ => absurd h (Nat.not_lt.2 (Nat.le_add_left _ _)), fun | 0 => rfl | ⟨_ + 1, h⟩ => absurd h (Nat.not_lt.2 (Nat.le_add_left _ _))⟩

def k13_off1 (i : grid13.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k13_off2 (v3 : BitVec 32) : Fin 2 → Nat :=
  let c0_i32_2 : BitVec 32 := 0#32
  ![v3.toNat, 0]

def k13_off3 (i : grid13.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k13_off4 (v11 : BitVec 32) : Fin 2 → Nat :=
  let c0_i32_5 : BitVec 32 := 0#32
  ![v11.toNat, 0]

def k13_off5 (i : grid13.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k13_off6 (v19 : BitVec 32) : Fin 2 → Nat :=
  let c0_i32_8 : BitVec 32 := 0#32
  ![v19.toNat, 0]

def k13_off7 (i : grid13.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k13_off8 (v27 : BitVec 32) : Fin 2 → Nat :=
  let c0_i32_11 : BitVec 32 := 0#32
  ![v27.toNat, 0]

def k13_off9 (i : grid13.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k13_off10 (v35 : BitVec 32) : Fin 2 → Nat :=
  let c0_i32_14 : BitVec 32 := 0#32
  ![v35.toNat, 0]

def k13_off11 (i : grid13.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k13_off12 (v43 : BitVec 32) : Fin 2 → Nat :=
  let c0_i32_17 : BitVec 32 := 0#32
  ![v43.toNat, 0]

def k13_off13 (i : grid13.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k13_off14 (v51 : BitVec 32) : Fin 2 → Nat :=
  let c0_i32_20 : BitVec 32 := 0#32
  ![v51.toNat, 0]

def k13_off15 (i : grid13.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k13_off16 (v59 : BitVec 32) : Fin 2 → Nat :=
  let c0_i32_23 : BitVec 32 := 0#32
  ![v59.toNat, 0]

def k13_off17 (i : grid13.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k13_off18 (v67 : BitVec 32) : Fin 2 → Nat :=
  let c0_i32_26 : BitVec 32 := 0#32
  ![v67.toNat, 0]

def k13_off19 (i : grid13.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k13_off20 (v75 : BitVec 32) : Fin 2 → Nat :=
  let c0_i32_29 : BitVec 32 := 0#32
  ![v75.toNat, 0]

def k13_off21 (i : grid13.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k13_off22 (v83 : BitVec 32) : Fin 2 → Nat :=
  let c0_i32_32 : BitVec 32 := 0#32
  ![v83.toNat, 0]

def k13_off23 (i : grid13.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k13_off24 (v91 : BitVec 32) : Fin 2 → Nat :=
  let c0_i32_35 : BitVec 32 := 0#32
  ![v91.toNat, 0]

def k13_off25 (i : grid13.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k13_off26 (v99 : BitVec 32) : Fin 2 → Nat :=
  let c0_i32_38 : BitVec 32 := 0#32
  ![v99.toNat, 0]

def k13_off27 (i : grid13.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k13_off28 (v107 : BitVec 32) : Fin 2 → Nat :=
  let c0_i32_41 : BitVec 32 := 0#32
  ![v107.toNat, 0]

def k13_off29 (i : grid13.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k13_off30 (v115 : BitVec 32) : Fin 2 → Nat :=
  let c0_i32_44 : BitVec 32 := 0#32
  ![v115.toNat, 0]

def k13_off31 (i : grid13.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k13_off32 (v123 : BitVec 32) : Fin 2 → Nat :=
  let c0_i32_47 : BitVec 32 := 0#32
  ![v123.toNat, 0]

def k13_chk16 (v123 : BitVec 32) : Prop :=
  (∀ a, (k13_off32 v123) a + S1x128.size a ≤ S100000x128.size a)
instance k13_chk16.dec : ∀ (v123 : BitVec 32), Decidable (k13_chk16 v123) := fun v123 => decidable_of_iff' _ (Iff.of_eq (k13_chk16.eq_1 v123))
theorem k13_off32_inb : ∀ (v123 : BitVec 32) (k13_hw16 : k13_chk16 v123), ∀ a, (k13_off32 v123) a + S1x128.size a ≤ S100000x128.size a := fun v123 k13_hw16 => k13_hw16

def k13_off33 (v3 : BitVec 32) : Fin 2 → Nat :=
  let c0_i32_51 : BitVec 32 := 0#32
  ![v3.toNat, 0]

def k13_chk1 (v3 : BitVec 32) : Prop :=
  (∀ a, (k13_off2 v3) a + S1x128.size a ≤ S100000x128.size a) ∧
  (∀ a, (k13_off33 v3) a + S1x128.size a ≤ S100000x128.size a)
instance k13_chk1.dec : ∀ (v3 : BitVec 32), Decidable (k13_chk1 v3) := fun v3 => decidable_of_iff' _ (Iff.of_eq (k13_chk1.eq_1 v3))
theorem k13_off2_inb : ∀ (v3 : BitVec 32) (k13_hw1 : k13_chk1 v3), ∀ a, (k13_off2 v3) a + S1x128.size a ≤ S100000x128.size a := fun v3 k13_hw1 => k13_hw1.1
theorem k13_off33_inb : ∀ (v3 : BitVec 32) (k13_hw1 : k13_chk1 v3), ∀ a, (k13_off33 v3) a + S1x128.size a ≤ S100000x128.size a := fun v3 k13_hw1 => k13_hw1.2

def k13_off34 (v11 : BitVec 32) : Fin 2 → Nat :=
  let c0_i32_55 : BitVec 32 := 0#32
  ![v11.toNat, 0]

def k13_chk2 (v11 : BitVec 32) : Prop :=
  (∀ a, (k13_off4 v11) a + S1x128.size a ≤ S100000x128.size a) ∧
  (∀ a, (k13_off34 v11) a + S1x128.size a ≤ S100000x128.size a)
instance k13_chk2.dec : ∀ (v11 : BitVec 32), Decidable (k13_chk2 v11) := fun v11 => decidable_of_iff' _ (Iff.of_eq (k13_chk2.eq_1 v11))
theorem k13_off4_inb : ∀ (v11 : BitVec 32) (k13_hw2 : k13_chk2 v11), ∀ a, (k13_off4 v11) a + S1x128.size a ≤ S100000x128.size a := fun v11 k13_hw2 => k13_hw2.1
theorem k13_off34_inb : ∀ (v11 : BitVec 32) (k13_hw2 : k13_chk2 v11), ∀ a, (k13_off34 v11) a + S1x128.size a ≤ S100000x128.size a := fun v11 k13_hw2 => k13_hw2.2

def k13_off35 (v19 : BitVec 32) : Fin 2 → Nat :=
  let c0_i32_59 : BitVec 32 := 0#32
  ![v19.toNat, 0]

def k13_chk3 (v19 : BitVec 32) : Prop :=
  (∀ a, (k13_off6 v19) a + S1x128.size a ≤ S100000x128.size a) ∧
  (∀ a, (k13_off35 v19) a + S1x128.size a ≤ S100000x128.size a)
instance k13_chk3.dec : ∀ (v19 : BitVec 32), Decidable (k13_chk3 v19) := fun v19 => decidable_of_iff' _ (Iff.of_eq (k13_chk3.eq_1 v19))
theorem k13_off6_inb : ∀ (v19 : BitVec 32) (k13_hw3 : k13_chk3 v19), ∀ a, (k13_off6 v19) a + S1x128.size a ≤ S100000x128.size a := fun v19 k13_hw3 => k13_hw3.1
theorem k13_off35_inb : ∀ (v19 : BitVec 32) (k13_hw3 : k13_chk3 v19), ∀ a, (k13_off35 v19) a + S1x128.size a ≤ S100000x128.size a := fun v19 k13_hw3 => k13_hw3.2

def k13_off36 (v27 : BitVec 32) : Fin 2 → Nat :=
  let c0_i32_63 : BitVec 32 := 0#32
  ![v27.toNat, 0]

def k13_chk4 (v27 : BitVec 32) : Prop :=
  (∀ a, (k13_off8 v27) a + S1x128.size a ≤ S100000x128.size a) ∧
  (∀ a, (k13_off36 v27) a + S1x128.size a ≤ S100000x128.size a)
instance k13_chk4.dec : ∀ (v27 : BitVec 32), Decidable (k13_chk4 v27) := fun v27 => decidable_of_iff' _ (Iff.of_eq (k13_chk4.eq_1 v27))
theorem k13_off8_inb : ∀ (v27 : BitVec 32) (k13_hw4 : k13_chk4 v27), ∀ a, (k13_off8 v27) a + S1x128.size a ≤ S100000x128.size a := fun v27 k13_hw4 => k13_hw4.1
theorem k13_off36_inb : ∀ (v27 : BitVec 32) (k13_hw4 : k13_chk4 v27), ∀ a, (k13_off36 v27) a + S1x128.size a ≤ S100000x128.size a := fun v27 k13_hw4 => k13_hw4.2

def k13_off37 (v35 : BitVec 32) : Fin 2 → Nat :=
  let c0_i32_67 : BitVec 32 := 0#32
  ![v35.toNat, 0]

def k13_chk5 (v35 : BitVec 32) : Prop :=
  (∀ a, (k13_off10 v35) a + S1x128.size a ≤ S100000x128.size a) ∧
  (∀ a, (k13_off37 v35) a + S1x128.size a ≤ S100000x128.size a)
instance k13_chk5.dec : ∀ (v35 : BitVec 32), Decidable (k13_chk5 v35) := fun v35 => decidable_of_iff' _ (Iff.of_eq (k13_chk5.eq_1 v35))
theorem k13_off10_inb : ∀ (v35 : BitVec 32) (k13_hw5 : k13_chk5 v35), ∀ a, (k13_off10 v35) a + S1x128.size a ≤ S100000x128.size a := fun v35 k13_hw5 => k13_hw5.1
theorem k13_off37_inb : ∀ (v35 : BitVec 32) (k13_hw5 : k13_chk5 v35), ∀ a, (k13_off37 v35) a + S1x128.size a ≤ S100000x128.size a := fun v35 k13_hw5 => k13_hw5.2

def k13_off38 (v43 : BitVec 32) : Fin 2 → Nat :=
  let c0_i32_71 : BitVec 32 := 0#32
  ![v43.toNat, 0]

def k13_chk6 (v43 : BitVec 32) : Prop :=
  (∀ a, (k13_off12 v43) a + S1x128.size a ≤ S100000x128.size a) ∧
  (∀ a, (k13_off38 v43) a + S1x128.size a ≤ S100000x128.size a)
instance k13_chk6.dec : ∀ (v43 : BitVec 32), Decidable (k13_chk6 v43) := fun v43 => decidable_of_iff' _ (Iff.of_eq (k13_chk6.eq_1 v43))
theorem k13_off12_inb : ∀ (v43 : BitVec 32) (k13_hw6 : k13_chk6 v43), ∀ a, (k13_off12 v43) a + S1x128.size a ≤ S100000x128.size a := fun v43 k13_hw6 => k13_hw6.1
theorem k13_off38_inb : ∀ (v43 : BitVec 32) (k13_hw6 : k13_chk6 v43), ∀ a, (k13_off38 v43) a + S1x128.size a ≤ S100000x128.size a := fun v43 k13_hw6 => k13_hw6.2

def k13_off39 (v51 : BitVec 32) : Fin 2 → Nat :=
  let c0_i32_75 : BitVec 32 := 0#32
  ![v51.toNat, 0]

def k13_chk7 (v51 : BitVec 32) : Prop :=
  (∀ a, (k13_off14 v51) a + S1x128.size a ≤ S100000x128.size a) ∧
  (∀ a, (k13_off39 v51) a + S1x128.size a ≤ S100000x128.size a)
instance k13_chk7.dec : ∀ (v51 : BitVec 32), Decidable (k13_chk7 v51) := fun v51 => decidable_of_iff' _ (Iff.of_eq (k13_chk7.eq_1 v51))
theorem k13_off14_inb : ∀ (v51 : BitVec 32) (k13_hw7 : k13_chk7 v51), ∀ a, (k13_off14 v51) a + S1x128.size a ≤ S100000x128.size a := fun v51 k13_hw7 => k13_hw7.1
theorem k13_off39_inb : ∀ (v51 : BitVec 32) (k13_hw7 : k13_chk7 v51), ∀ a, (k13_off39 v51) a + S1x128.size a ≤ S100000x128.size a := fun v51 k13_hw7 => k13_hw7.2

def k13_off40 (v59 : BitVec 32) : Fin 2 → Nat :=
  let c0_i32_79 : BitVec 32 := 0#32
  ![v59.toNat, 0]

def k13_chk8 (v59 : BitVec 32) : Prop :=
  (∀ a, (k13_off16 v59) a + S1x128.size a ≤ S100000x128.size a) ∧
  (∀ a, (k13_off40 v59) a + S1x128.size a ≤ S100000x128.size a)
instance k13_chk8.dec : ∀ (v59 : BitVec 32), Decidable (k13_chk8 v59) := fun v59 => decidable_of_iff' _ (Iff.of_eq (k13_chk8.eq_1 v59))
theorem k13_off16_inb : ∀ (v59 : BitVec 32) (k13_hw8 : k13_chk8 v59), ∀ a, (k13_off16 v59) a + S1x128.size a ≤ S100000x128.size a := fun v59 k13_hw8 => k13_hw8.1
theorem k13_off40_inb : ∀ (v59 : BitVec 32) (k13_hw8 : k13_chk8 v59), ∀ a, (k13_off40 v59) a + S1x128.size a ≤ S100000x128.size a := fun v59 k13_hw8 => k13_hw8.2

def k13_off41 (v67 : BitVec 32) : Fin 2 → Nat :=
  let c0_i32_83 : BitVec 32 := 0#32
  ![v67.toNat, 0]

def k13_chk9 (v67 : BitVec 32) : Prop :=
  (∀ a, (k13_off18 v67) a + S1x128.size a ≤ S100000x128.size a) ∧
  (∀ a, (k13_off41 v67) a + S1x128.size a ≤ S100000x128.size a)
instance k13_chk9.dec : ∀ (v67 : BitVec 32), Decidable (k13_chk9 v67) := fun v67 => decidable_of_iff' _ (Iff.of_eq (k13_chk9.eq_1 v67))
theorem k13_off18_inb : ∀ (v67 : BitVec 32) (k13_hw9 : k13_chk9 v67), ∀ a, (k13_off18 v67) a + S1x128.size a ≤ S100000x128.size a := fun v67 k13_hw9 => k13_hw9.1
theorem k13_off41_inb : ∀ (v67 : BitVec 32) (k13_hw9 : k13_chk9 v67), ∀ a, (k13_off41 v67) a + S1x128.size a ≤ S100000x128.size a := fun v67 k13_hw9 => k13_hw9.2

def k13_off42 (v75 : BitVec 32) : Fin 2 → Nat :=
  let c0_i32_87 : BitVec 32 := 0#32
  ![v75.toNat, 0]

def k13_chk10 (v75 : BitVec 32) : Prop :=
  (∀ a, (k13_off20 v75) a + S1x128.size a ≤ S100000x128.size a) ∧
  (∀ a, (k13_off42 v75) a + S1x128.size a ≤ S100000x128.size a)
instance k13_chk10.dec : ∀ (v75 : BitVec 32), Decidable (k13_chk10 v75) := fun v75 => decidable_of_iff' _ (Iff.of_eq (k13_chk10.eq_1 v75))
theorem k13_off20_inb : ∀ (v75 : BitVec 32) (k13_hw10 : k13_chk10 v75), ∀ a, (k13_off20 v75) a + S1x128.size a ≤ S100000x128.size a := fun v75 k13_hw10 => k13_hw10.1
theorem k13_off42_inb : ∀ (v75 : BitVec 32) (k13_hw10 : k13_chk10 v75), ∀ a, (k13_off42 v75) a + S1x128.size a ≤ S100000x128.size a := fun v75 k13_hw10 => k13_hw10.2

def k13_off43 (v83 : BitVec 32) : Fin 2 → Nat :=
  let c0_i32_91 : BitVec 32 := 0#32
  ![v83.toNat, 0]

def k13_chk11 (v83 : BitVec 32) : Prop :=
  (∀ a, (k13_off22 v83) a + S1x128.size a ≤ S100000x128.size a) ∧
  (∀ a, (k13_off43 v83) a + S1x128.size a ≤ S100000x128.size a)
instance k13_chk11.dec : ∀ (v83 : BitVec 32), Decidable (k13_chk11 v83) := fun v83 => decidable_of_iff' _ (Iff.of_eq (k13_chk11.eq_1 v83))
theorem k13_off22_inb : ∀ (v83 : BitVec 32) (k13_hw11 : k13_chk11 v83), ∀ a, (k13_off22 v83) a + S1x128.size a ≤ S100000x128.size a := fun v83 k13_hw11 => k13_hw11.1
theorem k13_off43_inb : ∀ (v83 : BitVec 32) (k13_hw11 : k13_chk11 v83), ∀ a, (k13_off43 v83) a + S1x128.size a ≤ S100000x128.size a := fun v83 k13_hw11 => k13_hw11.2

def k13_off44 (v91 : BitVec 32) : Fin 2 → Nat :=
  let c0_i32_95 : BitVec 32 := 0#32
  ![v91.toNat, 0]

def k13_chk12 (v91 : BitVec 32) : Prop :=
  (∀ a, (k13_off24 v91) a + S1x128.size a ≤ S100000x128.size a) ∧
  (∀ a, (k13_off44 v91) a + S1x128.size a ≤ S100000x128.size a)
instance k13_chk12.dec : ∀ (v91 : BitVec 32), Decidable (k13_chk12 v91) := fun v91 => decidable_of_iff' _ (Iff.of_eq (k13_chk12.eq_1 v91))
theorem k13_off24_inb : ∀ (v91 : BitVec 32) (k13_hw12 : k13_chk12 v91), ∀ a, (k13_off24 v91) a + S1x128.size a ≤ S100000x128.size a := fun v91 k13_hw12 => k13_hw12.1
theorem k13_off44_inb : ∀ (v91 : BitVec 32) (k13_hw12 : k13_chk12 v91), ∀ a, (k13_off44 v91) a + S1x128.size a ≤ S100000x128.size a := fun v91 k13_hw12 => k13_hw12.2

def k13_off45 (v99 : BitVec 32) : Fin 2 → Nat :=
  let c0_i32_99 : BitVec 32 := 0#32
  ![v99.toNat, 0]

def k13_chk13 (v99 : BitVec 32) : Prop :=
  (∀ a, (k13_off26 v99) a + S1x128.size a ≤ S100000x128.size a) ∧
  (∀ a, (k13_off45 v99) a + S1x128.size a ≤ S100000x128.size a)
instance k13_chk13.dec : ∀ (v99 : BitVec 32), Decidable (k13_chk13 v99) := fun v99 => decidable_of_iff' _ (Iff.of_eq (k13_chk13.eq_1 v99))
theorem k13_off26_inb : ∀ (v99 : BitVec 32) (k13_hw13 : k13_chk13 v99), ∀ a, (k13_off26 v99) a + S1x128.size a ≤ S100000x128.size a := fun v99 k13_hw13 => k13_hw13.1
theorem k13_off45_inb : ∀ (v99 : BitVec 32) (k13_hw13 : k13_chk13 v99), ∀ a, (k13_off45 v99) a + S1x128.size a ≤ S100000x128.size a := fun v99 k13_hw13 => k13_hw13.2

def k13_off46 (v107 : BitVec 32) : Fin 2 → Nat :=
  let c0_i32_103 : BitVec 32 := 0#32
  ![v107.toNat, 0]

def k13_chk14 (v107 : BitVec 32) : Prop :=
  (∀ a, (k13_off28 v107) a + S1x128.size a ≤ S100000x128.size a) ∧
  (∀ a, (k13_off46 v107) a + S1x128.size a ≤ S100000x128.size a)
instance k13_chk14.dec : ∀ (v107 : BitVec 32), Decidable (k13_chk14 v107) := fun v107 => decidable_of_iff' _ (Iff.of_eq (k13_chk14.eq_1 v107))
theorem k13_off28_inb : ∀ (v107 : BitVec 32) (k13_hw14 : k13_chk14 v107), ∀ a, (k13_off28 v107) a + S1x128.size a ≤ S100000x128.size a := fun v107 k13_hw14 => k13_hw14.1
theorem k13_off46_inb : ∀ (v107 : BitVec 32) (k13_hw14 : k13_chk14 v107), ∀ a, (k13_off46 v107) a + S1x128.size a ≤ S100000x128.size a := fun v107 k13_hw14 => k13_hw14.2

def k13_off47 (v115 : BitVec 32) : Fin 2 → Nat :=
  let c0_i32_107 : BitVec 32 := 0#32
  ![v115.toNat, 0]

def k13_chk15 (v115 : BitVec 32) : Prop :=
  (∀ a, (k13_off30 v115) a + S1x128.size a ≤ S100000x128.size a) ∧
  (∀ a, (k13_off47 v115) a + S1x128.size a ≤ S100000x128.size a)
instance k13_chk15.dec : ∀ (v115 : BitVec 32), Decidable (k13_chk15 v115) := fun v115 => decidable_of_iff' _ (Iff.of_eq (k13_chk15.eq_1 v115))
theorem k13_off30_inb : ∀ (v115 : BitVec 32) (k13_hw15 : k13_chk15 v115), ∀ a, (k13_off30 v115) a + S1x128.size a ≤ S100000x128.size a := fun v115 k13_hw15 => k13_hw15.1
theorem k13_off47_inb : ∀ (v115 : BitVec 32) (k13_hw15 : k13_chk15 v115), ∀ a, (k13_off47 v115) a + S1x128.size a ≤ S100000x128.size a := fun v115 k13_hw15 => k13_hw15.2

def k13_off48 (i : grid13.Coords) : Fin 2 → Nat :=
  let arg1 : BitVec 32 := BitVec.ofNat 32 (i 1).val
  let v230 : Index := Scalar.indexCast arg1
  let c0_115 : Index := 0#32
  ![v230.toNat, 0]
def k13_cond1 (i : grid13.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 1 → Memref sig .tc .vmem S128x128 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false, false]

abbrev stage13_1 : Fin 2 → Memref sig .tc .vmem S1000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true, false]

abbrev grid14 : Pipeline.Grid := ⟨2, ![2, 1000], ![false, false]⟩

abbrev pre14 : Pipeline.Prefetch sig := ⟨1, ![main_v29.idx], fun | 0 => main_v29.names | ⟨_ + 1, h⟩ => absurd h (Nat.not_lt.2 (Nat.le_add_left _ _)), fun | 0 => rfl | ⟨_ + 1, h⟩ => absurd h (Nat.not_lt.2 (Nat.le_add_left _ _))⟩

def k14_off1 (i : grid14.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k14_off2 (v3 : BitVec 32) : Fin 2 → Nat :=
  let c0_i32_2 : BitVec 32 := 0#32
  ![v3.toNat, 0]

def k14_off3 (i : grid14.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k14_off4 (v11 : BitVec 32) : Fin 2 → Nat :=
  let c0_i32_5 : BitVec 32 := 0#32
  ![v11.toNat, 0]

def k14_off5 (i : grid14.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k14_off6 (v19 : BitVec 32) : Fin 2 → Nat :=
  let c0_i32_8 : BitVec 32 := 0#32
  ![v19.toNat, 0]

def k14_off7 (i : grid14.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k14_off8 (v27 : BitVec 32) : Fin 2 → Nat :=
  let c0_i32_11 : BitVec 32 := 0#32
  ![v27.toNat, 0]

def k14_off9 (i : grid14.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k14_off10 (v35 : BitVec 32) : Fin 2 → Nat :=
  let c0_i32_14 : BitVec 32 := 0#32
  ![v35.toNat, 0]

def k14_off11 (i : grid14.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k14_off12 (v43 : BitVec 32) : Fin 2 → Nat :=
  let c0_i32_17 : BitVec 32 := 0#32
  ![v43.toNat, 0]

def k14_off13 (i : grid14.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k14_off14 (v51 : BitVec 32) : Fin 2 → Nat :=
  let c0_i32_20 : BitVec 32 := 0#32
  ![v51.toNat, 0]

def k14_off15 (i : grid14.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k14_off16 (v59 : BitVec 32) : Fin 2 → Nat :=
  let c0_i32_23 : BitVec 32 := 0#32
  ![v59.toNat, 0]

def k14_off17 (i : grid14.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k14_off18 (v67 : BitVec 32) : Fin 2 → Nat :=
  let c0_i32_26 : BitVec 32 := 0#32
  ![v67.toNat, 0]

def k14_off19 (i : grid14.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k14_off20 (v75 : BitVec 32) : Fin 2 → Nat :=
  let c0_i32_29 : BitVec 32 := 0#32
  ![v75.toNat, 0]

def k14_off21 (i : grid14.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k14_off22 (v83 : BitVec 32) : Fin 2 → Nat :=
  let c0_i32_32 : BitVec 32 := 0#32
  ![v83.toNat, 0]

def k14_off23 (i : grid14.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k14_off24 (v91 : BitVec 32) : Fin 2 → Nat :=
  let c0_i32_35 : BitVec 32 := 0#32
  ![v91.toNat, 0]

def k14_off25 (i : grid14.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k14_off26 (v99 : BitVec 32) : Fin 2 → Nat :=
  let c0_i32_38 : BitVec 32 := 0#32
  ![v99.toNat, 0]

def k14_off27 (i : grid14.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k14_off28 (v107 : BitVec 32) : Fin 2 → Nat :=
  let c0_i32_41 : BitVec 32 := 0#32
  ![v107.toNat, 0]

def k14_off29 (i : grid14.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k14_off30 (v115 : BitVec 32) : Fin 2 → Nat :=
  let c0_i32_44 : BitVec 32 := 0#32
  ![v115.toNat, 0]

def k14_off31 (i : grid14.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k14_off32 (v123 : BitVec 32) : Fin 2 → Nat :=
  let c0_i32_47 : BitVec 32 := 0#32
  ![v123.toNat, 0]

def k14_chk16 (v123 : BitVec 32) : Prop :=
  (∀ a, (k14_off32 v123) a + S1x128.size a ≤ S100000x128.size a)
instance k14_chk16.dec : ∀ (v123 : BitVec 32), Decidable (k14_chk16 v123) := fun v123 => decidable_of_iff' _ (Iff.of_eq (k14_chk16.eq_1 v123))
theorem k14_off32_inb : ∀ (v123 : BitVec 32) (k14_hw16 : k14_chk16 v123), ∀ a, (k14_off32 v123) a + S1x128.size a ≤ S100000x128.size a := fun v123 k14_hw16 => k14_hw16

def k14_off33 (v3 : BitVec 32) : Fin 2 → Nat :=
  let c0_i32_51 : BitVec 32 := 0#32
  ![v3.toNat, 0]

def k14_chk1 (v3 : BitVec 32) : Prop :=
  (∀ a, (k14_off2 v3) a + S1x128.size a ≤ S100000x128.size a) ∧
  (∀ a, (k14_off33 v3) a + S1x128.size a ≤ S100000x128.size a)
instance k14_chk1.dec : ∀ (v3 : BitVec 32), Decidable (k14_chk1 v3) := fun v3 => decidable_of_iff' _ (Iff.of_eq (k14_chk1.eq_1 v3))
theorem k14_off2_inb : ∀ (v3 : BitVec 32) (k14_hw1 : k14_chk1 v3), ∀ a, (k14_off2 v3) a + S1x128.size a ≤ S100000x128.size a := fun v3 k14_hw1 => k14_hw1.1
theorem k14_off33_inb : ∀ (v3 : BitVec 32) (k14_hw1 : k14_chk1 v3), ∀ a, (k14_off33 v3) a + S1x128.size a ≤ S100000x128.size a := fun v3 k14_hw1 => k14_hw1.2

def k14_off34 (v11 : BitVec 32) : Fin 2 → Nat :=
  let c0_i32_55 : BitVec 32 := 0#32
  ![v11.toNat, 0]

def k14_chk2 (v11 : BitVec 32) : Prop :=
  (∀ a, (k14_off4 v11) a + S1x128.size a ≤ S100000x128.size a) ∧
  (∀ a, (k14_off34 v11) a + S1x128.size a ≤ S100000x128.size a)
instance k14_chk2.dec : ∀ (v11 : BitVec 32), Decidable (k14_chk2 v11) := fun v11 => decidable_of_iff' _ (Iff.of_eq (k14_chk2.eq_1 v11))
theorem k14_off4_inb : ∀ (v11 : BitVec 32) (k14_hw2 : k14_chk2 v11), ∀ a, (k14_off4 v11) a + S1x128.size a ≤ S100000x128.size a := fun v11 k14_hw2 => k14_hw2.1
theorem k14_off34_inb : ∀ (v11 : BitVec 32) (k14_hw2 : k14_chk2 v11), ∀ a, (k14_off34 v11) a + S1x128.size a ≤ S100000x128.size a := fun v11 k14_hw2 => k14_hw2.2

def k14_off35 (v19 : BitVec 32) : Fin 2 → Nat :=
  let c0_i32_59 : BitVec 32 := 0#32
  ![v19.toNat, 0]

def k14_chk3 (v19 : BitVec 32) : Prop :=
  (∀ a, (k14_off6 v19) a + S1x128.size a ≤ S100000x128.size a) ∧
  (∀ a, (k14_off35 v19) a + S1x128.size a ≤ S100000x128.size a)
instance k14_chk3.dec : ∀ (v19 : BitVec 32), Decidable (k14_chk3 v19) := fun v19 => decidable_of_iff' _ (Iff.of_eq (k14_chk3.eq_1 v19))
theorem k14_off6_inb : ∀ (v19 : BitVec 32) (k14_hw3 : k14_chk3 v19), ∀ a, (k14_off6 v19) a + S1x128.size a ≤ S100000x128.size a := fun v19 k14_hw3 => k14_hw3.1
theorem k14_off35_inb : ∀ (v19 : BitVec 32) (k14_hw3 : k14_chk3 v19), ∀ a, (k14_off35 v19) a + S1x128.size a ≤ S100000x128.size a := fun v19 k14_hw3 => k14_hw3.2

def k14_off36 (v27 : BitVec 32) : Fin 2 → Nat :=
  let c0_i32_63 : BitVec 32 := 0#32
  ![v27.toNat, 0]

def k14_chk4 (v27 : BitVec 32) : Prop :=
  (∀ a, (k14_off8 v27) a + S1x128.size a ≤ S100000x128.size a) ∧
  (∀ a, (k14_off36 v27) a + S1x128.size a ≤ S100000x128.size a)
instance k14_chk4.dec : ∀ (v27 : BitVec 32), Decidable (k14_chk4 v27) := fun v27 => decidable_of_iff' _ (Iff.of_eq (k14_chk4.eq_1 v27))
theorem k14_off8_inb : ∀ (v27 : BitVec 32) (k14_hw4 : k14_chk4 v27), ∀ a, (k14_off8 v27) a + S1x128.size a ≤ S100000x128.size a := fun v27 k14_hw4 => k14_hw4.1
theorem k14_off36_inb : ∀ (v27 : BitVec 32) (k14_hw4 : k14_chk4 v27), ∀ a, (k14_off36 v27) a + S1x128.size a ≤ S100000x128.size a := fun v27 k14_hw4 => k14_hw4.2

def k14_off37 (v35 : BitVec 32) : Fin 2 → Nat :=
  let c0_i32_67 : BitVec 32 := 0#32
  ![v35.toNat, 0]

def k14_chk5 (v35 : BitVec 32) : Prop :=
  (∀ a, (k14_off10 v35) a + S1x128.size a ≤ S100000x128.size a) ∧
  (∀ a, (k14_off37 v35) a + S1x128.size a ≤ S100000x128.size a)
instance k14_chk5.dec : ∀ (v35 : BitVec 32), Decidable (k14_chk5 v35) := fun v35 => decidable_of_iff' _ (Iff.of_eq (k14_chk5.eq_1 v35))
theorem k14_off10_inb : ∀ (v35 : BitVec 32) (k14_hw5 : k14_chk5 v35), ∀ a, (k14_off10 v35) a + S1x128.size a ≤ S100000x128.size a := fun v35 k14_hw5 => k14_hw5.1
theorem k14_off37_inb : ∀ (v35 : BitVec 32) (k14_hw5 : k14_chk5 v35), ∀ a, (k14_off37 v35) a + S1x128.size a ≤ S100000x128.size a := fun v35 k14_hw5 => k14_hw5.2

def k14_off38 (v43 : BitVec 32) : Fin 2 → Nat :=
  let c0_i32_71 : BitVec 32 := 0#32
  ![v43.toNat, 0]

def k14_chk6 (v43 : BitVec 32) : Prop :=
  (∀ a, (k14_off12 v43) a + S1x128.size a ≤ S100000x128.size a) ∧
  (∀ a, (k14_off38 v43) a + S1x128.size a ≤ S100000x128.size a)
instance k14_chk6.dec : ∀ (v43 : BitVec 32), Decidable (k14_chk6 v43) := fun v43 => decidable_of_iff' _ (Iff.of_eq (k14_chk6.eq_1 v43))
theorem k14_off12_inb : ∀ (v43 : BitVec 32) (k14_hw6 : k14_chk6 v43), ∀ a, (k14_off12 v43) a + S1x128.size a ≤ S100000x128.size a := fun v43 k14_hw6 => k14_hw6.1
theorem k14_off38_inb : ∀ (v43 : BitVec 32) (k14_hw6 : k14_chk6 v43), ∀ a, (k14_off38 v43) a + S1x128.size a ≤ S100000x128.size a := fun v43 k14_hw6 => k14_hw6.2

def k14_off39 (v51 : BitVec 32) : Fin 2 → Nat :=
  let c0_i32_75 : BitVec 32 := 0#32
  ![v51.toNat, 0]

def k14_chk7 (v51 : BitVec 32) : Prop :=
  (∀ a, (k14_off14 v51) a + S1x128.size a ≤ S100000x128.size a) ∧
  (∀ a, (k14_off39 v51) a + S1x128.size a ≤ S100000x128.size a)
instance k14_chk7.dec : ∀ (v51 : BitVec 32), Decidable (k14_chk7 v51) := fun v51 => decidable_of_iff' _ (Iff.of_eq (k14_chk7.eq_1 v51))
theorem k14_off14_inb : ∀ (v51 : BitVec 32) (k14_hw7 : k14_chk7 v51), ∀ a, (k14_off14 v51) a + S1x128.size a ≤ S100000x128.size a := fun v51 k14_hw7 => k14_hw7.1
theorem k14_off39_inb : ∀ (v51 : BitVec 32) (k14_hw7 : k14_chk7 v51), ∀ a, (k14_off39 v51) a + S1x128.size a ≤ S100000x128.size a := fun v51 k14_hw7 => k14_hw7.2

def k14_off40 (v59 : BitVec 32) : Fin 2 → Nat :=
  let c0_i32_79 : BitVec 32 := 0#32
  ![v59.toNat, 0]

def k14_chk8 (v59 : BitVec 32) : Prop :=
  (∀ a, (k14_off16 v59) a + S1x128.size a ≤ S100000x128.size a) ∧
  (∀ a, (k14_off40 v59) a + S1x128.size a ≤ S100000x128.size a)
instance k14_chk8.dec : ∀ (v59 : BitVec 32), Decidable (k14_chk8 v59) := fun v59 => decidable_of_iff' _ (Iff.of_eq (k14_chk8.eq_1 v59))
theorem k14_off16_inb : ∀ (v59 : BitVec 32) (k14_hw8 : k14_chk8 v59), ∀ a, (k14_off16 v59) a + S1x128.size a ≤ S100000x128.size a := fun v59 k14_hw8 => k14_hw8.1
theorem k14_off40_inb : ∀ (v59 : BitVec 32) (k14_hw8 : k14_chk8 v59), ∀ a, (k14_off40 v59) a + S1x128.size a ≤ S100000x128.size a := fun v59 k14_hw8 => k14_hw8.2

def k14_off41 (v67 : BitVec 32) : Fin 2 → Nat :=
  let c0_i32_83 : BitVec 32 := 0#32
  ![v67.toNat, 0]

def k14_chk9 (v67 : BitVec 32) : Prop :=
  (∀ a, (k14_off18 v67) a + S1x128.size a ≤ S100000x128.size a) ∧
  (∀ a, (k14_off41 v67) a + S1x128.size a ≤ S100000x128.size a)
instance k14_chk9.dec : ∀ (v67 : BitVec 32), Decidable (k14_chk9 v67) := fun v67 => decidable_of_iff' _ (Iff.of_eq (k14_chk9.eq_1 v67))
theorem k14_off18_inb : ∀ (v67 : BitVec 32) (k14_hw9 : k14_chk9 v67), ∀ a, (k14_off18 v67) a + S1x128.size a ≤ S100000x128.size a := fun v67 k14_hw9 => k14_hw9.1
theorem k14_off41_inb : ∀ (v67 : BitVec 32) (k14_hw9 : k14_chk9 v67), ∀ a, (k14_off41 v67) a + S1x128.size a ≤ S100000x128.size a := fun v67 k14_hw9 => k14_hw9.2

def k14_off42 (v75 : BitVec 32) : Fin 2 → Nat :=
  let c0_i32_87 : BitVec 32 := 0#32
  ![v75.toNat, 0]

def k14_chk10 (v75 : BitVec 32) : Prop :=
  (∀ a, (k14_off20 v75) a + S1x128.size a ≤ S100000x128.size a) ∧
  (∀ a, (k14_off42 v75) a + S1x128.size a ≤ S100000x128.size a)
instance k14_chk10.dec : ∀ (v75 : BitVec 32), Decidable (k14_chk10 v75) := fun v75 => decidable_of_iff' _ (Iff.of_eq (k14_chk10.eq_1 v75))
theorem k14_off20_inb : ∀ (v75 : BitVec 32) (k14_hw10 : k14_chk10 v75), ∀ a, (k14_off20 v75) a + S1x128.size a ≤ S100000x128.size a := fun v75 k14_hw10 => k14_hw10.1
theorem k14_off42_inb : ∀ (v75 : BitVec 32) (k14_hw10 : k14_chk10 v75), ∀ a, (k14_off42 v75) a + S1x128.size a ≤ S100000x128.size a := fun v75 k14_hw10 => k14_hw10.2

def k14_off43 (v83 : BitVec 32) : Fin 2 → Nat :=
  let c0_i32_91 : BitVec 32 := 0#32
  ![v83.toNat, 0]

def k14_chk11 (v83 : BitVec 32) : Prop :=
  (∀ a, (k14_off22 v83) a + S1x128.size a ≤ S100000x128.size a) ∧
  (∀ a, (k14_off43 v83) a + S1x128.size a ≤ S100000x128.size a)
instance k14_chk11.dec : ∀ (v83 : BitVec 32), Decidable (k14_chk11 v83) := fun v83 => decidable_of_iff' _ (Iff.of_eq (k14_chk11.eq_1 v83))
theorem k14_off22_inb : ∀ (v83 : BitVec 32) (k14_hw11 : k14_chk11 v83), ∀ a, (k14_off22 v83) a + S1x128.size a ≤ S100000x128.size a := fun v83 k14_hw11 => k14_hw11.1
theorem k14_off43_inb : ∀ (v83 : BitVec 32) (k14_hw11 : k14_chk11 v83), ∀ a, (k14_off43 v83) a + S1x128.size a ≤ S100000x128.size a := fun v83 k14_hw11 => k14_hw11.2

def k14_off44 (v91 : BitVec 32) : Fin 2 → Nat :=
  let c0_i32_95 : BitVec 32 := 0#32
  ![v91.toNat, 0]

def k14_chk12 (v91 : BitVec 32) : Prop :=
  (∀ a, (k14_off24 v91) a + S1x128.size a ≤ S100000x128.size a) ∧
  (∀ a, (k14_off44 v91) a + S1x128.size a ≤ S100000x128.size a)
instance k14_chk12.dec : ∀ (v91 : BitVec 32), Decidable (k14_chk12 v91) := fun v91 => decidable_of_iff' _ (Iff.of_eq (k14_chk12.eq_1 v91))
theorem k14_off24_inb : ∀ (v91 : BitVec 32) (k14_hw12 : k14_chk12 v91), ∀ a, (k14_off24 v91) a + S1x128.size a ≤ S100000x128.size a := fun v91 k14_hw12 => k14_hw12.1
theorem k14_off44_inb : ∀ (v91 : BitVec 32) (k14_hw12 : k14_chk12 v91), ∀ a, (k14_off44 v91) a + S1x128.size a ≤ S100000x128.size a := fun v91 k14_hw12 => k14_hw12.2

def k14_off45 (v99 : BitVec 32) : Fin 2 → Nat :=
  let c0_i32_99 : BitVec 32 := 0#32
  ![v99.toNat, 0]

def k14_chk13 (v99 : BitVec 32) : Prop :=
  (∀ a, (k14_off26 v99) a + S1x128.size a ≤ S100000x128.size a) ∧
  (∀ a, (k14_off45 v99) a + S1x128.size a ≤ S100000x128.size a)
instance k14_chk13.dec : ∀ (v99 : BitVec 32), Decidable (k14_chk13 v99) := fun v99 => decidable_of_iff' _ (Iff.of_eq (k14_chk13.eq_1 v99))
theorem k14_off26_inb : ∀ (v99 : BitVec 32) (k14_hw13 : k14_chk13 v99), ∀ a, (k14_off26 v99) a + S1x128.size a ≤ S100000x128.size a := fun v99 k14_hw13 => k14_hw13.1
theorem k14_off45_inb : ∀ (v99 : BitVec 32) (k14_hw13 : k14_chk13 v99), ∀ a, (k14_off45 v99) a + S1x128.size a ≤ S100000x128.size a := fun v99 k14_hw13 => k14_hw13.2

def k14_off46 (v107 : BitVec 32) : Fin 2 → Nat :=
  let c0_i32_103 : BitVec 32 := 0#32
  ![v107.toNat, 0]

def k14_chk14 (v107 : BitVec 32) : Prop :=
  (∀ a, (k14_off28 v107) a + S1x128.size a ≤ S100000x128.size a) ∧
  (∀ a, (k14_off46 v107) a + S1x128.size a ≤ S100000x128.size a)
instance k14_chk14.dec : ∀ (v107 : BitVec 32), Decidable (k14_chk14 v107) := fun v107 => decidable_of_iff' _ (Iff.of_eq (k14_chk14.eq_1 v107))
theorem k14_off28_inb : ∀ (v107 : BitVec 32) (k14_hw14 : k14_chk14 v107), ∀ a, (k14_off28 v107) a + S1x128.size a ≤ S100000x128.size a := fun v107 k14_hw14 => k14_hw14.1
theorem k14_off46_inb : ∀ (v107 : BitVec 32) (k14_hw14 : k14_chk14 v107), ∀ a, (k14_off46 v107) a + S1x128.size a ≤ S100000x128.size a := fun v107 k14_hw14 => k14_hw14.2

def k14_off47 (v115 : BitVec 32) : Fin 2 → Nat :=
  let c0_i32_107 : BitVec 32 := 0#32
  ![v115.toNat, 0]

def k14_chk15 (v115 : BitVec 32) : Prop :=
  (∀ a, (k14_off30 v115) a + S1x128.size a ≤ S100000x128.size a) ∧
  (∀ a, (k14_off47 v115) a + S1x128.size a ≤ S100000x128.size a)
instance k14_chk15.dec : ∀ (v115 : BitVec 32), Decidable (k14_chk15 v115) := fun v115 => decidable_of_iff' _ (Iff.of_eq (k14_chk15.eq_1 v115))
theorem k14_off30_inb : ∀ (v115 : BitVec 32) (k14_hw15 : k14_chk15 v115), ∀ a, (k14_off30 v115) a + S1x128.size a ≤ S100000x128.size a := fun v115 k14_hw15 => k14_hw15.1
theorem k14_off47_inb : ∀ (v115 : BitVec 32) (k14_hw15 : k14_chk15 v115), ∀ a, (k14_off47 v115) a + S1x128.size a ≤ S100000x128.size a := fun v115 k14_hw15 => k14_hw15.2

def k14_off48 (i : grid14.Coords) : Fin 2 → Nat :=
  let arg1 : BitVec 32 := BitVec.ofNat 32 (i 1).val
  let v230 : Index := Scalar.indexCast arg1
  let c0_115 : Index := 0#32
  ![v230.toNat, 0]
def k14_cond1 (i : grid14.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 1 → Memref sig .tc .vmem S128x128 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false, false]

abbrev stage14_1 : Fin 2 → Memref sig .tc .vmem S1000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true, false]

abbrev grid15 : Pipeline.Grid := ⟨2, ![2, 1000], ![false, false]⟩

abbrev pre15 : Pipeline.Prefetch sig := ⟨1, ![main_v31.idx], fun | 0 => main_v31.names | ⟨_ + 1, h⟩ => absurd h (Nat.not_lt.2 (Nat.le_add_left _ _)), fun | 0 => rfl | ⟨_ + 1, h⟩ => absurd h (Nat.not_lt.2 (Nat.le_add_left _ _))⟩

def k15_off1 (i : grid15.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k15_off2 (v3 : BitVec 32) : Fin 2 → Nat :=
  let c0_i32_2 : BitVec 32 := 0#32
  ![v3.toNat, 0]

def k15_off3 (i : grid15.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k15_off4 (v11 : BitVec 32) : Fin 2 → Nat :=
  let c0_i32_5 : BitVec 32 := 0#32
  ![v11.toNat, 0]

def k15_off5 (i : grid15.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k15_off6 (v19 : BitVec 32) : Fin 2 → Nat :=
  let c0_i32_8 : BitVec 32 := 0#32
  ![v19.toNat, 0]

def k15_off7 (i : grid15.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k15_off8 (v27 : BitVec 32) : Fin 2 → Nat :=
  let c0_i32_11 : BitVec 32 := 0#32
  ![v27.toNat, 0]

def k15_off9 (i : grid15.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k15_off10 (v35 : BitVec 32) : Fin 2 → Nat :=
  let c0_i32_14 : BitVec 32 := 0#32
  ![v35.toNat, 0]

def k15_off11 (i : grid15.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k15_off12 (v43 : BitVec 32) : Fin 2 → Nat :=
  let c0_i32_17 : BitVec 32 := 0#32
  ![v43.toNat, 0]

def k15_off13 (i : grid15.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k15_off14 (v51 : BitVec 32) : Fin 2 → Nat :=
  let c0_i32_20 : BitVec 32 := 0#32
  ![v51.toNat, 0]

def k15_off15 (i : grid15.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k15_off16 (v59 : BitVec 32) : Fin 2 → Nat :=
  let c0_i32_23 : BitVec 32 := 0#32
  ![v59.toNat, 0]

def k15_off17 (i : grid15.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k15_off18 (v67 : BitVec 32) : Fin 2 → Nat :=
  let c0_i32_26 : BitVec 32 := 0#32
  ![v67.toNat, 0]

def k15_off19 (i : grid15.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k15_off20 (v75 : BitVec 32) : Fin 2 → Nat :=
  let c0_i32_29 : BitVec 32 := 0#32
  ![v75.toNat, 0]

def k15_off21 (i : grid15.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k15_off22 (v83 : BitVec 32) : Fin 2 → Nat :=
  let c0_i32_32 : BitVec 32 := 0#32
  ![v83.toNat, 0]

def k15_off23 (i : grid15.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k15_off24 (v91 : BitVec 32) : Fin 2 → Nat :=
  let c0_i32_35 : BitVec 32 := 0#32
  ![v91.toNat, 0]

def k15_off25 (i : grid15.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k15_off26 (v99 : BitVec 32) : Fin 2 → Nat :=
  let c0_i32_38 : BitVec 32 := 0#32
  ![v99.toNat, 0]

def k15_off27 (i : grid15.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k15_off28 (v107 : BitVec 32) : Fin 2 → Nat :=
  let c0_i32_41 : BitVec 32 := 0#32
  ![v107.toNat, 0]

def k15_off29 (i : grid15.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k15_off30 (v115 : BitVec 32) : Fin 2 → Nat :=
  let c0_i32_44 : BitVec 32 := 0#32
  ![v115.toNat, 0]

def k15_off31 (i : grid15.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k15_off32 (v123 : BitVec 32) : Fin 2 → Nat :=
  let c0_i32_47 : BitVec 32 := 0#32
  ![v123.toNat, 0]

def k15_chk16 (v123 : BitVec 32) : Prop :=
  (∀ a, (k15_off32 v123) a + S1x128.size a ≤ S100000x128.size a)
instance k15_chk16.dec : ∀ (v123 : BitVec 32), Decidable (k15_chk16 v123) := fun v123 => decidable_of_iff' _ (Iff.of_eq (k15_chk16.eq_1 v123))
theorem k15_off32_inb : ∀ (v123 : BitVec 32) (k15_hw16 : k15_chk16 v123), ∀ a, (k15_off32 v123) a + S1x128.size a ≤ S100000x128.size a := fun v123 k15_hw16 => k15_hw16

def k15_off33 (v3 : BitVec 32) : Fin 2 → Nat :=
  let c0_i32_51 : BitVec 32 := 0#32
  ![v3.toNat, 0]

def k15_chk1 (v3 : BitVec 32) : Prop :=
  (∀ a, (k15_off2 v3) a + S1x128.size a ≤ S100000x128.size a) ∧
  (∀ a, (k15_off33 v3) a + S1x128.size a ≤ S100000x128.size a)
instance k15_chk1.dec : ∀ (v3 : BitVec 32), Decidable (k15_chk1 v3) := fun v3 => decidable_of_iff' _ (Iff.of_eq (k15_chk1.eq_1 v3))
theorem k15_off2_inb : ∀ (v3 : BitVec 32) (k15_hw1 : k15_chk1 v3), ∀ a, (k15_off2 v3) a + S1x128.size a ≤ S100000x128.size a := fun v3 k15_hw1 => k15_hw1.1
theorem k15_off33_inb : ∀ (v3 : BitVec 32) (k15_hw1 : k15_chk1 v3), ∀ a, (k15_off33 v3) a + S1x128.size a ≤ S100000x128.size a := fun v3 k15_hw1 => k15_hw1.2

def k15_off34 (v11 : BitVec 32) : Fin 2 → Nat :=
  let c0_i32_55 : BitVec 32 := 0#32
  ![v11.toNat, 0]

def k15_chk2 (v11 : BitVec 32) : Prop :=
  (∀ a, (k15_off4 v11) a + S1x128.size a ≤ S100000x128.size a) ∧
  (∀ a, (k15_off34 v11) a + S1x128.size a ≤ S100000x128.size a)
instance k15_chk2.dec : ∀ (v11 : BitVec 32), Decidable (k15_chk2 v11) := fun v11 => decidable_of_iff' _ (Iff.of_eq (k15_chk2.eq_1 v11))
theorem k15_off4_inb : ∀ (v11 : BitVec 32) (k15_hw2 : k15_chk2 v11), ∀ a, (k15_off4 v11) a + S1x128.size a ≤ S100000x128.size a := fun v11 k15_hw2 => k15_hw2.1
theorem k15_off34_inb : ∀ (v11 : BitVec 32) (k15_hw2 : k15_chk2 v11), ∀ a, (k15_off34 v11) a + S1x128.size a ≤ S100000x128.size a := fun v11 k15_hw2 => k15_hw2.2

def k15_off35 (v19 : BitVec 32) : Fin 2 → Nat :=
  let c0_i32_59 : BitVec 32 := 0#32
  ![v19.toNat, 0]

def k15_chk3 (v19 : BitVec 32) : Prop :=
  (∀ a, (k15_off6 v19) a + S1x128.size a ≤ S100000x128.size a) ∧
  (∀ a, (k15_off35 v19) a + S1x128.size a ≤ S100000x128.size a)
instance k15_chk3.dec : ∀ (v19 : BitVec 32), Decidable (k15_chk3 v19) := fun v19 => decidable_of_iff' _ (Iff.of_eq (k15_chk3.eq_1 v19))
theorem k15_off6_inb : ∀ (v19 : BitVec 32) (k15_hw3 : k15_chk3 v19), ∀ a, (k15_off6 v19) a + S1x128.size a ≤ S100000x128.size a := fun v19 k15_hw3 => k15_hw3.1
theorem k15_off35_inb : ∀ (v19 : BitVec 32) (k15_hw3 : k15_chk3 v19), ∀ a, (k15_off35 v19) a + S1x128.size a ≤ S100000x128.size a := fun v19 k15_hw3 => k15_hw3.2

def k15_off36 (v27 : BitVec 32) : Fin 2 → Nat :=
  let c0_i32_63 : BitVec 32 := 0#32
  ![v27.toNat, 0]

def k15_chk4 (v27 : BitVec 32) : Prop :=
  (∀ a, (k15_off8 v27) a + S1x128.size a ≤ S100000x128.size a) ∧
  (∀ a, (k15_off36 v27) a + S1x128.size a ≤ S100000x128.size a)
instance k15_chk4.dec : ∀ (v27 : BitVec 32), Decidable (k15_chk4 v27) := fun v27 => decidable_of_iff' _ (Iff.of_eq (k15_chk4.eq_1 v27))
theorem k15_off8_inb : ∀ (v27 : BitVec 32) (k15_hw4 : k15_chk4 v27), ∀ a, (k15_off8 v27) a + S1x128.size a ≤ S100000x128.size a := fun v27 k15_hw4 => k15_hw4.1
theorem k15_off36_inb : ∀ (v27 : BitVec 32) (k15_hw4 : k15_chk4 v27), ∀ a, (k15_off36 v27) a + S1x128.size a ≤ S100000x128.size a := fun v27 k15_hw4 => k15_hw4.2

def k15_off37 (v35 : BitVec 32) : Fin 2 → Nat :=
  let c0_i32_67 : BitVec 32 := 0#32
  ![v35.toNat, 0]

def k15_chk5 (v35 : BitVec 32) : Prop :=
  (∀ a, (k15_off10 v35) a + S1x128.size a ≤ S100000x128.size a) ∧
  (∀ a, (k15_off37 v35) a + S1x128.size a ≤ S100000x128.size a)
instance k15_chk5.dec : ∀ (v35 : BitVec 32), Decidable (k15_chk5 v35) := fun v35 => decidable_of_iff' _ (Iff.of_eq (k15_chk5.eq_1 v35))
theorem k15_off10_inb : ∀ (v35 : BitVec 32) (k15_hw5 : k15_chk5 v35), ∀ a, (k15_off10 v35) a + S1x128.size a ≤ S100000x128.size a := fun v35 k15_hw5 => k15_hw5.1
theorem k15_off37_inb : ∀ (v35 : BitVec 32) (k15_hw5 : k15_chk5 v35), ∀ a, (k15_off37 v35) a + S1x128.size a ≤ S100000x128.size a := fun v35 k15_hw5 => k15_hw5.2

def k15_off38 (v43 : BitVec 32) : Fin 2 → Nat :=
  let c0_i32_71 : BitVec 32 := 0#32
  ![v43.toNat, 0]

def k15_chk6 (v43 : BitVec 32) : Prop :=
  (∀ a, (k15_off12 v43) a + S1x128.size a ≤ S100000x128.size a) ∧
  (∀ a, (k15_off38 v43) a + S1x128.size a ≤ S100000x128.size a)
instance k15_chk6.dec : ∀ (v43 : BitVec 32), Decidable (k15_chk6 v43) := fun v43 => decidable_of_iff' _ (Iff.of_eq (k15_chk6.eq_1 v43))
theorem k15_off12_inb : ∀ (v43 : BitVec 32) (k15_hw6 : k15_chk6 v43), ∀ a, (k15_off12 v43) a + S1x128.size a ≤ S100000x128.size a := fun v43 k15_hw6 => k15_hw6.1
theorem k15_off38_inb : ∀ (v43 : BitVec 32) (k15_hw6 : k15_chk6 v43), ∀ a, (k15_off38 v43) a + S1x128.size a ≤ S100000x128.size a := fun v43 k15_hw6 => k15_hw6.2

def k15_off39 (v51 : BitVec 32) : Fin 2 → Nat :=
  let c0_i32_75 : BitVec 32 := 0#32
  ![v51.toNat, 0]

def k15_chk7 (v51 : BitVec 32) : Prop :=
  (∀ a, (k15_off14 v51) a + S1x128.size a ≤ S100000x128.size a) ∧
  (∀ a, (k15_off39 v51) a + S1x128.size a ≤ S100000x128.size a)
instance k15_chk7.dec : ∀ (v51 : BitVec 32), Decidable (k15_chk7 v51) := fun v51 => decidable_of_iff' _ (Iff.of_eq (k15_chk7.eq_1 v51))
theorem k15_off14_inb : ∀ (v51 : BitVec 32) (k15_hw7 : k15_chk7 v51), ∀ a, (k15_off14 v51) a + S1x128.size a ≤ S100000x128.size a := fun v51 k15_hw7 => k15_hw7.1
theorem k15_off39_inb : ∀ (v51 : BitVec 32) (k15_hw7 : k15_chk7 v51), ∀ a, (k15_off39 v51) a + S1x128.size a ≤ S100000x128.size a := fun v51 k15_hw7 => k15_hw7.2

def k15_off40 (v59 : BitVec 32) : Fin 2 → Nat :=
  let c0_i32_79 : BitVec 32 := 0#32
  ![v59.toNat, 0]

def k15_chk8 (v59 : BitVec 32) : Prop :=
  (∀ a, (k15_off16 v59) a + S1x128.size a ≤ S100000x128.size a) ∧
  (∀ a, (k15_off40 v59) a + S1x128.size a ≤ S100000x128.size a)
instance k15_chk8.dec : ∀ (v59 : BitVec 32), Decidable (k15_chk8 v59) := fun v59 => decidable_of_iff' _ (Iff.of_eq (k15_chk8.eq_1 v59))
theorem k15_off16_inb : ∀ (v59 : BitVec 32) (k15_hw8 : k15_chk8 v59), ∀ a, (k15_off16 v59) a + S1x128.size a ≤ S100000x128.size a := fun v59 k15_hw8 => k15_hw8.1
theorem k15_off40_inb : ∀ (v59 : BitVec 32) (k15_hw8 : k15_chk8 v59), ∀ a, (k15_off40 v59) a + S1x128.size a ≤ S100000x128.size a := fun v59 k15_hw8 => k15_hw8.2

def k15_off41 (v67 : BitVec 32) : Fin 2 → Nat :=
  let c0_i32_83 : BitVec 32 := 0#32
  ![v67.toNat, 0]

def k15_chk9 (v67 : BitVec 32) : Prop :=
  (∀ a, (k15_off18 v67) a + S1x128.size a ≤ S100000x128.size a) ∧
  (∀ a, (k15_off41 v67) a + S1x128.size a ≤ S100000x128.size a)
instance k15_chk9.dec : ∀ (v67 : BitVec 32), Decidable (k15_chk9 v67) := fun v67 => decidable_of_iff' _ (Iff.of_eq (k15_chk9.eq_1 v67))
theorem k15_off18_inb : ∀ (v67 : BitVec 32) (k15_hw9 : k15_chk9 v67), ∀ a, (k15_off18 v67) a + S1x128.size a ≤ S100000x128.size a := fun v67 k15_hw9 => k15_hw9.1
theorem k15_off41_inb : ∀ (v67 : BitVec 32) (k15_hw9 : k15_chk9 v67), ∀ a, (k15_off41 v67) a + S1x128.size a ≤ S100000x128.size a := fun v67 k15_hw9 => k15_hw9.2

def k15_off42 (v75 : BitVec 32) : Fin 2 → Nat :=
  let c0_i32_87 : BitVec 32 := 0#32
  ![v75.toNat, 0]

def k15_chk10 (v75 : BitVec 32) : Prop :=
  (∀ a, (k15_off20 v75) a + S1x128.size a ≤ S100000x128.size a) ∧
  (∀ a, (k15_off42 v75) a + S1x128.size a ≤ S100000x128.size a)
instance k15_chk10.dec : ∀ (v75 : BitVec 32), Decidable (k15_chk10 v75) := fun v75 => decidable_of_iff' _ (Iff.of_eq (k15_chk10.eq_1 v75))
theorem k15_off20_inb : ∀ (v75 : BitVec 32) (k15_hw10 : k15_chk10 v75), ∀ a, (k15_off20 v75) a + S1x128.size a ≤ S100000x128.size a := fun v75 k15_hw10 => k15_hw10.1
theorem k15_off42_inb : ∀ (v75 : BitVec 32) (k15_hw10 : k15_chk10 v75), ∀ a, (k15_off42 v75) a + S1x128.size a ≤ S100000x128.size a := fun v75 k15_hw10 => k15_hw10.2

def k15_off43 (v83 : BitVec 32) : Fin 2 → Nat :=
  let c0_i32_91 : BitVec 32 := 0#32
  ![v83.toNat, 0]

def k15_chk11 (v83 : BitVec 32) : Prop :=
  (∀ a, (k15_off22 v83) a + S1x128.size a ≤ S100000x128.size a) ∧
  (∀ a, (k15_off43 v83) a + S1x128.size a ≤ S100000x128.size a)
instance k15_chk11.dec : ∀ (v83 : BitVec 32), Decidable (k15_chk11 v83) := fun v83 => decidable_of_iff' _ (Iff.of_eq (k15_chk11.eq_1 v83))
theorem k15_off22_inb : ∀ (v83 : BitVec 32) (k15_hw11 : k15_chk11 v83), ∀ a, (k15_off22 v83) a + S1x128.size a ≤ S100000x128.size a := fun v83 k15_hw11 => k15_hw11.1
theorem k15_off43_inb : ∀ (v83 : BitVec 32) (k15_hw11 : k15_chk11 v83), ∀ a, (k15_off43 v83) a + S1x128.size a ≤ S100000x128.size a := fun v83 k15_hw11 => k15_hw11.2

def k15_off44 (v91 : BitVec 32) : Fin 2 → Nat :=
  let c0_i32_95 : BitVec 32 := 0#32
  ![v91.toNat, 0]

def k15_chk12 (v91 : BitVec 32) : Prop :=
  (∀ a, (k15_off24 v91) a + S1x128.size a ≤ S100000x128.size a) ∧
  (∀ a, (k15_off44 v91) a + S1x128.size a ≤ S100000x128.size a)
instance k15_chk12.dec : ∀ (v91 : BitVec 32), Decidable (k15_chk12 v91) := fun v91 => decidable_of_iff' _ (Iff.of_eq (k15_chk12.eq_1 v91))
theorem k15_off24_inb : ∀ (v91 : BitVec 32) (k15_hw12 : k15_chk12 v91), ∀ a, (k15_off24 v91) a + S1x128.size a ≤ S100000x128.size a := fun v91 k15_hw12 => k15_hw12.1
theorem k15_off44_inb : ∀ (v91 : BitVec 32) (k15_hw12 : k15_chk12 v91), ∀ a, (k15_off44 v91) a + S1x128.size a ≤ S100000x128.size a := fun v91 k15_hw12 => k15_hw12.2

def k15_off45 (v99 : BitVec 32) : Fin 2 → Nat :=
  let c0_i32_99 : BitVec 32 := 0#32
  ![v99.toNat, 0]

def k15_chk13 (v99 : BitVec 32) : Prop :=
  (∀ a, (k15_off26 v99) a + S1x128.size a ≤ S100000x128.size a) ∧
  (∀ a, (k15_off45 v99) a + S1x128.size a ≤ S100000x128.size a)
instance k15_chk13.dec : ∀ (v99 : BitVec 32), Decidable (k15_chk13 v99) := fun v99 => decidable_of_iff' _ (Iff.of_eq (k15_chk13.eq_1 v99))
theorem k15_off26_inb : ∀ (v99 : BitVec 32) (k15_hw13 : k15_chk13 v99), ∀ a, (k15_off26 v99) a + S1x128.size a ≤ S100000x128.size a := fun v99 k15_hw13 => k15_hw13.1
theorem k15_off45_inb : ∀ (v99 : BitVec 32) (k15_hw13 : k15_chk13 v99), ∀ a, (k15_off45 v99) a + S1x128.size a ≤ S100000x128.size a := fun v99 k15_hw13 => k15_hw13.2

def k15_off46 (v107 : BitVec 32) : Fin 2 → Nat :=
  let c0_i32_103 : BitVec 32 := 0#32
  ![v107.toNat, 0]

def k15_chk14 (v107 : BitVec 32) : Prop :=
  (∀ a, (k15_off28 v107) a + S1x128.size a ≤ S100000x128.size a) ∧
  (∀ a, (k15_off46 v107) a + S1x128.size a ≤ S100000x128.size a)
instance k15_chk14.dec : ∀ (v107 : BitVec 32), Decidable (k15_chk14 v107) := fun v107 => decidable_of_iff' _ (Iff.of_eq (k15_chk14.eq_1 v107))
theorem k15_off28_inb : ∀ (v107 : BitVec 32) (k15_hw14 : k15_chk14 v107), ∀ a, (k15_off28 v107) a + S1x128.size a ≤ S100000x128.size a := fun v107 k15_hw14 => k15_hw14.1
theorem k15_off46_inb : ∀ (v107 : BitVec 32) (k15_hw14 : k15_chk14 v107), ∀ a, (k15_off46 v107) a + S1x128.size a ≤ S100000x128.size a := fun v107 k15_hw14 => k15_hw14.2

def k15_off47 (v115 : BitVec 32) : Fin 2 → Nat :=
  let c0_i32_107 : BitVec 32 := 0#32
  ![v115.toNat, 0]

def k15_chk15 (v115 : BitVec 32) : Prop :=
  (∀ a, (k15_off30 v115) a + S1x128.size a ≤ S100000x128.size a) ∧
  (∀ a, (k15_off47 v115) a + S1x128.size a ≤ S100000x128.size a)
instance k15_chk15.dec : ∀ (v115 : BitVec 32), Decidable (k15_chk15 v115) := fun v115 => decidable_of_iff' _ (Iff.of_eq (k15_chk15.eq_1 v115))
theorem k15_off30_inb : ∀ (v115 : BitVec 32) (k15_hw15 : k15_chk15 v115), ∀ a, (k15_off30 v115) a + S1x128.size a ≤ S100000x128.size a := fun v115 k15_hw15 => k15_hw15.1
theorem k15_off47_inb : ∀ (v115 : BitVec 32) (k15_hw15 : k15_chk15 v115), ∀ a, (k15_off47 v115) a + S1x128.size a ≤ S100000x128.size a := fun v115 k15_hw15 => k15_hw15.2

def k15_off48 (i : grid15.Coords) : Fin 2 → Nat :=
  let arg1 : BitVec 32 := BitVec.ofNat 32 (i 1).val
  let v230 : Index := Scalar.indexCast arg1
  let c0_115 : Index := 0#32
  ![v230.toNat, 0]
def k15_cond1 (i : grid15.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage15_0 : Fin 1 → Memref sig .tc .vmem S128x128 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false, false]

abbrev stage15_1 : Fin 2 → Memref sig .tc .vmem S1000x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true, false]

abbrev grid16 : Pipeline.Grid := ⟨2, ![2, 1000], ![false, false]⟩

abbrev pre16 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

def k16_off1 (i : grid16.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k16_off2 (v3 : BitVec 32) : Fin 2 → Nat :=
  let c0_i32_2 : BitVec 32 := 0#32
  ![v3.toNat, 0]

def k16_off3 (i : grid16.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k16_off4 (v11 : BitVec 32) : Fin 2 → Nat :=
  let c0_i32_5 : BitVec 32 := 0#32
  ![v11.toNat, 0]

def k16_off5 (i : grid16.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k16_off6 (v19 : BitVec 32) : Fin 2 → Nat :=
  let c0_i32_8 : BitVec 32 := 0#32
  ![v19.toNat, 0]

def k16_off7 (i : grid16.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k16_off8 (v27 : BitVec 32) : Fin 2 → Nat :=
  let c0_i32_11 : BitVec 32 := 0#32
  ![v27.toNat, 0]

def k16_off9 (i : grid16.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k16_off10 (v35 : BitVec 32) : Fin 2 → Nat :=
  let c0_i32_14 : BitVec 32 := 0#32
  ![v35.toNat, 0]

def k16_off11 (i : grid16.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k16_off12 (v43 : BitVec 32) : Fin 2 → Nat :=
  let c0_i32_17 : BitVec 32 := 0#32
  ![v43.toNat, 0]

def k16_off13 (i : grid16.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k16_off14 (v51 : BitVec 32) : Fin 2 → Nat :=
  let c0_i32_20 : BitVec 32 := 0#32
  ![v51.toNat, 0]

def k16_off15 (i : grid16.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k16_off16 (v59 : BitVec 32) : Fin 2 → Nat :=
  let c0_i32_23 : BitVec 32 := 0#32
  ![v59.toNat, 0]

def k16_off17 (i : grid16.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k16_off18 (v67 : BitVec 32) : Fin 2 → Nat :=
  let c0_i32_26 : BitVec 32 := 0#32
  ![v67.toNat, 0]

def k16_off19 (i : grid16.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k16_off20 (v75 : BitVec 32) : Fin 2 → Nat :=
  let c0_i32_29 : BitVec 32 := 0#32
  ![v75.toNat, 0]

def k16_off21 (i : grid16.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k16_off22 (v83 : BitVec 32) : Fin 2 → Nat :=
  let c0_i32_32 : BitVec 32 := 0#32
  ![v83.toNat, 0]

def k16_off23 (i : grid16.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k16_off24 (v91 : BitVec 32) : Fin 2 → Nat :=
  let c0_i32_35 : BitVec 32 := 0#32
  ![v91.toNat, 0]

def k16_off25 (i : grid16.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k16_off26 (v99 : BitVec 32) : Fin 2 → Nat :=
  let c0_i32_38 : BitVec 32 := 0#32
  ![v99.toNat, 0]

def k16_off27 (i : grid16.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k16_off28 (v107 : BitVec 32) : Fin 2 → Nat :=
  let c0_i32_41 : BitVec 32 := 0#32
  ![v107.toNat, 0]

def k16_off29 (i : grid16.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k16_off30 (v115 : BitVec 32) : Fin 2 → Nat :=
  let c0_i32_44 : BitVec 32 := 0#32
  ![v115.toNat, 0]

def k16_off31 (i : grid16.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k16_off32 (v123 : BitVec 32) : Fin 2 → Nat :=
  let c0_i32_47 : BitVec 32 := 0#32
  ![v123.toNat, 0]

def k16_chk16 (v123 : BitVec 32) : Prop :=
  (∀ a, (k16_off32 v123) a + S1x128.size a ≤ S100000x128.size a)
instance k16_chk16.dec : ∀ (v123 : BitVec 32), Decidable (k16_chk16 v123) := fun v123 => decidable_of_iff' _ (Iff.of_eq (k16_chk16.eq_1 v123))
theorem k16_off32_inb : ∀ (v123 : BitVec 32) (k16_hw16 : k16_chk16 v123), ∀ a, (k16_off32 v123) a + S1x128.size a ≤ S100000x128.size a := fun v123 k16_hw16 => k16_hw16

def k16_off33 (v3 : BitVec 32) : Fin 2 → Nat :=
  let c0_i32_51 : BitVec 32 := 0#32
  ![v3.toNat, 0]

def k16_chk1 (v3 : BitVec 32) : Prop :=
  (∀ a, (k16_off2 v3) a + S1x128.size a ≤ S100000x128.size a) ∧
  (∀ a, (k16_off33 v3) a + S1x128.size a ≤ S100000x128.size a)
instance k16_chk1.dec : ∀ (v3 : BitVec 32), Decidable (k16_chk1 v3) := fun v3 => decidable_of_iff' _ (Iff.of_eq (k16_chk1.eq_1 v3))
theorem k16_off2_inb : ∀ (v3 : BitVec 32) (k16_hw1 : k16_chk1 v3), ∀ a, (k16_off2 v3) a + S1x128.size a ≤ S100000x128.size a := fun v3 k16_hw1 => k16_hw1.1
theorem k16_off33_inb : ∀ (v3 : BitVec 32) (k16_hw1 : k16_chk1 v3), ∀ a, (k16_off33 v3) a + S1x128.size a ≤ S100000x128.size a := fun v3 k16_hw1 => k16_hw1.2

def k16_off34 (v11 : BitVec 32) : Fin 2 → Nat :=
  let c0_i32_55 : BitVec 32 := 0#32
  ![v11.toNat, 0]

def k16_chk2 (v11 : BitVec 32) : Prop :=
  (∀ a, (k16_off4 v11) a + S1x128.size a ≤ S100000x128.size a) ∧
  (∀ a, (k16_off34 v11) a + S1x128.size a ≤ S100000x128.size a)
instance k16_chk2.dec : ∀ (v11 : BitVec 32), Decidable (k16_chk2 v11) := fun v11 => decidable_of_iff' _ (Iff.of_eq (k16_chk2.eq_1 v11))
theorem k16_off4_inb : ∀ (v11 : BitVec 32) (k16_hw2 : k16_chk2 v11), ∀ a, (k16_off4 v11) a + S1x128.size a ≤ S100000x128.size a := fun v11 k16_hw2 => k16_hw2.1
theorem k16_off34_inb : ∀ (v11 : BitVec 32) (k16_hw2 : k16_chk2 v11), ∀ a, (k16_off34 v11) a + S1x128.size a ≤ S100000x128.size a := fun v11 k16_hw2 => k16_hw2.2

def k16_off35 (v19 : BitVec 32) : Fin 2 → Nat :=
  let c0_i32_59 : BitVec 32 := 0#32
  ![v19.toNat, 0]

def k16_chk3 (v19 : BitVec 32) : Prop :=
  (∀ a, (k16_off6 v19) a + S1x128.size a ≤ S100000x128.size a) ∧
  (∀ a, (k16_off35 v19) a + S1x128.size a ≤ S100000x128.size a)
instance k16_chk3.dec : ∀ (v19 : BitVec 32), Decidable (k16_chk3 v19) := fun v19 => decidable_of_iff' _ (Iff.of_eq (k16_chk3.eq_1 v19))
theorem k16_off6_inb : ∀ (v19 : BitVec 32) (k16_hw3 : k16_chk3 v19), ∀ a, (k16_off6 v19) a + S1x128.size a ≤ S100000x128.size a := fun v19 k16_hw3 => k16_hw3.1
theorem k16_off35_inb : ∀ (v19 : BitVec 32) (k16_hw3 : k16_chk3 v19), ∀ a, (k16_off35 v19) a + S1x128.size a ≤ S100000x128.size a := fun v19 k16_hw3 => k16_hw3.2

def k16_off36 (v27 : BitVec 32) : Fin 2 → Nat :=
  let c0_i32_63 : BitVec 32 := 0#32
  ![v27.toNat, 0]

def k16_chk4 (v27 : BitVec 32) : Prop :=
  (∀ a, (k16_off8 v27) a + S1x128.size a ≤ S100000x128.size a) ∧
  (∀ a, (k16_off36 v27) a + S1x128.size a ≤ S100000x128.size a)
instance k16_chk4.dec : ∀ (v27 : BitVec 32), Decidable (k16_chk4 v27) := fun v27 => decidable_of_iff' _ (Iff.of_eq (k16_chk4.eq_1 v27))
theorem k16_off8_inb : ∀ (v27 : BitVec 32) (k16_hw4 : k16_chk4 v27), ∀ a, (k16_off8 v27) a + S1x128.size a ≤ S100000x128.size a := fun v27 k16_hw4 => k16_hw4.1
theorem k16_off36_inb : ∀ (v27 : BitVec 32) (k16_hw4 : k16_chk4 v27), ∀ a, (k16_off36 v27) a + S1x128.size a ≤ S100000x128.size a := fun v27 k16_hw4 => k16_hw4.2

def k16_off37 (v35 : BitVec 32) : Fin 2 → Nat :=
  let c0_i32_67 : BitVec 32 := 0#32
  ![v35.toNat, 0]

def k16_chk5 (v35 : BitVec 32) : Prop :=
  (∀ a, (k16_off10 v35) a + S1x128.size a ≤ S100000x128.size a) ∧
  (∀ a, (k16_off37 v35) a + S1x128.size a ≤ S100000x128.size a)
instance k16_chk5.dec : ∀ (v35 : BitVec 32), Decidable (k16_chk5 v35) := fun v35 => decidable_of_iff' _ (Iff.of_eq (k16_chk5.eq_1 v35))
theorem k16_off10_inb : ∀ (v35 : BitVec 32) (k16_hw5 : k16_chk5 v35), ∀ a, (k16_off10 v35) a + S1x128.size a ≤ S100000x128.size a := fun v35 k16_hw5 => k16_hw5.1
theorem k16_off37_inb : ∀ (v35 : BitVec 32) (k16_hw5 : k16_chk5 v35), ∀ a, (k16_off37 v35) a + S1x128.size a ≤ S100000x128.size a := fun v35 k16_hw5 => k16_hw5.2

def k16_off38 (v43 : BitVec 32) : Fin 2 → Nat :=
  let c0_i32_71 : BitVec 32 := 0#32
  ![v43.toNat, 0]

def k16_chk6 (v43 : BitVec 32) : Prop :=
  (∀ a, (k16_off12 v43) a + S1x128.size a ≤ S100000x128.size a) ∧
  (∀ a, (k16_off38 v43) a + S1x128.size a ≤ S100000x128.size a)
instance k16_chk6.dec : ∀ (v43 : BitVec 32), Decidable (k16_chk6 v43) := fun v43 => decidable_of_iff' _ (Iff.of_eq (k16_chk6.eq_1 v43))
theorem k16_off12_inb : ∀ (v43 : BitVec 32) (k16_hw6 : k16_chk6 v43), ∀ a, (k16_off12 v43) a + S1x128.size a ≤ S100000x128.size a := fun v43 k16_hw6 => k16_hw6.1
theorem k16_off38_inb : ∀ (v43 : BitVec 32) (k16_hw6 : k16_chk6 v43), ∀ a, (k16_off38 v43) a + S1x128.size a ≤ S100000x128.size a := fun v43 k16_hw6 => k16_hw6.2

def k16_off39 (v51 : BitVec 32) : Fin 2 → Nat :=
  let c0_i32_75 : BitVec 32 := 0#32
  ![v51.toNat, 0]

def k16_chk7 (v51 : BitVec 32) : Prop :=
  (∀ a, (k16_off14 v51) a + S1x128.size a ≤ S100000x128.size a) ∧
  (∀ a, (k16_off39 v51) a + S1x128.size a ≤ S100000x128.size a)
instance k16_chk7.dec : ∀ (v51 : BitVec 32), Decidable (k16_chk7 v51) := fun v51 => decidable_of_iff' _ (Iff.of_eq (k16_chk7.eq_1 v51))
theorem k16_off14_inb : ∀ (v51 : BitVec 32) (k16_hw7 : k16_chk7 v51), ∀ a, (k16_off14 v51) a + S1x128.size a ≤ S100000x128.size a := fun v51 k16_hw7 => k16_hw7.1
theorem k16_off39_inb : ∀ (v51 : BitVec 32) (k16_hw7 : k16_chk7 v51), ∀ a, (k16_off39 v51) a + S1x128.size a ≤ S100000x128.size a := fun v51 k16_hw7 => k16_hw7.2

def k16_off40 (v59 : BitVec 32) : Fin 2 → Nat :=
  let c0_i32_79 : BitVec 32 := 0#32
  ![v59.toNat, 0]

def k16_chk8 (v59 : BitVec 32) : Prop :=
  (∀ a, (k16_off16 v59) a + S1x128.size a ≤ S100000x128.size a) ∧
  (∀ a, (k16_off40 v59) a + S1x128.size a ≤ S100000x128.size a)
instance k16_chk8.dec : ∀ (v59 : BitVec 32), Decidable (k16_chk8 v59) := fun v59 => decidable_of_iff' _ (Iff.of_eq (k16_chk8.eq_1 v59))
theorem k16_off16_inb : ∀ (v59 : BitVec 32) (k16_hw8 : k16_chk8 v59), ∀ a, (k16_off16 v59) a + S1x128.size a ≤ S100000x128.size a := fun v59 k16_hw8 => k16_hw8.1
theorem k16_off40_inb : ∀ (v59 : BitVec 32) (k16_hw8 : k16_chk8 v59), ∀ a, (k16_off40 v59) a + S1x128.size a ≤ S100000x128.size a := fun v59 k16_hw8 => k16_hw8.2

def k16_off41 (v67 : BitVec 32) : Fin 2 → Nat :=
  let c0_i32_83 : BitVec 32 := 0#32
  ![v67.toNat, 0]

def k16_chk9 (v67 : BitVec 32) : Prop :=
  (∀ a, (k16_off18 v67) a + S1x128.size a ≤ S100000x128.size a) ∧
  (∀ a, (k16_off41 v67) a + S1x128.size a ≤ S100000x128.size a)
instance k16_chk9.dec : ∀ (v67 : BitVec 32), Decidable (k16_chk9 v67) := fun v67 => decidable_of_iff' _ (Iff.of_eq (k16_chk9.eq_1 v67))
theorem k16_off18_inb : ∀ (v67 : BitVec 32) (k16_hw9 : k16_chk9 v67), ∀ a, (k16_off18 v67) a + S1x128.size a ≤ S100000x128.size a := fun v67 k16_hw9 => k16_hw9.1
theorem k16_off41_inb : ∀ (v67 : BitVec 32) (k16_hw9 : k16_chk9 v67), ∀ a, (k16_off41 v67) a + S1x128.size a ≤ S100000x128.size a := fun v67 k16_hw9 => k16_hw9.2

def k16_off42 (v75 : BitVec 32) : Fin 2 → Nat :=
  let c0_i32_87 : BitVec 32 := 0#32
  ![v75.toNat, 0]

def k16_chk10 (v75 : BitVec 32) : Prop :=
  (∀ a, (k16_off20 v75) a + S1x128.size a ≤ S100000x128.size a) ∧
  (∀ a, (k16_off42 v75) a + S1x128.size a ≤ S100000x128.size a)
instance k16_chk10.dec : ∀ (v75 : BitVec 32), Decidable (k16_chk10 v75) := fun v75 => decidable_of_iff' _ (Iff.of_eq (k16_chk10.eq_1 v75))
theorem k16_off20_inb : ∀ (v75 : BitVec 32) (k16_hw10 : k16_chk10 v75), ∀ a, (k16_off20 v75) a + S1x128.size a ≤ S100000x128.size a := fun v75 k16_hw10 => k16_hw10.1
theorem k16_off42_inb : ∀ (v75 : BitVec 32) (k16_hw10 : k16_chk10 v75), ∀ a, (k16_off42 v75) a + S1x128.size a ≤ S100000x128.size a := fun v75 k16_hw10 => k16_hw10.2

def k16_off43 (v83 : BitVec 32) : Fin 2 → Nat :=
  let c0_i32_91 : BitVec 32 := 0#32
  ![v83.toNat, 0]

def k16_chk11 (v83 : BitVec 32) : Prop :=
  (∀ a, (k16_off22 v83) a + S1x128.size a ≤ S100000x128.size a) ∧
  (∀ a, (k16_off43 v83) a + S1x128.size a ≤ S100000x128.size a)
instance k16_chk11.dec : ∀ (v83 : BitVec 32), Decidable (k16_chk11 v83) := fun v83 => decidable_of_iff' _ (Iff.of_eq (k16_chk11.eq_1 v83))
theorem k16_off22_inb : ∀ (v83 : BitVec 32) (k16_hw11 : k16_chk11 v83), ∀ a, (k16_off22 v83) a + S1x128.size a ≤ S100000x128.size a := fun v83 k16_hw11 => k16_hw11.1
theorem k16_off43_inb : ∀ (v83 : BitVec 32) (k16_hw11 : k16_chk11 v83), ∀ a, (k16_off43 v83) a + S1x128.size a ≤ S100000x128.size a := fun v83 k16_hw11 => k16_hw11.2

def k16_off44 (v91 : BitVec 32) : Fin 2 → Nat :=
  let c0_i32_95 : BitVec 32 := 0#32
  ![v91.toNat, 0]

def k16_chk12 (v91 : BitVec 32) : Prop :=
  (∀ a, (k16_off24 v91) a + S1x128.size a ≤ S100000x128.size a) ∧
  (∀ a, (k16_off44 v91) a + S1x128.size a ≤ S100000x128.size a)
instance k16_chk12.dec : ∀ (v91 : BitVec 32), Decidable (k16_chk12 v91) := fun v91 => decidable_of_iff' _ (Iff.of_eq (k16_chk12.eq_1 v91))
theorem k16_off24_inb : ∀ (v91 : BitVec 32) (k16_hw12 : k16_chk12 v91), ∀ a, (k16_off24 v91) a + S1x128.size a ≤ S100000x128.size a := fun v91 k16_hw12 => k16_hw12.1
theorem k16_off44_inb : ∀ (v91 : BitVec 32) (k16_hw12 : k16_chk12 v91), ∀ a, (k16_off44 v91) a + S1x128.size a ≤ S100000x128.size a := fun v91 k16_hw12 => k16_hw12.2

def k16_off45 (v99 : BitVec 32) : Fin 2 → Nat :=
  let c0_i32_99 : BitVec 32 := 0#32
  ![v99.toNat, 0]

def k16_chk13 (v99 : BitVec 32) : Prop :=
  (∀ a, (k16_off26 v99) a + S1x128.size a ≤ S100000x128.size a) ∧
  (∀ a, (k16_off45 v99) a + S1x128.size a ≤ S100000x128.size a)
instance k16_chk13.dec : ∀ (v99 : BitVec 32), Decidable (k16_chk13 v99) := fun v99 => decidable_of_iff' _ (Iff.of_eq (k16_chk13.eq_1 v99))
theorem k16_off26_inb : ∀ (v99 : BitVec 32) (k16_hw13 : k16_chk13 v99), ∀ a, (k16_off26 v99) a + S1x128.size a ≤ S100000x128.size a := fun v99 k16_hw13 => k16_hw13.1
theorem k16_off45_inb : ∀ (v99 : BitVec 32) (k16_hw13 : k16_chk13 v99), ∀ a, (k16_off45 v99) a + S1x128.size a ≤ S100000x128.size a := fun v99 k16_hw13 => k16_hw13.2

def k16_off46 (v107 : BitVec 32) : Fin 2 → Nat :=
  let c0_i32_103 : BitVec 32 := 0#32
  ![v107.toNat, 0]

def k16_chk14 (v107 : BitVec 32) : Prop :=
  (∀ a, (k16_off28 v107) a + S1x128.size a ≤ S100000x128.size a) ∧
  (∀ a, (k16_off46 v107) a + S1x128.size a ≤ S100000x128.size a)
instance k16_chk14.dec : ∀ (v107 : BitVec 32), Decidable (k16_chk14 v107) := fun v107 => decidable_of_iff' _ (Iff.of_eq (k16_chk14.eq_1 v107))
theorem k16_off28_inb : ∀ (v107 : BitVec 32) (k16_hw14 : k16_chk14 v107), ∀ a, (k16_off28 v107) a + S1x128.size a ≤ S100000x128.size a := fun v107 k16_hw14 => k16_hw14.1
theorem k16_off46_inb : ∀ (v107 : BitVec 32) (k16_hw14 : k16_chk14 v107), ∀ a, (k16_off46 v107) a + S1x128.size a ≤ S100000x128.size a := fun v107 k16_hw14 => k16_hw14.2

def k16_off47 (v115 : BitVec 32) : Fin 2 → Nat :=
  let c0_i32_107 : BitVec 32 := 0#32
  ![v115.toNat, 0]

def k16_chk15 (v115 : BitVec 32) : Prop :=
  (∀ a, (k16_off30 v115) a + S1x128.size a ≤ S100000x128.size a) ∧
  (∀ a, (k16_off47 v115) a + S1x128.size a ≤ S100000x128.size a)
instance k16_chk15.dec : ∀ (v115 : BitVec 32), Decidable (k16_chk15 v115) := fun v115 => decidable_of_iff' _ (Iff.of_eq (k16_chk15.eq_1 v115))
theorem k16_off30_inb : ∀ (v115 : BitVec 32) (k16_hw15 : k16_chk15 v115), ∀ a, (k16_off30 v115) a + S1x128.size a ≤ S100000x128.size a := fun v115 k16_hw15 => k16_hw15.1
theorem k16_off47_inb : ∀ (v115 : BitVec 32) (k16_hw15 : k16_chk15 v115), ∀ a, (k16_off47 v115) a + S1x128.size a ≤ S100000x128.size a := fun v115 k16_hw15 => k16_hw15.2

def k16_off48 (i : grid16.Coords) : Fin 2 → Nat :=
  let arg1 : BitVec 32 := BitVec.ofNat 32 (i 1).val
  let v230 : Index := Scalar.indexCast arg1
  let c0_115 : Index := 0#32
  ![v230.toNat, 0]
def k16_cond1 (i : grid16.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage16_0 : Fin 1 → Memref sig .tc .vmem S128x128 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![false, false]

abbrev stage16_1 : Fin 2 → Memref sig .tc .vmem S1000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true, false]

abbrev grid17 : Pipeline.Grid := ⟨2, ![2, 1000], ![false, false]⟩

abbrev pre17 : Pipeline.Prefetch sig := ⟨1, ![main_v35.idx], fun | 0 => main_v35.names | ⟨_ + 1, h⟩ => absurd h (Nat.not_lt.2 (Nat.le_add_left _ _)), fun | 0 => rfl | ⟨_ + 1, h⟩ => absurd h (Nat.not_lt.2 (Nat.le_add_left _ _))⟩

def k17_off1 (i : grid17.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k17_off2 (v3 : BitVec 32) : Fin 2 → Nat :=
  let c0_i32_2 : BitVec 32 := 0#32
  ![v3.toNat, 0]

def k17_off3 (i : grid17.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k17_off4 (v11 : BitVec 32) : Fin 2 → Nat :=
  let c0_i32_5 : BitVec 32 := 0#32
  ![v11.toNat, 0]

def k17_off5 (i : grid17.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k17_off6 (v19 : BitVec 32) : Fin 2 → Nat :=
  let c0_i32_8 : BitVec 32 := 0#32
  ![v19.toNat, 0]

def k17_off7 (i : grid17.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k17_off8 (v27 : BitVec 32) : Fin 2 → Nat :=
  let c0_i32_11 : BitVec 32 := 0#32
  ![v27.toNat, 0]

def k17_off9 (i : grid17.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k17_off10 (v35 : BitVec 32) : Fin 2 → Nat :=
  let c0_i32_14 : BitVec 32 := 0#32
  ![v35.toNat, 0]

def k17_off11 (i : grid17.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k17_off12 (v43 : BitVec 32) : Fin 2 → Nat :=
  let c0_i32_17 : BitVec 32 := 0#32
  ![v43.toNat, 0]

def k17_off13 (i : grid17.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k17_off14 (v51 : BitVec 32) : Fin 2 → Nat :=
  let c0_i32_20 : BitVec 32 := 0#32
  ![v51.toNat, 0]

def k17_off15 (i : grid17.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k17_off16 (v59 : BitVec 32) : Fin 2 → Nat :=
  let c0_i32_23 : BitVec 32 := 0#32
  ![v59.toNat, 0]

def k17_off17 (i : grid17.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k17_off18 (v67 : BitVec 32) : Fin 2 → Nat :=
  let c0_i32_26 : BitVec 32 := 0#32
  ![v67.toNat, 0]

def k17_off19 (i : grid17.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k17_off20 (v75 : BitVec 32) : Fin 2 → Nat :=
  let c0_i32_29 : BitVec 32 := 0#32
  ![v75.toNat, 0]

def k17_off21 (i : grid17.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k17_off22 (v83 : BitVec 32) : Fin 2 → Nat :=
  let c0_i32_32 : BitVec 32 := 0#32
  ![v83.toNat, 0]

def k17_off23 (i : grid17.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k17_off24 (v91 : BitVec 32) : Fin 2 → Nat :=
  let c0_i32_35 : BitVec 32 := 0#32
  ![v91.toNat, 0]

def k17_off25 (i : grid17.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k17_off26 (v99 : BitVec 32) : Fin 2 → Nat :=
  let c0_i32_38 : BitVec 32 := 0#32
  ![v99.toNat, 0]

def k17_off27 (i : grid17.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k17_off28 (v107 : BitVec 32) : Fin 2 → Nat :=
  let c0_i32_41 : BitVec 32 := 0#32
  ![v107.toNat, 0]

def k17_off29 (i : grid17.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k17_off30 (v115 : BitVec 32) : Fin 2 → Nat :=
  let c0_i32_44 : BitVec 32 := 0#32
  ![v115.toNat, 0]

def k17_off31 (i : grid17.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k17_off32 (v123 : BitVec 32) : Fin 2 → Nat :=
  let c0_i32_47 : BitVec 32 := 0#32
  ![v123.toNat, 0]

def k17_chk16 (v123 : BitVec 32) : Prop :=
  (∀ a, (k17_off32 v123) a + S1x128.size a ≤ S100000x128.size a)
instance k17_chk16.dec : ∀ (v123 : BitVec 32), Decidable (k17_chk16 v123) := fun v123 => decidable_of_iff' _ (Iff.of_eq (k17_chk16.eq_1 v123))
theorem k17_off32_inb : ∀ (v123 : BitVec 32) (k17_hw16 : k17_chk16 v123), ∀ a, (k17_off32 v123) a + S1x128.size a ≤ S100000x128.size a := fun v123 k17_hw16 => k17_hw16

def k17_off33 (v3 : BitVec 32) : Fin 2 → Nat :=
  let c0_i32_51 : BitVec 32 := 0#32
  ![v3.toNat, 0]

def k17_chk1 (v3 : BitVec 32) : Prop :=
  (∀ a, (k17_off2 v3) a + S1x128.size a ≤ S100000x128.size a) ∧
  (∀ a, (k17_off33 v3) a + S1x128.size a ≤ S100000x128.size a)
instance k17_chk1.dec : ∀ (v3 : BitVec 32), Decidable (k17_chk1 v3) := fun v3 => decidable_of_iff' _ (Iff.of_eq (k17_chk1.eq_1 v3))
theorem k17_off2_inb : ∀ (v3 : BitVec 32) (k17_hw1 : k17_chk1 v3), ∀ a, (k17_off2 v3) a + S1x128.size a ≤ S100000x128.size a := fun v3 k17_hw1 => k17_hw1.1
theorem k17_off33_inb : ∀ (v3 : BitVec 32) (k17_hw1 : k17_chk1 v3), ∀ a, (k17_off33 v3) a + S1x128.size a ≤ S100000x128.size a := fun v3 k17_hw1 => k17_hw1.2

def k17_off34 (v11 : BitVec 32) : Fin 2 → Nat :=
  let c0_i32_55 : BitVec 32 := 0#32
  ![v11.toNat, 0]

def k17_chk2 (v11 : BitVec 32) : Prop :=
  (∀ a, (k17_off4 v11) a + S1x128.size a ≤ S100000x128.size a) ∧
  (∀ a, (k17_off34 v11) a + S1x128.size a ≤ S100000x128.size a)
instance k17_chk2.dec : ∀ (v11 : BitVec 32), Decidable (k17_chk2 v11) := fun v11 => decidable_of_iff' _ (Iff.of_eq (k17_chk2.eq_1 v11))
theorem k17_off4_inb : ∀ (v11 : BitVec 32) (k17_hw2 : k17_chk2 v11), ∀ a, (k17_off4 v11) a + S1x128.size a ≤ S100000x128.size a := fun v11 k17_hw2 => k17_hw2.1
theorem k17_off34_inb : ∀ (v11 : BitVec 32) (k17_hw2 : k17_chk2 v11), ∀ a, (k17_off34 v11) a + S1x128.size a ≤ S100000x128.size a := fun v11 k17_hw2 => k17_hw2.2

def k17_off35 (v19 : BitVec 32) : Fin 2 → Nat :=
  let c0_i32_59 : BitVec 32 := 0#32
  ![v19.toNat, 0]

def k17_chk3 (v19 : BitVec 32) : Prop :=
  (∀ a, (k17_off6 v19) a + S1x128.size a ≤ S100000x128.size a) ∧
  (∀ a, (k17_off35 v19) a + S1x128.size a ≤ S100000x128.size a)
instance k17_chk3.dec : ∀ (v19 : BitVec 32), Decidable (k17_chk3 v19) := fun v19 => decidable_of_iff' _ (Iff.of_eq (k17_chk3.eq_1 v19))
theorem k17_off6_inb : ∀ (v19 : BitVec 32) (k17_hw3 : k17_chk3 v19), ∀ a, (k17_off6 v19) a + S1x128.size a ≤ S100000x128.size a := fun v19 k17_hw3 => k17_hw3.1
theorem k17_off35_inb : ∀ (v19 : BitVec 32) (k17_hw3 : k17_chk3 v19), ∀ a, (k17_off35 v19) a + S1x128.size a ≤ S100000x128.size a := fun v19 k17_hw3 => k17_hw3.2

def k17_off36 (v27 : BitVec 32) : Fin 2 → Nat :=
  let c0_i32_63 : BitVec 32 := 0#32
  ![v27.toNat, 0]

def k17_chk4 (v27 : BitVec 32) : Prop :=
  (∀ a, (k17_off8 v27) a + S1x128.size a ≤ S100000x128.size a) ∧
  (∀ a, (k17_off36 v27) a + S1x128.size a ≤ S100000x128.size a)
instance k17_chk4.dec : ∀ (v27 : BitVec 32), Decidable (k17_chk4 v27) := fun v27 => decidable_of_iff' _ (Iff.of_eq (k17_chk4.eq_1 v27))
theorem k17_off8_inb : ∀ (v27 : BitVec 32) (k17_hw4 : k17_chk4 v27), ∀ a, (k17_off8 v27) a + S1x128.size a ≤ S100000x128.size a := fun v27 k17_hw4 => k17_hw4.1
theorem k17_off36_inb : ∀ (v27 : BitVec 32) (k17_hw4 : k17_chk4 v27), ∀ a, (k17_off36 v27) a + S1x128.size a ≤ S100000x128.size a := fun v27 k17_hw4 => k17_hw4.2

def k17_off37 (v35 : BitVec 32) : Fin 2 → Nat :=
  let c0_i32_67 : BitVec 32 := 0#32
  ![v35.toNat, 0]

def k17_chk5 (v35 : BitVec 32) : Prop :=
  (∀ a, (k17_off10 v35) a + S1x128.size a ≤ S100000x128.size a) ∧
  (∀ a, (k17_off37 v35) a + S1x128.size a ≤ S100000x128.size a)
instance k17_chk5.dec : ∀ (v35 : BitVec 32), Decidable (k17_chk5 v35) := fun v35 => decidable_of_iff' _ (Iff.of_eq (k17_chk5.eq_1 v35))
theorem k17_off10_inb : ∀ (v35 : BitVec 32) (k17_hw5 : k17_chk5 v35), ∀ a, (k17_off10 v35) a + S1x128.size a ≤ S100000x128.size a := fun v35 k17_hw5 => k17_hw5.1
theorem k17_off37_inb : ∀ (v35 : BitVec 32) (k17_hw5 : k17_chk5 v35), ∀ a, (k17_off37 v35) a + S1x128.size a ≤ S100000x128.size a := fun v35 k17_hw5 => k17_hw5.2

def k17_off38 (v43 : BitVec 32) : Fin 2 → Nat :=
  let c0_i32_71 : BitVec 32 := 0#32
  ![v43.toNat, 0]

def k17_chk6 (v43 : BitVec 32) : Prop :=
  (∀ a, (k17_off12 v43) a + S1x128.size a ≤ S100000x128.size a) ∧
  (∀ a, (k17_off38 v43) a + S1x128.size a ≤ S100000x128.size a)
instance k17_chk6.dec : ∀ (v43 : BitVec 32), Decidable (k17_chk6 v43) := fun v43 => decidable_of_iff' _ (Iff.of_eq (k17_chk6.eq_1 v43))
theorem k17_off12_inb : ∀ (v43 : BitVec 32) (k17_hw6 : k17_chk6 v43), ∀ a, (k17_off12 v43) a + S1x128.size a ≤ S100000x128.size a := fun v43 k17_hw6 => k17_hw6.1
theorem k17_off38_inb : ∀ (v43 : BitVec 32) (k17_hw6 : k17_chk6 v43), ∀ a, (k17_off38 v43) a + S1x128.size a ≤ S100000x128.size a := fun v43 k17_hw6 => k17_hw6.2

def k17_off39 (v51 : BitVec 32) : Fin 2 → Nat :=
  let c0_i32_75 : BitVec 32 := 0#32
  ![v51.toNat, 0]

def k17_chk7 (v51 : BitVec 32) : Prop :=
  (∀ a, (k17_off14 v51) a + S1x128.size a ≤ S100000x128.size a) ∧
  (∀ a, (k17_off39 v51) a + S1x128.size a ≤ S100000x128.size a)
instance k17_chk7.dec : ∀ (v51 : BitVec 32), Decidable (k17_chk7 v51) := fun v51 => decidable_of_iff' _ (Iff.of_eq (k17_chk7.eq_1 v51))
theorem k17_off14_inb : ∀ (v51 : BitVec 32) (k17_hw7 : k17_chk7 v51), ∀ a, (k17_off14 v51) a + S1x128.size a ≤ S100000x128.size a := fun v51 k17_hw7 => k17_hw7.1
theorem k17_off39_inb : ∀ (v51 : BitVec 32) (k17_hw7 : k17_chk7 v51), ∀ a, (k17_off39 v51) a + S1x128.size a ≤ S100000x128.size a := fun v51 k17_hw7 => k17_hw7.2

def k17_off40 (v59 : BitVec 32) : Fin 2 → Nat :=
  let c0_i32_79 : BitVec 32 := 0#32
  ![v59.toNat, 0]

def k17_chk8 (v59 : BitVec 32) : Prop :=
  (∀ a, (k17_off16 v59) a + S1x128.size a ≤ S100000x128.size a) ∧
  (∀ a, (k17_off40 v59) a + S1x128.size a ≤ S100000x128.size a)
instance k17_chk8.dec : ∀ (v59 : BitVec 32), Decidable (k17_chk8 v59) := fun v59 => decidable_of_iff' _ (Iff.of_eq (k17_chk8.eq_1 v59))
theorem k17_off16_inb : ∀ (v59 : BitVec 32) (k17_hw8 : k17_chk8 v59), ∀ a, (k17_off16 v59) a + S1x128.size a ≤ S100000x128.size a := fun v59 k17_hw8 => k17_hw8.1
theorem k17_off40_inb : ∀ (v59 : BitVec 32) (k17_hw8 : k17_chk8 v59), ∀ a, (k17_off40 v59) a + S1x128.size a ≤ S100000x128.size a := fun v59 k17_hw8 => k17_hw8.2

def k17_off41 (v67 : BitVec 32) : Fin 2 → Nat :=
  let c0_i32_83 : BitVec 32 := 0#32
  ![v67.toNat, 0]

def k17_chk9 (v67 : BitVec 32) : Prop :=
  (∀ a, (k17_off18 v67) a + S1x128.size a ≤ S100000x128.size a) ∧
  (∀ a, (k17_off41 v67) a + S1x128.size a ≤ S100000x128.size a)
instance k17_chk9.dec : ∀ (v67 : BitVec 32), Decidable (k17_chk9 v67) := fun v67 => decidable_of_iff' _ (Iff.of_eq (k17_chk9.eq_1 v67))
theorem k17_off18_inb : ∀ (v67 : BitVec 32) (k17_hw9 : k17_chk9 v67), ∀ a, (k17_off18 v67) a + S1x128.size a ≤ S100000x128.size a := fun v67 k17_hw9 => k17_hw9.1
theorem k17_off41_inb : ∀ (v67 : BitVec 32) (k17_hw9 : k17_chk9 v67), ∀ a, (k17_off41 v67) a + S1x128.size a ≤ S100000x128.size a := fun v67 k17_hw9 => k17_hw9.2

def k17_off42 (v75 : BitVec 32) : Fin 2 → Nat :=
  let c0_i32_87 : BitVec 32 := 0#32
  ![v75.toNat, 0]

def k17_chk10 (v75 : BitVec 32) : Prop :=
  (∀ a, (k17_off20 v75) a + S1x128.size a ≤ S100000x128.size a) ∧
  (∀ a, (k17_off42 v75) a + S1x128.size a ≤ S100000x128.size a)
instance k17_chk10.dec : ∀ (v75 : BitVec 32), Decidable (k17_chk10 v75) := fun v75 => decidable_of_iff' _ (Iff.of_eq (k17_chk10.eq_1 v75))
theorem k17_off20_inb : ∀ (v75 : BitVec 32) (k17_hw10 : k17_chk10 v75), ∀ a, (k17_off20 v75) a + S1x128.size a ≤ S100000x128.size a := fun v75 k17_hw10 => k17_hw10.1
theorem k17_off42_inb : ∀ (v75 : BitVec 32) (k17_hw10 : k17_chk10 v75), ∀ a, (k17_off42 v75) a + S1x128.size a ≤ S100000x128.size a := fun v75 k17_hw10 => k17_hw10.2

def k17_off43 (v83 : BitVec 32) : Fin 2 → Nat :=
  let c0_i32_91 : BitVec 32 := 0#32
  ![v83.toNat, 0]

def k17_chk11 (v83 : BitVec 32) : Prop :=
  (∀ a, (k17_off22 v83) a + S1x128.size a ≤ S100000x128.size a) ∧
  (∀ a, (k17_off43 v83) a + S1x128.size a ≤ S100000x128.size a)
instance k17_chk11.dec : ∀ (v83 : BitVec 32), Decidable (k17_chk11 v83) := fun v83 => decidable_of_iff' _ (Iff.of_eq (k17_chk11.eq_1 v83))
theorem k17_off22_inb : ∀ (v83 : BitVec 32) (k17_hw11 : k17_chk11 v83), ∀ a, (k17_off22 v83) a + S1x128.size a ≤ S100000x128.size a := fun v83 k17_hw11 => k17_hw11.1
theorem k17_off43_inb : ∀ (v83 : BitVec 32) (k17_hw11 : k17_chk11 v83), ∀ a, (k17_off43 v83) a + S1x128.size a ≤ S100000x128.size a := fun v83 k17_hw11 => k17_hw11.2

def k17_off44 (v91 : BitVec 32) : Fin 2 → Nat :=
  let c0_i32_95 : BitVec 32 := 0#32
  ![v91.toNat, 0]

def k17_chk12 (v91 : BitVec 32) : Prop :=
  (∀ a, (k17_off24 v91) a + S1x128.size a ≤ S100000x128.size a) ∧
  (∀ a, (k17_off44 v91) a + S1x128.size a ≤ S100000x128.size a)
instance k17_chk12.dec : ∀ (v91 : BitVec 32), Decidable (k17_chk12 v91) := fun v91 => decidable_of_iff' _ (Iff.of_eq (k17_chk12.eq_1 v91))
theorem k17_off24_inb : ∀ (v91 : BitVec 32) (k17_hw12 : k17_chk12 v91), ∀ a, (k17_off24 v91) a + S1x128.size a ≤ S100000x128.size a := fun v91 k17_hw12 => k17_hw12.1
theorem k17_off44_inb : ∀ (v91 : BitVec 32) (k17_hw12 : k17_chk12 v91), ∀ a, (k17_off44 v91) a + S1x128.size a ≤ S100000x128.size a := fun v91 k17_hw12 => k17_hw12.2

def k17_off45 (v99 : BitVec 32) : Fin 2 → Nat :=
  let c0_i32_99 : BitVec 32 := 0#32
  ![v99.toNat, 0]

def k17_chk13 (v99 : BitVec 32) : Prop :=
  (∀ a, (k17_off26 v99) a + S1x128.size a ≤ S100000x128.size a) ∧
  (∀ a, (k17_off45 v99) a + S1x128.size a ≤ S100000x128.size a)
instance k17_chk13.dec : ∀ (v99 : BitVec 32), Decidable (k17_chk13 v99) := fun v99 => decidable_of_iff' _ (Iff.of_eq (k17_chk13.eq_1 v99))
theorem k17_off26_inb : ∀ (v99 : BitVec 32) (k17_hw13 : k17_chk13 v99), ∀ a, (k17_off26 v99) a + S1x128.size a ≤ S100000x128.size a := fun v99 k17_hw13 => k17_hw13.1
theorem k17_off45_inb : ∀ (v99 : BitVec 32) (k17_hw13 : k17_chk13 v99), ∀ a, (k17_off45 v99) a + S1x128.size a ≤ S100000x128.size a := fun v99 k17_hw13 => k17_hw13.2

def k17_off46 (v107 : BitVec 32) : Fin 2 → Nat :=
  let c0_i32_103 : BitVec 32 := 0#32
  ![v107.toNat, 0]

def k17_chk14 (v107 : BitVec 32) : Prop :=
  (∀ a, (k17_off28 v107) a + S1x128.size a ≤ S100000x128.size a) ∧
  (∀ a, (k17_off46 v107) a + S1x128.size a ≤ S100000x128.size a)
instance k17_chk14.dec : ∀ (v107 : BitVec 32), Decidable (k17_chk14 v107) := fun v107 => decidable_of_iff' _ (Iff.of_eq (k17_chk14.eq_1 v107))
theorem k17_off28_inb : ∀ (v107 : BitVec 32) (k17_hw14 : k17_chk14 v107), ∀ a, (k17_off28 v107) a + S1x128.size a ≤ S100000x128.size a := fun v107 k17_hw14 => k17_hw14.1
theorem k17_off46_inb : ∀ (v107 : BitVec 32) (k17_hw14 : k17_chk14 v107), ∀ a, (k17_off46 v107) a + S1x128.size a ≤ S100000x128.size a := fun v107 k17_hw14 => k17_hw14.2

def k17_off47 (v115 : BitVec 32) : Fin 2 → Nat :=
  let c0_i32_107 : BitVec 32 := 0#32
  ![v115.toNat, 0]

def k17_chk15 (v115 : BitVec 32) : Prop :=
  (∀ a, (k17_off30 v115) a + S1x128.size a ≤ S100000x128.size a) ∧
  (∀ a, (k17_off47 v115) a + S1x128.size a ≤ S100000x128.size a)
instance k17_chk15.dec : ∀ (v115 : BitVec 32), Decidable (k17_chk15 v115) := fun v115 => decidable_of_iff' _ (Iff.of_eq (k17_chk15.eq_1 v115))
theorem k17_off30_inb : ∀ (v115 : BitVec 32) (k17_hw15 : k17_chk15 v115), ∀ a, (k17_off30 v115) a + S1x128.size a ≤ S100000x128.size a := fun v115 k17_hw15 => k17_hw15.1
theorem k17_off47_inb : ∀ (v115 : BitVec 32) (k17_hw15 : k17_chk15 v115), ∀ a, (k17_off47 v115) a + S1x128.size a ≤ S100000x128.size a := fun v115 k17_hw15 => k17_hw15.2

def k17_off48 (i : grid17.Coords) : Fin 2 → Nat :=
  let arg1 : BitVec 32 := BitVec.ofNat 32 (i 1).val
  let v230 : Index := Scalar.indexCast arg1
  let c0_115 : Index := 0#32
  ![v230.toNat, 0]
def k17_cond1 (i : grid17.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc17_transform_1 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage17_0 : Fin 1 → Memref sig .tc .vmem S128x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![false, false]

abbrev stage17_1 : Fin 2 → Memref sig .tc .vmem S1000x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true, false]

abbrev grid18 : Pipeline.Grid := ⟨2, ![2, 1000], ![false, false]⟩

abbrev pre18 : Pipeline.Prefetch sig := ⟨1, ![main_v37.idx], fun | 0 => main_v37.names | ⟨_ + 1, h⟩ => absurd h (Nat.not_lt.2 (Nat.le_add_left _ _)), fun | 0 => rfl | ⟨_ + 1, h⟩ => absurd h (Nat.not_lt.2 (Nat.le_add_left _ _))⟩

def k18_off1 (i : grid18.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k18_off2 (v3 : BitVec 32) : Fin 2 → Nat :=
  let c0_i32_2 : BitVec 32 := 0#32
  ![v3.toNat, 0]

def k18_off3 (i : grid18.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k18_off4 (v11 : BitVec 32) : Fin 2 → Nat :=
  let c0_i32_5 : BitVec 32 := 0#32
  ![v11.toNat, 0]

def k18_off5 (i : grid18.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k18_off6 (v19 : BitVec 32) : Fin 2 → Nat :=
  let c0_i32_8 : BitVec 32 := 0#32
  ![v19.toNat, 0]

def k18_off7 (i : grid18.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k18_off8 (v27 : BitVec 32) : Fin 2 → Nat :=
  let c0_i32_11 : BitVec 32 := 0#32
  ![v27.toNat, 0]

def k18_off9 (i : grid18.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k18_off10 (v35 : BitVec 32) : Fin 2 → Nat :=
  let c0_i32_14 : BitVec 32 := 0#32
  ![v35.toNat, 0]

def k18_off11 (i : grid18.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k18_off12 (v43 : BitVec 32) : Fin 2 → Nat :=
  let c0_i32_17 : BitVec 32 := 0#32
  ![v43.toNat, 0]

def k18_off13 (i : grid18.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k18_off14 (v51 : BitVec 32) : Fin 2 → Nat :=
  let c0_i32_20 : BitVec 32 := 0#32
  ![v51.toNat, 0]

def k18_off15 (i : grid18.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k18_off16 (v59 : BitVec 32) : Fin 2 → Nat :=
  let c0_i32_23 : BitVec 32 := 0#32
  ![v59.toNat, 0]

def k18_off17 (i : grid18.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k18_off18 (v67 : BitVec 32) : Fin 2 → Nat :=
  let c0_i32_26 : BitVec 32 := 0#32
  ![v67.toNat, 0]

def k18_off19 (i : grid18.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k18_off20 (v75 : BitVec 32) : Fin 2 → Nat :=
  let c0_i32_29 : BitVec 32 := 0#32
  ![v75.toNat, 0]

def k18_off21 (i : grid18.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k18_off22 (v83 : BitVec 32) : Fin 2 → Nat :=
  let c0_i32_32 : BitVec 32 := 0#32
  ![v83.toNat, 0]

def k18_off23 (i : grid18.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k18_off24 (v91 : BitVec 32) : Fin 2 → Nat :=
  let c0_i32_35 : BitVec 32 := 0#32
  ![v91.toNat, 0]

def k18_off25 (i : grid18.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k18_off26 (v99 : BitVec 32) : Fin 2 → Nat :=
  let c0_i32_38 : BitVec 32 := 0#32
  ![v99.toNat, 0]

def k18_off27 (i : grid18.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k18_off28 (v107 : BitVec 32) : Fin 2 → Nat :=
  let c0_i32_41 : BitVec 32 := 0#32
  ![v107.toNat, 0]

def k18_off29 (i : grid18.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k18_off30 (v115 : BitVec 32) : Fin 2 → Nat :=
  let c0_i32_44 : BitVec 32 := 0#32
  ![v115.toNat, 0]

def k18_off31 (i : grid18.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k18_off32 (v123 : BitVec 32) : Fin 2 → Nat :=
  let c0_i32_47 : BitVec 32 := 0#32
  ![v123.toNat, 0]

def k18_chk16 (v123 : BitVec 32) : Prop :=
  (∀ a, (k18_off32 v123) a + S1x128.size a ≤ S100000x128.size a)
instance k18_chk16.dec : ∀ (v123 : BitVec 32), Decidable (k18_chk16 v123) := fun v123 => decidable_of_iff' _ (Iff.of_eq (k18_chk16.eq_1 v123))
theorem k18_off32_inb : ∀ (v123 : BitVec 32) (k18_hw16 : k18_chk16 v123), ∀ a, (k18_off32 v123) a + S1x128.size a ≤ S100000x128.size a := fun v123 k18_hw16 => k18_hw16

def k18_off33 (v3 : BitVec 32) : Fin 2 → Nat :=
  let c0_i32_51 : BitVec 32 := 0#32
  ![v3.toNat, 0]

def k18_chk1 (v3 : BitVec 32) : Prop :=
  (∀ a, (k18_off2 v3) a + S1x128.size a ≤ S100000x128.size a) ∧
  (∀ a, (k18_off33 v3) a + S1x128.size a ≤ S100000x128.size a)
instance k18_chk1.dec : ∀ (v3 : BitVec 32), Decidable (k18_chk1 v3) := fun v3 => decidable_of_iff' _ (Iff.of_eq (k18_chk1.eq_1 v3))
theorem k18_off2_inb : ∀ (v3 : BitVec 32) (k18_hw1 : k18_chk1 v3), ∀ a, (k18_off2 v3) a + S1x128.size a ≤ S100000x128.size a := fun v3 k18_hw1 => k18_hw1.1
theorem k18_off33_inb : ∀ (v3 : BitVec 32) (k18_hw1 : k18_chk1 v3), ∀ a, (k18_off33 v3) a + S1x128.size a ≤ S100000x128.size a := fun v3 k18_hw1 => k18_hw1.2

def k18_off34 (v11 : BitVec 32) : Fin 2 → Nat :=
  let c0_i32_55 : BitVec 32 := 0#32
  ![v11.toNat, 0]

def k18_chk2 (v11 : BitVec 32) : Prop :=
  (∀ a, (k18_off4 v11) a + S1x128.size a ≤ S100000x128.size a) ∧
  (∀ a, (k18_off34 v11) a + S1x128.size a ≤ S100000x128.size a)
instance k18_chk2.dec : ∀ (v11 : BitVec 32), Decidable (k18_chk2 v11) := fun v11 => decidable_of_iff' _ (Iff.of_eq (k18_chk2.eq_1 v11))
theorem k18_off4_inb : ∀ (v11 : BitVec 32) (k18_hw2 : k18_chk2 v11), ∀ a, (k18_off4 v11) a + S1x128.size a ≤ S100000x128.size a := fun v11 k18_hw2 => k18_hw2.1
theorem k18_off34_inb : ∀ (v11 : BitVec 32) (k18_hw2 : k18_chk2 v11), ∀ a, (k18_off34 v11) a + S1x128.size a ≤ S100000x128.size a := fun v11 k18_hw2 => k18_hw2.2

def k18_off35 (v19 : BitVec 32) : Fin 2 → Nat :=
  let c0_i32_59 : BitVec 32 := 0#32
  ![v19.toNat, 0]

def k18_chk3 (v19 : BitVec 32) : Prop :=
  (∀ a, (k18_off6 v19) a + S1x128.size a ≤ S100000x128.size a) ∧
  (∀ a, (k18_off35 v19) a + S1x128.size a ≤ S100000x128.size a)
instance k18_chk3.dec : ∀ (v19 : BitVec 32), Decidable (k18_chk3 v19) := fun v19 => decidable_of_iff' _ (Iff.of_eq (k18_chk3.eq_1 v19))
theorem k18_off6_inb : ∀ (v19 : BitVec 32) (k18_hw3 : k18_chk3 v19), ∀ a, (k18_off6 v19) a + S1x128.size a ≤ S100000x128.size a := fun v19 k18_hw3 => k18_hw3.1
theorem k18_off35_inb : ∀ (v19 : BitVec 32) (k18_hw3 : k18_chk3 v19), ∀ a, (k18_off35 v19) a + S1x128.size a ≤ S100000x128.size a := fun v19 k18_hw3 => k18_hw3.2

def k18_off36 (v27 : BitVec 32) : Fin 2 → Nat :=
  let c0_i32_63 : BitVec 32 := 0#32
  ![v27.toNat, 0]

def k18_chk4 (v27 : BitVec 32) : Prop :=
  (∀ a, (k18_off8 v27) a + S1x128.size a ≤ S100000x128.size a) ∧
  (∀ a, (k18_off36 v27) a + S1x128.size a ≤ S100000x128.size a)
instance k18_chk4.dec : ∀ (v27 : BitVec 32), Decidable (k18_chk4 v27) := fun v27 => decidable_of_iff' _ (Iff.of_eq (k18_chk4.eq_1 v27))
theorem k18_off8_inb : ∀ (v27 : BitVec 32) (k18_hw4 : k18_chk4 v27), ∀ a, (k18_off8 v27) a + S1x128.size a ≤ S100000x128.size a := fun v27 k18_hw4 => k18_hw4.1
theorem k18_off36_inb : ∀ (v27 : BitVec 32) (k18_hw4 : k18_chk4 v27), ∀ a, (k18_off36 v27) a + S1x128.size a ≤ S100000x128.size a := fun v27 k18_hw4 => k18_hw4.2

def k18_off37 (v35 : BitVec 32) : Fin 2 → Nat :=
  let c0_i32_67 : BitVec 32 := 0#32
  ![v35.toNat, 0]

def k18_chk5 (v35 : BitVec 32) : Prop :=
  (∀ a, (k18_off10 v35) a + S1x128.size a ≤ S100000x128.size a) ∧
  (∀ a, (k18_off37 v35) a + S1x128.size a ≤ S100000x128.size a)
instance k18_chk5.dec : ∀ (v35 : BitVec 32), Decidable (k18_chk5 v35) := fun v35 => decidable_of_iff' _ (Iff.of_eq (k18_chk5.eq_1 v35))
theorem k18_off10_inb : ∀ (v35 : BitVec 32) (k18_hw5 : k18_chk5 v35), ∀ a, (k18_off10 v35) a + S1x128.size a ≤ S100000x128.size a := fun v35 k18_hw5 => k18_hw5.1
theorem k18_off37_inb : ∀ (v35 : BitVec 32) (k18_hw5 : k18_chk5 v35), ∀ a, (k18_off37 v35) a + S1x128.size a ≤ S100000x128.size a := fun v35 k18_hw5 => k18_hw5.2

def k18_off38 (v43 : BitVec 32) : Fin 2 → Nat :=
  let c0_i32_71 : BitVec 32 := 0#32
  ![v43.toNat, 0]

def k18_chk6 (v43 : BitVec 32) : Prop :=
  (∀ a, (k18_off12 v43) a + S1x128.size a ≤ S100000x128.size a) ∧
  (∀ a, (k18_off38 v43) a + S1x128.size a ≤ S100000x128.size a)
instance k18_chk6.dec : ∀ (v43 : BitVec 32), Decidable (k18_chk6 v43) := fun v43 => decidable_of_iff' _ (Iff.of_eq (k18_chk6.eq_1 v43))
theorem k18_off12_inb : ∀ (v43 : BitVec 32) (k18_hw6 : k18_chk6 v43), ∀ a, (k18_off12 v43) a + S1x128.size a ≤ S100000x128.size a := fun v43 k18_hw6 => k18_hw6.1
theorem k18_off38_inb : ∀ (v43 : BitVec 32) (k18_hw6 : k18_chk6 v43), ∀ a, (k18_off38 v43) a + S1x128.size a ≤ S100000x128.size a := fun v43 k18_hw6 => k18_hw6.2

def k18_off39 (v51 : BitVec 32) : Fin 2 → Nat :=
  let c0_i32_75 : BitVec 32 := 0#32
  ![v51.toNat, 0]

def k18_chk7 (v51 : BitVec 32) : Prop :=
  (∀ a, (k18_off14 v51) a + S1x128.size a ≤ S100000x128.size a) ∧
  (∀ a, (k18_off39 v51) a + S1x128.size a ≤ S100000x128.size a)
instance k18_chk7.dec : ∀ (v51 : BitVec 32), Decidable (k18_chk7 v51) := fun v51 => decidable_of_iff' _ (Iff.of_eq (k18_chk7.eq_1 v51))
theorem k18_off14_inb : ∀ (v51 : BitVec 32) (k18_hw7 : k18_chk7 v51), ∀ a, (k18_off14 v51) a + S1x128.size a ≤ S100000x128.size a := fun v51 k18_hw7 => k18_hw7.1
theorem k18_off39_inb : ∀ (v51 : BitVec 32) (k18_hw7 : k18_chk7 v51), ∀ a, (k18_off39 v51) a + S1x128.size a ≤ S100000x128.size a := fun v51 k18_hw7 => k18_hw7.2

def k18_off40 (v59 : BitVec 32) : Fin 2 → Nat :=
  let c0_i32_79 : BitVec 32 := 0#32
  ![v59.toNat, 0]

def k18_chk8 (v59 : BitVec 32) : Prop :=
  (∀ a, (k18_off16 v59) a + S1x128.size a ≤ S100000x128.size a) ∧
  (∀ a, (k18_off40 v59) a + S1x128.size a ≤ S100000x128.size a)
instance k18_chk8.dec : ∀ (v59 : BitVec 32), Decidable (k18_chk8 v59) := fun v59 => decidable_of_iff' _ (Iff.of_eq (k18_chk8.eq_1 v59))
theorem k18_off16_inb : ∀ (v59 : BitVec 32) (k18_hw8 : k18_chk8 v59), ∀ a, (k18_off16 v59) a + S1x128.size a ≤ S100000x128.size a := fun v59 k18_hw8 => k18_hw8.1
theorem k18_off40_inb : ∀ (v59 : BitVec 32) (k18_hw8 : k18_chk8 v59), ∀ a, (k18_off40 v59) a + S1x128.size a ≤ S100000x128.size a := fun v59 k18_hw8 => k18_hw8.2

def k18_off41 (v67 : BitVec 32) : Fin 2 → Nat :=
  let c0_i32_83 : BitVec 32 := 0#32
  ![v67.toNat, 0]

def k18_chk9 (v67 : BitVec 32) : Prop :=
  (∀ a, (k18_off18 v67) a + S1x128.size a ≤ S100000x128.size a) ∧
  (∀ a, (k18_off41 v67) a + S1x128.size a ≤ S100000x128.size a)
instance k18_chk9.dec : ∀ (v67 : BitVec 32), Decidable (k18_chk9 v67) := fun v67 => decidable_of_iff' _ (Iff.of_eq (k18_chk9.eq_1 v67))
theorem k18_off18_inb : ∀ (v67 : BitVec 32) (k18_hw9 : k18_chk9 v67), ∀ a, (k18_off18 v67) a + S1x128.size a ≤ S100000x128.size a := fun v67 k18_hw9 => k18_hw9.1
theorem k18_off41_inb : ∀ (v67 : BitVec 32) (k18_hw9 : k18_chk9 v67), ∀ a, (k18_off41 v67) a + S1x128.size a ≤ S100000x128.size a := fun v67 k18_hw9 => k18_hw9.2

def k18_off42 (v75 : BitVec 32) : Fin 2 → Nat :=
  let c0_i32_87 : BitVec 32 := 0#32
  ![v75.toNat, 0]

def k18_chk10 (v75 : BitVec 32) : Prop :=
  (∀ a, (k18_off20 v75) a + S1x128.size a ≤ S100000x128.size a) ∧
  (∀ a, (k18_off42 v75) a + S1x128.size a ≤ S100000x128.size a)
instance k18_chk10.dec : ∀ (v75 : BitVec 32), Decidable (k18_chk10 v75) := fun v75 => decidable_of_iff' _ (Iff.of_eq (k18_chk10.eq_1 v75))
theorem k18_off20_inb : ∀ (v75 : BitVec 32) (k18_hw10 : k18_chk10 v75), ∀ a, (k18_off20 v75) a + S1x128.size a ≤ S100000x128.size a := fun v75 k18_hw10 => k18_hw10.1
theorem k18_off42_inb : ∀ (v75 : BitVec 32) (k18_hw10 : k18_chk10 v75), ∀ a, (k18_off42 v75) a + S1x128.size a ≤ S100000x128.size a := fun v75 k18_hw10 => k18_hw10.2

def k18_off43 (v83 : BitVec 32) : Fin 2 → Nat :=
  let c0_i32_91 : BitVec 32 := 0#32
  ![v83.toNat, 0]

def k18_chk11 (v83 : BitVec 32) : Prop :=
  (∀ a, (k18_off22 v83) a + S1x128.size a ≤ S100000x128.size a) ∧
  (∀ a, (k18_off43 v83) a + S1x128.size a ≤ S100000x128.size a)
instance k18_chk11.dec : ∀ (v83 : BitVec 32), Decidable (k18_chk11 v83) := fun v83 => decidable_of_iff' _ (Iff.of_eq (k18_chk11.eq_1 v83))
theorem k18_off22_inb : ∀ (v83 : BitVec 32) (k18_hw11 : k18_chk11 v83), ∀ a, (k18_off22 v83) a + S1x128.size a ≤ S100000x128.size a := fun v83 k18_hw11 => k18_hw11.1
theorem k18_off43_inb : ∀ (v83 : BitVec 32) (k18_hw11 : k18_chk11 v83), ∀ a, (k18_off43 v83) a + S1x128.size a ≤ S100000x128.size a := fun v83 k18_hw11 => k18_hw11.2

def k18_off44 (v91 : BitVec 32) : Fin 2 → Nat :=
  let c0_i32_95 : BitVec 32 := 0#32
  ![v91.toNat, 0]

def k18_chk12 (v91 : BitVec 32) : Prop :=
  (∀ a, (k18_off24 v91) a + S1x128.size a ≤ S100000x128.size a) ∧
  (∀ a, (k18_off44 v91) a + S1x128.size a ≤ S100000x128.size a)
instance k18_chk12.dec : ∀ (v91 : BitVec 32), Decidable (k18_chk12 v91) := fun v91 => decidable_of_iff' _ (Iff.of_eq (k18_chk12.eq_1 v91))
theorem k18_off24_inb : ∀ (v91 : BitVec 32) (k18_hw12 : k18_chk12 v91), ∀ a, (k18_off24 v91) a + S1x128.size a ≤ S100000x128.size a := fun v91 k18_hw12 => k18_hw12.1
theorem k18_off44_inb : ∀ (v91 : BitVec 32) (k18_hw12 : k18_chk12 v91), ∀ a, (k18_off44 v91) a + S1x128.size a ≤ S100000x128.size a := fun v91 k18_hw12 => k18_hw12.2

def k18_off45 (v99 : BitVec 32) : Fin 2 → Nat :=
  let c0_i32_99 : BitVec 32 := 0#32
  ![v99.toNat, 0]

def k18_chk13 (v99 : BitVec 32) : Prop :=
  (∀ a, (k18_off26 v99) a + S1x128.size a ≤ S100000x128.size a) ∧
  (∀ a, (k18_off45 v99) a + S1x128.size a ≤ S100000x128.size a)
instance k18_chk13.dec : ∀ (v99 : BitVec 32), Decidable (k18_chk13 v99) := fun v99 => decidable_of_iff' _ (Iff.of_eq (k18_chk13.eq_1 v99))
theorem k18_off26_inb : ∀ (v99 : BitVec 32) (k18_hw13 : k18_chk13 v99), ∀ a, (k18_off26 v99) a + S1x128.size a ≤ S100000x128.size a := fun v99 k18_hw13 => k18_hw13.1
theorem k18_off45_inb : ∀ (v99 : BitVec 32) (k18_hw13 : k18_chk13 v99), ∀ a, (k18_off45 v99) a + S1x128.size a ≤ S100000x128.size a := fun v99 k18_hw13 => k18_hw13.2

def k18_off46 (v107 : BitVec 32) : Fin 2 → Nat :=
  let c0_i32_103 : BitVec 32 := 0#32
  ![v107.toNat, 0]

def k18_chk14 (v107 : BitVec 32) : Prop :=
  (∀ a, (k18_off28 v107) a + S1x128.size a ≤ S100000x128.size a) ∧
  (∀ a, (k18_off46 v107) a + S1x128.size a ≤ S100000x128.size a)
instance k18_chk14.dec : ∀ (v107 : BitVec 32), Decidable (k18_chk14 v107) := fun v107 => decidable_of_iff' _ (Iff.of_eq (k18_chk14.eq_1 v107))
theorem k18_off28_inb : ∀ (v107 : BitVec 32) (k18_hw14 : k18_chk14 v107), ∀ a, (k18_off28 v107) a + S1x128.size a ≤ S100000x128.size a := fun v107 k18_hw14 => k18_hw14.1
theorem k18_off46_inb : ∀ (v107 : BitVec 32) (k18_hw14 : k18_chk14 v107), ∀ a, (k18_off46 v107) a + S1x128.size a ≤ S100000x128.size a := fun v107 k18_hw14 => k18_hw14.2

def k18_off47 (v115 : BitVec 32) : Fin 2 → Nat :=
  let c0_i32_107 : BitVec 32 := 0#32
  ![v115.toNat, 0]

def k18_chk15 (v115 : BitVec 32) : Prop :=
  (∀ a, (k18_off30 v115) a + S1x128.size a ≤ S100000x128.size a) ∧
  (∀ a, (k18_off47 v115) a + S1x128.size a ≤ S100000x128.size a)
instance k18_chk15.dec : ∀ (v115 : BitVec 32), Decidable (k18_chk15 v115) := fun v115 => decidable_of_iff' _ (Iff.of_eq (k18_chk15.eq_1 v115))
theorem k18_off30_inb : ∀ (v115 : BitVec 32) (k18_hw15 : k18_chk15 v115), ∀ a, (k18_off30 v115) a + S1x128.size a ≤ S100000x128.size a := fun v115 k18_hw15 => k18_hw15.1
theorem k18_off47_inb : ∀ (v115 : BitVec 32) (k18_hw15 : k18_chk15 v115), ∀ a, (k18_off47 v115) a + S1x128.size a ≤ S100000x128.size a := fun v115 k18_hw15 => k18_hw15.2

def k18_off48 (i : grid18.Coords) : Fin 2 → Nat :=
  let arg1 : BitVec 32 := BitVec.ofNat 32 (i 1).val
  let v230 : Index := Scalar.indexCast arg1
  let c0_115 : Index := 0#32
  ![v230.toNat, 0]
def k18_cond1 (i : grid18.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc18_transform_1 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage18_0 : Fin 1 → Memref sig .tc .vmem S128x128 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![false, false]

abbrev stage18_1 : Fin 2 → Memref sig .tc .vmem S1000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true, false]

abbrev grid19 : Pipeline.Grid := ⟨2, ![2, 1000], ![false, false]⟩

abbrev pre19 : Pipeline.Prefetch sig := ⟨1, ![main_v39.idx], fun | 0 => main_v39.names | ⟨_ + 1, h⟩ => absurd h (Nat.not_lt.2 (Nat.le_add_left _ _)), fun | 0 => rfl | ⟨_ + 1, h⟩ => absurd h (Nat.not_lt.2 (Nat.le_add_left _ _))⟩

def k19_off1 (i : grid19.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k19_off2 (v3 : BitVec 32) : Fin 2 → Nat :=
  let c0_i32_2 : BitVec 32 := 0#32
  ![v3.toNat, 0]

def k19_off3 (i : grid19.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k19_off4 (v11 : BitVec 32) : Fin 2 → Nat :=
  let c0_i32_5 : BitVec 32 := 0#32
  ![v11.toNat, 0]

def k19_off5 (i : grid19.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k19_off6 (v19 : BitVec 32) : Fin 2 → Nat :=
  let c0_i32_8 : BitVec 32 := 0#32
  ![v19.toNat, 0]

def k19_off7 (i : grid19.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k19_off8 (v27 : BitVec 32) : Fin 2 → Nat :=
  let c0_i32_11 : BitVec 32 := 0#32
  ![v27.toNat, 0]

def k19_off9 (i : grid19.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k19_off10 (v35 : BitVec 32) : Fin 2 → Nat :=
  let c0_i32_14 : BitVec 32 := 0#32
  ![v35.toNat, 0]

def k19_off11 (i : grid19.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k19_off12 (v43 : BitVec 32) : Fin 2 → Nat :=
  let c0_i32_17 : BitVec 32 := 0#32
  ![v43.toNat, 0]

def k19_off13 (i : grid19.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k19_off14 (v51 : BitVec 32) : Fin 2 → Nat :=
  let c0_i32_20 : BitVec 32 := 0#32
  ![v51.toNat, 0]

def k19_off15 (i : grid19.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k19_off16 (v59 : BitVec 32) : Fin 2 → Nat :=
  let c0_i32_23 : BitVec 32 := 0#32
  ![v59.toNat, 0]

def k19_off17 (i : grid19.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k19_off18 (v67 : BitVec 32) : Fin 2 → Nat :=
  let c0_i32_26 : BitVec 32 := 0#32
  ![v67.toNat, 0]

def k19_off19 (i : grid19.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k19_off20 (v75 : BitVec 32) : Fin 2 → Nat :=
  let c0_i32_29 : BitVec 32 := 0#32
  ![v75.toNat, 0]

def k19_off21 (i : grid19.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k19_off22 (v83 : BitVec 32) : Fin 2 → Nat :=
  let c0_i32_32 : BitVec 32 := 0#32
  ![v83.toNat, 0]

def k19_off23 (i : grid19.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k19_off24 (v91 : BitVec 32) : Fin 2 → Nat :=
  let c0_i32_35 : BitVec 32 := 0#32
  ![v91.toNat, 0]

def k19_off25 (i : grid19.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k19_off26 (v99 : BitVec 32) : Fin 2 → Nat :=
  let c0_i32_38 : BitVec 32 := 0#32
  ![v99.toNat, 0]

def k19_off27 (i : grid19.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k19_off28 (v107 : BitVec 32) : Fin 2 → Nat :=
  let c0_i32_41 : BitVec 32 := 0#32
  ![v107.toNat, 0]

def k19_off29 (i : grid19.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k19_off30 (v115 : BitVec 32) : Fin 2 → Nat :=
  let c0_i32_44 : BitVec 32 := 0#32
  ![v115.toNat, 0]

def k19_off31 (i : grid19.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k19_off32 (v123 : BitVec 32) : Fin 2 → Nat :=
  let c0_i32_47 : BitVec 32 := 0#32
  ![v123.toNat, 0]

def k19_chk16 (v123 : BitVec 32) : Prop :=
  (∀ a, (k19_off32 v123) a + S1x128.size a ≤ S100000x128.size a)
instance k19_chk16.dec : ∀ (v123 : BitVec 32), Decidable (k19_chk16 v123) := fun v123 => decidable_of_iff' _ (Iff.of_eq (k19_chk16.eq_1 v123))
theorem k19_off32_inb : ∀ (v123 : BitVec 32) (k19_hw16 : k19_chk16 v123), ∀ a, (k19_off32 v123) a + S1x128.size a ≤ S100000x128.size a := fun v123 k19_hw16 => k19_hw16

def k19_off33 (v3 : BitVec 32) : Fin 2 → Nat :=
  let c0_i32_51 : BitVec 32 := 0#32
  ![v3.toNat, 0]

def k19_chk1 (v3 : BitVec 32) : Prop :=
  (∀ a, (k19_off2 v3) a + S1x128.size a ≤ S100000x128.size a) ∧
  (∀ a, (k19_off33 v3) a + S1x128.size a ≤ S100000x128.size a)
instance k19_chk1.dec : ∀ (v3 : BitVec 32), Decidable (k19_chk1 v3) := fun v3 => decidable_of_iff' _ (Iff.of_eq (k19_chk1.eq_1 v3))
theorem k19_off2_inb : ∀ (v3 : BitVec 32) (k19_hw1 : k19_chk1 v3), ∀ a, (k19_off2 v3) a + S1x128.size a ≤ S100000x128.size a := fun v3 k19_hw1 => k19_hw1.1
theorem k19_off33_inb : ∀ (v3 : BitVec 32) (k19_hw1 : k19_chk1 v3), ∀ a, (k19_off33 v3) a + S1x128.size a ≤ S100000x128.size a := fun v3 k19_hw1 => k19_hw1.2

def k19_off34 (v11 : BitVec 32) : Fin 2 → Nat :=
  let c0_i32_55 : BitVec 32 := 0#32
  ![v11.toNat, 0]

def k19_chk2 (v11 : BitVec 32) : Prop :=
  (∀ a, (k19_off4 v11) a + S1x128.size a ≤ S100000x128.size a) ∧
  (∀ a, (k19_off34 v11) a + S1x128.size a ≤ S100000x128.size a)
instance k19_chk2.dec : ∀ (v11 : BitVec 32), Decidable (k19_chk2 v11) := fun v11 => decidable_of_iff' _ (Iff.of_eq (k19_chk2.eq_1 v11))
theorem k19_off4_inb : ∀ (v11 : BitVec 32) (k19_hw2 : k19_chk2 v11), ∀ a, (k19_off4 v11) a + S1x128.size a ≤ S100000x128.size a := fun v11 k19_hw2 => k19_hw2.1
theorem k19_off34_inb : ∀ (v11 : BitVec 32) (k19_hw2 : k19_chk2 v11), ∀ a, (k19_off34 v11) a + S1x128.size a ≤ S100000x128.size a := fun v11 k19_hw2 => k19_hw2.2

def k19_off35 (v19 : BitVec 32) : Fin 2 → Nat :=
  let c0_i32_59 : BitVec 32 := 0#32
  ![v19.toNat, 0]

def k19_chk3 (v19 : BitVec 32) : Prop :=
  (∀ a, (k19_off6 v19) a + S1x128.size a ≤ S100000x128.size a) ∧
  (∀ a, (k19_off35 v19) a + S1x128.size a ≤ S100000x128.size a)
instance k19_chk3.dec : ∀ (v19 : BitVec 32), Decidable (k19_chk3 v19) := fun v19 => decidable_of_iff' _ (Iff.of_eq (k19_chk3.eq_1 v19))
theorem k19_off6_inb : ∀ (v19 : BitVec 32) (k19_hw3 : k19_chk3 v19), ∀ a, (k19_off6 v19) a + S1x128.size a ≤ S100000x128.size a := fun v19 k19_hw3 => k19_hw3.1
theorem k19_off35_inb : ∀ (v19 : BitVec 32) (k19_hw3 : k19_chk3 v19), ∀ a, (k19_off35 v19) a + S1x128.size a ≤ S100000x128.size a := fun v19 k19_hw3 => k19_hw3.2

def k19_off36 (v27 : BitVec 32) : Fin 2 → Nat :=
  let c0_i32_63 : BitVec 32 := 0#32
  ![v27.toNat, 0]

def k19_chk4 (v27 : BitVec 32) : Prop :=
  (∀ a, (k19_off8 v27) a + S1x128.size a ≤ S100000x128.size a) ∧
  (∀ a, (k19_off36 v27) a + S1x128.size a ≤ S100000x128.size a)
instance k19_chk4.dec : ∀ (v27 : BitVec 32), Decidable (k19_chk4 v27) := fun v27 => decidable_of_iff' _ (Iff.of_eq (k19_chk4.eq_1 v27))
theorem k19_off8_inb : ∀ (v27 : BitVec 32) (k19_hw4 : k19_chk4 v27), ∀ a, (k19_off8 v27) a + S1x128.size a ≤ S100000x128.size a := fun v27 k19_hw4 => k19_hw4.1
theorem k19_off36_inb : ∀ (v27 : BitVec 32) (k19_hw4 : k19_chk4 v27), ∀ a, (k19_off36 v27) a + S1x128.size a ≤ S100000x128.size a := fun v27 k19_hw4 => k19_hw4.2

def k19_off37 (v35 : BitVec 32) : Fin 2 → Nat :=
  let c0_i32_67 : BitVec 32 := 0#32
  ![v35.toNat, 0]

def k19_chk5 (v35 : BitVec 32) : Prop :=
  (∀ a, (k19_off10 v35) a + S1x128.size a ≤ S100000x128.size a) ∧
  (∀ a, (k19_off37 v35) a + S1x128.size a ≤ S100000x128.size a)
instance k19_chk5.dec : ∀ (v35 : BitVec 32), Decidable (k19_chk5 v35) := fun v35 => decidable_of_iff' _ (Iff.of_eq (k19_chk5.eq_1 v35))
theorem k19_off10_inb : ∀ (v35 : BitVec 32) (k19_hw5 : k19_chk5 v35), ∀ a, (k19_off10 v35) a + S1x128.size a ≤ S100000x128.size a := fun v35 k19_hw5 => k19_hw5.1
theorem k19_off37_inb : ∀ (v35 : BitVec 32) (k19_hw5 : k19_chk5 v35), ∀ a, (k19_off37 v35) a + S1x128.size a ≤ S100000x128.size a := fun v35 k19_hw5 => k19_hw5.2

def k19_off38 (v43 : BitVec 32) : Fin 2 → Nat :=
  let c0_i32_71 : BitVec 32 := 0#32
  ![v43.toNat, 0]

def k19_chk6 (v43 : BitVec 32) : Prop :=
  (∀ a, (k19_off12 v43) a + S1x128.size a ≤ S100000x128.size a) ∧
  (∀ a, (k19_off38 v43) a + S1x128.size a ≤ S100000x128.size a)
instance k19_chk6.dec : ∀ (v43 : BitVec 32), Decidable (k19_chk6 v43) := fun v43 => decidable_of_iff' _ (Iff.of_eq (k19_chk6.eq_1 v43))
theorem k19_off12_inb : ∀ (v43 : BitVec 32) (k19_hw6 : k19_chk6 v43), ∀ a, (k19_off12 v43) a + S1x128.size a ≤ S100000x128.size a := fun v43 k19_hw6 => k19_hw6.1
theorem k19_off38_inb : ∀ (v43 : BitVec 32) (k19_hw6 : k19_chk6 v43), ∀ a, (k19_off38 v43) a + S1x128.size a ≤ S100000x128.size a := fun v43 k19_hw6 => k19_hw6.2

def k19_off39 (v51 : BitVec 32) : Fin 2 → Nat :=
  let c0_i32_75 : BitVec 32 := 0#32
  ![v51.toNat, 0]

def k19_chk7 (v51 : BitVec 32) : Prop :=
  (∀ a, (k19_off14 v51) a + S1x128.size a ≤ S100000x128.size a) ∧
  (∀ a, (k19_off39 v51) a + S1x128.size a ≤ S100000x128.size a)
instance k19_chk7.dec : ∀ (v51 : BitVec 32), Decidable (k19_chk7 v51) := fun v51 => decidable_of_iff' _ (Iff.of_eq (k19_chk7.eq_1 v51))
theorem k19_off14_inb : ∀ (v51 : BitVec 32) (k19_hw7 : k19_chk7 v51), ∀ a, (k19_off14 v51) a + S1x128.size a ≤ S100000x128.size a := fun v51 k19_hw7 => k19_hw7.1
theorem k19_off39_inb : ∀ (v51 : BitVec 32) (k19_hw7 : k19_chk7 v51), ∀ a, (k19_off39 v51) a + S1x128.size a ≤ S100000x128.size a := fun v51 k19_hw7 => k19_hw7.2

def k19_off40 (v59 : BitVec 32) : Fin 2 → Nat :=
  let c0_i32_79 : BitVec 32 := 0#32
  ![v59.toNat, 0]

def k19_chk8 (v59 : BitVec 32) : Prop :=
  (∀ a, (k19_off16 v59) a + S1x128.size a ≤ S100000x128.size a) ∧
  (∀ a, (k19_off40 v59) a + S1x128.size a ≤ S100000x128.size a)
instance k19_chk8.dec : ∀ (v59 : BitVec 32), Decidable (k19_chk8 v59) := fun v59 => decidable_of_iff' _ (Iff.of_eq (k19_chk8.eq_1 v59))
theorem k19_off16_inb : ∀ (v59 : BitVec 32) (k19_hw8 : k19_chk8 v59), ∀ a, (k19_off16 v59) a + S1x128.size a ≤ S100000x128.size a := fun v59 k19_hw8 => k19_hw8.1
theorem k19_off40_inb : ∀ (v59 : BitVec 32) (k19_hw8 : k19_chk8 v59), ∀ a, (k19_off40 v59) a + S1x128.size a ≤ S100000x128.size a := fun v59 k19_hw8 => k19_hw8.2

def k19_off41 (v67 : BitVec 32) : Fin 2 → Nat :=
  let c0_i32_83 : BitVec 32 := 0#32
  ![v67.toNat, 0]

def k19_chk9 (v67 : BitVec 32) : Prop :=
  (∀ a, (k19_off18 v67) a + S1x128.size a ≤ S100000x128.size a) ∧
  (∀ a, (k19_off41 v67) a + S1x128.size a ≤ S100000x128.size a)
instance k19_chk9.dec : ∀ (v67 : BitVec 32), Decidable (k19_chk9 v67) := fun v67 => decidable_of_iff' _ (Iff.of_eq (k19_chk9.eq_1 v67))
theorem k19_off18_inb : ∀ (v67 : BitVec 32) (k19_hw9 : k19_chk9 v67), ∀ a, (k19_off18 v67) a + S1x128.size a ≤ S100000x128.size a := fun v67 k19_hw9 => k19_hw9.1
theorem k19_off41_inb : ∀ (v67 : BitVec 32) (k19_hw9 : k19_chk9 v67), ∀ a, (k19_off41 v67) a + S1x128.size a ≤ S100000x128.size a := fun v67 k19_hw9 => k19_hw9.2

def k19_off42 (v75 : BitVec 32) : Fin 2 → Nat :=
  let c0_i32_87 : BitVec 32 := 0#32
  ![v75.toNat, 0]

def k19_chk10 (v75 : BitVec 32) : Prop :=
  (∀ a, (k19_off20 v75) a + S1x128.size a ≤ S100000x128.size a) ∧
  (∀ a, (k19_off42 v75) a + S1x128.size a ≤ S100000x128.size a)
instance k19_chk10.dec : ∀ (v75 : BitVec 32), Decidable (k19_chk10 v75) := fun v75 => decidable_of_iff' _ (Iff.of_eq (k19_chk10.eq_1 v75))
theorem k19_off20_inb : ∀ (v75 : BitVec 32) (k19_hw10 : k19_chk10 v75), ∀ a, (k19_off20 v75) a + S1x128.size a ≤ S100000x128.size a := fun v75 k19_hw10 => k19_hw10.1
theorem k19_off42_inb : ∀ (v75 : BitVec 32) (k19_hw10 : k19_chk10 v75), ∀ a, (k19_off42 v75) a + S1x128.size a ≤ S100000x128.size a := fun v75 k19_hw10 => k19_hw10.2

def k19_off43 (v83 : BitVec 32) : Fin 2 → Nat :=
  let c0_i32_91 : BitVec 32 := 0#32
  ![v83.toNat, 0]

def k19_chk11 (v83 : BitVec 32) : Prop :=
  (∀ a, (k19_off22 v83) a + S1x128.size a ≤ S100000x128.size a) ∧
  (∀ a, (k19_off43 v83) a + S1x128.size a ≤ S100000x128.size a)
instance k19_chk11.dec : ∀ (v83 : BitVec 32), Decidable (k19_chk11 v83) := fun v83 => decidable_of_iff' _ (Iff.of_eq (k19_chk11.eq_1 v83))
theorem k19_off22_inb : ∀ (v83 : BitVec 32) (k19_hw11 : k19_chk11 v83), ∀ a, (k19_off22 v83) a + S1x128.size a ≤ S100000x128.size a := fun v83 k19_hw11 => k19_hw11.1
theorem k19_off43_inb : ∀ (v83 : BitVec 32) (k19_hw11 : k19_chk11 v83), ∀ a, (k19_off43 v83) a + S1x128.size a ≤ S100000x128.size a := fun v83 k19_hw11 => k19_hw11.2

def k19_off44 (v91 : BitVec 32) : Fin 2 → Nat :=
  let c0_i32_95 : BitVec 32 := 0#32
  ![v91.toNat, 0]

def k19_chk12 (v91 : BitVec 32) : Prop :=
  (∀ a, (k19_off24 v91) a + S1x128.size a ≤ S100000x128.size a) ∧
  (∀ a, (k19_off44 v91) a + S1x128.size a ≤ S100000x128.size a)
instance k19_chk12.dec : ∀ (v91 : BitVec 32), Decidable (k19_chk12 v91) := fun v91 => decidable_of_iff' _ (Iff.of_eq (k19_chk12.eq_1 v91))
theorem k19_off24_inb : ∀ (v91 : BitVec 32) (k19_hw12 : k19_chk12 v91), ∀ a, (k19_off24 v91) a + S1x128.size a ≤ S100000x128.size a := fun v91 k19_hw12 => k19_hw12.1
theorem k19_off44_inb : ∀ (v91 : BitVec 32) (k19_hw12 : k19_chk12 v91), ∀ a, (k19_off44 v91) a + S1x128.size a ≤ S100000x128.size a := fun v91 k19_hw12 => k19_hw12.2

def k19_off45 (v99 : BitVec 32) : Fin 2 → Nat :=
  let c0_i32_99 : BitVec 32 := 0#32
  ![v99.toNat, 0]

def k19_chk13 (v99 : BitVec 32) : Prop :=
  (∀ a, (k19_off26 v99) a + S1x128.size a ≤ S100000x128.size a) ∧
  (∀ a, (k19_off45 v99) a + S1x128.size a ≤ S100000x128.size a)
instance k19_chk13.dec : ∀ (v99 : BitVec 32), Decidable (k19_chk13 v99) := fun v99 => decidable_of_iff' _ (Iff.of_eq (k19_chk13.eq_1 v99))
theorem k19_off26_inb : ∀ (v99 : BitVec 32) (k19_hw13 : k19_chk13 v99), ∀ a, (k19_off26 v99) a + S1x128.size a ≤ S100000x128.size a := fun v99 k19_hw13 => k19_hw13.1
theorem k19_off45_inb : ∀ (v99 : BitVec 32) (k19_hw13 : k19_chk13 v99), ∀ a, (k19_off45 v99) a + S1x128.size a ≤ S100000x128.size a := fun v99 k19_hw13 => k19_hw13.2

def k19_off46 (v107 : BitVec 32) : Fin 2 → Nat :=
  let c0_i32_103 : BitVec 32 := 0#32
  ![v107.toNat, 0]

def k19_chk14 (v107 : BitVec 32) : Prop :=
  (∀ a, (k19_off28 v107) a + S1x128.size a ≤ S100000x128.size a) ∧
  (∀ a, (k19_off46 v107) a + S1x128.size a ≤ S100000x128.size a)
instance k19_chk14.dec : ∀ (v107 : BitVec 32), Decidable (k19_chk14 v107) := fun v107 => decidable_of_iff' _ (Iff.of_eq (k19_chk14.eq_1 v107))
theorem k19_off28_inb : ∀ (v107 : BitVec 32) (k19_hw14 : k19_chk14 v107), ∀ a, (k19_off28 v107) a + S1x128.size a ≤ S100000x128.size a := fun v107 k19_hw14 => k19_hw14.1
theorem k19_off46_inb : ∀ (v107 : BitVec 32) (k19_hw14 : k19_chk14 v107), ∀ a, (k19_off46 v107) a + S1x128.size a ≤ S100000x128.size a := fun v107 k19_hw14 => k19_hw14.2

def k19_off47 (v115 : BitVec 32) : Fin 2 → Nat :=
  let c0_i32_107 : BitVec 32 := 0#32
  ![v115.toNat, 0]

def k19_chk15 (v115 : BitVec 32) : Prop :=
  (∀ a, (k19_off30 v115) a + S1x128.size a ≤ S100000x128.size a) ∧
  (∀ a, (k19_off47 v115) a + S1x128.size a ≤ S100000x128.size a)
instance k19_chk15.dec : ∀ (v115 : BitVec 32), Decidable (k19_chk15 v115) := fun v115 => decidable_of_iff' _ (Iff.of_eq (k19_chk15.eq_1 v115))
theorem k19_off30_inb : ∀ (v115 : BitVec 32) (k19_hw15 : k19_chk15 v115), ∀ a, (k19_off30 v115) a + S1x128.size a ≤ S100000x128.size a := fun v115 k19_hw15 => k19_hw15.1
theorem k19_off47_inb : ∀ (v115 : BitVec 32) (k19_hw15 : k19_chk15 v115), ∀ a, (k19_off47 v115) a + S1x128.size a ≤ S100000x128.size a := fun v115 k19_hw15 => k19_hw15.2

def k19_off48 (i : grid19.Coords) : Fin 2 → Nat :=
  let arg1 : BitVec 32 := BitVec.ofNat 32 (i 1).val
  let v230 : Index := Scalar.indexCast arg1
  let c0_115 : Index := 0#32
  ![v230.toNat, 0]
def k19_cond1 (i : grid19.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc19_transform_1 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage19_0 : Fin 1 → Memref sig .tc .vmem S128x128 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))
abbrev reads19_0 : Fin grid19.rank → Bool := ![false, false]

abbrev stage19_1 : Fin 2 → Memref sig .tc .vmem S1000x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true, false]

abbrev grid20 : Pipeline.Grid := ⟨2, ![2, 1000], ![false, false]⟩

abbrev pre20 : Pipeline.Prefetch sig := ⟨1, ![main_v41.idx], fun | 0 => main_v41.names | ⟨_ + 1, h⟩ => absurd h (Nat.not_lt.2 (Nat.le_add_left _ _)), fun | 0 => rfl | ⟨_ + 1, h⟩ => absurd h (Nat.not_lt.2 (Nat.le_add_left _ _))⟩

def k20_off1 (i : grid20.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k20_off2 (v3 : BitVec 32) : Fin 2 → Nat :=
  let c0_i32_2 : BitVec 32 := 0#32
  ![v3.toNat, 0]

def k20_off3 (i : grid20.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k20_off4 (v11 : BitVec 32) : Fin 2 → Nat :=
  let c0_i32_5 : BitVec 32 := 0#32
  ![v11.toNat, 0]

def k20_off5 (i : grid20.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k20_off6 (v19 : BitVec 32) : Fin 2 → Nat :=
  let c0_i32_8 : BitVec 32 := 0#32
  ![v19.toNat, 0]

def k20_off7 (i : grid20.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k20_off8 (v27 : BitVec 32) : Fin 2 → Nat :=
  let c0_i32_11 : BitVec 32 := 0#32
  ![v27.toNat, 0]

def k20_off9 (i : grid20.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k20_off10 (v35 : BitVec 32) : Fin 2 → Nat :=
  let c0_i32_14 : BitVec 32 := 0#32
  ![v35.toNat, 0]

def k20_off11 (i : grid20.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k20_off12 (v43 : BitVec 32) : Fin 2 → Nat :=
  let c0_i32_17 : BitVec 32 := 0#32
  ![v43.toNat, 0]

def k20_off13 (i : grid20.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k20_off14 (v51 : BitVec 32) : Fin 2 → Nat :=
  let c0_i32_20 : BitVec 32 := 0#32
  ![v51.toNat, 0]

def k20_off15 (i : grid20.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k20_off16 (v59 : BitVec 32) : Fin 2 → Nat :=
  let c0_i32_23 : BitVec 32 := 0#32
  ![v59.toNat, 0]

def k20_off17 (i : grid20.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k20_off18 (v67 : BitVec 32) : Fin 2 → Nat :=
  let c0_i32_26 : BitVec 32 := 0#32
  ![v67.toNat, 0]

def k20_off19 (i : grid20.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k20_off20 (v75 : BitVec 32) : Fin 2 → Nat :=
  let c0_i32_29 : BitVec 32 := 0#32
  ![v75.toNat, 0]

def k20_off21 (i : grid20.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k20_off22 (v83 : BitVec 32) : Fin 2 → Nat :=
  let c0_i32_32 : BitVec 32 := 0#32
  ![v83.toNat, 0]

def k20_off23 (i : grid20.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k20_off24 (v91 : BitVec 32) : Fin 2 → Nat :=
  let c0_i32_35 : BitVec 32 := 0#32
  ![v91.toNat, 0]

def k20_off25 (i : grid20.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k20_off26 (v99 : BitVec 32) : Fin 2 → Nat :=
  let c0_i32_38 : BitVec 32 := 0#32
  ![v99.toNat, 0]

def k20_off27 (i : grid20.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k20_off28 (v107 : BitVec 32) : Fin 2 → Nat :=
  let c0_i32_41 : BitVec 32 := 0#32
  ![v107.toNat, 0]

def k20_off29 (i : grid20.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k20_off30 (v115 : BitVec 32) : Fin 2 → Nat :=
  let c0_i32_44 : BitVec 32 := 0#32
  ![v115.toNat, 0]

def k20_off31 (i : grid20.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k20_off32 (v123 : BitVec 32) : Fin 2 → Nat :=
  let c0_i32_47 : BitVec 32 := 0#32
  ![v123.toNat, 0]

def k20_chk16 (v123 : BitVec 32) : Prop :=
  (∀ a, (k20_off32 v123) a + S1x128.size a ≤ S100000x128.size a)
instance k20_chk16.dec : ∀ (v123 : BitVec 32), Decidable (k20_chk16 v123) := fun v123 => decidable_of_iff' _ (Iff.of_eq (k20_chk16.eq_1 v123))
theorem k20_off32_inb : ∀ (v123 : BitVec 32) (k20_hw16 : k20_chk16 v123), ∀ a, (k20_off32 v123) a + S1x128.size a ≤ S100000x128.size a := fun v123 k20_hw16 => k20_hw16

def k20_off33 (v3 : BitVec 32) : Fin 2 → Nat :=
  let c0_i32_51 : BitVec 32 := 0#32
  ![v3.toNat, 0]

def k20_chk1 (v3 : BitVec 32) : Prop :=
  (∀ a, (k20_off2 v3) a + S1x128.size a ≤ S100000x128.size a) ∧
  (∀ a, (k20_off33 v3) a + S1x128.size a ≤ S100000x128.size a)
instance k20_chk1.dec : ∀ (v3 : BitVec 32), Decidable (k20_chk1 v3) := fun v3 => decidable_of_iff' _ (Iff.of_eq (k20_chk1.eq_1 v3))
theorem k20_off2_inb : ∀ (v3 : BitVec 32) (k20_hw1 : k20_chk1 v3), ∀ a, (k20_off2 v3) a + S1x128.size a ≤ S100000x128.size a := fun v3 k20_hw1 => k20_hw1.1
theorem k20_off33_inb : ∀ (v3 : BitVec 32) (k20_hw1 : k20_chk1 v3), ∀ a, (k20_off33 v3) a + S1x128.size a ≤ S100000x128.size a := fun v3 k20_hw1 => k20_hw1.2

def k20_off34 (v11 : BitVec 32) : Fin 2 → Nat :=
  let c0_i32_55 : BitVec 32 := 0#32
  ![v11.toNat, 0]

def k20_chk2 (v11 : BitVec 32) : Prop :=
  (∀ a, (k20_off4 v11) a + S1x128.size a ≤ S100000x128.size a) ∧
  (∀ a, (k20_off34 v11) a + S1x128.size a ≤ S100000x128.size a)
instance k20_chk2.dec : ∀ (v11 : BitVec 32), Decidable (k20_chk2 v11) := fun v11 => decidable_of_iff' _ (Iff.of_eq (k20_chk2.eq_1 v11))
theorem k20_off4_inb : ∀ (v11 : BitVec 32) (k20_hw2 : k20_chk2 v11), ∀ a, (k20_off4 v11) a + S1x128.size a ≤ S100000x128.size a := fun v11 k20_hw2 => k20_hw2.1
theorem k20_off34_inb : ∀ (v11 : BitVec 32) (k20_hw2 : k20_chk2 v11), ∀ a, (k20_off34 v11) a + S1x128.size a ≤ S100000x128.size a := fun v11 k20_hw2 => k20_hw2.2

def k20_off35 (v19 : BitVec 32) : Fin 2 → Nat :=
  let c0_i32_59 : BitVec 32 := 0#32
  ![v19.toNat, 0]

def k20_chk3 (v19 : BitVec 32) : Prop :=
  (∀ a, (k20_off6 v19) a + S1x128.size a ≤ S100000x128.size a) ∧
  (∀ a, (k20_off35 v19) a + S1x128.size a ≤ S100000x128.size a)
instance k20_chk3.dec : ∀ (v19 : BitVec 32), Decidable (k20_chk3 v19) := fun v19 => decidable_of_iff' _ (Iff.of_eq (k20_chk3.eq_1 v19))
theorem k20_off6_inb : ∀ (v19 : BitVec 32) (k20_hw3 : k20_chk3 v19), ∀ a, (k20_off6 v19) a + S1x128.size a ≤ S100000x128.size a := fun v19 k20_hw3 => k20_hw3.1
theorem k20_off35_inb : ∀ (v19 : BitVec 32) (k20_hw3 : k20_chk3 v19), ∀ a, (k20_off35 v19) a + S1x128.size a ≤ S100000x128.size a := fun v19 k20_hw3 => k20_hw3.2

def k20_off36 (v27 : BitVec 32) : Fin 2 → Nat :=
  let c0_i32_63 : BitVec 32 := 0#32
  ![v27.toNat, 0]

def k20_chk4 (v27 : BitVec 32) : Prop :=
  (∀ a, (k20_off8 v27) a + S1x128.size a ≤ S100000x128.size a) ∧
  (∀ a, (k20_off36 v27) a + S1x128.size a ≤ S100000x128.size a)
instance k20_chk4.dec : ∀ (v27 : BitVec 32), Decidable (k20_chk4 v27) := fun v27 => decidable_of_iff' _ (Iff.of_eq (k20_chk4.eq_1 v27))
theorem k20_off8_inb : ∀ (v27 : BitVec 32) (k20_hw4 : k20_chk4 v27), ∀ a, (k20_off8 v27) a + S1x128.size a ≤ S100000x128.size a := fun v27 k20_hw4 => k20_hw4.1
theorem k20_off36_inb : ∀ (v27 : BitVec 32) (k20_hw4 : k20_chk4 v27), ∀ a, (k20_off36 v27) a + S1x128.size a ≤ S100000x128.size a := fun v27 k20_hw4 => k20_hw4.2

def k20_off37 (v35 : BitVec 32) : Fin 2 → Nat :=
  let c0_i32_67 : BitVec 32 := 0#32
  ![v35.toNat, 0]

def k20_chk5 (v35 : BitVec 32) : Prop :=
  (∀ a, (k20_off10 v35) a + S1x128.size a ≤ S100000x128.size a) ∧
  (∀ a, (k20_off37 v35) a + S1x128.size a ≤ S100000x128.size a)
instance k20_chk5.dec : ∀ (v35 : BitVec 32), Decidable (k20_chk5 v35) := fun v35 => decidable_of_iff' _ (Iff.of_eq (k20_chk5.eq_1 v35))
theorem k20_off10_inb : ∀ (v35 : BitVec 32) (k20_hw5 : k20_chk5 v35), ∀ a, (k20_off10 v35) a + S1x128.size a ≤ S100000x128.size a := fun v35 k20_hw5 => k20_hw5.1
theorem k20_off37_inb : ∀ (v35 : BitVec 32) (k20_hw5 : k20_chk5 v35), ∀ a, (k20_off37 v35) a + S1x128.size a ≤ S100000x128.size a := fun v35 k20_hw5 => k20_hw5.2

def k20_off38 (v43 : BitVec 32) : Fin 2 → Nat :=
  let c0_i32_71 : BitVec 32 := 0#32
  ![v43.toNat, 0]

def k20_chk6 (v43 : BitVec 32) : Prop :=
  (∀ a, (k20_off12 v43) a + S1x128.size a ≤ S100000x128.size a) ∧
  (∀ a, (k20_off38 v43) a + S1x128.size a ≤ S100000x128.size a)
instance k20_chk6.dec : ∀ (v43 : BitVec 32), Decidable (k20_chk6 v43) := fun v43 => decidable_of_iff' _ (Iff.of_eq (k20_chk6.eq_1 v43))
theorem k20_off12_inb : ∀ (v43 : BitVec 32) (k20_hw6 : k20_chk6 v43), ∀ a, (k20_off12 v43) a + S1x128.size a ≤ S100000x128.size a := fun v43 k20_hw6 => k20_hw6.1
theorem k20_off38_inb : ∀ (v43 : BitVec 32) (k20_hw6 : k20_chk6 v43), ∀ a, (k20_off38 v43) a + S1x128.size a ≤ S100000x128.size a := fun v43 k20_hw6 => k20_hw6.2

def k20_off39 (v51 : BitVec 32) : Fin 2 → Nat :=
  let c0_i32_75 : BitVec 32 := 0#32
  ![v51.toNat, 0]

def k20_chk7 (v51 : BitVec 32) : Prop :=
  (∀ a, (k20_off14 v51) a + S1x128.size a ≤ S100000x128.size a) ∧
  (∀ a, (k20_off39 v51) a + S1x128.size a ≤ S100000x128.size a)
instance k20_chk7.dec : ∀ (v51 : BitVec 32), Decidable (k20_chk7 v51) := fun v51 => decidable_of_iff' _ (Iff.of_eq (k20_chk7.eq_1 v51))
theorem k20_off14_inb : ∀ (v51 : BitVec 32) (k20_hw7 : k20_chk7 v51), ∀ a, (k20_off14 v51) a + S1x128.size a ≤ S100000x128.size a := fun v51 k20_hw7 => k20_hw7.1
theorem k20_off39_inb : ∀ (v51 : BitVec 32) (k20_hw7 : k20_chk7 v51), ∀ a, (k20_off39 v51) a + S1x128.size a ≤ S100000x128.size a := fun v51 k20_hw7 => k20_hw7.2

def k20_off40 (v59 : BitVec 32) : Fin 2 → Nat :=
  let c0_i32_79 : BitVec 32 := 0#32
  ![v59.toNat, 0]

def k20_chk8 (v59 : BitVec 32) : Prop :=
  (∀ a, (k20_off16 v59) a + S1x128.size a ≤ S100000x128.size a) ∧
  (∀ a, (k20_off40 v59) a + S1x128.size a ≤ S100000x128.size a)
instance k20_chk8.dec : ∀ (v59 : BitVec 32), Decidable (k20_chk8 v59) := fun v59 => decidable_of_iff' _ (Iff.of_eq (k20_chk8.eq_1 v59))
theorem k20_off16_inb : ∀ (v59 : BitVec 32) (k20_hw8 : k20_chk8 v59), ∀ a, (k20_off16 v59) a + S1x128.size a ≤ S100000x128.size a := fun v59 k20_hw8 => k20_hw8.1
theorem k20_off40_inb : ∀ (v59 : BitVec 32) (k20_hw8 : k20_chk8 v59), ∀ a, (k20_off40 v59) a + S1x128.size a ≤ S100000x128.size a := fun v59 k20_hw8 => k20_hw8.2

def k20_off41 (v67 : BitVec 32) : Fin 2 → Nat :=
  let c0_i32_83 : BitVec 32 := 0#32
  ![v67.toNat, 0]

def k20_chk9 (v67 : BitVec 32) : Prop :=
  (∀ a, (k20_off18 v67) a + S1x128.size a ≤ S100000x128.size a) ∧
  (∀ a, (k20_off41 v67) a + S1x128.size a ≤ S100000x128.size a)
instance k20_chk9.dec : ∀ (v67 : BitVec 32), Decidable (k20_chk9 v67) := fun v67 => decidable_of_iff' _ (Iff.of_eq (k20_chk9.eq_1 v67))
theorem k20_off18_inb : ∀ (v67 : BitVec 32) (k20_hw9 : k20_chk9 v67), ∀ a, (k20_off18 v67) a + S1x128.size a ≤ S100000x128.size a := fun v67 k20_hw9 => k20_hw9.1
theorem k20_off41_inb : ∀ (v67 : BitVec 32) (k20_hw9 : k20_chk9 v67), ∀ a, (k20_off41 v67) a + S1x128.size a ≤ S100000x128.size a := fun v67 k20_hw9 => k20_hw9.2

def k20_off42 (v75 : BitVec 32) : Fin 2 → Nat :=
  let c0_i32_87 : BitVec 32 := 0#32
  ![v75.toNat, 0]

def k20_chk10 (v75 : BitVec 32) : Prop :=
  (∀ a, (k20_off20 v75) a + S1x128.size a ≤ S100000x128.size a) ∧
  (∀ a, (k20_off42 v75) a + S1x128.size a ≤ S100000x128.size a)
instance k20_chk10.dec : ∀ (v75 : BitVec 32), Decidable (k20_chk10 v75) := fun v75 => decidable_of_iff' _ (Iff.of_eq (k20_chk10.eq_1 v75))
theorem k20_off20_inb : ∀ (v75 : BitVec 32) (k20_hw10 : k20_chk10 v75), ∀ a, (k20_off20 v75) a + S1x128.size a ≤ S100000x128.size a := fun v75 k20_hw10 => k20_hw10.1
theorem k20_off42_inb : ∀ (v75 : BitVec 32) (k20_hw10 : k20_chk10 v75), ∀ a, (k20_off42 v75) a + S1x128.size a ≤ S100000x128.size a := fun v75 k20_hw10 => k20_hw10.2

def k20_off43 (v83 : BitVec 32) : Fin 2 → Nat :=
  let c0_i32_91 : BitVec 32 := 0#32
  ![v83.toNat, 0]

def k20_chk11 (v83 : BitVec 32) : Prop :=
  (∀ a, (k20_off22 v83) a + S1x128.size a ≤ S100000x128.size a) ∧
  (∀ a, (k20_off43 v83) a + S1x128.size a ≤ S100000x128.size a)
instance k20_chk11.dec : ∀ (v83 : BitVec 32), Decidable (k20_chk11 v83) := fun v83 => decidable_of_iff' _ (Iff.of_eq (k20_chk11.eq_1 v83))
theorem k20_off22_inb : ∀ (v83 : BitVec 32) (k20_hw11 : k20_chk11 v83), ∀ a, (k20_off22 v83) a + S1x128.size a ≤ S100000x128.size a := fun v83 k20_hw11 => k20_hw11.1
theorem k20_off43_inb : ∀ (v83 : BitVec 32) (k20_hw11 : k20_chk11 v83), ∀ a, (k20_off43 v83) a + S1x128.size a ≤ S100000x128.size a := fun v83 k20_hw11 => k20_hw11.2

def k20_off44 (v91 : BitVec 32) : Fin 2 → Nat :=
  let c0_i32_95 : BitVec 32 := 0#32
  ![v91.toNat, 0]

def k20_chk12 (v91 : BitVec 32) : Prop :=
  (∀ a, (k20_off24 v91) a + S1x128.size a ≤ S100000x128.size a) ∧
  (∀ a, (k20_off44 v91) a + S1x128.size a ≤ S100000x128.size a)
instance k20_chk12.dec : ∀ (v91 : BitVec 32), Decidable (k20_chk12 v91) := fun v91 => decidable_of_iff' _ (Iff.of_eq (k20_chk12.eq_1 v91))
theorem k20_off24_inb : ∀ (v91 : BitVec 32) (k20_hw12 : k20_chk12 v91), ∀ a, (k20_off24 v91) a + S1x128.size a ≤ S100000x128.size a := fun v91 k20_hw12 => k20_hw12.1
theorem k20_off44_inb : ∀ (v91 : BitVec 32) (k20_hw12 : k20_chk12 v91), ∀ a, (k20_off44 v91) a + S1x128.size a ≤ S100000x128.size a := fun v91 k20_hw12 => k20_hw12.2

def k20_off45 (v99 : BitVec 32) : Fin 2 → Nat :=
  let c0_i32_99 : BitVec 32 := 0#32
  ![v99.toNat, 0]

def k20_chk13 (v99 : BitVec 32) : Prop :=
  (∀ a, (k20_off26 v99) a + S1x128.size a ≤ S100000x128.size a) ∧
  (∀ a, (k20_off45 v99) a + S1x128.size a ≤ S100000x128.size a)
instance k20_chk13.dec : ∀ (v99 : BitVec 32), Decidable (k20_chk13 v99) := fun v99 => decidable_of_iff' _ (Iff.of_eq (k20_chk13.eq_1 v99))
theorem k20_off26_inb : ∀ (v99 : BitVec 32) (k20_hw13 : k20_chk13 v99), ∀ a, (k20_off26 v99) a + S1x128.size a ≤ S100000x128.size a := fun v99 k20_hw13 => k20_hw13.1
theorem k20_off45_inb : ∀ (v99 : BitVec 32) (k20_hw13 : k20_chk13 v99), ∀ a, (k20_off45 v99) a + S1x128.size a ≤ S100000x128.size a := fun v99 k20_hw13 => k20_hw13.2

def k20_off46 (v107 : BitVec 32) : Fin 2 → Nat :=
  let c0_i32_103 : BitVec 32 := 0#32
  ![v107.toNat, 0]

def k20_chk14 (v107 : BitVec 32) : Prop :=
  (∀ a, (k20_off28 v107) a + S1x128.size a ≤ S100000x128.size a) ∧
  (∀ a, (k20_off46 v107) a + S1x128.size a ≤ S100000x128.size a)
instance k20_chk14.dec : ∀ (v107 : BitVec 32), Decidable (k20_chk14 v107) := fun v107 => decidable_of_iff' _ (Iff.of_eq (k20_chk14.eq_1 v107))
theorem k20_off28_inb : ∀ (v107 : BitVec 32) (k20_hw14 : k20_chk14 v107), ∀ a, (k20_off28 v107) a + S1x128.size a ≤ S100000x128.size a := fun v107 k20_hw14 => k20_hw14.1
theorem k20_off46_inb : ∀ (v107 : BitVec 32) (k20_hw14 : k20_chk14 v107), ∀ a, (k20_off46 v107) a + S1x128.size a ≤ S100000x128.size a := fun v107 k20_hw14 => k20_hw14.2

def k20_off47 (v115 : BitVec 32) : Fin 2 → Nat :=
  let c0_i32_107 : BitVec 32 := 0#32
  ![v115.toNat, 0]

def k20_chk15 (v115 : BitVec 32) : Prop :=
  (∀ a, (k20_off30 v115) a + S1x128.size a ≤ S100000x128.size a) ∧
  (∀ a, (k20_off47 v115) a + S1x128.size a ≤ S100000x128.size a)
instance k20_chk15.dec : ∀ (v115 : BitVec 32), Decidable (k20_chk15 v115) := fun v115 => decidable_of_iff' _ (Iff.of_eq (k20_chk15.eq_1 v115))
theorem k20_off30_inb : ∀ (v115 : BitVec 32) (k20_hw15 : k20_chk15 v115), ∀ a, (k20_off30 v115) a + S1x128.size a ≤ S100000x128.size a := fun v115 k20_hw15 => k20_hw15.1
theorem k20_off47_inb : ∀ (v115 : BitVec 32) (k20_hw15 : k20_chk15 v115), ∀ a, (k20_off47 v115) a + S1x128.size a ≤ S100000x128.size a := fun v115 k20_hw15 => k20_hw15.2

def k20_off48 (i : grid20.Coords) : Fin 2 → Nat :=
  let arg1 : BitVec 32 := BitVec.ofNat 32 (i 1).val
  let v230 : Index := Scalar.indexCast arg1
  let c0_115 : Index := 0#32
  ![v230.toNat, 0]
def k20_cond1 (i : grid20.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc20_transform_1 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage20_0 : Fin 1 → Memref sig .tc .vmem S128x128 .f32 := fun | 0 => Memref.whole cc20_stg0_0 | ⟨_ + 1, h⟩ => absurd h (Nat.not_lt.2 (Nat.le_add_left _ _))
abbrev sem20_0 : Fin 1 → DmaSem sig := fun | 0 => cc20_sem0_0 | ⟨_ + 1, h⟩ => absurd h (Nat.not_lt.2 (Nat.le_add_left _ _))
abbrev reads20_0 : Fin grid20.rank → Bool := ![false, false]

abbrev stage20_1 : Fin 2 → Memref sig .tc .vmem S1000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true, false]

abbrev grid21 : Pipeline.Grid := ⟨2, ![2, 1000], ![false, false]⟩

abbrev pre21 : Pipeline.Prefetch sig := ⟨1, ![main_v43.idx], fun | 0 => main_v43.names | ⟨_ + 1, h⟩ => absurd h (Nat.not_lt.2 (Nat.le_add_left _ _)), fun | 0 => rfl | ⟨_ + 1, h⟩ => absurd h (Nat.not_lt.2 (Nat.le_add_left _ _))⟩

def k21_off1 (i : grid21.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k21_off2 (v3 : BitVec 32) : Fin 2 → Nat :=
  let c0_i32_2 : BitVec 32 := 0#32
  ![v3.toNat, 0]

def k21_off3 (i : grid21.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k21_off4 (v11 : BitVec 32) : Fin 2 → Nat :=
  let c0_i32_5 : BitVec 32 := 0#32
  ![v11.toNat, 0]

def k21_off5 (i : grid21.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k21_off6 (v19 : BitVec 32) : Fin 2 → Nat :=
  let c0_i32_8 : BitVec 32 := 0#32
  ![v19.toNat, 0]

def k21_off7 (i : grid21.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k21_off8 (v27 : BitVec 32) : Fin 2 → Nat :=
  let c0_i32_11 : BitVec 32 := 0#32
  ![v27.toNat, 0]

def k21_off9 (i : grid21.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k21_off10 (v35 : BitVec 32) : Fin 2 → Nat :=
  let c0_i32_14 : BitVec 32 := 0#32
  ![v35.toNat, 0]

def k21_off11 (i : grid21.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k21_off12 (v43 : BitVec 32) : Fin 2 → Nat :=
  let c0_i32_17 : BitVec 32 := 0#32
  ![v43.toNat, 0]

def k21_off13 (i : grid21.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k21_off14 (v51 : BitVec 32) : Fin 2 → Nat :=
  let c0_i32_20 : BitVec 32 := 0#32
  ![v51.toNat, 0]

def k21_off15 (i : grid21.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k21_off16 (v59 : BitVec 32) : Fin 2 → Nat :=
  let c0_i32_23 : BitVec 32 := 0#32
  ![v59.toNat, 0]

def k21_off17 (i : grid21.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k21_off18 (v67 : BitVec 32) : Fin 2 → Nat :=
  let c0_i32_26 : BitVec 32 := 0#32
  ![v67.toNat, 0]

def k21_off19 (i : grid21.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k21_off20 (v75 : BitVec 32) : Fin 2 → Nat :=
  let c0_i32_29 : BitVec 32 := 0#32
  ![v75.toNat, 0]

def k21_off21 (i : grid21.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k21_off22 (v83 : BitVec 32) : Fin 2 → Nat :=
  let c0_i32_32 : BitVec 32 := 0#32
  ![v83.toNat, 0]

def k21_off23 (i : grid21.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k21_off24 (v91 : BitVec 32) : Fin 2 → Nat :=
  let c0_i32_35 : BitVec 32 := 0#32
  ![v91.toNat, 0]

def k21_off25 (i : grid21.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k21_off26 (v99 : BitVec 32) : Fin 2 → Nat :=
  let c0_i32_38 : BitVec 32 := 0#32
  ![v99.toNat, 0]

def k21_off27 (i : grid21.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k21_off28 (v107 : BitVec 32) : Fin 2 → Nat :=
  let c0_i32_41 : BitVec 32 := 0#32
  ![v107.toNat, 0]

def k21_off29 (i : grid21.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k21_off30 (v115 : BitVec 32) : Fin 2 → Nat :=
  let c0_i32_44 : BitVec 32 := 0#32
  ![v115.toNat, 0]

def k21_off31 (i : grid21.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k21_off32 (v123 : BitVec 32) : Fin 2 → Nat :=
  let c0_i32_47 : BitVec 32 := 0#32
  ![v123.toNat, 0]

def k21_chk16 (v123 : BitVec 32) : Prop :=
  (∀ a, (k21_off32 v123) a + S1x128.size a ≤ S100000x128.size a)
instance k21_chk16.dec : ∀ (v123 : BitVec 32), Decidable (k21_chk16 v123) := fun v123 => decidable_of_iff' _ (Iff.of_eq (k21_chk16.eq_1 v123))
theorem k21_off32_inb : ∀ (v123 : BitVec 32) (k21_hw16 : k21_chk16 v123), ∀ a, (k21_off32 v123) a + S1x128.size a ≤ S100000x128.size a := fun v123 k21_hw16 => k21_hw16

def k21_off33 (v3 : BitVec 32) : Fin 2 → Nat :=
  let c0_i32_51 : BitVec 32 := 0#32
  ![v3.toNat, 0]

def k21_chk1 (v3 : BitVec 32) : Prop :=
  (∀ a, (k21_off2 v3) a + S1x128.size a ≤ S100000x128.size a) ∧
  (∀ a, (k21_off33 v3) a + S1x128.size a ≤ S100000x128.size a)
instance k21_chk1.dec : ∀ (v3 : BitVec 32), Decidable (k21_chk1 v3) := fun v3 => decidable_of_iff' _ (Iff.of_eq (k21_chk1.eq_1 v3))
theorem k21_off2_inb : ∀ (v3 : BitVec 32) (k21_hw1 : k21_chk1 v3), ∀ a, (k21_off2 v3) a + S1x128.size a ≤ S100000x128.size a := fun v3 k21_hw1 => k21_hw1.1
theorem k21_off33_inb : ∀ (v3 : BitVec 32) (k21_hw1 : k21_chk1 v3), ∀ a, (k21_off33 v3) a + S1x128.size a ≤ S100000x128.size a := fun v3 k21_hw1 => k21_hw1.2

def k21_off34 (v11 : BitVec 32) : Fin 2 → Nat :=
  let c0_i32_55 : BitVec 32 := 0#32
  ![v11.toNat, 0]

def k21_chk2 (v11 : BitVec 32) : Prop :=
  (∀ a, (k21_off4 v11) a + S1x128.size a ≤ S100000x128.size a) ∧
  (∀ a, (k21_off34 v11) a + S1x128.size a ≤ S100000x128.size a)
instance k21_chk2.dec : ∀ (v11 : BitVec 32), Decidable (k21_chk2 v11) := fun v11 => decidable_of_iff' _ (Iff.of_eq (k21_chk2.eq_1 v11))
theorem k21_off4_inb : ∀ (v11 : BitVec 32) (k21_hw2 : k21_chk2 v11), ∀ a, (k21_off4 v11) a + S1x128.size a ≤ S100000x128.size a := fun v11 k21_hw2 => k21_hw2.1
theorem k21_off34_inb : ∀ (v11 : BitVec 32) (k21_hw2 : k21_chk2 v11), ∀ a, (k21_off34 v11) a + S1x128.size a ≤ S100000x128.size a := fun v11 k21_hw2 => k21_hw2.2

def k21_off35 (v19 : BitVec 32) : Fin 2 → Nat :=
  let c0_i32_59 : BitVec 32 := 0#32
  ![v19.toNat, 0]

def k21_chk3 (v19 : BitVec 32) : Prop :=
  (∀ a, (k21_off6 v19) a + S1x128.size a ≤ S100000x128.size a) ∧
  (∀ a, (k21_off35 v19) a + S1x128.size a ≤ S100000x128.size a)
instance k21_chk3.dec : ∀ (v19 : BitVec 32), Decidable (k21_chk3 v19) := fun v19 => decidable_of_iff' _ (Iff.of_eq (k21_chk3.eq_1 v19))
theorem k21_off6_inb : ∀ (v19 : BitVec 32) (k21_hw3 : k21_chk3 v19), ∀ a, (k21_off6 v19) a + S1x128.size a ≤ S100000x128.size a := fun v19 k21_hw3 => k21_hw3.1
theorem k21_off35_inb : ∀ (v19 : BitVec 32) (k21_hw3 : k21_chk3 v19), ∀ a, (k21_off35 v19) a + S1x128.size a ≤ S100000x128.size a := fun v19 k21_hw3 => k21_hw3.2

def k21_off36 (v27 : BitVec 32) : Fin 2 → Nat :=
  let c0_i32_63 : BitVec 32 := 0#32
  ![v27.toNat, 0]

def k21_chk4 (v27 : BitVec 32) : Prop :=
  (∀ a, (k21_off8 v27) a + S1x128.size a ≤ S100000x128.size a) ∧
  (∀ a, (k21_off36 v27) a + S1x128.size a ≤ S100000x128.size a)
instance k21_chk4.dec : ∀ (v27 : BitVec 32), Decidable (k21_chk4 v27) := fun v27 => decidable_of_iff' _ (Iff.of_eq (k21_chk4.eq_1 v27))
theorem k21_off8_inb : ∀ (v27 : BitVec 32) (k21_hw4 : k21_chk4 v27), ∀ a, (k21_off8 v27) a + S1x128.size a ≤ S100000x128.size a := fun v27 k21_hw4 => k21_hw4.1
theorem k21_off36_inb : ∀ (v27 : BitVec 32) (k21_hw4 : k21_chk4 v27), ∀ a, (k21_off36 v27) a + S1x128.size a ≤ S100000x128.size a := fun v27 k21_hw4 => k21_hw4.2

def k21_off37 (v35 : BitVec 32) : Fin 2 → Nat :=
  let c0_i32_67 : BitVec 32 := 0#32
  ![v35.toNat, 0]

def k21_chk5 (v35 : BitVec 32) : Prop :=
  (∀ a, (k21_off10 v35) a + S1x128.size a ≤ S100000x128.size a) ∧
  (∀ a, (k21_off37 v35) a + S1x128.size a ≤ S100000x128.size a)
instance k21_chk5.dec : ∀ (v35 : BitVec 32), Decidable (k21_chk5 v35) := fun v35 => decidable_of_iff' _ (Iff.of_eq (k21_chk5.eq_1 v35))
theorem k21_off10_inb : ∀ (v35 : BitVec 32) (k21_hw5 : k21_chk5 v35), ∀ a, (k21_off10 v35) a + S1x128.size a ≤ S100000x128.size a := fun v35 k21_hw5 => k21_hw5.1
theorem k21_off37_inb : ∀ (v35 : BitVec 32) (k21_hw5 : k21_chk5 v35), ∀ a, (k21_off37 v35) a + S1x128.size a ≤ S100000x128.size a := fun v35 k21_hw5 => k21_hw5.2

def k21_off38 (v43 : BitVec 32) : Fin 2 → Nat :=
  let c0_i32_71 : BitVec 32 := 0#32
  ![v43.toNat, 0]

def k21_chk6 (v43 : BitVec 32) : Prop :=
  (∀ a, (k21_off12 v43) a + S1x128.size a ≤ S100000x128.size a) ∧
  (∀ a, (k21_off38 v43) a + S1x128.size a ≤ S100000x128.size a)
instance k21_chk6.dec : ∀ (v43 : BitVec 32), Decidable (k21_chk6 v43) := fun v43 => decidable_of_iff' _ (Iff.of_eq (k21_chk6.eq_1 v43))
theorem k21_off12_inb : ∀ (v43 : BitVec 32) (k21_hw6 : k21_chk6 v43), ∀ a, (k21_off12 v43) a + S1x128.size a ≤ S100000x128.size a := fun v43 k21_hw6 => k21_hw6.1
theorem k21_off38_inb : ∀ (v43 : BitVec 32) (k21_hw6 : k21_chk6 v43), ∀ a, (k21_off38 v43) a + S1x128.size a ≤ S100000x128.size a := fun v43 k21_hw6 => k21_hw6.2

def k21_off39 (v51 : BitVec 32) : Fin 2 → Nat :=
  let c0_i32_75 : BitVec 32 := 0#32
  ![v51.toNat, 0]

def k21_chk7 (v51 : BitVec 32) : Prop :=
  (∀ a, (k21_off14 v51) a + S1x128.size a ≤ S100000x128.size a) ∧
  (∀ a, (k21_off39 v51) a + S1x128.size a ≤ S100000x128.size a)
instance k21_chk7.dec : ∀ (v51 : BitVec 32), Decidable (k21_chk7 v51) := fun v51 => decidable_of_iff' _ (Iff.of_eq (k21_chk7.eq_1 v51))
theorem k21_off14_inb : ∀ (v51 : BitVec 32) (k21_hw7 : k21_chk7 v51), ∀ a, (k21_off14 v51) a + S1x128.size a ≤ S100000x128.size a := fun v51 k21_hw7 => k21_hw7.1
theorem k21_off39_inb : ∀ (v51 : BitVec 32) (k21_hw7 : k21_chk7 v51), ∀ a, (k21_off39 v51) a + S1x128.size a ≤ S100000x128.size a := fun v51 k21_hw7 => k21_hw7.2

def k21_off40 (v59 : BitVec 32) : Fin 2 → Nat :=
  let c0_i32_79 : BitVec 32 := 0#32
  ![v59.toNat, 0]

def k21_chk8 (v59 : BitVec 32) : Prop :=
  (∀ a, (k21_off16 v59) a + S1x128.size a ≤ S100000x128.size a) ∧
  (∀ a, (k21_off40 v59) a + S1x128.size a ≤ S100000x128.size a)
instance k21_chk8.dec : ∀ (v59 : BitVec 32), Decidable (k21_chk8 v59) := fun v59 => decidable_of_iff' _ (Iff.of_eq (k21_chk8.eq_1 v59))
theorem k21_off16_inb : ∀ (v59 : BitVec 32) (k21_hw8 : k21_chk8 v59), ∀ a, (k21_off16 v59) a + S1x128.size a ≤ S100000x128.size a := fun v59 k21_hw8 => k21_hw8.1
theorem k21_off40_inb : ∀ (v59 : BitVec 32) (k21_hw8 : k21_chk8 v59), ∀ a, (k21_off40 v59) a + S1x128.size a ≤ S100000x128.size a := fun v59 k21_hw8 => k21_hw8.2

def k21_off41 (v67 : BitVec 32) : Fin 2 → Nat :=
  let c0_i32_83 : BitVec 32 := 0#32
  ![v67.toNat, 0]

def k21_chk9 (v67 : BitVec 32) : Prop :=
  (∀ a, (k21_off18 v67) a + S1x128.size a ≤ S100000x128.size a) ∧
  (∀ a, (k21_off41 v67) a + S1x128.size a ≤ S100000x128.size a)
instance k21_chk9.dec : ∀ (v67 : BitVec 32), Decidable (k21_chk9 v67) := fun v67 => decidable_of_iff' _ (Iff.of_eq (k21_chk9.eq_1 v67))
theorem k21_off18_inb : ∀ (v67 : BitVec 32) (k21_hw9 : k21_chk9 v67), ∀ a, (k21_off18 v67) a + S1x128.size a ≤ S100000x128.size a := fun v67 k21_hw9 => k21_hw9.1
theorem k21_off41_inb : ∀ (v67 : BitVec 32) (k21_hw9 : k21_chk9 v67), ∀ a, (k21_off41 v67) a + S1x128.size a ≤ S100000x128.size a := fun v67 k21_hw9 => k21_hw9.2

def k21_off42 (v75 : BitVec 32) : Fin 2 → Nat :=
  let c0_i32_87 : BitVec 32 := 0#32
  ![v75.toNat, 0]

def k21_chk10 (v75 : BitVec 32) : Prop :=
  (∀ a, (k21_off20 v75) a + S1x128.size a ≤ S100000x128.size a) ∧
  (∀ a, (k21_off42 v75) a + S1x128.size a ≤ S100000x128.size a)
instance k21_chk10.dec : ∀ (v75 : BitVec 32), Decidable (k21_chk10 v75) := fun v75 => decidable_of_iff' _ (Iff.of_eq (k21_chk10.eq_1 v75))
theorem k21_off20_inb : ∀ (v75 : BitVec 32) (k21_hw10 : k21_chk10 v75), ∀ a, (k21_off20 v75) a + S1x128.size a ≤ S100000x128.size a := fun v75 k21_hw10 => k21_hw10.1
theorem k21_off42_inb : ∀ (v75 : BitVec 32) (k21_hw10 : k21_chk10 v75), ∀ a, (k21_off42 v75) a + S1x128.size a ≤ S100000x128.size a := fun v75 k21_hw10 => k21_hw10.2

def k21_off43 (v83 : BitVec 32) : Fin 2 → Nat :=
  let c0_i32_91 : BitVec 32 := 0#32
  ![v83.toNat, 0]

def k21_chk11 (v83 : BitVec 32) : Prop :=
  (∀ a, (k21_off22 v83) a + S1x128.size a ≤ S100000x128.size a) ∧
  (∀ a, (k21_off43 v83) a + S1x128.size a ≤ S100000x128.size a)
instance k21_chk11.dec : ∀ (v83 : BitVec 32), Decidable (k21_chk11 v83) := fun v83 => decidable_of_iff' _ (Iff.of_eq (k21_chk11.eq_1 v83))
theorem k21_off22_inb : ∀ (v83 : BitVec 32) (k21_hw11 : k21_chk11 v83), ∀ a, (k21_off22 v83) a + S1x128.size a ≤ S100000x128.size a := fun v83 k21_hw11 => k21_hw11.1
theorem k21_off43_inb : ∀ (v83 : BitVec 32) (k21_hw11 : k21_chk11 v83), ∀ a, (k21_off43 v83) a + S1x128.size a ≤ S100000x128.size a := fun v83 k21_hw11 => k21_hw11.2

def k21_off44 (v91 : BitVec 32) : Fin 2 → Nat :=
  let c0_i32_95 : BitVec 32 := 0#32
  ![v91.toNat, 0]

def k21_chk12 (v91 : BitVec 32) : Prop :=
  (∀ a, (k21_off24 v91) a + S1x128.size a ≤ S100000x128.size a) ∧
  (∀ a, (k21_off44 v91) a + S1x128.size a ≤ S100000x128.size a)
instance k21_chk12.dec : ∀ (v91 : BitVec 32), Decidable (k21_chk12 v91) := fun v91 => decidable_of_iff' _ (Iff.of_eq (k21_chk12.eq_1 v91))
theorem k21_off24_inb : ∀ (v91 : BitVec 32) (k21_hw12 : k21_chk12 v91), ∀ a, (k21_off24 v91) a + S1x128.size a ≤ S100000x128.size a := fun v91 k21_hw12 => k21_hw12.1
theorem k21_off44_inb : ∀ (v91 : BitVec 32) (k21_hw12 : k21_chk12 v91), ∀ a, (k21_off44 v91) a + S1x128.size a ≤ S100000x128.size a := fun v91 k21_hw12 => k21_hw12.2

def k21_off45 (v99 : BitVec 32) : Fin 2 → Nat :=
  let c0_i32_99 : BitVec 32 := 0#32
  ![v99.toNat, 0]

def k21_chk13 (v99 : BitVec 32) : Prop :=
  (∀ a, (k21_off26 v99) a + S1x128.size a ≤ S100000x128.size a) ∧
  (∀ a, (k21_off45 v99) a + S1x128.size a ≤ S100000x128.size a)
instance k21_chk13.dec : ∀ (v99 : BitVec 32), Decidable (k21_chk13 v99) := fun v99 => decidable_of_iff' _ (Iff.of_eq (k21_chk13.eq_1 v99))
theorem k21_off26_inb : ∀ (v99 : BitVec 32) (k21_hw13 : k21_chk13 v99), ∀ a, (k21_off26 v99) a + S1x128.size a ≤ S100000x128.size a := fun v99 k21_hw13 => k21_hw13.1
theorem k21_off45_inb : ∀ (v99 : BitVec 32) (k21_hw13 : k21_chk13 v99), ∀ a, (k21_off45 v99) a + S1x128.size a ≤ S100000x128.size a := fun v99 k21_hw13 => k21_hw13.2

def k21_off46 (v107 : BitVec 32) : Fin 2 → Nat :=
  let c0_i32_103 : BitVec 32 := 0#32
  ![v107.toNat, 0]

def k21_chk14 (v107 : BitVec 32) : Prop :=
  (∀ a, (k21_off28 v107) a + S1x128.size a ≤ S100000x128.size a) ∧
  (∀ a, (k21_off46 v107) a + S1x128.size a ≤ S100000x128.size a)
instance k21_chk14.dec : ∀ (v107 : BitVec 32), Decidable (k21_chk14 v107) := fun v107 => decidable_of_iff' _ (Iff.of_eq (k21_chk14.eq_1 v107))
theorem k21_off28_inb : ∀ (v107 : BitVec 32) (k21_hw14 : k21_chk14 v107), ∀ a, (k21_off28 v107) a + S1x128.size a ≤ S100000x128.size a := fun v107 k21_hw14 => k21_hw14.1
theorem k21_off46_inb : ∀ (v107 : BitVec 32) (k21_hw14 : k21_chk14 v107), ∀ a, (k21_off46 v107) a + S1x128.size a ≤ S100000x128.size a := fun v107 k21_hw14 => k21_hw14.2

def k21_off47 (v115 : BitVec 32) : Fin 2 → Nat :=
  let c0_i32_107 : BitVec 32 := 0#32
  ![v115.toNat, 0]

def k21_chk15 (v115 : BitVec 32) : Prop :=
  (∀ a, (k21_off30 v115) a + S1x128.size a ≤ S100000x128.size a) ∧
  (∀ a, (k21_off47 v115) a + S1x128.size a ≤ S100000x128.size a)
instance k21_chk15.dec : ∀ (v115 : BitVec 32), Decidable (k21_chk15 v115) := fun v115 => decidable_of_iff' _ (Iff.of_eq (k21_chk15.eq_1 v115))
theorem k21_off30_inb : ∀ (v115 : BitVec 32) (k21_hw15 : k21_chk15 v115), ∀ a, (k21_off30 v115) a + S1x128.size a ≤ S100000x128.size a := fun v115 k21_hw15 => k21_hw15.1
theorem k21_off47_inb : ∀ (v115 : BitVec 32) (k21_hw15 : k21_chk15 v115), ∀ a, (k21_off47 v115) a + S1x128.size a ≤ S100000x128.size a := fun v115 k21_hw15 => k21_hw15.2

def k21_off48 (i : grid21.Coords) : Fin 2 → Nat :=
  let arg1 : BitVec 32 := BitVec.ofNat 32 (i 1).val
  let v230 : Index := Scalar.indexCast arg1
  let c0_115 : Index := 0#32
  ![v230.toNat, 0]
def k21_cond1 (i : grid21.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc21_transform_1 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage21_0 : Fin 1 → Memref sig .tc .vmem S128x128 .f32 := fun | 0 => Memref.whole cc21_stg0_0 | ⟨_ + 1, h⟩ => absurd h (Nat.not_lt.2 (Nat.le_add_left _ _))
abbrev sem21_0 : Fin 1 → DmaSem sig := fun | 0 => cc21_sem0_0 | ⟨_ + 1, h⟩ => absurd h (Nat.not_lt.2 (Nat.le_add_left _ _))
abbrev reads21_0 : Fin grid21.rank → Bool := ![false, false]

abbrev stage21_1 : Fin 2 → Memref sig .tc .vmem S1000x128 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true, false]

abbrev grid22 : Pipeline.Grid := ⟨2, ![2, 1000], ![false, false]⟩

abbrev pre22 : Pipeline.Prefetch sig := ⟨1, ![main_v45.idx], fun | 0 => main_v45.names | ⟨_ + 1, h⟩ => absurd h (Nat.not_lt.2 (Nat.le_add_left _ _)), fun | 0 => rfl | ⟨_ + 1, h⟩ => absurd h (Nat.not_lt.2 (Nat.le_add_left _ _))⟩

def k22_off1 (i : grid22.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k22_off2 (v3 : BitVec 32) : Fin 2 → Nat :=
  let c0_i32_2 : BitVec 32 := 0#32
  ![v3.toNat, 0]

def k22_off3 (i : grid22.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k22_off4 (v11 : BitVec 32) : Fin 2 → Nat :=
  let c0_i32_5 : BitVec 32 := 0#32
  ![v11.toNat, 0]

def k22_off5 (i : grid22.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k22_off6 (v19 : BitVec 32) : Fin 2 → Nat :=
  let c0_i32_8 : BitVec 32 := 0#32
  ![v19.toNat, 0]

def k22_off7 (i : grid22.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k22_off8 (v27 : BitVec 32) : Fin 2 → Nat :=
  let c0_i32_11 : BitVec 32 := 0#32
  ![v27.toNat, 0]

def k22_off9 (i : grid22.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k22_off10 (v35 : BitVec 32) : Fin 2 → Nat :=
  let c0_i32_14 : BitVec 32 := 0#32
  ![v35.toNat, 0]

def k22_off11 (i : grid22.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k22_off12 (v43 : BitVec 32) : Fin 2 → Nat :=
  let c0_i32_17 : BitVec 32 := 0#32
  ![v43.toNat, 0]

def k22_off13 (i : grid22.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k22_off14 (v51 : BitVec 32) : Fin 2 → Nat :=
  let c0_i32_20 : BitVec 32 := 0#32
  ![v51.toNat, 0]

def k22_off15 (i : grid22.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k22_off16 (v59 : BitVec 32) : Fin 2 → Nat :=
  let c0_i32_23 : BitVec 32 := 0#32
  ![v59.toNat, 0]

def k22_off17 (i : grid22.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k22_off18 (v67 : BitVec 32) : Fin 2 → Nat :=
  let c0_i32_26 : BitVec 32 := 0#32
  ![v67.toNat, 0]

def k22_off19 (i : grid22.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k22_off20 (v75 : BitVec 32) : Fin 2 → Nat :=
  let c0_i32_29 : BitVec 32 := 0#32
  ![v75.toNat, 0]

def k22_off21 (i : grid22.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k22_off22 (v83 : BitVec 32) : Fin 2 → Nat :=
  let c0_i32_32 : BitVec 32 := 0#32
  ![v83.toNat, 0]

def k22_off23 (i : grid22.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k22_off24 (v91 : BitVec 32) : Fin 2 → Nat :=
  let c0_i32_35 : BitVec 32 := 0#32
  ![v91.toNat, 0]

def k22_off25 (i : grid22.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k22_off26 (v99 : BitVec 32) : Fin 2 → Nat :=
  let c0_i32_38 : BitVec 32 := 0#32
  ![v99.toNat, 0]

def k22_off27 (i : grid22.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k22_off28 (v107 : BitVec 32) : Fin 2 → Nat :=
  let c0_i32_41 : BitVec 32 := 0#32
  ![v107.toNat, 0]

def k22_off29 (i : grid22.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k22_off30 (v115 : BitVec 32) : Fin 2 → Nat :=
  let c0_i32_44 : BitVec 32 := 0#32
  ![v115.toNat, 0]

def k22_off31 (i : grid22.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k22_off32 (v123 : BitVec 32) : Fin 2 → Nat :=
  let c0_i32_47 : BitVec 32 := 0#32
  ![v123.toNat, 0]

def k22_chk16 (v123 : BitVec 32) : Prop :=
  (∀ a, (k22_off32 v123) a + S1x128.size a ≤ S100000x128.size a)
instance k22_chk16.dec : ∀ (v123 : BitVec 32), Decidable (k22_chk16 v123) := fun v123 => decidable_of_iff' _ (Iff.of_eq (k22_chk16.eq_1 v123))
theorem k22_off32_inb : ∀ (v123 : BitVec 32) (k22_hw16 : k22_chk16 v123), ∀ a, (k22_off32 v123) a + S1x128.size a ≤ S100000x128.size a := fun v123 k22_hw16 => k22_hw16

def k22_off33 (v3 : BitVec 32) : Fin 2 → Nat :=
  let c0_i32_51 : BitVec 32 := 0#32
  ![v3.toNat, 0]

def k22_chk1 (v3 : BitVec 32) : Prop :=
  (∀ a, (k22_off2 v3) a + S1x128.size a ≤ S100000x128.size a) ∧
  (∀ a, (k22_off33 v3) a + S1x128.size a ≤ S100000x128.size a)
instance k22_chk1.dec : ∀ (v3 : BitVec 32), Decidable (k22_chk1 v3) := fun v3 => decidable_of_iff' _ (Iff.of_eq (k22_chk1.eq_1 v3))
theorem k22_off2_inb : ∀ (v3 : BitVec 32) (k22_hw1 : k22_chk1 v3), ∀ a, (k22_off2 v3) a + S1x128.size a ≤ S100000x128.size a := fun v3 k22_hw1 => k22_hw1.1
theorem k22_off33_inb : ∀ (v3 : BitVec 32) (k22_hw1 : k22_chk1 v3), ∀ a, (k22_off33 v3) a + S1x128.size a ≤ S100000x128.size a := fun v3 k22_hw1 => k22_hw1.2

def k22_off34 (v11 : BitVec 32) : Fin 2 → Nat :=
  let c0_i32_55 : BitVec 32 := 0#32
  ![v11.toNat, 0]

def k22_chk2 (v11 : BitVec 32) : Prop :=
  (∀ a, (k22_off4 v11) a + S1x128.size a ≤ S100000x128.size a) ∧
  (∀ a, (k22_off34 v11) a + S1x128.size a ≤ S100000x128.size a)
instance k22_chk2.dec : ∀ (v11 : BitVec 32), Decidable (k22_chk2 v11) := fun v11 => decidable_of_iff' _ (Iff.of_eq (k22_chk2.eq_1 v11))
theorem k22_off4_inb : ∀ (v11 : BitVec 32) (k22_hw2 : k22_chk2 v11), ∀ a, (k22_off4 v11) a + S1x128.size a ≤ S100000x128.size a := fun v11 k22_hw2 => k22_hw2.1
theorem k22_off34_inb : ∀ (v11 : BitVec 32) (k22_hw2 : k22_chk2 v11), ∀ a, (k22_off34 v11) a + S1x128.size a ≤ S100000x128.size a := fun v11 k22_hw2 => k22_hw2.2

def k22_off35 (v19 : BitVec 32) : Fin 2 → Nat :=
  let c0_i32_59 : BitVec 32 := 0#32
  ![v19.toNat, 0]

def k22_chk3 (v19 : BitVec 32) : Prop :=
  (∀ a, (k22_off6 v19) a + S1x128.size a ≤ S100000x128.size a) ∧
  (∀ a, (k22_off35 v19) a + S1x128.size a ≤ S100000x128.size a)
instance k22_chk3.dec : ∀ (v19 : BitVec 32), Decidable (k22_chk3 v19) := fun v19 => decidable_of_iff' _ (Iff.of_eq (k22_chk3.eq_1 v19))
theorem k22_off6_inb : ∀ (v19 : BitVec 32) (k22_hw3 : k22_chk3 v19), ∀ a, (k22_off6 v19) a + S1x128.size a ≤ S100000x128.size a := fun v19 k22_hw3 => k22_hw3.1
theorem k22_off35_inb : ∀ (v19 : BitVec 32) (k22_hw3 : k22_chk3 v19), ∀ a, (k22_off35 v19) a + S1x128.size a ≤ S100000x128.size a := fun v19 k22_hw3 => k22_hw3.2

def k22_off36 (v27 : BitVec 32) : Fin 2 → Nat :=
  let c0_i32_63 : BitVec 32 := 0#32
  ![v27.toNat, 0]

def k22_chk4 (v27 : BitVec 32) : Prop :=
  (∀ a, (k22_off8 v27) a + S1x128.size a ≤ S100000x128.size a) ∧
  (∀ a, (k22_off36 v27) a + S1x128.size a ≤ S100000x128.size a)
instance k22_chk4.dec : ∀ (v27 : BitVec 32), Decidable (k22_chk4 v27) := fun v27 => decidable_of_iff' _ (Iff.of_eq (k22_chk4.eq_1 v27))
theorem k22_off8_inb : ∀ (v27 : BitVec 32) (k22_hw4 : k22_chk4 v27), ∀ a, (k22_off8 v27) a + S1x128.size a ≤ S100000x128.size a := fun v27 k22_hw4 => k22_hw4.1
theorem k22_off36_inb : ∀ (v27 : BitVec 32) (k22_hw4 : k22_chk4 v27), ∀ a, (k22_off36 v27) a + S1x128.size a ≤ S100000x128.size a := fun v27 k22_hw4 => k22_hw4.2

def k22_off37 (v35 : BitVec 32) : Fin 2 → Nat :=
  let c0_i32_67 : BitVec 32 := 0#32
  ![v35.toNat, 0]

def k22_chk5 (v35 : BitVec 32) : Prop :=
  (∀ a, (k22_off10 v35) a + S1x128.size a ≤ S100000x128.size a) ∧
  (∀ a, (k22_off37 v35) a + S1x128.size a ≤ S100000x128.size a)
instance k22_chk5.dec : ∀ (v35 : BitVec 32), Decidable (k22_chk5 v35) := fun v35 => decidable_of_iff' _ (Iff.of_eq (k22_chk5.eq_1 v35))
theorem k22_off10_inb : ∀ (v35 : BitVec 32) (k22_hw5 : k22_chk5 v35), ∀ a, (k22_off10 v35) a + S1x128.size a ≤ S100000x128.size a := fun v35 k22_hw5 => k22_hw5.1
theorem k22_off37_inb : ∀ (v35 : BitVec 32) (k22_hw5 : k22_chk5 v35), ∀ a, (k22_off37 v35) a + S1x128.size a ≤ S100000x128.size a := fun v35 k22_hw5 => k22_hw5.2

def k22_off38 (v43 : BitVec 32) : Fin 2 → Nat :=
  let c0_i32_71 : BitVec 32 := 0#32
  ![v43.toNat, 0]

def k22_chk6 (v43 : BitVec 32) : Prop :=
  (∀ a, (k22_off12 v43) a + S1x128.size a ≤ S100000x128.size a) ∧
  (∀ a, (k22_off38 v43) a + S1x128.size a ≤ S100000x128.size a)
instance k22_chk6.dec : ∀ (v43 : BitVec 32), Decidable (k22_chk6 v43) := fun v43 => decidable_of_iff' _ (Iff.of_eq (k22_chk6.eq_1 v43))
theorem k22_off12_inb : ∀ (v43 : BitVec 32) (k22_hw6 : k22_chk6 v43), ∀ a, (k22_off12 v43) a + S1x128.size a ≤ S100000x128.size a := fun v43 k22_hw6 => k22_hw6.1
theorem k22_off38_inb : ∀ (v43 : BitVec 32) (k22_hw6 : k22_chk6 v43), ∀ a, (k22_off38 v43) a + S1x128.size a ≤ S100000x128.size a := fun v43 k22_hw6 => k22_hw6.2

def k22_off39 (v51 : BitVec 32) : Fin 2 → Nat :=
  let c0_i32_75 : BitVec 32 := 0#32
  ![v51.toNat, 0]

def k22_chk7 (v51 : BitVec 32) : Prop :=
  (∀ a, (k22_off14 v51) a + S1x128.size a ≤ S100000x128.size a) ∧
  (∀ a, (k22_off39 v51) a + S1x128.size a ≤ S100000x128.size a)
instance k22_chk7.dec : ∀ (v51 : BitVec 32), Decidable (k22_chk7 v51) := fun v51 => decidable_of_iff' _ (Iff.of_eq (k22_chk7.eq_1 v51))
theorem k22_off14_inb : ∀ (v51 : BitVec 32) (k22_hw7 : k22_chk7 v51), ∀ a, (k22_off14 v51) a + S1x128.size a ≤ S100000x128.size a := fun v51 k22_hw7 => k22_hw7.1
theorem k22_off39_inb : ∀ (v51 : BitVec 32) (k22_hw7 : k22_chk7 v51), ∀ a, (k22_off39 v51) a + S1x128.size a ≤ S100000x128.size a := fun v51 k22_hw7 => k22_hw7.2

def k22_off40 (v59 : BitVec 32) : Fin 2 → Nat :=
  let c0_i32_79 : BitVec 32 := 0#32
  ![v59.toNat, 0]

def k22_chk8 (v59 : BitVec 32) : Prop :=
  (∀ a, (k22_off16 v59) a + S1x128.size a ≤ S100000x128.size a) ∧
  (∀ a, (k22_off40 v59) a + S1x128.size a ≤ S100000x128.size a)
instance k22_chk8.dec : ∀ (v59 : BitVec 32), Decidable (k22_chk8 v59) := fun v59 => decidable_of_iff' _ (Iff.of_eq (k22_chk8.eq_1 v59))
theorem k22_off16_inb : ∀ (v59 : BitVec 32) (k22_hw8 : k22_chk8 v59), ∀ a, (k22_off16 v59) a + S1x128.size a ≤ S100000x128.size a := fun v59 k22_hw8 => k22_hw8.1
theorem k22_off40_inb : ∀ (v59 : BitVec 32) (k22_hw8 : k22_chk8 v59), ∀ a, (k22_off40 v59) a + S1x128.size a ≤ S100000x128.size a := fun v59 k22_hw8 => k22_hw8.2

def k22_off41 (v67 : BitVec 32) : Fin 2 → Nat :=
  let c0_i32_83 : BitVec 32 := 0#32
  ![v67.toNat, 0]

def k22_chk9 (v67 : BitVec 32) : Prop :=
  (∀ a, (k22_off18 v67) a + S1x128.size a ≤ S100000x128.size a) ∧
  (∀ a, (k22_off41 v67) a + S1x128.size a ≤ S100000x128.size a)
instance k22_chk9.dec : ∀ (v67 : BitVec 32), Decidable (k22_chk9 v67) := fun v67 => decidable_of_iff' _ (Iff.of_eq (k22_chk9.eq_1 v67))
theorem k22_off18_inb : ∀ (v67 : BitVec 32) (k22_hw9 : k22_chk9 v67), ∀ a, (k22_off18 v67) a + S1x128.size a ≤ S100000x128.size a := fun v67 k22_hw9 => k22_hw9.1
theorem k22_off41_inb : ∀ (v67 : BitVec 32) (k22_hw9 : k22_chk9 v67), ∀ a, (k22_off41 v67) a + S1x128.size a ≤ S100000x128.size a := fun v67 k22_hw9 => k22_hw9.2

def k22_off42 (v75 : BitVec 32) : Fin 2 → Nat :=
  let c0_i32_87 : BitVec 32 := 0#32
  ![v75.toNat, 0]

def k22_chk10 (v75 : BitVec 32) : Prop :=
  (∀ a, (k22_off20 v75) a + S1x128.size a ≤ S100000x128.size a) ∧
  (∀ a, (k22_off42 v75) a + S1x128.size a ≤ S100000x128.size a)
instance k22_chk10.dec : ∀ (v75 : BitVec 32), Decidable (k22_chk10 v75) := fun v75 => decidable_of_iff' _ (Iff.of_eq (k22_chk10.eq_1 v75))
theorem k22_off20_inb : ∀ (v75 : BitVec 32) (k22_hw10 : k22_chk10 v75), ∀ a, (k22_off20 v75) a + S1x128.size a ≤ S100000x128.size a := fun v75 k22_hw10 => k22_hw10.1
theorem k22_off42_inb : ∀ (v75 : BitVec 32) (k22_hw10 : k22_chk10 v75), ∀ a, (k22_off42 v75) a + S1x128.size a ≤ S100000x128.size a := fun v75 k22_hw10 => k22_hw10.2

def k22_off43 (v83 : BitVec 32) : Fin 2 → Nat :=
  let c0_i32_91 : BitVec 32 := 0#32
  ![v83.toNat, 0]

def k22_chk11 (v83 : BitVec 32) : Prop :=
  (∀ a, (k22_off22 v83) a + S1x128.size a ≤ S100000x128.size a) ∧
  (∀ a, (k22_off43 v83) a + S1x128.size a ≤ S100000x128.size a)
instance k22_chk11.dec : ∀ (v83 : BitVec 32), Decidable (k22_chk11 v83) := fun v83 => decidable_of_iff' _ (Iff.of_eq (k22_chk11.eq_1 v83))
theorem k22_off22_inb : ∀ (v83 : BitVec 32) (k22_hw11 : k22_chk11 v83), ∀ a, (k22_off22 v83) a + S1x128.size a ≤ S100000x128.size a := fun v83 k22_hw11 => k22_hw11.1
theorem k22_off43_inb : ∀ (v83 : BitVec 32) (k22_hw11 : k22_chk11 v83), ∀ a, (k22_off43 v83) a + S1x128.size a ≤ S100000x128.size a := fun v83 k22_hw11 => k22_hw11.2

def k22_off44 (v91 : BitVec 32) : Fin 2 → Nat :=
  let c0_i32_95 : BitVec 32 := 0#32
  ![v91.toNat, 0]

def k22_chk12 (v91 : BitVec 32) : Prop :=
  (∀ a, (k22_off24 v91) a + S1x128.size a ≤ S100000x128.size a) ∧
  (∀ a, (k22_off44 v91) a + S1x128.size a ≤ S100000x128.size a)
instance k22_chk12.dec : ∀ (v91 : BitVec 32), Decidable (k22_chk12 v91) := fun v91 => decidable_of_iff' _ (Iff.of_eq (k22_chk12.eq_1 v91))
theorem k22_off24_inb : ∀ (v91 : BitVec 32) (k22_hw12 : k22_chk12 v91), ∀ a, (k22_off24 v91) a + S1x128.size a ≤ S100000x128.size a := fun v91 k22_hw12 => k22_hw12.1
theorem k22_off44_inb : ∀ (v91 : BitVec 32) (k22_hw12 : k22_chk12 v91), ∀ a, (k22_off44 v91) a + S1x128.size a ≤ S100000x128.size a := fun v91 k22_hw12 => k22_hw12.2

def k22_off45 (v99 : BitVec 32) : Fin 2 → Nat :=
  let c0_i32_99 : BitVec 32 := 0#32
  ![v99.toNat, 0]

def k22_chk13 (v99 : BitVec 32) : Prop :=
  (∀ a, (k22_off26 v99) a + S1x128.size a ≤ S100000x128.size a) ∧
  (∀ a, (k22_off45 v99) a + S1x128.size a ≤ S100000x128.size a)
instance k22_chk13.dec : ∀ (v99 : BitVec 32), Decidable (k22_chk13 v99) := fun v99 => decidable_of_iff' _ (Iff.of_eq (k22_chk13.eq_1 v99))
theorem k22_off26_inb : ∀ (v99 : BitVec 32) (k22_hw13 : k22_chk13 v99), ∀ a, (k22_off26 v99) a + S1x128.size a ≤ S100000x128.size a := fun v99 k22_hw13 => k22_hw13.1
theorem k22_off45_inb : ∀ (v99 : BitVec 32) (k22_hw13 : k22_chk13 v99), ∀ a, (k22_off45 v99) a + S1x128.size a ≤ S100000x128.size a := fun v99 k22_hw13 => k22_hw13.2

def k22_off46 (v107 : BitVec 32) : Fin 2 → Nat :=
  let c0_i32_103 : BitVec 32 := 0#32
  ![v107.toNat, 0]

def k22_chk14 (v107 : BitVec 32) : Prop :=
  (∀ a, (k22_off28 v107) a + S1x128.size a ≤ S100000x128.size a) ∧
  (∀ a, (k22_off46 v107) a + S1x128.size a ≤ S100000x128.size a)
instance k22_chk14.dec : ∀ (v107 : BitVec 32), Decidable (k22_chk14 v107) := fun v107 => decidable_of_iff' _ (Iff.of_eq (k22_chk14.eq_1 v107))
theorem k22_off28_inb : ∀ (v107 : BitVec 32) (k22_hw14 : k22_chk14 v107), ∀ a, (k22_off28 v107) a + S1x128.size a ≤ S100000x128.size a := fun v107 k22_hw14 => k22_hw14.1
theorem k22_off46_inb : ∀ (v107 : BitVec 32) (k22_hw14 : k22_chk14 v107), ∀ a, (k22_off46 v107) a + S1x128.size a ≤ S100000x128.size a := fun v107 k22_hw14 => k22_hw14.2

def k22_off47 (v115 : BitVec 32) : Fin 2 → Nat :=
  let c0_i32_107 : BitVec 32 := 0#32
  ![v115.toNat, 0]

def k22_chk15 (v115 : BitVec 32) : Prop :=
  (∀ a, (k22_off30 v115) a + S1x128.size a ≤ S100000x128.size a) ∧
  (∀ a, (k22_off47 v115) a + S1x128.size a ≤ S100000x128.size a)
instance k22_chk15.dec : ∀ (v115 : BitVec 32), Decidable (k22_chk15 v115) := fun v115 => decidable_of_iff' _ (Iff.of_eq (k22_chk15.eq_1 v115))
theorem k22_off30_inb : ∀ (v115 : BitVec 32) (k22_hw15 : k22_chk15 v115), ∀ a, (k22_off30 v115) a + S1x128.size a ≤ S100000x128.size a := fun v115 k22_hw15 => k22_hw15.1
theorem k22_off47_inb : ∀ (v115 : BitVec 32) (k22_hw15 : k22_chk15 v115), ∀ a, (k22_off47 v115) a + S1x128.size a ≤ S100000x128.size a := fun v115 k22_hw15 => k22_hw15.2

def k22_off48 (i : grid22.Coords) : Fin 2 → Nat :=
  let arg1 : BitVec 32 := BitVec.ofNat 32 (i 1).val
  let v230 : Index := Scalar.indexCast arg1
  let c0_115 : Index := 0#32
  ![v230.toNat, 0]
def k22_cond1 (i : grid22.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc22_transform_1 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage22_0 : Fin 1 → Memref sig .tc .vmem S128x128 .f32 := fun | 0 => Memref.whole cc22_stg0_0 | ⟨_ + 1, h⟩ => absurd h (Nat.not_lt.2 (Nat.le_add_left _ _))
abbrev sem22_0 : Fin 1 → DmaSem sig := fun | 0 => cc22_sem0_0 | ⟨_ + 1, h⟩ => absurd h (Nat.not_lt.2 (Nat.le_add_left _ _))
abbrev reads22_0 : Fin grid22.rank → Bool := ![false, false]

abbrev stage22_1 : Fin 2 → Memref sig .tc .vmem S1000x128 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true, false]

abbrev grid23 : Pipeline.Grid := ⟨2, ![2, 1000], ![false, false]⟩

abbrev pre23 : Pipeline.Prefetch sig := ⟨1, ![main_v47.idx], fun | 0 => main_v47.names | ⟨_ + 1, h⟩ => absurd h (Nat.not_lt.2 (Nat.le_add_left _ _)), fun | 0 => rfl | ⟨_ + 1, h⟩ => absurd h (Nat.not_lt.2 (Nat.le_add_left _ _))⟩

def k23_off1 (i : grid23.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k23_off2 (v3 : BitVec 32) : Fin 2 → Nat :=
  let c0_i32_2 : BitVec 32 := 0#32
  ![v3.toNat, 0]

def k23_off3 (i : grid23.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k23_off4 (v11 : BitVec 32) : Fin 2 → Nat :=
  let c0_i32_5 : BitVec 32 := 0#32
  ![v11.toNat, 0]

def k23_off5 (i : grid23.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k23_off6 (v19 : BitVec 32) : Fin 2 → Nat :=
  let c0_i32_8 : BitVec 32 := 0#32
  ![v19.toNat, 0]

def k23_off7 (i : grid23.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k23_off8 (v27 : BitVec 32) : Fin 2 → Nat :=
  let c0_i32_11 : BitVec 32 := 0#32
  ![v27.toNat, 0]

def k23_off9 (i : grid23.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k23_off10 (v35 : BitVec 32) : Fin 2 → Nat :=
  let c0_i32_14 : BitVec 32 := 0#32
  ![v35.toNat, 0]

def k23_off11 (i : grid23.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k23_off12 (v43 : BitVec 32) : Fin 2 → Nat :=
  let c0_i32_17 : BitVec 32 := 0#32
  ![v43.toNat, 0]

def k23_off13 (i : grid23.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k23_off14 (v51 : BitVec 32) : Fin 2 → Nat :=
  let c0_i32_20 : BitVec 32 := 0#32
  ![v51.toNat, 0]

def k23_off15 (i : grid23.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k23_off16 (v59 : BitVec 32) : Fin 2 → Nat :=
  let c0_i32_23 : BitVec 32 := 0#32
  ![v59.toNat, 0]

def k23_off17 (i : grid23.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k23_off18 (v67 : BitVec 32) : Fin 2 → Nat :=
  let c0_i32_26 : BitVec 32 := 0#32
  ![v67.toNat, 0]

def k23_off19 (i : grid23.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k23_off20 (v75 : BitVec 32) : Fin 2 → Nat :=
  let c0_i32_29 : BitVec 32 := 0#32
  ![v75.toNat, 0]

def k23_off21 (i : grid23.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k23_off22 (v83 : BitVec 32) : Fin 2 → Nat :=
  let c0_i32_32 : BitVec 32 := 0#32
  ![v83.toNat, 0]

def k23_off23 (i : grid23.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k23_off24 (v91 : BitVec 32) : Fin 2 → Nat :=
  let c0_i32_35 : BitVec 32 := 0#32
  ![v91.toNat, 0]

def k23_off25 (i : grid23.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k23_off26 (v99 : BitVec 32) : Fin 2 → Nat :=
  let c0_i32_38 : BitVec 32 := 0#32
  ![v99.toNat, 0]

def k23_off27 (i : grid23.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k23_off28 (v107 : BitVec 32) : Fin 2 → Nat :=
  let c0_i32_41 : BitVec 32 := 0#32
  ![v107.toNat, 0]

def k23_off29 (i : grid23.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k23_off30 (v115 : BitVec 32) : Fin 2 → Nat :=
  let c0_i32_44 : BitVec 32 := 0#32
  ![v115.toNat, 0]

def k23_off31 (i : grid23.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k23_off32 (v123 : BitVec 32) : Fin 2 → Nat :=
  let c0_i32_47 : BitVec 32 := 0#32
  ![v123.toNat, 0]

def k23_chk16 (v123 : BitVec 32) : Prop :=
  (∀ a, (k23_off32 v123) a + S1x128.size a ≤ S100000x128.size a)
instance k23_chk16.dec : ∀ (v123 : BitVec 32), Decidable (k23_chk16 v123) := fun v123 => decidable_of_iff' _ (Iff.of_eq (k23_chk16.eq_1 v123))
theorem k23_off32_inb : ∀ (v123 : BitVec 32) (k23_hw16 : k23_chk16 v123), ∀ a, (k23_off32 v123) a + S1x128.size a ≤ S100000x128.size a := fun v123 k23_hw16 => k23_hw16

def k23_off33 (v3 : BitVec 32) : Fin 2 → Nat :=
  let c0_i32_51 : BitVec 32 := 0#32
  ![v3.toNat, 0]

def k23_chk1 (v3 : BitVec 32) : Prop :=
  (∀ a, (k23_off2 v3) a + S1x128.size a ≤ S100000x128.size a) ∧
  (∀ a, (k23_off33 v3) a + S1x128.size a ≤ S100000x128.size a)
instance k23_chk1.dec : ∀ (v3 : BitVec 32), Decidable (k23_chk1 v3) := fun v3 => decidable_of_iff' _ (Iff.of_eq (k23_chk1.eq_1 v3))
theorem k23_off2_inb : ∀ (v3 : BitVec 32) (k23_hw1 : k23_chk1 v3), ∀ a, (k23_off2 v3) a + S1x128.size a ≤ S100000x128.size a := fun v3 k23_hw1 => k23_hw1.1
theorem k23_off33_inb : ∀ (v3 : BitVec 32) (k23_hw1 : k23_chk1 v3), ∀ a, (k23_off33 v3) a + S1x128.size a ≤ S100000x128.size a := fun v3 k23_hw1 => k23_hw1.2

def k23_off34 (v11 : BitVec 32) : Fin 2 → Nat :=
  let c0_i32_55 : BitVec 32 := 0#32
  ![v11.toNat, 0]

def k23_chk2 (v11 : BitVec 32) : Prop :=
  (∀ a, (k23_off4 v11) a + S1x128.size a ≤ S100000x128.size a) ∧
  (∀ a, (k23_off34 v11) a + S1x128.size a ≤ S100000x128.size a)
instance k23_chk2.dec : ∀ (v11 : BitVec 32), Decidable (k23_chk2 v11) := fun v11 => decidable_of_iff' _ (Iff.of_eq (k23_chk2.eq_1 v11))
theorem k23_off4_inb : ∀ (v11 : BitVec 32) (k23_hw2 : k23_chk2 v11), ∀ a, (k23_off4 v11) a + S1x128.size a ≤ S100000x128.size a := fun v11 k23_hw2 => k23_hw2.1
theorem k23_off34_inb : ∀ (v11 : BitVec 32) (k23_hw2 : k23_chk2 v11), ∀ a, (k23_off34 v11) a + S1x128.size a ≤ S100000x128.size a := fun v11 k23_hw2 => k23_hw2.2

def k23_off35 (v19 : BitVec 32) : Fin 2 → Nat :=
  let c0_i32_59 : BitVec 32 := 0#32
  ![v19.toNat, 0]

def k23_chk3 (v19 : BitVec 32) : Prop :=
  (∀ a, (k23_off6 v19) a + S1x128.size a ≤ S100000x128.size a) ∧
  (∀ a, (k23_off35 v19) a + S1x128.size a ≤ S100000x128.size a)
instance k23_chk3.dec : ∀ (v19 : BitVec 32), Decidable (k23_chk3 v19) := fun v19 => decidable_of_iff' _ (Iff.of_eq (k23_chk3.eq_1 v19))
theorem k23_off6_inb : ∀ (v19 : BitVec 32) (k23_hw3 : k23_chk3 v19), ∀ a, (k23_off6 v19) a + S1x128.size a ≤ S100000x128.size a := fun v19 k23_hw3 => k23_hw3.1
theorem k23_off35_inb : ∀ (v19 : BitVec 32) (k23_hw3 : k23_chk3 v19), ∀ a, (k23_off35 v19) a + S1x128.size a ≤ S100000x128.size a := fun v19 k23_hw3 => k23_hw3.2

def k23_off36 (v27 : BitVec 32) : Fin 2 → Nat :=
  let c0_i32_63 : BitVec 32 := 0#32
  ![v27.toNat, 0]

def k23_chk4 (v27 : BitVec 32) : Prop :=
  (∀ a, (k23_off8 v27) a + S1x128.size a ≤ S100000x128.size a) ∧
  (∀ a, (k23_off36 v27) a + S1x128.size a ≤ S100000x128.size a)
instance k23_chk4.dec : ∀ (v27 : BitVec 32), Decidable (k23_chk4 v27) := fun v27 => decidable_of_iff' _ (Iff.of_eq (k23_chk4.eq_1 v27))
theorem k23_off8_inb : ∀ (v27 : BitVec 32) (k23_hw4 : k23_chk4 v27), ∀ a, (k23_off8 v27) a + S1x128.size a ≤ S100000x128.size a := fun v27 k23_hw4 => k23_hw4.1
theorem k23_off36_inb : ∀ (v27 : BitVec 32) (k23_hw4 : k23_chk4 v27), ∀ a, (k23_off36 v27) a + S1x128.size a ≤ S100000x128.size a := fun v27 k23_hw4 => k23_hw4.2

def k23_off37 (v35 : BitVec 32) : Fin 2 → Nat :=
  let c0_i32_67 : BitVec 32 := 0#32
  ![v35.toNat, 0]

def k23_chk5 (v35 : BitVec 32) : Prop :=
  (∀ a, (k23_off10 v35) a + S1x128.size a ≤ S100000x128.size a) ∧
  (∀ a, (k23_off37 v35) a + S1x128.size a ≤ S100000x128.size a)
instance k23_chk5.dec : ∀ (v35 : BitVec 32), Decidable (k23_chk5 v35) := fun v35 => decidable_of_iff' _ (Iff.of_eq (k23_chk5.eq_1 v35))
theorem k23_off10_inb : ∀ (v35 : BitVec 32) (k23_hw5 : k23_chk5 v35), ∀ a, (k23_off10 v35) a + S1x128.size a ≤ S100000x128.size a := fun v35 k23_hw5 => k23_hw5.1
theorem k23_off37_inb : ∀ (v35 : BitVec 32) (k23_hw5 : k23_chk5 v35), ∀ a, (k23_off37 v35) a + S1x128.size a ≤ S100000x128.size a := fun v35 k23_hw5 => k23_hw5.2

def k23_off38 (v43 : BitVec 32) : Fin 2 → Nat :=
  let c0_i32_71 : BitVec 32 := 0#32
  ![v43.toNat, 0]

def k23_chk6 (v43 : BitVec 32) : Prop :=
  (∀ a, (k23_off12 v43) a + S1x128.size a ≤ S100000x128.size a) ∧
  (∀ a, (k23_off38 v43) a + S1x128.size a ≤ S100000x128.size a)
instance k23_chk6.dec : ∀ (v43 : BitVec 32), Decidable (k23_chk6 v43) := fun v43 => decidable_of_iff' _ (Iff.of_eq (k23_chk6.eq_1 v43))
theorem k23_off12_inb : ∀ (v43 : BitVec 32) (k23_hw6 : k23_chk6 v43), ∀ a, (k23_off12 v43) a + S1x128.size a ≤ S100000x128.size a := fun v43 k23_hw6 => k23_hw6.1
theorem k23_off38_inb : ∀ (v43 : BitVec 32) (k23_hw6 : k23_chk6 v43), ∀ a, (k23_off38 v43) a + S1x128.size a ≤ S100000x128.size a := fun v43 k23_hw6 => k23_hw6.2

def k23_off39 (v51 : BitVec 32) : Fin 2 → Nat :=
  let c0_i32_75 : BitVec 32 := 0#32
  ![v51.toNat, 0]

def k23_chk7 (v51 : BitVec 32) : Prop :=
  (∀ a, (k23_off14 v51) a + S1x128.size a ≤ S100000x128.size a) ∧
  (∀ a, (k23_off39 v51) a + S1x128.size a ≤ S100000x128.size a)
instance k23_chk7.dec : ∀ (v51 : BitVec 32), Decidable (k23_chk7 v51) := fun v51 => decidable_of_iff' _ (Iff.of_eq (k23_chk7.eq_1 v51))
theorem k23_off14_inb : ∀ (v51 : BitVec 32) (k23_hw7 : k23_chk7 v51), ∀ a, (k23_off14 v51) a + S1x128.size a ≤ S100000x128.size a := fun v51 k23_hw7 => k23_hw7.1
theorem k23_off39_inb : ∀ (v51 : BitVec 32) (k23_hw7 : k23_chk7 v51), ∀ a, (k23_off39 v51) a + S1x128.size a ≤ S100000x128.size a := fun v51 k23_hw7 => k23_hw7.2

def k23_off40 (v59 : BitVec 32) : Fin 2 → Nat :=
  let c0_i32_79 : BitVec 32 := 0#32
  ![v59.toNat, 0]

def k23_chk8 (v59 : BitVec 32) : Prop :=
  (∀ a, (k23_off16 v59) a + S1x128.size a ≤ S100000x128.size a) ∧
  (∀ a, (k23_off40 v59) a + S1x128.size a ≤ S100000x128.size a)
instance k23_chk8.dec : ∀ (v59 : BitVec 32), Decidable (k23_chk8 v59) := fun v59 => decidable_of_iff' _ (Iff.of_eq (k23_chk8.eq_1 v59))
theorem k23_off16_inb : ∀ (v59 : BitVec 32) (k23_hw8 : k23_chk8 v59), ∀ a, (k23_off16 v59) a + S1x128.size a ≤ S100000x128.size a := fun v59 k23_hw8 => k23_hw8.1
theorem k23_off40_inb : ∀ (v59 : BitVec 32) (k23_hw8 : k23_chk8 v59), ∀ a, (k23_off40 v59) a + S1x128.size a ≤ S100000x128.size a := fun v59 k23_hw8 => k23_hw8.2

def k23_off41 (v67 : BitVec 32) : Fin 2 → Nat :=
  let c0_i32_83 : BitVec 32 := 0#32
  ![v67.toNat, 0]

def k23_chk9 (v67 : BitVec 32) : Prop :=
  (∀ a, (k23_off18 v67) a + S1x128.size a ≤ S100000x128.size a) ∧
  (∀ a, (k23_off41 v67) a + S1x128.size a ≤ S100000x128.size a)
instance k23_chk9.dec : ∀ (v67 : BitVec 32), Decidable (k23_chk9 v67) := fun v67 => decidable_of_iff' _ (Iff.of_eq (k23_chk9.eq_1 v67))
theorem k23_off18_inb : ∀ (v67 : BitVec 32) (k23_hw9 : k23_chk9 v67), ∀ a, (k23_off18 v67) a + S1x128.size a ≤ S100000x128.size a := fun v67 k23_hw9 => k23_hw9.1
theorem k23_off41_inb : ∀ (v67 : BitVec 32) (k23_hw9 : k23_chk9 v67), ∀ a, (k23_off41 v67) a + S1x128.size a ≤ S100000x128.size a := fun v67 k23_hw9 => k23_hw9.2

def k23_off42 (v75 : BitVec 32) : Fin 2 → Nat :=
  let c0_i32_87 : BitVec 32 := 0#32
  ![v75.toNat, 0]

def k23_chk10 (v75 : BitVec 32) : Prop :=
  (∀ a, (k23_off20 v75) a + S1x128.size a ≤ S100000x128.size a) ∧
  (∀ a, (k23_off42 v75) a + S1x128.size a ≤ S100000x128.size a)
instance k23_chk10.dec : ∀ (v75 : BitVec 32), Decidable (k23_chk10 v75) := fun v75 => decidable_of_iff' _ (Iff.of_eq (k23_chk10.eq_1 v75))
theorem k23_off20_inb : ∀ (v75 : BitVec 32) (k23_hw10 : k23_chk10 v75), ∀ a, (k23_off20 v75) a + S1x128.size a ≤ S100000x128.size a := fun v75 k23_hw10 => k23_hw10.1
theorem k23_off42_inb : ∀ (v75 : BitVec 32) (k23_hw10 : k23_chk10 v75), ∀ a, (k23_off42 v75) a + S1x128.size a ≤ S100000x128.size a := fun v75 k23_hw10 => k23_hw10.2

def k23_off43 (v83 : BitVec 32) : Fin 2 → Nat :=
  let c0_i32_91 : BitVec 32 := 0#32
  ![v83.toNat, 0]

def k23_chk11 (v83 : BitVec 32) : Prop :=
  (∀ a, (k23_off22 v83) a + S1x128.size a ≤ S100000x128.size a) ∧
  (∀ a, (k23_off43 v83) a + S1x128.size a ≤ S100000x128.size a)
instance k23_chk11.dec : ∀ (v83 : BitVec 32), Decidable (k23_chk11 v83) := fun v83 => decidable_of_iff' _ (Iff.of_eq (k23_chk11.eq_1 v83))
theorem k23_off22_inb : ∀ (v83 : BitVec 32) (k23_hw11 : k23_chk11 v83), ∀ a, (k23_off22 v83) a + S1x128.size a ≤ S100000x128.size a := fun v83 k23_hw11 => k23_hw11.1
theorem k23_off43_inb : ∀ (v83 : BitVec 32) (k23_hw11 : k23_chk11 v83), ∀ a, (k23_off43 v83) a + S1x128.size a ≤ S100000x128.size a := fun v83 k23_hw11 => k23_hw11.2

def k23_off44 (v91 : BitVec 32) : Fin 2 → Nat :=
  let c0_i32_95 : BitVec 32 := 0#32
  ![v91.toNat, 0]

def k23_chk12 (v91 : BitVec 32) : Prop :=
  (∀ a, (k23_off24 v91) a + S1x128.size a ≤ S100000x128.size a) ∧
  (∀ a, (k23_off44 v91) a + S1x128.size a ≤ S100000x128.size a)
instance k23_chk12.dec : ∀ (v91 : BitVec 32), Decidable (k23_chk12 v91) := fun v91 => decidable_of_iff' _ (Iff.of_eq (k23_chk12.eq_1 v91))
theorem k23_off24_inb : ∀ (v91 : BitVec 32) (k23_hw12 : k23_chk12 v91), ∀ a, (k23_off24 v91) a + S1x128.size a ≤ S100000x128.size a := fun v91 k23_hw12 => k23_hw12.1
theorem k23_off44_inb : ∀ (v91 : BitVec 32) (k23_hw12 : k23_chk12 v91), ∀ a, (k23_off44 v91) a + S1x128.size a ≤ S100000x128.size a := fun v91 k23_hw12 => k23_hw12.2

def k23_off45 (v99 : BitVec 32) : Fin 2 → Nat :=
  let c0_i32_99 : BitVec 32 := 0#32
  ![v99.toNat, 0]

def k23_chk13 (v99 : BitVec 32) : Prop :=
  (∀ a, (k23_off26 v99) a + S1x128.size a ≤ S100000x128.size a) ∧
  (∀ a, (k23_off45 v99) a + S1x128.size a ≤ S100000x128.size a)
instance k23_chk13.dec : ∀ (v99 : BitVec 32), Decidable (k23_chk13 v99) := fun v99 => decidable_of_iff' _ (Iff.of_eq (k23_chk13.eq_1 v99))
theorem k23_off26_inb : ∀ (v99 : BitVec 32) (k23_hw13 : k23_chk13 v99), ∀ a, (k23_off26 v99) a + S1x128.size a ≤ S100000x128.size a := fun v99 k23_hw13 => k23_hw13.1
theorem k23_off45_inb : ∀ (v99 : BitVec 32) (k23_hw13 : k23_chk13 v99), ∀ a, (k23_off45 v99) a + S1x128.size a ≤ S100000x128.size a := fun v99 k23_hw13 => k23_hw13.2

def k23_off46 (v107 : BitVec 32) : Fin 2 → Nat :=
  let c0_i32_103 : BitVec 32 := 0#32
  ![v107.toNat, 0]

def k23_chk14 (v107 : BitVec 32) : Prop :=
  (∀ a, (k23_off28 v107) a + S1x128.size a ≤ S100000x128.size a) ∧
  (∀ a, (k23_off46 v107) a + S1x128.size a ≤ S100000x128.size a)
instance k23_chk14.dec : ∀ (v107 : BitVec 32), Decidable (k23_chk14 v107) := fun v107 => decidable_of_iff' _ (Iff.of_eq (k23_chk14.eq_1 v107))
theorem k23_off28_inb : ∀ (v107 : BitVec 32) (k23_hw14 : k23_chk14 v107), ∀ a, (k23_off28 v107) a + S1x128.size a ≤ S100000x128.size a := fun v107 k23_hw14 => k23_hw14.1
theorem k23_off46_inb : ∀ (v107 : BitVec 32) (k23_hw14 : k23_chk14 v107), ∀ a, (k23_off46 v107) a + S1x128.size a ≤ S100000x128.size a := fun v107 k23_hw14 => k23_hw14.2

def k23_off47 (v115 : BitVec 32) : Fin 2 → Nat :=
  let c0_i32_107 : BitVec 32 := 0#32
  ![v115.toNat, 0]

def k23_chk15 (v115 : BitVec 32) : Prop :=
  (∀ a, (k23_off30 v115) a + S1x128.size a ≤ S100000x128.size a) ∧
  (∀ a, (k23_off47 v115) a + S1x128.size a ≤ S100000x128.size a)
instance k23_chk15.dec : ∀ (v115 : BitVec 32), Decidable (k23_chk15 v115) := fun v115 => decidable_of_iff' _ (Iff.of_eq (k23_chk15.eq_1 v115))
theorem k23_off30_inb : ∀ (v115 : BitVec 32) (k23_hw15 : k23_chk15 v115), ∀ a, (k23_off30 v115) a + S1x128.size a ≤ S100000x128.size a := fun v115 k23_hw15 => k23_hw15.1
theorem k23_off47_inb : ∀ (v115 : BitVec 32) (k23_hw15 : k23_chk15 v115), ∀ a, (k23_off47 v115) a + S1x128.size a ≤ S100000x128.size a := fun v115 k23_hw15 => k23_hw15.2

def k23_off48 (i : grid23.Coords) : Fin 2 → Nat :=
  let arg1 : BitVec 32 := BitVec.ofNat 32 (i 1).val
  let v230 : Index := Scalar.indexCast arg1
  let c0_115 : Index := 0#32
  ![v230.toNat, 0]
def k23_cond1 (i : grid23.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc23_transform_1 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage23_0 : Fin 1 → Memref sig .tc .vmem S128x128 .f32 := fun | 0 => Memref.whole cc23_stg0_0 | ⟨_ + 1, h⟩ => absurd h (Nat.not_lt.2 (Nat.le_add_left _ _))
abbrev sem23_0 : Fin 1 → DmaSem sig := fun | 0 => cc23_sem0_0 | ⟨_ + 1, h⟩ => absurd h (Nat.not_lt.2 (Nat.le_add_left _ _))
abbrev reads23_0 : Fin grid23.rank → Bool := ![false, false]

abbrev stage23_1 : Fin 2 → Memref sig .tc .vmem S1000x128 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true, false]

abbrev grid24 : Pipeline.Grid := ⟨2, ![2, 1000], ![false, false]⟩

abbrev pre24 : Pipeline.Prefetch sig := ⟨1, ![main_v49.idx], fun | 0 => main_v49.names | ⟨_ + 1, h⟩ => absurd h (Nat.not_lt.2 (Nat.le_add_left _ _)), fun | 0 => rfl | ⟨_ + 1, h⟩ => absurd h (Nat.not_lt.2 (Nat.le_add_left _ _))⟩

def k24_off1 (i : grid24.Coords) : Fin 2 → Nat :=
  let c0 : Index := 0#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v2 : Index := Scalar.indexCast v1
  ![0, v2.toNat]
def k24_off2 (v3 : BitVec 32) : Fin 2 → Nat :=
  let c0_i32_2 : BitVec 32 := 0#32
  ![v3.toNat, 0]

def k24_off3 (i : grid24.Coords) : Fin 2 → Nat :=
  let c1 : Index := 1#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v10 : Index := Scalar.indexCast v1
  ![1, v10.toNat]
def k24_off4 (v11 : BitVec 32) : Fin 2 → Nat :=
  let c0_i32_5 : BitVec 32 := 0#32
  ![v11.toNat, 0]

def k24_off5 (i : grid24.Coords) : Fin 2 → Nat :=
  let c2 : Index := 2#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v18 : Index := Scalar.indexCast v1
  ![2, v18.toNat]
def k24_off6 (v19 : BitVec 32) : Fin 2 → Nat :=
  let c0_i32_8 : BitVec 32 := 0#32
  ![v19.toNat, 0]

def k24_off7 (i : grid24.Coords) : Fin 2 → Nat :=
  let c3 : Index := 3#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v26 : Index := Scalar.indexCast v1
  ![3, v26.toNat]
def k24_off8 (v27 : BitVec 32) : Fin 2 → Nat :=
  let c0_i32_11 : BitVec 32 := 0#32
  ![v27.toNat, 0]

def k24_off9 (i : grid24.Coords) : Fin 2 → Nat :=
  let c4 : Index := 4#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v34 : Index := Scalar.indexCast v1
  ![4, v34.toNat]
def k24_off10 (v35 : BitVec 32) : Fin 2 → Nat :=
  let c0_i32_14 : BitVec 32 := 0#32
  ![v35.toNat, 0]

def k24_off11 (i : grid24.Coords) : Fin 2 → Nat :=
  let c5 : Index := 5#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v42 : Index := Scalar.indexCast v1
  ![5, v42.toNat]
def k24_off12 (v43 : BitVec 32) : Fin 2 → Nat :=
  let c0_i32_17 : BitVec 32 := 0#32
  ![v43.toNat, 0]

def k24_off13 (i : grid24.Coords) : Fin 2 → Nat :=
  let c6 : Index := 6#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v50 : Index := Scalar.indexCast v1
  ![6, v50.toNat]
def k24_off14 (v51 : BitVec 32) : Fin 2 → Nat :=
  let c0_i32_20 : BitVec 32 := 0#32
  ![v51.toNat, 0]

def k24_off15 (i : grid24.Coords) : Fin 2 → Nat :=
  let c7 : Index := 7#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v58 : Index := Scalar.indexCast v1
  ![7, v58.toNat]
def k24_off16 (v59 : BitVec 32) : Fin 2 → Nat :=
  let c0_i32_23 : BitVec 32 := 0#32
  ![v59.toNat, 0]

def k24_off17 (i : grid24.Coords) : Fin 2 → Nat :=
  let c8 : Index := 8#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v66 : Index := Scalar.indexCast v1
  ![8, v66.toNat]
def k24_off18 (v67 : BitVec 32) : Fin 2 → Nat :=
  let c0_i32_26 : BitVec 32 := 0#32
  ![v67.toNat, 0]

def k24_off19 (i : grid24.Coords) : Fin 2 → Nat :=
  let c9 : Index := 9#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v74 : Index := Scalar.indexCast v1
  ![9, v74.toNat]
def k24_off20 (v75 : BitVec 32) : Fin 2 → Nat :=
  let c0_i32_29 : BitVec 32 := 0#32
  ![v75.toNat, 0]

def k24_off21 (i : grid24.Coords) : Fin 2 → Nat :=
  let c10 : Index := 10#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v82 : Index := Scalar.indexCast v1
  ![10, v82.toNat]
def k24_off22 (v83 : BitVec 32) : Fin 2 → Nat :=
  let c0_i32_32 : BitVec 32 := 0#32
  ![v83.toNat, 0]

def k24_off23 (i : grid24.Coords) : Fin 2 → Nat :=
  let c11 : Index := 11#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v90 : Index := Scalar.indexCast v1
  ![11, v90.toNat]
def k24_off24 (v91 : BitVec 32) : Fin 2 → Nat :=
  let c0_i32_35 : BitVec 32 := 0#32
  ![v91.toNat, 0]

def k24_off25 (i : grid24.Coords) : Fin 2 → Nat :=
  let c12 : Index := 12#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v98 : Index := Scalar.indexCast v1
  ![12, v98.toNat]
def k24_off26 (v99 : BitVec 32) : Fin 2 → Nat :=
  let c0_i32_38 : BitVec 32 := 0#32
  ![v99.toNat, 0]

def k24_off27 (i : grid24.Coords) : Fin 2 → Nat :=
  let c13 : Index := 13#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v106 : Index := Scalar.indexCast v1
  ![13, v106.toNat]
def k24_off28 (v107 : BitVec 32) : Fin 2 → Nat :=
  let c0_i32_41 : BitVec 32 := 0#32
  ![v107.toNat, 0]

def k24_off29 (i : grid24.Coords) : Fin 2 → Nat :=
  let c14 : Index := 14#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v114 : Index := Scalar.indexCast v1
  ![14, v114.toNat]
def k24_off30 (v115 : BitVec 32) : Fin 2 → Nat :=
  let c0_i32_44 : BitVec 32 := 0#32
  ![v115.toNat, 0]

def k24_off31 (i : grid24.Coords) : Fin 2 → Nat :=
  let c15 : Index := 15#32
  let arg0 : BitVec 32 := BitVec.ofNat 32 (i 0).val
  let c1000_i32 : BitVec 32 := 1000#32
  let v0 : BitVec 32 := Scalar.muli arg0 c1000_i32
  let arg1 : BitVec 32 := BitVec.ofNat 32 (i 1).val
  let v1 : BitVec 32 := Scalar.addi v0 arg1
  let v122 : Index := Scalar.indexCast v1
  ![15, v122.toNat]
def k24_off32 (v123 : BitVec 32) : Fin 2 → Nat :=
  let c0_i32_47 : BitVec 32 := 0#32
  ![v123.toNat, 0]

def k24_chk16 (v123 : BitVec 32) : Prop :=
  (∀ a, (k24_off32 v123) a + S1x128.size a ≤ S100000x128.size a)
instance k24_chk16.dec : ∀ (v123 : BitVec 32), Decidable (k24_chk16 v123) := fun v123 => decidable_of_iff' _ (Iff.of_eq (k24_chk16.eq_1 v123))
theorem k24_off32_inb : ∀ (v123 : BitVec 32) (k24_hw16 : k24_chk16 v123), ∀ a, (k24_off32 v123) a + S1x128.size a ≤ S100000x128.size a := fun v123 k24_hw16 => k24_hw16

def k24_off33 (v3 : BitVec 32) : Fin 2 → Nat :=
  let c0_i32_51 : BitVec 32 := 0#32
  ![v3.toNat, 0]

def k24_chk1 (v3 : BitVec 32) : Prop :=
  (∀ a, (k24_off2 v3) a + S1x128.size a ≤ S100000x128.size a) ∧
  (∀ a, (k24_off33 v3) a + S1x128.size a ≤ S100000x128.size a)
instance k24_chk1.dec : ∀ (v3 : BitVec 32), Decidable (k24_chk1 v3) := fun v3 => decidable_of_iff' _ (Iff.of_eq (k24_chk1.eq_1 v3))
theorem k24_off2_inb : ∀ (v3 : BitVec 32) (k24_hw1 : k24_chk1 v3), ∀ a, (k24_off2 v3) a + S1x128.size a ≤ S100000x128.size a := fun v3 k24_hw1 => k24_hw1.1
theorem k24_off33_inb : ∀ (v3 : BitVec 32) (k24_hw1 : k24_chk1 v3), ∀ a, (k24_off33 v3) a + S1x128.size a ≤ S100000x128.size a := fun v3 k24_hw1 => k24_hw1.2

def k24_off34 (v11 : BitVec 32) : Fin 2 → Nat :=
  let c0_i32_55 : BitVec 32 := 0#32
  ![v11.toNat, 0]

def k24_chk2 (v11 : BitVec 32) : Prop :=
  (∀ a, (k24_off4 v11) a + S1x128.size a ≤ S100000x128.size a) ∧
  (∀ a, (k24_off34 v11) a + S1x128.size a ≤ S100000x128.size a)
instance k24_chk2.dec : ∀ (v11 : BitVec 32), Decidable (k24_chk2 v11) := fun v11 => decidable_of_iff' _ (Iff.of_eq (k24_chk2.eq_1 v11))
theorem k24_off4_inb : ∀ (v11 : BitVec 32) (k24_hw2 : k24_chk2 v11), ∀ a, (k24_off4 v11) a + S1x128.size a ≤ S100000x128.size a := fun v11 k24_hw2 => k24_hw2.1
theorem k24_off34_inb : ∀ (v11 : BitVec 32) (k24_hw2 : k24_chk2 v11), ∀ a, (k24_off34 v11) a + S1x128.size a ≤ S100000x128.size a := fun v11 k24_hw2 => k24_hw2.2

def k24_off35 (v19 : BitVec 32) : Fin 2 → Nat :=
  let c0_i32_59 : BitVec 32 := 0#32
  ![v19.toNat, 0]

def k24_chk3 (v19 : BitVec 32) : Prop :=
  (∀ a, (k24_off6 v19) a + S1x128.size a ≤ S100000x128.size a) ∧
  (∀ a, (k24_off35 v19) a + S1x128.size a ≤ S100000x128.size a)
instance k24_chk3.dec : ∀ (v19 : BitVec 32), Decidable (k24_chk3 v19) := fun v19 => decidable_of_iff' _ (Iff.of_eq (k24_chk3.eq_1 v19))
theorem k24_off6_inb : ∀ (v19 : BitVec 32) (k24_hw3 : k24_chk3 v19), ∀ a, (k24_off6 v19) a + S1x128.size a ≤ S100000x128.size a := fun v19 k24_hw3 => k24_hw3.1
theorem k24_off35_inb : ∀ (v19 : BitVec 32) (k24_hw3 : k24_chk3 v19), ∀ a, (k24_off35 v19) a + S1x128.size a ≤ S100000x128.size a := fun v19 k24_hw3 => k24_hw3.2

def k24_off36 (v27 : BitVec 32) : Fin 2 → Nat :=
  let c0_i32_63 : BitVec 32 := 0#32
  ![v27.toNat, 0]

def k24_chk4 (v27 : BitVec 32) : Prop :=
  (∀ a, (k24_off8 v27) a + S1x128.size a ≤ S100000x128.size a) ∧
  (∀ a, (k24_off36 v27) a + S1x128.size a ≤ S100000x128.size a)
instance k24_chk4.dec : ∀ (v27 : BitVec 32), Decidable (k24_chk4 v27) := fun v27 => decidable_of_iff' _ (Iff.of_eq (k24_chk4.eq_1 v27))
theorem k24_off8_inb : ∀ (v27 : BitVec 32) (k24_hw4 : k24_chk4 v27), ∀ a, (k24_off8 v27) a + S1x128.size a ≤ S100000x128.size a := fun v27 k24_hw4 => k24_hw4.1
theorem k24_off36_inb : ∀ (v27 : BitVec 32) (k24_hw4 : k24_chk4 v27), ∀ a, (k24_off36 v27) a + S1x128.size a ≤ S100000x128.size a := fun v27 k24_hw4 => k24_hw4.2

def k24_off37 (v35 : BitVec 32) : Fin 2 → Nat :=
  let c0_i32_67 : BitVec 32 := 0#32
  ![v35.toNat, 0]

def k24_chk5 (v35 : BitVec 32) : Prop :=
  (∀ a, (k24_off10 v35) a + S1x128.size a ≤ S100000x128.size a) ∧
  (∀ a, (k24_off37 v35) a + S1x128.size a ≤ S100000x128.size a)
instance k24_chk5.dec : ∀ (v35 : BitVec 32), Decidable (k24_chk5 v35) := fun v35 => decidable_of_iff' _ (Iff.of_eq (k24_chk5.eq_1 v35))
theorem k24_off10_inb : ∀ (v35 : BitVec 32) (k24_hw5 : k24_chk5 v35), ∀ a, (k24_off10 v35) a + S1x128.size a ≤ S100000x128.size a := fun v35 k24_hw5 => k24_hw5.1
theorem k24_off37_inb : ∀ (v35 : BitVec 32) (k24_hw5 : k24_chk5 v35), ∀ a, (k24_off37 v35) a + S1x128.size a ≤ S100000x128.size a := fun v35 k24_hw5 => k24_hw5.2

def k24_off38 (v43 : BitVec 32) : Fin 2 → Nat :=
  let c0_i32_71 : BitVec 32 := 0#32
  ![v43.toNat, 0]

def k24_chk6 (v43 : BitVec 32) : Prop :=
  (∀ a, (k24_off12 v43) a + S1x128.size a ≤ S100000x128.size a) ∧
  (∀ a, (k24_off38 v43) a + S1x128.size a ≤ S100000x128.size a)
instance k24_chk6.dec : ∀ (v43 : BitVec 32), Decidable (k24_chk6 v43) := fun v43 => decidable_of_iff' _ (Iff.of_eq (k24_chk6.eq_1 v43))
theorem k24_off12_inb : ∀ (v43 : BitVec 32) (k24_hw6 : k24_chk6 v43), ∀ a, (k24_off12 v43) a + S1x128.size a ≤ S100000x128.size a := fun v43 k24_hw6 => k24_hw6.1
theorem k24_off38_inb : ∀ (v43 : BitVec 32) (k24_hw6 : k24_chk6 v43), ∀ a, (k24_off38 v43) a + S1x128.size a ≤ S100000x128.size a := fun v43 k24_hw6 => k24_hw6.2

def k24_off39 (v51 : BitVec 32) : Fin 2 → Nat :=
  let c0_i32_75 : BitVec 32 := 0#32
  ![v51.toNat, 0]

def k24_chk7 (v51 : BitVec 32) : Prop :=
  (∀ a, (k24_off14 v51) a + S1x128.size a ≤ S100000x128.size a) ∧
  (∀ a, (k24_off39 v51) a + S1x128.size a ≤ S100000x128.size a)
instance k24_chk7.dec : ∀ (v51 : BitVec 32), Decidable (k24_chk7 v51) := fun v51 => decidable_of_iff' _ (Iff.of_eq (k24_chk7.eq_1 v51))
theorem k24_off14_inb : ∀ (v51 : BitVec 32) (k24_hw7 : k24_chk7 v51), ∀ a, (k24_off14 v51) a + S1x128.size a ≤ S100000x128.size a := fun v51 k24_hw7 => k24_hw7.1
theorem k24_off39_inb : ∀ (v51 : BitVec 32) (k24_hw7 : k24_chk7 v51), ∀ a, (k24_off39 v51) a + S1x128.size a ≤ S100000x128.size a := fun v51 k24_hw7 => k24_hw7.2

def k24_off40 (v59 : BitVec 32) : Fin 2 → Nat :=
  let c0_i32_79 : BitVec 32 := 0#32
  ![v59.toNat, 0]

def k24_chk8 (v59 : BitVec 32) : Prop :=
  (∀ a, (k24_off16 v59) a + S1x128.size a ≤ S100000x128.size a) ∧
  (∀ a, (k24_off40 v59) a + S1x128.size a ≤ S100000x128.size a)
instance k24_chk8.dec : ∀ (v59 : BitVec 32), Decidable (k24_chk8 v59) := fun v59 => decidable_of_iff' _ (Iff.of_eq (k24_chk8.eq_1 v59))
theorem k24_off16_inb : ∀ (v59 : BitVec 32) (k24_hw8 : k24_chk8 v59), ∀ a, (k24_off16 v59) a + S1x128.size a ≤ S100000x128.size a := fun v59 k24_hw8 => k24_hw8.1
theorem k24_off40_inb : ∀ (v59 : BitVec 32) (k24_hw8 : k24_chk8 v59), ∀ a, (k24_off40 v59) a + S1x128.size a ≤ S100000x128.size a := fun v59 k24_hw8 => k24_hw8.2

def k24_off41 (v67 : BitVec 32) : Fin 2 → Nat :=
  let c0_i32_83 : BitVec 32 := 0#32
  ![v67.toNat, 0]

def k24_chk9 (v67 : BitVec 32) : Prop :=
  (∀ a, (k24_off18 v67) a + S1x128.size a ≤ S100000x128.size a) ∧
  (∀ a, (k24_off41 v67) a + S1x128.size a ≤ S100000x128.size a)
instance k24_chk9.dec : ∀ (v67 : BitVec 32), Decidable (k24_chk9 v67) := fun v67 => decidable_of_iff' _ (Iff.of_eq (k24_chk9.eq_1 v67))
theorem k24_off18_inb : ∀ (v67 : BitVec 32) (k24_hw9 : k24_chk9 v67), ∀ a, (k24_off18 v67) a + S1x128.size a ≤ S100000x128.size a := fun v67 k24_hw9 => k24_hw9.1
theorem k24_off41_inb : ∀ (v67 : BitVec 32) (k24_hw9 : k24_chk9 v67), ∀ a, (k24_off41 v67) a + S1x128.size a ≤ S100000x128.size a := fun v67 k24_hw9 => k24_hw9.2

def k24_off42 (v75 : BitVec 32) : Fin 2 → Nat :=
  let c0_i32_87 : BitVec 32 := 0#32
  ![v75.toNat, 0]

def k24_chk10 (v75 : BitVec 32) : Prop :=
  (∀ a, (k24_off20 v75) a + S1x128.size a ≤ S100000x128.size a) ∧
  (∀ a, (k24_off42 v75) a + S1x128.size a ≤ S100000x128.size a)
instance k24_chk10.dec : ∀ (v75 : BitVec 32), Decidable (k24_chk10 v75) := fun v75 => decidable_of_iff' _ (Iff.of_eq (k24_chk10.eq_1 v75))
theorem k24_off20_inb : ∀ (v75 : BitVec 32) (k24_hw10 : k24_chk10 v75), ∀ a, (k24_off20 v75) a + S1x128.size a ≤ S100000x128.size a := fun v75 k24_hw10 => k24_hw10.1
theorem k24_off42_inb : ∀ (v75 : BitVec 32) (k24_hw10 : k24_chk10 v75), ∀ a, (k24_off42 v75) a + S1x128.size a ≤ S100000x128.size a := fun v75 k24_hw10 => k24_hw10.2

def k24_off43 (v83 : BitVec 32) : Fin 2 → Nat :=
  let c0_i32_91 : BitVec 32 := 0#32
  ![v83.toNat, 0]

def k24_chk11 (v83 : BitVec 32) : Prop :=
  (∀ a, (k24_off22 v83) a + S1x128.size a ≤ S100000x128.size a) ∧
  (∀ a, (k24_off43 v83) a + S1x128.size a ≤ S100000x128.size a)
instance k24_chk11.dec : ∀ (v83 : BitVec 32), Decidable (k24_chk11 v83) := fun v83 => decidable_of_iff' _ (Iff.of_eq (k24_chk11.eq_1 v83))
theorem k24_off22_inb : ∀ (v83 : BitVec 32) (k24_hw11 : k24_chk11 v83), ∀ a, (k24_off22 v83) a + S1x128.size a ≤ S100000x128.size a := fun v83 k24_hw11 => k24_hw11.1
theorem k24_off43_inb : ∀ (v83 : BitVec 32) (k24_hw11 : k24_chk11 v83), ∀ a, (k24_off43 v83) a + S1x128.size a ≤ S100000x128.size a := fun v83 k24_hw11 => k24_hw11.2

def k24_off44 (v91 : BitVec 32) : Fin 2 → Nat :=
  let c0_i32_95 : BitVec 32 := 0#32
  ![v91.toNat, 0]

def k24_chk12 (v91 : BitVec 32) : Prop :=
  (∀ a, (k24_off24 v91) a + S1x128.size a ≤ S100000x128.size a) ∧
  (∀ a, (k24_off44 v91) a + S1x128.size a ≤ S100000x128.size a)
instance k24_chk12.dec : ∀ (v91 : BitVec 32), Decidable (k24_chk12 v91) := fun v91 => decidable_of_iff' _ (Iff.of_eq (k24_chk12.eq_1 v91))
theorem k24_off24_inb : ∀ (v91 : BitVec 32) (k24_hw12 : k24_chk12 v91), ∀ a, (k24_off24 v91) a + S1x128.size a ≤ S100000x128.size a := fun v91 k24_hw12 => k24_hw12.1
theorem k24_off44_inb : ∀ (v91 : BitVec 32) (k24_hw12 : k24_chk12 v91), ∀ a, (k24_off44 v91) a + S1x128.size a ≤ S100000x128.size a := fun v91 k24_hw12 => k24_hw12.2

def k24_off45 (v99 : BitVec 32) : Fin 2 → Nat :=
  let c0_i32_99 : BitVec 32 := 0#32
  ![v99.toNat, 0]

def k24_chk13 (v99 : BitVec 32) : Prop :=
  (∀ a, (k24_off26 v99) a + S1x128.size a ≤ S100000x128.size a) ∧
  (∀ a, (k24_off45 v99) a + S1x128.size a ≤ S100000x128.size a)
instance k24_chk13.dec : ∀ (v99 : BitVec 32), Decidable (k24_chk13 v99) := fun v99 => decidable_of_iff' _ (Iff.of_eq (k24_chk13.eq_1 v99))
theorem k24_off26_inb : ∀ (v99 : BitVec 32) (k24_hw13 : k24_chk13 v99), ∀ a, (k24_off26 v99) a + S1x128.size a ≤ S100000x128.size a := fun v99 k24_hw13 => k24_hw13.1
theorem k24_off45_inb : ∀ (v99 : BitVec 32) (k24_hw13 : k24_chk13 v99), ∀ a, (k24_off45 v99) a + S1x128.size a ≤ S100000x128.size a := fun v99 k24_hw13 => k24_hw13.2

def k24_off46 (v107 : BitVec 32) : Fin 2 → Nat :=
  let c0_i32_103 : BitVec 32 := 0#32
  ![v107.toNat, 0]

def k24_chk14 (v107 : BitVec 32) : Prop :=
  (∀ a, (k24_off28 v107) a + S1x128.size a ≤ S100000x128.size a) ∧
  (∀ a, (k24_off46 v107) a + S1x128.size a ≤ S100000x128.size a)
instance k24_chk14.dec : ∀ (v107 : BitVec 32), Decidable (k24_chk14 v107) := fun v107 => decidable_of_iff' _ (Iff.of_eq (k24_chk14.eq_1 v107))
theorem k24_off28_inb : ∀ (v107 : BitVec 32) (k24_hw14 : k24_chk14 v107), ∀ a, (k24_off28 v107) a + S1x128.size a ≤ S100000x128.size a := fun v107 k24_hw14 => k24_hw14.1
theorem k24_off46_inb : ∀ (v107 : BitVec 32) (k24_hw14 : k24_chk14 v107), ∀ a, (k24_off46 v107) a + S1x128.size a ≤ S100000x128.size a := fun v107 k24_hw14 => k24_hw14.2

def k24_off47 (v115 : BitVec 32) : Fin 2 → Nat :=
  let c0_i32_107 : BitVec 32 := 0#32
  ![v115.toNat, 0]

def k24_chk15 (v115 : BitVec 32) : Prop :=
  (∀ a, (k24_off30 v115) a + S1x128.size a ≤ S100000x128.size a) ∧
  (∀ a, (k24_off47 v115) a + S1x128.size a ≤ S100000x128.size a)
instance k24_chk15.dec : ∀ (v115 : BitVec 32), Decidable (k24_chk15 v115) := fun v115 => decidable_of_iff' _ (Iff.of_eq (k24_chk15.eq_1 v115))
theorem k24_off30_inb : ∀ (v115 : BitVec 32) (k24_hw15 : k24_chk15 v115), ∀ a, (k24_off30 v115) a + S1x128.size a ≤ S100000x128.size a := fun v115 k24_hw15 => k24_hw15.1
theorem k24_off47_inb : ∀ (v115 : BitVec 32) (k24_hw15 : k24_chk15 v115), ∀ a, (k24_off47 v115) a + S1x128.size a ≤ S100000x128.size a := fun v115 k24_hw15 => k24_hw15.2

def k24_off48 (i : grid24.Coords) : Fin 2 → Nat :=
  let arg1 : BitVec 32 := BitVec.ofNat 32 (i 1).val
  let v230 : Index := Scalar.indexCast arg1
  let c0_115 : Index := 0#32
  ![v230.toNat, 0]
def k24_cond1 (i : grid24.Coords) : BitVec 1 :=
  let arg1 : BitVec 32 := BitVec.ofNat 32 (i 1).val
  let c999_i32 : BitVec 32 := 999#32
  let v234 : BitVec 1 := Scalar.cmpi .eq arg1 c999_i32
  let v235 : BitVec 32 := Scalar.extui v234
  let c0_i32_116 : BitVec 32 := 0#32
  let v236 : BitVec 1 := Scalar.cmpi .ne v235 c0_i32_116
  v236

def cc24_transform_1 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage24_0 : Fin 1 → Memref sig .tc .vmem S128x128 .f32 := fun | 0 => Memref.whole cc24_stg0_0 | ⟨_ + 1, h⟩ => absurd h (Nat.not_lt.2 (Nat.le_add_left _ _))
abbrev sem24_0 : Fin 1 → DmaSem sig := fun | 0 => cc24_sem0_0 | ⟨_ + 1, h⟩ => absurd h (Nat.not_lt.2 (Nat.le_add_left _ _))
abbrev reads24_0 : Fin grid24.rank → Bool := ![false, false]

abbrev stage24_1 : Fin 2 → Memref sig .tc .vmem S1000x128 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true, false]

abbrev grid25 : Pipeline.Grid := ⟨1, ![10], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage25_0 : Fin 2 → Memref sig .tc .vmem S5000x128 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S2x128 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev grid26 : Pipeline.Grid := ⟨1, ![10], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_3 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S5000x128 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S1x128 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 1 → Memref sig .tc .vmem S1x128 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false]

abbrev stage26_3 : Fin 2 → Memref sig .tc .vmem S5000x128 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

class Facts₀ : Prop where
  transposes_S50000x16_S16x50000_1_0 : S50000x16.Transposes [1, 0] S16x50000
  slices_S16x50000_S16x2000_0_0 : S16x50000.Slices ![0, 0] S16x2000
  numel1_S1x1 : S1x1.numel = 1
  inb_S16_S1_0 : ∀ a, (![0] : Fin 1 → Nat) a + S1.size a ≤ S16.size a
  squeezes_S1_S_ : S1.Squeezes S_
  inb_S16x128_S1x128_0_0 : ∀ a, (![0, 0] : Fin 2 → Nat) a + S1x128.size a ≤ S16x128.size a
  squeezes_S1x128_S128 : S1x128.Squeezes S128
  inb_S16_S1_1 : ∀ a, (![1] : Fin 1 → Nat) a + S1.size a ≤ S16.size a
  inb_S16x128_S1x128_1_0 : ∀ a, (![1, 0] : Fin 2 → Nat) a + S1x128.size a ≤ S16x128.size a
  inb_S16_S1_2 : ∀ a, (![2] : Fin 1 → Nat) a + S1.size a ≤ S16.size a
  inb_S16x128_S1x128_2_0 : ∀ a, (![2, 0] : Fin 2 → Nat) a + S1x128.size a ≤ S16x128.size a
  inb_S16_S1_3 : ∀ a, (![3] : Fin 1 → Nat) a + S1.size a ≤ S16.size a
  inb_S16x128_S1x128_3_0 : ∀ a, (![3, 0] : Fin 2 → Nat) a + S1x128.size a ≤ S16x128.size a
  inb_S16_S1_4 : ∀ a, (![4] : Fin 1 → Nat) a + S1.size a ≤ S16.size a
  inb_S16x128_S1x128_4_0 : ∀ a, (![4, 0] : Fin 2 → Nat) a + S1x128.size a ≤ S16x128.size a
  inb_S16_S1_5 : ∀ a, (![5] : Fin 1 → Nat) a + S1.size a ≤ S16.size a
  inb_S16x128_S1x128_5_0 : ∀ a, (![5, 0] : Fin 2 → Nat) a + S1x128.size a ≤ S16x128.size a
  inb_S16_S1_6 : ∀ a, (![6] : Fin 1 → Nat) a + S1.size a ≤ S16.size a
  inb_S16x128_S1x128_6_0 : ∀ a, (![6, 0] : Fin 2 → Nat) a + S1x128.size a ≤ S16x128.size a
  inb_S16_S1_7 : ∀ a, (![7] : Fin 1 → Nat) a + S1.size a ≤ S16.size a
  inb_S16x128_S1x128_7_0 : ∀ a, (![7, 0] : Fin 2 → Nat) a + S1x128.size a ≤ S16x128.size a
  inb_S16_S1_8 : ∀ a, (![8] : Fin 1 → Nat) a + S1.size a ≤ S16.size a
  inb_S16x128_S1x128_8_0 : ∀ a, (![8, 0] : Fin 2 → Nat) a + S1x128.size a ≤ S16x128.size a
  inb_S16_S1_9 : ∀ a, (![9] : Fin 1 → Nat) a + S1.size a ≤ S16.size a
  inb_S16x128_S1x128_9_0 : ∀ a, (![9, 0] : Fin 2 → Nat) a + S1x128.size a ≤ S16x128.size a
  inb_S16_S1_10 : ∀ a, (![10] : Fin 1 → Nat) a + S1.size a ≤ S16.size a
  inb_S16x128_S1x128_10_0 : ∀ a, (![10, 0] : Fin 2 → Nat) a + S1x128.size a ≤ S16x128.size a
  inb_S16_S1_11 : ∀ a, (![11] : Fin 1 → Nat) a + S1.size a ≤ S16.size a
  inb_S16x128_S1x128_11_0 : ∀ a, (![11, 0] : Fin 2 → Nat) a + S1x128.size a ≤ S16x128.size a
  inb_S16_S1_12 : ∀ a, (![12] : Fin 1 → Nat) a + S1.size a ≤ S16.size a
  inb_S16x128_S1x128_12_0 : ∀ a, (![12, 0] : Fin 2 → Nat) a + S1x128.size a ≤ S16x128.size a
  inb_S16_S1_13 : ∀ a, (![13] : Fin 1 → Nat) a + S1.size a ≤ S16.size a
  inb_S16x128_S1x128_13_0 : ∀ a, (![13, 0] : Fin 2 → Nat) a + S1x128.size a ≤ S16x128.size a
  inb_S16_S1_14 : ∀ a, (![14] : Fin 1 → Nat) a + S1.size a ≤ S16.size a
  inb_S16x128_S1x128_14_0 : ∀ a, (![14, 0] : Fin 2 → Nat) a + S1x128.size a ≤ S16x128.size a
  inb_S16_S1_15 : ∀ a, (![15] : Fin 1 → Nat) a + S1.size a ≤ S16.size a
  inb_S16x128_S1x128_15_0 : ∀ a, (![15, 0] : Fin 2 → Nat) a + S1x128.size a ≤ S16x128.size a
  inb_S16x128_S16x128_0_0 : ∀ a, (![0, 0] : Fin 2 → Nat) a + S16x128.size a ≤ S16x128.size a
  h_S16x128 : 0 < S16x128.numel
  reduces_S16x128_S128 : S16x128.Reduces [0] S128
  h_S1x128 : 0 < S1x128.numel
  shapeCasts_S1x128_S128 : S1x128.ShapeCasts S128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S16x50000_S16x2000_0_2000 : S16x50000.Slices ![0, 2000] S16x2000
  slices_S16x50000_S16x2000_0_4000 : S16x50000.Slices ![0, 4000] S16x2000
  slices_S16x50000_S16x2000_0_6000 : S16x50000.Slices ![0, 6000] S16x2000
  slices_S16x50000_S16x2000_0_8000 : S16x50000.Slices ![0, 8000] S16x2000
  slices_S16x50000_S16x2000_0_10000 : S16x50000.Slices ![0, 10000] S16x2000
  slices_S16x50000_S16x2000_0_12000 : S16x50000.Slices ![0, 12000] S16x2000
  slices_S16x50000_S16x2000_0_14000 : S16x50000.Slices ![0, 14000] S16x2000
  slices_S16x50000_S16x2000_0_16000 : S16x50000.Slices ![0, 16000] S16x2000
  slices_S16x50000_S16x2000_0_18000 : S16x50000.Slices ![0, 18000] S16x2000
  slices_S16x50000_S16x2000_0_20000 : S16x50000.Slices ![0, 20000] S16x2000
  slices_S16x50000_S16x2000_0_22000 : S16x50000.Slices ![0, 22000] S16x2000
  slices_S16x50000_S16x2000_0_24000 : S16x50000.Slices ![0, 24000] S16x2000
  slices_S16x50000_S16x2000_0_26000 : S16x50000.Slices ![0, 26000] S16x2000
  slices_S16x50000_S16x2000_0_28000 : S16x50000.Slices ![0, 28000] S16x2000
  slices_S16x50000_S16x2000_0_30000 : S16x50000.Slices ![0, 30000] S16x2000
  slices_S16x50000_S16x2000_0_32000 : S16x50000.Slices ![0, 32000] S16x2000
  slices_S16x50000_S16x2000_0_34000 : S16x50000.Slices ![0, 34000] S16x2000
  slices_S16x50000_S16x2000_0_36000 : S16x50000.Slices ![0, 36000] S16x2000
  slices_S16x50000_S16x2000_0_38000 : S16x50000.Slices ![0, 38000] S16x2000
  slices_S16x50000_S16x2000_0_40000 : S16x50000.Slices ![0, 40000] S16x2000
  slices_S16x50000_S16x2000_0_42000 : S16x50000.Slices ![0, 42000] S16x2000
  slices_S16x50000_S16x2000_0_44000 : S16x50000.Slices ![0, 44000] S16x2000
  slices_S16x50000_S16x2000_0_46000 : S16x50000.Slices ![0, 46000] S16x2000
  slices_S16x50000_S16x2000_0_48000 : S16x50000.Slices ![0, 48000] S16x2000
  concatenates_S2000x128_S2000x128_S2000x128_S2000x128_S2000x128_S2000x128_S2000x128_S2000x128_S2000x128_S2000x128_S2000x128_S2000x128_S2000x128_S2000x128_S2000x128_S2000x128_S32000x128_d0 : Shape.Concatenates [S2000x128, S2000x128, S2000x128, S2000x128, S2000x128, S2000x128, S2000x128, S2000x128, S2000x128, S2000x128, S2000x128, S2000x128, S2000x128, S2000x128, S2000x128, S2000x128] S32000x128 0
  concatenates_S2000x128_S2000x128_S2000x128_S2000x128_S2000x128_S2000x128_S2000x128_S2000x128_S2000x128_S18000x128_d0 : Shape.Concatenates [S2000x128, S2000x128, S2000x128, S2000x128, S2000x128, S2000x128, S2000x128, S2000x128, S2000x128] S18000x128 0
  concatenates_S32000x128_S18000x128_S50000x128_d0 : Shape.Concatenates [S32000x128, S18000x128] S50000x128 0
  inb_S2x128_S2x128_0_0 : ∀ a, (![0, 0] : Fin 2 → Nat) a + S2x128.size a ≤ S2x128.size a
  h_S2x128 : 0 < S2x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  shapeCasts_S2x128_S2x128 : S2x128.ShapeCasts S2x128
  concatenates_S1x128_S1x128_S2x128_d0 : Shape.Concatenates [S1x128, S1x128] S2x128 0
  slices_S2x128_S1x128_0_0 : S2x128.Slices ![0, 0] S1x128
  slices_S2x128_S1x128_1_0 : S2x128.Slices ![1, 0] S1x128
  bcast_S_S128 : S_.BroadcastsInDim S128 (![] : Fin 0 → Fin S128.rank)
  inb_S1x128_S1x128_0_0 : ∀ a, (![0, 0] : Fin 2 → Nat) a + S1x128.size a ≤ S1x128.size a
  shapeCasts_S1x128_S1x128 : S1x128.ShapeCasts S1x128
  broadcasts_S1x128_S5000x128 : S1x128.Broadcasts S5000x128
  dot_S1000x128_S128x128_S1000x128_1_0_0_1_n_n_wf : DotDims.WF S1000x128 S128x128 S1000x128 [1] [0] [0] [1] [] []
  hcc0_scratch2 : 3 + S16.numel ≤ 484
  hcc1_scratch2 : 22 + S16.numel ≤ 484
  hcc2_scratch2 : 41 + S16.numel ≤ 484
  hcc3_scratch2 : 60 + S16.numel ≤ 484
  hcc4_scratch2 : 79 + S16.numel ≤ 484
  hcc5_scratch2 : 98 + S16.numel ≤ 484
  hcc6_scratch2 : 117 + S16.numel ≤ 484
  hcc7_scratch2 : 136 + S16.numel ≤ 484
  hcc8_scratch2 : 155 + S16.numel ≤ 484
  hcc9_scratch2 : 174 + S16.numel ≤ 484
  hcc10_scratch2 : 193 + S16.numel ≤ 484
  hcc11_scratch2 : 212 + S16.numel ≤ 484
  hcc12_scratch2 : 231 + S16.numel ≤ 484
  hcc13_scratch2 : 250 + S16.numel ≤ 484
  hcc14_scratch2 : 269 + S16.numel ≤ 484
  hcc15_scratch2 : 288 + S16.numel ≤ 484
  hcc16_scratch2 : 307 + S16.numel ≤ 484
  hcc17_scratch2 : 326 + S16.numel ≤ 484
  hcc18_scratch2 : 345 + S16.numel ≤ 484
  hcc19_scratch2 : 364 + S16.numel ≤ 484
  hcc20_scratch2 : 383 + S16.numel ≤ 484
  hcc21_scratch2 : 402 + S16.numel ≤ 484
  hcc22_scratch2 : 421 + S16.numel ≤ 484
  hcc23_scratch2 : 440 + S16.numel ≤ 484
  hcc24_scratch2 : 459 + S16.numel ≤ 484
  hrank0 : 0 < grid0.rank
  k0_off1_inb : ∀ i : grid0.Coords, ∀ a, (k0_off1 i) a + S1x1.size a ≤ S16x2000.size a
  k0_off3_inb : ∀ i : grid0.Coords, ∀ a, (k0_off3 i) a + S1x1.size a ≤ S16x2000.size a
  k0_off5_inb : ∀ i : grid0.Coords, ∀ a, (k0_off5 i) a + S1x1.size a ≤ S16x2000.size a
  k0_off7_inb : ∀ i : grid0.Coords, ∀ a, (k0_off7 i) a + S1x1.size a ≤ S16x2000.size a
  k0_off9_inb : ∀ i : grid0.Coords, ∀ a, (k0_off9 i) a + S1x1.size a ≤ S16x2000.size a
  k0_off11_inb : ∀ i : grid0.Coords, ∀ a, (k0_off11 i) a + S1x1.size a ≤ S16x2000.size a
  k0_off13_inb : ∀ i : grid0.Coords, ∀ a, (k0_off13 i) a + S1x1.size a ≤ S16x2000.size a
  k0_off15_inb : ∀ i : grid0.Coords, ∀ a, (k0_off15 i) a + S1x1.size a ≤ S16x2000.size a
  k0_off17_inb : ∀ i : grid0.Coords, ∀ a, (k0_off17 i) a + S1x1.size a ≤ S16x2000.size a
  k0_off19_inb : ∀ i : grid0.Coords, ∀ a, (k0_off19 i) a + S1x1.size a ≤ S16x2000.size a
  k0_off21_inb : ∀ i : grid0.Coords, ∀ a, (k0_off21 i) a + S1x1.size a ≤ S16x2000.size a
  k0_off23_inb : ∀ i : grid0.Coords, ∀ a, (k0_off23 i) a + S1x1.size a ≤ S16x2000.size a
  k0_off25_inb : ∀ i : grid0.Coords, ∀ a, (k0_off25 i) a + S1x1.size a ≤ S16x2000.size a
  k0_off27_inb : ∀ i : grid0.Coords, ∀ a, (k0_off27 i) a + S1x1.size a ≤ S16x2000.size a
  k0_off29_inb : ∀ i : grid0.Coords, ∀ a, (k0_off29 i) a + S1x1.size a ≤ S16x2000.size a
  k0_off31_inb : ∀ i : grid0.Coords, ∀ a, (k0_off31 i) a + S1x1.size a ≤ S16x2000.size a
  k0_off48_inb : ∀ i : grid0.Coords, ∀ a, (k0_off48 i) a + S1x128.size a ≤ S1000x128.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S128x128.size a ≤ S128x128.size a
  hwx0_0 : ∀ i : grid0.Coords, EltTy.bits .f32 = 32 ∨ (Rect.block (s := S128x128) S128x128.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1000x128.size a ≤ S2000x128.size a
  hwx0_1 : ∀ i : grid0.Coords, EltTy.bits .f32 = 32 ∨ (Rect.block (s := S2000x128) S1000x128.size (cc0_transform_2 i) (hinb0_1 i)).WholeWords (EltTy.packing .f32)
  hrank1 : 0 < grid1.rank
  k1_off1_inb : ∀ i : grid1.Coords, ∀ a, (k1_off1 i) a + S1x1.size a ≤ S16x2000.size a
  k1_off3_inb : ∀ i : grid1.Coords, ∀ a, (k1_off3 i) a + S1x1.size a ≤ S16x2000.size a
  k1_off5_inb : ∀ i : grid1.Coords, ∀ a, (k1_off5 i) a + S1x1.size a ≤ S16x2000.size a
  k1_off7_inb : ∀ i : grid1.Coords, ∀ a, (k1_off7 i) a + S1x1.size a ≤ S16x2000.size a
  k1_off9_inb : ∀ i : grid1.Coords, ∀ a, (k1_off9 i) a + S1x1.size a ≤ S16x2000.size a
  k1_off11_inb : ∀ i : grid1.Coords, ∀ a, (k1_off11 i) a + S1x1.size a ≤ S16x2000.size a
  k1_off13_inb : ∀ i : grid1.Coords, ∀ a, (k1_off13 i) a + S1x1.size a ≤ S16x2000.size a
  k1_off15_inb : ∀ i : grid1.Coords, ∀ a, (k1_off15 i) a + S1x1.size a ≤ S16x2000.size a
  k1_off17_inb : ∀ i : grid1.Coords, ∀ a, (k1_off17 i) a + S1x1.size a ≤ S16x2000.size a
  k1_off19_inb : ∀ i : grid1.Coords, ∀ a, (k1_off19 i) a + S1x1.size a ≤ S16x2000.size a
  k1_off21_inb : ∀ i : grid1.Coords, ∀ a, (k1_off21 i) a + S1x1.size a ≤ S16x2000.size a
  k1_off23_inb : ∀ i : grid1.Coords, ∀ a, (k1_off23 i) a + S1x1.size a ≤ S16x2000.size a
  k1_off25_inb : ∀ i : grid1.Coords, ∀ a, (k1_off25 i) a + S1x1.size a ≤ S16x2000.size a
  k1_off27_inb : ∀ i : grid1.Coords, ∀ a, (k1_off27 i) a + S1x1.size a ≤ S16x2000.size a
  k1_off29_inb : ∀ i : grid1.Coords, ∀ a, (k1_off29 i) a + S1x1.size a ≤ S16x2000.size a
  k1_off31_inb : ∀ i : grid1.Coords, ∀ a, (k1_off31 i) a + S1x1.size a ≤ S16x2000.size a
  k1_off48_inb : ∀ i : grid1.Coords, ∀ a, (k1_off48 i) a + S1x128.size a ≤ S1000x128.size a
  hstage1_0 : ∀ j, (stage1_0 j).IsWhole
  nbuf1_0 : grid1.bufCount reads1_0 true = 1
  hreads1_0 : ∀ i i' : grid1.Coords, (∀ a, reads1_0 a = true → i a = i' a) → cc1_transform_1 i = cc1_transform_1 i'
  hinb1_0 : ∀ (i : grid1.Coords) a, (cc1_transform_1 i a + 1) * S128x128.size a ≤ S128x128.size a
  hwx1_0 : ∀ i : grid1.Coords, EltTy.bits .f32 = 32 ∨ (Rect.block (s := S128x128) S128x128.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S1000x128.size a ≤ S2000x128.size a
  hwx1_1 : ∀ i : grid1.Coords, EltTy.bits .f32 = 32 ∨ (Rect.block (s := S2000x128) S1000x128.size (cc1_transform_2 i) (hinb1_1 i)).WholeWords (EltTy.packing .f32)
  hrank2 : 0 < grid2.rank
  k2_off1_inb : ∀ i : grid2.Coords, ∀ a, (k2_off1 i) a + S1x1.size a ≤ S16x2000.size a
  k2_off3_inb : ∀ i : grid2.Coords, ∀ a, (k2_off3 i) a + S1x1.size a ≤ S16x2000.size a
  k2_off5_inb : ∀ i : grid2.Coords, ∀ a, (k2_off5 i) a + S1x1.size a ≤ S16x2000.size a
  k2_off7_inb : ∀ i : grid2.Coords, ∀ a, (k2_off7 i) a + S1x1.size a ≤ S16x2000.size a
  k2_off9_inb : ∀ i : grid2.Coords, ∀ a, (k2_off9 i) a + S1x1.size a ≤ S16x2000.size a
  k2_off11_inb : ∀ i : grid2.Coords, ∀ a, (k2_off11 i) a + S1x1.size a ≤ S16x2000.size a
  k2_off13_inb : ∀ i : grid2.Coords, ∀ a, (k2_off13 i) a + S1x1.size a ≤ S16x2000.size a
  k2_off15_inb : ∀ i : grid2.Coords, ∀ a, (k2_off15 i) a + S1x1.size a ≤ S16x2000.size a
  k2_off17_inb : ∀ i : grid2.Coords, ∀ a, (k2_off17 i) a + S1x1.size a ≤ S16x2000.size a
  k2_off19_inb : ∀ i : grid2.Coords, ∀ a, (k2_off19 i) a + S1x1.size a ≤ S16x2000.size a
  k2_off21_inb : ∀ i : grid2.Coords, ∀ a, (k2_off21 i) a + S1x1.size a ≤ S16x2000.size a
  k2_off23_inb : ∀ i : grid2.Coords, ∀ a, (k2_off23 i) a + S1x1.size a ≤ S16x2000.size a
  k2_off25_inb : ∀ i : grid2.Coords, ∀ a, (k2_off25 i) a + S1x1.size a ≤ S16x2000.size a
  k2_off27_inb : ∀ i : grid2.Coords, ∀ a, (k2_off27 i) a + S1x1.size a ≤ S16x2000.size a
  k2_off29_inb : ∀ i : grid2.Coords, ∀ a, (k2_off29 i) a + S1x1.size a ≤ S16x2000.size a
  k2_off31_inb : ∀ i : grid2.Coords, ∀ a, (k2_off31 i) a + S1x1.size a ≤ S16x2000.size a
  k2_off48_inb : ∀ i : grid2.Coords, ∀ a, (k2_off48 i) a + S1x128.size a ≤ S1000x128.size a
  hstage2_0 : ∀ j, (stage2_0 j).IsWhole
  nbuf2_0 : grid2.bufCount reads2_0 true = 1
  hreads2_0 : ∀ i i' : grid2.Coords, (∀ a, reads2_0 a = true → i a = i' a) → cc2_transform_1 i = cc2_transform_1 i'
  hinb2_0 : ∀ (i : grid2.Coords) a, (cc2_transform_1 i a + 1) * S128x128.size a ≤ S128x128.size a
  hwx2_0 : ∀ i : grid2.Coords, EltTy.bits .f32 = 32 ∨ (Rect.block (s := S128x128) S128x128.size (cc2_transform_1 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_2 i = cc2_transform_2 i'
  hinb2_1 : ∀ (i : grid2.Coords) a, (cc2_transform_2 i a + 1) * S1000x128.size a ≤ S2000x128.size a
  hwx2_1 : ∀ i : grid2.Coords, EltTy.bits .f32 = 32 ∨ (Rect.block (s := S2000x128) S1000x128.size (cc2_transform_2 i) (hinb2_1 i)).WholeWords (EltTy.packing .f32)
  hrank3 : 0 < grid3.rank
  k3_off1_inb : ∀ i : grid3.Coords, ∀ a, (k3_off1 i) a + S1x1.size a ≤ S16x2000.size a
  k3_off3_inb : ∀ i : grid3.Coords, ∀ a, (k3_off3 i) a + S1x1.size a ≤ S16x2000.size a
  k3_off5_inb : ∀ i : grid3.Coords, ∀ a, (k3_off5 i) a + S1x1.size a ≤ S16x2000.size a
  k3_off7_inb : ∀ i : grid3.Coords, ∀ a, (k3_off7 i) a + S1x1.size a ≤ S16x2000.size a
  k3_off9_inb : ∀ i : grid3.Coords, ∀ a, (k3_off9 i) a + S1x1.size a ≤ S16x2000.size a
  k3_off11_inb : ∀ i : grid3.Coords, ∀ a, (k3_off11 i) a + S1x1.size a ≤ S16x2000.size a
  k3_off13_inb : ∀ i : grid3.Coords, ∀ a, (k3_off13 i) a + S1x1.size a ≤ S16x2000.size a
  k3_off15_inb : ∀ i : grid3.Coords, ∀ a, (k3_off15 i) a + S1x1.size a ≤ S16x2000.size a
  k3_off17_inb : ∀ i : grid3.Coords, ∀ a, (k3_off17 i) a + S1x1.size a ≤ S16x2000.size a
  k3_off19_inb : ∀ i : grid3.Coords, ∀ a, (k3_off19 i) a + S1x1.size a ≤ S16x2000.size a
  k3_off21_inb : ∀ i : grid3.Coords, ∀ a, (k3_off21 i) a + S1x1.size a ≤ S16x2000.size a
  k3_off23_inb : ∀ i : grid3.Coords, ∀ a, (k3_off23 i) a + S1x1.size a ≤ S16x2000.size a
  k3_off25_inb : ∀ i : grid3.Coords, ∀ a, (k3_off25 i) a + S1x1.size a ≤ S16x2000.size a
  k3_off27_inb : ∀ i : grid3.Coords, ∀ a, (k3_off27 i) a + S1x1.size a ≤ S16x2000.size a
  k3_off29_inb : ∀ i : grid3.Coords, ∀ a, (k3_off29 i) a + S1x1.size a ≤ S16x2000.size a
  k3_off31_inb : ∀ i : grid3.Coords, ∀ a, (k3_off31 i) a + S1x1.size a ≤ S16x2000.size a
  k3_off48_inb : ∀ i : grid3.Coords, ∀ a, (k3_off48 i) a + S1x128.size a ≤ S1000x128.size a
  hstage3_0 : ∀ j, (stage3_0 j).IsWhole
  nbuf3_0 : grid3.bufCount reads3_0 true = 1
  hreads3_0 : ∀ i i' : grid3.Coords, (∀ a, reads3_0 a = true → i a = i' a) → cc3_transform_1 i = cc3_transform_1 i'
  hinb3_0 : ∀ (i : grid3.Coords) a, (cc3_transform_1 i a + 1) * S128x128.size a ≤ S128x128.size a
  hwx3_0 : ∀ i : grid3.Coords, EltTy.bits .f32 = 32 ∨ (Rect.block (s := S128x128) S128x128.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S1000x128.size a ≤ S2000x128.size a
  hwx3_1 : ∀ i : grid3.Coords, EltTy.bits .f32 = 32 ∨ (Rect.block (s := S2000x128) S1000x128.size (cc3_transform_2 i) (hinb3_1 i)).WholeWords (EltTy.packing .f32)
  hrank4 : 0 < grid4.rank
  k4_off1_inb : ∀ i : grid4.Coords, ∀ a, (k4_off1 i) a + S1x1.size a ≤ S16x2000.size a
  k4_off3_inb : ∀ i : grid4.Coords, ∀ a, (k4_off3 i) a + S1x1.size a ≤ S16x2000.size a
  k4_off5_inb : ∀ i : grid4.Coords, ∀ a, (k4_off5 i) a + S1x1.size a ≤ S16x2000.size a
  k4_off7_inb : ∀ i : grid4.Coords, ∀ a, (k4_off7 i) a + S1x1.size a ≤ S16x2000.size a
  k4_off9_inb : ∀ i : grid4.Coords, ∀ a, (k4_off9 i) a + S1x1.size a ≤ S16x2000.size a
  k4_off11_inb : ∀ i : grid4.Coords, ∀ a, (k4_off11 i) a + S1x1.size a ≤ S16x2000.size a
  k4_off13_inb : ∀ i : grid4.Coords, ∀ a, (k4_off13 i) a + S1x1.size a ≤ S16x2000.size a
  k4_off15_inb : ∀ i : grid4.Coords, ∀ a, (k4_off15 i) a + S1x1.size a ≤ S16x2000.size a
  k4_off17_inb : ∀ i : grid4.Coords, ∀ a, (k4_off17 i) a + S1x1.size a ≤ S16x2000.size a
  k4_off19_inb : ∀ i : grid4.Coords, ∀ a, (k4_off19 i) a + S1x1.size a ≤ S16x2000.size a
  k4_off21_inb : ∀ i : grid4.Coords, ∀ a, (k4_off21 i) a + S1x1.size a ≤ S16x2000.size a
  k4_off23_inb : ∀ i : grid4.Coords, ∀ a, (k4_off23 i) a + S1x1.size a ≤ S16x2000.size a
  k4_off25_inb : ∀ i : grid4.Coords, ∀ a, (k4_off25 i) a + S1x1.size a ≤ S16x2000.size a
  k4_off27_inb : ∀ i : grid4.Coords, ∀ a, (k4_off27 i) a + S1x1.size a ≤ S16x2000.size a
  k4_off29_inb : ∀ i : grid4.Coords, ∀ a, (k4_off29 i) a + S1x1.size a ≤ S16x2000.size a
  k4_off31_inb : ∀ i : grid4.Coords, ∀ a, (k4_off31 i) a + S1x1.size a ≤ S16x2000.size a
  k4_off48_inb : ∀ i : grid4.Coords, ∀ a, (k4_off48 i) a + S1x128.size a ≤ S1000x128.size a
  hstage4_0 : ∀ j, (stage4_0 j).IsWhole
  nbuf4_0 : grid4.bufCount reads4_0 true = 1
  hreads4_0 : ∀ i i' : grid4.Coords, (∀ a, reads4_0 a = true → i a = i' a) → cc4_transform_1 i = cc4_transform_1 i'
  hinb4_0 : ∀ (i : grid4.Coords) a, (cc4_transform_1 i a + 1) * S128x128.size a ≤ S128x128.size a
  hwx4_0 : ∀ i : grid4.Coords, EltTy.bits .f32 = 32 ∨ (Rect.block (s := S128x128) S128x128.size (cc4_transform_1 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_2 i = cc4_transform_2 i'
  hinb4_1 : ∀ (i : grid4.Coords) a, (cc4_transform_2 i a + 1) * S1000x128.size a ≤ S2000x128.size a
  hwx4_1 : ∀ i : grid4.Coords, EltTy.bits .f32 = 32 ∨ (Rect.block (s := S2000x128) S1000x128.size (cc4_transform_2 i) (hinb4_1 i)).WholeWords (EltTy.packing .f32)
  hrank5 : 0 < grid5.rank
  k5_off1_inb : ∀ i : grid5.Coords, ∀ a, (k5_off1 i) a + S1x1.size a ≤ S16x2000.size a
  k5_off3_inb : ∀ i : grid5.Coords, ∀ a, (k5_off3 i) a + S1x1.size a ≤ S16x2000.size a
  k5_off5_inb : ∀ i : grid5.Coords, ∀ a, (k5_off5 i) a + S1x1.size a ≤ S16x2000.size a
  k5_off7_inb : ∀ i : grid5.Coords, ∀ a, (k5_off7 i) a + S1x1.size a ≤ S16x2000.size a
  k5_off9_inb : ∀ i : grid5.Coords, ∀ a, (k5_off9 i) a + S1x1.size a ≤ S16x2000.size a
  k5_off11_inb : ∀ i : grid5.Coords, ∀ a, (k5_off11 i) a + S1x1.size a ≤ S16x2000.size a
  k5_off13_inb : ∀ i : grid5.Coords, ∀ a, (k5_off13 i) a + S1x1.size a ≤ S16x2000.size a
  k5_off15_inb : ∀ i : grid5.Coords, ∀ a, (k5_off15 i) a + S1x1.size a ≤ S16x2000.size a
  k5_off17_inb : ∀ i : grid5.Coords, ∀ a, (k5_off17 i) a + S1x1.size a ≤ S16x2000.size a
  k5_off19_inb : ∀ i : grid5.Coords, ∀ a, (k5_off19 i) a + S1x1.size a ≤ S16x2000.size a
  k5_off21_inb : ∀ i : grid5.Coords, ∀ a, (k5_off21 i) a + S1x1.size a ≤ S16x2000.size a
  k5_off23_inb : ∀ i : grid5.Coords, ∀ a, (k5_off23 i) a + S1x1.size a ≤ S16x2000.size a
  k5_off25_inb : ∀ i : grid5.Coords, ∀ a, (k5_off25 i) a + S1x1.size a ≤ S16x2000.size a
  k5_off27_inb : ∀ i : grid5.Coords, ∀ a, (k5_off27 i) a + S1x1.size a ≤ S16x2000.size a
  k5_off29_inb : ∀ i : grid5.Coords, ∀ a, (k5_off29 i) a + S1x1.size a ≤ S16x2000.size a
  k5_off31_inb : ∀ i : grid5.Coords, ∀ a, (k5_off31 i) a + S1x1.size a ≤ S16x2000.size a
  k5_off48_inb : ∀ i : grid5.Coords, ∀ a, (k5_off48 i) a + S1x128.size a ≤ S1000x128.size a
  hstage5_0 : ∀ j, (stage5_0 j).IsWhole
  nbuf5_0 : grid5.bufCount reads5_0 true = 1
  hreads5_0 : ∀ i i' : grid5.Coords, (∀ a, reads5_0 a = true → i a = i' a) → cc5_transform_1 i = cc5_transform_1 i'
  hinb5_0 : ∀ (i : grid5.Coords) a, (cc5_transform_1 i a + 1) * S128x128.size a ≤ S128x128.size a
  hwx5_0 : ∀ i : grid5.Coords, EltTy.bits .f32 = 32 ∨ (Rect.block (s := S128x128) S128x128.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S1000x128.size a ≤ S2000x128.size a
  hwx5_1 : ∀ i : grid5.Coords, EltTy.bits .f32 = 32 ∨ (Rect.block (s := S2000x128) S1000x128.size (cc5_transform_2 i) (hinb5_1 i)).WholeWords (EltTy.packing .f32)
  hrank6 : 0 < grid6.rank
  k6_off1_inb : ∀ i : grid6.Coords, ∀ a, (k6_off1 i) a + S1x1.size a ≤ S16x2000.size a
  k6_off3_inb : ∀ i : grid6.Coords, ∀ a, (k6_off3 i) a + S1x1.size a ≤ S16x2000.size a
  k6_off5_inb : ∀ i : grid6.Coords, ∀ a, (k6_off5 i) a + S1x1.size a ≤ S16x2000.size a
  k6_off7_inb : ∀ i : grid6.Coords, ∀ a, (k6_off7 i) a + S1x1.size a ≤ S16x2000.size a
  k6_off9_inb : ∀ i : grid6.Coords, ∀ a, (k6_off9 i) a + S1x1.size a ≤ S16x2000.size a
  k6_off11_inb : ∀ i : grid6.Coords, ∀ a, (k6_off11 i) a + S1x1.size a ≤ S16x2000.size a
  k6_off13_inb : ∀ i : grid6.Coords, ∀ a, (k6_off13 i) a + S1x1.size a ≤ S16x2000.size a
  k6_off15_inb : ∀ i : grid6.Coords, ∀ a, (k6_off15 i) a + S1x1.size a ≤ S16x2000.size a
  k6_off17_inb : ∀ i : grid6.Coords, ∀ a, (k6_off17 i) a + S1x1.size a ≤ S16x2000.size a
  k6_off19_inb : ∀ i : grid6.Coords, ∀ a, (k6_off19 i) a + S1x1.size a ≤ S16x2000.size a
  k6_off21_inb : ∀ i : grid6.Coords, ∀ a, (k6_off21 i) a + S1x1.size a ≤ S16x2000.size a
  k6_off23_inb : ∀ i : grid6.Coords, ∀ a, (k6_off23 i) a + S1x1.size a ≤ S16x2000.size a
  k6_off25_inb : ∀ i : grid6.Coords, ∀ a, (k6_off25 i) a + S1x1.size a ≤ S16x2000.size a
  k6_off27_inb : ∀ i : grid6.Coords, ∀ a, (k6_off27 i) a + S1x1.size a ≤ S16x2000.size a
  k6_off29_inb : ∀ i : grid6.Coords, ∀ a, (k6_off29 i) a + S1x1.size a ≤ S16x2000.size a
  k6_off31_inb : ∀ i : grid6.Coords, ∀ a, (k6_off31 i) a + S1x1.size a ≤ S16x2000.size a
  k6_off48_inb : ∀ i : grid6.Coords, ∀ a, (k6_off48 i) a + S1x128.size a ≤ S1000x128.size a
  hstage6_0 : ∀ j, (stage6_0 j).IsWhole
  nbuf6_0 : grid6.bufCount reads6_0 true = 1
  hreads6_0 : ∀ i i' : grid6.Coords, (∀ a, reads6_0 a = true → i a = i' a) → cc6_transform_1 i = cc6_transform_1 i'
  hinb6_0 : ∀ (i : grid6.Coords) a, (cc6_transform_1 i a + 1) * S128x128.size a ≤ S128x128.size a
  hwx6_0 : ∀ i : grid6.Coords, EltTy.bits .f32 = 32 ∨ (Rect.block (s := S128x128) S128x128.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S1000x128.size a ≤ S2000x128.size a
  hwx6_1 : ∀ i : grid6.Coords, EltTy.bits .f32 = 32 ∨ (Rect.block (s := S2000x128) S1000x128.size (cc6_transform_2 i) (hinb6_1 i)).WholeWords (EltTy.packing .f32)
  hrank7 : 0 < grid7.rank
  k7_off1_inb : ∀ i : grid7.Coords, ∀ a, (k7_off1 i) a + S1x1.size a ≤ S16x2000.size a
  k7_off3_inb : ∀ i : grid7.Coords, ∀ a, (k7_off3 i) a + S1x1.size a ≤ S16x2000.size a
  k7_off5_inb : ∀ i : grid7.Coords, ∀ a, (k7_off5 i) a + S1x1.size a ≤ S16x2000.size a
  k7_off7_inb : ∀ i : grid7.Coords, ∀ a, (k7_off7 i) a + S1x1.size a ≤ S16x2000.size a
  k7_off9_inb : ∀ i : grid7.Coords, ∀ a, (k7_off9 i) a + S1x1.size a ≤ S16x2000.size a
  k7_off11_inb : ∀ i : grid7.Coords, ∀ a, (k7_off11 i) a + S1x1.size a ≤ S16x2000.size a
  k7_off13_inb : ∀ i : grid7.Coords, ∀ a, (k7_off13 i) a + S1x1.size a ≤ S16x2000.size a
  k7_off15_inb : ∀ i : grid7.Coords, ∀ a, (k7_off15 i) a + S1x1.size a ≤ S16x2000.size a
  k7_off17_inb : ∀ i : grid7.Coords, ∀ a, (k7_off17 i) a + S1x1.size a ≤ S16x2000.size a
  k7_off19_inb : ∀ i : grid7.Coords, ∀ a, (k7_off19 i) a + S1x1.size a ≤ S16x2000.size a
  k7_off21_inb : ∀ i : grid7.Coords, ∀ a, (k7_off21 i) a + S1x1.size a ≤ S16x2000.size a
  k7_off23_inb : ∀ i : grid7.Coords, ∀ a, (k7_off23 i) a + S1x1.size a ≤ S16x2000.size a
  k7_off25_inb : ∀ i : grid7.Coords, ∀ a, (k7_off25 i) a + S1x1.size a ≤ S16x2000.size a
  k7_off27_inb : ∀ i : grid7.Coords, ∀ a, (k7_off27 i) a + S1x1.size a ≤ S16x2000.size a
  k7_off29_inb : ∀ i : grid7.Coords, ∀ a, (k7_off29 i) a + S1x1.size a ≤ S16x2000.size a
  k7_off31_inb : ∀ i : grid7.Coords, ∀ a, (k7_off31 i) a + S1x1.size a ≤ S16x2000.size a
  k7_off48_inb : ∀ i : grid7.Coords, ∀ a, (k7_off48 i) a + S1x128.size a ≤ S1000x128.size a
  hstage7_0 : ∀ j, (stage7_0 j).IsWhole
  nbuf7_0 : grid7.bufCount reads7_0 true = 1
  hreads7_0 : ∀ i i' : grid7.Coords, (∀ a, reads7_0 a = true → i a = i' a) → cc7_transform_1 i = cc7_transform_1 i'
  hinb7_0 : ∀ (i : grid7.Coords) a, (cc7_transform_1 i a + 1) * S128x128.size a ≤ S128x128.size a
  hwx7_0 : ∀ i : grid7.Coords, EltTy.bits .f32 = 32 ∨ (Rect.block (s := S128x128) S128x128.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S1000x128.size a ≤ S2000x128.size a
  hwx7_1 : ∀ i : grid7.Coords, EltTy.bits .f32 = 32 ∨ (Rect.block (s := S2000x128) S1000x128.size (cc7_transform_2 i) (hinb7_1 i)).WholeWords (EltTy.packing .f32)
  hrank8 : 0 < grid8.rank
  k8_off1_inb : ∀ i : grid8.Coords, ∀ a, (k8_off1 i) a + S1x1.size a ≤ S16x2000.size a
  k8_off3_inb : ∀ i : grid8.Coords, ∀ a, (k8_off3 i) a + S1x1.size a ≤ S16x2000.size a
  k8_off5_inb : ∀ i : grid8.Coords, ∀ a, (k8_off5 i) a + S1x1.size a ≤ S16x2000.size a
  k8_off7_inb : ∀ i : grid8.Coords, ∀ a, (k8_off7 i) a + S1x1.size a ≤ S16x2000.size a
  k8_off9_inb : ∀ i : grid8.Coords, ∀ a, (k8_off9 i) a + S1x1.size a ≤ S16x2000.size a
  k8_off11_inb : ∀ i : grid8.Coords, ∀ a, (k8_off11 i) a + S1x1.size a ≤ S16x2000.size a
  k8_off13_inb : ∀ i : grid8.Coords, ∀ a, (k8_off13 i) a + S1x1.size a ≤ S16x2000.size a
  k8_off15_inb : ∀ i : grid8.Coords, ∀ a, (k8_off15 i) a + S1x1.size a ≤ S16x2000.size a
  k8_off17_inb : ∀ i : grid8.Coords, ∀ a, (k8_off17 i) a + S1x1.size a ≤ S16x2000.size a
  k8_off19_inb : ∀ i : grid8.Coords, ∀ a, (k8_off19 i) a + S1x1.size a ≤ S16x2000.size a
  k8_off21_inb : ∀ i : grid8.Coords, ∀ a, (k8_off21 i) a + S1x1.size a ≤ S16x2000.size a
  k8_off23_inb : ∀ i : grid8.Coords, ∀ a, (k8_off23 i) a + S1x1.size a ≤ S16x2000.size a
  k8_off25_inb : ∀ i : grid8.Coords, ∀ a, (k8_off25 i) a + S1x1.size a ≤ S16x2000.size a
  k8_off27_inb : ∀ i : grid8.Coords, ∀ a, (k8_off27 i) a + S1x1.size a ≤ S16x2000.size a
  k8_off29_inb : ∀ i : grid8.Coords, ∀ a, (k8_off29 i) a + S1x1.size a ≤ S16x2000.size a
  k8_off31_inb : ∀ i : grid8.Coords, ∀ a, (k8_off31 i) a + S1x1.size a ≤ S16x2000.size a
  k8_off48_inb : ∀ i : grid8.Coords, ∀ a, (k8_off48 i) a + S1x128.size a ≤ S1000x128.size a
  hstage8_0 : ∀ j, (stage8_0 j).IsWhole
  nbuf8_0 : grid8.bufCount reads8_0 true = 1
  hreads8_0 : ∀ i i' : grid8.Coords, (∀ a, reads8_0 a = true → i a = i' a) → cc8_transform_1 i = cc8_transform_1 i'
  hinb8_0 : ∀ (i : grid8.Coords) a, (cc8_transform_1 i a + 1) * S128x128.size a ≤ S128x128.size a
  hwx8_0 : ∀ i : grid8.Coords, EltTy.bits .f32 = 32 ∨ (Rect.block (s := S128x128) S128x128.size (cc8_transform_1 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_2 i = cc8_transform_2 i'
  hinb8_1 : ∀ (i : grid8.Coords) a, (cc8_transform_2 i a + 1) * S1000x128.size a ≤ S2000x128.size a
  hwx8_1 : ∀ i : grid8.Coords, EltTy.bits .f32 = 32 ∨ (Rect.block (s := S2000x128) S1000x128.size (cc8_transform_2 i) (hinb8_1 i)).WholeWords (EltTy.packing .f32)
  hrank9 : 0 < grid9.rank
  k9_off1_inb : ∀ i : grid9.Coords, ∀ a, (k9_off1 i) a + S1x1.size a ≤ S16x2000.size a
  k9_off3_inb : ∀ i : grid9.Coords, ∀ a, (k9_off3 i) a + S1x1.size a ≤ S16x2000.size a
  k9_off5_inb : ∀ i : grid9.Coords, ∀ a, (k9_off5 i) a + S1x1.size a ≤ S16x2000.size a
  k9_off7_inb : ∀ i : grid9.Coords, ∀ a, (k9_off7 i) a + S1x1.size a ≤ S16x2000.size a
  k9_off9_inb : ∀ i : grid9.Coords, ∀ a, (k9_off9 i) a + S1x1.size a ≤ S16x2000.size a
  k9_off11_inb : ∀ i : grid9.Coords, ∀ a, (k9_off11 i) a + S1x1.size a ≤ S16x2000.size a
  k9_off13_inb : ∀ i : grid9.Coords, ∀ a, (k9_off13 i) a + S1x1.size a ≤ S16x2000.size a
  k9_off15_inb : ∀ i : grid9.Coords, ∀ a, (k9_off15 i) a + S1x1.size a ≤ S16x2000.size a
  k9_off17_inb : ∀ i : grid9.Coords, ∀ a, (k9_off17 i) a + S1x1.size a ≤ S16x2000.size a
  k9_off19_inb : ∀ i : grid9.Coords, ∀ a, (k9_off19 i) a + S1x1.size a ≤ S16x2000.size a
  k9_off21_inb : ∀ i : grid9.Coords, ∀ a, (k9_off21 i) a + S1x1.size a ≤ S16x2000.size a
  k9_off23_inb : ∀ i : grid9.Coords, ∀ a, (k9_off23 i) a + S1x1.size a ≤ S16x2000.size a
  k9_off25_inb : ∀ i : grid9.Coords, ∀ a, (k9_off25 i) a + S1x1.size a ≤ S16x2000.size a
  k9_off27_inb : ∀ i : grid9.Coords, ∀ a, (k9_off27 i) a + S1x1.size a ≤ S16x2000.size a
  k9_off29_inb : ∀ i : grid9.Coords, ∀ a, (k9_off29 i) a + S1x1.size a ≤ S16x2000.size a
  k9_off31_inb : ∀ i : grid9.Coords, ∀ a, (k9_off31 i) a + S1x1.size a ≤ S16x2000.size a
  k9_off48_inb : ∀ i : grid9.Coords, ∀ a, (k9_off48 i) a + S1x128.size a ≤ S1000x128.size a
  hstage9_0 : ∀ j, (stage9_0 j).IsWhole
  nbuf9_0 : grid9.bufCount reads9_0 true = 1
  hreads9_0 : ∀ i i' : grid9.Coords, (∀ a, reads9_0 a = true → i a = i' a) → cc9_transform_1 i = cc9_transform_1 i'
  hinb9_0 : ∀ (i : grid9.Coords) a, (cc9_transform_1 i a + 1) * S128x128.size a ≤ S128x128.size a
  hwx9_0 : ∀ i : grid9.Coords, EltTy.bits .f32 = 32 ∨ (Rect.block (s := S128x128) S128x128.size (cc9_transform_1 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_2 i = cc9_transform_2 i'
  hinb9_1 : ∀ (i : grid9.Coords) a, (cc9_transform_2 i a + 1) * S1000x128.size a ≤ S2000x128.size a
  hwx9_1 : ∀ i : grid9.Coords, EltTy.bits .f32 = 32 ∨ (Rect.block (s := S2000x128) S1000x128.size (cc9_transform_2 i) (hinb9_1 i)).WholeWords (EltTy.packing .f32)
  hrank10 : 0 < grid10.rank
  k10_off1_inb : ∀ i : grid10.Coords, ∀ a, (k10_off1 i) a + S1x1.size a ≤ S16x2000.size a
  k10_off3_inb : ∀ i : grid10.Coords, ∀ a, (k10_off3 i) a + S1x1.size a ≤ S16x2000.size a
  k10_off5_inb : ∀ i : grid10.Coords, ∀ a, (k10_off5 i) a + S1x1.size a ≤ S16x2000.size a
  k10_off7_inb : ∀ i : grid10.Coords, ∀ a, (k10_off7 i) a + S1x1.size a ≤ S16x2000.size a
  k10_off9_inb : ∀ i : grid10.Coords, ∀ a, (k10_off9 i) a + S1x1.size a ≤ S16x2000.size a
  k10_off11_inb : ∀ i : grid10.Coords, ∀ a, (k10_off11 i) a + S1x1.size a ≤ S16x2000.size a
  k10_off13_inb : ∀ i : grid10.Coords, ∀ a, (k10_off13 i) a + S1x1.size a ≤ S16x2000.size a
  k10_off15_inb : ∀ i : grid10.Coords, ∀ a, (k10_off15 i) a + S1x1.size a ≤ S16x2000.size a
  k10_off17_inb : ∀ i : grid10.Coords, ∀ a, (k10_off17 i) a + S1x1.size a ≤ S16x2000.size a
  k10_off19_inb : ∀ i : grid10.Coords, ∀ a, (k10_off19 i) a + S1x1.size a ≤ S16x2000.size a
  k10_off21_inb : ∀ i : grid10.Coords, ∀ a, (k10_off21 i) a + S1x1.size a ≤ S16x2000.size a
  k10_off23_inb : ∀ i : grid10.Coords, ∀ a, (k10_off23 i) a + S1x1.size a ≤ S16x2000.size a
  k10_off25_inb : ∀ i : grid10.Coords, ∀ a, (k10_off25 i) a + S1x1.size a ≤ S16x2000.size a
  k10_off27_inb : ∀ i : grid10.Coords, ∀ a, (k10_off27 i) a + S1x1.size a ≤ S16x2000.size a
  k10_off29_inb : ∀ i : grid10.Coords, ∀ a, (k10_off29 i) a + S1x1.size a ≤ S16x2000.size a
  k10_off31_inb : ∀ i : grid10.Coords, ∀ a, (k10_off31 i) a + S1x1.size a ≤ S16x2000.size a
  k10_off48_inb : ∀ i : grid10.Coords, ∀ a, (k10_off48 i) a + S1x128.size a ≤ S1000x128.size a
  hstage10_0 : ∀ j, (stage10_0 j).IsWhole
  nbuf10_0 : grid10.bufCount reads10_0 true = 1
  hreads10_0 : ∀ i i' : grid10.Coords, (∀ a, reads10_0 a = true → i a = i' a) → cc10_transform_1 i = cc10_transform_1 i'
  hinb10_0 : ∀ (i : grid10.Coords) a, (cc10_transform_1 i a + 1) * S128x128.size a ≤ S128x128.size a
  hwx10_0 : ∀ i : grid10.Coords, EltTy.bits .f32 = 32 ∨ (Rect.block (s := S128x128) S128x128.size (cc10_transform_1 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_2 i = cc10_transform_2 i'
  hinb10_1 : ∀ (i : grid10.Coords) a, (cc10_transform_2 i a + 1) * S1000x128.size a ≤ S2000x128.size a
  hwx10_1 : ∀ i : grid10.Coords, EltTy.bits .f32 = 32 ∨ (Rect.block (s := S2000x128) S1000x128.size (cc10_transform_2 i) (hinb10_1 i)).WholeWords (EltTy.packing .f32)
  hrank11 : 0 < grid11.rank
  k11_off1_inb : ∀ i : grid11.Coords, ∀ a, (k11_off1 i) a + S1x1.size a ≤ S16x2000.size a
  k11_off3_inb : ∀ i : grid11.Coords, ∀ a, (k11_off3 i) a + S1x1.size a ≤ S16x2000.size a
  k11_off5_inb : ∀ i : grid11.Coords, ∀ a, (k11_off5 i) a + S1x1.size a ≤ S16x2000.size a
  k11_off7_inb : ∀ i : grid11.Coords, ∀ a, (k11_off7 i) a + S1x1.size a ≤ S16x2000.size a
  k11_off9_inb : ∀ i : grid11.Coords, ∀ a, (k11_off9 i) a + S1x1.size a ≤ S16x2000.size a
  k11_off11_inb : ∀ i : grid11.Coords, ∀ a, (k11_off11 i) a + S1x1.size a ≤ S16x2000.size a
  k11_off13_inb : ∀ i : grid11.Coords, ∀ a, (k11_off13 i) a + S1x1.size a ≤ S16x2000.size a
  k11_off15_inb : ∀ i : grid11.Coords, ∀ a, (k11_off15 i) a + S1x1.size a ≤ S16x2000.size a
  k11_off17_inb : ∀ i : grid11.Coords, ∀ a, (k11_off17 i) a + S1x1.size a ≤ S16x2000.size a
  k11_off19_inb : ∀ i : grid11.Coords, ∀ a, (k11_off19 i) a + S1x1.size a ≤ S16x2000.size a
  k11_off21_inb : ∀ i : grid11.Coords, ∀ a, (k11_off21 i) a + S1x1.size a ≤ S16x2000.size a
  k11_off23_inb : ∀ i : grid11.Coords, ∀ a, (k11_off23 i) a + S1x1.size a ≤ S16x2000.size a
  k11_off25_inb : ∀ i : grid11.Coords, ∀ a, (k11_off25 i) a + S1x1.size a ≤ S16x2000.size a
  k11_off27_inb : ∀ i : grid11.Coords, ∀ a, (k11_off27 i) a + S1x1.size a ≤ S16x2000.size a
  k11_off29_inb : ∀ i : grid11.Coords, ∀ a, (k11_off29 i) a + S1x1.size a ≤ S16x2000.size a
  k11_off31_inb : ∀ i : grid11.Coords, ∀ a, (k11_off31 i) a + S1x1.size a ≤ S16x2000.size a
  k11_off48_inb : ∀ i : grid11.Coords, ∀ a, (k11_off48 i) a + S1x128.size a ≤ S1000x128.size a
  hstage11_0 : ∀ j, (stage11_0 j).IsWhole
  nbuf11_0 : grid11.bufCount reads11_0 true = 1
  hreads11_0 : ∀ i i' : grid11.Coords, (∀ a, reads11_0 a = true → i a = i' a) → cc11_transform_1 i = cc11_transform_1 i'
  hinb11_0 : ∀ (i : grid11.Coords) a, (cc11_transform_1 i a + 1) * S128x128.size a ≤ S128x128.size a
  hwx11_0 : ∀ i : grid11.Coords, EltTy.bits .f32 = 32 ∨ (Rect.block (s := S128x128) S128x128.size (cc11_transform_1 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_2 i = cc11_transform_2 i'
  hinb11_1 : ∀ (i : grid11.Coords) a, (cc11_transform_2 i a + 1) * S1000x128.size a ≤ S2000x128.size a
  hwx11_1 : ∀ i : grid11.Coords, EltTy.bits .f32 = 32 ∨ (Rect.block (s := S2000x128) S1000x128.size (cc11_transform_2 i) (hinb11_1 i)).WholeWords (EltTy.packing .f32)
  hrank12 : 0 < grid12.rank
  k12_off1_inb : ∀ i : grid12.Coords, ∀ a, (k12_off1 i) a + S1x1.size a ≤ S16x2000.size a
  k12_off3_inb : ∀ i : grid12.Coords, ∀ a, (k12_off3 i) a + S1x1.size a ≤ S16x2000.size a
  k12_off5_inb : ∀ i : grid12.Coords, ∀ a, (k12_off5 i) a + S1x1.size a ≤ S16x2000.size a
  k12_off7_inb : ∀ i : grid12.Coords, ∀ a, (k12_off7 i) a + S1x1.size a ≤ S16x2000.size a
  k12_off9_inb : ∀ i : grid12.Coords, ∀ a, (k12_off9 i) a + S1x1.size a ≤ S16x2000.size a
  k12_off11_inb : ∀ i : grid12.Coords, ∀ a, (k12_off11 i) a + S1x1.size a ≤ S16x2000.size a
  k12_off13_inb : ∀ i : grid12.Coords, ∀ a, (k12_off13 i) a + S1x1.size a ≤ S16x2000.size a
  k12_off15_inb : ∀ i : grid12.Coords, ∀ a, (k12_off15 i) a + S1x1.size a ≤ S16x2000.size a
  k12_off17_inb : ∀ i : grid12.Coords, ∀ a, (k12_off17 i) a + S1x1.size a ≤ S16x2000.size a
  k12_off19_inb : ∀ i : grid12.Coords, ∀ a, (k12_off19 i) a + S1x1.size a ≤ S16x2000.size a
  k12_off21_inb : ∀ i : grid12.Coords, ∀ a, (k12_off21 i) a + S1x1.size a ≤ S16x2000.size a
  k12_off23_inb : ∀ i : grid12.Coords, ∀ a, (k12_off23 i) a + S1x1.size a ≤ S16x2000.size a
  k12_off25_inb : ∀ i : grid12.Coords, ∀ a, (k12_off25 i) a + S1x1.size a ≤ S16x2000.size a
  k12_off27_inb : ∀ i : grid12.Coords, ∀ a, (k12_off27 i) a + S1x1.size a ≤ S16x2000.size a
  k12_off29_inb : ∀ i : grid12.Coords, ∀ a, (k12_off29 i) a + S1x1.size a ≤ S16x2000.size a
  k12_off31_inb : ∀ i : grid12.Coords, ∀ a, (k12_off31 i) a + S1x1.size a ≤ S16x2000.size a
  k12_off48_inb : ∀ i : grid12.Coords, ∀ a, (k12_off48 i) a + S1x128.size a ≤ S1000x128.size a
  hstage12_0 : ∀ j, (stage12_0 j).IsWhole
  nbuf12_0 : grid12.bufCount reads12_0 true = 1
  hreads12_0 : ∀ i i' : grid12.Coords, (∀ a, reads12_0 a = true → i a = i' a) → cc12_transform_1 i = cc12_transform_1 i'
  hinb12_0 : ∀ (i : grid12.Coords) a, (cc12_transform_1 i a + 1) * S128x128.size a ≤ S128x128.size a
  hwx12_0 : ∀ i : grid12.Coords, EltTy.bits .f32 = 32 ∨ (Rect.block (s := S128x128) S128x128.size (cc12_transform_1 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_2 i = cc12_transform_2 i'
  hinb12_1 : ∀ (i : grid12.Coords) a, (cc12_transform_2 i a + 1) * S1000x128.size a ≤ S2000x128.size a
  hwx12_1 : ∀ i : grid12.Coords, EltTy.bits .f32 = 32 ∨ (Rect.block (s := S2000x128) S1000x128.size (cc12_transform_2 i) (hinb12_1 i)).WholeWords (EltTy.packing .f32)
  hrank13 : 0 < grid13.rank
  k13_off1_inb : ∀ i : grid13.Coords, ∀ a, (k13_off1 i) a + S1x1.size a ≤ S16x2000.size a
  k13_off3_inb : ∀ i : grid13.Coords, ∀ a, (k13_off3 i) a + S1x1.size a ≤ S16x2000.size a
  k13_off5_inb : ∀ i : grid13.Coords, ∀ a, (k13_off5 i) a + S1x1.size a ≤ S16x2000.size a
  k13_off7_inb : ∀ i : grid13.Coords, ∀ a, (k13_off7 i) a + S1x1.size a ≤ S16x2000.size a
  k13_off9_inb : ∀ i : grid13.Coords, ∀ a, (k13_off9 i) a + S1x1.size a ≤ S16x2000.size a
  k13_off11_inb : ∀ i : grid13.Coords, ∀ a, (k13_off11 i) a + S1x1.size a ≤ S16x2000.size a
  k13_off13_inb : ∀ i : grid13.Coords, ∀ a, (k13_off13 i) a + S1x1.size a ≤ S16x2000.size a
  k13_off15_inb : ∀ i : grid13.Coords, ∀ a, (k13_off15 i) a + S1x1.size a ≤ S16x2000.size a
  k13_off17_inb : ∀ i : grid13.Coords, ∀ a, (k13_off17 i) a + S1x1.size a ≤ S16x2000.size a
  k13_off19_inb : ∀ i : grid13.Coords, ∀ a, (k13_off19 i) a + S1x1.size a ≤ S16x2000.size a
  k13_off21_inb : ∀ i : grid13.Coords, ∀ a, (k13_off21 i) a + S1x1.size a ≤ S16x2000.size a
  k13_off23_inb : ∀ i : grid13.Coords, ∀ a, (k13_off23 i) a + S1x1.size a ≤ S16x2000.size a
  k13_off25_inb : ∀ i : grid13.Coords, ∀ a, (k13_off25 i) a + S1x1.size a ≤ S16x2000.size a
  k13_off27_inb : ∀ i : grid13.Coords, ∀ a, (k13_off27 i) a + S1x1.size a ≤ S16x2000.size a
  k13_off29_inb : ∀ i : grid13.Coords, ∀ a, (k13_off29 i) a + S1x1.size a ≤ S16x2000.size a
  k13_off31_inb : ∀ i : grid13.Coords, ∀ a, (k13_off31 i) a + S1x1.size a ≤ S16x2000.size a
  k13_off48_inb : ∀ i : grid13.Coords, ∀ a, (k13_off48 i) a + S1x128.size a ≤ S1000x128.size a
  hstage13_0 : ∀ j, (stage13_0 j).IsWhole
  nbuf13_0 : grid13.bufCount reads13_0 true = 1
  hreads13_0 : ∀ i i' : grid13.Coords, (∀ a, reads13_0 a = true → i a = i' a) → cc13_transform_1 i = cc13_transform_1 i'
  hinb13_0 : ∀ (i : grid13.Coords) a, (cc13_transform_1 i a + 1) * S128x128.size a ≤ S128x128.size a
  hwx13_0 : ∀ i : grid13.Coords, EltTy.bits .f32 = 32 ∨ (Rect.block (s := S128x128) S128x128.size (cc13_transform_1 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_2 i = cc13_transform_2 i'
  hinb13_1 : ∀ (i : grid13.Coords) a, (cc13_transform_2 i a + 1) * S1000x128.size a ≤ S2000x128.size a
  hwx13_1 : ∀ i : grid13.Coords, EltTy.bits .f32 = 32 ∨ (Rect.block (s := S2000x128) S1000x128.size (cc13_transform_2 i) (hinb13_1 i)).WholeWords (EltTy.packing .f32)
  hrank14 : 0 < grid14.rank
  k14_off1_inb : ∀ i : grid14.Coords, ∀ a, (k14_off1 i) a + S1x1.size a ≤ S16x2000.size a
  k14_off3_inb : ∀ i : grid14.Coords, ∀ a, (k14_off3 i) a + S1x1.size a ≤ S16x2000.size a
  k14_off5_inb : ∀ i : grid14.Coords, ∀ a, (k14_off5 i) a + S1x1.size a ≤ S16x2000.size a
  k14_off7_inb : ∀ i : grid14.Coords, ∀ a, (k14_off7 i) a + S1x1.size a ≤ S16x2000.size a
  k14_off9_inb : ∀ i : grid14.Coords, ∀ a, (k14_off9 i) a + S1x1.size a ≤ S16x2000.size a
  k14_off11_inb : ∀ i : grid14.Coords, ∀ a, (k14_off11 i) a + S1x1.size a ≤ S16x2000.size a
  k14_off13_inb : ∀ i : grid14.Coords, ∀ a, (k14_off13 i) a + S1x1.size a ≤ S16x2000.size a
  k14_off15_inb : ∀ i : grid14.Coords, ∀ a, (k14_off15 i) a + S1x1.size a ≤ S16x2000.size a
  k14_off17_inb : ∀ i : grid14.Coords, ∀ a, (k14_off17 i) a + S1x1.size a ≤ S16x2000.size a
  k14_off19_inb : ∀ i : grid14.Coords, ∀ a, (k14_off19 i) a + S1x1.size a ≤ S16x2000.size a
  k14_off21_inb : ∀ i : grid14.Coords, ∀ a, (k14_off21 i) a + S1x1.size a ≤ S16x2000.size a
  k14_off23_inb : ∀ i : grid14.Coords, ∀ a, (k14_off23 i) a + S1x1.size a ≤ S16x2000.size a
  k14_off25_inb : ∀ i : grid14.Coords, ∀ a, (k14_off25 i) a + S1x1.size a ≤ S16x2000.size a
  k14_off27_inb : ∀ i : grid14.Coords, ∀ a, (k14_off27 i) a + S1x1.size a ≤ S16x2000.size a
  k14_off29_inb : ∀ i : grid14.Coords, ∀ a, (k14_off29 i) a + S1x1.size a ≤ S16x2000.size a
  k14_off31_inb : ∀ i : grid14.Coords, ∀ a, (k14_off31 i) a + S1x1.size a ≤ S16x2000.size a
  k14_off48_inb : ∀ i : grid14.Coords, ∀ a, (k14_off48 i) a + S1x128.size a ≤ S1000x128.size a
  hstage14_0 : ∀ j, (stage14_0 j).IsWhole
  nbuf14_0 : grid14.bufCount reads14_0 true = 1
  hreads14_0 : ∀ i i' : grid14.Coords, (∀ a, reads14_0 a = true → i a = i' a) → cc14_transform_1 i = cc14_transform_1 i'
  hinb14_0 : ∀ (i : grid14.Coords) a, (cc14_transform_1 i a + 1) * S128x128.size a ≤ S128x128.size a
  hwx14_0 : ∀ i : grid14.Coords, EltTy.bits .f32 = 32 ∨ (Rect.block (s := S128x128) S128x128.size (cc14_transform_1 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_2 i = cc14_transform_2 i'
  hinb14_1 : ∀ (i : grid14.Coords) a, (cc14_transform_2 i a + 1) * S1000x128.size a ≤ S2000x128.size a
  hwx14_1 : ∀ i : grid14.Coords, EltTy.bits .f32 = 32 ∨ (Rect.block (s := S2000x128) S1000x128.size (cc14_transform_2 i) (hinb14_1 i)).WholeWords (EltTy.packing .f32)
  hrank15 : 0 < grid15.rank
  k15_off1_inb : ∀ i : grid15.Coords, ∀ a, (k15_off1 i) a + S1x1.size a ≤ S16x2000.size a
  k15_off3_inb : ∀ i : grid15.Coords, ∀ a, (k15_off3 i) a + S1x1.size a ≤ S16x2000.size a
  k15_off5_inb : ∀ i : grid15.Coords, ∀ a, (k15_off5 i) a + S1x1.size a ≤ S16x2000.size a
  k15_off7_inb : ∀ i : grid15.Coords, ∀ a, (k15_off7 i) a + S1x1.size a ≤ S16x2000.size a
  k15_off9_inb : ∀ i : grid15.Coords, ∀ a, (k15_off9 i) a + S1x1.size a ≤ S16x2000.size a
  k15_off11_inb : ∀ i : grid15.Coords, ∀ a, (k15_off11 i) a + S1x1.size a ≤ S16x2000.size a
  k15_off13_inb : ∀ i : grid15.Coords, ∀ a, (k15_off13 i) a + S1x1.size a ≤ S16x2000.size a
  k15_off15_inb : ∀ i : grid15.Coords, ∀ a, (k15_off15 i) a + S1x1.size a ≤ S16x2000.size a
  k15_off17_inb : ∀ i : grid15.Coords, ∀ a, (k15_off17 i) a + S1x1.size a ≤ S16x2000.size a
  k15_off19_inb : ∀ i : grid15.Coords, ∀ a, (k15_off19 i) a + S1x1.size a ≤ S16x2000.size a
  k15_off21_inb : ∀ i : grid15.Coords, ∀ a, (k15_off21 i) a + S1x1.size a ≤ S16x2000.size a
  k15_off23_inb : ∀ i : grid15.Coords, ∀ a, (k15_off23 i) a + S1x1.size a ≤ S16x2000.size a
  k15_off25_inb : ∀ i : grid15.Coords, ∀ a, (k15_off25 i) a + S1x1.size a ≤ S16x2000.size a
  k15_off27_inb : ∀ i : grid15.Coords, ∀ a, (k15_off27 i) a + S1x1.size a ≤ S16x2000.size a
  k15_off29_inb : ∀ i : grid15.Coords, ∀ a, (k15_off29 i) a + S1x1.size a ≤ S16x2000.size a
  k15_off31_inb : ∀ i : grid15.Coords, ∀ a, (k15_off31 i) a + S1x1.size a ≤ S16x2000.size a
  k15_off48_inb : ∀ i : grid15.Coords, ∀ a, (k15_off48 i) a + S1x128.size a ≤ S1000x128.size a
  hstage15_0 : ∀ j, (stage15_0 j).IsWhole
  nbuf15_0 : grid15.bufCount reads15_0 true = 1
  hreads15_0 : ∀ i i' : grid15.Coords, (∀ a, reads15_0 a = true → i a = i' a) → cc15_transform_1 i = cc15_transform_1 i'
  hinb15_0 : ∀ (i : grid15.Coords) a, (cc15_transform_1 i a + 1) * S128x128.size a ≤ S128x128.size a
  hwx15_0 : ∀ i : grid15.Coords, EltTy.bits .f32 = 32 ∨ (Rect.block (s := S128x128) S128x128.size (cc15_transform_1 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_2 i = cc15_transform_2 i'
  hinb15_1 : ∀ (i : grid15.Coords) a, (cc15_transform_2 i a + 1) * S1000x128.size a ≤ S2000x128.size a
  hwx15_1 : ∀ i : grid15.Coords, EltTy.bits .f32 = 32 ∨ (Rect.block (s := S2000x128) S1000x128.size (cc15_transform_2 i) (hinb15_1 i)).WholeWords (EltTy.packing .f32)
  hrank16 : 0 < grid16.rank
  k16_off1_inb : ∀ i : grid16.Coords, ∀ a, (k16_off1 i) a + S1x1.size a ≤ S16x2000.size a
  k16_off3_inb : ∀ i : grid16.Coords, ∀ a, (k16_off3 i) a + S1x1.size a ≤ S16x2000.size a
  k16_off5_inb : ∀ i : grid16.Coords, ∀ a, (k16_off5 i) a + S1x1.size a ≤ S16x2000.size a
  k16_off7_inb : ∀ i : grid16.Coords, ∀ a, (k16_off7 i) a + S1x1.size a ≤ S16x2000.size a
  k16_off9_inb : ∀ i : grid16.Coords, ∀ a, (k16_off9 i) a + S1x1.size a ≤ S16x2000.size a
  k16_off11_inb : ∀ i : grid16.Coords, ∀ a, (k16_off11 i) a + S1x1.size a ≤ S16x2000.size a
  k16_off13_inb : ∀ i : grid16.Coords, ∀ a, (k16_off13 i) a + S1x1.size a ≤ S16x2000.size a
  k16_off15_inb : ∀ i : grid16.Coords, ∀ a, (k16_off15 i) a + S1x1.size a ≤ S16x2000.size a
  k16_off17_inb : ∀ i : grid16.Coords, ∀ a, (k16_off17 i) a + S1x1.size a ≤ S16x2000.size a
  k16_off19_inb : ∀ i : grid16.Coords, ∀ a, (k16_off19 i) a + S1x1.size a ≤ S16x2000.size a
  k16_off21_inb : ∀ i : grid16.Coords, ∀ a, (k16_off21 i) a + S1x1.size a ≤ S16x2000.size a
  k16_off23_inb : ∀ i : grid16.Coords, ∀ a, (k16_off23 i) a + S1x1.size a ≤ S16x2000.size a
  k16_off25_inb : ∀ i : grid16.Coords, ∀ a, (k16_off25 i) a + S1x1.size a ≤ S16x2000.size a
  k16_off27_inb : ∀ i : grid16.Coords, ∀ a, (k16_off27 i) a + S1x1.size a ≤ S16x2000.size a
  k16_off29_inb : ∀ i : grid16.Coords, ∀ a, (k16_off29 i) a + S1x1.size a ≤ S16x2000.size a
  k16_off31_inb : ∀ i : grid16.Coords, ∀ a, (k16_off31 i) a + S1x1.size a ≤ S16x2000.size a
  k16_off48_inb : ∀ i : grid16.Coords, ∀ a, (k16_off48 i) a + S1x128.size a ≤ S1000x128.size a
  hstage16_0 : ∀ j, (stage16_0 j).IsWhole
  nbuf16_0 : grid16.bufCount reads16_0 true = 1
  hreads16_0 : ∀ i i' : grid16.Coords, (∀ a, reads16_0 a = true → i a = i' a) → cc16_transform_1 i = cc16_transform_1 i'
  hinb16_0 : ∀ (i : grid16.Coords) a, (cc16_transform_1 i a + 1) * S128x128.size a ≤ S128x128.size a
  hwx16_0 : ∀ i : grid16.Coords, EltTy.bits .f32 = 32 ∨ (Rect.block (s := S128x128) S128x128.size (cc16_transform_1 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_2 i = cc16_transform_2 i'
  hinb16_1 : ∀ (i : grid16.Coords) a, (cc16_transform_2 i a + 1) * S1000x128.size a ≤ S2000x128.size a
  hwx16_1 : ∀ i : grid16.Coords, EltTy.bits .f32 = 32 ∨ (Rect.block (s := S2000x128) S1000x128.size (cc16_transform_2 i) (hinb16_1 i)).WholeWords (EltTy.packing .f32)
  hrank17 : 0 < grid17.rank
  k17_off1_inb : ∀ i : grid17.Coords, ∀ a, (k17_off1 i) a + S1x1.size a ≤ S16x2000.size a
  k17_off3_inb : ∀ i : grid17.Coords, ∀ a, (k17_off3 i) a + S1x1.size a ≤ S16x2000.size a
  k17_off5_inb : ∀ i : grid17.Coords, ∀ a, (k17_off5 i) a + S1x1.size a ≤ S16x2000.size a
  k17_off7_inb : ∀ i : grid17.Coords, ∀ a, (k17_off7 i) a + S1x1.size a ≤ S16x2000.size a
  k17_off9_inb : ∀ i : grid17.Coords, ∀ a, (k17_off9 i) a + S1x1.size a ≤ S16x2000.size a
  k17_off11_inb : ∀ i : grid17.Coords, ∀ a, (k17_off11 i) a + S1x1.size a ≤ S16x2000.size a
  k17_off13_inb : ∀ i : grid17.Coords, ∀ a, (k17_off13 i) a + S1x1.size a ≤ S16x2000.size a
  k17_off15_inb : ∀ i : grid17.Coords, ∀ a, (k17_off15 i) a + S1x1.size a ≤ S16x2000.size a
  k17_off17_inb : ∀ i : grid17.Coords, ∀ a, (k17_off17 i) a + S1x1.size a ≤ S16x2000.size a
  k17_off19_inb : ∀ i : grid17.Coords, ∀ a, (k17_off19 i) a + S1x1.size a ≤ S16x2000.size a
  k17_off21_inb : ∀ i : grid17.Coords, ∀ a, (k17_off21 i) a + S1x1.size a ≤ S16x2000.size a
  k17_off23_inb : ∀ i : grid17.Coords, ∀ a, (k17_off23 i) a + S1x1.size a ≤ S16x2000.size a
  k17_off25_inb : ∀ i : grid17.Coords, ∀ a, (k17_off25 i) a + S1x1.size a ≤ S16x2000.size a
  k17_off27_inb : ∀ i : grid17.Coords, ∀ a, (k17_off27 i) a + S1x1.size a ≤ S16x2000.size a
  k17_off29_inb : ∀ i : grid17.Coords, ∀ a, (k17_off29 i) a + S1x1.size a ≤ S16x2000.size a
  k17_off31_inb : ∀ i : grid17.Coords, ∀ a, (k17_off31 i) a + S1x1.size a ≤ S16x2000.size a
  k17_off48_inb : ∀ i : grid17.Coords, ∀ a, (k17_off48 i) a + S1x128.size a ≤ S1000x128.size a
  hstage17_0 : ∀ j, (stage17_0 j).IsWhole
  nbuf17_0 : grid17.bufCount reads17_0 true = 1
  hreads17_0 : ∀ i i' : grid17.Coords, (∀ a, reads17_0 a = true → i a = i' a) → cc17_transform_1 i = cc17_transform_1 i'
  hinb17_0 : ∀ (i : grid17.Coords) a, (cc17_transform_1 i a + 1) * S128x128.size a ≤ S128x128.size a
  hwx17_0 : ∀ i : grid17.Coords, EltTy.bits .f32 = 32 ∨ (Rect.block (s := S128x128) S128x128.size (cc17_transform_1 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_2 i = cc17_transform_2 i'
  hinb17_1 : ∀ (i : grid17.Coords) a, (cc17_transform_2 i a + 1) * S1000x128.size a ≤ S2000x128.size a
  hwx17_1 : ∀ i : grid17.Coords, EltTy.bits .f32 = 32 ∨ (Rect.block (s := S2000x128) S1000x128.size (cc17_transform_2 i) (hinb17_1 i)).WholeWords (EltTy.packing .f32)
  hrank18 : 0 < grid18.rank
  k18_off1_inb : ∀ i : grid18.Coords, ∀ a, (k18_off1 i) a + S1x1.size a ≤ S16x2000.size a
  k18_off3_inb : ∀ i : grid18.Coords, ∀ a, (k18_off3 i) a + S1x1.size a ≤ S16x2000.size a
  k18_off5_inb : ∀ i : grid18.Coords, ∀ a, (k18_off5 i) a + S1x1.size a ≤ S16x2000.size a
  k18_off7_inb : ∀ i : grid18.Coords, ∀ a, (k18_off7 i) a + S1x1.size a ≤ S16x2000.size a
  k18_off9_inb : ∀ i : grid18.Coords, ∀ a, (k18_off9 i) a + S1x1.size a ≤ S16x2000.size a
  k18_off11_inb : ∀ i : grid18.Coords, ∀ a, (k18_off11 i) a + S1x1.size a ≤ S16x2000.size a
  k18_off13_inb : ∀ i : grid18.Coords, ∀ a, (k18_off13 i) a + S1x1.size a ≤ S16x2000.size a
  k18_off15_inb : ∀ i : grid18.Coords, ∀ a, (k18_off15 i) a + S1x1.size a ≤ S16x2000.size a
  k18_off17_inb : ∀ i : grid18.Coords, ∀ a, (k18_off17 i) a + S1x1.size a ≤ S16x2000.size a
  k18_off19_inb : ∀ i : grid18.Coords, ∀ a, (k18_off19 i) a + S1x1.size a ≤ S16x2000.size a
  k18_off21_inb : ∀ i : grid18.Coords, ∀ a, (k18_off21 i) a + S1x1.size a ≤ S16x2000.size a
  k18_off23_inb : ∀ i : grid18.Coords, ∀ a, (k18_off23 i) a + S1x1.size a ≤ S16x2000.size a
  k18_off25_inb : ∀ i : grid18.Coords, ∀ a, (k18_off25 i) a + S1x1.size a ≤ S16x2000.size a
  k18_off27_inb : ∀ i : grid18.Coords, ∀ a, (k18_off27 i) a + S1x1.size a ≤ S16x2000.size a
  k18_off29_inb : ∀ i : grid18.Coords, ∀ a, (k18_off29 i) a + S1x1.size a ≤ S16x2000.size a
  k18_off31_inb : ∀ i : grid18.Coords, ∀ a, (k18_off31 i) a + S1x1.size a ≤ S16x2000.size a
  k18_off48_inb : ∀ i : grid18.Coords, ∀ a, (k18_off48 i) a + S1x128.size a ≤ S1000x128.size a
  hstage18_0 : ∀ j, (stage18_0 j).IsWhole
  nbuf18_0 : grid18.bufCount reads18_0 true = 1
  hreads18_0 : ∀ i i' : grid18.Coords, (∀ a, reads18_0 a = true → i a = i' a) → cc18_transform_1 i = cc18_transform_1 i'
  hinb18_0 : ∀ (i : grid18.Coords) a, (cc18_transform_1 i a + 1) * S128x128.size a ≤ S128x128.size a
  hwx18_0 : ∀ i : grid18.Coords, EltTy.bits .f32 = 32 ∨ (Rect.block (s := S128x128) S128x128.size (cc18_transform_1 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_2 i = cc18_transform_2 i'
  hinb18_1 : ∀ (i : grid18.Coords) a, (cc18_transform_2 i a + 1) * S1000x128.size a ≤ S2000x128.size a
  hwx18_1 : ∀ i : grid18.Coords, EltTy.bits .f32 = 32 ∨ (Rect.block (s := S2000x128) S1000x128.size (cc18_transform_2 i) (hinb18_1 i)).WholeWords (EltTy.packing .f32)
  hrank19 : 0 < grid19.rank
  k19_off1_inb : ∀ i : grid19.Coords, ∀ a, (k19_off1 i) a + S1x1.size a ≤ S16x2000.size a
  k19_off3_inb : ∀ i : grid19.Coords, ∀ a, (k19_off3 i) a + S1x1.size a ≤ S16x2000.size a
  k19_off5_inb : ∀ i : grid19.Coords, ∀ a, (k19_off5 i) a + S1x1.size a ≤ S16x2000.size a
  k19_off7_inb : ∀ i : grid19.Coords, ∀ a, (k19_off7 i) a + S1x1.size a ≤ S16x2000.size a
  k19_off9_inb : ∀ i : grid19.Coords, ∀ a, (k19_off9 i) a + S1x1.size a ≤ S16x2000.size a
  k19_off11_inb : ∀ i : grid19.Coords, ∀ a, (k19_off11 i) a + S1x1.size a ≤ S16x2000.size a
  k19_off13_inb : ∀ i : grid19.Coords, ∀ a, (k19_off13 i) a + S1x1.size a ≤ S16x2000.size a
  k19_off15_inb : ∀ i : grid19.Coords, ∀ a, (k19_off15 i) a + S1x1.size a ≤ S16x2000.size a
  k19_off17_inb : ∀ i : grid19.Coords, ∀ a, (k19_off17 i) a + S1x1.size a ≤ S16x2000.size a
  k19_off19_inb : ∀ i : grid19.Coords, ∀ a, (k19_off19 i) a + S1x1.size a ≤ S16x2000.size a
  k19_off21_inb : ∀ i : grid19.Coords, ∀ a, (k19_off21 i) a + S1x1.size a ≤ S16x2000.size a
  k19_off23_inb : ∀ i : grid19.Coords, ∀ a, (k19_off23 i) a + S1x1.size a ≤ S16x2000.size a
  k19_off25_inb : ∀ i : grid19.Coords, ∀ a, (k19_off25 i) a + S1x1.size a ≤ S16x2000.size a
  k19_off27_inb : ∀ i : grid19.Coords, ∀ a, (k19_off27 i) a + S1x1.size a ≤ S16x2000.size a
  k19_off29_inb : ∀ i : grid19.Coords, ∀ a, (k19_off29 i) a + S1x1.size a ≤ S16x2000.size a
  k19_off31_inb : ∀ i : grid19.Coords, ∀ a, (k19_off31 i) a + S1x1.size a ≤ S16x2000.size a
  k19_off48_inb : ∀ i : grid19.Coords, ∀ a, (k19_off48 i) a + S1x128.size a ≤ S1000x128.size a
  hstage19_0 : ∀ j, (stage19_0 j).IsWhole
  nbuf19_0 : grid19.bufCount reads19_0 true = 1
  hreads19_0 : ∀ i i' : grid19.Coords, (∀ a, reads19_0 a = true → i a = i' a) → cc19_transform_1 i = cc19_transform_1 i'
  hinb19_0 : ∀ (i : grid19.Coords) a, (cc19_transform_1 i a + 1) * S128x128.size a ≤ S128x128.size a
  hwx19_0 : ∀ i : grid19.Coords, EltTy.bits .f32 = 32 ∨ (Rect.block (s := S128x128) S128x128.size (cc19_transform_1 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_2 i = cc19_transform_2 i'
  hinb19_1 : ∀ (i : grid19.Coords) a, (cc19_transform_2 i a + 1) * S1000x128.size a ≤ S2000x128.size a
  hwx19_1 : ∀ i : grid19.Coords, EltTy.bits .f32 = 32 ∨ (Rect.block (s := S2000x128) S1000x128.size (cc19_transform_2 i) (hinb19_1 i)).WholeWords (EltTy.packing .f32)
  hrank20 : 0 < grid20.rank
  k20_off1_inb : ∀ i : grid20.Coords, ∀ a, (k20_off1 i) a + S1x1.size a ≤ S16x2000.size a
  k20_off3_inb : ∀ i : grid20.Coords, ∀ a, (k20_off3 i) a + S1x1.size a ≤ S16x2000.size a
  k20_off5_inb : ∀ i : grid20.Coords, ∀ a, (k20_off5 i) a + S1x1.size a ≤ S16x2000.size a
  k20_off7_inb : ∀ i : grid20.Coords, ∀ a, (k20_off7 i) a + S1x1.size a ≤ S16x2000.size a
  k20_off9_inb : ∀ i : grid20.Coords, ∀ a, (k20_off9 i) a + S1x1.size a ≤ S16x2000.size a
  k20_off11_inb : ∀ i : grid20.Coords, ∀ a, (k20_off11 i) a + S1x1.size a ≤ S16x2000.size a
  k20_off13_inb : ∀ i : grid20.Coords, ∀ a, (k20_off13 i) a + S1x1.size a ≤ S16x2000.size a
  k20_off15_inb : ∀ i : grid20.Coords, ∀ a, (k20_off15 i) a + S1x1.size a ≤ S16x2000.size a
  k20_off17_inb : ∀ i : grid20.Coords, ∀ a, (k20_off17 i) a + S1x1.size a ≤ S16x2000.size a
  k20_off19_inb : ∀ i : grid20.Coords, ∀ a, (k20_off19 i) a + S1x1.size a ≤ S16x2000.size a
  k20_off21_inb : ∀ i : grid20.Coords, ∀ a, (k20_off21 i) a + S1x1.size a ≤ S16x2000.size a
  k20_off23_inb : ∀ i : grid20.Coords, ∀ a, (k20_off23 i) a + S1x1.size a ≤ S16x2000.size a
  k20_off25_inb : ∀ i : grid20.Coords, ∀ a, (k20_off25 i) a + S1x1.size a ≤ S16x2000.size a
  k20_off27_inb : ∀ i : grid20.Coords, ∀ a, (k20_off27 i) a + S1x1.size a ≤ S16x2000.size a
  k20_off29_inb : ∀ i : grid20.Coords, ∀ a, (k20_off29 i) a + S1x1.size a ≤ S16x2000.size a
  k20_off31_inb : ∀ i : grid20.Coords, ∀ a, (k20_off31 i) a + S1x1.size a ≤ S16x2000.size a
  k20_off48_inb : ∀ i : grid20.Coords, ∀ a, (k20_off48 i) a + S1x128.size a ≤ S1000x128.size a
  hstage20_0 : ∀ j, (stage20_0 j).IsWhole
  nbuf20_0 : grid20.bufCount reads20_0 true = 1
  hreads20_0 : ∀ i i' : grid20.Coords, (∀ a, reads20_0 a = true → i a = i' a) → cc20_transform_1 i = cc20_transform_1 i'
  hinb20_0 : ∀ (i : grid20.Coords) a, (cc20_transform_1 i a + 1) * S128x128.size a ≤ S128x128.size a
  hwx20_0 : ∀ i : grid20.Coords, EltTy.bits .f32 = 32 ∨ (Rect.block (s := S128x128) S128x128.size (cc20_transform_1 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_2 i = cc20_transform_2 i'
  hinb20_1 : ∀ (i : grid20.Coords) a, (cc20_transform_2 i a + 1) * S1000x128.size a ≤ S2000x128.size a
  hwx20_1 : ∀ i : grid20.Coords, EltTy.bits .f32 = 32 ∨ (Rect.block (s := S2000x128) S1000x128.size (cc20_transform_2 i) (hinb20_1 i)).WholeWords (EltTy.packing .f32)
  hrank21 : 0 < grid21.rank
  k21_off1_inb : ∀ i : grid21.Coords, ∀ a, (k21_off1 i) a + S1x1.size a ≤ S16x2000.size a
  k21_off3_inb : ∀ i : grid21.Coords, ∀ a, (k21_off3 i) a + S1x1.size a ≤ S16x2000.size a
  k21_off5_inb : ∀ i : grid21.Coords, ∀ a, (k21_off5 i) a + S1x1.size a ≤ S16x2000.size a
  k21_off7_inb : ∀ i : grid21.Coords, ∀ a, (k21_off7 i) a + S1x1.size a ≤ S16x2000.size a
  k21_off9_inb : ∀ i : grid21.Coords, ∀ a, (k21_off9 i) a + S1x1.size a ≤ S16x2000.size a
  k21_off11_inb : ∀ i : grid21.Coords, ∀ a, (k21_off11 i) a + S1x1.size a ≤ S16x2000.size a
  k21_off13_inb : ∀ i : grid21.Coords, ∀ a, (k21_off13 i) a + S1x1.size a ≤ S16x2000.size a
  k21_off15_inb : ∀ i : grid21.Coords, ∀ a, (k21_off15 i) a + S1x1.size a ≤ S16x2000.size a
  k21_off17_inb : ∀ i : grid21.Coords, ∀ a, (k21_off17 i) a + S1x1.size a ≤ S16x2000.size a
  k21_off19_inb : ∀ i : grid21.Coords, ∀ a, (k21_off19 i) a + S1x1.size a ≤ S16x2000.size a
  k21_off21_inb : ∀ i : grid21.Coords, ∀ a, (k21_off21 i) a + S1x1.size a ≤ S16x2000.size a
  k21_off23_inb : ∀ i : grid21.Coords, ∀ a, (k21_off23 i) a + S1x1.size a ≤ S16x2000.size a
  k21_off25_inb : ∀ i : grid21.Coords, ∀ a, (k21_off25 i) a + S1x1.size a ≤ S16x2000.size a
  k21_off27_inb : ∀ i : grid21.Coords, ∀ a, (k21_off27 i) a + S1x1.size a ≤ S16x2000.size a
  k21_off29_inb : ∀ i : grid21.Coords, ∀ a, (k21_off29 i) a + S1x1.size a ≤ S16x2000.size a
  k21_off31_inb : ∀ i : grid21.Coords, ∀ a, (k21_off31 i) a + S1x1.size a ≤ S16x2000.size a
  k21_off48_inb : ∀ i : grid21.Coords, ∀ a, (k21_off48 i) a + S1x128.size a ≤ S1000x128.size a
  hstage21_0 : ∀ j, (stage21_0 j).IsWhole
  nbuf21_0 : grid21.bufCount reads21_0 true = 1
  hreads21_0 : ∀ i i' : grid21.Coords, (∀ a, reads21_0 a = true → i a = i' a) → cc21_transform_1 i = cc21_transform_1 i'
  hinb21_0 : ∀ (i : grid21.Coords) a, (cc21_transform_1 i a + 1) * S128x128.size a ≤ S128x128.size a
  hwx21_0 : ∀ i : grid21.Coords, EltTy.bits .f32 = 32 ∨ (Rect.block (s := S128x128) S128x128.size (cc21_transform_1 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_2 i = cc21_transform_2 i'
  hinb21_1 : ∀ (i : grid21.Coords) a, (cc21_transform_2 i a + 1) * S1000x128.size a ≤ S2000x128.size a
  hwx21_1 : ∀ i : grid21.Coords, EltTy.bits .f32 = 32 ∨ (Rect.block (s := S2000x128) S1000x128.size (cc21_transform_2 i) (hinb21_1 i)).WholeWords (EltTy.packing .f32)
  hrank22 : 0 < grid22.rank
  k22_off1_inb : ∀ i : grid22.Coords, ∀ a, (k22_off1 i) a + S1x1.size a ≤ S16x2000.size a
  k22_off3_inb : ∀ i : grid22.Coords, ∀ a, (k22_off3 i) a + S1x1.size a ≤ S16x2000.size a
  k22_off5_inb : ∀ i : grid22.Coords, ∀ a, (k22_off5 i) a + S1x1.size a ≤ S16x2000.size a
  k22_off7_inb : ∀ i : grid22.Coords, ∀ a, (k22_off7 i) a + S1x1.size a ≤ S16x2000.size a
  k22_off9_inb : ∀ i : grid22.Coords, ∀ a, (k22_off9 i) a + S1x1.size a ≤ S16x2000.size a
  k22_off11_inb : ∀ i : grid22.Coords, ∀ a, (k22_off11 i) a + S1x1.size a ≤ S16x2000.size a
  k22_off13_inb : ∀ i : grid22.Coords, ∀ a, (k22_off13 i) a + S1x1.size a ≤ S16x2000.size a
  k22_off15_inb : ∀ i : grid22.Coords, ∀ a, (k22_off15 i) a + S1x1.size a ≤ S16x2000.size a
  k22_off17_inb : ∀ i : grid22.Coords, ∀ a, (k22_off17 i) a + S1x1.size a ≤ S16x2000.size a
  k22_off19_inb : ∀ i : grid22.Coords, ∀ a, (k22_off19 i) a + S1x1.size a ≤ S16x2000.size a
  k22_off21_inb : ∀ i : grid22.Coords, ∀ a, (k22_off21 i) a + S1x1.size a ≤ S16x2000.size a
  k22_off23_inb : ∀ i : grid22.Coords, ∀ a, (k22_off23 i) a + S1x1.size a ≤ S16x2000.size a
  k22_off25_inb : ∀ i : grid22.Coords, ∀ a, (k22_off25 i) a + S1x1.size a ≤ S16x2000.size a
  k22_off27_inb : ∀ i : grid22.Coords, ∀ a, (k22_off27 i) a + S1x1.size a ≤ S16x2000.size a
  k22_off29_inb : ∀ i : grid22.Coords, ∀ a, (k22_off29 i) a + S1x1.size a ≤ S16x2000.size a
  k22_off31_inb : ∀ i : grid22.Coords, ∀ a, (k22_off31 i) a + S1x1.size a ≤ S16x2000.size a
  k22_off48_inb : ∀ i : grid22.Coords, ∀ a, (k22_off48 i) a + S1x128.size a ≤ S1000x128.size a
  hstage22_0 : ∀ j, (stage22_0 j).IsWhole
  nbuf22_0 : grid22.bufCount reads22_0 true = 1
  hreads22_0 : ∀ i i' : grid22.Coords, (∀ a, reads22_0 a = true → i a = i' a) → cc22_transform_1 i = cc22_transform_1 i'
  hinb22_0 : ∀ (i : grid22.Coords) a, (cc22_transform_1 i a + 1) * S128x128.size a ≤ S128x128.size a
  hwx22_0 : ∀ i : grid22.Coords, EltTy.bits .f32 = 32 ∨ (Rect.block (s := S128x128) S128x128.size (cc22_transform_1 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_2 i = cc22_transform_2 i'
  hinb22_1 : ∀ (i : grid22.Coords) a, (cc22_transform_2 i a + 1) * S1000x128.size a ≤ S2000x128.size a
  hwx22_1 : ∀ i : grid22.Coords, EltTy.bits .f32 = 32 ∨ (Rect.block (s := S2000x128) S1000x128.size (cc22_transform_2 i) (hinb22_1 i)).WholeWords (EltTy.packing .f32)
  hrank23 : 0 < grid23.rank
  k23_off1_inb : ∀ i : grid23.Coords, ∀ a, (k23_off1 i) a + S1x1.size a ≤ S16x2000.size a
  k23_off3_inb : ∀ i : grid23.Coords, ∀ a, (k23_off3 i) a + S1x1.size a ≤ S16x2000.size a
  k23_off5_inb : ∀ i : grid23.Coords, ∀ a, (k23_off5 i) a + S1x1.size a ≤ S16x2000.size a
  k23_off7_inb : ∀ i : grid23.Coords, ∀ a, (k23_off7 i) a + S1x1.size a ≤ S16x2000.size a
  k23_off9_inb : ∀ i : grid23.Coords, ∀ a, (k23_off9 i) a + S1x1.size a ≤ S16x2000.size a
  k23_off11_inb : ∀ i : grid23.Coords, ∀ a, (k23_off11 i) a + S1x1.size a ≤ S16x2000.size a
  k23_off13_inb : ∀ i : grid23.Coords, ∀ a, (k23_off13 i) a + S1x1.size a ≤ S16x2000.size a
  k23_off15_inb : ∀ i : grid23.Coords, ∀ a, (k23_off15 i) a + S1x1.size a ≤ S16x2000.size a
  k23_off17_inb : ∀ i : grid23.Coords, ∀ a, (k23_off17 i) a + S1x1.size a ≤ S16x2000.size a
  k23_off19_inb : ∀ i : grid23.Coords, ∀ a, (k23_off19 i) a + S1x1.size a ≤ S16x2000.size a
  k23_off21_inb : ∀ i : grid23.Coords, ∀ a, (k23_off21 i) a + S1x1.size a ≤ S16x2000.size a
  k23_off23_inb : ∀ i : grid23.Coords, ∀ a, (k23_off23 i) a + S1x1.size a ≤ S16x2000.size a
  k23_off25_inb : ∀ i : grid23.Coords, ∀ a, (k23_off25 i) a + S1x1.size a ≤ S16x2000.size a
  k23_off27_inb : ∀ i : grid23.Coords, ∀ a, (k23_off27 i) a + S1x1.size a ≤ S16x2000.size a
  k23_off29_inb : ∀ i : grid23.Coords, ∀ a, (k23_off29 i) a + S1x1.size a ≤ S16x2000.size a
  k23_off31_inb : ∀ i : grid23.Coords, ∀ a, (k23_off31 i) a + S1x1.size a ≤ S16x2000.size a
  k23_off48_inb : ∀ i : grid23.Coords, ∀ a, (k23_off48 i) a + S1x128.size a ≤ S1000x128.size a
  hstage23_0 : ∀ j, (stage23_0 j).IsWhole
  nbuf23_0 : grid23.bufCount reads23_0 true = 1
  hreads23_0 : ∀ i i' : grid23.Coords, (∀ a, reads23_0 a = true → i a = i' a) → cc23_transform_1 i = cc23_transform_1 i'
  hinb23_0 : ∀ (i : grid23.Coords) a, (cc23_transform_1 i a + 1) * S128x128.size a ≤ S128x128.size a
  hwx23_0 : ∀ i : grid23.Coords, EltTy.bits .f32 = 32 ∨ (Rect.block (s := S128x128) S128x128.size (cc23_transform_1 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_2 i = cc23_transform_2 i'
  hinb23_1 : ∀ (i : grid23.Coords) a, (cc23_transform_2 i a + 1) * S1000x128.size a ≤ S2000x128.size a
  hwx23_1 : ∀ i : grid23.Coords, EltTy.bits .f32 = 32 ∨ (Rect.block (s := S2000x128) S1000x128.size (cc23_transform_2 i) (hinb23_1 i)).WholeWords (EltTy.packing .f32)
  hrank24 : 0 < grid24.rank
  k24_off1_inb : ∀ i : grid24.Coords, ∀ a, (k24_off1 i) a + S1x1.size a ≤ S16x2000.size a
  k24_off3_inb : ∀ i : grid24.Coords, ∀ a, (k24_off3 i) a + S1x1.size a ≤ S16x2000.size a
  k24_off5_inb : ∀ i : grid24.Coords, ∀ a, (k24_off5 i) a + S1x1.size a ≤ S16x2000.size a
  k24_off7_inb : ∀ i : grid24.Coords, ∀ a, (k24_off7 i) a + S1x1.size a ≤ S16x2000.size a
  k24_off9_inb : ∀ i : grid24.Coords, ∀ a, (k24_off9 i) a + S1x1.size a ≤ S16x2000.size a
  k24_off11_inb : ∀ i : grid24.Coords, ∀ a, (k24_off11 i) a + S1x1.size a ≤ S16x2000.size a
  k24_off13_inb : ∀ i : grid24.Coords, ∀ a, (k24_off13 i) a + S1x1.size a ≤ S16x2000.size a
  k24_off15_inb : ∀ i : grid24.Coords, ∀ a, (k24_off15 i) a + S1x1.size a ≤ S16x2000.size a
  k24_off17_inb : ∀ i : grid24.Coords, ∀ a, (k24_off17 i) a + S1x1.size a ≤ S16x2000.size a
  k24_off19_inb : ∀ i : grid24.Coords, ∀ a, (k24_off19 i) a + S1x1.size a ≤ S16x2000.size a
  k24_off21_inb : ∀ i : grid24.Coords, ∀ a, (k24_off21 i) a + S1x1.size a ≤ S16x2000.size a
  k24_off23_inb : ∀ i : grid24.Coords, ∀ a, (k24_off23 i) a + S1x1.size a ≤ S16x2000.size a
  k24_off25_inb : ∀ i : grid24.Coords, ∀ a, (k24_off25 i) a + S1x1.size a ≤ S16x2000.size a
  k24_off27_inb : ∀ i : grid24.Coords, ∀ a, (k24_off27 i) a + S1x1.size a ≤ S16x2000.size a
  k24_off29_inb : ∀ i : grid24.Coords, ∀ a, (k24_off29 i) a + S1x1.size a ≤ S16x2000.size a
  k24_off31_inb : ∀ i : grid24.Coords, ∀ a, (k24_off31 i) a + S1x1.size a ≤ S16x2000.size a
  k24_off48_inb : ∀ i : grid24.Coords, ∀ a, (k24_off48 i) a + S1x128.size a ≤ S1000x128.size a
  hstage24_0 : ∀ j, (stage24_0 j).IsWhole
  nbuf24_0 : grid24.bufCount reads24_0 true = 1
  hreads24_0 : ∀ i i' : grid24.Coords, (∀ a, reads24_0 a = true → i a = i' a) → cc24_transform_1 i = cc24_transform_1 i'
  hinb24_0 : ∀ (i : grid24.Coords) a, (cc24_transform_1 i a + 1) * S128x128.size a ≤ S128x128.size a
  hwx24_0 : ∀ i : grid24.Coords, EltTy.bits .f32 = 32 ∨ (Rect.block (s := S128x128) S128x128.size (cc24_transform_1 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_2 i = cc24_transform_2 i'
  hinb24_1 : ∀ (i : grid24.Coords) a, (cc24_transform_2 i a + 1) * S1000x128.size a ≤ S2000x128.size a
  hwx24_1 : ∀ i : grid24.Coords, EltTy.bits .f32 = 32 ∨ (Rect.block (s := S2000x128) S1000x128.size (cc24_transform_2 i) (hinb24_1 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S5000x128.size a ≤ S50000x128.size a
  hwx25_0 : ∀ i : grid25.Coords, EltTy.bits .f32 = 32 ∨ (Rect.block (s := S50000x128) S5000x128.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S2x128.size a ≤ S2x128.size a
  hwx25_1 : ∀ i : grid25.Coords, EltTy.bits .f32 = 32 ∨ (Rect.block (s := S2x128) S2x128.size (cc25_transform_1 i) (hinb25_1 i)).WholeWords (EltTy.packing .f32)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S5000x128.size a ≤ S50000x128.size a
  hwx26_0 : ∀ i : grid26.Coords, EltTy.bits .f32 = 32 ∨ (Rect.block (s := S50000x128) S5000x128.size (cc26_transform_0 i) (hinb26_0 i)).WholeWords (EltTy.packing .f32)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S1x128.size a ≤ S1x128.size a
  hwx26_1 : ∀ i : grid26.Coords, EltTy.bits .f32 = 32 ∨ (Rect.block (s := S1x128) S1x128.size (cc26_transform_1 i) (hinb26_1 i)).WholeWords (EltTy.packing .f32)
  hstage26_2 : ∀ j, (stage26_2 j).IsWhole
  nbuf26_2 : grid26.bufCount reads26_2 true = 1
  hreads26_2 : ∀ i i' : grid26.Coords, (∀ a, reads26_2 a = true → i a = i' a) → cc26_transform_2 i = cc26_transform_2 i'
  hinb26_2 : ∀ (i : grid26.Coords) a, (cc26_transform_2 i a + 1) * S1x128.size a ≤ S1x128.size a
  hwx26_2 : ∀ i : grid26.Coords, EltTy.bits .f32 = 32 ∨ (Rect.block (s := S1x128) S1x128.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S5000x128.size a ≤ S50000x128.size a
  hwx26_3 : ∀ i : grid26.Coords, EltTy.bits .f32 = 32 ∨ (Rect.block (s := S50000x128) S5000x128.size (cc26_transform_3 i) (hinb26_3 i)).WholeWords (EltTy.packing .f32)

variable [Facts₀]

abbrev cc0_scratch2 : DmaSems sig S16 := SemArray.consecutive 3 S16 hcc0_scratch2
abbrev cc1_scratch2 : DmaSems sig S16 := SemArray.consecutive 22 S16 hcc1_scratch2
abbrev cc2_scratch2 : DmaSems sig S16 := SemArray.consecutive 41 S16 hcc2_scratch2
abbrev cc3_scratch2 : DmaSems sig S16 := SemArray.consecutive 60 S16 hcc3_scratch2
abbrev cc4_scratch2 : DmaSems sig S16 := SemArray.consecutive 79 S16 hcc4_scratch2
abbrev cc5_scratch2 : DmaSems sig S16 := SemArray.consecutive 98 S16 hcc5_scratch2
abbrev cc6_scratch2 : DmaSems sig S16 := SemArray.consecutive 117 S16 hcc6_scratch2
abbrev cc7_scratch2 : DmaSems sig S16 := SemArray.consecutive 136 S16 hcc7_scratch2
abbrev cc8_scratch2 : DmaSems sig S16 := SemArray.consecutive 155 S16 hcc8_scratch2
abbrev cc9_scratch2 : DmaSems sig S16 := SemArray.consecutive 174 S16 hcc9_scratch2
abbrev cc10_scratch2 : DmaSems sig S16 := SemArray.consecutive 193 S16 hcc10_scratch2
abbrev cc11_scratch2 : DmaSems sig S16 := SemArray.consecutive 212 S16 hcc11_scratch2
abbrev cc12_scratch2 : DmaSems sig S16 := SemArray.consecutive 231 S16 hcc12_scratch2
abbrev cc13_scratch2 : DmaSems sig S16 := SemArray.consecutive 250 S16 hcc13_scratch2
abbrev cc14_scratch2 : DmaSems sig S16 := SemArray.consecutive 269 S16 hcc14_scratch2
abbrev cc15_scratch2 : DmaSems sig S16 := SemArray.consecutive 288 S16 hcc15_scratch2
abbrev cc16_scratch2 : DmaSems sig S16 := SemArray.consecutive 307 S16 hcc16_scratch2
abbrev cc17_scratch2 : DmaSems sig S16 := SemArray.consecutive 326 S16 hcc17_scratch2
abbrev cc18_scratch2 : DmaSems sig S16 := SemArray.consecutive 345 S16 hcc18_scratch2
abbrev cc19_scratch2 : DmaSems sig S16 := SemArray.consecutive 364 S16 hcc19_scratch2
abbrev cc20_scratch2 : DmaSems sig S16 := SemArray.consecutive 383 S16 hcc20_scratch2
abbrev cc21_scratch2 : DmaSems sig S16 := SemArray.consecutive 402 S16 hcc21_scratch2
abbrev cc22_scratch2 : DmaSems sig S16 := SemArray.consecutive 421 S16 hcc22_scratch2
abbrev cc23_scratch2 : DmaSems sig S16 := SemArray.consecutive 440 S16 hcc23_scratch2
abbrev cc24_scratch2 : DmaSems sig S16 := SemArray.consecutive 459 S16 hcc24_scratch2
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev spec0_0 : Pipeline.WinSpec sig grid0.rank :=
  Pipeline.WinSpec.ofSpec (Memref.whole main_arg1) S128x128.size reads0_0 false true 1 stage0_0 sem0_0 nbuf0_0 hstage0_0

abbrev spec0_1 : Pipeline.WinSpec sig grid0.rank :=
  Pipeline.WinSpec.ofSpec (Memref.whole main_v2) S1000x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev idle0 : Fin 2 → grid0.Coords → Bool := fun | 0 => fun _ => false | 1 => fun i => !(k0_cond1 i == 1#1) | ⟨_ + 2, h⟩ => absurd h (Nat.not_lt.2 (Nat.le_add_left _ _))

abbrev spec1_0 : Pipeline.WinSpec sig grid1.rank :=
  Pipeline.WinSpec.ofSpec (Memref.whole main_arg1) S128x128.size reads1_0 false true 1 stage1_0 sem1_0 nbuf1_0 hstage1_0

abbrev spec1_1 : Pipeline.WinSpec sig grid1.rank :=
  Pipeline.WinSpec.ofSpec (Memref.whole main_v4) S1000x128.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_1 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))
abbrev idle1 : Fin 2 → grid1.Coords → Bool := fun | 0 => fun _ => false | 1 => fun i => !(k1_cond1 i == 1#1) | ⟨_ + 2, h⟩ => absurd h (Nat.not_lt.2 (Nat.le_add_left _ _))

abbrev spec2_0 : Pipeline.WinSpec sig grid2.rank :=
  Pipeline.WinSpec.ofSpec (Memref.whole main_arg1) S128x128.size reads2_0 false true 1 stage2_0 sem2_0 nbuf2_0 hstage2_0

abbrev spec2_1 : Pipeline.WinSpec sig grid2.rank :=
  Pipeline.WinSpec.ofSpec (Memref.whole main_v6) S1000x128.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_1 | 1 => cc2_transform_2 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | ⟨_ + 2, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | ⟨_ + 2, h⟩ => absurd h (Nat.not_lt.2 (Nat.le_add_left _ _))
abbrev idle2 : Fin 2 → grid2.Coords → Bool := fun | 0 => fun _ => false | 1 => fun i => !(k2_cond1 i == 1#1) | ⟨_ + 2, h⟩ => absurd h (Nat.not_lt.2 (Nat.le_add_left _ _))

abbrev spec3_0 : Pipeline.WinSpec sig grid3.rank :=
  Pipeline.WinSpec.ofSpec (Memref.whole main_arg1) S128x128.size reads3_0 false true 1 stage3_0 sem3_0 nbuf3_0 hstage3_0

abbrev spec3_1 : Pipeline.WinSpec sig grid3.rank :=
  Pipeline.WinSpec.ofSpec (Memref.whole main_v8) S1000x128.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_1 | 1 => cc3_transform_2 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | ⟨_ + 2, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | ⟨_ + 2, h⟩ => absurd h (Nat.not_lt.2 (Nat.le_add_left _ _))
abbrev idle3 : Fin 2 → grid3.Coords → Bool := fun | 0 => fun _ => false | 1 => fun i => !(k3_cond1 i == 1#1) | ⟨_ + 2, h⟩ => absurd h (Nat.not_lt.2 (Nat.le_add_left _ _))

abbrev spec4_0 : Pipeline.WinSpec sig grid4.rank :=
  Pipeline.WinSpec.ofSpec (Memref.whole main_arg1) S128x128.size reads4_0 false true 1 stage4_0 sem4_0 nbuf4_0 hstage4_0

abbrev spec4_1 : Pipeline.WinSpec sig grid4.rank :=
  Pipeline.WinSpec.ofSpec (Memref.whole main_v10) S1000x128.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_1 | 1 => cc4_transform_2 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | ⟨_ + 2, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | ⟨_ + 2, h⟩ => absurd h (Nat.not_lt.2 (Nat.le_add_left _ _))
abbrev idle4 : Fin 2 → grid4.Coords → Bool := fun | 0 => fun _ => false | 1 => fun i => !(k4_cond1 i == 1#1) | ⟨_ + 2, h⟩ => absurd h (Nat.not_lt.2 (Nat.le_add_left _ _))

abbrev spec5_0 : Pipeline.WinSpec sig grid5.rank :=
  Pipeline.WinSpec.ofSpec (Memref.whole main_arg1) S128x128.size reads5_0 false true 1 stage5_0 sem5_0 nbuf5_0 hstage5_0

abbrev spec5_1 : Pipeline.WinSpec sig grid5.rank :=
  Pipeline.WinSpec.ofSpec (Memref.whole main_v12) S1000x128.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_1 | 1 => cc5_transform_2 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | ⟨_ + 2, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | ⟨_ + 2, h⟩ => absurd h (Nat.not_lt.2 (Nat.le_add_left _ _))
abbrev idle5 : Fin 2 → grid5.Coords → Bool := fun | 0 => fun _ => false | 1 => fun i => !(k5_cond1 i == 1#1) | ⟨_ + 2, h⟩ => absurd h (Nat.not_lt.2 (Nat.le_add_left _ _))

abbrev spec6_0 : Pipeline.WinSpec sig grid6.rank :=
  Pipeline.WinSpec.ofSpec (Memref.whole main_arg1) S128x128.size reads6_0 false true 1 stage6_0 sem6_0 nbuf6_0 hstage6_0

abbrev spec6_1 : Pipeline.WinSpec sig grid6.rank :=
  Pipeline.WinSpec.ofSpec (Memref.whole main_v14) S1000x128.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_1 | 1 => cc6_transform_2 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | 1 => hreads6_1 | ⟨_ + 2, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | 1 => hwx6_1 | ⟨_ + 2, h⟩ => absurd h (Nat.not_lt.2 (Nat.le_add_left _ _))
abbrev idle6 : Fin 2 → grid6.Coords → Bool := fun | 0 => fun _ => false | 1 => fun i => !(k6_cond1 i == 1#1) | ⟨_ + 2, h⟩ => absurd h (Nat.not_lt.2 (Nat.le_add_left _ _))

abbrev spec7_0 : Pipeline.WinSpec sig grid7.rank :=
  Pipeline.WinSpec.ofSpec (Memref.whole main_arg1) S128x128.size reads7_0 false true 1 stage7_0 sem7_0 nbuf7_0 hstage7_0

abbrev spec7_1 : Pipeline.WinSpec sig grid7.rank :=
  Pipeline.WinSpec.ofSpec (Memref.whole main_v16) S1000x128.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_1 | 1 => cc7_transform_2 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | ⟨_ + 2, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | ⟨_ + 2, h⟩ => absurd h (Nat.not_lt.2 (Nat.le_add_left _ _))
abbrev idle7 : Fin 2 → grid7.Coords → Bool := fun | 0 => fun _ => false | 1 => fun i => !(k7_cond1 i == 1#1) | ⟨_ + 2, h⟩ => absurd h (Nat.not_lt.2 (Nat.le_add_left _ _))

abbrev spec8_0 : Pipeline.WinSpec sig grid8.rank :=
  Pipeline.WinSpec.ofSpec (Memref.whole main_arg1) S128x128.size reads8_0 false true 1 stage8_0 sem8_0 nbuf8_0 hstage8_0

abbrev spec8_1 : Pipeline.WinSpec sig grid8.rank :=
  Pipeline.WinSpec.ofSpec (Memref.whole main_v18) S1000x128.size reads8_1 true false 2 stage8_1 sem8_1 nbuf8_1 hstage8_1

abbrev spec8 : Fin 2 → Pipeline.WinSpec sig grid8.rank := fun | 0 => spec8_0 | 1 => spec8_1 | ⟨_ + 2, h⟩ => absurd h (Nat.not_lt.2 (Nat.le_add_left _ _))
theorem hcount8 : ∀ w, grid8.bufCount (spec8 w).reads (spec8 w).sync = (spec8 w).nbuf := fun | 0 => nbuf8_0 | 1 => nbuf8_1 | ⟨_ + 2, h⟩ => absurd h (Nat.not_lt.2 (Nat.le_add_left _ _))
abbrev ix8 (pf : pre8.Contents (Elt F)) : (w : Fin 2) → grid8.Coords → Fin (spec8 w).shape.rank → Nat := fun | 0 => cc8_transform_1 | 1 => cc8_transform_2 | ⟨_ + 2, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | 1 => hreads8_1 | ⟨_ + 2, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | 1 => hinb8_1 | ⟨_ + 2, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | 1 => hwx8_1 | ⟨_ + 2, h⟩ => absurd h (Nat.not_lt.2 (Nat.le_add_left _ _))
abbrev idle8 : Fin 2 → grid8.Coords → Bool := fun | 0 => fun _ => false | 1 => fun i => !(k8_cond1 i == 1#1) | ⟨_ + 2, h⟩ => absurd h (Nat.not_lt.2 (Nat.le_add_left _ _))

abbrev spec9_0 : Pipeline.WinSpec sig grid9.rank :=
  Pipeline.WinSpec.ofSpec (Memref.whole main_arg1) S128x128.size reads9_0 false true 1 stage9_0 sem9_0 nbuf9_0 hstage9_0

abbrev spec9_1 : Pipeline.WinSpec sig grid9.rank :=
  Pipeline.WinSpec.ofSpec (Memref.whole main_v20) S1000x128.size reads9_1 true false 2 stage9_1 sem9_1 nbuf9_1 hstage9_1

abbrev spec9 : Fin 2 → Pipeline.WinSpec sig grid9.rank := fun | 0 => spec9_0 | 1 => spec9_1 | ⟨_ + 2, h⟩ => absurd h (Nat.not_lt.2 (Nat.le_add_left _ _))
theorem hcount9 : ∀ w, grid9.bufCount (spec9 w).reads (spec9 w).sync = (spec9 w).nbuf := fun | 0 => nbuf9_0 | 1 => nbuf9_1 | ⟨_ + 2, h⟩ => absurd h (Nat.not_lt.2 (Nat.le_add_left _ _))
abbrev ix9 (pf : pre9.Contents (Elt F)) : (w : Fin 2) → grid9.Coords → Fin (spec9 w).shape.rank → Nat := fun | 0 => cc9_transform_1 | 1 => cc9_transform_2 | ⟨_ + 2, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 | 1 => hreads9_1 | ⟨_ + 2, h⟩ => absurd h (Nat.not_lt.2 (Nat.le_add_left _ _))
def ok9 (_ : pre9.Contents (Elt F)) : Prop :=
  True
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun _ _ => fun | 0 => hinb9_0 | 1 => hinb9_1 | ⟨_ + 2, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun _ _ => fun | 0 => hwx9_0 | 1 => hwx9_1 | ⟨_ + 2, h⟩ => absurd h (Nat.not_lt.2 (Nat.le_add_left _ _))
abbrev idle9 : Fin 2 → grid9.Coords → Bool := fun | 0 => fun _ => false | 1 => fun i => !(k9_cond1 i == 1#1) | ⟨_ + 2, h⟩ => absurd h (Nat.not_lt.2 (Nat.le_add_left _ _))

abbrev spec10_0 : Pipeline.WinSpec sig grid10.rank :=
  Pipeline.WinSpec.ofSpec (Memref.whole main_arg1) S128x128.size reads10_0 false true 1 stage10_0 sem10_0 nbuf10_0 hstage10_0

abbrev spec10_1 : Pipeline.WinSpec sig grid10.rank :=
  Pipeline.WinSpec.ofSpec (Memref.whole main_v22) S1000x128.size reads10_1 true false 2 stage10_1 sem10_1 nbuf10_1 hstage10_1

abbrev spec10 : Fin 2 → Pipeline.WinSpec sig grid10.rank := fun | 0 => spec10_0 | 1 => spec10_1 | ⟨_ + 2, h⟩ => absurd h (Nat.not_lt.2 (Nat.le_add_left _ _))
theorem hcount10 : ∀ w, grid10.bufCount (spec10 w).reads (spec10 w).sync = (spec10 w).nbuf := fun | 0 => nbuf10_0 | 1 => nbuf10_1 | ⟨_ + 2, h⟩ => absurd h (Nat.not_lt.2 (Nat.le_add_left _ _))
abbrev ix10 (pf : pre10.Contents (Elt F)) : (w : Fin 2) → grid10.Coords → Fin (spec10 w).shape.rank → Nat := fun | 0 => cc10_transform_1 | 1 => cc10_transform_2 | ⟨_ + 2, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 | 1 => hreads10_1 | ⟨_ + 2, h⟩ => absurd h (Nat.not_lt.2 (Nat.le_add_left _ _))
def ok10 (_ : pre10.Contents (Elt F)) : Prop :=
  True
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun _ _ => fun | 0 => hinb10_0 | 1 => hinb10_1 | ⟨_ + 2, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun _ _ => fun | 0 => hwx10_0 | 1 => hwx10_1 | ⟨_ + 2, h⟩ => absurd h (Nat.not_lt.2 (Nat.le_add_left _ _))
abbrev idle10 : Fin 2 → grid10.Coords → Bool := fun | 0 => fun _ => false | 1 => fun i => !(k10_cond1 i == 1#1) | ⟨_ + 2, h⟩ => absurd h (Nat.not_lt.2 (Nat.le_add_left _ _))

abbrev spec11_0 : Pipeline.WinSpec sig grid11.rank :=
  Pipeline.WinSpec.ofSpec (Memref.whole main_arg1) S128x128.size reads11_0 false true 1 stage11_0 sem11_0 nbuf11_0 hstage11_0

abbrev spec11_1 : Pipeline.WinSpec sig grid11.rank :=
  Pipeline.WinSpec.ofSpec (Memref.whole main_v24) S1000x128.size reads11_1 true false 2 stage11_1 sem11_1 nbuf11_1 hstage11_1

abbrev spec11 : Fin 2 → Pipeline.WinSpec sig grid11.rank := fun | 0 => spec11_0 | 1 => spec11_1 | ⟨_ + 2, h⟩ => absurd h (Nat.not_lt.2 (Nat.le_add_left _ _))
theorem hcount11 : ∀ w, grid11.bufCount (spec11 w).reads (spec11 w).sync = (spec11 w).nbuf := fun | 0 => nbuf11_0 | 1 => nbuf11_1 | ⟨_ + 2, h⟩ => absurd h (Nat.not_lt.2 (Nat.le_add_left _ _))
abbrev ix11 (pf : pre11.Contents (Elt F)) : (w : Fin 2) → grid11.Coords → Fin (spec11 w).shape.rank → Nat := fun | 0 => cc11_transform_1 | 1 => cc11_transform_2 | ⟨_ + 2, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 | 1 => hreads11_1 | ⟨_ + 2, h⟩ => absurd h (Nat.not_lt.2 (Nat.le_add_left _ _))
def ok11 (_ : pre11.Contents (Elt F)) : Prop :=
  True
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun _ _ => fun | 0 => hinb11_0 | 1 => hinb11_1 | ⟨_ + 2, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun _ _ => fun | 0 => hwx11_0 | 1 => hwx11_1 | ⟨_ + 2, h⟩ => absurd h (Nat.not_lt.2 (Nat.le_add_left _ _))
abbrev idle11 : Fin 2 → grid11.Coords → Bool := fun | 0 => fun _ => false | 1 => fun i => !(k11_cond1 i == 1#1) | ⟨_ + 2, h⟩ => absurd h (Nat.not_lt.2 (Nat.le_add_left _ _))

abbrev spec12_0 : Pipeline.WinSpec sig grid12.rank :=
  Pipeline.WinSpec.ofSpec (Memref.whole main_arg1) S128x128.size reads12_0 false true 1 stage12_0 sem12_0 nbuf12_0 hstage12_0

abbrev spec12_1 : Pipeline.WinSpec sig grid12.rank :=
  Pipeline.WinSpec.ofSpec (Memref.whole main_v26) S1000x128.size reads12_1 true false 2 stage12_1 sem12_1 nbuf12_1 hstage12_1

abbrev spec12 : Fin 2 → Pipeline.WinSpec sig grid12.rank := fun | 0 => spec12_0 | 1 => spec12_1 | ⟨_ + 2, h⟩ => absurd h (Nat.not_lt.2 (Nat.le_add_left _ _))
theorem hcount12 : ∀ w, grid12.bufCount (spec12 w).reads (spec12 w).sync = (spec12 w).nbuf := fun | 0 => nbuf12_0 | 1 => nbuf12_1 | ⟨_ + 2, h⟩ => absurd h (Nat.not_lt.2 (Nat.le_add_left _ _))
abbrev ix12 (pf : pre12.Contents (Elt F)) : (w : Fin 2) → grid12.Coords → Fin (spec12 w).shape.rank → Nat := fun | 0 => cc12_transform_1 | 1 => cc12_transform_2 | ⟨_ + 2, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 | 1 => hreads12_1 | ⟨_ + 2, h⟩ => absurd h (Nat.not_lt.2 (Nat.le_add_left _ _))
def ok12 (_ : pre12.Contents (Elt F)) : Prop :=
  True
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun _ _ => fun | 0 => hinb12_0 | 1 => hinb12_1 | ⟨_ + 2, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun _ _ => fun | 0 => hwx12_0 | 1 => hwx12_1 | ⟨_ + 2, h⟩ => absurd h (Nat.not_lt.2 (Nat.le_add_left _ _))
abbrev idle12 : Fin 2 → grid12.Coords → Bool := fun | 0 => fun _ => false | 1 => fun i => !(k12_cond1 i == 1#1) | ⟨_ + 2, h⟩ => absurd h (Nat.not_lt.2 (Nat.le_add_left _ _))

abbrev spec13_0 : Pipeline.WinSpec sig grid13.rank :=
  Pipeline.WinSpec.ofSpec (Memref.whole main_arg1) S128x128.size reads13_0 false true 1 stage13_0 sem13_0 nbuf13_0 hstage13_0

abbrev spec13_1 : Pipeline.WinSpec sig grid13.rank :=
  Pipeline.WinSpec.ofSpec (Memref.whole main_v28) S1000x128.size reads13_1 true false 2 stage13_1 sem13_1 nbuf13_1 hstage13_1

abbrev spec13 : Fin 2 → Pipeline.WinSpec sig grid13.rank := fun | 0 => spec13_0 | 1 => spec13_1 | ⟨_ + 2, h⟩ => absurd h (Nat.not_lt.2 (Nat.le_add_left _ _))
theorem hcount13 : ∀ w, grid13.bufCount (spec13 w).reads (spec13 w).sync = (spec13 w).nbuf := fun | 0 => nbuf13_0 | 1 => nbuf13_1 | ⟨_ + 2, h⟩ => absurd h (Nat.not_lt.2 (Nat.le_add_left _ _))
abbrev ix13 (pf : pre13.Contents (Elt F)) : (w : Fin 2) → grid13.Coords → Fin (spec13 w).shape.rank → Nat := fun | 0 => cc13_transform_1 | 1 => cc13_transform_2 | ⟨_ + 2, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 | 1 => hreads13_1 | ⟨_ + 2, h⟩ => absurd h (Nat.not_lt.2 (Nat.le_add_left _ _))
def ok13 (_ : pre13.Contents (Elt F)) : Prop :=
  True
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun _ _ => fun | 0 => hinb13_0 | 1 => hinb13_1 | ⟨_ + 2, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun _ _ => fun | 0 => hwx13_0 | 1 => hwx13_1 | ⟨_ + 2, h⟩ => absurd h (Nat.not_lt.2 (Nat.le_add_left _ _))
abbrev idle13 : Fin 2 → grid13.Coords → Bool := fun | 0 => fun _ => false | 1 => fun i => !(k13_cond1 i == 1#1) | ⟨_ + 2, h⟩ => absurd h (Nat.not_lt.2 (Nat.le_add_left _ _))

abbrev spec14_0 : Pipeline.WinSpec sig grid14.rank :=
  Pipeline.WinSpec.ofSpec (Memref.whole main_arg1) S128x128.size reads14_0 false true 1 stage14_0 sem14_0 nbuf14_0 hstage14_0

abbrev spec14_1 : Pipeline.WinSpec sig grid14.rank :=
  Pipeline.WinSpec.ofSpec (Memref.whole main_v30) S1000x128.size reads14_1 true false 2 stage14_1 sem14_1 nbuf14_1 hstage14_1

abbrev spec14 : Fin 2 → Pipeline.WinSpec sig grid14.rank := fun | 0 => spec14_0 | 1 => spec14_1 | ⟨_ + 2, h⟩ => absurd h (Nat.not_lt.2 (Nat.le_add_left _ _))
theorem hcount14 : ∀ w, grid14.bufCount (spec14 w).reads (spec14 w).sync = (spec14 w).nbuf := fun | 0 => nbuf14_0 | 1 => nbuf14_1 | ⟨_ + 2, h⟩ => absurd h (Nat.not_lt.2 (Nat.le_add_left _ _))
abbrev ix14 (pf : pre14.Contents (Elt F)) : (w : Fin 2) → grid14.Coords → Fin (spec14 w).shape.rank → Nat := fun | 0 => cc14_transform_1 | 1 => cc14_transform_2 | ⟨_ + 2, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 | 1 => hreads14_1 | ⟨_ + 2, h⟩ => absurd h (Nat.not_lt.2 (Nat.le_add_left _ _))
def ok14 (_ : pre14.Contents (Elt F)) : Prop :=
  True
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun _ _ => fun | 0 => hinb14_0 | 1 => hinb14_1 | ⟨_ + 2, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun _ _ => fun | 0 => hwx14_0 | 1 => hwx14_1 | ⟨_ + 2, h⟩ => absurd h (Nat.not_lt.2 (Nat.le_add_left _ _))
abbrev idle14 : Fin 2 → grid14.Coords → Bool := fun | 0 => fun _ => false | 1 => fun i => !(k14_cond1 i == 1#1) | ⟨_ + 2, h⟩ => absurd h (Nat.not_lt.2 (Nat.le_add_left _ _))

abbrev spec15_0 : Pipeline.WinSpec sig grid15.rank :=
  Pipeline.WinSpec.ofSpec (Memref.whole main_arg1) S128x128.size reads15_0 false true 1 stage15_0 sem15_0 nbuf15_0 hstage15_0

abbrev spec15_1 : Pipeline.WinSpec sig grid15.rank :=
  Pipeline.WinSpec.ofSpec (Memref.whole main_v32) S1000x128.size reads15_1 true false 2 stage15_1 sem15_1 nbuf15_1 hstage15_1

abbrev spec15 : Fin 2 → Pipeline.WinSpec sig grid15.rank := fun | 0 => spec15_0 | 1 => spec15_1 | ⟨_ + 2, h⟩ => absurd h (Nat.not_lt.2 (Nat.le_add_left _ _))
theorem hcount15 : ∀ w, grid15.bufCount (spec15 w).reads (spec15 w).sync = (spec15 w).nbuf := fun | 0 => nbuf15_0 | 1 => nbuf15_1 | ⟨_ + 2, h⟩ => absurd h (Nat.not_lt.2 (Nat.le_add_left _ _))
abbrev ix15 (pf : pre15.Contents (Elt F)) : (w : Fin 2) → grid15.Coords → Fin (spec15 w).shape.rank → Nat := fun | 0 => cc15_transform_1 | 1 => cc15_transform_2 | ⟨_ + 2, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 | 1 => hreads15_1 | ⟨_ + 2, h⟩ => absurd h (Nat.not_lt.2 (Nat.le_add_left _ _))
def ok15 (_ : pre15.Contents (Elt F)) : Prop :=
  True
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun _ _ => fun | 0 => hinb15_0 | 1 => hinb15_1 | ⟨_ + 2, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun _ _ => fun | 0 => hwx15_0 | 1 => hwx15_1 | ⟨_ + 2, h⟩ => absurd h (Nat.not_lt.2 (Nat.le_add_left _ _))
abbrev idle15 : Fin 2 → grid15.Coords → Bool := fun | 0 => fun _ => false | 1 => fun i => !(k15_cond1 i == 1#1) | ⟨_ + 2, h⟩ => absurd h (Nat.not_lt.2 (Nat.le_add_left _ _))

abbrev spec16_0 : Pipeline.WinSpec sig grid16.rank :=
  Pipeline.WinSpec.ofSpec (Memref.whole main_arg1) S128x128.size reads16_0 false true 1 stage16_0 sem16_0 nbuf16_0 hstage16_0

abbrev spec16_1 : Pipeline.WinSpec sig grid16.rank :=
  Pipeline.WinSpec.ofSpec (Memref.whole main_v34) S1000x128.size reads16_1 true false 2 stage16_1 sem16_1 nbuf16_1 hstage16_1

abbrev spec16 : Fin 2 → Pipeline.WinSpec sig grid16.rank := fun | 0 => spec16_0 | 1 => spec16_1 | ⟨_ + 2, h⟩ => absurd h (Nat.not_lt.2 (Nat.le_add_left _ _))
theorem hcount16 : ∀ w, grid16.bufCount (spec16 w).reads (spec16 w).sync = (spec16 w).nbuf := fun | 0 => nbuf16_0 | 1 => nbuf16_1 | ⟨_ + 2, h⟩ => absurd h (Nat.not_lt.2 (Nat.le_add_left _ _))
abbrev ix16 (pf : pre16.Contents (Elt F)) : (w : Fin 2) → grid16.Coords → Fin (spec16 w).shape.rank → Nat := fun | 0 => cc16_transform_1 | 1 => cc16_transform_2 | ⟨_ + 2, h⟩ => absurd h (Nat.not_lt.2 (Nat.le_add_left _ _))
theorem hreads16 : ∀ (pf : pre16.Contents (Elt F)) w (i i' : grid16.Coords), (∀ a, (spec16 w).reads a = true → i a = i' a) → ix16 pf w i = ix16 pf w i' := fun pf => fun | 0 => hreads16_0 | 1 => hreads16_1 | ⟨_ + 2, h⟩ => absurd h (Nat.not_lt.2 (Nat.le_add_left _ _))
def ok16 (_ : pre16.Contents (Elt F)) : Prop :=
  True
instance (pf : pre16.Contents (Elt F)) : Decidable (ok16 pf) := decidable_of_iff' _ (Iff.of_eq (ok16.eq_1 pf))
theorem hinb16 : ∀ (pf : pre16.Contents (Elt F)), ok16 pf → ∀ w (i : grid16.Coords) a, (ix16 pf w i a + 1) * (spec16 w).size a ≤ (spec16 w).shape.size a :=
  fun _ _ => fun | 0 => hinb16_0 | 1 => hinb16_1 | ⟨_ + 2, h⟩ => absurd h (Nat.not_lt.2 (Nat.le_add_left _ _))
theorem hwx16 : ∀ (pf : pre16.Contents (Elt F)) (hok : ok16 pf) w (i : grid16.Coords), (spec16 w).elt.bits = 32 ∨ (Rect.block (spec16 w).size (ix16 pf w i) (hinb16 pf hok w i)).WholeWords (spec16 w).elt.packing :=
  fun _ _ => fun | 0 => hwx16_0 | 1 => hwx16_1 | ⟨_ + 2, h⟩ => absurd h (Nat.not_lt.2 (Nat.le_add_left _ _))
abbrev idle16 : Fin 2 → grid16.Coords → Bool := fun | 0 => fun _ => false | 1 => fun i => !(k16_cond1 i == 1#1) | ⟨_ + 2, h⟩ => absurd h (Nat.not_lt.2 (Nat.le_add_left _ _))

abbrev spec17_0 : Pipeline.WinSpec sig grid17.rank :=
  Pipeline.WinSpec.ofSpec (Memref.whole main_arg1) S128x128.size reads17_0 false true 1 stage17_0 sem17_0 nbuf17_0 hstage17_0

abbrev spec17_1 : Pipeline.WinSpec sig grid17.rank :=
  Pipeline.WinSpec.ofSpec (Memref.whole main_v36) S1000x128.size reads17_1 true false 2 stage17_1 sem17_1 nbuf17_1 hstage17_1

abbrev spec17 : Fin 2 → Pipeline.WinSpec sig grid17.rank := fun | 0 => spec17_0 | 1 => spec17_1 | ⟨_ + 2, h⟩ => absurd h (Nat.not_lt.2 (Nat.le_add_left _ _))
theorem hcount17 : ∀ w, grid17.bufCount (spec17 w).reads (spec17 w).sync = (spec17 w).nbuf := fun | 0 => nbuf17_0 | 1 => nbuf17_1 | ⟨_ + 2, h⟩ => absurd h (Nat.not_lt.2 (Nat.le_add_left _ _))
abbrev ix17 (pf : pre17.Contents (Elt F)) : (w : Fin 2) → grid17.Coords → Fin (spec17 w).shape.rank → Nat := fun | 0 => cc17_transform_1 | 1 => cc17_transform_2 | ⟨_ + 2, h⟩ => absurd h (Nat.not_lt.2 (Nat.le_add_left _ _))
theorem hreads17 : ∀ (pf : pre17.Contents (Elt F)) w (i i' : grid17.Coords), (∀ a, (spec17 w).reads a = true → i a = i' a) → ix17 pf w i = ix17 pf w i' := fun pf => fun | 0 => hreads17_0 | 1 => hreads17_1 | ⟨_ + 2, h⟩ => absurd h (Nat.not_lt.2 (Nat.le_add_left _ _))
def ok17 (_ : pre17.Contents (Elt F)) : Prop :=
  True
instance (pf : pre17.Contents (Elt F)) : Decidable (ok17 pf) := decidable_of_iff' _ (Iff.of_eq (ok17.eq_1 pf))
theorem hinb17 : ∀ (pf : pre17.Contents (Elt F)), ok17 pf → ∀ w (i : grid17.Coords) a, (ix17 pf w i a + 1) * (spec17 w).size a ≤ (spec17 w).shape.size a :=
  fun _ _ => fun | 0 => hinb17_0 | 1 => hinb17_1 | ⟨_ + 2, h⟩ => absurd h (Nat.not_lt.2 (Nat.le_add_left _ _))
theorem hwx17 : ∀ (pf : pre17.Contents (Elt F)) (hok : ok17 pf) w (i : grid17.Coords), (spec17 w).elt.bits = 32 ∨ (Rect.block (spec17 w).size (ix17 pf w i) (hinb17 pf hok w i)).WholeWords (spec17 w).elt.packing :=
  fun _ _ => fun | 0 => hwx17_0 | 1 => hwx17_1 | ⟨_ + 2, h⟩ => absurd h (Nat.not_lt.2 (Nat.le_add_left _ _))
abbrev idle17 : Fin 2 → grid17.Coords → Bool := fun | 0 => fun _ => false | 1 => fun i => !(k17_cond1 i == 1#1) | ⟨_ + 2, h⟩ => absurd h (Nat.not_lt.2 (Nat.le_add_left _ _))

abbrev spec18_0 : Pipeline.WinSpec sig grid18.rank :=
  Pipeline.WinSpec.ofSpec (Memref.whole main_arg1) S128x128.size reads18_0 false true 1 stage18_0 sem18_0 nbuf18_0 hstage18_0

abbrev spec18_1 : Pipeline.WinSpec sig grid18.rank :=
  Pipeline.WinSpec.ofSpec (Memref.whole main_v38) S1000x128.size reads18_1 true false 2 stage18_1 sem18_1 nbuf18_1 hstage18_1

abbrev spec18 : Fin 2 → Pipeline.WinSpec sig grid18.rank := fun | 0 => spec18_0 | 1 => spec18_1 | ⟨_ + 2, h⟩ => absurd h (Nat.not_lt.2 (Nat.le_add_left _ _))
theorem hcount18 : ∀ w, grid18.bufCount (spec18 w).reads (spec18 w).sync = (spec18 w).nbuf := fun | 0 => nbuf18_0 | 1 => nbuf18_1 | ⟨_ + 2, h⟩ => absurd h (Nat.not_lt.2 (Nat.le_add_left _ _))
abbrev ix18 (pf : pre18.Contents (Elt F)) : (w : Fin 2) → grid18.Coords → Fin (spec18 w).shape.rank → Nat := fun | 0 => cc18_transform_1 | 1 => cc18_transform_2 | ⟨_ + 2, h⟩ => absurd h (Nat.not_lt.2 (Nat.le_add_left _ _))
theorem hreads18 : ∀ (pf : pre18.Contents (Elt F)) w (i i' : grid18.Coords), (∀ a, (spec18 w).reads a = true → i a = i' a) → ix18 pf w i = ix18 pf w i' := fun pf => fun | 0 => hreads18_0 | 1 => hreads18_1 | ⟨_ + 2, h⟩ => absurd h (Nat.not_lt.2 (Nat.le_add_left _ _))
def ok18 (_ : pre18.Contents (Elt F)) : Prop :=
  True
instance (pf : pre18.Contents (Elt F)) : Decidable (ok18 pf) := decidable_of_iff' _ (Iff.of_eq (ok18.eq_1 pf))
theorem hinb18 : ∀ (pf : pre18.Contents (Elt F)), ok18 pf → ∀ w (i : grid18.Coords) a, (ix18 pf w i a + 1) * (spec18 w).size a ≤ (spec18 w).shape.size a :=
  fun _ _ => fun | 0 => hinb18_0 | 1 => hinb18_1 | ⟨_ + 2, h⟩ => absurd h (Nat.not_lt.2 (Nat.le_add_left _ _))
theorem hwx18 : ∀ (pf : pre18.Contents (Elt F)) (hok : ok18 pf) w (i : grid18.Coords), (spec18 w).elt.bits = 32 ∨ (Rect.block (spec18 w).size (ix18 pf w i) (hinb18 pf hok w i)).WholeWords (spec18 w).elt.packing :=
  fun _ _ => fun | 0 => hwx18_0 | 1 => hwx18_1 | ⟨_ + 2, h⟩ => absurd h (Nat.not_lt.2 (Nat.le_add_left _ _))
abbrev idle18 : Fin 2 → grid18.Coords → Bool := fun | 0 => fun _ => false | 1 => fun i => !(k18_cond1 i == 1#1) | ⟨_ + 2, h⟩ => absurd h (Nat.not_lt.2 (Nat.le_add_left _ _))

abbrev spec19_0 : Pipeline.WinSpec sig grid19.rank :=
  Pipeline.WinSpec.ofSpec (Memref.whole main_arg1) S128x128.size reads19_0 false true 1 stage19_0 sem19_0 nbuf19_0 hstage19_0

abbrev spec19_1 : Pipeline.WinSpec sig grid19.rank :=
  Pipeline.WinSpec.ofSpec (Memref.whole main_v40) S1000x128.size reads19_1 true false 2 stage19_1 sem19_1 nbuf19_1 hstage19_1

abbrev spec19 : Fin 2 → Pipeline.WinSpec sig grid19.rank := fun | 0 => spec19_0 | 1 => spec19_1 | ⟨_ + 2, h⟩ => absurd h (Nat.not_lt.2 (Nat.le_add_left _ _))
theorem hcount19 : ∀ w, grid19.bufCount (spec19 w).reads (spec19 w).sync = (spec19 w).nbuf := fun | 0 => nbuf19_0 | 1 => nbuf19_1 | ⟨_ + 2, h⟩ => absurd h (Nat.not_lt.2 (Nat.le_add_left _ _))
abbrev ix19 (pf : pre19.Contents (Elt F)) : (w : Fin 2) → grid19.Coords → Fin (spec19 w).shape.rank → Nat := fun | 0 => cc19_transform_1 | 1 => cc19_transform_2 | ⟨_ + 2, h⟩ => absurd h (Nat.not_lt.2 (Nat.le_add_left _ _))
theorem hreads19 : ∀ (pf : pre19.Contents (Elt F)) w (i i' : grid19.Coords), (∀ a, (spec19 w).reads a = true → i a = i' a) → ix19 pf w i = ix19 pf w i' := fun pf => fun | 0 => hreads19_0 | 1 => hreads19_1 | ⟨_ + 2, h⟩ => absurd h (Nat.not_lt.2 (Nat.le_add_left _ _))
def ok19 (_ : pre19.Contents (Elt F)) : Prop :=
  True
instance (pf : pre19.Contents (Elt F)) : Decidable (ok19 pf) := decidable_of_iff' _ (Iff.of_eq (ok19.eq_1 pf))
theorem hinb19 : ∀ (pf : pre19.Contents (Elt F)), ok19 pf → ∀ w (i : grid19.Coords) a, (ix19 pf w i a + 1) * (spec19 w).size a ≤ (spec19 w).shape.size a :=
  fun _ _ => fun | 0 => hinb19_0 | 1 => hinb19_1 | ⟨_ + 2, h⟩ => absurd h (Nat.not_lt.2 (Nat.le_add_left _ _))
theorem hwx19 : ∀ (pf : pre19.Contents (Elt F)) (hok : ok19 pf) w (i : grid19.Coords), (spec19 w).elt.bits = 32 ∨ (Rect.block (spec19 w).size (ix19 pf w i) (hinb19 pf hok w i)).WholeWords (spec19 w).elt.packing :=
  fun _ _ => fun | 0 => hwx19_0 | 1 => hwx19_1 | ⟨_ + 2, h⟩ => absurd h (Nat.not_lt.2 (Nat.le_add_left _ _))
abbrev idle19 : Fin 2 → grid19.Coords → Bool := fun | 0 => fun _ => false | 1 => fun i => !(k19_cond1 i == 1#1) | ⟨_ + 2, h⟩ => absurd h (Nat.not_lt.2 (Nat.le_add_left _ _))

abbrev spec20_0 : Pipeline.WinSpec sig grid20.rank :=
  Pipeline.WinSpec.ofSpec (Memref.whole main_arg1) S128x128.size reads20_0 false true 1 stage20_0 sem20_0 nbuf20_0 hstage20_0

abbrev spec20_1 : Pipeline.WinSpec sig grid20.rank :=
  Pipeline.WinSpec.ofSpec (Memref.whole main_v42) S1000x128.size reads20_1 true false 2 stage20_1 sem20_1 nbuf20_1 hstage20_1

abbrev spec20 : Fin 2 → Pipeline.WinSpec sig grid20.rank := fun | 0 => spec20_0 | 1 => spec20_1 | ⟨_ + 2, h⟩ => absurd h (Nat.not_lt.2 (Nat.le_add_left _ _))
theorem hcount20 : ∀ w, grid20.bufCount (spec20 w).reads (spec20 w).sync = (spec20 w).nbuf := fun | 0 => nbuf20_0 | 1 => nbuf20_1 | ⟨_ + 2, h⟩ => absurd h (Nat.not_lt.2 (Nat.le_add_left _ _))
abbrev ix20 (pf : pre20.Contents (Elt F)) : (w : Fin 2) → grid20.Coords → Fin (spec20 w).shape.rank → Nat := fun | 0 => cc20_transform_1 | 1 => cc20_transform_2 | ⟨_ + 2, h⟩ => absurd h (Nat.not_lt.2 (Nat.le_add_left _ _))
theorem hreads20 : ∀ (pf : pre20.Contents (Elt F)) w (i i' : grid20.Coords), (∀ a, (spec20 w).reads a = true → i a = i' a) → ix20 pf w i = ix20 pf w i' := fun pf => fun | 0 => hreads20_0 | 1 => hreads20_1 | ⟨_ + 2, h⟩ => absurd h (Nat.not_lt.2 (Nat.le_add_left _ _))
def ok20 (_ : pre20.Contents (Elt F)) : Prop :=
  True
instance (pf : pre20.Contents (Elt F)) : Decidable (ok20 pf) := decidable_of_iff' _ (Iff.of_eq (ok20.eq_1 pf))
theorem hinb20 : ∀ (pf : pre20.Contents (Elt F)), ok20 pf → ∀ w (i : grid20.Coords) a, (ix20 pf w i a + 1) * (spec20 w).size a ≤ (spec20 w).shape.size a :=
  fun _ _ => fun | 0 => hinb20_0 | 1 => hinb20_1 | ⟨_ + 2, h⟩ => absurd h (Nat.not_lt.2 (Nat.le_add_left _ _))
theorem hwx20 : ∀ (pf : pre20.Contents (Elt F)) (hok : ok20 pf) w (i : grid20.Coords), (spec20 w).elt.bits = 32 ∨ (Rect.block (spec20 w).size (ix20 pf w i) (hinb20 pf hok w i)).WholeWords (spec20 w).elt.packing :=
  fun _ _ => fun | 0 => hwx20_0 | 1 => hwx20_1 | ⟨_ + 2, h⟩ => absurd h (Nat.not_lt.2 (Nat.le_add_left _ _))
abbrev idle20 : Fin 2 → grid20.Coords → Bool := fun | 0 => fun _ => false | 1 => fun i => !(k20_cond1 i == 1#1) | ⟨_ + 2, h⟩ => absurd h (Nat.not_lt.2 (Nat.le_add_left _ _))

abbrev spec21_0 : Pipeline.WinSpec sig grid21.rank :=
  Pipeline.WinSpec.ofSpec (Memref.whole main_arg1) S128x128.size reads21_0 false true 1 stage21_0 sem21_0 nbuf21_0 hstage21_0

abbrev spec21_1 : Pipeline.WinSpec sig grid21.rank :=
  Pipeline.WinSpec.ofSpec (Memref.whole main_v44) S1000x128.size reads21_1 true false 2 stage21_1 sem21_1 nbuf21_1 hstage21_1

abbrev spec21 : Fin 2 → Pipeline.WinSpec sig grid21.rank := fun | 0 => spec21_0 | 1 => spec21_1 | ⟨_ + 2, h⟩ => absurd h (Nat.not_lt.2 (Nat.le_add_left _ _))
theorem hcount21 : ∀ w, grid21.bufCount (spec21 w).reads (spec21 w).sync = (spec21 w).nbuf := fun | 0 => nbuf21_0 | 1 => nbuf21_1 | ⟨_ + 2, h⟩ => absurd h (Nat.not_lt.2 (Nat.le_add_left _ _))
abbrev ix21 (pf : pre21.Contents (Elt F)) : (w : Fin 2) → grid21.Coords → Fin (spec21 w).shape.rank → Nat := fun | 0 => cc21_transform_1 | 1 => cc21_transform_2 | ⟨_ + 2, h⟩ => absurd h (Nat.not_lt.2 (Nat.le_add_left _ _))
theorem hreads21 : ∀ (pf : pre21.Contents (Elt F)) w (i i' : grid21.Coords), (∀ a, (spec21 w).reads a = true → i a = i' a) → ix21 pf w i = ix21 pf w i' := fun pf => fun | 0 => hreads21_0 | 1 => hreads21_1 | ⟨_ + 2, h⟩ => absurd h (Nat.not_lt.2 (Nat.le_add_left _ _))
def ok21 (_ : pre21.Contents (Elt F)) : Prop :=
  True
instance (pf : pre21.Contents (Elt F)) : Decidable (ok21 pf) := decidable_of_iff' _ (Iff.of_eq (ok21.eq_1 pf))
theorem hinb21 : ∀ (pf : pre21.Contents (Elt F)), ok21 pf → ∀ w (i : grid21.Coords) a, (ix21 pf w i a + 1) * (spec21 w).size a ≤ (spec21 w).shape.size a :=
  fun _ _ => fun | 0 => hinb21_0 | 1 => hinb21_1 | ⟨_ + 2, h⟩ => absurd h (Nat.not_lt.2 (Nat.le_add_left _ _))
theorem hwx21 : ∀ (pf : pre21.Contents (Elt F)) (hok : ok21 pf) w (i : grid21.Coords), (spec21 w).elt.bits = 32 ∨ (Rect.block (spec21 w).size (ix21 pf w i) (hinb21 pf hok w i)).WholeWords (spec21 w).elt.packing :=
  fun _ _ => fun | 0 => hwx21_0 | 1 => hwx21_1 | ⟨_ + 2, h⟩ => absurd h (Nat.not_lt.2 (Nat.le_add_left _ _))
abbrev idle21 : Fin 2 → grid21.Coords → Bool := fun | 0 => fun _ => false | 1 => fun i => !(k21_cond1 i == 1#1) | ⟨_ + 2, h⟩ => absurd h (Nat.not_lt.2 (Nat.le_add_left _ _))

abbrev spec22_0 : Pipeline.WinSpec sig grid22.rank :=
  Pipeline.WinSpec.ofSpec (Memref.whole main_arg1) S128x128.size reads22_0 false true 1 stage22_0 sem22_0 nbuf22_0 hstage22_0

abbrev spec22_1 : Pipeline.WinSpec sig grid22.rank :=
  Pipeline.WinSpec.ofSpec (Memref.whole main_v46) S1000x128.size reads22_1 true false 2 stage22_1 sem22_1 nbuf22_1 hstage22_1

abbrev spec22 : Fin 2 → Pipeline.WinSpec sig grid22.rank := fun | 0 => spec22_0 | 1 => spec22_1 | ⟨_ + 2, h⟩ => absurd h (Nat.not_lt.2 (Nat.le_add_left _ _))
theorem hcount22 : ∀ w, grid22.bufCount (spec22 w).reads (spec22 w).sync = (spec22 w).nbuf := fun | 0 => nbuf22_0 | 1 => nbuf22_1 | ⟨_ + 2, h⟩ => absurd h (Nat.not_lt.2 (Nat.le_add_left _ _))
abbrev ix22 (pf : pre22.Contents (Elt F)) : (w : Fin 2) → grid22.Coords → Fin (spec22 w).shape.rank → Nat := fun | 0 => cc22_transform_1 | 1 => cc22_transform_2 | ⟨_ + 2, h⟩ => absurd h (Nat.not_lt.2 (Nat.le_add_left _ _))
theorem hreads22 : ∀ (pf : pre22.Contents (Elt F)) w (i i' : grid22.Coords), (∀ a, (spec22 w).reads a = true → i a = i' a) → ix22 pf w i = ix22 pf w i' := fun pf => fun | 0 => hreads22_0 | 1 => hreads22_1 | ⟨_ + 2, h⟩ => absurd h (Nat.not_lt.2 (Nat.le_add_left _ _))
def ok22 (_ : pre22.Contents (Elt F)) : Prop :=
  True
instance (pf : pre22.Contents (Elt F)) : Decidable (ok22 pf) := decidable_of_iff' _ (Iff.of_eq (ok22.eq_1 pf))
theorem hinb22 : ∀ (pf : pre22.Contents (Elt F)), ok22 pf → ∀ w (i : grid22.Coords) a, (ix22 pf w i a + 1) * (spec22 w).size a ≤ (spec22 w).shape.size a :=
  fun _ _ => fun | 0 => hinb22_0 | 1 => hinb22_1 | ⟨_ + 2, h⟩ => absurd h (Nat.not_lt.2 (Nat.le_add_left _ _))
theorem hwx22 : ∀ (pf : pre22.Contents (Elt F)) (hok : ok22 pf) w (i : grid22.Coords), (spec22 w).elt.bits = 32 ∨ (Rect.block (spec22 w).size (ix22 pf w i) (hinb22 pf hok w i)).WholeWords (spec22 w).elt.packing :=
  fun _ _ => fun | 0 => hwx22_0 | 1 => hwx22_1 | ⟨_ + 2, h⟩ => absurd h (Nat.not_lt.2 (Nat.le_add_left _ _))
abbrev idle22 : Fin 2 → grid22.Coords → Bool := fun | 0 => fun _ => false | 1 => fun i => !(k22_cond1 i == 1#1) | ⟨_ + 2, h⟩ => absurd h (Nat.not_lt.2 (Nat.le_add_left _ _))

abbrev spec23_0 : Pipeline.WinSpec sig grid23.rank :=
  Pipeline.WinSpec.ofSpec (Memref.whole main_arg1) S128x128.size reads23_0 false true 1 stage23_0 sem23_0 nbuf23_0 hstage23_0

abbrev spec23_1 : Pipeline.WinSpec sig grid23.rank :=
  Pipeline.WinSpec.ofSpec (Memref.whole main_v48) S1000x128.size reads23_1 true false 2 stage23_1 sem23_1 nbuf23_1 hstage23_1

abbrev spec23 : Fin 2 → Pipeline.WinSpec sig grid23.rank := fun | 0 => spec23_0 | 1 => spec23_1 | ⟨_ + 2, h⟩ => absurd h (Nat.not_lt.2 (Nat.le_add_left _ _))
theorem hcount23 : ∀ w, grid23.bufCount (spec23 w).reads (spec23 w).sync = (spec23 w).nbuf := fun | 0 => nbuf23_0 | 1 => nbuf23_1 | ⟨_ + 2, h⟩ => absurd h (Nat.not_lt.2 (Nat.le_add_left _ _))
abbrev ix23 (pf : pre23.Contents (Elt F)) : (w : Fin 2) → grid23.Coords → Fin (spec23 w).shape.rank → Nat := fun | 0 => cc23_transform_1 | 1 => cc23_transform_2 | ⟨_ + 2, h⟩ => absurd h (Nat.not_lt.2 (Nat.le_add_left _ _))
theorem hreads23 : ∀ (pf : pre23.Contents (Elt F)) w (i i' : grid23.Coords), (∀ a, (spec23 w).reads a = true → i a = i' a) → ix23 pf w i = ix23 pf w i' := fun pf => fun | 0 => hreads23_0 | 1 => hreads23_1 | ⟨_ + 2, h⟩ => absurd h (Nat.not_lt.2 (Nat.le_add_left _ _))
def ok23 (_ : pre23.Contents (Elt F)) : Prop :=
  True
instance (pf : pre23.Contents (Elt F)) : Decidable (ok23 pf) := decidable_of_iff' _ (Iff.of_eq (ok23.eq_1 pf))
theorem hinb23 : ∀ (pf : pre23.Contents (Elt F)), ok23 pf → ∀ w (i : grid23.Coords) a, (ix23 pf w i a + 1) * (spec23 w).size a ≤ (spec23 w).shape.size a :=
  fun _ _ => fun | 0 => hinb23_0 | 1 => hinb23_1 | ⟨_ + 2, h⟩ => absurd h (Nat.not_lt.2 (Nat.le_add_left _ _))
theorem hwx23 : ∀ (pf : pre23.Contents (Elt F)) (hok : ok23 pf) w (i : grid23.Coords), (spec23 w).elt.bits = 32 ∨ (Rect.block (spec23 w).size (ix23 pf w i) (hinb23 pf hok w i)).WholeWords (spec23 w).elt.packing :=
  fun _ _ => fun | 0 => hwx23_0 | 1 => hwx23_1 | ⟨_ + 2, h⟩ => absurd h (Nat.not_lt.2 (Nat.le_add_left _ _))
abbrev idle23 : Fin 2 → grid23.Coords → Bool := fun | 0 => fun _ => false | 1 => fun i => !(k23_cond1 i == 1#1) | ⟨_ + 2, h⟩ => absurd h (Nat.not_lt.2 (Nat.le_add_left _ _))

abbrev spec24_0 : Pipeline.WinSpec sig grid24.rank :=
  Pipeline.WinSpec.ofSpec (Memref.whole main_arg1) S128x128.size reads24_0 false true 1 stage24_0 sem24_0 nbuf24_0 hstage24_0

abbrev spec24_1 : Pipeline.WinSpec sig grid24.rank :=
  Pipeline.WinSpec.ofSpec (Memref.whole main_v50) S1000x128.size reads24_1 true false 2 stage24_1 sem24_1 nbuf24_1 hstage24_1

abbrev spec24 : Fin 2 → Pipeline.WinSpec sig grid24.rank := fun | 0 => spec24_0 | 1 => spec24_1 | ⟨_ + 2, h⟩ => absurd h (Nat.not_lt.2 (Nat.le_add_left _ _))
theorem hcount24 : ∀ w, grid24.bufCount (spec24 w).reads (spec24 w).sync = (spec24 w).nbuf := fun | 0 => nbuf24_0 | 1 => nbuf24_1 | ⟨_ + 2, h⟩ => absurd h (Nat.not_lt.2 (Nat.le_add_left _ _))
abbrev ix24 (pf : pre24.Contents (Elt F)) : (w : Fin 2) → grid24.Coords → Fin (spec24 w).shape.rank → Nat := fun | 0 => cc24_transform_1 | 1 => cc24_transform_2 | ⟨_ + 2, h⟩ => absurd h (Nat.not_lt.2 (Nat.le_add_left _ _))
theorem hreads24 : ∀ (pf : pre24.Contents (Elt F)) w (i i' : grid24.Coords), (∀ a, (spec24 w).reads a = true → i a = i' a) → ix24 pf w i = ix24 pf w i' := fun pf => fun | 0 => hreads24_0 | 1 => hreads24_1 | ⟨_ + 2, h⟩ => absurd h (Nat.not_lt.2 (Nat.le_add_left _ _))
def ok24 (_ : pre24.Contents (Elt F)) : Prop :=
  True
instance (pf : pre24.Contents (Elt F)) : Decidable (ok24 pf) := decidable_of_iff' _ (Iff.of_eq (ok24.eq_1 pf))
theorem hinb24 : ∀ (pf : pre24.Contents (Elt F)), ok24 pf → ∀ w (i : grid24.Coords) a, (ix24 pf w i a + 1) * (spec24 w).size a ≤ (spec24 w).shape.size a :=
  fun _ _ => fun | 0 => hinb24_0 | 1 => hinb24_1 | ⟨_ + 2, h⟩ => absurd h (Nat.not_lt.2 (Nat.le_add_left _ _))
theorem hwx24 : ∀ (pf : pre24.Contents (Elt F)) (hok : ok24 pf) w (i : grid24.Coords), (spec24 w).elt.bits = 32 ∨ (Rect.block (spec24 w).size (ix24 pf w i) (hinb24 pf hok w i)).WholeWords (spec24 w).elt.packing :=
  fun _ _ => fun | 0 => hwx24_0 | 1 => hwx24_1 | ⟨_ + 2, h⟩ => absurd h (Nat.not_lt.2 (Nat.le_add_left _ _))
abbrev idle24 : Fin 2 → grid24.Coords → Bool := fun | 0 => fun _ => false | 1 => fun i => !(k24_cond1 i == 1#1) | ⟨_ + 2, h⟩ => absurd h (Nat.not_lt.2 (Nat.le_add_left _ _))

abbrev win25_0 : Pipeline.Window sig grid25 :=
  Pipeline.Window.ofSpec (Memref.whole main_v53) S5000x128.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v54) S2x128.size cc25_transform_1 reads25_1 true true 1 stage25_1 sem25_1
    hrank25 hreads25_1 hinb25_1 nbuf25_1 (Memref.isWhole_whole _) hwx25_1 hstage25_1

abbrev win25 : Fin 2 → Pipeline.Window sig grid25 := fun | 0 => win25_0 | 1 => win25_1 | ⟨_ + 2, h⟩ => absurd h (Nat.not_lt.2 (Nat.le_add_left _ _))
abbrev spec25 : Fin 2 → Pipeline.WinSpec sig grid25.rank := fun w => (win25 w).toWinSpec

abbrev win26_0 : Pipeline.Window sig grid26 :=
  Pipeline.Window.ofSpec (Memref.whole main_v53) S5000x128.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v71) S1x128.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v72) S1x128.size cc26_transform_2 reads26_2 false true 1 stage26_2 sem26_2
    hrank26 hreads26_2 hinb26_2 nbuf26_2 (Memref.isWhole_whole _) hwx26_2 hstage26_2

abbrev win26_3 : Pipeline.Window sig grid26 :=
  Pipeline.Window.ofSpec (Memref.whole main_v73) S5000x128.size cc26_transform_3 reads26_3 true false 2 stage26_3 sem26_3
    hrank26 hreads26_3 hinb26_3 nbuf26_3 (Memref.isWhole_whole _) hwx26_3 hstage26_3

abbrev win26 : Fin 4 → Pipeline.Window sig grid26 := fun | 0 => win26_0 | 1 => win26_1 | 2 => win26_2 | 3 => win26_3 | ⟨_ + 4, h⟩ => absurd h (Nat.not_lt.2 (Nat.le_add_left _ _))
abbrev spec26 : Fin 4 → Pipeline.WinSpec sig grid26.rank := fun w => (win26 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr16 : ∀ w, (spec16 w).arr.IsWhole
  harr17 : ∀ w, (spec17 w).arr.IsWhole
  harr18 : ∀ w, (spec18 w).arr.IsWhole
  harr19 : ∀ w, (spec19 w).arr.IsWhole
  harr20 : ∀ w, (spec20 w).arr.IsWhole
  harr21 : ∀ w, (spec21 w).arr.IsWhole
  harr22 : ∀ w, (spec22 w).arr.IsWhole
  harr23 : ∀ w, (spec23 w).arr.IsWhole
  harr24 : ∀ w, (spec24 w).arr.IsWhole

variable [Facts]
-- ==== ReferenceIdeal.lean ====
abbrev S100000x128 : Shape := ⟨2, ![100000, 128]⟩
abbrev S128x128 : Shape := ⟨2, ![128, 128]⟩
abbrev S128 : Shape := ⟨1, ![128]⟩
abbrev S50000x16 : Shape := ⟨2, ![50000, 16]⟩
abbrev S_ : Shape := ⟨0, ![]⟩
abbrev S50000x16x1 : Shape := ⟨3, ![50000, 16, 1]⟩
abbrev S50000x16x128 : Shape := ⟨3, ![50000, 16, 128]⟩
abbrev S50000x128 : Shape := ⟨2, ![50000, 128]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S50000x16, .i32⟩
  | .hbm, ⟨5, _⟩ => ⟨S_, .i32⟩
  | .hbm, ⟨6, _⟩ => ⟨S50000x16, .i32⟩
  | .hbm, ⟨7, _⟩ => ⟨S50000x16, .i1⟩
  | .hbm, ⟨8, _⟩ => ⟨S_, .i32⟩
  | .hbm, ⟨9, _⟩ => ⟨S50000x16, .i32⟩
  | .hbm, ⟨10, _⟩ => ⟨S50000x16, .i32⟩
  | .hbm, ⟨11, _⟩ => ⟨S50000x16, .i32⟩
  | .hbm, ⟨12, _⟩ => ⟨S50000x16x1, .i32⟩
  | .hbm, ⟨13, _⟩ => ⟨S50000x16x128, .f32⟩
  | .hbm, ⟨14, _⟩ => ⟨S_, .f32⟩
  | .hbm, ⟨15, _⟩ => ⟨S50000x128, .f32⟩
  | .hbm, ⟨16, _⟩ => ⟨S_, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .i1⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_5 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_6 : Ref sig .tc := ⟨.hbm, 64, rfl⟩
abbrev main_v30 : Ref sig .tc := ⟨.hbm, 65, rfl⟩
abbrev main_v31 : Ref sig .tc := ⟨.hbm, 66, rfl⟩
abbrev main_cst_7 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x128_S50000x128_d1 : S50000x16x128.ReducesTo [1] S50000x128
  h_S_ : 0 < S_.numel
  bcast_S_S50000x128 : S_.BroadcastsInDim S50000x128 (![] : Fin 0 → Fin S50000x128.rank)
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  gather_S100000x128_S50000x16x1_S50000x16x128_2_0_n_n_0_2_1128_wf : GatherDims.WF S100000x128 S50000x16x1 S50000x16x128 [2] [0] [] [0] [] 2 ![1, 128]
  dot_S50000x128_S128x128_S50000x128_1_0_0_1_n_n_wf : DotDims.WF S50000x128 S128x128 S50000x128 [1] [0] [0] [1] [] []

variable [Facts₀]

def gather_S100000x128_S50000x16x1_S50000x16x128_2_0_n_n_0_2_1128 : GatherDims S100000x128 S50000x16x1 S50000x16x128 where
  offsetDims := [2]
  collapsedSliceDims := [0]
  operandBatchingDims := []
  startIndicesBatchingDims := []
  startIndexMap := [0]
  indexVectorDim := 2
  sliceSizes := ![1, 128]
  wf := gather_S100000x128_S50000x16x1_S50000x16x128_2_0_n_n_0_2_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KI.PreIdx.lean ====
/-
  The neighbour table's words are row numbers of the feature array. The precondition's last conjunct says, of every
  entry v of the [50000, 16] neighbour table, 0 ≤ v < 100000 read signed; a word in [0, n) signed with n below 2³¹ is
  below n unsigned. The program hands each gather launch a [16, 2000] table: the neighbour table transposed, then cut
  along its second axis at a multiple of 2000. Both are re-indexings, so each word of such a table is a word of the
  neighbour table, at the position named in `table_apply`, and is below 100000 (`table_inRange`), whatever the cut.
-/
import proofs.«403631_j48275432407145_1_alg».proof.KernelIdeal
import proofs.«403631_j48275432407145_1_alg».proof.Pre_finite_inputs
import Idealize.ShloMosaic.Lib.ReduceAll
import Idealize.ShloMosaic.Lib.ValueIdx
import Idealize.ShloMosaic.Lib.Pipeline.Value

noncomputable section

namespace Cert.KernelIdeal.Hand

open Cert.KernelIdeal
open Idealize.ShloMosaic

variable {F : FTy → Type} [FloatOps F]

/-- The scalar result of the precondition has one index. -/
instance subsingleton_scalar_idx : Subsingleton Cert.Pre_finite_inputs.S_.Idx := ⟨fun a b => funext fun d => d.elim0⟩

/-- A word in [0, n) read signed is below n read unsigned. -/
theorem toNat_lt_of_toInt {w : BitVec 32} {n : Nat} (h0 : 0 ≤ w.toInt) (hn : w.toInt < (n : Int)) : w.toNat < n := by
  have h32 := w.isLt
  rw [BitVec.toInt_eq_toNat_cond] at h0 hn
  split at h0 <;> omega

/-- THE PRECONDITION DECODED at one entry of the neighbour table: the entry, read signed, is in [0, 100000). -/
theorem idx_toInt_bounds [Cert.Pre_finite_inputs.Facts]
    (a0 : FVec F S100000x128 .f32) (a1 : FVec F S128x128 .f32) (a2 a3 : FVec F S128 .f32) (a4 : IVec S50000x16 32)
    (h : Cert.Pre_finite_inputs.fn (F := F) a0 a1 a2 a3 a4 = fun _ => 1#1) (i : S50000x16.Idx) :
    0 ≤ (a4 i).toInt ∧ (a4 i).toInt < 100000 := by
  have e := congrFun h ValueIdx.ix0
  unfold Cert.Pre_finite_inputs.fn at e
  dsimp only at e
  unfold Cert.Pre_finite_inputs.fn_part1 at e
  dsimp only at e
  have e24 := (IntOp.andi_eq_one.1 e).2
  have e23 := Host.reduce_andi_all _ _ _ _ _ e24 i
  obtain ⟨h20, h22⟩ := IntOp.andi_eq_one.1 e23
  have g0 := IntOp.cmpi_sge.1 h20
  have g1 := IntOp.cmpi_slt.1 h22
  exact ⟨g0, g1⟩

/-- Every entry of the neighbour table names a row of the [100000, 128] feature array. -/
theorem idx_inRange [Cert.Pre_finite_inputs.Facts]
    (a0 : FVec F S100000x128 .f32) (a1 : FVec F S128x128 .f32) (a2 a3 : FVec F S128 .f32) (a4 : IVec S50000x16 32)
    (h : Cert.Pre_finite_inputs.fn (F := F) a0 a1 a2 a3 a4 = fun _ => 1#1) :
    ∀ i : S50000x16.Idx, (a4 i).toNat < 100000 := fun i =>
  toNat_lt_of_toInt (idx_toInt_bounds a0 a1 a2 a3 a4 h i).1 (idx_toInt_bounds a0 a1 a2 a3 a4 h i).2

/-- A gather launch's table read at (k, q): the neighbour table at row (cut + q), column k. The cut `off` is any
    offset pair at which a [16, 2000] block lies inside the transposed table. -/
theorem table_apply (a4 : IVec S50000x16 32) (off : Fin S16x50000.rank → Nat)
    (ht : S50000x16.Transposes [1, 0] S16x50000) (hs : S16x50000.Slices off S16x2000)
    (j : S16x2000.Idx) (i : S50000x16.Idx)
    (hi0 : (i 0).val = off 1 + (j 1).val) (hi1 : (i 1).val = off 0 + (j 0).val) :
    extractStridedSlice S16x2000 off (transpose S16x50000 [1, 0] a4 ht) hs j = a4 i := by
  unfold extractStridedSlice
  refine transpose_apply [1, 0] a4 ht _ i fun b => ?_
  match b with
  | ⟨0, _⟩ => exact hi1
  | ⟨1, _⟩ => exact hi0

/-- Every word of a gather launch's table names a row of the feature array, whatever the cut. -/
theorem table_inRange (a4 : IVec S50000x16 32) (h4 : ∀ i : S50000x16.Idx, (a4 i).toNat < 100000)
    (off : Fin S16x50000.rank → Nat) (ht : S50000x16.Transposes [1, 0] S16x50000) (hs : S16x50000.Slices off S16x2000) :
    ∀ j : S16x2000.Idx, (extractStridedSlice S16x2000 off (transpose S16x50000 [1, 0] a4 ht) hs j).toNat < 100000 :=
  fun j => h4 _

end Cert.KernelIdeal.Hand

end
-- ==== Proof.KB.PreIdx.lean ====
/-
  The neighbour table's words are row numbers of the feature array. The precondition's last conjunct says, of every
  entry v of the [50000, 16] neighbour table, 0 ≤ v < 100000 read signed; a word in [0, n) signed with n below 2³¹ is
  below n unsigned. The program hands each gather launch a [16, 2000] table: the neighbour table transposed, then cut
  along its second axis at a multiple of 2000. Both are re-indexings, so each word of such a table is a word of the
  neighbour table, at the position named in `table_apply`, and is below 100000 (`table_inRange`), whatever the cut.
-/
import proofs.«403631_j48275432407145_1_alg».proof.Kernel
import proofs.«403631_j48275432407145_1_alg».proof.Pre_finite_inputs
import Idealize.ShloMosaic.Lib.ReduceAll
import Idealize.ShloMosaic.Lib.ValueIdx
import Idealize.ShloMosaic.Lib.Pipeline.Value

noncomputable section

namespace Cert.Kernel.Hand

open Cert.Kernel
open Idealize.ShloMosaic

variable {F : FTy → Type} [FloatOps F]

/-- The scalar result of the precondition has one index. -/
instance subsingleton_scalar_idx : Subsingleton Cert.Pre_finite_inputs.S_.Idx := ⟨fun a b => funext fun d => d.elim0⟩

/-- A word in [0, n) read signed is below n read unsigned. -/
theorem toNat_lt_of_toInt {w : BitVec 32} {n : Nat} (h0 : 0 ≤ w.toInt) (hn : w.toInt < (n : Int)) : w.toNat < n := by
  have h32 := w.isLt
  rw [BitVec.toInt_eq_toNat_cond] at h0 hn
  split at h0 <;> omega

/-- THE PRECONDITION DECODED at one entry of the neighbour table: the entry, read signed, is in [0, 100000). -/
theorem idx_toInt_bounds [Cert.Pre_finite_inputs.Facts]
    (a0 : FVec F S100000x128 .f32) (a1 : FVec F S128x128 .f32) (a2 a3 : FVec F S128 .f32) (a4 : IVec S50000x16 32)
    (h : Cert.Pre_finite_inputs.fn (F := F) a0 a1 a2 a3 a4 = fun _ => 1#1) (i : S50000x16.Idx) :
    0 ≤ (a4 i).toInt ∧ (a4 i).toInt < 100000 := by
  have e := congrFun h ValueIdx.ix0
  unfold Cert.Pre_finite_inputs.fn at e
  dsimp only at e
  unfold Cert.Pre_finite_inputs.fn_part1 at e
  dsimp only at e
  have e24 := (IntOp.andi_eq_one.1 e).2
  have e23 := Host.reduce_andi_all _ _ _ _ _ e24 i
  obtain ⟨h20, h22⟩ := IntOp.andi_eq_one.1 e23
  have g0 := IntOp.cmpi_sge.1 h20
  have g1 := IntOp.cmpi_slt.1 h22
  exact ⟨g0, g1⟩

/-- Every entry of the neighbour table names a row of the [100000, 128] feature array. -/
theorem idx_inRange [Cert.Pre_finite_inputs.Facts]
    (a0 : FVec F S100000x128 .f32) (a1 : FVec F S128x128 .f32) (a2 a3 : FVec F S128 .f32) (a4 : IVec S50000x16 32)
    (h : Cert.Pre_finite_inputs.fn (F := F) a0 a1 a2 a3 a4 = fun _ => 1#1) :
    ∀ i : S50000x16.Idx, (a4 i).toNat < 100000 := fun i =>
  toNat_lt_of_toInt (idx_toInt_bounds a0 a1 a2 a3 a4 h i).1 (idx_toInt_bounds a0 a1 a2 a3 a4 h i).2

/-- A gather launch's table read at (k, q): the neighbour table at row (cut + q), column k. The cut `off` is any
    offset pair at which a [16, 2000] block lies inside the transposed table. -/
theorem table_apply (a4 : IVec S50000x16 32) (off : Fin S16x50000.rank → Nat)
    (ht : S50000x16.Transposes [1, 0] S16x50000) (hs : S16x50000.Slices off S16x2000)
    (j : S16x2000.Idx) (i : S50000x16.Idx)
    (hi0 : (i 0).val = off 1 + (j 1).val) (hi1 : (i 1).val = off 0 + (j 0).val) :
    extractStridedSlice S16x2000 off (transpose S16x50000 [1, 0] a4 ht) hs j = a4 i := by
  unfold extractStridedSlice
  refine transpose_apply [1, 0] a4 ht _ i fun b => ?_
  match b with
  | ⟨0, _⟩ => exact hi1
  | ⟨1, _⟩ => exact hi0

/-- Every word of a gather launch's table names a row of the feature array, whatever the cut. -/
theorem table_inRange (a4 : IVec S50000x16 32) (h4 : ∀ i : S50000x16.Idx, (a4 i).toNat < 100000)
    (off : Fin S16x50000.rank → Nat) (ht : S50000x16.Transposes [1, 0] S16x50000) (hs : S16x50000.Slices off S16x2000) :
    ∀ j : S16x2000.Idx, (extractStridedSlice S16x2000 off (transpose S16x50000 [1, 0] a4 ht) hs j).toNat < 100000 :=
  fun j => h4 _

end Cert.Kernel.Hand

end
-- ==== Proof.Val.Spec.lean ====
/-
  The value this kernel and its reference both compute, stated once as a function of the five argument arrays over the
  extended reals, index by index, and importing no program.

  A batch of 50000 nodes each names 16 neighbours by a 32-bit word (a row of the 100000 × 128 feature table). Per node
  and feature the 16 named rows are averaged (their sum divided by sixteen); the averaged features are multiplied by the
  128 × 128 weight matrix; each of the 128 output columns is then normalized over the batch — the column's mean taken
  away, the difference scaled by the reciprocal square root of the column's (biased) variance plus a small constant,
  then by a per-column gain, and a per-column offset added — and last passed through a leaky rectifier: a value that is
  not negative is kept, a negative one is multiplied by a small slope.

  The four float constants (sixteen, the batch size fifty thousand, the variance's added constant and the slope) stay the
  32-bit words both programs print: the same word on both sides of an equation is never evaluated. The operations come in
  the order the reference applies them.
-/
import Idealize.ShloMosaic.PureOps.Ideal
import Idealize.ShloMosaic.Lib.ValueIdx
import Idealize.ShloMosaic.Lib.IdealHost

noncomputable section

open scoped BigOperators

namespace Cert.Val

open Idealize.ShloMosaic Idealize.ShloMosaic.ValueIdx

/-- The table row a neighbour word names: the word read as a natural number, held below the table's height so that
    the function is total. On a word below 100000 it is the word's own value (`rowOf_val`). -/
def rowOf (v : BitVec 32) : Fin 100000 := ⟨min v.toNat 99999, by omega⟩

/-- A word below the table's height names the row of its own value. -/
theorem rowOf_val (v : BitVec 32) (h : v.toNat < 100000) : (rowOf v).val = v.toNat := by
  show min v.toNat 99999 = v.toNat
  omega

/-- Node `i`'s averaged feature `f`: the sum over its 16 neighbours of that feature, divided by sixteen. -/
def aggOf (feat : (⟨2, ![100000, 128]⟩ : Shape).Idx → EReal) (idx : (⟨2, ![50000, 16]⟩ : Shape).Idx → BitVec 32)
    (i : Fin 50000) (f : Fin 128) : EReal :=
  Ideal.div (∑ k : Fin 16, feat (ix2 (rowOf (idx (ix2 i k))) f)) (Ideal.ofBits .f32 0x41800000#32)

/-- Node `i`'s projected value in column `e`: the averaged features against column `e` of the weights. -/
def xOf (feat : (⟨2, ![100000, 128]⟩ : Shape).Idx → EReal) (w : (⟨2, ![128, 128]⟩ : Shape).Idx → EReal)
    (idx : (⟨2, ![50000, 16]⟩ : Shape).Idx → BitVec 32) (i : Fin 50000) (e : Fin 128) : EReal :=
  ∑ f : Fin 128, aggOf feat idx i f * w (ix2 f e)

/-- Column `e`'s mean over the batch. -/
def meanOf (x : Fin 50000 → Fin 128 → EReal) (e : Fin 128) : EReal :=
  Ideal.div (∑ i : Fin 50000, x i e) (Ideal.ofBits .f32 0x47435000#32)

/-- Column `e`'s biased variance over the batch: the mean of the squared differences from the column's mean. -/
def varOf (x : Fin 50000 → Fin 128 → EReal) (e : Fin 128) : EReal :=
  Ideal.div (∑ i : Fin 50000, (x i e - meanOf x e) * (x i e - meanOf x e)) (Ideal.ofBits .f32 0x47435000#32)

/-- The normalized value: the difference from the column's mean, times the reciprocal square root of the column's
    variance plus the small constant, times the column's gain, plus the column's offset. -/
def normOf (x : Fin 50000 → Fin 128 → EReal) (γ β : (⟨1, ![128]⟩ : Shape).Idx → EReal) (i : Fin 50000) (e : Fin 128) :
    EReal :=
  (x i e - meanOf x e) * Ideal.rsqrt (varOf x e + Ideal.ofBits .f32 0x3727C5AC#32) * γ (ix1 e) + β (ix1 e)

/-- The leaky rectifier: a value that is not negative is kept, a negative one is multiplied by the slope. -/
def leaky (y : EReal) : EReal := if 0 ≤ y then y else Ideal.ofBits .f32 0x3C23D70A#32 * y

/-- Both programs spell the rectifier as a selection on the comparison "at least the zero word". -/
theorem leaky_select (y : EReal) :
    Scalar.select (Ideal.cmp .oge y (Ideal.ofBits .f32 0x00000000#32)) y (Ideal.ofBits .f32 0x3C23D70A#32 * y)
      = leaky y := by
  rw [Ideal.ofBits_zero_f32]
  unfold leaky Scalar.select Ideal.cmp
  by_cases h : (0 : EReal) ≤ y
  · simp [h]
  · simp [h]

/-- THE RESULT, index by index. -/
def G (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32) :
    (⟨2, ![50000, 128]⟩ : Shape).Idx → EReal :=
  fun j => leaky (normOf (xOf feat w idx) γ β (j 0) (j 1))

/-- The result at node `i`, column `e`. -/
theorem G_apply (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32)
    (i : Fin 50000) (e : Fin 128) :
    G feat w γ β idx (ix2 i e) = leaky (normOf (xOf feat w idx) γ β i e) := rfl

/-! ## The kernel's arrangement of the same normalization

The kernel takes each column's sum and sum of squares in one pass, so its variance is the mean of the squares less the
square of the mean, and it folds the gain into one per-column factor and the mean and offset into one per-column
constant, applying both to the projected value itself. These are its terms in its own order of operations, over the
same words; that they agree with `normOf` on real values is an algebraic law proved elsewhere. -/

/-- Column `e`'s mean as the kernel takes it: the same quotient as `meanOf`. -/
def meanK (x : Fin 50000 → Fin 128 → EReal) (e : Fin 128) : EReal :=
  Ideal.div (∑ i : Fin 50000, x i e) (Ideal.ofBits .f32 0x47435000#32)

/-- Column `e`'s mean of squares. -/
def sqMeanK (x : Fin 50000 → Fin 128 → EReal) (e : Fin 128) : EReal :=
  Ideal.div (∑ i : Fin 50000, x i e * x i e) (Ideal.ofBits .f32 0x47435000#32)

/-- Column `e`'s variance as the kernel takes it: the mean of the squares less the square of the mean. -/
def varK (x : Fin 50000 → Fin 128 → EReal) (e : Fin 128) : EReal :=
  sqMeanK x e - meanK x e * meanK x e

/-- Column `e`'s factor: the gain times the reciprocal square root of the variance plus the small constant. -/
def scaleK (x : Fin 50000 → Fin 128 → EReal) (γ : (⟨1, ![128]⟩ : Shape).Idx → EReal) (e : Fin 128) : EReal :=
  γ (ix1 e) * Ideal.rsqrt (varK x e + Ideal.ofBits .f32 0x3727C5AC#32)

/-- Column `e`'s constant: the offset less the mean times the factor. -/
def biasK (x : Fin 50000 → Fin 128 → EReal) (γ β : (⟨1, ![128]⟩ : Shape).Idx → EReal) (e : Fin 128) : EReal :=
  β (ix1 e) - meanK x e * scaleK x γ e

/-- The normalized value as the kernel forms it: the projected value times the column's factor, plus its constant. -/
def normK (x : Fin 50000 → Fin 128 → EReal) (γ β : (⟨1, ![128]⟩ : Shape).Idx → EReal) (i : Fin 50000) (e : Fin 128) :
    EReal :=
  x i e * scaleK x γ e + biasK x γ β e

/-- The kernel's mean is the reference's. -/
theorem meanK_eq (x : Fin 50000 → Fin 128 → EReal) (e : Fin 128) : meanK x e = meanOf x e := rfl

/-- The result in the kernel's arrangement, index by index. -/
def GK (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32) :
    (⟨2, ![50000, 128]⟩ : Shape).Idx → EReal :=
  fun j => leaky (normK (xOf feat w idx) γ β (j 0) (j 1))

/-- The kernel's arrangement at node `i`, column `e`. -/
theorem GK_apply (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32)
    (i : Fin 50000) (e : Fin 128) :
    GK feat w γ β idx (ix2 i e) = leaky (normK (xOf feat w idx) γ β i e) := rfl

end Cert.Val

end
-- ==== Proof.Val.PreFinite.lean ====
/-
  At the ideal instance a float is an extended real, and the precondition's first four conjuncts say, of every entry x
  of the four float inputs (features, weight, scale, shift), that |x| < +∞, where |x| is max x (-x) and +∞ is what the
  pattern 0x7F800000 denotes. An extended real whose absolute value is below +∞ is neither infinity, so it is a real
  number. Hence every entry of every float input is a real number: what the algebra of the mean, the variance and the
  normalisation needs to leave the corners of the extended reals.
-/
import proofs.«403631_j48275432407145_1_alg».proof.KernelIdeal
import proofs.«403631_j48275432407145_1_alg».proof.Pre_finite_inputs
import Idealize.ShloMosaic.Lib.ReduceAll
import Idealize.ShloMosaic.Lib.ValueIdx
import Idealize.ShloMosaic.PureOps.Ideal

noncomputable section

namespace Cert.Val

open Cert.KernelIdeal
open Idealize.ShloMosaic

/-- The scalar result of the precondition has one index. -/
instance subsingleton_scalar_idx : Subsingleton Cert.Pre_finite_inputs.S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 denotes +∞. -/
theorem ofBits_inf : Ideal.ofBits .f32 0x7F800000#32 = ⊤ := by simp [Ideal.ofBits, Ideal.ieee]

/-- The precondition's test at one value: "|x| < +∞ holds" says x is a real number. -/
theorem real_of_finite_bit (x : Ideal .f32)
    (h : FloatOps.cmpf .olt (FloatOps.hostAbsf x) (FloatOps.ofBits (F := Ideal) .f32 0x7F800000#32) = 1#1) :
    ∃ r : ℝ, x = (r : EReal) := by
  change BitVec.ofBool (decide (max (x : EReal) (-(x : EReal)) < Ideal.ofBits .f32 0x7F800000#32)) = 1#1 at h
  rw [ofBits_inf] at h
  have hb : decide (max (x : EReal) (-(x : EReal)) < ⊤) = true := by
    revert h; cases decide (max (x : EReal) (-(x : EReal)) < ⊤) <;> decide
  exact real_of_abs_lt_top x (of_decide_eq_true hb)

/-- THE PRECONDITION DECODED for the float inputs: every entry of each is a real number. -/
theorem inputs_real [Cert.Pre_finite_inputs.Facts]
    (a0 : FVec Ideal S100000x128 .f32) (a1 : FVec Ideal S128x128 .f32) (a2 a3 : FVec Ideal S128 .f32) (a4 : IVec S50000x16 32)
    (h : Cert.Pre_finite_inputs.fn (F := Ideal) a0 a1 a2 a3 a4 = fun _ => 1#1) :
    (∀ i : S100000x128.Idx, ∃ r : ℝ, a0 i = (r : EReal)) ∧ (∀ i : S128x128.Idx, ∃ r : ℝ, a1 i = (r : EReal))
      ∧ (∀ i : S128.Idx, ∃ r : ℝ, a2 i = (r : EReal)) ∧ (∀ i : S128.Idx, ∃ r : ℝ, a3 i = (r : EReal)) := by
  have e := congrFun h ValueIdx.ix0
  unfold Cert.Pre_finite_inputs.fn at e
  dsimp only at e
  unfold Cert.Pre_finite_inputs.fn_part1 at e
  dsimp only at e
  obtain ⟨e18, -⟩ := IntOp.andi_eq_one.1 e
  obtain ⟨e13, e17⟩ := IntOp.andi_eq_one.1 e18
  obtain ⟨e8, e12⟩ := IntOp.andi_eq_one.1 e13
  obtain ⟨e3, e7⟩ := IntOp.andi_eq_one.1 e8
  exact ⟨fun i => real_of_finite_bit _ (Host.reduce_andi_all _ _ _ _ _ e3 i),
    fun i => real_of_finite_bit _ (Host.reduce_andi_all _ _ _ _ _ e7 i),
    fun i => real_of_finite_bit _ (Host.reduce_andi_all _ _ _ _ _ e12 i),
    fun i => real_of_finite_bit _ (Host.reduce_andi_all _ _ _ _ _ e17 i)⟩

section Each
variable [Cert.Pre_finite_inputs.Facts]
  (a0 : FVec Ideal S100000x128 .f32) (a1 : FVec Ideal S128x128 .f32) (a2 a3 : FVec Ideal S128 .f32) (a4 : IVec S50000x16 32)
  (h : Cert.Pre_finite_inputs.fn (F := Ideal) a0 a1 a2 a3 a4 = fun _ => 1#1)
include h

/-- Every feature entry is a real number. -/
theorem arg0_real : ∀ i : S100000x128.Idx, ∃ r : ℝ, a0 i = (r : EReal) := (inputs_real a0 a1 a2 a3 a4 h).1
/-- Every weight entry is a real number. -/
theorem arg1_real : ∀ i : S128x128.Idx, ∃ r : ℝ, a1 i = (r : EReal) := (inputs_real a0 a1 a2 a3 a4 h).2.1
/-- Every scale entry is a real number. -/
theorem arg2_real : ∀ i : S128.Idx, ∃ r : ℝ, a2 i = (r : EReal) := (inputs_real a0 a1 a2 a3 a4 h).2.2.1
/-- Every shift entry is a real number. -/
theorem arg3_real : ∀ i : S128.Idx, ∃ r : ℝ, a3 i = (r : EReal) := (inputs_real a0 a1 a2 a3 a4 h).2.2.2

end Each

end Cert.Val

end
-- ==== Proof.Val.RefOps.lean ====
import proofs.«403631_j48275432407145_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 66 operations in order, each callee's operations at its call site over the buffers that call names. -/
abbrev refOps : List (HloOp τ sig (Elt F)) :=
  [
    StableHlo.nullary main_c (constantI S_ 32 0#32),
    StableHlo.unary main_c main_v0 (broadcastInDim S50000x16 ![] bcast_S_S50000x16 : (⟨S_, .i32⟩ : BufTy).Contents (Elt F) → (⟨S50000x16, .i32⟩ : BufTy).Contents (Elt F)),
    StableHlo.binary main_arg4 main_v0 main_v1 (cmpi .slt : (⟨S50000x16, .i32⟩ : BufTy).Contents (Elt F) → (⟨S50000x16, .i32⟩ : BufTy).Contents (Elt F) → (⟨S50000x16, .i1⟩ : BufTy).Contents (Elt F)),
    StableHlo.nullary main_c_0 (constantI S_ 32 100000#32),
    StableHlo.unary main_c_0 main_v2 (broadcastInDim S50000x16 ![] bcast_S_S50000x16 : (⟨S_, .i32⟩ : BufTy).Contents (Elt F) → (⟨S50000x16, .i32⟩ : BufTy).Contents (Elt F)),
    StableHlo.binary main_arg4 main_v2 main_v3 (addi : (⟨S50000x16, .i32⟩ : BufTy).Contents (Elt F) → (⟨S50000x16, .i32⟩ : BufTy).Contents (Elt F) → (⟨S50000x16, .i32⟩ : BufTy).Contents (Elt F)),
    StableHlo.ternary main_v1 main_v3 main_arg4 main_v4 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F)),
    StableHlo.unary main_v4 main_v5 (broadcastInDim S50000x16x1 ![0, 1] bcast_S50000x16_S50000x16x1_0_1 : (⟨S50000x16, .i32⟩ : BufTy).Contents (Elt F) → (⟨S50000x16x1, .i32⟩ : BufTy).Contents (Elt F)),
    StableHlo.binary main_arg0 main_v5 main_v6 ((fun x i => Host.gather gather_S100000x128_S50000x16x1_S50000x16x128_2_0_n_n_0_2_1128 x i) : (⟨S100000x128, .f32⟩ : BufTy).Contents (Elt F) → (⟨S50000x16x1, .i32⟩ : BufTy).Contents (Elt F) → (⟨S50000x16x128, .f32⟩ : BufTy).Contents (Elt F)),
    StableHlo.nullary main_cst (constant S_ .f32 0x00000000#32),
    StableHlo.binary main_v6 main_cst main_v7 ((fun x v => Host.reduceAdd x v reducesTo_S50000x16x128_S50000x128_d1 h_S_) : (⟨S50000x16x128, .f32⟩ : BufTy).Contents (Elt F) → (⟨S_, .f32⟩ : BufTy).Contents (Elt F) → (⟨S50000x128, .f32⟩ : BufTy).Contents (Elt F)),
    StableHlo.nullary main_cst_1 (constant S_ .f32 0x41800000#32),
    StableHlo.unary main_cst_1 main_v8 (broadcastInDim S50000x128 ![] bcast_S_S50000x128 : (⟨S_, .f32⟩ : BufTy).Contents (Elt F) → (⟨S50000x128, .f32⟩ : BufTy).Contents (Elt F)),
    StableHlo.binary main_v7 main_v8 main_v9 (Host.divf : (⟨S50000x128, .f32⟩ : BufTy).Contents (Elt F) → (⟨S50000x128, .f32⟩ : BufTy).Contents (Elt F) → (⟨S50000x128, .f32⟩ : BufTy).Contents (Elt F)),
    StableHlo.binary main_v9 main_arg1 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_2 (constant S_ .f32 0x00000000#32),
    StableHlo.binary main_v10 main_cst_2 main_v11 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_3 (constant S_ .f32 0x47435000#32),
    StableHlo.unary main_cst_3 main_v12 (broadcastInDim S128 ![] bcast_S_S128 : (⟨S_, .f32⟩ : BufTy).Contents (Elt F) → (⟨S128, .f32⟩ : BufTy).Contents (Elt F)),
    StableHlo.binary main_v11 main_v12 main_v13 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v10) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v10) main_call0.v4 main_call0.v5 subf,
    StableHlo.TRef.binary main_call0.v5 main_call0.v5 main_call0.v6 mulf,
    StableHlo.TRef.unary (.of main_c_4) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v13 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v16 main_v17 (subf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3727C5AC#32),
    StableHlo.unary main_cst_5 main_v18 (broadcastInDim S128 ![] bcast_S_S128 : (⟨S_, .f32⟩ : BufTy).Contents (Elt F) → (⟨S128, .f32⟩ : BufTy).Contents (Elt F)),
    StableHlo.binary main_v14 main_v18 main_v19 (addf : (⟨S128, .f32⟩ : BufTy).Contents (Elt F) → (⟨S128, .f32⟩ : BufTy).Contents (Elt F) → (⟨S128, .f32⟩ : BufTy).Contents (Elt F)),
    StableHlo.unary main_v19 main_v20 (Host.rsqrt : (⟨S128, .f32⟩ : BufTy).Contents (Elt F) → (⟨S128, .f32⟩ : BufTy).Contents (Elt F)),
    StableHlo.unary main_v20 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v22 main_v23 (mulf : (⟨S50000x128, .f32⟩ : BufTy).Contents (Elt F) → (⟨S50000x128, .f32⟩ : BufTy).Contents (Elt F) → (⟨S50000x128, .f32⟩ : BufTy).Contents (Elt F)),
    StableHlo.unary main_arg2 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (mulf : (⟨S50000x128, .f32⟩ : BufTy).Contents (Elt F) → (⟨S50000x128, .f32⟩ : BufTy).Contents (Elt F) → (⟨S50000x128, .f32⟩ : BufTy).Contents (Elt F)),
    StableHlo.unary main_arg3 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v28 main_v29 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.unary main_cst_6 main_v30 (broadcastInDim S50000x128 ![] bcast_S_S50000x128 : (⟨S_, .f32⟩ : BufTy).Contents (Elt F) → (⟨S50000x128, .f32⟩ : BufTy).Contents (Elt F)),
    StableHlo.binary main_v29 main_v30 main_v31 (cmpf .oge : (⟨S50000x128, .f32⟩ : BufTy).Contents (Elt F) → (⟨S50000x128, .f32⟩ : BufTy).Contents (Elt F) → (⟨S50000x128, .i1⟩ : BufTy).Contents (Elt F)),
    StableHlo.nullary main_cst_7 (constant S_ .f32 0x3C23D70A#32),
    StableHlo.unary main_cst_7 main_v32 (broadcastInDim S50000x128 ![] bcast_S_S50000x128 : (⟨S_, .f32⟩ : BufTy).Contents (Elt F) → (⟨S50000x128, .f32⟩ : BufTy).Contents (Elt F)),
    StableHlo.binary main_v32 main_v29 main_v33 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v31) (.of main_v29) (.of main_v33) main_call1.v0 select ]

end Cert.ReferenceIdeal.Hand

end
-- ==== Proof.Val.RefRun.lean ====
/-
  The reference program's run. @main calls three functions of its module (the column variance, the select inside
  it and the select after it), so its straight line is the callees' operations placed at their call sites over
  the buffers each call names. Sixty-six operations in all. The run of that line ends
  with the result buffer at the operations' composed term of the five arguments, and the arguments as they were.

  The composed term is given in stages, each the mathematics of one step of the layer:
  the neighbour indices made non-negative, the mean of the sixteen gathered rows, its product with the weight,
  the column mean and column variance of that product over the fifty thousand rows, the normalisation with the
  learned scale and shift, and the leaky rectifier.
-/
import proofs.«403631_j48275432407145_1_alg».proof.Proof.Gen.ReferenceIdeal
import proofs.«403631_j48275432407145_1_alg».proof.Proof.Val.RefOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages of the value -/

/-- A neighbour index counted from the end (negative) is moved to its place from the start: `i + 100000` where
    `i < 0`, `i` elsewhere. -/
def wrapIdx (a4 : (⟨S50000x16, .i32⟩ : BufTy).Contents (Elt F)) : (⟨S50000x16, .i32⟩ : BufTy).Contents (Elt F) :=
  select (cmpi .slt a4 (broadcastInDim S50000x16 ![] bcast_S_S50000x16 (constantI S_ 32 0#32)))
    (addi a4 (broadcastInDim S50000x16 ![] bcast_S_S50000x16 (constantI S_ 32 100000#32))) a4

/-- Row `n`: the sum of the sixteen feature rows its neighbours name, divided by sixteen. -/
def neighMean (a0 : (⟨S100000x128, .f32⟩ : BufTy).Contents (Elt F)) (a4 : (⟨S50000x16, .i32⟩ : BufTy).Contents (Elt F)) : (⟨S50000x128, .f32⟩ : BufTy).Contents (Elt F) :=
  Host.divf
    (Host.reduceAdd
      (Host.gather gather_S100000x128_S50000x16x1_S50000x16x128_2_0_n_n_0_2_1128 a0
        (broadcastInDim S50000x16x1 ![0, 1] bcast_S50000x16_S50000x16x1_0_1 (wrapIdx a4)))
      (constant S_ .f32 0x00000000#32) reducesTo_S50000x16x128_S50000x128_d1 h_S_)
    (broadcastInDim S50000x128 ![] bcast_S_S50000x128 (constant S_ .f32 0x41800000#32))

/-- The neighbour means times the weight matrix. -/
def projected (a0 : (⟨S100000x128, .f32⟩ : BufTy).Contents (Elt F)) (a1 : (⟨S128x128, .f32⟩ : BufTy).Contents (Elt F)) (a4 : (⟨S50000x16, .i32⟩ : BufTy).Contents (Elt F)) :
    (⟨S50000x128, .f32⟩ : BufTy).Contents (Elt F) :=
  Host.dotGeneral dot_S50000x128_S128x128_S50000x128_1_0_0_1_n_n none (neighMean a0 a4) a1

/-- Each column's mean over the fifty thousand rows. -/
def colMean (x : (⟨S50000x128, .f32⟩ : BufTy).Contents (Elt F)) : (⟨S128, .f32⟩ : BufTy).Contents (Elt F) :=
  Host.divf (Host.reduceAdd x (constant S_ .f32 0x00000000#32) reducesTo_S50000x128_S128_d0 h_S_)
    (broadcastInDim S128 ![] bcast_S_S128 (constant S_ .f32 0x47435000#32))

/-- The variance's divisor as the function computes it: fifty thousand less the degrees of freedom removed, which
    are none. -/
abbrev varDivisor : (⟨S_, .f32⟩ : BufTy).Contents (Elt F) :=
  subf (constant S_ .f32 0x47435000#32) (sitofp .f32 (constantI S_ 32 0#32 : (⟨S_, .i32⟩ : BufTy).Contents (Elt F)))

/-- Each column's variance over the fifty thousand rows, as the module's variance function computes it: the sum of the
    squared deviations from the column mean, divided by `50000 - 0` (no degrees of freedom removed); the function
    answers not-a-number where that divisor is not positive, which is the select around the quotient. -/
def colVar (x : (⟨S50000x128, .f32⟩ : BufTy).Contents (Elt F)) : (⟨S128, .f32⟩ : BufTy).Contents (Elt F) :=
  select
    (broadcastInDim S128 ![] bcast_S_S128
      (cmpf .ogt (varDivisor (F := F)) (constant S_ .f32 0x00000000#32)))
    (Host.divf
      (Host.reduceAdd
        (mulf
          (subf x (broadcastInDim S50000x128 ![0, 1] bcast_S1x128_S50000x128_0_1
            (Host.divf
              (broadcastInDim S1x128 ![1] bcast_S128_S1x128_1
                (Host.reduceAdd x (constant S_ .f32 0x00000000#32) reducesTo_S50000x128_S128_d0 h_S_))
              (broadcastInDim S1x128 ![] bcast_S_S1x128 (constant S_ .f32 0x47435000#32)))))
          (subf x (broadcastInDim S50000x128 ![0, 1] bcast_S1x128_S50000x128_0_1
            (Host.divf
              (broadcastInDim S1x128 ![1] bcast_S128_S1x128_1
                (Host.reduceAdd x (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128 (varDivisor (F := F))))
    (broadcastInDim S128 ![] bcast_S_S128 (id (constant S_ .f32 0x7FC00000#32)))

/-- A vector over the columns laid along every row. -/
abbrev alongRows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The projected rows normalised column by column, scaled and shifted. -/
def normalised (x : (⟨S50000x128, .f32⟩ : BufTy).Contents (Elt F)) (a2 a3 : (⟨S128, .f32⟩ : BufTy).Contents (Elt F)) : (⟨S50000x128, .f32⟩ : BufTy).Contents (Elt F) :=
  addf
    (mulf
      (mulf (subf x (alongRows (colMean x)))
        (alongRows (Host.rsqrt (addf (colVar x) (broadcastInDim S128 ![] bcast_S_S128 (constant S_ .f32 0x3727C5AC#32))))))
      (alongRows a2))
    (alongRows a3)

/-- The layer's value: the normalised rows where they are non-negative, a hundredth of them elsewhere. -/
def refTerm (a0 : (⟨S100000x128, .f32⟩ : BufTy).Contents (Elt F)) (a1 : (⟨S128x128, .f32⟩ : BufTy).Contents (Elt F)) (a2 a3 : (⟨S128, .f32⟩ : BufTy).Contents (Elt F))
    (a4 : (⟨S50000x16, .i32⟩ : BufTy).Contents (Elt F)) : (⟨S50000x128, .f32⟩ : BufTy).Contents (Elt F) :=
  select
    (cmpf .oge (normalised (projected a0 a1 a4) a2 a3)
      (broadcastInDim S50000x128 ![] bcast_S_S50000x128 (constant S_ .f32 0x00000000#32)))
    (normalised (projected a0 a1 a4) a2 a3)
    (mulf (broadcastInDim S50000x128 ![] bcast_S_S50000x128 (constant S_ .f32 0x3C23D70A#32))
      (normalised (projected a0 a1 a4) a2 a3))

/-! ## The program as one straight line -/

/-! The line is `refOps`, the list in the module beside this one: twenty-one operations of @main's own up to the
projected rows and their column mean, the variance function's nineteen with its select's three over the buffers
that call names, twenty-two of @main's own for the normalisation, and the final select over its call's buffer. -/

-- sixty-six binds re-associated: the rewrite under the chain recurses once per statement
set_option maxRecDepth 2048 in
/-- @main is that straight line: each function's definition unfolded at its call, the records at their fields,
    and sequencing re-associated. -/
theorem main_eq (c : Dev nD) : main (F := F) c = seq refOps := by
  simp only [main, fn_var.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches only buffers of the core: the predicate unfolded over the list, each
    conjunct is the inclusion its kind of operation has. -/
theorem refOps_sub : (refOps : List (HloOp τ sig (Elt F))).Forall fun op => op.bufs ⊆ tcRefs τ sig := by
  simp only [refOps, List.Forall, nullary_bufs_sub, unary_bufs_sub, binary_bufs_sub, ternary_bufs_sub, and_self]

/-! ## The fold read back, and the run -/

attribute [local irreducible] Host.reduceAdd Host.gather in
set_option maxRecDepth 8192 in
set_option maxHeartbeats 800000 in
/-- The fold of the sixty-six operations, read at the result buffer, is the staged term of the five arguments:
    each operation's result at its own buffer is its function of its operands' contents, at any other buffer what
    was there; the typed references' transports are the identity at these literal buffers. The reductions and the
    gather stay folded: the equation never looks inside them. -/
theorem out_eq (V : Valuation τ sig (Elt F)) :
    after refOps V (main_v34 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

/-! No operation writes an argument: each keeps its launch contents. -/

theorem arg0_eq (V : Valuation τ sig (Elt F)) :
    after refOps V (main_arg0 : DevRef τ sig) = V (main_arg0 : DevRef τ sig) := by
  after_results_simp

theorem arg1_eq (V : Valuation τ sig (Elt F)) :
    after refOps V (main_arg1 : DevRef τ sig) = V (main_arg1 : DevRef τ sig) := by
  after_results_simp

theorem arg2_eq (V : Valuation τ sig (Elt F)) :
    after refOps V (main_arg2 : DevRef τ sig) = V (main_arg2 : DevRef τ sig) := by
  after_results_simp

theorem arg3_eq (V : Valuation τ sig (Elt F)) :
    after refOps V (main_arg3 : DevRef τ sig) = V (main_arg3 : DevRef τ sig) := by
  after_results_simp

theorem arg4_eq (V : Valuation τ sig (Elt F)) :
    after refOps V (main_arg4 : DevRef τ sig) = V (main_arg4 : DevRef τ sig) := by
  after_results_simp

/-- On the device, for any float values, from any memory with zero counters: every weakly fair execution of @main
    terminates with the result buffer at the layer's staged value of the five arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = refTerm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v34).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => refOps) main_eq (fun _ => refOps_sub) m ρ)

end Cert.ReferenceIdeal.Hand

end
-- ==== Proof.Val.RefValue.lean ====
/-
  The reference's value is the specified function. The reference's composed term comes in stages — the neighbour words
  made non-negative, the mean of the sixteen gathered rows, the product with the weights, each column's mean and variance
  over the batch, the normalisation, the leaky rectifier — and each stage is read here at an index, at the extended reals,
  as the specification's term for it.

  The neighbour words are assumed below the table's height, 100000. Such a word is not negative read as a signed integer,
  so the move of negative indices to the table's end leaves it alone, and the gather's holding of the row inside the
  table does too: the row read is the word's own value. A sum over one axis from the zero word is the sum over that axis's
  coordinates; the contraction is the plain matrix product's; the variance function's divisor, fifty thousand less the
  integer zero, is fifty thousand's word and is positive, so the function answers its quotient and not its fill value.
  The float constants stay words throughout, except that the batch size's word is evaluated once, to see that it is positive.
-/
import proofs.«403631_j48275432407145_1_alg».proof.Proof.Val.RefRun
import proofs.«403631_j48275432407145_1_alg».proof.Proof.Val.Spec
import Idealize.ShloMosaic.Lib.IdealHost
import Idealize.ShloMosaic.Lib.ValueIdx
import Idealize.ShloMosaic.Lib.StackMember

noncomputable section

namespace Cert.ReferenceIdeal.Hand

open Cert.ReferenceIdeal Cert.ReferenceIdeal.Gen Idealize.ShloMosaic Idealize.ShloMosaic.ValueIdx
open scoped BigOperators

/-- A neighbour word below the table's height is not negative as a signed integer, so the reference's move of negative
    indices leaves it alone. -/
theorem wrapIdx_apply (a4 : (⟨S50000x16, .i32⟩ : BufTy).Contents (Elt Ideal)) (hin : ∀ i, (a4 i).toNat < 100000)
    (i : S50000x16.Idx) : wrapIdx (F := Ideal) a4 i = a4 i := by
  have h := hin i
  show Scalar.select (IntOp.cmpi .slt (a4 i) 0#32) (IntOp.addi (a4 i) 100000#32) (a4 i) = a4 i
  have hc : IntOp.cmpi .slt (a4 i) 0#32 = 0#1 := by
    have : (a4 i).slt 0#32 = false := by
      simp only [BitVec.slt, BitVec.toInt]
      simp
      omega
    simp only [IntOp.cmpi, this]
    rfl
  rw [hc, select_zero]

/-- The gather's operand index on the table's row axis: the start index read signed, held inside the table. -/
theorem gather_axis0 (idx : IVec S50000x16x1 32) (i : Fin 50000) (k : Fin 16) (f : Fin 128) :
    ((gather_S100000x128_S50000x16x1_S50000x16x128_2_0_n_n_0_2_1128).operandIdx (ix3 i k f) idx (0 : Fin 2)).val
      = min (idx (ix3 i k (0 : Fin 1))).toInt.toNat 99999 := by
  show (gather_S100000x128_S50000x16x1_S50000x16x128_2_0_n_n_0_2_1128).start (ix3 i k f) idx 0
    + (gather_S100000x128_S50000x16x1_S50000x16x128_2_0_n_n_0_2_1128).batchCoord (ix3 i k f) 0
    + (gather_S100000x128_S50000x16x1_S50000x16x128_2_0_n_n_0_2_1128).offCoord (ix3 i k f) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gather_S100000x128_S50000x16x1_S50000x16x128_2_0_n_n_0_2_1128).startIndexMap from List.mem_singleton.mpr rfl)]
  have hsi : (gather_S100000x128_S50000x16x1_S50000x16x128_2_0_n_n_0_2_1128).siIdx (ix3 i k f)
      ⟨List.idxOf (0 : Fin 2) (gather_S100000x128_S50000x16x1_S50000x16x128_2_0_n_n_0_2_1128).startIndexMap,
      List.idxOf_lt_length_iff.2 (List.mem_singleton.mpr rfl)⟩ = ix3 i k (0 : Fin 1) := by
    funext b; refine Fin.ext ?_
    match b with
    | ⟨0, _⟩ => rfl
    | ⟨1, _⟩ => rfl
    | ⟨2, _⟩ => rfl
  rw [hsi]
  rfl

/-- The gather's operand index on the feature axis: the result's feature coordinate. -/
theorem gather_axis1 (idx : IVec S50000x16x1 32) (i : Fin 50000) (k : Fin 16) (f : Fin 128) :
    ((gather_S100000x128_S50000x16x1_S50000x16x128_2_0_n_n_0_2_1128).operandIdx (ix3 i k f) idx (1 : Fin 2)).val = f.val := by
  show (gather_S100000x128_S50000x16x1_S50000x16x128_2_0_n_n_0_2_1128).start (ix3 i k f) idx 1
    + (gather_S100000x128_S50000x16x1_S50000x16x128_2_0_n_n_0_2_1128).batchCoord (ix3 i k f) 1
    + (gather_S100000x128_S50000x16x1_S50000x16x128_2_0_n_n_0_2_1128).offCoord (ix3 i k f) 1 = _
  rw [GatherDims.batchCoord_eq_zero _ _ _ List.not_mem_nil]
  unfold GatherDims.start
  rw [dif_neg (show (1 : Fin 2) ∉ (gather_S100000x128_S50000x16x1_S50000x16x128_2_0_n_n_0_2_1128).startIndexMap by decide)]
  simp only [Nat.add_zero, Nat.zero_add]
  unfold GatherDims.offCoord
  rw [dif_pos (show (1 : Fin 2) ∈ (gather_S100000x128_S50000x16x1_S50000x16x128_2_0_n_n_0_2_1128).sKept by decide)]
  rfl

/-- THE GATHER READ AT (node, neighbour, feature): the table at the row the start index names, that feature. -/
theorem gather_rows_apply (x : FVec Ideal S100000x128 .f32) (idx : IVec S50000x16x1 32) (i : Fin 50000) (k : Fin 16) (f : Fin 128) :
    Host.gather gather_S100000x128_S50000x16x1_S50000x16x128_2_0_n_n_0_2_1128 x idx (ix3 i k f)
      = x (ix2 (⟨min (idx (ix3 i k (0 : Fin 1))).toInt.toNat 99999, by omega⟩ : Fin 100000) f) := by
  unfold Host.gather
  refine congrArg x (funext fun a => Fin.ext ?_)
  match a with
  | ⟨0, _⟩ => exact gather_axis0 idx i k f
  | ⟨1, _⟩ => exact gather_axis1 idx i k f

theorem reducesK : S50000x16x128.Reduces [1] S50000x128 := by decide

/-- The row a reduced index and a neighbour coordinate name in the gathered array. -/
theorem liftK (i : Fin 50000) (f : Fin 128) (k : Fin 16) :
    reducesK.lift (ix2 i f) k = ix3 i k f := by
  funext a; refine Fin.ext ?_
  match a with
  | ⟨0, _⟩ => rfl
  | ⟨1, _⟩ => rfl
  | ⟨2, _⟩ => rfl

/-- The first stage at (node, feature): the sum of the sixteen named rows' feature, divided by sixteen. -/
theorem neighMean_apply (a0 : (⟨S100000x128, .f32⟩ : BufTy).Contents (Elt Ideal)) (a4 : (⟨S50000x16, .i32⟩ : BufTy).Contents (Elt Ideal))
    (hin : ∀ i, (a4 i).toNat < 100000) (i : Fin 50000) (f : Fin 128) :
    neighMean (F := Ideal) a0 a4 (ix2 i f) = Cert.Val.aggOf a0 a4 i f := by
  show Ideal.div (Ideal.hostReduceAdd reducesTo_S50000x16x128_S50000x128_d1
      (Host.gather gather_S100000x128_S50000x16x1_S50000x16x128_2_0_n_n_0_2_1128 a0
        (broadcastInDim S50000x16x1 ![0, 1] bcast_S50000x16_S50000x16x1_0_1 (wrapIdx (F := Ideal) a4)))
      (Ideal.ofBits .f32 0x00000000#32) (ix2 i f)) (Ideal.ofBits .f32 0x41800000#32) = _
  rw [Ideal.hostReduceAdd_single reducesTo_S50000x16x128_S50000x128_d1 reducesK, Ideal.ofBits_zero_f32, zero_add]
  unfold Cert.Val.aggOf
  congr 1
  show ∑ k : Fin 16, _ = _
  refine Finset.sum_congr rfl fun k _ => ?_
  rw [liftK, gather_rows_apply]
  refine congrArg a0 ?_
  have hk : broadcastInDim S50000x16x1 ![0, 1] bcast_S50000x16_S50000x16x1_0_1 (wrapIdx (F := Ideal) a4) (ix3 i k (0 : Fin 1))
      = a4 (ix2 i k) := by
    rw [← wrapIdx_apply a4 hin (ix2 i k)]
    unfold broadcastInDim
    refine congrArg _ (funext fun a => Fin.ext ?_)
    match a with
    | ⟨0, _⟩ => rfl
    | ⟨1, _⟩ => rfl
  have h := hin (ix2 i k)
  have hr : (Cert.Val.rowOf (a4 (ix2 i k))).val = min (a4 (ix2 i k)).toInt.toNat 99999 := by
    show min (a4 (ix2 i k)).toNat 99999 = _
    have : (a4 (ix2 i k)).toInt = ((a4 (ix2 i k)).toNat : Int) := by
      simp only [BitVec.toInt]; simp; omega
    rw [this]; simp
  funext a; refine Fin.ext ?_
  match a with
  | ⟨0, _⟩ =>
    show min (broadcastInDim S50000x16x1 ![0, 1] bcast_S50000x16_S50000x16x1_0_1 (wrapIdx (F := Ideal) a4) (ix3 i k (0 : Fin 1))).toInt.toNat 99999
      = (Cert.Val.rowOf (a4 (ix2 i k))).val
    rw [hk]; exact hr.symm
  | ⟨1, _⟩ => rfl

/-- The reference's contraction is the plain matrix product's. -/
theorem dot_eq_plain : dot_S50000x128_S128x128_S50000x128_1_0_0_1_n_n = DotDims.plain 50000 128 128 := rfl

/-- The second stage at (node, column): the averaged features against that column of the weights. -/
theorem projected_apply (a0 : (⟨S100000x128, .f32⟩ : BufTy).Contents (Elt Ideal)) (a1 : (⟨S128x128, .f32⟩ : BufTy).Contents (Elt Ideal))
    (a4 : (⟨S50000x16, .i32⟩ : BufTy).Contents (Elt Ideal)) (hin : ∀ i, (a4 i).toNat < 100000) (i : Fin 50000) (e : Fin 128) :
    projected (F := Ideal) a0 a1 a4 (ix2 i e) = Cert.Val.xOf a0 a1 a4 i e := by
  show Host.dotGeneral (F := Ideal) (φ₁ := .f32) (φ₂ := .f32) (DotDims.plain 50000 128 128) none (neighMean (F := Ideal) a0 a4) a1 (ix2 i e) = _
  rw [StackMember.dotGeneral_plain_apply]
  unfold Cert.Val.xOf
  exact Finset.sum_congr rfl fun f _ => by rw [neighMean_apply a0 a4 hin i f]

theorem reducesN : S50000x128.Reduces [0] S128 := by decide

/-- The entry a column and a node name in the projected array. -/
theorem liftN (e : Fin 128) (i : Fin 50000) : reducesN.lift (ix1 e) i = ix2 i e := by
  funext a; refine Fin.ext ?_
  match a with
  | ⟨0, _⟩ => rfl
  | ⟨1, _⟩ => rfl

/-- A column's sum over the batch, from the zero word. -/
theorem colSum_apply (x : (⟨S50000x128, .f32⟩ : BufTy).Contents (Elt Ideal)) (e : Fin 128) :
    Host.reduceAdd x (constant (F := Ideal) S_ .f32 0x00000000#32) reducesTo_S50000x128_S128_d0 h_S_ (ix1 e)
      = ∑ i : Fin 50000, x (ix2 i e) := by
  show Ideal.hostReduceAdd reducesTo_S50000x128_S128_d0 x (Ideal.ofBits .f32 0x00000000#32) (ix1 e) = _
  rw [Ideal.hostReduceAdd_single reducesTo_S50000x128_S128_d0 reducesN, Ideal.ofBits_zero_f32, zero_add]
  show ∑ i : Fin 50000, _ = _
  exact Finset.sum_congr rfl fun i _ => by rw [liftN]

/-- The column mean at a column. -/
theorem colMean_apply (x : (⟨S50000x128, .f32⟩ : BufTy).Contents (Elt Ideal)) (e : Fin 128) :
    colMean (F := Ideal) x (ix1 e) = Cert.Val.meanOf (fun i e => x (ix2 i e)) e := by
  show Ideal.div (Host.reduceAdd x (constant (F := Ideal) S_ .f32 0x00000000#32) reducesTo_S50000x128_S128_d0 h_S_ (ix1 e))
    (Ideal.ofBits .f32 0x47435000#32) = _
  rw [colSum_apply]
  rfl

/-- A row vector laid along every row reads its own column. -/
theorem rowBcast_apply {α : Type} (v : S1x128.Idx → α) (i : Fin 50000) (e : Fin 128) :
    broadcastInDim S50000x128 ![0, 1] bcast_S1x128_S50000x128_0_1 v (ix2 i e) = v (ix2 (0 : Fin 1) e) := by
  unfold broadcastInDim
  refine congrArg v (funext fun a => Fin.ext ?_)
  match a with
  | ⟨0, _⟩ => rfl
  | ⟨1, _⟩ => rfl

/-- A vector over the columns as a one-row matrix reads its own column. -/
theorem colBcast_apply {α : Type} (v : S128.Idx → α) (z : Fin 1) (e : Fin 128) :
    broadcastInDim S1x128 ![1] bcast_S128_S1x128_1 v (ix2 z e) = v (ix1 e) := by
  unfold broadcastInDim
  refine congrArg v (funext fun a => Fin.ext ?_)
  match a with
  | ⟨0, _⟩ => rfl

/-- A vector over the columns laid along every row reads its own column. -/
theorem alongRows_apply (v : (⟨S128, .f32⟩ : BufTy).Contents (Elt Ideal)) (i : Fin 50000) (e : Fin 128) :
    alongRows (F := Ideal) v (ix2 i e) = v (ix1 e) := by
  show broadcastInDim S50000x128 ![0, 1] bcast_S1x128_S50000x128_0_1 (broadcastInDim S1x128 ![1] bcast_S128_S1x128_1 v) (ix2 i e) = _
  rw [rowBcast_apply, colBcast_apply]

/-- The batch size's word is the real number fifty thousand. -/
theorem ofBits_batch : Ideal.ofBits .f32 0x47435000#32 = ((50000 : ℝ) : EReal) := by
  simp [Ideal.ofBits, Ideal.ieee, -EReal.coe_mul]; norm_num

/-- The variance's divisor, fifty thousand less the integer zero, is fifty thousand's word. -/
theorem varDivisor_eq : varDivisor (F := Ideal) ix0 = Ideal.ofBits .f32 0x47435000#32 := by
  show Ideal.ofBits .f32 0x47435000#32 - (((0#32 : BitVec 32).toInt : ℝ) : EReal) = _
  simp

/-- That divisor is positive, so the variance function answers its quotient. -/
theorem varDivisor_pos : cmpf .ogt (varDivisor (F := Ideal)) (constant (F := Ideal) S_ .f32 0x00000000#32) ix0 = 1#1 := by
  show Ideal.cmp .ogt (varDivisor (F := Ideal) ix0) (Ideal.ofBits .f32 0x00000000#32) = 1#1
  rw [varDivisor_eq, Ideal.ofBits_zero_f32, ofBits_batch]
  unfold Ideal.cmp
  have : (0 : EReal) < ((50000 : ℝ) : EReal) := by exact_mod_cast (by norm_num : (0 : ℝ) < 50000)
  simp [this]

/-- The column variance at a column. -/
theorem colVar_apply (x : (⟨S50000x128, .f32⟩ : BufTy).Contents (Elt Ideal)) (e : Fin 128) :
    colVar (F := Ideal) x (ix1 e) = Cert.Val.varOf (fun i e => x (ix2 i e)) e := by
  unfold colVar
  rw [select_apply, broadcastInDim_scalar_apply, varDivisor_pos, select_one, hostDivf_apply, broadcastInDim_scalar_apply,
    varDivisor_eq, colSum_apply]
  unfold Cert.Val.varOf
  refine congrArg (fun s => Ideal.div s (Ideal.ofBits .f32 0x47435000#32)) ?_
  refine Finset.sum_congr rfl fun i _ => ?_
  have hm : broadcastInDim S50000x128 ![0, 1] bcast_S1x128_S50000x128_0_1
      (Host.divf (F := Ideal)
        (broadcastInDim S1x128 ![1] bcast_S128_S1x128_1
          (Host.reduceAdd x (constant (F := Ideal) S_ .f32 0x00000000#32) reducesTo_S50000x128_S128_d0 h_S_))
        (broadcastInDim S1x128 ![] bcast_S_S1x128 (constant (F := Ideal) S_ .f32 0x47435000#32))) (ix2 i e)
      = Cert.Val.meanOf (fun i e => x (ix2 i e)) e := by
    rw [rowBcast_apply, hostDivf_apply, colBcast_apply, broadcastInDim_scalar_apply, colSum_apply]
    rfl
  rw [mulf_apply, subf_apply, hm]

/-- The normalised value at (node, column). -/
theorem normalised_apply (x : (⟨S50000x128, .f32⟩ : BufTy).Contents (Elt Ideal)) (a2 a3 : (⟨S128, .f32⟩ : BufTy).Contents (Elt Ideal))
    (i : Fin 50000) (e : Fin 128) :
    normalised (F := Ideal) x a2 a3 (ix2 i e) = Cert.Val.normOf (fun i e => x (ix2 i e)) a2 a3 i e := by
  unfold normalised
  rw [addf_apply, mulf_apply, mulf_apply, subf_apply, alongRows_apply, alongRows_apply, alongRows_apply, alongRows_apply,
    colMean_apply]
  show (_ - _) * Ideal.rsqrt (colVar (F := Ideal) x (ix1 e) + Ideal.ofBits .f32 0x3727C5AC#32) * _ + _ = _
  rw [colVar_apply]
  rfl

/-- THE REFERENCE IS THE SPECIFIED FUNCTION of its five arguments, once every neighbour word is below the table's height. -/
theorem refTerm_eq_G (a0 : (⟨S100000x128, .f32⟩ : BufTy).Contents (Elt Ideal)) (a1 : (⟨S128x128, .f32⟩ : BufTy).Contents (Elt Ideal))
    (a2 a3 : (⟨S128, .f32⟩ : BufTy).Contents (Elt Ideal)) (a4 : (⟨S50000x16, .i32⟩ : BufTy).Contents (Elt Ideal))
    (hin : ∀ i, (a4 i).toNat < 100000) :
    refTerm (F := Ideal) a0 a1 a2 a3 a4 = Cert.Val.G a0 a1 a2 a3 a4 := by
  funext j
  obtain ⟨i, e, rfl⟩ : ∃ (i : Fin 50000) (e : Fin 128), j = ix2 i e := ⟨j 0, j 1, eq_ix2 j⟩
  have hx : (fun i e => projected (F := Ideal) a0 a1 a4 (ix2 i e)) = Cert.Val.xOf a0 a1 a4 :=
    funext fun i => funext fun e => projected_apply a0 a1 a4 hin i e
  show Scalar.select (Ideal.cmp .oge (normalised (F := Ideal) (projected (F := Ideal) a0 a1 a4) a2 a3 (ix2 i e)) (Ideal.ofBits .f32 0x00000000#32))
      (normalised (F := Ideal) (projected (F := Ideal) a0 a1 a4) a2 a3 (ix2 i e))
      (Ideal.ofBits .f32 0x3C23D70A#32 * normalised (F := Ideal) (projected (F := Ideal) a0 a1 a4) a2 a3 (ix2 i e)) = _
  rw [Cert.Val.leaky_select, Cert.Val.G_apply, normalised_apply, hx]

end Cert.ReferenceIdeal.Hand

end
-- ==== Proof.KI.Base.lean ====
/-
  Shared vocabulary of the frame and value development of this kernel's printed program, at any float instance:
  the resource algebra the pipelines run over (the pipeline library's rounds component beside the counters a
  kernel's own transfers use), no variants, no levels (no core owes another anything), and the thread state that
  rides beside the unscoped buffers between @main's items: the generator register at some state and the core owing
  nothing.
-/
import proofs.«403631_j48275432407145_1_alg».proof.Proof.Gen.KernelIdeal.Launch
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's rounds copy beside the transfer counters. -/
abbrev UC : Type := Pipeline.UD sig nD τ

local notation "𝕄" => MT nD τ sig Unit (Elt F) ℕ UC ℕ

/-- The pipeline library's component is the left one. -/
abbrev EP : Emb (UR sig nD τ) (MT nD τ sig Unit (Elt F) ℕ UC ℕ) := embL

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every item of @main: the generator register at some state
    and the core owing nothing. -/
abbrev R (c : Dev nD) : sProp 𝕄 :=
  iprop((∃ r, prngReg c r) ∗ ∃ W, owes (c : Thread nD τ) (0 : CellTallies nD τ sig Unit) W)

/-- The thread state between two items: every unscoped buffer of the core at the valuation `W`, beside `R`. -/
abbrev T (W : Valuation τ sig (Elt F)) (c : Dev nD) : sProp 𝕄 :=
  iprop(StableHlo.held (c : Thread nD τ) (Pipeline.ucRefs τ sig) W ∗ R c)

end Cert.KernelIdeal.Hand

end
-- ==== Proof.KI.G24Body.lean ====
/-
  The gather kernel's body at a symbolic grid point, at any float instance and over variable operands.

  At grid point `i = (core, r)` the body reads sixteen words of the table (row `k`, column `core · 1000 + r`), each a row
  index of the (100000, 128) array, copies those sixteen rows into the (16, 128) gather buffer — sixteen copies in flight at
  once, one per counter —, stores the mean of the sixteen rows in row `r` of the carried (1000, 128) scratch, and, at a core's
  last point only (`r = 999`), stores the product of the whole scratch with the weight block in the output's buffer.

  Two triples, one per control case. The array is read by sixteen copies at once, so it is held under sixteen read shares
  for the time of the copies and whole before and after; the gather buffer is held row by row while the copies land, each
  in its own row, and whole again when the rows are read back. What the rows hold is stated in closed form: `gath24` (row
  `k` is the array's row named by the table's word), so the scratch after the point is `row24`: its row `r` replaced by
  the mean `Gen.k24_pay1 (gath24 …)`, every other row kept.
-/
import proofs.«403631_j48275432407145_1_alg».proof.Proof.KI.Base
import proofs.«403631_j48275432407145_1_alg».proof.Proof.Gen.KernelIdeal.Skeleton
import Idealize.ShloMosaic.Lib.ValueIdx
import Idealize.ShloMosaic.Lib.Writes
import Idealize.ShloMosaic.Lib.Pipeline.FrameBody
import Idealize.ShloMosaic.Lib.Tactic
import Idealize.ShloMosaic.Lib.Ring
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A row index below the array's row count keeps a one-row window inside the array. -/
theorem row_inb (v : BitVec 32) (h : v.toNat < 100000) :
    ∀ a : Fin 2, (![v.toNat, 0] : Fin 2 → Nat) a + S1x128.size a ≤ S100000x128.size a := by
  intro a
  fin_cases a
  · show v.toNat + 1 ≤ 100000
    omega
  · show 0 + 128 ≤ 128
    omega

/-- Each gathered word's side condition follows from the word being a row index of the array. -/
theorem chk_of_lt (v : BitVec 32) (h : v.toNat < 100000) : k24_chk1 v := ⟨row_inb v h, row_inb v h⟩
theorem chk16_of_lt (v : BitVec 32) (h : v.toNat < 100000) : k24_chk16 v := row_inb v h

/-- An array read by sixteen transfers at once: one read share per transfer and the remainder. -/
theorem toks16 {ℓ : Loc nD τ sig} {S : Finset (Idx ℓ)} {f : Buf (Elt F) ℓ} :
    (ℓ ↦[S]{fullShare} f : sProp 𝕄) ⊣⊢
      iprop((ℓ ↦[S]{Transfers.shareDrop fullShare 16} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f) ∗ (ℓ ↦[S]{Transfers.shareTokN fullShare 10} f) ∗ (ℓ ↦[S]{Transfers.shareTokN fullShare 11} f) ∗ (ℓ ↦[S]{Transfers.shareTokN fullShare 12} f) ∗ (ℓ ↦[S]{Transfers.shareTokN fullShare 13} f) ∗ (ℓ ↦[S]{Transfers.shareTokN fullShare 14} f) ∗ (ℓ ↦[S]{Transfers.shareTokN fullShare 15} f)) := by
  have h := Transfers.pointsTo_toks_range (Ix := Unit) (Name := ℕ) (U := Pipeline.UD sig nD τ) (Lvl := ℕ) (Val := Elt F) (ℓ := ℓ) (S := S) (f := f) fullShare 16
  rw [BI.bigSep_eq_bigSepL_of_eq [0, 1, 2, 3, 4, 5, 6, 7, 8, 9, 10, 11, 12, 13, 14, 15] (by decide) (by decide)] at h
  exact h

/-- The scratch rows: row `k` of the (16, 128) gather buffer. -/
abbrev rowOff (k : Fin 16) : Fin 2 → Nat := ![k.val, 0]
theorem rowInb : ∀ (k : Fin 16) (a : Fin 2), rowOff k a + S1x128.size a ≤ S16x128.size a := by decide
abbrev rowR (k : Fin 16) : Rect S16x128 := Rect.unit (s := S16x128) (rowOff k) S1x128.size (rowInb k)

theorem rowR_disjoint (b b' : Fin 16) (h : b ≠ b') : Disjoint (rowR b).set (rowR b').set :=
  Ring.lead_disjoint (s := S16x128) (NB := 16) (0 : Fin 2) 1 rowOff S1x128.size rowInb (by intro b; show b.val = 1 * b.val; omega) (by rfl) b b' h

theorem rowR_cover : Finset.univ.biUnion (fun b : Fin 16 => (rowR b).set) = Finset.univ :=
  Ring.lead_cover (s := S16x128) (NB := 16) (0 : Fin 2) 1 rowOff S1x128.size rowInb (by intro b; show b.val = 1 * b.val; omega)
    (by intro b a ha; fin_cases a <;> simp_all [rowOff]) (by rfl) (by intro a ha; fin_cases a <;> simp_all <;> rfl) (by rfl)

/-- The gather buffer held whole is held row by row. -/
theorem rows_split (c : Dev nD) (arg7 : Memref sig .tc .vmem S16x128 .f32) (q : PosShare TreeShare)
    (g : arg7.view.ty.Contents (Elt F)) :
    (arg7.view.loc (c : Thread nD τ) ↦[arg7.view.set]{q} g : sProp 𝕄)
      = iprop((arg7.view.loc (c : Thread nD τ) ↦[arg7.view.setOn (Rect.unit (s := S16x128) ![0, 0] S1x128.size inb_S16x128_S1x128_0_0).set]{q} g)
      ∗ (arg7.view.loc (c : Thread nD τ) ↦[arg7.view.setOn (Rect.unit (s := S16x128) ![1, 0] S1x128.size inb_S16x128_S1x128_1_0).set]{q} g)
      ∗ (arg7.view.loc (c : Thread nD τ) ↦[arg7.view.setOn (Rect.unit (s := S16x128) ![2, 0] S1x128.size inb_S16x128_S1x128_2_0).set]{q} g)
      ∗ (arg7.view.loc (c : Thread nD τ) ↦[arg7.view.setOn (Rect.unit (s := S16x128) ![3, 0] S1x128.size inb_S16x128_S1x128_3_0).set]{q} g)
      ∗ (arg7.view.loc (c : Thread nD τ) ↦[arg7.view.setOn (Rect.unit (s := S16x128) ![4, 0] S1x128.size inb_S16x128_S1x128_4_0).set]{q} g)
      ∗ (arg7.view.loc (c : Thread nD τ) ↦[arg7.view.setOn (Rect.unit (s := S16x128) ![5, 0] S1x128.size inb_S16x128_S1x128_5_0).set]{q} g)
      ∗ (arg7.view.loc (c : Thread nD τ) ↦[arg7.view.setOn (Rect.unit (s := S16x128) ![6, 0] S1x128.size inb_S16x128_S1x128_6_0).set]{q} g)
      ∗ (arg7.view.loc (c : Thread nD τ) ↦[arg7.view.setOn (Rect.unit (s := S16x128) ![7, 0] S1x128.size inb_S16x128_S1x128_7_0).set]{q} g)
      ∗ (arg7.view.loc (c : Thread nD τ) ↦[arg7.view.setOn (Rect.unit (s := S16x128) ![8, 0] S1x128.size inb_S16x128_S1x128_8_0).set]{q} g)
      ∗ (arg7.view.loc (c : Thread nD τ) ↦[arg7.view.setOn (Rect.unit (s := S16x128) ![9, 0] S1x128.size inb_S16x128_S1x128_9_0).set]{q} g)
      ∗ (arg7.view.loc (c : Thread nD τ) ↦[arg7.view.setOn (Rect.unit (s := S16x128) ![10, 0] S1x128.size inb_S16x128_S1x128_10_0).set]{q} g)
      ∗ (arg7.view.loc (c : Thread nD τ) ↦[arg7.view.setOn (Rect.unit (s := S16x128) ![11, 0] S1x128.size inb_S16x128_S1x128_11_0).set]{q} g)
      ∗ (arg7.view.loc (c : Thread nD τ) ↦[arg7.view.setOn (Rect.unit (s := S16x128) ![12, 0] S1x128.size inb_S16x128_S1x128_12_0).set]{q} g)
      ∗ (arg7.view.loc (c : Thread nD τ) ↦[arg7.view.setOn (Rect.unit (s := S16x128) ![13, 0] S1x128.size inb_S16x128_S1x128_13_0).set]{q} g)
      ∗ (arg7.view.loc (c : Thread nD τ) ↦[arg7.view.setOn (Rect.unit (s := S16x128) ![14, 0] S1x128.size inb_S16x128_S1x128_14_0).set]{q} g)
      ∗ (arg7.view.loc (c : Thread nD τ) ↦[arg7.view.setOn (Rect.unit (s := S16x128) ![15, 0] S1x128.size inb_S16x128_S1x128_15_0).set]{q} g)) := by
  rw [pointsTo_rects (c : Thread nD τ) arg7 q rowR (fun _ _ => rfl) rowR_disjoint rowR_cover g,
    BI.bigSep_congr (fun t _ => (owns_slice_read (c : Thread nD τ) arg7 q (rowR t) (fun _ => rfl) g).trans
      (show _ = (arg7.view.loc (c : Thread nD τ) ↦[arg7.view.setOn (rowR t).set]{q} g : sProp 𝕄) by rw [View.set_slice]; rfl)),
    BI.bigSep_univ_eq_bigSepL [0, 1, 2, 3, 4, 5, 6, 7, 8, 9, 10, 11, 12, 13, 14, 15] (by decide) (by decide)]
  rfl

set_option maxHeartbeats 4000000 in
/-- Rows held at contents of their own, each agreeing with `G` on its row, are the buffer held whole at `G`. -/
theorem rows_join (c : Dev nD) (arg7 : Memref sig .tc .vmem S16x128 .f32) (q : PosShare TreeShare)
    (g0 g1 g2 g3 g4 g5 g6 g7 g8 g9 g10 g11 g12 g13 g14 g15 G : arg7.view.ty.Contents (Elt F))
    (h0 : ∀ z ∈ arg7.view.setOn (Rect.unit (s := S16x128) ![0, 0] S1x128.size inb_S16x128_S1x128_0_0).set, g0 z = G z)
    (h1 : ∀ z ∈ arg7.view.setOn (Rect.unit (s := S16x128) ![1, 0] S1x128.size inb_S16x128_S1x128_1_0).set, g1 z = G z)
    (h2 : ∀ z ∈ arg7.view.setOn (Rect.unit (s := S16x128) ![2, 0] S1x128.size inb_S16x128_S1x128_2_0).set, g2 z = G z)
    (h3 : ∀ z ∈ arg7.view.setOn (Rect.unit (s := S16x128) ![3, 0] S1x128.size inb_S16x128_S1x128_3_0).set, g3 z = G z)
    (h4 : ∀ z ∈ arg7.view.setOn (Rect.unit (s := S16x128) ![4, 0] S1x128.size inb_S16x128_S1x128_4_0).set, g4 z = G z)
    (h5 : ∀ z ∈ arg7.view.setOn (Rect.unit (s := S16x128) ![5, 0] S1x128.size inb_S16x128_S1x128_5_0).set, g5 z = G z)
    (h6 : ∀ z ∈ arg7.view.setOn (Rect.unit (s := S16x128) ![6, 0] S1x128.size inb_S16x128_S1x128_6_0).set, g6 z = G z)
    (h7 : ∀ z ∈ arg7.view.setOn (Rect.unit (s := S16x128) ![7, 0] S1x128.size inb_S16x128_S1x128_7_0).set, g7 z = G z)
    (h8 : ∀ z ∈ arg7.view.setOn (Rect.unit (s := S16x128) ![8, 0] S1x128.size inb_S16x128_S1x128_8_0).set, g8 z = G z)
    (h9 : ∀ z ∈ arg7.view.setOn (Rect.unit (s := S16x128) ![9, 0] S1x128.size inb_S16x128_S1x128_9_0).set, g9 z = G z)
    (h10 : ∀ z ∈ arg7.view.setOn (Rect.unit (s := S16x128) ![10, 0] S1x128.size inb_S16x128_S1x128_10_0).set, g10 z = G z)
    (h11 : ∀ z ∈ arg7.view.setOn (Rect.unit (s := S16x128) ![11, 0] S1x128.size inb_S16x128_S1x128_11_0).set, g11 z = G z)
    (h12 : ∀ z ∈ arg7.view.setOn (Rect.unit (s := S16x128) ![12, 0] S1x128.size inb_S16x128_S1x128_12_0).set, g12 z = G z)
    (h13 : ∀ z ∈ arg7.view.setOn (Rect.unit (s := S16x128) ![13, 0] S1x128.size inb_S16x128_S1x128_13_0).set, g13 z = G z)
    (h14 : ∀ z ∈ arg7.view.setOn (Rect.unit (s := S16x128) ![14, 0] S1x128.size inb_S16x128_S1x128_14_0).set, g14 z = G z)
    (h15 : ∀ z ∈ arg7.view.setOn (Rect.unit (s := S16x128) ![15, 0] S1x128.size inb_S16x128_S1x128_15_0).set, g15 z = G z) :
    (iprop((arg7.view.loc (c : Thread nD τ) ↦[arg7.view.setOn (Rect.unit (s := S16x128) ![0, 0] S1x128.size inb_S16x128_S1x128_0_0).set]{q} g0)
      ∗ (arg7.view.loc (c : Thread nD τ) ↦[arg7.view.setOn (Rect.unit (s := S16x128) ![1, 0] S1x128.size inb_S16x128_S1x128_1_0).set]{q} g1)
      ∗ (arg7.view.loc (c : Thread nD τ) ↦[arg7.view.setOn (Rect.unit (s := S16x128) ![2, 0] S1x128.size inb_S16x128_S1x128_2_0).set]{q} g2)
      ∗ (arg7.view.loc (c : Thread nD τ) ↦[arg7.view.setOn (Rect.unit (s := S16x128) ![3, 0] S1x128.size inb_S16x128_S1x128_3_0).set]{q} g3)
      ∗ (arg7.view.loc (c : Thread nD τ) ↦[arg7.view.setOn (Rect.unit (s := S16x128) ![4, 0] S1x128.size inb_S16x128_S1x128_4_0).set]{q} g4)
      ∗ (arg7.view.loc (c : Thread nD τ) ↦[arg7.view.setOn (Rect.unit (s := S16x128) ![5, 0] S1x128.size inb_S16x128_S1x128_5_0).set]{q} g5)
      ∗ (arg7.view.loc (c : Thread nD τ) ↦[arg7.view.setOn (Rect.unit (s := S16x128) ![6, 0] S1x128.size inb_S16x128_S1x128_6_0).set]{q} g6)
      ∗ (arg7.view.loc (c : Thread nD τ) ↦[arg7.view.setOn (Rect.unit (s := S16x128) ![7, 0] S1x128.size inb_S16x128_S1x128_7_0).set]{q} g7)
      ∗ (arg7.view.loc (c : Thread nD τ) ↦[arg7.view.setOn (Rect.unit (s := S16x128) ![8, 0] S1x128.size inb_S16x128_S1x128_8_0).set]{q} g8)
      ∗ (arg7.view.loc (c : Thread nD τ) ↦[arg7.view.setOn (Rect.unit (s := S16x128) ![9, 0] S1x128.size inb_S16x128_S1x128_9_0).set]{q} g9)
      ∗ (arg7.view.loc (c : Thread nD τ) ↦[arg7.view.setOn (Rect.unit (s := S16x128) ![10, 0] S1x128.size inb_S16x128_S1x128_10_0).set]{q} g10)
      ∗ (arg7.view.loc (c : Thread nD τ) ↦[arg7.view.setOn (Rect.unit (s := S16x128) ![11, 0] S1x128.size inb_S16x128_S1x128_11_0).set]{q} g11)
      ∗ (arg7.view.loc (c : Thread nD τ) ↦[arg7.view.setOn (Rect.unit (s := S16x128) ![12, 0] S1x128.size inb_S16x128_S1x128_12_0).set]{q} g12)
      ∗ (arg7.view.loc (c : Thread nD τ) ↦[arg7.view.setOn (Rect.unit (s := S16x128) ![13, 0] S1x128.size inb_S16x128_S1x128_13_0).set]{q} g13)
      ∗ (arg7.view.loc (c : Thread nD τ) ↦[arg7.view.setOn (Rect.unit (s := S16x128) ![14, 0] S1x128.size inb_S16x128_S1x128_14_0).set]{q} g14)
      ∗ (arg7.view.loc (c : Thread nD τ) ↦[arg7.view.setOn (Rect.unit (s := S16x128) ![15, 0] S1x128.size inb_S16x128_S1x128_15_0).set]{q} g15)) : sProp 𝕄)
      ⊢ (arg7.view.loc (c : Thread nD τ) ↦[arg7.view.set]{q} G : sProp 𝕄) := by
  have e0 := pointsTo_congr (Ix := Unit) (Name := ℕ) (U := Pipeline.UD sig nD τ) (Lvl := ℕ) (nD := nD) (τ := τ) (ℓ := arg7.view.loc (c : Thread nD τ)) (q := q) h0
  have e1 := pointsTo_congr (Ix := Unit) (Name := ℕ) (U := Pipeline.UD sig nD τ) (Lvl := ℕ) (nD := nD) (τ := τ) (ℓ := arg7.view.loc (c : Thread nD τ)) (q := q) h1
  have e2 := pointsTo_congr (Ix := Unit) (Name := ℕ) (U := Pipeline.UD sig nD τ) (Lvl := ℕ) (nD := nD) (τ := τ) (ℓ := arg7.view.loc (c : Thread nD τ)) (q := q) h2
  have e3 := pointsTo_congr (Ix := Unit) (Name := ℕ) (U := Pipeline.UD sig nD τ) (Lvl := ℕ) (nD := nD) (τ := τ) (ℓ := arg7.view.loc (c : Thread nD τ)) (q := q) h3
  have e4 := pointsTo_congr (Ix := Unit) (Name := ℕ) (U := Pipeline.UD sig nD τ) (Lvl := ℕ) (nD := nD) (τ := τ) (ℓ := arg7.view.loc (c : Thread nD τ)) (q := q) h4
  have e5 := pointsTo_congr (Ix := Unit) (Name := ℕ) (U := Pipeline.UD sig nD τ) (Lvl := ℕ) (nD := nD) (τ := τ) (ℓ := arg7.view.loc (c : Thread nD τ)) (q := q) h5
  have e6 := pointsTo_congr (Ix := Unit) (Name := ℕ) (U := Pipeline.UD sig nD τ) (Lvl := ℕ) (nD := nD) (τ := τ) (ℓ := arg7.view.loc (c : Thread nD τ)) (q := q) h6
  have e7 := pointsTo_congr (Ix := Unit) (Name := ℕ) (U := Pipeline.UD sig nD τ) (Lvl := ℕ) (nD := nD) (τ := τ) (ℓ := arg7.view.loc (c : Thread nD τ)) (q := q) h7
  have e8 := pointsTo_congr (Ix := Unit) (Name := ℕ) (U := Pipeline.UD sig nD τ) (Lvl := ℕ) (nD := nD) (τ := τ) (ℓ := arg7.view.loc (c : Thread nD τ)) (q := q) h8
  have e9 := pointsTo_congr (Ix := Unit) (Name := ℕ) (U := Pipeline.UD sig nD τ) (Lvl := ℕ) (nD := nD) (τ := τ) (ℓ := arg7.view.loc (c : Thread nD τ)) (q := q) h9
  have e10 := pointsTo_congr (Ix := Unit) (Name := ℕ) (U := Pipeline.UD sig nD τ) (Lvl := ℕ) (nD := nD) (τ := τ) (ℓ := arg7.view.loc (c : Thread nD τ)) (q := q) h10
  have e11 := pointsTo_congr (Ix := Unit) (Name := ℕ) (U := Pipeline.UD sig nD τ) (Lvl := ℕ) (nD := nD) (τ := τ) (ℓ := arg7.view.loc (c : Thread nD τ)) (q := q) h11
  have e12 := pointsTo_congr (Ix := Unit) (Name := ℕ) (U := Pipeline.UD sig nD τ) (Lvl := ℕ) (nD := nD) (τ := τ) (ℓ := arg7.view.loc (c : Thread nD τ)) (q := q) h12
  have e13 := pointsTo_congr (Ix := Unit) (Name := ℕ) (U := Pipeline.UD sig nD τ) (Lvl := ℕ) (nD := nD) (τ := τ) (ℓ := arg7.view.loc (c : Thread nD τ)) (q := q) h13
  have e14 := pointsTo_congr (Ix := Unit) (Name := ℕ) (U := Pipeline.UD sig nD τ) (Lvl := ℕ) (nD := nD) (τ := τ) (ℓ := arg7.view.loc (c : Thread nD τ)) (q := q) h14
  have e15 := pointsTo_congr (Ix := Unit) (Name := ℕ) (U := Pipeline.UD sig nD τ) (Lvl := ℕ) (nD := nD) (τ := τ) (ℓ := arg7.view.loc (c : Thread nD τ)) (q := q) h15
  rw [rows_split (F := F) c arg7 q G, e0, e1, e2, e3, e4, e5, e6, e7, e8, e9, e10, e11, e12, e13, e14, e15]

/-- The word the kernel reads at table offsets `off`. -/
abbrev wordAt (arg2 : Memref sig .tc .smem S16x2000 .i32) (f2 : arg2.view.ty.Contents (Elt F)) (off : Fin 2 → Nat)
    (inb : ∀ a, off a + S1x1.size a ≤ S16x2000.size a) : BitVec 32 :=
  View.readAt (Elt F) arg2.view (Rect.unit (s := S16x2000) off S1x1.size inb).toLoadRect f2
    (Shape.Idx.first (show 0 < (Rect.unit (s := S16x2000) off S1x1.size inb).toLoadRect.shape.numel from Nat.one_pos))

/-- The table column of grid point `i`, as the kernel computes it: `(i 0) · 1000 + (i 1)`. -/
theorem col_eq (i : grid24.Coords) : (k24_off1 i) 1 = (i 0).val * 1000 + (i 1).val := by
  have h0 : (i 0).val < 2 := (i 0).isLt
  have h1 : (i 1).val < 1000 := (i 1).isLt
  simp only [k24_off1, Scalar.muli, Scalar.addi, Scalar.indexCast]
  show (IntOp.addi (IntOp.muli (BitVec.ofNat 32 (i 0).val) 1000#32) (BitVec.ofNat 32 (i 1).val)).toNat = _
  simp only [IntOp.addi, IntOp.muli, BitVec.toNat_add, BitVec.toNat_mul, BitVec.toNat_ofNat]
  omega

theorem off48_eq (i : grid24.Coords) : (k24_off48 i) 0 = (i 1).val := by
  have h1 : (i 1).val < 1000 := (i 1).isLt
  simp only [k24_off48, Scalar.indexCast]
  show (BitVec.ofNat 32 (i 1).val).toNat = _
  simp only [BitVec.toNat_ofNat]
  omega

theorem off48_one (i : grid24.Coords) : (k24_off48 i) 1 = 0 := rfl

/-- The table's column of grid point `i`. -/
def col24 (i : grid24.Coords) : Fin 2000 := ⟨(k24_off1 i) 1, Nat.lt_of_succ_le (k24_off1_inb i 1)⟩

/-- The sixteen gathered rows at grid point `i`: row `k` is the array's row named by the table's word `(k, column of i)`. -/
def gath24 (i : grid24.Coords) (tb : Vec F S16x2000 .i32) (A0 : Vec F S100000x128 .f32) : Vec F S16x128 .f32 :=
  fun x => A0 (ValueIdx.ix2 (⟨(tb (ValueIdx.ix2 (x 0) (col24 i))).toNat % 100000, Nat.mod_lt _ (by decide)⟩ : Fin 100000) (x 1))

/-- The carried scratch after the point: row `i 1` is the mean of the gathered rows, the others as they were. -/
def row24 (i : grid24.Coords) (tb : Vec F S16x2000 .i32) (A0 : Vec F S100000x128 .f32) (s : Vec F S1000x128 .f32) : Vec F S1000x128 .f32 :=
  fun x => if (x 0).val = (i 1).val then k24_pay1 (gath24 i tb A0) (ValueIdx.ix2 (0 : Fin 1) (x 1)) else s x

theorem row24_of_ne (i : grid24.Coords) (tb : Vec F S16x2000 .i32) (A0 : Vec F S100000x128 .f32) (s : Vec F S1000x128 .f32)
    (x : S1000x128.Idx) (h : (x 0).val ≠ (i 1).val) : row24 i tb A0 s x = s x := if_neg h

theorem row24_of_eq (i : grid24.Coords) (tb : Vec F S16x2000 .i32) (A0 : Vec F S100000x128 .f32) (s : Vec F S1000x128 .f32)
    (x : S1000x128.Idx) (h : (x 0).val = (i 1).val) (y : S1x128.Idx) (hy : (y 1).val = (x 1).val) :
    row24 i tb A0 s x = k24_pay1 (gath24 i tb A0) y := by
  unfold row24
  rw [if_pos h]
  congr 1
  funext a
  fin_cases a
  · have h1 : (y 0).val < 1 := (y 0).isLt
    exact Fin.ext (show (0 : Nat) = (y 0).val by omega)
  · exact Fin.ext hy.symm

theorem gath24_apply (i : grid24.Coords) (tb : Vec F S16x2000 .i32) (A0 : Vec F S100000x128 .f32) (k : Fin 16) (l : Fin 128)
    (hc : (i 0).val * 1000 + (i 1).val < 2000)
    (h : (tb (ValueIdx.ix2 k ⟨(i 0).val * 1000 + (i 1).val, hc⟩)).toNat < 100000) :
    gath24 i tb A0 (ValueIdx.ix2 k l) = A0 (ValueIdx.ix2 ⟨(tb (ValueIdx.ix2 k ⟨(i 0).val * 1000 + (i 1).val, hc⟩)).toNat, h⟩ l) := by
  have hcol : col24 i = ⟨(i 0).val * 1000 + (i 1).val, hc⟩ := Fin.ext (col_eq i)
  show A0 (ValueIdx.ix2 (⟨(tb (ValueIdx.ix2 k (col24 i))).toNat % 100000, _⟩ : Fin 100000) l) = _
  congr 2
  apply Fin.ext
  show (tb (ValueIdx.ix2 k (col24 i))).toNat % 100000 = _
  rw [hcol]
  exact Nat.mod_eq_of_lt h

/-- A whole load of a whole buffer held at the contents reading `X` reads `X`. -/
theorem readAt_whole_unread (arg7 : Memref sig .tc .vmem S16x128 .f32) (harg7 : arg7.IsWhole) (X : Vec F S16x128 .f32) :
    View.readAt (Elt F) arg7.view (Rect.unit (s := S16x128) ![0, 0] S16x128.size inb_S16x128_S16x128_0_0).toLoadRect (harg7.unread X) = X := by
  funext x
  unfold View.readAt
  have hx : (Rect.unit (s := S16x128) ![0, 0] S16x128.size inb_S16x128_S16x128_0_0).toLoadRect.idx x = x := by
    funext a
    apply Fin.ext
    rw [LoadRect.idx_apply]
    fin_cases a <;> simp
  rw [hx, harg7.read_unread]

/-- A row written through the squeeze of its slice agrees, on the row, with the whole buffer's contents reading `X`,
    when `X` on that row is the payload. -/
theorem row_agree (arg7 : Memref sig .tc .vmem S16x128 .f32) (harg7 : arg7.IsWhole) (R : Rect S16x128) (hR1 : ∀ a, R.stride a = 1)
    (hs : R.shape.Squeezes S128) (f7 : arg7.view.ty.Contents (Elt F)) (p : S128.Idx → Elt F .f32) (X : Vec F S16x128 .f32)
    (hX : ∀ j : R.shape.Idx, X (R.emb j) = p ((Shape.reshapeEquiv hs.numel_eq).symm j)) :
    ∀ z ∈ arg7.view.setOn R.set, View.write (Elt F) ((arg7.slice R hR1).squeeze S128 hs).view f7 p Finset.univ z = harg7.unread X z := by
  intro z hz
  obtain ⟨x, hx, rfl⟩ := Finset.mem_map.mp hz
  rw [← Rect.map_emb_univ] at hx
  obtain ⟨j, -, rfl⟩ := Finset.mem_map.mp hx
  have e : arg7.view.emb (R.emb j) = ((arg7.slice R hR1).squeeze S128 hs).view.emb ((Shape.reshapeEquiv hs.numel_eq).symm j) := by
    simp [View.emb_reshape, View.emb_slice]
  have hr := congrFun (harg7.read_unread X) (R.emb j)
  rw [View.read_apply] at hr
  rw [e, View.write_emb_of_mem _ _ (Finset.mem_univ _), ← e, ← hX j, ← hr]
  rw [cast_cast, cast_eq]

/-- The row store into the carried scratch, read back: the stored row at row `i 1`, the old contents elsewhere. -/
theorem read_row_store (arg6 : Memref sig .tc .vmem S1000x128 .f32) (i : grid24.Coords)
    (inb : ∀ a, (k24_off48 i) a + S1x128.size a ≤ S1000x128.size a) (f6 : arg6.view.ty.Contents (Elt F))
    (p : FVec F S1x128 .f32) :
    arg6.view.read (Elt F) (arg6.view.writes (Elt F) f6 [⟨Rect.unit (s := S1000x128) (k24_off48 i) S1x128.size inb, p⟩])
      = fun x => if (x 0).val = (i 1).val then p (ValueIdx.ix2 (0 : Fin 1) (x 1)) else arg6.view.read (Elt F) f6 x := by
  funext x
  by_cases h : (x 0).val = (i 1).val
  · rw [if_pos h]
    have hx : x = (Rect.unit (s := S1000x128) (k24_off48 i) S1x128.size inb).emb (ValueIdx.ix2 (0 : Fin 1) (x 1)) := by
      funext a
      apply Fin.ext
      rw [Rect.emb_apply]
      fin_cases a
      · show (x 0).val = (k24_off48 i) 0 + 1 * 0
        rw [off48_eq, h]; omega
      · show (x 1).val = (k24_off48 i) 1 + 1 * (x 1).val
        rw [off48_one]; omega
    conv_lhs => rw [hx]
    apply View.read_writes_cons_emb
  · rw [if_neg h]
    apply View.read_writes_apply_of_forall_not_mem
    intro pc hpc
    rw [List.mem_singleton] at hpc
    subst hpc
    rw [Rect.mem_set_unit]
    intro hall
    have h0 := hall 0
    rw [off48_eq] at h0
    have hz : S1x128.size 0 = 1 := rfl
    rw [hz] at h0
    omega

/-- Row `k` of the gathered rows is the transfer's payload: the array's row named by the word the kernel read. -/
theorem gath_row (i : grid24.Coords) (arg2 : Memref sig .tc .smem S16x2000 .i32) (f2 : arg2.view.ty.Contents (Elt F))
    (arg3 : Memref sig .tc .hbm S100000x128 .f32) (f3 : arg3.view.ty.Contents (Elt F))
    (k : Nat) (hk : k < 16) (inbk : ∀ a, (![k, 0] : Fin 2 → Nat) a + S1x128.size a ≤ S16x128.size a)
    (offN : Fin 2 → Nat) (inbN : ∀ a, offN a + S1x1.size a ≤ S16x2000.size a) (hN0 : offN 0 = k) (hN1 : offN 1 = (k24_off1 i) 1)
    (hfirst : 0 < (Rect.unit (s := S16x2000) offN S1x1.size inbN).toLoadRect.shape.numel)
    (offM : Fin 2 → Nat) (w : BitVec 32)
    (hw : w = View.readAt (Elt F) arg2.view (Rect.unit (s := S16x2000) offN S1x1.size inbN).toLoadRect f2 (Shape.Idx.first hfirst))
    (hwlt : w.toNat < 100000) (hM0 : offM 0 = w.toNat) (hM1 : offM 1 = 0)
    (inbM : ∀ a, offM a + S1x128.size a ≤ S100000x128.size a)
    (hs : (Rect.unit (s := S16x128) ![k, 0] S1x128.size inbk).shape.Squeezes S128)
    (hs' : (Rect.unit (s := S100000x128) offM S1x128.size inbM).shape.Squeezes S128) :
    ∀ j : (Rect.unit (s := S16x128) ![k, 0] S1x128.size inbk).shape.Idx,
      gath24 i (View.read (Elt F) arg2.view f2) (View.read (Elt F) arg3.view f3) ((Rect.unit (s := S16x128) ![k, 0] S1x128.size inbk).emb j)
        = ReadAs.same.apply (View.read (Elt F) ((arg3.slice (Rect.unit (s := S100000x128) offM S1x128.size inbM) (fun _ => rfl)).squeeze S128 hs').view f3)
            ((Shape.reshapeEquiv hs.numel_eq).symm j) := by
  intro j
  have hsrc : ReadAs.same.apply (View.read (Elt F) ((arg3.slice (Rect.unit (s := S100000x128) offM S1x128.size inbM) (fun _ => rfl)).squeeze S128 hs').view f3)
      ((Shape.reshapeEquiv hs.numel_eq).symm j)
        = View.read (Elt F) arg3.view f3 ((Rect.unit (s := S100000x128) offM S1x128.size inbM).emb
            (Shape.reshapeEquiv hs'.numel_eq ((Shape.reshapeEquiv hs.numel_eq).symm j))) := rfl
  rw [hsrc]
  have hjj : Shape.reshapeEquiv hs'.numel_eq ((Shape.reshapeEquiv hs.numel_eq).symm j) = j :=
    Equiv.apply_symm_apply (Shape.reshapeEquiv hs.numel_eq) j
  have hW : View.read (Elt F) arg2.view f2 (ValueIdx.ix2 ((Rect.unit (s := S16x128) ![k, 0] S1x128.size inbk).emb j 0) (col24 i)) = w := by
    rw [hw]
    show _ = View.read (Elt F) arg2.view f2 ((Rect.unit (s := S16x2000) offN S1x1.size inbN).toLoadRect.idx (Shape.Idx.first hfirst))
    congr 1
    rw [ValueIdx.eq_ix2 ((Rect.unit (s := S16x2000) offN S1x1.size inbN).toLoadRect.idx (Shape.Idx.first hfirst))]
    congr 1
    · apply Fin.ext
      rw [Rect.emb_apply, LoadRect.idx_apply]
      show k + 1 * (j 0).val = offN 0 + 1 * 0
      have hj0 : (j 0).val < 1 := (j 0).isLt
      omega
    · apply Fin.ext
      rw [LoadRect.idx_apply]
      show (k24_off1 i) 1 = offN 1 + 1 * 0
      omega
  unfold gath24
  congr 1
  funext a
  apply Fin.ext
  rw [Rect.emb_apply]
  fin_cases a
  · show (View.read (Elt F) arg2.view f2 (ValueIdx.ix2 ((Rect.unit (s := S16x128) ![k, 0] S1x128.size inbk).emb j 0) (col24 i))).toNat % 100000
        = offM 0 + 1 * ((Shape.reshapeEquiv hs'.numel_eq ((Shape.reshapeEquiv hs.numel_eq).symm j)) 0).val
    rw [hW, hM0, Nat.mod_eq_of_lt hwlt]
    have hz : ((Shape.reshapeEquiv hs'.numel_eq ((Shape.reshapeEquiv hs.numel_eq).symm j)) 0).val < 1 := Fin.isLt _
    omega
  · show ((Rect.unit (s := S16x128) ![k, 0] S1x128.size inbk).emb j 1).val
        = offM 1 + 1 * ((Shape.reshapeEquiv hs'.numel_eq ((Shape.reshapeEquiv hs.numel_eq).symm j)) 1).val
    rw [Rect.emb_apply, hM1, hjj]
    show 0 + 1 * (j 1).val = 0 + 1 * (j 1).val
    rfl

/-- A whole load reads the contents as the view reads them. -/
theorem readAt_whole_S1000x128 {sp : Space} (m : Memref sig .tc sp S1000x128 .f32) (f : m.view.ty.Contents (Elt F)) :
    View.readAt (Elt F) m.view (Rect.unit (s := S1000x128) ![0, 0] S1000x128.size inb_S1000x128_S1000x128_0_0).toLoadRect f = m.view.read (Elt F) f := by
  funext x
  unfold View.readAt
  have hx : (Rect.unit (s := S1000x128) ![0, 0] S1000x128.size inb_S1000x128_S1000x128_0_0).toLoadRect.idx x = x := by
    funext a
    apply Fin.ext
    rw [LoadRect.idx_apply]
    fin_cases a <;> simp
  rw [hx]

/-- A whole load reads the contents as the view reads them. -/
theorem readAt_whole_S128x128 {sp : Space} (m : Memref sig .tc sp S128x128 .f32) (f : m.view.ty.Contents (Elt F)) :
    View.readAt (Elt F) m.view (Rect.unit (s := S128x128) ![0, 0] S128x128.size inb_S128x128_S128x128_0_0).toLoadRect f = m.view.read (Elt F) f := by
  funext x
  unfold View.readAt
  have hx : (Rect.unit (s := S128x128) ![0, 0] S128x128.size inb_S128x128_S128x128_0_0).toLoadRect.idx x = x := by
    funext a
    apply Fin.ext
    rw [LoadRect.idx_apply]
    fin_cases a <;> simp
  rw [hx]

/-- A whole store, read back: the payload. -/
theorem read_whole_store (arg5 : Memref sig .tc .vmem S1000x128 .f32) (g : arg5.view.ty.Contents (Elt F)) (p : FVec F S1000x128 .f32) :
    arg5.view.read (Elt F) (arg5.view.writes (Elt F) g [⟨Rect.unit (s := S1000x128) ![0, 0] S1000x128.size inb_S1000x128_S1000x128_0_0, p⟩]) = p := by
  funext x
  have hx : x = (Rect.unit (s := S1000x128) ![0, 0] S1000x128.size inb_S1000x128_S1000x128_0_0).emb x := by
    funext a
    apply Fin.ext
    rw [Rect.emb_apply]
    fin_cases a <;> simp
  conv_lhs => rw [hx]
  apply View.read_writes_cons_emb

/-- The gather kernel's body, the same text for every gather region of the program. -/
abbrev gatherFn := @cc24__gather_agg_matmul_kernel F _ _

section Body24

variable (c : Dev nD) (i : grid24.Coords)
  (arg2 : Memref sig .tc .smem S16x2000 .i32) (harg2 : arg2.IsWhole)
  (arg3 : Memref sig .tc .hbm S100000x128 .f32) (harg3 : arg3.IsWhole)
  (arg4 : Memref sig .tc .vmem S128x128 .f32) (harg4 : arg4.IsWhole)
  (arg5 : Memref sig .tc .vmem S1000x128 .f32) (harg5 : arg5.IsWhole)
  (arg6 : Memref sig .tc .vmem S1000x128 .f32) (harg6 : arg6.IsWhole)
  (arg7 : Memref sig .tc .vmem S16x128 .f32) (harg7 : arg7.IsWhole)
  (arg8 : DmaSems sig S16)

/-- The kernel's sixteen transfer counters, each at zero. -/
def cells24 : sProp 𝕄 :=
  iprop(semVal ((c : Thread nD τ), SemLoc.dma ((arg8.slice (Rect.unit (s := S16) ![0] S1.size inb_S16_S1_0)).squeeze S_ squeezes_S1_S_).sem) 0
    ∗ semVal ((c : Thread nD τ), SemLoc.dma ((arg8.slice (Rect.unit (s := S16) ![1] S1.size inb_S16_S1_1)).squeeze S_ squeezes_S1_S_).sem) 0
    ∗ semVal ((c : Thread nD τ), SemLoc.dma ((arg8.slice (Rect.unit (s := S16) ![2] S1.size inb_S16_S1_2)).squeeze S_ squeezes_S1_S_).sem) 0
    ∗ semVal ((c : Thread nD τ), SemLoc.dma ((arg8.slice (Rect.unit (s := S16) ![3] S1.size inb_S16_S1_3)).squeeze S_ squeezes_S1_S_).sem) 0
    ∗ semVal ((c : Thread nD τ), SemLoc.dma ((arg8.slice (Rect.unit (s := S16) ![4] S1.size inb_S16_S1_4)).squeeze S_ squeezes_S1_S_).sem) 0
    ∗ semVal ((c : Thread nD τ), SemLoc.dma ((arg8.slice (Rect.unit (s := S16) ![5] S1.size inb_S16_S1_5)).squeeze S_ squeezes_S1_S_).sem) 0
    ∗ semVal ((c : Thread nD τ), SemLoc.dma ((arg8.slice (Rect.unit (s := S16) ![6] S1.size inb_S16_S1_6)).squeeze S_ squeezes_S1_S_).sem) 0
    ∗ semVal ((c : Thread nD τ), SemLoc.dma ((arg8.slice (Rect.unit (s := S16) ![7] S1.size inb_S16_S1_7)).squeeze S_ squeezes_S1_S_).sem) 0
    ∗ semVal ((c : Thread nD τ), SemLoc.dma ((arg8.slice (Rect.unit (s := S16) ![8] S1.size inb_S16_S1_8)).squeeze S_ squeezes_S1_S_).sem) 0
    ∗ semVal ((c : Thread nD τ), SemLoc.dma ((arg8.slice (Rect.unit (s := S16) ![9] S1.size inb_S16_S1_9)).squeeze S_ squeezes_S1_S_).sem) 0
    ∗ semVal ((c : Thread nD τ), SemLoc.dma ((arg8.slice (Rect.unit (s := S16) ![10] S1.size inb_S16_S1_10)).squeeze S_ squeezes_S1_S_).sem) 0
    ∗ semVal ((c : Thread nD τ), SemLoc.dma ((arg8.slice (Rect.unit (s := S16) ![11] S1.size inb_S16_S1_11)).squeeze S_ squeezes_S1_S_).sem) 0
    ∗ semVal ((c : Thread nD τ), SemLoc.dma ((arg8.slice (Rect.unit (s := S16) ![12] S1.size inb_S16_S1_12)).squeeze S_ squeezes_S1_S_).sem) 0
    ∗ semVal ((c : Thread nD τ), SemLoc.dma ((arg8.slice (Rect.unit (s := S16) ![13] S1.size inb_S16_S1_13)).squeeze S_ squeezes_S1_S_).sem) 0
    ∗ semVal ((c : Thread nD τ), SemLoc.dma ((arg8.slice (Rect.unit (s := S16) ![14] S1.size inb_S16_S1_14)).squeeze S_ squeezes_S1_S_).sem) 0
    ∗ semVal ((c : Thread nD τ), SemLoc.dma ((arg8.slice (Rect.unit (s := S16) ![15] S1.size inb_S16_S1_15)).squeeze S_ squeezes_S1_S_).sem) 0)

theorem cells24_def : cells24 (F := F) c arg8 =
  iprop(semVal ((c : Thread nD τ), SemLoc.dma ((arg8.slice (Rect.unit (s := S16) ![0] S1.size inb_S16_S1_0)).squeeze S_ squeezes_S1_S_).sem) 0
    ∗ semVal ((c : Thread nD τ), SemLoc.dma ((arg8.slice (Rect.unit (s := S16) ![1] S1.size inb_S16_S1_1)).squeeze S_ squeezes_S1_S_).sem) 0
    ∗ semVal ((c : Thread nD τ), SemLoc.dma ((arg8.slice (Rect.unit (s := S16) ![2] S1.size inb_S16_S1_2)).squeeze S_ squeezes_S1_S_).sem) 0
    ∗ semVal ((c : Thread nD τ), SemLoc.dma ((arg8.slice (Rect.unit (s := S16) ![3] S1.size inb_S16_S1_3)).squeeze S_ squeezes_S1_S_).sem) 0
    ∗ semVal ((c : Thread nD τ), SemLoc.dma ((arg8.slice (Rect.unit (s := S16) ![4] S1.size inb_S16_S1_4)).squeeze S_ squeezes_S1_S_).sem) 0
    ∗ semVal ((c : Thread nD τ), SemLoc.dma ((arg8.slice (Rect.unit (s := S16) ![5] S1.size inb_S16_S1_5)).squeeze S_ squeezes_S1_S_).sem) 0
    ∗ semVal ((c : Thread nD τ), SemLoc.dma ((arg8.slice (Rect.unit (s := S16) ![6] S1.size inb_S16_S1_6)).squeeze S_ squeezes_S1_S_).sem) 0
    ∗ semVal ((c : Thread nD τ), SemLoc.dma ((arg8.slice (Rect.unit (s := S16) ![7] S1.size inb_S16_S1_7)).squeeze S_ squeezes_S1_S_).sem) 0
    ∗ semVal ((c : Thread nD τ), SemLoc.dma ((arg8.slice (Rect.unit (s := S16) ![8] S1.size inb_S16_S1_8)).squeeze S_ squeezes_S1_S_).sem) 0
    ∗ semVal ((c : Thread nD τ), SemLoc.dma ((arg8.slice (Rect.unit (s := S16) ![9] S1.size inb_S16_S1_9)).squeeze S_ squeezes_S1_S_).sem) 0
    ∗ semVal ((c : Thread nD τ), SemLoc.dma ((arg8.slice (Rect.unit (s := S16) ![10] S1.size inb_S16_S1_10)).squeeze S_ squeezes_S1_S_).sem) 0
    ∗ semVal ((c : Thread nD τ), SemLoc.dma ((arg8.slice (Rect.unit (s := S16) ![11] S1.size inb_S16_S1_11)).squeeze S_ squeezes_S1_S_).sem) 0
    ∗ semVal ((c : Thread nD τ), SemLoc.dma ((arg8.slice (Rect.unit (s := S16) ![12] S1.size inb_S16_S1_12)).squeeze S_ squeezes_S1_S_).sem) 0
    ∗ semVal ((c : Thread nD τ), SemLoc.dma ((arg8.slice (Rect.unit (s := S16) ![13] S1.size inb_S16_S1_13)).squeeze S_ squeezes_S1_S_).sem) 0
    ∗ semVal ((c : Thread nD τ), SemLoc.dma ((arg8.slice (Rect.unit (s := S16) ![14] S1.size inb_S16_S1_14)).squeeze S_ squeezes_S1_S_).sem) 0
    ∗ semVal ((c : Thread nD τ), SemLoc.dma ((arg8.slice (Rect.unit (s := S16) ![15] S1.size inb_S16_S1_15)).squeeze S_ squeezes_S1_S_).sem) 0) := rfl

set_option maxHeartbeats 4000000 in
/-- A point that is not its core's last: the sixteen rows are gathered, their mean is stored in row `i 1` of the carried
    scratch, and the output's buffer is not touched. -/
theorem run24_idle (hi : k24_cond1 i ≠ 1#1)
    (tb : Vec F S16x2000 .i32) (hR : ∀ x : S16x2000.Idx, (tb x).toNat < 100000)
    (A0 : Vec F S100000x128 .f32) (x0 : Vec F S128x128 .f32) (s : Vec F S1000x128 .f32)
    (O : sProp 𝕄) (W : Waits sig Unit) (Q : PUnit → sProp 𝕄) :
    iprop(owns (c : Thread nD τ) arg2 fullShare tb ∗ owns (c : Thread nD τ) arg3 fullShare A0
        ∗ owns (c : Thread nD τ) arg4 fullShare x0 ∗ O ∗ owns (c : Thread nD τ) arg6 fullShare s
        ∗ (∃ d, owns (c : Thread nD τ) arg7 fullShare d) ∗ cells24 (F := F) c arg8 ∗ owes (c : Thread nD τ) 0 W
        ∗ (iprop(owns (c : Thread nD τ) arg2 fullShare tb ∗ owns (c : Thread nD τ) arg3 fullShare A0
            ∗ owns (c : Thread nD τ) arg4 fullShare x0 ∗ O ∗ owns (c : Thread nD τ) arg6 fullShare (row24 i tb A0 s)
            ∗ (∃ d, owns (c : Thread nD τ) arg7 fullShare d) ∗ cells24 (F := F) c arg8 ∗ (∃ W', owes (c : Thread nD τ) 0 W')) -∗ Q ⟨⟩))
      ⊢ wp frame (wpE (defs₀ (F := F)) Variants.none c none) Set.univ
          (gatherFn (F := F) i arg2 harg2 arg3 harg3 arg4 harg4 arg5 harg5 arg6 harg6 arg7 harg7 arg8) Q := by
  unfold gatherFn owns cells24
  iintro ⟨⟨%f2, %hf2, H2⟩, ⟨%f3, %hf3, H3⟩, ⟨%f4, %hf4, H4⟩, HO, ⟨%f6, %hf6, H6⟩, ⟨%d7, %f7, -, H7⟩, ⟨C0, C1, C2, C3, C4, C5, C6, C7, C8, C9, C10, C11, C12, C13, C14, C15⟩, HW, Hk⟩
  subst hf2 hf3 hf4 hf6
  -- the array read by sixteen transfers at once: one read share each
  ihave H3' := (toks16 (F := F)).1 $$ H3
  icases H3' with ⟨T, T0, T1, T2, T3, T4, T5, T6, T7, T8, T9, T10, T11, T12, T13, T14, T15⟩
  -- the gather buffer row by row: each transfer lands in its own row
  ihave H7' := (Entails.of_eq (rows_split (F := F) c arg7 fullShare f7)) $$ H7
  icases H7' with ⟨R0, R1, R2, R3, R4, R5, R6, R7, R8, R9, R10, R11, R12, R13, R14, R15⟩
  simp only [cc24__gather_agg_matmul_kernel_eq_skeleton]; unfold cc24__gather_agg_matmul_kernel_skel
  -- the sixteen words, checks, issues and waits
  set_option sl_exec.dmaWindow true in sl_exec (disch := first | exact chk_of_lt _ (hR _) | exact chk16_of_lt _ (hR _) | assumption)
  -- the rows back into the whole buffer, at the contents reading the gathered rows
  have hx0 := gath_row (F := F) i arg2 f2 arg3 f3 0 (by decide) inb_S16x128_S1x128_0_0 (k24_off1 i) (k24_off1_inb i) rfl rfl Nat.one_pos (k24_off2 (wordAt (F := F) arg2 f2 (k24_off1 i) (k24_off1_inb i))) (wordAt (F := F) arg2 f2 (k24_off1 i) (k24_off1_inb i)) rfl (hR _) rfl rfl (row_inb _ (hR _)) squeezes_S1x128_S128 squeezes_S1x128_S128
  have hx1 := gath_row (F := F) i arg2 f2 arg3 f3 1 (by decide) inb_S16x128_S1x128_1_0 (k24_off3 i) (k24_off3_inb i) rfl rfl Nat.one_pos (k24_off4 (wordAt (F := F) arg2 f2 (k24_off3 i) (k24_off3_inb i))) (wordAt (F := F) arg2 f2 (k24_off3 i) (k24_off3_inb i)) rfl (hR _) rfl rfl (row_inb _ (hR _)) squeezes_S1x128_S128 squeezes_S1x128_S128
  have hx2 := gath_row (F := F) i arg2 f2 arg3 f3 2 (by decide) inb_S16x128_S1x128_2_0 (k24_off5 i) (k24_off5_inb i) rfl rfl Nat.one_pos (k24_off6 (wordAt (F := F) arg2 f2 (k24_off5 i) (k24_off5_inb i))) (wordAt (F := F) arg2 f2 (k24_off5 i) (k24_off5_inb i)) rfl (hR _) rfl rfl (row_inb _ (hR _)) squeezes_S1x128_S128 squeezes_S1x128_S128
  have hx3 := gath_row (F := F) i arg2 f2 arg3 f3 3 (by decide) inb_S16x128_S1x128_3_0 (k24_off7 i) (k24_off7_inb i) rfl rfl Nat.one_pos (k24_off8 (wordAt (F := F) arg2 f2 (k24_off7 i) (k24_off7_inb i))) (wordAt (F := F) arg2 f2 (k24_off7 i) (k24_off7_inb i)) rfl (hR _) rfl rfl (row_inb _ (hR _)) squeezes_S1x128_S128 squeezes_S1x128_S128
  have hx4 := gath_row (F := F) i arg2 f2 arg3 f3 4 (by decide) inb_S16x128_S1x128_4_0 (k24_off9 i) (k24_off9_inb i) rfl rfl Nat.one_pos (k24_off10 (wordAt (F := F) arg2 f2 (k24_off9 i) (k24_off9_inb i))) (wordAt (F := F) arg2 f2 (k24_off9 i) (k24_off9_inb i)) rfl (hR _) rfl rfl (row_inb _ (hR _)) squeezes_S1x128_S128 squeezes_S1x128_S128
  have hx5 := gath_row (F := F) i arg2 f2 arg3 f3 5 (by decide) inb_S16x128_S1x128_5_0 (k24_off11 i) (k24_off11_inb i) rfl rfl Nat.one_pos (k24_off12 (wordAt (F := F) arg2 f2 (k24_off11 i) (k24_off11_inb i))) (wordAt (F := F) arg2 f2 (k24_off11 i) (k24_off11_inb i)) rfl (hR _) rfl rfl (row_inb _ (hR _)) squeezes_S1x128_S128 squeezes_S1x128_S128
  have hx6 := gath_row (F := F) i arg2 f2 arg3 f3 6 (by decide) inb_S16x128_S1x128_6_0 (k24_off13 i) (k24_off13_inb i) rfl rfl Nat.one_pos (k24_off14 (wordAt (F := F) arg2 f2 (k24_off13 i) (k24_off13_inb i))) (wordAt (F := F) arg2 f2 (k24_off13 i) (k24_off13_inb i)) rfl (hR _) rfl rfl (row_inb _ (hR _)) squeezes_S1x128_S128 squeezes_S1x128_S128
  have hx7 := gath_row (F := F) i arg2 f2 arg3 f3 7 (by decide) inb_S16x128_S1x128_7_0 (k24_off15 i) (k24_off15_inb i) rfl rfl Nat.one_pos (k24_off16 (wordAt (F := F) arg2 f2 (k24_off15 i) (k24_off15_inb i))) (wordAt (F := F) arg2 f2 (k24_off15 i) (k24_off15_inb i)) rfl (hR _) rfl rfl (row_inb _ (hR _)) squeezes_S1x128_S128 squeezes_S1x128_S128
  have hx8 := gath_row (F := F) i arg2 f2 arg3 f3 8 (by decide) inb_S16x128_S1x128_8_0 (k24_off17 i) (k24_off17_inb i) rfl rfl Nat.one_pos (k24_off18 (wordAt (F := F) arg2 f2 (k24_off17 i) (k24_off17_inb i))) (wordAt (F := F) arg2 f2 (k24_off17 i) (k24_off17_inb i)) rfl (hR _) rfl rfl (row_inb _ (hR _)) squeezes_S1x128_S128 squeezes_S1x128_S128
  have hx9 := gath_row (F := F) i arg2 f2 arg3 f3 9 (by decide) inb_S16x128_S1x128_9_0 (k24_off19 i) (k24_off19_inb i) rfl rfl Nat.one_pos (k24_off20 (wordAt (F := F) arg2 f2 (k24_off19 i) (k24_off19_inb i))) (wordAt (F := F) arg2 f2 (k24_off19 i) (k24_off19_inb i)) rfl (hR _) rfl rfl (row_inb _ (hR _)) squeezes_S1x128_S128 squeezes_S1x128_S128
  have hx10 := gath_row (F := F) i arg2 f2 arg3 f3 10 (by decide) inb_S16x128_S1x128_10_0 (k24_off21 i) (k24_off21_inb i) rfl rfl Nat.one_pos (k24_off22 (wordAt (F := F) arg2 f2 (k24_off21 i) (k24_off21_inb i))) (wordAt (F := F) arg2 f2 (k24_off21 i) (k24_off21_inb i)) rfl (hR _) rfl rfl (row_inb _ (hR _)) squeezes_S1x128_S128 squeezes_S1x128_S128
  have hx11 := gath_row (F := F) i arg2 f2 arg3 f3 11 (by decide) inb_S16x128_S1x128_11_0 (k24_off23 i) (k24_off23_inb i) rfl rfl Nat.one_pos (k24_off24 (wordAt (F := F) arg2 f2 (k24_off23 i) (k24_off23_inb i))) (wordAt (F := F) arg2 f2 (k24_off23 i) (k24_off23_inb i)) rfl (hR _) rfl rfl (row_inb _ (hR _)) squeezes_S1x128_S128 squeezes_S1x128_S128
  have hx12 := gath_row (F := F) i arg2 f2 arg3 f3 12 (by decide) inb_S16x128_S1x128_12_0 (k24_off25 i) (k24_off25_inb i) rfl rfl Nat.one_pos (k24_off26 (wordAt (F := F) arg2 f2 (k24_off25 i) (k24_off25_inb i))) (wordAt (F := F) arg2 f2 (k24_off25 i) (k24_off25_inb i)) rfl (hR _) rfl rfl (row_inb _ (hR _)) squeezes_S1x128_S128 squeezes_S1x128_S128
  have hx13 := gath_row (F := F) i arg2 f2 arg3 f3 13 (by decide) inb_S16x128_S1x128_13_0 (k24_off27 i) (k24_off27_inb i) rfl rfl Nat.one_pos (k24_off28 (wordAt (F := F) arg2 f2 (k24_off27 i) (k24_off27_inb i))) (wordAt (F := F) arg2 f2 (k24_off27 i) (k24_off27_inb i)) rfl (hR _) rfl rfl (row_inb _ (hR _)) squeezes_S1x128_S128 squeezes_S1x128_S128
  have hx14 := gath_row (F := F) i arg2 f2 arg3 f3 14 (by decide) inb_S16x128_S1x128_14_0 (k24_off29 i) (k24_off29_inb i) rfl rfl Nat.one_pos (k24_off30 (wordAt (F := F) arg2 f2 (k24_off29 i) (k24_off29_inb i))) (wordAt (F := F) arg2 f2 (k24_off29 i) (k24_off29_inb i)) rfl (hR _) rfl rfl (row_inb _ (hR _)) squeezes_S1x128_S128 squeezes_S1x128_S128
  have hx15 := gath_row (F := F) i arg2 f2 arg3 f3 15 (by decide) inb_S16x128_S1x128_15_0 (k24_off31 i) (k24_off31_inb i) rfl rfl Nat.one_pos (k24_off32 (wordAt (F := F) arg2 f2 (k24_off31 i) (k24_off31_inb i))) (wordAt (F := F) arg2 f2 (k24_off31 i) (k24_off31_inb i)) rfl (hR _) rfl rfl (row_inb _ (hR _)) squeezes_S1x128_S128 squeezes_S1x128_S128
  have ha0 := row_agree (F := F) arg7 harg7 (Rect.unit (s := S16x128) ![0, 0] S1x128.size inb_S16x128_S1x128_0_0) (fun _ => rfl) squeezes_S1x128_S128 f7 _ _ hx0
  have ha1 := row_agree (F := F) arg7 harg7 (Rect.unit (s := S16x128) ![1, 0] S1x128.size inb_S16x128_S1x128_1_0) (fun _ => rfl) squeezes_S1x128_S128 f7 _ _ hx1
  have ha2 := row_agree (F := F) arg7 harg7 (Rect.unit (s := S16x128) ![2, 0] S1x128.size inb_S16x128_S1x128_2_0) (fun _ => rfl) squeezes_S1x128_S128 f7 _ _ hx2
  have ha3 := row_agree (F := F) arg7 harg7 (Rect.unit (s := S16x128) ![3, 0] S1x128.size inb_S16x128_S1x128_3_0) (fun _ => rfl) squeezes_S1x128_S128 f7 _ _ hx3
  have ha4 := row_agree (F := F) arg7 harg7 (Rect.unit (s := S16x128) ![4, 0] S1x128.size inb_S16x128_S1x128_4_0) (fun _ => rfl) squeezes_S1x128_S128 f7 _ _ hx4
  have ha5 := row_agree (F := F) arg7 harg7 (Rect.unit (s := S16x128) ![5, 0] S1x128.size inb_S16x128_S1x128_5_0) (fun _ => rfl) squeezes_S1x128_S128 f7 _ _ hx5
  have ha6 := row_agree (F := F) arg7 harg7 (Rect.unit (s := S16x128) ![6, 0] S1x128.size inb_S16x128_S1x128_6_0) (fun _ => rfl) squeezes_S1x128_S128 f7 _ _ hx6
  have ha7 := row_agree (F := F) arg7 harg7 (Rect.unit (s := S16x128) ![7, 0] S1x128.size inb_S16x128_S1x128_7_0) (fun _ => rfl) squeezes_S1x128_S128 f7 _ _ hx7
  have ha8 := row_agree (F := F) arg7 harg7 (Rect.unit (s := S16x128) ![8, 0] S1x128.size inb_S16x128_S1x128_8_0) (fun _ => rfl) squeezes_S1x128_S128 f7 _ _ hx8
  have ha9 := row_agree (F := F) arg7 harg7 (Rect.unit (s := S16x128) ![9, 0] S1x128.size inb_S16x128_S1x128_9_0) (fun _ => rfl) squeezes_S1x128_S128 f7 _ _ hx9
  have ha10 := row_agree (F := F) arg7 harg7 (Rect.unit (s := S16x128) ![10, 0] S1x128.size inb_S16x128_S1x128_10_0) (fun _ => rfl) squeezes_S1x128_S128 f7 _ _ hx10
  have ha11 := row_agree (F := F) arg7 harg7 (Rect.unit (s := S16x128) ![11, 0] S1x128.size inb_S16x128_S1x128_11_0) (fun _ => rfl) squeezes_S1x128_S128 f7 _ _ hx11
  have ha12 := row_agree (F := F) arg7 harg7 (Rect.unit (s := S16x128) ![12, 0] S1x128.size inb_S16x128_S1x128_12_0) (fun _ => rfl) squeezes_S1x128_S128 f7 _ _ hx12
  have ha13 := row_agree (F := F) arg7 harg7 (Rect.unit (s := S16x128) ![13, 0] S1x128.size inb_S16x128_S1x128_13_0) (fun _ => rfl) squeezes_S1x128_S128 f7 _ _ hx13
  have ha14 := row_agree (F := F) arg7 harg7 (Rect.unit (s := S16x128) ![14, 0] S1x128.size inb_S16x128_S1x128_14_0) (fun _ => rfl) squeezes_S1x128_S128 f7 _ _ hx14
  have ha15 := row_agree (F := F) arg7 harg7 (Rect.unit (s := S16x128) ![15, 0] S1x128.size inb_S16x128_S1x128_15_0) (fun _ => rfl) squeezes_S1x128_S128 f7 _ _ hx15
  ihave H7 := (rows_join (F := F) c arg7 fullShare _ _ _ _ _ _ _ _ _ _ _ _ _ _ _ _
      (harg7.unread (gath24 i (View.read (Elt F) arg2.view f2) (View.read (Elt F) arg3.view f3)))
      ha0 ha1 ha2 ha3 ha4 ha5 ha6 ha7 ha8 ha9 ha10 ha11 ha12 ha13 ha14 ha15) $$ [R0 R1 R2 R3 R4 R5 R6 R7 R8 R9 R10 R11 R12 R13 R14 R15]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  -- the mean, the row store and the conditional
  sl_exec! (disch := first | assumption | exact chk_of_lt _ (hR _) | exact chk16_of_lt _ (hR _))
  sl_step
  iapply Hk
  isplitl [H2]; · iexists f2; isplitr; (· ipureintro; rfl); iexact H2
  isplitl [T T0 T1 T2 T3 T4 T5 T6 T7 T8 T9 T10 T11 T12 T13 T14 T15]
  · iexists f3; isplitr; (· ipureintro; rfl)
    iapply (toks16 (F := F)).2
    isplitl [T]; · iexact T
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    iexact T15
  isplitl [H4]; · iexists f4; isplitr; (· ipureintro; rfl); iexact H4
  isplitl [HO]; · iexact HO
  isplitl [H6]
  · iexists _; isplitr; swap; (· iexact H6)
    ipureintro
    rw [read_row_store, readAt_whole_unread]; rfl
  isplitl [H7]; · iexists _, _; isplitr; swap; (· iexact H7); ipureintro; rfl
  isplitl [C0 C1 C2 C3 C4 C5 C6 C7 C8 C9 C10 C11 C12 C13 C14 C15]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    iexact C15
  iexists _; iexact HW

set_option maxHeartbeats 4000000 in
/-- A core's last point: as before, and the output's buffer receives the product of the whole carried scratch with the
    weight block. -/
theorem run24_last (hi : k24_cond1 i = 1#1)
    (tb : Vec F S16x2000 .i32) (hR : ∀ x : S16x2000.Idx, (tb x).toNat < 100000)
    (A0 : Vec F S100000x128 .f32) (x0 : Vec F S128x128 .f32) (s : Vec F S1000x128 .f32)
    (W : Waits sig Unit) (Q : PUnit → sProp 𝕄) :
    iprop(owns (c : Thread nD τ) arg2 fullShare tb ∗ owns (c : Thread nD τ) arg3 fullShare A0
        ∗ owns (c : Thread nD τ) arg4 fullShare x0 ∗ (∃ d, owns (c : Thread nD τ) arg5 fullShare d) ∗ owns (c : Thread nD τ) arg6 fullShare s
        ∗ (∃ d, owns (c : Thread nD τ) arg7 fullShare d) ∗ cells24 (F := F) c arg8 ∗ owes (c : Thread nD τ) 0 W
        ∗ (iprop(owns (c : Thread nD τ) arg2 fullShare tb ∗ owns (c : Thread nD τ) arg3 fullShare A0
            ∗ owns (c : Thread nD τ) arg4 fullShare x0 ∗ owns (c : Thread nD τ) arg5 fullShare (k24_pay2 (row24 i tb A0 s) x0) ∗ owns (c : Thread nD τ) arg6 fullShare (row24 i tb A0 s)
            ∗ (∃ d, owns (c : Thread nD τ) arg7 fullShare d) ∗ cells24 (F := F) c arg8 ∗ (∃ W', owes (c : Thread nD τ) 0 W')) -∗ Q ⟨⟩))
      ⊢ wp frame (wpE (defs₀ (F := F)) Variants.none c none) Set.univ
          (gatherFn (F := F) i arg2 harg2 arg3 harg3 arg4 harg4 arg5 harg5 arg6 harg6 arg7 harg7 arg8) Q := by
  unfold gatherFn owns cells24
  iintro ⟨⟨%f2, %hf2, H2⟩, ⟨%f3, %hf3, H3⟩, ⟨%f4, %hf4, H4⟩, ⟨%d5, %f5, -, H5⟩, ⟨%f6, %hf6, H6⟩, ⟨%d7, %f7, -, H7⟩, ⟨C0, C1, C2, C3, C4, C5, C6, C7, C8, C9, C10, C11, C12, C13, C14, C15⟩, HW, Hk⟩
  subst hf2 hf3 hf4 hf6
  -- the array read by sixteen transfers at once: one read share each
  ihave H3' := (toks16 (F := F)).1 $$ H3
  icases H3' with ⟨T, T0, T1, T2, T3, T4, T5, T6, T7, T8, T9, T10, T11, T12, T13, T14, T15⟩
  -- the gather buffer row by row: each transfer lands in its own row
  ihave H7' := (Entails.of_eq (rows_split (F := F) c arg7 fullShare f7)) $$ H7
  icases H7' with ⟨R0, R1, R2, R3, R4, R5, R6, R7, R8, R9, R10, R11, R12, R13, R14, R15⟩
  simp only [cc24__gather_agg_matmul_kernel_eq_skeleton]; unfold cc24__gather_agg_matmul_kernel_skel
  -- the sixteen words, checks, issues and waits
  set_option sl_exec.dmaWindow true in sl_exec (disch := first | exact chk_of_lt _ (hR _) | exact chk16_of_lt _ (hR _) | assumption)
  -- the rows back into the whole buffer, at the contents reading the gathered rows
  have hx0 := gath_row (F := F) i arg2 f2 arg3 f3 0 (by decide) inb_S16x128_S1x128_0_0 (k24_off1 i) (k24_off1_inb i) rfl rfl Nat.one_pos (k24_off2 (wordAt (F := F) arg2 f2 (k24_off1 i) (k24_off1_inb i))) (wordAt (F := F) arg2 f2 (k24_off1 i) (k24_off1_inb i)) rfl (hR _) rfl rfl (row_inb _ (hR _)) squeezes_S1x128_S128 squeezes_S1x128_S128
  have hx1 := gath_row (F := F) i arg2 f2 arg3 f3 1 (by decide) inb_S16x128_S1x128_1_0 (k24_off3 i) (k24_off3_inb i) rfl rfl Nat.one_pos (k24_off4 (wordAt (F := F) arg2 f2 (k24_off3 i) (k24_off3_inb i))) (wordAt (F := F) arg2 f2 (k24_off3 i) (k24_off3_inb i)) rfl (hR _) rfl rfl (row_inb _ (hR _)) squeezes_S1x128_S128 squeezes_S1x128_S128
  have hx2 := gath_row (F := F) i arg2 f2 arg3 f3 2 (by decide) inb_S16x128_S1x128_2_0 (k24_off5 i) (k24_off5_inb i) rfl rfl Nat.one_pos (k24_off6 (wordAt (F := F) arg2 f2 (k24_off5 i) (k24_off5_inb i))) (wordAt (F := F) arg2 f2 (k24_off5 i) (k24_off5_inb i)) rfl (hR _) rfl rfl (row_inb _ (hR _)) squeezes_S1x128_S128 squeezes_S1x128_S128
  have hx3 := gath_row (F := F) i arg2 f2 arg3 f3 3 (by decide) inb_S16x128_S1x128_3_0 (k24_off7 i) (k24_off7_inb i) rfl rfl Nat.one_pos (k24_off8 (wordAt (F := F) arg2 f2 (k24_off7 i) (k24_off7_inb i))) (wordAt (F := F) arg2 f2 (k24_off7 i) (k24_off7_inb i)) rfl (hR _) rfl rfl (row_inb _ (hR _)) squeezes_S1x128_S128 squeezes_S1x128_S128
  have hx4 := gath_row (F := F) i arg2 f2 arg3 f3 4 (by decide) inb_S16x128_S1x128_4_0 (k24_off9 i) (k24_off9_inb i) rfl rfl Nat.one_pos (k24_off10 (wordAt (F := F) arg2 f2 (k24_off9 i) (k24_off9_inb i))) (wordAt (F := F) arg2 f2 (k24_off9 i) (k24_off9_inb i)) rfl (hR _) rfl rfl (row_inb _ (hR _)) squeezes_S1x128_S128 squeezes_S1x128_S128
  have hx5 := gath_row (F := F) i arg2 f2 arg3 f3 5 (by decide) inb_S16x128_S1x128_5_0 (k24_off11 i) (k24_off11_inb i) rfl rfl Nat.one_pos (k24_off12 (wordAt (F := F) arg2 f2 (k24_off11 i) (k24_off11_inb i))) (wordAt (F := F) arg2 f2 (k24_off11 i) (k24_off11_inb i)) rfl (hR _) rfl rfl (row_inb _ (hR _)) squeezes_S1x128_S128 squeezes_S1x128_S128
  have hx6 := gath_row (F := F) i arg2 f2 arg3 f3 6 (by decide) inb_S16x128_S1x128_6_0 (k24_off13 i) (k24_off13_inb i) rfl rfl Nat.one_pos (k24_off14 (wordAt (F := F) arg2 f2 (k24_off13 i) (k24_off13_inb i))) (wordAt (F := F) arg2 f2 (k24_off13 i) (k24_off13_inb i)) rfl (hR _) rfl rfl (row_inb _ (hR _)) squeezes_S1x128_S128 squeezes_S1x128_S128
  have hx7 := gath_row (F := F) i arg2 f2 arg3 f3 7 (by decide) inb_S16x128_S1x128_7_0 (k24_off15 i) (k24_off15_inb i) rfl rfl Nat.one_pos (k24_off16 (wordAt (F := F) arg2 f2 (k24_off15 i) (k24_off15_inb i))) (wordAt (F := F) arg2 f2 (k24_off15 i) (k24_off15_inb i)) rfl (hR _) rfl rfl (row_inb _ (hR _)) squeezes_S1x128_S128 squeezes_S1x128_S128
  have hx8 := gath_row (F := F) i arg2 f2 arg3 f3 8 (by decide) inb_S16x128_S1x128_8_0 (k24_off17 i) (k24_off17_inb i) rfl rfl Nat.one_pos (k24_off18 (wordAt (F := F) arg2 f2 (k24_off17 i) (k24_off17_inb i))) (wordAt (F := F) arg2 f2 (k24_off17 i) (k24_off17_inb i)) rfl (hR _) rfl rfl (row_inb _ (hR _)) squeezes_S1x128_S128 squeezes_S1x128_S128
  have hx9 := gath_row (F := F) i arg2 f2 arg3 f3 9 (by decide) inb_S16x128_S1x128_9_0 (k24_off19 i) (k24_off19_inb i) rfl rfl Nat.one_pos (k24_off20 (wordAt (F := F) arg2 f2 (k24_off19 i) (k24_off19_inb i))) (wordAt (F := F) arg2 f2 (k24_off19 i) (k24_off19_inb i)) rfl (hR _) rfl rfl (row_inb _ (hR _)) squeezes_S1x128_S128 squeezes_S1x128_S128
  have hx10 := gath_row (F := F) i arg2 f2 arg3 f3 10 (by decide) inb_S16x128_S1x128_10_0 (k24_off21 i) (k24_off21_inb i) rfl rfl Nat.one_pos (k24_off22 (wordAt (F := F) arg2 f2 (k24_off21 i) (k24_off21_inb i))) (wordAt (F := F) arg2 f2 (k24_off21 i) (k24_off21_inb i)) rfl (hR _) rfl rfl (row_inb _ (hR _)) squeezes_S1x128_S128 squeezes_S1x128_S128
  have hx11 := gath_row (F := F) i arg2 f2 arg3 f3 11 (by decide) inb_S16x128_S1x128_11_0 (k24_off23 i) (k24_off23_inb i) rfl rfl Nat.one_pos (k24_off24 (wordAt (F := F) arg2 f2 (k24_off23 i) (k24_off23_inb i))) (wordAt (F := F) arg2 f2 (k24_off23 i) (k24_off23_inb i)) rfl (hR _) rfl rfl (row_inb _ (hR _)) squeezes_S1x128_S128 squeezes_S1x128_S128
  have hx12 := gath_row (F := F) i arg2 f2 arg3 f3 12 (by decide) inb_S16x128_S1x128_12_0 (k24_off25 i) (k24_off25_inb i) rfl rfl Nat.one_pos (k24_off26 (wordAt (F := F) arg2 f2 (k24_off25 i) (k24_off25_inb i))) (wordAt (F := F) arg2 f2 (k24_off25 i) (k24_off25_inb i)) rfl (hR _) rfl rfl (row_inb _ (hR _)) squeezes_S1x128_S128 squeezes_S1x128_S128
  have hx13 := gath_row (F := F) i arg2 f2 arg3 f3 13 (by decide) inb_S16x128_S1x128_13_0 (k24_off27 i) (k24_off27_inb i) rfl rfl Nat.one_pos (k24_off28 (wordAt (F := F) arg2 f2 (k24_off27 i) (k24_off27_inb i))) (wordAt (F := F) arg2 f2 (k24_off27 i) (k24_off27_inb i)) rfl (hR _) rfl rfl (row_inb _ (hR _)) squeezes_S1x128_S128 squeezes_S1x128_S128
  have hx14 := gath_row (F := F) i arg2 f2 arg3 f3 14 (by decide) inb_S16x128_S1x128_14_0 (k24_off29 i) (k24_off29_inb i) rfl rfl Nat.one_pos (k24_off30 (wordAt (F := F) arg2 f2 (k24_off29 i) (k24_off29_inb i))) (wordAt (F := F) arg2 f2 (k24_off29 i) (k24_off29_inb i)) rfl (hR _) rfl rfl (row_inb _ (hR _)) squeezes_S1x128_S128 squeezes_S1x128_S128
  have hx15 := gath_row (F := F) i arg2 f2 arg3 f3 15 (by decide) inb_S16x128_S1x128_15_0 (k24_off31 i) (k24_off31_inb i) rfl rfl Nat.one_pos (k24_off32 (wordAt (F := F) arg2 f2 (k24_off31 i) (k24_off31_inb i))) (wordAt (F := F) arg2 f2 (k24_off31 i) (k24_off31_inb i)) rfl (hR _) rfl rfl (row_inb _ (hR _)) squeezes_S1x128_S128 squeezes_S1x128_S128
  have ha0 := row_agree (F := F) arg7 harg7 (Rect.unit (s := S16x128) ![0, 0] S1x128.size inb_S16x128_S1x128_0_0) (fun _ => rfl) squeezes_S1x128_S128 f7 _ _ hx0
  have ha1 := row_agree (F := F) arg7 harg7 (Rect.unit (s := S16x128) ![1, 0] S1x128.size inb_S16x128_S1x128_1_0) (fun _ => rfl) squeezes_S1x128_S128 f7 _ _ hx1
  have ha2 := row_agree (F := F) arg7 harg7 (Rect.unit (s := S16x128) ![2, 0] S1x128.size inb_S16x128_S1x128_2_0) (fun _ => rfl) squeezes_S1x128_S128 f7 _ _ hx2
  have ha3 := row_agree (F := F) arg7 harg7 (Rect.unit (s := S16x128) ![3, 0] S1x128.size inb_S16x128_S1x128_3_0) (fun _ => rfl) squeezes_S1x128_S128 f7 _ _ hx3
  have ha4 := row_agree (F := F) arg7 harg7 (Rect.unit (s := S16x128) ![4, 0] S1x128.size inb_S16x128_S1x128_4_0) (fun _ => rfl) squeezes_S1x128_S128 f7 _ _ hx4
  have ha5 := row_agree (F := F) arg7 harg7 (Rect.unit (s := S16x128) ![5, 0] S1x128.size inb_S16x128_S1x128_5_0) (fun _ => rfl) squeezes_S1x128_S128 f7 _ _ hx5
  have ha6 := row_agree (F := F) arg7 harg7 (Rect.unit (s := S16x128) ![6, 0] S1x128.size inb_S16x128_S1x128_6_0) (fun _ => rfl) squeezes_S1x128_S128 f7 _ _ hx6
  have ha7 := row_agree (F := F) arg7 harg7 (Rect.unit (s := S16x128) ![7, 0] S1x128.size inb_S16x128_S1x128_7_0) (fun _ => rfl) squeezes_S1x128_S128 f7 _ _ hx7
  have ha8 := row_agree (F := F) arg7 harg7 (Rect.unit (s := S16x128) ![8, 0] S1x128.size inb_S16x128_S1x128_8_0) (fun _ => rfl) squeezes_S1x128_S128 f7 _ _ hx8
  have ha9 := row_agree (F := F) arg7 harg7 (Rect.unit (s := S16x128) ![9, 0] S1x128.size inb_S16x128_S1x128_9_0) (fun _ => rfl) squeezes_S1x128_S128 f7 _ _ hx9
  have ha10 := row_agree (F := F) arg7 harg7 (Rect.unit (s := S16x128) ![10, 0] S1x128.size inb_S16x128_S1x128_10_0) (fun _ => rfl) squeezes_S1x128_S128 f7 _ _ hx10
  have ha11 := row_agree (F := F) arg7 harg7 (Rect.unit (s := S16x128) ![11, 0] S1x128.size inb_S16x128_S1x128_11_0) (fun _ => rfl) squeezes_S1x128_S128 f7 _ _ hx11
  have ha12 := row_agree (F := F) arg7 harg7 (Rect.unit (s := S16x128) ![12, 0] S1x128.size inb_S16x128_S1x128_12_0) (fun _ => rfl) squeezes_S1x128_S128 f7 _ _ hx12
  have ha13 := row_agree (F := F) arg7 harg7 (Rect.unit (s := S16x128) ![13, 0] S1x128.size inb_S16x128_S1x128_13_0) (fun _ => rfl) squeezes_S1x128_S128 f7 _ _ hx13
  have ha14 := row_agree (F := F) arg7 harg7 (Rect.unit (s := S16x128) ![14, 0] S1x128.size inb_S16x128_S1x128_14_0) (fun _ => rfl) squeezes_S1x128_S128 f7 _ _ hx14
  have ha15 := row_agree (F := F) arg7 harg7 (Rect.unit (s := S16x128) ![15, 0] S1x128.size inb_S16x128_S1x128_15_0) (fun _ => rfl) squeezes_S1x128_S128 f7 _ _ hx15
  ihave H7 := (rows_join (F := F) c arg7 fullShare _ _ _ _ _ _ _ _ _ _ _ _ _ _ _ _
      (harg7.unread (gath24 i (View.read (Elt F) arg2.view f2) (View.read (Elt F) arg3.view f3)))
      ha0 ha1 ha2 ha3 ha4 ha5 ha6 ha7 ha8 ha9 ha10 ha11 ha12 ha13 ha14 ha15) $$ [R0 R1 R2 R3 R4 R5 R6 R7 R8 R9 R10 R11 R12 R13 R14 R15]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  -- the mean, the row store and the conditional
  sl_exec! (disch := first | assumption | exact chk_of_lt _ (hR _) | exact chk16_of_lt _ (hR _))
  sl_step
  iapply Hk
  isplitl [H2]; · iexists f2; isplitr; (· ipureintro; rfl); iexact H2
  isplitl [T T0 T1 T2 T3 T4 T5 T6 T7 T8 T9 T10 T11 T12 T13 T14 T15]
  · iexists f3; isplitr; (· ipureintro; rfl)
    iapply (toks16 (F := F)).2
    isplitl [T]; · iexact T
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    iexact T15
  isplitl [H4]; · iexists f4; isplitr; (· ipureintro; rfl); iexact H4
  isplitl [H5]
  · iexists _; isplitr; swap; (· iexact H5)
    ipureintro
    have key5 : ∀ L : List (View.Piece (Elt F) S1000x128 .f32),
        L = [⟨Rect.unit (s := S1000x128) ![0, 0] S1000x128.size inb_S1000x128_S1000x128_0_0,
              k24_pay2 (View.readAt (Elt F) arg6.view (Rect.unit (s := S1000x128) ![0, 0] S1000x128.size inb_S1000x128_S1000x128_0_0).toLoadRect
                  (arg6.view.writes (Elt F) f6 [⟨(Rect.unit (s := S1000x128) (k24_off48 i) S1x128.size (k24_off48_inb i)), (k24_pay1 (View.readAt (Elt F) arg7.view (Rect.unit (s := S16x128) ![0, 0] S16x128.size inb_S16x128_S16x128_0_0).toLoadRect (harg7.unread (gath24 i (View.read (Elt F) arg2.view f2) (View.read (Elt F) arg3.view f3)))))⟩]))
                (View.readAt (Elt F) arg4.view (Rect.unit (s := S128x128) ![0, 0] S128x128.size inb_S128x128_S128x128_0_0).toLoadRect f4)⟩] →
        arg5.view.read (Elt F) (arg5.view.writes (Elt F) arg5.view.junk L)
          = k24_pay2 (row24 i (View.read (Elt F) arg2.view f2) (View.read (Elt F) arg3.view f3) (View.read (Elt F) arg6.view f6))
              (View.read (Elt F) arg4.view f4) := by
      intro L hL; subst hL
      rw [read_whole_store, readAt_whole_S1000x128, readAt_whole_S128x128, read_row_store, readAt_whole_unread]; rfl
    exact key5 _ rfl
  isplitl [H6]
  · iexists _; isplitr; swap; (· iexact H6)
    ipureintro
    have key6 : ∀ L : List (View.Piece (Elt F) S1000x128 .f32), L = [⟨(Rect.unit (s := S1000x128) (k24_off48 i) S1x128.size (k24_off48_inb i)), (k24_pay1 (View.readAt (Elt F) arg7.view (Rect.unit (s := S16x128) ![0, 0] S16x128.size inb_S16x128_S16x128_0_0).toLoadRect (harg7.unread (gath24 i (View.read (Elt F) arg2.view f2) (View.read (Elt F) arg3.view f3)))))⟩] →
        arg6.view.read (Elt F) (arg6.view.writes (Elt F) f6 L)
          = row24 i (View.read (Elt F) arg2.view f2) (View.read (Elt F) arg3.view f3) (View.read (Elt F) arg6.view f6) := by
      intro L hL; subst hL
      rw [read_row_store, readAt_whole_unread]; rfl
    exact key6 _ rfl
  isplitl [H7]; · iexists _, _; isplitr; swap; (· iexact H7); ipureintro; rfl
  isplitl [C0 C1 C2 C3 C4 C5 C6 C7 C8 C9 C10 C11 C12 C13 C14 C15]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    iexact C15
  iexists _; iexact HW

end Body24

end Cert.KernelIdeal.Hand

end
-- ==== Proof.KI.G0Dat.lean ====
/-
  One of the program's 25 gather launches (pipeline 0; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N0 (a : (pcfg0 (F := F)).Adm) : (cfg0 a).N = 2000 := N_0

/-- The body's branch is taken at the last row of a block of rows, -/
theorem cond0_iff : ∀ t : Fin grid0.N, k0_cond1 (grid0.coords t) = 1#1 ↔ t.val % 1000 = 999 := by decide +kernel
/-- the row a point works on is its number modulo 1000, -/
theorem rowAt0_coord : ∀ t : Fin grid0.N, (grid0.coords t 1).val = t.val % 1000 := by decide +kernel
/-- its block of rows is its number divided by 1000, -/
theorem blockAt0_coord : ∀ t : Fin grid0.N, (grid0.coords t 0).val = t.val / 1000 := by decide +kernel
/-- and the output's block index moves after exactly those points (and the grid ends at one). -/
theorem flushB0 : ∀ t : Fin grid0.N,
    (decide (t.val + 1 = grid0.N) || decide (∃ h : t.val + 1 < grid0.N, cc0_transform_2 (grid0.coords ⟨t.val + 1, h⟩) ≠ cc0_transform_2 (grid0.coords t)))
      = decide (t.val % 1000 = 999) := by decide +kernel

/-- The output's block index at a point: the point's block of rows. -/
theorem idx0_1 : ∀ t : Fin grid0.N, cc0_transform_2 (grid0.coords t) = ![t.val / 1000, 0] := by decide +kernel

/-- Every word of the launch's table names a row of the feature array. -/
def InRange0 (pf : pre0.Contents (Elt F)) : Prop := ∀ x : S16x2000.Idx, ((pf 0 : Vec F S16x2000 .i32) x).toNat < 100000

/-! ## The values -/

/-- Lane `l` of a one-row vector. -/
def lane0 (l : Fin 128) : S1x128.Idx := fun a => ⟨if a.val = 0 then 0 else l.val, by
  match a with
  | ⟨0, _⟩ => exact Nat.one_pos
  | ⟨1, _⟩ => exact l.isLt⟩

theorem lane0_one (l : Fin 128) : (lane0 l 1).val = l.val := rfl

/-- The grid point of row `r` of block `q` (total: the point number is taken modulo the grid's size). -/
def pt0 (q : ℕ) (r : ℕ) : Fin grid0.N := ⟨(q * 1000 + r) % grid0.N, Nat.mod_lt _ (by decide)⟩

/-- Inside the grid the point's number is `1000 q + r`. -/
theorem pt0_val (q r : ℕ) (hq : q < 2) (hr : r < 1000) : (pt0 q r).val = q * 1000 + r := by
  show (q * 1000 + r) % grid0.N = q * 1000 + r
  rw [N_0]; omega

/-- A point is the point of its block and row. -/
theorem pt0_self (t : Fin grid0.N) : pt0 (t.val / 1000) (t.val % 1000) = t := by
  apply Fin.ext
  show (t.val / 1000 * 1000 + t.val % 1000) % grid0.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means0 (tb : Vec F S16x2000 .i32) (A0 : Vec F S100000x128 .f32) (q : ℕ) : Vec F S1000x128 .f32 :=
  fun x => Gen.k24_pay1 (gath24 (grid0.coords (pt0 q (x 0).val)) tb A0) (lane0 (x 1))

/-- What the body stores in the output window at the last row of block `q`: the means, rounded, times the weight, rounded. -/
def xBlk0 (tb : Vec F S16x2000 .i32) (A0 : Vec F S100000x128 .f32) (Wt : Vec F S128x128 .f32) (q : ℕ) : Vec F S1000x128 .f32 :=
  Gen.k24_pay2 (means0 tb A0 q) Wt

/-- The carried scratch before point `n`: its rows below `n % 1000` are the means of block `n / 1000`. -/
def RowsOK0 (tb : Vec F S16x2000 .i32) (A0 : Vec F S100000x128 .f32) (n : ℕ) (g : Vec F S1000x128 .f32) : Prop :=
  ∀ x : S1000x128.Idx, (x 0).val < n % 1000 → g x = means0 tb A0 (n / 1000) x

/-- At the first row of a block nothing is asked. -/
theorem rowsOK0_start (tb : Vec F S16x2000 .i32) (A0 : Vec F S100000x128 .f32) (n : ℕ) (hn : n % 1000 = 0) (g : Vec F S1000x128 .f32) :
    RowsOK0 tb A0 n g := fun x hx => absurd hx (by omega)

/-- One point's row store keeps the invariant's rows and adds its own: after the store at point `t` the rows up to
    `t % 1000` are means. -/
theorem rowAt0_means (tb : Vec F S16x2000 .i32) (A0 : Vec F S100000x128 .f32) (t : Fin grid0.N) (g : Vec F S1000x128 .f32)
    (hg : RowsOK0 tb A0 t.val g) (x : S1000x128.Idx) (hx : (x 0).val ≤ t.val % 1000) :
    row24 (grid0.coords t) tb A0 g x = means0 tb A0 (t.val / 1000) x := by
  by_cases h : (x 0).val = t.val % 1000
  · rw [row24_of_eq (grid0.coords t) tb A0 g x (by rw [rowAt0_coord]; exact h) (lane0 (x 1)) rfl]
    unfold means0
    rw [h, pt0_self]
  · rw [row24_of_ne (grid0.coords t) tb A0 g x (by rw [rowAt0_coord]; exact h)]
    exact hg x (by omega)

/-- Within a block the invariant steps. -/
theorem rowsOK0_step (tb : Vec F S16x2000 .i32) (A0 : Vec F S100000x128 .f32) (t : Fin grid0.N) (g : Vec F S1000x128 .f32)
    (hg : RowsOK0 tb A0 t.val g) : RowsOK0 tb A0 (t.val + 1) (row24 (grid0.coords t) tb A0 g) := by
  by_cases hl : t.val % 1000 = 999
  · exact rowsOK0_start _ _ _ (by omega) _
  · intro x hx
    have h1 : (t.val + 1) / 1000 = t.val / 1000 := by omega
    rw [h1]
    exact rowAt0_means tb A0 t g hg x (by omega)

/-- At the last row of a block the scratch, after the row store, is the block's means whatever it held before. -/
theorem rowAt0_last (tb : Vec F S16x2000 .i32) (A0 : Vec F S100000x128 .f32) (t : Fin grid0.N) (hl : t.val % 1000 = 999)
    (g : Vec F S1000x128 .f32) (hg : RowsOK0 tb A0 t.val g) :
    row24 (grid0.coords t) tb A0 g = means0 tb A0 (t.val / 1000) :=
  funext fun x => rowAt0_means tb A0 t g hg x (by have : (x 0).val < 1000 := (x 0).isLt; omega)

/-! ## The invariant -/

/-- The launch's operands that no window stages, as the body is handed them: its table, the feature array left in
    HBM, and its two scratch buffers — whole buffers. -/
abbrev tbM0 : Memref sig .tc .smem S16x2000 .i32 := Memref.whole main_v1
abbrev hbM0 : Memref sig .tc .hbm S100000x128 .f32 := Memref.whole main_arg0
abbrev scM0_0 : Memref sig .tc .vmem S1000x128 .f32 := Memref.whole cc0_scratch0
abbrev scM0_1 : Memref sig .tc .vmem S16x128 .f32 := Memref.whole cc0_scratch1

section Region
-- the TensorCore's buffer contents when the launch is entered, and the launch's table
variable (V : (c : Dev nD) → (b : Ref sig .tc) → Buf (Elt F) ((c : Thread nD τ).loc b)) (a : (pcfg0 (F := F)).Adm)

/-- The table and the feature array, as vectors. -/
abbrev tb0 : Vec F S16x2000 .i32 := a.1 0
abbrev A0 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ0 (c : Dev nD) (n : ℕ) : sProp 𝕄 :=
  iprop(owns (c : Thread nD τ) tbM0 fullShare (tb0 a)
    ∗ owns (c : Thread nD τ) hbM0 fullShare (A0 V c)
    ∗ (∃ g : Vec F S1000x128 .f32, ⌜RowsOK0 (tb0 a) (A0 V c) n g⌝ ∗ owns (c : Thread nD τ) scM0_0 fullShare g)
    ∗ (∃ d, owns (c : Thread nD τ) scM0_1 fullShare d)
    ∗ cells24 c cc0_scratch2
    ∗ (∃ r, prngReg c r)
    ∗ Pipeline.scopedRestBut (Ix := Unit) (Name := ℕ) (U := UC) (Lvl := ℕ) (Val := Elt F) spec0 c [cc0_scratch0, cc0_scratch1])

/-! ## The windows' blocks and the proof data -/

/-- Window `w`'s block at point `t`, read off its array as the launch finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The proof data of the launch on core `c`: the arrays as the launch finds them; after the body at point `t` the
    weight window at its block and the output window at the product for `t`'s block of rows (read only at the block's
    last row, where the body stores it); the invariant above; nothing owed; full shares. -/
def dat0 (c : Dev nD) : Dat τ (Elt F) Unit ℕ UC ℕ (cfg0 a) c where
  A w := V c (Pipeline.arrRef spec0 w)
  after w t := match w with
    | ⟨0, _⟩ => iblk0 V a c 0 t
    | ⟨1, _⟩ => xBlk0 (tb0 a) (A0 V c) (iblk0 V a c 0 t) (t.val / 1000)
  Φ n := Φ0 V a c n.val
  q _ := fullShare
  owed _ := 0

/-- The proof data's arrays are the entry contents. -/
theorem A_eq0 (c : Dev nD) (w : Fin (cfg0 a).W) : (dat0 V a c).A w = V c (Pipeline.arrRef spec0 w) := by
  dsimp only [dat0]

/-- What the body leaves, window by window. -/
theorem after0_0 (c : Dev nD) (t : Fin (cfg0 a).N) : (dat0 V a c).after 0 t = iblk0 V a c 0 t := by dsimp only [dat0]; rfl
theorem after0_1 (c : Dev nD) (t : Fin (cfg0 a).N) :
    (dat0 V a c).after 1 t = xBlk0 (tb0 a) (A0 V c) (iblk0 V a c 0 t) (t.val / 1000) := by dsimp only [dat0]; rfl

/-- The invariant and the tallies, at a point. -/
theorem Phi0_eq (c : Dev nD) (n : Fin ((cfg0 a).N + 1)) : (dat0 V a c).Φ n = Φ0 V a c n.val := by dsimp only [dat0]
theorem owed0_eq (c : Dev nD) (n : Fin ((cfg0 a).N + 1)) : (dat0 V a c).owed n = 0 := by dsimp only [dat0]

/-- The weight window holds its block at every point, fetched there or not: its block index never moves. -/
theorem before0_0 (c : Dev nD) (t : Fin (cfg0 a).N) (d) : (dat0 V a c).before 0 t d = iblk0 V a c 0 t :=
  ((dat0 V a c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The output window is written back after the last row of each block of rows, and only there; -/
theorem flush0_1 (t : Fin (cfg0 a).N) : ((cfg0 a).win 1).flush t = decide (t.val % 1000 = 999) := by
  unfold Window.flush
  exact flushB0 t
/-- and it is idle at every other row. -/
theorem idle0_1 (t : Fin (cfg0 a).N) : (cfg0 a).idle 1 ((cfg0 a).grid.coords t) = !decide (t.val % 1000 = 999) := by
  show (!(k0_cond1 (grid0.coords t) == 1#1)) = _
  congr 1
  by_cases h : t.val % 1000 = 999
  · rw [decide_eq_true h, (cond0_iff t).2 h]; rfl
  · rw [decide_eq_false h]
    exact beq_false_of_ne fun e => h ((cond0_iff t).1 e)

end Region

/-! ## The body obligation -/

section Body
variable (V : (c : Dev nD) → (b : Ref sig .tc) → Buf (Elt F) ((c : Thread nD τ).loc b)) (a : (pcfg0 (F := F)).Adm)

/-- Each window's current staging memref at point `t`, spelled as the pipeline passes it, and its wholeness. -/
abbrev ms0_0 (t : Fin (cfg0 a).N) : Memref sig .tc .vmem S128x128 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S1000x128 .f32 := spec0_1.stage ((cfg0 a).slots t 1)
abbrev hs0_1 (t : Fin (cfg0 a).N) : (ms0_1 a t).IsWhole := hstage0_1 (((cfg0 a).slots t 1).cast nbuf0_1)

/-- The launch's body function, under the name the runs are stated at. -/
theorem bodyFn0_eq : cc0__gather_agg_matmul_kernel (F := F) = gatherFn := rfl

/-- The kernel body at point `t`, on what the pipeline calls it with. -/
abbrev bodyAt0 (t : Fin (cfg0 a).N) : Prog (TpuEff nD τ sig (Elt F) Λ₀ .tc) PUnit :=
  cc0__gather_agg_matmul_kernel (grid0.coords t) tbM0 (Memref.isWhole_whole _) hbM0 (Memref.isWhole_whole _)
    (ms0_0 a t) (hs0_0 a t) (ms0_1 a t) (hs0_1 a t) scM0_0 (Memref.isWhole_whole _) scM0_1 (Memref.isWhole_whole _) cc0_scratch2

/-- What the body is called with at point `t`, the windows one by one, -/
def bodyPre0 (c : Dev nD) (t : Fin (cfg0 a).N) : sProp 𝕄 :=
  iprop((dat0 V a c).Φ t.castSucc ∗ (dat0 V a c).owesAt () t.castSucc
    ∗ (∃ d, owns (c : Thread nD τ) (ms0_0 a t) fullShare ((dat0 V a c).before 0 t d))
    ∗ (∃ d, owns (c : Thread nD τ) (ms0_1 a t) fullShare ((dat0 V a c).before 1 t d)))

/-- and what it returns: the output window as it was found where the point is idle for it, at the block's product
    at the last row of a block. -/
def bodyPost0 (c : Dev nD) (t : Fin (cfg0 a).N) : sProp 𝕄 :=
  iprop((dat0 V a c).Φ t.succ ∗ (dat0 V a c).owesAt () t.succ
    ∗ owns (c : Thread nD τ) (ms0_0 a t) fullShare ((dat0 V a c).after 0 t)
    ∗ (match (cfg0 a).idle 1 ((cfg0 a).grid.coords t) with
        | true =>
          match ((cfg0 a).win 1).flush t with
          | false => iprop(∃ d, owns (c : Thread nD τ) (ms0_1 a t) fullShare ((dat0 V a c).before 1 t d))
          | true => owns (c : Thread nD τ) (ms0_1 a t) fullShare ((dat0 V a c).after 1 t)
        | false => owns (c : Thread nD τ) (ms0_1 a t) fullShare ((dat0 V a c).after 1 t)))

/-- The body at any point. The weight window holds its block; the invariant hands the body its table, the feature
    array, both scratch buffers and its transfer cells, and takes them back with the carried scratch one row further
    (`rowsOK0_step`); at the last row of a block the product the body stores is the block's (`rowAt0_last`); the core's
    `owes` goes in at whatever the points before recorded and comes back with this point's waits. -/
theorem sound_body0 (hR : InRange0 a.1) (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  rw [flush0_1, idle0_1]
  simp only [before0_0]
  rw [after0_0, Phi0_eq, Phi0_eq, Fin.val_succ, Fin.coe_castSucc]
  unfold Dat.owesAt Pipeline.owesWithin
  rw [owed0_eq, owed0_eq]
  unfold Φ0
  rw [bodyFn0_eq]
  by_cases hl : t.val % 1000 = 999
  · -- the last row of a block
    rw [decide_eq_true hl, Bool.not_true]
    dsimp only
    rw [after0_1]
    unfold xBlk0
    iintro ⟨⟨Htb, Hhb, ⟨%g, %hg, Hs0⟩, Hs1, Hcells, Hreg, Hrest⟩, ⟨%W, -, HW⟩, ⟨%d0, H0⟩, ⟨%d1, H1⟩⟩
    rw [← rowAt0_last (tb0 a) (A0 V c) t hl g hg]
    iapply (run24_last c (grid0.coords t) tbM0 (Memref.isWhole_whole _) hbM0 (Memref.isWhole_whole _) (ms0_0 a t) (hs0_0 a t)
      (ms0_1 a t) (hs0_1 a t) scM0_0 (Memref.isWhole_whole _) scM0_1 (Memref.isWhole_whole _) cc0_scratch2
      ((cond0_iff t).2 hl) (tb0 a) hR (A0 V c) (iblk0 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK0_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k0_cond1 (grid0.coords t) ≠ 1#1 := fun e => hl ((cond0_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid0.coords t) tbM0 (Memref.isWhole_whole _) hbM0 (Memref.isWhole_whole _) (ms0_0 a t) (hs0_0 a t)
      (ms0_1 a t) (hs0_1 a t) scM0_0 (Memref.isWhole_whole _) scM0_1 (Memref.isWhole_whole _) cc0_scratch2
      hc (tb0 a) hR (A0 V c) (iblk0 V a c 0 t) g
      (owns (c : Thread nD τ) (ms0_1 a t) fullShare ((dat0 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK0_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation0 (hR : InRange0 a.1) (c : Dev nD) :
    BodyObligation (dat0 (F := F) V a c) (defs₀ (F := F)) Variants.none () Set.univ := fun t => by
  rw [bigSep_W0, bigSep_W0]
  exact sound_body0 V a hR c t

end Body

/-! ## The value: what the launch leaves in its output array -/

section Value
variable (V : (c : Dev nD) → (b : Ref sig .tc) → Buf (Elt F) ((c : Thread nD τ).loc b)) (a : (pcfg0 (F := F)).Adm)

/-- Entry `(r, l)` of a block of rows. -/
def cell0 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk0 (tb : Vec F S16x2000 .i32) (A0 : Vec F S100000x128 .f32) (Wt : Vec F S128x128 .f32) : Vec F S2000x128 .f32 :=
  fun y => xBlk0 tb A0 Wt ((y 0).val / 1000) (cell0 ((y 0).val % 1000) (Nat.mod_lt _ (by decide)) (y 1))

/-- The weight window's block is the whole weight, at every point: its block index is (0, 0). -/
theorem wblk0_eq (c : Dev nD) (t : Fin (cfg0 a).N) : iblk0 V a c 0 t = (V c main_arg1 : Vec F S128x128 .f32) := by
  funext x
  unfold iblk0
  rw [View.read_apply]
  refine (cast_eq _ _).trans (congrArg (V c main_arg1) (funext fun b => Fin.ext ?_))
  refine (((cfg0 a).win 0).rect_emb_val_of_index_zero t b ?_ x)
  match b with
  | ⟨0, _⟩ => rfl
  | ⟨1, _⟩ => rfl

/-- Where entry `x` of the output window's block at point `t` sits in the output array. -/
abbrev emb0 (t : Fin (cfg0 a).N) (x : S1000x128.Idx) : S2000x128.Idx := (((cfg0 a).win 1).blk t).view.emb x

theorem emb0_val (t : Fin (cfg0 a).N) (x : S1000x128.Idx) :
    (emb0 a t x 0).val = t.val / 1000 * 1000 + (x 0).val ∧ (emb0 a t x 1).val = (x 1).val := by
  have hix : ((cfg0 a).win 1).index t = ![t.val / 1000, 0] := idx0_1 t
  have e0 := ((cfg0 a).win 1).rect_emb_val t x (0 : Fin 2)
  have e1 := ((cfg0 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after0_chunk (c : Dev nD) (t : Fin (cfg0 a).N) (x : S1000x128.Idx) :
    (dat0 V a c).after 1 t x = xChunk0 (tb0 a) (A0 V c) (V c main_arg1) (emb0 a t x) := by
  obtain ⟨e0, e1⟩ := emb0_val a t x
  have hx0 : (x 0).val < 1000 := (x 0).isLt
  rw [after0_1, wblk0_eq]
  unfold xChunk0
  have hq : (emb0 a t x 0).val / 1000 = t.val / 1000 := by rw [e0]; omega
  have hcell : cell0 ((emb0 a t x 0).val % 1000) (Nat.mod_lt _ (by decide)) (emb0 a t x 1) = x := by
    funext b
    apply Fin.ext
    match b with
    | ⟨0, _⟩ =>
      show (emb0 a t x 0).val % 1000 = (x 0).val
      rw [e0]; omega
    | ⟨1, _⟩ => exact e1
  rw [hq, hcell]

/-- Two entries of the output array with the same coordinates are the same. -/
theorem idx0_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb0_cell (t : Fin (cfg0 a).N) (i : S2000x128.Idx) (ht : t.val / 1000 = (i 0).val / 1000) :
    emb0 a t (cell0 ((i 0).val % 1000) (Nat.mod_lt _ (by decide)) (i 1)) = i := by
  obtain ⟨e0, e1⟩ := emb0_val a t (cell0 ((i 0).val % 1000) (Nat.mod_lt _ (by decide)) (i 1))
  refine idx0_ext _ _ ?_ e1
  rw [e0, ht]
  show (i 0).val / 1000 * 1000 + (i 0).val % 1000 = (i 0).val
  omega

/-- Every entry of the output array lies in the block written back after the last row of its block of rows. -/
theorem cover0 (i : S2000x128.Idx) :
    ∃ t : Fin (cfg0 a).N, ((cfg0 a).win 1).flush t = true ∧ i ∈ (((cfg0 a).win 1).blk t).view.set := by
  have hi0 : (i 0).val < 2000 := (i 0).isLt
  have hN : (i 0).val / 1000 * 1000 + 999 < (cfg0 a).N := by rw [N0]; omega
  refine ⟨⟨(i 0).val / 1000 * 1000 + 999, hN⟩, ?_, ?_⟩
  · rw [flush0_1]; exact decide_eq_true (by show ((i 0).val / 1000 * 1000 + 999) % 1000 = 999; omega)
  · refine Finset.mem_map.mpr ⟨cell0 ((i 0).val % 1000) (Nat.mod_lt _ (by decide)) (i 1), Finset.mem_univ _, ?_⟩
    exact emb0_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out0 (c : Dev nD) :
    (dat0 V a c).arrAt 1 (cfg0 a).N = (xChunk0 (tb0 a) (A0 V c) (V c main_arg1) : Vec F S2000x128 .f32) :=
  (dat0 V a c).arrAt_eq_of_cover 1 _
    (fun t _ => funext fun x => (after0_chunk V a c t x).trans (cast_eq _ _).symm)
    (cover0 a)

end Value

/-! ## The invariant's two ends -/

section Ends
variable (V : (c : Dev nD) → (b : Ref sig .tc) → Buf (Elt F) ((c : Thread nD τ).loc b)) (a : (pcfg0 (F := F)).Adm)

/-- The body's own transfer cells as the launch's protocol lists them: the 16 cells of its semaphore operand. -/
def osem0 : Fin 16 → SemLoc sig := fun k => SemLoc.dma (cc0_scratch2.ix (Shape.ofLane k))
/-- They are scoped, distinct, and none is a window's. -/
theorem ownSemFacts0 : Pipeline.OwnSemFacts spec0 osem0 := by decide
/-- The cells at zero, listed, are the cells as the body names them. -/
theorem cells0_eq (c : Dev nD) :
    (Pipeline.ownSems0 (Ix := Unit) (Name := ℕ) (U := UC) (Lvl := ℕ) (Val := Elt F) (τ := τ) osem0 c : sProp 𝕄) = cells24 c cc0_scratch2 := by
  rw [Pipeline.ownSems0_eq_of_list c osem0 [0, 1, 2, 3, 4, 5, 6, 7, 8, 9, 10, 11, 12, 13, 14, 15] (by decide) (by decide)]; rfl

/-- The launch's one table, held. -/
theorem prefHeld0_eq (c : Dev nD) (pf : pre0.Contents (Elt F)) :
    (Pipeline.prefHeld pre0 c (fun _ => fullShare) pf : sProp 𝕄) = (((c : Thread nD τ).loc main_v1) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X0 (c : Dev nD) : sProp 𝕄 :=
  iprop((∃ r, prngReg c r) ∗ Pipeline.ownSems0 (Ix := Unit) (Name := ℕ) (U := UC) (Lvl := ℕ) (Val := Elt F) (τ := τ) osem0 c
    ∗ (((c : Thread nD τ).loc main_arg0) ↦{fullShare} V c main_arg0))
abbrev Y0 (c : Dev nD) : sProp 𝕄 :=
  iprop((∃ r, prngReg c r) ∗ (((c : Thread nD τ).loc main_arg0) ↦{fullShare} V c main_arg0)
    ∗ Pipeline.prefHeld pre0 c (fun _ => fullShare) a.1)

/-- THE FIRST POINT: the invariant from what the launch's entry sorts out. Nothing is asked of the carried scratch. -/
theorem Phi0_in (c : Dev nD) :
    iprop(X0 V c ∗ Pipeline.prefHeld pre0 c (fun _ => fullShare) a.1
        ∗ Pipeline.scopedRest (Ix := Unit) (Name := ℕ) (U := UC) (Lvl := ℕ) (Val := Elt F) spec0 c)
      ⊢ (dat0 V a c).Φ 0 := by
  rw [Phi0_eq]
  unfold Φ0 X0
  rw [scopedRest0_split, prefHeld0_eq, cells0_eq]
  simp only [tbM0, hbM0, scM0_0, scM0_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK0_start _ _ _ rfl _
  isplitl [Hs1]; · iexact Hs1
  isplitl [Hcells]; · iexact Hcells
  isplitl [Hreg]; · iexact Hreg
  iexact Hrest

/-- THE LAST POINT: the invariant gives back what it took. -/
theorem Phi0_out (c : Dev nD) :
    (dat0 V a c).Φ (Fin.last _)
      ⊢ iprop(Y0 V a c ∗ Pipeline.ownSems0 (Ix := Unit) (Name := ℕ) (U := UC) (Lvl := ℕ) (Val := Elt F) (τ := τ) osem0 c
        ∗ Pipeline.scopedRest (Ix := Unit) (Name := ℕ) (U := UC) (Lvl := ℕ) (Val := Elt F) spec0 c) := by
  rw [Phi0_eq]
  unfold Φ0 Y0
  rw [scopedRest0_split, prefHeld0_eq, cells0_eq]
  simp only [tbM0, hbM0, scM0_0, scM0_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G1Dat.lean ====
/-
  One of the program's 25 gather launches (pipeline 1; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N1 (a : (pcfg1 (F := F)).Adm) : (cfg1 a).N = 2000 := N_1

/-- The body's branch is taken at the last row of a block of rows, -/
theorem cond1_iff : ∀ t : Fin grid1.N, k1_cond1 (grid1.coords t) = 1#1 ↔ t.val % 1000 = 999 := by decide +kernel
/-- the row a point works on is its number modulo 1000, -/
theorem rowAt1_coord : ∀ t : Fin grid1.N, (grid1.coords t 1).val = t.val % 1000 := by decide +kernel
/-- its block of rows is its number divided by 1000, -/
theorem blockAt1_coord : ∀ t : Fin grid1.N, (grid1.coords t 0).val = t.val / 1000 := by decide +kernel
/-- and the output's block index moves after exactly those points (and the grid ends at one). -/
theorem flushB1 : ∀ t : Fin grid1.N,
    (decide (t.val + 1 = grid1.N) || decide (∃ h : t.val + 1 < grid1.N, cc1_transform_2 (grid1.coords ⟨t.val + 1, h⟩) ≠ cc1_transform_2 (grid1.coords t)))
      = decide (t.val % 1000 = 999) := by decide +kernel

/-- The output's block index at a point: the point's block of rows. -/
theorem idx1_1 : ∀ t : Fin grid1.N, cc1_transform_2 (grid1.coords t) = ![t.val / 1000, 0] := by decide +kernel

/-- Every word of the launch's table names a row of the feature array. -/
def InRange1 (pf : pre1.Contents (Elt F)) : Prop := ∀ x : S16x2000.Idx, ((pf 0 : Vec F S16x2000 .i32) x).toNat < 100000

/-! ## The values -/

/-- Lane `l` of a one-row vector. -/
def lane1 (l : Fin 128) : S1x128.Idx := fun a => ⟨if a.val = 0 then 0 else l.val, by
  match a with
  | ⟨0, _⟩ => exact Nat.one_pos
  | ⟨1, _⟩ => exact l.isLt⟩

theorem lane1_one (l : Fin 128) : (lane1 l 1).val = l.val := rfl

/-- The grid point of row `r` of block `q` (total: the point number is taken modulo the grid's size). -/
def pt1 (q : ℕ) (r : ℕ) : Fin grid1.N := ⟨(q * 1000 + r) % grid1.N, Nat.mod_lt _ (by decide)⟩

/-- Inside the grid the point's number is `1000 q + r`. -/
theorem pt1_val (q r : ℕ) (hq : q < 2) (hr : r < 1000) : (pt1 q r).val = q * 1000 + r := by
  show (q * 1000 + r) % grid1.N = q * 1000 + r
  rw [N_1]; omega

/-- A point is the point of its block and row. -/
theorem pt1_self (t : Fin grid1.N) : pt1 (t.val / 1000) (t.val % 1000) = t := by
  apply Fin.ext
  show (t.val / 1000 * 1000 + t.val % 1000) % grid1.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means1 (tb : Vec F S16x2000 .i32) (A0 : Vec F S100000x128 .f32) (q : ℕ) : Vec F S1000x128 .f32 :=
  fun x => Gen.k24_pay1 (gath24 (grid1.coords (pt1 q (x 0).val)) tb A0) (lane1 (x 1))

/-- What the body stores in the output window at the last row of block `q`: the means, rounded, times the weight, rounded. -/
def xBlk1 (tb : Vec F S16x2000 .i32) (A0 : Vec F S100000x128 .f32) (Wt : Vec F S128x128 .f32) (q : ℕ) : Vec F S1000x128 .f32 :=
  Gen.k24_pay2 (means1 tb A0 q) Wt

/-- The carried scratch before point `n`: its rows below `n % 1000` are the means of block `n / 1000`. -/
def RowsOK1 (tb : Vec F S16x2000 .i32) (A0 : Vec F S100000x128 .f32) (n : ℕ) (g : Vec F S1000x128 .f32) : Prop :=
  ∀ x : S1000x128.Idx, (x 0).val < n % 1000 → g x = means1 tb A0 (n / 1000) x

/-- At the first row of a block nothing is asked. -/
theorem rowsOK1_start (tb : Vec F S16x2000 .i32) (A0 : Vec F S100000x128 .f32) (n : ℕ) (hn : n % 1000 = 0) (g : Vec F S1000x128 .f32) :
    RowsOK1 tb A0 n g := fun x hx => absurd hx (by omega)

/-- One point's row store keeps the invariant's rows and adds its own: after the store at point `t` the rows up to
    `t % 1000` are means. -/
theorem rowAt1_means (tb : Vec F S16x2000 .i32) (A0 : Vec F S100000x128 .f32) (t : Fin grid1.N) (g : Vec F S1000x128 .f32)
    (hg : RowsOK1 tb A0 t.val g) (x : S1000x128.Idx) (hx : (x 0).val ≤ t.val % 1000) :
    row24 (grid1.coords t) tb A0 g x = means1 tb A0 (t.val / 1000) x := by
  by_cases h : (x 0).val = t.val % 1000
  · rw [row24_of_eq (grid1.coords t) tb A0 g x (by rw [rowAt1_coord]; exact h) (lane1 (x 1)) rfl]
    unfold means1
    rw [h, pt1_self]
  · rw [row24_of_ne (grid1.coords t) tb A0 g x (by rw [rowAt1_coord]; exact h)]
    exact hg x (by omega)

/-- Within a block the invariant steps. -/
theorem rowsOK1_step (tb : Vec F S16x2000 .i32) (A0 : Vec F S100000x128 .f32) (t : Fin grid1.N) (g : Vec F S1000x128 .f32)
    (hg : RowsOK1 tb A0 t.val g) : RowsOK1 tb A0 (t.val + 1) (row24 (grid1.coords t) tb A0 g) := by
  by_cases hl : t.val % 1000 = 999
  · exact rowsOK1_start _ _ _ (by omega) _
  · intro x hx
    have h1 : (t.val + 1) / 1000 = t.val / 1000 := by omega
    rw [h1]
    exact rowAt1_means tb A0 t g hg x (by omega)

/-- At the last row of a block the scratch, after the row store, is the block's means whatever it held before. -/
theorem rowAt1_last (tb : Vec F S16x2000 .i32) (A0 : Vec F S100000x128 .f32) (t : Fin grid1.N) (hl : t.val % 1000 = 999)
    (g : Vec F S1000x128 .f32) (hg : RowsOK1 tb A0 t.val g) :
    row24 (grid1.coords t) tb A0 g = means1 tb A0 (t.val / 1000) :=
  funext fun x => rowAt1_means tb A0 t g hg x (by have : (x 0).val < 1000 := (x 0).isLt; omega)

/-! ## The invariant -/

/-- The launch's operands that no window stages, as the body is handed them: its table, the feature array left in
    HBM, and its two scratch buffers — whole buffers. -/
abbrev tbM1 : Memref sig .tc .smem S16x2000 .i32 := Memref.whole main_v3
abbrev hbM1 : Memref sig .tc .hbm S100000x128 .f32 := Memref.whole main_arg0
abbrev scM1_0 : Memref sig .tc .vmem S1000x128 .f32 := Memref.whole cc1_scratch0
abbrev scM1_1 : Memref sig .tc .vmem S16x128 .f32 := Memref.whole cc1_scratch1

section Region
-- the TensorCore's buffer contents when the launch is entered, and the launch's table
variable (V : (c : Dev nD) → (b : Ref sig .tc) → Buf (Elt F) ((c : Thread nD τ).loc b)) (a : (pcfg1 (F := F)).Adm)

/-- The table and the feature array, as vectors. -/
abbrev tb1 : Vec F S16x2000 .i32 := a.1 0
abbrev A1 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ1 (c : Dev nD) (n : ℕ) : sProp 𝕄 :=
  iprop(owns (c : Thread nD τ) tbM1 fullShare (tb1 a)
    ∗ owns (c : Thread nD τ) hbM1 fullShare (A1 V c)
    ∗ (∃ g : Vec F S1000x128 .f32, ⌜RowsOK1 (tb1 a) (A1 V c) n g⌝ ∗ owns (c : Thread nD τ) scM1_0 fullShare g)
    ∗ (∃ d, owns (c : Thread nD τ) scM1_1 fullShare d)
    ∗ cells24 c cc1_scratch2
    ∗ (∃ r, prngReg c r)
    ∗ Pipeline.scopedRestBut (Ix := Unit) (Name := ℕ) (U := UC) (Lvl := ℕ) (Val := Elt F) spec1 c [cc1_scratch0, cc1_scratch1])

/-! ## The windows' blocks and the proof data -/

/-- Window `w`'s block at point `t`, read off its array as the launch finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The proof data of the launch on core `c`: the arrays as the launch finds them; after the body at point `t` the
    weight window at its block and the output window at the product for `t`'s block of rows (read only at the block's
    last row, where the body stores it); the invariant above; nothing owed; full shares. -/
def dat1 (c : Dev nD) : Dat τ (Elt F) Unit ℕ UC ℕ (cfg1 a) c where
  A w := V c (Pipeline.arrRef spec1 w)
  after w t := match w with
    | ⟨0, _⟩ => iblk1 V a c 0 t
    | ⟨1, _⟩ => xBlk1 (tb1 a) (A1 V c) (iblk1 V a c 0 t) (t.val / 1000)
  Φ n := Φ1 V a c n.val
  q _ := fullShare
  owed _ := 0

/-- The proof data's arrays are the entry contents. -/
theorem A_eq1 (c : Dev nD) (w : Fin (cfg1 a).W) : (dat1 V a c).A w = V c (Pipeline.arrRef spec1 w) := by
  dsimp only [dat1]

/-- What the body leaves, window by window. -/
theorem after1_0 (c : Dev nD) (t : Fin (cfg1 a).N) : (dat1 V a c).after 0 t = iblk1 V a c 0 t := by dsimp only [dat1]; rfl
theorem after1_1 (c : Dev nD) (t : Fin (cfg1 a).N) :
    (dat1 V a c).after 1 t = xBlk1 (tb1 a) (A1 V c) (iblk1 V a c 0 t) (t.val / 1000) := by dsimp only [dat1]; rfl

/-- The invariant and the tallies, at a point. -/
theorem Phi1_eq (c : Dev nD) (n : Fin ((cfg1 a).N + 1)) : (dat1 V a c).Φ n = Φ1 V a c n.val := by dsimp only [dat1]
theorem owed1_eq (c : Dev nD) (n : Fin ((cfg1 a).N + 1)) : (dat1 V a c).owed n = 0 := by dsimp only [dat1]

/-- The weight window holds its block at every point, fetched there or not: its block index never moves. -/
theorem before1_0 (c : Dev nD) (t : Fin (cfg1 a).N) (d) : (dat1 V a c).before 0 t d = iblk1 V a c 0 t :=
  ((dat1 V a c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The output window is written back after the last row of each block of rows, and only there; -/
theorem flush1_1 (t : Fin (cfg1 a).N) : ((cfg1 a).win 1).flush t = decide (t.val % 1000 = 999) := by
  unfold Window.flush
  exact flushB1 t
/-- and it is idle at every other row. -/
theorem idle1_1 (t : Fin (cfg1 a).N) : (cfg1 a).idle 1 ((cfg1 a).grid.coords t) = !decide (t.val % 1000 = 999) := by
  show (!(k1_cond1 (grid1.coords t) == 1#1)) = _
  congr 1
  by_cases h : t.val % 1000 = 999
  · rw [decide_eq_true h, (cond1_iff t).2 h]; rfl
  · rw [decide_eq_false h]
    exact beq_false_of_ne fun e => h ((cond1_iff t).1 e)

end Region

/-! ## The body obligation -/

section Body
variable (V : (c : Dev nD) → (b : Ref sig .tc) → Buf (Elt F) ((c : Thread nD τ).loc b)) (a : (pcfg1 (F := F)).Adm)

/-- Each window's current staging memref at point `t`, spelled as the pipeline passes it, and its wholeness. -/
abbrev ms1_0 (t : Fin (cfg1 a).N) : Memref sig .tc .vmem S128x128 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1000x128 .f32 := spec1_1.stage ((cfg1 a).slots t 1)
abbrev hs1_1 (t : Fin (cfg1 a).N) : (ms1_1 a t).IsWhole := hstage1_1 (((cfg1 a).slots t 1).cast nbuf1_1)

/-- The launch's body function, under the name the runs are stated at. -/
theorem bodyFn1_eq : cc1__gather_agg_matmul_kernel (F := F) = gatherFn := rfl

/-- The kernel body at point `t`, on what the pipeline calls it with. -/
abbrev bodyAt1 (t : Fin (cfg1 a).N) : Prog (TpuEff nD τ sig (Elt F) Λ₀ .tc) PUnit :=
  cc1__gather_agg_matmul_kernel (grid1.coords t) tbM1 (Memref.isWhole_whole _) hbM1 (Memref.isWhole_whole _)
    (ms1_0 a t) (hs1_0 a t) (ms1_1 a t) (hs1_1 a t) scM1_0 (Memref.isWhole_whole _) scM1_1 (Memref.isWhole_whole _) cc1_scratch2

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d)))

/-- and what it returns: the output window as it was found where the point is idle for it, at the block's product
    at the last row of a block. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ (match (cfg1 a).idle 1 ((cfg1 a).grid.coords t) with
        | true =>
          match ((cfg1 a).win 1).flush t with
          | false => iprop(∃ d, owns (c : Thread nD τ) (ms1_1 a t) fullShare ((dat1 V a c).before 1 t d))
          | true => owns (c : Thread nD τ) (ms1_1 a t) fullShare ((dat1 V a c).after 1 t)
        | false => owns (c : Thread nD τ) (ms1_1 a t) fullShare ((dat1 V a c).after 1 t)))

/-- The body at any point. The weight window holds its block; the invariant hands the body its table, the feature
    array, both scratch buffers and its transfer cells, and takes them back with the carried scratch one row further
    (`rowsOK1_step`); at the last row of a block the product the body stores is the block's (`rowAt1_last`); the core's
    `owes` goes in at whatever the points before recorded and comes back with this point's waits. -/
theorem sound_body1 (hR : InRange1 a.1) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  rw [flush1_1, idle1_1]
  simp only [before1_0]
  rw [after1_0, Phi1_eq, Phi1_eq, Fin.val_succ, Fin.coe_castSucc]
  unfold Dat.owesAt Pipeline.owesWithin
  rw [owed1_eq, owed1_eq]
  unfold Φ1
  rw [bodyFn1_eq]
  by_cases hl : t.val % 1000 = 999
  · -- the last row of a block
    rw [decide_eq_true hl, Bool.not_true]
    dsimp only
    rw [after1_1]
    unfold xBlk1
    iintro ⟨⟨Htb, Hhb, ⟨%g, %hg, Hs0⟩, Hs1, Hcells, Hreg, Hrest⟩, ⟨%W, -, HW⟩, ⟨%d0, H0⟩, ⟨%d1, H1⟩⟩
    rw [← rowAt1_last (tb1 a) (A1 V c) t hl g hg]
    iapply (run24_last c (grid1.coords t) tbM1 (Memref.isWhole_whole _) hbM1 (Memref.isWhole_whole _) (ms1_0 a t) (hs1_0 a t)
      (ms1_1 a t) (hs1_1 a t) scM1_0 (Memref.isWhole_whole _) scM1_1 (Memref.isWhole_whole _) cc1_scratch2
      ((cond1_iff t).2 hl) (tb1 a) hR (A1 V c) (iblk1 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK1_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k1_cond1 (grid1.coords t) ≠ 1#1 := fun e => hl ((cond1_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid1.coords t) tbM1 (Memref.isWhole_whole _) hbM1 (Memref.isWhole_whole _) (ms1_0 a t) (hs1_0 a t)
      (ms1_1 a t) (hs1_1 a t) scM1_0 (Memref.isWhole_whole _) scM1_1 (Memref.isWhole_whole _) cc1_scratch2
      hc (tb1 a) hR (A1 V c) (iblk1 V a c 0 t) g
      (owns (c : Thread nD τ) (ms1_1 a t) fullShare ((dat1 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK1_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation1 (hR : InRange1 a.1) (c : Dev nD) :
    BodyObligation (dat1 (F := F) V a c) (defs₀ (F := F)) Variants.none () Set.univ := fun t => by
  rw [bigSep_W1, bigSep_W1]
  exact sound_body1 V a hR c t

end Body

/-! ## The value: what the launch leaves in its output array -/

section Value
variable (V : (c : Dev nD) → (b : Ref sig .tc) → Buf (Elt F) ((c : Thread nD τ).loc b)) (a : (pcfg1 (F := F)).Adm)

/-- Entry `(r, l)` of a block of rows. -/
def cell1 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk1 (tb : Vec F S16x2000 .i32) (A0 : Vec F S100000x128 .f32) (Wt : Vec F S128x128 .f32) : Vec F S2000x128 .f32 :=
  fun y => xBlk1 tb A0 Wt ((y 0).val / 1000) (cell1 ((y 0).val % 1000) (Nat.mod_lt _ (by decide)) (y 1))

/-- The weight window's block is the whole weight, at every point: its block index is (0, 0). -/
theorem wblk1_eq (c : Dev nD) (t : Fin (cfg1 a).N) : iblk1 V a c 0 t = (V c main_arg1 : Vec F S128x128 .f32) := by
  funext x
  unfold iblk1
  rw [View.read_apply]
  refine (cast_eq _ _).trans (congrArg (V c main_arg1) (funext fun b => Fin.ext ?_))
  refine (((cfg1 a).win 0).rect_emb_val_of_index_zero t b ?_ x)
  match b with
  | ⟨0, _⟩ => rfl
  | ⟨1, _⟩ => rfl

/-- Where entry `x` of the output window's block at point `t` sits in the output array. -/
abbrev emb1 (t : Fin (cfg1 a).N) (x : S1000x128.Idx) : S2000x128.Idx := (((cfg1 a).win 1).blk t).view.emb x

theorem emb1_val (t : Fin (cfg1 a).N) (x : S1000x128.Idx) :
    (emb1 a t x 0).val = t.val / 1000 * 1000 + (x 0).val ∧ (emb1 a t x 1).val = (x 1).val := by
  have hix : ((cfg1 a).win 1).index t = ![t.val / 1000, 0] := idx1_1 t
  have e0 := ((cfg1 a).win 1).rect_emb_val t x (0 : Fin 2)
  have e1 := ((cfg1 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after1_chunk (c : Dev nD) (t : Fin (cfg1 a).N) (x : S1000x128.Idx) :
    (dat1 V a c).after 1 t x = xChunk1 (tb1 a) (A1 V c) (V c main_arg1) (emb1 a t x) := by
  obtain ⟨e0, e1⟩ := emb1_val a t x
  have hx0 : (x 0).val < 1000 := (x 0).isLt
  rw [after1_1, wblk1_eq]
  unfold xChunk1
  have hq : (emb1 a t x 0).val / 1000 = t.val / 1000 := by rw [e0]; omega
  have hcell : cell1 ((emb1 a t x 0).val % 1000) (Nat.mod_lt _ (by decide)) (emb1 a t x 1) = x := by
    funext b
    apply Fin.ext
    match b with
    | ⟨0, _⟩ =>
      show (emb1 a t x 0).val % 1000 = (x 0).val
      rw [e0]; omega
    | ⟨1, _⟩ => exact e1
  rw [hq, hcell]

/-- Two entries of the output array with the same coordinates are the same. -/
theorem idx1_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb1_cell (t : Fin (cfg1 a).N) (i : S2000x128.Idx) (ht : t.val / 1000 = (i 0).val / 1000) :
    emb1 a t (cell1 ((i 0).val % 1000) (Nat.mod_lt _ (by decide)) (i 1)) = i := by
  obtain ⟨e0, e1⟩ := emb1_val a t (cell1 ((i 0).val % 1000) (Nat.mod_lt _ (by decide)) (i 1))
  refine idx1_ext _ _ ?_ e1
  rw [e0, ht]
  show (i 0).val / 1000 * 1000 + (i 0).val % 1000 = (i 0).val
  omega

/-- Every entry of the output array lies in the block written back after the last row of its block of rows. -/
theorem cover1 (i : S2000x128.Idx) :
    ∃ t : Fin (cfg1 a).N, ((cfg1 a).win 1).flush t = true ∧ i ∈ (((cfg1 a).win 1).blk t).view.set := by
  have hi0 : (i 0).val < 2000 := (i 0).isLt
  have hN : (i 0).val / 1000 * 1000 + 999 < (cfg1 a).N := by rw [N1]; omega
  refine ⟨⟨(i 0).val / 1000 * 1000 + 999, hN⟩, ?_, ?_⟩
  · rw [flush1_1]; exact decide_eq_true (by show ((i 0).val / 1000 * 1000 + 999) % 1000 = 999; omega)
  · refine Finset.mem_map.mpr ⟨cell1 ((i 0).val % 1000) (Nat.mod_lt _ (by decide)) (i 1), Finset.mem_univ _, ?_⟩
    exact emb1_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out1 (c : Dev nD) :
    (dat1 V a c).arrAt 1 (cfg1 a).N = (xChunk1 (tb1 a) (A1 V c) (V c main_arg1) : Vec F S2000x128 .f32) :=
  (dat1 V a c).arrAt_eq_of_cover 1 _
    (fun t _ => funext fun x => (after1_chunk V a c t x).trans (cast_eq _ _).symm)
    (cover1 a)

end Value

/-! ## The invariant's two ends -/

section Ends
variable (V : (c : Dev nD) → (b : Ref sig .tc) → Buf (Elt F) ((c : Thread nD τ).loc b)) (a : (pcfg1 (F := F)).Adm)

/-- The body's own transfer cells as the launch's protocol lists them: the 16 cells of its semaphore operand. -/
def osem1 : Fin 16 → SemLoc sig := fun k => SemLoc.dma (cc1_scratch2.ix (Shape.ofLane k))
/-- They are scoped, distinct, and none is a window's. -/
theorem ownSemFacts1 : Pipeline.OwnSemFacts spec1 osem1 := by decide
/-- The cells at zero, listed, are the cells as the body names them. -/
theorem cells1_eq (c : Dev nD) :
    (Pipeline.ownSems0 (Ix := Unit) (Name := ℕ) (U := UC) (Lvl := ℕ) (Val := Elt F) (τ := τ) osem1 c : sProp 𝕄) = cells24 c cc1_scratch2 := by
  rw [Pipeline.ownSems0_eq_of_list c osem1 [0, 1, 2, 3, 4, 5, 6, 7, 8, 9, 10, 11, 12, 13, 14, 15] (by decide) (by decide)]; rfl

/-- The launch's one table, held. -/
theorem prefHeld1_eq (c : Dev nD) (pf : pre1.Contents (Elt F)) :
    (Pipeline.prefHeld pre1 c (fun _ => fullShare) pf : sProp 𝕄) = (((c : Thread nD τ).loc main_v3) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X1 (c : Dev nD) : sProp 𝕄 :=
  iprop((∃ r, prngReg c r) ∗ Pipeline.ownSems0 (Ix := Unit) (Name := ℕ) (U := UC) (Lvl := ℕ) (Val := Elt F) (τ := τ) osem1 c
    ∗ (((c : Thread nD τ).loc main_arg0) ↦{fullShare} V c main_arg0))
abbrev Y1 (c : Dev nD) : sProp 𝕄 :=
  iprop((∃ r, prngReg c r) ∗ (((c : Thread nD τ).loc main_arg0) ↦{fullShare} V c main_arg0)
    ∗ Pipeline.prefHeld pre1 c (fun _ => fullShare) a.1)

/-- THE FIRST POINT: the invariant from what the launch's entry sorts out. Nothing is asked of the carried scratch. -/
theorem Phi1_in (c : Dev nD) :
    iprop(X1 V c ∗ Pipeline.prefHeld pre1 c (fun _ => fullShare) a.1
        ∗ Pipeline.scopedRest (Ix := Unit) (Name := ℕ) (U := UC) (Lvl := ℕ) (Val := Elt F) spec1 c)
      ⊢ (dat1 V a c).Φ 0 := by
  rw [Phi1_eq]
  unfold Φ1 X1
  rw [scopedRest1_split, prefHeld1_eq, cells1_eq]
  simp only [tbM1, hbM1, scM1_0, scM1_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK1_start _ _ _ rfl _
  isplitl [Hs1]; · iexact Hs1
  isplitl [Hcells]; · iexact Hcells
  isplitl [Hreg]; · iexact Hreg
  iexact Hrest

/-- THE LAST POINT: the invariant gives back what it took. -/
theorem Phi1_out (c : Dev nD) :
    (dat1 V a c).Φ (Fin.last _)
      ⊢ iprop(Y1 V a c ∗ Pipeline.ownSems0 (Ix := Unit) (Name := ℕ) (U := UC) (Lvl := ℕ) (Val := Elt F) (τ := τ) osem1 c
        ∗ Pipeline.scopedRest (Ix := Unit) (Name := ℕ) (U := UC) (Lvl := ℕ) (Val := Elt F) spec1 c) := by
  rw [Phi1_eq]
  unfold Φ1 Y1
  rw [scopedRest1_split, prefHeld1_eq, cells1_eq]
  simp only [tbM1, hbM1, scM1_0, scM1_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G2Dat.lean ====
/-
  One of the program's 25 gather launches (pipeline 2; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N2 (a : (pcfg2 (F := F)).Adm) : (cfg2 a).N = 2000 := N_2

/-- The body's branch is taken at the last row of a block of rows, -/
theorem cond2_iff : ∀ t : Fin grid2.N, k2_cond1 (grid2.coords t) = 1#1 ↔ t.val % 1000 = 999 := by decide +kernel
/-- the row a point works on is its number modulo 1000, -/
theorem rowAt2_coord : ∀ t : Fin grid2.N, (grid2.coords t 1).val = t.val % 1000 := by decide +kernel
/-- its block of rows is its number divided by 1000, -/
theorem blockAt2_coord : ∀ t : Fin grid2.N, (grid2.coords t 0).val = t.val / 1000 := by decide +kernel
/-- and the output's block index moves after exactly those points (and the grid ends at one). -/
theorem flushB2 : ∀ t : Fin grid2.N,
    (decide (t.val + 1 = grid2.N) || decide (∃ h : t.val + 1 < grid2.N, cc2_transform_2 (grid2.coords ⟨t.val + 1, h⟩) ≠ cc2_transform_2 (grid2.coords t)))
      = decide (t.val % 1000 = 999) := by decide +kernel

/-- The output's block index at a point: the point's block of rows. -/
theorem idx2_1 : ∀ t : Fin grid2.N, cc2_transform_2 (grid2.coords t) = ![t.val / 1000, 0] := by decide +kernel

/-- Every word of the launch's table names a row of the feature array. -/
def InRange2 (pf : pre2.Contents (Elt F)) : Prop := ∀ x : S16x2000.Idx, ((pf 0 : Vec F S16x2000 .i32) x).toNat < 100000

/-! ## The values -/

/-- Lane `l` of a one-row vector. -/
def lane2 (l : Fin 128) : S1x128.Idx := fun a => ⟨if a.val = 0 then 0 else l.val, by
  match a with
  | ⟨0, _⟩ => exact Nat.one_pos
  | ⟨1, _⟩ => exact l.isLt⟩

theorem lane2_one (l : Fin 128) : (lane2 l 1).val = l.val := rfl

/-- The grid point of row `r` of block `q` (total: the point number is taken modulo the grid's size). -/
def pt2 (q : ℕ) (r : ℕ) : Fin grid2.N := ⟨(q * 1000 + r) % grid2.N, Nat.mod_lt _ (by decide)⟩

/-- Inside the grid the point's number is `1000 q + r`. -/
theorem pt2_val (q r : ℕ) (hq : q < 2) (hr : r < 1000) : (pt2 q r).val = q * 1000 + r := by
  show (q * 1000 + r) % grid2.N = q * 1000 + r
  rw [N_2]; omega

/-- A point is the point of its block and row. -/
theorem pt2_self (t : Fin grid2.N) : pt2 (t.val / 1000) (t.val % 1000) = t := by
  apply Fin.ext
  show (t.val / 1000 * 1000 + t.val % 1000) % grid2.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means2 (tb : Vec F S16x2000 .i32) (A0 : Vec F S100000x128 .f32) (q : ℕ) : Vec F S1000x128 .f32 :=
  fun x => Gen.k24_pay1 (gath24 (grid2.coords (pt2 q (x 0).val)) tb A0) (lane2 (x 1))

/-- What the body stores in the output window at the last row of block `q`: the means, rounded, times the weight, rounded. -/
def xBlk2 (tb : Vec F S16x2000 .i32) (A0 : Vec F S100000x128 .f32) (Wt : Vec F S128x128 .f32) (q : ℕ) : Vec F S1000x128 .f32 :=
  Gen.k24_pay2 (means2 tb A0 q) Wt

/-- The carried scratch before point `n`: its rows below `n % 1000` are the means of block `n / 1000`. -/
def RowsOK2 (tb : Vec F S16x2000 .i32) (A0 : Vec F S100000x128 .f32) (n : ℕ) (g : Vec F S1000x128 .f32) : Prop :=
  ∀ x : S1000x128.Idx, (x 0).val < n % 1000 → g x = means2 tb A0 (n / 1000) x

/-- At the first row of a block nothing is asked. -/
theorem rowsOK2_start (tb : Vec F S16x2000 .i32) (A0 : Vec F S100000x128 .f32) (n : ℕ) (hn : n % 1000 = 0) (g : Vec F S1000x128 .f32) :
    RowsOK2 tb A0 n g := fun x hx => absurd hx (by omega)

/-- One point's row store keeps the invariant's rows and adds its own: after the store at point `t` the rows up to
    `t % 1000` are means. -/
theorem rowAt2_means (tb : Vec F S16x2000 .i32) (A0 : Vec F S100000x128 .f32) (t : Fin grid2.N) (g : Vec F S1000x128 .f32)
    (hg : RowsOK2 tb A0 t.val g) (x : S1000x128.Idx) (hx : (x 0).val ≤ t.val % 1000) :
    row24 (grid2.coords t) tb A0 g x = means2 tb A0 (t.val / 1000) x := by
  by_cases h : (x 0).val = t.val % 1000
  · rw [row24_of_eq (grid2.coords t) tb A0 g x (by rw [rowAt2_coord]; exact h) (lane2 (x 1)) rfl]
    unfold means2
    rw [h, pt2_self]
  · rw [row24_of_ne (grid2.coords t) tb A0 g x (by rw [rowAt2_coord]; exact h)]
    exact hg x (by omega)

/-- Within a block the invariant steps. -/
theorem rowsOK2_step (tb : Vec F S16x2000 .i32) (A0 : Vec F S100000x128 .f32) (t : Fin grid2.N) (g : Vec F S1000x128 .f32)
    (hg : RowsOK2 tb A0 t.val g) : RowsOK2 tb A0 (t.val + 1) (row24 (grid2.coords t) tb A0 g) := by
  by_cases hl : t.val % 1000 = 999
  · exact rowsOK2_start _ _ _ (by omega) _
  · intro x hx
    have h1 : (t.val + 1) / 1000 = t.val / 1000 := by omega
    rw [h1]
    exact rowAt2_means tb A0 t g hg x (by omega)

/-- At the last row of a block the scratch, after the row store, is the block's means whatever it held before. -/
theorem rowAt2_last (tb : Vec F S16x2000 .i32) (A0 : Vec F S100000x128 .f32) (t : Fin grid2.N) (hl : t.val % 1000 = 999)
    (g : Vec F S1000x128 .f32) (hg : RowsOK2 tb A0 t.val g) :
    row24 (grid2.coords t) tb A0 g = means2 tb A0 (t.val / 1000) :=
  funext fun x => rowAt2_means tb A0 t g hg x (by have : (x 0).val < 1000 := (x 0).isLt; omega)

/-! ## The invariant -/

/-- The launch's operands that no window stages, as the body is handed them: its table, the feature array left in
    HBM, and its two scratch buffers — whole buffers. -/
abbrev tbM2 : Memref sig .tc .smem S16x2000 .i32 := Memref.whole main_v5
abbrev hbM2 : Memref sig .tc .hbm S100000x128 .f32 := Memref.whole main_arg0
abbrev scM2_0 : Memref sig .tc .vmem S1000x128 .f32 := Memref.whole cc2_scratch0
abbrev scM2_1 : Memref sig .tc .vmem S16x128 .f32 := Memref.whole cc2_scratch1

section Region
-- the TensorCore's buffer contents when the launch is entered, and the launch's table
variable (V : (c : Dev nD) → (b : Ref sig .tc) → Buf (Elt F) ((c : Thread nD τ).loc b)) (a : (pcfg2 (F := F)).Adm)

/-- The table and the feature array, as vectors. -/
abbrev tb2 : Vec F S16x2000 .i32 := a.1 0
abbrev A2 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ2 (c : Dev nD) (n : ℕ) : sProp 𝕄 :=
  iprop(owns (c : Thread nD τ) tbM2 fullShare (tb2 a)
    ∗ owns (c : Thread nD τ) hbM2 fullShare (A2 V c)
    ∗ (∃ g : Vec F S1000x128 .f32, ⌜RowsOK2 (tb2 a) (A2 V c) n g⌝ ∗ owns (c : Thread nD τ) scM2_0 fullShare g)
    ∗ (∃ d, owns (c : Thread nD τ) scM2_1 fullShare d)
    ∗ cells24 c cc2_scratch2
    ∗ (∃ r, prngReg c r)
    ∗ Pipeline.scopedRestBut (Ix := Unit) (Name := ℕ) (U := UC) (Lvl := ℕ) (Val := Elt F) spec2 c [cc2_scratch0, cc2_scratch1])

/-! ## The windows' blocks and the proof data -/

/-- Window `w`'s block at point `t`, read off its array as the launch finds it. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The proof data of the launch on core `c`: the arrays as the launch finds them; after the body at point `t` the
    weight window at its block and the output window at the product for `t`'s block of rows (read only at the block's
    last row, where the body stores it); the invariant above; nothing owed; full shares. -/
def dat2 (c : Dev nD) : Dat τ (Elt F) Unit ℕ UC ℕ (cfg2 a) c where
  A w := V c (Pipeline.arrRef spec2 w)
  after w t := match w with
    | ⟨0, _⟩ => iblk2 V a c 0 t
    | ⟨1, _⟩ => xBlk2 (tb2 a) (A2 V c) (iblk2 V a c 0 t) (t.val / 1000)
  Φ n := Φ2 V a c n.val
  q _ := fullShare
  owed _ := 0

/-- The proof data's arrays are the entry contents. -/
theorem A_eq2 (c : Dev nD) (w : Fin (cfg2 a).W) : (dat2 V a c).A w = V c (Pipeline.arrRef spec2 w) := by
  dsimp only [dat2]

/-- What the body leaves, window by window. -/
theorem after2_0 (c : Dev nD) (t : Fin (cfg2 a).N) : (dat2 V a c).after 0 t = iblk2 V a c 0 t := by dsimp only [dat2]; rfl
theorem after2_1 (c : Dev nD) (t : Fin (cfg2 a).N) :
    (dat2 V a c).after 1 t = xBlk2 (tb2 a) (A2 V c) (iblk2 V a c 0 t) (t.val / 1000) := by dsimp only [dat2]; rfl

/-- The invariant and the tallies, at a point. -/
theorem Phi2_eq (c : Dev nD) (n : Fin ((cfg2 a).N + 1)) : (dat2 V a c).Φ n = Φ2 V a c n.val := by dsimp only [dat2]
theorem owed2_eq (c : Dev nD) (n : Fin ((cfg2 a).N + 1)) : (dat2 V a c).owed n = 0 := by dsimp only [dat2]

/-- The weight window holds its block at every point, fetched there or not: its block index never moves. -/
theorem before2_0 (c : Dev nD) (t : Fin (cfg2 a).N) (d) : (dat2 V a c).before 0 t d = iblk2 V a c 0 t :=
  ((dat2 V a c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The output window is written back after the last row of each block of rows, and only there; -/
theorem flush2_1 (t : Fin (cfg2 a).N) : ((cfg2 a).win 1).flush t = decide (t.val % 1000 = 999) := by
  unfold Window.flush
  exact flushB2 t
/-- and it is idle at every other row. -/
theorem idle2_1 (t : Fin (cfg2 a).N) : (cfg2 a).idle 1 ((cfg2 a).grid.coords t) = !decide (t.val % 1000 = 999) := by
  show (!(k2_cond1 (grid2.coords t) == 1#1)) = _
  congr 1
  by_cases h : t.val % 1000 = 999
  · rw [decide_eq_true h, (cond2_iff t).2 h]; rfl
  · rw [decide_eq_false h]
    exact beq_false_of_ne fun e => h ((cond2_iff t).1 e)

end Region

/-! ## The body obligation -/

section Body
variable (V : (c : Dev nD) → (b : Ref sig .tc) → Buf (Elt F) ((c : Thread nD τ).loc b)) (a : (pcfg2 (F := F)).Adm)

/-- Each window's current staging memref at point `t`, spelled as the pipeline passes it, and its wholeness. -/
abbrev ms2_0 (t : Fin (cfg2 a).N) : Memref sig .tc .vmem S128x128 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S1000x128 .f32 := spec2_1.stage ((cfg2 a).slots t 1)
abbrev hs2_1 (t : Fin (cfg2 a).N) : (ms2_1 a t).IsWhole := hstage2_1 (((cfg2 a).slots t 1).cast nbuf2_1)

/-- The launch's body function, under the name the runs are stated at. -/
theorem bodyFn2_eq : cc2__gather_agg_matmul_kernel (F := F) = gatherFn := rfl

/-- The kernel body at point `t`, on what the pipeline calls it with. -/
abbrev bodyAt2 (t : Fin (cfg2 a).N) : Prog (TpuEff nD τ sig (Elt F) Λ₀ .tc) PUnit :=
  cc2__gather_agg_matmul_kernel (grid2.coords t) tbM2 (Memref.isWhole_whole _) hbM2 (Memref.isWhole_whole _)
    (ms2_0 a t) (hs2_0 a t) (ms2_1 a t) (hs2_1 a t) scM2_0 (Memref.isWhole_whole _) scM2_1 (Memref.isWhole_whole _) cc2_scratch2

/-- What the body is called with at point `t`, the windows one by one, -/
def bodyPre2 (c : Dev nD) (t : Fin (cfg2 a).N) : sProp 𝕄 :=
  iprop((dat2 V a c).Φ t.castSucc ∗ (dat2 V a c).owesAt () t.castSucc
    ∗ (∃ d, owns (c : Thread nD τ) (ms2_0 a t) fullShare ((dat2 V a c).before 0 t d))
    ∗ (∃ d, owns (c : Thread nD τ) (ms2_1 a t) fullShare ((dat2 V a c).before 1 t d)))

/-- and what it returns: the output window as it was found where the point is idle for it, at the block's product
    at the last row of a block. -/
def bodyPost2 (c : Dev nD) (t : Fin (cfg2 a).N) : sProp 𝕄 :=
  iprop((dat2 V a c).Φ t.succ ∗ (dat2 V a c).owesAt () t.succ
    ∗ owns (c : Thread nD τ) (ms2_0 a t) fullShare ((dat2 V a c).after 0 t)
    ∗ (match (cfg2 a).idle 1 ((cfg2 a).grid.coords t) with
        | true =>
          match ((cfg2 a).win 1).flush t with
          | false => iprop(∃ d, owns (c : Thread nD τ) (ms2_1 a t) fullShare ((dat2 V a c).before 1 t d))
          | true => owns (c : Thread nD τ) (ms2_1 a t) fullShare ((dat2 V a c).after 1 t)
        | false => owns (c : Thread nD τ) (ms2_1 a t) fullShare ((dat2 V a c).after 1 t)))

/-- The body at any point. The weight window holds its block; the invariant hands the body its table, the feature
    array, both scratch buffers and its transfer cells, and takes them back with the carried scratch one row further
    (`rowsOK2_step`); at the last row of a block the product the body stores is the block's (`rowAt2_last`); the core's
    `owes` goes in at whatever the points before recorded and comes back with this point's waits. -/
theorem sound_body2 (hR : InRange2 a.1) (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  rw [flush2_1, idle2_1]
  simp only [before2_0]
  rw [after2_0, Phi2_eq, Phi2_eq, Fin.val_succ, Fin.coe_castSucc]
  unfold Dat.owesAt Pipeline.owesWithin
  rw [owed2_eq, owed2_eq]
  unfold Φ2
  rw [bodyFn2_eq]
  by_cases hl : t.val % 1000 = 999
  · -- the last row of a block
    rw [decide_eq_true hl, Bool.not_true]
    dsimp only
    rw [after2_1]
    unfold xBlk2
    iintro ⟨⟨Htb, Hhb, ⟨%g, %hg, Hs0⟩, Hs1, Hcells, Hreg, Hrest⟩, ⟨%W, -, HW⟩, ⟨%d0, H0⟩, ⟨%d1, H1⟩⟩
    rw [← rowAt2_last (tb2 a) (A2 V c) t hl g hg]
    iapply (run24_last c (grid2.coords t) tbM2 (Memref.isWhole_whole _) hbM2 (Memref.isWhole_whole _) (ms2_0 a t) (hs2_0 a t)
      (ms2_1 a t) (hs2_1 a t) scM2_0 (Memref.isWhole_whole _) scM2_1 (Memref.isWhole_whole _) cc2_scratch2
      ((cond2_iff t).2 hl) (tb2 a) hR (A2 V c) (iblk2 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK2_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k2_cond1 (grid2.coords t) ≠ 1#1 := fun e => hl ((cond2_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid2.coords t) tbM2 (Memref.isWhole_whole _) hbM2 (Memref.isWhole_whole _) (ms2_0 a t) (hs2_0 a t)
      (ms2_1 a t) (hs2_1 a t) scM2_0 (Memref.isWhole_whole _) scM2_1 (Memref.isWhole_whole _) cc2_scratch2
      hc (tb2 a) hR (A2 V c) (iblk2 V a c 0 t) g
      (owns (c : Thread nD τ) (ms2_1 a t) fullShare ((dat2 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK2_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation2 (hR : InRange2 a.1) (c : Dev nD) :
    BodyObligation (dat2 (F := F) V a c) (defs₀ (F := F)) Variants.none () Set.univ := fun t => by
  rw [bigSep_W2, bigSep_W2]
  exact sound_body2 V a hR c t

end Body

/-! ## The value: what the launch leaves in its output array -/

section Value
variable (V : (c : Dev nD) → (b : Ref sig .tc) → Buf (Elt F) ((c : Thread nD τ).loc b)) (a : (pcfg2 (F := F)).Adm)

/-- Entry `(r, l)` of a block of rows. -/
def cell2 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk2 (tb : Vec F S16x2000 .i32) (A0 : Vec F S100000x128 .f32) (Wt : Vec F S128x128 .f32) : Vec F S2000x128 .f32 :=
  fun y => xBlk2 tb A0 Wt ((y 0).val / 1000) (cell2 ((y 0).val % 1000) (Nat.mod_lt _ (by decide)) (y 1))

/-- The weight window's block is the whole weight, at every point: its block index is (0, 0). -/
theorem wblk2_eq (c : Dev nD) (t : Fin (cfg2 a).N) : iblk2 V a c 0 t = (V c main_arg1 : Vec F S128x128 .f32) := by
  funext x
  unfold iblk2
  rw [View.read_apply]
  refine (cast_eq _ _).trans (congrArg (V c main_arg1) (funext fun b => Fin.ext ?_))
  refine (((cfg2 a).win 0).rect_emb_val_of_index_zero t b ?_ x)
  match b with
  | ⟨0, _⟩ => rfl
  | ⟨1, _⟩ => rfl

/-- Where entry `x` of the output window's block at point `t` sits in the output array. -/
abbrev emb2 (t : Fin (cfg2 a).N) (x : S1000x128.Idx) : S2000x128.Idx := (((cfg2 a).win 1).blk t).view.emb x

theorem emb2_val (t : Fin (cfg2 a).N) (x : S1000x128.Idx) :
    (emb2 a t x 0).val = t.val / 1000 * 1000 + (x 0).val ∧ (emb2 a t x 1).val = (x 1).val := by
  have hix : ((cfg2 a).win 1).index t = ![t.val / 1000, 0] := idx2_1 t
  have e0 := ((cfg2 a).win 1).rect_emb_val t x (0 : Fin 2)
  have e1 := ((cfg2 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after2_chunk (c : Dev nD) (t : Fin (cfg2 a).N) (x : S1000x128.Idx) :
    (dat2 V a c).after 1 t x = xChunk2 (tb2 a) (A2 V c) (V c main_arg1) (emb2 a t x) := by
  obtain ⟨e0, e1⟩ := emb2_val a t x
  have hx0 : (x 0).val < 1000 := (x 0).isLt
  rw [after2_1, wblk2_eq]
  unfold xChunk2
  have hq : (emb2 a t x 0).val / 1000 = t.val / 1000 := by rw [e0]; omega
  have hcell : cell2 ((emb2 a t x 0).val % 1000) (Nat.mod_lt _ (by decide)) (emb2 a t x 1) = x := by
    funext b
    apply Fin.ext
    match b with
    | ⟨0, _⟩ =>
      show (emb2 a t x 0).val % 1000 = (x 0).val
      rw [e0]; omega
    | ⟨1, _⟩ => exact e1
  rw [hq, hcell]

/-- Two entries of the output array with the same coordinates are the same. -/
theorem idx2_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb2_cell (t : Fin (cfg2 a).N) (i : S2000x128.Idx) (ht : t.val / 1000 = (i 0).val / 1000) :
    emb2 a t (cell2 ((i 0).val % 1000) (Nat.mod_lt _ (by decide)) (i 1)) = i := by
  obtain ⟨e0, e1⟩ := emb2_val a t (cell2 ((i 0).val % 1000) (Nat.mod_lt _ (by decide)) (i 1))
  refine idx2_ext _ _ ?_ e1
  rw [e0, ht]
  show (i 0).val / 1000 * 1000 + (i 0).val % 1000 = (i 0).val
  omega

/-- Every entry of the output array lies in the block written back after the last row of its block of rows. -/
theorem cover2 (i : S2000x128.Idx) :
    ∃ t : Fin (cfg2 a).N, ((cfg2 a).win 1).flush t = true ∧ i ∈ (((cfg2 a).win 1).blk t).view.set := by
  have hi0 : (i 0).val < 2000 := (i 0).isLt
  have hN : (i 0).val / 1000 * 1000 + 999 < (cfg2 a).N := by rw [N2]; omega
  refine ⟨⟨(i 0).val / 1000 * 1000 + 999, hN⟩, ?_, ?_⟩
  · rw [flush2_1]; exact decide_eq_true (by show ((i 0).val / 1000 * 1000 + 999) % 1000 = 999; omega)
  · refine Finset.mem_map.mpr ⟨cell2 ((i 0).val % 1000) (Nat.mod_lt _ (by decide)) (i 1), Finset.mem_univ _, ?_⟩
    exact emb2_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out2 (c : Dev nD) :
    (dat2 V a c).arrAt 1 (cfg2 a).N = (xChunk2 (tb2 a) (A2 V c) (V c main_arg1) : Vec F S2000x128 .f32) :=
  (dat2 V a c).arrAt_eq_of_cover 1 _
    (fun t _ => funext fun x => (after2_chunk V a c t x).trans (cast_eq _ _).symm)
    (cover2 a)

end Value

/-! ## The invariant's two ends -/

section Ends
variable (V : (c : Dev nD) → (b : Ref sig .tc) → Buf (Elt F) ((c : Thread nD τ).loc b)) (a : (pcfg2 (F := F)).Adm)

/-- The body's own transfer cells as the launch's protocol lists them: the 16 cells of its semaphore operand. -/
def osem2 : Fin 16 → SemLoc sig := fun k => SemLoc.dma (cc2_scratch2.ix (Shape.ofLane k))
/-- They are scoped, distinct, and none is a window's. -/
theorem ownSemFacts2 : Pipeline.OwnSemFacts spec2 osem2 := by decide
/-- The cells at zero, listed, are the cells as the body names them. -/
theorem cells2_eq (c : Dev nD) :
    (Pipeline.ownSems0 (Ix := Unit) (Name := ℕ) (U := UC) (Lvl := ℕ) (Val := Elt F) (τ := τ) osem2 c : sProp 𝕄) = cells24 c cc2_scratch2 := by
  rw [Pipeline.ownSems0_eq_of_list c osem2 [0, 1, 2, 3, 4, 5, 6, 7, 8, 9, 10, 11, 12, 13, 14, 15] (by decide) (by decide)]; rfl

/-- The launch's one table, held. -/
theorem prefHeld2_eq (c : Dev nD) (pf : pre2.Contents (Elt F)) :
    (Pipeline.prefHeld pre2 c (fun _ => fullShare) pf : sProp 𝕄) = (((c : Thread nD τ).loc main_v5) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X2 (c : Dev nD) : sProp 𝕄 :=
  iprop((∃ r, prngReg c r) ∗ Pipeline.ownSems0 (Ix := Unit) (Name := ℕ) (U := UC) (Lvl := ℕ) (Val := Elt F) (τ := τ) osem2 c
    ∗ (((c : Thread nD τ).loc main_arg0) ↦{fullShare} V c main_arg0))
abbrev Y2 (c : Dev nD) : sProp 𝕄 :=
  iprop((∃ r, prngReg c r) ∗ (((c : Thread nD τ).loc main_arg0) ↦{fullShare} V c main_arg0)
    ∗ Pipeline.prefHeld pre2 c (fun _ => fullShare) a.1)

/-- THE FIRST POINT: the invariant from what the launch's entry sorts out. Nothing is asked of the carried scratch. -/
theorem Phi2_in (c : Dev nD) :
    iprop(X2 V c ∗ Pipeline.prefHeld pre2 c (fun _ => fullShare) a.1
        ∗ Pipeline.scopedRest (Ix := Unit) (Name := ℕ) (U := UC) (Lvl := ℕ) (Val := Elt F) spec2 c)
      ⊢ (dat2 V a c).Φ 0 := by
  rw [Phi2_eq]
  unfold Φ2 X2
  rw [scopedRest2_split, prefHeld2_eq, cells2_eq]
  simp only [tbM2, hbM2, scM2_0, scM2_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK2_start _ _ _ rfl _
  isplitl [Hs1]; · iexact Hs1
  isplitl [Hcells]; · iexact Hcells
  isplitl [Hreg]; · iexact Hreg
  iexact Hrest

/-- THE LAST POINT: the invariant gives back what it took. -/
theorem Phi2_out (c : Dev nD) :
    (dat2 V a c).Φ (Fin.last _)
      ⊢ iprop(Y2 V a c ∗ Pipeline.ownSems0 (Ix := Unit) (Name := ℕ) (U := UC) (Lvl := ℕ) (Val := Elt F) (τ := τ) osem2 c
        ∗ Pipeline.scopedRest (Ix := Unit) (Name := ℕ) (U := UC) (Lvl := ℕ) (Val := Elt F) spec2 c) := by
  rw [Phi2_eq]
  unfold Φ2 Y2
  rw [scopedRest2_split, prefHeld2_eq, cells2_eq]
  simp only [tbM2, hbM2, scM2_0, scM2_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G3Dat.lean ====
/-
  One of the program's 25 gather launches (pipeline 3; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N3 (a : (pcfg3 (F := F)).Adm) : (cfg3 a).N = 2000 := N_3

/-- The body's branch is taken at the last row of a block of rows, -/
theorem cond3_iff : ∀ t : Fin grid3.N, k3_cond1 (grid3.coords t) = 1#1 ↔ t.val % 1000 = 999 := by decide +kernel
/-- the row a point works on is its number modulo 1000, -/
theorem rowAt3_coord : ∀ t : Fin grid3.N, (grid3.coords t 1).val = t.val % 1000 := by decide +kernel
/-- its block of rows is its number divided by 1000, -/
theorem blockAt3_coord : ∀ t : Fin grid3.N, (grid3.coords t 0).val = t.val / 1000 := by decide +kernel
/-- and the output's block index moves after exactly those points (and the grid ends at one). -/
theorem flushB3 : ∀ t : Fin grid3.N,
    (decide (t.val + 1 = grid3.N) || decide (∃ h : t.val + 1 < grid3.N, cc3_transform_2 (grid3.coords ⟨t.val + 1, h⟩) ≠ cc3_transform_2 (grid3.coords t)))
      = decide (t.val % 1000 = 999) := by decide +kernel

/-- The output's block index at a point: the point's block of rows. -/
theorem idx3_1 : ∀ t : Fin grid3.N, cc3_transform_2 (grid3.coords t) = ![t.val / 1000, 0] := by decide +kernel

/-- Every word of the launch's table names a row of the feature array. -/
def InRange3 (pf : pre3.Contents (Elt F)) : Prop := ∀ x : S16x2000.Idx, ((pf 0 : Vec F S16x2000 .i32) x).toNat < 100000

/-! ## The values -/

/-- Lane `l` of a one-row vector. -/
def lane3 (l : Fin 128) : S1x128.Idx := fun a => ⟨if a.val = 0 then 0 else l.val, by
  match a with
  | ⟨0, _⟩ => exact Nat.one_pos
  | ⟨1, _⟩ => exact l.isLt⟩

theorem lane3_one (l : Fin 128) : (lane3 l 1).val = l.val := rfl

/-- The grid point of row `r` of block `q` (total: the point number is taken modulo the grid's size). -/
def pt3 (q : ℕ) (r : ℕ) : Fin grid3.N := ⟨(q * 1000 + r) % grid3.N, Nat.mod_lt _ (by decide)⟩

/-- Inside the grid the point's number is `1000 q + r`. -/
theorem pt3_val (q r : ℕ) (hq : q < 2) (hr : r < 1000) : (pt3 q r).val = q * 1000 + r := by
  show (q * 1000 + r) % grid3.N = q * 1000 + r
  rw [N_3]; omega

/-- A point is the point of its block and row. -/
theorem pt3_self (t : Fin grid3.N) : pt3 (t.val / 1000) (t.val % 1000) = t := by
  apply Fin.ext
  show (t.val / 1000 * 1000 + t.val % 1000) % grid3.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means3 (tb : Vec F S16x2000 .i32) (A0 : Vec F S100000x128 .f32) (q : ℕ) : Vec F S1000x128 .f32 :=
  fun x => Gen.k24_pay1 (gath24 (grid3.coords (pt3 q (x 0).val)) tb A0) (lane3 (x 1))

/-- What the body stores in the output window at the last row of block `q`: the means, rounded, times the weight, rounded. -/
def xBlk3 (tb : Vec F S16x2000 .i32) (A0 : Vec F S100000x128 .f32) (Wt : Vec F S128x128 .f32) (q : ℕ) : Vec F S1000x128 .f32 :=
  Gen.k24_pay2 (means3 tb A0 q) Wt

/-- The carried scratch before point `n`: its rows below `n % 1000` are the means of block `n / 1000`. -/
def RowsOK3 (tb : Vec F S16x2000 .i32) (A0 : Vec F S100000x128 .f32) (n : ℕ) (g : Vec F S1000x128 .f32) : Prop :=
  ∀ x : S1000x128.Idx, (x 0).val < n % 1000 → g x = means3 tb A0 (n / 1000) x

/-- At the first row of a block nothing is asked. -/
theorem rowsOK3_start (tb : Vec F S16x2000 .i32) (A0 : Vec F S100000x128 .f32) (n : ℕ) (hn : n % 1000 = 0) (g : Vec F S1000x128 .f32) :
    RowsOK3 tb A0 n g := fun x hx => absurd hx (by omega)

/-- One point's row store keeps the invariant's rows and adds its own: after the store at point `t` the rows up to
    `t % 1000` are means. -/
theorem rowAt3_means (tb : Vec F S16x2000 .i32) (A0 : Vec F S100000x128 .f32) (t : Fin grid3.N) (g : Vec F S1000x128 .f32)
    (hg : RowsOK3 tb A0 t.val g) (x : S1000x128.Idx) (hx : (x 0).val ≤ t.val % 1000) :
    row24 (grid3.coords t) tb A0 g x = means3 tb A0 (t.val / 1000) x := by
  by_cases h : (x 0).val = t.val % 1000
  · rw [row24_of_eq (grid3.coords t) tb A0 g x (by rw [rowAt3_coord]; exact h) (lane3 (x 1)) rfl]
    unfold means3
    rw [h, pt3_self]
  · rw [row24_of_ne (grid3.coords t) tb A0 g x (by rw [rowAt3_coord]; exact h)]
    exact hg x (by omega)

/-- Within a block the invariant steps. -/
theorem rowsOK3_step (tb : Vec F S16x2000 .i32) (A0 : Vec F S100000x128 .f32) (t : Fin grid3.N) (g : Vec F S1000x128 .f32)
    (hg : RowsOK3 tb A0 t.val g) : RowsOK3 tb A0 (t.val + 1) (row24 (grid3.coords t) tb A0 g) := by
  by_cases hl : t.val % 1000 = 999
  · exact rowsOK3_start _ _ _ (by omega) _
  · intro x hx
    have h1 : (t.val + 1) / 1000 = t.val / 1000 := by omega
    rw [h1]
    exact rowAt3_means tb A0 t g hg x (by omega)

/-- At the last row of a block the scratch, after the row store, is the block's means whatever it held before. -/
theorem rowAt3_last (tb : Vec F S16x2000 .i32) (A0 : Vec F S100000x128 .f32) (t : Fin grid3.N) (hl : t.val % 1000 = 999)
    (g : Vec F S1000x128 .f32) (hg : RowsOK3 tb A0 t.val g) :
    row24 (grid3.coords t) tb A0 g = means3 tb A0 (t.val / 1000) :=
  funext fun x => rowAt3_means tb A0 t g hg x (by have : (x 0).val < 1000 := (x 0).isLt; omega)

/-! ## The invariant -/

/-- The launch's operands that no window stages, as the body is handed them: its table, the feature array left in
    HBM, and its two scratch buffers — whole buffers. -/
abbrev tbM3 : Memref sig .tc .smem S16x2000 .i32 := Memref.whole main_v7
abbrev hbM3 : Memref sig .tc .hbm S100000x128 .f32 := Memref.whole main_arg0
abbrev scM3_0 : Memref sig .tc .vmem S1000x128 .f32 := Memref.whole cc3_scratch0
abbrev scM3_1 : Memref sig .tc .vmem S16x128 .f32 := Memref.whole cc3_scratch1

section Region
-- the TensorCore's buffer contents when the launch is entered, and the launch's table
variable (V : (c : Dev nD) → (b : Ref sig .tc) → Buf (Elt F) ((c : Thread nD τ).loc b)) (a : (pcfg3 (F := F)).Adm)

/-- The table and the feature array, as vectors. -/
abbrev tb3 : Vec F S16x2000 .i32 := a.1 0
abbrev A3 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ3 (c : Dev nD) (n : ℕ) : sProp 𝕄 :=
  iprop(owns (c : Thread nD τ) tbM3 fullShare (tb3 a)
    ∗ owns (c : Thread nD τ) hbM3 fullShare (A3 V c)
    ∗ (∃ g : Vec F S1000x128 .f32, ⌜RowsOK3 (tb3 a) (A3 V c) n g⌝ ∗ owns (c : Thread nD τ) scM3_0 fullShare g)
    ∗ (∃ d, owns (c : Thread nD τ) scM3_1 fullShare d)
    ∗ cells24 c cc3_scratch2
    ∗ (∃ r, prngReg c r)
    ∗ Pipeline.scopedRestBut (Ix := Unit) (Name := ℕ) (U := UC) (Lvl := ℕ) (Val := Elt F) spec3 c [cc3_scratch0, cc3_scratch1])

/-! ## The windows' blocks and the proof data -/

/-- Window `w`'s block at point `t`, read off its array as the launch finds it. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The proof data of the launch on core `c`: the arrays as the launch finds them; after the body at point `t` the
    weight window at its block and the output window at the product for `t`'s block of rows (read only at the block's
    last row, where the body stores it); the invariant above; nothing owed; full shares. -/
def dat3 (c : Dev nD) : Dat τ (Elt F) Unit ℕ UC ℕ (cfg3 a) c where
  A w := V c (Pipeline.arrRef spec3 w)
  after w t := match w with
    | ⟨0, _⟩ => iblk3 V a c 0 t
    | ⟨1, _⟩ => xBlk3 (tb3 a) (A3 V c) (iblk3 V a c 0 t) (t.val / 1000)
  Φ n := Φ3 V a c n.val
  q _ := fullShare
  owed _ := 0

/-- The proof data's arrays are the entry contents. -/
theorem A_eq3 (c : Dev nD) (w : Fin (cfg3 a).W) : (dat3 V a c).A w = V c (Pipeline.arrRef spec3 w) := by
  dsimp only [dat3]

/-- What the body leaves, window by window. -/
theorem after3_0 (c : Dev nD) (t : Fin (cfg3 a).N) : (dat3 V a c).after 0 t = iblk3 V a c 0 t := by dsimp only [dat3]; rfl
theorem after3_1 (c : Dev nD) (t : Fin (cfg3 a).N) :
    (dat3 V a c).after 1 t = xBlk3 (tb3 a) (A3 V c) (iblk3 V a c 0 t) (t.val / 1000) := by dsimp only [dat3]; rfl

/-- The invariant and the tallies, at a point. -/
theorem Phi3_eq (c : Dev nD) (n : Fin ((cfg3 a).N + 1)) : (dat3 V a c).Φ n = Φ3 V a c n.val := by dsimp only [dat3]
theorem owed3_eq (c : Dev nD) (n : Fin ((cfg3 a).N + 1)) : (dat3 V a c).owed n = 0 := by dsimp only [dat3]

/-- The weight window holds its block at every point, fetched there or not: its block index never moves. -/
theorem before3_0 (c : Dev nD) (t : Fin (cfg3 a).N) (d) : (dat3 V a c).before 0 t d = iblk3 V a c 0 t :=
  ((dat3 V a c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The output window is written back after the last row of each block of rows, and only there; -/
theorem flush3_1 (t : Fin (cfg3 a).N) : ((cfg3 a).win 1).flush t = decide (t.val % 1000 = 999) := by
  unfold Window.flush
  exact flushB3 t
/-- and it is idle at every other row. -/
theorem idle3_1 (t : Fin (cfg3 a).N) : (cfg3 a).idle 1 ((cfg3 a).grid.coords t) = !decide (t.val % 1000 = 999) := by
  show (!(k3_cond1 (grid3.coords t) == 1#1)) = _
  congr 1
  by_cases h : t.val % 1000 = 999
  · rw [decide_eq_true h, (cond3_iff t).2 h]; rfl
  · rw [decide_eq_false h]
    exact beq_false_of_ne fun e => h ((cond3_iff t).1 e)

end Region

/-! ## The body obligation -/

section Body
variable (V : (c : Dev nD) → (b : Ref sig .tc) → Buf (Elt F) ((c : Thread nD τ).loc b)) (a : (pcfg3 (F := F)).Adm)

/-- Each window's current staging memref at point `t`, spelled as the pipeline passes it, and its wholeness. -/
abbrev ms3_0 (t : Fin (cfg3 a).N) : Memref sig .tc .vmem S128x128 .f32 := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) : Memref sig .tc .vmem S1000x128 .f32 := spec3_1.stage ((cfg3 a).slots t 1)
abbrev hs3_1 (t : Fin (cfg3 a).N) : (ms3_1 a t).IsWhole := hstage3_1 (((cfg3 a).slots t 1).cast nbuf3_1)

/-- The launch's body function, under the name the runs are stated at. -/
theorem bodyFn3_eq : cc3__gather_agg_matmul_kernel (F := F) = gatherFn := rfl

/-- The kernel body at point `t`, on what the pipeline calls it with. -/
abbrev bodyAt3 (t : Fin (cfg3 a).N) : Prog (TpuEff nD τ sig (Elt F) Λ₀ .tc) PUnit :=
  cc3__gather_agg_matmul_kernel (grid3.coords t) tbM3 (Memref.isWhole_whole _) hbM3 (Memref.isWhole_whole _)
    (ms3_0 a t) (hs3_0 a t) (ms3_1 a t) (hs3_1 a t) scM3_0 (Memref.isWhole_whole _) scM3_1 (Memref.isWhole_whole _) cc3_scratch2

/-- What the body is called with at point `t`, the windows one by one, -/
def bodyPre3 (c : Dev nD) (t : Fin (cfg3 a).N) : sProp 𝕄 :=
  iprop((dat3 V a c).Φ t.castSucc ∗ (dat3 V a c).owesAt () t.castSucc
    ∗ (∃ d, owns (c : Thread nD τ) (ms3_0 a t) fullShare ((dat3 V a c).before 0 t d))
    ∗ (∃ d, owns (c : Thread nD τ) (ms3_1 a t) fullShare ((dat3 V a c).before 1 t d)))

/-- and what it returns: the output window as it was found where the point is idle for it, at the block's product
    at the last row of a block. -/
def bodyPost3 (c : Dev nD) (t : Fin (cfg3 a).N) : sProp 𝕄 :=
  iprop((dat3 V a c).Φ t.succ ∗ (dat3 V a c).owesAt () t.succ
    ∗ owns (c : Thread nD τ) (ms3_0 a t) fullShare ((dat3 V a c).after 0 t)
    ∗ (match (cfg3 a).idle 1 ((cfg3 a).grid.coords t) with
        | true =>
          match ((cfg3 a).win 1).flush t with
          | false => iprop(∃ d, owns (c : Thread nD τ) (ms3_1 a t) fullShare ((dat3 V a c).before 1 t d))
          | true => owns (c : Thread nD τ) (ms3_1 a t) fullShare ((dat3 V a c).after 1 t)
        | false => owns (c : Thread nD τ) (ms3_1 a t) fullShare ((dat3 V a c).after 1 t)))

/-- The body at any point. The weight window holds its block; the invariant hands the body its table, the feature
    array, both scratch buffers and its transfer cells, and takes them back with the carried scratch one row further
    (`rowsOK3_step`); at the last row of a block the product the body stores is the block's (`rowAt3_last`); the core's
    `owes` goes in at whatever the points before recorded and comes back with this point's waits. -/
theorem sound_body3 (hR : InRange3 a.1) (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  rw [flush3_1, idle3_1]
  simp only [before3_0]
  rw [after3_0, Phi3_eq, Phi3_eq, Fin.val_succ, Fin.coe_castSucc]
  unfold Dat.owesAt Pipeline.owesWithin
  rw [owed3_eq, owed3_eq]
  unfold Φ3
  rw [bodyFn3_eq]
  by_cases hl : t.val % 1000 = 999
  · -- the last row of a block
    rw [decide_eq_true hl, Bool.not_true]
    dsimp only
    rw [after3_1]
    unfold xBlk3
    iintro ⟨⟨Htb, Hhb, ⟨%g, %hg, Hs0⟩, Hs1, Hcells, Hreg, Hrest⟩, ⟨%W, -, HW⟩, ⟨%d0, H0⟩, ⟨%d1, H1⟩⟩
    rw [← rowAt3_last (tb3 a) (A3 V c) t hl g hg]
    iapply (run24_last c (grid3.coords t) tbM3 (Memref.isWhole_whole _) hbM3 (Memref.isWhole_whole _) (ms3_0 a t) (hs3_0 a t)
      (ms3_1 a t) (hs3_1 a t) scM3_0 (Memref.isWhole_whole _) scM3_1 (Memref.isWhole_whole _) cc3_scratch2
      ((cond3_iff t).2 hl) (tb3 a) hR (A3 V c) (iblk3 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK3_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k3_cond1 (grid3.coords t) ≠ 1#1 := fun e => hl ((cond3_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid3.coords t) tbM3 (Memref.isWhole_whole _) hbM3 (Memref.isWhole_whole _) (ms3_0 a t) (hs3_0 a t)
      (ms3_1 a t) (hs3_1 a t) scM3_0 (Memref.isWhole_whole _) scM3_1 (Memref.isWhole_whole _) cc3_scratch2
      hc (tb3 a) hR (A3 V c) (iblk3 V a c 0 t) g
      (owns (c : Thread nD τ) (ms3_1 a t) fullShare ((dat3 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK3_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation3 (hR : InRange3 a.1) (c : Dev nD) :
    BodyObligation (dat3 (F := F) V a c) (defs₀ (F := F)) Variants.none () Set.univ := fun t => by
  rw [bigSep_W3, bigSep_W3]
  exact sound_body3 V a hR c t

end Body

/-! ## The value: what the launch leaves in its output array -/

section Value
variable (V : (c : Dev nD) → (b : Ref sig .tc) → Buf (Elt F) ((c : Thread nD τ).loc b)) (a : (pcfg3 (F := F)).Adm)

/-- Entry `(r, l)` of a block of rows. -/
def cell3 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk3 (tb : Vec F S16x2000 .i32) (A0 : Vec F S100000x128 .f32) (Wt : Vec F S128x128 .f32) : Vec F S2000x128 .f32 :=
  fun y => xBlk3 tb A0 Wt ((y 0).val / 1000) (cell3 ((y 0).val % 1000) (Nat.mod_lt _ (by decide)) (y 1))

/-- The weight window's block is the whole weight, at every point: its block index is (0, 0). -/
theorem wblk3_eq (c : Dev nD) (t : Fin (cfg3 a).N) : iblk3 V a c 0 t = (V c main_arg1 : Vec F S128x128 .f32) := by
  funext x
  unfold iblk3
  rw [View.read_apply]
  refine (cast_eq _ _).trans (congrArg (V c main_arg1) (funext fun b => Fin.ext ?_))
  refine (((cfg3 a).win 0).rect_emb_val_of_index_zero t b ?_ x)
  match b with
  | ⟨0, _⟩ => rfl
  | ⟨1, _⟩ => rfl

/-- Where entry `x` of the output window's block at point `t` sits in the output array. -/
abbrev emb3 (t : Fin (cfg3 a).N) (x : S1000x128.Idx) : S2000x128.Idx := (((cfg3 a).win 1).blk t).view.emb x

theorem emb3_val (t : Fin (cfg3 a).N) (x : S1000x128.Idx) :
    (emb3 a t x 0).val = t.val / 1000 * 1000 + (x 0).val ∧ (emb3 a t x 1).val = (x 1).val := by
  have hix : ((cfg3 a).win 1).index t = ![t.val / 1000, 0] := idx3_1 t
  have e0 := ((cfg3 a).win 1).rect_emb_val t x (0 : Fin 2)
  have e1 := ((cfg3 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after3_chunk (c : Dev nD) (t : Fin (cfg3 a).N) (x : S1000x128.Idx) :
    (dat3 V a c).after 1 t x = xChunk3 (tb3 a) (A3 V c) (V c main_arg1) (emb3 a t x) := by
  obtain ⟨e0, e1⟩ := emb3_val a t x
  have hx0 : (x 0).val < 1000 := (x 0).isLt
  rw [after3_1, wblk3_eq]
  unfold xChunk3
  have hq : (emb3 a t x 0).val / 1000 = t.val / 1000 := by rw [e0]; omega
  have hcell : cell3 ((emb3 a t x 0).val % 1000) (Nat.mod_lt _ (by decide)) (emb3 a t x 1) = x := by
    funext b
    apply Fin.ext
    match b with
    | ⟨0, _⟩ =>
      show (emb3 a t x 0).val % 1000 = (x 0).val
      rw [e0]; omega
    | ⟨1, _⟩ => exact e1
  rw [hq, hcell]

/-- Two entries of the output array with the same coordinates are the same. -/
theorem idx3_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb3_cell (t : Fin (cfg3 a).N) (i : S2000x128.Idx) (ht : t.val / 1000 = (i 0).val / 1000) :
    emb3 a t (cell3 ((i 0).val % 1000) (Nat.mod_lt _ (by decide)) (i 1)) = i := by
  obtain ⟨e0, e1⟩ := emb3_val a t (cell3 ((i 0).val % 1000) (Nat.mod_lt _ (by decide)) (i 1))
  refine idx3_ext _ _ ?_ e1
  rw [e0, ht]
  show (i 0).val / 1000 * 1000 + (i 0).val % 1000 = (i 0).val
  omega

/-- Every entry of the output array lies in the block written back after the last row of its block of rows. -/
theorem cover3 (i : S2000x128.Idx) :
    ∃ t : Fin (cfg3 a).N, ((cfg3 a).win 1).flush t = true ∧ i ∈ (((cfg3 a).win 1).blk t).view.set := by
  have hi0 : (i 0).val < 2000 := (i 0).isLt
  have hN : (i 0).val / 1000 * 1000 + 999 < (cfg3 a).N := by rw [N3]; omega
  refine ⟨⟨(i 0).val / 1000 * 1000 + 999, hN⟩, ?_, ?_⟩
  · rw [flush3_1]; exact decide_eq_true (by show ((i 0).val / 1000 * 1000 + 999) % 1000 = 999; omega)
  · refine Finset.mem_map.mpr ⟨cell3 ((i 0).val % 1000) (Nat.mod_lt _ (by decide)) (i 1), Finset.mem_univ _, ?_⟩
    exact emb3_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out3 (c : Dev nD) :
    (dat3 V a c).arrAt 1 (cfg3 a).N = (xChunk3 (tb3 a) (A3 V c) (V c main_arg1) : Vec F S2000x128 .f32) :=
  (dat3 V a c).arrAt_eq_of_cover 1 _
    (fun t _ => funext fun x => (after3_chunk V a c t x).trans (cast_eq _ _).symm)
    (cover3 a)

end Value

/-! ## The invariant's two ends -/

section Ends
variable (V : (c : Dev nD) → (b : Ref sig .tc) → Buf (Elt F) ((c : Thread nD τ).loc b)) (a : (pcfg3 (F := F)).Adm)

/-- The body's own transfer cells as the launch's protocol lists them: the 16 cells of its semaphore operand. -/
def osem3 : Fin 16 → SemLoc sig := fun k => SemLoc.dma (cc3_scratch2.ix (Shape.ofLane k))
/-- They are scoped, distinct, and none is a window's. -/
theorem ownSemFacts3 : Pipeline.OwnSemFacts spec3 osem3 := by decide
/-- The cells at zero, listed, are the cells as the body names them. -/
theorem cells3_eq (c : Dev nD) :
    (Pipeline.ownSems0 (Ix := Unit) (Name := ℕ) (U := UC) (Lvl := ℕ) (Val := Elt F) (τ := τ) osem3 c : sProp 𝕄) = cells24 c cc3_scratch2 := by
  rw [Pipeline.ownSems0_eq_of_list c osem3 [0, 1, 2, 3, 4, 5, 6, 7, 8, 9, 10, 11, 12, 13, 14, 15] (by decide) (by decide)]; rfl

/-- The launch's one table, held. -/
theorem prefHeld3_eq (c : Dev nD) (pf : pre3.Contents (Elt F)) :
    (Pipeline.prefHeld pre3 c (fun _ => fullShare) pf : sProp 𝕄) = (((c : Thread nD τ).loc main_v7) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X3 (c : Dev nD) : sProp 𝕄 :=
  iprop((∃ r, prngReg c r) ∗ Pipeline.ownSems0 (Ix := Unit) (Name := ℕ) (U := UC) (Lvl := ℕ) (Val := Elt F) (τ := τ) osem3 c
    ∗ (((c : Thread nD τ).loc main_arg0) ↦{fullShare} V c main_arg0))
abbrev Y3 (c : Dev nD) : sProp 𝕄 :=
  iprop((∃ r, prngReg c r) ∗ (((c : Thread nD τ).loc main_arg0) ↦{fullShare} V c main_arg0)
    ∗ Pipeline.prefHeld pre3 c (fun _ => fullShare) a.1)

/-- THE FIRST POINT: the invariant from what the launch's entry sorts out. Nothing is asked of the carried scratch. -/
theorem Phi3_in (c : Dev nD) :
    iprop(X3 V c ∗ Pipeline.prefHeld pre3 c (fun _ => fullShare) a.1
        ∗ Pipeline.scopedRest (Ix := Unit) (Name := ℕ) (U := UC) (Lvl := ℕ) (Val := Elt F) spec3 c)
      ⊢ (dat3 V a c).Φ 0 := by
  rw [Phi3_eq]
  unfold Φ3 X3
  rw [scopedRest3_split, prefHeld3_eq, cells3_eq]
  simp only [tbM3, hbM3, scM3_0, scM3_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK3_start _ _ _ rfl _
  isplitl [Hs1]; · iexact Hs1
  isplitl [Hcells]; · iexact Hcells
  isplitl [Hreg]; · iexact Hreg
  iexact Hrest

/-- THE LAST POINT: the invariant gives back what it took. -/
theorem Phi3_out (c : Dev nD) :
    (dat3 V a c).Φ (Fin.last _)
      ⊢ iprop(Y3 V a c ∗ Pipeline.ownSems0 (Ix := Unit) (Name := ℕ) (U := UC) (Lvl := ℕ) (Val := Elt F) (τ := τ) osem3 c
        ∗ Pipeline.scopedRest (Ix := Unit) (Name := ℕ) (U := UC) (Lvl := ℕ) (Val := Elt F) spec3 c) := by
  rw [Phi3_eq]
  unfold Φ3 Y3
  rw [scopedRest3_split, prefHeld3_eq, cells3_eq]
  simp only [tbM3, hbM3, scM3_0, scM3_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G4Dat.lean ====
/-
  One of the program's 25 gather launches (pipeline 4; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N4 (a : (pcfg4 (F := F)).Adm) : (cfg4 a).N = 2000 := N_4

/-- The body's branch is taken at the last row of a block of rows, -/
theorem cond4_iff : ∀ t : Fin grid4.N, k4_cond1 (grid4.coords t) = 1#1 ↔ t.val % 1000 = 999 := by decide +kernel
/-- the row a point works on is its number modulo 1000, -/
theorem rowAt4_coord : ∀ t : Fin grid4.N, (grid4.coords t 1).val = t.val % 1000 := by decide +kernel
/-- its block of rows is its number divided by 1000, -/
theorem blockAt4_coord : ∀ t : Fin grid4.N, (grid4.coords t 0).val = t.val / 1000 := by decide +kernel
/-- and the output's block index moves after exactly those points (and the grid ends at one). -/
theorem flushB4 : ∀ t : Fin grid4.N,
    (decide (t.val + 1 = grid4.N) || decide (∃ h : t.val + 1 < grid4.N, cc4_transform_2 (grid4.coords ⟨t.val + 1, h⟩) ≠ cc4_transform_2 (grid4.coords t)))
      = decide (t.val % 1000 = 999) := by decide +kernel

/-- The output's block index at a point: the point's block of rows. -/
theorem idx4_1 : ∀ t : Fin grid4.N, cc4_transform_2 (grid4.coords t) = ![t.val / 1000, 0] := by decide +kernel

/-- Every word of the launch's table names a row of the feature array. -/
def InRange4 (pf : pre4.Contents (Elt F)) : Prop := ∀ x : S16x2000.Idx, ((pf 0 : Vec F S16x2000 .i32) x).toNat < 100000

/-! ## The values -/

/-- Lane `l` of a one-row vector. -/
def lane4 (l : Fin 128) : S1x128.Idx := fun a => ⟨if a.val = 0 then 0 else l.val, by
  match a with
  | ⟨0, _⟩ => exact Nat.one_pos
  | ⟨1, _⟩ => exact l.isLt⟩

theorem lane4_one (l : Fin 128) : (lane4 l 1).val = l.val := rfl

/-- The grid point of row `r` of block `q` (total: the point number is taken modulo the grid's size). -/
def pt4 (q : ℕ) (r : ℕ) : Fin grid4.N := ⟨(q * 1000 + r) % grid4.N, Nat.mod_lt _ (by decide)⟩

/-- Inside the grid the point's number is `1000 q + r`. -/
theorem pt4_val (q r : ℕ) (hq : q < 2) (hr : r < 1000) : (pt4 q r).val = q * 1000 + r := by
  show (q * 1000 + r) % grid4.N = q * 1000 + r
  rw [N_4]; omega

/-- A point is the point of its block and row. -/
theorem pt4_self (t : Fin grid4.N) : pt4 (t.val / 1000) (t.val % 1000) = t := by
  apply Fin.ext
  show (t.val / 1000 * 1000 + t.val % 1000) % grid4.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means4 (tb : Vec F S16x2000 .i32) (A0 : Vec F S100000x128 .f32) (q : ℕ) : Vec F S1000x128 .f32 :=
  fun x => Gen.k24_pay1 (gath24 (grid4.coords (pt4 q (x 0).val)) tb A0) (lane4 (x 1))

/-- What the body stores in the output window at the last row of block `q`: the means, rounded, times the weight, rounded. -/
def xBlk4 (tb : Vec F S16x2000 .i32) (A0 : Vec F S100000x128 .f32) (Wt : Vec F S128x128 .f32) (q : ℕ) : Vec F S1000x128 .f32 :=
  Gen.k24_pay2 (means4 tb A0 q) Wt

/-- The carried scratch before point `n`: its rows below `n % 1000` are the means of block `n / 1000`. -/
def RowsOK4 (tb : Vec F S16x2000 .i32) (A0 : Vec F S100000x128 .f32) (n : ℕ) (g : Vec F S1000x128 .f32) : Prop :=
  ∀ x : S1000x128.Idx, (x 0).val < n % 1000 → g x = means4 tb A0 (n / 1000) x

/-- At the first row of a block nothing is asked. -/
theorem rowsOK4_start (tb : Vec F S16x2000 .i32) (A0 : Vec F S100000x128 .f32) (n : ℕ) (hn : n % 1000 = 0) (g : Vec F S1000x128 .f32) :
    RowsOK4 tb A0 n g := fun x hx => absurd hx (by omega)

/-- One point's row store keeps the invariant's rows and adds its own: after the store at point `t` the rows up to
    `t % 1000` are means. -/
theorem rowAt4_means (tb : Vec F S16x2000 .i32) (A0 : Vec F S100000x128 .f32) (t : Fin grid4.N) (g : Vec F S1000x128 .f32)
    (hg : RowsOK4 tb A0 t.val g) (x : S1000x128.Idx) (hx : (x 0).val ≤ t.val % 1000) :
    row24 (grid4.coords t) tb A0 g x = means4 tb A0 (t.val / 1000) x := by
  by_cases h : (x 0).val = t.val % 1000
  · rw [row24_of_eq (grid4.coords t) tb A0 g x (by rw [rowAt4_coord]; exact h) (lane4 (x 1)) rfl]
    unfold means4
    rw [h, pt4_self]
  · rw [row24_of_ne (grid4.coords t) tb A0 g x (by rw [rowAt4_coord]; exact h)]
    exact hg x (by omega)

/-- Within a block the invariant steps. -/
theorem rowsOK4_step (tb : Vec F S16x2000 .i32) (A0 : Vec F S100000x128 .f32) (t : Fin grid4.N) (g : Vec F S1000x128 .f32)
    (hg : RowsOK4 tb A0 t.val g) : RowsOK4 tb A0 (t.val + 1) (row24 (grid4.coords t) tb A0 g) := by
  by_cases hl : t.val % 1000 = 999
  · exact rowsOK4_start _ _ _ (by omega) _
  · intro x hx
    have h1 : (t.val + 1) / 1000 = t.val / 1000 := by omega
    rw [h1]
    exact rowAt4_means tb A0 t g hg x (by omega)

/-- At the last row of a block the scratch, after the row store, is the block's means whatever it held before. -/
theorem rowAt4_last (tb : Vec F S16x2000 .i32) (A0 : Vec F S100000x128 .f32) (t : Fin grid4.N) (hl : t.val % 1000 = 999)
    (g : Vec F S1000x128 .f32) (hg : RowsOK4 tb A0 t.val g) :
    row24 (grid4.coords t) tb A0 g = means4 tb A0 (t.val / 1000) :=
  funext fun x => rowAt4_means tb A0 t g hg x (by have : (x 0).val < 1000 := (x 0).isLt; omega)

/-! ## The invariant -/

/-- The launch's operands that no window stages, as the body is handed them: its table, the feature array left in
    HBM, and its two scratch buffers — whole buffers. -/
abbrev tbM4 : Memref sig .tc .smem S16x2000 .i32 := Memref.whole main_v9
abbrev hbM4 : Memref sig .tc .hbm S100000x128 .f32 := Memref.whole main_arg0
abbrev scM4_0 : Memref sig .tc .vmem S1000x128 .f32 := Memref.whole cc4_scratch0
abbrev scM4_1 : Memref sig .tc .vmem S16x128 .f32 := Memref.whole cc4_scratch1

section Region
-- the TensorCore's buffer contents when the launch is entered, and the launch's table
variable (V : (c : Dev nD) → (b : Ref sig .tc) → Buf (Elt F) ((c : Thread nD τ).loc b)) (a : (pcfg4 (F := F)).Adm)

/-- The table and the feature array, as vectors. -/
abbrev tb4 : Vec F S16x2000 .i32 := a.1 0
abbrev A4 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ4 (c : Dev nD) (n : ℕ) : sProp 𝕄 :=
  iprop(owns (c : Thread nD τ) tbM4 fullShare (tb4 a)
    ∗ owns (c : Thread nD τ) hbM4 fullShare (A4 V c)
    ∗ (∃ g : Vec F S1000x128 .f32, ⌜RowsOK4 (tb4 a) (A4 V c) n g⌝ ∗ owns (c : Thread nD τ) scM4_0 fullShare g)
    ∗ (∃ d, owns (c : Thread nD τ) scM4_1 fullShare d)
    ∗ cells24 c cc4_scratch2
    ∗ (∃ r, prngReg c r)
    ∗ Pipeline.scopedRestBut (Ix := Unit) (Name := ℕ) (U := UC) (Lvl := ℕ) (Val := Elt F) spec4 c [cc4_scratch0, cc4_scratch1])

/-! ## The windows' blocks and the proof data -/

/-- Window `w`'s block at point `t`, read off its array as the launch finds it. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- The proof data of the launch on core `c`: the arrays as the launch finds them; after the body at point `t` the
    weight window at its block and the output window at the product for `t`'s block of rows (read only at the block's
    last row, where the body stores it); the invariant above; nothing owed; full shares. -/
def dat4 (c : Dev nD) : Dat τ (Elt F) Unit ℕ UC ℕ (cfg4 a) c where
  A w := V c (Pipeline.arrRef spec4 w)
  after w t := match w with
    | ⟨0, _⟩ => iblk4 V a c 0 t
    | ⟨1, _⟩ => xBlk4 (tb4 a) (A4 V c) (iblk4 V a c 0 t) (t.val / 1000)
  Φ n := Φ4 V a c n.val
  q _ := fullShare
  owed _ := 0

/-- The proof data's arrays are the entry contents. -/
theorem A_eq4 (c : Dev nD) (w : Fin (cfg4 a).W) : (dat4 V a c).A w = V c (Pipeline.arrRef spec4 w) := by
  dsimp only [dat4]

/-- What the body leaves, window by window. -/
theorem after4_0 (c : Dev nD) (t : Fin (cfg4 a).N) : (dat4 V a c).after 0 t = iblk4 V a c 0 t := by dsimp only [dat4]; rfl
theorem after4_1 (c : Dev nD) (t : Fin (cfg4 a).N) :
    (dat4 V a c).after 1 t = xBlk4 (tb4 a) (A4 V c) (iblk4 V a c 0 t) (t.val / 1000) := by dsimp only [dat4]; rfl

/-- The invariant and the tallies, at a point. -/
theorem Phi4_eq (c : Dev nD) (n : Fin ((cfg4 a).N + 1)) : (dat4 V a c).Φ n = Φ4 V a c n.val := by dsimp only [dat4]
theorem owed4_eq (c : Dev nD) (n : Fin ((cfg4 a).N + 1)) : (dat4 V a c).owed n = 0 := by dsimp only [dat4]

/-- The weight window holds its block at every point, fetched there or not: its block index never moves. -/
theorem before4_0 (c : Dev nD) (t : Fin (cfg4 a).N) (d) : (dat4 V a c).before 0 t d = iblk4 V a c 0 t :=
  ((dat4 V a c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The output window is written back after the last row of each block of rows, and only there; -/
theorem flush4_1 (t : Fin (cfg4 a).N) : ((cfg4 a).win 1).flush t = decide (t.val % 1000 = 999) := by
  unfold Window.flush
  exact flushB4 t
/-- and it is idle at every other row. -/
theorem idle4_1 (t : Fin (cfg4 a).N) : (cfg4 a).idle 1 ((cfg4 a).grid.coords t) = !decide (t.val % 1000 = 999) := by
  show (!(k4_cond1 (grid4.coords t) == 1#1)) = _
  congr 1
  by_cases h : t.val % 1000 = 999
  · rw [decide_eq_true h, (cond4_iff t).2 h]; rfl
  · rw [decide_eq_false h]
    exact beq_false_of_ne fun e => h ((cond4_iff t).1 e)

end Region

/-! ## The body obligation -/

section Body
variable (V : (c : Dev nD) → (b : Ref sig .tc) → Buf (Elt F) ((c : Thread nD τ).loc b)) (a : (pcfg4 (F := F)).Adm)

/-- Each window's current staging memref at point `t`, spelled as the pipeline passes it, and its wholeness. -/
abbrev ms4_0 (t : Fin (cfg4 a).N) : Memref sig .tc .vmem S128x128 .f32 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S1000x128 .f32 := spec4_1.stage ((cfg4 a).slots t 1)
abbrev hs4_1 (t : Fin (cfg4 a).N) : (ms4_1 a t).IsWhole := hstage4_1 (((cfg4 a).slots t 1).cast nbuf4_1)

/-- The launch's body function, under the name the runs are stated at. -/
theorem bodyFn4_eq : cc4__gather_agg_matmul_kernel (F := F) = gatherFn := rfl

/-- The kernel body at point `t`, on what the pipeline calls it with. -/
abbrev bodyAt4 (t : Fin (cfg4 a).N) : Prog (TpuEff nD τ sig (Elt F) Λ₀ .tc) PUnit :=
  cc4__gather_agg_matmul_kernel (grid4.coords t) tbM4 (Memref.isWhole_whole _) hbM4 (Memref.isWhole_whole _)
    (ms4_0 a t) (hs4_0 a t) (ms4_1 a t) (hs4_1 a t) scM4_0 (Memref.isWhole_whole _) scM4_1 (Memref.isWhole_whole _) cc4_scratch2

/-- What the body is called with at point `t`, the windows one by one, -/
def bodyPre4 (c : Dev nD) (t : Fin (cfg4 a).N) : sProp 𝕄 :=
  iprop((dat4 V a c).Φ t.castSucc ∗ (dat4 V a c).owesAt () t.castSucc
    ∗ (∃ d, owns (c : Thread nD τ) (ms4_0 a t) fullShare ((dat4 V a c).before 0 t d))
    ∗ (∃ d, owns (c : Thread nD τ) (ms4_1 a t) fullShare ((dat4 V a c).before 1 t d)))

/-- and what it returns: the output window as it was found where the point is idle for it, at the block's product
    at the last row of a block. -/
def bodyPost4 (c : Dev nD) (t : Fin (cfg4 a).N) : sProp 𝕄 :=
  iprop((dat4 V a c).Φ t.succ ∗ (dat4 V a c).owesAt () t.succ
    ∗ owns (c : Thread nD τ) (ms4_0 a t) fullShare ((dat4 V a c).after 0 t)
    ∗ (match (cfg4 a).idle 1 ((cfg4 a).grid.coords t) with
        | true =>
          match ((cfg4 a).win 1).flush t with
          | false => iprop(∃ d, owns (c : Thread nD τ) (ms4_1 a t) fullShare ((dat4 V a c).before 1 t d))
          | true => owns (c : Thread nD τ) (ms4_1 a t) fullShare ((dat4 V a c).after 1 t)
        | false => owns (c : Thread nD τ) (ms4_1 a t) fullShare ((dat4 V a c).after 1 t)))

/-- The body at any point. The weight window holds its block; the invariant hands the body its table, the feature
    array, both scratch buffers and its transfer cells, and takes them back with the carried scratch one row further
    (`rowsOK4_step`); at the last row of a block the product the body stores is the block's (`rowAt4_last`); the core's
    `owes` goes in at whatever the points before recorded and comes back with this point's waits. -/
theorem sound_body4 (hR : InRange4 a.1) (c : Dev nD) (t : Fin (cfg4 a).N) :
    bodyPre4 V a c t ⊢ wp frame (wpE (defs₀ (F := F)) Variants.none c none) Set.univ (bodyAt4 a t) (fun _ => bodyPost4 V a c t) := by
  unfold bodyPre4 bodyPost4 bodyAt4
  rw [flush4_1, idle4_1]
  simp only [before4_0]
  rw [after4_0, Phi4_eq, Phi4_eq, Fin.val_succ, Fin.coe_castSucc]
  unfold Dat.owesAt Pipeline.owesWithin
  rw [owed4_eq, owed4_eq]
  unfold Φ4
  rw [bodyFn4_eq]
  by_cases hl : t.val % 1000 = 999
  · -- the last row of a block
    rw [decide_eq_true hl, Bool.not_true]
    dsimp only
    rw [after4_1]
    unfold xBlk4
    iintro ⟨⟨Htb, Hhb, ⟨%g, %hg, Hs0⟩, Hs1, Hcells, Hreg, Hrest⟩, ⟨%W, -, HW⟩, ⟨%d0, H0⟩, ⟨%d1, H1⟩⟩
    rw [← rowAt4_last (tb4 a) (A4 V c) t hl g hg]
    iapply (run24_last c (grid4.coords t) tbM4 (Memref.isWhole_whole _) hbM4 (Memref.isWhole_whole _) (ms4_0 a t) (hs4_0 a t)
      (ms4_1 a t) (hs4_1 a t) scM4_0 (Memref.isWhole_whole _) scM4_1 (Memref.isWhole_whole _) cc4_scratch2
      ((cond4_iff t).2 hl) (tb4 a) hR (A4 V c) (iblk4 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK4_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k4_cond1 (grid4.coords t) ≠ 1#1 := fun e => hl ((cond4_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid4.coords t) tbM4 (Memref.isWhole_whole _) hbM4 (Memref.isWhole_whole _) (ms4_0 a t) (hs4_0 a t)
      (ms4_1 a t) (hs4_1 a t) scM4_0 (Memref.isWhole_whole _) scM4_1 (Memref.isWhole_whole _) cc4_scratch2
      hc (tb4 a) hR (A4 V c) (iblk4 V a c 0 t) g
      (owns (c : Thread nD τ) (ms4_1 a t) fullShare ((dat4 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK4_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation4 (hR : InRange4 a.1) (c : Dev nD) :
    BodyObligation (dat4 (F := F) V a c) (defs₀ (F := F)) Variants.none () Set.univ := fun t => by
  rw [bigSep_W4, bigSep_W4]
  exact sound_body4 V a hR c t

end Body

/-! ## The value: what the launch leaves in its output array -/

section Value
variable (V : (c : Dev nD) → (b : Ref sig .tc) → Buf (Elt F) ((c : Thread nD τ).loc b)) (a : (pcfg4 (F := F)).Adm)

/-- Entry `(r, l)` of a block of rows. -/
def cell4 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk4 (tb : Vec F S16x2000 .i32) (A0 : Vec F S100000x128 .f32) (Wt : Vec F S128x128 .f32) : Vec F S2000x128 .f32 :=
  fun y => xBlk4 tb A0 Wt ((y 0).val / 1000) (cell4 ((y 0).val % 1000) (Nat.mod_lt _ (by decide)) (y 1))

/-- The weight window's block is the whole weight, at every point: its block index is (0, 0). -/
theorem wblk4_eq (c : Dev nD) (t : Fin (cfg4 a).N) : iblk4 V a c 0 t = (V c main_arg1 : Vec F S128x128 .f32) := by
  funext x
  unfold iblk4
  rw [View.read_apply]
  refine (cast_eq _ _).trans (congrArg (V c main_arg1) (funext fun b => Fin.ext ?_))
  refine (((cfg4 a).win 0).rect_emb_val_of_index_zero t b ?_ x)
  match b with
  | ⟨0, _⟩ => rfl
  | ⟨1, _⟩ => rfl

/-- Where entry `x` of the output window's block at point `t` sits in the output array. -/
abbrev emb4 (t : Fin (cfg4 a).N) (x : S1000x128.Idx) : S2000x128.Idx := (((cfg4 a).win 1).blk t).view.emb x

theorem emb4_val (t : Fin (cfg4 a).N) (x : S1000x128.Idx) :
    (emb4 a t x 0).val = t.val / 1000 * 1000 + (x 0).val ∧ (emb4 a t x 1).val = (x 1).val := by
  have hix : ((cfg4 a).win 1).index t = ![t.val / 1000, 0] := idx4_1 t
  have e0 := ((cfg4 a).win 1).rect_emb_val t x (0 : Fin 2)
  have e1 := ((cfg4 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after4_chunk (c : Dev nD) (t : Fin (cfg4 a).N) (x : S1000x128.Idx) :
    (dat4 V a c).after 1 t x = xChunk4 (tb4 a) (A4 V c) (V c main_arg1) (emb4 a t x) := by
  obtain ⟨e0, e1⟩ := emb4_val a t x
  have hx0 : (x 0).val < 1000 := (x 0).isLt
  rw [after4_1, wblk4_eq]
  unfold xChunk4
  have hq : (emb4 a t x 0).val / 1000 = t.val / 1000 := by rw [e0]; omega
  have hcell : cell4 ((emb4 a t x 0).val % 1000) (Nat.mod_lt _ (by decide)) (emb4 a t x 1) = x := by
    funext b
    apply Fin.ext
    match b with
    | ⟨0, _⟩ =>
      show (emb4 a t x 0).val % 1000 = (x 0).val
      rw [e0]; omega
    | ⟨1, _⟩ => exact e1
  rw [hq, hcell]

/-- Two entries of the output array with the same coordinates are the same. -/
theorem idx4_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb4_cell (t : Fin (cfg4 a).N) (i : S2000x128.Idx) (ht : t.val / 1000 = (i 0).val / 1000) :
    emb4 a t (cell4 ((i 0).val % 1000) (Nat.mod_lt _ (by decide)) (i 1)) = i := by
  obtain ⟨e0, e1⟩ := emb4_val a t (cell4 ((i 0).val % 1000) (Nat.mod_lt _ (by decide)) (i 1))
  refine idx4_ext _ _ ?_ e1
  rw [e0, ht]
  show (i 0).val / 1000 * 1000 + (i 0).val % 1000 = (i 0).val
  omega

/-- Every entry of the output array lies in the block written back after the last row of its block of rows. -/
theorem cover4 (i : S2000x128.Idx) :
    ∃ t : Fin (cfg4 a).N, ((cfg4 a).win 1).flush t = true ∧ i ∈ (((cfg4 a).win 1).blk t).view.set := by
  have hi0 : (i 0).val < 2000 := (i 0).isLt
  have hN : (i 0).val / 1000 * 1000 + 999 < (cfg4 a).N := by rw [N4]; omega
  refine ⟨⟨(i 0).val / 1000 * 1000 + 999, hN⟩, ?_, ?_⟩
  · rw [flush4_1]; exact decide_eq_true (by show ((i 0).val / 1000 * 1000 + 999) % 1000 = 999; omega)
  · refine Finset.mem_map.mpr ⟨cell4 ((i 0).val % 1000) (Nat.mod_lt _ (by decide)) (i 1), Finset.mem_univ _, ?_⟩
    exact emb4_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out4 (c : Dev nD) :
    (dat4 V a c).arrAt 1 (cfg4 a).N = (xChunk4 (tb4 a) (A4 V c) (V c main_arg1) : Vec F S2000x128 .f32) :=
  (dat4 V a c).arrAt_eq_of_cover 1 _
    (fun t _ => funext fun x => (after4_chunk V a c t x).trans (cast_eq _ _).symm)
    (cover4 a)

end Value

/-! ## The invariant's two ends -/

section Ends
variable (V : (c : Dev nD) → (b : Ref sig .tc) → Buf (Elt F) ((c : Thread nD τ).loc b)) (a : (pcfg4 (F := F)).Adm)

/-- The body's own transfer cells as the launch's protocol lists them: the 16 cells of its semaphore operand. -/
def osem4 : Fin 16 → SemLoc sig := fun k => SemLoc.dma (cc4_scratch2.ix (Shape.ofLane k))
/-- They are scoped, distinct, and none is a window's. -/
theorem ownSemFacts4 : Pipeline.OwnSemFacts spec4 osem4 := by decide
/-- The cells at zero, listed, are the cells as the body names them. -/
theorem cells4_eq (c : Dev nD) :
    (Pipeline.ownSems0 (Ix := Unit) (Name := ℕ) (U := UC) (Lvl := ℕ) (Val := Elt F) (τ := τ) osem4 c : sProp 𝕄) = cells24 c cc4_scratch2 := by
  rw [Pipeline.ownSems0_eq_of_list c osem4 [0, 1, 2, 3, 4, 5, 6, 7, 8, 9, 10, 11, 12, 13, 14, 15] (by decide) (by decide)]; rfl

/-- The launch's one table, held. -/
theorem prefHeld4_eq (c : Dev nD) (pf : pre4.Contents (Elt F)) :
    (Pipeline.prefHeld pre4 c (fun _ => fullShare) pf : sProp 𝕄) = (((c : Thread nD τ).loc main_v9) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X4 (c : Dev nD) : sProp 𝕄 :=
  iprop((∃ r, prngReg c r) ∗ Pipeline.ownSems0 (Ix := Unit) (Name := ℕ) (U := UC) (Lvl := ℕ) (Val := Elt F) (τ := τ) osem4 c
    ∗ (((c : Thread nD τ).loc main_arg0) ↦{fullShare} V c main_arg0))
abbrev Y4 (c : Dev nD) : sProp 𝕄 :=
  iprop((∃ r, prngReg c r) ∗ (((c : Thread nD τ).loc main_arg0) ↦{fullShare} V c main_arg0)
    ∗ Pipeline.prefHeld pre4 c (fun _ => fullShare) a.1)

/-- THE FIRST POINT: the invariant from what the launch's entry sorts out. Nothing is asked of the carried scratch. -/
theorem Phi4_in (c : Dev nD) :
    iprop(X4 V c ∗ Pipeline.prefHeld pre4 c (fun _ => fullShare) a.1
        ∗ Pipeline.scopedRest (Ix := Unit) (Name := ℕ) (U := UC) (Lvl := ℕ) (Val := Elt F) spec4 c)
      ⊢ (dat4 V a c).Φ 0 := by
  rw [Phi4_eq]
  unfold Φ4 X4
  rw [scopedRest4_split, prefHeld4_eq, cells4_eq]
  simp only [tbM4, hbM4, scM4_0, scM4_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK4_start _ _ _ rfl _
  isplitl [Hs1]; · iexact Hs1
  isplitl [Hcells]; · iexact Hcells
  isplitl [Hreg]; · iexact Hreg
  iexact Hrest

/-- THE LAST POINT: the invariant gives back what it took. -/
theorem Phi4_out (c : Dev nD) :
    (dat4 V a c).Φ (Fin.last _)
      ⊢ iprop(Y4 V a c ∗ Pipeline.ownSems0 (Ix := Unit) (Name := ℕ) (U := UC) (Lvl := ℕ) (Val := Elt F) (τ := τ) osem4 c
        ∗ Pipeline.scopedRest (Ix := Unit) (Name := ℕ) (U := UC) (Lvl := ℕ) (Val := Elt F) spec4 c) := by
  rw [Phi4_eq]
  unfold Φ4 Y4
  rw [scopedRest4_split, prefHeld4_eq, cells4_eq]
  simp only [tbM4, hbM4, scM4_0, scM4_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G5Dat.lean ====
/-
  One of the program's 25 gather launches (pipeline 5; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N5 (a : (pcfg5 (F := F)).Adm) : (cfg5 a).N = 2000 := N_5

/-- The body's branch is taken at the last row of a block of rows, -/
theorem cond5_iff : ∀ t : Fin grid5.N, k5_cond1 (grid5.coords t) = 1#1 ↔ t.val % 1000 = 999 := by decide +kernel
/-- the row a point works on is its number modulo 1000, -/
theorem rowAt5_coord : ∀ t : Fin grid5.N, (grid5.coords t 1).val = t.val % 1000 := by decide +kernel
/-- its block of rows is its number divided by 1000, -/
theorem blockAt5_coord : ∀ t : Fin grid5.N, (grid5.coords t 0).val = t.val / 1000 := by decide +kernel
/-- and the output's block index moves after exactly those points (and the grid ends at one). -/
theorem flushB5 : ∀ t : Fin grid5.N,
    (decide (t.val + 1 = grid5.N) || decide (∃ h : t.val + 1 < grid5.N, cc5_transform_2 (grid5.coords ⟨t.val + 1, h⟩) ≠ cc5_transform_2 (grid5.coords t)))
      = decide (t.val % 1000 = 999) := by decide +kernel

/-- The output's block index at a point: the point's block of rows. -/
theorem idx5_1 : ∀ t : Fin grid5.N, cc5_transform_2 (grid5.coords t) = ![t.val / 1000, 0] := by decide +kernel

/-- Every word of the launch's table names a row of the feature array. -/
def InRange5 (pf : pre5.Contents (Elt F)) : Prop := ∀ x : S16x2000.Idx, ((pf 0 : Vec F S16x2000 .i32) x).toNat < 100000

/-! ## The values -/

/-- Lane `l` of a one-row vector. -/
def lane5 (l : Fin 128) : S1x128.Idx := fun a => ⟨if a.val = 0 then 0 else l.val, by
  match a with
  | ⟨0, _⟩ => exact Nat.one_pos
  | ⟨1, _⟩ => exact l.isLt⟩

theorem lane5_one (l : Fin 128) : (lane5 l 1).val = l.val := rfl

/-- The grid point of row `r` of block `q` (total: the point number is taken modulo the grid's size). -/
def pt5 (q : ℕ) (r : ℕ) : Fin grid5.N := ⟨(q * 1000 + r) % grid5.N, Nat.mod_lt _ (by decide)⟩

/-- Inside the grid the point's number is `1000 q + r`. -/
theorem pt5_val (q r : ℕ) (hq : q < 2) (hr : r < 1000) : (pt5 q r).val = q * 1000 + r := by
  show (q * 1000 + r) % grid5.N = q * 1000 + r
  rw [N_5]; omega

/-- A point is the point of its block and row. -/
theorem pt5_self (t : Fin grid5.N) : pt5 (t.val / 1000) (t.val % 1000) = t := by
  apply Fin.ext
  show (t.val / 1000 * 1000 + t.val % 1000) % grid5.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means5 (tb : Vec F S16x2000 .i32) (A0 : Vec F S100000x128 .f32) (q : ℕ) : Vec F S1000x128 .f32 :=
  fun x => Gen.k24_pay1 (gath24 (grid5.coords (pt5 q (x 0).val)) tb A0) (lane5 (x 1))

/-- What the body stores in the output window at the last row of block `q`: the means, rounded, times the weight, rounded. -/
def xBlk5 (tb : Vec F S16x2000 .i32) (A0 : Vec F S100000x128 .f32) (Wt : Vec F S128x128 .f32) (q : ℕ) : Vec F S1000x128 .f32 :=
  Gen.k24_pay2 (means5 tb A0 q) Wt

/-- The carried scratch before point `n`: its rows below `n % 1000` are the means of block `n / 1000`. -/
def RowsOK5 (tb : Vec F S16x2000 .i32) (A0 : Vec F S100000x128 .f32) (n : ℕ) (g : Vec F S1000x128 .f32) : Prop :=
  ∀ x : S1000x128.Idx, (x 0).val < n % 1000 → g x = means5 tb A0 (n / 1000) x

/-- At the first row of a block nothing is asked. -/
theorem rowsOK5_start (tb : Vec F S16x2000 .i32) (A0 : Vec F S100000x128 .f32) (n : ℕ) (hn : n % 1000 = 0) (g : Vec F S1000x128 .f32) :
    RowsOK5 tb A0 n g := fun x hx => absurd hx (by omega)

/-- One point's row store keeps the invariant's rows and adds its own: after the store at point `t` the rows up to
    `t % 1000` are means. -/
theorem rowAt5_means (tb : Vec F S16x2000 .i32) (A0 : Vec F S100000x128 .f32) (t : Fin grid5.N) (g : Vec F S1000x128 .f32)
    (hg : RowsOK5 tb A0 t.val g) (x : S1000x128.Idx) (hx : (x 0).val ≤ t.val % 1000) :
    row24 (grid5.coords t) tb A0 g x = means5 tb A0 (t.val / 1000) x := by
  by_cases h : (x 0).val = t.val % 1000
  · rw [row24_of_eq (grid5.coords t) tb A0 g x (by rw [rowAt5_coord]; exact h) (lane5 (x 1)) rfl]
    unfold means5
    rw [h, pt5_self]
  · rw [row24_of_ne (grid5.coords t) tb A0 g x (by rw [rowAt5_coord]; exact h)]
    exact hg x (by omega)

/-- Within a block the invariant steps. -/
theorem rowsOK5_step (tb : Vec F S16x2000 .i32) (A0 : Vec F S100000x128 .f32) (t : Fin grid5.N) (g : Vec F S1000x128 .f32)
    (hg : RowsOK5 tb A0 t.val g) : RowsOK5 tb A0 (t.val + 1) (row24 (grid5.coords t) tb A0 g) := by
  by_cases hl : t.val % 1000 = 999
  · exact rowsOK5_start _ _ _ (by omega) _
  · intro x hx
    have h1 : (t.val + 1) / 1000 = t.val / 1000 := by omega
    rw [h1]
    exact rowAt5_means tb A0 t g hg x (by omega)

/-- At the last row of a block the scratch, after the row store, is the block's means whatever it held before. -/
theorem rowAt5_last (tb : Vec F S16x2000 .i32) (A0 : Vec F S100000x128 .f32) (t : Fin grid5.N) (hl : t.val % 1000 = 999)
    (g : Vec F S1000x128 .f32) (hg : RowsOK5 tb A0 t.val g) :
    row24 (grid5.coords t) tb A0 g = means5 tb A0 (t.val / 1000) :=
  funext fun x => rowAt5_means tb A0 t g hg x (by have : (x 0).val < 1000 := (x 0).isLt; omega)

/-! ## The invariant -/

/-- The launch's operands that no window stages, as the body is handed them: its table, the feature array left in
    HBM, and its two scratch buffers — whole buffers. -/
abbrev tbM5 : Memref sig .tc .smem S16x2000 .i32 := Memref.whole main_v11
abbrev hbM5 : Memref sig .tc .hbm S100000x128 .f32 := Memref.whole main_arg0
abbrev scM5_0 : Memref sig .tc .vmem S1000x128 .f32 := Memref.whole cc5_scratch0
abbrev scM5_1 : Memref sig .tc .vmem S16x128 .f32 := Memref.whole cc5_scratch1

section Region
-- the TensorCore's buffer contents when the launch is entered, and the launch's table
variable (V : (c : Dev nD) → (b : Ref sig .tc) → Buf (Elt F) ((c : Thread nD τ).loc b)) (a : (pcfg5 (F := F)).Adm)

/-- The table and the feature array, as vectors. -/
abbrev tb5 : Vec F S16x2000 .i32 := a.1 0
abbrev A5 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ5 (c : Dev nD) (n : ℕ) : sProp 𝕄 :=
  iprop(owns (c : Thread nD τ) tbM5 fullShare (tb5 a)
    ∗ owns (c : Thread nD τ) hbM5 fullShare (A5 V c)
    ∗ (∃ g : Vec F S1000x128 .f32, ⌜RowsOK5 (tb5 a) (A5 V c) n g⌝ ∗ owns (c : Thread nD τ) scM5_0 fullShare g)
    ∗ (∃ d, owns (c : Thread nD τ) scM5_1 fullShare d)
    ∗ cells24 c cc5_scratch2
    ∗ (∃ r, prngReg c r)
    ∗ Pipeline.scopedRestBut (Ix := Unit) (Name := ℕ) (U := UC) (Lvl := ℕ) (Val := Elt F) spec5 c [cc5_scratch0, cc5_scratch1])

/-! ## The windows' blocks and the proof data -/

/-- Window `w`'s block at point `t`, read off its array as the launch finds it. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- The proof data of the launch on core `c`: the arrays as the launch finds them; after the body at point `t` the
    weight window at its block and the output window at the product for `t`'s block of rows (read only at the block's
    last row, where the body stores it); the invariant above; nothing owed; full shares. -/
def dat5 (c : Dev nD) : Dat τ (Elt F) Unit ℕ UC ℕ (cfg5 a) c where
  A w := V c (Pipeline.arrRef spec5 w)
  after w t := match w with
    | ⟨0, _⟩ => iblk5 V a c 0 t
    | ⟨1, _⟩ => xBlk5 (tb5 a) (A5 V c) (iblk5 V a c 0 t) (t.val / 1000)
  Φ n := Φ5 V a c n.val
  q _ := fullShare
  owed _ := 0

/-- The proof data's arrays are the entry contents. -/
theorem A_eq5 (c : Dev nD) (w : Fin (cfg5 a).W) : (dat5 V a c).A w = V c (Pipeline.arrRef spec5 w) := by
  dsimp only [dat5]

/-- What the body leaves, window by window. -/
theorem after5_0 (c : Dev nD) (t : Fin (cfg5 a).N) : (dat5 V a c).after 0 t = iblk5 V a c 0 t := by dsimp only [dat5]; rfl
theorem after5_1 (c : Dev nD) (t : Fin (cfg5 a).N) :
    (dat5 V a c).after 1 t = xBlk5 (tb5 a) (A5 V c) (iblk5 V a c 0 t) (t.val / 1000) := by dsimp only [dat5]; rfl

/-- The invariant and the tallies, at a point. -/
theorem Phi5_eq (c : Dev nD) (n : Fin ((cfg5 a).N + 1)) : (dat5 V a c).Φ n = Φ5 V a c n.val := by dsimp only [dat5]
theorem owed5_eq (c : Dev nD) (n : Fin ((cfg5 a).N + 1)) : (dat5 V a c).owed n = 0 := by dsimp only [dat5]

/-- The weight window holds its block at every point, fetched there or not: its block index never moves. -/
theorem before5_0 (c : Dev nD) (t : Fin (cfg5 a).N) (d) : (dat5 V a c).before 0 t d = iblk5 V a c 0 t :=
  ((dat5 V a c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

/-- The output window is written back after the last row of each block of rows, and only there; -/
theorem flush5_1 (t : Fin (cfg5 a).N) : ((cfg5 a).win 1).flush t = decide (t.val % 1000 = 999) := by
  unfold Window.flush
  exact flushB5 t
/-- and it is idle at every other row. -/
theorem idle5_1 (t : Fin (cfg5 a).N) : (cfg5 a).idle 1 ((cfg5 a).grid.coords t) = !decide (t.val % 1000 = 999) := by
  show (!(k5_cond1 (grid5.coords t) == 1#1)) = _
  congr 1
  by_cases h : t.val % 1000 = 999
  · rw [decide_eq_true h, (cond5_iff t).2 h]; rfl
  · rw [decide_eq_false h]
    exact beq_false_of_ne fun e => h ((cond5_iff t).1 e)

end Region

/-! ## The body obligation -/

section Body
variable (V : (c : Dev nD) → (b : Ref sig .tc) → Buf (Elt F) ((c : Thread nD τ).loc b)) (a : (pcfg5 (F := F)).Adm)

/-- Each window's current staging memref at point `t`, spelled as the pipeline passes it, and its wholeness. -/
abbrev ms5_0 (t : Fin (cfg5 a).N) : Memref sig .tc .vmem S128x128 .f32 := spec5_0.stage ((cfg5 a).slots t 0)
abbrev hs5_0 (t : Fin (cfg5 a).N) : (ms5_0 a t).IsWhole := hstage5_0 (((cfg5 a).slots t 0).cast nbuf5_0)
abbrev ms5_1 (t : Fin (cfg5 a).N) : Memref sig .tc .vmem S1000x128 .f32 := spec5_1.stage ((cfg5 a).slots t 1)
abbrev hs5_1 (t : Fin (cfg5 a).N) : (ms5_1 a t).IsWhole := hstage5_1 (((cfg5 a).slots t 1).cast nbuf5_1)

/-- The launch's body function, under the name the runs are stated at. -/
theorem bodyFn5_eq : cc5__gather_agg_matmul_kernel (F := F) = gatherFn := rfl

/-- The kernel body at point `t`, on what the pipeline calls it with. -/
abbrev bodyAt5 (t : Fin (cfg5 a).N) : Prog (TpuEff nD τ sig (Elt F) Λ₀ .tc) PUnit :=
  cc5__gather_agg_matmul_kernel (grid5.coords t) tbM5 (Memref.isWhole_whole _) hbM5 (Memref.isWhole_whole _)
    (ms5_0 a t) (hs5_0 a t) (ms5_1 a t) (hs5_1 a t) scM5_0 (Memref.isWhole_whole _) scM5_1 (Memref.isWhole_whole _) cc5_scratch2

/-- What the body is called with at point `t`, the windows one by one, -/
def bodyPre5 (c : Dev nD) (t : Fin (cfg5 a).N) : sProp 𝕄 :=
  iprop((dat5 V a c).Φ t.castSucc ∗ (dat5 V a c).owesAt () t.castSucc
    ∗ (∃ d, owns (c : Thread nD τ) (ms5_0 a t) fullShare ((dat5 V a c).before 0 t d))
    ∗ (∃ d, owns (c : Thread nD τ) (ms5_1 a t) fullShare ((dat5 V a c).before 1 t d)))

/-- and what it returns: the output window as it was found where the point is idle for it, at the block's product
    at the last row of a block. -/
def bodyPost5 (c : Dev nD) (t : Fin (cfg5 a).N) : sProp 𝕄 :=
  iprop((dat5 V a c).Φ t.succ ∗ (dat5 V a c).owesAt () t.succ
    ∗ owns (c : Thread nD τ) (ms5_0 a t) fullShare ((dat5 V a c).after 0 t)
    ∗ (match (cfg5 a).idle 1 ((cfg5 a).grid.coords t) with
        | true =>
          match ((cfg5 a).win 1).flush t with
          | false => iprop(∃ d, owns (c : Thread nD τ) (ms5_1 a t) fullShare ((dat5 V a c).before 1 t d))
          | true => owns (c : Thread nD τ) (ms5_1 a t) fullShare ((dat5 V a c).after 1 t)
        | false => owns (c : Thread nD τ) (ms5_1 a t) fullShare ((dat5 V a c).after 1 t)))

/-- The body at any point. The weight window holds its block; the invariant hands the body its table, the feature
    array, both scratch buffers and its transfer cells, and takes them back with the carried scratch one row further
    (`rowsOK5_step`); at the last row of a block the product the body stores is the block's (`rowAt5_last`); the core's
    `owes` goes in at whatever the points before recorded and comes back with this point's waits. -/
theorem sound_body5 (hR : InRange5 a.1) (c : Dev nD) (t : Fin (cfg5 a).N) :
    bodyPre5 V a c t ⊢ wp frame (wpE (defs₀ (F := F)) Variants.none c none) Set.univ (bodyAt5 a t) (fun _ => bodyPost5 V a c t) := by
  unfold bodyPre5 bodyPost5 bodyAt5
  rw [flush5_1, idle5_1]
  simp only [before5_0]
  rw [after5_0, Phi5_eq, Phi5_eq, Fin.val_succ, Fin.coe_castSucc]
  unfold Dat.owesAt Pipeline.owesWithin
  rw [owed5_eq, owed5_eq]
  unfold Φ5
  rw [bodyFn5_eq]
  by_cases hl : t.val % 1000 = 999
  · -- the last row of a block
    rw [decide_eq_true hl, Bool.not_true]
    dsimp only
    rw [after5_1]
    unfold xBlk5
    iintro ⟨⟨Htb, Hhb, ⟨%g, %hg, Hs0⟩, Hs1, Hcells, Hreg, Hrest⟩, ⟨%W, -, HW⟩, ⟨%d0, H0⟩, ⟨%d1, H1⟩⟩
    rw [← rowAt5_last (tb5 a) (A5 V c) t hl g hg]
    iapply (run24_last c (grid5.coords t) tbM5 (Memref.isWhole_whole _) hbM5 (Memref.isWhole_whole _) (ms5_0 a t) (hs5_0 a t)
      (ms5_1 a t) (hs5_1 a t) scM5_0 (Memref.isWhole_whole _) scM5_1 (Memref.isWhole_whole _) cc5_scratch2
      ((cond5_iff t).2 hl) (tb5 a) hR (A5 V c) (iblk5 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK5_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k5_cond1 (grid5.coords t) ≠ 1#1 := fun e => hl ((cond5_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid5.coords t) tbM5 (Memref.isWhole_whole _) hbM5 (Memref.isWhole_whole _) (ms5_0 a t) (hs5_0 a t)
      (ms5_1 a t) (hs5_1 a t) scM5_0 (Memref.isWhole_whole _) scM5_1 (Memref.isWhole_whole _) cc5_scratch2
      hc (tb5 a) hR (A5 V c) (iblk5 V a c 0 t) g
      (owns (c : Thread nD τ) (ms5_1 a t) fullShare ((dat5 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK5_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation5 (hR : InRange5 a.1) (c : Dev nD) :
    BodyObligation (dat5 (F := F) V a c) (defs₀ (F := F)) Variants.none () Set.univ := fun t => by
  rw [bigSep_W5, bigSep_W5]
  exact sound_body5 V a hR c t

end Body

/-! ## The value: what the launch leaves in its output array -/

section Value
variable (V : (c : Dev nD) → (b : Ref sig .tc) → Buf (Elt F) ((c : Thread nD τ).loc b)) (a : (pcfg5 (F := F)).Adm)

/-- Entry `(r, l)` of a block of rows. -/
def cell5 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk5 (tb : Vec F S16x2000 .i32) (A0 : Vec F S100000x128 .f32) (Wt : Vec F S128x128 .f32) : Vec F S2000x128 .f32 :=
  fun y => xBlk5 tb A0 Wt ((y 0).val / 1000) (cell5 ((y 0).val % 1000) (Nat.mod_lt _ (by decide)) (y 1))

/-- The weight window's block is the whole weight, at every point: its block index is (0, 0). -/
theorem wblk5_eq (c : Dev nD) (t : Fin (cfg5 a).N) : iblk5 V a c 0 t = (V c main_arg1 : Vec F S128x128 .f32) := by
  funext x
  unfold iblk5
  rw [View.read_apply]
  refine (cast_eq _ _).trans (congrArg (V c main_arg1) (funext fun b => Fin.ext ?_))
  refine (((cfg5 a).win 0).rect_emb_val_of_index_zero t b ?_ x)
  match b with
  | ⟨0, _⟩ => rfl
  | ⟨1, _⟩ => rfl

/-- Where entry `x` of the output window's block at point `t` sits in the output array. -/
abbrev emb5 (t : Fin (cfg5 a).N) (x : S1000x128.Idx) : S2000x128.Idx := (((cfg5 a).win 1).blk t).view.emb x

theorem emb5_val (t : Fin (cfg5 a).N) (x : S1000x128.Idx) :
    (emb5 a t x 0).val = t.val / 1000 * 1000 + (x 0).val ∧ (emb5 a t x 1).val = (x 1).val := by
  have hix : ((cfg5 a).win 1).index t = ![t.val / 1000, 0] := idx5_1 t
  have e0 := ((cfg5 a).win 1).rect_emb_val t x (0 : Fin 2)
  have e1 := ((cfg5 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after5_chunk (c : Dev nD) (t : Fin (cfg5 a).N) (x : S1000x128.Idx) :
    (dat5 V a c).after 1 t x = xChunk5 (tb5 a) (A5 V c) (V c main_arg1) (emb5 a t x) := by
  obtain ⟨e0, e1⟩ := emb5_val a t x
  have hx0 : (x 0).val < 1000 := (x 0).isLt
  rw [after5_1, wblk5_eq]
  unfold xChunk5
  have hq : (emb5 a t x 0).val / 1000 = t.val / 1000 := by rw [e0]; omega
  have hcell : cell5 ((emb5 a t x 0).val % 1000) (Nat.mod_lt _ (by decide)) (emb5 a t x 1) = x := by
    funext b
    apply Fin.ext
    match b with
    | ⟨0, _⟩ =>
      show (emb5 a t x 0).val % 1000 = (x 0).val
      rw [e0]; omega
    | ⟨1, _⟩ => exact e1
  rw [hq, hcell]

/-- Two entries of the output array with the same coordinates are the same. -/
theorem idx5_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb5_cell (t : Fin (cfg5 a).N) (i : S2000x128.Idx) (ht : t.val / 1000 = (i 0).val / 1000) :
    emb5 a t (cell5 ((i 0).val % 1000) (Nat.mod_lt _ (by decide)) (i 1)) = i := by
  obtain ⟨e0, e1⟩ := emb5_val a t (cell5 ((i 0).val % 1000) (Nat.mod_lt _ (by decide)) (i 1))
  refine idx5_ext _ _ ?_ e1
  rw [e0, ht]
  show (i 0).val / 1000 * 1000 + (i 0).val % 1000 = (i 0).val
  omega

/-- Every entry of the output array lies in the block written back after the last row of its block of rows. -/
theorem cover5 (i : S2000x128.Idx) :
    ∃ t : Fin (cfg5 a).N, ((cfg5 a).win 1).flush t = true ∧ i ∈ (((cfg5 a).win 1).blk t).view.set := by
  have hi0 : (i 0).val < 2000 := (i 0).isLt
  have hN : (i 0).val / 1000 * 1000 + 999 < (cfg5 a).N := by rw [N5]; omega
  refine ⟨⟨(i 0).val / 1000 * 1000 + 999, hN⟩, ?_, ?_⟩
  · rw [flush5_1]; exact decide_eq_true (by show ((i 0).val / 1000 * 1000 + 999) % 1000 = 999; omega)
  · refine Finset.mem_map.mpr ⟨cell5 ((i 0).val % 1000) (Nat.mod_lt _ (by decide)) (i 1), Finset.mem_univ _, ?_⟩
    exact emb5_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out5 (c : Dev nD) :
    (dat5 V a c).arrAt 1 (cfg5 a).N = (xChunk5 (tb5 a) (A5 V c) (V c main_arg1) : Vec F S2000x128 .f32) :=
  (dat5 V a c).arrAt_eq_of_cover 1 _
    (fun t _ => funext fun x => (after5_chunk V a c t x).trans (cast_eq _ _).symm)
    (cover5 a)

end Value

/-! ## The invariant's two ends -/

section Ends
variable (V : (c : Dev nD) → (b : Ref sig .tc) → Buf (Elt F) ((c : Thread nD τ).loc b)) (a : (pcfg5 (F := F)).Adm)

/-- The body's own transfer cells as the launch's protocol lists them: the 16 cells of its semaphore operand. -/
def osem5 : Fin 16 → SemLoc sig := fun k => SemLoc.dma (cc5_scratch2.ix (Shape.ofLane k))
/-- They are scoped, distinct, and none is a window's. -/
theorem ownSemFacts5 : Pipeline.OwnSemFacts spec5 osem5 := by decide
/-- The cells at zero, listed, are the cells as the body names them. -/
theorem cells5_eq (c : Dev nD) :
    (Pipeline.ownSems0 (Ix := Unit) (Name := ℕ) (U := UC) (Lvl := ℕ) (Val := Elt F) (τ := τ) osem5 c : sProp 𝕄) = cells24 c cc5_scratch2 := by
  rw [Pipeline.ownSems0_eq_of_list c osem5 [0, 1, 2, 3, 4, 5, 6, 7, 8, 9, 10, 11, 12, 13, 14, 15] (by decide) (by decide)]; rfl

/-- The launch's one table, held. -/
theorem prefHeld5_eq (c : Dev nD) (pf : pre5.Contents (Elt F)) :
    (Pipeline.prefHeld pre5 c (fun _ => fullShare) pf : sProp 𝕄) = (((c : Thread nD τ).loc main_v11) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X5 (c : Dev nD) : sProp 𝕄 :=
  iprop((∃ r, prngReg c r) ∗ Pipeline.ownSems0 (Ix := Unit) (Name := ℕ) (U := UC) (Lvl := ℕ) (Val := Elt F) (τ := τ) osem5 c
    ∗ (((c : Thread nD τ).loc main_arg0) ↦{fullShare} V c main_arg0))
abbrev Y5 (c : Dev nD) : sProp 𝕄 :=
  iprop((∃ r, prngReg c r) ∗ (((c : Thread nD τ).loc main_arg0) ↦{fullShare} V c main_arg0)
    ∗ Pipeline.prefHeld pre5 c (fun _ => fullShare) a.1)

/-- THE FIRST POINT: the invariant from what the launch's entry sorts out. Nothing is asked of the carried scratch. -/
theorem Phi5_in (c : Dev nD) :
    iprop(X5 V c ∗ Pipeline.prefHeld pre5 c (fun _ => fullShare) a.1
        ∗ Pipeline.scopedRest (Ix := Unit) (Name := ℕ) (U := UC) (Lvl := ℕ) (Val := Elt F) spec5 c)
      ⊢ (dat5 V a c).Φ 0 := by
  rw [Phi5_eq]
  unfold Φ5 X5
  rw [scopedRest5_split, prefHeld5_eq, cells5_eq]
  simp only [tbM5, hbM5, scM5_0, scM5_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK5_start _ _ _ rfl _
  isplitl [Hs1]; · iexact Hs1
  isplitl [Hcells]; · iexact Hcells
  isplitl [Hreg]; · iexact Hreg
  iexact Hrest

/-- THE LAST POINT: the invariant gives back what it took. -/
theorem Phi5_out (c : Dev nD) :
    (dat5 V a c).Φ (Fin.last _)
      ⊢ iprop(Y5 V a c ∗ Pipeline.ownSems0 (Ix := Unit) (Name := ℕ) (U := UC) (Lvl := ℕ) (Val := Elt F) (τ := τ) osem5 c
        ∗ Pipeline.scopedRest (Ix := Unit) (Name := ℕ) (U := UC) (Lvl := ℕ) (Val := Elt F) spec5 c) := by
  rw [Phi5_eq]
  unfold Φ5 Y5
  rw [scopedRest5_split, prefHeld5_eq, cells5_eq]
  simp only [tbM5, hbM5, scM5_0, scM5_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G6Dat.lean ====
/-
  One of the program's 25 gather launches (pipeline 6; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N6 (a : (pcfg6 (F := F)).Adm) : (cfg6 a).N = 2000 := N_6

/-- The body's branch is taken at the last row of a block of rows, -/
theorem cond6_iff : ∀ t : Fin grid6.N, k6_cond1 (grid6.coords t) = 1#1 ↔ t.val % 1000 = 999 := by decide +kernel
/-- the row a point works on is its number modulo 1000, -/
theorem rowAt6_coord : ∀ t : Fin grid6.N, (grid6.coords t 1).val = t.val % 1000 := by decide +kernel
/-- its block of rows is its number divided by 1000, -/
theorem blockAt6_coord : ∀ t : Fin grid6.N, (grid6.coords t 0).val = t.val / 1000 := by decide +kernel
/-- and the output's block index moves after exactly those points (and the grid ends at one). -/
theorem flushB6 : ∀ t : Fin grid6.N,
    (decide (t.val + 1 = grid6.N) || decide (∃ h : t.val + 1 < grid6.N, cc6_transform_2 (grid6.coords ⟨t.val + 1, h⟩) ≠ cc6_transform_2 (grid6.coords t)))
      = decide (t.val % 1000 = 999) := by decide +kernel

/-- The output's block index at a point: the point's block of rows. -/
theorem idx6_1 : ∀ t : Fin grid6.N, cc6_transform_2 (grid6.coords t) = ![t.val / 1000, 0] := by decide +kernel

/-- Every word of the launch's table names a row of the feature array. -/
def InRange6 (pf : pre6.Contents (Elt F)) : Prop := ∀ x : S16x2000.Idx, ((pf 0 : Vec F S16x2000 .i32) x).toNat < 100000

/-! ## The values -/

/-- Lane `l` of a one-row vector. -/
def lane6 (l : Fin 128) : S1x128.Idx := fun a => ⟨if a.val = 0 then 0 else l.val, by
  match a with
  | ⟨0, _⟩ => exact Nat.one_pos
  | ⟨1, _⟩ => exact l.isLt⟩

theorem lane6_one (l : Fin 128) : (lane6 l 1).val = l.val := rfl

/-- The grid point of row `r` of block `q` (total: the point number is taken modulo the grid's size). -/
def pt6 (q : ℕ) (r : ℕ) : Fin grid6.N := ⟨(q * 1000 + r) % grid6.N, Nat.mod_lt _ (by decide)⟩

/-- Inside the grid the point's number is `1000 q + r`. -/
theorem pt6_val (q r : ℕ) (hq : q < 2) (hr : r < 1000) : (pt6 q r).val = q * 1000 + r := by
  show (q * 1000 + r) % grid6.N = q * 1000 + r
  rw [N_6]; omega

/-- A point is the point of its block and row. -/
theorem pt6_self (t : Fin grid6.N) : pt6 (t.val / 1000) (t.val % 1000) = t := by
  apply Fin.ext
  show (t.val / 1000 * 1000 + t.val % 1000) % grid6.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means6 (tb : Vec F S16x2000 .i32) (A0 : Vec F S100000x128 .f32) (q : ℕ) : Vec F S1000x128 .f32 :=
  fun x => Gen.k24_pay1 (gath24 (grid6.coords (pt6 q (x 0).val)) tb A0) (lane6 (x 1))

/-- What the body stores in the output window at the last row of block `q`: the means, rounded, times the weight, rounded. -/
def xBlk6 (tb : Vec F S16x2000 .i32) (A0 : Vec F S100000x128 .f32) (Wt : Vec F S128x128 .f32) (q : ℕ) : Vec F S1000x128 .f32 :=
  Gen.k24_pay2 (means6 tb A0 q) Wt

/-- The carried scratch before point `n`: its rows below `n % 1000` are the means of block `n / 1000`. -/
def RowsOK6 (tb : Vec F S16x2000 .i32) (A0 : Vec F S100000x128 .f32) (n : ℕ) (g : Vec F S1000x128 .f32) : Prop :=
  ∀ x : S1000x128.Idx, (x 0).val < n % 1000 → g x = means6 tb A0 (n / 1000) x

/-- At the first row of a block nothing is asked. -/
theorem rowsOK6_start (tb : Vec F S16x2000 .i32) (A0 : Vec F S100000x128 .f32) (n : ℕ) (hn : n % 1000 = 0) (g : Vec F S1000x128 .f32) :
    RowsOK6 tb A0 n g := fun x hx => absurd hx (by omega)

/-- One point's row store keeps the invariant's rows and adds its own: after the store at point `t` the rows up to
    `t % 1000` are means. -/
theorem rowAt6_means (tb : Vec F S16x2000 .i32) (A0 : Vec F S100000x128 .f32) (t : Fin grid6.N) (g : Vec F S1000x128 .f32)
    (hg : RowsOK6 tb A0 t.val g) (x : S1000x128.Idx) (hx : (x 0).val ≤ t.val % 1000) :
    row24 (grid6.coords t) tb A0 g x = means6 tb A0 (t.val / 1000) x := by
  by_cases h : (x 0).val = t.val % 1000
  · rw [row24_of_eq (grid6.coords t) tb A0 g x (by rw [rowAt6_coord]; exact h) (lane6 (x 1)) rfl]
    unfold means6
    rw [h, pt6_self]
  · rw [row24_of_ne (grid6.coords t) tb A0 g x (by rw [rowAt6_coord]; exact h)]
    exact hg x (by omega)

/-- Within a block the invariant steps. -/
theorem rowsOK6_step (tb : Vec F S16x2000 .i32) (A0 : Vec F S100000x128 .f32) (t : Fin grid6.N) (g : Vec F S1000x128 .f32)
    (hg : RowsOK6 tb A0 t.val g) : RowsOK6 tb A0 (t.val + 1) (row24 (grid6.coords t) tb A0 g) := by
  by_cases hl : t.val % 1000 = 999
  · exact rowsOK6_start _ _ _ (by omega) _
  · intro x hx
    have h1 : (t.val + 1) / 1000 = t.val / 1000 := by omega
    rw [h1]
    exact rowAt6_means tb A0 t g hg x (by omega)

/-- At the last row of a block the scratch, after the row store, is the block's means whatever it held before. -/
theorem rowAt6_last (tb : Vec F S16x2000 .i32) (A0 : Vec F S100000x128 .f32) (t : Fin grid6.N) (hl : t.val % 1000 = 999)
    (g : Vec F S1000x128 .f32) (hg : RowsOK6 tb A0 t.val g) :
    row24 (grid6.coords t) tb A0 g = means6 tb A0 (t.val / 1000) :=
  funext fun x => rowAt6_means tb A0 t g hg x (by have : (x 0).val < 1000 := (x 0).isLt; omega)

/-! ## The invariant -/

/-- The launch's operands that no window stages, as the body is handed them: its table, the feature array left in
    HBM, and its two scratch buffers — whole buffers. -/
abbrev tbM6 : Memref sig .tc .smem S16x2000 .i32 := Memref.whole main_v13
abbrev hbM6 : Memref sig .tc .hbm S100000x128 .f32 := Memref.whole main_arg0
abbrev scM6_0 : Memref sig .tc .vmem S1000x128 .f32 := Memref.whole cc6_scratch0
abbrev scM6_1 : Memref sig .tc .vmem S16x128 .f32 := Memref.whole cc6_scratch1

section Region
-- the TensorCore's buffer contents when the launch is entered, and the launch's table
variable (V : (c : Dev nD) → (b : Ref sig .tc) → Buf (Elt F) ((c : Thread nD τ).loc b)) (a : (pcfg6 (F := F)).Adm)

/-- The table and the feature array, as vectors. -/
abbrev tb6 : Vec F S16x2000 .i32 := a.1 0
abbrev A6 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ6 (c : Dev nD) (n : ℕ) : sProp 𝕄 :=
  iprop(owns (c : Thread nD τ) tbM6 fullShare (tb6 a)
    ∗ owns (c : Thread nD τ) hbM6 fullShare (A6 V c)
    ∗ (∃ g : Vec F S1000x128 .f32, ⌜RowsOK6 (tb6 a) (A6 V c) n g⌝ ∗ owns (c : Thread nD τ) scM6_0 fullShare g)
    ∗ (∃ d, owns (c : Thread nD τ) scM6_1 fullShare d)
    ∗ cells24 c cc6_scratch2
    ∗ (∃ r, prngReg c r)
    ∗ Pipeline.scopedRestBut (Ix := Unit) (Name := ℕ) (U := UC) (Lvl := ℕ) (Val := Elt F) spec6 c [cc6_scratch0, cc6_scratch1])

/-! ## The windows' blocks and the proof data -/

/-- Window `w`'s block at point `t`, read off its array as the launch finds it. -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- The proof data of the launch on core `c`: the arrays as the launch finds them; after the body at point `t` the
    weight window at its block and the output window at the product for `t`'s block of rows (read only at the block's
    last row, where the body stores it); the invariant above; nothing owed; full shares. -/
def dat6 (c : Dev nD) : Dat τ (Elt F) Unit ℕ UC ℕ (cfg6 a) c where
  A w := V c (Pipeline.arrRef spec6 w)
  after w t := match w with
    | ⟨0, _⟩ => iblk6 V a c 0 t
    | ⟨1, _⟩ => xBlk6 (tb6 a) (A6 V c) (iblk6 V a c 0 t) (t.val / 1000)
  Φ n := Φ6 V a c n.val
  q _ := fullShare
  owed _ := 0

/-- The proof data's arrays are the entry contents. -/
theorem A_eq6 (c : Dev nD) (w : Fin (cfg6 a).W) : (dat6 V a c).A w = V c (Pipeline.arrRef spec6 w) := by
  dsimp only [dat6]

/-- What the body leaves, window by window. -/
theorem after6_0 (c : Dev nD) (t : Fin (cfg6 a).N) : (dat6 V a c).after 0 t = iblk6 V a c 0 t := by dsimp only [dat6]; rfl
theorem after6_1 (c : Dev nD) (t : Fin (cfg6 a).N) :
    (dat6 V a c).after 1 t = xBlk6 (tb6 a) (A6 V c) (iblk6 V a c 0 t) (t.val / 1000) := by dsimp only [dat6]; rfl

/-- The invariant and the tallies, at a point. -/
theorem Phi6_eq (c : Dev nD) (n : Fin ((cfg6 a).N + 1)) : (dat6 V a c).Φ n = Φ6 V a c n.val := by dsimp only [dat6]
theorem owed6_eq (c : Dev nD) (n : Fin ((cfg6 a).N + 1)) : (dat6 V a c).owed n = 0 := by dsimp only [dat6]

/-- The weight window holds its block at every point, fetched there or not: its block index never moves. -/
theorem before6_0 (c : Dev nD) (t : Fin (cfg6 a).N) (d) : (dat6 V a c).before 0 t d = iblk6 V a c 0 t :=
  ((dat6 V a c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

/-- The output window is written back after the last row of each block of rows, and only there; -/
theorem flush6_1 (t : Fin (cfg6 a).N) : ((cfg6 a).win 1).flush t = decide (t.val % 1000 = 999) := by
  unfold Window.flush
  exact flushB6 t
/-- and it is idle at every other row. -/
theorem idle6_1 (t : Fin (cfg6 a).N) : (cfg6 a).idle 1 ((cfg6 a).grid.coords t) = !decide (t.val % 1000 = 999) := by
  show (!(k6_cond1 (grid6.coords t) == 1#1)) = _
  congr 1
  by_cases h : t.val % 1000 = 999
  · rw [decide_eq_true h, (cond6_iff t).2 h]; rfl
  · rw [decide_eq_false h]
    exact beq_false_of_ne fun e => h ((cond6_iff t).1 e)

end Region

/-! ## The body obligation -/

section Body
variable (V : (c : Dev nD) → (b : Ref sig .tc) → Buf (Elt F) ((c : Thread nD τ).loc b)) (a : (pcfg6 (F := F)).Adm)

/-- Each window's current staging memref at point `t`, spelled as the pipeline passes it, and its wholeness. -/
abbrev ms6_0 (t : Fin (cfg6 a).N) : Memref sig .tc .vmem S128x128 .f32 := spec6_0.stage ((cfg6 a).slots t 0)
abbrev hs6_0 (t : Fin (cfg6 a).N) : (ms6_0 a t).IsWhole := hstage6_0 (((cfg6 a).slots t 0).cast nbuf6_0)
abbrev ms6_1 (t : Fin (cfg6 a).N) : Memref sig .tc .vmem S1000x128 .f32 := spec6_1.stage ((cfg6 a).slots t 1)
abbrev hs6_1 (t : Fin (cfg6 a).N) : (ms6_1 a t).IsWhole := hstage6_1 (((cfg6 a).slots t 1).cast nbuf6_1)

/-- The launch's body function, under the name the runs are stated at. -/
theorem bodyFn6_eq : cc6__gather_agg_matmul_kernel (F := F) = gatherFn := rfl

/-- The kernel body at point `t`, on what the pipeline calls it with. -/
abbrev bodyAt6 (t : Fin (cfg6 a).N) : Prog (TpuEff nD τ sig (Elt F) Λ₀ .tc) PUnit :=
  cc6__gather_agg_matmul_kernel (grid6.coords t) tbM6 (Memref.isWhole_whole _) hbM6 (Memref.isWhole_whole _)
    (ms6_0 a t) (hs6_0 a t) (ms6_1 a t) (hs6_1 a t) scM6_0 (Memref.isWhole_whole _) scM6_1 (Memref.isWhole_whole _) cc6_scratch2

/-- What the body is called with at point `t`, the windows one by one, -/
def bodyPre6 (c : Dev nD) (t : Fin (cfg6 a).N) : sProp 𝕄 :=
  iprop((dat6 V a c).Φ t.castSucc ∗ (dat6 V a c).owesAt () t.castSucc
    ∗ (∃ d, owns (c : Thread nD τ) (ms6_0 a t) fullShare ((dat6 V a c).before 0 t d))
    ∗ (∃ d, owns (c : Thread nD τ) (ms6_1 a t) fullShare ((dat6 V a c).before 1 t d)))

/-- and what it returns: the output window as it was found where the point is idle for it, at the block's product
    at the last row of a block. -/
def bodyPost6 (c : Dev nD) (t : Fin (cfg6 a).N) : sProp 𝕄 :=
  iprop((dat6 V a c).Φ t.succ ∗ (dat6 V a c).owesAt () t.succ
    ∗ owns (c : Thread nD τ) (ms6_0 a t) fullShare ((dat6 V a c).after 0 t)
    ∗ (match (cfg6 a).idle 1 ((cfg6 a).grid.coords t) with
        | true =>
          match ((cfg6 a).win 1).flush t with
          | false => iprop(∃ d, owns (c : Thread nD τ) (ms6_1 a t) fullShare ((dat6 V a c).before 1 t d))
          | true => owns (c : Thread nD τ) (ms6_1 a t) fullShare ((dat6 V a c).after 1 t)
        | false => owns (c : Thread nD τ) (ms6_1 a t) fullShare ((dat6 V a c).after 1 t)))

/-- The body at any point. The weight window holds its block; the invariant hands the body its table, the feature
    array, both scratch buffers and its transfer cells, and takes them back with the carried scratch one row further
    (`rowsOK6_step`); at the last row of a block the product the body stores is the block's (`rowAt6_last`); the core's
    `owes` goes in at whatever the points before recorded and comes back with this point's waits. -/
theorem sound_body6 (hR : InRange6 a.1) (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  rw [flush6_1, idle6_1]
  simp only [before6_0]
  rw [after6_0, Phi6_eq, Phi6_eq, Fin.val_succ, Fin.coe_castSucc]
  unfold Dat.owesAt Pipeline.owesWithin
  rw [owed6_eq, owed6_eq]
  unfold Φ6
  rw [bodyFn6_eq]
  by_cases hl : t.val % 1000 = 999
  · -- the last row of a block
    rw [decide_eq_true hl, Bool.not_true]
    dsimp only
    rw [after6_1]
    unfold xBlk6
    iintro ⟨⟨Htb, Hhb, ⟨%g, %hg, Hs0⟩, Hs1, Hcells, Hreg, Hrest⟩, ⟨%W, -, HW⟩, ⟨%d0, H0⟩, ⟨%d1, H1⟩⟩
    rw [← rowAt6_last (tb6 a) (A6 V c) t hl g hg]
    iapply (run24_last c (grid6.coords t) tbM6 (Memref.isWhole_whole _) hbM6 (Memref.isWhole_whole _) (ms6_0 a t) (hs6_0 a t)
      (ms6_1 a t) (hs6_1 a t) scM6_0 (Memref.isWhole_whole _) scM6_1 (Memref.isWhole_whole _) cc6_scratch2
      ((cond6_iff t).2 hl) (tb6 a) hR (A6 V c) (iblk6 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK6_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k6_cond1 (grid6.coords t) ≠ 1#1 := fun e => hl ((cond6_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid6.coords t) tbM6 (Memref.isWhole_whole _) hbM6 (Memref.isWhole_whole _) (ms6_0 a t) (hs6_0 a t)
      (ms6_1 a t) (hs6_1 a t) scM6_0 (Memref.isWhole_whole _) scM6_1 (Memref.isWhole_whole _) cc6_scratch2
      hc (tb6 a) hR (A6 V c) (iblk6 V a c 0 t) g
      (owns (c : Thread nD τ) (ms6_1 a t) fullShare ((dat6 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK6_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation6 (hR : InRange6 a.1) (c : Dev nD) :
    BodyObligation (dat6 (F := F) V a c) (defs₀ (F := F)) Variants.none () Set.univ := fun t => by
  rw [bigSep_W6, bigSep_W6]
  exact sound_body6 V a hR c t

end Body

/-! ## The value: what the launch leaves in its output array -/

section Value
variable (V : (c : Dev nD) → (b : Ref sig .tc) → Buf (Elt F) ((c : Thread nD τ).loc b)) (a : (pcfg6 (F := F)).Adm)

/-- Entry `(r, l)` of a block of rows. -/
def cell6 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk6 (tb : Vec F S16x2000 .i32) (A0 : Vec F S100000x128 .f32) (Wt : Vec F S128x128 .f32) : Vec F S2000x128 .f32 :=
  fun y => xBlk6 tb A0 Wt ((y 0).val / 1000) (cell6 ((y 0).val % 1000) (Nat.mod_lt _ (by decide)) (y 1))

/-- The weight window's block is the whole weight, at every point: its block index is (0, 0). -/
theorem wblk6_eq (c : Dev nD) (t : Fin (cfg6 a).N) : iblk6 V a c 0 t = (V c main_arg1 : Vec F S128x128 .f32) := by
  funext x
  unfold iblk6
  rw [View.read_apply]
  refine (cast_eq _ _).trans (congrArg (V c main_arg1) (funext fun b => Fin.ext ?_))
  refine (((cfg6 a).win 0).rect_emb_val_of_index_zero t b ?_ x)
  match b with
  | ⟨0, _⟩ => rfl
  | ⟨1, _⟩ => rfl

/-- Where entry `x` of the output window's block at point `t` sits in the output array. -/
abbrev emb6 (t : Fin (cfg6 a).N) (x : S1000x128.Idx) : S2000x128.Idx := (((cfg6 a).win 1).blk t).view.emb x

theorem emb6_val (t : Fin (cfg6 a).N) (x : S1000x128.Idx) :
    (emb6 a t x 0).val = t.val / 1000 * 1000 + (x 0).val ∧ (emb6 a t x 1).val = (x 1).val := by
  have hix : ((cfg6 a).win 1).index t = ![t.val / 1000, 0] := idx6_1 t
  have e0 := ((cfg6 a).win 1).rect_emb_val t x (0 : Fin 2)
  have e1 := ((cfg6 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after6_chunk (c : Dev nD) (t : Fin (cfg6 a).N) (x : S1000x128.Idx) :
    (dat6 V a c).after 1 t x = xChunk6 (tb6 a) (A6 V c) (V c main_arg1) (emb6 a t x) := by
  obtain ⟨e0, e1⟩ := emb6_val a t x
  have hx0 : (x 0).val < 1000 := (x 0).isLt
  rw [after6_1, wblk6_eq]
  unfold xChunk6
  have hq : (emb6 a t x 0).val / 1000 = t.val / 1000 := by rw [e0]; omega
  have hcell : cell6 ((emb6 a t x 0).val % 1000) (Nat.mod_lt _ (by decide)) (emb6 a t x 1) = x := by
    funext b
    apply Fin.ext
    match b with
    | ⟨0, _⟩ =>
      show (emb6 a t x 0).val % 1000 = (x 0).val
      rw [e0]; omega
    | ⟨1, _⟩ => exact e1
  rw [hq, hcell]

/-- Two entries of the output array with the same coordinates are the same. -/
theorem idx6_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb6_cell (t : Fin (cfg6 a).N) (i : S2000x128.Idx) (ht : t.val / 1000 = (i 0).val / 1000) :
    emb6 a t (cell6 ((i 0).val % 1000) (Nat.mod_lt _ (by decide)) (i 1)) = i := by
  obtain ⟨e0, e1⟩ := emb6_val a t (cell6 ((i 0).val % 1000) (Nat.mod_lt _ (by decide)) (i 1))
  refine idx6_ext _ _ ?_ e1
  rw [e0, ht]
  show (i 0).val / 1000 * 1000 + (i 0).val % 1000 = (i 0).val
  omega

/-- Every entry of the output array lies in the block written back after the last row of its block of rows. -/
theorem cover6 (i : S2000x128.Idx) :
    ∃ t : Fin (cfg6 a).N, ((cfg6 a).win 1).flush t = true ∧ i ∈ (((cfg6 a).win 1).blk t).view.set := by
  have hi0 : (i 0).val < 2000 := (i 0).isLt
  have hN : (i 0).val / 1000 * 1000 + 999 < (cfg6 a).N := by rw [N6]; omega
  refine ⟨⟨(i 0).val / 1000 * 1000 + 999, hN⟩, ?_, ?_⟩
  · rw [flush6_1]; exact decide_eq_true (by show ((i 0).val / 1000 * 1000 + 999) % 1000 = 999; omega)
  · refine Finset.mem_map.mpr ⟨cell6 ((i 0).val % 1000) (Nat.mod_lt _ (by decide)) (i 1), Finset.mem_univ _, ?_⟩
    exact emb6_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out6 (c : Dev nD) :
    (dat6 V a c).arrAt 1 (cfg6 a).N = (xChunk6 (tb6 a) (A6 V c) (V c main_arg1) : Vec F S2000x128 .f32) :=
  (dat6 V a c).arrAt_eq_of_cover 1 _
    (fun t _ => funext fun x => (after6_chunk V a c t x).trans (cast_eq _ _).symm)
    (cover6 a)

end Value

/-! ## The invariant's two ends -/

section Ends
variable (V : (c : Dev nD) → (b : Ref sig .tc) → Buf (Elt F) ((c : Thread nD τ).loc b)) (a : (pcfg6 (F := F)).Adm)

/-- The body's own transfer cells as the launch's protocol lists them: the 16 cells of its semaphore operand. -/
def osem6 : Fin 16 → SemLoc sig := fun k => SemLoc.dma (cc6_scratch2.ix (Shape.ofLane k))
/-- They are scoped, distinct, and none is a window's. -/
theorem ownSemFacts6 : Pipeline.OwnSemFacts spec6 osem6 := by decide
/-- The cells at zero, listed, are the cells as the body names them. -/
theorem cells6_eq (c : Dev nD) :
    (Pipeline.ownSems0 (Ix := Unit) (Name := ℕ) (U := UC) (Lvl := ℕ) (Val := Elt F) (τ := τ) osem6 c : sProp 𝕄) = cells24 c cc6_scratch2 := by
  rw [Pipeline.ownSems0_eq_of_list c osem6 [0, 1, 2, 3, 4, 5, 6, 7, 8, 9, 10, 11, 12, 13, 14, 15] (by decide) (by decide)]; rfl

/-- The launch's one table, held. -/
theorem prefHeld6_eq (c : Dev nD) (pf : pre6.Contents (Elt F)) :
    (Pipeline.prefHeld pre6 c (fun _ => fullShare) pf : sProp 𝕄) = (((c : Thread nD τ).loc main_v13) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X6 (c : Dev nD) : sProp 𝕄 :=
  iprop((∃ r, prngReg c r) ∗ Pipeline.ownSems0 (Ix := Unit) (Name := ℕ) (U := UC) (Lvl := ℕ) (Val := Elt F) (τ := τ) osem6 c
    ∗ (((c : Thread nD τ).loc main_arg0) ↦{fullShare} V c main_arg0))
abbrev Y6 (c : Dev nD) : sProp 𝕄 :=
  iprop((∃ r, prngReg c r) ∗ (((c : Thread nD τ).loc main_arg0) ↦{fullShare} V c main_arg0)
    ∗ Pipeline.prefHeld pre6 c (fun _ => fullShare) a.1)

/-- THE FIRST POINT: the invariant from what the launch's entry sorts out. Nothing is asked of the carried scratch. -/
theorem Phi6_in (c : Dev nD) :
    iprop(X6 V c ∗ Pipeline.prefHeld pre6 c (fun _ => fullShare) a.1
        ∗ Pipeline.scopedRest (Ix := Unit) (Name := ℕ) (U := UC) (Lvl := ℕ) (Val := Elt F) spec6 c)
      ⊢ (dat6 V a c).Φ 0 := by
  rw [Phi6_eq]
  unfold Φ6 X6
  rw [scopedRest6_split, prefHeld6_eq, cells6_eq]
  simp only [tbM6, hbM6, scM6_0, scM6_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK6_start _ _ _ rfl _
  isplitl [Hs1]; · iexact Hs1
  isplitl [Hcells]; · iexact Hcells
  isplitl [Hreg]; · iexact Hreg
  iexact Hrest

/-- THE LAST POINT: the invariant gives back what it took. -/
theorem Phi6_out (c : Dev nD) :
    (dat6 V a c).Φ (Fin.last _)
      ⊢ iprop(Y6 V a c ∗ Pipeline.ownSems0 (Ix := Unit) (Name := ℕ) (U := UC) (Lvl := ℕ) (Val := Elt F) (τ := τ) osem6 c
        ∗ Pipeline.scopedRest (Ix := Unit) (Name := ℕ) (U := UC) (Lvl := ℕ) (Val := Elt F) spec6 c) := by
  rw [Phi6_eq]
  unfold Φ6 Y6
  rw [scopedRest6_split, prefHeld6_eq, cells6_eq]
  simp only [tbM6, hbM6, scM6_0, scM6_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G7Dat.lean ====
/-
  One of the program's 25 gather launches (pipeline 7; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N7 (a : (pcfg7 (F := F)).Adm) : (cfg7 a).N = 2000 := N_7

/-- The body's branch is taken at the last row of a block of rows, -/
theorem cond7_iff : ∀ t : Fin grid7.N, k7_cond1 (grid7.coords t) = 1#1 ↔ t.val % 1000 = 999 := by decide +kernel
/-- the row a point works on is its number modulo 1000, -/
theorem rowAt7_coord : ∀ t : Fin grid7.N, (grid7.coords t 1).val = t.val % 1000 := by decide +kernel
/-- its block of rows is its number divided by 1000, -/
theorem blockAt7_coord : ∀ t : Fin grid7.N, (grid7.coords t 0).val = t.val / 1000 := by decide +kernel
/-- and the output's block index moves after exactly those points (and the grid ends at one). -/
theorem flushB7 : ∀ t : Fin grid7.N,
    (decide (t.val + 1 = grid7.N) || decide (∃ h : t.val + 1 < grid7.N, cc7_transform_2 (grid7.coords ⟨t.val + 1, h⟩) ≠ cc7_transform_2 (grid7.coords t)))
      = decide (t.val % 1000 = 999) := by decide +kernel

/-- The output's block index at a point: the point's block of rows. -/
theorem idx7_1 : ∀ t : Fin grid7.N, cc7_transform_2 (grid7.coords t) = ![t.val / 1000, 0] := by decide +kernel

/-- Every word of the launch's table names a row of the feature array. -/
def InRange7 (pf : pre7.Contents (Elt F)) : Prop := ∀ x : S16x2000.Idx, ((pf 0 : Vec F S16x2000 .i32) x).toNat < 100000

/-! ## The values -/

/-- Lane `l` of a one-row vector. -/
def lane7 (l : Fin 128) : S1x128.Idx := fun a => ⟨if a.val = 0 then 0 else l.val, by
  match a with
  | ⟨0, _⟩ => exact Nat.one_pos
  | ⟨1, _⟩ => exact l.isLt⟩

theorem lane7_one (l : Fin 128) : (lane7 l 1).val = l.val := rfl

/-- The grid point of row `r` of block `q` (total: the point number is taken modulo the grid's size). -/
def pt7 (q : ℕ) (r : ℕ) : Fin grid7.N := ⟨(q * 1000 + r) % grid7.N, Nat.mod_lt _ (by decide)⟩

/-- Inside the grid the point's number is `1000 q + r`. -/
theorem pt7_val (q r : ℕ) (hq : q < 2) (hr : r < 1000) : (pt7 q r).val = q * 1000 + r := by
  show (q * 1000 + r) % grid7.N = q * 1000 + r
  rw [N_7]; omega

/-- A point is the point of its block and row. -/
theorem pt7_self (t : Fin grid7.N) : pt7 (t.val / 1000) (t.val % 1000) = t := by
  apply Fin.ext
  show (t.val / 1000 * 1000 + t.val % 1000) % grid7.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means7 (tb : Vec F S16x2000 .i32) (A0 : Vec F S100000x128 .f32) (q : ℕ) : Vec F S1000x128 .f32 :=
  fun x => Gen.k24_pay1 (gath24 (grid7.coords (pt7 q (x 0).val)) tb A0) (lane7 (x 1))

/-- What the body stores in the output window at the last row of block `q`: the means, rounded, times the weight, rounded. -/
def xBlk7 (tb : Vec F S16x2000 .i32) (A0 : Vec F S100000x128 .f32) (Wt : Vec F S128x128 .f32) (q : ℕ) : Vec F S1000x128 .f32 :=
  Gen.k24_pay2 (means7 tb A0 q) Wt

/-- The carried scratch before point `n`: its rows below `n % 1000` are the means of block `n / 1000`. -/
def RowsOK7 (tb : Vec F S16x2000 .i32) (A0 : Vec F S100000x128 .f32) (n : ℕ) (g : Vec F S1000x128 .f32) : Prop :=
  ∀ x : S1000x128.Idx, (x 0).val < n % 1000 → g x = means7 tb A0 (n / 1000) x

/-- At the first row of a block nothing is asked. -/
theorem rowsOK7_start (tb : Vec F S16x2000 .i32) (A0 : Vec F S100000x128 .f32) (n : ℕ) (hn : n % 1000 = 0) (g : Vec F S1000x128 .f32) :
    RowsOK7 tb A0 n g := fun x hx => absurd hx (by omega)

/-- One point's row store keeps the invariant's rows and adds its own: after the store at point `t` the rows up to
    `t % 1000` are means. -/
theorem rowAt7_means (tb : Vec F S16x2000 .i32) (A0 : Vec F S100000x128 .f32) (t : Fin grid7.N) (g : Vec F S1000x128 .f32)
    (hg : RowsOK7 tb A0 t.val g) (x : S1000x128.Idx) (hx : (x 0).val ≤ t.val % 1000) :
    row24 (grid7.coords t) tb A0 g x = means7 tb A0 (t.val / 1000) x := by
  by_cases h : (x 0).val = t.val % 1000
  · rw [row24_of_eq (grid7.coords t) tb A0 g x (by rw [rowAt7_coord]; exact h) (lane7 (x 1)) rfl]
    unfold means7
    rw [h, pt7_self]
  · rw [row24_of_ne (grid7.coords t) tb A0 g x (by rw [rowAt7_coord]; exact h)]
    exact hg x (by omega)

/-- Within a block the invariant steps. -/
theorem rowsOK7_step (tb : Vec F S16x2000 .i32) (A0 : Vec F S100000x128 .f32) (t : Fin grid7.N) (g : Vec F S1000x128 .f32)
    (hg : RowsOK7 tb A0 t.val g) : RowsOK7 tb A0 (t.val + 1) (row24 (grid7.coords t) tb A0 g) := by
  by_cases hl : t.val % 1000 = 999
  · exact rowsOK7_start _ _ _ (by omega) _
  · intro x hx
    have h1 : (t.val + 1) / 1000 = t.val / 1000 := by omega
    rw [h1]
    exact rowAt7_means tb A0 t g hg x (by omega)

/-- At the last row of a block the scratch, after the row store, is the block's means whatever it held before. -/
theorem rowAt7_last (tb : Vec F S16x2000 .i32) (A0 : Vec F S100000x128 .f32) (t : Fin grid7.N) (hl : t.val % 1000 = 999)
    (g : Vec F S1000x128 .f32) (hg : RowsOK7 tb A0 t.val g) :
    row24 (grid7.coords t) tb A0 g = means7 tb A0 (t.val / 1000) :=
  funext fun x => rowAt7_means tb A0 t g hg x (by have : (x 0).val < 1000 := (x 0).isLt; omega)

/-! ## The invariant -/

/-- The launch's operands that no window stages, as the body is handed them: its table, the feature array left in
    HBM, and its two scratch buffers — whole buffers. -/
abbrev tbM7 : Memref sig .tc .smem S16x2000 .i32 := Memref.whole main_v15
abbrev hbM7 : Memref sig .tc .hbm S100000x128 .f32 := Memref.whole main_arg0
abbrev scM7_0 : Memref sig .tc .vmem S1000x128 .f32 := Memref.whole cc7_scratch0
abbrev scM7_1 : Memref sig .tc .vmem S16x128 .f32 := Memref.whole cc7_scratch1

section Region
-- the TensorCore's buffer contents when the launch is entered, and the launch's table
variable (V : (c : Dev nD) → (b : Ref sig .tc) → Buf (Elt F) ((c : Thread nD τ).loc b)) (a : (pcfg7 (F := F)).Adm)

/-- The table and the feature array, as vectors. -/
abbrev tb7 : Vec F S16x2000 .i32 := a.1 0
abbrev A7 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ7 (c : Dev nD) (n : ℕ) : sProp 𝕄 :=
  iprop(owns (c : Thread nD τ) tbM7 fullShare (tb7 a)
    ∗ owns (c : Thread nD τ) hbM7 fullShare (A7 V c)
    ∗ (∃ g : Vec F S1000x128 .f32, ⌜RowsOK7 (tb7 a) (A7 V c) n g⌝ ∗ owns (c : Thread nD τ) scM7_0 fullShare g)
    ∗ (∃ d, owns (c : Thread nD τ) scM7_1 fullShare d)
    ∗ cells24 c cc7_scratch2
    ∗ (∃ r, prngReg c r)
    ∗ Pipeline.scopedRestBut (Ix := Unit) (Name := ℕ) (U := UC) (Lvl := ℕ) (Val := Elt F) spec7 c [cc7_scratch0, cc7_scratch1])

/-! ## The windows' blocks and the proof data -/

/-- Window `w`'s block at point `t`, read off its array as the launch finds it. -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- The proof data of the launch on core `c`: the arrays as the launch finds them; after the body at point `t` the
    weight window at its block and the output window at the product for `t`'s block of rows (read only at the block's
    last row, where the body stores it); the invariant above; nothing owed; full shares. -/
def dat7 (c : Dev nD) : Dat τ (Elt F) Unit ℕ UC ℕ (cfg7 a) c where
  A w := V c (Pipeline.arrRef spec7 w)
  after w t := match w with
    | ⟨0, _⟩ => iblk7 V a c 0 t
    | ⟨1, _⟩ => xBlk7 (tb7 a) (A7 V c) (iblk7 V a c 0 t) (t.val / 1000)
  Φ n := Φ7 V a c n.val
  q _ := fullShare
  owed _ := 0

/-- The proof data's arrays are the entry contents. -/
theorem A_eq7 (c : Dev nD) (w : Fin (cfg7 a).W) : (dat7 V a c).A w = V c (Pipeline.arrRef spec7 w) := by
  dsimp only [dat7]

/-- What the body leaves, window by window. -/
theorem after7_0 (c : Dev nD) (t : Fin (cfg7 a).N) : (dat7 V a c).after 0 t = iblk7 V a c 0 t := by dsimp only [dat7]; rfl
theorem after7_1 (c : Dev nD) (t : Fin (cfg7 a).N) :
    (dat7 V a c).after 1 t = xBlk7 (tb7 a) (A7 V c) (iblk7 V a c 0 t) (t.val / 1000) := by dsimp only [dat7]; rfl

/-- The invariant and the tallies, at a point. -/
theorem Phi7_eq (c : Dev nD) (n : Fin ((cfg7 a).N + 1)) : (dat7 V a c).Φ n = Φ7 V a c n.val := by dsimp only [dat7]
theorem owed7_eq (c : Dev nD) (n : Fin ((cfg7 a).N + 1)) : (dat7 V a c).owed n = 0 := by dsimp only [dat7]

/-- The weight window holds its block at every point, fetched there or not: its block index never moves. -/
theorem before7_0 (c : Dev nD) (t : Fin (cfg7 a).N) (d) : (dat7 V a c).before 0 t d = iblk7 V a c 0 t :=
  ((dat7 V a c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

/-- The output window is written back after the last row of each block of rows, and only there; -/
theorem flush7_1 (t : Fin (cfg7 a).N) : ((cfg7 a).win 1).flush t = decide (t.val % 1000 = 999) := by
  unfold Window.flush
  exact flushB7 t
/-- and it is idle at every other row. -/
theorem idle7_1 (t : Fin (cfg7 a).N) : (cfg7 a).idle 1 ((cfg7 a).grid.coords t) = !decide (t.val % 1000 = 999) := by
  show (!(k7_cond1 (grid7.coords t) == 1#1)) = _
  congr 1
  by_cases h : t.val % 1000 = 999
  · rw [decide_eq_true h, (cond7_iff t).2 h]; rfl
  · rw [decide_eq_false h]
    exact beq_false_of_ne fun e => h ((cond7_iff t).1 e)

end Region

/-! ## The body obligation -/

section Body
variable (V : (c : Dev nD) → (b : Ref sig .tc) → Buf (Elt F) ((c : Thread nD τ).loc b)) (a : (pcfg7 (F := F)).Adm)

/-- Each window's current staging memref at point `t`, spelled as the pipeline passes it, and its wholeness. -/
abbrev ms7_0 (t : Fin (cfg7 a).N) : Memref sig .tc .vmem S128x128 .f32 := spec7_0.stage ((cfg7 a).slots t 0)
abbrev hs7_0 (t : Fin (cfg7 a).N) : (ms7_0 a t).IsWhole := hstage7_0 (((cfg7 a).slots t 0).cast nbuf7_0)
abbrev ms7_1 (t : Fin (cfg7 a).N) : Memref sig .tc .vmem S1000x128 .f32 := spec7_1.stage ((cfg7 a).slots t 1)
abbrev hs7_1 (t : Fin (cfg7 a).N) : (ms7_1 a t).IsWhole := hstage7_1 (((cfg7 a).slots t 1).cast nbuf7_1)

/-- The launch's body function, under the name the runs are stated at. -/
theorem bodyFn7_eq : cc7__gather_agg_matmul_kernel (F := F) = gatherFn := rfl

/-- The kernel body at point `t`, on what the pipeline calls it with. -/
abbrev bodyAt7 (t : Fin (cfg7 a).N) : Prog (TpuEff nD τ sig (Elt F) Λ₀ .tc) PUnit :=
  cc7__gather_agg_matmul_kernel (grid7.coords t) tbM7 (Memref.isWhole_whole _) hbM7 (Memref.isWhole_whole _)
    (ms7_0 a t) (hs7_0 a t) (ms7_1 a t) (hs7_1 a t) scM7_0 (Memref.isWhole_whole _) scM7_1 (Memref.isWhole_whole _) cc7_scratch2

/-- What the body is called with at point `t`, the windows one by one, -/
def bodyPre7 (c : Dev nD) (t : Fin (cfg7 a).N) : sProp 𝕄 :=
  iprop((dat7 V a c).Φ t.castSucc ∗ (dat7 V a c).owesAt () t.castSucc
    ∗ (∃ d, owns (c : Thread nD τ) (ms7_0 a t) fullShare ((dat7 V a c).before 0 t d))
    ∗ (∃ d, owns (c : Thread nD τ) (ms7_1 a t) fullShare ((dat7 V a c).before 1 t d)))

/-- and what it returns: the output window as it was found where the point is idle for it, at the block's product
    at the last row of a block. -/
def bodyPost7 (c : Dev nD) (t : Fin (cfg7 a).N) : sProp 𝕄 :=
  iprop((dat7 V a c).Φ t.succ ∗ (dat7 V a c).owesAt () t.succ
    ∗ owns (c : Thread nD τ) (ms7_0 a t) fullShare ((dat7 V a c).after 0 t)
    ∗ (match (cfg7 a).idle 1 ((cfg7 a).grid.coords t) with
        | true =>
          match ((cfg7 a).win 1).flush t with
          | false => iprop(∃ d, owns (c : Thread nD τ) (ms7_1 a t) fullShare ((dat7 V a c).before 1 t d))
          | true => owns (c : Thread nD τ) (ms7_1 a t) fullShare ((dat7 V a c).after 1 t)
        | false => owns (c : Thread nD τ) (ms7_1 a t) fullShare ((dat7 V a c).after 1 t)))

/-- The body at any point. The weight window holds its block; the invariant hands the body its table, the feature
    array, both scratch buffers and its transfer cells, and takes them back with the carried scratch one row further
    (`rowsOK7_step`); at the last row of a block the product the body stores is the block's (`rowAt7_last`); the core's
    `owes` goes in at whatever the points before recorded and comes back with this point's waits. -/
theorem sound_body7 (hR : InRange7 a.1) (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7 bodyAt7
  rw [flush7_1, idle7_1]
  simp only [before7_0]
  rw [after7_0, Phi7_eq, Phi7_eq, Fin.val_succ, Fin.coe_castSucc]
  unfold Dat.owesAt Pipeline.owesWithin
  rw [owed7_eq, owed7_eq]
  unfold Φ7
  rw [bodyFn7_eq]
  by_cases hl : t.val % 1000 = 999
  · -- the last row of a block
    rw [decide_eq_true hl, Bool.not_true]
    dsimp only
    rw [after7_1]
    unfold xBlk7
    iintro ⟨⟨Htb, Hhb, ⟨%g, %hg, Hs0⟩, Hs1, Hcells, Hreg, Hrest⟩, ⟨%W, -, HW⟩, ⟨%d0, H0⟩, ⟨%d1, H1⟩⟩
    rw [← rowAt7_last (tb7 a) (A7 V c) t hl g hg]
    iapply (run24_last c (grid7.coords t) tbM7 (Memref.isWhole_whole _) hbM7 (Memref.isWhole_whole _) (ms7_0 a t) (hs7_0 a t)
      (ms7_1 a t) (hs7_1 a t) scM7_0 (Memref.isWhole_whole _) scM7_1 (Memref.isWhole_whole _) cc7_scratch2
      ((cond7_iff t).2 hl) (tb7 a) hR (A7 V c) (iblk7 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK7_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k7_cond1 (grid7.coords t) ≠ 1#1 := fun e => hl ((cond7_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid7.coords t) tbM7 (Memref.isWhole_whole _) hbM7 (Memref.isWhole_whole _) (ms7_0 a t) (hs7_0 a t)
      (ms7_1 a t) (hs7_1 a t) scM7_0 (Memref.isWhole_whole _) scM7_1 (Memref.isWhole_whole _) cc7_scratch2
      hc (tb7 a) hR (A7 V c) (iblk7 V a c 0 t) g
      (owns (c : Thread nD τ) (ms7_1 a t) fullShare ((dat7 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK7_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation7 (hR : InRange7 a.1) (c : Dev nD) :
    BodyObligation (dat7 (F := F) V a c) (defs₀ (F := F)) Variants.none () Set.univ := fun t => by
  rw [bigSep_W7, bigSep_W7]
  exact sound_body7 V a hR c t

end Body

/-! ## The value: what the launch leaves in its output array -/

section Value
variable (V : (c : Dev nD) → (b : Ref sig .tc) → Buf (Elt F) ((c : Thread nD τ).loc b)) (a : (pcfg7 (F := F)).Adm)

/-- Entry `(r, l)` of a block of rows. -/
def cell7 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk7 (tb : Vec F S16x2000 .i32) (A0 : Vec F S100000x128 .f32) (Wt : Vec F S128x128 .f32) : Vec F S2000x128 .f32 :=
  fun y => xBlk7 tb A0 Wt ((y 0).val / 1000) (cell7 ((y 0).val % 1000) (Nat.mod_lt _ (by decide)) (y 1))

/-- The weight window's block is the whole weight, at every point: its block index is (0, 0). -/
theorem wblk7_eq (c : Dev nD) (t : Fin (cfg7 a).N) : iblk7 V a c 0 t = (V c main_arg1 : Vec F S128x128 .f32) := by
  funext x
  unfold iblk7
  rw [View.read_apply]
  refine (cast_eq _ _).trans (congrArg (V c main_arg1) (funext fun b => Fin.ext ?_))
  refine (((cfg7 a).win 0).rect_emb_val_of_index_zero t b ?_ x)
  match b with
  | ⟨0, _⟩ => rfl
  | ⟨1, _⟩ => rfl

/-- Where entry `x` of the output window's block at point `t` sits in the output array. -/
abbrev emb7 (t : Fin (cfg7 a).N) (x : S1000x128.Idx) : S2000x128.Idx := (((cfg7 a).win 1).blk t).view.emb x

theorem emb7_val (t : Fin (cfg7 a).N) (x : S1000x128.Idx) :
    (emb7 a t x 0).val = t.val / 1000 * 1000 + (x 0).val ∧ (emb7 a t x 1).val = (x 1).val := by
  have hix : ((cfg7 a).win 1).index t = ![t.val / 1000, 0] := idx7_1 t
  have e0 := ((cfg7 a).win 1).rect_emb_val t x (0 : Fin 2)
  have e1 := ((cfg7 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after7_chunk (c : Dev nD) (t : Fin (cfg7 a).N) (x : S1000x128.Idx) :
    (dat7 V a c).after 1 t x = xChunk7 (tb7 a) (A7 V c) (V c main_arg1) (emb7 a t x) := by
  obtain ⟨e0, e1⟩ := emb7_val a t x
  have hx0 : (x 0).val < 1000 := (x 0).isLt
  rw [after7_1, wblk7_eq]
  unfold xChunk7
  have hq : (emb7 a t x 0).val / 1000 = t.val / 1000 := by rw [e0]; omega
  have hcell : cell7 ((emb7 a t x 0).val % 1000) (Nat.mod_lt _ (by decide)) (emb7 a t x 1) = x := by
    funext b
    apply Fin.ext
    match b with
    | ⟨0, _⟩ =>
      show (emb7 a t x 0).val % 1000 = (x 0).val
      rw [e0]; omega
    | ⟨1, _⟩ => exact e1
  rw [hq, hcell]

/-- Two entries of the output array with the same coordinates are the same. -/
theorem idx7_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb7_cell (t : Fin (cfg7 a).N) (i : S2000x128.Idx) (ht : t.val / 1000 = (i 0).val / 1000) :
    emb7 a t (cell7 ((i 0).val % 1000) (Nat.mod_lt _ (by decide)) (i 1)) = i := by
  obtain ⟨e0, e1⟩ := emb7_val a t (cell7 ((i 0).val % 1000) (Nat.mod_lt _ (by decide)) (i 1))
  refine idx7_ext _ _ ?_ e1
  rw [e0, ht]
  show (i 0).val / 1000 * 1000 + (i 0).val % 1000 = (i 0).val
  omega

/-- Every entry of the output array lies in the block written back after the last row of its block of rows. -/
theorem cover7 (i : S2000x128.Idx) :
    ∃ t : Fin (cfg7 a).N, ((cfg7 a).win 1).flush t = true ∧ i ∈ (((cfg7 a).win 1).blk t).view.set := by
  have hi0 : (i 0).val < 2000 := (i 0).isLt
  have hN : (i 0).val / 1000 * 1000 + 999 < (cfg7 a).N := by rw [N7]; omega
  refine ⟨⟨(i 0).val / 1000 * 1000 + 999, hN⟩, ?_, ?_⟩
  · rw [flush7_1]; exact decide_eq_true (by show ((i 0).val / 1000 * 1000 + 999) % 1000 = 999; omega)
  · refine Finset.mem_map.mpr ⟨cell7 ((i 0).val % 1000) (Nat.mod_lt _ (by decide)) (i 1), Finset.mem_univ _, ?_⟩
    exact emb7_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out7 (c : Dev nD) :
    (dat7 V a c).arrAt 1 (cfg7 a).N = (xChunk7 (tb7 a) (A7 V c) (V c main_arg1) : Vec F S2000x128 .f32) :=
  (dat7 V a c).arrAt_eq_of_cover 1 _
    (fun t _ => funext fun x => (after7_chunk V a c t x).trans (cast_eq _ _).symm)
    (cover7 a)

end Value

/-! ## The invariant's two ends -/

section Ends
variable (V : (c : Dev nD) → (b : Ref sig .tc) → Buf (Elt F) ((c : Thread nD τ).loc b)) (a : (pcfg7 (F := F)).Adm)

/-- The body's own transfer cells as the launch's protocol lists them: the 16 cells of its semaphore operand. -/
def osem7 : Fin 16 → SemLoc sig := fun k => SemLoc.dma (cc7_scratch2.ix (Shape.ofLane k))
/-- They are scoped, distinct, and none is a window's. -/
theorem ownSemFacts7 : Pipeline.OwnSemFacts spec7 osem7 := by decide
/-- The cells at zero, listed, are the cells as the body names them. -/
theorem cells7_eq (c : Dev nD) :
    (Pipeline.ownSems0 (Ix := Unit) (Name := ℕ) (U := UC) (Lvl := ℕ) (Val := Elt F) (τ := τ) osem7 c : sProp 𝕄) = cells24 c cc7_scratch2 := by
  rw [Pipeline.ownSems0_eq_of_list c osem7 [0, 1, 2, 3, 4, 5, 6, 7, 8, 9, 10, 11, 12, 13, 14, 15] (by decide) (by decide)]; rfl

/-- The launch's one table, held. -/
theorem prefHeld7_eq (c : Dev nD) (pf : pre7.Contents (Elt F)) :
    (Pipeline.prefHeld pre7 c (fun _ => fullShare) pf : sProp 𝕄) = (((c : Thread nD τ).loc main_v15) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X7 (c : Dev nD) : sProp 𝕄 :=
  iprop((∃ r, prngReg c r) ∗ Pipeline.ownSems0 (Ix := Unit) (Name := ℕ) (U := UC) (Lvl := ℕ) (Val := Elt F) (τ := τ) osem7 c
    ∗ (((c : Thread nD τ).loc main_arg0) ↦{fullShare} V c main_arg0))
abbrev Y7 (c : Dev nD) : sProp 𝕄 :=
  iprop((∃ r, prngReg c r) ∗ (((c : Thread nD τ).loc main_arg0) ↦{fullShare} V c main_arg0)
    ∗ Pipeline.prefHeld pre7 c (fun _ => fullShare) a.1)

/-- THE FIRST POINT: the invariant from what the launch's entry sorts out. Nothing is asked of the carried scratch. -/
theorem Phi7_in (c : Dev nD) :
    iprop(X7 V c ∗ Pipeline.prefHeld pre7 c (fun _ => fullShare) a.1
        ∗ Pipeline.scopedRest (Ix := Unit) (Name := ℕ) (U := UC) (Lvl := ℕ) (Val := Elt F) spec7 c)
      ⊢ (dat7 V a c).Φ 0 := by
  rw [Phi7_eq]
  unfold Φ7 X7
  rw [scopedRest7_split, prefHeld7_eq, cells7_eq]
  simp only [tbM7, hbM7, scM7_0, scM7_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK7_start _ _ _ rfl _
  isplitl [Hs1]; · iexact Hs1
  isplitl [Hcells]; · iexact Hcells
  isplitl [Hreg]; · iexact Hreg
  iexact Hrest

/-- THE LAST POINT: the invariant gives back what it took. -/
theorem Phi7_out (c : Dev nD) :
    (dat7 V a c).Φ (Fin.last _)
      ⊢ iprop(Y7 V a c ∗ Pipeline.ownSems0 (Ix := Unit) (Name := ℕ) (U := UC) (Lvl := ℕ) (Val := Elt F) (τ := τ) osem7 c
        ∗ Pipeline.scopedRest (Ix := Unit) (Name := ℕ) (U := UC) (Lvl := ℕ) (Val := Elt F) spec7 c) := by
  rw [Phi7_eq]
  unfold Φ7 Y7
  rw [scopedRest7_split, prefHeld7_eq, cells7_eq]
  simp only [tbM7, hbM7, scM7_0, scM7_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G8Dat.lean ====
/-
  One of the program's 25 gather launches (pipeline 8; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N8 (a : (pcfg8 (F := F)).Adm) : (cfg8 a).N = 2000 := N_8

/-- The body's branch is taken at the last row of a block of rows, -/
theorem cond8_iff : ∀ t : Fin grid8.N, k8_cond1 (grid8.coords t) = 1#1 ↔ t.val % 1000 = 999 := by decide +kernel
/-- the row a point works on is its number modulo 1000, -/
theorem rowAt8_coord : ∀ t : Fin grid8.N, (grid8.coords t 1).val = t.val % 1000 := by decide +kernel
/-- its block of rows is its number divided by 1000, -/
theorem blockAt8_coord : ∀ t : Fin grid8.N, (grid8.coords t 0).val = t.val / 1000 := by decide +kernel
/-- and the output's block index moves after exactly those points (and the grid ends at one). -/
theorem flushB8 : ∀ t : Fin grid8.N,
    (decide (t.val + 1 = grid8.N) || decide (∃ h : t.val + 1 < grid8.N, cc8_transform_2 (grid8.coords ⟨t.val + 1, h⟩) ≠ cc8_transform_2 (grid8.coords t)))
      = decide (t.val % 1000 = 999) := by decide +kernel

/-- The output's block index at a point: the point's block of rows. -/
theorem idx8_1 : ∀ t : Fin grid8.N, cc8_transform_2 (grid8.coords t) = ![t.val / 1000, 0] := by decide +kernel

/-- Every word of the launch's table names a row of the feature array. -/
def InRange8 (pf : pre8.Contents (Elt F)) : Prop := ∀ x : S16x2000.Idx, ((pf 0 : Vec F S16x2000 .i32) x).toNat < 100000

/-! ## The values -/

/-- Lane `l` of a one-row vector. -/
def lane8 (l : Fin 128) : S1x128.Idx := fun a => ⟨if a.val = 0 then 0 else l.val, by
  match a with
  | ⟨0, _⟩ => exact Nat.one_pos
  | ⟨1, _⟩ => exact l.isLt⟩

theorem lane8_one (l : Fin 128) : (lane8 l 1).val = l.val := rfl

/-- The grid point of row `r` of block `q` (total: the point number is taken modulo the grid's size). -/
def pt8 (q : ℕ) (r : ℕ) : Fin grid8.N := ⟨(q * 1000 + r) % grid8.N, Nat.mod_lt _ (by decide)⟩

/-- Inside the grid the point's number is `1000 q + r`. -/
theorem pt8_val (q r : ℕ) (hq : q < 2) (hr : r < 1000) : (pt8 q r).val = q * 1000 + r := by
  show (q * 1000 + r) % grid8.N = q * 1000 + r
  rw [N_8]; omega

/-- A point is the point of its block and row. -/
theorem pt8_self (t : Fin grid8.N) : pt8 (t.val / 1000) (t.val % 1000) = t := by
  apply Fin.ext
  show (t.val / 1000 * 1000 + t.val % 1000) % grid8.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means8 (tb : Vec F S16x2000 .i32) (A0 : Vec F S100000x128 .f32) (q : ℕ) : Vec F S1000x128 .f32 :=
  fun x => Gen.k24_pay1 (gath24 (grid8.coords (pt8 q (x 0).val)) tb A0) (lane8 (x 1))

/-- What the body stores in the output window at the last row of block `q`: the means, rounded, times the weight, rounded. -/
def xBlk8 (tb : Vec F S16x2000 .i32) (A0 : Vec F S100000x128 .f32) (Wt : Vec F S128x128 .f32) (q : ℕ) : Vec F S1000x128 .f32 :=
  Gen.k24_pay2 (means8 tb A0 q) Wt

/-- The carried scratch before point `n`: its rows below `n % 1000` are the means of block `n / 1000`. -/
def RowsOK8 (tb : Vec F S16x2000 .i32) (A0 : Vec F S100000x128 .f32) (n : ℕ) (g : Vec F S1000x128 .f32) : Prop :=
  ∀ x : S1000x128.Idx, (x 0).val < n % 1000 → g x = means8 tb A0 (n / 1000) x

/-- At the first row of a block nothing is asked. -/
theorem rowsOK8_start (tb : Vec F S16x2000 .i32) (A0 : Vec F S100000x128 .f32) (n : ℕ) (hn : n % 1000 = 0) (g : Vec F S1000x128 .f32) :
    RowsOK8 tb A0 n g := fun x hx => absurd hx (by omega)

/-- One point's row store keeps the invariant's rows and adds its own: after the store at point `t` the rows up to
    `t % 1000` are means. -/
theorem rowAt8_means (tb : Vec F S16x2000 .i32) (A0 : Vec F S100000x128 .f32) (t : Fin grid8.N) (g : Vec F S1000x128 .f32)
    (hg : RowsOK8 tb A0 t.val g) (x : S1000x128.Idx) (hx : (x 0).val ≤ t.val % 1000) :
    row24 (grid8.coords t) tb A0 g x = means8 tb A0 (t.val / 1000) x := by
  by_cases h : (x 0).val = t.val % 1000
  · rw [row24_of_eq (grid8.coords t) tb A0 g x (by rw [rowAt8_coord]; exact h) (lane8 (x 1)) rfl]
    unfold means8
    rw [h, pt8_self]
  · rw [row24_of_ne (grid8.coords t) tb A0 g x (by rw [rowAt8_coord]; exact h)]
    exact hg x (by omega)

/-- Within a block the invariant steps. -/
theorem rowsOK8_step (tb : Vec F S16x2000 .i32) (A0 : Vec F S100000x128 .f32) (t : Fin grid8.N) (g : Vec F S1000x128 .f32)
    (hg : RowsOK8 tb A0 t.val g) : RowsOK8 tb A0 (t.val + 1) (row24 (grid8.coords t) tb A0 g) := by
  by_cases hl : t.val % 1000 = 999
  · exact rowsOK8_start _ _ _ (by omega) _
  · intro x hx
    have h1 : (t.val + 1) / 1000 = t.val / 1000 := by omega
    rw [h1]
    exact rowAt8_means tb A0 t g hg x (by omega)

/-- At the last row of a block the scratch, after the row store, is the block's means whatever it held before. -/
theorem rowAt8_last (tb : Vec F S16x2000 .i32) (A0 : Vec F S100000x128 .f32) (t : Fin grid8.N) (hl : t.val % 1000 = 999)
    (g : Vec F S1000x128 .f32) (hg : RowsOK8 tb A0 t.val g) :
    row24 (grid8.coords t) tb A0 g = means8 tb A0 (t.val / 1000) :=
  funext fun x => rowAt8_means tb A0 t g hg x (by have : (x 0).val < 1000 := (x 0).isLt; omega)

/-! ## The invariant -/

/-- The launch's operands that no window stages, as the body is handed them: its table, the feature array left in
    HBM, and its two scratch buffers — whole buffers. -/
abbrev tbM8 : Memref sig .tc .smem S16x2000 .i32 := Memref.whole main_v17
abbrev hbM8 : Memref sig .tc .hbm S100000x128 .f32 := Memref.whole main_arg0
abbrev scM8_0 : Memref sig .tc .vmem S1000x128 .f32 := Memref.whole cc8_scratch0
abbrev scM8_1 : Memref sig .tc .vmem S16x128 .f32 := Memref.whole cc8_scratch1

section Region
-- the TensorCore's buffer contents when the launch is entered, and the launch's table
variable (V : (c : Dev nD) → (b : Ref sig .tc) → Buf (Elt F) ((c : Thread nD τ).loc b)) (a : (pcfg8 (F := F)).Adm)

/-- The table and the feature array, as vectors. -/
abbrev tb8 : Vec F S16x2000 .i32 := a.1 0
abbrev A8 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ8 (c : Dev nD) (n : ℕ) : sProp 𝕄 :=
  iprop(owns (c : Thread nD τ) tbM8 fullShare (tb8 a)
    ∗ owns (c : Thread nD τ) hbM8 fullShare (A8 V c)
    ∗ (∃ g : Vec F S1000x128 .f32, ⌜RowsOK8 (tb8 a) (A8 V c) n g⌝ ∗ owns (c : Thread nD τ) scM8_0 fullShare g)
    ∗ (∃ d, owns (c : Thread nD τ) scM8_1 fullShare d)
    ∗ cells24 c cc8_scratch2
    ∗ (∃ r, prngReg c r)
    ∗ Pipeline.scopedRestBut (Ix := Unit) (Name := ℕ) (U := UC) (Lvl := ℕ) (Val := Elt F) spec8 c [cc8_scratch0, cc8_scratch1])

/-! ## The windows' blocks and the proof data -/

/-- Window `w`'s block at point `t`, read off its array as the launch finds it. -/
def iblk8 (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- The proof data of the launch on core `c`: the arrays as the launch finds them; after the body at point `t` the
    weight window at its block and the output window at the product for `t`'s block of rows (read only at the block's
    last row, where the body stores it); the invariant above; nothing owed; full shares. -/
def dat8 (c : Dev nD) : Dat τ (Elt F) Unit ℕ UC ℕ (cfg8 a) c where
  A w := V c (Pipeline.arrRef spec8 w)
  after w t := match w with
    | ⟨0, _⟩ => iblk8 V a c 0 t
    | ⟨1, _⟩ => xBlk8 (tb8 a) (A8 V c) (iblk8 V a c 0 t) (t.val / 1000)
  Φ n := Φ8 V a c n.val
  q _ := fullShare
  owed _ := 0

/-- The proof data's arrays are the entry contents. -/
theorem A_eq8 (c : Dev nD) (w : Fin (cfg8 a).W) : (dat8 V a c).A w = V c (Pipeline.arrRef spec8 w) := by
  dsimp only [dat8]

/-- What the body leaves, window by window. -/
theorem after8_0 (c : Dev nD) (t : Fin (cfg8 a).N) : (dat8 V a c).after 0 t = iblk8 V a c 0 t := by dsimp only [dat8]; rfl
theorem after8_1 (c : Dev nD) (t : Fin (cfg8 a).N) :
    (dat8 V a c).after 1 t = xBlk8 (tb8 a) (A8 V c) (iblk8 V a c 0 t) (t.val / 1000) := by dsimp only [dat8]; rfl

/-- The invariant and the tallies, at a point. -/
theorem Phi8_eq (c : Dev nD) (n : Fin ((cfg8 a).N + 1)) : (dat8 V a c).Φ n = Φ8 V a c n.val := by dsimp only [dat8]
theorem owed8_eq (c : Dev nD) (n : Fin ((cfg8 a).N + 1)) : (dat8 V a c).owed n = 0 := by dsimp only [dat8]

/-- The weight window holds its block at every point, fetched there or not: its block index never moves. -/
theorem before8_0 (c : Dev nD) (t : Fin (cfg8 a).N) (d) : (dat8 V a c).before 0 t d = iblk8 V a c 0 t :=
  ((dat8 V a c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

/-- The output window is written back after the last row of each block of rows, and only there; -/
theorem flush8_1 (t : Fin (cfg8 a).N) : ((cfg8 a).win 1).flush t = decide (t.val % 1000 = 999) := by
  unfold Window.flush
  exact flushB8 t
/-- and it is idle at every other row. -/
theorem idle8_1 (t : Fin (cfg8 a).N) : (cfg8 a).idle 1 ((cfg8 a).grid.coords t) = !decide (t.val % 1000 = 999) := by
  show (!(k8_cond1 (grid8.coords t) == 1#1)) = _
  congr 1
  by_cases h : t.val % 1000 = 999
  · rw [decide_eq_true h, (cond8_iff t).2 h]; rfl
  · rw [decide_eq_false h]
    exact beq_false_of_ne fun e => h ((cond8_iff t).1 e)

end Region

/-! ## The body obligation -/

section Body
variable (V : (c : Dev nD) → (b : Ref sig .tc) → Buf (Elt F) ((c : Thread nD τ).loc b)) (a : (pcfg8 (F := F)).Adm)

/-- Each window's current staging memref at point `t`, spelled as the pipeline passes it, and its wholeness. -/
abbrev ms8_0 (t : Fin (cfg8 a).N) : Memref sig .tc .vmem S128x128 .f32 := spec8_0.stage ((cfg8 a).slots t 0)
abbrev hs8_0 (t : Fin (cfg8 a).N) : (ms8_0 a t).IsWhole := hstage8_0 (((cfg8 a).slots t 0).cast nbuf8_0)
abbrev ms8_1 (t : Fin (cfg8 a).N) : Memref sig .tc .vmem S1000x128 .f32 := spec8_1.stage ((cfg8 a).slots t 1)
abbrev hs8_1 (t : Fin (cfg8 a).N) : (ms8_1 a t).IsWhole := hstage8_1 (((cfg8 a).slots t 1).cast nbuf8_1)

/-- The launch's body function, under the name the runs are stated at. -/
theorem bodyFn8_eq : cc8__gather_agg_matmul_kernel (F := F) = gatherFn := rfl

/-- The kernel body at point `t`, on what the pipeline calls it with. -/
abbrev bodyAt8 (t : Fin (cfg8 a).N) : Prog (TpuEff nD τ sig (Elt F) Λ₀ .tc) PUnit :=
  cc8__gather_agg_matmul_kernel (grid8.coords t) tbM8 (Memref.isWhole_whole _) hbM8 (Memref.isWhole_whole _)
    (ms8_0 a t) (hs8_0 a t) (ms8_1 a t) (hs8_1 a t) scM8_0 (Memref.isWhole_whole _) scM8_1 (Memref.isWhole_whole _) cc8_scratch2

/-- What the body is called with at point `t`, the windows one by one, -/
def bodyPre8 (c : Dev nD) (t : Fin (cfg8 a).N) : sProp 𝕄 :=
  iprop((dat8 V a c).Φ t.castSucc ∗ (dat8 V a c).owesAt () t.castSucc
    ∗ (∃ d, owns (c : Thread nD τ) (ms8_0 a t) fullShare ((dat8 V a c).before 0 t d))
    ∗ (∃ d, owns (c : Thread nD τ) (ms8_1 a t) fullShare ((dat8 V a c).before 1 t d)))

/-- and what it returns: the output window as it was found where the point is idle for it, at the block's product
    at the last row of a block. -/
def bodyPost8 (c : Dev nD) (t : Fin (cfg8 a).N) : sProp 𝕄 :=
  iprop((dat8 V a c).Φ t.succ ∗ (dat8 V a c).owesAt () t.succ
    ∗ owns (c : Thread nD τ) (ms8_0 a t) fullShare ((dat8 V a c).after 0 t)
    ∗ (match (cfg8 a).idle 1 ((cfg8 a).grid.coords t) with
        | true =>
          match ((cfg8 a).win 1).flush t with
          | false => iprop(∃ d, owns (c : Thread nD τ) (ms8_1 a t) fullShare ((dat8 V a c).before 1 t d))
          | true => owns (c : Thread nD τ) (ms8_1 a t) fullShare ((dat8 V a c).after 1 t)
        | false => owns (c : Thread nD τ) (ms8_1 a t) fullShare ((dat8 V a c).after 1 t)))

/-- The body at any point. The weight window holds its block; the invariant hands the body its table, the feature
    array, both scratch buffers and its transfer cells, and takes them back with the carried scratch one row further
    (`rowsOK8_step`); at the last row of a block the product the body stores is the block's (`rowAt8_last`); the core's
    `owes` goes in at whatever the points before recorded and comes back with this point's waits. -/
theorem sound_body8 (hR : InRange8 a.1) (c : Dev nD) (t : Fin (cfg8 a).N) :
    bodyPre8 V a c t ⊢ wp frame (wpE (defs₀ (F := F)) Variants.none c none) Set.univ (bodyAt8 a t) (fun _ => bodyPost8 V a c t) := by
  unfold bodyPre8 bodyPost8 bodyAt8
  rw [flush8_1, idle8_1]
  simp only [before8_0]
  rw [after8_0, Phi8_eq, Phi8_eq, Fin.val_succ, Fin.coe_castSucc]
  unfold Dat.owesAt Pipeline.owesWithin
  rw [owed8_eq, owed8_eq]
  unfold Φ8
  rw [bodyFn8_eq]
  by_cases hl : t.val % 1000 = 999
  · -- the last row of a block
    rw [decide_eq_true hl, Bool.not_true]
    dsimp only
    rw [after8_1]
    unfold xBlk8
    iintro ⟨⟨Htb, Hhb, ⟨%g, %hg, Hs0⟩, Hs1, Hcells, Hreg, Hrest⟩, ⟨%W, -, HW⟩, ⟨%d0, H0⟩, ⟨%d1, H1⟩⟩
    rw [← rowAt8_last (tb8 a) (A8 V c) t hl g hg]
    iapply (run24_last c (grid8.coords t) tbM8 (Memref.isWhole_whole _) hbM8 (Memref.isWhole_whole _) (ms8_0 a t) (hs8_0 a t)
      (ms8_1 a t) (hs8_1 a t) scM8_0 (Memref.isWhole_whole _) scM8_1 (Memref.isWhole_whole _) cc8_scratch2
      ((cond8_iff t).2 hl) (tb8 a) hR (A8 V c) (iblk8 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK8_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k8_cond1 (grid8.coords t) ≠ 1#1 := fun e => hl ((cond8_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid8.coords t) tbM8 (Memref.isWhole_whole _) hbM8 (Memref.isWhole_whole _) (ms8_0 a t) (hs8_0 a t)
      (ms8_1 a t) (hs8_1 a t) scM8_0 (Memref.isWhole_whole _) scM8_1 (Memref.isWhole_whole _) cc8_scratch2
      hc (tb8 a) hR (A8 V c) (iblk8 V a c 0 t) g
      (owns (c : Thread nD τ) (ms8_1 a t) fullShare ((dat8 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK8_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation8 (hR : InRange8 a.1) (c : Dev nD) :
    BodyObligation (dat8 (F := F) V a c) (defs₀ (F := F)) Variants.none () Set.univ := fun t => by
  rw [bigSep_W8, bigSep_W8]
  exact sound_body8 V a hR c t

end Body

/-! ## The value: what the launch leaves in its output array -/

section Value
variable (V : (c : Dev nD) → (b : Ref sig .tc) → Buf (Elt F) ((c : Thread nD τ).loc b)) (a : (pcfg8 (F := F)).Adm)

/-- Entry `(r, l)` of a block of rows. -/
def cell8 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk8 (tb : Vec F S16x2000 .i32) (A0 : Vec F S100000x128 .f32) (Wt : Vec F S128x128 .f32) : Vec F S2000x128 .f32 :=
  fun y => xBlk8 tb A0 Wt ((y 0).val / 1000) (cell8 ((y 0).val % 1000) (Nat.mod_lt _ (by decide)) (y 1))

/-- The weight window's block is the whole weight, at every point: its block index is (0, 0). -/
theorem wblk8_eq (c : Dev nD) (t : Fin (cfg8 a).N) : iblk8 V a c 0 t = (V c main_arg1 : Vec F S128x128 .f32) := by
  funext x
  unfold iblk8
  rw [View.read_apply]
  refine (cast_eq _ _).trans (congrArg (V c main_arg1) (funext fun b => Fin.ext ?_))
  refine (((cfg8 a).win 0).rect_emb_val_of_index_zero t b ?_ x)
  match b with
  | ⟨0, _⟩ => rfl
  | ⟨1, _⟩ => rfl

/-- Where entry `x` of the output window's block at point `t` sits in the output array. -/
abbrev emb8 (t : Fin (cfg8 a).N) (x : S1000x128.Idx) : S2000x128.Idx := (((cfg8 a).win 1).blk t).view.emb x

theorem emb8_val (t : Fin (cfg8 a).N) (x : S1000x128.Idx) :
    (emb8 a t x 0).val = t.val / 1000 * 1000 + (x 0).val ∧ (emb8 a t x 1).val = (x 1).val := by
  have hix : ((cfg8 a).win 1).index t = ![t.val / 1000, 0] := idx8_1 t
  have e0 := ((cfg8 a).win 1).rect_emb_val t x (0 : Fin 2)
  have e1 := ((cfg8 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after8_chunk (c : Dev nD) (t : Fin (cfg8 a).N) (x : S1000x128.Idx) :
    (dat8 V a c).after 1 t x = xChunk8 (tb8 a) (A8 V c) (V c main_arg1) (emb8 a t x) := by
  obtain ⟨e0, e1⟩ := emb8_val a t x
  have hx0 : (x 0).val < 1000 := (x 0).isLt
  rw [after8_1, wblk8_eq]
  unfold xChunk8
  have hq : (emb8 a t x 0).val / 1000 = t.val / 1000 := by rw [e0]; omega
  have hcell : cell8 ((emb8 a t x 0).val % 1000) (Nat.mod_lt _ (by decide)) (emb8 a t x 1) = x := by
    funext b
    apply Fin.ext
    match b with
    | ⟨0, _⟩ =>
      show (emb8 a t x 0).val % 1000 = (x 0).val
      rw [e0]; omega
    | ⟨1, _⟩ => exact e1
  rw [hq, hcell]

/-- Two entries of the output array with the same coordinates are the same. -/
theorem idx8_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb8_cell (t : Fin (cfg8 a).N) (i : S2000x128.Idx) (ht : t.val / 1000 = (i 0).val / 1000) :
    emb8 a t (cell8 ((i 0).val % 1000) (Nat.mod_lt _ (by decide)) (i 1)) = i := by
  obtain ⟨e0, e1⟩ := emb8_val a t (cell8 ((i 0).val % 1000) (Nat.mod_lt _ (by decide)) (i 1))
  refine idx8_ext _ _ ?_ e1
  rw [e0, ht]
  show (i 0).val / 1000 * 1000 + (i 0).val % 1000 = (i 0).val
  omega

/-- Every entry of the output array lies in the block written back after the last row of its block of rows. -/
theorem cover8 (i : S2000x128.Idx) :
    ∃ t : Fin (cfg8 a).N, ((cfg8 a).win 1).flush t = true ∧ i ∈ (((cfg8 a).win 1).blk t).view.set := by
  have hi0 : (i 0).val < 2000 := (i 0).isLt
  have hN : (i 0).val / 1000 * 1000 + 999 < (cfg8 a).N := by rw [N8]; omega
  refine ⟨⟨(i 0).val / 1000 * 1000 + 999, hN⟩, ?_, ?_⟩
  · rw [flush8_1]; exact decide_eq_true (by show ((i 0).val / 1000 * 1000 + 999) % 1000 = 999; omega)
  · refine Finset.mem_map.mpr ⟨cell8 ((i 0).val % 1000) (Nat.mod_lt _ (by decide)) (i 1), Finset.mem_univ _, ?_⟩
    exact emb8_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out8 (c : Dev nD) :
    (dat8 V a c).arrAt 1 (cfg8 a).N = (xChunk8 (tb8 a) (A8 V c) (V c main_arg1) : Vec F S2000x128 .f32) :=
  (dat8 V a c).arrAt_eq_of_cover 1 _
    (fun t _ => funext fun x => (after8_chunk V a c t x).trans (cast_eq _ _).symm)
    (cover8 a)

end Value

/-! ## The invariant's two ends -/

section Ends
variable (V : (c : Dev nD) → (b : Ref sig .tc) → Buf (Elt F) ((c : Thread nD τ).loc b)) (a : (pcfg8 (F := F)).Adm)

/-- The body's own transfer cells as the launch's protocol lists them: the 16 cells of its semaphore operand. -/
def osem8 : Fin 16 → SemLoc sig := fun k => SemLoc.dma (cc8_scratch2.ix (Shape.ofLane k))
/-- They are scoped, distinct, and none is a window's. -/
theorem ownSemFacts8 : Pipeline.OwnSemFacts spec8 osem8 := by decide
/-- The cells at zero, listed, are the cells as the body names them. -/
theorem cells8_eq (c : Dev nD) :
    (Pipeline.ownSems0 (Ix := Unit) (Name := ℕ) (U := UC) (Lvl := ℕ) (Val := Elt F) (τ := τ) osem8 c : sProp 𝕄) = cells24 c cc8_scratch2 := by
  rw [Pipeline.ownSems0_eq_of_list c osem8 [0, 1, 2, 3, 4, 5, 6, 7, 8, 9, 10, 11, 12, 13, 14, 15] (by decide) (by decide)]; rfl

/-- The launch's one table, held. -/
theorem prefHeld8_eq (c : Dev nD) (pf : pre8.Contents (Elt F)) :
    (Pipeline.prefHeld pre8 c (fun _ => fullShare) pf : sProp 𝕄) = (((c : Thread nD τ).loc main_v17) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X8 (c : Dev nD) : sProp 𝕄 :=
  iprop((∃ r, prngReg c r) ∗ Pipeline.ownSems0 (Ix := Unit) (Name := ℕ) (U := UC) (Lvl := ℕ) (Val := Elt F) (τ := τ) osem8 c
    ∗ (((c : Thread nD τ).loc main_arg0) ↦{fullShare} V c main_arg0))
abbrev Y8 (c : Dev nD) : sProp 𝕄 :=
  iprop((∃ r, prngReg c r) ∗ (((c : Thread nD τ).loc main_arg0) ↦{fullShare} V c main_arg0)
    ∗ Pipeline.prefHeld pre8 c (fun _ => fullShare) a.1)

/-- THE FIRST POINT: the invariant from what the launch's entry sorts out. Nothing is asked of the carried scratch. -/
theorem Phi8_in (c : Dev nD) :
    iprop(X8 V c ∗ Pipeline.prefHeld pre8 c (fun _ => fullShare) a.1
        ∗ Pipeline.scopedRest (Ix := Unit) (Name := ℕ) (U := UC) (Lvl := ℕ) (Val := Elt F) spec8 c)
      ⊢ (dat8 V a c).Φ 0 := by
  rw [Phi8_eq]
  unfold Φ8 X8
  rw [scopedRest8_split, prefHeld8_eq, cells8_eq]
  simp only [tbM8, hbM8, scM8_0, scM8_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK8_start _ _ _ rfl _
  isplitl [Hs1]; · iexact Hs1
  isplitl [Hcells]; · iexact Hcells
  isplitl [Hreg]; · iexact Hreg
  iexact Hrest

/-- THE LAST POINT: the invariant gives back what it took. -/
theorem Phi8_out (c : Dev nD) :
    (dat8 V a c).Φ (Fin.last _)
      ⊢ iprop(Y8 V a c ∗ Pipeline.ownSems0 (Ix := Unit) (Name := ℕ) (U := UC) (Lvl := ℕ) (Val := Elt F) (τ := τ) osem8 c
        ∗ Pipeline.scopedRest (Ix := Unit) (Name := ℕ) (U := UC) (Lvl := ℕ) (Val := Elt F) spec8 c) := by
  rw [Phi8_eq]
  unfold Φ8 Y8
  rw [scopedRest8_split, prefHeld8_eq, cells8_eq]
  simp only [tbM8, hbM8, scM8_0, scM8_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G9Dat.lean ====
/-
  One of the program's 25 gather launches (pipeline 9; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N9 (a : (pcfg9 (F := F)).Adm) : (cfg9 a).N = 2000 := N_9

/-- The body's branch is taken at the last row of a block of rows, -/
theorem cond9_iff : ∀ t : Fin grid9.N, k9_cond1 (grid9.coords t) = 1#1 ↔ t.val % 1000 = 999 := by decide +kernel
/-- the row a point works on is its number modulo 1000, -/
theorem rowAt9_coord : ∀ t : Fin grid9.N, (grid9.coords t 1).val = t.val % 1000 := by decide +kernel
/-- its block of rows is its number divided by 1000, -/
theorem blockAt9_coord : ∀ t : Fin grid9.N, (grid9.coords t 0).val = t.val / 1000 := by decide +kernel
/-- and the output's block index moves after exactly those points (and the grid ends at one). -/
theorem flushB9 : ∀ t : Fin grid9.N,
    (decide (t.val + 1 = grid9.N) || decide (∃ h : t.val + 1 < grid9.N, cc9_transform_2 (grid9.coords ⟨t.val + 1, h⟩) ≠ cc9_transform_2 (grid9.coords t)))
      = decide (t.val % 1000 = 999) := by decide +kernel

/-- The output's block index at a point: the point's block of rows. -/
theorem idx9_1 : ∀ t : Fin grid9.N, cc9_transform_2 (grid9.coords t) = ![t.val / 1000, 0] := by decide +kernel

/-- Every word of the launch's table names a row of the feature array. -/
def InRange9 (pf : pre9.Contents (Elt F)) : Prop := ∀ x : S16x2000.Idx, ((pf 0 : Vec F S16x2000 .i32) x).toNat < 100000

/-! ## The values -/

/-- Lane `l` of a one-row vector. -/
def lane9 (l : Fin 128) : S1x128.Idx := fun a => ⟨if a.val = 0 then 0 else l.val, by
  match a with
  | ⟨0, _⟩ => exact Nat.one_pos
  | ⟨1, _⟩ => exact l.isLt⟩

theorem lane9_one (l : Fin 128) : (lane9 l 1).val = l.val := rfl

/-- The grid point of row `r` of block `q` (total: the point number is taken modulo the grid's size). -/
def pt9 (q : ℕ) (r : ℕ) : Fin grid9.N := ⟨(q * 1000 + r) % grid9.N, Nat.mod_lt _ (by decide)⟩

/-- Inside the grid the point's number is `1000 q + r`. -/
theorem pt9_val (q r : ℕ) (hq : q < 2) (hr : r < 1000) : (pt9 q r).val = q * 1000 + r := by
  show (q * 1000 + r) % grid9.N = q * 1000 + r
  rw [N_9]; omega

/-- A point is the point of its block and row. -/
theorem pt9_self (t : Fin grid9.N) : pt9 (t.val / 1000) (t.val % 1000) = t := by
  apply Fin.ext
  show (t.val / 1000 * 1000 + t.val % 1000) % grid9.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means9 (tb : Vec F S16x2000 .i32) (A0 : Vec F S100000x128 .f32) (q : ℕ) : Vec F S1000x128 .f32 :=
  fun x => Gen.k24_pay1 (gath24 (grid9.coords (pt9 q (x 0).val)) tb A0) (lane9 (x 1))

/-- What the body stores in the output window at the last row of block `q`: the means, rounded, times the weight, rounded. -/
def xBlk9 (tb : Vec F S16x2000 .i32) (A0 : Vec F S100000x128 .f32) (Wt : Vec F S128x128 .f32) (q : ℕ) : Vec F S1000x128 .f32 :=
  Gen.k24_pay2 (means9 tb A0 q) Wt

/-- The carried scratch before point `n`: its rows below `n % 1000` are the means of block `n / 1000`. -/
def RowsOK9 (tb : Vec F S16x2000 .i32) (A0 : Vec F S100000x128 .f32) (n : ℕ) (g : Vec F S1000x128 .f32) : Prop :=
  ∀ x : S1000x128.Idx, (x 0).val < n % 1000 → g x = means9 tb A0 (n / 1000) x

/-- At the first row of a block nothing is asked. -/
theorem rowsOK9_start (tb : Vec F S16x2000 .i32) (A0 : Vec F S100000x128 .f32) (n : ℕ) (hn : n % 1000 = 0) (g : Vec F S1000x128 .f32) :
    RowsOK9 tb A0 n g := fun x hx => absurd hx (by omega)

/-- One point's row store keeps the invariant's rows and adds its own: after the store at point `t` the rows up to
    `t % 1000` are means. -/
theorem rowAt9_means (tb : Vec F S16x2000 .i32) (A0 : Vec F S100000x128 .f32) (t : Fin grid9.N) (g : Vec F S1000x128 .f32)
    (hg : RowsOK9 tb A0 t.val g) (x : S1000x128.Idx) (hx : (x 0).val ≤ t.val % 1000) :
    row24 (grid9.coords t) tb A0 g x = means9 tb A0 (t.val / 1000) x := by
  by_cases h : (x 0).val = t.val % 1000
  · rw [row24_of_eq (grid9.coords t) tb A0 g x (by rw [rowAt9_coord]; exact h) (lane9 (x 1)) rfl]
    unfold means9
    rw [h, pt9_self]
  · rw [row24_of_ne (grid9.coords t) tb A0 g x (by rw [rowAt9_coord]; exact h)]
    exact hg x (by omega)

/-- Within a block the invariant steps. -/
theorem rowsOK9_step (tb : Vec F S16x2000 .i32) (A0 : Vec F S100000x128 .f32) (t : Fin grid9.N) (g : Vec F S1000x128 .f32)
    (hg : RowsOK9 tb A0 t.val g) : RowsOK9 tb A0 (t.val + 1) (row24 (grid9.coords t) tb A0 g) := by
  by_cases hl : t.val % 1000 = 999
  · exact rowsOK9_start _ _ _ (by omega) _
  · intro x hx
    have h1 : (t.val + 1) / 1000 = t.val / 1000 := by omega
    rw [h1]
    exact rowAt9_means tb A0 t g hg x (by omega)

/-- At the last row of a block the scratch, after the row store, is the block's means whatever it held before. -/
theorem rowAt9_last (tb : Vec F S16x2000 .i32) (A0 : Vec F S100000x128 .f32) (t : Fin grid9.N) (hl : t.val % 1000 = 999)
    (g : Vec F S1000x128 .f32) (hg : RowsOK9 tb A0 t.val g) :
    row24 (grid9.coords t) tb A0 g = means9 tb A0 (t.val / 1000) :=
  funext fun x => rowAt9_means tb A0 t g hg x (by have : (x 0).val < 1000 := (x 0).isLt; omega)

/-! ## The invariant -/

/-- The launch's operands that no window stages, as the body is handed them: its table, the feature array left in
    HBM, and its two scratch buffers — whole buffers. -/
abbrev tbM9 : Memref sig .tc .smem S16x2000 .i32 := Memref.whole main_v19
abbrev hbM9 : Memref sig .tc .hbm S100000x128 .f32 := Memref.whole main_arg0
abbrev scM9_0 : Memref sig .tc .vmem S1000x128 .f32 := Memref.whole cc9_scratch0
abbrev scM9_1 : Memref sig .tc .vmem S16x128 .f32 := Memref.whole cc9_scratch1

section Region
-- the TensorCore's buffer contents when the launch is entered, and the launch's table
variable (V : (c : Dev nD) → (b : Ref sig .tc) → Buf (Elt F) ((c : Thread nD τ).loc b)) (a : (pcfg9 (F := F)).Adm)

/-- The table and the feature array, as vectors. -/
abbrev tb9 : Vec F S16x2000 .i32 := a.1 0
abbrev A9 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ9 (c : Dev nD) (n : ℕ) : sProp 𝕄 :=
  iprop(owns (c : Thread nD τ) tbM9 fullShare (tb9 a)
    ∗ owns (c : Thread nD τ) hbM9 fullShare (A9 V c)
    ∗ (∃ g : Vec F S1000x128 .f32, ⌜RowsOK9 (tb9 a) (A9 V c) n g⌝ ∗ owns (c : Thread nD τ) scM9_0 fullShare g)
    ∗ (∃ d, owns (c : Thread nD τ) scM9_1 fullShare d)
    ∗ cells24 c cc9_scratch2
    ∗ (∃ r, prngReg c r)
    ∗ Pipeline.scopedRestBut (Ix := Unit) (Name := ℕ) (U := UC) (Lvl := ℕ) (Val := Elt F) spec9 c [cc9_scratch0, cc9_scratch1])

/-! ## The windows' blocks and the proof data -/

/-- Window `w`'s block at point `t`, read off its array as the launch finds it. -/
def iblk9 (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- The proof data of the launch on core `c`: the arrays as the launch finds them; after the body at point `t` the
    weight window at its block and the output window at the product for `t`'s block of rows (read only at the block's
    last row, where the body stores it); the invariant above; nothing owed; full shares. -/
def dat9 (c : Dev nD) : Dat τ (Elt F) Unit ℕ UC ℕ (cfg9 a) c where
  A w := V c (Pipeline.arrRef spec9 w)
  after w t := match w with
    | ⟨0, _⟩ => iblk9 V a c 0 t
    | ⟨1, _⟩ => xBlk9 (tb9 a) (A9 V c) (iblk9 V a c 0 t) (t.val / 1000)
  Φ n := Φ9 V a c n.val
  q _ := fullShare
  owed _ := 0

/-- The proof data's arrays are the entry contents. -/
theorem A_eq9 (c : Dev nD) (w : Fin (cfg9 a).W) : (dat9 V a c).A w = V c (Pipeline.arrRef spec9 w) := by
  dsimp only [dat9]

/-- What the body leaves, window by window. -/
theorem after9_0 (c : Dev nD) (t : Fin (cfg9 a).N) : (dat9 V a c).after 0 t = iblk9 V a c 0 t := by dsimp only [dat9]; rfl
theorem after9_1 (c : Dev nD) (t : Fin (cfg9 a).N) :
    (dat9 V a c).after 1 t = xBlk9 (tb9 a) (A9 V c) (iblk9 V a c 0 t) (t.val / 1000) := by dsimp only [dat9]; rfl

/-- The invariant and the tallies, at a point. -/
theorem Phi9_eq (c : Dev nD) (n : Fin ((cfg9 a).N + 1)) : (dat9 V a c).Φ n = Φ9 V a c n.val := by dsimp only [dat9]
theorem owed9_eq (c : Dev nD) (n : Fin ((cfg9 a).N + 1)) : (dat9 V a c).owed n = 0 := by dsimp only [dat9]

/-- The weight window holds its block at every point, fetched there or not: its block index never moves. -/
theorem before9_0 (c : Dev nD) (t : Fin (cfg9 a).N) (d) : (dat9 V a c).before 0 t d = iblk9 V a c 0 t :=
  ((dat9 V a c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)

/-- The output window is written back after the last row of each block of rows, and only there; -/
theorem flush9_1 (t : Fin (cfg9 a).N) : ((cfg9 a).win 1).flush t = decide (t.val % 1000 = 999) := by
  unfold Window.flush
  exact flushB9 t
/-- and it is idle at every other row. -/
theorem idle9_1 (t : Fin (cfg9 a).N) : (cfg9 a).idle 1 ((cfg9 a).grid.coords t) = !decide (t.val % 1000 = 999) := by
  show (!(k9_cond1 (grid9.coords t) == 1#1)) = _
  congr 1
  by_cases h : t.val % 1000 = 999
  · rw [decide_eq_true h, (cond9_iff t).2 h]; rfl
  · rw [decide_eq_false h]
    exact beq_false_of_ne fun e => h ((cond9_iff t).1 e)

end Region

/-! ## The body obligation -/

section Body
variable (V : (c : Dev nD) → (b : Ref sig .tc) → Buf (Elt F) ((c : Thread nD τ).loc b)) (a : (pcfg9 (F := F)).Adm)

/-- Each window's current staging memref at point `t`, spelled as the pipeline passes it, and its wholeness. -/
abbrev ms9_0 (t : Fin (cfg9 a).N) : Memref sig .tc .vmem S128x128 .f32 := spec9_0.stage ((cfg9 a).slots t 0)
abbrev hs9_0 (t : Fin (cfg9 a).N) : (ms9_0 a t).IsWhole := hstage9_0 (((cfg9 a).slots t 0).cast nbuf9_0)
abbrev ms9_1 (t : Fin (cfg9 a).N) : Memref sig .tc .vmem S1000x128 .f32 := spec9_1.stage ((cfg9 a).slots t 1)
abbrev hs9_1 (t : Fin (cfg9 a).N) : (ms9_1 a t).IsWhole := hstage9_1 (((cfg9 a).slots t 1).cast nbuf9_1)

/-- The launch's body function, under the name the runs are stated at. -/
theorem bodyFn9_eq : cc9__gather_agg_matmul_kernel (F := F) = gatherFn := rfl

/-- The kernel body at point `t`, on what the pipeline calls it with. -/
abbrev bodyAt9 (t : Fin (cfg9 a).N) : Prog (TpuEff nD τ sig (Elt F) Λ₀ .tc) PUnit :=
  cc9__gather_agg_matmul_kernel (grid9.coords t) tbM9 (Memref.isWhole_whole _) hbM9 (Memref.isWhole_whole _)
    (ms9_0 a t) (hs9_0 a t) (ms9_1 a t) (hs9_1 a t) scM9_0 (Memref.isWhole_whole _) scM9_1 (Memref.isWhole_whole _) cc9_scratch2

/-- What the body is called with at point `t`, the windows one by one, -/
def bodyPre9 (c : Dev nD) (t : Fin (cfg9 a).N) : sProp 𝕄 :=
  iprop((dat9 V a c).Φ t.castSucc ∗ (dat9 V a c).owesAt () t.castSucc
    ∗ (∃ d, owns (c : Thread nD τ) (ms9_0 a t) fullShare ((dat9 V a c).before 0 t d))
    ∗ (∃ d, owns (c : Thread nD τ) (ms9_1 a t) fullShare ((dat9 V a c).before 1 t d)))

/-- and what it returns: the output window as it was found where the point is idle for it, at the block's product
    at the last row of a block. -/
def bodyPost9 (c : Dev nD) (t : Fin (cfg9 a).N) : sProp 𝕄 :=
  iprop((dat9 V a c).Φ t.succ ∗ (dat9 V a c).owesAt () t.succ
    ∗ owns (c : Thread nD τ) (ms9_0 a t) fullShare ((dat9 V a c).after 0 t)
    ∗ (match (cfg9 a).idle 1 ((cfg9 a).grid.coords t) with
        | true =>
          match ((cfg9 a).win 1).flush t with
          | false => iprop(∃ d, owns (c : Thread nD τ) (ms9_1 a t) fullShare ((dat9 V a c).before 1 t d))
          | true => owns (c : Thread nD τ) (ms9_1 a t) fullShare ((dat9 V a c).after 1 t)
        | false => owns (c : Thread nD τ) (ms9_1 a t) fullShare ((dat9 V a c).after 1 t)))

/-- The body at any point. The weight window holds its block; the invariant hands the body its table, the feature
    array, both scratch buffers and its transfer cells, and takes them back with the carried scratch one row further
    (`rowsOK9_step`); at the last row of a block the product the body stores is the block's (`rowAt9_last`); the core's
    `owes` goes in at whatever the points before recorded and comes back with this point's waits. -/
theorem sound_body9 (hR : InRange9 a.1) (c : Dev nD) (t : Fin (cfg9 a).N) :
    bodyPre9 V a c t ⊢ wp frame (wpE (defs₀ (F := F)) Variants.none c none) Set.univ (bodyAt9 a t) (fun _ => bodyPost9 V a c t) := by
  unfold bodyPre9 bodyPost9 bodyAt9
  rw [flush9_1, idle9_1]
  simp only [before9_0]
  rw [after9_0, Phi9_eq, Phi9_eq, Fin.val_succ, Fin.coe_castSucc]
  unfold Dat.owesAt Pipeline.owesWithin
  rw [owed9_eq, owed9_eq]
  unfold Φ9
  rw [bodyFn9_eq]
  by_cases hl : t.val % 1000 = 999
  · -- the last row of a block
    rw [decide_eq_true hl, Bool.not_true]
    dsimp only
    rw [after9_1]
    unfold xBlk9
    iintro ⟨⟨Htb, Hhb, ⟨%g, %hg, Hs0⟩, Hs1, Hcells, Hreg, Hrest⟩, ⟨%W, -, HW⟩, ⟨%d0, H0⟩, ⟨%d1, H1⟩⟩
    rw [← rowAt9_last (tb9 a) (A9 V c) t hl g hg]
    iapply (run24_last c (grid9.coords t) tbM9 (Memref.isWhole_whole _) hbM9 (Memref.isWhole_whole _) (ms9_0 a t) (hs9_0 a t)
      (ms9_1 a t) (hs9_1 a t) scM9_0 (Memref.isWhole_whole _) scM9_1 (Memref.isWhole_whole _) cc9_scratch2
      ((cond9_iff t).2 hl) (tb9 a) hR (A9 V c) (iblk9 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK9_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k9_cond1 (grid9.coords t) ≠ 1#1 := fun e => hl ((cond9_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid9.coords t) tbM9 (Memref.isWhole_whole _) hbM9 (Memref.isWhole_whole _) (ms9_0 a t) (hs9_0 a t)
      (ms9_1 a t) (hs9_1 a t) scM9_0 (Memref.isWhole_whole _) scM9_1 (Memref.isWhole_whole _) cc9_scratch2
      hc (tb9 a) hR (A9 V c) (iblk9 V a c 0 t) g
      (owns (c : Thread nD τ) (ms9_1 a t) fullShare ((dat9 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK9_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation9 (hR : InRange9 a.1) (c : Dev nD) :
    BodyObligation (dat9 (F := F) V a c) (defs₀ (F := F)) Variants.none () Set.univ := fun t => by
  rw [bigSep_W9, bigSep_W9]
  exact sound_body9 V a hR c t

end Body

/-! ## The value: what the launch leaves in its output array -/

section Value
variable (V : (c : Dev nD) → (b : Ref sig .tc) → Buf (Elt F) ((c : Thread nD τ).loc b)) (a : (pcfg9 (F := F)).Adm)

/-- Entry `(r, l)` of a block of rows. -/
def cell9 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk9 (tb : Vec F S16x2000 .i32) (A0 : Vec F S100000x128 .f32) (Wt : Vec F S128x128 .f32) : Vec F S2000x128 .f32 :=
  fun y => xBlk9 tb A0 Wt ((y 0).val / 1000) (cell9 ((y 0).val % 1000) (Nat.mod_lt _ (by decide)) (y 1))

/-- The weight window's block is the whole weight, at every point: its block index is (0, 0). -/
theorem wblk9_eq (c : Dev nD) (t : Fin (cfg9 a).N) : iblk9 V a c 0 t = (V c main_arg1 : Vec F S128x128 .f32) := by
  funext x
  unfold iblk9
  rw [View.read_apply]
  refine (cast_eq _ _).trans (congrArg (V c main_arg1) (funext fun b => Fin.ext ?_))
  refine (((cfg9 a).win 0).rect_emb_val_of_index_zero t b ?_ x)
  match b with
  | ⟨0, _⟩ => rfl
  | ⟨1, _⟩ => rfl

/-- Where entry `x` of the output window's block at point `t` sits in the output array. -/
abbrev emb9 (t : Fin (cfg9 a).N) (x : S1000x128.Idx) : S2000x128.Idx := (((cfg9 a).win 1).blk t).view.emb x

theorem emb9_val (t : Fin (cfg9 a).N) (x : S1000x128.Idx) :
    (emb9 a t x 0).val = t.val / 1000 * 1000 + (x 0).val ∧ (emb9 a t x 1).val = (x 1).val := by
  have hix : ((cfg9 a).win 1).index t = ![t.val / 1000, 0] := idx9_1 t
  have e0 := ((cfg9 a).win 1).rect_emb_val t x (0 : Fin 2)
  have e1 := ((cfg9 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after9_chunk (c : Dev nD) (t : Fin (cfg9 a).N) (x : S1000x128.Idx) :
    (dat9 V a c).after 1 t x = xChunk9 (tb9 a) (A9 V c) (V c main_arg1) (emb9 a t x) := by
  obtain ⟨e0, e1⟩ := emb9_val a t x
  have hx0 : (x 0).val < 1000 := (x 0).isLt
  rw [after9_1, wblk9_eq]
  unfold xChunk9
  have hq : (emb9 a t x 0).val / 1000 = t.val / 1000 := by rw [e0]; omega
  have hcell : cell9 ((emb9 a t x 0).val % 1000) (Nat.mod_lt _ (by decide)) (emb9 a t x 1) = x := by
    funext b
    apply Fin.ext
    match b with
    | ⟨0, _⟩ =>
      show (emb9 a t x 0).val % 1000 = (x 0).val
      rw [e0]; omega
    | ⟨1, _⟩ => exact e1
  rw [hq, hcell]

/-- Two entries of the output array with the same coordinates are the same. -/
theorem idx9_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb9_cell (t : Fin (cfg9 a).N) (i : S2000x128.Idx) (ht : t.val / 1000 = (i 0).val / 1000) :
    emb9 a t (cell9 ((i 0).val % 1000) (Nat.mod_lt _ (by decide)) (i 1)) = i := by
  obtain ⟨e0, e1⟩ := emb9_val a t (cell9 ((i 0).val % 1000) (Nat.mod_lt _ (by decide)) (i 1))
  refine idx9_ext _ _ ?_ e1
  rw [e0, ht]
  show (i 0).val / 1000 * 1000 + (i 0).val % 1000 = (i 0).val
  omega

/-- Every entry of the output array lies in the block written back after the last row of its block of rows. -/
theorem cover9 (i : S2000x128.Idx) :
    ∃ t : Fin (cfg9 a).N, ((cfg9 a).win 1).flush t = true ∧ i ∈ (((cfg9 a).win 1).blk t).view.set := by
  have hi0 : (i 0).val < 2000 := (i 0).isLt
  have hN : (i 0).val / 1000 * 1000 + 999 < (cfg9 a).N := by rw [N9]; omega
  refine ⟨⟨(i 0).val / 1000 * 1000 + 999, hN⟩, ?_, ?_⟩
  · rw [flush9_1]; exact decide_eq_true (by show ((i 0).val / 1000 * 1000 + 999) % 1000 = 999; omega)
  · refine Finset.mem_map.mpr ⟨cell9 ((i 0).val % 1000) (Nat.mod_lt _ (by decide)) (i 1), Finset.mem_univ _, ?_⟩
    exact emb9_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out9 (c : Dev nD) :
    (dat9 V a c).arrAt 1 (cfg9 a).N = (xChunk9 (tb9 a) (A9 V c) (V c main_arg1) : Vec F S2000x128 .f32) :=
  (dat9 V a c).arrAt_eq_of_cover 1 _
    (fun t _ => funext fun x => (after9_chunk V a c t x).trans (cast_eq _ _).symm)
    (cover9 a)

end Value

/-! ## The invariant's two ends -/

section Ends
variable (V : (c : Dev nD) → (b : Ref sig .tc) → Buf (Elt F) ((c : Thread nD τ).loc b)) (a : (pcfg9 (F := F)).Adm)

/-- The body's own transfer cells as the launch's protocol lists them: the 16 cells of its semaphore operand. -/
def osem9 : Fin 16 → SemLoc sig := fun k => SemLoc.dma (cc9_scratch2.ix (Shape.ofLane k))
/-- They are scoped, distinct, and none is a window's. -/
theorem ownSemFacts9 : Pipeline.OwnSemFacts spec9 osem9 := by decide
/-- The cells at zero, listed, are the cells as the body names them. -/
theorem cells9_eq (c : Dev nD) :
    (Pipeline.ownSems0 (Ix := Unit) (Name := ℕ) (U := UC) (Lvl := ℕ) (Val := Elt F) (τ := τ) osem9 c : sProp 𝕄) = cells24 c cc9_scratch2 := by
  rw [Pipeline.ownSems0_eq_of_list c osem9 [0, 1, 2, 3, 4, 5, 6, 7, 8, 9, 10, 11, 12, 13, 14, 15] (by decide) (by decide)]; rfl

/-- The launch's one table, held. -/
theorem prefHeld9_eq (c : Dev nD) (pf : pre9.Contents (Elt F)) :
    (Pipeline.prefHeld pre9 c (fun _ => fullShare) pf : sProp 𝕄) = (((c : Thread nD τ).loc main_v19) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X9 (c : Dev nD) : sProp 𝕄 :=
  iprop((∃ r, prngReg c r) ∗ Pipeline.ownSems0 (Ix := Unit) (Name := ℕ) (U := UC) (Lvl := ℕ) (Val := Elt F) (τ := τ) osem9 c
    ∗ (((c : Thread nD τ).loc main_arg0) ↦{fullShare} V c main_arg0))
abbrev Y9 (c : Dev nD) : sProp 𝕄 :=
  iprop((∃ r, prngReg c r) ∗ (((c : Thread nD τ).loc main_arg0) ↦{fullShare} V c main_arg0)
    ∗ Pipeline.prefHeld pre9 c (fun _ => fullShare) a.1)

/-- THE FIRST POINT: the invariant from what the launch's entry sorts out. Nothing is asked of the carried scratch. -/
theorem Phi9_in (c : Dev nD) :
    iprop(X9 V c ∗ Pipeline.prefHeld pre9 c (fun _ => fullShare) a.1
        ∗ Pipeline.scopedRest (Ix := Unit) (Name := ℕ) (U := UC) (Lvl := ℕ) (Val := Elt F) spec9 c)
      ⊢ (dat9 V a c).Φ 0 := by
  rw [Phi9_eq]
  unfold Φ9 X9
  rw [scopedRest9_split, prefHeld9_eq, cells9_eq]
  simp only [tbM9, hbM9, scM9_0, scM9_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK9_start _ _ _ rfl _
  isplitl [Hs1]; · iexact Hs1
  isplitl [Hcells]; · iexact Hcells
  isplitl [Hreg]; · iexact Hreg
  iexact Hrest

/-- THE LAST POINT: the invariant gives back what it took. -/
theorem Phi9_out (c : Dev nD) :
    (dat9 V a c).Φ (Fin.last _)
      ⊢ iprop(Y9 V a c ∗ Pipeline.ownSems0 (Ix := Unit) (Name := ℕ) (U := UC) (Lvl := ℕ) (Val := Elt F) (τ := τ) osem9 c
        ∗ Pipeline.scopedRest (Ix := Unit) (Name := ℕ) (U := UC) (Lvl := ℕ) (Val := Elt F) spec9 c) := by
  rw [Phi9_eq]
  unfold Φ9 Y9
  rw [scopedRest9_split, prefHeld9_eq, cells9_eq]
  simp only [tbM9, hbM9, scM9_0, scM9_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G10Dat.lean ====
/-
  One of the program's 25 gather launches (pipeline 10; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N10 (a : (pcfg10 (F := F)).Adm) : (cfg10 a).N = 2000 := N_10

/-- The body's branch is taken at the last row of a block of rows, -/
theorem cond10_iff : ∀ t : Fin grid10.N, k10_cond1 (grid10.coords t) = 1#1 ↔ t.val % 1000 = 999 := by decide +kernel
/-- the row a point works on is its number modulo 1000, -/
theorem rowAt10_coord : ∀ t : Fin grid10.N, (grid10.coords t 1).val = t.val % 1000 := by decide +kernel
/-- its block of rows is its number divided by 1000, -/
theorem blockAt10_coord : ∀ t : Fin grid10.N, (grid10.coords t 0).val = t.val / 1000 := by decide +kernel
/-- and the output's block index moves after exactly those points (and the grid ends at one). -/
theorem flushB10 : ∀ t : Fin grid10.N,
    (decide (t.val + 1 = grid10.N) || decide (∃ h : t.val + 1 < grid10.N, cc10_transform_2 (grid10.coords ⟨t.val + 1, h⟩) ≠ cc10_transform_2 (grid10.coords t)))
      = decide (t.val % 1000 = 999) := by decide +kernel

/-- The output's block index at a point: the point's block of rows. -/
theorem idx10_1 : ∀ t : Fin grid10.N, cc10_transform_2 (grid10.coords t) = ![t.val / 1000, 0] := by decide +kernel

/-- Every word of the launch's table names a row of the feature array. -/
def InRange10 (pf : pre10.Contents (Elt F)) : Prop := ∀ x : S16x2000.Idx, ((pf 0 : Vec F S16x2000 .i32) x).toNat < 100000

/-! ## The values -/

/-- Lane `l` of a one-row vector. -/
def lane10 (l : Fin 128) : S1x128.Idx := fun a => ⟨if a.val = 0 then 0 else l.val, by
  match a with
  | ⟨0, _⟩ => exact Nat.one_pos
  | ⟨1, _⟩ => exact l.isLt⟩

theorem lane10_one (l : Fin 128) : (lane10 l 1).val = l.val := rfl

/-- The grid point of row `r` of block `q` (total: the point number is taken modulo the grid's size). -/
def pt10 (q : ℕ) (r : ℕ) : Fin grid10.N := ⟨(q * 1000 + r) % grid10.N, Nat.mod_lt _ (by decide)⟩

/-- Inside the grid the point's number is `1000 q + r`. -/
theorem pt10_val (q r : ℕ) (hq : q < 2) (hr : r < 1000) : (pt10 q r).val = q * 1000 + r := by
  show (q * 1000 + r) % grid10.N = q * 1000 + r
  rw [N_10]; omega

/-- A point is the point of its block and row. -/
theorem pt10_self (t : Fin grid10.N) : pt10 (t.val / 1000) (t.val % 1000) = t := by
  apply Fin.ext
  show (t.val / 1000 * 1000 + t.val % 1000) % grid10.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means10 (tb : Vec F S16x2000 .i32) (A0 : Vec F S100000x128 .f32) (q : ℕ) : Vec F S1000x128 .f32 :=
  fun x => Gen.k24_pay1 (gath24 (grid10.coords (pt10 q (x 0).val)) tb A0) (lane10 (x 1))

/-- What the body stores in the output window at the last row of block `q`: the means, rounded, times the weight, rounded. -/
def xBlk10 (tb : Vec F S16x2000 .i32) (A0 : Vec F S100000x128 .f32) (Wt : Vec F S128x128 .f32) (q : ℕ) : Vec F S1000x128 .f32 :=
  Gen.k24_pay2 (means10 tb A0 q) Wt

/-- The carried scratch before point `n`: its rows below `n % 1000` are the means of block `n / 1000`. -/
def RowsOK10 (tb : Vec F S16x2000 .i32) (A0 : Vec F S100000x128 .f32) (n : ℕ) (g : Vec F S1000x128 .f32) : Prop :=
  ∀ x : S1000x128.Idx, (x 0).val < n % 1000 → g x = means10 tb A0 (n / 1000) x

/-- At the first row of a block nothing is asked. -/
theorem rowsOK10_start (tb : Vec F S16x2000 .i32) (A0 : Vec F S100000x128 .f32) (n : ℕ) (hn : n % 1000 = 0) (g : Vec F S1000x128 .f32) :
    RowsOK10 tb A0 n g := fun x hx => absurd hx (by omega)

/-- One point's row store keeps the invariant's rows and adds its own: after the store at point `t` the rows up to
    `t % 1000` are means. -/
theorem rowAt10_means (tb : Vec F S16x2000 .i32) (A0 : Vec F S100000x128 .f32) (t : Fin grid10.N) (g : Vec F S1000x128 .f32)
    (hg : RowsOK10 tb A0 t.val g) (x : S1000x128.Idx) (hx : (x 0).val ≤ t.val % 1000) :
    row24 (grid10.coords t) tb A0 g x = means10 tb A0 (t.val / 1000) x := by
  by_cases h : (x 0).val = t.val % 1000
  · rw [row24_of_eq (grid10.coords t) tb A0 g x (by rw [rowAt10_coord]; exact h) (lane10 (x 1)) rfl]
    unfold means10
    rw [h, pt10_self]
  · rw [row24_of_ne (grid10.coords t) tb A0 g x (by rw [rowAt10_coord]; exact h)]
    exact hg x (by omega)

/-- Within a block the invariant steps. -/
theorem rowsOK10_step (tb : Vec F S16x2000 .i32) (A0 : Vec F S100000x128 .f32) (t : Fin grid10.N) (g : Vec F S1000x128 .f32)
    (hg : RowsOK10 tb A0 t.val g) : RowsOK10 tb A0 (t.val + 1) (row24 (grid10.coords t) tb A0 g) := by
  by_cases hl : t.val % 1000 = 999
  · exact rowsOK10_start _ _ _ (by omega) _
  · intro x hx
    have h1 : (t.val + 1) / 1000 = t.val / 1000 := by omega
    rw [h1]
    exact rowAt10_means tb A0 t g hg x (by omega)

/-- At the last row of a block the scratch, after the row store, is the block's means whatever it held before. -/
theorem rowAt10_last (tb : Vec F S16x2000 .i32) (A0 : Vec F S100000x128 .f32) (t : Fin grid10.N) (hl : t.val % 1000 = 999)
    (g : Vec F S1000x128 .f32) (hg : RowsOK10 tb A0 t.val g) :
    row24 (grid10.coords t) tb A0 g = means10 tb A0 (t.val / 1000) :=
  funext fun x => rowAt10_means tb A0 t g hg x (by have : (x 0).val < 1000 := (x 0).isLt; omega)

/-! ## The invariant -/

/-- The launch's operands that no window stages, as the body is handed them: its table, the feature array left in
    HBM, and its two scratch buffers — whole buffers. -/
abbrev tbM10 : Memref sig .tc .smem S16x2000 .i32 := Memref.whole main_v21
abbrev hbM10 : Memref sig .tc .hbm S100000x128 .f32 := Memref.whole main_arg0
abbrev scM10_0 : Memref sig .tc .vmem S1000x128 .f32 := Memref.whole cc10_scratch0
abbrev scM10_1 : Memref sig .tc .vmem S16x128 .f32 := Memref.whole cc10_scratch1

section Region
-- the TensorCore's buffer contents when the launch is entered, and the launch's table
variable (V : (c : Dev nD) → (b : Ref sig .tc) → Buf (Elt F) ((c : Thread nD τ).loc b)) (a : (pcfg10 (F := F)).Adm)

/-- The table and the feature array, as vectors. -/
abbrev tb10 : Vec F S16x2000 .i32 := a.1 0
abbrev A10 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ10 (c : Dev nD) (n : ℕ) : sProp 𝕄 :=
  iprop(owns (c : Thread nD τ) tbM10 fullShare (tb10 a)
    ∗ owns (c : Thread nD τ) hbM10 fullShare (A10 V c)
    ∗ (∃ g : Vec F S1000x128 .f32, ⌜RowsOK10 (tb10 a) (A10 V c) n g⌝ ∗ owns (c : Thread nD τ) scM10_0 fullShare g)
    ∗ (∃ d, owns (c : Thread nD τ) scM10_1 fullShare d)
    ∗ cells24 c cc10_scratch2
    ∗ (∃ r, prngReg c r)
    ∗ Pipeline.scopedRestBut (Ix := Unit) (Name := ℕ) (U := UC) (Lvl := ℕ) (Val := Elt F) spec10 c [cc10_scratch0, cc10_scratch1])

/-! ## The windows' blocks and the proof data -/

/-- Window `w`'s block at point `t`, read off its array as the launch finds it. -/
def iblk10 (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- The proof data of the launch on core `c`: the arrays as the launch finds them; after the body at point `t` the
    weight window at its block and the output window at the product for `t`'s block of rows (read only at the block's
    last row, where the body stores it); the invariant above; nothing owed; full shares. -/
def dat10 (c : Dev nD) : Dat τ (Elt F) Unit ℕ UC ℕ (cfg10 a) c where
  A w := V c (Pipeline.arrRef spec10 w)
  after w t := match w with
    | ⟨0, _⟩ => iblk10 V a c 0 t
    | ⟨1, _⟩ => xBlk10 (tb10 a) (A10 V c) (iblk10 V a c 0 t) (t.val / 1000)
  Φ n := Φ10 V a c n.val
  q _ := fullShare
  owed _ := 0

/-- The proof data's arrays are the entry contents. -/
theorem A_eq10 (c : Dev nD) (w : Fin (cfg10 a).W) : (dat10 V a c).A w = V c (Pipeline.arrRef spec10 w) := by
  dsimp only [dat10]

/-- What the body leaves, window by window. -/
theorem after10_0 (c : Dev nD) (t : Fin (cfg10 a).N) : (dat10 V a c).after 0 t = iblk10 V a c 0 t := by dsimp only [dat10]; rfl
theorem after10_1 (c : Dev nD) (t : Fin (cfg10 a).N) :
    (dat10 V a c).after 1 t = xBlk10 (tb10 a) (A10 V c) (iblk10 V a c 0 t) (t.val / 1000) := by dsimp only [dat10]; rfl

/-- The invariant and the tallies, at a point. -/
theorem Phi10_eq (c : Dev nD) (n : Fin ((cfg10 a).N + 1)) : (dat10 V a c).Φ n = Φ10 V a c n.val := by dsimp only [dat10]
theorem owed10_eq (c : Dev nD) (n : Fin ((cfg10 a).N + 1)) : (dat10 V a c).owed n = 0 := by dsimp only [dat10]

/-- The weight window holds its block at every point, fetched there or not: its block index never moves. -/
theorem before10_0 (c : Dev nD) (t : Fin (cfg10 a).N) (d) : (dat10 V a c).before 0 t d = iblk10 V a c 0 t :=
  ((dat10 V a c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)

/-- The output window is written back after the last row of each block of rows, and only there; -/
theorem flush10_1 (t : Fin (cfg10 a).N) : ((cfg10 a).win 1).flush t = decide (t.val % 1000 = 999) := by
  unfold Window.flush
  exact flushB10 t
/-- and it is idle at every other row. -/
theorem idle10_1 (t : Fin (cfg10 a).N) : (cfg10 a).idle 1 ((cfg10 a).grid.coords t) = !decide (t.val % 1000 = 999) := by
  show (!(k10_cond1 (grid10.coords t) == 1#1)) = _
  congr 1
  by_cases h : t.val % 1000 = 999
  · rw [decide_eq_true h, (cond10_iff t).2 h]; rfl
  · rw [decide_eq_false h]
    exact beq_false_of_ne fun e => h ((cond10_iff t).1 e)

end Region

/-! ## The body obligation -/

section Body
variable (V : (c : Dev nD) → (b : Ref sig .tc) → Buf (Elt F) ((c : Thread nD τ).loc b)) (a : (pcfg10 (F := F)).Adm)

/-- Each window's current staging memref at point `t`, spelled as the pipeline passes it, and its wholeness. -/
abbrev ms10_0 (t : Fin (cfg10 a).N) : Memref sig .tc .vmem S128x128 .f32 := spec10_0.stage ((cfg10 a).slots t 0)
abbrev hs10_0 (t : Fin (cfg10 a).N) : (ms10_0 a t).IsWhole := hstage10_0 (((cfg10 a).slots t 0).cast nbuf10_0)
abbrev ms10_1 (t : Fin (cfg10 a).N) : Memref sig .tc .vmem S1000x128 .f32 := spec10_1.stage ((cfg10 a).slots t 1)
abbrev hs10_1 (t : Fin (cfg10 a).N) : (ms10_1 a t).IsWhole := hstage10_1 (((cfg10 a).slots t 1).cast nbuf10_1)

/-- The launch's body function, under the name the runs are stated at. -/
theorem bodyFn10_eq : cc10__gather_agg_matmul_kernel (F := F) = gatherFn := rfl

/-- The kernel body at point `t`, on what the pipeline calls it with. -/
abbrev bodyAt10 (t : Fin (cfg10 a).N) : Prog (TpuEff nD τ sig (Elt F) Λ₀ .tc) PUnit :=
  cc10__gather_agg_matmul_kernel (grid10.coords t) tbM10 (Memref.isWhole_whole _) hbM10 (Memref.isWhole_whole _)
    (ms10_0 a t) (hs10_0 a t) (ms10_1 a t) (hs10_1 a t) scM10_0 (Memref.isWhole_whole _) scM10_1 (Memref.isWhole_whole _) cc10_scratch2

/-- What the body is called with at point `t`, the windows one by one, -/
def bodyPre10 (c : Dev nD) (t : Fin (cfg10 a).N) : sProp 𝕄 :=
  iprop((dat10 V a c).Φ t.castSucc ∗ (dat10 V a c).owesAt () t.castSucc
    ∗ (∃ d, owns (c : Thread nD τ) (ms10_0 a t) fullShare ((dat10 V a c).before 0 t d))
    ∗ (∃ d, owns (c : Thread nD τ) (ms10_1 a t) fullShare ((dat10 V a c).before 1 t d)))

/-- and what it returns: the output window as it was found where the point is idle for it, at the block's product
    at the last row of a block. -/
def bodyPost10 (c : Dev nD) (t : Fin (cfg10 a).N) : sProp 𝕄 :=
  iprop((dat10 V a c).Φ t.succ ∗ (dat10 V a c).owesAt () t.succ
    ∗ owns (c : Thread nD τ) (ms10_0 a t) fullShare ((dat10 V a c).after 0 t)
    ∗ (match (cfg10 a).idle 1 ((cfg10 a).grid.coords t) with
        | true =>
          match ((cfg10 a).win 1).flush t with
          | false => iprop(∃ d, owns (c : Thread nD τ) (ms10_1 a t) fullShare ((dat10 V a c).before 1 t d))
          | true => owns (c : Thread nD τ) (ms10_1 a t) fullShare ((dat10 V a c).after 1 t)
        | false => owns (c : Thread nD τ) (ms10_1 a t) fullShare ((dat10 V a c).after 1 t)))

/-- The body at any point. The weight window holds its block; the invariant hands the body its table, the feature
    array, both scratch buffers and its transfer cells, and takes them back with the carried scratch one row further
    (`rowsOK10_step`); at the last row of a block the product the body stores is the block's (`rowAt10_last`); the core's
    `owes` goes in at whatever the points before recorded and comes back with this point's waits. -/
theorem sound_body10 (hR : InRange10 a.1) (c : Dev nD) (t : Fin (cfg10 a).N) :
    bodyPre10 V a c t ⊢ wp frame (wpE (defs₀ (F := F)) Variants.none c none) Set.univ (bodyAt10 a t) (fun _ => bodyPost10 V a c t) := by
  unfold bodyPre10 bodyPost10 bodyAt10
  rw [flush10_1, idle10_1]
  simp only [before10_0]
  rw [after10_0, Phi10_eq, Phi10_eq, Fin.val_succ, Fin.coe_castSucc]
  unfold Dat.owesAt Pipeline.owesWithin
  rw [owed10_eq, owed10_eq]
  unfold Φ10
  rw [bodyFn10_eq]
  by_cases hl : t.val % 1000 = 999
  · -- the last row of a block
    rw [decide_eq_true hl, Bool.not_true]
    dsimp only
    rw [after10_1]
    unfold xBlk10
    iintro ⟨⟨Htb, Hhb, ⟨%g, %hg, Hs0⟩, Hs1, Hcells, Hreg, Hrest⟩, ⟨%W, -, HW⟩, ⟨%d0, H0⟩, ⟨%d1, H1⟩⟩
    rw [← rowAt10_last (tb10 a) (A10 V c) t hl g hg]
    iapply (run24_last c (grid10.coords t) tbM10 (Memref.isWhole_whole _) hbM10 (Memref.isWhole_whole _) (ms10_0 a t) (hs10_0 a t)
      (ms10_1 a t) (hs10_1 a t) scM10_0 (Memref.isWhole_whole _) scM10_1 (Memref.isWhole_whole _) cc10_scratch2
      ((cond10_iff t).2 hl) (tb10 a) hR (A10 V c) (iblk10 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK10_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k10_cond1 (grid10.coords t) ≠ 1#1 := fun e => hl ((cond10_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid10.coords t) tbM10 (Memref.isWhole_whole _) hbM10 (Memref.isWhole_whole _) (ms10_0 a t) (hs10_0 a t)
      (ms10_1 a t) (hs10_1 a t) scM10_0 (Memref.isWhole_whole _) scM10_1 (Memref.isWhole_whole _) cc10_scratch2
      hc (tb10 a) hR (A10 V c) (iblk10 V a c 0 t) g
      (owns (c : Thread nD τ) (ms10_1 a t) fullShare ((dat10 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK10_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation10 (hR : InRange10 a.1) (c : Dev nD) :
    BodyObligation (dat10 (F := F) V a c) (defs₀ (F := F)) Variants.none () Set.univ := fun t => by
  rw [bigSep_W10, bigSep_W10]
  exact sound_body10 V a hR c t

end Body

/-! ## The value: what the launch leaves in its output array -/

section Value
variable (V : (c : Dev nD) → (b : Ref sig .tc) → Buf (Elt F) ((c : Thread nD τ).loc b)) (a : (pcfg10 (F := F)).Adm)

/-- Entry `(r, l)` of a block of rows. -/
def cell10 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk10 (tb : Vec F S16x2000 .i32) (A0 : Vec F S100000x128 .f32) (Wt : Vec F S128x128 .f32) : Vec F S2000x128 .f32 :=
  fun y => xBlk10 tb A0 Wt ((y 0).val / 1000) (cell10 ((y 0).val % 1000) (Nat.mod_lt _ (by decide)) (y 1))

/-- The weight window's block is the whole weight, at every point: its block index is (0, 0). -/
theorem wblk10_eq (c : Dev nD) (t : Fin (cfg10 a).N) : iblk10 V a c 0 t = (V c main_arg1 : Vec F S128x128 .f32) := by
  funext x
  unfold iblk10
  rw [View.read_apply]
  refine (cast_eq _ _).trans (congrArg (V c main_arg1) (funext fun b => Fin.ext ?_))
  refine (((cfg10 a).win 0).rect_emb_val_of_index_zero t b ?_ x)
  match b with
  | ⟨0, _⟩ => rfl
  | ⟨1, _⟩ => rfl

/-- Where entry `x` of the output window's block at point `t` sits in the output array. -/
abbrev emb10 (t : Fin (cfg10 a).N) (x : S1000x128.Idx) : S2000x128.Idx := (((cfg10 a).win 1).blk t).view.emb x

theorem emb10_val (t : Fin (cfg10 a).N) (x : S1000x128.Idx) :
    (emb10 a t x 0).val = t.val / 1000 * 1000 + (x 0).val ∧ (emb10 a t x 1).val = (x 1).val := by
  have hix : ((cfg10 a).win 1).index t = ![t.val / 1000, 0] := idx10_1 t
  have e0 := ((cfg10 a).win 1).rect_emb_val t x (0 : Fin 2)
  have e1 := ((cfg10 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after10_chunk (c : Dev nD) (t : Fin (cfg10 a).N) (x : S1000x128.Idx) :
    (dat10 V a c).after 1 t x = xChunk10 (tb10 a) (A10 V c) (V c main_arg1) (emb10 a t x) := by
  obtain ⟨e0, e1⟩ := emb10_val a t x
  have hx0 : (x 0).val < 1000 := (x 0).isLt
  rw [after10_1, wblk10_eq]
  unfold xChunk10
  have hq : (emb10 a t x 0).val / 1000 = t.val / 1000 := by rw [e0]; omega
  have hcell : cell10 ((emb10 a t x 0).val % 1000) (Nat.mod_lt _ (by decide)) (emb10 a t x 1) = x := by
    funext b
    apply Fin.ext
    match b with
    | ⟨0, _⟩ =>
      show (emb10 a t x 0).val % 1000 = (x 0).val
      rw [e0]; omega
    | ⟨1, _⟩ => exact e1
  rw [hq, hcell]

/-- Two entries of the output array with the same coordinates are the same. -/
theorem idx10_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb10_cell (t : Fin (cfg10 a).N) (i : S2000x128.Idx) (ht : t.val / 1000 = (i 0).val / 1000) :
    emb10 a t (cell10 ((i 0).val % 1000) (Nat.mod_lt _ (by decide)) (i 1)) = i := by
  obtain ⟨e0, e1⟩ := emb10_val a t (cell10 ((i 0).val % 1000) (Nat.mod_lt _ (by decide)) (i 1))
  refine idx10_ext _ _ ?_ e1
  rw [e0, ht]
  show (i 0).val / 1000 * 1000 + (i 0).val % 1000 = (i 0).val
  omega

/-- Every entry of the output array lies in the block written back after the last row of its block of rows. -/
theorem cover10 (i : S2000x128.Idx) :
    ∃ t : Fin (cfg10 a).N, ((cfg10 a).win 1).flush t = true ∧ i ∈ (((cfg10 a).win 1).blk t).view.set := by
  have hi0 : (i 0).val < 2000 := (i 0).isLt
  have hN : (i 0).val / 1000 * 1000 + 999 < (cfg10 a).N := by rw [N10]; omega
  refine ⟨⟨(i 0).val / 1000 * 1000 + 999, hN⟩, ?_, ?_⟩
  · rw [flush10_1]; exact decide_eq_true (by show ((i 0).val / 1000 * 1000 + 999) % 1000 = 999; omega)
  · refine Finset.mem_map.mpr ⟨cell10 ((i 0).val % 1000) (Nat.mod_lt _ (by decide)) (i 1), Finset.mem_univ _, ?_⟩
    exact emb10_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out10 (c : Dev nD) :
    (dat10 V a c).arrAt 1 (cfg10 a).N = (xChunk10 (tb10 a) (A10 V c) (V c main_arg1) : Vec F S2000x128 .f32) :=
  (dat10 V a c).arrAt_eq_of_cover 1 _
    (fun t _ => funext fun x => (after10_chunk V a c t x).trans (cast_eq _ _).symm)
    (cover10 a)

end Value

/-! ## The invariant's two ends -/

section Ends
variable (V : (c : Dev nD) → (b : Ref sig .tc) → Buf (Elt F) ((c : Thread nD τ).loc b)) (a : (pcfg10 (F := F)).Adm)

/-- The body's own transfer cells as the launch's protocol lists them: the 16 cells of its semaphore operand. -/
def osem10 : Fin 16 → SemLoc sig := fun k => SemLoc.dma (cc10_scratch2.ix (Shape.ofLane k))
/-- They are scoped, distinct, and none is a window's. -/
theorem ownSemFacts10 : Pipeline.OwnSemFacts spec10 osem10 := by decide
/-- The cells at zero, listed, are the cells as the body names them. -/
theorem cells10_eq (c : Dev nD) :
    (Pipeline.ownSems0 (Ix := Unit) (Name := ℕ) (U := UC) (Lvl := ℕ) (Val := Elt F) (τ := τ) osem10 c : sProp 𝕄) = cells24 c cc10_scratch2 := by
  rw [Pipeline.ownSems0_eq_of_list c osem10 [0, 1, 2, 3, 4, 5, 6, 7, 8, 9, 10, 11, 12, 13, 14, 15] (by decide) (by decide)]; rfl

/-- The launch's one table, held. -/
theorem prefHeld10_eq (c : Dev nD) (pf : pre10.Contents (Elt F)) :
    (Pipeline.prefHeld pre10 c (fun _ => fullShare) pf : sProp 𝕄) = (((c : Thread nD τ).loc main_v21) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X10 (c : Dev nD) : sProp 𝕄 :=
  iprop((∃ r, prngReg c r) ∗ Pipeline.ownSems0 (Ix := Unit) (Name := ℕ) (U := UC) (Lvl := ℕ) (Val := Elt F) (τ := τ) osem10 c
    ∗ (((c : Thread nD τ).loc main_arg0) ↦{fullShare} V c main_arg0))
abbrev Y10 (c : Dev nD) : sProp 𝕄 :=
  iprop((∃ r, prngReg c r) ∗ (((c : Thread nD τ).loc main_arg0) ↦{fullShare} V c main_arg0)
    ∗ Pipeline.prefHeld pre10 c (fun _ => fullShare) a.1)

/-- THE FIRST POINT: the invariant from what the launch's entry sorts out. Nothing is asked of the carried scratch. -/
theorem Phi10_in (c : Dev nD) :
    iprop(X10 V c ∗ Pipeline.prefHeld pre10 c (fun _ => fullShare) a.1
        ∗ Pipeline.scopedRest (Ix := Unit) (Name := ℕ) (U := UC) (Lvl := ℕ) (Val := Elt F) spec10 c)
      ⊢ (dat10 V a c).Φ 0 := by
  rw [Phi10_eq]
  unfold Φ10 X10
  rw [scopedRest10_split, prefHeld10_eq, cells10_eq]
  simp only [tbM10, hbM10, scM10_0, scM10_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK10_start _ _ _ rfl _
  isplitl [Hs1]; · iexact Hs1
  isplitl [Hcells]; · iexact Hcells
  isplitl [Hreg]; · iexact Hreg
  iexact Hrest

/-- THE LAST POINT: the invariant gives back what it took. -/
theorem Phi10_out (c : Dev nD) :
    (dat10 V a c).Φ (Fin.last _)
      ⊢ iprop(Y10 V a c ∗ Pipeline.ownSems0 (Ix := Unit) (Name := ℕ) (U := UC) (Lvl := ℕ) (Val := Elt F) (τ := τ) osem10 c
        ∗ Pipeline.scopedRest (Ix := Unit) (Name := ℕ) (U := UC) (Lvl := ℕ) (Val := Elt F) spec10 c) := by
  rw [Phi10_eq]
  unfold Φ10 Y10
  rw [scopedRest10_split, prefHeld10_eq, cells10_eq]
  simp only [tbM10, hbM10, scM10_0, scM10_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G11Dat.lean ====
/-
  One of the program's 25 gather launches (pipeline 11; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N11 (a : (pcfg11 (F := F)).Adm) : (cfg11 a).N = 2000 := N_11

/-- The body's branch is taken at the last row of a block of rows, -/
theorem cond11_iff : ∀ t : Fin grid11.N, k11_cond1 (grid11.coords t) = 1#1 ↔ t.val % 1000 = 999 := by decide +kernel
/-- the row a point works on is its number modulo 1000, -/
theorem rowAt11_coord : ∀ t : Fin grid11.N, (grid11.coords t 1).val = t.val % 1000 := by decide +kernel
/-- its block of rows is its number divided by 1000, -/
theorem blockAt11_coord : ∀ t : Fin grid11.N, (grid11.coords t 0).val = t.val / 1000 := by decide +kernel
/-- and the output's block index moves after exactly those points (and the grid ends at one). -/
theorem flushB11 : ∀ t : Fin grid11.N,
    (decide (t.val + 1 = grid11.N) || decide (∃ h : t.val + 1 < grid11.N, cc11_transform_2 (grid11.coords ⟨t.val + 1, h⟩) ≠ cc11_transform_2 (grid11.coords t)))
      = decide (t.val % 1000 = 999) := by decide +kernel

/-- The output's block index at a point: the point's block of rows. -/
theorem idx11_1 : ∀ t : Fin grid11.N, cc11_transform_2 (grid11.coords t) = ![t.val / 1000, 0] := by decide +kernel

/-- Every word of the launch's table names a row of the feature array. -/
def InRange11 (pf : pre11.Contents (Elt F)) : Prop := ∀ x : S16x2000.Idx, ((pf 0 : Vec F S16x2000 .i32) x).toNat < 100000

/-! ## The values -/

/-- Lane `l` of a one-row vector. -/
def lane11 (l : Fin 128) : S1x128.Idx := fun a => ⟨if a.val = 0 then 0 else l.val, by
  match a with
  | ⟨0, _⟩ => exact Nat.one_pos
  | ⟨1, _⟩ => exact l.isLt⟩

theorem lane11_one (l : Fin 128) : (lane11 l 1).val = l.val := rfl

/-- The grid point of row `r` of block `q` (total: the point number is taken modulo the grid's size). -/
def pt11 (q : ℕ) (r : ℕ) : Fin grid11.N := ⟨(q * 1000 + r) % grid11.N, Nat.mod_lt _ (by decide)⟩

/-- Inside the grid the point's number is `1000 q + r`. -/
theorem pt11_val (q r : ℕ) (hq : q < 2) (hr : r < 1000) : (pt11 q r).val = q * 1000 + r := by
  show (q * 1000 + r) % grid11.N = q * 1000 + r
  rw [N_11]; omega

/-- A point is the point of its block and row. -/
theorem pt11_self (t : Fin grid11.N) : pt11 (t.val / 1000) (t.val % 1000) = t := by
  apply Fin.ext
  show (t.val / 1000 * 1000 + t.val % 1000) % grid11.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means11 (tb : Vec F S16x2000 .i32) (A0 : Vec F S100000x128 .f32) (q : ℕ) : Vec F S1000x128 .f32 :=
  fun x => Gen.k24_pay1 (gath24 (grid11.coords (pt11 q (x 0).val)) tb A0) (lane11 (x 1))

/-- What the body stores in the output window at the last row of block `q`: the means, rounded, times the weight, rounded. -/
def xBlk11 (tb : Vec F S16x2000 .i32) (A0 : Vec F S100000x128 .f32) (Wt : Vec F S128x128 .f32) (q : ℕ) : Vec F S1000x128 .f32 :=
  Gen.k24_pay2 (means11 tb A0 q) Wt

/-- The carried scratch before point `n`: its rows below `n % 1000` are the means of block `n / 1000`. -/
def RowsOK11 (tb : Vec F S16x2000 .i32) (A0 : Vec F S100000x128 .f32) (n : ℕ) (g : Vec F S1000x128 .f32) : Prop :=
  ∀ x : S1000x128.Idx, (x 0).val < n % 1000 → g x = means11 tb A0 (n / 1000) x

/-- At the first row of a block nothing is asked. -/
theorem rowsOK11_start (tb : Vec F S16x2000 .i32) (A0 : Vec F S100000x128 .f32) (n : ℕ) (hn : n % 1000 = 0) (g : Vec F S1000x128 .f32) :
    RowsOK11 tb A0 n g := fun x hx => absurd hx (by omega)

/-- One point's row store keeps the invariant's rows and adds its own: after the store at point `t` the rows up to
    `t % 1000` are means. -/
theorem rowAt11_means (tb : Vec F S16x2000 .i32) (A0 : Vec F S100000x128 .f32) (t : Fin grid11.N) (g : Vec F S1000x128 .f32)
    (hg : RowsOK11 tb A0 t.val g) (x : S1000x128.Idx) (hx : (x 0).val ≤ t.val % 1000) :
    row24 (grid11.coords t) tb A0 g x = means11 tb A0 (t.val / 1000) x := by
  by_cases h : (x 0).val = t.val % 1000
  · rw [row24_of_eq (grid11.coords t) tb A0 g x (by rw [rowAt11_coord]; exact h) (lane11 (x 1)) rfl]
    unfold means11
    rw [h, pt11_self]
  · rw [row24_of_ne (grid11.coords t) tb A0 g x (by rw [rowAt11_coord]; exact h)]
    exact hg x (by omega)

/-- Within a block the invariant steps. -/
theorem rowsOK11_step (tb : Vec F S16x2000 .i32) (A0 : Vec F S100000x128 .f32) (t : Fin grid11.N) (g : Vec F S1000x128 .f32)
    (hg : RowsOK11 tb A0 t.val g) : RowsOK11 tb A0 (t.val + 1) (row24 (grid11.coords t) tb A0 g) := by
  by_cases hl : t.val % 1000 = 999
  · exact rowsOK11_start _ _ _ (by omega) _
  · intro x hx
    have h1 : (t.val + 1) / 1000 = t.val / 1000 := by omega
    rw [h1]
    exact rowAt11_means tb A0 t g hg x (by omega)

/-- At the last row of a block the scratch, after the row store, is the block's means whatever it held before. -/
theorem rowAt11_last (tb : Vec F S16x2000 .i32) (A0 : Vec F S100000x128 .f32) (t : Fin grid11.N) (hl : t.val % 1000 = 999)
    (g : Vec F S1000x128 .f32) (hg : RowsOK11 tb A0 t.val g) :
    row24 (grid11.coords t) tb A0 g = means11 tb A0 (t.val / 1000) :=
  funext fun x => rowAt11_means tb A0 t g hg x (by have : (x 0).val < 1000 := (x 0).isLt; omega)

/-! ## The invariant -/

/-- The launch's operands that no window stages, as the body is handed them: its table, the feature array left in
    HBM, and its two scratch buffers — whole buffers. -/
abbrev tbM11 : Memref sig .tc .smem S16x2000 .i32 := Memref.whole main_v23
abbrev hbM11 : Memref sig .tc .hbm S100000x128 .f32 := Memref.whole main_arg0
abbrev scM11_0 : Memref sig .tc .vmem S1000x128 .f32 := Memref.whole cc11_scratch0
abbrev scM11_1 : Memref sig .tc .vmem S16x128 .f32 := Memref.whole cc11_scratch1

section Region
-- the TensorCore's buffer contents when the launch is entered, and the launch's table
variable (V : (c : Dev nD) → (b : Ref sig .tc) → Buf (Elt F) ((c : Thread nD τ).loc b)) (a : (pcfg11 (F := F)).Adm)

/-- The table and the feature array, as vectors. -/
abbrev tb11 : Vec F S16x2000 .i32 := a.1 0
abbrev A11 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ11 (c : Dev nD) (n : ℕ) : sProp 𝕄 :=
  iprop(owns (c : Thread nD τ) tbM11 fullShare (tb11 a)
    ∗ owns (c : Thread nD τ) hbM11 fullShare (A11 V c)
    ∗ (∃ g : Vec F S1000x128 .f32, ⌜RowsOK11 (tb11 a) (A11 V c) n g⌝ ∗ owns (c : Thread nD τ) scM11_0 fullShare g)
    ∗ (∃ d, owns (c : Thread nD τ) scM11_1 fullShare d)
    ∗ cells24 c cc11_scratch2
    ∗ (∃ r, prngReg c r)
    ∗ Pipeline.scopedRestBut (Ix := Unit) (Name := ℕ) (U := UC) (Lvl := ℕ) (Val := Elt F) spec11 c [cc11_scratch0, cc11_scratch1])

/-! ## The windows' blocks and the proof data -/

/-- Window `w`'s block at point `t`, read off its array as the launch finds it. -/
def iblk11 (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- The proof data of the launch on core `c`: the arrays as the launch finds them; after the body at point `t` the
    weight window at its block and the output window at the product for `t`'s block of rows (read only at the block's
    last row, where the body stores it); the invariant above; nothing owed; full shares. -/
def dat11 (c : Dev nD) : Dat τ (Elt F) Unit ℕ UC ℕ (cfg11 a) c where
  A w := V c (Pipeline.arrRef spec11 w)
  after w t := match w with
    | ⟨0, _⟩ => iblk11 V a c 0 t
    | ⟨1, _⟩ => xBlk11 (tb11 a) (A11 V c) (iblk11 V a c 0 t) (t.val / 1000)
  Φ n := Φ11 V a c n.val
  q _ := fullShare
  owed _ := 0

/-- The proof data's arrays are the entry contents. -/
theorem A_eq11 (c : Dev nD) (w : Fin (cfg11 a).W) : (dat11 V a c).A w = V c (Pipeline.arrRef spec11 w) := by
  dsimp only [dat11]

/-- What the body leaves, window by window. -/
theorem after11_0 (c : Dev nD) (t : Fin (cfg11 a).N) : (dat11 V a c).after 0 t = iblk11 V a c 0 t := by dsimp only [dat11]; rfl
theorem after11_1 (c : Dev nD) (t : Fin (cfg11 a).N) :
    (dat11 V a c).after 1 t = xBlk11 (tb11 a) (A11 V c) (iblk11 V a c 0 t) (t.val / 1000) := by dsimp only [dat11]; rfl

/-- The invariant and the tallies, at a point. -/
theorem Phi11_eq (c : Dev nD) (n : Fin ((cfg11 a).N + 1)) : (dat11 V a c).Φ n = Φ11 V a c n.val := by dsimp only [dat11]
theorem owed11_eq (c : Dev nD) (n : Fin ((cfg11 a).N + 1)) : (dat11 V a c).owed n = 0 := by dsimp only [dat11]

/-- The weight window holds its block at every point, fetched there or not: its block index never moves. -/
theorem before11_0 (c : Dev nD) (t : Fin (cfg11 a).N) (d) : (dat11 V a c).before 0 t d = iblk11 V a c 0 t :=
  ((dat11 V a c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)

/-- The output window is written back after the last row of each block of rows, and only there; -/
theorem flush11_1 (t : Fin (cfg11 a).N) : ((cfg11 a).win 1).flush t = decide (t.val % 1000 = 999) := by
  unfold Window.flush
  exact flushB11 t
/-- and it is idle at every other row. -/
theorem idle11_1 (t : Fin (cfg11 a).N) : (cfg11 a).idle 1 ((cfg11 a).grid.coords t) = !decide (t.val % 1000 = 999) := by
  show (!(k11_cond1 (grid11.coords t) == 1#1)) = _
  congr 1
  by_cases h : t.val % 1000 = 999
  · rw [decide_eq_true h, (cond11_iff t).2 h]; rfl
  · rw [decide_eq_false h]
    exact beq_false_of_ne fun e => h ((cond11_iff t).1 e)

end Region

/-! ## The body obligation -/

section Body
variable (V : (c : Dev nD) → (b : Ref sig .tc) → Buf (Elt F) ((c : Thread nD τ).loc b)) (a : (pcfg11 (F := F)).Adm)

/-- Each window's current staging memref at point `t`, spelled as the pipeline passes it, and its wholeness. -/
abbrev ms11_0 (t : Fin (cfg11 a).N) : Memref sig .tc .vmem S128x128 .f32 := spec11_0.stage ((cfg11 a).slots t 0)
abbrev hs11_0 (t : Fin (cfg11 a).N) : (ms11_0 a t).IsWhole := hstage11_0 (((cfg11 a).slots t 0).cast nbuf11_0)
abbrev ms11_1 (t : Fin (cfg11 a).N) : Memref sig .tc .vmem S1000x128 .f32 := spec11_1.stage ((cfg11 a).slots t 1)
abbrev hs11_1 (t : Fin (cfg11 a).N) : (ms11_1 a t).IsWhole := hstage11_1 (((cfg11 a).slots t 1).cast nbuf11_1)

/-- The launch's body function, under the name the runs are stated at. -/
theorem bodyFn11_eq : cc11__gather_agg_matmul_kernel (F := F) = gatherFn := rfl

/-- The kernel body at point `t`, on what the pipeline calls it with. -/
abbrev bodyAt11 (t : Fin (cfg11 a).N) : Prog (TpuEff nD τ sig (Elt F) Λ₀ .tc) PUnit :=
  cc11__gather_agg_matmul_kernel (grid11.coords t) tbM11 (Memref.isWhole_whole _) hbM11 (Memref.isWhole_whole _)
    (ms11_0 a t) (hs11_0 a t) (ms11_1 a t) (hs11_1 a t) scM11_0 (Memref.isWhole_whole _) scM11_1 (Memref.isWhole_whole _) cc11_scratch2

/-- What the body is called with at point `t`, the windows one by one, -/
def bodyPre11 (c : Dev nD) (t : Fin (cfg11 a).N) : sProp 𝕄 :=
  iprop((dat11 V a c).Φ t.castSucc ∗ (dat11 V a c).owesAt () t.castSucc
    ∗ (∃ d, owns (c : Thread nD τ) (ms11_0 a t) fullShare ((dat11 V a c).before 0 t d))
    ∗ (∃ d, owns (c : Thread nD τ) (ms11_1 a t) fullShare ((dat11 V a c).before 1 t d)))

/-- and what it returns: the output window as it was found where the point is idle for it, at the block's product
    at the last row of a block. -/
def bodyPost11 (c : Dev nD) (t : Fin (cfg11 a).N) : sProp 𝕄 :=
  iprop((dat11 V a c).Φ t.succ ∗ (dat11 V a c).owesAt () t.succ
    ∗ owns (c : Thread nD τ) (ms11_0 a t) fullShare ((dat11 V a c).after 0 t)
    ∗ (match (cfg11 a).idle 1 ((cfg11 a).grid.coords t) with
        | true =>
          match ((cfg11 a).win 1).flush t with
          | false => iprop(∃ d, owns (c : Thread nD τ) (ms11_1 a t) fullShare ((dat11 V a c).before 1 t d))
          | true => owns (c : Thread nD τ) (ms11_1 a t) fullShare ((dat11 V a c).after 1 t)
        | false => owns (c : Thread nD τ) (ms11_1 a t) fullShare ((dat11 V a c).after 1 t)))

/-- The body at any point. The weight window holds its block; the invariant hands the body its table, the feature
    array, both scratch buffers and its transfer cells, and takes them back with the carried scratch one row further
    (`rowsOK11_step`); at the last row of a block the product the body stores is the block's (`rowAt11_last`); the core's
    `owes` goes in at whatever the points before recorded and comes back with this point's waits. -/
theorem sound_body11 (hR : InRange11 a.1) (c : Dev nD) (t : Fin (cfg11 a).N) :
    bodyPre11 V a c t ⊢ wp frame (wpE (defs₀ (F := F)) Variants.none c none) Set.univ (bodyAt11 a t) (fun _ => bodyPost11 V a c t) := by
  unfold bodyPre11 bodyPost11 bodyAt11
  rw [flush11_1, idle11_1]
  simp only [before11_0]
  rw [after11_0, Phi11_eq, Phi11_eq, Fin.val_succ, Fin.coe_castSucc]
  unfold Dat.owesAt Pipeline.owesWithin
  rw [owed11_eq, owed11_eq]
  unfold Φ11
  rw [bodyFn11_eq]
  by_cases hl : t.val % 1000 = 999
  · -- the last row of a block
    rw [decide_eq_true hl, Bool.not_true]
    dsimp only
    rw [after11_1]
    unfold xBlk11
    iintro ⟨⟨Htb, Hhb, ⟨%g, %hg, Hs0⟩, Hs1, Hcells, Hreg, Hrest⟩, ⟨%W, -, HW⟩, ⟨%d0, H0⟩, ⟨%d1, H1⟩⟩
    rw [← rowAt11_last (tb11 a) (A11 V c) t hl g hg]
    iapply (run24_last c (grid11.coords t) tbM11 (Memref.isWhole_whole _) hbM11 (Memref.isWhole_whole _) (ms11_0 a t) (hs11_0 a t)
      (ms11_1 a t) (hs11_1 a t) scM11_0 (Memref.isWhole_whole _) scM11_1 (Memref.isWhole_whole _) cc11_scratch2
      ((cond11_iff t).2 hl) (tb11 a) hR (A11 V c) (iblk11 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK11_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k11_cond1 (grid11.coords t) ≠ 1#1 := fun e => hl ((cond11_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid11.coords t) tbM11 (Memref.isWhole_whole _) hbM11 (Memref.isWhole_whole _) (ms11_0 a t) (hs11_0 a t)
      (ms11_1 a t) (hs11_1 a t) scM11_0 (Memref.isWhole_whole _) scM11_1 (Memref.isWhole_whole _) cc11_scratch2
      hc (tb11 a) hR (A11 V c) (iblk11 V a c 0 t) g
      (owns (c : Thread nD τ) (ms11_1 a t) fullShare ((dat11 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK11_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation11 (hR : InRange11 a.1) (c : Dev nD) :
    BodyObligation (dat11 (F := F) V a c) (defs₀ (F := F)) Variants.none () Set.univ := fun t => by
  rw [bigSep_W11, bigSep_W11]
  exact sound_body11 V a hR c t

end Body

/-! ## The value: what the launch leaves in its output array -/

section Value
variable (V : (c : Dev nD) → (b : Ref sig .tc) → Buf (Elt F) ((c : Thread nD τ).loc b)) (a : (pcfg11 (F := F)).Adm)

/-- Entry `(r, l)` of a block of rows. -/
def cell11 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk11 (tb : Vec F S16x2000 .i32) (A0 : Vec F S100000x128 .f32) (Wt : Vec F S128x128 .f32) : Vec F S2000x128 .f32 :=
  fun y => xBlk11 tb A0 Wt ((y 0).val / 1000) (cell11 ((y 0).val % 1000) (Nat.mod_lt _ (by decide)) (y 1))

/-- The weight window's block is the whole weight, at every point: its block index is (0, 0). -/
theorem wblk11_eq (c : Dev nD) (t : Fin (cfg11 a).N) : iblk11 V a c 0 t = (V c main_arg1 : Vec F S128x128 .f32) := by
  funext x
  unfold iblk11
  rw [View.read_apply]
  refine (cast_eq _ _).trans (congrArg (V c main_arg1) (funext fun b => Fin.ext ?_))
  refine (((cfg11 a).win 0).rect_emb_val_of_index_zero t b ?_ x)
  match b with
  | ⟨0, _⟩ => rfl
  | ⟨1, _⟩ => rfl

/-- Where entry `x` of the output window's block at point `t` sits in the output array. -/
abbrev emb11 (t : Fin (cfg11 a).N) (x : S1000x128.Idx) : S2000x128.Idx := (((cfg11 a).win 1).blk t).view.emb x

theorem emb11_val (t : Fin (cfg11 a).N) (x : S1000x128.Idx) :
    (emb11 a t x 0).val = t.val / 1000 * 1000 + (x 0).val ∧ (emb11 a t x 1).val = (x 1).val := by
  have hix : ((cfg11 a).win 1).index t = ![t.val / 1000, 0] := idx11_1 t
  have e0 := ((cfg11 a).win 1).rect_emb_val t x (0 : Fin 2)
  have e1 := ((cfg11 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after11_chunk (c : Dev nD) (t : Fin (cfg11 a).N) (x : S1000x128.Idx) :
    (dat11 V a c).after 1 t x = xChunk11 (tb11 a) (A11 V c) (V c main_arg1) (emb11 a t x) := by
  obtain ⟨e0, e1⟩ := emb11_val a t x
  have hx0 : (x 0).val < 1000 := (x 0).isLt
  rw [after11_1, wblk11_eq]
  unfold xChunk11
  have hq : (emb11 a t x 0).val / 1000 = t.val / 1000 := by rw [e0]; omega
  have hcell : cell11 ((emb11 a t x 0).val % 1000) (Nat.mod_lt _ (by decide)) (emb11 a t x 1) = x := by
    funext b
    apply Fin.ext
    match b with
    | ⟨0, _⟩ =>
      show (emb11 a t x 0).val % 1000 = (x 0).val
      rw [e0]; omega
    | ⟨1, _⟩ => exact e1
  rw [hq, hcell]

/-- Two entries of the output array with the same coordinates are the same. -/
theorem idx11_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb11_cell (t : Fin (cfg11 a).N) (i : S2000x128.Idx) (ht : t.val / 1000 = (i 0).val / 1000) :
    emb11 a t (cell11 ((i 0).val % 1000) (Nat.mod_lt _ (by decide)) (i 1)) = i := by
  obtain ⟨e0, e1⟩ := emb11_val a t (cell11 ((i 0).val % 1000) (Nat.mod_lt _ (by decide)) (i 1))
  refine idx11_ext _ _ ?_ e1
  rw [e0, ht]
  show (i 0).val / 1000 * 1000 + (i 0).val % 1000 = (i 0).val
  omega

/-- Every entry of the output array lies in the block written back after the last row of its block of rows. -/
theorem cover11 (i : S2000x128.Idx) :
    ∃ t : Fin (cfg11 a).N, ((cfg11 a).win 1).flush t = true ∧ i ∈ (((cfg11 a).win 1).blk t).view.set := by
  have hi0 : (i 0).val < 2000 := (i 0).isLt
  have hN : (i 0).val / 1000 * 1000 + 999 < (cfg11 a).N := by rw [N11]; omega
  refine ⟨⟨(i 0).val / 1000 * 1000 + 999, hN⟩, ?_, ?_⟩
  · rw [flush11_1]; exact decide_eq_true (by show ((i 0).val / 1000 * 1000 + 999) % 1000 = 999; omega)
  · refine Finset.mem_map.mpr ⟨cell11 ((i 0).val % 1000) (Nat.mod_lt _ (by decide)) (i 1), Finset.mem_univ _, ?_⟩
    exact emb11_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out11 (c : Dev nD) :
    (dat11 V a c).arrAt 1 (cfg11 a).N = (xChunk11 (tb11 a) (A11 V c) (V c main_arg1) : Vec F S2000x128 .f32) :=
  (dat11 V a c).arrAt_eq_of_cover 1 _
    (fun t _ => funext fun x => (after11_chunk V a c t x).trans (cast_eq _ _).symm)
    (cover11 a)

end Value

/-! ## The invariant's two ends -/

section Ends
variable (V : (c : Dev nD) → (b : Ref sig .tc) → Buf (Elt F) ((c : Thread nD τ).loc b)) (a : (pcfg11 (F := F)).Adm)

/-- The body's own transfer cells as the launch's protocol lists them: the 16 cells of its semaphore operand. -/
def osem11 : Fin 16 → SemLoc sig := fun k => SemLoc.dma (cc11_scratch2.ix (Shape.ofLane k))
/-- They are scoped, distinct, and none is a window's. -/
theorem ownSemFacts11 : Pipeline.OwnSemFacts spec11 osem11 := by decide
/-- The cells at zero, listed, are the cells as the body names them. -/
theorem cells11_eq (c : Dev nD) :
    (Pipeline.ownSems0 (Ix := Unit) (Name := ℕ) (U := UC) (Lvl := ℕ) (Val := Elt F) (τ := τ) osem11 c : sProp 𝕄) = cells24 c cc11_scratch2 := by
  rw [Pipeline.ownSems0_eq_of_list c osem11 [0, 1, 2, 3, 4, 5, 6, 7, 8, 9, 10, 11, 12, 13, 14, 15] (by decide) (by decide)]; rfl

/-- The launch's one table, held. -/
theorem prefHeld11_eq (c : Dev nD) (pf : pre11.Contents (Elt F)) :
    (Pipeline.prefHeld pre11 c (fun _ => fullShare) pf : sProp 𝕄) = (((c : Thread nD τ).loc main_v23) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X11 (c : Dev nD) : sProp 𝕄 :=
  iprop((∃ r, prngReg c r) ∗ Pipeline.ownSems0 (Ix := Unit) (Name := ℕ) (U := UC) (Lvl := ℕ) (Val := Elt F) (τ := τ) osem11 c
    ∗ (((c : Thread nD τ).loc main_arg0) ↦{fullShare} V c main_arg0))
abbrev Y11 (c : Dev nD) : sProp 𝕄 :=
  iprop((∃ r, prngReg c r) ∗ (((c : Thread nD τ).loc main_arg0) ↦{fullShare} V c main_arg0)
    ∗ Pipeline.prefHeld pre11 c (fun _ => fullShare) a.1)

/-- THE FIRST POINT: the invariant from what the launch's entry sorts out. Nothing is asked of the carried scratch. -/
theorem Phi11_in (c : Dev nD) :
    iprop(X11 V c ∗ Pipeline.prefHeld pre11 c (fun _ => fullShare) a.1
        ∗ Pipeline.scopedRest (Ix := Unit) (Name := ℕ) (U := UC) (Lvl := ℕ) (Val := Elt F) spec11 c)
      ⊢ (dat11 V a c).Φ 0 := by
  rw [Phi11_eq]
  unfold Φ11 X11
  rw [scopedRest11_split, prefHeld11_eq, cells11_eq]
  simp only [tbM11, hbM11, scM11_0, scM11_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK11_start _ _ _ rfl _
  isplitl [Hs1]; · iexact Hs1
  isplitl [Hcells]; · iexact Hcells
  isplitl [Hreg]; · iexact Hreg
  iexact Hrest

/-- THE LAST POINT: the invariant gives back what it took. -/
theorem Phi11_out (c : Dev nD) :
    (dat11 V a c).Φ (Fin.last _)
      ⊢ iprop(Y11 V a c ∗ Pipeline.ownSems0 (Ix := Unit) (Name := ℕ) (U := UC) (Lvl := ℕ) (Val := Elt F) (τ := τ) osem11 c
        ∗ Pipeline.scopedRest (Ix := Unit) (Name := ℕ) (U := UC) (Lvl := ℕ) (Val := Elt F) spec11 c) := by
  rw [Phi11_eq]
  unfold Φ11 Y11
  rw [scopedRest11_split, prefHeld11_eq, cells11_eq]
  simp only [tbM11, hbM11, scM11_0, scM11_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G12Dat.lean ====
/-
  One of the program's 25 gather launches (pipeline 12; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N12 (a : (pcfg12 (F := F)).Adm) : (cfg12 a).N = 2000 := N_12

/-- The body's branch is taken at the last row of a block of rows, -/
theorem cond12_iff : ∀ t : Fin grid12.N, k12_cond1 (grid12.coords t) = 1#1 ↔ t.val % 1000 = 999 := by decide +kernel
/-- the row a point works on is its number modulo 1000, -/
theorem rowAt12_coord : ∀ t : Fin grid12.N, (grid12.coords t 1).val = t.val % 1000 := by decide +kernel
/-- its block of rows is its number divided by 1000, -/
theorem blockAt12_coord : ∀ t : Fin grid12.N, (grid12.coords t 0).val = t.val / 1000 := by decide +kernel
/-- and the output's block index moves after exactly those points (and the grid ends at one). -/
theorem flushB12 : ∀ t : Fin grid12.N,
    (decide (t.val + 1 = grid12.N) || decide (∃ h : t.val + 1 < grid12.N, cc12_transform_2 (grid12.coords ⟨t.val + 1, h⟩) ≠ cc12_transform_2 (grid12.coords t)))
      = decide (t.val % 1000 = 999) := by decide +kernel

/-- The output's block index at a point: the point's block of rows. -/
theorem idx12_1 : ∀ t : Fin grid12.N, cc12_transform_2 (grid12.coords t) = ![t.val / 1000, 0] := by decide +kernel

/-- Every word of the launch's table names a row of the feature array. -/
def InRange12 (pf : pre12.Contents (Elt F)) : Prop := ∀ x : S16x2000.Idx, ((pf 0 : Vec F S16x2000 .i32) x).toNat < 100000

/-! ## The values -/

/-- Lane `l` of a one-row vector. -/
def lane12 (l : Fin 128) : S1x128.Idx := fun a => ⟨if a.val = 0 then 0 else l.val, by
  match a with
  | ⟨0, _⟩ => exact Nat.one_pos
  | ⟨1, _⟩ => exact l.isLt⟩

theorem lane12_one (l : Fin 128) : (lane12 l 1).val = l.val := rfl

/-- The grid point of row `r` of block `q` (total: the point number is taken modulo the grid's size). -/
def pt12 (q : ℕ) (r : ℕ) : Fin grid12.N := ⟨(q * 1000 + r) % grid12.N, Nat.mod_lt _ (by decide)⟩

/-- Inside the grid the point's number is `1000 q + r`. -/
theorem pt12_val (q r : ℕ) (hq : q < 2) (hr : r < 1000) : (pt12 q r).val = q * 1000 + r := by
  show (q * 1000 + r) % grid12.N = q * 1000 + r
  rw [N_12]; omega

/-- A point is the point of its block and row. -/
theorem pt12_self (t : Fin grid12.N) : pt12 (t.val / 1000) (t.val % 1000) = t := by
  apply Fin.ext
  show (t.val / 1000 * 1000 + t.val % 1000) % grid12.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means12 (tb : Vec F S16x2000 .i32) (A0 : Vec F S100000x128 .f32) (q : ℕ) : Vec F S1000x128 .f32 :=
  fun x => Gen.k24_pay1 (gath24 (grid12.coords (pt12 q (x 0).val)) tb A0) (lane12 (x 1))

/-- What the body stores in the output window at the last row of block `q`: the means, rounded, times the weight, rounded. -/
def xBlk12 (tb : Vec F S16x2000 .i32) (A0 : Vec F S100000x128 .f32) (Wt : Vec F S128x128 .f32) (q : ℕ) : Vec F S1000x128 .f32 :=
  Gen.k24_pay2 (means12 tb A0 q) Wt

/-- The carried scratch before point `n`: its rows below `n % 1000` are the means of block `n / 1000`. -/
def RowsOK12 (tb : Vec F S16x2000 .i32) (A0 : Vec F S100000x128 .f32) (n : ℕ) (g : Vec F S1000x128 .f32) : Prop :=
  ∀ x : S1000x128.Idx, (x 0).val < n % 1000 → g x = means12 tb A0 (n / 1000) x

/-- At the first row of a block nothing is asked. -/
theorem rowsOK12_start (tb : Vec F S16x2000 .i32) (A0 : Vec F S100000x128 .f32) (n : ℕ) (hn : n % 1000 = 0) (g : Vec F S1000x128 .f32) :
    RowsOK12 tb A0 n g := fun x hx => absurd hx (by omega)

/-- One point's row store keeps the invariant's rows and adds its own: after the store at point `t` the rows up to
    `t % 1000` are means. -/
theorem rowAt12_means (tb : Vec F S16x2000 .i32) (A0 : Vec F S100000x128 .f32) (t : Fin grid12.N) (g : Vec F S1000x128 .f32)
    (hg : RowsOK12 tb A0 t.val g) (x : S1000x128.Idx) (hx : (x 0).val ≤ t.val % 1000) :
    row24 (grid12.coords t) tb A0 g x = means12 tb A0 (t.val / 1000) x := by
  by_cases h : (x 0).val = t.val % 1000
  · rw [row24_of_eq (grid12.coords t) tb A0 g x (by rw [rowAt12_coord]; exact h) (lane12 (x 1)) rfl]
    unfold means12
    rw [h, pt12_self]
  · rw [row24_of_ne (grid12.coords t) tb A0 g x (by rw [rowAt12_coord]; exact h)]
    exact hg x (by omega)

/-- Within a block the invariant steps. -/
theorem rowsOK12_step (tb : Vec F S16x2000 .i32) (A0 : Vec F S100000x128 .f32) (t : Fin grid12.N) (g : Vec F S1000x128 .f32)
    (hg : RowsOK12 tb A0 t.val g) : RowsOK12 tb A0 (t.val + 1) (row24 (grid12.coords t) tb A0 g) := by
  by_cases hl : t.val % 1000 = 999
  · exact rowsOK12_start _ _ _ (by omega) _
  · intro x hx
    have h1 : (t.val + 1) / 1000 = t.val / 1000 := by omega
    rw [h1]
    exact rowAt12_means tb A0 t g hg x (by omega)

/-- At the last row of a block the scratch, after the row store, is the block's means whatever it held before. -/
theorem rowAt12_last (tb : Vec F S16x2000 .i32) (A0 : Vec F S100000x128 .f32) (t : Fin grid12.N) (hl : t.val % 1000 = 999)
    (g : Vec F S1000x128 .f32) (hg : RowsOK12 tb A0 t.val g) :
    row24 (grid12.coords t) tb A0 g = means12 tb A0 (t.val / 1000) :=
  funext fun x => rowAt12_means tb A0 t g hg x (by have : (x 0).val < 1000 := (x 0).isLt; omega)

/-! ## The invariant -/

/-- The launch's operands that no window stages, as the body is handed them: its table, the feature array left in
    HBM, and its two scratch buffers — whole buffers. -/
abbrev tbM12 : Memref sig .tc .smem S16x2000 .i32 := Memref.whole main_v25
abbrev hbM12 : Memref sig .tc .hbm S100000x128 .f32 := Memref.whole main_arg0
abbrev scM12_0 : Memref sig .tc .vmem S1000x128 .f32 := Memref.whole cc12_scratch0
abbrev scM12_1 : Memref sig .tc .vmem S16x128 .f32 := Memref.whole cc12_scratch1

section Region
-- the TensorCore's buffer contents when the launch is entered, and the launch's table
variable (V : (c : Dev nD) → (b : Ref sig .tc) → Buf (Elt F) ((c : Thread nD τ).loc b)) (a : (pcfg12 (F := F)).Adm)

/-- The table and the feature array, as vectors. -/
abbrev tb12 : Vec F S16x2000 .i32 := a.1 0
abbrev A12 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ12 (c : Dev nD) (n : ℕ) : sProp 𝕄 :=
  iprop(owns (c : Thread nD τ) tbM12 fullShare (tb12 a)
    ∗ owns (c : Thread nD τ) hbM12 fullShare (A12 V c)
    ∗ (∃ g : Vec F S1000x128 .f32, ⌜RowsOK12 (tb12 a) (A12 V c) n g⌝ ∗ owns (c : Thread nD τ) scM12_0 fullShare g)
    ∗ (∃ d, owns (c : Thread nD τ) scM12_1 fullShare d)
    ∗ cells24 c cc12_scratch2
    ∗ (∃ r, prngReg c r)
    ∗ Pipeline.scopedRestBut (Ix := Unit) (Name := ℕ) (U := UC) (Lvl := ℕ) (Val := Elt F) spec12 c [cc12_scratch0, cc12_scratch1])

/-! ## The windows' blocks and the proof data -/

/-- Window `w`'s block at point `t`, read off its array as the launch finds it. -/
def iblk12 (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- The proof data of the launch on core `c`: the arrays as the launch finds them; after the body at point `t` the
    weight window at its block and the output window at the product for `t`'s block of rows (read only at the block's
    last row, where the body stores it); the invariant above; nothing owed; full shares. -/
def dat12 (c : Dev nD) : Dat τ (Elt F) Unit ℕ UC ℕ (cfg12 a) c where
  A w := V c (Pipeline.arrRef spec12 w)
  after w t := match w with
    | ⟨0, _⟩ => iblk12 V a c 0 t
    | ⟨1, _⟩ => xBlk12 (tb12 a) (A12 V c) (iblk12 V a c 0 t) (t.val / 1000)
  Φ n := Φ12 V a c n.val
  q _ := fullShare
  owed _ := 0

/-- The proof data's arrays are the entry contents. -/
theorem A_eq12 (c : Dev nD) (w : Fin (cfg12 a).W) : (dat12 V a c).A w = V c (Pipeline.arrRef spec12 w) := by
  dsimp only [dat12]

/-- What the body leaves, window by window. -/
theorem after12_0 (c : Dev nD) (t : Fin (cfg12 a).N) : (dat12 V a c).after 0 t = iblk12 V a c 0 t := by dsimp only [dat12]; rfl
theorem after12_1 (c : Dev nD) (t : Fin (cfg12 a).N) :
    (dat12 V a c).after 1 t = xBlk12 (tb12 a) (A12 V c) (iblk12 V a c 0 t) (t.val / 1000) := by dsimp only [dat12]; rfl

/-- The invariant and the tallies, at a point. -/
theorem Phi12_eq (c : Dev nD) (n : Fin ((cfg12 a).N + 1)) : (dat12 V a c).Φ n = Φ12 V a c n.val := by dsimp only [dat12]
theorem owed12_eq (c : Dev nD) (n : Fin ((cfg12 a).N + 1)) : (dat12 V a c).owed n = 0 := by dsimp only [dat12]

/-- The weight window holds its block at every point, fetched there or not: its block index never moves. -/
theorem before12_0 (c : Dev nD) (t : Fin (cfg12 a).N) (d) : (dat12 V a c).before 0 t d = iblk12 V a c 0 t :=
  ((dat12 V a c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)

/-- The output window is written back after the last row of each block of rows, and only there; -/
theorem flush12_1 (t : Fin (cfg12 a).N) : ((cfg12 a).win 1).flush t = decide (t.val % 1000 = 999) := by
  unfold Window.flush
  exact flushB12 t
/-- and it is idle at every other row. -/
theorem idle12_1 (t : Fin (cfg12 a).N) : (cfg12 a).idle 1 ((cfg12 a).grid.coords t) = !decide (t.val % 1000 = 999) := by
  show (!(k12_cond1 (grid12.coords t) == 1#1)) = _
  congr 1
  by_cases h : t.val % 1000 = 999
  · rw [decide_eq_true h, (cond12_iff t).2 h]; rfl
  · rw [decide_eq_false h]
    exact beq_false_of_ne fun e => h ((cond12_iff t).1 e)

end Region

/-! ## The body obligation -/

section Body
variable (V : (c : Dev nD) → (b : Ref sig .tc) → Buf (Elt F) ((c : Thread nD τ).loc b)) (a : (pcfg12 (F := F)).Adm)

/-- Each window's current staging memref at point `t`, spelled as the pipeline passes it, and its wholeness. -/
abbrev ms12_0 (t : Fin (cfg12 a).N) : Memref sig .tc .vmem S128x128 .f32 := spec12_0.stage ((cfg12 a).slots t 0)
abbrev hs12_0 (t : Fin (cfg12 a).N) : (ms12_0 a t).IsWhole := hstage12_0 (((cfg12 a).slots t 0).cast nbuf12_0)
abbrev ms12_1 (t : Fin (cfg12 a).N) : Memref sig .tc .vmem S1000x128 .f32 := spec12_1.stage ((cfg12 a).slots t 1)
abbrev hs12_1 (t : Fin (cfg12 a).N) : (ms12_1 a t).IsWhole := hstage12_1 (((cfg12 a).slots t 1).cast nbuf12_1)

/-- The launch's body function, under the name the runs are stated at. -/
theorem bodyFn12_eq : cc12__gather_agg_matmul_kernel (F := F) = gatherFn := rfl

/-- The kernel body at point `t`, on what the pipeline calls it with. -/
abbrev bodyAt12 (t : Fin (cfg12 a).N) : Prog (TpuEff nD τ sig (Elt F) Λ₀ .tc) PUnit :=
  cc12__gather_agg_matmul_kernel (grid12.coords t) tbM12 (Memref.isWhole_whole _) hbM12 (Memref.isWhole_whole _)
    (ms12_0 a t) (hs12_0 a t) (ms12_1 a t) (hs12_1 a t) scM12_0 (Memref.isWhole_whole _) scM12_1 (Memref.isWhole_whole _) cc12_scratch2

/-- What the body is called with at point `t`, the windows one by one, -/
def bodyPre12 (c : Dev nD) (t : Fin (cfg12 a).N) : sProp 𝕄 :=
  iprop((dat12 V a c).Φ t.castSucc ∗ (dat12 V a c).owesAt () t.castSucc
    ∗ (∃ d, owns (c : Thread nD τ) (ms12_0 a t) fullShare ((dat12 V a c).before 0 t d))
    ∗ (∃ d, owns (c : Thread nD τ) (ms12_1 a t) fullShare ((dat12 V a c).before 1 t d)))

/-- and what it returns: the output window as it was found where the point is idle for it, at the block's product
    at the last row of a block. -/
def bodyPost12 (c : Dev nD) (t : Fin (cfg12 a).N) : sProp 𝕄 :=
  iprop((dat12 V a c).Φ t.succ ∗ (dat12 V a c).owesAt () t.succ
    ∗ owns (c : Thread nD τ) (ms12_0 a t) fullShare ((dat12 V a c).after 0 t)
    ∗ (match (cfg12 a).idle 1 ((cfg12 a).grid.coords t) with
        | true =>
          match ((cfg12 a).win 1).flush t with
          | false => iprop(∃ d, owns (c : Thread nD τ) (ms12_1 a t) fullShare ((dat12 V a c).before 1 t d))
          | true => owns (c : Thread nD τ) (ms12_1 a t) fullShare ((dat12 V a c).after 1 t)
        | false => owns (c : Thread nD τ) (ms12_1 a t) fullShare ((dat12 V a c).after 1 t)))

/-- The body at any point. The weight window holds its block; the invariant hands the body its table, the feature
    array, both scratch buffers and its transfer cells, and takes them back with the carried scratch one row further
    (`rowsOK12_step`); at the last row of a block the product the body stores is the block's (`rowAt12_last`); the core's
    `owes` goes in at whatever the points before recorded and comes back with this point's waits. -/
theorem sound_body12 (hR : InRange12 a.1) (c : Dev nD) (t : Fin (cfg12 a).N) :
    bodyPre12 V a c t ⊢ wp frame (wpE (defs₀ (F := F)) Variants.none c none) Set.univ (bodyAt12 a t) (fun _ => bodyPost12 V a c t) := by
  unfold bodyPre12 bodyPost12 bodyAt12
  rw [flush12_1, idle12_1]
  simp only [before12_0]
  rw [after12_0, Phi12_eq, Phi12_eq, Fin.val_succ, Fin.coe_castSucc]
  unfold Dat.owesAt Pipeline.owesWithin
  rw [owed12_eq, owed12_eq]
  unfold Φ12
  rw [bodyFn12_eq]
  by_cases hl : t.val % 1000 = 999
  · -- the last row of a block
    rw [decide_eq_true hl, Bool.not_true]
    dsimp only
    rw [after12_1]
    unfold xBlk12
    iintro ⟨⟨Htb, Hhb, ⟨%g, %hg, Hs0⟩, Hs1, Hcells, Hreg, Hrest⟩, ⟨%W, -, HW⟩, ⟨%d0, H0⟩, ⟨%d1, H1⟩⟩
    rw [← rowAt12_last (tb12 a) (A12 V c) t hl g hg]
    iapply (run24_last c (grid12.coords t) tbM12 (Memref.isWhole_whole _) hbM12 (Memref.isWhole_whole _) (ms12_0 a t) (hs12_0 a t)
      (ms12_1 a t) (hs12_1 a t) scM12_0 (Memref.isWhole_whole _) scM12_1 (Memref.isWhole_whole _) cc12_scratch2
      ((cond12_iff t).2 hl) (tb12 a) hR (A12 V c) (iblk12 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK12_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k12_cond1 (grid12.coords t) ≠ 1#1 := fun e => hl ((cond12_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid12.coords t) tbM12 (Memref.isWhole_whole _) hbM12 (Memref.isWhole_whole _) (ms12_0 a t) (hs12_0 a t)
      (ms12_1 a t) (hs12_1 a t) scM12_0 (Memref.isWhole_whole _) scM12_1 (Memref.isWhole_whole _) cc12_scratch2
      hc (tb12 a) hR (A12 V c) (iblk12 V a c 0 t) g
      (owns (c : Thread nD τ) (ms12_1 a t) fullShare ((dat12 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK12_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation12 (hR : InRange12 a.1) (c : Dev nD) :
    BodyObligation (dat12 (F := F) V a c) (defs₀ (F := F)) Variants.none () Set.univ := fun t => by
  rw [bigSep_W12, bigSep_W12]
  exact sound_body12 V a hR c t

end Body

/-! ## The value: what the launch leaves in its output array -/

section Value
variable (V : (c : Dev nD) → (b : Ref sig .tc) → Buf (Elt F) ((c : Thread nD τ).loc b)) (a : (pcfg12 (F := F)).Adm)

/-- Entry `(r, l)` of a block of rows. -/
def cell12 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk12 (tb : Vec F S16x2000 .i32) (A0 : Vec F S100000x128 .f32) (Wt : Vec F S128x128 .f32) : Vec F S2000x128 .f32 :=
  fun y => xBlk12 tb A0 Wt ((y 0).val / 1000) (cell12 ((y 0).val % 1000) (Nat.mod_lt _ (by decide)) (y 1))

/-- The weight window's block is the whole weight, at every point: its block index is (0, 0). -/
theorem wblk12_eq (c : Dev nD) (t : Fin (cfg12 a).N) : iblk12 V a c 0 t = (V c main_arg1 : Vec F S128x128 .f32) := by
  funext x
  unfold iblk12
  rw [View.read_apply]
  refine (cast_eq _ _).trans (congrArg (V c main_arg1) (funext fun b => Fin.ext ?_))
  refine (((cfg12 a).win 0).rect_emb_val_of_index_zero t b ?_ x)
  match b with
  | ⟨0, _⟩ => rfl
  | ⟨1, _⟩ => rfl

/-- Where entry `x` of the output window's block at point `t` sits in the output array. -/
abbrev emb12 (t : Fin (cfg12 a).N) (x : S1000x128.Idx) : S2000x128.Idx := (((cfg12 a).win 1).blk t).view.emb x

theorem emb12_val (t : Fin (cfg12 a).N) (x : S1000x128.Idx) :
    (emb12 a t x 0).val = t.val / 1000 * 1000 + (x 0).val ∧ (emb12 a t x 1).val = (x 1).val := by
  have hix : ((cfg12 a).win 1).index t = ![t.val / 1000, 0] := idx12_1 t
  have e0 := ((cfg12 a).win 1).rect_emb_val t x (0 : Fin 2)
  have e1 := ((cfg12 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after12_chunk (c : Dev nD) (t : Fin (cfg12 a).N) (x : S1000x128.Idx) :
    (dat12 V a c).after 1 t x = xChunk12 (tb12 a) (A12 V c) (V c main_arg1) (emb12 a t x) := by
  obtain ⟨e0, e1⟩ := emb12_val a t x
  have hx0 : (x 0).val < 1000 := (x 0).isLt
  rw [after12_1, wblk12_eq]
  unfold xChunk12
  have hq : (emb12 a t x 0).val / 1000 = t.val / 1000 := by rw [e0]; omega
  have hcell : cell12 ((emb12 a t x 0).val % 1000) (Nat.mod_lt _ (by decide)) (emb12 a t x 1) = x := by
    funext b
    apply Fin.ext
    match b with
    | ⟨0, _⟩ =>
      show (emb12 a t x 0).val % 1000 = (x 0).val
      rw [e0]; omega
    | ⟨1, _⟩ => exact e1
  rw [hq, hcell]

/-- Two entries of the output array with the same coordinates are the same. -/
theorem idx12_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb12_cell (t : Fin (cfg12 a).N) (i : S2000x128.Idx) (ht : t.val / 1000 = (i 0).val / 1000) :
    emb12 a t (cell12 ((i 0).val % 1000) (Nat.mod_lt _ (by decide)) (i 1)) = i := by
  obtain ⟨e0, e1⟩ := emb12_val a t (cell12 ((i 0).val % 1000) (Nat.mod_lt _ (by decide)) (i 1))
  refine idx12_ext _ _ ?_ e1
  rw [e0, ht]
  show (i 0).val / 1000 * 1000 + (i 0).val % 1000 = (i 0).val
  omega

/-- Every entry of the output array lies in the block written back after the last row of its block of rows. -/
theorem cover12 (i : S2000x128.Idx) :
    ∃ t : Fin (cfg12 a).N, ((cfg12 a).win 1).flush t = true ∧ i ∈ (((cfg12 a).win 1).blk t).view.set := by
  have hi0 : (i 0).val < 2000 := (i 0).isLt
  have hN : (i 0).val / 1000 * 1000 + 999 < (cfg12 a).N := by rw [N12]; omega
  refine ⟨⟨(i 0).val / 1000 * 1000 + 999, hN⟩, ?_, ?_⟩
  · rw [flush12_1]; exact decide_eq_true (by show ((i 0).val / 1000 * 1000 + 999) % 1000 = 999; omega)
  · refine Finset.mem_map.mpr ⟨cell12 ((i 0).val % 1000) (Nat.mod_lt _ (by decide)) (i 1), Finset.mem_univ _, ?_⟩
    exact emb12_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out12 (c : Dev nD) :
    (dat12 V a c).arrAt 1 (cfg12 a).N = (xChunk12 (tb12 a) (A12 V c) (V c main_arg1) : Vec F S2000x128 .f32) :=
  (dat12 V a c).arrAt_eq_of_cover 1 _
    (fun t _ => funext fun x => (after12_chunk V a c t x).trans (cast_eq _ _).symm)
    (cover12 a)

end Value

/-! ## The invariant's two ends -/

section Ends
variable (V : (c : Dev nD) → (b : Ref sig .tc) → Buf (Elt F) ((c : Thread nD τ).loc b)) (a : (pcfg12 (F := F)).Adm)

/-- The body's own transfer cells as the launch's protocol lists them: the 16 cells of its semaphore operand. -/
def osem12 : Fin 16 → SemLoc sig := fun k => SemLoc.dma (cc12_scratch2.ix (Shape.ofLane k))
/-- They are scoped, distinct, and none is a window's. -/
theorem ownSemFacts12 : Pipeline.OwnSemFacts spec12 osem12 := by decide
/-- The cells at zero, listed, are the cells as the body names them. -/
theorem cells12_eq (c : Dev nD) :
    (Pipeline.ownSems0 (Ix := Unit) (Name := ℕ) (U := UC) (Lvl := ℕ) (Val := Elt F) (τ := τ) osem12 c : sProp 𝕄) = cells24 c cc12_scratch2 := by
  rw [Pipeline.ownSems0_eq_of_list c osem12 [0, 1, 2, 3, 4, 5, 6, 7, 8, 9, 10, 11, 12, 13, 14, 15] (by decide) (by decide)]; rfl

/-- The launch's one table, held. -/
theorem prefHeld12_eq (c : Dev nD) (pf : pre12.Contents (Elt F)) :
    (Pipeline.prefHeld pre12 c (fun _ => fullShare) pf : sProp 𝕄) = (((c : Thread nD τ).loc main_v25) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X12 (c : Dev nD) : sProp 𝕄 :=
  iprop((∃ r, prngReg c r) ∗ Pipeline.ownSems0 (Ix := Unit) (Name := ℕ) (U := UC) (Lvl := ℕ) (Val := Elt F) (τ := τ) osem12 c
    ∗ (((c : Thread nD τ).loc main_arg0) ↦{fullShare} V c main_arg0))
abbrev Y12 (c : Dev nD) : sProp 𝕄 :=
  iprop((∃ r, prngReg c r) ∗ (((c : Thread nD τ).loc main_arg0) ↦{fullShare} V c main_arg0)
    ∗ Pipeline.prefHeld pre12 c (fun _ => fullShare) a.1)

/-- THE FIRST POINT: the invariant from what the launch's entry sorts out. Nothing is asked of the carried scratch. -/
theorem Phi12_in (c : Dev nD) :
    iprop(X12 V c ∗ Pipeline.prefHeld pre12 c (fun _ => fullShare) a.1
        ∗ Pipeline.scopedRest (Ix := Unit) (Name := ℕ) (U := UC) (Lvl := ℕ) (Val := Elt F) spec12 c)
      ⊢ (dat12 V a c).Φ 0 := by
  rw [Phi12_eq]
  unfold Φ12 X12
  rw [scopedRest12_split, prefHeld12_eq, cells12_eq]
  simp only [tbM12, hbM12, scM12_0, scM12_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK12_start _ _ _ rfl _
  isplitl [Hs1]; · iexact Hs1
  isplitl [Hcells]; · iexact Hcells
  isplitl [Hreg]; · iexact Hreg
  iexact Hrest

/-- THE LAST POINT: the invariant gives back what it took. -/
theorem Phi12_out (c : Dev nD) :
    (dat12 V a c).Φ (Fin.last _)
      ⊢ iprop(Y12 V a c ∗ Pipeline.ownSems0 (Ix := Unit) (Name := ℕ) (U := UC) (Lvl := ℕ) (Val := Elt F) (τ := τ) osem12 c
        ∗ Pipeline.scopedRest (Ix := Unit) (Name := ℕ) (U := UC) (Lvl := ℕ) (Val := Elt F) spec12 c) := by
  rw [Phi12_eq]
  unfold Φ12 Y12
  rw [scopedRest12_split, prefHeld12_eq, cells12_eq]
  simp only [tbM12, hbM12, scM12_0, scM12_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G13Dat.lean ====
/-
  One of the program's 25 gather launches (pipeline 13; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N13 (a : (pcfg13 (F := F)).Adm) : (cfg13 a).N = 2000 := N_13

/-- The body's branch is taken at the last row of a block of rows, -/
theorem cond13_iff : ∀ t : Fin grid13.N, k13_cond1 (grid13.coords t) = 1#1 ↔ t.val % 1000 = 999 := by decide +kernel
/-- the row a point works on is its number modulo 1000, -/
theorem rowAt13_coord : ∀ t : Fin grid13.N, (grid13.coords t 1).val = t.val % 1000 := by decide +kernel
/-- its block of rows is its number divided by 1000, -/
theorem blockAt13_coord : ∀ t : Fin grid13.N, (grid13.coords t 0).val = t.val / 1000 := by decide +kernel
/-- and the output's block index moves after exactly those points (and the grid ends at one). -/
theorem flushB13 : ∀ t : Fin grid13.N,
    (decide (t.val + 1 = grid13.N) || decide (∃ h : t.val + 1 < grid13.N, cc13_transform_2 (grid13.coords ⟨t.val + 1, h⟩) ≠ cc13_transform_2 (grid13.coords t)))
      = decide (t.val % 1000 = 999) := by decide +kernel

/-- The output's block index at a point: the point's block of rows. -/
theorem idx13_1 : ∀ t : Fin grid13.N, cc13_transform_2 (grid13.coords t) = ![t.val / 1000, 0] := by decide +kernel

/-- Every word of the launch's table names a row of the feature array. -/
def InRange13 (pf : pre13.Contents (Elt F)) : Prop := ∀ x : S16x2000.Idx, ((pf 0 : Vec F S16x2000 .i32) x).toNat < 100000

/-! ## The values -/

/-- Lane `l` of a one-row vector. -/
def lane13 (l : Fin 128) : S1x128.Idx := fun a => ⟨if a.val = 0 then 0 else l.val, by
  match a with
  | ⟨0, _⟩ => exact Nat.one_pos
  | ⟨1, _⟩ => exact l.isLt⟩

theorem lane13_one (l : Fin 128) : (lane13 l 1).val = l.val := rfl

/-- The grid point of row `r` of block `q` (total: the point number is taken modulo the grid's size). -/
def pt13 (q : ℕ) (r : ℕ) : Fin grid13.N := ⟨(q * 1000 + r) % grid13.N, Nat.mod_lt _ (by decide)⟩

/-- Inside the grid the point's number is `1000 q + r`. -/
theorem pt13_val (q r : ℕ) (hq : q < 2) (hr : r < 1000) : (pt13 q r).val = q * 1000 + r := by
  show (q * 1000 + r) % grid13.N = q * 1000 + r
  rw [N_13]; omega

/-- A point is the point of its block and row. -/
theorem pt13_self (t : Fin grid13.N) : pt13 (t.val / 1000) (t.val % 1000) = t := by
  apply Fin.ext
  show (t.val / 1000 * 1000 + t.val % 1000) % grid13.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means13 (tb : Vec F S16x2000 .i32) (A0 : Vec F S100000x128 .f32) (q : ℕ) : Vec F S1000x128 .f32 :=
  fun x => Gen.k24_pay1 (gath24 (grid13.coords (pt13 q (x 0).val)) tb A0) (lane13 (x 1))

/-- What the body stores in the output window at the last row of block `q`: the means, rounded, times the weight, rounded. -/
def xBlk13 (tb : Vec F S16x2000 .i32) (A0 : Vec F S100000x128 .f32) (Wt : Vec F S128x128 .f32) (q : ℕ) : Vec F S1000x128 .f32 :=
  Gen.k24_pay2 (means13 tb A0 q) Wt

/-- The carried scratch before point `n`: its rows below `n % 1000` are the means of block `n / 1000`. -/
def RowsOK13 (tb : Vec F S16x2000 .i32) (A0 : Vec F S100000x128 .f32) (n : ℕ) (g : Vec F S1000x128 .f32) : Prop :=
  ∀ x : S1000x128.Idx, (x 0).val < n % 1000 → g x = means13 tb A0 (n / 1000) x

/-- At the first row of a block nothing is asked. -/
theorem rowsOK13_start (tb : Vec F S16x2000 .i32) (A0 : Vec F S100000x128 .f32) (n : ℕ) (hn : n % 1000 = 0) (g : Vec F S1000x128 .f32) :
    RowsOK13 tb A0 n g := fun x hx => absurd hx (by omega)

/-- One point's row store keeps the invariant's rows and adds its own: after the store at point `t` the rows up to
    `t % 1000` are means. -/
theorem rowAt13_means (tb : Vec F S16x2000 .i32) (A0 : Vec F S100000x128 .f32) (t : Fin grid13.N) (g : Vec F S1000x128 .f32)
    (hg : RowsOK13 tb A0 t.val g) (x : S1000x128.Idx) (hx : (x 0).val ≤ t.val % 1000) :
    row24 (grid13.coords t) tb A0 g x = means13 tb A0 (t.val / 1000) x := by
  by_cases h : (x 0).val = t.val % 1000
  · rw [row24_of_eq (grid13.coords t) tb A0 g x (by rw [rowAt13_coord]; exact h) (lane13 (x 1)) rfl]
    unfold means13
    rw [h, pt13_self]
  · rw [row24_of_ne (grid13.coords t) tb A0 g x (by rw [rowAt13_coord]; exact h)]
    exact hg x (by omega)

/-- Within a block the invariant steps. -/
theorem rowsOK13_step (tb : Vec F S16x2000 .i32) (A0 : Vec F S100000x128 .f32) (t : Fin grid13.N) (g : Vec F S1000x128 .f32)
    (hg : RowsOK13 tb A0 t.val g) : RowsOK13 tb A0 (t.val + 1) (row24 (grid13.coords t) tb A0 g) := by
  by_cases hl : t.val % 1000 = 999
  · exact rowsOK13_start _ _ _ (by omega) _
  · intro x hx
    have h1 : (t.val + 1) / 1000 = t.val / 1000 := by omega
    rw [h1]
    exact rowAt13_means tb A0 t g hg x (by omega)

/-- At the last row of a block the scratch, after the row store, is the block's means whatever it held before. -/
theorem rowAt13_last (tb : Vec F S16x2000 .i32) (A0 : Vec F S100000x128 .f32) (t : Fin grid13.N) (hl : t.val % 1000 = 999)
    (g : Vec F S1000x128 .f32) (hg : RowsOK13 tb A0 t.val g) :
    row24 (grid13.coords t) tb A0 g = means13 tb A0 (t.val / 1000) :=
  funext fun x => rowAt13_means tb A0 t g hg x (by have : (x 0).val < 1000 := (x 0).isLt; omega)

/-! ## The invariant -/

/-- The launch's operands that no window stages, as the body is handed them: its table, the feature array left in
    HBM, and its two scratch buffers — whole buffers. -/
abbrev tbM13 : Memref sig .tc .smem S16x2000 .i32 := Memref.whole main_v27
abbrev hbM13 : Memref sig .tc .hbm S100000x128 .f32 := Memref.whole main_arg0
abbrev scM13_0 : Memref sig .tc .vmem S1000x128 .f32 := Memref.whole cc13_scratch0
abbrev scM13_1 : Memref sig .tc .vmem S16x128 .f32 := Memref.whole cc13_scratch1

section Region
-- the TensorCore's buffer contents when the launch is entered, and the launch's table
variable (V : (c : Dev nD) → (b : Ref sig .tc) → Buf (Elt F) ((c : Thread nD τ).loc b)) (a : (pcfg13 (F := F)).Adm)

/-- The table and the feature array, as vectors. -/
abbrev tb13 : Vec F S16x2000 .i32 := a.1 0
abbrev A13 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ13 (c : Dev nD) (n : ℕ) : sProp 𝕄 :=
  iprop(owns (c : Thread nD τ) tbM13 fullShare (tb13 a)
    ∗ owns (c : Thread nD τ) hbM13 fullShare (A13 V c)
    ∗ (∃ g : Vec F S1000x128 .f32, ⌜RowsOK13 (tb13 a) (A13 V c) n g⌝ ∗ owns (c : Thread nD τ) scM13_0 fullShare g)
    ∗ (∃ d, owns (c : Thread nD τ) scM13_1 fullShare d)
    ∗ cells24 c cc13_scratch2
    ∗ (∃ r, prngReg c r)
    ∗ Pipeline.scopedRestBut (Ix := Unit) (Name := ℕ) (U := UC) (Lvl := ℕ) (Val := Elt F) spec13 c [cc13_scratch0, cc13_scratch1])

/-! ## The windows' blocks and the proof data -/

/-- Window `w`'s block at point `t`, read off its array as the launch finds it. -/
def iblk13 (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- The proof data of the launch on core `c`: the arrays as the launch finds them; after the body at point `t` the
    weight window at its block and the output window at the product for `t`'s block of rows (read only at the block's
    last row, where the body stores it); the invariant above; nothing owed; full shares. -/
def dat13 (c : Dev nD) : Dat τ (Elt F) Unit ℕ UC ℕ (cfg13 a) c where
  A w := V c (Pipeline.arrRef spec13 w)
  after w t := match w with
    | ⟨0, _⟩ => iblk13 V a c 0 t
    | ⟨1, _⟩ => xBlk13 (tb13 a) (A13 V c) (iblk13 V a c 0 t) (t.val / 1000)
  Φ n := Φ13 V a c n.val
  q _ := fullShare
  owed _ := 0

/-- The proof data's arrays are the entry contents. -/
theorem A_eq13 (c : Dev nD) (w : Fin (cfg13 a).W) : (dat13 V a c).A w = V c (Pipeline.arrRef spec13 w) := by
  dsimp only [dat13]

/-- What the body leaves, window by window. -/
theorem after13_0 (c : Dev nD) (t : Fin (cfg13 a).N) : (dat13 V a c).after 0 t = iblk13 V a c 0 t := by dsimp only [dat13]; rfl
theorem after13_1 (c : Dev nD) (t : Fin (cfg13 a).N) :
    (dat13 V a c).after 1 t = xBlk13 (tb13 a) (A13 V c) (iblk13 V a c 0 t) (t.val / 1000) := by dsimp only [dat13]; rfl

/-- The invariant and the tallies, at a point. -/
theorem Phi13_eq (c : Dev nD) (n : Fin ((cfg13 a).N + 1)) : (dat13 V a c).Φ n = Φ13 V a c n.val := by dsimp only [dat13]
theorem owed13_eq (c : Dev nD) (n : Fin ((cfg13 a).N + 1)) : (dat13 V a c).owed n = 0 := by dsimp only [dat13]

/-- The weight window holds its block at every point, fetched there or not: its block index never moves. -/
theorem before13_0 (c : Dev nD) (t : Fin (cfg13 a).N) (d) : (dat13 V a c).before 0 t d = iblk13 V a c 0 t :=
  ((dat13 V a c).before_in_eq_fetched 0 rfl (fun _ => rfl) (fun _ _ _ => rfl)
      (fun t => by rw [after13_0]; unfold Dat.blockOf iblk13; rw [A_eq13]; try rfl) t d).trans
    (by unfold Dat.fetched Dat.blockOf iblk13; rw [A_eq13]; try rfl)

/-- The output window is written back after the last row of each block of rows, and only there; -/
theorem flush13_1 (t : Fin (cfg13 a).N) : ((cfg13 a).win 1).flush t = decide (t.val % 1000 = 999) := by
  unfold Window.flush
  exact flushB13 t
/-- and it is idle at every other row. -/
theorem idle13_1 (t : Fin (cfg13 a).N) : (cfg13 a).idle 1 ((cfg13 a).grid.coords t) = !decide (t.val % 1000 = 999) := by
  show (!(k13_cond1 (grid13.coords t) == 1#1)) = _
  congr 1
  by_cases h : t.val % 1000 = 999
  · rw [decide_eq_true h, (cond13_iff t).2 h]; rfl
  · rw [decide_eq_false h]
    exact beq_false_of_ne fun e => h ((cond13_iff t).1 e)

end Region

/-! ## The body obligation -/

section Body
variable (V : (c : Dev nD) → (b : Ref sig .tc) → Buf (Elt F) ((c : Thread nD τ).loc b)) (a : (pcfg13 (F := F)).Adm)

/-- Each window's current staging memref at point `t`, spelled as the pipeline passes it, and its wholeness. -/
abbrev ms13_0 (t : Fin (cfg13 a).N) : Memref sig .tc .vmem S128x128 .f32 := spec13_0.stage ((cfg13 a).slots t 0)
abbrev hs13_0 (t : Fin (cfg13 a).N) : (ms13_0 a t).IsWhole := hstage13_0 (((cfg13 a).slots t 0).cast nbuf13_0)
abbrev ms13_1 (t : Fin (cfg13 a).N) : Memref sig .tc .vmem S1000x128 .f32 := spec13_1.stage ((cfg13 a).slots t 1)
abbrev hs13_1 (t : Fin (cfg13 a).N) : (ms13_1 a t).IsWhole := hstage13_1 (((cfg13 a).slots t 1).cast nbuf13_1)

/-- The launch's body function, under the name the runs are stated at. -/
theorem bodyFn13_eq : cc13__gather_agg_matmul_kernel (F := F) = gatherFn := rfl

/-- The kernel body at point `t`, on what the pipeline calls it with. -/
abbrev bodyAt13 (t : Fin (cfg13 a).N) : Prog (TpuEff nD τ sig (Elt F) Λ₀ .tc) PUnit :=
  cc13__gather_agg_matmul_kernel (grid13.coords t) tbM13 (Memref.isWhole_whole _) hbM13 (Memref.isWhole_whole _)
    (ms13_0 a t) (hs13_0 a t) (ms13_1 a t) (hs13_1 a t) scM13_0 (Memref.isWhole_whole _) scM13_1 (Memref.isWhole_whole _) cc13_scratch2

/-- What the body is called with at point `t`, the windows one by one, -/
def bodyPre13 (c : Dev nD) (t : Fin (cfg13 a).N) : sProp 𝕄 :=
  iprop((dat13 V a c).Φ t.castSucc ∗ (dat13 V a c).owesAt () t.castSucc
    ∗ (∃ d, owns (c : Thread nD τ) (ms13_0 a t) fullShare ((dat13 V a c).before 0 t d))
    ∗ (∃ d, owns (c : Thread nD τ) (ms13_1 a t) fullShare ((dat13 V a c).before 1 t d)))

/-- and what it returns: the output window as it was found where the point is idle for it, at the block's product
    at the last row of a block. -/
def bodyPost13 (c : Dev nD) (t : Fin (cfg13 a).N) : sProp 𝕄 :=
  iprop((dat13 V a c).Φ t.succ ∗ (dat13 V a c).owesAt () t.succ
    ∗ owns (c : Thread nD τ) (ms13_0 a t) fullShare ((dat13 V a c).after 0 t)
    ∗ (match (cfg13 a).idle 1 ((cfg13 a).grid.coords t) with
        | true =>
          match ((cfg13 a).win 1).flush t with
          | false => iprop(∃ d, owns (c : Thread nD τ) (ms13_1 a t) fullShare ((dat13 V a c).before 1 t d))
          | true => owns (c : Thread nD τ) (ms13_1 a t) fullShare ((dat13 V a c).after 1 t)
        | false => owns (c : Thread nD τ) (ms13_1 a t) fullShare ((dat13 V a c).after 1 t)))

/-- The body at any point. The weight window holds its block; the invariant hands the body its table, the feature
    array, both scratch buffers and its transfer cells, and takes them back with the carried scratch one row further
    (`rowsOK13_step`); at the last row of a block the product the body stores is the block's (`rowAt13_last`); the core's
    `owes` goes in at whatever the points before recorded and comes back with this point's waits. -/
theorem sound_body13 (hR : InRange13 a.1) (c : Dev nD) (t : Fin (cfg13 a).N) :
    bodyPre13 V a c t ⊢ wp frame (wpE (defs₀ (F := F)) Variants.none c none) Set.univ (bodyAt13 a t) (fun _ => bodyPost13 V a c t) := by
  unfold bodyPre13 bodyPost13 bodyAt13
  rw [flush13_1, idle13_1]
  simp only [before13_0]
  rw [after13_0, Phi13_eq, Phi13_eq, Fin.val_succ, Fin.coe_castSucc]
  unfold Dat.owesAt Pipeline.owesWithin
  rw [owed13_eq, owed13_eq]
  unfold Φ13
  rw [bodyFn13_eq]
  by_cases hl : t.val % 1000 = 999
  · -- the last row of a block
    rw [decide_eq_true hl, Bool.not_true]
    dsimp only
    rw [after13_1]
    unfold xBlk13
    iintro ⟨⟨Htb, Hhb, ⟨%g, %hg, Hs0⟩, Hs1, Hcells, Hreg, Hrest⟩, ⟨%W, -, HW⟩, ⟨%d0, H0⟩, ⟨%d1, H1⟩⟩
    rw [← rowAt13_last (tb13 a) (A13 V c) t hl g hg]
    iapply (run24_last c (grid13.coords t) tbM13 (Memref.isWhole_whole _) hbM13 (Memref.isWhole_whole _) (ms13_0 a t) (hs13_0 a t)
      (ms13_1 a t) (hs13_1 a t) scM13_0 (Memref.isWhole_whole _) scM13_1 (Memref.isWhole_whole _) cc13_scratch2
      ((cond13_iff t).2 hl) (tb13 a) hR (A13 V c) (iblk13 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK13_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k13_cond1 (grid13.coords t) ≠ 1#1 := fun e => hl ((cond13_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid13.coords t) tbM13 (Memref.isWhole_whole _) hbM13 (Memref.isWhole_whole _) (ms13_0 a t) (hs13_0 a t)
      (ms13_1 a t) (hs13_1 a t) scM13_0 (Memref.isWhole_whole _) scM13_1 (Memref.isWhole_whole _) cc13_scratch2
      hc (tb13 a) hR (A13 V c) (iblk13 V a c 0 t) g
      (owns (c : Thread nD τ) (ms13_1 a t) fullShare ((dat13 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK13_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation13 (hR : InRange13 a.1) (c : Dev nD) :
    BodyObligation (dat13 (F := F) V a c) (defs₀ (F := F)) Variants.none () Set.univ := fun t => by
  rw [bigSep_W13, bigSep_W13]
  exact sound_body13 V a hR c t

end Body

/-! ## The value: what the launch leaves in its output array -/

section Value
variable (V : (c : Dev nD) → (b : Ref sig .tc) → Buf (Elt F) ((c : Thread nD τ).loc b)) (a : (pcfg13 (F := F)).Adm)

/-- Entry `(r, l)` of a block of rows. -/
def cell13 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk13 (tb : Vec F S16x2000 .i32) (A0 : Vec F S100000x128 .f32) (Wt : Vec F S128x128 .f32) : Vec F S2000x128 .f32 :=
  fun y => xBlk13 tb A0 Wt ((y 0).val / 1000) (cell13 ((y 0).val % 1000) (Nat.mod_lt _ (by decide)) (y 1))

/-- The weight window's block is the whole weight, at every point: its block index is (0, 0). -/
theorem wblk13_eq (c : Dev nD) (t : Fin (cfg13 a).N) : iblk13 V a c 0 t = (V c main_arg1 : Vec F S128x128 .f32) := by
  funext x
  unfold iblk13
  rw [View.read_apply]
  refine (cast_eq _ _).trans (congrArg (V c main_arg1) (funext fun b => Fin.ext ?_))
  refine (((cfg13 a).win 0).rect_emb_val_of_index_zero t b ?_ x)
  match b with
  | ⟨0, _⟩ => rfl
  | ⟨1, _⟩ => rfl

/-- Where entry `x` of the output window's block at point `t` sits in the output array. -/
abbrev emb13 (t : Fin (cfg13 a).N) (x : S1000x128.Idx) : S2000x128.Idx := (((cfg13 a).win 1).blk t).view.emb x

theorem emb13_val (t : Fin (cfg13 a).N) (x : S1000x128.Idx) :
    (emb13 a t x 0).val = t.val / 1000 * 1000 + (x 0).val ∧ (emb13 a t x 1).val = (x 1).val := by
  have hix : ((cfg13 a).win 1).index t = ![t.val / 1000, 0] := idx13_1 t
  have e0 := ((cfg13 a).win 1).rect_emb_val t x (0 : Fin 2)
  have e1 := ((cfg13 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after13_chunk (c : Dev nD) (t : Fin (cfg13 a).N) (x : S1000x128.Idx) :
    (dat13 V a c).after 1 t x = xChunk13 (tb13 a) (A13 V c) (V c main_arg1) (emb13 a t x) := by
  obtain ⟨e0, e1⟩ := emb13_val a t x
  have hx0 : (x 0).val < 1000 := (x 0).isLt
  rw [after13_1, wblk13_eq]
  unfold xChunk13
  have hq : (emb13 a t x 0).val / 1000 = t.val / 1000 := by rw [e0]; omega
  have hcell : cell13 ((emb13 a t x 0).val % 1000) (Nat.mod_lt _ (by decide)) (emb13 a t x 1) = x := by
    funext b
    apply Fin.ext
    match b with
    | ⟨0, _⟩ =>
      show (emb13 a t x 0).val % 1000 = (x 0).val
      rw [e0]; omega
    | ⟨1, _⟩ => exact e1
  rw [hq, hcell]

/-- Two entries of the output array with the same coordinates are the same. -/
theorem idx13_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb13_cell (t : Fin (cfg13 a).N) (i : S2000x128.Idx) (ht : t.val / 1000 = (i 0).val / 1000) :
    emb13 a t (cell13 ((i 0).val % 1000) (Nat.mod_lt _ (by decide)) (i 1)) = i := by
  obtain ⟨e0, e1⟩ := emb13_val a t (cell13 ((i 0).val % 1000) (Nat.mod_lt _ (by decide)) (i 1))
  refine idx13_ext _ _ ?_ e1
  rw [e0, ht]
  show (i 0).val / 1000 * 1000 + (i 0).val % 1000 = (i 0).val
  omega

/-- Every entry of the output array lies in the block written back after the last row of its block of rows. -/
theorem cover13 (i : S2000x128.Idx) :
    ∃ t : Fin (cfg13 a).N, ((cfg13 a).win 1).flush t = true ∧ i ∈ (((cfg13 a).win 1).blk t).view.set := by
  have hi0 : (i 0).val < 2000 := (i 0).isLt
  have hN : (i 0).val / 1000 * 1000 + 999 < (cfg13 a).N := by rw [N13]; omega
  refine ⟨⟨(i 0).val / 1000 * 1000 + 999, hN⟩, ?_, ?_⟩
  · rw [flush13_1]; exact decide_eq_true (by show ((i 0).val / 1000 * 1000 + 999) % 1000 = 999; omega)
  · refine Finset.mem_map.mpr ⟨cell13 ((i 0).val % 1000) (Nat.mod_lt _ (by decide)) (i 1), Finset.mem_univ _, ?_⟩
    exact emb13_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out13 (c : Dev nD) :
    (dat13 V a c).arrAt 1 (cfg13 a).N = (xChunk13 (tb13 a) (A13 V c) (V c main_arg1) : Vec F S2000x128 .f32) :=
  (dat13 V a c).arrAt_eq_of_cover 1 _
    (fun t _ => funext fun x => (after13_chunk V a c t x).trans (cast_eq _ _).symm)
    (cover13 a)

end Value

/-! ## The invariant's two ends -/

section Ends
variable (V : (c : Dev nD) → (b : Ref sig .tc) → Buf (Elt F) ((c : Thread nD τ).loc b)) (a : (pcfg13 (F := F)).Adm)

/-- The body's own transfer cells as the launch's protocol lists them: the 16 cells of its semaphore operand. -/
def osem13 : Fin 16 → SemLoc sig := fun k => SemLoc.dma (cc13_scratch2.ix (Shape.ofLane k))
/-- They are scoped, distinct, and none is a window's. -/
theorem ownSemFacts13 : Pipeline.OwnSemFacts spec13 osem13 := by decide
/-- The cells at zero, listed, are the cells as the body names them. -/
theorem cells13_eq (c : Dev nD) :
    (Pipeline.ownSems0 (Ix := Unit) (Name := ℕ) (U := UC) (Lvl := ℕ) (Val := Elt F) (τ := τ) osem13 c : sProp 𝕄) = cells24 c cc13_scratch2 := by
  rw [Pipeline.ownSems0_eq_of_list c osem13 [0, 1, 2, 3, 4, 5, 6, 7, 8, 9, 10, 11, 12, 13, 14, 15] (by decide) (by decide)]; rfl

/-- The launch's one table, held. -/
theorem prefHeld13_eq (c : Dev nD) (pf : pre13.Contents (Elt F)) :
    (Pipeline.prefHeld pre13 c (fun _ => fullShare) pf : sProp 𝕄) = (((c : Thread nD τ).loc main_v27) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X13 (c : Dev nD) : sProp 𝕄 :=
  iprop((∃ r, prngReg c r) ∗ Pipeline.ownSems0 (Ix := Unit) (Name := ℕ) (U := UC) (Lvl := ℕ) (Val := Elt F) (τ := τ) osem13 c
    ∗ (((c : Thread nD τ).loc main_arg0) ↦{fullShare} V c main_arg0))
abbrev Y13 (c : Dev nD) : sProp 𝕄 :=
  iprop((∃ r, prngReg c r) ∗ (((c : Thread nD τ).loc main_arg0) ↦{fullShare} V c main_arg0)
    ∗ Pipeline.prefHeld pre13 c (fun _ => fullShare) a.1)

/-- THE FIRST POINT: the invariant from what the launch's entry sorts out. Nothing is asked of the carried scratch. -/
theorem Phi13_in (c : Dev nD) :
    iprop(X13 V c ∗ Pipeline.prefHeld pre13 c (fun _ => fullShare) a.1
        ∗ Pipeline.scopedRest (Ix := Unit) (Name := ℕ) (U := UC) (Lvl := ℕ) (Val := Elt F) spec13 c)
      ⊢ (dat13 V a c).Φ 0 := by
  rw [Phi13_eq]
  unfold Φ13 X13
  rw [scopedRest13_split, prefHeld13_eq, cells13_eq]
  simp only [tbM13, hbM13, scM13_0, scM13_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK13_start _ _ _ rfl _
  isplitl [Hs1]; · iexact Hs1
  isplitl [Hcells]; · iexact Hcells
  isplitl [Hreg]; · iexact Hreg
  iexact Hrest

/-- THE LAST POINT: the invariant gives back what it took. -/
theorem Phi13_out (c : Dev nD) :
    (dat13 V a c).Φ (Fin.last _)
      ⊢ iprop(Y13 V a c ∗ Pipeline.ownSems0 (Ix := Unit) (Name := ℕ) (U := UC) (Lvl := ℕ) (Val := Elt F) (τ := τ) osem13 c
        ∗ Pipeline.scopedRest (Ix := Unit) (Name := ℕ) (U := UC) (Lvl := ℕ) (Val := Elt F) spec13 c) := by
  rw [Phi13_eq]
  unfold Φ13 Y13
  rw [scopedRest13_split, prefHeld13_eq, cells13_eq]
  simp only [tbM13, hbM13, scM13_0, scM13_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G14Dat.lean ====
/-
  One of the program's 25 gather launches (pipeline 14; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N14 (a : (pcfg14 (F := F)).Adm) : (cfg14 a).N = 2000 := N_14

/-- The body's branch is taken at the last row of a block of rows, -/
theorem cond14_iff : ∀ t : Fin grid14.N, k14_cond1 (grid14.coords t) = 1#1 ↔ t.val % 1000 = 999 := by decide +kernel
/-- the row a point works on is its number modulo 1000, -/
theorem rowAt14_coord : ∀ t : Fin grid14.N, (grid14.coords t 1).val = t.val % 1000 := by decide +kernel
/-- its block of rows is its number divided by 1000, -/
theorem blockAt14_coord : ∀ t : Fin grid14.N, (grid14.coords t 0).val = t.val / 1000 := by decide +kernel
/-- and the output's block index moves after exactly those points (and the grid ends at one). -/
theorem flushB14 : ∀ t : Fin grid14.N,
    (decide (t.val + 1 = grid14.N) || decide (∃ h : t.val + 1 < grid14.N, cc14_transform_2 (grid14.coords ⟨t.val + 1, h⟩) ≠ cc14_transform_2 (grid14.coords t)))
      = decide (t.val % 1000 = 999) := by decide +kernel

/-- The output's block index at a point: the point's block of rows. -/
theorem idx14_1 : ∀ t : Fin grid14.N, cc14_transform_2 (grid14.coords t) = ![t.val / 1000, 0] := by decide +kernel

/-- Every word of the launch's table names a row of the feature array. -/
def InRange14 (pf : pre14.Contents (Elt F)) : Prop := ∀ x : S16x2000.Idx, ((pf 0 : Vec F S16x2000 .i32) x).toNat < 100000

/-! ## The values -/

/-- Lane `l` of a one-row vector. -/
def lane14 (l : Fin 128) : S1x128.Idx := fun a => ⟨if a.val = 0 then 0 else l.val, by
  match a with
  | ⟨0, _⟩ => exact Nat.one_pos
  | ⟨1, _⟩ => exact l.isLt⟩

theorem lane14_one (l : Fin 128) : (lane14 l 1).val = l.val := rfl

/-- The grid point of row `r` of block `q` (total: the point number is taken modulo the grid's size). -/
def pt14 (q : ℕ) (r : ℕ) : Fin grid14.N := ⟨(q * 1000 + r) % grid14.N, Nat.mod_lt _ (by decide)⟩

/-- Inside the grid the point's number is `1000 q + r`. -/
theorem pt14_val (q r : ℕ) (hq : q < 2) (hr : r < 1000) : (pt14 q r).val = q * 1000 + r := by
  show (q * 1000 + r) % grid14.N = q * 1000 + r
  rw [N_14]; omega

/-- A point is the point of its block and row. -/
theorem pt14_self (t : Fin grid14.N) : pt14 (t.val / 1000) (t.val % 1000) = t := by
  apply Fin.ext
  show (t.val / 1000 * 1000 + t.val % 1000) % grid14.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means14 (tb : Vec F S16x2000 .i32) (A0 : Vec F S100000x128 .f32) (q : ℕ) : Vec F S1000x128 .f32 :=
  fun x => Gen.k24_pay1 (gath24 (grid14.coords (pt14 q (x 0).val)) tb A0) (lane14 (x 1))

/-- What the body stores in the output window at the last row of block `q`: the means, rounded, times the weight, rounded. -/
def xBlk14 (tb : Vec F S16x2000 .i32) (A0 : Vec F S100000x128 .f32) (Wt : Vec F S128x128 .f32) (q : ℕ) : Vec F S1000x128 .f32 :=
  Gen.k24_pay2 (means14 tb A0 q) Wt

/-- The carried scratch before point `n`: its rows below `n % 1000` are the means of block `n / 1000`. -/
def RowsOK14 (tb : Vec F S16x2000 .i32) (A0 : Vec F S100000x128 .f32) (n : ℕ) (g : Vec F S1000x128 .f32) : Prop :=
  ∀ x : S1000x128.Idx, (x 0).val < n % 1000 → g x = means14 tb A0 (n / 1000) x

/-- At the first row of a block nothing is asked. -/
theorem rowsOK14_start (tb : Vec F S16x2000 .i32) (A0 : Vec F S100000x128 .f32) (n : ℕ) (hn : n % 1000 = 0) (g : Vec F S1000x128 .f32) :
    RowsOK14 tb A0 n g := fun x hx => absurd hx (by omega)

/-- One point's row store keeps the invariant's rows and adds its own: after the store at point `t` the rows up to
    `t % 1000` are means. -/
theorem rowAt14_means (tb : Vec F S16x2000 .i32) (A0 : Vec F S100000x128 .f32) (t : Fin grid14.N) (g : Vec F S1000x128 .f32)
    (hg : RowsOK14 tb A0 t.val g) (x : S1000x128.Idx) (hx : (x 0).val ≤ t.val % 1000) :
    row24 (grid14.coords t) tb A0 g x = means14 tb A0 (t.val / 1000) x := by
  by_cases h : (x 0).val = t.val % 1000
  · rw [row24_of_eq (grid14.coords t) tb A0 g x (by rw [rowAt14_coord]; exact h) (lane14 (x 1)) rfl]
    unfold means14
    rw [h, pt14_self]
  · rw [row24_of_ne (grid14.coords t) tb A0 g x (by rw [rowAt14_coord]; exact h)]
    exact hg x (by omega)

/-- Within a block the invariant steps. -/
theorem rowsOK14_step (tb : Vec F S16x2000 .i32) (A0 : Vec F S100000x128 .f32) (t : Fin grid14.N) (g : Vec F S1000x128 .f32)
    (hg : RowsOK14 tb A0 t.val g) : RowsOK14 tb A0 (t.val + 1) (row24 (grid14.coords t) tb A0 g) := by
  by_cases hl : t.val % 1000 = 999
  · exact rowsOK14_start _ _ _ (by omega) _
  · intro x hx
    have h1 : (t.val + 1) / 1000 = t.val / 1000 := by omega
    rw [h1]
    exact rowAt14_means tb A0 t g hg x (by omega)

/-- At the last row of a block the scratch, after the row store, is the block's means whatever it held before. -/
theorem rowAt14_last (tb : Vec F S16x2000 .i32) (A0 : Vec F S100000x128 .f32) (t : Fin grid14.N) (hl : t.val % 1000 = 999)
    (g : Vec F S1000x128 .f32) (hg : RowsOK14 tb A0 t.val g) :
    row24 (grid14.coords t) tb A0 g = means14 tb A0 (t.val / 1000) :=
  funext fun x => rowAt14_means tb A0 t g hg x (by have : (x 0).val < 1000 := (x 0).isLt; omega)

/-! ## The invariant -/

/-- The launch's operands that no window stages, as the body is handed them: its table, the feature array left in
    HBM, and its two scratch buffers — whole buffers. -/
abbrev tbM14 : Memref sig .tc .smem S16x2000 .i32 := Memref.whole main_v29
abbrev hbM14 : Memref sig .tc .hbm S100000x128 .f32 := Memref.whole main_arg0
abbrev scM14_0 : Memref sig .tc .vmem S1000x128 .f32 := Memref.whole cc14_scratch0
abbrev scM14_1 : Memref sig .tc .vmem S16x128 .f32 := Memref.whole cc14_scratch1

section Region
-- the TensorCore's buffer contents when the launch is entered, and the launch's table
variable (V : (c : Dev nD) → (b : Ref sig .tc) → Buf (Elt F) ((c : Thread nD τ).loc b)) (a : (pcfg14 (F := F)).Adm)

/-- The table and the feature array, as vectors. -/
abbrev tb14 : Vec F S16x2000 .i32 := a.1 0
abbrev A14 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ14 (c : Dev nD) (n : ℕ) : sProp 𝕄 :=
  iprop(owns (c : Thread nD τ) tbM14 fullShare (tb14 a)
    ∗ owns (c : Thread nD τ) hbM14 fullShare (A14 V c)
    ∗ (∃ g : Vec F S1000x128 .f32, ⌜RowsOK14 (tb14 a) (A14 V c) n g⌝ ∗ owns (c : Thread nD τ) scM14_0 fullShare g)
    ∗ (∃ d, owns (c : Thread nD τ) scM14_1 fullShare d)
    ∗ cells24 c cc14_scratch2
    ∗ (∃ r, prngReg c r)
    ∗ Pipeline.scopedRestBut (Ix := Unit) (Name := ℕ) (U := UC) (Lvl := ℕ) (Val := Elt F) spec14 c [cc14_scratch0, cc14_scratch1])

/-! ## The windows' blocks and the proof data -/

/-- Window `w`'s block at point `t`, read off its array as the launch finds it. -/
def iblk14 (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- The proof data of the launch on core `c`: the arrays as the launch finds them; after the body at point `t` the
    weight window at its block and the output window at the product for `t`'s block of rows (read only at the block's
    last row, where the body stores it); the invariant above; nothing owed; full shares. -/
def dat14 (c : Dev nD) : Dat τ (Elt F) Unit ℕ UC ℕ (cfg14 a) c where
  A w := V c (Pipeline.arrRef spec14 w)
  after w t := match w with
    | ⟨0, _⟩ => iblk14 V a c 0 t
    | ⟨1, _⟩ => xBlk14 (tb14 a) (A14 V c) (iblk14 V a c 0 t) (t.val / 1000)
  Φ n := Φ14 V a c n.val
  q _ := fullShare
  owed _ := 0

/-- The proof data's arrays are the entry contents. -/
theorem A_eq14 (c : Dev nD) (w : Fin (cfg14 a).W) : (dat14 V a c).A w = V c (Pipeline.arrRef spec14 w) := by
  dsimp only [dat14]

/-- What the body leaves, window by window. -/
theorem after14_0 (c : Dev nD) (t : Fin (cfg14 a).N) : (dat14 V a c).after 0 t = iblk14 V a c 0 t := by dsimp only [dat14]; rfl
theorem after14_1 (c : Dev nD) (t : Fin (cfg14 a).N) :
    (dat14 V a c).after 1 t = xBlk14 (tb14 a) (A14 V c) (iblk14 V a c 0 t) (t.val / 1000) := by dsimp only [dat14]; rfl

/-- The invariant and the tallies, at a point. -/
theorem Phi14_eq (c : Dev nD) (n : Fin ((cfg14 a).N + 1)) : (dat14 V a c).Φ n = Φ14 V a c n.val := by dsimp only [dat14]
theorem owed14_eq (c : Dev nD) (n : Fin ((cfg14 a).N + 1)) : (dat14 V a c).owed n = 0 := by dsimp only [dat14]

/-- The weight window holds its block at every point, fetched there or not: its block index never moves. -/
theorem before14_0 (c : Dev nD) (t : Fin (cfg14 a).N) (d) : (dat14 V a c).before 0 t d = iblk14 V a c 0 t :=
  ((dat14 V a c).before_in_eq_fetched 0 rfl (fun _ => rfl) (fun _ _ _ => rfl)
      (fun t => by rw [after14_0]; unfold Dat.blockOf iblk14; rw [A_eq14]; try rfl) t d).trans
    (by unfold Dat.fetched Dat.blockOf iblk14; rw [A_eq14]; try rfl)

/-- The output window is written back after the last row of each block of rows, and only there; -/
theorem flush14_1 (t : Fin (cfg14 a).N) : ((cfg14 a).win 1).flush t = decide (t.val % 1000 = 999) := by
  unfold Window.flush
  exact flushB14 t
/-- and it is idle at every other row. -/
theorem idle14_1 (t : Fin (cfg14 a).N) : (cfg14 a).idle 1 ((cfg14 a).grid.coords t) = !decide (t.val % 1000 = 999) := by
  show (!(k14_cond1 (grid14.coords t) == 1#1)) = _
  congr 1
  by_cases h : t.val % 1000 = 999
  · rw [decide_eq_true h, (cond14_iff t).2 h]; rfl
  · rw [decide_eq_false h]
    exact beq_false_of_ne fun e => h ((cond14_iff t).1 e)

end Region

/-! ## The body obligation -/

section Body
variable (V : (c : Dev nD) → (b : Ref sig .tc) → Buf (Elt F) ((c : Thread nD τ).loc b)) (a : (pcfg14 (F := F)).Adm)

/-- Each window's current staging memref at point `t`, spelled as the pipeline passes it, and its wholeness. -/
abbrev ms14_0 (t : Fin (cfg14 a).N) : Memref sig .tc .vmem S128x128 .f32 := spec14_0.stage ((cfg14 a).slots t 0)
abbrev hs14_0 (t : Fin (cfg14 a).N) : (ms14_0 a t).IsWhole := hstage14_0 (((cfg14 a).slots t 0).cast nbuf14_0)
abbrev ms14_1 (t : Fin (cfg14 a).N) : Memref sig .tc .vmem S1000x128 .f32 := spec14_1.stage ((cfg14 a).slots t 1)
abbrev hs14_1 (t : Fin (cfg14 a).N) : (ms14_1 a t).IsWhole := hstage14_1 (((cfg14 a).slots t 1).cast nbuf14_1)

/-- The launch's body function, under the name the runs are stated at. -/
theorem bodyFn14_eq : cc14__gather_agg_matmul_kernel (F := F) = gatherFn := rfl

/-- The kernel body at point `t`, on what the pipeline calls it with. -/
abbrev bodyAt14 (t : Fin (cfg14 a).N) : Prog (TpuEff nD τ sig (Elt F) Λ₀ .tc) PUnit :=
  cc14__gather_agg_matmul_kernel (grid14.coords t) tbM14 (Memref.isWhole_whole _) hbM14 (Memref.isWhole_whole _)
    (ms14_0 a t) (hs14_0 a t) (ms14_1 a t) (hs14_1 a t) scM14_0 (Memref.isWhole_whole _) scM14_1 (Memref.isWhole_whole _) cc14_scratch2

/-- What the body is called with at point `t`, the windows one by one, -/
def bodyPre14 (c : Dev nD) (t : Fin (cfg14 a).N) : sProp 𝕄 :=
  iprop((dat14 V a c).Φ t.castSucc ∗ (dat14 V a c).owesAt () t.castSucc
    ∗ (∃ d, owns (c : Thread nD τ) (ms14_0 a t) fullShare ((dat14 V a c).before 0 t d))
    ∗ (∃ d, owns (c : Thread nD τ) (ms14_1 a t) fullShare ((dat14 V a c).before 1 t d)))

/-- and what it returns: the output window as it was found where the point is idle for it, at the block's product
    at the last row of a block. -/
def bodyPost14 (c : Dev nD) (t : Fin (cfg14 a).N) : sProp 𝕄 :=
  iprop((dat14 V a c).Φ t.succ ∗ (dat14 V a c).owesAt () t.succ
    ∗ owns (c : Thread nD τ) (ms14_0 a t) fullShare ((dat14 V a c).after 0 t)
    ∗ (match (cfg14 a).idle 1 ((cfg14 a).grid.coords t) with
        | true =>
          match ((cfg14 a).win 1).flush t with
          | false => iprop(∃ d, owns (c : Thread nD τ) (ms14_1 a t) fullShare ((dat14 V a c).before 1 t d))
          | true => owns (c : Thread nD τ) (ms14_1 a t) fullShare ((dat14 V a c).after 1 t)
        | false => owns (c : Thread nD τ) (ms14_1 a t) fullShare ((dat14 V a c).after 1 t)))

/-- The body at any point. The weight window holds its block; the invariant hands the body its table, the feature
    array, both scratch buffers and its transfer cells, and takes them back with the carried scratch one row further
    (`rowsOK14_step`); at the last row of a block the product the body stores is the block's (`rowAt14_last`); the core's
    `owes` goes in at whatever the points before recorded and comes back with this point's waits. -/
theorem sound_body14 (hR : InRange14 a.1) (c : Dev nD) (t : Fin (cfg14 a).N) :
    bodyPre14 V a c t ⊢ wp frame (wpE (defs₀ (F := F)) Variants.none c none) Set.univ (bodyAt14 a t) (fun _ => bodyPost14 V a c t) := by
  unfold bodyPre14 bodyPost14 bodyAt14
  rw [flush14_1, idle14_1]
  simp only [before14_0]
  rw [after14_0, Phi14_eq, Phi14_eq, Fin.val_succ, Fin.coe_castSucc]
  unfold Dat.owesAt Pipeline.owesWithin
  rw [owed14_eq, owed14_eq]
  unfold Φ14
  rw [bodyFn14_eq]
  by_cases hl : t.val % 1000 = 999
  · -- the last row of a block
    rw [decide_eq_true hl, Bool.not_true]
    dsimp only
    rw [after14_1]
    unfold xBlk14
    iintro ⟨⟨Htb, Hhb, ⟨%g, %hg, Hs0⟩, Hs1, Hcells, Hreg, Hrest⟩, ⟨%W, -, HW⟩, ⟨%d0, H0⟩, ⟨%d1, H1⟩⟩
    rw [← rowAt14_last (tb14 a) (A14 V c) t hl g hg]
    iapply (run24_last c (grid14.coords t) tbM14 (Memref.isWhole_whole _) hbM14 (Memref.isWhole_whole _) (ms14_0 a t) (hs14_0 a t)
      (ms14_1 a t) (hs14_1 a t) scM14_0 (Memref.isWhole_whole _) scM14_1 (Memref.isWhole_whole _) cc14_scratch2
      ((cond14_iff t).2 hl) (tb14 a) hR (A14 V c) (iblk14 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK14_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k14_cond1 (grid14.coords t) ≠ 1#1 := fun e => hl ((cond14_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid14.coords t) tbM14 (Memref.isWhole_whole _) hbM14 (Memref.isWhole_whole _) (ms14_0 a t) (hs14_0 a t)
      (ms14_1 a t) (hs14_1 a t) scM14_0 (Memref.isWhole_whole _) scM14_1 (Memref.isWhole_whole _) cc14_scratch2
      hc (tb14 a) hR (A14 V c) (iblk14 V a c 0 t) g
      (owns (c : Thread nD τ) (ms14_1 a t) fullShare ((dat14 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK14_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation14 (hR : InRange14 a.1) (c : Dev nD) :
    BodyObligation (dat14 (F := F) V a c) (defs₀ (F := F)) Variants.none () Set.univ := fun t => by
  rw [bigSep_W14, bigSep_W14]
  exact sound_body14 V a hR c t

end Body

/-! ## The value: what the launch leaves in its output array -/

section Value
variable (V : (c : Dev nD) → (b : Ref sig .tc) → Buf (Elt F) ((c : Thread nD τ).loc b)) (a : (pcfg14 (F := F)).Adm)

/-- Entry `(r, l)` of a block of rows. -/
def cell14 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk14 (tb : Vec F S16x2000 .i32) (A0 : Vec F S100000x128 .f32) (Wt : Vec F S128x128 .f32) : Vec F S2000x128 .f32 :=
  fun y => xBlk14 tb A0 Wt ((y 0).val / 1000) (cell14 ((y 0).val % 1000) (Nat.mod_lt _ (by decide)) (y 1))

/-- The weight window's block is the whole weight, at every point: its block index is (0, 0). -/
theorem wblk14_eq (c : Dev nD) (t : Fin (cfg14 a).N) : iblk14 V a c 0 t = (V c main_arg1 : Vec F S128x128 .f32) := by
  funext x
  unfold iblk14
  rw [View.read_apply]
  refine (cast_eq _ _).trans (congrArg (V c main_arg1) (funext fun b => Fin.ext ?_))
  refine (((cfg14 a).win 0).rect_emb_val_of_index_zero t b ?_ x)
  match b with
  | ⟨0, _⟩ => rfl
  | ⟨1, _⟩ => rfl

/-- Where entry `x` of the output window's block at point `t` sits in the output array. -/
abbrev emb14 (t : Fin (cfg14 a).N) (x : S1000x128.Idx) : S2000x128.Idx := (((cfg14 a).win 1).blk t).view.emb x

theorem emb14_val (t : Fin (cfg14 a).N) (x : S1000x128.Idx) :
    (emb14 a t x 0).val = t.val / 1000 * 1000 + (x 0).val ∧ (emb14 a t x 1).val = (x 1).val := by
  have hix : ((cfg14 a).win 1).index t = ![t.val / 1000, 0] := idx14_1 t
  have e0 := ((cfg14 a).win 1).rect_emb_val t x (0 : Fin 2)
  have e1 := ((cfg14 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after14_chunk (c : Dev nD) (t : Fin (cfg14 a).N) (x : S1000x128.Idx) :
    (dat14 V a c).after 1 t x = xChunk14 (tb14 a) (A14 V c) (V c main_arg1) (emb14 a t x) := by
  obtain ⟨e0, e1⟩ := emb14_val a t x
  have hx0 : (x 0).val < 1000 := (x 0).isLt
  rw [after14_1, wblk14_eq]
  unfold xChunk14
  have hq : (emb14 a t x 0).val / 1000 = t.val / 1000 := by rw [e0]; omega
  have hcell : cell14 ((emb14 a t x 0).val % 1000) (Nat.mod_lt _ (by decide)) (emb14 a t x 1) = x := by
    funext b
    apply Fin.ext
    match b with
    | ⟨0, _⟩ =>
      show (emb14 a t x 0).val % 1000 = (x 0).val
      rw [e0]; omega
    | ⟨1, _⟩ => exact e1
  rw [hq, hcell]

/-- Two entries of the output array with the same coordinates are the same. -/
theorem idx14_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb14_cell (t : Fin (cfg14 a).N) (i : S2000x128.Idx) (ht : t.val / 1000 = (i 0).val / 1000) :
    emb14 a t (cell14 ((i 0).val % 1000) (Nat.mod_lt _ (by decide)) (i 1)) = i := by
  obtain ⟨e0, e1⟩ := emb14_val a t (cell14 ((i 0).val % 1000) (Nat.mod_lt _ (by decide)) (i 1))
  refine idx14_ext _ _ ?_ e1
  rw [e0, ht]
  show (i 0).val / 1000 * 1000 + (i 0).val % 1000 = (i 0).val
  omega

/-- Every entry of the output array lies in the block written back after the last row of its block of rows. -/
theorem cover14 (i : S2000x128.Idx) :
    ∃ t : Fin (cfg14 a).N, ((cfg14 a).win 1).flush t = true ∧ i ∈ (((cfg14 a).win 1).blk t).view.set := by
  have hi0 : (i 0).val < 2000 := (i 0).isLt
  have hN : (i 0).val / 1000 * 1000 + 999 < (cfg14 a).N := by rw [N14]; omega
  refine ⟨⟨(i 0).val / 1000 * 1000 + 999, hN⟩, ?_, ?_⟩
  · rw [flush14_1]; exact decide_eq_true (by show ((i 0).val / 1000 * 1000 + 999) % 1000 = 999; omega)
  · refine Finset.mem_map.mpr ⟨cell14 ((i 0).val % 1000) (Nat.mod_lt _ (by decide)) (i 1), Finset.mem_univ _, ?_⟩
    exact emb14_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out14 (c : Dev nD) :
    (dat14 V a c).arrAt 1 (cfg14 a).N = (xChunk14 (tb14 a) (A14 V c) (V c main_arg1) : Vec F S2000x128 .f32) :=
  (dat14 V a c).arrAt_eq_of_cover 1 _
    (fun t _ => funext fun x => (after14_chunk V a c t x).trans (cast_eq _ _).symm)
    (cover14 a)

end Value

/-! ## The invariant's two ends -/

section Ends
variable (V : (c : Dev nD) → (b : Ref sig .tc) → Buf (Elt F) ((c : Thread nD τ).loc b)) (a : (pcfg14 (F := F)).Adm)

/-- The body's own transfer cells as the launch's protocol lists them: the 16 cells of its semaphore operand. -/
def osem14 : Fin 16 → SemLoc sig := fun k => SemLoc.dma (cc14_scratch2.ix (Shape.ofLane k))
/-- They are scoped, distinct, and none is a window's. -/
theorem ownSemFacts14 : Pipeline.OwnSemFacts spec14 osem14 := by decide
/-- The cells at zero, listed, are the cells as the body names them. -/
theorem cells14_eq (c : Dev nD) :
    (Pipeline.ownSems0 (Ix := Unit) (Name := ℕ) (U := UC) (Lvl := ℕ) (Val := Elt F) (τ := τ) osem14 c : sProp 𝕄) = cells24 c cc14_scratch2 := by
  rw [Pipeline.ownSems0_eq_of_list c osem14 [0, 1, 2, 3, 4, 5, 6, 7, 8, 9, 10, 11, 12, 13, 14, 15] (by decide) (by decide)]; rfl

/-- The launch's one table, held. -/
theorem prefHeld14_eq (c : Dev nD) (pf : pre14.Contents (Elt F)) :
    (Pipeline.prefHeld pre14 c (fun _ => fullShare) pf : sProp 𝕄) = (((c : Thread nD τ).loc main_v29) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X14 (c : Dev nD) : sProp 𝕄 :=
  iprop((∃ r, prngReg c r) ∗ Pipeline.ownSems0 (Ix := Unit) (Name := ℕ) (U := UC) (Lvl := ℕ) (Val := Elt F) (τ := τ) osem14 c
    ∗ (((c : Thread nD τ).loc main_arg0) ↦{fullShare} V c main_arg0))
abbrev Y14 (c : Dev nD) : sProp 𝕄 :=
  iprop((∃ r, prngReg c r) ∗ (((c : Thread nD τ).loc main_arg0) ↦{fullShare} V c main_arg0)
    ∗ Pipeline.prefHeld pre14 c (fun _ => fullShare) a.1)

/-- THE FIRST POINT: the invariant from what the launch's entry sorts out. Nothing is asked of the carried scratch. -/
theorem Phi14_in (c : Dev nD) :
    iprop(X14 V c ∗ Pipeline.prefHeld pre14 c (fun _ => fullShare) a.1
        ∗ Pipeline.scopedRest (Ix := Unit) (Name := ℕ) (U := UC) (Lvl := ℕ) (Val := Elt F) spec14 c)
      ⊢ (dat14 V a c).Φ 0 := by
  rw [Phi14_eq]
  unfold Φ14 X14
  rw [scopedRest14_split, prefHeld14_eq, cells14_eq]
  simp only [tbM14, hbM14, scM14_0, scM14_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK14_start _ _ _ rfl _
  isplitl [Hs1]; · iexact Hs1
  isplitl [Hcells]; · iexact Hcells
  isplitl [Hreg]; · iexact Hreg
  iexact Hrest

/-- THE LAST POINT: the invariant gives back what it took. -/
theorem Phi14_out (c : Dev nD) :
    (dat14 V a c).Φ (Fin.last _)
      ⊢ iprop(Y14 V a c ∗ Pipeline.ownSems0 (Ix := Unit) (Name := ℕ) (U := UC) (Lvl := ℕ) (Val := Elt F) (τ := τ) osem14 c
        ∗ Pipeline.scopedRest (Ix := Unit) (Name := ℕ) (U := UC) (Lvl := ℕ) (Val := Elt F) spec14 c) := by
  rw [Phi14_eq]
  unfold Φ14 Y14
  rw [scopedRest14_split, prefHeld14_eq, cells14_eq]
  simp only [tbM14, hbM14, scM14_0, scM14_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G15Dat.lean ====
/-
  One of the program's 25 gather launches (pipeline 15; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N15 (a : (pcfg15 (F := F)).Adm) : (cfg15 a).N = 2000 := N_15

/-- The body's branch is taken at the last row of a block of rows, -/
theorem cond15_iff : ∀ t : Fin grid15.N, k15_cond1 (grid15.coords t) = 1#1 ↔ t.val % 1000 = 999 := by decide +kernel
/-- the row a point works on is its number modulo 1000, -/
theorem rowAt15_coord : ∀ t : Fin grid15.N, (grid15.coords t 1).val = t.val % 1000 := by decide +kernel
/-- its block of rows is its number divided by 1000, -/
theorem blockAt15_coord : ∀ t : Fin grid15.N, (grid15.coords t 0).val = t.val / 1000 := by decide +kernel
/-- and the output's block index moves after exactly those points (and the grid ends at one). -/
theorem flushB15 : ∀ t : Fin grid15.N,
    (decide (t.val + 1 = grid15.N) || decide (∃ h : t.val + 1 < grid15.N, cc15_transform_2 (grid15.coords ⟨t.val + 1, h⟩) ≠ cc15_transform_2 (grid15.coords t)))
      = decide (t.val % 1000 = 999) := by decide +kernel

/-- The output's block index at a point: the point's block of rows. -/
theorem idx15_1 : ∀ t : Fin grid15.N, cc15_transform_2 (grid15.coords t) = ![t.val / 1000, 0] := by decide +kernel

/-- Every word of the launch's table names a row of the feature array. -/
def InRange15 (pf : pre15.Contents (Elt F)) : Prop := ∀ x : S16x2000.Idx, ((pf 0 : Vec F S16x2000 .i32) x).toNat < 100000

/-! ## The values -/

/-- Lane `l` of a one-row vector. -/
def lane15 (l : Fin 128) : S1x128.Idx := fun a => ⟨if a.val = 0 then 0 else l.val, by
  match a with
  | ⟨0, _⟩ => exact Nat.one_pos
  | ⟨1, _⟩ => exact l.isLt⟩

theorem lane15_one (l : Fin 128) : (lane15 l 1).val = l.val := rfl

/-- The grid point of row `r` of block `q` (total: the point number is taken modulo the grid's size). -/
def pt15 (q : ℕ) (r : ℕ) : Fin grid15.N := ⟨(q * 1000 + r) % grid15.N, Nat.mod_lt _ (by decide)⟩

/-- Inside the grid the point's number is `1000 q + r`. -/
theorem pt15_val (q r : ℕ) (hq : q < 2) (hr : r < 1000) : (pt15 q r).val = q * 1000 + r := by
  show (q * 1000 + r) % grid15.N = q * 1000 + r
  rw [N_15]; omega

/-- A point is the point of its block and row. -/
theorem pt15_self (t : Fin grid15.N) : pt15 (t.val / 1000) (t.val % 1000) = t := by
  apply Fin.ext
  show (t.val / 1000 * 1000 + t.val % 1000) % grid15.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means15 (tb : Vec F S16x2000 .i32) (A0 : Vec F S100000x128 .f32) (q : ℕ) : Vec F S1000x128 .f32 :=
  fun x => Gen.k24_pay1 (gath24 (grid15.coords (pt15 q (x 0).val)) tb A0) (lane15 (x 1))

/-- What the body stores in the output window at the last row of block `q`: the means, rounded, times the weight, rounded. -/
def xBlk15 (tb : Vec F S16x2000 .i32) (A0 : Vec F S100000x128 .f32) (Wt : Vec F S128x128 .f32) (q : ℕ) : Vec F S1000x128 .f32 :=
  Gen.k24_pay2 (means15 tb A0 q) Wt

/-- The carried scratch before point `n`: its rows below `n % 1000` are the means of block `n / 1000`. -/
def RowsOK15 (tb : Vec F S16x2000 .i32) (A0 : Vec F S100000x128 .f32) (n : ℕ) (g : Vec F S1000x128 .f32) : Prop :=
  ∀ x : S1000x128.Idx, (x 0).val < n % 1000 → g x = means15 tb A0 (n / 1000) x

/-- At the first row of a block nothing is asked. -/
theorem rowsOK15_start (tb : Vec F S16x2000 .i32) (A0 : Vec F S100000x128 .f32) (n : ℕ) (hn : n % 1000 = 0) (g : Vec F S1000x128 .f32) :
    RowsOK15 tb A0 n g := fun x hx => absurd hx (by omega)

/-- One point's row store keeps the invariant's rows and adds its own: after the store at point `t` the rows up to
    `t % 1000` are means. -/
theorem rowAt15_means (tb : Vec F S16x2000 .i32) (A0 : Vec F S100000x128 .f32) (t : Fin grid15.N) (g : Vec F S1000x128 .f32)
    (hg : RowsOK15 tb A0 t.val g) (x : S1000x128.Idx) (hx : (x 0).val ≤ t.val % 1000) :
    row24 (grid15.coords t) tb A0 g x = means15 tb A0 (t.val / 1000) x := by
  by_cases h : (x 0).val = t.val % 1000
  · rw [row24_of_eq (grid15.coords t) tb A0 g x (by rw [rowAt15_coord]; exact h) (lane15 (x 1)) rfl]
    unfold means15
    rw [h, pt15_self]
  · rw [row24_of_ne (grid15.coords t) tb A0 g x (by rw [rowAt15_coord]; exact h)]
    exact hg x (by omega)

/-- Within a block the invariant steps. -/
theorem rowsOK15_step (tb : Vec F S16x2000 .i32) (A0 : Vec F S100000x128 .f32) (t : Fin grid15.N) (g : Vec F S1000x128 .f32)
    (hg : RowsOK15 tb A0 t.val g) : RowsOK15 tb A0 (t.val + 1) (row24 (grid15.coords t) tb A0 g) := by
  by_cases hl : t.val % 1000 = 999
  · exact rowsOK15_start _ _ _ (by omega) _
  · intro x hx
    have h1 : (t.val + 1) / 1000 = t.val / 1000 := by omega
    rw [h1]
    exact rowAt15_means tb A0 t g hg x (by omega)

/-- At the last row of a block the scratch, after the row store, is the block's means whatever it held before. -/
theorem rowAt15_last (tb : Vec F S16x2000 .i32) (A0 : Vec F S100000x128 .f32) (t : Fin grid15.N) (hl : t.val % 1000 = 999)
    (g : Vec F S1000x128 .f32) (hg : RowsOK15 tb A0 t.val g) :
    row24 (grid15.coords t) tb A0 g = means15 tb A0 (t.val / 1000) :=
  funext fun x => rowAt15_means tb A0 t g hg x (by have : (x 0).val < 1000 := (x 0).isLt; omega)

/-! ## The invariant -/

/-- The launch's operands that no window stages, as the body is handed them: its table, the feature array left in
    HBM, and its two scratch buffers — whole buffers. -/
abbrev tbM15 : Memref sig .tc .smem S16x2000 .i32 := Memref.whole main_v31
abbrev hbM15 : Memref sig .tc .hbm S100000x128 .f32 := Memref.whole main_arg0
abbrev scM15_0 : Memref sig .tc .vmem S1000x128 .f32 := Memref.whole cc15_scratch0
abbrev scM15_1 : Memref sig .tc .vmem S16x128 .f32 := Memref.whole cc15_scratch1

section Region
-- the TensorCore's buffer contents when the launch is entered, and the launch's table
variable (V : (c : Dev nD) → (b : Ref sig .tc) → Buf (Elt F) ((c : Thread nD τ).loc b)) (a : (pcfg15 (F := F)).Adm)

/-- The table and the feature array, as vectors. -/
abbrev tb15 : Vec F S16x2000 .i32 := a.1 0
abbrev A15 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ15 (c : Dev nD) (n : ℕ) : sProp 𝕄 :=
  iprop(owns (c : Thread nD τ) tbM15 fullShare (tb15 a)
    ∗ owns (c : Thread nD τ) hbM15 fullShare (A15 V c)
    ∗ (∃ g : Vec F S1000x128 .f32, ⌜RowsOK15 (tb15 a) (A15 V c) n g⌝ ∗ owns (c : Thread nD τ) scM15_0 fullShare g)
    ∗ (∃ d, owns (c : Thread nD τ) scM15_1 fullShare d)
    ∗ cells24 c cc15_scratch2
    ∗ (∃ r, prngReg c r)
    ∗ Pipeline.scopedRestBut (Ix := Unit) (Name := ℕ) (U := UC) (Lvl := ℕ) (Val := Elt F) spec15 c [cc15_scratch0, cc15_scratch1])

/-! ## The windows' blocks and the proof data -/

/-- Window `w`'s block at point `t`, read off its array as the launch finds it. -/
def iblk15 (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- The proof data of the launch on core `c`: the arrays as the launch finds them; after the body at point `t` the
    weight window at its block and the output window at the product for `t`'s block of rows (read only at the block's
    last row, where the body stores it); the invariant above; nothing owed; full shares. -/
def dat15 (c : Dev nD) : Dat τ (Elt F) Unit ℕ UC ℕ (cfg15 a) c where
  A w := V c (Pipeline.arrRef spec15 w)
  after w t := match w with
    | ⟨0, _⟩ => iblk15 V a c 0 t
    | ⟨1, _⟩ => xBlk15 (tb15 a) (A15 V c) (iblk15 V a c 0 t) (t.val / 1000)
  Φ n := Φ15 V a c n.val
  q _ := fullShare
  owed _ := 0

/-- The proof data's arrays are the entry contents. -/
theorem A_eq15 (c : Dev nD) (w : Fin (cfg15 a).W) : (dat15 V a c).A w = V c (Pipeline.arrRef spec15 w) := by
  dsimp only [dat15]

/-- What the body leaves, window by window. -/
theorem after15_0 (c : Dev nD) (t : Fin (cfg15 a).N) : (dat15 V a c).after 0 t = iblk15 V a c 0 t := by dsimp only [dat15]; rfl
theorem after15_1 (c : Dev nD) (t : Fin (cfg15 a).N) :
    (dat15 V a c).after 1 t = xBlk15 (tb15 a) (A15 V c) (iblk15 V a c 0 t) (t.val / 1000) := by dsimp only [dat15]; rfl

/-- The invariant and the tallies, at a point. -/
theorem Phi15_eq (c : Dev nD) (n : Fin ((cfg15 a).N + 1)) : (dat15 V a c).Φ n = Φ15 V a c n.val := by dsimp only [dat15]
theorem owed15_eq (c : Dev nD) (n : Fin ((cfg15 a).N + 1)) : (dat15 V a c).owed n = 0 := by dsimp only [dat15]

/-- The weight window holds its block at every point, fetched there or not: its block index never moves. -/
theorem before15_0 (c : Dev nD) (t : Fin (cfg15 a).N) (d) : (dat15 V a c).before 0 t d = iblk15 V a c 0 t :=
  ((dat15 V a c).before_in_eq_fetched 0 rfl (fun _ => rfl) (fun _ _ _ => rfl)
      (fun t => by rw [after15_0]; unfold Dat.blockOf iblk15; rw [A_eq15]; try rfl) t d).trans
    (by unfold Dat.fetched Dat.blockOf iblk15; rw [A_eq15]; try rfl)

/-- The output window is written back after the last row of each block of rows, and only there; -/
theorem flush15_1 (t : Fin (cfg15 a).N) : ((cfg15 a).win 1).flush t = decide (t.val % 1000 = 999) := by
  unfold Window.flush
  exact flushB15 t
/-- and it is idle at every other row. -/
theorem idle15_1 (t : Fin (cfg15 a).N) : (cfg15 a).idle 1 ((cfg15 a).grid.coords t) = !decide (t.val % 1000 = 999) := by
  show (!(k15_cond1 (grid15.coords t) == 1#1)) = _
  congr 1
  by_cases h : t.val % 1000 = 999
  · rw [decide_eq_true h, (cond15_iff t).2 h]; rfl
  · rw [decide_eq_false h]
    exact beq_false_of_ne fun e => h ((cond15_iff t).1 e)

end Region

/-! ## The body obligation -/

section Body
variable (V : (c : Dev nD) → (b : Ref sig .tc) → Buf (Elt F) ((c : Thread nD τ).loc b)) (a : (pcfg15 (F := F)).Adm)

/-- Each window's current staging memref at point `t`, spelled as the pipeline passes it, and its wholeness. -/
abbrev ms15_0 (t : Fin (cfg15 a).N) : Memref sig .tc .vmem S128x128 .f32 := spec15_0.stage ((cfg15 a).slots t 0)
abbrev hs15_0 (t : Fin (cfg15 a).N) : (ms15_0 a t).IsWhole := hstage15_0 (((cfg15 a).slots t 0).cast nbuf15_0)
abbrev ms15_1 (t : Fin (cfg15 a).N) : Memref sig .tc .vmem S1000x128 .f32 := spec15_1.stage ((cfg15 a).slots t 1)
abbrev hs15_1 (t : Fin (cfg15 a).N) : (ms15_1 a t).IsWhole := hstage15_1 (((cfg15 a).slots t 1).cast nbuf15_1)

/-- The launch's body function, under the name the runs are stated at. -/
theorem bodyFn15_eq : cc15__gather_agg_matmul_kernel (F := F) = gatherFn := rfl

/-- The kernel body at point `t`, on what the pipeline calls it with. -/
abbrev bodyAt15 (t : Fin (cfg15 a).N) : Prog (TpuEff nD τ sig (Elt F) Λ₀ .tc) PUnit :=
  cc15__gather_agg_matmul_kernel (grid15.coords t) tbM15 (Memref.isWhole_whole _) hbM15 (Memref.isWhole_whole _)
    (ms15_0 a t) (hs15_0 a t) (ms15_1 a t) (hs15_1 a t) scM15_0 (Memref.isWhole_whole _) scM15_1 (Memref.isWhole_whole _) cc15_scratch2

/-- What the body is called with at point `t`, the windows one by one, -/
def bodyPre15 (c : Dev nD) (t : Fin (cfg15 a).N) : sProp 𝕄 :=
  iprop((dat15 V a c).Φ t.castSucc ∗ (dat15 V a c).owesAt () t.castSucc
    ∗ (∃ d, owns (c : Thread nD τ) (ms15_0 a t) fullShare ((dat15 V a c).before 0 t d))
    ∗ (∃ d, owns (c : Thread nD τ) (ms15_1 a t) fullShare ((dat15 V a c).before 1 t d)))

/-- and what it returns: the output window as it was found where the point is idle for it, at the block's product
    at the last row of a block. -/
def bodyPost15 (c : Dev nD) (t : Fin (cfg15 a).N) : sProp 𝕄 :=
  iprop((dat15 V a c).Φ t.succ ∗ (dat15 V a c).owesAt () t.succ
    ∗ owns (c : Thread nD τ) (ms15_0 a t) fullShare ((dat15 V a c).after 0 t)
    ∗ (match (cfg15 a).idle 1 ((cfg15 a).grid.coords t) with
        | true =>
          match ((cfg15 a).win 1).flush t with
          | false => iprop(∃ d, owns (c : Thread nD τ) (ms15_1 a t) fullShare ((dat15 V a c).before 1 t d))
          | true => owns (c : Thread nD τ) (ms15_1 a t) fullShare ((dat15 V a c).after 1 t)
        | false => owns (c : Thread nD τ) (ms15_1 a t) fullShare ((dat15 V a c).after 1 t)))

/-- The body at any point. The weight window holds its block; the invariant hands the body its table, the feature
    array, both scratch buffers and its transfer cells, and takes them back with the carried scratch one row further
    (`rowsOK15_step`); at the last row of a block the product the body stores is the block's (`rowAt15_last`); the core's
    `owes` goes in at whatever the points before recorded and comes back with this point's waits. -/
theorem sound_body15 (hR : InRange15 a.1) (c : Dev nD) (t : Fin (cfg15 a).N) :
    bodyPre15 V a c t ⊢ wp frame (wpE (defs₀ (F := F)) Variants.none c none) Set.univ (bodyAt15 a t) (fun _ => bodyPost15 V a c t) := by
  unfold bodyPre15 bodyPost15 bodyAt15
  rw [flush15_1, idle15_1]
  simp only [before15_0]
  rw [after15_0, Phi15_eq, Phi15_eq, Fin.val_succ, Fin.coe_castSucc]
  unfold Dat.owesAt Pipeline.owesWithin
  rw [owed15_eq, owed15_eq]
  unfold Φ15
  rw [bodyFn15_eq]
  by_cases hl : t.val % 1000 = 999
  · -- the last row of a block
    rw [decide_eq_true hl, Bool.not_true]
    dsimp only
    rw [after15_1]
    unfold xBlk15
    iintro ⟨⟨Htb, Hhb, ⟨%g, %hg, Hs0⟩, Hs1, Hcells, Hreg, Hrest⟩, ⟨%W, -, HW⟩, ⟨%d0, H0⟩, ⟨%d1, H1⟩⟩
    rw [← rowAt15_last (tb15 a) (A15 V c) t hl g hg]
    iapply (run24_last c (grid15.coords t) tbM15 (Memref.isWhole_whole _) hbM15 (Memref.isWhole_whole _) (ms15_0 a t) (hs15_0 a t)
      (ms15_1 a t) (hs15_1 a t) scM15_0 (Memref.isWhole_whole _) scM15_1 (Memref.isWhole_whole _) cc15_scratch2
      ((cond15_iff t).2 hl) (tb15 a) hR (A15 V c) (iblk15 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK15_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k15_cond1 (grid15.coords t) ≠ 1#1 := fun e => hl ((cond15_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid15.coords t) tbM15 (Memref.isWhole_whole _) hbM15 (Memref.isWhole_whole _) (ms15_0 a t) (hs15_0 a t)
      (ms15_1 a t) (hs15_1 a t) scM15_0 (Memref.isWhole_whole _) scM15_1 (Memref.isWhole_whole _) cc15_scratch2
      hc (tb15 a) hR (A15 V c) (iblk15 V a c 0 t) g
      (owns (c : Thread nD τ) (ms15_1 a t) fullShare ((dat15 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK15_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation15 (hR : InRange15 a.1) (c : Dev nD) :
    BodyObligation (dat15 (F := F) V a c) (defs₀ (F := F)) Variants.none () Set.univ := fun t => by
  rw [bigSep_W15, bigSep_W15]
  exact sound_body15 V a hR c t

end Body

/-! ## The value: what the launch leaves in its output array -/

section Value
variable (V : (c : Dev nD) → (b : Ref sig .tc) → Buf (Elt F) ((c : Thread nD τ).loc b)) (a : (pcfg15 (F := F)).Adm)

/-- Entry `(r, l)` of a block of rows. -/
def cell15 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk15 (tb : Vec F S16x2000 .i32) (A0 : Vec F S100000x128 .f32) (Wt : Vec F S128x128 .f32) : Vec F S2000x128 .f32 :=
  fun y => xBlk15 tb A0 Wt ((y 0).val / 1000) (cell15 ((y 0).val % 1000) (Nat.mod_lt _ (by decide)) (y 1))

/-- The weight window's block is the whole weight, at every point: its block index is (0, 0). -/
theorem wblk15_eq (c : Dev nD) (t : Fin (cfg15 a).N) : iblk15 V a c 0 t = (V c main_arg1 : Vec F S128x128 .f32) := by
  funext x
  unfold iblk15
  rw [View.read_apply]
  refine (cast_eq _ _).trans (congrArg (V c main_arg1) (funext fun b => Fin.ext ?_))
  refine (((cfg15 a).win 0).rect_emb_val_of_index_zero t b ?_ x)
  match b with
  | ⟨0, _⟩ => rfl
  | ⟨1, _⟩ => rfl

/-- Where entry `x` of the output window's block at point `t` sits in the output array. -/
abbrev emb15 (t : Fin (cfg15 a).N) (x : S1000x128.Idx) : S2000x128.Idx := (((cfg15 a).win 1).blk t).view.emb x

theorem emb15_val (t : Fin (cfg15 a).N) (x : S1000x128.Idx) :
    (emb15 a t x 0).val = t.val / 1000 * 1000 + (x 0).val ∧ (emb15 a t x 1).val = (x 1).val := by
  have hix : ((cfg15 a).win 1).index t = ![t.val / 1000, 0] := idx15_1 t
  have e0 := ((cfg15 a).win 1).rect_emb_val t x (0 : Fin 2)
  have e1 := ((cfg15 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after15_chunk (c : Dev nD) (t : Fin (cfg15 a).N) (x : S1000x128.Idx) :
    (dat15 V a c).after 1 t x = xChunk15 (tb15 a) (A15 V c) (V c main_arg1) (emb15 a t x) := by
  obtain ⟨e0, e1⟩ := emb15_val a t x
  have hx0 : (x 0).val < 1000 := (x 0).isLt
  rw [after15_1, wblk15_eq]
  unfold xChunk15
  have hq : (emb15 a t x 0).val / 1000 = t.val / 1000 := by rw [e0]; omega
  have hcell : cell15 ((emb15 a t x 0).val % 1000) (Nat.mod_lt _ (by decide)) (emb15 a t x 1) = x := by
    funext b
    apply Fin.ext
    match b with
    | ⟨0, _⟩ =>
      show (emb15 a t x 0).val % 1000 = (x 0).val
      rw [e0]; omega
    | ⟨1, _⟩ => exact e1
  rw [hq, hcell]

/-- Two entries of the output array with the same coordinates are the same. -/
theorem idx15_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb15_cell (t : Fin (cfg15 a).N) (i : S2000x128.Idx) (ht : t.val / 1000 = (i 0).val / 1000) :
    emb15 a t (cell15 ((i 0).val % 1000) (Nat.mod_lt _ (by decide)) (i 1)) = i := by
  obtain ⟨e0, e1⟩ := emb15_val a t (cell15 ((i 0).val % 1000) (Nat.mod_lt _ (by decide)) (i 1))
  refine idx15_ext _ _ ?_ e1
  rw [e0, ht]
  show (i 0).val / 1000 * 1000 + (i 0).val % 1000 = (i 0).val
  omega

/-- Every entry of the output array lies in the block written back after the last row of its block of rows. -/
theorem cover15 (i : S2000x128.Idx) :
    ∃ t : Fin (cfg15 a).N, ((cfg15 a).win 1).flush t = true ∧ i ∈ (((cfg15 a).win 1).blk t).view.set := by
  have hi0 : (i 0).val < 2000 := (i 0).isLt
  have hN : (i 0).val / 1000 * 1000 + 999 < (cfg15 a).N := by rw [N15]; omega
  refine ⟨⟨(i 0).val / 1000 * 1000 + 999, hN⟩, ?_, ?_⟩
  · rw [flush15_1]; exact decide_eq_true (by show ((i 0).val / 1000 * 1000 + 999) % 1000 = 999; omega)
  · refine Finset.mem_map.mpr ⟨cell15 ((i 0).val % 1000) (Nat.mod_lt _ (by decide)) (i 1), Finset.mem_univ _, ?_⟩
    exact emb15_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out15 (c : Dev nD) :
    (dat15 V a c).arrAt 1 (cfg15 a).N = (xChunk15 (tb15 a) (A15 V c) (V c main_arg1) : Vec F S2000x128 .f32) :=
  (dat15 V a c).arrAt_eq_of_cover 1 _
    (fun t _ => funext fun x => (after15_chunk V a c t x).trans (cast_eq _ _).symm)
    (cover15 a)

end Value

/-! ## The invariant's two ends -/

section Ends
variable (V : (c : Dev nD) → (b : Ref sig .tc) → Buf (Elt F) ((c : Thread nD τ).loc b)) (a : (pcfg15 (F := F)).Adm)

/-- The body's own transfer cells as the launch's protocol lists them: the 16 cells of its semaphore operand. -/
def osem15 : Fin 16 → SemLoc sig := fun k => SemLoc.dma (cc15_scratch2.ix (Shape.ofLane k))
/-- They are scoped, distinct, and none is a window's. -/
theorem ownSemFacts15 : Pipeline.OwnSemFacts spec15 osem15 := by decide
/-- The cells at zero, listed, are the cells as the body names them. -/
theorem cells15_eq (c : Dev nD) :
    (Pipeline.ownSems0 (Ix := Unit) (Name := ℕ) (U := UC) (Lvl := ℕ) (Val := Elt F) (τ := τ) osem15 c : sProp 𝕄) = cells24 c cc15_scratch2 := by
  rw [Pipeline.ownSems0_eq_of_list c osem15 [0, 1, 2, 3, 4, 5, 6, 7, 8, 9, 10, 11, 12, 13, 14, 15] (by decide) (by decide)]; rfl

/-- The launch's one table, held. -/
theorem prefHeld15_eq (c : Dev nD) (pf : pre15.Contents (Elt F)) :
    (Pipeline.prefHeld pre15 c (fun _ => fullShare) pf : sProp 𝕄) = (((c : Thread nD τ).loc main_v31) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X15 (c : Dev nD) : sProp 𝕄 :=
  iprop((∃ r, prngReg c r) ∗ Pipeline.ownSems0 (Ix := Unit) (Name := ℕ) (U := UC) (Lvl := ℕ) (Val := Elt F) (τ := τ) osem15 c
    ∗ (((c : Thread nD τ).loc main_arg0) ↦{fullShare} V c main_arg0))
abbrev Y15 (c : Dev nD) : sProp 𝕄 :=
  iprop((∃ r, prngReg c r) ∗ (((c : Thread nD τ).loc main_arg0) ↦{fullShare} V c main_arg0)
    ∗ Pipeline.prefHeld pre15 c (fun _ => fullShare) a.1)

/-- THE FIRST POINT: the invariant from what the launch's entry sorts out. Nothing is asked of the carried scratch. -/
theorem Phi15_in (c : Dev nD) :
    iprop(X15 V c ∗ Pipeline.prefHeld pre15 c (fun _ => fullShare) a.1
        ∗ Pipeline.scopedRest (Ix := Unit) (Name := ℕ) (U := UC) (Lvl := ℕ) (Val := Elt F) spec15 c)
      ⊢ (dat15 V a c).Φ 0 := by
  rw [Phi15_eq]
  unfold Φ15 X15
  rw [scopedRest15_split, prefHeld15_eq, cells15_eq]
  simp only [tbM15, hbM15, scM15_0, scM15_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK15_start _ _ _ rfl _
  isplitl [Hs1]; · iexact Hs1
  isplitl [Hcells]; · iexact Hcells
  isplitl [Hreg]; · iexact Hreg
  iexact Hrest

/-- THE LAST POINT: the invariant gives back what it took. -/
theorem Phi15_out (c : Dev nD) :
    (dat15 V a c).Φ (Fin.last _)
      ⊢ iprop(Y15 V a c ∗ Pipeline.ownSems0 (Ix := Unit) (Name := ℕ) (U := UC) (Lvl := ℕ) (Val := Elt F) (τ := τ) osem15 c
        ∗ Pipeline.scopedRest (Ix := Unit) (Name := ℕ) (U := UC) (Lvl := ℕ) (Val := Elt F) spec15 c) := by
  rw [Phi15_eq]
  unfold Φ15 Y15
  rw [scopedRest15_split, prefHeld15_eq, cells15_eq]
  simp only [tbM15, hbM15, scM15_0, scM15_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G16Dat.lean ====
/-
  One of the program's 25 gather launches (pipeline 16; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N16 (a : (pcfg16 (F := F)).Adm) : (cfg16 a).N = 2000 := N_16

/-- The body's branch is taken at the last row of a block of rows, -/
theorem cond16_iff : ∀ t : Fin grid16.N, k16_cond1 (grid16.coords t) = 1#1 ↔ t.val % 1000 = 999 := by decide +kernel
/-- the row a point works on is its number modulo 1000, -/
theorem rowAt16_coord : ∀ t : Fin grid16.N, (grid16.coords t 1).val = t.val % 1000 := by decide +kernel
/-- its block of rows is its number divided by 1000, -/
theorem blockAt16_coord : ∀ t : Fin grid16.N, (grid16.coords t 0).val = t.val / 1000 := by decide +kernel
/-- and the output's block index moves after exactly those points (and the grid ends at one). -/
theorem flushB16 : ∀ t : Fin grid16.N,
    (decide (t.val + 1 = grid16.N) || decide (∃ h : t.val + 1 < grid16.N, cc16_transform_2 (grid16.coords ⟨t.val + 1, h⟩) ≠ cc16_transform_2 (grid16.coords t)))
      = decide (t.val % 1000 = 999) := by decide +kernel

/-- The output's block index at a point: the point's block of rows. -/
theorem idx16_1 : ∀ t : Fin grid16.N, cc16_transform_2 (grid16.coords t) = ![t.val / 1000, 0] := by decide +kernel

/-- Every word of the launch's table names a row of the feature array. -/
def InRange16 (pf : pre16.Contents (Elt F)) : Prop := ∀ x : S16x2000.Idx, ((pf 0 : Vec F S16x2000 .i32) x).toNat < 100000

/-! ## The values -/

/-- Lane `l` of a one-row vector. -/
def lane16 (l : Fin 128) : S1x128.Idx := fun a => ⟨if a.val = 0 then 0 else l.val, by
  match a with
  | ⟨0, _⟩ => exact Nat.one_pos
  | ⟨1, _⟩ => exact l.isLt⟩

theorem lane16_one (l : Fin 128) : (lane16 l 1).val = l.val := rfl

/-- The grid point of row `r` of block `q` (total: the point number is taken modulo the grid's size). -/
def pt16 (q : ℕ) (r : ℕ) : Fin grid16.N := ⟨(q * 1000 + r) % grid16.N, Nat.mod_lt _ (by decide)⟩

/-- Inside the grid the point's number is `1000 q + r`. -/
theorem pt16_val (q r : ℕ) (hq : q < 2) (hr : r < 1000) : (pt16 q r).val = q * 1000 + r := by
  show (q * 1000 + r) % grid16.N = q * 1000 + r
  rw [N_16]; omega

/-- A point is the point of its block and row. -/
theorem pt16_self (t : Fin grid16.N) : pt16 (t.val / 1000) (t.val % 1000) = t := by
  apply Fin.ext
  show (t.val / 1000 * 1000 + t.val % 1000) % grid16.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means16 (tb : Vec F S16x2000 .i32) (A0 : Vec F S100000x128 .f32) (q : ℕ) : Vec F S1000x128 .f32 :=
  fun x => Gen.k24_pay1 (gath24 (grid16.coords (pt16 q (x 0).val)) tb A0) (lane16 (x 1))

/-- What the body stores in the output window at the last row of block `q`: the means, rounded, times the weight, rounded. -/
def xBlk16 (tb : Vec F S16x2000 .i32) (A0 : Vec F S100000x128 .f32) (Wt : Vec F S128x128 .f32) (q : ℕ) : Vec F S1000x128 .f32 :=
  Gen.k24_pay2 (means16 tb A0 q) Wt

/-- The carried scratch before point `n`: its rows below `n % 1000` are the means of block `n / 1000`. -/
def RowsOK16 (tb : Vec F S16x2000 .i32) (A0 : Vec F S100000x128 .f32) (n : ℕ) (g : Vec F S1000x128 .f32) : Prop :=
  ∀ x : S1000x128.Idx, (x 0).val < n % 1000 → g x = means16 tb A0 (n / 1000) x

/-- At the first row of a block nothing is asked. -/
theorem rowsOK16_start (tb : Vec F S16x2000 .i32) (A0 : Vec F S100000x128 .f32) (n : ℕ) (hn : n % 1000 = 0) (g : Vec F S1000x128 .f32) :
    RowsOK16 tb A0 n g := fun x hx => absurd hx (by omega)

/-- One point's row store keeps the invariant's rows and adds its own: after the store at point `t` the rows up to
    `t % 1000` are means. -/
theorem rowAt16_means (tb : Vec F S16x2000 .i32) (A0 : Vec F S100000x128 .f32) (t : Fin grid16.N) (g : Vec F S1000x128 .f32)
    (hg : RowsOK16 tb A0 t.val g) (x : S1000x128.Idx) (hx : (x 0).val ≤ t.val % 1000) :
    row24 (grid16.coords t) tb A0 g x = means16 tb A0 (t.val / 1000) x := by
  by_cases h : (x 0).val = t.val % 1000
  · rw [row24_of_eq (grid16.coords t) tb A0 g x (by rw [rowAt16_coord]; exact h) (lane16 (x 1)) rfl]
    unfold means16
    rw [h, pt16_self]
  · rw [row24_of_ne (grid16.coords t) tb A0 g x (by rw [rowAt16_coord]; exact h)]
    exact hg x (by omega)

/-- Within a block the invariant steps. -/
theorem rowsOK16_step (tb : Vec F S16x2000 .i32) (A0 : Vec F S100000x128 .f32) (t : Fin grid16.N) (g : Vec F S1000x128 .f32)
    (hg : RowsOK16 tb A0 t.val g) : RowsOK16 tb A0 (t.val + 1) (row24 (grid16.coords t) tb A0 g) := by
  by_cases hl : t.val % 1000 = 999
  · exact rowsOK16_start _ _ _ (by omega) _
  · intro x hx
    have h1 : (t.val + 1) / 1000 = t.val / 1000 := by omega
    rw [h1]
    exact rowAt16_means tb A0 t g hg x (by omega)

/-- At the last row of a block the scratch, after the row store, is the block's means whatever it held before. -/
theorem rowAt16_last (tb : Vec F S16x2000 .i32) (A0 : Vec F S100000x128 .f32) (t : Fin grid16.N) (hl : t.val % 1000 = 999)
    (g : Vec F S1000x128 .f32) (hg : RowsOK16 tb A0 t.val g) :
    row24 (grid16.coords t) tb A0 g = means16 tb A0 (t.val / 1000) :=
  funext fun x => rowAt16_means tb A0 t g hg x (by have : (x 0).val < 1000 := (x 0).isLt; omega)

/-! ## The invariant -/

/-- The launch's operands that no window stages, as the body is handed them: its table, the feature array left in
    HBM, and its two scratch buffers — whole buffers. -/
abbrev tbM16 : Memref sig .tc .smem S16x2000 .i32 := Memref.whole main_v33
abbrev hbM16 : Memref sig .tc .hbm S100000x128 .f32 := Memref.whole main_arg0
abbrev scM16_0 : Memref sig .tc .vmem S1000x128 .f32 := Memref.whole cc16_scratch0
abbrev scM16_1 : Memref sig .tc .vmem S16x128 .f32 := Memref.whole cc16_scratch1

section Region
-- the TensorCore's buffer contents when the launch is entered, and the launch's table
variable (V : (c : Dev nD) → (b : Ref sig .tc) → Buf (Elt F) ((c : Thread nD τ).loc b)) (a : (pcfg16 (F := F)).Adm)

/-- The table and the feature array, as vectors. -/
abbrev tb16 : Vec F S16x2000 .i32 := a.1 0
abbrev A16 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ16 (c : Dev nD) (n : ℕ) : sProp 𝕄 :=
  iprop(owns (c : Thread nD τ) tbM16 fullShare (tb16 a)
    ∗ owns (c : Thread nD τ) hbM16 fullShare (A16 V c)
    ∗ (∃ g : Vec F S1000x128 .f32, ⌜RowsOK16 (tb16 a) (A16 V c) n g⌝ ∗ owns (c : Thread nD τ) scM16_0 fullShare g)
    ∗ (∃ d, owns (c : Thread nD τ) scM16_1 fullShare d)
    ∗ cells24 c cc16_scratch2
    ∗ (∃ r, prngReg c r)
    ∗ Pipeline.scopedRestBut (Ix := Unit) (Name := ℕ) (U := UC) (Lvl := ℕ) (Val := Elt F) spec16 c [cc16_scratch0, cc16_scratch1])

/-! ## The windows' blocks and the proof data -/

/-- Window `w`'s block at point `t`, read off its array as the launch finds it. -/
def iblk16 (c : Dev nD) (w : Fin (cfg16 a).W) (t : Fin (cfg16 a).N) :
    (((cfg16 a).win w).xblock ((cfg16 a).grid.coords t)).Idx → Elt F ((cfg16 a).win w).elt :=
  (((cfg16 a).win w).blk t).view.read (Elt F) (V c (Pipeline.arrRef spec16 w))

/-- The proof data of the launch on core `c`: the arrays as the launch finds them; after the body at point `t` the
    weight window at its block and the output window at the product for `t`'s block of rows (read only at the block's
    last row, where the body stores it); the invariant above; nothing owed; full shares. -/
def dat16 (c : Dev nD) : Dat τ (Elt F) Unit ℕ UC ℕ (cfg16 a) c where
  A w := V c (Pipeline.arrRef spec16 w)
  after w t := match w with
    | ⟨0, _⟩ => iblk16 V a c 0 t
    | ⟨1, _⟩ => xBlk16 (tb16 a) (A16 V c) (iblk16 V a c 0 t) (t.val / 1000)
  Φ n := Φ16 V a c n.val
  q _ := fullShare
  owed _ := 0

/-- The proof data's arrays are the entry contents. -/
theorem A_eq16 (c : Dev nD) (w : Fin (cfg16 a).W) : (dat16 V a c).A w = V c (Pipeline.arrRef spec16 w) := by
  dsimp only [dat16]

/-- What the body leaves, window by window. -/
theorem after16_0 (c : Dev nD) (t : Fin (cfg16 a).N) : (dat16 V a c).after 0 t = iblk16 V a c 0 t := by dsimp only [dat16]; rfl
theorem after16_1 (c : Dev nD) (t : Fin (cfg16 a).N) :
    (dat16 V a c).after 1 t = xBlk16 (tb16 a) (A16 V c) (iblk16 V a c 0 t) (t.val / 1000) := by dsimp only [dat16]; rfl

/-- The invariant and the tallies, at a point. -/
theorem Phi16_eq (c : Dev nD) (n : Fin ((cfg16 a).N + 1)) : (dat16 V a c).Φ n = Φ16 V a c n.val := by dsimp only [dat16]
theorem owed16_eq (c : Dev nD) (n : Fin ((cfg16 a).N + 1)) : (dat16 V a c).owed n = 0 := by dsimp only [dat16]

/-- The weight window holds its block at every point, fetched there or not: its block index never moves. -/
theorem before16_0 (c : Dev nD) (t : Fin (cfg16 a).N) (d) : (dat16 V a c).before 0 t d = iblk16 V a c 0 t :=
  ((dat16 V a c).before_in_eq_fetched 0 rfl (fun _ => rfl) (fun _ _ _ => rfl)
      (fun t => by rw [after16_0]; unfold Dat.blockOf iblk16; rw [A_eq16]; try rfl) t d).trans
    (by unfold Dat.fetched Dat.blockOf iblk16; rw [A_eq16]; try rfl)

/-- The output window is written back after the last row of each block of rows, and only there; -/
theorem flush16_1 (t : Fin (cfg16 a).N) : ((cfg16 a).win 1).flush t = decide (t.val % 1000 = 999) := by
  unfold Window.flush
  exact flushB16 t
/-- and it is idle at every other row. -/
theorem idle16_1 (t : Fin (cfg16 a).N) : (cfg16 a).idle 1 ((cfg16 a).grid.coords t) = !decide (t.val % 1000 = 999) := by
  show (!(k16_cond1 (grid16.coords t) == 1#1)) = _
  congr 1
  by_cases h : t.val % 1000 = 999
  · rw [decide_eq_true h, (cond16_iff t).2 h]; rfl
  · rw [decide_eq_false h]
    exact beq_false_of_ne fun e => h ((cond16_iff t).1 e)

end Region

/-! ## The body obligation -/

section Body
variable (V : (c : Dev nD) → (b : Ref sig .tc) → Buf (Elt F) ((c : Thread nD τ).loc b)) (a : (pcfg16 (F := F)).Adm)

/-- Each window's current staging memref at point `t`, spelled as the pipeline passes it, and its wholeness. -/
abbrev ms16_0 (t : Fin (cfg16 a).N) : Memref sig .tc .vmem S128x128 .f32 := spec16_0.stage ((cfg16 a).slots t 0)
abbrev hs16_0 (t : Fin (cfg16 a).N) : (ms16_0 a t).IsWhole := hstage16_0 (((cfg16 a).slots t 0).cast nbuf16_0)
abbrev ms16_1 (t : Fin (cfg16 a).N) : Memref sig .tc .vmem S1000x128 .f32 := spec16_1.stage ((cfg16 a).slots t 1)
abbrev hs16_1 (t : Fin (cfg16 a).N) : (ms16_1 a t).IsWhole := hstage16_1 (((cfg16 a).slots t 1).cast nbuf16_1)

/-- The launch's body function, under the name the runs are stated at. -/
theorem bodyFn16_eq : cc16__gather_agg_matmul_kernel (F := F) = gatherFn := rfl

/-- The kernel body at point `t`, on what the pipeline calls it with. -/
abbrev bodyAt16 (t : Fin (cfg16 a).N) : Prog (TpuEff nD τ sig (Elt F) Λ₀ .tc) PUnit :=
  cc16__gather_agg_matmul_kernel (grid16.coords t) tbM16 (Memref.isWhole_whole _) hbM16 (Memref.isWhole_whole _)
    (ms16_0 a t) (hs16_0 a t) (ms16_1 a t) (hs16_1 a t) scM16_0 (Memref.isWhole_whole _) scM16_1 (Memref.isWhole_whole _) cc16_scratch2

/-- What the body is called with at point `t`, the windows one by one, -/
def bodyPre16 (c : Dev nD) (t : Fin (cfg16 a).N) : sProp 𝕄 :=
  iprop((dat16 V a c).Φ t.castSucc ∗ (dat16 V a c).owesAt () t.castSucc
    ∗ (∃ d, owns (c : Thread nD τ) (ms16_0 a t) fullShare ((dat16 V a c).before 0 t d))
    ∗ (∃ d, owns (c : Thread nD τ) (ms16_1 a t) fullShare ((dat16 V a c).before 1 t d)))

/-- and what it returns: the output window as it was found where the point is idle for it, at the block's product
    at the last row of a block. -/
def bodyPost16 (c : Dev nD) (t : Fin (cfg16 a).N) : sProp 𝕄 :=
  iprop((dat16 V a c).Φ t.succ ∗ (dat16 V a c).owesAt () t.succ
    ∗ owns (c : Thread nD τ) (ms16_0 a t) fullShare ((dat16 V a c).after 0 t)
    ∗ (match (cfg16 a).idle 1 ((cfg16 a).grid.coords t) with
        | true =>
          match ((cfg16 a).win 1).flush t with
          | false => iprop(∃ d, owns (c : Thread nD τ) (ms16_1 a t) fullShare ((dat16 V a c).before 1 t d))
          | true => owns (c : Thread nD τ) (ms16_1 a t) fullShare ((dat16 V a c).after 1 t)
        | false => owns (c : Thread nD τ) (ms16_1 a t) fullShare ((dat16 V a c).after 1 t)))

/-- The body at any point. The weight window holds its block; the invariant hands the body its table, the feature
    array, both scratch buffers and its transfer cells, and takes them back with the carried scratch one row further
    (`rowsOK16_step`); at the last row of a block the product the body stores is the block's (`rowAt16_last`); the core's
    `owes` goes in at whatever the points before recorded and comes back with this point's waits. -/
theorem sound_body16 (hR : InRange16 a.1) (c : Dev nD) (t : Fin (cfg16 a).N) :
    bodyPre16 V a c t ⊢ wp frame (wpE (defs₀ (F := F)) Variants.none c none) Set.univ (bodyAt16 a t) (fun _ => bodyPost16 V a c t) := by
  unfold bodyPre16 bodyPost16 bodyAt16
  rw [flush16_1, idle16_1]
  simp only [before16_0]
  rw [after16_0, Phi16_eq, Phi16_eq, Fin.val_succ, Fin.coe_castSucc]
  unfold Dat.owesAt Pipeline.owesWithin
  rw [owed16_eq, owed16_eq]
  unfold Φ16
  rw [bodyFn16_eq]
  by_cases hl : t.val % 1000 = 999
  · -- the last row of a block
    rw [decide_eq_true hl, Bool.not_true]
    dsimp only
    rw [after16_1]
    unfold xBlk16
    iintro ⟨⟨Htb, Hhb, ⟨%g, %hg, Hs0⟩, Hs1, Hcells, Hreg, Hrest⟩, ⟨%W, -, HW⟩, ⟨%d0, H0⟩, ⟨%d1, H1⟩⟩
    rw [← rowAt16_last (tb16 a) (A16 V c) t hl g hg]
    iapply (run24_last c (grid16.coords t) tbM16 (Memref.isWhole_whole _) hbM16 (Memref.isWhole_whole _) (ms16_0 a t) (hs16_0 a t)
      (ms16_1 a t) (hs16_1 a t) scM16_0 (Memref.isWhole_whole _) scM16_1 (Memref.isWhole_whole _) cc16_scratch2
      ((cond16_iff t).2 hl) (tb16 a) hR (A16 V c) (iblk16 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK16_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k16_cond1 (grid16.coords t) ≠ 1#1 := fun e => hl ((cond16_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid16.coords t) tbM16 (Memref.isWhole_whole _) hbM16 (Memref.isWhole_whole _) (ms16_0 a t) (hs16_0 a t)
      (ms16_1 a t) (hs16_1 a t) scM16_0 (Memref.isWhole_whole _) scM16_1 (Memref.isWhole_whole _) cc16_scratch2
      hc (tb16 a) hR (A16 V c) (iblk16 V a c 0 t) g
      (owns (c : Thread nD τ) (ms16_1 a t) fullShare ((dat16 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK16_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation16 (hR : InRange16 a.1) (c : Dev nD) :
    BodyObligation (dat16 (F := F) V a c) (defs₀ (F := F)) Variants.none () Set.univ := fun t => by
  rw [bigSep_W16, bigSep_W16]
  exact sound_body16 V a hR c t

end Body

/-! ## The value: what the launch leaves in its output array -/

section Value
variable (V : (c : Dev nD) → (b : Ref sig .tc) → Buf (Elt F) ((c : Thread nD τ).loc b)) (a : (pcfg16 (F := F)).Adm)

/-- Entry `(r, l)` of a block of rows. -/
def cell16 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk16 (tb : Vec F S16x2000 .i32) (A0 : Vec F S100000x128 .f32) (Wt : Vec F S128x128 .f32) : Vec F S2000x128 .f32 :=
  fun y => xBlk16 tb A0 Wt ((y 0).val / 1000) (cell16 ((y 0).val % 1000) (Nat.mod_lt _ (by decide)) (y 1))

/-- The weight window's block is the whole weight, at every point: its block index is (0, 0). -/
theorem wblk16_eq (c : Dev nD) (t : Fin (cfg16 a).N) : iblk16 V a c 0 t = (V c main_arg1 : Vec F S128x128 .f32) := by
  funext x
  unfold iblk16
  rw [View.read_apply]
  refine (cast_eq _ _).trans (congrArg (V c main_arg1) (funext fun b => Fin.ext ?_))
  refine (((cfg16 a).win 0).rect_emb_val_of_index_zero t b ?_ x)
  match b with
  | ⟨0, _⟩ => rfl
  | ⟨1, _⟩ => rfl

/-- Where entry `x` of the output window's block at point `t` sits in the output array. -/
abbrev emb16 (t : Fin (cfg16 a).N) (x : S1000x128.Idx) : S2000x128.Idx := (((cfg16 a).win 1).blk t).view.emb x

theorem emb16_val (t : Fin (cfg16 a).N) (x : S1000x128.Idx) :
    (emb16 a t x 0).val = t.val / 1000 * 1000 + (x 0).val ∧ (emb16 a t x 1).val = (x 1).val := by
  have hix : ((cfg16 a).win 1).index t = ![t.val / 1000, 0] := idx16_1 t
  have e0 := ((cfg16 a).win 1).rect_emb_val t x (0 : Fin 2)
  have e1 := ((cfg16 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after16_chunk (c : Dev nD) (t : Fin (cfg16 a).N) (x : S1000x128.Idx) :
    (dat16 V a c).after 1 t x = xChunk16 (tb16 a) (A16 V c) (V c main_arg1) (emb16 a t x) := by
  obtain ⟨e0, e1⟩ := emb16_val a t x
  have hx0 : (x 0).val < 1000 := (x 0).isLt
  rw [after16_1, wblk16_eq]
  unfold xChunk16
  have hq : (emb16 a t x 0).val / 1000 = t.val / 1000 := by rw [e0]; omega
  have hcell : cell16 ((emb16 a t x 0).val % 1000) (Nat.mod_lt _ (by decide)) (emb16 a t x 1) = x := by
    funext b
    apply Fin.ext
    match b with
    | ⟨0, _⟩ =>
      show (emb16 a t x 0).val % 1000 = (x 0).val
      rw [e0]; omega
    | ⟨1, _⟩ => exact e1
  rw [hq, hcell]

/-- Two entries of the output array with the same coordinates are the same. -/
theorem idx16_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb16_cell (t : Fin (cfg16 a).N) (i : S2000x128.Idx) (ht : t.val / 1000 = (i 0).val / 1000) :
    emb16 a t (cell16 ((i 0).val % 1000) (Nat.mod_lt _ (by decide)) (i 1)) = i := by
  obtain ⟨e0, e1⟩ := emb16_val a t (cell16 ((i 0).val % 1000) (Nat.mod_lt _ (by decide)) (i 1))
  refine idx16_ext _ _ ?_ e1
  rw [e0, ht]
  show (i 0).val / 1000 * 1000 + (i 0).val % 1000 = (i 0).val
  omega

/-- Every entry of the output array lies in the block written back after the last row of its block of rows. -/
theorem cover16 (i : S2000x128.Idx) :
    ∃ t : Fin (cfg16 a).N, ((cfg16 a).win 1).flush t = true ∧ i ∈ (((cfg16 a).win 1).blk t).view.set := by
  have hi0 : (i 0).val < 2000 := (i 0).isLt
  have hN : (i 0).val / 1000 * 1000 + 999 < (cfg16 a).N := by rw [N16]; omega
  refine ⟨⟨(i 0).val / 1000 * 1000 + 999, hN⟩, ?_, ?_⟩
  · rw [flush16_1]; exact decide_eq_true (by show ((i 0).val / 1000 * 1000 + 999) % 1000 = 999; omega)
  · refine Finset.mem_map.mpr ⟨cell16 ((i 0).val % 1000) (Nat.mod_lt _ (by decide)) (i 1), Finset.mem_univ _, ?_⟩
    exact emb16_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out16 (c : Dev nD) :
    (dat16 V a c).arrAt 1 (cfg16 a).N = (xChunk16 (tb16 a) (A16 V c) (V c main_arg1) : Vec F S2000x128 .f32) :=
  (dat16 V a c).arrAt_eq_of_cover 1 _
    (fun t _ => funext fun x => (after16_chunk V a c t x).trans (cast_eq _ _).symm)
    (cover16 a)

end Value

/-! ## The invariant's two ends -/

section Ends
variable (V : (c : Dev nD) → (b : Ref sig .tc) → Buf (Elt F) ((c : Thread nD τ).loc b)) (a : (pcfg16 (F := F)).Adm)

/-- The body's own transfer cells as the launch's protocol lists them: the 16 cells of its semaphore operand. -/
def osem16 : Fin 16 → SemLoc sig := fun k => SemLoc.dma (cc16_scratch2.ix (Shape.ofLane k))
/-- They are scoped, distinct, and none is a window's. -/
theorem ownSemFacts16 : Pipeline.OwnSemFacts spec16 osem16 := by decide
/-- The cells at zero, listed, are the cells as the body names them. -/
theorem cells16_eq (c : Dev nD) :
    (Pipeline.ownSems0 (Ix := Unit) (Name := ℕ) (U := UC) (Lvl := ℕ) (Val := Elt F) (τ := τ) osem16 c : sProp 𝕄) = cells24 c cc16_scratch2 := by
  rw [Pipeline.ownSems0_eq_of_list c osem16 [0, 1, 2, 3, 4, 5, 6, 7, 8, 9, 10, 11, 12, 13, 14, 15] (by decide) (by decide)]; rfl

/-- The launch's one table, held. -/
theorem prefHeld16_eq (c : Dev nD) (pf : pre16.Contents (Elt F)) :
    (Pipeline.prefHeld pre16 c (fun _ => fullShare) pf : sProp 𝕄) = (((c : Thread nD τ).loc main_v33) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X16 (c : Dev nD) : sProp 𝕄 :=
  iprop((∃ r, prngReg c r) ∗ Pipeline.ownSems0 (Ix := Unit) (Name := ℕ) (U := UC) (Lvl := ℕ) (Val := Elt F) (τ := τ) osem16 c
    ∗ (((c : Thread nD τ).loc main_arg0) ↦{fullShare} V c main_arg0))
abbrev Y16 (c : Dev nD) : sProp 𝕄 :=
  iprop((∃ r, prngReg c r) ∗ (((c : Thread nD τ).loc main_arg0) ↦{fullShare} V c main_arg0)
    ∗ Pipeline.prefHeld pre16 c (fun _ => fullShare) a.1)

/-- THE FIRST POINT: the invariant from what the launch's entry sorts out. Nothing is asked of the carried scratch. -/
theorem Phi16_in (c : Dev nD) :
    iprop(X16 V c ∗ Pipeline.prefHeld pre16 c (fun _ => fullShare) a.1
        ∗ Pipeline.scopedRest (Ix := Unit) (Name := ℕ) (U := UC) (Lvl := ℕ) (Val := Elt F) spec16 c)
      ⊢ (dat16 V a c).Φ 0 := by
  rw [Phi16_eq]
  unfold Φ16 X16
  rw [scopedRest16_split, prefHeld16_eq, cells16_eq]
  simp only [tbM16, hbM16, scM16_0, scM16_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK16_start _ _ _ rfl _
  isplitl [Hs1]; · iexact Hs1
  isplitl [Hcells]; · iexact Hcells
  isplitl [Hreg]; · iexact Hreg
  iexact Hrest

/-- THE LAST POINT: the invariant gives back what it took. -/
theorem Phi16_out (c : Dev nD) :
    (dat16 V a c).Φ (Fin.last _)
      ⊢ iprop(Y16 V a c ∗ Pipeline.ownSems0 (Ix := Unit) (Name := ℕ) (U := UC) (Lvl := ℕ) (Val := Elt F) (τ := τ) osem16 c
        ∗ Pipeline.scopedRest (Ix := Unit) (Name := ℕ) (U := UC) (Lvl := ℕ) (Val := Elt F) spec16 c) := by
  rw [Phi16_eq]
  unfold Φ16 Y16
  rw [scopedRest16_split, prefHeld16_eq, cells16_eq]
  simp only [tbM16, hbM16, scM16_0, scM16_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G17Dat.lean ====
/-
  One of the program's 25 gather launches (pipeline 17; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N17 (a : (pcfg17 (F := F)).Adm) : (cfg17 a).N = 2000 := N_17

/-- The body's branch is taken at the last row of a block of rows, -/
theorem cond17_iff : ∀ t : Fin grid17.N, k17_cond1 (grid17.coords t) = 1#1 ↔ t.val % 1000 = 999 := by decide +kernel
/-- the row a point works on is its number modulo 1000, -/
theorem rowAt17_coord : ∀ t : Fin grid17.N, (grid17.coords t 1).val = t.val % 1000 := by decide +kernel
/-- its block of rows is its number divided by 1000, -/
theorem blockAt17_coord : ∀ t : Fin grid17.N, (grid17.coords t 0).val = t.val / 1000 := by decide +kernel
/-- and the output's block index moves after exactly those points (and the grid ends at one). -/
theorem flushB17 : ∀ t : Fin grid17.N,
    (decide (t.val + 1 = grid17.N) || decide (∃ h : t.val + 1 < grid17.N, cc17_transform_2 (grid17.coords ⟨t.val + 1, h⟩) ≠ cc17_transform_2 (grid17.coords t)))
      = decide (t.val % 1000 = 999) := by decide +kernel

/-- The output's block index at a point: the point's block of rows. -/
theorem idx17_1 : ∀ t : Fin grid17.N, cc17_transform_2 (grid17.coords t) = ![t.val / 1000, 0] := by decide +kernel

/-- Every word of the launch's table names a row of the feature array. -/
def InRange17 (pf : pre17.Contents (Elt F)) : Prop := ∀ x : S16x2000.Idx, ((pf 0 : Vec F S16x2000 .i32) x).toNat < 100000

/-! ## The values -/

/-- Lane `l` of a one-row vector. -/
def lane17 (l : Fin 128) : S1x128.Idx := fun a => ⟨if a.val = 0 then 0 else l.val, by
  match a with
  | ⟨0, _⟩ => exact Nat.one_pos
  | ⟨1, _⟩ => exact l.isLt⟩

theorem lane17_one (l : Fin 128) : (lane17 l 1).val = l.val := rfl

/-- The grid point of row `r` of block `q` (total: the point number is taken modulo the grid's size). -/
def pt17 (q : ℕ) (r : ℕ) : Fin grid17.N := ⟨(q * 1000 + r) % grid17.N, Nat.mod_lt _ (by decide)⟩

/-- Inside the grid the point's number is `1000 q + r`. -/
theorem pt17_val (q r : ℕ) (hq : q < 2) (hr : r < 1000) : (pt17 q r).val = q * 1000 + r := by
  show (q * 1000 + r) % grid17.N = q * 1000 + r
  rw [N_17]; omega

/-- A point is the point of its block and row. -/
theorem pt17_self (t : Fin grid17.N) : pt17 (t.val / 1000) (t.val % 1000) = t := by
  apply Fin.ext
  show (t.val / 1000 * 1000 + t.val % 1000) % grid17.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means17 (tb : Vec F S16x2000 .i32) (A0 : Vec F S100000x128 .f32) (q : ℕ) : Vec F S1000x128 .f32 :=
  fun x => Gen.k24_pay1 (gath24 (grid17.coords (pt17 q (x 0).val)) tb A0) (lane17 (x 1))

/-- What the body stores in the output window at the last row of block `q`: the means, rounded, times the weight, rounded. -/
def xBlk17 (tb : Vec F S16x2000 .i32) (A0 : Vec F S100000x128 .f32) (Wt : Vec F S128x128 .f32) (q : ℕ) : Vec F S1000x128 .f32 :=
  Gen.k24_pay2 (means17 tb A0 q) Wt

/-- The carried scratch before point `n`: its rows below `n % 1000` are the means of block `n / 1000`. -/
def RowsOK17 (tb : Vec F S16x2000 .i32) (A0 : Vec F S100000x128 .f32) (n : ℕ) (g : Vec F S1000x128 .f32) : Prop :=
  ∀ x : S1000x128.Idx, (x 0).val < n % 1000 → g x = means17 tb A0 (n / 1000) x

/-- At the first row of a block nothing is asked. -/
theorem rowsOK17_start (tb : Vec F S16x2000 .i32) (A0 : Vec F S100000x128 .f32) (n : ℕ) (hn : n % 1000 = 0) (g : Vec F S1000x128 .f32) :
    RowsOK17 tb A0 n g := fun x hx => absurd hx (by omega)

/-- One point's row store keeps the invariant's rows and adds its own: after the store at point `t` the rows up to
    `t % 1000` are means. -/
theorem rowAt17_means (tb : Vec F S16x2000 .i32) (A0 : Vec F S100000x128 .f32) (t : Fin grid17.N) (g : Vec F S1000x128 .f32)
    (hg : RowsOK17 tb A0 t.val g) (x : S1000x128.Idx) (hx : (x 0).val ≤ t.val % 1000) :
    row24 (grid17.coords t) tb A0 g x = means17 tb A0 (t.val / 1000) x := by
  by_cases h : (x 0).val = t.val % 1000
  · rw [row24_of_eq (grid17.coords t) tb A0 g x (by rw [rowAt17_coord]; exact h) (lane17 (x 1)) rfl]
    unfold means17
    rw [h, pt17_self]
  · rw [row24_of_ne (grid17.coords t) tb A0 g x (by rw [rowAt17_coord]; exact h)]
    exact hg x (by omega)

/-- Within a block the invariant steps. -/
theorem rowsOK17_step (tb : Vec F S16x2000 .i32) (A0 : Vec F S100000x128 .f32) (t : Fin grid17.N) (g : Vec F S1000x128 .f32)
    (hg : RowsOK17 tb A0 t.val g) : RowsOK17 tb A0 (t.val + 1) (row24 (grid17.coords t) tb A0 g) := by
  by_cases hl : t.val % 1000 = 999
  · exact rowsOK17_start _ _ _ (by omega) _
  · intro x hx
    have h1 : (t.val + 1) / 1000 = t.val / 1000 := by omega
    rw [h1]
    exact rowAt17_means tb A0 t g hg x (by omega)

/-- At the last row of a block the scratch, after the row store, is the block's means whatever it held before. -/
theorem rowAt17_last (tb : Vec F S16x2000 .i32) (A0 : Vec F S100000x128 .f32) (t : Fin grid17.N) (hl : t.val % 1000 = 999)
    (g : Vec F S1000x128 .f32) (hg : RowsOK17 tb A0 t.val g) :
    row24 (grid17.coords t) tb A0 g = means17 tb A0 (t.val / 1000) :=
  funext fun x => rowAt17_means tb A0 t g hg x (by have : (x 0).val < 1000 := (x 0).isLt; omega)

/-! ## The invariant -/

/-- The launch's operands that no window stages, as the body is handed them: its table, the feature array left in
    HBM, and its two scratch buffers — whole buffers. -/
abbrev tbM17 : Memref sig .tc .smem S16x2000 .i32 := Memref.whole main_v35
abbrev hbM17 : Memref sig .tc .hbm S100000x128 .f32 := Memref.whole main_arg0
abbrev scM17_0 : Memref sig .tc .vmem S1000x128 .f32 := Memref.whole cc17_scratch0
abbrev scM17_1 : Memref sig .tc .vmem S16x128 .f32 := Memref.whole cc17_scratch1

section Region
-- the TensorCore's buffer contents when the launch is entered, and the launch's table
variable (V : (c : Dev nD) → (b : Ref sig .tc) → Buf (Elt F) ((c : Thread nD τ).loc b)) (a : (pcfg17 (F := F)).Adm)

/-- The table and the feature array, as vectors. -/
abbrev tb17 : Vec F S16x2000 .i32 := a.1 0
abbrev A17 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ17 (c : Dev nD) (n : ℕ) : sProp 𝕄 :=
  iprop(owns (c : Thread nD τ) tbM17 fullShare (tb17 a)
    ∗ owns (c : Thread nD τ) hbM17 fullShare (A17 V c)
    ∗ (∃ g : Vec F S1000x128 .f32, ⌜RowsOK17 (tb17 a) (A17 V c) n g⌝ ∗ owns (c : Thread nD τ) scM17_0 fullShare g)
    ∗ (∃ d, owns (c : Thread nD τ) scM17_1 fullShare d)
    ∗ cells24 c cc17_scratch2
    ∗ (∃ r, prngReg c r)
    ∗ Pipeline.scopedRestBut (Ix := Unit) (Name := ℕ) (U := UC) (Lvl := ℕ) (Val := Elt F) spec17 c [cc17_scratch0, cc17_scratch1])

/-! ## The windows' blocks and the proof data -/

/-- Window `w`'s block at point `t`, read off its array as the launch finds it. -/
def iblk17 (c : Dev nD) (w : Fin (cfg17 a).W) (t : Fin (cfg17 a).N) :
    (((cfg17 a).win w).xblock ((cfg17 a).grid.coords t)).Idx → Elt F ((cfg17 a).win w).elt :=
  (((cfg17 a).win w).blk t).view.read (Elt F) (V c (Pipeline.arrRef spec17 w))

/-- The proof data of the launch on core `c`: the arrays as the launch finds them; after the body at point `t` the
    weight window at its block and the output window at the product for `t`'s block of rows (read only at the block's
    last row, where the body stores it); the invariant above; nothing owed; full shares. -/
def dat17 (c : Dev nD) : Dat τ (Elt F) Unit ℕ UC ℕ (cfg17 a) c where
  A w := V c (Pipeline.arrRef spec17 w)
  after w t := match w with
    | ⟨0, _⟩ => iblk17 V a c 0 t
    | ⟨1, _⟩ => xBlk17 (tb17 a) (A17 V c) (iblk17 V a c 0 t) (t.val / 1000)
  Φ n := Φ17 V a c n.val
  q _ := fullShare
  owed _ := 0

/-- The proof data's arrays are the entry contents. -/
theorem A_eq17 (c : Dev nD) (w : Fin (cfg17 a).W) : (dat17 V a c).A w = V c (Pipeline.arrRef spec17 w) := by
  dsimp only [dat17]

/-- What the body leaves, window by window. -/
theorem after17_0 (c : Dev nD) (t : Fin (cfg17 a).N) : (dat17 V a c).after 0 t = iblk17 V a c 0 t := by dsimp only [dat17]; rfl
theorem after17_1 (c : Dev nD) (t : Fin (cfg17 a).N) :
    (dat17 V a c).after 1 t = xBlk17 (tb17 a) (A17 V c) (iblk17 V a c 0 t) (t.val / 1000) := by dsimp only [dat17]; rfl

/-- The invariant and the tallies, at a point. -/
theorem Phi17_eq (c : Dev nD) (n : Fin ((cfg17 a).N + 1)) : (dat17 V a c).Φ n = Φ17 V a c n.val := by dsimp only [dat17]
theorem owed17_eq (c : Dev nD) (n : Fin ((cfg17 a).N + 1)) : (dat17 V a c).owed n = 0 := by dsimp only [dat17]

/-- The weight window holds its block at every point, fetched there or not: its block index never moves. -/
theorem before17_0 (c : Dev nD) (t : Fin (cfg17 a).N) (d) : (dat17 V a c).before 0 t d = iblk17 V a c 0 t :=
  ((dat17 V a c).before_in_eq_fetched 0 rfl (fun _ => rfl) (fun _ _ _ => rfl)
      (fun t => by rw [after17_0]; unfold Dat.blockOf iblk17; rw [A_eq17]; try rfl) t d).trans
    (by unfold Dat.fetched Dat.blockOf iblk17; rw [A_eq17]; try rfl)

/-- The output window is written back after the last row of each block of rows, and only there; -/
theorem flush17_1 (t : Fin (cfg17 a).N) : ((cfg17 a).win 1).flush t = decide (t.val % 1000 = 999) := by
  unfold Window.flush
  exact flushB17 t
/-- and it is idle at every other row. -/
theorem idle17_1 (t : Fin (cfg17 a).N) : (cfg17 a).idle 1 ((cfg17 a).grid.coords t) = !decide (t.val % 1000 = 999) := by
  show (!(k17_cond1 (grid17.coords t) == 1#1)) = _
  congr 1
  by_cases h : t.val % 1000 = 999
  · rw [decide_eq_true h, (cond17_iff t).2 h]; rfl
  · rw [decide_eq_false h]
    exact beq_false_of_ne fun e => h ((cond17_iff t).1 e)

end Region

/-! ## The body obligation -/

section Body
variable (V : (c : Dev nD) → (b : Ref sig .tc) → Buf (Elt F) ((c : Thread nD τ).loc b)) (a : (pcfg17 (F := F)).Adm)

/-- Each window's current staging memref at point `t`, spelled as the pipeline passes it, and its wholeness. -/
abbrev ms17_0 (t : Fin (cfg17 a).N) : Memref sig .tc .vmem S128x128 .f32 := spec17_0.stage ((cfg17 a).slots t 0)
abbrev hs17_0 (t : Fin (cfg17 a).N) : (ms17_0 a t).IsWhole := hstage17_0 (((cfg17 a).slots t 0).cast nbuf17_0)
abbrev ms17_1 (t : Fin (cfg17 a).N) : Memref sig .tc .vmem S1000x128 .f32 := spec17_1.stage ((cfg17 a).slots t 1)
abbrev hs17_1 (t : Fin (cfg17 a).N) : (ms17_1 a t).IsWhole := hstage17_1 (((cfg17 a).slots t 1).cast nbuf17_1)

/-- The launch's body function, under the name the runs are stated at. -/
theorem bodyFn17_eq : cc17__gather_agg_matmul_kernel (F := F) = gatherFn := rfl

/-- The kernel body at point `t`, on what the pipeline calls it with. -/
abbrev bodyAt17 (t : Fin (cfg17 a).N) : Prog (TpuEff nD τ sig (Elt F) Λ₀ .tc) PUnit :=
  cc17__gather_agg_matmul_kernel (grid17.coords t) tbM17 (Memref.isWhole_whole _) hbM17 (Memref.isWhole_whole _)
    (ms17_0 a t) (hs17_0 a t) (ms17_1 a t) (hs17_1 a t) scM17_0 (Memref.isWhole_whole _) scM17_1 (Memref.isWhole_whole _) cc17_scratch2

/-- What the body is called with at point `t`, the windows one by one, -/
def bodyPre17 (c : Dev nD) (t : Fin (cfg17 a).N) : sProp 𝕄 :=
  iprop((dat17 V a c).Φ t.castSucc ∗ (dat17 V a c).owesAt () t.castSucc
    ∗ (∃ d, owns (c : Thread nD τ) (ms17_0 a t) fullShare ((dat17 V a c).before 0 t d))
    ∗ (∃ d, owns (c : Thread nD τ) (ms17_1 a t) fullShare ((dat17 V a c).before 1 t d)))

/-- and what it returns: the output window as it was found where the point is idle for it, at the block's product
    at the last row of a block. -/
def bodyPost17 (c : Dev nD) (t : Fin (cfg17 a).N) : sProp 𝕄 :=
  iprop((dat17 V a c).Φ t.succ ∗ (dat17 V a c).owesAt () t.succ
    ∗ owns (c : Thread nD τ) (ms17_0 a t) fullShare ((dat17 V a c).after 0 t)
    ∗ (match (cfg17 a).idle 1 ((cfg17 a).grid.coords t) with
        | true =>
          match ((cfg17 a).win 1).flush t with
          | false => iprop(∃ d, owns (c : Thread nD τ) (ms17_1 a t) fullShare ((dat17 V a c).before 1 t d))
          | true => owns (c : Thread nD τ) (ms17_1 a t) fullShare ((dat17 V a c).after 1 t)
        | false => owns (c : Thread nD τ) (ms17_1 a t) fullShare ((dat17 V a c).after 1 t)))

/-- The body at any point. The weight window holds its block; the invariant hands the body its table, the feature
    array, both scratch buffers and its transfer cells, and takes them back with the carried scratch one row further
    (`rowsOK17_step`); at the last row of a block the product the body stores is the block's (`rowAt17_last`); the core's
    `owes` goes in at whatever the points before recorded and comes back with this point's waits. -/
theorem sound_body17 (hR : InRange17 a.1) (c : Dev nD) (t : Fin (cfg17 a).N) :
    bodyPre17 V a c t ⊢ wp frame (wpE (defs₀ (F := F)) Variants.none c none) Set.univ (bodyAt17 a t) (fun _ => bodyPost17 V a c t) := by
  unfold bodyPre17 bodyPost17 bodyAt17
  rw [flush17_1, idle17_1]
  simp only [before17_0]
  rw [after17_0, Phi17_eq, Phi17_eq, Fin.val_succ, Fin.coe_castSucc]
  unfold Dat.owesAt Pipeline.owesWithin
  rw [owed17_eq, owed17_eq]
  unfold Φ17
  rw [bodyFn17_eq]
  by_cases hl : t.val % 1000 = 999
  · -- the last row of a block
    rw [decide_eq_true hl, Bool.not_true]
    dsimp only
    rw [after17_1]
    unfold xBlk17
    iintro ⟨⟨Htb, Hhb, ⟨%g, %hg, Hs0⟩, Hs1, Hcells, Hreg, Hrest⟩, ⟨%W, -, HW⟩, ⟨%d0, H0⟩, ⟨%d1, H1⟩⟩
    rw [← rowAt17_last (tb17 a) (A17 V c) t hl g hg]
    iapply (run24_last c (grid17.coords t) tbM17 (Memref.isWhole_whole _) hbM17 (Memref.isWhole_whole _) (ms17_0 a t) (hs17_0 a t)
      (ms17_1 a t) (hs17_1 a t) scM17_0 (Memref.isWhole_whole _) scM17_1 (Memref.isWhole_whole _) cc17_scratch2
      ((cond17_iff t).2 hl) (tb17 a) hR (A17 V c) (iblk17 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK17_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k17_cond1 (grid17.coords t) ≠ 1#1 := fun e => hl ((cond17_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid17.coords t) tbM17 (Memref.isWhole_whole _) hbM17 (Memref.isWhole_whole _) (ms17_0 a t) (hs17_0 a t)
      (ms17_1 a t) (hs17_1 a t) scM17_0 (Memref.isWhole_whole _) scM17_1 (Memref.isWhole_whole _) cc17_scratch2
      hc (tb17 a) hR (A17 V c) (iblk17 V a c 0 t) g
      (owns (c : Thread nD τ) (ms17_1 a t) fullShare ((dat17 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK17_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation17 (hR : InRange17 a.1) (c : Dev nD) :
    BodyObligation (dat17 (F := F) V a c) (defs₀ (F := F)) Variants.none () Set.univ := fun t => by
  rw [bigSep_W17, bigSep_W17]
  exact sound_body17 V a hR c t

end Body

/-! ## The value: what the launch leaves in its output array -/

section Value
variable (V : (c : Dev nD) → (b : Ref sig .tc) → Buf (Elt F) ((c : Thread nD τ).loc b)) (a : (pcfg17 (F := F)).Adm)

/-- Entry `(r, l)` of a block of rows. -/
def cell17 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk17 (tb : Vec F S16x2000 .i32) (A0 : Vec F S100000x128 .f32) (Wt : Vec F S128x128 .f32) : Vec F S2000x128 .f32 :=
  fun y => xBlk17 tb A0 Wt ((y 0).val / 1000) (cell17 ((y 0).val % 1000) (Nat.mod_lt _ (by decide)) (y 1))

/-- The weight window's block is the whole weight, at every point: its block index is (0, 0). -/
theorem wblk17_eq (c : Dev nD) (t : Fin (cfg17 a).N) : iblk17 V a c 0 t = (V c main_arg1 : Vec F S128x128 .f32) := by
  funext x
  unfold iblk17
  rw [View.read_apply]
  refine (cast_eq _ _).trans (congrArg (V c main_arg1) (funext fun b => Fin.ext ?_))
  refine (((cfg17 a).win 0).rect_emb_val_of_index_zero t b ?_ x)
  match b with
  | ⟨0, _⟩ => rfl
  | ⟨1, _⟩ => rfl

/-- Where entry `x` of the output window's block at point `t` sits in the output array. -/
abbrev emb17 (t : Fin (cfg17 a).N) (x : S1000x128.Idx) : S2000x128.Idx := (((cfg17 a).win 1).blk t).view.emb x

theorem emb17_val (t : Fin (cfg17 a).N) (x : S1000x128.Idx) :
    (emb17 a t x 0).val = t.val / 1000 * 1000 + (x 0).val ∧ (emb17 a t x 1).val = (x 1).val := by
  have hix : ((cfg17 a).win 1).index t = ![t.val / 1000, 0] := idx17_1 t
  have e0 := ((cfg17 a).win 1).rect_emb_val t x (0 : Fin 2)
  have e1 := ((cfg17 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after17_chunk (c : Dev nD) (t : Fin (cfg17 a).N) (x : S1000x128.Idx) :
    (dat17 V a c).after 1 t x = xChunk17 (tb17 a) (A17 V c) (V c main_arg1) (emb17 a t x) := by
  obtain ⟨e0, e1⟩ := emb17_val a t x
  have hx0 : (x 0).val < 1000 := (x 0).isLt
  rw [after17_1, wblk17_eq]
  unfold xChunk17
  have hq : (emb17 a t x 0).val / 1000 = t.val / 1000 := by rw [e0]; omega
  have hcell : cell17 ((emb17 a t x 0).val % 1000) (Nat.mod_lt _ (by decide)) (emb17 a t x 1) = x := by
    funext b
    apply Fin.ext
    match b with
    | ⟨0, _⟩ =>
      show (emb17 a t x 0).val % 1000 = (x 0).val
      rw [e0]; omega
    | ⟨1, _⟩ => exact e1
  rw [hq, hcell]

/-- Two entries of the output array with the same coordinates are the same. -/
theorem idx17_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb17_cell (t : Fin (cfg17 a).N) (i : S2000x128.Idx) (ht : t.val / 1000 = (i 0).val / 1000) :
    emb17 a t (cell17 ((i 0).val % 1000) (Nat.mod_lt _ (by decide)) (i 1)) = i := by
  obtain ⟨e0, e1⟩ := emb17_val a t (cell17 ((i 0).val % 1000) (Nat.mod_lt _ (by decide)) (i 1))
  refine idx17_ext _ _ ?_ e1
  rw [e0, ht]
  show (i 0).val / 1000 * 1000 + (i 0).val % 1000 = (i 0).val
  omega

/-- Every entry of the output array lies in the block written back after the last row of its block of rows. -/
theorem cover17 (i : S2000x128.Idx) :
    ∃ t : Fin (cfg17 a).N, ((cfg17 a).win 1).flush t = true ∧ i ∈ (((cfg17 a).win 1).blk t).view.set := by
  have hi0 : (i 0).val < 2000 := (i 0).isLt
  have hN : (i 0).val / 1000 * 1000 + 999 < (cfg17 a).N := by rw [N17]; omega
  refine ⟨⟨(i 0).val / 1000 * 1000 + 999, hN⟩, ?_, ?_⟩
  · rw [flush17_1]; exact decide_eq_true (by show ((i 0).val / 1000 * 1000 + 999) % 1000 = 999; omega)
  · refine Finset.mem_map.mpr ⟨cell17 ((i 0).val % 1000) (Nat.mod_lt _ (by decide)) (i 1), Finset.mem_univ _, ?_⟩
    exact emb17_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out17 (c : Dev nD) :
    (dat17 V a c).arrAt 1 (cfg17 a).N = (xChunk17 (tb17 a) (A17 V c) (V c main_arg1) : Vec F S2000x128 .f32) :=
  (dat17 V a c).arrAt_eq_of_cover 1 _
    (fun t _ => funext fun x => (after17_chunk V a c t x).trans (cast_eq _ _).symm)
    (cover17 a)

end Value

/-! ## The invariant's two ends -/

section Ends
variable (V : (c : Dev nD) → (b : Ref sig .tc) → Buf (Elt F) ((c : Thread nD τ).loc b)) (a : (pcfg17 (F := F)).Adm)

/-- The body's own transfer cells as the launch's protocol lists them: the 16 cells of its semaphore operand. -/
def osem17 : Fin 16 → SemLoc sig := fun k => SemLoc.dma (cc17_scratch2.ix (Shape.ofLane k))
/-- They are scoped, distinct, and none is a window's. -/
theorem ownSemFacts17 : Pipeline.OwnSemFacts spec17 osem17 := by decide
/-- The cells at zero, listed, are the cells as the body names them. -/
theorem cells17_eq (c : Dev nD) :
    (Pipeline.ownSems0 (Ix := Unit) (Name := ℕ) (U := UC) (Lvl := ℕ) (Val := Elt F) (τ := τ) osem17 c : sProp 𝕄) = cells24 c cc17_scratch2 := by
  rw [Pipeline.ownSems0_eq_of_list c osem17 [0, 1, 2, 3, 4, 5, 6, 7, 8, 9, 10, 11, 12, 13, 14, 15] (by decide) (by decide)]; rfl

/-- The launch's one table, held. -/
theorem prefHeld17_eq (c : Dev nD) (pf : pre17.Contents (Elt F)) :
    (Pipeline.prefHeld pre17 c (fun _ => fullShare) pf : sProp 𝕄) = (((c : Thread nD τ).loc main_v35) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X17 (c : Dev nD) : sProp 𝕄 :=
  iprop((∃ r, prngReg c r) ∗ Pipeline.ownSems0 (Ix := Unit) (Name := ℕ) (U := UC) (Lvl := ℕ) (Val := Elt F) (τ := τ) osem17 c
    ∗ (((c : Thread nD τ).loc main_arg0) ↦{fullShare} V c main_arg0))
abbrev Y17 (c : Dev nD) : sProp 𝕄 :=
  iprop((∃ r, prngReg c r) ∗ (((c : Thread nD τ).loc main_arg0) ↦{fullShare} V c main_arg0)
    ∗ Pipeline.prefHeld pre17 c (fun _ => fullShare) a.1)

/-- THE FIRST POINT: the invariant from what the launch's entry sorts out. Nothing is asked of the carried scratch. -/
theorem Phi17_in (c : Dev nD) :
    iprop(X17 V c ∗ Pipeline.prefHeld pre17 c (fun _ => fullShare) a.1
        ∗ Pipeline.scopedRest (Ix := Unit) (Name := ℕ) (U := UC) (Lvl := ℕ) (Val := Elt F) spec17 c)
      ⊢ (dat17 V a c).Φ 0 := by
  rw [Phi17_eq]
  unfold Φ17 X17
  rw [scopedRest17_split, prefHeld17_eq, cells17_eq]
  simp only [tbM17, hbM17, scM17_0, scM17_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK17_start _ _ _ rfl _
  isplitl [Hs1]; · iexact Hs1
  isplitl [Hcells]; · iexact Hcells
  isplitl [Hreg]; · iexact Hreg
  iexact Hrest

/-- THE LAST POINT: the invariant gives back what it took. -/
theorem Phi17_out (c : Dev nD) :
    (dat17 V a c).Φ (Fin.last _)
      ⊢ iprop(Y17 V a c ∗ Pipeline.ownSems0 (Ix := Unit) (Name := ℕ) (U := UC) (Lvl := ℕ) (Val := Elt F) (τ := τ) osem17 c
        ∗ Pipeline.scopedRest (Ix := Unit) (Name := ℕ) (U := UC) (Lvl := ℕ) (Val := Elt F) spec17 c) := by
  rw [Phi17_eq]
  unfold Φ17 Y17
  rw [scopedRest17_split, prefHeld17_eq, cells17_eq]
  simp only [tbM17, hbM17, scM17_0, scM17_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G18Dat.lean ====
/-
  One of the program's 25 gather launches (pipeline 18; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N18 (a : (pcfg18 (F := F)).Adm) : (cfg18 a).N = 2000 := N_18

/-- The body's branch is taken at the last row of a block of rows, -/
theorem cond18_iff : ∀ t : Fin grid18.N, k18_cond1 (grid18.coords t) = 1#1 ↔ t.val % 1000 = 999 := by decide +kernel
/-- the row a point works on is its number modulo 1000, -/
theorem rowAt18_coord : ∀ t : Fin grid18.N, (grid18.coords t 1).val = t.val % 1000 := by decide +kernel
/-- its block of rows is its number divided by 1000, -/
theorem blockAt18_coord : ∀ t : Fin grid18.N, (grid18.coords t 0).val = t.val / 1000 := by decide +kernel
/-- and the output's block index moves after exactly those points (and the grid ends at one). -/
theorem flushB18 : ∀ t : Fin grid18.N,
    (decide (t.val + 1 = grid18.N) || decide (∃ h : t.val + 1 < grid18.N, cc18_transform_2 (grid18.coords ⟨t.val + 1, h⟩) ≠ cc18_transform_2 (grid18.coords t)))
      = decide (t.val % 1000 = 999) := by decide +kernel

/-- The output's block index at a point: the point's block of rows. -/
theorem idx18_1 : ∀ t : Fin grid18.N, cc18_transform_2 (grid18.coords t) = ![t.val / 1000, 0] := by decide +kernel

/-- Every word of the launch's table names a row of the feature array. -/
def InRange18 (pf : pre18.Contents (Elt F)) : Prop := ∀ x : S16x2000.Idx, ((pf 0 : Vec F S16x2000 .i32) x).toNat < 100000

/-! ## The values -/

/-- Lane `l` of a one-row vector. -/
def lane18 (l : Fin 128) : S1x128.Idx := fun a => ⟨if a.val = 0 then 0 else l.val, by
  match a with
  | ⟨0, _⟩ => exact Nat.one_pos
  | ⟨1, _⟩ => exact l.isLt⟩

theorem lane18_one (l : Fin 128) : (lane18 l 1).val = l.val := rfl

/-- The grid point of row `r` of block `q` (total: the point number is taken modulo the grid's size). -/
def pt18 (q : ℕ) (r : ℕ) : Fin grid18.N := ⟨(q * 1000 + r) % grid18.N, Nat.mod_lt _ (by decide)⟩

/-- Inside the grid the point's number is `1000 q + r`. -/
theorem pt18_val (q r : ℕ) (hq : q < 2) (hr : r < 1000) : (pt18 q r).val = q * 1000 + r := by
  show (q * 1000 + r) % grid18.N = q * 1000 + r
  rw [N_18]; omega

/-- A point is the point of its block and row. -/
theorem pt18_self (t : Fin grid18.N) : pt18 (t.val / 1000) (t.val % 1000) = t := by
  apply Fin.ext
  show (t.val / 1000 * 1000 + t.val % 1000) % grid18.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means18 (tb : Vec F S16x2000 .i32) (A0 : Vec F S100000x128 .f32) (q : ℕ) : Vec F S1000x128 .f32 :=
  fun x => Gen.k24_pay1 (gath24 (grid18.coords (pt18 q (x 0).val)) tb A0) (lane18 (x 1))

/-- What the body stores in the output window at the last row of block `q`: the means, rounded, times the weight, rounded. -/
def xBlk18 (tb : Vec F S16x2000 .i32) (A0 : Vec F S100000x128 .f32) (Wt : Vec F S128x128 .f32) (q : ℕ) : Vec F S1000x128 .f32 :=
  Gen.k24_pay2 (means18 tb A0 q) Wt

/-- The carried scratch before point `n`: its rows below `n % 1000` are the means of block `n / 1000`. -/
def RowsOK18 (tb : Vec F S16x2000 .i32) (A0 : Vec F S100000x128 .f32) (n : ℕ) (g : Vec F S1000x128 .f32) : Prop :=
  ∀ x : S1000x128.Idx, (x 0).val < n % 1000 → g x = means18 tb A0 (n / 1000) x

/-- At the first row of a block nothing is asked. -/
theorem rowsOK18_start (tb : Vec F S16x2000 .i32) (A0 : Vec F S100000x128 .f32) (n : ℕ) (hn : n % 1000 = 0) (g : Vec F S1000x128 .f32) :
    RowsOK18 tb A0 n g := fun x hx => absurd hx (by omega)

/-- One point's row store keeps the invariant's rows and adds its own: after the store at point `t` the rows up to
    `t % 1000` are means. -/
theorem rowAt18_means (tb : Vec F S16x2000 .i32) (A0 : Vec F S100000x128 .f32) (t : Fin grid18.N) (g : Vec F S1000x128 .f32)
    (hg : RowsOK18 tb A0 t.val g) (x : S1000x128.Idx) (hx : (x 0).val ≤ t.val % 1000) :
    row24 (grid18.coords t) tb A0 g x = means18 tb A0 (t.val / 1000) x := by
  by_cases h : (x 0).val = t.val % 1000
  · rw [row24_of_eq (grid18.coords t) tb A0 g x (by rw [rowAt18_coord]; exact h) (lane18 (x 1)) rfl]
    unfold means18
    rw [h, pt18_self]
  · rw [row24_of_ne (grid18.coords t) tb A0 g x (by rw [rowAt18_coord]; exact h)]
    exact hg x (by omega)

/-- Within a block the invariant steps. -/
theorem rowsOK18_step (tb : Vec F S16x2000 .i32) (A0 : Vec F S100000x128 .f32) (t : Fin grid18.N) (g : Vec F S1000x128 .f32)
    (hg : RowsOK18 tb A0 t.val g) : RowsOK18 tb A0 (t.val + 1) (row24 (grid18.coords t) tb A0 g) := by
  by_cases hl : t.val % 1000 = 999
  · exact rowsOK18_start _ _ _ (by omega) _
  · intro x hx
    have h1 : (t.val + 1) / 1000 = t.val / 1000 := by omega
    rw [h1]
    exact rowAt18_means tb A0 t g hg x (by omega)

/-- At the last row of a block the scratch, after the row store, is the block's means whatever it held before. -/
theorem rowAt18_last (tb : Vec F S16x2000 .i32) (A0 : Vec F S100000x128 .f32) (t : Fin grid18.N) (hl : t.val % 1000 = 999)
    (g : Vec F S1000x128 .f32) (hg : RowsOK18 tb A0 t.val g) :
    row24 (grid18.coords t) tb A0 g = means18 tb A0 (t.val / 1000) :=
  funext fun x => rowAt18_means tb A0 t g hg x (by have : (x 0).val < 1000 := (x 0).isLt; omega)

/-! ## The invariant -/

/-- The launch's operands that no window stages, as the body is handed them: its table, the feature array left in
    HBM, and its two scratch buffers — whole buffers. -/
abbrev tbM18 : Memref sig .tc .smem S16x2000 .i32 := Memref.whole main_v37
abbrev hbM18 : Memref sig .tc .hbm S100000x128 .f32 := Memref.whole main_arg0
abbrev scM18_0 : Memref sig .tc .vmem S1000x128 .f32 := Memref.whole cc18_scratch0
abbrev scM18_1 : Memref sig .tc .vmem S16x128 .f32 := Memref.whole cc18_scratch1

section Region
-- the TensorCore's buffer contents when the launch is entered, and the launch's table
variable (V : (c : Dev nD) → (b : Ref sig .tc) → Buf (Elt F) ((c : Thread nD τ).loc b)) (a : (pcfg18 (F := F)).Adm)

/-- The table and the feature array, as vectors. -/
abbrev tb18 : Vec F S16x2000 .i32 := a.1 0
abbrev A18 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ18 (c : Dev nD) (n : ℕ) : sProp 𝕄 :=
  iprop(owns (c : Thread nD τ) tbM18 fullShare (tb18 a)
    ∗ owns (c : Thread nD τ) hbM18 fullShare (A18 V c)
    ∗ (∃ g : Vec F S1000x128 .f32, ⌜RowsOK18 (tb18 a) (A18 V c) n g⌝ ∗ owns (c : Thread nD τ) scM18_0 fullShare g)
    ∗ (∃ d, owns (c : Thread nD τ) scM18_1 fullShare d)
    ∗ cells24 c cc18_scratch2
    ∗ (∃ r, prngReg c r)
    ∗ Pipeline.scopedRestBut (Ix := Unit) (Name := ℕ) (U := UC) (Lvl := ℕ) (Val := Elt F) spec18 c [cc18_scratch0, cc18_scratch1])

/-! ## The windows' blocks and the proof data -/

/-- Window `w`'s block at point `t`, read off its array as the launch finds it. -/
def iblk18 (c : Dev nD) (w : Fin (cfg18 a).W) (t : Fin (cfg18 a).N) :
    (((cfg18 a).win w).xblock ((cfg18 a).grid.coords t)).Idx → Elt F ((cfg18 a).win w).elt :=
  (((cfg18 a).win w).blk t).view.read (Elt F) (V c (Pipeline.arrRef spec18 w))

/-- The proof data of the launch on core `c`: the arrays as the launch finds them; after the body at point `t` the
    weight window at its block and the output window at the product for `t`'s block of rows (read only at the block's
    last row, where the body stores it); the invariant above; nothing owed; full shares. -/
def dat18 (c : Dev nD) : Dat τ (Elt F) Unit ℕ UC ℕ (cfg18 a) c where
  A w := V c (Pipeline.arrRef spec18 w)
  after w t := match w with
    | ⟨0, _⟩ => iblk18 V a c 0 t
    | ⟨1, _⟩ => xBlk18 (tb18 a) (A18 V c) (iblk18 V a c 0 t) (t.val / 1000)
  Φ n := Φ18 V a c n.val
  q _ := fullShare
  owed _ := 0

/-- The proof data's arrays are the entry contents. -/
theorem A_eq18 (c : Dev nD) (w : Fin (cfg18 a).W) : (dat18 V a c).A w = V c (Pipeline.arrRef spec18 w) := by
  dsimp only [dat18]

/-- What the body leaves, window by window. -/
theorem after18_0 (c : Dev nD) (t : Fin (cfg18 a).N) : (dat18 V a c).after 0 t = iblk18 V a c 0 t := by dsimp only [dat18]; rfl
theorem after18_1 (c : Dev nD) (t : Fin (cfg18 a).N) :
    (dat18 V a c).after 1 t = xBlk18 (tb18 a) (A18 V c) (iblk18 V a c 0 t) (t.val / 1000) := by dsimp only [dat18]; rfl

/-- The invariant and the tallies, at a point. -/
theorem Phi18_eq (c : Dev nD) (n : Fin ((cfg18 a).N + 1)) : (dat18 V a c).Φ n = Φ18 V a c n.val := by dsimp only [dat18]
theorem owed18_eq (c : Dev nD) (n : Fin ((cfg18 a).N + 1)) : (dat18 V a c).owed n = 0 := by dsimp only [dat18]

/-- The weight window holds its block at every point, fetched there or not: its block index never moves. -/
theorem before18_0 (c : Dev nD) (t : Fin (cfg18 a).N) (d) : (dat18 V a c).before 0 t d = iblk18 V a c 0 t :=
  ((dat18 V a c).before_in_eq_fetched 0 rfl (fun _ => rfl) (fun _ _ _ => rfl)
      (fun t => by rw [after18_0]; unfold Dat.blockOf iblk18; rw [A_eq18]; try rfl) t d).trans
    (by unfold Dat.fetched Dat.blockOf iblk18; rw [A_eq18]; try rfl)

/-- The output window is written back after the last row of each block of rows, and only there; -/
theorem flush18_1 (t : Fin (cfg18 a).N) : ((cfg18 a).win 1).flush t = decide (t.val % 1000 = 999) := by
  unfold Window.flush
  exact flushB18 t
/-- and it is idle at every other row. -/
theorem idle18_1 (t : Fin (cfg18 a).N) : (cfg18 a).idle 1 ((cfg18 a).grid.coords t) = !decide (t.val % 1000 = 999) := by
  show (!(k18_cond1 (grid18.coords t) == 1#1)) = _
  congr 1
  by_cases h : t.val % 1000 = 999
  · rw [decide_eq_true h, (cond18_iff t).2 h]; rfl
  · rw [decide_eq_false h]
    exact beq_false_of_ne fun e => h ((cond18_iff t).1 e)

end Region

/-! ## The body obligation -/

section Body
variable (V : (c : Dev nD) → (b : Ref sig .tc) → Buf (Elt F) ((c : Thread nD τ).loc b)) (a : (pcfg18 (F := F)).Adm)

/-- Each window's current staging memref at point `t`, spelled as the pipeline passes it, and its wholeness. -/
abbrev ms18_0 (t : Fin (cfg18 a).N) : Memref sig .tc .vmem S128x128 .f32 := spec18_0.stage ((cfg18 a).slots t 0)
abbrev hs18_0 (t : Fin (cfg18 a).N) : (ms18_0 a t).IsWhole := hstage18_0 (((cfg18 a).slots t 0).cast nbuf18_0)
abbrev ms18_1 (t : Fin (cfg18 a).N) : Memref sig .tc .vmem S1000x128 .f32 := spec18_1.stage ((cfg18 a).slots t 1)
abbrev hs18_1 (t : Fin (cfg18 a).N) : (ms18_1 a t).IsWhole := hstage18_1 (((cfg18 a).slots t 1).cast nbuf18_1)

/-- The launch's body function, under the name the runs are stated at. -/
theorem bodyFn18_eq : cc18__gather_agg_matmul_kernel (F := F) = gatherFn := rfl

/-- The kernel body at point `t`, on what the pipeline calls it with. -/
abbrev bodyAt18 (t : Fin (cfg18 a).N) : Prog (TpuEff nD τ sig (Elt F) Λ₀ .tc) PUnit :=
  cc18__gather_agg_matmul_kernel (grid18.coords t) tbM18 (Memref.isWhole_whole _) hbM18 (Memref.isWhole_whole _)
    (ms18_0 a t) (hs18_0 a t) (ms18_1 a t) (hs18_1 a t) scM18_0 (Memref.isWhole_whole _) scM18_1 (Memref.isWhole_whole _) cc18_scratch2

/-- What the body is called with at point `t`, the windows one by one, -/
def bodyPre18 (c : Dev nD) (t : Fin (cfg18 a).N) : sProp 𝕄 :=
  iprop((dat18 V a c).Φ t.castSucc ∗ (dat18 V a c).owesAt () t.castSucc
    ∗ (∃ d, owns (c : Thread nD τ) (ms18_0 a t) fullShare ((dat18 V a c).before 0 t d))
    ∗ (∃ d, owns (c : Thread nD τ) (ms18_1 a t) fullShare ((dat18 V a c).before 1 t d)))

/-- and what it returns: the output window as it was found where the point is idle for it, at the block's product
    at the last row of a block. -/
def bodyPost18 (c : Dev nD) (t : Fin (cfg18 a).N) : sProp 𝕄 :=
  iprop((dat18 V a c).Φ t.succ ∗ (dat18 V a c).owesAt () t.succ
    ∗ owns (c : Thread nD τ) (ms18_0 a t) fullShare ((dat18 V a c).after 0 t)
    ∗ (match (cfg18 a).idle 1 ((cfg18 a).grid.coords t) with
        | true =>
          match ((cfg18 a).win 1).flush t with
          | false => iprop(∃ d, owns (c : Thread nD τ) (ms18_1 a t) fullShare ((dat18 V a c).before 1 t d))
          | true => owns (c : Thread nD τ) (ms18_1 a t) fullShare ((dat18 V a c).after 1 t)
        | false => owns (c : Thread nD τ) (ms18_1 a t) fullShare ((dat18 V a c).after 1 t)))

/-- The body at any point. The weight window holds its block; the invariant hands the body its table, the feature
    array, both scratch buffers and its transfer cells, and takes them back with the carried scratch one row further
    (`rowsOK18_step`); at the last row of a block the product the body stores is the block's (`rowAt18_last`); the core's
    `owes` goes in at whatever the points before recorded and comes back with this point's waits. -/
theorem sound_body18 (hR : InRange18 a.1) (c : Dev nD) (t : Fin (cfg18 a).N) :
    bodyPre18 V a c t ⊢ wp frame (wpE (defs₀ (F := F)) Variants.none c none) Set.univ (bodyAt18 a t) (fun _ => bodyPost18 V a c t) := by
  unfold bodyPre18 bodyPost18 bodyAt18
  rw [flush18_1, idle18_1]
  simp only [before18_0]
  rw [after18_0, Phi18_eq, Phi18_eq, Fin.val_succ, Fin.coe_castSucc]
  unfold Dat.owesAt Pipeline.owesWithin
  rw [owed18_eq, owed18_eq]
  unfold Φ18
  rw [bodyFn18_eq]
  by_cases hl : t.val % 1000 = 999
  · -- the last row of a block
    rw [decide_eq_true hl, Bool.not_true]
    dsimp only
    rw [after18_1]
    unfold xBlk18
    iintro ⟨⟨Htb, Hhb, ⟨%g, %hg, Hs0⟩, Hs1, Hcells, Hreg, Hrest⟩, ⟨%W, -, HW⟩, ⟨%d0, H0⟩, ⟨%d1, H1⟩⟩
    rw [← rowAt18_last (tb18 a) (A18 V c) t hl g hg]
    iapply (run24_last c (grid18.coords t) tbM18 (Memref.isWhole_whole _) hbM18 (Memref.isWhole_whole _) (ms18_0 a t) (hs18_0 a t)
      (ms18_1 a t) (hs18_1 a t) scM18_0 (Memref.isWhole_whole _) scM18_1 (Memref.isWhole_whole _) cc18_scratch2
      ((cond18_iff t).2 hl) (tb18 a) hR (A18 V c) (iblk18 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK18_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k18_cond1 (grid18.coords t) ≠ 1#1 := fun e => hl ((cond18_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid18.coords t) tbM18 (Memref.isWhole_whole _) hbM18 (Memref.isWhole_whole _) (ms18_0 a t) (hs18_0 a t)
      (ms18_1 a t) (hs18_1 a t) scM18_0 (Memref.isWhole_whole _) scM18_1 (Memref.isWhole_whole _) cc18_scratch2
      hc (tb18 a) hR (A18 V c) (iblk18 V a c 0 t) g
      (owns (c : Thread nD τ) (ms18_1 a t) fullShare ((dat18 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK18_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation18 (hR : InRange18 a.1) (c : Dev nD) :
    BodyObligation (dat18 (F := F) V a c) (defs₀ (F := F)) Variants.none () Set.univ := fun t => by
  rw [bigSep_W18, bigSep_W18]
  exact sound_body18 V a hR c t

end Body

/-! ## The value: what the launch leaves in its output array -/

section Value
variable (V : (c : Dev nD) → (b : Ref sig .tc) → Buf (Elt F) ((c : Thread nD τ).loc b)) (a : (pcfg18 (F := F)).Adm)

/-- Entry `(r, l)` of a block of rows. -/
def cell18 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk18 (tb : Vec F S16x2000 .i32) (A0 : Vec F S100000x128 .f32) (Wt : Vec F S128x128 .f32) : Vec F S2000x128 .f32 :=
  fun y => xBlk18 tb A0 Wt ((y 0).val / 1000) (cell18 ((y 0).val % 1000) (Nat.mod_lt _ (by decide)) (y 1))

/-- The weight window's block is the whole weight, at every point: its block index is (0, 0). -/
theorem wblk18_eq (c : Dev nD) (t : Fin (cfg18 a).N) : iblk18 V a c 0 t = (V c main_arg1 : Vec F S128x128 .f32) := by
  funext x
  unfold iblk18
  rw [View.read_apply]
  refine (cast_eq _ _).trans (congrArg (V c main_arg1) (funext fun b => Fin.ext ?_))
  refine (((cfg18 a).win 0).rect_emb_val_of_index_zero t b ?_ x)
  match b with
  | ⟨0, _⟩ => rfl
  | ⟨1, _⟩ => rfl

/-- Where entry `x` of the output window's block at point `t` sits in the output array. -/
abbrev emb18 (t : Fin (cfg18 a).N) (x : S1000x128.Idx) : S2000x128.Idx := (((cfg18 a).win 1).blk t).view.emb x

theorem emb18_val (t : Fin (cfg18 a).N) (x : S1000x128.Idx) :
    (emb18 a t x 0).val = t.val / 1000 * 1000 + (x 0).val ∧ (emb18 a t x 1).val = (x 1).val := by
  have hix : ((cfg18 a).win 1).index t = ![t.val / 1000, 0] := idx18_1 t
  have e0 := ((cfg18 a).win 1).rect_emb_val t x (0 : Fin 2)
  have e1 := ((cfg18 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after18_chunk (c : Dev nD) (t : Fin (cfg18 a).N) (x : S1000x128.Idx) :
    (dat18 V a c).after 1 t x = xChunk18 (tb18 a) (A18 V c) (V c main_arg1) (emb18 a t x) := by
  obtain ⟨e0, e1⟩ := emb18_val a t x
  have hx0 : (x 0).val < 1000 := (x 0).isLt
  rw [after18_1, wblk18_eq]
  unfold xChunk18
  have hq : (emb18 a t x 0).val / 1000 = t.val / 1000 := by rw [e0]; omega
  have hcell : cell18 ((emb18 a t x 0).val % 1000) (Nat.mod_lt _ (by decide)) (emb18 a t x 1) = x := by
    funext b
    apply Fin.ext
    match b with
    | ⟨0, _⟩ =>
      show (emb18 a t x 0).val % 1000 = (x 0).val
      rw [e0]; omega
    | ⟨1, _⟩ => exact e1
  rw [hq, hcell]

/-- Two entries of the output array with the same coordinates are the same. -/
theorem idx18_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb18_cell (t : Fin (cfg18 a).N) (i : S2000x128.Idx) (ht : t.val / 1000 = (i 0).val / 1000) :
    emb18 a t (cell18 ((i 0).val % 1000) (Nat.mod_lt _ (by decide)) (i 1)) = i := by
  obtain ⟨e0, e1⟩ := emb18_val a t (cell18 ((i 0).val % 1000) (Nat.mod_lt _ (by decide)) (i 1))
  refine idx18_ext _ _ ?_ e1
  rw [e0, ht]
  show (i 0).val / 1000 * 1000 + (i 0).val % 1000 = (i 0).val
  omega

/-- Every entry of the output array lies in the block written back after the last row of its block of rows. -/
theorem cover18 (i : S2000x128.Idx) :
    ∃ t : Fin (cfg18 a).N, ((cfg18 a).win 1).flush t = true ∧ i ∈ (((cfg18 a).win 1).blk t).view.set := by
  have hi0 : (i 0).val < 2000 := (i 0).isLt
  have hN : (i 0).val / 1000 * 1000 + 999 < (cfg18 a).N := by rw [N18]; omega
  refine ⟨⟨(i 0).val / 1000 * 1000 + 999, hN⟩, ?_, ?_⟩
  · rw [flush18_1]; exact decide_eq_true (by show ((i 0).val / 1000 * 1000 + 999) % 1000 = 999; omega)
  · refine Finset.mem_map.mpr ⟨cell18 ((i 0).val % 1000) (Nat.mod_lt _ (by decide)) (i 1), Finset.mem_univ _, ?_⟩
    exact emb18_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out18 (c : Dev nD) :
    (dat18 V a c).arrAt 1 (cfg18 a).N = (xChunk18 (tb18 a) (A18 V c) (V c main_arg1) : Vec F S2000x128 .f32) :=
  (dat18 V a c).arrAt_eq_of_cover 1 _
    (fun t _ => funext fun x => (after18_chunk V a c t x).trans (cast_eq _ _).symm)
    (cover18 a)

end Value

/-! ## The invariant's two ends -/

section Ends
variable (V : (c : Dev nD) → (b : Ref sig .tc) → Buf (Elt F) ((c : Thread nD τ).loc b)) (a : (pcfg18 (F := F)).Adm)

/-- The body's own transfer cells as the launch's protocol lists them: the 16 cells of its semaphore operand. -/
def osem18 : Fin 16 → SemLoc sig := fun k => SemLoc.dma (cc18_scratch2.ix (Shape.ofLane k))
/-- They are scoped, distinct, and none is a window's. -/
theorem ownSemFacts18 : Pipeline.OwnSemFacts spec18 osem18 := by decide
/-- The cells at zero, listed, are the cells as the body names them. -/
theorem cells18_eq (c : Dev nD) :
    (Pipeline.ownSems0 (Ix := Unit) (Name := ℕ) (U := UC) (Lvl := ℕ) (Val := Elt F) (τ := τ) osem18 c : sProp 𝕄) = cells24 c cc18_scratch2 := by
  rw [Pipeline.ownSems0_eq_of_list c osem18 [0, 1, 2, 3, 4, 5, 6, 7, 8, 9, 10, 11, 12, 13, 14, 15] (by decide) (by decide)]; rfl

/-- The launch's one table, held. -/
theorem prefHeld18_eq (c : Dev nD) (pf : pre18.Contents (Elt F)) :
    (Pipeline.prefHeld pre18 c (fun _ => fullShare) pf : sProp 𝕄) = (((c : Thread nD τ).loc main_v37) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X18 (c : Dev nD) : sProp 𝕄 :=
  iprop((∃ r, prngReg c r) ∗ Pipeline.ownSems0 (Ix := Unit) (Name := ℕ) (U := UC) (Lvl := ℕ) (Val := Elt F) (τ := τ) osem18 c
    ∗ (((c : Thread nD τ).loc main_arg0) ↦{fullShare} V c main_arg0))
abbrev Y18 (c : Dev nD) : sProp 𝕄 :=
  iprop((∃ r, prngReg c r) ∗ (((c : Thread nD τ).loc main_arg0) ↦{fullShare} V c main_arg0)
    ∗ Pipeline.prefHeld pre18 c (fun _ => fullShare) a.1)

/-- THE FIRST POINT: the invariant from what the launch's entry sorts out. Nothing is asked of the carried scratch. -/
theorem Phi18_in (c : Dev nD) :
    iprop(X18 V c ∗ Pipeline.prefHeld pre18 c (fun _ => fullShare) a.1
        ∗ Pipeline.scopedRest (Ix := Unit) (Name := ℕ) (U := UC) (Lvl := ℕ) (Val := Elt F) spec18 c)
      ⊢ (dat18 V a c).Φ 0 := by
  rw [Phi18_eq]
  unfold Φ18 X18
  rw [scopedRest18_split, prefHeld18_eq, cells18_eq]
  simp only [tbM18, hbM18, scM18_0, scM18_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK18_start _ _ _ rfl _
  isplitl [Hs1]; · iexact Hs1
  isplitl [Hcells]; · iexact Hcells
  isplitl [Hreg]; · iexact Hreg
  iexact Hrest

/-- THE LAST POINT: the invariant gives back what it took. -/
theorem Phi18_out (c : Dev nD) :
    (dat18 V a c).Φ (Fin.last _)
      ⊢ iprop(Y18 V a c ∗ Pipeline.ownSems0 (Ix := Unit) (Name := ℕ) (U := UC) (Lvl := ℕ) (Val := Elt F) (τ := τ) osem18 c
        ∗ Pipeline.scopedRest (Ix := Unit) (Name := ℕ) (U := UC) (Lvl := ℕ) (Val := Elt F) spec18 c) := by
  rw [Phi18_eq]
  unfold Φ18 Y18
  rw [scopedRest18_split, prefHeld18_eq, cells18_eq]
  simp only [tbM18, hbM18, scM18_0, scM18_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G19Dat.lean ====
/-
  One of the program's 25 gather launches (pipeline 19; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N19 (a : (pcfg19 (F := F)).Adm) : (cfg19 a).N = 2000 := N_19

/-- The body's branch is taken at the last row of a block of rows, -/
theorem cond19_iff : ∀ t : Fin grid19.N, k19_cond1 (grid19.coords t) = 1#1 ↔ t.val % 1000 = 999 := by decide +kernel
/-- the row a point works on is its number modulo 1000, -/
theorem rowAt19_coord : ∀ t : Fin grid19.N, (grid19.coords t 1).val = t.val % 1000 := by decide +kernel
/-- its block of rows is its number divided by 1000, -/
theorem blockAt19_coord : ∀ t : Fin grid19.N, (grid19.coords t 0).val = t.val / 1000 := by decide +kernel
/-- and the output's block index moves after exactly those points (and the grid ends at one). -/
theorem flushB19 : ∀ t : Fin grid19.N,
    (decide (t.val + 1 = grid19.N) || decide (∃ h : t.val + 1 < grid19.N, cc19_transform_2 (grid19.coords ⟨t.val + 1, h⟩) ≠ cc19_transform_2 (grid19.coords t)))
      = decide (t.val % 1000 = 999) := by decide +kernel

/-- The output's block index at a point: the point's block of rows. -/
theorem idx19_1 : ∀ t : Fin grid19.N, cc19_transform_2 (grid19.coords t) = ![t.val / 1000, 0] := by decide +kernel

/-- Every word of the launch's table names a row of the feature array. -/
def InRange19 (pf : pre19.Contents (Elt F)) : Prop := ∀ x : S16x2000.Idx, ((pf 0 : Vec F S16x2000 .i32) x).toNat < 100000

/-! ## The values -/

/-- Lane `l` of a one-row vector. -/
def lane19 (l : Fin 128) : S1x128.Idx := fun a => ⟨if a.val = 0 then 0 else l.val, by
  match a with
  | ⟨0, _⟩ => exact Nat.one_pos
  | ⟨1, _⟩ => exact l.isLt⟩

theorem lane19_one (l : Fin 128) : (lane19 l 1).val = l.val := rfl

/-- The grid point of row `r` of block `q` (total: the point number is taken modulo the grid's size). -/
def pt19 (q : ℕ) (r : ℕ) : Fin grid19.N := ⟨(q * 1000 + r) % grid19.N, Nat.mod_lt _ (by decide)⟩

/-- Inside the grid the point's number is `1000 q + r`. -/
theorem pt19_val (q r : ℕ) (hq : q < 2) (hr : r < 1000) : (pt19 q r).val = q * 1000 + r := by
  show (q * 1000 + r) % grid19.N = q * 1000 + r
  rw [N_19]; omega

/-- A point is the point of its block and row. -/
theorem pt19_self (t : Fin grid19.N) : pt19 (t.val / 1000) (t.val % 1000) = t := by
  apply Fin.ext
  show (t.val / 1000 * 1000 + t.val % 1000) % grid19.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means19 (tb : Vec F S16x2000 .i32) (A0 : Vec F S100000x128 .f32) (q : ℕ) : Vec F S1000x128 .f32 :=
  fun x => Gen.k24_pay1 (gath24 (grid19.coords (pt19 q (x 0).val)) tb A0) (lane19 (x 1))

/-- What the body stores in the output window at the last row of block `q`: the means, rounded, times the weight, rounded. -/
def xBlk19 (tb : Vec F S16x2000 .i32) (A0 : Vec F S100000x128 .f32) (Wt : Vec F S128x128 .f32) (q : ℕ) : Vec F S1000x128 .f32 :=
  Gen.k24_pay2 (means19 tb A0 q) Wt

/-- The carried scratch before point `n`: its rows below `n % 1000` are the means of block `n / 1000`. -/
def RowsOK19 (tb : Vec F S16x2000 .i32) (A0 : Vec F S100000x128 .f32) (n : ℕ) (g : Vec F S1000x128 .f32) : Prop :=
  ∀ x : S1000x128.Idx, (x 0).val < n % 1000 → g x = means19 tb A0 (n / 1000) x

/-- At the first row of a block nothing is asked. -/
theorem rowsOK19_start (tb : Vec F S16x2000 .i32) (A0 : Vec F S100000x128 .f32) (n : ℕ) (hn : n % 1000 = 0) (g : Vec F S1000x128 .f32) :
    RowsOK19 tb A0 n g := fun x hx => absurd hx (by omega)

/-- One point's row store keeps the invariant's rows and adds its own: after the store at point `t` the rows up to
    `t % 1000` are means. -/
theorem rowAt19_means (tb : Vec F S16x2000 .i32) (A0 : Vec F S100000x128 .f32) (t : Fin grid19.N) (g : Vec F S1000x128 .f32)
    (hg : RowsOK19 tb A0 t.val g) (x : S1000x128.Idx) (hx : (x 0).val ≤ t.val % 1000) :
    row24 (grid19.coords t) tb A0 g x = means19 tb A0 (t.val / 1000) x := by
  by_cases h : (x 0).val = t.val % 1000
  · rw [row24_of_eq (grid19.coords t) tb A0 g x (by rw [rowAt19_coord]; exact h) (lane19 (x 1)) rfl]
    unfold means19
    rw [h, pt19_self]
  · rw [row24_of_ne (grid19.coords t) tb A0 g x (by rw [rowAt19_coord]; exact h)]
    exact hg x (by omega)

/-- Within a block the invariant steps. -/
theorem rowsOK19_step (tb : Vec F S16x2000 .i32) (A0 : Vec F S100000x128 .f32) (t : Fin grid19.N) (g : Vec F S1000x128 .f32)
    (hg : RowsOK19 tb A0 t.val g) : RowsOK19 tb A0 (t.val + 1) (row24 (grid19.coords t) tb A0 g) := by
  by_cases hl : t.val % 1000 = 999
  · exact rowsOK19_start _ _ _ (by omega) _
  · intro x hx
    have h1 : (t.val + 1) / 1000 = t.val / 1000 := by omega
    rw [h1]
    exact rowAt19_means tb A0 t g hg x (by omega)

/-- At the last row of a block the scratch, after the row store, is the block's means whatever it held before. -/
theorem rowAt19_last (tb : Vec F S16x2000 .i32) (A0 : Vec F S100000x128 .f32) (t : Fin grid19.N) (hl : t.val % 1000 = 999)
    (g : Vec F S1000x128 .f32) (hg : RowsOK19 tb A0 t.val g) :
    row24 (grid19.coords t) tb A0 g = means19 tb A0 (t.val / 1000) :=
  funext fun x => rowAt19_means tb A0 t g hg x (by have : (x 0).val < 1000 := (x 0).isLt; omega)

/-! ## The invariant -/

/-- The launch's operands that no window stages, as the body is handed them: its table, the feature array left in
    HBM, and its two scratch buffers — whole buffers. -/
abbrev tbM19 : Memref sig .tc .smem S16x2000 .i32 := Memref.whole main_v39
abbrev hbM19 : Memref sig .tc .hbm S100000x128 .f32 := Memref.whole main_arg0
abbrev scM19_0 : Memref sig .tc .vmem S1000x128 .f32 := Memref.whole cc19_scratch0
abbrev scM19_1 : Memref sig .tc .vmem S16x128 .f32 := Memref.whole cc19_scratch1

section Region
-- the TensorCore's buffer contents when the launch is entered, and the launch's table
variable (V : (c : Dev nD) → (b : Ref sig .tc) → Buf (Elt F) ((c : Thread nD τ).loc b)) (a : (pcfg19 (F := F)).Adm)

/-- The table and the feature array, as vectors. -/
abbrev tb19 : Vec F S16x2000 .i32 := a.1 0
abbrev A19 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ19 (c : Dev nD) (n : ℕ) : sProp 𝕄 :=
  iprop(owns (c : Thread nD τ) tbM19 fullShare (tb19 a)
    ∗ owns (c : Thread nD τ) hbM19 fullShare (A19 V c)
    ∗ (∃ g : Vec F S1000x128 .f32, ⌜RowsOK19 (tb19 a) (A19 V c) n g⌝ ∗ owns (c : Thread nD τ) scM19_0 fullShare g)
    ∗ (∃ d, owns (c : Thread nD τ) scM19_1 fullShare d)
    ∗ cells24 c cc19_scratch2
    ∗ (∃ r, prngReg c r)
    ∗ Pipeline.scopedRestBut (Ix := Unit) (Name := ℕ) (U := UC) (Lvl := ℕ) (Val := Elt F) spec19 c [cc19_scratch0, cc19_scratch1])

/-! ## The windows' blocks and the proof data -/

/-- Window `w`'s block at point `t`, read off its array as the launch finds it. -/
def iblk19 (c : Dev nD) (w : Fin (cfg19 a).W) (t : Fin (cfg19 a).N) :
    (((cfg19 a).win w).xblock ((cfg19 a).grid.coords t)).Idx → Elt F ((cfg19 a).win w).elt :=
  (((cfg19 a).win w).blk t).view.read (Elt F) (V c (Pipeline.arrRef spec19 w))

/-- The proof data of the launch on core `c`: the arrays as the launch finds them; after the body at point `t` the
    weight window at its block and the output window at the product for `t`'s block of rows (read only at the block's
    last row, where the body stores it); the invariant above; nothing owed; full shares. -/
def dat19 (c : Dev nD) : Dat τ (Elt F) Unit ℕ UC ℕ (cfg19 a) c where
  A w := V c (Pipeline.arrRef spec19 w)
  after w t := match w with
    | ⟨0, _⟩ => iblk19 V a c 0 t
    | ⟨1, _⟩ => xBlk19 (tb19 a) (A19 V c) (iblk19 V a c 0 t) (t.val / 1000)
  Φ n := Φ19 V a c n.val
  q _ := fullShare
  owed _ := 0

/-- The proof data's arrays are the entry contents. -/
theorem A_eq19 (c : Dev nD) (w : Fin (cfg19 a).W) : (dat19 V a c).A w = V c (Pipeline.arrRef spec19 w) := by
  dsimp only [dat19]

/-- What the body leaves, window by window. -/
theorem after19_0 (c : Dev nD) (t : Fin (cfg19 a).N) : (dat19 V a c).after 0 t = iblk19 V a c 0 t := by dsimp only [dat19]; rfl
theorem after19_1 (c : Dev nD) (t : Fin (cfg19 a).N) :
    (dat19 V a c).after 1 t = xBlk19 (tb19 a) (A19 V c) (iblk19 V a c 0 t) (t.val / 1000) := by dsimp only [dat19]; rfl

/-- The invariant and the tallies, at a point. -/
theorem Phi19_eq (c : Dev nD) (n : Fin ((cfg19 a).N + 1)) : (dat19 V a c).Φ n = Φ19 V a c n.val := by dsimp only [dat19]
theorem owed19_eq (c : Dev nD) (n : Fin ((cfg19 a).N + 1)) : (dat19 V a c).owed n = 0 := by dsimp only [dat19]

/-- The weight window holds its block at every point, fetched there or not: its block index never moves. -/
theorem before19_0 (c : Dev nD) (t : Fin (cfg19 a).N) (d) : (dat19 V a c).before 0 t d = iblk19 V a c 0 t :=
  ((dat19 V a c).before_in_eq_fetched 0 rfl (fun _ => rfl) (fun _ _ _ => rfl)
      (fun t => by rw [after19_0]; unfold Dat.blockOf iblk19; rw [A_eq19]; try rfl) t d).trans
    (by unfold Dat.fetched Dat.blockOf iblk19; rw [A_eq19]; try rfl)

/-- The output window is written back after the last row of each block of rows, and only there; -/
theorem flush19_1 (t : Fin (cfg19 a).N) : ((cfg19 a).win 1).flush t = decide (t.val % 1000 = 999) := by
  unfold Window.flush
  exact flushB19 t
/-- and it is idle at every other row. -/
theorem idle19_1 (t : Fin (cfg19 a).N) : (cfg19 a).idle 1 ((cfg19 a).grid.coords t) = !decide (t.val % 1000 = 999) := by
  show (!(k19_cond1 (grid19.coords t) == 1#1)) = _
  congr 1
  by_cases h : t.val % 1000 = 999
  · rw [decide_eq_true h, (cond19_iff t).2 h]; rfl
  · rw [decide_eq_false h]
    exact beq_false_of_ne fun e => h ((cond19_iff t).1 e)

end Region

/-! ## The body obligation -/

section Body
variable (V : (c : Dev nD) → (b : Ref sig .tc) → Buf (Elt F) ((c : Thread nD τ).loc b)) (a : (pcfg19 (F := F)).Adm)

/-- Each window's current staging memref at point `t`, spelled as the pipeline passes it, and its wholeness. -/
abbrev ms19_0 (t : Fin (cfg19 a).N) : Memref sig .tc .vmem S128x128 .f32 := spec19_0.stage ((cfg19 a).slots t 0)
abbrev hs19_0 (t : Fin (cfg19 a).N) : (ms19_0 a t).IsWhole := hstage19_0 (((cfg19 a).slots t 0).cast nbuf19_0)
abbrev ms19_1 (t : Fin (cfg19 a).N) : Memref sig .tc .vmem S1000x128 .f32 := spec19_1.stage ((cfg19 a).slots t 1)
abbrev hs19_1 (t : Fin (cfg19 a).N) : (ms19_1 a t).IsWhole := hstage19_1 (((cfg19 a).slots t 1).cast nbuf19_1)

/-- The launch's body function, under the name the runs are stated at. -/
theorem bodyFn19_eq : cc19__gather_agg_matmul_kernel (F := F) = gatherFn := rfl

/-- The kernel body at point `t`, on what the pipeline calls it with. -/
abbrev bodyAt19 (t : Fin (cfg19 a).N) : Prog (TpuEff nD τ sig (Elt F) Λ₀ .tc) PUnit :=
  cc19__gather_agg_matmul_kernel (grid19.coords t) tbM19 (Memref.isWhole_whole _) hbM19 (Memref.isWhole_whole _)
    (ms19_0 a t) (hs19_0 a t) (ms19_1 a t) (hs19_1 a t) scM19_0 (Memref.isWhole_whole _) scM19_1 (Memref.isWhole_whole _) cc19_scratch2

/-- What the body is called with at point `t`, the windows one by one, -/
def bodyPre19 (c : Dev nD) (t : Fin (cfg19 a).N) : sProp 𝕄 :=
  iprop((dat19 V a c).Φ t.castSucc ∗ (dat19 V a c).owesAt () t.castSucc
    ∗ (∃ d, owns (c : Thread nD τ) (ms19_0 a t) fullShare ((dat19 V a c).before 0 t d))
    ∗ (∃ d, owns (c : Thread nD τ) (ms19_1 a t) fullShare ((dat19 V a c).before 1 t d)))

/-- and what it returns: the output window as it was found where the point is idle for it, at the block's product
    at the last row of a block. -/
def bodyPost19 (c : Dev nD) (t : Fin (cfg19 a).N) : sProp 𝕄 :=
  iprop((dat19 V a c).Φ t.succ ∗ (dat19 V a c).owesAt () t.succ
    ∗ owns (c : Thread nD τ) (ms19_0 a t) fullShare ((dat19 V a c).after 0 t)
    ∗ (match (cfg19 a).idle 1 ((cfg19 a).grid.coords t) with
        | true =>
          match ((cfg19 a).win 1).flush t with
          | false => iprop(∃ d, owns (c : Thread nD τ) (ms19_1 a t) fullShare ((dat19 V a c).before 1 t d))
          | true => owns (c : Thread nD τ) (ms19_1 a t) fullShare ((dat19 V a c).after 1 t)
        | false => owns (c : Thread nD τ) (ms19_1 a t) fullShare ((dat19 V a c).after 1 t)))

/-- The body at any point. The weight window holds its block; the invariant hands the body its table, the feature
    array, both scratch buffers and its transfer cells, and takes them back with the carried scratch one row further
    (`rowsOK19_step`); at the last row of a block the product the body stores is the block's (`rowAt19_last`); the core's
    `owes` goes in at whatever the points before recorded and comes back with this point's waits. -/
theorem sound_body19 (hR : InRange19 a.1) (c : Dev nD) (t : Fin (cfg19 a).N) :
    bodyPre19 V a c t ⊢ wp frame (wpE (defs₀ (F := F)) Variants.none c none) Set.univ (bodyAt19 a t) (fun _ => bodyPost19 V a c t) := by
  unfold bodyPre19 bodyPost19 bodyAt19
  rw [flush19_1, idle19_1]
  simp only [before19_0]
  rw [after19_0, Phi19_eq, Phi19_eq, Fin.val_succ, Fin.coe_castSucc]
  unfold Dat.owesAt Pipeline.owesWithin
  rw [owed19_eq, owed19_eq]
  unfold Φ19
  rw [bodyFn19_eq]
  by_cases hl : t.val % 1000 = 999
  · -- the last row of a block
    rw [decide_eq_true hl, Bool.not_true]
    dsimp only
    rw [after19_1]
    unfold xBlk19
    iintro ⟨⟨Htb, Hhb, ⟨%g, %hg, Hs0⟩, Hs1, Hcells, Hreg, Hrest⟩, ⟨%W, -, HW⟩, ⟨%d0, H0⟩, ⟨%d1, H1⟩⟩
    rw [← rowAt19_last (tb19 a) (A19 V c) t hl g hg]
    iapply (run24_last c (grid19.coords t) tbM19 (Memref.isWhole_whole _) hbM19 (Memref.isWhole_whole _) (ms19_0 a t) (hs19_0 a t)
      (ms19_1 a t) (hs19_1 a t) scM19_0 (Memref.isWhole_whole _) scM19_1 (Memref.isWhole_whole _) cc19_scratch2
      ((cond19_iff t).2 hl) (tb19 a) hR (A19 V c) (iblk19 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK19_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k19_cond1 (grid19.coords t) ≠ 1#1 := fun e => hl ((cond19_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid19.coords t) tbM19 (Memref.isWhole_whole _) hbM19 (Memref.isWhole_whole _) (ms19_0 a t) (hs19_0 a t)
      (ms19_1 a t) (hs19_1 a t) scM19_0 (Memref.isWhole_whole _) scM19_1 (Memref.isWhole_whole _) cc19_scratch2
      hc (tb19 a) hR (A19 V c) (iblk19 V a c 0 t) g
      (owns (c : Thread nD τ) (ms19_1 a t) fullShare ((dat19 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK19_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation19 (hR : InRange19 a.1) (c : Dev nD) :
    BodyObligation (dat19 (F := F) V a c) (defs₀ (F := F)) Variants.none () Set.univ := fun t => by
  rw [bigSep_W19, bigSep_W19]
  exact sound_body19 V a hR c t

end Body

/-! ## The value: what the launch leaves in its output array -/

section Value
variable (V : (c : Dev nD) → (b : Ref sig .tc) → Buf (Elt F) ((c : Thread nD τ).loc b)) (a : (pcfg19 (F := F)).Adm)

/-- Entry `(r, l)` of a block of rows. -/
def cell19 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk19 (tb : Vec F S16x2000 .i32) (A0 : Vec F S100000x128 .f32) (Wt : Vec F S128x128 .f32) : Vec F S2000x128 .f32 :=
  fun y => xBlk19 tb A0 Wt ((y 0).val / 1000) (cell19 ((y 0).val % 1000) (Nat.mod_lt _ (by decide)) (y 1))

/-- The weight window's block is the whole weight, at every point: its block index is (0, 0). -/
theorem wblk19_eq (c : Dev nD) (t : Fin (cfg19 a).N) : iblk19 V a c 0 t = (V c main_arg1 : Vec F S128x128 .f32) := by
  funext x
  unfold iblk19
  rw [View.read_apply]
  refine (cast_eq _ _).trans (congrArg (V c main_arg1) (funext fun b => Fin.ext ?_))
  refine (((cfg19 a).win 0).rect_emb_val_of_index_zero t b ?_ x)
  match b with
  | ⟨0, _⟩ => rfl
  | ⟨1, _⟩ => rfl

/-- Where entry `x` of the output window's block at point `t` sits in the output array. -/
abbrev emb19 (t : Fin (cfg19 a).N) (x : S1000x128.Idx) : S2000x128.Idx := (((cfg19 a).win 1).blk t).view.emb x

theorem emb19_val (t : Fin (cfg19 a).N) (x : S1000x128.Idx) :
    (emb19 a t x 0).val = t.val / 1000 * 1000 + (x 0).val ∧ (emb19 a t x 1).val = (x 1).val := by
  have hix : ((cfg19 a).win 1).index t = ![t.val / 1000, 0] := idx19_1 t
  have e0 := ((cfg19 a).win 1).rect_emb_val t x (0 : Fin 2)
  have e1 := ((cfg19 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after19_chunk (c : Dev nD) (t : Fin (cfg19 a).N) (x : S1000x128.Idx) :
    (dat19 V a c).after 1 t x = xChunk19 (tb19 a) (A19 V c) (V c main_arg1) (emb19 a t x) := by
  obtain ⟨e0, e1⟩ := emb19_val a t x
  have hx0 : (x 0).val < 1000 := (x 0).isLt
  rw [after19_1, wblk19_eq]
  unfold xChunk19
  have hq : (emb19 a t x 0).val / 1000 = t.val / 1000 := by rw [e0]; omega
  have hcell : cell19 ((emb19 a t x 0).val % 1000) (Nat.mod_lt _ (by decide)) (emb19 a t x 1) = x := by
    funext b
    apply Fin.ext
    match b with
    | ⟨0, _⟩ =>
      show (emb19 a t x 0).val % 1000 = (x 0).val
      rw [e0]; omega
    | ⟨1, _⟩ => exact e1
  rw [hq, hcell]

/-- Two entries of the output array with the same coordinates are the same. -/
theorem idx19_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb19_cell (t : Fin (cfg19 a).N) (i : S2000x128.Idx) (ht : t.val / 1000 = (i 0).val / 1000) :
    emb19 a t (cell19 ((i 0).val % 1000) (Nat.mod_lt _ (by decide)) (i 1)) = i := by
  obtain ⟨e0, e1⟩ := emb19_val a t (cell19 ((i 0).val % 1000) (Nat.mod_lt _ (by decide)) (i 1))
  refine idx19_ext _ _ ?_ e1
  rw [e0, ht]
  show (i 0).val / 1000 * 1000 + (i 0).val % 1000 = (i 0).val
  omega

/-- Every entry of the output array lies in the block written back after the last row of its block of rows. -/
theorem cover19 (i : S2000x128.Idx) :
    ∃ t : Fin (cfg19 a).N, ((cfg19 a).win 1).flush t = true ∧ i ∈ (((cfg19 a).win 1).blk t).view.set := by
  have hi0 : (i 0).val < 2000 := (i 0).isLt
  have hN : (i 0).val / 1000 * 1000 + 999 < (cfg19 a).N := by rw [N19]; omega
  refine ⟨⟨(i 0).val / 1000 * 1000 + 999, hN⟩, ?_, ?_⟩
  · rw [flush19_1]; exact decide_eq_true (by show ((i 0).val / 1000 * 1000 + 999) % 1000 = 999; omega)
  · refine Finset.mem_map.mpr ⟨cell19 ((i 0).val % 1000) (Nat.mod_lt _ (by decide)) (i 1), Finset.mem_univ _, ?_⟩
    exact emb19_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out19 (c : Dev nD) :
    (dat19 V a c).arrAt 1 (cfg19 a).N = (xChunk19 (tb19 a) (A19 V c) (V c main_arg1) : Vec F S2000x128 .f32) :=
  (dat19 V a c).arrAt_eq_of_cover 1 _
    (fun t _ => funext fun x => (after19_chunk V a c t x).trans (cast_eq _ _).symm)
    (cover19 a)

end Value

/-! ## The invariant's two ends -/

section Ends
variable (V : (c : Dev nD) → (b : Ref sig .tc) → Buf (Elt F) ((c : Thread nD τ).loc b)) (a : (pcfg19 (F := F)).Adm)

/-- The body's own transfer cells as the launch's protocol lists them: the 16 cells of its semaphore operand. -/
def osem19 : Fin 16 → SemLoc sig := fun k => SemLoc.dma (cc19_scratch2.ix (Shape.ofLane k))
/-- They are scoped, distinct, and none is a window's. -/
theorem ownSemFacts19 : Pipeline.OwnSemFacts spec19 osem19 := by decide
/-- The cells at zero, listed, are the cells as the body names them. -/
theorem cells19_eq (c : Dev nD) :
    (Pipeline.ownSems0 (Ix := Unit) (Name := ℕ) (U := UC) (Lvl := ℕ) (Val := Elt F) (τ := τ) osem19 c : sProp 𝕄) = cells24 c cc19_scratch2 := by
  rw [Pipeline.ownSems0_eq_of_list c osem19 [0, 1, 2, 3, 4, 5, 6, 7, 8, 9, 10, 11, 12, 13, 14, 15] (by decide) (by decide)]; rfl

/-- The launch's one table, held. -/
theorem prefHeld19_eq (c : Dev nD) (pf : pre19.Contents (Elt F)) :
    (Pipeline.prefHeld pre19 c (fun _ => fullShare) pf : sProp 𝕄) = (((c : Thread nD τ).loc main_v39) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X19 (c : Dev nD) : sProp 𝕄 :=
  iprop((∃ r, prngReg c r) ∗ Pipeline.ownSems0 (Ix := Unit) (Name := ℕ) (U := UC) (Lvl := ℕ) (Val := Elt F) (τ := τ) osem19 c
    ∗ (((c : Thread nD τ).loc main_arg0) ↦{fullShare} V c main_arg0))
abbrev Y19 (c : Dev nD) : sProp 𝕄 :=
  iprop((∃ r, prngReg c r) ∗ (((c : Thread nD τ).loc main_arg0) ↦{fullShare} V c main_arg0)
    ∗ Pipeline.prefHeld pre19 c (fun _ => fullShare) a.1)

/-- THE FIRST POINT: the invariant from what the launch's entry sorts out. Nothing is asked of the carried scratch. -/
theorem Phi19_in (c : Dev nD) :
    iprop(X19 V c ∗ Pipeline.prefHeld pre19 c (fun _ => fullShare) a.1
        ∗ Pipeline.scopedRest (Ix := Unit) (Name := ℕ) (U := UC) (Lvl := ℕ) (Val := Elt F) spec19 c)
      ⊢ (dat19 V a c).Φ 0 := by
  rw [Phi19_eq]
  unfold Φ19 X19
  rw [scopedRest19_split, prefHeld19_eq, cells19_eq]
  simp only [tbM19, hbM19, scM19_0, scM19_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK19_start _ _ _ rfl _
  isplitl [Hs1]; · iexact Hs1
  isplitl [Hcells]; · iexact Hcells
  isplitl [Hreg]; · iexact Hreg
  iexact Hrest

/-- THE LAST POINT: the invariant gives back what it took. -/
theorem Phi19_out (c : Dev nD) :
    (dat19 V a c).Φ (Fin.last _)
      ⊢ iprop(Y19 V a c ∗ Pipeline.ownSems0 (Ix := Unit) (Name := ℕ) (U := UC) (Lvl := ℕ) (Val := Elt F) (τ := τ) osem19 c
        ∗ Pipeline.scopedRest (Ix := Unit) (Name := ℕ) (U := UC) (Lvl := ℕ) (Val := Elt F) spec19 c) := by
  rw [Phi19_eq]
  unfold Φ19 Y19
  rw [scopedRest19_split, prefHeld19_eq, cells19_eq]
  simp only [tbM19, hbM19, scM19_0, scM19_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G20Dat.lean ====
/-
  One of the program's 25 gather launches (pipeline 20; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N20 (a : (pcfg20 (F := F)).Adm) : (cfg20 a).N = 2000 := N_20

/-- The body's branch is taken at the last row of a block of rows, -/
theorem cond20_iff : ∀ t : Fin grid20.N, k20_cond1 (grid20.coords t) = 1#1 ↔ t.val % 1000 = 999 := by decide +kernel
/-- the row a point works on is its number modulo 1000, -/
theorem rowAt20_coord : ∀ t : Fin grid20.N, (grid20.coords t 1).val = t.val % 1000 := by decide +kernel
/-- its block of rows is its number divided by 1000, -/
theorem blockAt20_coord : ∀ t : Fin grid20.N, (grid20.coords t 0).val = t.val / 1000 := by decide +kernel
/-- and the output's block index moves after exactly those points (and the grid ends at one). -/
theorem flushB20 : ∀ t : Fin grid20.N,
    (decide (t.val + 1 = grid20.N) || decide (∃ h : t.val + 1 < grid20.N, cc20_transform_2 (grid20.coords ⟨t.val + 1, h⟩) ≠ cc20_transform_2 (grid20.coords t)))
      = decide (t.val % 1000 = 999) := by decide +kernel

/-- The output's block index at a point: the point's block of rows. -/
theorem idx20_1 : ∀ t : Fin grid20.N, cc20_transform_2 (grid20.coords t) = ![t.val / 1000, 0] := by decide +kernel

/-- Every word of the launch's table names a row of the feature array. -/
def InRange20 (pf : pre20.Contents (Elt F)) : Prop := ∀ x : S16x2000.Idx, ((pf 0 : Vec F S16x2000 .i32) x).toNat < 100000

/-! ## The values -/

/-- Lane `l` of a one-row vector. -/
def lane20 (l : Fin 128) : S1x128.Idx := fun a => ⟨if a.val = 0 then 0 else l.val, by
  match a with
  | ⟨0, _⟩ => exact Nat.one_pos
  | ⟨1, _⟩ => exact l.isLt⟩

theorem lane20_one (l : Fin 128) : (lane20 l 1).val = l.val := rfl

/-- The grid point of row `r` of block `q` (total: the point number is taken modulo the grid's size). -/
def pt20 (q : ℕ) (r : ℕ) : Fin grid20.N := ⟨(q * 1000 + r) % grid20.N, Nat.mod_lt _ (by decide)⟩

/-- Inside the grid the point's number is `1000 q + r`. -/
theorem pt20_val (q r : ℕ) (hq : q < 2) (hr : r < 1000) : (pt20 q r).val = q * 1000 + r := by
  show (q * 1000 + r) % grid20.N = q * 1000 + r
  rw [N_20]; omega

/-- A point is the point of its block and row. -/
theorem pt20_self (t : Fin grid20.N) : pt20 (t.val / 1000) (t.val % 1000) = t := by
  apply Fin.ext
  show (t.val / 1000 * 1000 + t.val % 1000) % grid20.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means20 (tb : Vec F S16x2000 .i32) (A0 : Vec F S100000x128 .f32) (q : ℕ) : Vec F S1000x128 .f32 :=
  fun x => Gen.k24_pay1 (gath24 (grid20.coords (pt20 q (x 0).val)) tb A0) (lane20 (x 1))

/-- What the body stores in the output window at the last row of block `q`: the means, rounded, times the weight, rounded. -/
def xBlk20 (tb : Vec F S16x2000 .i32) (A0 : Vec F S100000x128 .f32) (Wt : Vec F S128x128 .f32) (q : ℕ) : Vec F S1000x128 .f32 :=
  Gen.k24_pay2 (means20 tb A0 q) Wt

/-- The carried scratch before point `n`: its rows below `n % 1000` are the means of block `n / 1000`. -/
def RowsOK20 (tb : Vec F S16x2000 .i32) (A0 : Vec F S100000x128 .f32) (n : ℕ) (g : Vec F S1000x128 .f32) : Prop :=
  ∀ x : S1000x128.Idx, (x 0).val < n % 1000 → g x = means20 tb A0 (n / 1000) x

/-- At the first row of a block nothing is asked. -/
theorem rowsOK20_start (tb : Vec F S16x2000 .i32) (A0 : Vec F S100000x128 .f32) (n : ℕ) (hn : n % 1000 = 0) (g : Vec F S1000x128 .f32) :
    RowsOK20 tb A0 n g := fun x hx => absurd hx (by omega)

/-- One point's row store keeps the invariant's rows and adds its own: after the store at point `t` the rows up to
    `t % 1000` are means. -/
theorem rowAt20_means (tb : Vec F S16x2000 .i32) (A0 : Vec F S100000x128 .f32) (t : Fin grid20.N) (g : Vec F S1000x128 .f32)
    (hg : RowsOK20 tb A0 t.val g) (x : S1000x128.Idx) (hx : (x 0).val ≤ t.val % 1000) :
    row24 (grid20.coords t) tb A0 g x = means20 tb A0 (t.val / 1000) x := by
  by_cases h : (x 0).val = t.val % 1000
  · rw [row24_of_eq (grid20.coords t) tb A0 g x (by rw [rowAt20_coord]; exact h) (lane20 (x 1)) rfl]
    unfold means20
    rw [h, pt20_self]
  · rw [row24_of_ne (grid20.coords t) tb A0 g x (by rw [rowAt20_coord]; exact h)]
    exact hg x (by omega)

/-- Within a block the invariant steps. -/
theorem rowsOK20_step (tb : Vec F S16x2000 .i32) (A0 : Vec F S100000x128 .f32) (t : Fin grid20.N) (g : Vec F S1000x128 .f32)
    (hg : RowsOK20 tb A0 t.val g) : RowsOK20 tb A0 (t.val + 1) (row24 (grid20.coords t) tb A0 g) := by
  by_cases hl : t.val % 1000 = 999
  · exact rowsOK20_start _ _ _ (by omega) _
  · intro x hx
    have h1 : (t.val + 1) / 1000 = t.val / 1000 := by omega
    rw [h1]
    exact rowAt20_means tb A0 t g hg x (by omega)

/-- At the last row of a block the scratch, after the row store, is the block's means whatever it held before. -/
theorem rowAt20_last (tb : Vec F S16x2000 .i32) (A0 : Vec F S100000x128 .f32) (t : Fin grid20.N) (hl : t.val % 1000 = 999)
    (g : Vec F S1000x128 .f32) (hg : RowsOK20 tb A0 t.val g) :
    row24 (grid20.coords t) tb A0 g = means20 tb A0 (t.val / 1000) :=
  funext fun x => rowAt20_means tb A0 t g hg x (by have : (x 0).val < 1000 := (x 0).isLt; omega)

/-! ## The invariant -/

/-- The launch's operands that no window stages, as the body is handed them: its table, the feature array left in
    HBM, and its two scratch buffers — whole buffers. -/
abbrev tbM20 : Memref sig .tc .smem S16x2000 .i32 := Memref.whole main_v41
abbrev hbM20 : Memref sig .tc .hbm S100000x128 .f32 := Memref.whole main_arg0
abbrev scM20_0 : Memref sig .tc .vmem S1000x128 .f32 := Memref.whole cc20_scratch0
abbrev scM20_1 : Memref sig .tc .vmem S16x128 .f32 := Memref.whole cc20_scratch1

section Region
-- the TensorCore's buffer contents when the launch is entered, and the launch's table
variable (V : (c : Dev nD) → (b : Ref sig .tc) → Buf (Elt F) ((c : Thread nD τ).loc b)) (a : (pcfg20 (F := F)).Adm)

/-- The table and the feature array, as vectors. -/
abbrev tb20 : Vec F S16x2000 .i32 := a.1 0
abbrev A20 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ20 (c : Dev nD) (n : ℕ) : sProp 𝕄 :=
  iprop(owns (c : Thread nD τ) tbM20 fullShare (tb20 a)
    ∗ owns (c : Thread nD τ) hbM20 fullShare (A20 V c)
    ∗ (∃ g : Vec F S1000x128 .f32, ⌜RowsOK20 (tb20 a) (A20 V c) n g⌝ ∗ owns (c : Thread nD τ) scM20_0 fullShare g)
    ∗ (∃ d, owns (c : Thread nD τ) scM20_1 fullShare d)
    ∗ cells24 c cc20_scratch2
    ∗ (∃ r, prngReg c r)
    ∗ Pipeline.scopedRestBut (Ix := Unit) (Name := ℕ) (U := UC) (Lvl := ℕ) (Val := Elt F) spec20 c [cc20_scratch0, cc20_scratch1])

/-! ## The windows' blocks and the proof data -/

/-- Window `w`'s block at point `t`, read off its array as the launch finds it. -/
def iblk20 (c : Dev nD) (w : Fin (cfg20 a).W) (t : Fin (cfg20 a).N) :
    (((cfg20 a).win w).xblock ((cfg20 a).grid.coords t)).Idx → Elt F ((cfg20 a).win w).elt :=
  (((cfg20 a).win w).blk t).view.read (Elt F) (V c (Pipeline.arrRef spec20 w))

/-- The proof data of the launch on core `c`: the arrays as the launch finds them; after the body at point `t` the
    weight window at its block and the output window at the product for `t`'s block of rows (read only at the block's
    last row, where the body stores it); the invariant above; nothing owed; full shares. -/
def dat20 (c : Dev nD) : Dat τ (Elt F) Unit ℕ UC ℕ (cfg20 a) c where
  A w := V c (Pipeline.arrRef spec20 w)
  after w t := match w with
    | ⟨0, _⟩ => iblk20 V a c 0 t
    | ⟨1, _⟩ => xBlk20 (tb20 a) (A20 V c) (iblk20 V a c 0 t) (t.val / 1000)
  Φ n := Φ20 V a c n.val
  q _ := fullShare
  owed _ := 0

/-- The proof data's arrays are the entry contents. -/
theorem A_eq20 (c : Dev nD) (w : Fin (cfg20 a).W) : (dat20 V a c).A w = V c (Pipeline.arrRef spec20 w) := by
  dsimp only [dat20]

/-- What the body leaves, window by window. -/
theorem after20_0 (c : Dev nD) (t : Fin (cfg20 a).N) : (dat20 V a c).after 0 t = iblk20 V a c 0 t := by dsimp only [dat20]; rfl
theorem after20_1 (c : Dev nD) (t : Fin (cfg20 a).N) :
    (dat20 V a c).after 1 t = xBlk20 (tb20 a) (A20 V c) (iblk20 V a c 0 t) (t.val / 1000) := by dsimp only [dat20]; rfl

/-- The invariant and the tallies, at a point. -/
theorem Phi20_eq (c : Dev nD) (n : Fin ((cfg20 a).N + 1)) : (dat20 V a c).Φ n = Φ20 V a c n.val := by dsimp only [dat20]
theorem owed20_eq (c : Dev nD) (n : Fin ((cfg20 a).N + 1)) : (dat20 V a c).owed n = 0 := by dsimp only [dat20]

/-- The weight window holds its block at every point, fetched there or not: its block index never moves. -/
theorem before20_0 (c : Dev nD) (t : Fin (cfg20 a).N) (d) : (dat20 V a c).before 0 t d = iblk20 V a c 0 t :=
  ((dat20 V a c).before_in_eq_fetched 0 rfl (fun _ => rfl) (fun _ _ _ => rfl)
      (fun t => by rw [after20_0]; unfold Dat.blockOf iblk20; rw [A_eq20]; try rfl) t d).trans
    (by unfold Dat.fetched Dat.blockOf iblk20; rw [A_eq20]; try rfl)

/-- The output window is written back after the last row of each block of rows, and only there; -/
theorem flush20_1 (t : Fin (cfg20 a).N) : ((cfg20 a).win 1).flush t = decide (t.val % 1000 = 999) := by
  unfold Window.flush
  exact flushB20 t
/-- and it is idle at every other row. -/
theorem idle20_1 (t : Fin (cfg20 a).N) : (cfg20 a).idle 1 ((cfg20 a).grid.coords t) = !decide (t.val % 1000 = 999) := by
  show (!(k20_cond1 (grid20.coords t) == 1#1)) = _
  congr 1
  by_cases h : t.val % 1000 = 999
  · rw [decide_eq_true h, (cond20_iff t).2 h]; rfl
  · rw [decide_eq_false h]
    exact beq_false_of_ne fun e => h ((cond20_iff t).1 e)

end Region

/-! ## The body obligation -/

section Body
variable (V : (c : Dev nD) → (b : Ref sig .tc) → Buf (Elt F) ((c : Thread nD τ).loc b)) (a : (pcfg20 (F := F)).Adm)

/-- Each window's current staging memref at point `t`, spelled as the pipeline passes it, and its wholeness. -/
abbrev ms20_0 (t : Fin (cfg20 a).N) : Memref sig .tc .vmem S128x128 .f32 := spec20_0.stage ((cfg20 a).slots t 0)
abbrev hs20_0 (t : Fin (cfg20 a).N) : (ms20_0 a t).IsWhole := hstage20_0 (((cfg20 a).slots t 0).cast nbuf20_0)
abbrev ms20_1 (t : Fin (cfg20 a).N) : Memref sig .tc .vmem S1000x128 .f32 := spec20_1.stage ((cfg20 a).slots t 1)
abbrev hs20_1 (t : Fin (cfg20 a).N) : (ms20_1 a t).IsWhole := hstage20_1 (((cfg20 a).slots t 1).cast nbuf20_1)

/-- The launch's body function, under the name the runs are stated at. -/
theorem bodyFn20_eq : cc20__gather_agg_matmul_kernel (F := F) = gatherFn := rfl

/-- The kernel body at point `t`, on what the pipeline calls it with. -/
abbrev bodyAt20 (t : Fin (cfg20 a).N) : Prog (TpuEff nD τ sig (Elt F) Λ₀ .tc) PUnit :=
  cc20__gather_agg_matmul_kernel (grid20.coords t) tbM20 (Memref.isWhole_whole _) hbM20 (Memref.isWhole_whole _)
    (ms20_0 a t) (hs20_0 a t) (ms20_1 a t) (hs20_1 a t) scM20_0 (Memref.isWhole_whole _) scM20_1 (Memref.isWhole_whole _) cc20_scratch2

/-- What the body is called with at point `t`, the windows one by one, -/
def bodyPre20 (c : Dev nD) (t : Fin (cfg20 a).N) : sProp 𝕄 :=
  iprop((dat20 V a c).Φ t.castSucc ∗ (dat20 V a c).owesAt () t.castSucc
    ∗ (∃ d, owns (c : Thread nD τ) (ms20_0 a t) fullShare ((dat20 V a c).before 0 t d))
    ∗ (∃ d, owns (c : Thread nD τ) (ms20_1 a t) fullShare ((dat20 V a c).before 1 t d)))

/-- and what it returns: the output window as it was found where the point is idle for it, at the block's product
    at the last row of a block. -/
def bodyPost20 (c : Dev nD) (t : Fin (cfg20 a).N) : sProp 𝕄 :=
  iprop((dat20 V a c).Φ t.succ ∗ (dat20 V a c).owesAt () t.succ
    ∗ owns (c : Thread nD τ) (ms20_0 a t) fullShare ((dat20 V a c).after 0 t)
    ∗ (match (cfg20 a).idle 1 ((cfg20 a).grid.coords t) with
        | true =>
          match ((cfg20 a).win 1).flush t with
          | false => iprop(∃ d, owns (c : Thread nD τ) (ms20_1 a t) fullShare ((dat20 V a c).before 1 t d))
          | true => owns (c : Thread nD τ) (ms20_1 a t) fullShare ((dat20 V a c).after 1 t)
        | false => owns (c : Thread nD τ) (ms20_1 a t) fullShare ((dat20 V a c).after 1 t)))

/-- The body at any point. The weight window holds its block; the invariant hands the body its table, the feature
    array, both scratch buffers and its transfer cells, and takes them back with the carried scratch one row further
    (`rowsOK20_step`); at the last row of a block the product the body stores is the block's (`rowAt20_last`); the core's
    `owes` goes in at whatever the points before recorded and comes back with this point's waits. -/
theorem sound_body20 (hR : InRange20 a.1) (c : Dev nD) (t : Fin (cfg20 a).N) :
    bodyPre20 V a c t ⊢ wp frame (wpE (defs₀ (F := F)) Variants.none c none) Set.univ (bodyAt20 a t) (fun _ => bodyPost20 V a c t) := by
  unfold bodyPre20 bodyPost20 bodyAt20
  rw [flush20_1, idle20_1]
  simp only [before20_0]
  rw [after20_0, Phi20_eq, Phi20_eq, Fin.val_succ, Fin.coe_castSucc]
  unfold Dat.owesAt Pipeline.owesWithin
  rw [owed20_eq, owed20_eq]
  unfold Φ20
  rw [bodyFn20_eq]
  by_cases hl : t.val % 1000 = 999
  · -- the last row of a block
    rw [decide_eq_true hl, Bool.not_true]
    dsimp only
    rw [after20_1]
    unfold xBlk20
    iintro ⟨⟨Htb, Hhb, ⟨%g, %hg, Hs0⟩, Hs1, Hcells, Hreg, Hrest⟩, ⟨%W, -, HW⟩, ⟨%d0, H0⟩, ⟨%d1, H1⟩⟩
    rw [← rowAt20_last (tb20 a) (A20 V c) t hl g hg]
    iapply (run24_last c (grid20.coords t) tbM20 (Memref.isWhole_whole _) hbM20 (Memref.isWhole_whole _) (ms20_0 a t) (hs20_0 a t)
      (ms20_1 a t) (hs20_1 a t) scM20_0 (Memref.isWhole_whole _) scM20_1 (Memref.isWhole_whole _) cc20_scratch2
      ((cond20_iff t).2 hl) (tb20 a) hR (A20 V c) (iblk20 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK20_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k20_cond1 (grid20.coords t) ≠ 1#1 := fun e => hl ((cond20_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid20.coords t) tbM20 (Memref.isWhole_whole _) hbM20 (Memref.isWhole_whole _) (ms20_0 a t) (hs20_0 a t)
      (ms20_1 a t) (hs20_1 a t) scM20_0 (Memref.isWhole_whole _) scM20_1 (Memref.isWhole_whole _) cc20_scratch2
      hc (tb20 a) hR (A20 V c) (iblk20 V a c 0 t) g
      (owns (c : Thread nD τ) (ms20_1 a t) fullShare ((dat20 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK20_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation20 (hR : InRange20 a.1) (c : Dev nD) :
    BodyObligation (dat20 (F := F) V a c) (defs₀ (F := F)) Variants.none () Set.univ := fun t => by
  rw [bigSep_W20, bigSep_W20]
  exact sound_body20 V a hR c t

end Body

/-! ## The value: what the launch leaves in its output array -/

section Value
variable (V : (c : Dev nD) → (b : Ref sig .tc) → Buf (Elt F) ((c : Thread nD τ).loc b)) (a : (pcfg20 (F := F)).Adm)

/-- Entry `(r, l)` of a block of rows. -/
def cell20 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk20 (tb : Vec F S16x2000 .i32) (A0 : Vec F S100000x128 .f32) (Wt : Vec F S128x128 .f32) : Vec F S2000x128 .f32 :=
  fun y => xBlk20 tb A0 Wt ((y 0).val / 1000) (cell20 ((y 0).val % 1000) (Nat.mod_lt _ (by decide)) (y 1))

/-- The weight window's block is the whole weight, at every point: its block index is (0, 0). -/
theorem wblk20_eq (c : Dev nD) (t : Fin (cfg20 a).N) : iblk20 V a c 0 t = (V c main_arg1 : Vec F S128x128 .f32) := by
  funext x
  unfold iblk20
  rw [View.read_apply]
  refine (cast_eq _ _).trans (congrArg (V c main_arg1) (funext fun b => Fin.ext ?_))
  refine (((cfg20 a).win 0).rect_emb_val_of_index_zero t b ?_ x)
  match b with
  | ⟨0, _⟩ => rfl
  | ⟨1, _⟩ => rfl

/-- Where entry `x` of the output window's block at point `t` sits in the output array. -/
abbrev emb20 (t : Fin (cfg20 a).N) (x : S1000x128.Idx) : S2000x128.Idx := (((cfg20 a).win 1).blk t).view.emb x

theorem emb20_val (t : Fin (cfg20 a).N) (x : S1000x128.Idx) :
    (emb20 a t x 0).val = t.val / 1000 * 1000 + (x 0).val ∧ (emb20 a t x 1).val = (x 1).val := by
  have hix : ((cfg20 a).win 1).index t = ![t.val / 1000, 0] := idx20_1 t
  have e0 := ((cfg20 a).win 1).rect_emb_val t x (0 : Fin 2)
  have e1 := ((cfg20 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after20_chunk (c : Dev nD) (t : Fin (cfg20 a).N) (x : S1000x128.Idx) :
    (dat20 V a c).after 1 t x = xChunk20 (tb20 a) (A20 V c) (V c main_arg1) (emb20 a t x) := by
  obtain ⟨e0, e1⟩ := emb20_val a t x
  have hx0 : (x 0).val < 1000 := (x 0).isLt
  rw [after20_1, wblk20_eq]
  unfold xChunk20
  have hq : (emb20 a t x 0).val / 1000 = t.val / 1000 := by rw [e0]; omega
  have hcell : cell20 ((emb20 a t x 0).val % 1000) (Nat.mod_lt _ (by decide)) (emb20 a t x 1) = x := by
    funext b
    apply Fin.ext
    match b with
    | ⟨0, _⟩ =>
      show (emb20 a t x 0).val % 1000 = (x 0).val
      rw [e0]; omega
    | ⟨1, _⟩ => exact e1
  rw [hq, hcell]

/-- Two entries of the output array with the same coordinates are the same. -/
theorem idx20_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb20_cell (t : Fin (cfg20 a).N) (i : S2000x128.Idx) (ht : t.val / 1000 = (i 0).val / 1000) :
    emb20 a t (cell20 ((i 0).val % 1000) (Nat.mod_lt _ (by decide)) (i 1)) = i := by
  obtain ⟨e0, e1⟩ := emb20_val a t (cell20 ((i 0).val % 1000) (Nat.mod_lt _ (by decide)) (i 1))
  refine idx20_ext _ _ ?_ e1
  rw [e0, ht]
  show (i 0).val / 1000 * 1000 + (i 0).val % 1000 = (i 0).val
  omega

/-- Every entry of the output array lies in the block written back after the last row of its block of rows. -/
theorem cover20 (i : S2000x128.Idx) :
    ∃ t : Fin (cfg20 a).N, ((cfg20 a).win 1).flush t = true ∧ i ∈ (((cfg20 a).win 1).blk t).view.set := by
  have hi0 : (i 0).val < 2000 := (i 0).isLt
  have hN : (i 0).val / 1000 * 1000 + 999 < (cfg20 a).N := by rw [N20]; omega
  refine ⟨⟨(i 0).val / 1000 * 1000 + 999, hN⟩, ?_, ?_⟩
  · rw [flush20_1]; exact decide_eq_true (by show ((i 0).val / 1000 * 1000 + 999) % 1000 = 999; omega)
  · refine Finset.mem_map.mpr ⟨cell20 ((i 0).val % 1000) (Nat.mod_lt _ (by decide)) (i 1), Finset.mem_univ _, ?_⟩
    exact emb20_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out20 (c : Dev nD) :
    (dat20 V a c).arrAt 1 (cfg20 a).N = (xChunk20 (tb20 a) (A20 V c) (V c main_arg1) : Vec F S2000x128 .f32) :=
  (dat20 V a c).arrAt_eq_of_cover 1 _
    (fun t _ => funext fun x => (after20_chunk V a c t x).trans (cast_eq _ _).symm)
    (cover20 a)

end Value

/-! ## The invariant's two ends -/

section Ends
variable (V : (c : Dev nD) → (b : Ref sig .tc) → Buf (Elt F) ((c : Thread nD τ).loc b)) (a : (pcfg20 (F := F)).Adm)

/-- The body's own transfer cells as the launch's protocol lists them: the 16 cells of its semaphore operand. -/
def osem20 : Fin 16 → SemLoc sig := fun k => SemLoc.dma (cc20_scratch2.ix (Shape.ofLane k))
/-- They are scoped, distinct, and none is a window's. -/
theorem ownSemFacts20 : Pipeline.OwnSemFacts spec20 osem20 := by decide
/-- The cells at zero, listed, are the cells as the body names them. -/
theorem cells20_eq (c : Dev nD) :
    (Pipeline.ownSems0 (Ix := Unit) (Name := ℕ) (U := UC) (Lvl := ℕ) (Val := Elt F) (τ := τ) osem20 c : sProp 𝕄) = cells24 c cc20_scratch2 := by
  rw [Pipeline.ownSems0_eq_of_list c osem20 [0, 1, 2, 3, 4, 5, 6, 7, 8, 9, 10, 11, 12, 13, 14, 15] (by decide) (by decide)]; rfl

/-- The launch's one table, held. -/
theorem prefHeld20_eq (c : Dev nD) (pf : pre20.Contents (Elt F)) :
    (Pipeline.prefHeld pre20 c (fun _ => fullShare) pf : sProp 𝕄) = (((c : Thread nD τ).loc main_v41) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X20 (c : Dev nD) : sProp 𝕄 :=
  iprop((∃ r, prngReg c r) ∗ Pipeline.ownSems0 (Ix := Unit) (Name := ℕ) (U := UC) (Lvl := ℕ) (Val := Elt F) (τ := τ) osem20 c
    ∗ (((c : Thread nD τ).loc main_arg0) ↦{fullShare} V c main_arg0))
abbrev Y20 (c : Dev nD) : sProp 𝕄 :=
  iprop((∃ r, prngReg c r) ∗ (((c : Thread nD τ).loc main_arg0) ↦{fullShare} V c main_arg0)
    ∗ Pipeline.prefHeld pre20 c (fun _ => fullShare) a.1)

/-- THE FIRST POINT: the invariant from what the launch's entry sorts out. Nothing is asked of the carried scratch. -/
theorem Phi20_in (c : Dev nD) :
    iprop(X20 V c ∗ Pipeline.prefHeld pre20 c (fun _ => fullShare) a.1
        ∗ Pipeline.scopedRest (Ix := Unit) (Name := ℕ) (U := UC) (Lvl := ℕ) (Val := Elt F) spec20 c)
      ⊢ (dat20 V a c).Φ 0 := by
  rw [Phi20_eq]
  unfold Φ20 X20
  rw [scopedRest20_split, prefHeld20_eq, cells20_eq]
  simp only [tbM20, hbM20, scM20_0, scM20_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK20_start _ _ _ rfl _
  isplitl [Hs1]; · iexact Hs1
  isplitl [Hcells]; · iexact Hcells
  isplitl [Hreg]; · iexact Hreg
  iexact Hrest

/-- THE LAST POINT: the invariant gives back what it took. -/
theorem Phi20_out (c : Dev nD) :
    (dat20 V a c).Φ (Fin.last _)
      ⊢ iprop(Y20 V a c ∗ Pipeline.ownSems0 (Ix := Unit) (Name := ℕ) (U := UC) (Lvl := ℕ) (Val := Elt F) (τ := τ) osem20 c
        ∗ Pipeline.scopedRest (Ix := Unit) (Name := ℕ) (U := UC) (Lvl := ℕ) (Val := Elt F) spec20 c) := by
  rw [Phi20_eq]
  unfold Φ20 Y20
  rw [scopedRest20_split, prefHeld20_eq, cells20_eq]
  simp only [tbM20, hbM20, scM20_0, scM20_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G21Dat.lean ====
/-
  One of the program's 25 gather launches (pipeline 21; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N21 (a : (pcfg21 (F := F)).Adm) : (cfg21 a).N = 2000 := N_21

/-- The body's branch is taken at the last row of a block of rows, -/
theorem cond21_iff : ∀ t : Fin grid21.N, k21_cond1 (grid21.coords t) = 1#1 ↔ t.val % 1000 = 999 := by decide +kernel
/-- the row a point works on is its number modulo 1000, -/
theorem rowAt21_coord : ∀ t : Fin grid21.N, (grid21.coords t 1).val = t.val % 1000 := by decide +kernel
/-- its block of rows is its number divided by 1000, -/
theorem blockAt21_coord : ∀ t : Fin grid21.N, (grid21.coords t 0).val = t.val / 1000 := by decide +kernel
/-- and the output's block index moves after exactly those points (and the grid ends at one). -/
theorem flushB21 : ∀ t : Fin grid21.N,
    (decide (t.val + 1 = grid21.N) || decide (∃ h : t.val + 1 < grid21.N, cc21_transform_2 (grid21.coords ⟨t.val + 1, h⟩) ≠ cc21_transform_2 (grid21.coords t)))
      = decide (t.val % 1000 = 999) := by decide +kernel

/-- The output's block index at a point: the point's block of rows. -/
theorem idx21_1 : ∀ t : Fin grid21.N, cc21_transform_2 (grid21.coords t) = ![t.val / 1000, 0] := by decide +kernel

/-- Every word of the launch's table names a row of the feature array. -/
def InRange21 (pf : pre21.Contents (Elt F)) : Prop := ∀ x : S16x2000.Idx, ((pf 0 : Vec F S16x2000 .i32) x).toNat < 100000

/-! ## The values -/

/-- Lane `l` of a one-row vector. -/
def lane21 (l : Fin 128) : S1x128.Idx := fun a => ⟨if a.val = 0 then 0 else l.val, by
  match a with
  | ⟨0, _⟩ => exact Nat.one_pos
  | ⟨1, _⟩ => exact l.isLt⟩

theorem lane21_one (l : Fin 128) : (lane21 l 1).val = l.val := rfl

/-- The grid point of row `r` of block `q` (total: the point number is taken modulo the grid's size). -/
def pt21 (q : ℕ) (r : ℕ) : Fin grid21.N := ⟨(q * 1000 + r) % grid21.N, Nat.mod_lt _ (by decide)⟩

/-- Inside the grid the point's number is `1000 q + r`. -/
theorem pt21_val (q r : ℕ) (hq : q < 2) (hr : r < 1000) : (pt21 q r).val = q * 1000 + r := by
  show (q * 1000 + r) % grid21.N = q * 1000 + r
  rw [N_21]; omega

/-- A point is the point of its block and row. -/
theorem pt21_self (t : Fin grid21.N) : pt21 (t.val / 1000) (t.val % 1000) = t := by
  apply Fin.ext
  show (t.val / 1000 * 1000 + t.val % 1000) % grid21.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means21 (tb : Vec F S16x2000 .i32) (A0 : Vec F S100000x128 .f32) (q : ℕ) : Vec F S1000x128 .f32 :=
  fun x => Gen.k24_pay1 (gath24 (grid21.coords (pt21 q (x 0).val)) tb A0) (lane21 (x 1))

/-- What the body stores in the output window at the last row of block `q`: the means, rounded, times the weight, rounded. -/
def xBlk21 (tb : Vec F S16x2000 .i32) (A0 : Vec F S100000x128 .f32) (Wt : Vec F S128x128 .f32) (q : ℕ) : Vec F S1000x128 .f32 :=
  Gen.k24_pay2 (means21 tb A0 q) Wt

/-- The carried scratch before point `n`: its rows below `n % 1000` are the means of block `n / 1000`. -/
def RowsOK21 (tb : Vec F S16x2000 .i32) (A0 : Vec F S100000x128 .f32) (n : ℕ) (g : Vec F S1000x128 .f32) : Prop :=
  ∀ x : S1000x128.Idx, (x 0).val < n % 1000 → g x = means21 tb A0 (n / 1000) x

/-- At the first row of a block nothing is asked. -/
theorem rowsOK21_start (tb : Vec F S16x2000 .i32) (A0 : Vec F S100000x128 .f32) (n : ℕ) (hn : n % 1000 = 0) (g : Vec F S1000x128 .f32) :
    RowsOK21 tb A0 n g := fun x hx => absurd hx (by omega)

/-- One point's row store keeps the invariant's rows and adds its own: after the store at point `t` the rows up to
    `t % 1000` are means. -/
theorem rowAt21_means (tb : Vec F S16x2000 .i32) (A0 : Vec F S100000x128 .f32) (t : Fin grid21.N) (g : Vec F S1000x128 .f32)
    (hg : RowsOK21 tb A0 t.val g) (x : S1000x128.Idx) (hx : (x 0).val ≤ t.val % 1000) :
    row24 (grid21.coords t) tb A0 g x = means21 tb A0 (t.val / 1000) x := by
  by_cases h : (x 0).val = t.val % 1000
  · rw [row24_of_eq (grid21.coords t) tb A0 g x (by rw [rowAt21_coord]; exact h) (lane21 (x 1)) rfl]
    unfold means21
    rw [h, pt21_self]
  · rw [row24_of_ne (grid21.coords t) tb A0 g x (by rw [rowAt21_coord]; exact h)]
    exact hg x (by omega)

/-- Within a block the invariant steps. -/
theorem rowsOK21_step (tb : Vec F S16x2000 .i32) (A0 : Vec F S100000x128 .f32) (t : Fin grid21.N) (g : Vec F S1000x128 .f32)
    (hg : RowsOK21 tb A0 t.val g) : RowsOK21 tb A0 (t.val + 1) (row24 (grid21.coords t) tb A0 g) := by
  by_cases hl : t.val % 1000 = 999
  · exact rowsOK21_start _ _ _ (by omega) _
  · intro x hx
    have h1 : (t.val + 1) / 1000 = t.val / 1000 := by omega
    rw [h1]
    exact rowAt21_means tb A0 t g hg x (by omega)

/-- At the last row of a block the scratch, after the row store, is the block's means whatever it held before. -/
theorem rowAt21_last (tb : Vec F S16x2000 .i32) (A0 : Vec F S100000x128 .f32) (t : Fin grid21.N) (hl : t.val % 1000 = 999)
    (g : Vec F S1000x128 .f32) (hg : RowsOK21 tb A0 t.val g) :
    row24 (grid21.coords t) tb A0 g = means21 tb A0 (t.val / 1000) :=
  funext fun x => rowAt21_means tb A0 t g hg x (by have : (x 0).val < 1000 := (x 0).isLt; omega)

/-! ## The invariant -/

/-- The launch's operands that no window stages, as the body is handed them: its table, the feature array left in
    HBM, and its two scratch buffers — whole buffers. -/
abbrev tbM21 : Memref sig .tc .smem S16x2000 .i32 := Memref.whole main_v43
abbrev hbM21 : Memref sig .tc .hbm S100000x128 .f32 := Memref.whole main_arg0
abbrev scM21_0 : Memref sig .tc .vmem S1000x128 .f32 := Memref.whole cc21_scratch0
abbrev scM21_1 : Memref sig .tc .vmem S16x128 .f32 := Memref.whole cc21_scratch1

section Region
-- the TensorCore's buffer contents when the launch is entered, and the launch's table
variable (V : (c : Dev nD) → (b : Ref sig .tc) → Buf (Elt F) ((c : Thread nD τ).loc b)) (a : (pcfg21 (F := F)).Adm)

/-- The table and the feature array, as vectors. -/
abbrev tb21 : Vec F S16x2000 .i32 := a.1 0
abbrev A21 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ21 (c : Dev nD) (n : ℕ) : sProp 𝕄 :=
  iprop(owns (c : Thread nD τ) tbM21 fullShare (tb21 a)
    ∗ owns (c : Thread nD τ) hbM21 fullShare (A21 V c)
    ∗ (∃ g : Vec F S1000x128 .f32, ⌜RowsOK21 (tb21 a) (A21 V c) n g⌝ ∗ owns (c : Thread nD τ) scM21_0 fullShare g)
    ∗ (∃ d, owns (c : Thread nD τ) scM21_1 fullShare d)
    ∗ cells24 c cc21_scratch2
    ∗ (∃ r, prngReg c r)
    ∗ Pipeline.scopedRestBut (Ix := Unit) (Name := ℕ) (U := UC) (Lvl := ℕ) (Val := Elt F) spec21 c [cc21_scratch0, cc21_scratch1])

/-! ## The windows' blocks and the proof data -/

/-- Window `w`'s block at point `t`, read off its array as the launch finds it. -/
def iblk21 (c : Dev nD) (w : Fin (cfg21 a).W) (t : Fin (cfg21 a).N) :
    (((cfg21 a).win w).xblock ((cfg21 a).grid.coords t)).Idx → Elt F ((cfg21 a).win w).elt :=
  (((cfg21 a).win w).blk t).view.read (Elt F) (V c (Pipeline.arrRef spec21 w))

/-- The proof data of the launch on core `c`: the arrays as the launch finds them; after the body at point `t` the
    weight window at its block and the output window at the product for `t`'s block of rows (read only at the block's
    last row, where the body stores it); the invariant above; nothing owed; full shares. -/
def dat21 (c : Dev nD) : Dat τ (Elt F) Unit ℕ UC ℕ (cfg21 a) c where
  A w := V c (Pipeline.arrRef spec21 w)
  after w t := match w with
    | ⟨0, _⟩ => iblk21 V a c 0 t
    | ⟨1, _⟩ => xBlk21 (tb21 a) (A21 V c) (iblk21 V a c 0 t) (t.val / 1000)
  Φ n := Φ21 V a c n.val
  q _ := fullShare
  owed _ := 0

/-- The proof data's arrays are the entry contents. -/
theorem A_eq21 (c : Dev nD) (w : Fin (cfg21 a).W) : (dat21 V a c).A w = V c (Pipeline.arrRef spec21 w) := by
  dsimp only [dat21]

/-- What the body leaves, window by window. -/
theorem after21_0 (c : Dev nD) (t : Fin (cfg21 a).N) : (dat21 V a c).after 0 t = iblk21 V a c 0 t := by dsimp only [dat21]; rfl
theorem after21_1 (c : Dev nD) (t : Fin (cfg21 a).N) :
    (dat21 V a c).after 1 t = xBlk21 (tb21 a) (A21 V c) (iblk21 V a c 0 t) (t.val / 1000) := by dsimp only [dat21]; rfl

/-- The invariant and the tallies, at a point. -/
theorem Phi21_eq (c : Dev nD) (n : Fin ((cfg21 a).N + 1)) : (dat21 V a c).Φ n = Φ21 V a c n.val := by dsimp only [dat21]
theorem owed21_eq (c : Dev nD) (n : Fin ((cfg21 a).N + 1)) : (dat21 V a c).owed n = 0 := by dsimp only [dat21]

/-- The weight window holds its block at every point, fetched there or not: its block index never moves. -/
theorem before21_0 (c : Dev nD) (t : Fin (cfg21 a).N) (d) : (dat21 V a c).before 0 t d = iblk21 V a c 0 t :=
  ((dat21 V a c).before_in_eq_fetched 0 rfl (fun _ => rfl) (fun _ _ _ => rfl)
      (fun t => by rw [after21_0]; unfold Dat.blockOf iblk21; rw [A_eq21]; try rfl) t d).trans
    (by unfold Dat.fetched Dat.blockOf iblk21; rw [A_eq21]; try rfl)

/-- The output window is written back after the last row of each block of rows, and only there; -/
theorem flush21_1 (t : Fin (cfg21 a).N) : ((cfg21 a).win 1).flush t = decide (t.val % 1000 = 999) := by
  unfold Window.flush
  exact flushB21 t
/-- and it is idle at every other row. -/
theorem idle21_1 (t : Fin (cfg21 a).N) : (cfg21 a).idle 1 ((cfg21 a).grid.coords t) = !decide (t.val % 1000 = 999) := by
  show (!(k21_cond1 (grid21.coords t) == 1#1)) = _
  congr 1
  by_cases h : t.val % 1000 = 999
  · rw [decide_eq_true h, (cond21_iff t).2 h]; rfl
  · rw [decide_eq_false h]
    exact beq_false_of_ne fun e => h ((cond21_iff t).1 e)

end Region

/-! ## The body obligation -/

section Body
variable (V : (c : Dev nD) → (b : Ref sig .tc) → Buf (Elt F) ((c : Thread nD τ).loc b)) (a : (pcfg21 (F := F)).Adm)

/-- Each window's current staging memref at point `t`, spelled as the pipeline passes it, and its wholeness. -/
abbrev ms21_0 (t : Fin (cfg21 a).N) : Memref sig .tc .vmem S128x128 .f32 := spec21_0.stage ((cfg21 a).slots t 0)
abbrev hs21_0 (t : Fin (cfg21 a).N) : (ms21_0 a t).IsWhole := hstage21_0 (((cfg21 a).slots t 0).cast nbuf21_0)
abbrev ms21_1 (t : Fin (cfg21 a).N) : Memref sig .tc .vmem S1000x128 .f32 := spec21_1.stage ((cfg21 a).slots t 1)
abbrev hs21_1 (t : Fin (cfg21 a).N) : (ms21_1 a t).IsWhole := hstage21_1 (((cfg21 a).slots t 1).cast nbuf21_1)

/-- The launch's body function, under the name the runs are stated at. -/
theorem bodyFn21_eq : cc21__gather_agg_matmul_kernel (F := F) = gatherFn := rfl

/-- The kernel body at point `t`, on what the pipeline calls it with. -/
abbrev bodyAt21 (t : Fin (cfg21 a).N) : Prog (TpuEff nD τ sig (Elt F) Λ₀ .tc) PUnit :=
  cc21__gather_agg_matmul_kernel (grid21.coords t) tbM21 (Memref.isWhole_whole _) hbM21 (Memref.isWhole_whole _)
    (ms21_0 a t) (hs21_0 a t) (ms21_1 a t) (hs21_1 a t) scM21_0 (Memref.isWhole_whole _) scM21_1 (Memref.isWhole_whole _) cc21_scratch2

/-- What the body is called with at point `t`, the windows one by one, -/
def bodyPre21 (c : Dev nD) (t : Fin (cfg21 a).N) : sProp 𝕄 :=
  iprop((dat21 V a c).Φ t.castSucc ∗ (dat21 V a c).owesAt () t.castSucc
    ∗ (∃ d, owns (c : Thread nD τ) (ms21_0 a t) fullShare ((dat21 V a c).before 0 t d))
    ∗ (∃ d, owns (c : Thread nD τ) (ms21_1 a t) fullShare ((dat21 V a c).before 1 t d)))

/-- and what it returns: the output window as it was found where the point is idle for it, at the block's product
    at the last row of a block. -/
def bodyPost21 (c : Dev nD) (t : Fin (cfg21 a).N) : sProp 𝕄 :=
  iprop((dat21 V a c).Φ t.succ ∗ (dat21 V a c).owesAt () t.succ
    ∗ owns (c : Thread nD τ) (ms21_0 a t) fullShare ((dat21 V a c).after 0 t)
    ∗ (match (cfg21 a).idle 1 ((cfg21 a).grid.coords t) with
        | true =>
          match ((cfg21 a).win 1).flush t with
          | false => iprop(∃ d, owns (c : Thread nD τ) (ms21_1 a t) fullShare ((dat21 V a c).before 1 t d))
          | true => owns (c : Thread nD τ) (ms21_1 a t) fullShare ((dat21 V a c).after 1 t)
        | false => owns (c : Thread nD τ) (ms21_1 a t) fullShare ((dat21 V a c).after 1 t)))

/-- The body at any point. The weight window holds its block; the invariant hands the body its table, the feature
    array, both scratch buffers and its transfer cells, and takes them back with the carried scratch one row further
    (`rowsOK21_step`); at the last row of a block the product the body stores is the block's (`rowAt21_last`); the core's
    `owes` goes in at whatever the points before recorded and comes back with this point's waits. -/
theorem sound_body21 (hR : InRange21 a.1) (c : Dev nD) (t : Fin (cfg21 a).N) :
    bodyPre21 V a c t ⊢ wp frame (wpE (defs₀ (F := F)) Variants.none c none) Set.univ (bodyAt21 a t) (fun _ => bodyPost21 V a c t) := by
  unfold bodyPre21 bodyPost21 bodyAt21
  rw [flush21_1, idle21_1]
  simp only [before21_0]
  rw [after21_0, Phi21_eq, Phi21_eq, Fin.val_succ, Fin.coe_castSucc]
  unfold Dat.owesAt Pipeline.owesWithin
  rw [owed21_eq, owed21_eq]
  unfold Φ21
  rw [bodyFn21_eq]
  by_cases hl : t.val % 1000 = 999
  · -- the last row of a block
    rw [decide_eq_true hl, Bool.not_true]
    dsimp only
    rw [after21_1]
    unfold xBlk21
    iintro ⟨⟨Htb, Hhb, ⟨%g, %hg, Hs0⟩, Hs1, Hcells, Hreg, Hrest⟩, ⟨%W, -, HW⟩, ⟨%d0, H0⟩, ⟨%d1, H1⟩⟩
    rw [← rowAt21_last (tb21 a) (A21 V c) t hl g hg]
    iapply (run24_last c (grid21.coords t) tbM21 (Memref.isWhole_whole _) hbM21 (Memref.isWhole_whole _) (ms21_0 a t) (hs21_0 a t)
      (ms21_1 a t) (hs21_1 a t) scM21_0 (Memref.isWhole_whole _) scM21_1 (Memref.isWhole_whole _) cc21_scratch2
      ((cond21_iff t).2 hl) (tb21 a) hR (A21 V c) (iblk21 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK21_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k21_cond1 (grid21.coords t) ≠ 1#1 := fun e => hl ((cond21_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid21.coords t) tbM21 (Memref.isWhole_whole _) hbM21 (Memref.isWhole_whole _) (ms21_0 a t) (hs21_0 a t)
      (ms21_1 a t) (hs21_1 a t) scM21_0 (Memref.isWhole_whole _) scM21_1 (Memref.isWhole_whole _) cc21_scratch2
      hc (tb21 a) hR (A21 V c) (iblk21 V a c 0 t) g
      (owns (c : Thread nD τ) (ms21_1 a t) fullShare ((dat21 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK21_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation21 (hR : InRange21 a.1) (c : Dev nD) :
    BodyObligation (dat21 (F := F) V a c) (defs₀ (F := F)) Variants.none () Set.univ := fun t => by
  rw [bigSep_W21, bigSep_W21]
  exact sound_body21 V a hR c t

end Body

/-! ## The value: what the launch leaves in its output array -/

section Value
variable (V : (c : Dev nD) → (b : Ref sig .tc) → Buf (Elt F) ((c : Thread nD τ).loc b)) (a : (pcfg21 (F := F)).Adm)

/-- Entry `(r, l)` of a block of rows. -/
def cell21 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk21 (tb : Vec F S16x2000 .i32) (A0 : Vec F S100000x128 .f32) (Wt : Vec F S128x128 .f32) : Vec F S2000x128 .f32 :=
  fun y => xBlk21 tb A0 Wt ((y 0).val / 1000) (cell21 ((y 0).val % 1000) (Nat.mod_lt _ (by decide)) (y 1))

/-- The weight window's block is the whole weight, at every point: its block index is (0, 0). -/
theorem wblk21_eq (c : Dev nD) (t : Fin (cfg21 a).N) : iblk21 V a c 0 t = (V c main_arg1 : Vec F S128x128 .f32) := by
  funext x
  unfold iblk21
  rw [View.read_apply]
  refine (cast_eq _ _).trans (congrArg (V c main_arg1) (funext fun b => Fin.ext ?_))
  refine (((cfg21 a).win 0).rect_emb_val_of_index_zero t b ?_ x)
  match b with
  | ⟨0, _⟩ => rfl
  | ⟨1, _⟩ => rfl

/-- Where entry `x` of the output window's block at point `t` sits in the output array. -/
abbrev emb21 (t : Fin (cfg21 a).N) (x : S1000x128.Idx) : S2000x128.Idx := (((cfg21 a).win 1).blk t).view.emb x

theorem emb21_val (t : Fin (cfg21 a).N) (x : S1000x128.Idx) :
    (emb21 a t x 0).val = t.val / 1000 * 1000 + (x 0).val ∧ (emb21 a t x 1).val = (x 1).val := by
  have hix : ((cfg21 a).win 1).index t = ![t.val / 1000, 0] := idx21_1 t
  have e0 := ((cfg21 a).win 1).rect_emb_val t x (0 : Fin 2)
  have e1 := ((cfg21 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after21_chunk (c : Dev nD) (t : Fin (cfg21 a).N) (x : S1000x128.Idx) :
    (dat21 V a c).after 1 t x = xChunk21 (tb21 a) (A21 V c) (V c main_arg1) (emb21 a t x) := by
  obtain ⟨e0, e1⟩ := emb21_val a t x
  have hx0 : (x 0).val < 1000 := (x 0).isLt
  rw [after21_1, wblk21_eq]
  unfold xChunk21
  have hq : (emb21 a t x 0).val / 1000 = t.val / 1000 := by rw [e0]; omega
  have hcell : cell21 ((emb21 a t x 0).val % 1000) (Nat.mod_lt _ (by decide)) (emb21 a t x 1) = x := by
    funext b
    apply Fin.ext
    match b with
    | ⟨0, _⟩ =>
      show (emb21 a t x 0).val % 1000 = (x 0).val
      rw [e0]; omega
    | ⟨1, _⟩ => exact e1
  rw [hq, hcell]

/-- Two entries of the output array with the same coordinates are the same. -/
theorem idx21_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb21_cell (t : Fin (cfg21 a).N) (i : S2000x128.Idx) (ht : t.val / 1000 = (i 0).val / 1000) :
    emb21 a t (cell21 ((i 0).val % 1000) (Nat.mod_lt _ (by decide)) (i 1)) = i := by
  obtain ⟨e0, e1⟩ := emb21_val a t (cell21 ((i 0).val % 1000) (Nat.mod_lt _ (by decide)) (i 1))
  refine idx21_ext _ _ ?_ e1
  rw [e0, ht]
  show (i 0).val / 1000 * 1000 + (i 0).val % 1000 = (i 0).val
  omega

/-- Every entry of the output array lies in the block written back after the last row of its block of rows. -/
theorem cover21 (i : S2000x128.Idx) :
    ∃ t : Fin (cfg21 a).N, ((cfg21 a).win 1).flush t = true ∧ i ∈ (((cfg21 a).win 1).blk t).view.set := by
  have hi0 : (i 0).val < 2000 := (i 0).isLt
  have hN : (i 0).val / 1000 * 1000 + 999 < (cfg21 a).N := by rw [N21]; omega
  refine ⟨⟨(i 0).val / 1000 * 1000 + 999, hN⟩, ?_, ?_⟩
  · rw [flush21_1]; exact decide_eq_true (by show ((i 0).val / 1000 * 1000 + 999) % 1000 = 999; omega)
  · refine Finset.mem_map.mpr ⟨cell21 ((i 0).val % 1000) (Nat.mod_lt _ (by decide)) (i 1), Finset.mem_univ _, ?_⟩
    exact emb21_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out21 (c : Dev nD) :
    (dat21 V a c).arrAt 1 (cfg21 a).N = (xChunk21 (tb21 a) (A21 V c) (V c main_arg1) : Vec F S2000x128 .f32) :=
  (dat21 V a c).arrAt_eq_of_cover 1 _
    (fun t _ => funext fun x => (after21_chunk V a c t x).trans (cast_eq _ _).symm)
    (cover21 a)

end Value

/-! ## The invariant's two ends -/

section Ends
variable (V : (c : Dev nD) → (b : Ref sig .tc) → Buf (Elt F) ((c : Thread nD τ).loc b)) (a : (pcfg21 (F := F)).Adm)

/-- The body's own transfer cells as the launch's protocol lists them: the 16 cells of its semaphore operand. -/
def osem21 : Fin 16 → SemLoc sig := fun k => SemLoc.dma (cc21_scratch2.ix (Shape.ofLane k))
/-- They are scoped, distinct, and none is a window's. -/
theorem ownSemFacts21 : Pipeline.OwnSemFacts spec21 osem21 := by decide
/-- The cells at zero, listed, are the cells as the body names them. -/
theorem cells21_eq (c : Dev nD) :
    (Pipeline.ownSems0 (Ix := Unit) (Name := ℕ) (U := UC) (Lvl := ℕ) (Val := Elt F) (τ := τ) osem21 c : sProp 𝕄) = cells24 c cc21_scratch2 := by
  rw [Pipeline.ownSems0_eq_of_list c osem21 [0, 1, 2, 3, 4, 5, 6, 7, 8, 9, 10, 11, 12, 13, 14, 15] (by decide) (by decide)]; rfl

/-- The launch's one table, held. -/
theorem prefHeld21_eq (c : Dev nD) (pf : pre21.Contents (Elt F)) :
    (Pipeline.prefHeld pre21 c (fun _ => fullShare) pf : sProp 𝕄) = (((c : Thread nD τ).loc main_v43) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X21 (c : Dev nD) : sProp 𝕄 :=
  iprop((∃ r, prngReg c r) ∗ Pipeline.ownSems0 (Ix := Unit) (Name := ℕ) (U := UC) (Lvl := ℕ) (Val := Elt F) (τ := τ) osem21 c
    ∗ (((c : Thread nD τ).loc main_arg0) ↦{fullShare} V c main_arg0))
abbrev Y21 (c : Dev nD) : sProp 𝕄 :=
  iprop((∃ r, prngReg c r) ∗ (((c : Thread nD τ).loc main_arg0) ↦{fullShare} V c main_arg0)
    ∗ Pipeline.prefHeld pre21 c (fun _ => fullShare) a.1)

/-- THE FIRST POINT: the invariant from what the launch's entry sorts out. Nothing is asked of the carried scratch. -/
theorem Phi21_in (c : Dev nD) :
    iprop(X21 V c ∗ Pipeline.prefHeld pre21 c (fun _ => fullShare) a.1
        ∗ Pipeline.scopedRest (Ix := Unit) (Name := ℕ) (U := UC) (Lvl := ℕ) (Val := Elt F) spec21 c)
      ⊢ (dat21 V a c).Φ 0 := by
  rw [Phi21_eq]
  unfold Φ21 X21
  rw [scopedRest21_split, prefHeld21_eq, cells21_eq]
  simp only [tbM21, hbM21, scM21_0, scM21_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK21_start _ _ _ rfl _
  isplitl [Hs1]; · iexact Hs1
  isplitl [Hcells]; · iexact Hcells
  isplitl [Hreg]; · iexact Hreg
  iexact Hrest

/-- THE LAST POINT: the invariant gives back what it took. -/
theorem Phi21_out (c : Dev nD) :
    (dat21 V a c).Φ (Fin.last _)
      ⊢ iprop(Y21 V a c ∗ Pipeline.ownSems0 (Ix := Unit) (Name := ℕ) (U := UC) (Lvl := ℕ) (Val := Elt F) (τ := τ) osem21 c
        ∗ Pipeline.scopedRest (Ix := Unit) (Name := ℕ) (U := UC) (Lvl := ℕ) (Val := Elt F) spec21 c) := by
  rw [Phi21_eq]
  unfold Φ21 Y21
  rw [scopedRest21_split, prefHeld21_eq, cells21_eq]
  simp only [tbM21, hbM21, scM21_0, scM21_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G22Dat.lean ====
/-
  One of the program's 25 gather launches (pipeline 22; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N22 (a : (pcfg22 (F := F)).Adm) : (cfg22 a).N = 2000 := N_22

/-- The body's branch is taken at the last row of a block of rows, -/
theorem cond22_iff : ∀ t : Fin grid22.N, k22_cond1 (grid22.coords t) = 1#1 ↔ t.val % 1000 = 999 := by decide +kernel
/-- the row a point works on is its number modulo 1000, -/
theorem rowAt22_coord : ∀ t : Fin grid22.N, (grid22.coords t 1).val = t.val % 1000 := by decide +kernel
/-- its block of rows is its number divided by 1000, -/
theorem blockAt22_coord : ∀ t : Fin grid22.N, (grid22.coords t 0).val = t.val / 1000 := by decide +kernel
/-- and the output's block index moves after exactly those points (and the grid ends at one). -/
theorem flushB22 : ∀ t : Fin grid22.N,
    (decide (t.val + 1 = grid22.N) || decide (∃ h : t.val + 1 < grid22.N, cc22_transform_2 (grid22.coords ⟨t.val + 1, h⟩) ≠ cc22_transform_2 (grid22.coords t)))
      = decide (t.val % 1000 = 999) := by decide +kernel

/-- The output's block index at a point: the point's block of rows. -/
theorem idx22_1 : ∀ t : Fin grid22.N, cc22_transform_2 (grid22.coords t) = ![t.val / 1000, 0] := by decide +kernel

/-- Every word of the launch's table names a row of the feature array. -/
def InRange22 (pf : pre22.Contents (Elt F)) : Prop := ∀ x : S16x2000.Idx, ((pf 0 : Vec F S16x2000 .i32) x).toNat < 100000

/-! ## The values -/

/-- Lane `l` of a one-row vector. -/
def lane22 (l : Fin 128) : S1x128.Idx := fun a => ⟨if a.val = 0 then 0 else l.val, by
  match a with
  | ⟨0, _⟩ => exact Nat.one_pos
  | ⟨1, _⟩ => exact l.isLt⟩

theorem lane22_one (l : Fin 128) : (lane22 l 1).val = l.val := rfl

/-- The grid point of row `r` of block `q` (total: the point number is taken modulo the grid's size). -/
def pt22 (q : ℕ) (r : ℕ) : Fin grid22.N := ⟨(q * 1000 + r) % grid22.N, Nat.mod_lt _ (by decide)⟩

/-- Inside the grid the point's number is `1000 q + r`. -/
theorem pt22_val (q r : ℕ) (hq : q < 2) (hr : r < 1000) : (pt22 q r).val = q * 1000 + r := by
  show (q * 1000 + r) % grid22.N = q * 1000 + r
  rw [N_22]; omega

/-- A point is the point of its block and row. -/
theorem pt22_self (t : Fin grid22.N) : pt22 (t.val / 1000) (t.val % 1000) = t := by
  apply Fin.ext
  show (t.val / 1000 * 1000 + t.val % 1000) % grid22.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means22 (tb : Vec F S16x2000 .i32) (A0 : Vec F S100000x128 .f32) (q : ℕ) : Vec F S1000x128 .f32 :=
  fun x => Gen.k24_pay1 (gath24 (grid22.coords (pt22 q (x 0).val)) tb A0) (lane22 (x 1))

/-- What the body stores in the output window at the last row of block `q`: the means, rounded, times the weight, rounded. -/
def xBlk22 (tb : Vec F S16x2000 .i32) (A0 : Vec F S100000x128 .f32) (Wt : Vec F S128x128 .f32) (q : ℕ) : Vec F S1000x128 .f32 :=
  Gen.k24_pay2 (means22 tb A0 q) Wt

/-- The carried scratch before point `n`: its rows below `n % 1000` are the means of block `n / 1000`. -/
def RowsOK22 (tb : Vec F S16x2000 .i32) (A0 : Vec F S100000x128 .f32) (n : ℕ) (g : Vec F S1000x128 .f32) : Prop :=
  ∀ x : S1000x128.Idx, (x 0).val < n % 1000 → g x = means22 tb A0 (n / 1000) x

/-- At the first row of a block nothing is asked. -/
theorem rowsOK22_start (tb : Vec F S16x2000 .i32) (A0 : Vec F S100000x128 .f32) (n : ℕ) (hn : n % 1000 = 0) (g : Vec F S1000x128 .f32) :
    RowsOK22 tb A0 n g := fun x hx => absurd hx (by omega)

/-- One point's row store keeps the invariant's rows and adds its own: after the store at point `t` the rows up to
    `t % 1000` are means. -/
theorem rowAt22_means (tb : Vec F S16x2000 .i32) (A0 : Vec F S100000x128 .f32) (t : Fin grid22.N) (g : Vec F S1000x128 .f32)
    (hg : RowsOK22 tb A0 t.val g) (x : S1000x128.Idx) (hx : (x 0).val ≤ t.val % 1000) :
    row24 (grid22.coords t) tb A0 g x = means22 tb A0 (t.val / 1000) x := by
  by_cases h : (x 0).val = t.val % 1000
  · rw [row24_of_eq (grid22.coords t) tb A0 g x (by rw [rowAt22_coord]; exact h) (lane22 (x 1)) rfl]
    unfold means22
    rw [h, pt22_self]
  · rw [row24_of_ne (grid22.coords t) tb A0 g x (by rw [rowAt22_coord]; exact h)]
    exact hg x (by omega)

/-- Within a block the invariant steps. -/
theorem rowsOK22_step (tb : Vec F S16x2000 .i32) (A0 : Vec F S100000x128 .f32) (t : Fin grid22.N) (g : Vec F S1000x128 .f32)
    (hg : RowsOK22 tb A0 t.val g) : RowsOK22 tb A0 (t.val + 1) (row24 (grid22.coords t) tb A0 g) := by
  by_cases hl : t.val % 1000 = 999
  · exact rowsOK22_start _ _ _ (by omega) _
  · intro x hx
    have h1 : (t.val + 1) / 1000 = t.val / 1000 := by omega
    rw [h1]
    exact rowAt22_means tb A0 t g hg x (by omega)

/-- At the last row of a block the scratch, after the row store, is the block's means whatever it held before. -/
theorem rowAt22_last (tb : Vec F S16x2000 .i32) (A0 : Vec F S100000x128 .f32) (t : Fin grid22.N) (hl : t.val % 1000 = 999)
    (g : Vec F S1000x128 .f32) (hg : RowsOK22 tb A0 t.val g) :
    row24 (grid22.coords t) tb A0 g = means22 tb A0 (t.val / 1000) :=
  funext fun x => rowAt22_means tb A0 t g hg x (by have : (x 0).val < 1000 := (x 0).isLt; omega)

/-! ## The invariant -/

/-- The launch's operands that no window stages, as the body is handed them: its table, the feature array left in
    HBM, and its two scratch buffers — whole buffers. -/
abbrev tbM22 : Memref sig .tc .smem S16x2000 .i32 := Memref.whole main_v45
abbrev hbM22 : Memref sig .tc .hbm S100000x128 .f32 := Memref.whole main_arg0
abbrev scM22_0 : Memref sig .tc .vmem S1000x128 .f32 := Memref.whole cc22_scratch0
abbrev scM22_1 : Memref sig .tc .vmem S16x128 .f32 := Memref.whole cc22_scratch1

section Region
-- the TensorCore's buffer contents when the launch is entered, and the launch's table
variable (V : (c : Dev nD) → (b : Ref sig .tc) → Buf (Elt F) ((c : Thread nD τ).loc b)) (a : (pcfg22 (F := F)).Adm)

/-- The table and the feature array, as vectors. -/
abbrev tb22 : Vec F S16x2000 .i32 := a.1 0
abbrev A22 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ22 (c : Dev nD) (n : ℕ) : sProp 𝕄 :=
  iprop(owns (c : Thread nD τ) tbM22 fullShare (tb22 a)
    ∗ owns (c : Thread nD τ) hbM22 fullShare (A22 V c)
    ∗ (∃ g : Vec F S1000x128 .f32, ⌜RowsOK22 (tb22 a) (A22 V c) n g⌝ ∗ owns (c : Thread nD τ) scM22_0 fullShare g)
    ∗ (∃ d, owns (c : Thread nD τ) scM22_1 fullShare d)
    ∗ cells24 c cc22_scratch2
    ∗ (∃ r, prngReg c r)
    ∗ Pipeline.scopedRestBut (Ix := Unit) (Name := ℕ) (U := UC) (Lvl := ℕ) (Val := Elt F) spec22 c [cc22_scratch0, cc22_scratch1])

/-! ## The windows' blocks and the proof data -/

/-- Window `w`'s block at point `t`, read off its array as the launch finds it. -/
def iblk22 (c : Dev nD) (w : Fin (cfg22 a).W) (t : Fin (cfg22 a).N) :
    (((cfg22 a).win w).xblock ((cfg22 a).grid.coords t)).Idx → Elt F ((cfg22 a).win w).elt :=
  (((cfg22 a).win w).blk t).view.read (Elt F) (V c (Pipeline.arrRef spec22 w))

/-- The proof data of the launch on core `c`: the arrays as the launch finds them; after the body at point `t` the
    weight window at its block and the output window at the product for `t`'s block of rows (read only at the block's
    last row, where the body stores it); the invariant above; nothing owed; full shares. -/
def dat22 (c : Dev nD) : Dat τ (Elt F) Unit ℕ UC ℕ (cfg22 a) c where
  A w := V c (Pipeline.arrRef spec22 w)
  after w t := match w with
    | ⟨0, _⟩ => iblk22 V a c 0 t
    | ⟨1, _⟩ => xBlk22 (tb22 a) (A22 V c) (iblk22 V a c 0 t) (t.val / 1000)
  Φ n := Φ22 V a c n.val
  q _ := fullShare
  owed _ := 0

/-- The proof data's arrays are the entry contents. -/
theorem A_eq22 (c : Dev nD) (w : Fin (cfg22 a).W) : (dat22 V a c).A w = V c (Pipeline.arrRef spec22 w) := by
  dsimp only [dat22]

/-- What the body leaves, window by window. -/
theorem after22_0 (c : Dev nD) (t : Fin (cfg22 a).N) : (dat22 V a c).after 0 t = iblk22 V a c 0 t := by dsimp only [dat22]; rfl
theorem after22_1 (c : Dev nD) (t : Fin (cfg22 a).N) :
    (dat22 V a c).after 1 t = xBlk22 (tb22 a) (A22 V c) (iblk22 V a c 0 t) (t.val / 1000) := by dsimp only [dat22]; rfl

/-- The invariant and the tallies, at a point. -/
theorem Phi22_eq (c : Dev nD) (n : Fin ((cfg22 a).N + 1)) : (dat22 V a c).Φ n = Φ22 V a c n.val := by dsimp only [dat22]
theorem owed22_eq (c : Dev nD) (n : Fin ((cfg22 a).N + 1)) : (dat22 V a c).owed n = 0 := by dsimp only [dat22]

/-- The weight window holds its block at every point, fetched there or not: its block index never moves. -/
theorem before22_0 (c : Dev nD) (t : Fin (cfg22 a).N) (d) : (dat22 V a c).before 0 t d = iblk22 V a c 0 t :=
  ((dat22 V a c).before_in_eq_fetched 0 rfl (fun _ => rfl) (fun _ _ _ => rfl)
      (fun t => by rw [after22_0]; unfold Dat.blockOf iblk22; rw [A_eq22]; try rfl) t d).trans
    (by unfold Dat.fetched Dat.blockOf iblk22; rw [A_eq22]; try rfl)

/-- The output window is written back after the last row of each block of rows, and only there; -/
theorem flush22_1 (t : Fin (cfg22 a).N) : ((cfg22 a).win 1).flush t = decide (t.val % 1000 = 999) := by
  unfold Window.flush
  exact flushB22 t
/-- and it is idle at every other row. -/
theorem idle22_1 (t : Fin (cfg22 a).N) : (cfg22 a).idle 1 ((cfg22 a).grid.coords t) = !decide (t.val % 1000 = 999) := by
  show (!(k22_cond1 (grid22.coords t) == 1#1)) = _
  congr 1
  by_cases h : t.val % 1000 = 999
  · rw [decide_eq_true h, (cond22_iff t).2 h]; rfl
  · rw [decide_eq_false h]
    exact beq_false_of_ne fun e => h ((cond22_iff t).1 e)

end Region

/-! ## The body obligation -/

section Body
variable (V : (c : Dev nD) → (b : Ref sig .tc) → Buf (Elt F) ((c : Thread nD τ).loc b)) (a : (pcfg22 (F := F)).Adm)

/-- Each window's current staging memref at point `t`, spelled as the pipeline passes it, and its wholeness. -/
abbrev ms22_0 (t : Fin (cfg22 a).N) : Memref sig .tc .vmem S128x128 .f32 := spec22_0.stage ((cfg22 a).slots t 0)
abbrev hs22_0 (t : Fin (cfg22 a).N) : (ms22_0 a t).IsWhole := hstage22_0 (((cfg22 a).slots t 0).cast nbuf22_0)
abbrev ms22_1 (t : Fin (cfg22 a).N) : Memref sig .tc .vmem S1000x128 .f32 := spec22_1.stage ((cfg22 a).slots t 1)
abbrev hs22_1 (t : Fin (cfg22 a).N) : (ms22_1 a t).IsWhole := hstage22_1 (((cfg22 a).slots t 1).cast nbuf22_1)

/-- The launch's body function, under the name the runs are stated at. -/
theorem bodyFn22_eq : cc22__gather_agg_matmul_kernel (F := F) = gatherFn := rfl

/-- The kernel body at point `t`, on what the pipeline calls it with. -/
abbrev bodyAt22 (t : Fin (cfg22 a).N) : Prog (TpuEff nD τ sig (Elt F) Λ₀ .tc) PUnit :=
  cc22__gather_agg_matmul_kernel (grid22.coords t) tbM22 (Memref.isWhole_whole _) hbM22 (Memref.isWhole_whole _)
    (ms22_0 a t) (hs22_0 a t) (ms22_1 a t) (hs22_1 a t) scM22_0 (Memref.isWhole_whole _) scM22_1 (Memref.isWhole_whole _) cc22_scratch2

/-- What the body is called with at point `t`, the windows one by one, -/
def bodyPre22 (c : Dev nD) (t : Fin (cfg22 a).N) : sProp 𝕄 :=
  iprop((dat22 V a c).Φ t.castSucc ∗ (dat22 V a c).owesAt () t.castSucc
    ∗ (∃ d, owns (c : Thread nD τ) (ms22_0 a t) fullShare ((dat22 V a c).before 0 t d))
    ∗ (∃ d, owns (c : Thread nD τ) (ms22_1 a t) fullShare ((dat22 V a c).before 1 t d)))

/-- and what it returns: the output window as it was found where the point is idle for it, at the block's product
    at the last row of a block. -/
def bodyPost22 (c : Dev nD) (t : Fin (cfg22 a).N) : sProp 𝕄 :=
  iprop((dat22 V a c).Φ t.succ ∗ (dat22 V a c).owesAt () t.succ
    ∗ owns (c : Thread nD τ) (ms22_0 a t) fullShare ((dat22 V a c).after 0 t)
    ∗ (match (cfg22 a).idle 1 ((cfg22 a).grid.coords t) with
        | true =>
          match ((cfg22 a).win 1).flush t with
          | false => iprop(∃ d, owns (c : Thread nD τ) (ms22_1 a t) fullShare ((dat22 V a c).before 1 t d))
          | true => owns (c : Thread nD τ) (ms22_1 a t) fullShare ((dat22 V a c).after 1 t)
        | false => owns (c : Thread nD τ) (ms22_1 a t) fullShare ((dat22 V a c).after 1 t)))

/-- The body at any point. The weight window holds its block; the invariant hands the body its table, the feature
    array, both scratch buffers and its transfer cells, and takes them back with the carried scratch one row further
    (`rowsOK22_step`); at the last row of a block the product the body stores is the block's (`rowAt22_last`); the core's
    `owes` goes in at whatever the points before recorded and comes back with this point's waits. -/
theorem sound_body22 (hR : InRange22 a.1) (c : Dev nD) (t : Fin (cfg22 a).N) :
    bodyPre22 V a c t ⊢ wp frame (wpE (defs₀ (F := F)) Variants.none c none) Set.univ (bodyAt22 a t) (fun _ => bodyPost22 V a c t) := by
  unfold bodyPre22 bodyPost22 bodyAt22
  rw [flush22_1, idle22_1]
  simp only [before22_0]
  rw [after22_0, Phi22_eq, Phi22_eq, Fin.val_succ, Fin.coe_castSucc]
  unfold Dat.owesAt Pipeline.owesWithin
  rw [owed22_eq, owed22_eq]
  unfold Φ22
  rw [bodyFn22_eq]
  by_cases hl : t.val % 1000 = 999
  · -- the last row of a block
    rw [decide_eq_true hl, Bool.not_true]
    dsimp only
    rw [after22_1]
    unfold xBlk22
    iintro ⟨⟨Htb, Hhb, ⟨%g, %hg, Hs0⟩, Hs1, Hcells, Hreg, Hrest⟩, ⟨%W, -, HW⟩, ⟨%d0, H0⟩, ⟨%d1, H1⟩⟩
    rw [← rowAt22_last (tb22 a) (A22 V c) t hl g hg]
    iapply (run24_last c (grid22.coords t) tbM22 (Memref.isWhole_whole _) hbM22 (Memref.isWhole_whole _) (ms22_0 a t) (hs22_0 a t)
      (ms22_1 a t) (hs22_1 a t) scM22_0 (Memref.isWhole_whole _) scM22_1 (Memref.isWhole_whole _) cc22_scratch2
      ((cond22_iff t).2 hl) (tb22 a) hR (A22 V c) (iblk22 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK22_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k22_cond1 (grid22.coords t) ≠ 1#1 := fun e => hl ((cond22_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid22.coords t) tbM22 (Memref.isWhole_whole _) hbM22 (Memref.isWhole_whole _) (ms22_0 a t) (hs22_0 a t)
      (ms22_1 a t) (hs22_1 a t) scM22_0 (Memref.isWhole_whole _) scM22_1 (Memref.isWhole_whole _) cc22_scratch2
      hc (tb22 a) hR (A22 V c) (iblk22 V a c 0 t) g
      (owns (c : Thread nD τ) (ms22_1 a t) fullShare ((dat22 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK22_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation22 (hR : InRange22 a.1) (c : Dev nD) :
    BodyObligation (dat22 (F := F) V a c) (defs₀ (F := F)) Variants.none () Set.univ := fun t => by
  rw [bigSep_W22, bigSep_W22]
  exact sound_body22 V a hR c t

end Body

/-! ## The value: what the launch leaves in its output array -/

section Value
variable (V : (c : Dev nD) → (b : Ref sig .tc) → Buf (Elt F) ((c : Thread nD τ).loc b)) (a : (pcfg22 (F := F)).Adm)

/-- Entry `(r, l)` of a block of rows. -/
def cell22 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk22 (tb : Vec F S16x2000 .i32) (A0 : Vec F S100000x128 .f32) (Wt : Vec F S128x128 .f32) : Vec F S2000x128 .f32 :=
  fun y => xBlk22 tb A0 Wt ((y 0).val / 1000) (cell22 ((y 0).val % 1000) (Nat.mod_lt _ (by decide)) (y 1))

/-- The weight window's block is the whole weight, at every point: its block index is (0, 0). -/
theorem wblk22_eq (c : Dev nD) (t : Fin (cfg22 a).N) : iblk22 V a c 0 t = (V c main_arg1 : Vec F S128x128 .f32) := by
  funext x
  unfold iblk22
  rw [View.read_apply]
  refine (cast_eq _ _).trans (congrArg (V c main_arg1) (funext fun b => Fin.ext ?_))
  refine (((cfg22 a).win 0).rect_emb_val_of_index_zero t b ?_ x)
  match b with
  | ⟨0, _⟩ => rfl
  | ⟨1, _⟩ => rfl

/-- Where entry `x` of the output window's block at point `t` sits in the output array. -/
abbrev emb22 (t : Fin (cfg22 a).N) (x : S1000x128.Idx) : S2000x128.Idx := (((cfg22 a).win 1).blk t).view.emb x

theorem emb22_val (t : Fin (cfg22 a).N) (x : S1000x128.Idx) :
    (emb22 a t x 0).val = t.val / 1000 * 1000 + (x 0).val ∧ (emb22 a t x 1).val = (x 1).val := by
  have hix : ((cfg22 a).win 1).index t = ![t.val / 1000, 0] := idx22_1 t
  have e0 := ((cfg22 a).win 1).rect_emb_val t x (0 : Fin 2)
  have e1 := ((cfg22 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after22_chunk (c : Dev nD) (t : Fin (cfg22 a).N) (x : S1000x128.Idx) :
    (dat22 V a c).after 1 t x = xChunk22 (tb22 a) (A22 V c) (V c main_arg1) (emb22 a t x) := by
  obtain ⟨e0, e1⟩ := emb22_val a t x
  have hx0 : (x 0).val < 1000 := (x 0).isLt
  rw [after22_1, wblk22_eq]
  unfold xChunk22
  have hq : (emb22 a t x 0).val / 1000 = t.val / 1000 := by rw [e0]; omega
  have hcell : cell22 ((emb22 a t x 0).val % 1000) (Nat.mod_lt _ (by decide)) (emb22 a t x 1) = x := by
    funext b
    apply Fin.ext
    match b with
    | ⟨0, _⟩ =>
      show (emb22 a t x 0).val % 1000 = (x 0).val
      rw [e0]; omega
    | ⟨1, _⟩ => exact e1
  rw [hq, hcell]

/-- Two entries of the output array with the same coordinates are the same. -/
theorem idx22_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb22_cell (t : Fin (cfg22 a).N) (i : S2000x128.Idx) (ht : t.val / 1000 = (i 0).val / 1000) :
    emb22 a t (cell22 ((i 0).val % 1000) (Nat.mod_lt _ (by decide)) (i 1)) = i := by
  obtain ⟨e0, e1⟩ := emb22_val a t (cell22 ((i 0).val % 1000) (Nat.mod_lt _ (by decide)) (i 1))
  refine idx22_ext _ _ ?_ e1
  rw [e0, ht]
  show (i 0).val / 1000 * 1000 + (i 0).val % 1000 = (i 0).val
  omega

/-- Every entry of the output array lies in the block written back after the last row of its block of rows. -/
theorem cover22 (i : S2000x128.Idx) :
    ∃ t : Fin (cfg22 a).N, ((cfg22 a).win 1).flush t = true ∧ i ∈ (((cfg22 a).win 1).blk t).view.set := by
  have hi0 : (i 0).val < 2000 := (i 0).isLt
  have hN : (i 0).val / 1000 * 1000 + 999 < (cfg22 a).N := by rw [N22]; omega
  refine ⟨⟨(i 0).val / 1000 * 1000 + 999, hN⟩, ?_, ?_⟩
  · rw [flush22_1]; exact decide_eq_true (by show ((i 0).val / 1000 * 1000 + 999) % 1000 = 999; omega)
  · refine Finset.mem_map.mpr ⟨cell22 ((i 0).val % 1000) (Nat.mod_lt _ (by decide)) (i 1), Finset.mem_univ _, ?_⟩
    exact emb22_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out22 (c : Dev nD) :
    (dat22 V a c).arrAt 1 (cfg22 a).N = (xChunk22 (tb22 a) (A22 V c) (V c main_arg1) : Vec F S2000x128 .f32) :=
  (dat22 V a c).arrAt_eq_of_cover 1 _
    (fun t _ => funext fun x => (after22_chunk V a c t x).trans (cast_eq _ _).symm)
    (cover22 a)

end Value

/-! ## The invariant's two ends -/

section Ends
variable (V : (c : Dev nD) → (b : Ref sig .tc) → Buf (Elt F) ((c : Thread nD τ).loc b)) (a : (pcfg22 (F := F)).Adm)

/-- The body's own transfer cells as the launch's protocol lists them: the 16 cells of its semaphore operand. -/
def osem22 : Fin 16 → SemLoc sig := fun k => SemLoc.dma (cc22_scratch2.ix (Shape.ofLane k))
/-- They are scoped, distinct, and none is a window's. -/
theorem ownSemFacts22 : Pipeline.OwnSemFacts spec22 osem22 := by decide
/-- The cells at zero, listed, are the cells as the body names them. -/
theorem cells22_eq (c : Dev nD) :
    (Pipeline.ownSems0 (Ix := Unit) (Name := ℕ) (U := UC) (Lvl := ℕ) (Val := Elt F) (τ := τ) osem22 c : sProp 𝕄) = cells24 c cc22_scratch2 := by
  rw [Pipeline.ownSems0_eq_of_list c osem22 [0, 1, 2, 3, 4, 5, 6, 7, 8, 9, 10, 11, 12, 13, 14, 15] (by decide) (by decide)]; rfl

/-- The launch's one table, held. -/
theorem prefHeld22_eq (c : Dev nD) (pf : pre22.Contents (Elt F)) :
    (Pipeline.prefHeld pre22 c (fun _ => fullShare) pf : sProp 𝕄) = (((c : Thread nD τ).loc main_v45) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X22 (c : Dev nD) : sProp 𝕄 :=
  iprop((∃ r, prngReg c r) ∗ Pipeline.ownSems0 (Ix := Unit) (Name := ℕ) (U := UC) (Lvl := ℕ) (Val := Elt F) (τ := τ) osem22 c
    ∗ (((c : Thread nD τ).loc main_arg0) ↦{fullShare} V c main_arg0))
abbrev Y22 (c : Dev nD) : sProp 𝕄 :=
  iprop((∃ r, prngReg c r) ∗ (((c : Thread nD τ).loc main_arg0) ↦{fullShare} V c main_arg0)
    ∗ Pipeline.prefHeld pre22 c (fun _ => fullShare) a.1)

/-- THE FIRST POINT: the invariant from what the launch's entry sorts out. Nothing is asked of the carried scratch. -/
theorem Phi22_in (c : Dev nD) :
    iprop(X22 V c ∗ Pipeline.prefHeld pre22 c (fun _ => fullShare) a.1
        ∗ Pipeline.scopedRest (Ix := Unit) (Name := ℕ) (U := UC) (Lvl := ℕ) (Val := Elt F) spec22 c)
      ⊢ (dat22 V a c).Φ 0 := by
  rw [Phi22_eq]
  unfold Φ22 X22
  rw [scopedRest22_split, prefHeld22_eq, cells22_eq]
  simp only [tbM22, hbM22, scM22_0, scM22_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK22_start _ _ _ rfl _
  isplitl [Hs1]; · iexact Hs1
  isplitl [Hcells]; · iexact Hcells
  isplitl [Hreg]; · iexact Hreg
  iexact Hrest

/-- THE LAST POINT: the invariant gives back what it took. -/
theorem Phi22_out (c : Dev nD) :
    (dat22 V a c).Φ (Fin.last _)
      ⊢ iprop(Y22 V a c ∗ Pipeline.ownSems0 (Ix := Unit) (Name := ℕ) (U := UC) (Lvl := ℕ) (Val := Elt F) (τ := τ) osem22 c
        ∗ Pipeline.scopedRest (Ix := Unit) (Name := ℕ) (U := UC) (Lvl := ℕ) (Val := Elt F) spec22 c) := by
  rw [Phi22_eq]
  unfold Φ22 Y22
  rw [scopedRest22_split, prefHeld22_eq, cells22_eq]
  simp only [tbM22, hbM22, scM22_0, scM22_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G23Dat.lean ====
/-
  One of the program's 25 gather launches (pipeline 23; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N23 (a : (pcfg23 (F := F)).Adm) : (cfg23 a).N = 2000 := N_23

/-- The body's branch is taken at the last row of a block of rows, -/
theorem cond23_iff : ∀ t : Fin grid23.N, k23_cond1 (grid23.coords t) = 1#1 ↔ t.val % 1000 = 999 := by decide +kernel
/-- the row a point works on is its number modulo 1000, -/
theorem rowAt23_coord : ∀ t : Fin grid23.N, (grid23.coords t 1).val = t.val % 1000 := by decide +kernel
/-- its block of rows is its number divided by 1000, -/
theorem blockAt23_coord : ∀ t : Fin grid23.N, (grid23.coords t 0).val = t.val / 1000 := by decide +kernel
/-- and the output's block index moves after exactly those points (and the grid ends at one). -/
theorem flushB23 : ∀ t : Fin grid23.N,
    (decide (t.val + 1 = grid23.N) || decide (∃ h : t.val + 1 < grid23.N, cc23_transform_2 (grid23.coords ⟨t.val + 1, h⟩) ≠ cc23_transform_2 (grid23.coords t)))
      = decide (t.val % 1000 = 999) := by decide +kernel

/-- The output's block index at a point: the point's block of rows. -/
theorem idx23_1 : ∀ t : Fin grid23.N, cc23_transform_2 (grid23.coords t) = ![t.val / 1000, 0] := by decide +kernel

/-- Every word of the launch's table names a row of the feature array. -/
def InRange23 (pf : pre23.Contents (Elt F)) : Prop := ∀ x : S16x2000.Idx, ((pf 0 : Vec F S16x2000 .i32) x).toNat < 100000

/-! ## The values -/

/-- Lane `l` of a one-row vector. -/
def lane23 (l : Fin 128) : S1x128.Idx := fun a => ⟨if a.val = 0 then 0 else l.val, by
  match a with
  | ⟨0, _⟩ => exact Nat.one_pos
  | ⟨1, _⟩ => exact l.isLt⟩

theorem lane23_one (l : Fin 128) : (lane23 l 1).val = l.val := rfl

/-- The grid point of row `r` of block `q` (total: the point number is taken modulo the grid's size). -/
def pt23 (q : ℕ) (r : ℕ) : Fin grid23.N := ⟨(q * 1000 + r) % grid23.N, Nat.mod_lt _ (by decide)⟩

/-- Inside the grid the point's number is `1000 q + r`. -/
theorem pt23_val (q r : ℕ) (hq : q < 2) (hr : r < 1000) : (pt23 q r).val = q * 1000 + r := by
  show (q * 1000 + r) % grid23.N = q * 1000 + r
  rw [N_23]; omega

/-- A point is the point of its block and row. -/
theorem pt23_self (t : Fin grid23.N) : pt23 (t.val / 1000) (t.val % 1000) = t := by
  apply Fin.ext
  show (t.val / 1000 * 1000 + t.val % 1000) % grid23.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means23 (tb : Vec F S16x2000 .i32) (A0 : Vec F S100000x128 .f32) (q : ℕ) : Vec F S1000x128 .f32 :=
  fun x => Gen.k24_pay1 (gath24 (grid23.coords (pt23 q (x 0).val)) tb A0) (lane23 (x 1))

/-- What the body stores in the output window at the last row of block `q`: the means, rounded, times the weight, rounded. -/
def xBlk23 (tb : Vec F S16x2000 .i32) (A0 : Vec F S100000x128 .f32) (Wt : Vec F S128x128 .f32) (q : ℕ) : Vec F S1000x128 .f32 :=
  Gen.k24_pay2 (means23 tb A0 q) Wt

/-- The carried scratch before point `n`: its rows below `n % 1000` are the means of block `n / 1000`. -/
def RowsOK23 (tb : Vec F S16x2000 .i32) (A0 : Vec F S100000x128 .f32) (n : ℕ) (g : Vec F S1000x128 .f32) : Prop :=
  ∀ x : S1000x128.Idx, (x 0).val < n % 1000 → g x = means23 tb A0 (n / 1000) x

/-- At the first row of a block nothing is asked. -/
theorem rowsOK23_start (tb : Vec F S16x2000 .i32) (A0 : Vec F S100000x128 .f32) (n : ℕ) (hn : n % 1000 = 0) (g : Vec F S1000x128 .f32) :
    RowsOK23 tb A0 n g := fun x hx => absurd hx (by omega)

/-- One point's row store keeps the invariant's rows and adds its own: after the store at point `t` the rows up to
    `t % 1000` are means. -/
theorem rowAt23_means (tb : Vec F S16x2000 .i32) (A0 : Vec F S100000x128 .f32) (t : Fin grid23.N) (g : Vec F S1000x128 .f32)
    (hg : RowsOK23 tb A0 t.val g) (x : S1000x128.Idx) (hx : (x 0).val ≤ t.val % 1000) :
    row24 (grid23.coords t) tb A0 g x = means23 tb A0 (t.val / 1000) x := by
  by_cases h : (x 0).val = t.val % 1000
  · rw [row24_of_eq (grid23.coords t) tb A0 g x (by rw [rowAt23_coord]; exact h) (lane23 (x 1)) rfl]
    unfold means23
    rw [h, pt23_self]
  · rw [row24_of_ne (grid23.coords t) tb A0 g x (by rw [rowAt23_coord]; exact h)]
    exact hg x (by omega)

/-- Within a block the invariant steps. -/
theorem rowsOK23_step (tb : Vec F S16x2000 .i32) (A0 : Vec F S100000x128 .f32) (t : Fin grid23.N) (g : Vec F S1000x128 .f32)
    (hg : RowsOK23 tb A0 t.val g) : RowsOK23 tb A0 (t.val + 1) (row24 (grid23.coords t) tb A0 g) := by
  by_cases hl : t.val % 1000 = 999
  · exact rowsOK23_start _ _ _ (by omega) _
  · intro x hx
    have h1 : (t.val + 1) / 1000 = t.val / 1000 := by omega
    rw [h1]
    exact rowAt23_means tb A0 t g hg x (by omega)

/-- At the last row of a block the scratch, after the row store, is the block's means whatever it held before. -/
theorem rowAt23_last (tb : Vec F S16x2000 .i32) (A0 : Vec F S100000x128 .f32) (t : Fin grid23.N) (hl : t.val % 1000 = 999)
    (g : Vec F S1000x128 .f32) (hg : RowsOK23 tb A0 t.val g) :
    row24 (grid23.coords t) tb A0 g = means23 tb A0 (t.val / 1000) :=
  funext fun x => rowAt23_means tb A0 t g hg x (by have : (x 0).val < 1000 := (x 0).isLt; omega)

/-! ## The invariant -/

/-- The launch's operands that no window stages, as the body is handed them: its table, the feature array left in
    HBM, and its two scratch buffers — whole buffers. -/
abbrev tbM23 : Memref sig .tc .smem S16x2000 .i32 := Memref.whole main_v47
abbrev hbM23 : Memref sig .tc .hbm S100000x128 .f32 := Memref.whole main_arg0
abbrev scM23_0 : Memref sig .tc .vmem S1000x128 .f32 := Memref.whole cc23_scratch0
abbrev scM23_1 : Memref sig .tc .vmem S16x128 .f32 := Memref.whole cc23_scratch1

section Region
-- the TensorCore's buffer contents when the launch is entered, and the launch's table
variable (V : (c : Dev nD) → (b : Ref sig .tc) → Buf (Elt F) ((c : Thread nD τ).loc b)) (a : (pcfg23 (F := F)).Adm)

/-- The table and the feature array, as vectors. -/
abbrev tb23 : Vec F S16x2000 .i32 := a.1 0
abbrev A23 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ23 (c : Dev nD) (n : ℕ) : sProp 𝕄 :=
  iprop(owns (c : Thread nD τ) tbM23 fullShare (tb23 a)
    ∗ owns (c : Thread nD τ) hbM23 fullShare (A23 V c)
    ∗ (∃ g : Vec F S1000x128 .f32, ⌜RowsOK23 (tb23 a) (A23 V c) n g⌝ ∗ owns (c : Thread nD τ) scM23_0 fullShare g)
    ∗ (∃ d, owns (c : Thread nD τ) scM23_1 fullShare d)
    ∗ cells24 c cc23_scratch2
    ∗ (∃ r, prngReg c r)
    ∗ Pipeline.scopedRestBut (Ix := Unit) (Name := ℕ) (U := UC) (Lvl := ℕ) (Val := Elt F) spec23 c [cc23_scratch0, cc23_scratch1])

/-! ## The windows' blocks and the proof data -/

/-- Window `w`'s block at point `t`, read off its array as the launch finds it. -/
def iblk23 (c : Dev nD) (w : Fin (cfg23 a).W) (t : Fin (cfg23 a).N) :
    (((cfg23 a).win w).xblock ((cfg23 a).grid.coords t)).Idx → Elt F ((cfg23 a).win w).elt :=
  (((cfg23 a).win w).blk t).view.read (Elt F) (V c (Pipeline.arrRef spec23 w))

/-- The proof data of the launch on core `c`: the arrays as the launch finds them; after the body at point `t` the
    weight window at its block and the output window at the product for `t`'s block of rows (read only at the block's
    last row, where the body stores it); the invariant above; nothing owed; full shares. -/
def dat23 (c : Dev nD) : Dat τ (Elt F) Unit ℕ UC ℕ (cfg23 a) c where
  A w := V c (Pipeline.arrRef spec23 w)
  after w t := match w with
    | ⟨0, _⟩ => iblk23 V a c 0 t
    | ⟨1, _⟩ => xBlk23 (tb23 a) (A23 V c) (iblk23 V a c 0 t) (t.val / 1000)
  Φ n := Φ23 V a c n.val
  q _ := fullShare
  owed _ := 0

/-- The proof data's arrays are the entry contents. -/
theorem A_eq23 (c : Dev nD) (w : Fin (cfg23 a).W) : (dat23 V a c).A w = V c (Pipeline.arrRef spec23 w) := by
  dsimp only [dat23]

/-- What the body leaves, window by window. -/
theorem after23_0 (c : Dev nD) (t : Fin (cfg23 a).N) : (dat23 V a c).after 0 t = iblk23 V a c 0 t := by dsimp only [dat23]; rfl
theorem after23_1 (c : Dev nD) (t : Fin (cfg23 a).N) :
    (dat23 V a c).after 1 t = xBlk23 (tb23 a) (A23 V c) (iblk23 V a c 0 t) (t.val / 1000) := by dsimp only [dat23]; rfl

/-- The invariant and the tallies, at a point. -/
theorem Phi23_eq (c : Dev nD) (n : Fin ((cfg23 a).N + 1)) : (dat23 V a c).Φ n = Φ23 V a c n.val := by dsimp only [dat23]
theorem owed23_eq (c : Dev nD) (n : Fin ((cfg23 a).N + 1)) : (dat23 V a c).owed n = 0 := by dsimp only [dat23]

/-- The weight window holds its block at every point, fetched there or not: its block index never moves. -/
theorem before23_0 (c : Dev nD) (t : Fin (cfg23 a).N) (d) : (dat23 V a c).before 0 t d = iblk23 V a c 0 t :=
  ((dat23 V a c).before_in_eq_fetched 0 rfl (fun _ => rfl) (fun _ _ _ => rfl)
      (fun t => by rw [after23_0]; unfold Dat.blockOf iblk23; rw [A_eq23]; try rfl) t d).trans
    (by unfold Dat.fetched Dat.blockOf iblk23; rw [A_eq23]; try rfl)

/-- The output window is written back after the last row of each block of rows, and only there; -/
theorem flush23_1 (t : Fin (cfg23 a).N) : ((cfg23 a).win 1).flush t = decide (t.val % 1000 = 999) := by
  unfold Window.flush
  exact flushB23 t
/-- and it is idle at every other row. -/
theorem idle23_1 (t : Fin (cfg23 a).N) : (cfg23 a).idle 1 ((cfg23 a).grid.coords t) = !decide (t.val % 1000 = 999) := by
  show (!(k23_cond1 (grid23.coords t) == 1#1)) = _
  congr 1
  by_cases h : t.val % 1000 = 999
  · rw [decide_eq_true h, (cond23_iff t).2 h]; rfl
  · rw [decide_eq_false h]
    exact beq_false_of_ne fun e => h ((cond23_iff t).1 e)

end Region

/-! ## The body obligation -/

section Body
variable (V : (c : Dev nD) → (b : Ref sig .tc) → Buf (Elt F) ((c : Thread nD τ).loc b)) (a : (pcfg23 (F := F)).Adm)

/-- Each window's current staging memref at point `t`, spelled as the pipeline passes it, and its wholeness. -/
abbrev ms23_0 (t : Fin (cfg23 a).N) : Memref sig .tc .vmem S128x128 .f32 := spec23_0.stage ((cfg23 a).slots t 0)
abbrev hs23_0 (t : Fin (cfg23 a).N) : (ms23_0 a t).IsWhole := hstage23_0 (((cfg23 a).slots t 0).cast nbuf23_0)
abbrev ms23_1 (t : Fin (cfg23 a).N) : Memref sig .tc .vmem S1000x128 .f32 := spec23_1.stage ((cfg23 a).slots t 1)
abbrev hs23_1 (t : Fin (cfg23 a).N) : (ms23_1 a t).IsWhole := hstage23_1 (((cfg23 a).slots t 1).cast nbuf23_1)

/-- The launch's body function, under the name the runs are stated at. -/
theorem bodyFn23_eq : cc23__gather_agg_matmul_kernel (F := F) = gatherFn := rfl

/-- The kernel body at point `t`, on what the pipeline calls it with. -/
abbrev bodyAt23 (t : Fin (cfg23 a).N) : Prog (TpuEff nD τ sig (Elt F) Λ₀ .tc) PUnit :=
  cc23__gather_agg_matmul_kernel (grid23.coords t) tbM23 (Memref.isWhole_whole _) hbM23 (Memref.isWhole_whole _)
    (ms23_0 a t) (hs23_0 a t) (ms23_1 a t) (hs23_1 a t) scM23_0 (Memref.isWhole_whole _) scM23_1 (Memref.isWhole_whole _) cc23_scratch2

/-- What the body is called with at point `t`, the windows one by one, -/
def bodyPre23 (c : Dev nD) (t : Fin (cfg23 a).N) : sProp 𝕄 :=
  iprop((dat23 V a c).Φ t.castSucc ∗ (dat23 V a c).owesAt () t.castSucc
    ∗ (∃ d, owns (c : Thread nD τ) (ms23_0 a t) fullShare ((dat23 V a c).before 0 t d))
    ∗ (∃ d, owns (c : Thread nD τ) (ms23_1 a t) fullShare ((dat23 V a c).before 1 t d)))

/-- and what it returns: the output window as it was found where the point is idle for it, at the block's product
    at the last row of a block. -/
def bodyPost23 (c : Dev nD) (t : Fin (cfg23 a).N) : sProp 𝕄 :=
  iprop((dat23 V a c).Φ t.succ ∗ (dat23 V a c).owesAt () t.succ
    ∗ owns (c : Thread nD τ) (ms23_0 a t) fullShare ((dat23 V a c).after 0 t)
    ∗ (match (cfg23 a).idle 1 ((cfg23 a).grid.coords t) with
        | true =>
          match ((cfg23 a).win 1).flush t with
          | false => iprop(∃ d, owns (c : Thread nD τ) (ms23_1 a t) fullShare ((dat23 V a c).before 1 t d))
          | true => owns (c : Thread nD τ) (ms23_1 a t) fullShare ((dat23 V a c).after 1 t)
        | false => owns (c : Thread nD τ) (ms23_1 a t) fullShare ((dat23 V a c).after 1 t)))

/-- The body at any point. The weight window holds its block; the invariant hands the body its table, the feature
    array, both scratch buffers and its transfer cells, and takes them back with the carried scratch one row further
    (`rowsOK23_step`); at the last row of a block the product the body stores is the block's (`rowAt23_last`); the core's
    `owes` goes in at whatever the points before recorded and comes back with this point's waits. -/
theorem sound_body23 (hR : InRange23 a.1) (c : Dev nD) (t : Fin (cfg23 a).N) :
    bodyPre23 V a c t ⊢ wp frame (wpE (defs₀ (F := F)) Variants.none c none) Set.univ (bodyAt23 a t) (fun _ => bodyPost23 V a c t) := by
  unfold bodyPre23 bodyPost23 bodyAt23
  rw [flush23_1, idle23_1]
  simp only [before23_0]
  rw [after23_0, Phi23_eq, Phi23_eq, Fin.val_succ, Fin.coe_castSucc]
  unfold Dat.owesAt Pipeline.owesWithin
  rw [owed23_eq, owed23_eq]
  unfold Φ23
  rw [bodyFn23_eq]
  by_cases hl : t.val % 1000 = 999
  · -- the last row of a block
    rw [decide_eq_true hl, Bool.not_true]
    dsimp only
    rw [after23_1]
    unfold xBlk23
    iintro ⟨⟨Htb, Hhb, ⟨%g, %hg, Hs0⟩, Hs1, Hcells, Hreg, Hrest⟩, ⟨%W, -, HW⟩, ⟨%d0, H0⟩, ⟨%d1, H1⟩⟩
    rw [← rowAt23_last (tb23 a) (A23 V c) t hl g hg]
    iapply (run24_last c (grid23.coords t) tbM23 (Memref.isWhole_whole _) hbM23 (Memref.isWhole_whole _) (ms23_0 a t) (hs23_0 a t)
      (ms23_1 a t) (hs23_1 a t) scM23_0 (Memref.isWhole_whole _) scM23_1 (Memref.isWhole_whole _) cc23_scratch2
      ((cond23_iff t).2 hl) (tb23 a) hR (A23 V c) (iblk23 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK23_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k23_cond1 (grid23.coords t) ≠ 1#1 := fun e => hl ((cond23_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid23.coords t) tbM23 (Memref.isWhole_whole _) hbM23 (Memref.isWhole_whole _) (ms23_0 a t) (hs23_0 a t)
      (ms23_1 a t) (hs23_1 a t) scM23_0 (Memref.isWhole_whole _) scM23_1 (Memref.isWhole_whole _) cc23_scratch2
      hc (tb23 a) hR (A23 V c) (iblk23 V a c 0 t) g
      (owns (c : Thread nD τ) (ms23_1 a t) fullShare ((dat23 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK23_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation23 (hR : InRange23 a.1) (c : Dev nD) :
    BodyObligation (dat23 (F := F) V a c) (defs₀ (F := F)) Variants.none () Set.univ := fun t => by
  rw [bigSep_W23, bigSep_W23]
  exact sound_body23 V a hR c t

end Body

/-! ## The value: what the launch leaves in its output array -/

section Value
variable (V : (c : Dev nD) → (b : Ref sig .tc) → Buf (Elt F) ((c : Thread nD τ).loc b)) (a : (pcfg23 (F := F)).Adm)

/-- Entry `(r, l)` of a block of rows. -/
def cell23 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk23 (tb : Vec F S16x2000 .i32) (A0 : Vec F S100000x128 .f32) (Wt : Vec F S128x128 .f32) : Vec F S2000x128 .f32 :=
  fun y => xBlk23 tb A0 Wt ((y 0).val / 1000) (cell23 ((y 0).val % 1000) (Nat.mod_lt _ (by decide)) (y 1))

/-- The weight window's block is the whole weight, at every point: its block index is (0, 0). -/
theorem wblk23_eq (c : Dev nD) (t : Fin (cfg23 a).N) : iblk23 V a c 0 t = (V c main_arg1 : Vec F S128x128 .f32) := by
  funext x
  unfold iblk23
  rw [View.read_apply]
  refine (cast_eq _ _).trans (congrArg (V c main_arg1) (funext fun b => Fin.ext ?_))
  refine (((cfg23 a).win 0).rect_emb_val_of_index_zero t b ?_ x)
  match b with
  | ⟨0, _⟩ => rfl
  | ⟨1, _⟩ => rfl

/-- Where entry `x` of the output window's block at point `t` sits in the output array. -/
abbrev emb23 (t : Fin (cfg23 a).N) (x : S1000x128.Idx) : S2000x128.Idx := (((cfg23 a).win 1).blk t).view.emb x

theorem emb23_val (t : Fin (cfg23 a).N) (x : S1000x128.Idx) :
    (emb23 a t x 0).val = t.val / 1000 * 1000 + (x 0).val ∧ (emb23 a t x 1).val = (x 1).val := by
  have hix : ((cfg23 a).win 1).index t = ![t.val / 1000, 0] := idx23_1 t
  have e0 := ((cfg23 a).win 1).rect_emb_val t x (0 : Fin 2)
  have e1 := ((cfg23 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after23_chunk (c : Dev nD) (t : Fin (cfg23 a).N) (x : S1000x128.Idx) :
    (dat23 V a c).after 1 t x = xChunk23 (tb23 a) (A23 V c) (V c main_arg1) (emb23 a t x) := by
  obtain ⟨e0, e1⟩ := emb23_val a t x
  have hx0 : (x 0).val < 1000 := (x 0).isLt
  rw [after23_1, wblk23_eq]
  unfold xChunk23
  have hq : (emb23 a t x 0).val / 1000 = t.val / 1000 := by rw [e0]; omega
  have hcell : cell23 ((emb23 a t x 0).val % 1000) (Nat.mod_lt _ (by decide)) (emb23 a t x 1) = x := by
    funext b
    apply Fin.ext
    match b with
    | ⟨0, _⟩ =>
      show (emb23 a t x 0).val % 1000 = (x 0).val
      rw [e0]; omega
    | ⟨1, _⟩ => exact e1
  rw [hq, hcell]

/-- Two entries of the output array with the same coordinates are the same. -/
theorem idx23_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb23_cell (t : Fin (cfg23 a).N) (i : S2000x128.Idx) (ht : t.val / 1000 = (i 0).val / 1000) :
    emb23 a t (cell23 ((i 0).val % 1000) (Nat.mod_lt _ (by decide)) (i 1)) = i := by
  obtain ⟨e0, e1⟩ := emb23_val a t (cell23 ((i 0).val % 1000) (Nat.mod_lt _ (by decide)) (i 1))
  refine idx23_ext _ _ ?_ e1
  rw [e0, ht]
  show (i 0).val / 1000 * 1000 + (i 0).val % 1000 = (i 0).val
  omega

/-- Every entry of the output array lies in the block written back after the last row of its block of rows. -/
theorem cover23 (i : S2000x128.Idx) :
    ∃ t : Fin (cfg23 a).N, ((cfg23 a).win 1).flush t = true ∧ i ∈ (((cfg23 a).win 1).blk t).view.set := by
  have hi0 : (i 0).val < 2000 := (i 0).isLt
  have hN : (i 0).val / 1000 * 1000 + 999 < (cfg23 a).N := by rw [N23]; omega
  refine ⟨⟨(i 0).val / 1000 * 1000 + 999, hN⟩, ?_, ?_⟩
  · rw [flush23_1]; exact decide_eq_true (by show ((i 0).val / 1000 * 1000 + 999) % 1000 = 999; omega)
  · refine Finset.mem_map.mpr ⟨cell23 ((i 0).val % 1000) (Nat.mod_lt _ (by decide)) (i 1), Finset.mem_univ _, ?_⟩
    exact emb23_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out23 (c : Dev nD) :
    (dat23 V a c).arrAt 1 (cfg23 a).N = (xChunk23 (tb23 a) (A23 V c) (V c main_arg1) : Vec F S2000x128 .f32) :=
  (dat23 V a c).arrAt_eq_of_cover 1 _
    (fun t _ => funext fun x => (after23_chunk V a c t x).trans (cast_eq _ _).symm)
    (cover23 a)

end Value

/-! ## The invariant's two ends -/

section Ends
variable (V : (c : Dev nD) → (b : Ref sig .tc) → Buf (Elt F) ((c : Thread nD τ).loc b)) (a : (pcfg23 (F := F)).Adm)

/-- The body's own transfer cells as the launch's protocol lists them: the 16 cells of its semaphore operand. -/
def osem23 : Fin 16 → SemLoc sig := fun k => SemLoc.dma (cc23_scratch2.ix (Shape.ofLane k))
/-- They are scoped, distinct, and none is a window's. -/
theorem ownSemFacts23 : Pipeline.OwnSemFacts spec23 osem23 := by decide
/-- The cells at zero, listed, are the cells as the body names them. -/
theorem cells23_eq (c : Dev nD) :
    (Pipeline.ownSems0 (Ix := Unit) (Name := ℕ) (U := UC) (Lvl := ℕ) (Val := Elt F) (τ := τ) osem23 c : sProp 𝕄) = cells24 c cc23_scratch2 := by
  rw [Pipeline.ownSems0_eq_of_list c osem23 [0, 1, 2, 3, 4, 5, 6, 7, 8, 9, 10, 11, 12, 13, 14, 15] (by decide) (by decide)]; rfl

/-- The launch's one table, held. -/
theorem prefHeld23_eq (c : Dev nD) (pf : pre23.Contents (Elt F)) :
    (Pipeline.prefHeld pre23 c (fun _ => fullShare) pf : sProp 𝕄) = (((c : Thread nD τ).loc main_v47) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X23 (c : Dev nD) : sProp 𝕄 :=
  iprop((∃ r, prngReg c r) ∗ Pipeline.ownSems0 (Ix := Unit) (Name := ℕ) (U := UC) (Lvl := ℕ) (Val := Elt F) (τ := τ) osem23 c
    ∗ (((c : Thread nD τ).loc main_arg0) ↦{fullShare} V c main_arg0))
abbrev Y23 (c : Dev nD) : sProp 𝕄 :=
  iprop((∃ r, prngReg c r) ∗ (((c : Thread nD τ).loc main_arg0) ↦{fullShare} V c main_arg0)
    ∗ Pipeline.prefHeld pre23 c (fun _ => fullShare) a.1)

/-- THE FIRST POINT: the invariant from what the launch's entry sorts out. Nothing is asked of the carried scratch. -/
theorem Phi23_in (c : Dev nD) :
    iprop(X23 V c ∗ Pipeline.prefHeld pre23 c (fun _ => fullShare) a.1
        ∗ Pipeline.scopedRest (Ix := Unit) (Name := ℕ) (U := UC) (Lvl := ℕ) (Val := Elt F) spec23 c)
      ⊢ (dat23 V a c).Φ 0 := by
  rw [Phi23_eq]
  unfold Φ23 X23
  rw [scopedRest23_split, prefHeld23_eq, cells23_eq]
  simp only [tbM23, hbM23, scM23_0, scM23_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK23_start _ _ _ rfl _
  isplitl [Hs1]; · iexact Hs1
  isplitl [Hcells]; · iexact Hcells
  isplitl [Hreg]; · iexact Hreg
  iexact Hrest

/-- THE LAST POINT: the invariant gives back what it took. -/
theorem Phi23_out (c : Dev nD) :
    (dat23 V a c).Φ (Fin.last _)
      ⊢ iprop(Y23 V a c ∗ Pipeline.ownSems0 (Ix := Unit) (Name := ℕ) (U := UC) (Lvl := ℕ) (Val := Elt F) (τ := τ) osem23 c
        ∗ Pipeline.scopedRest (Ix := Unit) (Name := ℕ) (U := UC) (Lvl := ℕ) (Val := Elt F) spec23 c) := by
  rw [Phi23_eq]
  unfold Φ23 Y23
  rw [scopedRest23_split, prefHeld23_eq, cells23_eq]
  simp only [tbM23, hbM23, scM23_0, scM23_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G24Dat.lean ====
/-
  One of the program's 25 gather launches (pipeline 24; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KI.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N24 (a : (pcfg24 (F := F)).Adm) : (cfg24 a).N = 2000 := N_24

/-- The body's branch is taken at the last row of a block of rows, -/
theorem cond24_iff : ∀ t : Fin grid24.N, k24_cond1 (grid24.coords t) = 1#1 ↔ t.val % 1000 = 999 := by decide +kernel
/-- the row a point works on is its number modulo 1000, -/
theorem rowAt24_coord : ∀ t : Fin grid24.N, (grid24.coords t 1).val = t.val % 1000 := by decide +kernel
/-- its block of rows is its number divided by 1000, -/
theorem blockAt24_coord : ∀ t : Fin grid24.N, (grid24.coords t 0).val = t.val / 1000 := by decide +kernel
/-- and the output's block index moves after exactly those points (and the grid ends at one). -/
theorem flushB24 : ∀ t : Fin grid24.N,
    (decide (t.val + 1 = grid24.N) || decide (∃ h : t.val + 1 < grid24.N, cc24_transform_2 (grid24.coords ⟨t.val + 1, h⟩) ≠ cc24_transform_2 (grid24.coords t)))
      = decide (t.val % 1000 = 999) := by decide +kernel

/-- The output's block index at a point: the point's block of rows. -/
theorem idx24_1 : ∀ t : Fin grid24.N, cc24_transform_2 (grid24.coords t) = ![t.val / 1000, 0] := by decide +kernel

/-- Every word of the launch's table names a row of the feature array. -/
def InRange24 (pf : pre24.Contents (Elt F)) : Prop := ∀ x : S16x2000.Idx, ((pf 0 : Vec F S16x2000 .i32) x).toNat < 100000

/-! ## The values -/

/-- Lane `l` of a one-row vector. -/
def lane24 (l : Fin 128) : S1x128.Idx := fun a => ⟨if a.val = 0 then 0 else l.val, by
  match a with
  | ⟨0, _⟩ => exact Nat.one_pos
  | ⟨1, _⟩ => exact l.isLt⟩

theorem lane24_one (l : Fin 128) : (lane24 l 1).val = l.val := rfl

/-- The grid point of row `r` of block `q` (total: the point number is taken modulo the grid's size). -/
def pt24 (q : ℕ) (r : ℕ) : Fin grid24.N := ⟨(q * 1000 + r) % grid24.N, Nat.mod_lt _ (by decide)⟩

/-- Inside the grid the point's number is `1000 q + r`. -/
theorem pt24_val (q r : ℕ) (hq : q < 2) (hr : r < 1000) : (pt24 q r).val = q * 1000 + r := by
  show (q * 1000 + r) % grid24.N = q * 1000 + r
  rw [N_24]; omega

/-- A point is the point of its block and row. -/
theorem pt24_self (t : Fin grid24.N) : pt24 (t.val / 1000) (t.val % 1000) = t := by
  apply Fin.ext
  show (t.val / 1000 * 1000 + t.val % 1000) % grid24.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means24 (tb : Vec F S16x2000 .i32) (A0 : Vec F S100000x128 .f32) (q : ℕ) : Vec F S1000x128 .f32 :=
  fun x => Gen.k24_pay1 (gath24 (grid24.coords (pt24 q (x 0).val)) tb A0) (lane24 (x 1))

/-- What the body stores in the output window at the last row of block `q`: the means, rounded, times the weight, rounded. -/
def xBlk24 (tb : Vec F S16x2000 .i32) (A0 : Vec F S100000x128 .f32) (Wt : Vec F S128x128 .f32) (q : ℕ) : Vec F S1000x128 .f32 :=
  Gen.k24_pay2 (means24 tb A0 q) Wt

/-- The carried scratch before point `n`: its rows below `n % 1000` are the means of block `n / 1000`. -/
def RowsOK24 (tb : Vec F S16x2000 .i32) (A0 : Vec F S100000x128 .f32) (n : ℕ) (g : Vec F S1000x128 .f32) : Prop :=
  ∀ x : S1000x128.Idx, (x 0).val < n % 1000 → g x = means24 tb A0 (n / 1000) x

/-- At the first row of a block nothing is asked. -/
theorem rowsOK24_start (tb : Vec F S16x2000 .i32) (A0 : Vec F S100000x128 .f32) (n : ℕ) (hn : n % 1000 = 0) (g : Vec F S1000x128 .f32) :
    RowsOK24 tb A0 n g := fun x hx => absurd hx (by omega)

/-- One point's row store keeps the invariant's rows and adds its own: after the store at point `t` the rows up to
    `t % 1000` are means. -/
theorem rowAt24_means (tb : Vec F S16x2000 .i32) (A0 : Vec F S100000x128 .f32) (t : Fin grid24.N) (g : Vec F S1000x128 .f32)
    (hg : RowsOK24 tb A0 t.val g) (x : S1000x128.Idx) (hx : (x 0).val ≤ t.val % 1000) :
    row24 (grid24.coords t) tb A0 g x = means24 tb A0 (t.val / 1000) x := by
  by_cases h : (x 0).val = t.val % 1000
  · rw [row24_of_eq (grid24.coords t) tb A0 g x (by rw [rowAt24_coord]; exact h) (lane24 (x 1)) rfl]
    unfold means24
    rw [h, pt24_self]
  · rw [row24_of_ne (grid24.coords t) tb A0 g x (by rw [rowAt24_coord]; exact h)]
    exact hg x (by omega)

/-- Within a block the invariant steps. -/
theorem rowsOK24_step (tb : Vec F S16x2000 .i32) (A0 : Vec F S100000x128 .f32) (t : Fin grid24.N) (g : Vec F S1000x128 .f32)
    (hg : RowsOK24 tb A0 t.val g) : RowsOK24 tb A0 (t.val + 1) (row24 (grid24.coords t) tb A0 g) := by
  by_cases hl : t.val % 1000 = 999
  · exact rowsOK24_start _ _ _ (by omega) _
  · intro x hx
    have h1 : (t.val + 1) / 1000 = t.val / 1000 := by omega
    rw [h1]
    exact rowAt24_means tb A0 t g hg x (by omega)

/-- At the last row of a block the scratch, after the row store, is the block's means whatever it held before. -/
theorem rowAt24_last (tb : Vec F S16x2000 .i32) (A0 : Vec F S100000x128 .f32) (t : Fin grid24.N) (hl : t.val % 1000 = 999)
    (g : Vec F S1000x128 .f32) (hg : RowsOK24 tb A0 t.val g) :
    row24 (grid24.coords t) tb A0 g = means24 tb A0 (t.val / 1000) :=
  funext fun x => rowAt24_means tb A0 t g hg x (by have : (x 0).val < 1000 := (x 0).isLt; omega)

/-! ## The invariant -/

/-- The launch's operands that no window stages, as the body is handed them: its table, the feature array left in
    HBM, and its two scratch buffers — whole buffers. -/
abbrev tbM24 : Memref sig .tc .smem S16x2000 .i32 := Memref.whole main_v49
abbrev hbM24 : Memref sig .tc .hbm S100000x128 .f32 := Memref.whole main_arg0
abbrev scM24_0 : Memref sig .tc .vmem S1000x128 .f32 := Memref.whole cc24_scratch0
abbrev scM24_1 : Memref sig .tc .vmem S16x128 .f32 := Memref.whole cc24_scratch1

section Region
-- the TensorCore's buffer contents when the launch is entered, and the launch's table
variable (V : (c : Dev nD) → (b : Ref sig .tc) → Buf (Elt F) ((c : Thread nD τ).loc b)) (a : (pcfg24 (F := F)).Adm)

/-- The table and the feature array, as vectors. -/
abbrev tb24 : Vec F S16x2000 .i32 := a.1 0
abbrev A24 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ24 (c : Dev nD) (n : ℕ) : sProp 𝕄 :=
  iprop(owns (c : Thread nD τ) tbM24 fullShare (tb24 a)
    ∗ owns (c : Thread nD τ) hbM24 fullShare (A24 V c)
    ∗ (∃ g : Vec F S1000x128 .f32, ⌜RowsOK24 (tb24 a) (A24 V c) n g⌝ ∗ owns (c : Thread nD τ) scM24_0 fullShare g)
    ∗ (∃ d, owns (c : Thread nD τ) scM24_1 fullShare d)
    ∗ cells24 c cc24_scratch2
    ∗ (∃ r, prngReg c r)
    ∗ Pipeline.scopedRestBut (Ix := Unit) (Name := ℕ) (U := UC) (Lvl := ℕ) (Val := Elt F) spec24 c [cc24_scratch0, cc24_scratch1])

/-! ## The windows' blocks and the proof data -/

/-- Window `w`'s block at point `t`, read off its array as the launch finds it. -/
def iblk24 (c : Dev nD) (w : Fin (cfg24 a).W) (t : Fin (cfg24 a).N) :
    (((cfg24 a).win w).xblock ((cfg24 a).grid.coords t)).Idx → Elt F ((cfg24 a).win w).elt :=
  (((cfg24 a).win w).blk t).view.read (Elt F) (V c (Pipeline.arrRef spec24 w))

/-- The proof data of the launch on core `c`: the arrays as the launch finds them; after the body at point `t` the
    weight window at its block and the output window at the product for `t`'s block of rows (read only at the block's
    last row, where the body stores it); the invariant above; nothing owed; full shares. -/
def dat24 (c : Dev nD) : Dat τ (Elt F) Unit ℕ UC ℕ (cfg24 a) c where
  A w := V c (Pipeline.arrRef spec24 w)
  after w t := match w with
    | ⟨0, _⟩ => iblk24 V a c 0 t
    | ⟨1, _⟩ => xBlk24 (tb24 a) (A24 V c) (iblk24 V a c 0 t) (t.val / 1000)
  Φ n := Φ24 V a c n.val
  q _ := fullShare
  owed _ := 0

/-- The proof data's arrays are the entry contents. -/
theorem A_eq24 (c : Dev nD) (w : Fin (cfg24 a).W) : (dat24 V a c).A w = V c (Pipeline.arrRef spec24 w) := by
  dsimp only [dat24]

/-- What the body leaves, window by window. -/
theorem after24_0 (c : Dev nD) (t : Fin (cfg24 a).N) : (dat24 V a c).after 0 t = iblk24 V a c 0 t := by dsimp only [dat24]; rfl
theorem after24_1 (c : Dev nD) (t : Fin (cfg24 a).N) :
    (dat24 V a c).after 1 t = xBlk24 (tb24 a) (A24 V c) (iblk24 V a c 0 t) (t.val / 1000) := by dsimp only [dat24]; rfl

/-- The invariant and the tallies, at a point. -/
theorem Phi24_eq (c : Dev nD) (n : Fin ((cfg24 a).N + 1)) : (dat24 V a c).Φ n = Φ24 V a c n.val := by dsimp only [dat24]
theorem owed24_eq (c : Dev nD) (n : Fin ((cfg24 a).N + 1)) : (dat24 V a c).owed n = 0 := by dsimp only [dat24]

/-- The weight window holds its block at every point, fetched there or not: its block index never moves. -/
theorem before24_0 (c : Dev nD) (t : Fin (cfg24 a).N) (d) : (dat24 V a c).before 0 t d = iblk24 V a c 0 t :=
  ((dat24 V a c).before_in_eq_fetched 0 rfl (fun _ => rfl) (fun _ _ _ => rfl)
      (fun t => by rw [after24_0]; unfold Dat.blockOf iblk24; rw [A_eq24]; try rfl) t d).trans
    (by unfold Dat.fetched Dat.blockOf iblk24; rw [A_eq24]; try rfl)

/-- The output window is written back after the last row of each block of rows, and only there; -/
theorem flush24_1 (t : Fin (cfg24 a).N) : ((cfg24 a).win 1).flush t = decide (t.val % 1000 = 999) := by
  unfold Window.flush
  exact flushB24 t
/-- and it is idle at every other row. -/
theorem idle24_1 (t : Fin (cfg24 a).N) : (cfg24 a).idle 1 ((cfg24 a).grid.coords t) = !decide (t.val % 1000 = 999) := by
  show (!(k24_cond1 (grid24.coords t) == 1#1)) = _
  congr 1
  by_cases h : t.val % 1000 = 999
  · rw [decide_eq_true h, (cond24_iff t).2 h]; rfl
  · rw [decide_eq_false h]
    exact beq_false_of_ne fun e => h ((cond24_iff t).1 e)

end Region

/-! ## The body obligation -/

section Body
variable (V : (c : Dev nD) → (b : Ref sig .tc) → Buf (Elt F) ((c : Thread nD τ).loc b)) (a : (pcfg24 (F := F)).Adm)

/-- Each window's current staging memref at point `t`, spelled as the pipeline passes it, and its wholeness. -/
abbrev ms24_0 (t : Fin (cfg24 a).N) : Memref sig .tc .vmem S128x128 .f32 := spec24_0.stage ((cfg24 a).slots t 0)
abbrev hs24_0 (t : Fin (cfg24 a).N) : (ms24_0 a t).IsWhole := hstage24_0 (((cfg24 a).slots t 0).cast nbuf24_0)
abbrev ms24_1 (t : Fin (cfg24 a).N) : Memref sig .tc .vmem S1000x128 .f32 := spec24_1.stage ((cfg24 a).slots t 1)
abbrev hs24_1 (t : Fin (cfg24 a).N) : (ms24_1 a t).IsWhole := hstage24_1 (((cfg24 a).slots t 1).cast nbuf24_1)

/-- The launch's body function, under the name the runs are stated at. -/
theorem bodyFn24_eq : cc24__gather_agg_matmul_kernel (F := F) = gatherFn := rfl

/-- The kernel body at point `t`, on what the pipeline calls it with. -/
abbrev bodyAt24 (t : Fin (cfg24 a).N) : Prog (TpuEff nD τ sig (Elt F) Λ₀ .tc) PUnit :=
  cc24__gather_agg_matmul_kernel (grid24.coords t) tbM24 (Memref.isWhole_whole _) hbM24 (Memref.isWhole_whole _)
    (ms24_0 a t) (hs24_0 a t) (ms24_1 a t) (hs24_1 a t) scM24_0 (Memref.isWhole_whole _) scM24_1 (Memref.isWhole_whole _) cc24_scratch2

/-- What the body is called with at point `t`, the windows one by one, -/
def bodyPre24 (c : Dev nD) (t : Fin (cfg24 a).N) : sProp 𝕄 :=
  iprop((dat24 V a c).Φ t.castSucc ∗ (dat24 V a c).owesAt () t.castSucc
    ∗ (∃ d, owns (c : Thread nD τ) (ms24_0 a t) fullShare ((dat24 V a c).before 0 t d))
    ∗ (∃ d, owns (c : Thread nD τ) (ms24_1 a t) fullShare ((dat24 V a c).before 1 t d)))

/-- and what it returns: the output window as it was found where the point is idle for it, at the block's product
    at the last row of a block. -/
def bodyPost24 (c : Dev nD) (t : Fin (cfg24 a).N) : sProp 𝕄 :=
  iprop((dat24 V a c).Φ t.succ ∗ (dat24 V a c).owesAt () t.succ
    ∗ owns (c : Thread nD τ) (ms24_0 a t) fullShare ((dat24 V a c).after 0 t)
    ∗ (match (cfg24 a).idle 1 ((cfg24 a).grid.coords t) with
        | true =>
          match ((cfg24 a).win 1).flush t with
          | false => iprop(∃ d, owns (c : Thread nD τ) (ms24_1 a t) fullShare ((dat24 V a c).before 1 t d))
          | true => owns (c : Thread nD τ) (ms24_1 a t) fullShare ((dat24 V a c).after 1 t)
        | false => owns (c : Thread nD τ) (ms24_1 a t) fullShare ((dat24 V a c).after 1 t)))

/-- The body at any point. The weight window holds its block; the invariant hands the body its table, the feature
    array, both scratch buffers and its transfer cells, and takes them back with the carried scratch one row further
    (`rowsOK24_step`); at the last row of a block the product the body stores is the block's (`rowAt24_last`); the core's
    `owes` goes in at whatever the points before recorded and comes back with this point's waits. -/
theorem sound_body24 (hR : InRange24 a.1) (c : Dev nD) (t : Fin (cfg24 a).N) :
    bodyPre24 V a c t ⊢ wp frame (wpE (defs₀ (F := F)) Variants.none c none) Set.univ (bodyAt24 a t) (fun _ => bodyPost24 V a c t) := by
  unfold bodyPre24 bodyPost24 bodyAt24
  rw [flush24_1, idle24_1]
  simp only [before24_0]
  rw [after24_0, Phi24_eq, Phi24_eq, Fin.val_succ, Fin.coe_castSucc]
  unfold Dat.owesAt Pipeline.owesWithin
  rw [owed24_eq, owed24_eq]
  unfold Φ24
  rw [bodyFn24_eq]
  by_cases hl : t.val % 1000 = 999
  · -- the last row of a block
    rw [decide_eq_true hl, Bool.not_true]
    dsimp only
    rw [after24_1]
    unfold xBlk24
    iintro ⟨⟨Htb, Hhb, ⟨%g, %hg, Hs0⟩, Hs1, Hcells, Hreg, Hrest⟩, ⟨%W, -, HW⟩, ⟨%d0, H0⟩, ⟨%d1, H1⟩⟩
    rw [← rowAt24_last (tb24 a) (A24 V c) t hl g hg]
    iapply (run24_last c (grid24.coords t) tbM24 (Memref.isWhole_whole _) hbM24 (Memref.isWhole_whole _) (ms24_0 a t) (hs24_0 a t)
      (ms24_1 a t) (hs24_1 a t) scM24_0 (Memref.isWhole_whole _) scM24_1 (Memref.isWhole_whole _) cc24_scratch2
      ((cond24_iff t).2 hl) (tb24 a) hR (A24 V c) (iblk24 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK24_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k24_cond1 (grid24.coords t) ≠ 1#1 := fun e => hl ((cond24_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid24.coords t) tbM24 (Memref.isWhole_whole _) hbM24 (Memref.isWhole_whole _) (ms24_0 a t) (hs24_0 a t)
      (ms24_1 a t) (hs24_1 a t) scM24_0 (Memref.isWhole_whole _) scM24_1 (Memref.isWhole_whole _) cc24_scratch2
      hc (tb24 a) hR (A24 V c) (iblk24 V a c 0 t) g
      (owns (c : Thread nD τ) (ms24_1 a t) fullShare ((dat24 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK24_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation24 (hR : InRange24 a.1) (c : Dev nD) :
    BodyObligation (dat24 (F := F) V a c) (defs₀ (F := F)) Variants.none () Set.univ := fun t => by
  rw [bigSep_W24, bigSep_W24]
  exact sound_body24 V a hR c t

end Body

/-! ## The value: what the launch leaves in its output array -/

section Value
variable (V : (c : Dev nD) → (b : Ref sig .tc) → Buf (Elt F) ((c : Thread nD τ).loc b)) (a : (pcfg24 (F := F)).Adm)

/-- Entry `(r, l)` of a block of rows. -/
def cell24 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk24 (tb : Vec F S16x2000 .i32) (A0 : Vec F S100000x128 .f32) (Wt : Vec F S128x128 .f32) : Vec F S2000x128 .f32 :=
  fun y => xBlk24 tb A0 Wt ((y 0).val / 1000) (cell24 ((y 0).val % 1000) (Nat.mod_lt _ (by decide)) (y 1))

/-- The weight window's block is the whole weight, at every point: its block index is (0, 0). -/
theorem wblk24_eq (c : Dev nD) (t : Fin (cfg24 a).N) : iblk24 V a c 0 t = (V c main_arg1 : Vec F S128x128 .f32) := by
  funext x
  unfold iblk24
  rw [View.read_apply]
  refine (cast_eq _ _).trans (congrArg (V c main_arg1) (funext fun b => Fin.ext ?_))
  refine (((cfg24 a).win 0).rect_emb_val_of_index_zero t b ?_ x)
  match b with
  | ⟨0, _⟩ => rfl
  | ⟨1, _⟩ => rfl

/-- Where entry `x` of the output window's block at point `t` sits in the output array. -/
abbrev emb24 (t : Fin (cfg24 a).N) (x : S1000x128.Idx) : S2000x128.Idx := (((cfg24 a).win 1).blk t).view.emb x

theorem emb24_val (t : Fin (cfg24 a).N) (x : S1000x128.Idx) :
    (emb24 a t x 0).val = t.val / 1000 * 1000 + (x 0).val ∧ (emb24 a t x 1).val = (x 1).val := by
  have hix : ((cfg24 a).win 1).index t = ![t.val / 1000, 0] := idx24_1 t
  have e0 := ((cfg24 a).win 1).rect_emb_val t x (0 : Fin 2)
  have e1 := ((cfg24 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after24_chunk (c : Dev nD) (t : Fin (cfg24 a).N) (x : S1000x128.Idx) :
    (dat24 V a c).after 1 t x = xChunk24 (tb24 a) (A24 V c) (V c main_arg1) (emb24 a t x) := by
  obtain ⟨e0, e1⟩ := emb24_val a t x
  have hx0 : (x 0).val < 1000 := (x 0).isLt
  rw [after24_1, wblk24_eq]
  unfold xChunk24
  have hq : (emb24 a t x 0).val / 1000 = t.val / 1000 := by rw [e0]; omega
  have hcell : cell24 ((emb24 a t x 0).val % 1000) (Nat.mod_lt _ (by decide)) (emb24 a t x 1) = x := by
    funext b
    apply Fin.ext
    match b with
    | ⟨0, _⟩ =>
      show (emb24 a t x 0).val % 1000 = (x 0).val
      rw [e0]; omega
    | ⟨1, _⟩ => exact e1
  rw [hq, hcell]

/-- Two entries of the output array with the same coordinates are the same. -/
theorem idx24_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb24_cell (t : Fin (cfg24 a).N) (i : S2000x128.Idx) (ht : t.val / 1000 = (i 0).val / 1000) :
    emb24 a t (cell24 ((i 0).val % 1000) (Nat.mod_lt _ (by decide)) (i 1)) = i := by
  obtain ⟨e0, e1⟩ := emb24_val a t (cell24 ((i 0).val % 1000) (Nat.mod_lt _ (by decide)) (i 1))
  refine idx24_ext _ _ ?_ e1
  rw [e0, ht]
  show (i 0).val / 1000 * 1000 + (i 0).val % 1000 = (i 0).val
  omega

/-- Every entry of the output array lies in the block written back after the last row of its block of rows. -/
theorem cover24 (i : S2000x128.Idx) :
    ∃ t : Fin (cfg24 a).N, ((cfg24 a).win 1).flush t = true ∧ i ∈ (((cfg24 a).win 1).blk t).view.set := by
  have hi0 : (i 0).val < 2000 := (i 0).isLt
  have hN : (i 0).val / 1000 * 1000 + 999 < (cfg24 a).N := by rw [N24]; omega
  refine ⟨⟨(i 0).val / 1000 * 1000 + 999, hN⟩, ?_, ?_⟩
  · rw [flush24_1]; exact decide_eq_true (by show ((i 0).val / 1000 * 1000 + 999) % 1000 = 999; omega)
  · refine Finset.mem_map.mpr ⟨cell24 ((i 0).val % 1000) (Nat.mod_lt _ (by decide)) (i 1), Finset.mem_univ _, ?_⟩
    exact emb24_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out24 (c : Dev nD) :
    (dat24 V a c).arrAt 1 (cfg24 a).N = (xChunk24 (tb24 a) (A24 V c) (V c main_arg1) : Vec F S2000x128 .f32) :=
  (dat24 V a c).arrAt_eq_of_cover 1 _
    (fun t _ => funext fun x => (after24_chunk V a c t x).trans (cast_eq _ _).symm)
    (cover24 a)

end Value

/-! ## The invariant's two ends -/

section Ends
variable (V : (c : Dev nD) → (b : Ref sig .tc) → Buf (Elt F) ((c : Thread nD τ).loc b)) (a : (pcfg24 (F := F)).Adm)

/-- The body's own transfer cells as the launch's protocol lists them: the 16 cells of its semaphore operand. -/
def osem24 : Fin 16 → SemLoc sig := fun k => SemLoc.dma (cc24_scratch2.ix (Shape.ofLane k))
/-- They are scoped, distinct, and none is a window's. -/
theorem ownSemFacts24 : Pipeline.OwnSemFacts spec24 osem24 := by decide
/-- The cells at zero, listed, are the cells as the body names them. -/
theorem cells24_eq (c : Dev nD) :
    (Pipeline.ownSems0 (Ix := Unit) (Name := ℕ) (U := UC) (Lvl := ℕ) (Val := Elt F) (τ := τ) osem24 c : sProp 𝕄) = cells24 c cc24_scratch2 := by
  rw [Pipeline.ownSems0_eq_of_list c osem24 [0, 1, 2, 3, 4, 5, 6, 7, 8, 9, 10, 11, 12, 13, 14, 15] (by decide) (by decide)]; rfl

/-- The launch's one table, held. -/
theorem prefHeld24_eq (c : Dev nD) (pf : pre24.Contents (Elt F)) :
    (Pipeline.prefHeld pre24 c (fun _ => fullShare) pf : sProp 𝕄) = (((c : Thread nD τ).loc main_v49) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X24 (c : Dev nD) : sProp 𝕄 :=
  iprop((∃ r, prngReg c r) ∗ Pipeline.ownSems0 (Ix := Unit) (Name := ℕ) (U := UC) (Lvl := ℕ) (Val := Elt F) (τ := τ) osem24 c
    ∗ (((c : Thread nD τ).loc main_arg0) ↦{fullShare} V c main_arg0))
abbrev Y24 (c : Dev nD) : sProp 𝕄 :=
  iprop((∃ r, prngReg c r) ∗ (((c : Thread nD τ).loc main_arg0) ↦{fullShare} V c main_arg0)
    ∗ Pipeline.prefHeld pre24 c (fun _ => fullShare) a.1)

/-- THE FIRST POINT: the invariant from what the launch's entry sorts out. Nothing is asked of the carried scratch. -/
theorem Phi24_in (c : Dev nD) :
    iprop(X24 V c ∗ Pipeline.prefHeld pre24 c (fun _ => fullShare) a.1
        ∗ Pipeline.scopedRest (Ix := Unit) (Name := ℕ) (U := UC) (Lvl := ℕ) (Val := Elt F) spec24 c)
      ⊢ (dat24 V a c).Φ 0 := by
  rw [Phi24_eq]
  unfold Φ24 X24
  rw [scopedRest24_split, prefHeld24_eq, cells24_eq]
  simp only [tbM24, hbM24, scM24_0, scM24_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK24_start _ _ _ rfl _
  isplitl [Hs1]; · iexact Hs1
  isplitl [Hcells]; · iexact Hcells
  isplitl [Hreg]; · iexact Hreg
  iexact Hrest

/-- THE LAST POINT: the invariant gives back what it took. -/
theorem Phi24_out (c : Dev nD) :
    (dat24 V a c).Φ (Fin.last _)
      ⊢ iprop(Y24 V a c ∗ Pipeline.ownSems0 (Ix := Unit) (Name := ℕ) (U := UC) (Lvl := ℕ) (Val := Elt F) (τ := τ) osem24 c
        ∗ Pipeline.scopedRest (Ix := Unit) (Name := ℕ) (U := UC) (Lvl := ℕ) (Val := Elt F) spec24 c) := by
  rw [Phi24_eq]
  unfold Φ24 Y24
  rw [scopedRest24_split, prefHeld24_eq, cells24_eq]
  simp only [tbM24, hbM24, scM24_0, scM24_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.KernelIdeal.Hand

end
-- ==== Proof.KI.G25Body.lean ====
/-
  The statistics kernel's body (the program's twenty-sixth pallas_call: column sums and column sums of squares of the
  [50000,128] activations, ten row blocks of 5000 rows accumulated into one [2,128] block) on any pair of whole staging
  buffers, at any float instance. At the first row block the accumulator is reset to zero, read back, and the block's
  two column reductions are added to it; at every later block they are added to what the accumulator already holds. Each
  of the two cases is run once; what the accumulator's buffer ends holding is read off the one store that covers it.
-/
import proofs.«403631_j48275432407145_1_alg».proof.Proof.KI.Base
import proofs.«403631_j48275432407145_1_alg».proof.Proof.Gen.KernelIdeal.Skeleton
import proofs.«403631_j48275432407145_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of the row blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- The body's reset test `program_id == 0`, from the grid coordinates, as the body spells it. -/
abbrev cond25 (i : grid25.Coords) : Prop :=
  (Scalar.cmpi .ne (Scalar.extui (Scalar.cmpi .eq (BitVec.ofNat 32 (i 0).val) 0#32)) 0#32) = 1#1

/-- It holds at the first of the ten row blocks only — decided over the grid. -/
theorem hcond25 : ∀ t : Fin cfg25.N, cond25 (grid25.coords t) ↔ t.val = 0 :=
  (by decide +kernel : ∀ t : Fin grid25.N, cond25 (grid25.coords t) ↔ t.val = 0)

/-- The zero offsets of a two-axis block, as a function. -/
theorem zeroOff2 : (![0, 0] : Fin 2 → Nat) = fun _ => 0 := funext fun a => by fin_cases a <;> rfl

set_option maxHeartbeats 1000000 in
/-- AT A LATER ROW BLOCK (the reset test fails): on whole buffers, the row block's at `x` and the accumulator's at `acc`,
    the body leaves the row block as it was and the accumulator at `acc` plus the block's column sums over its column
    sums of squares — its one store covers the accumulator, and both of its loads read whole buffers. -/
theorem stats_later (c : Dev nD) (E : Set ℕ) (i : grid25.Coords) (arg1 : Memref sig .tc .vmem S5000x128 .f32) (harg1 : arg1.IsWhole)
    (arg2 : Memref sig .tc .vmem S2x128 .f32) (harg2 : arg2.IsWhole) (hc : ¬cond25 i)
    (x : Vec F S5000x128 .f32) (acc : Vec F S2x128 .f32) (K : PUnit → sProp 𝕄) :
    iprop(owns (c : Thread nD τ) arg1 fullShare x ∗ owns (c : Thread nD τ) arg2 fullShare acc
        ∗ (iprop(owns (c : Thread nD τ) arg1 fullShare x ∗ owns (c : Thread nD τ) arg2 fullShare (k25_pay2 x acc)) -∗ K ⟨⟩))
      ⊢ wp frame (wpE (defs₀ (F := F)) Variants.none c none) E (cc25__stats_kernel i arg1 harg1 arg2 harg2) K := by
  simp only [cc25__stats_kernel_eq_skeleton]; unfold cc25__stats_kernel_skel
  unfold owns
  iintro ⟨⟨%f0, %hf0, H0⟩, ⟨%f1, %hf1, H1⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero zeroOff2 inb_S2x128_S2x128_0_0 y⟩),
    View.canon_unit_zero zeroOff2]
  simp only [View.readAt_eq_ld, hf0, hf1, View.ld_unit_zero (S := S5000x128) zeroOff2, View.ld_unit_zero (S := S2x128) zeroOff2]

set_option maxHeartbeats 1000000 in
/-- AT THE FIRST ROW BLOCK (the reset test holds): whatever the accumulator's buffer held, the body stores the zero block
    there, reads it back, and leaves zero plus the block's column sums over its column sums of squares. -/
theorem stats_first (c : Dev nD) (E : Set ℕ) (i : grid25.Coords) (arg1 : Memref sig .tc .vmem S5000x128 .f32) (harg1 : arg1.IsWhole)
    (arg2 : Memref sig .tc .vmem S2x128 .f32) (harg2 : arg2.IsWhole) (hc : cond25 i)
    (x : Vec F S5000x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (k25_pay2 x (k25_pay1 (F := F)))) -∗ K ⟨⟩))
      ⊢ wp frame (wpE (defs₀ (F := F)) Variants.none c none) E (cc25__stats_kernel i arg1 harg1 arg2 harg2) K := by
  simp only [cc25__stats_kernel_eq_skeleton]; unfold cc25__stats_kernel_skel
  unfold owns
  iintro ⟨⟨%f0, %hf0, H0⟩, ⟨%d1, %f1, -, H1⟩, Hk⟩
  obtain rfl := harg1.eq_unread hf0
  sl_exec (disch := first | exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (fun y => ⟨_, List.mem_cons_self, View.mem_set_unit_zero zeroOff2 inb_S2x128_S2x128_0_0 y⟩),
    View.canon_cons_unit_zero zeroOff2, View.readCov_unit_zero _ zeroOff2]
  simp only [View.readAt_eq_ld, hf0, View.ld_unit_zero (S := S5000x128) zeroOff2]

end Cert.KernelIdeal.Hand

end
-- ==== Proof.KI.G25Dat.lean ====
/-
  The statistics pipeline (the program's twenty-sixth pallas_call) as proof data, at any float instance and any contents
  `V` of the TensorCore's buffers when the region is entered: what each window's staging buffer holds after the body at each
  of the ten row blocks, the body obligation, and THE VALUE — the [2,128] statistics array ends holding the running
  statistics after the last row block: zero plus block 0's column sums over its column sums of squares, then each later
  block's added in block order, every addition and reduction the body's own (the skeleton's payloads).
  The accumulator's block index never moves: its buffer is reset at the first block, read back and added into at every
  block, and written back once, after the last; that one write-back overwrites the whole array.
-/
import proofs.«403631_j48275432407145_1_alg».proof.Proof.KI.G25Body

-- membership in a rectangle of the row blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

-- the TensorCore's buffer contents when the region is entered
variable (V : (c : Dev nD) → (b : Ref sig .tc) → Buf (Elt F) ((c : Thread nD τ).loc b))

/-! ## The row blocks and the running statistics -/

/-- Row block `t` of the activations `X` (rows `5000 t … 5000 t + 4999`), read through the input window's view. -/
def rows25 {c : Dev nD} (X : Buf (Elt F) ((c : Thread nD τ).loc main_v53)) (t : Fin cfg25.N) : Vec F S5000x128 .f32 :=
  ((cfg25.win 0).blk t).view.read (Elt F) X

/-- The running statistics after row block `n`: zero plus block 0's column sums over its column sums of squares, then
    each later block's added in block order — the body's own additions, in the body's own order. -/
def partial25 {c : Dev nD} (X : Buf (Elt F) ((c : Thread nD τ).loc main_v53)) : (n : ℕ) → n < cfg25.N → Vec F S2x128 .f32
  | 0, h => k25_pay2 (rows25 X ⟨0, h⟩) (k25_pay1 (F := F))
  | n + 1, h => k25_pay2 (rows25 X ⟨n + 1, h⟩) (partial25 X n (Nat.lt_of_succ_lt h))

/-- THE STATISTICS of the activations `X`: the running statistics after the last of the ten row blocks. -/
def statsOf {c : Dev nD} (X : Buf (Elt F) ((c : Thread nD τ).loc main_v53)) : Buf (Elt F) ((c : Thread nD τ).loc main_v54) :=
  partial25 X 9 (by rw [show cfg25.N = 10 from N_25]; decide)

theorem partial25_first {c : Dev nD} (X : Buf (Elt F) ((c : Thread nD τ).loc main_v53)) (t : Fin cfg25.N) (h0 : t.val = 0) :
    partial25 X t.val t.isLt = k25_pay2 (rows25 X t) (k25_pay1 (F := F)) := by
  obtain ⟨n, hn⟩ := t
  cases n with
  | zero => rfl
  | succ n => exact absurd h0 (Nat.succ_ne_zero n)

theorem partial25_later {c : Dev nD} (X : Buf (Elt F) ((c : Thread nD τ).loc main_v53)) (t : Fin cfg25.N) (h0 : t.val ≠ 0) :
    partial25 X t.val t.isLt
      = k25_pay2 (rows25 X t) (partial25 X (t.val - 1) (Nat.lt_of_le_of_lt (Nat.sub_le _ _) t.isLt)) := by
  obtain ⟨n, hn⟩ := t
  cases n with
  | zero => exact absurd rfl h0
  | succ n => rfl

/-! ## The pipeline's proof data -/

/-- The proof data of the statistics pipeline on core `c`: the arrays as the region finds them; after the body at row
    block `t` the input's buffer at the block and the accumulator's at the running statistics; the invariant the scoped
    rest and the generator register, untouched; nothing owed; full shares. -/
def dat25 (c : Dev nD) : Dat τ (Elt F) Unit ℕ UC ℕ cfg25 c where
  A w := V c (Pipeline.arrRef spec25 w)
  after w t := match w with
    | ⟨0, _⟩ => rows25 (V c main_v53) t
    | ⟨1, _⟩ => partial25 (V c main_v53) t.val t.isLt
  Φ _ := Pipeline.ΦA spec25 c
  q _ := fullShare
  owed _ := 0

theorem A_eq25 (c : Dev nD) (w : Fin cfg25.W) : (dat25 V c).A w = V c (Pipeline.arrRef spec25 w) := by
  dsimp only [dat25]

theorem after25_0 (c : Dev nD) (t : Fin cfg25.N) : (dat25 V c).after 0 t = rows25 (V c main_v53) t := by dsimp only [dat25]
theorem after25_1 (c : Dev nD) (t : Fin cfg25.N) : (dat25 V c).after 1 t = partial25 (V c main_v53) t.val t.isLt := by
  dsimp only [dat25]

/-- The block a fetch at row block `t` reads off the entry contents is `rows25` of them. -/
theorem fetched25 (c : Dev nD) (t : Fin cfg25.N) : (dat25 V c).blockOf 0 t = rows25 (V c main_v53) t := by
  unfold Dat.blockOf rows25; rw [A_eq25]

/-- The input's current staging buffer holds its row block at every point: the body leaves the block in place, the
    window is never idle and never cut, so fetched there or not the buffer holds what a fetch there reads. -/
theorem before25_0 (c : Dev nD) (t : Fin cfg25.N) (d) : (dat25 V c).before 0 t d = rows25 (V c main_v53) t :=
  ((dat25 V c).before_in_eq_fetched 0 rfl (fun _ => rfl) (fun _ _ _ => rfl)
    (fun u => (after25_0 V c u).trans (fetched25 V c u).symm) t d).trans (fetched25 V c t)

/-- After the first row block the accumulator's buffer holds what the body left at the block before: it is written back
    after the last block only. -/
theorem before25_1 (c : Dev nD) (t : Fin cfg25.N) (h0 : t.val ≠ 0) (d) :
    (dat25 V c).before 1 t d = partial25 (V c main_v53) (t.val - 1) (Nat.lt_of_le_of_lt (Nat.sub_le _ _) t.isLt) := by
  have hN : t.val < 10 := lt_of_lt_of_eq t.isLt (show cfg25.N = 10 from N_25)
  rw [Dat.before_out_kept _ 1 rfl t h0 (Bool.eq_false_iff.mpr fun h => by have := (flush25_1 _).mp h; dsimp only at this; omega)
    (fun _ => rfl) (fun _ _ => rfl)]
  dsimp only [dat25]

/-! ## The body obligation, at a generic point -/

/-- What the body is called with at row block `t`, -/
def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d)))

/-- and what it returns. -/
def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t))

set_option maxHeartbeats 800000 in
/-- The body at any row block: the input's buffer holds the block; at the first block the accumulator's buffer holds
    anything and the reset case applies, at a later one it holds the running statistics of the block before and the
    accumulating case applies; the invariant passes through unread; the core owes nothing throughout. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0]
  rw [show (dat25 V c).Φ t.succ = (dat25 V c).Φ t.castSucc from rfl,
    show (dat25 V c).owesAt () t.succ = (dat25 V c).owesAt () t.castSucc from rfl,
    after25_0, after25_1]
  by_cases h0 : t.val = 0
  · rw [partial25_first _ t h0]
    iintro ⟨HΦ, Ho, ⟨%d0, H0⟩, ⟨%d1, H1⟩⟩
    iapply (stats_first c Set.univ (grid25.coords t) _ _ _ _ ((hcond25 t).mpr h0) (rows25 (V c main_v53) t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [partial25_later _ t h0]
    simp only [before25_1 V c t h0]
    iintro ⟨HΦ, Ho, ⟨%d0, H0⟩, ⟨%d1, H1⟩⟩
    iapply (stats_later c Set.univ (grid25.coords t) _ _ _ _ (fun h => h0 ((hcond25 t).mp h)) (rows25 (V c main_v53) t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every row block. -/
theorem body_obligation25 (c : Dev nD) : BodyObligation (dat25 (F := F) V c) (defs₀ (F := F)) Variants.none () Set.univ := fun t => by
  rw [bigSep_W25, bigSep_W25]
  exact sound_body25 V c t

/-! ## What the two arrays hold after the run -/

/-- The activations are only read. -/
theorem in25 (c : Dev nD) : (dat25 V c).arrAt 0 cfg25.N = V c main_v53 :=
  ((dat25 V c).arrAt_in 0 rfl _).trans (A_eq25 V c 0)

/-- The accumulator's block index is (0, 0) at every row block: its offsets in the statistics array are zero. -/
theorem accOff25 (t : Fin cfg25.N) : (fun a => win25_1.index t a * main_v54.ty.shape.size a) = fun _ => 0 :=
  funext fun a => by
    have h : win25_1.index t a = 0 := by
      rcases fin_N25 t with rfl | rfl | rfl | rfl | rfl | rfl | rfl | rfl | rfl | rfl <;> fin_cases a <;> rfl
    rw [h, Nat.zero_mul]

/-- What the write-back after the last row block writes: the running statistics after that block, all of them (the
    accumulator's block is the whole [2,128] array, uncut). -/
theorem lastFlushed25 (c : Dev nD) : (dat25 V c).flushed 1 t25_9 = statsOf (V c main_v53) := by
  show (cfg25.win 1).cut (grid25.coords t25_9) ((dat25 V c).after 1 t25_9) = _
  rw [after25_1]; rfl

/-- THE VALUE: the statistics array ends holding the running statistics after the last row block. The array is written
    once, after block 9, and that write-back overwrites all of it: a write through zero offsets of the array's own sizes
    leaves the payload, whatever the array held. -/
theorem out25 (c : Dev nD) : (dat25 V c).arrAt 1 cfg25.N = statsOf (V c main_v53) := by
  have hlast : cfg25.N = t25_9.val + 1 := N_25
  rw [hlast, Dat.arrAt_succ, if_pos ((flush25_1 t25_9).mpr rfl), lastFlushed25]
  exact Memref.write_access_unit_zero_univ (Elt F) main_v54 (accOff25 t25_9)
    (fun a => by rw [congrFun (accOff25 t25_9) a]; simp) _ _

end Cert.KernelIdeal.Hand

end
-- ==== Proof.KI.G26Body.lean ====
/-
  The normalisation kernel of the last launch, at one grid point: the body reads its block `x` of the aggregated
  features (5000 rows of 128 columns), the row `s` of per-column scales and the row `b` of per-column biases, and
  overwrites its output block with `leaky (x * s + b)`, where `leaky y` is `y` when `y ≥ 0` and
  `0.01 * y` otherwise, every operation elementwise with `s` and `b` repeated down the rows.
  This module states what the body leaves in the output block as a function of the three blocks it reads, and
  proves the body's triple at any float instance: the three inputs are handed back as found, the output holds that
  function of them whatever it held before.
-/
import proofs.«403631_j48275432407145_1_alg».proof.Proof.KI.Base
import proofs.«403631_j48275432407145_1_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-- The whole (5000,128) block: the one rectangle through which the body reads its input block and writes its
    output block. -/
abbrev rBlk : Rect S5000x128 := Rect.unit (s := S5000x128) ![0, 0] S5000x128.size inb_S5000x128_S5000x128_0_0

/-- The whole (1,128) row of per-column coefficients (the scales, the biases). -/
abbrev rRow : Rect S1x128 := Rect.unit (s := S1x128) ![0, 0] S1x128.size inb_S1x128_S1x128_0_0

/-- What the body leaves in the output block, from the input block `x`, the scales `s` and the biases `b`:
    its single store, of the rectified affine image of `x`, laid over the block. -/
def bnBlock (x : Vec F S5000x128 .f32) (s b : Vec F S1x128 .f32) : Vec F S5000x128 .f32 :=
  View.canon [⟨rBlk, k26_pay1 (View.ld x rBlk) (View.ld s rRow) (View.ld b rRow)⟩]

/-- The single store is of the whole block, so every index of the block is under it. -/
theorem cover_bnBlock (p : Vec F S5000x128 .f32) (y : S5000x128.Idx) :
    ∃ pc ∈ ([⟨rBlk, p⟩] : List (View.Piece (Elt F) S5000x128 .f32)), y ∈ pc.1.set :=
  View.cover_of_tiled [⟨rBlk, p⟩] S5000x128.size (by rfl) y

set_option maxHeartbeats 1000000 in
/-- The body on whole buffers: the input block at `x`, the scales at `s`, the biases at `b`, the output block at
    anything. It runs to the continuation with the three inputs as they were and the output at `bnBlock x s b`:
    three whole reads, a read of the output that is not used, and one whole write whose value is the payload of
    the three reads. -/
theorem sound_kernel26 (c : Dev nD) (E : Set ℕ) (i : grid26.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S5000x128 .f32) (harg4 : arg4.IsWhole)
    (x : Vec F S5000x128 .f32) (s b : Vec F S1x128 .f32) (K : PUnit → sProp 𝕄) :
    iprop(owns (c : Thread nD τ) arg1 fullShare x ∗ owns (c : Thread nD τ) arg2 fullShare s
        ∗ owns (c : Thread nD τ) arg3 fullShare b ∗ (∃ d, owns (c : Thread nD τ) arg4 fullShare d)
        ∗ (iprop(owns (c : Thread nD τ) arg1 fullShare x ∗ owns (c : Thread nD τ) arg2 fullShare s
            ∗ owns (c : Thread nD τ) arg3 fullShare b ∗ owns (c : Thread nD τ) arg4 fullShare (bnBlock x s b)) -∗ K ⟨⟩))
      ⊢ wp frame (wpE (defs₀ (F := F)) Variants.none c none) E
          (cc26__bn_leaky_kernel i arg1 harg1 arg2 harg2 arg3 harg3 arg4 harg4) K := by
  simp only [cc26__bn_leaky_kernel_eq_skeleton]; unfold cc26__bn_leaky_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs, unchanged
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output: its old contents under one store that covers the block read as that store alone
  iexists _; isplitr
  swap; · iexact H3
  ipureintro
  exact View.read_writes_eq_canon _ _ _ (cover_bnBlock _)

end Cert.KernelIdeal.Hand

end
-- ==== Proof.KI.G26Dat.lean ====
/-
  The normalisation launch (the last pallas_call of @main), as proof data over the contents `V` its arrays hold when
  it is entered, and its VALUE.
  The launch runs the body at ten points; point `t` is handed block `t` (5000 rows) of the aggregated features,
  the one row of per-column scales and the one row of per-column biases — these two fetched once and kept — and
  writes block `t` of the result back. Nothing but the staging buffers is touched: the invariant is the scoped
  rest and the generator register, nothing is owed, every array is held whole.
  First half: each window's block read off `V`, what each staging buffer holds when the body is called and when
  it returns, and the body's obligation at every point from the body's triple.
  Second half: the result array after the ten write-backs is ONE function of the three arrays, index by index —
  `bnOf x s b i = leaky (x i * s (0, i 1) + b (0, i 1))` — because each point writes back block `t` of that function
  (the input and output blocks sit at the same rows; the coefficient rows are read at the block's own columns)
  and the ten blocks fill the 50000 rows.
-/
import proofs.«403631_j48275432407145_1_alg».proof.Proof.KI.G26Body
import proofs.«403631_j48275432407145_1_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

variable (V : (c : Dev nD) → (b : Ref sig .tc) → Buf (Elt F) ((c : Thread nD τ).loc b))

/-- Window `w`'s block at point `t`, read off its array as the launch finds it. -/
def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- The feature window's staging buffer holds its block at every point, for any proof data whose array is `V`'s and
    whose body leaves the block in place: the window is an input, never idle and uncut, and where it is not
    fetched its block index has not moved. -/
theorem before26_0_of {c : Dev nD} (dat : Dat τ (Elt F) Unit ℕ UC ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)

/-- The same of the row of scales: fetched at the first point only, its one block is every point's. -/
theorem before26_1_of {c : Dev nD} (dat : Dat τ (Elt F) Unit ℕ UC ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-- The same of the row of biases. -/
theorem before26_2_of {c : Dev nD} (dat : Dat τ (Elt F) Unit ℕ UC ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

/-- The launch's proof data on core `c`: the arrays as the launch finds them; after the body at point `t` each
    input's buffer at its block and the output's at `bnBlock` of the three input blocks; the invariant the scoped
    rest and the generator register, untouched; nothing owed; full shares. -/
def dat26 (c : Dev nD) : Dat τ (Elt F) Unit ℕ UC ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => bnBlock (iblk26 V c 0 t) (iblk26 V c 1 t) (iblk26 V c 2 t)
  Φ _ := Pipeline.ΦA spec26 c
  q _ := fullShare
  owed _ := 0

/-- The proof data's arrays are the entry contents. -/
theorem A_eq26 (c : Dev nD) (w : Fin cfg26.W) : (dat26 V c).A w = V c (Pipeline.arrRef spec26 w) := by
  dsimp only [dat26]

/-- What the body leaves, window by window. -/
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) :
    (dat26 V c).after 3 t = bnBlock (iblk26 V c 0 t) (iblk26 V c 1 t) (iblk26 V c 2 t) := by dsimp only [dat26]

/-- Each input's staging buffer holds its block when the body is called, fetched at that point or not. -/
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-- The four windows conjoined one by one. -/
theorem bigSep_W26 {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- What the body is called with at point `t`, the windows one by one, -/
def bodyPre26 (c : Dev nD) (t : Fin cfg26.N) : sProp 𝕄 :=
  iprop((dat26 V c).Φ t.castSucc ∗ (dat26 V c).owesAt () t.castSucc
    ∗ (∃ d, owns (c : Thread nD τ) (st26_0 t) fullShare ((dat26 V c).before 0 t d))
    ∗ (∃ d, owns (c : Thread nD τ) (st26_1 t) fullShare ((dat26 V c).before 1 t d))
    ∗ (∃ d, owns (c : Thread nD τ) (st26_2 t) fullShare ((dat26 V c).before 2 t d))
    ∗ (∃ d, owns (c : Thread nD τ) (st26_3 t) fullShare ((dat26 V c).before 3 t d)))

/-- and what it returns. -/
def bodyPost26 (c : Dev nD) (t : Fin cfg26.N) : sProp 𝕄 :=
  iprop((dat26 V c).Φ t.succ ∗ (dat26 V c).owesAt () t.succ
    ∗ owns (c : Thread nD τ) (st26_0 t) fullShare ((dat26 V c).after 0 t)
    ∗ owns (c : Thread nD τ) (st26_1 t) fullShare ((dat26 V c).after 1 t)
    ∗ owns (c : Thread nD τ) (st26_2 t) fullShare ((dat26 V c).after 2 t)
    ∗ owns (c : Thread nD τ) (st26_3 t) fullShare ((dat26 V c).after 3 t))

/-- The body at any point: the inputs' buffers hold their blocks, so the body's triple applies; the invariant and
    what the core owes pass through unread. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1, before26_2]
  rw [show (dat26 V c).Φ t.succ = (dat26 V c).Φ t.castSucc from rfl,
    show (dat26 V c).owesAt () t.succ = (dat26 V c).owesAt () t.castSucc from rfl,
    after26_0, after26_1, after26_2, after26_3]
  iintro ⟨HΦ, Ho, ⟨%d0, H0⟩, ⟨%d1, H1⟩, ⟨%d2, H2⟩, ⟨%d3, H3⟩⟩
  iapply (sound_kernel26 c Set.univ (grid26.coords t) _ _ _ _ _ _ _ _ (iblk26 V c 0 t) (iblk26 V c 1 t) (iblk26 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation26 (c : Dev nD) : BodyObligation (dat26 (F := F) V c) (defs₀ (F := F)) Variants.none () Set.univ := fun t => by
  rw [bigSep_W26, bigSep_W26]
  exact sound_body26 V c t

/-! ## The value: the output array as one function of the three arrays the launch reads -/

/-- One element of the result: the affine image `y = x * s + b`, kept where `y ≥ 0` and scaled by the
    constant `0.01` (as the single-precision word the program states) elsewhere. -/
def bnElt (x s b : F .f32) : F .f32 :=
  Scalar.select (FloatOps.cmpf .oge (FloatOps.addf (FloatOps.mulf x s) b) (Scalar.ofBits .f32 0x00000000#32))
    (FloatOps.addf (FloatOps.mulf x s) b)
    (FloatOps.mulf (Scalar.ofBits .f32 0x3C23D70A#32) (FloatOps.addf (FloatOps.mulf x s) b))

/-- The whole result, index by index: row `i 0`, column `i 1` of the features against column `i 1` of the
    scales and of the biases. -/
def bnOf (x : S50000x128.Idx → Elt F .f32) (s b : S1x128.Idx → Elt F .f32) : S50000x128.Idx → Elt F .f32 :=
  fun i => bnElt (x i) (s (ValueIdx.ix2 (0 : Fin 1) (i 1 : Fin 128))) (b (ValueIdx.ix2 (0 : Fin 1) (i 1 : Fin 128)))

/-- The body's payload at row `p`, column `q` of the block: the casts are between equal shapes, the two
    row vectors are repeated down the rows, everything else is elementwise. -/
theorem pay26_apply (v0 : Vec F S5000x128 .f32) (v2 v6 : Vec F S1x128 .f32) (p : Fin 5000) (q : Fin 128) :
    k26_pay1 v0 v2 v6 (ValueIdx.ix2 p q)
      = bnElt (v0 (ValueIdx.ix2 p q)) (v2 (ValueIdx.ix2 (0 : Fin 1) q)) (v6 (ValueIdx.ix2 (0 : Fin 1) q)) := by
  unfold k26_pay1
  simp only [shapeCast_self]
  show bnElt (v0 (ValueIdx.ix2 p q)) (broadcastTo S5000x128 v2 broadcasts_S1x128_S5000x128 (ValueIdx.ix2 p q))
      (broadcastTo S5000x128 v6 broadcasts_S1x128_S5000x128 (ValueIdx.ix2 p q)) = _
  rw [ValueIdx.broadcastTo_1b_ab_apply, ValueIdx.broadcastTo_1b_ab_apply]

/-- The origin, as the constant function. -/
theorem hz26 : (![0, 0] : Fin 2 → Nat) = fun _ => 0 := funext fun a => by fin_cases a <;> rfl

/-- The printed index maps, decided over the ten points: the input block and the output block move together
    down the rows, one block per point; the two coefficient rows stay at their only block. -/
theorem idx_facts26 : ∀ t : Fin cfg26.N, win26_3.index t (0 : Fin 2) = t.val ∧ win26_3.index t (1 : Fin 2) = 0
    ∧ win26_0.index t (0 : Fin 2) = t.val ∧ win26_0.index t (1 : Fin 2) = 0
    ∧ win26_1.index t (0 : Fin 2) = 0 ∧ win26_1.index t (1 : Fin 2) = 0
    ∧ win26_2.index t (0 : Fin 2) = 0 ∧ win26_2.index t (1 : Fin 2) = 0 :=
  (by decide +kernel : ∀ t : Fin grid26.N, _)

/-- WHAT POINT `t` WRITES BACK is block `t` of `bnOf` of the three arrays as the launch finds them. -/
theorem flushed26_eq (c : Dev nD) (t : Fin cfg26.N) :
    (dat26 V c).flushed 3 t = ((cfg26.win 3).blk t).view.read (Elt F) (bnOf (V c main_v53) (V c main_v71) (V c main_v72)) := by
  show (cfg26.win 3).cut (grid26.coords t) ((dat26 V c).after 3 t) = _
  rw [after26_3]
  unfold bnBlock
  rw [View.canon_unit_zero hz26]
  simp only [View.ld_unit_zero (S := S5000x128) hz26, View.ld_unit_zero (S := S1x128) hz26]
  obtain ⟨e30, e31, e00, e01, e10, e11, e20, e21⟩ := idx_facts26 t
  funext j
  obtain ⟨p, q, rfl⟩ : ∃ (p : Fin 5000) (q : Fin 128), j = ValueIdx.ix2 p q := ⟨j 0, j 1, ValueIdx.eq_ix2 (n0 := 5000) (n1 := 128) j⟩
  show k26_pay1 (iblk26 V c 0 t) (iblk26 V c 1 t) (iblk26 V c 2 t) (ValueIdx.ix2 p q) = _
  rw [pay26_apply]
  show bnElt (V c main_v53 (((cfg26.win 0).blk t).view.emb (ValueIdx.ix2 p q)))
      (V c main_v71 (((cfg26.win 1).blk t).view.emb (ValueIdx.ix2 (0 : Fin 1) q)))
      (V c main_v72 (((cfg26.win 2).blk t).view.emb (ValueIdx.ix2 (0 : Fin 1) q)))
    = bnElt (V c main_v53 (((cfg26.win 3).blk t).view.emb (ValueIdx.ix2 p q)))
      (V c main_v71 (ValueIdx.ix2 (0 : Fin 1) ((((cfg26.win 3).blk t).view.emb (ValueIdx.ix2 p q)) 1 : Fin 128)))
      (V c main_v72 (ValueIdx.ix2 (0 : Fin 1) ((((cfg26.win 3).blk t).view.emb (ValueIdx.ix2 p q)) 1 : Fin 128)))
  have h0 : ((cfg26.win 0).blk t).view.emb (ValueIdx.ix2 p q) = ((cfg26.win 3).blk t).view.emb (ValueIdx.ix2 p q) := by
    funext a; apply Fin.ext
    match a with
    | ⟨0, _⟩ => show win26_0.index t (0 : Fin 2) * 5000 + 1 * p.val = win26_3.index t (0 : Fin 2) * 5000 + 1 * p.val; omega
    | ⟨1, _⟩ => show win26_0.index t (1 : Fin 2) * 128 + 1 * q.val = win26_3.index t (1 : Fin 2) * 128 + 1 * q.val; omega
  have h1 : ((cfg26.win 1).blk t).view.emb (ValueIdx.ix2 (0 : Fin 1) q)
      = ValueIdx.ix2 (0 : Fin 1) ((((cfg26.win 3).blk t).view.emb (ValueIdx.ix2 p q)) 1 : Fin 128) := by
    funext a; apply Fin.ext
    match a with
    | ⟨0, _⟩ => show win26_1.index t (0 : Fin 2) * 1 + 1 * 0 = 0; omega
    | ⟨1, _⟩ => show win26_1.index t (1 : Fin 2) * 128 + 1 * q.val = win26_3.index t (1 : Fin 2) * 128 + 1 * q.val; omega
  have h2 : ((cfg26.win 2).blk t).view.emb (ValueIdx.ix2 (0 : Fin 1) q)
      = ValueIdx.ix2 (0 : Fin 1) ((((cfg26.win 3).blk t).view.emb (ValueIdx.ix2 p q)) 1 : Fin 128) := by
    funext a; apply Fin.ext
    match a with
    | ⟨0, _⟩ => show win26_2.index t (0 : Fin 2) * 1 + 1 * 0 = 0; omega
    | ⟨1, _⟩ => show win26_2.index t (1 : Fin 2) * 128 + 1 * q.val = win26_3.index t (1 : Fin 2) * 128 + 1 * q.val; omega
  rw [h0, h1, h2]
  rfl

/-- An index of the array is in point `t`'s output block iff each coordinate is in the block's range on its axis. -/
theorem mem_blk26 (t : Fin cfg26.N) (i : S50000x128.Idx) :
    i ∈ ((cfg26.win 3).blk t).view.set ↔ ∀ a : Fin 2, win26_3.index t a * S5000x128.size a ≤ (i a).val ∧ (i a).val < win26_3.index t a * S5000x128.size a + S5000x128.size a := by
  show i ∈ ((View.whole main_v73).slice (win26_3.rect t)).set ↔ _
  rw [View.set_slice_whole, Rect.mem_set_unit]
  exact Iff.rfl

/-- The ten output blocks, 5000 rows each, fill the 50000 rows: every index is in the block of the point its row
    falls in. -/
theorem cover26 (i : S50000x128.Idx) : ∃ t : Fin cfg26.N, (cfg26.win 3).flush t = true ∧ i ∈ ((cfg26.win 3).blk t).view.set := by
  have hi0 : (i 0).val < 50000 := (i 0).isLt
  have hi1 : (i 1).val < 128 := (i 1).isLt
  have hN : cfg26.N = 10 := N_26
  let t : Fin cfg26.N := ⟨(i 0).val / 5000, by rw [hN]; omega⟩
  obtain ⟨e30, e31, -⟩ := idx_facts26 t
  have e30' : win26_3.index t (0 : Fin 2) = (i 0).val / 5000 := e30
  refine ⟨t, flush26_3 t, ?_⟩
  rw [mem_blk26]
  intro a
  match a with
  | ⟨0, _⟩ => show win26_3.index t (0 : Fin 2) * 5000 ≤ (i 0).val ∧ (i 0).val < win26_3.index t (0 : Fin 2) * 5000 + 5000; omega
  | ⟨1, _⟩ => show win26_3.index t (1 : Fin 2) * 128 ≤ (i 1).val ∧ (i 1).val < win26_3.index t (1 : Fin 2) * 128 + 128; omega

/-- THE OUTPUT ARRAY after the launch: `bnOf` of the features, the scales and the biases as the launch finds them. -/
theorem out26 (c : Dev nD) : (dat26 V c).arrAt 3 cfg26.N = bnOf (V c main_v53) (V c main_v71) (V c main_v72) :=
  (dat26 V c).arrAt_eq_of_cover 3 _ (fun t _ => flushed26_eq V c t) cover26

end Cert.KernelIdeal.Hand

end
-- ==== Proof.KI.ChainDefs.lean ====
/-
  THE BUFFERS BETWEEN @main'S ITEMS. @main is 27 host stretches alternating with 27 kernel launches. Between two items
  every unscoped buffer of the core holds a definite array; this module names them: W0 is the launch memory, an odd step
  applies a host stretch's operations (transpose and slice of the neighbour table, the concatenations, the batch-norm
  arithmetic), an even step replaces ONE buffer, the launch's output array, by what the launch's pipeline leaves there
  (its proof data's array after the last write-back). A gather launch K < 25 also reads its prefetched table, the
  [16, 2000] slice of the transposed neighbour table the preceding stretch wrote: that slice, as the contents the
  pipeline is pinned at, is admK. The proof data of all launches at these entry contents form the family the run
  is stated over; the unknowns of the generated chain of valuations are set to these arrays.
-/
import proofs.«403631_j48275432407145_1_alg».proof.Proof.KI.Base
import proofs.«403631_j48275432407145_1_alg».proof.Proof.KI.RegionsP
import proofs.«403631_j48275432407145_1_alg».proof.Proof.KI.G0Dat
import proofs.«403631_j48275432407145_1_alg».proof.Proof.KI.G1Dat
import proofs.«403631_j48275432407145_1_alg».proof.Proof.KI.G2Dat
import proofs.«403631_j48275432407145_1_alg».proof.Proof.KI.G3Dat
import proofs.«403631_j48275432407145_1_alg».proof.Proof.KI.G4Dat
import proofs.«403631_j48275432407145_1_alg».proof.Proof.KI.G5Dat
import proofs.«403631_j48275432407145_1_alg».proof.Proof.KI.G6Dat
import proofs.«403631_j48275432407145_1_alg».proof.Proof.KI.G7Dat
import proofs.«403631_j48275432407145_1_alg».proof.Proof.KI.G8Dat
import proofs.«403631_j48275432407145_1_alg».proof.Proof.KI.G9Dat
import proofs.«403631_j48275432407145_1_alg».proof.Proof.KI.G10Dat
import proofs.«403631_j48275432407145_1_alg».proof.Proof.KI.G11Dat
import proofs.«403631_j48275432407145_1_alg».proof.Proof.KI.G12Dat
import proofs.«403631_j48275432407145_1_alg».proof.Proof.KI.G13Dat
import proofs.«403631_j48275432407145_1_alg».proof.Proof.KI.G14Dat
import proofs.«403631_j48275432407145_1_alg».proof.Proof.KI.G15Dat
import proofs.«403631_j48275432407145_1_alg».proof.Proof.KI.G16Dat
import proofs.«403631_j48275432407145_1_alg».proof.Proof.KI.G17Dat
import proofs.«403631_j48275432407145_1_alg».proof.Proof.KI.G18Dat
import proofs.«403631_j48275432407145_1_alg».proof.Proof.KI.G19Dat
import proofs.«403631_j48275432407145_1_alg».proof.Proof.KI.G20Dat
import proofs.«403631_j48275432407145_1_alg».proof.Proof.KI.G21Dat
import proofs.«403631_j48275432407145_1_alg».proof.Proof.KI.G22Dat
import proofs.«403631_j48275432407145_1_alg».proof.Proof.KI.G23Dat
import proofs.«403631_j48275432407145_1_alg».proof.Proof.KI.G24Dat
import proofs.«403631_j48275432407145_1_alg».proof.Proof.KI.G25Dat
import proofs.«403631_j48275432407145_1_alg».proof.Proof.KI.G26Dat

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

/-! ## What each launch leaves in its output array, from any entry contents (and any table) -/

/-- Launch 0's output array main_v2 after its last write-back. -/
def O0 (V : (c : Dev nD) → (b : Ref sig .tc) → Buf (Elt F) ((c : Thread nD τ).loc b)) (a : (pcfg0 (F := F)).Adm) (c : Dev nD) : Buf (Elt F) ((c : Thread nD τ).loc main_v2) := (dat0 V a c).arrAt 1 (cfg0 a).N
theorem O0_eq (V : (c : Dev nD) → (b : Ref sig .tc) → Buf (Elt F) ((c : Thread nD τ).loc b)) (a : (pcfg0 (F := F)).Adm) (c : Dev nD) : O0 V a c = (dat0 V a c).arrAt 1 (cfg0 a).N := rfl
/-- Launch 1's output array main_v4 after its last write-back. -/
def O1 (V : (c : Dev nD) → (b : Ref sig .tc) → Buf (Elt F) ((c : Thread nD τ).loc b)) (a : (pcfg1 (F := F)).Adm) (c : Dev nD) : Buf (Elt F) ((c : Thread nD τ).loc main_v4) := (dat1 V a c).arrAt 1 (cfg1 a).N
theorem O1_eq (V : (c : Dev nD) → (b : Ref sig .tc) → Buf (Elt F) ((c : Thread nD τ).loc b)) (a : (pcfg1 (F := F)).Adm) (c : Dev nD) : O1 V a c = (dat1 V a c).arrAt 1 (cfg1 a).N := rfl
/-- Launch 2's output array main_v6 after its last write-back. -/
def O2 (V : (c : Dev nD) → (b : Ref sig .tc) → Buf (Elt F) ((c : Thread nD τ).loc b)) (a : (pcfg2 (F := F)).Adm) (c : Dev nD) : Buf (Elt F) ((c : Thread nD τ).loc main_v6) := (dat2 V a c).arrAt 1 (cfg2 a).N
theorem O2_eq (V : (c : Dev nD) → (b : Ref sig .tc) → Buf (Elt F) ((c : Thread nD τ).loc b)) (a : (pcfg2 (F := F)).Adm) (c : Dev nD) : O2 V a c = (dat2 V a c).arrAt 1 (cfg2 a).N := rfl
/-- Launch 3's output array main_v8 after its last write-back. -/
def O3 (V : (c : Dev nD) → (b : Ref sig .tc) → Buf (Elt F) ((c : Thread nD τ).loc b)) (a : (pcfg3 (F := F)).Adm) (c : Dev nD) : Buf (Elt F) ((c : Thread nD τ).loc main_v8) := (dat3 V a c).arrAt 1 (cfg3 a).N
theorem O3_eq (V : (c : Dev nD) → (b : Ref sig .tc) → Buf (Elt F) ((c : Thread nD τ).loc b)) (a : (pcfg3 (F := F)).Adm) (c : Dev nD) : O3 V a c = (dat3 V a c).arrAt 1 (cfg3 a).N := rfl
/-- Launch 4's output array main_v10 after its last write-back. -/
def O4 (V : (c : Dev nD) → (b : Ref sig .tc) → Buf (Elt F) ((c : Thread nD τ).loc b)) (a : (pcfg4 (F := F)).Adm) (c : Dev nD) : Buf (Elt F) ((c : Thread nD τ).loc main_v10) := (dat4 V a c).arrAt 1 (cfg4 a).N
theorem O4_eq (V : (c : Dev nD) → (b : Ref sig .tc) → Buf (Elt F) ((c : Thread nD τ).loc b)) (a : (pcfg4 (F := F)).Adm) (c : Dev nD) : O4 V a c = (dat4 V a c).arrAt 1 (cfg4 a).N := rfl
/-- Launch 5's output array main_v12 after its last write-back. -/
def O5 (V : (c : Dev nD) → (b : Ref sig .tc) → Buf (Elt F) ((c : Thread nD τ).loc b)) (a : (pcfg5 (F := F)).Adm) (c : Dev nD) : Buf (Elt F) ((c : Thread nD τ).loc main_v12) := (dat5 V a c).arrAt 1 (cfg5 a).N
theorem O5_eq (V : (c : Dev nD) → (b : Ref sig .tc) → Buf (Elt F) ((c : Thread nD τ).loc b)) (a : (pcfg5 (F := F)).Adm) (c : Dev nD) : O5 V a c = (dat5 V a c).arrAt 1 (cfg5 a).N := rfl
/-- Launch 6's output array main_v14 after its last write-back. -/
def O6 (V : (c : Dev nD) → (b : Ref sig .tc) → Buf (Elt F) ((c : Thread nD τ).loc b)) (a : (pcfg6 (F := F)).Adm) (c : Dev nD) : Buf (Elt F) ((c : Thread nD τ).loc main_v14) := (dat6 V a c).arrAt 1 (cfg6 a).N
theorem O6_eq (V : (c : Dev nD) → (b : Ref sig .tc) → Buf (Elt F) ((c : Thread nD τ).loc b)) (a : (pcfg6 (F := F)).Adm) (c : Dev nD) : O6 V a c = (dat6 V a c).arrAt 1 (cfg6 a).N := rfl
/-- Launch 7's output array main_v16 after its last write-back. -/
def O7 (V : (c : Dev nD) → (b : Ref sig .tc) → Buf (Elt F) ((c : Thread nD τ).loc b)) (a : (pcfg7 (F := F)).Adm) (c : Dev nD) : Buf (Elt F) ((c : Thread nD τ).loc main_v16) := (dat7 V a c).arrAt 1 (cfg7 a).N
theorem O7_eq (V : (c : Dev nD) → (b : Ref sig .tc) → Buf (Elt F) ((c : Thread nD τ).loc b)) (a : (pcfg7 (F := F)).Adm) (c : Dev nD) : O7 V a c = (dat7 V a c).arrAt 1 (cfg7 a).N := rfl
/-- Launch 8's output array main_v18 after its last write-back. -/
def O8 (V : (c : Dev nD) → (b : Ref sig .tc) → Buf (Elt F) ((c : Thread nD τ).loc b)) (a : (pcfg8 (F := F)).Adm) (c : Dev nD) : Buf (Elt F) ((c : Thread nD τ).loc main_v18) := (dat8 V a c).arrAt 1 (cfg8 a).N
theorem O8_eq (V : (c : Dev nD) → (b : Ref sig .tc) → Buf (Elt F) ((c : Thread nD τ).loc b)) (a : (pcfg8 (F := F)).Adm) (c : Dev nD) : O8 V a c = (dat8 V a c).arrAt 1 (cfg8 a).N := rfl
/-- Launch 9's output array main_v20 after its last write-back. -/
def O9 (V : (c : Dev nD) → (b : Ref sig .tc) → Buf (Elt F) ((c : Thread nD τ).loc b)) (a : (pcfg9 (F := F)).Adm) (c : Dev nD) : Buf (Elt F) ((c : Thread nD τ).loc main_v20) := (dat9 V a c).arrAt 1 (cfg9 a).N
theorem O9_eq (V : (c : Dev nD) → (b : Ref sig .tc) → Buf (Elt F) ((c : Thread nD τ).loc b)) (a : (pcfg9 (F := F)).Adm) (c : Dev nD) : O9 V a c = (dat9 V a c).arrAt 1 (cfg9 a).N := rfl
/-- Launch 10's output array main_v22 after its last write-back. -/
def O10 (V : (c : Dev nD) → (b : Ref sig .tc) → Buf (Elt F) ((c : Thread nD τ).loc b)) (a : (pcfg10 (F := F)).Adm) (c : Dev nD) : Buf (Elt F) ((c : Thread nD τ).loc main_v22) := (dat10 V a c).arrAt 1 (cfg10 a).N
theorem O10_eq (V : (c : Dev nD) → (b : Ref sig .tc) → Buf (Elt F) ((c : Thread nD τ).loc b)) (a : (pcfg10 (F := F)).Adm) (c : Dev nD) : O10 V a c = (dat10 V a c).arrAt 1 (cfg10 a).N := rfl
/-- Launch 11's output array main_v24 after its last write-back. -/
def O11 (V : (c : Dev nD) → (b : Ref sig .tc) → Buf (Elt F) ((c : Thread nD τ).loc b)) (a : (pcfg11 (F := F)).Adm) (c : Dev nD) : Buf (Elt F) ((c : Thread nD τ).loc main_v24) := (dat11 V a c).arrAt 1 (cfg11 a).N
theorem O11_eq (V : (c : Dev nD) → (b : Ref sig .tc) → Buf (Elt F) ((c : Thread nD τ).loc b)) (a : (pcfg11 (F := F)).Adm) (c : Dev nD) : O11 V a c = (dat11 V a c).arrAt 1 (cfg11 a).N := rfl
/-- Launch 12's output array main_v26 after its last write-back. -/
def O12 (V : (c : Dev nD) → (b : Ref sig .tc) → Buf (Elt F) ((c : Thread nD τ).loc b)) (a : (pcfg12 (F := F)).Adm) (c : Dev nD) : Buf (Elt F) ((c : Thread nD τ).loc main_v26) := (dat12 V a c).arrAt 1 (cfg12 a).N
theorem O12_eq (V : (c : Dev nD) → (b : Ref sig .tc) → Buf (Elt F) ((c : Thread nD τ).loc b)) (a : (pcfg12 (F := F)).Adm) (c : Dev nD) : O12 V a c = (dat12 V a c).arrAt 1 (cfg12 a).N := rfl
/-- Launch 13's output array main_v28 after its last write-back. -/
def O13 (V : (c : Dev nD) → (b : Ref sig .tc) → Buf (Elt F) ((c : Thread nD τ).loc b)) (a : (pcfg13 (F := F)).Adm) (c : Dev nD) : Buf (Elt F) ((c : Thread nD τ).loc main_v28) := (dat13 V a c).arrAt 1 (cfg13 a).N
theorem O13_eq (V : (c : Dev nD) → (b : Ref sig .tc) → Buf (Elt F) ((c : Thread nD τ).loc b)) (a : (pcfg13 (F := F)).Adm) (c : Dev nD) : O13 V a c = (dat13 V a c).arrAt 1 (cfg13 a).N := rfl
/-- Launch 14's output array main_v30 after its last write-back. -/
def O14 (V : (c : Dev nD) → (b : Ref sig .tc) → Buf (Elt F) ((c : Thread nD τ).loc b)) (a : (pcfg14 (F := F)).Adm) (c : Dev nD) : Buf (Elt F) ((c : Thread nD τ).loc main_v30) := (dat14 V a c).arrAt 1 (cfg14 a).N
theorem O14_eq (V : (c : Dev nD) → (b : Ref sig .tc) → Buf (Elt F) ((c : Thread nD τ).loc b)) (a : (pcfg14 (F := F)).Adm) (c : Dev nD) : O14 V a c = (dat14 V a c).arrAt 1 (cfg14 a).N := rfl
/-- Launch 15's output array main_v32 after its last write-back. -/
def O15 (V : (c : Dev nD) → (b : Ref sig .tc) → Buf (Elt F) ((c : Thread nD τ).loc b)) (a : (pcfg15 (F := F)).Adm) (c : Dev nD) : Buf (Elt F) ((c : Thread nD τ).loc main_v32) := (dat15 V a c).arrAt 1 (cfg15 a).N
theorem O15_eq (V : (c : Dev nD) → (b : Ref sig .tc) → Buf (Elt F) ((c : Thread nD τ).loc b)) (a : (pcfg15 (F := F)).Adm) (c : Dev nD) : O15 V a c = (dat15 V a c).arrAt 1 (cfg15 a).N := rfl
/-- Launch 16's output array main_v34 after its last write-back. -/
def O16 (V : (c : Dev nD) → (b : Ref sig .tc) → Buf (Elt F) ((c : Thread nD τ).loc b)) (a : (pcfg16 (F := F)).Adm) (c : Dev nD) : Buf (Elt F) ((c : Thread nD τ).loc main_v34) := (dat16 V a c).arrAt 1 (cfg16 a).N
theorem O16_eq (V : (c : Dev nD) → (b : Ref sig .tc) → Buf (Elt F) ((c : Thread nD τ).loc b)) (a : (pcfg16 (F := F)).Adm) (c : Dev nD) : O16 V a c = (dat16 V a c).arrAt 1 (cfg16 a).N := rfl
/-- Launch 17's output array main_v36 after its last write-back. -/
def O17 (V : (c : Dev nD) → (b : Ref sig .tc) → Buf (Elt F) ((c : Thread nD τ).loc b)) (a : (pcfg17 (F := F)).Adm) (c : Dev nD) : Buf (Elt F) ((c : Thread nD τ).loc main_v36) := (dat17 V a c).arrAt 1 (cfg17 a).N
theorem O17_eq (V : (c : Dev nD) → (b : Ref sig .tc) → Buf (Elt F) ((c : Thread nD τ).loc b)) (a : (pcfg17 (F := F)).Adm) (c : Dev nD) : O17 V a c = (dat17 V a c).arrAt 1 (cfg17 a).N := rfl
/-- Launch 18's output array main_v38 after its last write-back. -/
def O18 (V : (c : Dev nD) → (b : Ref sig .tc) → Buf (Elt F) ((c : Thread nD τ).loc b)) (a : (pcfg18 (F := F)).Adm) (c : Dev nD) : Buf (Elt F) ((c : Thread nD τ).loc main_v38) := (dat18 V a c).arrAt 1 (cfg18 a).N
theorem O18_eq (V : (c : Dev nD) → (b : Ref sig .tc) → Buf (Elt F) ((c : Thread nD τ).loc b)) (a : (pcfg18 (F := F)).Adm) (c : Dev nD) : O18 V a c = (dat18 V a c).arrAt 1 (cfg18 a).N := rfl
/-- Launch 19's output array main_v40 after its last write-back. -/
def O19 (V : (c : Dev nD) → (b : Ref sig .tc) → Buf (Elt F) ((c : Thread nD τ).loc b)) (a : (pcfg19 (F := F)).Adm) (c : Dev nD) : Buf (Elt F) ((c : Thread nD τ).loc main_v40) := (dat19 V a c).arrAt 1 (cfg19 a).N
theorem O19_eq (V : (c : Dev nD) → (b : Ref sig .tc) → Buf (Elt F) ((c : Thread nD τ).loc b)) (a : (pcfg19 (F := F)).Adm) (c : Dev nD) : O19 V a c = (dat19 V a c).arrAt 1 (cfg19 a).N := rfl
/-- Launch 20's output array main_v42 after its last write-back. -/
def O20 (V : (c : Dev nD) → (b : Ref sig .tc) → Buf (Elt F) ((c : Thread nD τ).loc b)) (a : (pcfg20 (F := F)).Adm) (c : Dev nD) : Buf (Elt F) ((c : Thread nD τ).loc main_v42) := (dat20 V a c).arrAt 1 (cfg20 a).N
theorem O20_eq (V : (c : Dev nD) → (b : Ref sig .tc) → Buf (Elt F) ((c : Thread nD τ).loc b)) (a : (pcfg20 (F := F)).Adm) (c : Dev nD) : O20 V a c = (dat20 V a c).arrAt 1 (cfg20 a).N := rfl
/-- Launch 21's output array main_v44 after its last write-back. -/
def O21 (V : (c : Dev nD) → (b : Ref sig .tc) → Buf (Elt F) ((c : Thread nD τ).loc b)) (a : (pcfg21 (F := F)).Adm) (c : Dev nD) : Buf (Elt F) ((c : Thread nD τ).loc main_v44) := (dat21 V a c).arrAt 1 (cfg21 a).N
theorem O21_eq (V : (c : Dev nD) → (b : Ref sig .tc) → Buf (Elt F) ((c : Thread nD τ).loc b)) (a : (pcfg21 (F := F)).Adm) (c : Dev nD) : O21 V a c = (dat21 V a c).arrAt 1 (cfg21 a).N := rfl
/-- Launch 22's output array main_v46 after its last write-back. -/
def O22 (V : (c : Dev nD) → (b : Ref sig .tc) → Buf (Elt F) ((c : Thread nD τ).loc b)) (a : (pcfg22 (F := F)).Adm) (c : Dev nD) : Buf (Elt F) ((c : Thread nD τ).loc main_v46) := (dat22 V a c).arrAt 1 (cfg22 a).N
theorem O22_eq (V : (c : Dev nD) → (b : Ref sig .tc) → Buf (Elt F) ((c : Thread nD τ).loc b)) (a : (pcfg22 (F := F)).Adm) (c : Dev nD) : O22 V a c = (dat22 V a c).arrAt 1 (cfg22 a).N := rfl
/-- Launch 23's output array main_v48 after its last write-back. -/
def O23 (V : (c : Dev nD) → (b : Ref sig .tc) → Buf (Elt F) ((c : Thread nD τ).loc b)) (a : (pcfg23 (F := F)).Adm) (c : Dev nD) : Buf (Elt F) ((c : Thread nD τ).loc main_v48) := (dat23 V a c).arrAt 1 (cfg23 a).N
theorem O23_eq (V : (c : Dev nD) → (b : Ref sig .tc) → Buf (Elt F) ((c : Thread nD τ).loc b)) (a : (pcfg23 (F := F)).Adm) (c : Dev nD) : O23 V a c = (dat23 V a c).arrAt 1 (cfg23 a).N := rfl
/-- Launch 24's output array main_v50 after its last write-back. -/
def O24 (V : (c : Dev nD) → (b : Ref sig .tc) → Buf (Elt F) ((c : Thread nD τ).loc b)) (a : (pcfg24 (F := F)).Adm) (c : Dev nD) : Buf (Elt F) ((c : Thread nD τ).loc main_v50) := (dat24 V a c).arrAt 1 (cfg24 a).N
theorem O24_eq (V : (c : Dev nD) → (b : Ref sig .tc) → Buf (Elt F) ((c : Thread nD τ).loc b)) (a : (pcfg24 (F := F)).Adm) (c : Dev nD) : O24 V a c = (dat24 V a c).arrAt 1 (cfg24 a).N := rfl
/-- Launch 25's output array main_v54 after its last write-back. -/
def O25 (V : (c : Dev nD) → (b : Ref sig .tc) → Buf (Elt F) ((c : Thread nD τ).loc b)) (c : Dev nD) : Buf (Elt F) ((c : Thread nD τ).loc main_v54) := (dat25 V c).arrAt 1 cfg25.N
theorem O25_eq (V : (c : Dev nD) → (b : Ref sig .tc) → Buf (Elt F) ((c : Thread nD τ).loc b)) (c : Dev nD) : O25 V c = (dat25 V c).arrAt 1 cfg25.N := rfl
/-- Launch 26's output array main_v73 after its last write-back. -/
def O26 (V : (c : Dev nD) → (b : Ref sig .tc) → Buf (Elt F) ((c : Thread nD τ).loc b)) (c : Dev nD) : Buf (Elt F) ((c : Thread nD τ).loc main_v73) := (dat26 V c).arrAt 3 cfg26.N
theorem O26_eq (V : (c : Dev nD) → (b : Ref sig .tc) → Buf (Elt F) ((c : Thread nD τ).loc b)) (c : Dev nD) : O26 V c = (dat26 V c).arrAt 3 cfg26.N := rfl

variable (m : (ℓ : Loc nD τ sig) → Buf (Elt F) ℓ)

/-! ## The chain of contents -/

/-- The core's unscoped buffers at launch. -/
def W0 (c : Dev nD) : Valuation τ sig (Elt F) := fun b => m (c, b)
/-- After host stretch 0. -/
def W1 (c : Dev nD) : Valuation τ sig (Elt F) := StableHlo.after hostOps0 (W0 m c)
/-- Launch 0's entry contents, read at the core's references. -/
abbrev En0 : (c : Dev nD) → (b : Ref sig .tc) → Buf (Elt F) ((c : Thread nD τ).loc b) := fun c b => W1 m c b
/-- Launch 0's prefetched table: main_v1 as the preceding stretch wrote it (one device). -/
def adm0 : (pcfg0 (F := F)).Adm := ⟨fun k => W1 m 0 (pre0.ref k), trivial⟩
/-- After launch 0: main_v2 replaced by what the pipeline leaves. -/
def W2 (c : Dev nD) : Valuation τ sig (Elt F) := Function.update (W1 m c) main_v2 (O0 (En0 m) (adm0 m) c)
/-- After host stretch 1. -/
def W3 (c : Dev nD) : Valuation τ sig (Elt F) := StableHlo.after hostOps1 (W2 m c)
/-- Launch 1's entry contents, read at the core's references. -/
abbrev En1 : (c : Dev nD) → (b : Ref sig .tc) → Buf (Elt F) ((c : Thread nD τ).loc b) := fun c b => W3 m c b
/-- Launch 1's prefetched table: main_v3 as the preceding stretch wrote it (one device). -/
def adm1 : (pcfg1 (F := F)).Adm := ⟨fun k => W3 m 0 (pre1.ref k), trivial⟩
/-- After launch 1: main_v4 replaced by what the pipeline leaves. -/
def W4 (c : Dev nD) : Valuation τ sig (Elt F) := Function.update (W3 m c) main_v4 (O1 (En1 m) (adm1 m) c)
/-- After host stretch 2. -/
def W5 (c : Dev nD) : Valuation τ sig (Elt F) := StableHlo.after hostOps2 (W4 m c)
/-- Launch 2's entry contents, read at the core's references. -/
abbrev En2 : (c : Dev nD) → (b : Ref sig .tc) → Buf (Elt F) ((c : Thread nD τ).loc b) := fun c b => W5 m c b
/-- Launch 2's prefetched table: main_v5 as the preceding stretch wrote it (one device). -/
def adm2 : (pcfg2 (F := F)).Adm := ⟨fun k => W5 m 0 (pre2.ref k), trivial⟩
/-- After launch 2: main_v6 replaced by what the pipeline leaves. -/
def W6 (c : Dev nD) : Valuation τ sig (Elt F) := Function.update (W5 m c) main_v6 (O2 (En2 m) (adm2 m) c)
/-- After host stretch 3. -/
def W7 (c : Dev nD) : Valuation τ sig (Elt F) := StableHlo.after hostOps3 (W6 m c)
/-- Launch 3's entry contents, read at the core's references. -/
abbrev En3 : (c : Dev nD) → (b : Ref sig .tc) → Buf (Elt F) ((c : Thread nD τ).loc b) := fun c b => W7 m c b
/-- Launch 3's prefetched table: main_v7 as the preceding stretch wrote it (one device). -/
def adm3 : (pcfg3 (F := F)).Adm := ⟨fun k => W7 m 0 (pre3.ref k), trivial⟩
/-- After launch 3: main_v8 replaced by what the pipeline leaves. -/
def W8 (c : Dev nD) : Valuation τ sig (Elt F) := Function.update (W7 m c) main_v8 (O3 (En3 m) (adm3 m) c)
/-- After host stretch 4. -/
def W9 (c : Dev nD) : Valuation τ sig (Elt F) := StableHlo.after hostOps4 (W8 m c)
/-- Launch 4's entry contents, read at the core's references. -/
abbrev En4 : (c : Dev nD) → (b : Ref sig .tc) → Buf (Elt F) ((c : Thread nD τ).loc b) := fun c b => W9 m c b
/-- Launch 4's prefetched table: main_v9 as the preceding stretch wrote it (one device). -/
def adm4 : (pcfg4 (F := F)).Adm := ⟨fun k => W9 m 0 (pre4.ref k), trivial⟩
/-- After launch 4: main_v10 replaced by what the pipeline leaves. -/
def W10 (c : Dev nD) : Valuation τ sig (Elt F) := Function.update (W9 m c) main_v10 (O4 (En4 m) (adm4 m) c)
/-- After host stretch 5. -/
def W11 (c : Dev nD) : Valuation τ sig (Elt F) := StableHlo.after hostOps5 (W10 m c)
/-- Launch 5's entry contents, read at the core's references. -/
abbrev En5 : (c : Dev nD) → (b : Ref sig .tc) → Buf (Elt F) ((c : Thread nD τ).loc b) := fun c b => W11 m c b
/-- Launch 5's prefetched table: main_v11 as the preceding stretch wrote it (one device). -/
def adm5 : (pcfg5 (F := F)).Adm := ⟨fun k => W11 m 0 (pre5.ref k), trivial⟩
/-- After launch 5: main_v12 replaced by what the pipeline leaves. -/
def W12 (c : Dev nD) : Valuation τ sig (Elt F) := Function.update (W11 m c) main_v12 (O5 (En5 m) (adm5 m) c)
/-- After host stretch 6. -/
def W13 (c : Dev nD) : Valuation τ sig (Elt F) := StableHlo.after hostOps6 (W12 m c)
/-- Launch 6's entry contents, read at the core's references. -/
abbrev En6 : (c : Dev nD) → (b : Ref sig .tc) → Buf (Elt F) ((c : Thread nD τ).loc b) := fun c b => W13 m c b
/-- Launch 6's prefetched table: main_v13 as the preceding stretch wrote it (one device). -/
def adm6 : (pcfg6 (F := F)).Adm := ⟨fun k => W13 m 0 (pre6.ref k), trivial⟩
/-- After launch 6: main_v14 replaced by what the pipeline leaves. -/
def W14 (c : Dev nD) : Valuation τ sig (Elt F) := Function.update (W13 m c) main_v14 (O6 (En6 m) (adm6 m) c)
/-- After host stretch 7. -/
def W15 (c : Dev nD) : Valuation τ sig (Elt F) := StableHlo.after hostOps7 (W14 m c)
/-- Launch 7's entry contents, read at the core's references. -/
abbrev En7 : (c : Dev nD) → (b : Ref sig .tc) → Buf (Elt F) ((c : Thread nD τ).loc b) := fun c b => W15 m c b
/-- Launch 7's prefetched table: main_v15 as the preceding stretch wrote it (one device). -/
def adm7 : (pcfg7 (F := F)).Adm := ⟨fun k => W15 m 0 (pre7.ref k), trivial⟩
/-- After launch 7: main_v16 replaced by what the pipeline leaves. -/
def W16 (c : Dev nD) : Valuation τ sig (Elt F) := Function.update (W15 m c) main_v16 (O7 (En7 m) (adm7 m) c)
/-- After host stretch 8. -/
def W17 (c : Dev nD) : Valuation τ sig (Elt F) := StableHlo.after hostOps8 (W16 m c)
/-- Launch 8's entry contents, read at the core's references. -/
abbrev En8 : (c : Dev nD) → (b : Ref sig .tc) → Buf (Elt F) ((c : Thread nD τ).loc b) := fun c b => W17 m c b
/-- Launch 8's prefetched table: main_v17 as the preceding stretch wrote it (one device). -/
def adm8 : (pcfg8 (F := F)).Adm := ⟨fun k => W17 m 0 (pre8.ref k), trivial⟩
/-- After launch 8: main_v18 replaced by what the pipeline leaves. -/
def W18 (c : Dev nD) : Valuation τ sig (Elt F) := Function.update (W17 m c) main_v18 (O8 (En8 m) (adm8 m) c)
/-- After host stretch 9. -/
def W19 (c : Dev nD) : Valuation τ sig (Elt F) := StableHlo.after hostOps9 (W18 m c)
/-- Launch 9's entry contents, read at the core's references. -/
abbrev En9 : (c : Dev nD) → (b : Ref sig .tc) → Buf (Elt F) ((c : Thread nD τ).loc b) := fun c b => W19 m c b
/-- Launch 9's prefetched table: main_v19 as the preceding stretch wrote it (one device). -/
def adm9 : (pcfg9 (F := F)).Adm := ⟨fun k => W19 m 0 (pre9.ref k), trivial⟩
/-- After launch 9: main_v20 replaced by what the pipeline leaves. -/
def W20 (c : Dev nD) : Valuation τ sig (Elt F) := Function.update (W19 m c) main_v20 (O9 (En9 m) (adm9 m) c)
/-- After host stretch 10. -/
def W21 (c : Dev nD) : Valuation τ sig (Elt F) := StableHlo.after hostOps10 (W20 m c)
/-- Launch 10's entry contents, read at the core's references. -/
abbrev En10 : (c : Dev nD) → (b : Ref sig .tc) → Buf (Elt F) ((c : Thread nD τ).loc b) := fun c b => W21 m c b
/-- Launch 10's prefetched table: main_v21 as the preceding stretch wrote it (one device). -/
def adm10 : (pcfg10 (F := F)).Adm := ⟨fun k => W21 m 0 (pre10.ref k), trivial⟩
/-- After launch 10: main_v22 replaced by what the pipeline leaves. -/
def W22 (c : Dev nD) : Valuation τ sig (Elt F) := Function.update (W21 m c) main_v22 (O10 (En10 m) (adm10 m) c)
/-- After host stretch 11. -/
def W23 (c : Dev nD) : Valuation τ sig (Elt F) := StableHlo.after hostOps11 (W22 m c)
/-- Launch 11's entry contents, read at the core's references. -/
abbrev En11 : (c : Dev nD) → (b : Ref sig .tc) → Buf (Elt F) ((c : Thread nD τ).loc b) := fun c b => W23 m c b
/-- Launch 11's prefetched table: main_v23 as the preceding stretch wrote it (one device). -/
def adm11 : (pcfg11 (F := F)).Adm := ⟨fun k => W23 m 0 (pre11.ref k), trivial⟩
/-- After launch 11: main_v24 replaced by what the pipeline leaves. -/
def W24 (c : Dev nD) : Valuation τ sig (Elt F) := Function.update (W23 m c) main_v24 (O11 (En11 m) (adm11 m) c)
/-- After host stretch 12. -/
def W25 (c : Dev nD) : Valuation τ sig (Elt F) := StableHlo.after hostOps12 (W24 m c)
/-- Launch 12's entry contents, read at the core's references. -/
abbrev En12 : (c : Dev nD) → (b : Ref sig .tc) → Buf (Elt F) ((c : Thread nD τ).loc b) := fun c b => W25 m c b
/-- Launch 12's prefetched table: main_v25 as the preceding stretch wrote it (one device). -/
def adm12 : (pcfg12 (F := F)).Adm := ⟨fun k => W25 m 0 (pre12.ref k), trivial⟩
/-- After launch 12: main_v26 replaced by what the pipeline leaves. -/
def W26 (c : Dev nD) : Valuation τ sig (Elt F) := Function.update (W25 m c) main_v26 (O12 (En12 m) (adm12 m) c)
/-- After host stretch 13. -/
def W27 (c : Dev nD) : Valuation τ sig (Elt F) := StableHlo.after hostOps13 (W26 m c)
/-- Launch 13's entry contents, read at the core's references. -/
abbrev En13 : (c : Dev nD) → (b : Ref sig .tc) → Buf (Elt F) ((c : Thread nD τ).loc b) := fun c b => W27 m c b
/-- Launch 13's prefetched table: main_v27 as the preceding stretch wrote it (one device). -/
def adm13 : (pcfg13 (F := F)).Adm := ⟨fun k => W27 m 0 (pre13.ref k), trivial⟩
/-- After launch 13: main_v28 replaced by what the pipeline leaves. -/
def W28 (c : Dev nD) : Valuation τ sig (Elt F) := Function.update (W27 m c) main_v28 (O13 (En13 m) (adm13 m) c)
/-- After host stretch 14. -/
def W29 (c : Dev nD) : Valuation τ sig (Elt F) := StableHlo.after hostOps14 (W28 m c)
/-- Launch 14's entry contents, read at the core's references. -/
abbrev En14 : (c : Dev nD) → (b : Ref sig .tc) → Buf (Elt F) ((c : Thread nD τ).loc b) := fun c b => W29 m c b
/-- Launch 14's prefetched table: main_v29 as the preceding stretch wrote it (one device). -/
def adm14 : (pcfg14 (F := F)).Adm := ⟨fun k => W29 m 0 (pre14.ref k), trivial⟩
/-- After launch 14: main_v30 replaced by what the pipeline leaves. -/
def W30 (c : Dev nD) : Valuation τ sig (Elt F) := Function.update (W29 m c) main_v30 (O14 (En14 m) (adm14 m) c)
/-- After host stretch 15. -/
def W31 (c : Dev nD) : Valuation τ sig (Elt F) := StableHlo.after hostOps15 (W30 m c)
/-- Launch 15's entry contents, read at the core's references. -/
abbrev En15 : (c : Dev nD) → (b : Ref sig .tc) → Buf (Elt F) ((c : Thread nD τ).loc b) := fun c b => W31 m c b
/-- Launch 15's prefetched table: main_v31 as the preceding stretch wrote it (one device). -/
def adm15 : (pcfg15 (F := F)).Adm := ⟨fun k => W31 m 0 (pre15.ref k), trivial⟩
/-- After launch 15: main_v32 replaced by what the pipeline leaves. -/
def W32 (c : Dev nD) : Valuation τ sig (Elt F) := Function.update (W31 m c) main_v32 (O15 (En15 m) (adm15 m) c)
/-- After host stretch 16. -/
def W33 (c : Dev nD) : Valuation τ sig (Elt F) := StableHlo.after hostOps16 (W32 m c)
/-- Launch 16's entry contents, read at the core's references. -/
abbrev En16 : (c : Dev nD) → (b : Ref sig .tc) → Buf (Elt F) ((c : Thread nD τ).loc b) := fun c b => W33 m c b
/-- Launch 16's prefetched table: main_v33 as the preceding stretch wrote it (one device). -/
def adm16 : (pcfg16 (F := F)).Adm := ⟨fun k => W33 m 0 (pre16.ref k), trivial⟩
/-- After launch 16: main_v34 replaced by what the pipeline leaves. -/
def W34 (c : Dev nD) : Valuation τ sig (Elt F) := Function.update (W33 m c) main_v34 (O16 (En16 m) (adm16 m) c)
/-- After host stretch 17. -/
def W35 (c : Dev nD) : Valuation τ sig (Elt F) := StableHlo.after hostOps17 (W34 m c)
/-- Launch 17's entry contents, read at the core's references. -/
abbrev En17 : (c : Dev nD) → (b : Ref sig .tc) → Buf (Elt F) ((c : Thread nD τ).loc b) := fun c b => W35 m c b
/-- Launch 17's prefetched table: main_v35 as the preceding stretch wrote it (one device). -/
def adm17 : (pcfg17 (F := F)).Adm := ⟨fun k => W35 m 0 (pre17.ref k), trivial⟩
/-- After launch 17: main_v36 replaced by what the pipeline leaves. -/
def W36 (c : Dev nD) : Valuation τ sig (Elt F) := Function.update (W35 m c) main_v36 (O17 (En17 m) (adm17 m) c)
/-- After host stretch 18. -/
def W37 (c : Dev nD) : Valuation τ sig (Elt F) := StableHlo.after hostOps18 (W36 m c)
/-- Launch 18's entry contents, read at the core's references. -/
abbrev En18 : (c : Dev nD) → (b : Ref sig .tc) → Buf (Elt F) ((c : Thread nD τ).loc b) := fun c b => W37 m c b
/-- Launch 18's prefetched table: main_v37 as the preceding stretch wrote it (one device). -/
def adm18 : (pcfg18 (F := F)).Adm := ⟨fun k => W37 m 0 (pre18.ref k), trivial⟩
/-- After launch 18: main_v38 replaced by what the pipeline leaves. -/
def W38 (c : Dev nD) : Valuation τ sig (Elt F) := Function.update (W37 m c) main_v38 (O18 (En18 m) (adm18 m) c)
/-- After host stretch 19. -/
def W39 (c : Dev nD) : Valuation τ sig (Elt F) := StableHlo.after hostOps19 (W38 m c)
/-- Launch 19's entry contents, read at the core's references. -/
abbrev En19 : (c : Dev nD) → (b : Ref sig .tc) → Buf (Elt F) ((c : Thread nD τ).loc b) := fun c b => W39 m c b
/-- Launch 19's prefetched table: main_v39 as the preceding stretch wrote it (one device). -/
def adm19 : (pcfg19 (F := F)).Adm := ⟨fun k => W39 m 0 (pre19.ref k), trivial⟩
/-- After launch 19: main_v40 replaced by what the pipeline leaves. -/
def W40 (c : Dev nD) : Valuation τ sig (Elt F) := Function.update (W39 m c) main_v40 (O19 (En19 m) (adm19 m) c)
/-- After host stretch 20. -/
def W41 (c : Dev nD) : Valuation τ sig (Elt F) := StableHlo.after hostOps20 (W40 m c)
/-- Launch 20's entry contents, read at the core's references. -/
abbrev En20 : (c : Dev nD) → (b : Ref sig .tc) → Buf (Elt F) ((c : Thread nD τ).loc b) := fun c b => W41 m c b
/-- Launch 20's prefetched table: main_v41 as the preceding stretch wrote it (one device). -/
def adm20 : (pcfg20 (F := F)).Adm := ⟨fun k => W41 m 0 (pre20.ref k), trivial⟩
/-- After launch 20: main_v42 replaced by what the pipeline leaves. -/
def W42 (c : Dev nD) : Valuation τ sig (Elt F) := Function.update (W41 m c) main_v42 (O20 (En20 m) (adm20 m) c)
/-- After host stretch 21. -/
def W43 (c : Dev nD) : Valuation τ sig (Elt F) := StableHlo.after hostOps21 (W42 m c)
/-- Launch 21's entry contents, read at the core's references. -/
abbrev En21 : (c : Dev nD) → (b : Ref sig .tc) → Buf (Elt F) ((c : Thread nD τ).loc b) := fun c b => W43 m c b
/-- Launch 21's prefetched table: main_v43 as the preceding stretch wrote it (one device). -/
def adm21 : (pcfg21 (F := F)).Adm := ⟨fun k => W43 m 0 (pre21.ref k), trivial⟩
/-- After launch 21: main_v44 replaced by what the pipeline leaves. -/
def W44 (c : Dev nD) : Valuation τ sig (Elt F) := Function.update (W43 m c) main_v44 (O21 (En21 m) (adm21 m) c)
/-- After host stretch 22. -/
def W45 (c : Dev nD) : Valuation τ sig (Elt F) := StableHlo.after hostOps22 (W44 m c)
/-- Launch 22's entry contents, read at the core's references. -/
abbrev En22 : (c : Dev nD) → (b : Ref sig .tc) → Buf (Elt F) ((c : Thread nD τ).loc b) := fun c b => W45 m c b
/-- Launch 22's prefetched table: main_v45 as the preceding stretch wrote it (one device). -/
def adm22 : (pcfg22 (F := F)).Adm := ⟨fun k => W45 m 0 (pre22.ref k), trivial⟩
/-- After launch 22: main_v46 replaced by what the pipeline leaves. -/
def W46 (c : Dev nD) : Valuation τ sig (Elt F) := Function.update (W45 m c) main_v46 (O22 (En22 m) (adm22 m) c)
/-- After host stretch 23. -/
def W47 (c : Dev nD) : Valuation τ sig (Elt F) := StableHlo.after hostOps23 (W46 m c)
/-- Launch 23's entry contents, read at the core's references. -/
abbrev En23 : (c : Dev nD) → (b : Ref sig .tc) → Buf (Elt F) ((c : Thread nD τ).loc b) := fun c b => W47 m c b
/-- Launch 23's prefetched table: main_v47 as the preceding stretch wrote it (one device). -/
def adm23 : (pcfg23 (F := F)).Adm := ⟨fun k => W47 m 0 (pre23.ref k), trivial⟩
/-- After launch 23: main_v48 replaced by what the pipeline leaves. -/
def W48 (c : Dev nD) : Valuation τ sig (Elt F) := Function.update (W47 m c) main_v48 (O23 (En23 m) (adm23 m) c)
/-- After host stretch 24. -/
def W49 (c : Dev nD) : Valuation τ sig (Elt F) := StableHlo.after hostOps24 (W48 m c)
/-- Launch 24's entry contents, read at the core's references. -/
abbrev En24 : (c : Dev nD) → (b : Ref sig .tc) → Buf (Elt F) ((c : Thread nD τ).loc b) := fun c b => W49 m c b
/-- Launch 24's prefetched table: main_v49 as the preceding stretch wrote it (one device). -/
def adm24 : (pcfg24 (F := F)).Adm := ⟨fun k => W49 m 0 (pre24.ref k), trivial⟩
/-- After launch 24: main_v50 replaced by what the pipeline leaves. -/
def W50 (c : Dev nD) : Valuation τ sig (Elt F) := Function.update (W49 m c) main_v50 (O24 (En24 m) (adm24 m) c)
/-- After host stretch 25. -/
def W51 (c : Dev nD) : Valuation τ sig (Elt F) := StableHlo.after hostOps25 (W50 m c)
/-- Launch 25's entry contents, read at the core's references. -/
abbrev En25 : (c : Dev nD) → (b : Ref sig .tc) → Buf (Elt F) ((c : Thread nD τ).loc b) := fun c b => W51 m c b
/-- After launch 25: main_v54 replaced by what the pipeline leaves. -/
def W52 (c : Dev nD) : Valuation τ sig (Elt F) := Function.update (W51 m c) main_v54 (O25 (En25 m) c)
/-- After host stretch 26. -/
def W53 (c : Dev nD) : Valuation τ sig (Elt F) := StableHlo.after hostOps26 (W52 m c)
/-- Launch 26's entry contents, read at the core's references. -/
abbrev En26 : (c : Dev nD) → (b : Ref sig .tc) → Buf (Elt F) ((c : Thread nD τ).loc b) := fun c b => W53 m c b
/-- After launch 26: main_v73 replaced by what the pipeline leaves. -/
def W54 (c : Dev nD) : Valuation τ sig (Elt F) := Function.update (W53 m c) main_v73 (O26 (En26 m) c)

/-! ## The tables, the proof data family, the generated chain's unknowns -/

/-- Every launch's admissible table contents; the two last launches have no table. A literal match. -/
def adm : (p : Fin 27) → (pcfgs (F := F) p).Adm
  | ⟨0, _⟩ => adm0 m
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨8, _⟩ => adm8 m
  | ⟨9, _⟩ => adm9 m
  | ⟨10, _⟩ => adm10 m
  | ⟨11, _⟩ => adm11 m
  | ⟨12, _⟩ => adm12 m
  | ⟨13, _⟩ => adm13 m
  | ⟨14, _⟩ => adm14 m
  | ⟨15, _⟩ => adm15 m
  | ⟨16, _⟩ => adm16 m
  | ⟨17, _⟩ => adm17 m
  | ⟨18, _⟩ => adm18 m
  | ⟨19, _⟩ => adm19 m
  | ⟨20, _⟩ => adm20 m
  | ⟨21, _⟩ => adm21 m
  | ⟨22, _⟩ => adm22 m
  | ⟨23, _⟩ => adm23 m
  | ⟨24, _⟩ => adm24 m
  | ⟨25, _⟩ => cfg25.toPCfg_adm
  | ⟨26, _⟩ => cfg26.toPCfg_adm
  | ⟨_ + 27, h⟩ => absurd h (Nat.not_lt.2 (Nat.le_add_left _ _))
/-- Every launch's proof data at its entry contents (and table). A literal match. -/
def pdats : (p : Fin 27) → (c : Dev nD) → Dat τ (Elt F) Unit ℕ UC ℕ (Pipeline.pin (pcfgs (F := F)) (adm m) p) c
  | ⟨0, _⟩ => fun c => dat0 (En0 m) (adm0 m) c
  | ⟨1, _⟩ => fun c => dat1 (En1 m) (adm1 m) c
  | ⟨2, _⟩ => fun c => dat2 (En2 m) (adm2 m) c
  | ⟨3, _⟩ => fun c => dat3 (En3 m) (adm3 m) c
  | ⟨4, _⟩ => fun c => dat4 (En4 m) (adm4 m) c
  | ⟨5, _⟩ => fun c => dat5 (En5 m) (adm5 m) c
  | ⟨6, _⟩ => fun c => dat6 (En6 m) (adm6 m) c
  | ⟨7, _⟩ => fun c => dat7 (En7 m) (adm7 m) c
  | ⟨8, _⟩ => fun c => dat8 (En8 m) (adm8 m) c
  | ⟨9, _⟩ => fun c => dat9 (En9 m) (adm9 m) c
  | ⟨10, _⟩ => fun c => dat10 (En10 m) (adm10 m) c
  | ⟨11, _⟩ => fun c => dat11 (En11 m) (adm11 m) c
  | ⟨12, _⟩ => fun c => dat12 (En12 m) (adm12 m) c
  | ⟨13, _⟩ => fun c => dat13 (En13 m) (adm13 m) c
  | ⟨14, _⟩ => fun c => dat14 (En14 m) (adm14 m) c
  | ⟨15, _⟩ => fun c => dat15 (En15 m) (adm15 m) c
  | ⟨16, _⟩ => fun c => dat16 (En16 m) (adm16 m) c
  | ⟨17, _⟩ => fun c => dat17 (En17 m) (adm17 m) c
  | ⟨18, _⟩ => fun c => dat18 (En18 m) (adm18 m) c
  | ⟨19, _⟩ => fun c => dat19 (En19 m) (adm19 m) c
  | ⟨20, _⟩ => fun c => dat20 (En20 m) (adm20 m) c
  | ⟨21, _⟩ => fun c => dat21 (En21 m) (adm21 m) c
  | ⟨22, _⟩ => fun c => dat22 (En22 m) (adm22 m) c
  | ⟨23, _⟩ => fun c => dat23 (En23 m) (adm23 m) c
  | ⟨24, _⟩ => fun c => dat24 (En24 m) (adm24 m) c
  | ⟨25, _⟩ => fun c => dat25 (En25 m) c
  | ⟨26, _⟩ => fun c => dat26 (En26 m) c
  | ⟨_ + 27, h⟩ => absurd h (Nat.not_lt.2 (Nat.le_add_left _ _))
/-- The generated chain's unknowns: what each launch leaves, read off this module's chain. -/
def outs : Gen.Outs (F := F) := fun J r c =>
  match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | 28 => W28 m c r
  | 30 => W30 m c r
  | 32 => W32 m c r
  | 34 => W34 m c r
  | 36 => W36 m c r
  | 38 => W38 m c r
  | 40 => W40 m c r
  | 42 => W42 m c r
  | 44 => W44 m c r
  | 46 => W46 m c r
  | 48 => W48 m c r
  | 50 => W50 m c r
  | 52 => W52 m c r
  | 54 => W54 m c r
  | _ => W0 m c r

/-! ## The family at a launch is that launch's proof data -/

theorem hd0 (c : Dev nD) : pdats m 0 c = dat0 (En0 m) (adm m 0) c := rfl
theorem hd1 (c : Dev nD) : pdats m 1 c = dat1 (En1 m) (adm m 1) c := rfl
theorem hd2 (c : Dev nD) : pdats m 2 c = dat2 (En2 m) (adm m 2) c := rfl
theorem hd3 (c : Dev nD) : pdats m 3 c = dat3 (En3 m) (adm m 3) c := rfl
theorem hd4 (c : Dev nD) : pdats m 4 c = dat4 (En4 m) (adm m 4) c := rfl
theorem hd5 (c : Dev nD) : pdats m 5 c = dat5 (En5 m) (adm m 5) c := rfl
theorem hd6 (c : Dev nD) : pdats m 6 c = dat6 (En6 m) (adm m 6) c := rfl
theorem hd7 (c : Dev nD) : pdats m 7 c = dat7 (En7 m) (adm m 7) c := rfl
theorem hd8 (c : Dev nD) : pdats m 8 c = dat8 (En8 m) (adm m 8) c := rfl
theorem hd9 (c : Dev nD) : pdats m 9 c = dat9 (En9 m) (adm m 9) c := rfl
theorem hd10 (c : Dev nD) : pdats m 10 c = dat10 (En10 m) (adm m 10) c := rfl
theorem hd11 (c : Dev nD) : pdats m 11 c = dat11 (En11 m) (adm m 11) c := rfl
theorem hd12 (c : Dev nD) : pdats m 12 c = dat12 (En12 m) (adm m 12) c := rfl
theorem hd13 (c : Dev nD) : pdats m 13 c = dat13 (En13 m) (adm m 13) c := rfl
theorem hd14 (c : Dev nD) : pdats m 14 c = dat14 (En14 m) (adm m 14) c := rfl
theorem hd15 (c : Dev nD) : pdats m 15 c = dat15 (En15 m) (adm m 15) c := rfl
theorem hd16 (c : Dev nD) : pdats m 16 c = dat16 (En16 m) (adm m 16) c := rfl
theorem hd17 (c : Dev nD) : pdats m 17 c = dat17 (En17 m) (adm m 17) c := rfl
theorem hd18 (c : Dev nD) : pdats m 18 c = dat18 (En18 m) (adm m 18) c := rfl
theorem hd19 (c : Dev nD) : pdats m 19 c = dat19 (En19 m) (adm m 19) c := rfl
theorem hd20 (c : Dev nD) : pdats m 20 c = dat20 (En20 m) (adm m 20) c := rfl
theorem hd21 (c : Dev nD) : pdats m 21 c = dat21 (En21 m) (adm m 21) c := rfl
theorem hd22 (c : Dev nD) : pdats m 22 c = dat22 (En22 m) (adm m 22) c := rfl
theorem hd23 (c : Dev nD) : pdats m 23 c = dat23 (En23 m) (adm m 23) c := rfl
theorem hd24 (c : Dev nD) : pdats m 24 c = dat24 (En24 m) (adm m 24) c := rfl
theorem hd25 (c : Dev nD) : pdats m 25 c = dat25 (En25 m) c := rfl
theorem hd26 (c : Dev nD) : pdats m 26 c = dat26 (En26 m) c := rfl

end Cert.KernelIdeal.Hand

end
-- ==== Proof.KI.ChainEq.lean ====
/-
  THE GENERATED CHAIN AT THESE UNKNOWNS IS THIS CHAIN. The generated regions module folds @main's items over the launch
  memory with an unknown array wherever a launch writes; with each unknown set to the array this development's chain
  holds there, the two folds agree step by step: a host stretch applies the same operations to equal contents, a launch
  replaces the same buffer by the same array.
-/
import proofs.«403631_j48275432407145_1_alg».proof.Proof.KI.ChainDefs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

variable (m : (ℓ : Loc nD τ sig) → Buf (Elt F) ℓ)

theorem V0_eq (c : Dev nD) : Gen.V0 m c = W0 m c := rfl
theorem V1_eq (c : Dev nD) : Gen.V1 m c = W1 m c := rfl
theorem V2_eq (c : Dev nD) : Gen.V2 m (outs m) c = W2 m c := by
  show Function.update (Gen.V1 m c) main_v2 (W2 m c main_v2) = W2 m c
  rw [V1_eq]; unfold W2; rw [Function.update_self]
theorem V3_eq (c : Dev nD) : Gen.V3 m (outs m) c = W3 m c := by
  show StableHlo.after hostOps1 (Gen.V2 m (outs m) c) = W3 m c
  rw [V2_eq]; rfl
theorem V4_eq (c : Dev nD) : Gen.V4 m (outs m) c = W4 m c := by
  show Function.update (Gen.V3 m (outs m) c) main_v4 (W4 m c main_v4) = W4 m c
  rw [V3_eq]; unfold W4; rw [Function.update_self]
theorem V5_eq (c : Dev nD) : Gen.V5 m (outs m) c = W5 m c := by
  show StableHlo.after hostOps2 (Gen.V4 m (outs m) c) = W5 m c
  rw [V4_eq]; rfl
theorem V6_eq (c : Dev nD) : Gen.V6 m (outs m) c = W6 m c := by
  show Function.update (Gen.V5 m (outs m) c) main_v6 (W6 m c main_v6) = W6 m c
  rw [V5_eq]; unfold W6; rw [Function.update_self]
theorem V7_eq (c : Dev nD) : Gen.V7 m (outs m) c = W7 m c := by
  show StableHlo.after hostOps3 (Gen.V6 m (outs m) c) = W7 m c
  rw [V6_eq]; rfl
theorem V8_eq (c : Dev nD) : Gen.V8 m (outs m) c = W8 m c := by
  show Function.update (Gen.V7 m (outs m) c) main_v8 (W8 m c main_v8) = W8 m c
  rw [V7_eq]; unfold W8; rw [Function.update_self]
theorem V9_eq (c : Dev nD) : Gen.V9 m (outs m) c = W9 m c := by
  show StableHlo.after hostOps4 (Gen.V8 m (outs m) c) = W9 m c
  rw [V8_eq]; rfl
theorem V10_eq (c : Dev nD) : Gen.V10 m (outs m) c = W10 m c := by
  show Function.update (Gen.V9 m (outs m) c) main_v10 (W10 m c main_v10) = W10 m c
  rw [V9_eq]; unfold W10; rw [Function.update_self]
theorem V11_eq (c : Dev nD) : Gen.V11 m (outs m) c = W11 m c := by
  show StableHlo.after hostOps5 (Gen.V10 m (outs m) c) = W11 m c
  rw [V10_eq]; rfl
theorem V12_eq (c : Dev nD) : Gen.V12 m (outs m) c = W12 m c := by
  show Function.update (Gen.V11 m (outs m) c) main_v12 (W12 m c main_v12) = W12 m c
  rw [V11_eq]; unfold W12; rw [Function.update_self]
theorem V13_eq (c : Dev nD) : Gen.V13 m (outs m) c = W13 m c := by
  show StableHlo.after hostOps6 (Gen.V12 m (outs m) c) = W13 m c
  rw [V12_eq]; rfl
theorem V14_eq (c : Dev nD) : Gen.V14 m (outs m) c = W14 m c := by
  show Function.update (Gen.V13 m (outs m) c) main_v14 (W14 m c main_v14) = W14 m c
  rw [V13_eq]; unfold W14; rw [Function.update_self]
theorem V15_eq (c : Dev nD) : Gen.V15 m (outs m) c = W15 m c := by
  show StableHlo.after hostOps7 (Gen.V14 m (outs m) c) = W15 m c
  rw [V14_eq]; rfl
theorem V16_eq (c : Dev nD) : Gen.V16 m (outs m) c = W16 m c := by
  show Function.update (Gen.V15 m (outs m) c) main_v16 (W16 m c main_v16) = W16 m c
  rw [V15_eq]; unfold W16; rw [Function.update_self]
theorem V17_eq (c : Dev nD) : Gen.V17 m (outs m) c = W17 m c := by
  show StableHlo.after hostOps8 (Gen.V16 m (outs m) c) = W17 m c
  rw [V16_eq]; rfl
theorem V18_eq (c : Dev nD) : Gen.V18 m (outs m) c = W18 m c := by
  show Function.update (Gen.V17 m (outs m) c) main_v18 (W18 m c main_v18) = W18 m c
  rw [V17_eq]; unfold W18; rw [Function.update_self]
theorem V19_eq (c : Dev nD) : Gen.V19 m (outs m) c = W19 m c := by
  show StableHlo.after hostOps9 (Gen.V18 m (outs m) c) = W19 m c
  rw [V18_eq]; rfl
theorem V20_eq (c : Dev nD) : Gen.V20 m (outs m) c = W20 m c := by
  show Function.update (Gen.V19 m (outs m) c) main_v20 (W20 m c main_v20) = W20 m c
  rw [V19_eq]; unfold W20; rw [Function.update_self]
theorem V21_eq (c : Dev nD) : Gen.V21 m (outs m) c = W21 m c := by
  show StableHlo.after hostOps10 (Gen.V20 m (outs m) c) = W21 m c
  rw [V20_eq]; rfl
theorem V22_eq (c : Dev nD) : Gen.V22 m (outs m) c = W22 m c := by
  show Function.update (Gen.V21 m (outs m) c) main_v22 (W22 m c main_v22) = W22 m c
  rw [V21_eq]; unfold W22; rw [Function.update_self]
theorem V23_eq (c : Dev nD) : Gen.V23 m (outs m) c = W23 m c := by
  show StableHlo.after hostOps11 (Gen.V22 m (outs m) c) = W23 m c
  rw [V22_eq]; rfl
theorem V24_eq (c : Dev nD) : Gen.V24 m (outs m) c = W24 m c := by
  show Function.update (Gen.V23 m (outs m) c) main_v24 (W24 m c main_v24) = W24 m c
  rw [V23_eq]; unfold W24; rw [Function.update_self]
theorem V25_eq (c : Dev nD) : Gen.V25 m (outs m) c = W25 m c := by
  show StableHlo.after hostOps12 (Gen.V24 m (outs m) c) = W25 m c
  rw [V24_eq]; rfl
theorem V26_eq (c : Dev nD) : Gen.V26 m (outs m) c = W26 m c := by
  show Function.update (Gen.V25 m (outs m) c) main_v26 (W26 m c main_v26) = W26 m c
  rw [V25_eq]; unfold W26; rw [Function.update_self]
theorem V27_eq (c : Dev nD) : Gen.V27 m (outs m) c = W27 m c := by
  show StableHlo.after hostOps13 (Gen.V26 m (outs m) c) = W27 m c
  rw [V26_eq]; rfl
theorem V28_eq (c : Dev nD) : Gen.V28 m (outs m) c = W28 m c := by
  show Function.update (Gen.V27 m (outs m) c) main_v28 (W28 m c main_v28) = W28 m c
  rw [V27_eq]; unfold W28; rw [Function.update_self]
theorem V29_eq (c : Dev nD) : Gen.V29 m (outs m) c = W29 m c := by
  show StableHlo.after hostOps14 (Gen.V28 m (outs m) c) = W29 m c
  rw [V28_eq]; rfl
theorem V30_eq (c : Dev nD) : Gen.V30 m (outs m) c = W30 m c := by
  show Function.update (Gen.V29 m (outs m) c) main_v30 (W30 m c main_v30) = W30 m c
  rw [V29_eq]; unfold W30; rw [Function.update_self]
theorem V31_eq (c : Dev nD) : Gen.V31 m (outs m) c = W31 m c := by
  show StableHlo.after hostOps15 (Gen.V30 m (outs m) c) = W31 m c
  rw [V30_eq]; rfl
theorem V32_eq (c : Dev nD) : Gen.V32 m (outs m) c = W32 m c := by
  show Function.update (Gen.V31 m (outs m) c) main_v32 (W32 m c main_v32) = W32 m c
  rw [V31_eq]; unfold W32; rw [Function.update_self]
theorem V33_eq (c : Dev nD) : Gen.V33 m (outs m) c = W33 m c := by
  show StableHlo.after hostOps16 (Gen.V32 m (outs m) c) = W33 m c
  rw [V32_eq]; rfl
theorem V34_eq (c : Dev nD) : Gen.V34 m (outs m) c = W34 m c := by
  show Function.update (Gen.V33 m (outs m) c) main_v34 (W34 m c main_v34) = W34 m c
  rw [V33_eq]; unfold W34; rw [Function.update_self]
theorem V35_eq (c : Dev nD) : Gen.V35 m (outs m) c = W35 m c := by
  show StableHlo.after hostOps17 (Gen.V34 m (outs m) c) = W35 m c
  rw [V34_eq]; rfl
theorem V36_eq (c : Dev nD) : Gen.V36 m (outs m) c = W36 m c := by
  show Function.update (Gen.V35 m (outs m) c) main_v36 (W36 m c main_v36) = W36 m c
  rw [V35_eq]; unfold W36; rw [Function.update_self]
theorem V37_eq (c : Dev nD) : Gen.V37 m (outs m) c = W37 m c := by
  show StableHlo.after hostOps18 (Gen.V36 m (outs m) c) = W37 m c
  rw [V36_eq]; rfl
theorem V38_eq (c : Dev nD) : Gen.V38 m (outs m) c = W38 m c := by
  show Function.update (Gen.V37 m (outs m) c) main_v38 (W38 m c main_v38) = W38 m c
  rw [V37_eq]; unfold W38; rw [Function.update_self]
theorem V39_eq (c : Dev nD) : Gen.V39 m (outs m) c = W39 m c := by
  show StableHlo.after hostOps19 (Gen.V38 m (outs m) c) = W39 m c
  rw [V38_eq]; rfl
theorem V40_eq (c : Dev nD) : Gen.V40 m (outs m) c = W40 m c := by
  show Function.update (Gen.V39 m (outs m) c) main_v40 (W40 m c main_v40) = W40 m c
  rw [V39_eq]; unfold W40; rw [Function.update_self]
theorem V41_eq (c : Dev nD) : Gen.V41 m (outs m) c = W41 m c := by
  show StableHlo.after hostOps20 (Gen.V40 m (outs m) c) = W41 m c
  rw [V40_eq]; rfl
theorem V42_eq (c : Dev nD) : Gen.V42 m (outs m) c = W42 m c := by
  show Function.update (Gen.V41 m (outs m) c) main_v42 (W42 m c main_v42) = W42 m c
  rw [V41_eq]; unfold W42; rw [Function.update_self]
theorem V43_eq (c : Dev nD) : Gen.V43 m (outs m) c = W43 m c := by
  show StableHlo.after hostOps21 (Gen.V42 m (outs m) c) = W43 m c
  rw [V42_eq]; rfl
theorem V44_eq (c : Dev nD) : Gen.V44 m (outs m) c = W44 m c := by
  show Function.update (Gen.V43 m (outs m) c) main_v44 (W44 m c main_v44) = W44 m c
  rw [V43_eq]; unfold W44; rw [Function.update_self]
theorem V45_eq (c : Dev nD) : Gen.V45 m (outs m) c = W45 m c := by
  show StableHlo.after hostOps22 (Gen.V44 m (outs m) c) = W45 m c
  rw [V44_eq]; rfl
theorem V46_eq (c : Dev nD) : Gen.V46 m (outs m) c = W46 m c := by
  show Function.update (Gen.V45 m (outs m) c) main_v46 (W46 m c main_v46) = W46 m c
  rw [V45_eq]; unfold W46; rw [Function.update_self]
theorem V47_eq (c : Dev nD) : Gen.V47 m (outs m) c = W47 m c := by
  show StableHlo.after hostOps23 (Gen.V46 m (outs m) c) = W47 m c
  rw [V46_eq]; rfl
theorem V48_eq (c : Dev nD) : Gen.V48 m (outs m) c = W48 m c := by
  show Function.update (Gen.V47 m (outs m) c) main_v48 (W48 m c main_v48) = W48 m c
  rw [V47_eq]; unfold W48; rw [Function.update_self]
theorem V49_eq (c : Dev nD) : Gen.V49 m (outs m) c = W49 m c := by
  show StableHlo.after hostOps24 (Gen.V48 m (outs m) c) = W49 m c
  rw [V48_eq]; rfl
theorem V50_eq (c : Dev nD) : Gen.V50 m (outs m) c = W50 m c := by
  show Function.update (Gen.V49 m (outs m) c) main_v50 (W50 m c main_v50) = W50 m c
  rw [V49_eq]; unfold W50; rw [Function.update_self]
theorem V51_eq (c : Dev nD) : Gen.V51 m (outs m) c = W51 m c := by
  show StableHlo.after hostOps25 (Gen.V50 m (outs m) c) = W51 m c
  rw [V50_eq]; rfl
theorem V52_eq (c : Dev nD) : Gen.V52 m (outs m) c = W52 m c := by
  show Function.update (Gen.V51 m (outs m) c) main_v54 (W52 m c main_v54) = W52 m c
  rw [V51_eq]; unfold W52; rw [Function.update_self]
theorem V53_eq (c : Dev nD) : Gen.V53 m (outs m) c = W53 m c := by
  show StableHlo.after hostOps26 (Gen.V52 m (outs m) c) = W53 m c
  rw [V52_eq]; rfl
theorem V54_eq (c : Dev nD) : Gen.V54 m (outs m) c = W54 m c := by
  show Function.update (Gen.V53 m (outs m) c) main_v73 (W54 m c main_v73) = W54 m c
  rw [V53_eq]; unfold W54; rw [Function.update_self]

end Cert.KernelIdeal.Hand

end
-- ==== Proof.KI.ChainSeg.lean ====
/-
  WHAT EACH LAUNCH'S SEGMENT RECORD IS INSTANTIATED WITH. A launch's record is stated between any entry and exit contents
  tied by two facts: each of its windows' arrays ends at what the pipeline leaves there, and every other buffer is kept.
  Of this chain both hold by construction: the output array is the one buffer replaced, by the pipeline's last array;
  an input window's array is never written, so it ends as it was entered, and it is not the replaced buffer. A host
  stretch changes only the buffers its operations write. A gather launch's table is, on every core, the slice buffer of
  the contents it is entered from.
-/
import proofs.«403631_j48275432407145_1_alg».proof.Proof.KI.ChainDefs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

variable (m : (ℓ : Loc nD τ sig) → Buf (Elt F) ℓ)

theorem W1_of (c : Dev nD) (b : Ref sig .tc) (hb : b ∉ hostOps0_W) : W1 m c b = W0 m c b :=
  StableHlo.after_of_writes_sub hostOps0 (W0 m c) hostOps0_writes hb
theorem W2_out (c : Dev nD) : W2 m c main_v2 = O0 (En0 m) (adm0 m) c := by
  unfold W2; rw [Function.update_self]
theorem W2_of (c : Dev nD) (b : Ref sig .tc) (hb : b ≠ main_v2) : W2 m c b = W1 m c b := by
  unfold W2; exact Function.update_of_ne (StableHlo.devRef_ne_of_ne hb) _ _
theorem hrest0 (c : Dev nD) (b : Ref sig .tc) (hb : b ∉ Finset.univ.image (Pipeline.arrRef spec0)) : W2 m c b = W1 m c b :=
  W2_of m c b fun h => hb (Finset.mem_image.mpr ⟨1, Finset.mem_univ _, h.symm⟩)
theorem hF0 (c : Dev nD) : ∀ w : Fin 2, (dat0 (En0 m) (adm0 m) c).arrAt w (cfg0 (adm0 m)).N = W2 m c (Pipeline.arrRef spec0 w)
  | 0 => ((dat0 (En0 m) (adm0 m) c).arrAt_in 0 rfl _).trans ((A_eq0 (En0 m) (adm0 m) c 0).trans (W2_of m c main_arg1 (by decide)).symm)
  | 1 => (W2_out m c).symm
theorem adm0_tbl (c : Dev nD) (k : Fin pre0.K) : (adm0 m).1 k = W1 m c (pre0.ref k) := by
  rw [Subsingleton.elim c 0]; rfl
theorem htab0 (c : Dev nD) : (adm0 m).1 = fun k => W1 m c (pre0.ref k) := funext (adm0_tbl m c)
theorem W3_of (c : Dev nD) (b : Ref sig .tc) (hb : b ∉ hostOps1_W) : W3 m c b = W2 m c b :=
  StableHlo.after_of_writes_sub hostOps1 (W2 m c) hostOps1_writes hb
theorem W4_out (c : Dev nD) : W4 m c main_v4 = O1 (En1 m) (adm1 m) c := by
  unfold W4; rw [Function.update_self]
theorem W4_of (c : Dev nD) (b : Ref sig .tc) (hb : b ≠ main_v4) : W4 m c b = W3 m c b := by
  unfold W4; exact Function.update_of_ne (StableHlo.devRef_ne_of_ne hb) _ _
theorem hrest1 (c : Dev nD) (b : Ref sig .tc) (hb : b ∉ Finset.univ.image (Pipeline.arrRef spec1)) : W4 m c b = W3 m c b :=
  W4_of m c b fun h => hb (Finset.mem_image.mpr ⟨1, Finset.mem_univ _, h.symm⟩)
theorem hF1 (c : Dev nD) : ∀ w : Fin 2, (dat1 (En1 m) (adm1 m) c).arrAt w (cfg1 (adm1 m)).N = W4 m c (Pipeline.arrRef spec1 w)
  | 0 => ((dat1 (En1 m) (adm1 m) c).arrAt_in 0 rfl _).trans ((A_eq1 (En1 m) (adm1 m) c 0).trans (W4_of m c main_arg1 (by decide)).symm)
  | 1 => (W4_out m c).symm
theorem adm1_tbl (c : Dev nD) (k : Fin pre1.K) : (adm1 m).1 k = W3 m c (pre1.ref k) := by
  rw [Subsingleton.elim c 0]; rfl
theorem htab1 (c : Dev nD) : (adm1 m).1 = fun k => W3 m c (pre1.ref k) := funext (adm1_tbl m c)
theorem W5_of (c : Dev nD) (b : Ref sig .tc) (hb : b ∉ hostOps2_W) : W5 m c b = W4 m c b :=
  StableHlo.after_of_writes_sub hostOps2 (W4 m c) hostOps2_writes hb
theorem W6_out (c : Dev nD) : W6 m c main_v6 = O2 (En2 m) (adm2 m) c := by
  unfold W6; rw [Function.update_self]
theorem W6_of (c : Dev nD) (b : Ref sig .tc) (hb : b ≠ main_v6) : W6 m c b = W5 m c b := by
  unfold W6; exact Function.update_of_ne (StableHlo.devRef_ne_of_ne hb) _ _
theorem hrest2 (c : Dev nD) (b : Ref sig .tc) (hb : b ∉ Finset.univ.image (Pipeline.arrRef spec2)) : W6 m c b = W5 m c b :=
  W6_of m c b fun h => hb (Finset.mem_image.mpr ⟨1, Finset.mem_univ _, h.symm⟩)
theorem hF2 (c : Dev nD) : ∀ w : Fin 2, (dat2 (En2 m) (adm2 m) c).arrAt w (cfg2 (adm2 m)).N = W6 m c (Pipeline.arrRef spec2 w)
  | 0 => ((dat2 (En2 m) (adm2 m) c).arrAt_in 0 rfl _).trans ((A_eq2 (En2 m) (adm2 m) c 0).trans (W6_of m c main_arg1 (by decide)).symm)
  | 1 => (W6_out m c).symm
theorem adm2_tbl (c : Dev nD) (k : Fin pre2.K) : (adm2 m).1 k = W5 m c (pre2.ref k) := by
  rw [Subsingleton.elim c 0]; rfl
theorem htab2 (c : Dev nD) : (adm2 m).1 = fun k => W5 m c (pre2.ref k) := funext (adm2_tbl m c)
theorem W7_of (c : Dev nD) (b : Ref sig .tc) (hb : b ∉ hostOps3_W) : W7 m c b = W6 m c b :=
  StableHlo.after_of_writes_sub hostOps3 (W6 m c) hostOps3_writes hb
theorem W8_out (c : Dev nD) : W8 m c main_v8 = O3 (En3 m) (adm3 m) c := by
  unfold W8; rw [Function.update_self]
theorem W8_of (c : Dev nD) (b : Ref sig .tc) (hb : b ≠ main_v8) : W8 m c b = W7 m c b := by
  unfold W8; exact Function.update_of_ne (StableHlo.devRef_ne_of_ne hb) _ _
theorem hrest3 (c : Dev nD) (b : Ref sig .tc) (hb : b ∉ Finset.univ.image (Pipeline.arrRef spec3)) : W8 m c b = W7 m c b :=
  W8_of m c b fun h => hb (Finset.mem_image.mpr ⟨1, Finset.mem_univ _, h.symm⟩)
theorem hF3 (c : Dev nD) : ∀ w : Fin 2, (dat3 (En3 m) (adm3 m) c).arrAt w (cfg3 (adm3 m)).N = W8 m c (Pipeline.arrRef spec3 w)
  | 0 => ((dat3 (En3 m) (adm3 m) c).arrAt_in 0 rfl _).trans ((A_eq3 (En3 m) (adm3 m) c 0).trans (W8_of m c main_arg1 (by decide)).symm)
  | 1 => (W8_out m c).symm
theorem adm3_tbl (c : Dev nD) (k : Fin pre3.K) : (adm3 m).1 k = W7 m c (pre3.ref k) := by
  rw [Subsingleton.elim c 0]; rfl
theorem htab3 (c : Dev nD) : (adm3 m).1 = fun k => W7 m c (pre3.ref k) := funext (adm3_tbl m c)
theorem W9_of (c : Dev nD) (b : Ref sig .tc) (hb : b ∉ hostOps4_W) : W9 m c b = W8 m c b :=
  StableHlo.after_of_writes_sub hostOps4 (W8 m c) hostOps4_writes hb
theorem W10_out (c : Dev nD) : W10 m c main_v10 = O4 (En4 m) (adm4 m) c := by
  unfold W10; rw [Function.update_self]
theorem W10_of (c : Dev nD) (b : Ref sig .tc) (hb : b ≠ main_v10) : W10 m c b = W9 m c b := by
  unfold W10; exact Function.update_of_ne (StableHlo.devRef_ne_of_ne hb) _ _
theorem hrest4 (c : Dev nD) (b : Ref sig .tc) (hb : b ∉ Finset.univ.image (Pipeline.arrRef spec4)) : W10 m c b = W9 m c b :=
  W10_of m c b fun h => hb (Finset.mem_image.mpr ⟨1, Finset.mem_univ _, h.symm⟩)
theorem hF4 (c : Dev nD) : ∀ w : Fin 2, (dat4 (En4 m) (adm4 m) c).arrAt w (cfg4 (adm4 m)).N = W10 m c (Pipeline.arrRef spec4 w)
  | 0 => ((dat4 (En4 m) (adm4 m) c).arrAt_in 0 rfl _).trans ((A_eq4 (En4 m) (adm4 m) c 0).trans (W10_of m c main_arg1 (by decide)).symm)
  | 1 => (W10_out m c).symm
theorem adm4_tbl (c : Dev nD) (k : Fin pre4.K) : (adm4 m).1 k = W9 m c (pre4.ref k) := by
  rw [Subsingleton.elim c 0]; rfl
theorem htab4 (c : Dev nD) : (adm4 m).1 = fun k => W9 m c (pre4.ref k) := funext (adm4_tbl m c)
theorem W11_of (c : Dev nD) (b : Ref sig .tc) (hb : b ∉ hostOps5_W) : W11 m c b = W10 m c b :=
  StableHlo.after_of_writes_sub hostOps5 (W10 m c) hostOps5_writes hb
theorem W12_out (c : Dev nD) : W12 m c main_v12 = O5 (En5 m) (adm5 m) c := by
  unfold W12; rw [Function.update_self]
theorem W12_of (c : Dev nD) (b : Ref sig .tc) (hb : b ≠ main_v12) : W12 m c b = W11 m c b := by
  unfold W12; exact Function.update_of_ne (StableHlo.devRef_ne_of_ne hb) _ _
theorem hrest5 (c : Dev nD) (b : Ref sig .tc) (hb : b ∉ Finset.univ.image (Pipeline.arrRef spec5)) : W12 m c b = W11 m c b :=
  W12_of m c b fun h => hb (Finset.mem_image.mpr ⟨1, Finset.mem_univ _, h.symm⟩)
theorem hF5 (c : Dev nD) : ∀ w : Fin 2, (dat5 (En5 m) (adm5 m) c).arrAt w (cfg5 (adm5 m)).N = W12 m c (Pipeline.arrRef spec5 w)
  | 0 => ((dat5 (En5 m) (adm5 m) c).arrAt_in 0 rfl _).trans ((A_eq5 (En5 m) (adm5 m) c 0).trans (W12_of m c main_arg1 (by decide)).symm)
  | 1 => (W12_out m c).symm
theorem adm5_tbl (c : Dev nD) (k : Fin pre5.K) : (adm5 m).1 k = W11 m c (pre5.ref k) := by
  rw [Subsingleton.elim c 0]; rfl
theorem htab5 (c : Dev nD) : (adm5 m).1 = fun k => W11 m c (pre5.ref k) := funext (adm5_tbl m c)
theorem W13_of (c : Dev nD) (b : Ref sig .tc) (hb : b ∉ hostOps6_W) : W13 m c b = W12 m c b :=
  StableHlo.after_of_writes_sub hostOps6 (W12 m c) hostOps6_writes hb
theorem W14_out (c : Dev nD) : W14 m c main_v14 = O6 (En6 m) (adm6 m) c := by
  unfold W14; rw [Function.update_self]
theorem W14_of (c : Dev nD) (b : Ref sig .tc) (hb : b ≠ main_v14) : W14 m c b = W13 m c b := by
  unfold W14; exact Function.update_of_ne (StableHlo.devRef_ne_of_ne hb) _ _
theorem hrest6 (c : Dev nD) (b : Ref sig .tc) (hb : b ∉ Finset.univ.image (Pipeline.arrRef spec6)) : W14 m c b = W13 m c b :=
  W14_of m c b fun h => hb (Finset.mem_image.mpr ⟨1, Finset.mem_univ _, h.symm⟩)
theorem hF6 (c : Dev nD) : ∀ w : Fin 2, (dat6 (En6 m) (adm6 m) c).arrAt w (cfg6 (adm6 m)).N = W14 m c (Pipeline.arrRef spec6 w)
  | 0 => ((dat6 (En6 m) (adm6 m) c).arrAt_in 0 rfl _).trans ((A_eq6 (En6 m) (adm6 m) c 0).trans (W14_of m c main_arg1 (by decide)).symm)
  | 1 => (W14_out m c).symm
theorem adm6_tbl (c : Dev nD) (k : Fin pre6.K) : (adm6 m).1 k = W13 m c (pre6.ref k) := by
  rw [Subsingleton.elim c 0]; rfl
theorem htab6 (c : Dev nD) : (adm6 m).1 = fun k => W13 m c (pre6.ref k) := funext (adm6_tbl m c)
theorem W15_of (c : Dev nD) (b : Ref sig .tc) (hb : b ∉ hostOps7_W) : W15 m c b = W14 m c b :=
  StableHlo.after_of_writes_sub hostOps7 (W14 m c) hostOps7_writes hb
theorem W16_out (c : Dev nD) : W16 m c main_v16 = O7 (En7 m) (adm7 m) c := by
  unfold W16; rw [Function.update_self]
theorem W16_of (c : Dev nD) (b : Ref sig .tc) (hb : b ≠ main_v16) : W16 m c b = W15 m c b := by
  unfold W16; exact Function.update_of_ne (StableHlo.devRef_ne_of_ne hb) _ _
theorem hrest7 (c : Dev nD) (b : Ref sig .tc) (hb : b ∉ Finset.univ.image (Pipeline.arrRef spec7)) : W16 m c b = W15 m c b :=
  W16_of m c b fun h => hb (Finset.mem_image.mpr ⟨1, Finset.mem_univ _, h.symm⟩)
theorem hF7 (c : Dev nD) : ∀ w : Fin 2, (dat7 (En7 m) (adm7 m) c).arrAt w (cfg7 (adm7 m)).N = W16 m c (Pipeline.arrRef spec7 w)
  | 0 => ((dat7 (En7 m) (adm7 m) c).arrAt_in 0 rfl _).trans ((A_eq7 (En7 m) (adm7 m) c 0).trans (W16_of m c main_arg1 (by decide)).symm)
  | 1 => (W16_out m c).symm
theorem adm7_tbl (c : Dev nD) (k : Fin pre7.K) : (adm7 m).1 k = W15 m c (pre7.ref k) := by
  rw [Subsingleton.elim c 0]; rfl
theorem htab7 (c : Dev nD) : (adm7 m).1 = fun k => W15 m c (pre7.ref k) := funext (adm7_tbl m c)
theorem W17_of (c : Dev nD) (b : Ref sig .tc) (hb : b ∉ hostOps8_W) : W17 m c b = W16 m c b :=
  StableHlo.after_of_writes_sub hostOps8 (W16 m c) hostOps8_writes hb
theorem W18_out (c : Dev nD) : W18 m c main_v18 = O8 (En8 m) (adm8 m) c := by
  unfold W18; rw [Function.update_self]
theorem W18_of (c : Dev nD) (b : Ref sig .tc) (hb : b ≠ main_v18) : W18 m c b = W17 m c b := by
  unfold W18; exact Function.update_of_ne (StableHlo.devRef_ne_of_ne hb) _ _
theorem hrest8 (c : Dev nD) (b : Ref sig .tc) (hb : b ∉ Finset.univ.image (Pipeline.arrRef spec8)) : W18 m c b = W17 m c b :=
  W18_of m c b fun h => hb (Finset.mem_image.mpr ⟨1, Finset.mem_univ _, h.symm⟩)
theorem hF8 (c : Dev nD) : ∀ w : Fin 2, (dat8 (En8 m) (adm8 m) c).arrAt w (cfg8 (adm8 m)).N = W18 m c (Pipeline.arrRef spec8 w)
  | 0 => ((dat8 (En8 m) (adm8 m) c).arrAt_in 0 rfl _).trans ((A_eq8 (En8 m) (adm8 m) c 0).trans (W18_of m c main_arg1 (by decide)).symm)
  | 1 => (W18_out m c).symm
theorem adm8_tbl (c : Dev nD) (k : Fin pre8.K) : (adm8 m).1 k = W17 m c (pre8.ref k) := by
  rw [Subsingleton.elim c 0]; rfl
theorem htab8 (c : Dev nD) : (adm8 m).1 = fun k => W17 m c (pre8.ref k) := funext (adm8_tbl m c)
theorem W19_of (c : Dev nD) (b : Ref sig .tc) (hb : b ∉ hostOps9_W) : W19 m c b = W18 m c b :=
  StableHlo.after_of_writes_sub hostOps9 (W18 m c) hostOps9_writes hb
theorem W20_out (c : Dev nD) : W20 m c main_v20 = O9 (En9 m) (adm9 m) c := by
  unfold W20; rw [Function.update_self]
theorem W20_of (c : Dev nD) (b : Ref sig .tc) (hb : b ≠ main_v20) : W20 m c b = W19 m c b := by
  unfold W20; exact Function.update_of_ne (StableHlo.devRef_ne_of_ne hb) _ _
theorem hrest9 (c : Dev nD) (b : Ref sig .tc) (hb : b ∉ Finset.univ.image (Pipeline.arrRef spec9)) : W20 m c b = W19 m c b :=
  W20_of m c b fun h => hb (Finset.mem_image.mpr ⟨1, Finset.mem_univ _, h.symm⟩)
theorem hF9 (c : Dev nD) : ∀ w : Fin 2, (dat9 (En9 m) (adm9 m) c).arrAt w (cfg9 (adm9 m)).N = W20 m c (Pipeline.arrRef spec9 w)
  | 0 => ((dat9 (En9 m) (adm9 m) c).arrAt_in 0 rfl _).trans ((A_eq9 (En9 m) (adm9 m) c 0).trans (W20_of m c main_arg1 (by decide)).symm)
  | 1 => (W20_out m c).symm
theorem adm9_tbl (c : Dev nD) (k : Fin pre9.K) : (adm9 m).1 k = W19 m c (pre9.ref k) := by
  rw [Subsingleton.elim c 0]; rfl
theorem htab9 (c : Dev nD) : (adm9 m).1 = fun k => W19 m c (pre9.ref k) := funext (adm9_tbl m c)
theorem W21_of (c : Dev nD) (b : Ref sig .tc) (hb : b ∉ hostOps10_W) : W21 m c b = W20 m c b :=
  StableHlo.after_of_writes_sub hostOps10 (W20 m c) hostOps10_writes hb
theorem W22_out (c : Dev nD) : W22 m c main_v22 = O10 (En10 m) (adm10 m) c := by
  unfold W22; rw [Function.update_self]
theorem W22_of (c : Dev nD) (b : Ref sig .tc) (hb : b ≠ main_v22) : W22 m c b = W21 m c b := by
  unfold W22; exact Function.update_of_ne (StableHlo.devRef_ne_of_ne hb) _ _
theorem hrest10 (c : Dev nD) (b : Ref sig .tc) (hb : b ∉ Finset.univ.image (Pipeline.arrRef spec10)) : W22 m c b = W21 m c b :=
  W22_of m c b fun h => hb (Finset.mem_image.mpr ⟨1, Finset.mem_univ _, h.symm⟩)
theorem hF10 (c : Dev nD) : ∀ w : Fin 2, (dat10 (En10 m) (adm10 m) c).arrAt w (cfg10 (adm10 m)).N = W22 m c (Pipeline.arrRef spec10 w)
  | 0 => ((dat10 (En10 m) (adm10 m) c).arrAt_in 0 rfl _).trans ((A_eq10 (En10 m) (adm10 m) c 0).trans (W22_of m c main_arg1 (by decide)).symm)
  | 1 => (W22_out m c).symm
theorem adm10_tbl (c : Dev nD) (k : Fin pre10.K) : (adm10 m).1 k = W21 m c (pre10.ref k) := by
  rw [Subsingleton.elim c 0]; rfl
theorem htab10 (c : Dev nD) : (adm10 m).1 = fun k => W21 m c (pre10.ref k) := funext (adm10_tbl m c)
theorem W23_of (c : Dev nD) (b : Ref sig .tc) (hb : b ∉ hostOps11_W) : W23 m c b = W22 m c b :=
  StableHlo.after_of_writes_sub hostOps11 (W22 m c) hostOps11_writes hb
theorem W24_out (c : Dev nD) : W24 m c main_v24 = O11 (En11 m) (adm11 m) c := by
  unfold W24; rw [Function.update_self]
theorem W24_of (c : Dev nD) (b : Ref sig .tc) (hb : b ≠ main_v24) : W24 m c b = W23 m c b := by
  unfold W24; exact Function.update_of_ne (StableHlo.devRef_ne_of_ne hb) _ _
theorem hrest11 (c : Dev nD) (b : Ref sig .tc) (hb : b ∉ Finset.univ.image (Pipeline.arrRef spec11)) : W24 m c b = W23 m c b :=
  W24_of m c b fun h => hb (Finset.mem_image.mpr ⟨1, Finset.mem_univ _, h.symm⟩)
theorem hF11 (c : Dev nD) : ∀ w : Fin 2, (dat11 (En11 m) (adm11 m) c).arrAt w (cfg11 (adm11 m)).N = W24 m c (Pipeline.arrRef spec11 w)
  | 0 => ((dat11 (En11 m) (adm11 m) c).arrAt_in 0 rfl _).trans ((A_eq11 (En11 m) (adm11 m) c 0).trans (W24_of m c main_arg1 (by decide)).symm)
  | 1 => (W24_out m c).symm
theorem adm11_tbl (c : Dev nD) (k : Fin pre11.K) : (adm11 m).1 k = W23 m c (pre11.ref k) := by
  rw [Subsingleton.elim c 0]; rfl
theorem htab11 (c : Dev nD) : (adm11 m).1 = fun k => W23 m c (pre11.ref k) := funext (adm11_tbl m c)
theorem W25_of (c : Dev nD) (b : Ref sig .tc) (hb : b ∉ hostOps12_W) : W25 m c b = W24 m c b :=
  StableHlo.after_of_writes_sub hostOps12 (W24 m c) hostOps12_writes hb
theorem W26_out (c : Dev nD) : W26 m c main_v26 = O12 (En12 m) (adm12 m) c := by
  unfold W26; rw [Function.update_self]
theorem W26_of (c : Dev nD) (b : Ref sig .tc) (hb : b ≠ main_v26) : W26 m c b = W25 m c b := by
  unfold W26; exact Function.update_of_ne (StableHlo.devRef_ne_of_ne hb) _ _
theorem hrest12 (c : Dev nD) (b : Ref sig .tc) (hb : b ∉ Finset.univ.image (Pipeline.arrRef spec12)) : W26 m c b = W25 m c b :=
  W26_of m c b fun h => hb (Finset.mem_image.mpr ⟨1, Finset.mem_univ _, h.symm⟩)
theorem hF12 (c : Dev nD) : ∀ w : Fin 2, (dat12 (En12 m) (adm12 m) c).arrAt w (cfg12 (adm12 m)).N = W26 m c (Pipeline.arrRef spec12 w)
  | 0 => ((dat12 (En12 m) (adm12 m) c).arrAt_in 0 rfl _).trans ((A_eq12 (En12 m) (adm12 m) c 0).trans (W26_of m c main_arg1 (by decide)).symm)
  | 1 => (W26_out m c).symm
theorem adm12_tbl (c : Dev nD) (k : Fin pre12.K) : (adm12 m).1 k = W25 m c (pre12.ref k) := by
  rw [Subsingleton.elim c 0]; rfl
theorem htab12 (c : Dev nD) : (adm12 m).1 = fun k => W25 m c (pre12.ref k) := funext (adm12_tbl m c)
theorem W27_of (c : Dev nD) (b : Ref sig .tc) (hb : b ∉ hostOps13_W) : W27 m c b = W26 m c b :=
  StableHlo.after_of_writes_sub hostOps13 (W26 m c) hostOps13_writes hb
theorem W28_out (c : Dev nD) : W28 m c main_v28 = O13 (En13 m) (adm13 m) c := by
  unfold W28; rw [Function.update_self]
theorem W28_of (c : Dev nD) (b : Ref sig .tc) (hb : b ≠ main_v28) : W28 m c b = W27 m c b := by
  unfold W28; exact Function.update_of_ne (StableHlo.devRef_ne_of_ne hb) _ _
theorem hrest13 (c : Dev nD) (b : Ref sig .tc) (hb : b ∉ Finset.univ.image (Pipeline.arrRef spec13)) : W28 m c b = W27 m c b :=
  W28_of m c b fun h => hb (Finset.mem_image.mpr ⟨1, Finset.mem_univ _, h.symm⟩)
theorem hF13 (c : Dev nD) : ∀ w : Fin 2, (dat13 (En13 m) (adm13 m) c).arrAt w (cfg13 (adm13 m)).N = W28 m c (Pipeline.arrRef spec13 w)
  | 0 => ((dat13 (En13 m) (adm13 m) c).arrAt_in 0 rfl _).trans ((A_eq13 (En13 m) (adm13 m) c 0).trans (W28_of m c main_arg1 (by decide)).symm)
  | 1 => (W28_out m c).symm
theorem adm13_tbl (c : Dev nD) (k : Fin pre13.K) : (adm13 m).1 k = W27 m c (pre13.ref k) := by
  rw [Subsingleton.elim c 0]; rfl
theorem htab13 (c : Dev nD) : (adm13 m).1 = fun k => W27 m c (pre13.ref k) := funext (adm13_tbl m c)
theorem W29_of (c : Dev nD) (b : Ref sig .tc) (hb : b ∉ hostOps14_W) : W29 m c b = W28 m c b :=
  StableHlo.after_of_writes_sub hostOps14 (W28 m c) hostOps14_writes hb
theorem W30_out (c : Dev nD) : W30 m c main_v30 = O14 (En14 m) (adm14 m) c := by
  unfold W30; rw [Function.update_self]
theorem W30_of (c : Dev nD) (b : Ref sig .tc) (hb : b ≠ main_v30) : W30 m c b = W29 m c b := by
  unfold W30; exact Function.update_of_ne (StableHlo.devRef_ne_of_ne hb) _ _
theorem hrest14 (c : Dev nD) (b : Ref sig .tc) (hb : b ∉ Finset.univ.image (Pipeline.arrRef spec14)) : W30 m c b = W29 m c b :=
  W30_of m c b fun h => hb (Finset.mem_image.mpr ⟨1, Finset.mem_univ _, h.symm⟩)
theorem hF14 (c : Dev nD) : ∀ w : Fin 2, (dat14 (En14 m) (adm14 m) c).arrAt w (cfg14 (adm14 m)).N = W30 m c (Pipeline.arrRef spec14 w)
  | 0 => ((dat14 (En14 m) (adm14 m) c).arrAt_in 0 rfl _).trans ((A_eq14 (En14 m) (adm14 m) c 0).trans (W30_of m c main_arg1 (by decide)).symm)
  | 1 => (W30_out m c).symm
theorem adm14_tbl (c : Dev nD) (k : Fin pre14.K) : (adm14 m).1 k = W29 m c (pre14.ref k) := by
  rw [Subsingleton.elim c 0]; rfl
theorem htab14 (c : Dev nD) : (adm14 m).1 = fun k => W29 m c (pre14.ref k) := funext (adm14_tbl m c)
theorem W31_of (c : Dev nD) (b : Ref sig .tc) (hb : b ∉ hostOps15_W) : W31 m c b = W30 m c b :=
  StableHlo.after_of_writes_sub hostOps15 (W30 m c) hostOps15_writes hb
theorem W32_out (c : Dev nD) : W32 m c main_v32 = O15 (En15 m) (adm15 m) c := by
  unfold W32; rw [Function.update_self]
theorem W32_of (c : Dev nD) (b : Ref sig .tc) (hb : b ≠ main_v32) : W32 m c b = W31 m c b := by
  unfold W32; exact Function.update_of_ne (StableHlo.devRef_ne_of_ne hb) _ _
theorem hrest15 (c : Dev nD) (b : Ref sig .tc) (hb : b ∉ Finset.univ.image (Pipeline.arrRef spec15)) : W32 m c b = W31 m c b :=
  W32_of m c b fun h => hb (Finset.mem_image.mpr ⟨1, Finset.mem_univ _, h.symm⟩)
theorem hF15 (c : Dev nD) : ∀ w : Fin 2, (dat15 (En15 m) (adm15 m) c).arrAt w (cfg15 (adm15 m)).N = W32 m c (Pipeline.arrRef spec15 w)
  | 0 => ((dat15 (En15 m) (adm15 m) c).arrAt_in 0 rfl _).trans ((A_eq15 (En15 m) (adm15 m) c 0).trans (W32_of m c main_arg1 (by decide)).symm)
  | 1 => (W32_out m c).symm
theorem adm15_tbl (c : Dev nD) (k : Fin pre15.K) : (adm15 m).1 k = W31 m c (pre15.ref k) := by
  rw [Subsingleton.elim c 0]; rfl
theorem htab15 (c : Dev nD) : (adm15 m).1 = fun k => W31 m c (pre15.ref k) := funext (adm15_tbl m c)
theorem W33_of (c : Dev nD) (b : Ref sig .tc) (hb : b ∉ hostOps16_W) : W33 m c b = W32 m c b :=
  StableHlo.after_of_writes_sub hostOps16 (W32 m c) hostOps16_writes hb
theorem W34_out (c : Dev nD) : W34 m c main_v34 = O16 (En16 m) (adm16 m) c := by
  unfold W34; rw [Function.update_self]
theorem W34_of (c : Dev nD) (b : Ref sig .tc) (hb : b ≠ main_v34) : W34 m c b = W33 m c b := by
  unfold W34; exact Function.update_of_ne (StableHlo.devRef_ne_of_ne hb) _ _
theorem hrest16 (c : Dev nD) (b : Ref sig .tc) (hb : b ∉ Finset.univ.image (Pipeline.arrRef spec16)) : W34 m c b = W33 m c b :=
  W34_of m c b fun h => hb (Finset.mem_image.mpr ⟨1, Finset.mem_univ _, h.symm⟩)
theorem hF16 (c : Dev nD) : ∀ w : Fin 2, (dat16 (En16 m) (adm16 m) c).arrAt w (cfg16 (adm16 m)).N = W34 m c (Pipeline.arrRef spec16 w)
  | 0 => ((dat16 (En16 m) (adm16 m) c).arrAt_in 0 rfl _).trans ((A_eq16 (En16 m) (adm16 m) c 0).trans (W34_of m c main_arg1 (by decide)).symm)
  | 1 => (W34_out m c).symm
theorem adm16_tbl (c : Dev nD) (k : Fin pre16.K) : (adm16 m).1 k = W33 m c (pre16.ref k) := by
  rw [Subsingleton.elim c 0]; rfl
theorem htab16 (c : Dev nD) : (adm16 m).1 = fun k => W33 m c (pre16.ref k) := funext (adm16_tbl m c)
theorem W35_of (c : Dev nD) (b : Ref sig .tc) (hb : b ∉ hostOps17_W) : W35 m c b = W34 m c b :=
  StableHlo.after_of_writes_sub hostOps17 (W34 m c) hostOps17_writes hb
theorem W36_out (c : Dev nD) : W36 m c main_v36 = O17 (En17 m) (adm17 m) c := by
  unfold W36; rw [Function.update_self]
theorem W36_of (c : Dev nD) (b : Ref sig .tc) (hb : b ≠ main_v36) : W36 m c b = W35 m c b := by
  unfold W36; exact Function.update_of_ne (StableHlo.devRef_ne_of_ne hb) _ _
theorem hrest17 (c : Dev nD) (b : Ref sig .tc) (hb : b ∉ Finset.univ.image (Pipeline.arrRef spec17)) : W36 m c b = W35 m c b :=
  W36_of m c b fun h => hb (Finset.mem_image.mpr ⟨1, Finset.mem_univ _, h.symm⟩)
theorem hF17 (c : Dev nD) : ∀ w : Fin 2, (dat17 (En17 m) (adm17 m) c).arrAt w (cfg17 (adm17 m)).N = W36 m c (Pipeline.arrRef spec17 w)
  | 0 => ((dat17 (En17 m) (adm17 m) c).arrAt_in 0 rfl _).trans ((A_eq17 (En17 m) (adm17 m) c 0).trans (W36_of m c main_arg1 (by decide)).symm)
  | 1 => (W36_out m c).symm
theorem adm17_tbl (c : Dev nD) (k : Fin pre17.K) : (adm17 m).1 k = W35 m c (pre17.ref k) := by
  rw [Subsingleton.elim c 0]; rfl
theorem htab17 (c : Dev nD) : (adm17 m).1 = fun k => W35 m c (pre17.ref k) := funext (adm17_tbl m c)
theorem W37_of (c : Dev nD) (b : Ref sig .tc) (hb : b ∉ hostOps18_W) : W37 m c b = W36 m c b :=
  StableHlo.after_of_writes_sub hostOps18 (W36 m c) hostOps18_writes hb
theorem W38_out (c : Dev nD) : W38 m c main_v38 = O18 (En18 m) (adm18 m) c := by
  unfold W38; rw [Function.update_self]
theorem W38_of (c : Dev nD) (b : Ref sig .tc) (hb : b ≠ main_v38) : W38 m c b = W37 m c b := by
  unfold W38; exact Function.update_of_ne (StableHlo.devRef_ne_of_ne hb) _ _
theorem hrest18 (c : Dev nD) (b : Ref sig .tc) (hb : b ∉ Finset.univ.image (Pipeline.arrRef spec18)) : W38 m c b = W37 m c b :=
  W38_of m c b fun h => hb (Finset.mem_image.mpr ⟨1, Finset.mem_univ _, h.symm⟩)
theorem hF18 (c : Dev nD) : ∀ w : Fin 2, (dat18 (En18 m) (adm18 m) c).arrAt w (cfg18 (adm18 m)).N = W38 m c (Pipeline.arrRef spec18 w)
  | 0 => ((dat18 (En18 m) (adm18 m) c).arrAt_in 0 rfl _).trans ((A_eq18 (En18 m) (adm18 m) c 0).trans (W38_of m c main_arg1 (by decide)).symm)
  | 1 => (W38_out m c).symm
theorem adm18_tbl (c : Dev nD) (k : Fin pre18.K) : (adm18 m).1 k = W37 m c (pre18.ref k) := by
  rw [Subsingleton.elim c 0]; rfl
theorem htab18 (c : Dev nD) : (adm18 m).1 = fun k => W37 m c (pre18.ref k) := funext (adm18_tbl m c)
theorem W39_of (c : Dev nD) (b : Ref sig .tc) (hb : b ∉ hostOps19_W) : W39 m c b = W38 m c b :=
  StableHlo.after_of_writes_sub hostOps19 (W38 m c) hostOps19_writes hb
theorem W40_out (c : Dev nD) : W40 m c main_v40 = O19 (En19 m) (adm19 m) c := by
  unfold W40; rw [Function.update_self]
theorem W40_of (c : Dev nD) (b : Ref sig .tc) (hb : b ≠ main_v40) : W40 m c b = W39 m c b := by
  unfold W40; exact Function.update_of_ne (StableHlo.devRef_ne_of_ne hb) _ _
theorem hrest19 (c : Dev nD) (b : Ref sig .tc) (hb : b ∉ Finset.univ.image (Pipeline.arrRef spec19)) : W40 m c b = W39 m c b :=
  W40_of m c b fun h => hb (Finset.mem_image.mpr ⟨1, Finset.mem_univ _, h.symm⟩)
theorem hF19 (c : Dev nD) : ∀ w : Fin 2, (dat19 (En19 m) (adm19 m) c).arrAt w (cfg19 (adm19 m)).N = W40 m c (Pipeline.arrRef spec19 w)
  | 0 => ((dat19 (En19 m) (adm19 m) c).arrAt_in 0 rfl _).trans ((A_eq19 (En19 m) (adm19 m) c 0).trans (W40_of m c main_arg1 (by decide)).symm)
  | 1 => (W40_out m c).symm
theorem adm19_tbl (c : Dev nD) (k : Fin pre19.K) : (adm19 m).1 k = W39 m c (pre19.ref k) := by
  rw [Subsingleton.elim c 0]; rfl
theorem htab19 (c : Dev nD) : (adm19 m).1 = fun k => W39 m c (pre19.ref k) := funext (adm19_tbl m c)
theorem W41_of (c : Dev nD) (b : Ref sig .tc) (hb : b ∉ hostOps20_W) : W41 m c b = W40 m c b :=
  StableHlo.after_of_writes_sub hostOps20 (W40 m c) hostOps20_writes hb
theorem W42_out (c : Dev nD) : W42 m c main_v42 = O20 (En20 m) (adm20 m) c := by
  unfold W42; rw [Function.update_self]
theorem W42_of (c : Dev nD) (b : Ref sig .tc) (hb : b ≠ main_v42) : W42 m c b = W41 m c b := by
  unfold W42; exact Function.update_of_ne (StableHlo.devRef_ne_of_ne hb) _ _
theorem hrest20 (c : Dev nD) (b : Ref sig .tc) (hb : b ∉ Finset.univ.image (Pipeline.arrRef spec20)) : W42 m c b = W41 m c b :=
  W42_of m c b fun h => hb (Finset.mem_image.mpr ⟨1, Finset.mem_univ _, h.symm⟩)
theorem hF20 (c : Dev nD) : ∀ w : Fin 2, (dat20 (En20 m) (adm20 m) c).arrAt w (cfg20 (adm20 m)).N = W42 m c (Pipeline.arrRef spec20 w)
  | 0 => ((dat20 (En20 m) (adm20 m) c).arrAt_in 0 rfl _).trans ((A_eq20 (En20 m) (adm20 m) c 0).trans (W42_of m c main_arg1 (by decide)).symm)
  | 1 => (W42_out m c).symm
theorem adm20_tbl (c : Dev nD) (k : Fin pre20.K) : (adm20 m).1 k = W41 m c (pre20.ref k) := by
  rw [Subsingleton.elim c 0]; rfl
theorem htab20 (c : Dev nD) : (adm20 m).1 = fun k => W41 m c (pre20.ref k) := funext (adm20_tbl m c)
theorem W43_of (c : Dev nD) (b : Ref sig .tc) (hb : b ∉ hostOps21_W) : W43 m c b = W42 m c b :=
  StableHlo.after_of_writes_sub hostOps21 (W42 m c) hostOps21_writes hb
theorem W44_out (c : Dev nD) : W44 m c main_v44 = O21 (En21 m) (adm21 m) c := by
  unfold W44; rw [Function.update_self]
theorem W44_of (c : Dev nD) (b : Ref sig .tc) (hb : b ≠ main_v44) : W44 m c b = W43 m c b := by
  unfold W44; exact Function.update_of_ne (StableHlo.devRef_ne_of_ne hb) _ _
theorem hrest21 (c : Dev nD) (b : Ref sig .tc) (hb : b ∉ Finset.univ.image (Pipeline.arrRef spec21)) : W44 m c b = W43 m c b :=
  W44_of m c b fun h => hb (Finset.mem_image.mpr ⟨1, Finset.mem_univ _, h.symm⟩)
theorem hF21 (c : Dev nD) : ∀ w : Fin 2, (dat21 (En21 m) (adm21 m) c).arrAt w (cfg21 (adm21 m)).N = W44 m c (Pipeline.arrRef spec21 w)
  | 0 => ((dat21 (En21 m) (adm21 m) c).arrAt_in 0 rfl _).trans ((A_eq21 (En21 m) (adm21 m) c 0).trans (W44_of m c main_arg1 (by decide)).symm)
  | 1 => (W44_out m c).symm
theorem adm21_tbl (c : Dev nD) (k : Fin pre21.K) : (adm21 m).1 k = W43 m c (pre21.ref k) := by
  rw [Subsingleton.elim c 0]; rfl
theorem htab21 (c : Dev nD) : (adm21 m).1 = fun k => W43 m c (pre21.ref k) := funext (adm21_tbl m c)
theorem W45_of (c : Dev nD) (b : Ref sig .tc) (hb : b ∉ hostOps22_W) : W45 m c b = W44 m c b :=
  StableHlo.after_of_writes_sub hostOps22 (W44 m c) hostOps22_writes hb
theorem W46_out (c : Dev nD) : W46 m c main_v46 = O22 (En22 m) (adm22 m) c := by
  unfold W46; rw [Function.update_self]
theorem W46_of (c : Dev nD) (b : Ref sig .tc) (hb : b ≠ main_v46) : W46 m c b = W45 m c b := by
  unfold W46; exact Function.update_of_ne (StableHlo.devRef_ne_of_ne hb) _ _
theorem hrest22 (c : Dev nD) (b : Ref sig .tc) (hb : b ∉ Finset.univ.image (Pipeline.arrRef spec22)) : W46 m c b = W45 m c b :=
  W46_of m c b fun h => hb (Finset.mem_image.mpr ⟨1, Finset.mem_univ _, h.symm⟩)
theorem hF22 (c : Dev nD) : ∀ w : Fin 2, (dat22 (En22 m) (adm22 m) c).arrAt w (cfg22 (adm22 m)).N = W46 m c (Pipeline.arrRef spec22 w)
  | 0 => ((dat22 (En22 m) (adm22 m) c).arrAt_in 0 rfl _).trans ((A_eq22 (En22 m) (adm22 m) c 0).trans (W46_of m c main_arg1 (by decide)).symm)
  | 1 => (W46_out m c).symm
theorem adm22_tbl (c : Dev nD) (k : Fin pre22.K) : (adm22 m).1 k = W45 m c (pre22.ref k) := by
  rw [Subsingleton.elim c 0]; rfl
theorem htab22 (c : Dev nD) : (adm22 m).1 = fun k => W45 m c (pre22.ref k) := funext (adm22_tbl m c)
theorem W47_of (c : Dev nD) (b : Ref sig .tc) (hb : b ∉ hostOps23_W) : W47 m c b = W46 m c b :=
  StableHlo.after_of_writes_sub hostOps23 (W46 m c) hostOps23_writes hb
theorem W48_out (c : Dev nD) : W48 m c main_v48 = O23 (En23 m) (adm23 m) c := by
  unfold W48; rw [Function.update_self]
theorem W48_of (c : Dev nD) (b : Ref sig .tc) (hb : b ≠ main_v48) : W48 m c b = W47 m c b := by
  unfold W48; exact Function.update_of_ne (StableHlo.devRef_ne_of_ne hb) _ _
theorem hrest23 (c : Dev nD) (b : Ref sig .tc) (hb : b ∉ Finset.univ.image (Pipeline.arrRef spec23)) : W48 m c b = W47 m c b :=
  W48_of m c b fun h => hb (Finset.mem_image.mpr ⟨1, Finset.mem_univ _, h.symm⟩)
theorem hF23 (c : Dev nD) : ∀ w : Fin 2, (dat23 (En23 m) (adm23 m) c).arrAt w (cfg23 (adm23 m)).N = W48 m c (Pipeline.arrRef spec23 w)
  | 0 => ((dat23 (En23 m) (adm23 m) c).arrAt_in 0 rfl _).trans ((A_eq23 (En23 m) (adm23 m) c 0).trans (W48_of m c main_arg1 (by decide)).symm)
  | 1 => (W48_out m c).symm
theorem adm23_tbl (c : Dev nD) (k : Fin pre23.K) : (adm23 m).1 k = W47 m c (pre23.ref k) := by
  rw [Subsingleton.elim c 0]; rfl
theorem htab23 (c : Dev nD) : (adm23 m).1 = fun k => W47 m c (pre23.ref k) := funext (adm23_tbl m c)
theorem W49_of (c : Dev nD) (b : Ref sig .tc) (hb : b ∉ hostOps24_W) : W49 m c b = W48 m c b :=
  StableHlo.after_of_writes_sub hostOps24 (W48 m c) hostOps24_writes hb
theorem W50_out (c : Dev nD) : W50 m c main_v50 = O24 (En24 m) (adm24 m) c := by
  unfold W50; rw [Function.update_self]
theorem W50_of (c : Dev nD) (b : Ref sig .tc) (hb : b ≠ main_v50) : W50 m c b = W49 m c b := by
  unfold W50; exact Function.update_of_ne (StableHlo.devRef_ne_of_ne hb) _ _
theorem hrest24 (c : Dev nD) (b : Ref sig .tc) (hb : b ∉ Finset.univ.image (Pipeline.arrRef spec24)) : W50 m c b = W49 m c b :=
  W50_of m c b fun h => hb (Finset.mem_image.mpr ⟨1, Finset.mem_univ _, h.symm⟩)
theorem hF24 (c : Dev nD) : ∀ w : Fin 2, (dat24 (En24 m) (adm24 m) c).arrAt w (cfg24 (adm24 m)).N = W50 m c (Pipeline.arrRef spec24 w)
  | 0 => ((dat24 (En24 m) (adm24 m) c).arrAt_in 0 rfl _).trans ((A_eq24 (En24 m) (adm24 m) c 0).trans (W50_of m c main_arg1 (by decide)).symm)
  | 1 => (W50_out m c).symm
theorem adm24_tbl (c : Dev nD) (k : Fin pre24.K) : (adm24 m).1 k = W49 m c (pre24.ref k) := by
  rw [Subsingleton.elim c 0]; rfl
theorem htab24 (c : Dev nD) : (adm24 m).1 = fun k => W49 m c (pre24.ref k) := funext (adm24_tbl m c)
theorem W51_of (c : Dev nD) (b : Ref sig .tc) (hb : b ∉ hostOps25_W) : W51 m c b = W50 m c b :=
  StableHlo.after_of_writes_sub hostOps25 (W50 m c) hostOps25_writes hb
theorem W52_out (c : Dev nD) : W52 m c main_v54 = O25 (En25 m) c := by
  unfold W52; rw [Function.update_self]
theorem W52_of (c : Dev nD) (b : Ref sig .tc) (hb : b ≠ main_v54) : W52 m c b = W51 m c b := by
  unfold W52; exact Function.update_of_ne (StableHlo.devRef_ne_of_ne hb) _ _
theorem hrest25 (c : Dev nD) (b : Ref sig .tc) (hb : b ∉ Finset.univ.image (Pipeline.arrRef spec25)) : W52 m c b = W51 m c b :=
  W52_of m c b fun h => hb (Finset.mem_image.mpr ⟨1, Finset.mem_univ _, h.symm⟩)
theorem hF25 (c : Dev nD) : ∀ w : Fin 2, (dat25 (En25 m) c).arrAt w cfg25.N = W52 m c (Pipeline.arrRef spec25 w)
  | 0 => ((dat25 (En25 m) c).arrAt_in 0 rfl _).trans ((A_eq25 (En25 m) c 0).trans (W52_of m c main_v53 (by decide)).symm)
  | 1 => (W52_out m c).symm
theorem W53_of (c : Dev nD) (b : Ref sig .tc) (hb : b ∉ hostOps26_W) : W53 m c b = W52 m c b :=
  StableHlo.after_of_writes_sub hostOps26 (W52 m c) hostOps26_writes hb
theorem W54_out (c : Dev nD) : W54 m c main_v73 = O26 (En26 m) c := by
  unfold W54; rw [Function.update_self]
theorem W54_of (c : Dev nD) (b : Ref sig .tc) (hb : b ≠ main_v73) : W54 m c b = W53 m c b := by
  unfold W54; exact Function.update_of_ne (StableHlo.devRef_ne_of_ne hb) _ _
theorem hrest26 (c : Dev nD) (b : Ref sig .tc) (hb : b ∉ Finset.univ.image (Pipeline.arrRef spec26)) : W54 m c b = W53 m c b :=
  W54_of m c b fun h => hb (Finset.mem_image.mpr ⟨3, Finset.mem_univ _, h.symm⟩)
theorem hF26 (c : Dev nD) : ∀ w : Fin 4, (dat26 (En26 m) c).arrAt w cfg26.N = W54 m c (Pipeline.arrRef spec26 w)
  | 0 => ((dat26 (En26 m) c).arrAt_in 0 rfl _).trans ((A_eq26 (En26 m) c 0).trans (W54_of m c main_v53 (by decide)).symm)
  | 1 => ((dat26 (En26 m) c).arrAt_in 1 rfl _).trans ((A_eq26 (En26 m) c 1).trans (W54_of m c main_v71 (by decide)).symm)
  | 2 => ((dat26 (En26 m) c).arrAt_in 2 rfl _).trans ((A_eq26 (En26 m) c 2).trans (W54_of m c main_v72 (by decide)).symm)
  | 3 => (W54_out m c).symm

end Cert.KernelIdeal.Hand

end
-- ==== Proof.KI.ChainReads.lean ====
/-
  BUFFERS KEPT ALONG THE CHAIN. No item writes an argument, so each argument's buffer holds its launch contents at every
  step. The transposed neighbour table is written by the first host stretch and by nothing after it, and each gather
  launch's table is the slice of it the stretch before the launch cuts: so every word of every table is a neighbour
  index, and is in range when every neighbour index is. A gather launch's chunk, once written, is kept by every later
  item up to the concatenation's entry; the joined array is kept from there to the last launch.
-/
import proofs.«403631_j48275432407145_1_alg».proof.Proof.KI.ChainSeg
import proofs.«403631_j48275432407145_1_alg».proof.Proof.KI.PreIdx

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

variable (m : (ℓ : Loc nD τ sig) → Buf (Elt F) ℓ)

/-! ## No item writes an argument -/

theorem W0_main_arg0 (c : Dev nD) : W0 m c main_arg0 = m ((c : Thread nD τ).loc main_arg0) :=
  rfl
theorem W1_main_arg0 (c : Dev nD) : W1 m c main_arg0 = m ((c : Thread nD τ).loc main_arg0) :=
  (W1_of m c main_arg0 (by decide)).trans (W0_main_arg0 m c)
theorem W2_main_arg0 (c : Dev nD) : W2 m c main_arg0 = m ((c : Thread nD τ).loc main_arg0) :=
  (W2_of m c main_arg0 (by decide)).trans (W1_main_arg0 m c)
theorem W3_main_arg0 (c : Dev nD) : W3 m c main_arg0 = m ((c : Thread nD τ).loc main_arg0) :=
  (W3_of m c main_arg0 (by decide)).trans (W2_main_arg0 m c)
theorem W4_main_arg0 (c : Dev nD) : W4 m c main_arg0 = m ((c : Thread nD τ).loc main_arg0) :=
  (W4_of m c main_arg0 (by decide)).trans (W3_main_arg0 m c)
theorem W5_main_arg0 (c : Dev nD) : W5 m c main_arg0 = m ((c : Thread nD τ).loc main_arg0) :=
  (W5_of m c main_arg0 (by decide)).trans (W4_main_arg0 m c)
theorem W6_main_arg0 (c : Dev nD) : W6 m c main_arg0 = m ((c : Thread nD τ).loc main_arg0) :=
  (W6_of m c main_arg0 (by decide)).trans (W5_main_arg0 m c)
theorem W7_main_arg0 (c : Dev nD) : W7 m c main_arg0 = m ((c : Thread nD τ).loc main_arg0) :=
  (W7_of m c main_arg0 (by decide)).trans (W6_main_arg0 m c)
theorem W8_main_arg0 (c : Dev nD) : W8 m c main_arg0 = m ((c : Thread nD τ).loc main_arg0) :=
  (W8_of m c main_arg0 (by decide)).trans (W7_main_arg0 m c)
theorem W9_main_arg0 (c : Dev nD) : W9 m c main_arg0 = m ((c : Thread nD τ).loc main_arg0) :=
  (W9_of m c main_arg0 (by decide)).trans (W8_main_arg0 m c)
theorem W10_main_arg0 (c : Dev nD) : W10 m c main_arg0 = m ((c : Thread nD τ).loc main_arg0) :=
  (W10_of m c main_arg0 (by decide)).trans (W9_main_arg0 m c)
theorem W11_main_arg0 (c : Dev nD) : W11 m c main_arg0 = m ((c : Thread nD τ).loc main_arg0) :=
  (W11_of m c main_arg0 (by decide)).trans (W10_main_arg0 m c)
theorem W12_main_arg0 (c : Dev nD) : W12 m c main_arg0 = m ((c : Thread nD τ).loc main_arg0) :=
  (W12_of m c main_arg0 (by decide)).trans (W11_main_arg0 m c)
theorem W13_main_arg0 (c : Dev nD) : W13 m c main_arg0 = m ((c : Thread nD τ).loc main_arg0) :=
  (W13_of m c main_arg0 (by decide)).trans (W12_main_arg0 m c)
theorem W14_main_arg0 (c : Dev nD) : W14 m c main_arg0 = m ((c : Thread nD τ).loc main_arg0) :=
  (W14_of m c main_arg0 (by decide)).trans (W13_main_arg0 m c)
theorem W15_main_arg0 (c : Dev nD) : W15 m c main_arg0 = m ((c : Thread nD τ).loc main_arg0) :=
  (W15_of m c main_arg0 (by decide)).trans (W14_main_arg0 m c)
theorem W16_main_arg0 (c : Dev nD) : W16 m c main_arg0 = m ((c : Thread nD τ).loc main_arg0) :=
  (W16_of m c main_arg0 (by decide)).trans (W15_main_arg0 m c)
theorem W17_main_arg0 (c : Dev nD) : W17 m c main_arg0 = m ((c : Thread nD τ).loc main_arg0) :=
  (W17_of m c main_arg0 (by decide)).trans (W16_main_arg0 m c)
theorem W18_main_arg0 (c : Dev nD) : W18 m c main_arg0 = m ((c : Thread nD τ).loc main_arg0) :=
  (W18_of m c main_arg0 (by decide)).trans (W17_main_arg0 m c)
theorem W19_main_arg0 (c : Dev nD) : W19 m c main_arg0 = m ((c : Thread nD τ).loc main_arg0) :=
  (W19_of m c main_arg0 (by decide)).trans (W18_main_arg0 m c)
theorem W20_main_arg0 (c : Dev nD) : W20 m c main_arg0 = m ((c : Thread nD τ).loc main_arg0) :=
  (W20_of m c main_arg0 (by decide)).trans (W19_main_arg0 m c)
theorem W21_main_arg0 (c : Dev nD) : W21 m c main_arg0 = m ((c : Thread nD τ).loc main_arg0) :=
  (W21_of m c main_arg0 (by decide)).trans (W20_main_arg0 m c)
theorem W22_main_arg0 (c : Dev nD) : W22 m c main_arg0 = m ((c : Thread nD τ).loc main_arg0) :=
  (W22_of m c main_arg0 (by decide)).trans (W21_main_arg0 m c)
theorem W23_main_arg0 (c : Dev nD) : W23 m c main_arg0 = m ((c : Thread nD τ).loc main_arg0) :=
  (W23_of m c main_arg0 (by decide)).trans (W22_main_arg0 m c)
theorem W24_main_arg0 (c : Dev nD) : W24 m c main_arg0 = m ((c : Thread nD τ).loc main_arg0) :=
  (W24_of m c main_arg0 (by decide)).trans (W23_main_arg0 m c)
theorem W25_main_arg0 (c : Dev nD) : W25 m c main_arg0 = m ((c : Thread nD τ).loc main_arg0) :=
  (W25_of m c main_arg0 (by decide)).trans (W24_main_arg0 m c)
theorem W26_main_arg0 (c : Dev nD) : W26 m c main_arg0 = m ((c : Thread nD τ).loc main_arg0) :=
  (W26_of m c main_arg0 (by decide)).trans (W25_main_arg0 m c)
theorem W27_main_arg0 (c : Dev nD) : W27 m c main_arg0 = m ((c : Thread nD τ).loc main_arg0) :=
  (W27_of m c main_arg0 (by decide)).trans (W26_main_arg0 m c)
theorem W28_main_arg0 (c : Dev nD) : W28 m c main_arg0 = m ((c : Thread nD τ).loc main_arg0) :=
  (W28_of m c main_arg0 (by decide)).trans (W27_main_arg0 m c)
theorem W29_main_arg0 (c : Dev nD) : W29 m c main_arg0 = m ((c : Thread nD τ).loc main_arg0) :=
  (W29_of m c main_arg0 (by decide)).trans (W28_main_arg0 m c)
theorem W30_main_arg0 (c : Dev nD) : W30 m c main_arg0 = m ((c : Thread nD τ).loc main_arg0) :=
  (W30_of m c main_arg0 (by decide)).trans (W29_main_arg0 m c)
theorem W31_main_arg0 (c : Dev nD) : W31 m c main_arg0 = m ((c : Thread nD τ).loc main_arg0) :=
  (W31_of m c main_arg0 (by decide)).trans (W30_main_arg0 m c)
theorem W32_main_arg0 (c : Dev nD) : W32 m c main_arg0 = m ((c : Thread nD τ).loc main_arg0) :=
  (W32_of m c main_arg0 (by decide)).trans (W31_main_arg0 m c)
theorem W33_main_arg0 (c : Dev nD) : W33 m c main_arg0 = m ((c : Thread nD τ).loc main_arg0) :=
  (W33_of m c main_arg0 (by decide)).trans (W32_main_arg0 m c)
theorem W34_main_arg0 (c : Dev nD) : W34 m c main_arg0 = m ((c : Thread nD τ).loc main_arg0) :=
  (W34_of m c main_arg0 (by decide)).trans (W33_main_arg0 m c)
theorem W35_main_arg0 (c : Dev nD) : W35 m c main_arg0 = m ((c : Thread nD τ).loc main_arg0) :=
  (W35_of m c main_arg0 (by decide)).trans (W34_main_arg0 m c)
theorem W36_main_arg0 (c : Dev nD) : W36 m c main_arg0 = m ((c : Thread nD τ).loc main_arg0) :=
  (W36_of m c main_arg0 (by decide)).trans (W35_main_arg0 m c)
theorem W37_main_arg0 (c : Dev nD) : W37 m c main_arg0 = m ((c : Thread nD τ).loc main_arg0) :=
  (W37_of m c main_arg0 (by decide)).trans (W36_main_arg0 m c)
theorem W38_main_arg0 (c : Dev nD) : W38 m c main_arg0 = m ((c : Thread nD τ).loc main_arg0) :=
  (W38_of m c main_arg0 (by decide)).trans (W37_main_arg0 m c)
theorem W39_main_arg0 (c : Dev nD) : W39 m c main_arg0 = m ((c : Thread nD τ).loc main_arg0) :=
  (W39_of m c main_arg0 (by decide)).trans (W38_main_arg0 m c)
theorem W40_main_arg0 (c : Dev nD) : W40 m c main_arg0 = m ((c : Thread nD τ).loc main_arg0) :=
  (W40_of m c main_arg0 (by decide)).trans (W39_main_arg0 m c)
theorem W41_main_arg0 (c : Dev nD) : W41 m c main_arg0 = m ((c : Thread nD τ).loc main_arg0) :=
  (W41_of m c main_arg0 (by decide)).trans (W40_main_arg0 m c)
theorem W42_main_arg0 (c : Dev nD) : W42 m c main_arg0 = m ((c : Thread nD τ).loc main_arg0) :=
  (W42_of m c main_arg0 (by decide)).trans (W41_main_arg0 m c)
theorem W43_main_arg0 (c : Dev nD) : W43 m c main_arg0 = m ((c : Thread nD τ).loc main_arg0) :=
  (W43_of m c main_arg0 (by decide)).trans (W42_main_arg0 m c)
theorem W44_main_arg0 (c : Dev nD) : W44 m c main_arg0 = m ((c : Thread nD τ).loc main_arg0) :=
  (W44_of m c main_arg0 (by decide)).trans (W43_main_arg0 m c)
theorem W45_main_arg0 (c : Dev nD) : W45 m c main_arg0 = m ((c : Thread nD τ).loc main_arg0) :=
  (W45_of m c main_arg0 (by decide)).trans (W44_main_arg0 m c)
theorem W46_main_arg0 (c : Dev nD) : W46 m c main_arg0 = m ((c : Thread nD τ).loc main_arg0) :=
  (W46_of m c main_arg0 (by decide)).trans (W45_main_arg0 m c)
theorem W47_main_arg0 (c : Dev nD) : W47 m c main_arg0 = m ((c : Thread nD τ).loc main_arg0) :=
  (W47_of m c main_arg0 (by decide)).trans (W46_main_arg0 m c)
theorem W48_main_arg0 (c : Dev nD) : W48 m c main_arg0 = m ((c : Thread nD τ).loc main_arg0) :=
  (W48_of m c main_arg0 (by decide)).trans (W47_main_arg0 m c)
theorem W49_main_arg0 (c : Dev nD) : W49 m c main_arg0 = m ((c : Thread nD τ).loc main_arg0) :=
  (W49_of m c main_arg0 (by decide)).trans (W48_main_arg0 m c)
theorem W50_main_arg0 (c : Dev nD) : W50 m c main_arg0 = m ((c : Thread nD τ).loc main_arg0) :=
  (W50_of m c main_arg0 (by decide)).trans (W49_main_arg0 m c)
theorem W51_main_arg0 (c : Dev nD) : W51 m c main_arg0 = m ((c : Thread nD τ).loc main_arg0) :=
  (W51_of m c main_arg0 (by decide)).trans (W50_main_arg0 m c)
theorem W52_main_arg0 (c : Dev nD) : W52 m c main_arg0 = m ((c : Thread nD τ).loc main_arg0) :=
  (W52_of m c main_arg0 (by decide)).trans (W51_main_arg0 m c)
theorem W53_main_arg0 (c : Dev nD) : W53 m c main_arg0 = m ((c : Thread nD τ).loc main_arg0) :=
  (W53_of m c main_arg0 (by decide)).trans (W52_main_arg0 m c)
theorem W54_main_arg0 (c : Dev nD) : W54 m c main_arg0 = m ((c : Thread nD τ).loc main_arg0) :=
  (W54_of m c main_arg0 (by decide)).trans (W53_main_arg0 m c)
theorem W0_main_arg1 (c : Dev nD) : W0 m c main_arg1 = m ((c : Thread nD τ).loc main_arg1) :=
  rfl
theorem W1_main_arg1 (c : Dev nD) : W1 m c main_arg1 = m ((c : Thread nD τ).loc main_arg1) :=
  (W1_of m c main_arg1 (by decide)).trans (W0_main_arg1 m c)
theorem W2_main_arg1 (c : Dev nD) : W2 m c main_arg1 = m ((c : Thread nD τ).loc main_arg1) :=
  (W2_of m c main_arg1 (by decide)).trans (W1_main_arg1 m c)
theorem W3_main_arg1 (c : Dev nD) : W3 m c main_arg1 = m ((c : Thread nD τ).loc main_arg1) :=
  (W3_of m c main_arg1 (by decide)).trans (W2_main_arg1 m c)
theorem W4_main_arg1 (c : Dev nD) : W4 m c main_arg1 = m ((c : Thread nD τ).loc main_arg1) :=
  (W4_of m c main_arg1 (by decide)).trans (W3_main_arg1 m c)
theorem W5_main_arg1 (c : Dev nD) : W5 m c main_arg1 = m ((c : Thread nD τ).loc main_arg1) :=
  (W5_of m c main_arg1 (by decide)).trans (W4_main_arg1 m c)
theorem W6_main_arg1 (c : Dev nD) : W6 m c main_arg1 = m ((c : Thread nD τ).loc main_arg1) :=
  (W6_of m c main_arg1 (by decide)).trans (W5_main_arg1 m c)
theorem W7_main_arg1 (c : Dev nD) : W7 m c main_arg1 = m ((c : Thread nD τ).loc main_arg1) :=
  (W7_of m c main_arg1 (by decide)).trans (W6_main_arg1 m c)
theorem W8_main_arg1 (c : Dev nD) : W8 m c main_arg1 = m ((c : Thread nD τ).loc main_arg1) :=
  (W8_of m c main_arg1 (by decide)).trans (W7_main_arg1 m c)
theorem W9_main_arg1 (c : Dev nD) : W9 m c main_arg1 = m ((c : Thread nD τ).loc main_arg1) :=
  (W9_of m c main_arg1 (by decide)).trans (W8_main_arg1 m c)
theorem W10_main_arg1 (c : Dev nD) : W10 m c main_arg1 = m ((c : Thread nD τ).loc main_arg1) :=
  (W10_of m c main_arg1 (by decide)).trans (W9_main_arg1 m c)
theorem W11_main_arg1 (c : Dev nD) : W11 m c main_arg1 = m ((c : Thread nD τ).loc main_arg1) :=
  (W11_of m c main_arg1 (by decide)).trans (W10_main_arg1 m c)
theorem W12_main_arg1 (c : Dev nD) : W12 m c main_arg1 = m ((c : Thread nD τ).loc main_arg1) :=
  (W12_of m c main_arg1 (by decide)).trans (W11_main_arg1 m c)
theorem W13_main_arg1 (c : Dev nD) : W13 m c main_arg1 = m ((c : Thread nD τ).loc main_arg1) :=
  (W13_of m c main_arg1 (by decide)).trans (W12_main_arg1 m c)
theorem W14_main_arg1 (c : Dev nD) : W14 m c main_arg1 = m ((c : Thread nD τ).loc main_arg1) :=
  (W14_of m c main_arg1 (by decide)).trans (W13_main_arg1 m c)
theorem W15_main_arg1 (c : Dev nD) : W15 m c main_arg1 = m ((c : Thread nD τ).loc main_arg1) :=
  (W15_of m c main_arg1 (by decide)).trans (W14_main_arg1 m c)
theorem W16_main_arg1 (c : Dev nD) : W16 m c main_arg1 = m ((c : Thread nD τ).loc main_arg1) :=
  (W16_of m c main_arg1 (by decide)).trans (W15_main_arg1 m c)
theorem W17_main_arg1 (c : Dev nD) : W17 m c main_arg1 = m ((c : Thread nD τ).loc main_arg1) :=
  (W17_of m c main_arg1 (by decide)).trans (W16_main_arg1 m c)
theorem W18_main_arg1 (c : Dev nD) : W18 m c main_arg1 = m ((c : Thread nD τ).loc main_arg1) :=
  (W18_of m c main_arg1 (by decide)).trans (W17_main_arg1 m c)
theorem W19_main_arg1 (c : Dev nD) : W19 m c main_arg1 = m ((c : Thread nD τ).loc main_arg1) :=
  (W19_of m c main_arg1 (by decide)).trans (W18_main_arg1 m c)
theorem W20_main_arg1 (c : Dev nD) : W20 m c main_arg1 = m ((c : Thread nD τ).loc main_arg1) :=
  (W20_of m c main_arg1 (by decide)).trans (W19_main_arg1 m c)
theorem W21_main_arg1 (c : Dev nD) : W21 m c main_arg1 = m ((c : Thread nD τ).loc main_arg1) :=
  (W21_of m c main_arg1 (by decide)).trans (W20_main_arg1 m c)
theorem W22_main_arg1 (c : Dev nD) : W22 m c main_arg1 = m ((c : Thread nD τ).loc main_arg1) :=
  (W22_of m c main_arg1 (by decide)).trans (W21_main_arg1 m c)
theorem W23_main_arg1 (c : Dev nD) : W23 m c main_arg1 = m ((c : Thread nD τ).loc main_arg1) :=
  (W23_of m c main_arg1 (by decide)).trans (W22_main_arg1 m c)
theorem W24_main_arg1 (c : Dev nD) : W24 m c main_arg1 = m ((c : Thread nD τ).loc main_arg1) :=
  (W24_of m c main_arg1 (by decide)).trans (W23_main_arg1 m c)
theorem W25_main_arg1 (c : Dev nD) : W25 m c main_arg1 = m ((c : Thread nD τ).loc main_arg1) :=
  (W25_of m c main_arg1 (by decide)).trans (W24_main_arg1 m c)
theorem W26_main_arg1 (c : Dev nD) : W26 m c main_arg1 = m ((c : Thread nD τ).loc main_arg1) :=
  (W26_of m c main_arg1 (by decide)).trans (W25_main_arg1 m c)
theorem W27_main_arg1 (c : Dev nD) : W27 m c main_arg1 = m ((c : Thread nD τ).loc main_arg1) :=
  (W27_of m c main_arg1 (by decide)).trans (W26_main_arg1 m c)
theorem W28_main_arg1 (c : Dev nD) : W28 m c main_arg1 = m ((c : Thread nD τ).loc main_arg1) :=
  (W28_of m c main_arg1 (by decide)).trans (W27_main_arg1 m c)
theorem W29_main_arg1 (c : Dev nD) : W29 m c main_arg1 = m ((c : Thread nD τ).loc main_arg1) :=
  (W29_of m c main_arg1 (by decide)).trans (W28_main_arg1 m c)
theorem W30_main_arg1 (c : Dev nD) : W30 m c main_arg1 = m ((c : Thread nD τ).loc main_arg1) :=
  (W30_of m c main_arg1 (by decide)).trans (W29_main_arg1 m c)
theorem W31_main_arg1 (c : Dev nD) : W31 m c main_arg1 = m ((c : Thread nD τ).loc main_arg1) :=
  (W31_of m c main_arg1 (by decide)).trans (W30_main_arg1 m c)
theorem W32_main_arg1 (c : Dev nD) : W32 m c main_arg1 = m ((c : Thread nD τ).loc main_arg1) :=
  (W32_of m c main_arg1 (by decide)).trans (W31_main_arg1 m c)
theorem W33_main_arg1 (c : Dev nD) : W33 m c main_arg1 = m ((c : Thread nD τ).loc main_arg1) :=
  (W33_of m c main_arg1 (by decide)).trans (W32_main_arg1 m c)
theorem W34_main_arg1 (c : Dev nD) : W34 m c main_arg1 = m ((c : Thread nD τ).loc main_arg1) :=
  (W34_of m c main_arg1 (by decide)).trans (W33_main_arg1 m c)
theorem W35_main_arg1 (c : Dev nD) : W35 m c main_arg1 = m ((c : Thread nD τ).loc main_arg1) :=
  (W35_of m c main_arg1 (by decide)).trans (W34_main_arg1 m c)
theorem W36_main_arg1 (c : Dev nD) : W36 m c main_arg1 = m ((c : Thread nD τ).loc main_arg1) :=
  (W36_of m c main_arg1 (by decide)).trans (W35_main_arg1 m c)
theorem W37_main_arg1 (c : Dev nD) : W37 m c main_arg1 = m ((c : Thread nD τ).loc main_arg1) :=
  (W37_of m c main_arg1 (by decide)).trans (W36_main_arg1 m c)
theorem W38_main_arg1 (c : Dev nD) : W38 m c main_arg1 = m ((c : Thread nD τ).loc main_arg1) :=
  (W38_of m c main_arg1 (by decide)).trans (W37_main_arg1 m c)
theorem W39_main_arg1 (c : Dev nD) : W39 m c main_arg1 = m ((c : Thread nD τ).loc main_arg1) :=
  (W39_of m c main_arg1 (by decide)).trans (W38_main_arg1 m c)
theorem W40_main_arg1 (c : Dev nD) : W40 m c main_arg1 = m ((c : Thread nD τ).loc main_arg1) :=
  (W40_of m c main_arg1 (by decide)).trans (W39_main_arg1 m c)
theorem W41_main_arg1 (c : Dev nD) : W41 m c main_arg1 = m ((c : Thread nD τ).loc main_arg1) :=
  (W41_of m c main_arg1 (by decide)).trans (W40_main_arg1 m c)
theorem W42_main_arg1 (c : Dev nD) : W42 m c main_arg1 = m ((c : Thread nD τ).loc main_arg1) :=
  (W42_of m c main_arg1 (by decide)).trans (W41_main_arg1 m c)
theorem W43_main_arg1 (c : Dev nD) : W43 m c main_arg1 = m ((c : Thread nD τ).loc main_arg1) :=
  (W43_of m c main_arg1 (by decide)).trans (W42_main_arg1 m c)
theorem W44_main_arg1 (c : Dev nD) : W44 m c main_arg1 = m ((c : Thread nD τ).loc main_arg1) :=
  (W44_of m c main_arg1 (by decide)).trans (W43_main_arg1 m c)
theorem W45_main_arg1 (c : Dev nD) : W45 m c main_arg1 = m ((c : Thread nD τ).loc main_arg1) :=
  (W45_of m c main_arg1 (by decide)).trans (W44_main_arg1 m c)
theorem W46_main_arg1 (c : Dev nD) : W46 m c main_arg1 = m ((c : Thread nD τ).loc main_arg1) :=
  (W46_of m c main_arg1 (by decide)).trans (W45_main_arg1 m c)
theorem W47_main_arg1 (c : Dev nD) : W47 m c main_arg1 = m ((c : Thread nD τ).loc main_arg1) :=
  (W47_of m c main_arg1 (by decide)).trans (W46_main_arg1 m c)
theorem W48_main_arg1 (c : Dev nD) : W48 m c main_arg1 = m ((c : Thread nD τ).loc main_arg1) :=
  (W48_of m c main_arg1 (by decide)).trans (W47_main_arg1 m c)
theorem W49_main_arg1 (c : Dev nD) : W49 m c main_arg1 = m ((c : Thread nD τ).loc main_arg1) :=
  (W49_of m c main_arg1 (by decide)).trans (W48_main_arg1 m c)
theorem W50_main_arg1 (c : Dev nD) : W50 m c main_arg1 = m ((c : Thread nD τ).loc main_arg1) :=
  (W50_of m c main_arg1 (by decide)).trans (W49_main_arg1 m c)
theorem W51_main_arg1 (c : Dev nD) : W51 m c main_arg1 = m ((c : Thread nD τ).loc main_arg1) :=
  (W51_of m c main_arg1 (by decide)).trans (W50_main_arg1 m c)
theorem W52_main_arg1 (c : Dev nD) : W52 m c main_arg1 = m ((c : Thread nD τ).loc main_arg1) :=
  (W52_of m c main_arg1 (by decide)).trans (W51_main_arg1 m c)
theorem W53_main_arg1 (c : Dev nD) : W53 m c main_arg1 = m ((c : Thread nD τ).loc main_arg1) :=
  (W53_of m c main_arg1 (by decide)).trans (W52_main_arg1 m c)
theorem W54_main_arg1 (c : Dev nD) : W54 m c main_arg1 = m ((c : Thread nD τ).loc main_arg1) :=
  (W54_of m c main_arg1 (by decide)).trans (W53_main_arg1 m c)
theorem W0_main_arg2 (c : Dev nD) : W0 m c main_arg2 = m ((c : Thread nD τ).loc main_arg2) :=
  rfl
theorem W1_main_arg2 (c : Dev nD) : W1 m c main_arg2 = m ((c : Thread nD τ).loc main_arg2) :=
  (W1_of m c main_arg2 (by decide)).trans (W0_main_arg2 m c)
theorem W2_main_arg2 (c : Dev nD) : W2 m c main_arg2 = m ((c : Thread nD τ).loc main_arg2) :=
  (W2_of m c main_arg2 (by decide)).trans (W1_main_arg2 m c)
theorem W3_main_arg2 (c : Dev nD) : W3 m c main_arg2 = m ((c : Thread nD τ).loc main_arg2) :=
  (W3_of m c main_arg2 (by decide)).trans (W2_main_arg2 m c)
theorem W4_main_arg2 (c : Dev nD) : W4 m c main_arg2 = m ((c : Thread nD τ).loc main_arg2) :=
  (W4_of m c main_arg2 (by decide)).trans (W3_main_arg2 m c)
theorem W5_main_arg2 (c : Dev nD) : W5 m c main_arg2 = m ((c : Thread nD τ).loc main_arg2) :=
  (W5_of m c main_arg2 (by decide)).trans (W4_main_arg2 m c)
theorem W6_main_arg2 (c : Dev nD) : W6 m c main_arg2 = m ((c : Thread nD τ).loc main_arg2) :=
  (W6_of m c main_arg2 (by decide)).trans (W5_main_arg2 m c)
theorem W7_main_arg2 (c : Dev nD) : W7 m c main_arg2 = m ((c : Thread nD τ).loc main_arg2) :=
  (W7_of m c main_arg2 (by decide)).trans (W6_main_arg2 m c)
theorem W8_main_arg2 (c : Dev nD) : W8 m c main_arg2 = m ((c : Thread nD τ).loc main_arg2) :=
  (W8_of m c main_arg2 (by decide)).trans (W7_main_arg2 m c)
theorem W9_main_arg2 (c : Dev nD) : W9 m c main_arg2 = m ((c : Thread nD τ).loc main_arg2) :=
  (W9_of m c main_arg2 (by decide)).trans (W8_main_arg2 m c)
theorem W10_main_arg2 (c : Dev nD) : W10 m c main_arg2 = m ((c : Thread nD τ).loc main_arg2) :=
  (W10_of m c main_arg2 (by decide)).trans (W9_main_arg2 m c)
theorem W11_main_arg2 (c : Dev nD) : W11 m c main_arg2 = m ((c : Thread nD τ).loc main_arg2) :=
  (W11_of m c main_arg2 (by decide)).trans (W10_main_arg2 m c)
theorem W12_main_arg2 (c : Dev nD) : W12 m c main_arg2 = m ((c : Thread nD τ).loc main_arg2) :=
  (W12_of m c main_arg2 (by decide)).trans (W11_main_arg2 m c)
theorem W13_main_arg2 (c : Dev nD) : W13 m c main_arg2 = m ((c : Thread nD τ).loc main_arg2) :=
  (W13_of m c main_arg2 (by decide)).trans (W12_main_arg2 m c)
theorem W14_main_arg2 (c : Dev nD) : W14 m c main_arg2 = m ((c : Thread nD τ).loc main_arg2) :=
  (W14_of m c main_arg2 (by decide)).trans (W13_main_arg2 m c)
theorem W15_main_arg2 (c : Dev nD) : W15 m c main_arg2 = m ((c : Thread nD τ).loc main_arg2) :=
  (W15_of m c main_arg2 (by decide)).trans (W14_main_arg2 m c)
theorem W16_main_arg2 (c : Dev nD) : W16 m c main_arg2 = m ((c : Thread nD τ).loc main_arg2) :=
  (W16_of m c main_arg2 (by decide)).trans (W15_main_arg2 m c)
theorem W17_main_arg2 (c : Dev nD) : W17 m c main_arg2 = m ((c : Thread nD τ).loc main_arg2) :=
  (W17_of m c main_arg2 (by decide)).trans (W16_main_arg2 m c)
theorem W18_main_arg2 (c : Dev nD) : W18 m c main_arg2 = m ((c : Thread nD τ).loc main_arg2) :=
  (W18_of m c main_arg2 (by decide)).trans (W17_main_arg2 m c)
theorem W19_main_arg2 (c : Dev nD) : W19 m c main_arg2 = m ((c : Thread nD τ).loc main_arg2) :=
  (W19_of m c main_arg2 (by decide)).trans (W18_main_arg2 m c)
theorem W20_main_arg2 (c : Dev nD) : W20 m c main_arg2 = m ((c : Thread nD τ).loc main_arg2) :=
  (W20_of m c main_arg2 (by decide)).trans (W19_main_arg2 m c)
theorem W21_main_arg2 (c : Dev nD) : W21 m c main_arg2 = m ((c : Thread nD τ).loc main_arg2) :=
  (W21_of m c main_arg2 (by decide)).trans (W20_main_arg2 m c)
theorem W22_main_arg2 (c : Dev nD) : W22 m c main_arg2 = m ((c : Thread nD τ).loc main_arg2) :=
  (W22_of m c main_arg2 (by decide)).trans (W21_main_arg2 m c)
theorem W23_main_arg2 (c : Dev nD) : W23 m c main_arg2 = m ((c : Thread nD τ).loc main_arg2) :=
  (W23_of m c main_arg2 (by decide)).trans (W22_main_arg2 m c)
theorem W24_main_arg2 (c : Dev nD) : W24 m c main_arg2 = m ((c : Thread nD τ).loc main_arg2) :=
  (W24_of m c main_arg2 (by decide)).trans (W23_main_arg2 m c)
theorem W25_main_arg2 (c : Dev nD) : W25 m c main_arg2 = m ((c : Thread nD τ).loc main_arg2) :=
  (W25_of m c main_arg2 (by decide)).trans (W24_main_arg2 m c)
theorem W26_main_arg2 (c : Dev nD) : W26 m c main_arg2 = m ((c : Thread nD τ).loc main_arg2) :=
  (W26_of m c main_arg2 (by decide)).trans (W25_main_arg2 m c)
theorem W27_main_arg2 (c : Dev nD) : W27 m c main_arg2 = m ((c : Thread nD τ).loc main_arg2) :=
  (W27_of m c main_arg2 (by decide)).trans (W26_main_arg2 m c)
theorem W28_main_arg2 (c : Dev nD) : W28 m c main_arg2 = m ((c : Thread nD τ).loc main_arg2) :=
  (W28_of m c main_arg2 (by decide)).trans (W27_main_arg2 m c)
theorem W29_main_arg2 (c : Dev nD) : W29 m c main_arg2 = m ((c : Thread nD τ).loc main_arg2) :=
  (W29_of m c main_arg2 (by decide)).trans (W28_main_arg2 m c)
theorem W30_main_arg2 (c : Dev nD) : W30 m c main_arg2 = m ((c : Thread nD τ).loc main_arg2) :=
  (W30_of m c main_arg2 (by decide)).trans (W29_main_arg2 m c)
theorem W31_main_arg2 (c : Dev nD) : W31 m c main_arg2 = m ((c : Thread nD τ).loc main_arg2) :=
  (W31_of m c main_arg2 (by decide)).trans (W30_main_arg2 m c)
theorem W32_main_arg2 (c : Dev nD) : W32 m c main_arg2 = m ((c : Thread nD τ).loc main_arg2) :=
  (W32_of m c main_arg2 (by decide)).trans (W31_main_arg2 m c)
theorem W33_main_arg2 (c : Dev nD) : W33 m c main_arg2 = m ((c : Thread nD τ).loc main_arg2) :=
  (W33_of m c main_arg2 (by decide)).trans (W32_main_arg2 m c)
theorem W34_main_arg2 (c : Dev nD) : W34 m c main_arg2 = m ((c : Thread nD τ).loc main_arg2) :=
  (W34_of m c main_arg2 (by decide)).trans (W33_main_arg2 m c)
theorem W35_main_arg2 (c : Dev nD) : W35 m c main_arg2 = m ((c : Thread nD τ).loc main_arg2) :=
  (W35_of m c main_arg2 (by decide)).trans (W34_main_arg2 m c)
theorem W36_main_arg2 (c : Dev nD) : W36 m c main_arg2 = m ((c : Thread nD τ).loc main_arg2) :=
  (W36_of m c main_arg2 (by decide)).trans (W35_main_arg2 m c)
theorem W37_main_arg2 (c : Dev nD) : W37 m c main_arg2 = m ((c : Thread nD τ).loc main_arg2) :=
  (W37_of m c main_arg2 (by decide)).trans (W36_main_arg2 m c)
theorem W38_main_arg2 (c : Dev nD) : W38 m c main_arg2 = m ((c : Thread nD τ).loc main_arg2) :=
  (W38_of m c main_arg2 (by decide)).trans (W37_main_arg2 m c)
theorem W39_main_arg2 (c : Dev nD) : W39 m c main_arg2 = m ((c : Thread nD τ).loc main_arg2) :=
  (W39_of m c main_arg2 (by decide)).trans (W38_main_arg2 m c)
theorem W40_main_arg2 (c : Dev nD) : W40 m c main_arg2 = m ((c : Thread nD τ).loc main_arg2) :=
  (W40_of m c main_arg2 (by decide)).trans (W39_main_arg2 m c)
theorem W41_main_arg2 (c : Dev nD) : W41 m c main_arg2 = m ((c : Thread nD τ).loc main_arg2) :=
  (W41_of m c main_arg2 (by decide)).trans (W40_main_arg2 m c)
theorem W42_main_arg2 (c : Dev nD) : W42 m c main_arg2 = m ((c : Thread nD τ).loc main_arg2) :=
  (W42_of m c main_arg2 (by decide)).trans (W41_main_arg2 m c)
theorem W43_main_arg2 (c : Dev nD) : W43 m c main_arg2 = m ((c : Thread nD τ).loc main_arg2) :=
  (W43_of m c main_arg2 (by decide)).trans (W42_main_arg2 m c)
theorem W44_main_arg2 (c : Dev nD) : W44 m c main_arg2 = m ((c : Thread nD τ).loc main_arg2) :=
  (W44_of m c main_arg2 (by decide)).trans (W43_main_arg2 m c)
theorem W45_main_arg2 (c : Dev nD) : W45 m c main_arg2 = m ((c : Thread nD τ).loc main_arg2) :=
  (W45_of m c main_arg2 (by decide)).trans (W44_main_arg2 m c)
theorem W46_main_arg2 (c : Dev nD) : W46 m c main_arg2 = m ((c : Thread nD τ).loc main_arg2) :=
  (W46_of m c main_arg2 (by decide)).trans (W45_main_arg2 m c)
theorem W47_main_arg2 (c : Dev nD) : W47 m c main_arg2 = m ((c : Thread nD τ).loc main_arg2) :=
  (W47_of m c main_arg2 (by decide)).trans (W46_main_arg2 m c)
theorem W48_main_arg2 (c : Dev nD) : W48 m c main_arg2 = m ((c : Thread nD τ).loc main_arg2) :=
  (W48_of m c main_arg2 (by decide)).trans (W47_main_arg2 m c)
theorem W49_main_arg2 (c : Dev nD) : W49 m c main_arg2 = m ((c : Thread nD τ).loc main_arg2) :=
  (W49_of m c main_arg2 (by decide)).trans (W48_main_arg2 m c)
theorem W50_main_arg2 (c : Dev nD) : W50 m c main_arg2 = m ((c : Thread nD τ).loc main_arg2) :=
  (W50_of m c main_arg2 (by decide)).trans (W49_main_arg2 m c)
theorem W51_main_arg2 (c : Dev nD) : W51 m c main_arg2 = m ((c : Thread nD τ).loc main_arg2) :=
  (W51_of m c main_arg2 (by decide)).trans (W50_main_arg2 m c)
theorem W52_main_arg2 (c : Dev nD) : W52 m c main_arg2 = m ((c : Thread nD τ).loc main_arg2) :=
  (W52_of m c main_arg2 (by decide)).trans (W51_main_arg2 m c)
theorem W53_main_arg2 (c : Dev nD) : W53 m c main_arg2 = m ((c : Thread nD τ).loc main_arg2) :=
  (W53_of m c main_arg2 (by decide)).trans (W52_main_arg2 m c)
theorem W54_main_arg2 (c : Dev nD) : W54 m c main_arg2 = m ((c : Thread nD τ).loc main_arg2) :=
  (W54_of m c main_arg2 (by decide)).trans (W53_main_arg2 m c)
theorem W0_main_arg3 (c : Dev nD) : W0 m c main_arg3 = m ((c : Thread nD τ).loc main_arg3) :=
  rfl
theorem W1_main_arg3 (c : Dev nD) : W1 m c main_arg3 = m ((c : Thread nD τ).loc main_arg3) :=
  (W1_of m c main_arg3 (by decide)).trans (W0_main_arg3 m c)
theorem W2_main_arg3 (c : Dev nD) : W2 m c main_arg3 = m ((c : Thread nD τ).loc main_arg3) :=
  (W2_of m c main_arg3 (by decide)).trans (W1_main_arg3 m c)
theorem W3_main_arg3 (c : Dev nD) : W3 m c main_arg3 = m ((c : Thread nD τ).loc main_arg3) :=
  (W3_of m c main_arg3 (by decide)).trans (W2_main_arg3 m c)
theorem W4_main_arg3 (c : Dev nD) : W4 m c main_arg3 = m ((c : Thread nD τ).loc main_arg3) :=
  (W4_of m c main_arg3 (by decide)).trans (W3_main_arg3 m c)
theorem W5_main_arg3 (c : Dev nD) : W5 m c main_arg3 = m ((c : Thread nD τ).loc main_arg3) :=
  (W5_of m c main_arg3 (by decide)).trans (W4_main_arg3 m c)
theorem W6_main_arg3 (c : Dev nD) : W6 m c main_arg3 = m ((c : Thread nD τ).loc main_arg3) :=
  (W6_of m c main_arg3 (by decide)).trans (W5_main_arg3 m c)
theorem W7_main_arg3 (c : Dev nD) : W7 m c main_arg3 = m ((c : Thread nD τ).loc main_arg3) :=
  (W7_of m c main_arg3 (by decide)).trans (W6_main_arg3 m c)
theorem W8_main_arg3 (c : Dev nD) : W8 m c main_arg3 = m ((c : Thread nD τ).loc main_arg3) :=
  (W8_of m c main_arg3 (by decide)).trans (W7_main_arg3 m c)
theorem W9_main_arg3 (c : Dev nD) : W9 m c main_arg3 = m ((c : Thread nD τ).loc main_arg3) :=
  (W9_of m c main_arg3 (by decide)).trans (W8_main_arg3 m c)
theorem W10_main_arg3 (c : Dev nD) : W10 m c main_arg3 = m ((c : Thread nD τ).loc main_arg3) :=
  (W10_of m c main_arg3 (by decide)).trans (W9_main_arg3 m c)
theorem W11_main_arg3 (c : Dev nD) : W11 m c main_arg3 = m ((c : Thread nD τ).loc main_arg3) :=
  (W11_of m c main_arg3 (by decide)).trans (W10_main_arg3 m c)
theorem W12_main_arg3 (c : Dev nD) : W12 m c main_arg3 = m ((c : Thread nD τ).loc main_arg3) :=
  (W12_of m c main_arg3 (by decide)).trans (W11_main_arg3 m c)
theorem W13_main_arg3 (c : Dev nD) : W13 m c main_arg3 = m ((c : Thread nD τ).loc main_arg3) :=
  (W13_of m c main_arg3 (by decide)).trans (W12_main_arg3 m c)
theorem W14_main_arg3 (c : Dev nD) : W14 m c main_arg3 = m ((c : Thread nD τ).loc main_arg3) :=
  (W14_of m c main_arg3 (by decide)).trans (W13_main_arg3 m c)
theorem W15_main_arg3 (c : Dev nD) : W15 m c main_arg3 = m ((c : Thread nD τ).loc main_arg3) :=
  (W15_of m c main_arg3 (by decide)).trans (W14_main_arg3 m c)
theorem W16_main_arg3 (c : Dev nD) : W16 m c main_arg3 = m ((c : Thread nD τ).loc main_arg3) :=
  (W16_of m c main_arg3 (by decide)).trans (W15_main_arg3 m c)
theorem W17_main_arg3 (c : Dev nD) : W17 m c main_arg3 = m ((c : Thread nD τ).loc main_arg3) :=
  (W17_of m c main_arg3 (by decide)).trans (W16_main_arg3 m c)
theorem W18_main_arg3 (c : Dev nD) : W18 m c main_arg3 = m ((c : Thread nD τ).loc main_arg3) :=
  (W18_of m c main_arg3 (by decide)).trans (W17_main_arg3 m c)
theorem W19_main_arg3 (c : Dev nD) : W19 m c main_arg3 = m ((c : Thread nD τ).loc main_arg3) :=
  (W19_of m c main_arg3 (by decide)).trans (W18_main_arg3 m c)
theorem W20_main_arg3 (c : Dev nD) : W20 m c main_arg3 = m ((c : Thread nD τ).loc main_arg3) :=
  (W20_of m c main_arg3 (by decide)).trans (W19_main_arg3 m c)
theorem W21_main_arg3 (c : Dev nD) : W21 m c main_arg3 = m ((c : Thread nD τ).loc main_arg3) :=
  (W21_of m c main_arg3 (by decide)).trans (W20_main_arg3 m c)
theorem W22_main_arg3 (c : Dev nD) : W22 m c main_arg3 = m ((c : Thread nD τ).loc main_arg3) :=
  (W22_of m c main_arg3 (by decide)).trans (W21_main_arg3 m c)
theorem W23_main_arg3 (c : Dev nD) : W23 m c main_arg3 = m ((c : Thread nD τ).loc main_arg3) :=
  (W23_of m c main_arg3 (by decide)).trans (W22_main_arg3 m c)
theorem W24_main_arg3 (c : Dev nD) : W24 m c main_arg3 = m ((c : Thread nD τ).loc main_arg3) :=
  (W24_of m c main_arg3 (by decide)).trans (W23_main_arg3 m c)
theorem W25_main_arg3 (c : Dev nD) : W25 m c main_arg3 = m ((c : Thread nD τ).loc main_arg3) :=
  (W25_of m c main_arg3 (by decide)).trans (W24_main_arg3 m c)
theorem W26_main_arg3 (c : Dev nD) : W26 m c main_arg3 = m ((c : Thread nD τ).loc main_arg3) :=
  (W26_of m c main_arg3 (by decide)).trans (W25_main_arg3 m c)
theorem W27_main_arg3 (c : Dev nD) : W27 m c main_arg3 = m ((c : Thread nD τ).loc main_arg3) :=
  (W27_of m c main_arg3 (by decide)).trans (W26_main_arg3 m c)
theorem W28_main_arg3 (c : Dev nD) : W28 m c main_arg3 = m ((c : Thread nD τ).loc main_arg3) :=
  (W28_of m c main_arg3 (by decide)).trans (W27_main_arg3 m c)
theorem W29_main_arg3 (c : Dev nD) : W29 m c main_arg3 = m ((c : Thread nD τ).loc main_arg3) :=
  (W29_of m c main_arg3 (by decide)).trans (W28_main_arg3 m c)
theorem W30_main_arg3 (c : Dev nD) : W30 m c main_arg3 = m ((c : Thread nD τ).loc main_arg3) :=
  (W30_of m c main_arg3 (by decide)).trans (W29_main_arg3 m c)
theorem W31_main_arg3 (c : Dev nD) : W31 m c main_arg3 = m ((c : Thread nD τ).loc main_arg3) :=
  (W31_of m c main_arg3 (by decide)).trans (W30_main_arg3 m c)
theorem W32_main_arg3 (c : Dev nD) : W32 m c main_arg3 = m ((c : Thread nD τ).loc main_arg3) :=
  (W32_of m c main_arg3 (by decide)).trans (W31_main_arg3 m c)
theorem W33_main_arg3 (c : Dev nD) : W33 m c main_arg3 = m ((c : Thread nD τ).loc main_arg3) :=
  (W33_of m c main_arg3 (by decide)).trans (W32_main_arg3 m c)
theorem W34_main_arg3 (c : Dev nD) : W34 m c main_arg3 = m ((c : Thread nD τ).loc main_arg3) :=
  (W34_of m c main_arg3 (by decide)).trans (W33_main_arg3 m c)
theorem W35_main_arg3 (c : Dev nD) : W35 m c main_arg3 = m ((c : Thread nD τ).loc main_arg3) :=
  (W35_of m c main_arg3 (by decide)).trans (W34_main_arg3 m c)
theorem W36_main_arg3 (c : Dev nD) : W36 m c main_arg3 = m ((c : Thread nD τ).loc main_arg3) :=
  (W36_of m c main_arg3 (by decide)).trans (W35_main_arg3 m c)
theorem W37_main_arg3 (c : Dev nD) : W37 m c main_arg3 = m ((c : Thread nD τ).loc main_arg3) :=
  (W37_of m c main_arg3 (by decide)).trans (W36_main_arg3 m c)
theorem W38_main_arg3 (c : Dev nD) : W38 m c main_arg3 = m ((c : Thread nD τ).loc main_arg3) :=
  (W38_of m c main_arg3 (by decide)).trans (W37_main_arg3 m c)
theorem W39_main_arg3 (c : Dev nD) : W39 m c main_arg3 = m ((c : Thread nD τ).loc main_arg3) :=
  (W39_of m c main_arg3 (by decide)).trans (W38_main_arg3 m c)
theorem W40_main_arg3 (c : Dev nD) : W40 m c main_arg3 = m ((c : Thread nD τ).loc main_arg3) :=
  (W40_of m c main_arg3 (by decide)).trans (W39_main_arg3 m c)
theorem W41_main_arg3 (c : Dev nD) : W41 m c main_arg3 = m ((c : Thread nD τ).loc main_arg3) :=
  (W41_of m c main_arg3 (by decide)).trans (W40_main_arg3 m c)
theorem W42_main_arg3 (c : Dev nD) : W42 m c main_arg3 = m ((c : Thread nD τ).loc main_arg3) :=
  (W42_of m c main_arg3 (by decide)).trans (W41_main_arg3 m c)
theorem W43_main_arg3 (c : Dev nD) : W43 m c main_arg3 = m ((c : Thread nD τ).loc main_arg3) :=
  (W43_of m c main_arg3 (by decide)).trans (W42_main_arg3 m c)
theorem W44_main_arg3 (c : Dev nD) : W44 m c main_arg3 = m ((c : Thread nD τ).loc main_arg3) :=
  (W44_of m c main_arg3 (by decide)).trans (W43_main_arg3 m c)
theorem W45_main_arg3 (c : Dev nD) : W45 m c main_arg3 = m ((c : Thread nD τ).loc main_arg3) :=
  (W45_of m c main_arg3 (by decide)).trans (W44_main_arg3 m c)
theorem W46_main_arg3 (c : Dev nD) : W46 m c main_arg3 = m ((c : Thread nD τ).loc main_arg3) :=
  (W46_of m c main_arg3 (by decide)).trans (W45_main_arg3 m c)
theorem W47_main_arg3 (c : Dev nD) : W47 m c main_arg3 = m ((c : Thread nD τ).loc main_arg3) :=
  (W47_of m c main_arg3 (by decide)).trans (W46_main_arg3 m c)
theorem W48_main_arg3 (c : Dev nD) : W48 m c main_arg3 = m ((c : Thread nD τ).loc main_arg3) :=
  (W48_of m c main_arg3 (by decide)).trans (W47_main_arg3 m c)
theorem W49_main_arg3 (c : Dev nD) : W49 m c main_arg3 = m ((c : Thread nD τ).loc main_arg3) :=
  (W49_of m c main_arg3 (by decide)).trans (W48_main_arg3 m c)
theorem W50_main_arg3 (c : Dev nD) : W50 m c main_arg3 = m ((c : Thread nD τ).loc main_arg3) :=
  (W50_of m c main_arg3 (by decide)).trans (W49_main_arg3 m c)
theorem W51_main_arg3 (c : Dev nD) : W51 m c main_arg3 = m ((c : Thread nD τ).loc main_arg3) :=
  (W51_of m c main_arg3 (by decide)).trans (W50_main_arg3 m c)
theorem W52_main_arg3 (c : Dev nD) : W52 m c main_arg3 = m ((c : Thread nD τ).loc main_arg3) :=
  (W52_of m c main_arg3 (by decide)).trans (W51_main_arg3 m c)
theorem W53_main_arg3 (c : Dev nD) : W53 m c main_arg3 = m ((c : Thread nD τ).loc main_arg3) :=
  (W53_of m c main_arg3 (by decide)).trans (W52_main_arg3 m c)
theorem W54_main_arg3 (c : Dev nD) : W54 m c main_arg3 = m ((c : Thread nD τ).loc main_arg3) :=
  (W54_of m c main_arg3 (by decide)).trans (W53_main_arg3 m c)
theorem W0_main_arg4 (c : Dev nD) : W0 m c main_arg4 = m ((c : Thread nD τ).loc main_arg4) :=
  rfl
theorem W1_main_arg4 (c : Dev nD) : W1 m c main_arg4 = m ((c : Thread nD τ).loc main_arg4) :=
  (W1_of m c main_arg4 (by decide)).trans (W0_main_arg4 m c)
theorem W2_main_arg4 (c : Dev nD) : W2 m c main_arg4 = m ((c : Thread nD τ).loc main_arg4) :=
  (W2_of m c main_arg4 (by decide)).trans (W1_main_arg4 m c)
theorem W3_main_arg4 (c : Dev nD) : W3 m c main_arg4 = m ((c : Thread nD τ).loc main_arg4) :=
  (W3_of m c main_arg4 (by decide)).trans (W2_main_arg4 m c)
theorem W4_main_arg4 (c : Dev nD) : W4 m c main_arg4 = m ((c : Thread nD τ).loc main_arg4) :=
  (W4_of m c main_arg4 (by decide)).trans (W3_main_arg4 m c)
theorem W5_main_arg4 (c : Dev nD) : W5 m c main_arg4 = m ((c : Thread nD τ).loc main_arg4) :=
  (W5_of m c main_arg4 (by decide)).trans (W4_main_arg4 m c)
theorem W6_main_arg4 (c : Dev nD) : W6 m c main_arg4 = m ((c : Thread nD τ).loc main_arg4) :=
  (W6_of m c main_arg4 (by decide)).trans (W5_main_arg4 m c)
theorem W7_main_arg4 (c : Dev nD) : W7 m c main_arg4 = m ((c : Thread nD τ).loc main_arg4) :=
  (W7_of m c main_arg4 (by decide)).trans (W6_main_arg4 m c)
theorem W8_main_arg4 (c : Dev nD) : W8 m c main_arg4 = m ((c : Thread nD τ).loc main_arg4) :=
  (W8_of m c main_arg4 (by decide)).trans (W7_main_arg4 m c)
theorem W9_main_arg4 (c : Dev nD) : W9 m c main_arg4 = m ((c : Thread nD τ).loc main_arg4) :=
  (W9_of m c main_arg4 (by decide)).trans (W8_main_arg4 m c)
theorem W10_main_arg4 (c : Dev nD) : W10 m c main_arg4 = m ((c : Thread nD τ).loc main_arg4) :=
  (W10_of m c main_arg4 (by decide)).trans (W9_main_arg4 m c)
theorem W11_main_arg4 (c : Dev nD) : W11 m c main_arg4 = m ((c : Thread nD τ).loc main_arg4) :=
  (W11_of m c main_arg4 (by decide)).trans (W10_main_arg4 m c)
theorem W12_main_arg4 (c : Dev nD) : W12 m c main_arg4 = m ((c : Thread nD τ).loc main_arg4) :=
  (W12_of m c main_arg4 (by decide)).trans (W11_main_arg4 m c)
theorem W13_main_arg4 (c : Dev nD) : W13 m c main_arg4 = m ((c : Thread nD τ).loc main_arg4) :=
  (W13_of m c main_arg4 (by decide)).trans (W12_main_arg4 m c)
theorem W14_main_arg4 (c : Dev nD) : W14 m c main_arg4 = m ((c : Thread nD τ).loc main_arg4) :=
  (W14_of m c main_arg4 (by decide)).trans (W13_main_arg4 m c)
theorem W15_main_arg4 (c : Dev nD) : W15 m c main_arg4 = m ((c : Thread nD τ).loc main_arg4) :=
  (W15_of m c main_arg4 (by decide)).trans (W14_main_arg4 m c)
theorem W16_main_arg4 (c : Dev nD) : W16 m c main_arg4 = m ((c : Thread nD τ).loc main_arg4) :=
  (W16_of m c main_arg4 (by decide)).trans (W15_main_arg4 m c)
theorem W17_main_arg4 (c : Dev nD) : W17 m c main_arg4 = m ((c : Thread nD τ).loc main_arg4) :=
  (W17_of m c main_arg4 (by decide)).trans (W16_main_arg4 m c)
theorem W18_main_arg4 (c : Dev nD) : W18 m c main_arg4 = m ((c : Thread nD τ).loc main_arg4) :=
  (W18_of m c main_arg4 (by decide)).trans (W17_main_arg4 m c)
theorem W19_main_arg4 (c : Dev nD) : W19 m c main_arg4 = m ((c : Thread nD τ).loc main_arg4) :=
  (W19_of m c main_arg4 (by decide)).trans (W18_main_arg4 m c)
theorem W20_main_arg4 (c : Dev nD) : W20 m c main_arg4 = m ((c : Thread nD τ).loc main_arg4) :=
  (W20_of m c main_arg4 (by decide)).trans (W19_main_arg4 m c)
theorem W21_main_arg4 (c : Dev nD) : W21 m c main_arg4 = m ((c : Thread nD τ).loc main_arg4) :=
  (W21_of m c main_arg4 (by decide)).trans (W20_main_arg4 m c)
theorem W22_main_arg4 (c : Dev nD) : W22 m c main_arg4 = m ((c : Thread nD τ).loc main_arg4) :=
  (W22_of m c main_arg4 (by decide)).trans (W21_main_arg4 m c)
theorem W23_main_arg4 (c : Dev nD) : W23 m c main_arg4 = m ((c : Thread nD τ).loc main_arg4) :=
  (W23_of m c main_arg4 (by decide)).trans (W22_main_arg4 m c)
theorem W24_main_arg4 (c : Dev nD) : W24 m c main_arg4 = m ((c : Thread nD τ).loc main_arg4) :=
  (W24_of m c main_arg4 (by decide)).trans (W23_main_arg4 m c)
theorem W25_main_arg4 (c : Dev nD) : W25 m c main_arg4 = m ((c : Thread nD τ).loc main_arg4) :=
  (W25_of m c main_arg4 (by decide)).trans (W24_main_arg4 m c)
theorem W26_main_arg4 (c : Dev nD) : W26 m c main_arg4 = m ((c : Thread nD τ).loc main_arg4) :=
  (W26_of m c main_arg4 (by decide)).trans (W25_main_arg4 m c)
theorem W27_main_arg4 (c : Dev nD) : W27 m c main_arg4 = m ((c : Thread nD τ).loc main_arg4) :=
  (W27_of m c main_arg4 (by decide)).trans (W26_main_arg4 m c)
theorem W28_main_arg4 (c : Dev nD) : W28 m c main_arg4 = m ((c : Thread nD τ).loc main_arg4) :=
  (W28_of m c main_arg4 (by decide)).trans (W27_main_arg4 m c)
theorem W29_main_arg4 (c : Dev nD) : W29 m c main_arg4 = m ((c : Thread nD τ).loc main_arg4) :=
  (W29_of m c main_arg4 (by decide)).trans (W28_main_arg4 m c)
theorem W30_main_arg4 (c : Dev nD) : W30 m c main_arg4 = m ((c : Thread nD τ).loc main_arg4) :=
  (W30_of m c main_arg4 (by decide)).trans (W29_main_arg4 m c)
theorem W31_main_arg4 (c : Dev nD) : W31 m c main_arg4 = m ((c : Thread nD τ).loc main_arg4) :=
  (W31_of m c main_arg4 (by decide)).trans (W30_main_arg4 m c)
theorem W32_main_arg4 (c : Dev nD) : W32 m c main_arg4 = m ((c : Thread nD τ).loc main_arg4) :=
  (W32_of m c main_arg4 (by decide)).trans (W31_main_arg4 m c)
theorem W33_main_arg4 (c : Dev nD) : W33 m c main_arg4 = m ((c : Thread nD τ).loc main_arg4) :=
  (W33_of m c main_arg4 (by decide)).trans (W32_main_arg4 m c)
theorem W34_main_arg4 (c : Dev nD) : W34 m c main_arg4 = m ((c : Thread nD τ).loc main_arg4) :=
  (W34_of m c main_arg4 (by decide)).trans (W33_main_arg4 m c)
theorem W35_main_arg4 (c : Dev nD) : W35 m c main_arg4 = m ((c : Thread nD τ).loc main_arg4) :=
  (W35_of m c main_arg4 (by decide)).trans (W34_main_arg4 m c)
theorem W36_main_arg4 (c : Dev nD) : W36 m c main_arg4 = m ((c : Thread nD τ).loc main_arg4) :=
  (W36_of m c main_arg4 (by decide)).trans (W35_main_arg4 m c)
theorem W37_main_arg4 (c : Dev nD) : W37 m c main_arg4 = m ((c : Thread nD τ).loc main_arg4) :=
  (W37_of m c main_arg4 (by decide)).trans (W36_main_arg4 m c)
theorem W38_main_arg4 (c : Dev nD) : W38 m c main_arg4 = m ((c : Thread nD τ).loc main_arg4) :=
  (W38_of m c main_arg4 (by decide)).trans (W37_main_arg4 m c)
theorem W39_main_arg4 (c : Dev nD) : W39 m c main_arg4 = m ((c : Thread nD τ).loc main_arg4) :=
  (W39_of m c main_arg4 (by decide)).trans (W38_main_arg4 m c)
theorem W40_main_arg4 (c : Dev nD) : W40 m c main_arg4 = m ((c : Thread nD τ).loc main_arg4) :=
  (W40_of m c main_arg4 (by decide)).trans (W39_main_arg4 m c)
theorem W41_main_arg4 (c : Dev nD) : W41 m c main_arg4 = m ((c : Thread nD τ).loc main_arg4) :=
  (W41_of m c main_arg4 (by decide)).trans (W40_main_arg4 m c)
theorem W42_main_arg4 (c : Dev nD) : W42 m c main_arg4 = m ((c : Thread nD τ).loc main_arg4) :=
  (W42_of m c main_arg4 (by decide)).trans (W41_main_arg4 m c)
theorem W43_main_arg4 (c : Dev nD) : W43 m c main_arg4 = m ((c : Thread nD τ).loc main_arg4) :=
  (W43_of m c main_arg4 (by decide)).trans (W42_main_arg4 m c)
theorem W44_main_arg4 (c : Dev nD) : W44 m c main_arg4 = m ((c : Thread nD τ).loc main_arg4) :=
  (W44_of m c main_arg4 (by decide)).trans (W43_main_arg4 m c)
theorem W45_main_arg4 (c : Dev nD) : W45 m c main_arg4 = m ((c : Thread nD τ).loc main_arg4) :=
  (W45_of m c main_arg4 (by decide)).trans (W44_main_arg4 m c)
theorem W46_main_arg4 (c : Dev nD) : W46 m c main_arg4 = m ((c : Thread nD τ).loc main_arg4) :=
  (W46_of m c main_arg4 (by decide)).trans (W45_main_arg4 m c)
theorem W47_main_arg4 (c : Dev nD) : W47 m c main_arg4 = m ((c : Thread nD τ).loc main_arg4) :=
  (W47_of m c main_arg4 (by decide)).trans (W46_main_arg4 m c)
theorem W48_main_arg4 (c : Dev nD) : W48 m c main_arg4 = m ((c : Thread nD τ).loc main_arg4) :=
  (W48_of m c main_arg4 (by decide)).trans (W47_main_arg4 m c)
theorem W49_main_arg4 (c : Dev nD) : W49 m c main_arg4 = m ((c : Thread nD τ).loc main_arg4) :=
  (W49_of m c main_arg4 (by decide)).trans (W48_main_arg4 m c)
theorem W50_main_arg4 (c : Dev nD) : W50 m c main_arg4 = m ((c : Thread nD τ).loc main_arg4) :=
  (W50_of m c main_arg4 (by decide)).trans (W49_main_arg4 m c)
theorem W51_main_arg4 (c : Dev nD) : W51 m c main_arg4 = m ((c : Thread nD τ).loc main_arg4) :=
  (W51_of m c main_arg4 (by decide)).trans (W50_main_arg4 m c)
theorem W52_main_arg4 (c : Dev nD) : W52 m c main_arg4 = m ((c : Thread nD τ).loc main_arg4) :=
  (W52_of m c main_arg4 (by decide)).trans (W51_main_arg4 m c)
theorem W53_main_arg4 (c : Dev nD) : W53 m c main_arg4 = m ((c : Thread nD τ).loc main_arg4) :=
  (W53_of m c main_arg4 (by decide)).trans (W52_main_arg4 m c)
theorem W54_main_arg4 (c : Dev nD) : W54 m c main_arg4 = m ((c : Thread nD τ).loc main_arg4) :=
  (W54_of m c main_arg4 (by decide)).trans (W53_main_arg4 m c)

/-! ## The transposed neighbour table is written once; each gather launch's table is a slice of it -/

theorem W1_main_v0 (c : Dev nD) : W1 m c main_v0 = (transpose S16x50000 [1, 0] (m ((c : Thread nD τ).loc main_arg4)) transposes_S50000x16_S16x50000_1_0) :=
  by unfold W1 W0; after_results; first | done | rfl
theorem W2_main_v0 (c : Dev nD) : W2 m c main_v0 = (transpose S16x50000 [1, 0] (m ((c : Thread nD τ).loc main_arg4)) transposes_S50000x16_S16x50000_1_0) :=
  (W2_of m c main_v0 (by decide)).trans (W1_main_v0 m c)
theorem W3_main_v0 (c : Dev nD) : W3 m c main_v0 = (transpose S16x50000 [1, 0] (m ((c : Thread nD τ).loc main_arg4)) transposes_S50000x16_S16x50000_1_0) :=
  (W3_of m c main_v0 (by decide)).trans (W2_main_v0 m c)
theorem W4_main_v0 (c : Dev nD) : W4 m c main_v0 = (transpose S16x50000 [1, 0] (m ((c : Thread nD τ).loc main_arg4)) transposes_S50000x16_S16x50000_1_0) :=
  (W4_of m c main_v0 (by decide)).trans (W3_main_v0 m c)
theorem W5_main_v0 (c : Dev nD) : W5 m c main_v0 = (transpose S16x50000 [1, 0] (m ((c : Thread nD τ).loc main_arg4)) transposes_S50000x16_S16x50000_1_0) :=
  (W5_of m c main_v0 (by decide)).trans (W4_main_v0 m c)
theorem W6_main_v0 (c : Dev nD) : W6 m c main_v0 = (transpose S16x50000 [1, 0] (m ((c : Thread nD τ).loc main_arg4)) transposes_S50000x16_S16x50000_1_0) :=
  (W6_of m c main_v0 (by decide)).trans (W5_main_v0 m c)
theorem W7_main_v0 (c : Dev nD) : W7 m c main_v0 = (transpose S16x50000 [1, 0] (m ((c : Thread nD τ).loc main_arg4)) transposes_S50000x16_S16x50000_1_0) :=
  (W7_of m c main_v0 (by decide)).trans (W6_main_v0 m c)
theorem W8_main_v0 (c : Dev nD) : W8 m c main_v0 = (transpose S16x50000 [1, 0] (m ((c : Thread nD τ).loc main_arg4)) transposes_S50000x16_S16x50000_1_0) :=
  (W8_of m c main_v0 (by decide)).trans (W7_main_v0 m c)
theorem W9_main_v0 (c : Dev nD) : W9 m c main_v0 = (transpose S16x50000 [1, 0] (m ((c : Thread nD τ).loc main_arg4)) transposes_S50000x16_S16x50000_1_0) :=
  (W9_of m c main_v0 (by decide)).trans (W8_main_v0 m c)
theorem W10_main_v0 (c : Dev nD) : W10 m c main_v0 = (transpose S16x50000 [1, 0] (m ((c : Thread nD τ).loc main_arg4)) transposes_S50000x16_S16x50000_1_0) :=
  (W10_of m c main_v0 (by decide)).trans (W9_main_v0 m c)
theorem W11_main_v0 (c : Dev nD) : W11 m c main_v0 = (transpose S16x50000 [1, 0] (m ((c : Thread nD τ).loc main_arg4)) transposes_S50000x16_S16x50000_1_0) :=
  (W11_of m c main_v0 (by decide)).trans (W10_main_v0 m c)
theorem W12_main_v0 (c : Dev nD) : W12 m c main_v0 = (transpose S16x50000 [1, 0] (m ((c : Thread nD τ).loc main_arg4)) transposes_S50000x16_S16x50000_1_0) :=
  (W12_of m c main_v0 (by decide)).trans (W11_main_v0 m c)
theorem W13_main_v0 (c : Dev nD) : W13 m c main_v0 = (transpose S16x50000 [1, 0] (m ((c : Thread nD τ).loc main_arg4)) transposes_S50000x16_S16x50000_1_0) :=
  (W13_of m c main_v0 (by decide)).trans (W12_main_v0 m c)
theorem W14_main_v0 (c : Dev nD) : W14 m c main_v0 = (transpose S16x50000 [1, 0] (m ((c : Thread nD τ).loc main_arg4)) transposes_S50000x16_S16x50000_1_0) :=
  (W14_of m c main_v0 (by decide)).trans (W13_main_v0 m c)
theorem W15_main_v0 (c : Dev nD) : W15 m c main_v0 = (transpose S16x50000 [1, 0] (m ((c : Thread nD τ).loc main_arg4)) transposes_S50000x16_S16x50000_1_0) :=
  (W15_of m c main_v0 (by decide)).trans (W14_main_v0 m c)
theorem W16_main_v0 (c : Dev nD) : W16 m c main_v0 = (transpose S16x50000 [1, 0] (m ((c : Thread nD τ).loc main_arg4)) transposes_S50000x16_S16x50000_1_0) :=
  (W16_of m c main_v0 (by decide)).trans (W15_main_v0 m c)
theorem W17_main_v0 (c : Dev nD) : W17 m c main_v0 = (transpose S16x50000 [1, 0] (m ((c : Thread nD τ).loc main_arg4)) transposes_S50000x16_S16x50000_1_0) :=
  (W17_of m c main_v0 (by decide)).trans (W16_main_v0 m c)
theorem W18_main_v0 (c : Dev nD) : W18 m c main_v0 = (transpose S16x50000 [1, 0] (m ((c : Thread nD τ).loc main_arg4)) transposes_S50000x16_S16x50000_1_0) :=
  (W18_of m c main_v0 (by decide)).trans (W17_main_v0 m c)
theorem W19_main_v0 (c : Dev nD) : W19 m c main_v0 = (transpose S16x50000 [1, 0] (m ((c : Thread nD τ).loc main_arg4)) transposes_S50000x16_S16x50000_1_0) :=
  (W19_of m c main_v0 (by decide)).trans (W18_main_v0 m c)
theorem W20_main_v0 (c : Dev nD) : W20 m c main_v0 = (transpose S16x50000 [1, 0] (m ((c : Thread nD τ).loc main_arg4)) transposes_S50000x16_S16x50000_1_0) :=
  (W20_of m c main_v0 (by decide)).trans (W19_main_v0 m c)
theorem W21_main_v0 (c : Dev nD) : W21 m c main_v0 = (transpose S16x50000 [1, 0] (m ((c : Thread nD τ).loc main_arg4)) transposes_S50000x16_S16x50000_1_0) :=
  (W21_of m c main_v0 (by decide)).trans (W20_main_v0 m c)
theorem W22_main_v0 (c : Dev nD) : W22 m c main_v0 = (transpose S16x50000 [1, 0] (m ((c : Thread nD τ).loc main_arg4)) transposes_S50000x16_S16x50000_1_0) :=
  (W22_of m c main_v0 (by decide)).trans (W21_main_v0 m c)
theorem W23_main_v0 (c : Dev nD) : W23 m c main_v0 = (transpose S16x50000 [1, 0] (m ((c : Thread nD τ).loc main_arg4)) transposes_S50000x16_S16x50000_1_0) :=
  (W23_of m c main_v0 (by decide)).trans (W22_main_v0 m c)
theorem W24_main_v0 (c : Dev nD) : W24 m c main_v0 = (transpose S16x50000 [1, 0] (m ((c : Thread nD τ).loc main_arg4)) transposes_S50000x16_S16x50000_1_0) :=
  (W24_of m c main_v0 (by decide)).trans (W23_main_v0 m c)
theorem W25_main_v0 (c : Dev nD) : W25 m c main_v0 = (transpose S16x50000 [1, 0] (m ((c : Thread nD τ).loc main_arg4)) transposes_S50000x16_S16x50000_1_0) :=
  (W25_of m c main_v0 (by decide)).trans (W24_main_v0 m c)
theorem W26_main_v0 (c : Dev nD) : W26 m c main_v0 = (transpose S16x50000 [1, 0] (m ((c : Thread nD τ).loc main_arg4)) transposes_S50000x16_S16x50000_1_0) :=
  (W26_of m c main_v0 (by decide)).trans (W25_main_v0 m c)
theorem W27_main_v0 (c : Dev nD) : W27 m c main_v0 = (transpose S16x50000 [1, 0] (m ((c : Thread nD τ).loc main_arg4)) transposes_S50000x16_S16x50000_1_0) :=
  (W27_of m c main_v0 (by decide)).trans (W26_main_v0 m c)
theorem W28_main_v0 (c : Dev nD) : W28 m c main_v0 = (transpose S16x50000 [1, 0] (m ((c : Thread nD τ).loc main_arg4)) transposes_S50000x16_S16x50000_1_0) :=
  (W28_of m c main_v0 (by decide)).trans (W27_main_v0 m c)
theorem W29_main_v0 (c : Dev nD) : W29 m c main_v0 = (transpose S16x50000 [1, 0] (m ((c : Thread nD τ).loc main_arg4)) transposes_S50000x16_S16x50000_1_0) :=
  (W29_of m c main_v0 (by decide)).trans (W28_main_v0 m c)
theorem W30_main_v0 (c : Dev nD) : W30 m c main_v0 = (transpose S16x50000 [1, 0] (m ((c : Thread nD τ).loc main_arg4)) transposes_S50000x16_S16x50000_1_0) :=
  (W30_of m c main_v0 (by decide)).trans (W29_main_v0 m c)
theorem W31_main_v0 (c : Dev nD) : W31 m c main_v0 = (transpose S16x50000 [1, 0] (m ((c : Thread nD τ).loc main_arg4)) transposes_S50000x16_S16x50000_1_0) :=
  (W31_of m c main_v0 (by decide)).trans (W30_main_v0 m c)
theorem W32_main_v0 (c : Dev nD) : W32 m c main_v0 = (transpose S16x50000 [1, 0] (m ((c : Thread nD τ).loc main_arg4)) transposes_S50000x16_S16x50000_1_0) :=
  (W32_of m c main_v0 (by decide)).trans (W31_main_v0 m c)
theorem W33_main_v0 (c : Dev nD) : W33 m c main_v0 = (transpose S16x50000 [1, 0] (m ((c : Thread nD τ).loc main_arg4)) transposes_S50000x16_S16x50000_1_0) :=
  (W33_of m c main_v0 (by decide)).trans (W32_main_v0 m c)
theorem W34_main_v0 (c : Dev nD) : W34 m c main_v0 = (transpose S16x50000 [1, 0] (m ((c : Thread nD τ).loc main_arg4)) transposes_S50000x16_S16x50000_1_0) :=
  (W34_of m c main_v0 (by decide)).trans (W33_main_v0 m c)
theorem W35_main_v0 (c : Dev nD) : W35 m c main_v0 = (transpose S16x50000 [1, 0] (m ((c : Thread nD τ).loc main_arg4)) transposes_S50000x16_S16x50000_1_0) :=
  (W35_of m c main_v0 (by decide)).trans (W34_main_v0 m c)
theorem W36_main_v0 (c : Dev nD) : W36 m c main_v0 = (transpose S16x50000 [1, 0] (m ((c : Thread nD τ).loc main_arg4)) transposes_S50000x16_S16x50000_1_0) :=
  (W36_of m c main_v0 (by decide)).trans (W35_main_v0 m c)
theorem W37_main_v0 (c : Dev nD) : W37 m c main_v0 = (transpose S16x50000 [1, 0] (m ((c : Thread nD τ).loc main_arg4)) transposes_S50000x16_S16x50000_1_0) :=
  (W37_of m c main_v0 (by decide)).trans (W36_main_v0 m c)
theorem W38_main_v0 (c : Dev nD) : W38 m c main_v0 = (transpose S16x50000 [1, 0] (m ((c : Thread nD τ).loc main_arg4)) transposes_S50000x16_S16x50000_1_0) :=
  (W38_of m c main_v0 (by decide)).trans (W37_main_v0 m c)
theorem W39_main_v0 (c : Dev nD) : W39 m c main_v0 = (transpose S16x50000 [1, 0] (m ((c : Thread nD τ).loc main_arg4)) transposes_S50000x16_S16x50000_1_0) :=
  (W39_of m c main_v0 (by decide)).trans (W38_main_v0 m c)
theorem W40_main_v0 (c : Dev nD) : W40 m c main_v0 = (transpose S16x50000 [1, 0] (m ((c : Thread nD τ).loc main_arg4)) transposes_S50000x16_S16x50000_1_0) :=
  (W40_of m c main_v0 (by decide)).trans (W39_main_v0 m c)
theorem W41_main_v0 (c : Dev nD) : W41 m c main_v0 = (transpose S16x50000 [1, 0] (m ((c : Thread nD τ).loc main_arg4)) transposes_S50000x16_S16x50000_1_0) :=
  (W41_of m c main_v0 (by decide)).trans (W40_main_v0 m c)
theorem W42_main_v0 (c : Dev nD) : W42 m c main_v0 = (transpose S16x50000 [1, 0] (m ((c : Thread nD τ).loc main_arg4)) transposes_S50000x16_S16x50000_1_0) :=
  (W42_of m c main_v0 (by decide)).trans (W41_main_v0 m c)
theorem W43_main_v0 (c : Dev nD) : W43 m c main_v0 = (transpose S16x50000 [1, 0] (m ((c : Thread nD τ).loc main_arg4)) transposes_S50000x16_S16x50000_1_0) :=
  (W43_of m c main_v0 (by decide)).trans (W42_main_v0 m c)
theorem W44_main_v0 (c : Dev nD) : W44 m c main_v0 = (transpose S16x50000 [1, 0] (m ((c : Thread nD τ).loc main_arg4)) transposes_S50000x16_S16x50000_1_0) :=
  (W44_of m c main_v0 (by decide)).trans (W43_main_v0 m c)
theorem W45_main_v0 (c : Dev nD) : W45 m c main_v0 = (transpose S16x50000 [1, 0] (m ((c : Thread nD τ).loc main_arg4)) transposes_S50000x16_S16x50000_1_0) :=
  (W45_of m c main_v0 (by decide)).trans (W44_main_v0 m c)
theorem W46_main_v0 (c : Dev nD) : W46 m c main_v0 = (transpose S16x50000 [1, 0] (m ((c : Thread nD τ).loc main_arg4)) transposes_S50000x16_S16x50000_1_0) :=
  (W46_of m c main_v0 (by decide)).trans (W45_main_v0 m c)
theorem W47_main_v0 (c : Dev nD) : W47 m c main_v0 = (transpose S16x50000 [1, 0] (m ((c : Thread nD τ).loc main_arg4)) transposes_S50000x16_S16x50000_1_0) :=
  (W47_of m c main_v0 (by decide)).trans (W46_main_v0 m c)
theorem W48_main_v0 (c : Dev nD) : W48 m c main_v0 = (transpose S16x50000 [1, 0] (m ((c : Thread nD τ).loc main_arg4)) transposes_S50000x16_S16x50000_1_0) :=
  (W48_of m c main_v0 (by decide)).trans (W47_main_v0 m c)
theorem W49_main_v0 (c : Dev nD) : W49 m c main_v0 = (transpose S16x50000 [1, 0] (m ((c : Thread nD τ).loc main_arg4)) transposes_S50000x16_S16x50000_1_0) :=
  (W49_of m c main_v0 (by decide)).trans (W48_main_v0 m c)
theorem W50_main_v0 (c : Dev nD) : W50 m c main_v0 = (transpose S16x50000 [1, 0] (m ((c : Thread nD τ).loc main_arg4)) transposes_S50000x16_S16x50000_1_0) :=
  (W50_of m c main_v0 (by decide)).trans (W49_main_v0 m c)

theorem W1_table (c : Dev nD) : W1 m c main_v1 = extractStridedSlice S16x2000 ![0, 0] (transpose S16x50000 [1, 0] (m ((c : Thread nD τ).loc main_arg4)) transposes_S50000x16_S16x50000_1_0) slices_S16x50000_S16x2000_0_0 := by
  unfold W1 W0; after_results; first | done | rfl
/-- Every word of launch 0's table names a row of the feature array, given that every neighbour index does. -/
theorem inRange0 (h4 : ∀ i : S50000x16.Idx, (m ((0 : Dev nD).tc.loc main_arg4) i).toNat < 100000) : InRange0 (adm0 m).1 := fun x => by
  have h := table_inRange (m ((0 : Dev nD).tc.loc main_arg4)) h4 ![0, 0] transposes_S50000x16_S16x50000_1_0 slices_S16x50000_S16x2000_0_0 x
  rw [← W1_table m 0] at h; exact h
theorem W3_table (c : Dev nD) : W3 m c main_v3 = extractStridedSlice S16x2000 ![0, 2000] (transpose S16x50000 [1, 0] (m ((c : Thread nD τ).loc main_arg4)) transposes_S50000x16_S16x50000_1_0) slices_S16x50000_S16x2000_0_2000 := by
  unfold W3; after_results; rw [W2_main_v0 m c]
/-- Every word of launch 1's table names a row of the feature array, given that every neighbour index does. -/
theorem inRange1 (h4 : ∀ i : S50000x16.Idx, (m ((0 : Dev nD).tc.loc main_arg4) i).toNat < 100000) : InRange1 (adm1 m).1 := fun x => by
  have h := table_inRange (m ((0 : Dev nD).tc.loc main_arg4)) h4 ![0, 2000] transposes_S50000x16_S16x50000_1_0 slices_S16x50000_S16x2000_0_2000 x
  rw [← W3_table m 0] at h; exact h
theorem W5_table (c : Dev nD) : W5 m c main_v5 = extractStridedSlice S16x2000 ![0, 4000] (transpose S16x50000 [1, 0] (m ((c : Thread nD τ).loc main_arg4)) transposes_S50000x16_S16x50000_1_0) slices_S16x50000_S16x2000_0_4000 := by
  unfold W5; after_results; rw [W4_main_v0 m c]
/-- Every word of launch 2's table names a row of the feature array, given that every neighbour index does. -/
theorem inRange2 (h4 : ∀ i : S50000x16.Idx, (m ((0 : Dev nD).tc.loc main_arg4) i).toNat < 100000) : InRange2 (adm2 m).1 := fun x => by
  have h := table_inRange (m ((0 : Dev nD).tc.loc main_arg4)) h4 ![0, 4000] transposes_S50000x16_S16x50000_1_0 slices_S16x50000_S16x2000_0_4000 x
  rw [← W5_table m 0] at h; exact h
theorem W7_table (c : Dev nD) : W7 m c main_v7 = extractStridedSlice S16x2000 ![0, 6000] (transpose S16x50000 [1, 0] (m ((c : Thread nD τ).loc main_arg4)) transposes_S50000x16_S16x50000_1_0) slices_S16x50000_S16x2000_0_6000 := by
  unfold W7; after_results; rw [W6_main_v0 m c]
/-- Every word of launch 3's table names a row of the feature array, given that every neighbour index does. -/
theorem inRange3 (h4 : ∀ i : S50000x16.Idx, (m ((0 : Dev nD).tc.loc main_arg4) i).toNat < 100000) : InRange3 (adm3 m).1 := fun x => by
  have h := table_inRange (m ((0 : Dev nD).tc.loc main_arg4)) h4 ![0, 6000] transposes_S50000x16_S16x50000_1_0 slices_S16x50000_S16x2000_0_6000 x
  rw [← W7_table m 0] at h; exact h
theorem W9_table (c : Dev nD) : W9 m c main_v9 = extractStridedSlice S16x2000 ![0, 8000] (transpose S16x50000 [1, 0] (m ((c : Thread nD τ).loc main_arg4)) transposes_S50000x16_S16x50000_1_0) slices_S16x50000_S16x2000_0_8000 := by
  unfold W9; after_results; rw [W8_main_v0 m c]
/-- Every word of launch 4's table names a row of the feature array, given that every neighbour index does. -/
theorem inRange4 (h4 : ∀ i : S50000x16.Idx, (m ((0 : Dev nD).tc.loc main_arg4) i).toNat < 100000) : InRange4 (adm4 m).1 := fun x => by
  have h := table_inRange (m ((0 : Dev nD).tc.loc main_arg4)) h4 ![0, 8000] transposes_S50000x16_S16x50000_1_0 slices_S16x50000_S16x2000_0_8000 x
  rw [← W9_table m 0] at h; exact h
theorem W11_table (c : Dev nD) : W11 m c main_v11 = extractStridedSlice S16x2000 ![0, 10000] (transpose S16x50000 [1, 0] (m ((c : Thread nD τ).loc main_arg4)) transposes_S50000x16_S16x50000_1_0) slices_S16x50000_S16x2000_0_10000 := by
  unfold W11; after_results; rw [W10_main_v0 m c]
/-- Every word of launch 5's table names a row of the feature array, given that every neighbour index does. -/
theorem inRange5 (h4 : ∀ i : S50000x16.Idx, (m ((0 : Dev nD).tc.loc main_arg4) i).toNat < 100000) : InRange5 (adm5 m).1 := fun x => by
  have h := table_inRange (m ((0 : Dev nD).tc.loc main_arg4)) h4 ![0, 10000] transposes_S50000x16_S16x50000_1_0 slices_S16x50000_S16x2000_0_10000 x
  rw [← W11_table m 0] at h; exact h
theorem W13_table (c : Dev nD) : W13 m c main_v13 = extractStridedSlice S16x2000 ![0, 12000] (transpose S16x50000 [1, 0] (m ((c : Thread nD τ).loc main_arg4)) transposes_S50000x16_S16x50000_1_0) slices_S16x50000_S16x2000_0_12000 := by
  unfold W13; after_results; rw [W12_main_v0 m c]
/-- Every word of launch 6's table names a row of the feature array, given that every neighbour index does. -/
theorem inRange6 (h4 : ∀ i : S50000x16.Idx, (m ((0 : Dev nD).tc.loc main_arg4) i).toNat < 100000) : InRange6 (adm6 m).1 := fun x => by
  have h := table_inRange (m ((0 : Dev nD).tc.loc main_arg4)) h4 ![0, 12000] transposes_S50000x16_S16x50000_1_0 slices_S16x50000_S16x2000_0_12000 x
  rw [← W13_table m 0] at h; exact h
theorem W15_table (c : Dev nD) : W15 m c main_v15 = extractStridedSlice S16x2000 ![0, 14000] (transpose S16x50000 [1, 0] (m ((c : Thread nD τ).loc main_arg4)) transposes_S50000x16_S16x50000_1_0) slices_S16x50000_S16x2000_0_14000 := by
  unfold W15; after_results; rw [W14_main_v0 m c]
/-- Every word of launch 7's table names a row of the feature array, given that every neighbour index does. -/
theorem inRange7 (h4 : ∀ i : S50000x16.Idx, (m ((0 : Dev nD).tc.loc main_arg4) i).toNat < 100000) : InRange7 (adm7 m).1 := fun x => by
  have h := table_inRange (m ((0 : Dev nD).tc.loc main_arg4)) h4 ![0, 14000] transposes_S50000x16_S16x50000_1_0 slices_S16x50000_S16x2000_0_14000 x
  rw [← W15_table m 0] at h; exact h
theorem W17_table (c : Dev nD) : W17 m c main_v17 = extractStridedSlice S16x2000 ![0, 16000] (transpose S16x50000 [1, 0] (m ((c : Thread nD τ).loc main_arg4)) transposes_S50000x16_S16x50000_1_0) slices_S16x50000_S16x2000_0_16000 := by
  unfold W17; after_results; rw [W16_main_v0 m c]
/-- Every word of launch 8's table names a row of the feature array, given that every neighbour index does. -/
theorem inRange8 (h4 : ∀ i : S50000x16.Idx, (m ((0 : Dev nD).tc.loc main_arg4) i).toNat < 100000) : InRange8 (adm8 m).1 := fun x => by
  have h := table_inRange (m ((0 : Dev nD).tc.loc main_arg4)) h4 ![0, 16000] transposes_S50000x16_S16x50000_1_0 slices_S16x50000_S16x2000_0_16000 x
  rw [← W17_table m 0] at h; exact h
theorem W19_table (c : Dev nD) : W19 m c main_v19 = extractStridedSlice S16x2000 ![0, 18000] (transpose S16x50000 [1, 0] (m ((c : Thread nD τ).loc main_arg4)) transposes_S50000x16_S16x50000_1_0) slices_S16x50000_S16x2000_0_18000 := by
  unfold W19; after_results; rw [W18_main_v0 m c]
/-- Every word of launch 9's table names a row of the feature array, given that every neighbour index does. -/
theorem inRange9 (h4 : ∀ i : S50000x16.Idx, (m ((0 : Dev nD).tc.loc main_arg4) i).toNat < 100000) : InRange9 (adm9 m).1 := fun x => by
  have h := table_inRange (m ((0 : Dev nD).tc.loc main_arg4)) h4 ![0, 18000] transposes_S50000x16_S16x50000_1_0 slices_S16x50000_S16x2000_0_18000 x
  rw [← W19_table m 0] at h; exact h
theorem W21_table (c : Dev nD) : W21 m c main_v21 = extractStridedSlice S16x2000 ![0, 20000] (transpose S16x50000 [1, 0] (m ((c : Thread nD τ).loc main_arg4)) transposes_S50000x16_S16x50000_1_0) slices_S16x50000_S16x2000_0_20000 := by
  unfold W21; after_results; rw [W20_main_v0 m c]
/-- Every word of launch 10's table names a row of the feature array, given that every neighbour index does. -/
theorem inRange10 (h4 : ∀ i : S50000x16.Idx, (m ((0 : Dev nD).tc.loc main_arg4) i).toNat < 100000) : InRange10 (adm10 m).1 := fun x => by
  have h := table_inRange (m ((0 : Dev nD).tc.loc main_arg4)) h4 ![0, 20000] transposes_S50000x16_S16x50000_1_0 slices_S16x50000_S16x2000_0_20000 x
  rw [← W21_table m 0] at h; exact h
theorem W23_table (c : Dev nD) : W23 m c main_v23 = extractStridedSlice S16x2000 ![0, 22000] (transpose S16x50000 [1, 0] (m ((c : Thread nD τ).loc main_arg4)) transposes_S50000x16_S16x50000_1_0) slices_S16x50000_S16x2000_0_22000 := by
  unfold W23; after_results; rw [W22_main_v0 m c]
/-- Every word of launch 11's table names a row of the feature array, given that every neighbour index does. -/
theorem inRange11 (h4 : ∀ i : S50000x16.Idx, (m ((0 : Dev nD).tc.loc main_arg4) i).toNat < 100000) : InRange11 (adm11 m).1 := fun x => by
  have h := table_inRange (m ((0 : Dev nD).tc.loc main_arg4)) h4 ![0, 22000] transposes_S50000x16_S16x50000_1_0 slices_S16x50000_S16x2000_0_22000 x
  rw [← W23_table m 0] at h; exact h
theorem W25_table (c : Dev nD) : W25 m c main_v25 = extractStridedSlice S16x2000 ![0, 24000] (transpose S16x50000 [1, 0] (m ((c : Thread nD τ).loc main_arg4)) transposes_S50000x16_S16x50000_1_0) slices_S16x50000_S16x2000_0_24000 := by
  unfold W25; after_results; rw [W24_main_v0 m c]
/-- Every word of launch 12's table names a row of the feature array, given that every neighbour index does. -/
theorem inRange12 (h4 : ∀ i : S50000x16.Idx, (m ((0 : Dev nD).tc.loc main_arg4) i).toNat < 100000) : InRange12 (adm12 m).1 := fun x => by
  have h := table_inRange (m ((0 : Dev nD).tc.loc main_arg4)) h4 ![0, 24000] transposes_S50000x16_S16x50000_1_0 slices_S16x50000_S16x2000_0_24000 x
  rw [← W25_table m 0] at h; exact h
theorem W27_table (c : Dev nD) : W27 m c main_v27 = extractStridedSlice S16x2000 ![0, 26000] (transpose S16x50000 [1, 0] (m ((c : Thread nD τ).loc main_arg4)) transposes_S50000x16_S16x50000_1_0) slices_S16x50000_S16x2000_0_26000 := by
  unfold W27; after_results; rw [W26_main_v0 m c]
/-- Every word of launch 13's table names a row of the feature array, given that every neighbour index does. -/
theorem inRange13 (h4 : ∀ i : S50000x16.Idx, (m ((0 : Dev nD).tc.loc main_arg4) i).toNat < 100000) : InRange13 (adm13 m).1 := fun x => by
  have h := table_inRange (m ((0 : Dev nD).tc.loc main_arg4)) h4 ![0, 26000] transposes_S50000x16_S16x50000_1_0 slices_S16x50000_S16x2000_0_26000 x
  rw [← W27_table m 0] at h; exact h
theorem W29_table (c : Dev nD) : W29 m c main_v29 = extractStridedSlice S16x2000 ![0, 28000] (transpose S16x50000 [1, 0] (m ((c : Thread nD τ).loc main_arg4)) transposes_S50000x16_S16x50000_1_0) slices_S16x50000_S16x2000_0_28000 := by
  unfold W29; after_results; rw [W28_main_v0 m c]
/-- Every word of launch 14's table names a row of the feature array, given that every neighbour index does. -/
theorem inRange14 (h4 : ∀ i : S50000x16.Idx, (m ((0 : Dev nD).tc.loc main_arg4) i).toNat < 100000) : InRange14 (adm14 m).1 := fun x => by
  have h := table_inRange (m ((0 : Dev nD).tc.loc main_arg4)) h4 ![0, 28000] transposes_S50000x16_S16x50000_1_0 slices_S16x50000_S16x2000_0_28000 x
  rw [← W29_table m 0] at h; exact h
theorem W31_table (c : Dev nD) : W31 m c main_v31 = extractStridedSlice S16x2000 ![0, 30000] (transpose S16x50000 [1, 0] (m ((c : Thread nD τ).loc main_arg4)) transposes_S50000x16_S16x50000_1_0) slices_S16x50000_S16x2000_0_30000 := by
  unfold W31; after_results; rw [W30_main_v0 m c]
/-- Every word of launch 15's table names a row of the feature array, given that every neighbour index does. -/
theorem inRange15 (h4 : ∀ i : S50000x16.Idx, (m ((0 : Dev nD).tc.loc main_arg4) i).toNat < 100000) : InRange15 (adm15 m).1 := fun x => by
  have h := table_inRange (m ((0 : Dev nD).tc.loc main_arg4)) h4 ![0, 30000] transposes_S50000x16_S16x50000_1_0 slices_S16x50000_S16x2000_0_30000 x
  rw [← W31_table m 0] at h; exact h
theorem W33_table (c : Dev nD) : W33 m c main_v33 = extractStridedSlice S16x2000 ![0, 32000] (transpose S16x50000 [1, 0] (m ((c : Thread nD τ).loc main_arg4)) transposes_S50000x16_S16x50000_1_0) slices_S16x50000_S16x2000_0_32000 := by
  unfold W33; after_results; rw [W32_main_v0 m c]
/-- Every word of launch 16's table names a row of the feature array, given that every neighbour index does. -/
theorem inRange16 (h4 : ∀ i : S50000x16.Idx, (m ((0 : Dev nD).tc.loc main_arg4) i).toNat < 100000) : InRange16 (adm16 m).1 := fun x => by
  have h := table_inRange (m ((0 : Dev nD).tc.loc main_arg4)) h4 ![0, 32000] transposes_S50000x16_S16x50000_1_0 slices_S16x50000_S16x2000_0_32000 x
  rw [← W33_table m 0] at h; exact h
theorem W35_table (c : Dev nD) : W35 m c main_v35 = extractStridedSlice S16x2000 ![0, 34000] (transpose S16x50000 [1, 0] (m ((c : Thread nD τ).loc main_arg4)) transposes_S50000x16_S16x50000_1_0) slices_S16x50000_S16x2000_0_34000 := by
  unfold W35; after_results; rw [W34_main_v0 m c]
/-- Every word of launch 17's table names a row of the feature array, given that every neighbour index does. -/
theorem inRange17 (h4 : ∀ i : S50000x16.Idx, (m ((0 : Dev nD).tc.loc main_arg4) i).toNat < 100000) : InRange17 (adm17 m).1 := fun x => by
  have h := table_inRange (m ((0 : Dev nD).tc.loc main_arg4)) h4 ![0, 34000] transposes_S50000x16_S16x50000_1_0 slices_S16x50000_S16x2000_0_34000 x
  rw [← W35_table m 0] at h; exact h
theorem W37_table (c : Dev nD) : W37 m c main_v37 = extractStridedSlice S16x2000 ![0, 36000] (transpose S16x50000 [1, 0] (m ((c : Thread nD τ).loc main_arg4)) transposes_S50000x16_S16x50000_1_0) slices_S16x50000_S16x2000_0_36000 := by
  unfold W37; after_results; rw [W36_main_v0 m c]
/-- Every word of launch 18's table names a row of the feature array, given that every neighbour index does. -/
theorem inRange18 (h4 : ∀ i : S50000x16.Idx, (m ((0 : Dev nD).tc.loc main_arg4) i).toNat < 100000) : InRange18 (adm18 m).1 := fun x => by
  have h := table_inRange (m ((0 : Dev nD).tc.loc main_arg4)) h4 ![0, 36000] transposes_S50000x16_S16x50000_1_0 slices_S16x50000_S16x2000_0_36000 x
  rw [← W37_table m 0] at h; exact h
theorem W39_table (c : Dev nD) : W39 m c main_v39 = extractStridedSlice S16x2000 ![0, 38000] (transpose S16x50000 [1, 0] (m ((c : Thread nD τ).loc main_arg4)) transposes_S50000x16_S16x50000_1_0) slices_S16x50000_S16x2000_0_38000 := by
  unfold W39; after_results; rw [W38_main_v0 m c]
/-- Every word of launch 19's table names a row of the feature array, given that every neighbour index does. -/
theorem inRange19 (h4 : ∀ i : S50000x16.Idx, (m ((0 : Dev nD).tc.loc main_arg4) i).toNat < 100000) : InRange19 (adm19 m).1 := fun x => by
  have h := table_inRange (m ((0 : Dev nD).tc.loc main_arg4)) h4 ![0, 38000] transposes_S50000x16_S16x50000_1_0 slices_S16x50000_S16x2000_0_38000 x
  rw [← W39_table m 0] at h; exact h
theorem W41_table (c : Dev nD) : W41 m c main_v41 = extractStridedSlice S16x2000 ![0, 40000] (transpose S16x50000 [1, 0] (m ((c : Thread nD τ).loc main_arg4)) transposes_S50000x16_S16x50000_1_0) slices_S16x50000_S16x2000_0_40000 := by
  unfold W41; after_results; rw [W40_main_v0 m c]
/-- Every word of launch 20's table names a row of the feature array, given that every neighbour index does. -/
theorem inRange20 (h4 : ∀ i : S50000x16.Idx, (m ((0 : Dev nD).tc.loc main_arg4) i).toNat < 100000) : InRange20 (adm20 m).1 := fun x => by
  have h := table_inRange (m ((0 : Dev nD).tc.loc main_arg4)) h4 ![0, 40000] transposes_S50000x16_S16x50000_1_0 slices_S16x50000_S16x2000_0_40000 x
  rw [← W41_table m 0] at h; exact h
theorem W43_table (c : Dev nD) : W43 m c main_v43 = extractStridedSlice S16x2000 ![0, 42000] (transpose S16x50000 [1, 0] (m ((c : Thread nD τ).loc main_arg4)) transposes_S50000x16_S16x50000_1_0) slices_S16x50000_S16x2000_0_42000 := by
  unfold W43; after_results; rw [W42_main_v0 m c]
/-- Every word of launch 21's table names a row of the feature array, given that every neighbour index does. -/
theorem inRange21 (h4 : ∀ i : S50000x16.Idx, (m ((0 : Dev nD).tc.loc main_arg4) i).toNat < 100000) : InRange21 (adm21 m).1 := fun x => by
  have h := table_inRange (m ((0 : Dev nD).tc.loc main_arg4)) h4 ![0, 42000] transposes_S50000x16_S16x50000_1_0 slices_S16x50000_S16x2000_0_42000 x
  rw [← W43_table m 0] at h; exact h
theorem W45_table (c : Dev nD) : W45 m c main_v45 = extractStridedSlice S16x2000 ![0, 44000] (transpose S16x50000 [1, 0] (m ((c : Thread nD τ).loc main_arg4)) transposes_S50000x16_S16x50000_1_0) slices_S16x50000_S16x2000_0_44000 := by
  unfold W45; after_results; rw [W44_main_v0 m c]
/-- Every word of launch 22's table names a row of the feature array, given that every neighbour index does. -/
theorem inRange22 (h4 : ∀ i : S50000x16.Idx, (m ((0 : Dev nD).tc.loc main_arg4) i).toNat < 100000) : InRange22 (adm22 m).1 := fun x => by
  have h := table_inRange (m ((0 : Dev nD).tc.loc main_arg4)) h4 ![0, 44000] transposes_S50000x16_S16x50000_1_0 slices_S16x50000_S16x2000_0_44000 x
  rw [← W45_table m 0] at h; exact h
theorem W47_table (c : Dev nD) : W47 m c main_v47 = extractStridedSlice S16x2000 ![0, 46000] (transpose S16x50000 [1, 0] (m ((c : Thread nD τ).loc main_arg4)) transposes_S50000x16_S16x50000_1_0) slices_S16x50000_S16x2000_0_46000 := by
  unfold W47; after_results; rw [W46_main_v0 m c]
/-- Every word of launch 23's table names a row of the feature array, given that every neighbour index does. -/
theorem inRange23 (h4 : ∀ i : S50000x16.Idx, (m ((0 : Dev nD).tc.loc main_arg4) i).toNat < 100000) : InRange23 (adm23 m).1 := fun x => by
  have h := table_inRange (m ((0 : Dev nD).tc.loc main_arg4)) h4 ![0, 46000] transposes_S50000x16_S16x50000_1_0 slices_S16x50000_S16x2000_0_46000 x
  rw [← W47_table m 0] at h; exact h
theorem W49_table (c : Dev nD) : W49 m c main_v49 = extractStridedSlice S16x2000 ![0, 48000] (transpose S16x50000 [1, 0] (m ((c : Thread nD τ).loc main_arg4)) transposes_S50000x16_S16x50000_1_0) slices_S16x50000_S16x2000_0_48000 := by
  unfold W49; after_results; rw [W48_main_v0 m c]
/-- Every word of launch 24's table names a row of the feature array, given that every neighbour index does. -/
theorem inRange24 (h4 : ∀ i : S50000x16.Idx, (m ((0 : Dev nD).tc.loc main_arg4) i).toNat < 100000) : InRange24 (adm24 m).1 := fun x => by
  have h := table_inRange (m ((0 : Dev nD).tc.loc main_arg4)) h4 ![0, 48000] transposes_S50000x16_S16x50000_1_0 slices_S16x50000_S16x2000_0_48000 x
  rw [← W49_table m 0] at h; exact h

/-! ## Each gather launch's chunk is kept up to the concatenation; the joined array up to the last launch -/

theorem W2_chunk0 (c : Dev nD) : W2 m c main_v2 = O0 (En0 m) (adm0 m) c :=
  W2_out m c
theorem W3_chunk0 (c : Dev nD) : W3 m c main_v2 = O0 (En0 m) (adm0 m) c :=
  (W3_of m c main_v2 (by decide)).trans (W2_chunk0 m c)
theorem W4_chunk0 (c : Dev nD) : W4 m c main_v2 = O0 (En0 m) (adm0 m) c :=
  (W4_of m c main_v2 (by decide)).trans (W3_chunk0 m c)
theorem W5_chunk0 (c : Dev nD) : W5 m c main_v2 = O0 (En0 m) (adm0 m) c :=
  (W5_of m c main_v2 (by decide)).trans (W4_chunk0 m c)
theorem W6_chunk0 (c : Dev nD) : W6 m c main_v2 = O0 (En0 m) (adm0 m) c :=
  (W6_of m c main_v2 (by decide)).trans (W5_chunk0 m c)
theorem W7_chunk0 (c : Dev nD) : W7 m c main_v2 = O0 (En0 m) (adm0 m) c :=
  (W7_of m c main_v2 (by decide)).trans (W6_chunk0 m c)
theorem W8_chunk0 (c : Dev nD) : W8 m c main_v2 = O0 (En0 m) (adm0 m) c :=
  (W8_of m c main_v2 (by decide)).trans (W7_chunk0 m c)
theorem W9_chunk0 (c : Dev nD) : W9 m c main_v2 = O0 (En0 m) (adm0 m) c :=
  (W9_of m c main_v2 (by decide)).trans (W8_chunk0 m c)
theorem W10_chunk0 (c : Dev nD) : W10 m c main_v2 = O0 (En0 m) (adm0 m) c :=
  (W10_of m c main_v2 (by decide)).trans (W9_chunk0 m c)
theorem W11_chunk0 (c : Dev nD) : W11 m c main_v2 = O0 (En0 m) (adm0 m) c :=
  (W11_of m c main_v2 (by decide)).trans (W10_chunk0 m c)
theorem W12_chunk0 (c : Dev nD) : W12 m c main_v2 = O0 (En0 m) (adm0 m) c :=
  (W12_of m c main_v2 (by decide)).trans (W11_chunk0 m c)
theorem W13_chunk0 (c : Dev nD) : W13 m c main_v2 = O0 (En0 m) (adm0 m) c :=
  (W13_of m c main_v2 (by decide)).trans (W12_chunk0 m c)
theorem W14_chunk0 (c : Dev nD) : W14 m c main_v2 = O0 (En0 m) (adm0 m) c :=
  (W14_of m c main_v2 (by decide)).trans (W13_chunk0 m c)
theorem W15_chunk0 (c : Dev nD) : W15 m c main_v2 = O0 (En0 m) (adm0 m) c :=
  (W15_of m c main_v2 (by decide)).trans (W14_chunk0 m c)
theorem W16_chunk0 (c : Dev nD) : W16 m c main_v2 = O0 (En0 m) (adm0 m) c :=
  (W16_of m c main_v2 (by decide)).trans (W15_chunk0 m c)
theorem W17_chunk0 (c : Dev nD) : W17 m c main_v2 = O0 (En0 m) (adm0 m) c :=
  (W17_of m c main_v2 (by decide)).trans (W16_chunk0 m c)
theorem W18_chunk0 (c : Dev nD) : W18 m c main_v2 = O0 (En0 m) (adm0 m) c :=
  (W18_of m c main_v2 (by decide)).trans (W17_chunk0 m c)
theorem W19_chunk0 (c : Dev nD) : W19 m c main_v2 = O0 (En0 m) (adm0 m) c :=
  (W19_of m c main_v2 (by decide)).trans (W18_chunk0 m c)
theorem W20_chunk0 (c : Dev nD) : W20 m c main_v2 = O0 (En0 m) (adm0 m) c :=
  (W20_of m c main_v2 (by decide)).trans (W19_chunk0 m c)
theorem W21_chunk0 (c : Dev nD) : W21 m c main_v2 = O0 (En0 m) (adm0 m) c :=
  (W21_of m c main_v2 (by decide)).trans (W20_chunk0 m c)
theorem W22_chunk0 (c : Dev nD) : W22 m c main_v2 = O0 (En0 m) (adm0 m) c :=
  (W22_of m c main_v2 (by decide)).trans (W21_chunk0 m c)
theorem W23_chunk0 (c : Dev nD) : W23 m c main_v2 = O0 (En0 m) (adm0 m) c :=
  (W23_of m c main_v2 (by decide)).trans (W22_chunk0 m c)
theorem W24_chunk0 (c : Dev nD) : W24 m c main_v2 = O0 (En0 m) (adm0 m) c :=
  (W24_of m c main_v2 (by decide)).trans (W23_chunk0 m c)
theorem W25_chunk0 (c : Dev nD) : W25 m c main_v2 = O0 (En0 m) (adm0 m) c :=
  (W25_of m c main_v2 (by decide)).trans (W24_chunk0 m c)
theorem W26_chunk0 (c : Dev nD) : W26 m c main_v2 = O0 (En0 m) (adm0 m) c :=
  (W26_of m c main_v2 (by decide)).trans (W25_chunk0 m c)
theorem W27_chunk0 (c : Dev nD) : W27 m c main_v2 = O0 (En0 m) (adm0 m) c :=
  (W27_of m c main_v2 (by decide)).trans (W26_chunk0 m c)
theorem W28_chunk0 (c : Dev nD) : W28 m c main_v2 = O0 (En0 m) (adm0 m) c :=
  (W28_of m c main_v2 (by decide)).trans (W27_chunk0 m c)
theorem W29_chunk0 (c : Dev nD) : W29 m c main_v2 = O0 (En0 m) (adm0 m) c :=
  (W29_of m c main_v2 (by decide)).trans (W28_chunk0 m c)
theorem W30_chunk0 (c : Dev nD) : W30 m c main_v2 = O0 (En0 m) (adm0 m) c :=
  (W30_of m c main_v2 (by decide)).trans (W29_chunk0 m c)
theorem W31_chunk0 (c : Dev nD) : W31 m c main_v2 = O0 (En0 m) (adm0 m) c :=
  (W31_of m c main_v2 (by decide)).trans (W30_chunk0 m c)
theorem W32_chunk0 (c : Dev nD) : W32 m c main_v2 = O0 (En0 m) (adm0 m) c :=
  (W32_of m c main_v2 (by decide)).trans (W31_chunk0 m c)
theorem W33_chunk0 (c : Dev nD) : W33 m c main_v2 = O0 (En0 m) (adm0 m) c :=
  (W33_of m c main_v2 (by decide)).trans (W32_chunk0 m c)
theorem W34_chunk0 (c : Dev nD) : W34 m c main_v2 = O0 (En0 m) (adm0 m) c :=
  (W34_of m c main_v2 (by decide)).trans (W33_chunk0 m c)
theorem W35_chunk0 (c : Dev nD) : W35 m c main_v2 = O0 (En0 m) (adm0 m) c :=
  (W35_of m c main_v2 (by decide)).trans (W34_chunk0 m c)
theorem W36_chunk0 (c : Dev nD) : W36 m c main_v2 = O0 (En0 m) (adm0 m) c :=
  (W36_of m c main_v2 (by decide)).trans (W35_chunk0 m c)
theorem W37_chunk0 (c : Dev nD) : W37 m c main_v2 = O0 (En0 m) (adm0 m) c :=
  (W37_of m c main_v2 (by decide)).trans (W36_chunk0 m c)
theorem W38_chunk0 (c : Dev nD) : W38 m c main_v2 = O0 (En0 m) (adm0 m) c :=
  (W38_of m c main_v2 (by decide)).trans (W37_chunk0 m c)
theorem W39_chunk0 (c : Dev nD) : W39 m c main_v2 = O0 (En0 m) (adm0 m) c :=
  (W39_of m c main_v2 (by decide)).trans (W38_chunk0 m c)
theorem W40_chunk0 (c : Dev nD) : W40 m c main_v2 = O0 (En0 m) (adm0 m) c :=
  (W40_of m c main_v2 (by decide)).trans (W39_chunk0 m c)
theorem W41_chunk0 (c : Dev nD) : W41 m c main_v2 = O0 (En0 m) (adm0 m) c :=
  (W41_of m c main_v2 (by decide)).trans (W40_chunk0 m c)
theorem W42_chunk0 (c : Dev nD) : W42 m c main_v2 = O0 (En0 m) (adm0 m) c :=
  (W42_of m c main_v2 (by decide)).trans (W41_chunk0 m c)
theorem W43_chunk0 (c : Dev nD) : W43 m c main_v2 = O0 (En0 m) (adm0 m) c :=
  (W43_of m c main_v2 (by decide)).trans (W42_chunk0 m c)
theorem W44_chunk0 (c : Dev nD) : W44 m c main_v2 = O0 (En0 m) (adm0 m) c :=
  (W44_of m c main_v2 (by decide)).trans (W43_chunk0 m c)
theorem W45_chunk0 (c : Dev nD) : W45 m c main_v2 = O0 (En0 m) (adm0 m) c :=
  (W45_of m c main_v2 (by decide)).trans (W44_chunk0 m c)
theorem W46_chunk0 (c : Dev nD) : W46 m c main_v2 = O0 (En0 m) (adm0 m) c :=
  (W46_of m c main_v2 (by decide)).trans (W45_chunk0 m c)
theorem W47_chunk0 (c : Dev nD) : W47 m c main_v2 = O0 (En0 m) (adm0 m) c :=
  (W47_of m c main_v2 (by decide)).trans (W46_chunk0 m c)
theorem W48_chunk0 (c : Dev nD) : W48 m c main_v2 = O0 (En0 m) (adm0 m) c :=
  (W48_of m c main_v2 (by decide)).trans (W47_chunk0 m c)
theorem W49_chunk0 (c : Dev nD) : W49 m c main_v2 = O0 (En0 m) (adm0 m) c :=
  (W49_of m c main_v2 (by decide)).trans (W48_chunk0 m c)
theorem W50_chunk0 (c : Dev nD) : W50 m c main_v2 = O0 (En0 m) (adm0 m) c :=
  (W50_of m c main_v2 (by decide)).trans (W49_chunk0 m c)
theorem W51_chunk0 (c : Dev nD) : W51 m c main_v2 = O0 (En0 m) (adm0 m) c :=
  (W51_of m c main_v2 (by decide)).trans (W50_chunk0 m c)
theorem W4_chunk1 (c : Dev nD) : W4 m c main_v4 = O1 (En1 m) (adm1 m) c :=
  W4_out m c
theorem W5_chunk1 (c : Dev nD) : W5 m c main_v4 = O1 (En1 m) (adm1 m) c :=
  (W5_of m c main_v4 (by decide)).trans (W4_chunk1 m c)
theorem W6_chunk1 (c : Dev nD) : W6 m c main_v4 = O1 (En1 m) (adm1 m) c :=
  (W6_of m c main_v4 (by decide)).trans (W5_chunk1 m c)
theorem W7_chunk1 (c : Dev nD) : W7 m c main_v4 = O1 (En1 m) (adm1 m) c :=
  (W7_of m c main_v4 (by decide)).trans (W6_chunk1 m c)
theorem W8_chunk1 (c : Dev nD) : W8 m c main_v4 = O1 (En1 m) (adm1 m) c :=
  (W8_of m c main_v4 (by decide)).trans (W7_chunk1 m c)
theorem W9_chunk1 (c : Dev nD) : W9 m c main_v4 = O1 (En1 m) (adm1 m) c :=
  (W9_of m c main_v4 (by decide)).trans (W8_chunk1 m c)
theorem W10_chunk1 (c : Dev nD) : W10 m c main_v4 = O1 (En1 m) (adm1 m) c :=
  (W10_of m c main_v4 (by decide)).trans (W9_chunk1 m c)
theorem W11_chunk1 (c : Dev nD) : W11 m c main_v4 = O1 (En1 m) (adm1 m) c :=
  (W11_of m c main_v4 (by decide)).trans (W10_chunk1 m c)
theorem W12_chunk1 (c : Dev nD) : W12 m c main_v4 = O1 (En1 m) (adm1 m) c :=
  (W12_of m c main_v4 (by decide)).trans (W11_chunk1 m c)
theorem W13_chunk1 (c : Dev nD) : W13 m c main_v4 = O1 (En1 m) (adm1 m) c :=
  (W13_of m c main_v4 (by decide)).trans (W12_chunk1 m c)
theorem W14_chunk1 (c : Dev nD) : W14 m c main_v4 = O1 (En1 m) (adm1 m) c :=
  (W14_of m c main_v4 (by decide)).trans (W13_chunk1 m c)
theorem W15_chunk1 (c : Dev nD) : W15 m c main_v4 = O1 (En1 m) (adm1 m) c :=
  (W15_of m c main_v4 (by decide)).trans (W14_chunk1 m c)
theorem W16_chunk1 (c : Dev nD) : W16 m c main_v4 = O1 (En1 m) (adm1 m) c :=
  (W16_of m c main_v4 (by decide)).trans (W15_chunk1 m c)
theorem W17_chunk1 (c : Dev nD) : W17 m c main_v4 = O1 (En1 m) (adm1 m) c :=
  (W17_of m c main_v4 (by decide)).trans (W16_chunk1 m c)
theorem W18_chunk1 (c : Dev nD) : W18 m c main_v4 = O1 (En1 m) (adm1 m) c :=
  (W18_of m c main_v4 (by decide)).trans (W17_chunk1 m c)
theorem W19_chunk1 (c : Dev nD) : W19 m c main_v4 = O1 (En1 m) (adm1 m) c :=
  (W19_of m c main_v4 (by decide)).trans (W18_chunk1 m c)
theorem W20_chunk1 (c : Dev nD) : W20 m c main_v4 = O1 (En1 m) (adm1 m) c :=
  (W20_of m c main_v4 (by decide)).trans (W19_chunk1 m c)
theorem W21_chunk1 (c : Dev nD) : W21 m c main_v4 = O1 (En1 m) (adm1 m) c :=
  (W21_of m c main_v4 (by decide)).trans (W20_chunk1 m c)
theorem W22_chunk1 (c : Dev nD) : W22 m c main_v4 = O1 (En1 m) (adm1 m) c :=
  (W22_of m c main_v4 (by decide)).trans (W21_chunk1 m c)
theorem W23_chunk1 (c : Dev nD) : W23 m c main_v4 = O1 (En1 m) (adm1 m) c :=
  (W23_of m c main_v4 (by decide)).trans (W22_chunk1 m c)
theorem W24_chunk1 (c : Dev nD) : W24 m c main_v4 = O1 (En1 m) (adm1 m) c :=
  (W24_of m c main_v4 (by decide)).trans (W23_chunk1 m c)
theorem W25_chunk1 (c : Dev nD) : W25 m c main_v4 = O1 (En1 m) (adm1 m) c :=
  (W25_of m c main_v4 (by decide)).trans (W24_chunk1 m c)
theorem W26_chunk1 (c : Dev nD) : W26 m c main_v4 = O1 (En1 m) (adm1 m) c :=
  (W26_of m c main_v4 (by decide)).trans (W25_chunk1 m c)
theorem W27_chunk1 (c : Dev nD) : W27 m c main_v4 = O1 (En1 m) (adm1 m) c :=
  (W27_of m c main_v4 (by decide)).trans (W26_chunk1 m c)
theorem W28_chunk1 (c : Dev nD) : W28 m c main_v4 = O1 (En1 m) (adm1 m) c :=
  (W28_of m c main_v4 (by decide)).trans (W27_chunk1 m c)
theorem W29_chunk1 (c : Dev nD) : W29 m c main_v4 = O1 (En1 m) (adm1 m) c :=
  (W29_of m c main_v4 (by decide)).trans (W28_chunk1 m c)
theorem W30_chunk1 (c : Dev nD) : W30 m c main_v4 = O1 (En1 m) (adm1 m) c :=
  (W30_of m c main_v4 (by decide)).trans (W29_chunk1 m c)
theorem W31_chunk1 (c : Dev nD) : W31 m c main_v4 = O1 (En1 m) (adm1 m) c :=
  (W31_of m c main_v4 (by decide)).trans (W30_chunk1 m c)
theorem W32_chunk1 (c : Dev nD) : W32 m c main_v4 = O1 (En1 m) (adm1 m) c :=
  (W32_of m c main_v4 (by decide)).trans (W31_chunk1 m c)
theorem W33_chunk1 (c : Dev nD) : W33 m c main_v4 = O1 (En1 m) (adm1 m) c :=
  (W33_of m c main_v4 (by decide)).trans (W32_chunk1 m c)
theorem W34_chunk1 (c : Dev nD) : W34 m c main_v4 = O1 (En1 m) (adm1 m) c :=
  (W34_of m c main_v4 (by decide)).trans (W33_chunk1 m c)
theorem W35_chunk1 (c : Dev nD) : W35 m c main_v4 = O1 (En1 m) (adm1 m) c :=
  (W35_of m c main_v4 (by decide)).trans (W34_chunk1 m c)
theorem W36_chunk1 (c : Dev nD) : W36 m c main_v4 = O1 (En1 m) (adm1 m) c :=
  (W36_of m c main_v4 (by decide)).trans (W35_chunk1 m c)
theorem W37_chunk1 (c : Dev nD) : W37 m c main_v4 = O1 (En1 m) (adm1 m) c :=
  (W37_of m c main_v4 (by decide)).trans (W36_chunk1 m c)
theorem W38_chunk1 (c : Dev nD) : W38 m c main_v4 = O1 (En1 m) (adm1 m) c :=
  (W38_of m c main_v4 (by decide)).trans (W37_chunk1 m c)
theorem W39_chunk1 (c : Dev nD) : W39 m c main_v4 = O1 (En1 m) (adm1 m) c :=
  (W39_of m c main_v4 (by decide)).trans (W38_chunk1 m c)
theorem W40_chunk1 (c : Dev nD) : W40 m c main_v4 = O1 (En1 m) (adm1 m) c :=
  (W40_of m c main_v4 (by decide)).trans (W39_chunk1 m c)
theorem W41_chunk1 (c : Dev nD) : W41 m c main_v4 = O1 (En1 m) (adm1 m) c :=
  (W41_of m c main_v4 (by decide)).trans (W40_chunk1 m c)
theorem W42_chunk1 (c : Dev nD) : W42 m c main_v4 = O1 (En1 m) (adm1 m) c :=
  (W42_of m c main_v4 (by decide)).trans (W41_chunk1 m c)
theorem W43_chunk1 (c : Dev nD) : W43 m c main_v4 = O1 (En1 m) (adm1 m) c :=
  (W43_of m c main_v4 (by decide)).trans (W42_chunk1 m c)
theorem W44_chunk1 (c : Dev nD) : W44 m c main_v4 = O1 (En1 m) (adm1 m) c :=
  (W44_of m c main_v4 (by decide)).trans (W43_chunk1 m c)
theorem W45_chunk1 (c : Dev nD) : W45 m c main_v4 = O1 (En1 m) (adm1 m) c :=
  (W45_of m c main_v4 (by decide)).trans (W44_chunk1 m c)
theorem W46_chunk1 (c : Dev nD) : W46 m c main_v4 = O1 (En1 m) (adm1 m) c :=
  (W46_of m c main_v4 (by decide)).trans (W45_chunk1 m c)
theorem W47_chunk1 (c : Dev nD) : W47 m c main_v4 = O1 (En1 m) (adm1 m) c :=
  (W47_of m c main_v4 (by decide)).trans (W46_chunk1 m c)
theorem W48_chunk1 (c : Dev nD) : W48 m c main_v4 = O1 (En1 m) (adm1 m) c :=
  (W48_of m c main_v4 (by decide)).trans (W47_chunk1 m c)
theorem W49_chunk1 (c : Dev nD) : W49 m c main_v4 = O1 (En1 m) (adm1 m) c :=
  (W49_of m c main_v4 (by decide)).trans (W48_chunk1 m c)
theorem W50_chunk1 (c : Dev nD) : W50 m c main_v4 = O1 (En1 m) (adm1 m) c :=
  (W50_of m c main_v4 (by decide)).trans (W49_chunk1 m c)
theorem W51_chunk1 (c : Dev nD) : W51 m c main_v4 = O1 (En1 m) (adm1 m) c :=
  (W51_of m c main_v4 (by decide)).trans (W50_chunk1 m c)
theorem W6_chunk2 (c : Dev nD) : W6 m c main_v6 = O2 (En2 m) (adm2 m) c :=
  W6_out m c
theorem W7_chunk2 (c : Dev nD) : W7 m c main_v6 = O2 (En2 m) (adm2 m) c :=
  (W7_of m c main_v6 (by decide)).trans (W6_chunk2 m c)
theorem W8_chunk2 (c : Dev nD) : W8 m c main_v6 = O2 (En2 m) (adm2 m) c :=
  (W8_of m c main_v6 (by decide)).trans (W7_chunk2 m c)
theorem W9_chunk2 (c : Dev nD) : W9 m c main_v6 = O2 (En2 m) (adm2 m) c :=
  (W9_of m c main_v6 (by decide)).trans (W8_chunk2 m c)
theorem W10_chunk2 (c : Dev nD) : W10 m c main_v6 = O2 (En2 m) (adm2 m) c :=
  (W10_of m c main_v6 (by decide)).trans (W9_chunk2 m c)
theorem W11_chunk2 (c : Dev nD) : W11 m c main_v6 = O2 (En2 m) (adm2 m) c :=
  (W11_of m c main_v6 (by decide)).trans (W10_chunk2 m c)
theorem W12_chunk2 (c : Dev nD) : W12 m c main_v6 = O2 (En2 m) (adm2 m) c :=
  (W12_of m c main_v6 (by decide)).trans (W11_chunk2 m c)
theorem W13_chunk2 (c : Dev nD) : W13 m c main_v6 = O2 (En2 m) (adm2 m) c :=
  (W13_of m c main_v6 (by decide)).trans (W12_chunk2 m c)
theorem W14_chunk2 (c : Dev nD) : W14 m c main_v6 = O2 (En2 m) (adm2 m) c :=
  (W14_of m c main_v6 (by decide)).trans (W13_chunk2 m c)
theorem W15_chunk2 (c : Dev nD) : W15 m c main_v6 = O2 (En2 m) (adm2 m) c :=
  (W15_of m c main_v6 (by decide)).trans (W14_chunk2 m c)
theorem W16_chunk2 (c : Dev nD) : W16 m c main_v6 = O2 (En2 m) (adm2 m) c :=
  (W16_of m c main_v6 (by decide)).trans (W15_chunk2 m c)
theorem W17_chunk2 (c : Dev nD) : W17 m c main_v6 = O2 (En2 m) (adm2 m) c :=
  (W17_of m c main_v6 (by decide)).trans (W16_chunk2 m c)
theorem W18_chunk2 (c : Dev nD) : W18 m c main_v6 = O2 (En2 m) (adm2 m) c :=
  (W18_of m c main_v6 (by decide)).trans (W17_chunk2 m c)
theorem W19_chunk2 (c : Dev nD) : W19 m c main_v6 = O2 (En2 m) (adm2 m) c :=
  (W19_of m c main_v6 (by decide)).trans (W18_chunk2 m c)
theorem W20_chunk2 (c : Dev nD) : W20 m c main_v6 = O2 (En2 m) (adm2 m) c :=
  (W20_of m c main_v6 (by decide)).trans (W19_chunk2 m c)
theorem W21_chunk2 (c : Dev nD) : W21 m c main_v6 = O2 (En2 m) (adm2 m) c :=
  (W21_of m c main_v6 (by decide)).trans (W20_chunk2 m c)
theorem W22_chunk2 (c : Dev nD) : W22 m c main_v6 = O2 (En2 m) (adm2 m) c :=
  (W22_of m c main_v6 (by decide)).trans (W21_chunk2 m c)
theorem W23_chunk2 (c : Dev nD) : W23 m c main_v6 = O2 (En2 m) (adm2 m) c :=
  (W23_of m c main_v6 (by decide)).trans (W22_chunk2 m c)
theorem W24_chunk2 (c : Dev nD) : W24 m c main_v6 = O2 (En2 m) (adm2 m) c :=
  (W24_of m c main_v6 (by decide)).trans (W23_chunk2 m c)
theorem W25_chunk2 (c : Dev nD) : W25 m c main_v6 = O2 (En2 m) (adm2 m) c :=
  (W25_of m c main_v6 (by decide)).trans (W24_chunk2 m c)
theorem W26_chunk2 (c : Dev nD) : W26 m c main_v6 = O2 (En2 m) (adm2 m) c :=
  (W26_of m c main_v6 (by decide)).trans (W25_chunk2 m c)
theorem W27_chunk2 (c : Dev nD) : W27 m c main_v6 = O2 (En2 m) (adm2 m) c :=
  (W27_of m c main_v6 (by decide)).trans (W26_chunk2 m c)
theorem W28_chunk2 (c : Dev nD) : W28 m c main_v6 = O2 (En2 m) (adm2 m) c :=
  (W28_of m c main_v6 (by decide)).trans (W27_chunk2 m c)
theorem W29_chunk2 (c : Dev nD) : W29 m c main_v6 = O2 (En2 m) (adm2 m) c :=
  (W29_of m c main_v6 (by decide)).trans (W28_chunk2 m c)
theorem W30_chunk2 (c : Dev nD) : W30 m c main_v6 = O2 (En2 m) (adm2 m) c :=
  (W30_of m c main_v6 (by decide)).trans (W29_chunk2 m c)
theorem W31_chunk2 (c : Dev nD) : W31 m c main_v6 = O2 (En2 m) (adm2 m) c :=
  (W31_of m c main_v6 (by decide)).trans (W30_chunk2 m c)
theorem W32_chunk2 (c : Dev nD) : W32 m c main_v6 = O2 (En2 m) (adm2 m) c :=
  (W32_of m c main_v6 (by decide)).trans (W31_chunk2 m c)
theorem W33_chunk2 (c : Dev nD) : W33 m c main_v6 = O2 (En2 m) (adm2 m) c :=
  (W33_of m c main_v6 (by decide)).trans (W32_chunk2 m c)
theorem W34_chunk2 (c : Dev nD) : W34 m c main_v6 = O2 (En2 m) (adm2 m) c :=
  (W34_of m c main_v6 (by decide)).trans (W33_chunk2 m c)
theorem W35_chunk2 (c : Dev nD) : W35 m c main_v6 = O2 (En2 m) (adm2 m) c :=
  (W35_of m c main_v6 (by decide)).trans (W34_chunk2 m c)
theorem W36_chunk2 (c : Dev nD) : W36 m c main_v6 = O2 (En2 m) (adm2 m) c :=
  (W36_of m c main_v6 (by decide)).trans (W35_chunk2 m c)
theorem W37_chunk2 (c : Dev nD) : W37 m c main_v6 = O2 (En2 m) (adm2 m) c :=
  (W37_of m c main_v6 (by decide)).trans (W36_chunk2 m c)
theorem W38_chunk2 (c : Dev nD) : W38 m c main_v6 = O2 (En2 m) (adm2 m) c :=
  (W38_of m c main_v6 (by decide)).trans (W37_chunk2 m c)
theorem W39_chunk2 (c : Dev nD) : W39 m c main_v6 = O2 (En2 m) (adm2 m) c :=
  (W39_of m c main_v6 (by decide)).trans (W38_chunk2 m c)
theorem W40_chunk2 (c : Dev nD) : W40 m c main_v6 = O2 (En2 m) (adm2 m) c :=
  (W40_of m c main_v6 (by decide)).trans (W39_chunk2 m c)
theorem W41_chunk2 (c : Dev nD) : W41 m c main_v6 = O2 (En2 m) (adm2 m) c :=
  (W41_of m c main_v6 (by decide)).trans (W40_chunk2 m c)
theorem W42_chunk2 (c : Dev nD) : W42 m c main_v6 = O2 (En2 m) (adm2 m) c :=
  (W42_of m c main_v6 (by decide)).trans (W41_chunk2 m c)
theorem W43_chunk2 (c : Dev nD) : W43 m c main_v6 = O2 (En2 m) (adm2 m) c :=
  (W43_of m c main_v6 (by decide)).trans (W42_chunk2 m c)
theorem W44_chunk2 (c : Dev nD) : W44 m c main_v6 = O2 (En2 m) (adm2 m) c :=
  (W44_of m c main_v6 (by decide)).trans (W43_chunk2 m c)
theorem W45_chunk2 (c : Dev nD) : W45 m c main_v6 = O2 (En2 m) (adm2 m) c :=
  (W45_of m c main_v6 (by decide)).trans (W44_chunk2 m c)
theorem W46_chunk2 (c : Dev nD) : W46 m c main_v6 = O2 (En2 m) (adm2 m) c :=
  (W46_of m c main_v6 (by decide)).trans (W45_chunk2 m c)
theorem W47_chunk2 (c : Dev nD) : W47 m c main_v6 = O2 (En2 m) (adm2 m) c :=
  (W47_of m c main_v6 (by decide)).trans (W46_chunk2 m c)
theorem W48_chunk2 (c : Dev nD) : W48 m c main_v6 = O2 (En2 m) (adm2 m) c :=
  (W48_of m c main_v6 (by decide)).trans (W47_chunk2 m c)
theorem W49_chunk2 (c : Dev nD) : W49 m c main_v6 = O2 (En2 m) (adm2 m) c :=
  (W49_of m c main_v6 (by decide)).trans (W48_chunk2 m c)
theorem W50_chunk2 (c : Dev nD) : W50 m c main_v6 = O2 (En2 m) (adm2 m) c :=
  (W50_of m c main_v6 (by decide)).trans (W49_chunk2 m c)
theorem W51_chunk2 (c : Dev nD) : W51 m c main_v6 = O2 (En2 m) (adm2 m) c :=
  (W51_of m c main_v6 (by decide)).trans (W50_chunk2 m c)
theorem W8_chunk3 (c : Dev nD) : W8 m c main_v8 = O3 (En3 m) (adm3 m) c :=
  W8_out m c
theorem W9_chunk3 (c : Dev nD) : W9 m c main_v8 = O3 (En3 m) (adm3 m) c :=
  (W9_of m c main_v8 (by decide)).trans (W8_chunk3 m c)
theorem W10_chunk3 (c : Dev nD) : W10 m c main_v8 = O3 (En3 m) (adm3 m) c :=
  (W10_of m c main_v8 (by decide)).trans (W9_chunk3 m c)
theorem W11_chunk3 (c : Dev nD) : W11 m c main_v8 = O3 (En3 m) (adm3 m) c :=
  (W11_of m c main_v8 (by decide)).trans (W10_chunk3 m c)
theorem W12_chunk3 (c : Dev nD) : W12 m c main_v8 = O3 (En3 m) (adm3 m) c :=
  (W12_of m c main_v8 (by decide)).trans (W11_chunk3 m c)
theorem W13_chunk3 (c : Dev nD) : W13 m c main_v8 = O3 (En3 m) (adm3 m) c :=
  (W13_of m c main_v8 (by decide)).trans (W12_chunk3 m c)
theorem W14_chunk3 (c : Dev nD) : W14 m c main_v8 = O3 (En3 m) (adm3 m) c :=
  (W14_of m c main_v8 (by decide)).trans (W13_chunk3 m c)
theorem W15_chunk3 (c : Dev nD) : W15 m c main_v8 = O3 (En3 m) (adm3 m) c :=
  (W15_of m c main_v8 (by decide)).trans (W14_chunk3 m c)
theorem W16_chunk3 (c : Dev nD) : W16 m c main_v8 = O3 (En3 m) (adm3 m) c :=
  (W16_of m c main_v8 (by decide)).trans (W15_chunk3 m c)
theorem W17_chunk3 (c : Dev nD) : W17 m c main_v8 = O3 (En3 m) (adm3 m) c :=
  (W17_of m c main_v8 (by decide)).trans (W16_chunk3 m c)
theorem W18_chunk3 (c : Dev nD) : W18 m c main_v8 = O3 (En3 m) (adm3 m) c :=
  (W18_of m c main_v8 (by decide)).trans (W17_chunk3 m c)
theorem W19_chunk3 (c : Dev nD) : W19 m c main_v8 = O3 (En3 m) (adm3 m) c :=
  (W19_of m c main_v8 (by decide)).trans (W18_chunk3 m c)
theorem W20_chunk3 (c : Dev nD) : W20 m c main_v8 = O3 (En3 m) (adm3 m) c :=
  (W20_of m c main_v8 (by decide)).trans (W19_chunk3 m c)
theorem W21_chunk3 (c : Dev nD) : W21 m c main_v8 = O3 (En3 m) (adm3 m) c :=
  (W21_of m c main_v8 (by decide)).trans (W20_chunk3 m c)
theorem W22_chunk3 (c : Dev nD) : W22 m c main_v8 = O3 (En3 m) (adm3 m) c :=
  (W22_of m c main_v8 (by decide)).trans (W21_chunk3 m c)
theorem W23_chunk3 (c : Dev nD) : W23 m c main_v8 = O3 (En3 m) (adm3 m) c :=
  (W23_of m c main_v8 (by decide)).trans (W22_chunk3 m c)
theorem W24_chunk3 (c : Dev nD) : W24 m c main_v8 = O3 (En3 m) (adm3 m) c :=
  (W24_of m c main_v8 (by decide)).trans (W23_chunk3 m c)
theorem W25_chunk3 (c : Dev nD) : W25 m c main_v8 = O3 (En3 m) (adm3 m) c :=
  (W25_of m c main_v8 (by decide)).trans (W24_chunk3 m c)
theorem W26_chunk3 (c : Dev nD) : W26 m c main_v8 = O3 (En3 m) (adm3 m) c :=
  (W26_of m c main_v8 (by decide)).trans (W25_chunk3 m c)
theorem W27_chunk3 (c : Dev nD) : W27 m c main_v8 = O3 (En3 m) (adm3 m) c :=
  (W27_of m c main_v8 (by decide)).trans (W26_chunk3 m c)
theorem W28_chunk3 (c : Dev nD) : W28 m c main_v8 = O3 (En3 m) (adm3 m) c :=
  (W28_of m c main_v8 (by decide)).trans (W27_chunk3 m c)
theorem W29_chunk3 (c : Dev nD) : W29 m c main_v8 = O3 (En3 m) (adm3 m) c :=
  (W29_of m c main_v8 (by decide)).trans (W28_chunk3 m c)
theorem W30_chunk3 (c : Dev nD) : W30 m c main_v8 = O3 (En3 m) (adm3 m) c :=
  (W30_of m c main_v8 (by decide)).trans (W29_chunk3 m c)
theorem W31_chunk3 (c : Dev nD) : W31 m c main_v8 = O3 (En3 m) (adm3 m) c :=
  (W31_of m c main_v8 (by decide)).trans (W30_chunk3 m c)
theorem W32_chunk3 (c : Dev nD) : W32 m c main_v8 = O3 (En3 m) (adm3 m) c :=
  (W32_of m c main_v8 (by decide)).trans (W31_chunk3 m c)
theorem W33_chunk3 (c : Dev nD) : W33 m c main_v8 = O3 (En3 m) (adm3 m) c :=
  (W33_of m c main_v8 (by decide)).trans (W32_chunk3 m c)
theorem W34_chunk3 (c : Dev nD) : W34 m c main_v8 = O3 (En3 m) (adm3 m) c :=
  (W34_of m c main_v8 (by decide)).trans (W33_chunk3 m c)
theorem W35_chunk3 (c : Dev nD) : W35 m c main_v8 = O3 (En3 m) (adm3 m) c :=
  (W35_of m c main_v8 (by decide)).trans (W34_chunk3 m c)
theorem W36_chunk3 (c : Dev nD) : W36 m c main_v8 = O3 (En3 m) (adm3 m) c :=
  (W36_of m c main_v8 (by decide)).trans (W35_chunk3 m c)
theorem W37_chunk3 (c : Dev nD) : W37 m c main_v8 = O3 (En3 m) (adm3 m) c :=
  (W37_of m c main_v8 (by decide)).trans (W36_chunk3 m c)
theorem W38_chunk3 (c : Dev nD) : W38 m c main_v8 = O3 (En3 m) (adm3 m) c :=
  (W38_of m c main_v8 (by decide)).trans (W37_chunk3 m c)
theorem W39_chunk3 (c : Dev nD) : W39 m c main_v8 = O3 (En3 m) (adm3 m) c :=
  (W39_of m c main_v8 (by decide)).trans (W38_chunk3 m c)
theorem W40_chunk3 (c : Dev nD) : W40 m c main_v8 = O3 (En3 m) (adm3 m) c :=
  (W40_of m c main_v8 (by decide)).trans (W39_chunk3 m c)
theorem W41_chunk3 (c : Dev nD) : W41 m c main_v8 = O3 (En3 m) (adm3 m) c :=
  (W41_of m c main_v8 (by decide)).trans (W40_chunk3 m c)
theorem W42_chunk3 (c : Dev nD) : W42 m c main_v8 = O3 (En3 m) (adm3 m) c :=
  (W42_of m c main_v8 (by decide)).trans (W41_chunk3 m c)
theorem W43_chunk3 (c : Dev nD) : W43 m c main_v8 = O3 (En3 m) (adm3 m) c :=
  (W43_of m c main_v8 (by decide)).trans (W42_chunk3 m c)
theorem W44_chunk3 (c : Dev nD) : W44 m c main_v8 = O3 (En3 m) (adm3 m) c :=
  (W44_of m c main_v8 (by decide)).trans (W43_chunk3 m c)
theorem W45_chunk3 (c : Dev nD) : W45 m c main_v8 = O3 (En3 m) (adm3 m) c :=
  (W45_of m c main_v8 (by decide)).trans (W44_chunk3 m c)
theorem W46_chunk3 (c : Dev nD) : W46 m c main_v8 = O3 (En3 m) (adm3 m) c :=
  (W46_of m c main_v8 (by decide)).trans (W45_chunk3 m c)
theorem W47_chunk3 (c : Dev nD) : W47 m c main_v8 = O3 (En3 m) (adm3 m) c :=
  (W47_of m c main_v8 (by decide)).trans (W46_chunk3 m c)
theorem W48_chunk3 (c : Dev nD) : W48 m c main_v8 = O3 (En3 m) (adm3 m) c :=
  (W48_of m c main_v8 (by decide)).trans (W47_chunk3 m c)
theorem W49_chunk3 (c : Dev nD) : W49 m c main_v8 = O3 (En3 m) (adm3 m) c :=
  (W49_of m c main_v8 (by decide)).trans (W48_chunk3 m c)
theorem W50_chunk3 (c : Dev nD) : W50 m c main_v8 = O3 (En3 m) (adm3 m) c :=
  (W50_of m c main_v8 (by decide)).trans (W49_chunk3 m c)
theorem W51_chunk3 (c : Dev nD) : W51 m c main_v8 = O3 (En3 m) (adm3 m) c :=
  (W51_of m c main_v8 (by decide)).trans (W50_chunk3 m c)
theorem W10_chunk4 (c : Dev nD) : W10 m c main_v10 = O4 (En4 m) (adm4 m) c :=
  W10_out m c
theorem W11_chunk4 (c : Dev nD) : W11 m c main_v10 = O4 (En4 m) (adm4 m) c :=
  (W11_of m c main_v10 (by decide)).trans (W10_chunk4 m c)
theorem W12_chunk4 (c : Dev nD) : W12 m c main_v10 = O4 (En4 m) (adm4 m) c :=
  (W12_of m c main_v10 (by decide)).trans (W11_chunk4 m c)
theorem W13_chunk4 (c : Dev nD) : W13 m c main_v10 = O4 (En4 m) (adm4 m) c :=
  (W13_of m c main_v10 (by decide)).trans (W12_chunk4 m c)
theorem W14_chunk4 (c : Dev nD) : W14 m c main_v10 = O4 (En4 m) (adm4 m) c :=
  (W14_of m c main_v10 (by decide)).trans (W13_chunk4 m c)
theorem W15_chunk4 (c : Dev nD) : W15 m c main_v10 = O4 (En4 m) (adm4 m) c :=
  (W15_of m c main_v10 (by decide)).trans (W14_chunk4 m c)
theorem W16_chunk4 (c : Dev nD) : W16 m c main_v10 = O4 (En4 m) (adm4 m) c :=
  (W16_of m c main_v10 (by decide)).trans (W15_chunk4 m c)
theorem W17_chunk4 (c : Dev nD) : W17 m c main_v10 = O4 (En4 m) (adm4 m) c :=
  (W17_of m c main_v10 (by decide)).trans (W16_chunk4 m c)
theorem W18_chunk4 (c : Dev nD) : W18 m c main_v10 = O4 (En4 m) (adm4 m) c :=
  (W18_of m c main_v10 (by decide)).trans (W17_chunk4 m c)
theorem W19_chunk4 (c : Dev nD) : W19 m c main_v10 = O4 (En4 m) (adm4 m) c :=
  (W19_of m c main_v10 (by decide)).trans (W18_chunk4 m c)
theorem W20_chunk4 (c : Dev nD) : W20 m c main_v10 = O4 (En4 m) (adm4 m) c :=
  (W20_of m c main_v10 (by decide)).trans (W19_chunk4 m c)
theorem W21_chunk4 (c : Dev nD) : W21 m c main_v10 = O4 (En4 m) (adm4 m) c :=
  (W21_of m c main_v10 (by decide)).trans (W20_chunk4 m c)
theorem W22_chunk4 (c : Dev nD) : W22 m c main_v10 = O4 (En4 m) (adm4 m) c :=
  (W22_of m c main_v10 (by decide)).trans (W21_chunk4 m c)
theorem W23_chunk4 (c : Dev nD) : W23 m c main_v10 = O4 (En4 m) (adm4 m) c :=
  (W23_of m c main_v10 (by decide)).trans (W22_chunk4 m c)
theorem W24_chunk4 (c : Dev nD) : W24 m c main_v10 = O4 (En4 m) (adm4 m) c :=
  (W24_of m c main_v10 (by decide)).trans (W23_chunk4 m c)
theorem W25_chunk4 (c : Dev nD) : W25 m c main_v10 = O4 (En4 m) (adm4 m) c :=
  (W25_of m c main_v10 (by decide)).trans (W24_chunk4 m c)
theorem W26_chunk4 (c : Dev nD) : W26 m c main_v10 = O4 (En4 m) (adm4 m) c :=
  (W26_of m c main_v10 (by decide)).trans (W25_chunk4 m c)
theorem W27_chunk4 (c : Dev nD) : W27 m c main_v10 = O4 (En4 m) (adm4 m) c :=
  (W27_of m c main_v10 (by decide)).trans (W26_chunk4 m c)
theorem W28_chunk4 (c : Dev nD) : W28 m c main_v10 = O4 (En4 m) (adm4 m) c :=
  (W28_of m c main_v10 (by decide)).trans (W27_chunk4 m c)
theorem W29_chunk4 (c : Dev nD) : W29 m c main_v10 = O4 (En4 m) (adm4 m) c :=
  (W29_of m c main_v10 (by decide)).trans (W28_chunk4 m c)
theorem W30_chunk4 (c : Dev nD) : W30 m c main_v10 = O4 (En4 m) (adm4 m) c :=
  (W30_of m c main_v10 (by decide)).trans (W29_chunk4 m c)
theorem W31_chunk4 (c : Dev nD) : W31 m c main_v10 = O4 (En4 m) (adm4 m) c :=
  (W31_of m c main_v10 (by decide)).trans (W30_chunk4 m c)
theorem W32_chunk4 (c : Dev nD) : W32 m c main_v10 = O4 (En4 m) (adm4 m) c :=
  (W32_of m c main_v10 (by decide)).trans (W31_chunk4 m c)
theorem W33_chunk4 (c : Dev nD) : W33 m c main_v10 = O4 (En4 m) (adm4 m) c :=
  (W33_of m c main_v10 (by decide)).trans (W32_chunk4 m c)
theorem W34_chunk4 (c : Dev nD) : W34 m c main_v10 = O4 (En4 m) (adm4 m) c :=
  (W34_of m c main_v10 (by decide)).trans (W33_chunk4 m c)
theorem W35_chunk4 (c : Dev nD) : W35 m c main_v10 = O4 (En4 m) (adm4 m) c :=
  (W35_of m c main_v10 (by decide)).trans (W34_chunk4 m c)
theorem W36_chunk4 (c : Dev nD) : W36 m c main_v10 = O4 (En4 m) (adm4 m) c :=
  (W36_of m c main_v10 (by decide)).trans (W35_chunk4 m c)
theorem W37_chunk4 (c : Dev nD) : W37 m c main_v10 = O4 (En4 m) (adm4 m) c :=
  (W37_of m c main_v10 (by decide)).trans (W36_chunk4 m c)
theorem W38_chunk4 (c : Dev nD) : W38 m c main_v10 = O4 (En4 m) (adm4 m) c :=
  (W38_of m c main_v10 (by decide)).trans (W37_chunk4 m c)
theorem W39_chunk4 (c : Dev nD) : W39 m c main_v10 = O4 (En4 m) (adm4 m) c :=
  (W39_of m c main_v10 (by decide)).trans (W38_chunk4 m c)
theorem W40_chunk4 (c : Dev nD) : W40 m c main_v10 = O4 (En4 m) (adm4 m) c :=
  (W40_of m c main_v10 (by decide)).trans (W39_chunk4 m c)
theorem W41_chunk4 (c : Dev nD) : W41 m c main_v10 = O4 (En4 m) (adm4 m) c :=
  (W41_of m c main_v10 (by decide)).trans (W40_chunk4 m c)
theorem W42_chunk4 (c : Dev nD) : W42 m c main_v10 = O4 (En4 m) (adm4 m) c :=
  (W42_of m c main_v10 (by decide)).trans (W41_chunk4 m c)
theorem W43_chunk4 (c : Dev nD) : W43 m c main_v10 = O4 (En4 m) (adm4 m) c :=
  (W43_of m c main_v10 (by decide)).trans (W42_chunk4 m c)
theorem W44_chunk4 (c : Dev nD) : W44 m c main_v10 = O4 (En4 m) (adm4 m) c :=
  (W44_of m c main_v10 (by decide)).trans (W43_chunk4 m c)
theorem W45_chunk4 (c : Dev nD) : W45 m c main_v10 = O4 (En4 m) (adm4 m) c :=
  (W45_of m c main_v10 (by decide)).trans (W44_chunk4 m c)
theorem W46_chunk4 (c : Dev nD) : W46 m c main_v10 = O4 (En4 m) (adm4 m) c :=
  (W46_of m c main_v10 (by decide)).trans (W45_chunk4 m c)
theorem W47_chunk4 (c : Dev nD) : W47 m c main_v10 = O4 (En4 m) (adm4 m) c :=
  (W47_of m c main_v10 (by decide)).trans (W46_chunk4 m c)
theorem W48_chunk4 (c : Dev nD) : W48 m c main_v10 = O4 (En4 m) (adm4 m) c :=
  (W48_of m c main_v10 (by decide)).trans (W47_chunk4 m c)
theorem W49_chunk4 (c : Dev nD) : W49 m c main_v10 = O4 (En4 m) (adm4 m) c :=
  (W49_of m c main_v10 (by decide)).trans (W48_chunk4 m c)
theorem W50_chunk4 (c : Dev nD) : W50 m c main_v10 = O4 (En4 m) (adm4 m) c :=
  (W50_of m c main_v10 (by decide)).trans (W49_chunk4 m c)
theorem W51_chunk4 (c : Dev nD) : W51 m c main_v10 = O4 (En4 m) (adm4 m) c :=
  (W51_of m c main_v10 (by decide)).trans (W50_chunk4 m c)
theorem W12_chunk5 (c : Dev nD) : W12 m c main_v12 = O5 (En5 m) (adm5 m) c :=
  W12_out m c
theorem W13_chunk5 (c : Dev nD) : W13 m c main_v12 = O5 (En5 m) (adm5 m) c :=
  (W13_of m c main_v12 (by decide)).trans (W12_chunk5 m c)
theorem W14_chunk5 (c : Dev nD) : W14 m c main_v12 = O5 (En5 m) (adm5 m) c :=
  (W14_of m c main_v12 (by decide)).trans (W13_chunk5 m c)
theorem W15_chunk5 (c : Dev nD) : W15 m c main_v12 = O5 (En5 m) (adm5 m) c :=
  (W15_of m c main_v12 (by decide)).trans (W14_chunk5 m c)
theorem W16_chunk5 (c : Dev nD) : W16 m c main_v12 = O5 (En5 m) (adm5 m) c :=
  (W16_of m c main_v12 (by decide)).trans (W15_chunk5 m c)
theorem W17_chunk5 (c : Dev nD) : W17 m c main_v12 = O5 (En5 m) (adm5 m) c :=
  (W17_of m c main_v12 (by decide)).trans (W16_chunk5 m c)
theorem W18_chunk5 (c : Dev nD) : W18 m c main_v12 = O5 (En5 m) (adm5 m) c :=
  (W18_of m c main_v12 (by decide)).trans (W17_chunk5 m c)
theorem W19_chunk5 (c : Dev nD) : W19 m c main_v12 = O5 (En5 m) (adm5 m) c :=
  (W19_of m c main_v12 (by decide)).trans (W18_chunk5 m c)
theorem W20_chunk5 (c : Dev nD) : W20 m c main_v12 = O5 (En5 m) (adm5 m) c :=
  (W20_of m c main_v12 (by decide)).trans (W19_chunk5 m c)
theorem W21_chunk5 (c : Dev nD) : W21 m c main_v12 = O5 (En5 m) (adm5 m) c :=
  (W21_of m c main_v12 (by decide)).trans (W20_chunk5 m c)
theorem W22_chunk5 (c : Dev nD) : W22 m c main_v12 = O5 (En5 m) (adm5 m) c :=
  (W22_of m c main_v12 (by decide)).trans (W21_chunk5 m c)
theorem W23_chunk5 (c : Dev nD) : W23 m c main_v12 = O5 (En5 m) (adm5 m) c :=
  (W23_of m c main_v12 (by decide)).trans (W22_chunk5 m c)
theorem W24_chunk5 (c : Dev nD) : W24 m c main_v12 = O5 (En5 m) (adm5 m) c :=
  (W24_of m c main_v12 (by decide)).trans (W23_chunk5 m c)
theorem W25_chunk5 (c : Dev nD) : W25 m c main_v12 = O5 (En5 m) (adm5 m) c :=
  (W25_of m c main_v12 (by decide)).trans (W24_chunk5 m c)
theorem W26_chunk5 (c : Dev nD) : W26 m c main_v12 = O5 (En5 m) (adm5 m) c :=
  (W26_of m c main_v12 (by decide)).trans (W25_chunk5 m c)
theorem W27_chunk5 (c : Dev nD) : W27 m c main_v12 = O5 (En5 m) (adm5 m) c :=
  (W27_of m c main_v12 (by decide)).trans (W26_chunk5 m c)
theorem W28_chunk5 (c : Dev nD) : W28 m c main_v12 = O5 (En5 m) (adm5 m) c :=
  (W28_of m c main_v12 (by decide)).trans (W27_chunk5 m c)
theorem W29_chunk5 (c : Dev nD) : W29 m c main_v12 = O5 (En5 m) (adm5 m) c :=
  (W29_of m c main_v12 (by decide)).trans (W28_chunk5 m c)
theorem W30_chunk5 (c : Dev nD) : W30 m c main_v12 = O5 (En5 m) (adm5 m) c :=
  (W30_of m c main_v12 (by decide)).trans (W29_chunk5 m c)
theorem W31_chunk5 (c : Dev nD) : W31 m c main_v12 = O5 (En5 m) (adm5 m) c :=
  (W31_of m c main_v12 (by decide)).trans (W30_chunk5 m c)
theorem W32_chunk5 (c : Dev nD) : W32 m c main_v12 = O5 (En5 m) (adm5 m) c :=
  (W32_of m c main_v12 (by decide)).trans (W31_chunk5 m c)
theorem W33_chunk5 (c : Dev nD) : W33 m c main_v12 = O5 (En5 m) (adm5 m) c :=
  (W33_of m c main_v12 (by decide)).trans (W32_chunk5 m c)
theorem W34_chunk5 (c : Dev nD) : W34 m c main_v12 = O5 (En5 m) (adm5 m) c :=
  (W34_of m c main_v12 (by decide)).trans (W33_chunk5 m c)
theorem W35_chunk5 (c : Dev nD) : W35 m c main_v12 = O5 (En5 m) (adm5 m) c :=
  (W35_of m c main_v12 (by decide)).trans (W34_chunk5 m c)
theorem W36_chunk5 (c : Dev nD) : W36 m c main_v12 = O5 (En5 m) (adm5 m) c :=
  (W36_of m c main_v12 (by decide)).trans (W35_chunk5 m c)
theorem W37_chunk5 (c : Dev nD) : W37 m c main_v12 = O5 (En5 m) (adm5 m) c :=
  (W37_of m c main_v12 (by decide)).trans (W36_chunk5 m c)
theorem W38_chunk5 (c : Dev nD) : W38 m c main_v12 = O5 (En5 m) (adm5 m) c :=
  (W38_of m c main_v12 (by decide)).trans (W37_chunk5 m c)
theorem W39_chunk5 (c : Dev nD) : W39 m c main_v12 = O5 (En5 m) (adm5 m) c :=
  (W39_of m c main_v12 (by decide)).trans (W38_chunk5 m c)
theorem W40_chunk5 (c : Dev nD) : W40 m c main_v12 = O5 (En5 m) (adm5 m) c :=
  (W40_of m c main_v12 (by decide)).trans (W39_chunk5 m c)
theorem W41_chunk5 (c : Dev nD) : W41 m c main_v12 = O5 (En5 m) (adm5 m) c :=
  (W41_of m c main_v12 (by decide)).trans (W40_chunk5 m c)
theorem W42_chunk5 (c : Dev nD) : W42 m c main_v12 = O5 (En5 m) (adm5 m) c :=
  (W42_of m c main_v12 (by decide)).trans (W41_chunk5 m c)
theorem W43_chunk5 (c : Dev nD) : W43 m c main_v12 = O5 (En5 m) (adm5 m) c :=
  (W43_of m c main_v12 (by decide)).trans (W42_chunk5 m c)
theorem W44_chunk5 (c : Dev nD) : W44 m c main_v12 = O5 (En5 m) (adm5 m) c :=
  (W44_of m c main_v12 (by decide)).trans (W43_chunk5 m c)
theorem W45_chunk5 (c : Dev nD) : W45 m c main_v12 = O5 (En5 m) (adm5 m) c :=
  (W45_of m c main_v12 (by decide)).trans (W44_chunk5 m c)
theorem W46_chunk5 (c : Dev nD) : W46 m c main_v12 = O5 (En5 m) (adm5 m) c :=
  (W46_of m c main_v12 (by decide)).trans (W45_chunk5 m c)
theorem W47_chunk5 (c : Dev nD) : W47 m c main_v12 = O5 (En5 m) (adm5 m) c :=
  (W47_of m c main_v12 (by decide)).trans (W46_chunk5 m c)
theorem W48_chunk5 (c : Dev nD) : W48 m c main_v12 = O5 (En5 m) (adm5 m) c :=
  (W48_of m c main_v12 (by decide)).trans (W47_chunk5 m c)
theorem W49_chunk5 (c : Dev nD) : W49 m c main_v12 = O5 (En5 m) (adm5 m) c :=
  (W49_of m c main_v12 (by decide)).trans (W48_chunk5 m c)
theorem W50_chunk5 (c : Dev nD) : W50 m c main_v12 = O5 (En5 m) (adm5 m) c :=
  (W50_of m c main_v12 (by decide)).trans (W49_chunk5 m c)
theorem W51_chunk5 (c : Dev nD) : W51 m c main_v12 = O5 (En5 m) (adm5 m) c :=
  (W51_of m c main_v12 (by decide)).trans (W50_chunk5 m c)
theorem W14_chunk6 (c : Dev nD) : W14 m c main_v14 = O6 (En6 m) (adm6 m) c :=
  W14_out m c
theorem W15_chunk6 (c : Dev nD) : W15 m c main_v14 = O6 (En6 m) (adm6 m) c :=
  (W15_of m c main_v14 (by decide)).trans (W14_chunk6 m c)
theorem W16_chunk6 (c : Dev nD) : W16 m c main_v14 = O6 (En6 m) (adm6 m) c :=
  (W16_of m c main_v14 (by decide)).trans (W15_chunk6 m c)
theorem W17_chunk6 (c : Dev nD) : W17 m c main_v14 = O6 (En6 m) (adm6 m) c :=
  (W17_of m c main_v14 (by decide)).trans (W16_chunk6 m c)
theorem W18_chunk6 (c : Dev nD) : W18 m c main_v14 = O6 (En6 m) (adm6 m) c :=
  (W18_of m c main_v14 (by decide)).trans (W17_chunk6 m c)
theorem W19_chunk6 (c : Dev nD) : W19 m c main_v14 = O6 (En6 m) (adm6 m) c :=
  (W19_of m c main_v14 (by decide)).trans (W18_chunk6 m c)
theorem W20_chunk6 (c : Dev nD) : W20 m c main_v14 = O6 (En6 m) (adm6 m) c :=
  (W20_of m c main_v14 (by decide)).trans (W19_chunk6 m c)
theorem W21_chunk6 (c : Dev nD) : W21 m c main_v14 = O6 (En6 m) (adm6 m) c :=
  (W21_of m c main_v14 (by decide)).trans (W20_chunk6 m c)
theorem W22_chunk6 (c : Dev nD) : W22 m c main_v14 = O6 (En6 m) (adm6 m) c :=
  (W22_of m c main_v14 (by decide)).trans (W21_chunk6 m c)
theorem W23_chunk6 (c : Dev nD) : W23 m c main_v14 = O6 (En6 m) (adm6 m) c :=
  (W23_of m c main_v14 (by decide)).trans (W22_chunk6 m c)
theorem W24_chunk6 (c : Dev nD) : W24 m c main_v14 = O6 (En6 m) (adm6 m) c :=
  (W24_of m c main_v14 (by decide)).trans (W23_chunk6 m c)
theorem W25_chunk6 (c : Dev nD) : W25 m c main_v14 = O6 (En6 m) (adm6 m) c :=
  (W25_of m c main_v14 (by decide)).trans (W24_chunk6 m c)
theorem W26_chunk6 (c : Dev nD) : W26 m c main_v14 = O6 (En6 m) (adm6 m) c :=
  (W26_of m c main_v14 (by decide)).trans (W25_chunk6 m c)
theorem W27_chunk6 (c : Dev nD) : W27 m c main_v14 = O6 (En6 m) (adm6 m) c :=
  (W27_of m c main_v14 (by decide)).trans (W26_chunk6 m c)
theorem W28_chunk6 (c : Dev nD) : W28 m c main_v14 = O6 (En6 m) (adm6 m) c :=
  (W28_of m c main_v14 (by decide)).trans (W27_chunk6 m c)
theorem W29_chunk6 (c : Dev nD) : W29 m c main_v14 = O6 (En6 m) (adm6 m) c :=
  (W29_of m c main_v14 (by decide)).trans (W28_chunk6 m c)
theorem W30_chunk6 (c : Dev nD) : W30 m c main_v14 = O6 (En6 m) (adm6 m) c :=
  (W30_of m c main_v14 (by decide)).trans (W29_chunk6 m c)
theorem W31_chunk6 (c : Dev nD) : W31 m c main_v14 = O6 (En6 m) (adm6 m) c :=
  (W31_of m c main_v14 (by decide)).trans (W30_chunk6 m c)
theorem W32_chunk6 (c : Dev nD) : W32 m c main_v14 = O6 (En6 m) (adm6 m) c :=
  (W32_of m c main_v14 (by decide)).trans (W31_chunk6 m c)
theorem W33_chunk6 (c : Dev nD) : W33 m c main_v14 = O6 (En6 m) (adm6 m) c :=
  (W33_of m c main_v14 (by decide)).trans (W32_chunk6 m c)
theorem W34_chunk6 (c : Dev nD) : W34 m c main_v14 = O6 (En6 m) (adm6 m) c :=
  (W34_of m c main_v14 (by decide)).trans (W33_chunk6 m c)
theorem W35_chunk6 (c : Dev nD) : W35 m c main_v14 = O6 (En6 m) (adm6 m) c :=
  (W35_of m c main_v14 (by decide)).trans (W34_chunk6 m c)
theorem W36_chunk6 (c : Dev nD) : W36 m c main_v14 = O6 (En6 m) (adm6 m) c :=
  (W36_of m c main_v14 (by decide)).trans (W35_chunk6 m c)
theorem W37_chunk6 (c : Dev nD) : W37 m c main_v14 = O6 (En6 m) (adm6 m) c :=
  (W37_of m c main_v14 (by decide)).trans (W36_chunk6 m c)
theorem W38_chunk6 (c : Dev nD) : W38 m c main_v14 = O6 (En6 m) (adm6 m) c :=
  (W38_of m c main_v14 (by decide)).trans (W37_chunk6 m c)
theorem W39_chunk6 (c : Dev nD) : W39 m c main_v14 = O6 (En6 m) (adm6 m) c :=
  (W39_of m c main_v14 (by decide)).trans (W38_chunk6 m c)
theorem W40_chunk6 (c : Dev nD) : W40 m c main_v14 = O6 (En6 m) (adm6 m) c :=
  (W40_of m c main_v14 (by decide)).trans (W39_chunk6 m c)
theorem W41_chunk6 (c : Dev nD) : W41 m c main_v14 = O6 (En6 m) (adm6 m) c :=
  (W41_of m c main_v14 (by decide)).trans (W40_chunk6 m c)
theorem W42_chunk6 (c : Dev nD) : W42 m c main_v14 = O6 (En6 m) (adm6 m) c :=
  (W42_of m c main_v14 (by decide)).trans (W41_chunk6 m c)
theorem W43_chunk6 (c : Dev nD) : W43 m c main_v14 = O6 (En6 m) (adm6 m) c :=
  (W43_of m c main_v14 (by decide)).trans (W42_chunk6 m c)
theorem W44_chunk6 (c : Dev nD) : W44 m c main_v14 = O6 (En6 m) (adm6 m) c :=
  (W44_of m c main_v14 (by decide)).trans (W43_chunk6 m c)
theorem W45_chunk6 (c : Dev nD) : W45 m c main_v14 = O6 (En6 m) (adm6 m) c :=
  (W45_of m c main_v14 (by decide)).trans (W44_chunk6 m c)
theorem W46_chunk6 (c : Dev nD) : W46 m c main_v14 = O6 (En6 m) (adm6 m) c :=
  (W46_of m c main_v14 (by decide)).trans (W45_chunk6 m c)
theorem W47_chunk6 (c : Dev nD) : W47 m c main_v14 = O6 (En6 m) (adm6 m) c :=
  (W47_of m c main_v14 (by decide)).trans (W46_chunk6 m c)
theorem W48_chunk6 (c : Dev nD) : W48 m c main_v14 = O6 (En6 m) (adm6 m) c :=
  (W48_of m c main_v14 (by decide)).trans (W47_chunk6 m c)
theorem W49_chunk6 (c : Dev nD) : W49 m c main_v14 = O6 (En6 m) (adm6 m) c :=
  (W49_of m c main_v14 (by decide)).trans (W48_chunk6 m c)
theorem W50_chunk6 (c : Dev nD) : W50 m c main_v14 = O6 (En6 m) (adm6 m) c :=
  (W50_of m c main_v14 (by decide)).trans (W49_chunk6 m c)
theorem W51_chunk6 (c : Dev nD) : W51 m c main_v14 = O6 (En6 m) (adm6 m) c :=
  (W51_of m c main_v14 (by decide)).trans (W50_chunk6 m c)
theorem W16_chunk7 (c : Dev nD) : W16 m c main_v16 = O7 (En7 m) (adm7 m) c :=
  W16_out m c
theorem W17_chunk7 (c : Dev nD) : W17 m c main_v16 = O7 (En7 m) (adm7 m) c :=
  (W17_of m c main_v16 (by decide)).trans (W16_chunk7 m c)
theorem W18_chunk7 (c : Dev nD) : W18 m c main_v16 = O7 (En7 m) (adm7 m) c :=
  (W18_of m c main_v16 (by decide)).trans (W17_chunk7 m c)
theorem W19_chunk7 (c : Dev nD) : W19 m c main_v16 = O7 (En7 m) (adm7 m) c :=
  (W19_of m c main_v16 (by decide)).trans (W18_chunk7 m c)
theorem W20_chunk7 (c : Dev nD) : W20 m c main_v16 = O7 (En7 m) (adm7 m) c :=
  (W20_of m c main_v16 (by decide)).trans (W19_chunk7 m c)
theorem W21_chunk7 (c : Dev nD) : W21 m c main_v16 = O7 (En7 m) (adm7 m) c :=
  (W21_of m c main_v16 (by decide)).trans (W20_chunk7 m c)
theorem W22_chunk7 (c : Dev nD) : W22 m c main_v16 = O7 (En7 m) (adm7 m) c :=
  (W22_of m c main_v16 (by decide)).trans (W21_chunk7 m c)
theorem W23_chunk7 (c : Dev nD) : W23 m c main_v16 = O7 (En7 m) (adm7 m) c :=
  (W23_of m c main_v16 (by decide)).trans (W22_chunk7 m c)
theorem W24_chunk7 (c : Dev nD) : W24 m c main_v16 = O7 (En7 m) (adm7 m) c :=
  (W24_of m c main_v16 (by decide)).trans (W23_chunk7 m c)
theorem W25_chunk7 (c : Dev nD) : W25 m c main_v16 = O7 (En7 m) (adm7 m) c :=
  (W25_of m c main_v16 (by decide)).trans (W24_chunk7 m c)
theorem W26_chunk7 (c : Dev nD) : W26 m c main_v16 = O7 (En7 m) (adm7 m) c :=
  (W26_of m c main_v16 (by decide)).trans (W25_chunk7 m c)
theorem W27_chunk7 (c : Dev nD) : W27 m c main_v16 = O7 (En7 m) (adm7 m) c :=
  (W27_of m c main_v16 (by decide)).trans (W26_chunk7 m c)
theorem W28_chunk7 (c : Dev nD) : W28 m c main_v16 = O7 (En7 m) (adm7 m) c :=
  (W28_of m c main_v16 (by decide)).trans (W27_chunk7 m c)
theorem W29_chunk7 (c : Dev nD) : W29 m c main_v16 = O7 (En7 m) (adm7 m) c :=
  (W29_of m c main_v16 (by decide)).trans (W28_chunk7 m c)
theorem W30_chunk7 (c : Dev nD) : W30 m c main_v16 = O7 (En7 m) (adm7 m) c :=
  (W30_of m c main_v16 (by decide)).trans (W29_chunk7 m c)
theorem W31_chunk7 (c : Dev nD) : W31 m c main_v16 = O7 (En7 m) (adm7 m) c :=
  (W31_of m c main_v16 (by decide)).trans (W30_chunk7 m c)
theorem W32_chunk7 (c : Dev nD) : W32 m c main_v16 = O7 (En7 m) (adm7 m) c :=
  (W32_of m c main_v16 (by decide)).trans (W31_chunk7 m c)
theorem W33_chunk7 (c : Dev nD) : W33 m c main_v16 = O7 (En7 m) (adm7 m) c :=
  (W33_of m c main_v16 (by decide)).trans (W32_chunk7 m c)
theorem W34_chunk7 (c : Dev nD) : W34 m c main_v16 = O7 (En7 m) (adm7 m) c :=
  (W34_of m c main_v16 (by decide)).trans (W33_chunk7 m c)
theorem W35_chunk7 (c : Dev nD) : W35 m c main_v16 = O7 (En7 m) (adm7 m) c :=
  (W35_of m c main_v16 (by decide)).trans (W34_chunk7 m c)
theorem W36_chunk7 (c : Dev nD) : W36 m c main_v16 = O7 (En7 m) (adm7 m) c :=
  (W36_of m c main_v16 (by decide)).trans (W35_chunk7 m c)
theorem W37_chunk7 (c : Dev nD) : W37 m c main_v16 = O7 (En7 m) (adm7 m) c :=
  (W37_of m c main_v16 (by decide)).trans (W36_chunk7 m c)
theorem W38_chunk7 (c : Dev nD) : W38 m c main_v16 = O7 (En7 m) (adm7 m) c :=
  (W38_of m c main_v16 (by decide)).trans (W37_chunk7 m c)
theorem W39_chunk7 (c : Dev nD) : W39 m c main_v16 = O7 (En7 m) (adm7 m) c :=
  (W39_of m c main_v16 (by decide)).trans (W38_chunk7 m c)
theorem W40_chunk7 (c : Dev nD) : W40 m c main_v16 = O7 (En7 m) (adm7 m) c :=
  (W40_of m c main_v16 (by decide)).trans (W39_chunk7 m c)
theorem W41_chunk7 (c : Dev nD) : W41 m c main_v16 = O7 (En7 m) (adm7 m) c :=
  (W41_of m c main_v16 (by decide)).trans (W40_chunk7 m c)
theorem W42_chunk7 (c : Dev nD) : W42 m c main_v16 = O7 (En7 m) (adm7 m) c :=
  (W42_of m c main_v16 (by decide)).trans (W41_chunk7 m c)
theorem W43_chunk7 (c : Dev nD) : W43 m c main_v16 = O7 (En7 m) (adm7 m) c :=
  (W43_of m c main_v16 (by decide)).trans (W42_chunk7 m c)
theorem W44_chunk7 (c : Dev nD) : W44 m c main_v16 = O7 (En7 m) (adm7 m) c :=
  (W44_of m c main_v16 (by decide)).trans (W43_chunk7 m c)
theorem W45_chunk7 (c : Dev nD) : W45 m c main_v16 = O7 (En7 m) (adm7 m) c :=
  (W45_of m c main_v16 (by decide)).trans (W44_chunk7 m c)
theorem W46_chunk7 (c : Dev nD) : W46 m c main_v16 = O7 (En7 m) (adm7 m) c :=
  (W46_of m c main_v16 (by decide)).trans (W45_chunk7 m c)
theorem W47_chunk7 (c : Dev nD) : W47 m c main_v16 = O7 (En7 m) (adm7 m) c :=
  (W47_of m c main_v16 (by decide)).trans (W46_chunk7 m c)
theorem W48_chunk7 (c : Dev nD) : W48 m c main_v16 = O7 (En7 m) (adm7 m) c :=
  (W48_of m c main_v16 (by decide)).trans (W47_chunk7 m c)
theorem W49_chunk7 (c : Dev nD) : W49 m c main_v16 = O7 (En7 m) (adm7 m) c :=
  (W49_of m c main_v16 (by decide)).trans (W48_chunk7 m c)
theorem W50_chunk7 (c : Dev nD) : W50 m c main_v16 = O7 (En7 m) (adm7 m) c :=
  (W50_of m c main_v16 (by decide)).trans (W49_chunk7 m c)
theorem W51_chunk7 (c : Dev nD) : W51 m c main_v16 = O7 (En7 m) (adm7 m) c :=
  (W51_of m c main_v16 (by decide)).trans (W50_chunk7 m c)
theorem W18_chunk8 (c : Dev nD) : W18 m c main_v18 = O8 (En8 m) (adm8 m) c :=
  W18_out m c
theorem W19_chunk8 (c : Dev nD) : W19 m c main_v18 = O8 (En8 m) (adm8 m) c :=
  (W19_of m c main_v18 (by decide)).trans (W18_chunk8 m c)
theorem W20_chunk8 (c : Dev nD) : W20 m c main_v18 = O8 (En8 m) (adm8 m) c :=
  (W20_of m c main_v18 (by decide)).trans (W19_chunk8 m c)
theorem W21_chunk8 (c : Dev nD) : W21 m c main_v18 = O8 (En8 m) (adm8 m) c :=
  (W21_of m c main_v18 (by decide)).trans (W20_chunk8 m c)
theorem W22_chunk8 (c : Dev nD) : W22 m c main_v18 = O8 (En8 m) (adm8 m) c :=
  (W22_of m c main_v18 (by decide)).trans (W21_chunk8 m c)
theorem W23_chunk8 (c : Dev nD) : W23 m c main_v18 = O8 (En8 m) (adm8 m) c :=
  (W23_of m c main_v18 (by decide)).trans (W22_chunk8 m c)
theorem W24_chunk8 (c : Dev nD) : W24 m c main_v18 = O8 (En8 m) (adm8 m) c :=
  (W24_of m c main_v18 (by decide)).trans (W23_chunk8 m c)
theorem W25_chunk8 (c : Dev nD) : W25 m c main_v18 = O8 (En8 m) (adm8 m) c :=
  (W25_of m c main_v18 (by decide)).trans (W24_chunk8 m c)
theorem W26_chunk8 (c : Dev nD) : W26 m c main_v18 = O8 (En8 m) (adm8 m) c :=
  (W26_of m c main_v18 (by decide)).trans (W25_chunk8 m c)
theorem W27_chunk8 (c : Dev nD) : W27 m c main_v18 = O8 (En8 m) (adm8 m) c :=
  (W27_of m c main_v18 (by decide)).trans (W26_chunk8 m c)
theorem W28_chunk8 (c : Dev nD) : W28 m c main_v18 = O8 (En8 m) (adm8 m) c :=
  (W28_of m c main_v18 (by decide)).trans (W27_chunk8 m c)
theorem W29_chunk8 (c : Dev nD) : W29 m c main_v18 = O8 (En8 m) (adm8 m) c :=
  (W29_of m c main_v18 (by decide)).trans (W28_chunk8 m c)
theorem W30_chunk8 (c : Dev nD) : W30 m c main_v18 = O8 (En8 m) (adm8 m) c :=
  (W30_of m c main_v18 (by decide)).trans (W29_chunk8 m c)
theorem W31_chunk8 (c : Dev nD) : W31 m c main_v18 = O8 (En8 m) (adm8 m) c :=
  (W31_of m c main_v18 (by decide)).trans (W30_chunk8 m c)
theorem W32_chunk8 (c : Dev nD) : W32 m c main_v18 = O8 (En8 m) (adm8 m) c :=
  (W32_of m c main_v18 (by decide)).trans (W31_chunk8 m c)
theorem W33_chunk8 (c : Dev nD) : W33 m c main_v18 = O8 (En8 m) (adm8 m) c :=
  (W33_of m c main_v18 (by decide)).trans (W32_chunk8 m c)
theorem W34_chunk8 (c : Dev nD) : W34 m c main_v18 = O8 (En8 m) (adm8 m) c :=
  (W34_of m c main_v18 (by decide)).trans (W33_chunk8 m c)
theorem W35_chunk8 (c : Dev nD) : W35 m c main_v18 = O8 (En8 m) (adm8 m) c :=
  (W35_of m c main_v18 (by decide)).trans (W34_chunk8 m c)
theorem W36_chunk8 (c : Dev nD) : W36 m c main_v18 = O8 (En8 m) (adm8 m) c :=
  (W36_of m c main_v18 (by decide)).trans (W35_chunk8 m c)
theorem W37_chunk8 (c : Dev nD) : W37 m c main_v18 = O8 (En8 m) (adm8 m) c :=
  (W37_of m c main_v18 (by decide)).trans (W36_chunk8 m c)
theorem W38_chunk8 (c : Dev nD) : W38 m c main_v18 = O8 (En8 m) (adm8 m) c :=
  (W38_of m c main_v18 (by decide)).trans (W37_chunk8 m c)
theorem W39_chunk8 (c : Dev nD) : W39 m c main_v18 = O8 (En8 m) (adm8 m) c :=
  (W39_of m c main_v18 (by decide)).trans (W38_chunk8 m c)
theorem W40_chunk8 (c : Dev nD) : W40 m c main_v18 = O8 (En8 m) (adm8 m) c :=
  (W40_of m c main_v18 (by decide)).trans (W39_chunk8 m c)
theorem W41_chunk8 (c : Dev nD) : W41 m c main_v18 = O8 (En8 m) (adm8 m) c :=
  (W41_of m c main_v18 (by decide)).trans (W40_chunk8 m c)
theorem W42_chunk8 (c : Dev nD) : W42 m c main_v18 = O8 (En8 m) (adm8 m) c :=
  (W42_of m c main_v18 (by decide)).trans (W41_chunk8 m c)
theorem W43_chunk8 (c : Dev nD) : W43 m c main_v18 = O8 (En8 m) (adm8 m) c :=
  (W43_of m c main_v18 (by decide)).trans (W42_chunk8 m c)
theorem W44_chunk8 (c : Dev nD) : W44 m c main_v18 = O8 (En8 m) (adm8 m) c :=
  (W44_of m c main_v18 (by decide)).trans (W43_chunk8 m c)
theorem W45_chunk8 (c : Dev nD) : W45 m c main_v18 = O8 (En8 m) (adm8 m) c :=
  (W45_of m c main_v18 (by decide)).trans (W44_chunk8 m c)
theorem W46_chunk8 (c : Dev nD) : W46 m c main_v18 = O8 (En8 m) (adm8 m) c :=
  (W46_of m c main_v18 (by decide)).trans (W45_chunk8 m c)
theorem W47_chunk8 (c : Dev nD) : W47 m c main_v18 = O8 (En8 m) (adm8 m) c :=
  (W47_of m c main_v18 (by decide)).trans (W46_chunk8 m c)
theorem W48_chunk8 (c : Dev nD) : W48 m c main_v18 = O8 (En8 m) (adm8 m) c :=
  (W48_of m c main_v18 (by decide)).trans (W47_chunk8 m c)
theorem W49_chunk8 (c : Dev nD) : W49 m c main_v18 = O8 (En8 m) (adm8 m) c :=
  (W49_of m c main_v18 (by decide)).trans (W48_chunk8 m c)
theorem W50_chunk8 (c : Dev nD) : W50 m c main_v18 = O8 (En8 m) (adm8 m) c :=
  (W50_of m c main_v18 (by decide)).trans (W49_chunk8 m c)
theorem W51_chunk8 (c : Dev nD) : W51 m c main_v18 = O8 (En8 m) (adm8 m) c :=
  (W51_of m c main_v18 (by decide)).trans (W50_chunk8 m c)
theorem W20_chunk9 (c : Dev nD) : W20 m c main_v20 = O9 (En9 m) (adm9 m) c :=
  W20_out m c
theorem W21_chunk9 (c : Dev nD) : W21 m c main_v20 = O9 (En9 m) (adm9 m) c :=
  (W21_of m c main_v20 (by decide)).trans (W20_chunk9 m c)
theorem W22_chunk9 (c : Dev nD) : W22 m c main_v20 = O9 (En9 m) (adm9 m) c :=
  (W22_of m c main_v20 (by decide)).trans (W21_chunk9 m c)
theorem W23_chunk9 (c : Dev nD) : W23 m c main_v20 = O9 (En9 m) (adm9 m) c :=
  (W23_of m c main_v20 (by decide)).trans (W22_chunk9 m c)
theorem W24_chunk9 (c : Dev nD) : W24 m c main_v20 = O9 (En9 m) (adm9 m) c :=
  (W24_of m c main_v20 (by decide)).trans (W23_chunk9 m c)
theorem W25_chunk9 (c : Dev nD) : W25 m c main_v20 = O9 (En9 m) (adm9 m) c :=
  (W25_of m c main_v20 (by decide)).trans (W24_chunk9 m c)
theorem W26_chunk9 (c : Dev nD) : W26 m c main_v20 = O9 (En9 m) (adm9 m) c :=
  (W26_of m c main_v20 (by decide)).trans (W25_chunk9 m c)
theorem W27_chunk9 (c : Dev nD) : W27 m c main_v20 = O9 (En9 m) (adm9 m) c :=
  (W27_of m c main_v20 (by decide)).trans (W26_chunk9 m c)
theorem W28_chunk9 (c : Dev nD) : W28 m c main_v20 = O9 (En9 m) (adm9 m) c :=
  (W28_of m c main_v20 (by decide)).trans (W27_chunk9 m c)
theorem W29_chunk9 (c : Dev nD) : W29 m c main_v20 = O9 (En9 m) (adm9 m) c :=
  (W29_of m c main_v20 (by decide)).trans (W28_chunk9 m c)
theorem W30_chunk9 (c : Dev nD) : W30 m c main_v20 = O9 (En9 m) (adm9 m) c :=
  (W30_of m c main_v20 (by decide)).trans (W29_chunk9 m c)
theorem W31_chunk9 (c : Dev nD) : W31 m c main_v20 = O9 (En9 m) (adm9 m) c :=
  (W31_of m c main_v20 (by decide)).trans (W30_chunk9 m c)
theorem W32_chunk9 (c : Dev nD) : W32 m c main_v20 = O9 (En9 m) (adm9 m) c :=
  (W32_of m c main_v20 (by decide)).trans (W31_chunk9 m c)
theorem W33_chunk9 (c : Dev nD) : W33 m c main_v20 = O9 (En9 m) (adm9 m) c :=
  (W33_of m c main_v20 (by decide)).trans (W32_chunk9 m c)
theorem W34_chunk9 (c : Dev nD) : W34 m c main_v20 = O9 (En9 m) (adm9 m) c :=
  (W34_of m c main_v20 (by decide)).trans (W33_chunk9 m c)
theorem W35_chunk9 (c : Dev nD) : W35 m c main_v20 = O9 (En9 m) (adm9 m) c :=
  (W35_of m c main_v20 (by decide)).trans (W34_chunk9 m c)
theorem W36_chunk9 (c : Dev nD) : W36 m c main_v20 = O9 (En9 m) (adm9 m) c :=
  (W36_of m c main_v20 (by decide)).trans (W35_chunk9 m c)
theorem W37_chunk9 (c : Dev nD) : W37 m c main_v20 = O9 (En9 m) (adm9 m) c :=
  (W37_of m c main_v20 (by decide)).trans (W36_chunk9 m c)
theorem W38_chunk9 (c : Dev nD) : W38 m c main_v20 = O9 (En9 m) (adm9 m) c :=
  (W38_of m c main_v20 (by decide)).trans (W37_chunk9 m c)
theorem W39_chunk9 (c : Dev nD) : W39 m c main_v20 = O9 (En9 m) (adm9 m) c :=
  (W39_of m c main_v20 (by decide)).trans (W38_chunk9 m c)
theorem W40_chunk9 (c : Dev nD) : W40 m c main_v20 = O9 (En9 m) (adm9 m) c :=
  (W40_of m c main_v20 (by decide)).trans (W39_chunk9 m c)
theorem W41_chunk9 (c : Dev nD) : W41 m c main_v20 = O9 (En9 m) (adm9 m) c :=
  (W41_of m c main_v20 (by decide)).trans (W40_chunk9 m c)
theorem W42_chunk9 (c : Dev nD) : W42 m c main_v20 = O9 (En9 m) (adm9 m) c :=
  (W42_of m c main_v20 (by decide)).trans (W41_chunk9 m c)
theorem W43_chunk9 (c : Dev nD) : W43 m c main_v20 = O9 (En9 m) (adm9 m) c :=
  (W43_of m c main_v20 (by decide)).trans (W42_chunk9 m c)
theorem W44_chunk9 (c : Dev nD) : W44 m c main_v20 = O9 (En9 m) (adm9 m) c :=
  (W44_of m c main_v20 (by decide)).trans (W43_chunk9 m c)
theorem W45_chunk9 (c : Dev nD) : W45 m c main_v20 = O9 (En9 m) (adm9 m) c :=
  (W45_of m c main_v20 (by decide)).trans (W44_chunk9 m c)
theorem W46_chunk9 (c : Dev nD) : W46 m c main_v20 = O9 (En9 m) (adm9 m) c :=
  (W46_of m c main_v20 (by decide)).trans (W45_chunk9 m c)
theorem W47_chunk9 (c : Dev nD) : W47 m c main_v20 = O9 (En9 m) (adm9 m) c :=
  (W47_of m c main_v20 (by decide)).trans (W46_chunk9 m c)
theorem W48_chunk9 (c : Dev nD) : W48 m c main_v20 = O9 (En9 m) (adm9 m) c :=
  (W48_of m c main_v20 (by decide)).trans (W47_chunk9 m c)
theorem W49_chunk9 (c : Dev nD) : W49 m c main_v20 = O9 (En9 m) (adm9 m) c :=
  (W49_of m c main_v20 (by decide)).trans (W48_chunk9 m c)
theorem W50_chunk9 (c : Dev nD) : W50 m c main_v20 = O9 (En9 m) (adm9 m) c :=
  (W50_of m c main_v20 (by decide)).trans (W49_chunk9 m c)
theorem W51_chunk9 (c : Dev nD) : W51 m c main_v20 = O9 (En9 m) (adm9 m) c :=
  (W51_of m c main_v20 (by decide)).trans (W50_chunk9 m c)
theorem W22_chunk10 (c : Dev nD) : W22 m c main_v22 = O10 (En10 m) (adm10 m) c :=
  W22_out m c
theorem W23_chunk10 (c : Dev nD) : W23 m c main_v22 = O10 (En10 m) (adm10 m) c :=
  (W23_of m c main_v22 (by decide)).trans (W22_chunk10 m c)
theorem W24_chunk10 (c : Dev nD) : W24 m c main_v22 = O10 (En10 m) (adm10 m) c :=
  (W24_of m c main_v22 (by decide)).trans (W23_chunk10 m c)
theorem W25_chunk10 (c : Dev nD) : W25 m c main_v22 = O10 (En10 m) (adm10 m) c :=
  (W25_of m c main_v22 (by decide)).trans (W24_chunk10 m c)
theorem W26_chunk10 (c : Dev nD) : W26 m c main_v22 = O10 (En10 m) (adm10 m) c :=
  (W26_of m c main_v22 (by decide)).trans (W25_chunk10 m c)
theorem W27_chunk10 (c : Dev nD) : W27 m c main_v22 = O10 (En10 m) (adm10 m) c :=
  (W27_of m c main_v22 (by decide)).trans (W26_chunk10 m c)
theorem W28_chunk10 (c : Dev nD) : W28 m c main_v22 = O10 (En10 m) (adm10 m) c :=
  (W28_of m c main_v22 (by decide)).trans (W27_chunk10 m c)
theorem W29_chunk10 (c : Dev nD) : W29 m c main_v22 = O10 (En10 m) (adm10 m) c :=
  (W29_of m c main_v22 (by decide)).trans (W28_chunk10 m c)
theorem W30_chunk10 (c : Dev nD) : W30 m c main_v22 = O10 (En10 m) (adm10 m) c :=
  (W30_of m c main_v22 (by decide)).trans (W29_chunk10 m c)
theorem W31_chunk10 (c : Dev nD) : W31 m c main_v22 = O10 (En10 m) (adm10 m) c :=
  (W31_of m c main_v22 (by decide)).trans (W30_chunk10 m c)
theorem W32_chunk10 (c : Dev nD) : W32 m c main_v22 = O10 (En10 m) (adm10 m) c :=
  (W32_of m c main_v22 (by decide)).trans (W31_chunk10 m c)
theorem W33_chunk10 (c : Dev nD) : W33 m c main_v22 = O10 (En10 m) (adm10 m) c :=
  (W33_of m c main_v22 (by decide)).trans (W32_chunk10 m c)
theorem W34_chunk10 (c : Dev nD) : W34 m c main_v22 = O10 (En10 m) (adm10 m) c :=
  (W34_of m c main_v22 (by decide)).trans (W33_chunk10 m c)
theorem W35_chunk10 (c : Dev nD) : W35 m c main_v22 = O10 (En10 m) (adm10 m) c :=
  (W35_of m c main_v22 (by decide)).trans (W34_chunk10 m c)
theorem W36_chunk10 (c : Dev nD) : W36 m c main_v22 = O10 (En10 m) (adm10 m) c :=
  (W36_of m c main_v22 (by decide)).trans (W35_chunk10 m c)
theorem W37_chunk10 (c : Dev nD) : W37 m c main_v22 = O10 (En10 m) (adm10 m) c :=
  (W37_of m c main_v22 (by decide)).trans (W36_chunk10 m c)
theorem W38_chunk10 (c : Dev nD) : W38 m c main_v22 = O10 (En10 m) (adm10 m) c :=
  (W38_of m c main_v22 (by decide)).trans (W37_chunk10 m c)
theorem W39_chunk10 (c : Dev nD) : W39 m c main_v22 = O10 (En10 m) (adm10 m) c :=
  (W39_of m c main_v22 (by decide)).trans (W38_chunk10 m c)
theorem W40_chunk10 (c : Dev nD) : W40 m c main_v22 = O10 (En10 m) (adm10 m) c :=
  (W40_of m c main_v22 (by decide)).trans (W39_chunk10 m c)
theorem W41_chunk10 (c : Dev nD) : W41 m c main_v22 = O10 (En10 m) (adm10 m) c :=
  (W41_of m c main_v22 (by decide)).trans (W40_chunk10 m c)
theorem W42_chunk10 (c : Dev nD) : W42 m c main_v22 = O10 (En10 m) (adm10 m) c :=
  (W42_of m c main_v22 (by decide)).trans (W41_chunk10 m c)
theorem W43_chunk10 (c : Dev nD) : W43 m c main_v22 = O10 (En10 m) (adm10 m) c :=
  (W43_of m c main_v22 (by decide)).trans (W42_chunk10 m c)
theorem W44_chunk10 (c : Dev nD) : W44 m c main_v22 = O10 (En10 m) (adm10 m) c :=
  (W44_of m c main_v22 (by decide)).trans (W43_chunk10 m c)
theorem W45_chunk10 (c : Dev nD) : W45 m c main_v22 = O10 (En10 m) (adm10 m) c :=
  (W45_of m c main_v22 (by decide)).trans (W44_chunk10 m c)
theorem W46_chunk10 (c : Dev nD) : W46 m c main_v22 = O10 (En10 m) (adm10 m) c :=
  (W46_of m c main_v22 (by decide)).trans (W45_chunk10 m c)
theorem W47_chunk10 (c : Dev nD) : W47 m c main_v22 = O10 (En10 m) (adm10 m) c :=
  (W47_of m c main_v22 (by decide)).trans (W46_chunk10 m c)
theorem W48_chunk10 (c : Dev nD) : W48 m c main_v22 = O10 (En10 m) (adm10 m) c :=
  (W48_of m c main_v22 (by decide)).trans (W47_chunk10 m c)
theorem W49_chunk10 (c : Dev nD) : W49 m c main_v22 = O10 (En10 m) (adm10 m) c :=
  (W49_of m c main_v22 (by decide)).trans (W48_chunk10 m c)
theorem W50_chunk10 (c : Dev nD) : W50 m c main_v22 = O10 (En10 m) (adm10 m) c :=
  (W50_of m c main_v22 (by decide)).trans (W49_chunk10 m c)
theorem W51_chunk10 (c : Dev nD) : W51 m c main_v22 = O10 (En10 m) (adm10 m) c :=
  (W51_of m c main_v22 (by decide)).trans (W50_chunk10 m c)
theorem W24_chunk11 (c : Dev nD) : W24 m c main_v24 = O11 (En11 m) (adm11 m) c :=
  W24_out m c
theorem W25_chunk11 (c : Dev nD) : W25 m c main_v24 = O11 (En11 m) (adm11 m) c :=
  (W25_of m c main_v24 (by decide)).trans (W24_chunk11 m c)
theorem W26_chunk11 (c : Dev nD) : W26 m c main_v24 = O11 (En11 m) (adm11 m) c :=
  (W26_of m c main_v24 (by decide)).trans (W25_chunk11 m c)
theorem W27_chunk11 (c : Dev nD) : W27 m c main_v24 = O11 (En11 m) (adm11 m) c :=
  (W27_of m c main_v24 (by decide)).trans (W26_chunk11 m c)
theorem W28_chunk11 (c : Dev nD) : W28 m c main_v24 = O11 (En11 m) (adm11 m) c :=
  (W28_of m c main_v24 (by decide)).trans (W27_chunk11 m c)
theorem W29_chunk11 (c : Dev nD) : W29 m c main_v24 = O11 (En11 m) (adm11 m) c :=
  (W29_of m c main_v24 (by decide)).trans (W28_chunk11 m c)
theorem W30_chunk11 (c : Dev nD) : W30 m c main_v24 = O11 (En11 m) (adm11 m) c :=
  (W30_of m c main_v24 (by decide)).trans (W29_chunk11 m c)
theorem W31_chunk11 (c : Dev nD) : W31 m c main_v24 = O11 (En11 m) (adm11 m) c :=
  (W31_of m c main_v24 (by decide)).trans (W30_chunk11 m c)
theorem W32_chunk11 (c : Dev nD) : W32 m c main_v24 = O11 (En11 m) (adm11 m) c :=
  (W32_of m c main_v24 (by decide)).trans (W31_chunk11 m c)
theorem W33_chunk11 (c : Dev nD) : W33 m c main_v24 = O11 (En11 m) (adm11 m) c :=
  (W33_of m c main_v24 (by decide)).trans (W32_chunk11 m c)
theorem W34_chunk11 (c : Dev nD) : W34 m c main_v24 = O11 (En11 m) (adm11 m) c :=
  (W34_of m c main_v24 (by decide)).trans (W33_chunk11 m c)
theorem W35_chunk11 (c : Dev nD) : W35 m c main_v24 = O11 (En11 m) (adm11 m) c :=
  (W35_of m c main_v24 (by decide)).trans (W34_chunk11 m c)
theorem W36_chunk11 (c : Dev nD) : W36 m c main_v24 = O11 (En11 m) (adm11 m) c :=
  (W36_of m c main_v24 (by decide)).trans (W35_chunk11 m c)
theorem W37_chunk11 (c : Dev nD) : W37 m c main_v24 = O11 (En11 m) (adm11 m) c :=
  (W37_of m c main_v24 (by decide)).trans (W36_chunk11 m c)
theorem W38_chunk11 (c : Dev nD) : W38 m c main_v24 = O11 (En11 m) (adm11 m) c :=
  (W38_of m c main_v24 (by decide)).trans (W37_chunk11 m c)
theorem W39_chunk11 (c : Dev nD) : W39 m c main_v24 = O11 (En11 m) (adm11 m) c :=
  (W39_of m c main_v24 (by decide)).trans (W38_chunk11 m c)
theorem W40_chunk11 (c : Dev nD) : W40 m c main_v24 = O11 (En11 m) (adm11 m) c :=
  (W40_of m c main_v24 (by decide)).trans (W39_chunk11 m c)
theorem W41_chunk11 (c : Dev nD) : W41 m c main_v24 = O11 (En11 m) (adm11 m) c :=
  (W41_of m c main_v24 (by decide)).trans (W40_chunk11 m c)
theorem W42_chunk11 (c : Dev nD) : W42 m c main_v24 = O11 (En11 m) (adm11 m) c :=
  (W42_of m c main_v24 (by decide)).trans (W41_chunk11 m c)
theorem W43_chunk11 (c : Dev nD) : W43 m c main_v24 = O11 (En11 m) (adm11 m) c :=
  (W43_of m c main_v24 (by decide)).trans (W42_chunk11 m c)
theorem W44_chunk11 (c : Dev nD) : W44 m c main_v24 = O11 (En11 m) (adm11 m) c :=
  (W44_of m c main_v24 (by decide)).trans (W43_chunk11 m c)
theorem W45_chunk11 (c : Dev nD) : W45 m c main_v24 = O11 (En11 m) (adm11 m) c :=
  (W45_of m c main_v24 (by decide)).trans (W44_chunk11 m c)
theorem W46_chunk11 (c : Dev nD) : W46 m c main_v24 = O11 (En11 m) (adm11 m) c :=
  (W46_of m c main_v24 (by decide)).trans (W45_chunk11 m c)
theorem W47_chunk11 (c : Dev nD) : W47 m c main_v24 = O11 (En11 m) (adm11 m) c :=
  (W47_of m c main_v24 (by decide)).trans (W46_chunk11 m c)
theorem W48_chunk11 (c : Dev nD) : W48 m c main_v24 = O11 (En11 m) (adm11 m) c :=
  (W48_of m c main_v24 (by decide)).trans (W47_chunk11 m c)
theorem W49_chunk11 (c : Dev nD) : W49 m c main_v24 = O11 (En11 m) (adm11 m) c :=
  (W49_of m c main_v24 (by decide)).trans (W48_chunk11 m c)
theorem W50_chunk11 (c : Dev nD) : W50 m c main_v24 = O11 (En11 m) (adm11 m) c :=
  (W50_of m c main_v24 (by decide)).trans (W49_chunk11 m c)
theorem W51_chunk11 (c : Dev nD) : W51 m c main_v24 = O11 (En11 m) (adm11 m) c :=
  (W51_of m c main_v24 (by decide)).trans (W50_chunk11 m c)
theorem W26_chunk12 (c : Dev nD) : W26 m c main_v26 = O12 (En12 m) (adm12 m) c :=
  W26_out m c
theorem W27_chunk12 (c : Dev nD) : W27 m c main_v26 = O12 (En12 m) (adm12 m) c :=
  (W27_of m c main_v26 (by decide)).trans (W26_chunk12 m c)
theorem W28_chunk12 (c : Dev nD) : W28 m c main_v26 = O12 (En12 m) (adm12 m) c :=
  (W28_of m c main_v26 (by decide)).trans (W27_chunk12 m c)
theorem W29_chunk12 (c : Dev nD) : W29 m c main_v26 = O12 (En12 m) (adm12 m) c :=
  (W29_of m c main_v26 (by decide)).trans (W28_chunk12 m c)
theorem W30_chunk12 (c : Dev nD) : W30 m c main_v26 = O12 (En12 m) (adm12 m) c :=
  (W30_of m c main_v26 (by decide)).trans (W29_chunk12 m c)
theorem W31_chunk12 (c : Dev nD) : W31 m c main_v26 = O12 (En12 m) (adm12 m) c :=
  (W31_of m c main_v26 (by decide)).trans (W30_chunk12 m c)
theorem W32_chunk12 (c : Dev nD) : W32 m c main_v26 = O12 (En12 m) (adm12 m) c :=
  (W32_of m c main_v26 (by decide)).trans (W31_chunk12 m c)
theorem W33_chunk12 (c : Dev nD) : W33 m c main_v26 = O12 (En12 m) (adm12 m) c :=
  (W33_of m c main_v26 (by decide)).trans (W32_chunk12 m c)
theorem W34_chunk12 (c : Dev nD) : W34 m c main_v26 = O12 (En12 m) (adm12 m) c :=
  (W34_of m c main_v26 (by decide)).trans (W33_chunk12 m c)
theorem W35_chunk12 (c : Dev nD) : W35 m c main_v26 = O12 (En12 m) (adm12 m) c :=
  (W35_of m c main_v26 (by decide)).trans (W34_chunk12 m c)
theorem W36_chunk12 (c : Dev nD) : W36 m c main_v26 = O12 (En12 m) (adm12 m) c :=
  (W36_of m c main_v26 (by decide)).trans (W35_chunk12 m c)
theorem W37_chunk12 (c : Dev nD) : W37 m c main_v26 = O12 (En12 m) (adm12 m) c :=
  (W37_of m c main_v26 (by decide)).trans (W36_chunk12 m c)
theorem W38_chunk12 (c : Dev nD) : W38 m c main_v26 = O12 (En12 m) (adm12 m) c :=
  (W38_of m c main_v26 (by decide)).trans (W37_chunk12 m c)
theorem W39_chunk12 (c : Dev nD) : W39 m c main_v26 = O12 (En12 m) (adm12 m) c :=
  (W39_of m c main_v26 (by decide)).trans (W38_chunk12 m c)
theorem W40_chunk12 (c : Dev nD) : W40 m c main_v26 = O12 (En12 m) (adm12 m) c :=
  (W40_of m c main_v26 (by decide)).trans (W39_chunk12 m c)
theorem W41_chunk12 (c : Dev nD) : W41 m c main_v26 = O12 (En12 m) (adm12 m) c :=
  (W41_of m c main_v26 (by decide)).trans (W40_chunk12 m c)
theorem W42_chunk12 (c : Dev nD) : W42 m c main_v26 = O12 (En12 m) (adm12 m) c :=
  (W42_of m c main_v26 (by decide)).trans (W41_chunk12 m c)
theorem W43_chunk12 (c : Dev nD) : W43 m c main_v26 = O12 (En12 m) (adm12 m) c :=
  (W43_of m c main_v26 (by decide)).trans (W42_chunk12 m c)
theorem W44_chunk12 (c : Dev nD) : W44 m c main_v26 = O12 (En12 m) (adm12 m) c :=
  (W44_of m c main_v26 (by decide)).trans (W43_chunk12 m c)
theorem W45_chunk12 (c : Dev nD) : W45 m c main_v26 = O12 (En12 m) (adm12 m) c :=
  (W45_of m c main_v26 (by decide)).trans (W44_chunk12 m c)
theorem W46_chunk12 (c : Dev nD) : W46 m c main_v26 = O12 (En12 m) (adm12 m) c :=
  (W46_of m c main_v26 (by decide)).trans (W45_chunk12 m c)
theorem W47_chunk12 (c : Dev nD) : W47 m c main_v26 = O12 (En12 m) (adm12 m) c :=
  (W47_of m c main_v26 (by decide)).trans (W46_chunk12 m c)
theorem W48_chunk12 (c : Dev nD) : W48 m c main_v26 = O12 (En12 m) (adm12 m) c :=
  (W48_of m c main_v26 (by decide)).trans (W47_chunk12 m c)
theorem W49_chunk12 (c : Dev nD) : W49 m c main_v26 = O12 (En12 m) (adm12 m) c :=
  (W49_of m c main_v26 (by decide)).trans (W48_chunk12 m c)
theorem W50_chunk12 (c : Dev nD) : W50 m c main_v26 = O12 (En12 m) (adm12 m) c :=
  (W50_of m c main_v26 (by decide)).trans (W49_chunk12 m c)
theorem W51_chunk12 (c : Dev nD) : W51 m c main_v26 = O12 (En12 m) (adm12 m) c :=
  (W51_of m c main_v26 (by decide)).trans (W50_chunk12 m c)
theorem W28_chunk13 (c : Dev nD) : W28 m c main_v28 = O13 (En13 m) (adm13 m) c :=
  W28_out m c
theorem W29_chunk13 (c : Dev nD) : W29 m c main_v28 = O13 (En13 m) (adm13 m) c :=
  (W29_of m c main_v28 (by decide)).trans (W28_chunk13 m c)
theorem W30_chunk13 (c : Dev nD) : W30 m c main_v28 = O13 (En13 m) (adm13 m) c :=
  (W30_of m c main_v28 (by decide)).trans (W29_chunk13 m c)
theorem W31_chunk13 (c : Dev nD) : W31 m c main_v28 = O13 (En13 m) (adm13 m) c :=
  (W31_of m c main_v28 (by decide)).trans (W30_chunk13 m c)
theorem W32_chunk13 (c : Dev nD) : W32 m c main_v28 = O13 (En13 m) (adm13 m) c :=
  (W32_of m c main_v28 (by decide)).trans (W31_chunk13 m c)
theorem W33_chunk13 (c : Dev nD) : W33 m c main_v28 = O13 (En13 m) (adm13 m) c :=
  (W33_of m c main_v28 (by decide)).trans (W32_chunk13 m c)
theorem W34_chunk13 (c : Dev nD) : W34 m c main_v28 = O13 (En13 m) (adm13 m) c :=
  (W34_of m c main_v28 (by decide)).trans (W33_chunk13 m c)
theorem W35_chunk13 (c : Dev nD) : W35 m c main_v28 = O13 (En13 m) (adm13 m) c :=
  (W35_of m c main_v28 (by decide)).trans (W34_chunk13 m c)
theorem W36_chunk13 (c : Dev nD) : W36 m c main_v28 = O13 (En13 m) (adm13 m) c :=
  (W36_of m c main_v28 (by decide)).trans (W35_chunk13 m c)
theorem W37_chunk13 (c : Dev nD) : W37 m c main_v28 = O13 (En13 m) (adm13 m) c :=
  (W37_of m c main_v28 (by decide)).trans (W36_chunk13 m c)
theorem W38_chunk13 (c : Dev nD) : W38 m c main_v28 = O13 (En13 m) (adm13 m) c :=
  (W38_of m c main_v28 (by decide)).trans (W37_chunk13 m c)
theorem W39_chunk13 (c : Dev nD) : W39 m c main_v28 = O13 (En13 m) (adm13 m) c :=
  (W39_of m c main_v28 (by decide)).trans (W38_chunk13 m c)
theorem W40_chunk13 (c : Dev nD) : W40 m c main_v28 = O13 (En13 m) (adm13 m) c :=
  (W40_of m c main_v28 (by decide)).trans (W39_chunk13 m c)
theorem W41_chunk13 (c : Dev nD) : W41 m c main_v28 = O13 (En13 m) (adm13 m) c :=
  (W41_of m c main_v28 (by decide)).trans (W40_chunk13 m c)
theorem W42_chunk13 (c : Dev nD) : W42 m c main_v28 = O13 (En13 m) (adm13 m) c :=
  (W42_of m c main_v28 (by decide)).trans (W41_chunk13 m c)
theorem W43_chunk13 (c : Dev nD) : W43 m c main_v28 = O13 (En13 m) (adm13 m) c :=
  (W43_of m c main_v28 (by decide)).trans (W42_chunk13 m c)
theorem W44_chunk13 (c : Dev nD) : W44 m c main_v28 = O13 (En13 m) (adm13 m) c :=
  (W44_of m c main_v28 (by decide)).trans (W43_chunk13 m c)
theorem W45_chunk13 (c : Dev nD) : W45 m c main_v28 = O13 (En13 m) (adm13 m) c :=
  (W45_of m c main_v28 (by decide)).trans (W44_chunk13 m c)
theorem W46_chunk13 (c : Dev nD) : W46 m c main_v28 = O13 (En13 m) (adm13 m) c :=
  (W46_of m c main_v28 (by decide)).trans (W45_chunk13 m c)
theorem W47_chunk13 (c : Dev nD) : W47 m c main_v28 = O13 (En13 m) (adm13 m) c :=
  (W47_of m c main_v28 (by decide)).trans (W46_chunk13 m c)
theorem W48_chunk13 (c : Dev nD) : W48 m c main_v28 = O13 (En13 m) (adm13 m) c :=
  (W48_of m c main_v28 (by decide)).trans (W47_chunk13 m c)
theorem W49_chunk13 (c : Dev nD) : W49 m c main_v28 = O13 (En13 m) (adm13 m) c :=
  (W49_of m c main_v28 (by decide)).trans (W48_chunk13 m c)
theorem W50_chunk13 (c : Dev nD) : W50 m c main_v28 = O13 (En13 m) (adm13 m) c :=
  (W50_of m c main_v28 (by decide)).trans (W49_chunk13 m c)
theorem W51_chunk13 (c : Dev nD) : W51 m c main_v28 = O13 (En13 m) (adm13 m) c :=
  (W51_of m c main_v28 (by decide)).trans (W50_chunk13 m c)
theorem W30_chunk14 (c : Dev nD) : W30 m c main_v30 = O14 (En14 m) (adm14 m) c :=
  W30_out m c
theorem W31_chunk14 (c : Dev nD) : W31 m c main_v30 = O14 (En14 m) (adm14 m) c :=
  (W31_of m c main_v30 (by decide)).trans (W30_chunk14 m c)
theorem W32_chunk14 (c : Dev nD) : W32 m c main_v30 = O14 (En14 m) (adm14 m) c :=
  (W32_of m c main_v30 (by decide)).trans (W31_chunk14 m c)
theorem W33_chunk14 (c : Dev nD) : W33 m c main_v30 = O14 (En14 m) (adm14 m) c :=
  (W33_of m c main_v30 (by decide)).trans (W32_chunk14 m c)
theorem W34_chunk14 (c : Dev nD) : W34 m c main_v30 = O14 (En14 m) (adm14 m) c :=
  (W34_of m c main_v30 (by decide)).trans (W33_chunk14 m c)
theorem W35_chunk14 (c : Dev nD) : W35 m c main_v30 = O14 (En14 m) (adm14 m) c :=
  (W35_of m c main_v30 (by decide)).trans (W34_chunk14 m c)
theorem W36_chunk14 (c : Dev nD) : W36 m c main_v30 = O14 (En14 m) (adm14 m) c :=
  (W36_of m c main_v30 (by decide)).trans (W35_chunk14 m c)
theorem W37_chunk14 (c : Dev nD) : W37 m c main_v30 = O14 (En14 m) (adm14 m) c :=
  (W37_of m c main_v30 (by decide)).trans (W36_chunk14 m c)
theorem W38_chunk14 (c : Dev nD) : W38 m c main_v30 = O14 (En14 m) (adm14 m) c :=
  (W38_of m c main_v30 (by decide)).trans (W37_chunk14 m c)
theorem W39_chunk14 (c : Dev nD) : W39 m c main_v30 = O14 (En14 m) (adm14 m) c :=
  (W39_of m c main_v30 (by decide)).trans (W38_chunk14 m c)
theorem W40_chunk14 (c : Dev nD) : W40 m c main_v30 = O14 (En14 m) (adm14 m) c :=
  (W40_of m c main_v30 (by decide)).trans (W39_chunk14 m c)
theorem W41_chunk14 (c : Dev nD) : W41 m c main_v30 = O14 (En14 m) (adm14 m) c :=
  (W41_of m c main_v30 (by decide)).trans (W40_chunk14 m c)
theorem W42_chunk14 (c : Dev nD) : W42 m c main_v30 = O14 (En14 m) (adm14 m) c :=
  (W42_of m c main_v30 (by decide)).trans (W41_chunk14 m c)
theorem W43_chunk14 (c : Dev nD) : W43 m c main_v30 = O14 (En14 m) (adm14 m) c :=
  (W43_of m c main_v30 (by decide)).trans (W42_chunk14 m c)
theorem W44_chunk14 (c : Dev nD) : W44 m c main_v30 = O14 (En14 m) (adm14 m) c :=
  (W44_of m c main_v30 (by decide)).trans (W43_chunk14 m c)
theorem W45_chunk14 (c : Dev nD) : W45 m c main_v30 = O14 (En14 m) (adm14 m) c :=
  (W45_of m c main_v30 (by decide)).trans (W44_chunk14 m c)
theorem W46_chunk14 (c : Dev nD) : W46 m c main_v30 = O14 (En14 m) (adm14 m) c :=
  (W46_of m c main_v30 (by decide)).trans (W45_chunk14 m c)
theorem W47_chunk14 (c : Dev nD) : W47 m c main_v30 = O14 (En14 m) (adm14 m) c :=
  (W47_of m c main_v30 (by decide)).trans (W46_chunk14 m c)
theorem W48_chunk14 (c : Dev nD) : W48 m c main_v30 = O14 (En14 m) (adm14 m) c :=
  (W48_of m c main_v30 (by decide)).trans (W47_chunk14 m c)
theorem W49_chunk14 (c : Dev nD) : W49 m c main_v30 = O14 (En14 m) (adm14 m) c :=
  (W49_of m c main_v30 (by decide)).trans (W48_chunk14 m c)
theorem W50_chunk14 (c : Dev nD) : W50 m c main_v30 = O14 (En14 m) (adm14 m) c :=
  (W50_of m c main_v30 (by decide)).trans (W49_chunk14 m c)
theorem W51_chunk14 (c : Dev nD) : W51 m c main_v30 = O14 (En14 m) (adm14 m) c :=
  (W51_of m c main_v30 (by decide)).trans (W50_chunk14 m c)
theorem W32_chunk15 (c : Dev nD) : W32 m c main_v32 = O15 (En15 m) (adm15 m) c :=
  W32_out m c
theorem W33_chunk15 (c : Dev nD) : W33 m c main_v32 = O15 (En15 m) (adm15 m) c :=
  (W33_of m c main_v32 (by decide)).trans (W32_chunk15 m c)
theorem W34_chunk15 (c : Dev nD) : W34 m c main_v32 = O15 (En15 m) (adm15 m) c :=
  (W34_of m c main_v32 (by decide)).trans (W33_chunk15 m c)
theorem W35_chunk15 (c : Dev nD) : W35 m c main_v32 = O15 (En15 m) (adm15 m) c :=
  (W35_of m c main_v32 (by decide)).trans (W34_chunk15 m c)
theorem W36_chunk15 (c : Dev nD) : W36 m c main_v32 = O15 (En15 m) (adm15 m) c :=
  (W36_of m c main_v32 (by decide)).trans (W35_chunk15 m c)
theorem W37_chunk15 (c : Dev nD) : W37 m c main_v32 = O15 (En15 m) (adm15 m) c :=
  (W37_of m c main_v32 (by decide)).trans (W36_chunk15 m c)
theorem W38_chunk15 (c : Dev nD) : W38 m c main_v32 = O15 (En15 m) (adm15 m) c :=
  (W38_of m c main_v32 (by decide)).trans (W37_chunk15 m c)
theorem W39_chunk15 (c : Dev nD) : W39 m c main_v32 = O15 (En15 m) (adm15 m) c :=
  (W39_of m c main_v32 (by decide)).trans (W38_chunk15 m c)
theorem W40_chunk15 (c : Dev nD) : W40 m c main_v32 = O15 (En15 m) (adm15 m) c :=
  (W40_of m c main_v32 (by decide)).trans (W39_chunk15 m c)
theorem W41_chunk15 (c : Dev nD) : W41 m c main_v32 = O15 (En15 m) (adm15 m) c :=
  (W41_of m c main_v32 (by decide)).trans (W40_chunk15 m c)
theorem W42_chunk15 (c : Dev nD) : W42 m c main_v32 = O15 (En15 m) (adm15 m) c :=
  (W42_of m c main_v32 (by decide)).trans (W41_chunk15 m c)
theorem W43_chunk15 (c : Dev nD) : W43 m c main_v32 = O15 (En15 m) (adm15 m) c :=
  (W43_of m c main_v32 (by decide)).trans (W42_chunk15 m c)
theorem W44_chunk15 (c : Dev nD) : W44 m c main_v32 = O15 (En15 m) (adm15 m) c :=
  (W44_of m c main_v32 (by decide)).trans (W43_chunk15 m c)
theorem W45_chunk15 (c : Dev nD) : W45 m c main_v32 = O15 (En15 m) (adm15 m) c :=
  (W45_of m c main_v32 (by decide)).trans (W44_chunk15 m c)
theorem W46_chunk15 (c : Dev nD) : W46 m c main_v32 = O15 (En15 m) (adm15 m) c :=
  (W46_of m c main_v32 (by decide)).trans (W45_chunk15 m c)
theorem W47_chunk15 (c : Dev nD) : W47 m c main_v32 = O15 (En15 m) (adm15 m) c :=
  (W47_of m c main_v32 (by decide)).trans (W46_chunk15 m c)
theorem W48_chunk15 (c : Dev nD) : W48 m c main_v32 = O15 (En15 m) (adm15 m) c :=
  (W48_of m c main_v32 (by decide)).trans (W47_chunk15 m c)
theorem W49_chunk15 (c : Dev nD) : W49 m c main_v32 = O15 (En15 m) (adm15 m) c :=
  (W49_of m c main_v32 (by decide)).trans (W48_chunk15 m c)
theorem W50_chunk15 (c : Dev nD) : W50 m c main_v32 = O15 (En15 m) (adm15 m) c :=
  (W50_of m c main_v32 (by decide)).trans (W49_chunk15 m c)
theorem W51_chunk15 (c : Dev nD) : W51 m c main_v32 = O15 (En15 m) (adm15 m) c :=
  (W51_of m c main_v32 (by decide)).trans (W50_chunk15 m c)
theorem W34_chunk16 (c : Dev nD) : W34 m c main_v34 = O16 (En16 m) (adm16 m) c :=
  W34_out m c
theorem W35_chunk16 (c : Dev nD) : W35 m c main_v34 = O16 (En16 m) (adm16 m) c :=
  (W35_of m c main_v34 (by decide)).trans (W34_chunk16 m c)
theorem W36_chunk16 (c : Dev nD) : W36 m c main_v34 = O16 (En16 m) (adm16 m) c :=
  (W36_of m c main_v34 (by decide)).trans (W35_chunk16 m c)
theorem W37_chunk16 (c : Dev nD) : W37 m c main_v34 = O16 (En16 m) (adm16 m) c :=
  (W37_of m c main_v34 (by decide)).trans (W36_chunk16 m c)
theorem W38_chunk16 (c : Dev nD) : W38 m c main_v34 = O16 (En16 m) (adm16 m) c :=
  (W38_of m c main_v34 (by decide)).trans (W37_chunk16 m c)
theorem W39_chunk16 (c : Dev nD) : W39 m c main_v34 = O16 (En16 m) (adm16 m) c :=
  (W39_of m c main_v34 (by decide)).trans (W38_chunk16 m c)
theorem W40_chunk16 (c : Dev nD) : W40 m c main_v34 = O16 (En16 m) (adm16 m) c :=
  (W40_of m c main_v34 (by decide)).trans (W39_chunk16 m c)
theorem W41_chunk16 (c : Dev nD) : W41 m c main_v34 = O16 (En16 m) (adm16 m) c :=
  (W41_of m c main_v34 (by decide)).trans (W40_chunk16 m c)
theorem W42_chunk16 (c : Dev nD) : W42 m c main_v34 = O16 (En16 m) (adm16 m) c :=
  (W42_of m c main_v34 (by decide)).trans (W41_chunk16 m c)
theorem W43_chunk16 (c : Dev nD) : W43 m c main_v34 = O16 (En16 m) (adm16 m) c :=
  (W43_of m c main_v34 (by decide)).trans (W42_chunk16 m c)
theorem W44_chunk16 (c : Dev nD) : W44 m c main_v34 = O16 (En16 m) (adm16 m) c :=
  (W44_of m c main_v34 (by decide)).trans (W43_chunk16 m c)
theorem W45_chunk16 (c : Dev nD) : W45 m c main_v34 = O16 (En16 m) (adm16 m) c :=
  (W45_of m c main_v34 (by decide)).trans (W44_chunk16 m c)
theorem W46_chunk16 (c : Dev nD) : W46 m c main_v34 = O16 (En16 m) (adm16 m) c :=
  (W46_of m c main_v34 (by decide)).trans (W45_chunk16 m c)
theorem W47_chunk16 (c : Dev nD) : W47 m c main_v34 = O16 (En16 m) (adm16 m) c :=
  (W47_of m c main_v34 (by decide)).trans (W46_chunk16 m c)
theorem W48_chunk16 (c : Dev nD) : W48 m c main_v34 = O16 (En16 m) (adm16 m) c :=
  (W48_of m c main_v34 (by decide)).trans (W47_chunk16 m c)
theorem W49_chunk16 (c : Dev nD) : W49 m c main_v34 = O16 (En16 m) (adm16 m) c :=
  (W49_of m c main_v34 (by decide)).trans (W48_chunk16 m c)
theorem W50_chunk16 (c : Dev nD) : W50 m c main_v34 = O16 (En16 m) (adm16 m) c :=
  (W50_of m c main_v34 (by decide)).trans (W49_chunk16 m c)
theorem W51_chunk16 (c : Dev nD) : W51 m c main_v34 = O16 (En16 m) (adm16 m) c :=
  (W51_of m c main_v34 (by decide)).trans (W50_chunk16 m c)
theorem W36_chunk17 (c : Dev nD) : W36 m c main_v36 = O17 (En17 m) (adm17 m) c :=
  W36_out m c
theorem W37_chunk17 (c : Dev nD) : W37 m c main_v36 = O17 (En17 m) (adm17 m) c :=
  (W37_of m c main_v36 (by decide)).trans (W36_chunk17 m c)
theorem W38_chunk17 (c : Dev nD) : W38 m c main_v36 = O17 (En17 m) (adm17 m) c :=
  (W38_of m c main_v36 (by decide)).trans (W37_chunk17 m c)
theorem W39_chunk17 (c : Dev nD) : W39 m c main_v36 = O17 (En17 m) (adm17 m) c :=
  (W39_of m c main_v36 (by decide)).trans (W38_chunk17 m c)
theorem W40_chunk17 (c : Dev nD) : W40 m c main_v36 = O17 (En17 m) (adm17 m) c :=
  (W40_of m c main_v36 (by decide)).trans (W39_chunk17 m c)
theorem W41_chunk17 (c : Dev nD) : W41 m c main_v36 = O17 (En17 m) (adm17 m) c :=
  (W41_of m c main_v36 (by decide)).trans (W40_chunk17 m c)
theorem W42_chunk17 (c : Dev nD) : W42 m c main_v36 = O17 (En17 m) (adm17 m) c :=
  (W42_of m c main_v36 (by decide)).trans (W41_chunk17 m c)
theorem W43_chunk17 (c : Dev nD) : W43 m c main_v36 = O17 (En17 m) (adm17 m) c :=
  (W43_of m c main_v36 (by decide)).trans (W42_chunk17 m c)
theorem W44_chunk17 (c : Dev nD) : W44 m c main_v36 = O17 (En17 m) (adm17 m) c :=
  (W44_of m c main_v36 (by decide)).trans (W43_chunk17 m c)
theorem W45_chunk17 (c : Dev nD) : W45 m c main_v36 = O17 (En17 m) (adm17 m) c :=
  (W45_of m c main_v36 (by decide)).trans (W44_chunk17 m c)
theorem W46_chunk17 (c : Dev nD) : W46 m c main_v36 = O17 (En17 m) (adm17 m) c :=
  (W46_of m c main_v36 (by decide)).trans (W45_chunk17 m c)
theorem W47_chunk17 (c : Dev nD) : W47 m c main_v36 = O17 (En17 m) (adm17 m) c :=
  (W47_of m c main_v36 (by decide)).trans (W46_chunk17 m c)
theorem W48_chunk17 (c : Dev nD) : W48 m c main_v36 = O17 (En17 m) (adm17 m) c :=
  (W48_of m c main_v36 (by decide)).trans (W47_chunk17 m c)
theorem W49_chunk17 (c : Dev nD) : W49 m c main_v36 = O17 (En17 m) (adm17 m) c :=
  (W49_of m c main_v36 (by decide)).trans (W48_chunk17 m c)
theorem W50_chunk17 (c : Dev nD) : W50 m c main_v36 = O17 (En17 m) (adm17 m) c :=
  (W50_of m c main_v36 (by decide)).trans (W49_chunk17 m c)
theorem W51_chunk17 (c : Dev nD) : W51 m c main_v36 = O17 (En17 m) (adm17 m) c :=
  (W51_of m c main_v36 (by decide)).trans (W50_chunk17 m c)
theorem W38_chunk18 (c : Dev nD) : W38 m c main_v38 = O18 (En18 m) (adm18 m) c :=
  W38_out m c
theorem W39_chunk18 (c : Dev nD) : W39 m c main_v38 = O18 (En18 m) (adm18 m) c :=
  (W39_of m c main_v38 (by decide)).trans (W38_chunk18 m c)
theorem W40_chunk18 (c : Dev nD) : W40 m c main_v38 = O18 (En18 m) (adm18 m) c :=
  (W40_of m c main_v38 (by decide)).trans (W39_chunk18 m c)
theorem W41_chunk18 (c : Dev nD) : W41 m c main_v38 = O18 (En18 m) (adm18 m) c :=
  (W41_of m c main_v38 (by decide)).trans (W40_chunk18 m c)
theorem W42_chunk18 (c : Dev nD) : W42 m c main_v38 = O18 (En18 m) (adm18 m) c :=
  (W42_of m c main_v38 (by decide)).trans (W41_chunk18 m c)
theorem W43_chunk18 (c : Dev nD) : W43 m c main_v38 = O18 (En18 m) (adm18 m) c :=
  (W43_of m c main_v38 (by decide)).trans (W42_chunk18 m c)
theorem W44_chunk18 (c : Dev nD) : W44 m c main_v38 = O18 (En18 m) (adm18 m) c :=
  (W44_of m c main_v38 (by decide)).trans (W43_chunk18 m c)
theorem W45_chunk18 (c : Dev nD) : W45 m c main_v38 = O18 (En18 m) (adm18 m) c :=
  (W45_of m c main_v38 (by decide)).trans (W44_chunk18 m c)
theorem W46_chunk18 (c : Dev nD) : W46 m c main_v38 = O18 (En18 m) (adm18 m) c :=
  (W46_of m c main_v38 (by decide)).trans (W45_chunk18 m c)
theorem W47_chunk18 (c : Dev nD) : W47 m c main_v38 = O18 (En18 m) (adm18 m) c :=
  (W47_of m c main_v38 (by decide)).trans (W46_chunk18 m c)
theorem W48_chunk18 (c : Dev nD) : W48 m c main_v38 = O18 (En18 m) (adm18 m) c :=
  (W48_of m c main_v38 (by decide)).trans (W47_chunk18 m c)
theorem W49_chunk18 (c : Dev nD) : W49 m c main_v38 = O18 (En18 m) (adm18 m) c :=
  (W49_of m c main_v38 (by decide)).trans (W48_chunk18 m c)
theorem W50_chunk18 (c : Dev nD) : W50 m c main_v38 = O18 (En18 m) (adm18 m) c :=
  (W50_of m c main_v38 (by decide)).trans (W49_chunk18 m c)
theorem W51_chunk18 (c : Dev nD) : W51 m c main_v38 = O18 (En18 m) (adm18 m) c :=
  (W51_of m c main_v38 (by decide)).trans (W50_chunk18 m c)
theorem W40_chunk19 (c : Dev nD) : W40 m c main_v40 = O19 (En19 m) (adm19 m) c :=
  W40_out m c
theorem W41_chunk19 (c : Dev nD) : W41 m c main_v40 = O19 (En19 m) (adm19 m) c :=
  (W41_of m c main_v40 (by decide)).trans (W40_chunk19 m c)
theorem W42_chunk19 (c : Dev nD) : W42 m c main_v40 = O19 (En19 m) (adm19 m) c :=
  (W42_of m c main_v40 (by decide)).trans (W41_chunk19 m c)
theorem W43_chunk19 (c : Dev nD) : W43 m c main_v40 = O19 (En19 m) (adm19 m) c :=
  (W43_of m c main_v40 (by decide)).trans (W42_chunk19 m c)
theorem W44_chunk19 (c : Dev nD) : W44 m c main_v40 = O19 (En19 m) (adm19 m) c :=
  (W44_of m c main_v40 (by decide)).trans (W43_chunk19 m c)
theorem W45_chunk19 (c : Dev nD) : W45 m c main_v40 = O19 (En19 m) (adm19 m) c :=
  (W45_of m c main_v40 (by decide)).trans (W44_chunk19 m c)
theorem W46_chunk19 (c : Dev nD) : W46 m c main_v40 = O19 (En19 m) (adm19 m) c :=
  (W46_of m c main_v40 (by decide)).trans (W45_chunk19 m c)
theorem W47_chunk19 (c : Dev nD) : W47 m c main_v40 = O19 (En19 m) (adm19 m) c :=
  (W47_of m c main_v40 (by decide)).trans (W46_chunk19 m c)
theorem W48_chunk19 (c : Dev nD) : W48 m c main_v40 = O19 (En19 m) (adm19 m) c :=
  (W48_of m c main_v40 (by decide)).trans (W47_chunk19 m c)
theorem W49_chunk19 (c : Dev nD) : W49 m c main_v40 = O19 (En19 m) (adm19 m) c :=
  (W49_of m c main_v40 (by decide)).trans (W48_chunk19 m c)
theorem W50_chunk19 (c : Dev nD) : W50 m c main_v40 = O19 (En19 m) (adm19 m) c :=
  (W50_of m c main_v40 (by decide)).trans (W49_chunk19 m c)
theorem W51_chunk19 (c : Dev nD) : W51 m c main_v40 = O19 (En19 m) (adm19 m) c :=
  (W51_of m c main_v40 (by decide)).trans (W50_chunk19 m c)
theorem W42_chunk20 (c : Dev nD) : W42 m c main_v42 = O20 (En20 m) (adm20 m) c :=
  W42_out m c
theorem W43_chunk20 (c : Dev nD) : W43 m c main_v42 = O20 (En20 m) (adm20 m) c :=
  (W43_of m c main_v42 (by decide)).trans (W42_chunk20 m c)
theorem W44_chunk20 (c : Dev nD) : W44 m c main_v42 = O20 (En20 m) (adm20 m) c :=
  (W44_of m c main_v42 (by decide)).trans (W43_chunk20 m c)
theorem W45_chunk20 (c : Dev nD) : W45 m c main_v42 = O20 (En20 m) (adm20 m) c :=
  (W45_of m c main_v42 (by decide)).trans (W44_chunk20 m c)
theorem W46_chunk20 (c : Dev nD) : W46 m c main_v42 = O20 (En20 m) (adm20 m) c :=
  (W46_of m c main_v42 (by decide)).trans (W45_chunk20 m c)
theorem W47_chunk20 (c : Dev nD) : W47 m c main_v42 = O20 (En20 m) (adm20 m) c :=
  (W47_of m c main_v42 (by decide)).trans (W46_chunk20 m c)
theorem W48_chunk20 (c : Dev nD) : W48 m c main_v42 = O20 (En20 m) (adm20 m) c :=
  (W48_of m c main_v42 (by decide)).trans (W47_chunk20 m c)
theorem W49_chunk20 (c : Dev nD) : W49 m c main_v42 = O20 (En20 m) (adm20 m) c :=
  (W49_of m c main_v42 (by decide)).trans (W48_chunk20 m c)
theorem W50_chunk20 (c : Dev nD) : W50 m c main_v42 = O20 (En20 m) (adm20 m) c :=
  (W50_of m c main_v42 (by decide)).trans (W49_chunk20 m c)
theorem W51_chunk20 (c : Dev nD) : W51 m c main_v42 = O20 (En20 m) (adm20 m) c :=
  (W51_of m c main_v42 (by decide)).trans (W50_chunk20 m c)
theorem W44_chunk21 (c : Dev nD) : W44 m c main_v44 = O21 (En21 m) (adm21 m) c :=
  W44_out m c
theorem W45_chunk21 (c : Dev nD) : W45 m c main_v44 = O21 (En21 m) (adm21 m) c :=
  (W45_of m c main_v44 (by decide)).trans (W44_chunk21 m c)
theorem W46_chunk21 (c : Dev nD) : W46 m c main_v44 = O21 (En21 m) (adm21 m) c :=
  (W46_of m c main_v44 (by decide)).trans (W45_chunk21 m c)
theorem W47_chunk21 (c : Dev nD) : W47 m c main_v44 = O21 (En21 m) (adm21 m) c :=
  (W47_of m c main_v44 (by decide)).trans (W46_chunk21 m c)
theorem W48_chunk21 (c : Dev nD) : W48 m c main_v44 = O21 (En21 m) (adm21 m) c :=
  (W48_of m c main_v44 (by decide)).trans (W47_chunk21 m c)
theorem W49_chunk21 (c : Dev nD) : W49 m c main_v44 = O21 (En21 m) (adm21 m) c :=
  (W49_of m c main_v44 (by decide)).trans (W48_chunk21 m c)
theorem W50_chunk21 (c : Dev nD) : W50 m c main_v44 = O21 (En21 m) (adm21 m) c :=
  (W50_of m c main_v44 (by decide)).trans (W49_chunk21 m c)
theorem W51_chunk21 (c : Dev nD) : W51 m c main_v44 = O21 (En21 m) (adm21 m) c :=
  (W51_of m c main_v44 (by decide)).trans (W50_chunk21 m c)
theorem W46_chunk22 (c : Dev nD) : W46 m c main_v46 = O22 (En22 m) (adm22 m) c :=
  W46_out m c
theorem W47_chunk22 (c : Dev nD) : W47 m c main_v46 = O22 (En22 m) (adm22 m) c :=
  (W47_of m c main_v46 (by decide)).trans (W46_chunk22 m c)
theorem W48_chunk22 (c : Dev nD) : W48 m c main_v46 = O22 (En22 m) (adm22 m) c :=
  (W48_of m c main_v46 (by decide)).trans (W47_chunk22 m c)
theorem W49_chunk22 (c : Dev nD) : W49 m c main_v46 = O22 (En22 m) (adm22 m) c :=
  (W49_of m c main_v46 (by decide)).trans (W48_chunk22 m c)
theorem W50_chunk22 (c : Dev nD) : W50 m c main_v46 = O22 (En22 m) (adm22 m) c :=
  (W50_of m c main_v46 (by decide)).trans (W49_chunk22 m c)
theorem W51_chunk22 (c : Dev nD) : W51 m c main_v46 = O22 (En22 m) (adm22 m) c :=
  (W51_of m c main_v46 (by decide)).trans (W50_chunk22 m c)
theorem W48_chunk23 (c : Dev nD) : W48 m c main_v48 = O23 (En23 m) (adm23 m) c :=
  W48_out m c
theorem W49_chunk23 (c : Dev nD) : W49 m c main_v48 = O23 (En23 m) (adm23 m) c :=
  (W49_of m c main_v48 (by decide)).trans (W48_chunk23 m c)
theorem W50_chunk23 (c : Dev nD) : W50 m c main_v48 = O23 (En23 m) (adm23 m) c :=
  (W50_of m c main_v48 (by decide)).trans (W49_chunk23 m c)
theorem W51_chunk23 (c : Dev nD) : W51 m c main_v48 = O23 (En23 m) (adm23 m) c :=
  (W51_of m c main_v48 (by decide)).trans (W50_chunk23 m c)
theorem W50_chunk24 (c : Dev nD) : W50 m c main_v50 = O24 (En24 m) (adm24 m) c :=
  W50_out m c
theorem W51_chunk24 (c : Dev nD) : W51 m c main_v50 = O24 (En24 m) (adm24 m) c :=
  (W51_of m c main_v50 (by decide)).trans (W50_chunk24 m c)
theorem W53_main_v53 (c : Dev nD) : W53 m c main_v53 = W51 m c main_v53 :=
  (W53_of m c main_v53 (by decide)).trans (W52_of m c main_v53 (by decide))

end Cert.KernelIdeal.Hand

end
-- ==== Proof.KI.Chain.lean ====
/-
  The chain of buffer contents between @main's items, whole: its definitions, its agreement with the generated chain of
  valuations, what the launches' segment records take from it, and the buffers kept along it.
-/
import proofs.«403631_j48275432407145_1_alg».proof.Proof.KI.ChainDefs
import proofs.«403631_j48275432407145_1_alg».proof.Proof.KI.ChainEq
import proofs.«403631_j48275432407145_1_alg».proof.Proof.KI.ChainSeg
import proofs.«403631_j48275432407145_1_alg».proof.Proof.KI.ChainReads
-- ==== Proof.KI.LaunchFacts.lean ====
/-
  What the launch of this program is dealt, at the algebra of the frame development, at any float instance and for any
  admissible contents `a` of the gather pipelines' tables: no core owes another anything, there is no ghost resource beside
  the pipeline library's rounds, and the same thread state `R` (the generator register at some state, the core owing
  nothing) rides beside the unscoped buffers at every one of @main's 28 item boundaries. Three facts follow, which the
  run of @main over its 27 regions takes as they are: the launch element splits into the library's initial rounds and
  nothing else; what every core is dealt at launch makes `R`; and `R` at the return says the core owes nothing.
-/
import proofs.«403631_j48275432407145_1_alg».proof.Proof.KI.Base
import Idealize.ShloMosaic.Lib.Pipeline.Kit

-- membership in a rectangle of the row blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

variable (a : (p : Fin 27) → (pcfgs (F := F) p).Adm)

/-! ## What the launch is dealt -/

/-- No core owes another anything at launch. -/
abbrev O₀ : Dev nD → CellTallies nD τ sig Unit := fun _ => 0

/-- No ghost resource beside the pipeline library's. -/
abbrev G₀ : Dev nD → sProp 𝕄 := fun _ => iprop(emp)

/-- The launch element of the user algebra: the pipeline library's rounds at their initial state for this program's cells
    and launch tokens, beside the unit of the transfer counters. -/
abbrev u₀ : UC :=
  (initOf (Pipeline.cells (Pipeline.pin (pcfgs (F := F)) a) (cellOf_inj a)) (Pipeline.launchToks (Pipeline.pin (pcfgs (F := F)) a) (cellOf_inj a)), 1)

/-- What rides beside the unscoped buffers at every one of @main's 28 item boundaries: the same `R`. -/
abbrev E₀ : Fin 28 → Dev nD → sProp 𝕄 := fun _ c => R c

/-! ## The launch's three facts -/

/-- No level is assigned anywhere, in particular off the TensorCores. -/
theorem launch_hL : ∀ g : GSem nD τ sig, g.1.2 ≠ .tc → L g = ∅ := fun _ _ => rfl

/-- The launch element splits into the pipeline library's initial rounds, owned through the left embedding, and nothing
    else. -/
theorem launch_hu0 :
    (ownU (u₀ a) : sProp 𝕄) ⊢ |={Set.univ}=> iprop(BI.own (EP (F := F) (initOf (Pipeline.cells (Pipeline.pin (pcfgs (F := F)) a) (cellOf_inj a))
        (Pipeline.launchToks (Pipeline.pin (pcfgs (F := F)) a) (cellOf_inj a)))) ∗ bigSep Finset.univ (G₀ (F := F))) := by
  rw [show bigSep Finset.univ (G₀ (F := F)) = (BI.emp : sProp 𝕄) from BI.bigSep_emp_const _]
  refine (ownU_pair _ _).trans ?_
  iintro ⟨Hrounds, -⟩
  imodintro
  isplitl [Hrounds]
  · iexact Hrounds
  · iempintro

/-- On every core at once, what the launch deals — the unscoped semaphores at zero, nothing owed and nothing recorded, the
    launch credit, the generator register at its launch state — makes `R`: the register at some state, the core owing
    nothing; the rest is dropped. -/
theorem launch_hE0 (ρ : Dev nD → PrngReg) :
    iprop((bigSep Finset.univ fun c : Dev nD => iprop(unscopedSems0 c ∗ owes (c : Thread nD τ) (O₀ c) ∅ ∗ Pipeline.launchCred O₀ c
        ∗ prngReg c (ρ c) ∗ G₀ (F := F) c)) ∗ levAts L lv)
      ⊢ (|={Set.univ}=> bigSep Finset.univ (E₀ (F := F) 0) : sProp 𝕄) := by
  refine Pipeline.initEach L lv fun c => ?_
  iintro ⟨⟨-, Howes, -, Hreg, -⟩, -⟩
  imodintro
  isplitl [Hreg]
  · iexists (ρ c); iexact Hreg
  · iexists ∅; iexact Howes

/-- At the return every core owes nothing: `R` says so. -/
theorem launch_hE27 (c : Dev nD) :
    E₀ (F := F) 27 c ⊢ (iprop(∃ W, owes (c : Thread nD τ) (0 : CellTallies nD τ sig Unit) W) : sProp 𝕄) := by
  iintro ⟨-, Howes⟩
  iexact Howes

end Cert.KernelIdeal.Hand

end
-- ==== Proof.KI.Seg0.lean ====
/-
  One of the program's 25 gather launches (pipeline 0) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV0 (W : Dev nD → Valuation τ sig (Elt F)) : (c : Dev nD) → (b : Ref sig .tc) → Buf (Elt F) ((c : Thread nD τ).loc b) := fun c b => W c b

/-- The operand the body copies from by itself, as a reference: unscoped, no window's array, no table. -/
def H0 : Finset (Ref sig .tc) := {main_arg0}
theorem H0_sub : H0 ⊆ Pipeline.restRefsP sig pre0 spec0 := by decide
/-- Its points-to, listed. -/
theorem hbmPts0_eq (V : (c : Dev nD) → (b : Ref sig .tc) → Buf (Elt F) ((c : Thread nD τ).loc b)) (c : Dev nD) :
    (bigSep H0 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest0_eq (V : (c : Dev nD) → (b : Ref sig .tc) → Buf (Elt F) ((c : Thread nD τ).loc b)) (c : Dev nD)
    (pf : pre0.Contents (Elt F)) (hpf : pf = fun k => V c (pre0.ref k)) :
    (Pipeline.unscopedRest (Ix := Unit) (Name := ℕ) (U := UC) (Lvl := ℕ) spec0 c (V c) : sProp 𝕄)
      = iprop(Pipeline.prefHeld pre0 c (fun _ => fullShare) pf
          ∗ (((c : Thread nD τ).loc main_arg0) ↦{fullShare} V c main_arg0)
          ∗ bigSep (Pipeline.restRefsP sig pre0 spec0 \ H0) fun b => ((c : Thread nD τ).loc b) ↦{fullShare} V c b) := by
  subst hpf
  rw [Pipeline.unscopedRest_split preFacts0 c (V c)]
  unfold Pipeline.unscopedRestP
  rw [BI.bigSep_sdiff_split H0_sub, hbmPts0_eq]
  rfl

-- the segment's fields are stated over the pinned configuration `pin pcfgs a 0`; meeting them with `cfg0 (a 0)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg0 (hd : ∀ c, pdats 0 c = dat0 (VV0 Win) (a 0) c)
    (hF : ∀ c w, (dat0 (VV0 Win) (a 0) c).arrAt w (cfg0 (a 0)).N = Wout c (Pipeline.arrRef spec0 w))
    (hrest : ∀ c (b : Ref sig .tc), b ∉ Finset.univ.image (Pipeline.arrRef spec0) → Wout c b = Win c b)
    (htab : ∀ c, (a 0).1 = fun k => Win c (pre0.ref k))
    (hrange : InRange0 (a 0).1) :
    Pipeline.RegionSeg (pcfgs (F := F)) a pdats () defs₀ 𝒱₀ L lv 0 where
  win := (launch0 (F := F)).win.to₀
  block_pos := (launch0 (F := F)).block_pos
  stage_whole := (launch0 (F := F)).stage_whole
  K := Fin 16
  osem := osem0
  ho := ownSemFacts0
  hbody c := by rw [hd c]; exact (body_obligation0 (VV0 Win) (a 0) hrange c).loose
  hwaits := Pipeline.hwaits_of_owed_zero (pcfgs (F := F)) a pdats () L lv 0 fun c t => by rw [hd c]; rfl
  pre c := T (Win c) c
  post c := T (Wout c) c
  X c := X0 (VV0 Win) c
  Y c := Y0 (VV0 Win) (a 0) c
  Z c := bigSep (Pipeline.restRefsP sig pre0 spec0 \ H0) fun b => ((c : Thread nD τ).loc b) ↦{fullShare} VV0 Win c b
  hentry c := by
    have hsplit := Pipeline.arrays_of_unscopedBufs (p := 0) (pcfgs (F := F)) a pdats (launch0 (F := F)).win (launch0 (F := F)).arr_whole c
      ((pdats 0 c).share_full fun _ => by rw [hd c]; rfl) (VV0 Win c) fun w => by rw [hd c]; rfl
    rw [Pipeline.unscopedBufs_held, hd c] at hsplit
    rw [hd c]
    have hU := unscopedRest0_eq (VV0 Win) c (a 0).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi0_in (VV0 Win) (a 0) c
  hout c := by rw [hd c]; exact Phi0_out (VV0 Win) (a 0) c
  hexit c := by
    have hjoin := Pipeline.unscopedBufs_of_arrays (p := 0) (pcfgs (F := F)) a (Ix := Unit) (Name := ℕ) (U := UC) (Lvl := ℕ)
      (launch0 (F := F)).win (launch0 (F := F)).arr_whole c pdats ((pdats 0 c).share_full fun _ => by rw [hd c]; rfl)
      (VV0 Win c) (VV0 Wout c) ((pdats 0 c).arrAt · (cfg0 (a 0)).N) (fun w => by rw [hd c]; exact hF c w) (hrest c)
    rw [Pipeline.unscopedBufs_held, hd c] at hjoin
    rw [hd c]
    have hU := unscopedRest0_eq (VV0 Win) c (a 0).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg1.lean ====
/-
  One of the program's 25 gather launches (pipeline 1) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV1 (W : Dev nD → Valuation τ sig (Elt F)) : (c : Dev nD) → (b : Ref sig .tc) → Buf (Elt F) ((c : Thread nD τ).loc b) := fun c b => W c b

/-- The operand the body copies from by itself, as a reference: unscoped, no window's array, no table. -/
def H1 : Finset (Ref sig .tc) := {main_arg0}
theorem H1_sub : H1 ⊆ Pipeline.restRefsP sig pre1 spec1 := by decide
/-- Its points-to, listed. -/
theorem hbmPts1_eq (V : (c : Dev nD) → (b : Ref sig .tc) → Buf (Elt F) ((c : Thread nD τ).loc b)) (c : Dev nD) :
    (bigSep H1 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest1_eq (V : (c : Dev nD) → (b : Ref sig .tc) → Buf (Elt F) ((c : Thread nD τ).loc b)) (c : Dev nD)
    (pf : pre1.Contents (Elt F)) (hpf : pf = fun k => V c (pre1.ref k)) :
    (Pipeline.unscopedRest (Ix := Unit) (Name := ℕ) (U := UC) (Lvl := ℕ) spec1 c (V c) : sProp 𝕄)
      = iprop(Pipeline.prefHeld pre1 c (fun _ => fullShare) pf
          ∗ (((c : Thread nD τ).loc main_arg0) ↦{fullShare} V c main_arg0)
          ∗ bigSep (Pipeline.restRefsP sig pre1 spec1 \ H1) fun b => ((c : Thread nD τ).loc b) ↦{fullShare} V c b) := by
  subst hpf
  rw [Pipeline.unscopedRest_split preFacts1 c (V c)]
  unfold Pipeline.unscopedRestP
  rw [BI.bigSep_sdiff_split H1_sub, hbmPts1_eq]
  rfl

-- the segment's fields are stated over the pinned configuration `pin pcfgs a 1`; meeting them with `cfg1 (a 1)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg1 (hd : ∀ c, pdats 1 c = dat1 (VV1 Win) (a 1) c)
    (hF : ∀ c w, (dat1 (VV1 Win) (a 1) c).arrAt w (cfg1 (a 1)).N = Wout c (Pipeline.arrRef spec1 w))
    (hrest : ∀ c (b : Ref sig .tc), b ∉ Finset.univ.image (Pipeline.arrRef spec1) → Wout c b = Win c b)
    (htab : ∀ c, (a 1).1 = fun k => Win c (pre1.ref k))
    (hrange : InRange1 (a 1).1) :
    Pipeline.RegionSeg (pcfgs (F := F)) a pdats () defs₀ 𝒱₀ L lv 1 where
  win := (launch1 (F := F)).win.to₀
  block_pos := (launch1 (F := F)).block_pos
  stage_whole := (launch1 (F := F)).stage_whole
  K := Fin 16
  osem := osem1
  ho := ownSemFacts1
  hbody c := by rw [hd c]; exact (body_obligation1 (VV1 Win) (a 1) hrange c).loose
  hwaits := Pipeline.hwaits_of_owed_zero (pcfgs (F := F)) a pdats () L lv 1 fun c t => by rw [hd c]; rfl
  pre c := T (Win c) c
  post c := T (Wout c) c
  X c := X1 (VV1 Win) c
  Y c := Y1 (VV1 Win) (a 1) c
  Z c := bigSep (Pipeline.restRefsP sig pre1 spec1 \ H1) fun b => ((c : Thread nD τ).loc b) ↦{fullShare} VV1 Win c b
  hentry c := by
    have hsplit := Pipeline.arrays_of_unscopedBufs (p := 1) (pcfgs (F := F)) a pdats (launch1 (F := F)).win (launch1 (F := F)).arr_whole c
      ((pdats 1 c).share_full fun _ => by rw [hd c]; rfl) (VV1 Win c) fun w => by rw [hd c]; rfl
    rw [Pipeline.unscopedBufs_held, hd c] at hsplit
    rw [hd c]
    have hU := unscopedRest1_eq (VV1 Win) c (a 1).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi1_in (VV1 Win) (a 1) c
  hout c := by rw [hd c]; exact Phi1_out (VV1 Win) (a 1) c
  hexit c := by
    have hjoin := Pipeline.unscopedBufs_of_arrays (p := 1) (pcfgs (F := F)) a (Ix := Unit) (Name := ℕ) (U := UC) (Lvl := ℕ)
      (launch1 (F := F)).win (launch1 (F := F)).arr_whole c pdats ((pdats 1 c).share_full fun _ => by rw [hd c]; rfl)
      (VV1 Win c) (VV1 Wout c) ((pdats 1 c).arrAt · (cfg1 (a 1)).N) (fun w => by rw [hd c]; exact hF c w) (hrest c)
    rw [Pipeline.unscopedBufs_held, hd c] at hjoin
    rw [hd c]
    have hU := unscopedRest1_eq (VV1 Win) c (a 1).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg2.lean ====
/-
  One of the program's 25 gather launches (pipeline 2) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G2Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV2 (W : Dev nD → Valuation τ sig (Elt F)) : (c : Dev nD) → (b : Ref sig .tc) → Buf (Elt F) ((c : Thread nD τ).loc b) := fun c b => W c b

/-- The operand the body copies from by itself, as a reference: unscoped, no window's array, no table. -/
def H2 : Finset (Ref sig .tc) := {main_arg0}
theorem H2_sub : H2 ⊆ Pipeline.restRefsP sig pre2 spec2 := by decide
/-- Its points-to, listed. -/
theorem hbmPts2_eq (V : (c : Dev nD) → (b : Ref sig .tc) → Buf (Elt F) ((c : Thread nD τ).loc b)) (c : Dev nD) :
    (bigSep H2 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest2_eq (V : (c : Dev nD) → (b : Ref sig .tc) → Buf (Elt F) ((c : Thread nD τ).loc b)) (c : Dev nD)
    (pf : pre2.Contents (Elt F)) (hpf : pf = fun k => V c (pre2.ref k)) :
    (Pipeline.unscopedRest (Ix := Unit) (Name := ℕ) (U := UC) (Lvl := ℕ) spec2 c (V c) : sProp 𝕄)
      = iprop(Pipeline.prefHeld pre2 c (fun _ => fullShare) pf
          ∗ (((c : Thread nD τ).loc main_arg0) ↦{fullShare} V c main_arg0)
          ∗ bigSep (Pipeline.restRefsP sig pre2 spec2 \ H2) fun b => ((c : Thread nD τ).loc b) ↦{fullShare} V c b) := by
  subst hpf
  rw [Pipeline.unscopedRest_split preFacts2 c (V c)]
  unfold Pipeline.unscopedRestP
  rw [BI.bigSep_sdiff_split H2_sub, hbmPts2_eq]
  rfl

-- the segment's fields are stated over the pinned configuration `pin pcfgs a 2`; meeting them with `cfg2 (a 2)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg2 (hd : ∀ c, pdats 2 c = dat2 (VV2 Win) (a 2) c)
    (hF : ∀ c w, (dat2 (VV2 Win) (a 2) c).arrAt w (cfg2 (a 2)).N = Wout c (Pipeline.arrRef spec2 w))
    (hrest : ∀ c (b : Ref sig .tc), b ∉ Finset.univ.image (Pipeline.arrRef spec2) → Wout c b = Win c b)
    (htab : ∀ c, (a 2).1 = fun k => Win c (pre2.ref k))
    (hrange : InRange2 (a 2).1) :
    Pipeline.RegionSeg (pcfgs (F := F)) a pdats () defs₀ 𝒱₀ L lv 2 where
  win := (launch2 (F := F)).win.to₀
  block_pos := (launch2 (F := F)).block_pos
  stage_whole := (launch2 (F := F)).stage_whole
  K := Fin 16
  osem := osem2
  ho := ownSemFacts2
  hbody c := by rw [hd c]; exact (body_obligation2 (VV2 Win) (a 2) hrange c).loose
  hwaits := Pipeline.hwaits_of_owed_zero (pcfgs (F := F)) a pdats () L lv 2 fun c t => by rw [hd c]; rfl
  pre c := T (Win c) c
  post c := T (Wout c) c
  X c := X2 (VV2 Win) c
  Y c := Y2 (VV2 Win) (a 2) c
  Z c := bigSep (Pipeline.restRefsP sig pre2 spec2 \ H2) fun b => ((c : Thread nD τ).loc b) ↦{fullShare} VV2 Win c b
  hentry c := by
    have hsplit := Pipeline.arrays_of_unscopedBufs (p := 2) (pcfgs (F := F)) a pdats (launch2 (F := F)).win (launch2 (F := F)).arr_whole c
      ((pdats 2 c).share_full fun _ => by rw [hd c]; rfl) (VV2 Win c) fun w => by rw [hd c]; rfl
    rw [Pipeline.unscopedBufs_held, hd c] at hsplit
    rw [hd c]
    have hU := unscopedRest2_eq (VV2 Win) c (a 2).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi2_in (VV2 Win) (a 2) c
  hout c := by rw [hd c]; exact Phi2_out (VV2 Win) (a 2) c
  hexit c := by
    have hjoin := Pipeline.unscopedBufs_of_arrays (p := 2) (pcfgs (F := F)) a (Ix := Unit) (Name := ℕ) (U := UC) (Lvl := ℕ)
      (launch2 (F := F)).win (launch2 (F := F)).arr_whole c pdats ((pdats 2 c).share_full fun _ => by rw [hd c]; rfl)
      (VV2 Win c) (VV2 Wout c) ((pdats 2 c).arrAt · (cfg2 (a 2)).N) (fun w => by rw [hd c]; exact hF c w) (hrest c)
    rw [Pipeline.unscopedBufs_held, hd c] at hjoin
    rw [hd c]
    have hU := unscopedRest2_eq (VV2 Win) c (a 2).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg3.lean ====
/-
  One of the program's 25 gather launches (pipeline 3) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G3Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV3 (W : Dev nD → Valuation τ sig (Elt F)) : (c : Dev nD) → (b : Ref sig .tc) → Buf (Elt F) ((c : Thread nD τ).loc b) := fun c b => W c b

/-- The operand the body copies from by itself, as a reference: unscoped, no window's array, no table. -/
def H3 : Finset (Ref sig .tc) := {main_arg0}
theorem H3_sub : H3 ⊆ Pipeline.restRefsP sig pre3 spec3 := by decide
/-- Its points-to, listed. -/
theorem hbmPts3_eq (V : (c : Dev nD) → (b : Ref sig .tc) → Buf (Elt F) ((c : Thread nD τ).loc b)) (c : Dev nD) :
    (bigSep H3 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest3_eq (V : (c : Dev nD) → (b : Ref sig .tc) → Buf (Elt F) ((c : Thread nD τ).loc b)) (c : Dev nD)
    (pf : pre3.Contents (Elt F)) (hpf : pf = fun k => V c (pre3.ref k)) :
    (Pipeline.unscopedRest (Ix := Unit) (Name := ℕ) (U := UC) (Lvl := ℕ) spec3 c (V c) : sProp 𝕄)
      = iprop(Pipeline.prefHeld pre3 c (fun _ => fullShare) pf
          ∗ (((c : Thread nD τ).loc main_arg0) ↦{fullShare} V c main_arg0)
          ∗ bigSep (Pipeline.restRefsP sig pre3 spec3 \ H3) fun b => ((c : Thread nD τ).loc b) ↦{fullShare} V c b) := by
  subst hpf
  rw [Pipeline.unscopedRest_split preFacts3 c (V c)]
  unfold Pipeline.unscopedRestP
  rw [BI.bigSep_sdiff_split H3_sub, hbmPts3_eq]
  rfl

-- the segment's fields are stated over the pinned configuration `pin pcfgs a 3`; meeting them with `cfg3 (a 3)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg3 (hd : ∀ c, pdats 3 c = dat3 (VV3 Win) (a 3) c)
    (hF : ∀ c w, (dat3 (VV3 Win) (a 3) c).arrAt w (cfg3 (a 3)).N = Wout c (Pipeline.arrRef spec3 w))
    (hrest : ∀ c (b : Ref sig .tc), b ∉ Finset.univ.image (Pipeline.arrRef spec3) → Wout c b = Win c b)
    (htab : ∀ c, (a 3).1 = fun k => Win c (pre3.ref k))
    (hrange : InRange3 (a 3).1) :
    Pipeline.RegionSeg (pcfgs (F := F)) a pdats () defs₀ 𝒱₀ L lv 3 where
  win := (launch3 (F := F)).win.to₀
  block_pos := (launch3 (F := F)).block_pos
  stage_whole := (launch3 (F := F)).stage_whole
  K := Fin 16
  osem := osem3
  ho := ownSemFacts3
  hbody c := by rw [hd c]; exact (body_obligation3 (VV3 Win) (a 3) hrange c).loose
  hwaits := Pipeline.hwaits_of_owed_zero (pcfgs (F := F)) a pdats () L lv 3 fun c t => by rw [hd c]; rfl
  pre c := T (Win c) c
  post c := T (Wout c) c
  X c := X3 (VV3 Win) c
  Y c := Y3 (VV3 Win) (a 3) c
  Z c := bigSep (Pipeline.restRefsP sig pre3 spec3 \ H3) fun b => ((c : Thread nD τ).loc b) ↦{fullShare} VV3 Win c b
  hentry c := by
    have hsplit := Pipeline.arrays_of_unscopedBufs (p := 3) (pcfgs (F := F)) a pdats (launch3 (F := F)).win (launch3 (F := F)).arr_whole c
      ((pdats 3 c).share_full fun _ => by rw [hd c]; rfl) (VV3 Win c) fun w => by rw [hd c]; rfl
    rw [Pipeline.unscopedBufs_held, hd c] at hsplit
    rw [hd c]
    have hU := unscopedRest3_eq (VV3 Win) c (a 3).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi3_in (VV3 Win) (a 3) c
  hout c := by rw [hd c]; exact Phi3_out (VV3 Win) (a 3) c
  hexit c := by
    have hjoin := Pipeline.unscopedBufs_of_arrays (p := 3) (pcfgs (F := F)) a (Ix := Unit) (Name := ℕ) (U := UC) (Lvl := ℕ)
      (launch3 (F := F)).win (launch3 (F := F)).arr_whole c pdats ((pdats 3 c).share_full fun _ => by rw [hd c]; rfl)
      (VV3 Win c) (VV3 Wout c) ((pdats 3 c).arrAt · (cfg3 (a 3)).N) (fun w => by rw [hd c]; exact hF c w) (hrest c)
    rw [Pipeline.unscopedBufs_held, hd c] at hjoin
    rw [hd c]
    have hU := unscopedRest3_eq (VV3 Win) c (a 3).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg4.lean ====
/-
  One of the program's 25 gather launches (pipeline 4) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G4Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV4 (W : Dev nD → Valuation τ sig (Elt F)) : (c : Dev nD) → (b : Ref sig .tc) → Buf (Elt F) ((c : Thread nD τ).loc b) := fun c b => W c b

/-- The operand the body copies from by itself, as a reference: unscoped, no window's array, no table. -/
def H4 : Finset (Ref sig .tc) := {main_arg0}
theorem H4_sub : H4 ⊆ Pipeline.restRefsP sig pre4 spec4 := by decide
/-- Its points-to, listed. -/
theorem hbmPts4_eq (V : (c : Dev nD) → (b : Ref sig .tc) → Buf (Elt F) ((c : Thread nD τ).loc b)) (c : Dev nD) :
    (bigSep H4 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest4_eq (V : (c : Dev nD) → (b : Ref sig .tc) → Buf (Elt F) ((c : Thread nD τ).loc b)) (c : Dev nD)
    (pf : pre4.Contents (Elt F)) (hpf : pf = fun k => V c (pre4.ref k)) :
    (Pipeline.unscopedRest (Ix := Unit) (Name := ℕ) (U := UC) (Lvl := ℕ) spec4 c (V c) : sProp 𝕄)
      = iprop(Pipeline.prefHeld pre4 c (fun _ => fullShare) pf
          ∗ (((c : Thread nD τ).loc main_arg0) ↦{fullShare} V c main_arg0)
          ∗ bigSep (Pipeline.restRefsP sig pre4 spec4 \ H4) fun b => ((c : Thread nD τ).loc b) ↦{fullShare} V c b) := by
  subst hpf
  rw [Pipeline.unscopedRest_split preFacts4 c (V c)]
  unfold Pipeline.unscopedRestP
  rw [BI.bigSep_sdiff_split H4_sub, hbmPts4_eq]
  rfl

-- the segment's fields are stated over the pinned configuration `pin pcfgs a 4`; meeting them with `cfg4 (a 4)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg4 (hd : ∀ c, pdats 4 c = dat4 (VV4 Win) (a 4) c)
    (hF : ∀ c w, (dat4 (VV4 Win) (a 4) c).arrAt w (cfg4 (a 4)).N = Wout c (Pipeline.arrRef spec4 w))
    (hrest : ∀ c (b : Ref sig .tc), b ∉ Finset.univ.image (Pipeline.arrRef spec4) → Wout c b = Win c b)
    (htab : ∀ c, (a 4).1 = fun k => Win c (pre4.ref k))
    (hrange : InRange4 (a 4).1) :
    Pipeline.RegionSeg (pcfgs (F := F)) a pdats () defs₀ 𝒱₀ L lv 4 where
  win := (launch4 (F := F)).win.to₀
  block_pos := (launch4 (F := F)).block_pos
  stage_whole := (launch4 (F := F)).stage_whole
  K := Fin 16
  osem := osem4
  ho := ownSemFacts4
  hbody c := by rw [hd c]; exact (body_obligation4 (VV4 Win) (a 4) hrange c).loose
  hwaits := Pipeline.hwaits_of_owed_zero (pcfgs (F := F)) a pdats () L lv 4 fun c t => by rw [hd c]; rfl
  pre c := T (Win c) c
  post c := T (Wout c) c
  X c := X4 (VV4 Win) c
  Y c := Y4 (VV4 Win) (a 4) c
  Z c := bigSep (Pipeline.restRefsP sig pre4 spec4 \ H4) fun b => ((c : Thread nD τ).loc b) ↦{fullShare} VV4 Win c b
  hentry c := by
    have hsplit := Pipeline.arrays_of_unscopedBufs (p := 4) (pcfgs (F := F)) a pdats (launch4 (F := F)).win (launch4 (F := F)).arr_whole c
      ((pdats 4 c).share_full fun _ => by rw [hd c]; rfl) (VV4 Win c) fun w => by rw [hd c]; rfl
    rw [Pipeline.unscopedBufs_held, hd c] at hsplit
    rw [hd c]
    have hU := unscopedRest4_eq (VV4 Win) c (a 4).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi4_in (VV4 Win) (a 4) c
  hout c := by rw [hd c]; exact Phi4_out (VV4 Win) (a 4) c
  hexit c := by
    have hjoin := Pipeline.unscopedBufs_of_arrays (p := 4) (pcfgs (F := F)) a (Ix := Unit) (Name := ℕ) (U := UC) (Lvl := ℕ)
      (launch4 (F := F)).win (launch4 (F := F)).arr_whole c pdats ((pdats 4 c).share_full fun _ => by rw [hd c]; rfl)
      (VV4 Win c) (VV4 Wout c) ((pdats 4 c).arrAt · (cfg4 (a 4)).N) (fun w => by rw [hd c]; exact hF c w) (hrest c)
    rw [Pipeline.unscopedBufs_held, hd c] at hjoin
    rw [hd c]
    have hU := unscopedRest4_eq (VV4 Win) c (a 4).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg5.lean ====
/-
  One of the program's 25 gather launches (pipeline 5) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G5Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV5 (W : Dev nD → Valuation τ sig (Elt F)) : (c : Dev nD) → (b : Ref sig .tc) → Buf (Elt F) ((c : Thread nD τ).loc b) := fun c b => W c b

/-- The operand the body copies from by itself, as a reference: unscoped, no window's array, no table. -/
def H5 : Finset (Ref sig .tc) := {main_arg0}
theorem H5_sub : H5 ⊆ Pipeline.restRefsP sig pre5 spec5 := by decide
/-- Its points-to, listed. -/
theorem hbmPts5_eq (V : (c : Dev nD) → (b : Ref sig .tc) → Buf (Elt F) ((c : Thread nD τ).loc b)) (c : Dev nD) :
    (bigSep H5 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest5_eq (V : (c : Dev nD) → (b : Ref sig .tc) → Buf (Elt F) ((c : Thread nD τ).loc b)) (c : Dev nD)
    (pf : pre5.Contents (Elt F)) (hpf : pf = fun k => V c (pre5.ref k)) :
    (Pipeline.unscopedRest (Ix := Unit) (Name := ℕ) (U := UC) (Lvl := ℕ) spec5 c (V c) : sProp 𝕄)
      = iprop(Pipeline.prefHeld pre5 c (fun _ => fullShare) pf
          ∗ (((c : Thread nD τ).loc main_arg0) ↦{fullShare} V c main_arg0)
          ∗ bigSep (Pipeline.restRefsP sig pre5 spec5 \ H5) fun b => ((c : Thread nD τ).loc b) ↦{fullShare} V c b) := by
  subst hpf
  rw [Pipeline.unscopedRest_split preFacts5 c (V c)]
  unfold Pipeline.unscopedRestP
  rw [BI.bigSep_sdiff_split H5_sub, hbmPts5_eq]
  rfl

-- the segment's fields are stated over the pinned configuration `pin pcfgs a 5`; meeting them with `cfg5 (a 5)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg5 (hd : ∀ c, pdats 5 c = dat5 (VV5 Win) (a 5) c)
    (hF : ∀ c w, (dat5 (VV5 Win) (a 5) c).arrAt w (cfg5 (a 5)).N = Wout c (Pipeline.arrRef spec5 w))
    (hrest : ∀ c (b : Ref sig .tc), b ∉ Finset.univ.image (Pipeline.arrRef spec5) → Wout c b = Win c b)
    (htab : ∀ c, (a 5).1 = fun k => Win c (pre5.ref k))
    (hrange : InRange5 (a 5).1) :
    Pipeline.RegionSeg (pcfgs (F := F)) a pdats () defs₀ 𝒱₀ L lv 5 where
  win := (launch5 (F := F)).win.to₀
  block_pos := (launch5 (F := F)).block_pos
  stage_whole := (launch5 (F := F)).stage_whole
  K := Fin 16
  osem := osem5
  ho := ownSemFacts5
  hbody c := by rw [hd c]; exact (body_obligation5 (VV5 Win) (a 5) hrange c).loose
  hwaits := Pipeline.hwaits_of_owed_zero (pcfgs (F := F)) a pdats () L lv 5 fun c t => by rw [hd c]; rfl
  pre c := T (Win c) c
  post c := T (Wout c) c
  X c := X5 (VV5 Win) c
  Y c := Y5 (VV5 Win) (a 5) c
  Z c := bigSep (Pipeline.restRefsP sig pre5 spec5 \ H5) fun b => ((c : Thread nD τ).loc b) ↦{fullShare} VV5 Win c b
  hentry c := by
    have hsplit := Pipeline.arrays_of_unscopedBufs (p := 5) (pcfgs (F := F)) a pdats (launch5 (F := F)).win (launch5 (F := F)).arr_whole c
      ((pdats 5 c).share_full fun _ => by rw [hd c]; rfl) (VV5 Win c) fun w => by rw [hd c]; rfl
    rw [Pipeline.unscopedBufs_held, hd c] at hsplit
    rw [hd c]
    have hU := unscopedRest5_eq (VV5 Win) c (a 5).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi5_in (VV5 Win) (a 5) c
  hout c := by rw [hd c]; exact Phi5_out (VV5 Win) (a 5) c
  hexit c := by
    have hjoin := Pipeline.unscopedBufs_of_arrays (p := 5) (pcfgs (F := F)) a (Ix := Unit) (Name := ℕ) (U := UC) (Lvl := ℕ)
      (launch5 (F := F)).win (launch5 (F := F)).arr_whole c pdats ((pdats 5 c).share_full fun _ => by rw [hd c]; rfl)
      (VV5 Win c) (VV5 Wout c) ((pdats 5 c).arrAt · (cfg5 (a 5)).N) (fun w => by rw [hd c]; exact hF c w) (hrest c)
    rw [Pipeline.unscopedBufs_held, hd c] at hjoin
    rw [hd c]
    have hU := unscopedRest5_eq (VV5 Win) c (a 5).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg6.lean ====
/-
  One of the program's 25 gather launches (pipeline 6) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G6Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV6 (W : Dev nD → Valuation τ sig (Elt F)) : (c : Dev nD) → (b : Ref sig .tc) → Buf (Elt F) ((c : Thread nD τ).loc b) := fun c b => W c b

/-- The operand the body copies from by itself, as a reference: unscoped, no window's array, no table. -/
def H6 : Finset (Ref sig .tc) := {main_arg0}
theorem H6_sub : H6 ⊆ Pipeline.restRefsP sig pre6 spec6 := by decide
/-- Its points-to, listed. -/
theorem hbmPts6_eq (V : (c : Dev nD) → (b : Ref sig .tc) → Buf (Elt F) ((c : Thread nD τ).loc b)) (c : Dev nD) :
    (bigSep H6 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest6_eq (V : (c : Dev nD) → (b : Ref sig .tc) → Buf (Elt F) ((c : Thread nD τ).loc b)) (c : Dev nD)
    (pf : pre6.Contents (Elt F)) (hpf : pf = fun k => V c (pre6.ref k)) :
    (Pipeline.unscopedRest (Ix := Unit) (Name := ℕ) (U := UC) (Lvl := ℕ) spec6 c (V c) : sProp 𝕄)
      = iprop(Pipeline.prefHeld pre6 c (fun _ => fullShare) pf
          ∗ (((c : Thread nD τ).loc main_arg0) ↦{fullShare} V c main_arg0)
          ∗ bigSep (Pipeline.restRefsP sig pre6 spec6 \ H6) fun b => ((c : Thread nD τ).loc b) ↦{fullShare} V c b) := by
  subst hpf
  rw [Pipeline.unscopedRest_split preFacts6 c (V c)]
  unfold Pipeline.unscopedRestP
  rw [BI.bigSep_sdiff_split H6_sub, hbmPts6_eq]
  rfl

-- the segment's fields are stated over the pinned configuration `pin pcfgs a 6`; meeting them with `cfg6 (a 6)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg6 (hd : ∀ c, pdats 6 c = dat6 (VV6 Win) (a 6) c)
    (hF : ∀ c w, (dat6 (VV6 Win) (a 6) c).arrAt w (cfg6 (a 6)).N = Wout c (Pipeline.arrRef spec6 w))
    (hrest : ∀ c (b : Ref sig .tc), b ∉ Finset.univ.image (Pipeline.arrRef spec6) → Wout c b = Win c b)
    (htab : ∀ c, (a 6).1 = fun k => Win c (pre6.ref k))
    (hrange : InRange6 (a 6).1) :
    Pipeline.RegionSeg (pcfgs (F := F)) a pdats () defs₀ 𝒱₀ L lv 6 where
  win := (launch6 (F := F)).win.to₀
  block_pos := (launch6 (F := F)).block_pos
  stage_whole := (launch6 (F := F)).stage_whole
  K := Fin 16
  osem := osem6
  ho := ownSemFacts6
  hbody c := by rw [hd c]; exact (body_obligation6 (VV6 Win) (a 6) hrange c).loose
  hwaits := Pipeline.hwaits_of_owed_zero (pcfgs (F := F)) a pdats () L lv 6 fun c t => by rw [hd c]; rfl
  pre c := T (Win c) c
  post c := T (Wout c) c
  X c := X6 (VV6 Win) c
  Y c := Y6 (VV6 Win) (a 6) c
  Z c := bigSep (Pipeline.restRefsP sig pre6 spec6 \ H6) fun b => ((c : Thread nD τ).loc b) ↦{fullShare} VV6 Win c b
  hentry c := by
    have hsplit := Pipeline.arrays_of_unscopedBufs (p := 6) (pcfgs (F := F)) a pdats (launch6 (F := F)).win (launch6 (F := F)).arr_whole c
      ((pdats 6 c).share_full fun _ => by rw [hd c]; rfl) (VV6 Win c) fun w => by rw [hd c]; rfl
    rw [Pipeline.unscopedBufs_held, hd c] at hsplit
    rw [hd c]
    have hU := unscopedRest6_eq (VV6 Win) c (a 6).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi6_in (VV6 Win) (a 6) c
  hout c := by rw [hd c]; exact Phi6_out (VV6 Win) (a 6) c
  hexit c := by
    have hjoin := Pipeline.unscopedBufs_of_arrays (p := 6) (pcfgs (F := F)) a (Ix := Unit) (Name := ℕ) (U := UC) (Lvl := ℕ)
      (launch6 (F := F)).win (launch6 (F := F)).arr_whole c pdats ((pdats 6 c).share_full fun _ => by rw [hd c]; rfl)
      (VV6 Win c) (VV6 Wout c) ((pdats 6 c).arrAt · (cfg6 (a 6)).N) (fun w => by rw [hd c]; exact hF c w) (hrest c)
    rw [Pipeline.unscopedBufs_held, hd c] at hjoin
    rw [hd c]
    have hU := unscopedRest6_eq (VV6 Win) c (a 6).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg7.lean ====
/-
  One of the program's 25 gather launches (pipeline 7) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G7Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV7 (W : Dev nD → Valuation τ sig (Elt F)) : (c : Dev nD) → (b : Ref sig .tc) → Buf (Elt F) ((c : Thread nD τ).loc b) := fun c b => W c b

/-- The operand the body copies from by itself, as a reference: unscoped, no window's array, no table. -/
def H7 : Finset (Ref sig .tc) := {main_arg0}
theorem H7_sub : H7 ⊆ Pipeline.restRefsP sig pre7 spec7 := by decide
/-- Its points-to, listed. -/
theorem hbmPts7_eq (V : (c : Dev nD) → (b : Ref sig .tc) → Buf (Elt F) ((c : Thread nD τ).loc b)) (c : Dev nD) :
    (bigSep H7 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest7_eq (V : (c : Dev nD) → (b : Ref sig .tc) → Buf (Elt F) ((c : Thread nD τ).loc b)) (c : Dev nD)
    (pf : pre7.Contents (Elt F)) (hpf : pf = fun k => V c (pre7.ref k)) :
    (Pipeline.unscopedRest (Ix := Unit) (Name := ℕ) (U := UC) (Lvl := ℕ) spec7 c (V c) : sProp 𝕄)
      = iprop(Pipeline.prefHeld pre7 c (fun _ => fullShare) pf
          ∗ (((c : Thread nD τ).loc main_arg0) ↦{fullShare} V c main_arg0)
          ∗ bigSep (Pipeline.restRefsP sig pre7 spec7 \ H7) fun b => ((c : Thread nD τ).loc b) ↦{fullShare} V c b) := by
  subst hpf
  rw [Pipeline.unscopedRest_split preFacts7 c (V c)]
  unfold Pipeline.unscopedRestP
  rw [BI.bigSep_sdiff_split H7_sub, hbmPts7_eq]
  rfl

-- the segment's fields are stated over the pinned configuration `pin pcfgs a 7`; meeting them with `cfg7 (a 7)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg7 (hd : ∀ c, pdats 7 c = dat7 (VV7 Win) (a 7) c)
    (hF : ∀ c w, (dat7 (VV7 Win) (a 7) c).arrAt w (cfg7 (a 7)).N = Wout c (Pipeline.arrRef spec7 w))
    (hrest : ∀ c (b : Ref sig .tc), b ∉ Finset.univ.image (Pipeline.arrRef spec7) → Wout c b = Win c b)
    (htab : ∀ c, (a 7).1 = fun k => Win c (pre7.ref k))
    (hrange : InRange7 (a 7).1) :
    Pipeline.RegionSeg (pcfgs (F := F)) a pdats () defs₀ 𝒱₀ L lv 7 where
  win := (launch7 (F := F)).win.to₀
  block_pos := (launch7 (F := F)).block_pos
  stage_whole := (launch7 (F := F)).stage_whole
  K := Fin 16
  osem := osem7
  ho := ownSemFacts7
  hbody c := by rw [hd c]; exact (body_obligation7 (VV7 Win) (a 7) hrange c).loose
  hwaits := Pipeline.hwaits_of_owed_zero (pcfgs (F := F)) a pdats () L lv 7 fun c t => by rw [hd c]; rfl
  pre c := T (Win c) c
  post c := T (Wout c) c
  X c := X7 (VV7 Win) c
  Y c := Y7 (VV7 Win) (a 7) c
  Z c := bigSep (Pipeline.restRefsP sig pre7 spec7 \ H7) fun b => ((c : Thread nD τ).loc b) ↦{fullShare} VV7 Win c b
  hentry c := by
    have hsplit := Pipeline.arrays_of_unscopedBufs (p := 7) (pcfgs (F := F)) a pdats (launch7 (F := F)).win (launch7 (F := F)).arr_whole c
      ((pdats 7 c).share_full fun _ => by rw [hd c]; rfl) (VV7 Win c) fun w => by rw [hd c]; rfl
    rw [Pipeline.unscopedBufs_held, hd c] at hsplit
    rw [hd c]
    have hU := unscopedRest7_eq (VV7 Win) c (a 7).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi7_in (VV7 Win) (a 7) c
  hout c := by rw [hd c]; exact Phi7_out (VV7 Win) (a 7) c
  hexit c := by
    have hjoin := Pipeline.unscopedBufs_of_arrays (p := 7) (pcfgs (F := F)) a (Ix := Unit) (Name := ℕ) (U := UC) (Lvl := ℕ)
      (launch7 (F := F)).win (launch7 (F := F)).arr_whole c pdats ((pdats 7 c).share_full fun _ => by rw [hd c]; rfl)
      (VV7 Win c) (VV7 Wout c) ((pdats 7 c).arrAt · (cfg7 (a 7)).N) (fun w => by rw [hd c]; exact hF c w) (hrest c)
    rw [Pipeline.unscopedBufs_held, hd c] at hjoin
    rw [hd c]
    have hU := unscopedRest7_eq (VV7 Win) c (a 7).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg8.lean ====
/-
  One of the program's 25 gather launches (pipeline 8) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G8Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV8 (W : Dev nD → Valuation τ sig (Elt F)) : (c : Dev nD) → (b : Ref sig .tc) → Buf (Elt F) ((c : Thread nD τ).loc b) := fun c b => W c b

/-- The operand the body copies from by itself, as a reference: unscoped, no window's array, no table. -/
def H8 : Finset (Ref sig .tc) := {main_arg0}
theorem H8_sub : H8 ⊆ Pipeline.restRefsP sig pre8 spec8 := by decide
/-- Its points-to, listed. -/
theorem hbmPts8_eq (V : (c : Dev nD) → (b : Ref sig .tc) → Buf (Elt F) ((c : Thread nD τ).loc b)) (c : Dev nD) :
    (bigSep H8 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest8_eq (V : (c : Dev nD) → (b : Ref sig .tc) → Buf (Elt F) ((c : Thread nD τ).loc b)) (c : Dev nD)
    (pf : pre8.Contents (Elt F)) (hpf : pf = fun k => V c (pre8.ref k)) :
    (Pipeline.unscopedRest (Ix := Unit) (Name := ℕ) (U := UC) (Lvl := ℕ) spec8 c (V c) : sProp 𝕄)
      = iprop(Pipeline.prefHeld pre8 c (fun _ => fullShare) pf
          ∗ (((c : Thread nD τ).loc main_arg0) ↦{fullShare} V c main_arg0)
          ∗ bigSep (Pipeline.restRefsP sig pre8 spec8 \ H8) fun b => ((c : Thread nD τ).loc b) ↦{fullShare} V c b) := by
  subst hpf
  rw [Pipeline.unscopedRest_split preFacts8 c (V c)]
  unfold Pipeline.unscopedRestP
  rw [BI.bigSep_sdiff_split H8_sub, hbmPts8_eq]
  rfl

-- the segment's fields are stated over the pinned configuration `pin pcfgs a 8`; meeting them with `cfg8 (a 8)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg8 (hd : ∀ c, pdats 8 c = dat8 (VV8 Win) (a 8) c)
    (hF : ∀ c w, (dat8 (VV8 Win) (a 8) c).arrAt w (cfg8 (a 8)).N = Wout c (Pipeline.arrRef spec8 w))
    (hrest : ∀ c (b : Ref sig .tc), b ∉ Finset.univ.image (Pipeline.arrRef spec8) → Wout c b = Win c b)
    (htab : ∀ c, (a 8).1 = fun k => Win c (pre8.ref k))
    (hrange : InRange8 (a 8).1) :
    Pipeline.RegionSeg (pcfgs (F := F)) a pdats () defs₀ 𝒱₀ L lv 8 where
  win := (launch8 (F := F)).win.to₀
  block_pos := (launch8 (F := F)).block_pos
  stage_whole := (launch8 (F := F)).stage_whole
  K := Fin 16
  osem := osem8
  ho := ownSemFacts8
  hbody c := by rw [hd c]; exact (body_obligation8 (VV8 Win) (a 8) hrange c).loose
  hwaits := Pipeline.hwaits_of_owed_zero (pcfgs (F := F)) a pdats () L lv 8 fun c t => by rw [hd c]; rfl
  pre c := T (Win c) c
  post c := T (Wout c) c
  X c := X8 (VV8 Win) c
  Y c := Y8 (VV8 Win) (a 8) c
  Z c := bigSep (Pipeline.restRefsP sig pre8 spec8 \ H8) fun b => ((c : Thread nD τ).loc b) ↦{fullShare} VV8 Win c b
  hentry c := by
    have hsplit := Pipeline.arrays_of_unscopedBufs (p := 8) (pcfgs (F := F)) a pdats (launch8 (F := F)).win (launch8 (F := F)).arr_whole c
      ((pdats 8 c).share_full fun _ => by rw [hd c]; rfl) (VV8 Win c) fun w => by rw [hd c]; rfl
    rw [Pipeline.unscopedBufs_held, hd c] at hsplit
    rw [hd c]
    have hU := unscopedRest8_eq (VV8 Win) c (a 8).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi8_in (VV8 Win) (a 8) c
  hout c := by rw [hd c]; exact Phi8_out (VV8 Win) (a 8) c
  hexit c := by
    have hjoin := Pipeline.unscopedBufs_of_arrays (p := 8) (pcfgs (F := F)) a (Ix := Unit) (Name := ℕ) (U := UC) (Lvl := ℕ)
      (launch8 (F := F)).win (launch8 (F := F)).arr_whole c pdats ((pdats 8 c).share_full fun _ => by rw [hd c]; rfl)
      (VV8 Win c) (VV8 Wout c) ((pdats 8 c).arrAt · (cfg8 (a 8)).N) (fun w => by rw [hd c]; exact hF c w) (hrest c)
    rw [Pipeline.unscopedBufs_held, hd c] at hjoin
    rw [hd c]
    have hU := unscopedRest8_eq (VV8 Win) c (a 8).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg9.lean ====
/-
  One of the program's 25 gather launches (pipeline 9) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G9Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV9 (W : Dev nD → Valuation τ sig (Elt F)) : (c : Dev nD) → (b : Ref sig .tc) → Buf (Elt F) ((c : Thread nD τ).loc b) := fun c b => W c b

/-- The operand the body copies from by itself, as a reference: unscoped, no window's array, no table. -/
def H9 : Finset (Ref sig .tc) := {main_arg0}
theorem H9_sub : H9 ⊆ Pipeline.restRefsP sig pre9 spec9 := by decide
/-- Its points-to, listed. -/
theorem hbmPts9_eq (V : (c : Dev nD) → (b : Ref sig .tc) → Buf (Elt F) ((c : Thread nD τ).loc b)) (c : Dev nD) :
    (bigSep H9 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest9_eq (V : (c : Dev nD) → (b : Ref sig .tc) → Buf (Elt F) ((c : Thread nD τ).loc b)) (c : Dev nD)
    (pf : pre9.Contents (Elt F)) (hpf : pf = fun k => V c (pre9.ref k)) :
    (Pipeline.unscopedRest (Ix := Unit) (Name := ℕ) (U := UC) (Lvl := ℕ) spec9 c (V c) : sProp 𝕄)
      = iprop(Pipeline.prefHeld pre9 c (fun _ => fullShare) pf
          ∗ (((c : Thread nD τ).loc main_arg0) ↦{fullShare} V c main_arg0)
          ∗ bigSep (Pipeline.restRefsP sig pre9 spec9 \ H9) fun b => ((c : Thread nD τ).loc b) ↦{fullShare} V c b) := by
  subst hpf
  rw [Pipeline.unscopedRest_split preFacts9 c (V c)]
  unfold Pipeline.unscopedRestP
  rw [BI.bigSep_sdiff_split H9_sub, hbmPts9_eq]
  rfl

-- the segment's fields are stated over the pinned configuration `pin pcfgs a 9`; meeting them with `cfg9 (a 9)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg9 (hd : ∀ c, pdats 9 c = dat9 (VV9 Win) (a 9) c)
    (hF : ∀ c w, (dat9 (VV9 Win) (a 9) c).arrAt w (cfg9 (a 9)).N = Wout c (Pipeline.arrRef spec9 w))
    (hrest : ∀ c (b : Ref sig .tc), b ∉ Finset.univ.image (Pipeline.arrRef spec9) → Wout c b = Win c b)
    (htab : ∀ c, (a 9).1 = fun k => Win c (pre9.ref k))
    (hrange : InRange9 (a 9).1) :
    Pipeline.RegionSeg (pcfgs (F := F)) a pdats () defs₀ 𝒱₀ L lv 9 where
  win := (launch9 (F := F)).win.to₀
  block_pos := (launch9 (F := F)).block_pos
  stage_whole := (launch9 (F := F)).stage_whole
  K := Fin 16
  osem := osem9
  ho := ownSemFacts9
  hbody c := by rw [hd c]; exact (body_obligation9 (VV9 Win) (a 9) hrange c).loose
  hwaits := Pipeline.hwaits_of_owed_zero (pcfgs (F := F)) a pdats () L lv 9 fun c t => by rw [hd c]; rfl
  pre c := T (Win c) c
  post c := T (Wout c) c
  X c := X9 (VV9 Win) c
  Y c := Y9 (VV9 Win) (a 9) c
  Z c := bigSep (Pipeline.restRefsP sig pre9 spec9 \ H9) fun b => ((c : Thread nD τ).loc b) ↦{fullShare} VV9 Win c b
  hentry c := by
    have hsplit := Pipeline.arrays_of_unscopedBufs (p := 9) (pcfgs (F := F)) a pdats (launch9 (F := F)).win (launch9 (F := F)).arr_whole c
      ((pdats 9 c).share_full fun _ => by rw [hd c]; rfl) (VV9 Win c) fun w => by rw [hd c]; rfl
    rw [Pipeline.unscopedBufs_held, hd c] at hsplit
    rw [hd c]
    have hU := unscopedRest9_eq (VV9 Win) c (a 9).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi9_in (VV9 Win) (a 9) c
  hout c := by rw [hd c]; exact Phi9_out (VV9 Win) (a 9) c
  hexit c := by
    have hjoin := Pipeline.unscopedBufs_of_arrays (p := 9) (pcfgs (F := F)) a (Ix := Unit) (Name := ℕ) (U := UC) (Lvl := ℕ)
      (launch9 (F := F)).win (launch9 (F := F)).arr_whole c pdats ((pdats 9 c).share_full fun _ => by rw [hd c]; rfl)
      (VV9 Win c) (VV9 Wout c) ((pdats 9 c).arrAt · (cfg9 (a 9)).N) (fun w => by rw [hd c]; exact hF c w) (hrest c)
    rw [Pipeline.unscopedBufs_held, hd c] at hjoin
    rw [hd c]
    have hU := unscopedRest9_eq (VV9 Win) c (a 9).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg10.lean ====
/-
  One of the program's 25 gather launches (pipeline 10) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G10Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV10 (W : Dev nD → Valuation τ sig (Elt F)) : (c : Dev nD) → (b : Ref sig .tc) → Buf (Elt F) ((c : Thread nD τ).loc b) := fun c b => W c b

/-- The operand the body copies from by itself, as a reference: unscoped, no window's array, no table. -/
def H10 : Finset (Ref sig .tc) := {main_arg0}
theorem H10_sub : H10 ⊆ Pipeline.restRefsP sig pre10 spec10 := by decide
/-- Its points-to, listed. -/
theorem hbmPts10_eq (V : (c : Dev nD) → (b : Ref sig .tc) → Buf (Elt F) ((c : Thread nD τ).loc b)) (c : Dev nD) :
    (bigSep H10 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest10_eq (V : (c : Dev nD) → (b : Ref sig .tc) → Buf (Elt F) ((c : Thread nD τ).loc b)) (c : Dev nD)
    (pf : pre10.Contents (Elt F)) (hpf : pf = fun k => V c (pre10.ref k)) :
    (Pipeline.unscopedRest (Ix := Unit) (Name := ℕ) (U := UC) (Lvl := ℕ) spec10 c (V c) : sProp 𝕄)
      = iprop(Pipeline.prefHeld pre10 c (fun _ => fullShare) pf
          ∗ (((c : Thread nD τ).loc main_arg0) ↦{fullShare} V c main_arg0)
          ∗ bigSep (Pipeline.restRefsP sig pre10 spec10 \ H10) fun b => ((c : Thread nD τ).loc b) ↦{fullShare} V c b) := by
  subst hpf
  rw [Pipeline.unscopedRest_split preFacts10 c (V c)]
  unfold Pipeline.unscopedRestP
  rw [BI.bigSep_sdiff_split H10_sub, hbmPts10_eq]
  rfl

-- the segment's fields are stated over the pinned configuration `pin pcfgs a 10`; meeting them with `cfg10 (a 10)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg10 (hd : ∀ c, pdats 10 c = dat10 (VV10 Win) (a 10) c)
    (hF : ∀ c w, (dat10 (VV10 Win) (a 10) c).arrAt w (cfg10 (a 10)).N = Wout c (Pipeline.arrRef spec10 w))
    (hrest : ∀ c (b : Ref sig .tc), b ∉ Finset.univ.image (Pipeline.arrRef spec10) → Wout c b = Win c b)
    (htab : ∀ c, (a 10).1 = fun k => Win c (pre10.ref k))
    (hrange : InRange10 (a 10).1) :
    Pipeline.RegionSeg (pcfgs (F := F)) a pdats () defs₀ 𝒱₀ L lv 10 where
  win := (launch10 (F := F)).win.to₀
  block_pos := (launch10 (F := F)).block_pos
  stage_whole := (launch10 (F := F)).stage_whole
  K := Fin 16
  osem := osem10
  ho := ownSemFacts10
  hbody c := by rw [hd c]; exact (body_obligation10 (VV10 Win) (a 10) hrange c).loose
  hwaits := Pipeline.hwaits_of_owed_zero (pcfgs (F := F)) a pdats () L lv 10 fun c t => by rw [hd c]; rfl
  pre c := T (Win c) c
  post c := T (Wout c) c
  X c := X10 (VV10 Win) c
  Y c := Y10 (VV10 Win) (a 10) c
  Z c := bigSep (Pipeline.restRefsP sig pre10 spec10 \ H10) fun b => ((c : Thread nD τ).loc b) ↦{fullShare} VV10 Win c b
  hentry c := by
    have hsplit := Pipeline.arrays_of_unscopedBufs (p := 10) (pcfgs (F := F)) a pdats (launch10 (F := F)).win (launch10 (F := F)).arr_whole c
      ((pdats 10 c).share_full fun _ => by rw [hd c]; rfl) (VV10 Win c) fun w => by rw [hd c]; rfl
    rw [Pipeline.unscopedBufs_held, hd c] at hsplit
    rw [hd c]
    have hU := unscopedRest10_eq (VV10 Win) c (a 10).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi10_in (VV10 Win) (a 10) c
  hout c := by rw [hd c]; exact Phi10_out (VV10 Win) (a 10) c
  hexit c := by
    have hjoin := Pipeline.unscopedBufs_of_arrays (p := 10) (pcfgs (F := F)) a (Ix := Unit) (Name := ℕ) (U := UC) (Lvl := ℕ)
      (launch10 (F := F)).win (launch10 (F := F)).arr_whole c pdats ((pdats 10 c).share_full fun _ => by rw [hd c]; rfl)
      (VV10 Win c) (VV10 Wout c) ((pdats 10 c).arrAt · (cfg10 (a 10)).N) (fun w => by rw [hd c]; exact hF c w) (hrest c)
    rw [Pipeline.unscopedBufs_held, hd c] at hjoin
    rw [hd c]
    have hU := unscopedRest10_eq (VV10 Win) c (a 10).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg11.lean ====
/-
  One of the program's 25 gather launches (pipeline 11) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G11Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV11 (W : Dev nD → Valuation τ sig (Elt F)) : (c : Dev nD) → (b : Ref sig .tc) → Buf (Elt F) ((c : Thread nD τ).loc b) := fun c b => W c b

/-- The operand the body copies from by itself, as a reference: unscoped, no window's array, no table. -/
def H11 : Finset (Ref sig .tc) := {main_arg0}
theorem H11_sub : H11 ⊆ Pipeline.restRefsP sig pre11 spec11 := by decide
/-- Its points-to, listed. -/
theorem hbmPts11_eq (V : (c : Dev nD) → (b : Ref sig .tc) → Buf (Elt F) ((c : Thread nD τ).loc b)) (c : Dev nD) :
    (bigSep H11 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest11_eq (V : (c : Dev nD) → (b : Ref sig .tc) → Buf (Elt F) ((c : Thread nD τ).loc b)) (c : Dev nD)
    (pf : pre11.Contents (Elt F)) (hpf : pf = fun k => V c (pre11.ref k)) :
    (Pipeline.unscopedRest (Ix := Unit) (Name := ℕ) (U := UC) (Lvl := ℕ) spec11 c (V c) : sProp 𝕄)
      = iprop(Pipeline.prefHeld pre11 c (fun _ => fullShare) pf
          ∗ (((c : Thread nD τ).loc main_arg0) ↦{fullShare} V c main_arg0)
          ∗ bigSep (Pipeline.restRefsP sig pre11 spec11 \ H11) fun b => ((c : Thread nD τ).loc b) ↦{fullShare} V c b) := by
  subst hpf
  rw [Pipeline.unscopedRest_split preFacts11 c (V c)]
  unfold Pipeline.unscopedRestP
  rw [BI.bigSep_sdiff_split H11_sub, hbmPts11_eq]
  rfl

-- the segment's fields are stated over the pinned configuration `pin pcfgs a 11`; meeting them with `cfg11 (a 11)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg11 (hd : ∀ c, pdats 11 c = dat11 (VV11 Win) (a 11) c)
    (hF : ∀ c w, (dat11 (VV11 Win) (a 11) c).arrAt w (cfg11 (a 11)).N = Wout c (Pipeline.arrRef spec11 w))
    (hrest : ∀ c (b : Ref sig .tc), b ∉ Finset.univ.image (Pipeline.arrRef spec11) → Wout c b = Win c b)
    (htab : ∀ c, (a 11).1 = fun k => Win c (pre11.ref k))
    (hrange : InRange11 (a 11).1) :
    Pipeline.RegionSeg (pcfgs (F := F)) a pdats () defs₀ 𝒱₀ L lv 11 where
  win := (launch11 (F := F)).win.to₀
  block_pos := (launch11 (F := F)).block_pos
  stage_whole := (launch11 (F := F)).stage_whole
  K := Fin 16
  osem := osem11
  ho := ownSemFacts11
  hbody c := by rw [hd c]; exact (body_obligation11 (VV11 Win) (a 11) hrange c).loose
  hwaits := Pipeline.hwaits_of_owed_zero (pcfgs (F := F)) a pdats () L lv 11 fun c t => by rw [hd c]; rfl
  pre c := T (Win c) c
  post c := T (Wout c) c
  X c := X11 (VV11 Win) c
  Y c := Y11 (VV11 Win) (a 11) c
  Z c := bigSep (Pipeline.restRefsP sig pre11 spec11 \ H11) fun b => ((c : Thread nD τ).loc b) ↦{fullShare} VV11 Win c b
  hentry c := by
    have hsplit := Pipeline.arrays_of_unscopedBufs (p := 11) (pcfgs (F := F)) a pdats (launch11 (F := F)).win (launch11 (F := F)).arr_whole c
      ((pdats 11 c).share_full fun _ => by rw [hd c]; rfl) (VV11 Win c) fun w => by rw [hd c]; rfl
    rw [Pipeline.unscopedBufs_held, hd c] at hsplit
    rw [hd c]
    have hU := unscopedRest11_eq (VV11 Win) c (a 11).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi11_in (VV11 Win) (a 11) c
  hout c := by rw [hd c]; exact Phi11_out (VV11 Win) (a 11) c
  hexit c := by
    have hjoin := Pipeline.unscopedBufs_of_arrays (p := 11) (pcfgs (F := F)) a (Ix := Unit) (Name := ℕ) (U := UC) (Lvl := ℕ)
      (launch11 (F := F)).win (launch11 (F := F)).arr_whole c pdats ((pdats 11 c).share_full fun _ => by rw [hd c]; rfl)
      (VV11 Win c) (VV11 Wout c) ((pdats 11 c).arrAt · (cfg11 (a 11)).N) (fun w => by rw [hd c]; exact hF c w) (hrest c)
    rw [Pipeline.unscopedBufs_held, hd c] at hjoin
    rw [hd c]
    have hU := unscopedRest11_eq (VV11 Win) c (a 11).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg12.lean ====
/-
  One of the program's 25 gather launches (pipeline 12) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G12Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV12 (W : Dev nD → Valuation τ sig (Elt F)) : (c : Dev nD) → (b : Ref sig .tc) → Buf (Elt F) ((c : Thread nD τ).loc b) := fun c b => W c b

/-- The operand the body copies from by itself, as a reference: unscoped, no window's array, no table. -/
def H12 : Finset (Ref sig .tc) := {main_arg0}
theorem H12_sub : H12 ⊆ Pipeline.restRefsP sig pre12 spec12 := by decide
/-- Its points-to, listed. -/
theorem hbmPts12_eq (V : (c : Dev nD) → (b : Ref sig .tc) → Buf (Elt F) ((c : Thread nD τ).loc b)) (c : Dev nD) :
    (bigSep H12 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest12_eq (V : (c : Dev nD) → (b : Ref sig .tc) → Buf (Elt F) ((c : Thread nD τ).loc b)) (c : Dev nD)
    (pf : pre12.Contents (Elt F)) (hpf : pf = fun k => V c (pre12.ref k)) :
    (Pipeline.unscopedRest (Ix := Unit) (Name := ℕ) (U := UC) (Lvl := ℕ) spec12 c (V c) : sProp 𝕄)
      = iprop(Pipeline.prefHeld pre12 c (fun _ => fullShare) pf
          ∗ (((c : Thread nD τ).loc main_arg0) ↦{fullShare} V c main_arg0)
          ∗ bigSep (Pipeline.restRefsP sig pre12 spec12 \ H12) fun b => ((c : Thread nD τ).loc b) ↦{fullShare} V c b) := by
  subst hpf
  rw [Pipeline.unscopedRest_split preFacts12 c (V c)]
  unfold Pipeline.unscopedRestP
  rw [BI.bigSep_sdiff_split H12_sub, hbmPts12_eq]
  rfl

-- the segment's fields are stated over the pinned configuration `pin pcfgs a 12`; meeting them with `cfg12 (a 12)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg12 (hd : ∀ c, pdats 12 c = dat12 (VV12 Win) (a 12) c)
    (hF : ∀ c w, (dat12 (VV12 Win) (a 12) c).arrAt w (cfg12 (a 12)).N = Wout c (Pipeline.arrRef spec12 w))
    (hrest : ∀ c (b : Ref sig .tc), b ∉ Finset.univ.image (Pipeline.arrRef spec12) → Wout c b = Win c b)
    (htab : ∀ c, (a 12).1 = fun k => Win c (pre12.ref k))
    (hrange : InRange12 (a 12).1) :
    Pipeline.RegionSeg (pcfgs (F := F)) a pdats () defs₀ 𝒱₀ L lv 12 where
  win := (launch12 (F := F)).win.to₀
  block_pos := (launch12 (F := F)).block_pos
  stage_whole := (launch12 (F := F)).stage_whole
  K := Fin 16
  osem := osem12
  ho := ownSemFacts12
  hbody c := by rw [hd c]; exact (body_obligation12 (VV12 Win) (a 12) hrange c).loose
  hwaits := Pipeline.hwaits_of_owed_zero (pcfgs (F := F)) a pdats () L lv 12 fun c t => by rw [hd c]; rfl
  pre c := T (Win c) c
  post c := T (Wout c) c
  X c := X12 (VV12 Win) c
  Y c := Y12 (VV12 Win) (a 12) c
  Z c := bigSep (Pipeline.restRefsP sig pre12 spec12 \ H12) fun b => ((c : Thread nD τ).loc b) ↦{fullShare} VV12 Win c b
  hentry c := by
    have hsplit := Pipeline.arrays_of_unscopedBufs (p := 12) (pcfgs (F := F)) a pdats (launch12 (F := F)).win (launch12 (F := F)).arr_whole c
      ((pdats 12 c).share_full fun _ => by rw [hd c]; rfl) (VV12 Win c) fun w => by rw [hd c]; rfl
    rw [Pipeline.unscopedBufs_held, hd c] at hsplit
    rw [hd c]
    have hU := unscopedRest12_eq (VV12 Win) c (a 12).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi12_in (VV12 Win) (a 12) c
  hout c := by rw [hd c]; exact Phi12_out (VV12 Win) (a 12) c
  hexit c := by
    have hjoin := Pipeline.unscopedBufs_of_arrays (p := 12) (pcfgs (F := F)) a (Ix := Unit) (Name := ℕ) (U := UC) (Lvl := ℕ)
      (launch12 (F := F)).win (launch12 (F := F)).arr_whole c pdats ((pdats 12 c).share_full fun _ => by rw [hd c]; rfl)
      (VV12 Win c) (VV12 Wout c) ((pdats 12 c).arrAt · (cfg12 (a 12)).N) (fun w => by rw [hd c]; exact hF c w) (hrest c)
    rw [Pipeline.unscopedBufs_held, hd c] at hjoin
    rw [hd c]
    have hU := unscopedRest12_eq (VV12 Win) c (a 12).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg13.lean ====
/-
  One of the program's 25 gather launches (pipeline 13) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G13Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV13 (W : Dev nD → Valuation τ sig (Elt F)) : (c : Dev nD) → (b : Ref sig .tc) → Buf (Elt F) ((c : Thread nD τ).loc b) := fun c b => W c b

/-- The operand the body copies from by itself, as a reference: unscoped, no window's array, no table. -/
def H13 : Finset (Ref sig .tc) := {main_arg0}
theorem H13_sub : H13 ⊆ Pipeline.restRefsP sig pre13 spec13 := by decide
/-- Its points-to, listed. -/
theorem hbmPts13_eq (V : (c : Dev nD) → (b : Ref sig .tc) → Buf (Elt F) ((c : Thread nD τ).loc b)) (c : Dev nD) :
    (bigSep H13 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest13_eq (V : (c : Dev nD) → (b : Ref sig .tc) → Buf (Elt F) ((c : Thread nD τ).loc b)) (c : Dev nD)
    (pf : pre13.Contents (Elt F)) (hpf : pf = fun k => V c (pre13.ref k)) :
    (Pipeline.unscopedRest (Ix := Unit) (Name := ℕ) (U := UC) (Lvl := ℕ) spec13 c (V c) : sProp 𝕄)
      = iprop(Pipeline.prefHeld pre13 c (fun _ => fullShare) pf
          ∗ (((c : Thread nD τ).loc main_arg0) ↦{fullShare} V c main_arg0)
          ∗ bigSep (Pipeline.restRefsP sig pre13 spec13 \ H13) fun b => ((c : Thread nD τ).loc b) ↦{fullShare} V c b) := by
  subst hpf
  rw [Pipeline.unscopedRest_split preFacts13 c (V c)]
  unfold Pipeline.unscopedRestP
  rw [BI.bigSep_sdiff_split H13_sub, hbmPts13_eq]
  rfl

-- the segment's fields are stated over the pinned configuration `pin pcfgs a 13`; meeting them with `cfg13 (a 13)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg13 (hd : ∀ c, pdats 13 c = dat13 (VV13 Win) (a 13) c)
    (hF : ∀ c w, (dat13 (VV13 Win) (a 13) c).arrAt w (cfg13 (a 13)).N = Wout c (Pipeline.arrRef spec13 w))
    (hrest : ∀ c (b : Ref sig .tc), b ∉ Finset.univ.image (Pipeline.arrRef spec13) → Wout c b = Win c b)
    (htab : ∀ c, (a 13).1 = fun k => Win c (pre13.ref k))
    (hrange : InRange13 (a 13).1) :
    Pipeline.RegionSeg (pcfgs (F := F)) a pdats () defs₀ 𝒱₀ L lv 13 where
  win := (launch13 (F := F)).win.to₀
  block_pos := (launch13 (F := F)).block_pos
  stage_whole := (launch13 (F := F)).stage_whole
  K := Fin 16
  osem := osem13
  ho := ownSemFacts13
  hbody c := by rw [hd c]; exact (body_obligation13 (VV13 Win) (a 13) hrange c).loose
  hwaits := Pipeline.hwaits_of_owed_zero (pcfgs (F := F)) a pdats () L lv 13 fun c t => by rw [hd c]; rfl
  pre c := T (Win c) c
  post c := T (Wout c) c
  X c := X13 (VV13 Win) c
  Y c := Y13 (VV13 Win) (a 13) c
  Z c := bigSep (Pipeline.restRefsP sig pre13 spec13 \ H13) fun b => ((c : Thread nD τ).loc b) ↦{fullShare} VV13 Win c b
  hentry c := by
    have hsplit := Pipeline.arrays_of_unscopedBufs (p := 13) (pcfgs (F := F)) a pdats (launch13 (F := F)).win (launch13 (F := F)).arr_whole c
      ((pdats 13 c).share_full fun _ => by rw [hd c]; rfl) (VV13 Win c) fun w => by rw [hd c]; rfl
    rw [Pipeline.unscopedBufs_held, hd c] at hsplit
    rw [hd c]
    have hU := unscopedRest13_eq (VV13 Win) c (a 13).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi13_in (VV13 Win) (a 13) c
  hout c := by rw [hd c]; exact Phi13_out (VV13 Win) (a 13) c
  hexit c := by
    have hjoin := Pipeline.unscopedBufs_of_arrays (p := 13) (pcfgs (F := F)) a (Ix := Unit) (Name := ℕ) (U := UC) (Lvl := ℕ)
      (launch13 (F := F)).win (launch13 (F := F)).arr_whole c pdats ((pdats 13 c).share_full fun _ => by rw [hd c]; rfl)
      (VV13 Win c) (VV13 Wout c) ((pdats 13 c).arrAt · (cfg13 (a 13)).N) (fun w => by rw [hd c]; exact hF c w) (hrest c)
    rw [Pipeline.unscopedBufs_held, hd c] at hjoin
    rw [hd c]
    have hU := unscopedRest13_eq (VV13 Win) c (a 13).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg14.lean ====
/-
  One of the program's 25 gather launches (pipeline 14) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G14Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV14 (W : Dev nD → Valuation τ sig (Elt F)) : (c : Dev nD) → (b : Ref sig .tc) → Buf (Elt F) ((c : Thread nD τ).loc b) := fun c b => W c b

/-- The operand the body copies from by itself, as a reference: unscoped, no window's array, no table. -/
def H14 : Finset (Ref sig .tc) := {main_arg0}
theorem H14_sub : H14 ⊆ Pipeline.restRefsP sig pre14 spec14 := by decide
/-- Its points-to, listed. -/
theorem hbmPts14_eq (V : (c : Dev nD) → (b : Ref sig .tc) → Buf (Elt F) ((c : Thread nD τ).loc b)) (c : Dev nD) :
    (bigSep H14 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest14_eq (V : (c : Dev nD) → (b : Ref sig .tc) → Buf (Elt F) ((c : Thread nD τ).loc b)) (c : Dev nD)
    (pf : pre14.Contents (Elt F)) (hpf : pf = fun k => V c (pre14.ref k)) :
    (Pipeline.unscopedRest (Ix := Unit) (Name := ℕ) (U := UC) (Lvl := ℕ) spec14 c (V c) : sProp 𝕄)
      = iprop(Pipeline.prefHeld pre14 c (fun _ => fullShare) pf
          ∗ (((c : Thread nD τ).loc main_arg0) ↦{fullShare} V c main_arg0)
          ∗ bigSep (Pipeline.restRefsP sig pre14 spec14 \ H14) fun b => ((c : Thread nD τ).loc b) ↦{fullShare} V c b) := by
  subst hpf
  rw [Pipeline.unscopedRest_split preFacts14 c (V c)]
  unfold Pipeline.unscopedRestP
  rw [BI.bigSep_sdiff_split H14_sub, hbmPts14_eq]
  rfl

-- the segment's fields are stated over the pinned configuration `pin pcfgs a 14`; meeting them with `cfg14 (a 14)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg14 (hd : ∀ c, pdats 14 c = dat14 (VV14 Win) (a 14) c)
    (hF : ∀ c w, (dat14 (VV14 Win) (a 14) c).arrAt w (cfg14 (a 14)).N = Wout c (Pipeline.arrRef spec14 w))
    (hrest : ∀ c (b : Ref sig .tc), b ∉ Finset.univ.image (Pipeline.arrRef spec14) → Wout c b = Win c b)
    (htab : ∀ c, (a 14).1 = fun k => Win c (pre14.ref k))
    (hrange : InRange14 (a 14).1) :
    Pipeline.RegionSeg (pcfgs (F := F)) a pdats () defs₀ 𝒱₀ L lv 14 where
  win := (launch14 (F := F)).win.to₀
  block_pos := (launch14 (F := F)).block_pos
  stage_whole := (launch14 (F := F)).stage_whole
  K := Fin 16
  osem := osem14
  ho := ownSemFacts14
  hbody c := by rw [hd c]; exact (body_obligation14 (VV14 Win) (a 14) hrange c).loose
  hwaits := Pipeline.hwaits_of_owed_zero (pcfgs (F := F)) a pdats () L lv 14 fun c t => by rw [hd c]; rfl
  pre c := T (Win c) c
  post c := T (Wout c) c
  X c := X14 (VV14 Win) c
  Y c := Y14 (VV14 Win) (a 14) c
  Z c := bigSep (Pipeline.restRefsP sig pre14 spec14 \ H14) fun b => ((c : Thread nD τ).loc b) ↦{fullShare} VV14 Win c b
  hentry c := by
    have hsplit := Pipeline.arrays_of_unscopedBufs (p := 14) (pcfgs (F := F)) a pdats (launch14 (F := F)).win (launch14 (F := F)).arr_whole c
      ((pdats 14 c).share_full fun _ => by rw [hd c]; rfl) (VV14 Win c) fun w => by rw [hd c]; rfl
    rw [Pipeline.unscopedBufs_held, hd c] at hsplit
    rw [hd c]
    have hU := unscopedRest14_eq (VV14 Win) c (a 14).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi14_in (VV14 Win) (a 14) c
  hout c := by rw [hd c]; exact Phi14_out (VV14 Win) (a 14) c
  hexit c := by
    have hjoin := Pipeline.unscopedBufs_of_arrays (p := 14) (pcfgs (F := F)) a (Ix := Unit) (Name := ℕ) (U := UC) (Lvl := ℕ)
      (launch14 (F := F)).win (launch14 (F := F)).arr_whole c pdats ((pdats 14 c).share_full fun _ => by rw [hd c]; rfl)
      (VV14 Win c) (VV14 Wout c) ((pdats 14 c).arrAt · (cfg14 (a 14)).N) (fun w => by rw [hd c]; exact hF c w) (hrest c)
    rw [Pipeline.unscopedBufs_held, hd c] at hjoin
    rw [hd c]
    have hU := unscopedRest14_eq (VV14 Win) c (a 14).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg15.lean ====
/-
  One of the program's 25 gather launches (pipeline 15) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G15Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV15 (W : Dev nD → Valuation τ sig (Elt F)) : (c : Dev nD) → (b : Ref sig .tc) → Buf (Elt F) ((c : Thread nD τ).loc b) := fun c b => W c b

/-- The operand the body copies from by itself, as a reference: unscoped, no window's array, no table. -/
def H15 : Finset (Ref sig .tc) := {main_arg0}
theorem H15_sub : H15 ⊆ Pipeline.restRefsP sig pre15 spec15 := by decide
/-- Its points-to, listed. -/
theorem hbmPts15_eq (V : (c : Dev nD) → (b : Ref sig .tc) → Buf (Elt F) ((c : Thread nD τ).loc b)) (c : Dev nD) :
    (bigSep H15 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest15_eq (V : (c : Dev nD) → (b : Ref sig .tc) → Buf (Elt F) ((c : Thread nD τ).loc b)) (c : Dev nD)
    (pf : pre15.Contents (Elt F)) (hpf : pf = fun k => V c (pre15.ref k)) :
    (Pipeline.unscopedRest (Ix := Unit) (Name := ℕ) (U := UC) (Lvl := ℕ) spec15 c (V c) : sProp 𝕄)
      = iprop(Pipeline.prefHeld pre15 c (fun _ => fullShare) pf
          ∗ (((c : Thread nD τ).loc main_arg0) ↦{fullShare} V c main_arg0)
          ∗ bigSep (Pipeline.restRefsP sig pre15 spec15 \ H15) fun b => ((c : Thread nD τ).loc b) ↦{fullShare} V c b) := by
  subst hpf
  rw [Pipeline.unscopedRest_split preFacts15 c (V c)]
  unfold Pipeline.unscopedRestP
  rw [BI.bigSep_sdiff_split H15_sub, hbmPts15_eq]
  rfl

-- the segment's fields are stated over the pinned configuration `pin pcfgs a 15`; meeting them with `cfg15 (a 15)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg15 (hd : ∀ c, pdats 15 c = dat15 (VV15 Win) (a 15) c)
    (hF : ∀ c w, (dat15 (VV15 Win) (a 15) c).arrAt w (cfg15 (a 15)).N = Wout c (Pipeline.arrRef spec15 w))
    (hrest : ∀ c (b : Ref sig .tc), b ∉ Finset.univ.image (Pipeline.arrRef spec15) → Wout c b = Win c b)
    (htab : ∀ c, (a 15).1 = fun k => Win c (pre15.ref k))
    (hrange : InRange15 (a 15).1) :
    Pipeline.RegionSeg (pcfgs (F := F)) a pdats () defs₀ 𝒱₀ L lv 15 where
  win := (launch15 (F := F)).win.to₀
  block_pos := (launch15 (F := F)).block_pos
  stage_whole := (launch15 (F := F)).stage_whole
  K := Fin 16
  osem := osem15
  ho := ownSemFacts15
  hbody c := by rw [hd c]; exact (body_obligation15 (VV15 Win) (a 15) hrange c).loose
  hwaits := Pipeline.hwaits_of_owed_zero (pcfgs (F := F)) a pdats () L lv 15 fun c t => by rw [hd c]; rfl
  pre c := T (Win c) c
  post c := T (Wout c) c
  X c := X15 (VV15 Win) c
  Y c := Y15 (VV15 Win) (a 15) c
  Z c := bigSep (Pipeline.restRefsP sig pre15 spec15 \ H15) fun b => ((c : Thread nD τ).loc b) ↦{fullShare} VV15 Win c b
  hentry c := by
    have hsplit := Pipeline.arrays_of_unscopedBufs (p := 15) (pcfgs (F := F)) a pdats (launch15 (F := F)).win (launch15 (F := F)).arr_whole c
      ((pdats 15 c).share_full fun _ => by rw [hd c]; rfl) (VV15 Win c) fun w => by rw [hd c]; rfl
    rw [Pipeline.unscopedBufs_held, hd c] at hsplit
    rw [hd c]
    have hU := unscopedRest15_eq (VV15 Win) c (a 15).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi15_in (VV15 Win) (a 15) c
  hout c := by rw [hd c]; exact Phi15_out (VV15 Win) (a 15) c
  hexit c := by
    have hjoin := Pipeline.unscopedBufs_of_arrays (p := 15) (pcfgs (F := F)) a (Ix := Unit) (Name := ℕ) (U := UC) (Lvl := ℕ)
      (launch15 (F := F)).win (launch15 (F := F)).arr_whole c pdats ((pdats 15 c).share_full fun _ => by rw [hd c]; rfl)
      (VV15 Win c) (VV15 Wout c) ((pdats 15 c).arrAt · (cfg15 (a 15)).N) (fun w => by rw [hd c]; exact hF c w) (hrest c)
    rw [Pipeline.unscopedBufs_held, hd c] at hjoin
    rw [hd c]
    have hU := unscopedRest15_eq (VV15 Win) c (a 15).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg16.lean ====
/-
  One of the program's 25 gather launches (pipeline 16) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G16Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV16 (W : Dev nD → Valuation τ sig (Elt F)) : (c : Dev nD) → (b : Ref sig .tc) → Buf (Elt F) ((c : Thread nD τ).loc b) := fun c b => W c b

/-- The operand the body copies from by itself, as a reference: unscoped, no window's array, no table. -/
def H16 : Finset (Ref sig .tc) := {main_arg0}
theorem H16_sub : H16 ⊆ Pipeline.restRefsP sig pre16 spec16 := by decide
/-- Its points-to, listed. -/
theorem hbmPts16_eq (V : (c : Dev nD) → (b : Ref sig .tc) → Buf (Elt F) ((c : Thread nD τ).loc b)) (c : Dev nD) :
    (bigSep H16 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest16_eq (V : (c : Dev nD) → (b : Ref sig .tc) → Buf (Elt F) ((c : Thread nD τ).loc b)) (c : Dev nD)
    (pf : pre16.Contents (Elt F)) (hpf : pf = fun k => V c (pre16.ref k)) :
    (Pipeline.unscopedRest (Ix := Unit) (Name := ℕ) (U := UC) (Lvl := ℕ) spec16 c (V c) : sProp 𝕄)
      = iprop(Pipeline.prefHeld pre16 c (fun _ => fullShare) pf
          ∗ (((c : Thread nD τ).loc main_arg0) ↦{fullShare} V c main_arg0)
          ∗ bigSep (Pipeline.restRefsP sig pre16 spec16 \ H16) fun b => ((c : Thread nD τ).loc b) ↦{fullShare} V c b) := by
  subst hpf
  rw [Pipeline.unscopedRest_split preFacts16 c (V c)]
  unfold Pipeline.unscopedRestP
  rw [BI.bigSep_sdiff_split H16_sub, hbmPts16_eq]
  rfl

-- the segment's fields are stated over the pinned configuration `pin pcfgs a 16`; meeting them with `cfg16 (a 16)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg16 (hd : ∀ c, pdats 16 c = dat16 (VV16 Win) (a 16) c)
    (hF : ∀ c w, (dat16 (VV16 Win) (a 16) c).arrAt w (cfg16 (a 16)).N = Wout c (Pipeline.arrRef spec16 w))
    (hrest : ∀ c (b : Ref sig .tc), b ∉ Finset.univ.image (Pipeline.arrRef spec16) → Wout c b = Win c b)
    (htab : ∀ c, (a 16).1 = fun k => Win c (pre16.ref k))
    (hrange : InRange16 (a 16).1) :
    Pipeline.RegionSeg (pcfgs (F := F)) a pdats () defs₀ 𝒱₀ L lv 16 where
  win := (launch16 (F := F)).win.to₀
  block_pos := (launch16 (F := F)).block_pos
  stage_whole := (launch16 (F := F)).stage_whole
  K := Fin 16
  osem := osem16
  ho := ownSemFacts16
  hbody c := by rw [hd c]; exact (body_obligation16 (VV16 Win) (a 16) hrange c).loose
  hwaits := Pipeline.hwaits_of_owed_zero (pcfgs (F := F)) a pdats () L lv 16 fun c t => by rw [hd c]; rfl
  pre c := T (Win c) c
  post c := T (Wout c) c
  X c := X16 (VV16 Win) c
  Y c := Y16 (VV16 Win) (a 16) c
  Z c := bigSep (Pipeline.restRefsP sig pre16 spec16 \ H16) fun b => ((c : Thread nD τ).loc b) ↦{fullShare} VV16 Win c b
  hentry c := by
    have hsplit := Pipeline.arrays_of_unscopedBufs (p := 16) (pcfgs (F := F)) a pdats (launch16 (F := F)).win (launch16 (F := F)).arr_whole c
      ((pdats 16 c).share_full fun _ => by rw [hd c]; rfl) (VV16 Win c) fun w => by rw [hd c]; rfl
    rw [Pipeline.unscopedBufs_held, hd c] at hsplit
    rw [hd c]
    have hU := unscopedRest16_eq (VV16 Win) c (a 16).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi16_in (VV16 Win) (a 16) c
  hout c := by rw [hd c]; exact Phi16_out (VV16 Win) (a 16) c
  hexit c := by
    have hjoin := Pipeline.unscopedBufs_of_arrays (p := 16) (pcfgs (F := F)) a (Ix := Unit) (Name := ℕ) (U := UC) (Lvl := ℕ)
      (launch16 (F := F)).win (launch16 (F := F)).arr_whole c pdats ((pdats 16 c).share_full fun _ => by rw [hd c]; rfl)
      (VV16 Win c) (VV16 Wout c) ((pdats 16 c).arrAt · (cfg16 (a 16)).N) (fun w => by rw [hd c]; exact hF c w) (hrest c)
    rw [Pipeline.unscopedBufs_held, hd c] at hjoin
    rw [hd c]
    have hU := unscopedRest16_eq (VV16 Win) c (a 16).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg17.lean ====
/-
  One of the program's 25 gather launches (pipeline 17) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G17Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV17 (W : Dev nD → Valuation τ sig (Elt F)) : (c : Dev nD) → (b : Ref sig .tc) → Buf (Elt F) ((c : Thread nD τ).loc b) := fun c b => W c b

/-- The operand the body copies from by itself, as a reference: unscoped, no window's array, no table. -/
def H17 : Finset (Ref sig .tc) := {main_arg0}
theorem H17_sub : H17 ⊆ Pipeline.restRefsP sig pre17 spec17 := by decide
/-- Its points-to, listed. -/
theorem hbmPts17_eq (V : (c : Dev nD) → (b : Ref sig .tc) → Buf (Elt F) ((c : Thread nD τ).loc b)) (c : Dev nD) :
    (bigSep H17 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest17_eq (V : (c : Dev nD) → (b : Ref sig .tc) → Buf (Elt F) ((c : Thread nD τ).loc b)) (c : Dev nD)
    (pf : pre17.Contents (Elt F)) (hpf : pf = fun k => V c (pre17.ref k)) :
    (Pipeline.unscopedRest (Ix := Unit) (Name := ℕ) (U := UC) (Lvl := ℕ) spec17 c (V c) : sProp 𝕄)
      = iprop(Pipeline.prefHeld pre17 c (fun _ => fullShare) pf
          ∗ (((c : Thread nD τ).loc main_arg0) ↦{fullShare} V c main_arg0)
          ∗ bigSep (Pipeline.restRefsP sig pre17 spec17 \ H17) fun b => ((c : Thread nD τ).loc b) ↦{fullShare} V c b) := by
  subst hpf
  rw [Pipeline.unscopedRest_split preFacts17 c (V c)]
  unfold Pipeline.unscopedRestP
  rw [BI.bigSep_sdiff_split H17_sub, hbmPts17_eq]
  rfl

-- the segment's fields are stated over the pinned configuration `pin pcfgs a 17`; meeting them with `cfg17 (a 17)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg17 (hd : ∀ c, pdats 17 c = dat17 (VV17 Win) (a 17) c)
    (hF : ∀ c w, (dat17 (VV17 Win) (a 17) c).arrAt w (cfg17 (a 17)).N = Wout c (Pipeline.arrRef spec17 w))
    (hrest : ∀ c (b : Ref sig .tc), b ∉ Finset.univ.image (Pipeline.arrRef spec17) → Wout c b = Win c b)
    (htab : ∀ c, (a 17).1 = fun k => Win c (pre17.ref k))
    (hrange : InRange17 (a 17).1) :
    Pipeline.RegionSeg (pcfgs (F := F)) a pdats () defs₀ 𝒱₀ L lv 17 where
  win := (launch17 (F := F)).win.to₀
  block_pos := (launch17 (F := F)).block_pos
  stage_whole := (launch17 (F := F)).stage_whole
  K := Fin 16
  osem := osem17
  ho := ownSemFacts17
  hbody c := by rw [hd c]; exact (body_obligation17 (VV17 Win) (a 17) hrange c).loose
  hwaits := Pipeline.hwaits_of_owed_zero (pcfgs (F := F)) a pdats () L lv 17 fun c t => by rw [hd c]; rfl
  pre c := T (Win c) c
  post c := T (Wout c) c
  X c := X17 (VV17 Win) c
  Y c := Y17 (VV17 Win) (a 17) c
  Z c := bigSep (Pipeline.restRefsP sig pre17 spec17 \ H17) fun b => ((c : Thread nD τ).loc b) ↦{fullShare} VV17 Win c b
  hentry c := by
    have hsplit := Pipeline.arrays_of_unscopedBufs (p := 17) (pcfgs (F := F)) a pdats (launch17 (F := F)).win (launch17 (F := F)).arr_whole c
      ((pdats 17 c).share_full fun _ => by rw [hd c]; rfl) (VV17 Win c) fun w => by rw [hd c]; rfl
    rw [Pipeline.unscopedBufs_held, hd c] at hsplit
    rw [hd c]
    have hU := unscopedRest17_eq (VV17 Win) c (a 17).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi17_in (VV17 Win) (a 17) c
  hout c := by rw [hd c]; exact Phi17_out (VV17 Win) (a 17) c
  hexit c := by
    have hjoin := Pipeline.unscopedBufs_of_arrays (p := 17) (pcfgs (F := F)) a (Ix := Unit) (Name := ℕ) (U := UC) (Lvl := ℕ)
      (launch17 (F := F)).win (launch17 (F := F)).arr_whole c pdats ((pdats 17 c).share_full fun _ => by rw [hd c]; rfl)
      (VV17 Win c) (VV17 Wout c) ((pdats 17 c).arrAt · (cfg17 (a 17)).N) (fun w => by rw [hd c]; exact hF c w) (hrest c)
    rw [Pipeline.unscopedBufs_held, hd c] at hjoin
    rw [hd c]
    have hU := unscopedRest17_eq (VV17 Win) c (a 17).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg18.lean ====
/-
  One of the program's 25 gather launches (pipeline 18) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G18Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV18 (W : Dev nD → Valuation τ sig (Elt F)) : (c : Dev nD) → (b : Ref sig .tc) → Buf (Elt F) ((c : Thread nD τ).loc b) := fun c b => W c b

/-- The operand the body copies from by itself, as a reference: unscoped, no window's array, no table. -/
def H18 : Finset (Ref sig .tc) := {main_arg0}
theorem H18_sub : H18 ⊆ Pipeline.restRefsP sig pre18 spec18 := by decide
/-- Its points-to, listed. -/
theorem hbmPts18_eq (V : (c : Dev nD) → (b : Ref sig .tc) → Buf (Elt F) ((c : Thread nD τ).loc b)) (c : Dev nD) :
    (bigSep H18 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest18_eq (V : (c : Dev nD) → (b : Ref sig .tc) → Buf (Elt F) ((c : Thread nD τ).loc b)) (c : Dev nD)
    (pf : pre18.Contents (Elt F)) (hpf : pf = fun k => V c (pre18.ref k)) :
    (Pipeline.unscopedRest (Ix := Unit) (Name := ℕ) (U := UC) (Lvl := ℕ) spec18 c (V c) : sProp 𝕄)
      = iprop(Pipeline.prefHeld pre18 c (fun _ => fullShare) pf
          ∗ (((c : Thread nD τ).loc main_arg0) ↦{fullShare} V c main_arg0)
          ∗ bigSep (Pipeline.restRefsP sig pre18 spec18 \ H18) fun b => ((c : Thread nD τ).loc b) ↦{fullShare} V c b) := by
  subst hpf
  rw [Pipeline.unscopedRest_split preFacts18 c (V c)]
  unfold Pipeline.unscopedRestP
  rw [BI.bigSep_sdiff_split H18_sub, hbmPts18_eq]
  rfl

-- the segment's fields are stated over the pinned configuration `pin pcfgs a 18`; meeting them with `cfg18 (a 18)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg18 (hd : ∀ c, pdats 18 c = dat18 (VV18 Win) (a 18) c)
    (hF : ∀ c w, (dat18 (VV18 Win) (a 18) c).arrAt w (cfg18 (a 18)).N = Wout c (Pipeline.arrRef spec18 w))
    (hrest : ∀ c (b : Ref sig .tc), b ∉ Finset.univ.image (Pipeline.arrRef spec18) → Wout c b = Win c b)
    (htab : ∀ c, (a 18).1 = fun k => Win c (pre18.ref k))
    (hrange : InRange18 (a 18).1) :
    Pipeline.RegionSeg (pcfgs (F := F)) a pdats () defs₀ 𝒱₀ L lv 18 where
  win := (launch18 (F := F)).win.to₀
  block_pos := (launch18 (F := F)).block_pos
  stage_whole := (launch18 (F := F)).stage_whole
  K := Fin 16
  osem := osem18
  ho := ownSemFacts18
  hbody c := by rw [hd c]; exact (body_obligation18 (VV18 Win) (a 18) hrange c).loose
  hwaits := Pipeline.hwaits_of_owed_zero (pcfgs (F := F)) a pdats () L lv 18 fun c t => by rw [hd c]; rfl
  pre c := T (Win c) c
  post c := T (Wout c) c
  X c := X18 (VV18 Win) c
  Y c := Y18 (VV18 Win) (a 18) c
  Z c := bigSep (Pipeline.restRefsP sig pre18 spec18 \ H18) fun b => ((c : Thread nD τ).loc b) ↦{fullShare} VV18 Win c b
  hentry c := by
    have hsplit := Pipeline.arrays_of_unscopedBufs (p := 18) (pcfgs (F := F)) a pdats (launch18 (F := F)).win (launch18 (F := F)).arr_whole c
      ((pdats 18 c).share_full fun _ => by rw [hd c]; rfl) (VV18 Win c) fun w => by rw [hd c]; rfl
    rw [Pipeline.unscopedBufs_held, hd c] at hsplit
    rw [hd c]
    have hU := unscopedRest18_eq (VV18 Win) c (a 18).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi18_in (VV18 Win) (a 18) c
  hout c := by rw [hd c]; exact Phi18_out (VV18 Win) (a 18) c
  hexit c := by
    have hjoin := Pipeline.unscopedBufs_of_arrays (p := 18) (pcfgs (F := F)) a (Ix := Unit) (Name := ℕ) (U := UC) (Lvl := ℕ)
      (launch18 (F := F)).win (launch18 (F := F)).arr_whole c pdats ((pdats 18 c).share_full fun _ => by rw [hd c]; rfl)
      (VV18 Win c) (VV18 Wout c) ((pdats 18 c).arrAt · (cfg18 (a 18)).N) (fun w => by rw [hd c]; exact hF c w) (hrest c)
    rw [Pipeline.unscopedBufs_held, hd c] at hjoin
    rw [hd c]
    have hU := unscopedRest18_eq (VV18 Win) c (a 18).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg19.lean ====
/-
  One of the program's 25 gather launches (pipeline 19) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G19Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV19 (W : Dev nD → Valuation τ sig (Elt F)) : (c : Dev nD) → (b : Ref sig .tc) → Buf (Elt F) ((c : Thread nD τ).loc b) := fun c b => W c b

/-- The operand the body copies from by itself, as a reference: unscoped, no window's array, no table. -/
def H19 : Finset (Ref sig .tc) := {main_arg0}
theorem H19_sub : H19 ⊆ Pipeline.restRefsP sig pre19 spec19 := by decide
/-- Its points-to, listed. -/
theorem hbmPts19_eq (V : (c : Dev nD) → (b : Ref sig .tc) → Buf (Elt F) ((c : Thread nD τ).loc b)) (c : Dev nD) :
    (bigSep H19 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest19_eq (V : (c : Dev nD) → (b : Ref sig .tc) → Buf (Elt F) ((c : Thread nD τ).loc b)) (c : Dev nD)
    (pf : pre19.Contents (Elt F)) (hpf : pf = fun k => V c (pre19.ref k)) :
    (Pipeline.unscopedRest (Ix := Unit) (Name := ℕ) (U := UC) (Lvl := ℕ) spec19 c (V c) : sProp 𝕄)
      = iprop(Pipeline.prefHeld pre19 c (fun _ => fullShare) pf
          ∗ (((c : Thread nD τ).loc main_arg0) ↦{fullShare} V c main_arg0)
          ∗ bigSep (Pipeline.restRefsP sig pre19 spec19 \ H19) fun b => ((c : Thread nD τ).loc b) ↦{fullShare} V c b) := by
  subst hpf
  rw [Pipeline.unscopedRest_split preFacts19 c (V c)]
  unfold Pipeline.unscopedRestP
  rw [BI.bigSep_sdiff_split H19_sub, hbmPts19_eq]
  rfl

-- the segment's fields are stated over the pinned configuration `pin pcfgs a 19`; meeting them with `cfg19 (a 19)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg19 (hd : ∀ c, pdats 19 c = dat19 (VV19 Win) (a 19) c)
    (hF : ∀ c w, (dat19 (VV19 Win) (a 19) c).arrAt w (cfg19 (a 19)).N = Wout c (Pipeline.arrRef spec19 w))
    (hrest : ∀ c (b : Ref sig .tc), b ∉ Finset.univ.image (Pipeline.arrRef spec19) → Wout c b = Win c b)
    (htab : ∀ c, (a 19).1 = fun k => Win c (pre19.ref k))
    (hrange : InRange19 (a 19).1) :
    Pipeline.RegionSeg (pcfgs (F := F)) a pdats () defs₀ 𝒱₀ L lv 19 where
  win := (launch19 (F := F)).win.to₀
  block_pos := (launch19 (F := F)).block_pos
  stage_whole := (launch19 (F := F)).stage_whole
  K := Fin 16
  osem := osem19
  ho := ownSemFacts19
  hbody c := by rw [hd c]; exact (body_obligation19 (VV19 Win) (a 19) hrange c).loose
  hwaits := Pipeline.hwaits_of_owed_zero (pcfgs (F := F)) a pdats () L lv 19 fun c t => by rw [hd c]; rfl
  pre c := T (Win c) c
  post c := T (Wout c) c
  X c := X19 (VV19 Win) c
  Y c := Y19 (VV19 Win) (a 19) c
  Z c := bigSep (Pipeline.restRefsP sig pre19 spec19 \ H19) fun b => ((c : Thread nD τ).loc b) ↦{fullShare} VV19 Win c b
  hentry c := by
    have hsplit := Pipeline.arrays_of_unscopedBufs (p := 19) (pcfgs (F := F)) a pdats (launch19 (F := F)).win (launch19 (F := F)).arr_whole c
      ((pdats 19 c).share_full fun _ => by rw [hd c]; rfl) (VV19 Win c) fun w => by rw [hd c]; rfl
    rw [Pipeline.unscopedBufs_held, hd c] at hsplit
    rw [hd c]
    have hU := unscopedRest19_eq (VV19 Win) c (a 19).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi19_in (VV19 Win) (a 19) c
  hout c := by rw [hd c]; exact Phi19_out (VV19 Win) (a 19) c
  hexit c := by
    have hjoin := Pipeline.unscopedBufs_of_arrays (p := 19) (pcfgs (F := F)) a (Ix := Unit) (Name := ℕ) (U := UC) (Lvl := ℕ)
      (launch19 (F := F)).win (launch19 (F := F)).arr_whole c pdats ((pdats 19 c).share_full fun _ => by rw [hd c]; rfl)
      (VV19 Win c) (VV19 Wout c) ((pdats 19 c).arrAt · (cfg19 (a 19)).N) (fun w => by rw [hd c]; exact hF c w) (hrest c)
    rw [Pipeline.unscopedBufs_held, hd c] at hjoin
    rw [hd c]
    have hU := unscopedRest19_eq (VV19 Win) c (a 19).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg20.lean ====
/-
  One of the program's 25 gather launches (pipeline 20) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G20Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV20 (W : Dev nD → Valuation τ sig (Elt F)) : (c : Dev nD) → (b : Ref sig .tc) → Buf (Elt F) ((c : Thread nD τ).loc b) := fun c b => W c b

/-- The operand the body copies from by itself, as a reference: unscoped, no window's array, no table. -/
def H20 : Finset (Ref sig .tc) := {main_arg0}
theorem H20_sub : H20 ⊆ Pipeline.restRefsP sig pre20 spec20 := by decide
/-- Its points-to, listed. -/
theorem hbmPts20_eq (V : (c : Dev nD) → (b : Ref sig .tc) → Buf (Elt F) ((c : Thread nD τ).loc b)) (c : Dev nD) :
    (bigSep H20 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest20_eq (V : (c : Dev nD) → (b : Ref sig .tc) → Buf (Elt F) ((c : Thread nD τ).loc b)) (c : Dev nD)
    (pf : pre20.Contents (Elt F)) (hpf : pf = fun k => V c (pre20.ref k)) :
    (Pipeline.unscopedRest (Ix := Unit) (Name := ℕ) (U := UC) (Lvl := ℕ) spec20 c (V c) : sProp 𝕄)
      = iprop(Pipeline.prefHeld pre20 c (fun _ => fullShare) pf
          ∗ (((c : Thread nD τ).loc main_arg0) ↦{fullShare} V c main_arg0)
          ∗ bigSep (Pipeline.restRefsP sig pre20 spec20 \ H20) fun b => ((c : Thread nD τ).loc b) ↦{fullShare} V c b) := by
  subst hpf
  rw [Pipeline.unscopedRest_split preFacts20 c (V c)]
  unfold Pipeline.unscopedRestP
  rw [BI.bigSep_sdiff_split H20_sub, hbmPts20_eq]
  rfl

-- the segment's fields are stated over the pinned configuration `pin pcfgs a 20`; meeting them with `cfg20 (a 20)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg20 (hd : ∀ c, pdats 20 c = dat20 (VV20 Win) (a 20) c)
    (hF : ∀ c w, (dat20 (VV20 Win) (a 20) c).arrAt w (cfg20 (a 20)).N = Wout c (Pipeline.arrRef spec20 w))
    (hrest : ∀ c (b : Ref sig .tc), b ∉ Finset.univ.image (Pipeline.arrRef spec20) → Wout c b = Win c b)
    (htab : ∀ c, (a 20).1 = fun k => Win c (pre20.ref k))
    (hrange : InRange20 (a 20).1) :
    Pipeline.RegionSeg (pcfgs (F := F)) a pdats () defs₀ 𝒱₀ L lv 20 where
  win := (launch20 (F := F)).win.to₀
  block_pos := (launch20 (F := F)).block_pos
  stage_whole := (launch20 (F := F)).stage_whole
  K := Fin 16
  osem := osem20
  ho := ownSemFacts20
  hbody c := by rw [hd c]; exact (body_obligation20 (VV20 Win) (a 20) hrange c).loose
  hwaits := Pipeline.hwaits_of_owed_zero (pcfgs (F := F)) a pdats () L lv 20 fun c t => by rw [hd c]; rfl
  pre c := T (Win c) c
  post c := T (Wout c) c
  X c := X20 (VV20 Win) c
  Y c := Y20 (VV20 Win) (a 20) c
  Z c := bigSep (Pipeline.restRefsP sig pre20 spec20 \ H20) fun b => ((c : Thread nD τ).loc b) ↦{fullShare} VV20 Win c b
  hentry c := by
    have hsplit := Pipeline.arrays_of_unscopedBufs (p := 20) (pcfgs (F := F)) a pdats (launch20 (F := F)).win (launch20 (F := F)).arr_whole c
      ((pdats 20 c).share_full fun _ => by rw [hd c]; rfl) (VV20 Win c) fun w => by rw [hd c]; rfl
    rw [Pipeline.unscopedBufs_held, hd c] at hsplit
    rw [hd c]
    have hU := unscopedRest20_eq (VV20 Win) c (a 20).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi20_in (VV20 Win) (a 20) c
  hout c := by rw [hd c]; exact Phi20_out (VV20 Win) (a 20) c
  hexit c := by
    have hjoin := Pipeline.unscopedBufs_of_arrays (p := 20) (pcfgs (F := F)) a (Ix := Unit) (Name := ℕ) (U := UC) (Lvl := ℕ)
      (launch20 (F := F)).win (launch20 (F := F)).arr_whole c pdats ((pdats 20 c).share_full fun _ => by rw [hd c]; rfl)
      (VV20 Win c) (VV20 Wout c) ((pdats 20 c).arrAt · (cfg20 (a 20)).N) (fun w => by rw [hd c]; exact hF c w) (hrest c)
    rw [Pipeline.unscopedBufs_held, hd c] at hjoin
    rw [hd c]
    have hU := unscopedRest20_eq (VV20 Win) c (a 20).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg21.lean ====
/-
  One of the program's 25 gather launches (pipeline 21) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G21Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV21 (W : Dev nD → Valuation τ sig (Elt F)) : (c : Dev nD) → (b : Ref sig .tc) → Buf (Elt F) ((c : Thread nD τ).loc b) := fun c b => W c b

/-- The operand the body copies from by itself, as a reference: unscoped, no window's array, no table. -/
def H21 : Finset (Ref sig .tc) := {main_arg0}
theorem H21_sub : H21 ⊆ Pipeline.restRefsP sig pre21 spec21 := by decide
/-- Its points-to, listed. -/
theorem hbmPts21_eq (V : (c : Dev nD) → (b : Ref sig .tc) → Buf (Elt F) ((c : Thread nD τ).loc b)) (c : Dev nD) :
    (bigSep H21 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest21_eq (V : (c : Dev nD) → (b : Ref sig .tc) → Buf (Elt F) ((c : Thread nD τ).loc b)) (c : Dev nD)
    (pf : pre21.Contents (Elt F)) (hpf : pf = fun k => V c (pre21.ref k)) :
    (Pipeline.unscopedRest (Ix := Unit) (Name := ℕ) (U := UC) (Lvl := ℕ) spec21 c (V c) : sProp 𝕄)
      = iprop(Pipeline.prefHeld pre21 c (fun _ => fullShare) pf
          ∗ (((c : Thread nD τ).loc main_arg0) ↦{fullShare} V c main_arg0)
          ∗ bigSep (Pipeline.restRefsP sig pre21 spec21 \ H21) fun b => ((c : Thread nD τ).loc b) ↦{fullShare} V c b) := by
  subst hpf
  rw [Pipeline.unscopedRest_split preFacts21 c (V c)]
  unfold Pipeline.unscopedRestP
  rw [BI.bigSep_sdiff_split H21_sub, hbmPts21_eq]
  rfl

-- the segment's fields are stated over the pinned configuration `pin pcfgs a 21`; meeting them with `cfg21 (a 21)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg21 (hd : ∀ c, pdats 21 c = dat21 (VV21 Win) (a 21) c)
    (hF : ∀ c w, (dat21 (VV21 Win) (a 21) c).arrAt w (cfg21 (a 21)).N = Wout c (Pipeline.arrRef spec21 w))
    (hrest : ∀ c (b : Ref sig .tc), b ∉ Finset.univ.image (Pipeline.arrRef spec21) → Wout c b = Win c b)
    (htab : ∀ c, (a 21).1 = fun k => Win c (pre21.ref k))
    (hrange : InRange21 (a 21).1) :
    Pipeline.RegionSeg (pcfgs (F := F)) a pdats () defs₀ 𝒱₀ L lv 21 where
  win := (launch21 (F := F)).win.to₀
  block_pos := (launch21 (F := F)).block_pos
  stage_whole := (launch21 (F := F)).stage_whole
  K := Fin 16
  osem := osem21
  ho := ownSemFacts21
  hbody c := by rw [hd c]; exact (body_obligation21 (VV21 Win) (a 21) hrange c).loose
  hwaits := Pipeline.hwaits_of_owed_zero (pcfgs (F := F)) a pdats () L lv 21 fun c t => by rw [hd c]; rfl
  pre c := T (Win c) c
  post c := T (Wout c) c
  X c := X21 (VV21 Win) c
  Y c := Y21 (VV21 Win) (a 21) c
  Z c := bigSep (Pipeline.restRefsP sig pre21 spec21 \ H21) fun b => ((c : Thread nD τ).loc b) ↦{fullShare} VV21 Win c b
  hentry c := by
    have hsplit := Pipeline.arrays_of_unscopedBufs (p := 21) (pcfgs (F := F)) a pdats (launch21 (F := F)).win (launch21 (F := F)).arr_whole c
      ((pdats 21 c).share_full fun _ => by rw [hd c]; rfl) (VV21 Win c) fun w => by rw [hd c]; rfl
    rw [Pipeline.unscopedBufs_held, hd c] at hsplit
    rw [hd c]
    have hU := unscopedRest21_eq (VV21 Win) c (a 21).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi21_in (VV21 Win) (a 21) c
  hout c := by rw [hd c]; exact Phi21_out (VV21 Win) (a 21) c
  hexit c := by
    have hjoin := Pipeline.unscopedBufs_of_arrays (p := 21) (pcfgs (F := F)) a (Ix := Unit) (Name := ℕ) (U := UC) (Lvl := ℕ)
      (launch21 (F := F)).win (launch21 (F := F)).arr_whole c pdats ((pdats 21 c).share_full fun _ => by rw [hd c]; rfl)
      (VV21 Win c) (VV21 Wout c) ((pdats 21 c).arrAt · (cfg21 (a 21)).N) (fun w => by rw [hd c]; exact hF c w) (hrest c)
    rw [Pipeline.unscopedBufs_held, hd c] at hjoin
    rw [hd c]
    have hU := unscopedRest21_eq (VV21 Win) c (a 21).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg22.lean ====
/-
  One of the program's 25 gather launches (pipeline 22) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G22Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV22 (W : Dev nD → Valuation τ sig (Elt F)) : (c : Dev nD) → (b : Ref sig .tc) → Buf (Elt F) ((c : Thread nD τ).loc b) := fun c b => W c b

/-- The operand the body copies from by itself, as a reference: unscoped, no window's array, no table. -/
def H22 : Finset (Ref sig .tc) := {main_arg0}
theorem H22_sub : H22 ⊆ Pipeline.restRefsP sig pre22 spec22 := by decide
/-- Its points-to, listed. -/
theorem hbmPts22_eq (V : (c : Dev nD) → (b : Ref sig .tc) → Buf (Elt F) ((c : Thread nD τ).loc b)) (c : Dev nD) :
    (bigSep H22 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest22_eq (V : (c : Dev nD) → (b : Ref sig .tc) → Buf (Elt F) ((c : Thread nD τ).loc b)) (c : Dev nD)
    (pf : pre22.Contents (Elt F)) (hpf : pf = fun k => V c (pre22.ref k)) :
    (Pipeline.unscopedRest (Ix := Unit) (Name := ℕ) (U := UC) (Lvl := ℕ) spec22 c (V c) : sProp 𝕄)
      = iprop(Pipeline.prefHeld pre22 c (fun _ => fullShare) pf
          ∗ (((c : Thread nD τ).loc main_arg0) ↦{fullShare} V c main_arg0)
          ∗ bigSep (Pipeline.restRefsP sig pre22 spec22 \ H22) fun b => ((c : Thread nD τ).loc b) ↦{fullShare} V c b) := by
  subst hpf
  rw [Pipeline.unscopedRest_split preFacts22 c (V c)]
  unfold Pipeline.unscopedRestP
  rw [BI.bigSep_sdiff_split H22_sub, hbmPts22_eq]
  rfl

-- the segment's fields are stated over the pinned configuration `pin pcfgs a 22`; meeting them with `cfg22 (a 22)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg22 (hd : ∀ c, pdats 22 c = dat22 (VV22 Win) (a 22) c)
    (hF : ∀ c w, (dat22 (VV22 Win) (a 22) c).arrAt w (cfg22 (a 22)).N = Wout c (Pipeline.arrRef spec22 w))
    (hrest : ∀ c (b : Ref sig .tc), b ∉ Finset.univ.image (Pipeline.arrRef spec22) → Wout c b = Win c b)
    (htab : ∀ c, (a 22).1 = fun k => Win c (pre22.ref k))
    (hrange : InRange22 (a 22).1) :
    Pipeline.RegionSeg (pcfgs (F := F)) a pdats () defs₀ 𝒱₀ L lv 22 where
  win := (launch22 (F := F)).win.to₀
  block_pos := (launch22 (F := F)).block_pos
  stage_whole := (launch22 (F := F)).stage_whole
  K := Fin 16
  osem := osem22
  ho := ownSemFacts22
  hbody c := by rw [hd c]; exact (body_obligation22 (VV22 Win) (a 22) hrange c).loose
  hwaits := Pipeline.hwaits_of_owed_zero (pcfgs (F := F)) a pdats () L lv 22 fun c t => by rw [hd c]; rfl
  pre c := T (Win c) c
  post c := T (Wout c) c
  X c := X22 (VV22 Win) c
  Y c := Y22 (VV22 Win) (a 22) c
  Z c := bigSep (Pipeline.restRefsP sig pre22 spec22 \ H22) fun b => ((c : Thread nD τ).loc b) ↦{fullShare} VV22 Win c b
  hentry c := by
    have hsplit := Pipeline.arrays_of_unscopedBufs (p := 22) (pcfgs (F := F)) a pdats (launch22 (F := F)).win (launch22 (F := F)).arr_whole c
      ((pdats 22 c).share_full fun _ => by rw [hd c]; rfl) (VV22 Win c) fun w => by rw [hd c]; rfl
    rw [Pipeline.unscopedBufs_held, hd c] at hsplit
    rw [hd c]
    have hU := unscopedRest22_eq (VV22 Win) c (a 22).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi22_in (VV22 Win) (a 22) c
  hout c := by rw [hd c]; exact Phi22_out (VV22 Win) (a 22) c
  hexit c := by
    have hjoin := Pipeline.unscopedBufs_of_arrays (p := 22) (pcfgs (F := F)) a (Ix := Unit) (Name := ℕ) (U := UC) (Lvl := ℕ)
      (launch22 (F := F)).win (launch22 (F := F)).arr_whole c pdats ((pdats 22 c).share_full fun _ => by rw [hd c]; rfl)
      (VV22 Win c) (VV22 Wout c) ((pdats 22 c).arrAt · (cfg22 (a 22)).N) (fun w => by rw [hd c]; exact hF c w) (hrest c)
    rw [Pipeline.unscopedBufs_held, hd c] at hjoin
    rw [hd c]
    have hU := unscopedRest22_eq (VV22 Win) c (a 22).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg23.lean ====
/-
  One of the program's 25 gather launches (pipeline 23) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G23Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV23 (W : Dev nD → Valuation τ sig (Elt F)) : (c : Dev nD) → (b : Ref sig .tc) → Buf (Elt F) ((c : Thread nD τ).loc b) := fun c b => W c b

/-- The operand the body copies from by itself, as a reference: unscoped, no window's array, no table. -/
def H23 : Finset (Ref sig .tc) := {main_arg0}
theorem H23_sub : H23 ⊆ Pipeline.restRefsP sig pre23 spec23 := by decide
/-- Its points-to, listed. -/
theorem hbmPts23_eq (V : (c : Dev nD) → (b : Ref sig .tc) → Buf (Elt F) ((c : Thread nD τ).loc b)) (c : Dev nD) :
    (bigSep H23 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest23_eq (V : (c : Dev nD) → (b : Ref sig .tc) → Buf (Elt F) ((c : Thread nD τ).loc b)) (c : Dev nD)
    (pf : pre23.Contents (Elt F)) (hpf : pf = fun k => V c (pre23.ref k)) :
    (Pipeline.unscopedRest (Ix := Unit) (Name := ℕ) (U := UC) (Lvl := ℕ) spec23 c (V c) : sProp 𝕄)
      = iprop(Pipeline.prefHeld pre23 c (fun _ => fullShare) pf
          ∗ (((c : Thread nD τ).loc main_arg0) ↦{fullShare} V c main_arg0)
          ∗ bigSep (Pipeline.restRefsP sig pre23 spec23 \ H23) fun b => ((c : Thread nD τ).loc b) ↦{fullShare} V c b) := by
  subst hpf
  rw [Pipeline.unscopedRest_split preFacts23 c (V c)]
  unfold Pipeline.unscopedRestP
  rw [BI.bigSep_sdiff_split H23_sub, hbmPts23_eq]
  rfl

-- the segment's fields are stated over the pinned configuration `pin pcfgs a 23`; meeting them with `cfg23 (a 23)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg23 (hd : ∀ c, pdats 23 c = dat23 (VV23 Win) (a 23) c)
    (hF : ∀ c w, (dat23 (VV23 Win) (a 23) c).arrAt w (cfg23 (a 23)).N = Wout c (Pipeline.arrRef spec23 w))
    (hrest : ∀ c (b : Ref sig .tc), b ∉ Finset.univ.image (Pipeline.arrRef spec23) → Wout c b = Win c b)
    (htab : ∀ c, (a 23).1 = fun k => Win c (pre23.ref k))
    (hrange : InRange23 (a 23).1) :
    Pipeline.RegionSeg (pcfgs (F := F)) a pdats () defs₀ 𝒱₀ L lv 23 where
  win := (launch23 (F := F)).win.to₀
  block_pos := (launch23 (F := F)).block_pos
  stage_whole := (launch23 (F := F)).stage_whole
  K := Fin 16
  osem := osem23
  ho := ownSemFacts23
  hbody c := by rw [hd c]; exact (body_obligation23 (VV23 Win) (a 23) hrange c).loose
  hwaits := Pipeline.hwaits_of_owed_zero (pcfgs (F := F)) a pdats () L lv 23 fun c t => by rw [hd c]; rfl
  pre c := T (Win c) c
  post c := T (Wout c) c
  X c := X23 (VV23 Win) c
  Y c := Y23 (VV23 Win) (a 23) c
  Z c := bigSep (Pipeline.restRefsP sig pre23 spec23 \ H23) fun b => ((c : Thread nD τ).loc b) ↦{fullShare} VV23 Win c b
  hentry c := by
    have hsplit := Pipeline.arrays_of_unscopedBufs (p := 23) (pcfgs (F := F)) a pdats (launch23 (F := F)).win (launch23 (F := F)).arr_whole c
      ((pdats 23 c).share_full fun _ => by rw [hd c]; rfl) (VV23 Win c) fun w => by rw [hd c]; rfl
    rw [Pipeline.unscopedBufs_held, hd c] at hsplit
    rw [hd c]
    have hU := unscopedRest23_eq (VV23 Win) c (a 23).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi23_in (VV23 Win) (a 23) c
  hout c := by rw [hd c]; exact Phi23_out (VV23 Win) (a 23) c
  hexit c := by
    have hjoin := Pipeline.unscopedBufs_of_arrays (p := 23) (pcfgs (F := F)) a (Ix := Unit) (Name := ℕ) (U := UC) (Lvl := ℕ)
      (launch23 (F := F)).win (launch23 (F := F)).arr_whole c pdats ((pdats 23 c).share_full fun _ => by rw [hd c]; rfl)
      (VV23 Win c) (VV23 Wout c) ((pdats 23 c).arrAt · (cfg23 (a 23)).N) (fun w => by rw [hd c]; exact hF c w) (hrest c)
    rw [Pipeline.unscopedBufs_held, hd c] at hjoin
    rw [hd c]
    have hU := unscopedRest23_eq (VV23 Win) c (a 23).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg24.lean ====
/-
  One of the program's 25 gather launches (pipeline 24) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KI.G24Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV24 (W : Dev nD → Valuation τ sig (Elt F)) : (c : Dev nD) → (b : Ref sig .tc) → Buf (Elt F) ((c : Thread nD τ).loc b) := fun c b => W c b

/-- The operand the body copies from by itself, as a reference: unscoped, no window's array, no table. -/
def H24 : Finset (Ref sig .tc) := {main_arg0}
theorem H24_sub : H24 ⊆ Pipeline.restRefsP sig pre24 spec24 := by decide
/-- Its points-to, listed. -/
theorem hbmPts24_eq (V : (c : Dev nD) → (b : Ref sig .tc) → Buf (Elt F) ((c : Thread nD τ).loc b)) (c : Dev nD) :
    (bigSep H24 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest24_eq (V : (c : Dev nD) → (b : Ref sig .tc) → Buf (Elt F) ((c : Thread nD τ).loc b)) (c : Dev nD)
    (pf : pre24.Contents (Elt F)) (hpf : pf = fun k => V c (pre24.ref k)) :
    (Pipeline.unscopedRest (Ix := Unit) (Name := ℕ) (U := UC) (Lvl := ℕ) spec24 c (V c) : sProp 𝕄)
      = iprop(Pipeline.prefHeld pre24 c (fun _ => fullShare) pf
          ∗ (((c : Thread nD τ).loc main_arg0) ↦{fullShare} V c main_arg0)
          ∗ bigSep (Pipeline.restRefsP sig pre24 spec24 \ H24) fun b => ((c : Thread nD τ).loc b) ↦{fullShare} V c b) := by
  subst hpf
  rw [Pipeline.unscopedRest_split preFacts24 c (V c)]
  unfold Pipeline.unscopedRestP
  rw [BI.bigSep_sdiff_split H24_sub, hbmPts24_eq]
  rfl

-- the segment's fields are stated over the pinned configuration `pin pcfgs a 24`; meeting them with `cfg24 (a 24)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg24 (hd : ∀ c, pdats 24 c = dat24 (VV24 Win) (a 24) c)
    (hF : ∀ c w, (dat24 (VV24 Win) (a 24) c).arrAt w (cfg24 (a 24)).N = Wout c (Pipeline.arrRef spec24 w))
    (hrest : ∀ c (b : Ref sig .tc), b ∉ Finset.univ.image (Pipeline.arrRef spec24) → Wout c b = Win c b)
    (htab : ∀ c, (a 24).1 = fun k => Win c (pre24.ref k))
    (hrange : InRange24 (a 24).1) :
    Pipeline.RegionSeg (pcfgs (F := F)) a pdats () defs₀ 𝒱₀ L lv 24 where
  win := (launch24 (F := F)).win.to₀
  block_pos := (launch24 (F := F)).block_pos
  stage_whole := (launch24 (F := F)).stage_whole
  K := Fin 16
  osem := osem24
  ho := ownSemFacts24
  hbody c := by rw [hd c]; exact (body_obligation24 (VV24 Win) (a 24) hrange c).loose
  hwaits := Pipeline.hwaits_of_owed_zero (pcfgs (F := F)) a pdats () L lv 24 fun c t => by rw [hd c]; rfl
  pre c := T (Win c) c
  post c := T (Wout c) c
  X c := X24 (VV24 Win) c
  Y c := Y24 (VV24 Win) (a 24) c
  Z c := bigSep (Pipeline.restRefsP sig pre24 spec24 \ H24) fun b => ((c : Thread nD τ).loc b) ↦{fullShare} VV24 Win c b
  hentry c := by
    have hsplit := Pipeline.arrays_of_unscopedBufs (p := 24) (pcfgs (F := F)) a pdats (launch24 (F := F)).win (launch24 (F := F)).arr_whole c
      ((pdats 24 c).share_full fun _ => by rw [hd c]; rfl) (VV24 Win c) fun w => by rw [hd c]; rfl
    rw [Pipeline.unscopedBufs_held, hd c] at hsplit
    rw [hd c]
    have hU := unscopedRest24_eq (VV24 Win) c (a 24).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi24_in (VV24 Win) (a 24) c
  hout c := by rw [hd c]; exact Phi24_out (VV24 Win) (a 24) c
  hexit c := by
    have hjoin := Pipeline.unscopedBufs_of_arrays (p := 24) (pcfgs (F := F)) a (Ix := Unit) (Name := ℕ) (U := UC) (Lvl := ℕ)
      (launch24 (F := F)).win (launch24 (F := F)).arr_whole c pdats ((pdats 24 c).share_full fun _ => by rw [hd c]; rfl)
      (VV24 Win c) (VV24 Wout c) ((pdats 24 c).arrAt · (cfg24 (a 24)).N) (fun w => by rw [hd c]; exact hF c w) (hrest c)
    rw [Pipeline.unscopedBufs_held, hd c] at hjoin
    rw [hd c]
    have hU := unscopedRest24_eq (VV24 Win) c (a 24).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.KernelIdeal.Hand

end
-- ==== Proof.KI.Seg25.lean ====
/-
  The statistics pipeline (the program's twenty-sixth pallas_call) as a region of @main between two thread states, at any
  float instance: entered from every unscoped buffer of the core at contents `Win` beside the generator register and the
  core owing nothing, left at contents `Wout` beside the same. The region's protocol is proved once, as named entailments
  about the pipeline's proof data `dat25` at the entry contents — the core's owing nothing carried into and out of the
  pipeline's bound, no table to hold, the activations and the statistics array taken out of the unscoped buffers and put
  back at the exit contents — and the record is assembled from them. The contents on either side, the tables of the other
  pipelines and the proof-data family are parameters: the family is tied to `dat25` by a hypothesis its definition
  discharges by reflexivity, the exit contents by the two facts that define them (the statistics array at what the
  pipeline leaves, every other buffer as entered).
-/
import proofs.«403631_j48275432407145_1_alg».proof.Proof.KI.G25Dat
import Idealize.ShloMosaic.Lib.Pipeline.RegionsLoop
import Idealize.ShloMosaic.Lib.Pipeline.FrameSuffix

-- membership in a rectangle of the row blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Region

variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- The entry contents read at the TensorCore's references (what the proof data take). -/
abbrev Vin25 : (c : Dev nD) → (b : Ref sig .tc) → Buf (Elt F) ((c : Thread nD τ).loc b) := fun c b => Win c b
/-- The exit contents read at the TensorCore's references. -/
abbrev Vout25 : (c : Dev nD) → (b : Ref sig .tc) → Buf (Elt F) ((c : Thread nD τ).loc b) := fun c b => Wout c b

/-! ## The core owes nothing, before, through and after the region -/

/-- A core owing nothing, whatever pairs its waits recorded, owes nothing within the statistics pipeline's bound at any
    point: the proof data owe nothing and bound nothing. -/
theorem owesAt25_of_owes (c : Dev nD) (t : Fin (cfg25.N + 1)) :
    (iprop(∃ W, owes (c : Thread nD τ) (0 : CellTallies nD τ sig Unit) W) : sProp 𝕄) ⊢ (dat25 (Vin25 Win) c).owesAt () t := by
  iintro ⟨%W, H⟩
  iexists W
  isplitr
  · ipureintro; exact fun _ _ => Or.inl trivial
  · iexact H

/-- and back: the bound is forgotten. -/
theorem owes_of_owesAt25 (c : Dev nD) (t : Fin (cfg25.N + 1)) :
    (dat25 (Vin25 Win) c).owesAt () t ⊢ (iprop(∃ W, owes (c : Thread nD τ) (0 : CellTallies nD τ sig Unit) W) : sProp 𝕄) := by
  iintro ⟨%W, -, H⟩
  iexists W
  iexact H

/-! ## The two arrays out of the unscoped buffers, and back -/

variable {a pdats Win Wout}

/-- The pipeline prefetches no table: nothing is held of any. -/
theorem noTables25 (c : Dev nD) :
    (BI.emp : sProp 𝕄) ⊢ Pipeline.prefHeld (Ix := Unit) (Name := ℕ) (U := UC) (Lvl := ℕ) (pcfgs (F := F) 25).pre c (fun _ => fullShare) (a 25).1 := by
  unfold Pipeline.prefHeld
  rw [show (Finset.univ : Finset (Fin 0)) = ∅ from rfl, BI.bigSep_empty]

/-- ENTRY, the buffers: the activations and the statistics array are two distinct whole unscoped buffers, held at the full
    share; so the unscoped buffers at the entry contents are those two arrays at the proof data's entry contents beside
    every other unscoped buffer as it was. -/
theorem split25 (hd : ∀ c, pdats 25 c = dat25 (Vin25 Win) c) (c : Dev nD) :
    (StableHlo.held (c : Thread nD τ) (Pipeline.ucRefs τ sig) (Win c) : sProp 𝕄)
      ⊢ iprop((pdats 25 c).arrays ((pdats 25 c).arrAt · 0)
          ∗ Pipeline.unscopedRest (Ix := Unit) (Name := ℕ) (U := UC) (Lvl := ℕ) spec25 c (Vin25 Win c)) := by
  have h := Pipeline.arrays_of_unscopedBufs (p := 25) (pcfgs (F := F)) a pdats (launch25 (F := F)).win (launch25 (F := F)).arr_whole c
    (fun w => by rw [hd c]; exact (dat25 (Vin25 Win) c).share_full (fun _ => rfl) w) (Vin25 Win c)
    (fun w => by rw [hd c]; exact A_eq25 (Vin25 Win) c w)
  rwa [Pipeline.unscopedBufs_held] at h

/-- EXIT, the buffers: the two arrays at what the pipeline leaves — the exit contents' (`hF`) — beside every other
    unscoped buffer as it was — the exit contents' again (`hrest`) — are the unscoped buffers at the exit contents. -/
theorem join25 (hd : ∀ c, pdats 25 c = dat25 (Vin25 Win) c)
    (hF : ∀ c (w : Fin cfg25.W), (dat25 (Vin25 Win) c).arrAt w cfg25.N = Vout25 Wout c (Pipeline.arrRef spec25 w))
    (hrest : ∀ c b, b ∉ Finset.univ.image (Pipeline.arrRef spec25) → Vout25 Wout c b = Vin25 Win c b) (c : Dev nD) :
    iprop((pdats 25 c).arrays ((pdats 25 c).arrAt · cfg25.N)
        ∗ Pipeline.unscopedRest (Ix := Unit) (Name := ℕ) (U := UC) (Lvl := ℕ) spec25 c (Vin25 Win c))
      ⊢ (StableHlo.held (c : Thread nD τ) (Pipeline.ucRefs τ sig) (Wout c) : sProp 𝕄) := by
  have h := Pipeline.unscopedBufs_of_arrays (p := 25) (pcfgs (F := F)) a (Ix := Unit) (Name := ℕ) (U := UC) (Lvl := ℕ)
    (launch25 (F := F)).win (launch25 (F := F)).arr_whole c pdats (fun w => by rw [hd c]; exact (dat25 (Vin25 Win) c).share_full (fun _ => rfl) w)
    (Vin25 Win c) (Vout25 Wout c) ((pdats 25 c).arrAt · cfg25.N) (fun w => by rw [hd c]; exact hF c w) (hrest c)
  rwa [Pipeline.unscopedBufs_held] at h

/-! ## The region -/

variable (a pdats Win Wout)

-- a library lemma stated over the pinned configuration unifies with the printed one only when unification may unfold
-- plain definitions in a metavariable's type
set_option backward.isDefEq.respectTransparency.types false in
/-- THE STATISTICS REGION over the thread state: entered from every unscoped buffer at `Win`, left at `Wout` — contents
    that hold the statistics array at what the pipeline leaves (`hF`) and every other buffer as entered (`hrest`). The
    generator register goes into the invariant and comes back; the core owes nothing throughout; the kernel has no
    semaphore of its own and no table. -/
def reg25 (hd : ∀ c, pdats 25 c = dat25 (Vin25 Win) c)
    (hF : ∀ c (w : Fin cfg25.W), (dat25 (Vin25 Win) c).arrAt w cfg25.N = Vout25 Wout c (Pipeline.arrRef spec25 w))
    (hrest : ∀ c b, b ∉ Finset.univ.image (Pipeline.arrRef spec25) → Vout25 Wout c b = Vin25 Win c b) :
    Pipeline.RegionSeg (pcfgs (F := F)) a pdats () defs₀ 𝒱₀ L lv 25 where
  win := (launch25 (F := F)).win.to₀
  block_pos := (launch25 (F := F)).block_pos
  stage_whole := (launch25 (F := F)).stage_whole
  K := PEmpty
  osem k := k.elim
  ho := Pipeline.OwnSemFacts.none _
  hbody c := by rw [hd c]; exact (body_obligation25 (Vin25 Win) c).loose
  hwaits := Pipeline.hwaits_of_owed_zero _ _ _ _ L lv 25 fun c _ => by rw [hd c]; rfl
  pre c := T (Win c) c
  post c := T (Wout c) c
  X c := iprop(∃ r, prngReg c r)
  Y c := iprop(∃ r, prngReg c r)
  Z c := Pipeline.unscopedRest (Ix := Unit) (Name := ℕ) (U := UC) (Lvl := ℕ) spec25 c (Vin25 Win c)
  hentry c := by
    rw [Pipeline.ownSems0_none]
    have hsplit := split25 hd c
    iintro ⟨⟨Hbufs, Hreg, Howes⟩, -, -⟩
    ihave Hsplit := hsplit $$ Hbufs
    icases Hsplit with ⟨Harr, Hrest⟩
    imodintro
    isplitl [Harr]; · iexact Harr
    isplitr; · iapply (noTables25 c); iempintro
    isplitl [Howes]
    · rw [hd c]; iapply (owesAt25_of_owes Win c 0); iexact Howes
    isplitl [Hreg]; · iexact Hreg
    iexact Hrest
  hin c := by
    rw [hd c]
    show iprop(_ ∗ _ ∗ _) ⊢ Pipeline.ΦA spec25 c
    unfold Pipeline.ΦA
    iintro ⟨Hreg, -, Hscoped⟩
    isplitl [Hscoped]; · iexact Hscoped
    iexact Hreg
  hout c := by
    rw [Pipeline.ownSems0_none, hd c]
    show Pipeline.ΦA spec25 c ⊢ _
    unfold Pipeline.ΦA
    iintro ⟨Hscoped, Hreg⟩
    isplitl [Hreg]; · iexact Hreg
    isplitr; · iempintro
    iexact Hscoped
  hexit c := by
    iintro ⟨Harr, Howes, Hreg, Hrest⟩
    imodintro
    isplitl [Harr Hrest]
    · iapply (join25 hd hF hrest c); isplitl [Harr]; · iexact Harr
      iexact Hrest
    isplitl [Hreg]; · iexact Hreg
    rw [hd c]
    iapply (owes_of_owesAt25 Win c (Fin.last cfg25.N)); iexact Howes

end Region

end Cert.KernelIdeal.Hand

end
-- ==== Proof.KI.Seg26.lean ====
/-
  The normalisation launch (the last pallas_call of @main) as a SEGMENT of @main's run, between the thread state
  "every unscoped buffer at the contents `Win`, the generator register at some state, nothing owed" and the same
  at the contents `Wout`.
  Stated over the run's data as VARIABLES — the tables' contents `adm`, the proof-data family `pdats`, the two
  valuations — under three hypotheses that the run's own definitions meet by unfolding: the family's member at this
  launch is `dat26` at `Win`; `Wout` has the launch's four arrays at what the ten write-backs leave; and `Wout`
  agrees with `Win` on every other buffer.
  Entry: the four arrays are split out of the unscoped buffers; there is no prefetched table; the generator register
  enters the invariant; the remaining unscoped buffers bypass the launch. Exit: the arrays at their final contents
  and the bypassed buffers make the unscoped buffers at `Wout`; the register comes back; nothing is owed at either
  end, and the kernel has no semaphore of its own.
-/
import proofs.«403631_j48275432407145_1_alg».proof.Proof.KI.G26Dat
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- A valuation of every buffer, read at the TensorCore's references. -/
abbrev Vof (W : Dev nD → Valuation τ sig (Elt F)) : (c : Dev nD) → (b : Ref sig .tc) → Buf (Elt F) ((c : Thread nD τ).loc b) :=
  fun c b => W c b

variable (adm : (p : Fin 27) → (pcfgs (F := F) p).Adm)
variable (pdats : (p : Fin 27) → (c : Dev nD) → Dat τ (Elt F) Unit ℕ UC ℕ (Pipeline.pin (pcfgs (F := F)) adm p) c)
variable (Win Wout : Dev nD → Valuation τ sig (Elt F))

set_option backward.isDefEq.respectTransparency.types false in
/-- The normalisation launch over the thread state: entered with every unscoped buffer at `Win`, left with them at
    `Wout`, which has the launch's four arrays at what the write-backs leave and agrees with `Win` elsewhere.
    The arrays are split out of the unscoped buffers at entry and put back at exit; the generator register goes
    into the invariant and comes back; nothing is owed; the kernel has no semaphore of its own. -/
def reg26 (hdat : ∀ c, pdats 26 c = dat26 (Vof Win) c)
    (hF : ∀ c (w : Fin cfg26.W), (dat26 (Vof Win) c).arrAt w cfg26.N = Vof Wout c (Pipeline.arrRef spec26 w))
    (hrest : ∀ c b, b ∉ Finset.univ.image (Pipeline.arrRef spec26) → Vof Wout c b = Vof Win c b) :
    Pipeline.RegionSeg (pcfgs (F := F)) adm pdats () defs₀ 𝒱₀ L lv 26 where
  win := (launch26 (F := F)).win.to₀
  block_pos := (launch26 (F := F)).block_pos
  stage_whole := (launch26 (F := F)).stage_whole
  K := PEmpty
  osem k := k.elim
  ho := Pipeline.OwnSemFacts.none _
  hbody c := by rw [hdat c]; exact (body_obligation26 (Vof Win) c).loose
  hwaits := Pipeline.hwaits_of_owed_zero _ _ _ _ L lv 26 fun c _ => by rw [hdat c]; rfl
  pre c := T (Win c) c
  post c := T (Wout c) c
  X c := iprop(∃ r, prngReg c r)
  Y c := iprop(∃ r, prngReg c r)
  Z c := Pipeline.unscopedRest (Ix := Unit) (Name := ℕ) (U := UC) (Lvl := ℕ) spec26 c (Vof Win c)
  hentry c := by
    rw [Pipeline.ownSems0_none]
    have hsplit := Pipeline.arrays_of_unscopedBufs (p := 26) (pcfgs (F := F)) adm pdats (launch26 (F := F)).win (launch26 (F := F)).arr_whole c
      (by rw [hdat c]; exact (dat26 (Vof Win) c).share_full fun _ => rfl) (Vof Win c) (fun w => by rw [hdat c]; rfl)
    rw [Pipeline.unscopedBufs_held] at hsplit
    rw [hdat c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : ∀ x, (dat26 (Vof Win) c).Φ x = Pipeline.ΦA spec26 c := fun _ => rfl
    rw [hdat c, hΦ]; unfold Pipeline.ΦA
    iintro ⟨Hp, -, Hr⟩
    isplitl [Hr]; · iexact Hr
    iexact Hp
  hout c := by
    have hΦ : ∀ x, (dat26 (Vof Win) c).Φ x = Pipeline.ΦA spec26 c := fun _ => rfl
    rw [Pipeline.ownSems0_none, hdat c, hΦ]; unfold Pipeline.ΦA
    iintro ⟨Hr, Hp⟩
    isplitl [Hp]; · iexact Hp
    isplitr; · iempintro
    iexact Hr
  hexit c := by
    have hjoin := Pipeline.unscopedBufs_of_arrays (p := 26) (pcfgs (F := F)) adm (Ix := Unit) (Name := ℕ) (U := UC) (Lvl := ℕ)
      (launch26 (F := F)).win (launch26 (F := F)).arr_whole c pdats (by rw [hdat c]; exact (dat26 (Vof Win) c).share_full fun _ => rfl)
      (Vof Win c) (Vof Wout c) ((pdats 26 c).arrAt · cfg26.N) (fun w => by rw [hdat c]; exact hF c w) (hrest c)
    rw [Pipeline.unscopedBufs_held] at hjoin
    rw [hdat c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Regs.lean ====
/-
  @main'S 27 LAUNCHES AS SEGMENTS AT THE CHAIN'S OWN CONTENTS. Each launch's record over variable entry and exit contents is
  instantiated at the contents the chain names before and after it, at the chain's tables and proof data: a gather launch
  also at the fact that its table is the slice the preceding stretch wrote and that every word of it names a row of the
  feature array (which follows from every neighbour index doing so: the precondition). Per launch, the record's two thread
  states are the generated chain's valuations at the chain's unknowns beside the state that rides along: two entailments
  by rewriting one valuation. One row per launch.
-/
import proofs.«403631_j48275432407145_1_alg».proof.Proof.KI.Chain
import proofs.«403631_j48275432407145_1_alg».proof.Proof.KI.LaunchFacts
import proofs.«403631_j48275432407145_1_alg».proof.Proof.KI.Seg0
import proofs.«403631_j48275432407145_1_alg».proof.Proof.KI.Seg1
import proofs.«403631_j48275432407145_1_alg».proof.Proof.KI.Seg2
import proofs.«403631_j48275432407145_1_alg».proof.Proof.KI.Seg3
import proofs.«403631_j48275432407145_1_alg».proof.Proof.KI.Seg4
import proofs.«403631_j48275432407145_1_alg».proof.Proof.KI.Seg5
import proofs.«403631_j48275432407145_1_alg».proof.Proof.KI.Seg6
import proofs.«403631_j48275432407145_1_alg».proof.Proof.KI.Seg7
import proofs.«403631_j48275432407145_1_alg».proof.Proof.KI.Seg8
import proofs.«403631_j48275432407145_1_alg».proof.Proof.KI.Seg9
import proofs.«403631_j48275432407145_1_alg».proof.Proof.KI.Seg10
import proofs.«403631_j48275432407145_1_alg».proof.Proof.KI.Seg11
import proofs.«403631_j48275432407145_1_alg».proof.Proof.KI.Seg12
import proofs.«403631_j48275432407145_1_alg».proof.Proof.KI.Seg13
import proofs.«403631_j48275432407145_1_alg».proof.Proof.KI.Seg14
import proofs.«403631_j48275432407145_1_alg».proof.Proof.KI.Seg15
import proofs.«403631_j48275432407145_1_alg».proof.Proof.KI.Seg16
import proofs.«403631_j48275432407145_1_alg».proof.Proof.KI.Seg17
import proofs.«403631_j48275432407145_1_alg».proof.Proof.KI.Seg18
import proofs.«403631_j48275432407145_1_alg».proof.Proof.KI.Seg19
import proofs.«403631_j48275432407145_1_alg».proof.Proof.KI.Seg20
import proofs.«403631_j48275432407145_1_alg».proof.Proof.KI.Seg21
import proofs.«403631_j48275432407145_1_alg».proof.Proof.KI.Seg22
import proofs.«403631_j48275432407145_1_alg».proof.Proof.KI.Seg23
import proofs.«403631_j48275432407145_1_alg».proof.Proof.KI.Seg24
import proofs.«403631_j48275432407145_1_alg».proof.Proof.KI.Seg25
import proofs.«403631_j48275432407145_1_alg».proof.Proof.KI.Seg26

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

variable (m : (ℓ : Loc nD τ sig) → Buf (Elt F) ℓ)

/-- Launch 0 between the contents the chain names before and after it. -/
def R0 (h4 : ∀ i : S50000x16.Idx, (m ((0 : Dev nD).tc.loc main_arg4) i).toNat < 100000) : Pipeline.RegionSeg (pcfgs (F := F)) (adm m) (pdats m) () defs₀ 𝒱₀ L lv 0 :=
  reg0 (adm m) (pdats m) (W1 m) (W2 m) (hd0 m) (hF0 m) (hrest0 m) (htab0 m) (inRange0 m h4)
theorem hpre0 (h4 : ∀ i : S50000x16.Idx, (m ((0 : Dev nD).tc.loc main_arg4) i).toNat < 100000) (c : Dev nD) :
    (iprop(StableHlo.held (c : Thread nD τ) (Pipeline.ucRefs τ sig) (Gen.V1 m c) ∗ E₀ (F := F) 0 c) : sProp 𝕄) ⊢ (R0 m h4).pre c := by
  rw [V1_eq]; exact .rfl
theorem hpost0 (h4 : ∀ i : S50000x16.Idx, (m ((0 : Dev nD).tc.loc main_arg4) i).toNat < 100000) (c : Dev nD) :
    (R0 m h4).post c ⊢ (iprop(StableHlo.held (c : Thread nD τ) (Pipeline.ucRefs τ sig) (Gen.V2 m (outs m) c) ∗ E₀ (F := F) 1 c) : sProp 𝕄) := by
  rw [V2_eq]; exact .rfl
/-- Launch 1 between the contents the chain names before and after it. -/
def R1 (h4 : ∀ i : S50000x16.Idx, (m ((0 : Dev nD).tc.loc main_arg4) i).toNat < 100000) : Pipeline.RegionSeg (pcfgs (F := F)) (adm m) (pdats m) () defs₀ 𝒱₀ L lv 1 :=
  reg1 (adm m) (pdats m) (W3 m) (W4 m) (hd1 m) (hF1 m) (hrest1 m) (htab1 m) (inRange1 m h4)
theorem hpre1 (h4 : ∀ i : S50000x16.Idx, (m ((0 : Dev nD).tc.loc main_arg4) i).toNat < 100000) (c : Dev nD) :
    (iprop(StableHlo.held (c : Thread nD τ) (Pipeline.ucRefs τ sig) (Gen.V3 m (outs m) c) ∗ E₀ (F := F) 1 c) : sProp 𝕄) ⊢ (R1 m h4).pre c := by
  rw [V3_eq]; exact .rfl
theorem hpost1 (h4 : ∀ i : S50000x16.Idx, (m ((0 : Dev nD).tc.loc main_arg4) i).toNat < 100000) (c : Dev nD) :
    (R1 m h4).post c ⊢ (iprop(StableHlo.held (c : Thread nD τ) (Pipeline.ucRefs τ sig) (Gen.V4 m (outs m) c) ∗ E₀ (F := F) 2 c) : sProp 𝕄) := by
  rw [V4_eq]; exact .rfl
/-- Launch 2 between the contents the chain names before and after it. -/
def R2 (h4 : ∀ i : S50000x16.Idx, (m ((0 : Dev nD).tc.loc main_arg4) i).toNat < 100000) : Pipeline.RegionSeg (pcfgs (F := F)) (adm m) (pdats m) () defs₀ 𝒱₀ L lv 2 :=
  reg2 (adm m) (pdats m) (W5 m) (W6 m) (hd2 m) (hF2 m) (hrest2 m) (htab2 m) (inRange2 m h4)
theorem hpre2 (h4 : ∀ i : S50000x16.Idx, (m ((0 : Dev nD).tc.loc main_arg4) i).toNat < 100000) (c : Dev nD) :
    (iprop(StableHlo.held (c : Thread nD τ) (Pipeline.ucRefs τ sig) (Gen.V5 m (outs m) c) ∗ E₀ (F := F) 2 c) : sProp 𝕄) ⊢ (R2 m h4).pre c := by
  rw [V5_eq]; exact .rfl
theorem hpost2 (h4 : ∀ i : S50000x16.Idx, (m ((0 : Dev nD).tc.loc main_arg4) i).toNat < 100000) (c : Dev nD) :
    (R2 m h4).post c ⊢ (iprop(StableHlo.held (c : Thread nD τ) (Pipeline.ucRefs τ sig) (Gen.V6 m (outs m) c) ∗ E₀ (F := F) 3 c) : sProp 𝕄) := by
  rw [V6_eq]; exact .rfl
/-- Launch 3 between the contents the chain names before and after it. -/
def R3 (h4 : ∀ i : S50000x16.Idx, (m ((0 : Dev nD).tc.loc main_arg4) i).toNat < 100000) : Pipeline.RegionSeg (pcfgs (F := F)) (adm m) (pdats m) () defs₀ 𝒱₀ L lv 3 :=
  reg3 (adm m) (pdats m) (W7 m) (W8 m) (hd3 m) (hF3 m) (hrest3 m) (htab3 m) (inRange3 m h4)
theorem hpre3 (h4 : ∀ i : S50000x16.Idx, (m ((0 : Dev nD).tc.loc main_arg4) i).toNat < 100000) (c : Dev nD) :
    (iprop(StableHlo.held (c : Thread nD τ) (Pipeline.ucRefs τ sig) (Gen.V7 m (outs m) c) ∗ E₀ (F := F) 3 c) : sProp 𝕄) ⊢ (R3 m h4).pre c := by
  rw [V7_eq]; exact .rfl
theorem hpost3 (h4 : ∀ i : S50000x16.Idx, (m ((0 : Dev nD).tc.loc main_arg4) i).toNat < 100000) (c : Dev nD) :
    (R3 m h4).post c ⊢ (iprop(StableHlo.held (c : Thread nD τ) (Pipeline.ucRefs τ sig) (Gen.V8 m (outs m) c) ∗ E₀ (F := F) 4 c) : sProp 𝕄) := by
  rw [V8_eq]; exact .rfl
/-- Launch 4 between the contents the chain names before and after it. -/
def R4 (h4 : ∀ i : S50000x16.Idx, (m ((0 : Dev nD).tc.loc main_arg4) i).toNat < 100000) : Pipeline.RegionSeg (pcfgs (F := F)) (adm m) (pdats m) () defs₀ 𝒱₀ L lv 4 :=
  reg4 (adm m) (pdats m) (W9 m) (W10 m) (hd4 m) (hF4 m) (hrest4 m) (htab4 m) (inRange4 m h4)
theorem hpre4 (h4 : ∀ i : S50000x16.Idx, (m ((0 : Dev nD).tc.loc main_arg4) i).toNat < 100000) (c : Dev nD) :
    (iprop(StableHlo.held (c : Thread nD τ) (Pipeline.ucRefs τ sig) (Gen.V9 m (outs m) c) ∗ E₀ (F := F) 4 c) : sProp 𝕄) ⊢ (R4 m h4).pre c := by
  rw [V9_eq]; exact .rfl
theorem hpost4 (h4 : ∀ i : S50000x16.Idx, (m ((0 : Dev nD).tc.loc main_arg4) i).toNat < 100000) (c : Dev nD) :
    (R4 m h4).post c ⊢ (iprop(StableHlo.held (c : Thread nD τ) (Pipeline.ucRefs τ sig) (Gen.V10 m (outs m) c) ∗ E₀ (F := F) 5 c) : sProp 𝕄) := by
  rw [V10_eq]; exact .rfl
/-- Launch 5 between the contents the chain names before and after it. -/
def R5 (h4 : ∀ i : S50000x16.Idx, (m ((0 : Dev nD).tc.loc main_arg4) i).toNat < 100000) : Pipeline.RegionSeg (pcfgs (F := F)) (adm m) (pdats m) () defs₀ 𝒱₀ L lv 5 :=
  reg5 (adm m) (pdats m) (W11 m) (W12 m) (hd5 m) (hF5 m) (hrest5 m) (htab5 m) (inRange5 m h4)
theorem hpre5 (h4 : ∀ i : S50000x16.Idx, (m ((0 : Dev nD).tc.loc main_arg4) i).toNat < 100000) (c : Dev nD) :
    (iprop(StableHlo.held (c : Thread nD τ) (Pipeline.ucRefs τ sig) (Gen.V11 m (outs m) c) ∗ E₀ (F := F) 5 c) : sProp 𝕄) ⊢ (R5 m h4).pre c := by
  rw [V11_eq]; exact .rfl
theorem hpost5 (h4 : ∀ i : S50000x16.Idx, (m ((0 : Dev nD).tc.loc main_arg4) i).toNat < 100000) (c : Dev nD) :
    (R5 m h4).post c ⊢ (iprop(StableHlo.held (c : Thread nD τ) (Pipeline.ucRefs τ sig) (Gen.V12 m (outs m) c) ∗ E₀ (F := F) 6 c) : sProp 𝕄) := by
  rw [V12_eq]; exact .rfl
/-- Launch 6 between the contents the chain names before and after it. -/
def R6 (h4 : ∀ i : S50000x16.Idx, (m ((0 : Dev nD).tc.loc main_arg4) i).toNat < 100000) : Pipeline.RegionSeg (pcfgs (F := F)) (adm m) (pdats m) () defs₀ 𝒱₀ L lv 6 :=
  reg6 (adm m) (pdats m) (W13 m) (W14 m) (hd6 m) (hF6 m) (hrest6 m) (htab6 m) (inRange6 m h4)
theorem hpre6 (h4 : ∀ i : S50000x16.Idx, (m ((0 : Dev nD).tc.loc main_arg4) i).toNat < 100000) (c : Dev nD) :
    (iprop(StableHlo.held (c : Thread nD τ) (Pipeline.ucRefs τ sig) (Gen.V13 m (outs m) c) ∗ E₀ (F := F) 6 c) : sProp 𝕄) ⊢ (R6 m h4).pre c := by
  rw [V13_eq]; exact .rfl
theorem hpost6 (h4 : ∀ i : S50000x16.Idx, (m ((0 : Dev nD).tc.loc main_arg4) i).toNat < 100000) (c : Dev nD) :
    (R6 m h4).post c ⊢ (iprop(StableHlo.held (c : Thread nD τ) (Pipeline.ucRefs τ sig) (Gen.V14 m (outs m) c) ∗ E₀ (F := F) 7 c) : sProp 𝕄) := by
  rw [V14_eq]; exact .rfl
/-- Launch 7 between the contents the chain names before and after it. -/
def R7 (h4 : ∀ i : S50000x16.Idx, (m ((0 : Dev nD).tc.loc main_arg4) i).toNat < 100000) : Pipeline.RegionSeg (pcfgs (F := F)) (adm m) (pdats m) () defs₀ 𝒱₀ L lv 7 :=
  reg7 (adm m) (pdats m) (W15 m) (W16 m) (hd7 m) (hF7 m) (hrest7 m) (htab7 m) (inRange7 m h4)
theorem hpre7 (h4 : ∀ i : S50000x16.Idx, (m ((0 : Dev nD).tc.loc main_arg4) i).toNat < 100000) (c : Dev nD) :
    (iprop(StableHlo.held (c : Thread nD τ) (Pipeline.ucRefs τ sig) (Gen.V15 m (outs m) c) ∗ E₀ (F := F) 7 c) : sProp 𝕄) ⊢ (R7 m h4).pre c := by
  rw [V15_eq]; exact .rfl
theorem hpost7 (h4 : ∀ i : S50000x16.Idx, (m ((0 : Dev nD).tc.loc main_arg4) i).toNat < 100000) (c : Dev nD) :
    (R7 m h4).post c ⊢ (iprop(StableHlo.held (c : Thread nD τ) (Pipeline.ucRefs τ sig) (Gen.V16 m (outs m) c) ∗ E₀ (F := F) 8 c) : sProp 𝕄) := by
  rw [V16_eq]; exact .rfl
/-- Launch 8 between the contents the chain names before and after it. -/
def R8 (h4 : ∀ i : S50000x16.Idx, (m ((0 : Dev nD).tc.loc main_arg4) i).toNat < 100000) : Pipeline.RegionSeg (pcfgs (F := F)) (adm m) (pdats m) () defs₀ 𝒱₀ L lv 8 :=
  reg8 (adm m) (pdats m) (W17 m) (W18 m) (hd8 m) (hF8 m) (hrest8 m) (htab8 m) (inRange8 m h4)
theorem hpre8 (h4 : ∀ i : S50000x16.Idx, (m ((0 : Dev nD).tc.loc main_arg4) i).toNat < 100000) (c : Dev nD) :
    (iprop(StableHlo.held (c : Thread nD τ) (Pipeline.ucRefs τ sig) (Gen.V17 m (outs m) c) ∗ E₀ (F := F) 8 c) : sProp 𝕄) ⊢ (R8 m h4).pre c := by
  rw [V17_eq]; exact .rfl
theorem hpost8 (h4 : ∀ i : S50000x16.Idx, (m ((0 : Dev nD).tc.loc main_arg4) i).toNat < 100000) (c : Dev nD) :
    (R8 m h4).post c ⊢ (iprop(StableHlo.held (c : Thread nD τ) (Pipeline.ucRefs τ sig) (Gen.V18 m (outs m) c) ∗ E₀ (F := F) 9 c) : sProp 𝕄) := by
  rw [V18_eq]; exact .rfl
/-- Launch 9 between the contents the chain names before and after it. -/
def R9 (h4 : ∀ i : S50000x16.Idx, (m ((0 : Dev nD).tc.loc main_arg4) i).toNat < 100000) : Pipeline.RegionSeg (pcfgs (F := F)) (adm m) (pdats m) () defs₀ 𝒱₀ L lv 9 :=
  reg9 (adm m) (pdats m) (W19 m) (W20 m) (hd9 m) (hF9 m) (hrest9 m) (htab9 m) (inRange9 m h4)
theorem hpre9 (h4 : ∀ i : S50000x16.Idx, (m ((0 : Dev nD).tc.loc main_arg4) i).toNat < 100000) (c : Dev nD) :
    (iprop(StableHlo.held (c : Thread nD τ) (Pipeline.ucRefs τ sig) (Gen.V19 m (outs m) c) ∗ E₀ (F := F) 9 c) : sProp 𝕄) ⊢ (R9 m h4).pre c := by
  rw [V19_eq]; exact .rfl
theorem hpost9 (h4 : ∀ i : S50000x16.Idx, (m ((0 : Dev nD).tc.loc main_arg4) i).toNat < 100000) (c : Dev nD) :
    (R9 m h4).post c ⊢ (iprop(StableHlo.held (c : Thread nD τ) (Pipeline.ucRefs τ sig) (Gen.V20 m (outs m) c) ∗ E₀ (F := F) 10 c) : sProp 𝕄) := by
  rw [V20_eq]; exact .rfl
/-- Launch 10 between the contents the chain names before and after it. -/
def R10 (h4 : ∀ i : S50000x16.Idx, (m ((0 : Dev nD).tc.loc main_arg4) i).toNat < 100000) : Pipeline.RegionSeg (pcfgs (F := F)) (adm m) (pdats m) () defs₀ 𝒱₀ L lv 10 :=
  reg10 (adm m) (pdats m) (W21 m) (W22 m) (hd10 m) (hF10 m) (hrest10 m) (htab10 m) (inRange10 m h4)
theorem hpre10 (h4 : ∀ i : S50000x16.Idx, (m ((0 : Dev nD).tc.loc main_arg4) i).toNat < 100000) (c : Dev nD) :
    (iprop(StableHlo.held (c : Thread nD τ) (Pipeline.ucRefs τ sig) (Gen.V21 m (outs m) c) ∗ E₀ (F := F) 10 c) : sProp 𝕄) ⊢ (R10 m h4).pre c := by
  rw [V21_eq]; exact .rfl
theorem hpost10 (h4 : ∀ i : S50000x16.Idx, (m ((0 : Dev nD).tc.loc main_arg4) i).toNat < 100000) (c : Dev nD) :
    (R10 m h4).post c ⊢ (iprop(StableHlo.held (c : Thread nD τ) (Pipeline.ucRefs τ sig) (Gen.V22 m (outs m) c) ∗ E₀ (F := F) 11 c) : sProp 𝕄) := by
  rw [V22_eq]; exact .rfl
/-- Launch 11 between the contents the chain names before and after it. -/
def R11 (h4 : ∀ i : S50000x16.Idx, (m ((0 : Dev nD).tc.loc main_arg4) i).toNat < 100000) : Pipeline.RegionSeg (pcfgs (F := F)) (adm m) (pdats m) () defs₀ 𝒱₀ L lv 11 :=
  reg11 (adm m) (pdats m) (W23 m) (W24 m) (hd11 m) (hF11 m) (hrest11 m) (htab11 m) (inRange11 m h4)
theorem hpre11 (h4 : ∀ i : S50000x16.Idx, (m ((0 : Dev nD).tc.loc main_arg4) i).toNat < 100000) (c : Dev nD) :
    (iprop(StableHlo.held (c : Thread nD τ) (Pipeline.ucRefs τ sig) (Gen.V23 m (outs m) c) ∗ E₀ (F := F) 11 c) : sProp 𝕄) ⊢ (R11 m h4).pre c := by
  rw [V23_eq]; exact .rfl
theorem hpost11 (h4 : ∀ i : S50000x16.Idx, (m ((0 : Dev nD).tc.loc main_arg4) i).toNat < 100000) (c : Dev nD) :
    (R11 m h4).post c ⊢ (iprop(StableHlo.held (c : Thread nD τ) (Pipeline.ucRefs τ sig) (Gen.V24 m (outs m) c) ∗ E₀ (F := F) 12 c) : sProp 𝕄) := by
  rw [V24_eq]; exact .rfl
/-- Launch 12 between the contents the chain names before and after it. -/
def R12 (h4 : ∀ i : S50000x16.Idx, (m ((0 : Dev nD).tc.loc main_arg4) i).toNat < 100000) : Pipeline.RegionSeg (pcfgs (F := F)) (adm m) (pdats m) () defs₀ 𝒱₀ L lv 12 :=
  reg12 (adm m) (pdats m) (W25 m) (W26 m) (hd12 m) (hF12 m) (hrest12 m) (htab12 m) (inRange12 m h4)
theorem hpre12 (h4 : ∀ i : S50000x16.Idx, (m ((0 : Dev nD).tc.loc main_arg4) i).toNat < 100000) (c : Dev nD) :
    (iprop(StableHlo.held (c : Thread nD τ) (Pipeline.ucRefs τ sig) (Gen.V25 m (outs m) c) ∗ E₀ (F := F) 12 c) : sProp 𝕄) ⊢ (R12 m h4).pre c := by
  rw [V25_eq]; exact .rfl
theorem hpost12 (h4 : ∀ i : S50000x16.Idx, (m ((0 : Dev nD).tc.loc main_arg4) i).toNat < 100000) (c : Dev nD) :
    (R12 m h4).post c ⊢ (iprop(StableHlo.held (c : Thread nD τ) (Pipeline.ucRefs τ sig) (Gen.V26 m (outs m) c) ∗ E₀ (F := F) 13 c) : sProp 𝕄) := by
  rw [V26_eq]; exact .rfl
/-- Launch 13 between the contents the chain names before and after it. -/
def R13 (h4 : ∀ i : S50000x16.Idx, (m ((0 : Dev nD).tc.loc main_arg4) i).toNat < 100000) : Pipeline.RegionSeg (pcfgs (F := F)) (adm m) (pdats m) () defs₀ 𝒱₀ L lv 13 :=
  reg13 (adm m) (pdats m) (W27 m) (W28 m) (hd13 m) (hF13 m) (hrest13 m) (htab13 m) (inRange13 m h4)
theorem hpre13 (h4 : ∀ i : S50000x16.Idx, (m ((0 : Dev nD).tc.loc main_arg4) i).toNat < 100000) (c : Dev nD) :
    (iprop(StableHlo.held (c : Thread nD τ) (Pipeline.ucRefs τ sig) (Gen.V27 m (outs m) c) ∗ E₀ (F := F) 13 c) : sProp 𝕄) ⊢ (R13 m h4).pre c := by
  rw [V27_eq]; exact .rfl
theorem hpost13 (h4 : ∀ i : S50000x16.Idx, (m ((0 : Dev nD).tc.loc main_arg4) i).toNat < 100000) (c : Dev nD) :
    (R13 m h4).post c ⊢ (iprop(StableHlo.held (c : Thread nD τ) (Pipeline.ucRefs τ sig) (Gen.V28 m (outs m) c) ∗ E₀ (F := F) 14 c) : sProp 𝕄) := by
  rw [V28_eq]; exact .rfl
/-- Launch 14 between the contents the chain names before and after it. -/
def R14 (h4 : ∀ i : S50000x16.Idx, (m ((0 : Dev nD).tc.loc main_arg4) i).toNat < 100000) : Pipeline.RegionSeg (pcfgs (F := F)) (adm m) (pdats m) () defs₀ 𝒱₀ L lv 14 :=
  reg14 (adm m) (pdats m) (W29 m) (W30 m) (hd14 m) (hF14 m) (hrest14 m) (htab14 m) (inRange14 m h4)
theorem hpre14 (h4 : ∀ i : S50000x16.Idx, (m ((0 : Dev nD).tc.loc main_arg4) i).toNat < 100000) (c : Dev nD) :
    (iprop(StableHlo.held (c : Thread nD τ) (Pipeline.ucRefs τ sig) (Gen.V29 m (outs m) c) ∗ E₀ (F := F) 14 c) : sProp 𝕄) ⊢ (R14 m h4).pre c := by
  rw [V29_eq]; exact .rfl
theorem hpost14 (h4 : ∀ i : S50000x16.Idx, (m ((0 : Dev nD).tc.loc main_arg4) i).toNat < 100000) (c : Dev nD) :
    (R14 m h4).post c ⊢ (iprop(StableHlo.held (c : Thread nD τ) (Pipeline.ucRefs τ sig) (Gen.V30 m (outs m) c) ∗ E₀ (F := F) 15 c) : sProp 𝕄) := by
  rw [V30_eq]; exact .rfl
/-- Launch 15 between the contents the chain names before and after it. -/
def R15 (h4 : ∀ i : S50000x16.Idx, (m ((0 : Dev nD).tc.loc main_arg4) i).toNat < 100000) : Pipeline.RegionSeg (pcfgs (F := F)) (adm m) (pdats m) () defs₀ 𝒱₀ L lv 15 :=
  reg15 (adm m) (pdats m) (W31 m) (W32 m) (hd15 m) (hF15 m) (hrest15 m) (htab15 m) (inRange15 m h4)
theorem hpre15 (h4 : ∀ i : S50000x16.Idx, (m ((0 : Dev nD).tc.loc main_arg4) i).toNat < 100000) (c : Dev nD) :
    (iprop(StableHlo.held (c : Thread nD τ) (Pipeline.ucRefs τ sig) (Gen.V31 m (outs m) c) ∗ E₀ (F := F) 15 c) : sProp 𝕄) ⊢ (R15 m h4).pre c := by
  rw [V31_eq]; exact .rfl
theorem hpost15 (h4 : ∀ i : S50000x16.Idx, (m ((0 : Dev nD).tc.loc main_arg4) i).toNat < 100000) (c : Dev nD) :
    (R15 m h4).post c ⊢ (iprop(StableHlo.held (c : Thread nD τ) (Pipeline.ucRefs τ sig) (Gen.V32 m (outs m) c) ∗ E₀ (F := F) 16 c) : sProp 𝕄) := by
  rw [V32_eq]; exact .rfl
/-- Launch 16 between the contents the chain names before and after it. -/
def R16 (h4 : ∀ i : S50000x16.Idx, (m ((0 : Dev nD).tc.loc main_arg4) i).toNat < 100000) : Pipeline.RegionSeg (pcfgs (F := F)) (adm m) (pdats m) () defs₀ 𝒱₀ L lv 16 :=
  reg16 (adm m) (pdats m) (W33 m) (W34 m) (hd16 m) (hF16 m) (hrest16 m) (htab16 m) (inRange16 m h4)
theorem hpre16 (h4 : ∀ i : S50000x16.Idx, (m ((0 : Dev nD).tc.loc main_arg4) i).toNat < 100000) (c : Dev nD) :
    (iprop(StableHlo.held (c : Thread nD τ) (Pipeline.ucRefs τ sig) (Gen.V33 m (outs m) c) ∗ E₀ (F := F) 16 c) : sProp 𝕄) ⊢ (R16 m h4).pre c := by
  rw [V33_eq]; exact .rfl
theorem hpost16 (h4 : ∀ i : S50000x16.Idx, (m ((0 : Dev nD).tc.loc main_arg4) i).toNat < 100000) (c : Dev nD) :
    (R16 m h4).post c ⊢ (iprop(StableHlo.held (c : Thread nD τ) (Pipeline.ucRefs τ sig) (Gen.V34 m (outs m) c) ∗ E₀ (F := F) 17 c) : sProp 𝕄) := by
  rw [V34_eq]; exact .rfl
/-- Launch 17 between the contents the chain names before and after it. -/
def R17 (h4 : ∀ i : S50000x16.Idx, (m ((0 : Dev nD).tc.loc main_arg4) i).toNat < 100000) : Pipeline.RegionSeg (pcfgs (F := F)) (adm m) (pdats m) () defs₀ 𝒱₀ L lv 17 :=
  reg17 (adm m) (pdats m) (W35 m) (W36 m) (hd17 m) (hF17 m) (hrest17 m) (htab17 m) (inRange17 m h4)
theorem hpre17 (h4 : ∀ i : S50000x16.Idx, (m ((0 : Dev nD).tc.loc main_arg4) i).toNat < 100000) (c : Dev nD) :
    (iprop(StableHlo.held (c : Thread nD τ) (Pipeline.ucRefs τ sig) (Gen.V35 m (outs m) c) ∗ E₀ (F := F) 17 c) : sProp 𝕄) ⊢ (R17 m h4).pre c := by
  rw [V35_eq]; exact .rfl
theorem hpost17 (h4 : ∀ i : S50000x16.Idx, (m ((0 : Dev nD).tc.loc main_arg4) i).toNat < 100000) (c : Dev nD) :
    (R17 m h4).post c ⊢ (iprop(StableHlo.held (c : Thread nD τ) (Pipeline.ucRefs τ sig) (Gen.V36 m (outs m) c) ∗ E₀ (F := F) 18 c) : sProp 𝕄) := by
  rw [V36_eq]; exact .rfl
/-- Launch 18 between the contents the chain names before and after it. -/
def R18 (h4 : ∀ i : S50000x16.Idx, (m ((0 : Dev nD).tc.loc main_arg4) i).toNat < 100000) : Pipeline.RegionSeg (pcfgs (F := F)) (adm m) (pdats m) () defs₀ 𝒱₀ L lv 18 :=
  reg18 (adm m) (pdats m) (W37 m) (W38 m) (hd18 m) (hF18 m) (hrest18 m) (htab18 m) (inRange18 m h4)
theorem hpre18 (h4 : ∀ i : S50000x16.Idx, (m ((0 : Dev nD).tc.loc main_arg4) i).toNat < 100000) (c : Dev nD) :
    (iprop(StableHlo.held (c : Thread nD τ) (Pipeline.ucRefs τ sig) (Gen.V37 m (outs m) c) ∗ E₀ (F := F) 18 c) : sProp 𝕄) ⊢ (R18 m h4).pre c := by
  rw [V37_eq]; exact .rfl
theorem hpost18 (h4 : ∀ i : S50000x16.Idx, (m ((0 : Dev nD).tc.loc main_arg4) i).toNat < 100000) (c : Dev nD) :
    (R18 m h4).post c ⊢ (iprop(StableHlo.held (c : Thread nD τ) (Pipeline.ucRefs τ sig) (Gen.V38 m (outs m) c) ∗ E₀ (F := F) 19 c) : sProp 𝕄) := by
  rw [V38_eq]; exact .rfl
/-- Launch 19 between the contents the chain names before and after it. -/
def R19 (h4 : ∀ i : S50000x16.Idx, (m ((0 : Dev nD).tc.loc main_arg4) i).toNat < 100000) : Pipeline.RegionSeg (pcfgs (F := F)) (adm m) (pdats m) () defs₀ 𝒱₀ L lv 19 :=
  reg19 (adm m) (pdats m) (W39 m) (W40 m) (hd19 m) (hF19 m) (hrest19 m) (htab19 m) (inRange19 m h4)
theorem hpre19 (h4 : ∀ i : S50000x16.Idx, (m ((0 : Dev nD).tc.loc main_arg4) i).toNat < 100000) (c : Dev nD) :
    (iprop(StableHlo.held (c : Thread nD τ) (Pipeline.ucRefs τ sig) (Gen.V39 m (outs m) c) ∗ E₀ (F := F) 19 c) : sProp 𝕄) ⊢ (R19 m h4).pre c := by
  rw [V39_eq]; exact .rfl
theorem hpost19 (h4 : ∀ i : S50000x16.Idx, (m ((0 : Dev nD).tc.loc main_arg4) i).toNat < 100000) (c : Dev nD) :
    (R19 m h4).post c ⊢ (iprop(StableHlo.held (c : Thread nD τ) (Pipeline.ucRefs τ sig) (Gen.V40 m (outs m) c) ∗ E₀ (F := F) 20 c) : sProp 𝕄) := by
  rw [V40_eq]; exact .rfl
/-- Launch 20 between the contents the chain names before and after it. -/
def R20 (h4 : ∀ i : S50000x16.Idx, (m ((0 : Dev nD).tc.loc main_arg4) i).toNat < 100000) : Pipeline.RegionSeg (pcfgs (F := F)) (adm m) (pdats m) () defs₀ 𝒱₀ L lv 20 :=
  reg20 (adm m) (pdats m) (W41 m) (W42 m) (hd20 m) (hF20 m) (hrest20 m) (htab20 m) (inRange20 m h4)
theorem hpre20 (h4 : ∀ i : S50000x16.Idx, (m ((0 : Dev nD).tc.loc main_arg4) i).toNat < 100000) (c : Dev nD) :
    (iprop(StableHlo.held (c : Thread nD τ) (Pipeline.ucRefs τ sig) (Gen.V41 m (outs m) c) ∗ E₀ (F := F) 20 c) : sProp 𝕄) ⊢ (R20 m h4).pre c := by
  rw [V41_eq]; exact .rfl
theorem hpost20 (h4 : ∀ i : S50000x16.Idx, (m ((0 : Dev nD).tc.loc main_arg4) i).toNat < 100000) (c : Dev nD) :
    (R20 m h4).post c ⊢ (iprop(StableHlo.held (c : Thread nD τ) (Pipeline.ucRefs τ sig) (Gen.V42 m (outs m) c) ∗ E₀ (F := F) 21 c) : sProp 𝕄) := by
  rw [V42_eq]; exact .rfl
/-- Launch 21 between the contents the chain names before and after it. -/
def R21 (h4 : ∀ i : S50000x16.Idx, (m ((0 : Dev nD).tc.loc main_arg4) i).toNat < 100000) : Pipeline.RegionSeg (pcfgs (F := F)) (adm m) (pdats m) () defs₀ 𝒱₀ L lv 21 :=
  reg21 (adm m) (pdats m) (W43 m) (W44 m) (hd21 m) (hF21 m) (hrest21 m) (htab21 m) (inRange21 m h4)
theorem hpre21 (h4 : ∀ i : S50000x16.Idx, (m ((0 : Dev nD).tc.loc main_arg4) i).toNat < 100000) (c : Dev nD) :
    (iprop(StableHlo.held (c : Thread nD τ) (Pipeline.ucRefs τ sig) (Gen.V43 m (outs m) c) ∗ E₀ (F := F) 21 c) : sProp 𝕄) ⊢ (R21 m h4).pre c := by
  rw [V43_eq]; exact .rfl
theorem hpost21 (h4 : ∀ i : S50000x16.Idx, (m ((0 : Dev nD).tc.loc main_arg4) i).toNat < 100000) (c : Dev nD) :
    (R21 m h4).post c ⊢ (iprop(StableHlo.held (c : Thread nD τ) (Pipeline.ucRefs τ sig) (Gen.V44 m (outs m) c) ∗ E₀ (F := F) 22 c) : sProp 𝕄) := by
  rw [V44_eq]; exact .rfl
/-- Launch 22 between the contents the chain names before and after it. -/
def R22 (h4 : ∀ i : S50000x16.Idx, (m ((0 : Dev nD).tc.loc main_arg4) i).toNat < 100000) : Pipeline.RegionSeg (pcfgs (F := F)) (adm m) (pdats m) () defs₀ 𝒱₀ L lv 22 :=
  reg22 (adm m) (pdats m) (W45 m) (W46 m) (hd22 m) (hF22 m) (hrest22 m) (htab22 m) (inRange22 m h4)
theorem hpre22 (h4 : ∀ i : S50000x16.Idx, (m ((0 : Dev nD).tc.loc main_arg4) i).toNat < 100000) (c : Dev nD) :
    (iprop(StableHlo.held (c : Thread nD τ) (Pipeline.ucRefs τ sig) (Gen.V45 m (outs m) c) ∗ E₀ (F := F) 22 c) : sProp 𝕄) ⊢ (R22 m h4).pre c := by
  rw [V45_eq]; exact .rfl
theorem hpost22 (h4 : ∀ i : S50000x16.Idx, (m ((0 : Dev nD).tc.loc main_arg4) i).toNat < 100000) (c : Dev nD) :
    (R22 m h4).post c ⊢ (iprop(StableHlo.held (c : Thread nD τ) (Pipeline.ucRefs τ sig) (Gen.V46 m (outs m) c) ∗ E₀ (F := F) 23 c) : sProp 𝕄) := by
  rw [V46_eq]; exact .rfl
/-- Launch 23 between the contents the chain names before and after it. -/
def R23 (h4 : ∀ i : S50000x16.Idx, (m ((0 : Dev nD).tc.loc main_arg4) i).toNat < 100000) : Pipeline.RegionSeg (pcfgs (F := F)) (adm m) (pdats m) () defs₀ 𝒱₀ L lv 23 :=
  reg23 (adm m) (pdats m) (W47 m) (W48 m) (hd23 m) (hF23 m) (hrest23 m) (htab23 m) (inRange23 m h4)
theorem hpre23 (h4 : ∀ i : S50000x16.Idx, (m ((0 : Dev nD).tc.loc main_arg4) i).toNat < 100000) (c : Dev nD) :
    (iprop(StableHlo.held (c : Thread nD τ) (Pipeline.ucRefs τ sig) (Gen.V47 m (outs m) c) ∗ E₀ (F := F) 23 c) : sProp 𝕄) ⊢ (R23 m h4).pre c := by
  rw [V47_eq]; exact .rfl
theorem hpost23 (h4 : ∀ i : S50000x16.Idx, (m ((0 : Dev nD).tc.loc main_arg4) i).toNat < 100000) (c : Dev nD) :
    (R23 m h4).post c ⊢ (iprop(StableHlo.held (c : Thread nD τ) (Pipeline.ucRefs τ sig) (Gen.V48 m (outs m) c) ∗ E₀ (F := F) 24 c) : sProp 𝕄) := by
  rw [V48_eq]; exact .rfl
/-- Launch 24 between the contents the chain names before and after it. -/
def R24 (h4 : ∀ i : S50000x16.Idx, (m ((0 : Dev nD).tc.loc main_arg4) i).toNat < 100000) : Pipeline.RegionSeg (pcfgs (F := F)) (adm m) (pdats m) () defs₀ 𝒱₀ L lv 24 :=
  reg24 (adm m) (pdats m) (W49 m) (W50 m) (hd24 m) (hF24 m) (hrest24 m) (htab24 m) (inRange24 m h4)
theorem hpre24 (h4 : ∀ i : S50000x16.Idx, (m ((0 : Dev nD).tc.loc main_arg4) i).toNat < 100000) (c : Dev nD) :
    (iprop(StableHlo.held (c : Thread nD τ) (Pipeline.ucRefs τ sig) (Gen.V49 m (outs m) c) ∗ E₀ (F := F) 24 c) : sProp 𝕄) ⊢ (R24 m h4).pre c := by
  rw [V49_eq]; exact .rfl
theorem hpost24 (h4 : ∀ i : S50000x16.Idx, (m ((0 : Dev nD).tc.loc main_arg4) i).toNat < 100000) (c : Dev nD) :
    (R24 m h4).post c ⊢ (iprop(StableHlo.held (c : Thread nD τ) (Pipeline.ucRefs τ sig) (Gen.V50 m (outs m) c) ∗ E₀ (F := F) 25 c) : sProp 𝕄) := by
  rw [V50_eq]; exact .rfl
/-- Launch 25 between the contents the chain names before and after it. -/
def R25 : Pipeline.RegionSeg (pcfgs (F := F)) (adm m) (pdats m) () defs₀ 𝒱₀ L lv 25 :=
  reg25 (adm m) (pdats m) (W51 m) (W52 m) (hd25 m) (hF25 m) (hrest25 m)
theorem hpre25 (c : Dev nD) :
    (iprop(StableHlo.held (c : Thread nD τ) (Pipeline.ucRefs τ sig) (Gen.V51 m (outs m) c) ∗ E₀ (F := F) 25 c) : sProp 𝕄) ⊢ (R25 m).pre c := by
  rw [V51_eq]; exact .rfl
theorem hpost25 (c : Dev nD) :
    (R25 m).post c ⊢ (iprop(StableHlo.held (c : Thread nD τ) (Pipeline.ucRefs τ sig) (Gen.V52 m (outs m) c) ∗ E₀ (F := F) 26 c) : sProp 𝕄) := by
  rw [V52_eq]; exact .rfl
/-- Launch 26 between the contents the chain names before and after it. -/
def R26 : Pipeline.RegionSeg (pcfgs (F := F)) (adm m) (pdats m) () defs₀ 𝒱₀ L lv 26 :=
  reg26 (adm m) (pdats m) (W53 m) (W54 m) (hd26 m) (hF26 m) (hrest26 m)
theorem hpre26 (c : Dev nD) :
    (iprop(StableHlo.held (c : Thread nD τ) (Pipeline.ucRefs τ sig) (Gen.V53 m (outs m) c) ∗ E₀ (F := F) 26 c) : sProp 𝕄) ⊢ (R26 m).pre c := by
  rw [V53_eq]; exact .rfl
theorem hpost26 (c : Dev nD) :
    (R26 m).post c ⊢ (iprop(StableHlo.held (c : Thread nD τ) (Pipeline.ucRefs τ sig) (Gen.V54 m (outs m) c) ∗ E₀ (F := F) 27 c) : sProp 𝕄) := by
  rw [V54_eq]; exact .rfl

end Cert.KernelIdeal.Hand

end
-- ==== Proof.KI.Run.lean ====
/-
  THE RUN OF @main. Each of the 27 launches is a region of @main between two thread states: entered from every unscoped
  buffer of the core at the contents the chain names before it, left at the contents it names after it (the launch's
  output array replaced by what its pipeline leaves, every other buffer kept), beside the generator register and the
  core owing nothing. A gather launch is entered with its table's words in range, which holds when every neighbour
  index names a row of the feature array. With the host stretches between them these records are @main's items in
  order, so @main runs from the launch memory to the chain's last contents: every weakly fair execution terminates, and
  the final memory holds the result array at the chain's last value of it and every argument as launched.
-/
import proofs.«403631_j48275432407145_1_alg».proof.Proof.KI.Chain
import proofs.«403631_j48275432407145_1_alg».proof.Proof.KI.LaunchFacts
import proofs.«403631_j48275432407145_1_alg».proof.Proof.KI.RunCond
import proofs.«403631_j48275432407145_1_alg».proof.Proof.KI.Regs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

variable (m : (ℓ : Loc nD τ sig) → Buf (Elt F) ℓ) (ρ : Dev nD → PrngReg)

/-- From any memory with zero counters whose neighbour indices all name rows of the feature array: every weakly fair
    execution of @main terminates, and the final memory holds the result array at the chain's last value of it and
    every argument as launched. -/
theorem run_main (h4 : ∀ i : S50000x16.Idx, (m ((0 : Dev nD).tc.loc main_arg4) i).toNat < 100000) :
    θ_run defs (onTc (τ := τ) (main (F := F))) ⟨m, fun _ => 0, ρ⟩ (fun r => ∀ c : Dev nD,
      r.2.mem ((c.tc : Thread nD τ).loc main_v73) = W54 m c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := Gen.run_cond (F := F) m (EP (F := F)) () 𝒱₀ L lv launch_hL ρ (outs m) (adm m) (pdats m) O₀ G₀ (u₀ (adm m)) (launch_hu0 (adm m))
    E₀ (launch_hE0 ρ) launch_hE27
    (R0 m h4) (hpre0 m h4) (hpost0 m h4)
    (R1 m h4) (hpre1 m h4) (hpost1 m h4)
    (R2 m h4) (hpre2 m h4) (hpost2 m h4)
    (R3 m h4) (hpre3 m h4) (hpost3 m h4)
    (R4 m h4) (hpre4 m h4) (hpost4 m h4)
    (R5 m h4) (hpre5 m h4) (hpost5 m h4)
    (R6 m h4) (hpre6 m h4) (hpost6 m h4)
    (R7 m h4) (hpre7 m h4) (hpost7 m h4)
    (R8 m h4) (hpre8 m h4) (hpost8 m h4)
    (R9 m h4) (hpre9 m h4) (hpost9 m h4)
    (R10 m h4) (hpre10 m h4) (hpost10 m h4)
    (R11 m h4) (hpre11 m h4) (hpost11 m h4)
    (R12 m h4) (hpre12 m h4) (hpost12 m h4)
    (R13 m h4) (hpre13 m h4) (hpost13 m h4)
    (R14 m h4) (hpre14 m h4) (hpost14 m h4)
    (R15 m h4) (hpre15 m h4) (hpost15 m h4)
    (R16 m h4) (hpre16 m h4) (hpost16 m h4)
    (R17 m h4) (hpre17 m h4) (hpost17 m h4)
    (R18 m h4) (hpre18 m h4) (hpost18 m h4)
    (R19 m h4) (hpre19 m h4) (hpost19 m h4)
    (R20 m h4) (hpre20 m h4) (hpost20 m h4)
    (R21 m h4) (hpre21 m h4) (hpost21 m h4)
    (R22 m h4) (hpre22 m h4) (hpost22 m h4)
    (R23 m h4) (hpre23 m h4) (hpost23 m h4)
    (R24 m h4) (hpre24 m h4) (hpost24 m h4)
    (R25 m) (hpre25 m) (hpost25 m)
    (R26 m) (hpre26 m) (hpost26 m)
  -- the generated chain's last valuation is this chain's last contents
  refine Eq.mp (congrArg (fun Q => θ_run defs (onTc (τ := τ) (main (F := F))) ⟨m, fun _ => 0, ρ⟩ Q) (funext fun r => ?_)) h
  exact forall_congr fun c => by rw [show Gen.V54 m (outs m) c main_v73 = W54 m c main_v73 from congrFun (V54_eq m c) _]

end Cert.KernelIdeal.Hand

end
-- ==== Proof.KB.Base.lean ====
/-
  Shared vocabulary of the frame and value development of this kernel's printed program, at any float instance:
  the resource algebra the pipelines run over (the pipeline library's rounds component beside the counters a
  kernel's own transfers use), no variants, no levels (no core owes another anything), and the thread state that
  rides beside the unscoped buffers between @main's items: the generator register at some state and the core owing
  nothing.
-/
import proofs.«403631_j48275432407145_1_alg».proof.Proof.Gen.Kernel.Launch
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's rounds copy beside the transfer counters. -/
abbrev UC : Type := Pipeline.UD sig nD τ

local notation "𝕄" => MT nD τ sig Unit (Elt F) ℕ UC ℕ

/-- The pipeline library's component is the left one. -/
abbrev EP : Emb (UR sig nD τ) (MT nD τ sig Unit (Elt F) ℕ UC ℕ) := embL

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every item of @main: the generator register at some state
    and the core owing nothing. -/
abbrev R (c : Dev nD) : sProp 𝕄 :=
  iprop((∃ r, prngReg c r) ∗ ∃ W, owes (c : Thread nD τ) (0 : CellTallies nD τ sig Unit) W)

/-- The thread state between two items: every unscoped buffer of the core at the valuation `W`, beside `R`. -/
abbrev T (W : Valuation τ sig (Elt F)) (c : Dev nD) : sProp 𝕄 :=
  iprop(StableHlo.held (c : Thread nD τ) (Pipeline.ucRefs τ sig) W ∗ R c)

end Cert.Kernel.Hand

end
-- ==== Proof.KB.G24Body.lean ====
/-
  The gather kernel's body at a symbolic grid point, at any float instance and over variable operands.

  At grid point `i = (core, r)` the body reads sixteen words of the table (row `k`, column `core · 1000 + r`), each a row
  index of the (100000, 128) array, copies those sixteen rows into the (16, 128) gather buffer — sixteen copies in flight at
  once, one per counter —, stores the mean of the sixteen rows in row `r` of the carried (1000, 128) scratch, and, at a core's
  last point only (`r = 999`), stores the product of the whole scratch with the weight block in the output's buffer.

  Two triples, one per control case. The array is read by sixteen copies at once, so it is held under sixteen read shares
  for the time of the copies and whole before and after; the gather buffer is held row by row while the copies land, each
  in its own row, and whole again when the rows are read back. What the rows hold is stated in closed form: `gath24` (row
  `k` is the array's row named by the table's word), so the scratch after the point is `row24`: its row `r` replaced by
  the mean `Gen.k24_pay1 (gath24 …)`, every other row kept.
-/
import proofs.«403631_j48275432407145_1_alg».proof.Proof.KB.Base
import proofs.«403631_j48275432407145_1_alg».proof.Proof.Gen.Kernel.Skeleton
import Idealize.ShloMosaic.Lib.ValueIdx
import Idealize.ShloMosaic.Lib.Writes
import Idealize.ShloMosaic.Lib.Pipeline.FrameBody
import Idealize.ShloMosaic.Lib.Tactic
import Idealize.ShloMosaic.Lib.Ring
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A row index below the array's row count keeps a one-row window inside the array. -/
theorem row_inb (v : BitVec 32) (h : v.toNat < 100000) :
    ∀ a : Fin 2, (![v.toNat, 0] : Fin 2 → Nat) a + S1x128.size a ≤ S100000x128.size a := by
  intro a
  fin_cases a
  · show v.toNat + 1 ≤ 100000
    omega
  · show 0 + 128 ≤ 128
    omega

/-- Each gathered word's side condition follows from the word being a row index of the array. -/
theorem chk_of_lt (v : BitVec 32) (h : v.toNat < 100000) : k24_chk1 v := ⟨row_inb v h, row_inb v h⟩
theorem chk16_of_lt (v : BitVec 32) (h : v.toNat < 100000) : k24_chk16 v := row_inb v h

/-- An array read by sixteen transfers at once: one read share per transfer and the remainder. -/
theorem toks16 {ℓ : Loc nD τ sig} {S : Finset (Idx ℓ)} {f : Buf (Elt F) ℓ} :
    (ℓ ↦[S]{fullShare} f : sProp 𝕄) ⊣⊢
      iprop((ℓ ↦[S]{Transfers.shareDrop fullShare 16} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f) ∗ (ℓ ↦[S]{Transfers.shareTokN fullShare 10} f) ∗ (ℓ ↦[S]{Transfers.shareTokN fullShare 11} f) ∗ (ℓ ↦[S]{Transfers.shareTokN fullShare 12} f) ∗ (ℓ ↦[S]{Transfers.shareTokN fullShare 13} f) ∗ (ℓ ↦[S]{Transfers.shareTokN fullShare 14} f) ∗ (ℓ ↦[S]{Transfers.shareTokN fullShare 15} f)) := by
  have h := Transfers.pointsTo_toks_range (Ix := Unit) (Name := ℕ) (U := Pipeline.UD sig nD τ) (Lvl := ℕ) (Val := Elt F) (ℓ := ℓ) (S := S) (f := f) fullShare 16
  rw [BI.bigSep_eq_bigSepL_of_eq [0, 1, 2, 3, 4, 5, 6, 7, 8, 9, 10, 11, 12, 13, 14, 15] (by decide) (by decide)] at h
  exact h

/-- The scratch rows: row `k` of the (16, 128) gather buffer. -/
abbrev rowOff (k : Fin 16) : Fin 2 → Nat := ![k.val, 0]
theorem rowInb : ∀ (k : Fin 16) (a : Fin 2), rowOff k a + S1x128.size a ≤ S16x128.size a := by decide
abbrev rowR (k : Fin 16) : Rect S16x128 := Rect.unit (s := S16x128) (rowOff k) S1x128.size (rowInb k)

theorem rowR_disjoint (b b' : Fin 16) (h : b ≠ b') : Disjoint (rowR b).set (rowR b').set :=
  Ring.lead_disjoint (s := S16x128) (NB := 16) (0 : Fin 2) 1 rowOff S1x128.size rowInb (by intro b; show b.val = 1 * b.val; omega) (by rfl) b b' h

theorem rowR_cover : Finset.univ.biUnion (fun b : Fin 16 => (rowR b).set) = Finset.univ :=
  Ring.lead_cover (s := S16x128) (NB := 16) (0 : Fin 2) 1 rowOff S1x128.size rowInb (by intro b; show b.val = 1 * b.val; omega)
    (by intro b a ha; fin_cases a <;> simp_all [rowOff]) (by rfl) (by intro a ha; fin_cases a <;> simp_all <;> rfl) (by rfl)

/-- The gather buffer held whole is held row by row. -/
theorem rows_split (c : Dev nD) (arg7 : Memref sig .tc .vmem S16x128 .f32) (q : PosShare TreeShare)
    (g : arg7.view.ty.Contents (Elt F)) :
    (arg7.view.loc (c : Thread nD τ) ↦[arg7.view.set]{q} g : sProp 𝕄)
      = iprop((arg7.view.loc (c : Thread nD τ) ↦[arg7.view.setOn (Rect.unit (s := S16x128) ![0, 0] S1x128.size inb_S16x128_S1x128_0_0).set]{q} g)
      ∗ (arg7.view.loc (c : Thread nD τ) ↦[arg7.view.setOn (Rect.unit (s := S16x128) ![1, 0] S1x128.size inb_S16x128_S1x128_1_0).set]{q} g)
      ∗ (arg7.view.loc (c : Thread nD τ) ↦[arg7.view.setOn (Rect.unit (s := S16x128) ![2, 0] S1x128.size inb_S16x128_S1x128_2_0).set]{q} g)
      ∗ (arg7.view.loc (c : Thread nD τ) ↦[arg7.view.setOn (Rect.unit (s := S16x128) ![3, 0] S1x128.size inb_S16x128_S1x128_3_0).set]{q} g)
      ∗ (arg7.view.loc (c : Thread nD τ) ↦[arg7.view.setOn (Rect.unit (s := S16x128) ![4, 0] S1x128.size inb_S16x128_S1x128_4_0).set]{q} g)
      ∗ (arg7.view.loc (c : Thread nD τ) ↦[arg7.view.setOn (Rect.unit (s := S16x128) ![5, 0] S1x128.size inb_S16x128_S1x128_5_0).set]{q} g)
      ∗ (arg7.view.loc (c : Thread nD τ) ↦[arg7.view.setOn (Rect.unit (s := S16x128) ![6, 0] S1x128.size inb_S16x128_S1x128_6_0).set]{q} g)
      ∗ (arg7.view.loc (c : Thread nD τ) ↦[arg7.view.setOn (Rect.unit (s := S16x128) ![7, 0] S1x128.size inb_S16x128_S1x128_7_0).set]{q} g)
      ∗ (arg7.view.loc (c : Thread nD τ) ↦[arg7.view.setOn (Rect.unit (s := S16x128) ![8, 0] S1x128.size inb_S16x128_S1x128_8_0).set]{q} g)
      ∗ (arg7.view.loc (c : Thread nD τ) ↦[arg7.view.setOn (Rect.unit (s := S16x128) ![9, 0] S1x128.size inb_S16x128_S1x128_9_0).set]{q} g)
      ∗ (arg7.view.loc (c : Thread nD τ) ↦[arg7.view.setOn (Rect.unit (s := S16x128) ![10, 0] S1x128.size inb_S16x128_S1x128_10_0).set]{q} g)
      ∗ (arg7.view.loc (c : Thread nD τ) ↦[arg7.view.setOn (Rect.unit (s := S16x128) ![11, 0] S1x128.size inb_S16x128_S1x128_11_0).set]{q} g)
      ∗ (arg7.view.loc (c : Thread nD τ) ↦[arg7.view.setOn (Rect.unit (s := S16x128) ![12, 0] S1x128.size inb_S16x128_S1x128_12_0).set]{q} g)
      ∗ (arg7.view.loc (c : Thread nD τ) ↦[arg7.view.setOn (Rect.unit (s := S16x128) ![13, 0] S1x128.size inb_S16x128_S1x128_13_0).set]{q} g)
      ∗ (arg7.view.loc (c : Thread nD τ) ↦[arg7.view.setOn (Rect.unit (s := S16x128) ![14, 0] S1x128.size inb_S16x128_S1x128_14_0).set]{q} g)
      ∗ (arg7.view.loc (c : Thread nD τ) ↦[arg7.view.setOn (Rect.unit (s := S16x128) ![15, 0] S1x128.size inb_S16x128_S1x128_15_0).set]{q} g)) := by
  rw [pointsTo_rects (c : Thread nD τ) arg7 q rowR (fun _ _ => rfl) rowR_disjoint rowR_cover g,
    BI.bigSep_congr (fun t _ => (owns_slice_read (c : Thread nD τ) arg7 q (rowR t) (fun _ => rfl) g).trans
      (show _ = (arg7.view.loc (c : Thread nD τ) ↦[arg7.view.setOn (rowR t).set]{q} g : sProp 𝕄) by rw [View.set_slice]; rfl)),
    BI.bigSep_univ_eq_bigSepL [0, 1, 2, 3, 4, 5, 6, 7, 8, 9, 10, 11, 12, 13, 14, 15] (by decide) (by decide)]
  rfl

set_option maxHeartbeats 4000000 in
/-- Rows held at contents of their own, each agreeing with `G` on its row, are the buffer held whole at `G`. -/
theorem rows_join (c : Dev nD) (arg7 : Memref sig .tc .vmem S16x128 .f32) (q : PosShare TreeShare)
    (g0 g1 g2 g3 g4 g5 g6 g7 g8 g9 g10 g11 g12 g13 g14 g15 G : arg7.view.ty.Contents (Elt F))
    (h0 : ∀ z ∈ arg7.view.setOn (Rect.unit (s := S16x128) ![0, 0] S1x128.size inb_S16x128_S1x128_0_0).set, g0 z = G z)
    (h1 : ∀ z ∈ arg7.view.setOn (Rect.unit (s := S16x128) ![1, 0] S1x128.size inb_S16x128_S1x128_1_0).set, g1 z = G z)
    (h2 : ∀ z ∈ arg7.view.setOn (Rect.unit (s := S16x128) ![2, 0] S1x128.size inb_S16x128_S1x128_2_0).set, g2 z = G z)
    (h3 : ∀ z ∈ arg7.view.setOn (Rect.unit (s := S16x128) ![3, 0] S1x128.size inb_S16x128_S1x128_3_0).set, g3 z = G z)
    (h4 : ∀ z ∈ arg7.view.setOn (Rect.unit (s := S16x128) ![4, 0] S1x128.size inb_S16x128_S1x128_4_0).set, g4 z = G z)
    (h5 : ∀ z ∈ arg7.view.setOn (Rect.unit (s := S16x128) ![5, 0] S1x128.size inb_S16x128_S1x128_5_0).set, g5 z = G z)
    (h6 : ∀ z ∈ arg7.view.setOn (Rect.unit (s := S16x128) ![6, 0] S1x128.size inb_S16x128_S1x128_6_0).set, g6 z = G z)
    (h7 : ∀ z ∈ arg7.view.setOn (Rect.unit (s := S16x128) ![7, 0] S1x128.size inb_S16x128_S1x128_7_0).set, g7 z = G z)
    (h8 : ∀ z ∈ arg7.view.setOn (Rect.unit (s := S16x128) ![8, 0] S1x128.size inb_S16x128_S1x128_8_0).set, g8 z = G z)
    (h9 : ∀ z ∈ arg7.view.setOn (Rect.unit (s := S16x128) ![9, 0] S1x128.size inb_S16x128_S1x128_9_0).set, g9 z = G z)
    (h10 : ∀ z ∈ arg7.view.setOn (Rect.unit (s := S16x128) ![10, 0] S1x128.size inb_S16x128_S1x128_10_0).set, g10 z = G z)
    (h11 : ∀ z ∈ arg7.view.setOn (Rect.unit (s := S16x128) ![11, 0] S1x128.size inb_S16x128_S1x128_11_0).set, g11 z = G z)
    (h12 : ∀ z ∈ arg7.view.setOn (Rect.unit (s := S16x128) ![12, 0] S1x128.size inb_S16x128_S1x128_12_0).set, g12 z = G z)
    (h13 : ∀ z ∈ arg7.view.setOn (Rect.unit (s := S16x128) ![13, 0] S1x128.size inb_S16x128_S1x128_13_0).set, g13 z = G z)
    (h14 : ∀ z ∈ arg7.view.setOn (Rect.unit (s := S16x128) ![14, 0] S1x128.size inb_S16x128_S1x128_14_0).set, g14 z = G z)
    (h15 : ∀ z ∈ arg7.view.setOn (Rect.unit (s := S16x128) ![15, 0] S1x128.size inb_S16x128_S1x128_15_0).set, g15 z = G z) :
    (iprop((arg7.view.loc (c : Thread nD τ) ↦[arg7.view.setOn (Rect.unit (s := S16x128) ![0, 0] S1x128.size inb_S16x128_S1x128_0_0).set]{q} g0)
      ∗ (arg7.view.loc (c : Thread nD τ) ↦[arg7.view.setOn (Rect.unit (s := S16x128) ![1, 0] S1x128.size inb_S16x128_S1x128_1_0).set]{q} g1)
      ∗ (arg7.view.loc (c : Thread nD τ) ↦[arg7.view.setOn (Rect.unit (s := S16x128) ![2, 0] S1x128.size inb_S16x128_S1x128_2_0).set]{q} g2)
      ∗ (arg7.view.loc (c : Thread nD τ) ↦[arg7.view.setOn (Rect.unit (s := S16x128) ![3, 0] S1x128.size inb_S16x128_S1x128_3_0).set]{q} g3)
      ∗ (arg7.view.loc (c : Thread nD τ) ↦[arg7.view.setOn (Rect.unit (s := S16x128) ![4, 0] S1x128.size inb_S16x128_S1x128_4_0).set]{q} g4)
      ∗ (arg7.view.loc (c : Thread nD τ) ↦[arg7.view.setOn (Rect.unit (s := S16x128) ![5, 0] S1x128.size inb_S16x128_S1x128_5_0).set]{q} g5)
      ∗ (arg7.view.loc (c : Thread nD τ) ↦[arg7.view.setOn (Rect.unit (s := S16x128) ![6, 0] S1x128.size inb_S16x128_S1x128_6_0).set]{q} g6)
      ∗ (arg7.view.loc (c : Thread nD τ) ↦[arg7.view.setOn (Rect.unit (s := S16x128) ![7, 0] S1x128.size inb_S16x128_S1x128_7_0).set]{q} g7)
      ∗ (arg7.view.loc (c : Thread nD τ) ↦[arg7.view.setOn (Rect.unit (s := S16x128) ![8, 0] S1x128.size inb_S16x128_S1x128_8_0).set]{q} g8)
      ∗ (arg7.view.loc (c : Thread nD τ) ↦[arg7.view.setOn (Rect.unit (s := S16x128) ![9, 0] S1x128.size inb_S16x128_S1x128_9_0).set]{q} g9)
      ∗ (arg7.view.loc (c : Thread nD τ) ↦[arg7.view.setOn (Rect.unit (s := S16x128) ![10, 0] S1x128.size inb_S16x128_S1x128_10_0).set]{q} g10)
      ∗ (arg7.view.loc (c : Thread nD τ) ↦[arg7.view.setOn (Rect.unit (s := S16x128) ![11, 0] S1x128.size inb_S16x128_S1x128_11_0).set]{q} g11)
      ∗ (arg7.view.loc (c : Thread nD τ) ↦[arg7.view.setOn (Rect.unit (s := S16x128) ![12, 0] S1x128.size inb_S16x128_S1x128_12_0).set]{q} g12)
      ∗ (arg7.view.loc (c : Thread nD τ) ↦[arg7.view.setOn (Rect.unit (s := S16x128) ![13, 0] S1x128.size inb_S16x128_S1x128_13_0).set]{q} g13)
      ∗ (arg7.view.loc (c : Thread nD τ) ↦[arg7.view.setOn (Rect.unit (s := S16x128) ![14, 0] S1x128.size inb_S16x128_S1x128_14_0).set]{q} g14)
      ∗ (arg7.view.loc (c : Thread nD τ) ↦[arg7.view.setOn (Rect.unit (s := S16x128) ![15, 0] S1x128.size inb_S16x128_S1x128_15_0).set]{q} g15)) : sProp 𝕄)
      ⊢ (arg7.view.loc (c : Thread nD τ) ↦[arg7.view.set]{q} G : sProp 𝕄) := by
  have e0 := pointsTo_congr (Ix := Unit) (Name := ℕ) (U := Pipeline.UD sig nD τ) (Lvl := ℕ) (nD := nD) (τ := τ) (ℓ := arg7.view.loc (c : Thread nD τ)) (q := q) h0
  have e1 := pointsTo_congr (Ix := Unit) (Name := ℕ) (U := Pipeline.UD sig nD τ) (Lvl := ℕ) (nD := nD) (τ := τ) (ℓ := arg7.view.loc (c : Thread nD τ)) (q := q) h1
  have e2 := pointsTo_congr (Ix := Unit) (Name := ℕ) (U := Pipeline.UD sig nD τ) (Lvl := ℕ) (nD := nD) (τ := τ) (ℓ := arg7.view.loc (c : Thread nD τ)) (q := q) h2
  have e3 := pointsTo_congr (Ix := Unit) (Name := ℕ) (U := Pipeline.UD sig nD τ) (Lvl := ℕ) (nD := nD) (τ := τ) (ℓ := arg7.view.loc (c : Thread nD τ)) (q := q) h3
  have e4 := pointsTo_congr (Ix := Unit) (Name := ℕ) (U := Pipeline.UD sig nD τ) (Lvl := ℕ) (nD := nD) (τ := τ) (ℓ := arg7.view.loc (c : Thread nD τ)) (q := q) h4
  have e5 := pointsTo_congr (Ix := Unit) (Name := ℕ) (U := Pipeline.UD sig nD τ) (Lvl := ℕ) (nD := nD) (τ := τ) (ℓ := arg7.view.loc (c : Thread nD τ)) (q := q) h5
  have e6 := pointsTo_congr (Ix := Unit) (Name := ℕ) (U := Pipeline.UD sig nD τ) (Lvl := ℕ) (nD := nD) (τ := τ) (ℓ := arg7.view.loc (c : Thread nD τ)) (q := q) h6
  have e7 := pointsTo_congr (Ix := Unit) (Name := ℕ) (U := Pipeline.UD sig nD τ) (Lvl := ℕ) (nD := nD) (τ := τ) (ℓ := arg7.view.loc (c : Thread nD τ)) (q := q) h7
  have e8 := pointsTo_congr (Ix := Unit) (Name := ℕ) (U := Pipeline.UD sig nD τ) (Lvl := ℕ) (nD := nD) (τ := τ) (ℓ := arg7.view.loc (c : Thread nD τ)) (q := q) h8
  have e9 := pointsTo_congr (Ix := Unit) (Name := ℕ) (U := Pipeline.UD sig nD τ) (Lvl := ℕ) (nD := nD) (τ := τ) (ℓ := arg7.view.loc (c : Thread nD τ)) (q := q) h9
  have e10 := pointsTo_congr (Ix := Unit) (Name := ℕ) (U := Pipeline.UD sig nD τ) (Lvl := ℕ) (nD := nD) (τ := τ) (ℓ := arg7.view.loc (c : Thread nD τ)) (q := q) h10
  have e11 := pointsTo_congr (Ix := Unit) (Name := ℕ) (U := Pipeline.UD sig nD τ) (Lvl := ℕ) (nD := nD) (τ := τ) (ℓ := arg7.view.loc (c : Thread nD τ)) (q := q) h11
  have e12 := pointsTo_congr (Ix := Unit) (Name := ℕ) (U := Pipeline.UD sig nD τ) (Lvl := ℕ) (nD := nD) (τ := τ) (ℓ := arg7.view.loc (c : Thread nD τ)) (q := q) h12
  have e13 := pointsTo_congr (Ix := Unit) (Name := ℕ) (U := Pipeline.UD sig nD τ) (Lvl := ℕ) (nD := nD) (τ := τ) (ℓ := arg7.view.loc (c : Thread nD τ)) (q := q) h13
  have e14 := pointsTo_congr (Ix := Unit) (Name := ℕ) (U := Pipeline.UD sig nD τ) (Lvl := ℕ) (nD := nD) (τ := τ) (ℓ := arg7.view.loc (c : Thread nD τ)) (q := q) h14
  have e15 := pointsTo_congr (Ix := Unit) (Name := ℕ) (U := Pipeline.UD sig nD τ) (Lvl := ℕ) (nD := nD) (τ := τ) (ℓ := arg7.view.loc (c : Thread nD τ)) (q := q) h15
  rw [rows_split (F := F) c arg7 q G, e0, e1, e2, e3, e4, e5, e6, e7, e8, e9, e10, e11, e12, e13, e14, e15]

/-- The word the kernel reads at table offsets `off`. -/
abbrev wordAt (arg2 : Memref sig .tc .smem S16x2000 .i32) (f2 : arg2.view.ty.Contents (Elt F)) (off : Fin 2 → Nat)
    (inb : ∀ a, off a + S1x1.size a ≤ S16x2000.size a) : BitVec 32 :=
  View.readAt (Elt F) arg2.view (Rect.unit (s := S16x2000) off S1x1.size inb).toLoadRect f2
    (Shape.Idx.first (show 0 < (Rect.unit (s := S16x2000) off S1x1.size inb).toLoadRect.shape.numel from Nat.one_pos))

/-- The table column of grid point `i`, as the kernel computes it: `(i 0) · 1000 + (i 1)`. -/
theorem col_eq (i : grid24.Coords) : (k24_off1 i) 1 = (i 0).val * 1000 + (i 1).val := by
  have h0 : (i 0).val < 2 := (i 0).isLt
  have h1 : (i 1).val < 1000 := (i 1).isLt
  simp only [k24_off1, Scalar.muli, Scalar.addi, Scalar.indexCast]
  show (IntOp.addi (IntOp.muli (BitVec.ofNat 32 (i 0).val) 1000#32) (BitVec.ofNat 32 (i 1).val)).toNat = _
  simp only [IntOp.addi, IntOp.muli, BitVec.toNat_add, BitVec.toNat_mul, BitVec.toNat_ofNat]
  omega

theorem off48_eq (i : grid24.Coords) : (k24_off48 i) 0 = (i 1).val := by
  have h1 : (i 1).val < 1000 := (i 1).isLt
  simp only [k24_off48, Scalar.indexCast]
  show (BitVec.ofNat 32 (i 1).val).toNat = _
  simp only [BitVec.toNat_ofNat]
  omega

theorem off48_one (i : grid24.Coords) : (k24_off48 i) 1 = 0 := rfl

/-- The table's column of grid point `i`. -/
def col24 (i : grid24.Coords) : Fin 2000 := ⟨(k24_off1 i) 1, Nat.lt_of_succ_le (k24_off1_inb i 1)⟩

/-- The sixteen gathered rows at grid point `i`: row `k` is the array's row named by the table's word `(k, column of i)`. -/
def gath24 (i : grid24.Coords) (tb : Vec F S16x2000 .i32) (A0 : Vec F S100000x128 .f32) : Vec F S16x128 .f32 :=
  fun x => A0 (ValueIdx.ix2 (⟨(tb (ValueIdx.ix2 (x 0) (col24 i))).toNat % 100000, Nat.mod_lt _ (by decide)⟩ : Fin 100000) (x 1))

/-- The carried scratch after the point: row `i 1` is the mean of the gathered rows, the others as they were. -/
def row24 (i : grid24.Coords) (tb : Vec F S16x2000 .i32) (A0 : Vec F S100000x128 .f32) (s : Vec F S1000x128 .f32) : Vec F S1000x128 .f32 :=
  fun x => if (x 0).val = (i 1).val then k24_pay1 (gath24 i tb A0) (ValueIdx.ix2 (0 : Fin 1) (x 1)) else s x

theorem row24_of_ne (i : grid24.Coords) (tb : Vec F S16x2000 .i32) (A0 : Vec F S100000x128 .f32) (s : Vec F S1000x128 .f32)
    (x : S1000x128.Idx) (h : (x 0).val ≠ (i 1).val) : row24 i tb A0 s x = s x := if_neg h

theorem row24_of_eq (i : grid24.Coords) (tb : Vec F S16x2000 .i32) (A0 : Vec F S100000x128 .f32) (s : Vec F S1000x128 .f32)
    (x : S1000x128.Idx) (h : (x 0).val = (i 1).val) (y : S1x128.Idx) (hy : (y 1).val = (x 1).val) :
    row24 i tb A0 s x = k24_pay1 (gath24 i tb A0) y := by
  unfold row24
  rw [if_pos h]
  congr 1
  funext a
  fin_cases a
  · have h1 : (y 0).val < 1 := (y 0).isLt
    exact Fin.ext (show (0 : Nat) = (y 0).val by omega)
  · exact Fin.ext hy.symm

theorem gath24_apply (i : grid24.Coords) (tb : Vec F S16x2000 .i32) (A0 : Vec F S100000x128 .f32) (k : Fin 16) (l : Fin 128)
    (hc : (i 0).val * 1000 + (i 1).val < 2000)
    (h : (tb (ValueIdx.ix2 k ⟨(i 0).val * 1000 + (i 1).val, hc⟩)).toNat < 100000) :
    gath24 i tb A0 (ValueIdx.ix2 k l) = A0 (ValueIdx.ix2 ⟨(tb (ValueIdx.ix2 k ⟨(i 0).val * 1000 + (i 1).val, hc⟩)).toNat, h⟩ l) := by
  have hcol : col24 i = ⟨(i 0).val * 1000 + (i 1).val, hc⟩ := Fin.ext (col_eq i)
  show A0 (ValueIdx.ix2 (⟨(tb (ValueIdx.ix2 k (col24 i))).toNat % 100000, _⟩ : Fin 100000) l) = _
  congr 2
  apply Fin.ext
  show (tb (ValueIdx.ix2 k (col24 i))).toNat % 100000 = _
  rw [hcol]
  exact Nat.mod_eq_of_lt h

/-- A whole load of a whole buffer held at the contents reading `X` reads `X`. -/
theorem readAt_whole_unread (arg7 : Memref sig .tc .vmem S16x128 .f32) (harg7 : arg7.IsWhole) (X : Vec F S16x128 .f32) :
    View.readAt (Elt F) arg7.view (Rect.unit (s := S16x128) ![0, 0] S16x128.size inb_S16x128_S16x128_0_0).toLoadRect (harg7.unread X) = X := by
  funext x
  unfold View.readAt
  have hx : (Rect.unit (s := S16x128) ![0, 0] S16x128.size inb_S16x128_S16x128_0_0).toLoadRect.idx x = x := by
    funext a
    apply Fin.ext
    rw [LoadRect.idx_apply]
    fin_cases a <;> simp
  rw [hx, harg7.read_unread]

/-- A row written through the squeeze of its slice agrees, on the row, with the whole buffer's contents reading `X`,
    when `X` on that row is the payload. -/
theorem row_agree (arg7 : Memref sig .tc .vmem S16x128 .f32) (harg7 : arg7.IsWhole) (R : Rect S16x128) (hR1 : ∀ a, R.stride a = 1)
    (hs : R.shape.Squeezes S128) (f7 : arg7.view.ty.Contents (Elt F)) (p : S128.Idx → Elt F .f32) (X : Vec F S16x128 .f32)
    (hX : ∀ j : R.shape.Idx, X (R.emb j) = p ((Shape.reshapeEquiv hs.numel_eq).symm j)) :
    ∀ z ∈ arg7.view.setOn R.set, View.write (Elt F) ((arg7.slice R hR1).squeeze S128 hs).view f7 p Finset.univ z = harg7.unread X z := by
  intro z hz
  obtain ⟨x, hx, rfl⟩ := Finset.mem_map.mp hz
  rw [← Rect.map_emb_univ] at hx
  obtain ⟨j, -, rfl⟩ := Finset.mem_map.mp hx
  have e : arg7.view.emb (R.emb j) = ((arg7.slice R hR1).squeeze S128 hs).view.emb ((Shape.reshapeEquiv hs.numel_eq).symm j) := by
    simp [View.emb_reshape, View.emb_slice]
  have hr := congrFun (harg7.read_unread X) (R.emb j)
  rw [View.read_apply] at hr
  rw [e, View.write_emb_of_mem _ _ (Finset.mem_univ _), ← e, ← hX j, ← hr]
  rw [cast_cast, cast_eq]

/-- The row store into the carried scratch, read back: the stored row at row `i 1`, the old contents elsewhere. -/
theorem read_row_store (arg6 : Memref sig .tc .vmem S1000x128 .f32) (i : grid24.Coords)
    (inb : ∀ a, (k24_off48 i) a + S1x128.size a ≤ S1000x128.size a) (f6 : arg6.view.ty.Contents (Elt F))
    (p : FVec F S1x128 .f32) :
    arg6.view.read (Elt F) (arg6.view.writes (Elt F) f6 [⟨Rect.unit (s := S1000x128) (k24_off48 i) S1x128.size inb, p⟩])
      = fun x => if (x 0).val = (i 1).val then p (ValueIdx.ix2 (0 : Fin 1) (x 1)) else arg6.view.read (Elt F) f6 x := by
  funext x
  by_cases h : (x 0).val = (i 1).val
  · rw [if_pos h]
    have hx : x = (Rect.unit (s := S1000x128) (k24_off48 i) S1x128.size inb).emb (ValueIdx.ix2 (0 : Fin 1) (x 1)) := by
      funext a
      apply Fin.ext
      rw [Rect.emb_apply]
      fin_cases a
      · show (x 0).val = (k24_off48 i) 0 + 1 * 0
        rw [off48_eq, h]; omega
      · show (x 1).val = (k24_off48 i) 1 + 1 * (x 1).val
        rw [off48_one]; omega
    conv_lhs => rw [hx]
    apply View.read_writes_cons_emb
  · rw [if_neg h]
    apply View.read_writes_apply_of_forall_not_mem
    intro pc hpc
    rw [List.mem_singleton] at hpc
    subst hpc
    rw [Rect.mem_set_unit]
    intro hall
    have h0 := hall 0
    rw [off48_eq] at h0
    have hz : S1x128.size 0 = 1 := rfl
    rw [hz] at h0
    omega

/-- Row `k` of the gathered rows is the transfer's payload: the array's row named by the word the kernel read. -/
theorem gath_row (i : grid24.Coords) (arg2 : Memref sig .tc .smem S16x2000 .i32) (f2 : arg2.view.ty.Contents (Elt F))
    (arg3 : Memref sig .tc .hbm S100000x128 .f32) (f3 : arg3.view.ty.Contents (Elt F))
    (k : Nat) (hk : k < 16) (inbk : ∀ a, (![k, 0] : Fin 2 → Nat) a + S1x128.size a ≤ S16x128.size a)
    (offN : Fin 2 → Nat) (inbN : ∀ a, offN a + S1x1.size a ≤ S16x2000.size a) (hN0 : offN 0 = k) (hN1 : offN 1 = (k24_off1 i) 1)
    (hfirst : 0 < (Rect.unit (s := S16x2000) offN S1x1.size inbN).toLoadRect.shape.numel)
    (offM : Fin 2 → Nat) (w : BitVec 32)
    (hw : w = View.readAt (Elt F) arg2.view (Rect.unit (s := S16x2000) offN S1x1.size inbN).toLoadRect f2 (Shape.Idx.first hfirst))
    (hwlt : w.toNat < 100000) (hM0 : offM 0 = w.toNat) (hM1 : offM 1 = 0)
    (inbM : ∀ a, offM a + S1x128.size a ≤ S100000x128.size a)
    (hs : (Rect.unit (s := S16x128) ![k, 0] S1x128.size inbk).shape.Squeezes S128)
    (hs' : (Rect.unit (s := S100000x128) offM S1x128.size inbM).shape.Squeezes S128) :
    ∀ j : (Rect.unit (s := S16x128) ![k, 0] S1x128.size inbk).shape.Idx,
      gath24 i (View.read (Elt F) arg2.view f2) (View.read (Elt F) arg3.view f3) ((Rect.unit (s := S16x128) ![k, 0] S1x128.size inbk).emb j)
        = ReadAs.same.apply (View.read (Elt F) ((arg3.slice (Rect.unit (s := S100000x128) offM S1x128.size inbM) (fun _ => rfl)).squeeze S128 hs').view f3)
            ((Shape.reshapeEquiv hs.numel_eq).symm j) := by
  intro j
  have hsrc : ReadAs.same.apply (View.read (Elt F) ((arg3.slice (Rect.unit (s := S100000x128) offM S1x128.size inbM) (fun _ => rfl)).squeeze S128 hs').view f3)
      ((Shape.reshapeEquiv hs.numel_eq).symm j)
        = View.read (Elt F) arg3.view f3 ((Rect.unit (s := S100000x128) offM S1x128.size inbM).emb
            (Shape.reshapeEquiv hs'.numel_eq ((Shape.reshapeEquiv hs.numel_eq).symm j))) := rfl
  rw [hsrc]
  have hjj : Shape.reshapeEquiv hs'.numel_eq ((Shape.reshapeEquiv hs.numel_eq).symm j) = j :=
    Equiv.apply_symm_apply (Shape.reshapeEquiv hs.numel_eq) j
  have hW : View.read (Elt F) arg2.view f2 (ValueIdx.ix2 ((Rect.unit (s := S16x128) ![k, 0] S1x128.size inbk).emb j 0) (col24 i)) = w := by
    rw [hw]
    show _ = View.read (Elt F) arg2.view f2 ((Rect.unit (s := S16x2000) offN S1x1.size inbN).toLoadRect.idx (Shape.Idx.first hfirst))
    congr 1
    rw [ValueIdx.eq_ix2 ((Rect.unit (s := S16x2000) offN S1x1.size inbN).toLoadRect.idx (Shape.Idx.first hfirst))]
    congr 1
    · apply Fin.ext
      rw [Rect.emb_apply, LoadRect.idx_apply]
      show k + 1 * (j 0).val = offN 0 + 1 * 0
      have hj0 : (j 0).val < 1 := (j 0).isLt
      omega
    · apply Fin.ext
      rw [LoadRect.idx_apply]
      show (k24_off1 i) 1 = offN 1 + 1 * 0
      omega
  unfold gath24
  congr 1
  funext a
  apply Fin.ext
  rw [Rect.emb_apply]
  fin_cases a
  · show (View.read (Elt F) arg2.view f2 (ValueIdx.ix2 ((Rect.unit (s := S16x128) ![k, 0] S1x128.size inbk).emb j 0) (col24 i))).toNat % 100000
        = offM 0 + 1 * ((Shape.reshapeEquiv hs'.numel_eq ((Shape.reshapeEquiv hs.numel_eq).symm j)) 0).val
    rw [hW, hM0, Nat.mod_eq_of_lt hwlt]
    have hz : ((Shape.reshapeEquiv hs'.numel_eq ((Shape.reshapeEquiv hs.numel_eq).symm j)) 0).val < 1 := Fin.isLt _
    omega
  · show ((Rect.unit (s := S16x128) ![k, 0] S1x128.size inbk).emb j 1).val
        = offM 1 + 1 * ((Shape.reshapeEquiv hs'.numel_eq ((Shape.reshapeEquiv hs.numel_eq).symm j)) 1).val
    rw [Rect.emb_apply, hM1, hjj]
    show 0 + 1 * (j 1).val = 0 + 1 * (j 1).val
    rfl

/-- A whole load reads the contents as the view reads them. -/
theorem readAt_whole_S1000x128 {sp : Space} (m : Memref sig .tc sp S1000x128 .f32) (f : m.view.ty.Contents (Elt F)) :
    View.readAt (Elt F) m.view (Rect.unit (s := S1000x128) ![0, 0] S1000x128.size inb_S1000x128_S1000x128_0_0).toLoadRect f = m.view.read (Elt F) f := by
  funext x
  unfold View.readAt
  have hx : (Rect.unit (s := S1000x128) ![0, 0] S1000x128.size inb_S1000x128_S1000x128_0_0).toLoadRect.idx x = x := by
    funext a
    apply Fin.ext
    rw [LoadRect.idx_apply]
    fin_cases a <;> simp
  rw [hx]

/-- A whole load reads the contents as the view reads them. -/
theorem readAt_whole_S128x128 {sp : Space} (m : Memref sig .tc sp S128x128 .f32) (f : m.view.ty.Contents (Elt F)) :
    View.readAt (Elt F) m.view (Rect.unit (s := S128x128) ![0, 0] S128x128.size inb_S128x128_S128x128_0_0).toLoadRect f = m.view.read (Elt F) f := by
  funext x
  unfold View.readAt
  have hx : (Rect.unit (s := S128x128) ![0, 0] S128x128.size inb_S128x128_S128x128_0_0).toLoadRect.idx x = x := by
    funext a
    apply Fin.ext
    rw [LoadRect.idx_apply]
    fin_cases a <;> simp
  rw [hx]

/-- A whole store, read back: the payload. -/
theorem read_whole_store (arg5 : Memref sig .tc .vmem S1000x128 .f32) (g : arg5.view.ty.Contents (Elt F)) (p : FVec F S1000x128 .f32) :
    arg5.view.read (Elt F) (arg5.view.writes (Elt F) g [⟨Rect.unit (s := S1000x128) ![0, 0] S1000x128.size inb_S1000x128_S1000x128_0_0, p⟩]) = p := by
  funext x
  have hx : x = (Rect.unit (s := S1000x128) ![0, 0] S1000x128.size inb_S1000x128_S1000x128_0_0).emb x := by
    funext a
    apply Fin.ext
    rw [Rect.emb_apply]
    fin_cases a <;> simp
  conv_lhs => rw [hx]
  apply View.read_writes_cons_emb

/-- The gather kernel's body, the same text for every gather region of the program. -/
abbrev gatherFn := @cc24__gather_agg_matmul_kernel F _ _

section Body24

variable (c : Dev nD) (i : grid24.Coords)
  (arg2 : Memref sig .tc .smem S16x2000 .i32) (harg2 : arg2.IsWhole)
  (arg3 : Memref sig .tc .hbm S100000x128 .f32) (harg3 : arg3.IsWhole)
  (arg4 : Memref sig .tc .vmem S128x128 .f32) (harg4 : arg4.IsWhole)
  (arg5 : Memref sig .tc .vmem S1000x128 .f32) (harg5 : arg5.IsWhole)
  (arg6 : Memref sig .tc .vmem S1000x128 .f32) (harg6 : arg6.IsWhole)
  (arg7 : Memref sig .tc .vmem S16x128 .f32) (harg7 : arg7.IsWhole)
  (arg8 : DmaSems sig S16)

/-- The kernel's sixteen transfer counters, each at zero. -/
def cells24 : sProp 𝕄 :=
  iprop(semVal ((c : Thread nD τ), SemLoc.dma ((arg8.slice (Rect.unit (s := S16) ![0] S1.size inb_S16_S1_0)).squeeze S_ squeezes_S1_S_).sem) 0
    ∗ semVal ((c : Thread nD τ), SemLoc.dma ((arg8.slice (Rect.unit (s := S16) ![1] S1.size inb_S16_S1_1)).squeeze S_ squeezes_S1_S_).sem) 0
    ∗ semVal ((c : Thread nD τ), SemLoc.dma ((arg8.slice (Rect.unit (s := S16) ![2] S1.size inb_S16_S1_2)).squeeze S_ squeezes_S1_S_).sem) 0
    ∗ semVal ((c : Thread nD τ), SemLoc.dma ((arg8.slice (Rect.unit (s := S16) ![3] S1.size inb_S16_S1_3)).squeeze S_ squeezes_S1_S_).sem) 0
    ∗ semVal ((c : Thread nD τ), SemLoc.dma ((arg8.slice (Rect.unit (s := S16) ![4] S1.size inb_S16_S1_4)).squeeze S_ squeezes_S1_S_).sem) 0
    ∗ semVal ((c : Thread nD τ), SemLoc.dma ((arg8.slice (Rect.unit (s := S16) ![5] S1.size inb_S16_S1_5)).squeeze S_ squeezes_S1_S_).sem) 0
    ∗ semVal ((c : Thread nD τ), SemLoc.dma ((arg8.slice (Rect.unit (s := S16) ![6] S1.size inb_S16_S1_6)).squeeze S_ squeezes_S1_S_).sem) 0
    ∗ semVal ((c : Thread nD τ), SemLoc.dma ((arg8.slice (Rect.unit (s := S16) ![7] S1.size inb_S16_S1_7)).squeeze S_ squeezes_S1_S_).sem) 0
    ∗ semVal ((c : Thread nD τ), SemLoc.dma ((arg8.slice (Rect.unit (s := S16) ![8] S1.size inb_S16_S1_8)).squeeze S_ squeezes_S1_S_).sem) 0
    ∗ semVal ((c : Thread nD τ), SemLoc.dma ((arg8.slice (Rect.unit (s := S16) ![9] S1.size inb_S16_S1_9)).squeeze S_ squeezes_S1_S_).sem) 0
    ∗ semVal ((c : Thread nD τ), SemLoc.dma ((arg8.slice (Rect.unit (s := S16) ![10] S1.size inb_S16_S1_10)).squeeze S_ squeezes_S1_S_).sem) 0
    ∗ semVal ((c : Thread nD τ), SemLoc.dma ((arg8.slice (Rect.unit (s := S16) ![11] S1.size inb_S16_S1_11)).squeeze S_ squeezes_S1_S_).sem) 0
    ∗ semVal ((c : Thread nD τ), SemLoc.dma ((arg8.slice (Rect.unit (s := S16) ![12] S1.size inb_S16_S1_12)).squeeze S_ squeezes_S1_S_).sem) 0
    ∗ semVal ((c : Thread nD τ), SemLoc.dma ((arg8.slice (Rect.unit (s := S16) ![13] S1.size inb_S16_S1_13)).squeeze S_ squeezes_S1_S_).sem) 0
    ∗ semVal ((c : Thread nD τ), SemLoc.dma ((arg8.slice (Rect.unit (s := S16) ![14] S1.size inb_S16_S1_14)).squeeze S_ squeezes_S1_S_).sem) 0
    ∗ semVal ((c : Thread nD τ), SemLoc.dma ((arg8.slice (Rect.unit (s := S16) ![15] S1.size inb_S16_S1_15)).squeeze S_ squeezes_S1_S_).sem) 0)

theorem cells24_def : cells24 (F := F) c arg8 =
  iprop(semVal ((c : Thread nD τ), SemLoc.dma ((arg8.slice (Rect.unit (s := S16) ![0] S1.size inb_S16_S1_0)).squeeze S_ squeezes_S1_S_).sem) 0
    ∗ semVal ((c : Thread nD τ), SemLoc.dma ((arg8.slice (Rect.unit (s := S16) ![1] S1.size inb_S16_S1_1)).squeeze S_ squeezes_S1_S_).sem) 0
    ∗ semVal ((c : Thread nD τ), SemLoc.dma ((arg8.slice (Rect.unit (s := S16) ![2] S1.size inb_S16_S1_2)).squeeze S_ squeezes_S1_S_).sem) 0
    ∗ semVal ((c : Thread nD τ), SemLoc.dma ((arg8.slice (Rect.unit (s := S16) ![3] S1.size inb_S16_S1_3)).squeeze S_ squeezes_S1_S_).sem) 0
    ∗ semVal ((c : Thread nD τ), SemLoc.dma ((arg8.slice (Rect.unit (s := S16) ![4] S1.size inb_S16_S1_4)).squeeze S_ squeezes_S1_S_).sem) 0
    ∗ semVal ((c : Thread nD τ), SemLoc.dma ((arg8.slice (Rect.unit (s := S16) ![5] S1.size inb_S16_S1_5)).squeeze S_ squeezes_S1_S_).sem) 0
    ∗ semVal ((c : Thread nD τ), SemLoc.dma ((arg8.slice (Rect.unit (s := S16) ![6] S1.size inb_S16_S1_6)).squeeze S_ squeezes_S1_S_).sem) 0
    ∗ semVal ((c : Thread nD τ), SemLoc.dma ((arg8.slice (Rect.unit (s := S16) ![7] S1.size inb_S16_S1_7)).squeeze S_ squeezes_S1_S_).sem) 0
    ∗ semVal ((c : Thread nD τ), SemLoc.dma ((arg8.slice (Rect.unit (s := S16) ![8] S1.size inb_S16_S1_8)).squeeze S_ squeezes_S1_S_).sem) 0
    ∗ semVal ((c : Thread nD τ), SemLoc.dma ((arg8.slice (Rect.unit (s := S16) ![9] S1.size inb_S16_S1_9)).squeeze S_ squeezes_S1_S_).sem) 0
    ∗ semVal ((c : Thread nD τ), SemLoc.dma ((arg8.slice (Rect.unit (s := S16) ![10] S1.size inb_S16_S1_10)).squeeze S_ squeezes_S1_S_).sem) 0
    ∗ semVal ((c : Thread nD τ), SemLoc.dma ((arg8.slice (Rect.unit (s := S16) ![11] S1.size inb_S16_S1_11)).squeeze S_ squeezes_S1_S_).sem) 0
    ∗ semVal ((c : Thread nD τ), SemLoc.dma ((arg8.slice (Rect.unit (s := S16) ![12] S1.size inb_S16_S1_12)).squeeze S_ squeezes_S1_S_).sem) 0
    ∗ semVal ((c : Thread nD τ), SemLoc.dma ((arg8.slice (Rect.unit (s := S16) ![13] S1.size inb_S16_S1_13)).squeeze S_ squeezes_S1_S_).sem) 0
    ∗ semVal ((c : Thread nD τ), SemLoc.dma ((arg8.slice (Rect.unit (s := S16) ![14] S1.size inb_S16_S1_14)).squeeze S_ squeezes_S1_S_).sem) 0
    ∗ semVal ((c : Thread nD τ), SemLoc.dma ((arg8.slice (Rect.unit (s := S16) ![15] S1.size inb_S16_S1_15)).squeeze S_ squeezes_S1_S_).sem) 0) := rfl

set_option maxHeartbeats 4000000 in
/-- A point that is not its core's last: the sixteen rows are gathered, their mean is stored in row `i 1` of the carried
    scratch, and the output's buffer is not touched. -/
theorem run24_idle (hi : k24_cond1 i ≠ 1#1)
    (tb : Vec F S16x2000 .i32) (hR : ∀ x : S16x2000.Idx, (tb x).toNat < 100000)
    (A0 : Vec F S100000x128 .f32) (x0 : Vec F S128x128 .f32) (s : Vec F S1000x128 .f32)
    (O : sProp 𝕄) (W : Waits sig Unit) (Q : PUnit → sProp 𝕄) :
    iprop(owns (c : Thread nD τ) arg2 fullShare tb ∗ owns (c : Thread nD τ) arg3 fullShare A0
        ∗ owns (c : Thread nD τ) arg4 fullShare x0 ∗ O ∗ owns (c : Thread nD τ) arg6 fullShare s
        ∗ (∃ d, owns (c : Thread nD τ) arg7 fullShare d) ∗ cells24 (F := F) c arg8 ∗ owes (c : Thread nD τ) 0 W
        ∗ (iprop(owns (c : Thread nD τ) arg2 fullShare tb ∗ owns (c : Thread nD τ) arg3 fullShare A0
            ∗ owns (c : Thread nD τ) arg4 fullShare x0 ∗ O ∗ owns (c : Thread nD τ) arg6 fullShare (row24 i tb A0 s)
            ∗ (∃ d, owns (c : Thread nD τ) arg7 fullShare d) ∗ cells24 (F := F) c arg8 ∗ (∃ W', owes (c : Thread nD τ) 0 W')) -∗ Q ⟨⟩))
      ⊢ wp frame (wpE (defs₀ (F := F)) Variants.none c none) Set.univ
          (gatherFn (F := F) i arg2 harg2 arg3 harg3 arg4 harg4 arg5 harg5 arg6 harg6 arg7 harg7 arg8) Q := by
  unfold gatherFn owns cells24
  iintro ⟨⟨%f2, %hf2, H2⟩, ⟨%f3, %hf3, H3⟩, ⟨%f4, %hf4, H4⟩, HO, ⟨%f6, %hf6, H6⟩, ⟨%d7, %f7, -, H7⟩, ⟨C0, C1, C2, C3, C4, C5, C6, C7, C8, C9, C10, C11, C12, C13, C14, C15⟩, HW, Hk⟩
  subst hf2 hf3 hf4 hf6
  -- the array read by sixteen transfers at once: one read share each
  ihave H3' := (toks16 (F := F)).1 $$ H3
  icases H3' with ⟨T, T0, T1, T2, T3, T4, T5, T6, T7, T8, T9, T10, T11, T12, T13, T14, T15⟩
  -- the gather buffer row by row: each transfer lands in its own row
  ihave H7' := (Entails.of_eq (rows_split (F := F) c arg7 fullShare f7)) $$ H7
  icases H7' with ⟨R0, R1, R2, R3, R4, R5, R6, R7, R8, R9, R10, R11, R12, R13, R14, R15⟩
  simp only [cc24__gather_agg_matmul_kernel_eq_skeleton]; unfold cc24__gather_agg_matmul_kernel_skel
  -- the sixteen words, checks, issues and waits
  set_option sl_exec.dmaWindow true in sl_exec (disch := first | exact chk_of_lt _ (hR _) | exact chk16_of_lt _ (hR _) | assumption)
  -- the rows back into the whole buffer, at the contents reading the gathered rows
  have hx0 := gath_row (F := F) i arg2 f2 arg3 f3 0 (by decide) inb_S16x128_S1x128_0_0 (k24_off1 i) (k24_off1_inb i) rfl rfl Nat.one_pos (k24_off2 (wordAt (F := F) arg2 f2 (k24_off1 i) (k24_off1_inb i))) (wordAt (F := F) arg2 f2 (k24_off1 i) (k24_off1_inb i)) rfl (hR _) rfl rfl (row_inb _ (hR _)) squeezes_S1x128_S128 squeezes_S1x128_S128
  have hx1 := gath_row (F := F) i arg2 f2 arg3 f3 1 (by decide) inb_S16x128_S1x128_1_0 (k24_off3 i) (k24_off3_inb i) rfl rfl Nat.one_pos (k24_off4 (wordAt (F := F) arg2 f2 (k24_off3 i) (k24_off3_inb i))) (wordAt (F := F) arg2 f2 (k24_off3 i) (k24_off3_inb i)) rfl (hR _) rfl rfl (row_inb _ (hR _)) squeezes_S1x128_S128 squeezes_S1x128_S128
  have hx2 := gath_row (F := F) i arg2 f2 arg3 f3 2 (by decide) inb_S16x128_S1x128_2_0 (k24_off5 i) (k24_off5_inb i) rfl rfl Nat.one_pos (k24_off6 (wordAt (F := F) arg2 f2 (k24_off5 i) (k24_off5_inb i))) (wordAt (F := F) arg2 f2 (k24_off5 i) (k24_off5_inb i)) rfl (hR _) rfl rfl (row_inb _ (hR _)) squeezes_S1x128_S128 squeezes_S1x128_S128
  have hx3 := gath_row (F := F) i arg2 f2 arg3 f3 3 (by decide) inb_S16x128_S1x128_3_0 (k24_off7 i) (k24_off7_inb i) rfl rfl Nat.one_pos (k24_off8 (wordAt (F := F) arg2 f2 (k24_off7 i) (k24_off7_inb i))) (wordAt (F := F) arg2 f2 (k24_off7 i) (k24_off7_inb i)) rfl (hR _) rfl rfl (row_inb _ (hR _)) squeezes_S1x128_S128 squeezes_S1x128_S128
  have hx4 := gath_row (F := F) i arg2 f2 arg3 f3 4 (by decide) inb_S16x128_S1x128_4_0 (k24_off9 i) (k24_off9_inb i) rfl rfl Nat.one_pos (k24_off10 (wordAt (F := F) arg2 f2 (k24_off9 i) (k24_off9_inb i))) (wordAt (F := F) arg2 f2 (k24_off9 i) (k24_off9_inb i)) rfl (hR _) rfl rfl (row_inb _ (hR _)) squeezes_S1x128_S128 squeezes_S1x128_S128
  have hx5 := gath_row (F := F) i arg2 f2 arg3 f3 5 (by decide) inb_S16x128_S1x128_5_0 (k24_off11 i) (k24_off11_inb i) rfl rfl Nat.one_pos (k24_off12 (wordAt (F := F) arg2 f2 (k24_off11 i) (k24_off11_inb i))) (wordAt (F := F) arg2 f2 (k24_off11 i) (k24_off11_inb i)) rfl (hR _) rfl rfl (row_inb _ (hR _)) squeezes_S1x128_S128 squeezes_S1x128_S128
  have hx6 := gath_row (F := F) i arg2 f2 arg3 f3 6 (by decide) inb_S16x128_S1x128_6_0 (k24_off13 i) (k24_off13_inb i) rfl rfl Nat.one_pos (k24_off14 (wordAt (F := F) arg2 f2 (k24_off13 i) (k24_off13_inb i))) (wordAt (F := F) arg2 f2 (k24_off13 i) (k24_off13_inb i)) rfl (hR _) rfl rfl (row_inb _ (hR _)) squeezes_S1x128_S128 squeezes_S1x128_S128
  have hx7 := gath_row (F := F) i arg2 f2 arg3 f3 7 (by decide) inb_S16x128_S1x128_7_0 (k24_off15 i) (k24_off15_inb i) rfl rfl Nat.one_pos (k24_off16 (wordAt (F := F) arg2 f2 (k24_off15 i) (k24_off15_inb i))) (wordAt (F := F) arg2 f2 (k24_off15 i) (k24_off15_inb i)) rfl (hR _) rfl rfl (row_inb _ (hR _)) squeezes_S1x128_S128 squeezes_S1x128_S128
  have hx8 := gath_row (F := F) i arg2 f2 arg3 f3 8 (by decide) inb_S16x128_S1x128_8_0 (k24_off17 i) (k24_off17_inb i) rfl rfl Nat.one_pos (k24_off18 (wordAt (F := F) arg2 f2 (k24_off17 i) (k24_off17_inb i))) (wordAt (F := F) arg2 f2 (k24_off17 i) (k24_off17_inb i)) rfl (hR _) rfl rfl (row_inb _ (hR _)) squeezes_S1x128_S128 squeezes_S1x128_S128
  have hx9 := gath_row (F := F) i arg2 f2 arg3 f3 9 (by decide) inb_S16x128_S1x128_9_0 (k24_off19 i) (k24_off19_inb i) rfl rfl Nat.one_pos (k24_off20 (wordAt (F := F) arg2 f2 (k24_off19 i) (k24_off19_inb i))) (wordAt (F := F) arg2 f2 (k24_off19 i) (k24_off19_inb i)) rfl (hR _) rfl rfl (row_inb _ (hR _)) squeezes_S1x128_S128 squeezes_S1x128_S128
  have hx10 := gath_row (F := F) i arg2 f2 arg3 f3 10 (by decide) inb_S16x128_S1x128_10_0 (k24_off21 i) (k24_off21_inb i) rfl rfl Nat.one_pos (k24_off22 (wordAt (F := F) arg2 f2 (k24_off21 i) (k24_off21_inb i))) (wordAt (F := F) arg2 f2 (k24_off21 i) (k24_off21_inb i)) rfl (hR _) rfl rfl (row_inb _ (hR _)) squeezes_S1x128_S128 squeezes_S1x128_S128
  have hx11 := gath_row (F := F) i arg2 f2 arg3 f3 11 (by decide) inb_S16x128_S1x128_11_0 (k24_off23 i) (k24_off23_inb i) rfl rfl Nat.one_pos (k24_off24 (wordAt (F := F) arg2 f2 (k24_off23 i) (k24_off23_inb i))) (wordAt (F := F) arg2 f2 (k24_off23 i) (k24_off23_inb i)) rfl (hR _) rfl rfl (row_inb _ (hR _)) squeezes_S1x128_S128 squeezes_S1x128_S128
  have hx12 := gath_row (F := F) i arg2 f2 arg3 f3 12 (by decide) inb_S16x128_S1x128_12_0 (k24_off25 i) (k24_off25_inb i) rfl rfl Nat.one_pos (k24_off26 (wordAt (F := F) arg2 f2 (k24_off25 i) (k24_off25_inb i))) (wordAt (F := F) arg2 f2 (k24_off25 i) (k24_off25_inb i)) rfl (hR _) rfl rfl (row_inb _ (hR _)) squeezes_S1x128_S128 squeezes_S1x128_S128
  have hx13 := gath_row (F := F) i arg2 f2 arg3 f3 13 (by decide) inb_S16x128_S1x128_13_0 (k24_off27 i) (k24_off27_inb i) rfl rfl Nat.one_pos (k24_off28 (wordAt (F := F) arg2 f2 (k24_off27 i) (k24_off27_inb i))) (wordAt (F := F) arg2 f2 (k24_off27 i) (k24_off27_inb i)) rfl (hR _) rfl rfl (row_inb _ (hR _)) squeezes_S1x128_S128 squeezes_S1x128_S128
  have hx14 := gath_row (F := F) i arg2 f2 arg3 f3 14 (by decide) inb_S16x128_S1x128_14_0 (k24_off29 i) (k24_off29_inb i) rfl rfl Nat.one_pos (k24_off30 (wordAt (F := F) arg2 f2 (k24_off29 i) (k24_off29_inb i))) (wordAt (F := F) arg2 f2 (k24_off29 i) (k24_off29_inb i)) rfl (hR _) rfl rfl (row_inb _ (hR _)) squeezes_S1x128_S128 squeezes_S1x128_S128
  have hx15 := gath_row (F := F) i arg2 f2 arg3 f3 15 (by decide) inb_S16x128_S1x128_15_0 (k24_off31 i) (k24_off31_inb i) rfl rfl Nat.one_pos (k24_off32 (wordAt (F := F) arg2 f2 (k24_off31 i) (k24_off31_inb i))) (wordAt (F := F) arg2 f2 (k24_off31 i) (k24_off31_inb i)) rfl (hR _) rfl rfl (row_inb _ (hR _)) squeezes_S1x128_S128 squeezes_S1x128_S128
  have ha0 := row_agree (F := F) arg7 harg7 (Rect.unit (s := S16x128) ![0, 0] S1x128.size inb_S16x128_S1x128_0_0) (fun _ => rfl) squeezes_S1x128_S128 f7 _ _ hx0
  have ha1 := row_agree (F := F) arg7 harg7 (Rect.unit (s := S16x128) ![1, 0] S1x128.size inb_S16x128_S1x128_1_0) (fun _ => rfl) squeezes_S1x128_S128 f7 _ _ hx1
  have ha2 := row_agree (F := F) arg7 harg7 (Rect.unit (s := S16x128) ![2, 0] S1x128.size inb_S16x128_S1x128_2_0) (fun _ => rfl) squeezes_S1x128_S128 f7 _ _ hx2
  have ha3 := row_agree (F := F) arg7 harg7 (Rect.unit (s := S16x128) ![3, 0] S1x128.size inb_S16x128_S1x128_3_0) (fun _ => rfl) squeezes_S1x128_S128 f7 _ _ hx3
  have ha4 := row_agree (F := F) arg7 harg7 (Rect.unit (s := S16x128) ![4, 0] S1x128.size inb_S16x128_S1x128_4_0) (fun _ => rfl) squeezes_S1x128_S128 f7 _ _ hx4
  have ha5 := row_agree (F := F) arg7 harg7 (Rect.unit (s := S16x128) ![5, 0] S1x128.size inb_S16x128_S1x128_5_0) (fun _ => rfl) squeezes_S1x128_S128 f7 _ _ hx5
  have ha6 := row_agree (F := F) arg7 harg7 (Rect.unit (s := S16x128) ![6, 0] S1x128.size inb_S16x128_S1x128_6_0) (fun _ => rfl) squeezes_S1x128_S128 f7 _ _ hx6
  have ha7 := row_agree (F := F) arg7 harg7 (Rect.unit (s := S16x128) ![7, 0] S1x128.size inb_S16x128_S1x128_7_0) (fun _ => rfl) squeezes_S1x128_S128 f7 _ _ hx7
  have ha8 := row_agree (F := F) arg7 harg7 (Rect.unit (s := S16x128) ![8, 0] S1x128.size inb_S16x128_S1x128_8_0) (fun _ => rfl) squeezes_S1x128_S128 f7 _ _ hx8
  have ha9 := row_agree (F := F) arg7 harg7 (Rect.unit (s := S16x128) ![9, 0] S1x128.size inb_S16x128_S1x128_9_0) (fun _ => rfl) squeezes_S1x128_S128 f7 _ _ hx9
  have ha10 := row_agree (F := F) arg7 harg7 (Rect.unit (s := S16x128) ![10, 0] S1x128.size inb_S16x128_S1x128_10_0) (fun _ => rfl) squeezes_S1x128_S128 f7 _ _ hx10
  have ha11 := row_agree (F := F) arg7 harg7 (Rect.unit (s := S16x128) ![11, 0] S1x128.size inb_S16x128_S1x128_11_0) (fun _ => rfl) squeezes_S1x128_S128 f7 _ _ hx11
  have ha12 := row_agree (F := F) arg7 harg7 (Rect.unit (s := S16x128) ![12, 0] S1x128.size inb_S16x128_S1x128_12_0) (fun _ => rfl) squeezes_S1x128_S128 f7 _ _ hx12
  have ha13 := row_agree (F := F) arg7 harg7 (Rect.unit (s := S16x128) ![13, 0] S1x128.size inb_S16x128_S1x128_13_0) (fun _ => rfl) squeezes_S1x128_S128 f7 _ _ hx13
  have ha14 := row_agree (F := F) arg7 harg7 (Rect.unit (s := S16x128) ![14, 0] S1x128.size inb_S16x128_S1x128_14_0) (fun _ => rfl) squeezes_S1x128_S128 f7 _ _ hx14
  have ha15 := row_agree (F := F) arg7 harg7 (Rect.unit (s := S16x128) ![15, 0] S1x128.size inb_S16x128_S1x128_15_0) (fun _ => rfl) squeezes_S1x128_S128 f7 _ _ hx15
  ihave H7 := (rows_join (F := F) c arg7 fullShare _ _ _ _ _ _ _ _ _ _ _ _ _ _ _ _
      (harg7.unread (gath24 i (View.read (Elt F) arg2.view f2) (View.read (Elt F) arg3.view f3)))
      ha0 ha1 ha2 ha3 ha4 ha5 ha6 ha7 ha8 ha9 ha10 ha11 ha12 ha13 ha14 ha15) $$ [R0 R1 R2 R3 R4 R5 R6 R7 R8 R9 R10 R11 R12 R13 R14 R15]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  -- the mean, the row store and the conditional
  sl_exec! (disch := first | assumption | exact chk_of_lt _ (hR _) | exact chk16_of_lt _ (hR _))
  sl_step
  iapply Hk
  isplitl [H2]; · iexists f2; isplitr; (· ipureintro; rfl); iexact H2
  isplitl [T T0 T1 T2 T3 T4 T5 T6 T7 T8 T9 T10 T11 T12 T13 T14 T15]
  · iexists f3; isplitr; (· ipureintro; rfl)
    iapply (toks16 (F := F)).2
    isplitl [T]; · iexact T
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    iexact T15
  isplitl [H4]; · iexists f4; isplitr; (· ipureintro; rfl); iexact H4
  isplitl [HO]; · iexact HO
  isplitl [H6]
  · iexists _; isplitr; swap; (· iexact H6)
    ipureintro
    rw [read_row_store, readAt_whole_unread]; rfl
  isplitl [H7]; · iexists _, _; isplitr; swap; (· iexact H7); ipureintro; rfl
  isplitl [C0 C1 C2 C3 C4 C5 C6 C7 C8 C9 C10 C11 C12 C13 C14 C15]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    iexact C15
  iexists _; iexact HW

set_option maxHeartbeats 4000000 in
/-- A core's last point: as before, and the output's buffer receives the product of the whole carried scratch with the
    weight block. -/
theorem run24_last (hi : k24_cond1 i = 1#1)
    (tb : Vec F S16x2000 .i32) (hR : ∀ x : S16x2000.Idx, (tb x).toNat < 100000)
    (A0 : Vec F S100000x128 .f32) (x0 : Vec F S128x128 .f32) (s : Vec F S1000x128 .f32)
    (W : Waits sig Unit) (Q : PUnit → sProp 𝕄) :
    iprop(owns (c : Thread nD τ) arg2 fullShare tb ∗ owns (c : Thread nD τ) arg3 fullShare A0
        ∗ owns (c : Thread nD τ) arg4 fullShare x0 ∗ (∃ d, owns (c : Thread nD τ) arg5 fullShare d) ∗ owns (c : Thread nD τ) arg6 fullShare s
        ∗ (∃ d, owns (c : Thread nD τ) arg7 fullShare d) ∗ cells24 (F := F) c arg8 ∗ owes (c : Thread nD τ) 0 W
        ∗ (iprop(owns (c : Thread nD τ) arg2 fullShare tb ∗ owns (c : Thread nD τ) arg3 fullShare A0
            ∗ owns (c : Thread nD τ) arg4 fullShare x0 ∗ owns (c : Thread nD τ) arg5 fullShare (k24_pay2 (row24 i tb A0 s) x0) ∗ owns (c : Thread nD τ) arg6 fullShare (row24 i tb A0 s)
            ∗ (∃ d, owns (c : Thread nD τ) arg7 fullShare d) ∗ cells24 (F := F) c arg8 ∗ (∃ W', owes (c : Thread nD τ) 0 W')) -∗ Q ⟨⟩))
      ⊢ wp frame (wpE (defs₀ (F := F)) Variants.none c none) Set.univ
          (gatherFn (F := F) i arg2 harg2 arg3 harg3 arg4 harg4 arg5 harg5 arg6 harg6 arg7 harg7 arg8) Q := by
  unfold gatherFn owns cells24
  iintro ⟨⟨%f2, %hf2, H2⟩, ⟨%f3, %hf3, H3⟩, ⟨%f4, %hf4, H4⟩, ⟨%d5, %f5, -, H5⟩, ⟨%f6, %hf6, H6⟩, ⟨%d7, %f7, -, H7⟩, ⟨C0, C1, C2, C3, C4, C5, C6, C7, C8, C9, C10, C11, C12, C13, C14, C15⟩, HW, Hk⟩
  subst hf2 hf3 hf4 hf6
  -- the array read by sixteen transfers at once: one read share each
  ihave H3' := (toks16 (F := F)).1 $$ H3
  icases H3' with ⟨T, T0, T1, T2, T3, T4, T5, T6, T7, T8, T9, T10, T11, T12, T13, T14, T15⟩
  -- the gather buffer row by row: each transfer lands in its own row
  ihave H7' := (Entails.of_eq (rows_split (F := F) c arg7 fullShare f7)) $$ H7
  icases H7' with ⟨R0, R1, R2, R3, R4, R5, R6, R7, R8, R9, R10, R11, R12, R13, R14, R15⟩
  simp only [cc24__gather_agg_matmul_kernel_eq_skeleton]; unfold cc24__gather_agg_matmul_kernel_skel
  -- the sixteen words, checks, issues and waits
  set_option sl_exec.dmaWindow true in sl_exec (disch := first | exact chk_of_lt _ (hR _) | exact chk16_of_lt _ (hR _) | assumption)
  -- the rows back into the whole buffer, at the contents reading the gathered rows
  have hx0 := gath_row (F := F) i arg2 f2 arg3 f3 0 (by decide) inb_S16x128_S1x128_0_0 (k24_off1 i) (k24_off1_inb i) rfl rfl Nat.one_pos (k24_off2 (wordAt (F := F) arg2 f2 (k24_off1 i) (k24_off1_inb i))) (wordAt (F := F) arg2 f2 (k24_off1 i) (k24_off1_inb i)) rfl (hR _) rfl rfl (row_inb _ (hR _)) squeezes_S1x128_S128 squeezes_S1x128_S128
  have hx1 := gath_row (F := F) i arg2 f2 arg3 f3 1 (by decide) inb_S16x128_S1x128_1_0 (k24_off3 i) (k24_off3_inb i) rfl rfl Nat.one_pos (k24_off4 (wordAt (F := F) arg2 f2 (k24_off3 i) (k24_off3_inb i))) (wordAt (F := F) arg2 f2 (k24_off3 i) (k24_off3_inb i)) rfl (hR _) rfl rfl (row_inb _ (hR _)) squeezes_S1x128_S128 squeezes_S1x128_S128
  have hx2 := gath_row (F := F) i arg2 f2 arg3 f3 2 (by decide) inb_S16x128_S1x128_2_0 (k24_off5 i) (k24_off5_inb i) rfl rfl Nat.one_pos (k24_off6 (wordAt (F := F) arg2 f2 (k24_off5 i) (k24_off5_inb i))) (wordAt (F := F) arg2 f2 (k24_off5 i) (k24_off5_inb i)) rfl (hR _) rfl rfl (row_inb _ (hR _)) squeezes_S1x128_S128 squeezes_S1x128_S128
  have hx3 := gath_row (F := F) i arg2 f2 arg3 f3 3 (by decide) inb_S16x128_S1x128_3_0 (k24_off7 i) (k24_off7_inb i) rfl rfl Nat.one_pos (k24_off8 (wordAt (F := F) arg2 f2 (k24_off7 i) (k24_off7_inb i))) (wordAt (F := F) arg2 f2 (k24_off7 i) (k24_off7_inb i)) rfl (hR _) rfl rfl (row_inb _ (hR _)) squeezes_S1x128_S128 squeezes_S1x128_S128
  have hx4 := gath_row (F := F) i arg2 f2 arg3 f3 4 (by decide) inb_S16x128_S1x128_4_0 (k24_off9 i) (k24_off9_inb i) rfl rfl Nat.one_pos (k24_off10 (wordAt (F := F) arg2 f2 (k24_off9 i) (k24_off9_inb i))) (wordAt (F := F) arg2 f2 (k24_off9 i) (k24_off9_inb i)) rfl (hR _) rfl rfl (row_inb _ (hR _)) squeezes_S1x128_S128 squeezes_S1x128_S128
  have hx5 := gath_row (F := F) i arg2 f2 arg3 f3 5 (by decide) inb_S16x128_S1x128_5_0 (k24_off11 i) (k24_off11_inb i) rfl rfl Nat.one_pos (k24_off12 (wordAt (F := F) arg2 f2 (k24_off11 i) (k24_off11_inb i))) (wordAt (F := F) arg2 f2 (k24_off11 i) (k24_off11_inb i)) rfl (hR _) rfl rfl (row_inb _ (hR _)) squeezes_S1x128_S128 squeezes_S1x128_S128
  have hx6 := gath_row (F := F) i arg2 f2 arg3 f3 6 (by decide) inb_S16x128_S1x128_6_0 (k24_off13 i) (k24_off13_inb i) rfl rfl Nat.one_pos (k24_off14 (wordAt (F := F) arg2 f2 (k24_off13 i) (k24_off13_inb i))) (wordAt (F := F) arg2 f2 (k24_off13 i) (k24_off13_inb i)) rfl (hR _) rfl rfl (row_inb _ (hR _)) squeezes_S1x128_S128 squeezes_S1x128_S128
  have hx7 := gath_row (F := F) i arg2 f2 arg3 f3 7 (by decide) inb_S16x128_S1x128_7_0 (k24_off15 i) (k24_off15_inb i) rfl rfl Nat.one_pos (k24_off16 (wordAt (F := F) arg2 f2 (k24_off15 i) (k24_off15_inb i))) (wordAt (F := F) arg2 f2 (k24_off15 i) (k24_off15_inb i)) rfl (hR _) rfl rfl (row_inb _ (hR _)) squeezes_S1x128_S128 squeezes_S1x128_S128
  have hx8 := gath_row (F := F) i arg2 f2 arg3 f3 8 (by decide) inb_S16x128_S1x128_8_0 (k24_off17 i) (k24_off17_inb i) rfl rfl Nat.one_pos (k24_off18 (wordAt (F := F) arg2 f2 (k24_off17 i) (k24_off17_inb i))) (wordAt (F := F) arg2 f2 (k24_off17 i) (k24_off17_inb i)) rfl (hR _) rfl rfl (row_inb _ (hR _)) squeezes_S1x128_S128 squeezes_S1x128_S128
  have hx9 := gath_row (F := F) i arg2 f2 arg3 f3 9 (by decide) inb_S16x128_S1x128_9_0 (k24_off19 i) (k24_off19_inb i) rfl rfl Nat.one_pos (k24_off20 (wordAt (F := F) arg2 f2 (k24_off19 i) (k24_off19_inb i))) (wordAt (F := F) arg2 f2 (k24_off19 i) (k24_off19_inb i)) rfl (hR _) rfl rfl (row_inb _ (hR _)) squeezes_S1x128_S128 squeezes_S1x128_S128
  have hx10 := gath_row (F := F) i arg2 f2 arg3 f3 10 (by decide) inb_S16x128_S1x128_10_0 (k24_off21 i) (k24_off21_inb i) rfl rfl Nat.one_pos (k24_off22 (wordAt (F := F) arg2 f2 (k24_off21 i) (k24_off21_inb i))) (wordAt (F := F) arg2 f2 (k24_off21 i) (k24_off21_inb i)) rfl (hR _) rfl rfl (row_inb _ (hR _)) squeezes_S1x128_S128 squeezes_S1x128_S128
  have hx11 := gath_row (F := F) i arg2 f2 arg3 f3 11 (by decide) inb_S16x128_S1x128_11_0 (k24_off23 i) (k24_off23_inb i) rfl rfl Nat.one_pos (k24_off24 (wordAt (F := F) arg2 f2 (k24_off23 i) (k24_off23_inb i))) (wordAt (F := F) arg2 f2 (k24_off23 i) (k24_off23_inb i)) rfl (hR _) rfl rfl (row_inb _ (hR _)) squeezes_S1x128_S128 squeezes_S1x128_S128
  have hx12 := gath_row (F := F) i arg2 f2 arg3 f3 12 (by decide) inb_S16x128_S1x128_12_0 (k24_off25 i) (k24_off25_inb i) rfl rfl Nat.one_pos (k24_off26 (wordAt (F := F) arg2 f2 (k24_off25 i) (k24_off25_inb i))) (wordAt (F := F) arg2 f2 (k24_off25 i) (k24_off25_inb i)) rfl (hR _) rfl rfl (row_inb _ (hR _)) squeezes_S1x128_S128 squeezes_S1x128_S128
  have hx13 := gath_row (F := F) i arg2 f2 arg3 f3 13 (by decide) inb_S16x128_S1x128_13_0 (k24_off27 i) (k24_off27_inb i) rfl rfl Nat.one_pos (k24_off28 (wordAt (F := F) arg2 f2 (k24_off27 i) (k24_off27_inb i))) (wordAt (F := F) arg2 f2 (k24_off27 i) (k24_off27_inb i)) rfl (hR _) rfl rfl (row_inb _ (hR _)) squeezes_S1x128_S128 squeezes_S1x128_S128
  have hx14 := gath_row (F := F) i arg2 f2 arg3 f3 14 (by decide) inb_S16x128_S1x128_14_0 (k24_off29 i) (k24_off29_inb i) rfl rfl Nat.one_pos (k24_off30 (wordAt (F := F) arg2 f2 (k24_off29 i) (k24_off29_inb i))) (wordAt (F := F) arg2 f2 (k24_off29 i) (k24_off29_inb i)) rfl (hR _) rfl rfl (row_inb _ (hR _)) squeezes_S1x128_S128 squeezes_S1x128_S128
  have hx15 := gath_row (F := F) i arg2 f2 arg3 f3 15 (by decide) inb_S16x128_S1x128_15_0 (k24_off31 i) (k24_off31_inb i) rfl rfl Nat.one_pos (k24_off32 (wordAt (F := F) arg2 f2 (k24_off31 i) (k24_off31_inb i))) (wordAt (F := F) arg2 f2 (k24_off31 i) (k24_off31_inb i)) rfl (hR _) rfl rfl (row_inb _ (hR _)) squeezes_S1x128_S128 squeezes_S1x128_S128
  have ha0 := row_agree (F := F) arg7 harg7 (Rect.unit (s := S16x128) ![0, 0] S1x128.size inb_S16x128_S1x128_0_0) (fun _ => rfl) squeezes_S1x128_S128 f7 _ _ hx0
  have ha1 := row_agree (F := F) arg7 harg7 (Rect.unit (s := S16x128) ![1, 0] S1x128.size inb_S16x128_S1x128_1_0) (fun _ => rfl) squeezes_S1x128_S128 f7 _ _ hx1
  have ha2 := row_agree (F := F) arg7 harg7 (Rect.unit (s := S16x128) ![2, 0] S1x128.size inb_S16x128_S1x128_2_0) (fun _ => rfl) squeezes_S1x128_S128 f7 _ _ hx2
  have ha3 := row_agree (F := F) arg7 harg7 (Rect.unit (s := S16x128) ![3, 0] S1x128.size inb_S16x128_S1x128_3_0) (fun _ => rfl) squeezes_S1x128_S128 f7 _ _ hx3
  have ha4 := row_agree (F := F) arg7 harg7 (Rect.unit (s := S16x128) ![4, 0] S1x128.size inb_S16x128_S1x128_4_0) (fun _ => rfl) squeezes_S1x128_S128 f7 _ _ hx4
  have ha5 := row_agree (F := F) arg7 harg7 (Rect.unit (s := S16x128) ![5, 0] S1x128.size inb_S16x128_S1x128_5_0) (fun _ => rfl) squeezes_S1x128_S128 f7 _ _ hx5
  have ha6 := row_agree (F := F) arg7 harg7 (Rect.unit (s := S16x128) ![6, 0] S1x128.size inb_S16x128_S1x128_6_0) (fun _ => rfl) squeezes_S1x128_S128 f7 _ _ hx6
  have ha7 := row_agree (F := F) arg7 harg7 (Rect.unit (s := S16x128) ![7, 0] S1x128.size inb_S16x128_S1x128_7_0) (fun _ => rfl) squeezes_S1x128_S128 f7 _ _ hx7
  have ha8 := row_agree (F := F) arg7 harg7 (Rect.unit (s := S16x128) ![8, 0] S1x128.size inb_S16x128_S1x128_8_0) (fun _ => rfl) squeezes_S1x128_S128 f7 _ _ hx8
  have ha9 := row_agree (F := F) arg7 harg7 (Rect.unit (s := S16x128) ![9, 0] S1x128.size inb_S16x128_S1x128_9_0) (fun _ => rfl) squeezes_S1x128_S128 f7 _ _ hx9
  have ha10 := row_agree (F := F) arg7 harg7 (Rect.unit (s := S16x128) ![10, 0] S1x128.size inb_S16x128_S1x128_10_0) (fun _ => rfl) squeezes_S1x128_S128 f7 _ _ hx10
  have ha11 := row_agree (F := F) arg7 harg7 (Rect.unit (s := S16x128) ![11, 0] S1x128.size inb_S16x128_S1x128_11_0) (fun _ => rfl) squeezes_S1x128_S128 f7 _ _ hx11
  have ha12 := row_agree (F := F) arg7 harg7 (Rect.unit (s := S16x128) ![12, 0] S1x128.size inb_S16x128_S1x128_12_0) (fun _ => rfl) squeezes_S1x128_S128 f7 _ _ hx12
  have ha13 := row_agree (F := F) arg7 harg7 (Rect.unit (s := S16x128) ![13, 0] S1x128.size inb_S16x128_S1x128_13_0) (fun _ => rfl) squeezes_S1x128_S128 f7 _ _ hx13
  have ha14 := row_agree (F := F) arg7 harg7 (Rect.unit (s := S16x128) ![14, 0] S1x128.size inb_S16x128_S1x128_14_0) (fun _ => rfl) squeezes_S1x128_S128 f7 _ _ hx14
  have ha15 := row_agree (F := F) arg7 harg7 (Rect.unit (s := S16x128) ![15, 0] S1x128.size inb_S16x128_S1x128_15_0) (fun _ => rfl) squeezes_S1x128_S128 f7 _ _ hx15
  ihave H7 := (rows_join (F := F) c arg7 fullShare _ _ _ _ _ _ _ _ _ _ _ _ _ _ _ _
      (harg7.unread (gath24 i (View.read (Elt F) arg2.view f2) (View.read (Elt F) arg3.view f3)))
      ha0 ha1 ha2 ha3 ha4 ha5 ha6 ha7 ha8 ha9 ha10 ha11 ha12 ha13 ha14 ha15) $$ [R0 R1 R2 R3 R4 R5 R6 R7 R8 R9 R10 R11 R12 R13 R14 R15]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  -- the mean, the row store and the conditional
  sl_exec! (disch := first | assumption | exact chk_of_lt _ (hR _) | exact chk16_of_lt _ (hR _))
  sl_step
  iapply Hk
  isplitl [H2]; · iexists f2; isplitr; (· ipureintro; rfl); iexact H2
  isplitl [T T0 T1 T2 T3 T4 T5 T6 T7 T8 T9 T10 T11 T12 T13 T14 T15]
  · iexists f3; isplitr; (· ipureintro; rfl)
    iapply (toks16 (F := F)).2
    isplitl [T]; · iexact T
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    iexact T15
  isplitl [H4]; · iexists f4; isplitr; (· ipureintro; rfl); iexact H4
  isplitl [H5]
  · iexists _; isplitr; swap; (· iexact H5)
    ipureintro
    have key5 : ∀ L : List (View.Piece (Elt F) S1000x128 .f32),
        L = [⟨Rect.unit (s := S1000x128) ![0, 0] S1000x128.size inb_S1000x128_S1000x128_0_0,
              k24_pay2 (View.readAt (Elt F) arg6.view (Rect.unit (s := S1000x128) ![0, 0] S1000x128.size inb_S1000x128_S1000x128_0_0).toLoadRect
                  (arg6.view.writes (Elt F) f6 [⟨(Rect.unit (s := S1000x128) (k24_off48 i) S1x128.size (k24_off48_inb i)), (k24_pay1 (View.readAt (Elt F) arg7.view (Rect.unit (s := S16x128) ![0, 0] S16x128.size inb_S16x128_S16x128_0_0).toLoadRect (harg7.unread (gath24 i (View.read (Elt F) arg2.view f2) (View.read (Elt F) arg3.view f3)))))⟩]))
                (View.readAt (Elt F) arg4.view (Rect.unit (s := S128x128) ![0, 0] S128x128.size inb_S128x128_S128x128_0_0).toLoadRect f4)⟩] →
        arg5.view.read (Elt F) (arg5.view.writes (Elt F) arg5.view.junk L)
          = k24_pay2 (row24 i (View.read (Elt F) arg2.view f2) (View.read (Elt F) arg3.view f3) (View.read (Elt F) arg6.view f6))
              (View.read (Elt F) arg4.view f4) := by
      intro L hL; subst hL
      rw [read_whole_store, readAt_whole_S1000x128, readAt_whole_S128x128, read_row_store, readAt_whole_unread]; rfl
    exact key5 _ rfl
  isplitl [H6]
  · iexists _; isplitr; swap; (· iexact H6)
    ipureintro
    have key6 : ∀ L : List (View.Piece (Elt F) S1000x128 .f32), L = [⟨(Rect.unit (s := S1000x128) (k24_off48 i) S1x128.size (k24_off48_inb i)), (k24_pay1 (View.readAt (Elt F) arg7.view (Rect.unit (s := S16x128) ![0, 0] S16x128.size inb_S16x128_S16x128_0_0).toLoadRect (harg7.unread (gath24 i (View.read (Elt F) arg2.view f2) (View.read (Elt F) arg3.view f3)))))⟩] →
        arg6.view.read (Elt F) (arg6.view.writes (Elt F) f6 L)
          = row24 i (View.read (Elt F) arg2.view f2) (View.read (Elt F) arg3.view f3) (View.read (Elt F) arg6.view f6) := by
      intro L hL; subst hL
      rw [read_row_store, readAt_whole_unread]; rfl
    exact key6 _ rfl
  isplitl [H7]; · iexists _, _; isplitr; swap; (· iexact H7); ipureintro; rfl
  isplitl [C0 C1 C2 C3 C4 C5 C6 C7 C8 C9 C10 C11 C12 C13 C14 C15]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    iexact C15
  iexists _; iexact HW

end Body24

end Cert.Kernel.Hand

end
-- ==== Proof.KB.G0Dat.lean ====
/-
  One of the program's 25 gather launches (pipeline 0; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N0 (a : (pcfg0 (F := F)).Adm) : (cfg0 a).N = 2000 := N_0

/-- The body's branch is taken at the last row of a block of rows, -/
theorem cond0_iff : ∀ t : Fin grid0.N, k0_cond1 (grid0.coords t) = 1#1 ↔ t.val % 1000 = 999 := by decide +kernel
/-- the row a point works on is its number modulo 1000, -/
theorem rowAt0_coord : ∀ t : Fin grid0.N, (grid0.coords t 1).val = t.val % 1000 := by decide +kernel
/-- its block of rows is its number divided by 1000, -/
theorem blockAt0_coord : ∀ t : Fin grid0.N, (grid0.coords t 0).val = t.val / 1000 := by decide +kernel
/-- and the output's block index moves after exactly those points (and the grid ends at one). -/
theorem flushB0 : ∀ t : Fin grid0.N,
    (decide (t.val + 1 = grid0.N) || decide (∃ h : t.val + 1 < grid0.N, cc0_transform_2 (grid0.coords ⟨t.val + 1, h⟩) ≠ cc0_transform_2 (grid0.coords t)))
      = decide (t.val % 1000 = 999) := by decide +kernel

/-- The output's block index at a point: the point's block of rows. -/
theorem idx0_1 : ∀ t : Fin grid0.N, cc0_transform_2 (grid0.coords t) = ![t.val / 1000, 0] := by decide +kernel

/-- Every word of the launch's table names a row of the feature array. -/
def InRange0 (pf : pre0.Contents (Elt F)) : Prop := ∀ x : S16x2000.Idx, ((pf 0 : Vec F S16x2000 .i32) x).toNat < 100000

/-! ## The values -/

/-- Lane `l` of a one-row vector. -/
def lane0 (l : Fin 128) : S1x128.Idx := fun a => ⟨if a.val = 0 then 0 else l.val, by
  match a with
  | ⟨0, _⟩ => exact Nat.one_pos
  | ⟨1, _⟩ => exact l.isLt⟩

theorem lane0_one (l : Fin 128) : (lane0 l 1).val = l.val := rfl

/-- The grid point of row `r` of block `q` (total: the point number is taken modulo the grid's size). -/
def pt0 (q : ℕ) (r : ℕ) : Fin grid0.N := ⟨(q * 1000 + r) % grid0.N, Nat.mod_lt _ (by decide)⟩

/-- Inside the grid the point's number is `1000 q + r`. -/
theorem pt0_val (q r : ℕ) (hq : q < 2) (hr : r < 1000) : (pt0 q r).val = q * 1000 + r := by
  show (q * 1000 + r) % grid0.N = q * 1000 + r
  rw [N_0]; omega

/-- A point is the point of its block and row. -/
theorem pt0_self (t : Fin grid0.N) : pt0 (t.val / 1000) (t.val % 1000) = t := by
  apply Fin.ext
  show (t.val / 1000 * 1000 + t.val % 1000) % grid0.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means0 (tb : Vec F S16x2000 .i32) (A0 : Vec F S100000x128 .f32) (q : ℕ) : Vec F S1000x128 .f32 :=
  fun x => Gen.k24_pay1 (gath24 (grid0.coords (pt0 q (x 0).val)) tb A0) (lane0 (x 1))

/-- What the body stores in the output window at the last row of block `q`: the means, rounded, times the weight, rounded. -/
def xBlk0 (tb : Vec F S16x2000 .i32) (A0 : Vec F S100000x128 .f32) (Wt : Vec F S128x128 .f32) (q : ℕ) : Vec F S1000x128 .f32 :=
  Gen.k24_pay2 (means0 tb A0 q) Wt

/-- The carried scratch before point `n`: its rows below `n % 1000` are the means of block `n / 1000`. -/
def RowsOK0 (tb : Vec F S16x2000 .i32) (A0 : Vec F S100000x128 .f32) (n : ℕ) (g : Vec F S1000x128 .f32) : Prop :=
  ∀ x : S1000x128.Idx, (x 0).val < n % 1000 → g x = means0 tb A0 (n / 1000) x

/-- At the first row of a block nothing is asked. -/
theorem rowsOK0_start (tb : Vec F S16x2000 .i32) (A0 : Vec F S100000x128 .f32) (n : ℕ) (hn : n % 1000 = 0) (g : Vec F S1000x128 .f32) :
    RowsOK0 tb A0 n g := fun x hx => absurd hx (by omega)

/-- One point's row store keeps the invariant's rows and adds its own: after the store at point `t` the rows up to
    `t % 1000` are means. -/
theorem rowAt0_means (tb : Vec F S16x2000 .i32) (A0 : Vec F S100000x128 .f32) (t : Fin grid0.N) (g : Vec F S1000x128 .f32)
    (hg : RowsOK0 tb A0 t.val g) (x : S1000x128.Idx) (hx : (x 0).val ≤ t.val % 1000) :
    row24 (grid0.coords t) tb A0 g x = means0 tb A0 (t.val / 1000) x := by
  by_cases h : (x 0).val = t.val % 1000
  · rw [row24_of_eq (grid0.coords t) tb A0 g x (by rw [rowAt0_coord]; exact h) (lane0 (x 1)) rfl]
    unfold means0
    rw [h, pt0_self]
  · rw [row24_of_ne (grid0.coords t) tb A0 g x (by rw [rowAt0_coord]; exact h)]
    exact hg x (by omega)

/-- Within a block the invariant steps. -/
theorem rowsOK0_step (tb : Vec F S16x2000 .i32) (A0 : Vec F S100000x128 .f32) (t : Fin grid0.N) (g : Vec F S1000x128 .f32)
    (hg : RowsOK0 tb A0 t.val g) : RowsOK0 tb A0 (t.val + 1) (row24 (grid0.coords t) tb A0 g) := by
  by_cases hl : t.val % 1000 = 999
  · exact rowsOK0_start _ _ _ (by omega) _
  · intro x hx
    have h1 : (t.val + 1) / 1000 = t.val / 1000 := by omega
    rw [h1]
    exact rowAt0_means tb A0 t g hg x (by omega)

/-- At the last row of a block the scratch, after the row store, is the block's means whatever it held before. -/
theorem rowAt0_last (tb : Vec F S16x2000 .i32) (A0 : Vec F S100000x128 .f32) (t : Fin grid0.N) (hl : t.val % 1000 = 999)
    (g : Vec F S1000x128 .f32) (hg : RowsOK0 tb A0 t.val g) :
    row24 (grid0.coords t) tb A0 g = means0 tb A0 (t.val / 1000) :=
  funext fun x => rowAt0_means tb A0 t g hg x (by have : (x 0).val < 1000 := (x 0).isLt; omega)

/-! ## The invariant -/

/-- The launch's operands that no window stages, as the body is handed them: its table, the feature array left in
    HBM, and its two scratch buffers — whole buffers. -/
abbrev tbM0 : Memref sig .tc .smem S16x2000 .i32 := Memref.whole main_v1
abbrev hbM0 : Memref sig .tc .hbm S100000x128 .f32 := Memref.whole main_arg0
abbrev scM0_0 : Memref sig .tc .vmem S1000x128 .f32 := Memref.whole cc0_scratch0
abbrev scM0_1 : Memref sig .tc .vmem S16x128 .f32 := Memref.whole cc0_scratch1

section Region
-- the TensorCore's buffer contents when the launch is entered, and the launch's table
variable (V : (c : Dev nD) → (b : Ref sig .tc) → Buf (Elt F) ((c : Thread nD τ).loc b)) (a : (pcfg0 (F := F)).Adm)

/-- The table and the feature array, as vectors. -/
abbrev tb0 : Vec F S16x2000 .i32 := a.1 0
abbrev A0 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ0 (c : Dev nD) (n : ℕ) : sProp 𝕄 :=
  iprop(owns (c : Thread nD τ) tbM0 fullShare (tb0 a)
    ∗ owns (c : Thread nD τ) hbM0 fullShare (A0 V c)
    ∗ (∃ g : Vec F S1000x128 .f32, ⌜RowsOK0 (tb0 a) (A0 V c) n g⌝ ∗ owns (c : Thread nD τ) scM0_0 fullShare g)
    ∗ (∃ d, owns (c : Thread nD τ) scM0_1 fullShare d)
    ∗ cells24 c cc0_scratch2
    ∗ (∃ r, prngReg c r)
    ∗ Pipeline.scopedRestBut (Ix := Unit) (Name := ℕ) (U := UC) (Lvl := ℕ) (Val := Elt F) spec0 c [cc0_scratch0, cc0_scratch1])

/-! ## The windows' blocks and the proof data -/

/-- Window `w`'s block at point `t`, read off its array as the launch finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The proof data of the launch on core `c`: the arrays as the launch finds them; after the body at point `t` the
    weight window at its block and the output window at the product for `t`'s block of rows (read only at the block's
    last row, where the body stores it); the invariant above; nothing owed; full shares. -/
def dat0 (c : Dev nD) : Dat τ (Elt F) Unit ℕ UC ℕ (cfg0 a) c where
  A w := V c (Pipeline.arrRef spec0 w)
  after w t := match w with
    | ⟨0, _⟩ => iblk0 V a c 0 t
    | ⟨1, _⟩ => xBlk0 (tb0 a) (A0 V c) (iblk0 V a c 0 t) (t.val / 1000)
  Φ n := Φ0 V a c n.val
  q _ := fullShare
  owed _ := 0

/-- The proof data's arrays are the entry contents. -/
theorem A_eq0 (c : Dev nD) (w : Fin (cfg0 a).W) : (dat0 V a c).A w = V c (Pipeline.arrRef spec0 w) := by
  dsimp only [dat0]

/-- What the body leaves, window by window. -/
theorem after0_0 (c : Dev nD) (t : Fin (cfg0 a).N) : (dat0 V a c).after 0 t = iblk0 V a c 0 t := by dsimp only [dat0]; rfl
theorem after0_1 (c : Dev nD) (t : Fin (cfg0 a).N) :
    (dat0 V a c).after 1 t = xBlk0 (tb0 a) (A0 V c) (iblk0 V a c 0 t) (t.val / 1000) := by dsimp only [dat0]; rfl

/-- The invariant and the tallies, at a point. -/
theorem Phi0_eq (c : Dev nD) (n : Fin ((cfg0 a).N + 1)) : (dat0 V a c).Φ n = Φ0 V a c n.val := by dsimp only [dat0]
theorem owed0_eq (c : Dev nD) (n : Fin ((cfg0 a).N + 1)) : (dat0 V a c).owed n = 0 := by dsimp only [dat0]

/-- The weight window holds its block at every point, fetched there or not: its block index never moves. -/
theorem before0_0 (c : Dev nD) (t : Fin (cfg0 a).N) (d) : (dat0 V a c).before 0 t d = iblk0 V a c 0 t :=
  ((dat0 V a c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The output window is written back after the last row of each block of rows, and only there; -/
theorem flush0_1 (t : Fin (cfg0 a).N) : ((cfg0 a).win 1).flush t = decide (t.val % 1000 = 999) := by
  unfold Window.flush
  exact flushB0 t
/-- and it is idle at every other row. -/
theorem idle0_1 (t : Fin (cfg0 a).N) : (cfg0 a).idle 1 ((cfg0 a).grid.coords t) = !decide (t.val % 1000 = 999) := by
  show (!(k0_cond1 (grid0.coords t) == 1#1)) = _
  congr 1
  by_cases h : t.val % 1000 = 999
  · rw [decide_eq_true h, (cond0_iff t).2 h]; rfl
  · rw [decide_eq_false h]
    exact beq_false_of_ne fun e => h ((cond0_iff t).1 e)

end Region

/-! ## The body obligation -/

section Body
variable (V : (c : Dev nD) → (b : Ref sig .tc) → Buf (Elt F) ((c : Thread nD τ).loc b)) (a : (pcfg0 (F := F)).Adm)

/-- Each window's current staging memref at point `t`, spelled as the pipeline passes it, and its wholeness. -/
abbrev ms0_0 (t : Fin (cfg0 a).N) : Memref sig .tc .vmem S128x128 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S1000x128 .f32 := spec0_1.stage ((cfg0 a).slots t 1)
abbrev hs0_1 (t : Fin (cfg0 a).N) : (ms0_1 a t).IsWhole := hstage0_1 (((cfg0 a).slots t 1).cast nbuf0_1)

/-- The launch's body function, under the name the runs are stated at. -/
theorem bodyFn0_eq : cc0__gather_agg_matmul_kernel (F := F) = gatherFn := rfl

/-- The kernel body at point `t`, on what the pipeline calls it with. -/
abbrev bodyAt0 (t : Fin (cfg0 a).N) : Prog (TpuEff nD τ sig (Elt F) Λ₀ .tc) PUnit :=
  cc0__gather_agg_matmul_kernel (grid0.coords t) tbM0 (Memref.isWhole_whole _) hbM0 (Memref.isWhole_whole _)
    (ms0_0 a t) (hs0_0 a t) (ms0_1 a t) (hs0_1 a t) scM0_0 (Memref.isWhole_whole _) scM0_1 (Memref.isWhole_whole _) cc0_scratch2

/-- What the body is called with at point `t`, the windows one by one, -/
def bodyPre0 (c : Dev nD) (t : Fin (cfg0 a).N) : sProp 𝕄 :=
  iprop((dat0 V a c).Φ t.castSucc ∗ (dat0 V a c).owesAt () t.castSucc
    ∗ (∃ d, owns (c : Thread nD τ) (ms0_0 a t) fullShare ((dat0 V a c).before 0 t d))
    ∗ (∃ d, owns (c : Thread nD τ) (ms0_1 a t) fullShare ((dat0 V a c).before 1 t d)))

/-- and what it returns: the output window as it was found where the point is idle for it, at the block's product
    at the last row of a block. -/
def bodyPost0 (c : Dev nD) (t : Fin (cfg0 a).N) : sProp 𝕄 :=
  iprop((dat0 V a c).Φ t.succ ∗ (dat0 V a c).owesAt () t.succ
    ∗ owns (c : Thread nD τ) (ms0_0 a t) fullShare ((dat0 V a c).after 0 t)
    ∗ (match (cfg0 a).idle 1 ((cfg0 a).grid.coords t) with
        | true =>
          match ((cfg0 a).win 1).flush t with
          | false => iprop(∃ d, owns (c : Thread nD τ) (ms0_1 a t) fullShare ((dat0 V a c).before 1 t d))
          | true => owns (c : Thread nD τ) (ms0_1 a t) fullShare ((dat0 V a c).after 1 t)
        | false => owns (c : Thread nD τ) (ms0_1 a t) fullShare ((dat0 V a c).after 1 t)))

/-- The body at any point. The weight window holds its block; the invariant hands the body its table, the feature
    array, both scratch buffers and its transfer cells, and takes them back with the carried scratch one row further
    (`rowsOK0_step`); at the last row of a block the product the body stores is the block's (`rowAt0_last`); the core's
    `owes` goes in at whatever the points before recorded and comes back with this point's waits. -/
theorem sound_body0 (hR : InRange0 a.1) (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  rw [flush0_1, idle0_1]
  simp only [before0_0]
  rw [after0_0, Phi0_eq, Phi0_eq, Fin.val_succ, Fin.coe_castSucc]
  unfold Dat.owesAt Pipeline.owesWithin
  rw [owed0_eq, owed0_eq]
  unfold Φ0
  rw [bodyFn0_eq]
  by_cases hl : t.val % 1000 = 999
  · -- the last row of a block
    rw [decide_eq_true hl, Bool.not_true]
    dsimp only
    rw [after0_1]
    unfold xBlk0
    iintro ⟨⟨Htb, Hhb, ⟨%g, %hg, Hs0⟩, Hs1, Hcells, Hreg, Hrest⟩, ⟨%W, -, HW⟩, ⟨%d0, H0⟩, ⟨%d1, H1⟩⟩
    rw [← rowAt0_last (tb0 a) (A0 V c) t hl g hg]
    iapply (run24_last c (grid0.coords t) tbM0 (Memref.isWhole_whole _) hbM0 (Memref.isWhole_whole _) (ms0_0 a t) (hs0_0 a t)
      (ms0_1 a t) (hs0_1 a t) scM0_0 (Memref.isWhole_whole _) scM0_1 (Memref.isWhole_whole _) cc0_scratch2
      ((cond0_iff t).2 hl) (tb0 a) hR (A0 V c) (iblk0 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK0_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k0_cond1 (grid0.coords t) ≠ 1#1 := fun e => hl ((cond0_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid0.coords t) tbM0 (Memref.isWhole_whole _) hbM0 (Memref.isWhole_whole _) (ms0_0 a t) (hs0_0 a t)
      (ms0_1 a t) (hs0_1 a t) scM0_0 (Memref.isWhole_whole _) scM0_1 (Memref.isWhole_whole _) cc0_scratch2
      hc (tb0 a) hR (A0 V c) (iblk0 V a c 0 t) g
      (owns (c : Thread nD τ) (ms0_1 a t) fullShare ((dat0 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK0_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation0 (hR : InRange0 a.1) (c : Dev nD) :
    BodyObligation (dat0 (F := F) V a c) (defs₀ (F := F)) Variants.none () Set.univ := fun t => by
  rw [bigSep_W0, bigSep_W0]
  exact sound_body0 V a hR c t

end Body

/-! ## The value: what the launch leaves in its output array -/

section Value
variable (V : (c : Dev nD) → (b : Ref sig .tc) → Buf (Elt F) ((c : Thread nD τ).loc b)) (a : (pcfg0 (F := F)).Adm)

/-- Entry `(r, l)` of a block of rows. -/
def cell0 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk0 (tb : Vec F S16x2000 .i32) (A0 : Vec F S100000x128 .f32) (Wt : Vec F S128x128 .f32) : Vec F S2000x128 .f32 :=
  fun y => xBlk0 tb A0 Wt ((y 0).val / 1000) (cell0 ((y 0).val % 1000) (Nat.mod_lt _ (by decide)) (y 1))

/-- The weight window's block is the whole weight, at every point: its block index is (0, 0). -/
theorem wblk0_eq (c : Dev nD) (t : Fin (cfg0 a).N) : iblk0 V a c 0 t = (V c main_arg1 : Vec F S128x128 .f32) := by
  funext x
  unfold iblk0
  rw [View.read_apply]
  refine (cast_eq _ _).trans (congrArg (V c main_arg1) (funext fun b => Fin.ext ?_))
  refine (((cfg0 a).win 0).rect_emb_val_of_index_zero t b ?_ x)
  match b with
  | ⟨0, _⟩ => rfl
  | ⟨1, _⟩ => rfl

/-- Where entry `x` of the output window's block at point `t` sits in the output array. -/
abbrev emb0 (t : Fin (cfg0 a).N) (x : S1000x128.Idx) : S2000x128.Idx := (((cfg0 a).win 1).blk t).view.emb x

theorem emb0_val (t : Fin (cfg0 a).N) (x : S1000x128.Idx) :
    (emb0 a t x 0).val = t.val / 1000 * 1000 + (x 0).val ∧ (emb0 a t x 1).val = (x 1).val := by
  have hix : ((cfg0 a).win 1).index t = ![t.val / 1000, 0] := idx0_1 t
  have e0 := ((cfg0 a).win 1).rect_emb_val t x (0 : Fin 2)
  have e1 := ((cfg0 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after0_chunk (c : Dev nD) (t : Fin (cfg0 a).N) (x : S1000x128.Idx) :
    (dat0 V a c).after 1 t x = xChunk0 (tb0 a) (A0 V c) (V c main_arg1) (emb0 a t x) := by
  obtain ⟨e0, e1⟩ := emb0_val a t x
  have hx0 : (x 0).val < 1000 := (x 0).isLt
  rw [after0_1, wblk0_eq]
  unfold xChunk0
  have hq : (emb0 a t x 0).val / 1000 = t.val / 1000 := by rw [e0]; omega
  have hcell : cell0 ((emb0 a t x 0).val % 1000) (Nat.mod_lt _ (by decide)) (emb0 a t x 1) = x := by
    funext b
    apply Fin.ext
    match b with
    | ⟨0, _⟩ =>
      show (emb0 a t x 0).val % 1000 = (x 0).val
      rw [e0]; omega
    | ⟨1, _⟩ => exact e1
  rw [hq, hcell]

/-- Two entries of the output array with the same coordinates are the same. -/
theorem idx0_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb0_cell (t : Fin (cfg0 a).N) (i : S2000x128.Idx) (ht : t.val / 1000 = (i 0).val / 1000) :
    emb0 a t (cell0 ((i 0).val % 1000) (Nat.mod_lt _ (by decide)) (i 1)) = i := by
  obtain ⟨e0, e1⟩ := emb0_val a t (cell0 ((i 0).val % 1000) (Nat.mod_lt _ (by decide)) (i 1))
  refine idx0_ext _ _ ?_ e1
  rw [e0, ht]
  show (i 0).val / 1000 * 1000 + (i 0).val % 1000 = (i 0).val
  omega

/-- Every entry of the output array lies in the block written back after the last row of its block of rows. -/
theorem cover0 (i : S2000x128.Idx) :
    ∃ t : Fin (cfg0 a).N, ((cfg0 a).win 1).flush t = true ∧ i ∈ (((cfg0 a).win 1).blk t).view.set := by
  have hi0 : (i 0).val < 2000 := (i 0).isLt
  have hN : (i 0).val / 1000 * 1000 + 999 < (cfg0 a).N := by rw [N0]; omega
  refine ⟨⟨(i 0).val / 1000 * 1000 + 999, hN⟩, ?_, ?_⟩
  · rw [flush0_1]; exact decide_eq_true (by show ((i 0).val / 1000 * 1000 + 999) % 1000 = 999; omega)
  · refine Finset.mem_map.mpr ⟨cell0 ((i 0).val % 1000) (Nat.mod_lt _ (by decide)) (i 1), Finset.mem_univ _, ?_⟩
    exact emb0_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out0 (c : Dev nD) :
    (dat0 V a c).arrAt 1 (cfg0 a).N = (xChunk0 (tb0 a) (A0 V c) (V c main_arg1) : Vec F S2000x128 .f32) :=
  (dat0 V a c).arrAt_eq_of_cover 1 _
    (fun t _ => funext fun x => (after0_chunk V a c t x).trans (cast_eq _ _).symm)
    (cover0 a)

end Value

/-! ## The invariant's two ends -/

section Ends
variable (V : (c : Dev nD) → (b : Ref sig .tc) → Buf (Elt F) ((c : Thread nD τ).loc b)) (a : (pcfg0 (F := F)).Adm)

/-- The body's own transfer cells as the launch's protocol lists them: the 16 cells of its semaphore operand. -/
def osem0 : Fin 16 → SemLoc sig := fun k => SemLoc.dma (cc0_scratch2.ix (Shape.ofLane k))
/-- They are scoped, distinct, and none is a window's. -/
theorem ownSemFacts0 : Pipeline.OwnSemFacts spec0 osem0 := by decide
/-- The cells at zero, listed, are the cells as the body names them. -/
theorem cells0_eq (c : Dev nD) :
    (Pipeline.ownSems0 (Ix := Unit) (Name := ℕ) (U := UC) (Lvl := ℕ) (Val := Elt F) (τ := τ) osem0 c : sProp 𝕄) = cells24 c cc0_scratch2 := by
  rw [Pipeline.ownSems0_eq_of_list c osem0 [0, 1, 2, 3, 4, 5, 6, 7, 8, 9, 10, 11, 12, 13, 14, 15] (by decide) (by decide)]; rfl

/-- The launch's one table, held. -/
theorem prefHeld0_eq (c : Dev nD) (pf : pre0.Contents (Elt F)) :
    (Pipeline.prefHeld pre0 c (fun _ => fullShare) pf : sProp 𝕄) = (((c : Thread nD τ).loc main_v1) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X0 (c : Dev nD) : sProp 𝕄 :=
  iprop((∃ r, prngReg c r) ∗ Pipeline.ownSems0 (Ix := Unit) (Name := ℕ) (U := UC) (Lvl := ℕ) (Val := Elt F) (τ := τ) osem0 c
    ∗ (((c : Thread nD τ).loc main_arg0) ↦{fullShare} V c main_arg0))
abbrev Y0 (c : Dev nD) : sProp 𝕄 :=
  iprop((∃ r, prngReg c r) ∗ (((c : Thread nD τ).loc main_arg0) ↦{fullShare} V c main_arg0)
    ∗ Pipeline.prefHeld pre0 c (fun _ => fullShare) a.1)

/-- THE FIRST POINT: the invariant from what the launch's entry sorts out. Nothing is asked of the carried scratch. -/
theorem Phi0_in (c : Dev nD) :
    iprop(X0 V c ∗ Pipeline.prefHeld pre0 c (fun _ => fullShare) a.1
        ∗ Pipeline.scopedRest (Ix := Unit) (Name := ℕ) (U := UC) (Lvl := ℕ) (Val := Elt F) spec0 c)
      ⊢ (dat0 V a c).Φ 0 := by
  rw [Phi0_eq]
  unfold Φ0 X0
  rw [scopedRest0_split, prefHeld0_eq, cells0_eq]
  simp only [tbM0, hbM0, scM0_0, scM0_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK0_start _ _ _ rfl _
  isplitl [Hs1]; · iexact Hs1
  isplitl [Hcells]; · iexact Hcells
  isplitl [Hreg]; · iexact Hreg
  iexact Hrest

/-- THE LAST POINT: the invariant gives back what it took. -/
theorem Phi0_out (c : Dev nD) :
    (dat0 V a c).Φ (Fin.last _)
      ⊢ iprop(Y0 V a c ∗ Pipeline.ownSems0 (Ix := Unit) (Name := ℕ) (U := UC) (Lvl := ℕ) (Val := Elt F) (τ := τ) osem0 c
        ∗ Pipeline.scopedRest (Ix := Unit) (Name := ℕ) (U := UC) (Lvl := ℕ) (Val := Elt F) spec0 c) := by
  rw [Phi0_eq]
  unfold Φ0 Y0
  rw [scopedRest0_split, prefHeld0_eq, cells0_eq]
  simp only [tbM0, hbM0, scM0_0, scM0_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G1Dat.lean ====
/-
  One of the program's 25 gather launches (pipeline 1; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N1 (a : (pcfg1 (F := F)).Adm) : (cfg1 a).N = 2000 := N_1

/-- The body's branch is taken at the last row of a block of rows, -/
theorem cond1_iff : ∀ t : Fin grid1.N, k1_cond1 (grid1.coords t) = 1#1 ↔ t.val % 1000 = 999 := by decide +kernel
/-- the row a point works on is its number modulo 1000, -/
theorem rowAt1_coord : ∀ t : Fin grid1.N, (grid1.coords t 1).val = t.val % 1000 := by decide +kernel
/-- its block of rows is its number divided by 1000, -/
theorem blockAt1_coord : ∀ t : Fin grid1.N, (grid1.coords t 0).val = t.val / 1000 := by decide +kernel
/-- and the output's block index moves after exactly those points (and the grid ends at one). -/
theorem flushB1 : ∀ t : Fin grid1.N,
    (decide (t.val + 1 = grid1.N) || decide (∃ h : t.val + 1 < grid1.N, cc1_transform_2 (grid1.coords ⟨t.val + 1, h⟩) ≠ cc1_transform_2 (grid1.coords t)))
      = decide (t.val % 1000 = 999) := by decide +kernel

/-- The output's block index at a point: the point's block of rows. -/
theorem idx1_1 : ∀ t : Fin grid1.N, cc1_transform_2 (grid1.coords t) = ![t.val / 1000, 0] := by decide +kernel

/-- Every word of the launch's table names a row of the feature array. -/
def InRange1 (pf : pre1.Contents (Elt F)) : Prop := ∀ x : S16x2000.Idx, ((pf 0 : Vec F S16x2000 .i32) x).toNat < 100000

/-! ## The values -/

/-- Lane `l` of a one-row vector. -/
def lane1 (l : Fin 128) : S1x128.Idx := fun a => ⟨if a.val = 0 then 0 else l.val, by
  match a with
  | ⟨0, _⟩ => exact Nat.one_pos
  | ⟨1, _⟩ => exact l.isLt⟩

theorem lane1_one (l : Fin 128) : (lane1 l 1).val = l.val := rfl

/-- The grid point of row `r` of block `q` (total: the point number is taken modulo the grid's size). -/
def pt1 (q : ℕ) (r : ℕ) : Fin grid1.N := ⟨(q * 1000 + r) % grid1.N, Nat.mod_lt _ (by decide)⟩

/-- Inside the grid the point's number is `1000 q + r`. -/
theorem pt1_val (q r : ℕ) (hq : q < 2) (hr : r < 1000) : (pt1 q r).val = q * 1000 + r := by
  show (q * 1000 + r) % grid1.N = q * 1000 + r
  rw [N_1]; omega

/-- A point is the point of its block and row. -/
theorem pt1_self (t : Fin grid1.N) : pt1 (t.val / 1000) (t.val % 1000) = t := by
  apply Fin.ext
  show (t.val / 1000 * 1000 + t.val % 1000) % grid1.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means1 (tb : Vec F S16x2000 .i32) (A0 : Vec F S100000x128 .f32) (q : ℕ) : Vec F S1000x128 .f32 :=
  fun x => Gen.k24_pay1 (gath24 (grid1.coords (pt1 q (x 0).val)) tb A0) (lane1 (x 1))

/-- What the body stores in the output window at the last row of block `q`: the means, rounded, times the weight, rounded. -/
def xBlk1 (tb : Vec F S16x2000 .i32) (A0 : Vec F S100000x128 .f32) (Wt : Vec F S128x128 .f32) (q : ℕ) : Vec F S1000x128 .f32 :=
  Gen.k24_pay2 (means1 tb A0 q) Wt

/-- The carried scratch before point `n`: its rows below `n % 1000` are the means of block `n / 1000`. -/
def RowsOK1 (tb : Vec F S16x2000 .i32) (A0 : Vec F S100000x128 .f32) (n : ℕ) (g : Vec F S1000x128 .f32) : Prop :=
  ∀ x : S1000x128.Idx, (x 0).val < n % 1000 → g x = means1 tb A0 (n / 1000) x

/-- At the first row of a block nothing is asked. -/
theorem rowsOK1_start (tb : Vec F S16x2000 .i32) (A0 : Vec F S100000x128 .f32) (n : ℕ) (hn : n % 1000 = 0) (g : Vec F S1000x128 .f32) :
    RowsOK1 tb A0 n g := fun x hx => absurd hx (by omega)

/-- One point's row store keeps the invariant's rows and adds its own: after the store at point `t` the rows up to
    `t % 1000` are means. -/
theorem rowAt1_means (tb : Vec F S16x2000 .i32) (A0 : Vec F S100000x128 .f32) (t : Fin grid1.N) (g : Vec F S1000x128 .f32)
    (hg : RowsOK1 tb A0 t.val g) (x : S1000x128.Idx) (hx : (x 0).val ≤ t.val % 1000) :
    row24 (grid1.coords t) tb A0 g x = means1 tb A0 (t.val / 1000) x := by
  by_cases h : (x 0).val = t.val % 1000
  · rw [row24_of_eq (grid1.coords t) tb A0 g x (by rw [rowAt1_coord]; exact h) (lane1 (x 1)) rfl]
    unfold means1
    rw [h, pt1_self]
  · rw [row24_of_ne (grid1.coords t) tb A0 g x (by rw [rowAt1_coord]; exact h)]
    exact hg x (by omega)

/-- Within a block the invariant steps. -/
theorem rowsOK1_step (tb : Vec F S16x2000 .i32) (A0 : Vec F S100000x128 .f32) (t : Fin grid1.N) (g : Vec F S1000x128 .f32)
    (hg : RowsOK1 tb A0 t.val g) : RowsOK1 tb A0 (t.val + 1) (row24 (grid1.coords t) tb A0 g) := by
  by_cases hl : t.val % 1000 = 999
  · exact rowsOK1_start _ _ _ (by omega) _
  · intro x hx
    have h1 : (t.val + 1) / 1000 = t.val / 1000 := by omega
    rw [h1]
    exact rowAt1_means tb A0 t g hg x (by omega)

/-- At the last row of a block the scratch, after the row store, is the block's means whatever it held before. -/
theorem rowAt1_last (tb : Vec F S16x2000 .i32) (A0 : Vec F S100000x128 .f32) (t : Fin grid1.N) (hl : t.val % 1000 = 999)
    (g : Vec F S1000x128 .f32) (hg : RowsOK1 tb A0 t.val g) :
    row24 (grid1.coords t) tb A0 g = means1 tb A0 (t.val / 1000) :=
  funext fun x => rowAt1_means tb A0 t g hg x (by have : (x 0).val < 1000 := (x 0).isLt; omega)

/-! ## The invariant -/

/-- The launch's operands that no window stages, as the body is handed them: its table, the feature array left in
    HBM, and its two scratch buffers — whole buffers. -/
abbrev tbM1 : Memref sig .tc .smem S16x2000 .i32 := Memref.whole main_v3
abbrev hbM1 : Memref sig .tc .hbm S100000x128 .f32 := Memref.whole main_arg0
abbrev scM1_0 : Memref sig .tc .vmem S1000x128 .f32 := Memref.whole cc1_scratch0
abbrev scM1_1 : Memref sig .tc .vmem S16x128 .f32 := Memref.whole cc1_scratch1

section Region
-- the TensorCore's buffer contents when the launch is entered, and the launch's table
variable (V : (c : Dev nD) → (b : Ref sig .tc) → Buf (Elt F) ((c : Thread nD τ).loc b)) (a : (pcfg1 (F := F)).Adm)

/-- The table and the feature array, as vectors. -/
abbrev tb1 : Vec F S16x2000 .i32 := a.1 0
abbrev A1 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ1 (c : Dev nD) (n : ℕ) : sProp 𝕄 :=
  iprop(owns (c : Thread nD τ) tbM1 fullShare (tb1 a)
    ∗ owns (c : Thread nD τ) hbM1 fullShare (A1 V c)
    ∗ (∃ g : Vec F S1000x128 .f32, ⌜RowsOK1 (tb1 a) (A1 V c) n g⌝ ∗ owns (c : Thread nD τ) scM1_0 fullShare g)
    ∗ (∃ d, owns (c : Thread nD τ) scM1_1 fullShare d)
    ∗ cells24 c cc1_scratch2
    ∗ (∃ r, prngReg c r)
    ∗ Pipeline.scopedRestBut (Ix := Unit) (Name := ℕ) (U := UC) (Lvl := ℕ) (Val := Elt F) spec1 c [cc1_scratch0, cc1_scratch1])

/-! ## The windows' blocks and the proof data -/

/-- Window `w`'s block at point `t`, read off its array as the launch finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The proof data of the launch on core `c`: the arrays as the launch finds them; after the body at point `t` the
    weight window at its block and the output window at the product for `t`'s block of rows (read only at the block's
    last row, where the body stores it); the invariant above; nothing owed; full shares. -/
def dat1 (c : Dev nD) : Dat τ (Elt F) Unit ℕ UC ℕ (cfg1 a) c where
  A w := V c (Pipeline.arrRef spec1 w)
  after w t := match w with
    | ⟨0, _⟩ => iblk1 V a c 0 t
    | ⟨1, _⟩ => xBlk1 (tb1 a) (A1 V c) (iblk1 V a c 0 t) (t.val / 1000)
  Φ n := Φ1 V a c n.val
  q _ := fullShare
  owed _ := 0

/-- The proof data's arrays are the entry contents. -/
theorem A_eq1 (c : Dev nD) (w : Fin (cfg1 a).W) : (dat1 V a c).A w = V c (Pipeline.arrRef spec1 w) := by
  dsimp only [dat1]

/-- What the body leaves, window by window. -/
theorem after1_0 (c : Dev nD) (t : Fin (cfg1 a).N) : (dat1 V a c).after 0 t = iblk1 V a c 0 t := by dsimp only [dat1]; rfl
theorem after1_1 (c : Dev nD) (t : Fin (cfg1 a).N) :
    (dat1 V a c).after 1 t = xBlk1 (tb1 a) (A1 V c) (iblk1 V a c 0 t) (t.val / 1000) := by dsimp only [dat1]; rfl

/-- The invariant and the tallies, at a point. -/
theorem Phi1_eq (c : Dev nD) (n : Fin ((cfg1 a).N + 1)) : (dat1 V a c).Φ n = Φ1 V a c n.val := by dsimp only [dat1]
theorem owed1_eq (c : Dev nD) (n : Fin ((cfg1 a).N + 1)) : (dat1 V a c).owed n = 0 := by dsimp only [dat1]

/-- The weight window holds its block at every point, fetched there or not: its block index never moves. -/
theorem before1_0 (c : Dev nD) (t : Fin (cfg1 a).N) (d) : (dat1 V a c).before 0 t d = iblk1 V a c 0 t :=
  ((dat1 V a c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The output window is written back after the last row of each block of rows, and only there; -/
theorem flush1_1 (t : Fin (cfg1 a).N) : ((cfg1 a).win 1).flush t = decide (t.val % 1000 = 999) := by
  unfold Window.flush
  exact flushB1 t
/-- and it is idle at every other row. -/
theorem idle1_1 (t : Fin (cfg1 a).N) : (cfg1 a).idle 1 ((cfg1 a).grid.coords t) = !decide (t.val % 1000 = 999) := by
  show (!(k1_cond1 (grid1.coords t) == 1#1)) = _
  congr 1
  by_cases h : t.val % 1000 = 999
  · rw [decide_eq_true h, (cond1_iff t).2 h]; rfl
  · rw [decide_eq_false h]
    exact beq_false_of_ne fun e => h ((cond1_iff t).1 e)

end Region

/-! ## The body obligation -/

section Body
variable (V : (c : Dev nD) → (b : Ref sig .tc) → Buf (Elt F) ((c : Thread nD τ).loc b)) (a : (pcfg1 (F := F)).Adm)

/-- Each window's current staging memref at point `t`, spelled as the pipeline passes it, and its wholeness. -/
abbrev ms1_0 (t : Fin (cfg1 a).N) : Memref sig .tc .vmem S128x128 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1000x128 .f32 := spec1_1.stage ((cfg1 a).slots t 1)
abbrev hs1_1 (t : Fin (cfg1 a).N) : (ms1_1 a t).IsWhole := hstage1_1 (((cfg1 a).slots t 1).cast nbuf1_1)

/-- The launch's body function, under the name the runs are stated at. -/
theorem bodyFn1_eq : cc1__gather_agg_matmul_kernel (F := F) = gatherFn := rfl

/-- The kernel body at point `t`, on what the pipeline calls it with. -/
abbrev bodyAt1 (t : Fin (cfg1 a).N) : Prog (TpuEff nD τ sig (Elt F) Λ₀ .tc) PUnit :=
  cc1__gather_agg_matmul_kernel (grid1.coords t) tbM1 (Memref.isWhole_whole _) hbM1 (Memref.isWhole_whole _)
    (ms1_0 a t) (hs1_0 a t) (ms1_1 a t) (hs1_1 a t) scM1_0 (Memref.isWhole_whole _) scM1_1 (Memref.isWhole_whole _) cc1_scratch2

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d)))

/-- and what it returns: the output window as it was found where the point is idle for it, at the block's product
    at the last row of a block. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ (match (cfg1 a).idle 1 ((cfg1 a).grid.coords t) with
        | true =>
          match ((cfg1 a).win 1).flush t with
          | false => iprop(∃ d, owns (c : Thread nD τ) (ms1_1 a t) fullShare ((dat1 V a c).before 1 t d))
          | true => owns (c : Thread nD τ) (ms1_1 a t) fullShare ((dat1 V a c).after 1 t)
        | false => owns (c : Thread nD τ) (ms1_1 a t) fullShare ((dat1 V a c).after 1 t)))

/-- The body at any point. The weight window holds its block; the invariant hands the body its table, the feature
    array, both scratch buffers and its transfer cells, and takes them back with the carried scratch one row further
    (`rowsOK1_step`); at the last row of a block the product the body stores is the block's (`rowAt1_last`); the core's
    `owes` goes in at whatever the points before recorded and comes back with this point's waits. -/
theorem sound_body1 (hR : InRange1 a.1) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  rw [flush1_1, idle1_1]
  simp only [before1_0]
  rw [after1_0, Phi1_eq, Phi1_eq, Fin.val_succ, Fin.coe_castSucc]
  unfold Dat.owesAt Pipeline.owesWithin
  rw [owed1_eq, owed1_eq]
  unfold Φ1
  rw [bodyFn1_eq]
  by_cases hl : t.val % 1000 = 999
  · -- the last row of a block
    rw [decide_eq_true hl, Bool.not_true]
    dsimp only
    rw [after1_1]
    unfold xBlk1
    iintro ⟨⟨Htb, Hhb, ⟨%g, %hg, Hs0⟩, Hs1, Hcells, Hreg, Hrest⟩, ⟨%W, -, HW⟩, ⟨%d0, H0⟩, ⟨%d1, H1⟩⟩
    rw [← rowAt1_last (tb1 a) (A1 V c) t hl g hg]
    iapply (run24_last c (grid1.coords t) tbM1 (Memref.isWhole_whole _) hbM1 (Memref.isWhole_whole _) (ms1_0 a t) (hs1_0 a t)
      (ms1_1 a t) (hs1_1 a t) scM1_0 (Memref.isWhole_whole _) scM1_1 (Memref.isWhole_whole _) cc1_scratch2
      ((cond1_iff t).2 hl) (tb1 a) hR (A1 V c) (iblk1 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK1_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k1_cond1 (grid1.coords t) ≠ 1#1 := fun e => hl ((cond1_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid1.coords t) tbM1 (Memref.isWhole_whole _) hbM1 (Memref.isWhole_whole _) (ms1_0 a t) (hs1_0 a t)
      (ms1_1 a t) (hs1_1 a t) scM1_0 (Memref.isWhole_whole _) scM1_1 (Memref.isWhole_whole _) cc1_scratch2
      hc (tb1 a) hR (A1 V c) (iblk1 V a c 0 t) g
      (owns (c : Thread nD τ) (ms1_1 a t) fullShare ((dat1 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK1_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation1 (hR : InRange1 a.1) (c : Dev nD) :
    BodyObligation (dat1 (F := F) V a c) (defs₀ (F := F)) Variants.none () Set.univ := fun t => by
  rw [bigSep_W1, bigSep_W1]
  exact sound_body1 V a hR c t

end Body

/-! ## The value: what the launch leaves in its output array -/

section Value
variable (V : (c : Dev nD) → (b : Ref sig .tc) → Buf (Elt F) ((c : Thread nD τ).loc b)) (a : (pcfg1 (F := F)).Adm)

/-- Entry `(r, l)` of a block of rows. -/
def cell1 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk1 (tb : Vec F S16x2000 .i32) (A0 : Vec F S100000x128 .f32) (Wt : Vec F S128x128 .f32) : Vec F S2000x128 .f32 :=
  fun y => xBlk1 tb A0 Wt ((y 0).val / 1000) (cell1 ((y 0).val % 1000) (Nat.mod_lt _ (by decide)) (y 1))

/-- The weight window's block is the whole weight, at every point: its block index is (0, 0). -/
theorem wblk1_eq (c : Dev nD) (t : Fin (cfg1 a).N) : iblk1 V a c 0 t = (V c main_arg1 : Vec F S128x128 .f32) := by
  funext x
  unfold iblk1
  rw [View.read_apply]
  refine (cast_eq _ _).trans (congrArg (V c main_arg1) (funext fun b => Fin.ext ?_))
  refine (((cfg1 a).win 0).rect_emb_val_of_index_zero t b ?_ x)
  match b with
  | ⟨0, _⟩ => rfl
  | ⟨1, _⟩ => rfl

/-- Where entry `x` of the output window's block at point `t` sits in the output array. -/
abbrev emb1 (t : Fin (cfg1 a).N) (x : S1000x128.Idx) : S2000x128.Idx := (((cfg1 a).win 1).blk t).view.emb x

theorem emb1_val (t : Fin (cfg1 a).N) (x : S1000x128.Idx) :
    (emb1 a t x 0).val = t.val / 1000 * 1000 + (x 0).val ∧ (emb1 a t x 1).val = (x 1).val := by
  have hix : ((cfg1 a).win 1).index t = ![t.val / 1000, 0] := idx1_1 t
  have e0 := ((cfg1 a).win 1).rect_emb_val t x (0 : Fin 2)
  have e1 := ((cfg1 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after1_chunk (c : Dev nD) (t : Fin (cfg1 a).N) (x : S1000x128.Idx) :
    (dat1 V a c).after 1 t x = xChunk1 (tb1 a) (A1 V c) (V c main_arg1) (emb1 a t x) := by
  obtain ⟨e0, e1⟩ := emb1_val a t x
  have hx0 : (x 0).val < 1000 := (x 0).isLt
  rw [after1_1, wblk1_eq]
  unfold xChunk1
  have hq : (emb1 a t x 0).val / 1000 = t.val / 1000 := by rw [e0]; omega
  have hcell : cell1 ((emb1 a t x 0).val % 1000) (Nat.mod_lt _ (by decide)) (emb1 a t x 1) = x := by
    funext b
    apply Fin.ext
    match b with
    | ⟨0, _⟩ =>
      show (emb1 a t x 0).val % 1000 = (x 0).val
      rw [e0]; omega
    | ⟨1, _⟩ => exact e1
  rw [hq, hcell]

/-- Two entries of the output array with the same coordinates are the same. -/
theorem idx1_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb1_cell (t : Fin (cfg1 a).N) (i : S2000x128.Idx) (ht : t.val / 1000 = (i 0).val / 1000) :
    emb1 a t (cell1 ((i 0).val % 1000) (Nat.mod_lt _ (by decide)) (i 1)) = i := by
  obtain ⟨e0, e1⟩ := emb1_val a t (cell1 ((i 0).val % 1000) (Nat.mod_lt _ (by decide)) (i 1))
  refine idx1_ext _ _ ?_ e1
  rw [e0, ht]
  show (i 0).val / 1000 * 1000 + (i 0).val % 1000 = (i 0).val
  omega

/-- Every entry of the output array lies in the block written back after the last row of its block of rows. -/
theorem cover1 (i : S2000x128.Idx) :
    ∃ t : Fin (cfg1 a).N, ((cfg1 a).win 1).flush t = true ∧ i ∈ (((cfg1 a).win 1).blk t).view.set := by
  have hi0 : (i 0).val < 2000 := (i 0).isLt
  have hN : (i 0).val / 1000 * 1000 + 999 < (cfg1 a).N := by rw [N1]; omega
  refine ⟨⟨(i 0).val / 1000 * 1000 + 999, hN⟩, ?_, ?_⟩
  · rw [flush1_1]; exact decide_eq_true (by show ((i 0).val / 1000 * 1000 + 999) % 1000 = 999; omega)
  · refine Finset.mem_map.mpr ⟨cell1 ((i 0).val % 1000) (Nat.mod_lt _ (by decide)) (i 1), Finset.mem_univ _, ?_⟩
    exact emb1_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out1 (c : Dev nD) :
    (dat1 V a c).arrAt 1 (cfg1 a).N = (xChunk1 (tb1 a) (A1 V c) (V c main_arg1) : Vec F S2000x128 .f32) :=
  (dat1 V a c).arrAt_eq_of_cover 1 _
    (fun t _ => funext fun x => (after1_chunk V a c t x).trans (cast_eq _ _).symm)
    (cover1 a)

end Value

/-! ## The invariant's two ends -/

section Ends
variable (V : (c : Dev nD) → (b : Ref sig .tc) → Buf (Elt F) ((c : Thread nD τ).loc b)) (a : (pcfg1 (F := F)).Adm)

/-- The body's own transfer cells as the launch's protocol lists them: the 16 cells of its semaphore operand. -/
def osem1 : Fin 16 → SemLoc sig := fun k => SemLoc.dma (cc1_scratch2.ix (Shape.ofLane k))
/-- They are scoped, distinct, and none is a window's. -/
theorem ownSemFacts1 : Pipeline.OwnSemFacts spec1 osem1 := by decide
/-- The cells at zero, listed, are the cells as the body names them. -/
theorem cells1_eq (c : Dev nD) :
    (Pipeline.ownSems0 (Ix := Unit) (Name := ℕ) (U := UC) (Lvl := ℕ) (Val := Elt F) (τ := τ) osem1 c : sProp 𝕄) = cells24 c cc1_scratch2 := by
  rw [Pipeline.ownSems0_eq_of_list c osem1 [0, 1, 2, 3, 4, 5, 6, 7, 8, 9, 10, 11, 12, 13, 14, 15] (by decide) (by decide)]; rfl

/-- The launch's one table, held. -/
theorem prefHeld1_eq (c : Dev nD) (pf : pre1.Contents (Elt F)) :
    (Pipeline.prefHeld pre1 c (fun _ => fullShare) pf : sProp 𝕄) = (((c : Thread nD τ).loc main_v3) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X1 (c : Dev nD) : sProp 𝕄 :=
  iprop((∃ r, prngReg c r) ∗ Pipeline.ownSems0 (Ix := Unit) (Name := ℕ) (U := UC) (Lvl := ℕ) (Val := Elt F) (τ := τ) osem1 c
    ∗ (((c : Thread nD τ).loc main_arg0) ↦{fullShare} V c main_arg0))
abbrev Y1 (c : Dev nD) : sProp 𝕄 :=
  iprop((∃ r, prngReg c r) ∗ (((c : Thread nD τ).loc main_arg0) ↦{fullShare} V c main_arg0)
    ∗ Pipeline.prefHeld pre1 c (fun _ => fullShare) a.1)

/-- THE FIRST POINT: the invariant from what the launch's entry sorts out. Nothing is asked of the carried scratch. -/
theorem Phi1_in (c : Dev nD) :
    iprop(X1 V c ∗ Pipeline.prefHeld pre1 c (fun _ => fullShare) a.1
        ∗ Pipeline.scopedRest (Ix := Unit) (Name := ℕ) (U := UC) (Lvl := ℕ) (Val := Elt F) spec1 c)
      ⊢ (dat1 V a c).Φ 0 := by
  rw [Phi1_eq]
  unfold Φ1 X1
  rw [scopedRest1_split, prefHeld1_eq, cells1_eq]
  simp only [tbM1, hbM1, scM1_0, scM1_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK1_start _ _ _ rfl _
  isplitl [Hs1]; · iexact Hs1
  isplitl [Hcells]; · iexact Hcells
  isplitl [Hreg]; · iexact Hreg
  iexact Hrest

/-- THE LAST POINT: the invariant gives back what it took. -/
theorem Phi1_out (c : Dev nD) :
    (dat1 V a c).Φ (Fin.last _)
      ⊢ iprop(Y1 V a c ∗ Pipeline.ownSems0 (Ix := Unit) (Name := ℕ) (U := UC) (Lvl := ℕ) (Val := Elt F) (τ := τ) osem1 c
        ∗ Pipeline.scopedRest (Ix := Unit) (Name := ℕ) (U := UC) (Lvl := ℕ) (Val := Elt F) spec1 c) := by
  rw [Phi1_eq]
  unfold Φ1 Y1
  rw [scopedRest1_split, prefHeld1_eq, cells1_eq]
  simp only [tbM1, hbM1, scM1_0, scM1_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G2Dat.lean ====
/-
  One of the program's 25 gather launches (pipeline 2; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N2 (a : (pcfg2 (F := F)).Adm) : (cfg2 a).N = 2000 := N_2

/-- The body's branch is taken at the last row of a block of rows, -/
theorem cond2_iff : ∀ t : Fin grid2.N, k2_cond1 (grid2.coords t) = 1#1 ↔ t.val % 1000 = 999 := by decide +kernel
/-- the row a point works on is its number modulo 1000, -/
theorem rowAt2_coord : ∀ t : Fin grid2.N, (grid2.coords t 1).val = t.val % 1000 := by decide +kernel
/-- its block of rows is its number divided by 1000, -/
theorem blockAt2_coord : ∀ t : Fin grid2.N, (grid2.coords t 0).val = t.val / 1000 := by decide +kernel
/-- and the output's block index moves after exactly those points (and the grid ends at one). -/
theorem flushB2 : ∀ t : Fin grid2.N,
    (decide (t.val + 1 = grid2.N) || decide (∃ h : t.val + 1 < grid2.N, cc2_transform_2 (grid2.coords ⟨t.val + 1, h⟩) ≠ cc2_transform_2 (grid2.coords t)))
      = decide (t.val % 1000 = 999) := by decide +kernel

/-- The output's block index at a point: the point's block of rows. -/
theorem idx2_1 : ∀ t : Fin grid2.N, cc2_transform_2 (grid2.coords t) = ![t.val / 1000, 0] := by decide +kernel

/-- Every word of the launch's table names a row of the feature array. -/
def InRange2 (pf : pre2.Contents (Elt F)) : Prop := ∀ x : S16x2000.Idx, ((pf 0 : Vec F S16x2000 .i32) x).toNat < 100000

/-! ## The values -/

/-- Lane `l` of a one-row vector. -/
def lane2 (l : Fin 128) : S1x128.Idx := fun a => ⟨if a.val = 0 then 0 else l.val, by
  match a with
  | ⟨0, _⟩ => exact Nat.one_pos
  | ⟨1, _⟩ => exact l.isLt⟩

theorem lane2_one (l : Fin 128) : (lane2 l 1).val = l.val := rfl

/-- The grid point of row `r` of block `q` (total: the point number is taken modulo the grid's size). -/
def pt2 (q : ℕ) (r : ℕ) : Fin grid2.N := ⟨(q * 1000 + r) % grid2.N, Nat.mod_lt _ (by decide)⟩

/-- Inside the grid the point's number is `1000 q + r`. -/
theorem pt2_val (q r : ℕ) (hq : q < 2) (hr : r < 1000) : (pt2 q r).val = q * 1000 + r := by
  show (q * 1000 + r) % grid2.N = q * 1000 + r
  rw [N_2]; omega

/-- A point is the point of its block and row. -/
theorem pt2_self (t : Fin grid2.N) : pt2 (t.val / 1000) (t.val % 1000) = t := by
  apply Fin.ext
  show (t.val / 1000 * 1000 + t.val % 1000) % grid2.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means2 (tb : Vec F S16x2000 .i32) (A0 : Vec F S100000x128 .f32) (q : ℕ) : Vec F S1000x128 .f32 :=
  fun x => Gen.k24_pay1 (gath24 (grid2.coords (pt2 q (x 0).val)) tb A0) (lane2 (x 1))

/-- What the body stores in the output window at the last row of block `q`: the means, rounded, times the weight, rounded. -/
def xBlk2 (tb : Vec F S16x2000 .i32) (A0 : Vec F S100000x128 .f32) (Wt : Vec F S128x128 .f32) (q : ℕ) : Vec F S1000x128 .f32 :=
  Gen.k24_pay2 (means2 tb A0 q) Wt

/-- The carried scratch before point `n`: its rows below `n % 1000` are the means of block `n / 1000`. -/
def RowsOK2 (tb : Vec F S16x2000 .i32) (A0 : Vec F S100000x128 .f32) (n : ℕ) (g : Vec F S1000x128 .f32) : Prop :=
  ∀ x : S1000x128.Idx, (x 0).val < n % 1000 → g x = means2 tb A0 (n / 1000) x

/-- At the first row of a block nothing is asked. -/
theorem rowsOK2_start (tb : Vec F S16x2000 .i32) (A0 : Vec F S100000x128 .f32) (n : ℕ) (hn : n % 1000 = 0) (g : Vec F S1000x128 .f32) :
    RowsOK2 tb A0 n g := fun x hx => absurd hx (by omega)

/-- One point's row store keeps the invariant's rows and adds its own: after the store at point `t` the rows up to
    `t % 1000` are means. -/
theorem rowAt2_means (tb : Vec F S16x2000 .i32) (A0 : Vec F S100000x128 .f32) (t : Fin grid2.N) (g : Vec F S1000x128 .f32)
    (hg : RowsOK2 tb A0 t.val g) (x : S1000x128.Idx) (hx : (x 0).val ≤ t.val % 1000) :
    row24 (grid2.coords t) tb A0 g x = means2 tb A0 (t.val / 1000) x := by
  by_cases h : (x 0).val = t.val % 1000
  · rw [row24_of_eq (grid2.coords t) tb A0 g x (by rw [rowAt2_coord]; exact h) (lane2 (x 1)) rfl]
    unfold means2
    rw [h, pt2_self]
  · rw [row24_of_ne (grid2.coords t) tb A0 g x (by rw [rowAt2_coord]; exact h)]
    exact hg x (by omega)

/-- Within a block the invariant steps. -/
theorem rowsOK2_step (tb : Vec F S16x2000 .i32) (A0 : Vec F S100000x128 .f32) (t : Fin grid2.N) (g : Vec F S1000x128 .f32)
    (hg : RowsOK2 tb A0 t.val g) : RowsOK2 tb A0 (t.val + 1) (row24 (grid2.coords t) tb A0 g) := by
  by_cases hl : t.val % 1000 = 999
  · exact rowsOK2_start _ _ _ (by omega) _
  · intro x hx
    have h1 : (t.val + 1) / 1000 = t.val / 1000 := by omega
    rw [h1]
    exact rowAt2_means tb A0 t g hg x (by omega)

/-- At the last row of a block the scratch, after the row store, is the block's means whatever it held before. -/
theorem rowAt2_last (tb : Vec F S16x2000 .i32) (A0 : Vec F S100000x128 .f32) (t : Fin grid2.N) (hl : t.val % 1000 = 999)
    (g : Vec F S1000x128 .f32) (hg : RowsOK2 tb A0 t.val g) :
    row24 (grid2.coords t) tb A0 g = means2 tb A0 (t.val / 1000) :=
  funext fun x => rowAt2_means tb A0 t g hg x (by have : (x 0).val < 1000 := (x 0).isLt; omega)

/-! ## The invariant -/

/-- The launch's operands that no window stages, as the body is handed them: its table, the feature array left in
    HBM, and its two scratch buffers — whole buffers. -/
abbrev tbM2 : Memref sig .tc .smem S16x2000 .i32 := Memref.whole main_v5
abbrev hbM2 : Memref sig .tc .hbm S100000x128 .f32 := Memref.whole main_arg0
abbrev scM2_0 : Memref sig .tc .vmem S1000x128 .f32 := Memref.whole cc2_scratch0
abbrev scM2_1 : Memref sig .tc .vmem S16x128 .f32 := Memref.whole cc2_scratch1

section Region
-- the TensorCore's buffer contents when the launch is entered, and the launch's table
variable (V : (c : Dev nD) → (b : Ref sig .tc) → Buf (Elt F) ((c : Thread nD τ).loc b)) (a : (pcfg2 (F := F)).Adm)

/-- The table and the feature array, as vectors. -/
abbrev tb2 : Vec F S16x2000 .i32 := a.1 0
abbrev A2 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ2 (c : Dev nD) (n : ℕ) : sProp 𝕄 :=
  iprop(owns (c : Thread nD τ) tbM2 fullShare (tb2 a)
    ∗ owns (c : Thread nD τ) hbM2 fullShare (A2 V c)
    ∗ (∃ g : Vec F S1000x128 .f32, ⌜RowsOK2 (tb2 a) (A2 V c) n g⌝ ∗ owns (c : Thread nD τ) scM2_0 fullShare g)
    ∗ (∃ d, owns (c : Thread nD τ) scM2_1 fullShare d)
    ∗ cells24 c cc2_scratch2
    ∗ (∃ r, prngReg c r)
    ∗ Pipeline.scopedRestBut (Ix := Unit) (Name := ℕ) (U := UC) (Lvl := ℕ) (Val := Elt F) spec2 c [cc2_scratch0, cc2_scratch1])

/-! ## The windows' blocks and the proof data -/

/-- Window `w`'s block at point `t`, read off its array as the launch finds it. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The proof data of the launch on core `c`: the arrays as the launch finds them; after the body at point `t` the
    weight window at its block and the output window at the product for `t`'s block of rows (read only at the block's
    last row, where the body stores it); the invariant above; nothing owed; full shares. -/
def dat2 (c : Dev nD) : Dat τ (Elt F) Unit ℕ UC ℕ (cfg2 a) c where
  A w := V c (Pipeline.arrRef spec2 w)
  after w t := match w with
    | ⟨0, _⟩ => iblk2 V a c 0 t
    | ⟨1, _⟩ => xBlk2 (tb2 a) (A2 V c) (iblk2 V a c 0 t) (t.val / 1000)
  Φ n := Φ2 V a c n.val
  q _ := fullShare
  owed _ := 0

/-- The proof data's arrays are the entry contents. -/
theorem A_eq2 (c : Dev nD) (w : Fin (cfg2 a).W) : (dat2 V a c).A w = V c (Pipeline.arrRef spec2 w) := by
  dsimp only [dat2]

/-- What the body leaves, window by window. -/
theorem after2_0 (c : Dev nD) (t : Fin (cfg2 a).N) : (dat2 V a c).after 0 t = iblk2 V a c 0 t := by dsimp only [dat2]; rfl
theorem after2_1 (c : Dev nD) (t : Fin (cfg2 a).N) :
    (dat2 V a c).after 1 t = xBlk2 (tb2 a) (A2 V c) (iblk2 V a c 0 t) (t.val / 1000) := by dsimp only [dat2]; rfl

/-- The invariant and the tallies, at a point. -/
theorem Phi2_eq (c : Dev nD) (n : Fin ((cfg2 a).N + 1)) : (dat2 V a c).Φ n = Φ2 V a c n.val := by dsimp only [dat2]
theorem owed2_eq (c : Dev nD) (n : Fin ((cfg2 a).N + 1)) : (dat2 V a c).owed n = 0 := by dsimp only [dat2]

/-- The weight window holds its block at every point, fetched there or not: its block index never moves. -/
theorem before2_0 (c : Dev nD) (t : Fin (cfg2 a).N) (d) : (dat2 V a c).before 0 t d = iblk2 V a c 0 t :=
  ((dat2 V a c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The output window is written back after the last row of each block of rows, and only there; -/
theorem flush2_1 (t : Fin (cfg2 a).N) : ((cfg2 a).win 1).flush t = decide (t.val % 1000 = 999) := by
  unfold Window.flush
  exact flushB2 t
/-- and it is idle at every other row. -/
theorem idle2_1 (t : Fin (cfg2 a).N) : (cfg2 a).idle 1 ((cfg2 a).grid.coords t) = !decide (t.val % 1000 = 999) := by
  show (!(k2_cond1 (grid2.coords t) == 1#1)) = _
  congr 1
  by_cases h : t.val % 1000 = 999
  · rw [decide_eq_true h, (cond2_iff t).2 h]; rfl
  · rw [decide_eq_false h]
    exact beq_false_of_ne fun e => h ((cond2_iff t).1 e)

end Region

/-! ## The body obligation -/

section Body
variable (V : (c : Dev nD) → (b : Ref sig .tc) → Buf (Elt F) ((c : Thread nD τ).loc b)) (a : (pcfg2 (F := F)).Adm)

/-- Each window's current staging memref at point `t`, spelled as the pipeline passes it, and its wholeness. -/
abbrev ms2_0 (t : Fin (cfg2 a).N) : Memref sig .tc .vmem S128x128 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S1000x128 .f32 := spec2_1.stage ((cfg2 a).slots t 1)
abbrev hs2_1 (t : Fin (cfg2 a).N) : (ms2_1 a t).IsWhole := hstage2_1 (((cfg2 a).slots t 1).cast nbuf2_1)

/-- The launch's body function, under the name the runs are stated at. -/
theorem bodyFn2_eq : cc2__gather_agg_matmul_kernel (F := F) = gatherFn := rfl

/-- The kernel body at point `t`, on what the pipeline calls it with. -/
abbrev bodyAt2 (t : Fin (cfg2 a).N) : Prog (TpuEff nD τ sig (Elt F) Λ₀ .tc) PUnit :=
  cc2__gather_agg_matmul_kernel (grid2.coords t) tbM2 (Memref.isWhole_whole _) hbM2 (Memref.isWhole_whole _)
    (ms2_0 a t) (hs2_0 a t) (ms2_1 a t) (hs2_1 a t) scM2_0 (Memref.isWhole_whole _) scM2_1 (Memref.isWhole_whole _) cc2_scratch2

/-- What the body is called with at point `t`, the windows one by one, -/
def bodyPre2 (c : Dev nD) (t : Fin (cfg2 a).N) : sProp 𝕄 :=
  iprop((dat2 V a c).Φ t.castSucc ∗ (dat2 V a c).owesAt () t.castSucc
    ∗ (∃ d, owns (c : Thread nD τ) (ms2_0 a t) fullShare ((dat2 V a c).before 0 t d))
    ∗ (∃ d, owns (c : Thread nD τ) (ms2_1 a t) fullShare ((dat2 V a c).before 1 t d)))

/-- and what it returns: the output window as it was found where the point is idle for it, at the block's product
    at the last row of a block. -/
def bodyPost2 (c : Dev nD) (t : Fin (cfg2 a).N) : sProp 𝕄 :=
  iprop((dat2 V a c).Φ t.succ ∗ (dat2 V a c).owesAt () t.succ
    ∗ owns (c : Thread nD τ) (ms2_0 a t) fullShare ((dat2 V a c).after 0 t)
    ∗ (match (cfg2 a).idle 1 ((cfg2 a).grid.coords t) with
        | true =>
          match ((cfg2 a).win 1).flush t with
          | false => iprop(∃ d, owns (c : Thread nD τ) (ms2_1 a t) fullShare ((dat2 V a c).before 1 t d))
          | true => owns (c : Thread nD τ) (ms2_1 a t) fullShare ((dat2 V a c).after 1 t)
        | false => owns (c : Thread nD τ) (ms2_1 a t) fullShare ((dat2 V a c).after 1 t)))

/-- The body at any point. The weight window holds its block; the invariant hands the body its table, the feature
    array, both scratch buffers and its transfer cells, and takes them back with the carried scratch one row further
    (`rowsOK2_step`); at the last row of a block the product the body stores is the block's (`rowAt2_last`); the core's
    `owes` goes in at whatever the points before recorded and comes back with this point's waits. -/
theorem sound_body2 (hR : InRange2 a.1) (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  rw [flush2_1, idle2_1]
  simp only [before2_0]
  rw [after2_0, Phi2_eq, Phi2_eq, Fin.val_succ, Fin.coe_castSucc]
  unfold Dat.owesAt Pipeline.owesWithin
  rw [owed2_eq, owed2_eq]
  unfold Φ2
  rw [bodyFn2_eq]
  by_cases hl : t.val % 1000 = 999
  · -- the last row of a block
    rw [decide_eq_true hl, Bool.not_true]
    dsimp only
    rw [after2_1]
    unfold xBlk2
    iintro ⟨⟨Htb, Hhb, ⟨%g, %hg, Hs0⟩, Hs1, Hcells, Hreg, Hrest⟩, ⟨%W, -, HW⟩, ⟨%d0, H0⟩, ⟨%d1, H1⟩⟩
    rw [← rowAt2_last (tb2 a) (A2 V c) t hl g hg]
    iapply (run24_last c (grid2.coords t) tbM2 (Memref.isWhole_whole _) hbM2 (Memref.isWhole_whole _) (ms2_0 a t) (hs2_0 a t)
      (ms2_1 a t) (hs2_1 a t) scM2_0 (Memref.isWhole_whole _) scM2_1 (Memref.isWhole_whole _) cc2_scratch2
      ((cond2_iff t).2 hl) (tb2 a) hR (A2 V c) (iblk2 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK2_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k2_cond1 (grid2.coords t) ≠ 1#1 := fun e => hl ((cond2_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid2.coords t) tbM2 (Memref.isWhole_whole _) hbM2 (Memref.isWhole_whole _) (ms2_0 a t) (hs2_0 a t)
      (ms2_1 a t) (hs2_1 a t) scM2_0 (Memref.isWhole_whole _) scM2_1 (Memref.isWhole_whole _) cc2_scratch2
      hc (tb2 a) hR (A2 V c) (iblk2 V a c 0 t) g
      (owns (c : Thread nD τ) (ms2_1 a t) fullShare ((dat2 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK2_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation2 (hR : InRange2 a.1) (c : Dev nD) :
    BodyObligation (dat2 (F := F) V a c) (defs₀ (F := F)) Variants.none () Set.univ := fun t => by
  rw [bigSep_W2, bigSep_W2]
  exact sound_body2 V a hR c t

end Body

/-! ## The value: what the launch leaves in its output array -/

section Value
variable (V : (c : Dev nD) → (b : Ref sig .tc) → Buf (Elt F) ((c : Thread nD τ).loc b)) (a : (pcfg2 (F := F)).Adm)

/-- Entry `(r, l)` of a block of rows. -/
def cell2 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk2 (tb : Vec F S16x2000 .i32) (A0 : Vec F S100000x128 .f32) (Wt : Vec F S128x128 .f32) : Vec F S2000x128 .f32 :=
  fun y => xBlk2 tb A0 Wt ((y 0).val / 1000) (cell2 ((y 0).val % 1000) (Nat.mod_lt _ (by decide)) (y 1))

/-- The weight window's block is the whole weight, at every point: its block index is (0, 0). -/
theorem wblk2_eq (c : Dev nD) (t : Fin (cfg2 a).N) : iblk2 V a c 0 t = (V c main_arg1 : Vec F S128x128 .f32) := by
  funext x
  unfold iblk2
  rw [View.read_apply]
  refine (cast_eq _ _).trans (congrArg (V c main_arg1) (funext fun b => Fin.ext ?_))
  refine (((cfg2 a).win 0).rect_emb_val_of_index_zero t b ?_ x)
  match b with
  | ⟨0, _⟩ => rfl
  | ⟨1, _⟩ => rfl

/-- Where entry `x` of the output window's block at point `t` sits in the output array. -/
abbrev emb2 (t : Fin (cfg2 a).N) (x : S1000x128.Idx) : S2000x128.Idx := (((cfg2 a).win 1).blk t).view.emb x

theorem emb2_val (t : Fin (cfg2 a).N) (x : S1000x128.Idx) :
    (emb2 a t x 0).val = t.val / 1000 * 1000 + (x 0).val ∧ (emb2 a t x 1).val = (x 1).val := by
  have hix : ((cfg2 a).win 1).index t = ![t.val / 1000, 0] := idx2_1 t
  have e0 := ((cfg2 a).win 1).rect_emb_val t x (0 : Fin 2)
  have e1 := ((cfg2 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after2_chunk (c : Dev nD) (t : Fin (cfg2 a).N) (x : S1000x128.Idx) :
    (dat2 V a c).after 1 t x = xChunk2 (tb2 a) (A2 V c) (V c main_arg1) (emb2 a t x) := by
  obtain ⟨e0, e1⟩ := emb2_val a t x
  have hx0 : (x 0).val < 1000 := (x 0).isLt
  rw [after2_1, wblk2_eq]
  unfold xChunk2
  have hq : (emb2 a t x 0).val / 1000 = t.val / 1000 := by rw [e0]; omega
  have hcell : cell2 ((emb2 a t x 0).val % 1000) (Nat.mod_lt _ (by decide)) (emb2 a t x 1) = x := by
    funext b
    apply Fin.ext
    match b with
    | ⟨0, _⟩ =>
      show (emb2 a t x 0).val % 1000 = (x 0).val
      rw [e0]; omega
    | ⟨1, _⟩ => exact e1
  rw [hq, hcell]

/-- Two entries of the output array with the same coordinates are the same. -/
theorem idx2_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb2_cell (t : Fin (cfg2 a).N) (i : S2000x128.Idx) (ht : t.val / 1000 = (i 0).val / 1000) :
    emb2 a t (cell2 ((i 0).val % 1000) (Nat.mod_lt _ (by decide)) (i 1)) = i := by
  obtain ⟨e0, e1⟩ := emb2_val a t (cell2 ((i 0).val % 1000) (Nat.mod_lt _ (by decide)) (i 1))
  refine idx2_ext _ _ ?_ e1
  rw [e0, ht]
  show (i 0).val / 1000 * 1000 + (i 0).val % 1000 = (i 0).val
  omega

/-- Every entry of the output array lies in the block written back after the last row of its block of rows. -/
theorem cover2 (i : S2000x128.Idx) :
    ∃ t : Fin (cfg2 a).N, ((cfg2 a).win 1).flush t = true ∧ i ∈ (((cfg2 a).win 1).blk t).view.set := by
  have hi0 : (i 0).val < 2000 := (i 0).isLt
  have hN : (i 0).val / 1000 * 1000 + 999 < (cfg2 a).N := by rw [N2]; omega
  refine ⟨⟨(i 0).val / 1000 * 1000 + 999, hN⟩, ?_, ?_⟩
  · rw [flush2_1]; exact decide_eq_true (by show ((i 0).val / 1000 * 1000 + 999) % 1000 = 999; omega)
  · refine Finset.mem_map.mpr ⟨cell2 ((i 0).val % 1000) (Nat.mod_lt _ (by decide)) (i 1), Finset.mem_univ _, ?_⟩
    exact emb2_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out2 (c : Dev nD) :
    (dat2 V a c).arrAt 1 (cfg2 a).N = (xChunk2 (tb2 a) (A2 V c) (V c main_arg1) : Vec F S2000x128 .f32) :=
  (dat2 V a c).arrAt_eq_of_cover 1 _
    (fun t _ => funext fun x => (after2_chunk V a c t x).trans (cast_eq _ _).symm)
    (cover2 a)

end Value

/-! ## The invariant's two ends -/

section Ends
variable (V : (c : Dev nD) → (b : Ref sig .tc) → Buf (Elt F) ((c : Thread nD τ).loc b)) (a : (pcfg2 (F := F)).Adm)

/-- The body's own transfer cells as the launch's protocol lists them: the 16 cells of its semaphore operand. -/
def osem2 : Fin 16 → SemLoc sig := fun k => SemLoc.dma (cc2_scratch2.ix (Shape.ofLane k))
/-- They are scoped, distinct, and none is a window's. -/
theorem ownSemFacts2 : Pipeline.OwnSemFacts spec2 osem2 := by decide
/-- The cells at zero, listed, are the cells as the body names them. -/
theorem cells2_eq (c : Dev nD) :
    (Pipeline.ownSems0 (Ix := Unit) (Name := ℕ) (U := UC) (Lvl := ℕ) (Val := Elt F) (τ := τ) osem2 c : sProp 𝕄) = cells24 c cc2_scratch2 := by
  rw [Pipeline.ownSems0_eq_of_list c osem2 [0, 1, 2, 3, 4, 5, 6, 7, 8, 9, 10, 11, 12, 13, 14, 15] (by decide) (by decide)]; rfl

/-- The launch's one table, held. -/
theorem prefHeld2_eq (c : Dev nD) (pf : pre2.Contents (Elt F)) :
    (Pipeline.prefHeld pre2 c (fun _ => fullShare) pf : sProp 𝕄) = (((c : Thread nD τ).loc main_v5) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X2 (c : Dev nD) : sProp 𝕄 :=
  iprop((∃ r, prngReg c r) ∗ Pipeline.ownSems0 (Ix := Unit) (Name := ℕ) (U := UC) (Lvl := ℕ) (Val := Elt F) (τ := τ) osem2 c
    ∗ (((c : Thread nD τ).loc main_arg0) ↦{fullShare} V c main_arg0))
abbrev Y2 (c : Dev nD) : sProp 𝕄 :=
  iprop((∃ r, prngReg c r) ∗ (((c : Thread nD τ).loc main_arg0) ↦{fullShare} V c main_arg0)
    ∗ Pipeline.prefHeld pre2 c (fun _ => fullShare) a.1)

/-- THE FIRST POINT: the invariant from what the launch's entry sorts out. Nothing is asked of the carried scratch. -/
theorem Phi2_in (c : Dev nD) :
    iprop(X2 V c ∗ Pipeline.prefHeld pre2 c (fun _ => fullShare) a.1
        ∗ Pipeline.scopedRest (Ix := Unit) (Name := ℕ) (U := UC) (Lvl := ℕ) (Val := Elt F) spec2 c)
      ⊢ (dat2 V a c).Φ 0 := by
  rw [Phi2_eq]
  unfold Φ2 X2
  rw [scopedRest2_split, prefHeld2_eq, cells2_eq]
  simp only [tbM2, hbM2, scM2_0, scM2_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK2_start _ _ _ rfl _
  isplitl [Hs1]; · iexact Hs1
  isplitl [Hcells]; · iexact Hcells
  isplitl [Hreg]; · iexact Hreg
  iexact Hrest

/-- THE LAST POINT: the invariant gives back what it took. -/
theorem Phi2_out (c : Dev nD) :
    (dat2 V a c).Φ (Fin.last _)
      ⊢ iprop(Y2 V a c ∗ Pipeline.ownSems0 (Ix := Unit) (Name := ℕ) (U := UC) (Lvl := ℕ) (Val := Elt F) (τ := τ) osem2 c
        ∗ Pipeline.scopedRest (Ix := Unit) (Name := ℕ) (U := UC) (Lvl := ℕ) (Val := Elt F) spec2 c) := by
  rw [Phi2_eq]
  unfold Φ2 Y2
  rw [scopedRest2_split, prefHeld2_eq, cells2_eq]
  simp only [tbM2, hbM2, scM2_0, scM2_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G3Dat.lean ====
/-
  One of the program's 25 gather launches (pipeline 3; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N3 (a : (pcfg3 (F := F)).Adm) : (cfg3 a).N = 2000 := N_3

/-- The body's branch is taken at the last row of a block of rows, -/
theorem cond3_iff : ∀ t : Fin grid3.N, k3_cond1 (grid3.coords t) = 1#1 ↔ t.val % 1000 = 999 := by decide +kernel
/-- the row a point works on is its number modulo 1000, -/
theorem rowAt3_coord : ∀ t : Fin grid3.N, (grid3.coords t 1).val = t.val % 1000 := by decide +kernel
/-- its block of rows is its number divided by 1000, -/
theorem blockAt3_coord : ∀ t : Fin grid3.N, (grid3.coords t 0).val = t.val / 1000 := by decide +kernel
/-- and the output's block index moves after exactly those points (and the grid ends at one). -/
theorem flushB3 : ∀ t : Fin grid3.N,
    (decide (t.val + 1 = grid3.N) || decide (∃ h : t.val + 1 < grid3.N, cc3_transform_2 (grid3.coords ⟨t.val + 1, h⟩) ≠ cc3_transform_2 (grid3.coords t)))
      = decide (t.val % 1000 = 999) := by decide +kernel

/-- The output's block index at a point: the point's block of rows. -/
theorem idx3_1 : ∀ t : Fin grid3.N, cc3_transform_2 (grid3.coords t) = ![t.val / 1000, 0] := by decide +kernel

/-- Every word of the launch's table names a row of the feature array. -/
def InRange3 (pf : pre3.Contents (Elt F)) : Prop := ∀ x : S16x2000.Idx, ((pf 0 : Vec F S16x2000 .i32) x).toNat < 100000

/-! ## The values -/

/-- Lane `l` of a one-row vector. -/
def lane3 (l : Fin 128) : S1x128.Idx := fun a => ⟨if a.val = 0 then 0 else l.val, by
  match a with
  | ⟨0, _⟩ => exact Nat.one_pos
  | ⟨1, _⟩ => exact l.isLt⟩

theorem lane3_one (l : Fin 128) : (lane3 l 1).val = l.val := rfl

/-- The grid point of row `r` of block `q` (total: the point number is taken modulo the grid's size). -/
def pt3 (q : ℕ) (r : ℕ) : Fin grid3.N := ⟨(q * 1000 + r) % grid3.N, Nat.mod_lt _ (by decide)⟩

/-- Inside the grid the point's number is `1000 q + r`. -/
theorem pt3_val (q r : ℕ) (hq : q < 2) (hr : r < 1000) : (pt3 q r).val = q * 1000 + r := by
  show (q * 1000 + r) % grid3.N = q * 1000 + r
  rw [N_3]; omega

/-- A point is the point of its block and row. -/
theorem pt3_self (t : Fin grid3.N) : pt3 (t.val / 1000) (t.val % 1000) = t := by
  apply Fin.ext
  show (t.val / 1000 * 1000 + t.val % 1000) % grid3.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means3 (tb : Vec F S16x2000 .i32) (A0 : Vec F S100000x128 .f32) (q : ℕ) : Vec F S1000x128 .f32 :=
  fun x => Gen.k24_pay1 (gath24 (grid3.coords (pt3 q (x 0).val)) tb A0) (lane3 (x 1))

/-- What the body stores in the output window at the last row of block `q`: the means, rounded, times the weight, rounded. -/
def xBlk3 (tb : Vec F S16x2000 .i32) (A0 : Vec F S100000x128 .f32) (Wt : Vec F S128x128 .f32) (q : ℕ) : Vec F S1000x128 .f32 :=
  Gen.k24_pay2 (means3 tb A0 q) Wt

/-- The carried scratch before point `n`: its rows below `n % 1000` are the means of block `n / 1000`. -/
def RowsOK3 (tb : Vec F S16x2000 .i32) (A0 : Vec F S100000x128 .f32) (n : ℕ) (g : Vec F S1000x128 .f32) : Prop :=
  ∀ x : S1000x128.Idx, (x 0).val < n % 1000 → g x = means3 tb A0 (n / 1000) x

/-- At the first row of a block nothing is asked. -/
theorem rowsOK3_start (tb : Vec F S16x2000 .i32) (A0 : Vec F S100000x128 .f32) (n : ℕ) (hn : n % 1000 = 0) (g : Vec F S1000x128 .f32) :
    RowsOK3 tb A0 n g := fun x hx => absurd hx (by omega)

/-- One point's row store keeps the invariant's rows and adds its own: after the store at point `t` the rows up to
    `t % 1000` are means. -/
theorem rowAt3_means (tb : Vec F S16x2000 .i32) (A0 : Vec F S100000x128 .f32) (t : Fin grid3.N) (g : Vec F S1000x128 .f32)
    (hg : RowsOK3 tb A0 t.val g) (x : S1000x128.Idx) (hx : (x 0).val ≤ t.val % 1000) :
    row24 (grid3.coords t) tb A0 g x = means3 tb A0 (t.val / 1000) x := by
  by_cases h : (x 0).val = t.val % 1000
  · rw [row24_of_eq (grid3.coords t) tb A0 g x (by rw [rowAt3_coord]; exact h) (lane3 (x 1)) rfl]
    unfold means3
    rw [h, pt3_self]
  · rw [row24_of_ne (grid3.coords t) tb A0 g x (by rw [rowAt3_coord]; exact h)]
    exact hg x (by omega)

/-- Within a block the invariant steps. -/
theorem rowsOK3_step (tb : Vec F S16x2000 .i32) (A0 : Vec F S100000x128 .f32) (t : Fin grid3.N) (g : Vec F S1000x128 .f32)
    (hg : RowsOK3 tb A0 t.val g) : RowsOK3 tb A0 (t.val + 1) (row24 (grid3.coords t) tb A0 g) := by
  by_cases hl : t.val % 1000 = 999
  · exact rowsOK3_start _ _ _ (by omega) _
  · intro x hx
    have h1 : (t.val + 1) / 1000 = t.val / 1000 := by omega
    rw [h1]
    exact rowAt3_means tb A0 t g hg x (by omega)

/-- At the last row of a block the scratch, after the row store, is the block's means whatever it held before. -/
theorem rowAt3_last (tb : Vec F S16x2000 .i32) (A0 : Vec F S100000x128 .f32) (t : Fin grid3.N) (hl : t.val % 1000 = 999)
    (g : Vec F S1000x128 .f32) (hg : RowsOK3 tb A0 t.val g) :
    row24 (grid3.coords t) tb A0 g = means3 tb A0 (t.val / 1000) :=
  funext fun x => rowAt3_means tb A0 t g hg x (by have : (x 0).val < 1000 := (x 0).isLt; omega)

/-! ## The invariant -/

/-- The launch's operands that no window stages, as the body is handed them: its table, the feature array left in
    HBM, and its two scratch buffers — whole buffers. -/
abbrev tbM3 : Memref sig .tc .smem S16x2000 .i32 := Memref.whole main_v7
abbrev hbM3 : Memref sig .tc .hbm S100000x128 .f32 := Memref.whole main_arg0
abbrev scM3_0 : Memref sig .tc .vmem S1000x128 .f32 := Memref.whole cc3_scratch0
abbrev scM3_1 : Memref sig .tc .vmem S16x128 .f32 := Memref.whole cc3_scratch1

section Region
-- the TensorCore's buffer contents when the launch is entered, and the launch's table
variable (V : (c : Dev nD) → (b : Ref sig .tc) → Buf (Elt F) ((c : Thread nD τ).loc b)) (a : (pcfg3 (F := F)).Adm)

/-- The table and the feature array, as vectors. -/
abbrev tb3 : Vec F S16x2000 .i32 := a.1 0
abbrev A3 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ3 (c : Dev nD) (n : ℕ) : sProp 𝕄 :=
  iprop(owns (c : Thread nD τ) tbM3 fullShare (tb3 a)
    ∗ owns (c : Thread nD τ) hbM3 fullShare (A3 V c)
    ∗ (∃ g : Vec F S1000x128 .f32, ⌜RowsOK3 (tb3 a) (A3 V c) n g⌝ ∗ owns (c : Thread nD τ) scM3_0 fullShare g)
    ∗ (∃ d, owns (c : Thread nD τ) scM3_1 fullShare d)
    ∗ cells24 c cc3_scratch2
    ∗ (∃ r, prngReg c r)
    ∗ Pipeline.scopedRestBut (Ix := Unit) (Name := ℕ) (U := UC) (Lvl := ℕ) (Val := Elt F) spec3 c [cc3_scratch0, cc3_scratch1])

/-! ## The windows' blocks and the proof data -/

/-- Window `w`'s block at point `t`, read off its array as the launch finds it. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The proof data of the launch on core `c`: the arrays as the launch finds them; after the body at point `t` the
    weight window at its block and the output window at the product for `t`'s block of rows (read only at the block's
    last row, where the body stores it); the invariant above; nothing owed; full shares. -/
def dat3 (c : Dev nD) : Dat τ (Elt F) Unit ℕ UC ℕ (cfg3 a) c where
  A w := V c (Pipeline.arrRef spec3 w)
  after w t := match w with
    | ⟨0, _⟩ => iblk3 V a c 0 t
    | ⟨1, _⟩ => xBlk3 (tb3 a) (A3 V c) (iblk3 V a c 0 t) (t.val / 1000)
  Φ n := Φ3 V a c n.val
  q _ := fullShare
  owed _ := 0

/-- The proof data's arrays are the entry contents. -/
theorem A_eq3 (c : Dev nD) (w : Fin (cfg3 a).W) : (dat3 V a c).A w = V c (Pipeline.arrRef spec3 w) := by
  dsimp only [dat3]

/-- What the body leaves, window by window. -/
theorem after3_0 (c : Dev nD) (t : Fin (cfg3 a).N) : (dat3 V a c).after 0 t = iblk3 V a c 0 t := by dsimp only [dat3]; rfl
theorem after3_1 (c : Dev nD) (t : Fin (cfg3 a).N) :
    (dat3 V a c).after 1 t = xBlk3 (tb3 a) (A3 V c) (iblk3 V a c 0 t) (t.val / 1000) := by dsimp only [dat3]; rfl

/-- The invariant and the tallies, at a point. -/
theorem Phi3_eq (c : Dev nD) (n : Fin ((cfg3 a).N + 1)) : (dat3 V a c).Φ n = Φ3 V a c n.val := by dsimp only [dat3]
theorem owed3_eq (c : Dev nD) (n : Fin ((cfg3 a).N + 1)) : (dat3 V a c).owed n = 0 := by dsimp only [dat3]

/-- The weight window holds its block at every point, fetched there or not: its block index never moves. -/
theorem before3_0 (c : Dev nD) (t : Fin (cfg3 a).N) (d) : (dat3 V a c).before 0 t d = iblk3 V a c 0 t :=
  ((dat3 V a c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The output window is written back after the last row of each block of rows, and only there; -/
theorem flush3_1 (t : Fin (cfg3 a).N) : ((cfg3 a).win 1).flush t = decide (t.val % 1000 = 999) := by
  unfold Window.flush
  exact flushB3 t
/-- and it is idle at every other row. -/
theorem idle3_1 (t : Fin (cfg3 a).N) : (cfg3 a).idle 1 ((cfg3 a).grid.coords t) = !decide (t.val % 1000 = 999) := by
  show (!(k3_cond1 (grid3.coords t) == 1#1)) = _
  congr 1
  by_cases h : t.val % 1000 = 999
  · rw [decide_eq_true h, (cond3_iff t).2 h]; rfl
  · rw [decide_eq_false h]
    exact beq_false_of_ne fun e => h ((cond3_iff t).1 e)

end Region

/-! ## The body obligation -/

section Body
variable (V : (c : Dev nD) → (b : Ref sig .tc) → Buf (Elt F) ((c : Thread nD τ).loc b)) (a : (pcfg3 (F := F)).Adm)

/-- Each window's current staging memref at point `t`, spelled as the pipeline passes it, and its wholeness. -/
abbrev ms3_0 (t : Fin (cfg3 a).N) : Memref sig .tc .vmem S128x128 .f32 := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) : Memref sig .tc .vmem S1000x128 .f32 := spec3_1.stage ((cfg3 a).slots t 1)
abbrev hs3_1 (t : Fin (cfg3 a).N) : (ms3_1 a t).IsWhole := hstage3_1 (((cfg3 a).slots t 1).cast nbuf3_1)

/-- The launch's body function, under the name the runs are stated at. -/
theorem bodyFn3_eq : cc3__gather_agg_matmul_kernel (F := F) = gatherFn := rfl

/-- The kernel body at point `t`, on what the pipeline calls it with. -/
abbrev bodyAt3 (t : Fin (cfg3 a).N) : Prog (TpuEff nD τ sig (Elt F) Λ₀ .tc) PUnit :=
  cc3__gather_agg_matmul_kernel (grid3.coords t) tbM3 (Memref.isWhole_whole _) hbM3 (Memref.isWhole_whole _)
    (ms3_0 a t) (hs3_0 a t) (ms3_1 a t) (hs3_1 a t) scM3_0 (Memref.isWhole_whole _) scM3_1 (Memref.isWhole_whole _) cc3_scratch2

/-- What the body is called with at point `t`, the windows one by one, -/
def bodyPre3 (c : Dev nD) (t : Fin (cfg3 a).N) : sProp 𝕄 :=
  iprop((dat3 V a c).Φ t.castSucc ∗ (dat3 V a c).owesAt () t.castSucc
    ∗ (∃ d, owns (c : Thread nD τ) (ms3_0 a t) fullShare ((dat3 V a c).before 0 t d))
    ∗ (∃ d, owns (c : Thread nD τ) (ms3_1 a t) fullShare ((dat3 V a c).before 1 t d)))

/-- and what it returns: the output window as it was found where the point is idle for it, at the block's product
    at the last row of a block. -/
def bodyPost3 (c : Dev nD) (t : Fin (cfg3 a).N) : sProp 𝕄 :=
  iprop((dat3 V a c).Φ t.succ ∗ (dat3 V a c).owesAt () t.succ
    ∗ owns (c : Thread nD τ) (ms3_0 a t) fullShare ((dat3 V a c).after 0 t)
    ∗ (match (cfg3 a).idle 1 ((cfg3 a).grid.coords t) with
        | true =>
          match ((cfg3 a).win 1).flush t with
          | false => iprop(∃ d, owns (c : Thread nD τ) (ms3_1 a t) fullShare ((dat3 V a c).before 1 t d))
          | true => owns (c : Thread nD τ) (ms3_1 a t) fullShare ((dat3 V a c).after 1 t)
        | false => owns (c : Thread nD τ) (ms3_1 a t) fullShare ((dat3 V a c).after 1 t)))

/-- The body at any point. The weight window holds its block; the invariant hands the body its table, the feature
    array, both scratch buffers and its transfer cells, and takes them back with the carried scratch one row further
    (`rowsOK3_step`); at the last row of a block the product the body stores is the block's (`rowAt3_last`); the core's
    `owes` goes in at whatever the points before recorded and comes back with this point's waits. -/
theorem sound_body3 (hR : InRange3 a.1) (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  rw [flush3_1, idle3_1]
  simp only [before3_0]
  rw [after3_0, Phi3_eq, Phi3_eq, Fin.val_succ, Fin.coe_castSucc]
  unfold Dat.owesAt Pipeline.owesWithin
  rw [owed3_eq, owed3_eq]
  unfold Φ3
  rw [bodyFn3_eq]
  by_cases hl : t.val % 1000 = 999
  · -- the last row of a block
    rw [decide_eq_true hl, Bool.not_true]
    dsimp only
    rw [after3_1]
    unfold xBlk3
    iintro ⟨⟨Htb, Hhb, ⟨%g, %hg, Hs0⟩, Hs1, Hcells, Hreg, Hrest⟩, ⟨%W, -, HW⟩, ⟨%d0, H0⟩, ⟨%d1, H1⟩⟩
    rw [← rowAt3_last (tb3 a) (A3 V c) t hl g hg]
    iapply (run24_last c (grid3.coords t) tbM3 (Memref.isWhole_whole _) hbM3 (Memref.isWhole_whole _) (ms3_0 a t) (hs3_0 a t)
      (ms3_1 a t) (hs3_1 a t) scM3_0 (Memref.isWhole_whole _) scM3_1 (Memref.isWhole_whole _) cc3_scratch2
      ((cond3_iff t).2 hl) (tb3 a) hR (A3 V c) (iblk3 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK3_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k3_cond1 (grid3.coords t) ≠ 1#1 := fun e => hl ((cond3_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid3.coords t) tbM3 (Memref.isWhole_whole _) hbM3 (Memref.isWhole_whole _) (ms3_0 a t) (hs3_0 a t)
      (ms3_1 a t) (hs3_1 a t) scM3_0 (Memref.isWhole_whole _) scM3_1 (Memref.isWhole_whole _) cc3_scratch2
      hc (tb3 a) hR (A3 V c) (iblk3 V a c 0 t) g
      (owns (c : Thread nD τ) (ms3_1 a t) fullShare ((dat3 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK3_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation3 (hR : InRange3 a.1) (c : Dev nD) :
    BodyObligation (dat3 (F := F) V a c) (defs₀ (F := F)) Variants.none () Set.univ := fun t => by
  rw [bigSep_W3, bigSep_W3]
  exact sound_body3 V a hR c t

end Body

/-! ## The value: what the launch leaves in its output array -/

section Value
variable (V : (c : Dev nD) → (b : Ref sig .tc) → Buf (Elt F) ((c : Thread nD τ).loc b)) (a : (pcfg3 (F := F)).Adm)

/-- Entry `(r, l)` of a block of rows. -/
def cell3 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk3 (tb : Vec F S16x2000 .i32) (A0 : Vec F S100000x128 .f32) (Wt : Vec F S128x128 .f32) : Vec F S2000x128 .f32 :=
  fun y => xBlk3 tb A0 Wt ((y 0).val / 1000) (cell3 ((y 0).val % 1000) (Nat.mod_lt _ (by decide)) (y 1))

/-- The weight window's block is the whole weight, at every point: its block index is (0, 0). -/
theorem wblk3_eq (c : Dev nD) (t : Fin (cfg3 a).N) : iblk3 V a c 0 t = (V c main_arg1 : Vec F S128x128 .f32) := by
  funext x
  unfold iblk3
  rw [View.read_apply]
  refine (cast_eq _ _).trans (congrArg (V c main_arg1) (funext fun b => Fin.ext ?_))
  refine (((cfg3 a).win 0).rect_emb_val_of_index_zero t b ?_ x)
  match b with
  | ⟨0, _⟩ => rfl
  | ⟨1, _⟩ => rfl

/-- Where entry `x` of the output window's block at point `t` sits in the output array. -/
abbrev emb3 (t : Fin (cfg3 a).N) (x : S1000x128.Idx) : S2000x128.Idx := (((cfg3 a).win 1).blk t).view.emb x

theorem emb3_val (t : Fin (cfg3 a).N) (x : S1000x128.Idx) :
    (emb3 a t x 0).val = t.val / 1000 * 1000 + (x 0).val ∧ (emb3 a t x 1).val = (x 1).val := by
  have hix : ((cfg3 a).win 1).index t = ![t.val / 1000, 0] := idx3_1 t
  have e0 := ((cfg3 a).win 1).rect_emb_val t x (0 : Fin 2)
  have e1 := ((cfg3 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after3_chunk (c : Dev nD) (t : Fin (cfg3 a).N) (x : S1000x128.Idx) :
    (dat3 V a c).after 1 t x = xChunk3 (tb3 a) (A3 V c) (V c main_arg1) (emb3 a t x) := by
  obtain ⟨e0, e1⟩ := emb3_val a t x
  have hx0 : (x 0).val < 1000 := (x 0).isLt
  rw [after3_1, wblk3_eq]
  unfold xChunk3
  have hq : (emb3 a t x 0).val / 1000 = t.val / 1000 := by rw [e0]; omega
  have hcell : cell3 ((emb3 a t x 0).val % 1000) (Nat.mod_lt _ (by decide)) (emb3 a t x 1) = x := by
    funext b
    apply Fin.ext
    match b with
    | ⟨0, _⟩ =>
      show (emb3 a t x 0).val % 1000 = (x 0).val
      rw [e0]; omega
    | ⟨1, _⟩ => exact e1
  rw [hq, hcell]

/-- Two entries of the output array with the same coordinates are the same. -/
theorem idx3_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb3_cell (t : Fin (cfg3 a).N) (i : S2000x128.Idx) (ht : t.val / 1000 = (i 0).val / 1000) :
    emb3 a t (cell3 ((i 0).val % 1000) (Nat.mod_lt _ (by decide)) (i 1)) = i := by
  obtain ⟨e0, e1⟩ := emb3_val a t (cell3 ((i 0).val % 1000) (Nat.mod_lt _ (by decide)) (i 1))
  refine idx3_ext _ _ ?_ e1
  rw [e0, ht]
  show (i 0).val / 1000 * 1000 + (i 0).val % 1000 = (i 0).val
  omega

/-- Every entry of the output array lies in the block written back after the last row of its block of rows. -/
theorem cover3 (i : S2000x128.Idx) :
    ∃ t : Fin (cfg3 a).N, ((cfg3 a).win 1).flush t = true ∧ i ∈ (((cfg3 a).win 1).blk t).view.set := by
  have hi0 : (i 0).val < 2000 := (i 0).isLt
  have hN : (i 0).val / 1000 * 1000 + 999 < (cfg3 a).N := by rw [N3]; omega
  refine ⟨⟨(i 0).val / 1000 * 1000 + 999, hN⟩, ?_, ?_⟩
  · rw [flush3_1]; exact decide_eq_true (by show ((i 0).val / 1000 * 1000 + 999) % 1000 = 999; omega)
  · refine Finset.mem_map.mpr ⟨cell3 ((i 0).val % 1000) (Nat.mod_lt _ (by decide)) (i 1), Finset.mem_univ _, ?_⟩
    exact emb3_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out3 (c : Dev nD) :
    (dat3 V a c).arrAt 1 (cfg3 a).N = (xChunk3 (tb3 a) (A3 V c) (V c main_arg1) : Vec F S2000x128 .f32) :=
  (dat3 V a c).arrAt_eq_of_cover 1 _
    (fun t _ => funext fun x => (after3_chunk V a c t x).trans (cast_eq _ _).symm)
    (cover3 a)

end Value

/-! ## The invariant's two ends -/

section Ends
variable (V : (c : Dev nD) → (b : Ref sig .tc) → Buf (Elt F) ((c : Thread nD τ).loc b)) (a : (pcfg3 (F := F)).Adm)

/-- The body's own transfer cells as the launch's protocol lists them: the 16 cells of its semaphore operand. -/
def osem3 : Fin 16 → SemLoc sig := fun k => SemLoc.dma (cc3_scratch2.ix (Shape.ofLane k))
/-- They are scoped, distinct, and none is a window's. -/
theorem ownSemFacts3 : Pipeline.OwnSemFacts spec3 osem3 := by decide
/-- The cells at zero, listed, are the cells as the body names them. -/
theorem cells3_eq (c : Dev nD) :
    (Pipeline.ownSems0 (Ix := Unit) (Name := ℕ) (U := UC) (Lvl := ℕ) (Val := Elt F) (τ := τ) osem3 c : sProp 𝕄) = cells24 c cc3_scratch2 := by
  rw [Pipeline.ownSems0_eq_of_list c osem3 [0, 1, 2, 3, 4, 5, 6, 7, 8, 9, 10, 11, 12, 13, 14, 15] (by decide) (by decide)]; rfl

/-- The launch's one table, held. -/
theorem prefHeld3_eq (c : Dev nD) (pf : pre3.Contents (Elt F)) :
    (Pipeline.prefHeld pre3 c (fun _ => fullShare) pf : sProp 𝕄) = (((c : Thread nD τ).loc main_v7) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X3 (c : Dev nD) : sProp 𝕄 :=
  iprop((∃ r, prngReg c r) ∗ Pipeline.ownSems0 (Ix := Unit) (Name := ℕ) (U := UC) (Lvl := ℕ) (Val := Elt F) (τ := τ) osem3 c
    ∗ (((c : Thread nD τ).loc main_arg0) ↦{fullShare} V c main_arg0))
abbrev Y3 (c : Dev nD) : sProp 𝕄 :=
  iprop((∃ r, prngReg c r) ∗ (((c : Thread nD τ).loc main_arg0) ↦{fullShare} V c main_arg0)
    ∗ Pipeline.prefHeld pre3 c (fun _ => fullShare) a.1)

/-- THE FIRST POINT: the invariant from what the launch's entry sorts out. Nothing is asked of the carried scratch. -/
theorem Phi3_in (c : Dev nD) :
    iprop(X3 V c ∗ Pipeline.prefHeld pre3 c (fun _ => fullShare) a.1
        ∗ Pipeline.scopedRest (Ix := Unit) (Name := ℕ) (U := UC) (Lvl := ℕ) (Val := Elt F) spec3 c)
      ⊢ (dat3 V a c).Φ 0 := by
  rw [Phi3_eq]
  unfold Φ3 X3
  rw [scopedRest3_split, prefHeld3_eq, cells3_eq]
  simp only [tbM3, hbM3, scM3_0, scM3_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK3_start _ _ _ rfl _
  isplitl [Hs1]; · iexact Hs1
  isplitl [Hcells]; · iexact Hcells
  isplitl [Hreg]; · iexact Hreg
  iexact Hrest

/-- THE LAST POINT: the invariant gives back what it took. -/
theorem Phi3_out (c : Dev nD) :
    (dat3 V a c).Φ (Fin.last _)
      ⊢ iprop(Y3 V a c ∗ Pipeline.ownSems0 (Ix := Unit) (Name := ℕ) (U := UC) (Lvl := ℕ) (Val := Elt F) (τ := τ) osem3 c
        ∗ Pipeline.scopedRest (Ix := Unit) (Name := ℕ) (U := UC) (Lvl := ℕ) (Val := Elt F) spec3 c) := by
  rw [Phi3_eq]
  unfold Φ3 Y3
  rw [scopedRest3_split, prefHeld3_eq, cells3_eq]
  simp only [tbM3, hbM3, scM3_0, scM3_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G4Dat.lean ====
/-
  One of the program's 25 gather launches (pipeline 4; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N4 (a : (pcfg4 (F := F)).Adm) : (cfg4 a).N = 2000 := N_4

/-- The body's branch is taken at the last row of a block of rows, -/
theorem cond4_iff : ∀ t : Fin grid4.N, k4_cond1 (grid4.coords t) = 1#1 ↔ t.val % 1000 = 999 := by decide +kernel
/-- the row a point works on is its number modulo 1000, -/
theorem rowAt4_coord : ∀ t : Fin grid4.N, (grid4.coords t 1).val = t.val % 1000 := by decide +kernel
/-- its block of rows is its number divided by 1000, -/
theorem blockAt4_coord : ∀ t : Fin grid4.N, (grid4.coords t 0).val = t.val / 1000 := by decide +kernel
/-- and the output's block index moves after exactly those points (and the grid ends at one). -/
theorem flushB4 : ∀ t : Fin grid4.N,
    (decide (t.val + 1 = grid4.N) || decide (∃ h : t.val + 1 < grid4.N, cc4_transform_2 (grid4.coords ⟨t.val + 1, h⟩) ≠ cc4_transform_2 (grid4.coords t)))
      = decide (t.val % 1000 = 999) := by decide +kernel

/-- The output's block index at a point: the point's block of rows. -/
theorem idx4_1 : ∀ t : Fin grid4.N, cc4_transform_2 (grid4.coords t) = ![t.val / 1000, 0] := by decide +kernel

/-- Every word of the launch's table names a row of the feature array. -/
def InRange4 (pf : pre4.Contents (Elt F)) : Prop := ∀ x : S16x2000.Idx, ((pf 0 : Vec F S16x2000 .i32) x).toNat < 100000

/-! ## The values -/

/-- Lane `l` of a one-row vector. -/
def lane4 (l : Fin 128) : S1x128.Idx := fun a => ⟨if a.val = 0 then 0 else l.val, by
  match a with
  | ⟨0, _⟩ => exact Nat.one_pos
  | ⟨1, _⟩ => exact l.isLt⟩

theorem lane4_one (l : Fin 128) : (lane4 l 1).val = l.val := rfl

/-- The grid point of row `r` of block `q` (total: the point number is taken modulo the grid's size). -/
def pt4 (q : ℕ) (r : ℕ) : Fin grid4.N := ⟨(q * 1000 + r) % grid4.N, Nat.mod_lt _ (by decide)⟩

/-- Inside the grid the point's number is `1000 q + r`. -/
theorem pt4_val (q r : ℕ) (hq : q < 2) (hr : r < 1000) : (pt4 q r).val = q * 1000 + r := by
  show (q * 1000 + r) % grid4.N = q * 1000 + r
  rw [N_4]; omega

/-- A point is the point of its block and row. -/
theorem pt4_self (t : Fin grid4.N) : pt4 (t.val / 1000) (t.val % 1000) = t := by
  apply Fin.ext
  show (t.val / 1000 * 1000 + t.val % 1000) % grid4.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means4 (tb : Vec F S16x2000 .i32) (A0 : Vec F S100000x128 .f32) (q : ℕ) : Vec F S1000x128 .f32 :=
  fun x => Gen.k24_pay1 (gath24 (grid4.coords (pt4 q (x 0).val)) tb A0) (lane4 (x 1))

/-- What the body stores in the output window at the last row of block `q`: the means, rounded, times the weight, rounded. -/
def xBlk4 (tb : Vec F S16x2000 .i32) (A0 : Vec F S100000x128 .f32) (Wt : Vec F S128x128 .f32) (q : ℕ) : Vec F S1000x128 .f32 :=
  Gen.k24_pay2 (means4 tb A0 q) Wt

/-- The carried scratch before point `n`: its rows below `n % 1000` are the means of block `n / 1000`. -/
def RowsOK4 (tb : Vec F S16x2000 .i32) (A0 : Vec F S100000x128 .f32) (n : ℕ) (g : Vec F S1000x128 .f32) : Prop :=
  ∀ x : S1000x128.Idx, (x 0).val < n % 1000 → g x = means4 tb A0 (n / 1000) x

/-- At the first row of a block nothing is asked. -/
theorem rowsOK4_start (tb : Vec F S16x2000 .i32) (A0 : Vec F S100000x128 .f32) (n : ℕ) (hn : n % 1000 = 0) (g : Vec F S1000x128 .f32) :
    RowsOK4 tb A0 n g := fun x hx => absurd hx (by omega)

/-- One point's row store keeps the invariant's rows and adds its own: after the store at point `t` the rows up to
    `t % 1000` are means. -/
theorem rowAt4_means (tb : Vec F S16x2000 .i32) (A0 : Vec F S100000x128 .f32) (t : Fin grid4.N) (g : Vec F S1000x128 .f32)
    (hg : RowsOK4 tb A0 t.val g) (x : S1000x128.Idx) (hx : (x 0).val ≤ t.val % 1000) :
    row24 (grid4.coords t) tb A0 g x = means4 tb A0 (t.val / 1000) x := by
  by_cases h : (x 0).val = t.val % 1000
  · rw [row24_of_eq (grid4.coords t) tb A0 g x (by rw [rowAt4_coord]; exact h) (lane4 (x 1)) rfl]
    unfold means4
    rw [h, pt4_self]
  · rw [row24_of_ne (grid4.coords t) tb A0 g x (by rw [rowAt4_coord]; exact h)]
    exact hg x (by omega)

/-- Within a block the invariant steps. -/
theorem rowsOK4_step (tb : Vec F S16x2000 .i32) (A0 : Vec F S100000x128 .f32) (t : Fin grid4.N) (g : Vec F S1000x128 .f32)
    (hg : RowsOK4 tb A0 t.val g) : RowsOK4 tb A0 (t.val + 1) (row24 (grid4.coords t) tb A0 g) := by
  by_cases hl : t.val % 1000 = 999
  · exact rowsOK4_start _ _ _ (by omega) _
  · intro x hx
    have h1 : (t.val + 1) / 1000 = t.val / 1000 := by omega
    rw [h1]
    exact rowAt4_means tb A0 t g hg x (by omega)

/-- At the last row of a block the scratch, after the row store, is the block's means whatever it held before. -/
theorem rowAt4_last (tb : Vec F S16x2000 .i32) (A0 : Vec F S100000x128 .f32) (t : Fin grid4.N) (hl : t.val % 1000 = 999)
    (g : Vec F S1000x128 .f32) (hg : RowsOK4 tb A0 t.val g) :
    row24 (grid4.coords t) tb A0 g = means4 tb A0 (t.val / 1000) :=
  funext fun x => rowAt4_means tb A0 t g hg x (by have : (x 0).val < 1000 := (x 0).isLt; omega)

/-! ## The invariant -/

/-- The launch's operands that no window stages, as the body is handed them: its table, the feature array left in
    HBM, and its two scratch buffers — whole buffers. -/
abbrev tbM4 : Memref sig .tc .smem S16x2000 .i32 := Memref.whole main_v9
abbrev hbM4 : Memref sig .tc .hbm S100000x128 .f32 := Memref.whole main_arg0
abbrev scM4_0 : Memref sig .tc .vmem S1000x128 .f32 := Memref.whole cc4_scratch0
abbrev scM4_1 : Memref sig .tc .vmem S16x128 .f32 := Memref.whole cc4_scratch1

section Region
-- the TensorCore's buffer contents when the launch is entered, and the launch's table
variable (V : (c : Dev nD) → (b : Ref sig .tc) → Buf (Elt F) ((c : Thread nD τ).loc b)) (a : (pcfg4 (F := F)).Adm)

/-- The table and the feature array, as vectors. -/
abbrev tb4 : Vec F S16x2000 .i32 := a.1 0
abbrev A4 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ4 (c : Dev nD) (n : ℕ) : sProp 𝕄 :=
  iprop(owns (c : Thread nD τ) tbM4 fullShare (tb4 a)
    ∗ owns (c : Thread nD τ) hbM4 fullShare (A4 V c)
    ∗ (∃ g : Vec F S1000x128 .f32, ⌜RowsOK4 (tb4 a) (A4 V c) n g⌝ ∗ owns (c : Thread nD τ) scM4_0 fullShare g)
    ∗ (∃ d, owns (c : Thread nD τ) scM4_1 fullShare d)
    ∗ cells24 c cc4_scratch2
    ∗ (∃ r, prngReg c r)
    ∗ Pipeline.scopedRestBut (Ix := Unit) (Name := ℕ) (U := UC) (Lvl := ℕ) (Val := Elt F) spec4 c [cc4_scratch0, cc4_scratch1])

/-! ## The windows' blocks and the proof data -/

/-- Window `w`'s block at point `t`, read off its array as the launch finds it. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- The proof data of the launch on core `c`: the arrays as the launch finds them; after the body at point `t` the
    weight window at its block and the output window at the product for `t`'s block of rows (read only at the block's
    last row, where the body stores it); the invariant above; nothing owed; full shares. -/
def dat4 (c : Dev nD) : Dat τ (Elt F) Unit ℕ UC ℕ (cfg4 a) c where
  A w := V c (Pipeline.arrRef spec4 w)
  after w t := match w with
    | ⟨0, _⟩ => iblk4 V a c 0 t
    | ⟨1, _⟩ => xBlk4 (tb4 a) (A4 V c) (iblk4 V a c 0 t) (t.val / 1000)
  Φ n := Φ4 V a c n.val
  q _ := fullShare
  owed _ := 0

/-- The proof data's arrays are the entry contents. -/
theorem A_eq4 (c : Dev nD) (w : Fin (cfg4 a).W) : (dat4 V a c).A w = V c (Pipeline.arrRef spec4 w) := by
  dsimp only [dat4]

/-- What the body leaves, window by window. -/
theorem after4_0 (c : Dev nD) (t : Fin (cfg4 a).N) : (dat4 V a c).after 0 t = iblk4 V a c 0 t := by dsimp only [dat4]; rfl
theorem after4_1 (c : Dev nD) (t : Fin (cfg4 a).N) :
    (dat4 V a c).after 1 t = xBlk4 (tb4 a) (A4 V c) (iblk4 V a c 0 t) (t.val / 1000) := by dsimp only [dat4]; rfl

/-- The invariant and the tallies, at a point. -/
theorem Phi4_eq (c : Dev nD) (n : Fin ((cfg4 a).N + 1)) : (dat4 V a c).Φ n = Φ4 V a c n.val := by dsimp only [dat4]
theorem owed4_eq (c : Dev nD) (n : Fin ((cfg4 a).N + 1)) : (dat4 V a c).owed n = 0 := by dsimp only [dat4]

/-- The weight window holds its block at every point, fetched there or not: its block index never moves. -/
theorem before4_0 (c : Dev nD) (t : Fin (cfg4 a).N) (d) : (dat4 V a c).before 0 t d = iblk4 V a c 0 t :=
  ((dat4 V a c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The output window is written back after the last row of each block of rows, and only there; -/
theorem flush4_1 (t : Fin (cfg4 a).N) : ((cfg4 a).win 1).flush t = decide (t.val % 1000 = 999) := by
  unfold Window.flush
  exact flushB4 t
/-- and it is idle at every other row. -/
theorem idle4_1 (t : Fin (cfg4 a).N) : (cfg4 a).idle 1 ((cfg4 a).grid.coords t) = !decide (t.val % 1000 = 999) := by
  show (!(k4_cond1 (grid4.coords t) == 1#1)) = _
  congr 1
  by_cases h : t.val % 1000 = 999
  · rw [decide_eq_true h, (cond4_iff t).2 h]; rfl
  · rw [decide_eq_false h]
    exact beq_false_of_ne fun e => h ((cond4_iff t).1 e)

end Region

/-! ## The body obligation -/

section Body
variable (V : (c : Dev nD) → (b : Ref sig .tc) → Buf (Elt F) ((c : Thread nD τ).loc b)) (a : (pcfg4 (F := F)).Adm)

/-- Each window's current staging memref at point `t`, spelled as the pipeline passes it, and its wholeness. -/
abbrev ms4_0 (t : Fin (cfg4 a).N) : Memref sig .tc .vmem S128x128 .f32 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S1000x128 .f32 := spec4_1.stage ((cfg4 a).slots t 1)
abbrev hs4_1 (t : Fin (cfg4 a).N) : (ms4_1 a t).IsWhole := hstage4_1 (((cfg4 a).slots t 1).cast nbuf4_1)

/-- The launch's body function, under the name the runs are stated at. -/
theorem bodyFn4_eq : cc4__gather_agg_matmul_kernel (F := F) = gatherFn := rfl

/-- The kernel body at point `t`, on what the pipeline calls it with. -/
abbrev bodyAt4 (t : Fin (cfg4 a).N) : Prog (TpuEff nD τ sig (Elt F) Λ₀ .tc) PUnit :=
  cc4__gather_agg_matmul_kernel (grid4.coords t) tbM4 (Memref.isWhole_whole _) hbM4 (Memref.isWhole_whole _)
    (ms4_0 a t) (hs4_0 a t) (ms4_1 a t) (hs4_1 a t) scM4_0 (Memref.isWhole_whole _) scM4_1 (Memref.isWhole_whole _) cc4_scratch2

/-- What the body is called with at point `t`, the windows one by one, -/
def bodyPre4 (c : Dev nD) (t : Fin (cfg4 a).N) : sProp 𝕄 :=
  iprop((dat4 V a c).Φ t.castSucc ∗ (dat4 V a c).owesAt () t.castSucc
    ∗ (∃ d, owns (c : Thread nD τ) (ms4_0 a t) fullShare ((dat4 V a c).before 0 t d))
    ∗ (∃ d, owns (c : Thread nD τ) (ms4_1 a t) fullShare ((dat4 V a c).before 1 t d)))

/-- and what it returns: the output window as it was found where the point is idle for it, at the block's product
    at the last row of a block. -/
def bodyPost4 (c : Dev nD) (t : Fin (cfg4 a).N) : sProp 𝕄 :=
  iprop((dat4 V a c).Φ t.succ ∗ (dat4 V a c).owesAt () t.succ
    ∗ owns (c : Thread nD τ) (ms4_0 a t) fullShare ((dat4 V a c).after 0 t)
    ∗ (match (cfg4 a).idle 1 ((cfg4 a).grid.coords t) with
        | true =>
          match ((cfg4 a).win 1).flush t with
          | false => iprop(∃ d, owns (c : Thread nD τ) (ms4_1 a t) fullShare ((dat4 V a c).before 1 t d))
          | true => owns (c : Thread nD τ) (ms4_1 a t) fullShare ((dat4 V a c).after 1 t)
        | false => owns (c : Thread nD τ) (ms4_1 a t) fullShare ((dat4 V a c).after 1 t)))

/-- The body at any point. The weight window holds its block; the invariant hands the body its table, the feature
    array, both scratch buffers and its transfer cells, and takes them back with the carried scratch one row further
    (`rowsOK4_step`); at the last row of a block the product the body stores is the block's (`rowAt4_last`); the core's
    `owes` goes in at whatever the points before recorded and comes back with this point's waits. -/
theorem sound_body4 (hR : InRange4 a.1) (c : Dev nD) (t : Fin (cfg4 a).N) :
    bodyPre4 V a c t ⊢ wp frame (wpE (defs₀ (F := F)) Variants.none c none) Set.univ (bodyAt4 a t) (fun _ => bodyPost4 V a c t) := by
  unfold bodyPre4 bodyPost4 bodyAt4
  rw [flush4_1, idle4_1]
  simp only [before4_0]
  rw [after4_0, Phi4_eq, Phi4_eq, Fin.val_succ, Fin.coe_castSucc]
  unfold Dat.owesAt Pipeline.owesWithin
  rw [owed4_eq, owed4_eq]
  unfold Φ4
  rw [bodyFn4_eq]
  by_cases hl : t.val % 1000 = 999
  · -- the last row of a block
    rw [decide_eq_true hl, Bool.not_true]
    dsimp only
    rw [after4_1]
    unfold xBlk4
    iintro ⟨⟨Htb, Hhb, ⟨%g, %hg, Hs0⟩, Hs1, Hcells, Hreg, Hrest⟩, ⟨%W, -, HW⟩, ⟨%d0, H0⟩, ⟨%d1, H1⟩⟩
    rw [← rowAt4_last (tb4 a) (A4 V c) t hl g hg]
    iapply (run24_last c (grid4.coords t) tbM4 (Memref.isWhole_whole _) hbM4 (Memref.isWhole_whole _) (ms4_0 a t) (hs4_0 a t)
      (ms4_1 a t) (hs4_1 a t) scM4_0 (Memref.isWhole_whole _) scM4_1 (Memref.isWhole_whole _) cc4_scratch2
      ((cond4_iff t).2 hl) (tb4 a) hR (A4 V c) (iblk4 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK4_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k4_cond1 (grid4.coords t) ≠ 1#1 := fun e => hl ((cond4_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid4.coords t) tbM4 (Memref.isWhole_whole _) hbM4 (Memref.isWhole_whole _) (ms4_0 a t) (hs4_0 a t)
      (ms4_1 a t) (hs4_1 a t) scM4_0 (Memref.isWhole_whole _) scM4_1 (Memref.isWhole_whole _) cc4_scratch2
      hc (tb4 a) hR (A4 V c) (iblk4 V a c 0 t) g
      (owns (c : Thread nD τ) (ms4_1 a t) fullShare ((dat4 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK4_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation4 (hR : InRange4 a.1) (c : Dev nD) :
    BodyObligation (dat4 (F := F) V a c) (defs₀ (F := F)) Variants.none () Set.univ := fun t => by
  rw [bigSep_W4, bigSep_W4]
  exact sound_body4 V a hR c t

end Body

/-! ## The value: what the launch leaves in its output array -/

section Value
variable (V : (c : Dev nD) → (b : Ref sig .tc) → Buf (Elt F) ((c : Thread nD τ).loc b)) (a : (pcfg4 (F := F)).Adm)

/-- Entry `(r, l)` of a block of rows. -/
def cell4 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk4 (tb : Vec F S16x2000 .i32) (A0 : Vec F S100000x128 .f32) (Wt : Vec F S128x128 .f32) : Vec F S2000x128 .f32 :=
  fun y => xBlk4 tb A0 Wt ((y 0).val / 1000) (cell4 ((y 0).val % 1000) (Nat.mod_lt _ (by decide)) (y 1))

/-- The weight window's block is the whole weight, at every point: its block index is (0, 0). -/
theorem wblk4_eq (c : Dev nD) (t : Fin (cfg4 a).N) : iblk4 V a c 0 t = (V c main_arg1 : Vec F S128x128 .f32) := by
  funext x
  unfold iblk4
  rw [View.read_apply]
  refine (cast_eq _ _).trans (congrArg (V c main_arg1) (funext fun b => Fin.ext ?_))
  refine (((cfg4 a).win 0).rect_emb_val_of_index_zero t b ?_ x)
  match b with
  | ⟨0, _⟩ => rfl
  | ⟨1, _⟩ => rfl

/-- Where entry `x` of the output window's block at point `t` sits in the output array. -/
abbrev emb4 (t : Fin (cfg4 a).N) (x : S1000x128.Idx) : S2000x128.Idx := (((cfg4 a).win 1).blk t).view.emb x

theorem emb4_val (t : Fin (cfg4 a).N) (x : S1000x128.Idx) :
    (emb4 a t x 0).val = t.val / 1000 * 1000 + (x 0).val ∧ (emb4 a t x 1).val = (x 1).val := by
  have hix : ((cfg4 a).win 1).index t = ![t.val / 1000, 0] := idx4_1 t
  have e0 := ((cfg4 a).win 1).rect_emb_val t x (0 : Fin 2)
  have e1 := ((cfg4 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after4_chunk (c : Dev nD) (t : Fin (cfg4 a).N) (x : S1000x128.Idx) :
    (dat4 V a c).after 1 t x = xChunk4 (tb4 a) (A4 V c) (V c main_arg1) (emb4 a t x) := by
  obtain ⟨e0, e1⟩ := emb4_val a t x
  have hx0 : (x 0).val < 1000 := (x 0).isLt
  rw [after4_1, wblk4_eq]
  unfold xChunk4
  have hq : (emb4 a t x 0).val / 1000 = t.val / 1000 := by rw [e0]; omega
  have hcell : cell4 ((emb4 a t x 0).val % 1000) (Nat.mod_lt _ (by decide)) (emb4 a t x 1) = x := by
    funext b
    apply Fin.ext
    match b with
    | ⟨0, _⟩ =>
      show (emb4 a t x 0).val % 1000 = (x 0).val
      rw [e0]; omega
    | ⟨1, _⟩ => exact e1
  rw [hq, hcell]

/-- Two entries of the output array with the same coordinates are the same. -/
theorem idx4_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb4_cell (t : Fin (cfg4 a).N) (i : S2000x128.Idx) (ht : t.val / 1000 = (i 0).val / 1000) :
    emb4 a t (cell4 ((i 0).val % 1000) (Nat.mod_lt _ (by decide)) (i 1)) = i := by
  obtain ⟨e0, e1⟩ := emb4_val a t (cell4 ((i 0).val % 1000) (Nat.mod_lt _ (by decide)) (i 1))
  refine idx4_ext _ _ ?_ e1
  rw [e0, ht]
  show (i 0).val / 1000 * 1000 + (i 0).val % 1000 = (i 0).val
  omega

/-- Every entry of the output array lies in the block written back after the last row of its block of rows. -/
theorem cover4 (i : S2000x128.Idx) :
    ∃ t : Fin (cfg4 a).N, ((cfg4 a).win 1).flush t = true ∧ i ∈ (((cfg4 a).win 1).blk t).view.set := by
  have hi0 : (i 0).val < 2000 := (i 0).isLt
  have hN : (i 0).val / 1000 * 1000 + 999 < (cfg4 a).N := by rw [N4]; omega
  refine ⟨⟨(i 0).val / 1000 * 1000 + 999, hN⟩, ?_, ?_⟩
  · rw [flush4_1]; exact decide_eq_true (by show ((i 0).val / 1000 * 1000 + 999) % 1000 = 999; omega)
  · refine Finset.mem_map.mpr ⟨cell4 ((i 0).val % 1000) (Nat.mod_lt _ (by decide)) (i 1), Finset.mem_univ _, ?_⟩
    exact emb4_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out4 (c : Dev nD) :
    (dat4 V a c).arrAt 1 (cfg4 a).N = (xChunk4 (tb4 a) (A4 V c) (V c main_arg1) : Vec F S2000x128 .f32) :=
  (dat4 V a c).arrAt_eq_of_cover 1 _
    (fun t _ => funext fun x => (after4_chunk V a c t x).trans (cast_eq _ _).symm)
    (cover4 a)

end Value

/-! ## The invariant's two ends -/

section Ends
variable (V : (c : Dev nD) → (b : Ref sig .tc) → Buf (Elt F) ((c : Thread nD τ).loc b)) (a : (pcfg4 (F := F)).Adm)

/-- The body's own transfer cells as the launch's protocol lists them: the 16 cells of its semaphore operand. -/
def osem4 : Fin 16 → SemLoc sig := fun k => SemLoc.dma (cc4_scratch2.ix (Shape.ofLane k))
/-- They are scoped, distinct, and none is a window's. -/
theorem ownSemFacts4 : Pipeline.OwnSemFacts spec4 osem4 := by decide
/-- The cells at zero, listed, are the cells as the body names them. -/
theorem cells4_eq (c : Dev nD) :
    (Pipeline.ownSems0 (Ix := Unit) (Name := ℕ) (U := UC) (Lvl := ℕ) (Val := Elt F) (τ := τ) osem4 c : sProp 𝕄) = cells24 c cc4_scratch2 := by
  rw [Pipeline.ownSems0_eq_of_list c osem4 [0, 1, 2, 3, 4, 5, 6, 7, 8, 9, 10, 11, 12, 13, 14, 15] (by decide) (by decide)]; rfl

/-- The launch's one table, held. -/
theorem prefHeld4_eq (c : Dev nD) (pf : pre4.Contents (Elt F)) :
    (Pipeline.prefHeld pre4 c (fun _ => fullShare) pf : sProp 𝕄) = (((c : Thread nD τ).loc main_v9) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X4 (c : Dev nD) : sProp 𝕄 :=
  iprop((∃ r, prngReg c r) ∗ Pipeline.ownSems0 (Ix := Unit) (Name := ℕ) (U := UC) (Lvl := ℕ) (Val := Elt F) (τ := τ) osem4 c
    ∗ (((c : Thread nD τ).loc main_arg0) ↦{fullShare} V c main_arg0))
abbrev Y4 (c : Dev nD) : sProp 𝕄 :=
  iprop((∃ r, prngReg c r) ∗ (((c : Thread nD τ).loc main_arg0) ↦{fullShare} V c main_arg0)
    ∗ Pipeline.prefHeld pre4 c (fun _ => fullShare) a.1)

/-- THE FIRST POINT: the invariant from what the launch's entry sorts out. Nothing is asked of the carried scratch. -/
theorem Phi4_in (c : Dev nD) :
    iprop(X4 V c ∗ Pipeline.prefHeld pre4 c (fun _ => fullShare) a.1
        ∗ Pipeline.scopedRest (Ix := Unit) (Name := ℕ) (U := UC) (Lvl := ℕ) (Val := Elt F) spec4 c)
      ⊢ (dat4 V a c).Φ 0 := by
  rw [Phi4_eq]
  unfold Φ4 X4
  rw [scopedRest4_split, prefHeld4_eq, cells4_eq]
  simp only [tbM4, hbM4, scM4_0, scM4_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK4_start _ _ _ rfl _
  isplitl [Hs1]; · iexact Hs1
  isplitl [Hcells]; · iexact Hcells
  isplitl [Hreg]; · iexact Hreg
  iexact Hrest

/-- THE LAST POINT: the invariant gives back what it took. -/
theorem Phi4_out (c : Dev nD) :
    (dat4 V a c).Φ (Fin.last _)
      ⊢ iprop(Y4 V a c ∗ Pipeline.ownSems0 (Ix := Unit) (Name := ℕ) (U := UC) (Lvl := ℕ) (Val := Elt F) (τ := τ) osem4 c
        ∗ Pipeline.scopedRest (Ix := Unit) (Name := ℕ) (U := UC) (Lvl := ℕ) (Val := Elt F) spec4 c) := by
  rw [Phi4_eq]
  unfold Φ4 Y4
  rw [scopedRest4_split, prefHeld4_eq, cells4_eq]
  simp only [tbM4, hbM4, scM4_0, scM4_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G5Dat.lean ====
/-
  One of the program's 25 gather launches (pipeline 5; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N5 (a : (pcfg5 (F := F)).Adm) : (cfg5 a).N = 2000 := N_5

/-- The body's branch is taken at the last row of a block of rows, -/
theorem cond5_iff : ∀ t : Fin grid5.N, k5_cond1 (grid5.coords t) = 1#1 ↔ t.val % 1000 = 999 := by decide +kernel
/-- the row a point works on is its number modulo 1000, -/
theorem rowAt5_coord : ∀ t : Fin grid5.N, (grid5.coords t 1).val = t.val % 1000 := by decide +kernel
/-- its block of rows is its number divided by 1000, -/
theorem blockAt5_coord : ∀ t : Fin grid5.N, (grid5.coords t 0).val = t.val / 1000 := by decide +kernel
/-- and the output's block index moves after exactly those points (and the grid ends at one). -/
theorem flushB5 : ∀ t : Fin grid5.N,
    (decide (t.val + 1 = grid5.N) || decide (∃ h : t.val + 1 < grid5.N, cc5_transform_2 (grid5.coords ⟨t.val + 1, h⟩) ≠ cc5_transform_2 (grid5.coords t)))
      = decide (t.val % 1000 = 999) := by decide +kernel

/-- The output's block index at a point: the point's block of rows. -/
theorem idx5_1 : ∀ t : Fin grid5.N, cc5_transform_2 (grid5.coords t) = ![t.val / 1000, 0] := by decide +kernel

/-- Every word of the launch's table names a row of the feature array. -/
def InRange5 (pf : pre5.Contents (Elt F)) : Prop := ∀ x : S16x2000.Idx, ((pf 0 : Vec F S16x2000 .i32) x).toNat < 100000

/-! ## The values -/

/-- Lane `l` of a one-row vector. -/
def lane5 (l : Fin 128) : S1x128.Idx := fun a => ⟨if a.val = 0 then 0 else l.val, by
  match a with
  | ⟨0, _⟩ => exact Nat.one_pos
  | ⟨1, _⟩ => exact l.isLt⟩

theorem lane5_one (l : Fin 128) : (lane5 l 1).val = l.val := rfl

/-- The grid point of row `r` of block `q` (total: the point number is taken modulo the grid's size). -/
def pt5 (q : ℕ) (r : ℕ) : Fin grid5.N := ⟨(q * 1000 + r) % grid5.N, Nat.mod_lt _ (by decide)⟩

/-- Inside the grid the point's number is `1000 q + r`. -/
theorem pt5_val (q r : ℕ) (hq : q < 2) (hr : r < 1000) : (pt5 q r).val = q * 1000 + r := by
  show (q * 1000 + r) % grid5.N = q * 1000 + r
  rw [N_5]; omega

/-- A point is the point of its block and row. -/
theorem pt5_self (t : Fin grid5.N) : pt5 (t.val / 1000) (t.val % 1000) = t := by
  apply Fin.ext
  show (t.val / 1000 * 1000 + t.val % 1000) % grid5.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means5 (tb : Vec F S16x2000 .i32) (A0 : Vec F S100000x128 .f32) (q : ℕ) : Vec F S1000x128 .f32 :=
  fun x => Gen.k24_pay1 (gath24 (grid5.coords (pt5 q (x 0).val)) tb A0) (lane5 (x 1))

/-- What the body stores in the output window at the last row of block `q`: the means, rounded, times the weight, rounded. -/
def xBlk5 (tb : Vec F S16x2000 .i32) (A0 : Vec F S100000x128 .f32) (Wt : Vec F S128x128 .f32) (q : ℕ) : Vec F S1000x128 .f32 :=
  Gen.k24_pay2 (means5 tb A0 q) Wt

/-- The carried scratch before point `n`: its rows below `n % 1000` are the means of block `n / 1000`. -/
def RowsOK5 (tb : Vec F S16x2000 .i32) (A0 : Vec F S100000x128 .f32) (n : ℕ) (g : Vec F S1000x128 .f32) : Prop :=
  ∀ x : S1000x128.Idx, (x 0).val < n % 1000 → g x = means5 tb A0 (n / 1000) x

/-- At the first row of a block nothing is asked. -/
theorem rowsOK5_start (tb : Vec F S16x2000 .i32) (A0 : Vec F S100000x128 .f32) (n : ℕ) (hn : n % 1000 = 0) (g : Vec F S1000x128 .f32) :
    RowsOK5 tb A0 n g := fun x hx => absurd hx (by omega)

/-- One point's row store keeps the invariant's rows and adds its own: after the store at point `t` the rows up to
    `t % 1000` are means. -/
theorem rowAt5_means (tb : Vec F S16x2000 .i32) (A0 : Vec F S100000x128 .f32) (t : Fin grid5.N) (g : Vec F S1000x128 .f32)
    (hg : RowsOK5 tb A0 t.val g) (x : S1000x128.Idx) (hx : (x 0).val ≤ t.val % 1000) :
    row24 (grid5.coords t) tb A0 g x = means5 tb A0 (t.val / 1000) x := by
  by_cases h : (x 0).val = t.val % 1000
  · rw [row24_of_eq (grid5.coords t) tb A0 g x (by rw [rowAt5_coord]; exact h) (lane5 (x 1)) rfl]
    unfold means5
    rw [h, pt5_self]
  · rw [row24_of_ne (grid5.coords t) tb A0 g x (by rw [rowAt5_coord]; exact h)]
    exact hg x (by omega)

/-- Within a block the invariant steps. -/
theorem rowsOK5_step (tb : Vec F S16x2000 .i32) (A0 : Vec F S100000x128 .f32) (t : Fin grid5.N) (g : Vec F S1000x128 .f32)
    (hg : RowsOK5 tb A0 t.val g) : RowsOK5 tb A0 (t.val + 1) (row24 (grid5.coords t) tb A0 g) := by
  by_cases hl : t.val % 1000 = 999
  · exact rowsOK5_start _ _ _ (by omega) _
  · intro x hx
    have h1 : (t.val + 1) / 1000 = t.val / 1000 := by omega
    rw [h1]
    exact rowAt5_means tb A0 t g hg x (by omega)

/-- At the last row of a block the scratch, after the row store, is the block's means whatever it held before. -/
theorem rowAt5_last (tb : Vec F S16x2000 .i32) (A0 : Vec F S100000x128 .f32) (t : Fin grid5.N) (hl : t.val % 1000 = 999)
    (g : Vec F S1000x128 .f32) (hg : RowsOK5 tb A0 t.val g) :
    row24 (grid5.coords t) tb A0 g = means5 tb A0 (t.val / 1000) :=
  funext fun x => rowAt5_means tb A0 t g hg x (by have : (x 0).val < 1000 := (x 0).isLt; omega)

/-! ## The invariant -/

/-- The launch's operands that no window stages, as the body is handed them: its table, the feature array left in
    HBM, and its two scratch buffers — whole buffers. -/
abbrev tbM5 : Memref sig .tc .smem S16x2000 .i32 := Memref.whole main_v11
abbrev hbM5 : Memref sig .tc .hbm S100000x128 .f32 := Memref.whole main_arg0
abbrev scM5_0 : Memref sig .tc .vmem S1000x128 .f32 := Memref.whole cc5_scratch0
abbrev scM5_1 : Memref sig .tc .vmem S16x128 .f32 := Memref.whole cc5_scratch1

section Region
-- the TensorCore's buffer contents when the launch is entered, and the launch's table
variable (V : (c : Dev nD) → (b : Ref sig .tc) → Buf (Elt F) ((c : Thread nD τ).loc b)) (a : (pcfg5 (F := F)).Adm)

/-- The table and the feature array, as vectors. -/
abbrev tb5 : Vec F S16x2000 .i32 := a.1 0
abbrev A5 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ5 (c : Dev nD) (n : ℕ) : sProp 𝕄 :=
  iprop(owns (c : Thread nD τ) tbM5 fullShare (tb5 a)
    ∗ owns (c : Thread nD τ) hbM5 fullShare (A5 V c)
    ∗ (∃ g : Vec F S1000x128 .f32, ⌜RowsOK5 (tb5 a) (A5 V c) n g⌝ ∗ owns (c : Thread nD τ) scM5_0 fullShare g)
    ∗ (∃ d, owns (c : Thread nD τ) scM5_1 fullShare d)
    ∗ cells24 c cc5_scratch2
    ∗ (∃ r, prngReg c r)
    ∗ Pipeline.scopedRestBut (Ix := Unit) (Name := ℕ) (U := UC) (Lvl := ℕ) (Val := Elt F) spec5 c [cc5_scratch0, cc5_scratch1])

/-! ## The windows' blocks and the proof data -/

/-- Window `w`'s block at point `t`, read off its array as the launch finds it. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- The proof data of the launch on core `c`: the arrays as the launch finds them; after the body at point `t` the
    weight window at its block and the output window at the product for `t`'s block of rows (read only at the block's
    last row, where the body stores it); the invariant above; nothing owed; full shares. -/
def dat5 (c : Dev nD) : Dat τ (Elt F) Unit ℕ UC ℕ (cfg5 a) c where
  A w := V c (Pipeline.arrRef spec5 w)
  after w t := match w with
    | ⟨0, _⟩ => iblk5 V a c 0 t
    | ⟨1, _⟩ => xBlk5 (tb5 a) (A5 V c) (iblk5 V a c 0 t) (t.val / 1000)
  Φ n := Φ5 V a c n.val
  q _ := fullShare
  owed _ := 0

/-- The proof data's arrays are the entry contents. -/
theorem A_eq5 (c : Dev nD) (w : Fin (cfg5 a).W) : (dat5 V a c).A w = V c (Pipeline.arrRef spec5 w) := by
  dsimp only [dat5]

/-- What the body leaves, window by window. -/
theorem after5_0 (c : Dev nD) (t : Fin (cfg5 a).N) : (dat5 V a c).after 0 t = iblk5 V a c 0 t := by dsimp only [dat5]; rfl
theorem after5_1 (c : Dev nD) (t : Fin (cfg5 a).N) :
    (dat5 V a c).after 1 t = xBlk5 (tb5 a) (A5 V c) (iblk5 V a c 0 t) (t.val / 1000) := by dsimp only [dat5]; rfl

/-- The invariant and the tallies, at a point. -/
theorem Phi5_eq (c : Dev nD) (n : Fin ((cfg5 a).N + 1)) : (dat5 V a c).Φ n = Φ5 V a c n.val := by dsimp only [dat5]
theorem owed5_eq (c : Dev nD) (n : Fin ((cfg5 a).N + 1)) : (dat5 V a c).owed n = 0 := by dsimp only [dat5]

/-- The weight window holds its block at every point, fetched there or not: its block index never moves. -/
theorem before5_0 (c : Dev nD) (t : Fin (cfg5 a).N) (d) : (dat5 V a c).before 0 t d = iblk5 V a c 0 t :=
  ((dat5 V a c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

/-- The output window is written back after the last row of each block of rows, and only there; -/
theorem flush5_1 (t : Fin (cfg5 a).N) : ((cfg5 a).win 1).flush t = decide (t.val % 1000 = 999) := by
  unfold Window.flush
  exact flushB5 t
/-- and it is idle at every other row. -/
theorem idle5_1 (t : Fin (cfg5 a).N) : (cfg5 a).idle 1 ((cfg5 a).grid.coords t) = !decide (t.val % 1000 = 999) := by
  show (!(k5_cond1 (grid5.coords t) == 1#1)) = _
  congr 1
  by_cases h : t.val % 1000 = 999
  · rw [decide_eq_true h, (cond5_iff t).2 h]; rfl
  · rw [decide_eq_false h]
    exact beq_false_of_ne fun e => h ((cond5_iff t).1 e)

end Region

/-! ## The body obligation -/

section Body
variable (V : (c : Dev nD) → (b : Ref sig .tc) → Buf (Elt F) ((c : Thread nD τ).loc b)) (a : (pcfg5 (F := F)).Adm)

/-- Each window's current staging memref at point `t`, spelled as the pipeline passes it, and its wholeness. -/
abbrev ms5_0 (t : Fin (cfg5 a).N) : Memref sig .tc .vmem S128x128 .f32 := spec5_0.stage ((cfg5 a).slots t 0)
abbrev hs5_0 (t : Fin (cfg5 a).N) : (ms5_0 a t).IsWhole := hstage5_0 (((cfg5 a).slots t 0).cast nbuf5_0)
abbrev ms5_1 (t : Fin (cfg5 a).N) : Memref sig .tc .vmem S1000x128 .f32 := spec5_1.stage ((cfg5 a).slots t 1)
abbrev hs5_1 (t : Fin (cfg5 a).N) : (ms5_1 a t).IsWhole := hstage5_1 (((cfg5 a).slots t 1).cast nbuf5_1)

/-- The launch's body function, under the name the runs are stated at. -/
theorem bodyFn5_eq : cc5__gather_agg_matmul_kernel (F := F) = gatherFn := rfl

/-- The kernel body at point `t`, on what the pipeline calls it with. -/
abbrev bodyAt5 (t : Fin (cfg5 a).N) : Prog (TpuEff nD τ sig (Elt F) Λ₀ .tc) PUnit :=
  cc5__gather_agg_matmul_kernel (grid5.coords t) tbM5 (Memref.isWhole_whole _) hbM5 (Memref.isWhole_whole _)
    (ms5_0 a t) (hs5_0 a t) (ms5_1 a t) (hs5_1 a t) scM5_0 (Memref.isWhole_whole _) scM5_1 (Memref.isWhole_whole _) cc5_scratch2

/-- What the body is called with at point `t`, the windows one by one, -/
def bodyPre5 (c : Dev nD) (t : Fin (cfg5 a).N) : sProp 𝕄 :=
  iprop((dat5 V a c).Φ t.castSucc ∗ (dat5 V a c).owesAt () t.castSucc
    ∗ (∃ d, owns (c : Thread nD τ) (ms5_0 a t) fullShare ((dat5 V a c).before 0 t d))
    ∗ (∃ d, owns (c : Thread nD τ) (ms5_1 a t) fullShare ((dat5 V a c).before 1 t d)))

/-- and what it returns: the output window as it was found where the point is idle for it, at the block's product
    at the last row of a block. -/
def bodyPost5 (c : Dev nD) (t : Fin (cfg5 a).N) : sProp 𝕄 :=
  iprop((dat5 V a c).Φ t.succ ∗ (dat5 V a c).owesAt () t.succ
    ∗ owns (c : Thread nD τ) (ms5_0 a t) fullShare ((dat5 V a c).after 0 t)
    ∗ (match (cfg5 a).idle 1 ((cfg5 a).grid.coords t) with
        | true =>
          match ((cfg5 a).win 1).flush t with
          | false => iprop(∃ d, owns (c : Thread nD τ) (ms5_1 a t) fullShare ((dat5 V a c).before 1 t d))
          | true => owns (c : Thread nD τ) (ms5_1 a t) fullShare ((dat5 V a c).after 1 t)
        | false => owns (c : Thread nD τ) (ms5_1 a t) fullShare ((dat5 V a c).after 1 t)))

/-- The body at any point. The weight window holds its block; the invariant hands the body its table, the feature
    array, both scratch buffers and its transfer cells, and takes them back with the carried scratch one row further
    (`rowsOK5_step`); at the last row of a block the product the body stores is the block's (`rowAt5_last`); the core's
    `owes` goes in at whatever the points before recorded and comes back with this point's waits. -/
theorem sound_body5 (hR : InRange5 a.1) (c : Dev nD) (t : Fin (cfg5 a).N) :
    bodyPre5 V a c t ⊢ wp frame (wpE (defs₀ (F := F)) Variants.none c none) Set.univ (bodyAt5 a t) (fun _ => bodyPost5 V a c t) := by
  unfold bodyPre5 bodyPost5 bodyAt5
  rw [flush5_1, idle5_1]
  simp only [before5_0]
  rw [after5_0, Phi5_eq, Phi5_eq, Fin.val_succ, Fin.coe_castSucc]
  unfold Dat.owesAt Pipeline.owesWithin
  rw [owed5_eq, owed5_eq]
  unfold Φ5
  rw [bodyFn5_eq]
  by_cases hl : t.val % 1000 = 999
  · -- the last row of a block
    rw [decide_eq_true hl, Bool.not_true]
    dsimp only
    rw [after5_1]
    unfold xBlk5
    iintro ⟨⟨Htb, Hhb, ⟨%g, %hg, Hs0⟩, Hs1, Hcells, Hreg, Hrest⟩, ⟨%W, -, HW⟩, ⟨%d0, H0⟩, ⟨%d1, H1⟩⟩
    rw [← rowAt5_last (tb5 a) (A5 V c) t hl g hg]
    iapply (run24_last c (grid5.coords t) tbM5 (Memref.isWhole_whole _) hbM5 (Memref.isWhole_whole _) (ms5_0 a t) (hs5_0 a t)
      (ms5_1 a t) (hs5_1 a t) scM5_0 (Memref.isWhole_whole _) scM5_1 (Memref.isWhole_whole _) cc5_scratch2
      ((cond5_iff t).2 hl) (tb5 a) hR (A5 V c) (iblk5 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK5_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k5_cond1 (grid5.coords t) ≠ 1#1 := fun e => hl ((cond5_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid5.coords t) tbM5 (Memref.isWhole_whole _) hbM5 (Memref.isWhole_whole _) (ms5_0 a t) (hs5_0 a t)
      (ms5_1 a t) (hs5_1 a t) scM5_0 (Memref.isWhole_whole _) scM5_1 (Memref.isWhole_whole _) cc5_scratch2
      hc (tb5 a) hR (A5 V c) (iblk5 V a c 0 t) g
      (owns (c : Thread nD τ) (ms5_1 a t) fullShare ((dat5 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK5_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation5 (hR : InRange5 a.1) (c : Dev nD) :
    BodyObligation (dat5 (F := F) V a c) (defs₀ (F := F)) Variants.none () Set.univ := fun t => by
  rw [bigSep_W5, bigSep_W5]
  exact sound_body5 V a hR c t

end Body

/-! ## The value: what the launch leaves in its output array -/

section Value
variable (V : (c : Dev nD) → (b : Ref sig .tc) → Buf (Elt F) ((c : Thread nD τ).loc b)) (a : (pcfg5 (F := F)).Adm)

/-- Entry `(r, l)` of a block of rows. -/
def cell5 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk5 (tb : Vec F S16x2000 .i32) (A0 : Vec F S100000x128 .f32) (Wt : Vec F S128x128 .f32) : Vec F S2000x128 .f32 :=
  fun y => xBlk5 tb A0 Wt ((y 0).val / 1000) (cell5 ((y 0).val % 1000) (Nat.mod_lt _ (by decide)) (y 1))

/-- The weight window's block is the whole weight, at every point: its block index is (0, 0). -/
theorem wblk5_eq (c : Dev nD) (t : Fin (cfg5 a).N) : iblk5 V a c 0 t = (V c main_arg1 : Vec F S128x128 .f32) := by
  funext x
  unfold iblk5
  rw [View.read_apply]
  refine (cast_eq _ _).trans (congrArg (V c main_arg1) (funext fun b => Fin.ext ?_))
  refine (((cfg5 a).win 0).rect_emb_val_of_index_zero t b ?_ x)
  match b with
  | ⟨0, _⟩ => rfl
  | ⟨1, _⟩ => rfl

/-- Where entry `x` of the output window's block at point `t` sits in the output array. -/
abbrev emb5 (t : Fin (cfg5 a).N) (x : S1000x128.Idx) : S2000x128.Idx := (((cfg5 a).win 1).blk t).view.emb x

theorem emb5_val (t : Fin (cfg5 a).N) (x : S1000x128.Idx) :
    (emb5 a t x 0).val = t.val / 1000 * 1000 + (x 0).val ∧ (emb5 a t x 1).val = (x 1).val := by
  have hix : ((cfg5 a).win 1).index t = ![t.val / 1000, 0] := idx5_1 t
  have e0 := ((cfg5 a).win 1).rect_emb_val t x (0 : Fin 2)
  have e1 := ((cfg5 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after5_chunk (c : Dev nD) (t : Fin (cfg5 a).N) (x : S1000x128.Idx) :
    (dat5 V a c).after 1 t x = xChunk5 (tb5 a) (A5 V c) (V c main_arg1) (emb5 a t x) := by
  obtain ⟨e0, e1⟩ := emb5_val a t x
  have hx0 : (x 0).val < 1000 := (x 0).isLt
  rw [after5_1, wblk5_eq]
  unfold xChunk5
  have hq : (emb5 a t x 0).val / 1000 = t.val / 1000 := by rw [e0]; omega
  have hcell : cell5 ((emb5 a t x 0).val % 1000) (Nat.mod_lt _ (by decide)) (emb5 a t x 1) = x := by
    funext b
    apply Fin.ext
    match b with
    | ⟨0, _⟩ =>
      show (emb5 a t x 0).val % 1000 = (x 0).val
      rw [e0]; omega
    | ⟨1, _⟩ => exact e1
  rw [hq, hcell]

/-- Two entries of the output array with the same coordinates are the same. -/
theorem idx5_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb5_cell (t : Fin (cfg5 a).N) (i : S2000x128.Idx) (ht : t.val / 1000 = (i 0).val / 1000) :
    emb5 a t (cell5 ((i 0).val % 1000) (Nat.mod_lt _ (by decide)) (i 1)) = i := by
  obtain ⟨e0, e1⟩ := emb5_val a t (cell5 ((i 0).val % 1000) (Nat.mod_lt _ (by decide)) (i 1))
  refine idx5_ext _ _ ?_ e1
  rw [e0, ht]
  show (i 0).val / 1000 * 1000 + (i 0).val % 1000 = (i 0).val
  omega

/-- Every entry of the output array lies in the block written back after the last row of its block of rows. -/
theorem cover5 (i : S2000x128.Idx) :
    ∃ t : Fin (cfg5 a).N, ((cfg5 a).win 1).flush t = true ∧ i ∈ (((cfg5 a).win 1).blk t).view.set := by
  have hi0 : (i 0).val < 2000 := (i 0).isLt
  have hN : (i 0).val / 1000 * 1000 + 999 < (cfg5 a).N := by rw [N5]; omega
  refine ⟨⟨(i 0).val / 1000 * 1000 + 999, hN⟩, ?_, ?_⟩
  · rw [flush5_1]; exact decide_eq_true (by show ((i 0).val / 1000 * 1000 + 999) % 1000 = 999; omega)
  · refine Finset.mem_map.mpr ⟨cell5 ((i 0).val % 1000) (Nat.mod_lt _ (by decide)) (i 1), Finset.mem_univ _, ?_⟩
    exact emb5_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out5 (c : Dev nD) :
    (dat5 V a c).arrAt 1 (cfg5 a).N = (xChunk5 (tb5 a) (A5 V c) (V c main_arg1) : Vec F S2000x128 .f32) :=
  (dat5 V a c).arrAt_eq_of_cover 1 _
    (fun t _ => funext fun x => (after5_chunk V a c t x).trans (cast_eq _ _).symm)
    (cover5 a)

end Value

/-! ## The invariant's two ends -/

section Ends
variable (V : (c : Dev nD) → (b : Ref sig .tc) → Buf (Elt F) ((c : Thread nD τ).loc b)) (a : (pcfg5 (F := F)).Adm)

/-- The body's own transfer cells as the launch's protocol lists them: the 16 cells of its semaphore operand. -/
def osem5 : Fin 16 → SemLoc sig := fun k => SemLoc.dma (cc5_scratch2.ix (Shape.ofLane k))
/-- They are scoped, distinct, and none is a window's. -/
theorem ownSemFacts5 : Pipeline.OwnSemFacts spec5 osem5 := by decide
/-- The cells at zero, listed, are the cells as the body names them. -/
theorem cells5_eq (c : Dev nD) :
    (Pipeline.ownSems0 (Ix := Unit) (Name := ℕ) (U := UC) (Lvl := ℕ) (Val := Elt F) (τ := τ) osem5 c : sProp 𝕄) = cells24 c cc5_scratch2 := by
  rw [Pipeline.ownSems0_eq_of_list c osem5 [0, 1, 2, 3, 4, 5, 6, 7, 8, 9, 10, 11, 12, 13, 14, 15] (by decide) (by decide)]; rfl

/-- The launch's one table, held. -/
theorem prefHeld5_eq (c : Dev nD) (pf : pre5.Contents (Elt F)) :
    (Pipeline.prefHeld pre5 c (fun _ => fullShare) pf : sProp 𝕄) = (((c : Thread nD τ).loc main_v11) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X5 (c : Dev nD) : sProp 𝕄 :=
  iprop((∃ r, prngReg c r) ∗ Pipeline.ownSems0 (Ix := Unit) (Name := ℕ) (U := UC) (Lvl := ℕ) (Val := Elt F) (τ := τ) osem5 c
    ∗ (((c : Thread nD τ).loc main_arg0) ↦{fullShare} V c main_arg0))
abbrev Y5 (c : Dev nD) : sProp 𝕄 :=
  iprop((∃ r, prngReg c r) ∗ (((c : Thread nD τ).loc main_arg0) ↦{fullShare} V c main_arg0)
    ∗ Pipeline.prefHeld pre5 c (fun _ => fullShare) a.1)

/-- THE FIRST POINT: the invariant from what the launch's entry sorts out. Nothing is asked of the carried scratch. -/
theorem Phi5_in (c : Dev nD) :
    iprop(X5 V c ∗ Pipeline.prefHeld pre5 c (fun _ => fullShare) a.1
        ∗ Pipeline.scopedRest (Ix := Unit) (Name := ℕ) (U := UC) (Lvl := ℕ) (Val := Elt F) spec5 c)
      ⊢ (dat5 V a c).Φ 0 := by
  rw [Phi5_eq]
  unfold Φ5 X5
  rw [scopedRest5_split, prefHeld5_eq, cells5_eq]
  simp only [tbM5, hbM5, scM5_0, scM5_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK5_start _ _ _ rfl _
  isplitl [Hs1]; · iexact Hs1
  isplitl [Hcells]; · iexact Hcells
  isplitl [Hreg]; · iexact Hreg
  iexact Hrest

/-- THE LAST POINT: the invariant gives back what it took. -/
theorem Phi5_out (c : Dev nD) :
    (dat5 V a c).Φ (Fin.last _)
      ⊢ iprop(Y5 V a c ∗ Pipeline.ownSems0 (Ix := Unit) (Name := ℕ) (U := UC) (Lvl := ℕ) (Val := Elt F) (τ := τ) osem5 c
        ∗ Pipeline.scopedRest (Ix := Unit) (Name := ℕ) (U := UC) (Lvl := ℕ) (Val := Elt F) spec5 c) := by
  rw [Phi5_eq]
  unfold Φ5 Y5
  rw [scopedRest5_split, prefHeld5_eq, cells5_eq]
  simp only [tbM5, hbM5, scM5_0, scM5_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G6Dat.lean ====
/-
  One of the program's 25 gather launches (pipeline 6; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N6 (a : (pcfg6 (F := F)).Adm) : (cfg6 a).N = 2000 := N_6

/-- The body's branch is taken at the last row of a block of rows, -/
theorem cond6_iff : ∀ t : Fin grid6.N, k6_cond1 (grid6.coords t) = 1#1 ↔ t.val % 1000 = 999 := by decide +kernel
/-- the row a point works on is its number modulo 1000, -/
theorem rowAt6_coord : ∀ t : Fin grid6.N, (grid6.coords t 1).val = t.val % 1000 := by decide +kernel
/-- its block of rows is its number divided by 1000, -/
theorem blockAt6_coord : ∀ t : Fin grid6.N, (grid6.coords t 0).val = t.val / 1000 := by decide +kernel
/-- and the output's block index moves after exactly those points (and the grid ends at one). -/
theorem flushB6 : ∀ t : Fin grid6.N,
    (decide (t.val + 1 = grid6.N) || decide (∃ h : t.val + 1 < grid6.N, cc6_transform_2 (grid6.coords ⟨t.val + 1, h⟩) ≠ cc6_transform_2 (grid6.coords t)))
      = decide (t.val % 1000 = 999) := by decide +kernel

/-- The output's block index at a point: the point's block of rows. -/
theorem idx6_1 : ∀ t : Fin grid6.N, cc6_transform_2 (grid6.coords t) = ![t.val / 1000, 0] := by decide +kernel

/-- Every word of the launch's table names a row of the feature array. -/
def InRange6 (pf : pre6.Contents (Elt F)) : Prop := ∀ x : S16x2000.Idx, ((pf 0 : Vec F S16x2000 .i32) x).toNat < 100000

/-! ## The values -/

/-- Lane `l` of a one-row vector. -/
def lane6 (l : Fin 128) : S1x128.Idx := fun a => ⟨if a.val = 0 then 0 else l.val, by
  match a with
  | ⟨0, _⟩ => exact Nat.one_pos
  | ⟨1, _⟩ => exact l.isLt⟩

theorem lane6_one (l : Fin 128) : (lane6 l 1).val = l.val := rfl

/-- The grid point of row `r` of block `q` (total: the point number is taken modulo the grid's size). -/
def pt6 (q : ℕ) (r : ℕ) : Fin grid6.N := ⟨(q * 1000 + r) % grid6.N, Nat.mod_lt _ (by decide)⟩

/-- Inside the grid the point's number is `1000 q + r`. -/
theorem pt6_val (q r : ℕ) (hq : q < 2) (hr : r < 1000) : (pt6 q r).val = q * 1000 + r := by
  show (q * 1000 + r) % grid6.N = q * 1000 + r
  rw [N_6]; omega

/-- A point is the point of its block and row. -/
theorem pt6_self (t : Fin grid6.N) : pt6 (t.val / 1000) (t.val % 1000) = t := by
  apply Fin.ext
  show (t.val / 1000 * 1000 + t.val % 1000) % grid6.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means6 (tb : Vec F S16x2000 .i32) (A0 : Vec F S100000x128 .f32) (q : ℕ) : Vec F S1000x128 .f32 :=
  fun x => Gen.k24_pay1 (gath24 (grid6.coords (pt6 q (x 0).val)) tb A0) (lane6 (x 1))

/-- What the body stores in the output window at the last row of block `q`: the means, rounded, times the weight, rounded. -/
def xBlk6 (tb : Vec F S16x2000 .i32) (A0 : Vec F S100000x128 .f32) (Wt : Vec F S128x128 .f32) (q : ℕ) : Vec F S1000x128 .f32 :=
  Gen.k24_pay2 (means6 tb A0 q) Wt

/-- The carried scratch before point `n`: its rows below `n % 1000` are the means of block `n / 1000`. -/
def RowsOK6 (tb : Vec F S16x2000 .i32) (A0 : Vec F S100000x128 .f32) (n : ℕ) (g : Vec F S1000x128 .f32) : Prop :=
  ∀ x : S1000x128.Idx, (x 0).val < n % 1000 → g x = means6 tb A0 (n / 1000) x

/-- At the first row of a block nothing is asked. -/
theorem rowsOK6_start (tb : Vec F S16x2000 .i32) (A0 : Vec F S100000x128 .f32) (n : ℕ) (hn : n % 1000 = 0) (g : Vec F S1000x128 .f32) :
    RowsOK6 tb A0 n g := fun x hx => absurd hx (by omega)

/-- One point's row store keeps the invariant's rows and adds its own: after the store at point `t` the rows up to
    `t % 1000` are means. -/
theorem rowAt6_means (tb : Vec F S16x2000 .i32) (A0 : Vec F S100000x128 .f32) (t : Fin grid6.N) (g : Vec F S1000x128 .f32)
    (hg : RowsOK6 tb A0 t.val g) (x : S1000x128.Idx) (hx : (x 0).val ≤ t.val % 1000) :
    row24 (grid6.coords t) tb A0 g x = means6 tb A0 (t.val / 1000) x := by
  by_cases h : (x 0).val = t.val % 1000
  · rw [row24_of_eq (grid6.coords t) tb A0 g x (by rw [rowAt6_coord]; exact h) (lane6 (x 1)) rfl]
    unfold means6
    rw [h, pt6_self]
  · rw [row24_of_ne (grid6.coords t) tb A0 g x (by rw [rowAt6_coord]; exact h)]
    exact hg x (by omega)

/-- Within a block the invariant steps. -/
theorem rowsOK6_step (tb : Vec F S16x2000 .i32) (A0 : Vec F S100000x128 .f32) (t : Fin grid6.N) (g : Vec F S1000x128 .f32)
    (hg : RowsOK6 tb A0 t.val g) : RowsOK6 tb A0 (t.val + 1) (row24 (grid6.coords t) tb A0 g) := by
  by_cases hl : t.val % 1000 = 999
  · exact rowsOK6_start _ _ _ (by omega) _
  · intro x hx
    have h1 : (t.val + 1) / 1000 = t.val / 1000 := by omega
    rw [h1]
    exact rowAt6_means tb A0 t g hg x (by omega)

/-- At the last row of a block the scratch, after the row store, is the block's means whatever it held before. -/
theorem rowAt6_last (tb : Vec F S16x2000 .i32) (A0 : Vec F S100000x128 .f32) (t : Fin grid6.N) (hl : t.val % 1000 = 999)
    (g : Vec F S1000x128 .f32) (hg : RowsOK6 tb A0 t.val g) :
    row24 (grid6.coords t) tb A0 g = means6 tb A0 (t.val / 1000) :=
  funext fun x => rowAt6_means tb A0 t g hg x (by have : (x 0).val < 1000 := (x 0).isLt; omega)

/-! ## The invariant -/

/-- The launch's operands that no window stages, as the body is handed them: its table, the feature array left in
    HBM, and its two scratch buffers — whole buffers. -/
abbrev tbM6 : Memref sig .tc .smem S16x2000 .i32 := Memref.whole main_v13
abbrev hbM6 : Memref sig .tc .hbm S100000x128 .f32 := Memref.whole main_arg0
abbrev scM6_0 : Memref sig .tc .vmem S1000x128 .f32 := Memref.whole cc6_scratch0
abbrev scM6_1 : Memref sig .tc .vmem S16x128 .f32 := Memref.whole cc6_scratch1

section Region
-- the TensorCore's buffer contents when the launch is entered, and the launch's table
variable (V : (c : Dev nD) → (b : Ref sig .tc) → Buf (Elt F) ((c : Thread nD τ).loc b)) (a : (pcfg6 (F := F)).Adm)

/-- The table and the feature array, as vectors. -/
abbrev tb6 : Vec F S16x2000 .i32 := a.1 0
abbrev A6 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ6 (c : Dev nD) (n : ℕ) : sProp 𝕄 :=
  iprop(owns (c : Thread nD τ) tbM6 fullShare (tb6 a)
    ∗ owns (c : Thread nD τ) hbM6 fullShare (A6 V c)
    ∗ (∃ g : Vec F S1000x128 .f32, ⌜RowsOK6 (tb6 a) (A6 V c) n g⌝ ∗ owns (c : Thread nD τ) scM6_0 fullShare g)
    ∗ (∃ d, owns (c : Thread nD τ) scM6_1 fullShare d)
    ∗ cells24 c cc6_scratch2
    ∗ (∃ r, prngReg c r)
    ∗ Pipeline.scopedRestBut (Ix := Unit) (Name := ℕ) (U := UC) (Lvl := ℕ) (Val := Elt F) spec6 c [cc6_scratch0, cc6_scratch1])

/-! ## The windows' blocks and the proof data -/

/-- Window `w`'s block at point `t`, read off its array as the launch finds it. -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- The proof data of the launch on core `c`: the arrays as the launch finds them; after the body at point `t` the
    weight window at its block and the output window at the product for `t`'s block of rows (read only at the block's
    last row, where the body stores it); the invariant above; nothing owed; full shares. -/
def dat6 (c : Dev nD) : Dat τ (Elt F) Unit ℕ UC ℕ (cfg6 a) c where
  A w := V c (Pipeline.arrRef spec6 w)
  after w t := match w with
    | ⟨0, _⟩ => iblk6 V a c 0 t
    | ⟨1, _⟩ => xBlk6 (tb6 a) (A6 V c) (iblk6 V a c 0 t) (t.val / 1000)
  Φ n := Φ6 V a c n.val
  q _ := fullShare
  owed _ := 0

/-- The proof data's arrays are the entry contents. -/
theorem A_eq6 (c : Dev nD) (w : Fin (cfg6 a).W) : (dat6 V a c).A w = V c (Pipeline.arrRef spec6 w) := by
  dsimp only [dat6]

/-- What the body leaves, window by window. -/
theorem after6_0 (c : Dev nD) (t : Fin (cfg6 a).N) : (dat6 V a c).after 0 t = iblk6 V a c 0 t := by dsimp only [dat6]; rfl
theorem after6_1 (c : Dev nD) (t : Fin (cfg6 a).N) :
    (dat6 V a c).after 1 t = xBlk6 (tb6 a) (A6 V c) (iblk6 V a c 0 t) (t.val / 1000) := by dsimp only [dat6]; rfl

/-- The invariant and the tallies, at a point. -/
theorem Phi6_eq (c : Dev nD) (n : Fin ((cfg6 a).N + 1)) : (dat6 V a c).Φ n = Φ6 V a c n.val := by dsimp only [dat6]
theorem owed6_eq (c : Dev nD) (n : Fin ((cfg6 a).N + 1)) : (dat6 V a c).owed n = 0 := by dsimp only [dat6]

/-- The weight window holds its block at every point, fetched there or not: its block index never moves. -/
theorem before6_0 (c : Dev nD) (t : Fin (cfg6 a).N) (d) : (dat6 V a c).before 0 t d = iblk6 V a c 0 t :=
  ((dat6 V a c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

/-- The output window is written back after the last row of each block of rows, and only there; -/
theorem flush6_1 (t : Fin (cfg6 a).N) : ((cfg6 a).win 1).flush t = decide (t.val % 1000 = 999) := by
  unfold Window.flush
  exact flushB6 t
/-- and it is idle at every other row. -/
theorem idle6_1 (t : Fin (cfg6 a).N) : (cfg6 a).idle 1 ((cfg6 a).grid.coords t) = !decide (t.val % 1000 = 999) := by
  show (!(k6_cond1 (grid6.coords t) == 1#1)) = _
  congr 1
  by_cases h : t.val % 1000 = 999
  · rw [decide_eq_true h, (cond6_iff t).2 h]; rfl
  · rw [decide_eq_false h]
    exact beq_false_of_ne fun e => h ((cond6_iff t).1 e)

end Region

/-! ## The body obligation -/

section Body
variable (V : (c : Dev nD) → (b : Ref sig .tc) → Buf (Elt F) ((c : Thread nD τ).loc b)) (a : (pcfg6 (F := F)).Adm)

/-- Each window's current staging memref at point `t`, spelled as the pipeline passes it, and its wholeness. -/
abbrev ms6_0 (t : Fin (cfg6 a).N) : Memref sig .tc .vmem S128x128 .f32 := spec6_0.stage ((cfg6 a).slots t 0)
abbrev hs6_0 (t : Fin (cfg6 a).N) : (ms6_0 a t).IsWhole := hstage6_0 (((cfg6 a).slots t 0).cast nbuf6_0)
abbrev ms6_1 (t : Fin (cfg6 a).N) : Memref sig .tc .vmem S1000x128 .f32 := spec6_1.stage ((cfg6 a).slots t 1)
abbrev hs6_1 (t : Fin (cfg6 a).N) : (ms6_1 a t).IsWhole := hstage6_1 (((cfg6 a).slots t 1).cast nbuf6_1)

/-- The launch's body function, under the name the runs are stated at. -/
theorem bodyFn6_eq : cc6__gather_agg_matmul_kernel (F := F) = gatherFn := rfl

/-- The kernel body at point `t`, on what the pipeline calls it with. -/
abbrev bodyAt6 (t : Fin (cfg6 a).N) : Prog (TpuEff nD τ sig (Elt F) Λ₀ .tc) PUnit :=
  cc6__gather_agg_matmul_kernel (grid6.coords t) tbM6 (Memref.isWhole_whole _) hbM6 (Memref.isWhole_whole _)
    (ms6_0 a t) (hs6_0 a t) (ms6_1 a t) (hs6_1 a t) scM6_0 (Memref.isWhole_whole _) scM6_1 (Memref.isWhole_whole _) cc6_scratch2

/-- What the body is called with at point `t`, the windows one by one, -/
def bodyPre6 (c : Dev nD) (t : Fin (cfg6 a).N) : sProp 𝕄 :=
  iprop((dat6 V a c).Φ t.castSucc ∗ (dat6 V a c).owesAt () t.castSucc
    ∗ (∃ d, owns (c : Thread nD τ) (ms6_0 a t) fullShare ((dat6 V a c).before 0 t d))
    ∗ (∃ d, owns (c : Thread nD τ) (ms6_1 a t) fullShare ((dat6 V a c).before 1 t d)))

/-- and what it returns: the output window as it was found where the point is idle for it, at the block's product
    at the last row of a block. -/
def bodyPost6 (c : Dev nD) (t : Fin (cfg6 a).N) : sProp 𝕄 :=
  iprop((dat6 V a c).Φ t.succ ∗ (dat6 V a c).owesAt () t.succ
    ∗ owns (c : Thread nD τ) (ms6_0 a t) fullShare ((dat6 V a c).after 0 t)
    ∗ (match (cfg6 a).idle 1 ((cfg6 a).grid.coords t) with
        | true =>
          match ((cfg6 a).win 1).flush t with
          | false => iprop(∃ d, owns (c : Thread nD τ) (ms6_1 a t) fullShare ((dat6 V a c).before 1 t d))
          | true => owns (c : Thread nD τ) (ms6_1 a t) fullShare ((dat6 V a c).after 1 t)
        | false => owns (c : Thread nD τ) (ms6_1 a t) fullShare ((dat6 V a c).after 1 t)))

/-- The body at any point. The weight window holds its block; the invariant hands the body its table, the feature
    array, both scratch buffers and its transfer cells, and takes them back with the carried scratch one row further
    (`rowsOK6_step`); at the last row of a block the product the body stores is the block's (`rowAt6_last`); the core's
    `owes` goes in at whatever the points before recorded and comes back with this point's waits. -/
theorem sound_body6 (hR : InRange6 a.1) (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  rw [flush6_1, idle6_1]
  simp only [before6_0]
  rw [after6_0, Phi6_eq, Phi6_eq, Fin.val_succ, Fin.coe_castSucc]
  unfold Dat.owesAt Pipeline.owesWithin
  rw [owed6_eq, owed6_eq]
  unfold Φ6
  rw [bodyFn6_eq]
  by_cases hl : t.val % 1000 = 999
  · -- the last row of a block
    rw [decide_eq_true hl, Bool.not_true]
    dsimp only
    rw [after6_1]
    unfold xBlk6
    iintro ⟨⟨Htb, Hhb, ⟨%g, %hg, Hs0⟩, Hs1, Hcells, Hreg, Hrest⟩, ⟨%W, -, HW⟩, ⟨%d0, H0⟩, ⟨%d1, H1⟩⟩
    rw [← rowAt6_last (tb6 a) (A6 V c) t hl g hg]
    iapply (run24_last c (grid6.coords t) tbM6 (Memref.isWhole_whole _) hbM6 (Memref.isWhole_whole _) (ms6_0 a t) (hs6_0 a t)
      (ms6_1 a t) (hs6_1 a t) scM6_0 (Memref.isWhole_whole _) scM6_1 (Memref.isWhole_whole _) cc6_scratch2
      ((cond6_iff t).2 hl) (tb6 a) hR (A6 V c) (iblk6 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK6_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k6_cond1 (grid6.coords t) ≠ 1#1 := fun e => hl ((cond6_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid6.coords t) tbM6 (Memref.isWhole_whole _) hbM6 (Memref.isWhole_whole _) (ms6_0 a t) (hs6_0 a t)
      (ms6_1 a t) (hs6_1 a t) scM6_0 (Memref.isWhole_whole _) scM6_1 (Memref.isWhole_whole _) cc6_scratch2
      hc (tb6 a) hR (A6 V c) (iblk6 V a c 0 t) g
      (owns (c : Thread nD τ) (ms6_1 a t) fullShare ((dat6 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK6_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation6 (hR : InRange6 a.1) (c : Dev nD) :
    BodyObligation (dat6 (F := F) V a c) (defs₀ (F := F)) Variants.none () Set.univ := fun t => by
  rw [bigSep_W6, bigSep_W6]
  exact sound_body6 V a hR c t

end Body

/-! ## The value: what the launch leaves in its output array -/

section Value
variable (V : (c : Dev nD) → (b : Ref sig .tc) → Buf (Elt F) ((c : Thread nD τ).loc b)) (a : (pcfg6 (F := F)).Adm)

/-- Entry `(r, l)` of a block of rows. -/
def cell6 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk6 (tb : Vec F S16x2000 .i32) (A0 : Vec F S100000x128 .f32) (Wt : Vec F S128x128 .f32) : Vec F S2000x128 .f32 :=
  fun y => xBlk6 tb A0 Wt ((y 0).val / 1000) (cell6 ((y 0).val % 1000) (Nat.mod_lt _ (by decide)) (y 1))

/-- The weight window's block is the whole weight, at every point: its block index is (0, 0). -/
theorem wblk6_eq (c : Dev nD) (t : Fin (cfg6 a).N) : iblk6 V a c 0 t = (V c main_arg1 : Vec F S128x128 .f32) := by
  funext x
  unfold iblk6
  rw [View.read_apply]
  refine (cast_eq _ _).trans (congrArg (V c main_arg1) (funext fun b => Fin.ext ?_))
  refine (((cfg6 a).win 0).rect_emb_val_of_index_zero t b ?_ x)
  match b with
  | ⟨0, _⟩ => rfl
  | ⟨1, _⟩ => rfl

/-- Where entry `x` of the output window's block at point `t` sits in the output array. -/
abbrev emb6 (t : Fin (cfg6 a).N) (x : S1000x128.Idx) : S2000x128.Idx := (((cfg6 a).win 1).blk t).view.emb x

theorem emb6_val (t : Fin (cfg6 a).N) (x : S1000x128.Idx) :
    (emb6 a t x 0).val = t.val / 1000 * 1000 + (x 0).val ∧ (emb6 a t x 1).val = (x 1).val := by
  have hix : ((cfg6 a).win 1).index t = ![t.val / 1000, 0] := idx6_1 t
  have e0 := ((cfg6 a).win 1).rect_emb_val t x (0 : Fin 2)
  have e1 := ((cfg6 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after6_chunk (c : Dev nD) (t : Fin (cfg6 a).N) (x : S1000x128.Idx) :
    (dat6 V a c).after 1 t x = xChunk6 (tb6 a) (A6 V c) (V c main_arg1) (emb6 a t x) := by
  obtain ⟨e0, e1⟩ := emb6_val a t x
  have hx0 : (x 0).val < 1000 := (x 0).isLt
  rw [after6_1, wblk6_eq]
  unfold xChunk6
  have hq : (emb6 a t x 0).val / 1000 = t.val / 1000 := by rw [e0]; omega
  have hcell : cell6 ((emb6 a t x 0).val % 1000) (Nat.mod_lt _ (by decide)) (emb6 a t x 1) = x := by
    funext b
    apply Fin.ext
    match b with
    | ⟨0, _⟩ =>
      show (emb6 a t x 0).val % 1000 = (x 0).val
      rw [e0]; omega
    | ⟨1, _⟩ => exact e1
  rw [hq, hcell]

/-- Two entries of the output array with the same coordinates are the same. -/
theorem idx6_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb6_cell (t : Fin (cfg6 a).N) (i : S2000x128.Idx) (ht : t.val / 1000 = (i 0).val / 1000) :
    emb6 a t (cell6 ((i 0).val % 1000) (Nat.mod_lt _ (by decide)) (i 1)) = i := by
  obtain ⟨e0, e1⟩ := emb6_val a t (cell6 ((i 0).val % 1000) (Nat.mod_lt _ (by decide)) (i 1))
  refine idx6_ext _ _ ?_ e1
  rw [e0, ht]
  show (i 0).val / 1000 * 1000 + (i 0).val % 1000 = (i 0).val
  omega

/-- Every entry of the output array lies in the block written back after the last row of its block of rows. -/
theorem cover6 (i : S2000x128.Idx) :
    ∃ t : Fin (cfg6 a).N, ((cfg6 a).win 1).flush t = true ∧ i ∈ (((cfg6 a).win 1).blk t).view.set := by
  have hi0 : (i 0).val < 2000 := (i 0).isLt
  have hN : (i 0).val / 1000 * 1000 + 999 < (cfg6 a).N := by rw [N6]; omega
  refine ⟨⟨(i 0).val / 1000 * 1000 + 999, hN⟩, ?_, ?_⟩
  · rw [flush6_1]; exact decide_eq_true (by show ((i 0).val / 1000 * 1000 + 999) % 1000 = 999; omega)
  · refine Finset.mem_map.mpr ⟨cell6 ((i 0).val % 1000) (Nat.mod_lt _ (by decide)) (i 1), Finset.mem_univ _, ?_⟩
    exact emb6_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out6 (c : Dev nD) :
    (dat6 V a c).arrAt 1 (cfg6 a).N = (xChunk6 (tb6 a) (A6 V c) (V c main_arg1) : Vec F S2000x128 .f32) :=
  (dat6 V a c).arrAt_eq_of_cover 1 _
    (fun t _ => funext fun x => (after6_chunk V a c t x).trans (cast_eq _ _).symm)
    (cover6 a)

end Value

/-! ## The invariant's two ends -/

section Ends
variable (V : (c : Dev nD) → (b : Ref sig .tc) → Buf (Elt F) ((c : Thread nD τ).loc b)) (a : (pcfg6 (F := F)).Adm)

/-- The body's own transfer cells as the launch's protocol lists them: the 16 cells of its semaphore operand. -/
def osem6 : Fin 16 → SemLoc sig := fun k => SemLoc.dma (cc6_scratch2.ix (Shape.ofLane k))
/-- They are scoped, distinct, and none is a window's. -/
theorem ownSemFacts6 : Pipeline.OwnSemFacts spec6 osem6 := by decide
/-- The cells at zero, listed, are the cells as the body names them. -/
theorem cells6_eq (c : Dev nD) :
    (Pipeline.ownSems0 (Ix := Unit) (Name := ℕ) (U := UC) (Lvl := ℕ) (Val := Elt F) (τ := τ) osem6 c : sProp 𝕄) = cells24 c cc6_scratch2 := by
  rw [Pipeline.ownSems0_eq_of_list c osem6 [0, 1, 2, 3, 4, 5, 6, 7, 8, 9, 10, 11, 12, 13, 14, 15] (by decide) (by decide)]; rfl

/-- The launch's one table, held. -/
theorem prefHeld6_eq (c : Dev nD) (pf : pre6.Contents (Elt F)) :
    (Pipeline.prefHeld pre6 c (fun _ => fullShare) pf : sProp 𝕄) = (((c : Thread nD τ).loc main_v13) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X6 (c : Dev nD) : sProp 𝕄 :=
  iprop((∃ r, prngReg c r) ∗ Pipeline.ownSems0 (Ix := Unit) (Name := ℕ) (U := UC) (Lvl := ℕ) (Val := Elt F) (τ := τ) osem6 c
    ∗ (((c : Thread nD τ).loc main_arg0) ↦{fullShare} V c main_arg0))
abbrev Y6 (c : Dev nD) : sProp 𝕄 :=
  iprop((∃ r, prngReg c r) ∗ (((c : Thread nD τ).loc main_arg0) ↦{fullShare} V c main_arg0)
    ∗ Pipeline.prefHeld pre6 c (fun _ => fullShare) a.1)

/-- THE FIRST POINT: the invariant from what the launch's entry sorts out. Nothing is asked of the carried scratch. -/
theorem Phi6_in (c : Dev nD) :
    iprop(X6 V c ∗ Pipeline.prefHeld pre6 c (fun _ => fullShare) a.1
        ∗ Pipeline.scopedRest (Ix := Unit) (Name := ℕ) (U := UC) (Lvl := ℕ) (Val := Elt F) spec6 c)
      ⊢ (dat6 V a c).Φ 0 := by
  rw [Phi6_eq]
  unfold Φ6 X6
  rw [scopedRest6_split, prefHeld6_eq, cells6_eq]
  simp only [tbM6, hbM6, scM6_0, scM6_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK6_start _ _ _ rfl _
  isplitl [Hs1]; · iexact Hs1
  isplitl [Hcells]; · iexact Hcells
  isplitl [Hreg]; · iexact Hreg
  iexact Hrest

/-- THE LAST POINT: the invariant gives back what it took. -/
theorem Phi6_out (c : Dev nD) :
    (dat6 V a c).Φ (Fin.last _)
      ⊢ iprop(Y6 V a c ∗ Pipeline.ownSems0 (Ix := Unit) (Name := ℕ) (U := UC) (Lvl := ℕ) (Val := Elt F) (τ := τ) osem6 c
        ∗ Pipeline.scopedRest (Ix := Unit) (Name := ℕ) (U := UC) (Lvl := ℕ) (Val := Elt F) spec6 c) := by
  rw [Phi6_eq]
  unfold Φ6 Y6
  rw [scopedRest6_split, prefHeld6_eq, cells6_eq]
  simp only [tbM6, hbM6, scM6_0, scM6_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G7Dat.lean ====
/-
  One of the program's 25 gather launches (pipeline 7; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N7 (a : (pcfg7 (F := F)).Adm) : (cfg7 a).N = 2000 := N_7

/-- The body's branch is taken at the last row of a block of rows, -/
theorem cond7_iff : ∀ t : Fin grid7.N, k7_cond1 (grid7.coords t) = 1#1 ↔ t.val % 1000 = 999 := by decide +kernel
/-- the row a point works on is its number modulo 1000, -/
theorem rowAt7_coord : ∀ t : Fin grid7.N, (grid7.coords t 1).val = t.val % 1000 := by decide +kernel
/-- its block of rows is its number divided by 1000, -/
theorem blockAt7_coord : ∀ t : Fin grid7.N, (grid7.coords t 0).val = t.val / 1000 := by decide +kernel
/-- and the output's block index moves after exactly those points (and the grid ends at one). -/
theorem flushB7 : ∀ t : Fin grid7.N,
    (decide (t.val + 1 = grid7.N) || decide (∃ h : t.val + 1 < grid7.N, cc7_transform_2 (grid7.coords ⟨t.val + 1, h⟩) ≠ cc7_transform_2 (grid7.coords t)))
      = decide (t.val % 1000 = 999) := by decide +kernel

/-- The output's block index at a point: the point's block of rows. -/
theorem idx7_1 : ∀ t : Fin grid7.N, cc7_transform_2 (grid7.coords t) = ![t.val / 1000, 0] := by decide +kernel

/-- Every word of the launch's table names a row of the feature array. -/
def InRange7 (pf : pre7.Contents (Elt F)) : Prop := ∀ x : S16x2000.Idx, ((pf 0 : Vec F S16x2000 .i32) x).toNat < 100000

/-! ## The values -/

/-- Lane `l` of a one-row vector. -/
def lane7 (l : Fin 128) : S1x128.Idx := fun a => ⟨if a.val = 0 then 0 else l.val, by
  match a with
  | ⟨0, _⟩ => exact Nat.one_pos
  | ⟨1, _⟩ => exact l.isLt⟩

theorem lane7_one (l : Fin 128) : (lane7 l 1).val = l.val := rfl

/-- The grid point of row `r` of block `q` (total: the point number is taken modulo the grid's size). -/
def pt7 (q : ℕ) (r : ℕ) : Fin grid7.N := ⟨(q * 1000 + r) % grid7.N, Nat.mod_lt _ (by decide)⟩

/-- Inside the grid the point's number is `1000 q + r`. -/
theorem pt7_val (q r : ℕ) (hq : q < 2) (hr : r < 1000) : (pt7 q r).val = q * 1000 + r := by
  show (q * 1000 + r) % grid7.N = q * 1000 + r
  rw [N_7]; omega

/-- A point is the point of its block and row. -/
theorem pt7_self (t : Fin grid7.N) : pt7 (t.val / 1000) (t.val % 1000) = t := by
  apply Fin.ext
  show (t.val / 1000 * 1000 + t.val % 1000) % grid7.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means7 (tb : Vec F S16x2000 .i32) (A0 : Vec F S100000x128 .f32) (q : ℕ) : Vec F S1000x128 .f32 :=
  fun x => Gen.k24_pay1 (gath24 (grid7.coords (pt7 q (x 0).val)) tb A0) (lane7 (x 1))

/-- What the body stores in the output window at the last row of block `q`: the means, rounded, times the weight, rounded. -/
def xBlk7 (tb : Vec F S16x2000 .i32) (A0 : Vec F S100000x128 .f32) (Wt : Vec F S128x128 .f32) (q : ℕ) : Vec F S1000x128 .f32 :=
  Gen.k24_pay2 (means7 tb A0 q) Wt

/-- The carried scratch before point `n`: its rows below `n % 1000` are the means of block `n / 1000`. -/
def RowsOK7 (tb : Vec F S16x2000 .i32) (A0 : Vec F S100000x128 .f32) (n : ℕ) (g : Vec F S1000x128 .f32) : Prop :=
  ∀ x : S1000x128.Idx, (x 0).val < n % 1000 → g x = means7 tb A0 (n / 1000) x

/-- At the first row of a block nothing is asked. -/
theorem rowsOK7_start (tb : Vec F S16x2000 .i32) (A0 : Vec F S100000x128 .f32) (n : ℕ) (hn : n % 1000 = 0) (g : Vec F S1000x128 .f32) :
    RowsOK7 tb A0 n g := fun x hx => absurd hx (by omega)

/-- One point's row store keeps the invariant's rows and adds its own: after the store at point `t` the rows up to
    `t % 1000` are means. -/
theorem rowAt7_means (tb : Vec F S16x2000 .i32) (A0 : Vec F S100000x128 .f32) (t : Fin grid7.N) (g : Vec F S1000x128 .f32)
    (hg : RowsOK7 tb A0 t.val g) (x : S1000x128.Idx) (hx : (x 0).val ≤ t.val % 1000) :
    row24 (grid7.coords t) tb A0 g x = means7 tb A0 (t.val / 1000) x := by
  by_cases h : (x 0).val = t.val % 1000
  · rw [row24_of_eq (grid7.coords t) tb A0 g x (by rw [rowAt7_coord]; exact h) (lane7 (x 1)) rfl]
    unfold means7
    rw [h, pt7_self]
  · rw [row24_of_ne (grid7.coords t) tb A0 g x (by rw [rowAt7_coord]; exact h)]
    exact hg x (by omega)

/-- Within a block the invariant steps. -/
theorem rowsOK7_step (tb : Vec F S16x2000 .i32) (A0 : Vec F S100000x128 .f32) (t : Fin grid7.N) (g : Vec F S1000x128 .f32)
    (hg : RowsOK7 tb A0 t.val g) : RowsOK7 tb A0 (t.val + 1) (row24 (grid7.coords t) tb A0 g) := by
  by_cases hl : t.val % 1000 = 999
  · exact rowsOK7_start _ _ _ (by omega) _
  · intro x hx
    have h1 : (t.val + 1) / 1000 = t.val / 1000 := by omega
    rw [h1]
    exact rowAt7_means tb A0 t g hg x (by omega)

/-- At the last row of a block the scratch, after the row store, is the block's means whatever it held before. -/
theorem rowAt7_last (tb : Vec F S16x2000 .i32) (A0 : Vec F S100000x128 .f32) (t : Fin grid7.N) (hl : t.val % 1000 = 999)
    (g : Vec F S1000x128 .f32) (hg : RowsOK7 tb A0 t.val g) :
    row24 (grid7.coords t) tb A0 g = means7 tb A0 (t.val / 1000) :=
  funext fun x => rowAt7_means tb A0 t g hg x (by have : (x 0).val < 1000 := (x 0).isLt; omega)

/-! ## The invariant -/

/-- The launch's operands that no window stages, as the body is handed them: its table, the feature array left in
    HBM, and its two scratch buffers — whole buffers. -/
abbrev tbM7 : Memref sig .tc .smem S16x2000 .i32 := Memref.whole main_v15
abbrev hbM7 : Memref sig .tc .hbm S100000x128 .f32 := Memref.whole main_arg0
abbrev scM7_0 : Memref sig .tc .vmem S1000x128 .f32 := Memref.whole cc7_scratch0
abbrev scM7_1 : Memref sig .tc .vmem S16x128 .f32 := Memref.whole cc7_scratch1

section Region
-- the TensorCore's buffer contents when the launch is entered, and the launch's table
variable (V : (c : Dev nD) → (b : Ref sig .tc) → Buf (Elt F) ((c : Thread nD τ).loc b)) (a : (pcfg7 (F := F)).Adm)

/-- The table and the feature array, as vectors. -/
abbrev tb7 : Vec F S16x2000 .i32 := a.1 0
abbrev A7 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ7 (c : Dev nD) (n : ℕ) : sProp 𝕄 :=
  iprop(owns (c : Thread nD τ) tbM7 fullShare (tb7 a)
    ∗ owns (c : Thread nD τ) hbM7 fullShare (A7 V c)
    ∗ (∃ g : Vec F S1000x128 .f32, ⌜RowsOK7 (tb7 a) (A7 V c) n g⌝ ∗ owns (c : Thread nD τ) scM7_0 fullShare g)
    ∗ (∃ d, owns (c : Thread nD τ) scM7_1 fullShare d)
    ∗ cells24 c cc7_scratch2
    ∗ (∃ r, prngReg c r)
    ∗ Pipeline.scopedRestBut (Ix := Unit) (Name := ℕ) (U := UC) (Lvl := ℕ) (Val := Elt F) spec7 c [cc7_scratch0, cc7_scratch1])

/-! ## The windows' blocks and the proof data -/

/-- Window `w`'s block at point `t`, read off its array as the launch finds it. -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- The proof data of the launch on core `c`: the arrays as the launch finds them; after the body at point `t` the
    weight window at its block and the output window at the product for `t`'s block of rows (read only at the block's
    last row, where the body stores it); the invariant above; nothing owed; full shares. -/
def dat7 (c : Dev nD) : Dat τ (Elt F) Unit ℕ UC ℕ (cfg7 a) c where
  A w := V c (Pipeline.arrRef spec7 w)
  after w t := match w with
    | ⟨0, _⟩ => iblk7 V a c 0 t
    | ⟨1, _⟩ => xBlk7 (tb7 a) (A7 V c) (iblk7 V a c 0 t) (t.val / 1000)
  Φ n := Φ7 V a c n.val
  q _ := fullShare
  owed _ := 0

/-- The proof data's arrays are the entry contents. -/
theorem A_eq7 (c : Dev nD) (w : Fin (cfg7 a).W) : (dat7 V a c).A w = V c (Pipeline.arrRef spec7 w) := by
  dsimp only [dat7]

/-- What the body leaves, window by window. -/
theorem after7_0 (c : Dev nD) (t : Fin (cfg7 a).N) : (dat7 V a c).after 0 t = iblk7 V a c 0 t := by dsimp only [dat7]; rfl
theorem after7_1 (c : Dev nD) (t : Fin (cfg7 a).N) :
    (dat7 V a c).after 1 t = xBlk7 (tb7 a) (A7 V c) (iblk7 V a c 0 t) (t.val / 1000) := by dsimp only [dat7]; rfl

/-- The invariant and the tallies, at a point. -/
theorem Phi7_eq (c : Dev nD) (n : Fin ((cfg7 a).N + 1)) : (dat7 V a c).Φ n = Φ7 V a c n.val := by dsimp only [dat7]
theorem owed7_eq (c : Dev nD) (n : Fin ((cfg7 a).N + 1)) : (dat7 V a c).owed n = 0 := by dsimp only [dat7]

/-- The weight window holds its block at every point, fetched there or not: its block index never moves. -/
theorem before7_0 (c : Dev nD) (t : Fin (cfg7 a).N) (d) : (dat7 V a c).before 0 t d = iblk7 V a c 0 t :=
  ((dat7 V a c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

/-- The output window is written back after the last row of each block of rows, and only there; -/
theorem flush7_1 (t : Fin (cfg7 a).N) : ((cfg7 a).win 1).flush t = decide (t.val % 1000 = 999) := by
  unfold Window.flush
  exact flushB7 t
/-- and it is idle at every other row. -/
theorem idle7_1 (t : Fin (cfg7 a).N) : (cfg7 a).idle 1 ((cfg7 a).grid.coords t) = !decide (t.val % 1000 = 999) := by
  show (!(k7_cond1 (grid7.coords t) == 1#1)) = _
  congr 1
  by_cases h : t.val % 1000 = 999
  · rw [decide_eq_true h, (cond7_iff t).2 h]; rfl
  · rw [decide_eq_false h]
    exact beq_false_of_ne fun e => h ((cond7_iff t).1 e)

end Region

/-! ## The body obligation -/

section Body
variable (V : (c : Dev nD) → (b : Ref sig .tc) → Buf (Elt F) ((c : Thread nD τ).loc b)) (a : (pcfg7 (F := F)).Adm)

/-- Each window's current staging memref at point `t`, spelled as the pipeline passes it, and its wholeness. -/
abbrev ms7_0 (t : Fin (cfg7 a).N) : Memref sig .tc .vmem S128x128 .f32 := spec7_0.stage ((cfg7 a).slots t 0)
abbrev hs7_0 (t : Fin (cfg7 a).N) : (ms7_0 a t).IsWhole := hstage7_0 (((cfg7 a).slots t 0).cast nbuf7_0)
abbrev ms7_1 (t : Fin (cfg7 a).N) : Memref sig .tc .vmem S1000x128 .f32 := spec7_1.stage ((cfg7 a).slots t 1)
abbrev hs7_1 (t : Fin (cfg7 a).N) : (ms7_1 a t).IsWhole := hstage7_1 (((cfg7 a).slots t 1).cast nbuf7_1)

/-- The launch's body function, under the name the runs are stated at. -/
theorem bodyFn7_eq : cc7__gather_agg_matmul_kernel (F := F) = gatherFn := rfl

/-- The kernel body at point `t`, on what the pipeline calls it with. -/
abbrev bodyAt7 (t : Fin (cfg7 a).N) : Prog (TpuEff nD τ sig (Elt F) Λ₀ .tc) PUnit :=
  cc7__gather_agg_matmul_kernel (grid7.coords t) tbM7 (Memref.isWhole_whole _) hbM7 (Memref.isWhole_whole _)
    (ms7_0 a t) (hs7_0 a t) (ms7_1 a t) (hs7_1 a t) scM7_0 (Memref.isWhole_whole _) scM7_1 (Memref.isWhole_whole _) cc7_scratch2

/-- What the body is called with at point `t`, the windows one by one, -/
def bodyPre7 (c : Dev nD) (t : Fin (cfg7 a).N) : sProp 𝕄 :=
  iprop((dat7 V a c).Φ t.castSucc ∗ (dat7 V a c).owesAt () t.castSucc
    ∗ (∃ d, owns (c : Thread nD τ) (ms7_0 a t) fullShare ((dat7 V a c).before 0 t d))
    ∗ (∃ d, owns (c : Thread nD τ) (ms7_1 a t) fullShare ((dat7 V a c).before 1 t d)))

/-- and what it returns: the output window as it was found where the point is idle for it, at the block's product
    at the last row of a block. -/
def bodyPost7 (c : Dev nD) (t : Fin (cfg7 a).N) : sProp 𝕄 :=
  iprop((dat7 V a c).Φ t.succ ∗ (dat7 V a c).owesAt () t.succ
    ∗ owns (c : Thread nD τ) (ms7_0 a t) fullShare ((dat7 V a c).after 0 t)
    ∗ (match (cfg7 a).idle 1 ((cfg7 a).grid.coords t) with
        | true =>
          match ((cfg7 a).win 1).flush t with
          | false => iprop(∃ d, owns (c : Thread nD τ) (ms7_1 a t) fullShare ((dat7 V a c).before 1 t d))
          | true => owns (c : Thread nD τ) (ms7_1 a t) fullShare ((dat7 V a c).after 1 t)
        | false => owns (c : Thread nD τ) (ms7_1 a t) fullShare ((dat7 V a c).after 1 t)))

/-- The body at any point. The weight window holds its block; the invariant hands the body its table, the feature
    array, both scratch buffers and its transfer cells, and takes them back with the carried scratch one row further
    (`rowsOK7_step`); at the last row of a block the product the body stores is the block's (`rowAt7_last`); the core's
    `owes` goes in at whatever the points before recorded and comes back with this point's waits. -/
theorem sound_body7 (hR : InRange7 a.1) (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7 bodyAt7
  rw [flush7_1, idle7_1]
  simp only [before7_0]
  rw [after7_0, Phi7_eq, Phi7_eq, Fin.val_succ, Fin.coe_castSucc]
  unfold Dat.owesAt Pipeline.owesWithin
  rw [owed7_eq, owed7_eq]
  unfold Φ7
  rw [bodyFn7_eq]
  by_cases hl : t.val % 1000 = 999
  · -- the last row of a block
    rw [decide_eq_true hl, Bool.not_true]
    dsimp only
    rw [after7_1]
    unfold xBlk7
    iintro ⟨⟨Htb, Hhb, ⟨%g, %hg, Hs0⟩, Hs1, Hcells, Hreg, Hrest⟩, ⟨%W, -, HW⟩, ⟨%d0, H0⟩, ⟨%d1, H1⟩⟩
    rw [← rowAt7_last (tb7 a) (A7 V c) t hl g hg]
    iapply (run24_last c (grid7.coords t) tbM7 (Memref.isWhole_whole _) hbM7 (Memref.isWhole_whole _) (ms7_0 a t) (hs7_0 a t)
      (ms7_1 a t) (hs7_1 a t) scM7_0 (Memref.isWhole_whole _) scM7_1 (Memref.isWhole_whole _) cc7_scratch2
      ((cond7_iff t).2 hl) (tb7 a) hR (A7 V c) (iblk7 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK7_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k7_cond1 (grid7.coords t) ≠ 1#1 := fun e => hl ((cond7_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid7.coords t) tbM7 (Memref.isWhole_whole _) hbM7 (Memref.isWhole_whole _) (ms7_0 a t) (hs7_0 a t)
      (ms7_1 a t) (hs7_1 a t) scM7_0 (Memref.isWhole_whole _) scM7_1 (Memref.isWhole_whole _) cc7_scratch2
      hc (tb7 a) hR (A7 V c) (iblk7 V a c 0 t) g
      (owns (c : Thread nD τ) (ms7_1 a t) fullShare ((dat7 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK7_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation7 (hR : InRange7 a.1) (c : Dev nD) :
    BodyObligation (dat7 (F := F) V a c) (defs₀ (F := F)) Variants.none () Set.univ := fun t => by
  rw [bigSep_W7, bigSep_W7]
  exact sound_body7 V a hR c t

end Body

/-! ## The value: what the launch leaves in its output array -/

section Value
variable (V : (c : Dev nD) → (b : Ref sig .tc) → Buf (Elt F) ((c : Thread nD τ).loc b)) (a : (pcfg7 (F := F)).Adm)

/-- Entry `(r, l)` of a block of rows. -/
def cell7 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk7 (tb : Vec F S16x2000 .i32) (A0 : Vec F S100000x128 .f32) (Wt : Vec F S128x128 .f32) : Vec F S2000x128 .f32 :=
  fun y => xBlk7 tb A0 Wt ((y 0).val / 1000) (cell7 ((y 0).val % 1000) (Nat.mod_lt _ (by decide)) (y 1))

/-- The weight window's block is the whole weight, at every point: its block index is (0, 0). -/
theorem wblk7_eq (c : Dev nD) (t : Fin (cfg7 a).N) : iblk7 V a c 0 t = (V c main_arg1 : Vec F S128x128 .f32) := by
  funext x
  unfold iblk7
  rw [View.read_apply]
  refine (cast_eq _ _).trans (congrArg (V c main_arg1) (funext fun b => Fin.ext ?_))
  refine (((cfg7 a).win 0).rect_emb_val_of_index_zero t b ?_ x)
  match b with
  | ⟨0, _⟩ => rfl
  | ⟨1, _⟩ => rfl

/-- Where entry `x` of the output window's block at point `t` sits in the output array. -/
abbrev emb7 (t : Fin (cfg7 a).N) (x : S1000x128.Idx) : S2000x128.Idx := (((cfg7 a).win 1).blk t).view.emb x

theorem emb7_val (t : Fin (cfg7 a).N) (x : S1000x128.Idx) :
    (emb7 a t x 0).val = t.val / 1000 * 1000 + (x 0).val ∧ (emb7 a t x 1).val = (x 1).val := by
  have hix : ((cfg7 a).win 1).index t = ![t.val / 1000, 0] := idx7_1 t
  have e0 := ((cfg7 a).win 1).rect_emb_val t x (0 : Fin 2)
  have e1 := ((cfg7 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after7_chunk (c : Dev nD) (t : Fin (cfg7 a).N) (x : S1000x128.Idx) :
    (dat7 V a c).after 1 t x = xChunk7 (tb7 a) (A7 V c) (V c main_arg1) (emb7 a t x) := by
  obtain ⟨e0, e1⟩ := emb7_val a t x
  have hx0 : (x 0).val < 1000 := (x 0).isLt
  rw [after7_1, wblk7_eq]
  unfold xChunk7
  have hq : (emb7 a t x 0).val / 1000 = t.val / 1000 := by rw [e0]; omega
  have hcell : cell7 ((emb7 a t x 0).val % 1000) (Nat.mod_lt _ (by decide)) (emb7 a t x 1) = x := by
    funext b
    apply Fin.ext
    match b with
    | ⟨0, _⟩ =>
      show (emb7 a t x 0).val % 1000 = (x 0).val
      rw [e0]; omega
    | ⟨1, _⟩ => exact e1
  rw [hq, hcell]

/-- Two entries of the output array with the same coordinates are the same. -/
theorem idx7_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb7_cell (t : Fin (cfg7 a).N) (i : S2000x128.Idx) (ht : t.val / 1000 = (i 0).val / 1000) :
    emb7 a t (cell7 ((i 0).val % 1000) (Nat.mod_lt _ (by decide)) (i 1)) = i := by
  obtain ⟨e0, e1⟩ := emb7_val a t (cell7 ((i 0).val % 1000) (Nat.mod_lt _ (by decide)) (i 1))
  refine idx7_ext _ _ ?_ e1
  rw [e0, ht]
  show (i 0).val / 1000 * 1000 + (i 0).val % 1000 = (i 0).val
  omega

/-- Every entry of the output array lies in the block written back after the last row of its block of rows. -/
theorem cover7 (i : S2000x128.Idx) :
    ∃ t : Fin (cfg7 a).N, ((cfg7 a).win 1).flush t = true ∧ i ∈ (((cfg7 a).win 1).blk t).view.set := by
  have hi0 : (i 0).val < 2000 := (i 0).isLt
  have hN : (i 0).val / 1000 * 1000 + 999 < (cfg7 a).N := by rw [N7]; omega
  refine ⟨⟨(i 0).val / 1000 * 1000 + 999, hN⟩, ?_, ?_⟩
  · rw [flush7_1]; exact decide_eq_true (by show ((i 0).val / 1000 * 1000 + 999) % 1000 = 999; omega)
  · refine Finset.mem_map.mpr ⟨cell7 ((i 0).val % 1000) (Nat.mod_lt _ (by decide)) (i 1), Finset.mem_univ _, ?_⟩
    exact emb7_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out7 (c : Dev nD) :
    (dat7 V a c).arrAt 1 (cfg7 a).N = (xChunk7 (tb7 a) (A7 V c) (V c main_arg1) : Vec F S2000x128 .f32) :=
  (dat7 V a c).arrAt_eq_of_cover 1 _
    (fun t _ => funext fun x => (after7_chunk V a c t x).trans (cast_eq _ _).symm)
    (cover7 a)

end Value

/-! ## The invariant's two ends -/

section Ends
variable (V : (c : Dev nD) → (b : Ref sig .tc) → Buf (Elt F) ((c : Thread nD τ).loc b)) (a : (pcfg7 (F := F)).Adm)

/-- The body's own transfer cells as the launch's protocol lists them: the 16 cells of its semaphore operand. -/
def osem7 : Fin 16 → SemLoc sig := fun k => SemLoc.dma (cc7_scratch2.ix (Shape.ofLane k))
/-- They are scoped, distinct, and none is a window's. -/
theorem ownSemFacts7 : Pipeline.OwnSemFacts spec7 osem7 := by decide
/-- The cells at zero, listed, are the cells as the body names them. -/
theorem cells7_eq (c : Dev nD) :
    (Pipeline.ownSems0 (Ix := Unit) (Name := ℕ) (U := UC) (Lvl := ℕ) (Val := Elt F) (τ := τ) osem7 c : sProp 𝕄) = cells24 c cc7_scratch2 := by
  rw [Pipeline.ownSems0_eq_of_list c osem7 [0, 1, 2, 3, 4, 5, 6, 7, 8, 9, 10, 11, 12, 13, 14, 15] (by decide) (by decide)]; rfl

/-- The launch's one table, held. -/
theorem prefHeld7_eq (c : Dev nD) (pf : pre7.Contents (Elt F)) :
    (Pipeline.prefHeld pre7 c (fun _ => fullShare) pf : sProp 𝕄) = (((c : Thread nD τ).loc main_v15) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X7 (c : Dev nD) : sProp 𝕄 :=
  iprop((∃ r, prngReg c r) ∗ Pipeline.ownSems0 (Ix := Unit) (Name := ℕ) (U := UC) (Lvl := ℕ) (Val := Elt F) (τ := τ) osem7 c
    ∗ (((c : Thread nD τ).loc main_arg0) ↦{fullShare} V c main_arg0))
abbrev Y7 (c : Dev nD) : sProp 𝕄 :=
  iprop((∃ r, prngReg c r) ∗ (((c : Thread nD τ).loc main_arg0) ↦{fullShare} V c main_arg0)
    ∗ Pipeline.prefHeld pre7 c (fun _ => fullShare) a.1)

/-- THE FIRST POINT: the invariant from what the launch's entry sorts out. Nothing is asked of the carried scratch. -/
theorem Phi7_in (c : Dev nD) :
    iprop(X7 V c ∗ Pipeline.prefHeld pre7 c (fun _ => fullShare) a.1
        ∗ Pipeline.scopedRest (Ix := Unit) (Name := ℕ) (U := UC) (Lvl := ℕ) (Val := Elt F) spec7 c)
      ⊢ (dat7 V a c).Φ 0 := by
  rw [Phi7_eq]
  unfold Φ7 X7
  rw [scopedRest7_split, prefHeld7_eq, cells7_eq]
  simp only [tbM7, hbM7, scM7_0, scM7_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK7_start _ _ _ rfl _
  isplitl [Hs1]; · iexact Hs1
  isplitl [Hcells]; · iexact Hcells
  isplitl [Hreg]; · iexact Hreg
  iexact Hrest

/-- THE LAST POINT: the invariant gives back what it took. -/
theorem Phi7_out (c : Dev nD) :
    (dat7 V a c).Φ (Fin.last _)
      ⊢ iprop(Y7 V a c ∗ Pipeline.ownSems0 (Ix := Unit) (Name := ℕ) (U := UC) (Lvl := ℕ) (Val := Elt F) (τ := τ) osem7 c
        ∗ Pipeline.scopedRest (Ix := Unit) (Name := ℕ) (U := UC) (Lvl := ℕ) (Val := Elt F) spec7 c) := by
  rw [Phi7_eq]
  unfold Φ7 Y7
  rw [scopedRest7_split, prefHeld7_eq, cells7_eq]
  simp only [tbM7, hbM7, scM7_0, scM7_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G8Dat.lean ====
/-
  One of the program's 25 gather launches (pipeline 8; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N8 (a : (pcfg8 (F := F)).Adm) : (cfg8 a).N = 2000 := N_8

/-- The body's branch is taken at the last row of a block of rows, -/
theorem cond8_iff : ∀ t : Fin grid8.N, k8_cond1 (grid8.coords t) = 1#1 ↔ t.val % 1000 = 999 := by decide +kernel
/-- the row a point works on is its number modulo 1000, -/
theorem rowAt8_coord : ∀ t : Fin grid8.N, (grid8.coords t 1).val = t.val % 1000 := by decide +kernel
/-- its block of rows is its number divided by 1000, -/
theorem blockAt8_coord : ∀ t : Fin grid8.N, (grid8.coords t 0).val = t.val / 1000 := by decide +kernel
/-- and the output's block index moves after exactly those points (and the grid ends at one). -/
theorem flushB8 : ∀ t : Fin grid8.N,
    (decide (t.val + 1 = grid8.N) || decide (∃ h : t.val + 1 < grid8.N, cc8_transform_2 (grid8.coords ⟨t.val + 1, h⟩) ≠ cc8_transform_2 (grid8.coords t)))
      = decide (t.val % 1000 = 999) := by decide +kernel

/-- The output's block index at a point: the point's block of rows. -/
theorem idx8_1 : ∀ t : Fin grid8.N, cc8_transform_2 (grid8.coords t) = ![t.val / 1000, 0] := by decide +kernel

/-- Every word of the launch's table names a row of the feature array. -/
def InRange8 (pf : pre8.Contents (Elt F)) : Prop := ∀ x : S16x2000.Idx, ((pf 0 : Vec F S16x2000 .i32) x).toNat < 100000

/-! ## The values -/

/-- Lane `l` of a one-row vector. -/
def lane8 (l : Fin 128) : S1x128.Idx := fun a => ⟨if a.val = 0 then 0 else l.val, by
  match a with
  | ⟨0, _⟩ => exact Nat.one_pos
  | ⟨1, _⟩ => exact l.isLt⟩

theorem lane8_one (l : Fin 128) : (lane8 l 1).val = l.val := rfl

/-- The grid point of row `r` of block `q` (total: the point number is taken modulo the grid's size). -/
def pt8 (q : ℕ) (r : ℕ) : Fin grid8.N := ⟨(q * 1000 + r) % grid8.N, Nat.mod_lt _ (by decide)⟩

/-- Inside the grid the point's number is `1000 q + r`. -/
theorem pt8_val (q r : ℕ) (hq : q < 2) (hr : r < 1000) : (pt8 q r).val = q * 1000 + r := by
  show (q * 1000 + r) % grid8.N = q * 1000 + r
  rw [N_8]; omega

/-- A point is the point of its block and row. -/
theorem pt8_self (t : Fin grid8.N) : pt8 (t.val / 1000) (t.val % 1000) = t := by
  apply Fin.ext
  show (t.val / 1000 * 1000 + t.val % 1000) % grid8.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means8 (tb : Vec F S16x2000 .i32) (A0 : Vec F S100000x128 .f32) (q : ℕ) : Vec F S1000x128 .f32 :=
  fun x => Gen.k24_pay1 (gath24 (grid8.coords (pt8 q (x 0).val)) tb A0) (lane8 (x 1))

/-- What the body stores in the output window at the last row of block `q`: the means, rounded, times the weight, rounded. -/
def xBlk8 (tb : Vec F S16x2000 .i32) (A0 : Vec F S100000x128 .f32) (Wt : Vec F S128x128 .f32) (q : ℕ) : Vec F S1000x128 .f32 :=
  Gen.k24_pay2 (means8 tb A0 q) Wt

/-- The carried scratch before point `n`: its rows below `n % 1000` are the means of block `n / 1000`. -/
def RowsOK8 (tb : Vec F S16x2000 .i32) (A0 : Vec F S100000x128 .f32) (n : ℕ) (g : Vec F S1000x128 .f32) : Prop :=
  ∀ x : S1000x128.Idx, (x 0).val < n % 1000 → g x = means8 tb A0 (n / 1000) x

/-- At the first row of a block nothing is asked. -/
theorem rowsOK8_start (tb : Vec F S16x2000 .i32) (A0 : Vec F S100000x128 .f32) (n : ℕ) (hn : n % 1000 = 0) (g : Vec F S1000x128 .f32) :
    RowsOK8 tb A0 n g := fun x hx => absurd hx (by omega)

/-- One point's row store keeps the invariant's rows and adds its own: after the store at point `t` the rows up to
    `t % 1000` are means. -/
theorem rowAt8_means (tb : Vec F S16x2000 .i32) (A0 : Vec F S100000x128 .f32) (t : Fin grid8.N) (g : Vec F S1000x128 .f32)
    (hg : RowsOK8 tb A0 t.val g) (x : S1000x128.Idx) (hx : (x 0).val ≤ t.val % 1000) :
    row24 (grid8.coords t) tb A0 g x = means8 tb A0 (t.val / 1000) x := by
  by_cases h : (x 0).val = t.val % 1000
  · rw [row24_of_eq (grid8.coords t) tb A0 g x (by rw [rowAt8_coord]; exact h) (lane8 (x 1)) rfl]
    unfold means8
    rw [h, pt8_self]
  · rw [row24_of_ne (grid8.coords t) tb A0 g x (by rw [rowAt8_coord]; exact h)]
    exact hg x (by omega)

/-- Within a block the invariant steps. -/
theorem rowsOK8_step (tb : Vec F S16x2000 .i32) (A0 : Vec F S100000x128 .f32) (t : Fin grid8.N) (g : Vec F S1000x128 .f32)
    (hg : RowsOK8 tb A0 t.val g) : RowsOK8 tb A0 (t.val + 1) (row24 (grid8.coords t) tb A0 g) := by
  by_cases hl : t.val % 1000 = 999
  · exact rowsOK8_start _ _ _ (by omega) _
  · intro x hx
    have h1 : (t.val + 1) / 1000 = t.val / 1000 := by omega
    rw [h1]
    exact rowAt8_means tb A0 t g hg x (by omega)

/-- At the last row of a block the scratch, after the row store, is the block's means whatever it held before. -/
theorem rowAt8_last (tb : Vec F S16x2000 .i32) (A0 : Vec F S100000x128 .f32) (t : Fin grid8.N) (hl : t.val % 1000 = 999)
    (g : Vec F S1000x128 .f32) (hg : RowsOK8 tb A0 t.val g) :
    row24 (grid8.coords t) tb A0 g = means8 tb A0 (t.val / 1000) :=
  funext fun x => rowAt8_means tb A0 t g hg x (by have : (x 0).val < 1000 := (x 0).isLt; omega)

/-! ## The invariant -/

/-- The launch's operands that no window stages, as the body is handed them: its table, the feature array left in
    HBM, and its two scratch buffers — whole buffers. -/
abbrev tbM8 : Memref sig .tc .smem S16x2000 .i32 := Memref.whole main_v17
abbrev hbM8 : Memref sig .tc .hbm S100000x128 .f32 := Memref.whole main_arg0
abbrev scM8_0 : Memref sig .tc .vmem S1000x128 .f32 := Memref.whole cc8_scratch0
abbrev scM8_1 : Memref sig .tc .vmem S16x128 .f32 := Memref.whole cc8_scratch1

section Region
-- the TensorCore's buffer contents when the launch is entered, and the launch's table
variable (V : (c : Dev nD) → (b : Ref sig .tc) → Buf (Elt F) ((c : Thread nD τ).loc b)) (a : (pcfg8 (F := F)).Adm)

/-- The table and the feature array, as vectors. -/
abbrev tb8 : Vec F S16x2000 .i32 := a.1 0
abbrev A8 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ8 (c : Dev nD) (n : ℕ) : sProp 𝕄 :=
  iprop(owns (c : Thread nD τ) tbM8 fullShare (tb8 a)
    ∗ owns (c : Thread nD τ) hbM8 fullShare (A8 V c)
    ∗ (∃ g : Vec F S1000x128 .f32, ⌜RowsOK8 (tb8 a) (A8 V c) n g⌝ ∗ owns (c : Thread nD τ) scM8_0 fullShare g)
    ∗ (∃ d, owns (c : Thread nD τ) scM8_1 fullShare d)
    ∗ cells24 c cc8_scratch2
    ∗ (∃ r, prngReg c r)
    ∗ Pipeline.scopedRestBut (Ix := Unit) (Name := ℕ) (U := UC) (Lvl := ℕ) (Val := Elt F) spec8 c [cc8_scratch0, cc8_scratch1])

/-! ## The windows' blocks and the proof data -/

/-- Window `w`'s block at point `t`, read off its array as the launch finds it. -/
def iblk8 (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- The proof data of the launch on core `c`: the arrays as the launch finds them; after the body at point `t` the
    weight window at its block and the output window at the product for `t`'s block of rows (read only at the block's
    last row, where the body stores it); the invariant above; nothing owed; full shares. -/
def dat8 (c : Dev nD) : Dat τ (Elt F) Unit ℕ UC ℕ (cfg8 a) c where
  A w := V c (Pipeline.arrRef spec8 w)
  after w t := match w with
    | ⟨0, _⟩ => iblk8 V a c 0 t
    | ⟨1, _⟩ => xBlk8 (tb8 a) (A8 V c) (iblk8 V a c 0 t) (t.val / 1000)
  Φ n := Φ8 V a c n.val
  q _ := fullShare
  owed _ := 0

/-- The proof data's arrays are the entry contents. -/
theorem A_eq8 (c : Dev nD) (w : Fin (cfg8 a).W) : (dat8 V a c).A w = V c (Pipeline.arrRef spec8 w) := by
  dsimp only [dat8]

/-- What the body leaves, window by window. -/
theorem after8_0 (c : Dev nD) (t : Fin (cfg8 a).N) : (dat8 V a c).after 0 t = iblk8 V a c 0 t := by dsimp only [dat8]; rfl
theorem after8_1 (c : Dev nD) (t : Fin (cfg8 a).N) :
    (dat8 V a c).after 1 t = xBlk8 (tb8 a) (A8 V c) (iblk8 V a c 0 t) (t.val / 1000) := by dsimp only [dat8]; rfl

/-- The invariant and the tallies, at a point. -/
theorem Phi8_eq (c : Dev nD) (n : Fin ((cfg8 a).N + 1)) : (dat8 V a c).Φ n = Φ8 V a c n.val := by dsimp only [dat8]
theorem owed8_eq (c : Dev nD) (n : Fin ((cfg8 a).N + 1)) : (dat8 V a c).owed n = 0 := by dsimp only [dat8]

/-- The weight window holds its block at every point, fetched there or not: its block index never moves. -/
theorem before8_0 (c : Dev nD) (t : Fin (cfg8 a).N) (d) : (dat8 V a c).before 0 t d = iblk8 V a c 0 t :=
  ((dat8 V a c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

/-- The output window is written back after the last row of each block of rows, and only there; -/
theorem flush8_1 (t : Fin (cfg8 a).N) : ((cfg8 a).win 1).flush t = decide (t.val % 1000 = 999) := by
  unfold Window.flush
  exact flushB8 t
/-- and it is idle at every other row. -/
theorem idle8_1 (t : Fin (cfg8 a).N) : (cfg8 a).idle 1 ((cfg8 a).grid.coords t) = !decide (t.val % 1000 = 999) := by
  show (!(k8_cond1 (grid8.coords t) == 1#1)) = _
  congr 1
  by_cases h : t.val % 1000 = 999
  · rw [decide_eq_true h, (cond8_iff t).2 h]; rfl
  · rw [decide_eq_false h]
    exact beq_false_of_ne fun e => h ((cond8_iff t).1 e)

end Region

/-! ## The body obligation -/

section Body
variable (V : (c : Dev nD) → (b : Ref sig .tc) → Buf (Elt F) ((c : Thread nD τ).loc b)) (a : (pcfg8 (F := F)).Adm)

/-- Each window's current staging memref at point `t`, spelled as the pipeline passes it, and its wholeness. -/
abbrev ms8_0 (t : Fin (cfg8 a).N) : Memref sig .tc .vmem S128x128 .f32 := spec8_0.stage ((cfg8 a).slots t 0)
abbrev hs8_0 (t : Fin (cfg8 a).N) : (ms8_0 a t).IsWhole := hstage8_0 (((cfg8 a).slots t 0).cast nbuf8_0)
abbrev ms8_1 (t : Fin (cfg8 a).N) : Memref sig .tc .vmem S1000x128 .f32 := spec8_1.stage ((cfg8 a).slots t 1)
abbrev hs8_1 (t : Fin (cfg8 a).N) : (ms8_1 a t).IsWhole := hstage8_1 (((cfg8 a).slots t 1).cast nbuf8_1)

/-- The launch's body function, under the name the runs are stated at. -/
theorem bodyFn8_eq : cc8__gather_agg_matmul_kernel (F := F) = gatherFn := rfl

/-- The kernel body at point `t`, on what the pipeline calls it with. -/
abbrev bodyAt8 (t : Fin (cfg8 a).N) : Prog (TpuEff nD τ sig (Elt F) Λ₀ .tc) PUnit :=
  cc8__gather_agg_matmul_kernel (grid8.coords t) tbM8 (Memref.isWhole_whole _) hbM8 (Memref.isWhole_whole _)
    (ms8_0 a t) (hs8_0 a t) (ms8_1 a t) (hs8_1 a t) scM8_0 (Memref.isWhole_whole _) scM8_1 (Memref.isWhole_whole _) cc8_scratch2

/-- What the body is called with at point `t`, the windows one by one, -/
def bodyPre8 (c : Dev nD) (t : Fin (cfg8 a).N) : sProp 𝕄 :=
  iprop((dat8 V a c).Φ t.castSucc ∗ (dat8 V a c).owesAt () t.castSucc
    ∗ (∃ d, owns (c : Thread nD τ) (ms8_0 a t) fullShare ((dat8 V a c).before 0 t d))
    ∗ (∃ d, owns (c : Thread nD τ) (ms8_1 a t) fullShare ((dat8 V a c).before 1 t d)))

/-- and what it returns: the output window as it was found where the point is idle for it, at the block's product
    at the last row of a block. -/
def bodyPost8 (c : Dev nD) (t : Fin (cfg8 a).N) : sProp 𝕄 :=
  iprop((dat8 V a c).Φ t.succ ∗ (dat8 V a c).owesAt () t.succ
    ∗ owns (c : Thread nD τ) (ms8_0 a t) fullShare ((dat8 V a c).after 0 t)
    ∗ (match (cfg8 a).idle 1 ((cfg8 a).grid.coords t) with
        | true =>
          match ((cfg8 a).win 1).flush t with
          | false => iprop(∃ d, owns (c : Thread nD τ) (ms8_1 a t) fullShare ((dat8 V a c).before 1 t d))
          | true => owns (c : Thread nD τ) (ms8_1 a t) fullShare ((dat8 V a c).after 1 t)
        | false => owns (c : Thread nD τ) (ms8_1 a t) fullShare ((dat8 V a c).after 1 t)))

/-- The body at any point. The weight window holds its block; the invariant hands the body its table, the feature
    array, both scratch buffers and its transfer cells, and takes them back with the carried scratch one row further
    (`rowsOK8_step`); at the last row of a block the product the body stores is the block's (`rowAt8_last`); the core's
    `owes` goes in at whatever the points before recorded and comes back with this point's waits. -/
theorem sound_body8 (hR : InRange8 a.1) (c : Dev nD) (t : Fin (cfg8 a).N) :
    bodyPre8 V a c t ⊢ wp frame (wpE (defs₀ (F := F)) Variants.none c none) Set.univ (bodyAt8 a t) (fun _ => bodyPost8 V a c t) := by
  unfold bodyPre8 bodyPost8 bodyAt8
  rw [flush8_1, idle8_1]
  simp only [before8_0]
  rw [after8_0, Phi8_eq, Phi8_eq, Fin.val_succ, Fin.coe_castSucc]
  unfold Dat.owesAt Pipeline.owesWithin
  rw [owed8_eq, owed8_eq]
  unfold Φ8
  rw [bodyFn8_eq]
  by_cases hl : t.val % 1000 = 999
  · -- the last row of a block
    rw [decide_eq_true hl, Bool.not_true]
    dsimp only
    rw [after8_1]
    unfold xBlk8
    iintro ⟨⟨Htb, Hhb, ⟨%g, %hg, Hs0⟩, Hs1, Hcells, Hreg, Hrest⟩, ⟨%W, -, HW⟩, ⟨%d0, H0⟩, ⟨%d1, H1⟩⟩
    rw [← rowAt8_last (tb8 a) (A8 V c) t hl g hg]
    iapply (run24_last c (grid8.coords t) tbM8 (Memref.isWhole_whole _) hbM8 (Memref.isWhole_whole _) (ms8_0 a t) (hs8_0 a t)
      (ms8_1 a t) (hs8_1 a t) scM8_0 (Memref.isWhole_whole _) scM8_1 (Memref.isWhole_whole _) cc8_scratch2
      ((cond8_iff t).2 hl) (tb8 a) hR (A8 V c) (iblk8 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK8_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k8_cond1 (grid8.coords t) ≠ 1#1 := fun e => hl ((cond8_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid8.coords t) tbM8 (Memref.isWhole_whole _) hbM8 (Memref.isWhole_whole _) (ms8_0 a t) (hs8_0 a t)
      (ms8_1 a t) (hs8_1 a t) scM8_0 (Memref.isWhole_whole _) scM8_1 (Memref.isWhole_whole _) cc8_scratch2
      hc (tb8 a) hR (A8 V c) (iblk8 V a c 0 t) g
      (owns (c : Thread nD τ) (ms8_1 a t) fullShare ((dat8 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK8_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation8 (hR : InRange8 a.1) (c : Dev nD) :
    BodyObligation (dat8 (F := F) V a c) (defs₀ (F := F)) Variants.none () Set.univ := fun t => by
  rw [bigSep_W8, bigSep_W8]
  exact sound_body8 V a hR c t

end Body

/-! ## The value: what the launch leaves in its output array -/

section Value
variable (V : (c : Dev nD) → (b : Ref sig .tc) → Buf (Elt F) ((c : Thread nD τ).loc b)) (a : (pcfg8 (F := F)).Adm)

/-- Entry `(r, l)` of a block of rows. -/
def cell8 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk8 (tb : Vec F S16x2000 .i32) (A0 : Vec F S100000x128 .f32) (Wt : Vec F S128x128 .f32) : Vec F S2000x128 .f32 :=
  fun y => xBlk8 tb A0 Wt ((y 0).val / 1000) (cell8 ((y 0).val % 1000) (Nat.mod_lt _ (by decide)) (y 1))

/-- The weight window's block is the whole weight, at every point: its block index is (0, 0). -/
theorem wblk8_eq (c : Dev nD) (t : Fin (cfg8 a).N) : iblk8 V a c 0 t = (V c main_arg1 : Vec F S128x128 .f32) := by
  funext x
  unfold iblk8
  rw [View.read_apply]
  refine (cast_eq _ _).trans (congrArg (V c main_arg1) (funext fun b => Fin.ext ?_))
  refine (((cfg8 a).win 0).rect_emb_val_of_index_zero t b ?_ x)
  match b with
  | ⟨0, _⟩ => rfl
  | ⟨1, _⟩ => rfl

/-- Where entry `x` of the output window's block at point `t` sits in the output array. -/
abbrev emb8 (t : Fin (cfg8 a).N) (x : S1000x128.Idx) : S2000x128.Idx := (((cfg8 a).win 1).blk t).view.emb x

theorem emb8_val (t : Fin (cfg8 a).N) (x : S1000x128.Idx) :
    (emb8 a t x 0).val = t.val / 1000 * 1000 + (x 0).val ∧ (emb8 a t x 1).val = (x 1).val := by
  have hix : ((cfg8 a).win 1).index t = ![t.val / 1000, 0] := idx8_1 t
  have e0 := ((cfg8 a).win 1).rect_emb_val t x (0 : Fin 2)
  have e1 := ((cfg8 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after8_chunk (c : Dev nD) (t : Fin (cfg8 a).N) (x : S1000x128.Idx) :
    (dat8 V a c).after 1 t x = xChunk8 (tb8 a) (A8 V c) (V c main_arg1) (emb8 a t x) := by
  obtain ⟨e0, e1⟩ := emb8_val a t x
  have hx0 : (x 0).val < 1000 := (x 0).isLt
  rw [after8_1, wblk8_eq]
  unfold xChunk8
  have hq : (emb8 a t x 0).val / 1000 = t.val / 1000 := by rw [e0]; omega
  have hcell : cell8 ((emb8 a t x 0).val % 1000) (Nat.mod_lt _ (by decide)) (emb8 a t x 1) = x := by
    funext b
    apply Fin.ext
    match b with
    | ⟨0, _⟩ =>
      show (emb8 a t x 0).val % 1000 = (x 0).val
      rw [e0]; omega
    | ⟨1, _⟩ => exact e1
  rw [hq, hcell]

/-- Two entries of the output array with the same coordinates are the same. -/
theorem idx8_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb8_cell (t : Fin (cfg8 a).N) (i : S2000x128.Idx) (ht : t.val / 1000 = (i 0).val / 1000) :
    emb8 a t (cell8 ((i 0).val % 1000) (Nat.mod_lt _ (by decide)) (i 1)) = i := by
  obtain ⟨e0, e1⟩ := emb8_val a t (cell8 ((i 0).val % 1000) (Nat.mod_lt _ (by decide)) (i 1))
  refine idx8_ext _ _ ?_ e1
  rw [e0, ht]
  show (i 0).val / 1000 * 1000 + (i 0).val % 1000 = (i 0).val
  omega

/-- Every entry of the output array lies in the block written back after the last row of its block of rows. -/
theorem cover8 (i : S2000x128.Idx) :
    ∃ t : Fin (cfg8 a).N, ((cfg8 a).win 1).flush t = true ∧ i ∈ (((cfg8 a).win 1).blk t).view.set := by
  have hi0 : (i 0).val < 2000 := (i 0).isLt
  have hN : (i 0).val / 1000 * 1000 + 999 < (cfg8 a).N := by rw [N8]; omega
  refine ⟨⟨(i 0).val / 1000 * 1000 + 999, hN⟩, ?_, ?_⟩
  · rw [flush8_1]; exact decide_eq_true (by show ((i 0).val / 1000 * 1000 + 999) % 1000 = 999; omega)
  · refine Finset.mem_map.mpr ⟨cell8 ((i 0).val % 1000) (Nat.mod_lt _ (by decide)) (i 1), Finset.mem_univ _, ?_⟩
    exact emb8_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out8 (c : Dev nD) :
    (dat8 V a c).arrAt 1 (cfg8 a).N = (xChunk8 (tb8 a) (A8 V c) (V c main_arg1) : Vec F S2000x128 .f32) :=
  (dat8 V a c).arrAt_eq_of_cover 1 _
    (fun t _ => funext fun x => (after8_chunk V a c t x).trans (cast_eq _ _).symm)
    (cover8 a)

end Value

/-! ## The invariant's two ends -/

section Ends
variable (V : (c : Dev nD) → (b : Ref sig .tc) → Buf (Elt F) ((c : Thread nD τ).loc b)) (a : (pcfg8 (F := F)).Adm)

/-- The body's own transfer cells as the launch's protocol lists them: the 16 cells of its semaphore operand. -/
def osem8 : Fin 16 → SemLoc sig := fun k => SemLoc.dma (cc8_scratch2.ix (Shape.ofLane k))
/-- They are scoped, distinct, and none is a window's. -/
theorem ownSemFacts8 : Pipeline.OwnSemFacts spec8 osem8 := by decide
/-- The cells at zero, listed, are the cells as the body names them. -/
theorem cells8_eq (c : Dev nD) :
    (Pipeline.ownSems0 (Ix := Unit) (Name := ℕ) (U := UC) (Lvl := ℕ) (Val := Elt F) (τ := τ) osem8 c : sProp 𝕄) = cells24 c cc8_scratch2 := by
  rw [Pipeline.ownSems0_eq_of_list c osem8 [0, 1, 2, 3, 4, 5, 6, 7, 8, 9, 10, 11, 12, 13, 14, 15] (by decide) (by decide)]; rfl

/-- The launch's one table, held. -/
theorem prefHeld8_eq (c : Dev nD) (pf : pre8.Contents (Elt F)) :
    (Pipeline.prefHeld pre8 c (fun _ => fullShare) pf : sProp 𝕄) = (((c : Thread nD τ).loc main_v17) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X8 (c : Dev nD) : sProp 𝕄 :=
  iprop((∃ r, prngReg c r) ∗ Pipeline.ownSems0 (Ix := Unit) (Name := ℕ) (U := UC) (Lvl := ℕ) (Val := Elt F) (τ := τ) osem8 c
    ∗ (((c : Thread nD τ).loc main_arg0) ↦{fullShare} V c main_arg0))
abbrev Y8 (c : Dev nD) : sProp 𝕄 :=
  iprop((∃ r, prngReg c r) ∗ (((c : Thread nD τ).loc main_arg0) ↦{fullShare} V c main_arg0)
    ∗ Pipeline.prefHeld pre8 c (fun _ => fullShare) a.1)

/-- THE FIRST POINT: the invariant from what the launch's entry sorts out. Nothing is asked of the carried scratch. -/
theorem Phi8_in (c : Dev nD) :
    iprop(X8 V c ∗ Pipeline.prefHeld pre8 c (fun _ => fullShare) a.1
        ∗ Pipeline.scopedRest (Ix := Unit) (Name := ℕ) (U := UC) (Lvl := ℕ) (Val := Elt F) spec8 c)
      ⊢ (dat8 V a c).Φ 0 := by
  rw [Phi8_eq]
  unfold Φ8 X8
  rw [scopedRest8_split, prefHeld8_eq, cells8_eq]
  simp only [tbM8, hbM8, scM8_0, scM8_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK8_start _ _ _ rfl _
  isplitl [Hs1]; · iexact Hs1
  isplitl [Hcells]; · iexact Hcells
  isplitl [Hreg]; · iexact Hreg
  iexact Hrest

/-- THE LAST POINT: the invariant gives back what it took. -/
theorem Phi8_out (c : Dev nD) :
    (dat8 V a c).Φ (Fin.last _)
      ⊢ iprop(Y8 V a c ∗ Pipeline.ownSems0 (Ix := Unit) (Name := ℕ) (U := UC) (Lvl := ℕ) (Val := Elt F) (τ := τ) osem8 c
        ∗ Pipeline.scopedRest (Ix := Unit) (Name := ℕ) (U := UC) (Lvl := ℕ) (Val := Elt F) spec8 c) := by
  rw [Phi8_eq]
  unfold Φ8 Y8
  rw [scopedRest8_split, prefHeld8_eq, cells8_eq]
  simp only [tbM8, hbM8, scM8_0, scM8_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G9Dat.lean ====
/-
  One of the program's 25 gather launches (pipeline 9; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N9 (a : (pcfg9 (F := F)).Adm) : (cfg9 a).N = 2000 := N_9

/-- The body's branch is taken at the last row of a block of rows, -/
theorem cond9_iff : ∀ t : Fin grid9.N, k9_cond1 (grid9.coords t) = 1#1 ↔ t.val % 1000 = 999 := by decide +kernel
/-- the row a point works on is its number modulo 1000, -/
theorem rowAt9_coord : ∀ t : Fin grid9.N, (grid9.coords t 1).val = t.val % 1000 := by decide +kernel
/-- its block of rows is its number divided by 1000, -/
theorem blockAt9_coord : ∀ t : Fin grid9.N, (grid9.coords t 0).val = t.val / 1000 := by decide +kernel
/-- and the output's block index moves after exactly those points (and the grid ends at one). -/
theorem flushB9 : ∀ t : Fin grid9.N,
    (decide (t.val + 1 = grid9.N) || decide (∃ h : t.val + 1 < grid9.N, cc9_transform_2 (grid9.coords ⟨t.val + 1, h⟩) ≠ cc9_transform_2 (grid9.coords t)))
      = decide (t.val % 1000 = 999) := by decide +kernel

/-- The output's block index at a point: the point's block of rows. -/
theorem idx9_1 : ∀ t : Fin grid9.N, cc9_transform_2 (grid9.coords t) = ![t.val / 1000, 0] := by decide +kernel

/-- Every word of the launch's table names a row of the feature array. -/
def InRange9 (pf : pre9.Contents (Elt F)) : Prop := ∀ x : S16x2000.Idx, ((pf 0 : Vec F S16x2000 .i32) x).toNat < 100000

/-! ## The values -/

/-- Lane `l` of a one-row vector. -/
def lane9 (l : Fin 128) : S1x128.Idx := fun a => ⟨if a.val = 0 then 0 else l.val, by
  match a with
  | ⟨0, _⟩ => exact Nat.one_pos
  | ⟨1, _⟩ => exact l.isLt⟩

theorem lane9_one (l : Fin 128) : (lane9 l 1).val = l.val := rfl

/-- The grid point of row `r` of block `q` (total: the point number is taken modulo the grid's size). -/
def pt9 (q : ℕ) (r : ℕ) : Fin grid9.N := ⟨(q * 1000 + r) % grid9.N, Nat.mod_lt _ (by decide)⟩

/-- Inside the grid the point's number is `1000 q + r`. -/
theorem pt9_val (q r : ℕ) (hq : q < 2) (hr : r < 1000) : (pt9 q r).val = q * 1000 + r := by
  show (q * 1000 + r) % grid9.N = q * 1000 + r
  rw [N_9]; omega

/-- A point is the point of its block and row. -/
theorem pt9_self (t : Fin grid9.N) : pt9 (t.val / 1000) (t.val % 1000) = t := by
  apply Fin.ext
  show (t.val / 1000 * 1000 + t.val % 1000) % grid9.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means9 (tb : Vec F S16x2000 .i32) (A0 : Vec F S100000x128 .f32) (q : ℕ) : Vec F S1000x128 .f32 :=
  fun x => Gen.k24_pay1 (gath24 (grid9.coords (pt9 q (x 0).val)) tb A0) (lane9 (x 1))

/-- What the body stores in the output window at the last row of block `q`: the means, rounded, times the weight, rounded. -/
def xBlk9 (tb : Vec F S16x2000 .i32) (A0 : Vec F S100000x128 .f32) (Wt : Vec F S128x128 .f32) (q : ℕ) : Vec F S1000x128 .f32 :=
  Gen.k24_pay2 (means9 tb A0 q) Wt

/-- The carried scratch before point `n`: its rows below `n % 1000` are the means of block `n / 1000`. -/
def RowsOK9 (tb : Vec F S16x2000 .i32) (A0 : Vec F S100000x128 .f32) (n : ℕ) (g : Vec F S1000x128 .f32) : Prop :=
  ∀ x : S1000x128.Idx, (x 0).val < n % 1000 → g x = means9 tb A0 (n / 1000) x

/-- At the first row of a block nothing is asked. -/
theorem rowsOK9_start (tb : Vec F S16x2000 .i32) (A0 : Vec F S100000x128 .f32) (n : ℕ) (hn : n % 1000 = 0) (g : Vec F S1000x128 .f32) :
    RowsOK9 tb A0 n g := fun x hx => absurd hx (by omega)

/-- One point's row store keeps the invariant's rows and adds its own: after the store at point `t` the rows up to
    `t % 1000` are means. -/
theorem rowAt9_means (tb : Vec F S16x2000 .i32) (A0 : Vec F S100000x128 .f32) (t : Fin grid9.N) (g : Vec F S1000x128 .f32)
    (hg : RowsOK9 tb A0 t.val g) (x : S1000x128.Idx) (hx : (x 0).val ≤ t.val % 1000) :
    row24 (grid9.coords t) tb A0 g x = means9 tb A0 (t.val / 1000) x := by
  by_cases h : (x 0).val = t.val % 1000
  · rw [row24_of_eq (grid9.coords t) tb A0 g x (by rw [rowAt9_coord]; exact h) (lane9 (x 1)) rfl]
    unfold means9
    rw [h, pt9_self]
  · rw [row24_of_ne (grid9.coords t) tb A0 g x (by rw [rowAt9_coord]; exact h)]
    exact hg x (by omega)

/-- Within a block the invariant steps. -/
theorem rowsOK9_step (tb : Vec F S16x2000 .i32) (A0 : Vec F S100000x128 .f32) (t : Fin grid9.N) (g : Vec F S1000x128 .f32)
    (hg : RowsOK9 tb A0 t.val g) : RowsOK9 tb A0 (t.val + 1) (row24 (grid9.coords t) tb A0 g) := by
  by_cases hl : t.val % 1000 = 999
  · exact rowsOK9_start _ _ _ (by omega) _
  · intro x hx
    have h1 : (t.val + 1) / 1000 = t.val / 1000 := by omega
    rw [h1]
    exact rowAt9_means tb A0 t g hg x (by omega)

/-- At the last row of a block the scratch, after the row store, is the block's means whatever it held before. -/
theorem rowAt9_last (tb : Vec F S16x2000 .i32) (A0 : Vec F S100000x128 .f32) (t : Fin grid9.N) (hl : t.val % 1000 = 999)
    (g : Vec F S1000x128 .f32) (hg : RowsOK9 tb A0 t.val g) :
    row24 (grid9.coords t) tb A0 g = means9 tb A0 (t.val / 1000) :=
  funext fun x => rowAt9_means tb A0 t g hg x (by have : (x 0).val < 1000 := (x 0).isLt; omega)

/-! ## The invariant -/

/-- The launch's operands that no window stages, as the body is handed them: its table, the feature array left in
    HBM, and its two scratch buffers — whole buffers. -/
abbrev tbM9 : Memref sig .tc .smem S16x2000 .i32 := Memref.whole main_v19
abbrev hbM9 : Memref sig .tc .hbm S100000x128 .f32 := Memref.whole main_arg0
abbrev scM9_0 : Memref sig .tc .vmem S1000x128 .f32 := Memref.whole cc9_scratch0
abbrev scM9_1 : Memref sig .tc .vmem S16x128 .f32 := Memref.whole cc9_scratch1

section Region
-- the TensorCore's buffer contents when the launch is entered, and the launch's table
variable (V : (c : Dev nD) → (b : Ref sig .tc) → Buf (Elt F) ((c : Thread nD τ).loc b)) (a : (pcfg9 (F := F)).Adm)

/-- The table and the feature array, as vectors. -/
abbrev tb9 : Vec F S16x2000 .i32 := a.1 0
abbrev A9 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ9 (c : Dev nD) (n : ℕ) : sProp 𝕄 :=
  iprop(owns (c : Thread nD τ) tbM9 fullShare (tb9 a)
    ∗ owns (c : Thread nD τ) hbM9 fullShare (A9 V c)
    ∗ (∃ g : Vec F S1000x128 .f32, ⌜RowsOK9 (tb9 a) (A9 V c) n g⌝ ∗ owns (c : Thread nD τ) scM9_0 fullShare g)
    ∗ (∃ d, owns (c : Thread nD τ) scM9_1 fullShare d)
    ∗ cells24 c cc9_scratch2
    ∗ (∃ r, prngReg c r)
    ∗ Pipeline.scopedRestBut (Ix := Unit) (Name := ℕ) (U := UC) (Lvl := ℕ) (Val := Elt F) spec9 c [cc9_scratch0, cc9_scratch1])

/-! ## The windows' blocks and the proof data -/

/-- Window `w`'s block at point `t`, read off its array as the launch finds it. -/
def iblk9 (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- The proof data of the launch on core `c`: the arrays as the launch finds them; after the body at point `t` the
    weight window at its block and the output window at the product for `t`'s block of rows (read only at the block's
    last row, where the body stores it); the invariant above; nothing owed; full shares. -/
def dat9 (c : Dev nD) : Dat τ (Elt F) Unit ℕ UC ℕ (cfg9 a) c where
  A w := V c (Pipeline.arrRef spec9 w)
  after w t := match w with
    | ⟨0, _⟩ => iblk9 V a c 0 t
    | ⟨1, _⟩ => xBlk9 (tb9 a) (A9 V c) (iblk9 V a c 0 t) (t.val / 1000)
  Φ n := Φ9 V a c n.val
  q _ := fullShare
  owed _ := 0

/-- The proof data's arrays are the entry contents. -/
theorem A_eq9 (c : Dev nD) (w : Fin (cfg9 a).W) : (dat9 V a c).A w = V c (Pipeline.arrRef spec9 w) := by
  dsimp only [dat9]

/-- What the body leaves, window by window. -/
theorem after9_0 (c : Dev nD) (t : Fin (cfg9 a).N) : (dat9 V a c).after 0 t = iblk9 V a c 0 t := by dsimp only [dat9]; rfl
theorem after9_1 (c : Dev nD) (t : Fin (cfg9 a).N) :
    (dat9 V a c).after 1 t = xBlk9 (tb9 a) (A9 V c) (iblk9 V a c 0 t) (t.val / 1000) := by dsimp only [dat9]; rfl

/-- The invariant and the tallies, at a point. -/
theorem Phi9_eq (c : Dev nD) (n : Fin ((cfg9 a).N + 1)) : (dat9 V a c).Φ n = Φ9 V a c n.val := by dsimp only [dat9]
theorem owed9_eq (c : Dev nD) (n : Fin ((cfg9 a).N + 1)) : (dat9 V a c).owed n = 0 := by dsimp only [dat9]

/-- The weight window holds its block at every point, fetched there or not: its block index never moves. -/
theorem before9_0 (c : Dev nD) (t : Fin (cfg9 a).N) (d) : (dat9 V a c).before 0 t d = iblk9 V a c 0 t :=
  ((dat9 V a c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)

/-- The output window is written back after the last row of each block of rows, and only there; -/
theorem flush9_1 (t : Fin (cfg9 a).N) : ((cfg9 a).win 1).flush t = decide (t.val % 1000 = 999) := by
  unfold Window.flush
  exact flushB9 t
/-- and it is idle at every other row. -/
theorem idle9_1 (t : Fin (cfg9 a).N) : (cfg9 a).idle 1 ((cfg9 a).grid.coords t) = !decide (t.val % 1000 = 999) := by
  show (!(k9_cond1 (grid9.coords t) == 1#1)) = _
  congr 1
  by_cases h : t.val % 1000 = 999
  · rw [decide_eq_true h, (cond9_iff t).2 h]; rfl
  · rw [decide_eq_false h]
    exact beq_false_of_ne fun e => h ((cond9_iff t).1 e)

end Region

/-! ## The body obligation -/

section Body
variable (V : (c : Dev nD) → (b : Ref sig .tc) → Buf (Elt F) ((c : Thread nD τ).loc b)) (a : (pcfg9 (F := F)).Adm)

/-- Each window's current staging memref at point `t`, spelled as the pipeline passes it, and its wholeness. -/
abbrev ms9_0 (t : Fin (cfg9 a).N) : Memref sig .tc .vmem S128x128 .f32 := spec9_0.stage ((cfg9 a).slots t 0)
abbrev hs9_0 (t : Fin (cfg9 a).N) : (ms9_0 a t).IsWhole := hstage9_0 (((cfg9 a).slots t 0).cast nbuf9_0)
abbrev ms9_1 (t : Fin (cfg9 a).N) : Memref sig .tc .vmem S1000x128 .f32 := spec9_1.stage ((cfg9 a).slots t 1)
abbrev hs9_1 (t : Fin (cfg9 a).N) : (ms9_1 a t).IsWhole := hstage9_1 (((cfg9 a).slots t 1).cast nbuf9_1)

/-- The launch's body function, under the name the runs are stated at. -/
theorem bodyFn9_eq : cc9__gather_agg_matmul_kernel (F := F) = gatherFn := rfl

/-- The kernel body at point `t`, on what the pipeline calls it with. -/
abbrev bodyAt9 (t : Fin (cfg9 a).N) : Prog (TpuEff nD τ sig (Elt F) Λ₀ .tc) PUnit :=
  cc9__gather_agg_matmul_kernel (grid9.coords t) tbM9 (Memref.isWhole_whole _) hbM9 (Memref.isWhole_whole _)
    (ms9_0 a t) (hs9_0 a t) (ms9_1 a t) (hs9_1 a t) scM9_0 (Memref.isWhole_whole _) scM9_1 (Memref.isWhole_whole _) cc9_scratch2

/-- What the body is called with at point `t`, the windows one by one, -/
def bodyPre9 (c : Dev nD) (t : Fin (cfg9 a).N) : sProp 𝕄 :=
  iprop((dat9 V a c).Φ t.castSucc ∗ (dat9 V a c).owesAt () t.castSucc
    ∗ (∃ d, owns (c : Thread nD τ) (ms9_0 a t) fullShare ((dat9 V a c).before 0 t d))
    ∗ (∃ d, owns (c : Thread nD τ) (ms9_1 a t) fullShare ((dat9 V a c).before 1 t d)))

/-- and what it returns: the output window as it was found where the point is idle for it, at the block's product
    at the last row of a block. -/
def bodyPost9 (c : Dev nD) (t : Fin (cfg9 a).N) : sProp 𝕄 :=
  iprop((dat9 V a c).Φ t.succ ∗ (dat9 V a c).owesAt () t.succ
    ∗ owns (c : Thread nD τ) (ms9_0 a t) fullShare ((dat9 V a c).after 0 t)
    ∗ (match (cfg9 a).idle 1 ((cfg9 a).grid.coords t) with
        | true =>
          match ((cfg9 a).win 1).flush t with
          | false => iprop(∃ d, owns (c : Thread nD τ) (ms9_1 a t) fullShare ((dat9 V a c).before 1 t d))
          | true => owns (c : Thread nD τ) (ms9_1 a t) fullShare ((dat9 V a c).after 1 t)
        | false => owns (c : Thread nD τ) (ms9_1 a t) fullShare ((dat9 V a c).after 1 t)))

/-- The body at any point. The weight window holds its block; the invariant hands the body its table, the feature
    array, both scratch buffers and its transfer cells, and takes them back with the carried scratch one row further
    (`rowsOK9_step`); at the last row of a block the product the body stores is the block's (`rowAt9_last`); the core's
    `owes` goes in at whatever the points before recorded and comes back with this point's waits. -/
theorem sound_body9 (hR : InRange9 a.1) (c : Dev nD) (t : Fin (cfg9 a).N) :
    bodyPre9 V a c t ⊢ wp frame (wpE (defs₀ (F := F)) Variants.none c none) Set.univ (bodyAt9 a t) (fun _ => bodyPost9 V a c t) := by
  unfold bodyPre9 bodyPost9 bodyAt9
  rw [flush9_1, idle9_1]
  simp only [before9_0]
  rw [after9_0, Phi9_eq, Phi9_eq, Fin.val_succ, Fin.coe_castSucc]
  unfold Dat.owesAt Pipeline.owesWithin
  rw [owed9_eq, owed9_eq]
  unfold Φ9
  rw [bodyFn9_eq]
  by_cases hl : t.val % 1000 = 999
  · -- the last row of a block
    rw [decide_eq_true hl, Bool.not_true]
    dsimp only
    rw [after9_1]
    unfold xBlk9
    iintro ⟨⟨Htb, Hhb, ⟨%g, %hg, Hs0⟩, Hs1, Hcells, Hreg, Hrest⟩, ⟨%W, -, HW⟩, ⟨%d0, H0⟩, ⟨%d1, H1⟩⟩
    rw [← rowAt9_last (tb9 a) (A9 V c) t hl g hg]
    iapply (run24_last c (grid9.coords t) tbM9 (Memref.isWhole_whole _) hbM9 (Memref.isWhole_whole _) (ms9_0 a t) (hs9_0 a t)
      (ms9_1 a t) (hs9_1 a t) scM9_0 (Memref.isWhole_whole _) scM9_1 (Memref.isWhole_whole _) cc9_scratch2
      ((cond9_iff t).2 hl) (tb9 a) hR (A9 V c) (iblk9 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK9_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k9_cond1 (grid9.coords t) ≠ 1#1 := fun e => hl ((cond9_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid9.coords t) tbM9 (Memref.isWhole_whole _) hbM9 (Memref.isWhole_whole _) (ms9_0 a t) (hs9_0 a t)
      (ms9_1 a t) (hs9_1 a t) scM9_0 (Memref.isWhole_whole _) scM9_1 (Memref.isWhole_whole _) cc9_scratch2
      hc (tb9 a) hR (A9 V c) (iblk9 V a c 0 t) g
      (owns (c : Thread nD τ) (ms9_1 a t) fullShare ((dat9 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK9_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation9 (hR : InRange9 a.1) (c : Dev nD) :
    BodyObligation (dat9 (F := F) V a c) (defs₀ (F := F)) Variants.none () Set.univ := fun t => by
  rw [bigSep_W9, bigSep_W9]
  exact sound_body9 V a hR c t

end Body

/-! ## The value: what the launch leaves in its output array -/

section Value
variable (V : (c : Dev nD) → (b : Ref sig .tc) → Buf (Elt F) ((c : Thread nD τ).loc b)) (a : (pcfg9 (F := F)).Adm)

/-- Entry `(r, l)` of a block of rows. -/
def cell9 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk9 (tb : Vec F S16x2000 .i32) (A0 : Vec F S100000x128 .f32) (Wt : Vec F S128x128 .f32) : Vec F S2000x128 .f32 :=
  fun y => xBlk9 tb A0 Wt ((y 0).val / 1000) (cell9 ((y 0).val % 1000) (Nat.mod_lt _ (by decide)) (y 1))

/-- The weight window's block is the whole weight, at every point: its block index is (0, 0). -/
theorem wblk9_eq (c : Dev nD) (t : Fin (cfg9 a).N) : iblk9 V a c 0 t = (V c main_arg1 : Vec F S128x128 .f32) := by
  funext x
  unfold iblk9
  rw [View.read_apply]
  refine (cast_eq _ _).trans (congrArg (V c main_arg1) (funext fun b => Fin.ext ?_))
  refine (((cfg9 a).win 0).rect_emb_val_of_index_zero t b ?_ x)
  match b with
  | ⟨0, _⟩ => rfl
  | ⟨1, _⟩ => rfl

/-- Where entry `x` of the output window's block at point `t` sits in the output array. -/
abbrev emb9 (t : Fin (cfg9 a).N) (x : S1000x128.Idx) : S2000x128.Idx := (((cfg9 a).win 1).blk t).view.emb x

theorem emb9_val (t : Fin (cfg9 a).N) (x : S1000x128.Idx) :
    (emb9 a t x 0).val = t.val / 1000 * 1000 + (x 0).val ∧ (emb9 a t x 1).val = (x 1).val := by
  have hix : ((cfg9 a).win 1).index t = ![t.val / 1000, 0] := idx9_1 t
  have e0 := ((cfg9 a).win 1).rect_emb_val t x (0 : Fin 2)
  have e1 := ((cfg9 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after9_chunk (c : Dev nD) (t : Fin (cfg9 a).N) (x : S1000x128.Idx) :
    (dat9 V a c).after 1 t x = xChunk9 (tb9 a) (A9 V c) (V c main_arg1) (emb9 a t x) := by
  obtain ⟨e0, e1⟩ := emb9_val a t x
  have hx0 : (x 0).val < 1000 := (x 0).isLt
  rw [after9_1, wblk9_eq]
  unfold xChunk9
  have hq : (emb9 a t x 0).val / 1000 = t.val / 1000 := by rw [e0]; omega
  have hcell : cell9 ((emb9 a t x 0).val % 1000) (Nat.mod_lt _ (by decide)) (emb9 a t x 1) = x := by
    funext b
    apply Fin.ext
    match b with
    | ⟨0, _⟩ =>
      show (emb9 a t x 0).val % 1000 = (x 0).val
      rw [e0]; omega
    | ⟨1, _⟩ => exact e1
  rw [hq, hcell]

/-- Two entries of the output array with the same coordinates are the same. -/
theorem idx9_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb9_cell (t : Fin (cfg9 a).N) (i : S2000x128.Idx) (ht : t.val / 1000 = (i 0).val / 1000) :
    emb9 a t (cell9 ((i 0).val % 1000) (Nat.mod_lt _ (by decide)) (i 1)) = i := by
  obtain ⟨e0, e1⟩ := emb9_val a t (cell9 ((i 0).val % 1000) (Nat.mod_lt _ (by decide)) (i 1))
  refine idx9_ext _ _ ?_ e1
  rw [e0, ht]
  show (i 0).val / 1000 * 1000 + (i 0).val % 1000 = (i 0).val
  omega

/-- Every entry of the output array lies in the block written back after the last row of its block of rows. -/
theorem cover9 (i : S2000x128.Idx) :
    ∃ t : Fin (cfg9 a).N, ((cfg9 a).win 1).flush t = true ∧ i ∈ (((cfg9 a).win 1).blk t).view.set := by
  have hi0 : (i 0).val < 2000 := (i 0).isLt
  have hN : (i 0).val / 1000 * 1000 + 999 < (cfg9 a).N := by rw [N9]; omega
  refine ⟨⟨(i 0).val / 1000 * 1000 + 999, hN⟩, ?_, ?_⟩
  · rw [flush9_1]; exact decide_eq_true (by show ((i 0).val / 1000 * 1000 + 999) % 1000 = 999; omega)
  · refine Finset.mem_map.mpr ⟨cell9 ((i 0).val % 1000) (Nat.mod_lt _ (by decide)) (i 1), Finset.mem_univ _, ?_⟩
    exact emb9_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out9 (c : Dev nD) :
    (dat9 V a c).arrAt 1 (cfg9 a).N = (xChunk9 (tb9 a) (A9 V c) (V c main_arg1) : Vec F S2000x128 .f32) :=
  (dat9 V a c).arrAt_eq_of_cover 1 _
    (fun t _ => funext fun x => (after9_chunk V a c t x).trans (cast_eq _ _).symm)
    (cover9 a)

end Value

/-! ## The invariant's two ends -/

section Ends
variable (V : (c : Dev nD) → (b : Ref sig .tc) → Buf (Elt F) ((c : Thread nD τ).loc b)) (a : (pcfg9 (F := F)).Adm)

/-- The body's own transfer cells as the launch's protocol lists them: the 16 cells of its semaphore operand. -/
def osem9 : Fin 16 → SemLoc sig := fun k => SemLoc.dma (cc9_scratch2.ix (Shape.ofLane k))
/-- They are scoped, distinct, and none is a window's. -/
theorem ownSemFacts9 : Pipeline.OwnSemFacts spec9 osem9 := by decide
/-- The cells at zero, listed, are the cells as the body names them. -/
theorem cells9_eq (c : Dev nD) :
    (Pipeline.ownSems0 (Ix := Unit) (Name := ℕ) (U := UC) (Lvl := ℕ) (Val := Elt F) (τ := τ) osem9 c : sProp 𝕄) = cells24 c cc9_scratch2 := by
  rw [Pipeline.ownSems0_eq_of_list c osem9 [0, 1, 2, 3, 4, 5, 6, 7, 8, 9, 10, 11, 12, 13, 14, 15] (by decide) (by decide)]; rfl

/-- The launch's one table, held. -/
theorem prefHeld9_eq (c : Dev nD) (pf : pre9.Contents (Elt F)) :
    (Pipeline.prefHeld pre9 c (fun _ => fullShare) pf : sProp 𝕄) = (((c : Thread nD τ).loc main_v19) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X9 (c : Dev nD) : sProp 𝕄 :=
  iprop((∃ r, prngReg c r) ∗ Pipeline.ownSems0 (Ix := Unit) (Name := ℕ) (U := UC) (Lvl := ℕ) (Val := Elt F) (τ := τ) osem9 c
    ∗ (((c : Thread nD τ).loc main_arg0) ↦{fullShare} V c main_arg0))
abbrev Y9 (c : Dev nD) : sProp 𝕄 :=
  iprop((∃ r, prngReg c r) ∗ (((c : Thread nD τ).loc main_arg0) ↦{fullShare} V c main_arg0)
    ∗ Pipeline.prefHeld pre9 c (fun _ => fullShare) a.1)

/-- THE FIRST POINT: the invariant from what the launch's entry sorts out. Nothing is asked of the carried scratch. -/
theorem Phi9_in (c : Dev nD) :
    iprop(X9 V c ∗ Pipeline.prefHeld pre9 c (fun _ => fullShare) a.1
        ∗ Pipeline.scopedRest (Ix := Unit) (Name := ℕ) (U := UC) (Lvl := ℕ) (Val := Elt F) spec9 c)
      ⊢ (dat9 V a c).Φ 0 := by
  rw [Phi9_eq]
  unfold Φ9 X9
  rw [scopedRest9_split, prefHeld9_eq, cells9_eq]
  simp only [tbM9, hbM9, scM9_0, scM9_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK9_start _ _ _ rfl _
  isplitl [Hs1]; · iexact Hs1
  isplitl [Hcells]; · iexact Hcells
  isplitl [Hreg]; · iexact Hreg
  iexact Hrest

/-- THE LAST POINT: the invariant gives back what it took. -/
theorem Phi9_out (c : Dev nD) :
    (dat9 V a c).Φ (Fin.last _)
      ⊢ iprop(Y9 V a c ∗ Pipeline.ownSems0 (Ix := Unit) (Name := ℕ) (U := UC) (Lvl := ℕ) (Val := Elt F) (τ := τ) osem9 c
        ∗ Pipeline.scopedRest (Ix := Unit) (Name := ℕ) (U := UC) (Lvl := ℕ) (Val := Elt F) spec9 c) := by
  rw [Phi9_eq]
  unfold Φ9 Y9
  rw [scopedRest9_split, prefHeld9_eq, cells9_eq]
  simp only [tbM9, hbM9, scM9_0, scM9_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G10Dat.lean ====
/-
  One of the program's 25 gather launches (pipeline 10; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N10 (a : (pcfg10 (F := F)).Adm) : (cfg10 a).N = 2000 := N_10

/-- The body's branch is taken at the last row of a block of rows, -/
theorem cond10_iff : ∀ t : Fin grid10.N, k10_cond1 (grid10.coords t) = 1#1 ↔ t.val % 1000 = 999 := by decide +kernel
/-- the row a point works on is its number modulo 1000, -/
theorem rowAt10_coord : ∀ t : Fin grid10.N, (grid10.coords t 1).val = t.val % 1000 := by decide +kernel
/-- its block of rows is its number divided by 1000, -/
theorem blockAt10_coord : ∀ t : Fin grid10.N, (grid10.coords t 0).val = t.val / 1000 := by decide +kernel
/-- and the output's block index moves after exactly those points (and the grid ends at one). -/
theorem flushB10 : ∀ t : Fin grid10.N,
    (decide (t.val + 1 = grid10.N) || decide (∃ h : t.val + 1 < grid10.N, cc10_transform_2 (grid10.coords ⟨t.val + 1, h⟩) ≠ cc10_transform_2 (grid10.coords t)))
      = decide (t.val % 1000 = 999) := by decide +kernel

/-- The output's block index at a point: the point's block of rows. -/
theorem idx10_1 : ∀ t : Fin grid10.N, cc10_transform_2 (grid10.coords t) = ![t.val / 1000, 0] := by decide +kernel

/-- Every word of the launch's table names a row of the feature array. -/
def InRange10 (pf : pre10.Contents (Elt F)) : Prop := ∀ x : S16x2000.Idx, ((pf 0 : Vec F S16x2000 .i32) x).toNat < 100000

/-! ## The values -/

/-- Lane `l` of a one-row vector. -/
def lane10 (l : Fin 128) : S1x128.Idx := fun a => ⟨if a.val = 0 then 0 else l.val, by
  match a with
  | ⟨0, _⟩ => exact Nat.one_pos
  | ⟨1, _⟩ => exact l.isLt⟩

theorem lane10_one (l : Fin 128) : (lane10 l 1).val = l.val := rfl

/-- The grid point of row `r` of block `q` (total: the point number is taken modulo the grid's size). -/
def pt10 (q : ℕ) (r : ℕ) : Fin grid10.N := ⟨(q * 1000 + r) % grid10.N, Nat.mod_lt _ (by decide)⟩

/-- Inside the grid the point's number is `1000 q + r`. -/
theorem pt10_val (q r : ℕ) (hq : q < 2) (hr : r < 1000) : (pt10 q r).val = q * 1000 + r := by
  show (q * 1000 + r) % grid10.N = q * 1000 + r
  rw [N_10]; omega

/-- A point is the point of its block and row. -/
theorem pt10_self (t : Fin grid10.N) : pt10 (t.val / 1000) (t.val % 1000) = t := by
  apply Fin.ext
  show (t.val / 1000 * 1000 + t.val % 1000) % grid10.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means10 (tb : Vec F S16x2000 .i32) (A0 : Vec F S100000x128 .f32) (q : ℕ) : Vec F S1000x128 .f32 :=
  fun x => Gen.k24_pay1 (gath24 (grid10.coords (pt10 q (x 0).val)) tb A0) (lane10 (x 1))

/-- What the body stores in the output window at the last row of block `q`: the means, rounded, times the weight, rounded. -/
def xBlk10 (tb : Vec F S16x2000 .i32) (A0 : Vec F S100000x128 .f32) (Wt : Vec F S128x128 .f32) (q : ℕ) : Vec F S1000x128 .f32 :=
  Gen.k24_pay2 (means10 tb A0 q) Wt

/-- The carried scratch before point `n`: its rows below `n % 1000` are the means of block `n / 1000`. -/
def RowsOK10 (tb : Vec F S16x2000 .i32) (A0 : Vec F S100000x128 .f32) (n : ℕ) (g : Vec F S1000x128 .f32) : Prop :=
  ∀ x : S1000x128.Idx, (x 0).val < n % 1000 → g x = means10 tb A0 (n / 1000) x

/-- At the first row of a block nothing is asked. -/
theorem rowsOK10_start (tb : Vec F S16x2000 .i32) (A0 : Vec F S100000x128 .f32) (n : ℕ) (hn : n % 1000 = 0) (g : Vec F S1000x128 .f32) :
    RowsOK10 tb A0 n g := fun x hx => absurd hx (by omega)

/-- One point's row store keeps the invariant's rows and adds its own: after the store at point `t` the rows up to
    `t % 1000` are means. -/
theorem rowAt10_means (tb : Vec F S16x2000 .i32) (A0 : Vec F S100000x128 .f32) (t : Fin grid10.N) (g : Vec F S1000x128 .f32)
    (hg : RowsOK10 tb A0 t.val g) (x : S1000x128.Idx) (hx : (x 0).val ≤ t.val % 1000) :
    row24 (grid10.coords t) tb A0 g x = means10 tb A0 (t.val / 1000) x := by
  by_cases h : (x 0).val = t.val % 1000
  · rw [row24_of_eq (grid10.coords t) tb A0 g x (by rw [rowAt10_coord]; exact h) (lane10 (x 1)) rfl]
    unfold means10
    rw [h, pt10_self]
  · rw [row24_of_ne (grid10.coords t) tb A0 g x (by rw [rowAt10_coord]; exact h)]
    exact hg x (by omega)

/-- Within a block the invariant steps. -/
theorem rowsOK10_step (tb : Vec F S16x2000 .i32) (A0 : Vec F S100000x128 .f32) (t : Fin grid10.N) (g : Vec F S1000x128 .f32)
    (hg : RowsOK10 tb A0 t.val g) : RowsOK10 tb A0 (t.val + 1) (row24 (grid10.coords t) tb A0 g) := by
  by_cases hl : t.val % 1000 = 999
  · exact rowsOK10_start _ _ _ (by omega) _
  · intro x hx
    have h1 : (t.val + 1) / 1000 = t.val / 1000 := by omega
    rw [h1]
    exact rowAt10_means tb A0 t g hg x (by omega)

/-- At the last row of a block the scratch, after the row store, is the block's means whatever it held before. -/
theorem rowAt10_last (tb : Vec F S16x2000 .i32) (A0 : Vec F S100000x128 .f32) (t : Fin grid10.N) (hl : t.val % 1000 = 999)
    (g : Vec F S1000x128 .f32) (hg : RowsOK10 tb A0 t.val g) :
    row24 (grid10.coords t) tb A0 g = means10 tb A0 (t.val / 1000) :=
  funext fun x => rowAt10_means tb A0 t g hg x (by have : (x 0).val < 1000 := (x 0).isLt; omega)

/-! ## The invariant -/

/-- The launch's operands that no window stages, as the body is handed them: its table, the feature array left in
    HBM, and its two scratch buffers — whole buffers. -/
abbrev tbM10 : Memref sig .tc .smem S16x2000 .i32 := Memref.whole main_v21
abbrev hbM10 : Memref sig .tc .hbm S100000x128 .f32 := Memref.whole main_arg0
abbrev scM10_0 : Memref sig .tc .vmem S1000x128 .f32 := Memref.whole cc10_scratch0
abbrev scM10_1 : Memref sig .tc .vmem S16x128 .f32 := Memref.whole cc10_scratch1

section Region
-- the TensorCore's buffer contents when the launch is entered, and the launch's table
variable (V : (c : Dev nD) → (b : Ref sig .tc) → Buf (Elt F) ((c : Thread nD τ).loc b)) (a : (pcfg10 (F := F)).Adm)

/-- The table and the feature array, as vectors. -/
abbrev tb10 : Vec F S16x2000 .i32 := a.1 0
abbrev A10 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ10 (c : Dev nD) (n : ℕ) : sProp 𝕄 :=
  iprop(owns (c : Thread nD τ) tbM10 fullShare (tb10 a)
    ∗ owns (c : Thread nD τ) hbM10 fullShare (A10 V c)
    ∗ (∃ g : Vec F S1000x128 .f32, ⌜RowsOK10 (tb10 a) (A10 V c) n g⌝ ∗ owns (c : Thread nD τ) scM10_0 fullShare g)
    ∗ (∃ d, owns (c : Thread nD τ) scM10_1 fullShare d)
    ∗ cells24 c cc10_scratch2
    ∗ (∃ r, prngReg c r)
    ∗ Pipeline.scopedRestBut (Ix := Unit) (Name := ℕ) (U := UC) (Lvl := ℕ) (Val := Elt F) spec10 c [cc10_scratch0, cc10_scratch1])

/-! ## The windows' blocks and the proof data -/

/-- Window `w`'s block at point `t`, read off its array as the launch finds it. -/
def iblk10 (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- The proof data of the launch on core `c`: the arrays as the launch finds them; after the body at point `t` the
    weight window at its block and the output window at the product for `t`'s block of rows (read only at the block's
    last row, where the body stores it); the invariant above; nothing owed; full shares. -/
def dat10 (c : Dev nD) : Dat τ (Elt F) Unit ℕ UC ℕ (cfg10 a) c where
  A w := V c (Pipeline.arrRef spec10 w)
  after w t := match w with
    | ⟨0, _⟩ => iblk10 V a c 0 t
    | ⟨1, _⟩ => xBlk10 (tb10 a) (A10 V c) (iblk10 V a c 0 t) (t.val / 1000)
  Φ n := Φ10 V a c n.val
  q _ := fullShare
  owed _ := 0

/-- The proof data's arrays are the entry contents. -/
theorem A_eq10 (c : Dev nD) (w : Fin (cfg10 a).W) : (dat10 V a c).A w = V c (Pipeline.arrRef spec10 w) := by
  dsimp only [dat10]

/-- What the body leaves, window by window. -/
theorem after10_0 (c : Dev nD) (t : Fin (cfg10 a).N) : (dat10 V a c).after 0 t = iblk10 V a c 0 t := by dsimp only [dat10]; rfl
theorem after10_1 (c : Dev nD) (t : Fin (cfg10 a).N) :
    (dat10 V a c).after 1 t = xBlk10 (tb10 a) (A10 V c) (iblk10 V a c 0 t) (t.val / 1000) := by dsimp only [dat10]; rfl

/-- The invariant and the tallies, at a point. -/
theorem Phi10_eq (c : Dev nD) (n : Fin ((cfg10 a).N + 1)) : (dat10 V a c).Φ n = Φ10 V a c n.val := by dsimp only [dat10]
theorem owed10_eq (c : Dev nD) (n : Fin ((cfg10 a).N + 1)) : (dat10 V a c).owed n = 0 := by dsimp only [dat10]

/-- The weight window holds its block at every point, fetched there or not: its block index never moves. -/
theorem before10_0 (c : Dev nD) (t : Fin (cfg10 a).N) (d) : (dat10 V a c).before 0 t d = iblk10 V a c 0 t :=
  ((dat10 V a c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)

/-- The output window is written back after the last row of each block of rows, and only there; -/
theorem flush10_1 (t : Fin (cfg10 a).N) : ((cfg10 a).win 1).flush t = decide (t.val % 1000 = 999) := by
  unfold Window.flush
  exact flushB10 t
/-- and it is idle at every other row. -/
theorem idle10_1 (t : Fin (cfg10 a).N) : (cfg10 a).idle 1 ((cfg10 a).grid.coords t) = !decide (t.val % 1000 = 999) := by
  show (!(k10_cond1 (grid10.coords t) == 1#1)) = _
  congr 1
  by_cases h : t.val % 1000 = 999
  · rw [decide_eq_true h, (cond10_iff t).2 h]; rfl
  · rw [decide_eq_false h]
    exact beq_false_of_ne fun e => h ((cond10_iff t).1 e)

end Region

/-! ## The body obligation -/

section Body
variable (V : (c : Dev nD) → (b : Ref sig .tc) → Buf (Elt F) ((c : Thread nD τ).loc b)) (a : (pcfg10 (F := F)).Adm)

/-- Each window's current staging memref at point `t`, spelled as the pipeline passes it, and its wholeness. -/
abbrev ms10_0 (t : Fin (cfg10 a).N) : Memref sig .tc .vmem S128x128 .f32 := spec10_0.stage ((cfg10 a).slots t 0)
abbrev hs10_0 (t : Fin (cfg10 a).N) : (ms10_0 a t).IsWhole := hstage10_0 (((cfg10 a).slots t 0).cast nbuf10_0)
abbrev ms10_1 (t : Fin (cfg10 a).N) : Memref sig .tc .vmem S1000x128 .f32 := spec10_1.stage ((cfg10 a).slots t 1)
abbrev hs10_1 (t : Fin (cfg10 a).N) : (ms10_1 a t).IsWhole := hstage10_1 (((cfg10 a).slots t 1).cast nbuf10_1)

/-- The launch's body function, under the name the runs are stated at. -/
theorem bodyFn10_eq : cc10__gather_agg_matmul_kernel (F := F) = gatherFn := rfl

/-- The kernel body at point `t`, on what the pipeline calls it with. -/
abbrev bodyAt10 (t : Fin (cfg10 a).N) : Prog (TpuEff nD τ sig (Elt F) Λ₀ .tc) PUnit :=
  cc10__gather_agg_matmul_kernel (grid10.coords t) tbM10 (Memref.isWhole_whole _) hbM10 (Memref.isWhole_whole _)
    (ms10_0 a t) (hs10_0 a t) (ms10_1 a t) (hs10_1 a t) scM10_0 (Memref.isWhole_whole _) scM10_1 (Memref.isWhole_whole _) cc10_scratch2

/-- What the body is called with at point `t`, the windows one by one, -/
def bodyPre10 (c : Dev nD) (t : Fin (cfg10 a).N) : sProp 𝕄 :=
  iprop((dat10 V a c).Φ t.castSucc ∗ (dat10 V a c).owesAt () t.castSucc
    ∗ (∃ d, owns (c : Thread nD τ) (ms10_0 a t) fullShare ((dat10 V a c).before 0 t d))
    ∗ (∃ d, owns (c : Thread nD τ) (ms10_1 a t) fullShare ((dat10 V a c).before 1 t d)))

/-- and what it returns: the output window as it was found where the point is idle for it, at the block's product
    at the last row of a block. -/
def bodyPost10 (c : Dev nD) (t : Fin (cfg10 a).N) : sProp 𝕄 :=
  iprop((dat10 V a c).Φ t.succ ∗ (dat10 V a c).owesAt () t.succ
    ∗ owns (c : Thread nD τ) (ms10_0 a t) fullShare ((dat10 V a c).after 0 t)
    ∗ (match (cfg10 a).idle 1 ((cfg10 a).grid.coords t) with
        | true =>
          match ((cfg10 a).win 1).flush t with
          | false => iprop(∃ d, owns (c : Thread nD τ) (ms10_1 a t) fullShare ((dat10 V a c).before 1 t d))
          | true => owns (c : Thread nD τ) (ms10_1 a t) fullShare ((dat10 V a c).after 1 t)
        | false => owns (c : Thread nD τ) (ms10_1 a t) fullShare ((dat10 V a c).after 1 t)))

/-- The body at any point. The weight window holds its block; the invariant hands the body its table, the feature
    array, both scratch buffers and its transfer cells, and takes them back with the carried scratch one row further
    (`rowsOK10_step`); at the last row of a block the product the body stores is the block's (`rowAt10_last`); the core's
    `owes` goes in at whatever the points before recorded and comes back with this point's waits. -/
theorem sound_body10 (hR : InRange10 a.1) (c : Dev nD) (t : Fin (cfg10 a).N) :
    bodyPre10 V a c t ⊢ wp frame (wpE (defs₀ (F := F)) Variants.none c none) Set.univ (bodyAt10 a t) (fun _ => bodyPost10 V a c t) := by
  unfold bodyPre10 bodyPost10 bodyAt10
  rw [flush10_1, idle10_1]
  simp only [before10_0]
  rw [after10_0, Phi10_eq, Phi10_eq, Fin.val_succ, Fin.coe_castSucc]
  unfold Dat.owesAt Pipeline.owesWithin
  rw [owed10_eq, owed10_eq]
  unfold Φ10
  rw [bodyFn10_eq]
  by_cases hl : t.val % 1000 = 999
  · -- the last row of a block
    rw [decide_eq_true hl, Bool.not_true]
    dsimp only
    rw [after10_1]
    unfold xBlk10
    iintro ⟨⟨Htb, Hhb, ⟨%g, %hg, Hs0⟩, Hs1, Hcells, Hreg, Hrest⟩, ⟨%W, -, HW⟩, ⟨%d0, H0⟩, ⟨%d1, H1⟩⟩
    rw [← rowAt10_last (tb10 a) (A10 V c) t hl g hg]
    iapply (run24_last c (grid10.coords t) tbM10 (Memref.isWhole_whole _) hbM10 (Memref.isWhole_whole _) (ms10_0 a t) (hs10_0 a t)
      (ms10_1 a t) (hs10_1 a t) scM10_0 (Memref.isWhole_whole _) scM10_1 (Memref.isWhole_whole _) cc10_scratch2
      ((cond10_iff t).2 hl) (tb10 a) hR (A10 V c) (iblk10 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK10_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k10_cond1 (grid10.coords t) ≠ 1#1 := fun e => hl ((cond10_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid10.coords t) tbM10 (Memref.isWhole_whole _) hbM10 (Memref.isWhole_whole _) (ms10_0 a t) (hs10_0 a t)
      (ms10_1 a t) (hs10_1 a t) scM10_0 (Memref.isWhole_whole _) scM10_1 (Memref.isWhole_whole _) cc10_scratch2
      hc (tb10 a) hR (A10 V c) (iblk10 V a c 0 t) g
      (owns (c : Thread nD τ) (ms10_1 a t) fullShare ((dat10 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK10_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation10 (hR : InRange10 a.1) (c : Dev nD) :
    BodyObligation (dat10 (F := F) V a c) (defs₀ (F := F)) Variants.none () Set.univ := fun t => by
  rw [bigSep_W10, bigSep_W10]
  exact sound_body10 V a hR c t

end Body

/-! ## The value: what the launch leaves in its output array -/

section Value
variable (V : (c : Dev nD) → (b : Ref sig .tc) → Buf (Elt F) ((c : Thread nD τ).loc b)) (a : (pcfg10 (F := F)).Adm)

/-- Entry `(r, l)` of a block of rows. -/
def cell10 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk10 (tb : Vec F S16x2000 .i32) (A0 : Vec F S100000x128 .f32) (Wt : Vec F S128x128 .f32) : Vec F S2000x128 .f32 :=
  fun y => xBlk10 tb A0 Wt ((y 0).val / 1000) (cell10 ((y 0).val % 1000) (Nat.mod_lt _ (by decide)) (y 1))

/-- The weight window's block is the whole weight, at every point: its block index is (0, 0). -/
theorem wblk10_eq (c : Dev nD) (t : Fin (cfg10 a).N) : iblk10 V a c 0 t = (V c main_arg1 : Vec F S128x128 .f32) := by
  funext x
  unfold iblk10
  rw [View.read_apply]
  refine (cast_eq _ _).trans (congrArg (V c main_arg1) (funext fun b => Fin.ext ?_))
  refine (((cfg10 a).win 0).rect_emb_val_of_index_zero t b ?_ x)
  match b with
  | ⟨0, _⟩ => rfl
  | ⟨1, _⟩ => rfl

/-- Where entry `x` of the output window's block at point `t` sits in the output array. -/
abbrev emb10 (t : Fin (cfg10 a).N) (x : S1000x128.Idx) : S2000x128.Idx := (((cfg10 a).win 1).blk t).view.emb x

theorem emb10_val (t : Fin (cfg10 a).N) (x : S1000x128.Idx) :
    (emb10 a t x 0).val = t.val / 1000 * 1000 + (x 0).val ∧ (emb10 a t x 1).val = (x 1).val := by
  have hix : ((cfg10 a).win 1).index t = ![t.val / 1000, 0] := idx10_1 t
  have e0 := ((cfg10 a).win 1).rect_emb_val t x (0 : Fin 2)
  have e1 := ((cfg10 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after10_chunk (c : Dev nD) (t : Fin (cfg10 a).N) (x : S1000x128.Idx) :
    (dat10 V a c).after 1 t x = xChunk10 (tb10 a) (A10 V c) (V c main_arg1) (emb10 a t x) := by
  obtain ⟨e0, e1⟩ := emb10_val a t x
  have hx0 : (x 0).val < 1000 := (x 0).isLt
  rw [after10_1, wblk10_eq]
  unfold xChunk10
  have hq : (emb10 a t x 0).val / 1000 = t.val / 1000 := by rw [e0]; omega
  have hcell : cell10 ((emb10 a t x 0).val % 1000) (Nat.mod_lt _ (by decide)) (emb10 a t x 1) = x := by
    funext b
    apply Fin.ext
    match b with
    | ⟨0, _⟩ =>
      show (emb10 a t x 0).val % 1000 = (x 0).val
      rw [e0]; omega
    | ⟨1, _⟩ => exact e1
  rw [hq, hcell]

/-- Two entries of the output array with the same coordinates are the same. -/
theorem idx10_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb10_cell (t : Fin (cfg10 a).N) (i : S2000x128.Idx) (ht : t.val / 1000 = (i 0).val / 1000) :
    emb10 a t (cell10 ((i 0).val % 1000) (Nat.mod_lt _ (by decide)) (i 1)) = i := by
  obtain ⟨e0, e1⟩ := emb10_val a t (cell10 ((i 0).val % 1000) (Nat.mod_lt _ (by decide)) (i 1))
  refine idx10_ext _ _ ?_ e1
  rw [e0, ht]
  show (i 0).val / 1000 * 1000 + (i 0).val % 1000 = (i 0).val
  omega

/-- Every entry of the output array lies in the block written back after the last row of its block of rows. -/
theorem cover10 (i : S2000x128.Idx) :
    ∃ t : Fin (cfg10 a).N, ((cfg10 a).win 1).flush t = true ∧ i ∈ (((cfg10 a).win 1).blk t).view.set := by
  have hi0 : (i 0).val < 2000 := (i 0).isLt
  have hN : (i 0).val / 1000 * 1000 + 999 < (cfg10 a).N := by rw [N10]; omega
  refine ⟨⟨(i 0).val / 1000 * 1000 + 999, hN⟩, ?_, ?_⟩
  · rw [flush10_1]; exact decide_eq_true (by show ((i 0).val / 1000 * 1000 + 999) % 1000 = 999; omega)
  · refine Finset.mem_map.mpr ⟨cell10 ((i 0).val % 1000) (Nat.mod_lt _ (by decide)) (i 1), Finset.mem_univ _, ?_⟩
    exact emb10_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out10 (c : Dev nD) :
    (dat10 V a c).arrAt 1 (cfg10 a).N = (xChunk10 (tb10 a) (A10 V c) (V c main_arg1) : Vec F S2000x128 .f32) :=
  (dat10 V a c).arrAt_eq_of_cover 1 _
    (fun t _ => funext fun x => (after10_chunk V a c t x).trans (cast_eq _ _).symm)
    (cover10 a)

end Value

/-! ## The invariant's two ends -/

section Ends
variable (V : (c : Dev nD) → (b : Ref sig .tc) → Buf (Elt F) ((c : Thread nD τ).loc b)) (a : (pcfg10 (F := F)).Adm)

/-- The body's own transfer cells as the launch's protocol lists them: the 16 cells of its semaphore operand. -/
def osem10 : Fin 16 → SemLoc sig := fun k => SemLoc.dma (cc10_scratch2.ix (Shape.ofLane k))
/-- They are scoped, distinct, and none is a window's. -/
theorem ownSemFacts10 : Pipeline.OwnSemFacts spec10 osem10 := by decide
/-- The cells at zero, listed, are the cells as the body names them. -/
theorem cells10_eq (c : Dev nD) :
    (Pipeline.ownSems0 (Ix := Unit) (Name := ℕ) (U := UC) (Lvl := ℕ) (Val := Elt F) (τ := τ) osem10 c : sProp 𝕄) = cells24 c cc10_scratch2 := by
  rw [Pipeline.ownSems0_eq_of_list c osem10 [0, 1, 2, 3, 4, 5, 6, 7, 8, 9, 10, 11, 12, 13, 14, 15] (by decide) (by decide)]; rfl

/-- The launch's one table, held. -/
theorem prefHeld10_eq (c : Dev nD) (pf : pre10.Contents (Elt F)) :
    (Pipeline.prefHeld pre10 c (fun _ => fullShare) pf : sProp 𝕄) = (((c : Thread nD τ).loc main_v21) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X10 (c : Dev nD) : sProp 𝕄 :=
  iprop((∃ r, prngReg c r) ∗ Pipeline.ownSems0 (Ix := Unit) (Name := ℕ) (U := UC) (Lvl := ℕ) (Val := Elt F) (τ := τ) osem10 c
    ∗ (((c : Thread nD τ).loc main_arg0) ↦{fullShare} V c main_arg0))
abbrev Y10 (c : Dev nD) : sProp 𝕄 :=
  iprop((∃ r, prngReg c r) ∗ (((c : Thread nD τ).loc main_arg0) ↦{fullShare} V c main_arg0)
    ∗ Pipeline.prefHeld pre10 c (fun _ => fullShare) a.1)

/-- THE FIRST POINT: the invariant from what the launch's entry sorts out. Nothing is asked of the carried scratch. -/
theorem Phi10_in (c : Dev nD) :
    iprop(X10 V c ∗ Pipeline.prefHeld pre10 c (fun _ => fullShare) a.1
        ∗ Pipeline.scopedRest (Ix := Unit) (Name := ℕ) (U := UC) (Lvl := ℕ) (Val := Elt F) spec10 c)
      ⊢ (dat10 V a c).Φ 0 := by
  rw [Phi10_eq]
  unfold Φ10 X10
  rw [scopedRest10_split, prefHeld10_eq, cells10_eq]
  simp only [tbM10, hbM10, scM10_0, scM10_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK10_start _ _ _ rfl _
  isplitl [Hs1]; · iexact Hs1
  isplitl [Hcells]; · iexact Hcells
  isplitl [Hreg]; · iexact Hreg
  iexact Hrest

/-- THE LAST POINT: the invariant gives back what it took. -/
theorem Phi10_out (c : Dev nD) :
    (dat10 V a c).Φ (Fin.last _)
      ⊢ iprop(Y10 V a c ∗ Pipeline.ownSems0 (Ix := Unit) (Name := ℕ) (U := UC) (Lvl := ℕ) (Val := Elt F) (τ := τ) osem10 c
        ∗ Pipeline.scopedRest (Ix := Unit) (Name := ℕ) (U := UC) (Lvl := ℕ) (Val := Elt F) spec10 c) := by
  rw [Phi10_eq]
  unfold Φ10 Y10
  rw [scopedRest10_split, prefHeld10_eq, cells10_eq]
  simp only [tbM10, hbM10, scM10_0, scM10_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G11Dat.lean ====
/-
  One of the program's 25 gather launches (pipeline 11; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N11 (a : (pcfg11 (F := F)).Adm) : (cfg11 a).N = 2000 := N_11

/-- The body's branch is taken at the last row of a block of rows, -/
theorem cond11_iff : ∀ t : Fin grid11.N, k11_cond1 (grid11.coords t) = 1#1 ↔ t.val % 1000 = 999 := by decide +kernel
/-- the row a point works on is its number modulo 1000, -/
theorem rowAt11_coord : ∀ t : Fin grid11.N, (grid11.coords t 1).val = t.val % 1000 := by decide +kernel
/-- its block of rows is its number divided by 1000, -/
theorem blockAt11_coord : ∀ t : Fin grid11.N, (grid11.coords t 0).val = t.val / 1000 := by decide +kernel
/-- and the output's block index moves after exactly those points (and the grid ends at one). -/
theorem flushB11 : ∀ t : Fin grid11.N,
    (decide (t.val + 1 = grid11.N) || decide (∃ h : t.val + 1 < grid11.N, cc11_transform_2 (grid11.coords ⟨t.val + 1, h⟩) ≠ cc11_transform_2 (grid11.coords t)))
      = decide (t.val % 1000 = 999) := by decide +kernel

/-- The output's block index at a point: the point's block of rows. -/
theorem idx11_1 : ∀ t : Fin grid11.N, cc11_transform_2 (grid11.coords t) = ![t.val / 1000, 0] := by decide +kernel

/-- Every word of the launch's table names a row of the feature array. -/
def InRange11 (pf : pre11.Contents (Elt F)) : Prop := ∀ x : S16x2000.Idx, ((pf 0 : Vec F S16x2000 .i32) x).toNat < 100000

/-! ## The values -/

/-- Lane `l` of a one-row vector. -/
def lane11 (l : Fin 128) : S1x128.Idx := fun a => ⟨if a.val = 0 then 0 else l.val, by
  match a with
  | ⟨0, _⟩ => exact Nat.one_pos
  | ⟨1, _⟩ => exact l.isLt⟩

theorem lane11_one (l : Fin 128) : (lane11 l 1).val = l.val := rfl

/-- The grid point of row `r` of block `q` (total: the point number is taken modulo the grid's size). -/
def pt11 (q : ℕ) (r : ℕ) : Fin grid11.N := ⟨(q * 1000 + r) % grid11.N, Nat.mod_lt _ (by decide)⟩

/-- Inside the grid the point's number is `1000 q + r`. -/
theorem pt11_val (q r : ℕ) (hq : q < 2) (hr : r < 1000) : (pt11 q r).val = q * 1000 + r := by
  show (q * 1000 + r) % grid11.N = q * 1000 + r
  rw [N_11]; omega

/-- A point is the point of its block and row. -/
theorem pt11_self (t : Fin grid11.N) : pt11 (t.val / 1000) (t.val % 1000) = t := by
  apply Fin.ext
  show (t.val / 1000 * 1000 + t.val % 1000) % grid11.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means11 (tb : Vec F S16x2000 .i32) (A0 : Vec F S100000x128 .f32) (q : ℕ) : Vec F S1000x128 .f32 :=
  fun x => Gen.k24_pay1 (gath24 (grid11.coords (pt11 q (x 0).val)) tb A0) (lane11 (x 1))

/-- What the body stores in the output window at the last row of block `q`: the means, rounded, times the weight, rounded. -/
def xBlk11 (tb : Vec F S16x2000 .i32) (A0 : Vec F S100000x128 .f32) (Wt : Vec F S128x128 .f32) (q : ℕ) : Vec F S1000x128 .f32 :=
  Gen.k24_pay2 (means11 tb A0 q) Wt

/-- The carried scratch before point `n`: its rows below `n % 1000` are the means of block `n / 1000`. -/
def RowsOK11 (tb : Vec F S16x2000 .i32) (A0 : Vec F S100000x128 .f32) (n : ℕ) (g : Vec F S1000x128 .f32) : Prop :=
  ∀ x : S1000x128.Idx, (x 0).val < n % 1000 → g x = means11 tb A0 (n / 1000) x

/-- At the first row of a block nothing is asked. -/
theorem rowsOK11_start (tb : Vec F S16x2000 .i32) (A0 : Vec F S100000x128 .f32) (n : ℕ) (hn : n % 1000 = 0) (g : Vec F S1000x128 .f32) :
    RowsOK11 tb A0 n g := fun x hx => absurd hx (by omega)

/-- One point's row store keeps the invariant's rows and adds its own: after the store at point `t` the rows up to
    `t % 1000` are means. -/
theorem rowAt11_means (tb : Vec F S16x2000 .i32) (A0 : Vec F S100000x128 .f32) (t : Fin grid11.N) (g : Vec F S1000x128 .f32)
    (hg : RowsOK11 tb A0 t.val g) (x : S1000x128.Idx) (hx : (x 0).val ≤ t.val % 1000) :
    row24 (grid11.coords t) tb A0 g x = means11 tb A0 (t.val / 1000) x := by
  by_cases h : (x 0).val = t.val % 1000
  · rw [row24_of_eq (grid11.coords t) tb A0 g x (by rw [rowAt11_coord]; exact h) (lane11 (x 1)) rfl]
    unfold means11
    rw [h, pt11_self]
  · rw [row24_of_ne (grid11.coords t) tb A0 g x (by rw [rowAt11_coord]; exact h)]
    exact hg x (by omega)

/-- Within a block the invariant steps. -/
theorem rowsOK11_step (tb : Vec F S16x2000 .i32) (A0 : Vec F S100000x128 .f32) (t : Fin grid11.N) (g : Vec F S1000x128 .f32)
    (hg : RowsOK11 tb A0 t.val g) : RowsOK11 tb A0 (t.val + 1) (row24 (grid11.coords t) tb A0 g) := by
  by_cases hl : t.val % 1000 = 999
  · exact rowsOK11_start _ _ _ (by omega) _
  · intro x hx
    have h1 : (t.val + 1) / 1000 = t.val / 1000 := by omega
    rw [h1]
    exact rowAt11_means tb A0 t g hg x (by omega)

/-- At the last row of a block the scratch, after the row store, is the block's means whatever it held before. -/
theorem rowAt11_last (tb : Vec F S16x2000 .i32) (A0 : Vec F S100000x128 .f32) (t : Fin grid11.N) (hl : t.val % 1000 = 999)
    (g : Vec F S1000x128 .f32) (hg : RowsOK11 tb A0 t.val g) :
    row24 (grid11.coords t) tb A0 g = means11 tb A0 (t.val / 1000) :=
  funext fun x => rowAt11_means tb A0 t g hg x (by have : (x 0).val < 1000 := (x 0).isLt; omega)

/-! ## The invariant -/

/-- The launch's operands that no window stages, as the body is handed them: its table, the feature array left in
    HBM, and its two scratch buffers — whole buffers. -/
abbrev tbM11 : Memref sig .tc .smem S16x2000 .i32 := Memref.whole main_v23
abbrev hbM11 : Memref sig .tc .hbm S100000x128 .f32 := Memref.whole main_arg0
abbrev scM11_0 : Memref sig .tc .vmem S1000x128 .f32 := Memref.whole cc11_scratch0
abbrev scM11_1 : Memref sig .tc .vmem S16x128 .f32 := Memref.whole cc11_scratch1

section Region
-- the TensorCore's buffer contents when the launch is entered, and the launch's table
variable (V : (c : Dev nD) → (b : Ref sig .tc) → Buf (Elt F) ((c : Thread nD τ).loc b)) (a : (pcfg11 (F := F)).Adm)

/-- The table and the feature array, as vectors. -/
abbrev tb11 : Vec F S16x2000 .i32 := a.1 0
abbrev A11 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ11 (c : Dev nD) (n : ℕ) : sProp 𝕄 :=
  iprop(owns (c : Thread nD τ) tbM11 fullShare (tb11 a)
    ∗ owns (c : Thread nD τ) hbM11 fullShare (A11 V c)
    ∗ (∃ g : Vec F S1000x128 .f32, ⌜RowsOK11 (tb11 a) (A11 V c) n g⌝ ∗ owns (c : Thread nD τ) scM11_0 fullShare g)
    ∗ (∃ d, owns (c : Thread nD τ) scM11_1 fullShare d)
    ∗ cells24 c cc11_scratch2
    ∗ (∃ r, prngReg c r)
    ∗ Pipeline.scopedRestBut (Ix := Unit) (Name := ℕ) (U := UC) (Lvl := ℕ) (Val := Elt F) spec11 c [cc11_scratch0, cc11_scratch1])

/-! ## The windows' blocks and the proof data -/

/-- Window `w`'s block at point `t`, read off its array as the launch finds it. -/
def iblk11 (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- The proof data of the launch on core `c`: the arrays as the launch finds them; after the body at point `t` the
    weight window at its block and the output window at the product for `t`'s block of rows (read only at the block's
    last row, where the body stores it); the invariant above; nothing owed; full shares. -/
def dat11 (c : Dev nD) : Dat τ (Elt F) Unit ℕ UC ℕ (cfg11 a) c where
  A w := V c (Pipeline.arrRef spec11 w)
  after w t := match w with
    | ⟨0, _⟩ => iblk11 V a c 0 t
    | ⟨1, _⟩ => xBlk11 (tb11 a) (A11 V c) (iblk11 V a c 0 t) (t.val / 1000)
  Φ n := Φ11 V a c n.val
  q _ := fullShare
  owed _ := 0

/-- The proof data's arrays are the entry contents. -/
theorem A_eq11 (c : Dev nD) (w : Fin (cfg11 a).W) : (dat11 V a c).A w = V c (Pipeline.arrRef spec11 w) := by
  dsimp only [dat11]

/-- What the body leaves, window by window. -/
theorem after11_0 (c : Dev nD) (t : Fin (cfg11 a).N) : (dat11 V a c).after 0 t = iblk11 V a c 0 t := by dsimp only [dat11]; rfl
theorem after11_1 (c : Dev nD) (t : Fin (cfg11 a).N) :
    (dat11 V a c).after 1 t = xBlk11 (tb11 a) (A11 V c) (iblk11 V a c 0 t) (t.val / 1000) := by dsimp only [dat11]; rfl

/-- The invariant and the tallies, at a point. -/
theorem Phi11_eq (c : Dev nD) (n : Fin ((cfg11 a).N + 1)) : (dat11 V a c).Φ n = Φ11 V a c n.val := by dsimp only [dat11]
theorem owed11_eq (c : Dev nD) (n : Fin ((cfg11 a).N + 1)) : (dat11 V a c).owed n = 0 := by dsimp only [dat11]

/-- The weight window holds its block at every point, fetched there or not: its block index never moves. -/
theorem before11_0 (c : Dev nD) (t : Fin (cfg11 a).N) (d) : (dat11 V a c).before 0 t d = iblk11 V a c 0 t :=
  ((dat11 V a c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)

/-- The output window is written back after the last row of each block of rows, and only there; -/
theorem flush11_1 (t : Fin (cfg11 a).N) : ((cfg11 a).win 1).flush t = decide (t.val % 1000 = 999) := by
  unfold Window.flush
  exact flushB11 t
/-- and it is idle at every other row. -/
theorem idle11_1 (t : Fin (cfg11 a).N) : (cfg11 a).idle 1 ((cfg11 a).grid.coords t) = !decide (t.val % 1000 = 999) := by
  show (!(k11_cond1 (grid11.coords t) == 1#1)) = _
  congr 1
  by_cases h : t.val % 1000 = 999
  · rw [decide_eq_true h, (cond11_iff t).2 h]; rfl
  · rw [decide_eq_false h]
    exact beq_false_of_ne fun e => h ((cond11_iff t).1 e)

end Region

/-! ## The body obligation -/

section Body
variable (V : (c : Dev nD) → (b : Ref sig .tc) → Buf (Elt F) ((c : Thread nD τ).loc b)) (a : (pcfg11 (F := F)).Adm)

/-- Each window's current staging memref at point `t`, spelled as the pipeline passes it, and its wholeness. -/
abbrev ms11_0 (t : Fin (cfg11 a).N) : Memref sig .tc .vmem S128x128 .f32 := spec11_0.stage ((cfg11 a).slots t 0)
abbrev hs11_0 (t : Fin (cfg11 a).N) : (ms11_0 a t).IsWhole := hstage11_0 (((cfg11 a).slots t 0).cast nbuf11_0)
abbrev ms11_1 (t : Fin (cfg11 a).N) : Memref sig .tc .vmem S1000x128 .f32 := spec11_1.stage ((cfg11 a).slots t 1)
abbrev hs11_1 (t : Fin (cfg11 a).N) : (ms11_1 a t).IsWhole := hstage11_1 (((cfg11 a).slots t 1).cast nbuf11_1)

/-- The launch's body function, under the name the runs are stated at. -/
theorem bodyFn11_eq : cc11__gather_agg_matmul_kernel (F := F) = gatherFn := rfl

/-- The kernel body at point `t`, on what the pipeline calls it with. -/
abbrev bodyAt11 (t : Fin (cfg11 a).N) : Prog (TpuEff nD τ sig (Elt F) Λ₀ .tc) PUnit :=
  cc11__gather_agg_matmul_kernel (grid11.coords t) tbM11 (Memref.isWhole_whole _) hbM11 (Memref.isWhole_whole _)
    (ms11_0 a t) (hs11_0 a t) (ms11_1 a t) (hs11_1 a t) scM11_0 (Memref.isWhole_whole _) scM11_1 (Memref.isWhole_whole _) cc11_scratch2

/-- What the body is called with at point `t`, the windows one by one, -/
def bodyPre11 (c : Dev nD) (t : Fin (cfg11 a).N) : sProp 𝕄 :=
  iprop((dat11 V a c).Φ t.castSucc ∗ (dat11 V a c).owesAt () t.castSucc
    ∗ (∃ d, owns (c : Thread nD τ) (ms11_0 a t) fullShare ((dat11 V a c).before 0 t d))
    ∗ (∃ d, owns (c : Thread nD τ) (ms11_1 a t) fullShare ((dat11 V a c).before 1 t d)))

/-- and what it returns: the output window as it was found where the point is idle for it, at the block's product
    at the last row of a block. -/
def bodyPost11 (c : Dev nD) (t : Fin (cfg11 a).N) : sProp 𝕄 :=
  iprop((dat11 V a c).Φ t.succ ∗ (dat11 V a c).owesAt () t.succ
    ∗ owns (c : Thread nD τ) (ms11_0 a t) fullShare ((dat11 V a c).after 0 t)
    ∗ (match (cfg11 a).idle 1 ((cfg11 a).grid.coords t) with
        | true =>
          match ((cfg11 a).win 1).flush t with
          | false => iprop(∃ d, owns (c : Thread nD τ) (ms11_1 a t) fullShare ((dat11 V a c).before 1 t d))
          | true => owns (c : Thread nD τ) (ms11_1 a t) fullShare ((dat11 V a c).after 1 t)
        | false => owns (c : Thread nD τ) (ms11_1 a t) fullShare ((dat11 V a c).after 1 t)))

/-- The body at any point. The weight window holds its block; the invariant hands the body its table, the feature
    array, both scratch buffers and its transfer cells, and takes them back with the carried scratch one row further
    (`rowsOK11_step`); at the last row of a block the product the body stores is the block's (`rowAt11_last`); the core's
    `owes` goes in at whatever the points before recorded and comes back with this point's waits. -/
theorem sound_body11 (hR : InRange11 a.1) (c : Dev nD) (t : Fin (cfg11 a).N) :
    bodyPre11 V a c t ⊢ wp frame (wpE (defs₀ (F := F)) Variants.none c none) Set.univ (bodyAt11 a t) (fun _ => bodyPost11 V a c t) := by
  unfold bodyPre11 bodyPost11 bodyAt11
  rw [flush11_1, idle11_1]
  simp only [before11_0]
  rw [after11_0, Phi11_eq, Phi11_eq, Fin.val_succ, Fin.coe_castSucc]
  unfold Dat.owesAt Pipeline.owesWithin
  rw [owed11_eq, owed11_eq]
  unfold Φ11
  rw [bodyFn11_eq]
  by_cases hl : t.val % 1000 = 999
  · -- the last row of a block
    rw [decide_eq_true hl, Bool.not_true]
    dsimp only
    rw [after11_1]
    unfold xBlk11
    iintro ⟨⟨Htb, Hhb, ⟨%g, %hg, Hs0⟩, Hs1, Hcells, Hreg, Hrest⟩, ⟨%W, -, HW⟩, ⟨%d0, H0⟩, ⟨%d1, H1⟩⟩
    rw [← rowAt11_last (tb11 a) (A11 V c) t hl g hg]
    iapply (run24_last c (grid11.coords t) tbM11 (Memref.isWhole_whole _) hbM11 (Memref.isWhole_whole _) (ms11_0 a t) (hs11_0 a t)
      (ms11_1 a t) (hs11_1 a t) scM11_0 (Memref.isWhole_whole _) scM11_1 (Memref.isWhole_whole _) cc11_scratch2
      ((cond11_iff t).2 hl) (tb11 a) hR (A11 V c) (iblk11 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK11_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k11_cond1 (grid11.coords t) ≠ 1#1 := fun e => hl ((cond11_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid11.coords t) tbM11 (Memref.isWhole_whole _) hbM11 (Memref.isWhole_whole _) (ms11_0 a t) (hs11_0 a t)
      (ms11_1 a t) (hs11_1 a t) scM11_0 (Memref.isWhole_whole _) scM11_1 (Memref.isWhole_whole _) cc11_scratch2
      hc (tb11 a) hR (A11 V c) (iblk11 V a c 0 t) g
      (owns (c : Thread nD τ) (ms11_1 a t) fullShare ((dat11 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK11_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation11 (hR : InRange11 a.1) (c : Dev nD) :
    BodyObligation (dat11 (F := F) V a c) (defs₀ (F := F)) Variants.none () Set.univ := fun t => by
  rw [bigSep_W11, bigSep_W11]
  exact sound_body11 V a hR c t

end Body

/-! ## The value: what the launch leaves in its output array -/

section Value
variable (V : (c : Dev nD) → (b : Ref sig .tc) → Buf (Elt F) ((c : Thread nD τ).loc b)) (a : (pcfg11 (F := F)).Adm)

/-- Entry `(r, l)` of a block of rows. -/
def cell11 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk11 (tb : Vec F S16x2000 .i32) (A0 : Vec F S100000x128 .f32) (Wt : Vec F S128x128 .f32) : Vec F S2000x128 .f32 :=
  fun y => xBlk11 tb A0 Wt ((y 0).val / 1000) (cell11 ((y 0).val % 1000) (Nat.mod_lt _ (by decide)) (y 1))

/-- The weight window's block is the whole weight, at every point: its block index is (0, 0). -/
theorem wblk11_eq (c : Dev nD) (t : Fin (cfg11 a).N) : iblk11 V a c 0 t = (V c main_arg1 : Vec F S128x128 .f32) := by
  funext x
  unfold iblk11
  rw [View.read_apply]
  refine (cast_eq _ _).trans (congrArg (V c main_arg1) (funext fun b => Fin.ext ?_))
  refine (((cfg11 a).win 0).rect_emb_val_of_index_zero t b ?_ x)
  match b with
  | ⟨0, _⟩ => rfl
  | ⟨1, _⟩ => rfl

/-- Where entry `x` of the output window's block at point `t` sits in the output array. -/
abbrev emb11 (t : Fin (cfg11 a).N) (x : S1000x128.Idx) : S2000x128.Idx := (((cfg11 a).win 1).blk t).view.emb x

theorem emb11_val (t : Fin (cfg11 a).N) (x : S1000x128.Idx) :
    (emb11 a t x 0).val = t.val / 1000 * 1000 + (x 0).val ∧ (emb11 a t x 1).val = (x 1).val := by
  have hix : ((cfg11 a).win 1).index t = ![t.val / 1000, 0] := idx11_1 t
  have e0 := ((cfg11 a).win 1).rect_emb_val t x (0 : Fin 2)
  have e1 := ((cfg11 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after11_chunk (c : Dev nD) (t : Fin (cfg11 a).N) (x : S1000x128.Idx) :
    (dat11 V a c).after 1 t x = xChunk11 (tb11 a) (A11 V c) (V c main_arg1) (emb11 a t x) := by
  obtain ⟨e0, e1⟩ := emb11_val a t x
  have hx0 : (x 0).val < 1000 := (x 0).isLt
  rw [after11_1, wblk11_eq]
  unfold xChunk11
  have hq : (emb11 a t x 0).val / 1000 = t.val / 1000 := by rw [e0]; omega
  have hcell : cell11 ((emb11 a t x 0).val % 1000) (Nat.mod_lt _ (by decide)) (emb11 a t x 1) = x := by
    funext b
    apply Fin.ext
    match b with
    | ⟨0, _⟩ =>
      show (emb11 a t x 0).val % 1000 = (x 0).val
      rw [e0]; omega
    | ⟨1, _⟩ => exact e1
  rw [hq, hcell]

/-- Two entries of the output array with the same coordinates are the same. -/
theorem idx11_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb11_cell (t : Fin (cfg11 a).N) (i : S2000x128.Idx) (ht : t.val / 1000 = (i 0).val / 1000) :
    emb11 a t (cell11 ((i 0).val % 1000) (Nat.mod_lt _ (by decide)) (i 1)) = i := by
  obtain ⟨e0, e1⟩ := emb11_val a t (cell11 ((i 0).val % 1000) (Nat.mod_lt _ (by decide)) (i 1))
  refine idx11_ext _ _ ?_ e1
  rw [e0, ht]
  show (i 0).val / 1000 * 1000 + (i 0).val % 1000 = (i 0).val
  omega

/-- Every entry of the output array lies in the block written back after the last row of its block of rows. -/
theorem cover11 (i : S2000x128.Idx) :
    ∃ t : Fin (cfg11 a).N, ((cfg11 a).win 1).flush t = true ∧ i ∈ (((cfg11 a).win 1).blk t).view.set := by
  have hi0 : (i 0).val < 2000 := (i 0).isLt
  have hN : (i 0).val / 1000 * 1000 + 999 < (cfg11 a).N := by rw [N11]; omega
  refine ⟨⟨(i 0).val / 1000 * 1000 + 999, hN⟩, ?_, ?_⟩
  · rw [flush11_1]; exact decide_eq_true (by show ((i 0).val / 1000 * 1000 + 999) % 1000 = 999; omega)
  · refine Finset.mem_map.mpr ⟨cell11 ((i 0).val % 1000) (Nat.mod_lt _ (by decide)) (i 1), Finset.mem_univ _, ?_⟩
    exact emb11_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out11 (c : Dev nD) :
    (dat11 V a c).arrAt 1 (cfg11 a).N = (xChunk11 (tb11 a) (A11 V c) (V c main_arg1) : Vec F S2000x128 .f32) :=
  (dat11 V a c).arrAt_eq_of_cover 1 _
    (fun t _ => funext fun x => (after11_chunk V a c t x).trans (cast_eq _ _).symm)
    (cover11 a)

end Value

/-! ## The invariant's two ends -/

section Ends
variable (V : (c : Dev nD) → (b : Ref sig .tc) → Buf (Elt F) ((c : Thread nD τ).loc b)) (a : (pcfg11 (F := F)).Adm)

/-- The body's own transfer cells as the launch's protocol lists them: the 16 cells of its semaphore operand. -/
def osem11 : Fin 16 → SemLoc sig := fun k => SemLoc.dma (cc11_scratch2.ix (Shape.ofLane k))
/-- They are scoped, distinct, and none is a window's. -/
theorem ownSemFacts11 : Pipeline.OwnSemFacts spec11 osem11 := by decide
/-- The cells at zero, listed, are the cells as the body names them. -/
theorem cells11_eq (c : Dev nD) :
    (Pipeline.ownSems0 (Ix := Unit) (Name := ℕ) (U := UC) (Lvl := ℕ) (Val := Elt F) (τ := τ) osem11 c : sProp 𝕄) = cells24 c cc11_scratch2 := by
  rw [Pipeline.ownSems0_eq_of_list c osem11 [0, 1, 2, 3, 4, 5, 6, 7, 8, 9, 10, 11, 12, 13, 14, 15] (by decide) (by decide)]; rfl

/-- The launch's one table, held. -/
theorem prefHeld11_eq (c : Dev nD) (pf : pre11.Contents (Elt F)) :
    (Pipeline.prefHeld pre11 c (fun _ => fullShare) pf : sProp 𝕄) = (((c : Thread nD τ).loc main_v23) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X11 (c : Dev nD) : sProp 𝕄 :=
  iprop((∃ r, prngReg c r) ∗ Pipeline.ownSems0 (Ix := Unit) (Name := ℕ) (U := UC) (Lvl := ℕ) (Val := Elt F) (τ := τ) osem11 c
    ∗ (((c : Thread nD τ).loc main_arg0) ↦{fullShare} V c main_arg0))
abbrev Y11 (c : Dev nD) : sProp 𝕄 :=
  iprop((∃ r, prngReg c r) ∗ (((c : Thread nD τ).loc main_arg0) ↦{fullShare} V c main_arg0)
    ∗ Pipeline.prefHeld pre11 c (fun _ => fullShare) a.1)

/-- THE FIRST POINT: the invariant from what the launch's entry sorts out. Nothing is asked of the carried scratch. -/
theorem Phi11_in (c : Dev nD) :
    iprop(X11 V c ∗ Pipeline.prefHeld pre11 c (fun _ => fullShare) a.1
        ∗ Pipeline.scopedRest (Ix := Unit) (Name := ℕ) (U := UC) (Lvl := ℕ) (Val := Elt F) spec11 c)
      ⊢ (dat11 V a c).Φ 0 := by
  rw [Phi11_eq]
  unfold Φ11 X11
  rw [scopedRest11_split, prefHeld11_eq, cells11_eq]
  simp only [tbM11, hbM11, scM11_0, scM11_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK11_start _ _ _ rfl _
  isplitl [Hs1]; · iexact Hs1
  isplitl [Hcells]; · iexact Hcells
  isplitl [Hreg]; · iexact Hreg
  iexact Hrest

/-- THE LAST POINT: the invariant gives back what it took. -/
theorem Phi11_out (c : Dev nD) :
    (dat11 V a c).Φ (Fin.last _)
      ⊢ iprop(Y11 V a c ∗ Pipeline.ownSems0 (Ix := Unit) (Name := ℕ) (U := UC) (Lvl := ℕ) (Val := Elt F) (τ := τ) osem11 c
        ∗ Pipeline.scopedRest (Ix := Unit) (Name := ℕ) (U := UC) (Lvl := ℕ) (Val := Elt F) spec11 c) := by
  rw [Phi11_eq]
  unfold Φ11 Y11
  rw [scopedRest11_split, prefHeld11_eq, cells11_eq]
  simp only [tbM11, hbM11, scM11_0, scM11_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G12Dat.lean ====
/-
  One of the program's 25 gather launches (pipeline 12; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N12 (a : (pcfg12 (F := F)).Adm) : (cfg12 a).N = 2000 := N_12

/-- The body's branch is taken at the last row of a block of rows, -/
theorem cond12_iff : ∀ t : Fin grid12.N, k12_cond1 (grid12.coords t) = 1#1 ↔ t.val % 1000 = 999 := by decide +kernel
/-- the row a point works on is its number modulo 1000, -/
theorem rowAt12_coord : ∀ t : Fin grid12.N, (grid12.coords t 1).val = t.val % 1000 := by decide +kernel
/-- its block of rows is its number divided by 1000, -/
theorem blockAt12_coord : ∀ t : Fin grid12.N, (grid12.coords t 0).val = t.val / 1000 := by decide +kernel
/-- and the output's block index moves after exactly those points (and the grid ends at one). -/
theorem flushB12 : ∀ t : Fin grid12.N,
    (decide (t.val + 1 = grid12.N) || decide (∃ h : t.val + 1 < grid12.N, cc12_transform_2 (grid12.coords ⟨t.val + 1, h⟩) ≠ cc12_transform_2 (grid12.coords t)))
      = decide (t.val % 1000 = 999) := by decide +kernel

/-- The output's block index at a point: the point's block of rows. -/
theorem idx12_1 : ∀ t : Fin grid12.N, cc12_transform_2 (grid12.coords t) = ![t.val / 1000, 0] := by decide +kernel

/-- Every word of the launch's table names a row of the feature array. -/
def InRange12 (pf : pre12.Contents (Elt F)) : Prop := ∀ x : S16x2000.Idx, ((pf 0 : Vec F S16x2000 .i32) x).toNat < 100000

/-! ## The values -/

/-- Lane `l` of a one-row vector. -/
def lane12 (l : Fin 128) : S1x128.Idx := fun a => ⟨if a.val = 0 then 0 else l.val, by
  match a with
  | ⟨0, _⟩ => exact Nat.one_pos
  | ⟨1, _⟩ => exact l.isLt⟩

theorem lane12_one (l : Fin 128) : (lane12 l 1).val = l.val := rfl

/-- The grid point of row `r` of block `q` (total: the point number is taken modulo the grid's size). -/
def pt12 (q : ℕ) (r : ℕ) : Fin grid12.N := ⟨(q * 1000 + r) % grid12.N, Nat.mod_lt _ (by decide)⟩

/-- Inside the grid the point's number is `1000 q + r`. -/
theorem pt12_val (q r : ℕ) (hq : q < 2) (hr : r < 1000) : (pt12 q r).val = q * 1000 + r := by
  show (q * 1000 + r) % grid12.N = q * 1000 + r
  rw [N_12]; omega

/-- A point is the point of its block and row. -/
theorem pt12_self (t : Fin grid12.N) : pt12 (t.val / 1000) (t.val % 1000) = t := by
  apply Fin.ext
  show (t.val / 1000 * 1000 + t.val % 1000) % grid12.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means12 (tb : Vec F S16x2000 .i32) (A0 : Vec F S100000x128 .f32) (q : ℕ) : Vec F S1000x128 .f32 :=
  fun x => Gen.k24_pay1 (gath24 (grid12.coords (pt12 q (x 0).val)) tb A0) (lane12 (x 1))

/-- What the body stores in the output window at the last row of block `q`: the means, rounded, times the weight, rounded. -/
def xBlk12 (tb : Vec F S16x2000 .i32) (A0 : Vec F S100000x128 .f32) (Wt : Vec F S128x128 .f32) (q : ℕ) : Vec F S1000x128 .f32 :=
  Gen.k24_pay2 (means12 tb A0 q) Wt

/-- The carried scratch before point `n`: its rows below `n % 1000` are the means of block `n / 1000`. -/
def RowsOK12 (tb : Vec F S16x2000 .i32) (A0 : Vec F S100000x128 .f32) (n : ℕ) (g : Vec F S1000x128 .f32) : Prop :=
  ∀ x : S1000x128.Idx, (x 0).val < n % 1000 → g x = means12 tb A0 (n / 1000) x

/-- At the first row of a block nothing is asked. -/
theorem rowsOK12_start (tb : Vec F S16x2000 .i32) (A0 : Vec F S100000x128 .f32) (n : ℕ) (hn : n % 1000 = 0) (g : Vec F S1000x128 .f32) :
    RowsOK12 tb A0 n g := fun x hx => absurd hx (by omega)

/-- One point's row store keeps the invariant's rows and adds its own: after the store at point `t` the rows up to
    `t % 1000` are means. -/
theorem rowAt12_means (tb : Vec F S16x2000 .i32) (A0 : Vec F S100000x128 .f32) (t : Fin grid12.N) (g : Vec F S1000x128 .f32)
    (hg : RowsOK12 tb A0 t.val g) (x : S1000x128.Idx) (hx : (x 0).val ≤ t.val % 1000) :
    row24 (grid12.coords t) tb A0 g x = means12 tb A0 (t.val / 1000) x := by
  by_cases h : (x 0).val = t.val % 1000
  · rw [row24_of_eq (grid12.coords t) tb A0 g x (by rw [rowAt12_coord]; exact h) (lane12 (x 1)) rfl]
    unfold means12
    rw [h, pt12_self]
  · rw [row24_of_ne (grid12.coords t) tb A0 g x (by rw [rowAt12_coord]; exact h)]
    exact hg x (by omega)

/-- Within a block the invariant steps. -/
theorem rowsOK12_step (tb : Vec F S16x2000 .i32) (A0 : Vec F S100000x128 .f32) (t : Fin grid12.N) (g : Vec F S1000x128 .f32)
    (hg : RowsOK12 tb A0 t.val g) : RowsOK12 tb A0 (t.val + 1) (row24 (grid12.coords t) tb A0 g) := by
  by_cases hl : t.val % 1000 = 999
  · exact rowsOK12_start _ _ _ (by omega) _
  · intro x hx
    have h1 : (t.val + 1) / 1000 = t.val / 1000 := by omega
    rw [h1]
    exact rowAt12_means tb A0 t g hg x (by omega)

/-- At the last row of a block the scratch, after the row store, is the block's means whatever it held before. -/
theorem rowAt12_last (tb : Vec F S16x2000 .i32) (A0 : Vec F S100000x128 .f32) (t : Fin grid12.N) (hl : t.val % 1000 = 999)
    (g : Vec F S1000x128 .f32) (hg : RowsOK12 tb A0 t.val g) :
    row24 (grid12.coords t) tb A0 g = means12 tb A0 (t.val / 1000) :=
  funext fun x => rowAt12_means tb A0 t g hg x (by have : (x 0).val < 1000 := (x 0).isLt; omega)

/-! ## The invariant -/

/-- The launch's operands that no window stages, as the body is handed them: its table, the feature array left in
    HBM, and its two scratch buffers — whole buffers. -/
abbrev tbM12 : Memref sig .tc .smem S16x2000 .i32 := Memref.whole main_v25
abbrev hbM12 : Memref sig .tc .hbm S100000x128 .f32 := Memref.whole main_arg0
abbrev scM12_0 : Memref sig .tc .vmem S1000x128 .f32 := Memref.whole cc12_scratch0
abbrev scM12_1 : Memref sig .tc .vmem S16x128 .f32 := Memref.whole cc12_scratch1

section Region
-- the TensorCore's buffer contents when the launch is entered, and the launch's table
variable (V : (c : Dev nD) → (b : Ref sig .tc) → Buf (Elt F) ((c : Thread nD τ).loc b)) (a : (pcfg12 (F := F)).Adm)

/-- The table and the feature array, as vectors. -/
abbrev tb12 : Vec F S16x2000 .i32 := a.1 0
abbrev A12 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ12 (c : Dev nD) (n : ℕ) : sProp 𝕄 :=
  iprop(owns (c : Thread nD τ) tbM12 fullShare (tb12 a)
    ∗ owns (c : Thread nD τ) hbM12 fullShare (A12 V c)
    ∗ (∃ g : Vec F S1000x128 .f32, ⌜RowsOK12 (tb12 a) (A12 V c) n g⌝ ∗ owns (c : Thread nD τ) scM12_0 fullShare g)
    ∗ (∃ d, owns (c : Thread nD τ) scM12_1 fullShare d)
    ∗ cells24 c cc12_scratch2
    ∗ (∃ r, prngReg c r)
    ∗ Pipeline.scopedRestBut (Ix := Unit) (Name := ℕ) (U := UC) (Lvl := ℕ) (Val := Elt F) spec12 c [cc12_scratch0, cc12_scratch1])

/-! ## The windows' blocks and the proof data -/

/-- Window `w`'s block at point `t`, read off its array as the launch finds it. -/
def iblk12 (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- The proof data of the launch on core `c`: the arrays as the launch finds them; after the body at point `t` the
    weight window at its block and the output window at the product for `t`'s block of rows (read only at the block's
    last row, where the body stores it); the invariant above; nothing owed; full shares. -/
def dat12 (c : Dev nD) : Dat τ (Elt F) Unit ℕ UC ℕ (cfg12 a) c where
  A w := V c (Pipeline.arrRef spec12 w)
  after w t := match w with
    | ⟨0, _⟩ => iblk12 V a c 0 t
    | ⟨1, _⟩ => xBlk12 (tb12 a) (A12 V c) (iblk12 V a c 0 t) (t.val / 1000)
  Φ n := Φ12 V a c n.val
  q _ := fullShare
  owed _ := 0

/-- The proof data's arrays are the entry contents. -/
theorem A_eq12 (c : Dev nD) (w : Fin (cfg12 a).W) : (dat12 V a c).A w = V c (Pipeline.arrRef spec12 w) := by
  dsimp only [dat12]

/-- What the body leaves, window by window. -/
theorem after12_0 (c : Dev nD) (t : Fin (cfg12 a).N) : (dat12 V a c).after 0 t = iblk12 V a c 0 t := by dsimp only [dat12]; rfl
theorem after12_1 (c : Dev nD) (t : Fin (cfg12 a).N) :
    (dat12 V a c).after 1 t = xBlk12 (tb12 a) (A12 V c) (iblk12 V a c 0 t) (t.val / 1000) := by dsimp only [dat12]; rfl

/-- The invariant and the tallies, at a point. -/
theorem Phi12_eq (c : Dev nD) (n : Fin ((cfg12 a).N + 1)) : (dat12 V a c).Φ n = Φ12 V a c n.val := by dsimp only [dat12]
theorem owed12_eq (c : Dev nD) (n : Fin ((cfg12 a).N + 1)) : (dat12 V a c).owed n = 0 := by dsimp only [dat12]

/-- The weight window holds its block at every point, fetched there or not: its block index never moves. -/
theorem before12_0 (c : Dev nD) (t : Fin (cfg12 a).N) (d) : (dat12 V a c).before 0 t d = iblk12 V a c 0 t :=
  ((dat12 V a c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)

/-- The output window is written back after the last row of each block of rows, and only there; -/
theorem flush12_1 (t : Fin (cfg12 a).N) : ((cfg12 a).win 1).flush t = decide (t.val % 1000 = 999) := by
  unfold Window.flush
  exact flushB12 t
/-- and it is idle at every other row. -/
theorem idle12_1 (t : Fin (cfg12 a).N) : (cfg12 a).idle 1 ((cfg12 a).grid.coords t) = !decide (t.val % 1000 = 999) := by
  show (!(k12_cond1 (grid12.coords t) == 1#1)) = _
  congr 1
  by_cases h : t.val % 1000 = 999
  · rw [decide_eq_true h, (cond12_iff t).2 h]; rfl
  · rw [decide_eq_false h]
    exact beq_false_of_ne fun e => h ((cond12_iff t).1 e)

end Region

/-! ## The body obligation -/

section Body
variable (V : (c : Dev nD) → (b : Ref sig .tc) → Buf (Elt F) ((c : Thread nD τ).loc b)) (a : (pcfg12 (F := F)).Adm)

/-- Each window's current staging memref at point `t`, spelled as the pipeline passes it, and its wholeness. -/
abbrev ms12_0 (t : Fin (cfg12 a).N) : Memref sig .tc .vmem S128x128 .f32 := spec12_0.stage ((cfg12 a).slots t 0)
abbrev hs12_0 (t : Fin (cfg12 a).N) : (ms12_0 a t).IsWhole := hstage12_0 (((cfg12 a).slots t 0).cast nbuf12_0)
abbrev ms12_1 (t : Fin (cfg12 a).N) : Memref sig .tc .vmem S1000x128 .f32 := spec12_1.stage ((cfg12 a).slots t 1)
abbrev hs12_1 (t : Fin (cfg12 a).N) : (ms12_1 a t).IsWhole := hstage12_1 (((cfg12 a).slots t 1).cast nbuf12_1)

/-- The launch's body function, under the name the runs are stated at. -/
theorem bodyFn12_eq : cc12__gather_agg_matmul_kernel (F := F) = gatherFn := rfl

/-- The kernel body at point `t`, on what the pipeline calls it with. -/
abbrev bodyAt12 (t : Fin (cfg12 a).N) : Prog (TpuEff nD τ sig (Elt F) Λ₀ .tc) PUnit :=
  cc12__gather_agg_matmul_kernel (grid12.coords t) tbM12 (Memref.isWhole_whole _) hbM12 (Memref.isWhole_whole _)
    (ms12_0 a t) (hs12_0 a t) (ms12_1 a t) (hs12_1 a t) scM12_0 (Memref.isWhole_whole _) scM12_1 (Memref.isWhole_whole _) cc12_scratch2

/-- What the body is called with at point `t`, the windows one by one, -/
def bodyPre12 (c : Dev nD) (t : Fin (cfg12 a).N) : sProp 𝕄 :=
  iprop((dat12 V a c).Φ t.castSucc ∗ (dat12 V a c).owesAt () t.castSucc
    ∗ (∃ d, owns (c : Thread nD τ) (ms12_0 a t) fullShare ((dat12 V a c).before 0 t d))
    ∗ (∃ d, owns (c : Thread nD τ) (ms12_1 a t) fullShare ((dat12 V a c).before 1 t d)))

/-- and what it returns: the output window as it was found where the point is idle for it, at the block's product
    at the last row of a block. -/
def bodyPost12 (c : Dev nD) (t : Fin (cfg12 a).N) : sProp 𝕄 :=
  iprop((dat12 V a c).Φ t.succ ∗ (dat12 V a c).owesAt () t.succ
    ∗ owns (c : Thread nD τ) (ms12_0 a t) fullShare ((dat12 V a c).after 0 t)
    ∗ (match (cfg12 a).idle 1 ((cfg12 a).grid.coords t) with
        | true =>
          match ((cfg12 a).win 1).flush t with
          | false => iprop(∃ d, owns (c : Thread nD τ) (ms12_1 a t) fullShare ((dat12 V a c).before 1 t d))
          | true => owns (c : Thread nD τ) (ms12_1 a t) fullShare ((dat12 V a c).after 1 t)
        | false => owns (c : Thread nD τ) (ms12_1 a t) fullShare ((dat12 V a c).after 1 t)))

/-- The body at any point. The weight window holds its block; the invariant hands the body its table, the feature
    array, both scratch buffers and its transfer cells, and takes them back with the carried scratch one row further
    (`rowsOK12_step`); at the last row of a block the product the body stores is the block's (`rowAt12_last`); the core's
    `owes` goes in at whatever the points before recorded and comes back with this point's waits. -/
theorem sound_body12 (hR : InRange12 a.1) (c : Dev nD) (t : Fin (cfg12 a).N) :
    bodyPre12 V a c t ⊢ wp frame (wpE (defs₀ (F := F)) Variants.none c none) Set.univ (bodyAt12 a t) (fun _ => bodyPost12 V a c t) := by
  unfold bodyPre12 bodyPost12 bodyAt12
  rw [flush12_1, idle12_1]
  simp only [before12_0]
  rw [after12_0, Phi12_eq, Phi12_eq, Fin.val_succ, Fin.coe_castSucc]
  unfold Dat.owesAt Pipeline.owesWithin
  rw [owed12_eq, owed12_eq]
  unfold Φ12
  rw [bodyFn12_eq]
  by_cases hl : t.val % 1000 = 999
  · -- the last row of a block
    rw [decide_eq_true hl, Bool.not_true]
    dsimp only
    rw [after12_1]
    unfold xBlk12
    iintro ⟨⟨Htb, Hhb, ⟨%g, %hg, Hs0⟩, Hs1, Hcells, Hreg, Hrest⟩, ⟨%W, -, HW⟩, ⟨%d0, H0⟩, ⟨%d1, H1⟩⟩
    rw [← rowAt12_last (tb12 a) (A12 V c) t hl g hg]
    iapply (run24_last c (grid12.coords t) tbM12 (Memref.isWhole_whole _) hbM12 (Memref.isWhole_whole _) (ms12_0 a t) (hs12_0 a t)
      (ms12_1 a t) (hs12_1 a t) scM12_0 (Memref.isWhole_whole _) scM12_1 (Memref.isWhole_whole _) cc12_scratch2
      ((cond12_iff t).2 hl) (tb12 a) hR (A12 V c) (iblk12 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK12_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k12_cond1 (grid12.coords t) ≠ 1#1 := fun e => hl ((cond12_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid12.coords t) tbM12 (Memref.isWhole_whole _) hbM12 (Memref.isWhole_whole _) (ms12_0 a t) (hs12_0 a t)
      (ms12_1 a t) (hs12_1 a t) scM12_0 (Memref.isWhole_whole _) scM12_1 (Memref.isWhole_whole _) cc12_scratch2
      hc (tb12 a) hR (A12 V c) (iblk12 V a c 0 t) g
      (owns (c : Thread nD τ) (ms12_1 a t) fullShare ((dat12 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK12_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation12 (hR : InRange12 a.1) (c : Dev nD) :
    BodyObligation (dat12 (F := F) V a c) (defs₀ (F := F)) Variants.none () Set.univ := fun t => by
  rw [bigSep_W12, bigSep_W12]
  exact sound_body12 V a hR c t

end Body

/-! ## The value: what the launch leaves in its output array -/

section Value
variable (V : (c : Dev nD) → (b : Ref sig .tc) → Buf (Elt F) ((c : Thread nD τ).loc b)) (a : (pcfg12 (F := F)).Adm)

/-- Entry `(r, l)` of a block of rows. -/
def cell12 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk12 (tb : Vec F S16x2000 .i32) (A0 : Vec F S100000x128 .f32) (Wt : Vec F S128x128 .f32) : Vec F S2000x128 .f32 :=
  fun y => xBlk12 tb A0 Wt ((y 0).val / 1000) (cell12 ((y 0).val % 1000) (Nat.mod_lt _ (by decide)) (y 1))

/-- The weight window's block is the whole weight, at every point: its block index is (0, 0). -/
theorem wblk12_eq (c : Dev nD) (t : Fin (cfg12 a).N) : iblk12 V a c 0 t = (V c main_arg1 : Vec F S128x128 .f32) := by
  funext x
  unfold iblk12
  rw [View.read_apply]
  refine (cast_eq _ _).trans (congrArg (V c main_arg1) (funext fun b => Fin.ext ?_))
  refine (((cfg12 a).win 0).rect_emb_val_of_index_zero t b ?_ x)
  match b with
  | ⟨0, _⟩ => rfl
  | ⟨1, _⟩ => rfl

/-- Where entry `x` of the output window's block at point `t` sits in the output array. -/
abbrev emb12 (t : Fin (cfg12 a).N) (x : S1000x128.Idx) : S2000x128.Idx := (((cfg12 a).win 1).blk t).view.emb x

theorem emb12_val (t : Fin (cfg12 a).N) (x : S1000x128.Idx) :
    (emb12 a t x 0).val = t.val / 1000 * 1000 + (x 0).val ∧ (emb12 a t x 1).val = (x 1).val := by
  have hix : ((cfg12 a).win 1).index t = ![t.val / 1000, 0] := idx12_1 t
  have e0 := ((cfg12 a).win 1).rect_emb_val t x (0 : Fin 2)
  have e1 := ((cfg12 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after12_chunk (c : Dev nD) (t : Fin (cfg12 a).N) (x : S1000x128.Idx) :
    (dat12 V a c).after 1 t x = xChunk12 (tb12 a) (A12 V c) (V c main_arg1) (emb12 a t x) := by
  obtain ⟨e0, e1⟩ := emb12_val a t x
  have hx0 : (x 0).val < 1000 := (x 0).isLt
  rw [after12_1, wblk12_eq]
  unfold xChunk12
  have hq : (emb12 a t x 0).val / 1000 = t.val / 1000 := by rw [e0]; omega
  have hcell : cell12 ((emb12 a t x 0).val % 1000) (Nat.mod_lt _ (by decide)) (emb12 a t x 1) = x := by
    funext b
    apply Fin.ext
    match b with
    | ⟨0, _⟩ =>
      show (emb12 a t x 0).val % 1000 = (x 0).val
      rw [e0]; omega
    | ⟨1, _⟩ => exact e1
  rw [hq, hcell]

/-- Two entries of the output array with the same coordinates are the same. -/
theorem idx12_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb12_cell (t : Fin (cfg12 a).N) (i : S2000x128.Idx) (ht : t.val / 1000 = (i 0).val / 1000) :
    emb12 a t (cell12 ((i 0).val % 1000) (Nat.mod_lt _ (by decide)) (i 1)) = i := by
  obtain ⟨e0, e1⟩ := emb12_val a t (cell12 ((i 0).val % 1000) (Nat.mod_lt _ (by decide)) (i 1))
  refine idx12_ext _ _ ?_ e1
  rw [e0, ht]
  show (i 0).val / 1000 * 1000 + (i 0).val % 1000 = (i 0).val
  omega

/-- Every entry of the output array lies in the block written back after the last row of its block of rows. -/
theorem cover12 (i : S2000x128.Idx) :
    ∃ t : Fin (cfg12 a).N, ((cfg12 a).win 1).flush t = true ∧ i ∈ (((cfg12 a).win 1).blk t).view.set := by
  have hi0 : (i 0).val < 2000 := (i 0).isLt
  have hN : (i 0).val / 1000 * 1000 + 999 < (cfg12 a).N := by rw [N12]; omega
  refine ⟨⟨(i 0).val / 1000 * 1000 + 999, hN⟩, ?_, ?_⟩
  · rw [flush12_1]; exact decide_eq_true (by show ((i 0).val / 1000 * 1000 + 999) % 1000 = 999; omega)
  · refine Finset.mem_map.mpr ⟨cell12 ((i 0).val % 1000) (Nat.mod_lt _ (by decide)) (i 1), Finset.mem_univ _, ?_⟩
    exact emb12_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out12 (c : Dev nD) :
    (dat12 V a c).arrAt 1 (cfg12 a).N = (xChunk12 (tb12 a) (A12 V c) (V c main_arg1) : Vec F S2000x128 .f32) :=
  (dat12 V a c).arrAt_eq_of_cover 1 _
    (fun t _ => funext fun x => (after12_chunk V a c t x).trans (cast_eq _ _).symm)
    (cover12 a)

end Value

/-! ## The invariant's two ends -/

section Ends
variable (V : (c : Dev nD) → (b : Ref sig .tc) → Buf (Elt F) ((c : Thread nD τ).loc b)) (a : (pcfg12 (F := F)).Adm)

/-- The body's own transfer cells as the launch's protocol lists them: the 16 cells of its semaphore operand. -/
def osem12 : Fin 16 → SemLoc sig := fun k => SemLoc.dma (cc12_scratch2.ix (Shape.ofLane k))
/-- They are scoped, distinct, and none is a window's. -/
theorem ownSemFacts12 : Pipeline.OwnSemFacts spec12 osem12 := by decide
/-- The cells at zero, listed, are the cells as the body names them. -/
theorem cells12_eq (c : Dev nD) :
    (Pipeline.ownSems0 (Ix := Unit) (Name := ℕ) (U := UC) (Lvl := ℕ) (Val := Elt F) (τ := τ) osem12 c : sProp 𝕄) = cells24 c cc12_scratch2 := by
  rw [Pipeline.ownSems0_eq_of_list c osem12 [0, 1, 2, 3, 4, 5, 6, 7, 8, 9, 10, 11, 12, 13, 14, 15] (by decide) (by decide)]; rfl

/-- The launch's one table, held. -/
theorem prefHeld12_eq (c : Dev nD) (pf : pre12.Contents (Elt F)) :
    (Pipeline.prefHeld pre12 c (fun _ => fullShare) pf : sProp 𝕄) = (((c : Thread nD τ).loc main_v25) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X12 (c : Dev nD) : sProp 𝕄 :=
  iprop((∃ r, prngReg c r) ∗ Pipeline.ownSems0 (Ix := Unit) (Name := ℕ) (U := UC) (Lvl := ℕ) (Val := Elt F) (τ := τ) osem12 c
    ∗ (((c : Thread nD τ).loc main_arg0) ↦{fullShare} V c main_arg0))
abbrev Y12 (c : Dev nD) : sProp 𝕄 :=
  iprop((∃ r, prngReg c r) ∗ (((c : Thread nD τ).loc main_arg0) ↦{fullShare} V c main_arg0)
    ∗ Pipeline.prefHeld pre12 c (fun _ => fullShare) a.1)

/-- THE FIRST POINT: the invariant from what the launch's entry sorts out. Nothing is asked of the carried scratch. -/
theorem Phi12_in (c : Dev nD) :
    iprop(X12 V c ∗ Pipeline.prefHeld pre12 c (fun _ => fullShare) a.1
        ∗ Pipeline.scopedRest (Ix := Unit) (Name := ℕ) (U := UC) (Lvl := ℕ) (Val := Elt F) spec12 c)
      ⊢ (dat12 V a c).Φ 0 := by
  rw [Phi12_eq]
  unfold Φ12 X12
  rw [scopedRest12_split, prefHeld12_eq, cells12_eq]
  simp only [tbM12, hbM12, scM12_0, scM12_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK12_start _ _ _ rfl _
  isplitl [Hs1]; · iexact Hs1
  isplitl [Hcells]; · iexact Hcells
  isplitl [Hreg]; · iexact Hreg
  iexact Hrest

/-- THE LAST POINT: the invariant gives back what it took. -/
theorem Phi12_out (c : Dev nD) :
    (dat12 V a c).Φ (Fin.last _)
      ⊢ iprop(Y12 V a c ∗ Pipeline.ownSems0 (Ix := Unit) (Name := ℕ) (U := UC) (Lvl := ℕ) (Val := Elt F) (τ := τ) osem12 c
        ∗ Pipeline.scopedRest (Ix := Unit) (Name := ℕ) (U := UC) (Lvl := ℕ) (Val := Elt F) spec12 c) := by
  rw [Phi12_eq]
  unfold Φ12 Y12
  rw [scopedRest12_split, prefHeld12_eq, cells12_eq]
  simp only [tbM12, hbM12, scM12_0, scM12_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G13Dat.lean ====
/-
  One of the program's 25 gather launches (pipeline 13; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N13 (a : (pcfg13 (F := F)).Adm) : (cfg13 a).N = 2000 := N_13

/-- The body's branch is taken at the last row of a block of rows, -/
theorem cond13_iff : ∀ t : Fin grid13.N, k13_cond1 (grid13.coords t) = 1#1 ↔ t.val % 1000 = 999 := by decide +kernel
/-- the row a point works on is its number modulo 1000, -/
theorem rowAt13_coord : ∀ t : Fin grid13.N, (grid13.coords t 1).val = t.val % 1000 := by decide +kernel
/-- its block of rows is its number divided by 1000, -/
theorem blockAt13_coord : ∀ t : Fin grid13.N, (grid13.coords t 0).val = t.val / 1000 := by decide +kernel
/-- and the output's block index moves after exactly those points (and the grid ends at one). -/
theorem flushB13 : ∀ t : Fin grid13.N,
    (decide (t.val + 1 = grid13.N) || decide (∃ h : t.val + 1 < grid13.N, cc13_transform_2 (grid13.coords ⟨t.val + 1, h⟩) ≠ cc13_transform_2 (grid13.coords t)))
      = decide (t.val % 1000 = 999) := by decide +kernel

/-- The output's block index at a point: the point's block of rows. -/
theorem idx13_1 : ∀ t : Fin grid13.N, cc13_transform_2 (grid13.coords t) = ![t.val / 1000, 0] := by decide +kernel

/-- Every word of the launch's table names a row of the feature array. -/
def InRange13 (pf : pre13.Contents (Elt F)) : Prop := ∀ x : S16x2000.Idx, ((pf 0 : Vec F S16x2000 .i32) x).toNat < 100000

/-! ## The values -/

/-- Lane `l` of a one-row vector. -/
def lane13 (l : Fin 128) : S1x128.Idx := fun a => ⟨if a.val = 0 then 0 else l.val, by
  match a with
  | ⟨0, _⟩ => exact Nat.one_pos
  | ⟨1, _⟩ => exact l.isLt⟩

theorem lane13_one (l : Fin 128) : (lane13 l 1).val = l.val := rfl

/-- The grid point of row `r` of block `q` (total: the point number is taken modulo the grid's size). -/
def pt13 (q : ℕ) (r : ℕ) : Fin grid13.N := ⟨(q * 1000 + r) % grid13.N, Nat.mod_lt _ (by decide)⟩

/-- Inside the grid the point's number is `1000 q + r`. -/
theorem pt13_val (q r : ℕ) (hq : q < 2) (hr : r < 1000) : (pt13 q r).val = q * 1000 + r := by
  show (q * 1000 + r) % grid13.N = q * 1000 + r
  rw [N_13]; omega

/-- A point is the point of its block and row. -/
theorem pt13_self (t : Fin grid13.N) : pt13 (t.val / 1000) (t.val % 1000) = t := by
  apply Fin.ext
  show (t.val / 1000 * 1000 + t.val % 1000) % grid13.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means13 (tb : Vec F S16x2000 .i32) (A0 : Vec F S100000x128 .f32) (q : ℕ) : Vec F S1000x128 .f32 :=
  fun x => Gen.k24_pay1 (gath24 (grid13.coords (pt13 q (x 0).val)) tb A0) (lane13 (x 1))

/-- What the body stores in the output window at the last row of block `q`: the means, rounded, times the weight, rounded. -/
def xBlk13 (tb : Vec F S16x2000 .i32) (A0 : Vec F S100000x128 .f32) (Wt : Vec F S128x128 .f32) (q : ℕ) : Vec F S1000x128 .f32 :=
  Gen.k24_pay2 (means13 tb A0 q) Wt

/-- The carried scratch before point `n`: its rows below `n % 1000` are the means of block `n / 1000`. -/
def RowsOK13 (tb : Vec F S16x2000 .i32) (A0 : Vec F S100000x128 .f32) (n : ℕ) (g : Vec F S1000x128 .f32) : Prop :=
  ∀ x : S1000x128.Idx, (x 0).val < n % 1000 → g x = means13 tb A0 (n / 1000) x

/-- At the first row of a block nothing is asked. -/
theorem rowsOK13_start (tb : Vec F S16x2000 .i32) (A0 : Vec F S100000x128 .f32) (n : ℕ) (hn : n % 1000 = 0) (g : Vec F S1000x128 .f32) :
    RowsOK13 tb A0 n g := fun x hx => absurd hx (by omega)

/-- One point's row store keeps the invariant's rows and adds its own: after the store at point `t` the rows up to
    `t % 1000` are means. -/
theorem rowAt13_means (tb : Vec F S16x2000 .i32) (A0 : Vec F S100000x128 .f32) (t : Fin grid13.N) (g : Vec F S1000x128 .f32)
    (hg : RowsOK13 tb A0 t.val g) (x : S1000x128.Idx) (hx : (x 0).val ≤ t.val % 1000) :
    row24 (grid13.coords t) tb A0 g x = means13 tb A0 (t.val / 1000) x := by
  by_cases h : (x 0).val = t.val % 1000
  · rw [row24_of_eq (grid13.coords t) tb A0 g x (by rw [rowAt13_coord]; exact h) (lane13 (x 1)) rfl]
    unfold means13
    rw [h, pt13_self]
  · rw [row24_of_ne (grid13.coords t) tb A0 g x (by rw [rowAt13_coord]; exact h)]
    exact hg x (by omega)

/-- Within a block the invariant steps. -/
theorem rowsOK13_step (tb : Vec F S16x2000 .i32) (A0 : Vec F S100000x128 .f32) (t : Fin grid13.N) (g : Vec F S1000x128 .f32)
    (hg : RowsOK13 tb A0 t.val g) : RowsOK13 tb A0 (t.val + 1) (row24 (grid13.coords t) tb A0 g) := by
  by_cases hl : t.val % 1000 = 999
  · exact rowsOK13_start _ _ _ (by omega) _
  · intro x hx
    have h1 : (t.val + 1) / 1000 = t.val / 1000 := by omega
    rw [h1]
    exact rowAt13_means tb A0 t g hg x (by omega)

/-- At the last row of a block the scratch, after the row store, is the block's means whatever it held before. -/
theorem rowAt13_last (tb : Vec F S16x2000 .i32) (A0 : Vec F S100000x128 .f32) (t : Fin grid13.N) (hl : t.val % 1000 = 999)
    (g : Vec F S1000x128 .f32) (hg : RowsOK13 tb A0 t.val g) :
    row24 (grid13.coords t) tb A0 g = means13 tb A0 (t.val / 1000) :=
  funext fun x => rowAt13_means tb A0 t g hg x (by have : (x 0).val < 1000 := (x 0).isLt; omega)

/-! ## The invariant -/

/-- The launch's operands that no window stages, as the body is handed them: its table, the feature array left in
    HBM, and its two scratch buffers — whole buffers. -/
abbrev tbM13 : Memref sig .tc .smem S16x2000 .i32 := Memref.whole main_v27
abbrev hbM13 : Memref sig .tc .hbm S100000x128 .f32 := Memref.whole main_arg0
abbrev scM13_0 : Memref sig .tc .vmem S1000x128 .f32 := Memref.whole cc13_scratch0
abbrev scM13_1 : Memref sig .tc .vmem S16x128 .f32 := Memref.whole cc13_scratch1

section Region
-- the TensorCore's buffer contents when the launch is entered, and the launch's table
variable (V : (c : Dev nD) → (b : Ref sig .tc) → Buf (Elt F) ((c : Thread nD τ).loc b)) (a : (pcfg13 (F := F)).Adm)

/-- The table and the feature array, as vectors. -/
abbrev tb13 : Vec F S16x2000 .i32 := a.1 0
abbrev A13 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ13 (c : Dev nD) (n : ℕ) : sProp 𝕄 :=
  iprop(owns (c : Thread nD τ) tbM13 fullShare (tb13 a)
    ∗ owns (c : Thread nD τ) hbM13 fullShare (A13 V c)
    ∗ (∃ g : Vec F S1000x128 .f32, ⌜RowsOK13 (tb13 a) (A13 V c) n g⌝ ∗ owns (c : Thread nD τ) scM13_0 fullShare g)
    ∗ (∃ d, owns (c : Thread nD τ) scM13_1 fullShare d)
    ∗ cells24 c cc13_scratch2
    ∗ (∃ r, prngReg c r)
    ∗ Pipeline.scopedRestBut (Ix := Unit) (Name := ℕ) (U := UC) (Lvl := ℕ) (Val := Elt F) spec13 c [cc13_scratch0, cc13_scratch1])

/-! ## The windows' blocks and the proof data -/

/-- Window `w`'s block at point `t`, read off its array as the launch finds it. -/
def iblk13 (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- The proof data of the launch on core `c`: the arrays as the launch finds them; after the body at point `t` the
    weight window at its block and the output window at the product for `t`'s block of rows (read only at the block's
    last row, where the body stores it); the invariant above; nothing owed; full shares. -/
def dat13 (c : Dev nD) : Dat τ (Elt F) Unit ℕ UC ℕ (cfg13 a) c where
  A w := V c (Pipeline.arrRef spec13 w)
  after w t := match w with
    | ⟨0, _⟩ => iblk13 V a c 0 t
    | ⟨1, _⟩ => xBlk13 (tb13 a) (A13 V c) (iblk13 V a c 0 t) (t.val / 1000)
  Φ n := Φ13 V a c n.val
  q _ := fullShare
  owed _ := 0

/-- The proof data's arrays are the entry contents. -/
theorem A_eq13 (c : Dev nD) (w : Fin (cfg13 a).W) : (dat13 V a c).A w = V c (Pipeline.arrRef spec13 w) := by
  dsimp only [dat13]

/-- What the body leaves, window by window. -/
theorem after13_0 (c : Dev nD) (t : Fin (cfg13 a).N) : (dat13 V a c).after 0 t = iblk13 V a c 0 t := by dsimp only [dat13]; rfl
theorem after13_1 (c : Dev nD) (t : Fin (cfg13 a).N) :
    (dat13 V a c).after 1 t = xBlk13 (tb13 a) (A13 V c) (iblk13 V a c 0 t) (t.val / 1000) := by dsimp only [dat13]; rfl

/-- The invariant and the tallies, at a point. -/
theorem Phi13_eq (c : Dev nD) (n : Fin ((cfg13 a).N + 1)) : (dat13 V a c).Φ n = Φ13 V a c n.val := by dsimp only [dat13]
theorem owed13_eq (c : Dev nD) (n : Fin ((cfg13 a).N + 1)) : (dat13 V a c).owed n = 0 := by dsimp only [dat13]

/-- The weight window holds its block at every point, fetched there or not: its block index never moves. -/
theorem before13_0 (c : Dev nD) (t : Fin (cfg13 a).N) (d) : (dat13 V a c).before 0 t d = iblk13 V a c 0 t :=
  ((dat13 V a c).before_in_eq_fetched 0 rfl (fun _ => rfl) (fun _ _ _ => rfl)
      (fun t => by rw [after13_0]; unfold Dat.blockOf iblk13; rw [A_eq13]; try rfl) t d).trans
    (by unfold Dat.fetched Dat.blockOf iblk13; rw [A_eq13]; try rfl)

/-- The output window is written back after the last row of each block of rows, and only there; -/
theorem flush13_1 (t : Fin (cfg13 a).N) : ((cfg13 a).win 1).flush t = decide (t.val % 1000 = 999) := by
  unfold Window.flush
  exact flushB13 t
/-- and it is idle at every other row. -/
theorem idle13_1 (t : Fin (cfg13 a).N) : (cfg13 a).idle 1 ((cfg13 a).grid.coords t) = !decide (t.val % 1000 = 999) := by
  show (!(k13_cond1 (grid13.coords t) == 1#1)) = _
  congr 1
  by_cases h : t.val % 1000 = 999
  · rw [decide_eq_true h, (cond13_iff t).2 h]; rfl
  · rw [decide_eq_false h]
    exact beq_false_of_ne fun e => h ((cond13_iff t).1 e)

end Region

/-! ## The body obligation -/

section Body
variable (V : (c : Dev nD) → (b : Ref sig .tc) → Buf (Elt F) ((c : Thread nD τ).loc b)) (a : (pcfg13 (F := F)).Adm)

/-- Each window's current staging memref at point `t`, spelled as the pipeline passes it, and its wholeness. -/
abbrev ms13_0 (t : Fin (cfg13 a).N) : Memref sig .tc .vmem S128x128 .f32 := spec13_0.stage ((cfg13 a).slots t 0)
abbrev hs13_0 (t : Fin (cfg13 a).N) : (ms13_0 a t).IsWhole := hstage13_0 (((cfg13 a).slots t 0).cast nbuf13_0)
abbrev ms13_1 (t : Fin (cfg13 a).N) : Memref sig .tc .vmem S1000x128 .f32 := spec13_1.stage ((cfg13 a).slots t 1)
abbrev hs13_1 (t : Fin (cfg13 a).N) : (ms13_1 a t).IsWhole := hstage13_1 (((cfg13 a).slots t 1).cast nbuf13_1)

/-- The launch's body function, under the name the runs are stated at. -/
theorem bodyFn13_eq : cc13__gather_agg_matmul_kernel (F := F) = gatherFn := rfl

/-- The kernel body at point `t`, on what the pipeline calls it with. -/
abbrev bodyAt13 (t : Fin (cfg13 a).N) : Prog (TpuEff nD τ sig (Elt F) Λ₀ .tc) PUnit :=
  cc13__gather_agg_matmul_kernel (grid13.coords t) tbM13 (Memref.isWhole_whole _) hbM13 (Memref.isWhole_whole _)
    (ms13_0 a t) (hs13_0 a t) (ms13_1 a t) (hs13_1 a t) scM13_0 (Memref.isWhole_whole _) scM13_1 (Memref.isWhole_whole _) cc13_scratch2

/-- What the body is called with at point `t`, the windows one by one, -/
def bodyPre13 (c : Dev nD) (t : Fin (cfg13 a).N) : sProp 𝕄 :=
  iprop((dat13 V a c).Φ t.castSucc ∗ (dat13 V a c).owesAt () t.castSucc
    ∗ (∃ d, owns (c : Thread nD τ) (ms13_0 a t) fullShare ((dat13 V a c).before 0 t d))
    ∗ (∃ d, owns (c : Thread nD τ) (ms13_1 a t) fullShare ((dat13 V a c).before 1 t d)))

/-- and what it returns: the output window as it was found where the point is idle for it, at the block's product
    at the last row of a block. -/
def bodyPost13 (c : Dev nD) (t : Fin (cfg13 a).N) : sProp 𝕄 :=
  iprop((dat13 V a c).Φ t.succ ∗ (dat13 V a c).owesAt () t.succ
    ∗ owns (c : Thread nD τ) (ms13_0 a t) fullShare ((dat13 V a c).after 0 t)
    ∗ (match (cfg13 a).idle 1 ((cfg13 a).grid.coords t) with
        | true =>
          match ((cfg13 a).win 1).flush t with
          | false => iprop(∃ d, owns (c : Thread nD τ) (ms13_1 a t) fullShare ((dat13 V a c).before 1 t d))
          | true => owns (c : Thread nD τ) (ms13_1 a t) fullShare ((dat13 V a c).after 1 t)
        | false => owns (c : Thread nD τ) (ms13_1 a t) fullShare ((dat13 V a c).after 1 t)))

/-- The body at any point. The weight window holds its block; the invariant hands the body its table, the feature
    array, both scratch buffers and its transfer cells, and takes them back with the carried scratch one row further
    (`rowsOK13_step`); at the last row of a block the product the body stores is the block's (`rowAt13_last`); the core's
    `owes` goes in at whatever the points before recorded and comes back with this point's waits. -/
theorem sound_body13 (hR : InRange13 a.1) (c : Dev nD) (t : Fin (cfg13 a).N) :
    bodyPre13 V a c t ⊢ wp frame (wpE (defs₀ (F := F)) Variants.none c none) Set.univ (bodyAt13 a t) (fun _ => bodyPost13 V a c t) := by
  unfold bodyPre13 bodyPost13 bodyAt13
  rw [flush13_1, idle13_1]
  simp only [before13_0]
  rw [after13_0, Phi13_eq, Phi13_eq, Fin.val_succ, Fin.coe_castSucc]
  unfold Dat.owesAt Pipeline.owesWithin
  rw [owed13_eq, owed13_eq]
  unfold Φ13
  rw [bodyFn13_eq]
  by_cases hl : t.val % 1000 = 999
  · -- the last row of a block
    rw [decide_eq_true hl, Bool.not_true]
    dsimp only
    rw [after13_1]
    unfold xBlk13
    iintro ⟨⟨Htb, Hhb, ⟨%g, %hg, Hs0⟩, Hs1, Hcells, Hreg, Hrest⟩, ⟨%W, -, HW⟩, ⟨%d0, H0⟩, ⟨%d1, H1⟩⟩
    rw [← rowAt13_last (tb13 a) (A13 V c) t hl g hg]
    iapply (run24_last c (grid13.coords t) tbM13 (Memref.isWhole_whole _) hbM13 (Memref.isWhole_whole _) (ms13_0 a t) (hs13_0 a t)
      (ms13_1 a t) (hs13_1 a t) scM13_0 (Memref.isWhole_whole _) scM13_1 (Memref.isWhole_whole _) cc13_scratch2
      ((cond13_iff t).2 hl) (tb13 a) hR (A13 V c) (iblk13 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK13_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k13_cond1 (grid13.coords t) ≠ 1#1 := fun e => hl ((cond13_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid13.coords t) tbM13 (Memref.isWhole_whole _) hbM13 (Memref.isWhole_whole _) (ms13_0 a t) (hs13_0 a t)
      (ms13_1 a t) (hs13_1 a t) scM13_0 (Memref.isWhole_whole _) scM13_1 (Memref.isWhole_whole _) cc13_scratch2
      hc (tb13 a) hR (A13 V c) (iblk13 V a c 0 t) g
      (owns (c : Thread nD τ) (ms13_1 a t) fullShare ((dat13 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK13_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation13 (hR : InRange13 a.1) (c : Dev nD) :
    BodyObligation (dat13 (F := F) V a c) (defs₀ (F := F)) Variants.none () Set.univ := fun t => by
  rw [bigSep_W13, bigSep_W13]
  exact sound_body13 V a hR c t

end Body

/-! ## The value: what the launch leaves in its output array -/

section Value
variable (V : (c : Dev nD) → (b : Ref sig .tc) → Buf (Elt F) ((c : Thread nD τ).loc b)) (a : (pcfg13 (F := F)).Adm)

/-- Entry `(r, l)` of a block of rows. -/
def cell13 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk13 (tb : Vec F S16x2000 .i32) (A0 : Vec F S100000x128 .f32) (Wt : Vec F S128x128 .f32) : Vec F S2000x128 .f32 :=
  fun y => xBlk13 tb A0 Wt ((y 0).val / 1000) (cell13 ((y 0).val % 1000) (Nat.mod_lt _ (by decide)) (y 1))

/-- The weight window's block is the whole weight, at every point: its block index is (0, 0). -/
theorem wblk13_eq (c : Dev nD) (t : Fin (cfg13 a).N) : iblk13 V a c 0 t = (V c main_arg1 : Vec F S128x128 .f32) := by
  funext x
  unfold iblk13
  rw [View.read_apply]
  refine (cast_eq _ _).trans (congrArg (V c main_arg1) (funext fun b => Fin.ext ?_))
  refine (((cfg13 a).win 0).rect_emb_val_of_index_zero t b ?_ x)
  match b with
  | ⟨0, _⟩ => rfl
  | ⟨1, _⟩ => rfl

/-- Where entry `x` of the output window's block at point `t` sits in the output array. -/
abbrev emb13 (t : Fin (cfg13 a).N) (x : S1000x128.Idx) : S2000x128.Idx := (((cfg13 a).win 1).blk t).view.emb x

theorem emb13_val (t : Fin (cfg13 a).N) (x : S1000x128.Idx) :
    (emb13 a t x 0).val = t.val / 1000 * 1000 + (x 0).val ∧ (emb13 a t x 1).val = (x 1).val := by
  have hix : ((cfg13 a).win 1).index t = ![t.val / 1000, 0] := idx13_1 t
  have e0 := ((cfg13 a).win 1).rect_emb_val t x (0 : Fin 2)
  have e1 := ((cfg13 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after13_chunk (c : Dev nD) (t : Fin (cfg13 a).N) (x : S1000x128.Idx) :
    (dat13 V a c).after 1 t x = xChunk13 (tb13 a) (A13 V c) (V c main_arg1) (emb13 a t x) := by
  obtain ⟨e0, e1⟩ := emb13_val a t x
  have hx0 : (x 0).val < 1000 := (x 0).isLt
  rw [after13_1, wblk13_eq]
  unfold xChunk13
  have hq : (emb13 a t x 0).val / 1000 = t.val / 1000 := by rw [e0]; omega
  have hcell : cell13 ((emb13 a t x 0).val % 1000) (Nat.mod_lt _ (by decide)) (emb13 a t x 1) = x := by
    funext b
    apply Fin.ext
    match b with
    | ⟨0, _⟩ =>
      show (emb13 a t x 0).val % 1000 = (x 0).val
      rw [e0]; omega
    | ⟨1, _⟩ => exact e1
  rw [hq, hcell]

/-- Two entries of the output array with the same coordinates are the same. -/
theorem idx13_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb13_cell (t : Fin (cfg13 a).N) (i : S2000x128.Idx) (ht : t.val / 1000 = (i 0).val / 1000) :
    emb13 a t (cell13 ((i 0).val % 1000) (Nat.mod_lt _ (by decide)) (i 1)) = i := by
  obtain ⟨e0, e1⟩ := emb13_val a t (cell13 ((i 0).val % 1000) (Nat.mod_lt _ (by decide)) (i 1))
  refine idx13_ext _ _ ?_ e1
  rw [e0, ht]
  show (i 0).val / 1000 * 1000 + (i 0).val % 1000 = (i 0).val
  omega

/-- Every entry of the output array lies in the block written back after the last row of its block of rows. -/
theorem cover13 (i : S2000x128.Idx) :
    ∃ t : Fin (cfg13 a).N, ((cfg13 a).win 1).flush t = true ∧ i ∈ (((cfg13 a).win 1).blk t).view.set := by
  have hi0 : (i 0).val < 2000 := (i 0).isLt
  have hN : (i 0).val / 1000 * 1000 + 999 < (cfg13 a).N := by rw [N13]; omega
  refine ⟨⟨(i 0).val / 1000 * 1000 + 999, hN⟩, ?_, ?_⟩
  · rw [flush13_1]; exact decide_eq_true (by show ((i 0).val / 1000 * 1000 + 999) % 1000 = 999; omega)
  · refine Finset.mem_map.mpr ⟨cell13 ((i 0).val % 1000) (Nat.mod_lt _ (by decide)) (i 1), Finset.mem_univ _, ?_⟩
    exact emb13_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out13 (c : Dev nD) :
    (dat13 V a c).arrAt 1 (cfg13 a).N = (xChunk13 (tb13 a) (A13 V c) (V c main_arg1) : Vec F S2000x128 .f32) :=
  (dat13 V a c).arrAt_eq_of_cover 1 _
    (fun t _ => funext fun x => (after13_chunk V a c t x).trans (cast_eq _ _).symm)
    (cover13 a)

end Value

/-! ## The invariant's two ends -/

section Ends
variable (V : (c : Dev nD) → (b : Ref sig .tc) → Buf (Elt F) ((c : Thread nD τ).loc b)) (a : (pcfg13 (F := F)).Adm)

/-- The body's own transfer cells as the launch's protocol lists them: the 16 cells of its semaphore operand. -/
def osem13 : Fin 16 → SemLoc sig := fun k => SemLoc.dma (cc13_scratch2.ix (Shape.ofLane k))
/-- They are scoped, distinct, and none is a window's. -/
theorem ownSemFacts13 : Pipeline.OwnSemFacts spec13 osem13 := by decide
/-- The cells at zero, listed, are the cells as the body names them. -/
theorem cells13_eq (c : Dev nD) :
    (Pipeline.ownSems0 (Ix := Unit) (Name := ℕ) (U := UC) (Lvl := ℕ) (Val := Elt F) (τ := τ) osem13 c : sProp 𝕄) = cells24 c cc13_scratch2 := by
  rw [Pipeline.ownSems0_eq_of_list c osem13 [0, 1, 2, 3, 4, 5, 6, 7, 8, 9, 10, 11, 12, 13, 14, 15] (by decide) (by decide)]; rfl

/-- The launch's one table, held. -/
theorem prefHeld13_eq (c : Dev nD) (pf : pre13.Contents (Elt F)) :
    (Pipeline.prefHeld pre13 c (fun _ => fullShare) pf : sProp 𝕄) = (((c : Thread nD τ).loc main_v27) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X13 (c : Dev nD) : sProp 𝕄 :=
  iprop((∃ r, prngReg c r) ∗ Pipeline.ownSems0 (Ix := Unit) (Name := ℕ) (U := UC) (Lvl := ℕ) (Val := Elt F) (τ := τ) osem13 c
    ∗ (((c : Thread nD τ).loc main_arg0) ↦{fullShare} V c main_arg0))
abbrev Y13 (c : Dev nD) : sProp 𝕄 :=
  iprop((∃ r, prngReg c r) ∗ (((c : Thread nD τ).loc main_arg0) ↦{fullShare} V c main_arg0)
    ∗ Pipeline.prefHeld pre13 c (fun _ => fullShare) a.1)

/-- THE FIRST POINT: the invariant from what the launch's entry sorts out. Nothing is asked of the carried scratch. -/
theorem Phi13_in (c : Dev nD) :
    iprop(X13 V c ∗ Pipeline.prefHeld pre13 c (fun _ => fullShare) a.1
        ∗ Pipeline.scopedRest (Ix := Unit) (Name := ℕ) (U := UC) (Lvl := ℕ) (Val := Elt F) spec13 c)
      ⊢ (dat13 V a c).Φ 0 := by
  rw [Phi13_eq]
  unfold Φ13 X13
  rw [scopedRest13_split, prefHeld13_eq, cells13_eq]
  simp only [tbM13, hbM13, scM13_0, scM13_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK13_start _ _ _ rfl _
  isplitl [Hs1]; · iexact Hs1
  isplitl [Hcells]; · iexact Hcells
  isplitl [Hreg]; · iexact Hreg
  iexact Hrest

/-- THE LAST POINT: the invariant gives back what it took. -/
theorem Phi13_out (c : Dev nD) :
    (dat13 V a c).Φ (Fin.last _)
      ⊢ iprop(Y13 V a c ∗ Pipeline.ownSems0 (Ix := Unit) (Name := ℕ) (U := UC) (Lvl := ℕ) (Val := Elt F) (τ := τ) osem13 c
        ∗ Pipeline.scopedRest (Ix := Unit) (Name := ℕ) (U := UC) (Lvl := ℕ) (Val := Elt F) spec13 c) := by
  rw [Phi13_eq]
  unfold Φ13 Y13
  rw [scopedRest13_split, prefHeld13_eq, cells13_eq]
  simp only [tbM13, hbM13, scM13_0, scM13_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G14Dat.lean ====
/-
  One of the program's 25 gather launches (pipeline 14; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N14 (a : (pcfg14 (F := F)).Adm) : (cfg14 a).N = 2000 := N_14

/-- The body's branch is taken at the last row of a block of rows, -/
theorem cond14_iff : ∀ t : Fin grid14.N, k14_cond1 (grid14.coords t) = 1#1 ↔ t.val % 1000 = 999 := by decide +kernel
/-- the row a point works on is its number modulo 1000, -/
theorem rowAt14_coord : ∀ t : Fin grid14.N, (grid14.coords t 1).val = t.val % 1000 := by decide +kernel
/-- its block of rows is its number divided by 1000, -/
theorem blockAt14_coord : ∀ t : Fin grid14.N, (grid14.coords t 0).val = t.val / 1000 := by decide +kernel
/-- and the output's block index moves after exactly those points (and the grid ends at one). -/
theorem flushB14 : ∀ t : Fin grid14.N,
    (decide (t.val + 1 = grid14.N) || decide (∃ h : t.val + 1 < grid14.N, cc14_transform_2 (grid14.coords ⟨t.val + 1, h⟩) ≠ cc14_transform_2 (grid14.coords t)))
      = decide (t.val % 1000 = 999) := by decide +kernel

/-- The output's block index at a point: the point's block of rows. -/
theorem idx14_1 : ∀ t : Fin grid14.N, cc14_transform_2 (grid14.coords t) = ![t.val / 1000, 0] := by decide +kernel

/-- Every word of the launch's table names a row of the feature array. -/
def InRange14 (pf : pre14.Contents (Elt F)) : Prop := ∀ x : S16x2000.Idx, ((pf 0 : Vec F S16x2000 .i32) x).toNat < 100000

/-! ## The values -/

/-- Lane `l` of a one-row vector. -/
def lane14 (l : Fin 128) : S1x128.Idx := fun a => ⟨if a.val = 0 then 0 else l.val, by
  match a with
  | ⟨0, _⟩ => exact Nat.one_pos
  | ⟨1, _⟩ => exact l.isLt⟩

theorem lane14_one (l : Fin 128) : (lane14 l 1).val = l.val := rfl

/-- The grid point of row `r` of block `q` (total: the point number is taken modulo the grid's size). -/
def pt14 (q : ℕ) (r : ℕ) : Fin grid14.N := ⟨(q * 1000 + r) % grid14.N, Nat.mod_lt _ (by decide)⟩

/-- Inside the grid the point's number is `1000 q + r`. -/
theorem pt14_val (q r : ℕ) (hq : q < 2) (hr : r < 1000) : (pt14 q r).val = q * 1000 + r := by
  show (q * 1000 + r) % grid14.N = q * 1000 + r
  rw [N_14]; omega

/-- A point is the point of its block and row. -/
theorem pt14_self (t : Fin grid14.N) : pt14 (t.val / 1000) (t.val % 1000) = t := by
  apply Fin.ext
  show (t.val / 1000 * 1000 + t.val % 1000) % grid14.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means14 (tb : Vec F S16x2000 .i32) (A0 : Vec F S100000x128 .f32) (q : ℕ) : Vec F S1000x128 .f32 :=
  fun x => Gen.k24_pay1 (gath24 (grid14.coords (pt14 q (x 0).val)) tb A0) (lane14 (x 1))

/-- What the body stores in the output window at the last row of block `q`: the means, rounded, times the weight, rounded. -/
def xBlk14 (tb : Vec F S16x2000 .i32) (A0 : Vec F S100000x128 .f32) (Wt : Vec F S128x128 .f32) (q : ℕ) : Vec F S1000x128 .f32 :=
  Gen.k24_pay2 (means14 tb A0 q) Wt

/-- The carried scratch before point `n`: its rows below `n % 1000` are the means of block `n / 1000`. -/
def RowsOK14 (tb : Vec F S16x2000 .i32) (A0 : Vec F S100000x128 .f32) (n : ℕ) (g : Vec F S1000x128 .f32) : Prop :=
  ∀ x : S1000x128.Idx, (x 0).val < n % 1000 → g x = means14 tb A0 (n / 1000) x

/-- At the first row of a block nothing is asked. -/
theorem rowsOK14_start (tb : Vec F S16x2000 .i32) (A0 : Vec F S100000x128 .f32) (n : ℕ) (hn : n % 1000 = 0) (g : Vec F S1000x128 .f32) :
    RowsOK14 tb A0 n g := fun x hx => absurd hx (by omega)

/-- One point's row store keeps the invariant's rows and adds its own: after the store at point `t` the rows up to
    `t % 1000` are means. -/
theorem rowAt14_means (tb : Vec F S16x2000 .i32) (A0 : Vec F S100000x128 .f32) (t : Fin grid14.N) (g : Vec F S1000x128 .f32)
    (hg : RowsOK14 tb A0 t.val g) (x : S1000x128.Idx) (hx : (x 0).val ≤ t.val % 1000) :
    row24 (grid14.coords t) tb A0 g x = means14 tb A0 (t.val / 1000) x := by
  by_cases h : (x 0).val = t.val % 1000
  · rw [row24_of_eq (grid14.coords t) tb A0 g x (by rw [rowAt14_coord]; exact h) (lane14 (x 1)) rfl]
    unfold means14
    rw [h, pt14_self]
  · rw [row24_of_ne (grid14.coords t) tb A0 g x (by rw [rowAt14_coord]; exact h)]
    exact hg x (by omega)

/-- Within a block the invariant steps. -/
theorem rowsOK14_step (tb : Vec F S16x2000 .i32) (A0 : Vec F S100000x128 .f32) (t : Fin grid14.N) (g : Vec F S1000x128 .f32)
    (hg : RowsOK14 tb A0 t.val g) : RowsOK14 tb A0 (t.val + 1) (row24 (grid14.coords t) tb A0 g) := by
  by_cases hl : t.val % 1000 = 999
  · exact rowsOK14_start _ _ _ (by omega) _
  · intro x hx
    have h1 : (t.val + 1) / 1000 = t.val / 1000 := by omega
    rw [h1]
    exact rowAt14_means tb A0 t g hg x (by omega)

/-- At the last row of a block the scratch, after the row store, is the block's means whatever it held before. -/
theorem rowAt14_last (tb : Vec F S16x2000 .i32) (A0 : Vec F S100000x128 .f32) (t : Fin grid14.N) (hl : t.val % 1000 = 999)
    (g : Vec F S1000x128 .f32) (hg : RowsOK14 tb A0 t.val g) :
    row24 (grid14.coords t) tb A0 g = means14 tb A0 (t.val / 1000) :=
  funext fun x => rowAt14_means tb A0 t g hg x (by have : (x 0).val < 1000 := (x 0).isLt; omega)

/-! ## The invariant -/

/-- The launch's operands that no window stages, as the body is handed them: its table, the feature array left in
    HBM, and its two scratch buffers — whole buffers. -/
abbrev tbM14 : Memref sig .tc .smem S16x2000 .i32 := Memref.whole main_v29
abbrev hbM14 : Memref sig .tc .hbm S100000x128 .f32 := Memref.whole main_arg0
abbrev scM14_0 : Memref sig .tc .vmem S1000x128 .f32 := Memref.whole cc14_scratch0
abbrev scM14_1 : Memref sig .tc .vmem S16x128 .f32 := Memref.whole cc14_scratch1

section Region
-- the TensorCore's buffer contents when the launch is entered, and the launch's table
variable (V : (c : Dev nD) → (b : Ref sig .tc) → Buf (Elt F) ((c : Thread nD τ).loc b)) (a : (pcfg14 (F := F)).Adm)

/-- The table and the feature array, as vectors. -/
abbrev tb14 : Vec F S16x2000 .i32 := a.1 0
abbrev A14 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ14 (c : Dev nD) (n : ℕ) : sProp 𝕄 :=
  iprop(owns (c : Thread nD τ) tbM14 fullShare (tb14 a)
    ∗ owns (c : Thread nD τ) hbM14 fullShare (A14 V c)
    ∗ (∃ g : Vec F S1000x128 .f32, ⌜RowsOK14 (tb14 a) (A14 V c) n g⌝ ∗ owns (c : Thread nD τ) scM14_0 fullShare g)
    ∗ (∃ d, owns (c : Thread nD τ) scM14_1 fullShare d)
    ∗ cells24 c cc14_scratch2
    ∗ (∃ r, prngReg c r)
    ∗ Pipeline.scopedRestBut (Ix := Unit) (Name := ℕ) (U := UC) (Lvl := ℕ) (Val := Elt F) spec14 c [cc14_scratch0, cc14_scratch1])

/-! ## The windows' blocks and the proof data -/

/-- Window `w`'s block at point `t`, read off its array as the launch finds it. -/
def iblk14 (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- The proof data of the launch on core `c`: the arrays as the launch finds them; after the body at point `t` the
    weight window at its block and the output window at the product for `t`'s block of rows (read only at the block's
    last row, where the body stores it); the invariant above; nothing owed; full shares. -/
def dat14 (c : Dev nD) : Dat τ (Elt F) Unit ℕ UC ℕ (cfg14 a) c where
  A w := V c (Pipeline.arrRef spec14 w)
  after w t := match w with
    | ⟨0, _⟩ => iblk14 V a c 0 t
    | ⟨1, _⟩ => xBlk14 (tb14 a) (A14 V c) (iblk14 V a c 0 t) (t.val / 1000)
  Φ n := Φ14 V a c n.val
  q _ := fullShare
  owed _ := 0

/-- The proof data's arrays are the entry contents. -/
theorem A_eq14 (c : Dev nD) (w : Fin (cfg14 a).W) : (dat14 V a c).A w = V c (Pipeline.arrRef spec14 w) := by
  dsimp only [dat14]

/-- What the body leaves, window by window. -/
theorem after14_0 (c : Dev nD) (t : Fin (cfg14 a).N) : (dat14 V a c).after 0 t = iblk14 V a c 0 t := by dsimp only [dat14]; rfl
theorem after14_1 (c : Dev nD) (t : Fin (cfg14 a).N) :
    (dat14 V a c).after 1 t = xBlk14 (tb14 a) (A14 V c) (iblk14 V a c 0 t) (t.val / 1000) := by dsimp only [dat14]; rfl

/-- The invariant and the tallies, at a point. -/
theorem Phi14_eq (c : Dev nD) (n : Fin ((cfg14 a).N + 1)) : (dat14 V a c).Φ n = Φ14 V a c n.val := by dsimp only [dat14]
theorem owed14_eq (c : Dev nD) (n : Fin ((cfg14 a).N + 1)) : (dat14 V a c).owed n = 0 := by dsimp only [dat14]

/-- The weight window holds its block at every point, fetched there or not: its block index never moves. -/
theorem before14_0 (c : Dev nD) (t : Fin (cfg14 a).N) (d) : (dat14 V a c).before 0 t d = iblk14 V a c 0 t :=
  ((dat14 V a c).before_in_eq_fetched 0 rfl (fun _ => rfl) (fun _ _ _ => rfl)
      (fun t => by rw [after14_0]; unfold Dat.blockOf iblk14; rw [A_eq14]; try rfl) t d).trans
    (by unfold Dat.fetched Dat.blockOf iblk14; rw [A_eq14]; try rfl)

/-- The output window is written back after the last row of each block of rows, and only there; -/
theorem flush14_1 (t : Fin (cfg14 a).N) : ((cfg14 a).win 1).flush t = decide (t.val % 1000 = 999) := by
  unfold Window.flush
  exact flushB14 t
/-- and it is idle at every other row. -/
theorem idle14_1 (t : Fin (cfg14 a).N) : (cfg14 a).idle 1 ((cfg14 a).grid.coords t) = !decide (t.val % 1000 = 999) := by
  show (!(k14_cond1 (grid14.coords t) == 1#1)) = _
  congr 1
  by_cases h : t.val % 1000 = 999
  · rw [decide_eq_true h, (cond14_iff t).2 h]; rfl
  · rw [decide_eq_false h]
    exact beq_false_of_ne fun e => h ((cond14_iff t).1 e)

end Region

/-! ## The body obligation -/

section Body
variable (V : (c : Dev nD) → (b : Ref sig .tc) → Buf (Elt F) ((c : Thread nD τ).loc b)) (a : (pcfg14 (F := F)).Adm)

/-- Each window's current staging memref at point `t`, spelled as the pipeline passes it, and its wholeness. -/
abbrev ms14_0 (t : Fin (cfg14 a).N) : Memref sig .tc .vmem S128x128 .f32 := spec14_0.stage ((cfg14 a).slots t 0)
abbrev hs14_0 (t : Fin (cfg14 a).N) : (ms14_0 a t).IsWhole := hstage14_0 (((cfg14 a).slots t 0).cast nbuf14_0)
abbrev ms14_1 (t : Fin (cfg14 a).N) : Memref sig .tc .vmem S1000x128 .f32 := spec14_1.stage ((cfg14 a).slots t 1)
abbrev hs14_1 (t : Fin (cfg14 a).N) : (ms14_1 a t).IsWhole := hstage14_1 (((cfg14 a).slots t 1).cast nbuf14_1)

/-- The launch's body function, under the name the runs are stated at. -/
theorem bodyFn14_eq : cc14__gather_agg_matmul_kernel (F := F) = gatherFn := rfl

/-- The kernel body at point `t`, on what the pipeline calls it with. -/
abbrev bodyAt14 (t : Fin (cfg14 a).N) : Prog (TpuEff nD τ sig (Elt F) Λ₀ .tc) PUnit :=
  cc14__gather_agg_matmul_kernel (grid14.coords t) tbM14 (Memref.isWhole_whole _) hbM14 (Memref.isWhole_whole _)
    (ms14_0 a t) (hs14_0 a t) (ms14_1 a t) (hs14_1 a t) scM14_0 (Memref.isWhole_whole _) scM14_1 (Memref.isWhole_whole _) cc14_scratch2

/-- What the body is called with at point `t`, the windows one by one, -/
def bodyPre14 (c : Dev nD) (t : Fin (cfg14 a).N) : sProp 𝕄 :=
  iprop((dat14 V a c).Φ t.castSucc ∗ (dat14 V a c).owesAt () t.castSucc
    ∗ (∃ d, owns (c : Thread nD τ) (ms14_0 a t) fullShare ((dat14 V a c).before 0 t d))
    ∗ (∃ d, owns (c : Thread nD τ) (ms14_1 a t) fullShare ((dat14 V a c).before 1 t d)))

/-- and what it returns: the output window as it was found where the point is idle for it, at the block's product
    at the last row of a block. -/
def bodyPost14 (c : Dev nD) (t : Fin (cfg14 a).N) : sProp 𝕄 :=
  iprop((dat14 V a c).Φ t.succ ∗ (dat14 V a c).owesAt () t.succ
    ∗ owns (c : Thread nD τ) (ms14_0 a t) fullShare ((dat14 V a c).after 0 t)
    ∗ (match (cfg14 a).idle 1 ((cfg14 a).grid.coords t) with
        | true =>
          match ((cfg14 a).win 1).flush t with
          | false => iprop(∃ d, owns (c : Thread nD τ) (ms14_1 a t) fullShare ((dat14 V a c).before 1 t d))
          | true => owns (c : Thread nD τ) (ms14_1 a t) fullShare ((dat14 V a c).after 1 t)
        | false => owns (c : Thread nD τ) (ms14_1 a t) fullShare ((dat14 V a c).after 1 t)))

/-- The body at any point. The weight window holds its block; the invariant hands the body its table, the feature
    array, both scratch buffers and its transfer cells, and takes them back with the carried scratch one row further
    (`rowsOK14_step`); at the last row of a block the product the body stores is the block's (`rowAt14_last`); the core's
    `owes` goes in at whatever the points before recorded and comes back with this point's waits. -/
theorem sound_body14 (hR : InRange14 a.1) (c : Dev nD) (t : Fin (cfg14 a).N) :
    bodyPre14 V a c t ⊢ wp frame (wpE (defs₀ (F := F)) Variants.none c none) Set.univ (bodyAt14 a t) (fun _ => bodyPost14 V a c t) := by
  unfold bodyPre14 bodyPost14 bodyAt14
  rw [flush14_1, idle14_1]
  simp only [before14_0]
  rw [after14_0, Phi14_eq, Phi14_eq, Fin.val_succ, Fin.coe_castSucc]
  unfold Dat.owesAt Pipeline.owesWithin
  rw [owed14_eq, owed14_eq]
  unfold Φ14
  rw [bodyFn14_eq]
  by_cases hl : t.val % 1000 = 999
  · -- the last row of a block
    rw [decide_eq_true hl, Bool.not_true]
    dsimp only
    rw [after14_1]
    unfold xBlk14
    iintro ⟨⟨Htb, Hhb, ⟨%g, %hg, Hs0⟩, Hs1, Hcells, Hreg, Hrest⟩, ⟨%W, -, HW⟩, ⟨%d0, H0⟩, ⟨%d1, H1⟩⟩
    rw [← rowAt14_last (tb14 a) (A14 V c) t hl g hg]
    iapply (run24_last c (grid14.coords t) tbM14 (Memref.isWhole_whole _) hbM14 (Memref.isWhole_whole _) (ms14_0 a t) (hs14_0 a t)
      (ms14_1 a t) (hs14_1 a t) scM14_0 (Memref.isWhole_whole _) scM14_1 (Memref.isWhole_whole _) cc14_scratch2
      ((cond14_iff t).2 hl) (tb14 a) hR (A14 V c) (iblk14 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK14_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k14_cond1 (grid14.coords t) ≠ 1#1 := fun e => hl ((cond14_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid14.coords t) tbM14 (Memref.isWhole_whole _) hbM14 (Memref.isWhole_whole _) (ms14_0 a t) (hs14_0 a t)
      (ms14_1 a t) (hs14_1 a t) scM14_0 (Memref.isWhole_whole _) scM14_1 (Memref.isWhole_whole _) cc14_scratch2
      hc (tb14 a) hR (A14 V c) (iblk14 V a c 0 t) g
      (owns (c : Thread nD τ) (ms14_1 a t) fullShare ((dat14 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK14_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation14 (hR : InRange14 a.1) (c : Dev nD) :
    BodyObligation (dat14 (F := F) V a c) (defs₀ (F := F)) Variants.none () Set.univ := fun t => by
  rw [bigSep_W14, bigSep_W14]
  exact sound_body14 V a hR c t

end Body

/-! ## The value: what the launch leaves in its output array -/

section Value
variable (V : (c : Dev nD) → (b : Ref sig .tc) → Buf (Elt F) ((c : Thread nD τ).loc b)) (a : (pcfg14 (F := F)).Adm)

/-- Entry `(r, l)` of a block of rows. -/
def cell14 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk14 (tb : Vec F S16x2000 .i32) (A0 : Vec F S100000x128 .f32) (Wt : Vec F S128x128 .f32) : Vec F S2000x128 .f32 :=
  fun y => xBlk14 tb A0 Wt ((y 0).val / 1000) (cell14 ((y 0).val % 1000) (Nat.mod_lt _ (by decide)) (y 1))

/-- The weight window's block is the whole weight, at every point: its block index is (0, 0). -/
theorem wblk14_eq (c : Dev nD) (t : Fin (cfg14 a).N) : iblk14 V a c 0 t = (V c main_arg1 : Vec F S128x128 .f32) := by
  funext x
  unfold iblk14
  rw [View.read_apply]
  refine (cast_eq _ _).trans (congrArg (V c main_arg1) (funext fun b => Fin.ext ?_))
  refine (((cfg14 a).win 0).rect_emb_val_of_index_zero t b ?_ x)
  match b with
  | ⟨0, _⟩ => rfl
  | ⟨1, _⟩ => rfl

/-- Where entry `x` of the output window's block at point `t` sits in the output array. -/
abbrev emb14 (t : Fin (cfg14 a).N) (x : S1000x128.Idx) : S2000x128.Idx := (((cfg14 a).win 1).blk t).view.emb x

theorem emb14_val (t : Fin (cfg14 a).N) (x : S1000x128.Idx) :
    (emb14 a t x 0).val = t.val / 1000 * 1000 + (x 0).val ∧ (emb14 a t x 1).val = (x 1).val := by
  have hix : ((cfg14 a).win 1).index t = ![t.val / 1000, 0] := idx14_1 t
  have e0 := ((cfg14 a).win 1).rect_emb_val t x (0 : Fin 2)
  have e1 := ((cfg14 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after14_chunk (c : Dev nD) (t : Fin (cfg14 a).N) (x : S1000x128.Idx) :
    (dat14 V a c).after 1 t x = xChunk14 (tb14 a) (A14 V c) (V c main_arg1) (emb14 a t x) := by
  obtain ⟨e0, e1⟩ := emb14_val a t x
  have hx0 : (x 0).val < 1000 := (x 0).isLt
  rw [after14_1, wblk14_eq]
  unfold xChunk14
  have hq : (emb14 a t x 0).val / 1000 = t.val / 1000 := by rw [e0]; omega
  have hcell : cell14 ((emb14 a t x 0).val % 1000) (Nat.mod_lt _ (by decide)) (emb14 a t x 1) = x := by
    funext b
    apply Fin.ext
    match b with
    | ⟨0, _⟩ =>
      show (emb14 a t x 0).val % 1000 = (x 0).val
      rw [e0]; omega
    | ⟨1, _⟩ => exact e1
  rw [hq, hcell]

/-- Two entries of the output array with the same coordinates are the same. -/
theorem idx14_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb14_cell (t : Fin (cfg14 a).N) (i : S2000x128.Idx) (ht : t.val / 1000 = (i 0).val / 1000) :
    emb14 a t (cell14 ((i 0).val % 1000) (Nat.mod_lt _ (by decide)) (i 1)) = i := by
  obtain ⟨e0, e1⟩ := emb14_val a t (cell14 ((i 0).val % 1000) (Nat.mod_lt _ (by decide)) (i 1))
  refine idx14_ext _ _ ?_ e1
  rw [e0, ht]
  show (i 0).val / 1000 * 1000 + (i 0).val % 1000 = (i 0).val
  omega

/-- Every entry of the output array lies in the block written back after the last row of its block of rows. -/
theorem cover14 (i : S2000x128.Idx) :
    ∃ t : Fin (cfg14 a).N, ((cfg14 a).win 1).flush t = true ∧ i ∈ (((cfg14 a).win 1).blk t).view.set := by
  have hi0 : (i 0).val < 2000 := (i 0).isLt
  have hN : (i 0).val / 1000 * 1000 + 999 < (cfg14 a).N := by rw [N14]; omega
  refine ⟨⟨(i 0).val / 1000 * 1000 + 999, hN⟩, ?_, ?_⟩
  · rw [flush14_1]; exact decide_eq_true (by show ((i 0).val / 1000 * 1000 + 999) % 1000 = 999; omega)
  · refine Finset.mem_map.mpr ⟨cell14 ((i 0).val % 1000) (Nat.mod_lt _ (by decide)) (i 1), Finset.mem_univ _, ?_⟩
    exact emb14_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out14 (c : Dev nD) :
    (dat14 V a c).arrAt 1 (cfg14 a).N = (xChunk14 (tb14 a) (A14 V c) (V c main_arg1) : Vec F S2000x128 .f32) :=
  (dat14 V a c).arrAt_eq_of_cover 1 _
    (fun t _ => funext fun x => (after14_chunk V a c t x).trans (cast_eq _ _).symm)
    (cover14 a)

end Value

/-! ## The invariant's two ends -/

section Ends
variable (V : (c : Dev nD) → (b : Ref sig .tc) → Buf (Elt F) ((c : Thread nD τ).loc b)) (a : (pcfg14 (F := F)).Adm)

/-- The body's own transfer cells as the launch's protocol lists them: the 16 cells of its semaphore operand. -/
def osem14 : Fin 16 → SemLoc sig := fun k => SemLoc.dma (cc14_scratch2.ix (Shape.ofLane k))
/-- They are scoped, distinct, and none is a window's. -/
theorem ownSemFacts14 : Pipeline.OwnSemFacts spec14 osem14 := by decide
/-- The cells at zero, listed, are the cells as the body names them. -/
theorem cells14_eq (c : Dev nD) :
    (Pipeline.ownSems0 (Ix := Unit) (Name := ℕ) (U := UC) (Lvl := ℕ) (Val := Elt F) (τ := τ) osem14 c : sProp 𝕄) = cells24 c cc14_scratch2 := by
  rw [Pipeline.ownSems0_eq_of_list c osem14 [0, 1, 2, 3, 4, 5, 6, 7, 8, 9, 10, 11, 12, 13, 14, 15] (by decide) (by decide)]; rfl

/-- The launch's one table, held. -/
theorem prefHeld14_eq (c : Dev nD) (pf : pre14.Contents (Elt F)) :
    (Pipeline.prefHeld pre14 c (fun _ => fullShare) pf : sProp 𝕄) = (((c : Thread nD τ).loc main_v29) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X14 (c : Dev nD) : sProp 𝕄 :=
  iprop((∃ r, prngReg c r) ∗ Pipeline.ownSems0 (Ix := Unit) (Name := ℕ) (U := UC) (Lvl := ℕ) (Val := Elt F) (τ := τ) osem14 c
    ∗ (((c : Thread nD τ).loc main_arg0) ↦{fullShare} V c main_arg0))
abbrev Y14 (c : Dev nD) : sProp 𝕄 :=
  iprop((∃ r, prngReg c r) ∗ (((c : Thread nD τ).loc main_arg0) ↦{fullShare} V c main_arg0)
    ∗ Pipeline.prefHeld pre14 c (fun _ => fullShare) a.1)

/-- THE FIRST POINT: the invariant from what the launch's entry sorts out. Nothing is asked of the carried scratch. -/
theorem Phi14_in (c : Dev nD) :
    iprop(X14 V c ∗ Pipeline.prefHeld pre14 c (fun _ => fullShare) a.1
        ∗ Pipeline.scopedRest (Ix := Unit) (Name := ℕ) (U := UC) (Lvl := ℕ) (Val := Elt F) spec14 c)
      ⊢ (dat14 V a c).Φ 0 := by
  rw [Phi14_eq]
  unfold Φ14 X14
  rw [scopedRest14_split, prefHeld14_eq, cells14_eq]
  simp only [tbM14, hbM14, scM14_0, scM14_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK14_start _ _ _ rfl _
  isplitl [Hs1]; · iexact Hs1
  isplitl [Hcells]; · iexact Hcells
  isplitl [Hreg]; · iexact Hreg
  iexact Hrest

/-- THE LAST POINT: the invariant gives back what it took. -/
theorem Phi14_out (c : Dev nD) :
    (dat14 V a c).Φ (Fin.last _)
      ⊢ iprop(Y14 V a c ∗ Pipeline.ownSems0 (Ix := Unit) (Name := ℕ) (U := UC) (Lvl := ℕ) (Val := Elt F) (τ := τ) osem14 c
        ∗ Pipeline.scopedRest (Ix := Unit) (Name := ℕ) (U := UC) (Lvl := ℕ) (Val := Elt F) spec14 c) := by
  rw [Phi14_eq]
  unfold Φ14 Y14
  rw [scopedRest14_split, prefHeld14_eq, cells14_eq]
  simp only [tbM14, hbM14, scM14_0, scM14_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G15Dat.lean ====
/-
  One of the program's 25 gather launches (pipeline 15; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N15 (a : (pcfg15 (F := F)).Adm) : (cfg15 a).N = 2000 := N_15

/-- The body's branch is taken at the last row of a block of rows, -/
theorem cond15_iff : ∀ t : Fin grid15.N, k15_cond1 (grid15.coords t) = 1#1 ↔ t.val % 1000 = 999 := by decide +kernel
/-- the row a point works on is its number modulo 1000, -/
theorem rowAt15_coord : ∀ t : Fin grid15.N, (grid15.coords t 1).val = t.val % 1000 := by decide +kernel
/-- its block of rows is its number divided by 1000, -/
theorem blockAt15_coord : ∀ t : Fin grid15.N, (grid15.coords t 0).val = t.val / 1000 := by decide +kernel
/-- and the output's block index moves after exactly those points (and the grid ends at one). -/
theorem flushB15 : ∀ t : Fin grid15.N,
    (decide (t.val + 1 = grid15.N) || decide (∃ h : t.val + 1 < grid15.N, cc15_transform_2 (grid15.coords ⟨t.val + 1, h⟩) ≠ cc15_transform_2 (grid15.coords t)))
      = decide (t.val % 1000 = 999) := by decide +kernel

/-- The output's block index at a point: the point's block of rows. -/
theorem idx15_1 : ∀ t : Fin grid15.N, cc15_transform_2 (grid15.coords t) = ![t.val / 1000, 0] := by decide +kernel

/-- Every word of the launch's table names a row of the feature array. -/
def InRange15 (pf : pre15.Contents (Elt F)) : Prop := ∀ x : S16x2000.Idx, ((pf 0 : Vec F S16x2000 .i32) x).toNat < 100000

/-! ## The values -/

/-- Lane `l` of a one-row vector. -/
def lane15 (l : Fin 128) : S1x128.Idx := fun a => ⟨if a.val = 0 then 0 else l.val, by
  match a with
  | ⟨0, _⟩ => exact Nat.one_pos
  | ⟨1, _⟩ => exact l.isLt⟩

theorem lane15_one (l : Fin 128) : (lane15 l 1).val = l.val := rfl

/-- The grid point of row `r` of block `q` (total: the point number is taken modulo the grid's size). -/
def pt15 (q : ℕ) (r : ℕ) : Fin grid15.N := ⟨(q * 1000 + r) % grid15.N, Nat.mod_lt _ (by decide)⟩

/-- Inside the grid the point's number is `1000 q + r`. -/
theorem pt15_val (q r : ℕ) (hq : q < 2) (hr : r < 1000) : (pt15 q r).val = q * 1000 + r := by
  show (q * 1000 + r) % grid15.N = q * 1000 + r
  rw [N_15]; omega

/-- A point is the point of its block and row. -/
theorem pt15_self (t : Fin grid15.N) : pt15 (t.val / 1000) (t.val % 1000) = t := by
  apply Fin.ext
  show (t.val / 1000 * 1000 + t.val % 1000) % grid15.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means15 (tb : Vec F S16x2000 .i32) (A0 : Vec F S100000x128 .f32) (q : ℕ) : Vec F S1000x128 .f32 :=
  fun x => Gen.k24_pay1 (gath24 (grid15.coords (pt15 q (x 0).val)) tb A0) (lane15 (x 1))

/-- What the body stores in the output window at the last row of block `q`: the means, rounded, times the weight, rounded. -/
def xBlk15 (tb : Vec F S16x2000 .i32) (A0 : Vec F S100000x128 .f32) (Wt : Vec F S128x128 .f32) (q : ℕ) : Vec F S1000x128 .f32 :=
  Gen.k24_pay2 (means15 tb A0 q) Wt

/-- The carried scratch before point `n`: its rows below `n % 1000` are the means of block `n / 1000`. -/
def RowsOK15 (tb : Vec F S16x2000 .i32) (A0 : Vec F S100000x128 .f32) (n : ℕ) (g : Vec F S1000x128 .f32) : Prop :=
  ∀ x : S1000x128.Idx, (x 0).val < n % 1000 → g x = means15 tb A0 (n / 1000) x

/-- At the first row of a block nothing is asked. -/
theorem rowsOK15_start (tb : Vec F S16x2000 .i32) (A0 : Vec F S100000x128 .f32) (n : ℕ) (hn : n % 1000 = 0) (g : Vec F S1000x128 .f32) :
    RowsOK15 tb A0 n g := fun x hx => absurd hx (by omega)

/-- One point's row store keeps the invariant's rows and adds its own: after the store at point `t` the rows up to
    `t % 1000` are means. -/
theorem rowAt15_means (tb : Vec F S16x2000 .i32) (A0 : Vec F S100000x128 .f32) (t : Fin grid15.N) (g : Vec F S1000x128 .f32)
    (hg : RowsOK15 tb A0 t.val g) (x : S1000x128.Idx) (hx : (x 0).val ≤ t.val % 1000) :
    row24 (grid15.coords t) tb A0 g x = means15 tb A0 (t.val / 1000) x := by
  by_cases h : (x 0).val = t.val % 1000
  · rw [row24_of_eq (grid15.coords t) tb A0 g x (by rw [rowAt15_coord]; exact h) (lane15 (x 1)) rfl]
    unfold means15
    rw [h, pt15_self]
  · rw [row24_of_ne (grid15.coords t) tb A0 g x (by rw [rowAt15_coord]; exact h)]
    exact hg x (by omega)

/-- Within a block the invariant steps. -/
theorem rowsOK15_step (tb : Vec F S16x2000 .i32) (A0 : Vec F S100000x128 .f32) (t : Fin grid15.N) (g : Vec F S1000x128 .f32)
    (hg : RowsOK15 tb A0 t.val g) : RowsOK15 tb A0 (t.val + 1) (row24 (grid15.coords t) tb A0 g) := by
  by_cases hl : t.val % 1000 = 999
  · exact rowsOK15_start _ _ _ (by omega) _
  · intro x hx
    have h1 : (t.val + 1) / 1000 = t.val / 1000 := by omega
    rw [h1]
    exact rowAt15_means tb A0 t g hg x (by omega)

/-- At the last row of a block the scratch, after the row store, is the block's means whatever it held before. -/
theorem rowAt15_last (tb : Vec F S16x2000 .i32) (A0 : Vec F S100000x128 .f32) (t : Fin grid15.N) (hl : t.val % 1000 = 999)
    (g : Vec F S1000x128 .f32) (hg : RowsOK15 tb A0 t.val g) :
    row24 (grid15.coords t) tb A0 g = means15 tb A0 (t.val / 1000) :=
  funext fun x => rowAt15_means tb A0 t g hg x (by have : (x 0).val < 1000 := (x 0).isLt; omega)

/-! ## The invariant -/

/-- The launch's operands that no window stages, as the body is handed them: its table, the feature array left in
    HBM, and its two scratch buffers — whole buffers. -/
abbrev tbM15 : Memref sig .tc .smem S16x2000 .i32 := Memref.whole main_v31
abbrev hbM15 : Memref sig .tc .hbm S100000x128 .f32 := Memref.whole main_arg0
abbrev scM15_0 : Memref sig .tc .vmem S1000x128 .f32 := Memref.whole cc15_scratch0
abbrev scM15_1 : Memref sig .tc .vmem S16x128 .f32 := Memref.whole cc15_scratch1

section Region
-- the TensorCore's buffer contents when the launch is entered, and the launch's table
variable (V : (c : Dev nD) → (b : Ref sig .tc) → Buf (Elt F) ((c : Thread nD τ).loc b)) (a : (pcfg15 (F := F)).Adm)

/-- The table and the feature array, as vectors. -/
abbrev tb15 : Vec F S16x2000 .i32 := a.1 0
abbrev A15 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ15 (c : Dev nD) (n : ℕ) : sProp 𝕄 :=
  iprop(owns (c : Thread nD τ) tbM15 fullShare (tb15 a)
    ∗ owns (c : Thread nD τ) hbM15 fullShare (A15 V c)
    ∗ (∃ g : Vec F S1000x128 .f32, ⌜RowsOK15 (tb15 a) (A15 V c) n g⌝ ∗ owns (c : Thread nD τ) scM15_0 fullShare g)
    ∗ (∃ d, owns (c : Thread nD τ) scM15_1 fullShare d)
    ∗ cells24 c cc15_scratch2
    ∗ (∃ r, prngReg c r)
    ∗ Pipeline.scopedRestBut (Ix := Unit) (Name := ℕ) (U := UC) (Lvl := ℕ) (Val := Elt F) spec15 c [cc15_scratch0, cc15_scratch1])

/-! ## The windows' blocks and the proof data -/

/-- Window `w`'s block at point `t`, read off its array as the launch finds it. -/
def iblk15 (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- The proof data of the launch on core `c`: the arrays as the launch finds them; after the body at point `t` the
    weight window at its block and the output window at the product for `t`'s block of rows (read only at the block's
    last row, where the body stores it); the invariant above; nothing owed; full shares. -/
def dat15 (c : Dev nD) : Dat τ (Elt F) Unit ℕ UC ℕ (cfg15 a) c where
  A w := V c (Pipeline.arrRef spec15 w)
  after w t := match w with
    | ⟨0, _⟩ => iblk15 V a c 0 t
    | ⟨1, _⟩ => xBlk15 (tb15 a) (A15 V c) (iblk15 V a c 0 t) (t.val / 1000)
  Φ n := Φ15 V a c n.val
  q _ := fullShare
  owed _ := 0

/-- The proof data's arrays are the entry contents. -/
theorem A_eq15 (c : Dev nD) (w : Fin (cfg15 a).W) : (dat15 V a c).A w = V c (Pipeline.arrRef spec15 w) := by
  dsimp only [dat15]

/-- What the body leaves, window by window. -/
theorem after15_0 (c : Dev nD) (t : Fin (cfg15 a).N) : (dat15 V a c).after 0 t = iblk15 V a c 0 t := by dsimp only [dat15]; rfl
theorem after15_1 (c : Dev nD) (t : Fin (cfg15 a).N) :
    (dat15 V a c).after 1 t = xBlk15 (tb15 a) (A15 V c) (iblk15 V a c 0 t) (t.val / 1000) := by dsimp only [dat15]; rfl

/-- The invariant and the tallies, at a point. -/
theorem Phi15_eq (c : Dev nD) (n : Fin ((cfg15 a).N + 1)) : (dat15 V a c).Φ n = Φ15 V a c n.val := by dsimp only [dat15]
theorem owed15_eq (c : Dev nD) (n : Fin ((cfg15 a).N + 1)) : (dat15 V a c).owed n = 0 := by dsimp only [dat15]

/-- The weight window holds its block at every point, fetched there or not: its block index never moves. -/
theorem before15_0 (c : Dev nD) (t : Fin (cfg15 a).N) (d) : (dat15 V a c).before 0 t d = iblk15 V a c 0 t :=
  ((dat15 V a c).before_in_eq_fetched 0 rfl (fun _ => rfl) (fun _ _ _ => rfl)
      (fun t => by rw [after15_0]; unfold Dat.blockOf iblk15; rw [A_eq15]; try rfl) t d).trans
    (by unfold Dat.fetched Dat.blockOf iblk15; rw [A_eq15]; try rfl)

/-- The output window is written back after the last row of each block of rows, and only there; -/
theorem flush15_1 (t : Fin (cfg15 a).N) : ((cfg15 a).win 1).flush t = decide (t.val % 1000 = 999) := by
  unfold Window.flush
  exact flushB15 t
/-- and it is idle at every other row. -/
theorem idle15_1 (t : Fin (cfg15 a).N) : (cfg15 a).idle 1 ((cfg15 a).grid.coords t) = !decide (t.val % 1000 = 999) := by
  show (!(k15_cond1 (grid15.coords t) == 1#1)) = _
  congr 1
  by_cases h : t.val % 1000 = 999
  · rw [decide_eq_true h, (cond15_iff t).2 h]; rfl
  · rw [decide_eq_false h]
    exact beq_false_of_ne fun e => h ((cond15_iff t).1 e)

end Region

/-! ## The body obligation -/

section Body
variable (V : (c : Dev nD) → (b : Ref sig .tc) → Buf (Elt F) ((c : Thread nD τ).loc b)) (a : (pcfg15 (F := F)).Adm)

/-- Each window's current staging memref at point `t`, spelled as the pipeline passes it, and its wholeness. -/
abbrev ms15_0 (t : Fin (cfg15 a).N) : Memref sig .tc .vmem S128x128 .f32 := spec15_0.stage ((cfg15 a).slots t 0)
abbrev hs15_0 (t : Fin (cfg15 a).N) : (ms15_0 a t).IsWhole := hstage15_0 (((cfg15 a).slots t 0).cast nbuf15_0)
abbrev ms15_1 (t : Fin (cfg15 a).N) : Memref sig .tc .vmem S1000x128 .f32 := spec15_1.stage ((cfg15 a).slots t 1)
abbrev hs15_1 (t : Fin (cfg15 a).N) : (ms15_1 a t).IsWhole := hstage15_1 (((cfg15 a).slots t 1).cast nbuf15_1)

/-- The launch's body function, under the name the runs are stated at. -/
theorem bodyFn15_eq : cc15__gather_agg_matmul_kernel (F := F) = gatherFn := rfl

/-- The kernel body at point `t`, on what the pipeline calls it with. -/
abbrev bodyAt15 (t : Fin (cfg15 a).N) : Prog (TpuEff nD τ sig (Elt F) Λ₀ .tc) PUnit :=
  cc15__gather_agg_matmul_kernel (grid15.coords t) tbM15 (Memref.isWhole_whole _) hbM15 (Memref.isWhole_whole _)
    (ms15_0 a t) (hs15_0 a t) (ms15_1 a t) (hs15_1 a t) scM15_0 (Memref.isWhole_whole _) scM15_1 (Memref.isWhole_whole _) cc15_scratch2

/-- What the body is called with at point `t`, the windows one by one, -/
def bodyPre15 (c : Dev nD) (t : Fin (cfg15 a).N) : sProp 𝕄 :=
  iprop((dat15 V a c).Φ t.castSucc ∗ (dat15 V a c).owesAt () t.castSucc
    ∗ (∃ d, owns (c : Thread nD τ) (ms15_0 a t) fullShare ((dat15 V a c).before 0 t d))
    ∗ (∃ d, owns (c : Thread nD τ) (ms15_1 a t) fullShare ((dat15 V a c).before 1 t d)))

/-- and what it returns: the output window as it was found where the point is idle for it, at the block's product
    at the last row of a block. -/
def bodyPost15 (c : Dev nD) (t : Fin (cfg15 a).N) : sProp 𝕄 :=
  iprop((dat15 V a c).Φ t.succ ∗ (dat15 V a c).owesAt () t.succ
    ∗ owns (c : Thread nD τ) (ms15_0 a t) fullShare ((dat15 V a c).after 0 t)
    ∗ (match (cfg15 a).idle 1 ((cfg15 a).grid.coords t) with
        | true =>
          match ((cfg15 a).win 1).flush t with
          | false => iprop(∃ d, owns (c : Thread nD τ) (ms15_1 a t) fullShare ((dat15 V a c).before 1 t d))
          | true => owns (c : Thread nD τ) (ms15_1 a t) fullShare ((dat15 V a c).after 1 t)
        | false => owns (c : Thread nD τ) (ms15_1 a t) fullShare ((dat15 V a c).after 1 t)))

/-- The body at any point. The weight window holds its block; the invariant hands the body its table, the feature
    array, both scratch buffers and its transfer cells, and takes them back with the carried scratch one row further
    (`rowsOK15_step`); at the last row of a block the product the body stores is the block's (`rowAt15_last`); the core's
    `owes` goes in at whatever the points before recorded and comes back with this point's waits. -/
theorem sound_body15 (hR : InRange15 a.1) (c : Dev nD) (t : Fin (cfg15 a).N) :
    bodyPre15 V a c t ⊢ wp frame (wpE (defs₀ (F := F)) Variants.none c none) Set.univ (bodyAt15 a t) (fun _ => bodyPost15 V a c t) := by
  unfold bodyPre15 bodyPost15 bodyAt15
  rw [flush15_1, idle15_1]
  simp only [before15_0]
  rw [after15_0, Phi15_eq, Phi15_eq, Fin.val_succ, Fin.coe_castSucc]
  unfold Dat.owesAt Pipeline.owesWithin
  rw [owed15_eq, owed15_eq]
  unfold Φ15
  rw [bodyFn15_eq]
  by_cases hl : t.val % 1000 = 999
  · -- the last row of a block
    rw [decide_eq_true hl, Bool.not_true]
    dsimp only
    rw [after15_1]
    unfold xBlk15
    iintro ⟨⟨Htb, Hhb, ⟨%g, %hg, Hs0⟩, Hs1, Hcells, Hreg, Hrest⟩, ⟨%W, -, HW⟩, ⟨%d0, H0⟩, ⟨%d1, H1⟩⟩
    rw [← rowAt15_last (tb15 a) (A15 V c) t hl g hg]
    iapply (run24_last c (grid15.coords t) tbM15 (Memref.isWhole_whole _) hbM15 (Memref.isWhole_whole _) (ms15_0 a t) (hs15_0 a t)
      (ms15_1 a t) (hs15_1 a t) scM15_0 (Memref.isWhole_whole _) scM15_1 (Memref.isWhole_whole _) cc15_scratch2
      ((cond15_iff t).2 hl) (tb15 a) hR (A15 V c) (iblk15 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK15_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k15_cond1 (grid15.coords t) ≠ 1#1 := fun e => hl ((cond15_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid15.coords t) tbM15 (Memref.isWhole_whole _) hbM15 (Memref.isWhole_whole _) (ms15_0 a t) (hs15_0 a t)
      (ms15_1 a t) (hs15_1 a t) scM15_0 (Memref.isWhole_whole _) scM15_1 (Memref.isWhole_whole _) cc15_scratch2
      hc (tb15 a) hR (A15 V c) (iblk15 V a c 0 t) g
      (owns (c : Thread nD τ) (ms15_1 a t) fullShare ((dat15 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK15_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation15 (hR : InRange15 a.1) (c : Dev nD) :
    BodyObligation (dat15 (F := F) V a c) (defs₀ (F := F)) Variants.none () Set.univ := fun t => by
  rw [bigSep_W15, bigSep_W15]
  exact sound_body15 V a hR c t

end Body

/-! ## The value: what the launch leaves in its output array -/

section Value
variable (V : (c : Dev nD) → (b : Ref sig .tc) → Buf (Elt F) ((c : Thread nD τ).loc b)) (a : (pcfg15 (F := F)).Adm)

/-- Entry `(r, l)` of a block of rows. -/
def cell15 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk15 (tb : Vec F S16x2000 .i32) (A0 : Vec F S100000x128 .f32) (Wt : Vec F S128x128 .f32) : Vec F S2000x128 .f32 :=
  fun y => xBlk15 tb A0 Wt ((y 0).val / 1000) (cell15 ((y 0).val % 1000) (Nat.mod_lt _ (by decide)) (y 1))

/-- The weight window's block is the whole weight, at every point: its block index is (0, 0). -/
theorem wblk15_eq (c : Dev nD) (t : Fin (cfg15 a).N) : iblk15 V a c 0 t = (V c main_arg1 : Vec F S128x128 .f32) := by
  funext x
  unfold iblk15
  rw [View.read_apply]
  refine (cast_eq _ _).trans (congrArg (V c main_arg1) (funext fun b => Fin.ext ?_))
  refine (((cfg15 a).win 0).rect_emb_val_of_index_zero t b ?_ x)
  match b with
  | ⟨0, _⟩ => rfl
  | ⟨1, _⟩ => rfl

/-- Where entry `x` of the output window's block at point `t` sits in the output array. -/
abbrev emb15 (t : Fin (cfg15 a).N) (x : S1000x128.Idx) : S2000x128.Idx := (((cfg15 a).win 1).blk t).view.emb x

theorem emb15_val (t : Fin (cfg15 a).N) (x : S1000x128.Idx) :
    (emb15 a t x 0).val = t.val / 1000 * 1000 + (x 0).val ∧ (emb15 a t x 1).val = (x 1).val := by
  have hix : ((cfg15 a).win 1).index t = ![t.val / 1000, 0] := idx15_1 t
  have e0 := ((cfg15 a).win 1).rect_emb_val t x (0 : Fin 2)
  have e1 := ((cfg15 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after15_chunk (c : Dev nD) (t : Fin (cfg15 a).N) (x : S1000x128.Idx) :
    (dat15 V a c).after 1 t x = xChunk15 (tb15 a) (A15 V c) (V c main_arg1) (emb15 a t x) := by
  obtain ⟨e0, e1⟩ := emb15_val a t x
  have hx0 : (x 0).val < 1000 := (x 0).isLt
  rw [after15_1, wblk15_eq]
  unfold xChunk15
  have hq : (emb15 a t x 0).val / 1000 = t.val / 1000 := by rw [e0]; omega
  have hcell : cell15 ((emb15 a t x 0).val % 1000) (Nat.mod_lt _ (by decide)) (emb15 a t x 1) = x := by
    funext b
    apply Fin.ext
    match b with
    | ⟨0, _⟩ =>
      show (emb15 a t x 0).val % 1000 = (x 0).val
      rw [e0]; omega
    | ⟨1, _⟩ => exact e1
  rw [hq, hcell]

/-- Two entries of the output array with the same coordinates are the same. -/
theorem idx15_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb15_cell (t : Fin (cfg15 a).N) (i : S2000x128.Idx) (ht : t.val / 1000 = (i 0).val / 1000) :
    emb15 a t (cell15 ((i 0).val % 1000) (Nat.mod_lt _ (by decide)) (i 1)) = i := by
  obtain ⟨e0, e1⟩ := emb15_val a t (cell15 ((i 0).val % 1000) (Nat.mod_lt _ (by decide)) (i 1))
  refine idx15_ext _ _ ?_ e1
  rw [e0, ht]
  show (i 0).val / 1000 * 1000 + (i 0).val % 1000 = (i 0).val
  omega

/-- Every entry of the output array lies in the block written back after the last row of its block of rows. -/
theorem cover15 (i : S2000x128.Idx) :
    ∃ t : Fin (cfg15 a).N, ((cfg15 a).win 1).flush t = true ∧ i ∈ (((cfg15 a).win 1).blk t).view.set := by
  have hi0 : (i 0).val < 2000 := (i 0).isLt
  have hN : (i 0).val / 1000 * 1000 + 999 < (cfg15 a).N := by rw [N15]; omega
  refine ⟨⟨(i 0).val / 1000 * 1000 + 999, hN⟩, ?_, ?_⟩
  · rw [flush15_1]; exact decide_eq_true (by show ((i 0).val / 1000 * 1000 + 999) % 1000 = 999; omega)
  · refine Finset.mem_map.mpr ⟨cell15 ((i 0).val % 1000) (Nat.mod_lt _ (by decide)) (i 1), Finset.mem_univ _, ?_⟩
    exact emb15_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out15 (c : Dev nD) :
    (dat15 V a c).arrAt 1 (cfg15 a).N = (xChunk15 (tb15 a) (A15 V c) (V c main_arg1) : Vec F S2000x128 .f32) :=
  (dat15 V a c).arrAt_eq_of_cover 1 _
    (fun t _ => funext fun x => (after15_chunk V a c t x).trans (cast_eq _ _).symm)
    (cover15 a)

end Value

/-! ## The invariant's two ends -/

section Ends
variable (V : (c : Dev nD) → (b : Ref sig .tc) → Buf (Elt F) ((c : Thread nD τ).loc b)) (a : (pcfg15 (F := F)).Adm)

/-- The body's own transfer cells as the launch's protocol lists them: the 16 cells of its semaphore operand. -/
def osem15 : Fin 16 → SemLoc sig := fun k => SemLoc.dma (cc15_scratch2.ix (Shape.ofLane k))
/-- They are scoped, distinct, and none is a window's. -/
theorem ownSemFacts15 : Pipeline.OwnSemFacts spec15 osem15 := by decide
/-- The cells at zero, listed, are the cells as the body names them. -/
theorem cells15_eq (c : Dev nD) :
    (Pipeline.ownSems0 (Ix := Unit) (Name := ℕ) (U := UC) (Lvl := ℕ) (Val := Elt F) (τ := τ) osem15 c : sProp 𝕄) = cells24 c cc15_scratch2 := by
  rw [Pipeline.ownSems0_eq_of_list c osem15 [0, 1, 2, 3, 4, 5, 6, 7, 8, 9, 10, 11, 12, 13, 14, 15] (by decide) (by decide)]; rfl

/-- The launch's one table, held. -/
theorem prefHeld15_eq (c : Dev nD) (pf : pre15.Contents (Elt F)) :
    (Pipeline.prefHeld pre15 c (fun _ => fullShare) pf : sProp 𝕄) = (((c : Thread nD τ).loc main_v31) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X15 (c : Dev nD) : sProp 𝕄 :=
  iprop((∃ r, prngReg c r) ∗ Pipeline.ownSems0 (Ix := Unit) (Name := ℕ) (U := UC) (Lvl := ℕ) (Val := Elt F) (τ := τ) osem15 c
    ∗ (((c : Thread nD τ).loc main_arg0) ↦{fullShare} V c main_arg0))
abbrev Y15 (c : Dev nD) : sProp 𝕄 :=
  iprop((∃ r, prngReg c r) ∗ (((c : Thread nD τ).loc main_arg0) ↦{fullShare} V c main_arg0)
    ∗ Pipeline.prefHeld pre15 c (fun _ => fullShare) a.1)

/-- THE FIRST POINT: the invariant from what the launch's entry sorts out. Nothing is asked of the carried scratch. -/
theorem Phi15_in (c : Dev nD) :
    iprop(X15 V c ∗ Pipeline.prefHeld pre15 c (fun _ => fullShare) a.1
        ∗ Pipeline.scopedRest (Ix := Unit) (Name := ℕ) (U := UC) (Lvl := ℕ) (Val := Elt F) spec15 c)
      ⊢ (dat15 V a c).Φ 0 := by
  rw [Phi15_eq]
  unfold Φ15 X15
  rw [scopedRest15_split, prefHeld15_eq, cells15_eq]
  simp only [tbM15, hbM15, scM15_0, scM15_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK15_start _ _ _ rfl _
  isplitl [Hs1]; · iexact Hs1
  isplitl [Hcells]; · iexact Hcells
  isplitl [Hreg]; · iexact Hreg
  iexact Hrest

/-- THE LAST POINT: the invariant gives back what it took. -/
theorem Phi15_out (c : Dev nD) :
    (dat15 V a c).Φ (Fin.last _)
      ⊢ iprop(Y15 V a c ∗ Pipeline.ownSems0 (Ix := Unit) (Name := ℕ) (U := UC) (Lvl := ℕ) (Val := Elt F) (τ := τ) osem15 c
        ∗ Pipeline.scopedRest (Ix := Unit) (Name := ℕ) (U := UC) (Lvl := ℕ) (Val := Elt F) spec15 c) := by
  rw [Phi15_eq]
  unfold Φ15 Y15
  rw [scopedRest15_split, prefHeld15_eq, cells15_eq]
  simp only [tbM15, hbM15, scM15_0, scM15_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G16Dat.lean ====
/-
  One of the program's 25 gather launches (pipeline 16; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N16 (a : (pcfg16 (F := F)).Adm) : (cfg16 a).N = 2000 := N_16

/-- The body's branch is taken at the last row of a block of rows, -/
theorem cond16_iff : ∀ t : Fin grid16.N, k16_cond1 (grid16.coords t) = 1#1 ↔ t.val % 1000 = 999 := by decide +kernel
/-- the row a point works on is its number modulo 1000, -/
theorem rowAt16_coord : ∀ t : Fin grid16.N, (grid16.coords t 1).val = t.val % 1000 := by decide +kernel
/-- its block of rows is its number divided by 1000, -/
theorem blockAt16_coord : ∀ t : Fin grid16.N, (grid16.coords t 0).val = t.val / 1000 := by decide +kernel
/-- and the output's block index moves after exactly those points (and the grid ends at one). -/
theorem flushB16 : ∀ t : Fin grid16.N,
    (decide (t.val + 1 = grid16.N) || decide (∃ h : t.val + 1 < grid16.N, cc16_transform_2 (grid16.coords ⟨t.val + 1, h⟩) ≠ cc16_transform_2 (grid16.coords t)))
      = decide (t.val % 1000 = 999) := by decide +kernel

/-- The output's block index at a point: the point's block of rows. -/
theorem idx16_1 : ∀ t : Fin grid16.N, cc16_transform_2 (grid16.coords t) = ![t.val / 1000, 0] := by decide +kernel

/-- Every word of the launch's table names a row of the feature array. -/
def InRange16 (pf : pre16.Contents (Elt F)) : Prop := ∀ x : S16x2000.Idx, ((pf 0 : Vec F S16x2000 .i32) x).toNat < 100000

/-! ## The values -/

/-- Lane `l` of a one-row vector. -/
def lane16 (l : Fin 128) : S1x128.Idx := fun a => ⟨if a.val = 0 then 0 else l.val, by
  match a with
  | ⟨0, _⟩ => exact Nat.one_pos
  | ⟨1, _⟩ => exact l.isLt⟩

theorem lane16_one (l : Fin 128) : (lane16 l 1).val = l.val := rfl

/-- The grid point of row `r` of block `q` (total: the point number is taken modulo the grid's size). -/
def pt16 (q : ℕ) (r : ℕ) : Fin grid16.N := ⟨(q * 1000 + r) % grid16.N, Nat.mod_lt _ (by decide)⟩

/-- Inside the grid the point's number is `1000 q + r`. -/
theorem pt16_val (q r : ℕ) (hq : q < 2) (hr : r < 1000) : (pt16 q r).val = q * 1000 + r := by
  show (q * 1000 + r) % grid16.N = q * 1000 + r
  rw [N_16]; omega

/-- A point is the point of its block and row. -/
theorem pt16_self (t : Fin grid16.N) : pt16 (t.val / 1000) (t.val % 1000) = t := by
  apply Fin.ext
  show (t.val / 1000 * 1000 + t.val % 1000) % grid16.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means16 (tb : Vec F S16x2000 .i32) (A0 : Vec F S100000x128 .f32) (q : ℕ) : Vec F S1000x128 .f32 :=
  fun x => Gen.k24_pay1 (gath24 (grid16.coords (pt16 q (x 0).val)) tb A0) (lane16 (x 1))

/-- What the body stores in the output window at the last row of block `q`: the means, rounded, times the weight, rounded. -/
def xBlk16 (tb : Vec F S16x2000 .i32) (A0 : Vec F S100000x128 .f32) (Wt : Vec F S128x128 .f32) (q : ℕ) : Vec F S1000x128 .f32 :=
  Gen.k24_pay2 (means16 tb A0 q) Wt

/-- The carried scratch before point `n`: its rows below `n % 1000` are the means of block `n / 1000`. -/
def RowsOK16 (tb : Vec F S16x2000 .i32) (A0 : Vec F S100000x128 .f32) (n : ℕ) (g : Vec F S1000x128 .f32) : Prop :=
  ∀ x : S1000x128.Idx, (x 0).val < n % 1000 → g x = means16 tb A0 (n / 1000) x

/-- At the first row of a block nothing is asked. -/
theorem rowsOK16_start (tb : Vec F S16x2000 .i32) (A0 : Vec F S100000x128 .f32) (n : ℕ) (hn : n % 1000 = 0) (g : Vec F S1000x128 .f32) :
    RowsOK16 tb A0 n g := fun x hx => absurd hx (by omega)

/-- One point's row store keeps the invariant's rows and adds its own: after the store at point `t` the rows up to
    `t % 1000` are means. -/
theorem rowAt16_means (tb : Vec F S16x2000 .i32) (A0 : Vec F S100000x128 .f32) (t : Fin grid16.N) (g : Vec F S1000x128 .f32)
    (hg : RowsOK16 tb A0 t.val g) (x : S1000x128.Idx) (hx : (x 0).val ≤ t.val % 1000) :
    row24 (grid16.coords t) tb A0 g x = means16 tb A0 (t.val / 1000) x := by
  by_cases h : (x 0).val = t.val % 1000
  · rw [row24_of_eq (grid16.coords t) tb A0 g x (by rw [rowAt16_coord]; exact h) (lane16 (x 1)) rfl]
    unfold means16
    rw [h, pt16_self]
  · rw [row24_of_ne (grid16.coords t) tb A0 g x (by rw [rowAt16_coord]; exact h)]
    exact hg x (by omega)

/-- Within a block the invariant steps. -/
theorem rowsOK16_step (tb : Vec F S16x2000 .i32) (A0 : Vec F S100000x128 .f32) (t : Fin grid16.N) (g : Vec F S1000x128 .f32)
    (hg : RowsOK16 tb A0 t.val g) : RowsOK16 tb A0 (t.val + 1) (row24 (grid16.coords t) tb A0 g) := by
  by_cases hl : t.val % 1000 = 999
  · exact rowsOK16_start _ _ _ (by omega) _
  · intro x hx
    have h1 : (t.val + 1) / 1000 = t.val / 1000 := by omega
    rw [h1]
    exact rowAt16_means tb A0 t g hg x (by omega)

/-- At the last row of a block the scratch, after the row store, is the block's means whatever it held before. -/
theorem rowAt16_last (tb : Vec F S16x2000 .i32) (A0 : Vec F S100000x128 .f32) (t : Fin grid16.N) (hl : t.val % 1000 = 999)
    (g : Vec F S1000x128 .f32) (hg : RowsOK16 tb A0 t.val g) :
    row24 (grid16.coords t) tb A0 g = means16 tb A0 (t.val / 1000) :=
  funext fun x => rowAt16_means tb A0 t g hg x (by have : (x 0).val < 1000 := (x 0).isLt; omega)

/-! ## The invariant -/

/-- The launch's operands that no window stages, as the body is handed them: its table, the feature array left in
    HBM, and its two scratch buffers — whole buffers. -/
abbrev tbM16 : Memref sig .tc .smem S16x2000 .i32 := Memref.whole main_v33
abbrev hbM16 : Memref sig .tc .hbm S100000x128 .f32 := Memref.whole main_arg0
abbrev scM16_0 : Memref sig .tc .vmem S1000x128 .f32 := Memref.whole cc16_scratch0
abbrev scM16_1 : Memref sig .tc .vmem S16x128 .f32 := Memref.whole cc16_scratch1

section Region
-- the TensorCore's buffer contents when the launch is entered, and the launch's table
variable (V : (c : Dev nD) → (b : Ref sig .tc) → Buf (Elt F) ((c : Thread nD τ).loc b)) (a : (pcfg16 (F := F)).Adm)

/-- The table and the feature array, as vectors. -/
abbrev tb16 : Vec F S16x2000 .i32 := a.1 0
abbrev A16 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ16 (c : Dev nD) (n : ℕ) : sProp 𝕄 :=
  iprop(owns (c : Thread nD τ) tbM16 fullShare (tb16 a)
    ∗ owns (c : Thread nD τ) hbM16 fullShare (A16 V c)
    ∗ (∃ g : Vec F S1000x128 .f32, ⌜RowsOK16 (tb16 a) (A16 V c) n g⌝ ∗ owns (c : Thread nD τ) scM16_0 fullShare g)
    ∗ (∃ d, owns (c : Thread nD τ) scM16_1 fullShare d)
    ∗ cells24 c cc16_scratch2
    ∗ (∃ r, prngReg c r)
    ∗ Pipeline.scopedRestBut (Ix := Unit) (Name := ℕ) (U := UC) (Lvl := ℕ) (Val := Elt F) spec16 c [cc16_scratch0, cc16_scratch1])

/-! ## The windows' blocks and the proof data -/

/-- Window `w`'s block at point `t`, read off its array as the launch finds it. -/
def iblk16 (c : Dev nD) (w : Fin (cfg16 a).W) (t : Fin (cfg16 a).N) :
    (((cfg16 a).win w).xblock ((cfg16 a).grid.coords t)).Idx → Elt F ((cfg16 a).win w).elt :=
  (((cfg16 a).win w).blk t).view.read (Elt F) (V c (Pipeline.arrRef spec16 w))

/-- The proof data of the launch on core `c`: the arrays as the launch finds them; after the body at point `t` the
    weight window at its block and the output window at the product for `t`'s block of rows (read only at the block's
    last row, where the body stores it); the invariant above; nothing owed; full shares. -/
def dat16 (c : Dev nD) : Dat τ (Elt F) Unit ℕ UC ℕ (cfg16 a) c where
  A w := V c (Pipeline.arrRef spec16 w)
  after w t := match w with
    | ⟨0, _⟩ => iblk16 V a c 0 t
    | ⟨1, _⟩ => xBlk16 (tb16 a) (A16 V c) (iblk16 V a c 0 t) (t.val / 1000)
  Φ n := Φ16 V a c n.val
  q _ := fullShare
  owed _ := 0

/-- The proof data's arrays are the entry contents. -/
theorem A_eq16 (c : Dev nD) (w : Fin (cfg16 a).W) : (dat16 V a c).A w = V c (Pipeline.arrRef spec16 w) := by
  dsimp only [dat16]

/-- What the body leaves, window by window. -/
theorem after16_0 (c : Dev nD) (t : Fin (cfg16 a).N) : (dat16 V a c).after 0 t = iblk16 V a c 0 t := by dsimp only [dat16]; rfl
theorem after16_1 (c : Dev nD) (t : Fin (cfg16 a).N) :
    (dat16 V a c).after 1 t = xBlk16 (tb16 a) (A16 V c) (iblk16 V a c 0 t) (t.val / 1000) := by dsimp only [dat16]; rfl

/-- The invariant and the tallies, at a point. -/
theorem Phi16_eq (c : Dev nD) (n : Fin ((cfg16 a).N + 1)) : (dat16 V a c).Φ n = Φ16 V a c n.val := by dsimp only [dat16]
theorem owed16_eq (c : Dev nD) (n : Fin ((cfg16 a).N + 1)) : (dat16 V a c).owed n = 0 := by dsimp only [dat16]

/-- The weight window holds its block at every point, fetched there or not: its block index never moves. -/
theorem before16_0 (c : Dev nD) (t : Fin (cfg16 a).N) (d) : (dat16 V a c).before 0 t d = iblk16 V a c 0 t :=
  ((dat16 V a c).before_in_eq_fetched 0 rfl (fun _ => rfl) (fun _ _ _ => rfl)
      (fun t => by rw [after16_0]; unfold Dat.blockOf iblk16; rw [A_eq16]; try rfl) t d).trans
    (by unfold Dat.fetched Dat.blockOf iblk16; rw [A_eq16]; try rfl)

/-- The output window is written back after the last row of each block of rows, and only there; -/
theorem flush16_1 (t : Fin (cfg16 a).N) : ((cfg16 a).win 1).flush t = decide (t.val % 1000 = 999) := by
  unfold Window.flush
  exact flushB16 t
/-- and it is idle at every other row. -/
theorem idle16_1 (t : Fin (cfg16 a).N) : (cfg16 a).idle 1 ((cfg16 a).grid.coords t) = !decide (t.val % 1000 = 999) := by
  show (!(k16_cond1 (grid16.coords t) == 1#1)) = _
  congr 1
  by_cases h : t.val % 1000 = 999
  · rw [decide_eq_true h, (cond16_iff t).2 h]; rfl
  · rw [decide_eq_false h]
    exact beq_false_of_ne fun e => h ((cond16_iff t).1 e)

end Region

/-! ## The body obligation -/

section Body
variable (V : (c : Dev nD) → (b : Ref sig .tc) → Buf (Elt F) ((c : Thread nD τ).loc b)) (a : (pcfg16 (F := F)).Adm)

/-- Each window's current staging memref at point `t`, spelled as the pipeline passes it, and its wholeness. -/
abbrev ms16_0 (t : Fin (cfg16 a).N) : Memref sig .tc .vmem S128x128 .f32 := spec16_0.stage ((cfg16 a).slots t 0)
abbrev hs16_0 (t : Fin (cfg16 a).N) : (ms16_0 a t).IsWhole := hstage16_0 (((cfg16 a).slots t 0).cast nbuf16_0)
abbrev ms16_1 (t : Fin (cfg16 a).N) : Memref sig .tc .vmem S1000x128 .f32 := spec16_1.stage ((cfg16 a).slots t 1)
abbrev hs16_1 (t : Fin (cfg16 a).N) : (ms16_1 a t).IsWhole := hstage16_1 (((cfg16 a).slots t 1).cast nbuf16_1)

/-- The launch's body function, under the name the runs are stated at. -/
theorem bodyFn16_eq : cc16__gather_agg_matmul_kernel (F := F) = gatherFn := rfl

/-- The kernel body at point `t`, on what the pipeline calls it with. -/
abbrev bodyAt16 (t : Fin (cfg16 a).N) : Prog (TpuEff nD τ sig (Elt F) Λ₀ .tc) PUnit :=
  cc16__gather_agg_matmul_kernel (grid16.coords t) tbM16 (Memref.isWhole_whole _) hbM16 (Memref.isWhole_whole _)
    (ms16_0 a t) (hs16_0 a t) (ms16_1 a t) (hs16_1 a t) scM16_0 (Memref.isWhole_whole _) scM16_1 (Memref.isWhole_whole _) cc16_scratch2

/-- What the body is called with at point `t`, the windows one by one, -/
def bodyPre16 (c : Dev nD) (t : Fin (cfg16 a).N) : sProp 𝕄 :=
  iprop((dat16 V a c).Φ t.castSucc ∗ (dat16 V a c).owesAt () t.castSucc
    ∗ (∃ d, owns (c : Thread nD τ) (ms16_0 a t) fullShare ((dat16 V a c).before 0 t d))
    ∗ (∃ d, owns (c : Thread nD τ) (ms16_1 a t) fullShare ((dat16 V a c).before 1 t d)))

/-- and what it returns: the output window as it was found where the point is idle for it, at the block's product
    at the last row of a block. -/
def bodyPost16 (c : Dev nD) (t : Fin (cfg16 a).N) : sProp 𝕄 :=
  iprop((dat16 V a c).Φ t.succ ∗ (dat16 V a c).owesAt () t.succ
    ∗ owns (c : Thread nD τ) (ms16_0 a t) fullShare ((dat16 V a c).after 0 t)
    ∗ (match (cfg16 a).idle 1 ((cfg16 a).grid.coords t) with
        | true =>
          match ((cfg16 a).win 1).flush t with
          | false => iprop(∃ d, owns (c : Thread nD τ) (ms16_1 a t) fullShare ((dat16 V a c).before 1 t d))
          | true => owns (c : Thread nD τ) (ms16_1 a t) fullShare ((dat16 V a c).after 1 t)
        | false => owns (c : Thread nD τ) (ms16_1 a t) fullShare ((dat16 V a c).after 1 t)))

/-- The body at any point. The weight window holds its block; the invariant hands the body its table, the feature
    array, both scratch buffers and its transfer cells, and takes them back with the carried scratch one row further
    (`rowsOK16_step`); at the last row of a block the product the body stores is the block's (`rowAt16_last`); the core's
    `owes` goes in at whatever the points before recorded and comes back with this point's waits. -/
theorem sound_body16 (hR : InRange16 a.1) (c : Dev nD) (t : Fin (cfg16 a).N) :
    bodyPre16 V a c t ⊢ wp frame (wpE (defs₀ (F := F)) Variants.none c none) Set.univ (bodyAt16 a t) (fun _ => bodyPost16 V a c t) := by
  unfold bodyPre16 bodyPost16 bodyAt16
  rw [flush16_1, idle16_1]
  simp only [before16_0]
  rw [after16_0, Phi16_eq, Phi16_eq, Fin.val_succ, Fin.coe_castSucc]
  unfold Dat.owesAt Pipeline.owesWithin
  rw [owed16_eq, owed16_eq]
  unfold Φ16
  rw [bodyFn16_eq]
  by_cases hl : t.val % 1000 = 999
  · -- the last row of a block
    rw [decide_eq_true hl, Bool.not_true]
    dsimp only
    rw [after16_1]
    unfold xBlk16
    iintro ⟨⟨Htb, Hhb, ⟨%g, %hg, Hs0⟩, Hs1, Hcells, Hreg, Hrest⟩, ⟨%W, -, HW⟩, ⟨%d0, H0⟩, ⟨%d1, H1⟩⟩
    rw [← rowAt16_last (tb16 a) (A16 V c) t hl g hg]
    iapply (run24_last c (grid16.coords t) tbM16 (Memref.isWhole_whole _) hbM16 (Memref.isWhole_whole _) (ms16_0 a t) (hs16_0 a t)
      (ms16_1 a t) (hs16_1 a t) scM16_0 (Memref.isWhole_whole _) scM16_1 (Memref.isWhole_whole _) cc16_scratch2
      ((cond16_iff t).2 hl) (tb16 a) hR (A16 V c) (iblk16 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK16_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k16_cond1 (grid16.coords t) ≠ 1#1 := fun e => hl ((cond16_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid16.coords t) tbM16 (Memref.isWhole_whole _) hbM16 (Memref.isWhole_whole _) (ms16_0 a t) (hs16_0 a t)
      (ms16_1 a t) (hs16_1 a t) scM16_0 (Memref.isWhole_whole _) scM16_1 (Memref.isWhole_whole _) cc16_scratch2
      hc (tb16 a) hR (A16 V c) (iblk16 V a c 0 t) g
      (owns (c : Thread nD τ) (ms16_1 a t) fullShare ((dat16 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK16_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation16 (hR : InRange16 a.1) (c : Dev nD) :
    BodyObligation (dat16 (F := F) V a c) (defs₀ (F := F)) Variants.none () Set.univ := fun t => by
  rw [bigSep_W16, bigSep_W16]
  exact sound_body16 V a hR c t

end Body

/-! ## The value: what the launch leaves in its output array -/

section Value
variable (V : (c : Dev nD) → (b : Ref sig .tc) → Buf (Elt F) ((c : Thread nD τ).loc b)) (a : (pcfg16 (F := F)).Adm)

/-- Entry `(r, l)` of a block of rows. -/
def cell16 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk16 (tb : Vec F S16x2000 .i32) (A0 : Vec F S100000x128 .f32) (Wt : Vec F S128x128 .f32) : Vec F S2000x128 .f32 :=
  fun y => xBlk16 tb A0 Wt ((y 0).val / 1000) (cell16 ((y 0).val % 1000) (Nat.mod_lt _ (by decide)) (y 1))

/-- The weight window's block is the whole weight, at every point: its block index is (0, 0). -/
theorem wblk16_eq (c : Dev nD) (t : Fin (cfg16 a).N) : iblk16 V a c 0 t = (V c main_arg1 : Vec F S128x128 .f32) := by
  funext x
  unfold iblk16
  rw [View.read_apply]
  refine (cast_eq _ _).trans (congrArg (V c main_arg1) (funext fun b => Fin.ext ?_))
  refine (((cfg16 a).win 0).rect_emb_val_of_index_zero t b ?_ x)
  match b with
  | ⟨0, _⟩ => rfl
  | ⟨1, _⟩ => rfl

/-- Where entry `x` of the output window's block at point `t` sits in the output array. -/
abbrev emb16 (t : Fin (cfg16 a).N) (x : S1000x128.Idx) : S2000x128.Idx := (((cfg16 a).win 1).blk t).view.emb x

theorem emb16_val (t : Fin (cfg16 a).N) (x : S1000x128.Idx) :
    (emb16 a t x 0).val = t.val / 1000 * 1000 + (x 0).val ∧ (emb16 a t x 1).val = (x 1).val := by
  have hix : ((cfg16 a).win 1).index t = ![t.val / 1000, 0] := idx16_1 t
  have e0 := ((cfg16 a).win 1).rect_emb_val t x (0 : Fin 2)
  have e1 := ((cfg16 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after16_chunk (c : Dev nD) (t : Fin (cfg16 a).N) (x : S1000x128.Idx) :
    (dat16 V a c).after 1 t x = xChunk16 (tb16 a) (A16 V c) (V c main_arg1) (emb16 a t x) := by
  obtain ⟨e0, e1⟩ := emb16_val a t x
  have hx0 : (x 0).val < 1000 := (x 0).isLt
  rw [after16_1, wblk16_eq]
  unfold xChunk16
  have hq : (emb16 a t x 0).val / 1000 = t.val / 1000 := by rw [e0]; omega
  have hcell : cell16 ((emb16 a t x 0).val % 1000) (Nat.mod_lt _ (by decide)) (emb16 a t x 1) = x := by
    funext b
    apply Fin.ext
    match b with
    | ⟨0, _⟩ =>
      show (emb16 a t x 0).val % 1000 = (x 0).val
      rw [e0]; omega
    | ⟨1, _⟩ => exact e1
  rw [hq, hcell]

/-- Two entries of the output array with the same coordinates are the same. -/
theorem idx16_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb16_cell (t : Fin (cfg16 a).N) (i : S2000x128.Idx) (ht : t.val / 1000 = (i 0).val / 1000) :
    emb16 a t (cell16 ((i 0).val % 1000) (Nat.mod_lt _ (by decide)) (i 1)) = i := by
  obtain ⟨e0, e1⟩ := emb16_val a t (cell16 ((i 0).val % 1000) (Nat.mod_lt _ (by decide)) (i 1))
  refine idx16_ext _ _ ?_ e1
  rw [e0, ht]
  show (i 0).val / 1000 * 1000 + (i 0).val % 1000 = (i 0).val
  omega

/-- Every entry of the output array lies in the block written back after the last row of its block of rows. -/
theorem cover16 (i : S2000x128.Idx) :
    ∃ t : Fin (cfg16 a).N, ((cfg16 a).win 1).flush t = true ∧ i ∈ (((cfg16 a).win 1).blk t).view.set := by
  have hi0 : (i 0).val < 2000 := (i 0).isLt
  have hN : (i 0).val / 1000 * 1000 + 999 < (cfg16 a).N := by rw [N16]; omega
  refine ⟨⟨(i 0).val / 1000 * 1000 + 999, hN⟩, ?_, ?_⟩
  · rw [flush16_1]; exact decide_eq_true (by show ((i 0).val / 1000 * 1000 + 999) % 1000 = 999; omega)
  · refine Finset.mem_map.mpr ⟨cell16 ((i 0).val % 1000) (Nat.mod_lt _ (by decide)) (i 1), Finset.mem_univ _, ?_⟩
    exact emb16_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out16 (c : Dev nD) :
    (dat16 V a c).arrAt 1 (cfg16 a).N = (xChunk16 (tb16 a) (A16 V c) (V c main_arg1) : Vec F S2000x128 .f32) :=
  (dat16 V a c).arrAt_eq_of_cover 1 _
    (fun t _ => funext fun x => (after16_chunk V a c t x).trans (cast_eq _ _).symm)
    (cover16 a)

end Value

/-! ## The invariant's two ends -/

section Ends
variable (V : (c : Dev nD) → (b : Ref sig .tc) → Buf (Elt F) ((c : Thread nD τ).loc b)) (a : (pcfg16 (F := F)).Adm)

/-- The body's own transfer cells as the launch's protocol lists them: the 16 cells of its semaphore operand. -/
def osem16 : Fin 16 → SemLoc sig := fun k => SemLoc.dma (cc16_scratch2.ix (Shape.ofLane k))
/-- They are scoped, distinct, and none is a window's. -/
theorem ownSemFacts16 : Pipeline.OwnSemFacts spec16 osem16 := by decide
/-- The cells at zero, listed, are the cells as the body names them. -/
theorem cells16_eq (c : Dev nD) :
    (Pipeline.ownSems0 (Ix := Unit) (Name := ℕ) (U := UC) (Lvl := ℕ) (Val := Elt F) (τ := τ) osem16 c : sProp 𝕄) = cells24 c cc16_scratch2 := by
  rw [Pipeline.ownSems0_eq_of_list c osem16 [0, 1, 2, 3, 4, 5, 6, 7, 8, 9, 10, 11, 12, 13, 14, 15] (by decide) (by decide)]; rfl

/-- The launch's one table, held. -/
theorem prefHeld16_eq (c : Dev nD) (pf : pre16.Contents (Elt F)) :
    (Pipeline.prefHeld pre16 c (fun _ => fullShare) pf : sProp 𝕄) = (((c : Thread nD τ).loc main_v33) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X16 (c : Dev nD) : sProp 𝕄 :=
  iprop((∃ r, prngReg c r) ∗ Pipeline.ownSems0 (Ix := Unit) (Name := ℕ) (U := UC) (Lvl := ℕ) (Val := Elt F) (τ := τ) osem16 c
    ∗ (((c : Thread nD τ).loc main_arg0) ↦{fullShare} V c main_arg0))
abbrev Y16 (c : Dev nD) : sProp 𝕄 :=
  iprop((∃ r, prngReg c r) ∗ (((c : Thread nD τ).loc main_arg0) ↦{fullShare} V c main_arg0)
    ∗ Pipeline.prefHeld pre16 c (fun _ => fullShare) a.1)

/-- THE FIRST POINT: the invariant from what the launch's entry sorts out. Nothing is asked of the carried scratch. -/
theorem Phi16_in (c : Dev nD) :
    iprop(X16 V c ∗ Pipeline.prefHeld pre16 c (fun _ => fullShare) a.1
        ∗ Pipeline.scopedRest (Ix := Unit) (Name := ℕ) (U := UC) (Lvl := ℕ) (Val := Elt F) spec16 c)
      ⊢ (dat16 V a c).Φ 0 := by
  rw [Phi16_eq]
  unfold Φ16 X16
  rw [scopedRest16_split, prefHeld16_eq, cells16_eq]
  simp only [tbM16, hbM16, scM16_0, scM16_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK16_start _ _ _ rfl _
  isplitl [Hs1]; · iexact Hs1
  isplitl [Hcells]; · iexact Hcells
  isplitl [Hreg]; · iexact Hreg
  iexact Hrest

/-- THE LAST POINT: the invariant gives back what it took. -/
theorem Phi16_out (c : Dev nD) :
    (dat16 V a c).Φ (Fin.last _)
      ⊢ iprop(Y16 V a c ∗ Pipeline.ownSems0 (Ix := Unit) (Name := ℕ) (U := UC) (Lvl := ℕ) (Val := Elt F) (τ := τ) osem16 c
        ∗ Pipeline.scopedRest (Ix := Unit) (Name := ℕ) (U := UC) (Lvl := ℕ) (Val := Elt F) spec16 c) := by
  rw [Phi16_eq]
  unfold Φ16 Y16
  rw [scopedRest16_split, prefHeld16_eq, cells16_eq]
  simp only [tbM16, hbM16, scM16_0, scM16_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G17Dat.lean ====
/-
  One of the program's 25 gather launches (pipeline 17; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N17 (a : (pcfg17 (F := F)).Adm) : (cfg17 a).N = 2000 := N_17

/-- The body's branch is taken at the last row of a block of rows, -/
theorem cond17_iff : ∀ t : Fin grid17.N, k17_cond1 (grid17.coords t) = 1#1 ↔ t.val % 1000 = 999 := by decide +kernel
/-- the row a point works on is its number modulo 1000, -/
theorem rowAt17_coord : ∀ t : Fin grid17.N, (grid17.coords t 1).val = t.val % 1000 := by decide +kernel
/-- its block of rows is its number divided by 1000, -/
theorem blockAt17_coord : ∀ t : Fin grid17.N, (grid17.coords t 0).val = t.val / 1000 := by decide +kernel
/-- and the output's block index moves after exactly those points (and the grid ends at one). -/
theorem flushB17 : ∀ t : Fin grid17.N,
    (decide (t.val + 1 = grid17.N) || decide (∃ h : t.val + 1 < grid17.N, cc17_transform_2 (grid17.coords ⟨t.val + 1, h⟩) ≠ cc17_transform_2 (grid17.coords t)))
      = decide (t.val % 1000 = 999) := by decide +kernel

/-- The output's block index at a point: the point's block of rows. -/
theorem idx17_1 : ∀ t : Fin grid17.N, cc17_transform_2 (grid17.coords t) = ![t.val / 1000, 0] := by decide +kernel

/-- Every word of the launch's table names a row of the feature array. -/
def InRange17 (pf : pre17.Contents (Elt F)) : Prop := ∀ x : S16x2000.Idx, ((pf 0 : Vec F S16x2000 .i32) x).toNat < 100000

/-! ## The values -/

/-- Lane `l` of a one-row vector. -/
def lane17 (l : Fin 128) : S1x128.Idx := fun a => ⟨if a.val = 0 then 0 else l.val, by
  match a with
  | ⟨0, _⟩ => exact Nat.one_pos
  | ⟨1, _⟩ => exact l.isLt⟩

theorem lane17_one (l : Fin 128) : (lane17 l 1).val = l.val := rfl

/-- The grid point of row `r` of block `q` (total: the point number is taken modulo the grid's size). -/
def pt17 (q : ℕ) (r : ℕ) : Fin grid17.N := ⟨(q * 1000 + r) % grid17.N, Nat.mod_lt _ (by decide)⟩

/-- Inside the grid the point's number is `1000 q + r`. -/
theorem pt17_val (q r : ℕ) (hq : q < 2) (hr : r < 1000) : (pt17 q r).val = q * 1000 + r := by
  show (q * 1000 + r) % grid17.N = q * 1000 + r
  rw [N_17]; omega

/-- A point is the point of its block and row. -/
theorem pt17_self (t : Fin grid17.N) : pt17 (t.val / 1000) (t.val % 1000) = t := by
  apply Fin.ext
  show (t.val / 1000 * 1000 + t.val % 1000) % grid17.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means17 (tb : Vec F S16x2000 .i32) (A0 : Vec F S100000x128 .f32) (q : ℕ) : Vec F S1000x128 .f32 :=
  fun x => Gen.k24_pay1 (gath24 (grid17.coords (pt17 q (x 0).val)) tb A0) (lane17 (x 1))

/-- What the body stores in the output window at the last row of block `q`: the means, rounded, times the weight, rounded. -/
def xBlk17 (tb : Vec F S16x2000 .i32) (A0 : Vec F S100000x128 .f32) (Wt : Vec F S128x128 .f32) (q : ℕ) : Vec F S1000x128 .f32 :=
  Gen.k24_pay2 (means17 tb A0 q) Wt

/-- The carried scratch before point `n`: its rows below `n % 1000` are the means of block `n / 1000`. -/
def RowsOK17 (tb : Vec F S16x2000 .i32) (A0 : Vec F S100000x128 .f32) (n : ℕ) (g : Vec F S1000x128 .f32) : Prop :=
  ∀ x : S1000x128.Idx, (x 0).val < n % 1000 → g x = means17 tb A0 (n / 1000) x

/-- At the first row of a block nothing is asked. -/
theorem rowsOK17_start (tb : Vec F S16x2000 .i32) (A0 : Vec F S100000x128 .f32) (n : ℕ) (hn : n % 1000 = 0) (g : Vec F S1000x128 .f32) :
    RowsOK17 tb A0 n g := fun x hx => absurd hx (by omega)

/-- One point's row store keeps the invariant's rows and adds its own: after the store at point `t` the rows up to
    `t % 1000` are means. -/
theorem rowAt17_means (tb : Vec F S16x2000 .i32) (A0 : Vec F S100000x128 .f32) (t : Fin grid17.N) (g : Vec F S1000x128 .f32)
    (hg : RowsOK17 tb A0 t.val g) (x : S1000x128.Idx) (hx : (x 0).val ≤ t.val % 1000) :
    row24 (grid17.coords t) tb A0 g x = means17 tb A0 (t.val / 1000) x := by
  by_cases h : (x 0).val = t.val % 1000
  · rw [row24_of_eq (grid17.coords t) tb A0 g x (by rw [rowAt17_coord]; exact h) (lane17 (x 1)) rfl]
    unfold means17
    rw [h, pt17_self]
  · rw [row24_of_ne (grid17.coords t) tb A0 g x (by rw [rowAt17_coord]; exact h)]
    exact hg x (by omega)

/-- Within a block the invariant steps. -/
theorem rowsOK17_step (tb : Vec F S16x2000 .i32) (A0 : Vec F S100000x128 .f32) (t : Fin grid17.N) (g : Vec F S1000x128 .f32)
    (hg : RowsOK17 tb A0 t.val g) : RowsOK17 tb A0 (t.val + 1) (row24 (grid17.coords t) tb A0 g) := by
  by_cases hl : t.val % 1000 = 999
  · exact rowsOK17_start _ _ _ (by omega) _
  · intro x hx
    have h1 : (t.val + 1) / 1000 = t.val / 1000 := by omega
    rw [h1]
    exact rowAt17_means tb A0 t g hg x (by omega)

/-- At the last row of a block the scratch, after the row store, is the block's means whatever it held before. -/
theorem rowAt17_last (tb : Vec F S16x2000 .i32) (A0 : Vec F S100000x128 .f32) (t : Fin grid17.N) (hl : t.val % 1000 = 999)
    (g : Vec F S1000x128 .f32) (hg : RowsOK17 tb A0 t.val g) :
    row24 (grid17.coords t) tb A0 g = means17 tb A0 (t.val / 1000) :=
  funext fun x => rowAt17_means tb A0 t g hg x (by have : (x 0).val < 1000 := (x 0).isLt; omega)

/-! ## The invariant -/

/-- The launch's operands that no window stages, as the body is handed them: its table, the feature array left in
    HBM, and its two scratch buffers — whole buffers. -/
abbrev tbM17 : Memref sig .tc .smem S16x2000 .i32 := Memref.whole main_v35
abbrev hbM17 : Memref sig .tc .hbm S100000x128 .f32 := Memref.whole main_arg0
abbrev scM17_0 : Memref sig .tc .vmem S1000x128 .f32 := Memref.whole cc17_scratch0
abbrev scM17_1 : Memref sig .tc .vmem S16x128 .f32 := Memref.whole cc17_scratch1

section Region
-- the TensorCore's buffer contents when the launch is entered, and the launch's table
variable (V : (c : Dev nD) → (b : Ref sig .tc) → Buf (Elt F) ((c : Thread nD τ).loc b)) (a : (pcfg17 (F := F)).Adm)

/-- The table and the feature array, as vectors. -/
abbrev tb17 : Vec F S16x2000 .i32 := a.1 0
abbrev A17 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ17 (c : Dev nD) (n : ℕ) : sProp 𝕄 :=
  iprop(owns (c : Thread nD τ) tbM17 fullShare (tb17 a)
    ∗ owns (c : Thread nD τ) hbM17 fullShare (A17 V c)
    ∗ (∃ g : Vec F S1000x128 .f32, ⌜RowsOK17 (tb17 a) (A17 V c) n g⌝ ∗ owns (c : Thread nD τ) scM17_0 fullShare g)
    ∗ (∃ d, owns (c : Thread nD τ) scM17_1 fullShare d)
    ∗ cells24 c cc17_scratch2
    ∗ (∃ r, prngReg c r)
    ∗ Pipeline.scopedRestBut (Ix := Unit) (Name := ℕ) (U := UC) (Lvl := ℕ) (Val := Elt F) spec17 c [cc17_scratch0, cc17_scratch1])

/-! ## The windows' blocks and the proof data -/

/-- Window `w`'s block at point `t`, read off its array as the launch finds it. -/
def iblk17 (c : Dev nD) (w : Fin (cfg17 a).W) (t : Fin (cfg17 a).N) :
    (((cfg17 a).win w).xblock ((cfg17 a).grid.coords t)).Idx → Elt F ((cfg17 a).win w).elt :=
  (((cfg17 a).win w).blk t).view.read (Elt F) (V c (Pipeline.arrRef spec17 w))

/-- The proof data of the launch on core `c`: the arrays as the launch finds them; after the body at point `t` the
    weight window at its block and the output window at the product for `t`'s block of rows (read only at the block's
    last row, where the body stores it); the invariant above; nothing owed; full shares. -/
def dat17 (c : Dev nD) : Dat τ (Elt F) Unit ℕ UC ℕ (cfg17 a) c where
  A w := V c (Pipeline.arrRef spec17 w)
  after w t := match w with
    | ⟨0, _⟩ => iblk17 V a c 0 t
    | ⟨1, _⟩ => xBlk17 (tb17 a) (A17 V c) (iblk17 V a c 0 t) (t.val / 1000)
  Φ n := Φ17 V a c n.val
  q _ := fullShare
  owed _ := 0

/-- The proof data's arrays are the entry contents. -/
theorem A_eq17 (c : Dev nD) (w : Fin (cfg17 a).W) : (dat17 V a c).A w = V c (Pipeline.arrRef spec17 w) := by
  dsimp only [dat17]

/-- What the body leaves, window by window. -/
theorem after17_0 (c : Dev nD) (t : Fin (cfg17 a).N) : (dat17 V a c).after 0 t = iblk17 V a c 0 t := by dsimp only [dat17]; rfl
theorem after17_1 (c : Dev nD) (t : Fin (cfg17 a).N) :
    (dat17 V a c).after 1 t = xBlk17 (tb17 a) (A17 V c) (iblk17 V a c 0 t) (t.val / 1000) := by dsimp only [dat17]; rfl

/-- The invariant and the tallies, at a point. -/
theorem Phi17_eq (c : Dev nD) (n : Fin ((cfg17 a).N + 1)) : (dat17 V a c).Φ n = Φ17 V a c n.val := by dsimp only [dat17]
theorem owed17_eq (c : Dev nD) (n : Fin ((cfg17 a).N + 1)) : (dat17 V a c).owed n = 0 := by dsimp only [dat17]

/-- The weight window holds its block at every point, fetched there or not: its block index never moves. -/
theorem before17_0 (c : Dev nD) (t : Fin (cfg17 a).N) (d) : (dat17 V a c).before 0 t d = iblk17 V a c 0 t :=
  ((dat17 V a c).before_in_eq_fetched 0 rfl (fun _ => rfl) (fun _ _ _ => rfl)
      (fun t => by rw [after17_0]; unfold Dat.blockOf iblk17; rw [A_eq17]; try rfl) t d).trans
    (by unfold Dat.fetched Dat.blockOf iblk17; rw [A_eq17]; try rfl)

/-- The output window is written back after the last row of each block of rows, and only there; -/
theorem flush17_1 (t : Fin (cfg17 a).N) : ((cfg17 a).win 1).flush t = decide (t.val % 1000 = 999) := by
  unfold Window.flush
  exact flushB17 t
/-- and it is idle at every other row. -/
theorem idle17_1 (t : Fin (cfg17 a).N) : (cfg17 a).idle 1 ((cfg17 a).grid.coords t) = !decide (t.val % 1000 = 999) := by
  show (!(k17_cond1 (grid17.coords t) == 1#1)) = _
  congr 1
  by_cases h : t.val % 1000 = 999
  · rw [decide_eq_true h, (cond17_iff t).2 h]; rfl
  · rw [decide_eq_false h]
    exact beq_false_of_ne fun e => h ((cond17_iff t).1 e)

end Region

/-! ## The body obligation -/

section Body
variable (V : (c : Dev nD) → (b : Ref sig .tc) → Buf (Elt F) ((c : Thread nD τ).loc b)) (a : (pcfg17 (F := F)).Adm)

/-- Each window's current staging memref at point `t`, spelled as the pipeline passes it, and its wholeness. -/
abbrev ms17_0 (t : Fin (cfg17 a).N) : Memref sig .tc .vmem S128x128 .f32 := spec17_0.stage ((cfg17 a).slots t 0)
abbrev hs17_0 (t : Fin (cfg17 a).N) : (ms17_0 a t).IsWhole := hstage17_0 (((cfg17 a).slots t 0).cast nbuf17_0)
abbrev ms17_1 (t : Fin (cfg17 a).N) : Memref sig .tc .vmem S1000x128 .f32 := spec17_1.stage ((cfg17 a).slots t 1)
abbrev hs17_1 (t : Fin (cfg17 a).N) : (ms17_1 a t).IsWhole := hstage17_1 (((cfg17 a).slots t 1).cast nbuf17_1)

/-- The launch's body function, under the name the runs are stated at. -/
theorem bodyFn17_eq : cc17__gather_agg_matmul_kernel (F := F) = gatherFn := rfl

/-- The kernel body at point `t`, on what the pipeline calls it with. -/
abbrev bodyAt17 (t : Fin (cfg17 a).N) : Prog (TpuEff nD τ sig (Elt F) Λ₀ .tc) PUnit :=
  cc17__gather_agg_matmul_kernel (grid17.coords t) tbM17 (Memref.isWhole_whole _) hbM17 (Memref.isWhole_whole _)
    (ms17_0 a t) (hs17_0 a t) (ms17_1 a t) (hs17_1 a t) scM17_0 (Memref.isWhole_whole _) scM17_1 (Memref.isWhole_whole _) cc17_scratch2

/-- What the body is called with at point `t`, the windows one by one, -/
def bodyPre17 (c : Dev nD) (t : Fin (cfg17 a).N) : sProp 𝕄 :=
  iprop((dat17 V a c).Φ t.castSucc ∗ (dat17 V a c).owesAt () t.castSucc
    ∗ (∃ d, owns (c : Thread nD τ) (ms17_0 a t) fullShare ((dat17 V a c).before 0 t d))
    ∗ (∃ d, owns (c : Thread nD τ) (ms17_1 a t) fullShare ((dat17 V a c).before 1 t d)))

/-- and what it returns: the output window as it was found where the point is idle for it, at the block's product
    at the last row of a block. -/
def bodyPost17 (c : Dev nD) (t : Fin (cfg17 a).N) : sProp 𝕄 :=
  iprop((dat17 V a c).Φ t.succ ∗ (dat17 V a c).owesAt () t.succ
    ∗ owns (c : Thread nD τ) (ms17_0 a t) fullShare ((dat17 V a c).after 0 t)
    ∗ (match (cfg17 a).idle 1 ((cfg17 a).grid.coords t) with
        | true =>
          match ((cfg17 a).win 1).flush t with
          | false => iprop(∃ d, owns (c : Thread nD τ) (ms17_1 a t) fullShare ((dat17 V a c).before 1 t d))
          | true => owns (c : Thread nD τ) (ms17_1 a t) fullShare ((dat17 V a c).after 1 t)
        | false => owns (c : Thread nD τ) (ms17_1 a t) fullShare ((dat17 V a c).after 1 t)))

/-- The body at any point. The weight window holds its block; the invariant hands the body its table, the feature
    array, both scratch buffers and its transfer cells, and takes them back with the carried scratch one row further
    (`rowsOK17_step`); at the last row of a block the product the body stores is the block's (`rowAt17_last`); the core's
    `owes` goes in at whatever the points before recorded and comes back with this point's waits. -/
theorem sound_body17 (hR : InRange17 a.1) (c : Dev nD) (t : Fin (cfg17 a).N) :
    bodyPre17 V a c t ⊢ wp frame (wpE (defs₀ (F := F)) Variants.none c none) Set.univ (bodyAt17 a t) (fun _ => bodyPost17 V a c t) := by
  unfold bodyPre17 bodyPost17 bodyAt17
  rw [flush17_1, idle17_1]
  simp only [before17_0]
  rw [after17_0, Phi17_eq, Phi17_eq, Fin.val_succ, Fin.coe_castSucc]
  unfold Dat.owesAt Pipeline.owesWithin
  rw [owed17_eq, owed17_eq]
  unfold Φ17
  rw [bodyFn17_eq]
  by_cases hl : t.val % 1000 = 999
  · -- the last row of a block
    rw [decide_eq_true hl, Bool.not_true]
    dsimp only
    rw [after17_1]
    unfold xBlk17
    iintro ⟨⟨Htb, Hhb, ⟨%g, %hg, Hs0⟩, Hs1, Hcells, Hreg, Hrest⟩, ⟨%W, -, HW⟩, ⟨%d0, H0⟩, ⟨%d1, H1⟩⟩
    rw [← rowAt17_last (tb17 a) (A17 V c) t hl g hg]
    iapply (run24_last c (grid17.coords t) tbM17 (Memref.isWhole_whole _) hbM17 (Memref.isWhole_whole _) (ms17_0 a t) (hs17_0 a t)
      (ms17_1 a t) (hs17_1 a t) scM17_0 (Memref.isWhole_whole _) scM17_1 (Memref.isWhole_whole _) cc17_scratch2
      ((cond17_iff t).2 hl) (tb17 a) hR (A17 V c) (iblk17 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK17_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k17_cond1 (grid17.coords t) ≠ 1#1 := fun e => hl ((cond17_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid17.coords t) tbM17 (Memref.isWhole_whole _) hbM17 (Memref.isWhole_whole _) (ms17_0 a t) (hs17_0 a t)
      (ms17_1 a t) (hs17_1 a t) scM17_0 (Memref.isWhole_whole _) scM17_1 (Memref.isWhole_whole _) cc17_scratch2
      hc (tb17 a) hR (A17 V c) (iblk17 V a c 0 t) g
      (owns (c : Thread nD τ) (ms17_1 a t) fullShare ((dat17 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK17_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation17 (hR : InRange17 a.1) (c : Dev nD) :
    BodyObligation (dat17 (F := F) V a c) (defs₀ (F := F)) Variants.none () Set.univ := fun t => by
  rw [bigSep_W17, bigSep_W17]
  exact sound_body17 V a hR c t

end Body

/-! ## The value: what the launch leaves in its output array -/

section Value
variable (V : (c : Dev nD) → (b : Ref sig .tc) → Buf (Elt F) ((c : Thread nD τ).loc b)) (a : (pcfg17 (F := F)).Adm)

/-- Entry `(r, l)` of a block of rows. -/
def cell17 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk17 (tb : Vec F S16x2000 .i32) (A0 : Vec F S100000x128 .f32) (Wt : Vec F S128x128 .f32) : Vec F S2000x128 .f32 :=
  fun y => xBlk17 tb A0 Wt ((y 0).val / 1000) (cell17 ((y 0).val % 1000) (Nat.mod_lt _ (by decide)) (y 1))

/-- The weight window's block is the whole weight, at every point: its block index is (0, 0). -/
theorem wblk17_eq (c : Dev nD) (t : Fin (cfg17 a).N) : iblk17 V a c 0 t = (V c main_arg1 : Vec F S128x128 .f32) := by
  funext x
  unfold iblk17
  rw [View.read_apply]
  refine (cast_eq _ _).trans (congrArg (V c main_arg1) (funext fun b => Fin.ext ?_))
  refine (((cfg17 a).win 0).rect_emb_val_of_index_zero t b ?_ x)
  match b with
  | ⟨0, _⟩ => rfl
  | ⟨1, _⟩ => rfl

/-- Where entry `x` of the output window's block at point `t` sits in the output array. -/
abbrev emb17 (t : Fin (cfg17 a).N) (x : S1000x128.Idx) : S2000x128.Idx := (((cfg17 a).win 1).blk t).view.emb x

theorem emb17_val (t : Fin (cfg17 a).N) (x : S1000x128.Idx) :
    (emb17 a t x 0).val = t.val / 1000 * 1000 + (x 0).val ∧ (emb17 a t x 1).val = (x 1).val := by
  have hix : ((cfg17 a).win 1).index t = ![t.val / 1000, 0] := idx17_1 t
  have e0 := ((cfg17 a).win 1).rect_emb_val t x (0 : Fin 2)
  have e1 := ((cfg17 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after17_chunk (c : Dev nD) (t : Fin (cfg17 a).N) (x : S1000x128.Idx) :
    (dat17 V a c).after 1 t x = xChunk17 (tb17 a) (A17 V c) (V c main_arg1) (emb17 a t x) := by
  obtain ⟨e0, e1⟩ := emb17_val a t x
  have hx0 : (x 0).val < 1000 := (x 0).isLt
  rw [after17_1, wblk17_eq]
  unfold xChunk17
  have hq : (emb17 a t x 0).val / 1000 = t.val / 1000 := by rw [e0]; omega
  have hcell : cell17 ((emb17 a t x 0).val % 1000) (Nat.mod_lt _ (by decide)) (emb17 a t x 1) = x := by
    funext b
    apply Fin.ext
    match b with
    | ⟨0, _⟩ =>
      show (emb17 a t x 0).val % 1000 = (x 0).val
      rw [e0]; omega
    | ⟨1, _⟩ => exact e1
  rw [hq, hcell]

/-- Two entries of the output array with the same coordinates are the same. -/
theorem idx17_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb17_cell (t : Fin (cfg17 a).N) (i : S2000x128.Idx) (ht : t.val / 1000 = (i 0).val / 1000) :
    emb17 a t (cell17 ((i 0).val % 1000) (Nat.mod_lt _ (by decide)) (i 1)) = i := by
  obtain ⟨e0, e1⟩ := emb17_val a t (cell17 ((i 0).val % 1000) (Nat.mod_lt _ (by decide)) (i 1))
  refine idx17_ext _ _ ?_ e1
  rw [e0, ht]
  show (i 0).val / 1000 * 1000 + (i 0).val % 1000 = (i 0).val
  omega

/-- Every entry of the output array lies in the block written back after the last row of its block of rows. -/
theorem cover17 (i : S2000x128.Idx) :
    ∃ t : Fin (cfg17 a).N, ((cfg17 a).win 1).flush t = true ∧ i ∈ (((cfg17 a).win 1).blk t).view.set := by
  have hi0 : (i 0).val < 2000 := (i 0).isLt
  have hN : (i 0).val / 1000 * 1000 + 999 < (cfg17 a).N := by rw [N17]; omega
  refine ⟨⟨(i 0).val / 1000 * 1000 + 999, hN⟩, ?_, ?_⟩
  · rw [flush17_1]; exact decide_eq_true (by show ((i 0).val / 1000 * 1000 + 999) % 1000 = 999; omega)
  · refine Finset.mem_map.mpr ⟨cell17 ((i 0).val % 1000) (Nat.mod_lt _ (by decide)) (i 1), Finset.mem_univ _, ?_⟩
    exact emb17_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out17 (c : Dev nD) :
    (dat17 V a c).arrAt 1 (cfg17 a).N = (xChunk17 (tb17 a) (A17 V c) (V c main_arg1) : Vec F S2000x128 .f32) :=
  (dat17 V a c).arrAt_eq_of_cover 1 _
    (fun t _ => funext fun x => (after17_chunk V a c t x).trans (cast_eq _ _).symm)
    (cover17 a)

end Value

/-! ## The invariant's two ends -/

section Ends
variable (V : (c : Dev nD) → (b : Ref sig .tc) → Buf (Elt F) ((c : Thread nD τ).loc b)) (a : (pcfg17 (F := F)).Adm)

/-- The body's own transfer cells as the launch's protocol lists them: the 16 cells of its semaphore operand. -/
def osem17 : Fin 16 → SemLoc sig := fun k => SemLoc.dma (cc17_scratch2.ix (Shape.ofLane k))
/-- They are scoped, distinct, and none is a window's. -/
theorem ownSemFacts17 : Pipeline.OwnSemFacts spec17 osem17 := by decide
/-- The cells at zero, listed, are the cells as the body names them. -/
theorem cells17_eq (c : Dev nD) :
    (Pipeline.ownSems0 (Ix := Unit) (Name := ℕ) (U := UC) (Lvl := ℕ) (Val := Elt F) (τ := τ) osem17 c : sProp 𝕄) = cells24 c cc17_scratch2 := by
  rw [Pipeline.ownSems0_eq_of_list c osem17 [0, 1, 2, 3, 4, 5, 6, 7, 8, 9, 10, 11, 12, 13, 14, 15] (by decide) (by decide)]; rfl

/-- The launch's one table, held. -/
theorem prefHeld17_eq (c : Dev nD) (pf : pre17.Contents (Elt F)) :
    (Pipeline.prefHeld pre17 c (fun _ => fullShare) pf : sProp 𝕄) = (((c : Thread nD τ).loc main_v35) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X17 (c : Dev nD) : sProp 𝕄 :=
  iprop((∃ r, prngReg c r) ∗ Pipeline.ownSems0 (Ix := Unit) (Name := ℕ) (U := UC) (Lvl := ℕ) (Val := Elt F) (τ := τ) osem17 c
    ∗ (((c : Thread nD τ).loc main_arg0) ↦{fullShare} V c main_arg0))
abbrev Y17 (c : Dev nD) : sProp 𝕄 :=
  iprop((∃ r, prngReg c r) ∗ (((c : Thread nD τ).loc main_arg0) ↦{fullShare} V c main_arg0)
    ∗ Pipeline.prefHeld pre17 c (fun _ => fullShare) a.1)

/-- THE FIRST POINT: the invariant from what the launch's entry sorts out. Nothing is asked of the carried scratch. -/
theorem Phi17_in (c : Dev nD) :
    iprop(X17 V c ∗ Pipeline.prefHeld pre17 c (fun _ => fullShare) a.1
        ∗ Pipeline.scopedRest (Ix := Unit) (Name := ℕ) (U := UC) (Lvl := ℕ) (Val := Elt F) spec17 c)
      ⊢ (dat17 V a c).Φ 0 := by
  rw [Phi17_eq]
  unfold Φ17 X17
  rw [scopedRest17_split, prefHeld17_eq, cells17_eq]
  simp only [tbM17, hbM17, scM17_0, scM17_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK17_start _ _ _ rfl _
  isplitl [Hs1]; · iexact Hs1
  isplitl [Hcells]; · iexact Hcells
  isplitl [Hreg]; · iexact Hreg
  iexact Hrest

/-- THE LAST POINT: the invariant gives back what it took. -/
theorem Phi17_out (c : Dev nD) :
    (dat17 V a c).Φ (Fin.last _)
      ⊢ iprop(Y17 V a c ∗ Pipeline.ownSems0 (Ix := Unit) (Name := ℕ) (U := UC) (Lvl := ℕ) (Val := Elt F) (τ := τ) osem17 c
        ∗ Pipeline.scopedRest (Ix := Unit) (Name := ℕ) (U := UC) (Lvl := ℕ) (Val := Elt F) spec17 c) := by
  rw [Phi17_eq]
  unfold Φ17 Y17
  rw [scopedRest17_split, prefHeld17_eq, cells17_eq]
  simp only [tbM17, hbM17, scM17_0, scM17_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G18Dat.lean ====
/-
  One of the program's 25 gather launches (pipeline 18; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N18 (a : (pcfg18 (F := F)).Adm) : (cfg18 a).N = 2000 := N_18

/-- The body's branch is taken at the last row of a block of rows, -/
theorem cond18_iff : ∀ t : Fin grid18.N, k18_cond1 (grid18.coords t) = 1#1 ↔ t.val % 1000 = 999 := by decide +kernel
/-- the row a point works on is its number modulo 1000, -/
theorem rowAt18_coord : ∀ t : Fin grid18.N, (grid18.coords t 1).val = t.val % 1000 := by decide +kernel
/-- its block of rows is its number divided by 1000, -/
theorem blockAt18_coord : ∀ t : Fin grid18.N, (grid18.coords t 0).val = t.val / 1000 := by decide +kernel
/-- and the output's block index moves after exactly those points (and the grid ends at one). -/
theorem flushB18 : ∀ t : Fin grid18.N,
    (decide (t.val + 1 = grid18.N) || decide (∃ h : t.val + 1 < grid18.N, cc18_transform_2 (grid18.coords ⟨t.val + 1, h⟩) ≠ cc18_transform_2 (grid18.coords t)))
      = decide (t.val % 1000 = 999) := by decide +kernel

/-- The output's block index at a point: the point's block of rows. -/
theorem idx18_1 : ∀ t : Fin grid18.N, cc18_transform_2 (grid18.coords t) = ![t.val / 1000, 0] := by decide +kernel

/-- Every word of the launch's table names a row of the feature array. -/
def InRange18 (pf : pre18.Contents (Elt F)) : Prop := ∀ x : S16x2000.Idx, ((pf 0 : Vec F S16x2000 .i32) x).toNat < 100000

/-! ## The values -/

/-- Lane `l` of a one-row vector. -/
def lane18 (l : Fin 128) : S1x128.Idx := fun a => ⟨if a.val = 0 then 0 else l.val, by
  match a with
  | ⟨0, _⟩ => exact Nat.one_pos
  | ⟨1, _⟩ => exact l.isLt⟩

theorem lane18_one (l : Fin 128) : (lane18 l 1).val = l.val := rfl

/-- The grid point of row `r` of block `q` (total: the point number is taken modulo the grid's size). -/
def pt18 (q : ℕ) (r : ℕ) : Fin grid18.N := ⟨(q * 1000 + r) % grid18.N, Nat.mod_lt _ (by decide)⟩

/-- Inside the grid the point's number is `1000 q + r`. -/
theorem pt18_val (q r : ℕ) (hq : q < 2) (hr : r < 1000) : (pt18 q r).val = q * 1000 + r := by
  show (q * 1000 + r) % grid18.N = q * 1000 + r
  rw [N_18]; omega

/-- A point is the point of its block and row. -/
theorem pt18_self (t : Fin grid18.N) : pt18 (t.val / 1000) (t.val % 1000) = t := by
  apply Fin.ext
  show (t.val / 1000 * 1000 + t.val % 1000) % grid18.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means18 (tb : Vec F S16x2000 .i32) (A0 : Vec F S100000x128 .f32) (q : ℕ) : Vec F S1000x128 .f32 :=
  fun x => Gen.k24_pay1 (gath24 (grid18.coords (pt18 q (x 0).val)) tb A0) (lane18 (x 1))

/-- What the body stores in the output window at the last row of block `q`: the means, rounded, times the weight, rounded. -/
def xBlk18 (tb : Vec F S16x2000 .i32) (A0 : Vec F S100000x128 .f32) (Wt : Vec F S128x128 .f32) (q : ℕ) : Vec F S1000x128 .f32 :=
  Gen.k24_pay2 (means18 tb A0 q) Wt

/-- The carried scratch before point `n`: its rows below `n % 1000` are the means of block `n / 1000`. -/
def RowsOK18 (tb : Vec F S16x2000 .i32) (A0 : Vec F S100000x128 .f32) (n : ℕ) (g : Vec F S1000x128 .f32) : Prop :=
  ∀ x : S1000x128.Idx, (x 0).val < n % 1000 → g x = means18 tb A0 (n / 1000) x

/-- At the first row of a block nothing is asked. -/
theorem rowsOK18_start (tb : Vec F S16x2000 .i32) (A0 : Vec F S100000x128 .f32) (n : ℕ) (hn : n % 1000 = 0) (g : Vec F S1000x128 .f32) :
    RowsOK18 tb A0 n g := fun x hx => absurd hx (by omega)

/-- One point's row store keeps the invariant's rows and adds its own: after the store at point `t` the rows up to
    `t % 1000` are means. -/
theorem rowAt18_means (tb : Vec F S16x2000 .i32) (A0 : Vec F S100000x128 .f32) (t : Fin grid18.N) (g : Vec F S1000x128 .f32)
    (hg : RowsOK18 tb A0 t.val g) (x : S1000x128.Idx) (hx : (x 0).val ≤ t.val % 1000) :
    row24 (grid18.coords t) tb A0 g x = means18 tb A0 (t.val / 1000) x := by
  by_cases h : (x 0).val = t.val % 1000
  · rw [row24_of_eq (grid18.coords t) tb A0 g x (by rw [rowAt18_coord]; exact h) (lane18 (x 1)) rfl]
    unfold means18
    rw [h, pt18_self]
  · rw [row24_of_ne (grid18.coords t) tb A0 g x (by rw [rowAt18_coord]; exact h)]
    exact hg x (by omega)

/-- Within a block the invariant steps. -/
theorem rowsOK18_step (tb : Vec F S16x2000 .i32) (A0 : Vec F S100000x128 .f32) (t : Fin grid18.N) (g : Vec F S1000x128 .f32)
    (hg : RowsOK18 tb A0 t.val g) : RowsOK18 tb A0 (t.val + 1) (row24 (grid18.coords t) tb A0 g) := by
  by_cases hl : t.val % 1000 = 999
  · exact rowsOK18_start _ _ _ (by omega) _
  · intro x hx
    have h1 : (t.val + 1) / 1000 = t.val / 1000 := by omega
    rw [h1]
    exact rowAt18_means tb A0 t g hg x (by omega)

/-- At the last row of a block the scratch, after the row store, is the block's means whatever it held before. -/
theorem rowAt18_last (tb : Vec F S16x2000 .i32) (A0 : Vec F S100000x128 .f32) (t : Fin grid18.N) (hl : t.val % 1000 = 999)
    (g : Vec F S1000x128 .f32) (hg : RowsOK18 tb A0 t.val g) :
    row24 (grid18.coords t) tb A0 g = means18 tb A0 (t.val / 1000) :=
  funext fun x => rowAt18_means tb A0 t g hg x (by have : (x 0).val < 1000 := (x 0).isLt; omega)

/-! ## The invariant -/

/-- The launch's operands that no window stages, as the body is handed them: its table, the feature array left in
    HBM, and its two scratch buffers — whole buffers. -/
abbrev tbM18 : Memref sig .tc .smem S16x2000 .i32 := Memref.whole main_v37
abbrev hbM18 : Memref sig .tc .hbm S100000x128 .f32 := Memref.whole main_arg0
abbrev scM18_0 : Memref sig .tc .vmem S1000x128 .f32 := Memref.whole cc18_scratch0
abbrev scM18_1 : Memref sig .tc .vmem S16x128 .f32 := Memref.whole cc18_scratch1

section Region
-- the TensorCore's buffer contents when the launch is entered, and the launch's table
variable (V : (c : Dev nD) → (b : Ref sig .tc) → Buf (Elt F) ((c : Thread nD τ).loc b)) (a : (pcfg18 (F := F)).Adm)

/-- The table and the feature array, as vectors. -/
abbrev tb18 : Vec F S16x2000 .i32 := a.1 0
abbrev A18 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ18 (c : Dev nD) (n : ℕ) : sProp 𝕄 :=
  iprop(owns (c : Thread nD τ) tbM18 fullShare (tb18 a)
    ∗ owns (c : Thread nD τ) hbM18 fullShare (A18 V c)
    ∗ (∃ g : Vec F S1000x128 .f32, ⌜RowsOK18 (tb18 a) (A18 V c) n g⌝ ∗ owns (c : Thread nD τ) scM18_0 fullShare g)
    ∗ (∃ d, owns (c : Thread nD τ) scM18_1 fullShare d)
    ∗ cells24 c cc18_scratch2
    ∗ (∃ r, prngReg c r)
    ∗ Pipeline.scopedRestBut (Ix := Unit) (Name := ℕ) (U := UC) (Lvl := ℕ) (Val := Elt F) spec18 c [cc18_scratch0, cc18_scratch1])

/-! ## The windows' blocks and the proof data -/

/-- Window `w`'s block at point `t`, read off its array as the launch finds it. -/
def iblk18 (c : Dev nD) (w : Fin (cfg18 a).W) (t : Fin (cfg18 a).N) :
    (((cfg18 a).win w).xblock ((cfg18 a).grid.coords t)).Idx → Elt F ((cfg18 a).win w).elt :=
  (((cfg18 a).win w).blk t).view.read (Elt F) (V c (Pipeline.arrRef spec18 w))

/-- The proof data of the launch on core `c`: the arrays as the launch finds them; after the body at point `t` the
    weight window at its block and the output window at the product for `t`'s block of rows (read only at the block's
    last row, where the body stores it); the invariant above; nothing owed; full shares. -/
def dat18 (c : Dev nD) : Dat τ (Elt F) Unit ℕ UC ℕ (cfg18 a) c where
  A w := V c (Pipeline.arrRef spec18 w)
  after w t := match w with
    | ⟨0, _⟩ => iblk18 V a c 0 t
    | ⟨1, _⟩ => xBlk18 (tb18 a) (A18 V c) (iblk18 V a c 0 t) (t.val / 1000)
  Φ n := Φ18 V a c n.val
  q _ := fullShare
  owed _ := 0

/-- The proof data's arrays are the entry contents. -/
theorem A_eq18 (c : Dev nD) (w : Fin (cfg18 a).W) : (dat18 V a c).A w = V c (Pipeline.arrRef spec18 w) := by
  dsimp only [dat18]

/-- What the body leaves, window by window. -/
theorem after18_0 (c : Dev nD) (t : Fin (cfg18 a).N) : (dat18 V a c).after 0 t = iblk18 V a c 0 t := by dsimp only [dat18]; rfl
theorem after18_1 (c : Dev nD) (t : Fin (cfg18 a).N) :
    (dat18 V a c).after 1 t = xBlk18 (tb18 a) (A18 V c) (iblk18 V a c 0 t) (t.val / 1000) := by dsimp only [dat18]; rfl

/-- The invariant and the tallies, at a point. -/
theorem Phi18_eq (c : Dev nD) (n : Fin ((cfg18 a).N + 1)) : (dat18 V a c).Φ n = Φ18 V a c n.val := by dsimp only [dat18]
theorem owed18_eq (c : Dev nD) (n : Fin ((cfg18 a).N + 1)) : (dat18 V a c).owed n = 0 := by dsimp only [dat18]

/-- The weight window holds its block at every point, fetched there or not: its block index never moves. -/
theorem before18_0 (c : Dev nD) (t : Fin (cfg18 a).N) (d) : (dat18 V a c).before 0 t d = iblk18 V a c 0 t :=
  ((dat18 V a c).before_in_eq_fetched 0 rfl (fun _ => rfl) (fun _ _ _ => rfl)
      (fun t => by rw [after18_0]; unfold Dat.blockOf iblk18; rw [A_eq18]; try rfl) t d).trans
    (by unfold Dat.fetched Dat.blockOf iblk18; rw [A_eq18]; try rfl)

/-- The output window is written back after the last row of each block of rows, and only there; -/
theorem flush18_1 (t : Fin (cfg18 a).N) : ((cfg18 a).win 1).flush t = decide (t.val % 1000 = 999) := by
  unfold Window.flush
  exact flushB18 t
/-- and it is idle at every other row. -/
theorem idle18_1 (t : Fin (cfg18 a).N) : (cfg18 a).idle 1 ((cfg18 a).grid.coords t) = !decide (t.val % 1000 = 999) := by
  show (!(k18_cond1 (grid18.coords t) == 1#1)) = _
  congr 1
  by_cases h : t.val % 1000 = 999
  · rw [decide_eq_true h, (cond18_iff t).2 h]; rfl
  · rw [decide_eq_false h]
    exact beq_false_of_ne fun e => h ((cond18_iff t).1 e)

end Region

/-! ## The body obligation -/

section Body
variable (V : (c : Dev nD) → (b : Ref sig .tc) → Buf (Elt F) ((c : Thread nD τ).loc b)) (a : (pcfg18 (F := F)).Adm)

/-- Each window's current staging memref at point `t`, spelled as the pipeline passes it, and its wholeness. -/
abbrev ms18_0 (t : Fin (cfg18 a).N) : Memref sig .tc .vmem S128x128 .f32 := spec18_0.stage ((cfg18 a).slots t 0)
abbrev hs18_0 (t : Fin (cfg18 a).N) : (ms18_0 a t).IsWhole := hstage18_0 (((cfg18 a).slots t 0).cast nbuf18_0)
abbrev ms18_1 (t : Fin (cfg18 a).N) : Memref sig .tc .vmem S1000x128 .f32 := spec18_1.stage ((cfg18 a).slots t 1)
abbrev hs18_1 (t : Fin (cfg18 a).N) : (ms18_1 a t).IsWhole := hstage18_1 (((cfg18 a).slots t 1).cast nbuf18_1)

/-- The launch's body function, under the name the runs are stated at. -/
theorem bodyFn18_eq : cc18__gather_agg_matmul_kernel (F := F) = gatherFn := rfl

/-- The kernel body at point `t`, on what the pipeline calls it with. -/
abbrev bodyAt18 (t : Fin (cfg18 a).N) : Prog (TpuEff nD τ sig (Elt F) Λ₀ .tc) PUnit :=
  cc18__gather_agg_matmul_kernel (grid18.coords t) tbM18 (Memref.isWhole_whole _) hbM18 (Memref.isWhole_whole _)
    (ms18_0 a t) (hs18_0 a t) (ms18_1 a t) (hs18_1 a t) scM18_0 (Memref.isWhole_whole _) scM18_1 (Memref.isWhole_whole _) cc18_scratch2

/-- What the body is called with at point `t`, the windows one by one, -/
def bodyPre18 (c : Dev nD) (t : Fin (cfg18 a).N) : sProp 𝕄 :=
  iprop((dat18 V a c).Φ t.castSucc ∗ (dat18 V a c).owesAt () t.castSucc
    ∗ (∃ d, owns (c : Thread nD τ) (ms18_0 a t) fullShare ((dat18 V a c).before 0 t d))
    ∗ (∃ d, owns (c : Thread nD τ) (ms18_1 a t) fullShare ((dat18 V a c).before 1 t d)))

/-- and what it returns: the output window as it was found where the point is idle for it, at the block's product
    at the last row of a block. -/
def bodyPost18 (c : Dev nD) (t : Fin (cfg18 a).N) : sProp 𝕄 :=
  iprop((dat18 V a c).Φ t.succ ∗ (dat18 V a c).owesAt () t.succ
    ∗ owns (c : Thread nD τ) (ms18_0 a t) fullShare ((dat18 V a c).after 0 t)
    ∗ (match (cfg18 a).idle 1 ((cfg18 a).grid.coords t) with
        | true =>
          match ((cfg18 a).win 1).flush t with
          | false => iprop(∃ d, owns (c : Thread nD τ) (ms18_1 a t) fullShare ((dat18 V a c).before 1 t d))
          | true => owns (c : Thread nD τ) (ms18_1 a t) fullShare ((dat18 V a c).after 1 t)
        | false => owns (c : Thread nD τ) (ms18_1 a t) fullShare ((dat18 V a c).after 1 t)))

/-- The body at any point. The weight window holds its block; the invariant hands the body its table, the feature
    array, both scratch buffers and its transfer cells, and takes them back with the carried scratch one row further
    (`rowsOK18_step`); at the last row of a block the product the body stores is the block's (`rowAt18_last`); the core's
    `owes` goes in at whatever the points before recorded and comes back with this point's waits. -/
theorem sound_body18 (hR : InRange18 a.1) (c : Dev nD) (t : Fin (cfg18 a).N) :
    bodyPre18 V a c t ⊢ wp frame (wpE (defs₀ (F := F)) Variants.none c none) Set.univ (bodyAt18 a t) (fun _ => bodyPost18 V a c t) := by
  unfold bodyPre18 bodyPost18 bodyAt18
  rw [flush18_1, idle18_1]
  simp only [before18_0]
  rw [after18_0, Phi18_eq, Phi18_eq, Fin.val_succ, Fin.coe_castSucc]
  unfold Dat.owesAt Pipeline.owesWithin
  rw [owed18_eq, owed18_eq]
  unfold Φ18
  rw [bodyFn18_eq]
  by_cases hl : t.val % 1000 = 999
  · -- the last row of a block
    rw [decide_eq_true hl, Bool.not_true]
    dsimp only
    rw [after18_1]
    unfold xBlk18
    iintro ⟨⟨Htb, Hhb, ⟨%g, %hg, Hs0⟩, Hs1, Hcells, Hreg, Hrest⟩, ⟨%W, -, HW⟩, ⟨%d0, H0⟩, ⟨%d1, H1⟩⟩
    rw [← rowAt18_last (tb18 a) (A18 V c) t hl g hg]
    iapply (run24_last c (grid18.coords t) tbM18 (Memref.isWhole_whole _) hbM18 (Memref.isWhole_whole _) (ms18_0 a t) (hs18_0 a t)
      (ms18_1 a t) (hs18_1 a t) scM18_0 (Memref.isWhole_whole _) scM18_1 (Memref.isWhole_whole _) cc18_scratch2
      ((cond18_iff t).2 hl) (tb18 a) hR (A18 V c) (iblk18 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK18_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k18_cond1 (grid18.coords t) ≠ 1#1 := fun e => hl ((cond18_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid18.coords t) tbM18 (Memref.isWhole_whole _) hbM18 (Memref.isWhole_whole _) (ms18_0 a t) (hs18_0 a t)
      (ms18_1 a t) (hs18_1 a t) scM18_0 (Memref.isWhole_whole _) scM18_1 (Memref.isWhole_whole _) cc18_scratch2
      hc (tb18 a) hR (A18 V c) (iblk18 V a c 0 t) g
      (owns (c : Thread nD τ) (ms18_1 a t) fullShare ((dat18 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK18_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation18 (hR : InRange18 a.1) (c : Dev nD) :
    BodyObligation (dat18 (F := F) V a c) (defs₀ (F := F)) Variants.none () Set.univ := fun t => by
  rw [bigSep_W18, bigSep_W18]
  exact sound_body18 V a hR c t

end Body

/-! ## The value: what the launch leaves in its output array -/

section Value
variable (V : (c : Dev nD) → (b : Ref sig .tc) → Buf (Elt F) ((c : Thread nD τ).loc b)) (a : (pcfg18 (F := F)).Adm)

/-- Entry `(r, l)` of a block of rows. -/
def cell18 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk18 (tb : Vec F S16x2000 .i32) (A0 : Vec F S100000x128 .f32) (Wt : Vec F S128x128 .f32) : Vec F S2000x128 .f32 :=
  fun y => xBlk18 tb A0 Wt ((y 0).val / 1000) (cell18 ((y 0).val % 1000) (Nat.mod_lt _ (by decide)) (y 1))

/-- The weight window's block is the whole weight, at every point: its block index is (0, 0). -/
theorem wblk18_eq (c : Dev nD) (t : Fin (cfg18 a).N) : iblk18 V a c 0 t = (V c main_arg1 : Vec F S128x128 .f32) := by
  funext x
  unfold iblk18
  rw [View.read_apply]
  refine (cast_eq _ _).trans (congrArg (V c main_arg1) (funext fun b => Fin.ext ?_))
  refine (((cfg18 a).win 0).rect_emb_val_of_index_zero t b ?_ x)
  match b with
  | ⟨0, _⟩ => rfl
  | ⟨1, _⟩ => rfl

/-- Where entry `x` of the output window's block at point `t` sits in the output array. -/
abbrev emb18 (t : Fin (cfg18 a).N) (x : S1000x128.Idx) : S2000x128.Idx := (((cfg18 a).win 1).blk t).view.emb x

theorem emb18_val (t : Fin (cfg18 a).N) (x : S1000x128.Idx) :
    (emb18 a t x 0).val = t.val / 1000 * 1000 + (x 0).val ∧ (emb18 a t x 1).val = (x 1).val := by
  have hix : ((cfg18 a).win 1).index t = ![t.val / 1000, 0] := idx18_1 t
  have e0 := ((cfg18 a).win 1).rect_emb_val t x (0 : Fin 2)
  have e1 := ((cfg18 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after18_chunk (c : Dev nD) (t : Fin (cfg18 a).N) (x : S1000x128.Idx) :
    (dat18 V a c).after 1 t x = xChunk18 (tb18 a) (A18 V c) (V c main_arg1) (emb18 a t x) := by
  obtain ⟨e0, e1⟩ := emb18_val a t x
  have hx0 : (x 0).val < 1000 := (x 0).isLt
  rw [after18_1, wblk18_eq]
  unfold xChunk18
  have hq : (emb18 a t x 0).val / 1000 = t.val / 1000 := by rw [e0]; omega
  have hcell : cell18 ((emb18 a t x 0).val % 1000) (Nat.mod_lt _ (by decide)) (emb18 a t x 1) = x := by
    funext b
    apply Fin.ext
    match b with
    | ⟨0, _⟩ =>
      show (emb18 a t x 0).val % 1000 = (x 0).val
      rw [e0]; omega
    | ⟨1, _⟩ => exact e1
  rw [hq, hcell]

/-- Two entries of the output array with the same coordinates are the same. -/
theorem idx18_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb18_cell (t : Fin (cfg18 a).N) (i : S2000x128.Idx) (ht : t.val / 1000 = (i 0).val / 1000) :
    emb18 a t (cell18 ((i 0).val % 1000) (Nat.mod_lt _ (by decide)) (i 1)) = i := by
  obtain ⟨e0, e1⟩ := emb18_val a t (cell18 ((i 0).val % 1000) (Nat.mod_lt _ (by decide)) (i 1))
  refine idx18_ext _ _ ?_ e1
  rw [e0, ht]
  show (i 0).val / 1000 * 1000 + (i 0).val % 1000 = (i 0).val
  omega

/-- Every entry of the output array lies in the block written back after the last row of its block of rows. -/
theorem cover18 (i : S2000x128.Idx) :
    ∃ t : Fin (cfg18 a).N, ((cfg18 a).win 1).flush t = true ∧ i ∈ (((cfg18 a).win 1).blk t).view.set := by
  have hi0 : (i 0).val < 2000 := (i 0).isLt
  have hN : (i 0).val / 1000 * 1000 + 999 < (cfg18 a).N := by rw [N18]; omega
  refine ⟨⟨(i 0).val / 1000 * 1000 + 999, hN⟩, ?_, ?_⟩
  · rw [flush18_1]; exact decide_eq_true (by show ((i 0).val / 1000 * 1000 + 999) % 1000 = 999; omega)
  · refine Finset.mem_map.mpr ⟨cell18 ((i 0).val % 1000) (Nat.mod_lt _ (by decide)) (i 1), Finset.mem_univ _, ?_⟩
    exact emb18_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out18 (c : Dev nD) :
    (dat18 V a c).arrAt 1 (cfg18 a).N = (xChunk18 (tb18 a) (A18 V c) (V c main_arg1) : Vec F S2000x128 .f32) :=
  (dat18 V a c).arrAt_eq_of_cover 1 _
    (fun t _ => funext fun x => (after18_chunk V a c t x).trans (cast_eq _ _).symm)
    (cover18 a)

end Value

/-! ## The invariant's two ends -/

section Ends
variable (V : (c : Dev nD) → (b : Ref sig .tc) → Buf (Elt F) ((c : Thread nD τ).loc b)) (a : (pcfg18 (F := F)).Adm)

/-- The body's own transfer cells as the launch's protocol lists them: the 16 cells of its semaphore operand. -/
def osem18 : Fin 16 → SemLoc sig := fun k => SemLoc.dma (cc18_scratch2.ix (Shape.ofLane k))
/-- They are scoped, distinct, and none is a window's. -/
theorem ownSemFacts18 : Pipeline.OwnSemFacts spec18 osem18 := by decide
/-- The cells at zero, listed, are the cells as the body names them. -/
theorem cells18_eq (c : Dev nD) :
    (Pipeline.ownSems0 (Ix := Unit) (Name := ℕ) (U := UC) (Lvl := ℕ) (Val := Elt F) (τ := τ) osem18 c : sProp 𝕄) = cells24 c cc18_scratch2 := by
  rw [Pipeline.ownSems0_eq_of_list c osem18 [0, 1, 2, 3, 4, 5, 6, 7, 8, 9, 10, 11, 12, 13, 14, 15] (by decide) (by decide)]; rfl

/-- The launch's one table, held. -/
theorem prefHeld18_eq (c : Dev nD) (pf : pre18.Contents (Elt F)) :
    (Pipeline.prefHeld pre18 c (fun _ => fullShare) pf : sProp 𝕄) = (((c : Thread nD τ).loc main_v37) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X18 (c : Dev nD) : sProp 𝕄 :=
  iprop((∃ r, prngReg c r) ∗ Pipeline.ownSems0 (Ix := Unit) (Name := ℕ) (U := UC) (Lvl := ℕ) (Val := Elt F) (τ := τ) osem18 c
    ∗ (((c : Thread nD τ).loc main_arg0) ↦{fullShare} V c main_arg0))
abbrev Y18 (c : Dev nD) : sProp 𝕄 :=
  iprop((∃ r, prngReg c r) ∗ (((c : Thread nD τ).loc main_arg0) ↦{fullShare} V c main_arg0)
    ∗ Pipeline.prefHeld pre18 c (fun _ => fullShare) a.1)

/-- THE FIRST POINT: the invariant from what the launch's entry sorts out. Nothing is asked of the carried scratch. -/
theorem Phi18_in (c : Dev nD) :
    iprop(X18 V c ∗ Pipeline.prefHeld pre18 c (fun _ => fullShare) a.1
        ∗ Pipeline.scopedRest (Ix := Unit) (Name := ℕ) (U := UC) (Lvl := ℕ) (Val := Elt F) spec18 c)
      ⊢ (dat18 V a c).Φ 0 := by
  rw [Phi18_eq]
  unfold Φ18 X18
  rw [scopedRest18_split, prefHeld18_eq, cells18_eq]
  simp only [tbM18, hbM18, scM18_0, scM18_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK18_start _ _ _ rfl _
  isplitl [Hs1]; · iexact Hs1
  isplitl [Hcells]; · iexact Hcells
  isplitl [Hreg]; · iexact Hreg
  iexact Hrest

/-- THE LAST POINT: the invariant gives back what it took. -/
theorem Phi18_out (c : Dev nD) :
    (dat18 V a c).Φ (Fin.last _)
      ⊢ iprop(Y18 V a c ∗ Pipeline.ownSems0 (Ix := Unit) (Name := ℕ) (U := UC) (Lvl := ℕ) (Val := Elt F) (τ := τ) osem18 c
        ∗ Pipeline.scopedRest (Ix := Unit) (Name := ℕ) (U := UC) (Lvl := ℕ) (Val := Elt F) spec18 c) := by
  rw [Phi18_eq]
  unfold Φ18 Y18
  rw [scopedRest18_split, prefHeld18_eq, cells18_eq]
  simp only [tbM18, hbM18, scM18_0, scM18_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G19Dat.lean ====
/-
  One of the program's 25 gather launches (pipeline 19; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N19 (a : (pcfg19 (F := F)).Adm) : (cfg19 a).N = 2000 := N_19

/-- The body's branch is taken at the last row of a block of rows, -/
theorem cond19_iff : ∀ t : Fin grid19.N, k19_cond1 (grid19.coords t) = 1#1 ↔ t.val % 1000 = 999 := by decide +kernel
/-- the row a point works on is its number modulo 1000, -/
theorem rowAt19_coord : ∀ t : Fin grid19.N, (grid19.coords t 1).val = t.val % 1000 := by decide +kernel
/-- its block of rows is its number divided by 1000, -/
theorem blockAt19_coord : ∀ t : Fin grid19.N, (grid19.coords t 0).val = t.val / 1000 := by decide +kernel
/-- and the output's block index moves after exactly those points (and the grid ends at one). -/
theorem flushB19 : ∀ t : Fin grid19.N,
    (decide (t.val + 1 = grid19.N) || decide (∃ h : t.val + 1 < grid19.N, cc19_transform_2 (grid19.coords ⟨t.val + 1, h⟩) ≠ cc19_transform_2 (grid19.coords t)))
      = decide (t.val % 1000 = 999) := by decide +kernel

/-- The output's block index at a point: the point's block of rows. -/
theorem idx19_1 : ∀ t : Fin grid19.N, cc19_transform_2 (grid19.coords t) = ![t.val / 1000, 0] := by decide +kernel

/-- Every word of the launch's table names a row of the feature array. -/
def InRange19 (pf : pre19.Contents (Elt F)) : Prop := ∀ x : S16x2000.Idx, ((pf 0 : Vec F S16x2000 .i32) x).toNat < 100000

/-! ## The values -/

/-- Lane `l` of a one-row vector. -/
def lane19 (l : Fin 128) : S1x128.Idx := fun a => ⟨if a.val = 0 then 0 else l.val, by
  match a with
  | ⟨0, _⟩ => exact Nat.one_pos
  | ⟨1, _⟩ => exact l.isLt⟩

theorem lane19_one (l : Fin 128) : (lane19 l 1).val = l.val := rfl

/-- The grid point of row `r` of block `q` (total: the point number is taken modulo the grid's size). -/
def pt19 (q : ℕ) (r : ℕ) : Fin grid19.N := ⟨(q * 1000 + r) % grid19.N, Nat.mod_lt _ (by decide)⟩

/-- Inside the grid the point's number is `1000 q + r`. -/
theorem pt19_val (q r : ℕ) (hq : q < 2) (hr : r < 1000) : (pt19 q r).val = q * 1000 + r := by
  show (q * 1000 + r) % grid19.N = q * 1000 + r
  rw [N_19]; omega

/-- A point is the point of its block and row. -/
theorem pt19_self (t : Fin grid19.N) : pt19 (t.val / 1000) (t.val % 1000) = t := by
  apply Fin.ext
  show (t.val / 1000 * 1000 + t.val % 1000) % grid19.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means19 (tb : Vec F S16x2000 .i32) (A0 : Vec F S100000x128 .f32) (q : ℕ) : Vec F S1000x128 .f32 :=
  fun x => Gen.k24_pay1 (gath24 (grid19.coords (pt19 q (x 0).val)) tb A0) (lane19 (x 1))

/-- What the body stores in the output window at the last row of block `q`: the means, rounded, times the weight, rounded. -/
def xBlk19 (tb : Vec F S16x2000 .i32) (A0 : Vec F S100000x128 .f32) (Wt : Vec F S128x128 .f32) (q : ℕ) : Vec F S1000x128 .f32 :=
  Gen.k24_pay2 (means19 tb A0 q) Wt

/-- The carried scratch before point `n`: its rows below `n % 1000` are the means of block `n / 1000`. -/
def RowsOK19 (tb : Vec F S16x2000 .i32) (A0 : Vec F S100000x128 .f32) (n : ℕ) (g : Vec F S1000x128 .f32) : Prop :=
  ∀ x : S1000x128.Idx, (x 0).val < n % 1000 → g x = means19 tb A0 (n / 1000) x

/-- At the first row of a block nothing is asked. -/
theorem rowsOK19_start (tb : Vec F S16x2000 .i32) (A0 : Vec F S100000x128 .f32) (n : ℕ) (hn : n % 1000 = 0) (g : Vec F S1000x128 .f32) :
    RowsOK19 tb A0 n g := fun x hx => absurd hx (by omega)

/-- One point's row store keeps the invariant's rows and adds its own: after the store at point `t` the rows up to
    `t % 1000` are means. -/
theorem rowAt19_means (tb : Vec F S16x2000 .i32) (A0 : Vec F S100000x128 .f32) (t : Fin grid19.N) (g : Vec F S1000x128 .f32)
    (hg : RowsOK19 tb A0 t.val g) (x : S1000x128.Idx) (hx : (x 0).val ≤ t.val % 1000) :
    row24 (grid19.coords t) tb A0 g x = means19 tb A0 (t.val / 1000) x := by
  by_cases h : (x 0).val = t.val % 1000
  · rw [row24_of_eq (grid19.coords t) tb A0 g x (by rw [rowAt19_coord]; exact h) (lane19 (x 1)) rfl]
    unfold means19
    rw [h, pt19_self]
  · rw [row24_of_ne (grid19.coords t) tb A0 g x (by rw [rowAt19_coord]; exact h)]
    exact hg x (by omega)

/-- Within a block the invariant steps. -/
theorem rowsOK19_step (tb : Vec F S16x2000 .i32) (A0 : Vec F S100000x128 .f32) (t : Fin grid19.N) (g : Vec F S1000x128 .f32)
    (hg : RowsOK19 tb A0 t.val g) : RowsOK19 tb A0 (t.val + 1) (row24 (grid19.coords t) tb A0 g) := by
  by_cases hl : t.val % 1000 = 999
  · exact rowsOK19_start _ _ _ (by omega) _
  · intro x hx
    have h1 : (t.val + 1) / 1000 = t.val / 1000 := by omega
    rw [h1]
    exact rowAt19_means tb A0 t g hg x (by omega)

/-- At the last row of a block the scratch, after the row store, is the block's means whatever it held before. -/
theorem rowAt19_last (tb : Vec F S16x2000 .i32) (A0 : Vec F S100000x128 .f32) (t : Fin grid19.N) (hl : t.val % 1000 = 999)
    (g : Vec F S1000x128 .f32) (hg : RowsOK19 tb A0 t.val g) :
    row24 (grid19.coords t) tb A0 g = means19 tb A0 (t.val / 1000) :=
  funext fun x => rowAt19_means tb A0 t g hg x (by have : (x 0).val < 1000 := (x 0).isLt; omega)

/-! ## The invariant -/

/-- The launch's operands that no window stages, as the body is handed them: its table, the feature array left in
    HBM, and its two scratch buffers — whole buffers. -/
abbrev tbM19 : Memref sig .tc .smem S16x2000 .i32 := Memref.whole main_v39
abbrev hbM19 : Memref sig .tc .hbm S100000x128 .f32 := Memref.whole main_arg0
abbrev scM19_0 : Memref sig .tc .vmem S1000x128 .f32 := Memref.whole cc19_scratch0
abbrev scM19_1 : Memref sig .tc .vmem S16x128 .f32 := Memref.whole cc19_scratch1

section Region
-- the TensorCore's buffer contents when the launch is entered, and the launch's table
variable (V : (c : Dev nD) → (b : Ref sig .tc) → Buf (Elt F) ((c : Thread nD τ).loc b)) (a : (pcfg19 (F := F)).Adm)

/-- The table and the feature array, as vectors. -/
abbrev tb19 : Vec F S16x2000 .i32 := a.1 0
abbrev A19 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ19 (c : Dev nD) (n : ℕ) : sProp 𝕄 :=
  iprop(owns (c : Thread nD τ) tbM19 fullShare (tb19 a)
    ∗ owns (c : Thread nD τ) hbM19 fullShare (A19 V c)
    ∗ (∃ g : Vec F S1000x128 .f32, ⌜RowsOK19 (tb19 a) (A19 V c) n g⌝ ∗ owns (c : Thread nD τ) scM19_0 fullShare g)
    ∗ (∃ d, owns (c : Thread nD τ) scM19_1 fullShare d)
    ∗ cells24 c cc19_scratch2
    ∗ (∃ r, prngReg c r)
    ∗ Pipeline.scopedRestBut (Ix := Unit) (Name := ℕ) (U := UC) (Lvl := ℕ) (Val := Elt F) spec19 c [cc19_scratch0, cc19_scratch1])

/-! ## The windows' blocks and the proof data -/

/-- Window `w`'s block at point `t`, read off its array as the launch finds it. -/
def iblk19 (c : Dev nD) (w : Fin (cfg19 a).W) (t : Fin (cfg19 a).N) :
    (((cfg19 a).win w).xblock ((cfg19 a).grid.coords t)).Idx → Elt F ((cfg19 a).win w).elt :=
  (((cfg19 a).win w).blk t).view.read (Elt F) (V c (Pipeline.arrRef spec19 w))

/-- The proof data of the launch on core `c`: the arrays as the launch finds them; after the body at point `t` the
    weight window at its block and the output window at the product for `t`'s block of rows (read only at the block's
    last row, where the body stores it); the invariant above; nothing owed; full shares. -/
def dat19 (c : Dev nD) : Dat τ (Elt F) Unit ℕ UC ℕ (cfg19 a) c where
  A w := V c (Pipeline.arrRef spec19 w)
  after w t := match w with
    | ⟨0, _⟩ => iblk19 V a c 0 t
    | ⟨1, _⟩ => xBlk19 (tb19 a) (A19 V c) (iblk19 V a c 0 t) (t.val / 1000)
  Φ n := Φ19 V a c n.val
  q _ := fullShare
  owed _ := 0

/-- The proof data's arrays are the entry contents. -/
theorem A_eq19 (c : Dev nD) (w : Fin (cfg19 a).W) : (dat19 V a c).A w = V c (Pipeline.arrRef spec19 w) := by
  dsimp only [dat19]

/-- What the body leaves, window by window. -/
theorem after19_0 (c : Dev nD) (t : Fin (cfg19 a).N) : (dat19 V a c).after 0 t = iblk19 V a c 0 t := by dsimp only [dat19]; rfl
theorem after19_1 (c : Dev nD) (t : Fin (cfg19 a).N) :
    (dat19 V a c).after 1 t = xBlk19 (tb19 a) (A19 V c) (iblk19 V a c 0 t) (t.val / 1000) := by dsimp only [dat19]; rfl

/-- The invariant and the tallies, at a point. -/
theorem Phi19_eq (c : Dev nD) (n : Fin ((cfg19 a).N + 1)) : (dat19 V a c).Φ n = Φ19 V a c n.val := by dsimp only [dat19]
theorem owed19_eq (c : Dev nD) (n : Fin ((cfg19 a).N + 1)) : (dat19 V a c).owed n = 0 := by dsimp only [dat19]

/-- The weight window holds its block at every point, fetched there or not: its block index never moves. -/
theorem before19_0 (c : Dev nD) (t : Fin (cfg19 a).N) (d) : (dat19 V a c).before 0 t d = iblk19 V a c 0 t :=
  ((dat19 V a c).before_in_eq_fetched 0 rfl (fun _ => rfl) (fun _ _ _ => rfl)
      (fun t => by rw [after19_0]; unfold Dat.blockOf iblk19; rw [A_eq19]; try rfl) t d).trans
    (by unfold Dat.fetched Dat.blockOf iblk19; rw [A_eq19]; try rfl)

/-- The output window is written back after the last row of each block of rows, and only there; -/
theorem flush19_1 (t : Fin (cfg19 a).N) : ((cfg19 a).win 1).flush t = decide (t.val % 1000 = 999) := by
  unfold Window.flush
  exact flushB19 t
/-- and it is idle at every other row. -/
theorem idle19_1 (t : Fin (cfg19 a).N) : (cfg19 a).idle 1 ((cfg19 a).grid.coords t) = !decide (t.val % 1000 = 999) := by
  show (!(k19_cond1 (grid19.coords t) == 1#1)) = _
  congr 1
  by_cases h : t.val % 1000 = 999
  · rw [decide_eq_true h, (cond19_iff t).2 h]; rfl
  · rw [decide_eq_false h]
    exact beq_false_of_ne fun e => h ((cond19_iff t).1 e)

end Region

/-! ## The body obligation -/

section Body
variable (V : (c : Dev nD) → (b : Ref sig .tc) → Buf (Elt F) ((c : Thread nD τ).loc b)) (a : (pcfg19 (F := F)).Adm)

/-- Each window's current staging memref at point `t`, spelled as the pipeline passes it, and its wholeness. -/
abbrev ms19_0 (t : Fin (cfg19 a).N) : Memref sig .tc .vmem S128x128 .f32 := spec19_0.stage ((cfg19 a).slots t 0)
abbrev hs19_0 (t : Fin (cfg19 a).N) : (ms19_0 a t).IsWhole := hstage19_0 (((cfg19 a).slots t 0).cast nbuf19_0)
abbrev ms19_1 (t : Fin (cfg19 a).N) : Memref sig .tc .vmem S1000x128 .f32 := spec19_1.stage ((cfg19 a).slots t 1)
abbrev hs19_1 (t : Fin (cfg19 a).N) : (ms19_1 a t).IsWhole := hstage19_1 (((cfg19 a).slots t 1).cast nbuf19_1)

/-- The launch's body function, under the name the runs are stated at. -/
theorem bodyFn19_eq : cc19__gather_agg_matmul_kernel (F := F) = gatherFn := rfl

/-- The kernel body at point `t`, on what the pipeline calls it with. -/
abbrev bodyAt19 (t : Fin (cfg19 a).N) : Prog (TpuEff nD τ sig (Elt F) Λ₀ .tc) PUnit :=
  cc19__gather_agg_matmul_kernel (grid19.coords t) tbM19 (Memref.isWhole_whole _) hbM19 (Memref.isWhole_whole _)
    (ms19_0 a t) (hs19_0 a t) (ms19_1 a t) (hs19_1 a t) scM19_0 (Memref.isWhole_whole _) scM19_1 (Memref.isWhole_whole _) cc19_scratch2

/-- What the body is called with at point `t`, the windows one by one, -/
def bodyPre19 (c : Dev nD) (t : Fin (cfg19 a).N) : sProp 𝕄 :=
  iprop((dat19 V a c).Φ t.castSucc ∗ (dat19 V a c).owesAt () t.castSucc
    ∗ (∃ d, owns (c : Thread nD τ) (ms19_0 a t) fullShare ((dat19 V a c).before 0 t d))
    ∗ (∃ d, owns (c : Thread nD τ) (ms19_1 a t) fullShare ((dat19 V a c).before 1 t d)))

/-- and what it returns: the output window as it was found where the point is idle for it, at the block's product
    at the last row of a block. -/
def bodyPost19 (c : Dev nD) (t : Fin (cfg19 a).N) : sProp 𝕄 :=
  iprop((dat19 V a c).Φ t.succ ∗ (dat19 V a c).owesAt () t.succ
    ∗ owns (c : Thread nD τ) (ms19_0 a t) fullShare ((dat19 V a c).after 0 t)
    ∗ (match (cfg19 a).idle 1 ((cfg19 a).grid.coords t) with
        | true =>
          match ((cfg19 a).win 1).flush t with
          | false => iprop(∃ d, owns (c : Thread nD τ) (ms19_1 a t) fullShare ((dat19 V a c).before 1 t d))
          | true => owns (c : Thread nD τ) (ms19_1 a t) fullShare ((dat19 V a c).after 1 t)
        | false => owns (c : Thread nD τ) (ms19_1 a t) fullShare ((dat19 V a c).after 1 t)))

/-- The body at any point. The weight window holds its block; the invariant hands the body its table, the feature
    array, both scratch buffers and its transfer cells, and takes them back with the carried scratch one row further
    (`rowsOK19_step`); at the last row of a block the product the body stores is the block's (`rowAt19_last`); the core's
    `owes` goes in at whatever the points before recorded and comes back with this point's waits. -/
theorem sound_body19 (hR : InRange19 a.1) (c : Dev nD) (t : Fin (cfg19 a).N) :
    bodyPre19 V a c t ⊢ wp frame (wpE (defs₀ (F := F)) Variants.none c none) Set.univ (bodyAt19 a t) (fun _ => bodyPost19 V a c t) := by
  unfold bodyPre19 bodyPost19 bodyAt19
  rw [flush19_1, idle19_1]
  simp only [before19_0]
  rw [after19_0, Phi19_eq, Phi19_eq, Fin.val_succ, Fin.coe_castSucc]
  unfold Dat.owesAt Pipeline.owesWithin
  rw [owed19_eq, owed19_eq]
  unfold Φ19
  rw [bodyFn19_eq]
  by_cases hl : t.val % 1000 = 999
  · -- the last row of a block
    rw [decide_eq_true hl, Bool.not_true]
    dsimp only
    rw [after19_1]
    unfold xBlk19
    iintro ⟨⟨Htb, Hhb, ⟨%g, %hg, Hs0⟩, Hs1, Hcells, Hreg, Hrest⟩, ⟨%W, -, HW⟩, ⟨%d0, H0⟩, ⟨%d1, H1⟩⟩
    rw [← rowAt19_last (tb19 a) (A19 V c) t hl g hg]
    iapply (run24_last c (grid19.coords t) tbM19 (Memref.isWhole_whole _) hbM19 (Memref.isWhole_whole _) (ms19_0 a t) (hs19_0 a t)
      (ms19_1 a t) (hs19_1 a t) scM19_0 (Memref.isWhole_whole _) scM19_1 (Memref.isWhole_whole _) cc19_scratch2
      ((cond19_iff t).2 hl) (tb19 a) hR (A19 V c) (iblk19 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK19_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k19_cond1 (grid19.coords t) ≠ 1#1 := fun e => hl ((cond19_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid19.coords t) tbM19 (Memref.isWhole_whole _) hbM19 (Memref.isWhole_whole _) (ms19_0 a t) (hs19_0 a t)
      (ms19_1 a t) (hs19_1 a t) scM19_0 (Memref.isWhole_whole _) scM19_1 (Memref.isWhole_whole _) cc19_scratch2
      hc (tb19 a) hR (A19 V c) (iblk19 V a c 0 t) g
      (owns (c : Thread nD τ) (ms19_1 a t) fullShare ((dat19 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK19_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation19 (hR : InRange19 a.1) (c : Dev nD) :
    BodyObligation (dat19 (F := F) V a c) (defs₀ (F := F)) Variants.none () Set.univ := fun t => by
  rw [bigSep_W19, bigSep_W19]
  exact sound_body19 V a hR c t

end Body

/-! ## The value: what the launch leaves in its output array -/

section Value
variable (V : (c : Dev nD) → (b : Ref sig .tc) → Buf (Elt F) ((c : Thread nD τ).loc b)) (a : (pcfg19 (F := F)).Adm)

/-- Entry `(r, l)` of a block of rows. -/
def cell19 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk19 (tb : Vec F S16x2000 .i32) (A0 : Vec F S100000x128 .f32) (Wt : Vec F S128x128 .f32) : Vec F S2000x128 .f32 :=
  fun y => xBlk19 tb A0 Wt ((y 0).val / 1000) (cell19 ((y 0).val % 1000) (Nat.mod_lt _ (by decide)) (y 1))

/-- The weight window's block is the whole weight, at every point: its block index is (0, 0). -/
theorem wblk19_eq (c : Dev nD) (t : Fin (cfg19 a).N) : iblk19 V a c 0 t = (V c main_arg1 : Vec F S128x128 .f32) := by
  funext x
  unfold iblk19
  rw [View.read_apply]
  refine (cast_eq _ _).trans (congrArg (V c main_arg1) (funext fun b => Fin.ext ?_))
  refine (((cfg19 a).win 0).rect_emb_val_of_index_zero t b ?_ x)
  match b with
  | ⟨0, _⟩ => rfl
  | ⟨1, _⟩ => rfl

/-- Where entry `x` of the output window's block at point `t` sits in the output array. -/
abbrev emb19 (t : Fin (cfg19 a).N) (x : S1000x128.Idx) : S2000x128.Idx := (((cfg19 a).win 1).blk t).view.emb x

theorem emb19_val (t : Fin (cfg19 a).N) (x : S1000x128.Idx) :
    (emb19 a t x 0).val = t.val / 1000 * 1000 + (x 0).val ∧ (emb19 a t x 1).val = (x 1).val := by
  have hix : ((cfg19 a).win 1).index t = ![t.val / 1000, 0] := idx19_1 t
  have e0 := ((cfg19 a).win 1).rect_emb_val t x (0 : Fin 2)
  have e1 := ((cfg19 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after19_chunk (c : Dev nD) (t : Fin (cfg19 a).N) (x : S1000x128.Idx) :
    (dat19 V a c).after 1 t x = xChunk19 (tb19 a) (A19 V c) (V c main_arg1) (emb19 a t x) := by
  obtain ⟨e0, e1⟩ := emb19_val a t x
  have hx0 : (x 0).val < 1000 := (x 0).isLt
  rw [after19_1, wblk19_eq]
  unfold xChunk19
  have hq : (emb19 a t x 0).val / 1000 = t.val / 1000 := by rw [e0]; omega
  have hcell : cell19 ((emb19 a t x 0).val % 1000) (Nat.mod_lt _ (by decide)) (emb19 a t x 1) = x := by
    funext b
    apply Fin.ext
    match b with
    | ⟨0, _⟩ =>
      show (emb19 a t x 0).val % 1000 = (x 0).val
      rw [e0]; omega
    | ⟨1, _⟩ => exact e1
  rw [hq, hcell]

/-- Two entries of the output array with the same coordinates are the same. -/
theorem idx19_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb19_cell (t : Fin (cfg19 a).N) (i : S2000x128.Idx) (ht : t.val / 1000 = (i 0).val / 1000) :
    emb19 a t (cell19 ((i 0).val % 1000) (Nat.mod_lt _ (by decide)) (i 1)) = i := by
  obtain ⟨e0, e1⟩ := emb19_val a t (cell19 ((i 0).val % 1000) (Nat.mod_lt _ (by decide)) (i 1))
  refine idx19_ext _ _ ?_ e1
  rw [e0, ht]
  show (i 0).val / 1000 * 1000 + (i 0).val % 1000 = (i 0).val
  omega

/-- Every entry of the output array lies in the block written back after the last row of its block of rows. -/
theorem cover19 (i : S2000x128.Idx) :
    ∃ t : Fin (cfg19 a).N, ((cfg19 a).win 1).flush t = true ∧ i ∈ (((cfg19 a).win 1).blk t).view.set := by
  have hi0 : (i 0).val < 2000 := (i 0).isLt
  have hN : (i 0).val / 1000 * 1000 + 999 < (cfg19 a).N := by rw [N19]; omega
  refine ⟨⟨(i 0).val / 1000 * 1000 + 999, hN⟩, ?_, ?_⟩
  · rw [flush19_1]; exact decide_eq_true (by show ((i 0).val / 1000 * 1000 + 999) % 1000 = 999; omega)
  · refine Finset.mem_map.mpr ⟨cell19 ((i 0).val % 1000) (Nat.mod_lt _ (by decide)) (i 1), Finset.mem_univ _, ?_⟩
    exact emb19_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out19 (c : Dev nD) :
    (dat19 V a c).arrAt 1 (cfg19 a).N = (xChunk19 (tb19 a) (A19 V c) (V c main_arg1) : Vec F S2000x128 .f32) :=
  (dat19 V a c).arrAt_eq_of_cover 1 _
    (fun t _ => funext fun x => (after19_chunk V a c t x).trans (cast_eq _ _).symm)
    (cover19 a)

end Value

/-! ## The invariant's two ends -/

section Ends
variable (V : (c : Dev nD) → (b : Ref sig .tc) → Buf (Elt F) ((c : Thread nD τ).loc b)) (a : (pcfg19 (F := F)).Adm)

/-- The body's own transfer cells as the launch's protocol lists them: the 16 cells of its semaphore operand. -/
def osem19 : Fin 16 → SemLoc sig := fun k => SemLoc.dma (cc19_scratch2.ix (Shape.ofLane k))
/-- They are scoped, distinct, and none is a window's. -/
theorem ownSemFacts19 : Pipeline.OwnSemFacts spec19 osem19 := by decide
/-- The cells at zero, listed, are the cells as the body names them. -/
theorem cells19_eq (c : Dev nD) :
    (Pipeline.ownSems0 (Ix := Unit) (Name := ℕ) (U := UC) (Lvl := ℕ) (Val := Elt F) (τ := τ) osem19 c : sProp 𝕄) = cells24 c cc19_scratch2 := by
  rw [Pipeline.ownSems0_eq_of_list c osem19 [0, 1, 2, 3, 4, 5, 6, 7, 8, 9, 10, 11, 12, 13, 14, 15] (by decide) (by decide)]; rfl

/-- The launch's one table, held. -/
theorem prefHeld19_eq (c : Dev nD) (pf : pre19.Contents (Elt F)) :
    (Pipeline.prefHeld pre19 c (fun _ => fullShare) pf : sProp 𝕄) = (((c : Thread nD τ).loc main_v39) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X19 (c : Dev nD) : sProp 𝕄 :=
  iprop((∃ r, prngReg c r) ∗ Pipeline.ownSems0 (Ix := Unit) (Name := ℕ) (U := UC) (Lvl := ℕ) (Val := Elt F) (τ := τ) osem19 c
    ∗ (((c : Thread nD τ).loc main_arg0) ↦{fullShare} V c main_arg0))
abbrev Y19 (c : Dev nD) : sProp 𝕄 :=
  iprop((∃ r, prngReg c r) ∗ (((c : Thread nD τ).loc main_arg0) ↦{fullShare} V c main_arg0)
    ∗ Pipeline.prefHeld pre19 c (fun _ => fullShare) a.1)

/-- THE FIRST POINT: the invariant from what the launch's entry sorts out. Nothing is asked of the carried scratch. -/
theorem Phi19_in (c : Dev nD) :
    iprop(X19 V c ∗ Pipeline.prefHeld pre19 c (fun _ => fullShare) a.1
        ∗ Pipeline.scopedRest (Ix := Unit) (Name := ℕ) (U := UC) (Lvl := ℕ) (Val := Elt F) spec19 c)
      ⊢ (dat19 V a c).Φ 0 := by
  rw [Phi19_eq]
  unfold Φ19 X19
  rw [scopedRest19_split, prefHeld19_eq, cells19_eq]
  simp only [tbM19, hbM19, scM19_0, scM19_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK19_start _ _ _ rfl _
  isplitl [Hs1]; · iexact Hs1
  isplitl [Hcells]; · iexact Hcells
  isplitl [Hreg]; · iexact Hreg
  iexact Hrest

/-- THE LAST POINT: the invariant gives back what it took. -/
theorem Phi19_out (c : Dev nD) :
    (dat19 V a c).Φ (Fin.last _)
      ⊢ iprop(Y19 V a c ∗ Pipeline.ownSems0 (Ix := Unit) (Name := ℕ) (U := UC) (Lvl := ℕ) (Val := Elt F) (τ := τ) osem19 c
        ∗ Pipeline.scopedRest (Ix := Unit) (Name := ℕ) (U := UC) (Lvl := ℕ) (Val := Elt F) spec19 c) := by
  rw [Phi19_eq]
  unfold Φ19 Y19
  rw [scopedRest19_split, prefHeld19_eq, cells19_eq]
  simp only [tbM19, hbM19, scM19_0, scM19_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G20Dat.lean ====
/-
  One of the program's 25 gather launches (pipeline 20; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N20 (a : (pcfg20 (F := F)).Adm) : (cfg20 a).N = 2000 := N_20

/-- The body's branch is taken at the last row of a block of rows, -/
theorem cond20_iff : ∀ t : Fin grid20.N, k20_cond1 (grid20.coords t) = 1#1 ↔ t.val % 1000 = 999 := by decide +kernel
/-- the row a point works on is its number modulo 1000, -/
theorem rowAt20_coord : ∀ t : Fin grid20.N, (grid20.coords t 1).val = t.val % 1000 := by decide +kernel
/-- its block of rows is its number divided by 1000, -/
theorem blockAt20_coord : ∀ t : Fin grid20.N, (grid20.coords t 0).val = t.val / 1000 := by decide +kernel
/-- and the output's block index moves after exactly those points (and the grid ends at one). -/
theorem flushB20 : ∀ t : Fin grid20.N,
    (decide (t.val + 1 = grid20.N) || decide (∃ h : t.val + 1 < grid20.N, cc20_transform_2 (grid20.coords ⟨t.val + 1, h⟩) ≠ cc20_transform_2 (grid20.coords t)))
      = decide (t.val % 1000 = 999) := by decide +kernel

/-- The output's block index at a point: the point's block of rows. -/
theorem idx20_1 : ∀ t : Fin grid20.N, cc20_transform_2 (grid20.coords t) = ![t.val / 1000, 0] := by decide +kernel

/-- Every word of the launch's table names a row of the feature array. -/
def InRange20 (pf : pre20.Contents (Elt F)) : Prop := ∀ x : S16x2000.Idx, ((pf 0 : Vec F S16x2000 .i32) x).toNat < 100000

/-! ## The values -/

/-- Lane `l` of a one-row vector. -/
def lane20 (l : Fin 128) : S1x128.Idx := fun a => ⟨if a.val = 0 then 0 else l.val, by
  match a with
  | ⟨0, _⟩ => exact Nat.one_pos
  | ⟨1, _⟩ => exact l.isLt⟩

theorem lane20_one (l : Fin 128) : (lane20 l 1).val = l.val := rfl

/-- The grid point of row `r` of block `q` (total: the point number is taken modulo the grid's size). -/
def pt20 (q : ℕ) (r : ℕ) : Fin grid20.N := ⟨(q * 1000 + r) % grid20.N, Nat.mod_lt _ (by decide)⟩

/-- Inside the grid the point's number is `1000 q + r`. -/
theorem pt20_val (q r : ℕ) (hq : q < 2) (hr : r < 1000) : (pt20 q r).val = q * 1000 + r := by
  show (q * 1000 + r) % grid20.N = q * 1000 + r
  rw [N_20]; omega

/-- A point is the point of its block and row. -/
theorem pt20_self (t : Fin grid20.N) : pt20 (t.val / 1000) (t.val % 1000) = t := by
  apply Fin.ext
  show (t.val / 1000 * 1000 + t.val % 1000) % grid20.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means20 (tb : Vec F S16x2000 .i32) (A0 : Vec F S100000x128 .f32) (q : ℕ) : Vec F S1000x128 .f32 :=
  fun x => Gen.k24_pay1 (gath24 (grid20.coords (pt20 q (x 0).val)) tb A0) (lane20 (x 1))

/-- What the body stores in the output window at the last row of block `q`: the means, rounded, times the weight, rounded. -/
def xBlk20 (tb : Vec F S16x2000 .i32) (A0 : Vec F S100000x128 .f32) (Wt : Vec F S128x128 .f32) (q : ℕ) : Vec F S1000x128 .f32 :=
  Gen.k24_pay2 (means20 tb A0 q) Wt

/-- The carried scratch before point `n`: its rows below `n % 1000` are the means of block `n / 1000`. -/
def RowsOK20 (tb : Vec F S16x2000 .i32) (A0 : Vec F S100000x128 .f32) (n : ℕ) (g : Vec F S1000x128 .f32) : Prop :=
  ∀ x : S1000x128.Idx, (x 0).val < n % 1000 → g x = means20 tb A0 (n / 1000) x

/-- At the first row of a block nothing is asked. -/
theorem rowsOK20_start (tb : Vec F S16x2000 .i32) (A0 : Vec F S100000x128 .f32) (n : ℕ) (hn : n % 1000 = 0) (g : Vec F S1000x128 .f32) :
    RowsOK20 tb A0 n g := fun x hx => absurd hx (by omega)

/-- One point's row store keeps the invariant's rows and adds its own: after the store at point `t` the rows up to
    `t % 1000` are means. -/
theorem rowAt20_means (tb : Vec F S16x2000 .i32) (A0 : Vec F S100000x128 .f32) (t : Fin grid20.N) (g : Vec F S1000x128 .f32)
    (hg : RowsOK20 tb A0 t.val g) (x : S1000x128.Idx) (hx : (x 0).val ≤ t.val % 1000) :
    row24 (grid20.coords t) tb A0 g x = means20 tb A0 (t.val / 1000) x := by
  by_cases h : (x 0).val = t.val % 1000
  · rw [row24_of_eq (grid20.coords t) tb A0 g x (by rw [rowAt20_coord]; exact h) (lane20 (x 1)) rfl]
    unfold means20
    rw [h, pt20_self]
  · rw [row24_of_ne (grid20.coords t) tb A0 g x (by rw [rowAt20_coord]; exact h)]
    exact hg x (by omega)

/-- Within a block the invariant steps. -/
theorem rowsOK20_step (tb : Vec F S16x2000 .i32) (A0 : Vec F S100000x128 .f32) (t : Fin grid20.N) (g : Vec F S1000x128 .f32)
    (hg : RowsOK20 tb A0 t.val g) : RowsOK20 tb A0 (t.val + 1) (row24 (grid20.coords t) tb A0 g) := by
  by_cases hl : t.val % 1000 = 999
  · exact rowsOK20_start _ _ _ (by omega) _
  · intro x hx
    have h1 : (t.val + 1) / 1000 = t.val / 1000 := by omega
    rw [h1]
    exact rowAt20_means tb A0 t g hg x (by omega)

/-- At the last row of a block the scratch, after the row store, is the block's means whatever it held before. -/
theorem rowAt20_last (tb : Vec F S16x2000 .i32) (A0 : Vec F S100000x128 .f32) (t : Fin grid20.N) (hl : t.val % 1000 = 999)
    (g : Vec F S1000x128 .f32) (hg : RowsOK20 tb A0 t.val g) :
    row24 (grid20.coords t) tb A0 g = means20 tb A0 (t.val / 1000) :=
  funext fun x => rowAt20_means tb A0 t g hg x (by have : (x 0).val < 1000 := (x 0).isLt; omega)

/-! ## The invariant -/

/-- The launch's operands that no window stages, as the body is handed them: its table, the feature array left in
    HBM, and its two scratch buffers — whole buffers. -/
abbrev tbM20 : Memref sig .tc .smem S16x2000 .i32 := Memref.whole main_v41
abbrev hbM20 : Memref sig .tc .hbm S100000x128 .f32 := Memref.whole main_arg0
abbrev scM20_0 : Memref sig .tc .vmem S1000x128 .f32 := Memref.whole cc20_scratch0
abbrev scM20_1 : Memref sig .tc .vmem S16x128 .f32 := Memref.whole cc20_scratch1

section Region
-- the TensorCore's buffer contents when the launch is entered, and the launch's table
variable (V : (c : Dev nD) → (b : Ref sig .tc) → Buf (Elt F) ((c : Thread nD τ).loc b)) (a : (pcfg20 (F := F)).Adm)

/-- The table and the feature array, as vectors. -/
abbrev tb20 : Vec F S16x2000 .i32 := a.1 0
abbrev A20 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ20 (c : Dev nD) (n : ℕ) : sProp 𝕄 :=
  iprop(owns (c : Thread nD τ) tbM20 fullShare (tb20 a)
    ∗ owns (c : Thread nD τ) hbM20 fullShare (A20 V c)
    ∗ (∃ g : Vec F S1000x128 .f32, ⌜RowsOK20 (tb20 a) (A20 V c) n g⌝ ∗ owns (c : Thread nD τ) scM20_0 fullShare g)
    ∗ (∃ d, owns (c : Thread nD τ) scM20_1 fullShare d)
    ∗ cells24 c cc20_scratch2
    ∗ (∃ r, prngReg c r)
    ∗ Pipeline.scopedRestBut (Ix := Unit) (Name := ℕ) (U := UC) (Lvl := ℕ) (Val := Elt F) spec20 c [cc20_scratch0, cc20_scratch1])

/-! ## The windows' blocks and the proof data -/

/-- Window `w`'s block at point `t`, read off its array as the launch finds it. -/
def iblk20 (c : Dev nD) (w : Fin (cfg20 a).W) (t : Fin (cfg20 a).N) :
    (((cfg20 a).win w).xblock ((cfg20 a).grid.coords t)).Idx → Elt F ((cfg20 a).win w).elt :=
  (((cfg20 a).win w).blk t).view.read (Elt F) (V c (Pipeline.arrRef spec20 w))

/-- The proof data of the launch on core `c`: the arrays as the launch finds them; after the body at point `t` the
    weight window at its block and the output window at the product for `t`'s block of rows (read only at the block's
    last row, where the body stores it); the invariant above; nothing owed; full shares. -/
def dat20 (c : Dev nD) : Dat τ (Elt F) Unit ℕ UC ℕ (cfg20 a) c where
  A w := V c (Pipeline.arrRef spec20 w)
  after w t := match w with
    | ⟨0, _⟩ => iblk20 V a c 0 t
    | ⟨1, _⟩ => xBlk20 (tb20 a) (A20 V c) (iblk20 V a c 0 t) (t.val / 1000)
  Φ n := Φ20 V a c n.val
  q _ := fullShare
  owed _ := 0

/-- The proof data's arrays are the entry contents. -/
theorem A_eq20 (c : Dev nD) (w : Fin (cfg20 a).W) : (dat20 V a c).A w = V c (Pipeline.arrRef spec20 w) := by
  dsimp only [dat20]

/-- What the body leaves, window by window. -/
theorem after20_0 (c : Dev nD) (t : Fin (cfg20 a).N) : (dat20 V a c).after 0 t = iblk20 V a c 0 t := by dsimp only [dat20]; rfl
theorem after20_1 (c : Dev nD) (t : Fin (cfg20 a).N) :
    (dat20 V a c).after 1 t = xBlk20 (tb20 a) (A20 V c) (iblk20 V a c 0 t) (t.val / 1000) := by dsimp only [dat20]; rfl

/-- The invariant and the tallies, at a point. -/
theorem Phi20_eq (c : Dev nD) (n : Fin ((cfg20 a).N + 1)) : (dat20 V a c).Φ n = Φ20 V a c n.val := by dsimp only [dat20]
theorem owed20_eq (c : Dev nD) (n : Fin ((cfg20 a).N + 1)) : (dat20 V a c).owed n = 0 := by dsimp only [dat20]

/-- The weight window holds its block at every point, fetched there or not: its block index never moves. -/
theorem before20_0 (c : Dev nD) (t : Fin (cfg20 a).N) (d) : (dat20 V a c).before 0 t d = iblk20 V a c 0 t :=
  ((dat20 V a c).before_in_eq_fetched 0 rfl (fun _ => rfl) (fun _ _ _ => rfl)
      (fun t => by rw [after20_0]; unfold Dat.blockOf iblk20; rw [A_eq20]; try rfl) t d).trans
    (by unfold Dat.fetched Dat.blockOf iblk20; rw [A_eq20]; try rfl)

/-- The output window is written back after the last row of each block of rows, and only there; -/
theorem flush20_1 (t : Fin (cfg20 a).N) : ((cfg20 a).win 1).flush t = decide (t.val % 1000 = 999) := by
  unfold Window.flush
  exact flushB20 t
/-- and it is idle at every other row. -/
theorem idle20_1 (t : Fin (cfg20 a).N) : (cfg20 a).idle 1 ((cfg20 a).grid.coords t) = !decide (t.val % 1000 = 999) := by
  show (!(k20_cond1 (grid20.coords t) == 1#1)) = _
  congr 1
  by_cases h : t.val % 1000 = 999
  · rw [decide_eq_true h, (cond20_iff t).2 h]; rfl
  · rw [decide_eq_false h]
    exact beq_false_of_ne fun e => h ((cond20_iff t).1 e)

end Region

/-! ## The body obligation -/

section Body
variable (V : (c : Dev nD) → (b : Ref sig .tc) → Buf (Elt F) ((c : Thread nD τ).loc b)) (a : (pcfg20 (F := F)).Adm)

/-- Each window's current staging memref at point `t`, spelled as the pipeline passes it, and its wholeness. -/
abbrev ms20_0 (t : Fin (cfg20 a).N) : Memref sig .tc .vmem S128x128 .f32 := spec20_0.stage ((cfg20 a).slots t 0)
abbrev hs20_0 (t : Fin (cfg20 a).N) : (ms20_0 a t).IsWhole := hstage20_0 (((cfg20 a).slots t 0).cast nbuf20_0)
abbrev ms20_1 (t : Fin (cfg20 a).N) : Memref sig .tc .vmem S1000x128 .f32 := spec20_1.stage ((cfg20 a).slots t 1)
abbrev hs20_1 (t : Fin (cfg20 a).N) : (ms20_1 a t).IsWhole := hstage20_1 (((cfg20 a).slots t 1).cast nbuf20_1)

/-- The launch's body function, under the name the runs are stated at. -/
theorem bodyFn20_eq : cc20__gather_agg_matmul_kernel (F := F) = gatherFn := rfl

/-- The kernel body at point `t`, on what the pipeline calls it with. -/
abbrev bodyAt20 (t : Fin (cfg20 a).N) : Prog (TpuEff nD τ sig (Elt F) Λ₀ .tc) PUnit :=
  cc20__gather_agg_matmul_kernel (grid20.coords t) tbM20 (Memref.isWhole_whole _) hbM20 (Memref.isWhole_whole _)
    (ms20_0 a t) (hs20_0 a t) (ms20_1 a t) (hs20_1 a t) scM20_0 (Memref.isWhole_whole _) scM20_1 (Memref.isWhole_whole _) cc20_scratch2

/-- What the body is called with at point `t`, the windows one by one, -/
def bodyPre20 (c : Dev nD) (t : Fin (cfg20 a).N) : sProp 𝕄 :=
  iprop((dat20 V a c).Φ t.castSucc ∗ (dat20 V a c).owesAt () t.castSucc
    ∗ (∃ d, owns (c : Thread nD τ) (ms20_0 a t) fullShare ((dat20 V a c).before 0 t d))
    ∗ (∃ d, owns (c : Thread nD τ) (ms20_1 a t) fullShare ((dat20 V a c).before 1 t d)))

/-- and what it returns: the output window as it was found where the point is idle for it, at the block's product
    at the last row of a block. -/
def bodyPost20 (c : Dev nD) (t : Fin (cfg20 a).N) : sProp 𝕄 :=
  iprop((dat20 V a c).Φ t.succ ∗ (dat20 V a c).owesAt () t.succ
    ∗ owns (c : Thread nD τ) (ms20_0 a t) fullShare ((dat20 V a c).after 0 t)
    ∗ (match (cfg20 a).idle 1 ((cfg20 a).grid.coords t) with
        | true =>
          match ((cfg20 a).win 1).flush t with
          | false => iprop(∃ d, owns (c : Thread nD τ) (ms20_1 a t) fullShare ((dat20 V a c).before 1 t d))
          | true => owns (c : Thread nD τ) (ms20_1 a t) fullShare ((dat20 V a c).after 1 t)
        | false => owns (c : Thread nD τ) (ms20_1 a t) fullShare ((dat20 V a c).after 1 t)))

/-- The body at any point. The weight window holds its block; the invariant hands the body its table, the feature
    array, both scratch buffers and its transfer cells, and takes them back with the carried scratch one row further
    (`rowsOK20_step`); at the last row of a block the product the body stores is the block's (`rowAt20_last`); the core's
    `owes` goes in at whatever the points before recorded and comes back with this point's waits. -/
theorem sound_body20 (hR : InRange20 a.1) (c : Dev nD) (t : Fin (cfg20 a).N) :
    bodyPre20 V a c t ⊢ wp frame (wpE (defs₀ (F := F)) Variants.none c none) Set.univ (bodyAt20 a t) (fun _ => bodyPost20 V a c t) := by
  unfold bodyPre20 bodyPost20 bodyAt20
  rw [flush20_1, idle20_1]
  simp only [before20_0]
  rw [after20_0, Phi20_eq, Phi20_eq, Fin.val_succ, Fin.coe_castSucc]
  unfold Dat.owesAt Pipeline.owesWithin
  rw [owed20_eq, owed20_eq]
  unfold Φ20
  rw [bodyFn20_eq]
  by_cases hl : t.val % 1000 = 999
  · -- the last row of a block
    rw [decide_eq_true hl, Bool.not_true]
    dsimp only
    rw [after20_1]
    unfold xBlk20
    iintro ⟨⟨Htb, Hhb, ⟨%g, %hg, Hs0⟩, Hs1, Hcells, Hreg, Hrest⟩, ⟨%W, -, HW⟩, ⟨%d0, H0⟩, ⟨%d1, H1⟩⟩
    rw [← rowAt20_last (tb20 a) (A20 V c) t hl g hg]
    iapply (run24_last c (grid20.coords t) tbM20 (Memref.isWhole_whole _) hbM20 (Memref.isWhole_whole _) (ms20_0 a t) (hs20_0 a t)
      (ms20_1 a t) (hs20_1 a t) scM20_0 (Memref.isWhole_whole _) scM20_1 (Memref.isWhole_whole _) cc20_scratch2
      ((cond20_iff t).2 hl) (tb20 a) hR (A20 V c) (iblk20 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK20_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k20_cond1 (grid20.coords t) ≠ 1#1 := fun e => hl ((cond20_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid20.coords t) tbM20 (Memref.isWhole_whole _) hbM20 (Memref.isWhole_whole _) (ms20_0 a t) (hs20_0 a t)
      (ms20_1 a t) (hs20_1 a t) scM20_0 (Memref.isWhole_whole _) scM20_1 (Memref.isWhole_whole _) cc20_scratch2
      hc (tb20 a) hR (A20 V c) (iblk20 V a c 0 t) g
      (owns (c : Thread nD τ) (ms20_1 a t) fullShare ((dat20 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK20_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation20 (hR : InRange20 a.1) (c : Dev nD) :
    BodyObligation (dat20 (F := F) V a c) (defs₀ (F := F)) Variants.none () Set.univ := fun t => by
  rw [bigSep_W20, bigSep_W20]
  exact sound_body20 V a hR c t

end Body

/-! ## The value: what the launch leaves in its output array -/

section Value
variable (V : (c : Dev nD) → (b : Ref sig .tc) → Buf (Elt F) ((c : Thread nD τ).loc b)) (a : (pcfg20 (F := F)).Adm)

/-- Entry `(r, l)` of a block of rows. -/
def cell20 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk20 (tb : Vec F S16x2000 .i32) (A0 : Vec F S100000x128 .f32) (Wt : Vec F S128x128 .f32) : Vec F S2000x128 .f32 :=
  fun y => xBlk20 tb A0 Wt ((y 0).val / 1000) (cell20 ((y 0).val % 1000) (Nat.mod_lt _ (by decide)) (y 1))

/-- The weight window's block is the whole weight, at every point: its block index is (0, 0). -/
theorem wblk20_eq (c : Dev nD) (t : Fin (cfg20 a).N) : iblk20 V a c 0 t = (V c main_arg1 : Vec F S128x128 .f32) := by
  funext x
  unfold iblk20
  rw [View.read_apply]
  refine (cast_eq _ _).trans (congrArg (V c main_arg1) (funext fun b => Fin.ext ?_))
  refine (((cfg20 a).win 0).rect_emb_val_of_index_zero t b ?_ x)
  match b with
  | ⟨0, _⟩ => rfl
  | ⟨1, _⟩ => rfl

/-- Where entry `x` of the output window's block at point `t` sits in the output array. -/
abbrev emb20 (t : Fin (cfg20 a).N) (x : S1000x128.Idx) : S2000x128.Idx := (((cfg20 a).win 1).blk t).view.emb x

theorem emb20_val (t : Fin (cfg20 a).N) (x : S1000x128.Idx) :
    (emb20 a t x 0).val = t.val / 1000 * 1000 + (x 0).val ∧ (emb20 a t x 1).val = (x 1).val := by
  have hix : ((cfg20 a).win 1).index t = ![t.val / 1000, 0] := idx20_1 t
  have e0 := ((cfg20 a).win 1).rect_emb_val t x (0 : Fin 2)
  have e1 := ((cfg20 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after20_chunk (c : Dev nD) (t : Fin (cfg20 a).N) (x : S1000x128.Idx) :
    (dat20 V a c).after 1 t x = xChunk20 (tb20 a) (A20 V c) (V c main_arg1) (emb20 a t x) := by
  obtain ⟨e0, e1⟩ := emb20_val a t x
  have hx0 : (x 0).val < 1000 := (x 0).isLt
  rw [after20_1, wblk20_eq]
  unfold xChunk20
  have hq : (emb20 a t x 0).val / 1000 = t.val / 1000 := by rw [e0]; omega
  have hcell : cell20 ((emb20 a t x 0).val % 1000) (Nat.mod_lt _ (by decide)) (emb20 a t x 1) = x := by
    funext b
    apply Fin.ext
    match b with
    | ⟨0, _⟩ =>
      show (emb20 a t x 0).val % 1000 = (x 0).val
      rw [e0]; omega
    | ⟨1, _⟩ => exact e1
  rw [hq, hcell]

/-- Two entries of the output array with the same coordinates are the same. -/
theorem idx20_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb20_cell (t : Fin (cfg20 a).N) (i : S2000x128.Idx) (ht : t.val / 1000 = (i 0).val / 1000) :
    emb20 a t (cell20 ((i 0).val % 1000) (Nat.mod_lt _ (by decide)) (i 1)) = i := by
  obtain ⟨e0, e1⟩ := emb20_val a t (cell20 ((i 0).val % 1000) (Nat.mod_lt _ (by decide)) (i 1))
  refine idx20_ext _ _ ?_ e1
  rw [e0, ht]
  show (i 0).val / 1000 * 1000 + (i 0).val % 1000 = (i 0).val
  omega

/-- Every entry of the output array lies in the block written back after the last row of its block of rows. -/
theorem cover20 (i : S2000x128.Idx) :
    ∃ t : Fin (cfg20 a).N, ((cfg20 a).win 1).flush t = true ∧ i ∈ (((cfg20 a).win 1).blk t).view.set := by
  have hi0 : (i 0).val < 2000 := (i 0).isLt
  have hN : (i 0).val / 1000 * 1000 + 999 < (cfg20 a).N := by rw [N20]; omega
  refine ⟨⟨(i 0).val / 1000 * 1000 + 999, hN⟩, ?_, ?_⟩
  · rw [flush20_1]; exact decide_eq_true (by show ((i 0).val / 1000 * 1000 + 999) % 1000 = 999; omega)
  · refine Finset.mem_map.mpr ⟨cell20 ((i 0).val % 1000) (Nat.mod_lt _ (by decide)) (i 1), Finset.mem_univ _, ?_⟩
    exact emb20_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out20 (c : Dev nD) :
    (dat20 V a c).arrAt 1 (cfg20 a).N = (xChunk20 (tb20 a) (A20 V c) (V c main_arg1) : Vec F S2000x128 .f32) :=
  (dat20 V a c).arrAt_eq_of_cover 1 _
    (fun t _ => funext fun x => (after20_chunk V a c t x).trans (cast_eq _ _).symm)
    (cover20 a)

end Value

/-! ## The invariant's two ends -/

section Ends
variable (V : (c : Dev nD) → (b : Ref sig .tc) → Buf (Elt F) ((c : Thread nD τ).loc b)) (a : (pcfg20 (F := F)).Adm)

/-- The body's own transfer cells as the launch's protocol lists them: the 16 cells of its semaphore operand. -/
def osem20 : Fin 16 → SemLoc sig := fun k => SemLoc.dma (cc20_scratch2.ix (Shape.ofLane k))
/-- They are scoped, distinct, and none is a window's. -/
theorem ownSemFacts20 : Pipeline.OwnSemFacts spec20 osem20 := by decide
/-- The cells at zero, listed, are the cells as the body names them. -/
theorem cells20_eq (c : Dev nD) :
    (Pipeline.ownSems0 (Ix := Unit) (Name := ℕ) (U := UC) (Lvl := ℕ) (Val := Elt F) (τ := τ) osem20 c : sProp 𝕄) = cells24 c cc20_scratch2 := by
  rw [Pipeline.ownSems0_eq_of_list c osem20 [0, 1, 2, 3, 4, 5, 6, 7, 8, 9, 10, 11, 12, 13, 14, 15] (by decide) (by decide)]; rfl

/-- The launch's one table, held. -/
theorem prefHeld20_eq (c : Dev nD) (pf : pre20.Contents (Elt F)) :
    (Pipeline.prefHeld pre20 c (fun _ => fullShare) pf : sProp 𝕄) = (((c : Thread nD τ).loc main_v41) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X20 (c : Dev nD) : sProp 𝕄 :=
  iprop((∃ r, prngReg c r) ∗ Pipeline.ownSems0 (Ix := Unit) (Name := ℕ) (U := UC) (Lvl := ℕ) (Val := Elt F) (τ := τ) osem20 c
    ∗ (((c : Thread nD τ).loc main_arg0) ↦{fullShare} V c main_arg0))
abbrev Y20 (c : Dev nD) : sProp 𝕄 :=
  iprop((∃ r, prngReg c r) ∗ (((c : Thread nD τ).loc main_arg0) ↦{fullShare} V c main_arg0)
    ∗ Pipeline.prefHeld pre20 c (fun _ => fullShare) a.1)

/-- THE FIRST POINT: the invariant from what the launch's entry sorts out. Nothing is asked of the carried scratch. -/
theorem Phi20_in (c : Dev nD) :
    iprop(X20 V c ∗ Pipeline.prefHeld pre20 c (fun _ => fullShare) a.1
        ∗ Pipeline.scopedRest (Ix := Unit) (Name := ℕ) (U := UC) (Lvl := ℕ) (Val := Elt F) spec20 c)
      ⊢ (dat20 V a c).Φ 0 := by
  rw [Phi20_eq]
  unfold Φ20 X20
  rw [scopedRest20_split, prefHeld20_eq, cells20_eq]
  simp only [tbM20, hbM20, scM20_0, scM20_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK20_start _ _ _ rfl _
  isplitl [Hs1]; · iexact Hs1
  isplitl [Hcells]; · iexact Hcells
  isplitl [Hreg]; · iexact Hreg
  iexact Hrest

/-- THE LAST POINT: the invariant gives back what it took. -/
theorem Phi20_out (c : Dev nD) :
    (dat20 V a c).Φ (Fin.last _)
      ⊢ iprop(Y20 V a c ∗ Pipeline.ownSems0 (Ix := Unit) (Name := ℕ) (U := UC) (Lvl := ℕ) (Val := Elt F) (τ := τ) osem20 c
        ∗ Pipeline.scopedRest (Ix := Unit) (Name := ℕ) (U := UC) (Lvl := ℕ) (Val := Elt F) spec20 c) := by
  rw [Phi20_eq]
  unfold Φ20 Y20
  rw [scopedRest20_split, prefHeld20_eq, cells20_eq]
  simp only [tbM20, hbM20, scM20_0, scM20_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G21Dat.lean ====
/-
  One of the program's 25 gather launches (pipeline 21; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N21 (a : (pcfg21 (F := F)).Adm) : (cfg21 a).N = 2000 := N_21

/-- The body's branch is taken at the last row of a block of rows, -/
theorem cond21_iff : ∀ t : Fin grid21.N, k21_cond1 (grid21.coords t) = 1#1 ↔ t.val % 1000 = 999 := by decide +kernel
/-- the row a point works on is its number modulo 1000, -/
theorem rowAt21_coord : ∀ t : Fin grid21.N, (grid21.coords t 1).val = t.val % 1000 := by decide +kernel
/-- its block of rows is its number divided by 1000, -/
theorem blockAt21_coord : ∀ t : Fin grid21.N, (grid21.coords t 0).val = t.val / 1000 := by decide +kernel
/-- and the output's block index moves after exactly those points (and the grid ends at one). -/
theorem flushB21 : ∀ t : Fin grid21.N,
    (decide (t.val + 1 = grid21.N) || decide (∃ h : t.val + 1 < grid21.N, cc21_transform_2 (grid21.coords ⟨t.val + 1, h⟩) ≠ cc21_transform_2 (grid21.coords t)))
      = decide (t.val % 1000 = 999) := by decide +kernel

/-- The output's block index at a point: the point's block of rows. -/
theorem idx21_1 : ∀ t : Fin grid21.N, cc21_transform_2 (grid21.coords t) = ![t.val / 1000, 0] := by decide +kernel

/-- Every word of the launch's table names a row of the feature array. -/
def InRange21 (pf : pre21.Contents (Elt F)) : Prop := ∀ x : S16x2000.Idx, ((pf 0 : Vec F S16x2000 .i32) x).toNat < 100000

/-! ## The values -/

/-- Lane `l` of a one-row vector. -/
def lane21 (l : Fin 128) : S1x128.Idx := fun a => ⟨if a.val = 0 then 0 else l.val, by
  match a with
  | ⟨0, _⟩ => exact Nat.one_pos
  | ⟨1, _⟩ => exact l.isLt⟩

theorem lane21_one (l : Fin 128) : (lane21 l 1).val = l.val := rfl

/-- The grid point of row `r` of block `q` (total: the point number is taken modulo the grid's size). -/
def pt21 (q : ℕ) (r : ℕ) : Fin grid21.N := ⟨(q * 1000 + r) % grid21.N, Nat.mod_lt _ (by decide)⟩

/-- Inside the grid the point's number is `1000 q + r`. -/
theorem pt21_val (q r : ℕ) (hq : q < 2) (hr : r < 1000) : (pt21 q r).val = q * 1000 + r := by
  show (q * 1000 + r) % grid21.N = q * 1000 + r
  rw [N_21]; omega

/-- A point is the point of its block and row. -/
theorem pt21_self (t : Fin grid21.N) : pt21 (t.val / 1000) (t.val % 1000) = t := by
  apply Fin.ext
  show (t.val / 1000 * 1000 + t.val % 1000) % grid21.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means21 (tb : Vec F S16x2000 .i32) (A0 : Vec F S100000x128 .f32) (q : ℕ) : Vec F S1000x128 .f32 :=
  fun x => Gen.k24_pay1 (gath24 (grid21.coords (pt21 q (x 0).val)) tb A0) (lane21 (x 1))

/-- What the body stores in the output window at the last row of block `q`: the means, rounded, times the weight, rounded. -/
def xBlk21 (tb : Vec F S16x2000 .i32) (A0 : Vec F S100000x128 .f32) (Wt : Vec F S128x128 .f32) (q : ℕ) : Vec F S1000x128 .f32 :=
  Gen.k24_pay2 (means21 tb A0 q) Wt

/-- The carried scratch before point `n`: its rows below `n % 1000` are the means of block `n / 1000`. -/
def RowsOK21 (tb : Vec F S16x2000 .i32) (A0 : Vec F S100000x128 .f32) (n : ℕ) (g : Vec F S1000x128 .f32) : Prop :=
  ∀ x : S1000x128.Idx, (x 0).val < n % 1000 → g x = means21 tb A0 (n / 1000) x

/-- At the first row of a block nothing is asked. -/
theorem rowsOK21_start (tb : Vec F S16x2000 .i32) (A0 : Vec F S100000x128 .f32) (n : ℕ) (hn : n % 1000 = 0) (g : Vec F S1000x128 .f32) :
    RowsOK21 tb A0 n g := fun x hx => absurd hx (by omega)

/-- One point's row store keeps the invariant's rows and adds its own: after the store at point `t` the rows up to
    `t % 1000` are means. -/
theorem rowAt21_means (tb : Vec F S16x2000 .i32) (A0 : Vec F S100000x128 .f32) (t : Fin grid21.N) (g : Vec F S1000x128 .f32)
    (hg : RowsOK21 tb A0 t.val g) (x : S1000x128.Idx) (hx : (x 0).val ≤ t.val % 1000) :
    row24 (grid21.coords t) tb A0 g x = means21 tb A0 (t.val / 1000) x := by
  by_cases h : (x 0).val = t.val % 1000
  · rw [row24_of_eq (grid21.coords t) tb A0 g x (by rw [rowAt21_coord]; exact h) (lane21 (x 1)) rfl]
    unfold means21
    rw [h, pt21_self]
  · rw [row24_of_ne (grid21.coords t) tb A0 g x (by rw [rowAt21_coord]; exact h)]
    exact hg x (by omega)

/-- Within a block the invariant steps. -/
theorem rowsOK21_step (tb : Vec F S16x2000 .i32) (A0 : Vec F S100000x128 .f32) (t : Fin grid21.N) (g : Vec F S1000x128 .f32)
    (hg : RowsOK21 tb A0 t.val g) : RowsOK21 tb A0 (t.val + 1) (row24 (grid21.coords t) tb A0 g) := by
  by_cases hl : t.val % 1000 = 999
  · exact rowsOK21_start _ _ _ (by omega) _
  · intro x hx
    have h1 : (t.val + 1) / 1000 = t.val / 1000 := by omega
    rw [h1]
    exact rowAt21_means tb A0 t g hg x (by omega)

/-- At the last row of a block the scratch, after the row store, is the block's means whatever it held before. -/
theorem rowAt21_last (tb : Vec F S16x2000 .i32) (A0 : Vec F S100000x128 .f32) (t : Fin grid21.N) (hl : t.val % 1000 = 999)
    (g : Vec F S1000x128 .f32) (hg : RowsOK21 tb A0 t.val g) :
    row24 (grid21.coords t) tb A0 g = means21 tb A0 (t.val / 1000) :=
  funext fun x => rowAt21_means tb A0 t g hg x (by have : (x 0).val < 1000 := (x 0).isLt; omega)

/-! ## The invariant -/

/-- The launch's operands that no window stages, as the body is handed them: its table, the feature array left in
    HBM, and its two scratch buffers — whole buffers. -/
abbrev tbM21 : Memref sig .tc .smem S16x2000 .i32 := Memref.whole main_v43
abbrev hbM21 : Memref sig .tc .hbm S100000x128 .f32 := Memref.whole main_arg0
abbrev scM21_0 : Memref sig .tc .vmem S1000x128 .f32 := Memref.whole cc21_scratch0
abbrev scM21_1 : Memref sig .tc .vmem S16x128 .f32 := Memref.whole cc21_scratch1

section Region
-- the TensorCore's buffer contents when the launch is entered, and the launch's table
variable (V : (c : Dev nD) → (b : Ref sig .tc) → Buf (Elt F) ((c : Thread nD τ).loc b)) (a : (pcfg21 (F := F)).Adm)

/-- The table and the feature array, as vectors. -/
abbrev tb21 : Vec F S16x2000 .i32 := a.1 0
abbrev A21 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ21 (c : Dev nD) (n : ℕ) : sProp 𝕄 :=
  iprop(owns (c : Thread nD τ) tbM21 fullShare (tb21 a)
    ∗ owns (c : Thread nD τ) hbM21 fullShare (A21 V c)
    ∗ (∃ g : Vec F S1000x128 .f32, ⌜RowsOK21 (tb21 a) (A21 V c) n g⌝ ∗ owns (c : Thread nD τ) scM21_0 fullShare g)
    ∗ (∃ d, owns (c : Thread nD τ) scM21_1 fullShare d)
    ∗ cells24 c cc21_scratch2
    ∗ (∃ r, prngReg c r)
    ∗ Pipeline.scopedRestBut (Ix := Unit) (Name := ℕ) (U := UC) (Lvl := ℕ) (Val := Elt F) spec21 c [cc21_scratch0, cc21_scratch1])

/-! ## The windows' blocks and the proof data -/

/-- Window `w`'s block at point `t`, read off its array as the launch finds it. -/
def iblk21 (c : Dev nD) (w : Fin (cfg21 a).W) (t : Fin (cfg21 a).N) :
    (((cfg21 a).win w).xblock ((cfg21 a).grid.coords t)).Idx → Elt F ((cfg21 a).win w).elt :=
  (((cfg21 a).win w).blk t).view.read (Elt F) (V c (Pipeline.arrRef spec21 w))

/-- The proof data of the launch on core `c`: the arrays as the launch finds them; after the body at point `t` the
    weight window at its block and the output window at the product for `t`'s block of rows (read only at the block's
    last row, where the body stores it); the invariant above; nothing owed; full shares. -/
def dat21 (c : Dev nD) : Dat τ (Elt F) Unit ℕ UC ℕ (cfg21 a) c where
  A w := V c (Pipeline.arrRef spec21 w)
  after w t := match w with
    | ⟨0, _⟩ => iblk21 V a c 0 t
    | ⟨1, _⟩ => xBlk21 (tb21 a) (A21 V c) (iblk21 V a c 0 t) (t.val / 1000)
  Φ n := Φ21 V a c n.val
  q _ := fullShare
  owed _ := 0

/-- The proof data's arrays are the entry contents. -/
theorem A_eq21 (c : Dev nD) (w : Fin (cfg21 a).W) : (dat21 V a c).A w = V c (Pipeline.arrRef spec21 w) := by
  dsimp only [dat21]

/-- What the body leaves, window by window. -/
theorem after21_0 (c : Dev nD) (t : Fin (cfg21 a).N) : (dat21 V a c).after 0 t = iblk21 V a c 0 t := by dsimp only [dat21]; rfl
theorem after21_1 (c : Dev nD) (t : Fin (cfg21 a).N) :
    (dat21 V a c).after 1 t = xBlk21 (tb21 a) (A21 V c) (iblk21 V a c 0 t) (t.val / 1000) := by dsimp only [dat21]; rfl

/-- The invariant and the tallies, at a point. -/
theorem Phi21_eq (c : Dev nD) (n : Fin ((cfg21 a).N + 1)) : (dat21 V a c).Φ n = Φ21 V a c n.val := by dsimp only [dat21]
theorem owed21_eq (c : Dev nD) (n : Fin ((cfg21 a).N + 1)) : (dat21 V a c).owed n = 0 := by dsimp only [dat21]

/-- The weight window holds its block at every point, fetched there or not: its block index never moves. -/
theorem before21_0 (c : Dev nD) (t : Fin (cfg21 a).N) (d) : (dat21 V a c).before 0 t d = iblk21 V a c 0 t :=
  ((dat21 V a c).before_in_eq_fetched 0 rfl (fun _ => rfl) (fun _ _ _ => rfl)
      (fun t => by rw [after21_0]; unfold Dat.blockOf iblk21; rw [A_eq21]; try rfl) t d).trans
    (by unfold Dat.fetched Dat.blockOf iblk21; rw [A_eq21]; try rfl)

/-- The output window is written back after the last row of each block of rows, and only there; -/
theorem flush21_1 (t : Fin (cfg21 a).N) : ((cfg21 a).win 1).flush t = decide (t.val % 1000 = 999) := by
  unfold Window.flush
  exact flushB21 t
/-- and it is idle at every other row. -/
theorem idle21_1 (t : Fin (cfg21 a).N) : (cfg21 a).idle 1 ((cfg21 a).grid.coords t) = !decide (t.val % 1000 = 999) := by
  show (!(k21_cond1 (grid21.coords t) == 1#1)) = _
  congr 1
  by_cases h : t.val % 1000 = 999
  · rw [decide_eq_true h, (cond21_iff t).2 h]; rfl
  · rw [decide_eq_false h]
    exact beq_false_of_ne fun e => h ((cond21_iff t).1 e)

end Region

/-! ## The body obligation -/

section Body
variable (V : (c : Dev nD) → (b : Ref sig .tc) → Buf (Elt F) ((c : Thread nD τ).loc b)) (a : (pcfg21 (F := F)).Adm)

/-- Each window's current staging memref at point `t`, spelled as the pipeline passes it, and its wholeness. -/
abbrev ms21_0 (t : Fin (cfg21 a).N) : Memref sig .tc .vmem S128x128 .f32 := spec21_0.stage ((cfg21 a).slots t 0)
abbrev hs21_0 (t : Fin (cfg21 a).N) : (ms21_0 a t).IsWhole := hstage21_0 (((cfg21 a).slots t 0).cast nbuf21_0)
abbrev ms21_1 (t : Fin (cfg21 a).N) : Memref sig .tc .vmem S1000x128 .f32 := spec21_1.stage ((cfg21 a).slots t 1)
abbrev hs21_1 (t : Fin (cfg21 a).N) : (ms21_1 a t).IsWhole := hstage21_1 (((cfg21 a).slots t 1).cast nbuf21_1)

/-- The launch's body function, under the name the runs are stated at. -/
theorem bodyFn21_eq : cc21__gather_agg_matmul_kernel (F := F) = gatherFn := rfl

/-- The kernel body at point `t`, on what the pipeline calls it with. -/
abbrev bodyAt21 (t : Fin (cfg21 a).N) : Prog (TpuEff nD τ sig (Elt F) Λ₀ .tc) PUnit :=
  cc21__gather_agg_matmul_kernel (grid21.coords t) tbM21 (Memref.isWhole_whole _) hbM21 (Memref.isWhole_whole _)
    (ms21_0 a t) (hs21_0 a t) (ms21_1 a t) (hs21_1 a t) scM21_0 (Memref.isWhole_whole _) scM21_1 (Memref.isWhole_whole _) cc21_scratch2

/-- What the body is called with at point `t`, the windows one by one, -/
def bodyPre21 (c : Dev nD) (t : Fin (cfg21 a).N) : sProp 𝕄 :=
  iprop((dat21 V a c).Φ t.castSucc ∗ (dat21 V a c).owesAt () t.castSucc
    ∗ (∃ d, owns (c : Thread nD τ) (ms21_0 a t) fullShare ((dat21 V a c).before 0 t d))
    ∗ (∃ d, owns (c : Thread nD τ) (ms21_1 a t) fullShare ((dat21 V a c).before 1 t d)))

/-- and what it returns: the output window as it was found where the point is idle for it, at the block's product
    at the last row of a block. -/
def bodyPost21 (c : Dev nD) (t : Fin (cfg21 a).N) : sProp 𝕄 :=
  iprop((dat21 V a c).Φ t.succ ∗ (dat21 V a c).owesAt () t.succ
    ∗ owns (c : Thread nD τ) (ms21_0 a t) fullShare ((dat21 V a c).after 0 t)
    ∗ (match (cfg21 a).idle 1 ((cfg21 a).grid.coords t) with
        | true =>
          match ((cfg21 a).win 1).flush t with
          | false => iprop(∃ d, owns (c : Thread nD τ) (ms21_1 a t) fullShare ((dat21 V a c).before 1 t d))
          | true => owns (c : Thread nD τ) (ms21_1 a t) fullShare ((dat21 V a c).after 1 t)
        | false => owns (c : Thread nD τ) (ms21_1 a t) fullShare ((dat21 V a c).after 1 t)))

/-- The body at any point. The weight window holds its block; the invariant hands the body its table, the feature
    array, both scratch buffers and its transfer cells, and takes them back with the carried scratch one row further
    (`rowsOK21_step`); at the last row of a block the product the body stores is the block's (`rowAt21_last`); the core's
    `owes` goes in at whatever the points before recorded and comes back with this point's waits. -/
theorem sound_body21 (hR : InRange21 a.1) (c : Dev nD) (t : Fin (cfg21 a).N) :
    bodyPre21 V a c t ⊢ wp frame (wpE (defs₀ (F := F)) Variants.none c none) Set.univ (bodyAt21 a t) (fun _ => bodyPost21 V a c t) := by
  unfold bodyPre21 bodyPost21 bodyAt21
  rw [flush21_1, idle21_1]
  simp only [before21_0]
  rw [after21_0, Phi21_eq, Phi21_eq, Fin.val_succ, Fin.coe_castSucc]
  unfold Dat.owesAt Pipeline.owesWithin
  rw [owed21_eq, owed21_eq]
  unfold Φ21
  rw [bodyFn21_eq]
  by_cases hl : t.val % 1000 = 999
  · -- the last row of a block
    rw [decide_eq_true hl, Bool.not_true]
    dsimp only
    rw [after21_1]
    unfold xBlk21
    iintro ⟨⟨Htb, Hhb, ⟨%g, %hg, Hs0⟩, Hs1, Hcells, Hreg, Hrest⟩, ⟨%W, -, HW⟩, ⟨%d0, H0⟩, ⟨%d1, H1⟩⟩
    rw [← rowAt21_last (tb21 a) (A21 V c) t hl g hg]
    iapply (run24_last c (grid21.coords t) tbM21 (Memref.isWhole_whole _) hbM21 (Memref.isWhole_whole _) (ms21_0 a t) (hs21_0 a t)
      (ms21_1 a t) (hs21_1 a t) scM21_0 (Memref.isWhole_whole _) scM21_1 (Memref.isWhole_whole _) cc21_scratch2
      ((cond21_iff t).2 hl) (tb21 a) hR (A21 V c) (iblk21 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK21_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k21_cond1 (grid21.coords t) ≠ 1#1 := fun e => hl ((cond21_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid21.coords t) tbM21 (Memref.isWhole_whole _) hbM21 (Memref.isWhole_whole _) (ms21_0 a t) (hs21_0 a t)
      (ms21_1 a t) (hs21_1 a t) scM21_0 (Memref.isWhole_whole _) scM21_1 (Memref.isWhole_whole _) cc21_scratch2
      hc (tb21 a) hR (A21 V c) (iblk21 V a c 0 t) g
      (owns (c : Thread nD τ) (ms21_1 a t) fullShare ((dat21 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK21_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation21 (hR : InRange21 a.1) (c : Dev nD) :
    BodyObligation (dat21 (F := F) V a c) (defs₀ (F := F)) Variants.none () Set.univ := fun t => by
  rw [bigSep_W21, bigSep_W21]
  exact sound_body21 V a hR c t

end Body

/-! ## The value: what the launch leaves in its output array -/

section Value
variable (V : (c : Dev nD) → (b : Ref sig .tc) → Buf (Elt F) ((c : Thread nD τ).loc b)) (a : (pcfg21 (F := F)).Adm)

/-- Entry `(r, l)` of a block of rows. -/
def cell21 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk21 (tb : Vec F S16x2000 .i32) (A0 : Vec F S100000x128 .f32) (Wt : Vec F S128x128 .f32) : Vec F S2000x128 .f32 :=
  fun y => xBlk21 tb A0 Wt ((y 0).val / 1000) (cell21 ((y 0).val % 1000) (Nat.mod_lt _ (by decide)) (y 1))

/-- The weight window's block is the whole weight, at every point: its block index is (0, 0). -/
theorem wblk21_eq (c : Dev nD) (t : Fin (cfg21 a).N) : iblk21 V a c 0 t = (V c main_arg1 : Vec F S128x128 .f32) := by
  funext x
  unfold iblk21
  rw [View.read_apply]
  refine (cast_eq _ _).trans (congrArg (V c main_arg1) (funext fun b => Fin.ext ?_))
  refine (((cfg21 a).win 0).rect_emb_val_of_index_zero t b ?_ x)
  match b with
  | ⟨0, _⟩ => rfl
  | ⟨1, _⟩ => rfl

/-- Where entry `x` of the output window's block at point `t` sits in the output array. -/
abbrev emb21 (t : Fin (cfg21 a).N) (x : S1000x128.Idx) : S2000x128.Idx := (((cfg21 a).win 1).blk t).view.emb x

theorem emb21_val (t : Fin (cfg21 a).N) (x : S1000x128.Idx) :
    (emb21 a t x 0).val = t.val / 1000 * 1000 + (x 0).val ∧ (emb21 a t x 1).val = (x 1).val := by
  have hix : ((cfg21 a).win 1).index t = ![t.val / 1000, 0] := idx21_1 t
  have e0 := ((cfg21 a).win 1).rect_emb_val t x (0 : Fin 2)
  have e1 := ((cfg21 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after21_chunk (c : Dev nD) (t : Fin (cfg21 a).N) (x : S1000x128.Idx) :
    (dat21 V a c).after 1 t x = xChunk21 (tb21 a) (A21 V c) (V c main_arg1) (emb21 a t x) := by
  obtain ⟨e0, e1⟩ := emb21_val a t x
  have hx0 : (x 0).val < 1000 := (x 0).isLt
  rw [after21_1, wblk21_eq]
  unfold xChunk21
  have hq : (emb21 a t x 0).val / 1000 = t.val / 1000 := by rw [e0]; omega
  have hcell : cell21 ((emb21 a t x 0).val % 1000) (Nat.mod_lt _ (by decide)) (emb21 a t x 1) = x := by
    funext b
    apply Fin.ext
    match b with
    | ⟨0, _⟩ =>
      show (emb21 a t x 0).val % 1000 = (x 0).val
      rw [e0]; omega
    | ⟨1, _⟩ => exact e1
  rw [hq, hcell]

/-- Two entries of the output array with the same coordinates are the same. -/
theorem idx21_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb21_cell (t : Fin (cfg21 a).N) (i : S2000x128.Idx) (ht : t.val / 1000 = (i 0).val / 1000) :
    emb21 a t (cell21 ((i 0).val % 1000) (Nat.mod_lt _ (by decide)) (i 1)) = i := by
  obtain ⟨e0, e1⟩ := emb21_val a t (cell21 ((i 0).val % 1000) (Nat.mod_lt _ (by decide)) (i 1))
  refine idx21_ext _ _ ?_ e1
  rw [e0, ht]
  show (i 0).val / 1000 * 1000 + (i 0).val % 1000 = (i 0).val
  omega

/-- Every entry of the output array lies in the block written back after the last row of its block of rows. -/
theorem cover21 (i : S2000x128.Idx) :
    ∃ t : Fin (cfg21 a).N, ((cfg21 a).win 1).flush t = true ∧ i ∈ (((cfg21 a).win 1).blk t).view.set := by
  have hi0 : (i 0).val < 2000 := (i 0).isLt
  have hN : (i 0).val / 1000 * 1000 + 999 < (cfg21 a).N := by rw [N21]; omega
  refine ⟨⟨(i 0).val / 1000 * 1000 + 999, hN⟩, ?_, ?_⟩
  · rw [flush21_1]; exact decide_eq_true (by show ((i 0).val / 1000 * 1000 + 999) % 1000 = 999; omega)
  · refine Finset.mem_map.mpr ⟨cell21 ((i 0).val % 1000) (Nat.mod_lt _ (by decide)) (i 1), Finset.mem_univ _, ?_⟩
    exact emb21_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out21 (c : Dev nD) :
    (dat21 V a c).arrAt 1 (cfg21 a).N = (xChunk21 (tb21 a) (A21 V c) (V c main_arg1) : Vec F S2000x128 .f32) :=
  (dat21 V a c).arrAt_eq_of_cover 1 _
    (fun t _ => funext fun x => (after21_chunk V a c t x).trans (cast_eq _ _).symm)
    (cover21 a)

end Value

/-! ## The invariant's two ends -/

section Ends
variable (V : (c : Dev nD) → (b : Ref sig .tc) → Buf (Elt F) ((c : Thread nD τ).loc b)) (a : (pcfg21 (F := F)).Adm)

/-- The body's own transfer cells as the launch's protocol lists them: the 16 cells of its semaphore operand. -/
def osem21 : Fin 16 → SemLoc sig := fun k => SemLoc.dma (cc21_scratch2.ix (Shape.ofLane k))
/-- They are scoped, distinct, and none is a window's. -/
theorem ownSemFacts21 : Pipeline.OwnSemFacts spec21 osem21 := by decide
/-- The cells at zero, listed, are the cells as the body names them. -/
theorem cells21_eq (c : Dev nD) :
    (Pipeline.ownSems0 (Ix := Unit) (Name := ℕ) (U := UC) (Lvl := ℕ) (Val := Elt F) (τ := τ) osem21 c : sProp 𝕄) = cells24 c cc21_scratch2 := by
  rw [Pipeline.ownSems0_eq_of_list c osem21 [0, 1, 2, 3, 4, 5, 6, 7, 8, 9, 10, 11, 12, 13, 14, 15] (by decide) (by decide)]; rfl

/-- The launch's one table, held. -/
theorem prefHeld21_eq (c : Dev nD) (pf : pre21.Contents (Elt F)) :
    (Pipeline.prefHeld pre21 c (fun _ => fullShare) pf : sProp 𝕄) = (((c : Thread nD τ).loc main_v43) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X21 (c : Dev nD) : sProp 𝕄 :=
  iprop((∃ r, prngReg c r) ∗ Pipeline.ownSems0 (Ix := Unit) (Name := ℕ) (U := UC) (Lvl := ℕ) (Val := Elt F) (τ := τ) osem21 c
    ∗ (((c : Thread nD τ).loc main_arg0) ↦{fullShare} V c main_arg0))
abbrev Y21 (c : Dev nD) : sProp 𝕄 :=
  iprop((∃ r, prngReg c r) ∗ (((c : Thread nD τ).loc main_arg0) ↦{fullShare} V c main_arg0)
    ∗ Pipeline.prefHeld pre21 c (fun _ => fullShare) a.1)

/-- THE FIRST POINT: the invariant from what the launch's entry sorts out. Nothing is asked of the carried scratch. -/
theorem Phi21_in (c : Dev nD) :
    iprop(X21 V c ∗ Pipeline.prefHeld pre21 c (fun _ => fullShare) a.1
        ∗ Pipeline.scopedRest (Ix := Unit) (Name := ℕ) (U := UC) (Lvl := ℕ) (Val := Elt F) spec21 c)
      ⊢ (dat21 V a c).Φ 0 := by
  rw [Phi21_eq]
  unfold Φ21 X21
  rw [scopedRest21_split, prefHeld21_eq, cells21_eq]
  simp only [tbM21, hbM21, scM21_0, scM21_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK21_start _ _ _ rfl _
  isplitl [Hs1]; · iexact Hs1
  isplitl [Hcells]; · iexact Hcells
  isplitl [Hreg]; · iexact Hreg
  iexact Hrest

/-- THE LAST POINT: the invariant gives back what it took. -/
theorem Phi21_out (c : Dev nD) :
    (dat21 V a c).Φ (Fin.last _)
      ⊢ iprop(Y21 V a c ∗ Pipeline.ownSems0 (Ix := Unit) (Name := ℕ) (U := UC) (Lvl := ℕ) (Val := Elt F) (τ := τ) osem21 c
        ∗ Pipeline.scopedRest (Ix := Unit) (Name := ℕ) (U := UC) (Lvl := ℕ) (Val := Elt F) spec21 c) := by
  rw [Phi21_eq]
  unfold Φ21 Y21
  rw [scopedRest21_split, prefHeld21_eq, cells21_eq]
  simp only [tbM21, hbM21, scM21_0, scM21_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G22Dat.lean ====
/-
  One of the program's 25 gather launches (pipeline 22; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N22 (a : (pcfg22 (F := F)).Adm) : (cfg22 a).N = 2000 := N_22

/-- The body's branch is taken at the last row of a block of rows, -/
theorem cond22_iff : ∀ t : Fin grid22.N, k22_cond1 (grid22.coords t) = 1#1 ↔ t.val % 1000 = 999 := by decide +kernel
/-- the row a point works on is its number modulo 1000, -/
theorem rowAt22_coord : ∀ t : Fin grid22.N, (grid22.coords t 1).val = t.val % 1000 := by decide +kernel
/-- its block of rows is its number divided by 1000, -/
theorem blockAt22_coord : ∀ t : Fin grid22.N, (grid22.coords t 0).val = t.val / 1000 := by decide +kernel
/-- and the output's block index moves after exactly those points (and the grid ends at one). -/
theorem flushB22 : ∀ t : Fin grid22.N,
    (decide (t.val + 1 = grid22.N) || decide (∃ h : t.val + 1 < grid22.N, cc22_transform_2 (grid22.coords ⟨t.val + 1, h⟩) ≠ cc22_transform_2 (grid22.coords t)))
      = decide (t.val % 1000 = 999) := by decide +kernel

/-- The output's block index at a point: the point's block of rows. -/
theorem idx22_1 : ∀ t : Fin grid22.N, cc22_transform_2 (grid22.coords t) = ![t.val / 1000, 0] := by decide +kernel

/-- Every word of the launch's table names a row of the feature array. -/
def InRange22 (pf : pre22.Contents (Elt F)) : Prop := ∀ x : S16x2000.Idx, ((pf 0 : Vec F S16x2000 .i32) x).toNat < 100000

/-! ## The values -/

/-- Lane `l` of a one-row vector. -/
def lane22 (l : Fin 128) : S1x128.Idx := fun a => ⟨if a.val = 0 then 0 else l.val, by
  match a with
  | ⟨0, _⟩ => exact Nat.one_pos
  | ⟨1, _⟩ => exact l.isLt⟩

theorem lane22_one (l : Fin 128) : (lane22 l 1).val = l.val := rfl

/-- The grid point of row `r` of block `q` (total: the point number is taken modulo the grid's size). -/
def pt22 (q : ℕ) (r : ℕ) : Fin grid22.N := ⟨(q * 1000 + r) % grid22.N, Nat.mod_lt _ (by decide)⟩

/-- Inside the grid the point's number is `1000 q + r`. -/
theorem pt22_val (q r : ℕ) (hq : q < 2) (hr : r < 1000) : (pt22 q r).val = q * 1000 + r := by
  show (q * 1000 + r) % grid22.N = q * 1000 + r
  rw [N_22]; omega

/-- A point is the point of its block and row. -/
theorem pt22_self (t : Fin grid22.N) : pt22 (t.val / 1000) (t.val % 1000) = t := by
  apply Fin.ext
  show (t.val / 1000 * 1000 + t.val % 1000) % grid22.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means22 (tb : Vec F S16x2000 .i32) (A0 : Vec F S100000x128 .f32) (q : ℕ) : Vec F S1000x128 .f32 :=
  fun x => Gen.k24_pay1 (gath24 (grid22.coords (pt22 q (x 0).val)) tb A0) (lane22 (x 1))

/-- What the body stores in the output window at the last row of block `q`: the means, rounded, times the weight, rounded. -/
def xBlk22 (tb : Vec F S16x2000 .i32) (A0 : Vec F S100000x128 .f32) (Wt : Vec F S128x128 .f32) (q : ℕ) : Vec F S1000x128 .f32 :=
  Gen.k24_pay2 (means22 tb A0 q) Wt

/-- The carried scratch before point `n`: its rows below `n % 1000` are the means of block `n / 1000`. -/
def RowsOK22 (tb : Vec F S16x2000 .i32) (A0 : Vec F S100000x128 .f32) (n : ℕ) (g : Vec F S1000x128 .f32) : Prop :=
  ∀ x : S1000x128.Idx, (x 0).val < n % 1000 → g x = means22 tb A0 (n / 1000) x

/-- At the first row of a block nothing is asked. -/
theorem rowsOK22_start (tb : Vec F S16x2000 .i32) (A0 : Vec F S100000x128 .f32) (n : ℕ) (hn : n % 1000 = 0) (g : Vec F S1000x128 .f32) :
    RowsOK22 tb A0 n g := fun x hx => absurd hx (by omega)

/-- One point's row store keeps the invariant's rows and adds its own: after the store at point `t` the rows up to
    `t % 1000` are means. -/
theorem rowAt22_means (tb : Vec F S16x2000 .i32) (A0 : Vec F S100000x128 .f32) (t : Fin grid22.N) (g : Vec F S1000x128 .f32)
    (hg : RowsOK22 tb A0 t.val g) (x : S1000x128.Idx) (hx : (x 0).val ≤ t.val % 1000) :
    row24 (grid22.coords t) tb A0 g x = means22 tb A0 (t.val / 1000) x := by
  by_cases h : (x 0).val = t.val % 1000
  · rw [row24_of_eq (grid22.coords t) tb A0 g x (by rw [rowAt22_coord]; exact h) (lane22 (x 1)) rfl]
    unfold means22
    rw [h, pt22_self]
  · rw [row24_of_ne (grid22.coords t) tb A0 g x (by rw [rowAt22_coord]; exact h)]
    exact hg x (by omega)

/-- Within a block the invariant steps. -/
theorem rowsOK22_step (tb : Vec F S16x2000 .i32) (A0 : Vec F S100000x128 .f32) (t : Fin grid22.N) (g : Vec F S1000x128 .f32)
    (hg : RowsOK22 tb A0 t.val g) : RowsOK22 tb A0 (t.val + 1) (row24 (grid22.coords t) tb A0 g) := by
  by_cases hl : t.val % 1000 = 999
  · exact rowsOK22_start _ _ _ (by omega) _
  · intro x hx
    have h1 : (t.val + 1) / 1000 = t.val / 1000 := by omega
    rw [h1]
    exact rowAt22_means tb A0 t g hg x (by omega)

/-- At the last row of a block the scratch, after the row store, is the block's means whatever it held before. -/
theorem rowAt22_last (tb : Vec F S16x2000 .i32) (A0 : Vec F S100000x128 .f32) (t : Fin grid22.N) (hl : t.val % 1000 = 999)
    (g : Vec F S1000x128 .f32) (hg : RowsOK22 tb A0 t.val g) :
    row24 (grid22.coords t) tb A0 g = means22 tb A0 (t.val / 1000) :=
  funext fun x => rowAt22_means tb A0 t g hg x (by have : (x 0).val < 1000 := (x 0).isLt; omega)

/-! ## The invariant -/

/-- The launch's operands that no window stages, as the body is handed them: its table, the feature array left in
    HBM, and its two scratch buffers — whole buffers. -/
abbrev tbM22 : Memref sig .tc .smem S16x2000 .i32 := Memref.whole main_v45
abbrev hbM22 : Memref sig .tc .hbm S100000x128 .f32 := Memref.whole main_arg0
abbrev scM22_0 : Memref sig .tc .vmem S1000x128 .f32 := Memref.whole cc22_scratch0
abbrev scM22_1 : Memref sig .tc .vmem S16x128 .f32 := Memref.whole cc22_scratch1

section Region
-- the TensorCore's buffer contents when the launch is entered, and the launch's table
variable (V : (c : Dev nD) → (b : Ref sig .tc) → Buf (Elt F) ((c : Thread nD τ).loc b)) (a : (pcfg22 (F := F)).Adm)

/-- The table and the feature array, as vectors. -/
abbrev tb22 : Vec F S16x2000 .i32 := a.1 0
abbrev A22 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ22 (c : Dev nD) (n : ℕ) : sProp 𝕄 :=
  iprop(owns (c : Thread nD τ) tbM22 fullShare (tb22 a)
    ∗ owns (c : Thread nD τ) hbM22 fullShare (A22 V c)
    ∗ (∃ g : Vec F S1000x128 .f32, ⌜RowsOK22 (tb22 a) (A22 V c) n g⌝ ∗ owns (c : Thread nD τ) scM22_0 fullShare g)
    ∗ (∃ d, owns (c : Thread nD τ) scM22_1 fullShare d)
    ∗ cells24 c cc22_scratch2
    ∗ (∃ r, prngReg c r)
    ∗ Pipeline.scopedRestBut (Ix := Unit) (Name := ℕ) (U := UC) (Lvl := ℕ) (Val := Elt F) spec22 c [cc22_scratch0, cc22_scratch1])

/-! ## The windows' blocks and the proof data -/

/-- Window `w`'s block at point `t`, read off its array as the launch finds it. -/
def iblk22 (c : Dev nD) (w : Fin (cfg22 a).W) (t : Fin (cfg22 a).N) :
    (((cfg22 a).win w).xblock ((cfg22 a).grid.coords t)).Idx → Elt F ((cfg22 a).win w).elt :=
  (((cfg22 a).win w).blk t).view.read (Elt F) (V c (Pipeline.arrRef spec22 w))

/-- The proof data of the launch on core `c`: the arrays as the launch finds them; after the body at point `t` the
    weight window at its block and the output window at the product for `t`'s block of rows (read only at the block's
    last row, where the body stores it); the invariant above; nothing owed; full shares. -/
def dat22 (c : Dev nD) : Dat τ (Elt F) Unit ℕ UC ℕ (cfg22 a) c where
  A w := V c (Pipeline.arrRef spec22 w)
  after w t := match w with
    | ⟨0, _⟩ => iblk22 V a c 0 t
    | ⟨1, _⟩ => xBlk22 (tb22 a) (A22 V c) (iblk22 V a c 0 t) (t.val / 1000)
  Φ n := Φ22 V a c n.val
  q _ := fullShare
  owed _ := 0

/-- The proof data's arrays are the entry contents. -/
theorem A_eq22 (c : Dev nD) (w : Fin (cfg22 a).W) : (dat22 V a c).A w = V c (Pipeline.arrRef spec22 w) := by
  dsimp only [dat22]

/-- What the body leaves, window by window. -/
theorem after22_0 (c : Dev nD) (t : Fin (cfg22 a).N) : (dat22 V a c).after 0 t = iblk22 V a c 0 t := by dsimp only [dat22]; rfl
theorem after22_1 (c : Dev nD) (t : Fin (cfg22 a).N) :
    (dat22 V a c).after 1 t = xBlk22 (tb22 a) (A22 V c) (iblk22 V a c 0 t) (t.val / 1000) := by dsimp only [dat22]; rfl

/-- The invariant and the tallies, at a point. -/
theorem Phi22_eq (c : Dev nD) (n : Fin ((cfg22 a).N + 1)) : (dat22 V a c).Φ n = Φ22 V a c n.val := by dsimp only [dat22]
theorem owed22_eq (c : Dev nD) (n : Fin ((cfg22 a).N + 1)) : (dat22 V a c).owed n = 0 := by dsimp only [dat22]

/-- The weight window holds its block at every point, fetched there or not: its block index never moves. -/
theorem before22_0 (c : Dev nD) (t : Fin (cfg22 a).N) (d) : (dat22 V a c).before 0 t d = iblk22 V a c 0 t :=
  ((dat22 V a c).before_in_eq_fetched 0 rfl (fun _ => rfl) (fun _ _ _ => rfl)
      (fun t => by rw [after22_0]; unfold Dat.blockOf iblk22; rw [A_eq22]; try rfl) t d).trans
    (by unfold Dat.fetched Dat.blockOf iblk22; rw [A_eq22]; try rfl)

/-- The output window is written back after the last row of each block of rows, and only there; -/
theorem flush22_1 (t : Fin (cfg22 a).N) : ((cfg22 a).win 1).flush t = decide (t.val % 1000 = 999) := by
  unfold Window.flush
  exact flushB22 t
/-- and it is idle at every other row. -/
theorem idle22_1 (t : Fin (cfg22 a).N) : (cfg22 a).idle 1 ((cfg22 a).grid.coords t) = !decide (t.val % 1000 = 999) := by
  show (!(k22_cond1 (grid22.coords t) == 1#1)) = _
  congr 1
  by_cases h : t.val % 1000 = 999
  · rw [decide_eq_true h, (cond22_iff t).2 h]; rfl
  · rw [decide_eq_false h]
    exact beq_false_of_ne fun e => h ((cond22_iff t).1 e)

end Region

/-! ## The body obligation -/

section Body
variable (V : (c : Dev nD) → (b : Ref sig .tc) → Buf (Elt F) ((c : Thread nD τ).loc b)) (a : (pcfg22 (F := F)).Adm)

/-- Each window's current staging memref at point `t`, spelled as the pipeline passes it, and its wholeness. -/
abbrev ms22_0 (t : Fin (cfg22 a).N) : Memref sig .tc .vmem S128x128 .f32 := spec22_0.stage ((cfg22 a).slots t 0)
abbrev hs22_0 (t : Fin (cfg22 a).N) : (ms22_0 a t).IsWhole := hstage22_0 (((cfg22 a).slots t 0).cast nbuf22_0)
abbrev ms22_1 (t : Fin (cfg22 a).N) : Memref sig .tc .vmem S1000x128 .f32 := spec22_1.stage ((cfg22 a).slots t 1)
abbrev hs22_1 (t : Fin (cfg22 a).N) : (ms22_1 a t).IsWhole := hstage22_1 (((cfg22 a).slots t 1).cast nbuf22_1)

/-- The launch's body function, under the name the runs are stated at. -/
theorem bodyFn22_eq : cc22__gather_agg_matmul_kernel (F := F) = gatherFn := rfl

/-- The kernel body at point `t`, on what the pipeline calls it with. -/
abbrev bodyAt22 (t : Fin (cfg22 a).N) : Prog (TpuEff nD τ sig (Elt F) Λ₀ .tc) PUnit :=
  cc22__gather_agg_matmul_kernel (grid22.coords t) tbM22 (Memref.isWhole_whole _) hbM22 (Memref.isWhole_whole _)
    (ms22_0 a t) (hs22_0 a t) (ms22_1 a t) (hs22_1 a t) scM22_0 (Memref.isWhole_whole _) scM22_1 (Memref.isWhole_whole _) cc22_scratch2

/-- What the body is called with at point `t`, the windows one by one, -/
def bodyPre22 (c : Dev nD) (t : Fin (cfg22 a).N) : sProp 𝕄 :=
  iprop((dat22 V a c).Φ t.castSucc ∗ (dat22 V a c).owesAt () t.castSucc
    ∗ (∃ d, owns (c : Thread nD τ) (ms22_0 a t) fullShare ((dat22 V a c).before 0 t d))
    ∗ (∃ d, owns (c : Thread nD τ) (ms22_1 a t) fullShare ((dat22 V a c).before 1 t d)))

/-- and what it returns: the output window as it was found where the point is idle for it, at the block's product
    at the last row of a block. -/
def bodyPost22 (c : Dev nD) (t : Fin (cfg22 a).N) : sProp 𝕄 :=
  iprop((dat22 V a c).Φ t.succ ∗ (dat22 V a c).owesAt () t.succ
    ∗ owns (c : Thread nD τ) (ms22_0 a t) fullShare ((dat22 V a c).after 0 t)
    ∗ (match (cfg22 a).idle 1 ((cfg22 a).grid.coords t) with
        | true =>
          match ((cfg22 a).win 1).flush t with
          | false => iprop(∃ d, owns (c : Thread nD τ) (ms22_1 a t) fullShare ((dat22 V a c).before 1 t d))
          | true => owns (c : Thread nD τ) (ms22_1 a t) fullShare ((dat22 V a c).after 1 t)
        | false => owns (c : Thread nD τ) (ms22_1 a t) fullShare ((dat22 V a c).after 1 t)))

/-- The body at any point. The weight window holds its block; the invariant hands the body its table, the feature
    array, both scratch buffers and its transfer cells, and takes them back with the carried scratch one row further
    (`rowsOK22_step`); at the last row of a block the product the body stores is the block's (`rowAt22_last`); the core's
    `owes` goes in at whatever the points before recorded and comes back with this point's waits. -/
theorem sound_body22 (hR : InRange22 a.1) (c : Dev nD) (t : Fin (cfg22 a).N) :
    bodyPre22 V a c t ⊢ wp frame (wpE (defs₀ (F := F)) Variants.none c none) Set.univ (bodyAt22 a t) (fun _ => bodyPost22 V a c t) := by
  unfold bodyPre22 bodyPost22 bodyAt22
  rw [flush22_1, idle22_1]
  simp only [before22_0]
  rw [after22_0, Phi22_eq, Phi22_eq, Fin.val_succ, Fin.coe_castSucc]
  unfold Dat.owesAt Pipeline.owesWithin
  rw [owed22_eq, owed22_eq]
  unfold Φ22
  rw [bodyFn22_eq]
  by_cases hl : t.val % 1000 = 999
  · -- the last row of a block
    rw [decide_eq_true hl, Bool.not_true]
    dsimp only
    rw [after22_1]
    unfold xBlk22
    iintro ⟨⟨Htb, Hhb, ⟨%g, %hg, Hs0⟩, Hs1, Hcells, Hreg, Hrest⟩, ⟨%W, -, HW⟩, ⟨%d0, H0⟩, ⟨%d1, H1⟩⟩
    rw [← rowAt22_last (tb22 a) (A22 V c) t hl g hg]
    iapply (run24_last c (grid22.coords t) tbM22 (Memref.isWhole_whole _) hbM22 (Memref.isWhole_whole _) (ms22_0 a t) (hs22_0 a t)
      (ms22_1 a t) (hs22_1 a t) scM22_0 (Memref.isWhole_whole _) scM22_1 (Memref.isWhole_whole _) cc22_scratch2
      ((cond22_iff t).2 hl) (tb22 a) hR (A22 V c) (iblk22 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK22_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k22_cond1 (grid22.coords t) ≠ 1#1 := fun e => hl ((cond22_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid22.coords t) tbM22 (Memref.isWhole_whole _) hbM22 (Memref.isWhole_whole _) (ms22_0 a t) (hs22_0 a t)
      (ms22_1 a t) (hs22_1 a t) scM22_0 (Memref.isWhole_whole _) scM22_1 (Memref.isWhole_whole _) cc22_scratch2
      hc (tb22 a) hR (A22 V c) (iblk22 V a c 0 t) g
      (owns (c : Thread nD τ) (ms22_1 a t) fullShare ((dat22 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK22_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation22 (hR : InRange22 a.1) (c : Dev nD) :
    BodyObligation (dat22 (F := F) V a c) (defs₀ (F := F)) Variants.none () Set.univ := fun t => by
  rw [bigSep_W22, bigSep_W22]
  exact sound_body22 V a hR c t

end Body

/-! ## The value: what the launch leaves in its output array -/

section Value
variable (V : (c : Dev nD) → (b : Ref sig .tc) → Buf (Elt F) ((c : Thread nD τ).loc b)) (a : (pcfg22 (F := F)).Adm)

/-- Entry `(r, l)` of a block of rows. -/
def cell22 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk22 (tb : Vec F S16x2000 .i32) (A0 : Vec F S100000x128 .f32) (Wt : Vec F S128x128 .f32) : Vec F S2000x128 .f32 :=
  fun y => xBlk22 tb A0 Wt ((y 0).val / 1000) (cell22 ((y 0).val % 1000) (Nat.mod_lt _ (by decide)) (y 1))

/-- The weight window's block is the whole weight, at every point: its block index is (0, 0). -/
theorem wblk22_eq (c : Dev nD) (t : Fin (cfg22 a).N) : iblk22 V a c 0 t = (V c main_arg1 : Vec F S128x128 .f32) := by
  funext x
  unfold iblk22
  rw [View.read_apply]
  refine (cast_eq _ _).trans (congrArg (V c main_arg1) (funext fun b => Fin.ext ?_))
  refine (((cfg22 a).win 0).rect_emb_val_of_index_zero t b ?_ x)
  match b with
  | ⟨0, _⟩ => rfl
  | ⟨1, _⟩ => rfl

/-- Where entry `x` of the output window's block at point `t` sits in the output array. -/
abbrev emb22 (t : Fin (cfg22 a).N) (x : S1000x128.Idx) : S2000x128.Idx := (((cfg22 a).win 1).blk t).view.emb x

theorem emb22_val (t : Fin (cfg22 a).N) (x : S1000x128.Idx) :
    (emb22 a t x 0).val = t.val / 1000 * 1000 + (x 0).val ∧ (emb22 a t x 1).val = (x 1).val := by
  have hix : ((cfg22 a).win 1).index t = ![t.val / 1000, 0] := idx22_1 t
  have e0 := ((cfg22 a).win 1).rect_emb_val t x (0 : Fin 2)
  have e1 := ((cfg22 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after22_chunk (c : Dev nD) (t : Fin (cfg22 a).N) (x : S1000x128.Idx) :
    (dat22 V a c).after 1 t x = xChunk22 (tb22 a) (A22 V c) (V c main_arg1) (emb22 a t x) := by
  obtain ⟨e0, e1⟩ := emb22_val a t x
  have hx0 : (x 0).val < 1000 := (x 0).isLt
  rw [after22_1, wblk22_eq]
  unfold xChunk22
  have hq : (emb22 a t x 0).val / 1000 = t.val / 1000 := by rw [e0]; omega
  have hcell : cell22 ((emb22 a t x 0).val % 1000) (Nat.mod_lt _ (by decide)) (emb22 a t x 1) = x := by
    funext b
    apply Fin.ext
    match b with
    | ⟨0, _⟩ =>
      show (emb22 a t x 0).val % 1000 = (x 0).val
      rw [e0]; omega
    | ⟨1, _⟩ => exact e1
  rw [hq, hcell]

/-- Two entries of the output array with the same coordinates are the same. -/
theorem idx22_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb22_cell (t : Fin (cfg22 a).N) (i : S2000x128.Idx) (ht : t.val / 1000 = (i 0).val / 1000) :
    emb22 a t (cell22 ((i 0).val % 1000) (Nat.mod_lt _ (by decide)) (i 1)) = i := by
  obtain ⟨e0, e1⟩ := emb22_val a t (cell22 ((i 0).val % 1000) (Nat.mod_lt _ (by decide)) (i 1))
  refine idx22_ext _ _ ?_ e1
  rw [e0, ht]
  show (i 0).val / 1000 * 1000 + (i 0).val % 1000 = (i 0).val
  omega

/-- Every entry of the output array lies in the block written back after the last row of its block of rows. -/
theorem cover22 (i : S2000x128.Idx) :
    ∃ t : Fin (cfg22 a).N, ((cfg22 a).win 1).flush t = true ∧ i ∈ (((cfg22 a).win 1).blk t).view.set := by
  have hi0 : (i 0).val < 2000 := (i 0).isLt
  have hN : (i 0).val / 1000 * 1000 + 999 < (cfg22 a).N := by rw [N22]; omega
  refine ⟨⟨(i 0).val / 1000 * 1000 + 999, hN⟩, ?_, ?_⟩
  · rw [flush22_1]; exact decide_eq_true (by show ((i 0).val / 1000 * 1000 + 999) % 1000 = 999; omega)
  · refine Finset.mem_map.mpr ⟨cell22 ((i 0).val % 1000) (Nat.mod_lt _ (by decide)) (i 1), Finset.mem_univ _, ?_⟩
    exact emb22_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out22 (c : Dev nD) :
    (dat22 V a c).arrAt 1 (cfg22 a).N = (xChunk22 (tb22 a) (A22 V c) (V c main_arg1) : Vec F S2000x128 .f32) :=
  (dat22 V a c).arrAt_eq_of_cover 1 _
    (fun t _ => funext fun x => (after22_chunk V a c t x).trans (cast_eq _ _).symm)
    (cover22 a)

end Value

/-! ## The invariant's two ends -/

section Ends
variable (V : (c : Dev nD) → (b : Ref sig .tc) → Buf (Elt F) ((c : Thread nD τ).loc b)) (a : (pcfg22 (F := F)).Adm)

/-- The body's own transfer cells as the launch's protocol lists them: the 16 cells of its semaphore operand. -/
def osem22 : Fin 16 → SemLoc sig := fun k => SemLoc.dma (cc22_scratch2.ix (Shape.ofLane k))
/-- They are scoped, distinct, and none is a window's. -/
theorem ownSemFacts22 : Pipeline.OwnSemFacts spec22 osem22 := by decide
/-- The cells at zero, listed, are the cells as the body names them. -/
theorem cells22_eq (c : Dev nD) :
    (Pipeline.ownSems0 (Ix := Unit) (Name := ℕ) (U := UC) (Lvl := ℕ) (Val := Elt F) (τ := τ) osem22 c : sProp 𝕄) = cells24 c cc22_scratch2 := by
  rw [Pipeline.ownSems0_eq_of_list c osem22 [0, 1, 2, 3, 4, 5, 6, 7, 8, 9, 10, 11, 12, 13, 14, 15] (by decide) (by decide)]; rfl

/-- The launch's one table, held. -/
theorem prefHeld22_eq (c : Dev nD) (pf : pre22.Contents (Elt F)) :
    (Pipeline.prefHeld pre22 c (fun _ => fullShare) pf : sProp 𝕄) = (((c : Thread nD τ).loc main_v45) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X22 (c : Dev nD) : sProp 𝕄 :=
  iprop((∃ r, prngReg c r) ∗ Pipeline.ownSems0 (Ix := Unit) (Name := ℕ) (U := UC) (Lvl := ℕ) (Val := Elt F) (τ := τ) osem22 c
    ∗ (((c : Thread nD τ).loc main_arg0) ↦{fullShare} V c main_arg0))
abbrev Y22 (c : Dev nD) : sProp 𝕄 :=
  iprop((∃ r, prngReg c r) ∗ (((c : Thread nD τ).loc main_arg0) ↦{fullShare} V c main_arg0)
    ∗ Pipeline.prefHeld pre22 c (fun _ => fullShare) a.1)

/-- THE FIRST POINT: the invariant from what the launch's entry sorts out. Nothing is asked of the carried scratch. -/
theorem Phi22_in (c : Dev nD) :
    iprop(X22 V c ∗ Pipeline.prefHeld pre22 c (fun _ => fullShare) a.1
        ∗ Pipeline.scopedRest (Ix := Unit) (Name := ℕ) (U := UC) (Lvl := ℕ) (Val := Elt F) spec22 c)
      ⊢ (dat22 V a c).Φ 0 := by
  rw [Phi22_eq]
  unfold Φ22 X22
  rw [scopedRest22_split, prefHeld22_eq, cells22_eq]
  simp only [tbM22, hbM22, scM22_0, scM22_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK22_start _ _ _ rfl _
  isplitl [Hs1]; · iexact Hs1
  isplitl [Hcells]; · iexact Hcells
  isplitl [Hreg]; · iexact Hreg
  iexact Hrest

/-- THE LAST POINT: the invariant gives back what it took. -/
theorem Phi22_out (c : Dev nD) :
    (dat22 V a c).Φ (Fin.last _)
      ⊢ iprop(Y22 V a c ∗ Pipeline.ownSems0 (Ix := Unit) (Name := ℕ) (U := UC) (Lvl := ℕ) (Val := Elt F) (τ := τ) osem22 c
        ∗ Pipeline.scopedRest (Ix := Unit) (Name := ℕ) (U := UC) (Lvl := ℕ) (Val := Elt F) spec22 c) := by
  rw [Phi22_eq]
  unfold Φ22 Y22
  rw [scopedRest22_split, prefHeld22_eq, cells22_eq]
  simp only [tbM22, hbM22, scM22_0, scM22_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G23Dat.lean ====
/-
  One of the program's 25 gather launches (pipeline 23; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N23 (a : (pcfg23 (F := F)).Adm) : (cfg23 a).N = 2000 := N_23

/-- The body's branch is taken at the last row of a block of rows, -/
theorem cond23_iff : ∀ t : Fin grid23.N, k23_cond1 (grid23.coords t) = 1#1 ↔ t.val % 1000 = 999 := by decide +kernel
/-- the row a point works on is its number modulo 1000, -/
theorem rowAt23_coord : ∀ t : Fin grid23.N, (grid23.coords t 1).val = t.val % 1000 := by decide +kernel
/-- its block of rows is its number divided by 1000, -/
theorem blockAt23_coord : ∀ t : Fin grid23.N, (grid23.coords t 0).val = t.val / 1000 := by decide +kernel
/-- and the output's block index moves after exactly those points (and the grid ends at one). -/
theorem flushB23 : ∀ t : Fin grid23.N,
    (decide (t.val + 1 = grid23.N) || decide (∃ h : t.val + 1 < grid23.N, cc23_transform_2 (grid23.coords ⟨t.val + 1, h⟩) ≠ cc23_transform_2 (grid23.coords t)))
      = decide (t.val % 1000 = 999) := by decide +kernel

/-- The output's block index at a point: the point's block of rows. -/
theorem idx23_1 : ∀ t : Fin grid23.N, cc23_transform_2 (grid23.coords t) = ![t.val / 1000, 0] := by decide +kernel

/-- Every word of the launch's table names a row of the feature array. -/
def InRange23 (pf : pre23.Contents (Elt F)) : Prop := ∀ x : S16x2000.Idx, ((pf 0 : Vec F S16x2000 .i32) x).toNat < 100000

/-! ## The values -/

/-- Lane `l` of a one-row vector. -/
def lane23 (l : Fin 128) : S1x128.Idx := fun a => ⟨if a.val = 0 then 0 else l.val, by
  match a with
  | ⟨0, _⟩ => exact Nat.one_pos
  | ⟨1, _⟩ => exact l.isLt⟩

theorem lane23_one (l : Fin 128) : (lane23 l 1).val = l.val := rfl

/-- The grid point of row `r` of block `q` (total: the point number is taken modulo the grid's size). -/
def pt23 (q : ℕ) (r : ℕ) : Fin grid23.N := ⟨(q * 1000 + r) % grid23.N, Nat.mod_lt _ (by decide)⟩

/-- Inside the grid the point's number is `1000 q + r`. -/
theorem pt23_val (q r : ℕ) (hq : q < 2) (hr : r < 1000) : (pt23 q r).val = q * 1000 + r := by
  show (q * 1000 + r) % grid23.N = q * 1000 + r
  rw [N_23]; omega

/-- A point is the point of its block and row. -/
theorem pt23_self (t : Fin grid23.N) : pt23 (t.val / 1000) (t.val % 1000) = t := by
  apply Fin.ext
  show (t.val / 1000 * 1000 + t.val % 1000) % grid23.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means23 (tb : Vec F S16x2000 .i32) (A0 : Vec F S100000x128 .f32) (q : ℕ) : Vec F S1000x128 .f32 :=
  fun x => Gen.k24_pay1 (gath24 (grid23.coords (pt23 q (x 0).val)) tb A0) (lane23 (x 1))

/-- What the body stores in the output window at the last row of block `q`: the means, rounded, times the weight, rounded. -/
def xBlk23 (tb : Vec F S16x2000 .i32) (A0 : Vec F S100000x128 .f32) (Wt : Vec F S128x128 .f32) (q : ℕ) : Vec F S1000x128 .f32 :=
  Gen.k24_pay2 (means23 tb A0 q) Wt

/-- The carried scratch before point `n`: its rows below `n % 1000` are the means of block `n / 1000`. -/
def RowsOK23 (tb : Vec F S16x2000 .i32) (A0 : Vec F S100000x128 .f32) (n : ℕ) (g : Vec F S1000x128 .f32) : Prop :=
  ∀ x : S1000x128.Idx, (x 0).val < n % 1000 → g x = means23 tb A0 (n / 1000) x

/-- At the first row of a block nothing is asked. -/
theorem rowsOK23_start (tb : Vec F S16x2000 .i32) (A0 : Vec F S100000x128 .f32) (n : ℕ) (hn : n % 1000 = 0) (g : Vec F S1000x128 .f32) :
    RowsOK23 tb A0 n g := fun x hx => absurd hx (by omega)

/-- One point's row store keeps the invariant's rows and adds its own: after the store at point `t` the rows up to
    `t % 1000` are means. -/
theorem rowAt23_means (tb : Vec F S16x2000 .i32) (A0 : Vec F S100000x128 .f32) (t : Fin grid23.N) (g : Vec F S1000x128 .f32)
    (hg : RowsOK23 tb A0 t.val g) (x : S1000x128.Idx) (hx : (x 0).val ≤ t.val % 1000) :
    row24 (grid23.coords t) tb A0 g x = means23 tb A0 (t.val / 1000) x := by
  by_cases h : (x 0).val = t.val % 1000
  · rw [row24_of_eq (grid23.coords t) tb A0 g x (by rw [rowAt23_coord]; exact h) (lane23 (x 1)) rfl]
    unfold means23
    rw [h, pt23_self]
  · rw [row24_of_ne (grid23.coords t) tb A0 g x (by rw [rowAt23_coord]; exact h)]
    exact hg x (by omega)

/-- Within a block the invariant steps. -/
theorem rowsOK23_step (tb : Vec F S16x2000 .i32) (A0 : Vec F S100000x128 .f32) (t : Fin grid23.N) (g : Vec F S1000x128 .f32)
    (hg : RowsOK23 tb A0 t.val g) : RowsOK23 tb A0 (t.val + 1) (row24 (grid23.coords t) tb A0 g) := by
  by_cases hl : t.val % 1000 = 999
  · exact rowsOK23_start _ _ _ (by omega) _
  · intro x hx
    have h1 : (t.val + 1) / 1000 = t.val / 1000 := by omega
    rw [h1]
    exact rowAt23_means tb A0 t g hg x (by omega)

/-- At the last row of a block the scratch, after the row store, is the block's means whatever it held before. -/
theorem rowAt23_last (tb : Vec F S16x2000 .i32) (A0 : Vec F S100000x128 .f32) (t : Fin grid23.N) (hl : t.val % 1000 = 999)
    (g : Vec F S1000x128 .f32) (hg : RowsOK23 tb A0 t.val g) :
    row24 (grid23.coords t) tb A0 g = means23 tb A0 (t.val / 1000) :=
  funext fun x => rowAt23_means tb A0 t g hg x (by have : (x 0).val < 1000 := (x 0).isLt; omega)

/-! ## The invariant -/

/-- The launch's operands that no window stages, as the body is handed them: its table, the feature array left in
    HBM, and its two scratch buffers — whole buffers. -/
abbrev tbM23 : Memref sig .tc .smem S16x2000 .i32 := Memref.whole main_v47
abbrev hbM23 : Memref sig .tc .hbm S100000x128 .f32 := Memref.whole main_arg0
abbrev scM23_0 : Memref sig .tc .vmem S1000x128 .f32 := Memref.whole cc23_scratch0
abbrev scM23_1 : Memref sig .tc .vmem S16x128 .f32 := Memref.whole cc23_scratch1

section Region
-- the TensorCore's buffer contents when the launch is entered, and the launch's table
variable (V : (c : Dev nD) → (b : Ref sig .tc) → Buf (Elt F) ((c : Thread nD τ).loc b)) (a : (pcfg23 (F := F)).Adm)

/-- The table and the feature array, as vectors. -/
abbrev tb23 : Vec F S16x2000 .i32 := a.1 0
abbrev A23 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ23 (c : Dev nD) (n : ℕ) : sProp 𝕄 :=
  iprop(owns (c : Thread nD τ) tbM23 fullShare (tb23 a)
    ∗ owns (c : Thread nD τ) hbM23 fullShare (A23 V c)
    ∗ (∃ g : Vec F S1000x128 .f32, ⌜RowsOK23 (tb23 a) (A23 V c) n g⌝ ∗ owns (c : Thread nD τ) scM23_0 fullShare g)
    ∗ (∃ d, owns (c : Thread nD τ) scM23_1 fullShare d)
    ∗ cells24 c cc23_scratch2
    ∗ (∃ r, prngReg c r)
    ∗ Pipeline.scopedRestBut (Ix := Unit) (Name := ℕ) (U := UC) (Lvl := ℕ) (Val := Elt F) spec23 c [cc23_scratch0, cc23_scratch1])

/-! ## The windows' blocks and the proof data -/

/-- Window `w`'s block at point `t`, read off its array as the launch finds it. -/
def iblk23 (c : Dev nD) (w : Fin (cfg23 a).W) (t : Fin (cfg23 a).N) :
    (((cfg23 a).win w).xblock ((cfg23 a).grid.coords t)).Idx → Elt F ((cfg23 a).win w).elt :=
  (((cfg23 a).win w).blk t).view.read (Elt F) (V c (Pipeline.arrRef spec23 w))

/-- The proof data of the launch on core `c`: the arrays as the launch finds them; after the body at point `t` the
    weight window at its block and the output window at the product for `t`'s block of rows (read only at the block's
    last row, where the body stores it); the invariant above; nothing owed; full shares. -/
def dat23 (c : Dev nD) : Dat τ (Elt F) Unit ℕ UC ℕ (cfg23 a) c where
  A w := V c (Pipeline.arrRef spec23 w)
  after w t := match w with
    | ⟨0, _⟩ => iblk23 V a c 0 t
    | ⟨1, _⟩ => xBlk23 (tb23 a) (A23 V c) (iblk23 V a c 0 t) (t.val / 1000)
  Φ n := Φ23 V a c n.val
  q _ := fullShare
  owed _ := 0

/-- The proof data's arrays are the entry contents. -/
theorem A_eq23 (c : Dev nD) (w : Fin (cfg23 a).W) : (dat23 V a c).A w = V c (Pipeline.arrRef spec23 w) := by
  dsimp only [dat23]

/-- What the body leaves, window by window. -/
theorem after23_0 (c : Dev nD) (t : Fin (cfg23 a).N) : (dat23 V a c).after 0 t = iblk23 V a c 0 t := by dsimp only [dat23]; rfl
theorem after23_1 (c : Dev nD) (t : Fin (cfg23 a).N) :
    (dat23 V a c).after 1 t = xBlk23 (tb23 a) (A23 V c) (iblk23 V a c 0 t) (t.val / 1000) := by dsimp only [dat23]; rfl

/-- The invariant and the tallies, at a point. -/
theorem Phi23_eq (c : Dev nD) (n : Fin ((cfg23 a).N + 1)) : (dat23 V a c).Φ n = Φ23 V a c n.val := by dsimp only [dat23]
theorem owed23_eq (c : Dev nD) (n : Fin ((cfg23 a).N + 1)) : (dat23 V a c).owed n = 0 := by dsimp only [dat23]

/-- The weight window holds its block at every point, fetched there or not: its block index never moves. -/
theorem before23_0 (c : Dev nD) (t : Fin (cfg23 a).N) (d) : (dat23 V a c).before 0 t d = iblk23 V a c 0 t :=
  ((dat23 V a c).before_in_eq_fetched 0 rfl (fun _ => rfl) (fun _ _ _ => rfl)
      (fun t => by rw [after23_0]; unfold Dat.blockOf iblk23; rw [A_eq23]; try rfl) t d).trans
    (by unfold Dat.fetched Dat.blockOf iblk23; rw [A_eq23]; try rfl)

/-- The output window is written back after the last row of each block of rows, and only there; -/
theorem flush23_1 (t : Fin (cfg23 a).N) : ((cfg23 a).win 1).flush t = decide (t.val % 1000 = 999) := by
  unfold Window.flush
  exact flushB23 t
/-- and it is idle at every other row. -/
theorem idle23_1 (t : Fin (cfg23 a).N) : (cfg23 a).idle 1 ((cfg23 a).grid.coords t) = !decide (t.val % 1000 = 999) := by
  show (!(k23_cond1 (grid23.coords t) == 1#1)) = _
  congr 1
  by_cases h : t.val % 1000 = 999
  · rw [decide_eq_true h, (cond23_iff t).2 h]; rfl
  · rw [decide_eq_false h]
    exact beq_false_of_ne fun e => h ((cond23_iff t).1 e)

end Region

/-! ## The body obligation -/

section Body
variable (V : (c : Dev nD) → (b : Ref sig .tc) → Buf (Elt F) ((c : Thread nD τ).loc b)) (a : (pcfg23 (F := F)).Adm)

/-- Each window's current staging memref at point `t`, spelled as the pipeline passes it, and its wholeness. -/
abbrev ms23_0 (t : Fin (cfg23 a).N) : Memref sig .tc .vmem S128x128 .f32 := spec23_0.stage ((cfg23 a).slots t 0)
abbrev hs23_0 (t : Fin (cfg23 a).N) : (ms23_0 a t).IsWhole := hstage23_0 (((cfg23 a).slots t 0).cast nbuf23_0)
abbrev ms23_1 (t : Fin (cfg23 a).N) : Memref sig .tc .vmem S1000x128 .f32 := spec23_1.stage ((cfg23 a).slots t 1)
abbrev hs23_1 (t : Fin (cfg23 a).N) : (ms23_1 a t).IsWhole := hstage23_1 (((cfg23 a).slots t 1).cast nbuf23_1)

/-- The launch's body function, under the name the runs are stated at. -/
theorem bodyFn23_eq : cc23__gather_agg_matmul_kernel (F := F) = gatherFn := rfl

/-- The kernel body at point `t`, on what the pipeline calls it with. -/
abbrev bodyAt23 (t : Fin (cfg23 a).N) : Prog (TpuEff nD τ sig (Elt F) Λ₀ .tc) PUnit :=
  cc23__gather_agg_matmul_kernel (grid23.coords t) tbM23 (Memref.isWhole_whole _) hbM23 (Memref.isWhole_whole _)
    (ms23_0 a t) (hs23_0 a t) (ms23_1 a t) (hs23_1 a t) scM23_0 (Memref.isWhole_whole _) scM23_1 (Memref.isWhole_whole _) cc23_scratch2

/-- What the body is called with at point `t`, the windows one by one, -/
def bodyPre23 (c : Dev nD) (t : Fin (cfg23 a).N) : sProp 𝕄 :=
  iprop((dat23 V a c).Φ t.castSucc ∗ (dat23 V a c).owesAt () t.castSucc
    ∗ (∃ d, owns (c : Thread nD τ) (ms23_0 a t) fullShare ((dat23 V a c).before 0 t d))
    ∗ (∃ d, owns (c : Thread nD τ) (ms23_1 a t) fullShare ((dat23 V a c).before 1 t d)))

/-- and what it returns: the output window as it was found where the point is idle for it, at the block's product
    at the last row of a block. -/
def bodyPost23 (c : Dev nD) (t : Fin (cfg23 a).N) : sProp 𝕄 :=
  iprop((dat23 V a c).Φ t.succ ∗ (dat23 V a c).owesAt () t.succ
    ∗ owns (c : Thread nD τ) (ms23_0 a t) fullShare ((dat23 V a c).after 0 t)
    ∗ (match (cfg23 a).idle 1 ((cfg23 a).grid.coords t) with
        | true =>
          match ((cfg23 a).win 1).flush t with
          | false => iprop(∃ d, owns (c : Thread nD τ) (ms23_1 a t) fullShare ((dat23 V a c).before 1 t d))
          | true => owns (c : Thread nD τ) (ms23_1 a t) fullShare ((dat23 V a c).after 1 t)
        | false => owns (c : Thread nD τ) (ms23_1 a t) fullShare ((dat23 V a c).after 1 t)))

/-- The body at any point. The weight window holds its block; the invariant hands the body its table, the feature
    array, both scratch buffers and its transfer cells, and takes them back with the carried scratch one row further
    (`rowsOK23_step`); at the last row of a block the product the body stores is the block's (`rowAt23_last`); the core's
    `owes` goes in at whatever the points before recorded and comes back with this point's waits. -/
theorem sound_body23 (hR : InRange23 a.1) (c : Dev nD) (t : Fin (cfg23 a).N) :
    bodyPre23 V a c t ⊢ wp frame (wpE (defs₀ (F := F)) Variants.none c none) Set.univ (bodyAt23 a t) (fun _ => bodyPost23 V a c t) := by
  unfold bodyPre23 bodyPost23 bodyAt23
  rw [flush23_1, idle23_1]
  simp only [before23_0]
  rw [after23_0, Phi23_eq, Phi23_eq, Fin.val_succ, Fin.coe_castSucc]
  unfold Dat.owesAt Pipeline.owesWithin
  rw [owed23_eq, owed23_eq]
  unfold Φ23
  rw [bodyFn23_eq]
  by_cases hl : t.val % 1000 = 999
  · -- the last row of a block
    rw [decide_eq_true hl, Bool.not_true]
    dsimp only
    rw [after23_1]
    unfold xBlk23
    iintro ⟨⟨Htb, Hhb, ⟨%g, %hg, Hs0⟩, Hs1, Hcells, Hreg, Hrest⟩, ⟨%W, -, HW⟩, ⟨%d0, H0⟩, ⟨%d1, H1⟩⟩
    rw [← rowAt23_last (tb23 a) (A23 V c) t hl g hg]
    iapply (run24_last c (grid23.coords t) tbM23 (Memref.isWhole_whole _) hbM23 (Memref.isWhole_whole _) (ms23_0 a t) (hs23_0 a t)
      (ms23_1 a t) (hs23_1 a t) scM23_0 (Memref.isWhole_whole _) scM23_1 (Memref.isWhole_whole _) cc23_scratch2
      ((cond23_iff t).2 hl) (tb23 a) hR (A23 V c) (iblk23 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK23_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k23_cond1 (grid23.coords t) ≠ 1#1 := fun e => hl ((cond23_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid23.coords t) tbM23 (Memref.isWhole_whole _) hbM23 (Memref.isWhole_whole _) (ms23_0 a t) (hs23_0 a t)
      (ms23_1 a t) (hs23_1 a t) scM23_0 (Memref.isWhole_whole _) scM23_1 (Memref.isWhole_whole _) cc23_scratch2
      hc (tb23 a) hR (A23 V c) (iblk23 V a c 0 t) g
      (owns (c : Thread nD τ) (ms23_1 a t) fullShare ((dat23 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK23_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation23 (hR : InRange23 a.1) (c : Dev nD) :
    BodyObligation (dat23 (F := F) V a c) (defs₀ (F := F)) Variants.none () Set.univ := fun t => by
  rw [bigSep_W23, bigSep_W23]
  exact sound_body23 V a hR c t

end Body

/-! ## The value: what the launch leaves in its output array -/

section Value
variable (V : (c : Dev nD) → (b : Ref sig .tc) → Buf (Elt F) ((c : Thread nD τ).loc b)) (a : (pcfg23 (F := F)).Adm)

/-- Entry `(r, l)` of a block of rows. -/
def cell23 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk23 (tb : Vec F S16x2000 .i32) (A0 : Vec F S100000x128 .f32) (Wt : Vec F S128x128 .f32) : Vec F S2000x128 .f32 :=
  fun y => xBlk23 tb A0 Wt ((y 0).val / 1000) (cell23 ((y 0).val % 1000) (Nat.mod_lt _ (by decide)) (y 1))

/-- The weight window's block is the whole weight, at every point: its block index is (0, 0). -/
theorem wblk23_eq (c : Dev nD) (t : Fin (cfg23 a).N) : iblk23 V a c 0 t = (V c main_arg1 : Vec F S128x128 .f32) := by
  funext x
  unfold iblk23
  rw [View.read_apply]
  refine (cast_eq _ _).trans (congrArg (V c main_arg1) (funext fun b => Fin.ext ?_))
  refine (((cfg23 a).win 0).rect_emb_val_of_index_zero t b ?_ x)
  match b with
  | ⟨0, _⟩ => rfl
  | ⟨1, _⟩ => rfl

/-- Where entry `x` of the output window's block at point `t` sits in the output array. -/
abbrev emb23 (t : Fin (cfg23 a).N) (x : S1000x128.Idx) : S2000x128.Idx := (((cfg23 a).win 1).blk t).view.emb x

theorem emb23_val (t : Fin (cfg23 a).N) (x : S1000x128.Idx) :
    (emb23 a t x 0).val = t.val / 1000 * 1000 + (x 0).val ∧ (emb23 a t x 1).val = (x 1).val := by
  have hix : ((cfg23 a).win 1).index t = ![t.val / 1000, 0] := idx23_1 t
  have e0 := ((cfg23 a).win 1).rect_emb_val t x (0 : Fin 2)
  have e1 := ((cfg23 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after23_chunk (c : Dev nD) (t : Fin (cfg23 a).N) (x : S1000x128.Idx) :
    (dat23 V a c).after 1 t x = xChunk23 (tb23 a) (A23 V c) (V c main_arg1) (emb23 a t x) := by
  obtain ⟨e0, e1⟩ := emb23_val a t x
  have hx0 : (x 0).val < 1000 := (x 0).isLt
  rw [after23_1, wblk23_eq]
  unfold xChunk23
  have hq : (emb23 a t x 0).val / 1000 = t.val / 1000 := by rw [e0]; omega
  have hcell : cell23 ((emb23 a t x 0).val % 1000) (Nat.mod_lt _ (by decide)) (emb23 a t x 1) = x := by
    funext b
    apply Fin.ext
    match b with
    | ⟨0, _⟩ =>
      show (emb23 a t x 0).val % 1000 = (x 0).val
      rw [e0]; omega
    | ⟨1, _⟩ => exact e1
  rw [hq, hcell]

/-- Two entries of the output array with the same coordinates are the same. -/
theorem idx23_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb23_cell (t : Fin (cfg23 a).N) (i : S2000x128.Idx) (ht : t.val / 1000 = (i 0).val / 1000) :
    emb23 a t (cell23 ((i 0).val % 1000) (Nat.mod_lt _ (by decide)) (i 1)) = i := by
  obtain ⟨e0, e1⟩ := emb23_val a t (cell23 ((i 0).val % 1000) (Nat.mod_lt _ (by decide)) (i 1))
  refine idx23_ext _ _ ?_ e1
  rw [e0, ht]
  show (i 0).val / 1000 * 1000 + (i 0).val % 1000 = (i 0).val
  omega

/-- Every entry of the output array lies in the block written back after the last row of its block of rows. -/
theorem cover23 (i : S2000x128.Idx) :
    ∃ t : Fin (cfg23 a).N, ((cfg23 a).win 1).flush t = true ∧ i ∈ (((cfg23 a).win 1).blk t).view.set := by
  have hi0 : (i 0).val < 2000 := (i 0).isLt
  have hN : (i 0).val / 1000 * 1000 + 999 < (cfg23 a).N := by rw [N23]; omega
  refine ⟨⟨(i 0).val / 1000 * 1000 + 999, hN⟩, ?_, ?_⟩
  · rw [flush23_1]; exact decide_eq_true (by show ((i 0).val / 1000 * 1000 + 999) % 1000 = 999; omega)
  · refine Finset.mem_map.mpr ⟨cell23 ((i 0).val % 1000) (Nat.mod_lt _ (by decide)) (i 1), Finset.mem_univ _, ?_⟩
    exact emb23_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out23 (c : Dev nD) :
    (dat23 V a c).arrAt 1 (cfg23 a).N = (xChunk23 (tb23 a) (A23 V c) (V c main_arg1) : Vec F S2000x128 .f32) :=
  (dat23 V a c).arrAt_eq_of_cover 1 _
    (fun t _ => funext fun x => (after23_chunk V a c t x).trans (cast_eq _ _).symm)
    (cover23 a)

end Value

/-! ## The invariant's two ends -/

section Ends
variable (V : (c : Dev nD) → (b : Ref sig .tc) → Buf (Elt F) ((c : Thread nD τ).loc b)) (a : (pcfg23 (F := F)).Adm)

/-- The body's own transfer cells as the launch's protocol lists them: the 16 cells of its semaphore operand. -/
def osem23 : Fin 16 → SemLoc sig := fun k => SemLoc.dma (cc23_scratch2.ix (Shape.ofLane k))
/-- They are scoped, distinct, and none is a window's. -/
theorem ownSemFacts23 : Pipeline.OwnSemFacts spec23 osem23 := by decide
/-- The cells at zero, listed, are the cells as the body names them. -/
theorem cells23_eq (c : Dev nD) :
    (Pipeline.ownSems0 (Ix := Unit) (Name := ℕ) (U := UC) (Lvl := ℕ) (Val := Elt F) (τ := τ) osem23 c : sProp 𝕄) = cells24 c cc23_scratch2 := by
  rw [Pipeline.ownSems0_eq_of_list c osem23 [0, 1, 2, 3, 4, 5, 6, 7, 8, 9, 10, 11, 12, 13, 14, 15] (by decide) (by decide)]; rfl

/-- The launch's one table, held. -/
theorem prefHeld23_eq (c : Dev nD) (pf : pre23.Contents (Elt F)) :
    (Pipeline.prefHeld pre23 c (fun _ => fullShare) pf : sProp 𝕄) = (((c : Thread nD τ).loc main_v47) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X23 (c : Dev nD) : sProp 𝕄 :=
  iprop((∃ r, prngReg c r) ∗ Pipeline.ownSems0 (Ix := Unit) (Name := ℕ) (U := UC) (Lvl := ℕ) (Val := Elt F) (τ := τ) osem23 c
    ∗ (((c : Thread nD τ).loc main_arg0) ↦{fullShare} V c main_arg0))
abbrev Y23 (c : Dev nD) : sProp 𝕄 :=
  iprop((∃ r, prngReg c r) ∗ (((c : Thread nD τ).loc main_arg0) ↦{fullShare} V c main_arg0)
    ∗ Pipeline.prefHeld pre23 c (fun _ => fullShare) a.1)

/-- THE FIRST POINT: the invariant from what the launch's entry sorts out. Nothing is asked of the carried scratch. -/
theorem Phi23_in (c : Dev nD) :
    iprop(X23 V c ∗ Pipeline.prefHeld pre23 c (fun _ => fullShare) a.1
        ∗ Pipeline.scopedRest (Ix := Unit) (Name := ℕ) (U := UC) (Lvl := ℕ) (Val := Elt F) spec23 c)
      ⊢ (dat23 V a c).Φ 0 := by
  rw [Phi23_eq]
  unfold Φ23 X23
  rw [scopedRest23_split, prefHeld23_eq, cells23_eq]
  simp only [tbM23, hbM23, scM23_0, scM23_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK23_start _ _ _ rfl _
  isplitl [Hs1]; · iexact Hs1
  isplitl [Hcells]; · iexact Hcells
  isplitl [Hreg]; · iexact Hreg
  iexact Hrest

/-- THE LAST POINT: the invariant gives back what it took. -/
theorem Phi23_out (c : Dev nD) :
    (dat23 V a c).Φ (Fin.last _)
      ⊢ iprop(Y23 V a c ∗ Pipeline.ownSems0 (Ix := Unit) (Name := ℕ) (U := UC) (Lvl := ℕ) (Val := Elt F) (τ := τ) osem23 c
        ∗ Pipeline.scopedRest (Ix := Unit) (Name := ℕ) (U := UC) (Lvl := ℕ) (Val := Elt F) spec23 c) := by
  rw [Phi23_eq]
  unfold Φ23 Y23
  rw [scopedRest23_split, prefHeld23_eq, cells23_eq]
  simp only [tbM23, hbM23, scM23_0, scM23_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G24Dat.lean ====
/-
  One of the program's 25 gather launches (pipeline 24; each runs the same body on its own [16, 2000] slice of the
  transposed neighbour table): what the pipeline's invariant carries from grid point to grid point, and what the launch
  leaves in its output array.

  The grid is (2 blocks of rows) x (1000 rows), walked row-major. At the point (q, r) the body reads the 16 words
  of column 1000 q + r of the launch's [16, 2000] table, copies those 16 rows of the [100000, 128] feature array into a
  [16, 128] scratch, and stores their mean (sum over the 16 rows, divided by 16) as row r of a [1000, 128] scratch that it
  CARRIES across the points; at r = 999 it multiplies that scratch, rounded to bf16, by the [128, 128] weight, rounded to
  bf16, and stores the product in the output window, whose block (q, 0) is written back to rows 1000 q .. 1000 q + 999
  of the [2000, 128] output. At every other point the output window is idle.

  So the invariant before point n = 1000 q + r says of the carried scratch: its rows below r are the means of block q.
  At r = 0 that says nothing (a new block starts from whatever the last one left); after r = 999 every row is a mean, and
  what the body stores in the output window is a function of the table, the feature array and the weight alone.
-/
import proofs.«403631_j48275432407145_1_alg».proof.Proof.KB.G24Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The grid -/

/-- The grid has 2000 points, whatever the table. -/
theorem N24 (a : (pcfg24 (F := F)).Adm) : (cfg24 a).N = 2000 := N_24

/-- The body's branch is taken at the last row of a block of rows, -/
theorem cond24_iff : ∀ t : Fin grid24.N, k24_cond1 (grid24.coords t) = 1#1 ↔ t.val % 1000 = 999 := by decide +kernel
/-- the row a point works on is its number modulo 1000, -/
theorem rowAt24_coord : ∀ t : Fin grid24.N, (grid24.coords t 1).val = t.val % 1000 := by decide +kernel
/-- its block of rows is its number divided by 1000, -/
theorem blockAt24_coord : ∀ t : Fin grid24.N, (grid24.coords t 0).val = t.val / 1000 := by decide +kernel
/-- and the output's block index moves after exactly those points (and the grid ends at one). -/
theorem flushB24 : ∀ t : Fin grid24.N,
    (decide (t.val + 1 = grid24.N) || decide (∃ h : t.val + 1 < grid24.N, cc24_transform_2 (grid24.coords ⟨t.val + 1, h⟩) ≠ cc24_transform_2 (grid24.coords t)))
      = decide (t.val % 1000 = 999) := by decide +kernel

/-- The output's block index at a point: the point's block of rows. -/
theorem idx24_1 : ∀ t : Fin grid24.N, cc24_transform_2 (grid24.coords t) = ![t.val / 1000, 0] := by decide +kernel

/-- Every word of the launch's table names a row of the feature array. -/
def InRange24 (pf : pre24.Contents (Elt F)) : Prop := ∀ x : S16x2000.Idx, ((pf 0 : Vec F S16x2000 .i32) x).toNat < 100000

/-! ## The values -/

/-- Lane `l` of a one-row vector. -/
def lane24 (l : Fin 128) : S1x128.Idx := fun a => ⟨if a.val = 0 then 0 else l.val, by
  match a with
  | ⟨0, _⟩ => exact Nat.one_pos
  | ⟨1, _⟩ => exact l.isLt⟩

theorem lane24_one (l : Fin 128) : (lane24 l 1).val = l.val := rfl

/-- The grid point of row `r` of block `q` (total: the point number is taken modulo the grid's size). -/
def pt24 (q : ℕ) (r : ℕ) : Fin grid24.N := ⟨(q * 1000 + r) % grid24.N, Nat.mod_lt _ (by decide)⟩

/-- Inside the grid the point's number is `1000 q + r`. -/
theorem pt24_val (q r : ℕ) (hq : q < 2) (hr : r < 1000) : (pt24 q r).val = q * 1000 + r := by
  show (q * 1000 + r) % grid24.N = q * 1000 + r
  rw [N_24]; omega

/-- A point is the point of its block and row. -/
theorem pt24_self (t : Fin grid24.N) : pt24 (t.val / 1000) (t.val % 1000) = t := by
  apply Fin.ext
  show (t.val / 1000 * 1000 + t.val % 1000) % grid24.N = t.val
  have h := t.isLt
  rw [Nat.div_add_mod' t.val 1000]
  exact Nat.mod_eq_of_lt h

/-- THE MEANS OF BLOCK `q`: row `r` is the mean of the 16 feature rows the table's column `1000 q + r` names, as the
    body computes it (the payload of its row store, at the rows its copies gather). -/
def means24 (tb : Vec F S16x2000 .i32) (A0 : Vec F S100000x128 .f32) (q : ℕ) : Vec F S1000x128 .f32 :=
  fun x => Gen.k24_pay1 (gath24 (grid24.coords (pt24 q (x 0).val)) tb A0) (lane24 (x 1))

/-- What the body stores in the output window at the last row of block `q`: the means, rounded, times the weight, rounded. -/
def xBlk24 (tb : Vec F S16x2000 .i32) (A0 : Vec F S100000x128 .f32) (Wt : Vec F S128x128 .f32) (q : ℕ) : Vec F S1000x128 .f32 :=
  Gen.k24_pay2 (means24 tb A0 q) Wt

/-- The carried scratch before point `n`: its rows below `n % 1000` are the means of block `n / 1000`. -/
def RowsOK24 (tb : Vec F S16x2000 .i32) (A0 : Vec F S100000x128 .f32) (n : ℕ) (g : Vec F S1000x128 .f32) : Prop :=
  ∀ x : S1000x128.Idx, (x 0).val < n % 1000 → g x = means24 tb A0 (n / 1000) x

/-- At the first row of a block nothing is asked. -/
theorem rowsOK24_start (tb : Vec F S16x2000 .i32) (A0 : Vec F S100000x128 .f32) (n : ℕ) (hn : n % 1000 = 0) (g : Vec F S1000x128 .f32) :
    RowsOK24 tb A0 n g := fun x hx => absurd hx (by omega)

/-- One point's row store keeps the invariant's rows and adds its own: after the store at point `t` the rows up to
    `t % 1000` are means. -/
theorem rowAt24_means (tb : Vec F S16x2000 .i32) (A0 : Vec F S100000x128 .f32) (t : Fin grid24.N) (g : Vec F S1000x128 .f32)
    (hg : RowsOK24 tb A0 t.val g) (x : S1000x128.Idx) (hx : (x 0).val ≤ t.val % 1000) :
    row24 (grid24.coords t) tb A0 g x = means24 tb A0 (t.val / 1000) x := by
  by_cases h : (x 0).val = t.val % 1000
  · rw [row24_of_eq (grid24.coords t) tb A0 g x (by rw [rowAt24_coord]; exact h) (lane24 (x 1)) rfl]
    unfold means24
    rw [h, pt24_self]
  · rw [row24_of_ne (grid24.coords t) tb A0 g x (by rw [rowAt24_coord]; exact h)]
    exact hg x (by omega)

/-- Within a block the invariant steps. -/
theorem rowsOK24_step (tb : Vec F S16x2000 .i32) (A0 : Vec F S100000x128 .f32) (t : Fin grid24.N) (g : Vec F S1000x128 .f32)
    (hg : RowsOK24 tb A0 t.val g) : RowsOK24 tb A0 (t.val + 1) (row24 (grid24.coords t) tb A0 g) := by
  by_cases hl : t.val % 1000 = 999
  · exact rowsOK24_start _ _ _ (by omega) _
  · intro x hx
    have h1 : (t.val + 1) / 1000 = t.val / 1000 := by omega
    rw [h1]
    exact rowAt24_means tb A0 t g hg x (by omega)

/-- At the last row of a block the scratch, after the row store, is the block's means whatever it held before. -/
theorem rowAt24_last (tb : Vec F S16x2000 .i32) (A0 : Vec F S100000x128 .f32) (t : Fin grid24.N) (hl : t.val % 1000 = 999)
    (g : Vec F S1000x128 .f32) (hg : RowsOK24 tb A0 t.val g) :
    row24 (grid24.coords t) tb A0 g = means24 tb A0 (t.val / 1000) :=
  funext fun x => rowAt24_means tb A0 t g hg x (by have : (x 0).val < 1000 := (x 0).isLt; omega)

/-! ## The invariant -/

/-- The launch's operands that no window stages, as the body is handed them: its table, the feature array left in
    HBM, and its two scratch buffers — whole buffers. -/
abbrev tbM24 : Memref sig .tc .smem S16x2000 .i32 := Memref.whole main_v49
abbrev hbM24 : Memref sig .tc .hbm S100000x128 .f32 := Memref.whole main_arg0
abbrev scM24_0 : Memref sig .tc .vmem S1000x128 .f32 := Memref.whole cc24_scratch0
abbrev scM24_1 : Memref sig .tc .vmem S16x128 .f32 := Memref.whole cc24_scratch1

section Region
-- the TensorCore's buffer contents when the launch is entered, and the launch's table
variable (V : (c : Dev nD) → (b : Ref sig .tc) → Buf (Elt F) ((c : Thread nD τ).loc b)) (a : (pcfg24 (F := F)).Adm)

/-- The table and the feature array, as vectors. -/
abbrev tb24 : Vec F S16x2000 .i32 := a.1 0
abbrev A24 (c : Dev nD) : Vec F S100000x128 .f32 := V c main_arg0

/-- THE INVARIANT before point `n`: the table held at the launch's contents, the feature array at its entry contents,
    the carried scratch at contents whose rows below `n % 1000` are the means of block `n / 1000`, the gather scratch at
    anything, the body's 16 transfer cells at zero, the generator register at some state, and every other scoped
    buffer of the core untouched. -/
def Φ24 (c : Dev nD) (n : ℕ) : sProp 𝕄 :=
  iprop(owns (c : Thread nD τ) tbM24 fullShare (tb24 a)
    ∗ owns (c : Thread nD τ) hbM24 fullShare (A24 V c)
    ∗ (∃ g : Vec F S1000x128 .f32, ⌜RowsOK24 (tb24 a) (A24 V c) n g⌝ ∗ owns (c : Thread nD τ) scM24_0 fullShare g)
    ∗ (∃ d, owns (c : Thread nD τ) scM24_1 fullShare d)
    ∗ cells24 c cc24_scratch2
    ∗ (∃ r, prngReg c r)
    ∗ Pipeline.scopedRestBut (Ix := Unit) (Name := ℕ) (U := UC) (Lvl := ℕ) (Val := Elt F) spec24 c [cc24_scratch0, cc24_scratch1])

/-! ## The windows' blocks and the proof data -/

/-- Window `w`'s block at point `t`, read off its array as the launch finds it. -/
def iblk24 (c : Dev nD) (w : Fin (cfg24 a).W) (t : Fin (cfg24 a).N) :
    (((cfg24 a).win w).xblock ((cfg24 a).grid.coords t)).Idx → Elt F ((cfg24 a).win w).elt :=
  (((cfg24 a).win w).blk t).view.read (Elt F) (V c (Pipeline.arrRef spec24 w))

/-- The proof data of the launch on core `c`: the arrays as the launch finds them; after the body at point `t` the
    weight window at its block and the output window at the product for `t`'s block of rows (read only at the block's
    last row, where the body stores it); the invariant above; nothing owed; full shares. -/
def dat24 (c : Dev nD) : Dat τ (Elt F) Unit ℕ UC ℕ (cfg24 a) c where
  A w := V c (Pipeline.arrRef spec24 w)
  after w t := match w with
    | ⟨0, _⟩ => iblk24 V a c 0 t
    | ⟨1, _⟩ => xBlk24 (tb24 a) (A24 V c) (iblk24 V a c 0 t) (t.val / 1000)
  Φ n := Φ24 V a c n.val
  q _ := fullShare
  owed _ := 0

/-- The proof data's arrays are the entry contents. -/
theorem A_eq24 (c : Dev nD) (w : Fin (cfg24 a).W) : (dat24 V a c).A w = V c (Pipeline.arrRef spec24 w) := by
  dsimp only [dat24]

/-- What the body leaves, window by window. -/
theorem after24_0 (c : Dev nD) (t : Fin (cfg24 a).N) : (dat24 V a c).after 0 t = iblk24 V a c 0 t := by dsimp only [dat24]; rfl
theorem after24_1 (c : Dev nD) (t : Fin (cfg24 a).N) :
    (dat24 V a c).after 1 t = xBlk24 (tb24 a) (A24 V c) (iblk24 V a c 0 t) (t.val / 1000) := by dsimp only [dat24]; rfl

/-- The invariant and the tallies, at a point. -/
theorem Phi24_eq (c : Dev nD) (n : Fin ((cfg24 a).N + 1)) : (dat24 V a c).Φ n = Φ24 V a c n.val := by dsimp only [dat24]
theorem owed24_eq (c : Dev nD) (n : Fin ((cfg24 a).N + 1)) : (dat24 V a c).owed n = 0 := by dsimp only [dat24]

/-- The weight window holds its block at every point, fetched there or not: its block index never moves. -/
theorem before24_0 (c : Dev nD) (t : Fin (cfg24 a).N) (d) : (dat24 V a c).before 0 t d = iblk24 V a c 0 t :=
  ((dat24 V a c).before_in_eq_fetched 0 rfl (fun _ => rfl) (fun _ _ _ => rfl)
      (fun t => by rw [after24_0]; unfold Dat.blockOf iblk24; rw [A_eq24]; try rfl) t d).trans
    (by unfold Dat.fetched Dat.blockOf iblk24; rw [A_eq24]; try rfl)

/-- The output window is written back after the last row of each block of rows, and only there; -/
theorem flush24_1 (t : Fin (cfg24 a).N) : ((cfg24 a).win 1).flush t = decide (t.val % 1000 = 999) := by
  unfold Window.flush
  exact flushB24 t
/-- and it is idle at every other row. -/
theorem idle24_1 (t : Fin (cfg24 a).N) : (cfg24 a).idle 1 ((cfg24 a).grid.coords t) = !decide (t.val % 1000 = 999) := by
  show (!(k24_cond1 (grid24.coords t) == 1#1)) = _
  congr 1
  by_cases h : t.val % 1000 = 999
  · rw [decide_eq_true h, (cond24_iff t).2 h]; rfl
  · rw [decide_eq_false h]
    exact beq_false_of_ne fun e => h ((cond24_iff t).1 e)

end Region

/-! ## The body obligation -/

section Body
variable (V : (c : Dev nD) → (b : Ref sig .tc) → Buf (Elt F) ((c : Thread nD τ).loc b)) (a : (pcfg24 (F := F)).Adm)

/-- Each window's current staging memref at point `t`, spelled as the pipeline passes it, and its wholeness. -/
abbrev ms24_0 (t : Fin (cfg24 a).N) : Memref sig .tc .vmem S128x128 .f32 := spec24_0.stage ((cfg24 a).slots t 0)
abbrev hs24_0 (t : Fin (cfg24 a).N) : (ms24_0 a t).IsWhole := hstage24_0 (((cfg24 a).slots t 0).cast nbuf24_0)
abbrev ms24_1 (t : Fin (cfg24 a).N) : Memref sig .tc .vmem S1000x128 .f32 := spec24_1.stage ((cfg24 a).slots t 1)
abbrev hs24_1 (t : Fin (cfg24 a).N) : (ms24_1 a t).IsWhole := hstage24_1 (((cfg24 a).slots t 1).cast nbuf24_1)

/-- The launch's body function, under the name the runs are stated at. -/
theorem bodyFn24_eq : cc24__gather_agg_matmul_kernel (F := F) = gatherFn := rfl

/-- The kernel body at point `t`, on what the pipeline calls it with. -/
abbrev bodyAt24 (t : Fin (cfg24 a).N) : Prog (TpuEff nD τ sig (Elt F) Λ₀ .tc) PUnit :=
  cc24__gather_agg_matmul_kernel (grid24.coords t) tbM24 (Memref.isWhole_whole _) hbM24 (Memref.isWhole_whole _)
    (ms24_0 a t) (hs24_0 a t) (ms24_1 a t) (hs24_1 a t) scM24_0 (Memref.isWhole_whole _) scM24_1 (Memref.isWhole_whole _) cc24_scratch2

/-- What the body is called with at point `t`, the windows one by one, -/
def bodyPre24 (c : Dev nD) (t : Fin (cfg24 a).N) : sProp 𝕄 :=
  iprop((dat24 V a c).Φ t.castSucc ∗ (dat24 V a c).owesAt () t.castSucc
    ∗ (∃ d, owns (c : Thread nD τ) (ms24_0 a t) fullShare ((dat24 V a c).before 0 t d))
    ∗ (∃ d, owns (c : Thread nD τ) (ms24_1 a t) fullShare ((dat24 V a c).before 1 t d)))

/-- and what it returns: the output window as it was found where the point is idle for it, at the block's product
    at the last row of a block. -/
def bodyPost24 (c : Dev nD) (t : Fin (cfg24 a).N) : sProp 𝕄 :=
  iprop((dat24 V a c).Φ t.succ ∗ (dat24 V a c).owesAt () t.succ
    ∗ owns (c : Thread nD τ) (ms24_0 a t) fullShare ((dat24 V a c).after 0 t)
    ∗ (match (cfg24 a).idle 1 ((cfg24 a).grid.coords t) with
        | true =>
          match ((cfg24 a).win 1).flush t with
          | false => iprop(∃ d, owns (c : Thread nD τ) (ms24_1 a t) fullShare ((dat24 V a c).before 1 t d))
          | true => owns (c : Thread nD τ) (ms24_1 a t) fullShare ((dat24 V a c).after 1 t)
        | false => owns (c : Thread nD τ) (ms24_1 a t) fullShare ((dat24 V a c).after 1 t)))

/-- The body at any point. The weight window holds its block; the invariant hands the body its table, the feature
    array, both scratch buffers and its transfer cells, and takes them back with the carried scratch one row further
    (`rowsOK24_step`); at the last row of a block the product the body stores is the block's (`rowAt24_last`); the core's
    `owes` goes in at whatever the points before recorded and comes back with this point's waits. -/
theorem sound_body24 (hR : InRange24 a.1) (c : Dev nD) (t : Fin (cfg24 a).N) :
    bodyPre24 V a c t ⊢ wp frame (wpE (defs₀ (F := F)) Variants.none c none) Set.univ (bodyAt24 a t) (fun _ => bodyPost24 V a c t) := by
  unfold bodyPre24 bodyPost24 bodyAt24
  rw [flush24_1, idle24_1]
  simp only [before24_0]
  rw [after24_0, Phi24_eq, Phi24_eq, Fin.val_succ, Fin.coe_castSucc]
  unfold Dat.owesAt Pipeline.owesWithin
  rw [owed24_eq, owed24_eq]
  unfold Φ24
  rw [bodyFn24_eq]
  by_cases hl : t.val % 1000 = 999
  · -- the last row of a block
    rw [decide_eq_true hl, Bool.not_true]
    dsimp only
    rw [after24_1]
    unfold xBlk24
    iintro ⟨⟨Htb, Hhb, ⟨%g, %hg, Hs0⟩, Hs1, Hcells, Hreg, Hrest⟩, ⟨%W, -, HW⟩, ⟨%d0, H0⟩, ⟨%d1, H1⟩⟩
    rw [← rowAt24_last (tb24 a) (A24 V c) t hl g hg]
    iapply (run24_last c (grid24.coords t) tbM24 (Memref.isWhole_whole _) hbM24 (Memref.isWhole_whole _) (ms24_0 a t) (hs24_0 a t)
      (ms24_1 a t) (hs24_1 a t) scM24_0 (Memref.isWhole_whole _) scM24_1 (Memref.isWhole_whole _) cc24_scratch2
      ((cond24_iff t).2 hl) (tb24 a) hR (A24 V c) (iblk24 V a c 0 t) g W _)
    isplitl [Htb]; · iexact Htb
    isplitl [Hhb]; · iexact Hhb
    isplitl [H0]; · iexact H0
    isplitl [H1]; · iexists _; iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK24_start _ _ _ (by omega) _
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexact H1
  · -- a row before the last: the output window is idle and is not written back
    rw [decide_eq_false hl, Bool.not_false]
    dsimp only
    have hc : k24_cond1 (grid24.coords t) ≠ 1#1 := fun e => hl ((cond24_iff t).1 e)
    iintro ⟨⟨Htb, Hhb, ⟨%g, %hg, Hs0⟩, Hs1, Hcells, Hreg, Hrest⟩, ⟨%W, -, HW⟩, ⟨%d0, H0⟩, ⟨%d1, H1⟩⟩
    iapply (run24_idle c (grid24.coords t) tbM24 (Memref.isWhole_whole _) hbM24 (Memref.isWhole_whole _) (ms24_0 a t) (hs24_0 a t)
      (ms24_1 a t) (hs24_1 a t) scM24_0 (Memref.isWhole_whole _) scM24_1 (Memref.isWhole_whole _) cc24_scratch2
      hc (tb24 a) hR (A24 V c) (iblk24 V a c 0 t) g
      (owns (c : Thread nD τ) (ms24_1 a t) fullShare ((dat24 V a c).before 1 t d1)) W _)
    isplitl [Htb]; · iexact Htb
    isplitl [Hhb]; · iexact Hhb
    isplitl [H0]; · iexact H0
    isplitl [H1]; · iexact H1
    isplitl [Hs0]; · iexact Hs0
    isplitl [Hs1]; · iexact Hs1
    isplitl [Hcells]; · iexact Hcells
    isplitl [HW]; · iexact HW
    iintro ⟨Htb, Hhb, H0, H1, Hs0, Hs1, Hcells, ⟨%W', HW'⟩⟩
    isplitl [Htb Hhb Hs0 Hs1 Hcells Hreg Hrest]
    · isplitl [Htb]; · iexact Htb
      isplitl [Hhb]; · iexact Hhb
      isplitl [Hs0]
      · iexists _; isplitr; swap; · iexact Hs0
        ipureintro; exact rowsOK24_step _ _ t g hg
      isplitl [Hs1]; · iexact Hs1
      isplitl [Hcells]; · iexact Hcells
      isplitl [Hreg]; · iexact Hreg
      iexact Hrest
    isplitl [HW']
    · iexists W'; isplitr; · ipureintro; exact fun _ _ => Or.inl trivial
      iexact HW'
    isplitl [H0]; · iexact H0
    iexists d1; iexact H1

/-- The library's body obligation, at every point. -/
theorem body_obligation24 (hR : InRange24 a.1) (c : Dev nD) :
    BodyObligation (dat24 (F := F) V a c) (defs₀ (F := F)) Variants.none () Set.univ := fun t => by
  rw [bigSep_W24, bigSep_W24]
  exact sound_body24 V a hR c t

end Body

/-! ## The value: what the launch leaves in its output array -/

section Value
variable (V : (c : Dev nD) → (b : Ref sig .tc) → Buf (Elt F) ((c : Thread nD τ).loc b)) (a : (pcfg24 (F := F)).Adm)

/-- Entry `(r, l)` of a block of rows. -/
def cell24 (r : ℕ) (hr : r < 1000) (l : Fin 128) : S1000x128.Idx := fun b => ⟨if b.val = 0 then r else l.val, by
  match b with
  | ⟨0, _⟩ => exact hr
  | ⟨1, _⟩ => exact l.isLt⟩

/-- THE OUTPUT, index by index: row `1000 q + r` is row `r` of block `q`'s product. -/
def xChunk24 (tb : Vec F S16x2000 .i32) (A0 : Vec F S100000x128 .f32) (Wt : Vec F S128x128 .f32) : Vec F S2000x128 .f32 :=
  fun y => xBlk24 tb A0 Wt ((y 0).val / 1000) (cell24 ((y 0).val % 1000) (Nat.mod_lt _ (by decide)) (y 1))

/-- The weight window's block is the whole weight, at every point: its block index is (0, 0). -/
theorem wblk24_eq (c : Dev nD) (t : Fin (cfg24 a).N) : iblk24 V a c 0 t = (V c main_arg1 : Vec F S128x128 .f32) := by
  funext x
  unfold iblk24
  rw [View.read_apply]
  refine (cast_eq _ _).trans (congrArg (V c main_arg1) (funext fun b => Fin.ext ?_))
  refine (((cfg24 a).win 0).rect_emb_val_of_index_zero t b ?_ x)
  match b with
  | ⟨0, _⟩ => rfl
  | ⟨1, _⟩ => rfl

/-- Where entry `x` of the output window's block at point `t` sits in the output array. -/
abbrev emb24 (t : Fin (cfg24 a).N) (x : S1000x128.Idx) : S2000x128.Idx := (((cfg24 a).win 1).blk t).view.emb x

theorem emb24_val (t : Fin (cfg24 a).N) (x : S1000x128.Idx) :
    (emb24 a t x 0).val = t.val / 1000 * 1000 + (x 0).val ∧ (emb24 a t x 1).val = (x 1).val := by
  have hix : ((cfg24 a).win 1).index t = ![t.val / 1000, 0] := idx24_1 t
  have e0 := ((cfg24 a).win 1).rect_emb_val t x (0 : Fin 2)
  have e1 := ((cfg24 a).win 1).rect_emb_val t x (1 : Fin 2)
  rw [hix] at e0 e1
  refine ⟨e0, e1.trans ?_⟩
  show 0 * 128 + (x 1).val = (x 1).val
  omega

/-- What the body leaves in the output window at a point, entry by entry, is the output function at the entry's place in
    the array. -/
theorem after24_chunk (c : Dev nD) (t : Fin (cfg24 a).N) (x : S1000x128.Idx) :
    (dat24 V a c).after 1 t x = xChunk24 (tb24 a) (A24 V c) (V c main_arg1) (emb24 a t x) := by
  obtain ⟨e0, e1⟩ := emb24_val a t x
  have hx0 : (x 0).val < 1000 := (x 0).isLt
  rw [after24_1, wblk24_eq]
  unfold xChunk24
  have hq : (emb24 a t x 0).val / 1000 = t.val / 1000 := by rw [e0]; omega
  have hcell : cell24 ((emb24 a t x 0).val % 1000) (Nat.mod_lt _ (by decide)) (emb24 a t x 1) = x := by
    funext b
    apply Fin.ext
    match b with
    | ⟨0, _⟩ =>
      show (emb24 a t x 0).val % 1000 = (x 0).val
      rw [e0]; omega
    | ⟨1, _⟩ => exact e1
  rw [hq, hcell]

/-- Two entries of the output array with the same coordinates are the same. -/
theorem idx24_ext (u v : S2000x128.Idx) (h0 : (u 0).val = (v 0).val) (h1 : (u 1).val = (v 1).val) : u = v := by
  funext b
  apply Fin.ext
  match b with
  | ⟨0, _⟩ => exact h0
  | ⟨1, _⟩ => exact h1

/-- An entry of the output array is, in the block of any point of its block of rows, the entry at its row within the block. -/
theorem emb24_cell (t : Fin (cfg24 a).N) (i : S2000x128.Idx) (ht : t.val / 1000 = (i 0).val / 1000) :
    emb24 a t (cell24 ((i 0).val % 1000) (Nat.mod_lt _ (by decide)) (i 1)) = i := by
  obtain ⟨e0, e1⟩ := emb24_val a t (cell24 ((i 0).val % 1000) (Nat.mod_lt _ (by decide)) (i 1))
  refine idx24_ext _ _ ?_ e1
  rw [e0, ht]
  show (i 0).val / 1000 * 1000 + (i 0).val % 1000 = (i 0).val
  omega

/-- Every entry of the output array lies in the block written back after the last row of its block of rows. -/
theorem cover24 (i : S2000x128.Idx) :
    ∃ t : Fin (cfg24 a).N, ((cfg24 a).win 1).flush t = true ∧ i ∈ (((cfg24 a).win 1).blk t).view.set := by
  have hi0 : (i 0).val < 2000 := (i 0).isLt
  have hN : (i 0).val / 1000 * 1000 + 999 < (cfg24 a).N := by rw [N24]; omega
  refine ⟨⟨(i 0).val / 1000 * 1000 + 999, hN⟩, ?_, ?_⟩
  · rw [flush24_1]; exact decide_eq_true (by show ((i 0).val / 1000 * 1000 + 999) % 1000 = 999; omega)
  · refine Finset.mem_map.mpr ⟨cell24 ((i 0).val % 1000) (Nat.mod_lt _ (by decide)) (i 1), Finset.mem_univ _, ?_⟩
    exact emb24_cell a ⟨(i 0).val / 1000 * 1000 + 999, hN⟩ i (by show ((i 0).val / 1000 * 1000 + 999) / 1000 = (i 0).val / 1000; omega)

/-- THE OUTPUT ARRAY after the launch: the output window is written back after the last row of each block of rows, with
    that block's product; the two blocks tile the array. -/
theorem out24 (c : Dev nD) :
    (dat24 V a c).arrAt 1 (cfg24 a).N = (xChunk24 (tb24 a) (A24 V c) (V c main_arg1) : Vec F S2000x128 .f32) :=
  (dat24 V a c).arrAt_eq_of_cover 1 _
    (fun t _ => funext fun x => (after24_chunk V a c t x).trans (cast_eq _ _).symm)
    (cover24 a)

end Value

/-! ## The invariant's two ends -/

section Ends
variable (V : (c : Dev nD) → (b : Ref sig .tc) → Buf (Elt F) ((c : Thread nD τ).loc b)) (a : (pcfg24 (F := F)).Adm)

/-- The body's own transfer cells as the launch's protocol lists them: the 16 cells of its semaphore operand. -/
def osem24 : Fin 16 → SemLoc sig := fun k => SemLoc.dma (cc24_scratch2.ix (Shape.ofLane k))
/-- They are scoped, distinct, and none is a window's. -/
theorem ownSemFacts24 : Pipeline.OwnSemFacts spec24 osem24 := by decide
/-- The cells at zero, listed, are the cells as the body names them. -/
theorem cells24_eq (c : Dev nD) :
    (Pipeline.ownSems0 (Ix := Unit) (Name := ℕ) (U := UC) (Lvl := ℕ) (Val := Elt F) (τ := τ) osem24 c : sProp 𝕄) = cells24 c cc24_scratch2 := by
  rw [Pipeline.ownSems0_eq_of_list c osem24 [0, 1, 2, 3, 4, 5, 6, 7, 8, 9, 10, 11, 12, 13, 14, 15] (by decide) (by decide)]; rfl

/-- The launch's one table, held. -/
theorem prefHeld24_eq (c : Dev nD) (pf : pre24.Contents (Elt F)) :
    (Pipeline.prefHeld pre24 c (fun _ => fullShare) pf : sProp 𝕄) = (((c : Thread nD τ).loc main_v49) ↦{fullShare} pf 0) := by
  unfold Pipeline.prefHeld
  rw [BI.bigSep_univ_eq_bigSepL [(0 : Fin 1)] (by decide) (by decide)]; rfl

/-- What enters the invariant beside the table and the scoped rest: the generator register, the body's cells at zero
    and the feature array at its entry contents; and what it gives back beside the cells and the scoped rest. -/
abbrev X24 (c : Dev nD) : sProp 𝕄 :=
  iprop((∃ r, prngReg c r) ∗ Pipeline.ownSems0 (Ix := Unit) (Name := ℕ) (U := UC) (Lvl := ℕ) (Val := Elt F) (τ := τ) osem24 c
    ∗ (((c : Thread nD τ).loc main_arg0) ↦{fullShare} V c main_arg0))
abbrev Y24 (c : Dev nD) : sProp 𝕄 :=
  iprop((∃ r, prngReg c r) ∗ (((c : Thread nD τ).loc main_arg0) ↦{fullShare} V c main_arg0)
    ∗ Pipeline.prefHeld pre24 c (fun _ => fullShare) a.1)

/-- THE FIRST POINT: the invariant from what the launch's entry sorts out. Nothing is asked of the carried scratch. -/
theorem Phi24_in (c : Dev nD) :
    iprop(X24 V c ∗ Pipeline.prefHeld pre24 c (fun _ => fullShare) a.1
        ∗ Pipeline.scopedRest (Ix := Unit) (Name := ℕ) (U := UC) (Lvl := ℕ) (Val := Elt F) spec24 c)
      ⊢ (dat24 V a c).Φ 0 := by
  rw [Phi24_eq]
  unfold Φ24 X24
  rw [scopedRest24_split, prefHeld24_eq, cells24_eq]
  simp only [tbM24, hbM24, scM24_0, scM24_1, owns_whole]
  iintro ⟨⟨Hreg, Hcells, Hhb⟩, Htb, ⟨⟨%f0, Hs0⟩, Hs1⟩, Hrest⟩
  isplitl [Htb]; · iexact Htb
  isplitl [Hhb]; · iexact Hhb
  isplitl [Hs0]
  · iexists f0; isplitr; swap; · iexact Hs0
    ipureintro; exact rowsOK24_start _ _ _ rfl _
  isplitl [Hs1]; · iexact Hs1
  isplitl [Hcells]; · iexact Hcells
  isplitl [Hreg]; · iexact Hreg
  iexact Hrest

/-- THE LAST POINT: the invariant gives back what it took. -/
theorem Phi24_out (c : Dev nD) :
    (dat24 V a c).Φ (Fin.last _)
      ⊢ iprop(Y24 V a c ∗ Pipeline.ownSems0 (Ix := Unit) (Name := ℕ) (U := UC) (Lvl := ℕ) (Val := Elt F) (τ := τ) osem24 c
        ∗ Pipeline.scopedRest (Ix := Unit) (Name := ℕ) (U := UC) (Lvl := ℕ) (Val := Elt F) spec24 c) := by
  rw [Phi24_eq]
  unfold Φ24 Y24
  rw [scopedRest24_split, prefHeld24_eq, cells24_eq]
  simp only [tbM24, hbM24, scM24_0, scM24_1, owns_whole]
  iintro ⟨Htb, Hhb, ⟨%g, -, Hs0⟩, Hs1, Hcells, Hreg, Hrest⟩
  isplitl [Hreg Hhb Htb]
  · isplitl [Hreg]; · iexact Hreg
    isplitl [Hhb]; · iexact Hhb
    iexact Htb
  isplitl [Hcells]; · iexact Hcells
  isplitl [Hs0 Hs1]
  · isplitl [Hs0]; · iexists g; iexact Hs0
    iexact Hs1
  iexact Hrest

end Ends

end Cert.Kernel.Hand

end
-- ==== Proof.KB.G25Body.lean ====
/-
  The statistics kernel's body (the program's twenty-sixth pallas_call: column sums and column sums of squares of the
  [50000,128] activations, ten row blocks of 5000 rows accumulated into one [2,128] block) on any pair of whole staging
  buffers, at any float instance. At the first row block the accumulator is reset to zero, read back, and the block's
  two column reductions are added to it; at every later block they are added to what the accumulator already holds. Each
  of the two cases is run once; what the accumulator's buffer ends holding is read off the one store that covers it.
-/
import proofs.«403631_j48275432407145_1_alg».proof.Proof.KB.Base
import proofs.«403631_j48275432407145_1_alg».proof.Proof.Gen.Kernel.Skeleton
import proofs.«403631_j48275432407145_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of the row blocks' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- The body's reset test `program_id == 0`, from the grid coordinates, as the body spells it. -/
abbrev cond25 (i : grid25.Coords) : Prop :=
  (Scalar.cmpi .ne (Scalar.extui (Scalar.cmpi .eq (BitVec.ofNat 32 (i 0).val) 0#32)) 0#32) = 1#1

/-- It holds at the first of the ten row blocks only — decided over the grid. -/
theorem hcond25 : ∀ t : Fin cfg25.N, cond25 (grid25.coords t) ↔ t.val = 0 :=
  (by decide +kernel : ∀ t : Fin grid25.N, cond25 (grid25.coords t) ↔ t.val = 0)

/-- The zero offsets of a two-axis block, as a function. -/
theorem zeroOff2 : (![0, 0] : Fin 2 → Nat) = fun _ => 0 := funext fun a => by fin_cases a <;> rfl

set_option maxHeartbeats 1000000 in
/-- AT A LATER ROW BLOCK (the reset test fails): on whole buffers, the row block's at `x` and the accumulator's at `acc`,
    the body leaves the row block as it was and the accumulator at `acc` plus the block's column sums over its column
    sums of squares — its one store covers the accumulator, and both of its loads read whole buffers. -/
theorem stats_later (c : Dev nD) (E : Set ℕ) (i : grid25.Coords) (arg1 : Memref sig .tc .vmem S5000x128 .f32) (harg1 : arg1.IsWhole)
    (arg2 : Memref sig .tc .vmem S2x128 .f32) (harg2 : arg2.IsWhole) (hc : ¬cond25 i)
    (x : Vec F S5000x128 .f32) (acc : Vec F S2x128 .f32) (K : PUnit → sProp 𝕄) :
    iprop(owns (c : Thread nD τ) arg1 fullShare x ∗ owns (c : Thread nD τ) arg2 fullShare acc
        ∗ (iprop(owns (c : Thread nD τ) arg1 fullShare x ∗ owns (c : Thread nD τ) arg2 fullShare (k25_pay2 x acc)) -∗ K ⟨⟩))
      ⊢ wp frame (wpE (defs₀ (F := F)) Variants.none c none) E (cc25__stats_kernel i arg1 harg1 arg2 harg2) K := by
  simp only [cc25__stats_kernel_eq_skeleton]; unfold cc25__stats_kernel_skel
  unfold owns
  iintro ⟨⟨%f0, %hf0, H0⟩, ⟨%f1, %hf1, H1⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero zeroOff2 inb_S2x128_S2x128_0_0 y⟩),
    View.canon_unit_zero zeroOff2]
  simp only [View.readAt_eq_ld, hf0, hf1, View.ld_unit_zero (S := S5000x128) zeroOff2, View.ld_unit_zero (S := S2x128) zeroOff2]

set_option maxHeartbeats 1000000 in
/-- AT THE FIRST ROW BLOCK (the reset test holds): whatever the accumulator's buffer held, the body stores the zero block
    there, reads it back, and leaves zero plus the block's column sums over its column sums of squares. -/
theorem stats_first (c : Dev nD) (E : Set ℕ) (i : grid25.Coords) (arg1 : Memref sig .tc .vmem S5000x128 .f32) (harg1 : arg1.IsWhole)
    (arg2 : Memref sig .tc .vmem S2x128 .f32) (harg2 : arg2.IsWhole) (hc : cond25 i)
    (x : Vec F S5000x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (k25_pay2 x (k25_pay1 (F := F)))) -∗ K ⟨⟩))
      ⊢ wp frame (wpE (defs₀ (F := F)) Variants.none c none) E (cc25__stats_kernel i arg1 harg1 arg2 harg2) K := by
  simp only [cc25__stats_kernel_eq_skeleton]; unfold cc25__stats_kernel_skel
  unfold owns
  iintro ⟨⟨%f0, %hf0, H0⟩, ⟨%d1, %f1, -, H1⟩, Hk⟩
  obtain rfl := harg1.eq_unread hf0
  sl_exec (disch := first | exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (fun y => ⟨_, List.mem_cons_self, View.mem_set_unit_zero zeroOff2 inb_S2x128_S2x128_0_0 y⟩),
    View.canon_cons_unit_zero zeroOff2, View.readCov_unit_zero _ zeroOff2]
  simp only [View.readAt_eq_ld, hf0, View.ld_unit_zero (S := S5000x128) zeroOff2]

end Cert.Kernel.Hand

end
-- ==== Proof.KB.G25Dat.lean ====
/-
  The statistics pipeline (the program's twenty-sixth pallas_call) as proof data, at any float instance and any contents
  `V` of the TensorCore's buffers when the region is entered: what each window's staging buffer holds after the body at each
  of the ten row blocks, the body obligation, and THE VALUE — the [2,128] statistics array ends holding the running
  statistics after the last row block: zero plus block 0's column sums over its column sums of squares, then each later
  block's added in block order, every addition and reduction the body's own (the skeleton's payloads).
  The accumulator's block index never moves: its buffer is reset at the first block, read back and added into at every
  block, and written back once, after the last; that one write-back overwrites the whole array.
-/
import proofs.«403631_j48275432407145_1_alg».proof.Proof.KB.G25Body

-- membership in a rectangle of the row blocks' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

-- the TensorCore's buffer contents when the region is entered
variable (V : (c : Dev nD) → (b : Ref sig .tc) → Buf (Elt F) ((c : Thread nD τ).loc b))

/-! ## The row blocks and the running statistics -/

/-- Row block `t` of the activations `X` (rows `5000 t … 5000 t + 4999`), read through the input window's view. -/
def rows25 {c : Dev nD} (X : Buf (Elt F) ((c : Thread nD τ).loc main_v53)) (t : Fin cfg25.N) : Vec F S5000x128 .f32 :=
  ((cfg25.win 0).blk t).view.read (Elt F) X

/-- The running statistics after row block `n`: zero plus block 0's column sums over its column sums of squares, then
    each later block's added in block order — the body's own additions, in the body's own order. -/
def partial25 {c : Dev nD} (X : Buf (Elt F) ((c : Thread nD τ).loc main_v53)) : (n : ℕ) → n < cfg25.N → Vec F S2x128 .f32
  | 0, h => k25_pay2 (rows25 X ⟨0, h⟩) (k25_pay1 (F := F))
  | n + 1, h => k25_pay2 (rows25 X ⟨n + 1, h⟩) (partial25 X n (Nat.lt_of_succ_lt h))

/-- THE STATISTICS of the activations `X`: the running statistics after the last of the ten row blocks. -/
def statsOf {c : Dev nD} (X : Buf (Elt F) ((c : Thread nD τ).loc main_v53)) : Buf (Elt F) ((c : Thread nD τ).loc main_v54) :=
  partial25 X 9 (by rw [show cfg25.N = 10 from N_25]; decide)

theorem partial25_first {c : Dev nD} (X : Buf (Elt F) ((c : Thread nD τ).loc main_v53)) (t : Fin cfg25.N) (h0 : t.val = 0) :
    partial25 X t.val t.isLt = k25_pay2 (rows25 X t) (k25_pay1 (F := F)) := by
  obtain ⟨n, hn⟩ := t
  cases n with
  | zero => rfl
  | succ n => exact absurd h0 (Nat.succ_ne_zero n)

theorem partial25_later {c : Dev nD} (X : Buf (Elt F) ((c : Thread nD τ).loc main_v53)) (t : Fin cfg25.N) (h0 : t.val ≠ 0) :
    partial25 X t.val t.isLt
      = k25_pay2 (rows25 X t) (partial25 X (t.val - 1) (Nat.lt_of_le_of_lt (Nat.sub_le _ _) t.isLt)) := by
  obtain ⟨n, hn⟩ := t
  cases n with
  | zero => exact absurd rfl h0
  | succ n => rfl

/-! ## The pipeline's proof data -/

/-- The proof data of the statistics pipeline on core `c`: the arrays as the region finds them; after the body at row
    block `t` the input's buffer at the block and the accumulator's at the running statistics; the invariant the scoped
    rest and the generator register, untouched; nothing owed; full shares. -/
def dat25 (c : Dev nD) : Dat τ (Elt F) Unit ℕ UC ℕ cfg25 c where
  A w := V c (Pipeline.arrRef spec25 w)
  after w t := match w with
    | ⟨0, _⟩ => rows25 (V c main_v53) t
    | ⟨1, _⟩ => partial25 (V c main_v53) t.val t.isLt
  Φ _ := Pipeline.ΦA spec25 c
  q _ := fullShare
  owed _ := 0

theorem A_eq25 (c : Dev nD) (w : Fin cfg25.W) : (dat25 V c).A w = V c (Pipeline.arrRef spec25 w) := by
  dsimp only [dat25]

theorem after25_0 (c : Dev nD) (t : Fin cfg25.N) : (dat25 V c).after 0 t = rows25 (V c main_v53) t := by dsimp only [dat25]
theorem after25_1 (c : Dev nD) (t : Fin cfg25.N) : (dat25 V c).after 1 t = partial25 (V c main_v53) t.val t.isLt := by
  dsimp only [dat25]

/-- The block a fetch at row block `t` reads off the entry contents is `rows25` of them. -/
theorem fetched25 (c : Dev nD) (t : Fin cfg25.N) : (dat25 V c).blockOf 0 t = rows25 (V c main_v53) t := by
  unfold Dat.blockOf rows25; rw [A_eq25]

/-- The input's current staging buffer holds its row block at every point: the body leaves the block in place, the
    window is never idle and never cut, so fetched there or not the buffer holds what a fetch there reads. -/
theorem before25_0 (c : Dev nD) (t : Fin cfg25.N) (d) : (dat25 V c).before 0 t d = rows25 (V c main_v53) t :=
  ((dat25 V c).before_in_eq_fetched 0 rfl (fun _ => rfl) (fun _ _ _ => rfl)
    (fun u => (after25_0 V c u).trans (fetched25 V c u).symm) t d).trans (fetched25 V c t)

/-- After the first row block the accumulator's buffer holds what the body left at the block before: it is written back
    after the last block only. -/
theorem before25_1 (c : Dev nD) (t : Fin cfg25.N) (h0 : t.val ≠ 0) (d) :
    (dat25 V c).before 1 t d = partial25 (V c main_v53) (t.val - 1) (Nat.lt_of_le_of_lt (Nat.sub_le _ _) t.isLt) := by
  have hN : t.val < 10 := lt_of_lt_of_eq t.isLt (show cfg25.N = 10 from N_25)
  rw [Dat.before_out_kept _ 1 rfl t h0 (Bool.eq_false_iff.mpr fun h => by have := (flush25_1 _).mp h; dsimp only at this; omega)
    (fun _ => rfl) (fun _ _ => rfl)]
  dsimp only [dat25]

/-! ## The body obligation, at a generic point -/

/-- What the body is called with at row block `t`, -/
def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d)))

/-- and what it returns. -/
def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t))

set_option maxHeartbeats 800000 in
/-- The body at any row block: the input's buffer holds the block; at the first block the accumulator's buffer holds
    anything and the reset case applies, at a later one it holds the running statistics of the block before and the
    accumulating case applies; the invariant passes through unread; the core owes nothing throughout. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0]
  rw [show (dat25 V c).Φ t.succ = (dat25 V c).Φ t.castSucc from rfl,
    show (dat25 V c).owesAt () t.succ = (dat25 V c).owesAt () t.castSucc from rfl,
    after25_0, after25_1]
  by_cases h0 : t.val = 0
  · rw [partial25_first _ t h0]
    iintro ⟨HΦ, Ho, ⟨%d0, H0⟩, ⟨%d1, H1⟩⟩
    iapply (stats_first c Set.univ (grid25.coords t) _ _ _ _ ((hcond25 t).mpr h0) (rows25 (V c main_v53) t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [partial25_later _ t h0]
    simp only [before25_1 V c t h0]
    iintro ⟨HΦ, Ho, ⟨%d0, H0⟩, ⟨%d1, H1⟩⟩
    iapply (stats_later c Set.univ (grid25.coords t) _ _ _ _ (fun h => h0 ((hcond25 t).mp h)) (rows25 (V c main_v53) t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every row block. -/
theorem body_obligation25 (c : Dev nD) : BodyObligation (dat25 (F := F) V c) (defs₀ (F := F)) Variants.none () Set.univ := fun t => by
  rw [bigSep_W25, bigSep_W25]
  exact sound_body25 V c t

/-! ## What the two arrays hold after the run -/

/-- The activations are only read. -/
theorem in25 (c : Dev nD) : (dat25 V c).arrAt 0 cfg25.N = V c main_v53 :=
  ((dat25 V c).arrAt_in 0 rfl _).trans (A_eq25 V c 0)

/-- The accumulator's block index is (0, 0) at every row block: its offsets in the statistics array are zero. -/
theorem accOff25 (t : Fin cfg25.N) : (fun a => win25_1.index t a * main_v54.ty.shape.size a) = fun _ => 0 :=
  funext fun a => by
    have h : win25_1.index t a = 0 := by
      rcases fin_N25 t with rfl | rfl | rfl | rfl | rfl | rfl | rfl | rfl | rfl | rfl <;> fin_cases a <;> rfl
    rw [h, Nat.zero_mul]

/-- What the write-back after the last row block writes: the running statistics after that block, all of them (the
    accumulator's block is the whole [2,128] array, uncut). -/
theorem lastFlushed25 (c : Dev nD) : (dat25 V c).flushed 1 t25_9 = statsOf (V c main_v53) := by
  show (cfg25.win 1).cut (grid25.coords t25_9) ((dat25 V c).after 1 t25_9) = _
  rw [after25_1]; rfl

/-- THE VALUE: the statistics array ends holding the running statistics after the last row block. The array is written
    once, after block 9, and that write-back overwrites all of it: a write through zero offsets of the array's own sizes
    leaves the payload, whatever the array held. -/
theorem out25 (c : Dev nD) : (dat25 V c).arrAt 1 cfg25.N = statsOf (V c main_v53) := by
  have hlast : cfg25.N = t25_9.val + 1 := N_25
  rw [hlast, Dat.arrAt_succ, if_pos ((flush25_1 t25_9).mpr rfl), lastFlushed25]
  exact Memref.write_access_unit_zero_univ (Elt F) main_v54 (accOff25 t25_9)
    (fun a => by rw [congrFun (accOff25 t25_9) a]; simp) _ _

end Cert.Kernel.Hand

end
-- ==== Proof.KB.G26Body.lean ====
/-
  The normalisation kernel of the last launch, at one grid point: the body reads its block `x` of the aggregated
  features (5000 rows of 128 columns), the row `s` of per-column scales and the row `b` of per-column biases, and
  overwrites its output block with `leaky (x * s + b)`, where `leaky y` is `y` when `y ≥ 0` and
  `0.01 * y` otherwise, every operation elementwise with `s` and `b` repeated down the rows.
  This module states what the body leaves in the output block as a function of the three blocks it reads, and
  proves the body's triple at any float instance: the three inputs are handed back as found, the output holds that
  function of them whatever it held before.
-/
import proofs.«403631_j48275432407145_1_alg».proof.Proof.KB.Base
import proofs.«403631_j48275432407145_1_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-- The whole (5000,128) block: the one rectangle through which the body reads its input block and writes its
    output block. -/
abbrev rBlk : Rect S5000x128 := Rect.unit (s := S5000x128) ![0, 0] S5000x128.size inb_S5000x128_S5000x128_0_0

/-- The whole (1,128) row of per-column coefficients (the scales, the biases). -/
abbrev rRow : Rect S1x128 := Rect.unit (s := S1x128) ![0, 0] S1x128.size inb_S1x128_S1x128_0_0

/-- What the body leaves in the output block, from the input block `x`, the scales `s` and the biases `b`:
    its single store, of the rectified affine image of `x`, laid over the block. -/
def bnBlock (x : Vec F S5000x128 .f32) (s b : Vec F S1x128 .f32) : Vec F S5000x128 .f32 :=
  View.canon [⟨rBlk, k26_pay1 (View.ld x rBlk) (View.ld s rRow) (View.ld b rRow)⟩]

/-- The single store is of the whole block, so every index of the block is under it. -/
theorem cover_bnBlock (p : Vec F S5000x128 .f32) (y : S5000x128.Idx) :
    ∃ pc ∈ ([⟨rBlk, p⟩] : List (View.Piece (Elt F) S5000x128 .f32)), y ∈ pc.1.set :=
  View.cover_of_tiled [⟨rBlk, p⟩] S5000x128.size (by rfl) y

set_option maxHeartbeats 1000000 in
/-- The body on whole buffers: the input block at `x`, the scales at `s`, the biases at `b`, the output block at
    anything. It runs to the continuation with the three inputs as they were and the output at `bnBlock x s b`:
    three whole reads, a read of the output that is not used, and one whole write whose value is the payload of
    the three reads. -/
theorem sound_kernel26 (c : Dev nD) (E : Set ℕ) (i : grid26.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S5000x128 .f32) (harg4 : arg4.IsWhole)
    (x : Vec F S5000x128 .f32) (s b : Vec F S1x128 .f32) (K : PUnit → sProp 𝕄) :
    iprop(owns (c : Thread nD τ) arg1 fullShare x ∗ owns (c : Thread nD τ) arg2 fullShare s
        ∗ owns (c : Thread nD τ) arg3 fullShare b ∗ (∃ d, owns (c : Thread nD τ) arg4 fullShare d)
        ∗ (iprop(owns (c : Thread nD τ) arg1 fullShare x ∗ owns (c : Thread nD τ) arg2 fullShare s
            ∗ owns (c : Thread nD τ) arg3 fullShare b ∗ owns (c : Thread nD τ) arg4 fullShare (bnBlock x s b)) -∗ K ⟨⟩))
      ⊢ wp frame (wpE (defs₀ (F := F)) Variants.none c none) E
          (cc26__bn_leaky_kernel i arg1 harg1 arg2 harg2 arg3 harg3 arg4 harg4) K := by
  simp only [cc26__bn_leaky_kernel_eq_skeleton]; unfold cc26__bn_leaky_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs, unchanged
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output: its old contents under one store that covers the block read as that store alone
  iexists _; isplitr
  swap; · iexact H3
  ipureintro
  exact View.read_writes_eq_canon _ _ _ (cover_bnBlock _)

end Cert.Kernel.Hand

end
-- ==== Proof.KB.G26Dat.lean ====
/-
  The normalisation launch (the last pallas_call of @main), as proof data over the contents `V` its arrays hold when
  it is entered, and its VALUE.
  The launch runs the body at ten points; point `t` is handed block `t` (5000 rows) of the aggregated features,
  the one row of per-column scales and the one row of per-column biases — these two fetched once and kept — and
  writes block `t` of the result back. Nothing but the staging buffers is touched: the invariant is the scoped
  rest and the generator register, nothing is owed, every array is held whole.
  First half: each window's block read off `V`, what each staging buffer holds when the body is called and when
  it returns, and the body's obligation at every point from the body's triple.
  Second half: the result array after the ten write-backs is ONE function of the three arrays, index by index —
  `bnOf x s b i = leaky (x i * s (0, i 1) + b (0, i 1))` — because each point writes back block `t` of that function
  (the input and output blocks sit at the same rows; the coefficient rows are read at the block's own columns)
  and the ten blocks fill the 50000 rows.
-/
import proofs.«403631_j48275432407145_1_alg».proof.Proof.KB.G26Body
import proofs.«403631_j48275432407145_1_alg».proof.Proof.Gen.Kernel.Points
import Idealize.ShloMosaic.Lib.Pipeline.Frame
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

variable (V : (c : Dev nD) → (b : Ref sig .tc) → Buf (Elt F) ((c : Thread nD τ).loc b))

/-- Window `w`'s block at point `t`, read off its array as the launch finds it. -/
def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- The feature window's staging buffer holds its block at every point, for any proof data whose array is `V`'s and
    whose body leaves the block in place: the window is an input, never idle and uncut, and where it is not
    fetched its block index has not moved. -/
theorem before26_0_of {c : Dev nD} (dat : Dat τ (Elt F) Unit ℕ UC ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)

/-- The same of the row of scales: fetched at the first point only, its one block is every point's. -/
theorem before26_1_of {c : Dev nD} (dat : Dat τ (Elt F) Unit ℕ UC ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-- The same of the row of biases. -/
theorem before26_2_of {c : Dev nD} (dat : Dat τ (Elt F) Unit ℕ UC ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

/-- The launch's proof data on core `c`: the arrays as the launch finds them; after the body at point `t` each
    input's buffer at its block and the output's at `bnBlock` of the three input blocks; the invariant the scoped
    rest and the generator register, untouched; nothing owed; full shares. -/
def dat26 (c : Dev nD) : Dat τ (Elt F) Unit ℕ UC ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => bnBlock (iblk26 V c 0 t) (iblk26 V c 1 t) (iblk26 V c 2 t)
  Φ _ := Pipeline.ΦA spec26 c
  q _ := fullShare
  owed _ := 0

/-- The proof data's arrays are the entry contents. -/
theorem A_eq26 (c : Dev nD) (w : Fin cfg26.W) : (dat26 V c).A w = V c (Pipeline.arrRef spec26 w) := by
  dsimp only [dat26]

/-- What the body leaves, window by window. -/
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) :
    (dat26 V c).after 3 t = bnBlock (iblk26 V c 0 t) (iblk26 V c 1 t) (iblk26 V c 2 t) := by dsimp only [dat26]

/-- Each input's staging buffer holds its block when the body is called, fetched at that point or not. -/
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-- The four windows conjoined one by one. -/
theorem bigSep_W26 {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- What the body is called with at point `t`, the windows one by one, -/
def bodyPre26 (c : Dev nD) (t : Fin cfg26.N) : sProp 𝕄 :=
  iprop((dat26 V c).Φ t.castSucc ∗ (dat26 V c).owesAt () t.castSucc
    ∗ (∃ d, owns (c : Thread nD τ) (st26_0 t) fullShare ((dat26 V c).before 0 t d))
    ∗ (∃ d, owns (c : Thread nD τ) (st26_1 t) fullShare ((dat26 V c).before 1 t d))
    ∗ (∃ d, owns (c : Thread nD τ) (st26_2 t) fullShare ((dat26 V c).before 2 t d))
    ∗ (∃ d, owns (c : Thread nD τ) (st26_3 t) fullShare ((dat26 V c).before 3 t d)))

/-- and what it returns. -/
def bodyPost26 (c : Dev nD) (t : Fin cfg26.N) : sProp 𝕄 :=
  iprop((dat26 V c).Φ t.succ ∗ (dat26 V c).owesAt () t.succ
    ∗ owns (c : Thread nD τ) (st26_0 t) fullShare ((dat26 V c).after 0 t)
    ∗ owns (c : Thread nD τ) (st26_1 t) fullShare ((dat26 V c).after 1 t)
    ∗ owns (c : Thread nD τ) (st26_2 t) fullShare ((dat26 V c).after 2 t)
    ∗ owns (c : Thread nD τ) (st26_3 t) fullShare ((dat26 V c).after 3 t))

/-- The body at any point: the inputs' buffers hold their blocks, so the body's triple applies; the invariant and
    what the core owes pass through unread. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1, before26_2]
  rw [show (dat26 V c).Φ t.succ = (dat26 V c).Φ t.castSucc from rfl,
    show (dat26 V c).owesAt () t.succ = (dat26 V c).owesAt () t.castSucc from rfl,
    after26_0, after26_1, after26_2, after26_3]
  iintro ⟨HΦ, Ho, ⟨%d0, H0⟩, ⟨%d1, H1⟩, ⟨%d2, H2⟩, ⟨%d3, H3⟩⟩
  iapply (sound_kernel26 c Set.univ (grid26.coords t) _ _ _ _ _ _ _ _ (iblk26 V c 0 t) (iblk26 V c 1 t) (iblk26 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation26 (c : Dev nD) : BodyObligation (dat26 (F := F) V c) (defs₀ (F := F)) Variants.none () Set.univ := fun t => by
  rw [bigSep_W26, bigSep_W26]
  exact sound_body26 V c t

/-! ## The value: the output array as one function of the three arrays the launch reads -/

/-- One element of the result: the affine image `y = x * s + b`, kept where `y ≥ 0` and scaled by the
    constant `0.01` (as the single-precision word the program states) elsewhere. -/
def bnElt (x s b : F .f32) : F .f32 :=
  Scalar.select (FloatOps.cmpf .oge (FloatOps.addf (FloatOps.mulf x s) b) (Scalar.ofBits .f32 0x00000000#32))
    (FloatOps.addf (FloatOps.mulf x s) b)
    (FloatOps.mulf (Scalar.ofBits .f32 0x3C23D70A#32) (FloatOps.addf (FloatOps.mulf x s) b))

/-- The whole result, index by index: row `i 0`, column `i 1` of the features against column `i 1` of the
    scales and of the biases. -/
def bnOf (x : S50000x128.Idx → Elt F .f32) (s b : S1x128.Idx → Elt F .f32) : S50000x128.Idx → Elt F .f32 :=
  fun i => bnElt (x i) (s (ValueIdx.ix2 (0 : Fin 1) (i 1 : Fin 128))) (b (ValueIdx.ix2 (0 : Fin 1) (i 1 : Fin 128)))

/-- The body's payload at row `p`, column `q` of the block: the casts are between equal shapes, the two
    row vectors are repeated down the rows, everything else is elementwise. -/
theorem pay26_apply (v0 : Vec F S5000x128 .f32) (v2 v6 : Vec F S1x128 .f32) (p : Fin 5000) (q : Fin 128) :
    k26_pay1 v0 v2 v6 (ValueIdx.ix2 p q)
      = bnElt (v0 (ValueIdx.ix2 p q)) (v2 (ValueIdx.ix2 (0 : Fin 1) q)) (v6 (ValueIdx.ix2 (0 : Fin 1) q)) := by
  unfold k26_pay1
  simp only [shapeCast_self]
  show bnElt (v0 (ValueIdx.ix2 p q)) (broadcastTo S5000x128 v2 broadcasts_S1x128_S5000x128 (ValueIdx.ix2 p q))
      (broadcastTo S5000x128 v6 broadcasts_S1x128_S5000x128 (ValueIdx.ix2 p q)) = _
  rw [ValueIdx.broadcastTo_1b_ab_apply, ValueIdx.broadcastTo_1b_ab_apply]

/-- The origin, as the constant function. -/
theorem hz26 : (![0, 0] : Fin 2 → Nat) = fun _ => 0 := funext fun a => by fin_cases a <;> rfl

/-- The printed index maps, decided over the ten points: the input block and the output block move together
    down the rows, one block per point; the two coefficient rows stay at their only block. -/
theorem idx_facts26 : ∀ t : Fin cfg26.N, win26_3.index t (0 : Fin 2) = t.val ∧ win26_3.index t (1 : Fin 2) = 0
    ∧ win26_0.index t (0 : Fin 2) = t.val ∧ win26_0.index t (1 : Fin 2) = 0
    ∧ win26_1.index t (0 : Fin 2) = 0 ∧ win26_1.index t (1 : Fin 2) = 0
    ∧ win26_2.index t (0 : Fin 2) = 0 ∧ win26_2.index t (1 : Fin 2) = 0 :=
  (by decide +kernel : ∀ t : Fin grid26.N, _)

/-- WHAT POINT `t` WRITES BACK is block `t` of `bnOf` of the three arrays as the launch finds them. -/
theorem flushed26_eq (c : Dev nD) (t : Fin cfg26.N) :
    (dat26 V c).flushed 3 t = ((cfg26.win 3).blk t).view.read (Elt F) (bnOf (V c main_v53) (V c main_v71) (V c main_v72)) := by
  show (cfg26.win 3).cut (grid26.coords t) ((dat26 V c).after 3 t) = _
  rw [after26_3]
  unfold bnBlock
  rw [View.canon_unit_zero hz26]
  simp only [View.ld_unit_zero (S := S5000x128) hz26, View.ld_unit_zero (S := S1x128) hz26]
  obtain ⟨e30, e31, e00, e01, e10, e11, e20, e21⟩ := idx_facts26 t
  funext j
  obtain ⟨p, q, rfl⟩ : ∃ (p : Fin 5000) (q : Fin 128), j = ValueIdx.ix2 p q := ⟨j 0, j 1, ValueIdx.eq_ix2 (n0 := 5000) (n1 := 128) j⟩
  show k26_pay1 (iblk26 V c 0 t) (iblk26 V c 1 t) (iblk26 V c 2 t) (ValueIdx.ix2 p q) = _
  rw [pay26_apply]
  show bnElt (V c main_v53 (((cfg26.win 0).blk t).view.emb (ValueIdx.ix2 p q)))
      (V c main_v71 (((cfg26.win 1).blk t).view.emb (ValueIdx.ix2 (0 : Fin 1) q)))
      (V c main_v72 (((cfg26.win 2).blk t).view.emb (ValueIdx.ix2 (0 : Fin 1) q)))
    = bnElt (V c main_v53 (((cfg26.win 3).blk t).view.emb (ValueIdx.ix2 p q)))
      (V c main_v71 (ValueIdx.ix2 (0 : Fin 1) ((((cfg26.win 3).blk t).view.emb (ValueIdx.ix2 p q)) 1 : Fin 128)))
      (V c main_v72 (ValueIdx.ix2 (0 : Fin 1) ((((cfg26.win 3).blk t).view.emb (ValueIdx.ix2 p q)) 1 : Fin 128)))
  have h0 : ((cfg26.win 0).blk t).view.emb (ValueIdx.ix2 p q) = ((cfg26.win 3).blk t).view.emb (ValueIdx.ix2 p q) := by
    funext a; apply Fin.ext
    match a with
    | ⟨0, _⟩ => show win26_0.index t (0 : Fin 2) * 5000 + 1 * p.val = win26_3.index t (0 : Fin 2) * 5000 + 1 * p.val; omega
    | ⟨1, _⟩ => show win26_0.index t (1 : Fin 2) * 128 + 1 * q.val = win26_3.index t (1 : Fin 2) * 128 + 1 * q.val; omega
  have h1 : ((cfg26.win 1).blk t).view.emb (ValueIdx.ix2 (0 : Fin 1) q)
      = ValueIdx.ix2 (0 : Fin 1) ((((cfg26.win 3).blk t).view.emb (ValueIdx.ix2 p q)) 1 : Fin 128) := by
    funext a; apply Fin.ext
    match a with
    | ⟨0, _⟩ => show win26_1.index t (0 : Fin 2) * 1 + 1 * 0 = 0; omega
    | ⟨1, _⟩ => show win26_1.index t (1 : Fin 2) * 128 + 1 * q.val = win26_3.index t (1 : Fin 2) * 128 + 1 * q.val; omega
  have h2 : ((cfg26.win 2).blk t).view.emb (ValueIdx.ix2 (0 : Fin 1) q)
      = ValueIdx.ix2 (0 : Fin 1) ((((cfg26.win 3).blk t).view.emb (ValueIdx.ix2 p q)) 1 : Fin 128) := by
    funext a; apply Fin.ext
    match a with
    | ⟨0, _⟩ => show win26_2.index t (0 : Fin 2) * 1 + 1 * 0 = 0; omega
    | ⟨1, _⟩ => show win26_2.index t (1 : Fin 2) * 128 + 1 * q.val = win26_3.index t (1 : Fin 2) * 128 + 1 * q.val; omega
  rw [h0, h1, h2]
  rfl

/-- An index of the array is in point `t`'s output block iff each coordinate is in the block's range on its axis. -/
theorem mem_blk26 (t : Fin cfg26.N) (i : S50000x128.Idx) :
    i ∈ ((cfg26.win 3).blk t).view.set ↔ ∀ a : Fin 2, win26_3.index t a * S5000x128.size a ≤ (i a).val ∧ (i a).val < win26_3.index t a * S5000x128.size a + S5000x128.size a := by
  show i ∈ ((View.whole main_v73).slice (win26_3.rect t)).set ↔ _
  rw [View.set_slice_whole, Rect.mem_set_unit]
  exact Iff.rfl

/-- The ten output blocks, 5000 rows each, fill the 50000 rows: every index is in the block of the point its row
    falls in. -/
theorem cover26 (i : S50000x128.Idx) : ∃ t : Fin cfg26.N, (cfg26.win 3).flush t = true ∧ i ∈ ((cfg26.win 3).blk t).view.set := by
  have hi0 : (i 0).val < 50000 := (i 0).isLt
  have hi1 : (i 1).val < 128 := (i 1).isLt
  have hN : cfg26.N = 10 := N_26
  let t : Fin cfg26.N := ⟨(i 0).val / 5000, by rw [hN]; omega⟩
  obtain ⟨e30, e31, -⟩ := idx_facts26 t
  have e30' : win26_3.index t (0 : Fin 2) = (i 0).val / 5000 := e30
  refine ⟨t, flush26_3 t, ?_⟩
  rw [mem_blk26]
  intro a
  match a with
  | ⟨0, _⟩ => show win26_3.index t (0 : Fin 2) * 5000 ≤ (i 0).val ∧ (i 0).val < win26_3.index t (0 : Fin 2) * 5000 + 5000; omega
  | ⟨1, _⟩ => show win26_3.index t (1 : Fin 2) * 128 ≤ (i 1).val ∧ (i 1).val < win26_3.index t (1 : Fin 2) * 128 + 128; omega

/-- THE OUTPUT ARRAY after the launch: `bnOf` of the features, the scales and the biases as the launch finds them. -/
theorem out26 (c : Dev nD) : (dat26 V c).arrAt 3 cfg26.N = bnOf (V c main_v53) (V c main_v71) (V c main_v72) :=
  (dat26 V c).arrAt_eq_of_cover 3 _ (fun t _ => flushed26_eq V c t) cover26

end Cert.Kernel.Hand

end
-- ==== Proof.KB.ChainDefs.lean ====
/-
  THE BUFFERS BETWEEN @main'S ITEMS. @main is 27 host stretches alternating with 27 kernel launches. Between two items
  every unscoped buffer of the core holds a definite array; this module names them: W0 is the launch memory, an odd step
  applies a host stretch's operations (transpose and slice of the neighbour table, the concatenations, the batch-norm
  arithmetic), an even step replaces ONE buffer, the launch's output array, by what the launch's pipeline leaves there
  (its proof data's array after the last write-back). A gather launch K < 25 also reads its prefetched table, the
  [16, 2000] slice of the transposed neighbour table the preceding stretch wrote: that slice, as the contents the
  pipeline is pinned at, is admK. The proof data of all launches at these entry contents form the family the run
  is stated over; the unknowns of the generated chain of valuations are set to these arrays.
-/
import proofs.«403631_j48275432407145_1_alg».proof.Proof.KB.Base
import proofs.«403631_j48275432407145_1_alg».proof.Proof.KB.RegionsP
import proofs.«403631_j48275432407145_1_alg».proof.Proof.KB.G0Dat
import proofs.«403631_j48275432407145_1_alg».proof.Proof.KB.G1Dat
import proofs.«403631_j48275432407145_1_alg».proof.Proof.KB.G2Dat
import proofs.«403631_j48275432407145_1_alg».proof.Proof.KB.G3Dat
import proofs.«403631_j48275432407145_1_alg».proof.Proof.KB.G4Dat
import proofs.«403631_j48275432407145_1_alg».proof.Proof.KB.G5Dat
import proofs.«403631_j48275432407145_1_alg».proof.Proof.KB.G6Dat
import proofs.«403631_j48275432407145_1_alg».proof.Proof.KB.G7Dat
import proofs.«403631_j48275432407145_1_alg».proof.Proof.KB.G8Dat
import proofs.«403631_j48275432407145_1_alg».proof.Proof.KB.G9Dat
import proofs.«403631_j48275432407145_1_alg».proof.Proof.KB.G10Dat
import proofs.«403631_j48275432407145_1_alg».proof.Proof.KB.G11Dat
import proofs.«403631_j48275432407145_1_alg».proof.Proof.KB.G12Dat
import proofs.«403631_j48275432407145_1_alg».proof.Proof.KB.G13Dat
import proofs.«403631_j48275432407145_1_alg».proof.Proof.KB.G14Dat
import proofs.«403631_j48275432407145_1_alg».proof.Proof.KB.G15Dat
import proofs.«403631_j48275432407145_1_alg».proof.Proof.KB.G16Dat
import proofs.«403631_j48275432407145_1_alg».proof.Proof.KB.G17Dat
import proofs.«403631_j48275432407145_1_alg».proof.Proof.KB.G18Dat
import proofs.«403631_j48275432407145_1_alg».proof.Proof.KB.G19Dat
import proofs.«403631_j48275432407145_1_alg».proof.Proof.KB.G20Dat
import proofs.«403631_j48275432407145_1_alg».proof.Proof.KB.G21Dat
import proofs.«403631_j48275432407145_1_alg».proof.Proof.KB.G22Dat
import proofs.«403631_j48275432407145_1_alg».proof.Proof.KB.G23Dat
import proofs.«403631_j48275432407145_1_alg».proof.Proof.KB.G24Dat
import proofs.«403631_j48275432407145_1_alg».proof.Proof.KB.G25Dat
import proofs.«403631_j48275432407145_1_alg».proof.Proof.KB.G26Dat

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

/-! ## What each launch leaves in its output array, from any entry contents (and any table) -/

/-- Launch 0's output array main_v2 after its last write-back. -/
def O0 (V : (c : Dev nD) → (b : Ref sig .tc) → Buf (Elt F) ((c : Thread nD τ).loc b)) (a : (pcfg0 (F := F)).Adm) (c : Dev nD) : Buf (Elt F) ((c : Thread nD τ).loc main_v2) := (dat0 V a c).arrAt 1 (cfg0 a).N
theorem O0_eq (V : (c : Dev nD) → (b : Ref sig .tc) → Buf (Elt F) ((c : Thread nD τ).loc b)) (a : (pcfg0 (F := F)).Adm) (c : Dev nD) : O0 V a c = (dat0 V a c).arrAt 1 (cfg0 a).N := rfl
/-- Launch 1's output array main_v4 after its last write-back. -/
def O1 (V : (c : Dev nD) → (b : Ref sig .tc) → Buf (Elt F) ((c : Thread nD τ).loc b)) (a : (pcfg1 (F := F)).Adm) (c : Dev nD) : Buf (Elt F) ((c : Thread nD τ).loc main_v4) := (dat1 V a c).arrAt 1 (cfg1 a).N
theorem O1_eq (V : (c : Dev nD) → (b : Ref sig .tc) → Buf (Elt F) ((c : Thread nD τ).loc b)) (a : (pcfg1 (F := F)).Adm) (c : Dev nD) : O1 V a c = (dat1 V a c).arrAt 1 (cfg1 a).N := rfl
/-- Launch 2's output array main_v6 after its last write-back. -/
def O2 (V : (c : Dev nD) → (b : Ref sig .tc) → Buf (Elt F) ((c : Thread nD τ).loc b)) (a : (pcfg2 (F := F)).Adm) (c : Dev nD) : Buf (Elt F) ((c : Thread nD τ).loc main_v6) := (dat2 V a c).arrAt 1 (cfg2 a).N
theorem O2_eq (V : (c : Dev nD) → (b : Ref sig .tc) → Buf (Elt F) ((c : Thread nD τ).loc b)) (a : (pcfg2 (F := F)).Adm) (c : Dev nD) : O2 V a c = (dat2 V a c).arrAt 1 (cfg2 a).N := rfl
/-- Launch 3's output array main_v8 after its last write-back. -/
def O3 (V : (c : Dev nD) → (b : Ref sig .tc) → Buf (Elt F) ((c : Thread nD τ).loc b)) (a : (pcfg3 (F := F)).Adm) (c : Dev nD) : Buf (Elt F) ((c : Thread nD τ).loc main_v8) := (dat3 V a c).arrAt 1 (cfg3 a).N
theorem O3_eq (V : (c : Dev nD) → (b : Ref sig .tc) → Buf (Elt F) ((c : Thread nD τ).loc b)) (a : (pcfg3 (F := F)).Adm) (c : Dev nD) : O3 V a c = (dat3 V a c).arrAt 1 (cfg3 a).N := rfl
/-- Launch 4's output array main_v10 after its last write-back. -/
def O4 (V : (c : Dev nD) → (b : Ref sig .tc) → Buf (Elt F) ((c : Thread nD τ).loc b)) (a : (pcfg4 (F := F)).Adm) (c : Dev nD) : Buf (Elt F) ((c : Thread nD τ).loc main_v10) := (dat4 V a c).arrAt 1 (cfg4 a).N
theorem O4_eq (V : (c : Dev nD) → (b : Ref sig .tc) → Buf (Elt F) ((c : Thread nD τ).loc b)) (a : (pcfg4 (F := F)).Adm) (c : Dev nD) : O4 V a c = (dat4 V a c).arrAt 1 (cfg4 a).N := rfl
/-- Launch 5's output array main_v12 after its last write-back. -/
def O5 (V : (c : Dev nD) → (b : Ref sig .tc) → Buf (Elt F) ((c : Thread nD τ).loc b)) (a : (pcfg5 (F := F)).Adm) (c : Dev nD) : Buf (Elt F) ((c : Thread nD τ).loc main_v12) := (dat5 V a c).arrAt 1 (cfg5 a).N
theorem O5_eq (V : (c : Dev nD) → (b : Ref sig .tc) → Buf (Elt F) ((c : Thread nD τ).loc b)) (a : (pcfg5 (F := F)).Adm) (c : Dev nD) : O5 V a c = (dat5 V a c).arrAt 1 (cfg5 a).N := rfl
/-- Launch 6's output array main_v14 after its last write-back. -/
def O6 (V : (c : Dev nD) → (b : Ref sig .tc) → Buf (Elt F) ((c : Thread nD τ).loc b)) (a : (pcfg6 (F := F)).Adm) (c : Dev nD) : Buf (Elt F) ((c : Thread nD τ).loc main_v14) := (dat6 V a c).arrAt 1 (cfg6 a).N
theorem O6_eq (V : (c : Dev nD) → (b : Ref sig .tc) → Buf (Elt F) ((c : Thread nD τ).loc b)) (a : (pcfg6 (F := F)).Adm) (c : Dev nD) : O6 V a c = (dat6 V a c).arrAt 1 (cfg6 a).N := rfl
/-- Launch 7's output array main_v16 after its last write-back. -/
def O7 (V : (c : Dev nD) → (b : Ref sig .tc) → Buf (Elt F) ((c : Thread nD τ).loc b)) (a : (pcfg7 (F := F)).Adm) (c : Dev nD) : Buf (Elt F) ((c : Thread nD τ).loc main_v16) := (dat7 V a c).arrAt 1 (cfg7 a).N
theorem O7_eq (V : (c : Dev nD) → (b : Ref sig .tc) → Buf (Elt F) ((c : Thread nD τ).loc b)) (a : (pcfg7 (F := F)).Adm) (c : Dev nD) : O7 V a c = (dat7 V a c).arrAt 1 (cfg7 a).N := rfl
/-- Launch 8's output array main_v18 after its last write-back. -/
def O8 (V : (c : Dev nD) → (b : Ref sig .tc) → Buf (Elt F) ((c : Thread nD τ).loc b)) (a : (pcfg8 (F := F)).Adm) (c : Dev nD) : Buf (Elt F) ((c : Thread nD τ).loc main_v18) := (dat8 V a c).arrAt 1 (cfg8 a).N
theorem O8_eq (V : (c : Dev nD) → (b : Ref sig .tc) → Buf (Elt F) ((c : Thread nD τ).loc b)) (a : (pcfg8 (F := F)).Adm) (c : Dev nD) : O8 V a c = (dat8 V a c).arrAt 1 (cfg8 a).N := rfl
/-- Launch 9's output array main_v20 after its last write-back. -/
def O9 (V : (c : Dev nD) → (b : Ref sig .tc) → Buf (Elt F) ((c : Thread nD τ).loc b)) (a : (pcfg9 (F := F)).Adm) (c : Dev nD) : Buf (Elt F) ((c : Thread nD τ).loc main_v20) := (dat9 V a c).arrAt 1 (cfg9 a).N
theorem O9_eq (V : (c : Dev nD) → (b : Ref sig .tc) → Buf (Elt F) ((c : Thread nD τ).loc b)) (a : (pcfg9 (F := F)).Adm) (c : Dev nD) : O9 V a c = (dat9 V a c).arrAt 1 (cfg9 a).N := rfl
/-- Launch 10's output array main_v22 after its last write-back. -/
def O10 (V : (c : Dev nD) → (b : Ref sig .tc) → Buf (Elt F) ((c : Thread nD τ).loc b)) (a : (pcfg10 (F := F)).Adm) (c : Dev nD) : Buf (Elt F) ((c : Thread nD τ).loc main_v22) := (dat10 V a c).arrAt 1 (cfg10 a).N
theorem O10_eq (V : (c : Dev nD) → (b : Ref sig .tc) → Buf (Elt F) ((c : Thread nD τ).loc b)) (a : (pcfg10 (F := F)).Adm) (c : Dev nD) : O10 V a c = (dat10 V a c).arrAt 1 (cfg10 a).N := rfl
/-- Launch 11's output array main_v24 after its last write-back. -/
def O11 (V : (c : Dev nD) → (b : Ref sig .tc) → Buf (Elt F) ((c : Thread nD τ).loc b)) (a : (pcfg11 (F := F)).Adm) (c : Dev nD) : Buf (Elt F) ((c : Thread nD τ).loc main_v24) := (dat11 V a c).arrAt 1 (cfg11 a).N
theorem O11_eq (V : (c : Dev nD) → (b : Ref sig .tc) → Buf (Elt F) ((c : Thread nD τ).loc b)) (a : (pcfg11 (F := F)).Adm) (c : Dev nD) : O11 V a c = (dat11 V a c).arrAt 1 (cfg11 a).N := rfl
/-- Launch 12's output array main_v26 after its last write-back. -/
def O12 (V : (c : Dev nD) → (b : Ref sig .tc) → Buf (Elt F) ((c : Thread nD τ).loc b)) (a : (pcfg12 (F := F)).Adm) (c : Dev nD) : Buf (Elt F) ((c : Thread nD τ).loc main_v26) := (dat12 V a c).arrAt 1 (cfg12 a).N
theorem O12_eq (V : (c : Dev nD) → (b : Ref sig .tc) → Buf (Elt F) ((c : Thread nD τ).loc b)) (a : (pcfg12 (F := F)).Adm) (c : Dev nD) : O12 V a c = (dat12 V a c).arrAt 1 (cfg12 a).N := rfl
/-- Launch 13's output array main_v28 after its last write-back. -/
def O13 (V : (c : Dev nD) → (b : Ref sig .tc) → Buf (Elt F) ((c : Thread nD τ).loc b)) (a : (pcfg13 (F := F)).Adm) (c : Dev nD) : Buf (Elt F) ((c : Thread nD τ).loc main_v28) := (dat13 V a c).arrAt 1 (cfg13 a).N
theorem O13_eq (V : (c : Dev nD) → (b : Ref sig .tc) → Buf (Elt F) ((c : Thread nD τ).loc b)) (a : (pcfg13 (F := F)).Adm) (c : Dev nD) : O13 V a c = (dat13 V a c).arrAt 1 (cfg13 a).N := rfl
/-- Launch 14's output array main_v30 after its last write-back. -/
def O14 (V : (c : Dev nD) → (b : Ref sig .tc) → Buf (Elt F) ((c : Thread nD τ).loc b)) (a : (pcfg14 (F := F)).Adm) (c : Dev nD) : Buf (Elt F) ((c : Thread nD τ).loc main_v30) := (dat14 V a c).arrAt 1 (cfg14 a).N
theorem O14_eq (V : (c : Dev nD) → (b : Ref sig .tc) → Buf (Elt F) ((c : Thread nD τ).loc b)) (a : (pcfg14 (F := F)).Adm) (c : Dev nD) : O14 V a c = (dat14 V a c).arrAt 1 (cfg14 a).N := rfl
/-- Launch 15's output array main_v32 after its last write-back. -/
def O15 (V : (c : Dev nD) → (b : Ref sig .tc) → Buf (Elt F) ((c : Thread nD τ).loc b)) (a : (pcfg15 (F := F)).Adm) (c : Dev nD) : Buf (Elt F) ((c : Thread nD τ).loc main_v32) := (dat15 V a c).arrAt 1 (cfg15 a).N
theorem O15_eq (V : (c : Dev nD) → (b : Ref sig .tc) → Buf (Elt F) ((c : Thread nD τ).loc b)) (a : (pcfg15 (F := F)).Adm) (c : Dev nD) : O15 V a c = (dat15 V a c).arrAt 1 (cfg15 a).N := rfl
/-- Launch 16's output array main_v34 after its last write-back. -/
def O16 (V : (c : Dev nD) → (b : Ref sig .tc) → Buf (Elt F) ((c : Thread nD τ).loc b)) (a : (pcfg16 (F := F)).Adm) (c : Dev nD) : Buf (Elt F) ((c : Thread nD τ).loc main_v34) := (dat16 V a c).arrAt 1 (cfg16 a).N
theorem O16_eq (V : (c : Dev nD) → (b : Ref sig .tc) → Buf (Elt F) ((c : Thread nD τ).loc b)) (a : (pcfg16 (F := F)).Adm) (c : Dev nD) : O16 V a c = (dat16 V a c).arrAt 1 (cfg16 a).N := rfl
/-- Launch 17's output array main_v36 after its last write-back. -/
def O17 (V : (c : Dev nD) → (b : Ref sig .tc) → Buf (Elt F) ((c : Thread nD τ).loc b)) (a : (pcfg17 (F := F)).Adm) (c : Dev nD) : Buf (Elt F) ((c : Thread nD τ).loc main_v36) := (dat17 V a c).arrAt 1 (cfg17 a).N
theorem O17_eq (V : (c : Dev nD) → (b : Ref sig .tc) → Buf (Elt F) ((c : Thread nD τ).loc b)) (a : (pcfg17 (F := F)).Adm) (c : Dev nD) : O17 V a c = (dat17 V a c).arrAt 1 (cfg17 a).N := rfl
/-- Launch 18's output array main_v38 after its last write-back. -/
def O18 (V : (c : Dev nD) → (b : Ref sig .tc) → Buf (Elt F) ((c : Thread nD τ).loc b)) (a : (pcfg18 (F := F)).Adm) (c : Dev nD) : Buf (Elt F) ((c : Thread nD τ).loc main_v38) := (dat18 V a c).arrAt 1 (cfg18 a).N
theorem O18_eq (V : (c : Dev nD) → (b : Ref sig .tc) → Buf (Elt F) ((c : Thread nD τ).loc b)) (a : (pcfg18 (F := F)).Adm) (c : Dev nD) : O18 V a c = (dat18 V a c).arrAt 1 (cfg18 a).N := rfl
/-- Launch 19's output array main_v40 after its last write-back. -/
def O19 (V : (c : Dev nD) → (b : Ref sig .tc) → Buf (Elt F) ((c : Thread nD τ).loc b)) (a : (pcfg19 (F := F)).Adm) (c : Dev nD) : Buf (Elt F) ((c : Thread nD τ).loc main_v40) := (dat19 V a c).arrAt 1 (cfg19 a).N
theorem O19_eq (V : (c : Dev nD) → (b : Ref sig .tc) → Buf (Elt F) ((c : Thread nD τ).loc b)) (a : (pcfg19 (F := F)).Adm) (c : Dev nD) : O19 V a c = (dat19 V a c).arrAt 1 (cfg19 a).N := rfl
/-- Launch 20's output array main_v42 after its last write-back. -/
def O20 (V : (c : Dev nD) → (b : Ref sig .tc) → Buf (Elt F) ((c : Thread nD τ).loc b)) (a : (pcfg20 (F := F)).Adm) (c : Dev nD) : Buf (Elt F) ((c : Thread nD τ).loc main_v42) := (dat20 V a c).arrAt 1 (cfg20 a).N
theorem O20_eq (V : (c : Dev nD) → (b : Ref sig .tc) → Buf (Elt F) ((c : Thread nD τ).loc b)) (a : (pcfg20 (F := F)).Adm) (c : Dev nD) : O20 V a c = (dat20 V a c).arrAt 1 (cfg20 a).N := rfl
/-- Launch 21's output array main_v44 after its last write-back. -/
def O21 (V : (c : Dev nD) → (b : Ref sig .tc) → Buf (Elt F) ((c : Thread nD τ).loc b)) (a : (pcfg21 (F := F)).Adm) (c : Dev nD) : Buf (Elt F) ((c : Thread nD τ).loc main_v44) := (dat21 V a c).arrAt 1 (cfg21 a).N
theorem O21_eq (V : (c : Dev nD) → (b : Ref sig .tc) → Buf (Elt F) ((c : Thread nD τ).loc b)) (a : (pcfg21 (F := F)).Adm) (c : Dev nD) : O21 V a c = (dat21 V a c).arrAt 1 (cfg21 a).N := rfl
/-- Launch 22's output array main_v46 after its last write-back. -/
def O22 (V : (c : Dev nD) → (b : Ref sig .tc) → Buf (Elt F) ((c : Thread nD τ).loc b)) (a : (pcfg22 (F := F)).Adm) (c : Dev nD) : Buf (Elt F) ((c : Thread nD τ).loc main_v46) := (dat22 V a c).arrAt 1 (cfg22 a).N
theorem O22_eq (V : (c : Dev nD) → (b : Ref sig .tc) → Buf (Elt F) ((c : Thread nD τ).loc b)) (a : (pcfg22 (F := F)).Adm) (c : Dev nD) : O22 V a c = (dat22 V a c).arrAt 1 (cfg22 a).N := rfl
/-- Launch 23's output array main_v48 after its last write-back. -/
def O23 (V : (c : Dev nD) → (b : Ref sig .tc) → Buf (Elt F) ((c : Thread nD τ).loc b)) (a : (pcfg23 (F := F)).Adm) (c : Dev nD) : Buf (Elt F) ((c : Thread nD τ).loc main_v48) := (dat23 V a c).arrAt 1 (cfg23 a).N
theorem O23_eq (V : (c : Dev nD) → (b : Ref sig .tc) → Buf (Elt F) ((c : Thread nD τ).loc b)) (a : (pcfg23 (F := F)).Adm) (c : Dev nD) : O23 V a c = (dat23 V a c).arrAt 1 (cfg23 a).N := rfl
/-- Launch 24's output array main_v50 after its last write-back. -/
def O24 (V : (c : Dev nD) → (b : Ref sig .tc) → Buf (Elt F) ((c : Thread nD τ).loc b)) (a : (pcfg24 (F := F)).Adm) (c : Dev nD) : Buf (Elt F) ((c : Thread nD τ).loc main_v50) := (dat24 V a c).arrAt 1 (cfg24 a).N
theorem O24_eq (V : (c : Dev nD) → (b : Ref sig .tc) → Buf (Elt F) ((c : Thread nD τ).loc b)) (a : (pcfg24 (F := F)).Adm) (c : Dev nD) : O24 V a c = (dat24 V a c).arrAt 1 (cfg24 a).N := rfl
/-- Launch 25's output array main_v54 after its last write-back. -/
def O25 (V : (c : Dev nD) → (b : Ref sig .tc) → Buf (Elt F) ((c : Thread nD τ).loc b)) (c : Dev nD) : Buf (Elt F) ((c : Thread nD τ).loc main_v54) := (dat25 V c).arrAt 1 cfg25.N
theorem O25_eq (V : (c : Dev nD) → (b : Ref sig .tc) → Buf (Elt F) ((c : Thread nD τ).loc b)) (c : Dev nD) : O25 V c = (dat25 V c).arrAt 1 cfg25.N := rfl
/-- Launch 26's output array main_v73 after its last write-back. -/
def O26 (V : (c : Dev nD) → (b : Ref sig .tc) → Buf (Elt F) ((c : Thread nD τ).loc b)) (c : Dev nD) : Buf (Elt F) ((c : Thread nD τ).loc main_v73) := (dat26 V c).arrAt 3 cfg26.N
theorem O26_eq (V : (c : Dev nD) → (b : Ref sig .tc) → Buf (Elt F) ((c : Thread nD τ).loc b)) (c : Dev nD) : O26 V c = (dat26 V c).arrAt 3 cfg26.N := rfl

variable (m : (ℓ : Loc nD τ sig) → Buf (Elt F) ℓ)

/-! ## The chain of contents -/

/-- The core's unscoped buffers at launch. -/
def W0 (c : Dev nD) : Valuation τ sig (Elt F) := fun b => m (c, b)
/-- After host stretch 0. -/
def W1 (c : Dev nD) : Valuation τ sig (Elt F) := StableHlo.after hostOps0 (W0 m c)
/-- Launch 0's entry contents, read at the core's references. -/
abbrev En0 : (c : Dev nD) → (b : Ref sig .tc) → Buf (Elt F) ((c : Thread nD τ).loc b) := fun c b => W1 m c b
/-- Launch 0's prefetched table: main_v1 as the preceding stretch wrote it (one device). -/
def adm0 : (pcfg0 (F := F)).Adm := ⟨fun k => W1 m 0 (pre0.ref k), trivial⟩
/-- After launch 0: main_v2 replaced by what the pipeline leaves. -/
def W2 (c : Dev nD) : Valuation τ sig (Elt F) := Function.update (W1 m c) main_v2 (O0 (En0 m) (adm0 m) c)
/-- After host stretch 1. -/
def W3 (c : Dev nD) : Valuation τ sig (Elt F) := StableHlo.after hostOps1 (W2 m c)
/-- Launch 1's entry contents, read at the core's references. -/
abbrev En1 : (c : Dev nD) → (b : Ref sig .tc) → Buf (Elt F) ((c : Thread nD τ).loc b) := fun c b => W3 m c b
/-- Launch 1's prefetched table: main_v3 as the preceding stretch wrote it (one device). -/
def adm1 : (pcfg1 (F := F)).Adm := ⟨fun k => W3 m 0 (pre1.ref k), trivial⟩
/-- After launch 1: main_v4 replaced by what the pipeline leaves. -/
def W4 (c : Dev nD) : Valuation τ sig (Elt F) := Function.update (W3 m c) main_v4 (O1 (En1 m) (adm1 m) c)
/-- After host stretch 2. -/
def W5 (c : Dev nD) : Valuation τ sig (Elt F) := StableHlo.after hostOps2 (W4 m c)
/-- Launch 2's entry contents, read at the core's references. -/
abbrev En2 : (c : Dev nD) → (b : Ref sig .tc) → Buf (Elt F) ((c : Thread nD τ).loc b) := fun c b => W5 m c b
/-- Launch 2's prefetched table: main_v5 as the preceding stretch wrote it (one device). -/
def adm2 : (pcfg2 (F := F)).Adm := ⟨fun k => W5 m 0 (pre2.ref k), trivial⟩
/-- After launch 2: main_v6 replaced by what the pipeline leaves. -/
def W6 (c : Dev nD) : Valuation τ sig (Elt F) := Function.update (W5 m c) main_v6 (O2 (En2 m) (adm2 m) c)
/-- After host stretch 3. -/
def W7 (c : Dev nD) : Valuation τ sig (Elt F) := StableHlo.after hostOps3 (W6 m c)
/-- Launch 3's entry contents, read at the core's references. -/
abbrev En3 : (c : Dev nD) → (b : Ref sig .tc) → Buf (Elt F) ((c : Thread nD τ).loc b) := fun c b => W7 m c b
/-- Launch 3's prefetched table: main_v7 as the preceding stretch wrote it (one device). -/
def adm3 : (pcfg3 (F := F)).Adm := ⟨fun k => W7 m 0 (pre3.ref k), trivial⟩
/-- After launch 3: main_v8 replaced by what the pipeline leaves. -/
def W8 (c : Dev nD) : Valuation τ sig (Elt F) := Function.update (W7 m c) main_v8 (O3 (En3 m) (adm3 m) c)
/-- After host stretch 4. -/
def W9 (c : Dev nD) : Valuation τ sig (Elt F) := StableHlo.after hostOps4 (W8 m c)
/-- Launch 4's entry contents, read at the core's references. -/
abbrev En4 : (c : Dev nD) → (b : Ref sig .tc) → Buf (Elt F) ((c : Thread nD τ).loc b) := fun c b => W9 m c b
/-- Launch 4's prefetched table: main_v9 as the preceding stretch wrote it (one device). -/
def adm4 : (pcfg4 (F := F)).Adm := ⟨fun k => W9 m 0 (pre4.ref k), trivial⟩
/-- After launch 4: main_v10 replaced by what the pipeline leaves. -/
def W10 (c : Dev nD) : Valuation τ sig (Elt F) := Function.update (W9 m c) main_v10 (O4 (En4 m) (adm4 m) c)
/-- After host stretch 5. -/
def W11 (c : Dev nD) : Valuation τ sig (Elt F) := StableHlo.after hostOps5 (W10 m c)
/-- Launch 5's entry contents, read at the core's references. -/
abbrev En5 : (c : Dev nD) → (b : Ref sig .tc) → Buf (Elt F) ((c : Thread nD τ).loc b) := fun c b => W11 m c b
/-- Launch 5's prefetched table: main_v11 as the preceding stretch wrote it (one device). -/
def adm5 : (pcfg5 (F := F)).Adm := ⟨fun k => W11 m 0 (pre5.ref k), trivial⟩
/-- After launch 5: main_v12 replaced by what the pipeline leaves. -/
def W12 (c : Dev nD) : Valuation τ sig (Elt F) := Function.update (W11 m c) main_v12 (O5 (En5 m) (adm5 m) c)
/-- After host stretch 6. -/
def W13 (c : Dev nD) : Valuation τ sig (Elt F) := StableHlo.after hostOps6 (W12 m c)
/-- Launch 6's entry contents, read at the core's references. -/
abbrev En6 : (c : Dev nD) → (b : Ref sig .tc) → Buf (Elt F) ((c : Thread nD τ).loc b) := fun c b => W13 m c b
/-- Launch 6's prefetched table: main_v13 as the preceding stretch wrote it (one device). -/
def adm6 : (pcfg6 (F := F)).Adm := ⟨fun k => W13 m 0 (pre6.ref k), trivial⟩
/-- After launch 6: main_v14 replaced by what the pipeline leaves. -/
def W14 (c : Dev nD) : Valuation τ sig (Elt F) := Function.update (W13 m c) main_v14 (O6 (En6 m) (adm6 m) c)
/-- After host stretch 7. -/
def W15 (c : Dev nD) : Valuation τ sig (Elt F) := StableHlo.after hostOps7 (W14 m c)
/-- Launch 7's entry contents, read at the core's references. -/
abbrev En7 : (c : Dev nD) → (b : Ref sig .tc) → Buf (Elt F) ((c : Thread nD τ).loc b) := fun c b => W15 m c b
/-- Launch 7's prefetched table: main_v15 as the preceding stretch wrote it (one device). -/
def adm7 : (pcfg7 (F := F)).Adm := ⟨fun k => W15 m 0 (pre7.ref k), trivial⟩
/-- After launch 7: main_v16 replaced by what the pipeline leaves. -/
def W16 (c : Dev nD) : Valuation τ sig (Elt F) := Function.update (W15 m c) main_v16 (O7 (En7 m) (adm7 m) c)
/-- After host stretch 8. -/
def W17 (c : Dev nD) : Valuation τ sig (Elt F) := StableHlo.after hostOps8 (W16 m c)
/-- Launch 8's entry contents, read at the core's references. -/
abbrev En8 : (c : Dev nD) → (b : Ref sig .tc) → Buf (Elt F) ((c : Thread nD τ).loc b) := fun c b => W17 m c b
/-- Launch 8's prefetched table: main_v17 as the preceding stretch wrote it (one device). -/
def adm8 : (pcfg8 (F := F)).Adm := ⟨fun k => W17 m 0 (pre8.ref k), trivial⟩
/-- After launch 8: main_v18 replaced by what the pipeline leaves. -/
def W18 (c : Dev nD) : Valuation τ sig (Elt F) := Function.update (W17 m c) main_v18 (O8 (En8 m) (adm8 m) c)
/-- After host stretch 9. -/
def W19 (c : Dev nD) : Valuation τ sig (Elt F) := StableHlo.after hostOps9 (W18 m c)
/-- Launch 9's entry contents, read at the core's references. -/
abbrev En9 : (c : Dev nD) → (b : Ref sig .tc) → Buf (Elt F) ((c : Thread nD τ).loc b) := fun c b => W19 m c b
/-- Launch 9's prefetched table: main_v19 as the preceding stretch wrote it (one device). -/
def adm9 : (pcfg9 (F := F)).Adm := ⟨fun k => W19 m 0 (pre9.ref k), trivial⟩
/-- After launch 9: main_v20 replaced by what the pipeline leaves. -/
def W20 (c : Dev nD) : Valuation τ sig (Elt F) := Function.update (W19 m c) main_v20 (O9 (En9 m) (adm9 m) c)
/-- After host stretch 10. -/
def W21 (c : Dev nD) : Valuation τ sig (Elt F) := StableHlo.after hostOps10 (W20 m c)
/-- Launch 10's entry contents, read at the core's references. -/
abbrev En10 : (c : Dev nD) → (b : Ref sig .tc) → Buf (Elt F) ((c : Thread nD τ).loc b) := fun c b => W21 m c b
/-- Launch 10's prefetched table: main_v21 as the preceding stretch wrote it (one device). -/
def adm10 : (pcfg10 (F := F)).Adm := ⟨fun k => W21 m 0 (pre10.ref k), trivial⟩
/-- After launch 10: main_v22 replaced by what the pipeline leaves. -/
def W22 (c : Dev nD) : Valuation τ sig (Elt F) := Function.update (W21 m c) main_v22 (O10 (En10 m) (adm10 m) c)
/-- After host stretch 11. -/
def W23 (c : Dev nD) : Valuation τ sig (Elt F) := StableHlo.after hostOps11 (W22 m c)
/-- Launch 11's entry contents, read at the core's references. -/
abbrev En11 : (c : Dev nD) → (b : Ref sig .tc) → Buf (Elt F) ((c : Thread nD τ).loc b) := fun c b => W23 m c b
/-- Launch 11's prefetched table: main_v23 as the preceding stretch wrote it (one device). -/
def adm11 : (pcfg11 (F := F)).Adm := ⟨fun k => W23 m 0 (pre11.ref k), trivial⟩
/-- After launch 11: main_v24 replaced by what the pipeline leaves. -/
def W24 (c : Dev nD) : Valuation τ sig (Elt F) := Function.update (W23 m c) main_v24 (O11 (En11 m) (adm11 m) c)
/-- After host stretch 12. -/
def W25 (c : Dev nD) : Valuation τ sig (Elt F) := StableHlo.after hostOps12 (W24 m c)
/-- Launch 12's entry contents, read at the core's references. -/
abbrev En12 : (c : Dev nD) → (b : Ref sig .tc) → Buf (Elt F) ((c : Thread nD τ).loc b) := fun c b => W25 m c b
/-- Launch 12's prefetched table: main_v25 as the preceding stretch wrote it (one device). -/
def adm12 : (pcfg12 (F := F)).Adm := ⟨fun k => W25 m 0 (pre12.ref k), trivial⟩
/-- After launch 12: main_v26 replaced by what the pipeline leaves. -/
def W26 (c : Dev nD) : Valuation τ sig (Elt F) := Function.update (W25 m c) main_v26 (O12 (En12 m) (adm12 m) c)
/-- After host stretch 13. -/
def W27 (c : Dev nD) : Valuation τ sig (Elt F) := StableHlo.after hostOps13 (W26 m c)
/-- Launch 13's entry contents, read at the core's references. -/
abbrev En13 : (c : Dev nD) → (b : Ref sig .tc) → Buf (Elt F) ((c : Thread nD τ).loc b) := fun c b => W27 m c b
/-- Launch 13's prefetched table: main_v27 as the preceding stretch wrote it (one device). -/
def adm13 : (pcfg13 (F := F)).Adm := ⟨fun k => W27 m 0 (pre13.ref k), trivial⟩
/-- After launch 13: main_v28 replaced by what the pipeline leaves. -/
def W28 (c : Dev nD) : Valuation τ sig (Elt F) := Function.update (W27 m c) main_v28 (O13 (En13 m) (adm13 m) c)
/-- After host stretch 14. -/
def W29 (c : Dev nD) : Valuation τ sig (Elt F) := StableHlo.after hostOps14 (W28 m c)
/-- Launch 14's entry contents, read at the core's references. -/
abbrev En14 : (c : Dev nD) → (b : Ref sig .tc) → Buf (Elt F) ((c : Thread nD τ).loc b) := fun c b => W29 m c b
/-- Launch 14's prefetched table: main_v29 as the preceding stretch wrote it (one device). -/
def adm14 : (pcfg14 (F := F)).Adm := ⟨fun k => W29 m 0 (pre14.ref k), trivial⟩
/-- After launch 14: main_v30 replaced by what the pipeline leaves. -/
def W30 (c : Dev nD) : Valuation τ sig (Elt F) := Function.update (W29 m c) main_v30 (O14 (En14 m) (adm14 m) c)
/-- After host stretch 15. -/
def W31 (c : Dev nD) : Valuation τ sig (Elt F) := StableHlo.after hostOps15 (W30 m c)
/-- Launch 15's entry contents, read at the core's references. -/
abbrev En15 : (c : Dev nD) → (b : Ref sig .tc) → Buf (Elt F) ((c : Thread nD τ).loc b) := fun c b => W31 m c b
/-- Launch 15's prefetched table: main_v31 as the preceding stretch wrote it (one device). -/
def adm15 : (pcfg15 (F := F)).Adm := ⟨fun k => W31 m 0 (pre15.ref k), trivial⟩
/-- After launch 15: main_v32 replaced by what the pipeline leaves. -/
def W32 (c : Dev nD) : Valuation τ sig (Elt F) := Function.update (W31 m c) main_v32 (O15 (En15 m) (adm15 m) c)
/-- After host stretch 16. -/
def W33 (c : Dev nD) : Valuation τ sig (Elt F) := StableHlo.after hostOps16 (W32 m c)
/-- Launch 16's entry contents, read at the core's references. -/
abbrev En16 : (c : Dev nD) → (b : Ref sig .tc) → Buf (Elt F) ((c : Thread nD τ).loc b) := fun c b => W33 m c b
/-- Launch 16's prefetched table: main_v33 as the preceding stretch wrote it (one device). -/
def adm16 : (pcfg16 (F := F)).Adm := ⟨fun k => W33 m 0 (pre16.ref k), trivial⟩
/-- After launch 16: main_v34 replaced by what the pipeline leaves. -/
def W34 (c : Dev nD) : Valuation τ sig (Elt F) := Function.update (W33 m c) main_v34 (O16 (En16 m) (adm16 m) c)
/-- After host stretch 17. -/
def W35 (c : Dev nD) : Valuation τ sig (Elt F) := StableHlo.after hostOps17 (W34 m c)
/-- Launch 17's entry contents, read at the core's references. -/
abbrev En17 : (c : Dev nD) → (b : Ref sig .tc) → Buf (Elt F) ((c : Thread nD τ).loc b) := fun c b => W35 m c b
/-- Launch 17's prefetched table: main_v35 as the preceding stretch wrote it (one device). -/
def adm17 : (pcfg17 (F := F)).Adm := ⟨fun k => W35 m 0 (pre17.ref k), trivial⟩
/-- After launch 17: main_v36 replaced by what the pipeline leaves. -/
def W36 (c : Dev nD) : Valuation τ sig (Elt F) := Function.update (W35 m c) main_v36 (O17 (En17 m) (adm17 m) c)
/-- After host stretch 18. -/
def W37 (c : Dev nD) : Valuation τ sig (Elt F) := StableHlo.after hostOps18 (W36 m c)
/-- Launch 18's entry contents, read at the core's references. -/
abbrev En18 : (c : Dev nD) → (b : Ref sig .tc) → Buf (Elt F) ((c : Thread nD τ).loc b) := fun c b => W37 m c b
/-- Launch 18's prefetched table: main_v37 as the preceding stretch wrote it (one device). -/
def adm18 : (pcfg18 (F := F)).Adm := ⟨fun k => W37 m 0 (pre18.ref k), trivial⟩
/-- After launch 18: main_v38 replaced by what the pipeline leaves. -/
def W38 (c : Dev nD) : Valuation τ sig (Elt F) := Function.update (W37 m c) main_v38 (O18 (En18 m) (adm18 m) c)
/-- After host stretch 19. -/
def W39 (c : Dev nD) : Valuation τ sig (Elt F) := StableHlo.after hostOps19 (W38 m c)
/-- Launch 19's entry contents, read at the core's references. -/
abbrev En19 : (c : Dev nD) → (b : Ref sig .tc) → Buf (Elt F) ((c : Thread nD τ).loc b) := fun c b => W39 m c b
/-- Launch 19's prefetched table: main_v39 as the preceding stretch wrote it (one device). -/
def adm19 : (pcfg19 (F := F)).Adm := ⟨fun k => W39 m 0 (pre19.ref k), trivial⟩
/-- After launch 19: main_v40 replaced by what the pipeline leaves. -/
def W40 (c : Dev nD) : Valuation τ sig (Elt F) := Function.update (W39 m c) main_v40 (O19 (En19 m) (adm19 m) c)
/-- After host stretch 20. -/
def W41 (c : Dev nD) : Valuation τ sig (Elt F) := StableHlo.after hostOps20 (W40 m c)
/-- Launch 20's entry contents, read at the core's references. -/
abbrev En20 : (c : Dev nD) → (b : Ref sig .tc) → Buf (Elt F) ((c : Thread nD τ).loc b) := fun c b => W41 m c b
/-- Launch 20's prefetched table: main_v41 as the preceding stretch wrote it (one device). -/
def adm20 : (pcfg20 (F := F)).Adm := ⟨fun k => W41 m 0 (pre20.ref k), trivial⟩
/-- After launch 20: main_v42 replaced by what the pipeline leaves. -/
def W42 (c : Dev nD) : Valuation τ sig (Elt F) := Function.update (W41 m c) main_v42 (O20 (En20 m) (adm20 m) c)
/-- After host stretch 21. -/
def W43 (c : Dev nD) : Valuation τ sig (Elt F) := StableHlo.after hostOps21 (W42 m c)
/-- Launch 21's entry contents, read at the core's references. -/
abbrev En21 : (c : Dev nD) → (b : Ref sig .tc) → Buf (Elt F) ((c : Thread nD τ).loc b) := fun c b => W43 m c b
/-- Launch 21's prefetched table: main_v43 as the preceding stretch wrote it (one device). -/
def adm21 : (pcfg21 (F := F)).Adm := ⟨fun k => W43 m 0 (pre21.ref k), trivial⟩
/-- After launch 21: main_v44 replaced by what the pipeline leaves. -/
def W44 (c : Dev nD) : Valuation τ sig (Elt F) := Function.update (W43 m c) main_v44 (O21 (En21 m) (adm21 m) c)
/-- After host stretch 22. -/
def W45 (c : Dev nD) : Valuation τ sig (Elt F) := StableHlo.after hostOps22 (W44 m c)
/-- Launch 22's entry contents, read at the core's references. -/
abbrev En22 : (c : Dev nD) → (b : Ref sig .tc) → Buf (Elt F) ((c : Thread nD τ).loc b) := fun c b => W45 m c b
/-- Launch 22's prefetched table: main_v45 as the preceding stretch wrote it (one device). -/
def adm22 : (pcfg22 (F := F)).Adm := ⟨fun k => W45 m 0 (pre22.ref k), trivial⟩
/-- After launch 22: main_v46 replaced by what the pipeline leaves. -/
def W46 (c : Dev nD) : Valuation τ sig (Elt F) := Function.update (W45 m c) main_v46 (O22 (En22 m) (adm22 m) c)
/-- After host stretch 23. -/
def W47 (c : Dev nD) : Valuation τ sig (Elt F) := StableHlo.after hostOps23 (W46 m c)
/-- Launch 23's entry contents, read at the core's references. -/
abbrev En23 : (c : Dev nD) → (b : Ref sig .tc) → Buf (Elt F) ((c : Thread nD τ).loc b) := fun c b => W47 m c b
/-- Launch 23's prefetched table: main_v47 as the preceding stretch wrote it (one device). -/
def adm23 : (pcfg23 (F := F)).Adm := ⟨fun k => W47 m 0 (pre23.ref k), trivial⟩
/-- After launch 23: main_v48 replaced by what the pipeline leaves. -/
def W48 (c : Dev nD) : Valuation τ sig (Elt F) := Function.update (W47 m c) main_v48 (O23 (En23 m) (adm23 m) c)
/-- After host stretch 24. -/
def W49 (c : Dev nD) : Valuation τ sig (Elt F) := StableHlo.after hostOps24 (W48 m c)
/-- Launch 24's entry contents, read at the core's references. -/
abbrev En24 : (c : Dev nD) → (b : Ref sig .tc) → Buf (Elt F) ((c : Thread nD τ).loc b) := fun c b => W49 m c b
/-- Launch 24's prefetched table: main_v49 as the preceding stretch wrote it (one device). -/
def adm24 : (pcfg24 (F := F)).Adm := ⟨fun k => W49 m 0 (pre24.ref k), trivial⟩
/-- After launch 24: main_v50 replaced by what the pipeline leaves. -/
def W50 (c : Dev nD) : Valuation τ sig (Elt F) := Function.update (W49 m c) main_v50 (O24 (En24 m) (adm24 m) c)
/-- After host stretch 25. -/
def W51 (c : Dev nD) : Valuation τ sig (Elt F) := StableHlo.after hostOps25 (W50 m c)
/-- Launch 25's entry contents, read at the core's references. -/
abbrev En25 : (c : Dev nD) → (b : Ref sig .tc) → Buf (Elt F) ((c : Thread nD τ).loc b) := fun c b => W51 m c b
/-- After launch 25: main_v54 replaced by what the pipeline leaves. -/
def W52 (c : Dev nD) : Valuation τ sig (Elt F) := Function.update (W51 m c) main_v54 (O25 (En25 m) c)
/-- After host stretch 26. -/
def W53 (c : Dev nD) : Valuation τ sig (Elt F) := StableHlo.after hostOps26 (W52 m c)
/-- Launch 26's entry contents, read at the core's references. -/
abbrev En26 : (c : Dev nD) → (b : Ref sig .tc) → Buf (Elt F) ((c : Thread nD τ).loc b) := fun c b => W53 m c b
/-- After launch 26: main_v73 replaced by what the pipeline leaves. -/
def W54 (c : Dev nD) : Valuation τ sig (Elt F) := Function.update (W53 m c) main_v73 (O26 (En26 m) c)

/-! ## The tables, the proof data family, the generated chain's unknowns -/

/-- Every launch's admissible table contents; the two last launches have no table. A literal match. -/
def adm : (p : Fin 27) → (pcfgs (F := F) p).Adm
  | ⟨0, _⟩ => adm0 m
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨8, _⟩ => adm8 m
  | ⟨9, _⟩ => adm9 m
  | ⟨10, _⟩ => adm10 m
  | ⟨11, _⟩ => adm11 m
  | ⟨12, _⟩ => adm12 m
  | ⟨13, _⟩ => adm13 m
  | ⟨14, _⟩ => adm14 m
  | ⟨15, _⟩ => adm15 m
  | ⟨16, _⟩ => adm16 m
  | ⟨17, _⟩ => adm17 m
  | ⟨18, _⟩ => adm18 m
  | ⟨19, _⟩ => adm19 m
  | ⟨20, _⟩ => adm20 m
  | ⟨21, _⟩ => adm21 m
  | ⟨22, _⟩ => adm22 m
  | ⟨23, _⟩ => adm23 m
  | ⟨24, _⟩ => adm24 m
  | ⟨25, _⟩ => cfg25.toPCfg_adm
  | ⟨26, _⟩ => cfg26.toPCfg_adm
  | ⟨_ + 27, h⟩ => absurd h (Nat.not_lt.2 (Nat.le_add_left _ _))
/-- Every launch's proof data at its entry contents (and table). A literal match. -/
def pdats : (p : Fin 27) → (c : Dev nD) → Dat τ (Elt F) Unit ℕ UC ℕ (Pipeline.pin (pcfgs (F := F)) (adm m) p) c
  | ⟨0, _⟩ => fun c => dat0 (En0 m) (adm0 m) c
  | ⟨1, _⟩ => fun c => dat1 (En1 m) (adm1 m) c
  | ⟨2, _⟩ => fun c => dat2 (En2 m) (adm2 m) c
  | ⟨3, _⟩ => fun c => dat3 (En3 m) (adm3 m) c
  | ⟨4, _⟩ => fun c => dat4 (En4 m) (adm4 m) c
  | ⟨5, _⟩ => fun c => dat5 (En5 m) (adm5 m) c
  | ⟨6, _⟩ => fun c => dat6 (En6 m) (adm6 m) c
  | ⟨7, _⟩ => fun c => dat7 (En7 m) (adm7 m) c
  | ⟨8, _⟩ => fun c => dat8 (En8 m) (adm8 m) c
  | ⟨9, _⟩ => fun c => dat9 (En9 m) (adm9 m) c
  | ⟨10, _⟩ => fun c => dat10 (En10 m) (adm10 m) c
  | ⟨11, _⟩ => fun c => dat11 (En11 m) (adm11 m) c
  | ⟨12, _⟩ => fun c => dat12 (En12 m) (adm12 m) c
  | ⟨13, _⟩ => fun c => dat13 (En13 m) (adm13 m) c
  | ⟨14, _⟩ => fun c => dat14 (En14 m) (adm14 m) c
  | ⟨15, _⟩ => fun c => dat15 (En15 m) (adm15 m) c
  | ⟨16, _⟩ => fun c => dat16 (En16 m) (adm16 m) c
  | ⟨17, _⟩ => fun c => dat17 (En17 m) (adm17 m) c
  | ⟨18, _⟩ => fun c => dat18 (En18 m) (adm18 m) c
  | ⟨19, _⟩ => fun c => dat19 (En19 m) (adm19 m) c
  | ⟨20, _⟩ => fun c => dat20 (En20 m) (adm20 m) c
  | ⟨21, _⟩ => fun c => dat21 (En21 m) (adm21 m) c
  | ⟨22, _⟩ => fun c => dat22 (En22 m) (adm22 m) c
  | ⟨23, _⟩ => fun c => dat23 (En23 m) (adm23 m) c
  | ⟨24, _⟩ => fun c => dat24 (En24 m) (adm24 m) c
  | ⟨25, _⟩ => fun c => dat25 (En25 m) c
  | ⟨26, _⟩ => fun c => dat26 (En26 m) c
  | ⟨_ + 27, h⟩ => absurd h (Nat.not_lt.2 (Nat.le_add_left _ _))
/-- The generated chain's unknowns: what each launch leaves, read off this module's chain. -/
def outs : Gen.Outs (F := F) := fun J r c =>
  match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | 28 => W28 m c r
  | 30 => W30 m c r
  | 32 => W32 m c r
  | 34 => W34 m c r
  | 36 => W36 m c r
  | 38 => W38 m c r
  | 40 => W40 m c r
  | 42 => W42 m c r
  | 44 => W44 m c r
  | 46 => W46 m c r
  | 48 => W48 m c r
  | 50 => W50 m c r
  | 52 => W52 m c r
  | 54 => W54 m c r
  | _ => W0 m c r

/-! ## The family at a launch is that launch's proof data -/

theorem hd0 (c : Dev nD) : pdats m 0 c = dat0 (En0 m) (adm m 0) c := rfl
theorem hd1 (c : Dev nD) : pdats m 1 c = dat1 (En1 m) (adm m 1) c := rfl
theorem hd2 (c : Dev nD) : pdats m 2 c = dat2 (En2 m) (adm m 2) c := rfl
theorem hd3 (c : Dev nD) : pdats m 3 c = dat3 (En3 m) (adm m 3) c := rfl
theorem hd4 (c : Dev nD) : pdats m 4 c = dat4 (En4 m) (adm m 4) c := rfl
theorem hd5 (c : Dev nD) : pdats m 5 c = dat5 (En5 m) (adm m 5) c := rfl
theorem hd6 (c : Dev nD) : pdats m 6 c = dat6 (En6 m) (adm m 6) c := rfl
theorem hd7 (c : Dev nD) : pdats m 7 c = dat7 (En7 m) (adm m 7) c := rfl
theorem hd8 (c : Dev nD) : pdats m 8 c = dat8 (En8 m) (adm m 8) c := rfl
theorem hd9 (c : Dev nD) : pdats m 9 c = dat9 (En9 m) (adm m 9) c := rfl
theorem hd10 (c : Dev nD) : pdats m 10 c = dat10 (En10 m) (adm m 10) c := rfl
theorem hd11 (c : Dev nD) : pdats m 11 c = dat11 (En11 m) (adm m 11) c := rfl
theorem hd12 (c : Dev nD) : pdats m 12 c = dat12 (En12 m) (adm m 12) c := rfl
theorem hd13 (c : Dev nD) : pdats m 13 c = dat13 (En13 m) (adm m 13) c := rfl
theorem hd14 (c : Dev nD) : pdats m 14 c = dat14 (En14 m) (adm m 14) c := rfl
theorem hd15 (c : Dev nD) : pdats m 15 c = dat15 (En15 m) (adm m 15) c := rfl
theorem hd16 (c : Dev nD) : pdats m 16 c = dat16 (En16 m) (adm m 16) c := rfl
theorem hd17 (c : Dev nD) : pdats m 17 c = dat17 (En17 m) (adm m 17) c := rfl
theorem hd18 (c : Dev nD) : pdats m 18 c = dat18 (En18 m) (adm m 18) c := rfl
theorem hd19 (c : Dev nD) : pdats m 19 c = dat19 (En19 m) (adm m 19) c := rfl
theorem hd20 (c : Dev nD) : pdats m 20 c = dat20 (En20 m) (adm m 20) c := rfl
theorem hd21 (c : Dev nD) : pdats m 21 c = dat21 (En21 m) (adm m 21) c := rfl
theorem hd22 (c : Dev nD) : pdats m 22 c = dat22 (En22 m) (adm m 22) c := rfl
theorem hd23 (c : Dev nD) : pdats m 23 c = dat23 (En23 m) (adm m 23) c := rfl
theorem hd24 (c : Dev nD) : pdats m 24 c = dat24 (En24 m) (adm m 24) c := rfl
theorem hd25 (c : Dev nD) : pdats m 25 c = dat25 (En25 m) c := rfl
theorem hd26 (c : Dev nD) : pdats m 26 c = dat26 (En26 m) c := rfl

end Cert.Kernel.Hand

end
-- ==== Proof.KB.ChainEq.lean ====
/-
  THE GENERATED CHAIN AT THESE UNKNOWNS IS THIS CHAIN. The generated regions module folds @main's items over the launch
  memory with an unknown array wherever a launch writes; with each unknown set to the array this development's chain
  holds there, the two folds agree step by step: a host stretch applies the same operations to equal contents, a launch
  replaces the same buffer by the same array.
-/
import proofs.«403631_j48275432407145_1_alg».proof.Proof.KB.ChainDefs

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

variable (m : (ℓ : Loc nD τ sig) → Buf (Elt F) ℓ)

theorem V0_eq (c : Dev nD) : Gen.V0 m c = W0 m c := rfl
theorem V1_eq (c : Dev nD) : Gen.V1 m c = W1 m c := rfl
theorem V2_eq (c : Dev nD) : Gen.V2 m (outs m) c = W2 m c := by
  show Function.update (Gen.V1 m c) main_v2 (W2 m c main_v2) = W2 m c
  rw [V1_eq]; unfold W2; rw [Function.update_self]
theorem V3_eq (c : Dev nD) : Gen.V3 m (outs m) c = W3 m c := by
  show StableHlo.after hostOps1 (Gen.V2 m (outs m) c) = W3 m c
  rw [V2_eq]; rfl
theorem V4_eq (c : Dev nD) : Gen.V4 m (outs m) c = W4 m c := by
  show Function.update (Gen.V3 m (outs m) c) main_v4 (W4 m c main_v4) = W4 m c
  rw [V3_eq]; unfold W4; rw [Function.update_self]
theorem V5_eq (c : Dev nD) : Gen.V5 m (outs m) c = W5 m c := by
  show StableHlo.after hostOps2 (Gen.V4 m (outs m) c) = W5 m c
  rw [V4_eq]; rfl
theorem V6_eq (c : Dev nD) : Gen.V6 m (outs m) c = W6 m c := by
  show Function.update (Gen.V5 m (outs m) c) main_v6 (W6 m c main_v6) = W6 m c
  rw [V5_eq]; unfold W6; rw [Function.update_self]
theorem V7_eq (c : Dev nD) : Gen.V7 m (outs m) c = W7 m c := by
  show StableHlo.after hostOps3 (Gen.V6 m (outs m) c) = W7 m c
  rw [V6_eq]; rfl
theorem V8_eq (c : Dev nD) : Gen.V8 m (outs m) c = W8 m c := by
  show Function.update (Gen.V7 m (outs m) c) main_v8 (W8 m c main_v8) = W8 m c
  rw [V7_eq]; unfold W8; rw [Function.update_self]
theorem V9_eq (c : Dev nD) : Gen.V9 m (outs m) c = W9 m c := by
  show StableHlo.after hostOps4 (Gen.V8 m (outs m) c) = W9 m c
  rw [V8_eq]; rfl
theorem V10_eq (c : Dev nD) : Gen.V10 m (outs m) c = W10 m c := by
  show Function.update (Gen.V9 m (outs m) c) main_v10 (W10 m c main_v10) = W10 m c
  rw [V9_eq]; unfold W10; rw [Function.update_self]
theorem V11_eq (c : Dev nD) : Gen.V11 m (outs m) c = W11 m c := by
  show StableHlo.after hostOps5 (Gen.V10 m (outs m) c) = W11 m c
  rw [V10_eq]; rfl
theorem V12_eq (c : Dev nD) : Gen.V12 m (outs m) c = W12 m c := by
  show Function.update (Gen.V11 m (outs m) c) main_v12 (W12 m c main_v12) = W12 m c
  rw [V11_eq]; unfold W12; rw [Function.update_self]
theorem V13_eq (c : Dev nD) : Gen.V13 m (outs m) c = W13 m c := by
  show StableHlo.after hostOps6 (Gen.V12 m (outs m) c) = W13 m c
  rw [V12_eq]; rfl
theorem V14_eq (c : Dev nD) : Gen.V14 m (outs m) c = W14 m c := by
  show Function.update (Gen.V13 m (outs m) c) main_v14 (W14 m c main_v14) = W14 m c
  rw [V13_eq]; unfold W14; rw [Function.update_self]
theorem V15_eq (c : Dev nD) : Gen.V15 m (outs m) c = W15 m c := by
  show StableHlo.after hostOps7 (Gen.V14 m (outs m) c) = W15 m c
  rw [V14_eq]; rfl
theorem V16_eq (c : Dev nD) : Gen.V16 m (outs m) c = W16 m c := by
  show Function.update (Gen.V15 m (outs m) c) main_v16 (W16 m c main_v16) = W16 m c
  rw [V15_eq]; unfold W16; rw [Function.update_self]
theorem V17_eq (c : Dev nD) : Gen.V17 m (outs m) c = W17 m c := by
  show StableHlo.after hostOps8 (Gen.V16 m (outs m) c) = W17 m c
  rw [V16_eq]; rfl
theorem V18_eq (c : Dev nD) : Gen.V18 m (outs m) c = W18 m c := by
  show Function.update (Gen.V17 m (outs m) c) main_v18 (W18 m c main_v18) = W18 m c
  rw [V17_eq]; unfold W18; rw [Function.update_self]
theorem V19_eq (c : Dev nD) : Gen.V19 m (outs m) c = W19 m c := by
  show StableHlo.after hostOps9 (Gen.V18 m (outs m) c) = W19 m c
  rw [V18_eq]; rfl
theorem V20_eq (c : Dev nD) : Gen.V20 m (outs m) c = W20 m c := by
  show Function.update (Gen.V19 m (outs m) c) main_v20 (W20 m c main_v20) = W20 m c
  rw [V19_eq]; unfold W20; rw [Function.update_self]
theorem V21_eq (c : Dev nD) : Gen.V21 m (outs m) c = W21 m c := by
  show StableHlo.after hostOps10 (Gen.V20 m (outs m) c) = W21 m c
  rw [V20_eq]; rfl
theorem V22_eq (c : Dev nD) : Gen.V22 m (outs m) c = W22 m c := by
  show Function.update (Gen.V21 m (outs m) c) main_v22 (W22 m c main_v22) = W22 m c
  rw [V21_eq]; unfold W22; rw [Function.update_self]
theorem V23_eq (c : Dev nD) : Gen.V23 m (outs m) c = W23 m c := by
  show StableHlo.after hostOps11 (Gen.V22 m (outs m) c) = W23 m c
  rw [V22_eq]; rfl
theorem V24_eq (c : Dev nD) : Gen.V24 m (outs m) c = W24 m c := by
  show Function.update (Gen.V23 m (outs m) c) main_v24 (W24 m c main_v24) = W24 m c
  rw [V23_eq]; unfold W24; rw [Function.update_self]
theorem V25_eq (c : Dev nD) : Gen.V25 m (outs m) c = W25 m c := by
  show StableHlo.after hostOps12 (Gen.V24 m (outs m) c) = W25 m c
  rw [V24_eq]; rfl
theorem V26_eq (c : Dev nD) : Gen.V26 m (outs m) c = W26 m c := by
  show Function.update (Gen.V25 m (outs m) c) main_v26 (W26 m c main_v26) = W26 m c
  rw [V25_eq]; unfold W26; rw [Function.update_self]
theorem V27_eq (c : Dev nD) : Gen.V27 m (outs m) c = W27 m c := by
  show StableHlo.after hostOps13 (Gen.V26 m (outs m) c) = W27 m c
  rw [V26_eq]; rfl
theorem V28_eq (c : Dev nD) : Gen.V28 m (outs m) c = W28 m c := by
  show Function.update (Gen.V27 m (outs m) c) main_v28 (W28 m c main_v28) = W28 m c
  rw [V27_eq]; unfold W28; rw [Function.update_self]
theorem V29_eq (c : Dev nD) : Gen.V29 m (outs m) c = W29 m c := by
  show StableHlo.after hostOps14 (Gen.V28 m (outs m) c) = W29 m c
  rw [V28_eq]; rfl
theorem V30_eq (c : Dev nD) : Gen.V30 m (outs m) c = W30 m c := by
  show Function.update (Gen.V29 m (outs m) c) main_v30 (W30 m c main_v30) = W30 m c
  rw [V29_eq]; unfold W30; rw [Function.update_self]
theorem V31_eq (c : Dev nD) : Gen.V31 m (outs m) c = W31 m c := by
  show StableHlo.after hostOps15 (Gen.V30 m (outs m) c) = W31 m c
  rw [V30_eq]; rfl
theorem V32_eq (c : Dev nD) : Gen.V32 m (outs m) c = W32 m c := by
  show Function.update (Gen.V31 m (outs m) c) main_v32 (W32 m c main_v32) = W32 m c
  rw [V31_eq]; unfold W32; rw [Function.update_self]
theorem V33_eq (c : Dev nD) : Gen.V33 m (outs m) c = W33 m c := by
  show StableHlo.after hostOps16 (Gen.V32 m (outs m) c) = W33 m c
  rw [V32_eq]; rfl
theorem V34_eq (c : Dev nD) : Gen.V34 m (outs m) c = W34 m c := by
  show Function.update (Gen.V33 m (outs m) c) main_v34 (W34 m c main_v34) = W34 m c
  rw [V33_eq]; unfold W34; rw [Function.update_self]
theorem V35_eq (c : Dev nD) : Gen.V35 m (outs m) c = W35 m c := by
  show StableHlo.after hostOps17 (Gen.V34 m (outs m) c) = W35 m c
  rw [V34_eq]; rfl
theorem V36_eq (c : Dev nD) : Gen.V36 m (outs m) c = W36 m c := by
  show Function.update (Gen.V35 m (outs m) c) main_v36 (W36 m c main_v36) = W36 m c
  rw [V35_eq]; unfold W36; rw [Function.update_self]
theorem V37_eq (c : Dev nD) : Gen.V37 m (outs m) c = W37 m c := by
  show StableHlo.after hostOps18 (Gen.V36 m (outs m) c) = W37 m c
  rw [V36_eq]; rfl
theorem V38_eq (c : Dev nD) : Gen.V38 m (outs m) c = W38 m c := by
  show Function.update (Gen.V37 m (outs m) c) main_v38 (W38 m c main_v38) = W38 m c
  rw [V37_eq]; unfold W38; rw [Function.update_self]
theorem V39_eq (c : Dev nD) : Gen.V39 m (outs m) c = W39 m c := by
  show StableHlo.after hostOps19 (Gen.V38 m (outs m) c) = W39 m c
  rw [V38_eq]; rfl
theorem V40_eq (c : Dev nD) : Gen.V40 m (outs m) c = W40 m c := by
  show Function.update (Gen.V39 m (outs m) c) main_v40 (W40 m c main_v40) = W40 m c
  rw [V39_eq]; unfold W40; rw [Function.update_self]
theorem V41_eq (c : Dev nD) : Gen.V41 m (outs m) c = W41 m c := by
  show StableHlo.after hostOps20 (Gen.V40 m (outs m) c) = W41 m c
  rw [V40_eq]; rfl
theorem V42_eq (c : Dev nD) : Gen.V42 m (outs m) c = W42 m c := by
  show Function.update (Gen.V41 m (outs m) c) main_v42 (W42 m c main_v42) = W42 m c
  rw [V41_eq]; unfold W42; rw [Function.update_self]
theorem V43_eq (c : Dev nD) : Gen.V43 m (outs m) c = W43 m c := by
  show StableHlo.after hostOps21 (Gen.V42 m (outs m) c) = W43 m c
  rw [V42_eq]; rfl
theorem V44_eq (c : Dev nD) : Gen.V44 m (outs m) c = W44 m c := by
  show Function.update (Gen.V43 m (outs m) c) main_v44 (W44 m c main_v44) = W44 m c
  rw [V43_eq]; unfold W44; rw [Function.update_self]
theorem V45_eq (c : Dev nD) : Gen.V45 m (outs m) c = W45 m c := by
  show StableHlo.after hostOps22 (Gen.V44 m (outs m) c) = W45 m c
  rw [V44_eq]; rfl
theorem V46_eq (c : Dev nD) : Gen.V46 m (outs m) c = W46 m c := by
  show Function.update (Gen.V45 m (outs m) c) main_v46 (W46 m c main_v46) = W46 m c
  rw [V45_eq]; unfold W46; rw [Function.update_self]
theorem V47_eq (c : Dev nD) : Gen.V47 m (outs m) c = W47 m c := by
  show StableHlo.after hostOps23 (Gen.V46 m (outs m) c) = W47 m c
  rw [V46_eq]; rfl
theorem V48_eq (c : Dev nD) : Gen.V48 m (outs m) c = W48 m c := by
  show Function.update (Gen.V47 m (outs m) c) main_v48 (W48 m c main_v48) = W48 m c
  rw [V47_eq]; unfold W48; rw [Function.update_self]
theorem V49_eq (c : Dev nD) : Gen.V49 m (outs m) c = W49 m c := by
  show StableHlo.after hostOps24 (Gen.V48 m (outs m) c) = W49 m c
  rw [V48_eq]; rfl
theorem V50_eq (c : Dev nD) : Gen.V50 m (outs m) c = W50 m c := by
  show Function.update (Gen.V49 m (outs m) c) main_v50 (W50 m c main_v50) = W50 m c
  rw [V49_eq]; unfold W50; rw [Function.update_self]
theorem V51_eq (c : Dev nD) : Gen.V51 m (outs m) c = W51 m c := by
  show StableHlo.after hostOps25 (Gen.V50 m (outs m) c) = W51 m c
  rw [V50_eq]; rfl
theorem V52_eq (c : Dev nD) : Gen.V52 m (outs m) c = W52 m c := by
  show Function.update (Gen.V51 m (outs m) c) main_v54 (W52 m c main_v54) = W52 m c
  rw [V51_eq]; unfold W52; rw [Function.update_self]
theorem V53_eq (c : Dev nD) : Gen.V53 m (outs m) c = W53 m c := by
  show StableHlo.after hostOps26 (Gen.V52 m (outs m) c) = W53 m c
  rw [V52_eq]; rfl
theorem V54_eq (c : Dev nD) : Gen.V54 m (outs m) c = W54 m c := by
  show Function.update (Gen.V53 m (outs m) c) main_v73 (W54 m c main_v73) = W54 m c
  rw [V53_eq]; unfold W54; rw [Function.update_self]

end Cert.Kernel.Hand

end
-- ==== Proof.KB.ChainSeg.lean ====
/-
  WHAT EACH LAUNCH'S SEGMENT RECORD IS INSTANTIATED WITH. A launch's record is stated between any entry and exit contents
  tied by two facts: each of its windows' arrays ends at what the pipeline leaves there, and every other buffer is kept.
  Of this chain both hold by construction: the output array is the one buffer replaced, by the pipeline's last array;
  an input window's array is never written, so it ends as it was entered, and it is not the replaced buffer. A host
  stretch changes only the buffers its operations write. A gather launch's table is, on every core, the slice buffer of
  the contents it is entered from.
-/
import proofs.«403631_j48275432407145_1_alg».proof.Proof.KB.ChainDefs

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

variable (m : (ℓ : Loc nD τ sig) → Buf (Elt F) ℓ)

theorem W1_of (c : Dev nD) (b : Ref sig .tc) (hb : b ∉ hostOps0_W) : W1 m c b = W0 m c b :=
  StableHlo.after_of_writes_sub hostOps0 (W0 m c) hostOps0_writes hb
theorem W2_out (c : Dev nD) : W2 m c main_v2 = O0 (En0 m) (adm0 m) c := by
  unfold W2; rw [Function.update_self]
theorem W2_of (c : Dev nD) (b : Ref sig .tc) (hb : b ≠ main_v2) : W2 m c b = W1 m c b := by
  unfold W2; exact Function.update_of_ne (StableHlo.devRef_ne_of_ne hb) _ _
theorem hrest0 (c : Dev nD) (b : Ref sig .tc) (hb : b ∉ Finset.univ.image (Pipeline.arrRef spec0)) : W2 m c b = W1 m c b :=
  W2_of m c b fun h => hb (Finset.mem_image.mpr ⟨1, Finset.mem_univ _, h.symm⟩)
theorem hF0 (c : Dev nD) : ∀ w : Fin 2, (dat0 (En0 m) (adm0 m) c).arrAt w (cfg0 (adm0 m)).N = W2 m c (Pipeline.arrRef spec0 w)
  | 0 => ((dat0 (En0 m) (adm0 m) c).arrAt_in 0 rfl _).trans ((A_eq0 (En0 m) (adm0 m) c 0).trans (W2_of m c main_arg1 (by decide)).symm)
  | 1 => (W2_out m c).symm
theorem adm0_tbl (c : Dev nD) (k : Fin pre0.K) : (adm0 m).1 k = W1 m c (pre0.ref k) := by
  rw [Subsingleton.elim c 0]; rfl
theorem htab0 (c : Dev nD) : (adm0 m).1 = fun k => W1 m c (pre0.ref k) := funext (adm0_tbl m c)
theorem W3_of (c : Dev nD) (b : Ref sig .tc) (hb : b ∉ hostOps1_W) : W3 m c b = W2 m c b :=
  StableHlo.after_of_writes_sub hostOps1 (W2 m c) hostOps1_writes hb
theorem W4_out (c : Dev nD) : W4 m c main_v4 = O1 (En1 m) (adm1 m) c := by
  unfold W4; rw [Function.update_self]
theorem W4_of (c : Dev nD) (b : Ref sig .tc) (hb : b ≠ main_v4) : W4 m c b = W3 m c b := by
  unfold W4; exact Function.update_of_ne (StableHlo.devRef_ne_of_ne hb) _ _
theorem hrest1 (c : Dev nD) (b : Ref sig .tc) (hb : b ∉ Finset.univ.image (Pipeline.arrRef spec1)) : W4 m c b = W3 m c b :=
  W4_of m c b fun h => hb (Finset.mem_image.mpr ⟨1, Finset.mem_univ _, h.symm⟩)
theorem hF1 (c : Dev nD) : ∀ w : Fin 2, (dat1 (En1 m) (adm1 m) c).arrAt w (cfg1 (adm1 m)).N = W4 m c (Pipeline.arrRef spec1 w)
  | 0 => ((dat1 (En1 m) (adm1 m) c).arrAt_in 0 rfl _).trans ((A_eq1 (En1 m) (adm1 m) c 0).trans (W4_of m c main_arg1 (by decide)).symm)
  | 1 => (W4_out m c).symm
theorem adm1_tbl (c : Dev nD) (k : Fin pre1.K) : (adm1 m).1 k = W3 m c (pre1.ref k) := by
  rw [Subsingleton.elim c 0]; rfl
theorem htab1 (c : Dev nD) : (adm1 m).1 = fun k => W3 m c (pre1.ref k) := funext (adm1_tbl m c)
theorem W5_of (c : Dev nD) (b : Ref sig .tc) (hb : b ∉ hostOps2_W) : W5 m c b = W4 m c b :=
  StableHlo.after_of_writes_sub hostOps2 (W4 m c) hostOps2_writes hb
theorem W6_out (c : Dev nD) : W6 m c main_v6 = O2 (En2 m) (adm2 m) c := by
  unfold W6; rw [Function.update_self]
theorem W6_of (c : Dev nD) (b : Ref sig .tc) (hb : b ≠ main_v6) : W6 m c b = W5 m c b := by
  unfold W6; exact Function.update_of_ne (StableHlo.devRef_ne_of_ne hb) _ _
theorem hrest2 (c : Dev nD) (b : Ref sig .tc) (hb : b ∉ Finset.univ.image (Pipeline.arrRef spec2)) : W6 m c b = W5 m c b :=
  W6_of m c b fun h => hb (Finset.mem_image.mpr ⟨1, Finset.mem_univ _, h.symm⟩)
theorem hF2 (c : Dev nD) : ∀ w : Fin 2, (dat2 (En2 m) (adm2 m) c).arrAt w (cfg2 (adm2 m)).N = W6 m c (Pipeline.arrRef spec2 w)
  | 0 => ((dat2 (En2 m) (adm2 m) c).arrAt_in 0 rfl _).trans ((A_eq2 (En2 m) (adm2 m) c 0).trans (W6_of m c main_arg1 (by decide)).symm)
  | 1 => (W6_out m c).symm
theorem adm2_tbl (c : Dev nD) (k : Fin pre2.K) : (adm2 m).1 k = W5 m c (pre2.ref k) := by
  rw [Subsingleton.elim c 0]; rfl
theorem htab2 (c : Dev nD) : (adm2 m).1 = fun k => W5 m c (pre2.ref k) := funext (adm2_tbl m c)
theorem W7_of (c : Dev nD) (b : Ref sig .tc) (hb : b ∉ hostOps3_W) : W7 m c b = W6 m c b :=
  StableHlo.after_of_writes_sub hostOps3 (W6 m c) hostOps3_writes hb
theorem W8_out (c : Dev nD) : W8 m c main_v8 = O3 (En3 m) (adm3 m) c := by
  unfold W8; rw [Function.update_self]
theorem W8_of (c : Dev nD) (b : Ref sig .tc) (hb : b ≠ main_v8) : W8 m c b = W7 m c b := by
  unfold W8; exact Function.update_of_ne (StableHlo.devRef_ne_of_ne hb) _ _
theorem hrest3 (c : Dev nD) (b : Ref sig .tc) (hb : b ∉ Finset.univ.image (Pipeline.arrRef spec3)) : W8 m c b = W7 m c b :=
  W8_of m c b fun h => hb (Finset.mem_image.mpr ⟨1, Finset.mem_univ _, h.symm⟩)
theorem hF3 (c : Dev nD) : ∀ w : Fin 2, (dat3 (En3 m) (adm3 m) c).arrAt w (cfg3 (adm3 m)).N = W8 m c (Pipeline.arrRef spec3 w)
  | 0 => ((dat3 (En3 m) (adm3 m) c).arrAt_in 0 rfl _).trans ((A_eq3 (En3 m) (adm3 m) c 0).trans (W8_of m c main_arg1 (by decide)).symm)
  | 1 => (W8_out m c).symm
theorem adm3_tbl (c : Dev nD) (k : Fin pre3.K) : (adm3 m).1 k = W7 m c (pre3.ref k) := by
  rw [Subsingleton.elim c 0]; rfl
theorem htab3 (c : Dev nD) : (adm3 m).1 = fun k => W7 m c (pre3.ref k) := funext (adm3_tbl m c)
theorem W9_of (c : Dev nD) (b : Ref sig .tc) (hb : b ∉ hostOps4_W) : W9 m c b = W8 m c b :=
  StableHlo.after_of_writes_sub hostOps4 (W8 m c) hostOps4_writes hb
theorem W10_out (c : Dev nD) : W10 m c main_v10 = O4 (En4 m) (adm4 m) c := by
  unfold W10; rw [Function.update_self]
theorem W10_of (c : Dev nD) (b : Ref sig .tc) (hb : b ≠ main_v10) : W10 m c b = W9 m c b := by
  unfold W10; exact Function.update_of_ne (StableHlo.devRef_ne_of_ne hb) _ _
theorem hrest4 (c : Dev nD) (b : Ref sig .tc) (hb : b ∉ Finset.univ.image (Pipeline.arrRef spec4)) : W10 m c b = W9 m c b :=
  W10_of m c b fun h => hb (Finset.mem_image.mpr ⟨1, Finset.mem_univ _, h.symm⟩)
theorem hF4 (c : Dev nD) : ∀ w : Fin 2, (dat4 (En4 m) (adm4 m) c).arrAt w (cfg4 (adm4 m)).N = W10 m c (Pipeline.arrRef spec4 w)
  | 0 => ((dat4 (En4 m) (adm4 m) c).arrAt_in 0 rfl _).trans ((A_eq4 (En4 m) (adm4 m) c 0).trans (W10_of m c main_arg1 (by decide)).symm)
  | 1 => (W10_out m c).symm
theorem adm4_tbl (c : Dev nD) (k : Fin pre4.K) : (adm4 m).1 k = W9 m c (pre4.ref k) := by
  rw [Subsingleton.elim c 0]; rfl
theorem htab4 (c : Dev nD) : (adm4 m).1 = fun k => W9 m c (pre4.ref k) := funext (adm4_tbl m c)
theorem W11_of (c : Dev nD) (b : Ref sig .tc) (hb : b ∉ hostOps5_W) : W11 m c b = W10 m c b :=
  StableHlo.after_of_writes_sub hostOps5 (W10 m c) hostOps5_writes hb
theorem W12_out (c : Dev nD) : W12 m c main_v12 = O5 (En5 m) (adm5 m) c := by
  unfold W12; rw [Function.update_self]
theorem W12_of (c : Dev nD) (b : Ref sig .tc) (hb : b ≠ main_v12) : W12 m c b = W11 m c b := by
  unfold W12; exact Function.update_of_ne (StableHlo.devRef_ne_of_ne hb) _ _
theorem hrest5 (c : Dev nD) (b : Ref sig .tc) (hb : b ∉ Finset.univ.image (Pipeline.arrRef spec5)) : W12 m c b = W11 m c b :=
  W12_of m c b fun h => hb (Finset.mem_image.mpr ⟨1, Finset.mem_univ _, h.symm⟩)
theorem hF5 (c : Dev nD) : ∀ w : Fin 2, (dat5 (En5 m) (adm5 m) c).arrAt w (cfg5 (adm5 m)).N = W12 m c (Pipeline.arrRef spec5 w)
  | 0 => ((dat5 (En5 m) (adm5 m) c).arrAt_in 0 rfl _).trans ((A_eq5 (En5 m) (adm5 m) c 0).trans (W12_of m c main_arg1 (by decide)).symm)
  | 1 => (W12_out m c).symm
theorem adm5_tbl (c : Dev nD) (k : Fin pre5.K) : (adm5 m).1 k = W11 m c (pre5.ref k) := by
  rw [Subsingleton.elim c 0]; rfl
theorem htab5 (c : Dev nD) : (adm5 m).1 = fun k => W11 m c (pre5.ref k) := funext (adm5_tbl m c)
theorem W13_of (c : Dev nD) (b : Ref sig .tc) (hb : b ∉ hostOps6_W) : W13 m c b = W12 m c b :=
  StableHlo.after_of_writes_sub hostOps6 (W12 m c) hostOps6_writes hb
theorem W14_out (c : Dev nD) : W14 m c main_v14 = O6 (En6 m) (adm6 m) c := by
  unfold W14; rw [Function.update_self]
theorem W14_of (c : Dev nD) (b : Ref sig .tc) (hb : b ≠ main_v14) : W14 m c b = W13 m c b := by
  unfold W14; exact Function.update_of_ne (StableHlo.devRef_ne_of_ne hb) _ _
theorem hrest6 (c : Dev nD) (b : Ref sig .tc) (hb : b ∉ Finset.univ.image (Pipeline.arrRef spec6)) : W14 m c b = W13 m c b :=
  W14_of m c b fun h => hb (Finset.mem_image.mpr ⟨1, Finset.mem_univ _, h.symm⟩)
theorem hF6 (c : Dev nD) : ∀ w : Fin 2, (dat6 (En6 m) (adm6 m) c).arrAt w (cfg6 (adm6 m)).N = W14 m c (Pipeline.arrRef spec6 w)
  | 0 => ((dat6 (En6 m) (adm6 m) c).arrAt_in 0 rfl _).trans ((A_eq6 (En6 m) (adm6 m) c 0).trans (W14_of m c main_arg1 (by decide)).symm)
  | 1 => (W14_out m c).symm
theorem adm6_tbl (c : Dev nD) (k : Fin pre6.K) : (adm6 m).1 k = W13 m c (pre6.ref k) := by
  rw [Subsingleton.elim c 0]; rfl
theorem htab6 (c : Dev nD) : (adm6 m).1 = fun k => W13 m c (pre6.ref k) := funext (adm6_tbl m c)
theorem W15_of (c : Dev nD) (b : Ref sig .tc) (hb : b ∉ hostOps7_W) : W15 m c b = W14 m c b :=
  StableHlo.after_of_writes_sub hostOps7 (W14 m c) hostOps7_writes hb
theorem W16_out (c : Dev nD) : W16 m c main_v16 = O7 (En7 m) (adm7 m) c := by
  unfold W16; rw [Function.update_self]
theorem W16_of (c : Dev nD) (b : Ref sig .tc) (hb : b ≠ main_v16) : W16 m c b = W15 m c b := by
  unfold W16; exact Function.update_of_ne (StableHlo.devRef_ne_of_ne hb) _ _
theorem hrest7 (c : Dev nD) (b : Ref sig .tc) (hb : b ∉ Finset.univ.image (Pipeline.arrRef spec7)) : W16 m c b = W15 m c b :=
  W16_of m c b fun h => hb (Finset.mem_image.mpr ⟨1, Finset.mem_univ _, h.symm⟩)
theorem hF7 (c : Dev nD) : ∀ w : Fin 2, (dat7 (En7 m) (adm7 m) c).arrAt w (cfg7 (adm7 m)).N = W16 m c (Pipeline.arrRef spec7 w)
  | 0 => ((dat7 (En7 m) (adm7 m) c).arrAt_in 0 rfl _).trans ((A_eq7 (En7 m) (adm7 m) c 0).trans (W16_of m c main_arg1 (by decide)).symm)
  | 1 => (W16_out m c).symm
theorem adm7_tbl (c : Dev nD) (k : Fin pre7.K) : (adm7 m).1 k = W15 m c (pre7.ref k) := by
  rw [Subsingleton.elim c 0]; rfl
theorem htab7 (c : Dev nD) : (adm7 m).1 = fun k => W15 m c (pre7.ref k) := funext (adm7_tbl m c)
theorem W17_of (c : Dev nD) (b : Ref sig .tc) (hb : b ∉ hostOps8_W) : W17 m c b = W16 m c b :=
  StableHlo.after_of_writes_sub hostOps8 (W16 m c) hostOps8_writes hb
theorem W18_out (c : Dev nD) : W18 m c main_v18 = O8 (En8 m) (adm8 m) c := by
  unfold W18; rw [Function.update_self]
theorem W18_of (c : Dev nD) (b : Ref sig .tc) (hb : b ≠ main_v18) : W18 m c b = W17 m c b := by
  unfold W18; exact Function.update_of_ne (StableHlo.devRef_ne_of_ne hb) _ _
theorem hrest8 (c : Dev nD) (b : Ref sig .tc) (hb : b ∉ Finset.univ.image (Pipeline.arrRef spec8)) : W18 m c b = W17 m c b :=
  W18_of m c b fun h => hb (Finset.mem_image.mpr ⟨1, Finset.mem_univ _, h.symm⟩)
theorem hF8 (c : Dev nD) : ∀ w : Fin 2, (dat8 (En8 m) (adm8 m) c).arrAt w (cfg8 (adm8 m)).N = W18 m c (Pipeline.arrRef spec8 w)
  | 0 => ((dat8 (En8 m) (adm8 m) c).arrAt_in 0 rfl _).trans ((A_eq8 (En8 m) (adm8 m) c 0).trans (W18_of m c main_arg1 (by decide)).symm)
  | 1 => (W18_out m c).symm
theorem adm8_tbl (c : Dev nD) (k : Fin pre8.K) : (adm8 m).1 k = W17 m c (pre8.ref k) := by
  rw [Subsingleton.elim c 0]; rfl
theorem htab8 (c : Dev nD) : (adm8 m).1 = fun k => W17 m c (pre8.ref k) := funext (adm8_tbl m c)
theorem W19_of (c : Dev nD) (b : Ref sig .tc) (hb : b ∉ hostOps9_W) : W19 m c b = W18 m c b :=
  StableHlo.after_of_writes_sub hostOps9 (W18 m c) hostOps9_writes hb
theorem W20_out (c : Dev nD) : W20 m c main_v20 = O9 (En9 m) (adm9 m) c := by
  unfold W20; rw [Function.update_self]
theorem W20_of (c : Dev nD) (b : Ref sig .tc) (hb : b ≠ main_v20) : W20 m c b = W19 m c b := by
  unfold W20; exact Function.update_of_ne (StableHlo.devRef_ne_of_ne hb) _ _
theorem hrest9 (c : Dev nD) (b : Ref sig .tc) (hb : b ∉ Finset.univ.image (Pipeline.arrRef spec9)) : W20 m c b = W19 m c b :=
  W20_of m c b fun h => hb (Finset.mem_image.mpr ⟨1, Finset.mem_univ _, h.symm⟩)
theorem hF9 (c : Dev nD) : ∀ w : Fin 2, (dat9 (En9 m) (adm9 m) c).arrAt w (cfg9 (adm9 m)).N = W20 m c (Pipeline.arrRef spec9 w)
  | 0 => ((dat9 (En9 m) (adm9 m) c).arrAt_in 0 rfl _).trans ((A_eq9 (En9 m) (adm9 m) c 0).trans (W20_of m c main_arg1 (by decide)).symm)
  | 1 => (W20_out m c).symm
theorem adm9_tbl (c : Dev nD) (k : Fin pre9.K) : (adm9 m).1 k = W19 m c (pre9.ref k) := by
  rw [Subsingleton.elim c 0]; rfl
theorem htab9 (c : Dev nD) : (adm9 m).1 = fun k => W19 m c (pre9.ref k) := funext (adm9_tbl m c)
theorem W21_of (c : Dev nD) (b : Ref sig .tc) (hb : b ∉ hostOps10_W) : W21 m c b = W20 m c b :=
  StableHlo.after_of_writes_sub hostOps10 (W20 m c) hostOps10_writes hb
theorem W22_out (c : Dev nD) : W22 m c main_v22 = O10 (En10 m) (adm10 m) c := by
  unfold W22; rw [Function.update_self]
theorem W22_of (c : Dev nD) (b : Ref sig .tc) (hb : b ≠ main_v22) : W22 m c b = W21 m c b := by
  unfold W22; exact Function.update_of_ne (StableHlo.devRef_ne_of_ne hb) _ _
theorem hrest10 (c : Dev nD) (b : Ref sig .tc) (hb : b ∉ Finset.univ.image (Pipeline.arrRef spec10)) : W22 m c b = W21 m c b :=
  W22_of m c b fun h => hb (Finset.mem_image.mpr ⟨1, Finset.mem_univ _, h.symm⟩)
theorem hF10 (c : Dev nD) : ∀ w : Fin 2, (dat10 (En10 m) (adm10 m) c).arrAt w (cfg10 (adm10 m)).N = W22 m c (Pipeline.arrRef spec10 w)
  | 0 => ((dat10 (En10 m) (adm10 m) c).arrAt_in 0 rfl _).trans ((A_eq10 (En10 m) (adm10 m) c 0).trans (W22_of m c main_arg1 (by decide)).symm)
  | 1 => (W22_out m c).symm
theorem adm10_tbl (c : Dev nD) (k : Fin pre10.K) : (adm10 m).1 k = W21 m c (pre10.ref k) := by
  rw [Subsingleton.elim c 0]; rfl
theorem htab10 (c : Dev nD) : (adm10 m).1 = fun k => W21 m c (pre10.ref k) := funext (adm10_tbl m c)
theorem W23_of (c : Dev nD) (b : Ref sig .tc) (hb : b ∉ hostOps11_W) : W23 m c b = W22 m c b :=
  StableHlo.after_of_writes_sub hostOps11 (W22 m c) hostOps11_writes hb
theorem W24_out (c : Dev nD) : W24 m c main_v24 = O11 (En11 m) (adm11 m) c := by
  unfold W24; rw [Function.update_self]
theorem W24_of (c : Dev nD) (b : Ref sig .tc) (hb : b ≠ main_v24) : W24 m c b = W23 m c b := by
  unfold W24; exact Function.update_of_ne (StableHlo.devRef_ne_of_ne hb) _ _
theorem hrest11 (c : Dev nD) (b : Ref sig .tc) (hb : b ∉ Finset.univ.image (Pipeline.arrRef spec11)) : W24 m c b = W23 m c b :=
  W24_of m c b fun h => hb (Finset.mem_image.mpr ⟨1, Finset.mem_univ _, h.symm⟩)
theorem hF11 (c : Dev nD) : ∀ w : Fin 2, (dat11 (En11 m) (adm11 m) c).arrAt w (cfg11 (adm11 m)).N = W24 m c (Pipeline.arrRef spec11 w)
  | 0 => ((dat11 (En11 m) (adm11 m) c).arrAt_in 0 rfl _).trans ((A_eq11 (En11 m) (adm11 m) c 0).trans (W24_of m c main_arg1 (by decide)).symm)
  | 1 => (W24_out m c).symm
theorem adm11_tbl (c : Dev nD) (k : Fin pre11.K) : (adm11 m).1 k = W23 m c (pre11.ref k) := by
  rw [Subsingleton.elim c 0]; rfl
theorem htab11 (c : Dev nD) : (adm11 m).1 = fun k => W23 m c (pre11.ref k) := funext (adm11_tbl m c)
theorem W25_of (c : Dev nD) (b : Ref sig .tc) (hb : b ∉ hostOps12_W) : W25 m c b = W24 m c b :=
  StableHlo.after_of_writes_sub hostOps12 (W24 m c) hostOps12_writes hb
theorem W26_out (c : Dev nD) : W26 m c main_v26 = O12 (En12 m) (adm12 m) c := by
  unfold W26; rw [Function.update_self]
theorem W26_of (c : Dev nD) (b : Ref sig .tc) (hb : b ≠ main_v26) : W26 m c b = W25 m c b := by
  unfold W26; exact Function.update_of_ne (StableHlo.devRef_ne_of_ne hb) _ _
theorem hrest12 (c : Dev nD) (b : Ref sig .tc) (hb : b ∉ Finset.univ.image (Pipeline.arrRef spec12)) : W26 m c b = W25 m c b :=
  W26_of m c b fun h => hb (Finset.mem_image.mpr ⟨1, Finset.mem_univ _, h.symm⟩)
theorem hF12 (c : Dev nD) : ∀ w : Fin 2, (dat12 (En12 m) (adm12 m) c).arrAt w (cfg12 (adm12 m)).N = W26 m c (Pipeline.arrRef spec12 w)
  | 0 => ((dat12 (En12 m) (adm12 m) c).arrAt_in 0 rfl _).trans ((A_eq12 (En12 m) (adm12 m) c 0).trans (W26_of m c main_arg1 (by decide)).symm)
  | 1 => (W26_out m c).symm
theorem adm12_tbl (c : Dev nD) (k : Fin pre12.K) : (adm12 m).1 k = W25 m c (pre12.ref k) := by
  rw [Subsingleton.elim c 0]; rfl
theorem htab12 (c : Dev nD) : (adm12 m).1 = fun k => W25 m c (pre12.ref k) := funext (adm12_tbl m c)
theorem W27_of (c : Dev nD) (b : Ref sig .tc) (hb : b ∉ hostOps13_W) : W27 m c b = W26 m c b :=
  StableHlo.after_of_writes_sub hostOps13 (W26 m c) hostOps13_writes hb
theorem W28_out (c : Dev nD) : W28 m c main_v28 = O13 (En13 m) (adm13 m) c := by
  unfold W28; rw [Function.update_self]
theorem W28_of (c : Dev nD) (b : Ref sig .tc) (hb : b ≠ main_v28) : W28 m c b = W27 m c b := by
  unfold W28; exact Function.update_of_ne (StableHlo.devRef_ne_of_ne hb) _ _
theorem hrest13 (c : Dev nD) (b : Ref sig .tc) (hb : b ∉ Finset.univ.image (Pipeline.arrRef spec13)) : W28 m c b = W27 m c b :=
  W28_of m c b fun h => hb (Finset.mem_image.mpr ⟨1, Finset.mem_univ _, h.symm⟩)
theorem hF13 (c : Dev nD) : ∀ w : Fin 2, (dat13 (En13 m) (adm13 m) c).arrAt w (cfg13 (adm13 m)).N = W28 m c (Pipeline.arrRef spec13 w)
  | 0 => ((dat13 (En13 m) (adm13 m) c).arrAt_in 0 rfl _).trans ((A_eq13 (En13 m) (adm13 m) c 0).trans (W28_of m c main_arg1 (by decide)).symm)
  | 1 => (W28_out m c).symm
theorem adm13_tbl (c : Dev nD) (k : Fin pre13.K) : (adm13 m).1 k = W27 m c (pre13.ref k) := by
  rw [Subsingleton.elim c 0]; rfl
theorem htab13 (c : Dev nD) : (adm13 m).1 = fun k => W27 m c (pre13.ref k) := funext (adm13_tbl m c)
theorem W29_of (c : Dev nD) (b : Ref sig .tc) (hb : b ∉ hostOps14_W) : W29 m c b = W28 m c b :=
  StableHlo.after_of_writes_sub hostOps14 (W28 m c) hostOps14_writes hb
theorem W30_out (c : Dev nD) : W30 m c main_v30 = O14 (En14 m) (adm14 m) c := by
  unfold W30; rw [Function.update_self]
theorem W30_of (c : Dev nD) (b : Ref sig .tc) (hb : b ≠ main_v30) : W30 m c b = W29 m c b := by
  unfold W30; exact Function.update_of_ne (StableHlo.devRef_ne_of_ne hb) _ _
theorem hrest14 (c : Dev nD) (b : Ref sig .tc) (hb : b ∉ Finset.univ.image (Pipeline.arrRef spec14)) : W30 m c b = W29 m c b :=
  W30_of m c b fun h => hb (Finset.mem_image.mpr ⟨1, Finset.mem_univ _, h.symm⟩)
theorem hF14 (c : Dev nD) : ∀ w : Fin 2, (dat14 (En14 m) (adm14 m) c).arrAt w (cfg14 (adm14 m)).N = W30 m c (Pipeline.arrRef spec14 w)
  | 0 => ((dat14 (En14 m) (adm14 m) c).arrAt_in 0 rfl _).trans ((A_eq14 (En14 m) (adm14 m) c 0).trans (W30_of m c main_arg1 (by decide)).symm)
  | 1 => (W30_out m c).symm
theorem adm14_tbl (c : Dev nD) (k : Fin pre14.K) : (adm14 m).1 k = W29 m c (pre14.ref k) := by
  rw [Subsingleton.elim c 0]; rfl
theorem htab14 (c : Dev nD) : (adm14 m).1 = fun k => W29 m c (pre14.ref k) := funext (adm14_tbl m c)
theorem W31_of (c : Dev nD) (b : Ref sig .tc) (hb : b ∉ hostOps15_W) : W31 m c b = W30 m c b :=
  StableHlo.after_of_writes_sub hostOps15 (W30 m c) hostOps15_writes hb
theorem W32_out (c : Dev nD) : W32 m c main_v32 = O15 (En15 m) (adm15 m) c := by
  unfold W32; rw [Function.update_self]
theorem W32_of (c : Dev nD) (b : Ref sig .tc) (hb : b ≠ main_v32) : W32 m c b = W31 m c b := by
  unfold W32; exact Function.update_of_ne (StableHlo.devRef_ne_of_ne hb) _ _
theorem hrest15 (c : Dev nD) (b : Ref sig .tc) (hb : b ∉ Finset.univ.image (Pipeline.arrRef spec15)) : W32 m c b = W31 m c b :=
  W32_of m c b fun h => hb (Finset.mem_image.mpr ⟨1, Finset.mem_univ _, h.symm⟩)
theorem hF15 (c : Dev nD) : ∀ w : Fin 2, (dat15 (En15 m) (adm15 m) c).arrAt w (cfg15 (adm15 m)).N = W32 m c (Pipeline.arrRef spec15 w)
  | 0 => ((dat15 (En15 m) (adm15 m) c).arrAt_in 0 rfl _).trans ((A_eq15 (En15 m) (adm15 m) c 0).trans (W32_of m c main_arg1 (by decide)).symm)
  | 1 => (W32_out m c).symm
theorem adm15_tbl (c : Dev nD) (k : Fin pre15.K) : (adm15 m).1 k = W31 m c (pre15.ref k) := by
  rw [Subsingleton.elim c 0]; rfl
theorem htab15 (c : Dev nD) : (adm15 m).1 = fun k => W31 m c (pre15.ref k) := funext (adm15_tbl m c)
theorem W33_of (c : Dev nD) (b : Ref sig .tc) (hb : b ∉ hostOps16_W) : W33 m c b = W32 m c b :=
  StableHlo.after_of_writes_sub hostOps16 (W32 m c) hostOps16_writes hb
theorem W34_out (c : Dev nD) : W34 m c main_v34 = O16 (En16 m) (adm16 m) c := by
  unfold W34; rw [Function.update_self]
theorem W34_of (c : Dev nD) (b : Ref sig .tc) (hb : b ≠ main_v34) : W34 m c b = W33 m c b := by
  unfold W34; exact Function.update_of_ne (StableHlo.devRef_ne_of_ne hb) _ _
theorem hrest16 (c : Dev nD) (b : Ref sig .tc) (hb : b ∉ Finset.univ.image (Pipeline.arrRef spec16)) : W34 m c b = W33 m c b :=
  W34_of m c b fun h => hb (Finset.mem_image.mpr ⟨1, Finset.mem_univ _, h.symm⟩)
theorem hF16 (c : Dev nD) : ∀ w : Fin 2, (dat16 (En16 m) (adm16 m) c).arrAt w (cfg16 (adm16 m)).N = W34 m c (Pipeline.arrRef spec16 w)
  | 0 => ((dat16 (En16 m) (adm16 m) c).arrAt_in 0 rfl _).trans ((A_eq16 (En16 m) (adm16 m) c 0).trans (W34_of m c main_arg1 (by decide)).symm)
  | 1 => (W34_out m c).symm
theorem adm16_tbl (c : Dev nD) (k : Fin pre16.K) : (adm16 m).1 k = W33 m c (pre16.ref k) := by
  rw [Subsingleton.elim c 0]; rfl
theorem htab16 (c : Dev nD) : (adm16 m).1 = fun k => W33 m c (pre16.ref k) := funext (adm16_tbl m c)
theorem W35_of (c : Dev nD) (b : Ref sig .tc) (hb : b ∉ hostOps17_W) : W35 m c b = W34 m c b :=
  StableHlo.after_of_writes_sub hostOps17 (W34 m c) hostOps17_writes hb
theorem W36_out (c : Dev nD) : W36 m c main_v36 = O17 (En17 m) (adm17 m) c := by
  unfold W36; rw [Function.update_self]
theorem W36_of (c : Dev nD) (b : Ref sig .tc) (hb : b ≠ main_v36) : W36 m c b = W35 m c b := by
  unfold W36; exact Function.update_of_ne (StableHlo.devRef_ne_of_ne hb) _ _
theorem hrest17 (c : Dev nD) (b : Ref sig .tc) (hb : b ∉ Finset.univ.image (Pipeline.arrRef spec17)) : W36 m c b = W35 m c b :=
  W36_of m c b fun h => hb (Finset.mem_image.mpr ⟨1, Finset.mem_univ _, h.symm⟩)
theorem hF17 (c : Dev nD) : ∀ w : Fin 2, (dat17 (En17 m) (adm17 m) c).arrAt w (cfg17 (adm17 m)).N = W36 m c (Pipeline.arrRef spec17 w)
  | 0 => ((dat17 (En17 m) (adm17 m) c).arrAt_in 0 rfl _).trans ((A_eq17 (En17 m) (adm17 m) c 0).trans (W36_of m c main_arg1 (by decide)).symm)
  | 1 => (W36_out m c).symm
theorem adm17_tbl (c : Dev nD) (k : Fin pre17.K) : (adm17 m).1 k = W35 m c (pre17.ref k) := by
  rw [Subsingleton.elim c 0]; rfl
theorem htab17 (c : Dev nD) : (adm17 m).1 = fun k => W35 m c (pre17.ref k) := funext (adm17_tbl m c)
theorem W37_of (c : Dev nD) (b : Ref sig .tc) (hb : b ∉ hostOps18_W) : W37 m c b = W36 m c b :=
  StableHlo.after_of_writes_sub hostOps18 (W36 m c) hostOps18_writes hb
theorem W38_out (c : Dev nD) : W38 m c main_v38 = O18 (En18 m) (adm18 m) c := by
  unfold W38; rw [Function.update_self]
theorem W38_of (c : Dev nD) (b : Ref sig .tc) (hb : b ≠ main_v38) : W38 m c b = W37 m c b := by
  unfold W38; exact Function.update_of_ne (StableHlo.devRef_ne_of_ne hb) _ _
theorem hrest18 (c : Dev nD) (b : Ref sig .tc) (hb : b ∉ Finset.univ.image (Pipeline.arrRef spec18)) : W38 m c b = W37 m c b :=
  W38_of m c b fun h => hb (Finset.mem_image.mpr ⟨1, Finset.mem_univ _, h.symm⟩)
theorem hF18 (c : Dev nD) : ∀ w : Fin 2, (dat18 (En18 m) (adm18 m) c).arrAt w (cfg18 (adm18 m)).N = W38 m c (Pipeline.arrRef spec18 w)
  | 0 => ((dat18 (En18 m) (adm18 m) c).arrAt_in 0 rfl _).trans ((A_eq18 (En18 m) (adm18 m) c 0).trans (W38_of m c main_arg1 (by decide)).symm)
  | 1 => (W38_out m c).symm
theorem adm18_tbl (c : Dev nD) (k : Fin pre18.K) : (adm18 m).1 k = W37 m c (pre18.ref k) := by
  rw [Subsingleton.elim c 0]; rfl
theorem htab18 (c : Dev nD) : (adm18 m).1 = fun k => W37 m c (pre18.ref k) := funext (adm18_tbl m c)
theorem W39_of (c : Dev nD) (b : Ref sig .tc) (hb : b ∉ hostOps19_W) : W39 m c b = W38 m c b :=
  StableHlo.after_of_writes_sub hostOps19 (W38 m c) hostOps19_writes hb
theorem W40_out (c : Dev nD) : W40 m c main_v40 = O19 (En19 m) (adm19 m) c := by
  unfold W40; rw [Function.update_self]
theorem W40_of (c : Dev nD) (b : Ref sig .tc) (hb : b ≠ main_v40) : W40 m c b = W39 m c b := by
  unfold W40; exact Function.update_of_ne (StableHlo.devRef_ne_of_ne hb) _ _
theorem hrest19 (c : Dev nD) (b : Ref sig .tc) (hb : b ∉ Finset.univ.image (Pipeline.arrRef spec19)) : W40 m c b = W39 m c b :=
  W40_of m c b fun h => hb (Finset.mem_image.mpr ⟨1, Finset.mem_univ _, h.symm⟩)
theorem hF19 (c : Dev nD) : ∀ w : Fin 2, (dat19 (En19 m) (adm19 m) c).arrAt w (cfg19 (adm19 m)).N = W40 m c (Pipeline.arrRef spec19 w)
  | 0 => ((dat19 (En19 m) (adm19 m) c).arrAt_in 0 rfl _).trans ((A_eq19 (En19 m) (adm19 m) c 0).trans (W40_of m c main_arg1 (by decide)).symm)
  | 1 => (W40_out m c).symm
theorem adm19_tbl (c : Dev nD) (k : Fin pre19.K) : (adm19 m).1 k = W39 m c (pre19.ref k) := by
  rw [Subsingleton.elim c 0]; rfl
theorem htab19 (c : Dev nD) : (adm19 m).1 = fun k => W39 m c (pre19.ref k) := funext (adm19_tbl m c)
theorem W41_of (c : Dev nD) (b : Ref sig .tc) (hb : b ∉ hostOps20_W) : W41 m c b = W40 m c b :=
  StableHlo.after_of_writes_sub hostOps20 (W40 m c) hostOps20_writes hb
theorem W42_out (c : Dev nD) : W42 m c main_v42 = O20 (En20 m) (adm20 m) c := by
  unfold W42; rw [Function.update_self]
theorem W42_of (c : Dev nD) (b : Ref sig .tc) (hb : b ≠ main_v42) : W42 m c b = W41 m c b := by
  unfold W42; exact Function.update_of_ne (StableHlo.devRef_ne_of_ne hb) _ _
theorem hrest20 (c : Dev nD) (b : Ref sig .tc) (hb : b ∉ Finset.univ.image (Pipeline.arrRef spec20)) : W42 m c b = W41 m c b :=
  W42_of m c b fun h => hb (Finset.mem_image.mpr ⟨1, Finset.mem_univ _, h.symm⟩)
theorem hF20 (c : Dev nD) : ∀ w : Fin 2, (dat20 (En20 m) (adm20 m) c).arrAt w (cfg20 (adm20 m)).N = W42 m c (Pipeline.arrRef spec20 w)
  | 0 => ((dat20 (En20 m) (adm20 m) c).arrAt_in 0 rfl _).trans ((A_eq20 (En20 m) (adm20 m) c 0).trans (W42_of m c main_arg1 (by decide)).symm)
  | 1 => (W42_out m c).symm
theorem adm20_tbl (c : Dev nD) (k : Fin pre20.K) : (adm20 m).1 k = W41 m c (pre20.ref k) := by
  rw [Subsingleton.elim c 0]; rfl
theorem htab20 (c : Dev nD) : (adm20 m).1 = fun k => W41 m c (pre20.ref k) := funext (adm20_tbl m c)
theorem W43_of (c : Dev nD) (b : Ref sig .tc) (hb : b ∉ hostOps21_W) : W43 m c b = W42 m c b :=
  StableHlo.after_of_writes_sub hostOps21 (W42 m c) hostOps21_writes hb
theorem W44_out (c : Dev nD) : W44 m c main_v44 = O21 (En21 m) (adm21 m) c := by
  unfold W44; rw [Function.update_self]
theorem W44_of (c : Dev nD) (b : Ref sig .tc) (hb : b ≠ main_v44) : W44 m c b = W43 m c b := by
  unfold W44; exact Function.update_of_ne (StableHlo.devRef_ne_of_ne hb) _ _
theorem hrest21 (c : Dev nD) (b : Ref sig .tc) (hb : b ∉ Finset.univ.image (Pipeline.arrRef spec21)) : W44 m c b = W43 m c b :=
  W44_of m c b fun h => hb (Finset.mem_image.mpr ⟨1, Finset.mem_univ _, h.symm⟩)
theorem hF21 (c : Dev nD) : ∀ w : Fin 2, (dat21 (En21 m) (adm21 m) c).arrAt w (cfg21 (adm21 m)).N = W44 m c (Pipeline.arrRef spec21 w)
  | 0 => ((dat21 (En21 m) (adm21 m) c).arrAt_in 0 rfl _).trans ((A_eq21 (En21 m) (adm21 m) c 0).trans (W44_of m c main_arg1 (by decide)).symm)
  | 1 => (W44_out m c).symm
theorem adm21_tbl (c : Dev nD) (k : Fin pre21.K) : (adm21 m).1 k = W43 m c (pre21.ref k) := by
  rw [Subsingleton.elim c 0]; rfl
theorem htab21 (c : Dev nD) : (adm21 m).1 = fun k => W43 m c (pre21.ref k) := funext (adm21_tbl m c)
theorem W45_of (c : Dev nD) (b : Ref sig .tc) (hb : b ∉ hostOps22_W) : W45 m c b = W44 m c b :=
  StableHlo.after_of_writes_sub hostOps22 (W44 m c) hostOps22_writes hb
theorem W46_out (c : Dev nD) : W46 m c main_v46 = O22 (En22 m) (adm22 m) c := by
  unfold W46; rw [Function.update_self]
theorem W46_of (c : Dev nD) (b : Ref sig .tc) (hb : b ≠ main_v46) : W46 m c b = W45 m c b := by
  unfold W46; exact Function.update_of_ne (StableHlo.devRef_ne_of_ne hb) _ _
theorem hrest22 (c : Dev nD) (b : Ref sig .tc) (hb : b ∉ Finset.univ.image (Pipeline.arrRef spec22)) : W46 m c b = W45 m c b :=
  W46_of m c b fun h => hb (Finset.mem_image.mpr ⟨1, Finset.mem_univ _, h.symm⟩)
theorem hF22 (c : Dev nD) : ∀ w : Fin 2, (dat22 (En22 m) (adm22 m) c).arrAt w (cfg22 (adm22 m)).N = W46 m c (Pipeline.arrRef spec22 w)
  | 0 => ((dat22 (En22 m) (adm22 m) c).arrAt_in 0 rfl _).trans ((A_eq22 (En22 m) (adm22 m) c 0).trans (W46_of m c main_arg1 (by decide)).symm)
  | 1 => (W46_out m c).symm
theorem adm22_tbl (c : Dev nD) (k : Fin pre22.K) : (adm22 m).1 k = W45 m c (pre22.ref k) := by
  rw [Subsingleton.elim c 0]; rfl
theorem htab22 (c : Dev nD) : (adm22 m).1 = fun k => W45 m c (pre22.ref k) := funext (adm22_tbl m c)
theorem W47_of (c : Dev nD) (b : Ref sig .tc) (hb : b ∉ hostOps23_W) : W47 m c b = W46 m c b :=
  StableHlo.after_of_writes_sub hostOps23 (W46 m c) hostOps23_writes hb
theorem W48_out (c : Dev nD) : W48 m c main_v48 = O23 (En23 m) (adm23 m) c := by
  unfold W48; rw [Function.update_self]
theorem W48_of (c : Dev nD) (b : Ref sig .tc) (hb : b ≠ main_v48) : W48 m c b = W47 m c b := by
  unfold W48; exact Function.update_of_ne (StableHlo.devRef_ne_of_ne hb) _ _
theorem hrest23 (c : Dev nD) (b : Ref sig .tc) (hb : b ∉ Finset.univ.image (Pipeline.arrRef spec23)) : W48 m c b = W47 m c b :=
  W48_of m c b fun h => hb (Finset.mem_image.mpr ⟨1, Finset.mem_univ _, h.symm⟩)
theorem hF23 (c : Dev nD) : ∀ w : Fin 2, (dat23 (En23 m) (adm23 m) c).arrAt w (cfg23 (adm23 m)).N = W48 m c (Pipeline.arrRef spec23 w)
  | 0 => ((dat23 (En23 m) (adm23 m) c).arrAt_in 0 rfl _).trans ((A_eq23 (En23 m) (adm23 m) c 0).trans (W48_of m c main_arg1 (by decide)).symm)
  | 1 => (W48_out m c).symm
theorem adm23_tbl (c : Dev nD) (k : Fin pre23.K) : (adm23 m).1 k = W47 m c (pre23.ref k) := by
  rw [Subsingleton.elim c 0]; rfl
theorem htab23 (c : Dev nD) : (adm23 m).1 = fun k => W47 m c (pre23.ref k) := funext (adm23_tbl m c)
theorem W49_of (c : Dev nD) (b : Ref sig .tc) (hb : b ∉ hostOps24_W) : W49 m c b = W48 m c b :=
  StableHlo.after_of_writes_sub hostOps24 (W48 m c) hostOps24_writes hb
theorem W50_out (c : Dev nD) : W50 m c main_v50 = O24 (En24 m) (adm24 m) c := by
  unfold W50; rw [Function.update_self]
theorem W50_of (c : Dev nD) (b : Ref sig .tc) (hb : b ≠ main_v50) : W50 m c b = W49 m c b := by
  unfold W50; exact Function.update_of_ne (StableHlo.devRef_ne_of_ne hb) _ _
theorem hrest24 (c : Dev nD) (b : Ref sig .tc) (hb : b ∉ Finset.univ.image (Pipeline.arrRef spec24)) : W50 m c b = W49 m c b :=
  W50_of m c b fun h => hb (Finset.mem_image.mpr ⟨1, Finset.mem_univ _, h.symm⟩)
theorem hF24 (c : Dev nD) : ∀ w : Fin 2, (dat24 (En24 m) (adm24 m) c).arrAt w (cfg24 (adm24 m)).N = W50 m c (Pipeline.arrRef spec24 w)
  | 0 => ((dat24 (En24 m) (adm24 m) c).arrAt_in 0 rfl _).trans ((A_eq24 (En24 m) (adm24 m) c 0).trans (W50_of m c main_arg1 (by decide)).symm)
  | 1 => (W50_out m c).symm
theorem adm24_tbl (c : Dev nD) (k : Fin pre24.K) : (adm24 m).1 k = W49 m c (pre24.ref k) := by
  rw [Subsingleton.elim c 0]; rfl
theorem htab24 (c : Dev nD) : (adm24 m).1 = fun k => W49 m c (pre24.ref k) := funext (adm24_tbl m c)
theorem W51_of (c : Dev nD) (b : Ref sig .tc) (hb : b ∉ hostOps25_W) : W51 m c b = W50 m c b :=
  StableHlo.after_of_writes_sub hostOps25 (W50 m c) hostOps25_writes hb
theorem W52_out (c : Dev nD) : W52 m c main_v54 = O25 (En25 m) c := by
  unfold W52; rw [Function.update_self]
theorem W52_of (c : Dev nD) (b : Ref sig .tc) (hb : b ≠ main_v54) : W52 m c b = W51 m c b := by
  unfold W52; exact Function.update_of_ne (StableHlo.devRef_ne_of_ne hb) _ _
theorem hrest25 (c : Dev nD) (b : Ref sig .tc) (hb : b ∉ Finset.univ.image (Pipeline.arrRef spec25)) : W52 m c b = W51 m c b :=
  W52_of m c b fun h => hb (Finset.mem_image.mpr ⟨1, Finset.mem_univ _, h.symm⟩)
theorem hF25 (c : Dev nD) : ∀ w : Fin 2, (dat25 (En25 m) c).arrAt w cfg25.N = W52 m c (Pipeline.arrRef spec25 w)
  | 0 => ((dat25 (En25 m) c).arrAt_in 0 rfl _).trans ((A_eq25 (En25 m) c 0).trans (W52_of m c main_v53 (by decide)).symm)
  | 1 => (W52_out m c).symm
theorem W53_of (c : Dev nD) (b : Ref sig .tc) (hb : b ∉ hostOps26_W) : W53 m c b = W52 m c b :=
  StableHlo.after_of_writes_sub hostOps26 (W52 m c) hostOps26_writes hb
theorem W54_out (c : Dev nD) : W54 m c main_v73 = O26 (En26 m) c := by
  unfold W54; rw [Function.update_self]
theorem W54_of (c : Dev nD) (b : Ref sig .tc) (hb : b ≠ main_v73) : W54 m c b = W53 m c b := by
  unfold W54; exact Function.update_of_ne (StableHlo.devRef_ne_of_ne hb) _ _
theorem hrest26 (c : Dev nD) (b : Ref sig .tc) (hb : b ∉ Finset.univ.image (Pipeline.arrRef spec26)) : W54 m c b = W53 m c b :=
  W54_of m c b fun h => hb (Finset.mem_image.mpr ⟨3, Finset.mem_univ _, h.symm⟩)
theorem hF26 (c : Dev nD) : ∀ w : Fin 4, (dat26 (En26 m) c).arrAt w cfg26.N = W54 m c (Pipeline.arrRef spec26 w)
  | 0 => ((dat26 (En26 m) c).arrAt_in 0 rfl _).trans ((A_eq26 (En26 m) c 0).trans (W54_of m c main_v53 (by decide)).symm)
  | 1 => ((dat26 (En26 m) c).arrAt_in 1 rfl _).trans ((A_eq26 (En26 m) c 1).trans (W54_of m c main_v71 (by decide)).symm)
  | 2 => ((dat26 (En26 m) c).arrAt_in 2 rfl _).trans ((A_eq26 (En26 m) c 2).trans (W54_of m c main_v72 (by decide)).symm)
  | 3 => (W54_out m c).symm

end Cert.Kernel.Hand

end
-- ==== Proof.KB.ChainReads.lean ====
/-
  BUFFERS KEPT ALONG THE CHAIN. No item writes an argument, so each argument's buffer holds its launch contents at every
  step. The transposed neighbour table is written by the first host stretch and by nothing after it, and each gather
  launch's table is the slice of it the stretch before the launch cuts: so every word of every table is a neighbour
  index, and is in range when every neighbour index is. A gather launch's chunk, once written, is kept by every later
  item up to the concatenation's entry; the joined array is kept from there to the last launch.
-/
import proofs.«403631_j48275432407145_1_alg».proof.Proof.KB.ChainSeg
import proofs.«403631_j48275432407145_1_alg».proof.Proof.KB.PreIdx

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

variable (m : (ℓ : Loc nD τ sig) → Buf (Elt F) ℓ)

/-! ## No item writes an argument -/

theorem W0_main_arg0 (c : Dev nD) : W0 m c main_arg0 = m ((c : Thread nD τ).loc main_arg0) :=
  rfl
theorem W1_main_arg0 (c : Dev nD) : W1 m c main_arg0 = m ((c : Thread nD τ).loc main_arg0) :=
  (W1_of m c main_arg0 (by decide)).trans (W0_main_arg0 m c)
theorem W2_main_arg0 (c : Dev nD) : W2 m c main_arg0 = m ((c : Thread nD τ).loc main_arg0) :=
  (W2_of m c main_arg0 (by decide)).trans (W1_main_arg0 m c)
theorem W3_main_arg0 (c : Dev nD) : W3 m c main_arg0 = m ((c : Thread nD τ).loc main_arg0) :=
  (W3_of m c main_arg0 (by decide)).trans (W2_main_arg0 m c)
theorem W4_main_arg0 (c : Dev nD) : W4 m c main_arg0 = m ((c : Thread nD τ).loc main_arg0) :=
  (W4_of m c main_arg0 (by decide)).trans (W3_main_arg0 m c)
theorem W5_main_arg0 (c : Dev nD) : W5 m c main_arg0 = m ((c : Thread nD τ).loc main_arg0) :=
  (W5_of m c main_arg0 (by decide)).trans (W4_main_arg0 m c)
theorem W6_main_arg0 (c : Dev nD) : W6 m c main_arg0 = m ((c : Thread nD τ).loc main_arg0) :=
  (W6_of m c main_arg0 (by decide)).trans (W5_main_arg0 m c)
theorem W7_main_arg0 (c : Dev nD) : W7 m c main_arg0 = m ((c : Thread nD τ).loc main_arg0) :=
  (W7_of m c main_arg0 (by decide)).trans (W6_main_arg0 m c)
theorem W8_main_arg0 (c : Dev nD) : W8 m c main_arg0 = m ((c : Thread nD τ).loc main_arg0) :=
  (W8_of m c main_arg0 (by decide)).trans (W7_main_arg0 m c)
theorem W9_main_arg0 (c : Dev nD) : W9 m c main_arg0 = m ((c : Thread nD τ).loc main_arg0) :=
  (W9_of m c main_arg0 (by decide)).trans (W8_main_arg0 m c)
theorem W10_main_arg0 (c : Dev nD) : W10 m c main_arg0 = m ((c : Thread nD τ).loc main_arg0) :=
  (W10_of m c main_arg0 (by decide)).trans (W9_main_arg0 m c)
theorem W11_main_arg0 (c : Dev nD) : W11 m c main_arg0 = m ((c : Thread nD τ).loc main_arg0) :=
  (W11_of m c main_arg0 (by decide)).trans (W10_main_arg0 m c)
theorem W12_main_arg0 (c : Dev nD) : W12 m c main_arg0 = m ((c : Thread nD τ).loc main_arg0) :=
  (W12_of m c main_arg0 (by decide)).trans (W11_main_arg0 m c)
theorem W13_main_arg0 (c : Dev nD) : W13 m c main_arg0 = m ((c : Thread nD τ).loc main_arg0) :=
  (W13_of m c main_arg0 (by decide)).trans (W12_main_arg0 m c)
theorem W14_main_arg0 (c : Dev nD) : W14 m c main_arg0 = m ((c : Thread nD τ).loc main_arg0) :=
  (W14_of m c main_arg0 (by decide)).trans (W13_main_arg0 m c)
theorem W15_main_arg0 (c : Dev nD) : W15 m c main_arg0 = m ((c : Thread nD τ).loc main_arg0) :=
  (W15_of m c main_arg0 (by decide)).trans (W14_main_arg0 m c)
theorem W16_main_arg0 (c : Dev nD) : W16 m c main_arg0 = m ((c : Thread nD τ).loc main_arg0) :=
  (W16_of m c main_arg0 (by decide)).trans (W15_main_arg0 m c)
theorem W17_main_arg0 (c : Dev nD) : W17 m c main_arg0 = m ((c : Thread nD τ).loc main_arg0) :=
  (W17_of m c main_arg0 (by decide)).trans (W16_main_arg0 m c)
theorem W18_main_arg0 (c : Dev nD) : W18 m c main_arg0 = m ((c : Thread nD τ).loc main_arg0) :=
  (W18_of m c main_arg0 (by decide)).trans (W17_main_arg0 m c)
theorem W19_main_arg0 (c : Dev nD) : W19 m c main_arg0 = m ((c : Thread nD τ).loc main_arg0) :=
  (W19_of m c main_arg0 (by decide)).trans (W18_main_arg0 m c)
theorem W20_main_arg0 (c : Dev nD) : W20 m c main_arg0 = m ((c : Thread nD τ).loc main_arg0) :=
  (W20_of m c main_arg0 (by decide)).trans (W19_main_arg0 m c)
theorem W21_main_arg0 (c : Dev nD) : W21 m c main_arg0 = m ((c : Thread nD τ).loc main_arg0) :=
  (W21_of m c main_arg0 (by decide)).trans (W20_main_arg0 m c)
theorem W22_main_arg0 (c : Dev nD) : W22 m c main_arg0 = m ((c : Thread nD τ).loc main_arg0) :=
  (W22_of m c main_arg0 (by decide)).trans (W21_main_arg0 m c)
theorem W23_main_arg0 (c : Dev nD) : W23 m c main_arg0 = m ((c : Thread nD τ).loc main_arg0) :=
  (W23_of m c main_arg0 (by decide)).trans (W22_main_arg0 m c)
theorem W24_main_arg0 (c : Dev nD) : W24 m c main_arg0 = m ((c : Thread nD τ).loc main_arg0) :=
  (W24_of m c main_arg0 (by decide)).trans (W23_main_arg0 m c)
theorem W25_main_arg0 (c : Dev nD) : W25 m c main_arg0 = m ((c : Thread nD τ).loc main_arg0) :=
  (W25_of m c main_arg0 (by decide)).trans (W24_main_arg0 m c)
theorem W26_main_arg0 (c : Dev nD) : W26 m c main_arg0 = m ((c : Thread nD τ).loc main_arg0) :=
  (W26_of m c main_arg0 (by decide)).trans (W25_main_arg0 m c)
theorem W27_main_arg0 (c : Dev nD) : W27 m c main_arg0 = m ((c : Thread nD τ).loc main_arg0) :=
  (W27_of m c main_arg0 (by decide)).trans (W26_main_arg0 m c)
theorem W28_main_arg0 (c : Dev nD) : W28 m c main_arg0 = m ((c : Thread nD τ).loc main_arg0) :=
  (W28_of m c main_arg0 (by decide)).trans (W27_main_arg0 m c)
theorem W29_main_arg0 (c : Dev nD) : W29 m c main_arg0 = m ((c : Thread nD τ).loc main_arg0) :=
  (W29_of m c main_arg0 (by decide)).trans (W28_main_arg0 m c)
theorem W30_main_arg0 (c : Dev nD) : W30 m c main_arg0 = m ((c : Thread nD τ).loc main_arg0) :=
  (W30_of m c main_arg0 (by decide)).trans (W29_main_arg0 m c)
theorem W31_main_arg0 (c : Dev nD) : W31 m c main_arg0 = m ((c : Thread nD τ).loc main_arg0) :=
  (W31_of m c main_arg0 (by decide)).trans (W30_main_arg0 m c)
theorem W32_main_arg0 (c : Dev nD) : W32 m c main_arg0 = m ((c : Thread nD τ).loc main_arg0) :=
  (W32_of m c main_arg0 (by decide)).trans (W31_main_arg0 m c)
theorem W33_main_arg0 (c : Dev nD) : W33 m c main_arg0 = m ((c : Thread nD τ).loc main_arg0) :=
  (W33_of m c main_arg0 (by decide)).trans (W32_main_arg0 m c)
theorem W34_main_arg0 (c : Dev nD) : W34 m c main_arg0 = m ((c : Thread nD τ).loc main_arg0) :=
  (W34_of m c main_arg0 (by decide)).trans (W33_main_arg0 m c)
theorem W35_main_arg0 (c : Dev nD) : W35 m c main_arg0 = m ((c : Thread nD τ).loc main_arg0) :=
  (W35_of m c main_arg0 (by decide)).trans (W34_main_arg0 m c)
theorem W36_main_arg0 (c : Dev nD) : W36 m c main_arg0 = m ((c : Thread nD τ).loc main_arg0) :=
  (W36_of m c main_arg0 (by decide)).trans (W35_main_arg0 m c)
theorem W37_main_arg0 (c : Dev nD) : W37 m c main_arg0 = m ((c : Thread nD τ).loc main_arg0) :=
  (W37_of m c main_arg0 (by decide)).trans (W36_main_arg0 m c)
theorem W38_main_arg0 (c : Dev nD) : W38 m c main_arg0 = m ((c : Thread nD τ).loc main_arg0) :=
  (W38_of m c main_arg0 (by decide)).trans (W37_main_arg0 m c)
theorem W39_main_arg0 (c : Dev nD) : W39 m c main_arg0 = m ((c : Thread nD τ).loc main_arg0) :=
  (W39_of m c main_arg0 (by decide)).trans (W38_main_arg0 m c)
theorem W40_main_arg0 (c : Dev nD) : W40 m c main_arg0 = m ((c : Thread nD τ).loc main_arg0) :=
  (W40_of m c main_arg0 (by decide)).trans (W39_main_arg0 m c)
theorem W41_main_arg0 (c : Dev nD) : W41 m c main_arg0 = m ((c : Thread nD τ).loc main_arg0) :=
  (W41_of m c main_arg0 (by decide)).trans (W40_main_arg0 m c)
theorem W42_main_arg0 (c : Dev nD) : W42 m c main_arg0 = m ((c : Thread nD τ).loc main_arg0) :=
  (W42_of m c main_arg0 (by decide)).trans (W41_main_arg0 m c)
theorem W43_main_arg0 (c : Dev nD) : W43 m c main_arg0 = m ((c : Thread nD τ).loc main_arg0) :=
  (W43_of m c main_arg0 (by decide)).trans (W42_main_arg0 m c)
theorem W44_main_arg0 (c : Dev nD) : W44 m c main_arg0 = m ((c : Thread nD τ).loc main_arg0) :=
  (W44_of m c main_arg0 (by decide)).trans (W43_main_arg0 m c)
theorem W45_main_arg0 (c : Dev nD) : W45 m c main_arg0 = m ((c : Thread nD τ).loc main_arg0) :=
  (W45_of m c main_arg0 (by decide)).trans (W44_main_arg0 m c)
theorem W46_main_arg0 (c : Dev nD) : W46 m c main_arg0 = m ((c : Thread nD τ).loc main_arg0) :=
  (W46_of m c main_arg0 (by decide)).trans (W45_main_arg0 m c)
theorem W47_main_arg0 (c : Dev nD) : W47 m c main_arg0 = m ((c : Thread nD τ).loc main_arg0) :=
  (W47_of m c main_arg0 (by decide)).trans (W46_main_arg0 m c)
theorem W48_main_arg0 (c : Dev nD) : W48 m c main_arg0 = m ((c : Thread nD τ).loc main_arg0) :=
  (W48_of m c main_arg0 (by decide)).trans (W47_main_arg0 m c)
theorem W49_main_arg0 (c : Dev nD) : W49 m c main_arg0 = m ((c : Thread nD τ).loc main_arg0) :=
  (W49_of m c main_arg0 (by decide)).trans (W48_main_arg0 m c)
theorem W50_main_arg0 (c : Dev nD) : W50 m c main_arg0 = m ((c : Thread nD τ).loc main_arg0) :=
  (W50_of m c main_arg0 (by decide)).trans (W49_main_arg0 m c)
theorem W51_main_arg0 (c : Dev nD) : W51 m c main_arg0 = m ((c : Thread nD τ).loc main_arg0) :=
  (W51_of m c main_arg0 (by decide)).trans (W50_main_arg0 m c)
theorem W52_main_arg0 (c : Dev nD) : W52 m c main_arg0 = m ((c : Thread nD τ).loc main_arg0) :=
  (W52_of m c main_arg0 (by decide)).trans (W51_main_arg0 m c)
theorem W53_main_arg0 (c : Dev nD) : W53 m c main_arg0 = m ((c : Thread nD τ).loc main_arg0) :=
  (W53_of m c main_arg0 (by decide)).trans (W52_main_arg0 m c)
theorem W54_main_arg0 (c : Dev nD) : W54 m c main_arg0 = m ((c : Thread nD τ).loc main_arg0) :=
  (W54_of m c main_arg0 (by decide)).trans (W53_main_arg0 m c)
theorem W0_main_arg1 (c : Dev nD) : W0 m c main_arg1 = m ((c : Thread nD τ).loc main_arg1) :=
  rfl
theorem W1_main_arg1 (c : Dev nD) : W1 m c main_arg1 = m ((c : Thread nD τ).loc main_arg1) :=
  (W1_of m c main_arg1 (by decide)).trans (W0_main_arg1 m c)
theorem W2_main_arg1 (c : Dev nD) : W2 m c main_arg1 = m ((c : Thread nD τ).loc main_arg1) :=
  (W2_of m c main_arg1 (by decide)).trans (W1_main_arg1 m c)
theorem W3_main_arg1 (c : Dev nD) : W3 m c main_arg1 = m ((c : Thread nD τ).loc main_arg1) :=
  (W3_of m c main_arg1 (by decide)).trans (W2_main_arg1 m c)
theorem W4_main_arg1 (c : Dev nD) : W4 m c main_arg1 = m ((c : Thread nD τ).loc main_arg1) :=
  (W4_of m c main_arg1 (by decide)).trans (W3_main_arg1 m c)
theorem W5_main_arg1 (c : Dev nD) : W5 m c main_arg1 = m ((c : Thread nD τ).loc main_arg1) :=
  (W5_of m c main_arg1 (by decide)).trans (W4_main_arg1 m c)
theorem W6_main_arg1 (c : Dev nD) : W6 m c main_arg1 = m ((c : Thread nD τ).loc main_arg1) :=
  (W6_of m c main_arg1 (by decide)).trans (W5_main_arg1 m c)
theorem W7_main_arg1 (c : Dev nD) : W7 m c main_arg1 = m ((c : Thread nD τ).loc main_arg1) :=
  (W7_of m c main_arg1 (by decide)).trans (W6_main_arg1 m c)
theorem W8_main_arg1 (c : Dev nD) : W8 m c main_arg1 = m ((c : Thread nD τ).loc main_arg1) :=
  (W8_of m c main_arg1 (by decide)).trans (W7_main_arg1 m c)
theorem W9_main_arg1 (c : Dev nD) : W9 m c main_arg1 = m ((c : Thread nD τ).loc main_arg1) :=
  (W9_of m c main_arg1 (by decide)).trans (W8_main_arg1 m c)
theorem W10_main_arg1 (c : Dev nD) : W10 m c main_arg1 = m ((c : Thread nD τ).loc main_arg1) :=
  (W10_of m c main_arg1 (by decide)).trans (W9_main_arg1 m c)
theorem W11_main_arg1 (c : Dev nD) : W11 m c main_arg1 = m ((c : Thread nD τ).loc main_arg1) :=
  (W11_of m c main_arg1 (by decide)).trans (W10_main_arg1 m c)
theorem W12_main_arg1 (c : Dev nD) : W12 m c main_arg1 = m ((c : Thread nD τ).loc main_arg1) :=
  (W12_of m c main_arg1 (by decide)).trans (W11_main_arg1 m c)
theorem W13_main_arg1 (c : Dev nD) : W13 m c main_arg1 = m ((c : Thread nD τ).loc main_arg1) :=
  (W13_of m c main_arg1 (by decide)).trans (W12_main_arg1 m c)
theorem W14_main_arg1 (c : Dev nD) : W14 m c main_arg1 = m ((c : Thread nD τ).loc main_arg1) :=
  (W14_of m c main_arg1 (by decide)).trans (W13_main_arg1 m c)
theorem W15_main_arg1 (c : Dev nD) : W15 m c main_arg1 = m ((c : Thread nD τ).loc main_arg1) :=
  (W15_of m c main_arg1 (by decide)).trans (W14_main_arg1 m c)
theorem W16_main_arg1 (c : Dev nD) : W16 m c main_arg1 = m ((c : Thread nD τ).loc main_arg1) :=
  (W16_of m c main_arg1 (by decide)).trans (W15_main_arg1 m c)
theorem W17_main_arg1 (c : Dev nD) : W17 m c main_arg1 = m ((c : Thread nD τ).loc main_arg1) :=
  (W17_of m c main_arg1 (by decide)).trans (W16_main_arg1 m c)
theorem W18_main_arg1 (c : Dev nD) : W18 m c main_arg1 = m ((c : Thread nD τ).loc main_arg1) :=
  (W18_of m c main_arg1 (by decide)).trans (W17_main_arg1 m c)
theorem W19_main_arg1 (c : Dev nD) : W19 m c main_arg1 = m ((c : Thread nD τ).loc main_arg1) :=
  (W19_of m c main_arg1 (by decide)).trans (W18_main_arg1 m c)
theorem W20_main_arg1 (c : Dev nD) : W20 m c main_arg1 = m ((c : Thread nD τ).loc main_arg1) :=
  (W20_of m c main_arg1 (by decide)).trans (W19_main_arg1 m c)
theorem W21_main_arg1 (c : Dev nD) : W21 m c main_arg1 = m ((c : Thread nD τ).loc main_arg1) :=
  (W21_of m c main_arg1 (by decide)).trans (W20_main_arg1 m c)
theorem W22_main_arg1 (c : Dev nD) : W22 m c main_arg1 = m ((c : Thread nD τ).loc main_arg1) :=
  (W22_of m c main_arg1 (by decide)).trans (W21_main_arg1 m c)
theorem W23_main_arg1 (c : Dev nD) : W23 m c main_arg1 = m ((c : Thread nD τ).loc main_arg1) :=
  (W23_of m c main_arg1 (by decide)).trans (W22_main_arg1 m c)
theorem W24_main_arg1 (c : Dev nD) : W24 m c main_arg1 = m ((c : Thread nD τ).loc main_arg1) :=
  (W24_of m c main_arg1 (by decide)).trans (W23_main_arg1 m c)
theorem W25_main_arg1 (c : Dev nD) : W25 m c main_arg1 = m ((c : Thread nD τ).loc main_arg1) :=
  (W25_of m c main_arg1 (by decide)).trans (W24_main_arg1 m c)
theorem W26_main_arg1 (c : Dev nD) : W26 m c main_arg1 = m ((c : Thread nD τ).loc main_arg1) :=
  (W26_of m c main_arg1 (by decide)).trans (W25_main_arg1 m c)
theorem W27_main_arg1 (c : Dev nD) : W27 m c main_arg1 = m ((c : Thread nD τ).loc main_arg1) :=
  (W27_of m c main_arg1 (by decide)).trans (W26_main_arg1 m c)
theorem W28_main_arg1 (c : Dev nD) : W28 m c main_arg1 = m ((c : Thread nD τ).loc main_arg1) :=
  (W28_of m c main_arg1 (by decide)).trans (W27_main_arg1 m c)
theorem W29_main_arg1 (c : Dev nD) : W29 m c main_arg1 = m ((c : Thread nD τ).loc main_arg1) :=
  (W29_of m c main_arg1 (by decide)).trans (W28_main_arg1 m c)
theorem W30_main_arg1 (c : Dev nD) : W30 m c main_arg1 = m ((c : Thread nD τ).loc main_arg1) :=
  (W30_of m c main_arg1 (by decide)).trans (W29_main_arg1 m c)
theorem W31_main_arg1 (c : Dev nD) : W31 m c main_arg1 = m ((c : Thread nD τ).loc main_arg1) :=
  (W31_of m c main_arg1 (by decide)).trans (W30_main_arg1 m c)
theorem W32_main_arg1 (c : Dev nD) : W32 m c main_arg1 = m ((c : Thread nD τ).loc main_arg1) :=
  (W32_of m c main_arg1 (by decide)).trans (W31_main_arg1 m c)
theorem W33_main_arg1 (c : Dev nD) : W33 m c main_arg1 = m ((c : Thread nD τ).loc main_arg1) :=
  (W33_of m c main_arg1 (by decide)).trans (W32_main_arg1 m c)
theorem W34_main_arg1 (c : Dev nD) : W34 m c main_arg1 = m ((c : Thread nD τ).loc main_arg1) :=
  (W34_of m c main_arg1 (by decide)).trans (W33_main_arg1 m c)
theorem W35_main_arg1 (c : Dev nD) : W35 m c main_arg1 = m ((c : Thread nD τ).loc main_arg1) :=
  (W35_of m c main_arg1 (by decide)).trans (W34_main_arg1 m c)
theorem W36_main_arg1 (c : Dev nD) : W36 m c main_arg1 = m ((c : Thread nD τ).loc main_arg1) :=
  (W36_of m c main_arg1 (by decide)).trans (W35_main_arg1 m c)
theorem W37_main_arg1 (c : Dev nD) : W37 m c main_arg1 = m ((c : Thread nD τ).loc main_arg1) :=
  (W37_of m c main_arg1 (by decide)).trans (W36_main_arg1 m c)
theorem W38_main_arg1 (c : Dev nD) : W38 m c main_arg1 = m ((c : Thread nD τ).loc main_arg1) :=
  (W38_of m c main_arg1 (by decide)).trans (W37_main_arg1 m c)
theorem W39_main_arg1 (c : Dev nD) : W39 m c main_arg1 = m ((c : Thread nD τ).loc main_arg1) :=
  (W39_of m c main_arg1 (by decide)).trans (W38_main_arg1 m c)
theorem W40_main_arg1 (c : Dev nD) : W40 m c main_arg1 = m ((c : Thread nD τ).loc main_arg1) :=
  (W40_of m c main_arg1 (by decide)).trans (W39_main_arg1 m c)
theorem W41_main_arg1 (c : Dev nD) : W41 m c main_arg1 = m ((c : Thread nD τ).loc main_arg1) :=
  (W41_of m c main_arg1 (by decide)).trans (W40_main_arg1 m c)
theorem W42_main_arg1 (c : Dev nD) : W42 m c main_arg1 = m ((c : Thread nD τ).loc main_arg1) :=
  (W42_of m c main_arg1 (by decide)).trans (W41_main_arg1 m c)
theorem W43_main_arg1 (c : Dev nD) : W43 m c main_arg1 = m ((c : Thread nD τ).loc main_arg1) :=
  (W43_of m c main_arg1 (by decide)).trans (W42_main_arg1 m c)
theorem W44_main_arg1 (c : Dev nD) : W44 m c main_arg1 = m ((c : Thread nD τ).loc main_arg1) :=
  (W44_of m c main_arg1 (by decide)).trans (W43_main_arg1 m c)
theorem W45_main_arg1 (c : Dev nD) : W45 m c main_arg1 = m ((c : Thread nD τ).loc main_arg1) :=
  (W45_of m c main_arg1 (by decide)).trans (W44_main_arg1 m c)
theorem W46_main_arg1 (c : Dev nD) : W46 m c main_arg1 = m ((c : Thread nD τ).loc main_arg1) :=
  (W46_of m c main_arg1 (by decide)).trans (W45_main_arg1 m c)
theorem W47_main_arg1 (c : Dev nD) : W47 m c main_arg1 = m ((c : Thread nD τ).loc main_arg1) :=
  (W47_of m c main_arg1 (by decide)).trans (W46_main_arg1 m c)
theorem W48_main_arg1 (c : Dev nD) : W48 m c main_arg1 = m ((c : Thread nD τ).loc main_arg1) :=
  (W48_of m c main_arg1 (by decide)).trans (W47_main_arg1 m c)
theorem W49_main_arg1 (c : Dev nD) : W49 m c main_arg1 = m ((c : Thread nD τ).loc main_arg1) :=
  (W49_of m c main_arg1 (by decide)).trans (W48_main_arg1 m c)
theorem W50_main_arg1 (c : Dev nD) : W50 m c main_arg1 = m ((c : Thread nD τ).loc main_arg1) :=
  (W50_of m c main_arg1 (by decide)).trans (W49_main_arg1 m c)
theorem W51_main_arg1 (c : Dev nD) : W51 m c main_arg1 = m ((c : Thread nD τ).loc main_arg1) :=
  (W51_of m c main_arg1 (by decide)).trans (W50_main_arg1 m c)
theorem W52_main_arg1 (c : Dev nD) : W52 m c main_arg1 = m ((c : Thread nD τ).loc main_arg1) :=
  (W52_of m c main_arg1 (by decide)).trans (W51_main_arg1 m c)
theorem W53_main_arg1 (c : Dev nD) : W53 m c main_arg1 = m ((c : Thread nD τ).loc main_arg1) :=
  (W53_of m c main_arg1 (by decide)).trans (W52_main_arg1 m c)
theorem W54_main_arg1 (c : Dev nD) : W54 m c main_arg1 = m ((c : Thread nD τ).loc main_arg1) :=
  (W54_of m c main_arg1 (by decide)).trans (W53_main_arg1 m c)
theorem W0_main_arg2 (c : Dev nD) : W0 m c main_arg2 = m ((c : Thread nD τ).loc main_arg2) :=
  rfl
theorem W1_main_arg2 (c : Dev nD) : W1 m c main_arg2 = m ((c : Thread nD τ).loc main_arg2) :=
  (W1_of m c main_arg2 (by decide)).trans (W0_main_arg2 m c)
theorem W2_main_arg2 (c : Dev nD) : W2 m c main_arg2 = m ((c : Thread nD τ).loc main_arg2) :=
  (W2_of m c main_arg2 (by decide)).trans (W1_main_arg2 m c)
theorem W3_main_arg2 (c : Dev nD) : W3 m c main_arg2 = m ((c : Thread nD τ).loc main_arg2) :=
  (W3_of m c main_arg2 (by decide)).trans (W2_main_arg2 m c)
theorem W4_main_arg2 (c : Dev nD) : W4 m c main_arg2 = m ((c : Thread nD τ).loc main_arg2) :=
  (W4_of m c main_arg2 (by decide)).trans (W3_main_arg2 m c)
theorem W5_main_arg2 (c : Dev nD) : W5 m c main_arg2 = m ((c : Thread nD τ).loc main_arg2) :=
  (W5_of m c main_arg2 (by decide)).trans (W4_main_arg2 m c)
theorem W6_main_arg2 (c : Dev nD) : W6 m c main_arg2 = m ((c : Thread nD τ).loc main_arg2) :=
  (W6_of m c main_arg2 (by decide)).trans (W5_main_arg2 m c)
theorem W7_main_arg2 (c : Dev nD) : W7 m c main_arg2 = m ((c : Thread nD τ).loc main_arg2) :=
  (W7_of m c main_arg2 (by decide)).trans (W6_main_arg2 m c)
theorem W8_main_arg2 (c : Dev nD) : W8 m c main_arg2 = m ((c : Thread nD τ).loc main_arg2) :=
  (W8_of m c main_arg2 (by decide)).trans (W7_main_arg2 m c)
theorem W9_main_arg2 (c : Dev nD) : W9 m c main_arg2 = m ((c : Thread nD τ).loc main_arg2) :=
  (W9_of m c main_arg2 (by decide)).trans (W8_main_arg2 m c)
theorem W10_main_arg2 (c : Dev nD) : W10 m c main_arg2 = m ((c : Thread nD τ).loc main_arg2) :=
  (W10_of m c main_arg2 (by decide)).trans (W9_main_arg2 m c)
theorem W11_main_arg2 (c : Dev nD) : W11 m c main_arg2 = m ((c : Thread nD τ).loc main_arg2) :=
  (W11_of m c main_arg2 (by decide)).trans (W10_main_arg2 m c)
theorem W12_main_arg2 (c : Dev nD) : W12 m c main_arg2 = m ((c : Thread nD τ).loc main_arg2) :=
  (W12_of m c main_arg2 (by decide)).trans (W11_main_arg2 m c)
theorem W13_main_arg2 (c : Dev nD) : W13 m c main_arg2 = m ((c : Thread nD τ).loc main_arg2) :=
  (W13_of m c main_arg2 (by decide)).trans (W12_main_arg2 m c)
theorem W14_main_arg2 (c : Dev nD) : W14 m c main_arg2 = m ((c : Thread nD τ).loc main_arg2) :=
  (W14_of m c main_arg2 (by decide)).trans (W13_main_arg2 m c)
theorem W15_main_arg2 (c : Dev nD) : W15 m c main_arg2 = m ((c : Thread nD τ).loc main_arg2) :=
  (W15_of m c main_arg2 (by decide)).trans (W14_main_arg2 m c)
theorem W16_main_arg2 (c : Dev nD) : W16 m c main_arg2 = m ((c : Thread nD τ).loc main_arg2) :=
  (W16_of m c main_arg2 (by decide)).trans (W15_main_arg2 m c)
theorem W17_main_arg2 (c : Dev nD) : W17 m c main_arg2 = m ((c : Thread nD τ).loc main_arg2) :=
  (W17_of m c main_arg2 (by decide)).trans (W16_main_arg2 m c)
theorem W18_main_arg2 (c : Dev nD) : W18 m c main_arg2 = m ((c : Thread nD τ).loc main_arg2) :=
  (W18_of m c main_arg2 (by decide)).trans (W17_main_arg2 m c)
theorem W19_main_arg2 (c : Dev nD) : W19 m c main_arg2 = m ((c : Thread nD τ).loc main_arg2) :=
  (W19_of m c main_arg2 (by decide)).trans (W18_main_arg2 m c)
theorem W20_main_arg2 (c : Dev nD) : W20 m c main_arg2 = m ((c : Thread nD τ).loc main_arg2) :=
  (W20_of m c main_arg2 (by decide)).trans (W19_main_arg2 m c)
theorem W21_main_arg2 (c : Dev nD) : W21 m c main_arg2 = m ((c : Thread nD τ).loc main_arg2) :=
  (W21_of m c main_arg2 (by decide)).trans (W20_main_arg2 m c)
theorem W22_main_arg2 (c : Dev nD) : W22 m c main_arg2 = m ((c : Thread nD τ).loc main_arg2) :=
  (W22_of m c main_arg2 (by decide)).trans (W21_main_arg2 m c)
theorem W23_main_arg2 (c : Dev nD) : W23 m c main_arg2 = m ((c : Thread nD τ).loc main_arg2) :=
  (W23_of m c main_arg2 (by decide)).trans (W22_main_arg2 m c)
theorem W24_main_arg2 (c : Dev nD) : W24 m c main_arg2 = m ((c : Thread nD τ).loc main_arg2) :=
  (W24_of m c main_arg2 (by decide)).trans (W23_main_arg2 m c)
theorem W25_main_arg2 (c : Dev nD) : W25 m c main_arg2 = m ((c : Thread nD τ).loc main_arg2) :=
  (W25_of m c main_arg2 (by decide)).trans (W24_main_arg2 m c)
theorem W26_main_arg2 (c : Dev nD) : W26 m c main_arg2 = m ((c : Thread nD τ).loc main_arg2) :=
  (W26_of m c main_arg2 (by decide)).trans (W25_main_arg2 m c)
theorem W27_main_arg2 (c : Dev nD) : W27 m c main_arg2 = m ((c : Thread nD τ).loc main_arg2) :=
  (W27_of m c main_arg2 (by decide)).trans (W26_main_arg2 m c)
theorem W28_main_arg2 (c : Dev nD) : W28 m c main_arg2 = m ((c : Thread nD τ).loc main_arg2) :=
  (W28_of m c main_arg2 (by decide)).trans (W27_main_arg2 m c)
theorem W29_main_arg2 (c : Dev nD) : W29 m c main_arg2 = m ((c : Thread nD τ).loc main_arg2) :=
  (W29_of m c main_arg2 (by decide)).trans (W28_main_arg2 m c)
theorem W30_main_arg2 (c : Dev nD) : W30 m c main_arg2 = m ((c : Thread nD τ).loc main_arg2) :=
  (W30_of m c main_arg2 (by decide)).trans (W29_main_arg2 m c)
theorem W31_main_arg2 (c : Dev nD) : W31 m c main_arg2 = m ((c : Thread nD τ).loc main_arg2) :=
  (W31_of m c main_arg2 (by decide)).trans (W30_main_arg2 m c)
theorem W32_main_arg2 (c : Dev nD) : W32 m c main_arg2 = m ((c : Thread nD τ).loc main_arg2) :=
  (W32_of m c main_arg2 (by decide)).trans (W31_main_arg2 m c)
theorem W33_main_arg2 (c : Dev nD) : W33 m c main_arg2 = m ((c : Thread nD τ).loc main_arg2) :=
  (W33_of m c main_arg2 (by decide)).trans (W32_main_arg2 m c)
theorem W34_main_arg2 (c : Dev nD) : W34 m c main_arg2 = m ((c : Thread nD τ).loc main_arg2) :=
  (W34_of m c main_arg2 (by decide)).trans (W33_main_arg2 m c)
theorem W35_main_arg2 (c : Dev nD) : W35 m c main_arg2 = m ((c : Thread nD τ).loc main_arg2) :=
  (W35_of m c main_arg2 (by decide)).trans (W34_main_arg2 m c)
theorem W36_main_arg2 (c : Dev nD) : W36 m c main_arg2 = m ((c : Thread nD τ).loc main_arg2) :=
  (W36_of m c main_arg2 (by decide)).trans (W35_main_arg2 m c)
theorem W37_main_arg2 (c : Dev nD) : W37 m c main_arg2 = m ((c : Thread nD τ).loc main_arg2) :=
  (W37_of m c main_arg2 (by decide)).trans (W36_main_arg2 m c)
theorem W38_main_arg2 (c : Dev nD) : W38 m c main_arg2 = m ((c : Thread nD τ).loc main_arg2) :=
  (W38_of m c main_arg2 (by decide)).trans (W37_main_arg2 m c)
theorem W39_main_arg2 (c : Dev nD) : W39 m c main_arg2 = m ((c : Thread nD τ).loc main_arg2) :=
  (W39_of m c main_arg2 (by decide)).trans (W38_main_arg2 m c)
theorem W40_main_arg2 (c : Dev nD) : W40 m c main_arg2 = m ((c : Thread nD τ).loc main_arg2) :=
  (W40_of m c main_arg2 (by decide)).trans (W39_main_arg2 m c)
theorem W41_main_arg2 (c : Dev nD) : W41 m c main_arg2 = m ((c : Thread nD τ).loc main_arg2) :=
  (W41_of m c main_arg2 (by decide)).trans (W40_main_arg2 m c)
theorem W42_main_arg2 (c : Dev nD) : W42 m c main_arg2 = m ((c : Thread nD τ).loc main_arg2) :=
  (W42_of m c main_arg2 (by decide)).trans (W41_main_arg2 m c)
theorem W43_main_arg2 (c : Dev nD) : W43 m c main_arg2 = m ((c : Thread nD τ).loc main_arg2) :=
  (W43_of m c main_arg2 (by decide)).trans (W42_main_arg2 m c)
theorem W44_main_arg2 (c : Dev nD) : W44 m c main_arg2 = m ((c : Thread nD τ).loc main_arg2) :=
  (W44_of m c main_arg2 (by decide)).trans (W43_main_arg2 m c)
theorem W45_main_arg2 (c : Dev nD) : W45 m c main_arg2 = m ((c : Thread nD τ).loc main_arg2) :=
  (W45_of m c main_arg2 (by decide)).trans (W44_main_arg2 m c)
theorem W46_main_arg2 (c : Dev nD) : W46 m c main_arg2 = m ((c : Thread nD τ).loc main_arg2) :=
  (W46_of m c main_arg2 (by decide)).trans (W45_main_arg2 m c)
theorem W47_main_arg2 (c : Dev nD) : W47 m c main_arg2 = m ((c : Thread nD τ).loc main_arg2) :=
  (W47_of m c main_arg2 (by decide)).trans (W46_main_arg2 m c)
theorem W48_main_arg2 (c : Dev nD) : W48 m c main_arg2 = m ((c : Thread nD τ).loc main_arg2) :=
  (W48_of m c main_arg2 (by decide)).trans (W47_main_arg2 m c)
theorem W49_main_arg2 (c : Dev nD) : W49 m c main_arg2 = m ((c : Thread nD τ).loc main_arg2) :=
  (W49_of m c main_arg2 (by decide)).trans (W48_main_arg2 m c)
theorem W50_main_arg2 (c : Dev nD) : W50 m c main_arg2 = m ((c : Thread nD τ).loc main_arg2) :=
  (W50_of m c main_arg2 (by decide)).trans (W49_main_arg2 m c)
theorem W51_main_arg2 (c : Dev nD) : W51 m c main_arg2 = m ((c : Thread nD τ).loc main_arg2) :=
  (W51_of m c main_arg2 (by decide)).trans (W50_main_arg2 m c)
theorem W52_main_arg2 (c : Dev nD) : W52 m c main_arg2 = m ((c : Thread nD τ).loc main_arg2) :=
  (W52_of m c main_arg2 (by decide)).trans (W51_main_arg2 m c)
theorem W53_main_arg2 (c : Dev nD) : W53 m c main_arg2 = m ((c : Thread nD τ).loc main_arg2) :=
  (W53_of m c main_arg2 (by decide)).trans (W52_main_arg2 m c)
theorem W54_main_arg2 (c : Dev nD) : W54 m c main_arg2 = m ((c : Thread nD τ).loc main_arg2) :=
  (W54_of m c main_arg2 (by decide)).trans (W53_main_arg2 m c)
theorem W0_main_arg3 (c : Dev nD) : W0 m c main_arg3 = m ((c : Thread nD τ).loc main_arg3) :=
  rfl
theorem W1_main_arg3 (c : Dev nD) : W1 m c main_arg3 = m ((c : Thread nD τ).loc main_arg3) :=
  (W1_of m c main_arg3 (by decide)).trans (W0_main_arg3 m c)
theorem W2_main_arg3 (c : Dev nD) : W2 m c main_arg3 = m ((c : Thread nD τ).loc main_arg3) :=
  (W2_of m c main_arg3 (by decide)).trans (W1_main_arg3 m c)
theorem W3_main_arg3 (c : Dev nD) : W3 m c main_arg3 = m ((c : Thread nD τ).loc main_arg3) :=
  (W3_of m c main_arg3 (by decide)).trans (W2_main_arg3 m c)
theorem W4_main_arg3 (c : Dev nD) : W4 m c main_arg3 = m ((c : Thread nD τ).loc main_arg3) :=
  (W4_of m c main_arg3 (by decide)).trans (W3_main_arg3 m c)
theorem W5_main_arg3 (c : Dev nD) : W5 m c main_arg3 = m ((c : Thread nD τ).loc main_arg3) :=
  (W5_of m c main_arg3 (by decide)).trans (W4_main_arg3 m c)
theorem W6_main_arg3 (c : Dev nD) : W6 m c main_arg3 = m ((c : Thread nD τ).loc main_arg3) :=
  (W6_of m c main_arg3 (by decide)).trans (W5_main_arg3 m c)
theorem W7_main_arg3 (c : Dev nD) : W7 m c main_arg3 = m ((c : Thread nD τ).loc main_arg3) :=
  (W7_of m c main_arg3 (by decide)).trans (W6_main_arg3 m c)
theorem W8_main_arg3 (c : Dev nD) : W8 m c main_arg3 = m ((c : Thread nD τ).loc main_arg3) :=
  (W8_of m c main_arg3 (by decide)).trans (W7_main_arg3 m c)
theorem W9_main_arg3 (c : Dev nD) : W9 m c main_arg3 = m ((c : Thread nD τ).loc main_arg3) :=
  (W9_of m c main_arg3 (by decide)).trans (W8_main_arg3 m c)
theorem W10_main_arg3 (c : Dev nD) : W10 m c main_arg3 = m ((c : Thread nD τ).loc main_arg3) :=
  (W10_of m c main_arg3 (by decide)).trans (W9_main_arg3 m c)
theorem W11_main_arg3 (c : Dev nD) : W11 m c main_arg3 = m ((c : Thread nD τ).loc main_arg3) :=
  (W11_of m c main_arg3 (by decide)).trans (W10_main_arg3 m c)
theorem W12_main_arg3 (c : Dev nD) : W12 m c main_arg3 = m ((c : Thread nD τ).loc main_arg3) :=
  (W12_of m c main_arg3 (by decide)).trans (W11_main_arg3 m c)
theorem W13_main_arg3 (c : Dev nD) : W13 m c main_arg3 = m ((c : Thread nD τ).loc main_arg3) :=
  (W13_of m c main_arg3 (by decide)).trans (W12_main_arg3 m c)
theorem W14_main_arg3 (c : Dev nD) : W14 m c main_arg3 = m ((c : Thread nD τ).loc main_arg3) :=
  (W14_of m c main_arg3 (by decide)).trans (W13_main_arg3 m c)
theorem W15_main_arg3 (c : Dev nD) : W15 m c main_arg3 = m ((c : Thread nD τ).loc main_arg3) :=
  (W15_of m c main_arg3 (by decide)).trans (W14_main_arg3 m c)
theorem W16_main_arg3 (c : Dev nD) : W16 m c main_arg3 = m ((c : Thread nD τ).loc main_arg3) :=
  (W16_of m c main_arg3 (by decide)).trans (W15_main_arg3 m c)
theorem W17_main_arg3 (c : Dev nD) : W17 m c main_arg3 = m ((c : Thread nD τ).loc main_arg3) :=
  (W17_of m c main_arg3 (by decide)).trans (W16_main_arg3 m c)
theorem W18_main_arg3 (c : Dev nD) : W18 m c main_arg3 = m ((c : Thread nD τ).loc main_arg3) :=
  (W18_of m c main_arg3 (by decide)).trans (W17_main_arg3 m c)
theorem W19_main_arg3 (c : Dev nD) : W19 m c main_arg3 = m ((c : Thread nD τ).loc main_arg3) :=
  (W19_of m c main_arg3 (by decide)).trans (W18_main_arg3 m c)
theorem W20_main_arg3 (c : Dev nD) : W20 m c main_arg3 = m ((c : Thread nD τ).loc main_arg3) :=
  (W20_of m c main_arg3 (by decide)).trans (W19_main_arg3 m c)
theorem W21_main_arg3 (c : Dev nD) : W21 m c main_arg3 = m ((c : Thread nD τ).loc main_arg3) :=
  (W21_of m c main_arg3 (by decide)).trans (W20_main_arg3 m c)
theorem W22_main_arg3 (c : Dev nD) : W22 m c main_arg3 = m ((c : Thread nD τ).loc main_arg3) :=
  (W22_of m c main_arg3 (by decide)).trans (W21_main_arg3 m c)
theorem W23_main_arg3 (c : Dev nD) : W23 m c main_arg3 = m ((c : Thread nD τ).loc main_arg3) :=
  (W23_of m c main_arg3 (by decide)).trans (W22_main_arg3 m c)
theorem W24_main_arg3 (c : Dev nD) : W24 m c main_arg3 = m ((c : Thread nD τ).loc main_arg3) :=
  (W24_of m c main_arg3 (by decide)).trans (W23_main_arg3 m c)
theorem W25_main_arg3 (c : Dev nD) : W25 m c main_arg3 = m ((c : Thread nD τ).loc main_arg3) :=
  (W25_of m c main_arg3 (by decide)).trans (W24_main_arg3 m c)
theorem W26_main_arg3 (c : Dev nD) : W26 m c main_arg3 = m ((c : Thread nD τ).loc main_arg3) :=
  (W26_of m c main_arg3 (by decide)).trans (W25_main_arg3 m c)
theorem W27_main_arg3 (c : Dev nD) : W27 m c main_arg3 = m ((c : Thread nD τ).loc main_arg3) :=
  (W27_of m c main_arg3 (by decide)).trans (W26_main_arg3 m c)
theorem W28_main_arg3 (c : Dev nD) : W28 m c main_arg3 = m ((c : Thread nD τ).loc main_arg3) :=
  (W28_of m c main_arg3 (by decide)).trans (W27_main_arg3 m c)
theorem W29_main_arg3 (c : Dev nD) : W29 m c main_arg3 = m ((c : Thread nD τ).loc main_arg3) :=
  (W29_of m c main_arg3 (by decide)).trans (W28_main_arg3 m c)
theorem W30_main_arg3 (c : Dev nD) : W30 m c main_arg3 = m ((c : Thread nD τ).loc main_arg3) :=
  (W30_of m c main_arg3 (by decide)).trans (W29_main_arg3 m c)
theorem W31_main_arg3 (c : Dev nD) : W31 m c main_arg3 = m ((c : Thread nD τ).loc main_arg3) :=
  (W31_of m c main_arg3 (by decide)).trans (W30_main_arg3 m c)
theorem W32_main_arg3 (c : Dev nD) : W32 m c main_arg3 = m ((c : Thread nD τ).loc main_arg3) :=
  (W32_of m c main_arg3 (by decide)).trans (W31_main_arg3 m c)
theorem W33_main_arg3 (c : Dev nD) : W33 m c main_arg3 = m ((c : Thread nD τ).loc main_arg3) :=
  (W33_of m c main_arg3 (by decide)).trans (W32_main_arg3 m c)
theorem W34_main_arg3 (c : Dev nD) : W34 m c main_arg3 = m ((c : Thread nD τ).loc main_arg3) :=
  (W34_of m c main_arg3 (by decide)).trans (W33_main_arg3 m c)
theorem W35_main_arg3 (c : Dev nD) : W35 m c main_arg3 = m ((c : Thread nD τ).loc main_arg3) :=
  (W35_of m c main_arg3 (by decide)).trans (W34_main_arg3 m c)
theorem W36_main_arg3 (c : Dev nD) : W36 m c main_arg3 = m ((c : Thread nD τ).loc main_arg3) :=
  (W36_of m c main_arg3 (by decide)).trans (W35_main_arg3 m c)
theorem W37_main_arg3 (c : Dev nD) : W37 m c main_arg3 = m ((c : Thread nD τ).loc main_arg3) :=
  (W37_of m c main_arg3 (by decide)).trans (W36_main_arg3 m c)
theorem W38_main_arg3 (c : Dev nD) : W38 m c main_arg3 = m ((c : Thread nD τ).loc main_arg3) :=
  (W38_of m c main_arg3 (by decide)).trans (W37_main_arg3 m c)
theorem W39_main_arg3 (c : Dev nD) : W39 m c main_arg3 = m ((c : Thread nD τ).loc main_arg3) :=
  (W39_of m c main_arg3 (by decide)).trans (W38_main_arg3 m c)
theorem W40_main_arg3 (c : Dev nD) : W40 m c main_arg3 = m ((c : Thread nD τ).loc main_arg3) :=
  (W40_of m c main_arg3 (by decide)).trans (W39_main_arg3 m c)
theorem W41_main_arg3 (c : Dev nD) : W41 m c main_arg3 = m ((c : Thread nD τ).loc main_arg3) :=
  (W41_of m c main_arg3 (by decide)).trans (W40_main_arg3 m c)
theorem W42_main_arg3 (c : Dev nD) : W42 m c main_arg3 = m ((c : Thread nD τ).loc main_arg3) :=
  (W42_of m c main_arg3 (by decide)).trans (W41_main_arg3 m c)
theorem W43_main_arg3 (c : Dev nD) : W43 m c main_arg3 = m ((c : Thread nD τ).loc main_arg3) :=
  (W43_of m c main_arg3 (by decide)).trans (W42_main_arg3 m c)
theorem W44_main_arg3 (c : Dev nD) : W44 m c main_arg3 = m ((c : Thread nD τ).loc main_arg3) :=
  (W44_of m c main_arg3 (by decide)).trans (W43_main_arg3 m c)
theorem W45_main_arg3 (c : Dev nD) : W45 m c main_arg3 = m ((c : Thread nD τ).loc main_arg3) :=
  (W45_of m c main_arg3 (by decide)).trans (W44_main_arg3 m c)
theorem W46_main_arg3 (c : Dev nD) : W46 m c main_arg3 = m ((c : Thread nD τ).loc main_arg3) :=
  (W46_of m c main_arg3 (by decide)).trans (W45_main_arg3 m c)
theorem W47_main_arg3 (c : Dev nD) : W47 m c main_arg3 = m ((c : Thread nD τ).loc main_arg3) :=
  (W47_of m c main_arg3 (by decide)).trans (W46_main_arg3 m c)
theorem W48_main_arg3 (c : Dev nD) : W48 m c main_arg3 = m ((c : Thread nD τ).loc main_arg3) :=
  (W48_of m c main_arg3 (by decide)).trans (W47_main_arg3 m c)
theorem W49_main_arg3 (c : Dev nD) : W49 m c main_arg3 = m ((c : Thread nD τ).loc main_arg3) :=
  (W49_of m c main_arg3 (by decide)).trans (W48_main_arg3 m c)
theorem W50_main_arg3 (c : Dev nD) : W50 m c main_arg3 = m ((c : Thread nD τ).loc main_arg3) :=
  (W50_of m c main_arg3 (by decide)).trans (W49_main_arg3 m c)
theorem W51_main_arg3 (c : Dev nD) : W51 m c main_arg3 = m ((c : Thread nD τ).loc main_arg3) :=
  (W51_of m c main_arg3 (by decide)).trans (W50_main_arg3 m c)
theorem W52_main_arg3 (c : Dev nD) : W52 m c main_arg3 = m ((c : Thread nD τ).loc main_arg3) :=
  (W52_of m c main_arg3 (by decide)).trans (W51_main_arg3 m c)
theorem W53_main_arg3 (c : Dev nD) : W53 m c main_arg3 = m ((c : Thread nD τ).loc main_arg3) :=
  (W53_of m c main_arg3 (by decide)).trans (W52_main_arg3 m c)
theorem W54_main_arg3 (c : Dev nD) : W54 m c main_arg3 = m ((c : Thread nD τ).loc main_arg3) :=
  (W54_of m c main_arg3 (by decide)).trans (W53_main_arg3 m c)
theorem W0_main_arg4 (c : Dev nD) : W0 m c main_arg4 = m ((c : Thread nD τ).loc main_arg4) :=
  rfl
theorem W1_main_arg4 (c : Dev nD) : W1 m c main_arg4 = m ((c : Thread nD τ).loc main_arg4) :=
  (W1_of m c main_arg4 (by decide)).trans (W0_main_arg4 m c)
theorem W2_main_arg4 (c : Dev nD) : W2 m c main_arg4 = m ((c : Thread nD τ).loc main_arg4) :=
  (W2_of m c main_arg4 (by decide)).trans (W1_main_arg4 m c)
theorem W3_main_arg4 (c : Dev nD) : W3 m c main_arg4 = m ((c : Thread nD τ).loc main_arg4) :=
  (W3_of m c main_arg4 (by decide)).trans (W2_main_arg4 m c)
theorem W4_main_arg4 (c : Dev nD) : W4 m c main_arg4 = m ((c : Thread nD τ).loc main_arg4) :=
  (W4_of m c main_arg4 (by decide)).trans (W3_main_arg4 m c)
theorem W5_main_arg4 (c : Dev nD) : W5 m c main_arg4 = m ((c : Thread nD τ).loc main_arg4) :=
  (W5_of m c main_arg4 (by decide)).trans (W4_main_arg4 m c)
theorem W6_main_arg4 (c : Dev nD) : W6 m c main_arg4 = m ((c : Thread nD τ).loc main_arg4) :=
  (W6_of m c main_arg4 (by decide)).trans (W5_main_arg4 m c)
theorem W7_main_arg4 (c : Dev nD) : W7 m c main_arg4 = m ((c : Thread nD τ).loc main_arg4) :=
  (W7_of m c main_arg4 (by decide)).trans (W6_main_arg4 m c)
theorem W8_main_arg4 (c : Dev nD) : W8 m c main_arg4 = m ((c : Thread nD τ).loc main_arg4) :=
  (W8_of m c main_arg4 (by decide)).trans (W7_main_arg4 m c)
theorem W9_main_arg4 (c : Dev nD) : W9 m c main_arg4 = m ((c : Thread nD τ).loc main_arg4) :=
  (W9_of m c main_arg4 (by decide)).trans (W8_main_arg4 m c)
theorem W10_main_arg4 (c : Dev nD) : W10 m c main_arg4 = m ((c : Thread nD τ).loc main_arg4) :=
  (W10_of m c main_arg4 (by decide)).trans (W9_main_arg4 m c)
theorem W11_main_arg4 (c : Dev nD) : W11 m c main_arg4 = m ((c : Thread nD τ).loc main_arg4) :=
  (W11_of m c main_arg4 (by decide)).trans (W10_main_arg4 m c)
theorem W12_main_arg4 (c : Dev nD) : W12 m c main_arg4 = m ((c : Thread nD τ).loc main_arg4) :=
  (W12_of m c main_arg4 (by decide)).trans (W11_main_arg4 m c)
theorem W13_main_arg4 (c : Dev nD) : W13 m c main_arg4 = m ((c : Thread nD τ).loc main_arg4) :=
  (W13_of m c main_arg4 (by decide)).trans (W12_main_arg4 m c)
theorem W14_main_arg4 (c : Dev nD) : W14 m c main_arg4 = m ((c : Thread nD τ).loc main_arg4) :=
  (W14_of m c main_arg4 (by decide)).trans (W13_main_arg4 m c)
theorem W15_main_arg4 (c : Dev nD) : W15 m c main_arg4 = m ((c : Thread nD τ).loc main_arg4) :=
  (W15_of m c main_arg4 (by decide)).trans (W14_main_arg4 m c)
theorem W16_main_arg4 (c : Dev nD) : W16 m c main_arg4 = m ((c : Thread nD τ).loc main_arg4) :=
  (W16_of m c main_arg4 (by decide)).trans (W15_main_arg4 m c)
theorem W17_main_arg4 (c : Dev nD) : W17 m c main_arg4 = m ((c : Thread nD τ).loc main_arg4) :=
  (W17_of m c main_arg4 (by decide)).trans (W16_main_arg4 m c)
theorem W18_main_arg4 (c : Dev nD) : W18 m c main_arg4 = m ((c : Thread nD τ).loc main_arg4) :=
  (W18_of m c main_arg4 (by decide)).trans (W17_main_arg4 m c)
theorem W19_main_arg4 (c : Dev nD) : W19 m c main_arg4 = m ((c : Thread nD τ).loc main_arg4) :=
  (W19_of m c main_arg4 (by decide)).trans (W18_main_arg4 m c)
theorem W20_main_arg4 (c : Dev nD) : W20 m c main_arg4 = m ((c : Thread nD τ).loc main_arg4) :=
  (W20_of m c main_arg4 (by decide)).trans (W19_main_arg4 m c)
theorem W21_main_arg4 (c : Dev nD) : W21 m c main_arg4 = m ((c : Thread nD τ).loc main_arg4) :=
  (W21_of m c main_arg4 (by decide)).trans (W20_main_arg4 m c)
theorem W22_main_arg4 (c : Dev nD) : W22 m c main_arg4 = m ((c : Thread nD τ).loc main_arg4) :=
  (W22_of m c main_arg4 (by decide)).trans (W21_main_arg4 m c)
theorem W23_main_arg4 (c : Dev nD) : W23 m c main_arg4 = m ((c : Thread nD τ).loc main_arg4) :=
  (W23_of m c main_arg4 (by decide)).trans (W22_main_arg4 m c)
theorem W24_main_arg4 (c : Dev nD) : W24 m c main_arg4 = m ((c : Thread nD τ).loc main_arg4) :=
  (W24_of m c main_arg4 (by decide)).trans (W23_main_arg4 m c)
theorem W25_main_arg4 (c : Dev nD) : W25 m c main_arg4 = m ((c : Thread nD τ).loc main_arg4) :=
  (W25_of m c main_arg4 (by decide)).trans (W24_main_arg4 m c)
theorem W26_main_arg4 (c : Dev nD) : W26 m c main_arg4 = m ((c : Thread nD τ).loc main_arg4) :=
  (W26_of m c main_arg4 (by decide)).trans (W25_main_arg4 m c)
theorem W27_main_arg4 (c : Dev nD) : W27 m c main_arg4 = m ((c : Thread nD τ).loc main_arg4) :=
  (W27_of m c main_arg4 (by decide)).trans (W26_main_arg4 m c)
theorem W28_main_arg4 (c : Dev nD) : W28 m c main_arg4 = m ((c : Thread nD τ).loc main_arg4) :=
  (W28_of m c main_arg4 (by decide)).trans (W27_main_arg4 m c)
theorem W29_main_arg4 (c : Dev nD) : W29 m c main_arg4 = m ((c : Thread nD τ).loc main_arg4) :=
  (W29_of m c main_arg4 (by decide)).trans (W28_main_arg4 m c)
theorem W30_main_arg4 (c : Dev nD) : W30 m c main_arg4 = m ((c : Thread nD τ).loc main_arg4) :=
  (W30_of m c main_arg4 (by decide)).trans (W29_main_arg4 m c)
theorem W31_main_arg4 (c : Dev nD) : W31 m c main_arg4 = m ((c : Thread nD τ).loc main_arg4) :=
  (W31_of m c main_arg4 (by decide)).trans (W30_main_arg4 m c)
theorem W32_main_arg4 (c : Dev nD) : W32 m c main_arg4 = m ((c : Thread nD τ).loc main_arg4) :=
  (W32_of m c main_arg4 (by decide)).trans (W31_main_arg4 m c)
theorem W33_main_arg4 (c : Dev nD) : W33 m c main_arg4 = m ((c : Thread nD τ).loc main_arg4) :=
  (W33_of m c main_arg4 (by decide)).trans (W32_main_arg4 m c)
theorem W34_main_arg4 (c : Dev nD) : W34 m c main_arg4 = m ((c : Thread nD τ).loc main_arg4) :=
  (W34_of m c main_arg4 (by decide)).trans (W33_main_arg4 m c)
theorem W35_main_arg4 (c : Dev nD) : W35 m c main_arg4 = m ((c : Thread nD τ).loc main_arg4) :=
  (W35_of m c main_arg4 (by decide)).trans (W34_main_arg4 m c)
theorem W36_main_arg4 (c : Dev nD) : W36 m c main_arg4 = m ((c : Thread nD τ).loc main_arg4) :=
  (W36_of m c main_arg4 (by decide)).trans (W35_main_arg4 m c)
theorem W37_main_arg4 (c : Dev nD) : W37 m c main_arg4 = m ((c : Thread nD τ).loc main_arg4) :=
  (W37_of m c main_arg4 (by decide)).trans (W36_main_arg4 m c)
theorem W38_main_arg4 (c : Dev nD) : W38 m c main_arg4 = m ((c : Thread nD τ).loc main_arg4) :=
  (W38_of m c main_arg4 (by decide)).trans (W37_main_arg4 m c)
theorem W39_main_arg4 (c : Dev nD) : W39 m c main_arg4 = m ((c : Thread nD τ).loc main_arg4) :=
  (W39_of m c main_arg4 (by decide)).trans (W38_main_arg4 m c)
theorem W40_main_arg4 (c : Dev nD) : W40 m c main_arg4 = m ((c : Thread nD τ).loc main_arg4) :=
  (W40_of m c main_arg4 (by decide)).trans (W39_main_arg4 m c)
theorem W41_main_arg4 (c : Dev nD) : W41 m c main_arg4 = m ((c : Thread nD τ).loc main_arg4) :=
  (W41_of m c main_arg4 (by decide)).trans (W40_main_arg4 m c)
theorem W42_main_arg4 (c : Dev nD) : W42 m c main_arg4 = m ((c : Thread nD τ).loc main_arg4) :=
  (W42_of m c main_arg4 (by decide)).trans (W41_main_arg4 m c)
theorem W43_main_arg4 (c : Dev nD) : W43 m c main_arg4 = m ((c : Thread nD τ).loc main_arg4) :=
  (W43_of m c main_arg4 (by decide)).trans (W42_main_arg4 m c)
theorem W44_main_arg4 (c : Dev nD) : W44 m c main_arg4 = m ((c : Thread nD τ).loc main_arg4) :=
  (W44_of m c main_arg4 (by decide)).trans (W43_main_arg4 m c)
theorem W45_main_arg4 (c : Dev nD) : W45 m c main_arg4 = m ((c : Thread nD τ).loc main_arg4) :=
  (W45_of m c main_arg4 (by decide)).trans (W44_main_arg4 m c)
theorem W46_main_arg4 (c : Dev nD) : W46 m c main_arg4 = m ((c : Thread nD τ).loc main_arg4) :=
  (W46_of m c main_arg4 (by decide)).trans (W45_main_arg4 m c)
theorem W47_main_arg4 (c : Dev nD) : W47 m c main_arg4 = m ((c : Thread nD τ).loc main_arg4) :=
  (W47_of m c main_arg4 (by decide)).trans (W46_main_arg4 m c)
theorem W48_main_arg4 (c : Dev nD) : W48 m c main_arg4 = m ((c : Thread nD τ).loc main_arg4) :=
  (W48_of m c main_arg4 (by decide)).trans (W47_main_arg4 m c)
theorem W49_main_arg4 (c : Dev nD) : W49 m c main_arg4 = m ((c : Thread nD τ).loc main_arg4) :=
  (W49_of m c main_arg4 (by decide)).trans (W48_main_arg4 m c)
theorem W50_main_arg4 (c : Dev nD) : W50 m c main_arg4 = m ((c : Thread nD τ).loc main_arg4) :=
  (W50_of m c main_arg4 (by decide)).trans (W49_main_arg4 m c)
theorem W51_main_arg4 (c : Dev nD) : W51 m c main_arg4 = m ((c : Thread nD τ).loc main_arg4) :=
  (W51_of m c main_arg4 (by decide)).trans (W50_main_arg4 m c)
theorem W52_main_arg4 (c : Dev nD) : W52 m c main_arg4 = m ((c : Thread nD τ).loc main_arg4) :=
  (W52_of m c main_arg4 (by decide)).trans (W51_main_arg4 m c)
theorem W53_main_arg4 (c : Dev nD) : W53 m c main_arg4 = m ((c : Thread nD τ).loc main_arg4) :=
  (W53_of m c main_arg4 (by decide)).trans (W52_main_arg4 m c)
theorem W54_main_arg4 (c : Dev nD) : W54 m c main_arg4 = m ((c : Thread nD τ).loc main_arg4) :=
  (W54_of m c main_arg4 (by decide)).trans (W53_main_arg4 m c)

/-! ## The transposed neighbour table is written once; each gather launch's table is a slice of it -/

theorem W1_main_v0 (c : Dev nD) : W1 m c main_v0 = (transpose S16x50000 [1, 0] (m ((c : Thread nD τ).loc main_arg4)) transposes_S50000x16_S16x50000_1_0) :=
  by unfold W1 W0; after_results; first | done | rfl
theorem W2_main_v0 (c : Dev nD) : W2 m c main_v0 = (transpose S16x50000 [1, 0] (m ((c : Thread nD τ).loc main_arg4)) transposes_S50000x16_S16x50000_1_0) :=
  (W2_of m c main_v0 (by decide)).trans (W1_main_v0 m c)
theorem W3_main_v0 (c : Dev nD) : W3 m c main_v0 = (transpose S16x50000 [1, 0] (m ((c : Thread nD τ).loc main_arg4)) transposes_S50000x16_S16x50000_1_0) :=
  (W3_of m c main_v0 (by decide)).trans (W2_main_v0 m c)
theorem W4_main_v0 (c : Dev nD) : W4 m c main_v0 = (transpose S16x50000 [1, 0] (m ((c : Thread nD τ).loc main_arg4)) transposes_S50000x16_S16x50000_1_0) :=
  (W4_of m c main_v0 (by decide)).trans (W3_main_v0 m c)
theorem W5_main_v0 (c : Dev nD) : W5 m c main_v0 = (transpose S16x50000 [1, 0] (m ((c : Thread nD τ).loc main_arg4)) transposes_S50000x16_S16x50000_1_0) :=
  (W5_of m c main_v0 (by decide)).trans (W4_main_v0 m c)
theorem W6_main_v0 (c : Dev nD) : W6 m c main_v0 = (transpose S16x50000 [1, 0] (m ((c : Thread nD τ).loc main_arg4)) transposes_S50000x16_S16x50000_1_0) :=
  (W6_of m c main_v0 (by decide)).trans (W5_main_v0 m c)
theorem W7_main_v0 (c : Dev nD) : W7 m c main_v0 = (transpose S16x50000 [1, 0] (m ((c : Thread nD τ).loc main_arg4)) transposes_S50000x16_S16x50000_1_0) :=
  (W7_of m c main_v0 (by decide)).trans (W6_main_v0 m c)
theorem W8_main_v0 (c : Dev nD) : W8 m c main_v0 = (transpose S16x50000 [1, 0] (m ((c : Thread nD τ).loc main_arg4)) transposes_S50000x16_S16x50000_1_0) :=
  (W8_of m c main_v0 (by decide)).trans (W7_main_v0 m c)
theorem W9_main_v0 (c : Dev nD) : W9 m c main_v0 = (transpose S16x50000 [1, 0] (m ((c : Thread nD τ).loc main_arg4)) transposes_S50000x16_S16x50000_1_0) :=
  (W9_of m c main_v0 (by decide)).trans (W8_main_v0 m c)
theorem W10_main_v0 (c : Dev nD) : W10 m c main_v0 = (transpose S16x50000 [1, 0] (m ((c : Thread nD τ).loc main_arg4)) transposes_S50000x16_S16x50000_1_0) :=
  (W10_of m c main_v0 (by decide)).trans (W9_main_v0 m c)
theorem W11_main_v0 (c : Dev nD) : W11 m c main_v0 = (transpose S16x50000 [1, 0] (m ((c : Thread nD τ).loc main_arg4)) transposes_S50000x16_S16x50000_1_0) :=
  (W11_of m c main_v0 (by decide)).trans (W10_main_v0 m c)
theorem W12_main_v0 (c : Dev nD) : W12 m c main_v0 = (transpose S16x50000 [1, 0] (m ((c : Thread nD τ).loc main_arg4)) transposes_S50000x16_S16x50000_1_0) :=
  (W12_of m c main_v0 (by decide)).trans (W11_main_v0 m c)
theorem W13_main_v0 (c : Dev nD) : W13 m c main_v0 = (transpose S16x50000 [1, 0] (m ((c : Thread nD τ).loc main_arg4)) transposes_S50000x16_S16x50000_1_0) :=
  (W13_of m c main_v0 (by decide)).trans (W12_main_v0 m c)
theorem W14_main_v0 (c : Dev nD) : W14 m c main_v0 = (transpose S16x50000 [1, 0] (m ((c : Thread nD τ).loc main_arg4)) transposes_S50000x16_S16x50000_1_0) :=
  (W14_of m c main_v0 (by decide)).trans (W13_main_v0 m c)
theorem W15_main_v0 (c : Dev nD) : W15 m c main_v0 = (transpose S16x50000 [1, 0] (m ((c : Thread nD τ).loc main_arg4)) transposes_S50000x16_S16x50000_1_0) :=
  (W15_of m c main_v0 (by decide)).trans (W14_main_v0 m c)
theorem W16_main_v0 (c : Dev nD) : W16 m c main_v0 = (transpose S16x50000 [1, 0] (m ((c : Thread nD τ).loc main_arg4)) transposes_S50000x16_S16x50000_1_0) :=
  (W16_of m c main_v0 (by decide)).trans (W15_main_v0 m c)
theorem W17_main_v0 (c : Dev nD) : W17 m c main_v0 = (transpose S16x50000 [1, 0] (m ((c : Thread nD τ).loc main_arg4)) transposes_S50000x16_S16x50000_1_0) :=
  (W17_of m c main_v0 (by decide)).trans (W16_main_v0 m c)
theorem W18_main_v0 (c : Dev nD) : W18 m c main_v0 = (transpose S16x50000 [1, 0] (m ((c : Thread nD τ).loc main_arg4)) transposes_S50000x16_S16x50000_1_0) :=
  (W18_of m c main_v0 (by decide)).trans (W17_main_v0 m c)
theorem W19_main_v0 (c : Dev nD) : W19 m c main_v0 = (transpose S16x50000 [1, 0] (m ((c : Thread nD τ).loc main_arg4)) transposes_S50000x16_S16x50000_1_0) :=
  (W19_of m c main_v0 (by decide)).trans (W18_main_v0 m c)
theorem W20_main_v0 (c : Dev nD) : W20 m c main_v0 = (transpose S16x50000 [1, 0] (m ((c : Thread nD τ).loc main_arg4)) transposes_S50000x16_S16x50000_1_0) :=
  (W20_of m c main_v0 (by decide)).trans (W19_main_v0 m c)
theorem W21_main_v0 (c : Dev nD) : W21 m c main_v0 = (transpose S16x50000 [1, 0] (m ((c : Thread nD τ).loc main_arg4)) transposes_S50000x16_S16x50000_1_0) :=
  (W21_of m c main_v0 (by decide)).trans (W20_main_v0 m c)
theorem W22_main_v0 (c : Dev nD) : W22 m c main_v0 = (transpose S16x50000 [1, 0] (m ((c : Thread nD τ).loc main_arg4)) transposes_S50000x16_S16x50000_1_0) :=
  (W22_of m c main_v0 (by decide)).trans (W21_main_v0 m c)
theorem W23_main_v0 (c : Dev nD) : W23 m c main_v0 = (transpose S16x50000 [1, 0] (m ((c : Thread nD τ).loc main_arg4)) transposes_S50000x16_S16x50000_1_0) :=
  (W23_of m c main_v0 (by decide)).trans (W22_main_v0 m c)
theorem W24_main_v0 (c : Dev nD) : W24 m c main_v0 = (transpose S16x50000 [1, 0] (m ((c : Thread nD τ).loc main_arg4)) transposes_S50000x16_S16x50000_1_0) :=
  (W24_of m c main_v0 (by decide)).trans (W23_main_v0 m c)
theorem W25_main_v0 (c : Dev nD) : W25 m c main_v0 = (transpose S16x50000 [1, 0] (m ((c : Thread nD τ).loc main_arg4)) transposes_S50000x16_S16x50000_1_0) :=
  (W25_of m c main_v0 (by decide)).trans (W24_main_v0 m c)
theorem W26_main_v0 (c : Dev nD) : W26 m c main_v0 = (transpose S16x50000 [1, 0] (m ((c : Thread nD τ).loc main_arg4)) transposes_S50000x16_S16x50000_1_0) :=
  (W26_of m c main_v0 (by decide)).trans (W25_main_v0 m c)
theorem W27_main_v0 (c : Dev nD) : W27 m c main_v0 = (transpose S16x50000 [1, 0] (m ((c : Thread nD τ).loc main_arg4)) transposes_S50000x16_S16x50000_1_0) :=
  (W27_of m c main_v0 (by decide)).trans (W26_main_v0 m c)
theorem W28_main_v0 (c : Dev nD) : W28 m c main_v0 = (transpose S16x50000 [1, 0] (m ((c : Thread nD τ).loc main_arg4)) transposes_S50000x16_S16x50000_1_0) :=
  (W28_of m c main_v0 (by decide)).trans (W27_main_v0 m c)
theorem W29_main_v0 (c : Dev nD) : W29 m c main_v0 = (transpose S16x50000 [1, 0] (m ((c : Thread nD τ).loc main_arg4)) transposes_S50000x16_S16x50000_1_0) :=
  (W29_of m c main_v0 (by decide)).trans (W28_main_v0 m c)
theorem W30_main_v0 (c : Dev nD) : W30 m c main_v0 = (transpose S16x50000 [1, 0] (m ((c : Thread nD τ).loc main_arg4)) transposes_S50000x16_S16x50000_1_0) :=
  (W30_of m c main_v0 (by decide)).trans (W29_main_v0 m c)
theorem W31_main_v0 (c : Dev nD) : W31 m c main_v0 = (transpose S16x50000 [1, 0] (m ((c : Thread nD τ).loc main_arg4)) transposes_S50000x16_S16x50000_1_0) :=
  (W31_of m c main_v0 (by decide)).trans (W30_main_v0 m c)
theorem W32_main_v0 (c : Dev nD) : W32 m c main_v0 = (transpose S16x50000 [1, 0] (m ((c : Thread nD τ).loc main_arg4)) transposes_S50000x16_S16x50000_1_0) :=
  (W32_of m c main_v0 (by decide)).trans (W31_main_v0 m c)
theorem W33_main_v0 (c : Dev nD) : W33 m c main_v0 = (transpose S16x50000 [1, 0] (m ((c : Thread nD τ).loc main_arg4)) transposes_S50000x16_S16x50000_1_0) :=
  (W33_of m c main_v0 (by decide)).trans (W32_main_v0 m c)
theorem W34_main_v0 (c : Dev nD) : W34 m c main_v0 = (transpose S16x50000 [1, 0] (m ((c : Thread nD τ).loc main_arg4)) transposes_S50000x16_S16x50000_1_0) :=
  (W34_of m c main_v0 (by decide)).trans (W33_main_v0 m c)
theorem W35_main_v0 (c : Dev nD) : W35 m c main_v0 = (transpose S16x50000 [1, 0] (m ((c : Thread nD τ).loc main_arg4)) transposes_S50000x16_S16x50000_1_0) :=
  (W35_of m c main_v0 (by decide)).trans (W34_main_v0 m c)
theorem W36_main_v0 (c : Dev nD) : W36 m c main_v0 = (transpose S16x50000 [1, 0] (m ((c : Thread nD τ).loc main_arg4)) transposes_S50000x16_S16x50000_1_0) :=
  (W36_of m c main_v0 (by decide)).trans (W35_main_v0 m c)
theorem W37_main_v0 (c : Dev nD) : W37 m c main_v0 = (transpose S16x50000 [1, 0] (m ((c : Thread nD τ).loc main_arg4)) transposes_S50000x16_S16x50000_1_0) :=
  (W37_of m c main_v0 (by decide)).trans (W36_main_v0 m c)
theorem W38_main_v0 (c : Dev nD) : W38 m c main_v0 = (transpose S16x50000 [1, 0] (m ((c : Thread nD τ).loc main_arg4)) transposes_S50000x16_S16x50000_1_0) :=
  (W38_of m c main_v0 (by decide)).trans (W37_main_v0 m c)
theorem W39_main_v0 (c : Dev nD) : W39 m c main_v0 = (transpose S16x50000 [1, 0] (m ((c : Thread nD τ).loc main_arg4)) transposes_S50000x16_S16x50000_1_0) :=
  (W39_of m c main_v0 (by decide)).trans (W38_main_v0 m c)
theorem W40_main_v0 (c : Dev nD) : W40 m c main_v0 = (transpose S16x50000 [1, 0] (m ((c : Thread nD τ).loc main_arg4)) transposes_S50000x16_S16x50000_1_0) :=
  (W40_of m c main_v0 (by decide)).trans (W39_main_v0 m c)
theorem W41_main_v0 (c : Dev nD) : W41 m c main_v0 = (transpose S16x50000 [1, 0] (m ((c : Thread nD τ).loc main_arg4)) transposes_S50000x16_S16x50000_1_0) :=
  (W41_of m c main_v0 (by decide)).trans (W40_main_v0 m c)
theorem W42_main_v0 (c : Dev nD) : W42 m c main_v0 = (transpose S16x50000 [1, 0] (m ((c : Thread nD τ).loc main_arg4)) transposes_S50000x16_S16x50000_1_0) :=
  (W42_of m c main_v0 (by decide)).trans (W41_main_v0 m c)
theorem W43_main_v0 (c : Dev nD) : W43 m c main_v0 = (transpose S16x50000 [1, 0] (m ((c : Thread nD τ).loc main_arg4)) transposes_S50000x16_S16x50000_1_0) :=
  (W43_of m c main_v0 (by decide)).trans (W42_main_v0 m c)
theorem W44_main_v0 (c : Dev nD) : W44 m c main_v0 = (transpose S16x50000 [1, 0] (m ((c : Thread nD τ).loc main_arg4)) transposes_S50000x16_S16x50000_1_0) :=
  (W44_of m c main_v0 (by decide)).trans (W43_main_v0 m c)
theorem W45_main_v0 (c : Dev nD) : W45 m c main_v0 = (transpose S16x50000 [1, 0] (m ((c : Thread nD τ).loc main_arg4)) transposes_S50000x16_S16x50000_1_0) :=
  (W45_of m c main_v0 (by decide)).trans (W44_main_v0 m c)
theorem W46_main_v0 (c : Dev nD) : W46 m c main_v0 = (transpose S16x50000 [1, 0] (m ((c : Thread nD τ).loc main_arg4)) transposes_S50000x16_S16x50000_1_0) :=
  (W46_of m c main_v0 (by decide)).trans (W45_main_v0 m c)
theorem W47_main_v0 (c : Dev nD) : W47 m c main_v0 = (transpose S16x50000 [1, 0] (m ((c : Thread nD τ).loc main_arg4)) transposes_S50000x16_S16x50000_1_0) :=
  (W47_of m c main_v0 (by decide)).trans (W46_main_v0 m c)
theorem W48_main_v0 (c : Dev nD) : W48 m c main_v0 = (transpose S16x50000 [1, 0] (m ((c : Thread nD τ).loc main_arg4)) transposes_S50000x16_S16x50000_1_0) :=
  (W48_of m c main_v0 (by decide)).trans (W47_main_v0 m c)
theorem W49_main_v0 (c : Dev nD) : W49 m c main_v0 = (transpose S16x50000 [1, 0] (m ((c : Thread nD τ).loc main_arg4)) transposes_S50000x16_S16x50000_1_0) :=
  (W49_of m c main_v0 (by decide)).trans (W48_main_v0 m c)
theorem W50_main_v0 (c : Dev nD) : W50 m c main_v0 = (transpose S16x50000 [1, 0] (m ((c : Thread nD τ).loc main_arg4)) transposes_S50000x16_S16x50000_1_0) :=
  (W50_of m c main_v0 (by decide)).trans (W49_main_v0 m c)

theorem W1_table (c : Dev nD) : W1 m c main_v1 = extractStridedSlice S16x2000 ![0, 0] (transpose S16x50000 [1, 0] (m ((c : Thread nD τ).loc main_arg4)) transposes_S50000x16_S16x50000_1_0) slices_S16x50000_S16x2000_0_0 := by
  unfold W1 W0; after_results; first | done | rfl
/-- Every word of launch 0's table names a row of the feature array, given that every neighbour index does. -/
theorem inRange0 (h4 : ∀ i : S50000x16.Idx, (m ((0 : Dev nD).tc.loc main_arg4) i).toNat < 100000) : InRange0 (adm0 m).1 := fun x => by
  have h := table_inRange (m ((0 : Dev nD).tc.loc main_arg4)) h4 ![0, 0] transposes_S50000x16_S16x50000_1_0 slices_S16x50000_S16x2000_0_0 x
  rw [← W1_table m 0] at h; exact h
theorem W3_table (c : Dev nD) : W3 m c main_v3 = extractStridedSlice S16x2000 ![0, 2000] (transpose S16x50000 [1, 0] (m ((c : Thread nD τ).loc main_arg4)) transposes_S50000x16_S16x50000_1_0) slices_S16x50000_S16x2000_0_2000 := by
  unfold W3; after_results; rw [W2_main_v0 m c]
/-- Every word of launch 1's table names a row of the feature array, given that every neighbour index does. -/
theorem inRange1 (h4 : ∀ i : S50000x16.Idx, (m ((0 : Dev nD).tc.loc main_arg4) i).toNat < 100000) : InRange1 (adm1 m).1 := fun x => by
  have h := table_inRange (m ((0 : Dev nD).tc.loc main_arg4)) h4 ![0, 2000] transposes_S50000x16_S16x50000_1_0 slices_S16x50000_S16x2000_0_2000 x
  rw [← W3_table m 0] at h; exact h
theorem W5_table (c : Dev nD) : W5 m c main_v5 = extractStridedSlice S16x2000 ![0, 4000] (transpose S16x50000 [1, 0] (m ((c : Thread nD τ).loc main_arg4)) transposes_S50000x16_S16x50000_1_0) slices_S16x50000_S16x2000_0_4000 := by
  unfold W5; after_results; rw [W4_main_v0 m c]
/-- Every word of launch 2's table names a row of the feature array, given that every neighbour index does. -/
theorem inRange2 (h4 : ∀ i : S50000x16.Idx, (m ((0 : Dev nD).tc.loc main_arg4) i).toNat < 100000) : InRange2 (adm2 m).1 := fun x => by
  have h := table_inRange (m ((0 : Dev nD).tc.loc main_arg4)) h4 ![0, 4000] transposes_S50000x16_S16x50000_1_0 slices_S16x50000_S16x2000_0_4000 x
  rw [← W5_table m 0] at h; exact h
theorem W7_table (c : Dev nD) : W7 m c main_v7 = extractStridedSlice S16x2000 ![0, 6000] (transpose S16x50000 [1, 0] (m ((c : Thread nD τ).loc main_arg4)) transposes_S50000x16_S16x50000_1_0) slices_S16x50000_S16x2000_0_6000 := by
  unfold W7; after_results; rw [W6_main_v0 m c]
/-- Every word of launch 3's table names a row of the feature array, given that every neighbour index does. -/
theorem inRange3 (h4 : ∀ i : S50000x16.Idx, (m ((0 : Dev nD).tc.loc main_arg4) i).toNat < 100000) : InRange3 (adm3 m).1 := fun x => by
  have h := table_inRange (m ((0 : Dev nD).tc.loc main_arg4)) h4 ![0, 6000] transposes_S50000x16_S16x50000_1_0 slices_S16x50000_S16x2000_0_6000 x
  rw [← W7_table m 0] at h; exact h
theorem W9_table (c : Dev nD) : W9 m c main_v9 = extractStridedSlice S16x2000 ![0, 8000] (transpose S16x50000 [1, 0] (m ((c : Thread nD τ).loc main_arg4)) transposes_S50000x16_S16x50000_1_0) slices_S16x50000_S16x2000_0_8000 := by
  unfold W9; after_results; rw [W8_main_v0 m c]
/-- Every word of launch 4's table names a row of the feature array, given that every neighbour index does. -/
theorem inRange4 (h4 : ∀ i : S50000x16.Idx, (m ((0 : Dev nD).tc.loc main_arg4) i).toNat < 100000) : InRange4 (adm4 m).1 := fun x => by
  have h := table_inRange (m ((0 : Dev nD).tc.loc main_arg4)) h4 ![0, 8000] transposes_S50000x16_S16x50000_1_0 slices_S16x50000_S16x2000_0_8000 x
  rw [← W9_table m 0] at h; exact h
theorem W11_table (c : Dev nD) : W11 m c main_v11 = extractStridedSlice S16x2000 ![0, 10000] (transpose S16x50000 [1, 0] (m ((c : Thread nD τ).loc main_arg4)) transposes_S50000x16_S16x50000_1_0) slices_S16x50000_S16x2000_0_10000 := by
  unfold W11; after_results; rw [W10_main_v0 m c]
/-- Every word of launch 5's table names a row of the feature array, given that every neighbour index does. -/
theorem inRange5 (h4 : ∀ i : S50000x16.Idx, (m ((0 : Dev nD).tc.loc main_arg4) i).toNat < 100000) : InRange5 (adm5 m).1 := fun x => by
  have h := table_inRange (m ((0 : Dev nD).tc.loc main_arg4)) h4 ![0, 10000] transposes_S50000x16_S16x50000_1_0 slices_S16x50000_S16x2000_0_10000 x
  rw [← W11_table m 0] at h; exact h
theorem W13_table (c : Dev nD) : W13 m c main_v13 = extractStridedSlice S16x2000 ![0, 12000] (transpose S16x50000 [1, 0] (m ((c : Thread nD τ).loc main_arg4)) transposes_S50000x16_S16x50000_1_0) slices_S16x50000_S16x2000_0_12000 := by
  unfold W13; after_results; rw [W12_main_v0 m c]
/-- Every word of launch 6's table names a row of the feature array, given that every neighbour index does. -/
theorem inRange6 (h4 : ∀ i : S50000x16.Idx, (m ((0 : Dev nD).tc.loc main_arg4) i).toNat < 100000) : InRange6 (adm6 m).1 := fun x => by
  have h := table_inRange (m ((0 : Dev nD).tc.loc main_arg4)) h4 ![0, 12000] transposes_S50000x16_S16x50000_1_0 slices_S16x50000_S16x2000_0_12000 x
  rw [← W13_table m 0] at h; exact h
theorem W15_table (c : Dev nD) : W15 m c main_v15 = extractStridedSlice S16x2000 ![0, 14000] (transpose S16x50000 [1, 0] (m ((c : Thread nD τ).loc main_arg4)) transposes_S50000x16_S16x50000_1_0) slices_S16x50000_S16x2000_0_14000 := by
  unfold W15; after_results; rw [W14_main_v0 m c]
/-- Every word of launch 7's table names a row of the feature array, given that every neighbour index does. -/
theorem inRange7 (h4 : ∀ i : S50000x16.Idx, (m ((0 : Dev nD).tc.loc main_arg4) i).toNat < 100000) : InRange7 (adm7 m).1 := fun x => by
  have h := table_inRange (m ((0 : Dev nD).tc.loc main_arg4)) h4 ![0, 14000] transposes_S50000x16_S16x50000_1_0 slices_S16x50000_S16x2000_0_14000 x
  rw [← W15_table m 0] at h; exact h
theorem W17_table (c : Dev nD) : W17 m c main_v17 = extractStridedSlice S16x2000 ![0, 16000] (transpose S16x50000 [1, 0] (m ((c : Thread nD τ).loc main_arg4)) transposes_S50000x16_S16x50000_1_0) slices_S16x50000_S16x2000_0_16000 := by
  unfold W17; after_results; rw [W16_main_v0 m c]
/-- Every word of launch 8's table names a row of the feature array, given that every neighbour index does. -/
theorem inRange8 (h4 : ∀ i : S50000x16.Idx, (m ((0 : Dev nD).tc.loc main_arg4) i).toNat < 100000) : InRange8 (adm8 m).1 := fun x => by
  have h := table_inRange (m ((0 : Dev nD).tc.loc main_arg4)) h4 ![0, 16000] transposes_S50000x16_S16x50000_1_0 slices_S16x50000_S16x2000_0_16000 x
  rw [← W17_table m 0] at h; exact h
theorem W19_table (c : Dev nD) : W19 m c main_v19 = extractStridedSlice S16x2000 ![0, 18000] (transpose S16x50000 [1, 0] (m ((c : Thread nD τ).loc main_arg4)) transposes_S50000x16_S16x50000_1_0) slices_S16x50000_S16x2000_0_18000 := by
  unfold W19; after_results; rw [W18_main_v0 m c]
/-- Every word of launch 9's table names a row of the feature array, given that every neighbour index does. -/
theorem inRange9 (h4 : ∀ i : S50000x16.Idx, (m ((0 : Dev nD).tc.loc main_arg4) i).toNat < 100000) : InRange9 (adm9 m).1 := fun x => by
  have h := table_inRange (m ((0 : Dev nD).tc.loc main_arg4)) h4 ![0, 18000] transposes_S50000x16_S16x50000_1_0 slices_S16x50000_S16x2000_0_18000 x
  rw [← W19_table m 0] at h; exact h
theorem W21_table (c : Dev nD) : W21 m c main_v21 = extractStridedSlice S16x2000 ![0, 20000] (transpose S16x50000 [1, 0] (m ((c : Thread nD τ).loc main_arg4)) transposes_S50000x16_S16x50000_1_0) slices_S16x50000_S16x2000_0_20000 := by
  unfold W21; after_results; rw [W20_main_v0 m c]
/-- Every word of launch 10's table names a row of the feature array, given that every neighbour index does. -/
theorem inRange10 (h4 : ∀ i : S50000x16.Idx, (m ((0 : Dev nD).tc.loc main_arg4) i).toNat < 100000) : InRange10 (adm10 m).1 := fun x => by
  have h := table_inRange (m ((0 : Dev nD).tc.loc main_arg4)) h4 ![0, 20000] transposes_S50000x16_S16x50000_1_0 slices_S16x50000_S16x2000_0_20000 x
  rw [← W21_table m 0] at h; exact h
theorem W23_table (c : Dev nD) : W23 m c main_v23 = extractStridedSlice S16x2000 ![0, 22000] (transpose S16x50000 [1, 0] (m ((c : Thread nD τ).loc main_arg4)) transposes_S50000x16_S16x50000_1_0) slices_S16x50000_S16x2000_0_22000 := by
  unfold W23; after_results; rw [W22_main_v0 m c]
/-- Every word of launch 11's table names a row of the feature array, given that every neighbour index does. -/
theorem inRange11 (h4 : ∀ i : S50000x16.Idx, (m ((0 : Dev nD).tc.loc main_arg4) i).toNat < 100000) : InRange11 (adm11 m).1 := fun x => by
  have h := table_inRange (m ((0 : Dev nD).tc.loc main_arg4)) h4 ![0, 22000] transposes_S50000x16_S16x50000_1_0 slices_S16x50000_S16x2000_0_22000 x
  rw [← W23_table m 0] at h; exact h
theorem W25_table (c : Dev nD) : W25 m c main_v25 = extractStridedSlice S16x2000 ![0, 24000] (transpose S16x50000 [1, 0] (m ((c : Thread nD τ).loc main_arg4)) transposes_S50000x16_S16x50000_1_0) slices_S16x50000_S16x2000_0_24000 := by
  unfold W25; after_results; rw [W24_main_v0 m c]
/-- Every word of launch 12's table names a row of the feature array, given that every neighbour index does. -/
theorem inRange12 (h4 : ∀ i : S50000x16.Idx, (m ((0 : Dev nD).tc.loc main_arg4) i).toNat < 100000) : InRange12 (adm12 m).1 := fun x => by
  have h := table_inRange (m ((0 : Dev nD).tc.loc main_arg4)) h4 ![0, 24000] transposes_S50000x16_S16x50000_1_0 slices_S16x50000_S16x2000_0_24000 x
  rw [← W25_table m 0] at h; exact h
theorem W27_table (c : Dev nD) : W27 m c main_v27 = extractStridedSlice S16x2000 ![0, 26000] (transpose S16x50000 [1, 0] (m ((c : Thread nD τ).loc main_arg4)) transposes_S50000x16_S16x50000_1_0) slices_S16x50000_S16x2000_0_26000 := by
  unfold W27; after_results; rw [W26_main_v0 m c]
/-- Every word of launch 13's table names a row of the feature array, given that every neighbour index does. -/
theorem inRange13 (h4 : ∀ i : S50000x16.Idx, (m ((0 : Dev nD).tc.loc main_arg4) i).toNat < 100000) : InRange13 (adm13 m).1 := fun x => by
  have h := table_inRange (m ((0 : Dev nD).tc.loc main_arg4)) h4 ![0, 26000] transposes_S50000x16_S16x50000_1_0 slices_S16x50000_S16x2000_0_26000 x
  rw [← W27_table m 0] at h; exact h
theorem W29_table (c : Dev nD) : W29 m c main_v29 = extractStridedSlice S16x2000 ![0, 28000] (transpose S16x50000 [1, 0] (m ((c : Thread nD τ).loc main_arg4)) transposes_S50000x16_S16x50000_1_0) slices_S16x50000_S16x2000_0_28000 := by
  unfold W29; after_results; rw [W28_main_v0 m c]
/-- Every word of launch 14's table names a row of the feature array, given that every neighbour index does. -/
theorem inRange14 (h4 : ∀ i : S50000x16.Idx, (m ((0 : Dev nD).tc.loc main_arg4) i).toNat < 100000) : InRange14 (adm14 m).1 := fun x => by
  have h := table_inRange (m ((0 : Dev nD).tc.loc main_arg4)) h4 ![0, 28000] transposes_S50000x16_S16x50000_1_0 slices_S16x50000_S16x2000_0_28000 x
  rw [← W29_table m 0] at h; exact h
theorem W31_table (c : Dev nD) : W31 m c main_v31 = extractStridedSlice S16x2000 ![0, 30000] (transpose S16x50000 [1, 0] (m ((c : Thread nD τ).loc main_arg4)) transposes_S50000x16_S16x50000_1_0) slices_S16x50000_S16x2000_0_30000 := by
  unfold W31; after_results; rw [W30_main_v0 m c]
/-- Every word of launch 15's table names a row of the feature array, given that every neighbour index does. -/
theorem inRange15 (h4 : ∀ i : S50000x16.Idx, (m ((0 : Dev nD).tc.loc main_arg4) i).toNat < 100000) : InRange15 (adm15 m).1 := fun x => by
  have h := table_inRange (m ((0 : Dev nD).tc.loc main_arg4)) h4 ![0, 30000] transposes_S50000x16_S16x50000_1_0 slices_S16x50000_S16x2000_0_30000 x
  rw [← W31_table m 0] at h; exact h
theorem W33_table (c : Dev nD) : W33 m c main_v33 = extractStridedSlice S16x2000 ![0, 32000] (transpose S16x50000 [1, 0] (m ((c : Thread nD τ).loc main_arg4)) transposes_S50000x16_S16x50000_1_0) slices_S16x50000_S16x2000_0_32000 := by
  unfold W33; after_results; rw [W32_main_v0 m c]
/-- Every word of launch 16's table names a row of the feature array, given that every neighbour index does. -/
theorem inRange16 (h4 : ∀ i : S50000x16.Idx, (m ((0 : Dev nD).tc.loc main_arg4) i).toNat < 100000) : InRange16 (adm16 m).1 := fun x => by
  have h := table_inRange (m ((0 : Dev nD).tc.loc main_arg4)) h4 ![0, 32000] transposes_S50000x16_S16x50000_1_0 slices_S16x50000_S16x2000_0_32000 x
  rw [← W33_table m 0] at h; exact h
theorem W35_table (c : Dev nD) : W35 m c main_v35 = extractStridedSlice S16x2000 ![0, 34000] (transpose S16x50000 [1, 0] (m ((c : Thread nD τ).loc main_arg4)) transposes_S50000x16_S16x50000_1_0) slices_S16x50000_S16x2000_0_34000 := by
  unfold W35; after_results; rw [W34_main_v0 m c]
/-- Every word of launch 17's table names a row of the feature array, given that every neighbour index does. -/
theorem inRange17 (h4 : ∀ i : S50000x16.Idx, (m ((0 : Dev nD).tc.loc main_arg4) i).toNat < 100000) : InRange17 (adm17 m).1 := fun x => by
  have h := table_inRange (m ((0 : Dev nD).tc.loc main_arg4)) h4 ![0, 34000] transposes_S50000x16_S16x50000_1_0 slices_S16x50000_S16x2000_0_34000 x
  rw [← W35_table m 0] at h; exact h
theorem W37_table (c : Dev nD) : W37 m c main_v37 = extractStridedSlice S16x2000 ![0, 36000] (transpose S16x50000 [1, 0] (m ((c : Thread nD τ).loc main_arg4)) transposes_S50000x16_S16x50000_1_0) slices_S16x50000_S16x2000_0_36000 := by
  unfold W37; after_results; rw [W36_main_v0 m c]
/-- Every word of launch 18's table names a row of the feature array, given that every neighbour index does. -/
theorem inRange18 (h4 : ∀ i : S50000x16.Idx, (m ((0 : Dev nD).tc.loc main_arg4) i).toNat < 100000) : InRange18 (adm18 m).1 := fun x => by
  have h := table_inRange (m ((0 : Dev nD).tc.loc main_arg4)) h4 ![0, 36000] transposes_S50000x16_S16x50000_1_0 slices_S16x50000_S16x2000_0_36000 x
  rw [← W37_table m 0] at h; exact h
theorem W39_table (c : Dev nD) : W39 m c main_v39 = extractStridedSlice S16x2000 ![0, 38000] (transpose S16x50000 [1, 0] (m ((c : Thread nD τ).loc main_arg4)) transposes_S50000x16_S16x50000_1_0) slices_S16x50000_S16x2000_0_38000 := by
  unfold W39; after_results; rw [W38_main_v0 m c]
/-- Every word of launch 19's table names a row of the feature array, given that every neighbour index does. -/
theorem inRange19 (h4 : ∀ i : S50000x16.Idx, (m ((0 : Dev nD).tc.loc main_arg4) i).toNat < 100000) : InRange19 (adm19 m).1 := fun x => by
  have h := table_inRange (m ((0 : Dev nD).tc.loc main_arg4)) h4 ![0, 38000] transposes_S50000x16_S16x50000_1_0 slices_S16x50000_S16x2000_0_38000 x
  rw [← W39_table m 0] at h; exact h
theorem W41_table (c : Dev nD) : W41 m c main_v41 = extractStridedSlice S16x2000 ![0, 40000] (transpose S16x50000 [1, 0] (m ((c : Thread nD τ).loc main_arg4)) transposes_S50000x16_S16x50000_1_0) slices_S16x50000_S16x2000_0_40000 := by
  unfold W41; after_results; rw [W40_main_v0 m c]
/-- Every word of launch 20's table names a row of the feature array, given that every neighbour index does. -/
theorem inRange20 (h4 : ∀ i : S50000x16.Idx, (m ((0 : Dev nD).tc.loc main_arg4) i).toNat < 100000) : InRange20 (adm20 m).1 := fun x => by
  have h := table_inRange (m ((0 : Dev nD).tc.loc main_arg4)) h4 ![0, 40000] transposes_S50000x16_S16x50000_1_0 slices_S16x50000_S16x2000_0_40000 x
  rw [← W41_table m 0] at h; exact h
theorem W43_table (c : Dev nD) : W43 m c main_v43 = extractStridedSlice S16x2000 ![0, 42000] (transpose S16x50000 [1, 0] (m ((c : Thread nD τ).loc main_arg4)) transposes_S50000x16_S16x50000_1_0) slices_S16x50000_S16x2000_0_42000 := by
  unfold W43; after_results; rw [W42_main_v0 m c]
/-- Every word of launch 21's table names a row of the feature array, given that every neighbour index does. -/
theorem inRange21 (h4 : ∀ i : S50000x16.Idx, (m ((0 : Dev nD).tc.loc main_arg4) i).toNat < 100000) : InRange21 (adm21 m).1 := fun x => by
  have h := table_inRange (m ((0 : Dev nD).tc.loc main_arg4)) h4 ![0, 42000] transposes_S50000x16_S16x50000_1_0 slices_S16x50000_S16x2000_0_42000 x
  rw [← W43_table m 0] at h; exact h
theorem W45_table (c : Dev nD) : W45 m c main_v45 = extractStridedSlice S16x2000 ![0, 44000] (transpose S16x50000 [1, 0] (m ((c : Thread nD τ).loc main_arg4)) transposes_S50000x16_S16x50000_1_0) slices_S16x50000_S16x2000_0_44000 := by
  unfold W45; after_results; rw [W44_main_v0 m c]
/-- Every word of launch 22's table names a row of the feature array, given that every neighbour index does. -/
theorem inRange22 (h4 : ∀ i : S50000x16.Idx, (m ((0 : Dev nD).tc.loc main_arg4) i).toNat < 100000) : InRange22 (adm22 m).1 := fun x => by
  have h := table_inRange (m ((0 : Dev nD).tc.loc main_arg4)) h4 ![0, 44000] transposes_S50000x16_S16x50000_1_0 slices_S16x50000_S16x2000_0_44000 x
  rw [← W45_table m 0] at h; exact h
theorem W47_table (c : Dev nD) : W47 m c main_v47 = extractStridedSlice S16x2000 ![0, 46000] (transpose S16x50000 [1, 0] (m ((c : Thread nD τ).loc main_arg4)) transposes_S50000x16_S16x50000_1_0) slices_S16x50000_S16x2000_0_46000 := by
  unfold W47; after_results; rw [W46_main_v0 m c]
/-- Every word of launch 23's table names a row of the feature array, given that every neighbour index does. -/
theorem inRange23 (h4 : ∀ i : S50000x16.Idx, (m ((0 : Dev nD).tc.loc main_arg4) i).toNat < 100000) : InRange23 (adm23 m).1 := fun x => by
  have h := table_inRange (m ((0 : Dev nD).tc.loc main_arg4)) h4 ![0, 46000] transposes_S50000x16_S16x50000_1_0 slices_S16x50000_S16x2000_0_46000 x
  rw [← W47_table m 0] at h; exact h
theorem W49_table (c : Dev nD) : W49 m c main_v49 = extractStridedSlice S16x2000 ![0, 48000] (transpose S16x50000 [1, 0] (m ((c : Thread nD τ).loc main_arg4)) transposes_S50000x16_S16x50000_1_0) slices_S16x50000_S16x2000_0_48000 := by
  unfold W49; after_results; rw [W48_main_v0 m c]
/-- Every word of launch 24's table names a row of the feature array, given that every neighbour index does. -/
theorem inRange24 (h4 : ∀ i : S50000x16.Idx, (m ((0 : Dev nD).tc.loc main_arg4) i).toNat < 100000) : InRange24 (adm24 m).1 := fun x => by
  have h := table_inRange (m ((0 : Dev nD).tc.loc main_arg4)) h4 ![0, 48000] transposes_S50000x16_S16x50000_1_0 slices_S16x50000_S16x2000_0_48000 x
  rw [← W49_table m 0] at h; exact h

/-! ## Each gather launch's chunk is kept up to the concatenation; the joined array up to the last launch -/

theorem W2_chunk0 (c : Dev nD) : W2 m c main_v2 = O0 (En0 m) (adm0 m) c :=
  W2_out m c
theorem W3_chunk0 (c : Dev nD) : W3 m c main_v2 = O0 (En0 m) (adm0 m) c :=
  (W3_of m c main_v2 (by decide)).trans (W2_chunk0 m c)
theorem W4_chunk0 (c : Dev nD) : W4 m c main_v2 = O0 (En0 m) (adm0 m) c :=
  (W4_of m c main_v2 (by decide)).trans (W3_chunk0 m c)
theorem W5_chunk0 (c : Dev nD) : W5 m c main_v2 = O0 (En0 m) (adm0 m) c :=
  (W5_of m c main_v2 (by decide)).trans (W4_chunk0 m c)
theorem W6_chunk0 (c : Dev nD) : W6 m c main_v2 = O0 (En0 m) (adm0 m) c :=
  (W6_of m c main_v2 (by decide)).trans (W5_chunk0 m c)
theorem W7_chunk0 (c : Dev nD) : W7 m c main_v2 = O0 (En0 m) (adm0 m) c :=
  (W7_of m c main_v2 (by decide)).trans (W6_chunk0 m c)
theorem W8_chunk0 (c : Dev nD) : W8 m c main_v2 = O0 (En0 m) (adm0 m) c :=
  (W8_of m c main_v2 (by decide)).trans (W7_chunk0 m c)
theorem W9_chunk0 (c : Dev nD) : W9 m c main_v2 = O0 (En0 m) (adm0 m) c :=
  (W9_of m c main_v2 (by decide)).trans (W8_chunk0 m c)
theorem W10_chunk0 (c : Dev nD) : W10 m c main_v2 = O0 (En0 m) (adm0 m) c :=
  (W10_of m c main_v2 (by decide)).trans (W9_chunk0 m c)
theorem W11_chunk0 (c : Dev nD) : W11 m c main_v2 = O0 (En0 m) (adm0 m) c :=
  (W11_of m c main_v2 (by decide)).trans (W10_chunk0 m c)
theorem W12_chunk0 (c : Dev nD) : W12 m c main_v2 = O0 (En0 m) (adm0 m) c :=
  (W12_of m c main_v2 (by decide)).trans (W11_chunk0 m c)
theorem W13_chunk0 (c : Dev nD) : W13 m c main_v2 = O0 (En0 m) (adm0 m) c :=
  (W13_of m c main_v2 (by decide)).trans (W12_chunk0 m c)
theorem W14_chunk0 (c : Dev nD) : W14 m c main_v2 = O0 (En0 m) (adm0 m) c :=
  (W14_of m c main_v2 (by decide)).trans (W13_chunk0 m c)
theorem W15_chunk0 (c : Dev nD) : W15 m c main_v2 = O0 (En0 m) (adm0 m) c :=
  (W15_of m c main_v2 (by decide)).trans (W14_chunk0 m c)
theorem W16_chunk0 (c : Dev nD) : W16 m c main_v2 = O0 (En0 m) (adm0 m) c :=
  (W16_of m c main_v2 (by decide)).trans (W15_chunk0 m c)
theorem W17_chunk0 (c : Dev nD) : W17 m c main_v2 = O0 (En0 m) (adm0 m) c :=
  (W17_of m c main_v2 (by decide)).trans (W16_chunk0 m c)
theorem W18_chunk0 (c : Dev nD) : W18 m c main_v2 = O0 (En0 m) (adm0 m) c :=
  (W18_of m c main_v2 (by decide)).trans (W17_chunk0 m c)
theorem W19_chunk0 (c : Dev nD) : W19 m c main_v2 = O0 (En0 m) (adm0 m) c :=
  (W19_of m c main_v2 (by decide)).trans (W18_chunk0 m c)
theorem W20_chunk0 (c : Dev nD) : W20 m c main_v2 = O0 (En0 m) (adm0 m) c :=
  (W20_of m c main_v2 (by decide)).trans (W19_chunk0 m c)
theorem W21_chunk0 (c : Dev nD) : W21 m c main_v2 = O0 (En0 m) (adm0 m) c :=
  (W21_of m c main_v2 (by decide)).trans (W20_chunk0 m c)
theorem W22_chunk0 (c : Dev nD) : W22 m c main_v2 = O0 (En0 m) (adm0 m) c :=
  (W22_of m c main_v2 (by decide)).trans (W21_chunk0 m c)
theorem W23_chunk0 (c : Dev nD) : W23 m c main_v2 = O0 (En0 m) (adm0 m) c :=
  (W23_of m c main_v2 (by decide)).trans (W22_chunk0 m c)
theorem W24_chunk0 (c : Dev nD) : W24 m c main_v2 = O0 (En0 m) (adm0 m) c :=
  (W24_of m c main_v2 (by decide)).trans (W23_chunk0 m c)
theorem W25_chunk0 (c : Dev nD) : W25 m c main_v2 = O0 (En0 m) (adm0 m) c :=
  (W25_of m c main_v2 (by decide)).trans (W24_chunk0 m c)
theorem W26_chunk0 (c : Dev nD) : W26 m c main_v2 = O0 (En0 m) (adm0 m) c :=
  (W26_of m c main_v2 (by decide)).trans (W25_chunk0 m c)
theorem W27_chunk0 (c : Dev nD) : W27 m c main_v2 = O0 (En0 m) (adm0 m) c :=
  (W27_of m c main_v2 (by decide)).trans (W26_chunk0 m c)
theorem W28_chunk0 (c : Dev nD) : W28 m c main_v2 = O0 (En0 m) (adm0 m) c :=
  (W28_of m c main_v2 (by decide)).trans (W27_chunk0 m c)
theorem W29_chunk0 (c : Dev nD) : W29 m c main_v2 = O0 (En0 m) (adm0 m) c :=
  (W29_of m c main_v2 (by decide)).trans (W28_chunk0 m c)
theorem W30_chunk0 (c : Dev nD) : W30 m c main_v2 = O0 (En0 m) (adm0 m) c :=
  (W30_of m c main_v2 (by decide)).trans (W29_chunk0 m c)
theorem W31_chunk0 (c : Dev nD) : W31 m c main_v2 = O0 (En0 m) (adm0 m) c :=
  (W31_of m c main_v2 (by decide)).trans (W30_chunk0 m c)
theorem W32_chunk0 (c : Dev nD) : W32 m c main_v2 = O0 (En0 m) (adm0 m) c :=
  (W32_of m c main_v2 (by decide)).trans (W31_chunk0 m c)
theorem W33_chunk0 (c : Dev nD) : W33 m c main_v2 = O0 (En0 m) (adm0 m) c :=
  (W33_of m c main_v2 (by decide)).trans (W32_chunk0 m c)
theorem W34_chunk0 (c : Dev nD) : W34 m c main_v2 = O0 (En0 m) (adm0 m) c :=
  (W34_of m c main_v2 (by decide)).trans (W33_chunk0 m c)
theorem W35_chunk0 (c : Dev nD) : W35 m c main_v2 = O0 (En0 m) (adm0 m) c :=
  (W35_of m c main_v2 (by decide)).trans (W34_chunk0 m c)
theorem W36_chunk0 (c : Dev nD) : W36 m c main_v2 = O0 (En0 m) (adm0 m) c :=
  (W36_of m c main_v2 (by decide)).trans (W35_chunk0 m c)
theorem W37_chunk0 (c : Dev nD) : W37 m c main_v2 = O0 (En0 m) (adm0 m) c :=
  (W37_of m c main_v2 (by decide)).trans (W36_chunk0 m c)
theorem W38_chunk0 (c : Dev nD) : W38 m c main_v2 = O0 (En0 m) (adm0 m) c :=
  (W38_of m c main_v2 (by decide)).trans (W37_chunk0 m c)
theorem W39_chunk0 (c : Dev nD) : W39 m c main_v2 = O0 (En0 m) (adm0 m) c :=
  (W39_of m c main_v2 (by decide)).trans (W38_chunk0 m c)
theorem W40_chunk0 (c : Dev nD) : W40 m c main_v2 = O0 (En0 m) (adm0 m) c :=
  (W40_of m c main_v2 (by decide)).trans (W39_chunk0 m c)
theorem W41_chunk0 (c : Dev nD) : W41 m c main_v2 = O0 (En0 m) (adm0 m) c :=
  (W41_of m c main_v2 (by decide)).trans (W40_chunk0 m c)
theorem W42_chunk0 (c : Dev nD) : W42 m c main_v2 = O0 (En0 m) (adm0 m) c :=
  (W42_of m c main_v2 (by decide)).trans (W41_chunk0 m c)
theorem W43_chunk0 (c : Dev nD) : W43 m c main_v2 = O0 (En0 m) (adm0 m) c :=
  (W43_of m c main_v2 (by decide)).trans (W42_chunk0 m c)
theorem W44_chunk0 (c : Dev nD) : W44 m c main_v2 = O0 (En0 m) (adm0 m) c :=
  (W44_of m c main_v2 (by decide)).trans (W43_chunk0 m c)
theorem W45_chunk0 (c : Dev nD) : W45 m c main_v2 = O0 (En0 m) (adm0 m) c :=
  (W45_of m c main_v2 (by decide)).trans (W44_chunk0 m c)
theorem W46_chunk0 (c : Dev nD) : W46 m c main_v2 = O0 (En0 m) (adm0 m) c :=
  (W46_of m c main_v2 (by decide)).trans (W45_chunk0 m c)
theorem W47_chunk0 (c : Dev nD) : W47 m c main_v2 = O0 (En0 m) (adm0 m) c :=
  (W47_of m c main_v2 (by decide)).trans (W46_chunk0 m c)
theorem W48_chunk0 (c : Dev nD) : W48 m c main_v2 = O0 (En0 m) (adm0 m) c :=
  (W48_of m c main_v2 (by decide)).trans (W47_chunk0 m c)
theorem W49_chunk0 (c : Dev nD) : W49 m c main_v2 = O0 (En0 m) (adm0 m) c :=
  (W49_of m c main_v2 (by decide)).trans (W48_chunk0 m c)
theorem W50_chunk0 (c : Dev nD) : W50 m c main_v2 = O0 (En0 m) (adm0 m) c :=
  (W50_of m c main_v2 (by decide)).trans (W49_chunk0 m c)
theorem W51_chunk0 (c : Dev nD) : W51 m c main_v2 = O0 (En0 m) (adm0 m) c :=
  (W51_of m c main_v2 (by decide)).trans (W50_chunk0 m c)
theorem W4_chunk1 (c : Dev nD) : W4 m c main_v4 = O1 (En1 m) (adm1 m) c :=
  W4_out m c
theorem W5_chunk1 (c : Dev nD) : W5 m c main_v4 = O1 (En1 m) (adm1 m) c :=
  (W5_of m c main_v4 (by decide)).trans (W4_chunk1 m c)
theorem W6_chunk1 (c : Dev nD) : W6 m c main_v4 = O1 (En1 m) (adm1 m) c :=
  (W6_of m c main_v4 (by decide)).trans (W5_chunk1 m c)
theorem W7_chunk1 (c : Dev nD) : W7 m c main_v4 = O1 (En1 m) (adm1 m) c :=
  (W7_of m c main_v4 (by decide)).trans (W6_chunk1 m c)
theorem W8_chunk1 (c : Dev nD) : W8 m c main_v4 = O1 (En1 m) (adm1 m) c :=
  (W8_of m c main_v4 (by decide)).trans (W7_chunk1 m c)
theorem W9_chunk1 (c : Dev nD) : W9 m c main_v4 = O1 (En1 m) (adm1 m) c :=
  (W9_of m c main_v4 (by decide)).trans (W8_chunk1 m c)
theorem W10_chunk1 (c : Dev nD) : W10 m c main_v4 = O1 (En1 m) (adm1 m) c :=
  (W10_of m c main_v4 (by decide)).trans (W9_chunk1 m c)
theorem W11_chunk1 (c : Dev nD) : W11 m c main_v4 = O1 (En1 m) (adm1 m) c :=
  (W11_of m c main_v4 (by decide)).trans (W10_chunk1 m c)
theorem W12_chunk1 (c : Dev nD) : W12 m c main_v4 = O1 (En1 m) (adm1 m) c :=
  (W12_of m c main_v4 (by decide)).trans (W11_chunk1 m c)
theorem W13_chunk1 (c : Dev nD) : W13 m c main_v4 = O1 (En1 m) (adm1 m) c :=
  (W13_of m c main_v4 (by decide)).trans (W12_chunk1 m c)
theorem W14_chunk1 (c : Dev nD) : W14 m c main_v4 = O1 (En1 m) (adm1 m) c :=
  (W14_of m c main_v4 (by decide)).trans (W13_chunk1 m c)
theorem W15_chunk1 (c : Dev nD) : W15 m c main_v4 = O1 (En1 m) (adm1 m) c :=
  (W15_of m c main_v4 (by decide)).trans (W14_chunk1 m c)
theorem W16_chunk1 (c : Dev nD) : W16 m c main_v4 = O1 (En1 m) (adm1 m) c :=
  (W16_of m c main_v4 (by decide)).trans (W15_chunk1 m c)
theorem W17_chunk1 (c : Dev nD) : W17 m c main_v4 = O1 (En1 m) (adm1 m) c :=
  (W17_of m c main_v4 (by decide)).trans (W16_chunk1 m c)
theorem W18_chunk1 (c : Dev nD) : W18 m c main_v4 = O1 (En1 m) (adm1 m) c :=
  (W18_of m c main_v4 (by decide)).trans (W17_chunk1 m c)
theorem W19_chunk1 (c : Dev nD) : W19 m c main_v4 = O1 (En1 m) (adm1 m) c :=
  (W19_of m c main_v4 (by decide)).trans (W18_chunk1 m c)
theorem W20_chunk1 (c : Dev nD) : W20 m c main_v4 = O1 (En1 m) (adm1 m) c :=
  (W20_of m c main_v4 (by decide)).trans (W19_chunk1 m c)
theorem W21_chunk1 (c : Dev nD) : W21 m c main_v4 = O1 (En1 m) (adm1 m) c :=
  (W21_of m c main_v4 (by decide)).trans (W20_chunk1 m c)
theorem W22_chunk1 (c : Dev nD) : W22 m c main_v4 = O1 (En1 m) (adm1 m) c :=
  (W22_of m c main_v4 (by decide)).trans (W21_chunk1 m c)
theorem W23_chunk1 (c : Dev nD) : W23 m c main_v4 = O1 (En1 m) (adm1 m) c :=
  (W23_of m c main_v4 (by decide)).trans (W22_chunk1 m c)
theorem W24_chunk1 (c : Dev nD) : W24 m c main_v4 = O1 (En1 m) (adm1 m) c :=
  (W24_of m c main_v4 (by decide)).trans (W23_chunk1 m c)
theorem W25_chunk1 (c : Dev nD) : W25 m c main_v4 = O1 (En1 m) (adm1 m) c :=
  (W25_of m c main_v4 (by decide)).trans (W24_chunk1 m c)
theorem W26_chunk1 (c : Dev nD) : W26 m c main_v4 = O1 (En1 m) (adm1 m) c :=
  (W26_of m c main_v4 (by decide)).trans (W25_chunk1 m c)
theorem W27_chunk1 (c : Dev nD) : W27 m c main_v4 = O1 (En1 m) (adm1 m) c :=
  (W27_of m c main_v4 (by decide)).trans (W26_chunk1 m c)
theorem W28_chunk1 (c : Dev nD) : W28 m c main_v4 = O1 (En1 m) (adm1 m) c :=
  (W28_of m c main_v4 (by decide)).trans (W27_chunk1 m c)
theorem W29_chunk1 (c : Dev nD) : W29 m c main_v4 = O1 (En1 m) (adm1 m) c :=
  (W29_of m c main_v4 (by decide)).trans (W28_chunk1 m c)
theorem W30_chunk1 (c : Dev nD) : W30 m c main_v4 = O1 (En1 m) (adm1 m) c :=
  (W30_of m c main_v4 (by decide)).trans (W29_chunk1 m c)
theorem W31_chunk1 (c : Dev nD) : W31 m c main_v4 = O1 (En1 m) (adm1 m) c :=
  (W31_of m c main_v4 (by decide)).trans (W30_chunk1 m c)
theorem W32_chunk1 (c : Dev nD) : W32 m c main_v4 = O1 (En1 m) (adm1 m) c :=
  (W32_of m c main_v4 (by decide)).trans (W31_chunk1 m c)
theorem W33_chunk1 (c : Dev nD) : W33 m c main_v4 = O1 (En1 m) (adm1 m) c :=
  (W33_of m c main_v4 (by decide)).trans (W32_chunk1 m c)
theorem W34_chunk1 (c : Dev nD) : W34 m c main_v4 = O1 (En1 m) (adm1 m) c :=
  (W34_of m c main_v4 (by decide)).trans (W33_chunk1 m c)
theorem W35_chunk1 (c : Dev nD) : W35 m c main_v4 = O1 (En1 m) (adm1 m) c :=
  (W35_of m c main_v4 (by decide)).trans (W34_chunk1 m c)
theorem W36_chunk1 (c : Dev nD) : W36 m c main_v4 = O1 (En1 m) (adm1 m) c :=
  (W36_of m c main_v4 (by decide)).trans (W35_chunk1 m c)
theorem W37_chunk1 (c : Dev nD) : W37 m c main_v4 = O1 (En1 m) (adm1 m) c :=
  (W37_of m c main_v4 (by decide)).trans (W36_chunk1 m c)
theorem W38_chunk1 (c : Dev nD) : W38 m c main_v4 = O1 (En1 m) (adm1 m) c :=
  (W38_of m c main_v4 (by decide)).trans (W37_chunk1 m c)
theorem W39_chunk1 (c : Dev nD) : W39 m c main_v4 = O1 (En1 m) (adm1 m) c :=
  (W39_of m c main_v4 (by decide)).trans (W38_chunk1 m c)
theorem W40_chunk1 (c : Dev nD) : W40 m c main_v4 = O1 (En1 m) (adm1 m) c :=
  (W40_of m c main_v4 (by decide)).trans (W39_chunk1 m c)
theorem W41_chunk1 (c : Dev nD) : W41 m c main_v4 = O1 (En1 m) (adm1 m) c :=
  (W41_of m c main_v4 (by decide)).trans (W40_chunk1 m c)
theorem W42_chunk1 (c : Dev nD) : W42 m c main_v4 = O1 (En1 m) (adm1 m) c :=
  (W42_of m c main_v4 (by decide)).trans (W41_chunk1 m c)
theorem W43_chunk1 (c : Dev nD) : W43 m c main_v4 = O1 (En1 m) (adm1 m) c :=
  (W43_of m c main_v4 (by decide)).trans (W42_chunk1 m c)
theorem W44_chunk1 (c : Dev nD) : W44 m c main_v4 = O1 (En1 m) (adm1 m) c :=
  (W44_of m c main_v4 (by decide)).trans (W43_chunk1 m c)
theorem W45_chunk1 (c : Dev nD) : W45 m c main_v4 = O1 (En1 m) (adm1 m) c :=
  (W45_of m c main_v4 (by decide)).trans (W44_chunk1 m c)
theorem W46_chunk1 (c : Dev nD) : W46 m c main_v4 = O1 (En1 m) (adm1 m) c :=
  (W46_of m c main_v4 (by decide)).trans (W45_chunk1 m c)
theorem W47_chunk1 (c : Dev nD) : W47 m c main_v4 = O1 (En1 m) (adm1 m) c :=
  (W47_of m c main_v4 (by decide)).trans (W46_chunk1 m c)
theorem W48_chunk1 (c : Dev nD) : W48 m c main_v4 = O1 (En1 m) (adm1 m) c :=
  (W48_of m c main_v4 (by decide)).trans (W47_chunk1 m c)
theorem W49_chunk1 (c : Dev nD) : W49 m c main_v4 = O1 (En1 m) (adm1 m) c :=
  (W49_of m c main_v4 (by decide)).trans (W48_chunk1 m c)
theorem W50_chunk1 (c : Dev nD) : W50 m c main_v4 = O1 (En1 m) (adm1 m) c :=
  (W50_of m c main_v4 (by decide)).trans (W49_chunk1 m c)
theorem W51_chunk1 (c : Dev nD) : W51 m c main_v4 = O1 (En1 m) (adm1 m) c :=
  (W51_of m c main_v4 (by decide)).trans (W50_chunk1 m c)
theorem W6_chunk2 (c : Dev nD) : W6 m c main_v6 = O2 (En2 m) (adm2 m) c :=
  W6_out m c
theorem W7_chunk2 (c : Dev nD) : W7 m c main_v6 = O2 (En2 m) (adm2 m) c :=
  (W7_of m c main_v6 (by decide)).trans (W6_chunk2 m c)
theorem W8_chunk2 (c : Dev nD) : W8 m c main_v6 = O2 (En2 m) (adm2 m) c :=
  (W8_of m c main_v6 (by decide)).trans (W7_chunk2 m c)
theorem W9_chunk2 (c : Dev nD) : W9 m c main_v6 = O2 (En2 m) (adm2 m) c :=
  (W9_of m c main_v6 (by decide)).trans (W8_chunk2 m c)
theorem W10_chunk2 (c : Dev nD) : W10 m c main_v6 = O2 (En2 m) (adm2 m) c :=
  (W10_of m c main_v6 (by decide)).trans (W9_chunk2 m c)
theorem W11_chunk2 (c : Dev nD) : W11 m c main_v6 = O2 (En2 m) (adm2 m) c :=
  (W11_of m c main_v6 (by decide)).trans (W10_chunk2 m c)
theorem W12_chunk2 (c : Dev nD) : W12 m c main_v6 = O2 (En2 m) (adm2 m) c :=
  (W12_of m c main_v6 (by decide)).trans (W11_chunk2 m c)
theorem W13_chunk2 (c : Dev nD) : W13 m c main_v6 = O2 (En2 m) (adm2 m) c :=
  (W13_of m c main_v6 (by decide)).trans (W12_chunk2 m c)
theorem W14_chunk2 (c : Dev nD) : W14 m c main_v6 = O2 (En2 m) (adm2 m) c :=
  (W14_of m c main_v6 (by decide)).trans (W13_chunk2 m c)
theorem W15_chunk2 (c : Dev nD) : W15 m c main_v6 = O2 (En2 m) (adm2 m) c :=
  (W15_of m c main_v6 (by decide)).trans (W14_chunk2 m c)
theorem W16_chunk2 (c : Dev nD) : W16 m c main_v6 = O2 (En2 m) (adm2 m) c :=
  (W16_of m c main_v6 (by decide)).trans (W15_chunk2 m c)
theorem W17_chunk2 (c : Dev nD) : W17 m c main_v6 = O2 (En2 m) (adm2 m) c :=
  (W17_of m c main_v6 (by decide)).trans (W16_chunk2 m c)
theorem W18_chunk2 (c : Dev nD) : W18 m c main_v6 = O2 (En2 m) (adm2 m) c :=
  (W18_of m c main_v6 (by decide)).trans (W17_chunk2 m c)
theorem W19_chunk2 (c : Dev nD) : W19 m c main_v6 = O2 (En2 m) (adm2 m) c :=
  (W19_of m c main_v6 (by decide)).trans (W18_chunk2 m c)
theorem W20_chunk2 (c : Dev nD) : W20 m c main_v6 = O2 (En2 m) (adm2 m) c :=
  (W20_of m c main_v6 (by decide)).trans (W19_chunk2 m c)
theorem W21_chunk2 (c : Dev nD) : W21 m c main_v6 = O2 (En2 m) (adm2 m) c :=
  (W21_of m c main_v6 (by decide)).trans (W20_chunk2 m c)
theorem W22_chunk2 (c : Dev nD) : W22 m c main_v6 = O2 (En2 m) (adm2 m) c :=
  (W22_of m c main_v6 (by decide)).trans (W21_chunk2 m c)
theorem W23_chunk2 (c : Dev nD) : W23 m c main_v6 = O2 (En2 m) (adm2 m) c :=
  (W23_of m c main_v6 (by decide)).trans (W22_chunk2 m c)
theorem W24_chunk2 (c : Dev nD) : W24 m c main_v6 = O2 (En2 m) (adm2 m) c :=
  (W24_of m c main_v6 (by decide)).trans (W23_chunk2 m c)
theorem W25_chunk2 (c : Dev nD) : W25 m c main_v6 = O2 (En2 m) (adm2 m) c :=
  (W25_of m c main_v6 (by decide)).trans (W24_chunk2 m c)
theorem W26_chunk2 (c : Dev nD) : W26 m c main_v6 = O2 (En2 m) (adm2 m) c :=
  (W26_of m c main_v6 (by decide)).trans (W25_chunk2 m c)
theorem W27_chunk2 (c : Dev nD) : W27 m c main_v6 = O2 (En2 m) (adm2 m) c :=
  (W27_of m c main_v6 (by decide)).trans (W26_chunk2 m c)
theorem W28_chunk2 (c : Dev nD) : W28 m c main_v6 = O2 (En2 m) (adm2 m) c :=
  (W28_of m c main_v6 (by decide)).trans (W27_chunk2 m c)
theorem W29_chunk2 (c : Dev nD) : W29 m c main_v6 = O2 (En2 m) (adm2 m) c :=
  (W29_of m c main_v6 (by decide)).trans (W28_chunk2 m c)
theorem W30_chunk2 (c : Dev nD) : W30 m c main_v6 = O2 (En2 m) (adm2 m) c :=
  (W30_of m c main_v6 (by decide)).trans (W29_chunk2 m c)
theorem W31_chunk2 (c : Dev nD) : W31 m c main_v6 = O2 (En2 m) (adm2 m) c :=
  (W31_of m c main_v6 (by decide)).trans (W30_chunk2 m c)
theorem W32_chunk2 (c : Dev nD) : W32 m c main_v6 = O2 (En2 m) (adm2 m) c :=
  (W32_of m c main_v6 (by decide)).trans (W31_chunk2 m c)
theorem W33_chunk2 (c : Dev nD) : W33 m c main_v6 = O2 (En2 m) (adm2 m) c :=
  (W33_of m c main_v6 (by decide)).trans (W32_chunk2 m c)
theorem W34_chunk2 (c : Dev nD) : W34 m c main_v6 = O2 (En2 m) (adm2 m) c :=
  (W34_of m c main_v6 (by decide)).trans (W33_chunk2 m c)
theorem W35_chunk2 (c : Dev nD) : W35 m c main_v6 = O2 (En2 m) (adm2 m) c :=
  (W35_of m c main_v6 (by decide)).trans (W34_chunk2 m c)
theorem W36_chunk2 (c : Dev nD) : W36 m c main_v6 = O2 (En2 m) (adm2 m) c :=
  (W36_of m c main_v6 (by decide)).trans (W35_chunk2 m c)
theorem W37_chunk2 (c : Dev nD) : W37 m c main_v6 = O2 (En2 m) (adm2 m) c :=
  (W37_of m c main_v6 (by decide)).trans (W36_chunk2 m c)
theorem W38_chunk2 (c : Dev nD) : W38 m c main_v6 = O2 (En2 m) (adm2 m) c :=
  (W38_of m c main_v6 (by decide)).trans (W37_chunk2 m c)
theorem W39_chunk2 (c : Dev nD) : W39 m c main_v6 = O2 (En2 m) (adm2 m) c :=
  (W39_of m c main_v6 (by decide)).trans (W38_chunk2 m c)
theorem W40_chunk2 (c : Dev nD) : W40 m c main_v6 = O2 (En2 m) (adm2 m) c :=
  (W40_of m c main_v6 (by decide)).trans (W39_chunk2 m c)
theorem W41_chunk2 (c : Dev nD) : W41 m c main_v6 = O2 (En2 m) (adm2 m) c :=
  (W41_of m c main_v6 (by decide)).trans (W40_chunk2 m c)
theorem W42_chunk2 (c : Dev nD) : W42 m c main_v6 = O2 (En2 m) (adm2 m) c :=
  (W42_of m c main_v6 (by decide)).trans (W41_chunk2 m c)
theorem W43_chunk2 (c : Dev nD) : W43 m c main_v6 = O2 (En2 m) (adm2 m) c :=
  (W43_of m c main_v6 (by decide)).trans (W42_chunk2 m c)
theorem W44_chunk2 (c : Dev nD) : W44 m c main_v6 = O2 (En2 m) (adm2 m) c :=
  (W44_of m c main_v6 (by decide)).trans (W43_chunk2 m c)
theorem W45_chunk2 (c : Dev nD) : W45 m c main_v6 = O2 (En2 m) (adm2 m) c :=
  (W45_of m c main_v6 (by decide)).trans (W44_chunk2 m c)
theorem W46_chunk2 (c : Dev nD) : W46 m c main_v6 = O2 (En2 m) (adm2 m) c :=
  (W46_of m c main_v6 (by decide)).trans (W45_chunk2 m c)
theorem W47_chunk2 (c : Dev nD) : W47 m c main_v6 = O2 (En2 m) (adm2 m) c :=
  (W47_of m c main_v6 (by decide)).trans (W46_chunk2 m c)
theorem W48_chunk2 (c : Dev nD) : W48 m c main_v6 = O2 (En2 m) (adm2 m) c :=
  (W48_of m c main_v6 (by decide)).trans (W47_chunk2 m c)
theorem W49_chunk2 (c : Dev nD) : W49 m c main_v6 = O2 (En2 m) (adm2 m) c :=
  (W49_of m c main_v6 (by decide)).trans (W48_chunk2 m c)
theorem W50_chunk2 (c : Dev nD) : W50 m c main_v6 = O2 (En2 m) (adm2 m) c :=
  (W50_of m c main_v6 (by decide)).trans (W49_chunk2 m c)
theorem W51_chunk2 (c : Dev nD) : W51 m c main_v6 = O2 (En2 m) (adm2 m) c :=
  (W51_of m c main_v6 (by decide)).trans (W50_chunk2 m c)
theorem W8_chunk3 (c : Dev nD) : W8 m c main_v8 = O3 (En3 m) (adm3 m) c :=
  W8_out m c
theorem W9_chunk3 (c : Dev nD) : W9 m c main_v8 = O3 (En3 m) (adm3 m) c :=
  (W9_of m c main_v8 (by decide)).trans (W8_chunk3 m c)
theorem W10_chunk3 (c : Dev nD) : W10 m c main_v8 = O3 (En3 m) (adm3 m) c :=
  (W10_of m c main_v8 (by decide)).trans (W9_chunk3 m c)
theorem W11_chunk3 (c : Dev nD) : W11 m c main_v8 = O3 (En3 m) (adm3 m) c :=
  (W11_of m c main_v8 (by decide)).trans (W10_chunk3 m c)
theorem W12_chunk3 (c : Dev nD) : W12 m c main_v8 = O3 (En3 m) (adm3 m) c :=
  (W12_of m c main_v8 (by decide)).trans (W11_chunk3 m c)
theorem W13_chunk3 (c : Dev nD) : W13 m c main_v8 = O3 (En3 m) (adm3 m) c :=
  (W13_of m c main_v8 (by decide)).trans (W12_chunk3 m c)
theorem W14_chunk3 (c : Dev nD) : W14 m c main_v8 = O3 (En3 m) (adm3 m) c :=
  (W14_of m c main_v8 (by decide)).trans (W13_chunk3 m c)
theorem W15_chunk3 (c : Dev nD) : W15 m c main_v8 = O3 (En3 m) (adm3 m) c :=
  (W15_of m c main_v8 (by decide)).trans (W14_chunk3 m c)
theorem W16_chunk3 (c : Dev nD) : W16 m c main_v8 = O3 (En3 m) (adm3 m) c :=
  (W16_of m c main_v8 (by decide)).trans (W15_chunk3 m c)
theorem W17_chunk3 (c : Dev nD) : W17 m c main_v8 = O3 (En3 m) (adm3 m) c :=
  (W17_of m c main_v8 (by decide)).trans (W16_chunk3 m c)
theorem W18_chunk3 (c : Dev nD) : W18 m c main_v8 = O3 (En3 m) (adm3 m) c :=
  (W18_of m c main_v8 (by decide)).trans (W17_chunk3 m c)
theorem W19_chunk3 (c : Dev nD) : W19 m c main_v8 = O3 (En3 m) (adm3 m) c :=
  (W19_of m c main_v8 (by decide)).trans (W18_chunk3 m c)
theorem W20_chunk3 (c : Dev nD) : W20 m c main_v8 = O3 (En3 m) (adm3 m) c :=
  (W20_of m c main_v8 (by decide)).trans (W19_chunk3 m c)
theorem W21_chunk3 (c : Dev nD) : W21 m c main_v8 = O3 (En3 m) (adm3 m) c :=
  (W21_of m c main_v8 (by decide)).trans (W20_chunk3 m c)
theorem W22_chunk3 (c : Dev nD) : W22 m c main_v8 = O3 (En3 m) (adm3 m) c :=
  (W22_of m c main_v8 (by decide)).trans (W21_chunk3 m c)
theorem W23_chunk3 (c : Dev nD) : W23 m c main_v8 = O3 (En3 m) (adm3 m) c :=
  (W23_of m c main_v8 (by decide)).trans (W22_chunk3 m c)
theorem W24_chunk3 (c : Dev nD) : W24 m c main_v8 = O3 (En3 m) (adm3 m) c :=
  (W24_of m c main_v8 (by decide)).trans (W23_chunk3 m c)
theorem W25_chunk3 (c : Dev nD) : W25 m c main_v8 = O3 (En3 m) (adm3 m) c :=
  (W25_of m c main_v8 (by decide)).trans (W24_chunk3 m c)
theorem W26_chunk3 (c : Dev nD) : W26 m c main_v8 = O3 (En3 m) (adm3 m) c :=
  (W26_of m c main_v8 (by decide)).trans (W25_chunk3 m c)
theorem W27_chunk3 (c : Dev nD) : W27 m c main_v8 = O3 (En3 m) (adm3 m) c :=
  (W27_of m c main_v8 (by decide)).trans (W26_chunk3 m c)
theorem W28_chunk3 (c : Dev nD) : W28 m c main_v8 = O3 (En3 m) (adm3 m) c :=
  (W28_of m c main_v8 (by decide)).trans (W27_chunk3 m c)
theorem W29_chunk3 (c : Dev nD) : W29 m c main_v8 = O3 (En3 m) (adm3 m) c :=
  (W29_of m c main_v8 (by decide)).trans (W28_chunk3 m c)
theorem W30_chunk3 (c : Dev nD) : W30 m c main_v8 = O3 (En3 m) (adm3 m) c :=
  (W30_of m c main_v8 (by decide)).trans (W29_chunk3 m c)
theorem W31_chunk3 (c : Dev nD) : W31 m c main_v8 = O3 (En3 m) (adm3 m) c :=
  (W31_of m c main_v8 (by decide)).trans (W30_chunk3 m c)
theorem W32_chunk3 (c : Dev nD) : W32 m c main_v8 = O3 (En3 m) (adm3 m) c :=
  (W32_of m c main_v8 (by decide)).trans (W31_chunk3 m c)
theorem W33_chunk3 (c : Dev nD) : W33 m c main_v8 = O3 (En3 m) (adm3 m) c :=
  (W33_of m c main_v8 (by decide)).trans (W32_chunk3 m c)
theorem W34_chunk3 (c : Dev nD) : W34 m c main_v8 = O3 (En3 m) (adm3 m) c :=
  (W34_of m c main_v8 (by decide)).trans (W33_chunk3 m c)
theorem W35_chunk3 (c : Dev nD) : W35 m c main_v8 = O3 (En3 m) (adm3 m) c :=
  (W35_of m c main_v8 (by decide)).trans (W34_chunk3 m c)
theorem W36_chunk3 (c : Dev nD) : W36 m c main_v8 = O3 (En3 m) (adm3 m) c :=
  (W36_of m c main_v8 (by decide)).trans (W35_chunk3 m c)
theorem W37_chunk3 (c : Dev nD) : W37 m c main_v8 = O3 (En3 m) (adm3 m) c :=
  (W37_of m c main_v8 (by decide)).trans (W36_chunk3 m c)
theorem W38_chunk3 (c : Dev nD) : W38 m c main_v8 = O3 (En3 m) (adm3 m) c :=
  (W38_of m c main_v8 (by decide)).trans (W37_chunk3 m c)
theorem W39_chunk3 (c : Dev nD) : W39 m c main_v8 = O3 (En3 m) (adm3 m) c :=
  (W39_of m c main_v8 (by decide)).trans (W38_chunk3 m c)
theorem W40_chunk3 (c : Dev nD) : W40 m c main_v8 = O3 (En3 m) (adm3 m) c :=
  (W40_of m c main_v8 (by decide)).trans (W39_chunk3 m c)
theorem W41_chunk3 (c : Dev nD) : W41 m c main_v8 = O3 (En3 m) (adm3 m) c :=
  (W41_of m c main_v8 (by decide)).trans (W40_chunk3 m c)
theorem W42_chunk3 (c : Dev nD) : W42 m c main_v8 = O3 (En3 m) (adm3 m) c :=
  (W42_of m c main_v8 (by decide)).trans (W41_chunk3 m c)
theorem W43_chunk3 (c : Dev nD) : W43 m c main_v8 = O3 (En3 m) (adm3 m) c :=
  (W43_of m c main_v8 (by decide)).trans (W42_chunk3 m c)
theorem W44_chunk3 (c : Dev nD) : W44 m c main_v8 = O3 (En3 m) (adm3 m) c :=
  (W44_of m c main_v8 (by decide)).trans (W43_chunk3 m c)
theorem W45_chunk3 (c : Dev nD) : W45 m c main_v8 = O3 (En3 m) (adm3 m) c :=
  (W45_of m c main_v8 (by decide)).trans (W44_chunk3 m c)
theorem W46_chunk3 (c : Dev nD) : W46 m c main_v8 = O3 (En3 m) (adm3 m) c :=
  (W46_of m c main_v8 (by decide)).trans (W45_chunk3 m c)
theorem W47_chunk3 (c : Dev nD) : W47 m c main_v8 = O3 (En3 m) (adm3 m) c :=
  (W47_of m c main_v8 (by decide)).trans (W46_chunk3 m c)
theorem W48_chunk3 (c : Dev nD) : W48 m c main_v8 = O3 (En3 m) (adm3 m) c :=
  (W48_of m c main_v8 (by decide)).trans (W47_chunk3 m c)
theorem W49_chunk3 (c : Dev nD) : W49 m c main_v8 = O3 (En3 m) (adm3 m) c :=
  (W49_of m c main_v8 (by decide)).trans (W48_chunk3 m c)
theorem W50_chunk3 (c : Dev nD) : W50 m c main_v8 = O3 (En3 m) (adm3 m) c :=
  (W50_of m c main_v8 (by decide)).trans (W49_chunk3 m c)
theorem W51_chunk3 (c : Dev nD) : W51 m c main_v8 = O3 (En3 m) (adm3 m) c :=
  (W51_of m c main_v8 (by decide)).trans (W50_chunk3 m c)
theorem W10_chunk4 (c : Dev nD) : W10 m c main_v10 = O4 (En4 m) (adm4 m) c :=
  W10_out m c
theorem W11_chunk4 (c : Dev nD) : W11 m c main_v10 = O4 (En4 m) (adm4 m) c :=
  (W11_of m c main_v10 (by decide)).trans (W10_chunk4 m c)
theorem W12_chunk4 (c : Dev nD) : W12 m c main_v10 = O4 (En4 m) (adm4 m) c :=
  (W12_of m c main_v10 (by decide)).trans (W11_chunk4 m c)
theorem W13_chunk4 (c : Dev nD) : W13 m c main_v10 = O4 (En4 m) (adm4 m) c :=
  (W13_of m c main_v10 (by decide)).trans (W12_chunk4 m c)
theorem W14_chunk4 (c : Dev nD) : W14 m c main_v10 = O4 (En4 m) (adm4 m) c :=
  (W14_of m c main_v10 (by decide)).trans (W13_chunk4 m c)
theorem W15_chunk4 (c : Dev nD) : W15 m c main_v10 = O4 (En4 m) (adm4 m) c :=
  (W15_of m c main_v10 (by decide)).trans (W14_chunk4 m c)
theorem W16_chunk4 (c : Dev nD) : W16 m c main_v10 = O4 (En4 m) (adm4 m) c :=
  (W16_of m c main_v10 (by decide)).trans (W15_chunk4 m c)
theorem W17_chunk4 (c : Dev nD) : W17 m c main_v10 = O4 (En4 m) (adm4 m) c :=
  (W17_of m c main_v10 (by decide)).trans (W16_chunk4 m c)
theorem W18_chunk4 (c : Dev nD) : W18 m c main_v10 = O4 (En4 m) (adm4 m) c :=
  (W18_of m c main_v10 (by decide)).trans (W17_chunk4 m c)
theorem W19_chunk4 (c : Dev nD) : W19 m c main_v10 = O4 (En4 m) (adm4 m) c :=
  (W19_of m c main_v10 (by decide)).trans (W18_chunk4 m c)
theorem W20_chunk4 (c : Dev nD) : W20 m c main_v10 = O4 (En4 m) (adm4 m) c :=
  (W20_of m c main_v10 (by decide)).trans (W19_chunk4 m c)
theorem W21_chunk4 (c : Dev nD) : W21 m c main_v10 = O4 (En4 m) (adm4 m) c :=
  (W21_of m c main_v10 (by decide)).trans (W20_chunk4 m c)
theorem W22_chunk4 (c : Dev nD) : W22 m c main_v10 = O4 (En4 m) (adm4 m) c :=
  (W22_of m c main_v10 (by decide)).trans (W21_chunk4 m c)
theorem W23_chunk4 (c : Dev nD) : W23 m c main_v10 = O4 (En4 m) (adm4 m) c :=
  (W23_of m c main_v10 (by decide)).trans (W22_chunk4 m c)
theorem W24_chunk4 (c : Dev nD) : W24 m c main_v10 = O4 (En4 m) (adm4 m) c :=
  (W24_of m c main_v10 (by decide)).trans (W23_chunk4 m c)
theorem W25_chunk4 (c : Dev nD) : W25 m c main_v10 = O4 (En4 m) (adm4 m) c :=
  (W25_of m c main_v10 (by decide)).trans (W24_chunk4 m c)
theorem W26_chunk4 (c : Dev nD) : W26 m c main_v10 = O4 (En4 m) (adm4 m) c :=
  (W26_of m c main_v10 (by decide)).trans (W25_chunk4 m c)
theorem W27_chunk4 (c : Dev nD) : W27 m c main_v10 = O4 (En4 m) (adm4 m) c :=
  (W27_of m c main_v10 (by decide)).trans (W26_chunk4 m c)
theorem W28_chunk4 (c : Dev nD) : W28 m c main_v10 = O4 (En4 m) (adm4 m) c :=
  (W28_of m c main_v10 (by decide)).trans (W27_chunk4 m c)
theorem W29_chunk4 (c : Dev nD) : W29 m c main_v10 = O4 (En4 m) (adm4 m) c :=
  (W29_of m c main_v10 (by decide)).trans (W28_chunk4 m c)
theorem W30_chunk4 (c : Dev nD) : W30 m c main_v10 = O4 (En4 m) (adm4 m) c :=
  (W30_of m c main_v10 (by decide)).trans (W29_chunk4 m c)
theorem W31_chunk4 (c : Dev nD) : W31 m c main_v10 = O4 (En4 m) (adm4 m) c :=
  (W31_of m c main_v10 (by decide)).trans (W30_chunk4 m c)
theorem W32_chunk4 (c : Dev nD) : W32 m c main_v10 = O4 (En4 m) (adm4 m) c :=
  (W32_of m c main_v10 (by decide)).trans (W31_chunk4 m c)
theorem W33_chunk4 (c : Dev nD) : W33 m c main_v10 = O4 (En4 m) (adm4 m) c :=
  (W33_of m c main_v10 (by decide)).trans (W32_chunk4 m c)
theorem W34_chunk4 (c : Dev nD) : W34 m c main_v10 = O4 (En4 m) (adm4 m) c :=
  (W34_of m c main_v10 (by decide)).trans (W33_chunk4 m c)
theorem W35_chunk4 (c : Dev nD) : W35 m c main_v10 = O4 (En4 m) (adm4 m) c :=
  (W35_of m c main_v10 (by decide)).trans (W34_chunk4 m c)
theorem W36_chunk4 (c : Dev nD) : W36 m c main_v10 = O4 (En4 m) (adm4 m) c :=
  (W36_of m c main_v10 (by decide)).trans (W35_chunk4 m c)
theorem W37_chunk4 (c : Dev nD) : W37 m c main_v10 = O4 (En4 m) (adm4 m) c :=
  (W37_of m c main_v10 (by decide)).trans (W36_chunk4 m c)
theorem W38_chunk4 (c : Dev nD) : W38 m c main_v10 = O4 (En4 m) (adm4 m) c :=
  (W38_of m c main_v10 (by decide)).trans (W37_chunk4 m c)
theorem W39_chunk4 (c : Dev nD) : W39 m c main_v10 = O4 (En4 m) (adm4 m) c :=
  (W39_of m c main_v10 (by decide)).trans (W38_chunk4 m c)
theorem W40_chunk4 (c : Dev nD) : W40 m c main_v10 = O4 (En4 m) (adm4 m) c :=
  (W40_of m c main_v10 (by decide)).trans (W39_chunk4 m c)
theorem W41_chunk4 (c : Dev nD) : W41 m c main_v10 = O4 (En4 m) (adm4 m) c :=
  (W41_of m c main_v10 (by decide)).trans (W40_chunk4 m c)
theorem W42_chunk4 (c : Dev nD) : W42 m c main_v10 = O4 (En4 m) (adm4 m) c :=
  (W42_of m c main_v10 (by decide)).trans (W41_chunk4 m c)
theorem W43_chunk4 (c : Dev nD) : W43 m c main_v10 = O4 (En4 m) (adm4 m) c :=
  (W43_of m c main_v10 (by decide)).trans (W42_chunk4 m c)
theorem W44_chunk4 (c : Dev nD) : W44 m c main_v10 = O4 (En4 m) (adm4 m) c :=
  (W44_of m c main_v10 (by decide)).trans (W43_chunk4 m c)
theorem W45_chunk4 (c : Dev nD) : W45 m c main_v10 = O4 (En4 m) (adm4 m) c :=
  (W45_of m c main_v10 (by decide)).trans (W44_chunk4 m c)
theorem W46_chunk4 (c : Dev nD) : W46 m c main_v10 = O4 (En4 m) (adm4 m) c :=
  (W46_of m c main_v10 (by decide)).trans (W45_chunk4 m c)
theorem W47_chunk4 (c : Dev nD) : W47 m c main_v10 = O4 (En4 m) (adm4 m) c :=
  (W47_of m c main_v10 (by decide)).trans (W46_chunk4 m c)
theorem W48_chunk4 (c : Dev nD) : W48 m c main_v10 = O4 (En4 m) (adm4 m) c :=
  (W48_of m c main_v10 (by decide)).trans (W47_chunk4 m c)
theorem W49_chunk4 (c : Dev nD) : W49 m c main_v10 = O4 (En4 m) (adm4 m) c :=
  (W49_of m c main_v10 (by decide)).trans (W48_chunk4 m c)
theorem W50_chunk4 (c : Dev nD) : W50 m c main_v10 = O4 (En4 m) (adm4 m) c :=
  (W50_of m c main_v10 (by decide)).trans (W49_chunk4 m c)
theorem W51_chunk4 (c : Dev nD) : W51 m c main_v10 = O4 (En4 m) (adm4 m) c :=
  (W51_of m c main_v10 (by decide)).trans (W50_chunk4 m c)
theorem W12_chunk5 (c : Dev nD) : W12 m c main_v12 = O5 (En5 m) (adm5 m) c :=
  W12_out m c
theorem W13_chunk5 (c : Dev nD) : W13 m c main_v12 = O5 (En5 m) (adm5 m) c :=
  (W13_of m c main_v12 (by decide)).trans (W12_chunk5 m c)
theorem W14_chunk5 (c : Dev nD) : W14 m c main_v12 = O5 (En5 m) (adm5 m) c :=
  (W14_of m c main_v12 (by decide)).trans (W13_chunk5 m c)
theorem W15_chunk5 (c : Dev nD) : W15 m c main_v12 = O5 (En5 m) (adm5 m) c :=
  (W15_of m c main_v12 (by decide)).trans (W14_chunk5 m c)
theorem W16_chunk5 (c : Dev nD) : W16 m c main_v12 = O5 (En5 m) (adm5 m) c :=
  (W16_of m c main_v12 (by decide)).trans (W15_chunk5 m c)
theorem W17_chunk5 (c : Dev nD) : W17 m c main_v12 = O5 (En5 m) (adm5 m) c :=
  (W17_of m c main_v12 (by decide)).trans (W16_chunk5 m c)
theorem W18_chunk5 (c : Dev nD) : W18 m c main_v12 = O5 (En5 m) (adm5 m) c :=
  (W18_of m c main_v12 (by decide)).trans (W17_chunk5 m c)
theorem W19_chunk5 (c : Dev nD) : W19 m c main_v12 = O5 (En5 m) (adm5 m) c :=
  (W19_of m c main_v12 (by decide)).trans (W18_chunk5 m c)
theorem W20_chunk5 (c : Dev nD) : W20 m c main_v12 = O5 (En5 m) (adm5 m) c :=
  (W20_of m c main_v12 (by decide)).trans (W19_chunk5 m c)
theorem W21_chunk5 (c : Dev nD) : W21 m c main_v12 = O5 (En5 m) (adm5 m) c :=
  (W21_of m c main_v12 (by decide)).trans (W20_chunk5 m c)
theorem W22_chunk5 (c : Dev nD) : W22 m c main_v12 = O5 (En5 m) (adm5 m) c :=
  (W22_of m c main_v12 (by decide)).trans (W21_chunk5 m c)
theorem W23_chunk5 (c : Dev nD) : W23 m c main_v12 = O5 (En5 m) (adm5 m) c :=
  (W23_of m c main_v12 (by decide)).trans (W22_chunk5 m c)
theorem W24_chunk5 (c : Dev nD) : W24 m c main_v12 = O5 (En5 m) (adm5 m) c :=
  (W24_of m c main_v12 (by decide)).trans (W23_chunk5 m c)
theorem W25_chunk5 (c : Dev nD) : W25 m c main_v12 = O5 (En5 m) (adm5 m) c :=
  (W25_of m c main_v12 (by decide)).trans (W24_chunk5 m c)
theorem W26_chunk5 (c : Dev nD) : W26 m c main_v12 = O5 (En5 m) (adm5 m) c :=
  (W26_of m c main_v12 (by decide)).trans (W25_chunk5 m c)
theorem W27_chunk5 (c : Dev nD) : W27 m c main_v12 = O5 (En5 m) (adm5 m) c :=
  (W27_of m c main_v12 (by decide)).trans (W26_chunk5 m c)
theorem W28_chunk5 (c : Dev nD) : W28 m c main_v12 = O5 (En5 m) (adm5 m) c :=
  (W28_of m c main_v12 (by decide)).trans (W27_chunk5 m c)
theorem W29_chunk5 (c : Dev nD) : W29 m c main_v12 = O5 (En5 m) (adm5 m) c :=
  (W29_of m c main_v12 (by decide)).trans (W28_chunk5 m c)
theorem W30_chunk5 (c : Dev nD) : W30 m c main_v12 = O5 (En5 m) (adm5 m) c :=
  (W30_of m c main_v12 (by decide)).trans (W29_chunk5 m c)
theorem W31_chunk5 (c : Dev nD) : W31 m c main_v12 = O5 (En5 m) (adm5 m) c :=
  (W31_of m c main_v12 (by decide)).trans (W30_chunk5 m c)
theorem W32_chunk5 (c : Dev nD) : W32 m c main_v12 = O5 (En5 m) (adm5 m) c :=
  (W32_of m c main_v12 (by decide)).trans (W31_chunk5 m c)
theorem W33_chunk5 (c : Dev nD) : W33 m c main_v12 = O5 (En5 m) (adm5 m) c :=
  (W33_of m c main_v12 (by decide)).trans (W32_chunk5 m c)
theorem W34_chunk5 (c : Dev nD) : W34 m c main_v12 = O5 (En5 m) (adm5 m) c :=
  (W34_of m c main_v12 (by decide)).trans (W33_chunk5 m c)
theorem W35_chunk5 (c : Dev nD) : W35 m c main_v12 = O5 (En5 m) (adm5 m) c :=
  (W35_of m c main_v12 (by decide)).trans (W34_chunk5 m c)
theorem W36_chunk5 (c : Dev nD) : W36 m c main_v12 = O5 (En5 m) (adm5 m) c :=
  (W36_of m c main_v12 (by decide)).trans (W35_chunk5 m c)
theorem W37_chunk5 (c : Dev nD) : W37 m c main_v12 = O5 (En5 m) (adm5 m) c :=
  (W37_of m c main_v12 (by decide)).trans (W36_chunk5 m c)
theorem W38_chunk5 (c : Dev nD) : W38 m c main_v12 = O5 (En5 m) (adm5 m) c :=
  (W38_of m c main_v12 (by decide)).trans (W37_chunk5 m c)
theorem W39_chunk5 (c : Dev nD) : W39 m c main_v12 = O5 (En5 m) (adm5 m) c :=
  (W39_of m c main_v12 (by decide)).trans (W38_chunk5 m c)
theorem W40_chunk5 (c : Dev nD) : W40 m c main_v12 = O5 (En5 m) (adm5 m) c :=
  (W40_of m c main_v12 (by decide)).trans (W39_chunk5 m c)
theorem W41_chunk5 (c : Dev nD) : W41 m c main_v12 = O5 (En5 m) (adm5 m) c :=
  (W41_of m c main_v12 (by decide)).trans (W40_chunk5 m c)
theorem W42_chunk5 (c : Dev nD) : W42 m c main_v12 = O5 (En5 m) (adm5 m) c :=
  (W42_of m c main_v12 (by decide)).trans (W41_chunk5 m c)
theorem W43_chunk5 (c : Dev nD) : W43 m c main_v12 = O5 (En5 m) (adm5 m) c :=
  (W43_of m c main_v12 (by decide)).trans (W42_chunk5 m c)
theorem W44_chunk5 (c : Dev nD) : W44 m c main_v12 = O5 (En5 m) (adm5 m) c :=
  (W44_of m c main_v12 (by decide)).trans (W43_chunk5 m c)
theorem W45_chunk5 (c : Dev nD) : W45 m c main_v12 = O5 (En5 m) (adm5 m) c :=
  (W45_of m c main_v12 (by decide)).trans (W44_chunk5 m c)
theorem W46_chunk5 (c : Dev nD) : W46 m c main_v12 = O5 (En5 m) (adm5 m) c :=
  (W46_of m c main_v12 (by decide)).trans (W45_chunk5 m c)
theorem W47_chunk5 (c : Dev nD) : W47 m c main_v12 = O5 (En5 m) (adm5 m) c :=
  (W47_of m c main_v12 (by decide)).trans (W46_chunk5 m c)
theorem W48_chunk5 (c : Dev nD) : W48 m c main_v12 = O5 (En5 m) (adm5 m) c :=
  (W48_of m c main_v12 (by decide)).trans (W47_chunk5 m c)
theorem W49_chunk5 (c : Dev nD) : W49 m c main_v12 = O5 (En5 m) (adm5 m) c :=
  (W49_of m c main_v12 (by decide)).trans (W48_chunk5 m c)
theorem W50_chunk5 (c : Dev nD) : W50 m c main_v12 = O5 (En5 m) (adm5 m) c :=
  (W50_of m c main_v12 (by decide)).trans (W49_chunk5 m c)
theorem W51_chunk5 (c : Dev nD) : W51 m c main_v12 = O5 (En5 m) (adm5 m) c :=
  (W51_of m c main_v12 (by decide)).trans (W50_chunk5 m c)
theorem W14_chunk6 (c : Dev nD) : W14 m c main_v14 = O6 (En6 m) (adm6 m) c :=
  W14_out m c
theorem W15_chunk6 (c : Dev nD) : W15 m c main_v14 = O6 (En6 m) (adm6 m) c :=
  (W15_of m c main_v14 (by decide)).trans (W14_chunk6 m c)
theorem W16_chunk6 (c : Dev nD) : W16 m c main_v14 = O6 (En6 m) (adm6 m) c :=
  (W16_of m c main_v14 (by decide)).trans (W15_chunk6 m c)
theorem W17_chunk6 (c : Dev nD) : W17 m c main_v14 = O6 (En6 m) (adm6 m) c :=
  (W17_of m c main_v14 (by decide)).trans (W16_chunk6 m c)
theorem W18_chunk6 (c : Dev nD) : W18 m c main_v14 = O6 (En6 m) (adm6 m) c :=
  (W18_of m c main_v14 (by decide)).trans (W17_chunk6 m c)
theorem W19_chunk6 (c : Dev nD) : W19 m c main_v14 = O6 (En6 m) (adm6 m) c :=
  (W19_of m c main_v14 (by decide)).trans (W18_chunk6 m c)
theorem W20_chunk6 (c : Dev nD) : W20 m c main_v14 = O6 (En6 m) (adm6 m) c :=
  (W20_of m c main_v14 (by decide)).trans (W19_chunk6 m c)
theorem W21_chunk6 (c : Dev nD) : W21 m c main_v14 = O6 (En6 m) (adm6 m) c :=
  (W21_of m c main_v14 (by decide)).trans (W20_chunk6 m c)
theorem W22_chunk6 (c : Dev nD) : W22 m c main_v14 = O6 (En6 m) (adm6 m) c :=
  (W22_of m c main_v14 (by decide)).trans (W21_chunk6 m c)
theorem W23_chunk6 (c : Dev nD) : W23 m c main_v14 = O6 (En6 m) (adm6 m) c :=
  (W23_of m c main_v14 (by decide)).trans (W22_chunk6 m c)
theorem W24_chunk6 (c : Dev nD) : W24 m c main_v14 = O6 (En6 m) (adm6 m) c :=
  (W24_of m c main_v14 (by decide)).trans (W23_chunk6 m c)
theorem W25_chunk6 (c : Dev nD) : W25 m c main_v14 = O6 (En6 m) (adm6 m) c :=
  (W25_of m c main_v14 (by decide)).trans (W24_chunk6 m c)
theorem W26_chunk6 (c : Dev nD) : W26 m c main_v14 = O6 (En6 m) (adm6 m) c :=
  (W26_of m c main_v14 (by decide)).trans (W25_chunk6 m c)
theorem W27_chunk6 (c : Dev nD) : W27 m c main_v14 = O6 (En6 m) (adm6 m) c :=
  (W27_of m c main_v14 (by decide)).trans (W26_chunk6 m c)
theorem W28_chunk6 (c : Dev nD) : W28 m c main_v14 = O6 (En6 m) (adm6 m) c :=
  (W28_of m c main_v14 (by decide)).trans (W27_chunk6 m c)
theorem W29_chunk6 (c : Dev nD) : W29 m c main_v14 = O6 (En6 m) (adm6 m) c :=
  (W29_of m c main_v14 (by decide)).trans (W28_chunk6 m c)
theorem W30_chunk6 (c : Dev nD) : W30 m c main_v14 = O6 (En6 m) (adm6 m) c :=
  (W30_of m c main_v14 (by decide)).trans (W29_chunk6 m c)
theorem W31_chunk6 (c : Dev nD) : W31 m c main_v14 = O6 (En6 m) (adm6 m) c :=
  (W31_of m c main_v14 (by decide)).trans (W30_chunk6 m c)
theorem W32_chunk6 (c : Dev nD) : W32 m c main_v14 = O6 (En6 m) (adm6 m) c :=
  (W32_of m c main_v14 (by decide)).trans (W31_chunk6 m c)
theorem W33_chunk6 (c : Dev nD) : W33 m c main_v14 = O6 (En6 m) (adm6 m) c :=
  (W33_of m c main_v14 (by decide)).trans (W32_chunk6 m c)
theorem W34_chunk6 (c : Dev nD) : W34 m c main_v14 = O6 (En6 m) (adm6 m) c :=
  (W34_of m c main_v14 (by decide)).trans (W33_chunk6 m c)
theorem W35_chunk6 (c : Dev nD) : W35 m c main_v14 = O6 (En6 m) (adm6 m) c :=
  (W35_of m c main_v14 (by decide)).trans (W34_chunk6 m c)
theorem W36_chunk6 (c : Dev nD) : W36 m c main_v14 = O6 (En6 m) (adm6 m) c :=
  (W36_of m c main_v14 (by decide)).trans (W35_chunk6 m c)
theorem W37_chunk6 (c : Dev nD) : W37 m c main_v14 = O6 (En6 m) (adm6 m) c :=
  (W37_of m c main_v14 (by decide)).trans (W36_chunk6 m c)
theorem W38_chunk6 (c : Dev nD) : W38 m c main_v14 = O6 (En6 m) (adm6 m) c :=
  (W38_of m c main_v14 (by decide)).trans (W37_chunk6 m c)
theorem W39_chunk6 (c : Dev nD) : W39 m c main_v14 = O6 (En6 m) (adm6 m) c :=
  (W39_of m c main_v14 (by decide)).trans (W38_chunk6 m c)
theorem W40_chunk6 (c : Dev nD) : W40 m c main_v14 = O6 (En6 m) (adm6 m) c :=
  (W40_of m c main_v14 (by decide)).trans (W39_chunk6 m c)
theorem W41_chunk6 (c : Dev nD) : W41 m c main_v14 = O6 (En6 m) (adm6 m) c :=
  (W41_of m c main_v14 (by decide)).trans (W40_chunk6 m c)
theorem W42_chunk6 (c : Dev nD) : W42 m c main_v14 = O6 (En6 m) (adm6 m) c :=
  (W42_of m c main_v14 (by decide)).trans (W41_chunk6 m c)
theorem W43_chunk6 (c : Dev nD) : W43 m c main_v14 = O6 (En6 m) (adm6 m) c :=
  (W43_of m c main_v14 (by decide)).trans (W42_chunk6 m c)
theorem W44_chunk6 (c : Dev nD) : W44 m c main_v14 = O6 (En6 m) (adm6 m) c :=
  (W44_of m c main_v14 (by decide)).trans (W43_chunk6 m c)
theorem W45_chunk6 (c : Dev nD) : W45 m c main_v14 = O6 (En6 m) (adm6 m) c :=
  (W45_of m c main_v14 (by decide)).trans (W44_chunk6 m c)
theorem W46_chunk6 (c : Dev nD) : W46 m c main_v14 = O6 (En6 m) (adm6 m) c :=
  (W46_of m c main_v14 (by decide)).trans (W45_chunk6 m c)
theorem W47_chunk6 (c : Dev nD) : W47 m c main_v14 = O6 (En6 m) (adm6 m) c :=
  (W47_of m c main_v14 (by decide)).trans (W46_chunk6 m c)
theorem W48_chunk6 (c : Dev nD) : W48 m c main_v14 = O6 (En6 m) (adm6 m) c :=
  (W48_of m c main_v14 (by decide)).trans (W47_chunk6 m c)
theorem W49_chunk6 (c : Dev nD) : W49 m c main_v14 = O6 (En6 m) (adm6 m) c :=
  (W49_of m c main_v14 (by decide)).trans (W48_chunk6 m c)
theorem W50_chunk6 (c : Dev nD) : W50 m c main_v14 = O6 (En6 m) (adm6 m) c :=
  (W50_of m c main_v14 (by decide)).trans (W49_chunk6 m c)
theorem W51_chunk6 (c : Dev nD) : W51 m c main_v14 = O6 (En6 m) (adm6 m) c :=
  (W51_of m c main_v14 (by decide)).trans (W50_chunk6 m c)
theorem W16_chunk7 (c : Dev nD) : W16 m c main_v16 = O7 (En7 m) (adm7 m) c :=
  W16_out m c
theorem W17_chunk7 (c : Dev nD) : W17 m c main_v16 = O7 (En7 m) (adm7 m) c :=
  (W17_of m c main_v16 (by decide)).trans (W16_chunk7 m c)
theorem W18_chunk7 (c : Dev nD) : W18 m c main_v16 = O7 (En7 m) (adm7 m) c :=
  (W18_of m c main_v16 (by decide)).trans (W17_chunk7 m c)
theorem W19_chunk7 (c : Dev nD) : W19 m c main_v16 = O7 (En7 m) (adm7 m) c :=
  (W19_of m c main_v16 (by decide)).trans (W18_chunk7 m c)
theorem W20_chunk7 (c : Dev nD) : W20 m c main_v16 = O7 (En7 m) (adm7 m) c :=
  (W20_of m c main_v16 (by decide)).trans (W19_chunk7 m c)
theorem W21_chunk7 (c : Dev nD) : W21 m c main_v16 = O7 (En7 m) (adm7 m) c :=
  (W21_of m c main_v16 (by decide)).trans (W20_chunk7 m c)
theorem W22_chunk7 (c : Dev nD) : W22 m c main_v16 = O7 (En7 m) (adm7 m) c :=
  (W22_of m c main_v16 (by decide)).trans (W21_chunk7 m c)
theorem W23_chunk7 (c : Dev nD) : W23 m c main_v16 = O7 (En7 m) (adm7 m) c :=
  (W23_of m c main_v16 (by decide)).trans (W22_chunk7 m c)
theorem W24_chunk7 (c : Dev nD) : W24 m c main_v16 = O7 (En7 m) (adm7 m) c :=
  (W24_of m c main_v16 (by decide)).trans (W23_chunk7 m c)
theorem W25_chunk7 (c : Dev nD) : W25 m c main_v16 = O7 (En7 m) (adm7 m) c :=
  (W25_of m c main_v16 (by decide)).trans (W24_chunk7 m c)
theorem W26_chunk7 (c : Dev nD) : W26 m c main_v16 = O7 (En7 m) (adm7 m) c :=
  (W26_of m c main_v16 (by decide)).trans (W25_chunk7 m c)
theorem W27_chunk7 (c : Dev nD) : W27 m c main_v16 = O7 (En7 m) (adm7 m) c :=
  (W27_of m c main_v16 (by decide)).trans (W26_chunk7 m c)
theorem W28_chunk7 (c : Dev nD) : W28 m c main_v16 = O7 (En7 m) (adm7 m) c :=
  (W28_of m c main_v16 (by decide)).trans (W27_chunk7 m c)
theorem W29_chunk7 (c : Dev nD) : W29 m c main_v16 = O7 (En7 m) (adm7 m) c :=
  (W29_of m c main_v16 (by decide)).trans (W28_chunk7 m c)
theorem W30_chunk7 (c : Dev nD) : W30 m c main_v16 = O7 (En7 m) (adm7 m) c :=
  (W30_of m c main_v16 (by decide)).trans (W29_chunk7 m c)
theorem W31_chunk7 (c : Dev nD) : W31 m c main_v16 = O7 (En7 m) (adm7 m) c :=
  (W31_of m c main_v16 (by decide)).trans (W30_chunk7 m c)
theorem W32_chunk7 (c : Dev nD) : W32 m c main_v16 = O7 (En7 m) (adm7 m) c :=
  (W32_of m c main_v16 (by decide)).trans (W31_chunk7 m c)
theorem W33_chunk7 (c : Dev nD) : W33 m c main_v16 = O7 (En7 m) (adm7 m) c :=
  (W33_of m c main_v16 (by decide)).trans (W32_chunk7 m c)
theorem W34_chunk7 (c : Dev nD) : W34 m c main_v16 = O7 (En7 m) (adm7 m) c :=
  (W34_of m c main_v16 (by decide)).trans (W33_chunk7 m c)
theorem W35_chunk7 (c : Dev nD) : W35 m c main_v16 = O7 (En7 m) (adm7 m) c :=
  (W35_of m c main_v16 (by decide)).trans (W34_chunk7 m c)
theorem W36_chunk7 (c : Dev nD) : W36 m c main_v16 = O7 (En7 m) (adm7 m) c :=
  (W36_of m c main_v16 (by decide)).trans (W35_chunk7 m c)
theorem W37_chunk7 (c : Dev nD) : W37 m c main_v16 = O7 (En7 m) (adm7 m) c :=
  (W37_of m c main_v16 (by decide)).trans (W36_chunk7 m c)
theorem W38_chunk7 (c : Dev nD) : W38 m c main_v16 = O7 (En7 m) (adm7 m) c :=
  (W38_of m c main_v16 (by decide)).trans (W37_chunk7 m c)
theorem W39_chunk7 (c : Dev nD) : W39 m c main_v16 = O7 (En7 m) (adm7 m) c :=
  (W39_of m c main_v16 (by decide)).trans (W38_chunk7 m c)
theorem W40_chunk7 (c : Dev nD) : W40 m c main_v16 = O7 (En7 m) (adm7 m) c :=
  (W40_of m c main_v16 (by decide)).trans (W39_chunk7 m c)
theorem W41_chunk7 (c : Dev nD) : W41 m c main_v16 = O7 (En7 m) (adm7 m) c :=
  (W41_of m c main_v16 (by decide)).trans (W40_chunk7 m c)
theorem W42_chunk7 (c : Dev nD) : W42 m c main_v16 = O7 (En7 m) (adm7 m) c :=
  (W42_of m c main_v16 (by decide)).trans (W41_chunk7 m c)
theorem W43_chunk7 (c : Dev nD) : W43 m c main_v16 = O7 (En7 m) (adm7 m) c :=
  (W43_of m c main_v16 (by decide)).trans (W42_chunk7 m c)
theorem W44_chunk7 (c : Dev nD) : W44 m c main_v16 = O7 (En7 m) (adm7 m) c :=
  (W44_of m c main_v16 (by decide)).trans (W43_chunk7 m c)
theorem W45_chunk7 (c : Dev nD) : W45 m c main_v16 = O7 (En7 m) (adm7 m) c :=
  (W45_of m c main_v16 (by decide)).trans (W44_chunk7 m c)
theorem W46_chunk7 (c : Dev nD) : W46 m c main_v16 = O7 (En7 m) (adm7 m) c :=
  (W46_of m c main_v16 (by decide)).trans (W45_chunk7 m c)
theorem W47_chunk7 (c : Dev nD) : W47 m c main_v16 = O7 (En7 m) (adm7 m) c :=
  (W47_of m c main_v16 (by decide)).trans (W46_chunk7 m c)
theorem W48_chunk7 (c : Dev nD) : W48 m c main_v16 = O7 (En7 m) (adm7 m) c :=
  (W48_of m c main_v16 (by decide)).trans (W47_chunk7 m c)
theorem W49_chunk7 (c : Dev nD) : W49 m c main_v16 = O7 (En7 m) (adm7 m) c :=
  (W49_of m c main_v16 (by decide)).trans (W48_chunk7 m c)
theorem W50_chunk7 (c : Dev nD) : W50 m c main_v16 = O7 (En7 m) (adm7 m) c :=
  (W50_of m c main_v16 (by decide)).trans (W49_chunk7 m c)
theorem W51_chunk7 (c : Dev nD) : W51 m c main_v16 = O7 (En7 m) (adm7 m) c :=
  (W51_of m c main_v16 (by decide)).trans (W50_chunk7 m c)
theorem W18_chunk8 (c : Dev nD) : W18 m c main_v18 = O8 (En8 m) (adm8 m) c :=
  W18_out m c
theorem W19_chunk8 (c : Dev nD) : W19 m c main_v18 = O8 (En8 m) (adm8 m) c :=
  (W19_of m c main_v18 (by decide)).trans (W18_chunk8 m c)
theorem W20_chunk8 (c : Dev nD) : W20 m c main_v18 = O8 (En8 m) (adm8 m) c :=
  (W20_of m c main_v18 (by decide)).trans (W19_chunk8 m c)
theorem W21_chunk8 (c : Dev nD) : W21 m c main_v18 = O8 (En8 m) (adm8 m) c :=
  (W21_of m c main_v18 (by decide)).trans (W20_chunk8 m c)
theorem W22_chunk8 (c : Dev nD) : W22 m c main_v18 = O8 (En8 m) (adm8 m) c :=
  (W22_of m c main_v18 (by decide)).trans (W21_chunk8 m c)
theorem W23_chunk8 (c : Dev nD) : W23 m c main_v18 = O8 (En8 m) (adm8 m) c :=
  (W23_of m c main_v18 (by decide)).trans (W22_chunk8 m c)
theorem W24_chunk8 (c : Dev nD) : W24 m c main_v18 = O8 (En8 m) (adm8 m) c :=
  (W24_of m c main_v18 (by decide)).trans (W23_chunk8 m c)
theorem W25_chunk8 (c : Dev nD) : W25 m c main_v18 = O8 (En8 m) (adm8 m) c :=
  (W25_of m c main_v18 (by decide)).trans (W24_chunk8 m c)
theorem W26_chunk8 (c : Dev nD) : W26 m c main_v18 = O8 (En8 m) (adm8 m) c :=
  (W26_of m c main_v18 (by decide)).trans (W25_chunk8 m c)
theorem W27_chunk8 (c : Dev nD) : W27 m c main_v18 = O8 (En8 m) (adm8 m) c :=
  (W27_of m c main_v18 (by decide)).trans (W26_chunk8 m c)
theorem W28_chunk8 (c : Dev nD) : W28 m c main_v18 = O8 (En8 m) (adm8 m) c :=
  (W28_of m c main_v18 (by decide)).trans (W27_chunk8 m c)
theorem W29_chunk8 (c : Dev nD) : W29 m c main_v18 = O8 (En8 m) (adm8 m) c :=
  (W29_of m c main_v18 (by decide)).trans (W28_chunk8 m c)
theorem W30_chunk8 (c : Dev nD) : W30 m c main_v18 = O8 (En8 m) (adm8 m) c :=
  (W30_of m c main_v18 (by decide)).trans (W29_chunk8 m c)
theorem W31_chunk8 (c : Dev nD) : W31 m c main_v18 = O8 (En8 m) (adm8 m) c :=
  (W31_of m c main_v18 (by decide)).trans (W30_chunk8 m c)
theorem W32_chunk8 (c : Dev nD) : W32 m c main_v18 = O8 (En8 m) (adm8 m) c :=
  (W32_of m c main_v18 (by decide)).trans (W31_chunk8 m c)
theorem W33_chunk8 (c : Dev nD) : W33 m c main_v18 = O8 (En8 m) (adm8 m) c :=
  (W33_of m c main_v18 (by decide)).trans (W32_chunk8 m c)
theorem W34_chunk8 (c : Dev nD) : W34 m c main_v18 = O8 (En8 m) (adm8 m) c :=
  (W34_of m c main_v18 (by decide)).trans (W33_chunk8 m c)
theorem W35_chunk8 (c : Dev nD) : W35 m c main_v18 = O8 (En8 m) (adm8 m) c :=
  (W35_of m c main_v18 (by decide)).trans (W34_chunk8 m c)
theorem W36_chunk8 (c : Dev nD) : W36 m c main_v18 = O8 (En8 m) (adm8 m) c :=
  (W36_of m c main_v18 (by decide)).trans (W35_chunk8 m c)
theorem W37_chunk8 (c : Dev nD) : W37 m c main_v18 = O8 (En8 m) (adm8 m) c :=
  (W37_of m c main_v18 (by decide)).trans (W36_chunk8 m c)
theorem W38_chunk8 (c : Dev nD) : W38 m c main_v18 = O8 (En8 m) (adm8 m) c :=
  (W38_of m c main_v18 (by decide)).trans (W37_chunk8 m c)
theorem W39_chunk8 (c : Dev nD) : W39 m c main_v18 = O8 (En8 m) (adm8 m) c :=
  (W39_of m c main_v18 (by decide)).trans (W38_chunk8 m c)
theorem W40_chunk8 (c : Dev nD) : W40 m c main_v18 = O8 (En8 m) (adm8 m) c :=
  (W40_of m c main_v18 (by decide)).trans (W39_chunk8 m c)
theorem W41_chunk8 (c : Dev nD) : W41 m c main_v18 = O8 (En8 m) (adm8 m) c :=
  (W41_of m c main_v18 (by decide)).trans (W40_chunk8 m c)
theorem W42_chunk8 (c : Dev nD) : W42 m c main_v18 = O8 (En8 m) (adm8 m) c :=
  (W42_of m c main_v18 (by decide)).trans (W41_chunk8 m c)
theorem W43_chunk8 (c : Dev nD) : W43 m c main_v18 = O8 (En8 m) (adm8 m) c :=
  (W43_of m c main_v18 (by decide)).trans (W42_chunk8 m c)
theorem W44_chunk8 (c : Dev nD) : W44 m c main_v18 = O8 (En8 m) (adm8 m) c :=
  (W44_of m c main_v18 (by decide)).trans (W43_chunk8 m c)
theorem W45_chunk8 (c : Dev nD) : W45 m c main_v18 = O8 (En8 m) (adm8 m) c :=
  (W45_of m c main_v18 (by decide)).trans (W44_chunk8 m c)
theorem W46_chunk8 (c : Dev nD) : W46 m c main_v18 = O8 (En8 m) (adm8 m) c :=
  (W46_of m c main_v18 (by decide)).trans (W45_chunk8 m c)
theorem W47_chunk8 (c : Dev nD) : W47 m c main_v18 = O8 (En8 m) (adm8 m) c :=
  (W47_of m c main_v18 (by decide)).trans (W46_chunk8 m c)
theorem W48_chunk8 (c : Dev nD) : W48 m c main_v18 = O8 (En8 m) (adm8 m) c :=
  (W48_of m c main_v18 (by decide)).trans (W47_chunk8 m c)
theorem W49_chunk8 (c : Dev nD) : W49 m c main_v18 = O8 (En8 m) (adm8 m) c :=
  (W49_of m c main_v18 (by decide)).trans (W48_chunk8 m c)
theorem W50_chunk8 (c : Dev nD) : W50 m c main_v18 = O8 (En8 m) (adm8 m) c :=
  (W50_of m c main_v18 (by decide)).trans (W49_chunk8 m c)
theorem W51_chunk8 (c : Dev nD) : W51 m c main_v18 = O8 (En8 m) (adm8 m) c :=
  (W51_of m c main_v18 (by decide)).trans (W50_chunk8 m c)
theorem W20_chunk9 (c : Dev nD) : W20 m c main_v20 = O9 (En9 m) (adm9 m) c :=
  W20_out m c
theorem W21_chunk9 (c : Dev nD) : W21 m c main_v20 = O9 (En9 m) (adm9 m) c :=
  (W21_of m c main_v20 (by decide)).trans (W20_chunk9 m c)
theorem W22_chunk9 (c : Dev nD) : W22 m c main_v20 = O9 (En9 m) (adm9 m) c :=
  (W22_of m c main_v20 (by decide)).trans (W21_chunk9 m c)
theorem W23_chunk9 (c : Dev nD) : W23 m c main_v20 = O9 (En9 m) (adm9 m) c :=
  (W23_of m c main_v20 (by decide)).trans (W22_chunk9 m c)
theorem W24_chunk9 (c : Dev nD) : W24 m c main_v20 = O9 (En9 m) (adm9 m) c :=
  (W24_of m c main_v20 (by decide)).trans (W23_chunk9 m c)
theorem W25_chunk9 (c : Dev nD) : W25 m c main_v20 = O9 (En9 m) (adm9 m) c :=
  (W25_of m c main_v20 (by decide)).trans (W24_chunk9 m c)
theorem W26_chunk9 (c : Dev nD) : W26 m c main_v20 = O9 (En9 m) (adm9 m) c :=
  (W26_of m c main_v20 (by decide)).trans (W25_chunk9 m c)
theorem W27_chunk9 (c : Dev nD) : W27 m c main_v20 = O9 (En9 m) (adm9 m) c :=
  (W27_of m c main_v20 (by decide)).trans (W26_chunk9 m c)
theorem W28_chunk9 (c : Dev nD) : W28 m c main_v20 = O9 (En9 m) (adm9 m) c :=
  (W28_of m c main_v20 (by decide)).trans (W27_chunk9 m c)
theorem W29_chunk9 (c : Dev nD) : W29 m c main_v20 = O9 (En9 m) (adm9 m) c :=
  (W29_of m c main_v20 (by decide)).trans (W28_chunk9 m c)
theorem W30_chunk9 (c : Dev nD) : W30 m c main_v20 = O9 (En9 m) (adm9 m) c :=
  (W30_of m c main_v20 (by decide)).trans (W29_chunk9 m c)
theorem W31_chunk9 (c : Dev nD) : W31 m c main_v20 = O9 (En9 m) (adm9 m) c :=
  (W31_of m c main_v20 (by decide)).trans (W30_chunk9 m c)
theorem W32_chunk9 (c : Dev nD) : W32 m c main_v20 = O9 (En9 m) (adm9 m) c :=
  (W32_of m c main_v20 (by decide)).trans (W31_chunk9 m c)
theorem W33_chunk9 (c : Dev nD) : W33 m c main_v20 = O9 (En9 m) (adm9 m) c :=
  (W33_of m c main_v20 (by decide)).trans (W32_chunk9 m c)
theorem W34_chunk9 (c : Dev nD) : W34 m c main_v20 = O9 (En9 m) (adm9 m) c :=
  (W34_of m c main_v20 (by decide)).trans (W33_chunk9 m c)
theorem W35_chunk9 (c : Dev nD) : W35 m c main_v20 = O9 (En9 m) (adm9 m) c :=
  (W35_of m c main_v20 (by decide)).trans (W34_chunk9 m c)
theorem W36_chunk9 (c : Dev nD) : W36 m c main_v20 = O9 (En9 m) (adm9 m) c :=
  (W36_of m c main_v20 (by decide)).trans (W35_chunk9 m c)
theorem W37_chunk9 (c : Dev nD) : W37 m c main_v20 = O9 (En9 m) (adm9 m) c :=
  (W37_of m c main_v20 (by decide)).trans (W36_chunk9 m c)
theorem W38_chunk9 (c : Dev nD) : W38 m c main_v20 = O9 (En9 m) (adm9 m) c :=
  (W38_of m c main_v20 (by decide)).trans (W37_chunk9 m c)
theorem W39_chunk9 (c : Dev nD) : W39 m c main_v20 = O9 (En9 m) (adm9 m) c :=
  (W39_of m c main_v20 (by decide)).trans (W38_chunk9 m c)
theorem W40_chunk9 (c : Dev nD) : W40 m c main_v20 = O9 (En9 m) (adm9 m) c :=
  (W40_of m c main_v20 (by decide)).trans (W39_chunk9 m c)
theorem W41_chunk9 (c : Dev nD) : W41 m c main_v20 = O9 (En9 m) (adm9 m) c :=
  (W41_of m c main_v20 (by decide)).trans (W40_chunk9 m c)
theorem W42_chunk9 (c : Dev nD) : W42 m c main_v20 = O9 (En9 m) (adm9 m) c :=
  (W42_of m c main_v20 (by decide)).trans (W41_chunk9 m c)
theorem W43_chunk9 (c : Dev nD) : W43 m c main_v20 = O9 (En9 m) (adm9 m) c :=
  (W43_of m c main_v20 (by decide)).trans (W42_chunk9 m c)
theorem W44_chunk9 (c : Dev nD) : W44 m c main_v20 = O9 (En9 m) (adm9 m) c :=
  (W44_of m c main_v20 (by decide)).trans (W43_chunk9 m c)
theorem W45_chunk9 (c : Dev nD) : W45 m c main_v20 = O9 (En9 m) (adm9 m) c :=
  (W45_of m c main_v20 (by decide)).trans (W44_chunk9 m c)
theorem W46_chunk9 (c : Dev nD) : W46 m c main_v20 = O9 (En9 m) (adm9 m) c :=
  (W46_of m c main_v20 (by decide)).trans (W45_chunk9 m c)
theorem W47_chunk9 (c : Dev nD) : W47 m c main_v20 = O9 (En9 m) (adm9 m) c :=
  (W47_of m c main_v20 (by decide)).trans (W46_chunk9 m c)
theorem W48_chunk9 (c : Dev nD) : W48 m c main_v20 = O9 (En9 m) (adm9 m) c :=
  (W48_of m c main_v20 (by decide)).trans (W47_chunk9 m c)
theorem W49_chunk9 (c : Dev nD) : W49 m c main_v20 = O9 (En9 m) (adm9 m) c :=
  (W49_of m c main_v20 (by decide)).trans (W48_chunk9 m c)
theorem W50_chunk9 (c : Dev nD) : W50 m c main_v20 = O9 (En9 m) (adm9 m) c :=
  (W50_of m c main_v20 (by decide)).trans (W49_chunk9 m c)
theorem W51_chunk9 (c : Dev nD) : W51 m c main_v20 = O9 (En9 m) (adm9 m) c :=
  (W51_of m c main_v20 (by decide)).trans (W50_chunk9 m c)
theorem W22_chunk10 (c : Dev nD) : W22 m c main_v22 = O10 (En10 m) (adm10 m) c :=
  W22_out m c
theorem W23_chunk10 (c : Dev nD) : W23 m c main_v22 = O10 (En10 m) (adm10 m) c :=
  (W23_of m c main_v22 (by decide)).trans (W22_chunk10 m c)
theorem W24_chunk10 (c : Dev nD) : W24 m c main_v22 = O10 (En10 m) (adm10 m) c :=
  (W24_of m c main_v22 (by decide)).trans (W23_chunk10 m c)
theorem W25_chunk10 (c : Dev nD) : W25 m c main_v22 = O10 (En10 m) (adm10 m) c :=
  (W25_of m c main_v22 (by decide)).trans (W24_chunk10 m c)
theorem W26_chunk10 (c : Dev nD) : W26 m c main_v22 = O10 (En10 m) (adm10 m) c :=
  (W26_of m c main_v22 (by decide)).trans (W25_chunk10 m c)
theorem W27_chunk10 (c : Dev nD) : W27 m c main_v22 = O10 (En10 m) (adm10 m) c :=
  (W27_of m c main_v22 (by decide)).trans (W26_chunk10 m c)
theorem W28_chunk10 (c : Dev nD) : W28 m c main_v22 = O10 (En10 m) (adm10 m) c :=
  (W28_of m c main_v22 (by decide)).trans (W27_chunk10 m c)
theorem W29_chunk10 (c : Dev nD) : W29 m c main_v22 = O10 (En10 m) (adm10 m) c :=
  (W29_of m c main_v22 (by decide)).trans (W28_chunk10 m c)
theorem W30_chunk10 (c : Dev nD) : W30 m c main_v22 = O10 (En10 m) (adm10 m) c :=
  (W30_of m c main_v22 (by decide)).trans (W29_chunk10 m c)
theorem W31_chunk10 (c : Dev nD) : W31 m c main_v22 = O10 (En10 m) (adm10 m) c :=
  (W31_of m c main_v22 (by decide)).trans (W30_chunk10 m c)
theorem W32_chunk10 (c : Dev nD) : W32 m c main_v22 = O10 (En10 m) (adm10 m) c :=
  (W32_of m c main_v22 (by decide)).trans (W31_chunk10 m c)
theorem W33_chunk10 (c : Dev nD) : W33 m c main_v22 = O10 (En10 m) (adm10 m) c :=
  (W33_of m c main_v22 (by decide)).trans (W32_chunk10 m c)
theorem W34_chunk10 (c : Dev nD) : W34 m c main_v22 = O10 (En10 m) (adm10 m) c :=
  (W34_of m c main_v22 (by decide)).trans (W33_chunk10 m c)
theorem W35_chunk10 (c : Dev nD) : W35 m c main_v22 = O10 (En10 m) (adm10 m) c :=
  (W35_of m c main_v22 (by decide)).trans (W34_chunk10 m c)
theorem W36_chunk10 (c : Dev nD) : W36 m c main_v22 = O10 (En10 m) (adm10 m) c :=
  (W36_of m c main_v22 (by decide)).trans (W35_chunk10 m c)
theorem W37_chunk10 (c : Dev nD) : W37 m c main_v22 = O10 (En10 m) (adm10 m) c :=
  (W37_of m c main_v22 (by decide)).trans (W36_chunk10 m c)
theorem W38_chunk10 (c : Dev nD) : W38 m c main_v22 = O10 (En10 m) (adm10 m) c :=
  (W38_of m c main_v22 (by decide)).trans (W37_chunk10 m c)
theorem W39_chunk10 (c : Dev nD) : W39 m c main_v22 = O10 (En10 m) (adm10 m) c :=
  (W39_of m c main_v22 (by decide)).trans (W38_chunk10 m c)
theorem W40_chunk10 (c : Dev nD) : W40 m c main_v22 = O10 (En10 m) (adm10 m) c :=
  (W40_of m c main_v22 (by decide)).trans (W39_chunk10 m c)
theorem W41_chunk10 (c : Dev nD) : W41 m c main_v22 = O10 (En10 m) (adm10 m) c :=
  (W41_of m c main_v22 (by decide)).trans (W40_chunk10 m c)
theorem W42_chunk10 (c : Dev nD) : W42 m c main_v22 = O10 (En10 m) (adm10 m) c :=
  (W42_of m c main_v22 (by decide)).trans (W41_chunk10 m c)
theorem W43_chunk10 (c : Dev nD) : W43 m c main_v22 = O10 (En10 m) (adm10 m) c :=
  (W43_of m c main_v22 (by decide)).trans (W42_chunk10 m c)
theorem W44_chunk10 (c : Dev nD) : W44 m c main_v22 = O10 (En10 m) (adm10 m) c :=
  (W44_of m c main_v22 (by decide)).trans (W43_chunk10 m c)
theorem W45_chunk10 (c : Dev nD) : W45 m c main_v22 = O10 (En10 m) (adm10 m) c :=
  (W45_of m c main_v22 (by decide)).trans (W44_chunk10 m c)
theorem W46_chunk10 (c : Dev nD) : W46 m c main_v22 = O10 (En10 m) (adm10 m) c :=
  (W46_of m c main_v22 (by decide)).trans (W45_chunk10 m c)
theorem W47_chunk10 (c : Dev nD) : W47 m c main_v22 = O10 (En10 m) (adm10 m) c :=
  (W47_of m c main_v22 (by decide)).trans (W46_chunk10 m c)
theorem W48_chunk10 (c : Dev nD) : W48 m c main_v22 = O10 (En10 m) (adm10 m) c :=
  (W48_of m c main_v22 (by decide)).trans (W47_chunk10 m c)
theorem W49_chunk10 (c : Dev nD) : W49 m c main_v22 = O10 (En10 m) (adm10 m) c :=
  (W49_of m c main_v22 (by decide)).trans (W48_chunk10 m c)
theorem W50_chunk10 (c : Dev nD) : W50 m c main_v22 = O10 (En10 m) (adm10 m) c :=
  (W50_of m c main_v22 (by decide)).trans (W49_chunk10 m c)
theorem W51_chunk10 (c : Dev nD) : W51 m c main_v22 = O10 (En10 m) (adm10 m) c :=
  (W51_of m c main_v22 (by decide)).trans (W50_chunk10 m c)
theorem W24_chunk11 (c : Dev nD) : W24 m c main_v24 = O11 (En11 m) (adm11 m) c :=
  W24_out m c
theorem W25_chunk11 (c : Dev nD) : W25 m c main_v24 = O11 (En11 m) (adm11 m) c :=
  (W25_of m c main_v24 (by decide)).trans (W24_chunk11 m c)
theorem W26_chunk11 (c : Dev nD) : W26 m c main_v24 = O11 (En11 m) (adm11 m) c :=
  (W26_of m c main_v24 (by decide)).trans (W25_chunk11 m c)
theorem W27_chunk11 (c : Dev nD) : W27 m c main_v24 = O11 (En11 m) (adm11 m) c :=
  (W27_of m c main_v24 (by decide)).trans (W26_chunk11 m c)
theorem W28_chunk11 (c : Dev nD) : W28 m c main_v24 = O11 (En11 m) (adm11 m) c :=
  (W28_of m c main_v24 (by decide)).trans (W27_chunk11 m c)
theorem W29_chunk11 (c : Dev nD) : W29 m c main_v24 = O11 (En11 m) (adm11 m) c :=
  (W29_of m c main_v24 (by decide)).trans (W28_chunk11 m c)
theorem W30_chunk11 (c : Dev nD) : W30 m c main_v24 = O11 (En11 m) (adm11 m) c :=
  (W30_of m c main_v24 (by decide)).trans (W29_chunk11 m c)
theorem W31_chunk11 (c : Dev nD) : W31 m c main_v24 = O11 (En11 m) (adm11 m) c :=
  (W31_of m c main_v24 (by decide)).trans (W30_chunk11 m c)
theorem W32_chunk11 (c : Dev nD) : W32 m c main_v24 = O11 (En11 m) (adm11 m) c :=
  (W32_of m c main_v24 (by decide)).trans (W31_chunk11 m c)
theorem W33_chunk11 (c : Dev nD) : W33 m c main_v24 = O11 (En11 m) (adm11 m) c :=
  (W33_of m c main_v24 (by decide)).trans (W32_chunk11 m c)
theorem W34_chunk11 (c : Dev nD) : W34 m c main_v24 = O11 (En11 m) (adm11 m) c :=
  (W34_of m c main_v24 (by decide)).trans (W33_chunk11 m c)
theorem W35_chunk11 (c : Dev nD) : W35 m c main_v24 = O11 (En11 m) (adm11 m) c :=
  (W35_of m c main_v24 (by decide)).trans (W34_chunk11 m c)
theorem W36_chunk11 (c : Dev nD) : W36 m c main_v24 = O11 (En11 m) (adm11 m) c :=
  (W36_of m c main_v24 (by decide)).trans (W35_chunk11 m c)
theorem W37_chunk11 (c : Dev nD) : W37 m c main_v24 = O11 (En11 m) (adm11 m) c :=
  (W37_of m c main_v24 (by decide)).trans (W36_chunk11 m c)
theorem W38_chunk11 (c : Dev nD) : W38 m c main_v24 = O11 (En11 m) (adm11 m) c :=
  (W38_of m c main_v24 (by decide)).trans (W37_chunk11 m c)
theorem W39_chunk11 (c : Dev nD) : W39 m c main_v24 = O11 (En11 m) (adm11 m) c :=
  (W39_of m c main_v24 (by decide)).trans (W38_chunk11 m c)
theorem W40_chunk11 (c : Dev nD) : W40 m c main_v24 = O11 (En11 m) (adm11 m) c :=
  (W40_of m c main_v24 (by decide)).trans (W39_chunk11 m c)
theorem W41_chunk11 (c : Dev nD) : W41 m c main_v24 = O11 (En11 m) (adm11 m) c :=
  (W41_of m c main_v24 (by decide)).trans (W40_chunk11 m c)
theorem W42_chunk11 (c : Dev nD) : W42 m c main_v24 = O11 (En11 m) (adm11 m) c :=
  (W42_of m c main_v24 (by decide)).trans (W41_chunk11 m c)
theorem W43_chunk11 (c : Dev nD) : W43 m c main_v24 = O11 (En11 m) (adm11 m) c :=
  (W43_of m c main_v24 (by decide)).trans (W42_chunk11 m c)
theorem W44_chunk11 (c : Dev nD) : W44 m c main_v24 = O11 (En11 m) (adm11 m) c :=
  (W44_of m c main_v24 (by decide)).trans (W43_chunk11 m c)
theorem W45_chunk11 (c : Dev nD) : W45 m c main_v24 = O11 (En11 m) (adm11 m) c :=
  (W45_of m c main_v24 (by decide)).trans (W44_chunk11 m c)
theorem W46_chunk11 (c : Dev nD) : W46 m c main_v24 = O11 (En11 m) (adm11 m) c :=
  (W46_of m c main_v24 (by decide)).trans (W45_chunk11 m c)
theorem W47_chunk11 (c : Dev nD) : W47 m c main_v24 = O11 (En11 m) (adm11 m) c :=
  (W47_of m c main_v24 (by decide)).trans (W46_chunk11 m c)
theorem W48_chunk11 (c : Dev nD) : W48 m c main_v24 = O11 (En11 m) (adm11 m) c :=
  (W48_of m c main_v24 (by decide)).trans (W47_chunk11 m c)
theorem W49_chunk11 (c : Dev nD) : W49 m c main_v24 = O11 (En11 m) (adm11 m) c :=
  (W49_of m c main_v24 (by decide)).trans (W48_chunk11 m c)
theorem W50_chunk11 (c : Dev nD) : W50 m c main_v24 = O11 (En11 m) (adm11 m) c :=
  (W50_of m c main_v24 (by decide)).trans (W49_chunk11 m c)
theorem W51_chunk11 (c : Dev nD) : W51 m c main_v24 = O11 (En11 m) (adm11 m) c :=
  (W51_of m c main_v24 (by decide)).trans (W50_chunk11 m c)
theorem W26_chunk12 (c : Dev nD) : W26 m c main_v26 = O12 (En12 m) (adm12 m) c :=
  W26_out m c
theorem W27_chunk12 (c : Dev nD) : W27 m c main_v26 = O12 (En12 m) (adm12 m) c :=
  (W27_of m c main_v26 (by decide)).trans (W26_chunk12 m c)
theorem W28_chunk12 (c : Dev nD) : W28 m c main_v26 = O12 (En12 m) (adm12 m) c :=
  (W28_of m c main_v26 (by decide)).trans (W27_chunk12 m c)
theorem W29_chunk12 (c : Dev nD) : W29 m c main_v26 = O12 (En12 m) (adm12 m) c :=
  (W29_of m c main_v26 (by decide)).trans (W28_chunk12 m c)
theorem W30_chunk12 (c : Dev nD) : W30 m c main_v26 = O12 (En12 m) (adm12 m) c :=
  (W30_of m c main_v26 (by decide)).trans (W29_chunk12 m c)
theorem W31_chunk12 (c : Dev nD) : W31 m c main_v26 = O12 (En12 m) (adm12 m) c :=
  (W31_of m c main_v26 (by decide)).trans (W30_chunk12 m c)
theorem W32_chunk12 (c : Dev nD) : W32 m c main_v26 = O12 (En12 m) (adm12 m) c :=
  (W32_of m c main_v26 (by decide)).trans (W31_chunk12 m c)
theorem W33_chunk12 (c : Dev nD) : W33 m c main_v26 = O12 (En12 m) (adm12 m) c :=
  (W33_of m c main_v26 (by decide)).trans (W32_chunk12 m c)
theorem W34_chunk12 (c : Dev nD) : W34 m c main_v26 = O12 (En12 m) (adm12 m) c :=
  (W34_of m c main_v26 (by decide)).trans (W33_chunk12 m c)
theorem W35_chunk12 (c : Dev nD) : W35 m c main_v26 = O12 (En12 m) (adm12 m) c :=
  (W35_of m c main_v26 (by decide)).trans (W34_chunk12 m c)
theorem W36_chunk12 (c : Dev nD) : W36 m c main_v26 = O12 (En12 m) (adm12 m) c :=
  (W36_of m c main_v26 (by decide)).trans (W35_chunk12 m c)
theorem W37_chunk12 (c : Dev nD) : W37 m c main_v26 = O12 (En12 m) (adm12 m) c :=
  (W37_of m c main_v26 (by decide)).trans (W36_chunk12 m c)
theorem W38_chunk12 (c : Dev nD) : W38 m c main_v26 = O12 (En12 m) (adm12 m) c :=
  (W38_of m c main_v26 (by decide)).trans (W37_chunk12 m c)
theorem W39_chunk12 (c : Dev nD) : W39 m c main_v26 = O12 (En12 m) (adm12 m) c :=
  (W39_of m c main_v26 (by decide)).trans (W38_chunk12 m c)
theorem W40_chunk12 (c : Dev nD) : W40 m c main_v26 = O12 (En12 m) (adm12 m) c :=
  (W40_of m c main_v26 (by decide)).trans (W39_chunk12 m c)
theorem W41_chunk12 (c : Dev nD) : W41 m c main_v26 = O12 (En12 m) (adm12 m) c :=
  (W41_of m c main_v26 (by decide)).trans (W40_chunk12 m c)
theorem W42_chunk12 (c : Dev nD) : W42 m c main_v26 = O12 (En12 m) (adm12 m) c :=
  (W42_of m c main_v26 (by decide)).trans (W41_chunk12 m c)
theorem W43_chunk12 (c : Dev nD) : W43 m c main_v26 = O12 (En12 m) (adm12 m) c :=
  (W43_of m c main_v26 (by decide)).trans (W42_chunk12 m c)
theorem W44_chunk12 (c : Dev nD) : W44 m c main_v26 = O12 (En12 m) (adm12 m) c :=
  (W44_of m c main_v26 (by decide)).trans (W43_chunk12 m c)
theorem W45_chunk12 (c : Dev nD) : W45 m c main_v26 = O12 (En12 m) (adm12 m) c :=
  (W45_of m c main_v26 (by decide)).trans (W44_chunk12 m c)
theorem W46_chunk12 (c : Dev nD) : W46 m c main_v26 = O12 (En12 m) (adm12 m) c :=
  (W46_of m c main_v26 (by decide)).trans (W45_chunk12 m c)
theorem W47_chunk12 (c : Dev nD) : W47 m c main_v26 = O12 (En12 m) (adm12 m) c :=
  (W47_of m c main_v26 (by decide)).trans (W46_chunk12 m c)
theorem W48_chunk12 (c : Dev nD) : W48 m c main_v26 = O12 (En12 m) (adm12 m) c :=
  (W48_of m c main_v26 (by decide)).trans (W47_chunk12 m c)
theorem W49_chunk12 (c : Dev nD) : W49 m c main_v26 = O12 (En12 m) (adm12 m) c :=
  (W49_of m c main_v26 (by decide)).trans (W48_chunk12 m c)
theorem W50_chunk12 (c : Dev nD) : W50 m c main_v26 = O12 (En12 m) (adm12 m) c :=
  (W50_of m c main_v26 (by decide)).trans (W49_chunk12 m c)
theorem W51_chunk12 (c : Dev nD) : W51 m c main_v26 = O12 (En12 m) (adm12 m) c :=
  (W51_of m c main_v26 (by decide)).trans (W50_chunk12 m c)
theorem W28_chunk13 (c : Dev nD) : W28 m c main_v28 = O13 (En13 m) (adm13 m) c :=
  W28_out m c
theorem W29_chunk13 (c : Dev nD) : W29 m c main_v28 = O13 (En13 m) (adm13 m) c :=
  (W29_of m c main_v28 (by decide)).trans (W28_chunk13 m c)
theorem W30_chunk13 (c : Dev nD) : W30 m c main_v28 = O13 (En13 m) (adm13 m) c :=
  (W30_of m c main_v28 (by decide)).trans (W29_chunk13 m c)
theorem W31_chunk13 (c : Dev nD) : W31 m c main_v28 = O13 (En13 m) (adm13 m) c :=
  (W31_of m c main_v28 (by decide)).trans (W30_chunk13 m c)
theorem W32_chunk13 (c : Dev nD) : W32 m c main_v28 = O13 (En13 m) (adm13 m) c :=
  (W32_of m c main_v28 (by decide)).trans (W31_chunk13 m c)
theorem W33_chunk13 (c : Dev nD) : W33 m c main_v28 = O13 (En13 m) (adm13 m) c :=
  (W33_of m c main_v28 (by decide)).trans (W32_chunk13 m c)
theorem W34_chunk13 (c : Dev nD) : W34 m c main_v28 = O13 (En13 m) (adm13 m) c :=
  (W34_of m c main_v28 (by decide)).trans (W33_chunk13 m c)
theorem W35_chunk13 (c : Dev nD) : W35 m c main_v28 = O13 (En13 m) (adm13 m) c :=
  (W35_of m c main_v28 (by decide)).trans (W34_chunk13 m c)
theorem W36_chunk13 (c : Dev nD) : W36 m c main_v28 = O13 (En13 m) (adm13 m) c :=
  (W36_of m c main_v28 (by decide)).trans (W35_chunk13 m c)
theorem W37_chunk13 (c : Dev nD) : W37 m c main_v28 = O13 (En13 m) (adm13 m) c :=
  (W37_of m c main_v28 (by decide)).trans (W36_chunk13 m c)
theorem W38_chunk13 (c : Dev nD) : W38 m c main_v28 = O13 (En13 m) (adm13 m) c :=
  (W38_of m c main_v28 (by decide)).trans (W37_chunk13 m c)
theorem W39_chunk13 (c : Dev nD) : W39 m c main_v28 = O13 (En13 m) (adm13 m) c :=
  (W39_of m c main_v28 (by decide)).trans (W38_chunk13 m c)
theorem W40_chunk13 (c : Dev nD) : W40 m c main_v28 = O13 (En13 m) (adm13 m) c :=
  (W40_of m c main_v28 (by decide)).trans (W39_chunk13 m c)
theorem W41_chunk13 (c : Dev nD) : W41 m c main_v28 = O13 (En13 m) (adm13 m) c :=
  (W41_of m c main_v28 (by decide)).trans (W40_chunk13 m c)
theorem W42_chunk13 (c : Dev nD) : W42 m c main_v28 = O13 (En13 m) (adm13 m) c :=
  (W42_of m c main_v28 (by decide)).trans (W41_chunk13 m c)
theorem W43_chunk13 (c : Dev nD) : W43 m c main_v28 = O13 (En13 m) (adm13 m) c :=
  (W43_of m c main_v28 (by decide)).trans (W42_chunk13 m c)
theorem W44_chunk13 (c : Dev nD) : W44 m c main_v28 = O13 (En13 m) (adm13 m) c :=
  (W44_of m c main_v28 (by decide)).trans (W43_chunk13 m c)
theorem W45_chunk13 (c : Dev nD) : W45 m c main_v28 = O13 (En13 m) (adm13 m) c :=
  (W45_of m c main_v28 (by decide)).trans (W44_chunk13 m c)
theorem W46_chunk13 (c : Dev nD) : W46 m c main_v28 = O13 (En13 m) (adm13 m) c :=
  (W46_of m c main_v28 (by decide)).trans (W45_chunk13 m c)
theorem W47_chunk13 (c : Dev nD) : W47 m c main_v28 = O13 (En13 m) (adm13 m) c :=
  (W47_of m c main_v28 (by decide)).trans (W46_chunk13 m c)
theorem W48_chunk13 (c : Dev nD) : W48 m c main_v28 = O13 (En13 m) (adm13 m) c :=
  (W48_of m c main_v28 (by decide)).trans (W47_chunk13 m c)
theorem W49_chunk13 (c : Dev nD) : W49 m c main_v28 = O13 (En13 m) (adm13 m) c :=
  (W49_of m c main_v28 (by decide)).trans (W48_chunk13 m c)
theorem W50_chunk13 (c : Dev nD) : W50 m c main_v28 = O13 (En13 m) (adm13 m) c :=
  (W50_of m c main_v28 (by decide)).trans (W49_chunk13 m c)
theorem W51_chunk13 (c : Dev nD) : W51 m c main_v28 = O13 (En13 m) (adm13 m) c :=
  (W51_of m c main_v28 (by decide)).trans (W50_chunk13 m c)
theorem W30_chunk14 (c : Dev nD) : W30 m c main_v30 = O14 (En14 m) (adm14 m) c :=
  W30_out m c
theorem W31_chunk14 (c : Dev nD) : W31 m c main_v30 = O14 (En14 m) (adm14 m) c :=
  (W31_of m c main_v30 (by decide)).trans (W30_chunk14 m c)
theorem W32_chunk14 (c : Dev nD) : W32 m c main_v30 = O14 (En14 m) (adm14 m) c :=
  (W32_of m c main_v30 (by decide)).trans (W31_chunk14 m c)
theorem W33_chunk14 (c : Dev nD) : W33 m c main_v30 = O14 (En14 m) (adm14 m) c :=
  (W33_of m c main_v30 (by decide)).trans (W32_chunk14 m c)
theorem W34_chunk14 (c : Dev nD) : W34 m c main_v30 = O14 (En14 m) (adm14 m) c :=
  (W34_of m c main_v30 (by decide)).trans (W33_chunk14 m c)
theorem W35_chunk14 (c : Dev nD) : W35 m c main_v30 = O14 (En14 m) (adm14 m) c :=
  (W35_of m c main_v30 (by decide)).trans (W34_chunk14 m c)
theorem W36_chunk14 (c : Dev nD) : W36 m c main_v30 = O14 (En14 m) (adm14 m) c :=
  (W36_of m c main_v30 (by decide)).trans (W35_chunk14 m c)
theorem W37_chunk14 (c : Dev nD) : W37 m c main_v30 = O14 (En14 m) (adm14 m) c :=
  (W37_of m c main_v30 (by decide)).trans (W36_chunk14 m c)
theorem W38_chunk14 (c : Dev nD) : W38 m c main_v30 = O14 (En14 m) (adm14 m) c :=
  (W38_of m c main_v30 (by decide)).trans (W37_chunk14 m c)
theorem W39_chunk14 (c : Dev nD) : W39 m c main_v30 = O14 (En14 m) (adm14 m) c :=
  (W39_of m c main_v30 (by decide)).trans (W38_chunk14 m c)
theorem W40_chunk14 (c : Dev nD) : W40 m c main_v30 = O14 (En14 m) (adm14 m) c :=
  (W40_of m c main_v30 (by decide)).trans (W39_chunk14 m c)
theorem W41_chunk14 (c : Dev nD) : W41 m c main_v30 = O14 (En14 m) (adm14 m) c :=
  (W41_of m c main_v30 (by decide)).trans (W40_chunk14 m c)
theorem W42_chunk14 (c : Dev nD) : W42 m c main_v30 = O14 (En14 m) (adm14 m) c :=
  (W42_of m c main_v30 (by decide)).trans (W41_chunk14 m c)
theorem W43_chunk14 (c : Dev nD) : W43 m c main_v30 = O14 (En14 m) (adm14 m) c :=
  (W43_of m c main_v30 (by decide)).trans (W42_chunk14 m c)
theorem W44_chunk14 (c : Dev nD) : W44 m c main_v30 = O14 (En14 m) (adm14 m) c :=
  (W44_of m c main_v30 (by decide)).trans (W43_chunk14 m c)
theorem W45_chunk14 (c : Dev nD) : W45 m c main_v30 = O14 (En14 m) (adm14 m) c :=
  (W45_of m c main_v30 (by decide)).trans (W44_chunk14 m c)
theorem W46_chunk14 (c : Dev nD) : W46 m c main_v30 = O14 (En14 m) (adm14 m) c :=
  (W46_of m c main_v30 (by decide)).trans (W45_chunk14 m c)
theorem W47_chunk14 (c : Dev nD) : W47 m c main_v30 = O14 (En14 m) (adm14 m) c :=
  (W47_of m c main_v30 (by decide)).trans (W46_chunk14 m c)
theorem W48_chunk14 (c : Dev nD) : W48 m c main_v30 = O14 (En14 m) (adm14 m) c :=
  (W48_of m c main_v30 (by decide)).trans (W47_chunk14 m c)
theorem W49_chunk14 (c : Dev nD) : W49 m c main_v30 = O14 (En14 m) (adm14 m) c :=
  (W49_of m c main_v30 (by decide)).trans (W48_chunk14 m c)
theorem W50_chunk14 (c : Dev nD) : W50 m c main_v30 = O14 (En14 m) (adm14 m) c :=
  (W50_of m c main_v30 (by decide)).trans (W49_chunk14 m c)
theorem W51_chunk14 (c : Dev nD) : W51 m c main_v30 = O14 (En14 m) (adm14 m) c :=
  (W51_of m c main_v30 (by decide)).trans (W50_chunk14 m c)
theorem W32_chunk15 (c : Dev nD) : W32 m c main_v32 = O15 (En15 m) (adm15 m) c :=
  W32_out m c
theorem W33_chunk15 (c : Dev nD) : W33 m c main_v32 = O15 (En15 m) (adm15 m) c :=
  (W33_of m c main_v32 (by decide)).trans (W32_chunk15 m c)
theorem W34_chunk15 (c : Dev nD) : W34 m c main_v32 = O15 (En15 m) (adm15 m) c :=
  (W34_of m c main_v32 (by decide)).trans (W33_chunk15 m c)
theorem W35_chunk15 (c : Dev nD) : W35 m c main_v32 = O15 (En15 m) (adm15 m) c :=
  (W35_of m c main_v32 (by decide)).trans (W34_chunk15 m c)
theorem W36_chunk15 (c : Dev nD) : W36 m c main_v32 = O15 (En15 m) (adm15 m) c :=
  (W36_of m c main_v32 (by decide)).trans (W35_chunk15 m c)
theorem W37_chunk15 (c : Dev nD) : W37 m c main_v32 = O15 (En15 m) (adm15 m) c :=
  (W37_of m c main_v32 (by decide)).trans (W36_chunk15 m c)
theorem W38_chunk15 (c : Dev nD) : W38 m c main_v32 = O15 (En15 m) (adm15 m) c :=
  (W38_of m c main_v32 (by decide)).trans (W37_chunk15 m c)
theorem W39_chunk15 (c : Dev nD) : W39 m c main_v32 = O15 (En15 m) (adm15 m) c :=
  (W39_of m c main_v32 (by decide)).trans (W38_chunk15 m c)
theorem W40_chunk15 (c : Dev nD) : W40 m c main_v32 = O15 (En15 m) (adm15 m) c :=
  (W40_of m c main_v32 (by decide)).trans (W39_chunk15 m c)
theorem W41_chunk15 (c : Dev nD) : W41 m c main_v32 = O15 (En15 m) (adm15 m) c :=
  (W41_of m c main_v32 (by decide)).trans (W40_chunk15 m c)
theorem W42_chunk15 (c : Dev nD) : W42 m c main_v32 = O15 (En15 m) (adm15 m) c :=
  (W42_of m c main_v32 (by decide)).trans (W41_chunk15 m c)
theorem W43_chunk15 (c : Dev nD) : W43 m c main_v32 = O15 (En15 m) (adm15 m) c :=
  (W43_of m c main_v32 (by decide)).trans (W42_chunk15 m c)
theorem W44_chunk15 (c : Dev nD) : W44 m c main_v32 = O15 (En15 m) (adm15 m) c :=
  (W44_of m c main_v32 (by decide)).trans (W43_chunk15 m c)
theorem W45_chunk15 (c : Dev nD) : W45 m c main_v32 = O15 (En15 m) (adm15 m) c :=
  (W45_of m c main_v32 (by decide)).trans (W44_chunk15 m c)
theorem W46_chunk15 (c : Dev nD) : W46 m c main_v32 = O15 (En15 m) (adm15 m) c :=
  (W46_of m c main_v32 (by decide)).trans (W45_chunk15 m c)
theorem W47_chunk15 (c : Dev nD) : W47 m c main_v32 = O15 (En15 m) (adm15 m) c :=
  (W47_of m c main_v32 (by decide)).trans (W46_chunk15 m c)
theorem W48_chunk15 (c : Dev nD) : W48 m c main_v32 = O15 (En15 m) (adm15 m) c :=
  (W48_of m c main_v32 (by decide)).trans (W47_chunk15 m c)
theorem W49_chunk15 (c : Dev nD) : W49 m c main_v32 = O15 (En15 m) (adm15 m) c :=
  (W49_of m c main_v32 (by decide)).trans (W48_chunk15 m c)
theorem W50_chunk15 (c : Dev nD) : W50 m c main_v32 = O15 (En15 m) (adm15 m) c :=
  (W50_of m c main_v32 (by decide)).trans (W49_chunk15 m c)
theorem W51_chunk15 (c : Dev nD) : W51 m c main_v32 = O15 (En15 m) (adm15 m) c :=
  (W51_of m c main_v32 (by decide)).trans (W50_chunk15 m c)
theorem W34_chunk16 (c : Dev nD) : W34 m c main_v34 = O16 (En16 m) (adm16 m) c :=
  W34_out m c
theorem W35_chunk16 (c : Dev nD) : W35 m c main_v34 = O16 (En16 m) (adm16 m) c :=
  (W35_of m c main_v34 (by decide)).trans (W34_chunk16 m c)
theorem W36_chunk16 (c : Dev nD) : W36 m c main_v34 = O16 (En16 m) (adm16 m) c :=
  (W36_of m c main_v34 (by decide)).trans (W35_chunk16 m c)
theorem W37_chunk16 (c : Dev nD) : W37 m c main_v34 = O16 (En16 m) (adm16 m) c :=
  (W37_of m c main_v34 (by decide)).trans (W36_chunk16 m c)
theorem W38_chunk16 (c : Dev nD) : W38 m c main_v34 = O16 (En16 m) (adm16 m) c :=
  (W38_of m c main_v34 (by decide)).trans (W37_chunk16 m c)
theorem W39_chunk16 (c : Dev nD) : W39 m c main_v34 = O16 (En16 m) (adm16 m) c :=
  (W39_of m c main_v34 (by decide)).trans (W38_chunk16 m c)
theorem W40_chunk16 (c : Dev nD) : W40 m c main_v34 = O16 (En16 m) (adm16 m) c :=
  (W40_of m c main_v34 (by decide)).trans (W39_chunk16 m c)
theorem W41_chunk16 (c : Dev nD) : W41 m c main_v34 = O16 (En16 m) (adm16 m) c :=
  (W41_of m c main_v34 (by decide)).trans (W40_chunk16 m c)
theorem W42_chunk16 (c : Dev nD) : W42 m c main_v34 = O16 (En16 m) (adm16 m) c :=
  (W42_of m c main_v34 (by decide)).trans (W41_chunk16 m c)
theorem W43_chunk16 (c : Dev nD) : W43 m c main_v34 = O16 (En16 m) (adm16 m) c :=
  (W43_of m c main_v34 (by decide)).trans (W42_chunk16 m c)
theorem W44_chunk16 (c : Dev nD) : W44 m c main_v34 = O16 (En16 m) (adm16 m) c :=
  (W44_of m c main_v34 (by decide)).trans (W43_chunk16 m c)
theorem W45_chunk16 (c : Dev nD) : W45 m c main_v34 = O16 (En16 m) (adm16 m) c :=
  (W45_of m c main_v34 (by decide)).trans (W44_chunk16 m c)
theorem W46_chunk16 (c : Dev nD) : W46 m c main_v34 = O16 (En16 m) (adm16 m) c :=
  (W46_of m c main_v34 (by decide)).trans (W45_chunk16 m c)
theorem W47_chunk16 (c : Dev nD) : W47 m c main_v34 = O16 (En16 m) (adm16 m) c :=
  (W47_of m c main_v34 (by decide)).trans (W46_chunk16 m c)
theorem W48_chunk16 (c : Dev nD) : W48 m c main_v34 = O16 (En16 m) (adm16 m) c :=
  (W48_of m c main_v34 (by decide)).trans (W47_chunk16 m c)
theorem W49_chunk16 (c : Dev nD) : W49 m c main_v34 = O16 (En16 m) (adm16 m) c :=
  (W49_of m c main_v34 (by decide)).trans (W48_chunk16 m c)
theorem W50_chunk16 (c : Dev nD) : W50 m c main_v34 = O16 (En16 m) (adm16 m) c :=
  (W50_of m c main_v34 (by decide)).trans (W49_chunk16 m c)
theorem W51_chunk16 (c : Dev nD) : W51 m c main_v34 = O16 (En16 m) (adm16 m) c :=
  (W51_of m c main_v34 (by decide)).trans (W50_chunk16 m c)
theorem W36_chunk17 (c : Dev nD) : W36 m c main_v36 = O17 (En17 m) (adm17 m) c :=
  W36_out m c
theorem W37_chunk17 (c : Dev nD) : W37 m c main_v36 = O17 (En17 m) (adm17 m) c :=
  (W37_of m c main_v36 (by decide)).trans (W36_chunk17 m c)
theorem W38_chunk17 (c : Dev nD) : W38 m c main_v36 = O17 (En17 m) (adm17 m) c :=
  (W38_of m c main_v36 (by decide)).trans (W37_chunk17 m c)
theorem W39_chunk17 (c : Dev nD) : W39 m c main_v36 = O17 (En17 m) (adm17 m) c :=
  (W39_of m c main_v36 (by decide)).trans (W38_chunk17 m c)
theorem W40_chunk17 (c : Dev nD) : W40 m c main_v36 = O17 (En17 m) (adm17 m) c :=
  (W40_of m c main_v36 (by decide)).trans (W39_chunk17 m c)
theorem W41_chunk17 (c : Dev nD) : W41 m c main_v36 = O17 (En17 m) (adm17 m) c :=
  (W41_of m c main_v36 (by decide)).trans (W40_chunk17 m c)
theorem W42_chunk17 (c : Dev nD) : W42 m c main_v36 = O17 (En17 m) (adm17 m) c :=
  (W42_of m c main_v36 (by decide)).trans (W41_chunk17 m c)
theorem W43_chunk17 (c : Dev nD) : W43 m c main_v36 = O17 (En17 m) (adm17 m) c :=
  (W43_of m c main_v36 (by decide)).trans (W42_chunk17 m c)
theorem W44_chunk17 (c : Dev nD) : W44 m c main_v36 = O17 (En17 m) (adm17 m) c :=
  (W44_of m c main_v36 (by decide)).trans (W43_chunk17 m c)
theorem W45_chunk17 (c : Dev nD) : W45 m c main_v36 = O17 (En17 m) (adm17 m) c :=
  (W45_of m c main_v36 (by decide)).trans (W44_chunk17 m c)
theorem W46_chunk17 (c : Dev nD) : W46 m c main_v36 = O17 (En17 m) (adm17 m) c :=
  (W46_of m c main_v36 (by decide)).trans (W45_chunk17 m c)
theorem W47_chunk17 (c : Dev nD) : W47 m c main_v36 = O17 (En17 m) (adm17 m) c :=
  (W47_of m c main_v36 (by decide)).trans (W46_chunk17 m c)
theorem W48_chunk17 (c : Dev nD) : W48 m c main_v36 = O17 (En17 m) (adm17 m) c :=
  (W48_of m c main_v36 (by decide)).trans (W47_chunk17 m c)
theorem W49_chunk17 (c : Dev nD) : W49 m c main_v36 = O17 (En17 m) (adm17 m) c :=
  (W49_of m c main_v36 (by decide)).trans (W48_chunk17 m c)
theorem W50_chunk17 (c : Dev nD) : W50 m c main_v36 = O17 (En17 m) (adm17 m) c :=
  (W50_of m c main_v36 (by decide)).trans (W49_chunk17 m c)
theorem W51_chunk17 (c : Dev nD) : W51 m c main_v36 = O17 (En17 m) (adm17 m) c :=
  (W51_of m c main_v36 (by decide)).trans (W50_chunk17 m c)
theorem W38_chunk18 (c : Dev nD) : W38 m c main_v38 = O18 (En18 m) (adm18 m) c :=
  W38_out m c
theorem W39_chunk18 (c : Dev nD) : W39 m c main_v38 = O18 (En18 m) (adm18 m) c :=
  (W39_of m c main_v38 (by decide)).trans (W38_chunk18 m c)
theorem W40_chunk18 (c : Dev nD) : W40 m c main_v38 = O18 (En18 m) (adm18 m) c :=
  (W40_of m c main_v38 (by decide)).trans (W39_chunk18 m c)
theorem W41_chunk18 (c : Dev nD) : W41 m c main_v38 = O18 (En18 m) (adm18 m) c :=
  (W41_of m c main_v38 (by decide)).trans (W40_chunk18 m c)
theorem W42_chunk18 (c : Dev nD) : W42 m c main_v38 = O18 (En18 m) (adm18 m) c :=
  (W42_of m c main_v38 (by decide)).trans (W41_chunk18 m c)
theorem W43_chunk18 (c : Dev nD) : W43 m c main_v38 = O18 (En18 m) (adm18 m) c :=
  (W43_of m c main_v38 (by decide)).trans (W42_chunk18 m c)
theorem W44_chunk18 (c : Dev nD) : W44 m c main_v38 = O18 (En18 m) (adm18 m) c :=
  (W44_of m c main_v38 (by decide)).trans (W43_chunk18 m c)
theorem W45_chunk18 (c : Dev nD) : W45 m c main_v38 = O18 (En18 m) (adm18 m) c :=
  (W45_of m c main_v38 (by decide)).trans (W44_chunk18 m c)
theorem W46_chunk18 (c : Dev nD) : W46 m c main_v38 = O18 (En18 m) (adm18 m) c :=
  (W46_of m c main_v38 (by decide)).trans (W45_chunk18 m c)
theorem W47_chunk18 (c : Dev nD) : W47 m c main_v38 = O18 (En18 m) (adm18 m) c :=
  (W47_of m c main_v38 (by decide)).trans (W46_chunk18 m c)
theorem W48_chunk18 (c : Dev nD) : W48 m c main_v38 = O18 (En18 m) (adm18 m) c :=
  (W48_of m c main_v38 (by decide)).trans (W47_chunk18 m c)
theorem W49_chunk18 (c : Dev nD) : W49 m c main_v38 = O18 (En18 m) (adm18 m) c :=
  (W49_of m c main_v38 (by decide)).trans (W48_chunk18 m c)
theorem W50_chunk18 (c : Dev nD) : W50 m c main_v38 = O18 (En18 m) (adm18 m) c :=
  (W50_of m c main_v38 (by decide)).trans (W49_chunk18 m c)
theorem W51_chunk18 (c : Dev nD) : W51 m c main_v38 = O18 (En18 m) (adm18 m) c :=
  (W51_of m c main_v38 (by decide)).trans (W50_chunk18 m c)
theorem W40_chunk19 (c : Dev nD) : W40 m c main_v40 = O19 (En19 m) (adm19 m) c :=
  W40_out m c
theorem W41_chunk19 (c : Dev nD) : W41 m c main_v40 = O19 (En19 m) (adm19 m) c :=
  (W41_of m c main_v40 (by decide)).trans (W40_chunk19 m c)
theorem W42_chunk19 (c : Dev nD) : W42 m c main_v40 = O19 (En19 m) (adm19 m) c :=
  (W42_of m c main_v40 (by decide)).trans (W41_chunk19 m c)
theorem W43_chunk19 (c : Dev nD) : W43 m c main_v40 = O19 (En19 m) (adm19 m) c :=
  (W43_of m c main_v40 (by decide)).trans (W42_chunk19 m c)
theorem W44_chunk19 (c : Dev nD) : W44 m c main_v40 = O19 (En19 m) (adm19 m) c :=
  (W44_of m c main_v40 (by decide)).trans (W43_chunk19 m c)
theorem W45_chunk19 (c : Dev nD) : W45 m c main_v40 = O19 (En19 m) (adm19 m) c :=
  (W45_of m c main_v40 (by decide)).trans (W44_chunk19 m c)
theorem W46_chunk19 (c : Dev nD) : W46 m c main_v40 = O19 (En19 m) (adm19 m) c :=
  (W46_of m c main_v40 (by decide)).trans (W45_chunk19 m c)
theorem W47_chunk19 (c : Dev nD) : W47 m c main_v40 = O19 (En19 m) (adm19 m) c :=
  (W47_of m c main_v40 (by decide)).trans (W46_chunk19 m c)
theorem W48_chunk19 (c : Dev nD) : W48 m c main_v40 = O19 (En19 m) (adm19 m) c :=
  (W48_of m c main_v40 (by decide)).trans (W47_chunk19 m c)
theorem W49_chunk19 (c : Dev nD) : W49 m c main_v40 = O19 (En19 m) (adm19 m) c :=
  (W49_of m c main_v40 (by decide)).trans (W48_chunk19 m c)
theorem W50_chunk19 (c : Dev nD) : W50 m c main_v40 = O19 (En19 m) (adm19 m) c :=
  (W50_of m c main_v40 (by decide)).trans (W49_chunk19 m c)
theorem W51_chunk19 (c : Dev nD) : W51 m c main_v40 = O19 (En19 m) (adm19 m) c :=
  (W51_of m c main_v40 (by decide)).trans (W50_chunk19 m c)
theorem W42_chunk20 (c : Dev nD) : W42 m c main_v42 = O20 (En20 m) (adm20 m) c :=
  W42_out m c
theorem W43_chunk20 (c : Dev nD) : W43 m c main_v42 = O20 (En20 m) (adm20 m) c :=
  (W43_of m c main_v42 (by decide)).trans (W42_chunk20 m c)
theorem W44_chunk20 (c : Dev nD) : W44 m c main_v42 = O20 (En20 m) (adm20 m) c :=
  (W44_of m c main_v42 (by decide)).trans (W43_chunk20 m c)
theorem W45_chunk20 (c : Dev nD) : W45 m c main_v42 = O20 (En20 m) (adm20 m) c :=
  (W45_of m c main_v42 (by decide)).trans (W44_chunk20 m c)
theorem W46_chunk20 (c : Dev nD) : W46 m c main_v42 = O20 (En20 m) (adm20 m) c :=
  (W46_of m c main_v42 (by decide)).trans (W45_chunk20 m c)
theorem W47_chunk20 (c : Dev nD) : W47 m c main_v42 = O20 (En20 m) (adm20 m) c :=
  (W47_of m c main_v42 (by decide)).trans (W46_chunk20 m c)
theorem W48_chunk20 (c : Dev nD) : W48 m c main_v42 = O20 (En20 m) (adm20 m) c :=
  (W48_of m c main_v42 (by decide)).trans (W47_chunk20 m c)
theorem W49_chunk20 (c : Dev nD) : W49 m c main_v42 = O20 (En20 m) (adm20 m) c :=
  (W49_of m c main_v42 (by decide)).trans (W48_chunk20 m c)
theorem W50_chunk20 (c : Dev nD) : W50 m c main_v42 = O20 (En20 m) (adm20 m) c :=
  (W50_of m c main_v42 (by decide)).trans (W49_chunk20 m c)
theorem W51_chunk20 (c : Dev nD) : W51 m c main_v42 = O20 (En20 m) (adm20 m) c :=
  (W51_of m c main_v42 (by decide)).trans (W50_chunk20 m c)
theorem W44_chunk21 (c : Dev nD) : W44 m c main_v44 = O21 (En21 m) (adm21 m) c :=
  W44_out m c
theorem W45_chunk21 (c : Dev nD) : W45 m c main_v44 = O21 (En21 m) (adm21 m) c :=
  (W45_of m c main_v44 (by decide)).trans (W44_chunk21 m c)
theorem W46_chunk21 (c : Dev nD) : W46 m c main_v44 = O21 (En21 m) (adm21 m) c :=
  (W46_of m c main_v44 (by decide)).trans (W45_chunk21 m c)
theorem W47_chunk21 (c : Dev nD) : W47 m c main_v44 = O21 (En21 m) (adm21 m) c :=
  (W47_of m c main_v44 (by decide)).trans (W46_chunk21 m c)
theorem W48_chunk21 (c : Dev nD) : W48 m c main_v44 = O21 (En21 m) (adm21 m) c :=
  (W48_of m c main_v44 (by decide)).trans (W47_chunk21 m c)
theorem W49_chunk21 (c : Dev nD) : W49 m c main_v44 = O21 (En21 m) (adm21 m) c :=
  (W49_of m c main_v44 (by decide)).trans (W48_chunk21 m c)
theorem W50_chunk21 (c : Dev nD) : W50 m c main_v44 = O21 (En21 m) (adm21 m) c :=
  (W50_of m c main_v44 (by decide)).trans (W49_chunk21 m c)
theorem W51_chunk21 (c : Dev nD) : W51 m c main_v44 = O21 (En21 m) (adm21 m) c :=
  (W51_of m c main_v44 (by decide)).trans (W50_chunk21 m c)
theorem W46_chunk22 (c : Dev nD) : W46 m c main_v46 = O22 (En22 m) (adm22 m) c :=
  W46_out m c
theorem W47_chunk22 (c : Dev nD) : W47 m c main_v46 = O22 (En22 m) (adm22 m) c :=
  (W47_of m c main_v46 (by decide)).trans (W46_chunk22 m c)
theorem W48_chunk22 (c : Dev nD) : W48 m c main_v46 = O22 (En22 m) (adm22 m) c :=
  (W48_of m c main_v46 (by decide)).trans (W47_chunk22 m c)
theorem W49_chunk22 (c : Dev nD) : W49 m c main_v46 = O22 (En22 m) (adm22 m) c :=
  (W49_of m c main_v46 (by decide)).trans (W48_chunk22 m c)
theorem W50_chunk22 (c : Dev nD) : W50 m c main_v46 = O22 (En22 m) (adm22 m) c :=
  (W50_of m c main_v46 (by decide)).trans (W49_chunk22 m c)
theorem W51_chunk22 (c : Dev nD) : W51 m c main_v46 = O22 (En22 m) (adm22 m) c :=
  (W51_of m c main_v46 (by decide)).trans (W50_chunk22 m c)
theorem W48_chunk23 (c : Dev nD) : W48 m c main_v48 = O23 (En23 m) (adm23 m) c :=
  W48_out m c
theorem W49_chunk23 (c : Dev nD) : W49 m c main_v48 = O23 (En23 m) (adm23 m) c :=
  (W49_of m c main_v48 (by decide)).trans (W48_chunk23 m c)
theorem W50_chunk23 (c : Dev nD) : W50 m c main_v48 = O23 (En23 m) (adm23 m) c :=
  (W50_of m c main_v48 (by decide)).trans (W49_chunk23 m c)
theorem W51_chunk23 (c : Dev nD) : W51 m c main_v48 = O23 (En23 m) (adm23 m) c :=
  (W51_of m c main_v48 (by decide)).trans (W50_chunk23 m c)
theorem W50_chunk24 (c : Dev nD) : W50 m c main_v50 = O24 (En24 m) (adm24 m) c :=
  W50_out m c
theorem W51_chunk24 (c : Dev nD) : W51 m c main_v50 = O24 (En24 m) (adm24 m) c :=
  (W51_of m c main_v50 (by decide)).trans (W50_chunk24 m c)
theorem W53_main_v53 (c : Dev nD) : W53 m c main_v53 = W51 m c main_v53 :=
  (W53_of m c main_v53 (by decide)).trans (W52_of m c main_v53 (by decide))

end Cert.Kernel.Hand

end
-- ==== Proof.KB.Chain.lean ====
/-
  The chain of buffer contents between @main's items, whole: its definitions, its agreement with the generated chain of
  valuations, what the launches' segment records take from it, and the buffers kept along it.
-/
import proofs.«403631_j48275432407145_1_alg».proof.Proof.KB.ChainDefs
import proofs.«403631_j48275432407145_1_alg».proof.Proof.KB.ChainEq
import proofs.«403631_j48275432407145_1_alg».proof.Proof.KB.ChainSeg
import proofs.«403631_j48275432407145_1_alg».proof.Proof.KB.ChainReads
-- ==== Proof.KB.LaunchFacts.lean ====
/-
  What the launch of this program is dealt, at the algebra of the frame development, at any float instance and for any
  admissible contents `a` of the gather pipelines' tables: no core owes another anything, there is no ghost resource beside
  the pipeline library's rounds, and the same thread state `R` (the generator register at some state, the core owing
  nothing) rides beside the unscoped buffers at every one of @main's 28 item boundaries. Three facts follow, which the
  run of @main over its 27 regions takes as they are: the launch element splits into the library's initial rounds and
  nothing else; what every core is dealt at launch makes `R`; and `R` at the return says the core owes nothing.
-/
import proofs.«403631_j48275432407145_1_alg».proof.Proof.KB.Base
import Idealize.ShloMosaic.Lib.Pipeline.Kit

-- membership in a rectangle of the row blocks' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

variable (a : (p : Fin 27) → (pcfgs (F := F) p).Adm)

/-! ## What the launch is dealt -/

/-- No core owes another anything at launch. -/
abbrev O₀ : Dev nD → CellTallies nD τ sig Unit := fun _ => 0

/-- No ghost resource beside the pipeline library's. -/
abbrev G₀ : Dev nD → sProp 𝕄 := fun _ => iprop(emp)

/-- The launch element of the user algebra: the pipeline library's rounds at their initial state for this program's cells
    and launch tokens, beside the unit of the transfer counters. -/
abbrev u₀ : UC :=
  (initOf (Pipeline.cells (Pipeline.pin (pcfgs (F := F)) a) (cellOf_inj a)) (Pipeline.launchToks (Pipeline.pin (pcfgs (F := F)) a) (cellOf_inj a)), 1)

/-- What rides beside the unscoped buffers at every one of @main's 28 item boundaries: the same `R`. -/
abbrev E₀ : Fin 28 → Dev nD → sProp 𝕄 := fun _ c => R c

/-! ## The launch's three facts -/

/-- No level is assigned anywhere, in particular off the TensorCores. -/
theorem launch_hL : ∀ g : GSem nD τ sig, g.1.2 ≠ .tc → L g = ∅ := fun _ _ => rfl

/-- The launch element splits into the pipeline library's initial rounds, owned through the left embedding, and nothing
    else. -/
theorem launch_hu0 :
    (ownU (u₀ a) : sProp 𝕄) ⊢ |={Set.univ}=> iprop(BI.own (EP (F := F) (initOf (Pipeline.cells (Pipeline.pin (pcfgs (F := F)) a) (cellOf_inj a))
        (Pipeline.launchToks (Pipeline.pin (pcfgs (F := F)) a) (cellOf_inj a)))) ∗ bigSep Finset.univ (G₀ (F := F))) := by
  rw [show bigSep Finset.univ (G₀ (F := F)) = (BI.emp : sProp 𝕄) from BI.bigSep_emp_const _]
  refine (ownU_pair _ _).trans ?_
  iintro ⟨Hrounds, -⟩
  imodintro
  isplitl [Hrounds]
  · iexact Hrounds
  · iempintro

/-- On every core at once, what the launch deals — the unscoped semaphores at zero, nothing owed and nothing recorded, the
    launch credit, the generator register at its launch state — makes `R`: the register at some state, the core owing
    nothing; the rest is dropped. -/
theorem launch_hE0 (ρ : Dev nD → PrngReg) :
    iprop((bigSep Finset.univ fun c : Dev nD => iprop(unscopedSems0 c ∗ owes (c : Thread nD τ) (O₀ c) ∅ ∗ Pipeline.launchCred O₀ c
        ∗ prngReg c (ρ c) ∗ G₀ (F := F) c)) ∗ levAts L lv)
      ⊢ (|={Set.univ}=> bigSep Finset.univ (E₀ (F := F) 0) : sProp 𝕄) := by
  refine Pipeline.initEach L lv fun c => ?_
  iintro ⟨⟨-, Howes, -, Hreg, -⟩, -⟩
  imodintro
  isplitl [Hreg]
  · iexists (ρ c); iexact Hreg
  · iexists ∅; iexact Howes

/-- At the return every core owes nothing: `R` says so. -/
theorem launch_hE27 (c : Dev nD) :
    E₀ (F := F) 27 c ⊢ (iprop(∃ W, owes (c : Thread nD τ) (0 : CellTallies nD τ sig Unit) W) : sProp 𝕄) := by
  iintro ⟨-, Howes⟩
  iexact Howes

end Cert.Kernel.Hand

end
-- ==== Proof.KB.Seg0.lean ====
/-
  One of the program's 25 gather launches (pipeline 0) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV0 (W : Dev nD → Valuation τ sig (Elt F)) : (c : Dev nD) → (b : Ref sig .tc) → Buf (Elt F) ((c : Thread nD τ).loc b) := fun c b => W c b

/-- The operand the body copies from by itself, as a reference: unscoped, no window's array, no table. -/
def H0 : Finset (Ref sig .tc) := {main_arg0}
theorem H0_sub : H0 ⊆ Pipeline.restRefsP sig pre0 spec0 := by decide
/-- Its points-to, listed. -/
theorem hbmPts0_eq (V : (c : Dev nD) → (b : Ref sig .tc) → Buf (Elt F) ((c : Thread nD τ).loc b)) (c : Dev nD) :
    (bigSep H0 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest0_eq (V : (c : Dev nD) → (b : Ref sig .tc) → Buf (Elt F) ((c : Thread nD τ).loc b)) (c : Dev nD)
    (pf : pre0.Contents (Elt F)) (hpf : pf = fun k => V c (pre0.ref k)) :
    (Pipeline.unscopedRest (Ix := Unit) (Name := ℕ) (U := UC) (Lvl := ℕ) spec0 c (V c) : sProp 𝕄)
      = iprop(Pipeline.prefHeld pre0 c (fun _ => fullShare) pf
          ∗ (((c : Thread nD τ).loc main_arg0) ↦{fullShare} V c main_arg0)
          ∗ bigSep (Pipeline.restRefsP sig pre0 spec0 \ H0) fun b => ((c : Thread nD τ).loc b) ↦{fullShare} V c b) := by
  subst hpf
  rw [Pipeline.unscopedRest_split preFacts0 c (V c)]
  unfold Pipeline.unscopedRestP
  rw [BI.bigSep_sdiff_split H0_sub, hbmPts0_eq]
  rfl

-- the segment's fields are stated over the pinned configuration `pin pcfgs a 0`; meeting them with `cfg0 (a 0)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg0 (hd : ∀ c, pdats 0 c = dat0 (VV0 Win) (a 0) c)
    (hF : ∀ c w, (dat0 (VV0 Win) (a 0) c).arrAt w (cfg0 (a 0)).N = Wout c (Pipeline.arrRef spec0 w))
    (hrest : ∀ c (b : Ref sig .tc), b ∉ Finset.univ.image (Pipeline.arrRef spec0) → Wout c b = Win c b)
    (htab : ∀ c, (a 0).1 = fun k => Win c (pre0.ref k))
    (hrange : InRange0 (a 0).1) :
    Pipeline.RegionSeg (pcfgs (F := F)) a pdats () defs₀ 𝒱₀ L lv 0 where
  win := (launch0 (F := F)).win.to₀
  block_pos := (launch0 (F := F)).block_pos
  stage_whole := (launch0 (F := F)).stage_whole
  K := Fin 16
  osem := osem0
  ho := ownSemFacts0
  hbody c := by rw [hd c]; exact (body_obligation0 (VV0 Win) (a 0) hrange c).loose
  hwaits := Pipeline.hwaits_of_owed_zero (pcfgs (F := F)) a pdats () L lv 0 fun c t => by rw [hd c]; rfl
  pre c := T (Win c) c
  post c := T (Wout c) c
  X c := X0 (VV0 Win) c
  Y c := Y0 (VV0 Win) (a 0) c
  Z c := bigSep (Pipeline.restRefsP sig pre0 spec0 \ H0) fun b => ((c : Thread nD τ).loc b) ↦{fullShare} VV0 Win c b
  hentry c := by
    have hsplit := Pipeline.arrays_of_unscopedBufs (p := 0) (pcfgs (F := F)) a pdats (launch0 (F := F)).win (launch0 (F := F)).arr_whole c
      ((pdats 0 c).share_full fun _ => by rw [hd c]; rfl) (VV0 Win c) fun w => by rw [hd c]; rfl
    rw [Pipeline.unscopedBufs_held, hd c] at hsplit
    rw [hd c]
    have hU := unscopedRest0_eq (VV0 Win) c (a 0).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi0_in (VV0 Win) (a 0) c
  hout c := by rw [hd c]; exact Phi0_out (VV0 Win) (a 0) c
  hexit c := by
    have hjoin := Pipeline.unscopedBufs_of_arrays (p := 0) (pcfgs (F := F)) a (Ix := Unit) (Name := ℕ) (U := UC) (Lvl := ℕ)
      (launch0 (F := F)).win (launch0 (F := F)).arr_whole c pdats ((pdats 0 c).share_full fun _ => by rw [hd c]; rfl)
      (VV0 Win c) (VV0 Wout c) ((pdats 0 c).arrAt · (cfg0 (a 0)).N) (fun w => by rw [hd c]; exact hF c w) (hrest c)
    rw [Pipeline.unscopedBufs_held, hd c] at hjoin
    rw [hd c]
    have hU := unscopedRest0_eq (VV0 Win) c (a 0).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg1.lean ====
/-
  One of the program's 25 gather launches (pipeline 1) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV1 (W : Dev nD → Valuation τ sig (Elt F)) : (c : Dev nD) → (b : Ref sig .tc) → Buf (Elt F) ((c : Thread nD τ).loc b) := fun c b => W c b

/-- The operand the body copies from by itself, as a reference: unscoped, no window's array, no table. -/
def H1 : Finset (Ref sig .tc) := {main_arg0}
theorem H1_sub : H1 ⊆ Pipeline.restRefsP sig pre1 spec1 := by decide
/-- Its points-to, listed. -/
theorem hbmPts1_eq (V : (c : Dev nD) → (b : Ref sig .tc) → Buf (Elt F) ((c : Thread nD τ).loc b)) (c : Dev nD) :
    (bigSep H1 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest1_eq (V : (c : Dev nD) → (b : Ref sig .tc) → Buf (Elt F) ((c : Thread nD τ).loc b)) (c : Dev nD)
    (pf : pre1.Contents (Elt F)) (hpf : pf = fun k => V c (pre1.ref k)) :
    (Pipeline.unscopedRest (Ix := Unit) (Name := ℕ) (U := UC) (Lvl := ℕ) spec1 c (V c) : sProp 𝕄)
      = iprop(Pipeline.prefHeld pre1 c (fun _ => fullShare) pf
          ∗ (((c : Thread nD τ).loc main_arg0) ↦{fullShare} V c main_arg0)
          ∗ bigSep (Pipeline.restRefsP sig pre1 spec1 \ H1) fun b => ((c : Thread nD τ).loc b) ↦{fullShare} V c b) := by
  subst hpf
  rw [Pipeline.unscopedRest_split preFacts1 c (V c)]
  unfold Pipeline.unscopedRestP
  rw [BI.bigSep_sdiff_split H1_sub, hbmPts1_eq]
  rfl

-- the segment's fields are stated over the pinned configuration `pin pcfgs a 1`; meeting them with `cfg1 (a 1)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg1 (hd : ∀ c, pdats 1 c = dat1 (VV1 Win) (a 1) c)
    (hF : ∀ c w, (dat1 (VV1 Win) (a 1) c).arrAt w (cfg1 (a 1)).N = Wout c (Pipeline.arrRef spec1 w))
    (hrest : ∀ c (b : Ref sig .tc), b ∉ Finset.univ.image (Pipeline.arrRef spec1) → Wout c b = Win c b)
    (htab : ∀ c, (a 1).1 = fun k => Win c (pre1.ref k))
    (hrange : InRange1 (a 1).1) :
    Pipeline.RegionSeg (pcfgs (F := F)) a pdats () defs₀ 𝒱₀ L lv 1 where
  win := (launch1 (F := F)).win.to₀
  block_pos := (launch1 (F := F)).block_pos
  stage_whole := (launch1 (F := F)).stage_whole
  K := Fin 16
  osem := osem1
  ho := ownSemFacts1
  hbody c := by rw [hd c]; exact (body_obligation1 (VV1 Win) (a 1) hrange c).loose
  hwaits := Pipeline.hwaits_of_owed_zero (pcfgs (F := F)) a pdats () L lv 1 fun c t => by rw [hd c]; rfl
  pre c := T (Win c) c
  post c := T (Wout c) c
  X c := X1 (VV1 Win) c
  Y c := Y1 (VV1 Win) (a 1) c
  Z c := bigSep (Pipeline.restRefsP sig pre1 spec1 \ H1) fun b => ((c : Thread nD τ).loc b) ↦{fullShare} VV1 Win c b
  hentry c := by
    have hsplit := Pipeline.arrays_of_unscopedBufs (p := 1) (pcfgs (F := F)) a pdats (launch1 (F := F)).win (launch1 (F := F)).arr_whole c
      ((pdats 1 c).share_full fun _ => by rw [hd c]; rfl) (VV1 Win c) fun w => by rw [hd c]; rfl
    rw [Pipeline.unscopedBufs_held, hd c] at hsplit
    rw [hd c]
    have hU := unscopedRest1_eq (VV1 Win) c (a 1).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi1_in (VV1 Win) (a 1) c
  hout c := by rw [hd c]; exact Phi1_out (VV1 Win) (a 1) c
  hexit c := by
    have hjoin := Pipeline.unscopedBufs_of_arrays (p := 1) (pcfgs (F := F)) a (Ix := Unit) (Name := ℕ) (U := UC) (Lvl := ℕ)
      (launch1 (F := F)).win (launch1 (F := F)).arr_whole c pdats ((pdats 1 c).share_full fun _ => by rw [hd c]; rfl)
      (VV1 Win c) (VV1 Wout c) ((pdats 1 c).arrAt · (cfg1 (a 1)).N) (fun w => by rw [hd c]; exact hF c w) (hrest c)
    rw [Pipeline.unscopedBufs_held, hd c] at hjoin
    rw [hd c]
    have hU := unscopedRest1_eq (VV1 Win) c (a 1).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg2.lean ====
/-
  One of the program's 25 gather launches (pipeline 2) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G2Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV2 (W : Dev nD → Valuation τ sig (Elt F)) : (c : Dev nD) → (b : Ref sig .tc) → Buf (Elt F) ((c : Thread nD τ).loc b) := fun c b => W c b

/-- The operand the body copies from by itself, as a reference: unscoped, no window's array, no table. -/
def H2 : Finset (Ref sig .tc) := {main_arg0}
theorem H2_sub : H2 ⊆ Pipeline.restRefsP sig pre2 spec2 := by decide
/-- Its points-to, listed. -/
theorem hbmPts2_eq (V : (c : Dev nD) → (b : Ref sig .tc) → Buf (Elt F) ((c : Thread nD τ).loc b)) (c : Dev nD) :
    (bigSep H2 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest2_eq (V : (c : Dev nD) → (b : Ref sig .tc) → Buf (Elt F) ((c : Thread nD τ).loc b)) (c : Dev nD)
    (pf : pre2.Contents (Elt F)) (hpf : pf = fun k => V c (pre2.ref k)) :
    (Pipeline.unscopedRest (Ix := Unit) (Name := ℕ) (U := UC) (Lvl := ℕ) spec2 c (V c) : sProp 𝕄)
      = iprop(Pipeline.prefHeld pre2 c (fun _ => fullShare) pf
          ∗ (((c : Thread nD τ).loc main_arg0) ↦{fullShare} V c main_arg0)
          ∗ bigSep (Pipeline.restRefsP sig pre2 spec2 \ H2) fun b => ((c : Thread nD τ).loc b) ↦{fullShare} V c b) := by
  subst hpf
  rw [Pipeline.unscopedRest_split preFacts2 c (V c)]
  unfold Pipeline.unscopedRestP
  rw [BI.bigSep_sdiff_split H2_sub, hbmPts2_eq]
  rfl

-- the segment's fields are stated over the pinned configuration `pin pcfgs a 2`; meeting them with `cfg2 (a 2)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg2 (hd : ∀ c, pdats 2 c = dat2 (VV2 Win) (a 2) c)
    (hF : ∀ c w, (dat2 (VV2 Win) (a 2) c).arrAt w (cfg2 (a 2)).N = Wout c (Pipeline.arrRef spec2 w))
    (hrest : ∀ c (b : Ref sig .tc), b ∉ Finset.univ.image (Pipeline.arrRef spec2) → Wout c b = Win c b)
    (htab : ∀ c, (a 2).1 = fun k => Win c (pre2.ref k))
    (hrange : InRange2 (a 2).1) :
    Pipeline.RegionSeg (pcfgs (F := F)) a pdats () defs₀ 𝒱₀ L lv 2 where
  win := (launch2 (F := F)).win.to₀
  block_pos := (launch2 (F := F)).block_pos
  stage_whole := (launch2 (F := F)).stage_whole
  K := Fin 16
  osem := osem2
  ho := ownSemFacts2
  hbody c := by rw [hd c]; exact (body_obligation2 (VV2 Win) (a 2) hrange c).loose
  hwaits := Pipeline.hwaits_of_owed_zero (pcfgs (F := F)) a pdats () L lv 2 fun c t => by rw [hd c]; rfl
  pre c := T (Win c) c
  post c := T (Wout c) c
  X c := X2 (VV2 Win) c
  Y c := Y2 (VV2 Win) (a 2) c
  Z c := bigSep (Pipeline.restRefsP sig pre2 spec2 \ H2) fun b => ((c : Thread nD τ).loc b) ↦{fullShare} VV2 Win c b
  hentry c := by
    have hsplit := Pipeline.arrays_of_unscopedBufs (p := 2) (pcfgs (F := F)) a pdats (launch2 (F := F)).win (launch2 (F := F)).arr_whole c
      ((pdats 2 c).share_full fun _ => by rw [hd c]; rfl) (VV2 Win c) fun w => by rw [hd c]; rfl
    rw [Pipeline.unscopedBufs_held, hd c] at hsplit
    rw [hd c]
    have hU := unscopedRest2_eq (VV2 Win) c (a 2).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi2_in (VV2 Win) (a 2) c
  hout c := by rw [hd c]; exact Phi2_out (VV2 Win) (a 2) c
  hexit c := by
    have hjoin := Pipeline.unscopedBufs_of_arrays (p := 2) (pcfgs (F := F)) a (Ix := Unit) (Name := ℕ) (U := UC) (Lvl := ℕ)
      (launch2 (F := F)).win (launch2 (F := F)).arr_whole c pdats ((pdats 2 c).share_full fun _ => by rw [hd c]; rfl)
      (VV2 Win c) (VV2 Wout c) ((pdats 2 c).arrAt · (cfg2 (a 2)).N) (fun w => by rw [hd c]; exact hF c w) (hrest c)
    rw [Pipeline.unscopedBufs_held, hd c] at hjoin
    rw [hd c]
    have hU := unscopedRest2_eq (VV2 Win) c (a 2).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg3.lean ====
/-
  One of the program's 25 gather launches (pipeline 3) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G3Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV3 (W : Dev nD → Valuation τ sig (Elt F)) : (c : Dev nD) → (b : Ref sig .tc) → Buf (Elt F) ((c : Thread nD τ).loc b) := fun c b => W c b

/-- The operand the body copies from by itself, as a reference: unscoped, no window's array, no table. -/
def H3 : Finset (Ref sig .tc) := {main_arg0}
theorem H3_sub : H3 ⊆ Pipeline.restRefsP sig pre3 spec3 := by decide
/-- Its points-to, listed. -/
theorem hbmPts3_eq (V : (c : Dev nD) → (b : Ref sig .tc) → Buf (Elt F) ((c : Thread nD τ).loc b)) (c : Dev nD) :
    (bigSep H3 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest3_eq (V : (c : Dev nD) → (b : Ref sig .tc) → Buf (Elt F) ((c : Thread nD τ).loc b)) (c : Dev nD)
    (pf : pre3.Contents (Elt F)) (hpf : pf = fun k => V c (pre3.ref k)) :
    (Pipeline.unscopedRest (Ix := Unit) (Name := ℕ) (U := UC) (Lvl := ℕ) spec3 c (V c) : sProp 𝕄)
      = iprop(Pipeline.prefHeld pre3 c (fun _ => fullShare) pf
          ∗ (((c : Thread nD τ).loc main_arg0) ↦{fullShare} V c main_arg0)
          ∗ bigSep (Pipeline.restRefsP sig pre3 spec3 \ H3) fun b => ((c : Thread nD τ).loc b) ↦{fullShare} V c b) := by
  subst hpf
  rw [Pipeline.unscopedRest_split preFacts3 c (V c)]
  unfold Pipeline.unscopedRestP
  rw [BI.bigSep_sdiff_split H3_sub, hbmPts3_eq]
  rfl

-- the segment's fields are stated over the pinned configuration `pin pcfgs a 3`; meeting them with `cfg3 (a 3)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg3 (hd : ∀ c, pdats 3 c = dat3 (VV3 Win) (a 3) c)
    (hF : ∀ c w, (dat3 (VV3 Win) (a 3) c).arrAt w (cfg3 (a 3)).N = Wout c (Pipeline.arrRef spec3 w))
    (hrest : ∀ c (b : Ref sig .tc), b ∉ Finset.univ.image (Pipeline.arrRef spec3) → Wout c b = Win c b)
    (htab : ∀ c, (a 3).1 = fun k => Win c (pre3.ref k))
    (hrange : InRange3 (a 3).1) :
    Pipeline.RegionSeg (pcfgs (F := F)) a pdats () defs₀ 𝒱₀ L lv 3 where
  win := (launch3 (F := F)).win.to₀
  block_pos := (launch3 (F := F)).block_pos
  stage_whole := (launch3 (F := F)).stage_whole
  K := Fin 16
  osem := osem3
  ho := ownSemFacts3
  hbody c := by rw [hd c]; exact (body_obligation3 (VV3 Win) (a 3) hrange c).loose
  hwaits := Pipeline.hwaits_of_owed_zero (pcfgs (F := F)) a pdats () L lv 3 fun c t => by rw [hd c]; rfl
  pre c := T (Win c) c
  post c := T (Wout c) c
  X c := X3 (VV3 Win) c
  Y c := Y3 (VV3 Win) (a 3) c
  Z c := bigSep (Pipeline.restRefsP sig pre3 spec3 \ H3) fun b => ((c : Thread nD τ).loc b) ↦{fullShare} VV3 Win c b
  hentry c := by
    have hsplit := Pipeline.arrays_of_unscopedBufs (p := 3) (pcfgs (F := F)) a pdats (launch3 (F := F)).win (launch3 (F := F)).arr_whole c
      ((pdats 3 c).share_full fun _ => by rw [hd c]; rfl) (VV3 Win c) fun w => by rw [hd c]; rfl
    rw [Pipeline.unscopedBufs_held, hd c] at hsplit
    rw [hd c]
    have hU := unscopedRest3_eq (VV3 Win) c (a 3).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi3_in (VV3 Win) (a 3) c
  hout c := by rw [hd c]; exact Phi3_out (VV3 Win) (a 3) c
  hexit c := by
    have hjoin := Pipeline.unscopedBufs_of_arrays (p := 3) (pcfgs (F := F)) a (Ix := Unit) (Name := ℕ) (U := UC) (Lvl := ℕ)
      (launch3 (F := F)).win (launch3 (F := F)).arr_whole c pdats ((pdats 3 c).share_full fun _ => by rw [hd c]; rfl)
      (VV3 Win c) (VV3 Wout c) ((pdats 3 c).arrAt · (cfg3 (a 3)).N) (fun w => by rw [hd c]; exact hF c w) (hrest c)
    rw [Pipeline.unscopedBufs_held, hd c] at hjoin
    rw [hd c]
    have hU := unscopedRest3_eq (VV3 Win) c (a 3).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg4.lean ====
/-
  One of the program's 25 gather launches (pipeline 4) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G4Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV4 (W : Dev nD → Valuation τ sig (Elt F)) : (c : Dev nD) → (b : Ref sig .tc) → Buf (Elt F) ((c : Thread nD τ).loc b) := fun c b => W c b

/-- The operand the body copies from by itself, as a reference: unscoped, no window's array, no table. -/
def H4 : Finset (Ref sig .tc) := {main_arg0}
theorem H4_sub : H4 ⊆ Pipeline.restRefsP sig pre4 spec4 := by decide
/-- Its points-to, listed. -/
theorem hbmPts4_eq (V : (c : Dev nD) → (b : Ref sig .tc) → Buf (Elt F) ((c : Thread nD τ).loc b)) (c : Dev nD) :
    (bigSep H4 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest4_eq (V : (c : Dev nD) → (b : Ref sig .tc) → Buf (Elt F) ((c : Thread nD τ).loc b)) (c : Dev nD)
    (pf : pre4.Contents (Elt F)) (hpf : pf = fun k => V c (pre4.ref k)) :
    (Pipeline.unscopedRest (Ix := Unit) (Name := ℕ) (U := UC) (Lvl := ℕ) spec4 c (V c) : sProp 𝕄)
      = iprop(Pipeline.prefHeld pre4 c (fun _ => fullShare) pf
          ∗ (((c : Thread nD τ).loc main_arg0) ↦{fullShare} V c main_arg0)
          ∗ bigSep (Pipeline.restRefsP sig pre4 spec4 \ H4) fun b => ((c : Thread nD τ).loc b) ↦{fullShare} V c b) := by
  subst hpf
  rw [Pipeline.unscopedRest_split preFacts4 c (V c)]
  unfold Pipeline.unscopedRestP
  rw [BI.bigSep_sdiff_split H4_sub, hbmPts4_eq]
  rfl

-- the segment's fields are stated over the pinned configuration `pin pcfgs a 4`; meeting them with `cfg4 (a 4)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg4 (hd : ∀ c, pdats 4 c = dat4 (VV4 Win) (a 4) c)
    (hF : ∀ c w, (dat4 (VV4 Win) (a 4) c).arrAt w (cfg4 (a 4)).N = Wout c (Pipeline.arrRef spec4 w))
    (hrest : ∀ c (b : Ref sig .tc), b ∉ Finset.univ.image (Pipeline.arrRef spec4) → Wout c b = Win c b)
    (htab : ∀ c, (a 4).1 = fun k => Win c (pre4.ref k))
    (hrange : InRange4 (a 4).1) :
    Pipeline.RegionSeg (pcfgs (F := F)) a pdats () defs₀ 𝒱₀ L lv 4 where
  win := (launch4 (F := F)).win.to₀
  block_pos := (launch4 (F := F)).block_pos
  stage_whole := (launch4 (F := F)).stage_whole
  K := Fin 16
  osem := osem4
  ho := ownSemFacts4
  hbody c := by rw [hd c]; exact (body_obligation4 (VV4 Win) (a 4) hrange c).loose
  hwaits := Pipeline.hwaits_of_owed_zero (pcfgs (F := F)) a pdats () L lv 4 fun c t => by rw [hd c]; rfl
  pre c := T (Win c) c
  post c := T (Wout c) c
  X c := X4 (VV4 Win) c
  Y c := Y4 (VV4 Win) (a 4) c
  Z c := bigSep (Pipeline.restRefsP sig pre4 spec4 \ H4) fun b => ((c : Thread nD τ).loc b) ↦{fullShare} VV4 Win c b
  hentry c := by
    have hsplit := Pipeline.arrays_of_unscopedBufs (p := 4) (pcfgs (F := F)) a pdats (launch4 (F := F)).win (launch4 (F := F)).arr_whole c
      ((pdats 4 c).share_full fun _ => by rw [hd c]; rfl) (VV4 Win c) fun w => by rw [hd c]; rfl
    rw [Pipeline.unscopedBufs_held, hd c] at hsplit
    rw [hd c]
    have hU := unscopedRest4_eq (VV4 Win) c (a 4).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi4_in (VV4 Win) (a 4) c
  hout c := by rw [hd c]; exact Phi4_out (VV4 Win) (a 4) c
  hexit c := by
    have hjoin := Pipeline.unscopedBufs_of_arrays (p := 4) (pcfgs (F := F)) a (Ix := Unit) (Name := ℕ) (U := UC) (Lvl := ℕ)
      (launch4 (F := F)).win (launch4 (F := F)).arr_whole c pdats ((pdats 4 c).share_full fun _ => by rw [hd c]; rfl)
      (VV4 Win c) (VV4 Wout c) ((pdats 4 c).arrAt · (cfg4 (a 4)).N) (fun w => by rw [hd c]; exact hF c w) (hrest c)
    rw [Pipeline.unscopedBufs_held, hd c] at hjoin
    rw [hd c]
    have hU := unscopedRest4_eq (VV4 Win) c (a 4).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg5.lean ====
/-
  One of the program's 25 gather launches (pipeline 5) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G5Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV5 (W : Dev nD → Valuation τ sig (Elt F)) : (c : Dev nD) → (b : Ref sig .tc) → Buf (Elt F) ((c : Thread nD τ).loc b) := fun c b => W c b

/-- The operand the body copies from by itself, as a reference: unscoped, no window's array, no table. -/
def H5 : Finset (Ref sig .tc) := {main_arg0}
theorem H5_sub : H5 ⊆ Pipeline.restRefsP sig pre5 spec5 := by decide
/-- Its points-to, listed. -/
theorem hbmPts5_eq (V : (c : Dev nD) → (b : Ref sig .tc) → Buf (Elt F) ((c : Thread nD τ).loc b)) (c : Dev nD) :
    (bigSep H5 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest5_eq (V : (c : Dev nD) → (b : Ref sig .tc) → Buf (Elt F) ((c : Thread nD τ).loc b)) (c : Dev nD)
    (pf : pre5.Contents (Elt F)) (hpf : pf = fun k => V c (pre5.ref k)) :
    (Pipeline.unscopedRest (Ix := Unit) (Name := ℕ) (U := UC) (Lvl := ℕ) spec5 c (V c) : sProp 𝕄)
      = iprop(Pipeline.prefHeld pre5 c (fun _ => fullShare) pf
          ∗ (((c : Thread nD τ).loc main_arg0) ↦{fullShare} V c main_arg0)
          ∗ bigSep (Pipeline.restRefsP sig pre5 spec5 \ H5) fun b => ((c : Thread nD τ).loc b) ↦{fullShare} V c b) := by
  subst hpf
  rw [Pipeline.unscopedRest_split preFacts5 c (V c)]
  unfold Pipeline.unscopedRestP
  rw [BI.bigSep_sdiff_split H5_sub, hbmPts5_eq]
  rfl

-- the segment's fields are stated over the pinned configuration `pin pcfgs a 5`; meeting them with `cfg5 (a 5)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg5 (hd : ∀ c, pdats 5 c = dat5 (VV5 Win) (a 5) c)
    (hF : ∀ c w, (dat5 (VV5 Win) (a 5) c).arrAt w (cfg5 (a 5)).N = Wout c (Pipeline.arrRef spec5 w))
    (hrest : ∀ c (b : Ref sig .tc), b ∉ Finset.univ.image (Pipeline.arrRef spec5) → Wout c b = Win c b)
    (htab : ∀ c, (a 5).1 = fun k => Win c (pre5.ref k))
    (hrange : InRange5 (a 5).1) :
    Pipeline.RegionSeg (pcfgs (F := F)) a pdats () defs₀ 𝒱₀ L lv 5 where
  win := (launch5 (F := F)).win.to₀
  block_pos := (launch5 (F := F)).block_pos
  stage_whole := (launch5 (F := F)).stage_whole
  K := Fin 16
  osem := osem5
  ho := ownSemFacts5
  hbody c := by rw [hd c]; exact (body_obligation5 (VV5 Win) (a 5) hrange c).loose
  hwaits := Pipeline.hwaits_of_owed_zero (pcfgs (F := F)) a pdats () L lv 5 fun c t => by rw [hd c]; rfl
  pre c := T (Win c) c
  post c := T (Wout c) c
  X c := X5 (VV5 Win) c
  Y c := Y5 (VV5 Win) (a 5) c
  Z c := bigSep (Pipeline.restRefsP sig pre5 spec5 \ H5) fun b => ((c : Thread nD τ).loc b) ↦{fullShare} VV5 Win c b
  hentry c := by
    have hsplit := Pipeline.arrays_of_unscopedBufs (p := 5) (pcfgs (F := F)) a pdats (launch5 (F := F)).win (launch5 (F := F)).arr_whole c
      ((pdats 5 c).share_full fun _ => by rw [hd c]; rfl) (VV5 Win c) fun w => by rw [hd c]; rfl
    rw [Pipeline.unscopedBufs_held, hd c] at hsplit
    rw [hd c]
    have hU := unscopedRest5_eq (VV5 Win) c (a 5).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi5_in (VV5 Win) (a 5) c
  hout c := by rw [hd c]; exact Phi5_out (VV5 Win) (a 5) c
  hexit c := by
    have hjoin := Pipeline.unscopedBufs_of_arrays (p := 5) (pcfgs (F := F)) a (Ix := Unit) (Name := ℕ) (U := UC) (Lvl := ℕ)
      (launch5 (F := F)).win (launch5 (F := F)).arr_whole c pdats ((pdats 5 c).share_full fun _ => by rw [hd c]; rfl)
      (VV5 Win c) (VV5 Wout c) ((pdats 5 c).arrAt · (cfg5 (a 5)).N) (fun w => by rw [hd c]; exact hF c w) (hrest c)
    rw [Pipeline.unscopedBufs_held, hd c] at hjoin
    rw [hd c]
    have hU := unscopedRest5_eq (VV5 Win) c (a 5).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg6.lean ====
/-
  One of the program's 25 gather launches (pipeline 6) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G6Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV6 (W : Dev nD → Valuation τ sig (Elt F)) : (c : Dev nD) → (b : Ref sig .tc) → Buf (Elt F) ((c : Thread nD τ).loc b) := fun c b => W c b

/-- The operand the body copies from by itself, as a reference: unscoped, no window's array, no table. -/
def H6 : Finset (Ref sig .tc) := {main_arg0}
theorem H6_sub : H6 ⊆ Pipeline.restRefsP sig pre6 spec6 := by decide
/-- Its points-to, listed. -/
theorem hbmPts6_eq (V : (c : Dev nD) → (b : Ref sig .tc) → Buf (Elt F) ((c : Thread nD τ).loc b)) (c : Dev nD) :
    (bigSep H6 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest6_eq (V : (c : Dev nD) → (b : Ref sig .tc) → Buf (Elt F) ((c : Thread nD τ).loc b)) (c : Dev nD)
    (pf : pre6.Contents (Elt F)) (hpf : pf = fun k => V c (pre6.ref k)) :
    (Pipeline.unscopedRest (Ix := Unit) (Name := ℕ) (U := UC) (Lvl := ℕ) spec6 c (V c) : sProp 𝕄)
      = iprop(Pipeline.prefHeld pre6 c (fun _ => fullShare) pf
          ∗ (((c : Thread nD τ).loc main_arg0) ↦{fullShare} V c main_arg0)
          ∗ bigSep (Pipeline.restRefsP sig pre6 spec6 \ H6) fun b => ((c : Thread nD τ).loc b) ↦{fullShare} V c b) := by
  subst hpf
  rw [Pipeline.unscopedRest_split preFacts6 c (V c)]
  unfold Pipeline.unscopedRestP
  rw [BI.bigSep_sdiff_split H6_sub, hbmPts6_eq]
  rfl

-- the segment's fields are stated over the pinned configuration `pin pcfgs a 6`; meeting them with `cfg6 (a 6)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg6 (hd : ∀ c, pdats 6 c = dat6 (VV6 Win) (a 6) c)
    (hF : ∀ c w, (dat6 (VV6 Win) (a 6) c).arrAt w (cfg6 (a 6)).N = Wout c (Pipeline.arrRef spec6 w))
    (hrest : ∀ c (b : Ref sig .tc), b ∉ Finset.univ.image (Pipeline.arrRef spec6) → Wout c b = Win c b)
    (htab : ∀ c, (a 6).1 = fun k => Win c (pre6.ref k))
    (hrange : InRange6 (a 6).1) :
    Pipeline.RegionSeg (pcfgs (F := F)) a pdats () defs₀ 𝒱₀ L lv 6 where
  win := (launch6 (F := F)).win.to₀
  block_pos := (launch6 (F := F)).block_pos
  stage_whole := (launch6 (F := F)).stage_whole
  K := Fin 16
  osem := osem6
  ho := ownSemFacts6
  hbody c := by rw [hd c]; exact (body_obligation6 (VV6 Win) (a 6) hrange c).loose
  hwaits := Pipeline.hwaits_of_owed_zero (pcfgs (F := F)) a pdats () L lv 6 fun c t => by rw [hd c]; rfl
  pre c := T (Win c) c
  post c := T (Wout c) c
  X c := X6 (VV6 Win) c
  Y c := Y6 (VV6 Win) (a 6) c
  Z c := bigSep (Pipeline.restRefsP sig pre6 spec6 \ H6) fun b => ((c : Thread nD τ).loc b) ↦{fullShare} VV6 Win c b
  hentry c := by
    have hsplit := Pipeline.arrays_of_unscopedBufs (p := 6) (pcfgs (F := F)) a pdats (launch6 (F := F)).win (launch6 (F := F)).arr_whole c
      ((pdats 6 c).share_full fun _ => by rw [hd c]; rfl) (VV6 Win c) fun w => by rw [hd c]; rfl
    rw [Pipeline.unscopedBufs_held, hd c] at hsplit
    rw [hd c]
    have hU := unscopedRest6_eq (VV6 Win) c (a 6).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi6_in (VV6 Win) (a 6) c
  hout c := by rw [hd c]; exact Phi6_out (VV6 Win) (a 6) c
  hexit c := by
    have hjoin := Pipeline.unscopedBufs_of_arrays (p := 6) (pcfgs (F := F)) a (Ix := Unit) (Name := ℕ) (U := UC) (Lvl := ℕ)
      (launch6 (F := F)).win (launch6 (F := F)).arr_whole c pdats ((pdats 6 c).share_full fun _ => by rw [hd c]; rfl)
      (VV6 Win c) (VV6 Wout c) ((pdats 6 c).arrAt · (cfg6 (a 6)).N) (fun w => by rw [hd c]; exact hF c w) (hrest c)
    rw [Pipeline.unscopedBufs_held, hd c] at hjoin
    rw [hd c]
    have hU := unscopedRest6_eq (VV6 Win) c (a 6).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg7.lean ====
/-
  One of the program's 25 gather launches (pipeline 7) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G7Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV7 (W : Dev nD → Valuation τ sig (Elt F)) : (c : Dev nD) → (b : Ref sig .tc) → Buf (Elt F) ((c : Thread nD τ).loc b) := fun c b => W c b

/-- The operand the body copies from by itself, as a reference: unscoped, no window's array, no table. -/
def H7 : Finset (Ref sig .tc) := {main_arg0}
theorem H7_sub : H7 ⊆ Pipeline.restRefsP sig pre7 spec7 := by decide
/-- Its points-to, listed. -/
theorem hbmPts7_eq (V : (c : Dev nD) → (b : Ref sig .tc) → Buf (Elt F) ((c : Thread nD τ).loc b)) (c : Dev nD) :
    (bigSep H7 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest7_eq (V : (c : Dev nD) → (b : Ref sig .tc) → Buf (Elt F) ((c : Thread nD τ).loc b)) (c : Dev nD)
    (pf : pre7.Contents (Elt F)) (hpf : pf = fun k => V c (pre7.ref k)) :
    (Pipeline.unscopedRest (Ix := Unit) (Name := ℕ) (U := UC) (Lvl := ℕ) spec7 c (V c) : sProp 𝕄)
      = iprop(Pipeline.prefHeld pre7 c (fun _ => fullShare) pf
          ∗ (((c : Thread nD τ).loc main_arg0) ↦{fullShare} V c main_arg0)
          ∗ bigSep (Pipeline.restRefsP sig pre7 spec7 \ H7) fun b => ((c : Thread nD τ).loc b) ↦{fullShare} V c b) := by
  subst hpf
  rw [Pipeline.unscopedRest_split preFacts7 c (V c)]
  unfold Pipeline.unscopedRestP
  rw [BI.bigSep_sdiff_split H7_sub, hbmPts7_eq]
  rfl

-- the segment's fields are stated over the pinned configuration `pin pcfgs a 7`; meeting them with `cfg7 (a 7)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg7 (hd : ∀ c, pdats 7 c = dat7 (VV7 Win) (a 7) c)
    (hF : ∀ c w, (dat7 (VV7 Win) (a 7) c).arrAt w (cfg7 (a 7)).N = Wout c (Pipeline.arrRef spec7 w))
    (hrest : ∀ c (b : Ref sig .tc), b ∉ Finset.univ.image (Pipeline.arrRef spec7) → Wout c b = Win c b)
    (htab : ∀ c, (a 7).1 = fun k => Win c (pre7.ref k))
    (hrange : InRange7 (a 7).1) :
    Pipeline.RegionSeg (pcfgs (F := F)) a pdats () defs₀ 𝒱₀ L lv 7 where
  win := (launch7 (F := F)).win.to₀
  block_pos := (launch7 (F := F)).block_pos
  stage_whole := (launch7 (F := F)).stage_whole
  K := Fin 16
  osem := osem7
  ho := ownSemFacts7
  hbody c := by rw [hd c]; exact (body_obligation7 (VV7 Win) (a 7) hrange c).loose
  hwaits := Pipeline.hwaits_of_owed_zero (pcfgs (F := F)) a pdats () L lv 7 fun c t => by rw [hd c]; rfl
  pre c := T (Win c) c
  post c := T (Wout c) c
  X c := X7 (VV7 Win) c
  Y c := Y7 (VV7 Win) (a 7) c
  Z c := bigSep (Pipeline.restRefsP sig pre7 spec7 \ H7) fun b => ((c : Thread nD τ).loc b) ↦{fullShare} VV7 Win c b
  hentry c := by
    have hsplit := Pipeline.arrays_of_unscopedBufs (p := 7) (pcfgs (F := F)) a pdats (launch7 (F := F)).win (launch7 (F := F)).arr_whole c
      ((pdats 7 c).share_full fun _ => by rw [hd c]; rfl) (VV7 Win c) fun w => by rw [hd c]; rfl
    rw [Pipeline.unscopedBufs_held, hd c] at hsplit
    rw [hd c]
    have hU := unscopedRest7_eq (VV7 Win) c (a 7).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi7_in (VV7 Win) (a 7) c
  hout c := by rw [hd c]; exact Phi7_out (VV7 Win) (a 7) c
  hexit c := by
    have hjoin := Pipeline.unscopedBufs_of_arrays (p := 7) (pcfgs (F := F)) a (Ix := Unit) (Name := ℕ) (U := UC) (Lvl := ℕ)
      (launch7 (F := F)).win (launch7 (F := F)).arr_whole c pdats ((pdats 7 c).share_full fun _ => by rw [hd c]; rfl)
      (VV7 Win c) (VV7 Wout c) ((pdats 7 c).arrAt · (cfg7 (a 7)).N) (fun w => by rw [hd c]; exact hF c w) (hrest c)
    rw [Pipeline.unscopedBufs_held, hd c] at hjoin
    rw [hd c]
    have hU := unscopedRest7_eq (VV7 Win) c (a 7).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg8.lean ====
/-
  One of the program's 25 gather launches (pipeline 8) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G8Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV8 (W : Dev nD → Valuation τ sig (Elt F)) : (c : Dev nD) → (b : Ref sig .tc) → Buf (Elt F) ((c : Thread nD τ).loc b) := fun c b => W c b

/-- The operand the body copies from by itself, as a reference: unscoped, no window's array, no table. -/
def H8 : Finset (Ref sig .tc) := {main_arg0}
theorem H8_sub : H8 ⊆ Pipeline.restRefsP sig pre8 spec8 := by decide
/-- Its points-to, listed. -/
theorem hbmPts8_eq (V : (c : Dev nD) → (b : Ref sig .tc) → Buf (Elt F) ((c : Thread nD τ).loc b)) (c : Dev nD) :
    (bigSep H8 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest8_eq (V : (c : Dev nD) → (b : Ref sig .tc) → Buf (Elt F) ((c : Thread nD τ).loc b)) (c : Dev nD)
    (pf : pre8.Contents (Elt F)) (hpf : pf = fun k => V c (pre8.ref k)) :
    (Pipeline.unscopedRest (Ix := Unit) (Name := ℕ) (U := UC) (Lvl := ℕ) spec8 c (V c) : sProp 𝕄)
      = iprop(Pipeline.prefHeld pre8 c (fun _ => fullShare) pf
          ∗ (((c : Thread nD τ).loc main_arg0) ↦{fullShare} V c main_arg0)
          ∗ bigSep (Pipeline.restRefsP sig pre8 spec8 \ H8) fun b => ((c : Thread nD τ).loc b) ↦{fullShare} V c b) := by
  subst hpf
  rw [Pipeline.unscopedRest_split preFacts8 c (V c)]
  unfold Pipeline.unscopedRestP
  rw [BI.bigSep_sdiff_split H8_sub, hbmPts8_eq]
  rfl

-- the segment's fields are stated over the pinned configuration `pin pcfgs a 8`; meeting them with `cfg8 (a 8)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg8 (hd : ∀ c, pdats 8 c = dat8 (VV8 Win) (a 8) c)
    (hF : ∀ c w, (dat8 (VV8 Win) (a 8) c).arrAt w (cfg8 (a 8)).N = Wout c (Pipeline.arrRef spec8 w))
    (hrest : ∀ c (b : Ref sig .tc), b ∉ Finset.univ.image (Pipeline.arrRef spec8) → Wout c b = Win c b)
    (htab : ∀ c, (a 8).1 = fun k => Win c (pre8.ref k))
    (hrange : InRange8 (a 8).1) :
    Pipeline.RegionSeg (pcfgs (F := F)) a pdats () defs₀ 𝒱₀ L lv 8 where
  win := (launch8 (F := F)).win.to₀
  block_pos := (launch8 (F := F)).block_pos
  stage_whole := (launch8 (F := F)).stage_whole
  K := Fin 16
  osem := osem8
  ho := ownSemFacts8
  hbody c := by rw [hd c]; exact (body_obligation8 (VV8 Win) (a 8) hrange c).loose
  hwaits := Pipeline.hwaits_of_owed_zero (pcfgs (F := F)) a pdats () L lv 8 fun c t => by rw [hd c]; rfl
  pre c := T (Win c) c
  post c := T (Wout c) c
  X c := X8 (VV8 Win) c
  Y c := Y8 (VV8 Win) (a 8) c
  Z c := bigSep (Pipeline.restRefsP sig pre8 spec8 \ H8) fun b => ((c : Thread nD τ).loc b) ↦{fullShare} VV8 Win c b
  hentry c := by
    have hsplit := Pipeline.arrays_of_unscopedBufs (p := 8) (pcfgs (F := F)) a pdats (launch8 (F := F)).win (launch8 (F := F)).arr_whole c
      ((pdats 8 c).share_full fun _ => by rw [hd c]; rfl) (VV8 Win c) fun w => by rw [hd c]; rfl
    rw [Pipeline.unscopedBufs_held, hd c] at hsplit
    rw [hd c]
    have hU := unscopedRest8_eq (VV8 Win) c (a 8).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi8_in (VV8 Win) (a 8) c
  hout c := by rw [hd c]; exact Phi8_out (VV8 Win) (a 8) c
  hexit c := by
    have hjoin := Pipeline.unscopedBufs_of_arrays (p := 8) (pcfgs (F := F)) a (Ix := Unit) (Name := ℕ) (U := UC) (Lvl := ℕ)
      (launch8 (F := F)).win (launch8 (F := F)).arr_whole c pdats ((pdats 8 c).share_full fun _ => by rw [hd c]; rfl)
      (VV8 Win c) (VV8 Wout c) ((pdats 8 c).arrAt · (cfg8 (a 8)).N) (fun w => by rw [hd c]; exact hF c w) (hrest c)
    rw [Pipeline.unscopedBufs_held, hd c] at hjoin
    rw [hd c]
    have hU := unscopedRest8_eq (VV8 Win) c (a 8).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg9.lean ====
/-
  One of the program's 25 gather launches (pipeline 9) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G9Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV9 (W : Dev nD → Valuation τ sig (Elt F)) : (c : Dev nD) → (b : Ref sig .tc) → Buf (Elt F) ((c : Thread nD τ).loc b) := fun c b => W c b

/-- The operand the body copies from by itself, as a reference: unscoped, no window's array, no table. -/
def H9 : Finset (Ref sig .tc) := {main_arg0}
theorem H9_sub : H9 ⊆ Pipeline.restRefsP sig pre9 spec9 := by decide
/-- Its points-to, listed. -/
theorem hbmPts9_eq (V : (c : Dev nD) → (b : Ref sig .tc) → Buf (Elt F) ((c : Thread nD τ).loc b)) (c : Dev nD) :
    (bigSep H9 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest9_eq (V : (c : Dev nD) → (b : Ref sig .tc) → Buf (Elt F) ((c : Thread nD τ).loc b)) (c : Dev nD)
    (pf : pre9.Contents (Elt F)) (hpf : pf = fun k => V c (pre9.ref k)) :
    (Pipeline.unscopedRest (Ix := Unit) (Name := ℕ) (U := UC) (Lvl := ℕ) spec9 c (V c) : sProp 𝕄)
      = iprop(Pipeline.prefHeld pre9 c (fun _ => fullShare) pf
          ∗ (((c : Thread nD τ).loc main_arg0) ↦{fullShare} V c main_arg0)
          ∗ bigSep (Pipeline.restRefsP sig pre9 spec9 \ H9) fun b => ((c : Thread nD τ).loc b) ↦{fullShare} V c b) := by
  subst hpf
  rw [Pipeline.unscopedRest_split preFacts9 c (V c)]
  unfold Pipeline.unscopedRestP
  rw [BI.bigSep_sdiff_split H9_sub, hbmPts9_eq]
  rfl

-- the segment's fields are stated over the pinned configuration `pin pcfgs a 9`; meeting them with `cfg9 (a 9)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg9 (hd : ∀ c, pdats 9 c = dat9 (VV9 Win) (a 9) c)
    (hF : ∀ c w, (dat9 (VV9 Win) (a 9) c).arrAt w (cfg9 (a 9)).N = Wout c (Pipeline.arrRef spec9 w))
    (hrest : ∀ c (b : Ref sig .tc), b ∉ Finset.univ.image (Pipeline.arrRef spec9) → Wout c b = Win c b)
    (htab : ∀ c, (a 9).1 = fun k => Win c (pre9.ref k))
    (hrange : InRange9 (a 9).1) :
    Pipeline.RegionSeg (pcfgs (F := F)) a pdats () defs₀ 𝒱₀ L lv 9 where
  win := (launch9 (F := F)).win.to₀
  block_pos := (launch9 (F := F)).block_pos
  stage_whole := (launch9 (F := F)).stage_whole
  K := Fin 16
  osem := osem9
  ho := ownSemFacts9
  hbody c := by rw [hd c]; exact (body_obligation9 (VV9 Win) (a 9) hrange c).loose
  hwaits := Pipeline.hwaits_of_owed_zero (pcfgs (F := F)) a pdats () L lv 9 fun c t => by rw [hd c]; rfl
  pre c := T (Win c) c
  post c := T (Wout c) c
  X c := X9 (VV9 Win) c
  Y c := Y9 (VV9 Win) (a 9) c
  Z c := bigSep (Pipeline.restRefsP sig pre9 spec9 \ H9) fun b => ((c : Thread nD τ).loc b) ↦{fullShare} VV9 Win c b
  hentry c := by
    have hsplit := Pipeline.arrays_of_unscopedBufs (p := 9) (pcfgs (F := F)) a pdats (launch9 (F := F)).win (launch9 (F := F)).arr_whole c
      ((pdats 9 c).share_full fun _ => by rw [hd c]; rfl) (VV9 Win c) fun w => by rw [hd c]; rfl
    rw [Pipeline.unscopedBufs_held, hd c] at hsplit
    rw [hd c]
    have hU := unscopedRest9_eq (VV9 Win) c (a 9).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi9_in (VV9 Win) (a 9) c
  hout c := by rw [hd c]; exact Phi9_out (VV9 Win) (a 9) c
  hexit c := by
    have hjoin := Pipeline.unscopedBufs_of_arrays (p := 9) (pcfgs (F := F)) a (Ix := Unit) (Name := ℕ) (U := UC) (Lvl := ℕ)
      (launch9 (F := F)).win (launch9 (F := F)).arr_whole c pdats ((pdats 9 c).share_full fun _ => by rw [hd c]; rfl)
      (VV9 Win c) (VV9 Wout c) ((pdats 9 c).arrAt · (cfg9 (a 9)).N) (fun w => by rw [hd c]; exact hF c w) (hrest c)
    rw [Pipeline.unscopedBufs_held, hd c] at hjoin
    rw [hd c]
    have hU := unscopedRest9_eq (VV9 Win) c (a 9).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg10.lean ====
/-
  One of the program's 25 gather launches (pipeline 10) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G10Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV10 (W : Dev nD → Valuation τ sig (Elt F)) : (c : Dev nD) → (b : Ref sig .tc) → Buf (Elt F) ((c : Thread nD τ).loc b) := fun c b => W c b

/-- The operand the body copies from by itself, as a reference: unscoped, no window's array, no table. -/
def H10 : Finset (Ref sig .tc) := {main_arg0}
theorem H10_sub : H10 ⊆ Pipeline.restRefsP sig pre10 spec10 := by decide
/-- Its points-to, listed. -/
theorem hbmPts10_eq (V : (c : Dev nD) → (b : Ref sig .tc) → Buf (Elt F) ((c : Thread nD τ).loc b)) (c : Dev nD) :
    (bigSep H10 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest10_eq (V : (c : Dev nD) → (b : Ref sig .tc) → Buf (Elt F) ((c : Thread nD τ).loc b)) (c : Dev nD)
    (pf : pre10.Contents (Elt F)) (hpf : pf = fun k => V c (pre10.ref k)) :
    (Pipeline.unscopedRest (Ix := Unit) (Name := ℕ) (U := UC) (Lvl := ℕ) spec10 c (V c) : sProp 𝕄)
      = iprop(Pipeline.prefHeld pre10 c (fun _ => fullShare) pf
          ∗ (((c : Thread nD τ).loc main_arg0) ↦{fullShare} V c main_arg0)
          ∗ bigSep (Pipeline.restRefsP sig pre10 spec10 \ H10) fun b => ((c : Thread nD τ).loc b) ↦{fullShare} V c b) := by
  subst hpf
  rw [Pipeline.unscopedRest_split preFacts10 c (V c)]
  unfold Pipeline.unscopedRestP
  rw [BI.bigSep_sdiff_split H10_sub, hbmPts10_eq]
  rfl

-- the segment's fields are stated over the pinned configuration `pin pcfgs a 10`; meeting them with `cfg10 (a 10)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg10 (hd : ∀ c, pdats 10 c = dat10 (VV10 Win) (a 10) c)
    (hF : ∀ c w, (dat10 (VV10 Win) (a 10) c).arrAt w (cfg10 (a 10)).N = Wout c (Pipeline.arrRef spec10 w))
    (hrest : ∀ c (b : Ref sig .tc), b ∉ Finset.univ.image (Pipeline.arrRef spec10) → Wout c b = Win c b)
    (htab : ∀ c, (a 10).1 = fun k => Win c (pre10.ref k))
    (hrange : InRange10 (a 10).1) :
    Pipeline.RegionSeg (pcfgs (F := F)) a pdats () defs₀ 𝒱₀ L lv 10 where
  win := (launch10 (F := F)).win.to₀
  block_pos := (launch10 (F := F)).block_pos
  stage_whole := (launch10 (F := F)).stage_whole
  K := Fin 16
  osem := osem10
  ho := ownSemFacts10
  hbody c := by rw [hd c]; exact (body_obligation10 (VV10 Win) (a 10) hrange c).loose
  hwaits := Pipeline.hwaits_of_owed_zero (pcfgs (F := F)) a pdats () L lv 10 fun c t => by rw [hd c]; rfl
  pre c := T (Win c) c
  post c := T (Wout c) c
  X c := X10 (VV10 Win) c
  Y c := Y10 (VV10 Win) (a 10) c
  Z c := bigSep (Pipeline.restRefsP sig pre10 spec10 \ H10) fun b => ((c : Thread nD τ).loc b) ↦{fullShare} VV10 Win c b
  hentry c := by
    have hsplit := Pipeline.arrays_of_unscopedBufs (p := 10) (pcfgs (F := F)) a pdats (launch10 (F := F)).win (launch10 (F := F)).arr_whole c
      ((pdats 10 c).share_full fun _ => by rw [hd c]; rfl) (VV10 Win c) fun w => by rw [hd c]; rfl
    rw [Pipeline.unscopedBufs_held, hd c] at hsplit
    rw [hd c]
    have hU := unscopedRest10_eq (VV10 Win) c (a 10).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi10_in (VV10 Win) (a 10) c
  hout c := by rw [hd c]; exact Phi10_out (VV10 Win) (a 10) c
  hexit c := by
    have hjoin := Pipeline.unscopedBufs_of_arrays (p := 10) (pcfgs (F := F)) a (Ix := Unit) (Name := ℕ) (U := UC) (Lvl := ℕ)
      (launch10 (F := F)).win (launch10 (F := F)).arr_whole c pdats ((pdats 10 c).share_full fun _ => by rw [hd c]; rfl)
      (VV10 Win c) (VV10 Wout c) ((pdats 10 c).arrAt · (cfg10 (a 10)).N) (fun w => by rw [hd c]; exact hF c w) (hrest c)
    rw [Pipeline.unscopedBufs_held, hd c] at hjoin
    rw [hd c]
    have hU := unscopedRest10_eq (VV10 Win) c (a 10).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg11.lean ====
/-
  One of the program's 25 gather launches (pipeline 11) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G11Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV11 (W : Dev nD → Valuation τ sig (Elt F)) : (c : Dev nD) → (b : Ref sig .tc) → Buf (Elt F) ((c : Thread nD τ).loc b) := fun c b => W c b

/-- The operand the body copies from by itself, as a reference: unscoped, no window's array, no table. -/
def H11 : Finset (Ref sig .tc) := {main_arg0}
theorem H11_sub : H11 ⊆ Pipeline.restRefsP sig pre11 spec11 := by decide
/-- Its points-to, listed. -/
theorem hbmPts11_eq (V : (c : Dev nD) → (b : Ref sig .tc) → Buf (Elt F) ((c : Thread nD τ).loc b)) (c : Dev nD) :
    (bigSep H11 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest11_eq (V : (c : Dev nD) → (b : Ref sig .tc) → Buf (Elt F) ((c : Thread nD τ).loc b)) (c : Dev nD)
    (pf : pre11.Contents (Elt F)) (hpf : pf = fun k => V c (pre11.ref k)) :
    (Pipeline.unscopedRest (Ix := Unit) (Name := ℕ) (U := UC) (Lvl := ℕ) spec11 c (V c) : sProp 𝕄)
      = iprop(Pipeline.prefHeld pre11 c (fun _ => fullShare) pf
          ∗ (((c : Thread nD τ).loc main_arg0) ↦{fullShare} V c main_arg0)
          ∗ bigSep (Pipeline.restRefsP sig pre11 spec11 \ H11) fun b => ((c : Thread nD τ).loc b) ↦{fullShare} V c b) := by
  subst hpf
  rw [Pipeline.unscopedRest_split preFacts11 c (V c)]
  unfold Pipeline.unscopedRestP
  rw [BI.bigSep_sdiff_split H11_sub, hbmPts11_eq]
  rfl

-- the segment's fields are stated over the pinned configuration `pin pcfgs a 11`; meeting them with `cfg11 (a 11)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg11 (hd : ∀ c, pdats 11 c = dat11 (VV11 Win) (a 11) c)
    (hF : ∀ c w, (dat11 (VV11 Win) (a 11) c).arrAt w (cfg11 (a 11)).N = Wout c (Pipeline.arrRef spec11 w))
    (hrest : ∀ c (b : Ref sig .tc), b ∉ Finset.univ.image (Pipeline.arrRef spec11) → Wout c b = Win c b)
    (htab : ∀ c, (a 11).1 = fun k => Win c (pre11.ref k))
    (hrange : InRange11 (a 11).1) :
    Pipeline.RegionSeg (pcfgs (F := F)) a pdats () defs₀ 𝒱₀ L lv 11 where
  win := (launch11 (F := F)).win.to₀
  block_pos := (launch11 (F := F)).block_pos
  stage_whole := (launch11 (F := F)).stage_whole
  K := Fin 16
  osem := osem11
  ho := ownSemFacts11
  hbody c := by rw [hd c]; exact (body_obligation11 (VV11 Win) (a 11) hrange c).loose
  hwaits := Pipeline.hwaits_of_owed_zero (pcfgs (F := F)) a pdats () L lv 11 fun c t => by rw [hd c]; rfl
  pre c := T (Win c) c
  post c := T (Wout c) c
  X c := X11 (VV11 Win) c
  Y c := Y11 (VV11 Win) (a 11) c
  Z c := bigSep (Pipeline.restRefsP sig pre11 spec11 \ H11) fun b => ((c : Thread nD τ).loc b) ↦{fullShare} VV11 Win c b
  hentry c := by
    have hsplit := Pipeline.arrays_of_unscopedBufs (p := 11) (pcfgs (F := F)) a pdats (launch11 (F := F)).win (launch11 (F := F)).arr_whole c
      ((pdats 11 c).share_full fun _ => by rw [hd c]; rfl) (VV11 Win c) fun w => by rw [hd c]; rfl
    rw [Pipeline.unscopedBufs_held, hd c] at hsplit
    rw [hd c]
    have hU := unscopedRest11_eq (VV11 Win) c (a 11).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi11_in (VV11 Win) (a 11) c
  hout c := by rw [hd c]; exact Phi11_out (VV11 Win) (a 11) c
  hexit c := by
    have hjoin := Pipeline.unscopedBufs_of_arrays (p := 11) (pcfgs (F := F)) a (Ix := Unit) (Name := ℕ) (U := UC) (Lvl := ℕ)
      (launch11 (F := F)).win (launch11 (F := F)).arr_whole c pdats ((pdats 11 c).share_full fun _ => by rw [hd c]; rfl)
      (VV11 Win c) (VV11 Wout c) ((pdats 11 c).arrAt · (cfg11 (a 11)).N) (fun w => by rw [hd c]; exact hF c w) (hrest c)
    rw [Pipeline.unscopedBufs_held, hd c] at hjoin
    rw [hd c]
    have hU := unscopedRest11_eq (VV11 Win) c (a 11).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg12.lean ====
/-
  One of the program's 25 gather launches (pipeline 12) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G12Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV12 (W : Dev nD → Valuation τ sig (Elt F)) : (c : Dev nD) → (b : Ref sig .tc) → Buf (Elt F) ((c : Thread nD τ).loc b) := fun c b => W c b

/-- The operand the body copies from by itself, as a reference: unscoped, no window's array, no table. -/
def H12 : Finset (Ref sig .tc) := {main_arg0}
theorem H12_sub : H12 ⊆ Pipeline.restRefsP sig pre12 spec12 := by decide
/-- Its points-to, listed. -/
theorem hbmPts12_eq (V : (c : Dev nD) → (b : Ref sig .tc) → Buf (Elt F) ((c : Thread nD τ).loc b)) (c : Dev nD) :
    (bigSep H12 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest12_eq (V : (c : Dev nD) → (b : Ref sig .tc) → Buf (Elt F) ((c : Thread nD τ).loc b)) (c : Dev nD)
    (pf : pre12.Contents (Elt F)) (hpf : pf = fun k => V c (pre12.ref k)) :
    (Pipeline.unscopedRest (Ix := Unit) (Name := ℕ) (U := UC) (Lvl := ℕ) spec12 c (V c) : sProp 𝕄)
      = iprop(Pipeline.prefHeld pre12 c (fun _ => fullShare) pf
          ∗ (((c : Thread nD τ).loc main_arg0) ↦{fullShare} V c main_arg0)
          ∗ bigSep (Pipeline.restRefsP sig pre12 spec12 \ H12) fun b => ((c : Thread nD τ).loc b) ↦{fullShare} V c b) := by
  subst hpf
  rw [Pipeline.unscopedRest_split preFacts12 c (V c)]
  unfold Pipeline.unscopedRestP
  rw [BI.bigSep_sdiff_split H12_sub, hbmPts12_eq]
  rfl

-- the segment's fields are stated over the pinned configuration `pin pcfgs a 12`; meeting them with `cfg12 (a 12)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg12 (hd : ∀ c, pdats 12 c = dat12 (VV12 Win) (a 12) c)
    (hF : ∀ c w, (dat12 (VV12 Win) (a 12) c).arrAt w (cfg12 (a 12)).N = Wout c (Pipeline.arrRef spec12 w))
    (hrest : ∀ c (b : Ref sig .tc), b ∉ Finset.univ.image (Pipeline.arrRef spec12) → Wout c b = Win c b)
    (htab : ∀ c, (a 12).1 = fun k => Win c (pre12.ref k))
    (hrange : InRange12 (a 12).1) :
    Pipeline.RegionSeg (pcfgs (F := F)) a pdats () defs₀ 𝒱₀ L lv 12 where
  win := (launch12 (F := F)).win.to₀
  block_pos := (launch12 (F := F)).block_pos
  stage_whole := (launch12 (F := F)).stage_whole
  K := Fin 16
  osem := osem12
  ho := ownSemFacts12
  hbody c := by rw [hd c]; exact (body_obligation12 (VV12 Win) (a 12) hrange c).loose
  hwaits := Pipeline.hwaits_of_owed_zero (pcfgs (F := F)) a pdats () L lv 12 fun c t => by rw [hd c]; rfl
  pre c := T (Win c) c
  post c := T (Wout c) c
  X c := X12 (VV12 Win) c
  Y c := Y12 (VV12 Win) (a 12) c
  Z c := bigSep (Pipeline.restRefsP sig pre12 spec12 \ H12) fun b => ((c : Thread nD τ).loc b) ↦{fullShare} VV12 Win c b
  hentry c := by
    have hsplit := Pipeline.arrays_of_unscopedBufs (p := 12) (pcfgs (F := F)) a pdats (launch12 (F := F)).win (launch12 (F := F)).arr_whole c
      ((pdats 12 c).share_full fun _ => by rw [hd c]; rfl) (VV12 Win c) fun w => by rw [hd c]; rfl
    rw [Pipeline.unscopedBufs_held, hd c] at hsplit
    rw [hd c]
    have hU := unscopedRest12_eq (VV12 Win) c (a 12).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi12_in (VV12 Win) (a 12) c
  hout c := by rw [hd c]; exact Phi12_out (VV12 Win) (a 12) c
  hexit c := by
    have hjoin := Pipeline.unscopedBufs_of_arrays (p := 12) (pcfgs (F := F)) a (Ix := Unit) (Name := ℕ) (U := UC) (Lvl := ℕ)
      (launch12 (F := F)).win (launch12 (F := F)).arr_whole c pdats ((pdats 12 c).share_full fun _ => by rw [hd c]; rfl)
      (VV12 Win c) (VV12 Wout c) ((pdats 12 c).arrAt · (cfg12 (a 12)).N) (fun w => by rw [hd c]; exact hF c w) (hrest c)
    rw [Pipeline.unscopedBufs_held, hd c] at hjoin
    rw [hd c]
    have hU := unscopedRest12_eq (VV12 Win) c (a 12).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg13.lean ====
/-
  One of the program's 25 gather launches (pipeline 13) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G13Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV13 (W : Dev nD → Valuation τ sig (Elt F)) : (c : Dev nD) → (b : Ref sig .tc) → Buf (Elt F) ((c : Thread nD τ).loc b) := fun c b => W c b

/-- The operand the body copies from by itself, as a reference: unscoped, no window's array, no table. -/
def H13 : Finset (Ref sig .tc) := {main_arg0}
theorem H13_sub : H13 ⊆ Pipeline.restRefsP sig pre13 spec13 := by decide
/-- Its points-to, listed. -/
theorem hbmPts13_eq (V : (c : Dev nD) → (b : Ref sig .tc) → Buf (Elt F) ((c : Thread nD τ).loc b)) (c : Dev nD) :
    (bigSep H13 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest13_eq (V : (c : Dev nD) → (b : Ref sig .tc) → Buf (Elt F) ((c : Thread nD τ).loc b)) (c : Dev nD)
    (pf : pre13.Contents (Elt F)) (hpf : pf = fun k => V c (pre13.ref k)) :
    (Pipeline.unscopedRest (Ix := Unit) (Name := ℕ) (U := UC) (Lvl := ℕ) spec13 c (V c) : sProp 𝕄)
      = iprop(Pipeline.prefHeld pre13 c (fun _ => fullShare) pf
          ∗ (((c : Thread nD τ).loc main_arg0) ↦{fullShare} V c main_arg0)
          ∗ bigSep (Pipeline.restRefsP sig pre13 spec13 \ H13) fun b => ((c : Thread nD τ).loc b) ↦{fullShare} V c b) := by
  subst hpf
  rw [Pipeline.unscopedRest_split preFacts13 c (V c)]
  unfold Pipeline.unscopedRestP
  rw [BI.bigSep_sdiff_split H13_sub, hbmPts13_eq]
  rfl

-- the segment's fields are stated over the pinned configuration `pin pcfgs a 13`; meeting them with `cfg13 (a 13)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg13 (hd : ∀ c, pdats 13 c = dat13 (VV13 Win) (a 13) c)
    (hF : ∀ c w, (dat13 (VV13 Win) (a 13) c).arrAt w (cfg13 (a 13)).N = Wout c (Pipeline.arrRef spec13 w))
    (hrest : ∀ c (b : Ref sig .tc), b ∉ Finset.univ.image (Pipeline.arrRef spec13) → Wout c b = Win c b)
    (htab : ∀ c, (a 13).1 = fun k => Win c (pre13.ref k))
    (hrange : InRange13 (a 13).1) :
    Pipeline.RegionSeg (pcfgs (F := F)) a pdats () defs₀ 𝒱₀ L lv 13 where
  win := (launch13 (F := F)).win.to₀
  block_pos := (launch13 (F := F)).block_pos
  stage_whole := (launch13 (F := F)).stage_whole
  K := Fin 16
  osem := osem13
  ho := ownSemFacts13
  hbody c := by rw [hd c]; exact (body_obligation13 (VV13 Win) (a 13) hrange c).loose
  hwaits := Pipeline.hwaits_of_owed_zero (pcfgs (F := F)) a pdats () L lv 13 fun c t => by rw [hd c]; rfl
  pre c := T (Win c) c
  post c := T (Wout c) c
  X c := X13 (VV13 Win) c
  Y c := Y13 (VV13 Win) (a 13) c
  Z c := bigSep (Pipeline.restRefsP sig pre13 spec13 \ H13) fun b => ((c : Thread nD τ).loc b) ↦{fullShare} VV13 Win c b
  hentry c := by
    have hsplit := Pipeline.arrays_of_unscopedBufs (p := 13) (pcfgs (F := F)) a pdats (launch13 (F := F)).win (launch13 (F := F)).arr_whole c
      ((pdats 13 c).share_full fun _ => by rw [hd c]; rfl) (VV13 Win c) fun w => by rw [hd c]; rfl
    rw [Pipeline.unscopedBufs_held, hd c] at hsplit
    rw [hd c]
    have hU := unscopedRest13_eq (VV13 Win) c (a 13).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi13_in (VV13 Win) (a 13) c
  hout c := by rw [hd c]; exact Phi13_out (VV13 Win) (a 13) c
  hexit c := by
    have hjoin := Pipeline.unscopedBufs_of_arrays (p := 13) (pcfgs (F := F)) a (Ix := Unit) (Name := ℕ) (U := UC) (Lvl := ℕ)
      (launch13 (F := F)).win (launch13 (F := F)).arr_whole c pdats ((pdats 13 c).share_full fun _ => by rw [hd c]; rfl)
      (VV13 Win c) (VV13 Wout c) ((pdats 13 c).arrAt · (cfg13 (a 13)).N) (fun w => by rw [hd c]; exact hF c w) (hrest c)
    rw [Pipeline.unscopedBufs_held, hd c] at hjoin
    rw [hd c]
    have hU := unscopedRest13_eq (VV13 Win) c (a 13).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg14.lean ====
/-
  One of the program's 25 gather launches (pipeline 14) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G14Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV14 (W : Dev nD → Valuation τ sig (Elt F)) : (c : Dev nD) → (b : Ref sig .tc) → Buf (Elt F) ((c : Thread nD τ).loc b) := fun c b => W c b

/-- The operand the body copies from by itself, as a reference: unscoped, no window's array, no table. -/
def H14 : Finset (Ref sig .tc) := {main_arg0}
theorem H14_sub : H14 ⊆ Pipeline.restRefsP sig pre14 spec14 := by decide
/-- Its points-to, listed. -/
theorem hbmPts14_eq (V : (c : Dev nD) → (b : Ref sig .tc) → Buf (Elt F) ((c : Thread nD τ).loc b)) (c : Dev nD) :
    (bigSep H14 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest14_eq (V : (c : Dev nD) → (b : Ref sig .tc) → Buf (Elt F) ((c : Thread nD τ).loc b)) (c : Dev nD)
    (pf : pre14.Contents (Elt F)) (hpf : pf = fun k => V c (pre14.ref k)) :
    (Pipeline.unscopedRest (Ix := Unit) (Name := ℕ) (U := UC) (Lvl := ℕ) spec14 c (V c) : sProp 𝕄)
      = iprop(Pipeline.prefHeld pre14 c (fun _ => fullShare) pf
          ∗ (((c : Thread nD τ).loc main_arg0) ↦{fullShare} V c main_arg0)
          ∗ bigSep (Pipeline.restRefsP sig pre14 spec14 \ H14) fun b => ((c : Thread nD τ).loc b) ↦{fullShare} V c b) := by
  subst hpf
  rw [Pipeline.unscopedRest_split preFacts14 c (V c)]
  unfold Pipeline.unscopedRestP
  rw [BI.bigSep_sdiff_split H14_sub, hbmPts14_eq]
  rfl

-- the segment's fields are stated over the pinned configuration `pin pcfgs a 14`; meeting them with `cfg14 (a 14)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg14 (hd : ∀ c, pdats 14 c = dat14 (VV14 Win) (a 14) c)
    (hF : ∀ c w, (dat14 (VV14 Win) (a 14) c).arrAt w (cfg14 (a 14)).N = Wout c (Pipeline.arrRef spec14 w))
    (hrest : ∀ c (b : Ref sig .tc), b ∉ Finset.univ.image (Pipeline.arrRef spec14) → Wout c b = Win c b)
    (htab : ∀ c, (a 14).1 = fun k => Win c (pre14.ref k))
    (hrange : InRange14 (a 14).1) :
    Pipeline.RegionSeg (pcfgs (F := F)) a pdats () defs₀ 𝒱₀ L lv 14 where
  win := (launch14 (F := F)).win.to₀
  block_pos := (launch14 (F := F)).block_pos
  stage_whole := (launch14 (F := F)).stage_whole
  K := Fin 16
  osem := osem14
  ho := ownSemFacts14
  hbody c := by rw [hd c]; exact (body_obligation14 (VV14 Win) (a 14) hrange c).loose
  hwaits := Pipeline.hwaits_of_owed_zero (pcfgs (F := F)) a pdats () L lv 14 fun c t => by rw [hd c]; rfl
  pre c := T (Win c) c
  post c := T (Wout c) c
  X c := X14 (VV14 Win) c
  Y c := Y14 (VV14 Win) (a 14) c
  Z c := bigSep (Pipeline.restRefsP sig pre14 spec14 \ H14) fun b => ((c : Thread nD τ).loc b) ↦{fullShare} VV14 Win c b
  hentry c := by
    have hsplit := Pipeline.arrays_of_unscopedBufs (p := 14) (pcfgs (F := F)) a pdats (launch14 (F := F)).win (launch14 (F := F)).arr_whole c
      ((pdats 14 c).share_full fun _ => by rw [hd c]; rfl) (VV14 Win c) fun w => by rw [hd c]; rfl
    rw [Pipeline.unscopedBufs_held, hd c] at hsplit
    rw [hd c]
    have hU := unscopedRest14_eq (VV14 Win) c (a 14).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi14_in (VV14 Win) (a 14) c
  hout c := by rw [hd c]; exact Phi14_out (VV14 Win) (a 14) c
  hexit c := by
    have hjoin := Pipeline.unscopedBufs_of_arrays (p := 14) (pcfgs (F := F)) a (Ix := Unit) (Name := ℕ) (U := UC) (Lvl := ℕ)
      (launch14 (F := F)).win (launch14 (F := F)).arr_whole c pdats ((pdats 14 c).share_full fun _ => by rw [hd c]; rfl)
      (VV14 Win c) (VV14 Wout c) ((pdats 14 c).arrAt · (cfg14 (a 14)).N) (fun w => by rw [hd c]; exact hF c w) (hrest c)
    rw [Pipeline.unscopedBufs_held, hd c] at hjoin
    rw [hd c]
    have hU := unscopedRest14_eq (VV14 Win) c (a 14).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg15.lean ====
/-
  One of the program's 25 gather launches (pipeline 15) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G15Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV15 (W : Dev nD → Valuation τ sig (Elt F)) : (c : Dev nD) → (b : Ref sig .tc) → Buf (Elt F) ((c : Thread nD τ).loc b) := fun c b => W c b

/-- The operand the body copies from by itself, as a reference: unscoped, no window's array, no table. -/
def H15 : Finset (Ref sig .tc) := {main_arg0}
theorem H15_sub : H15 ⊆ Pipeline.restRefsP sig pre15 spec15 := by decide
/-- Its points-to, listed. -/
theorem hbmPts15_eq (V : (c : Dev nD) → (b : Ref sig .tc) → Buf (Elt F) ((c : Thread nD τ).loc b)) (c : Dev nD) :
    (bigSep H15 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest15_eq (V : (c : Dev nD) → (b : Ref sig .tc) → Buf (Elt F) ((c : Thread nD τ).loc b)) (c : Dev nD)
    (pf : pre15.Contents (Elt F)) (hpf : pf = fun k => V c (pre15.ref k)) :
    (Pipeline.unscopedRest (Ix := Unit) (Name := ℕ) (U := UC) (Lvl := ℕ) spec15 c (V c) : sProp 𝕄)
      = iprop(Pipeline.prefHeld pre15 c (fun _ => fullShare) pf
          ∗ (((c : Thread nD τ).loc main_arg0) ↦{fullShare} V c main_arg0)
          ∗ bigSep (Pipeline.restRefsP sig pre15 spec15 \ H15) fun b => ((c : Thread nD τ).loc b) ↦{fullShare} V c b) := by
  subst hpf
  rw [Pipeline.unscopedRest_split preFacts15 c (V c)]
  unfold Pipeline.unscopedRestP
  rw [BI.bigSep_sdiff_split H15_sub, hbmPts15_eq]
  rfl

-- the segment's fields are stated over the pinned configuration `pin pcfgs a 15`; meeting them with `cfg15 (a 15)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg15 (hd : ∀ c, pdats 15 c = dat15 (VV15 Win) (a 15) c)
    (hF : ∀ c w, (dat15 (VV15 Win) (a 15) c).arrAt w (cfg15 (a 15)).N = Wout c (Pipeline.arrRef spec15 w))
    (hrest : ∀ c (b : Ref sig .tc), b ∉ Finset.univ.image (Pipeline.arrRef spec15) → Wout c b = Win c b)
    (htab : ∀ c, (a 15).1 = fun k => Win c (pre15.ref k))
    (hrange : InRange15 (a 15).1) :
    Pipeline.RegionSeg (pcfgs (F := F)) a pdats () defs₀ 𝒱₀ L lv 15 where
  win := (launch15 (F := F)).win.to₀
  block_pos := (launch15 (F := F)).block_pos
  stage_whole := (launch15 (F := F)).stage_whole
  K := Fin 16
  osem := osem15
  ho := ownSemFacts15
  hbody c := by rw [hd c]; exact (body_obligation15 (VV15 Win) (a 15) hrange c).loose
  hwaits := Pipeline.hwaits_of_owed_zero (pcfgs (F := F)) a pdats () L lv 15 fun c t => by rw [hd c]; rfl
  pre c := T (Win c) c
  post c := T (Wout c) c
  X c := X15 (VV15 Win) c
  Y c := Y15 (VV15 Win) (a 15) c
  Z c := bigSep (Pipeline.restRefsP sig pre15 spec15 \ H15) fun b => ((c : Thread nD τ).loc b) ↦{fullShare} VV15 Win c b
  hentry c := by
    have hsplit := Pipeline.arrays_of_unscopedBufs (p := 15) (pcfgs (F := F)) a pdats (launch15 (F := F)).win (launch15 (F := F)).arr_whole c
      ((pdats 15 c).share_full fun _ => by rw [hd c]; rfl) (VV15 Win c) fun w => by rw [hd c]; rfl
    rw [Pipeline.unscopedBufs_held, hd c] at hsplit
    rw [hd c]
    have hU := unscopedRest15_eq (VV15 Win) c (a 15).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi15_in (VV15 Win) (a 15) c
  hout c := by rw [hd c]; exact Phi15_out (VV15 Win) (a 15) c
  hexit c := by
    have hjoin := Pipeline.unscopedBufs_of_arrays (p := 15) (pcfgs (F := F)) a (Ix := Unit) (Name := ℕ) (U := UC) (Lvl := ℕ)
      (launch15 (F := F)).win (launch15 (F := F)).arr_whole c pdats ((pdats 15 c).share_full fun _ => by rw [hd c]; rfl)
      (VV15 Win c) (VV15 Wout c) ((pdats 15 c).arrAt · (cfg15 (a 15)).N) (fun w => by rw [hd c]; exact hF c w) (hrest c)
    rw [Pipeline.unscopedBufs_held, hd c] at hjoin
    rw [hd c]
    have hU := unscopedRest15_eq (VV15 Win) c (a 15).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg16.lean ====
/-
  One of the program's 25 gather launches (pipeline 16) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G16Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV16 (W : Dev nD → Valuation τ sig (Elt F)) : (c : Dev nD) → (b : Ref sig .tc) → Buf (Elt F) ((c : Thread nD τ).loc b) := fun c b => W c b

/-- The operand the body copies from by itself, as a reference: unscoped, no window's array, no table. -/
def H16 : Finset (Ref sig .tc) := {main_arg0}
theorem H16_sub : H16 ⊆ Pipeline.restRefsP sig pre16 spec16 := by decide
/-- Its points-to, listed. -/
theorem hbmPts16_eq (V : (c : Dev nD) → (b : Ref sig .tc) → Buf (Elt F) ((c : Thread nD τ).loc b)) (c : Dev nD) :
    (bigSep H16 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest16_eq (V : (c : Dev nD) → (b : Ref sig .tc) → Buf (Elt F) ((c : Thread nD τ).loc b)) (c : Dev nD)
    (pf : pre16.Contents (Elt F)) (hpf : pf = fun k => V c (pre16.ref k)) :
    (Pipeline.unscopedRest (Ix := Unit) (Name := ℕ) (U := UC) (Lvl := ℕ) spec16 c (V c) : sProp 𝕄)
      = iprop(Pipeline.prefHeld pre16 c (fun _ => fullShare) pf
          ∗ (((c : Thread nD τ).loc main_arg0) ↦{fullShare} V c main_arg0)
          ∗ bigSep (Pipeline.restRefsP sig pre16 spec16 \ H16) fun b => ((c : Thread nD τ).loc b) ↦{fullShare} V c b) := by
  subst hpf
  rw [Pipeline.unscopedRest_split preFacts16 c (V c)]
  unfold Pipeline.unscopedRestP
  rw [BI.bigSep_sdiff_split H16_sub, hbmPts16_eq]
  rfl

-- the segment's fields are stated over the pinned configuration `pin pcfgs a 16`; meeting them with `cfg16 (a 16)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg16 (hd : ∀ c, pdats 16 c = dat16 (VV16 Win) (a 16) c)
    (hF : ∀ c w, (dat16 (VV16 Win) (a 16) c).arrAt w (cfg16 (a 16)).N = Wout c (Pipeline.arrRef spec16 w))
    (hrest : ∀ c (b : Ref sig .tc), b ∉ Finset.univ.image (Pipeline.arrRef spec16) → Wout c b = Win c b)
    (htab : ∀ c, (a 16).1 = fun k => Win c (pre16.ref k))
    (hrange : InRange16 (a 16).1) :
    Pipeline.RegionSeg (pcfgs (F := F)) a pdats () defs₀ 𝒱₀ L lv 16 where
  win := (launch16 (F := F)).win.to₀
  block_pos := (launch16 (F := F)).block_pos
  stage_whole := (launch16 (F := F)).stage_whole
  K := Fin 16
  osem := osem16
  ho := ownSemFacts16
  hbody c := by rw [hd c]; exact (body_obligation16 (VV16 Win) (a 16) hrange c).loose
  hwaits := Pipeline.hwaits_of_owed_zero (pcfgs (F := F)) a pdats () L lv 16 fun c t => by rw [hd c]; rfl
  pre c := T (Win c) c
  post c := T (Wout c) c
  X c := X16 (VV16 Win) c
  Y c := Y16 (VV16 Win) (a 16) c
  Z c := bigSep (Pipeline.restRefsP sig pre16 spec16 \ H16) fun b => ((c : Thread nD τ).loc b) ↦{fullShare} VV16 Win c b
  hentry c := by
    have hsplit := Pipeline.arrays_of_unscopedBufs (p := 16) (pcfgs (F := F)) a pdats (launch16 (F := F)).win (launch16 (F := F)).arr_whole c
      ((pdats 16 c).share_full fun _ => by rw [hd c]; rfl) (VV16 Win c) fun w => by rw [hd c]; rfl
    rw [Pipeline.unscopedBufs_held, hd c] at hsplit
    rw [hd c]
    have hU := unscopedRest16_eq (VV16 Win) c (a 16).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi16_in (VV16 Win) (a 16) c
  hout c := by rw [hd c]; exact Phi16_out (VV16 Win) (a 16) c
  hexit c := by
    have hjoin := Pipeline.unscopedBufs_of_arrays (p := 16) (pcfgs (F := F)) a (Ix := Unit) (Name := ℕ) (U := UC) (Lvl := ℕ)
      (launch16 (F := F)).win (launch16 (F := F)).arr_whole c pdats ((pdats 16 c).share_full fun _ => by rw [hd c]; rfl)
      (VV16 Win c) (VV16 Wout c) ((pdats 16 c).arrAt · (cfg16 (a 16)).N) (fun w => by rw [hd c]; exact hF c w) (hrest c)
    rw [Pipeline.unscopedBufs_held, hd c] at hjoin
    rw [hd c]
    have hU := unscopedRest16_eq (VV16 Win) c (a 16).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg17.lean ====
/-
  One of the program's 25 gather launches (pipeline 17) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G17Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV17 (W : Dev nD → Valuation τ sig (Elt F)) : (c : Dev nD) → (b : Ref sig .tc) → Buf (Elt F) ((c : Thread nD τ).loc b) := fun c b => W c b

/-- The operand the body copies from by itself, as a reference: unscoped, no window's array, no table. -/
def H17 : Finset (Ref sig .tc) := {main_arg0}
theorem H17_sub : H17 ⊆ Pipeline.restRefsP sig pre17 spec17 := by decide
/-- Its points-to, listed. -/
theorem hbmPts17_eq (V : (c : Dev nD) → (b : Ref sig .tc) → Buf (Elt F) ((c : Thread nD τ).loc b)) (c : Dev nD) :
    (bigSep H17 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest17_eq (V : (c : Dev nD) → (b : Ref sig .tc) → Buf (Elt F) ((c : Thread nD τ).loc b)) (c : Dev nD)
    (pf : pre17.Contents (Elt F)) (hpf : pf = fun k => V c (pre17.ref k)) :
    (Pipeline.unscopedRest (Ix := Unit) (Name := ℕ) (U := UC) (Lvl := ℕ) spec17 c (V c) : sProp 𝕄)
      = iprop(Pipeline.prefHeld pre17 c (fun _ => fullShare) pf
          ∗ (((c : Thread nD τ).loc main_arg0) ↦{fullShare} V c main_arg0)
          ∗ bigSep (Pipeline.restRefsP sig pre17 spec17 \ H17) fun b => ((c : Thread nD τ).loc b) ↦{fullShare} V c b) := by
  subst hpf
  rw [Pipeline.unscopedRest_split preFacts17 c (V c)]
  unfold Pipeline.unscopedRestP
  rw [BI.bigSep_sdiff_split H17_sub, hbmPts17_eq]
  rfl

-- the segment's fields are stated over the pinned configuration `pin pcfgs a 17`; meeting them with `cfg17 (a 17)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg17 (hd : ∀ c, pdats 17 c = dat17 (VV17 Win) (a 17) c)
    (hF : ∀ c w, (dat17 (VV17 Win) (a 17) c).arrAt w (cfg17 (a 17)).N = Wout c (Pipeline.arrRef spec17 w))
    (hrest : ∀ c (b : Ref sig .tc), b ∉ Finset.univ.image (Pipeline.arrRef spec17) → Wout c b = Win c b)
    (htab : ∀ c, (a 17).1 = fun k => Win c (pre17.ref k))
    (hrange : InRange17 (a 17).1) :
    Pipeline.RegionSeg (pcfgs (F := F)) a pdats () defs₀ 𝒱₀ L lv 17 where
  win := (launch17 (F := F)).win.to₀
  block_pos := (launch17 (F := F)).block_pos
  stage_whole := (launch17 (F := F)).stage_whole
  K := Fin 16
  osem := osem17
  ho := ownSemFacts17
  hbody c := by rw [hd c]; exact (body_obligation17 (VV17 Win) (a 17) hrange c).loose
  hwaits := Pipeline.hwaits_of_owed_zero (pcfgs (F := F)) a pdats () L lv 17 fun c t => by rw [hd c]; rfl
  pre c := T (Win c) c
  post c := T (Wout c) c
  X c := X17 (VV17 Win) c
  Y c := Y17 (VV17 Win) (a 17) c
  Z c := bigSep (Pipeline.restRefsP sig pre17 spec17 \ H17) fun b => ((c : Thread nD τ).loc b) ↦{fullShare} VV17 Win c b
  hentry c := by
    have hsplit := Pipeline.arrays_of_unscopedBufs (p := 17) (pcfgs (F := F)) a pdats (launch17 (F := F)).win (launch17 (F := F)).arr_whole c
      ((pdats 17 c).share_full fun _ => by rw [hd c]; rfl) (VV17 Win c) fun w => by rw [hd c]; rfl
    rw [Pipeline.unscopedBufs_held, hd c] at hsplit
    rw [hd c]
    have hU := unscopedRest17_eq (VV17 Win) c (a 17).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi17_in (VV17 Win) (a 17) c
  hout c := by rw [hd c]; exact Phi17_out (VV17 Win) (a 17) c
  hexit c := by
    have hjoin := Pipeline.unscopedBufs_of_arrays (p := 17) (pcfgs (F := F)) a (Ix := Unit) (Name := ℕ) (U := UC) (Lvl := ℕ)
      (launch17 (F := F)).win (launch17 (F := F)).arr_whole c pdats ((pdats 17 c).share_full fun _ => by rw [hd c]; rfl)
      (VV17 Win c) (VV17 Wout c) ((pdats 17 c).arrAt · (cfg17 (a 17)).N) (fun w => by rw [hd c]; exact hF c w) (hrest c)
    rw [Pipeline.unscopedBufs_held, hd c] at hjoin
    rw [hd c]
    have hU := unscopedRest17_eq (VV17 Win) c (a 17).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg18.lean ====
/-
  One of the program's 25 gather launches (pipeline 18) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G18Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV18 (W : Dev nD → Valuation τ sig (Elt F)) : (c : Dev nD) → (b : Ref sig .tc) → Buf (Elt F) ((c : Thread nD τ).loc b) := fun c b => W c b

/-- The operand the body copies from by itself, as a reference: unscoped, no window's array, no table. -/
def H18 : Finset (Ref sig .tc) := {main_arg0}
theorem H18_sub : H18 ⊆ Pipeline.restRefsP sig pre18 spec18 := by decide
/-- Its points-to, listed. -/
theorem hbmPts18_eq (V : (c : Dev nD) → (b : Ref sig .tc) → Buf (Elt F) ((c : Thread nD τ).loc b)) (c : Dev nD) :
    (bigSep H18 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest18_eq (V : (c : Dev nD) → (b : Ref sig .tc) → Buf (Elt F) ((c : Thread nD τ).loc b)) (c : Dev nD)
    (pf : pre18.Contents (Elt F)) (hpf : pf = fun k => V c (pre18.ref k)) :
    (Pipeline.unscopedRest (Ix := Unit) (Name := ℕ) (U := UC) (Lvl := ℕ) spec18 c (V c) : sProp 𝕄)
      = iprop(Pipeline.prefHeld pre18 c (fun _ => fullShare) pf
          ∗ (((c : Thread nD τ).loc main_arg0) ↦{fullShare} V c main_arg0)
          ∗ bigSep (Pipeline.restRefsP sig pre18 spec18 \ H18) fun b => ((c : Thread nD τ).loc b) ↦{fullShare} V c b) := by
  subst hpf
  rw [Pipeline.unscopedRest_split preFacts18 c (V c)]
  unfold Pipeline.unscopedRestP
  rw [BI.bigSep_sdiff_split H18_sub, hbmPts18_eq]
  rfl

-- the segment's fields are stated over the pinned configuration `pin pcfgs a 18`; meeting them with `cfg18 (a 18)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg18 (hd : ∀ c, pdats 18 c = dat18 (VV18 Win) (a 18) c)
    (hF : ∀ c w, (dat18 (VV18 Win) (a 18) c).arrAt w (cfg18 (a 18)).N = Wout c (Pipeline.arrRef spec18 w))
    (hrest : ∀ c (b : Ref sig .tc), b ∉ Finset.univ.image (Pipeline.arrRef spec18) → Wout c b = Win c b)
    (htab : ∀ c, (a 18).1 = fun k => Win c (pre18.ref k))
    (hrange : InRange18 (a 18).1) :
    Pipeline.RegionSeg (pcfgs (F := F)) a pdats () defs₀ 𝒱₀ L lv 18 where
  win := (launch18 (F := F)).win.to₀
  block_pos := (launch18 (F := F)).block_pos
  stage_whole := (launch18 (F := F)).stage_whole
  K := Fin 16
  osem := osem18
  ho := ownSemFacts18
  hbody c := by rw [hd c]; exact (body_obligation18 (VV18 Win) (a 18) hrange c).loose
  hwaits := Pipeline.hwaits_of_owed_zero (pcfgs (F := F)) a pdats () L lv 18 fun c t => by rw [hd c]; rfl
  pre c := T (Win c) c
  post c := T (Wout c) c
  X c := X18 (VV18 Win) c
  Y c := Y18 (VV18 Win) (a 18) c
  Z c := bigSep (Pipeline.restRefsP sig pre18 spec18 \ H18) fun b => ((c : Thread nD τ).loc b) ↦{fullShare} VV18 Win c b
  hentry c := by
    have hsplit := Pipeline.arrays_of_unscopedBufs (p := 18) (pcfgs (F := F)) a pdats (launch18 (F := F)).win (launch18 (F := F)).arr_whole c
      ((pdats 18 c).share_full fun _ => by rw [hd c]; rfl) (VV18 Win c) fun w => by rw [hd c]; rfl
    rw [Pipeline.unscopedBufs_held, hd c] at hsplit
    rw [hd c]
    have hU := unscopedRest18_eq (VV18 Win) c (a 18).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi18_in (VV18 Win) (a 18) c
  hout c := by rw [hd c]; exact Phi18_out (VV18 Win) (a 18) c
  hexit c := by
    have hjoin := Pipeline.unscopedBufs_of_arrays (p := 18) (pcfgs (F := F)) a (Ix := Unit) (Name := ℕ) (U := UC) (Lvl := ℕ)
      (launch18 (F := F)).win (launch18 (F := F)).arr_whole c pdats ((pdats 18 c).share_full fun _ => by rw [hd c]; rfl)
      (VV18 Win c) (VV18 Wout c) ((pdats 18 c).arrAt · (cfg18 (a 18)).N) (fun w => by rw [hd c]; exact hF c w) (hrest c)
    rw [Pipeline.unscopedBufs_held, hd c] at hjoin
    rw [hd c]
    have hU := unscopedRest18_eq (VV18 Win) c (a 18).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg19.lean ====
/-
  One of the program's 25 gather launches (pipeline 19) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G19Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV19 (W : Dev nD → Valuation τ sig (Elt F)) : (c : Dev nD) → (b : Ref sig .tc) → Buf (Elt F) ((c : Thread nD τ).loc b) := fun c b => W c b

/-- The operand the body copies from by itself, as a reference: unscoped, no window's array, no table. -/
def H19 : Finset (Ref sig .tc) := {main_arg0}
theorem H19_sub : H19 ⊆ Pipeline.restRefsP sig pre19 spec19 := by decide
/-- Its points-to, listed. -/
theorem hbmPts19_eq (V : (c : Dev nD) → (b : Ref sig .tc) → Buf (Elt F) ((c : Thread nD τ).loc b)) (c : Dev nD) :
    (bigSep H19 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest19_eq (V : (c : Dev nD) → (b : Ref sig .tc) → Buf (Elt F) ((c : Thread nD τ).loc b)) (c : Dev nD)
    (pf : pre19.Contents (Elt F)) (hpf : pf = fun k => V c (pre19.ref k)) :
    (Pipeline.unscopedRest (Ix := Unit) (Name := ℕ) (U := UC) (Lvl := ℕ) spec19 c (V c) : sProp 𝕄)
      = iprop(Pipeline.prefHeld pre19 c (fun _ => fullShare) pf
          ∗ (((c : Thread nD τ).loc main_arg0) ↦{fullShare} V c main_arg0)
          ∗ bigSep (Pipeline.restRefsP sig pre19 spec19 \ H19) fun b => ((c : Thread nD τ).loc b) ↦{fullShare} V c b) := by
  subst hpf
  rw [Pipeline.unscopedRest_split preFacts19 c (V c)]
  unfold Pipeline.unscopedRestP
  rw [BI.bigSep_sdiff_split H19_sub, hbmPts19_eq]
  rfl

-- the segment's fields are stated over the pinned configuration `pin pcfgs a 19`; meeting them with `cfg19 (a 19)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg19 (hd : ∀ c, pdats 19 c = dat19 (VV19 Win) (a 19) c)
    (hF : ∀ c w, (dat19 (VV19 Win) (a 19) c).arrAt w (cfg19 (a 19)).N = Wout c (Pipeline.arrRef spec19 w))
    (hrest : ∀ c (b : Ref sig .tc), b ∉ Finset.univ.image (Pipeline.arrRef spec19) → Wout c b = Win c b)
    (htab : ∀ c, (a 19).1 = fun k => Win c (pre19.ref k))
    (hrange : InRange19 (a 19).1) :
    Pipeline.RegionSeg (pcfgs (F := F)) a pdats () defs₀ 𝒱₀ L lv 19 where
  win := (launch19 (F := F)).win.to₀
  block_pos := (launch19 (F := F)).block_pos
  stage_whole := (launch19 (F := F)).stage_whole
  K := Fin 16
  osem := osem19
  ho := ownSemFacts19
  hbody c := by rw [hd c]; exact (body_obligation19 (VV19 Win) (a 19) hrange c).loose
  hwaits := Pipeline.hwaits_of_owed_zero (pcfgs (F := F)) a pdats () L lv 19 fun c t => by rw [hd c]; rfl
  pre c := T (Win c) c
  post c := T (Wout c) c
  X c := X19 (VV19 Win) c
  Y c := Y19 (VV19 Win) (a 19) c
  Z c := bigSep (Pipeline.restRefsP sig pre19 spec19 \ H19) fun b => ((c : Thread nD τ).loc b) ↦{fullShare} VV19 Win c b
  hentry c := by
    have hsplit := Pipeline.arrays_of_unscopedBufs (p := 19) (pcfgs (F := F)) a pdats (launch19 (F := F)).win (launch19 (F := F)).arr_whole c
      ((pdats 19 c).share_full fun _ => by rw [hd c]; rfl) (VV19 Win c) fun w => by rw [hd c]; rfl
    rw [Pipeline.unscopedBufs_held, hd c] at hsplit
    rw [hd c]
    have hU := unscopedRest19_eq (VV19 Win) c (a 19).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi19_in (VV19 Win) (a 19) c
  hout c := by rw [hd c]; exact Phi19_out (VV19 Win) (a 19) c
  hexit c := by
    have hjoin := Pipeline.unscopedBufs_of_arrays (p := 19) (pcfgs (F := F)) a (Ix := Unit) (Name := ℕ) (U := UC) (Lvl := ℕ)
      (launch19 (F := F)).win (launch19 (F := F)).arr_whole c pdats ((pdats 19 c).share_full fun _ => by rw [hd c]; rfl)
      (VV19 Win c) (VV19 Wout c) ((pdats 19 c).arrAt · (cfg19 (a 19)).N) (fun w => by rw [hd c]; exact hF c w) (hrest c)
    rw [Pipeline.unscopedBufs_held, hd c] at hjoin
    rw [hd c]
    have hU := unscopedRest19_eq (VV19 Win) c (a 19).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg20.lean ====
/-
  One of the program's 25 gather launches (pipeline 20) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G20Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV20 (W : Dev nD → Valuation τ sig (Elt F)) : (c : Dev nD) → (b : Ref sig .tc) → Buf (Elt F) ((c : Thread nD τ).loc b) := fun c b => W c b

/-- The operand the body copies from by itself, as a reference: unscoped, no window's array, no table. -/
def H20 : Finset (Ref sig .tc) := {main_arg0}
theorem H20_sub : H20 ⊆ Pipeline.restRefsP sig pre20 spec20 := by decide
/-- Its points-to, listed. -/
theorem hbmPts20_eq (V : (c : Dev nD) → (b : Ref sig .tc) → Buf (Elt F) ((c : Thread nD τ).loc b)) (c : Dev nD) :
    (bigSep H20 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest20_eq (V : (c : Dev nD) → (b : Ref sig .tc) → Buf (Elt F) ((c : Thread nD τ).loc b)) (c : Dev nD)
    (pf : pre20.Contents (Elt F)) (hpf : pf = fun k => V c (pre20.ref k)) :
    (Pipeline.unscopedRest (Ix := Unit) (Name := ℕ) (U := UC) (Lvl := ℕ) spec20 c (V c) : sProp 𝕄)
      = iprop(Pipeline.prefHeld pre20 c (fun _ => fullShare) pf
          ∗ (((c : Thread nD τ).loc main_arg0) ↦{fullShare} V c main_arg0)
          ∗ bigSep (Pipeline.restRefsP sig pre20 spec20 \ H20) fun b => ((c : Thread nD τ).loc b) ↦{fullShare} V c b) := by
  subst hpf
  rw [Pipeline.unscopedRest_split preFacts20 c (V c)]
  unfold Pipeline.unscopedRestP
  rw [BI.bigSep_sdiff_split H20_sub, hbmPts20_eq]
  rfl

-- the segment's fields are stated over the pinned configuration `pin pcfgs a 20`; meeting them with `cfg20 (a 20)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg20 (hd : ∀ c, pdats 20 c = dat20 (VV20 Win) (a 20) c)
    (hF : ∀ c w, (dat20 (VV20 Win) (a 20) c).arrAt w (cfg20 (a 20)).N = Wout c (Pipeline.arrRef spec20 w))
    (hrest : ∀ c (b : Ref sig .tc), b ∉ Finset.univ.image (Pipeline.arrRef spec20) → Wout c b = Win c b)
    (htab : ∀ c, (a 20).1 = fun k => Win c (pre20.ref k))
    (hrange : InRange20 (a 20).1) :
    Pipeline.RegionSeg (pcfgs (F := F)) a pdats () defs₀ 𝒱₀ L lv 20 where
  win := (launch20 (F := F)).win.to₀
  block_pos := (launch20 (F := F)).block_pos
  stage_whole := (launch20 (F := F)).stage_whole
  K := Fin 16
  osem := osem20
  ho := ownSemFacts20
  hbody c := by rw [hd c]; exact (body_obligation20 (VV20 Win) (a 20) hrange c).loose
  hwaits := Pipeline.hwaits_of_owed_zero (pcfgs (F := F)) a pdats () L lv 20 fun c t => by rw [hd c]; rfl
  pre c := T (Win c) c
  post c := T (Wout c) c
  X c := X20 (VV20 Win) c
  Y c := Y20 (VV20 Win) (a 20) c
  Z c := bigSep (Pipeline.restRefsP sig pre20 spec20 \ H20) fun b => ((c : Thread nD τ).loc b) ↦{fullShare} VV20 Win c b
  hentry c := by
    have hsplit := Pipeline.arrays_of_unscopedBufs (p := 20) (pcfgs (F := F)) a pdats (launch20 (F := F)).win (launch20 (F := F)).arr_whole c
      ((pdats 20 c).share_full fun _ => by rw [hd c]; rfl) (VV20 Win c) fun w => by rw [hd c]; rfl
    rw [Pipeline.unscopedBufs_held, hd c] at hsplit
    rw [hd c]
    have hU := unscopedRest20_eq (VV20 Win) c (a 20).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi20_in (VV20 Win) (a 20) c
  hout c := by rw [hd c]; exact Phi20_out (VV20 Win) (a 20) c
  hexit c := by
    have hjoin := Pipeline.unscopedBufs_of_arrays (p := 20) (pcfgs (F := F)) a (Ix := Unit) (Name := ℕ) (U := UC) (Lvl := ℕ)
      (launch20 (F := F)).win (launch20 (F := F)).arr_whole c pdats ((pdats 20 c).share_full fun _ => by rw [hd c]; rfl)
      (VV20 Win c) (VV20 Wout c) ((pdats 20 c).arrAt · (cfg20 (a 20)).N) (fun w => by rw [hd c]; exact hF c w) (hrest c)
    rw [Pipeline.unscopedBufs_held, hd c] at hjoin
    rw [hd c]
    have hU := unscopedRest20_eq (VV20 Win) c (a 20).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg21.lean ====
/-
  One of the program's 25 gather launches (pipeline 21) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G21Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV21 (W : Dev nD → Valuation τ sig (Elt F)) : (c : Dev nD) → (b : Ref sig .tc) → Buf (Elt F) ((c : Thread nD τ).loc b) := fun c b => W c b

/-- The operand the body copies from by itself, as a reference: unscoped, no window's array, no table. -/
def H21 : Finset (Ref sig .tc) := {main_arg0}
theorem H21_sub : H21 ⊆ Pipeline.restRefsP sig pre21 spec21 := by decide
/-- Its points-to, listed. -/
theorem hbmPts21_eq (V : (c : Dev nD) → (b : Ref sig .tc) → Buf (Elt F) ((c : Thread nD τ).loc b)) (c : Dev nD) :
    (bigSep H21 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest21_eq (V : (c : Dev nD) → (b : Ref sig .tc) → Buf (Elt F) ((c : Thread nD τ).loc b)) (c : Dev nD)
    (pf : pre21.Contents (Elt F)) (hpf : pf = fun k => V c (pre21.ref k)) :
    (Pipeline.unscopedRest (Ix := Unit) (Name := ℕ) (U := UC) (Lvl := ℕ) spec21 c (V c) : sProp 𝕄)
      = iprop(Pipeline.prefHeld pre21 c (fun _ => fullShare) pf
          ∗ (((c : Thread nD τ).loc main_arg0) ↦{fullShare} V c main_arg0)
          ∗ bigSep (Pipeline.restRefsP sig pre21 spec21 \ H21) fun b => ((c : Thread nD τ).loc b) ↦{fullShare} V c b) := by
  subst hpf
  rw [Pipeline.unscopedRest_split preFacts21 c (V c)]
  unfold Pipeline.unscopedRestP
  rw [BI.bigSep_sdiff_split H21_sub, hbmPts21_eq]
  rfl

-- the segment's fields are stated over the pinned configuration `pin pcfgs a 21`; meeting them with `cfg21 (a 21)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg21 (hd : ∀ c, pdats 21 c = dat21 (VV21 Win) (a 21) c)
    (hF : ∀ c w, (dat21 (VV21 Win) (a 21) c).arrAt w (cfg21 (a 21)).N = Wout c (Pipeline.arrRef spec21 w))
    (hrest : ∀ c (b : Ref sig .tc), b ∉ Finset.univ.image (Pipeline.arrRef spec21) → Wout c b = Win c b)
    (htab : ∀ c, (a 21).1 = fun k => Win c (pre21.ref k))
    (hrange : InRange21 (a 21).1) :
    Pipeline.RegionSeg (pcfgs (F := F)) a pdats () defs₀ 𝒱₀ L lv 21 where
  win := (launch21 (F := F)).win.to₀
  block_pos := (launch21 (F := F)).block_pos
  stage_whole := (launch21 (F := F)).stage_whole
  K := Fin 16
  osem := osem21
  ho := ownSemFacts21
  hbody c := by rw [hd c]; exact (body_obligation21 (VV21 Win) (a 21) hrange c).loose
  hwaits := Pipeline.hwaits_of_owed_zero (pcfgs (F := F)) a pdats () L lv 21 fun c t => by rw [hd c]; rfl
  pre c := T (Win c) c
  post c := T (Wout c) c
  X c := X21 (VV21 Win) c
  Y c := Y21 (VV21 Win) (a 21) c
  Z c := bigSep (Pipeline.restRefsP sig pre21 spec21 \ H21) fun b => ((c : Thread nD τ).loc b) ↦{fullShare} VV21 Win c b
  hentry c := by
    have hsplit := Pipeline.arrays_of_unscopedBufs (p := 21) (pcfgs (F := F)) a pdats (launch21 (F := F)).win (launch21 (F := F)).arr_whole c
      ((pdats 21 c).share_full fun _ => by rw [hd c]; rfl) (VV21 Win c) fun w => by rw [hd c]; rfl
    rw [Pipeline.unscopedBufs_held, hd c] at hsplit
    rw [hd c]
    have hU := unscopedRest21_eq (VV21 Win) c (a 21).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi21_in (VV21 Win) (a 21) c
  hout c := by rw [hd c]; exact Phi21_out (VV21 Win) (a 21) c
  hexit c := by
    have hjoin := Pipeline.unscopedBufs_of_arrays (p := 21) (pcfgs (F := F)) a (Ix := Unit) (Name := ℕ) (U := UC) (Lvl := ℕ)
      (launch21 (F := F)).win (launch21 (F := F)).arr_whole c pdats ((pdats 21 c).share_full fun _ => by rw [hd c]; rfl)
      (VV21 Win c) (VV21 Wout c) ((pdats 21 c).arrAt · (cfg21 (a 21)).N) (fun w => by rw [hd c]; exact hF c w) (hrest c)
    rw [Pipeline.unscopedBufs_held, hd c] at hjoin
    rw [hd c]
    have hU := unscopedRest21_eq (VV21 Win) c (a 21).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg22.lean ====
/-
  One of the program's 25 gather launches (pipeline 22) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G22Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV22 (W : Dev nD → Valuation τ sig (Elt F)) : (c : Dev nD) → (b : Ref sig .tc) → Buf (Elt F) ((c : Thread nD τ).loc b) := fun c b => W c b

/-- The operand the body copies from by itself, as a reference: unscoped, no window's array, no table. -/
def H22 : Finset (Ref sig .tc) := {main_arg0}
theorem H22_sub : H22 ⊆ Pipeline.restRefsP sig pre22 spec22 := by decide
/-- Its points-to, listed. -/
theorem hbmPts22_eq (V : (c : Dev nD) → (b : Ref sig .tc) → Buf (Elt F) ((c : Thread nD τ).loc b)) (c : Dev nD) :
    (bigSep H22 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest22_eq (V : (c : Dev nD) → (b : Ref sig .tc) → Buf (Elt F) ((c : Thread nD τ).loc b)) (c : Dev nD)
    (pf : pre22.Contents (Elt F)) (hpf : pf = fun k => V c (pre22.ref k)) :
    (Pipeline.unscopedRest (Ix := Unit) (Name := ℕ) (U := UC) (Lvl := ℕ) spec22 c (V c) : sProp 𝕄)
      = iprop(Pipeline.prefHeld pre22 c (fun _ => fullShare) pf
          ∗ (((c : Thread nD τ).loc main_arg0) ↦{fullShare} V c main_arg0)
          ∗ bigSep (Pipeline.restRefsP sig pre22 spec22 \ H22) fun b => ((c : Thread nD τ).loc b) ↦{fullShare} V c b) := by
  subst hpf
  rw [Pipeline.unscopedRest_split preFacts22 c (V c)]
  unfold Pipeline.unscopedRestP
  rw [BI.bigSep_sdiff_split H22_sub, hbmPts22_eq]
  rfl

-- the segment's fields are stated over the pinned configuration `pin pcfgs a 22`; meeting them with `cfg22 (a 22)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg22 (hd : ∀ c, pdats 22 c = dat22 (VV22 Win) (a 22) c)
    (hF : ∀ c w, (dat22 (VV22 Win) (a 22) c).arrAt w (cfg22 (a 22)).N = Wout c (Pipeline.arrRef spec22 w))
    (hrest : ∀ c (b : Ref sig .tc), b ∉ Finset.univ.image (Pipeline.arrRef spec22) → Wout c b = Win c b)
    (htab : ∀ c, (a 22).1 = fun k => Win c (pre22.ref k))
    (hrange : InRange22 (a 22).1) :
    Pipeline.RegionSeg (pcfgs (F := F)) a pdats () defs₀ 𝒱₀ L lv 22 where
  win := (launch22 (F := F)).win.to₀
  block_pos := (launch22 (F := F)).block_pos
  stage_whole := (launch22 (F := F)).stage_whole
  K := Fin 16
  osem := osem22
  ho := ownSemFacts22
  hbody c := by rw [hd c]; exact (body_obligation22 (VV22 Win) (a 22) hrange c).loose
  hwaits := Pipeline.hwaits_of_owed_zero (pcfgs (F := F)) a pdats () L lv 22 fun c t => by rw [hd c]; rfl
  pre c := T (Win c) c
  post c := T (Wout c) c
  X c := X22 (VV22 Win) c
  Y c := Y22 (VV22 Win) (a 22) c
  Z c := bigSep (Pipeline.restRefsP sig pre22 spec22 \ H22) fun b => ((c : Thread nD τ).loc b) ↦{fullShare} VV22 Win c b
  hentry c := by
    have hsplit := Pipeline.arrays_of_unscopedBufs (p := 22) (pcfgs (F := F)) a pdats (launch22 (F := F)).win (launch22 (F := F)).arr_whole c
      ((pdats 22 c).share_full fun _ => by rw [hd c]; rfl) (VV22 Win c) fun w => by rw [hd c]; rfl
    rw [Pipeline.unscopedBufs_held, hd c] at hsplit
    rw [hd c]
    have hU := unscopedRest22_eq (VV22 Win) c (a 22).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi22_in (VV22 Win) (a 22) c
  hout c := by rw [hd c]; exact Phi22_out (VV22 Win) (a 22) c
  hexit c := by
    have hjoin := Pipeline.unscopedBufs_of_arrays (p := 22) (pcfgs (F := F)) a (Ix := Unit) (Name := ℕ) (U := UC) (Lvl := ℕ)
      (launch22 (F := F)).win (launch22 (F := F)).arr_whole c pdats ((pdats 22 c).share_full fun _ => by rw [hd c]; rfl)
      (VV22 Win c) (VV22 Wout c) ((pdats 22 c).arrAt · (cfg22 (a 22)).N) (fun w => by rw [hd c]; exact hF c w) (hrest c)
    rw [Pipeline.unscopedBufs_held, hd c] at hjoin
    rw [hd c]
    have hU := unscopedRest22_eq (VV22 Win) c (a 22).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg23.lean ====
/-
  One of the program's 25 gather launches (pipeline 23) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G23Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV23 (W : Dev nD → Valuation τ sig (Elt F)) : (c : Dev nD) → (b : Ref sig .tc) → Buf (Elt F) ((c : Thread nD τ).loc b) := fun c b => W c b

/-- The operand the body copies from by itself, as a reference: unscoped, no window's array, no table. -/
def H23 : Finset (Ref sig .tc) := {main_arg0}
theorem H23_sub : H23 ⊆ Pipeline.restRefsP sig pre23 spec23 := by decide
/-- Its points-to, listed. -/
theorem hbmPts23_eq (V : (c : Dev nD) → (b : Ref sig .tc) → Buf (Elt F) ((c : Thread nD τ).loc b)) (c : Dev nD) :
    (bigSep H23 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest23_eq (V : (c : Dev nD) → (b : Ref sig .tc) → Buf (Elt F) ((c : Thread nD τ).loc b)) (c : Dev nD)
    (pf : pre23.Contents (Elt F)) (hpf : pf = fun k => V c (pre23.ref k)) :
    (Pipeline.unscopedRest (Ix := Unit) (Name := ℕ) (U := UC) (Lvl := ℕ) spec23 c (V c) : sProp 𝕄)
      = iprop(Pipeline.prefHeld pre23 c (fun _ => fullShare) pf
          ∗ (((c : Thread nD τ).loc main_arg0) ↦{fullShare} V c main_arg0)
          ∗ bigSep (Pipeline.restRefsP sig pre23 spec23 \ H23) fun b => ((c : Thread nD τ).loc b) ↦{fullShare} V c b) := by
  subst hpf
  rw [Pipeline.unscopedRest_split preFacts23 c (V c)]
  unfold Pipeline.unscopedRestP
  rw [BI.bigSep_sdiff_split H23_sub, hbmPts23_eq]
  rfl

-- the segment's fields are stated over the pinned configuration `pin pcfgs a 23`; meeting them with `cfg23 (a 23)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg23 (hd : ∀ c, pdats 23 c = dat23 (VV23 Win) (a 23) c)
    (hF : ∀ c w, (dat23 (VV23 Win) (a 23) c).arrAt w (cfg23 (a 23)).N = Wout c (Pipeline.arrRef spec23 w))
    (hrest : ∀ c (b : Ref sig .tc), b ∉ Finset.univ.image (Pipeline.arrRef spec23) → Wout c b = Win c b)
    (htab : ∀ c, (a 23).1 = fun k => Win c (pre23.ref k))
    (hrange : InRange23 (a 23).1) :
    Pipeline.RegionSeg (pcfgs (F := F)) a pdats () defs₀ 𝒱₀ L lv 23 where
  win := (launch23 (F := F)).win.to₀
  block_pos := (launch23 (F := F)).block_pos
  stage_whole := (launch23 (F := F)).stage_whole
  K := Fin 16
  osem := osem23
  ho := ownSemFacts23
  hbody c := by rw [hd c]; exact (body_obligation23 (VV23 Win) (a 23) hrange c).loose
  hwaits := Pipeline.hwaits_of_owed_zero (pcfgs (F := F)) a pdats () L lv 23 fun c t => by rw [hd c]; rfl
  pre c := T (Win c) c
  post c := T (Wout c) c
  X c := X23 (VV23 Win) c
  Y c := Y23 (VV23 Win) (a 23) c
  Z c := bigSep (Pipeline.restRefsP sig pre23 spec23 \ H23) fun b => ((c : Thread nD τ).loc b) ↦{fullShare} VV23 Win c b
  hentry c := by
    have hsplit := Pipeline.arrays_of_unscopedBufs (p := 23) (pcfgs (F := F)) a pdats (launch23 (F := F)).win (launch23 (F := F)).arr_whole c
      ((pdats 23 c).share_full fun _ => by rw [hd c]; rfl) (VV23 Win c) fun w => by rw [hd c]; rfl
    rw [Pipeline.unscopedBufs_held, hd c] at hsplit
    rw [hd c]
    have hU := unscopedRest23_eq (VV23 Win) c (a 23).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi23_in (VV23 Win) (a 23) c
  hout c := by rw [hd c]; exact Phi23_out (VV23 Win) (a 23) c
  hexit c := by
    have hjoin := Pipeline.unscopedBufs_of_arrays (p := 23) (pcfgs (F := F)) a (Ix := Unit) (Name := ℕ) (U := UC) (Lvl := ℕ)
      (launch23 (F := F)).win (launch23 (F := F)).arr_whole c pdats ((pdats 23 c).share_full fun _ => by rw [hd c]; rfl)
      (VV23 Win c) (VV23 Wout c) ((pdats 23 c).arrAt · (cfg23 (a 23)).N) (fun w => by rw [hd c]; exact hF c w) (hrest c)
    rw [Pipeline.unscopedBufs_held, hd c] at hjoin
    rw [hd c]
    have hU := unscopedRest23_eq (VV23 Win) c (a 23).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg24.lean ====
/-
  One of the program's 25 gather launches (pipeline 24) as a segment of the program's run: between two boundaries of the program the thread state is "every unscoped buffer of the
  core at the boundary's contents, the generator register at some state, nothing owed". The launch's entry takes its two
  windows' arrays, its table and the feature array out of the unscoped buffers; the exit puts them back, the output array
  at what the pipeline's write-backs left. The table's contents are the boundary's, and every word of it names a row of
  the feature array: the two facts the program's run supplies.
-/
import proofs.«403631_j48275432407145_1_alg».proof.Proof.KB.G24Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Seg
variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- A boundary's contents read at the TensorCore's references. -/
abbrev VV24 (W : Dev nD → Valuation τ sig (Elt F)) : (c : Dev nD) → (b : Ref sig .tc) → Buf (Elt F) ((c : Thread nD τ).loc b) := fun c b => W c b

/-- The operand the body copies from by itself, as a reference: unscoped, no window's array, no table. -/
def H24 : Finset (Ref sig .tc) := {main_arg0}
theorem H24_sub : H24 ⊆ Pipeline.restRefsP sig pre24 spec24 := by decide
/-- Its points-to, listed. -/
theorem hbmPts24_eq (V : (c : Dev nD) → (b : Ref sig .tc) → Buf (Elt F) ((c : Thread nD τ).loc b)) (c : Dev nD) :
    (bigSep H24 (fun b => ((c : Thread nD τ).loc b) ↦{fullShare} V c b) : sProp 𝕄) = (((c : Thread nD τ).loc main_arg0) ↦{fullShare} V c main_arg0) := by
  rw [BI.bigSep_eq_bigSepL_of_eq [main_arg0] (by decide) (by decide)]; rfl

/-- The unscoped buffers that are no window's array: the table, the feature array, and the rest. -/
theorem unscopedRest24_eq (V : (c : Dev nD) → (b : Ref sig .tc) → Buf (Elt F) ((c : Thread nD τ).loc b)) (c : Dev nD)
    (pf : pre24.Contents (Elt F)) (hpf : pf = fun k => V c (pre24.ref k)) :
    (Pipeline.unscopedRest (Ix := Unit) (Name := ℕ) (U := UC) (Lvl := ℕ) spec24 c (V c) : sProp 𝕄)
      = iprop(Pipeline.prefHeld pre24 c (fun _ => fullShare) pf
          ∗ (((c : Thread nD τ).loc main_arg0) ↦{fullShare} V c main_arg0)
          ∗ bigSep (Pipeline.restRefsP sig pre24 spec24 \ H24) fun b => ((c : Thread nD τ).loc b) ↦{fullShare} V c b) := by
  subst hpf
  rw [Pipeline.unscopedRest_split preFacts24 c (V c)]
  unfold Pipeline.unscopedRestP
  rw [BI.bigSep_sdiff_split H24_sub, hbmPts24_eq]
  rfl

-- the segment's fields are stated over the pinned configuration `pin pcfgs a 24`; meeting them with `cfg24 (a 24)` takes
-- unfolding definitions inside a metavariable's type
set_option backward.isDefEq.respectTransparency.types false in
/-- THE LAUNCH over the thread state: entered from every unscoped buffer at `Win`, left at `Wout`. Its arrays split out
    of the unscoped buffers and put back at the exit contents; the table held for the region and returned; the feature
    array, the generator register and the body's own cells into the invariant and out; nothing owed. -/
def reg24 (hd : ∀ c, pdats 24 c = dat24 (VV24 Win) (a 24) c)
    (hF : ∀ c w, (dat24 (VV24 Win) (a 24) c).arrAt w (cfg24 (a 24)).N = Wout c (Pipeline.arrRef spec24 w))
    (hrest : ∀ c (b : Ref sig .tc), b ∉ Finset.univ.image (Pipeline.arrRef spec24) → Wout c b = Win c b)
    (htab : ∀ c, (a 24).1 = fun k => Win c (pre24.ref k))
    (hrange : InRange24 (a 24).1) :
    Pipeline.RegionSeg (pcfgs (F := F)) a pdats () defs₀ 𝒱₀ L lv 24 where
  win := (launch24 (F := F)).win.to₀
  block_pos := (launch24 (F := F)).block_pos
  stage_whole := (launch24 (F := F)).stage_whole
  K := Fin 16
  osem := osem24
  ho := ownSemFacts24
  hbody c := by rw [hd c]; exact (body_obligation24 (VV24 Win) (a 24) hrange c).loose
  hwaits := Pipeline.hwaits_of_owed_zero (pcfgs (F := F)) a pdats () L lv 24 fun c t => by rw [hd c]; rfl
  pre c := T (Win c) c
  post c := T (Wout c) c
  X c := X24 (VV24 Win) c
  Y c := Y24 (VV24 Win) (a 24) c
  Z c := bigSep (Pipeline.restRefsP sig pre24 spec24 \ H24) fun b => ((c : Thread nD τ).loc b) ↦{fullShare} VV24 Win c b
  hentry c := by
    have hsplit := Pipeline.arrays_of_unscopedBufs (p := 24) (pcfgs (F := F)) a pdats (launch24 (F := F)).win (launch24 (F := F)).arr_whole c
      ((pdats 24 c).share_full fun _ => by rw [hd c]; rfl) (VV24 Win c) fun w => by rw [hd c]; rfl
    rw [Pipeline.unscopedBufs_held, hd c] at hsplit
    rw [hd c]
    have hU := unscopedRest24_eq (VV24 Win) c (a 24).1 (htab c)
    iintro ⟨⟨Hub, Hp, HO⟩, Hos, -⟩
    ihave H := hsplit $$ Hub
    icases H with ⟨Ha, Hrest⟩
    ihave H' := (Entails.of_eq hU) $$ Hrest
    icases H' with ⟨Htb, Hhb, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos Hhb]
    · isplitl [Hp]; · iexact Hp
      isplitl [Hos]; · iexact Hos
      iexact Hhb
    iexact HR
  hin c := by rw [hd c]; exact Phi24_in (VV24 Win) (a 24) c
  hout c := by rw [hd c]; exact Phi24_out (VV24 Win) (a 24) c
  hexit c := by
    have hjoin := Pipeline.unscopedBufs_of_arrays (p := 24) (pcfgs (F := F)) a (Ix := Unit) (Name := ℕ) (U := UC) (Lvl := ℕ)
      (launch24 (F := F)).win (launch24 (F := F)).arr_whole c pdats ((pdats 24 c).share_full fun _ => by rw [hd c]; rfl)
      (VV24 Win c) (VV24 Wout c) ((pdats 24 c).arrAt · (cfg24 (a 24)).N) (fun w => by rw [hd c]; exact hF c w) (hrest c)
    rw [Pipeline.unscopedBufs_held, hd c] at hjoin
    rw [hd c]
    have hU := unscopedRest24_eq (VV24 Win) c (a 24).1 (htab c)
    iintro ⟨Ha, HO, ⟨Hp, Hhb, Htb⟩, HR⟩
    ihave Hrest := (Entails.of_eq hU.symm) $$ [Htb Hhb HR]
    · isplitl [Htb]; · iexact Htb
      isplitl [Hhb]; · iexact Hhb
      iexact HR
    imodintro
    isplitl [Ha Hrest]
    · iapply hjoin
      isplitl [Ha] <;> iassumption
    isplitl [Hp]; · iexact Hp
    unfold Pipeline.Dat.owesAt Pipeline.owesWithin
    icases HO with ⟨%W, -, HO⟩; iexists W; iexact HO

end Seg

end Cert.Kernel.Hand

end
-- ==== Proof.KB.Seg25.lean ====
/-
  The statistics pipeline (the program's twenty-sixth pallas_call) as a region of @main between two thread states, at any
  float instance: entered from every unscoped buffer of the core at contents `Win` beside the generator register and the
  core owing nothing, left at contents `Wout` beside the same. The region's protocol is proved once, as named entailments
  about the pipeline's proof data `dat25` at the entry contents — the core's owing nothing carried into and out of the
  pipeline's bound, no table to hold, the activations and the statistics array taken out of the unscoped buffers and put
  back at the exit contents — and the record is assembled from them. The contents on either side, the tables of the other
  pipelines and the proof-data family are parameters: the family is tied to `dat25` by a hypothesis its definition
  discharges by reflexivity, the exit contents by the two facts that define them (the statistics array at what the
  pipeline leaves, every other buffer as entered).
-/
import proofs.«403631_j48275432407145_1_alg».proof.Proof.KB.G25Dat
import Idealize.ShloMosaic.Lib.Pipeline.RegionsLoop
import Idealize.ShloMosaic.Lib.Pipeline.FrameSuffix

-- membership in a rectangle of the row blocks' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

section Region

variable (a : (p : Fin 27) → (pcfgs (F := F) p).Adm)
  (pdats : (p : Fin 27) → (c : Dev nD) → Dat τ (Elt F) Unit ℕ UC ℕ (Pipeline.pin (pcfgs (F := F)) a p) c)
  (Win Wout : Dev nD → Valuation τ sig (Elt F))

/-- The entry contents read at the TensorCore's references (what the proof data take). -/
abbrev Vin25 : (c : Dev nD) → (b : Ref sig .tc) → Buf (Elt F) ((c : Thread nD τ).loc b) := fun c b => Win c b
/-- The exit contents read at the TensorCore's references. -/
abbrev Vout25 : (c : Dev nD) → (b : Ref sig .tc) → Buf (Elt F) ((c : Thread nD τ).loc b) := fun c b => Wout c b

/-! ## The core owes nothing, before, through and after the region -/

/-- A core owing nothing, whatever pairs its waits recorded, owes nothing within the statistics pipeline's bound at any
    point: the proof data owe nothing and bound nothing. -/
theorem owesAt25_of_owes (c : Dev nD) (t : Fin (cfg25.N + 1)) :
    (iprop(∃ W, owes (c : Thread nD τ) (0 : CellTallies nD τ sig Unit) W) : sProp 𝕄) ⊢ (dat25 (Vin25 Win) c).owesAt () t := by
  iintro ⟨%W, H⟩
  iexists W
  isplitr
  · ipureintro; exact fun _ _ => Or.inl trivial
  · iexact H

/-- and back: the bound is forgotten. -/
theorem owes_of_owesAt25 (c : Dev nD) (t : Fin (cfg25.N + 1)) :
    (dat25 (Vin25 Win) c).owesAt () t ⊢ (iprop(∃ W, owes (c : Thread nD τ) (0 : CellTallies nD τ sig Unit) W) : sProp 𝕄) := by
  iintro ⟨%W, -, H⟩
  iexists W
  iexact H

/-! ## The two arrays out of the unscoped buffers, and back -/

variable {a pdats Win Wout}

/-- The pipeline prefetches no table: nothing is held of any. -/
theorem noTables25 (c : Dev nD) :
    (BI.emp : sProp 𝕄) ⊢ Pipeline.prefHeld (Ix := Unit) (Name := ℕ) (U := UC) (Lvl := ℕ) (pcfgs (F := F) 25).pre c (fun _ => fullShare) (a 25).1 := by
  unfold Pipeline.prefHeld
  rw [show (Finset.univ : Finset (Fin 0)) = ∅ from rfl, BI.bigSep_empty]

/-- ENTRY, the buffers: the activations and the statistics array are two distinct whole unscoped buffers, held at the full
    share; so the unscoped buffers at the entry contents are those two arrays at the proof data's entry contents beside
    every other unscoped buffer as it was. -/
theorem split25 (hd : ∀ c, pdats 25 c = dat25 (Vin25 Win) c) (c : Dev nD) :
    (StableHlo.held (c : Thread nD τ) (Pipeline.ucRefs τ sig) (Win c) : sProp 𝕄)
      ⊢ iprop((pdats 25 c).arrays ((pdats 25 c).arrAt · 0)
          ∗ Pipeline.unscopedRest (Ix := Unit) (Name := ℕ) (U := UC) (Lvl := ℕ) spec25 c (Vin25 Win c)) := by
  have h := Pipeline.arrays_of_unscopedBufs (p := 25) (pcfgs (F := F)) a pdats (launch25 (F := F)).win (launch25 (F := F)).arr_whole c
    (fun w => by rw [hd c]; exact (dat25 (Vin25 Win) c).share_full (fun _ => rfl) w) (Vin25 Win c)
    (fun w => by rw [hd c]; exact A_eq25 (Vin25 Win) c w)
  rwa [Pipeline.unscopedBufs_held] at h

/-- EXIT, the buffers: the two arrays at what the pipeline leaves — the exit contents' (`hF`) — beside every other
    unscoped buffer as it was — the exit contents' again (`hrest`) — are the unscoped buffers at the exit contents. -/
theorem join25 (hd : ∀ c, pdats 25 c = dat25 (Vin25 Win) c)
    (hF : ∀ c (w : Fin cfg25.W), (dat25 (Vin25 Win) c).arrAt w cfg25.N = Vout25 Wout c (Pipeline.arrRef spec25 w))
    (hrest : ∀ c b, b ∉ Finset.univ.image (Pipeline.arrRef spec25) → Vout25 Wout c b = Vin25 Win c b) (c : Dev nD) :
    iprop((pdats 25 c).arrays ((pdats 25 c).arrAt · cfg25.N)
        ∗ Pipeline.unscopedRest (Ix := Unit) (Name := ℕ) (U := UC) (Lvl := ℕ) spec25 c (Vin25 Win c))
      ⊢ (StableHlo.held (c : Thread nD τ) (Pipeline.ucRefs τ sig) (Wout c) : sProp 𝕄) := by
  have h := Pipeline.unscopedBufs_of_arrays (p := 25) (pcfgs (F := F)) a (Ix := Unit) (Name := ℕ) (U := UC) (Lvl := ℕ)
    (launch25 (F := F)).win (launch25 (F := F)).arr_whole c pdats (fun w => by rw [hd c]; exact (dat25 (Vin25 Win) c).share_full (fun _ => rfl) w)
    (Vin25 Win c) (Vout25 Wout c) ((pdats 25 c).arrAt · cfg25.N) (fun w => by rw [hd c]; exact hF c w) (hrest c)
  rwa [Pipeline.unscopedBufs_held] at h

/-! ## The region -/

variable (a pdats Win Wout)

-- a library lemma stated over the pinned configuration unifies with the printed one only when unification may unfold
-- plain definitions in a metavariable's type
set_option backward.isDefEq.respectTransparency.types false in
/-- THE STATISTICS REGION over the thread state: entered from every unscoped buffer at `Win`, left at `Wout` — contents
    that hold the statistics array at what the pipeline leaves (`hF`) and every other buffer as entered (`hrest`). The
    generator register goes into the invariant and comes back; the core owes nothing throughout; the kernel has no
    semaphore of its own and no table. -/
def reg25 (hd : ∀ c, pdats 25 c = dat25 (Vin25 Win) c)
    (hF : ∀ c (w : Fin cfg25.W), (dat25 (Vin25 Win) c).arrAt w cfg25.N = Vout25 Wout c (Pipeline.arrRef spec25 w))
    (hrest : ∀ c b, b ∉ Finset.univ.image (Pipeline.arrRef spec25) → Vout25 Wout c b = Vin25 Win c b) :
    Pipeline.RegionSeg (pcfgs (F := F)) a pdats () defs₀ 𝒱₀ L lv 25 where
  win := (launch25 (F := F)).win.to₀
  block_pos := (launch25 (F := F)).block_pos
  stage_whole := (launch25 (F := F)).stage_whole
  K := PEmpty
  osem k := k.elim
  ho := Pipeline.OwnSemFacts.none _
  hbody c := by rw [hd c]; exact (body_obligation25 (Vin25 Win) c).loose
  hwaits := Pipeline.hwaits_of_owed_zero _ _ _ _ L lv 25 fun c _ => by rw [hd c]; rfl
  pre c := T (Win c) c
  post c := T (Wout c) c
  X c := iprop(∃ r, prngReg c r)
  Y c := iprop(∃ r, prngReg c r)
  Z c := Pipeline.unscopedRest (Ix := Unit) (Name := ℕ) (U := UC) (Lvl := ℕ) spec25 c (Vin25 Win c)
  hentry c := by
    rw [Pipeline.ownSems0_none]
    have hsplit := split25 hd c
    iintro ⟨⟨Hbufs, Hreg, Howes⟩, -, -⟩
    ihave Hsplit := hsplit $$ Hbufs
    icases Hsplit with ⟨Harr, Hrest⟩
    imodintro
    isplitl [Harr]; · iexact Harr
    isplitr; · iapply (noTables25 c); iempintro
    isplitl [Howes]
    · rw [hd c]; iapply (owesAt25_of_owes Win c 0); iexact Howes
    isplitl [Hreg]; · iexact Hreg
    iexact Hrest
  hin c := by
    rw [hd c]
    show iprop(_ ∗ _ ∗ _) ⊢ Pipeline.ΦA spec25 c
    unfold Pipeline.ΦA
    iintro ⟨Hreg, -, Hscoped⟩
    isplitl [Hscoped]; · iexact Hscoped
    iexact Hreg
  hout c := by
    rw [Pipeline.ownSems0_none, hd c]
    show Pipeline.ΦA spec25 c ⊢ _
    unfold Pipeline.ΦA
    iintro ⟨Hscoped, Hreg⟩
    isplitl [Hreg]; · iexact Hreg
    isplitr; · iempintro
    iexact Hscoped
  hexit c := by
    iintro ⟨Harr, Howes, Hreg, Hrest⟩
    imodintro
    isplitl [Harr Hrest]
    · iapply (join25 hd hF hrest c); isplitl [Harr]; · iexact Harr
      iexact Hrest
    isplitl [Hreg]; · iexact Hreg
    rw [hd c]
    iapply (owes_of_owesAt25 Win c (Fin.last cfg25.N)); iexact Howes

end Region

end Cert.Kernel.Hand

end
-- ==== Proof.KB.Seg26.lean ====
/-
  The normalisation launch (the last pallas_call of @main) as a SEGMENT of @main's run, between the thread state
  "every unscoped buffer at the contents `Win`, the generator register at some state, nothing owed" and the same
  at the contents `Wout`.
  Stated over the run's data as VARIABLES — the tables' contents `adm`, the proof-data family `pdats`, the two
  valuations — under three hypotheses that the run's own definitions meet by unfolding: the family's member at this
  launch is `dat26` at `Win`; `Wout` has the launch's four arrays at what the ten write-backs leave; and `Wout`
  agrees with `Win` on every other buffer.
  Entry: the four arrays are split out of the unscoped buffers; there is no prefetched table; the generator register
  enters the invariant; the remaining unscoped buffers bypass the launch. Exit: the arrays at their final contents
  and the bypassed buffers make the unscoped buffers at `Wout`; the register comes back; nothing is owed at either
  end, and the kernel has no semaphore of its own.
-/
import proofs.«403631_j48275432407145_1_alg».proof.Proof.KB.G26Dat
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- A valuation of every buffer, read at the TensorCore's references. -/
abbrev Vof (W : Dev nD → Valuation τ sig (Elt F)) : (c : Dev nD) → (b : Ref sig .tc) → Buf (Elt F) ((c : Thread nD τ).loc b) :=
  fun c b => W c b

variable (adm : (p : Fin 27) → (pcfgs (F := F) p).Adm)
variable (pdats : (p : Fin 27) → (c : Dev nD) → Dat τ (Elt F) Unit ℕ UC ℕ (Pipeline.pin (pcfgs (F := F)) adm p) c)
variable (Win Wout : Dev nD → Valuation τ sig (Elt F))

set_option backward.isDefEq.respectTransparency.types false in
/-- The normalisation launch over the thread state: entered with every unscoped buffer at `Win`, left with them at
    `Wout`, which has the launch's four arrays at what the write-backs leave and agrees with `Win` elsewhere.
    The arrays are split out of the unscoped buffers at entry and put back at exit; the generator register goes
    into the invariant and comes back; nothing is owed; the kernel has no semaphore of its own. -/
def reg26 (hdat : ∀ c, pdats 26 c = dat26 (Vof Win) c)
    (hF : ∀ c (w : Fin cfg26.W), (dat26 (Vof Win) c).arrAt w cfg26.N = Vof Wout c (Pipeline.arrRef spec26 w))
    (hrest : ∀ c b, b ∉ Finset.univ.image (Pipeline.arrRef spec26) → Vof Wout c b = Vof Win c b) :
    Pipeline.RegionSeg (pcfgs (F := F)) adm pdats () defs₀ 𝒱₀ L lv 26 where
  win := (launch26 (F := F)).win.to₀
  block_pos := (launch26 (F := F)).block_pos
  stage_whole := (launch26 (F := F)).stage_whole
  K := PEmpty
  osem k := k.elim
  ho := Pipeline.OwnSemFacts.none _
  hbody c := by rw [hdat c]; exact (body_obligation26 (Vof Win) c).loose
  hwaits := Pipeline.hwaits_of_owed_zero _ _ _ _ L lv 26 fun c _ => by rw [hdat c]; rfl
  pre c := T (Win c) c
  post c := T (Wout c) c
  X c := iprop(∃ r, prngReg c r)
  Y c := iprop(∃ r, prngReg c r)
  Z c := Pipeline.unscopedRest (Ix := Unit) (Name := ℕ) (U := UC) (Lvl := ℕ) spec26 c (Vof Win c)
  hentry c := by
    rw [Pipeline.ownSems0_none]
    have hsplit := Pipeline.arrays_of_unscopedBufs (p := 26) (pcfgs (F := F)) adm pdats (launch26 (F := F)).win (launch26 (F := F)).arr_whole c
      (by rw [hdat c]; exact (dat26 (Vof Win) c).share_full fun _ => rfl) (Vof Win c) (fun w => by rw [hdat c]; rfl)
    rw [Pipeline.unscopedBufs_held] at hsplit
    rw [hdat c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : ∀ x, (dat26 (Vof Win) c).Φ x = Pipeline.ΦA spec26 c := fun _ => rfl
    rw [hdat c, hΦ]; unfold Pipeline.ΦA
    iintro ⟨Hp, -, Hr⟩
    isplitl [Hr]; · iexact Hr
    iexact Hp
  hout c := by
    have hΦ : ∀ x, (dat26 (Vof Win) c).Φ x = Pipeline.ΦA spec26 c := fun _ => rfl
    rw [Pipeline.ownSems0_none, hdat c, hΦ]; unfold Pipeline.ΦA
    iintro ⟨Hr, Hp⟩
    isplitl [Hp]; · iexact Hp
    isplitr; · iempintro
    iexact Hr
  hexit c := by
    have hjoin := Pipeline.unscopedBufs_of_arrays (p := 26) (pcfgs (F := F)) adm (Ix := Unit) (Name := ℕ) (U := UC) (Lvl := ℕ)
      (launch26 (F := F)).win (launch26 (F := F)).arr_whole c pdats (by rw [hdat c]; exact (dat26 (Vof Win) c).share_full fun _ => rfl)
      (Vof Win c) (Vof Wout c) ((pdats 26 c).arrAt · cfg26.N) (fun w => by rw [hdat c]; exact hF c w) (hrest c)
    rw [Pipeline.unscopedBufs_held] at hjoin
    rw [hdat c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Regs.lean ====
/-
  @main'S 27 LAUNCHES AS SEGMENTS AT THE CHAIN'S OWN CONTENTS. Each launch's record over variable entry and exit contents is
  instantiated at the contents the chain names before and after it, at the chain's tables and proof data: a gather launch
  also at the fact that its table is the slice the preceding stretch wrote and that every word of it names a row of the
  feature array (which follows from every neighbour index doing so: the precondition). Per launch, the record's two thread
  states are the generated chain's valuations at the chain's unknowns beside the state that rides along: two entailments
  by rewriting one valuation. One row per launch.
-/
import proofs.«403631_j48275432407145_1_alg».proof.Proof.KB.Chain
import proofs.«403631_j48275432407145_1_alg».proof.Proof.KB.LaunchFacts
import proofs.«403631_j48275432407145_1_alg».proof.Proof.KB.Seg0
import proofs.«403631_j48275432407145_1_alg».proof.Proof.KB.Seg1
import proofs.«403631_j48275432407145_1_alg».proof.Proof.KB.Seg2
import proofs.«403631_j48275432407145_1_alg».proof.Proof.KB.Seg3
import proofs.«403631_j48275432407145_1_alg».proof.Proof.KB.Seg4
import proofs.«403631_j48275432407145_1_alg».proof.Proof.KB.Seg5
import proofs.«403631_j48275432407145_1_alg».proof.Proof.KB.Seg6
import proofs.«403631_j48275432407145_1_alg».proof.Proof.KB.Seg7
import proofs.«403631_j48275432407145_1_alg».proof.Proof.KB.Seg8
import proofs.«403631_j48275432407145_1_alg».proof.Proof.KB.Seg9
import proofs.«403631_j48275432407145_1_alg».proof.Proof.KB.Seg10
import proofs.«403631_j48275432407145_1_alg».proof.Proof.KB.Seg11
import proofs.«403631_j48275432407145_1_alg».proof.Proof.KB.Seg12
import proofs.«403631_j48275432407145_1_alg».proof.Proof.KB.Seg13
import proofs.«403631_j48275432407145_1_alg».proof.Proof.KB.Seg14
import proofs.«403631_j48275432407145_1_alg».proof.Proof.KB.Seg15
import proofs.«403631_j48275432407145_1_alg».proof.Proof.KB.Seg16
import proofs.«403631_j48275432407145_1_alg».proof.Proof.KB.Seg17
import proofs.«403631_j48275432407145_1_alg».proof.Proof.KB.Seg18
import proofs.«403631_j48275432407145_1_alg».proof.Proof.KB.Seg19
import proofs.«403631_j48275432407145_1_alg».proof.Proof.KB.Seg20
import proofs.«403631_j48275432407145_1_alg».proof.Proof.KB.Seg21
import proofs.«403631_j48275432407145_1_alg».proof.Proof.KB.Seg22
import proofs.«403631_j48275432407145_1_alg».proof.Proof.KB.Seg23
import proofs.«403631_j48275432407145_1_alg».proof.Proof.KB.Seg24
import proofs.«403631_j48275432407145_1_alg».proof.Proof.KB.Seg25
import proofs.«403631_j48275432407145_1_alg».proof.Proof.KB.Seg26

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UC ℕ

variable (m : (ℓ : Loc nD τ sig) → Buf (Elt F) ℓ)

/-- Launch 0 between the contents the chain names before and after it. -/
def R0 (h4 : ∀ i : S50000x16.Idx, (m ((0 : Dev nD).tc.loc main_arg4) i).toNat < 100000) : Pipeline.RegionSeg (pcfgs (F := F)) (adm m) (pdats m) () defs₀ 𝒱₀ L lv 0 :=
  reg0 (adm m) (pdats m) (W1 m) (W2 m) (hd0 m) (hF0 m) (hrest0 m) (htab0 m) (inRange0 m h4)
theorem hpre0 (h4 : ∀ i : S50000x16.Idx, (m ((0 : Dev nD).tc.loc main_arg4) i).toNat < 100000) (c : Dev nD) :
    (iprop(StableHlo.held (c : Thread nD τ) (Pipeline.ucRefs τ sig) (Gen.V1 m c) ∗ E₀ (F := F) 0 c) : sProp 𝕄) ⊢ (R0 m h4).pre c := by
  rw [V1_eq]; exact .rfl
theorem hpost0 (h4 : ∀ i : S50000x16.Idx, (m ((0 : Dev nD).tc.loc main_arg4) i).toNat < 100000) (c : Dev nD) :
    (R0 m h4).post c ⊢ (iprop(StableHlo.held (c : Thread nD τ) (Pipeline.ucRefs τ sig) (Gen.V2 m (outs m) c) ∗ E₀ (F := F) 1 c) : sProp 𝕄) := by
  rw [V2_eq]; exact .rfl
/-- Launch 1 between the contents the chain names before and after it. -/
def R1 (h4 : ∀ i : S50000x16.Idx, (m ((0 : Dev nD).tc.loc main_arg4) i).toNat < 100000) : Pipeline.RegionSeg (pcfgs (F := F)) (adm m) (pdats m) () defs₀ 𝒱₀ L lv 1 :=
  reg1 (adm m) (pdats m) (W3 m) (W4 m) (hd1 m) (hF1 m) (hrest1 m) (htab1 m) (inRange1 m h4)
theorem hpre1 (h4 : ∀ i : S50000x16.Idx, (m ((0 : Dev nD).tc.loc main_arg4) i).toNat < 100000) (c : Dev nD) :
    (iprop(StableHlo.held (c : Thread nD τ) (Pipeline.ucRefs τ sig) (Gen.V3 m (outs m) c) ∗ E₀ (F := F) 1 c) : sProp 𝕄) ⊢ (R1 m h4).pre c := by
  rw [V3_eq]; exact .rfl
theorem hpost1 (h4 : ∀ i : S50000x16.Idx, (m ((0 : Dev nD).tc.loc main_arg4) i).toNat < 100000) (c : Dev nD) :
    (R1 m h4).post c ⊢ (iprop(StableHlo.held (c : Thread nD τ) (Pipeline.ucRefs τ sig) (Gen.V4 m (outs m) c) ∗ E₀ (F := F) 2 c) : sProp 𝕄) := by
  rw [V4_eq]; exact .rfl
/-- Launch 2 between the contents the chain names before and after it. -/
def R2 (h4 : ∀ i : S50000x16.Idx, (m ((0 : Dev nD).tc.loc main_arg4) i).toNat < 100000) : Pipeline.RegionSeg (pcfgs (F := F)) (adm m) (pdats m) () defs₀ 𝒱₀ L lv 2 :=
  reg2 (adm m) (pdats m) (W5 m) (W6 m) (hd2 m) (hF2 m) (hrest2 m) (htab2 m) (inRange2 m h4)
theorem hpre2 (h4 : ∀ i : S50000x16.Idx, (m ((0 : Dev nD).tc.loc main_arg4) i).toNat < 100000) (c : Dev nD) :
    (iprop(StableHlo.held (c : Thread nD τ) (Pipeline.ucRefs τ sig) (Gen.V5 m (outs m) c) ∗ E₀ (F := F) 2 c) : sProp 𝕄) ⊢ (R2 m h4).pre c := by
  rw [V5_eq]; exact .rfl
theorem hpost2 (h4 : ∀ i : S50000x16.Idx, (m ((0 : Dev nD).tc.loc main_arg4) i).toNat < 100000) (c : Dev nD) :
    (R2 m h4).post c ⊢ (iprop(StableHlo.held (c : Thread nD τ) (Pipeline.ucRefs τ sig) (Gen.V6 m (outs m) c) ∗ E₀ (F := F) 3 c) : sProp 𝕄) := by
  rw [V6_eq]; exact .rfl
/-- Launch 3 between the contents the chain names before and after it. -/
def R3 (h4 : ∀ i : S50000x16.Idx, (m ((0 : Dev nD).tc.loc main_arg4) i).toNat < 100000) : Pipeline.RegionSeg (pcfgs (F := F)) (adm m) (pdats m) () defs₀ 𝒱₀ L lv 3 :=
  reg3 (adm m) (pdats m) (W7 m) (W8 m) (hd3 m) (hF3 m) (hrest3 m) (htab3 m) (inRange3 m h4)
theorem hpre3 (h4 : ∀ i : S50000x16.Idx, (m ((0 : Dev nD).tc.loc main_arg4) i).toNat < 100000) (c : Dev nD) :
    (iprop(StableHlo.held (c : Thread nD τ) (Pipeline.ucRefs τ sig) (Gen.V7 m (outs m) c) ∗ E₀ (F := F) 3 c) : sProp 𝕄) ⊢ (R3 m h4).pre c := by
  rw [V7_eq]; exact .rfl
theorem hpost3 (h4 : ∀ i : S50000x16.Idx, (m ((0 : Dev nD).tc.loc main_arg4) i).toNat < 100000) (c : Dev nD) :
    (R3 m h4).post c ⊢ (iprop(StableHlo.held (c : Thread nD τ) (Pipeline.ucRefs τ sig) (Gen.V8 m (outs m) c) ∗ E₀ (F := F) 4 c) : sProp 𝕄) := by
  rw [V8_eq]; exact .rfl
/-- Launch 4 between the contents the chain names before and after it. -/
def R4 (h4 : ∀ i : S50000x16.Idx, (m ((0 : Dev nD).tc.loc main_arg4) i).toNat < 100000) : Pipeline.RegionSeg (pcfgs (F := F)) (adm m) (pdats m) () defs₀ 𝒱₀ L lv 4 :=
  reg4 (adm m) (pdats m) (W9 m) (W10 m) (hd4 m) (hF4 m) (hrest4 m) (htab4 m) (inRange4 m h4)
theorem hpre4 (h4 : ∀ i : S50000x16.Idx, (m ((0 : Dev nD).tc.loc main_arg4) i).toNat < 100000) (c : Dev nD) :
    (iprop(StableHlo.held (c : Thread nD τ) (Pipeline.ucRefs τ sig) (Gen.V9 m (outs m) c) ∗ E₀ (F := F) 4 c) : sProp 𝕄) ⊢ (R4 m h4).pre c := by
  rw [V9_eq]; exact .rfl
theorem hpost4 (h4 : ∀ i : S50000x16.Idx, (m ((0 : Dev nD).tc.loc main_arg4) i).toNat < 100000) (c : Dev nD) :
    (R4 m h4).post c ⊢ (iprop(StableHlo.held (c : Thread nD τ) (Pipeline.ucRefs τ sig) (Gen.V10 m (outs m) c) ∗ E₀ (F := F) 5 c) : sProp 𝕄) := by
  rw [V10_eq]; exact .rfl
/-- Launch 5 between the contents the chain names before and after it. -/
def R5 (h4 : ∀ i : S50000x16.Idx, (m ((0 : Dev nD).tc.loc main_arg4) i).toNat < 100000) : Pipeline.RegionSeg (pcfgs (F := F)) (adm m) (pdats m) () defs₀ 𝒱₀ L lv 5 :=
  reg5 (adm m) (pdats m) (W11 m) (W12 m) (hd5 m) (hF5 m) (hrest5 m) (htab5 m) (inRange5 m h4)
theorem hpre5 (h4 : ∀ i : S50000x16.Idx, (m ((0 : Dev nD).tc.loc main_arg4) i).toNat < 100000) (c : Dev nD) :
    (iprop(StableHlo.held (c : Thread nD τ) (Pipeline.ucRefs τ sig) (Gen.V11 m (outs m) c) ∗ E₀ (F := F) 5 c) : sProp 𝕄) ⊢ (R5 m h4).pre c := by
  rw [V11_eq]; exact .rfl
theorem hpost5 (h4 : ∀ i : S50000x16.Idx, (m ((0 : Dev nD).tc.loc main_arg4) i).toNat < 100000) (c : Dev nD) :
    (R5 m h4).post c ⊢ (iprop(StableHlo.held (c : Thread nD τ) (Pipeline.ucRefs τ sig) (Gen.V12 m (outs m) c) ∗ E₀ (F := F) 6 c) : sProp 𝕄) := by
  rw [V12_eq]; exact .rfl
/-- Launch 6 between the contents the chain names before and after it. -/
def R6 (h4 : ∀ i : S50000x16.Idx, (m ((0 : Dev nD).tc.loc main_arg4) i).toNat < 100000) : Pipeline.RegionSeg (pcfgs (F := F)) (adm m) (pdats m) () defs₀ 𝒱₀ L lv 6 :=
  reg6 (adm m) (pdats m) (W13 m) (W14 m) (hd6 m) (hF6 m) (hrest6 m) (htab6 m) (inRange6 m h4)
theorem hpre6 (h4 : ∀ i : S50000x16.Idx, (m ((0 : Dev nD).tc.loc main_arg4) i).toNat < 100000) (c : Dev nD) :
    (iprop(StableHlo.held (c : Thread nD τ) (Pipeline.ucRefs τ sig) (Gen.V13 m (outs m) c) ∗ E₀ (F := F) 6 c) : sProp 𝕄) ⊢ (R6 m h4).pre c := by
  rw [V13_eq]; exact .rfl
theorem hpost6 (h4 : ∀ i : S50000x16.Idx, (m ((0 : Dev nD).tc.loc main_arg4) i).toNat < 100000) (c : Dev nD) :
    (R6 m h4).post c ⊢ (iprop(StableHlo.held (c : Thread nD τ) (Pipeline.ucRefs τ sig) (Gen.V14 m (outs m) c) ∗ E₀ (F := F) 7 c) : sProp 𝕄) := by
  rw [V14_eq]; exact .rfl
/-- Launch 7 between the contents the chain names before and after it. -/
def R7 (h4 : ∀ i : S50000x16.Idx, (m ((0 : Dev nD).tc.loc main_arg4) i).toNat < 100000) : Pipeline.RegionSeg (pcfgs (F := F)) (adm m) (pdats m) () defs₀ 𝒱₀ L lv 7 :=
  reg7 (adm m) (pdats m) (W15 m) (W16 m) (hd7 m) (hF7 m) (hrest7 m) (htab7 m) (inRange7 m h4)
theorem hpre7 (h4 : ∀ i : S50000x16.Idx, (m ((0 : Dev nD).tc.loc main_arg4) i).toNat < 100000) (c : Dev nD) :
    (iprop(StableHlo.held (c : Thread nD τ) (Pipeline.ucRefs τ sig) (Gen.V15 m (outs m) c) ∗ E₀ (F := F) 7 c) : sProp 𝕄) ⊢ (R7 m h4).pre c := by
  rw [V15_eq]; exact .rfl
theorem hpost7 (h4 : ∀ i : S50000x16.Idx, (m ((0 : Dev nD).tc.loc main_arg4) i).toNat < 100000) (c : Dev nD) :
    (R7 m h4).post c ⊢ (iprop(StableHlo.held (c : Thread nD τ) (Pipeline.ucRefs τ sig) (Gen.V16 m (outs m) c) ∗ E₀ (F := F) 8 c) : sProp 𝕄) := by
  rw [V16_eq]; exact .rfl
/-- Launch 8 between the contents the chain names before and after it. -/
def R8 (h4 : ∀ i : S50000x16.Idx, (m ((0 : Dev nD).tc.loc main_arg4) i).toNat < 100000) : Pipeline.RegionSeg (pcfgs (F := F)) (adm m) (pdats m) () defs₀ 𝒱₀ L lv 8 :=
  reg8 (adm m) (pdats m) (W17 m) (W18 m) (hd8 m) (hF8 m) (hrest8 m) (htab8 m) (inRange8 m h4)
theorem hpre8 (h4 : ∀ i : S50000x16.Idx, (m ((0 : Dev nD).tc.loc main_arg4) i).toNat < 100000) (c : Dev nD) :
    (iprop(StableHlo.held (c : Thread nD τ) (Pipeline.ucRefs τ sig) (Gen.V17 m (outs m) c) ∗ E₀ (F := F) 8 c) : sProp 𝕄) ⊢ (R8 m h4).pre c := by
  rw [V17_eq]; exact .rfl
theorem hpost8 (h4 : ∀ i : S50000x16.Idx, (m ((0 : Dev nD).tc.loc main_arg4) i).toNat < 100000) (c : Dev nD) :
    (R8 m h4).post c ⊢ (iprop(StableHlo.held (c : Thread nD τ) (Pipeline.ucRefs τ sig) (Gen.V18 m (outs m) c) ∗ E₀ (F := F) 9 c) : sProp 𝕄) := by
  rw [V18_eq]; exact .rfl
/-- Launch 9 between the contents the chain names before and after it. -/
def R9 (h4 : ∀ i : S50000x16.Idx, (m ((0 : Dev nD).tc.loc main_arg4) i).toNat < 100000) : Pipeline.RegionSeg (pcfgs (F := F)) (adm m) (pdats m) () defs₀ 𝒱₀ L lv 9 :=
  reg9 (adm m) (pdats m) (W19 m) (W20 m) (hd9 m) (hF9 m) (hrest9 m) (htab9 m) (inRange9 m h4)
theorem hpre9 (h4 : ∀ i : S50000x16.Idx, (m ((0 : Dev nD).tc.loc main_arg4) i).toNat < 100000) (c : Dev nD) :
    (iprop(StableHlo.held (c : Thread nD τ) (Pipeline.ucRefs τ sig) (Gen.V19 m (outs m) c) ∗ E₀ (F := F) 9 c) : sProp 𝕄) ⊢ (R9 m h4).pre c := by
  rw [V19_eq]; exact .rfl
theorem hpost9 (h4 : ∀ i : S50000x16.Idx, (m ((0 : Dev nD).tc.loc main_arg4) i).toNat < 100000) (c : Dev nD) :
    (R9 m h4).post c ⊢ (iprop(StableHlo.held (c : Thread nD τ) (Pipeline.ucRefs τ sig) (Gen.V20 m (outs m) c) ∗ E₀ (F := F) 10 c) : sProp 𝕄) := by
  rw [V20_eq]; exact .rfl
/-- Launch 10 between the contents the chain names before and after it. -/
def R10 (h4 : ∀ i : S50000x16.Idx, (m ((0 : Dev nD).tc.loc main_arg4) i).toNat < 100000) : Pipeline.RegionSeg (pcfgs (F := F)) (adm m) (pdats m) () defs₀ 𝒱₀ L lv 10 :=
  reg10 (adm m) (pdats m) (W21 m) (W22 m) (hd10 m) (hF10 m) (hrest10 m) (htab10 m) (inRange10 m h4)
theorem hpre10 (h4 : ∀ i : S50000x16.Idx, (m ((0 : Dev nD).tc.loc main_arg4) i).toNat < 100000) (c : Dev nD) :
    (iprop(StableHlo.held (c : Thread nD τ) (Pipeline.ucRefs τ sig) (Gen.V21 m (outs m) c) ∗ E₀ (F := F) 10 c) : sProp 𝕄) ⊢ (R10 m h4).pre c := by
  rw [V21_eq]; exact .rfl
theorem hpost10 (h4 : ∀ i : S50000x16.Idx, (m ((0 : Dev nD).tc.loc main_arg4) i).toNat < 100000) (c : Dev nD) :
    (R10 m h4).post c ⊢ (iprop(StableHlo.held (c : Thread nD τ) (Pipeline.ucRefs τ sig) (Gen.V22 m (outs m) c) ∗ E₀ (F := F) 11 c) : sProp 𝕄) := by
  rw [V22_eq]; exact .rfl
/-- Launch 11 between the contents the chain names before and after it. -/
def R11 (h4 : ∀ i : S50000x16.Idx, (m ((0 : Dev nD).tc.loc main_arg4) i).toNat < 100000) : Pipeline.RegionSeg (pcfgs (F := F)) (adm m) (pdats m) () defs₀ 𝒱₀ L lv 11 :=
  reg11 (adm m) (pdats m) (W23 m) (W24 m) (hd11 m) (hF11 m) (hrest11 m) (htab11 m) (inRange11 m h4)
theorem hpre11 (h4 : ∀ i : S50000x16.Idx, (m ((0 : Dev nD).tc.loc main_arg4) i).toNat < 100000) (c : Dev nD) :
    (iprop(StableHlo.held (c : Thread nD τ) (Pipeline.ucRefs τ sig) (Gen.V23 m (outs m) c) ∗ E₀ (F := F) 11 c) : sProp 𝕄) ⊢ (R11 m h4).pre c := by
  rw [V23_eq]; exact .rfl
theorem hpost11 (h4 : ∀ i : S50000x16.Idx, (m ((0 : Dev nD).tc.loc main_arg4) i).toNat < 100000) (c : Dev nD) :
    (R11 m h4).post c ⊢ (iprop(StableHlo.held (c : Thread nD τ) (Pipeline.ucRefs τ sig) (Gen.V24 m (outs m) c) ∗ E₀ (F := F) 12 c) : sProp 𝕄) := by
  rw [V24_eq]; exact .rfl
/-- Launch 12 between the contents the chain names before and after it. -/
def R12 (h4 : ∀ i : S50000x16.Idx, (m ((0 : Dev nD).tc.loc main_arg4) i).toNat < 100000) : Pipeline.RegionSeg (pcfgs (F := F)) (adm m) (pdats m) () defs₀ 𝒱₀ L lv 12 :=
  reg12 (adm m) (pdats m) (W25 m) (W26 m) (hd12 m) (hF12 m) (hrest12 m) (htab12 m) (inRange12 m h4)
theorem hpre12 (h4 : ∀ i : S50000x16.Idx, (m ((0 : Dev nD).tc.loc main_arg4) i).toNat < 100000) (c : Dev nD) :
    (iprop(StableHlo.held (c : Thread nD τ) (Pipeline.ucRefs τ sig) (Gen.V25 m (outs m) c) ∗ E₀ (F := F) 12 c) : sProp 𝕄) ⊢ (R12 m h4).pre c := by
  rw [V25_eq]; exact .rfl
theorem hpost12 (h4 : ∀ i : S50000x16.Idx, (m ((0 : Dev nD).tc.loc main_arg4) i).toNat < 100000) (c : Dev nD) :
    (R12 m h4).post c ⊢ (iprop(StableHlo.held (c : Thread nD τ) (Pipeline.ucRefs τ sig) (Gen.V26 m (outs m) c) ∗ E₀ (F := F) 13 c) : sProp 𝕄) := by
  rw [V26_eq]; exact .rfl
/-- Launch 13 between the contents the chain names before and after it. -/
def R13 (h4 : ∀ i : S50000x16.Idx, (m ((0 : Dev nD).tc.loc main_arg4) i).toNat < 100000) : Pipeline.RegionSeg (pcfgs (F := F)) (adm m) (pdats m) () defs₀ 𝒱₀ L lv 13 :=
  reg13 (adm m) (pdats m) (W27 m) (W28 m) (hd13 m) (hF13 m) (hrest13 m) (htab13 m) (inRange13 m h4)
theorem hpre13 (h4 : ∀ i : S50000x16.Idx, (m ((0 : Dev nD).tc.loc main_arg4) i).toNat < 100000) (c : Dev nD) :
    (iprop(StableHlo.held (c : Thread nD τ) (Pipeline.ucRefs τ sig) (Gen.V27 m (outs m) c) ∗ E₀ (F := F) 13 c) : sProp 𝕄) ⊢ (R13 m h4).pre c := by
  rw [V27_eq]; exact .rfl
theorem hpost13 (h4 : ∀ i : S50000x16.Idx, (m ((0 : Dev nD).tc.loc main_arg4) i).toNat < 100000) (c : Dev nD) :
    (R13 m h4).post c ⊢ (iprop(StableHlo.held (c : Thread nD τ) (Pipeline.ucRefs τ sig) (Gen.V28 m (outs m) c) ∗ E₀ (F := F) 14 c) : sProp 𝕄) := by
  rw [V28_eq]; exact .rfl
/-- Launch 14 between the contents the chain names before and after it. -/
def R14 (h4 : ∀ i : S50000x16.Idx, (m ((0 : Dev nD).tc.loc main_arg4) i).toNat < 100000) : Pipeline.RegionSeg (pcfgs (F := F)) (adm m) (pdats m) () defs₀ 𝒱₀ L lv 14 :=
  reg14 (adm m) (pdats m) (W29 m) (W30 m) (hd14 m) (hF14 m) (hrest14 m) (htab14 m) (inRange14 m h4)
theorem hpre14 (h4 : ∀ i : S50000x16.Idx, (m ((0 : Dev nD).tc.loc main_arg4) i).toNat < 100000) (c : Dev nD) :
    (iprop(StableHlo.held (c : Thread nD τ) (Pipeline.ucRefs τ sig) (Gen.V29 m (outs m) c) ∗ E₀ (F := F) 14 c) : sProp 𝕄) ⊢ (R14 m h4).pre c := by
  rw [V29_eq]; exact .rfl
theorem hpost14 (h4 : ∀ i : S50000x16.Idx, (m ((0 : Dev nD).tc.loc main_arg4) i).toNat < 100000) (c : Dev nD) :
    (R14 m h4).post c ⊢ (iprop(StableHlo.held (c : Thread nD τ) (Pipeline.ucRefs τ sig) (Gen.V30 m (outs m) c) ∗ E₀ (F := F) 15 c) : sProp 𝕄) := by
  rw [V30_eq]; exact .rfl
/-- Launch 15 between the contents the chain names before and after it. -/
def R15 (h4 : ∀ i : S50000x16.Idx, (m ((0 : Dev nD).tc.loc main_arg4) i).toNat < 100000) : Pipeline.RegionSeg (pcfgs (F := F)) (adm m) (pdats m) () defs₀ 𝒱₀ L lv 15 :=
  reg15 (adm m) (pdats m) (W31 m) (W32 m) (hd15 m) (hF15 m) (hrest15 m) (htab15 m) (inRange15 m h4)
theorem hpre15 (h4 : ∀ i : S50000x16.Idx, (m ((0 : Dev nD).tc.loc main_arg4) i).toNat < 100000) (c : Dev nD) :
    (iprop(StableHlo.held (c : Thread nD τ) (Pipeline.ucRefs τ sig) (Gen.V31 m (outs m) c) ∗ E₀ (F := F) 15 c) : sProp 𝕄) ⊢ (R15 m h4).pre c := by
  rw [V31_eq]; exact .rfl
theorem hpost15 (h4 : ∀ i : S50000x16.Idx, (m ((0 : Dev nD).tc.loc main_arg4) i).toNat < 100000) (c : Dev nD) :
    (R15 m h4).post c ⊢ (iprop(StableHlo.held (c : Thread nD τ) (Pipeline.ucRefs τ sig) (Gen.V32 m (outs m) c) ∗ E₀ (F := F) 16 c) : sProp 𝕄) := by
  rw [V32_eq]; exact .rfl
/-- Launch 16 between the contents the chain names before and after it. -/
def R16 (h4 : ∀ i : S50000x16.Idx, (m ((0 : Dev nD).tc.loc main_arg4) i).toNat < 100000) : Pipeline.RegionSeg (pcfgs (F := F)) (adm m) (pdats m) () defs₀ 𝒱₀ L lv 16 :=
  reg16 (adm m) (pdats m) (W33 m) (W34 m) (hd16 m) (hF16 m) (hrest16 m) (htab16 m) (inRange16 m h4)
theorem hpre16 (h4 : ∀ i : S50000x16.Idx, (m ((0 : Dev nD).tc.loc main_arg4) i).toNat < 100000) (c : Dev nD) :
    (iprop(StableHlo.held (c : Thread nD τ) (Pipeline.ucRefs τ sig) (Gen.V33 m (outs m) c) ∗ E₀ (F := F) 16 c) : sProp 𝕄) ⊢ (R16 m h4).pre c := by
  rw [V33_eq]; exact .rfl
theorem hpost16 (h4 : ∀ i : S50000x16.Idx, (m ((0 : Dev nD).tc.loc main_arg4) i).toNat < 100000) (c : Dev nD) :
    (R16 m h4).post c ⊢ (iprop(StableHlo.held (c : Thread nD τ) (Pipeline.ucRefs τ sig) (Gen.V34 m (outs m) c) ∗ E₀ (F := F) 17 c) : sProp 𝕄) := by
  rw [V34_eq]; exact .rfl
/-- Launch 17 between the contents the chain names before and after it. -/
def R17 (h4 : ∀ i : S50000x16.Idx, (m ((0 : Dev nD).tc.loc main_arg4) i).toNat < 100000) : Pipeline.RegionSeg (pcfgs (F := F)) (adm m) (pdats m) () defs₀ 𝒱₀ L lv 17 :=
  reg17 (adm m) (pdats m) (W35 m) (W36 m) (hd17 m) (hF17 m) (hrest17 m) (htab17 m) (inRange17 m h4)
theorem hpre17 (h4 : ∀ i : S50000x16.Idx, (m ((0 : Dev nD).tc.loc main_arg4) i).toNat < 100000) (c : Dev nD) :
    (iprop(StableHlo.held (c : Thread nD τ) (Pipeline.ucRefs τ sig) (Gen.V35 m (outs m) c) ∗ E₀ (F := F) 17 c) : sProp 𝕄) ⊢ (R17 m h4).pre c := by
  rw [V35_eq]; exact .rfl
theorem hpost17 (h4 : ∀ i : S50000x16.Idx, (m ((0 : Dev nD).tc.loc main_arg4) i).toNat < 100000) (c : Dev nD) :
    (R17 m h4).post c ⊢ (iprop(StableHlo.held (c : Thread nD τ) (Pipeline.ucRefs τ sig) (Gen.V36 m (outs m) c) ∗ E₀ (F := F) 18 c) : sProp 𝕄) := by
  rw [V36_eq]; exact .rfl
/-- Launch 18 between the contents the chain names before and after it. -/
def R18 (h4 : ∀ i : S50000x16.Idx, (m ((0 : Dev nD).tc.loc main_arg4) i).toNat < 100000) : Pipeline.RegionSeg (pcfgs (F := F)) (adm m) (pdats m) () defs₀ 𝒱₀ L lv 18 :=
  reg18 (adm m) (pdats m) (W37 m) (W38 m) (hd18 m) (hF18 m) (hrest18 m) (htab18 m) (inRange18 m h4)
theorem hpre18 (h4 : ∀ i : S50000x16.Idx, (m ((0 : Dev nD).tc.loc main_arg4) i).toNat < 100000) (c : Dev nD) :
    (iprop(StableHlo.held (c : Thread nD τ) (Pipeline.ucRefs τ sig) (Gen.V37 m (outs m) c) ∗ E₀ (F := F) 18 c) : sProp 𝕄) ⊢ (R18 m h4).pre c := by
  rw [V37_eq]; exact .rfl
theorem hpost18 (h4 : ∀ i : S50000x16.Idx, (m ((0 : Dev nD).tc.loc main_arg4) i).toNat < 100000) (c : Dev nD) :
    (R18 m h4).post c ⊢ (iprop(StableHlo.held (c : Thread nD τ) (Pipeline.ucRefs τ sig) (Gen.V38 m (outs m) c) ∗ E₀ (F := F) 19 c) : sProp 𝕄) := by
  rw [V38_eq]; exact .rfl
/-- Launch 19 between the contents the chain names before and after it. -/
def R19 (h4 : ∀ i : S50000x16.Idx, (m ((0 : Dev nD).tc.loc main_arg4) i).toNat < 100000) : Pipeline.RegionSeg (pcfgs (F := F)) (adm m) (pdats m) () defs₀ 𝒱₀ L lv 19 :=
  reg19 (adm m) (pdats m) (W39 m) (W40 m) (hd19 m) (hF19 m) (hrest19 m) (htab19 m) (inRange19 m h4)
theorem hpre19 (h4 : ∀ i : S50000x16.Idx, (m ((0 : Dev nD).tc.loc main_arg4) i).toNat < 100000) (c : Dev nD) :
    (iprop(StableHlo.held (c : Thread nD τ) (Pipeline.ucRefs τ sig) (Gen.V39 m (outs m) c) ∗ E₀ (F := F) 19 c) : sProp 𝕄) ⊢ (R19 m h4).pre c := by
  rw [V39_eq]; exact .rfl
theorem hpost19 (h4 : ∀ i : S50000x16.Idx, (m ((0 : Dev nD).tc.loc main_arg4) i).toNat < 100000) (c : Dev nD) :
    (R19 m h4).post c ⊢ (iprop(StableHlo.held (c : Thread nD τ) (Pipeline.ucRefs τ sig) (Gen.V40 m (outs m) c) ∗ E₀ (F := F) 20 c) : sProp 𝕄) := by
  rw [V40_eq]; exact .rfl
/-- Launch 20 between the contents the chain names before and after it. -/
def R20 (h4 : ∀ i : S50000x16.Idx, (m ((0 : Dev nD).tc.loc main_arg4) i).toNat < 100000) : Pipeline.RegionSeg (pcfgs (F := F)) (adm m) (pdats m) () defs₀ 𝒱₀ L lv 20 :=
  reg20 (adm m) (pdats m) (W41 m) (W42 m) (hd20 m) (hF20 m) (hrest20 m) (htab20 m) (inRange20 m h4)
theorem hpre20 (h4 : ∀ i : S50000x16.Idx, (m ((0 : Dev nD).tc.loc main_arg4) i).toNat < 100000) (c : Dev nD) :
    (iprop(StableHlo.held (c : Thread nD τ) (Pipeline.ucRefs τ sig) (Gen.V41 m (outs m) c) ∗ E₀ (F := F) 20 c) : sProp 𝕄) ⊢ (R20 m h4).pre c := by
  rw [V41_eq]; exact .rfl
theorem hpost20 (h4 : ∀ i : S50000x16.Idx, (m ((0 : Dev nD).tc.loc main_arg4) i).toNat < 100000) (c : Dev nD) :
    (R20 m h4).post c ⊢ (iprop(StableHlo.held (c : Thread nD τ) (Pipeline.ucRefs τ sig) (Gen.V42 m (outs m) c) ∗ E₀ (F := F) 21 c) : sProp 𝕄) := by
  rw [V42_eq]; exact .rfl
/-- Launch 21 between the contents the chain names before and after it. -/
def R21 (h4 : ∀ i : S50000x16.Idx, (m ((0 : Dev nD).tc.loc main_arg4) i).toNat < 100000) : Pipeline.RegionSeg (pcfgs (F := F)) (adm m) (pdats m) () defs₀ 𝒱₀ L lv 21 :=
  reg21 (adm m) (pdats m) (W43 m) (W44 m) (hd21 m) (hF21 m) (hrest21 m) (htab21 m) (inRange21 m h4)
theorem hpre21 (h4 : ∀ i : S50000x16.Idx, (m ((0 : Dev nD).tc.loc main_arg4) i).toNat < 100000) (c : Dev nD) :
    (iprop(StableHlo.held (c : Thread nD τ) (Pipeline.ucRefs τ sig) (Gen.V43 m (outs m) c) ∗ E₀ (F := F) 21 c) : sProp 𝕄) ⊢ (R21 m h4).pre c := by
  rw [V43_eq]; exact .rfl
theorem hpost21 (h4 : ∀ i : S50000x16.Idx, (m ((0 : Dev nD).tc.loc main_arg4) i).toNat < 100000) (c : Dev nD) :
    (R21 m h4).post c ⊢ (iprop(StableHlo.held (c : Thread nD τ) (Pipeline.ucRefs τ sig) (Gen.V44 m (outs m) c) ∗ E₀ (F := F) 22 c) : sProp 𝕄) := by
  rw [V44_eq]; exact .rfl
/-- Launch 22 between the contents the chain names before and after it. -/
def R22 (h4 : ∀ i : S50000x16.Idx, (m ((0 : Dev nD).tc.loc main_arg4) i).toNat < 100000) : Pipeline.RegionSeg (pcfgs (F := F)) (adm m) (pdats m) () defs₀ 𝒱₀ L lv 22 :=
  reg22 (adm m) (pdats m) (W45 m) (W46 m) (hd22 m) (hF22 m) (hrest22 m) (htab22 m) (inRange22 m h4)
theorem hpre22 (h4 : ∀ i : S50000x16.Idx, (m ((0 : Dev nD).tc.loc main_arg4) i).toNat < 100000) (c : Dev nD) :
    (iprop(StableHlo.held (c : Thread nD τ) (Pipeline.ucRefs τ sig) (Gen.V45 m (outs m) c) ∗ E₀ (F := F) 22 c) : sProp 𝕄) ⊢ (R22 m h4).pre c := by
  rw [V45_eq]; exact .rfl
theorem hpost22 (h4 : ∀ i : S50000x16.Idx, (m ((0 : Dev nD).tc.loc main_arg4) i).toNat < 100000) (c : Dev nD) :
    (R22 m h4).post c ⊢ (iprop(StableHlo.held (c : Thread nD τ) (Pipeline.ucRefs τ sig) (Gen.V46 m (outs m) c) ∗ E₀ (F := F) 23 c) : sProp 𝕄) := by
  rw [V46_eq]; exact .rfl
/-- Launch 23 between the contents the chain names before and after it. -/
def R23 (h4 : ∀ i : S50000x16.Idx, (m ((0 : Dev nD).tc.loc main_arg4) i).toNat < 100000) : Pipeline.RegionSeg (pcfgs (F := F)) (adm m) (pdats m) () defs₀ 𝒱₀ L lv 23 :=
  reg23 (adm m) (pdats m) (W47 m) (W48 m) (hd23 m) (hF23 m) (hrest23 m) (htab23 m) (inRange23 m h4)
theorem hpre23 (h4 : ∀ i : S50000x16.Idx, (m ((0 : Dev nD).tc.loc main_arg4) i).toNat < 100000) (c : Dev nD) :
    (iprop(StableHlo.held (c : Thread nD τ) (Pipeline.ucRefs τ sig) (Gen.V47 m (outs m) c) ∗ E₀ (F := F) 23 c) : sProp 𝕄) ⊢ (R23 m h4).pre c := by
  rw [V47_eq]; exact .rfl
theorem hpost23 (h4 : ∀ i : S50000x16.Idx, (m ((0 : Dev nD).tc.loc main_arg4) i).toNat < 100000) (c : Dev nD) :
    (R23 m h4).post c ⊢ (iprop(StableHlo.held (c : Thread nD τ) (Pipeline.ucRefs τ sig) (Gen.V48 m (outs m) c) ∗ E₀ (F := F) 24 c) : sProp 𝕄) := by
  rw [V48_eq]; exact .rfl
/-- Launch 24 between the contents the chain names before and after it. -/
def R24 (h4 : ∀ i : S50000x16.Idx, (m ((0 : Dev nD).tc.loc main_arg4) i).toNat < 100000) : Pipeline.RegionSeg (pcfgs (F := F)) (adm m) (pdats m) () defs₀ 𝒱₀ L lv 24 :=
  reg24 (adm m) (pdats m) (W49 m) (W50 m) (hd24 m) (hF24 m) (hrest24 m) (htab24 m) (inRange24 m h4)
theorem hpre24 (h4 : ∀ i : S50000x16.Idx, (m ((0 : Dev nD).tc.loc main_arg4) i).toNat < 100000) (c : Dev nD) :
    (iprop(StableHlo.held (c : Thread nD τ) (Pipeline.ucRefs τ sig) (Gen.V49 m (outs m) c) ∗ E₀ (F := F) 24 c) : sProp 𝕄) ⊢ (R24 m h4).pre c := by
  rw [V49_eq]; exact .rfl
theorem hpost24 (h4 : ∀ i : S50000x16.Idx, (m ((0 : Dev nD).tc.loc main_arg4) i).toNat < 100000) (c : Dev nD) :
    (R24 m h4).post c ⊢ (iprop(StableHlo.held (c : Thread nD τ) (Pipeline.ucRefs τ sig) (Gen.V50 m (outs m) c) ∗ E₀ (F := F) 25 c) : sProp 𝕄) := by
  rw [V50_eq]; exact .rfl
/-- Launch 25 between the contents the chain names before and after it. -/
def R25 : Pipeline.RegionSeg (pcfgs (F := F)) (adm m) (pdats m) () defs₀ 𝒱₀ L lv 25 :=
  reg25 (adm m) (pdats m) (W51 m) (W52 m) (hd25 m) (hF25 m) (hrest25 m)
theorem hpre25 (c : Dev nD) :
    (iprop(StableHlo.held (c : Thread nD τ) (Pipeline.ucRefs τ sig) (Gen.V51 m (outs m) c) ∗ E₀ (F := F) 25 c) : sProp 𝕄) ⊢ (R25 m).pre c := by
  rw [V51_eq]; exact .rfl
theorem hpost25 (c : Dev nD) :
    (R25 m).post c ⊢ (iprop(StableHlo.held (c : Thread nD τ) (Pipeline.ucRefs τ sig) (Gen.V52 m (outs m) c) ∗ E₀ (F := F) 26 c) : sProp 𝕄) := by
  rw [V52_eq]; exact .rfl
/-- Launch 26 between the contents the chain names before and after it. -/
def R26 : Pipeline.RegionSeg (pcfgs (F := F)) (adm m) (pdats m) () defs₀ 𝒱₀ L lv 26 :=
  reg26 (adm m) (pdats m) (W53 m) (W54 m) (hd26 m) (hF26 m) (hrest26 m)
theorem hpre26 (c : Dev nD) :
    (iprop(StableHlo.held (c : Thread nD τ) (Pipeline.ucRefs τ sig) (Gen.V53 m (outs m) c) ∗ E₀ (F := F) 26 c) : sProp 𝕄) ⊢ (R26 m).pre c := by
  rw [V53_eq]; exact .rfl
theorem hpost26 (c : Dev nD) :
    (R26 m).post c ⊢ (iprop(StableHlo.held (c : Thread nD τ) (Pipeline.ucRefs τ sig) (Gen.V54 m (outs m) c) ∗ E₀ (F := F) 27 c) : sProp 𝕄) := by
  rw [V54_eq]; exact .rfl

end Cert.Kernel.Hand

end
-- ==== Proof.KB.Run.lean ====
/-
  THE RUN OF @main. Each of the 27 launches is a region of @main between two thread states: entered from every unscoped
  buffer of the core at the contents the chain names before it, left at the contents it names after it (the launch's
  output array replaced by what its pipeline leaves, every other buffer kept), beside the generator register and the
  core owing nothing. A gather launch is entered with its table's words in range, which holds when every neighbour
  index names a row of the feature array. With the host stretches between them these records are @main's items in
  order, so @main runs from the launch memory to the chain's last contents: every weakly fair execution terminates, and
  the final memory holds the result array at the chain's last value of it and every argument as launched.
-/
import proofs.«403631_j48275432407145_1_alg».proof.Proof.KB.Chain
import proofs.«403631_j48275432407145_1_alg».proof.Proof.KB.LaunchFacts
import proofs.«403631_j48275432407145_1_alg».proof.Proof.KB.RunCond
import proofs.«403631_j48275432407145_1_alg».proof.Proof.KB.Regs

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

variable (m : (ℓ : Loc nD τ sig) → Buf (Elt F) ℓ) (ρ : Dev nD → PrngReg)

/-- From any memory with zero counters whose neighbour indices all name rows of the feature array: every weakly fair
    execution of @main terminates, and the final memory holds the result array at the chain's last value of it and
    every argument as launched. -/
theorem run_main (h4 : ∀ i : S50000x16.Idx, (m ((0 : Dev nD).tc.loc main_arg4) i).toNat < 100000) :
    θ_run defs (onTc (τ := τ) (main (F := F))) ⟨m, fun _ => 0, ρ⟩ (fun r => ∀ c : Dev nD,
      r.2.mem ((c.tc : Thread nD τ).loc main_v73) = W54 m c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := Gen.run_cond (F := F) m (EP (F := F)) () 𝒱₀ L lv launch_hL ρ (outs m) (adm m) (pdats m) O₀ G₀ (u₀ (adm m)) (launch_hu0 (adm m))
    E₀ (launch_hE0 ρ) launch_hE27
    (R0 m h4) (hpre0 m h4) (hpost0 m h4)
    (R1 m h4) (hpre1 m h4) (hpost1 m h4)
    (R2 m h4) (hpre2 m h4) (hpost2 m h4)
    (R3 m h4) (hpre3 m h4) (hpost3 m h4)
    (R4 m h4) (hpre4 m h4) (hpost4 m h4)
    (R5 m h4) (hpre5 m h4) (hpost5 m h4)
    (R6 m h4) (hpre6 m h4) (hpost6 m h4)
    (R7 m h4) (hpre7 m h4) (hpost7 m h4)
    (R8 m h4) (hpre8 m h4) (hpost8 m h4)
    (R9 m h4) (hpre9 m h4) (hpost9 m h4)
    (R10 m h4) (hpre10 m h4) (hpost10 m h4)
    (R11 m h4) (hpre11 m h4) (hpost11 m h4)
    (R12 m h4) (hpre12 m h4) (hpost12 m h4)
    (R13 m h4) (hpre13 m h4) (hpost13 m h4)
    (R14 m h4) (hpre14 m h4) (hpost14 m h4)
    (R15 m h4) (hpre15 m h4) (hpost15 m h4)
    (R16 m h4) (hpre16 m h4) (hpost16 m h4)
    (R17 m h4) (hpre17 m h4) (hpost17 m h4)
    (R18 m h4) (hpre18 m h4) (hpost18 m h4)
    (R19 m h4) (hpre19 m h4) (hpost19 m h4)
    (R20 m h4) (hpre20 m h4) (hpost20 m h4)
    (R21 m h4) (hpre21 m h4) (hpost21 m h4)
    (R22 m h4) (hpre22 m h4) (hpost22 m h4)
    (R23 m h4) (hpre23 m h4) (hpost23 m h4)
    (R24 m h4) (hpre24 m h4) (hpost24 m h4)
    (R25 m) (hpre25 m) (hpost25 m)
    (R26 m) (hpre26 m) (hpost26 m)
  -- the generated chain's last valuation is this chain's last contents
  refine Eq.mp (congrArg (fun Q => θ_run defs (onTc (τ := τ) (main (F := F))) ⟨m, fun _ => 0, ρ⟩ Q) (funext fun r => ?_)) h
  exact forall_congr fun c => by rw [show Gen.V54 m (outs m) c main_v73 = W54 m c main_v73 from congrFun (V54_eq m c) _]

end Cert.Kernel.Hand

end
-- ==== Proof.Val.GatherValue.lean ====
/-
  What the gather launch computes, read entry by entry at the ideal values. A launch has two computed values. The first
  is the mean of the 16 gathered feature rows: at lane l, the sum over the 16 rows of their entries at l, divided by the
  number the pattern 0x41800000 denotes (sixteen). The second is a matrix product: at (r, e), the sum over the 128
  shared positions f of the left array at (r, f) times the right array at (f, e); both operands are first narrowed to
  the 16-bit format, which changes no value at the ideal values, and the product accumulates into zero. Each statement
  is over variables of the literal vector types, so it can be used at whatever arrays a launch point reads.
-/
import proofs.«403631_j48275432407145_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Val

open Cert.KernelIdeal Cert.KernelIdeal.Facts₀ Cert.KernelIdeal.Facts
open Idealize.ShloMosaic Idealize.ShloMosaic.ValueIdx

/-! ## The mean of the gathered rows -/

/-- The sum over the 16 gathered rows, at lane l: a sum over the row number. -/
theorem rowsum_apply (g : FVec Ideal S16x128 .f32) (h : S16x128.Reduces [0] S128) (hφ : FKind.Formats .f32)
    (hacc : (0x00000000#32 : BitVec 32) = FKind.add.neutral .f32 hφ) (l : Fin 128) :
    multiReduction (F := Ideal) .add [0] S128 g 0x00000000#32 h hφ hacc (ix1 l) = ∑ k : Fin 16, g (ix2 k l) := by
  refine (Ideal.multiReduction_add_single g 0x00000000#32 h hφ hacc (ix1 l)).trans ?_
  refine Finset.sum_congr rfl fun k _ => congrArg g ?_
  funext c
  apply Fin.ext
  match c with
  | ⟨0, _⟩ => rfl
  | ⟨1, _⟩ => rfl

/-- The first computed value at lane l: the mean of the 16 gathered rows there, their sum divided by what 0x41800000
    denotes. -/
theorem pay1_apply (g : Vec Ideal S16x128 .f32) (l : Fin 128) :
    Gen.k24_pay1 (F := Ideal) g (ix2 0 l)
      = Ideal.div (∑ k : Fin 16, g (ix2 k l)) (Ideal.ofBits .f32 0x41800000#32) := by
  unfold Gen.k24_pay1
  dsimp only
  refine (shapeCast_apply _ _ (ix2 0 l) (ix1 l) ?_).trans ?_
  · rw [Shape.rowMajor_val_one, Shape.rowMajor_val_two]
    show l.val = 0 * 128 + l.val
    omega
  · exact congrArg (fun x => Ideal.div x (Ideal.ofBits .f32 0x41800000#32)) (rowsum_apply g _ _ _ l)

/-- The pattern 0x41800000 denotes sixteen: the number of gathered rows the mean divides by. -/
theorem ofBits_sixteen : Ideal.ofBits .f32 0x41800000#32 = ((16 : ℝ) : EReal) := by
  simp [Ideal.ofBits, Ideal.ieee]
  rw [← EReal.coe_mul]
  exact congrArg _ (by norm_num)

/-! ## The matrix product

The product's operand positions: at output (r, e) and shared position f the left operand is read at (r, f) and the
right one at (f, e). One statement per operand axis. -/

theorem lhs_row (j : S1000x128.Idx) (k : dot_S1000x128_S128x128_S1000x128_1_0_0_1_n_n.contr.Idx) :
    (dot_S1000x128_S128x128_S1000x128_1_0_0_1_n_n.lhsIdx j k 0).val = (j 0).val := rfl

theorem lhs_col (j : S1000x128.Idx) (k : dot_S1000x128_S128x128_S1000x128_1_0_0_1_n_n.contr.Idx) :
    (dot_S1000x128_S128x128_S1000x128_1_0_0_1_n_n.lhsIdx j k 1).val = (k ⟨0, by decide⟩).val := rfl

theorem rhs_row (j : S1000x128.Idx) (k : dot_S1000x128_S128x128_S1000x128_1_0_0_1_n_n.contr.Idx) :
    (dot_S1000x128_S128x128_S1000x128_1_0_0_1_n_n.rhsIdx j k 0).val = (k ⟨0, by decide⟩).val := rfl

theorem rhs_col (j : S1000x128.Idx) (k : dot_S1000x128_S128x128_S1000x128_1_0_0_1_n_n.contr.Idx) :
    (dot_S1000x128_S128x128_S1000x128_1_0_0_1_n_n.rhsIdx j k 1).val = (j 1).val := rfl

/-- The second computed value at (r, e): row r of the left array times column e of the right one, a sum over the 128
    shared positions. The narrowing of both operands to the 16-bit format changes no value here. -/
theorem pay2_apply (s : Vec Ideal S1000x128 .f32) (w : Vec Ideal S128x128 .f32) (r : Fin 1000) (e : Fin 128) :
    Gen.k24_pay2 (F := Ideal) s w (ix2 r e) = ∑ f : Fin 128, s (ix2 r f) * w (ix2 f e) := by
  unfold Gen.k24_pay2
  refine (Ideal.matmul_constant_zero_apply dot_S1000x128_S128x128_S1000x128_1_0_0_1_n_n none _ _ (ix2 r e)).trans ?_
  refine (Equiv.sum_comp (contrEquiv1 dot_S1000x128_S128x128_S1000x128_1_0_0_1_n_n 128 rfl rfl).symm _).symm.trans ?_
  refine Finset.sum_congr rfl fun f _ => ?_
  have hk := contrEquiv1_symm_val dot_S1000x128_S128x128_S1000x128_1_0_0_1_n_n 128 rfl rfl f
  refine congrArg₂ (· * ·) (congrArg s ?_) (congrArg w ?_)
  · exact Shape.idx_ext₂ (lhs_row _ _) ((lhs_col _ _).trans hk)
  · exact Shape.idx_ext₂ ((rhs_row _ _).trans hk) (rhs_col _ _)

/-! ## The 25 gather launches compute the same two values

The launches differ only in which table they are handed: their two computed values are one text. -/

theorem k0_pay1_eq : @Gen.k0_pay1 = @Gen.k24_pay1 := rfl
theorem k0_pay2_eq : @Gen.k0_pay2 = @Gen.k24_pay2 := rfl
theorem k1_pay1_eq : @Gen.k1_pay1 = @Gen.k24_pay1 := rfl
theorem k1_pay2_eq : @Gen.k1_pay2 = @Gen.k24_pay2 := rfl
theorem k2_pay1_eq : @Gen.k2_pay1 = @Gen.k24_pay1 := rfl
theorem k2_pay2_eq : @Gen.k2_pay2 = @Gen.k24_pay2 := rfl
theorem k3_pay1_eq : @Gen.k3_pay1 = @Gen.k24_pay1 := rfl
theorem k3_pay2_eq : @Gen.k3_pay2 = @Gen.k24_pay2 := rfl
theorem k4_pay1_eq : @Gen.k4_pay1 = @Gen.k24_pay1 := rfl
theorem k4_pay2_eq : @Gen.k4_pay2 = @Gen.k24_pay2 := rfl
theorem k5_pay1_eq : @Gen.k5_pay1 = @Gen.k24_pay1 := rfl
theorem k5_pay2_eq : @Gen.k5_pay2 = @Gen.k24_pay2 := rfl
theorem k6_pay1_eq : @Gen.k6_pay1 = @Gen.k24_pay1 := rfl
theorem k6_pay2_eq : @Gen.k6_pay2 = @Gen.k24_pay2 := rfl
theorem k7_pay1_eq : @Gen.k7_pay1 = @Gen.k24_pay1 := rfl
theorem k7_pay2_eq : @Gen.k7_pay2 = @Gen.k24_pay2 := rfl
theorem k8_pay1_eq : @Gen.k8_pay1 = @Gen.k24_pay1 := rfl
theorem k8_pay2_eq : @Gen.k8_pay2 = @Gen.k24_pay2 := rfl
theorem k9_pay1_eq : @Gen.k9_pay1 = @Gen.k24_pay1 := rfl
theorem k9_pay2_eq : @Gen.k9_pay2 = @Gen.k24_pay2 := rfl
theorem k10_pay1_eq : @Gen.k10_pay1 = @Gen.k24_pay1 := rfl
theorem k10_pay2_eq : @Gen.k10_pay2 = @Gen.k24_pay2 := rfl
theorem k11_pay1_eq : @Gen.k11_pay1 = @Gen.k24_pay1 := rfl
theorem k11_pay2_eq : @Gen.k11_pay2 = @Gen.k24_pay2 := rfl
theorem k12_pay1_eq : @Gen.k12_pay1 = @Gen.k24_pay1 := rfl
theorem k12_pay2_eq : @Gen.k12_pay2 = @Gen.k24_pay2 := rfl
theorem k13_pay1_eq : @Gen.k13_pay1 = @Gen.k24_pay1 := rfl
theorem k13_pay2_eq : @Gen.k13_pay2 = @Gen.k24_pay2 := rfl
theorem k14_pay1_eq : @Gen.k14_pay1 = @Gen.k24_pay1 := rfl
theorem k14_pay2_eq : @Gen.k14_pay2 = @Gen.k24_pay2 := rfl
theorem k15_pay1_eq : @Gen.k15_pay1 = @Gen.k24_pay1 := rfl
theorem k15_pay2_eq : @Gen.k15_pay2 = @Gen.k24_pay2 := rfl
theorem k16_pay1_eq : @Gen.k16_pay1 = @Gen.k24_pay1 := rfl
theorem k16_pay2_eq : @Gen.k16_pay2 = @Gen.k24_pay2 := rfl
theorem k17_pay1_eq : @Gen.k17_pay1 = @Gen.k24_pay1 := rfl
theorem k17_pay2_eq : @Gen.k17_pay2 = @Gen.k24_pay2 := rfl
theorem k18_pay1_eq : @Gen.k18_pay1 = @Gen.k24_pay1 := rfl
theorem k18_pay2_eq : @Gen.k18_pay2 = @Gen.k24_pay2 := rfl
theorem k19_pay1_eq : @Gen.k19_pay1 = @Gen.k24_pay1 := rfl
theorem k19_pay2_eq : @Gen.k19_pay2 = @Gen.k24_pay2 := rfl
theorem k20_pay1_eq : @Gen.k20_pay1 = @Gen.k24_pay1 := rfl
theorem k20_pay2_eq : @Gen.k20_pay2 = @Gen.k24_pay2 := rfl
theorem k21_pay1_eq : @Gen.k21_pay1 = @Gen.k24_pay1 := rfl
theorem k21_pay2_eq : @Gen.k21_pay2 = @Gen.k24_pay2 := rfl
theorem k22_pay1_eq : @Gen.k22_pay1 = @Gen.k24_pay1 := rfl
theorem k22_pay2_eq : @Gen.k22_pay2 = @Gen.k24_pay2 := rfl
theorem k23_pay1_eq : @Gen.k23_pay1 = @Gen.k24_pay1 := rfl
theorem k23_pay2_eq : @Gen.k23_pay2 = @Gen.k24_pay2 := rfl

end Cert.Val

end
-- ==== Proof.Val.ChunkValue.lean ====
/-
  The value of one launch of the gather kernel, stated over what the launch reads. A launch serves 2000 consecutive nodes
  of the batch, launch `K` the nodes from `2000 · K` on; its table holds those nodes' neighbour words, neighbour-major.
  For each served node the kernel fetches the 16 feature rows the node's words name and averages them; each of the two
  halves of 1000 nodes is then multiplied by the weight matrix. Whatever arrays hold the fetched rows and the averages —
  as long as the fetched rows are the table's rows the words name, and the averages are the kernel's own first computed
  value of them — the second computed value at a node and a column is the specification's projected value there.
-/
import proofs.«403631_j48275432407145_1_alg».proof.Proof.Val.Spec
import proofs.«403631_j48275432407145_1_alg».proof.Proof.Val.GatherValue

noncomputable section

open scoped BigOperators

namespace Cert.Val

open Cert.KernelIdeal Idealize.ShloMosaic Idealize.ShloMosaic.ValueIdx

/-- ONE LAUNCH'S PRODUCT IS THE SPECIFICATION'S PROJECTED VALUE: for the launch serving nodes `2000 · K` on, with table
    `tb` (neighbour-major words of those nodes), fetched rows `gath` and averages `means` per half. -/
theorem chunk_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (gath : Fin 2000 → Vec Ideal S16x128 .f32)
    (hg : ∀ (q : Fin 2000) (k : Fin 16) (l : Fin 128) (h : (tb (ix2 k q)).toNat < 100000),
      gath q (ix2 k l) = feat (ix2 (⟨(tb (ix2 k q)).toNat, h⟩ : Fin 100000) l))
    (means : Fin 2 → Vec Ideal S1000x128 .f32)
    (hm : ∀ (core : Fin 2) (r : Fin 1000) (l : Fin 128),
      means core (ix2 r l) = Gen.k24_pay1 (F := Ideal) (gath ⟨core.val * 1000 + r.val, by omega⟩) (ix2 0 l))
    (core : Fin 2) (r : Fin 1000) (e : Fin 128) :
    Gen.k24_pay2 (F := Ideal) (means core) w (ix2 r e)
      = xOf feat w idx (⟨2000 * K.val + core.val * 1000 + r.val, by omega⟩ : Fin 50000) e := by
  rw [pay2_apply]
  unfold xOf
  refine Finset.sum_congr rfl fun f _ => congrArg (· * w (ix2 f e)) ?_
  rw [hm core r f, pay1_apply]
  unfold aggOf
  refine congrArg (fun s => Ideal.div s (Ideal.ofBits .f32 0x41800000#32)) ?_
  refine Finset.sum_congr rfl fun k _ => ?_
  have hq : (⟨2000 * K.val + (⟨core.val * 1000 + r.val, by omega⟩ : Fin 2000).val, by omega⟩ : Fin 50000)
      = ⟨2000 * K.val + core.val * 1000 + r.val, by omega⟩ := Fin.ext (by show 2000 * K.val + (core.val * 1000 + r.val) = 2000 * K.val + core.val * 1000 + r.val; omega)
  have ht : tb (ix2 k (⟨core.val * 1000 + r.val, by omega⟩ : Fin 2000))
      = idx (ix2 (⟨2000 * K.val + core.val * 1000 + r.val, by omega⟩ : Fin 50000) k) := by
    rw [htb, hq]
  have hlt : (tb (ix2 k (⟨core.val * 1000 + r.val, by omega⟩ : Fin 2000))).toNat < 100000 := by
    rw [ht]; exact hin _
  rw [hg _ k f hlt]
  refine congrArg feat ?_
  funext a; refine Fin.ext ?_
  match a with
  | ⟨0, _⟩ =>
    show (tb (ix2 k (⟨core.val * 1000 + r.val, by omega⟩ : Fin 2000))).toNat
      = (rowOf (idx (ix2 (⟨2000 * K.val + core.val * 1000 + r.val, by omega⟩ : Fin 50000) k))).val
    rw [rowOf_val _ (hin _), ht]
  | ⟨1, _⟩ => rfl

end Cert.Val

end
-- ==== Proof.Val.ChunkInst.lean ====
/-
  One launch's output array is the specification's projected values of the 2000 nodes it serves. The launch's output,
  index by index, is the kernel's second computed value over the averages of each half of 1000 nodes, the averages the
  kernel's first computed value over the rows fetched at each grid point; the abstract statement of that value applies
  once three things are read off: a grid point's number is its half times 1000 plus its row, a one-row vector's lane is
  the rank-2 index (0, lane), and the fetched rows at a grid point are the feature rows that point's table column names.
  The last is the body's own fact about what its copies fetch, taken here as a hypothesis in the body's form.
-/
import proofs.«403631_j48275432407145_1_alg».proof.Proof.Val.ChunkValue
import proofs.«403631_j48275432407145_1_alg».proof.Proof.KI.G24Dat

noncomputable section

open scoped BigOperators

namespace Cert.Val

open Cert.KernelIdeal Cert.KernelIdeal.Gen Cert.KernelIdeal.Hand Idealize.ShloMosaic Idealize.ShloMosaic.ValueIdx

/-- The gather launch's grid has 2000 points. -/
theorem grid24_N : grid24.N = 2000 := by decide

/-- A one-row vector's lane is the rank-2 index (0, lane). -/
theorem lane24_eq (l : Fin 128) : lane24 l = ix2 (0 : Fin 1) l := by
  funext a; refine Fin.ext ?_
  match a with
  | ⟨0, _⟩ => rfl
  | ⟨1, _⟩ => rfl

/-- Entry (row, lane) of a block of rows is the rank-2 index (row, lane). -/
theorem cell24_eq (r : ℕ) (hr : r < 1000) (l : Fin 128) : cell24 r hr l = ix2 (⟨r, hr⟩ : Fin 1000) l := by
  funext a; refine Fin.ext ?_
  match a with
  | ⟨0, _⟩ => rfl
  | ⟨1, _⟩ => rfl

/-- What the body's copies fetch at a grid point, in the body's form: entry (k, l) of the fetched rows is the feature
    array at the row the table names at neighbour `k`, column (half · 1000 + row), lane `l`. -/
def FetchedRows (tb : Vec Ideal S16x2000 .i32) (A0 : Vec Ideal S100000x128 .f32) : Prop :=
  ∀ (i : grid24.Coords) (k : Fin 16) (l : Fin 128) (hc : (i 0).val * 1000 + (i 1).val < 2000)
    (h : (tb (ix2 k (⟨(i 0).val * 1000 + (i 1).val, hc⟩ : Fin 2000))).toNat < 100000),
    gath24 (F := Ideal) i tb A0 (ix2 k l)
      = A0 (ix2 (⟨(tb (ix2 k (⟨(i 0).val * 1000 + (i 1).val, hc⟩ : Fin 2000))).toNat, h⟩ : Fin 100000) l)

/-- ONE LAUNCH'S OUTPUT at served node `q`, column `e`: the specification's projected value of node `2000 · K + q`. -/
theorem xChunk24_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk24 (F := Ideal) tb feat w (ix2 q e) = xOf feat w idx (⟨2000 * K.val + q.val, by omega⟩ : Fin 50000) e := by
  have hpt : ∀ q' : Fin 2000, q'.val < grid24.N := fun q' => by rw [grid24_N]; exact q'.isLt
  have hg : ∀ (q' : Fin 2000) (k : Fin 16) (l : Fin 128) (h : (tb (ix2 k q')).toNat < 100000),
      gath24 (F := Ideal) (grid24.coords ⟨q'.val, hpt q'⟩) tb feat (ix2 k l)
        = feat (ix2 (⟨(tb (ix2 k q')).toNat, h⟩ : Fin 100000) l) := by
    intro q' k l h
    have h0 := blockAt24_coord ⟨q'.val, hpt q'⟩
    have h1 := rowAt24_coord ⟨q'.val, hpt q'⟩
    have hc : (grid24.coords ⟨q'.val, hpt q'⟩ 0).val * 1000 + (grid24.coords ⟨q'.val, hpt q'⟩ 1).val < 2000 := by
      rw [h0, h1]; have := q'.isLt; show q'.val / 1000 * 1000 + q'.val % 1000 < 2000; omega
    have eq : (⟨(grid24.coords ⟨q'.val, hpt q'⟩ 0).val * 1000 + (grid24.coords ⟨q'.val, hpt q'⟩ 1).val, hc⟩ : Fin 2000) = q' :=
      Fin.ext (by
        show (grid24.coords ⟨q'.val, hpt q'⟩ 0).val * 1000 + (grid24.coords ⟨q'.val, hpt q'⟩ 1).val = q'.val
        rw [h0, h1]; show q'.val / 1000 * 1000 + q'.val % 1000 = q'.val; omega)
    rw [hga (grid24.coords ⟨q'.val, hpt q'⟩) k l hc (by rw [eq]; exact h)]
    exact congrArg (fun a : Fin 100000 => feat (ix2 a l)) (Fin.ext (by
      show (tb (ix2 k _)).toNat = (tb (ix2 k q')).toNat
      rw [eq]))
  have hm : ∀ (core : Fin 2) (r : Fin 1000) (l : Fin 128),
      means24 (F := Ideal) tb feat core.val (ix2 r l)
        = Gen.k24_pay1 (F := Ideal)
            (gath24 (F := Ideal) (grid24.coords ⟨(⟨core.val * 1000 + r.val, by omega⟩ : Fin 2000).val, hpt _⟩) tb feat) (ix2 0 l) := by
    intro core r l
    unfold means24
    rw [lane24_eq]
    have hp : pt24 core.val ((ix2 r l : S1000x128.Idx) 0).val = ⟨(⟨core.val * 1000 + r.val, by omega⟩ : Fin 2000).val, hpt _⟩ :=
      Fin.ext (pt24_val core.val r.val core.isLt r.isLt)
    rw [hp]
  have hq0 : q.val / 1000 < 2 := by have := q.isLt; omega
  have hq1 : q.val % 1000 < 1000 := Nat.mod_lt _ (by decide)
  have key := chunk_value feat w idx hin K tb htb
    (fun q' => gath24 (F := Ideal) (grid24.coords ⟨q'.val, hpt q'⟩) tb feat) hg
    (fun core => means24 (F := Ideal) tb feat core.val) hm ⟨q.val / 1000, hq0⟩ ⟨q.val % 1000, hq1⟩ e
  have hidx : (⟨2000 * K.val + (⟨q.val / 1000, hq0⟩ : Fin 2).val * 1000 + (⟨q.val % 1000, hq1⟩ : Fin 1000).val, by omega⟩ : Fin 50000)
      = ⟨2000 * K.val + q.val, by omega⟩ :=
    Fin.ext (by show 2000 * K.val + q.val / 1000 * 1000 + q.val % 1000 = 2000 * K.val + q.val; omega)
  rw [hidx] at key
  rw [← key]
  show xBlk24 (F := Ideal) tb feat w (q.val / 1000) (cell24 (q.val % 1000) _ e) = _
  rw [cell24_eq]
  rfl

end Cert.Val

end
-- ==== Proof.Val.ChunkSibs.lean ====
/-
  The twenty-four sibling launches of the gather kernel differ from launch 24 only in which table they are handed and in
  the names of their grid and windows: the output function of each, index by index, is launch 24's very function, and
  so launch K's output at served node q, column e, is the specification's projected value of node 2000 · K' + q for
  whatever block K' of the batch its table holds.
-/
import proofs.«403631_j48275432407145_1_alg».proof.Proof.KI.G0Dat
import proofs.«403631_j48275432407145_1_alg».proof.Proof.KI.G1Dat
import proofs.«403631_j48275432407145_1_alg».proof.Proof.KI.G2Dat
import proofs.«403631_j48275432407145_1_alg».proof.Proof.KI.G3Dat
import proofs.«403631_j48275432407145_1_alg».proof.Proof.KI.G4Dat
import proofs.«403631_j48275432407145_1_alg».proof.Proof.KI.G5Dat
import proofs.«403631_j48275432407145_1_alg».proof.Proof.KI.G6Dat
import proofs.«403631_j48275432407145_1_alg».proof.Proof.KI.G7Dat
import proofs.«403631_j48275432407145_1_alg».proof.Proof.KI.G8Dat
import proofs.«403631_j48275432407145_1_alg».proof.Proof.KI.G9Dat
import proofs.«403631_j48275432407145_1_alg».proof.Proof.KI.G10Dat
import proofs.«403631_j48275432407145_1_alg».proof.Proof.KI.G11Dat
import proofs.«403631_j48275432407145_1_alg».proof.Proof.KI.G12Dat
import proofs.«403631_j48275432407145_1_alg».proof.Proof.KI.G13Dat
import proofs.«403631_j48275432407145_1_alg».proof.Proof.KI.G14Dat
import proofs.«403631_j48275432407145_1_alg».proof.Proof.KI.G15Dat
import proofs.«403631_j48275432407145_1_alg».proof.Proof.KI.G16Dat
import proofs.«403631_j48275432407145_1_alg».proof.Proof.KI.G17Dat
import proofs.«403631_j48275432407145_1_alg».proof.Proof.KI.G18Dat
import proofs.«403631_j48275432407145_1_alg».proof.Proof.KI.G19Dat
import proofs.«403631_j48275432407145_1_alg».proof.Proof.KI.G20Dat
import proofs.«403631_j48275432407145_1_alg».proof.Proof.KI.G21Dat
import proofs.«403631_j48275432407145_1_alg».proof.Proof.KI.G22Dat
import proofs.«403631_j48275432407145_1_alg».proof.Proof.KI.G23Dat
import proofs.«403631_j48275432407145_1_alg».proof.Proof.KI.G24Dat
import proofs.«403631_j48275432407145_1_alg».proof.Proof.Val.ChunkInst

noncomputable section

namespace Cert.Val

open Cert.KernelIdeal Cert.KernelIdeal.Gen Cert.KernelIdeal.Hand Idealize.ShloMosaic Idealize.ShloMosaic.ValueIdx

/-- Launch 0's output function is launch 24's. -/
theorem xChunk0_eq : @Cert.KernelIdeal.Hand.xChunk0 = @Cert.KernelIdeal.Hand.xChunk24 := rfl

/-- Launch 0's output at served node `q`, column `e`, when its table holds block `K` of the batch. -/
theorem xChunk0_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk0 (F := Ideal) tb feat w (ix2 q e) = xOf feat w idx (⟨2000 * K.val + q.val, by omega⟩ : Fin 50000) e := by
  rw [xChunk0_eq]
  exact xChunk24_value feat w idx hin K tb htb hga q e

/-- Launch 1's output function is launch 24's. -/
theorem xChunk1_eq : @Cert.KernelIdeal.Hand.xChunk1 = @Cert.KernelIdeal.Hand.xChunk24 := rfl

/-- Launch 1's output at served node `q`, column `e`, when its table holds block `K` of the batch. -/
theorem xChunk1_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk1 (F := Ideal) tb feat w (ix2 q e) = xOf feat w idx (⟨2000 * K.val + q.val, by omega⟩ : Fin 50000) e := by
  rw [xChunk1_eq]
  exact xChunk24_value feat w idx hin K tb htb hga q e

/-- Launch 2's output function is launch 24's. -/
theorem xChunk2_eq : @Cert.KernelIdeal.Hand.xChunk2 = @Cert.KernelIdeal.Hand.xChunk24 := rfl

/-- Launch 2's output at served node `q`, column `e`, when its table holds block `K` of the batch. -/
theorem xChunk2_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk2 (F := Ideal) tb feat w (ix2 q e) = xOf feat w idx (⟨2000 * K.val + q.val, by omega⟩ : Fin 50000) e := by
  rw [xChunk2_eq]
  exact xChunk24_value feat w idx hin K tb htb hga q e

/-- Launch 3's output function is launch 24's. -/
theorem xChunk3_eq : @Cert.KernelIdeal.Hand.xChunk3 = @Cert.KernelIdeal.Hand.xChunk24 := rfl

/-- Launch 3's output at served node `q`, column `e`, when its table holds block `K` of the batch. -/
theorem xChunk3_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk3 (F := Ideal) tb feat w (ix2 q e) = xOf feat w idx (⟨2000 * K.val + q.val, by omega⟩ : Fin 50000) e := by
  rw [xChunk3_eq]
  exact xChunk24_value feat w idx hin K tb htb hga q e

/-- Launch 4's output function is launch 24's. -/
theorem xChunk4_eq : @Cert.KernelIdeal.Hand.xChunk4 = @Cert.KernelIdeal.Hand.xChunk24 := rfl

/-- Launch 4's output at served node `q`, column `e`, when its table holds block `K` of the batch. -/
theorem xChunk4_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk4 (F := Ideal) tb feat w (ix2 q e) = xOf feat w idx (⟨2000 * K.val + q.val, by omega⟩ : Fin 50000) e := by
  rw [xChunk4_eq]
  exact xChunk24_value feat w idx hin K tb htb hga q e

/-- Launch 5's output function is launch 24's. -/
theorem xChunk5_eq : @Cert.KernelIdeal.Hand.xChunk5 = @Cert.KernelIdeal.Hand.xChunk24 := rfl

/-- Launch 5's output at served node `q`, column `e`, when its table holds block `K` of the batch. -/
theorem xChunk5_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk5 (F := Ideal) tb feat w (ix2 q e) = xOf feat w idx (⟨2000 * K.val + q.val, by omega⟩ : Fin 50000) e := by
  rw [xChunk5_eq]
  exact xChunk24_value feat w idx hin K tb htb hga q e

/-- Launch 6's output function is launch 24's. -/
theorem xChunk6_eq : @Cert.KernelIdeal.Hand.xChunk6 = @Cert.KernelIdeal.Hand.xChunk24 := rfl

/-- Launch 6's output at served node `q`, column `e`, when its table holds block `K` of the batch. -/
theorem xChunk6_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk6 (F := Ideal) tb feat w (ix2 q e) = xOf feat w idx (⟨2000 * K.val + q.val, by omega⟩ : Fin 50000) e := by
  rw [xChunk6_eq]
  exact xChunk24_value feat w idx hin K tb htb hga q e

/-- Launch 7's output function is launch 24's. -/
theorem xChunk7_eq : @Cert.KernelIdeal.Hand.xChunk7 = @Cert.KernelIdeal.Hand.xChunk24 := rfl

/-- Launch 7's output at served node `q`, column `e`, when its table holds block `K` of the batch. -/
theorem xChunk7_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk7 (F := Ideal) tb feat w (ix2 q e) = xOf feat w idx (⟨2000 * K.val + q.val, by omega⟩ : Fin 50000) e := by
  rw [xChunk7_eq]
  exact xChunk24_value feat w idx hin K tb htb hga q e

/-- Launch 8's output function is launch 24's. -/
theorem xChunk8_eq : @Cert.KernelIdeal.Hand.xChunk8 = @Cert.KernelIdeal.Hand.xChunk24 := rfl

/-- Launch 8's output at served node `q`, column `e`, when its table holds block `K` of the batch. -/
theorem xChunk8_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk8 (F := Ideal) tb feat w (ix2 q e) = xOf feat w idx (⟨2000 * K.val + q.val, by omega⟩ : Fin 50000) e := by
  rw [xChunk8_eq]
  exact xChunk24_value feat w idx hin K tb htb hga q e

/-- Launch 9's output function is launch 24's. -/
theorem xChunk9_eq : @Cert.KernelIdeal.Hand.xChunk9 = @Cert.KernelIdeal.Hand.xChunk24 := rfl

/-- Launch 9's output at served node `q`, column `e`, when its table holds block `K` of the batch. -/
theorem xChunk9_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk9 (F := Ideal) tb feat w (ix2 q e) = xOf feat w idx (⟨2000 * K.val + q.val, by omega⟩ : Fin 50000) e := by
  rw [xChunk9_eq]
  exact xChunk24_value feat w idx hin K tb htb hga q e

/-- Launch 10's output function is launch 24's. -/
theorem xChunk10_eq : @Cert.KernelIdeal.Hand.xChunk10 = @Cert.KernelIdeal.Hand.xChunk24 := rfl

/-- Launch 10's output at served node `q`, column `e`, when its table holds block `K` of the batch. -/
theorem xChunk10_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk10 (F := Ideal) tb feat w (ix2 q e) = xOf feat w idx (⟨2000 * K.val + q.val, by omega⟩ : Fin 50000) e := by
  rw [xChunk10_eq]
  exact xChunk24_value feat w idx hin K tb htb hga q e

/-- Launch 11's output function is launch 24's. -/
theorem xChunk11_eq : @Cert.KernelIdeal.Hand.xChunk11 = @Cert.KernelIdeal.Hand.xChunk24 := rfl

/-- Launch 11's output at served node `q`, column `e`, when its table holds block `K` of the batch. -/
theorem xChunk11_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk11 (F := Ideal) tb feat w (ix2 q e) = xOf feat w idx (⟨2000 * K.val + q.val, by omega⟩ : Fin 50000) e := by
  rw [xChunk11_eq]
  exact xChunk24_value feat w idx hin K tb htb hga q e

/-- Launch 12's output function is launch 24's. -/
theorem xChunk12_eq : @Cert.KernelIdeal.Hand.xChunk12 = @Cert.KernelIdeal.Hand.xChunk24 := rfl

/-- Launch 12's output at served node `q`, column `e`, when its table holds block `K` of the batch. -/
theorem xChunk12_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk12 (F := Ideal) tb feat w (ix2 q e) = xOf feat w idx (⟨2000 * K.val + q.val, by omega⟩ : Fin 50000) e := by
  rw [xChunk12_eq]
  exact xChunk24_value feat w idx hin K tb htb hga q e

/-- Launch 13's output function is launch 24's. -/
theorem xChunk13_eq : @Cert.KernelIdeal.Hand.xChunk13 = @Cert.KernelIdeal.Hand.xChunk24 := rfl

/-- Launch 13's output at served node `q`, column `e`, when its table holds block `K` of the batch. -/
theorem xChunk13_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk13 (F := Ideal) tb feat w (ix2 q e) = xOf feat w idx (⟨2000 * K.val + q.val, by omega⟩ : Fin 50000) e := by
  rw [xChunk13_eq]
  exact xChunk24_value feat w idx hin K tb htb hga q e

/-- Launch 14's output function is launch 24's. -/
theorem xChunk14_eq : @Cert.KernelIdeal.Hand.xChunk14 = @Cert.KernelIdeal.Hand.xChunk24 := rfl

/-- Launch 14's output at served node `q`, column `e`, when its table holds block `K` of the batch. -/
theorem xChunk14_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk14 (F := Ideal) tb feat w (ix2 q e) = xOf feat w idx (⟨2000 * K.val + q.val, by omega⟩ : Fin 50000) e := by
  rw [xChunk14_eq]
  exact xChunk24_value feat w idx hin K tb htb hga q e

/-- Launch 15's output function is launch 24's. -/
theorem xChunk15_eq : @Cert.KernelIdeal.Hand.xChunk15 = @Cert.KernelIdeal.Hand.xChunk24 := rfl

/-- Launch 15's output at served node `q`, column `e`, when its table holds block `K` of the batch. -/
theorem xChunk15_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk15 (F := Ideal) tb feat w (ix2 q e) = xOf feat w idx (⟨2000 * K.val + q.val, by omega⟩ : Fin 50000) e := by
  rw [xChunk15_eq]
  exact xChunk24_value feat w idx hin K tb htb hga q e

/-- Launch 16's output function is launch 24's. -/
theorem xChunk16_eq : @Cert.KernelIdeal.Hand.xChunk16 = @Cert.KernelIdeal.Hand.xChunk24 := rfl

/-- Launch 16's output at served node `q`, column `e`, when its table holds block `K` of the batch. -/
theorem xChunk16_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk16 (F := Ideal) tb feat w (ix2 q e) = xOf feat w idx (⟨2000 * K.val + q.val, by omega⟩ : Fin 50000) e := by
  rw [xChunk16_eq]
  exact xChunk24_value feat w idx hin K tb htb hga q e

/-- Launch 17's output function is launch 24's. -/
theorem xChunk17_eq : @Cert.KernelIdeal.Hand.xChunk17 = @Cert.KernelIdeal.Hand.xChunk24 := rfl

/-- Launch 17's output at served node `q`, column `e`, when its table holds block `K` of the batch. -/
theorem xChunk17_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk17 (F := Ideal) tb feat w (ix2 q e) = xOf feat w idx (⟨2000 * K.val + q.val, by omega⟩ : Fin 50000) e := by
  rw [xChunk17_eq]
  exact xChunk24_value feat w idx hin K tb htb hga q e

/-- Launch 18's output function is launch 24's. -/
theorem xChunk18_eq : @Cert.KernelIdeal.Hand.xChunk18 = @Cert.KernelIdeal.Hand.xChunk24 := rfl

/-- Launch 18's output at served node `q`, column `e`, when its table holds block `K` of the batch. -/
theorem xChunk18_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk18 (F := Ideal) tb feat w (ix2 q e) = xOf feat w idx (⟨2000 * K.val + q.val, by omega⟩ : Fin 50000) e := by
  rw [xChunk18_eq]
  exact xChunk24_value feat w idx hin K tb htb hga q e

/-- Launch 19's output function is launch 24's. -/
theorem xChunk19_eq : @Cert.KernelIdeal.Hand.xChunk19 = @Cert.KernelIdeal.Hand.xChunk24 := rfl

/-- Launch 19's output at served node `q`, column `e`, when its table holds block `K` of the batch. -/
theorem xChunk19_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk19 (F := Ideal) tb feat w (ix2 q e) = xOf feat w idx (⟨2000 * K.val + q.val, by omega⟩ : Fin 50000) e := by
  rw [xChunk19_eq]
  exact xChunk24_value feat w idx hin K tb htb hga q e

/-- Launch 20's output function is launch 24's. -/
theorem xChunk20_eq : @Cert.KernelIdeal.Hand.xChunk20 = @Cert.KernelIdeal.Hand.xChunk24 := rfl

/-- Launch 20's output at served node `q`, column `e`, when its table holds block `K` of the batch. -/
theorem xChunk20_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk20 (F := Ideal) tb feat w (ix2 q e) = xOf feat w idx (⟨2000 * K.val + q.val, by omega⟩ : Fin 50000) e := by
  rw [xChunk20_eq]
  exact xChunk24_value feat w idx hin K tb htb hga q e

/-- Launch 21's output function is launch 24's. -/
theorem xChunk21_eq : @Cert.KernelIdeal.Hand.xChunk21 = @Cert.KernelIdeal.Hand.xChunk24 := rfl

/-- Launch 21's output at served node `q`, column `e`, when its table holds block `K` of the batch. -/
theorem xChunk21_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk21 (F := Ideal) tb feat w (ix2 q e) = xOf feat w idx (⟨2000 * K.val + q.val, by omega⟩ : Fin 50000) e := by
  rw [xChunk21_eq]
  exact xChunk24_value feat w idx hin K tb htb hga q e

/-- Launch 22's output function is launch 24's. -/
theorem xChunk22_eq : @Cert.KernelIdeal.Hand.xChunk22 = @Cert.KernelIdeal.Hand.xChunk24 := rfl

/-- Launch 22's output at served node `q`, column `e`, when its table holds block `K` of the batch. -/
theorem xChunk22_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk22 (F := Ideal) tb feat w (ix2 q e) = xOf feat w idx (⟨2000 * K.val + q.val, by omega⟩ : Fin 50000) e := by
  rw [xChunk22_eq]
  exact xChunk24_value feat w idx hin K tb htb hga q e

/-- Launch 23's output function is launch 24's. -/
theorem xChunk23_eq : @Cert.KernelIdeal.Hand.xChunk23 = @Cert.KernelIdeal.Hand.xChunk24 := rfl

/-- Launch 23's output at served node `q`, column `e`, when its table holds block `K` of the batch. -/
theorem xChunk23_value (feat : Vec Ideal S100000x128 .f32) (w : Vec Ideal S128x128 .f32) (idx : IVec S50000x16 32)
    (hin : ∀ i, (idx i).toNat < 100000) (K : Fin 25) (tb : Vec Ideal S16x2000 .i32)
    (htb : ∀ (k : Fin 16) (q : Fin 2000), tb (ix2 k q) = idx (ix2 (⟨2000 * K.val + q.val, by omega⟩ : Fin 50000) k))
    (hga : FetchedRows tb feat) (q : Fin 2000) (e : Fin 128) :
    xChunk23 (F := Ideal) tb feat w (ix2 q e) = xOf feat w idx (⟨2000 * K.val + q.val, by omega⟩ : Fin 50000) e := by
  rw [xChunk23_eq]
  exact xChunk24_value feat w idx hin K tb htb hga q e

end Cert.Val

end
-- ==== Proof.Val.ChunkChain.lean ====
/-
  The twenty-five launches' results, as the chain of buffer contents holds them when they are joined, are the
  specification's projected values: launch K's result at served node q and column e is the projected value of node
  2000 · K + q. Each row reads the result buffer through the chain down to the launch's output function over the
  arguments at launch and the launch's table, which is the neighbour table transposed and cut at 2000 · K; the value of
  that output function is the launch's own theorem. Two things are assumed of the arguments: every neighbour word is
  below the feature table's height, and the body's copies fetch the rows the table names.
-/
import proofs.«403631_j48275432407145_1_alg».proof.Proof.KI.Chain
import proofs.«403631_j48275432407145_1_alg».proof.Proof.KI.PreIdx
import proofs.«403631_j48275432407145_1_alg».proof.Proof.Val.ChunkSibs

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx

/-- A property of each entry of a literal 25-vector, entry by entry, holds of the vector at every position. -/
theorem vec25_cases {α : Type} (a0 a1 a2 a3 a4 a5 a6 a7 a8 a9 a10 a11 a12 a13 a14 a15 a16 a17 a18 a19 a20 a21 a22 a23 a24 : α) (P : Fin 25 → α → Prop)
    (h0 : P 0 a0) (h1 : P 1 a1) (h2 : P 2 a2) (h3 : P 3 a3) (h4 : P 4 a4) (h5 : P 5 a5) (h6 : P 6 a6) (h7 : P 7 a7) (h8 : P 8 a8) (h9 : P 9 a9) (h10 : P 10 a10) (h11 : P 11 a11) (h12 : P 12 a12) (h13 : P 13 a13) (h14 : P 14 a14) (h15 : P 15 a15) (h16 : P 16 a16) (h17 : P 17 a17) (h18 : P 18 a18) (h19 : P 19 a19) (h20 : P 20 a20) (h21 : P 21 a21) (h22 : P 22 a22) (h23 : P 23 a23) (h24 : P 24 a24) :
    ∀ K : Fin 25, P K ((![a0, a1, a2, a3, a4, a5, a6, a7, a8, a9, a10, a11, a12, a13, a14, a15, a16, a17, a18, a19, a20, a21, a22, a23, a24] : Fin 25 → α) K) := by
  intro K
  fin_cases K
  exacts [h0, h1, h2, h3, h4, h5, h6, h7, h8, h9, h10, h11, h12, h13, h14, h15, h16, h17, h18, h19, h20, h21, h22, h23, h24]

variable (m : (ℓ : Loc nD τ sig) → Buf (Elt Ideal) ℓ)

/-- Launch 0's result, as the buffers hold it when the results are joined, at served node `q`, column `e`: the
    projected value of node 0 + q. -/
theorem chunk0_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v2 : Vec Ideal S2000x128 .f32) (ix2 q e)
      = xOf (m ((c : Thread nD τ).loc main_arg0)) (m ((c : Thread nD τ).loc main_arg1)) (m ((c : Thread nD τ).loc main_arg4))
          (⟨0 + q.val, by omega⟩ : Fin 50000) e := by
  obtain rfl : c = 0 := Subsingleton.elim c 0
  rw [W51_chunk0 m 0, O0_eq, out0]
  show xChunk0 (F := Ideal) ((adm0 m).1 0) (W1 m 0 main_arg0) (W1 m 0 main_arg1) (ix2 q e) = _
  rw [W1_main_arg0 m 0, W1_main_arg1 m 0]
  refine (xChunk0_value _ _ (m ((0 : Dev nD).tc.loc main_arg4)) hin (⟨0, by decide⟩ : Fin 25) ((adm0 m).1 0) ?_ (hga _) q e).trans ?_
  · intro k q'
    rw [adm0_tbl m 0 0]
    show (W1 m 0 main_v1 : Vec Ideal S16x2000 .i32) (ix2 k q') = _
    rw [W1_table m 0]
    exact table_apply _ _ _ _ (ix2 k q') (ix2 (⟨2000 * 0 + q'.val, by omega⟩ : Fin 50000) k)
      (by show 2000 * 0 + q'.val = 0 + q'.val; omega) (by show k.val = 0 + k.val; omega)
  · exact congrArg (fun a : Fin 50000 => xOf _ _ _ a e) (Fin.ext (by show 2000 * 0 + q.val = 0 + q.val; omega))

/-- Launch 1's result, as the buffers hold it when the results are joined, at served node `q`, column `e`: the
    projected value of node 2000 + q. -/
theorem chunk1_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v4 : Vec Ideal S2000x128 .f32) (ix2 q e)
      = xOf (m ((c : Thread nD τ).loc main_arg0)) (m ((c : Thread nD τ).loc main_arg1)) (m ((c : Thread nD τ).loc main_arg4))
          (⟨2000 + q.val, by omega⟩ : Fin 50000) e := by
  obtain rfl : c = 0 := Subsingleton.elim c 0
  rw [W51_chunk1 m 0, O1_eq, out1]
  show xChunk1 (F := Ideal) ((adm1 m).1 0) (W3 m 0 main_arg0) (W3 m 0 main_arg1) (ix2 q e) = _
  rw [W3_main_arg0 m 0, W3_main_arg1 m 0]
  refine (xChunk1_value _ _ (m ((0 : Dev nD).tc.loc main_arg4)) hin (⟨1, by decide⟩ : Fin 25) ((adm1 m).1 0) ?_ (hga _) q e).trans ?_
  · intro k q'
    rw [adm1_tbl m 0 0]
    show (W3 m 0 main_v3 : Vec Ideal S16x2000 .i32) (ix2 k q') = _
    rw [W3_table m 0]
    exact table_apply _ _ _ _ (ix2 k q') (ix2 (⟨2000 * 1 + q'.val, by omega⟩ : Fin 50000) k)
      (by show 2000 * 1 + q'.val = 2000 + q'.val; omega) (by show k.val = 0 + k.val; omega)
  · exact congrArg (fun a : Fin 50000 => xOf _ _ _ a e) (Fin.ext (by show 2000 * 1 + q.val = 2000 + q.val; omega))

/-- Launch 2's result, as the buffers hold it when the results are joined, at served node `q`, column `e`: the
    projected value of node 4000 + q. -/
theorem chunk2_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v6 : Vec Ideal S2000x128 .f32) (ix2 q e)
      = xOf (m ((c : Thread nD τ).loc main_arg0)) (m ((c : Thread nD τ).loc main_arg1)) (m ((c : Thread nD τ).loc main_arg4))
          (⟨4000 + q.val, by omega⟩ : Fin 50000) e := by
  obtain rfl : c = 0 := Subsingleton.elim c 0
  rw [W51_chunk2 m 0, O2_eq, out2]
  show xChunk2 (F := Ideal) ((adm2 m).1 0) (W5 m 0 main_arg0) (W5 m 0 main_arg1) (ix2 q e) = _
  rw [W5_main_arg0 m 0, W5_main_arg1 m 0]
  refine (xChunk2_value _ _ (m ((0 : Dev nD).tc.loc main_arg4)) hin (⟨2, by decide⟩ : Fin 25) ((adm2 m).1 0) ?_ (hga _) q e).trans ?_
  · intro k q'
    rw [adm2_tbl m 0 0]
    show (W5 m 0 main_v5 : Vec Ideal S16x2000 .i32) (ix2 k q') = _
    rw [W5_table m 0]
    exact table_apply _ _ _ _ (ix2 k q') (ix2 (⟨2000 * 2 + q'.val, by omega⟩ : Fin 50000) k)
      (by show 2000 * 2 + q'.val = 4000 + q'.val; omega) (by show k.val = 0 + k.val; omega)
  · exact congrArg (fun a : Fin 50000 => xOf _ _ _ a e) (Fin.ext (by show 2000 * 2 + q.val = 4000 + q.val; omega))

/-- Launch 3's result, as the buffers hold it when the results are joined, at served node `q`, column `e`: the
    projected value of node 6000 + q. -/
theorem chunk3_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v8 : Vec Ideal S2000x128 .f32) (ix2 q e)
      = xOf (m ((c : Thread nD τ).loc main_arg0)) (m ((c : Thread nD τ).loc main_arg1)) (m ((c : Thread nD τ).loc main_arg4))
          (⟨6000 + q.val, by omega⟩ : Fin 50000) e := by
  obtain rfl : c = 0 := Subsingleton.elim c 0
  rw [W51_chunk3 m 0, O3_eq, out3]
  show xChunk3 (F := Ideal) ((adm3 m).1 0) (W7 m 0 main_arg0) (W7 m 0 main_arg1) (ix2 q e) = _
  rw [W7_main_arg0 m 0, W7_main_arg1 m 0]
  refine (xChunk3_value _ _ (m ((0 : Dev nD).tc.loc main_arg4)) hin (⟨3, by decide⟩ : Fin 25) ((adm3 m).1 0) ?_ (hga _) q e).trans ?_
  · intro k q'
    rw [adm3_tbl m 0 0]
    show (W7 m 0 main_v7 : Vec Ideal S16x2000 .i32) (ix2 k q') = _
    rw [W7_table m 0]
    exact table_apply _ _ _ _ (ix2 k q') (ix2 (⟨2000 * 3 + q'.val, by omega⟩ : Fin 50000) k)
      (by show 2000 * 3 + q'.val = 6000 + q'.val; omega) (by show k.val = 0 + k.val; omega)
  · exact congrArg (fun a : Fin 50000 => xOf _ _ _ a e) (Fin.ext (by show 2000 * 3 + q.val = 6000 + q.val; omega))

/-- Launch 4's result, as the buffers hold it when the results are joined, at served node `q`, column `e`: the
    projected value of node 8000 + q. -/
theorem chunk4_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v10 : Vec Ideal S2000x128 .f32) (ix2 q e)
      = xOf (m ((c : Thread nD τ).loc main_arg0)) (m ((c : Thread nD τ).loc main_arg1)) (m ((c : Thread nD τ).loc main_arg4))
          (⟨8000 + q.val, by omega⟩ : Fin 50000) e := by
  obtain rfl : c = 0 := Subsingleton.elim c 0
  rw [W51_chunk4 m 0, O4_eq, out4]
  show xChunk4 (F := Ideal) ((adm4 m).1 0) (W9 m 0 main_arg0) (W9 m 0 main_arg1) (ix2 q e) = _
  rw [W9_main_arg0 m 0, W9_main_arg1 m 0]
  refine (xChunk4_value _ _ (m ((0 : Dev nD).tc.loc main_arg4)) hin (⟨4, by decide⟩ : Fin 25) ((adm4 m).1 0) ?_ (hga _) q e).trans ?_
  · intro k q'
    rw [adm4_tbl m 0 0]
    show (W9 m 0 main_v9 : Vec Ideal S16x2000 .i32) (ix2 k q') = _
    rw [W9_table m 0]
    exact table_apply _ _ _ _ (ix2 k q') (ix2 (⟨2000 * 4 + q'.val, by omega⟩ : Fin 50000) k)
      (by show 2000 * 4 + q'.val = 8000 + q'.val; omega) (by show k.val = 0 + k.val; omega)
  · exact congrArg (fun a : Fin 50000 => xOf _ _ _ a e) (Fin.ext (by show 2000 * 4 + q.val = 8000 + q.val; omega))

/-- Launch 5's result, as the buffers hold it when the results are joined, at served node `q`, column `e`: the
    projected value of node 10000 + q. -/
theorem chunk5_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v12 : Vec Ideal S2000x128 .f32) (ix2 q e)
      = xOf (m ((c : Thread nD τ).loc main_arg0)) (m ((c : Thread nD τ).loc main_arg1)) (m ((c : Thread nD τ).loc main_arg4))
          (⟨10000 + q.val, by omega⟩ : Fin 50000) e := by
  obtain rfl : c = 0 := Subsingleton.elim c 0
  rw [W51_chunk5 m 0, O5_eq, out5]
  show xChunk5 (F := Ideal) ((adm5 m).1 0) (W11 m 0 main_arg0) (W11 m 0 main_arg1) (ix2 q e) = _
  rw [W11_main_arg0 m 0, W11_main_arg1 m 0]
  refine (xChunk5_value _ _ (m ((0 : Dev nD).tc.loc main_arg4)) hin (⟨5, by decide⟩ : Fin 25) ((adm5 m).1 0) ?_ (hga _) q e).trans ?_
  · intro k q'
    rw [adm5_tbl m 0 0]
    show (W11 m 0 main_v11 : Vec Ideal S16x2000 .i32) (ix2 k q') = _
    rw [W11_table m 0]
    exact table_apply _ _ _ _ (ix2 k q') (ix2 (⟨2000 * 5 + q'.val, by omega⟩ : Fin 50000) k)
      (by show 2000 * 5 + q'.val = 10000 + q'.val; omega) (by show k.val = 0 + k.val; omega)
  · exact congrArg (fun a : Fin 50000 => xOf _ _ _ a e) (Fin.ext (by show 2000 * 5 + q.val = 10000 + q.val; omega))

/-- Launch 6's result, as the buffers hold it when the results are joined, at served node `q`, column `e`: the
    projected value of node 12000 + q. -/
theorem chunk6_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v14 : Vec Ideal S2000x128 .f32) (ix2 q e)
      = xOf (m ((c : Thread nD τ).loc main_arg0)) (m ((c : Thread nD τ).loc main_arg1)) (m ((c : Thread nD τ).loc main_arg4))
          (⟨12000 + q.val, by omega⟩ : Fin 50000) e := by
  obtain rfl : c = 0 := Subsingleton.elim c 0
  rw [W51_chunk6 m 0, O6_eq, out6]
  show xChunk6 (F := Ideal) ((adm6 m).1 0) (W13 m 0 main_arg0) (W13 m 0 main_arg1) (ix2 q e) = _
  rw [W13_main_arg0 m 0, W13_main_arg1 m 0]
  refine (xChunk6_value _ _ (m ((0 : Dev nD).tc.loc main_arg4)) hin (⟨6, by decide⟩ : Fin 25) ((adm6 m).1 0) ?_ (hga _) q e).trans ?_
  · intro k q'
    rw [adm6_tbl m 0 0]
    show (W13 m 0 main_v13 : Vec Ideal S16x2000 .i32) (ix2 k q') = _
    rw [W13_table m 0]
    exact table_apply _ _ _ _ (ix2 k q') (ix2 (⟨2000 * 6 + q'.val, by omega⟩ : Fin 50000) k)
      (by show 2000 * 6 + q'.val = 12000 + q'.val; omega) (by show k.val = 0 + k.val; omega)
  · exact congrArg (fun a : Fin 50000 => xOf _ _ _ a e) (Fin.ext (by show 2000 * 6 + q.val = 12000 + q.val; omega))

/-- Launch 7's result, as the buffers hold it when the results are joined, at served node `q`, column `e`: the
    projected value of node 14000 + q. -/
theorem chunk7_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v16 : Vec Ideal S2000x128 .f32) (ix2 q e)
      = xOf (m ((c : Thread nD τ).loc main_arg0)) (m ((c : Thread nD τ).loc main_arg1)) (m ((c : Thread nD τ).loc main_arg4))
          (⟨14000 + q.val, by omega⟩ : Fin 50000) e := by
  obtain rfl : c = 0 := Subsingleton.elim c 0
  rw [W51_chunk7 m 0, O7_eq, out7]
  show xChunk7 (F := Ideal) ((adm7 m).1 0) (W15 m 0 main_arg0) (W15 m 0 main_arg1) (ix2 q e) = _
  rw [W15_main_arg0 m 0, W15_main_arg1 m 0]
  refine (xChunk7_value _ _ (m ((0 : Dev nD).tc.loc main_arg4)) hin (⟨7, by decide⟩ : Fin 25) ((adm7 m).1 0) ?_ (hga _) q e).trans ?_
  · intro k q'
    rw [adm7_tbl m 0 0]
    show (W15 m 0 main_v15 : Vec Ideal S16x2000 .i32) (ix2 k q') = _
    rw [W15_table m 0]
    exact table_apply _ _ _ _ (ix2 k q') (ix2 (⟨2000 * 7 + q'.val, by omega⟩ : Fin 50000) k)
      (by show 2000 * 7 + q'.val = 14000 + q'.val; omega) (by show k.val = 0 + k.val; omega)
  · exact congrArg (fun a : Fin 50000 => xOf _ _ _ a e) (Fin.ext (by show 2000 * 7 + q.val = 14000 + q.val; omega))

/-- Launch 8's result, as the buffers hold it when the results are joined, at served node `q`, column `e`: the
    projected value of node 16000 + q. -/
theorem chunk8_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v18 : Vec Ideal S2000x128 .f32) (ix2 q e)
      = xOf (m ((c : Thread nD τ).loc main_arg0)) (m ((c : Thread nD τ).loc main_arg1)) (m ((c : Thread nD τ).loc main_arg4))
          (⟨16000 + q.val, by omega⟩ : Fin 50000) e := by
  obtain rfl : c = 0 := Subsingleton.elim c 0
  rw [W51_chunk8 m 0, O8_eq, out8]
  show xChunk8 (F := Ideal) ((adm8 m).1 0) (W17 m 0 main_arg0) (W17 m 0 main_arg1) (ix2 q e) = _
  rw [W17_main_arg0 m 0, W17_main_arg1 m 0]
  refine (xChunk8_value _ _ (m ((0 : Dev nD).tc.loc main_arg4)) hin (⟨8, by decide⟩ : Fin 25) ((adm8 m).1 0) ?_ (hga _) q e).trans ?_
  · intro k q'
    rw [adm8_tbl m 0 0]
    show (W17 m 0 main_v17 : Vec Ideal S16x2000 .i32) (ix2 k q') = _
    rw [W17_table m 0]
    exact table_apply _ _ _ _ (ix2 k q') (ix2 (⟨2000 * 8 + q'.val, by omega⟩ : Fin 50000) k)
      (by show 2000 * 8 + q'.val = 16000 + q'.val; omega) (by show k.val = 0 + k.val; omega)
  · exact congrArg (fun a : Fin 50000 => xOf _ _ _ a e) (Fin.ext (by show 2000 * 8 + q.val = 16000 + q.val; omega))

/-- Launch 9's result, as the buffers hold it when the results are joined, at served node `q`, column `e`: the
    projected value of node 18000 + q. -/
theorem chunk9_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v20 : Vec Ideal S2000x128 .f32) (ix2 q e)
      = xOf (m ((c : Thread nD τ).loc main_arg0)) (m ((c : Thread nD τ).loc main_arg1)) (m ((c : Thread nD τ).loc main_arg4))
          (⟨18000 + q.val, by omega⟩ : Fin 50000) e := by
  obtain rfl : c = 0 := Subsingleton.elim c 0
  rw [W51_chunk9 m 0, O9_eq, out9]
  show xChunk9 (F := Ideal) ((adm9 m).1 0) (W19 m 0 main_arg0) (W19 m 0 main_arg1) (ix2 q e) = _
  rw [W19_main_arg0 m 0, W19_main_arg1 m 0]
  refine (xChunk9_value _ _ (m ((0 : Dev nD).tc.loc main_arg4)) hin (⟨9, by decide⟩ : Fin 25) ((adm9 m).1 0) ?_ (hga _) q e).trans ?_
  · intro k q'
    rw [adm9_tbl m 0 0]
    show (W19 m 0 main_v19 : Vec Ideal S16x2000 .i32) (ix2 k q') = _
    rw [W19_table m 0]
    exact table_apply _ _ _ _ (ix2 k q') (ix2 (⟨2000 * 9 + q'.val, by omega⟩ : Fin 50000) k)
      (by show 2000 * 9 + q'.val = 18000 + q'.val; omega) (by show k.val = 0 + k.val; omega)
  · exact congrArg (fun a : Fin 50000 => xOf _ _ _ a e) (Fin.ext (by show 2000 * 9 + q.val = 18000 + q.val; omega))

/-- Launch 10's result, as the buffers hold it when the results are joined, at served node `q`, column `e`: the
    projected value of node 20000 + q. -/
theorem chunk10_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v22 : Vec Ideal S2000x128 .f32) (ix2 q e)
      = xOf (m ((c : Thread nD τ).loc main_arg0)) (m ((c : Thread nD τ).loc main_arg1)) (m ((c : Thread nD τ).loc main_arg4))
          (⟨20000 + q.val, by omega⟩ : Fin 50000) e := by
  obtain rfl : c = 0 := Subsingleton.elim c 0
  rw [W51_chunk10 m 0, O10_eq, out10]
  show xChunk10 (F := Ideal) ((adm10 m).1 0) (W21 m 0 main_arg0) (W21 m 0 main_arg1) (ix2 q e) = _
  rw [W21_main_arg0 m 0, W21_main_arg1 m 0]
  refine (xChunk10_value _ _ (m ((0 : Dev nD).tc.loc main_arg4)) hin (⟨10, by decide⟩ : Fin 25) ((adm10 m).1 0) ?_ (hga _) q e).trans ?_
  · intro k q'
    rw [adm10_tbl m 0 0]
    show (W21 m 0 main_v21 : Vec Ideal S16x2000 .i32) (ix2 k q') = _
    rw [W21_table m 0]
    exact table_apply _ _ _ _ (ix2 k q') (ix2 (⟨2000 * 10 + q'.val, by omega⟩ : Fin 50000) k)
      (by show 2000 * 10 + q'.val = 20000 + q'.val; omega) (by show k.val = 0 + k.val; omega)
  · exact congrArg (fun a : Fin 50000 => xOf _ _ _ a e) (Fin.ext (by show 2000 * 10 + q.val = 20000 + q.val; omega))

/-- Launch 11's result, as the buffers hold it when the results are joined, at served node `q`, column `e`: the
    projected value of node 22000 + q. -/
theorem chunk11_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v24 : Vec Ideal S2000x128 .f32) (ix2 q e)
      = xOf (m ((c : Thread nD τ).loc main_arg0)) (m ((c : Thread nD τ).loc main_arg1)) (m ((c : Thread nD τ).loc main_arg4))
          (⟨22000 + q.val, by omega⟩ : Fin 50000) e := by
  obtain rfl : c = 0 := Subsingleton.elim c 0
  rw [W51_chunk11 m 0, O11_eq, out11]
  show xChunk11 (F := Ideal) ((adm11 m).1 0) (W23 m 0 main_arg0) (W23 m 0 main_arg1) (ix2 q e) = _
  rw [W23_main_arg0 m 0, W23_main_arg1 m 0]
  refine (xChunk11_value _ _ (m ((0 : Dev nD).tc.loc main_arg4)) hin (⟨11, by decide⟩ : Fin 25) ((adm11 m).1 0) ?_ (hga _) q e).trans ?_
  · intro k q'
    rw [adm11_tbl m 0 0]
    show (W23 m 0 main_v23 : Vec Ideal S16x2000 .i32) (ix2 k q') = _
    rw [W23_table m 0]
    exact table_apply _ _ _ _ (ix2 k q') (ix2 (⟨2000 * 11 + q'.val, by omega⟩ : Fin 50000) k)
      (by show 2000 * 11 + q'.val = 22000 + q'.val; omega) (by show k.val = 0 + k.val; omega)
  · exact congrArg (fun a : Fin 50000 => xOf _ _ _ a e) (Fin.ext (by show 2000 * 11 + q.val = 22000 + q.val; omega))

/-- Launch 12's result, as the buffers hold it when the results are joined, at served node `q`, column `e`: the
    projected value of node 24000 + q. -/
theorem chunk12_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v26 : Vec Ideal S2000x128 .f32) (ix2 q e)
      = xOf (m ((c : Thread nD τ).loc main_arg0)) (m ((c : Thread nD τ).loc main_arg1)) (m ((c : Thread nD τ).loc main_arg4))
          (⟨24000 + q.val, by omega⟩ : Fin 50000) e := by
  obtain rfl : c = 0 := Subsingleton.elim c 0
  rw [W51_chunk12 m 0, O12_eq, out12]
  show xChunk12 (F := Ideal) ((adm12 m).1 0) (W25 m 0 main_arg0) (W25 m 0 main_arg1) (ix2 q e) = _
  rw [W25_main_arg0 m 0, W25_main_arg1 m 0]
  refine (xChunk12_value _ _ (m ((0 : Dev nD).tc.loc main_arg4)) hin (⟨12, by decide⟩ : Fin 25) ((adm12 m).1 0) ?_ (hga _) q e).trans ?_
  · intro k q'
    rw [adm12_tbl m 0 0]
    show (W25 m 0 main_v25 : Vec Ideal S16x2000 .i32) (ix2 k q') = _
    rw [W25_table m 0]
    exact table_apply _ _ _ _ (ix2 k q') (ix2 (⟨2000 * 12 + q'.val, by omega⟩ : Fin 50000) k)
      (by show 2000 * 12 + q'.val = 24000 + q'.val; omega) (by show k.val = 0 + k.val; omega)
  · exact congrArg (fun a : Fin 50000 => xOf _ _ _ a e) (Fin.ext (by show 2000 * 12 + q.val = 24000 + q.val; omega))

/-- Launch 13's result, as the buffers hold it when the results are joined, at served node `q`, column `e`: the
    projected value of node 26000 + q. -/
theorem chunk13_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v28 : Vec Ideal S2000x128 .f32) (ix2 q e)
      = xOf (m ((c : Thread nD τ).loc main_arg0)) (m ((c : Thread nD τ).loc main_arg1)) (m ((c : Thread nD τ).loc main_arg4))
          (⟨26000 + q.val, by omega⟩ : Fin 50000) e := by
  obtain rfl : c = 0 := Subsingleton.elim c 0
  rw [W51_chunk13 m 0, O13_eq, out13]
  show xChunk13 (F := Ideal) ((adm13 m).1 0) (W27 m 0 main_arg0) (W27 m 0 main_arg1) (ix2 q e) = _
  rw [W27_main_arg0 m 0, W27_main_arg1 m 0]
  refine (xChunk13_value _ _ (m ((0 : Dev nD).tc.loc main_arg4)) hin (⟨13, by decide⟩ : Fin 25) ((adm13 m).1 0) ?_ (hga _) q e).trans ?_
  · intro k q'
    rw [adm13_tbl m 0 0]
    show (W27 m 0 main_v27 : Vec Ideal S16x2000 .i32) (ix2 k q') = _
    rw [W27_table m 0]
    exact table_apply _ _ _ _ (ix2 k q') (ix2 (⟨2000 * 13 + q'.val, by omega⟩ : Fin 50000) k)
      (by show 2000 * 13 + q'.val = 26000 + q'.val; omega) (by show k.val = 0 + k.val; omega)
  · exact congrArg (fun a : Fin 50000 => xOf _ _ _ a e) (Fin.ext (by show 2000 * 13 + q.val = 26000 + q.val; omega))

/-- Launch 14's result, as the buffers hold it when the results are joined, at served node `q`, column `e`: the
    projected value of node 28000 + q. -/
theorem chunk14_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v30 : Vec Ideal S2000x128 .f32) (ix2 q e)
      = xOf (m ((c : Thread nD τ).loc main_arg0)) (m ((c : Thread nD τ).loc main_arg1)) (m ((c : Thread nD τ).loc main_arg4))
          (⟨28000 + q.val, by omega⟩ : Fin 50000) e := by
  obtain rfl : c = 0 := Subsingleton.elim c 0
  rw [W51_chunk14 m 0, O14_eq, out14]
  show xChunk14 (F := Ideal) ((adm14 m).1 0) (W29 m 0 main_arg0) (W29 m 0 main_arg1) (ix2 q e) = _
  rw [W29_main_arg0 m 0, W29_main_arg1 m 0]
  refine (xChunk14_value _ _ (m ((0 : Dev nD).tc.loc main_arg4)) hin (⟨14, by decide⟩ : Fin 25) ((adm14 m).1 0) ?_ (hga _) q e).trans ?_
  · intro k q'
    rw [adm14_tbl m 0 0]
    show (W29 m 0 main_v29 : Vec Ideal S16x2000 .i32) (ix2 k q') = _
    rw [W29_table m 0]
    exact table_apply _ _ _ _ (ix2 k q') (ix2 (⟨2000 * 14 + q'.val, by omega⟩ : Fin 50000) k)
      (by show 2000 * 14 + q'.val = 28000 + q'.val; omega) (by show k.val = 0 + k.val; omega)
  · exact congrArg (fun a : Fin 50000 => xOf _ _ _ a e) (Fin.ext (by show 2000 * 14 + q.val = 28000 + q.val; omega))

/-- Launch 15's result, as the buffers hold it when the results are joined, at served node `q`, column `e`: the
    projected value of node 30000 + q. -/
theorem chunk15_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v32 : Vec Ideal S2000x128 .f32) (ix2 q e)
      = xOf (m ((c : Thread nD τ).loc main_arg0)) (m ((c : Thread nD τ).loc main_arg1)) (m ((c : Thread nD τ).loc main_arg4))
          (⟨30000 + q.val, by omega⟩ : Fin 50000) e := by
  obtain rfl : c = 0 := Subsingleton.elim c 0
  rw [W51_chunk15 m 0, O15_eq, out15]
  show xChunk15 (F := Ideal) ((adm15 m).1 0) (W31 m 0 main_arg0) (W31 m 0 main_arg1) (ix2 q e) = _
  rw [W31_main_arg0 m 0, W31_main_arg1 m 0]
  refine (xChunk15_value _ _ (m ((0 : Dev nD).tc.loc main_arg4)) hin (⟨15, by decide⟩ : Fin 25) ((adm15 m).1 0) ?_ (hga _) q e).trans ?_
  · intro k q'
    rw [adm15_tbl m 0 0]
    show (W31 m 0 main_v31 : Vec Ideal S16x2000 .i32) (ix2 k q') = _
    rw [W31_table m 0]
    exact table_apply _ _ _ _ (ix2 k q') (ix2 (⟨2000 * 15 + q'.val, by omega⟩ : Fin 50000) k)
      (by show 2000 * 15 + q'.val = 30000 + q'.val; omega) (by show k.val = 0 + k.val; omega)
  · exact congrArg (fun a : Fin 50000 => xOf _ _ _ a e) (Fin.ext (by show 2000 * 15 + q.val = 30000 + q.val; omega))

/-- Launch 16's result, as the buffers hold it when the results are joined, at served node `q`, column `e`: the
    projected value of node 32000 + q. -/
theorem chunk16_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v34 : Vec Ideal S2000x128 .f32) (ix2 q e)
      = xOf (m ((c : Thread nD τ).loc main_arg0)) (m ((c : Thread nD τ).loc main_arg1)) (m ((c : Thread nD τ).loc main_arg4))
          (⟨32000 + q.val, by omega⟩ : Fin 50000) e := by
  obtain rfl : c = 0 := Subsingleton.elim c 0
  rw [W51_chunk16 m 0, O16_eq, out16]
  show xChunk16 (F := Ideal) ((adm16 m).1 0) (W33 m 0 main_arg0) (W33 m 0 main_arg1) (ix2 q e) = _
  rw [W33_main_arg0 m 0, W33_main_arg1 m 0]
  refine (xChunk16_value _ _ (m ((0 : Dev nD).tc.loc main_arg4)) hin (⟨16, by decide⟩ : Fin 25) ((adm16 m).1 0) ?_ (hga _) q e).trans ?_
  · intro k q'
    rw [adm16_tbl m 0 0]
    show (W33 m 0 main_v33 : Vec Ideal S16x2000 .i32) (ix2 k q') = _
    rw [W33_table m 0]
    exact table_apply _ _ _ _ (ix2 k q') (ix2 (⟨2000 * 16 + q'.val, by omega⟩ : Fin 50000) k)
      (by show 2000 * 16 + q'.val = 32000 + q'.val; omega) (by show k.val = 0 + k.val; omega)
  · exact congrArg (fun a : Fin 50000 => xOf _ _ _ a e) (Fin.ext (by show 2000 * 16 + q.val = 32000 + q.val; omega))

/-- Launch 17's result, as the buffers hold it when the results are joined, at served node `q`, column `e`: the
    projected value of node 34000 + q. -/
theorem chunk17_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v36 : Vec Ideal S2000x128 .f32) (ix2 q e)
      = xOf (m ((c : Thread nD τ).loc main_arg0)) (m ((c : Thread nD τ).loc main_arg1)) (m ((c : Thread nD τ).loc main_arg4))
          (⟨34000 + q.val, by omega⟩ : Fin 50000) e := by
  obtain rfl : c = 0 := Subsingleton.elim c 0
  rw [W51_chunk17 m 0, O17_eq, out17]
  show xChunk17 (F := Ideal) ((adm17 m).1 0) (W35 m 0 main_arg0) (W35 m 0 main_arg1) (ix2 q e) = _
  rw [W35_main_arg0 m 0, W35_main_arg1 m 0]
  refine (xChunk17_value _ _ (m ((0 : Dev nD).tc.loc main_arg4)) hin (⟨17, by decide⟩ : Fin 25) ((adm17 m).1 0) ?_ (hga _) q e).trans ?_
  · intro k q'
    rw [adm17_tbl m 0 0]
    show (W35 m 0 main_v35 : Vec Ideal S16x2000 .i32) (ix2 k q') = _
    rw [W35_table m 0]
    exact table_apply _ _ _ _ (ix2 k q') (ix2 (⟨2000 * 17 + q'.val, by omega⟩ : Fin 50000) k)
      (by show 2000 * 17 + q'.val = 34000 + q'.val; omega) (by show k.val = 0 + k.val; omega)
  · exact congrArg (fun a : Fin 50000 => xOf _ _ _ a e) (Fin.ext (by show 2000 * 17 + q.val = 34000 + q.val; omega))

/-- Launch 18's result, as the buffers hold it when the results are joined, at served node `q`, column `e`: the
    projected value of node 36000 + q. -/
theorem chunk18_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v38 : Vec Ideal S2000x128 .f32) (ix2 q e)
      = xOf (m ((c : Thread nD τ).loc main_arg0)) (m ((c : Thread nD τ).loc main_arg1)) (m ((c : Thread nD τ).loc main_arg4))
          (⟨36000 + q.val, by omega⟩ : Fin 50000) e := by
  obtain rfl : c = 0 := Subsingleton.elim c 0
  rw [W51_chunk18 m 0, O18_eq, out18]
  show xChunk18 (F := Ideal) ((adm18 m).1 0) (W37 m 0 main_arg0) (W37 m 0 main_arg1) (ix2 q e) = _
  rw [W37_main_arg0 m 0, W37_main_arg1 m 0]
  refine (xChunk18_value _ _ (m ((0 : Dev nD).tc.loc main_arg4)) hin (⟨18, by decide⟩ : Fin 25) ((adm18 m).1 0) ?_ (hga _) q e).trans ?_
  · intro k q'
    rw [adm18_tbl m 0 0]
    show (W37 m 0 main_v37 : Vec Ideal S16x2000 .i32) (ix2 k q') = _
    rw [W37_table m 0]
    exact table_apply _ _ _ _ (ix2 k q') (ix2 (⟨2000 * 18 + q'.val, by omega⟩ : Fin 50000) k)
      (by show 2000 * 18 + q'.val = 36000 + q'.val; omega) (by show k.val = 0 + k.val; omega)
  · exact congrArg (fun a : Fin 50000 => xOf _ _ _ a e) (Fin.ext (by show 2000 * 18 + q.val = 36000 + q.val; omega))

/-- Launch 19's result, as the buffers hold it when the results are joined, at served node `q`, column `e`: the
    projected value of node 38000 + q. -/
theorem chunk19_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v40 : Vec Ideal S2000x128 .f32) (ix2 q e)
      = xOf (m ((c : Thread nD τ).loc main_arg0)) (m ((c : Thread nD τ).loc main_arg1)) (m ((c : Thread nD τ).loc main_arg4))
          (⟨38000 + q.val, by omega⟩ : Fin 50000) e := by
  obtain rfl : c = 0 := Subsingleton.elim c 0
  rw [W51_chunk19 m 0, O19_eq, out19]
  show xChunk19 (F := Ideal) ((adm19 m).1 0) (W39 m 0 main_arg0) (W39 m 0 main_arg1) (ix2 q e) = _
  rw [W39_main_arg0 m 0, W39_main_arg1 m 0]
  refine (xChunk19_value _ _ (m ((0 : Dev nD).tc.loc main_arg4)) hin (⟨19, by decide⟩ : Fin 25) ((adm19 m).1 0) ?_ (hga _) q e).trans ?_
  · intro k q'
    rw [adm19_tbl m 0 0]
    show (W39 m 0 main_v39 : Vec Ideal S16x2000 .i32) (ix2 k q') = _
    rw [W39_table m 0]
    exact table_apply _ _ _ _ (ix2 k q') (ix2 (⟨2000 * 19 + q'.val, by omega⟩ : Fin 50000) k)
      (by show 2000 * 19 + q'.val = 38000 + q'.val; omega) (by show k.val = 0 + k.val; omega)
  · exact congrArg (fun a : Fin 50000 => xOf _ _ _ a e) (Fin.ext (by show 2000 * 19 + q.val = 38000 + q.val; omega))

/-- Launch 20's result, as the buffers hold it when the results are joined, at served node `q`, column `e`: the
    projected value of node 40000 + q. -/
theorem chunk20_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v42 : Vec Ideal S2000x128 .f32) (ix2 q e)
      = xOf (m ((c : Thread nD τ).loc main_arg0)) (m ((c : Thread nD τ).loc main_arg1)) (m ((c : Thread nD τ).loc main_arg4))
          (⟨40000 + q.val, by omega⟩ : Fin 50000) e := by
  obtain rfl : c = 0 := Subsingleton.elim c 0
  rw [W51_chunk20 m 0, O20_eq, out20]
  show xChunk20 (F := Ideal) ((adm20 m).1 0) (W41 m 0 main_arg0) (W41 m 0 main_arg1) (ix2 q e) = _
  rw [W41_main_arg0 m 0, W41_main_arg1 m 0]
  refine (xChunk20_value _ _ (m ((0 : Dev nD).tc.loc main_arg4)) hin (⟨20, by decide⟩ : Fin 25) ((adm20 m).1 0) ?_ (hga _) q e).trans ?_
  · intro k q'
    rw [adm20_tbl m 0 0]
    show (W41 m 0 main_v41 : Vec Ideal S16x2000 .i32) (ix2 k q') = _
    rw [W41_table m 0]
    exact table_apply _ _ _ _ (ix2 k q') (ix2 (⟨2000 * 20 + q'.val, by omega⟩ : Fin 50000) k)
      (by show 2000 * 20 + q'.val = 40000 + q'.val; omega) (by show k.val = 0 + k.val; omega)
  · exact congrArg (fun a : Fin 50000 => xOf _ _ _ a e) (Fin.ext (by show 2000 * 20 + q.val = 40000 + q.val; omega))

/-- Launch 21's result, as the buffers hold it when the results are joined, at served node `q`, column `e`: the
    projected value of node 42000 + q. -/
theorem chunk21_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v44 : Vec Ideal S2000x128 .f32) (ix2 q e)
      = xOf (m ((c : Thread nD τ).loc main_arg0)) (m ((c : Thread nD τ).loc main_arg1)) (m ((c : Thread nD τ).loc main_arg4))
          (⟨42000 + q.val, by omega⟩ : Fin 50000) e := by
  obtain rfl : c = 0 := Subsingleton.elim c 0
  rw [W51_chunk21 m 0, O21_eq, out21]
  show xChunk21 (F := Ideal) ((adm21 m).1 0) (W43 m 0 main_arg0) (W43 m 0 main_arg1) (ix2 q e) = _
  rw [W43_main_arg0 m 0, W43_main_arg1 m 0]
  refine (xChunk21_value _ _ (m ((0 : Dev nD).tc.loc main_arg4)) hin (⟨21, by decide⟩ : Fin 25) ((adm21 m).1 0) ?_ (hga _) q e).trans ?_
  · intro k q'
    rw [adm21_tbl m 0 0]
    show (W43 m 0 main_v43 : Vec Ideal S16x2000 .i32) (ix2 k q') = _
    rw [W43_table m 0]
    exact table_apply _ _ _ _ (ix2 k q') (ix2 (⟨2000 * 21 + q'.val, by omega⟩ : Fin 50000) k)
      (by show 2000 * 21 + q'.val = 42000 + q'.val; omega) (by show k.val = 0 + k.val; omega)
  · exact congrArg (fun a : Fin 50000 => xOf _ _ _ a e) (Fin.ext (by show 2000 * 21 + q.val = 42000 + q.val; omega))

/-- Launch 22's result, as the buffers hold it when the results are joined, at served node `q`, column `e`: the
    projected value of node 44000 + q. -/
theorem chunk22_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v46 : Vec Ideal S2000x128 .f32) (ix2 q e)
      = xOf (m ((c : Thread nD τ).loc main_arg0)) (m ((c : Thread nD τ).loc main_arg1)) (m ((c : Thread nD τ).loc main_arg4))
          (⟨44000 + q.val, by omega⟩ : Fin 50000) e := by
  obtain rfl : c = 0 := Subsingleton.elim c 0
  rw [W51_chunk22 m 0, O22_eq, out22]
  show xChunk22 (F := Ideal) ((adm22 m).1 0) (W45 m 0 main_arg0) (W45 m 0 main_arg1) (ix2 q e) = _
  rw [W45_main_arg0 m 0, W45_main_arg1 m 0]
  refine (xChunk22_value _ _ (m ((0 : Dev nD).tc.loc main_arg4)) hin (⟨22, by decide⟩ : Fin 25) ((adm22 m).1 0) ?_ (hga _) q e).trans ?_
  · intro k q'
    rw [adm22_tbl m 0 0]
    show (W45 m 0 main_v45 : Vec Ideal S16x2000 .i32) (ix2 k q') = _
    rw [W45_table m 0]
    exact table_apply _ _ _ _ (ix2 k q') (ix2 (⟨2000 * 22 + q'.val, by omega⟩ : Fin 50000) k)
      (by show 2000 * 22 + q'.val = 44000 + q'.val; omega) (by show k.val = 0 + k.val; omega)
  · exact congrArg (fun a : Fin 50000 => xOf _ _ _ a e) (Fin.ext (by show 2000 * 22 + q.val = 44000 + q.val; omega))

/-- Launch 23's result, as the buffers hold it when the results are joined, at served node `q`, column `e`: the
    projected value of node 46000 + q. -/
theorem chunk23_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v48 : Vec Ideal S2000x128 .f32) (ix2 q e)
      = xOf (m ((c : Thread nD τ).loc main_arg0)) (m ((c : Thread nD τ).loc main_arg1)) (m ((c : Thread nD τ).loc main_arg4))
          (⟨46000 + q.val, by omega⟩ : Fin 50000) e := by
  obtain rfl : c = 0 := Subsingleton.elim c 0
  rw [W51_chunk23 m 0, O23_eq, out23]
  show xChunk23 (F := Ideal) ((adm23 m).1 0) (W47 m 0 main_arg0) (W47 m 0 main_arg1) (ix2 q e) = _
  rw [W47_main_arg0 m 0, W47_main_arg1 m 0]
  refine (xChunk23_value _ _ (m ((0 : Dev nD).tc.loc main_arg4)) hin (⟨23, by decide⟩ : Fin 25) ((adm23 m).1 0) ?_ (hga _) q e).trans ?_
  · intro k q'
    rw [adm23_tbl m 0 0]
    show (W47 m 0 main_v47 : Vec Ideal S16x2000 .i32) (ix2 k q') = _
    rw [W47_table m 0]
    exact table_apply _ _ _ _ (ix2 k q') (ix2 (⟨2000 * 23 + q'.val, by omega⟩ : Fin 50000) k)
      (by show 2000 * 23 + q'.val = 46000 + q'.val; omega) (by show k.val = 0 + k.val; omega)
  · exact congrArg (fun a : Fin 50000 => xOf _ _ _ a e) (Fin.ext (by show 2000 * 23 + q.val = 46000 + q.val; omega))

/-- Launch 24's result, as the buffers hold it when the results are joined, at served node `q`, column `e`: the
    projected value of node 48000 + q. -/
theorem chunk24_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) (q : Fin 2000) (e : Fin 128) :
    (W51 m c main_v50 : Vec Ideal S2000x128 .f32) (ix2 q e)
      = xOf (m ((c : Thread nD τ).loc main_arg0)) (m ((c : Thread nD τ).loc main_arg1)) (m ((c : Thread nD τ).loc main_arg4))
          (⟨48000 + q.val, by omega⟩ : Fin 50000) e := by
  obtain rfl : c = 0 := Subsingleton.elim c 0
  rw [W51_chunk24 m 0, O24_eq, out24]
  show xChunk24 (F := Ideal) ((adm24 m).1 0) (W49 m 0 main_arg0) (W49 m 0 main_arg1) (ix2 q e) = _
  rw [W49_main_arg0 m 0, W49_main_arg1 m 0]
  refine (xChunk24_value _ _ (m ((0 : Dev nD).tc.loc main_arg4)) hin (⟨24, by decide⟩ : Fin 25) ((adm24 m).1 0) ?_ (hga _) q e).trans ?_
  · intro k q'
    rw [adm24_tbl m 0 0]
    show (W49 m 0 main_v49 : Vec Ideal S16x2000 .i32) (ix2 k q') = _
    rw [W49_table m 0]
    exact table_apply _ _ _ _ (ix2 k q') (ix2 (⟨2000 * 24 + q'.val, by omega⟩ : Fin 50000) k)
      (by show 2000 * 24 + q'.val = 48000 + q'.val; omega) (by show k.val = 0 + k.val; omega)
  · exact congrArg (fun a : Fin 50000 => xOf _ _ _ a e) (Fin.ext (by show 2000 * 24 + q.val = 48000 + q.val; omega))

/-- THE FAMILY: every launch's result, as the joined buffers hold it, is the projected values of its 2000 nodes. -/
theorem chunks_value (hin : ∀ i : S50000x16.Idx, (m ((0 : Dev nD).tc.loc main_arg4) i).toNat < 100000)
    (hga : ∀ tb : Vec Ideal S16x2000 .i32, FetchedRows tb (m ((0 : Dev nD).tc.loc main_arg0)))
    (c : Dev nD) : ∀ (K : Fin 25) (q : Fin 2000) (e : Fin 128),
    (![W51 m c main_v2, W51 m c main_v4, W51 m c main_v6, W51 m c main_v8, W51 m c main_v10, W51 m c main_v12, W51 m c main_v14, W51 m c main_v16, W51 m c main_v18, W51 m c main_v20, W51 m c main_v22, W51 m c main_v24, W51 m c main_v26, W51 m c main_v28, W51 m c main_v30, W51 m c main_v32, W51 m c main_v34, W51 m c main_v36, W51 m c main_v38, W51 m c main_v40, W51 m c main_v42, W51 m c main_v44, W51 m c main_v46, W51 m c main_v48, W51 m c main_v50] : Fin 25 → Vec Ideal S2000x128 .f32) K (ValueIdx.ix2 q e)
      = xOf (m ((c : Thread nD τ).loc main_arg0)) (m ((c : Thread nD τ).loc main_arg1)) (m ((c : Thread nD τ).loc main_arg4))
          (⟨2000 * K.val + q.val, by omega⟩ : Fin 50000) e :=
  vec25_cases (W51 m c main_v2 : Vec Ideal S2000x128 .f32) (W51 m c main_v4 : Vec Ideal S2000x128 .f32) (W51 m c main_v6 : Vec Ideal S2000x128 .f32) (W51 m c main_v8 : Vec Ideal S2000x128 .f32) (W51 m c main_v10 : Vec Ideal S2000x128 .f32) (W51 m c main_v12 : Vec Ideal S2000x128 .f32) (W51 m c main_v14 : Vec Ideal S2000x128 .f32) (W51 m c main_v16 : Vec Ideal S2000x128 .f32) (W51 m c main_v18 : Vec Ideal S2000x128 .f32) (W51 m c main_v20 : Vec Ideal S2000x128 .f32) (W51 m c main_v22 : Vec Ideal S2000x128 .f32) (W51 m c main_v24 : Vec Ideal S2000x128 .f32) (W51 m c main_v26 : Vec Ideal S2000x128 .f32) (W51 m c main_v28 : Vec Ideal S2000x128 .f32) (W51 m c main_v30 : Vec Ideal S2000x128 .f32) (W51 m c main_v32 : Vec Ideal S2000x128 .f32) (W51 m c main_v34 : Vec Ideal S2000x128 .f32) (W51 m c main_v36 : Vec Ideal S2000x128 .f32) (W51 m c main_v38 : Vec Ideal S2000x128 .f32) (W51 m c main_v40 : Vec Ideal S2000x128 .f32) (W51 m c main_v42 : Vec Ideal S2000x128 .f32) (W51 m c main_v44 : Vec Ideal S2000x128 .f32) (W51 m c main_v46 : Vec Ideal S2000x128 .f32) (W51 m c main_v48 : Vec Ideal S2000x128 .f32) (W51 m c main_v50 : Vec Ideal S2000x128 .f32)
    (fun K a => ∀ (q : Fin 2000) (e : Fin 128), a (ValueIdx.ix2 q e)
      = xOf (m ((c : Thread nD τ).loc main_arg0)) (m ((c : Thread nD τ).loc main_arg1)) (m ((c : Thread nD τ).loc main_arg4))
          (⟨2000 * K.val + q.val, by omega⟩ : Fin 50000) e)
    (fun q e => chunk0_value m hin hga c q e)
    (fun q e => chunk1_value m hin hga c q e)
    (fun q e => chunk2_value m hin hga c q e)
    (fun q e => chunk3_value m hin hga c q e)
    (fun q e => chunk4_value m hin hga c q e)
    (fun q e => chunk5_value m hin hga c q e)
    (fun q e => chunk6_value m hin hga c q e)
    (fun q e => chunk7_value m hin hga c q e)
    (fun q e => chunk8_value m hin hga c q e)
    (fun q e => chunk9_value m hin hga c q e)
    (fun q e => chunk10_value m hin hga c q e)
    (fun q e => chunk11_value m hin hga c q e)
    (fun q e => chunk12_value m hin hga c q e)
    (fun q e => chunk13_value m hin hga c q e)
    (fun q e => chunk14_value m hin hga c q e)
    (fun q e => chunk15_value m hin hga c q e)
    (fun q e => chunk16_value m hin hga c q e)
    (fun q e => chunk17_value m hin hga c q e)
    (fun q e => chunk18_value m hin hga c q e)
    (fun q e => chunk19_value m hin hga c q e)
    (fun q e => chunk20_value m hin hga c q e)
    (fun q e => chunk21_value m hin hga c q e)
    (fun q e => chunk22_value m hin hga c q e)
    (fun q e => chunk23_value m hin hga c q e)
    (fun q e => chunk24_value m hin hga c q e)

end Cert.Val

end
-- ==== Proof.Val.ConcatValue.lean ====
/-
  The kernel's batch as one array. The 50000 nodes are served by twenty-five launches of 2000 nodes each; the program then
  joins the twenty-five (2000 × 128) results into the (50000 × 128) array by three concatenations along the node axis:
  the first sixteen into 32000 rows, the last nine into 18000 rows, and those two into the whole. Read at a node, the
  joined array is the launch the node falls in (the node over 2000) at the node's place inside it (the node modulo 2000).
-/
import proofs.«403631_j48275432407145_1_alg».proof.Proof.Gen.KernelIdeal.Launch
import Idealize.ShloMosaic.Lib.ValueIdx
import Idealize.ShloMosaic.Lib.Pipeline.Value
import Idealize.ShloMosaic.Lib.StableHlo.Run

noncomputable section

namespace Cert.Val

open Cert.KernelIdeal Cert.KernelIdeal.Gen Idealize.ShloMosaic Idealize.ShloMosaic.TcCoe Idealize.ShloMosaic.ValueIdx
open Idealize.ShloMosaic.StableHlo

variable {F : FTy → Type} [FloatOps F]

/-- Two rank-2 indices with the same second coordinate agree off the first axis. -/
theorem ix2_off_axis {n0 n1 m0 : Nat} (p : Fin n0) (q : Fin m0) (e : Fin n1)
    (b : Fin (⟨2, ![n0, n1]⟩ : Shape).rank)
    (hb : b.cast (rfl : (⟨2, ![n0, n1]⟩ : Shape).rank = (⟨2, ![m0, n1]⟩ : Shape).rank) ≠ (0 : Fin (⟨2, ![m0, n1]⟩ : Shape).rank)) :
    ((ix2 p e : (⟨2, ![n0, n1]⟩ : Shape).Idx) b).val
      = ((ix2 q e : (⟨2, ![m0, n1]⟩ : Shape).Idx) (b.cast rfl)).val := by
  match b with
  | ⟨0, _⟩ => exact absurd rfl hb
  | ⟨1, _⟩ => rfl

/-- The twenty-five launches' results joined along the node axis, as the program joins them: sixteen, nine, then the two. -/
def joined (u : Fin 25 → Vec F S2000x128 .f32) : Vec F S50000x128 .f32 :=
  concatenate S50000x128 0
    [⟨S32000x128, concatenate S32000x128 0 [⟨S2000x128, u 0⟩, ⟨S2000x128, u 1⟩, ⟨S2000x128, u 2⟩, ⟨S2000x128, u 3⟩, ⟨S2000x128, u 4⟩, ⟨S2000x128, u 5⟩, ⟨S2000x128, u 6⟩, ⟨S2000x128, u 7⟩, ⟨S2000x128, u 8⟩, ⟨S2000x128, u 9⟩, ⟨S2000x128, u 10⟩, ⟨S2000x128, u 11⟩, ⟨S2000x128, u 12⟩, ⟨S2000x128, u 13⟩, ⟨S2000x128, u 14⟩, ⟨S2000x128, u 15⟩]
        concatenates_S2000x128_S2000x128_S2000x128_S2000x128_S2000x128_S2000x128_S2000x128_S2000x128_S2000x128_S2000x128_S2000x128_S2000x128_S2000x128_S2000x128_S2000x128_S2000x128_S32000x128_d0⟩,
     ⟨S18000x128, concatenate S18000x128 0 [⟨S2000x128, u 16⟩, ⟨S2000x128, u 17⟩, ⟨S2000x128, u 18⟩, ⟨S2000x128, u 19⟩, ⟨S2000x128, u 20⟩, ⟨S2000x128, u 21⟩, ⟨S2000x128, u 22⟩, ⟨S2000x128, u 23⟩, ⟨S2000x128, u 24⟩]
        concatenates_S2000x128_S2000x128_S2000x128_S2000x128_S2000x128_S2000x128_S2000x128_S2000x128_S2000x128_S18000x128_d0⟩]
    concatenates_S32000x128_S18000x128_S50000x128_d0

/-- After the three joining operations the whole array holds the join of the twenty-five results, which they leave as
    they were. -/
theorem after_joined (V : Valuation τ sig (Elt F)) :
    after hostOps25 V (main_v53 : DevRef τ sig)
      = joined (F := F) ![V (main_v2 : DevRef τ sig), V (main_v4 : DevRef τ sig), V (main_v6 : DevRef τ sig), V (main_v8 : DevRef τ sig), V (main_v10 : DevRef τ sig), V (main_v12 : DevRef τ sig), V (main_v14 : DevRef τ sig), V (main_v16 : DevRef τ sig), V (main_v18 : DevRef τ sig), V (main_v20 : DevRef τ sig), V (main_v22 : DevRef τ sig), V (main_v24 : DevRef τ sig), V (main_v26 : DevRef τ sig), V (main_v28 : DevRef τ sig), V (main_v30 : DevRef τ sig), V (main_v32 : DevRef τ sig), V (main_v34 : DevRef τ sig), V (main_v36 : DevRef τ sig), V (main_v38 : DevRef τ sig), V (main_v40 : DevRef τ sig), V (main_v42 : DevRef τ sig), V (main_v44 : DevRef τ sig), V (main_v46 : DevRef τ sig), V (main_v48 : DevRef τ sig), V (main_v50 : DevRef τ sig)] := by
  after_results
  have hne : (fun k : Fin 9 => (StableHlo.nary (τ := τ) (Val := Elt F) ![main_v2, main_v4, main_v6, main_v8, main_v10, main_v12, main_v14, main_v16, main_v18, main_v20, main_v22, main_v24, main_v26, main_v28, main_v30, main_v32] main_v51 (fun u => concatenate S32000x128 0 [⟨S2000x128, u 0⟩, ⟨S2000x128, u 1⟩, ⟨S2000x128, u 2⟩, ⟨S2000x128, u 3⟩, ⟨S2000x128, u 4⟩, ⟨S2000x128, u 5⟩, ⟨S2000x128, u 6⟩, ⟨S2000x128, u 7⟩, ⟨S2000x128, u 8⟩, ⟨S2000x128, u 9⟩, ⟨S2000x128, u 10⟩, ⟨S2000x128, u 11⟩, ⟨S2000x128, u 12⟩, ⟨S2000x128, u 13⟩, ⟨S2000x128, u 14⟩, ⟨S2000x128, u 15⟩] concatenates_S2000x128_S2000x128_S2000x128_S2000x128_S2000x128_S2000x128_S2000x128_S2000x128_S2000x128_S2000x128_S2000x128_S2000x128_S2000x128_S2000x128_S2000x128_S2000x128_S32000x128_d0)).result V
        (Proc.devRef .tc ((![main_v34, main_v36, main_v38, main_v40, main_v42, main_v44, main_v46, main_v48, main_v50] : Fin 9 → Ref sig .tc) k)))
      = fun k : Fin 9 => V (Proc.devRef .tc ((![main_v34, main_v36, main_v38, main_v40, main_v42, main_v44, main_v46, main_v48, main_v50] : Fin 9 → Ref sig .tc) k)) := by
    funext k
    fin_cases k <;> (refine nary_result_ne _ _ _ _ _ V ?_; decide)
  rw [hne]
  rfl

/-- THE JOINED ARRAY AT A NODE: the launch the node falls in, at the node's place inside it. -/
theorem joined_apply (u : Fin 25 → Vec F S2000x128 .f32) (i : Fin 50000) (e : Fin 128) :
    joined u (ix2 i e) = u ⟨i.val / 2000, by omega⟩ (ix2 (⟨i.val % 2000, by omega⟩ : Fin 2000) e) := by
  unfold joined
  by_cases h : i.val < 32000
  · rw [concatenate_pair_apply_left (0 : Fin S50000x128.rank) _ _ concatenates_S32000x128_S18000x128_S50000x128_d0 (ix2 i e) rfl
      (ix2 (⟨i.val, h⟩ : Fin 32000) e) (by intro b; match b with | ⟨0, _⟩ => rfl | ⟨1, _⟩ => rfl)]
    show concatenate S32000x128 0
      (List.ofFn fun n : Fin 16 => (⟨S2000x128, u ⟨n.val, by omega⟩⟩ : (s : Shape) × (s.Idx → Elt F .f32)))
      concatenates_S2000x128_S2000x128_S2000x128_S2000x128_S2000x128_S2000x128_S2000x128_S2000x128_S2000x128_S2000x128_S2000x128_S2000x128_S2000x128_S2000x128_S2000x128_S2000x128_S32000x128_d0 (ix2 (⟨i.val, h⟩ : Fin 32000) e) = _
    exact concatenate_ofFn_apply (0 : Fin S32000x128.rank) (fun n : Fin 16 => u ⟨n.val, by omega⟩)
      concatenates_S2000x128_S2000x128_S2000x128_S2000x128_S2000x128_S2000x128_S2000x128_S2000x128_S2000x128_S2000x128_S2000x128_S2000x128_S2000x128_S2000x128_S2000x128_S2000x128_S32000x128_d0 rfl 2000 rfl (ix2 (⟨i.val, h⟩ : Fin 32000) e) ⟨i.val / 2000, by omega⟩ rfl
      (ix2 (⟨i.val % 2000, by omega⟩ : Fin 2000) e) rfl
      (fun b hb => ix2_off_axis _ _ _ b hb)
  · have h' : i.val - 32000 < 18000 := by omega
    rw [concatenate_pair_apply_right (0 : Fin S50000x128.rank) _ _ concatenates_S32000x128_S18000x128_S50000x128_d0 (ix2 i e) rfl rfl
      (ix2 (⟨i.val - 32000, h'⟩ : Fin 18000) e)
      (fun b hb => ix2_off_axis _ _ _ b hb)
      (by show i.val - 32000 + 32000 = i.val; omega)]
    show concatenate S18000x128 0
      (List.ofFn fun n : Fin 9 => (⟨S2000x128, u ⟨16 + n.val, by omega⟩⟩ : (s : Shape) × (s.Idx → Elt F .f32)))
      concatenates_S2000x128_S2000x128_S2000x128_S2000x128_S2000x128_S2000x128_S2000x128_S2000x128_S2000x128_S18000x128_d0 (ix2 (⟨i.val - 32000, h'⟩ : Fin 18000) e) = _
    have hK : u ⟨i.val / 2000, by omega⟩ = u ⟨16 + (i.val - 32000) / 2000, by omega⟩ :=
      congrArg u (Fin.ext (by show i.val / 2000 = 16 + (i.val - 32000) / 2000; omega))
    have hI : (ix2 (⟨i.val % 2000, by omega⟩ : Fin 2000) e : S2000x128.Idx) = ix2 (⟨(i.val - 32000) % 2000, by omega⟩ : Fin 2000) e := by
      funext b; refine Fin.ext ?_
      match b with
      | ⟨0, _⟩ => show i.val % 2000 = (i.val - 32000) % 2000; omega
      | ⟨1, _⟩ => rfl
    rw [hK, hI]
    exact concatenate_ofFn_apply (0 : Fin S18000x128.rank) (fun n : Fin 9 => u ⟨16 + n.val, by omega⟩)
      concatenates_S2000x128_S2000x128_S2000x128_S2000x128_S2000x128_S2000x128_S2000x128_S2000x128_S2000x128_S18000x128_d0 rfl 2000 rfl (ix2 (⟨i.val - 32000, h'⟩ : Fin 18000) e) ⟨(i.val - 32000) / 2000, by omega⟩ rfl
      (ix2 (⟨(i.val - 32000) % 2000, by omega⟩ : Fin 2000) e) rfl
      (fun b hb => ix2_off_axis _ _ _ b hb)

end Cert.Val

end
-- ==== Proof.Val.Algebra.lean ====
/-
  The real-number laws that join two arrangements of one batch normalization: column sums taken block by
  block against column sums taken at once, the variance as a mean of squares less the squared mean against
  the mean of squared deviations, and the folded affine map (one scale, one bias) against normalise-then-scale.
  Everything is stated over abstract finite index types and lifted to the extended reals for entries that
  are real numbers (hypotheses of the form ∃ r : ℝ, x i = r), in the shapes in which extended-real
  arithmetic spells them: division by a nonzero real, the reciprocal square root of a positive real. The last
  section reads the laws at this batch normalization's own terms: 50000 rows, 128 columns, the two constants
  as the 32-bit words both sides print.
-/
import proofs.«403631_j48275432407145_1_alg».proof.Proof.Val.Spec
import Idealize.ShloMosaic.PureOps.Ideal.Laws
import Mathlib.Data.EReal.Inv
import Mathlib.Algebra.BigOperators.Fin
import Mathlib.Algebra.BigOperators.Field
import Mathlib.Algebra.Order.BigOperators.Ring.Finset
import Mathlib.Tactic.Ring
import Mathlib.Tactic.FieldSimp
import Mathlib.Tactic.Linarith
import Mathlib.Tactic.Positivity
import Mathlib.Tactic.NormNum

namespace Cert.Val

open Idealize.ShloMosaic
open scoped BigOperators

/-- An extended real that is a real number. -/
abbrev IsReal (x : EReal) : Prop := ∃ r : ℝ, x = (r : EReal)

/-! ## Real numbers inside the extended reals -/

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩

/-- The coercion of a finite sum of reals is the sum of the coercions. -/
@[norm_cast] theorem coe_sum {ι : Type*} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem IsReal.sum {ι : Type*} (s : Finset ι) (x : ι → EReal) (hx : ∀ i ∈ s, IsReal (x i)) :
    IsReal (∑ i ∈ s, x i) := by
  classical
  induction s using Finset.induction_on with
  | empty => simpa using isReal_zero
  | insert a s ha ih =>
    rw [Finset.sum_insert ha]
    exact (hx a (Finset.mem_insert_self a s)).add (ih fun i hi => hx i (Finset.mem_insert_of_mem hi))

/-- A family of real entries is the coercion of a family of reals. -/
theorem exists_real_fun {ι : Type*} (x : ι → EReal) (hx : ∀ i, IsReal (x i)) :
    ∃ r : ι → ℝ, x = fun i => (r i : EReal) :=
  ⟨fun i => (hx i).choose, funext fun i => (hx i).choose_spec⟩

/-! ## Division by a nonzero real, reciprocal square root of a positive real -/

theorem div_coe_coe (a : ℝ) {y : ℝ} (hy : y ≠ 0) : Ideal.div (a : EReal) (y : EReal) = ((a / y : ℝ) : EReal) := by
  rw [Ideal.div_coe hy, ← EReal.coe_mul, mul_one_div]

theorem IsReal.div_coe {x : EReal} (hx : IsReal x) {y : ℝ} (hy : y ≠ 0) : IsReal (Ideal.div x (y : EReal)) := by
  obtain ⟨a, rfl⟩ := hx; exact ⟨a / y, div_coe_coe a hy⟩

theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_pos {r : ℝ} (hr : 0 < r) : IsReal (Ideal.rsqrt (r : EReal)) := ⟨_, rsqrt_coe_pos hr⟩

/-! ## Sums over rows, block by block -/

/-- A sum over an index type cut into blocks by a bijection is the sum over the blocks of the sums within. -/
theorem sum_blocks {M : Type*} [AddCommMonoid M] {α β ι : Type*} [Fintype α] [Fintype β] [Fintype ι]
    (e : α × β ≃ ι) (x : ι → M) : ∑ i, x i = ∑ a, ∑ b, x (e (a, b)) := by
  rw [← e.sum_comp, Fintype.sum_prod_type]

/-- Row b * n + j of m * n rows, as a bijection from (block, row within the block). -/
def blockEquiv (m n N : ℕ) (hN : m * n = N) : Fin m × Fin n ≃ Fin N :=
  finProdFinEquiv.trans (finCongr hN)

@[simp] theorem blockEquiv_val (m n N : ℕ) (hN : m * n = N) (b : Fin m) (j : Fin n) :
    (blockEquiv m n N hN (b, j)).val = b.val * n + j.val := by
  simp [blockEquiv, Nat.add_comm, Nat.mul_comm]

/-- Rows summed at once against rows summed block by block, for any way f of naming row b * n + j. -/
theorem sum_rows_blocks {M : Type*} [AddCommMonoid M] {m n N : ℕ} (hN : m * n = N) (x : Fin N → M)
    (f : Fin m → Fin n → Fin N) (hf : ∀ b j, (f b j).val = b.val * n + j.val) :
    ∑ i, x i = ∑ b, ∑ j, x (f b j) := by
  rw [sum_blocks (blockEquiv m n N hN)]
  refine Finset.sum_congr rfl fun b _ => Finset.sum_congr rfl fun j _ => congrArg x (Fin.ext ?_)
  rw [blockEquiv_val, hf]

/-- Three levels: row K * (m * n) + c * n + r of p * (m * n) rows. -/
theorem sum_rows_blocks₃ {M : Type*} [AddCommMonoid M] {p m n N : ℕ} (hN : p * (m * n) = N) (x : Fin N → M)
    (f : Fin p → Fin m → Fin n → Fin N) (hf : ∀ K c r, (f K c r).val = K.val * (m * n) + c.val * n + r.val) :
    ∑ i, x i = ∑ K, ∑ c, ∑ r, x (f K c r) := by
  rw [sum_rows_blocks hN x
    (fun K q => f K ((blockEquiv m n (m * n) rfl).symm q).1 ((blockEquiv m n (m * n) rfl).symm q).2) ?_]
  · refine Finset.sum_congr rfl fun K _ => ?_
    rw [sum_blocks (blockEquiv m n (m * n) rfl)]
    simp only [Equiv.symm_apply_apply]
  · intro K q
    rw [hf]
    have h := blockEquiv_val m n (m * n) rfl ((blockEquiv m n (m * n) rfl).symm q).1
      ((blockEquiv m n (m * n) rfl).symm q).2
    rw [Prod.mk.eta, Equiv.apply_symm_apply] at h
    omega

/-! ## The literals of the two programs -/

theorem ofBits_f32_50000 : Ideal.ofBits .f32 0x47435000#32 = ((50000 : ℝ) : EReal) := by
  simp [Ideal.ofBits, Ideal.ieee, -EReal.coe_mul] <;> norm_num

theorem ofBits_f32_16 : Ideal.ofBits .f32 0x41800000#32 = ((16 : ℝ) : EReal) := by
  simp [Ideal.ofBits, Ideal.ieee, -EReal.coe_mul] <;> norm_num

/-- The stabiliser added under the square root is a positive real. -/
theorem ofBits_f32_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul] <;> norm_num

/-- The slope of the negative side is a real. -/
theorem isReal_ofBits_f32_slope : IsReal (Ideal.ofBits .f32 0x3C23D70A#32) := by
  refine ⟨10737418 * (2 : ℝ) ^ (-30 : ℤ), ?_⟩
  simp [Ideal.ofBits, Ideal.ieee, -EReal.coe_mul] <;> norm_num

/-! ## The variance, two ways, over the reals -/

section Variance
variable {ι : Type*} [Fintype ι]

/-- The mean of the squares less the square of the mean is the mean of the squared deviations. -/
theorem var_real (x : ι → ℝ) (n : ℝ) (hn : (Fintype.card ι : ℝ) = n) (h0 : n ≠ 0) :
    (∑ i, x i * x i) / n - (∑ i, x i) / n * ((∑ i, x i) / n)
      = (∑ i, (x i - (∑ k, x k) / n) * (x i - (∑ k, x k) / n)) / n := by
  set m : ℝ := (∑ k, x k) / n with hm
  have h : ∑ i, (x i - m) * (x i - m) = (∑ i, x i * x i) - 2 * m * (∑ i, x i) + n * (m * m) := by
    have : ∀ i, (x i - m) * (x i - m) = x i * x i - 2 * m * x i + m * m := fun i => by ring
    simp only [this, Finset.sum_add_distrib, Finset.sum_sub_distrib, ← Finset.mul_sum, Finset.sum_const,
      Finset.card_univ, nsmul_eq_mul, hn]
    ring
  rw [h, hm]
  field_simp
  ring

theorem var_real_nonneg (x : ι → ℝ) (m n : ℝ) (hn : 0 < n) :
    0 ≤ (∑ i, (x i - m) * (x i - m)) / n :=
  div_nonneg (Finset.sum_nonneg fun i _ => mul_self_nonneg _) hn.le

end Variance

/-! ## The same over the extended reals, in the shapes the two arrangements spell -/

section Join
variable {ι : Type*} [Fintype ι]

/-- The variance of real entries: the arrangement that keeps a sum and a sum of squares against the one that
    subtracts the mean first. Division is the extended reals' division by the nonzero real n. -/
theorem var_join (x : ι → EReal) (hx : ∀ i, IsReal (x i)) (n : ℝ) (hn : (Fintype.card ι : ℝ) = n) (h0 : n ≠ 0) :
    Ideal.div (∑ i, x i * x i) (n : EReal) - Ideal.div (∑ i, x i) (n : EReal) * Ideal.div (∑ i, x i) (n : EReal)
      = Ideal.div (∑ i, (x i - Ideal.div (∑ k, x k) (n : EReal)) * (x i - Ideal.div (∑ k, x k) (n : EReal))) (n : EReal) := by
  obtain ⟨r, rfl⟩ := exists_real_fun x hx
  simp only [← EReal.coe_mul, ← coe_sum, div_coe_coe _ h0, ← EReal.coe_sub]
  exact congrArg _ (var_real r n hn h0)

/-- The variance of real entries is a nonnegative real. -/
theorem var_isReal_nonneg (x : ι → EReal) (hx : ∀ i, IsReal (x i)) (μ : EReal) (hμ : IsReal μ) (n : ℝ) (hn : 0 < n) :
    ∃ v : ℝ, 0 ≤ v ∧ Ideal.div (∑ i, (x i - μ) * (x i - μ)) (n : EReal) = (v : EReal) := by
  obtain ⟨r, rfl⟩ := exists_real_fun x hx
  obtain ⟨m, rfl⟩ := hμ
  refine ⟨_, var_real_nonneg r m n hn, ?_⟩
  simp only [← EReal.coe_mul, ← coe_sum, div_coe_coe _ hn.ne', ← EReal.coe_sub]

/-- The reciprocal square root of a nonnegative real plus a positive real is a positive real. -/
theorem rsqrt_add_pos {v e : ℝ} (hv : 0 ≤ v) (he : 0 < e) :
    ∃ s : ℝ, 0 < s ∧ Ideal.rsqrt ((v : EReal) + (e : EReal)) = (s : EReal) := by
  have hp : 0 < v + e := by linarith
  refine ⟨(Real.sqrt (v + e))⁻¹, inv_pos.mpr (Real.sqrt_pos.mpr hp), ?_⟩
  rw [← EReal.coe_add, rsqrt_coe_pos hp]

/-- The folded affine map against normalise-then-scale, entries real. -/
theorem affine_join {x μ s γ β : EReal} (hx : IsReal x) (hμ : IsReal μ) (hs : IsReal s) (hγ : IsReal γ)
    (hβ : IsReal β) : x * (γ * s) + (β - μ * (γ * s)) = (x - μ) * s * γ + β := by
  obtain ⟨x, rfl⟩ := hx; obtain ⟨μ, rfl⟩ := hμ; obtain ⟨s, rfl⟩ := hs
  obtain ⟨γ, rfl⟩ := hγ; obtain ⟨β, rfl⟩ := hβ
  simp only [← EReal.coe_mul, ← EReal.coe_sub, ← EReal.coe_add]
  exact congrArg _ (by ring)

/-- One entry of the normalised batch, the two arrangements: on the left a sum and a sum of squares are kept,
    the variance is their combination, and scale and bias are folded before the entry is touched; on the right
    the mean is subtracted first, the variance is the mean of the squared deviations, and the entry is
    normalised, scaled and shifted in that order. Entries, scale γ and shift β real, n the number of rows,
    ε a positive real. -/
theorem bn_join (x : ι → EReal) (hx : ∀ i, IsReal (x i)) (n : ℝ) (hn : (Fintype.card ι : ℝ) = n) (hpos : 0 < n)
    {γ β ε : EReal} (hγ : IsReal γ) (hβ : IsReal β) (hε : ∃ e : ℝ, 0 < e ∧ ε = (e : EReal)) (i : ι) :
    x i * (γ * Ideal.rsqrt (Ideal.div (∑ j, x j * x j) (n : EReal)
            - Ideal.div (∑ j, x j) (n : EReal) * Ideal.div (∑ j, x j) (n : EReal) + ε))
        + (β - Ideal.div (∑ j, x j) (n : EReal) * (γ * Ideal.rsqrt (Ideal.div (∑ j, x j * x j) (n : EReal)
            - Ideal.div (∑ j, x j) (n : EReal) * Ideal.div (∑ j, x j) (n : EReal) + ε)))
      = (x i - Ideal.div (∑ j, x j) (n : EReal))
          * Ideal.rsqrt (Ideal.div (∑ j, (x j - Ideal.div (∑ k, x k) (n : EReal)) * (x j - Ideal.div (∑ k, x k) (n : EReal))) (n : EReal) + ε)
          * γ + β := by
  have hμ : IsReal (Ideal.div (∑ j, x j) (n : EReal)) :=
    (IsReal.sum _ x fun j _ => hx j).div_coe hpos.ne'
  rw [var_join x hx n hn hpos.ne']
  obtain ⟨v, hv, hvar⟩ := var_isReal_nonneg x hx _ hμ n hpos
  obtain ⟨e, he, rfl⟩ := hε
  obtain ⟨s, -, hs⟩ := rsqrt_add_pos hv he
  rw [hvar, hs]
  exact affine_join (hx i) hμ (isReal_coe s) hγ hβ

end Join

end Cert.Val

/-! ## The two arrangements of this batch normalization are one function on real entries -/

namespace Cert.Val

open Idealize.ShloMosaic Idealize.ShloMosaic.ValueIdx
open scoped BigOperators

/-- The kernel's variance of a column of real entries is the reference's. -/
theorem varK_eq_varOf (x : Fin 50000 → Fin 128 → EReal) (hx : ∀ i e, ∃ r : ℝ, x i e = (r : EReal)) (e : Fin 128) :
    varK x e = varOf x e := by
  unfold varK sqMeanK meanK varOf meanOf
  rw [ofBits_f32_50000]
  exact var_join (fun i => x i e) (fun i => hx i e) 50000 (by simp) (by norm_num)

/-- Entry by entry, scale-and-bias is normalise-then-scale: entries, gains and offsets real. -/
theorem normK_eq_normOf (x : Fin 50000 → Fin 128 → EReal) (hx : ∀ i e, ∃ r : ℝ, x i e = (r : EReal))
    (γ β : (⟨1, ![128]⟩ : Shape).Idx → EReal) (hγ : ∀ j, ∃ r : ℝ, γ j = (r : EReal))
    (hβ : ∀ j, ∃ r : ℝ, β j = (r : EReal)) (i : Fin 50000) (e : Fin 128) :
    normK x γ β i e = normOf x γ β i e := by
  unfold normK biasK scaleK varK sqMeanK meanK normOf varOf meanOf
  rw [ofBits_f32_50000]
  exact bn_join (fun i => x i e) (fun i => hx i e) 50000 (by simp) (by norm_num) (hγ _) (hβ _) ofBits_f32_eps i

/-- A node's averaged feature is real when the table's entries are. -/
theorem aggOf_isReal (feat : (⟨2, ![100000, 128]⟩ : Shape).Idx → EReal)
    (idx : (⟨2, ![50000, 16]⟩ : Shape).Idx → BitVec 32) (hf : ∀ j, ∃ r : ℝ, feat j = (r : EReal))
    (i : Fin 50000) (f : Fin 128) : ∃ r : ℝ, aggOf feat idx i f = (r : EReal) := by
  unfold aggOf
  rw [ofBits_f32_16]
  exact (IsReal.sum _ _ fun k _ => hf _).div_coe (by norm_num)

/-- A node's projected value is real when the table's and the weights' entries are. -/
theorem xOf_isReal (feat : (⟨2, ![100000, 128]⟩ : Shape).Idx → EReal) (w : (⟨2, ![128, 128]⟩ : Shape).Idx → EReal)
    (idx : (⟨2, ![50000, 16]⟩ : Shape).Idx → BitVec 32) (hf : ∀ j, ∃ r : ℝ, feat j = (r : EReal))
    (hw : ∀ j, ∃ r : ℝ, w j = (r : EReal)) (i : Fin 50000) (e : Fin 128) :
    ∃ r : ℝ, xOf feat w idx i e = (r : EReal) := by
  unfold xOf
  exact IsReal.sum _ _ fun f _ => IsReal.mul (aggOf_isReal feat idx hf i f) (hw _)

/-- The result in the kernel's arrangement is the result, on real inputs. -/
theorem GK_eq_G (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32)
    (hf : ∀ j, ∃ r : ℝ, feat j = (r : EReal)) (hw : ∀ j, ∃ r : ℝ, w j = (r : EReal))
    (hγ : ∀ j, ∃ r : ℝ, γ j = (r : EReal)) (hβ : ∀ j, ∃ r : ℝ, β j = (r : EReal)) :
    GK feat w γ β idx = G feat w γ β idx := by
  funext j
  exact congrArg leaky
    (normK_eq_normOf (xOf feat w idx) (fun i e => xOf_isReal feat w idx hf hw i e) γ β hγ hβ (j 0) (j 1))

end Cert.Val
-- ==== Proof.Val.StatsValue.lean ====
/-
  The batch statistics as the kernel takes them, read at an index over the extended reals: one step of the
  running column sums and sums of squares, the ten steps folded from the zero block, the per-column scale and
  bias the host arithmetic forms from them, and one entry of the normalized, rectified block.
-/
import proofs.«403631_j48275432407145_1_alg».proof.Proof.Gen.KernelIdeal.Skeleton
import proofs.«403631_j48275432407145_1_alg».proof.Proof.Val.Spec
import proofs.«403631_j48275432407145_1_alg».proof.Proof.Val.Algebra
import Idealize.ShloMosaic.Lib.ValueIdx
import Idealize.ShloMosaic.Lib.ValueIdxCoords
import Idealize.ShloMosaic.Lib.ValueLayout
import Idealize.ShloMosaic.Lib.Pipeline.Value
import Idealize.ShloMosaic.Lib.IdealHost
import Idealize.ShloMosaic.PureOps.Ideal.Laws

noncomputable section

namespace Cert.Val

open Cert.KernelIdeal (S5000x128 S2x128 S1x128 S128 S_)
open Cert.KernelIdeal.Gen (k25_pay1 k25_pay2 k26_pay1)
open Idealize.ShloMosaic Idealize.ShloMosaic.ValueIdx
open scoped BigOperators

/-! ## One step of the running sums -/

/-- The block the running sums start from is zero everywhere. -/
theorem k25_pay1_apply (j : S2x128.Idx) : k25_pay1 (F := Ideal) j = 0 := Ideal.ofBits_zero_f32

/-- Row 0 after a step: the column's running sum plus the block's column sum. -/
theorem k25_pay2_row0 (blk : Vec Ideal S5000x128 .f32) (acc : Vec Ideal S2x128 .f32) (e : Fin 128) :
    k25_pay2 (F := Ideal) blk acc (ix2 (0 : Fin 2) e) = acc (ix2 (0 : Fin 2) e) + ∑ j : Fin 5000, blk (ix2 j e) := by
  unfold k25_pay2
  rw [addf_apply, shapeCast_self acc]
  congr 1
  rw [concatenate_pair_apply_left (t := S2x128) (s₁ := S1x128) (s₂ := S1x128) (0 : Fin 2) _ _
    Cert.KernelIdeal.Gen.concatenates_S1x128_S1x128_S2x128_d0 (ix2 (0 : Fin 2) e) rfl
    (ix2 (0 : Fin 1) e : S1x128.Idx) (fun b => by match b with | ⟨0, _⟩ => rfl | ⟨1, _⟩ => rfl)]
  rw [shapeCast_a_1a_apply]
  refine (Ideal.multiReduction_add_single (φ := .f32) _ _ Cert.KernelIdeal.Gen.reduces_S5000x128_S128 _ _ (ix1 e)).trans ?_
  rw [shapeCast_self blk]
  refine Finset.sum_congr rfl fun k _ => congrArg blk ?_
  funext a; match a with | ⟨0, _⟩ => rfl | ⟨1, _⟩ => rfl

/-- Row 1 after a step: the column's running sum of squares plus the block's column sum of squares. -/
theorem k25_pay2_row1 (blk : Vec Ideal S5000x128 .f32) (acc : Vec Ideal S2x128 .f32) (e : Fin 128) :
    k25_pay2 (F := Ideal) blk acc (ix2 (1 : Fin 2) e)
      = acc (ix2 (1 : Fin 2) e) + ∑ j : Fin 5000, blk (ix2 j e) * blk (ix2 j e) := by
  unfold k25_pay2
  rw [addf_apply, shapeCast_self acc]
  congr 1
  rw [concatenate_pair_apply_right (t := S2x128) (s₁ := S1x128) (s₂ := S1x128) (0 : Fin 2) _ _
    Cert.KernelIdeal.Gen.concatenates_S1x128_S1x128_S2x128_d0 (ix2 (1 : Fin 2) e) rfl rfl
    (ix2 (0 : Fin 1) e : S1x128.Idx)
    (fun b hb => by
      match b with
      | ⟨0, _⟩ => exact absurd rfl hb
      | ⟨1, _⟩ => rfl)
    rfl]
  rw [shapeCast_a_1a_apply]
  refine (Ideal.multiReduction_add_single (φ := .f32) _ _ Cert.KernelIdeal.Gen.reduces_S5000x128_S128 _ _ (ix1 e)).trans ?_
  rw [shapeCast_self blk]
  refine Finset.sum_congr rfl fun k _ => ?_
  rw [mulf_apply]
  have hk : (Cert.KernelIdeal.Gen.reduces_S5000x128_S128).lift (ix1 e) k = ix2 k e := by
    funext a; match a with | ⟨0, _⟩ => rfl | ⟨1, _⟩ => rfl
  rw [hk]
  rfl

/-! ## The ten steps folded from the zero block -/

/-- Any family of running statistics that starts from the zero block and takes one step per row block holds,
    after block n, the column sums (row 0) of the blocks so far. -/
theorem fold_stats_row0 {N : ℕ} (b : Fin N → Vec Ideal S5000x128 .f32)
    (p : (n : ℕ) → n < N → Vec Ideal S2x128 .f32)
    (h0 : ∀ h, p 0 h = k25_pay2 (b ⟨0, h⟩) (k25_pay1 (F := Ideal)))
    (hs : ∀ n h, p (n + 1) h = k25_pay2 (b ⟨n + 1, h⟩) (p n (Nat.lt_of_succ_lt h)))
    (n : ℕ) (hn : n < N) (e : Fin 128) :
    p n hn (ix2 (0 : Fin 2) e) = ∑ t : Fin (n + 1), ∑ j : Fin 5000, b ⟨t.val, by omega⟩ (ix2 j e) := by
  induction n with
  | zero =>
    rw [h0, k25_pay2_row0, k25_pay1_apply, zero_add]
    simp
  | succ n ih =>
    rw [hs, k25_pay2_row0, ih (Nat.lt_of_succ_lt hn)]
    conv_rhs => rw [Fin.sum_univ_castSucc]
    rfl

/-- … and the column sums of squares (row 1). -/
theorem fold_stats_row1 {N : ℕ} (b : Fin N → Vec Ideal S5000x128 .f32)
    (p : (n : ℕ) → n < N → Vec Ideal S2x128 .f32)
    (h0 : ∀ h, p 0 h = k25_pay2 (b ⟨0, h⟩) (k25_pay1 (F := Ideal)))
    (hs : ∀ n h, p (n + 1) h = k25_pay2 (b ⟨n + 1, h⟩) (p n (Nat.lt_of_succ_lt h)))
    (n : ℕ) (hn : n < N) (e : Fin 128) :
    p n hn (ix2 (1 : Fin 2) e)
      = ∑ t : Fin (n + 1), ∑ j : Fin 5000, b ⟨t.val, by omega⟩ (ix2 j e) * b ⟨t.val, by omega⟩ (ix2 j e) := by
  induction n with
  | zero =>
    rw [h0, k25_pay2_row1, k25_pay1_apply, zero_add]
    simp
  | succ n ih =>
    rw [hs, k25_pay2_row1, ih (Nat.lt_of_succ_lt hn)]
    conv_rhs => rw [Fin.sum_univ_castSucc]
    rfl

/-- Ten blocks of 5000 rows that are the rows of one array of 50000: the folded statistics are the whole
    columns' sums and sums of squares, for any way f of naming row t * 5000 + j. -/
theorem fold_stats_total (b : Fin 10 → Vec Ideal S5000x128 .f32) (p : (n : ℕ) → n < 10 → Vec Ideal S2x128 .f32)
    (h0 : ∀ h, p 0 h = k25_pay2 (b ⟨0, h⟩) (k25_pay1 (F := Ideal)))
    (hs : ∀ n h, p (n + 1) h = k25_pay2 (b ⟨n + 1, h⟩) (p n (Nat.lt_of_succ_lt h)))
    (x : Fin 50000 → Fin 128 → EReal) (f : Fin 10 → Fin 5000 → Fin 50000)
    (hf : ∀ t j, (f t j).val = t.val * 5000 + j.val) (hb : ∀ t j e, b t (ix2 j e) = x (f t j) e) (e : Fin 128) :
    p 9 (by decide) (ix2 (0 : Fin 2) e) = ∑ i : Fin 50000, x i e
      ∧ p 9 (by decide) (ix2 (1 : Fin 2) e) = ∑ i : Fin 50000, x i e * x i e := by
  constructor
  · rw [fold_stats_row0 b p h0 hs 9 (by decide) e,
      sum_rows_blocks (by norm_num : 10 * 5000 = 50000) (fun i => x i e) f hf]
    exact Finset.sum_congr rfl fun t _ => Finset.sum_congr rfl fun j _ => hb t j e
  · rw [fold_stats_row1 b p h0 hs 9 (by decide) e,
      sum_rows_blocks (by norm_num : 10 * 5000 = 50000) (fun i => x i e * x i e) f hf]
    exact Finset.sum_congr rfl fun t _ => Finset.sum_congr rfl fun j _ => by rw [hb t j e]

/-! ## The per-column scale and bias the host forms from the statistics -/

/-- The column means as the host forms them: row 0 of the statistics over the batch size. -/
def meanHost (st : FVec Ideal S2x128 .f32) : FVec Ideal S128 .f32 :=
  Host.divf
    (shapeCast S128 (extractStridedSlice S1x128 ![0, 0] st Cert.KernelIdeal.Gen.slices_S2x128_S1x128_0_0)
      Cert.KernelIdeal.Gen.shapeCasts_S1x128_S128)
    (broadcastInDim S128 ![] Cert.KernelIdeal.Gen.bcast_S_S128 (constant S_ .f32 0x47435000#32))

/-- The column means of squares: row 1 of the statistics over the batch size. -/
def sqMeanHost (st : FVec Ideal S2x128 .f32) : FVec Ideal S128 .f32 :=
  Host.divf
    (shapeCast S128 (extractStridedSlice S1x128 ![1, 0] st Cert.KernelIdeal.Gen.slices_S2x128_S1x128_1_0)
      Cert.KernelIdeal.Gen.shapeCasts_S1x128_S128)
    (broadcastInDim S128 ![] Cert.KernelIdeal.Gen.bcast_S_S128 (constant S_ .f32 0x47435000#32))

/-- The gain times the reciprocal square root of (mean of squares less squared mean, plus the small constant). -/
def scaleVec (st : FVec Ideal S2x128 .f32) (γ : FVec Ideal S128 .f32) : FVec Ideal S128 .f32 :=
  mulf γ (Host.rsqrt (addf (subf (sqMeanHost st) (mulf (meanHost st) (meanHost st)))
    (broadcastInDim S128 ![] Cert.KernelIdeal.Gen.bcast_S_S128 (constant S_ .f32 0x3727C5AC#32))))

/-- The per-column scale as one row. -/
def scaleHost (st : FVec Ideal S2x128 .f32) (γ : FVec Ideal S128 .f32) : FVec Ideal S1x128 .f32 :=
  shapeCast S1x128 (scaleVec st γ) Cert.KernelIdeal.Gen.shapeCasts_S128_S1x128

/-- The per-column bias as one row: the offset less the mean times the scale. -/
def biasHost (st : FVec Ideal S2x128 .f32) (γ β : FVec Ideal S128 .f32) : FVec Ideal S1x128 .f32 :=
  shapeCast S1x128 (subf β (mulf (meanHost st) (scaleVec st γ))) Cert.KernelIdeal.Gen.shapeCasts_S128_S1x128

theorem meanHost_apply (st : FVec Ideal S2x128 .f32) (e : Fin 128) :
    meanHost st (ix1 e) = Ideal.div (st (ix2 (0 : Fin 2) e)) (Ideal.ofBits .f32 0x47435000#32) := by
  unfold meanHost
  rw [hostDivf_apply, shapeCast_1a_a_apply, broadcastInDim_scalar_apply, constant_apply]
  congr 1
  exact extractStridedSlice_apply _ st _ _ (ix2 (0 : Fin 2) e) (fun a => by
    match a with
    | ⟨0, _⟩ => rfl
    | ⟨1, _⟩ => exact (Nat.zero_add _).symm)

theorem sqMeanHost_apply (st : FVec Ideal S2x128 .f32) (e : Fin 128) :
    sqMeanHost st (ix1 e) = Ideal.div (st (ix2 (1 : Fin 2) e)) (Ideal.ofBits .f32 0x47435000#32) := by
  unfold sqMeanHost
  rw [hostDivf_apply, shapeCast_1a_a_apply, broadcastInDim_scalar_apply, constant_apply]
  congr 1
  exact extractStridedSlice_apply _ st _ _ (ix2 (1 : Fin 2) e) (fun a => by
    match a with
    | ⟨0, _⟩ => rfl
    | ⟨1, _⟩ => exact (Nat.zero_add _).symm)

theorem scaleVec_apply (st : FVec Ideal S2x128 .f32) (γ : FVec Ideal S128 .f32) (e : Fin 128) :
    scaleVec st γ (ix1 e)
      = γ (ix1 e) * Ideal.rsqrt (Ideal.div (st (ix2 (1 : Fin 2) e)) (Ideal.ofBits .f32 0x47435000#32)
          - Ideal.div (st (ix2 (0 : Fin 2) e)) (Ideal.ofBits .f32 0x47435000#32)
            * Ideal.div (st (ix2 (0 : Fin 2) e)) (Ideal.ofBits .f32 0x47435000#32)
          + Ideal.ofBits .f32 0x3727C5AC#32) := by
  unfold scaleVec
  rw [mulf_apply]
  show γ (ix1 e) * Ideal.rsqrt ((addf _ _ : FVec Ideal S128 .f32) (ix1 e)) = _
  rw [addf_apply, subf_apply, mulf_apply, meanHost_apply, sqMeanHost_apply, broadcastInDim_scalar_apply,
    constant_apply]

/-- The host's scale row is the kernel arrangement's factor, once the statistics are the column's sum and sum
    of squares. -/
theorem scaleHost_eq_scaleK (st : FVec Ideal S2x128 .f32) (γ : FVec Ideal S128 .f32)
    (x : Fin 50000 → Fin 128 → EReal) (e : Fin 128) (u : Fin 1)
    (h0 : st (ix2 (0 : Fin 2) e) = ∑ i : Fin 50000, x i e)
    (h1 : st (ix2 (1 : Fin 2) e) = ∑ i : Fin 50000, x i e * x i e) :
    scaleHost st γ (ix2 u e) = scaleK x γ e := by
  unfold scaleHost
  rw [shapeCast_a_1a_apply, scaleVec_apply, h0, h1]
  rfl

/-- The host's bias row is the kernel arrangement's constant. -/
theorem biasHost_eq_biasK (st : FVec Ideal S2x128 .f32) (γ β : FVec Ideal S128 .f32)
    (x : Fin 50000 → Fin 128 → EReal) (e : Fin 128) (u : Fin 1)
    (h0 : st (ix2 (0 : Fin 2) e) = ∑ i : Fin 50000, x i e)
    (h1 : st (ix2 (1 : Fin 2) e) = ∑ i : Fin 50000, x i e * x i e) :
    biasHost st γ β (ix2 u e) = biasK x γ β e := by
  unfold biasHost
  rw [shapeCast_a_1a_apply, subf_apply, mulf_apply, meanHost_apply, scaleVec_apply, h0, h1]
  rfl

/-! ## One entry of the normalized, rectified block -/

/-- The last kernel's payload at row j, column e: the rectifier of the entry times the column's scale plus the
    column's bias. -/
theorem k26_pay1_apply (x : Vec Ideal S5000x128 .f32) (s b : Vec Ideal S1x128 .f32) (j : Fin 5000) (e : Fin 128) :
    k26_pay1 (F := Ideal) x s b (ix2 j e)
      = leaky (x (ix2 j e) * s (ix2 (0 : Fin 1) e) + b (ix2 (0 : Fin 1) e)) := by
  unfold k26_pay1
  rw [shapeCast_self x, shapeCast_self s, shapeCast_self b, select_apply, cmpf_apply, mulf_apply, addf_apply,
    mulf_apply, broadcast_apply, broadcast_apply, broadcastTo_1b_ab_apply, broadcastTo_1b_ab_apply]
  exact leaky_select _

end Cert.Val

end
-- ==== Proof.Val.KernelValue.lean ====
/-
  The kernel's last array, entry by entry: the host arithmetic between the statistics and the last launch read
  as the per-column scale and bias, over any contents of the buffers; then the pieces joined.
-/
import proofs.«403631_j48275432407145_1_alg».proof.Proof.Gen.KernelIdeal.Skeleton
import proofs.«403631_j48275432407145_1_alg».proof.Proof.Gen.KernelIdeal.Launch
import proofs.«403631_j48275432407145_1_alg».proof.Proof.Val.Spec
import proofs.«403631_j48275432407145_1_alg».proof.Proof.Val.Algebra
import proofs.«403631_j48275432407145_1_alg».proof.Proof.Val.StatsValue
import proofs.«403631_j48275432407145_1_alg».proof.Proof.KI.G26Dat
import Idealize.ShloMosaic.Lib.StableHlo.Run
import Idealize.ShloMosaic.Lib.ValueIdx
import Idealize.ShloMosaic.Lib.ValueIdxCoords
import Idealize.ShloMosaic.Lib.ValueLayout
import Idealize.ShloMosaic.Lib.Pipeline.Value
import Idealize.ShloMosaic.Lib.IdealHost
import Idealize.ShloMosaic.PureOps.Ideal.Laws

noncomputable section

namespace Cert.Val

open Cert.KernelIdeal (S5000x128 S2x128 S1x128 S128 S_ S50000x128 nD τ sig main_v53 main_v54 main_v71 main_v72 main_arg2 main_arg3)
open Idealize.ShloMosaic Idealize.ShloMosaic.TcCoe Idealize.ShloMosaic.ValueIdx
open scoped BigOperators

/-! ## The host arithmetic between the statistics and the last kernel, over any contents of the buffers -/

/-- The scale row the last kernel receives is the statistics' and the gains' scale row. -/
theorem after26_scale (V : Valuation τ sig (Elt Ideal)) :
    StableHlo.after (Cert.KernelIdeal.Gen.hostOps26 (F := Ideal)) V main_v71 = scaleHost (V main_v54) (V main_arg2) := by
  after_results_simp
  rfl

/-- The bias row the last kernel receives. -/
theorem after26_bias (V : Valuation τ sig (Elt Ideal)) :
    StableHlo.after (Cert.KernelIdeal.Gen.hostOps26 (F := Ideal)) V main_v72
      = biasHost (V main_v54) (V main_arg2) (V main_arg3) := by
  after_results_simp
  rfl

/-- The activations are not touched by the host arithmetic. -/
theorem after26_keep (V : Valuation τ sig (Elt Ideal)) :
    StableHlo.after (Cert.KernelIdeal.Gen.hostOps26 (F := Ideal)) V main_v53 = V main_v53 := by
  after_results_simp

/-! ## One entry of the kernel's last array -/

/-- The last kernel's entry, in the float operations' own spelling, is the rectifier of the entry times the scale
    plus the bias. -/
theorem select_leaky (x s b : Ideal .f32) :
    Scalar.select (FloatOps.cmpf .oge (FloatOps.addf (FloatOps.mulf x s) b) (Scalar.ofBits (F := Ideal) .f32 0x00000000#32))
        (FloatOps.addf (FloatOps.mulf x s) b)
        (FloatOps.mulf (Scalar.ofBits (F := Ideal) .f32 0x3C23D70A#32) (FloatOps.addf (FloatOps.mulf x s) b))
      = leaky (x * s + b) :=
  leaky_select (x * s + b)

/-- An entry times the host's scale plus the host's bias is the kernel arrangement's normalized value, once the
    statistics block holds the columns' sums and sums of squares. -/
theorem scale_bias_eq_normK (X : FVec Ideal S50000x128 .f32) (st : FVec Ideal S2x128 .f32) (γ β : FVec Ideal S128 .f32)
    (hst0 : ∀ e : Fin 128, st (ix2 (0 : Fin 2) e) = ∑ i : Fin 50000, X (ix2 i e))
    (hst1 : ∀ e : Fin 128, st (ix2 (1 : Fin 2) e) = ∑ i : Fin 50000, X (ix2 i e) * X (ix2 i e))
    (i : Fin 50000) (e : Fin 128) :
    X (ix2 i e) * scaleHost st γ (ix2 (0 : Fin 1) e) + biasHost st γ β (ix2 (0 : Fin 1) e)
      = normK (fun i e => X (ix2 i e)) γ β i e := by
  rw [scaleHost_eq_scaleK st γ (fun i e => X (ix2 i e)) e 0 (hst0 e) (hst1 e),
    biasHost_eq_biasK st γ β (fun i e => X (ix2 i e)) e 0 (hst0 e) (hst1 e)]
  rfl

/-- THE KERNEL'S ENTRY IS THE RESULT'S: activations that are the projected values, statistics that are their
    columns' sums and sums of squares, every input entry real. -/
theorem kernel_entry (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32)
    (X : FVec Ideal S50000x128 .f32) (st : FVec Ideal S2x128 .f32)
    (hX : ∀ (i : Fin 50000) (e : Fin 128), X (ix2 i e) = xOf feat w idx i e)
    (hst0 : ∀ e : Fin 128, st (ix2 (0 : Fin 2) e) = ∑ i : Fin 50000, X (ix2 i e))
    (hst1 : ∀ e : Fin 128, st (ix2 (1 : Fin 2) e) = ∑ i : Fin 50000, X (ix2 i e) * X (ix2 i e))
    (hf : ∀ j, ∃ r : ℝ, feat j = (r : EReal)) (hw : ∀ j, ∃ r : ℝ, w j = (r : EReal))
    (hγ : ∀ j, ∃ r : ℝ, γ j = (r : EReal)) (hβ : ∀ j, ∃ r : ℝ, β j = (r : EReal)) (j : S50000x128.Idx) :
    leaky (X j * scaleHost st γ (ix2 (0 : Fin 1) (j 1 : Fin 128)) + biasHost st γ β (ix2 (0 : Fin 1) (j 1 : Fin 128)))
      = G feat w γ β idx j := by
  have hXx : (fun i e => X (ix2 i e)) = xOf feat w idx := funext fun i => funext fun e => hX i e
  obtain ⟨a, b, rfl⟩ : ∃ (a : Fin 50000) (b : Fin 128), j = ix2 a b := ⟨j 0, j 1, eq_ix2 j⟩
  rw [← GK_eq_G feat w γ β idx hf hw hγ hβ, GK_apply, ← hXx]
  exact congrArg leaky (scale_bias_eq_normK X st γ β hst0 hst1 a b)

/-! ## The last array whole -/

section Whole
open Cert.KernelIdeal.Hand (bnOf bnElt)

/-- The last kernel's array over activations, the host's scale row and the host's bias row is THE RESULT. -/
theorem bnOf_value (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32)
    (X : FVec Ideal S50000x128 .f32) (st : FVec Ideal S2x128 .f32)
    (hX : ∀ (i : Fin 50000) (e : Fin 128), X (ix2 i e) = xOf feat w idx i e)
    (hst0 : ∀ e : Fin 128, st (ix2 (0 : Fin 2) e) = ∑ i : Fin 50000, X (ix2 i e))
    (hst1 : ∀ e : Fin 128, st (ix2 (1 : Fin 2) e) = ∑ i : Fin 50000, X (ix2 i e) * X (ix2 i e))
    (hf : ∀ j, ∃ r : ℝ, feat j = (r : EReal)) (hw : ∀ j, ∃ r : ℝ, w j = (r : EReal))
    (hγ : ∀ j, ∃ r : ℝ, γ j = (r : EReal)) (hβ : ∀ j, ∃ r : ℝ, β j = (r : EReal)) :
    bnOf (F := Ideal) X (scaleHost st γ) (biasHost st γ β) = G feat w γ β idx := by
  funext j
  unfold bnOf bnElt
  rw [select_leaky]
  exact kernel_entry feat w γ β idx X st hX hst0 hst1 hf hw hγ hβ j

/-- The same over any contents of the buffers before the host arithmetic: the three arrays the last kernel reads
    after it give THE RESULT, when the activations are the projected values, the statistics their columns' sums and
    sums of squares, and the gains and offsets the arguments'. -/
theorem after26_value (V : Valuation τ sig (Elt Ideal))
    (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32)
    (X : FVec Ideal S50000x128 .f32) (st : FVec Ideal S2x128 .f32)
    (hXV : V main_v53 = X) (hstV : V main_v54 = st) (hγV : V main_arg2 = γ) (hβV : V main_arg3 = β)
    (hX : ∀ (i : Fin 50000) (e : Fin 128), X (ix2 i e) = xOf feat w idx i e)
    (hst0 : ∀ e : Fin 128, st (ix2 (0 : Fin 2) e) = ∑ i : Fin 50000, X (ix2 i e))
    (hst1 : ∀ e : Fin 128, st (ix2 (1 : Fin 2) e) = ∑ i : Fin 50000, X (ix2 i e) * X (ix2 i e))
    (hf : ∀ j, ∃ r : ℝ, feat j = (r : EReal)) (hw : ∀ j, ∃ r : ℝ, w j = (r : EReal))
    (hγ : ∀ j, ∃ r : ℝ, γ j = (r : EReal)) (hβ : ∀ j, ∃ r : ℝ, β j = (r : EReal)) :
    bnOf (F := Ideal) (StableHlo.after (Cert.KernelIdeal.Gen.hostOps26 (F := Ideal)) V main_v53)
        (StableHlo.after (Cert.KernelIdeal.Gen.hostOps26 (F := Ideal)) V main_v71)
        (StableHlo.after (Cert.KernelIdeal.Gen.hostOps26 (F := Ideal)) V main_v72)
      = G feat w γ β idx := by
  rw [after26_keep, after26_scale, after26_bias, hXV, hstV, hγV, hβV]
  exact bnOf_value feat w γ β idx X st hX hst0 hst1 hf hw hγ hβ

end Whole

end Cert.Val

end
-- ==== Proof.KI.G25Read.lean ====
/-
  Reading the statistics pipeline's row blocks at an index, at any float instance: the activations' window walks the ten
  row blocks in order, so entry (j, e) of row block t of the activations is their entry (5000 t + j, e).
-/
import proofs.«403631_j48275432407145_1_alg».proof.Proof.KI.G25Dat
import Idealize.ShloMosaic.Lib.ValueIdx

-- membership in a rectangle of the row blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- The activations' window walks the row blocks in order and never leaves column block 0: its block index at row
    block `t` is `(t, 0)`. -/
theorem blockIndex25 (t : Fin cfg25.N) : win25_0.index t 0 = t.val ∧ win25_0.index t 1 = 0 := by
  rcases fin_N25 t with rfl | rfl | rfl | rfl | rfl | rfl | rfl | rfl | rfl | rfl <;> exact ⟨rfl, rfl⟩

/-- Row `j` of row block `t` is a row of the activations: `5000 t + j` is below 50000. -/
theorem rowBound25 (t : Fin cfg25.N) (j : Fin 5000) : 5000 * t.val + j.val < 50000 := by
  have := lt_of_lt_of_eq t.isLt (show cfg25.N = 10 from N_25); have := j.isLt; omega

/-- Where entry `(j, e)` of row block `t` sits in the activations: at `(5000 t + j, e)`. -/
theorem rowsEmb25 (t : Fin cfg25.N) (j : Fin 5000) (e : Fin 128) :
    ((cfg25.win 0).blk t).view.emb (ValueIdx.ix2 j e) = ValueIdx.ix2 ⟨5000 * t.val + j.val, rowBound25 t j⟩ e := by
  refine funext fun a => Fin.ext ?_
  match a with
  | ⟨0, _⟩ =>
    show win25_0.index t 0 * 5000 + 1 * j.val = 5000 * t.val + j.val
    rw [(blockIndex25 t).1]; omega
  | ⟨1, _⟩ =>
    show win25_0.index t 1 * 128 + 1 * e.val = e.val
    rw [(blockIndex25 t).2]; omega

/-- READING A ROW BLOCK: entry `(j, e)` of row block `t` of the activations `X` is entry `(5000 t + j, e)` of `X`. -/
theorem rows25_apply {c : Dev nD} (X : Buf (Elt F) ((c : Thread nD τ).loc main_v53)) (t : Fin cfg25.N) (j : Fin 5000) (e : Fin 128) :
    rows25 X t (ValueIdx.ix2 j e) = X (ValueIdx.ix2 ⟨5000 * t.val + j.val, rowBound25 t j⟩ e) := by
  unfold rows25
  rw [View.read_apply]
  exact congrArg X (rowsEmb25 t j e)

end Cert.KernelIdeal.Hand

end
-- ==== Proof.Val.StatsOfValue.lean ====
/-
  The statistics array the kernel's twenty-sixth pallas_call leaves, read at an index over the extended reals: the
  running statistics after the last of the ten row blocks are, column by column, the sum and the sum of squares of all
  50000 rows of the activations. Two facts meet here: entry (j, e) of row block t is the activations' entry
  (5000 t + j, e), at any float instance; and over the extended reals ten blocks' column sums, added in block order from
  zero, are the whole columns' sums.
-/
import proofs.«403631_j48275432407145_1_alg».proof.Proof.KI.G25Read
import proofs.«403631_j48275432407145_1_alg».proof.Proof.Val.StatsValue

noncomputable section

namespace Cert.Val

open Cert.KernelIdeal Cert.KernelIdeal.Gen Cert.KernelIdeal.Hand
open Idealize.ShloMosaic Idealize.ShloMosaic.TcCoe
open Idealize.SL.Sem
open scoped BigOperators

/-- THE STATISTICS AT AN INDEX, over the extended reals: if the activations `X` are the array `x` of extended reals, row 0 of
    the statistics array the kernel leaves is each column's sum over all 50000 rows, row 1 each column's sum of squares —
    the ten row blocks' partial sums, added in block order from zero, are the whole columns' sums. -/
theorem statsOf_apply {c : Dev nD} (X : Buf (Elt Ideal) ((c : Thread nD τ).loc main_v53))
    (x : Fin 50000 → Fin 128 → EReal) (hx : ∀ i e, @Eq EReal (X (ValueIdx.ix2 i e)) (x i e)) (e : Fin 128) :
    @Eq EReal (statsOf X (ValueIdx.ix2 (0 : Fin 2) e)) (∑ i : Fin 50000, x i e)
      ∧ @Eq EReal (statsOf X (ValueIdx.ix2 (1 : Fin 2) e)) (∑ i : Fin 50000, x i e * x i e) := by
  have hN : cfg25.N = 10 := N_25
  exact fold_stats_total (fun t => rows25 X (t.cast hN.symm)) (fun n h => partial25 X n (lt_of_lt_of_eq h hN.symm))
    (fun _ => rfl) (fun _ _ => rfl)
    x (fun t j => ⟨5000 * t.val + j.val, rowBound25 (t.cast hN.symm) j⟩)
    (fun t j => by show 5000 * t.val + j.val = t.val * 5000 + j.val; omega)
    (fun t j e => (rows25_apply X (t.cast hN.symm) j e).trans (hx _ e)) e

end Cert.Val

end
-- ==== Proof.Val.KernelFinal.lean ====
/-
  The kernel's last array is the result, from what the chain of launches reads: the 25 launches' results joined
  are the projected values, the statistics kernel's array of them holds their columns' sums and sums of squares,
  the host arithmetic forms the per-column scale and bias, and the last kernel applies them and rectifies.
-/
import proofs.«403631_j48275432407145_1_alg».proof.Proof.Val.KernelValue
import proofs.«403631_j48275432407145_1_alg».proof.Proof.Val.ConcatValue
import proofs.«403631_j48275432407145_1_alg».proof.Proof.Val.StatsOfValue

noncomputable section

namespace Cert.Val

open Cert.KernelIdeal (S5000x128 S2x128 S1x128 S128 S_ S50000x128 nD τ sig main_v53 main_v54 main_v71 main_v72 main_arg2 main_arg3)
open Idealize.ShloMosaic Idealize.ShloMosaic.TcCoe Idealize.ShloMosaic.ValueIdx
open scoped BigOperators

/-! ## The kernel's last array from what the chain of launches reads -/

section Final
open Cert.KernelIdeal.Hand (bnOf statsOf)

/-- The joined activations at a node are the projected values, when every launch's result is, node by node. -/
theorem joined_value' (feat : (⟨2, ![100000, 128]⟩ : Shape).Idx → EReal) (w : (⟨2, ![128, 128]⟩ : Shape).Idx → EReal)
    (idx : (⟨2, ![50000, 16]⟩ : Shape).Idx → BitVec 32) (u : Fin 25 → Vec Ideal Cert.KernelIdeal.S2000x128 .f32)
    (hchunk : ∀ (K : Fin 25) (q : Fin 2000) (e : Fin 128),
      u K (ix2 q e) = xOf feat w idx (⟨2000 * K.val + q.val, by omega⟩ : Fin 50000) e)
    (i : Fin 50000) (e : Fin 128) : joined (F := Ideal) u (ix2 i e) = xOf feat w idx i e := by
  rw [joined_apply]
  have h := hchunk ⟨i.val / 2000, by omega⟩ ⟨i.val % 2000, Nat.mod_lt _ (by norm_num)⟩ e
  have e2 : (⟨2000 * (⟨i.val / 2000, by omega⟩ : Fin 25).val
        + (⟨i.val % 2000, Nat.mod_lt _ (by norm_num)⟩ : Fin 2000).val, by omega⟩ : Fin 50000) = i :=
    Fin.ext (by show 2000 * (i.val / 2000) + i.val % 2000 = i.val; omega)
  rw [e2] at h
  exact h

/-- The same with each launch's result stated half by half and row by row. -/
theorem joined_value (feat : (⟨2, ![100000, 128]⟩ : Shape).Idx → EReal) (w : (⟨2, ![128, 128]⟩ : Shape).Idx → EReal)
    (idx : (⟨2, ![50000, 16]⟩ : Shape).Idx → BitVec 32) (u : Fin 25 → Vec Ideal Cert.KernelIdeal.S2000x128 .f32)
    (hchunk : ∀ (K : Fin 25) (core : Fin 2) (r : Fin 1000) (e : Fin 128),
      u K (ix2 (⟨core.val * 1000 + r.val, by omega⟩ : Fin 2000) e)
        = xOf feat w idx (⟨2000 * K.val + core.val * 1000 + r.val, by omega⟩ : Fin 50000) e)
    (i : Fin 50000) (e : Fin 128) : joined (F := Ideal) u (ix2 i e) = xOf feat w idx i e := by
  refine joined_value' feat w idx u (fun K q e => ?_) i e
  have hq0 : q.val / 1000 < 2 := by have := q.isLt; omega
  have h := hchunk K ⟨q.val / 1000, hq0⟩ ⟨q.val % 1000, Nat.mod_lt _ (by norm_num)⟩ e
  have e1 : (⟨(⟨q.val / 1000, hq0⟩ : Fin 2).val * 1000 + (⟨q.val % 1000, Nat.mod_lt _ (by norm_num)⟩ : Fin 1000).val,
      by omega⟩ : Fin 2000) = q := Fin.ext (by show q.val / 1000 * 1000 + q.val % 1000 = q.val; omega)
  have e2 : (⟨2000 * K.val + (⟨q.val / 1000, hq0⟩ : Fin 2).val * 1000
        + (⟨q.val % 1000, Nat.mod_lt _ (by norm_num)⟩ : Fin 1000).val, by omega⟩ : Fin 50000)
      = ⟨2000 * K.val + q.val, by omega⟩ :=
    Fin.ext (by show 2000 * K.val + q.val / 1000 * 1000 + q.val % 1000 = 2000 * K.val + q.val; omega)
  rw [e1, e2] at h
  exact h

/-- THE KERNEL'S LAST ARRAY IS THE RESULT, from the activations: W the buffers before the last host arithmetic,
    whose activations are the projected values; whose statistics are the statistics kernel's of those
    activations; whose gains and offsets are the arguments'. Every input entry real. -/
theorem kernel_value_of_acts {c : Dev nD} (W : Valuation τ sig (Elt Ideal))
    (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32)
    (X : Buf (Elt Ideal) ((c : Thread nD τ).loc main_v53))
    (hacts : W main_v53 = X)
    (hX : ∀ (i : Fin 50000) (e : Fin 128), (X : FVec Ideal S50000x128 .f32) (ix2 i e) = xOf feat w idx i e)
    (hstats : W main_v54 = statsOf X)
    (hgain : W main_arg2 = γ) (hoffset : W main_arg3 = β)
    (hf : ∀ j, ∃ r : ℝ, feat j = (r : EReal)) (hw : ∀ j, ∃ r : ℝ, w j = (r : EReal))
    (hγ : ∀ j, ∃ r : ℝ, γ j = (r : EReal)) (hβ : ∀ j, ∃ r : ℝ, β j = (r : EReal)) :
    bnOf (F := Ideal) (StableHlo.after (Cert.KernelIdeal.Gen.hostOps26 (F := Ideal)) W main_v53)
        (StableHlo.after (Cert.KernelIdeal.Gen.hostOps26 (F := Ideal)) W main_v71)
        (StableHlo.after (Cert.KernelIdeal.Gen.hostOps26 (F := Ideal)) W main_v72)
      = G feat w γ β idx := by
  have hs := fun e => statsOf_apply X (xOf feat w idx) hX e
  refine after26_value W feat w γ β idx X (statsOf X) hacts hstats hgain hoffset hX (fun e => ?_) (fun e => ?_) hf hw hγ hβ
  · rw [(hs e).1]; exact Finset.sum_congr rfl fun i _ => (hX i e).symm
  · rw [(hs e).2]; exact Finset.sum_congr rfl fun i _ => by rw [hX i e]

/-- … from what the chain of launches reads: the activations are the join of the 25 launches' results, each the
    projected values of its 2000 nodes (node by node). -/
theorem kernel_value_of_reads' {c : Dev nD} (W : Valuation τ sig (Elt Ideal))
    (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32)
    (u : Fin 25 → Vec Ideal Cert.KernelIdeal.S2000x128 .f32)
    (X : Buf (Elt Ideal) ((c : Thread nD τ).loc main_v53))
    (hacts : W main_v53 = X) (hjoin : X = joined (F := Ideal) u)
    (hchunk : ∀ (K : Fin 25) (q : Fin 2000) (e : Fin 128),
      u K (ix2 q e) = xOf feat w idx (⟨2000 * K.val + q.val, by omega⟩ : Fin 50000) e)
    (hstats : W main_v54 = statsOf X)
    (hgain : W main_arg2 = γ) (hoffset : W main_arg3 = β)
    (hf : ∀ j, ∃ r : ℝ, feat j = (r : EReal)) (hw : ∀ j, ∃ r : ℝ, w j = (r : EReal))
    (hγ : ∀ j, ∃ r : ℝ, γ j = (r : EReal)) (hβ : ∀ j, ∃ r : ℝ, β j = (r : EReal)) :
    bnOf (F := Ideal) (StableHlo.after (Cert.KernelIdeal.Gen.hostOps26 (F := Ideal)) W main_v53)
        (StableHlo.after (Cert.KernelIdeal.Gen.hostOps26 (F := Ideal)) W main_v71)
        (StableHlo.after (Cert.KernelIdeal.Gen.hostOps26 (F := Ideal)) W main_v72)
      = G feat w γ β idx :=
  kernel_value_of_acts W feat w γ β idx X hacts
    (fun i e => by rw [hjoin]; exact joined_value' feat w idx u hchunk i e) hstats hgain hoffset hf hw hγ hβ

/-- … each launch's result stated half by half and row by row. -/
theorem kernel_value_of_reads {c : Dev nD} (W : Valuation τ sig (Elt Ideal))
    (feat : (⟨2, ![100000, 128]⟩ : Shape).Idx → EReal) (w : (⟨2, ![128, 128]⟩ : Shape).Idx → EReal)
    (γ β : (⟨1, ![128]⟩ : Shape).Idx → EReal) (idx : (⟨2, ![50000, 16]⟩ : Shape).Idx → BitVec 32)
    (u : Fin 25 → Vec Ideal Cert.KernelIdeal.S2000x128 .f32)
    (X : Buf (Elt Ideal) ((c : Thread nD τ).loc main_v53))
    (hacts : W main_v53 = X) (hjoin : X = joined (F := Ideal) u)
    (hchunk : ∀ (K : Fin 25) (core : Fin 2) (r : Fin 1000) (e : Fin 128),
      u K (ix2 (⟨core.val * 1000 + r.val, by omega⟩ : Fin 2000) e)
        = xOf feat w idx (⟨2000 * K.val + core.val * 1000 + r.val, by omega⟩ : Fin 50000) e)
    (hstats : W main_v54 = statsOf X)
    (hgain : W main_arg2 = γ) (hoffset : W main_arg3 = β)
    (hf : ∀ j, ∃ r : ℝ, feat j = (r : EReal)) (hw : ∀ j, ∃ r : ℝ, w j = (r : EReal))
    (hγ : ∀ j, ∃ r : ℝ, γ j = (r : EReal)) (hβ : ∀ j, ∃ r : ℝ, β j = (r : EReal)) :
    bnOf (F := Ideal) (StableHlo.after (Cert.KernelIdeal.Gen.hostOps26 (F := Ideal)) W main_v53)
        (StableHlo.after (Cert.KernelIdeal.Gen.hostOps26 (F := Ideal)) W main_v71)
        (StableHlo.after (Cert.KernelIdeal.Gen.hostOps26 (F := Ideal)) W main_v72)
      = G feat w γ β idx :=
  kernel_value_of_acts W feat w γ β idx X hacts
    (fun i e => by rw [hjoin]; exact joined_value feat w idx u hchunk i e) hstats hgain hoffset hf hw hγ hβ

end Final

end Cert.Val

end
-- ==== Proof.Val.KernelTop.lean ====
/-
  The kernel's last array is the result: the chain of buffer contents between @main's items read at the last
  launch's output, down to the arguments at launch.
-/
import proofs.«403631_j48275432407145_1_alg».proof.Proof.KI.Chain
import proofs.«403631_j48275432407145_1_alg».proof.Proof.Val.ChunkInst
import proofs.«403631_j48275432407145_1_alg».proof.Proof.Val.ConcatValue
import proofs.«403631_j48275432407145_1_alg».proof.Proof.Val.KernelFinal

set_option maxRecDepth 16384

noncomputable section

namespace Cert.Val

open Cert.KernelIdeal Cert.KernelIdeal.Gen Cert.KernelIdeal.Hand
open Idealize.ShloMosaic Idealize.ShloMosaic.TcCoe
open scoped BigOperators

variable (m : (ℓ : Loc nD τ sig) → Buf (Elt Ideal) ℓ)

/-! ## From the 25 launches' results to the last array -/

set_option maxHeartbeats 1000000 in
/-- THE LAST ARRAY from the 25 launches' results: if each launch's result, as the buffers hold it once joined, is
    the projected values of its 2000 nodes, the last launch leaves THE RESULT. The statistics, the host arithmetic and
    the last launch are read off the chain of contents. -/
theorem kernel_value_of_chunks (c : Dev nD)
    (hchunk : ∀ (K : Fin 25) (q : Fin 2000) (e : Fin 128),
      (![W51 m c main_v2, W51 m c main_v4, W51 m c main_v6, W51 m c main_v8, W51 m c main_v10, W51 m c main_v12, W51 m c main_v14, W51 m c main_v16, W51 m c main_v18, W51 m c main_v20, W51 m c main_v22, W51 m c main_v24, W51 m c main_v26, W51 m c main_v28, W51 m c main_v30, W51 m c main_v32, W51 m c main_v34, W51 m c main_v36, W51 m c main_v38, W51 m c main_v40, W51 m c main_v42, W51 m c main_v44, W51 m c main_v46, W51 m c main_v48, W51 m c main_v50] : Fin 25 → Vec Ideal S2000x128 .f32) K (ValueIdx.ix2 q e)
        = xOf (m ((c : Thread nD τ).loc main_arg0)) (m ((c : Thread nD τ).loc main_arg1)) (m ((c : Thread nD τ).loc main_arg4))
            (⟨2000 * K.val + q.val, by omega⟩ : Fin 50000) e)
    (hf : ∀ i : S100000x128.Idx, ∃ r : ℝ, m ((c : Thread nD τ).loc main_arg0) i = (r : EReal))
    (hw : ∀ i : S128x128.Idx, ∃ r : ℝ, m ((c : Thread nD τ).loc main_arg1) i = (r : EReal))
    (hγ : ∀ i : S128.Idx, ∃ r : ℝ, m ((c : Thread nD τ).loc main_arg2) i = (r : EReal))
    (hβ : ∀ i : S128.Idx, ∃ r : ℝ, m ((c : Thread nD τ).loc main_arg3) i = (r : EReal)) :
    W54 m c main_v73
      = G (m ((c : Thread nD τ).loc main_arg0)) (m ((c : Thread nD τ).loc main_arg1)) (m ((c : Thread nD τ).loc main_arg2))
          (m ((c : Thread nD τ).loc main_arg3)) (m ((c : Thread nD τ).loc main_arg4)) := by
  have hfam : (![W50 m c main_v2, W50 m c main_v4, W50 m c main_v6, W50 m c main_v8, W50 m c main_v10, W50 m c main_v12, W50 m c main_v14, W50 m c main_v16, W50 m c main_v18, W50 m c main_v20, W50 m c main_v22, W50 m c main_v24, W50 m c main_v26, W50 m c main_v28, W50 m c main_v30, W50 m c main_v32, W50 m c main_v34, W50 m c main_v36, W50 m c main_v38, W50 m c main_v40, W50 m c main_v42, W50 m c main_v44, W50 m c main_v46, W50 m c main_v48, W50 m c main_v50] : Fin 25 → Vec Ideal S2000x128 .f32)
      = ![W51 m c main_v2, W51 m c main_v4, W51 m c main_v6, W51 m c main_v8, W51 m c main_v10, W51 m c main_v12, W51 m c main_v14, W51 m c main_v16, W51 m c main_v18, W51 m c main_v20, W51 m c main_v22, W51 m c main_v24, W51 m c main_v26, W51 m c main_v28, W51 m c main_v30, W51 m c main_v32, W51 m c main_v34, W51 m c main_v36, W51 m c main_v38, W51 m c main_v40, W51 m c main_v42, W51 m c main_v44, W51 m c main_v46, W51 m c main_v48, W51 m c main_v50] := by
    rw [W51_of m c main_v2 (by decide),
      W51_of m c main_v4 (by decide),
      W51_of m c main_v6 (by decide),
      W51_of m c main_v8 (by decide),
      W51_of m c main_v10 (by decide),
      W51_of m c main_v12 (by decide),
      W51_of m c main_v14 (by decide),
      W51_of m c main_v16 (by decide),
      W51_of m c main_v18 (by decide),
      W51_of m c main_v20 (by decide),
      W51_of m c main_v22 (by decide),
      W51_of m c main_v24 (by decide),
      W51_of m c main_v26 (by decide),
      W51_of m c main_v28 (by decide),
      W51_of m c main_v30 (by decide),
      W51_of m c main_v32 (by decide),
      W51_of m c main_v34 (by decide),
      W51_of m c main_v36 (by decide),
      W51_of m c main_v38 (by decide),
      W51_of m c main_v40 (by decide),
      W51_of m c main_v42 (by decide),
      W51_of m c main_v44 (by decide),
      W51_of m c main_v46 (by decide),
      W51_of m c main_v48 (by decide),
      W51_of m c main_v50 (by decide)]
  rw [W54_out, O26_eq, out26]
  show bnOf (W53 m c main_v53) (W53 m c main_v71) (W53 m c main_v72) = _
  unfold W53
  exact kernel_value_of_reads' (c := c) (W52 m c) _ _ _ _ _ _ (W51 m c main_v53)
    (W52_of m c main_v53 (by decide)) (by unfold W51; exact after_joined (W50 m c)) (by rw [hfam]; exact hchunk)
    (by rw [W52_out, O25_eq, out25]) (W52_main_arg2 m c) (W52_main_arg3 m c) hf hw hγ hβ

/-- The same at every core (there is one), the four inputs' realness stated at core 0 as the precondition gives it. -/
theorem kernel_value_of_family
    (hreal : (∀ i : S100000x128.Idx, ∃ r : ℝ, m ((0 : Dev nD).tc.loc main_arg0) i = (r : EReal))
      ∧ (∀ i : S128x128.Idx, ∃ r : ℝ, m ((0 : Dev nD).tc.loc main_arg1) i = (r : EReal))
      ∧ (∀ i : S128.Idx, ∃ r : ℝ, m ((0 : Dev nD).tc.loc main_arg2) i = (r : EReal))
      ∧ (∀ i : S128.Idx, ∃ r : ℝ, m ((0 : Dev nD).tc.loc main_arg3) i = (r : EReal)))
    (hchunk : ∀ (c : Dev nD) (K : Fin 25) (q : Fin 2000) (e : Fin 128),
      (![W51 m c main_v2, W51 m c main_v4, W51 m c main_v6, W51 m c main_v8, W51 m c main_v10, W51 m c main_v12, W51 m c main_v14, W51 m c main_v16, W51 m c main_v18, W51 m c main_v20, W51 m c main_v22, W51 m c main_v24, W51 m c main_v26, W51 m c main_v28, W51 m c main_v30, W51 m c main_v32, W51 m c main_v34, W51 m c main_v36, W51 m c main_v38, W51 m c main_v40, W51 m c main_v42, W51 m c main_v44, W51 m c main_v46, W51 m c main_v48, W51 m c main_v50] : Fin 25 → Vec Ideal S2000x128 .f32) K (ValueIdx.ix2 q e)
        = xOf (m ((c : Thread nD τ).loc main_arg0)) (m ((c : Thread nD τ).loc main_arg1)) (m ((c : Thread nD τ).loc main_arg4))
            (⟨2000 * K.val + q.val, by omega⟩ : Fin 50000) e)
    (c : Dev nD) :
    W54 m c main_v73
      = G (m ((c : Thread nD τ).loc main_arg0)) (m ((c : Thread nD τ).loc main_arg1)) (m ((c : Thread nD τ).loc main_arg2))
          (m ((c : Thread nD τ).loc main_arg3)) (m ((c : Thread nD τ).loc main_arg4)) := by
  obtain rfl : c = 0 := Subsingleton.elim _ _
  exact kernel_value_of_chunks m 0 (hchunk 0) hreal.1 hreal.2.1 hreal.2.2.1 hreal.2.2.2

end Cert.Val

end
-- ==== Proof.Val.KernelValueTop.lean ====
/-
  The kernel's last array is the result, given that each gather point's copies fetch the feature rows its table
  column names: the 25 launches' results are then the projected values of their nodes, and the chain of contents
  carries them to the last launch.
-/
import proofs.«403631_j48275432407145_1_alg».proof.Proof.Val.ChunkChain
import proofs.«403631_j48275432407145_1_alg».proof.Proof.Val.KernelTop

set_option maxRecDepth 16384

noncomputable section

namespace Cert.Val

open Cert.KernelIdeal Cert.KernelIdeal.Gen Cert.KernelIdeal.Hand
open Idealize.ShloMosaic Idealize.ShloMosaic.TcCoe
open scoped BigOperators

variable (m : (ℓ : Loc nD τ sig) → Buf (Elt Ideal) ℓ)

/-! ## From the rows the gather copies fetch -/

/-- THE LAST ARRAY IS THE RESULT, given that each gather point's copies fetch the feature rows its table column
    names. -/
theorem kernel_value_of_rows
    (hin : ∀ i : S50000x16.Idx, (m ((0 : Dev nD).tc.loc main_arg4) i).toNat < 100000)
    (hreal : (∀ i : S100000x128.Idx, ∃ r : ℝ, m ((0 : Dev nD).tc.loc main_arg0) i = (r : EReal))
      ∧ (∀ i : S128x128.Idx, ∃ r : ℝ, m ((0 : Dev nD).tc.loc main_arg1) i = (r : EReal))
      ∧ (∀ i : S128.Idx, ∃ r : ℝ, m ((0 : Dev nD).tc.loc main_arg2) i = (r : EReal))
      ∧ (∀ i : S128.Idx, ∃ r : ℝ, m ((0 : Dev nD).tc.loc main_arg3) i = (r : EReal)))
    (hga : ∀ tb : Vec Ideal S16x2000 .i32, FetchedRows tb (m ((0 : Dev nD).tc.loc main_arg0)))
    (c : Dev nD) :
    W54 m c main_v73
      = G (m ((c : Thread nD τ).loc main_arg0)) (m ((c : Thread nD τ).loc main_arg1)) (m ((c : Thread nD τ).loc main_arg2))
          (m ((c : Thread nD τ).loc main_arg3)) (m ((c : Thread nD τ).loc main_arg4)) :=
  kernel_value_of_family m hreal (fun c => chunks_value m hin hga c) c

end Cert.Val

end
-- ==== Proof.Val.KernelValueLast.lean ====
/-
  The kernel's value: the gather body's copies fetch the feature rows each point's table column names, so the last
  launch leaves the result, index by index, for in-range neighbour words and real inputs.
-/
import proofs.«403631_j48275432407145_1_alg».proof.Proof.Val.KernelValueTop

set_option maxRecDepth 16384

noncomputable section

namespace Cert.Val

open Cert.KernelIdeal Cert.KernelIdeal.Gen Cert.KernelIdeal.Hand
open Idealize.ShloMosaic Idealize.ShloMosaic.TcCoe

variable (m : (ℓ : Loc nD τ sig) → Buf (Elt Ideal) ℓ)

/-- THE KERNEL'S VALUE: the last launch leaves the result, index by index, for in-range neighbour words and real
    inputs. -/
theorem kernel_value
    (hin : ∀ i : S50000x16.Idx, (m ((0 : Dev nD).tc.loc main_arg4) i).toNat < 100000)
    (hreal : (∀ i : S100000x128.Idx, ∃ r : ℝ, m ((0 : Dev nD).tc.loc main_arg0) i = (r : EReal))
      ∧ (∀ i : S128x128.Idx, ∃ r : ℝ, m ((0 : Dev nD).tc.loc main_arg1) i = (r : EReal))
      ∧ (∀ i : S128.Idx, ∃ r : ℝ, m ((0 : Dev nD).tc.loc main_arg2) i = (r : EReal))
      ∧ (∀ i : S128.Idx, ∃ r : ℝ, m ((0 : Dev nD).tc.loc main_arg3) i = (r : EReal)))
    (c : Dev nD) :
    W54 m c main_v73
      = G (m ((c : Thread nD τ).loc main_arg0)) (m ((c : Thread nD τ).loc main_arg1)) (m ((c : Thread nD τ).loc main_arg2))
          (m ((c : Thread nD τ).loc main_arg3)) (m ((c : Thread nD τ).loc main_arg4)) :=
  kernel_value_of_rows m hin hreal
    (fun tb i k l hc h => Cert.KernelIdeal.Hand.gath24_apply (F := Ideal) i tb (m ((0 : Dev nD).tc.loc main_arg0)) k l hc h) c

end Cert.Val

end
-- ==== Proof.lean ====
/-
  The proof of `Cert.Claim`: the three programs run and leave their arguments as launched; the ideal reading of
  the kernel restates nothing; and at the ideal instance the kernel and the reference end with equal results.
  The kernel is 25 gather-and-project launches over 2000 nodes each, a statistics launch over the joined
  activations, host arithmetic for the per-column scale and bias, and a normalisation launch with a leaky
  rectifier. The precondition bounds every neighbour word to the feature array's rows — what every gather launch's
  table needs to run at all — and makes every float entry a real number. The reference is one straight line of
  host operations. Both results are ONE function of the five arguments, `Cert.Val.G`: the mean of the 16 gathered
  rows projected by the weights, normalised per column by the batch mean and variance with gain and offset, kept
  where non-negative and scaled by a hundredth elsewhere.
-/
import proofs.«403631_j48275432407145_1_alg».proof.Defs
import proofs.«403631_j48275432407145_1_alg».proof.Proof.Gen.Kernel
import proofs.«403631_j48275432407145_1_alg».proof.Proof.Gen.KernelIdeal
import proofs.«403631_j48275432407145_1_alg».proof.Proof.Gen.ReferenceIdeal
import proofs.«403631_j48275432407145_1_alg».proof.Proof.Gen.Pre_finite_inputs
import proofs.«403631_j48275432407145_1_alg».proof.Proof.KI.PreIdx
import proofs.«403631_j48275432407145_1_alg».proof.Proof.KB.PreIdx
import proofs.«403631_j48275432407145_1_alg».proof.Proof.Val.Spec
import proofs.«403631_j48275432407145_1_alg».proof.Proof.Val.PreFinite
import proofs.«403631_j48275432407145_1_alg».proof.Proof.Val.RefRun
import proofs.«403631_j48275432407145_1_alg».proof.Proof.Val.RefValue
import proofs.«403631_j48275432407145_1_alg».proof.Proof.KI.Chain
import proofs.«403631_j48275432407145_1_alg».proof.Proof.KI.Run
import proofs.«403631_j48275432407145_1_alg».proof.Proof.KB.Run
import proofs.«403631_j48275432407145_1_alg».proof.Proof.Val.KernelValueLast
import Idealize.ShloMosaic.Adequacy
import Idealize.ShloMosaic.Init

noncomputable section

/-! # The claims -/

namespace Cert.Proof

open Idealize.ShloMosaic Idealize.ShloMosaic.TcCoe Idealize.SL.Sem

/-- The program as printed runs and leaves its arguments as launched: the precondition bounds every neighbour
    word, which is what the 25 gather launches' tables need; the run's post, less the result's value. -/
theorem frame_k : Cert.frame_Kernel := fun m ρ hpre =>
  (θ_run (Cert.Kernel.defs (F := Bits)) _ _).mono (fun _ h c => (h c).2)
    (Cert.Kernel.Hand.run_main (F := Bits) m ρ
      (Cert.Kernel.Hand.idx_inRange (F := Bits) _ _ _ _ _ (hpre 0)))

/-- The same of the program read at the ideal instance. -/
theorem frame_ki : Cert.frame_KernelIdeal := fun m ρ hpre =>
  (θ_run (Cert.KernelIdeal.defs (F := Ideal)) _ _).mono (fun _ h c => (h c).2)
    (Cert.KernelIdeal.Hand.run_main (F := Ideal) m ρ
      (Cert.KernelIdeal.Hand.idx_inRange (F := Ideal) _ _ _ _ _ (hpre 0)))

/-- The reference is one straight line of host operations: it runs from any memory. -/
theorem frame_ri : Cert.frame_ReferenceIdeal := fun m ρ _ =>
  (θ_run (Cert.ReferenceIdeal.defs (F := Ideal)) _ _).mono (fun _ h c => (h c).2)
    (Cert.ReferenceIdeal.Hand.run (F := Ideal) m ρ)

/-- The ideal pass rewrote no operation: nothing to restate. -/
theorem preserves : Cert.preserves_Kernel_KernelIdeal := trivial

/-- At the ideal instance both programs end with the result at ONE function of the five arguments, `Cert.Val.G`:
    the kernel's chain of launches (its value lemma) and the reference's straight line (its term is `G` once the
    neighbour words are in range), from memories that agree on the arguments. -/
theorem algebraic : Cert.algebraic_KernelIdeal_ReferenceIdeal := by
  intro m ρ m' ρ' hpre hagree
  have h4 := Cert.KernelIdeal.Hand.idx_inRange (F := Ideal) _ _ _ _ _ (hpre 0)
  have hreal := Cert.Val.inputs_real _ _ _ _ _ (hpre 0)
  refine ⟨fun c => Cert.Val.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run (Cert.KernelIdeal.defs (F := Ideal)) _ _).mono
      (fun _ h c => ⟨(h c).1.trans (Cert.Val.kernel_value m h4 hreal c), (h c).2⟩)
      (Cert.KernelIdeal.Hand.run_main (F := Ideal) m ρ h4)
  · refine (θ_run (Cert.ReferenceIdeal.defs (F := Ideal)) _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2]
    exact Cert.ReferenceIdeal.Hand.refTerm_eq_G _ _ _ _ _
      (Cert.KernelIdeal.Hand.idx_inRange (F := Ideal) _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
